-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200x512 : Shape := ⟨3, ![1024, 200, 512]⟩
abbrev S1024x512 : Shape := ⟨2, ![1024, 512]⟩
abbrev S1024 : Shape := ⟨1, ![1024]⟩
abbrev S_ : Shape := ⟨0, ![]⟩

class Facts : Prop where
  bcast_S_S1024x200x512 : S_.BroadcastsInDim S1024x200x512 (![] : Fin 0 → Fin S1024x200x512.rank)
  reducesTo_S1024x200x512_S_d0_1_2 : S1024x200x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg3 : IVec S1024 32) (main_arg4 : IVec S1024 32) (main_v13 : IVec S_ 1) (main_v15 : IVec S1024 1) (main_c_5 : IVec S_ 32) : IVec S_ 1 :=
  let main_v16 : IVec S1024 32 := broadcastInDim S1024 ![] bcast_S_S1024 main_c_5
  let main_v17 : IVec S1024 1 := cmpi .sle main_arg3 main_v16
  let main_v18 : IVec S1024 1 := andi main_v15 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v13 main_v19
  let main_c_7 : IVec S_ 32 := constantI S_ 32 0#32
  let main_v21 : IVec S1024 32 := broadcastInDim S1024 ![] bcast_S_S1024 main_c_7
  let main_v22 : IVec S1024 1 := cmpi .sge main_arg4 main_v21
  let main_c_8 : IVec S_ 32 := constantI S_ 32 200#32
  let main_v23 : IVec S1024 32 := broadcastInDim S1024 ![] bcast_S_S1024 main_c_8
  let main_v24 : IVec S1024 1 := cmpi .slt main_arg4 main_v23
  let main_v25 : IVec S1024 1 := andi main_v22 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v20 main_v26
  main_v27

def fn {F : FTy → Type} [FloatOps F] (main_arg0 : FVec F S1024x200x512 .f32) (main_arg1 : FVec F S1024x512 .f32) (main_arg2 : FVec F S1024 .f32) (main_arg3 : IVec S1024 32) (main_arg4 : IVec S1024 32) : IVec S_ 1 :=
  let main_v0 : FVec F S1024x200x512 .f32 := Host.absf main_arg0
  let main_cst : FVec F S_ .f32 := constant S_ .f32 0x7F800000#32
  let main_v1 : FVec F S1024x200x512 .f32 := broadcastInDim S1024x200x512 ![] bcast_S_S1024x200x512 main_cst
  let main_v2 : IVec S1024x200x512 1 := cmpf .olt main_v0 main_v1
  let main_c : IVec S_ 1 := constantI S_ 1 1#1
  let main_v3 : IVec S_ 1 := (fun x v => Host.reduce IntOp.andi x v reducesTo_S1024x200x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg3 main_v14
  let main_c_5 : IVec S_ 32 := constantI S_ 32 200#32
  fn_part1 (F := F) main_arg3 main_arg4 main_v13 main_v15 main_c_5
-- ==== Kernel.lean ====
abbrev S1024x200x512 : Shape := ⟨3, ![1024, 200, 512]⟩
abbrev S1024x512 : Shape := ⟨2, ![1024, 512]⟩
abbrev S1024 : Shape := ⟨1, ![1024]⟩
abbrev S_ : Shape := ⟨0, ![]⟩
abbrev S1024x1x512 : Shape := ⟨3, ![1024, 1, 512]⟩
abbrev S256x1x512 : Shape := ⟨3, ![256, 1, 512]⟩
abbrev S16 : Shape := ⟨1, ![16]⟩
abbrev S1 : Shape := ⟨1, ![1]⟩
abbrev S1x1x512 : Shape := ⟨3, ![1, 1, 512]⟩
abbrev S1x512 : Shape := ⟨2, ![1, 512]⟩

abbrev nBuf : Space → Nat
  | .hbm => 23
  | .vmem => 2
  | .smem => 2
  | _ => 0

abbrev bufTy : (tb : Table) → Fin (tcTables nBuf tb) → BufTy
  | .hbm, ⟨0, _⟩ => ⟨S1024x200x512, .f32⟩
  | .hbm, ⟨1, _⟩ => ⟨S1024x512, .f32⟩
  | .hbm, ⟨2, _⟩ => ⟨S1024, .f32⟩
  | .hbm, ⟨3, _⟩ => ⟨S1024, .i32⟩
  | .hbm, ⟨4, _⟩ => ⟨S1024, .i32⟩
  | .hbm, ⟨5, _⟩ => ⟨S_, .f32⟩
  | .hbm, ⟨6, _⟩ => ⟨S1024, .f32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S1024, .i1⟩
  | .hbm, ⟨12, _⟩ => ⟨S1024, .i1⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024x1x512, .f32⟩
  | .hbm, ⟨22, _⟩ => ⟨S1024x200x512, .f32⟩
  | .local _ .vmem, ⟨0, _⟩ => ⟨S256x1x512, .f32⟩
  | .local _ .vmem, ⟨1, _⟩ => ⟨S256x1x512, .f32⟩
  | .local _ .smem, ⟨0, _⟩ => ⟨S1024, .i32⟩
  | .local _ .smem, ⟨1, _⟩ => ⟨S1024, .i32⟩
  | _, _ => ⟨S1024x200x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_v0_1 : Ref sig .tc := ⟨.hbm, 14, rfl⟩
abbrev main_call0_c_0 : Ref sig .tc := ⟨.hbm, 15, rfl⟩
abbrev main_call0_v8 : Ref sig .tc := ⟨.hbm, 16, rfl⟩
abbrev main_call0_v9 : Ref sig .tc := ⟨.hbm, 17, rfl⟩
abbrev main_call0_c_1 : Ref sig .tc := ⟨.hbm, 18, rfl⟩
abbrev main_call0_v10 : Ref sig .tc := ⟨.hbm, 19, rfl⟩
abbrev main_call0_v11 : Ref sig .tc := ⟨.hbm, 20, rfl⟩
abbrev main_call0_v14 : Ref sig .tc := ⟨.hbm, 21, rfl⟩
abbrev main_v0_0 : Ref sig .tc := ⟨.hbm, 22, rfl⟩
abbrev main_call0_v12 : Ref sig .tc := ⟨.smem, 0, rfl⟩
abbrev main_call0_v13 : Ref sig .tc := ⟨.smem, 1, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![4], ![false]⟩

abbrev pre0 : Pipeline.Prefetch sig := ⟨2, ![main_call0_v12.idx, main_call0_v13.idx], fun | 0 => main_call0_v12.names | 1 => main_call0_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v3073 : Index := Scalar.indexCast v1
  ![v3073.toNat]
def k0_off3 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let c0_i32_1287 : BitVec 32 := 0#32
  ![v1.toNat, v3074.toNat, 0]
def k0_cond1 (v3 : BitVec 32) : BitVec 1 :=
  let c0_i32_0 : BitVec 32 := 0#32
  let v4 : BitVec 1 := Scalar.cmpi .sgt v3 c0_i32_0
  let v5 : BitVec 32 := Scalar.extui v4
  let c0_i32_1 : BitVec 32 := 0#32
  let v6 : BitVec 1 := Scalar.cmpi .ne v5 c0_i32_1
  v6

def k0_chk1 (i : grid0.Coords) (v3 : BitVec 32) (v3074 : BitVec 32) : Prop :=
  (∀ (k0_h1 : k0_cond1 v3 = 1#1), ∀ a, (k0_off3 i v3074) a + S1x1x512.size a ≤ S1024x200x512.size a)
instance k0_chk1.dec : ∀ (i : grid0.Coords) (v3 : BitVec 32) (v3074 : BitVec 32), Decidable (k0_chk1 i v3 v3074) := fun i v3 v3074 => decidable_of_iff' _ (Iff.of_eq (k0_chk1.eq_1 i v3 v3074))
theorem k0_off3_inb : ∀ (i : grid0.Coords) (v3 : BitVec 32) (v3074 : BitVec 32) (k0_hw1 : k0_chk1 i v3 v3074), ∀ (k0_h1 : k0_cond1 v3 = 1#1), ∀ a, (k0_off3 i v3074) a + S1x1x512.size a ≤ S1024x200x512.size a := fun i v3 v3074 k0_hw1 k0_h1 => k0_hw1 k0_h1

def k0_off4 (i : grid0.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v7 : BitVec 32 := Scalar.addi v0 c1_i32
  let v8 : Index := Scalar.indexCast v7
  ![v8.toNat]
def k0_off5 (i : grid0.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v7 : BitVec 32 := Scalar.addi v0 c1_i32
  let v3073 : Index := Scalar.indexCast v7
  ![v3073.toNat]
def k0_off6 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c1_i32 : BitVec 32 := 1#32
  let v7 : BitVec 32 := Scalar.addi v0 c1_i32
  let c0_i32_1287 : BitVec 32 := 0#32
  ![v7.toNat, v3074.toNat, 0]
def k0_cond2 (v9 : BitVec 32) : BitVec 1 :=
  let c0_i32_2 : BitVec 32 := 0#32
  let v10 : BitVec 1 := Scalar.cmpi .sgt v9 c0_i32_2
  let v11 : BitVec 32 := Scalar.extui v10
  let c0_i32_3 : BitVec 32 := 0#32
  let v12 : BitVec 1 := Scalar.cmpi .ne v11 c0_i32_3
  v12

def k0_chk2 (i : grid0.Coords) (v9 : BitVec 32) (v3074 : BitVec 32) : Prop :=
  (∀ (k0_h2 : k0_cond2 v9 = 1#1), ∀ a, (k0_off6 i v3074) a + S1x1x512.size a ≤ S1024x200x512.size a)
instance k0_chk2.dec : ∀ (i : grid0.Coords) (v9 : BitVec 32) (v3074 : BitVec 32), Decidable (k0_chk2 i v9 v3074) := fun i v9 v3074 => decidable_of_iff' _ (Iff.of_eq (k0_chk2.eq_1 i v9 v3074))
theorem k0_off6_inb : ∀ (i : grid0.Coords) (v9 : BitVec 32) (v3074 : BitVec 32) (k0_hw2 : k0_chk2 i v9 v3074), ∀ (k0_h2 : k0_cond2 v9 = 1#1), ∀ a, (k0_off6 i v3074) a + S1x1x512.size a ≤ S1024x200x512.size a := fun i v9 v3074 k0_hw2 k0_h2 => k0_hw2 k0_h2

def k0_off7 (i : grid0.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v13 : BitVec 32 := Scalar.addi v0 c2_i32
  let v14 : Index := Scalar.indexCast v13
  ![v14.toNat]
def k0_off8 (i : grid0.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v13 : BitVec 32 := Scalar.addi v0 c2_i32
  let v3073 : Index := Scalar.indexCast v13
  ![v3073.toNat]
def k0_off9 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c2_i32 : BitVec 32 := 2#32
  let v13 : BitVec 32 := Scalar.addi v0 c2_i32
  let c0_i32_1287 : BitVec 32 := 0#32
  ![v13.toNat, v3074.toNat, 0]
def k0_cond3 (v15 : BitVec 32) : BitVec 1 :=
  let c0_i32_4 : BitVec 32 := 0#32
  let v16 : BitVec 1 := Scalar.cmpi .sgt v15 c0_i32_4
  let v17 : BitVec 32 := Scalar.extui v16
  let c0_i32_5 : BitVec 32 := 0#32
  let v18 : BitVec 1 := Scalar.cmpi .ne v17 c0_i32_5
  v18

def k0_chk3 (i : grid0.Coords) (v15 : BitVec 32) (v3074 : BitVec 32) : Prop :=
  (∀ (k0_h3 : k0_cond3 v15 = 1#1), ∀ a, (k0_off9 i v3074) a + S1x1x512.size a ≤ S1024x200x512.size a)
instance k0_chk3.dec : ∀ (i : grid0.Coords) (v15 : BitVec 32) (v3074 : BitVec 32), Decidable (k0_chk3 i v15 v3074) := fun i v15 v3074 => decidable_of_iff' _ (Iff.of_eq (k0_chk3.eq_1 i v15 v3074))
theorem k0_off9_inb : ∀ (i : grid0.Coords) (v15 : BitVec 32) (v3074 : BitVec 32) (k0_hw3 : k0_chk3 i v15 v3074), ∀ (k0_h3 : k0_cond3 v15 = 1#1), ∀ a, (k0_off9 i v3074) a + S1x1x512.size a ≤ S1024x200x512.size a := fun i v15 v3074 k0_hw3 k0_h3 => k0_hw3 k0_h3

def k0_off10 (i : grid0.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v19 : BitVec 32 := Scalar.addi v0 c3_i32
  let v20 : Index := Scalar.indexCast v19
  ![v20.toNat]
def k0_off11 (i : grid0.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v19 : BitVec 32 := Scalar.addi v0 c3_i32
  let v3073 : Index := Scalar.indexCast v19
  ![v3073.toNat]
def k0_off12 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c3_i32 : BitVec 32 := 3#32
  let v19 : BitVec 32 := Scalar.addi v0 c3_i32
  let c0_i32_1287 : BitVec 32 := 0#32
  ![v19.toNat, v3074.toNat, 0]
def k0_cond4 (v21 : BitVec 32) : BitVec 1 :=
  let c0_i32_6 : BitVec 32 := 0#32
  let v22 : BitVec 1 := Scalar.cmpi .sgt v21 c0_i32_6
  let v23 : BitVec 32 := Scalar.extui v22
  let c0_i32_7 : BitVec 32 := 0#32
  let v24 : BitVec 1 := Scalar.cmpi .ne v23 c0_i32_7
  v24

def k0_chk4 (i : grid0.Coords) (v21 : BitVec 32) (v3074 : BitVec 32) : Prop :=
  (∀ (k0_h4 : k0_cond4 v21 = 1#1), ∀ a, (k0_off12 i v3074) a + S1x1x512.size a ≤ S1024x200x512.size a)
instance k0_chk4.dec : ∀ (i : grid0.Coords) (v21 : BitVec 32) (v3074 : BitVec 32), Decidable (k0_chk4 i v21 v3074) := fun i v21 v3074 => decidable_of_iff' _ (Iff.of_eq (k0_chk4.eq_1 i v21 v3074))
theorem k0_off12_inb : ∀ (i : grid0.Coords) (v21 : BitVec 32) (v3074 : BitVec 32) (k0_hw4 : k0_chk4 i v21 v3074), ∀ (k0_h4 : k0_cond4 v21 = 1#1), ∀ a, (k0_off12 i v3074) a + S1x1x512.size a ≤ S1024x200x512.size a := fun i v21 v3074 k0_hw4 k0_h4 => k0_hw4 k0_h4

def k0_off13 (i : grid0.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v25 : BitVec 32 := Scalar.addi v0 c4_i32
  let v26 : Index := Scalar.indexCast v25
  ![v26.toNat]
def k0_off14 (i : grid0.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v25 : BitVec 32 := Scalar.addi v0 c4_i32
  let v3073 : Index := Scalar.indexCast v25
  ![v3073.toNat]
def k0_off15 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c4_i32 : BitVec 32 := 4#32
  let v25 : BitVec 32 := Scalar.addi v0 c4_i32
  let c0_i32_1287 : BitVec 32 := 0#32
  ![v25.toNat, v3074.toNat, 0]
def k0_cond5 (v27 : BitVec 32) : BitVec 1 :=
  let c0_i32_8 : BitVec 32 := 0#32
  let v28 : BitVec 1 := Scalar.cmpi .sgt v27 c0_i32_8
  let v29 : BitVec 32 := Scalar.extui v28
  let c0_i32_9 : BitVec 32 := 0#32
  let v30 : BitVec 1 := Scalar.cmpi .ne v29 c0_i32_9
  v30

def k0_chk5 (i : grid0.Coords) (v27 : BitVec 32) (v3074 : BitVec 32) : Prop :=
  (∀ (k0_h5 : k0_cond5 v27 = 1#1), ∀ a, (k0_off15 i v3074) a + S1x1x512.size a ≤ S1024x200x512.size a)
instance k0_chk5.dec : ∀ (i : grid0.Coords) (v27 : BitVec 32) (v3074 : BitVec 32), Decidable (k0_chk5 i v27 v3074) := fun i v27 v3074 => decidable_of_iff' _ (Iff.of_eq (k0_chk5.eq_1 i v27 v3074))
theorem k0_off15_inb : ∀ (i : grid0.Coords) (v27 : BitVec 32) (v3074 : BitVec 32) (k0_hw5 : k0_chk5 i v27 v3074), ∀ (k0_h5 : k0_cond5 v27 = 1#1), ∀ a, (k0_off15 i v3074) a + S1x1x512.size a ≤ S1024x200x512.size a := fun i v27 v3074 k0_hw5 k0_h5 => k0_hw5 k0_h5

def k0_off16 (i : grid0.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v31 : BitVec 32 := Scalar.addi v0 c5_i32
  let v32 : Index := Scalar.indexCast v31
  ![v32.toNat]
def k0_off17 (i : grid0.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v31 : BitVec 32 := Scalar.addi v0 c5_i32
  let v3073 : Index := Scalar.indexCast v31
  ![v3073.toNat]
def k0_off18 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c5_i32 : BitVec 32 := 5#32
  let v31 : BitVec 32 := Scalar.addi v0 c5_i32
  let c0_i32_1287 : BitVec 32 := 0#32
  ![v31.toNat, v3074.toNat, 0]
def k0_cond6 (v33 : BitVec 32) : BitVec 1 :=
  let c0_i32_10 : BitVec 32 := 0#32
  let v34 : BitVec 1 := Scalar.cmpi .sgt v33 c0_i32_10
  let v35 : BitVec 32 := Scalar.extui v34
  let c0_i32_11 : BitVec 32 := 0#32
  let v36 : BitVec 1 := Scalar.cmpi .ne v35 c0_i32_11
  v36

def k0_chk6 (i : grid0.Coords) (v33 : BitVec 32) (v3074 : BitVec 32) : Prop :=
  (∀ (k0_h6 : k0_cond6 v33 = 1#1), ∀ a, (k0_off18 i v3074) a + S1x1x512.size a ≤ S1024x200x512.size a)
instance k0_chk6.dec : ∀ (i : grid0.Coords) (v33 : BitVec 32) (v3074 : BitVec 32), Decidable (k0_chk6 i v33 v3074) := fun i v33 v3074 => decidable_of_iff' _ (Iff.of_eq (k0_chk6.eq_1 i v33 v3074))
theorem k0_off18_inb : ∀ (i : grid0.Coords) (v33 : BitVec 32) (v3074 : BitVec 32) (k0_hw6 : k0_chk6 i v33 v3074), ∀ (k0_h6 : k0_cond6 v33 = 1#1), ∀ a, (k0_off18 i v3074) a + S1x1x512.size a ≤ S1024x200x512.size a := fun i v33 v3074 k0_hw6 k0_h6 => k0_hw6 k0_h6

def k0_off19 (i : grid0.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v37 : BitVec 32 := Scalar.addi v0 c6_i32
  let v38 : Index := Scalar.indexCast v37
  ![v38.toNat]
def k0_off20 (i : grid0.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v37 : BitVec 32 := Scalar.addi v0 c6_i32
  let v3073 : Index := Scalar.indexCast v37
  ![v3073.toNat]
def k0_off21 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c6_i32 : BitVec 32 := 6#32
  let v37 : BitVec 32 := Scalar.addi v0 c6_i32
  let c0_i32_1287 : BitVec 32 := 0#32
  ![v37.toNat, v3074.toNat, 0]
def k0_cond7 (v39 : BitVec 32) : BitVec 1 :=
  let c0_i32_12 : BitVec 32 := 0#32
  let v40 : BitVec 1 := Scalar.cmpi .sgt v39 c0_i32_12
  let v41 : BitVec 32 := Scalar.extui v40
  let c0_i32_13 : BitVec 32 := 0#32
  let v42 : BitVec 1 := Scalar.cmpi .ne v41 c0_i32_13
  v42

def k0_chk7 (i : grid0.Coords) (v39 : BitVec 32) (v3074 : BitVec 32) : Prop :=
  (∀ (k0_h7 : k0_cond7 v39 = 1#1), ∀ a, (k0_off21 i v3074) a + S1x1x512.size a ≤ S1024x200x512.size a)
instance k0_chk7.dec : ∀ (i : grid0.Coords) (v39 : BitVec 32) (v3074 : BitVec 32), Decidable (k0_chk7 i v39 v3074) := fun i v39 v3074 => decidable_of_iff' _ (Iff.of_eq (k0_chk7.eq_1 i v39 v3074))
theorem k0_off21_inb : ∀ (i : grid0.Coords) (v39 : BitVec 32) (v3074 : BitVec 32) (k0_hw7 : k0_chk7 i v39 v3074), ∀ (k0_h7 : k0_cond7 v39 = 1#1), ∀ a, (k0_off21 i v3074) a + S1x1x512.size a ≤ S1024x200x512.size a := fun i v39 v3074 k0_hw7 k0_h7 => k0_hw7 k0_h7

def k0_off22 (i : grid0.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v43 : BitVec 32 := Scalar.addi v0 c7_i32
  let v44 : Index := Scalar.indexCast v43
  ![v44.toNat]
def k0_off23 (i : grid0.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v43 : BitVec 32 := Scalar.addi v0 c7_i32
  let v3073 : Index := Scalar.indexCast v43
  ![v3073.toNat]
def k0_off24 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c7_i32 : BitVec 32 := 7#32
  let v43 : BitVec 32 := Scalar.addi v0 c7_i32
  let c0_i32_1287 : BitVec 32 := 0#32
  ![v43.toNat, v3074.toNat, 0]
def k0_cond8 (v45 : BitVec 32) : BitVec 1 :=
  let c0_i32_14 : BitVec 32 := 0#32
  let v46 : BitVec 1 := Scalar.cmpi .sgt v45 c0_i32_14
  let v47 : BitVec 32 := Scalar.extui v46
  let c0_i32_15 : BitVec 32 := 0#32
  let v48 : BitVec 1 := Scalar.cmpi .ne v47 c0_i32_15
  v48

def k0_chk8 (i : grid0.Coords) (v45 : BitVec 32) (v3074 : BitVec 32) : Prop :=
  (∀ (k0_h8 : k0_cond8 v45 = 1#1), ∀ a, (k0_off24 i v3074) a + S1x1x512.size a ≤ S1024x200x512.size a)
instance k0_chk8.dec : ∀ (i : grid0.Coords) (v45 : BitVec 32) (v3074 : BitVec 32), Decidable (k0_chk8 i v45 v3074) := fun i v45 v3074 => decidable_of_iff' _ (Iff.of_eq (k0_chk8.eq_1 i v45 v3074))
theorem k0_off24_inb : ∀ (i : grid0.Coords) (v45 : BitVec 32) (v3074 : BitVec 32) (k0_hw8 : k0_chk8 i v45 v3074), ∀ (k0_h8 : k0_cond8 v45 = 1#1), ∀ a, (k0_off24 i v3074) a + S1x1x512.size a ≤ S1024x200x512.size a := fun i v45 v3074 k0_hw8 k0_h8 => k0_hw8 k0_h8

def k0_off25 (i : grid0.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v49 : BitVec 32 := Scalar.addi v0 c8_i32
  let v50 : Index := Scalar.indexCast v49
  ![v50.toNat]
def k0_off26 (i : grid0.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v49 : BitVec 32 := Scalar.addi v0 c8_i32
  let v3073 : Index := Scalar.indexCast v49
  ![v3073.toNat]
def k0_off27 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c8_i32 : BitVec 32 := 8#32
  let v49 : BitVec 32 := Scalar.addi v0 c8_i32
  let c0_i32_1287 : BitVec 32 := 0#32
  ![v49.toNat, v3074.toNat, 0]
def k0_cond9 (v51 : BitVec 32) : BitVec 1 :=
  let c0_i32_16 : BitVec 32 := 0#32
  let v52 : BitVec 1 := Scalar.cmpi .sgt v51 c0_i32_16
  let v53 : BitVec 32 := Scalar.extui v52
  let c0_i32_17 : BitVec 32 := 0#32
  let v54 : BitVec 1 := Scalar.cmpi .ne v53 c0_i32_17
  v54

def k0_chk9 (i : grid0.Coords) (v51 : BitVec 32) (v3074 : BitVec 32) : Prop :=
  (∀ (k0_h9 : k0_cond9 v51 = 1#1), ∀ a, (k0_off27 i v3074) a + S1x1x512.size a ≤ S1024x200x512.size a)
instance k0_chk9.dec : ∀ (i : grid0.Coords) (v51 : BitVec 32) (v3074 : BitVec 32), Decidable (k0_chk9 i v51 v3074) := fun i v51 v3074 => decidable_of_iff' _ (Iff.of_eq (k0_chk9.eq_1 i v51 v3074))
theorem k0_off27_inb : ∀ (i : grid0.Coords) (v51 : BitVec 32) (v3074 : BitVec 32) (k0_hw9 : k0_chk9 i v51 v3074), ∀ (k0_h9 : k0_cond9 v51 = 1#1), ∀ a, (k0_off27 i v3074) a + S1x1x512.size a ≤ S1024x200x512.size a := fun i v51 v3074 k0_hw9 k0_h9 => k0_hw9 k0_h9

def k0_off28 (i : grid0.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v55 : BitVec 32 := Scalar.addi v0 c9_i32
  let v56 : Index := Scalar.indexCast v55
  ![v56.toNat]
def k0_off29 (i : grid0.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v55 : BitVec 32 := Scalar.addi v0 c9_i32
  let v3073 : Index := Scalar.indexCast v55
  ![v3073.toNat]
def k0_off30 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c9_i32 : BitVec 32 := 9#32
  let v55 : BitVec 32 := Scalar.addi v0 c9_i32
  let c0_i32_1287 : BitVec 32 := 0#32
  ![v55.toNat, v3074.toNat, 0]
def k0_cond10 (v57 : BitVec 32) : BitVec 1 :=
  let c0_i32_18 : BitVec 32 := 0#32
  let v58 : BitVec 1 := Scalar.cmpi .sgt v57 c0_i32_18
  let v59 : BitVec 32 := Scalar.extui v58
  let c0_i32_19 : BitVec 32 := 0#32
  let v60 : BitVec 1 := Scalar.cmpi .ne v59 c0_i32_19
  v60

def k0_chk10 (i : grid0.Coords) (v57 : BitVec 32) (v3074 : BitVec 32) : Prop :=
  (∀ (k0_h10 : k0_cond10 v57 = 1#1), ∀ a, (k0_off30 i v3074) a + S1x1x512.size a ≤ S1024x200x512.size a)
instance k0_chk10.dec : ∀ (i : grid0.Coords) (v57 : BitVec 32) (v3074 : BitVec 32), Decidable (k0_chk10 i v57 v3074) := fun i v57 v3074 => decidable_of_iff' _ (Iff.of_eq (k0_chk10.eq_1 i v57 v3074))
theorem k0_off30_inb : ∀ (i : grid0.Coords) (v57 : BitVec 32) (v3074 : BitVec 32) (k0_hw10 : k0_chk10 i v57 v3074), ∀ (k0_h10 : k0_cond10 v57 = 1#1), ∀ a, (k0_off30 i v3074) a + S1x1x512.size a ≤ S1024x200x512.size a := fun i v57 v3074 k0_hw10 k0_h10 => k0_hw10 k0_h10

def k0_off31 (i : grid0.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v61 : BitVec 32 := Scalar.addi v0 c10_i32
  let v62 : Index := Scalar.indexCast v61
  ![v62.toNat]
def k0_off32 (i : grid0.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v61 : BitVec 32 := Scalar.addi v0 c10_i32
  let v3073 : Index := Scalar.indexCast v61
  ![v3073.toNat]
def k0_off33 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c10_i32 : BitVec 32 := 10#32
  let v61 : BitVec 32 := Scalar.addi v0 c10_i32
  let c0_i32_1287 : BitVec 32 := 0#32
  ![v61.toNat, v3074.toNat, 0]
def k0_cond11 (v63 : BitVec 32) : BitVec 1 :=
  let c0_i32_20 : BitVec 32 := 0#32
  let v64 : BitVec 1 := Scalar.cmpi .sgt v63 c0_i32_20
  let v65 : BitVec 32 := Scalar.extui v64
  let c0_i32_21 : BitVec 32 := 0#32
  let v66 : BitVec 1 := Scalar.cmpi .ne v65 c0_i32_21
  v66

def k0_chk11 (i : grid0.Coords) (v63 : BitVec 32) (v3074 : BitVec 32) : Prop :=
  (∀ (k0_h11 : k0_cond11 v63 = 1#1), ∀ a, (k0_off33 i v3074) a + S1x1x512.size a ≤ S1024x200x512.size a)
instance k0_chk11.dec : ∀ (i : grid0.Coords) (v63 : BitVec 32) (v3074 : BitVec 32), Decidable (k0_chk11 i v63 v3074) := fun i v63 v3074 => decidable_of_iff' _ (Iff.of_eq (k0_chk11.eq_1 i v63 v3074))
theorem k0_off33_inb : ∀ (i : grid0.Coords) (v63 : BitVec 32) (v3074 : BitVec 32) (k0_hw11 : k0_chk11 i v63 v3074), ∀ (k0_h11 : k0_cond11 v63 = 1#1), ∀ a, (k0_off33 i v3074) a + S1x1x512.size a ≤ S1024x200x512.size a := fun i v63 v3074 k0_hw11 k0_h11 => k0_hw11 k0_h11

def k0_off34 (i : grid0.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v67 : BitVec 32 := Scalar.addi v0 c11_i32
  let v68 : Index := Scalar.indexCast v67
  ![v68.toNat]
def k0_off35 (i : grid0.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v67 : BitVec 32 := Scalar.addi v0 c11_i32
  let v3073 : Index := Scalar.indexCast v67
  ![v3073.toNat]
def k0_off36 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c11_i32 : BitVec 32 := 11#32
  let v67 : BitVec 32 := Scalar.addi v0 c11_i32
  let c0_i32_1287 : BitVec 32 := 0#32
  ![v67.toNat, v3074.toNat, 0]
def k0_cond12 (v69 : BitVec 32) : BitVec 1 :=
  let c0_i32_22 : BitVec 32 := 0#32
  let v70 : BitVec 1 := Scalar.cmpi .sgt v69 c0_i32_22
  let v71 : BitVec 32 := Scalar.extui v70
  let c0_i32_23 : BitVec 32 := 0#32
  let v72 : BitVec 1 := Scalar.cmpi .ne v71 c0_i32_23
  v72

def k0_chk12 (i : grid0.Coords) (v69 : BitVec 32) (v3074 : BitVec 32) : Prop :=
  (∀ (k0_h12 : k0_cond12 v69 = 1#1), ∀ a, (k0_off36 i v3074) a + S1x1x512.size a ≤ S1024x200x512.size a)
instance k0_chk12.dec : ∀ (i : grid0.Coords) (v69 : BitVec 32) (v3074 : BitVec 32), Decidable (k0_chk12 i v69 v3074) := fun i v69 v3074 => decidable_of_iff' _ (Iff.of_eq (k0_chk12.eq_1 i v69 v3074))
theorem k0_off36_inb : ∀ (i : grid0.Coords) (v69 : BitVec 32) (v3074 : BitVec 32) (k0_hw12 : k0_chk12 i v69 v3074), ∀ (k0_h12 : k0_cond12 v69 = 1#1), ∀ a, (k0_off36 i v3074) a + S1x1x512.size a ≤ S1024x200x512.size a := fun i v69 v3074 k0_hw12 k0_h12 => k0_hw12 k0_h12

def k0_off37 (i : grid0.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v73 : BitVec 32 := Scalar.addi v0 c12_i32
  let v74 : Index := Scalar.indexCast v73
  ![v74.toNat]
def k0_off38 (i : grid0.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v73 : BitVec 32 := Scalar.addi v0 c12_i32
  let v3073 : Index := Scalar.indexCast v73
  ![v3073.toNat]
def k0_off39 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c12_i32 : BitVec 32 := 12#32
  let v73 : BitVec 32 := Scalar.addi v0 c12_i32
  let c0_i32_1287 : BitVec 32 := 0#32
  ![v73.toNat, v3074.toNat, 0]
def k0_cond13 (v75 : BitVec 32) : BitVec 1 :=
  let c0_i32_24 : BitVec 32 := 0#32
  let v76 : BitVec 1 := Scalar.cmpi .sgt v75 c0_i32_24
  let v77 : BitVec 32 := Scalar.extui v76
  let c0_i32_25 : BitVec 32 := 0#32
  let v78 : BitVec 1 := Scalar.cmpi .ne v77 c0_i32_25
  v78

def k0_chk13 (i : grid0.Coords) (v75 : BitVec 32) (v3074 : BitVec 32) : Prop :=
  (∀ (k0_h13 : k0_cond13 v75 = 1#1), ∀ a, (k0_off39 i v3074) a + S1x1x512.size a ≤ S1024x200x512.size a)
instance k0_chk13.dec : ∀ (i : grid0.Coords) (v75 : BitVec 32) (v3074 : BitVec 32), Decidable (k0_chk13 i v75 v3074) := fun i v75 v3074 => decidable_of_iff' _ (Iff.of_eq (k0_chk13.eq_1 i v75 v3074))
theorem k0_off39_inb : ∀ (i : grid0.Coords) (v75 : BitVec 32) (v3074 : BitVec 32) (k0_hw13 : k0_chk13 i v75 v3074), ∀ (k0_h13 : k0_cond13 v75 = 1#1), ∀ a, (k0_off39 i v3074) a + S1x1x512.size a ≤ S1024x200x512.size a := fun i v75 v3074 k0_hw13 k0_h13 => k0_hw13 k0_h13

def k0_off40 (i : grid0.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v79 : BitVec 32 := Scalar.addi v0 c13_i32
  let v80 : Index := Scalar.indexCast v79
  ![v80.toNat]
def k0_off41 (i : grid0.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v79 : BitVec 32 := Scalar.addi v0 c13_i32
  let v3073 : Index := Scalar.indexCast v79
  ![v3073.toNat]
def k0_off42 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c13_i32 : BitVec 32 := 13#32
  let v79 : BitVec 32 := Scalar.addi v0 c13_i32
  let c0_i32_1287 : BitVec 32 := 0#32
  ![v79.toNat, v3074.toNat, 0]
def k0_cond14 (v81 : BitVec 32) : BitVec 1 :=
  let c0_i32_26 : BitVec 32 := 0#32
  let v82 : BitVec 1 := Scalar.cmpi .sgt v81 c0_i32_26
  let v83 : BitVec 32 := Scalar.extui v82
  let c0_i32_27 : BitVec 32 := 0#32
  let v84 : BitVec 1 := Scalar.cmpi .ne v83 c0_i32_27
  v84

def k0_chk14 (i : grid0.Coords) (v81 : BitVec 32) (v3074 : BitVec 32) : Prop :=
  (∀ (k0_h14 : k0_cond14 v81 = 1#1), ∀ a, (k0_off42 i v3074) a + S1x1x512.size a ≤ S1024x200x512.size a)
instance k0_chk14.dec : ∀ (i : grid0.Coords) (v81 : BitVec 32) (v3074 : BitVec 32), Decidable (k0_chk14 i v81 v3074) := fun i v81 v3074 => decidable_of_iff' _ (Iff.of_eq (k0_chk14.eq_1 i v81 v3074))
theorem k0_off42_inb : ∀ (i : grid0.Coords) (v81 : BitVec 32) (v3074 : BitVec 32) (k0_hw14 : k0_chk14 i v81 v3074), ∀ (k0_h14 : k0_cond14 v81 = 1#1), ∀ a, (k0_off42 i v3074) a + S1x1x512.size a ≤ S1024x200x512.size a := fun i v81 v3074 k0_hw14 k0_h14 => k0_hw14 k0_h14

def k0_off43 (i : grid0.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v85 : BitVec 32 := Scalar.addi v0 c14_i32
  let v86 : Index := Scalar.indexCast v85
  ![v86.toNat]
def k0_off44 (i : grid0.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v85 : BitVec 32 := Scalar.addi v0 c14_i32
  let v3073 : Index := Scalar.indexCast v85
  ![v3073.toNat]
def k0_off45 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c14_i32 : BitVec 32 := 14#32
  let v85 : BitVec 32 := Scalar.addi v0 c14_i32
  let c0_i32_1287 : BitVec 32 := 0#32
  ![v85.toNat, v3074.toNat, 0]
def k0_cond15 (v87 : BitVec 32) : BitVec 1 :=
  let c0_i32_28 : BitVec 32 := 0#32
  let v88 : BitVec 1 := Scalar.cmpi .sgt v87 c0_i32_28
  let v89 : BitVec 32 := Scalar.extui v88
  let c0_i32_29 : BitVec 32 := 0#32
  let v90 : BitVec 1 := Scalar.cmpi .ne v89 c0_i32_29
  v90

def k0_chk15 (i : grid0.Coords) (v87 : BitVec 32) (v3074 : BitVec 32) : Prop :=
  (∀ (k0_h15 : k0_cond15 v87 = 1#1), ∀ a, (k0_off45 i v3074) a + S1x1x512.size a ≤ S1024x200x512.size a)
instance k0_chk15.dec : ∀ (i : grid0.Coords) (v87 : BitVec 32) (v3074 : BitVec 32), Decidable (k0_chk15 i v87 v3074) := fun i v87 v3074 => decidable_of_iff' _ (Iff.of_eq (k0_chk15.eq_1 i v87 v3074))
theorem k0_off45_inb : ∀ (i : grid0.Coords) (v87 : BitVec 32) (v3074 : BitVec 32) (k0_hw15 : k0_chk15 i v87 v3074), ∀ (k0_h15 : k0_cond15 v87 = 1#1), ∀ a, (k0_off45 i v3074) a + S1x1x512.size a ≤ S1024x200x512.size a := fun i v87 v3074 k0_hw15 k0_h15 => k0_hw15 k0_h15

def k0_off46 (i : grid0.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v91 : BitVec 32 := Scalar.addi v0 c15_i32
  let v92 : Index := Scalar.indexCast v91
  ![v92.toNat]
def k0_off47 (i : grid0.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v91 : BitVec 32 := Scalar.addi v0 c15_i32
  let v3073 : Index := Scalar.indexCast v91
  ![v3073.toNat]
def k0_off48 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c15_i32 : BitVec 32 := 15#32
  let v91 : BitVec 32 := Scalar.addi v0 c15_i32
  let c0_i32_1287 : BitVec 32 := 0#32
  ![v91.toNat, v3074.toNat, 0]
def k0_cond16 (v93 : BitVec 32) : BitVec 1 :=
  let c0_i32_30 : BitVec 32 := 0#32
  let v94 : BitVec 1 := Scalar.cmpi .sgt v93 c0_i32_30
  let v95 : BitVec 32 := Scalar.extui v94
  let c0_i32_31 : BitVec 32 := 0#32
  let v96 : BitVec 1 := Scalar.cmpi .ne v95 c0_i32_31
  v96

def k0_chk16 (i : grid0.Coords) (v93 : BitVec 32) (v3074 : BitVec 32) : Prop :=
  (∀ (k0_h16 : k0_cond16 v93 = 1#1), ∀ a, (k0_off48 i v3074) a + S1x1x512.size a ≤ S1024x200x512.size a)
instance k0_chk16.dec : ∀ (i : grid0.Coords) (v93 : BitVec 32) (v3074 : BitVec 32), Decidable (k0_chk16 i v93 v3074) := fun i v93 v3074 => decidable_of_iff' _ (Iff.of_eq (k0_chk16.eq_1 i v93 v3074))
theorem k0_off48_inb : ∀ (i : grid0.Coords) (v93 : BitVec 32) (v3074 : BitVec 32) (k0_hw16 : k0_chk16 i v93 v3074), ∀ (k0_h16 : k0_cond16 v93 = 1#1), ∀ a, (k0_off48 i v3074) a + S1x1x512.size a ≤ S1024x200x512.size a := fun i v93 v3074 k0_hw16 k0_h16 => k0_hw16 k0_h16

def k0_off49 (i : grid0.Coords) : Fin 1 → Nat :=
  let arg0 : BitVec 32 := BitVec.ofNat 32 (i 0).val
  let c256_i32 : BitVec 32 := 256#32
  let v0 : BitVec 32 := Scalar.muli arg0 c256_i32
  let c0_i32_32 : BitVec 32 := 0#32
  let v97 : BitVec 32 := Scalar.addi v0 c0_i32_32
  let v98 : Index := Scalar.indexCast v97
  ![v98.toNat]
def k0_off50 (i : grid0.Coords) : Fin 1 → Nat :=
  let arg0 : BitVec 32 := BitVec.ofNat 32 (i 0).val
  let c256_i32 : BitVec 32 := 256#32
  let v0 : BitVec 32 := Scalar.muli arg0 c256_i32
  let c0_i32_32 : BitVec 32 := 0#32
  let v97 : BitVec 32 := Scalar.addi v0 c0_i32_32
  let v3073 : Index := Scalar.indexCast v97
  ![v3073.toNat]
def k0_off51 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c0_i32_32 : BitVec 32 := 0#32
  let v97 : BitVec 32 := Scalar.addi v0 c0_i32_32
  let c0_i32_1282 : BitVec 32 := 0#32
  ![v97.toNat, v3074.toNat, 0]
def k0_cond17 (v99 : BitVec 32) : BitVec 1 :=
  let c0_i32_33 : BitVec 32 := 0#32
  let v100 : BitVec 1 := Scalar.cmpi .sgt v99 c0_i32_33
  let v101 : BitVec 32 := Scalar.extui v100
  let c0_i32_34 : BitVec 32 := 0#32
  let v102 : BitVec 1 := Scalar.cmpi .ne v101 c0_i32_34
  v102

def k0_chk17 (i : grid0.Coords) (v99 : BitVec 32) (v3074 : BitVec 32) : Prop :=
  (∀ (k0_h17 : k0_cond17 v99 = 1#1), ∀ a, (k0_off51 i v3074) a + S1x1x512.size a ≤ S1024x200x512.size a)
instance k0_chk17.dec : ∀ (i : grid0.Coords) (v99 : BitVec 32) (v3074 : BitVec 32), Decidable (k0_chk17 i v99 v3074) := fun i v99 v3074 => decidable_of_iff' _ (Iff.of_eq (k0_chk17.eq_1 i v99 v3074))
theorem k0_off51_inb : ∀ (i : grid0.Coords) (v99 : BitVec 32) (v3074 : BitVec 32) (k0_hw17 : k0_chk17 i v99 v3074), ∀ (k0_h17 : k0_cond17 v99 = 1#1), ∀ a, (k0_off51 i v3074) a + S1x1x512.size a ≤ S1024x200x512.size a := fun i v99 v3074 k0_hw17 k0_h17 => k0_hw17 k0_h17

def k0_off52 (i : grid0.Coords) : Fin 1 → Nat :=
  let arg0 : BitVec 32 := BitVec.ofNat 32 (i 0).val
  let c256_i32 : BitVec 32 := 256#32
  let v0 : BitVec 32 := Scalar.muli arg0 c256_i32
  let c1_i32_35 : BitVec 32 := 1#32
  let v103 : BitVec 32 := Scalar.addi v0 c1_i32_35
  let v104 : Index := Scalar.indexCast v103
  ![v104.toNat]
def k0_off53 (i : grid0.Coords) : Fin 1 → Nat :=
  let arg0 : BitVec 32 := BitVec.ofNat 32 (i 0).val
  let c256_i32 : BitVec 32 := 256#32
  let v0 : BitVec 32 := Scalar.muli arg0 c256_i32
  let c1_i32_35 : BitVec 32 := 1#32
  let v103 : BitVec 32 := Scalar.addi v0 c1_i32_35
  let v3073 : Index := Scalar.indexCast v103
  ![v3073.toNat]
def k0_off54 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c1_i32_35 : BitVec 32 := 1#32
  let v103 : BitVec 32 := Scalar.addi v0 c1_i32_35
  let c0_i32_1282 : BitVec 32 := 0#32
  ![v103.toNat, v3074.toNat, 0]
def k0_cond18 (v105 : BitVec 32) : BitVec 1 :=
  let c0_i32_36 : BitVec 32 := 0#32
  let v106 : BitVec 1 := Scalar.cmpi .sgt v105 c0_i32_36
  let v107 : BitVec 32 := Scalar.extui v106
  let c0_i32_37 : BitVec 32 := 0#32
  let v108 : BitVec 1 := Scalar.cmpi .ne v107 c0_i32_37
  v108

def k0_chk18 (i : grid0.Coords) (v105 : BitVec 32) (v3074 : BitVec 32) : Prop :=
  (∀ (k0_h18 : k0_cond18 v105 = 1#1), ∀ a, (k0_off54 i v3074) a + S1x1x512.size a ≤ S1024x200x512.size a)
instance k0_chk18.dec : ∀ (i : grid0.Coords) (v105 : BitVec 32) (v3074 : BitVec 32), Decidable (k0_chk18 i v105 v3074) := fun i v105 v3074 => decidable_of_iff' _ (Iff.of_eq (k0_chk18.eq_1 i v105 v3074))
theorem k0_off54_inb : ∀ (i : grid0.Coords) (v105 : BitVec 32) (v3074 : BitVec 32) (k0_hw18 : k0_chk18 i v105 v3074), ∀ (k0_h18 : k0_cond18 v105 = 1#1), ∀ a, (k0_off54 i v3074) a + S1x1x512.size a ≤ S1024x200x512.size a := fun i v105 v3074 k0_hw18 k0_h18 => k0_hw18 k0_h18

def k0_off55 (i : grid0.Coords) : Fin 1 → Nat :=
  let arg0 : BitVec 32 := BitVec.ofNat 32 (i 0).val
  let c256_i32 : BitVec 32 := 256#32
  let v0 : BitVec 32 := Scalar.muli arg0 c256_i32
  let c2_i32_38 : BitVec 32 := 2#32
  let v109 : BitVec 32 := Scalar.addi v0 c2_i32_38
  let v110 : Index := Scalar.indexCast v109
  ![v110.toNat]
def k0_off56 (i : grid0.Coords) : Fin 1 → Nat :=
  let arg0 : BitVec 32 := BitVec.ofNat 32 (i 0).val
  let c256_i32 : BitVec 32 := 256#32
  let v0 : BitVec 32 := Scalar.muli arg0 c256_i32
  let c2_i32_38 : BitVec 32 := 2#32
  let v109 : BitVec 32 := Scalar.addi v0 c2_i32_38
  let v3073 : Index := Scalar.indexCast v109
  ![v3073.toNat]
def k0_off57 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c2_i32_38 : BitVec 32 := 2#32
  let v109 : BitVec 32 := Scalar.addi v0 c2_i32_38
  let c0_i32_1282 : BitVec 32 := 0#32
  ![v109.toNat, v3074.toNat, 0]
def k0_cond19 (v111 : BitVec 32) : BitVec 1 :=
  let c0_i32_39 : BitVec 32 := 0#32
  let v112 : BitVec 1 := Scalar.cmpi .sgt v111 c0_i32_39
  let v113 : BitVec 32 := Scalar.extui v112
  let c0_i32_40 : BitVec 32 := 0#32
  let v114 : BitVec 1 := Scalar.cmpi .ne v113 c0_i32_40
  v114

def k0_chk19 (i : grid0.Coords) (v111 : BitVec 32) (v3074 : BitVec 32) : Prop :=
  (∀ (k0_h19 : k0_cond19 v111 = 1#1), ∀ a, (k0_off57 i v3074) a + S1x1x512.size a ≤ S1024x200x512.size a)
instance k0_chk19.dec : ∀ (i : grid0.Coords) (v111 : BitVec 32) (v3074 : BitVec 32), Decidable (k0_chk19 i v111 v3074) := fun i v111 v3074 => decidable_of_iff' _ (Iff.of_eq (k0_chk19.eq_1 i v111 v3074))
theorem k0_off57_inb : ∀ (i : grid0.Coords) (v111 : BitVec 32) (v3074 : BitVec 32) (k0_hw19 : k0_chk19 i v111 v3074), ∀ (k0_h19 : k0_cond19 v111 = 1#1), ∀ a, (k0_off57 i v3074) a + S1x1x512.size a ≤ S1024x200x512.size a := fun i v111 v3074 k0_hw19 k0_h19 => k0_hw19 k0_h19

def k0_off58 (i : grid0.Coords) : Fin 1 → Nat :=
  let arg0 : BitVec 32 := BitVec.ofNat 32 (i 0).val
  let c256_i32 : BitVec 32 := 256#32
  let v0 : BitVec 32 := Scalar.muli arg0 c256_i32
  let c3_i32_41 : BitVec 32 := 3#32
  let v115 : BitVec 32 := Scalar.addi v0 c3_i32_41
  let v116 : Index := Scalar.indexCast v115
  ![v116.toNat]
def k0_off59 (i : grid0.Coords) : Fin 1 → Nat :=
  let arg0 : BitVec 32 := BitVec.ofNat 32 (i 0).val
  let c256_i32 : BitVec 32 := 256#32
  let v0 : BitVec 32 := Scalar.muli arg0 c256_i32
  let c3_i32_41 : BitVec 32 := 3#32
  let v115 : BitVec 32 := Scalar.addi v0 c3_i32_41
  let v3073 : Index := Scalar.indexCast v115
  ![v3073.toNat]
def k0_off60 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c3_i32_41 : BitVec 32 := 3#32
  let v115 : BitVec 32 := Scalar.addi v0 c3_i32_41
  let c0_i32_1282 : BitVec 32 := 0#32
  ![v115.toNat, v3074.toNat, 0]
def k0_cond20 (v117 : BitVec 32) : BitVec 1 :=
  let c0_i32_42 : BitVec 32 := 0#32
  let v118 : BitVec 1 := Scalar.cmpi .sgt v117 c0_i32_42
  let v119 : BitVec 32 := Scalar.extui v118
  let c0_i32_43 : BitVec 32 := 0#32
  let v120 : BitVec 1 := Scalar.cmpi .ne v119 c0_i32_43
  v120

def k0_chk20 (i : grid0.Coords) (v117 : BitVec 32) (v3074 : BitVec 32) : Prop :=
  (∀ (k0_h20 : k0_cond20 v117 = 1#1), ∀ a, (k0_off60 i v3074) a + S1x1x512.size a ≤ S1024x200x512.size a)
instance k0_chk20.dec : ∀ (i : grid0.Coords) (v117 : BitVec 32) (v3074 : BitVec 32), Decidable (k0_chk20 i v117 v3074) := fun i v117 v3074 => decidable_of_iff' _ (Iff.of_eq (k0_chk20.eq_1 i v117 v3074))
theorem k0_off60_inb : ∀ (i : grid0.Coords) (v117 : BitVec 32) (v3074 : BitVec 32) (k0_hw20 : k0_chk20 i v117 v3074), ∀ (k0_h20 : k0_cond20 v117 = 1#1), ∀ a, (k0_off60 i v3074) a + S1x1x512.size a ≤ S1024x200x512.size a := fun i v117 v3074 k0_hw20 k0_h20 => k0_hw20 k0_h20

def k0_off61 (i : grid0.Coords) : Fin 1 → Nat :=
  let arg0 : BitVec 32 := BitVec.ofNat 32 (i 0).val
  let c256_i32 : BitVec 32 := 256#32
  let v0 : BitVec 32 := Scalar.muli arg0 c256_i32
  let c4_i32_44 : BitVec 32 := 4#32
  let v121 : BitVec 32 := Scalar.addi v0 c4_i32_44
  let v122 : Index := Scalar.indexCast v121
  ![v122.toNat]
def k0_off62 (i : grid0.Coords) : Fin 1 → Nat :=
  let arg0 : BitVec 32 := BitVec.ofNat 32 (i 0).val
  let c256_i32 : BitVec 32 := 256#32
  let v0 : BitVec 32 := Scalar.muli arg0 c256_i32
  let c4_i32_44 : BitVec 32 := 4#32
  let v121 : BitVec 32 := Scalar.addi v0 c4_i32_44
  let v3073 : Index := Scalar.indexCast v121
  ![v3073.toNat]
def k0_off63 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c4_i32_44 : BitVec 32 := 4#32
  let v121 : BitVec 32 := Scalar.addi v0 c4_i32_44
  let c0_i32_1282 : BitVec 32 := 0#32
  ![v121.toNat, v3074.toNat, 0]
def k0_cond21 (v123 : BitVec 32) : BitVec 1 :=
  let c0_i32_45 : BitVec 32 := 0#32
  let v124 : BitVec 1 := Scalar.cmpi .sgt v123 c0_i32_45
  let v125 : BitVec 32 := Scalar.extui v124
  let c0_i32_46 : BitVec 32 := 0#32
  let v126 : BitVec 1 := Scalar.cmpi .ne v125 c0_i32_46
  v126

def k0_chk21 (i : grid0.Coords) (v123 : BitVec 32) (v3074 : BitVec 32) : Prop :=
  (∀ (k0_h21 : k0_cond21 v123 = 1#1), ∀ a, (k0_off63 i v3074) a + S1x1x512.size a ≤ S1024x200x512.size a)
instance k0_chk21.dec : ∀ (i : grid0.Coords) (v123 : BitVec 32) (v3074 : BitVec 32), Decidable (k0_chk21 i v123 v3074) := fun i v123 v3074 => decidable_of_iff' _ (Iff.of_eq (k0_chk21.eq_1 i v123 v3074))
theorem k0_off63_inb : ∀ (i : grid0.Coords) (v123 : BitVec 32) (v3074 : BitVec 32) (k0_hw21 : k0_chk21 i v123 v3074), ∀ (k0_h21 : k0_cond21 v123 = 1#1), ∀ a, (k0_off63 i v3074) a + S1x1x512.size a ≤ S1024x200x512.size a := fun i v123 v3074 k0_hw21 k0_h21 => k0_hw21 k0_h21

def k0_off64 (i : grid0.Coords) : Fin 1 → Nat :=
  let arg0 : BitVec 32 := BitVec.ofNat 32 (i 0).val
  let c256_i32 : BitVec 32 := 256#32
  let v0 : BitVec 32 := Scalar.muli arg0 c256_i32
  let c5_i32_47 : BitVec 32 := 5#32
  let v127 : BitVec 32 := Scalar.addi v0 c5_i32_47
  let v128 : Index := Scalar.indexCast v127
  ![v128.toNat]
def k0_off65 (i : grid0.Coords) : Fin 1 → Nat :=
  let arg0 : BitVec 32 := BitVec.ofNat 32 (i 0).val
  let c256_i32 : BitVec 32 := 256#32
  let v0 : BitVec 32 := Scalar.muli arg0 c256_i32
  let c5_i32_47 : BitVec 32 := 5#32
  let v127 : BitVec 32 := Scalar.addi v0 c5_i32_47
  let v3073 : Index := Scalar.indexCast v127
  ![v3073.toNat]
def k0_off66 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c5_i32_47 : BitVec 32 := 5#32
  let v127 : BitVec 32 := Scalar.addi v0 c5_i32_47
  let c0_i32_1282 : BitVec 32 := 0#32
  ![v127.toNat, v3074.toNat, 0]
def k0_cond22 (v129 : BitVec 32) : BitVec 1 :=
  let c0_i32_48 : BitVec 32 := 0#32
  let v130 : BitVec 1 := Scalar.cmpi .sgt v129 c0_i32_48
  let v131 : BitVec 32 := Scalar.extui v130
  let c0_i32_49 : BitVec 32 := 0#32
  let v132 : BitVec 1 := Scalar.cmpi .ne v131 c0_i32_49
  v132

def k0_chk22 (i : grid0.Coords) (v129 : BitVec 32) (v3074 : BitVec 32) : Prop :=
  (∀ (k0_h22 : k0_cond22 v129 = 1#1), ∀ a, (k0_off66 i v3074) a + S1x1x512.size a ≤ S1024x200x512.size a)
instance k0_chk22.dec : ∀ (i : grid0.Coords) (v129 : BitVec 32) (v3074 : BitVec 32), Decidable (k0_chk22 i v129 v3074) := fun i v129 v3074 => decidable_of_iff' _ (Iff.of_eq (k0_chk22.eq_1 i v129 v3074))
theorem k0_off66_inb : ∀ (i : grid0.Coords) (v129 : BitVec 32) (v3074 : BitVec 32) (k0_hw22 : k0_chk22 i v129 v3074), ∀ (k0_h22 : k0_cond22 v129 = 1#1), ∀ a, (k0_off66 i v3074) a + S1x1x512.size a ≤ S1024x200x512.size a := fun i v129 v3074 k0_hw22 k0_h22 => k0_hw22 k0_h22

def k0_off67 (i : grid0.Coords) : Fin 1 → Nat :=
  let arg0 : BitVec 32 := BitVec.ofNat 32 (i 0).val
  let c256_i32 : BitVec 32 := 256#32
  let v0 : BitVec 32 := Scalar.muli arg0 c256_i32
  let c6_i32_50 : BitVec 32 := 6#32
  let v133 : BitVec 32 := Scalar.addi v0 c6_i32_50
  let v134 : Index := Scalar.indexCast v133
  ![v134.toNat]
def k0_off68 (i : grid0.Coords) : Fin 1 → Nat :=
  let arg0 : BitVec 32 := BitVec.ofNat 32 (i 0).val
  let c256_i32 : BitVec 32 := 256#32
  let v0 : BitVec 32 := Scalar.muli arg0 c256_i32
  let c6_i32_50 : BitVec 32 := 6#32
  let v133 : BitVec 32 := Scalar.addi v0 c6_i32_50
  let v3073 : Index := Scalar.indexCast v133
  ![v3073.toNat]
def k0_off69 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c6_i32_50 : BitVec 32 := 6#32
  let v133 : BitVec 32 := Scalar.addi v0 c6_i32_50
  let c0_i32_1282 : BitVec 32 := 0#32
  ![v133.toNat, v3074.toNat, 0]
def k0_cond23 (v135 : BitVec 32) : BitVec 1 :=
  let c0_i32_51 : BitVec 32 := 0#32
  let v136 : BitVec 1 := Scalar.cmpi .sgt v135 c0_i32_51
  let v137 : BitVec 32 := Scalar.extui v136
  let c0_i32_52 : BitVec 32 := 0#32
  let v138 : BitVec 1 := Scalar.cmpi .ne v137 c0_i32_52
  v138

def k0_chk23 (i : grid0.Coords) (v135 : BitVec 32) (v3074 : BitVec 32) : Prop :=
  (∀ (k0_h23 : k0_cond23 v135 = 1#1), ∀ a, (k0_off69 i v3074) a + S1x1x512.size a ≤ S1024x200x512.size a)
instance k0_chk23.dec : ∀ (i : grid0.Coords) (v135 : BitVec 32) (v3074 : BitVec 32), Decidable (k0_chk23 i v135 v3074) := fun i v135 v3074 => decidable_of_iff' _ (Iff.of_eq (k0_chk23.eq_1 i v135 v3074))
theorem k0_off69_inb : ∀ (i : grid0.Coords) (v135 : BitVec 32) (v3074 : BitVec 32) (k0_hw23 : k0_chk23 i v135 v3074), ∀ (k0_h23 : k0_cond23 v135 = 1#1), ∀ a, (k0_off69 i v3074) a + S1x1x512.size a ≤ S1024x200x512.size a := fun i v135 v3074 k0_hw23 k0_h23 => k0_hw23 k0_h23

def k0_off70 (i : grid0.Coords) : Fin 1 → Nat :=
  let arg0 : BitVec 32 := BitVec.ofNat 32 (i 0).val
  let c256_i32 : BitVec 32 := 256#32
  let v0 : BitVec 32 := Scalar.muli arg0 c256_i32
  let c7_i32_53 : BitVec 32 := 7#32
  let v139 : BitVec 32 := Scalar.addi v0 c7_i32_53
  let v140 : Index := Scalar.indexCast v139
  ![v140.toNat]
def k0_off71 (i : grid0.Coords) : Fin 1 → Nat :=
  let arg0 : BitVec 32 := BitVec.ofNat 32 (i 0).val
  let c256_i32 : BitVec 32 := 256#32
  let v0 : BitVec 32 := Scalar.muli arg0 c256_i32
  let c7_i32_53 : BitVec 32 := 7#32
  let v139 : BitVec 32 := Scalar.addi v0 c7_i32_53
  let v3073 : Index := Scalar.indexCast v139
  ![v3073.toNat]
def k0_off72 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c7_i32_53 : BitVec 32 := 7#32
  let v139 : BitVec 32 := Scalar.addi v0 c7_i32_53
  let c0_i32_1282 : BitVec 32 := 0#32
  ![v139.toNat, v3074.toNat, 0]
def k0_cond24 (v141 : BitVec 32) : BitVec 1 :=
  let c0_i32_54 : BitVec 32 := 0#32
  let v142 : BitVec 1 := Scalar.cmpi .sgt v141 c0_i32_54
  let v143 : BitVec 32 := Scalar.extui v142
  let c0_i32_55 : BitVec 32 := 0#32
  let v144 : BitVec 1 := Scalar.cmpi .ne v143 c0_i32_55
  v144

def k0_chk24 (i : grid0.Coords) (v141 : BitVec 32) (v3074 : BitVec 32) : Prop :=
  (∀ (k0_h24 : k0_cond24 v141 = 1#1), ∀ a, (k0_off72 i v3074) a + S1x1x512.size a ≤ S1024x200x512.size a)
instance k0_chk24.dec : ∀ (i : grid0.Coords) (v141 : BitVec 32) (v3074 : BitVec 32), Decidable (k0_chk24 i v141 v3074) := fun i v141 v3074 => decidable_of_iff' _ (Iff.of_eq (k0_chk24.eq_1 i v141 v3074))
theorem k0_off72_inb : ∀ (i : grid0.Coords) (v141 : BitVec 32) (v3074 : BitVec 32) (k0_hw24 : k0_chk24 i v141 v3074), ∀ (k0_h24 : k0_cond24 v141 = 1#1), ∀ a, (k0_off72 i v3074) a + S1x1x512.size a ≤ S1024x200x512.size a := fun i v141 v3074 k0_hw24 k0_h24 => k0_hw24 k0_h24

def k0_off73 (i : grid0.Coords) : Fin 1 → Nat :=
  let arg0 : BitVec 32 := BitVec.ofNat 32 (i 0).val
  let c256_i32 : BitVec 32 := 256#32
  let v0 : BitVec 32 := Scalar.muli arg0 c256_i32
  let c8_i32_56 : BitVec 32 := 8#32
  let v145 : BitVec 32 := Scalar.addi v0 c8_i32_56
  let v146 : Index := Scalar.indexCast v145
  ![v146.toNat]
def k0_off74 (i : grid0.Coords) : Fin 1 → Nat :=
  let arg0 : BitVec 32 := BitVec.ofNat 32 (i 0).val
  let c256_i32 : BitVec 32 := 256#32
  let v0 : BitVec 32 := Scalar.muli arg0 c256_i32
  let c8_i32_56 : BitVec 32 := 8#32
  let v145 : BitVec 32 := Scalar.addi v0 c8_i32_56
  let v3073 : Index := Scalar.indexCast v145
  ![v3073.toNat]
def k0_off75 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c8_i32_56 : BitVec 32 := 8#32
  let v145 : BitVec 32 := Scalar.addi v0 c8_i32_56
  let c0_i32_1282 : BitVec 32 := 0#32
  ![v145.toNat, v3074.toNat, 0]
def k0_cond25 (v147 : BitVec 32) : BitVec 1 :=
  let c0_i32_57 : BitVec 32 := 0#32
  let v148 : BitVec 1 := Scalar.cmpi .sgt v147 c0_i32_57
  let v149 : BitVec 32 := Scalar.extui v148
  let c0_i32_58 : BitVec 32 := 0#32
  let v150 : BitVec 1 := Scalar.cmpi .ne v149 c0_i32_58
  v150

def k0_chk25 (i : grid0.Coords) (v147 : BitVec 32) (v3074 : BitVec 32) : Prop :=
  (∀ (k0_h25 : k0_cond25 v147 = 1#1), ∀ a, (k0_off75 i v3074) a + S1x1x512.size a ≤ S1024x200x512.size a)
instance k0_chk25.dec : ∀ (i : grid0.Coords) (v147 : BitVec 32) (v3074 : BitVec 32), Decidable (k0_chk25 i v147 v3074) := fun i v147 v3074 => decidable_of_iff' _ (Iff.of_eq (k0_chk25.eq_1 i v147 v3074))
theorem k0_off75_inb : ∀ (i : grid0.Coords) (v147 : BitVec 32) (v3074 : BitVec 32) (k0_hw25 : k0_chk25 i v147 v3074), ∀ (k0_h25 : k0_cond25 v147 = 1#1), ∀ a, (k0_off75 i v3074) a + S1x1x512.size a ≤ S1024x200x512.size a := fun i v147 v3074 k0_hw25 k0_h25 => k0_hw25 k0_h25

def k0_off76 (i : grid0.Coords) : Fin 1 → Nat :=
  let arg0 : BitVec 32 := BitVec.ofNat 32 (i 0).val
  let c256_i32 : BitVec 32 := 256#32
  let v0 : BitVec 32 := Scalar.muli arg0 c256_i32
  let c9_i32_59 : BitVec 32 := 9#32
  let v151 : BitVec 32 := Scalar.addi v0 c9_i32_59
  let v152 : Index := Scalar.indexCast v151
  ![v152.toNat]
def k0_off77 (i : grid0.Coords) : Fin 1 → Nat :=
  let arg0 : BitVec 32 := BitVec.ofNat 32 (i 0).val
  let c256_i32 : BitVec 32 := 256#32
  let v0 : BitVec 32 := Scalar.muli arg0 c256_i32
  let c9_i32_59 : BitVec 32 := 9#32
  let v151 : BitVec 32 := Scalar.addi v0 c9_i32_59
  let v3073 : Index := Scalar.indexCast v151
  ![v3073.toNat]
def k0_off78 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c9_i32_59 : BitVec 32 := 9#32
  let v151 : BitVec 32 := Scalar.addi v0 c9_i32_59
  let c0_i32_1282 : BitVec 32 := 0#32
  ![v151.toNat, v3074.toNat, 0]
def k0_cond26 (v153 : BitVec 32) : BitVec 1 :=
  let c0_i32_60 : BitVec 32 := 0#32
  let v154 : BitVec 1 := Scalar.cmpi .sgt v153 c0_i32_60
  let v155 : BitVec 32 := Scalar.extui v154
  let c0_i32_61 : BitVec 32 := 0#32
  let v156 : BitVec 1 := Scalar.cmpi .ne v155 c0_i32_61
  v156

def k0_chk26 (i : grid0.Coords) (v153 : BitVec 32) (v3074 : BitVec 32) : Prop :=
  (∀ (k0_h26 : k0_cond26 v153 = 1#1), ∀ a, (k0_off78 i v3074) a + S1x1x512.size a ≤ S1024x200x512.size a)
instance k0_chk26.dec : ∀ (i : grid0.Coords) (v153 : BitVec 32) (v3074 : BitVec 32), Decidable (k0_chk26 i v153 v3074) := fun i v153 v3074 => decidable_of_iff' _ (Iff.of_eq (k0_chk26.eq_1 i v153 v3074))
theorem k0_off78_inb : ∀ (i : grid0.Coords) (v153 : BitVec 32) (v3074 : BitVec 32) (k0_hw26 : k0_chk26 i v153 v3074), ∀ (k0_h26 : k0_cond26 v153 = 1#1), ∀ a, (k0_off78 i v3074) a + S1x1x512.size a ≤ S1024x200x512.size a := fun i v153 v3074 k0_hw26 k0_h26 => k0_hw26 k0_h26

def k0_off79 (i : grid0.Coords) : Fin 1 → Nat :=
  let arg0 : BitVec 32 := BitVec.ofNat 32 (i 0).val
  let c256_i32 : BitVec 32 := 256#32
  let v0 : BitVec 32 := Scalar.muli arg0 c256_i32
  let c10_i32_62 : BitVec 32 := 10#32
  let v157 : BitVec 32 := Scalar.addi v0 c10_i32_62
  let v158 : Index := Scalar.indexCast v157
  ![v158.toNat]
def k0_off80 (i : grid0.Coords) : Fin 1 → Nat :=
  let arg0 : BitVec 32 := BitVec.ofNat 32 (i 0).val
  let c256_i32 : BitVec 32 := 256#32
  let v0 : BitVec 32 := Scalar.muli arg0 c256_i32
  let c10_i32_62 : BitVec 32 := 10#32
  let v157 : BitVec 32 := Scalar.addi v0 c10_i32_62
  let v3073 : Index := Scalar.indexCast v157
  ![v3073.toNat]
def k0_off81 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c10_i32_62 : BitVec 32 := 10#32
  let v157 : BitVec 32 := Scalar.addi v0 c10_i32_62
  let c0_i32_1282 : BitVec 32 := 0#32
  ![v157.toNat, v3074.toNat, 0]
def k0_cond27 (v159 : BitVec 32) : BitVec 1 :=
  let c0_i32_63 : BitVec 32 := 0#32
  let v160 : BitVec 1 := Scalar.cmpi .sgt v159 c0_i32_63
  let v161 : BitVec 32 := Scalar.extui v160
  let c0_i32_64 : BitVec 32 := 0#32
  let v162 : BitVec 1 := Scalar.cmpi .ne v161 c0_i32_64
  v162

def k0_chk27 (i : grid0.Coords) (v159 : BitVec 32) (v3074 : BitVec 32) : Prop :=
  (∀ (k0_h27 : k0_cond27 v159 = 1#1), ∀ a, (k0_off81 i v3074) a + S1x1x512.size a ≤ S1024x200x512.size a)
instance k0_chk27.dec : ∀ (i : grid0.Coords) (v159 : BitVec 32) (v3074 : BitVec 32), Decidable (k0_chk27 i v159 v3074) := fun i v159 v3074 => decidable_of_iff' _ (Iff.of_eq (k0_chk27.eq_1 i v159 v3074))
theorem k0_off81_inb : ∀ (i : grid0.Coords) (v159 : BitVec 32) (v3074 : BitVec 32) (k0_hw27 : k0_chk27 i v159 v3074), ∀ (k0_h27 : k0_cond27 v159 = 1#1), ∀ a, (k0_off81 i v3074) a + S1x1x512.size a ≤ S1024x200x512.size a := fun i v159 v3074 k0_hw27 k0_h27 => k0_hw27 k0_h27

def k0_off82 (i : grid0.Coords) : Fin 1 → Nat :=
  let arg0 : BitVec 32 := BitVec.ofNat 32 (i 0).val
  let c256_i32 : BitVec 32 := 256#32
  let v0 : BitVec 32 := Scalar.muli arg0 c256_i32
  let c11_i32_65 : BitVec 32 := 11#32
  let v163 : BitVec 32 := Scalar.addi v0 c11_i32_65
  let v164 : Index := Scalar.indexCast v163
  ![v164.toNat]
def k0_off83 (i : grid0.Coords) : Fin 1 → Nat :=
  let arg0 : BitVec 32 := BitVec.ofNat 32 (i 0).val
  let c256_i32 : BitVec 32 := 256#32
  let v0 : BitVec 32 := Scalar.muli arg0 c256_i32
  let c11_i32_65 : BitVec 32 := 11#32
  let v163 : BitVec 32 := Scalar.addi v0 c11_i32_65
  let v3073 : Index := Scalar.indexCast v163
  ![v3073.toNat]
def k0_off84 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c11_i32_65 : BitVec 32 := 11#32
  let v163 : BitVec 32 := Scalar.addi v0 c11_i32_65
  let c0_i32_1282 : BitVec 32 := 0#32
  ![v163.toNat, v3074.toNat, 0]
def k0_cond28 (v165 : BitVec 32) : BitVec 1 :=
  let c0_i32_66 : BitVec 32 := 0#32
  let v166 : BitVec 1 := Scalar.cmpi .sgt v165 c0_i32_66
  let v167 : BitVec 32 := Scalar.extui v166
  let c0_i32_67 : BitVec 32 := 0#32
  let v168 : BitVec 1 := Scalar.cmpi .ne v167 c0_i32_67
  v168

def k0_chk28 (i : grid0.Coords) (v165 : BitVec 32) (v3074 : BitVec 32) : Prop :=
  (∀ (k0_h28 : k0_cond28 v165 = 1#1), ∀ a, (k0_off84 i v3074) a + S1x1x512.size a ≤ S1024x200x512.size a)
instance k0_chk28.dec : ∀ (i : grid0.Coords) (v165 : BitVec 32) (v3074 : BitVec 32), Decidable (k0_chk28 i v165 v3074) := fun i v165 v3074 => decidable_of_iff' _ (Iff.of_eq (k0_chk28.eq_1 i v165 v3074))
theorem k0_off84_inb : ∀ (i : grid0.Coords) (v165 : BitVec 32) (v3074 : BitVec 32) (k0_hw28 : k0_chk28 i v165 v3074), ∀ (k0_h28 : k0_cond28 v165 = 1#1), ∀ a, (k0_off84 i v3074) a + S1x1x512.size a ≤ S1024x200x512.size a := fun i v165 v3074 k0_hw28 k0_h28 => k0_hw28 k0_h28

def k0_off85 (i : grid0.Coords) : Fin 1 → Nat :=
  let arg0 : BitVec 32 := BitVec.ofNat 32 (i 0).val
  let c256_i32 : BitVec 32 := 256#32
  let v0 : BitVec 32 := Scalar.muli arg0 c256_i32
  let c12_i32_68 : BitVec 32 := 12#32
  let v169 : BitVec 32 := Scalar.addi v0 c12_i32_68
  let v170 : Index := Scalar.indexCast v169
  ![v170.toNat]
def k0_off86 (i : grid0.Coords) : Fin 1 → Nat :=
  let arg0 : BitVec 32 := BitVec.ofNat 32 (i 0).val
  let c256_i32 : BitVec 32 := 256#32
  let v0 : BitVec 32 := Scalar.muli arg0 c256_i32
  let c12_i32_68 : BitVec 32 := 12#32
  let v169 : BitVec 32 := Scalar.addi v0 c12_i32_68
  let v3073 : Index := Scalar.indexCast v169
  ![v3073.toNat]
def k0_off87 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c12_i32_68 : BitVec 32 := 12#32
  let v169 : BitVec 32 := Scalar.addi v0 c12_i32_68
  let c0_i32_1282 : BitVec 32 := 0#32
  ![v169.toNat, v3074.toNat, 0]
def k0_cond29 (v171 : BitVec 32) : BitVec 1 :=
  let c0_i32_69 : BitVec 32 := 0#32
  let v172 : BitVec 1 := Scalar.cmpi .sgt v171 c0_i32_69
  let v173 : BitVec 32 := Scalar.extui v172
  let c0_i32_70 : BitVec 32 := 0#32
  let v174 : BitVec 1 := Scalar.cmpi .ne v173 c0_i32_70
  v174

def k0_chk29 (i : grid0.Coords) (v171 : BitVec 32) (v3074 : BitVec 32) : Prop :=
  (∀ (k0_h29 : k0_cond29 v171 = 1#1), ∀ a, (k0_off87 i v3074) a + S1x1x512.size a ≤ S1024x200x512.size a)
instance k0_chk29.dec : ∀ (i : grid0.Coords) (v171 : BitVec 32) (v3074 : BitVec 32), Decidable (k0_chk29 i v171 v3074) := fun i v171 v3074 => decidable_of_iff' _ (Iff.of_eq (k0_chk29.eq_1 i v171 v3074))
theorem k0_off87_inb : ∀ (i : grid0.Coords) (v171 : BitVec 32) (v3074 : BitVec 32) (k0_hw29 : k0_chk29 i v171 v3074), ∀ (k0_h29 : k0_cond29 v171 = 1#1), ∀ a, (k0_off87 i v3074) a + S1x1x512.size a ≤ S1024x200x512.size a := fun i v171 v3074 k0_hw29 k0_h29 => k0_hw29 k0_h29

def k0_off88 (i : grid0.Coords) : Fin 1 → Nat :=
  let arg0 : BitVec 32 := BitVec.ofNat 32 (i 0).val
  let c256_i32 : BitVec 32 := 256#32
  let v0 : BitVec 32 := Scalar.muli arg0 c256_i32
  let c13_i32_71 : BitVec 32 := 13#32
  let v175 : BitVec 32 := Scalar.addi v0 c13_i32_71
  let v176 : Index := Scalar.indexCast v175
  ![v176.toNat]
def k0_off89 (i : grid0.Coords) : Fin 1 → Nat :=
  let arg0 : BitVec 32 := BitVec.ofNat 32 (i 0).val
  let c256_i32 : BitVec 32 := 256#32
  let v0 : BitVec 32 := Scalar.muli arg0 c256_i32
  let c13_i32_71 : BitVec 32 := 13#32
  let v175 : BitVec 32 := Scalar.addi v0 c13_i32_71
  let v3073 : Index := Scalar.indexCast v175
  ![v3073.toNat]
def k0_off90 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c13_i32_71 : BitVec 32 := 13#32
  let v175 : BitVec 32 := Scalar.addi v0 c13_i32_71
  let c0_i32_1282 : BitVec 32 := 0#32
  ![v175.toNat, v3074.toNat, 0]
def k0_cond30 (v177 : BitVec 32) : BitVec 1 :=
  let c0_i32_72 : BitVec 32 := 0#32
  let v178 : BitVec 1 := Scalar.cmpi .sgt v177 c0_i32_72
  let v179 : BitVec 32 := Scalar.extui v178
  let c0_i32_73 : BitVec 32 := 0#32
  let v180 : BitVec 1 := Scalar.cmpi .ne v179 c0_i32_73
  v180

def k0_chk30 (i : grid0.Coords) (v177 : BitVec 32) (v3074 : BitVec 32) : Prop :=
  (∀ (k0_h30 : k0_cond30 v177 = 1#1), ∀ a, (k0_off90 i v3074) a + S1x1x512.size a ≤ S1024x200x512.size a)
instance k0_chk30.dec : ∀ (i : grid0.Coords) (v177 : BitVec 32) (v3074 : BitVec 32), Decidable (k0_chk30 i v177 v3074) := fun i v177 v3074 => decidable_of_iff' _ (Iff.of_eq (k0_chk30.eq_1 i v177 v3074))
theorem k0_off90_inb : ∀ (i : grid0.Coords) (v177 : BitVec 32) (v3074 : BitVec 32) (k0_hw30 : k0_chk30 i v177 v3074), ∀ (k0_h30 : k0_cond30 v177 = 1#1), ∀ a, (k0_off90 i v3074) a + S1x1x512.size a ≤ S1024x200x512.size a := fun i v177 v3074 k0_hw30 k0_h30 => k0_hw30 k0_h30

def k0_off91 (i : grid0.Coords) : Fin 1 → Nat :=
  let arg0 : BitVec 32 := BitVec.ofNat 32 (i 0).val
  let c256_i32 : BitVec 32 := 256#32
  let v0 : BitVec 32 := Scalar.muli arg0 c256_i32
  let c14_i32_74 : BitVec 32 := 14#32
  let v181 : BitVec 32 := Scalar.addi v0 c14_i32_74
  let v182 : Index := Scalar.indexCast v181
  ![v182.toNat]
def k0_off92 (i : grid0.Coords) : Fin 1 → Nat :=
  let arg0 : BitVec 32 := BitVec.ofNat 32 (i 0).val
  let c256_i32 : BitVec 32 := 256#32
  let v0 : BitVec 32 := Scalar.muli arg0 c256_i32
  let c14_i32_74 : BitVec 32 := 14#32
  let v181 : BitVec 32 := Scalar.addi v0 c14_i32_74
  let v3073 : Index := Scalar.indexCast v181
  ![v3073.toNat]
def k0_off93 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c14_i32_74 : BitVec 32 := 14#32
  let v181 : BitVec 32 := Scalar.addi v0 c14_i32_74
  let c0_i32_1282 : BitVec 32 := 0#32
  ![v181.toNat, v3074.toNat, 0]
def k0_cond31 (v183 : BitVec 32) : BitVec 1 :=
  let c0_i32_75 : BitVec 32 := 0#32
  let v184 : BitVec 1 := Scalar.cmpi .sgt v183 c0_i32_75
  let v185 : BitVec 32 := Scalar.extui v184
  let c0_i32_76 : BitVec 32 := 0#32
  let v186 : BitVec 1 := Scalar.cmpi .ne v185 c0_i32_76
  v186

def k0_chk31 (i : grid0.Coords) (v183 : BitVec 32) (v3074 : BitVec 32) : Prop :=
  (∀ (k0_h31 : k0_cond31 v183 = 1#1), ∀ a, (k0_off93 i v3074) a + S1x1x512.size a ≤ S1024x200x512.size a)
instance k0_chk31.dec : ∀ (i : grid0.Coords) (v183 : BitVec 32) (v3074 : BitVec 32), Decidable (k0_chk31 i v183 v3074) := fun i v183 v3074 => decidable_of_iff' _ (Iff.of_eq (k0_chk31.eq_1 i v183 v3074))
theorem k0_off93_inb : ∀ (i : grid0.Coords) (v183 : BitVec 32) (v3074 : BitVec 32) (k0_hw31 : k0_chk31 i v183 v3074), ∀ (k0_h31 : k0_cond31 v183 = 1#1), ∀ a, (k0_off93 i v3074) a + S1x1x512.size a ≤ S1024x200x512.size a := fun i v183 v3074 k0_hw31 k0_h31 => k0_hw31 k0_h31

def k0_off94 (i : grid0.Coords) : Fin 1 → Nat :=
  let arg0 : BitVec 32 := BitVec.ofNat 32 (i 0).val
  let c256_i32 : BitVec 32 := 256#32
  let v0 : BitVec 32 := Scalar.muli arg0 c256_i32
  let c15_i32_77 : BitVec 32 := 15#32
  let v187 : BitVec 32 := Scalar.addi v0 c15_i32_77
  let v188 : Index := Scalar.indexCast v187
  ![v188.toNat]
def k0_off95 (i : grid0.Coords) : Fin 1 → Nat :=
  let arg0 : BitVec 32 := BitVec.ofNat 32 (i 0).val
  let c256_i32 : BitVec 32 := 256#32
  let v0 : BitVec 32 := Scalar.muli arg0 c256_i32
  let c15_i32_77 : BitVec 32 := 15#32
  let v187 : BitVec 32 := Scalar.addi v0 c15_i32_77
  let v3073 : Index := Scalar.indexCast v187
  ![v3073.toNat]
def k0_off96 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c15_i32_77 : BitVec 32 := 15#32
  let v187 : BitVec 32 := Scalar.addi v0 c15_i32_77
  let c0_i32_1282 : BitVec 32 := 0#32
  ![v187.toNat, v3074.toNat, 0]
def k0_cond32 (v189 : BitVec 32) : BitVec 1 :=
  let c0_i32_78 : BitVec 32 := 0#32
  let v190 : BitVec 1 := Scalar.cmpi .sgt v189 c0_i32_78
  let v191 : BitVec 32 := Scalar.extui v190
  let c0_i32_79 : BitVec 32 := 0#32
  let v192 : BitVec 1 := Scalar.cmpi .ne v191 c0_i32_79
  v192

def k0_chk32 (i : grid0.Coords) (v189 : BitVec 32) (v3074 : BitVec 32) : Prop :=
  (∀ (k0_h32 : k0_cond32 v189 = 1#1), ∀ a, (k0_off96 i v3074) a + S1x1x512.size a ≤ S1024x200x512.size a)
instance k0_chk32.dec : ∀ (i : grid0.Coords) (v189 : BitVec 32) (v3074 : BitVec 32), Decidable (k0_chk32 i v189 v3074) := fun i v189 v3074 => decidable_of_iff' _ (Iff.of_eq (k0_chk32.eq_1 i v189 v3074))
theorem k0_off96_inb : ∀ (i : grid0.Coords) (v189 : BitVec 32) (v3074 : BitVec 32) (k0_hw32 : k0_chk32 i v189 v3074), ∀ (k0_h32 : k0_cond32 v189 = 1#1), ∀ a, (k0_off96 i v3074) a + S1x1x512.size a ≤ S1024x200x512.size a := fun i v189 v3074 k0_hw32 k0_h32 => k0_hw32 k0_h32

def k0_off97 (i : grid0.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v193 : BitVec 32 := Scalar.addi v0 c16_i32
  let v194 : Index := Scalar.indexCast v193
  ![v194.toNat]
def k0_off98 (i : grid0.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v193 : BitVec 32 := Scalar.addi v0 c16_i32
  let v3073 : Index := Scalar.indexCast v193
  ![v3073.toNat]
def k0_off99 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c16_i32 : BitVec 32 := 16#32
  let v193 : BitVec 32 := Scalar.addi v0 c16_i32
  let c0_i32_1287 : BitVec 32 := 0#32
  ![v193.toNat, v3074.toNat, 0]
def k0_cond33 (v195 : BitVec 32) : BitVec 1 :=
  let c0_i32_80 : BitVec 32 := 0#32
  let v196 : BitVec 1 := Scalar.cmpi .sgt v195 c0_i32_80
  let v197 : BitVec 32 := Scalar.extui v196
  let c0_i32_81 : BitVec 32 := 0#32
  let v198 : BitVec 1 := Scalar.cmpi .ne v197 c0_i32_81
  v198

def k0_chk33 (i : grid0.Coords) (v195 : BitVec 32) (v3074 : BitVec 32) : Prop :=
  (∀ (k0_h33 : k0_cond33 v195 = 1#1), ∀ a, (k0_off99 i v3074) a + S1x1x512.size a ≤ S1024x200x512.size a)
instance k0_chk33.dec : ∀ (i : grid0.Coords) (v195 : BitVec 32) (v3074 : BitVec 32), Decidable (k0_chk33 i v195 v3074) := fun i v195 v3074 => decidable_of_iff' _ (Iff.of_eq (k0_chk33.eq_1 i v195 v3074))
theorem k0_off99_inb : ∀ (i : grid0.Coords) (v195 : BitVec 32) (v3074 : BitVec 32) (k0_hw33 : k0_chk33 i v195 v3074), ∀ (k0_h33 : k0_cond33 v195 = 1#1), ∀ a, (k0_off99 i v3074) a + S1x1x512.size a ≤ S1024x200x512.size a := fun i v195 v3074 k0_hw33 k0_h33 => k0_hw33 k0_h33

def k0_off100 (i : grid0.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v199 : BitVec 32 := Scalar.addi v0 c17_i32
  let v200 : Index := Scalar.indexCast v199
  ![v200.toNat]
def k0_off101 (i : grid0.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v199 : BitVec 32 := Scalar.addi v0 c17_i32
  let v3073 : Index := Scalar.indexCast v199
  ![v3073.toNat]
def k0_off102 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c17_i32 : BitVec 32 := 17#32
  let v199 : BitVec 32 := Scalar.addi v0 c17_i32
  let c0_i32_1287 : BitVec 32 := 0#32
  ![v199.toNat, v3074.toNat, 0]
def k0_cond34 (v201 : BitVec 32) : BitVec 1 :=
  let c0_i32_82 : BitVec 32 := 0#32
  let v202 : BitVec 1 := Scalar.cmpi .sgt v201 c0_i32_82
  let v203 : BitVec 32 := Scalar.extui v202
  let c0_i32_83 : BitVec 32 := 0#32
  let v204 : BitVec 1 := Scalar.cmpi .ne v203 c0_i32_83
  v204

def k0_chk34 (i : grid0.Coords) (v201 : BitVec 32) (v3074 : BitVec 32) : Prop :=
  (∀ (k0_h34 : k0_cond34 v201 = 1#1), ∀ a, (k0_off102 i v3074) a + S1x1x512.size a ≤ S1024x200x512.size a)
instance k0_chk34.dec : ∀ (i : grid0.Coords) (v201 : BitVec 32) (v3074 : BitVec 32), Decidable (k0_chk34 i v201 v3074) := fun i v201 v3074 => decidable_of_iff' _ (Iff.of_eq (k0_chk34.eq_1 i v201 v3074))
theorem k0_off102_inb : ∀ (i : grid0.Coords) (v201 : BitVec 32) (v3074 : BitVec 32) (k0_hw34 : k0_chk34 i v201 v3074), ∀ (k0_h34 : k0_cond34 v201 = 1#1), ∀ a, (k0_off102 i v3074) a + S1x1x512.size a ≤ S1024x200x512.size a := fun i v201 v3074 k0_hw34 k0_h34 => k0_hw34 k0_h34

def k0_off103 (i : grid0.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v205 : BitVec 32 := Scalar.addi v0 c18_i32
  let v206 : Index := Scalar.indexCast v205
  ![v206.toNat]
def k0_off104 (i : grid0.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v205 : BitVec 32 := Scalar.addi v0 c18_i32
  let v3073 : Index := Scalar.indexCast v205
  ![v3073.toNat]
def k0_off105 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c18_i32 : BitVec 32 := 18#32
  let v205 : BitVec 32 := Scalar.addi v0 c18_i32
  let c0_i32_1287 : BitVec 32 := 0#32
  ![v205.toNat, v3074.toNat, 0]
def k0_cond35 (v207 : BitVec 32) : BitVec 1 :=
  let c0_i32_84 : BitVec 32 := 0#32
  let v208 : BitVec 1 := Scalar.cmpi .sgt v207 c0_i32_84
  let v209 : BitVec 32 := Scalar.extui v208
  let c0_i32_85 : BitVec 32 := 0#32
  let v210 : BitVec 1 := Scalar.cmpi .ne v209 c0_i32_85
  v210

def k0_chk35 (i : grid0.Coords) (v207 : BitVec 32) (v3074 : BitVec 32) : Prop :=
  (∀ (k0_h35 : k0_cond35 v207 = 1#1), ∀ a, (k0_off105 i v3074) a + S1x1x512.size a ≤ S1024x200x512.size a)
instance k0_chk35.dec : ∀ (i : grid0.Coords) (v207 : BitVec 32) (v3074 : BitVec 32), Decidable (k0_chk35 i v207 v3074) := fun i v207 v3074 => decidable_of_iff' _ (Iff.of_eq (k0_chk35.eq_1 i v207 v3074))
theorem k0_off105_inb : ∀ (i : grid0.Coords) (v207 : BitVec 32) (v3074 : BitVec 32) (k0_hw35 : k0_chk35 i v207 v3074), ∀ (k0_h35 : k0_cond35 v207 = 1#1), ∀ a, (k0_off105 i v3074) a + S1x1x512.size a ≤ S1024x200x512.size a := fun i v207 v3074 k0_hw35 k0_h35 => k0_hw35 k0_h35

def k0_off106 (i : grid0.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v211 : BitVec 32 := Scalar.addi v0 c19_i32
  let v212 : Index := Scalar.indexCast v211
  ![v212.toNat]
def k0_off107 (i : grid0.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v211 : BitVec 32 := Scalar.addi v0 c19_i32
  let v3073 : Index := Scalar.indexCast v211
  ![v3073.toNat]
def k0_off108 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c19_i32 : BitVec 32 := 19#32
  let v211 : BitVec 32 := Scalar.addi v0 c19_i32
  let c0_i32_1287 : BitVec 32 := 0#32
  ![v211.toNat, v3074.toNat, 0]
def k0_cond36 (v213 : BitVec 32) : BitVec 1 :=
  let c0_i32_86 : BitVec 32 := 0#32
  let v214 : BitVec 1 := Scalar.cmpi .sgt v213 c0_i32_86
  let v215 : BitVec 32 := Scalar.extui v214
  let c0_i32_87 : BitVec 32 := 0#32
  let v216 : BitVec 1 := Scalar.cmpi .ne v215 c0_i32_87
  v216

def k0_chk36 (i : grid0.Coords) (v213 : BitVec 32) (v3074 : BitVec 32) : Prop :=
  (∀ (k0_h36 : k0_cond36 v213 = 1#1), ∀ a, (k0_off108 i v3074) a + S1x1x512.size a ≤ S1024x200x512.size a)
instance k0_chk36.dec : ∀ (i : grid0.Coords) (v213 : BitVec 32) (v3074 : BitVec 32), Decidable (k0_chk36 i v213 v3074) := fun i v213 v3074 => decidable_of_iff' _ (Iff.of_eq (k0_chk36.eq_1 i v213 v3074))
theorem k0_off108_inb : ∀ (i : grid0.Coords) (v213 : BitVec 32) (v3074 : BitVec 32) (k0_hw36 : k0_chk36 i v213 v3074), ∀ (k0_h36 : k0_cond36 v213 = 1#1), ∀ a, (k0_off108 i v3074) a + S1x1x512.size a ≤ S1024x200x512.size a := fun i v213 v3074 k0_hw36 k0_h36 => k0_hw36 k0_h36

def k0_off109 (i : grid0.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v217 : BitVec 32 := Scalar.addi v0 c20_i32
  let v218 : Index := Scalar.indexCast v217
  ![v218.toNat]
def k0_off110 (i : grid0.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v217 : BitVec 32 := Scalar.addi v0 c20_i32
  let v3073 : Index := Scalar.indexCast v217
  ![v3073.toNat]
def k0_off111 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c20_i32 : BitVec 32 := 20#32
  let v217 : BitVec 32 := Scalar.addi v0 c20_i32
  let c0_i32_1287 : BitVec 32 := 0#32
  ![v217.toNat, v3074.toNat, 0]
def k0_cond37 (v219 : BitVec 32) : BitVec 1 :=
  let c0_i32_88 : BitVec 32 := 0#32
  let v220 : BitVec 1 := Scalar.cmpi .sgt v219 c0_i32_88
  let v221 : BitVec 32 := Scalar.extui v220
  let c0_i32_89 : BitVec 32 := 0#32
  let v222 : BitVec 1 := Scalar.cmpi .ne v221 c0_i32_89
  v222

def k0_chk37 (i : grid0.Coords) (v219 : BitVec 32) (v3074 : BitVec 32) : Prop :=
  (∀ (k0_h37 : k0_cond37 v219 = 1#1), ∀ a, (k0_off111 i v3074) a + S1x1x512.size a ≤ S1024x200x512.size a)
instance k0_chk37.dec : ∀ (i : grid0.Coords) (v219 : BitVec 32) (v3074 : BitVec 32), Decidable (k0_chk37 i v219 v3074) := fun i v219 v3074 => decidable_of_iff' _ (Iff.of_eq (k0_chk37.eq_1 i v219 v3074))
theorem k0_off111_inb : ∀ (i : grid0.Coords) (v219 : BitVec 32) (v3074 : BitVec 32) (k0_hw37 : k0_chk37 i v219 v3074), ∀ (k0_h37 : k0_cond37 v219 = 1#1), ∀ a, (k0_off111 i v3074) a + S1x1x512.size a ≤ S1024x200x512.size a := fun i v219 v3074 k0_hw37 k0_h37 => k0_hw37 k0_h37

def k0_off112 (i : grid0.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v223 : BitVec 32 := Scalar.addi v0 c21_i32
  let v224 : Index := Scalar.indexCast v223
  ![v224.toNat]
def k0_off113 (i : grid0.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v223 : BitVec 32 := Scalar.addi v0 c21_i32
  let v3073 : Index := Scalar.indexCast v223
  ![v3073.toNat]
def k0_off114 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c21_i32 : BitVec 32 := 21#32
  let v223 : BitVec 32 := Scalar.addi v0 c21_i32
  let c0_i32_1287 : BitVec 32 := 0#32
  ![v223.toNat, v3074.toNat, 0]
def k0_cond38 (v225 : BitVec 32) : BitVec 1 :=
  let c0_i32_90 : BitVec 32 := 0#32
  let v226 : BitVec 1 := Scalar.cmpi .sgt v225 c0_i32_90
  let v227 : BitVec 32 := Scalar.extui v226
  let c0_i32_91 : BitVec 32 := 0#32
  let v228 : BitVec 1 := Scalar.cmpi .ne v227 c0_i32_91
  v228

def k0_chk38 (i : grid0.Coords) (v225 : BitVec 32) (v3074 : BitVec 32) : Prop :=
  (∀ (k0_h38 : k0_cond38 v225 = 1#1), ∀ a, (k0_off114 i v3074) a + S1x1x512.size a ≤ S1024x200x512.size a)
instance k0_chk38.dec : ∀ (i : grid0.Coords) (v225 : BitVec 32) (v3074 : BitVec 32), Decidable (k0_chk38 i v225 v3074) := fun i v225 v3074 => decidable_of_iff' _ (Iff.of_eq (k0_chk38.eq_1 i v225 v3074))
theorem k0_off114_inb : ∀ (i : grid0.Coords) (v225 : BitVec 32) (v3074 : BitVec 32) (k0_hw38 : k0_chk38 i v225 v3074), ∀ (k0_h38 : k0_cond38 v225 = 1#1), ∀ a, (k0_off114 i v3074) a + S1x1x512.size a ≤ S1024x200x512.size a := fun i v225 v3074 k0_hw38 k0_h38 => k0_hw38 k0_h38

def k0_off115 (i : grid0.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v229 : BitVec 32 := Scalar.addi v0 c22_i32
  let v230 : Index := Scalar.indexCast v229
  ![v230.toNat]
def k0_off116 (i : grid0.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v229 : BitVec 32 := Scalar.addi v0 c22_i32
  let v3073 : Index := Scalar.indexCast v229
  ![v3073.toNat]
def k0_off117 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c22_i32 : BitVec 32 := 22#32
  let v229 : BitVec 32 := Scalar.addi v0 c22_i32
  let c0_i32_1287 : BitVec 32 := 0#32
  ![v229.toNat, v3074.toNat, 0]
def k0_cond39 (v231 : BitVec 32) : BitVec 1 :=
  let c0_i32_92 : BitVec 32 := 0#32
  let v232 : BitVec 1 := Scalar.cmpi .sgt v231 c0_i32_92
  let v233 : BitVec 32 := Scalar.extui v232
  let c0_i32_93 : BitVec 32 := 0#32
  let v234 : BitVec 1 := Scalar.cmpi .ne v233 c0_i32_93
  v234

def k0_chk39 (i : grid0.Coords) (v231 : BitVec 32) (v3074 : BitVec 32) : Prop :=
  (∀ (k0_h39 : k0_cond39 v231 = 1#1), ∀ a, (k0_off117 i v3074) a + S1x1x512.size a ≤ S1024x200x512.size a)
instance k0_chk39.dec : ∀ (i : grid0.Coords) (v231 : BitVec 32) (v3074 : BitVec 32), Decidable (k0_chk39 i v231 v3074) := fun i v231 v3074 => decidable_of_iff' _ (Iff.of_eq (k0_chk39.eq_1 i v231 v3074))
theorem k0_off117_inb : ∀ (i : grid0.Coords) (v231 : BitVec 32) (v3074 : BitVec 32) (k0_hw39 : k0_chk39 i v231 v3074), ∀ (k0_h39 : k0_cond39 v231 = 1#1), ∀ a, (k0_off117 i v3074) a + S1x1x512.size a ≤ S1024x200x512.size a := fun i v231 v3074 k0_hw39 k0_h39 => k0_hw39 k0_h39

def k0_off118 (i : grid0.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v235 : BitVec 32 := Scalar.addi v0 c23_i32
  let v236 : Index := Scalar.indexCast v235
  ![v236.toNat]
def k0_off119 (i : grid0.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v235 : BitVec 32 := Scalar.addi v0 c23_i32
  let v3073 : Index := Scalar.indexCast v235
  ![v3073.toNat]
def k0_off120 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c23_i32 : BitVec 32 := 23#32
  let v235 : BitVec 32 := Scalar.addi v0 c23_i32
  let c0_i32_1287 : BitVec 32 := 0#32
  ![v235.toNat, v3074.toNat, 0]
def k0_cond40 (v237 : BitVec 32) : BitVec 1 :=
  let c0_i32_94 : BitVec 32 := 0#32
  let v238 : BitVec 1 := Scalar.cmpi .sgt v237 c0_i32_94
  let v239 : BitVec 32 := Scalar.extui v238
  let c0_i32_95 : BitVec 32 := 0#32
  let v240 : BitVec 1 := Scalar.cmpi .ne v239 c0_i32_95
  v240

def k0_chk40 (i : grid0.Coords) (v237 : BitVec 32) (v3074 : BitVec 32) : Prop :=
  (∀ (k0_h40 : k0_cond40 v237 = 1#1), ∀ a, (k0_off120 i v3074) a + S1x1x512.size a ≤ S1024x200x512.size a)
instance k0_chk40.dec : ∀ (i : grid0.Coords) (v237 : BitVec 32) (v3074 : BitVec 32), Decidable (k0_chk40 i v237 v3074) := fun i v237 v3074 => decidable_of_iff' _ (Iff.of_eq (k0_chk40.eq_1 i v237 v3074))
theorem k0_off120_inb : ∀ (i : grid0.Coords) (v237 : BitVec 32) (v3074 : BitVec 32) (k0_hw40 : k0_chk40 i v237 v3074), ∀ (k0_h40 : k0_cond40 v237 = 1#1), ∀ a, (k0_off120 i v3074) a + S1x1x512.size a ≤ S1024x200x512.size a := fun i v237 v3074 k0_hw40 k0_h40 => k0_hw40 k0_h40

def k0_off121 (i : grid0.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v241 : BitVec 32 := Scalar.addi v0 c24_i32
  let v242 : Index := Scalar.indexCast v241
  ![v242.toNat]
def k0_off122 (i : grid0.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v241 : BitVec 32 := Scalar.addi v0 c24_i32
  let v3073 : Index := Scalar.indexCast v241
  ![v3073.toNat]
def k0_off123 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c24_i32 : BitVec 32 := 24#32
  let v241 : BitVec 32 := Scalar.addi v0 c24_i32
  let c0_i32_1287 : BitVec 32 := 0#32
  ![v241.toNat, v3074.toNat, 0]
def k0_cond41 (v243 : BitVec 32) : BitVec 1 :=
  let c0_i32_96 : BitVec 32 := 0#32
  let v244 : BitVec 1 := Scalar.cmpi .sgt v243 c0_i32_96
  let v245 : BitVec 32 := Scalar.extui v244
  let c0_i32_97 : BitVec 32 := 0#32
  let v246 : BitVec 1 := Scalar.cmpi .ne v245 c0_i32_97
  v246

def k0_chk41 (i : grid0.Coords) (v243 : BitVec 32) (v3074 : BitVec 32) : Prop :=
  (∀ (k0_h41 : k0_cond41 v243 = 1#1), ∀ a, (k0_off123 i v3074) a + S1x1x512.size a ≤ S1024x200x512.size a)
instance k0_chk41.dec : ∀ (i : grid0.Coords) (v243 : BitVec 32) (v3074 : BitVec 32), Decidable (k0_chk41 i v243 v3074) := fun i v243 v3074 => decidable_of_iff' _ (Iff.of_eq (k0_chk41.eq_1 i v243 v3074))
theorem k0_off123_inb : ∀ (i : grid0.Coords) (v243 : BitVec 32) (v3074 : BitVec 32) (k0_hw41 : k0_chk41 i v243 v3074), ∀ (k0_h41 : k0_cond41 v243 = 1#1), ∀ a, (k0_off123 i v3074) a + S1x1x512.size a ≤ S1024x200x512.size a := fun i v243 v3074 k0_hw41 k0_h41 => k0_hw41 k0_h41

def k0_off124 (i : grid0.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v247 : BitVec 32 := Scalar.addi v0 c25_i32
  let v248 : Index := Scalar.indexCast v247
  ![v248.toNat]
def k0_off125 (i : grid0.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v247 : BitVec 32 := Scalar.addi v0 c25_i32
  let v3073 : Index := Scalar.indexCast v247
  ![v3073.toNat]
def k0_off126 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c25_i32 : BitVec 32 := 25#32
  let v247 : BitVec 32 := Scalar.addi v0 c25_i32
  let c0_i32_1287 : BitVec 32 := 0#32
  ![v247.toNat, v3074.toNat, 0]
def k0_cond42 (v249 : BitVec 32) : BitVec 1 :=
  let c0_i32_98 : BitVec 32 := 0#32
  let v250 : BitVec 1 := Scalar.cmpi .sgt v249 c0_i32_98
  let v251 : BitVec 32 := Scalar.extui v250
  let c0_i32_99 : BitVec 32 := 0#32
  let v252 : BitVec 1 := Scalar.cmpi .ne v251 c0_i32_99
  v252

def k0_chk42 (i : grid0.Coords) (v249 : BitVec 32) (v3074 : BitVec 32) : Prop :=
  (∀ (k0_h42 : k0_cond42 v249 = 1#1), ∀ a, (k0_off126 i v3074) a + S1x1x512.size a ≤ S1024x200x512.size a)
instance k0_chk42.dec : ∀ (i : grid0.Coords) (v249 : BitVec 32) (v3074 : BitVec 32), Decidable (k0_chk42 i v249 v3074) := fun i v249 v3074 => decidable_of_iff' _ (Iff.of_eq (k0_chk42.eq_1 i v249 v3074))
theorem k0_off126_inb : ∀ (i : grid0.Coords) (v249 : BitVec 32) (v3074 : BitVec 32) (k0_hw42 : k0_chk42 i v249 v3074), ∀ (k0_h42 : k0_cond42 v249 = 1#1), ∀ a, (k0_off126 i v3074) a + S1x1x512.size a ≤ S1024x200x512.size a := fun i v249 v3074 k0_hw42 k0_h42 => k0_hw42 k0_h42

def k0_off127 (i : grid0.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v253 : BitVec 32 := Scalar.addi v0 c26_i32
  let v254 : Index := Scalar.indexCast v253
  ![v254.toNat]
def k0_off128 (i : grid0.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v253 : BitVec 32 := Scalar.addi v0 c26_i32
  let v3073 : Index := Scalar.indexCast v253
  ![v3073.toNat]
def k0_off129 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c26_i32 : BitVec 32 := 26#32
  let v253 : BitVec 32 := Scalar.addi v0 c26_i32
  let c0_i32_1287 : BitVec 32 := 0#32
  ![v253.toNat, v3074.toNat, 0]
def k0_cond43 (v255 : BitVec 32) : BitVec 1 :=
  let c0_i32_100 : BitVec 32 := 0#32
  let v256 : BitVec 1 := Scalar.cmpi .sgt v255 c0_i32_100
  let v257 : BitVec 32 := Scalar.extui v256
  let c0_i32_101 : BitVec 32 := 0#32
  let v258 : BitVec 1 := Scalar.cmpi .ne v257 c0_i32_101
  v258

def k0_chk43 (i : grid0.Coords) (v255 : BitVec 32) (v3074 : BitVec 32) : Prop :=
  (∀ (k0_h43 : k0_cond43 v255 = 1#1), ∀ a, (k0_off129 i v3074) a + S1x1x512.size a ≤ S1024x200x512.size a)
instance k0_chk43.dec : ∀ (i : grid0.Coords) (v255 : BitVec 32) (v3074 : BitVec 32), Decidable (k0_chk43 i v255 v3074) := fun i v255 v3074 => decidable_of_iff' _ (Iff.of_eq (k0_chk43.eq_1 i v255 v3074))
theorem k0_off129_inb : ∀ (i : grid0.Coords) (v255 : BitVec 32) (v3074 : BitVec 32) (k0_hw43 : k0_chk43 i v255 v3074), ∀ (k0_h43 : k0_cond43 v255 = 1#1), ∀ a, (k0_off129 i v3074) a + S1x1x512.size a ≤ S1024x200x512.size a := fun i v255 v3074 k0_hw43 k0_h43 => k0_hw43 k0_h43

def k0_off130 (i : grid0.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v259 : BitVec 32 := Scalar.addi v0 c27_i32
  let v260 : Index := Scalar.indexCast v259
  ![v260.toNat]
def k0_off131 (i : grid0.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v259 : BitVec 32 := Scalar.addi v0 c27_i32
  let v3073 : Index := Scalar.indexCast v259
  ![v3073.toNat]
def k0_off132 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c27_i32 : BitVec 32 := 27#32
  let v259 : BitVec 32 := Scalar.addi v0 c27_i32
  let c0_i32_1287 : BitVec 32 := 0#32
  ![v259.toNat, v3074.toNat, 0]
def k0_cond44 (v261 : BitVec 32) : BitVec 1 :=
  let c0_i32_102 : BitVec 32 := 0#32
  let v262 : BitVec 1 := Scalar.cmpi .sgt v261 c0_i32_102
  let v263 : BitVec 32 := Scalar.extui v262
  let c0_i32_103 : BitVec 32 := 0#32
  let v264 : BitVec 1 := Scalar.cmpi .ne v263 c0_i32_103
  v264

def k0_chk44 (i : grid0.Coords) (v261 : BitVec 32) (v3074 : BitVec 32) : Prop :=
  (∀ (k0_h44 : k0_cond44 v261 = 1#1), ∀ a, (k0_off132 i v3074) a + S1x1x512.size a ≤ S1024x200x512.size a)
instance k0_chk44.dec : ∀ (i : grid0.Coords) (v261 : BitVec 32) (v3074 : BitVec 32), Decidable (k0_chk44 i v261 v3074) := fun i v261 v3074 => decidable_of_iff' _ (Iff.of_eq (k0_chk44.eq_1 i v261 v3074))
theorem k0_off132_inb : ∀ (i : grid0.Coords) (v261 : BitVec 32) (v3074 : BitVec 32) (k0_hw44 : k0_chk44 i v261 v3074), ∀ (k0_h44 : k0_cond44 v261 = 1#1), ∀ a, (k0_off132 i v3074) a + S1x1x512.size a ≤ S1024x200x512.size a := fun i v261 v3074 k0_hw44 k0_h44 => k0_hw44 k0_h44

def k0_off133 (i : grid0.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v265 : BitVec 32 := Scalar.addi v0 c28_i32
  let v266 : Index := Scalar.indexCast v265
  ![v266.toNat]
def k0_off134 (i : grid0.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v265 : BitVec 32 := Scalar.addi v0 c28_i32
  let v3073 : Index := Scalar.indexCast v265
  ![v3073.toNat]
def k0_off135 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c28_i32 : BitVec 32 := 28#32
  let v265 : BitVec 32 := Scalar.addi v0 c28_i32
  let c0_i32_1287 : BitVec 32 := 0#32
  ![v265.toNat, v3074.toNat, 0]
def k0_cond45 (v267 : BitVec 32) : BitVec 1 :=
  let c0_i32_104 : BitVec 32 := 0#32
  let v268 : BitVec 1 := Scalar.cmpi .sgt v267 c0_i32_104
  let v269 : BitVec 32 := Scalar.extui v268
  let c0_i32_105 : BitVec 32 := 0#32
  let v270 : BitVec 1 := Scalar.cmpi .ne v269 c0_i32_105
  v270

def k0_chk45 (i : grid0.Coords) (v267 : BitVec 32) (v3074 : BitVec 32) : Prop :=
  (∀ (k0_h45 : k0_cond45 v267 = 1#1), ∀ a, (k0_off135 i v3074) a + S1x1x512.size a ≤ S1024x200x512.size a)
instance k0_chk45.dec : ∀ (i : grid0.Coords) (v267 : BitVec 32) (v3074 : BitVec 32), Decidable (k0_chk45 i v267 v3074) := fun i v267 v3074 => decidable_of_iff' _ (Iff.of_eq (k0_chk45.eq_1 i v267 v3074))
theorem k0_off135_inb : ∀ (i : grid0.Coords) (v267 : BitVec 32) (v3074 : BitVec 32) (k0_hw45 : k0_chk45 i v267 v3074), ∀ (k0_h45 : k0_cond45 v267 = 1#1), ∀ a, (k0_off135 i v3074) a + S1x1x512.size a ≤ S1024x200x512.size a := fun i v267 v3074 k0_hw45 k0_h45 => k0_hw45 k0_h45

def k0_off136 (i : grid0.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v271 : BitVec 32 := Scalar.addi v0 c29_i32
  let v272 : Index := Scalar.indexCast v271
  ![v272.toNat]
def k0_off137 (i : grid0.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v271 : BitVec 32 := Scalar.addi v0 c29_i32
  let v3073 : Index := Scalar.indexCast v271
  ![v3073.toNat]
def k0_off138 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c29_i32 : BitVec 32 := 29#32
  let v271 : BitVec 32 := Scalar.addi v0 c29_i32
  let c0_i32_1287 : BitVec 32 := 0#32
  ![v271.toNat, v3074.toNat, 0]
def k0_cond46 (v273 : BitVec 32) : BitVec 1 :=
  let c0_i32_106 : BitVec 32 := 0#32
  let v274 : BitVec 1 := Scalar.cmpi .sgt v273 c0_i32_106
  let v275 : BitVec 32 := Scalar.extui v274
  let c0_i32_107 : BitVec 32 := 0#32
  let v276 : BitVec 1 := Scalar.cmpi .ne v275 c0_i32_107
  v276

def k0_chk46 (i : grid0.Coords) (v273 : BitVec 32) (v3074 : BitVec 32) : Prop :=
  (∀ (k0_h46 : k0_cond46 v273 = 1#1), ∀ a, (k0_off138 i v3074) a + S1x1x512.size a ≤ S1024x200x512.size a)
instance k0_chk46.dec : ∀ (i : grid0.Coords) (v273 : BitVec 32) (v3074 : BitVec 32), Decidable (k0_chk46 i v273 v3074) := fun i v273 v3074 => decidable_of_iff' _ (Iff.of_eq (k0_chk46.eq_1 i v273 v3074))
theorem k0_off138_inb : ∀ (i : grid0.Coords) (v273 : BitVec 32) (v3074 : BitVec 32) (k0_hw46 : k0_chk46 i v273 v3074), ∀ (k0_h46 : k0_cond46 v273 = 1#1), ∀ a, (k0_off138 i v3074) a + S1x1x512.size a ≤ S1024x200x512.size a := fun i v273 v3074 k0_hw46 k0_h46 => k0_hw46 k0_h46

def k0_off139 (i : grid0.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v277 : BitVec 32 := Scalar.addi v0 c30_i32
  let v278 : Index := Scalar.indexCast v277
  ![v278.toNat]
def k0_off140 (i : grid0.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v277 : BitVec 32 := Scalar.addi v0 c30_i32
  let v3073 : Index := Scalar.indexCast v277
  ![v3073.toNat]
def k0_off141 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c30_i32 : BitVec 32 := 30#32
  let v277 : BitVec 32 := Scalar.addi v0 c30_i32
  let c0_i32_1287 : BitVec 32 := 0#32
  ![v277.toNat, v3074.toNat, 0]
def k0_cond47 (v279 : BitVec 32) : BitVec 1 :=
  let c0_i32_108 : BitVec 32 := 0#32
  let v280 : BitVec 1 := Scalar.cmpi .sgt v279 c0_i32_108
  let v281 : BitVec 32 := Scalar.extui v280
  let c0_i32_109 : BitVec 32 := 0#32
  let v282 : BitVec 1 := Scalar.cmpi .ne v281 c0_i32_109
  v282

def k0_chk47 (i : grid0.Coords) (v279 : BitVec 32) (v3074 : BitVec 32) : Prop :=
  (∀ (k0_h47 : k0_cond47 v279 = 1#1), ∀ a, (k0_off141 i v3074) a + S1x1x512.size a ≤ S1024x200x512.size a)
instance k0_chk47.dec : ∀ (i : grid0.Coords) (v279 : BitVec 32) (v3074 : BitVec 32), Decidable (k0_chk47 i v279 v3074) := fun i v279 v3074 => decidable_of_iff' _ (Iff.of_eq (k0_chk47.eq_1 i v279 v3074))
theorem k0_off141_inb : ∀ (i : grid0.Coords) (v279 : BitVec 32) (v3074 : BitVec 32) (k0_hw47 : k0_chk47 i v279 v3074), ∀ (k0_h47 : k0_cond47 v279 = 1#1), ∀ a, (k0_off141 i v3074) a + S1x1x512.size a ≤ S1024x200x512.size a := fun i v279 v3074 k0_hw47 k0_h47 => k0_hw47 k0_h47

def k0_off142 (i : grid0.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v283 : BitVec 32 := Scalar.addi v0 c31_i32
  let v284 : Index := Scalar.indexCast v283
  ![v284.toNat]
def k0_off143 (i : grid0.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v283 : BitVec 32 := Scalar.addi v0 c31_i32
  let v3073 : Index := Scalar.indexCast v283
  ![v3073.toNat]
def k0_off144 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c31_i32 : BitVec 32 := 31#32
  let v283 : BitVec 32 := Scalar.addi v0 c31_i32
  let c0_i32_1287 : BitVec 32 := 0#32
  ![v283.toNat, v3074.toNat, 0]
def k0_cond48 (v285 : BitVec 32) : BitVec 1 :=
  let c0_i32_110 : BitVec 32 := 0#32
  let v286 : BitVec 1 := Scalar.cmpi .sgt v285 c0_i32_110
  let v287 : BitVec 32 := Scalar.extui v286
  let c0_i32_111 : BitVec 32 := 0#32
  let v288 : BitVec 1 := Scalar.cmpi .ne v287 c0_i32_111
  v288

def k0_chk48 (i : grid0.Coords) (v285 : BitVec 32) (v3074 : BitVec 32) : Prop :=
  (∀ (k0_h48 : k0_cond48 v285 = 1#1), ∀ a, (k0_off144 i v3074) a + S1x1x512.size a ≤ S1024x200x512.size a)
instance k0_chk48.dec : ∀ (i : grid0.Coords) (v285 : BitVec 32) (v3074 : BitVec 32), Decidable (k0_chk48 i v285 v3074) := fun i v285 v3074 => decidable_of_iff' _ (Iff.of_eq (k0_chk48.eq_1 i v285 v3074))
theorem k0_off144_inb : ∀ (i : grid0.Coords) (v285 : BitVec 32) (v3074 : BitVec 32) (k0_hw48 : k0_chk48 i v285 v3074), ∀ (k0_h48 : k0_cond48 v285 = 1#1), ∀ a, (k0_off144 i v3074) a + S1x1x512.size a ≤ S1024x200x512.size a := fun i v285 v3074 k0_hw48 k0_h48 => k0_hw48 k0_h48

def k0_off145 (i : grid0.Coords) : Fin 1 → Nat :=
  let arg0 : BitVec 32 := BitVec.ofNat 32 (i 0).val
  let c256_i32 : BitVec 32 := 256#32
  let v0 : BitVec 32 := Scalar.muli arg0 c256_i32
  let c16_i32_112 : BitVec 32 := 16#32
  let v289 : BitVec 32 := Scalar.addi v0 c16_i32_112
  let v290 : Index := Scalar.indexCast v289
  ![v290.toNat]
def k0_off146 (i : grid0.Coords) : Fin 1 → Nat :=
  let arg0 : BitVec 32 := BitVec.ofNat 32 (i 0).val
  let c256_i32 : BitVec 32 := 256#32
  let v0 : BitVec 32 := Scalar.muli arg0 c256_i32
  let c16_i32_112 : BitVec 32 := 16#32
  let v289 : BitVec 32 := Scalar.addi v0 c16_i32_112
  let v3073 : Index := Scalar.indexCast v289
  ![v3073.toNat]
def k0_off147 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c16_i32_112 : BitVec 32 := 16#32
  let v289 : BitVec 32 := Scalar.addi v0 c16_i32_112
  let c0_i32_1282 : BitVec 32 := 0#32
  ![v289.toNat, v3074.toNat, 0]
def k0_cond49 (v291 : BitVec 32) : BitVec 1 :=
  let c0_i32_113 : BitVec 32 := 0#32
  let v292 : BitVec 1 := Scalar.cmpi .sgt v291 c0_i32_113
  let v293 : BitVec 32 := Scalar.extui v292
  let c0_i32_114 : BitVec 32 := 0#32
  let v294 : BitVec 1 := Scalar.cmpi .ne v293 c0_i32_114
  v294

def k0_chk49 (i : grid0.Coords) (v291 : BitVec 32) (v3074 : BitVec 32) : Prop :=
  (∀ (k0_h49 : k0_cond49 v291 = 1#1), ∀ a, (k0_off147 i v3074) a + S1x1x512.size a ≤ S1024x200x512.size a)
instance k0_chk49.dec : ∀ (i : grid0.Coords) (v291 : BitVec 32) (v3074 : BitVec 32), Decidable (k0_chk49 i v291 v3074) := fun i v291 v3074 => decidable_of_iff' _ (Iff.of_eq (k0_chk49.eq_1 i v291 v3074))
theorem k0_off147_inb : ∀ (i : grid0.Coords) (v291 : BitVec 32) (v3074 : BitVec 32) (k0_hw49 : k0_chk49 i v291 v3074), ∀ (k0_h49 : k0_cond49 v291 = 1#1), ∀ a, (k0_off147 i v3074) a + S1x1x512.size a ≤ S1024x200x512.size a := fun i v291 v3074 k0_hw49 k0_h49 => k0_hw49 k0_h49

def k0_off148 (i : grid0.Coords) : Fin 1 → Nat :=
  let arg0 : BitVec 32 := BitVec.ofNat 32 (i 0).val
  let c256_i32 : BitVec 32 := 256#32
  let v0 : BitVec 32 := Scalar.muli arg0 c256_i32
  let c17_i32_115 : BitVec 32 := 17#32
  let v295 : BitVec 32 := Scalar.addi v0 c17_i32_115
  let v296 : Index := Scalar.indexCast v295
  ![v296.toNat]
def k0_off149 (i : grid0.Coords) : Fin 1 → Nat :=
  let arg0 : BitVec 32 := BitVec.ofNat 32 (i 0).val
  let c256_i32 : BitVec 32 := 256#32
  let v0 : BitVec 32 := Scalar.muli arg0 c256_i32
  let c17_i32_115 : BitVec 32 := 17#32
  let v295 : BitVec 32 := Scalar.addi v0 c17_i32_115
  let v3073 : Index := Scalar.indexCast v295
  ![v3073.toNat]
def k0_off150 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c17_i32_115 : BitVec 32 := 17#32
  let v295 : BitVec 32 := Scalar.addi v0 c17_i32_115
  let c0_i32_1282 : BitVec 32 := 0#32
  ![v295.toNat, v3074.toNat, 0]
def k0_cond50 (v297 : BitVec 32) : BitVec 1 :=
  let c0_i32_116 : BitVec 32 := 0#32
  let v298 : BitVec 1 := Scalar.cmpi .sgt v297 c0_i32_116
  let v299 : BitVec 32 := Scalar.extui v298
  let c0_i32_117 : BitVec 32 := 0#32
  let v300 : BitVec 1 := Scalar.cmpi .ne v299 c0_i32_117
  v300

def k0_chk50 (i : grid0.Coords) (v297 : BitVec 32) (v3074 : BitVec 32) : Prop :=
  (∀ (k0_h50 : k0_cond50 v297 = 1#1), ∀ a, (k0_off150 i v3074) a + S1x1x512.size a ≤ S1024x200x512.size a)
instance k0_chk50.dec : ∀ (i : grid0.Coords) (v297 : BitVec 32) (v3074 : BitVec 32), Decidable (k0_chk50 i v297 v3074) := fun i v297 v3074 => decidable_of_iff' _ (Iff.of_eq (k0_chk50.eq_1 i v297 v3074))
theorem k0_off150_inb : ∀ (i : grid0.Coords) (v297 : BitVec 32) (v3074 : BitVec 32) (k0_hw50 : k0_chk50 i v297 v3074), ∀ (k0_h50 : k0_cond50 v297 = 1#1), ∀ a, (k0_off150 i v3074) a + S1x1x512.size a ≤ S1024x200x512.size a := fun i v297 v3074 k0_hw50 k0_h50 => k0_hw50 k0_h50

def k0_off151 (i : grid0.Coords) : Fin 1 → Nat :=
  let arg0 : BitVec 32 := BitVec.ofNat 32 (i 0).val
  let c256_i32 : BitVec 32 := 256#32
  let v0 : BitVec 32 := Scalar.muli arg0 c256_i32
  let c18_i32_118 : BitVec 32 := 18#32
  let v301 : BitVec 32 := Scalar.addi v0 c18_i32_118
  let v302 : Index := Scalar.indexCast v301
  ![v302.toNat]
def k0_off152 (i : grid0.Coords) : Fin 1 → Nat :=
  let arg0 : BitVec 32 := BitVec.ofNat 32 (i 0).val
  let c256_i32 : BitVec 32 := 256#32
  let v0 : BitVec 32 := Scalar.muli arg0 c256_i32
  let c18_i32_118 : BitVec 32 := 18#32
  let v301 : BitVec 32 := Scalar.addi v0 c18_i32_118
  let v3073 : Index := Scalar.indexCast v301
  ![v3073.toNat]
def k0_off153 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c18_i32_118 : BitVec 32 := 18#32
  let v301 : BitVec 32 := Scalar.addi v0 c18_i32_118
  let c0_i32_1282 : BitVec 32 := 0#32
  ![v301.toNat, v3074.toNat, 0]
def k0_cond51 (v303 : BitVec 32) : BitVec 1 :=
  let c0_i32_119 : BitVec 32 := 0#32
  let v304 : BitVec 1 := Scalar.cmpi .sgt v303 c0_i32_119
  let v305 : BitVec 32 := Scalar.extui v304
  let c0_i32_120 : BitVec 32 := 0#32
  let v306 : BitVec 1 := Scalar.cmpi .ne v305 c0_i32_120
  v306

def k0_chk51 (i : grid0.Coords) (v303 : BitVec 32) (v3074 : BitVec 32) : Prop :=
  (∀ (k0_h51 : k0_cond51 v303 = 1#1), ∀ a, (k0_off153 i v3074) a + S1x1x512.size a ≤ S1024x200x512.size a)
instance k0_chk51.dec : ∀ (i : grid0.Coords) (v303 : BitVec 32) (v3074 : BitVec 32), Decidable (k0_chk51 i v303 v3074) := fun i v303 v3074 => decidable_of_iff' _ (Iff.of_eq (k0_chk51.eq_1 i v303 v3074))
theorem k0_off153_inb : ∀ (i : grid0.Coords) (v303 : BitVec 32) (v3074 : BitVec 32) (k0_hw51 : k0_chk51 i v303 v3074), ∀ (k0_h51 : k0_cond51 v303 = 1#1), ∀ a, (k0_off153 i v3074) a + S1x1x512.size a ≤ S1024x200x512.size a := fun i v303 v3074 k0_hw51 k0_h51 => k0_hw51 k0_h51

def k0_off154 (i : grid0.Coords) : Fin 1 → Nat :=
  let arg0 : BitVec 32 := BitVec.ofNat 32 (i 0).val
  let c256_i32 : BitVec 32 := 256#32
  let v0 : BitVec 32 := Scalar.muli arg0 c256_i32
  let c19_i32_121 : BitVec 32 := 19#32
  let v307 : BitVec 32 := Scalar.addi v0 c19_i32_121
  let v308 : Index := Scalar.indexCast v307
  ![v308.toNat]
def k0_off155 (i : grid0.Coords) : Fin 1 → Nat :=
  let arg0 : BitVec 32 := BitVec.ofNat 32 (i 0).val
  let c256_i32 : BitVec 32 := 256#32
  let v0 : BitVec 32 := Scalar.muli arg0 c256_i32
  let c19_i32_121 : BitVec 32 := 19#32
  let v307 : BitVec 32 := Scalar.addi v0 c19_i32_121
  let v3073 : Index := Scalar.indexCast v307
  ![v3073.toNat]
def k0_off156 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c19_i32_121 : BitVec 32 := 19#32
  let v307 : BitVec 32 := Scalar.addi v0 c19_i32_121
  let c0_i32_1282 : BitVec 32 := 0#32
  ![v307.toNat, v3074.toNat, 0]
def k0_cond52 (v309 : BitVec 32) : BitVec 1 :=
  let c0_i32_122 : BitVec 32 := 0#32
  let v310 : BitVec 1 := Scalar.cmpi .sgt v309 c0_i32_122
  let v311 : BitVec 32 := Scalar.extui v310
  let c0_i32_123 : BitVec 32 := 0#32
  let v312 : BitVec 1 := Scalar.cmpi .ne v311 c0_i32_123
  v312

def k0_chk52 (i : grid0.Coords) (v309 : BitVec 32) (v3074 : BitVec 32) : Prop :=
  (∀ (k0_h52 : k0_cond52 v309 = 1#1), ∀ a, (k0_off156 i v3074) a + S1x1x512.size a ≤ S1024x200x512.size a)
instance k0_chk52.dec : ∀ (i : grid0.Coords) (v309 : BitVec 32) (v3074 : BitVec 32), Decidable (k0_chk52 i v309 v3074) := fun i v309 v3074 => decidable_of_iff' _ (Iff.of_eq (k0_chk52.eq_1 i v309 v3074))
theorem k0_off156_inb : ∀ (i : grid0.Coords) (v309 : BitVec 32) (v3074 : BitVec 32) (k0_hw52 : k0_chk52 i v309 v3074), ∀ (k0_h52 : k0_cond52 v309 = 1#1), ∀ a, (k0_off156 i v3074) a + S1x1x512.size a ≤ S1024x200x512.size a := fun i v309 v3074 k0_hw52 k0_h52 => k0_hw52 k0_h52

def k0_off157 (i : grid0.Coords) : Fin 1 → Nat :=
  let arg0 : BitVec 32 := BitVec.ofNat 32 (i 0).val
  let c256_i32 : BitVec 32 := 256#32
  let v0 : BitVec 32 := Scalar.muli arg0 c256_i32
  let c20_i32_124 : BitVec 32 := 20#32
  let v313 : BitVec 32 := Scalar.addi v0 c20_i32_124
  let v314 : Index := Scalar.indexCast v313
  ![v314.toNat]
def k0_off158 (i : grid0.Coords) : Fin 1 → Nat :=
  let arg0 : BitVec 32 := BitVec.ofNat 32 (i 0).val
  let c256_i32 : BitVec 32 := 256#32
  let v0 : BitVec 32 := Scalar.muli arg0 c256_i32
  let c20_i32_124 : BitVec 32 := 20#32
  let v313 : BitVec 32 := Scalar.addi v0 c20_i32_124
  let v3073 : Index := Scalar.indexCast v313
  ![v3073.toNat]
def k0_off159 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c20_i32_124 : BitVec 32 := 20#32
  let v313 : BitVec 32 := Scalar.addi v0 c20_i32_124
  let c0_i32_1282 : BitVec 32 := 0#32
  ![v313.toNat, v3074.toNat, 0]
def k0_cond53 (v315 : BitVec 32) : BitVec 1 :=
  let c0_i32_125 : BitVec 32 := 0#32
  let v316 : BitVec 1 := Scalar.cmpi .sgt v315 c0_i32_125
  let v317 : BitVec 32 := Scalar.extui v316
  let c0_i32_126 : BitVec 32 := 0#32
  let v318 : BitVec 1 := Scalar.cmpi .ne v317 c0_i32_126
  v318

def k0_chk53 (i : grid0.Coords) (v315 : BitVec 32) (v3074 : BitVec 32) : Prop :=
  (∀ (k0_h53 : k0_cond53 v315 = 1#1), ∀ a, (k0_off159 i v3074) a + S1x1x512.size a ≤ S1024x200x512.size a)
instance k0_chk53.dec : ∀ (i : grid0.Coords) (v315 : BitVec 32) (v3074 : BitVec 32), Decidable (k0_chk53 i v315 v3074) := fun i v315 v3074 => decidable_of_iff' _ (Iff.of_eq (k0_chk53.eq_1 i v315 v3074))
theorem k0_off159_inb : ∀ (i : grid0.Coords) (v315 : BitVec 32) (v3074 : BitVec 32) (k0_hw53 : k0_chk53 i v315 v3074), ∀ (k0_h53 : k0_cond53 v315 = 1#1), ∀ a, (k0_off159 i v3074) a + S1x1x512.size a ≤ S1024x200x512.size a := fun i v315 v3074 k0_hw53 k0_h53 => k0_hw53 k0_h53

def k0_off160 (i : grid0.Coords) : Fin 1 → Nat :=
  let arg0 : BitVec 32 := BitVec.ofNat 32 (i 0).val
  let c256_i32 : BitVec 32 := 256#32
  let v0 : BitVec 32 := Scalar.muli arg0 c256_i32
  let c21_i32_127 : BitVec 32 := 21#32
  let v319 : BitVec 32 := Scalar.addi v0 c21_i32_127
  let v320 : Index := Scalar.indexCast v319
  ![v320.toNat]
def k0_off161 (i : grid0.Coords) : Fin 1 → Nat :=
  let arg0 : BitVec 32 := BitVec.ofNat 32 (i 0).val
  let c256_i32 : BitVec 32 := 256#32
  let v0 : BitVec 32 := Scalar.muli arg0 c256_i32
  let c21_i32_127 : BitVec 32 := 21#32
  let v319 : BitVec 32 := Scalar.addi v0 c21_i32_127
  let v3073 : Index := Scalar.indexCast v319
  ![v3073.toNat]
def k0_off162 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c21_i32_127 : BitVec 32 := 21#32
  let v319 : BitVec 32 := Scalar.addi v0 c21_i32_127
  let c0_i32_1282 : BitVec 32 := 0#32
  ![v319.toNat, v3074.toNat, 0]
def k0_cond54 (v321 : BitVec 32) : BitVec 1 :=
  let c0_i32_128 : BitVec 32 := 0#32
  let v322 : BitVec 1 := Scalar.cmpi .sgt v321 c0_i32_128
  let v323 : BitVec 32 := Scalar.extui v322
  let c0_i32_129 : BitVec 32 := 0#32
  let v324 : BitVec 1 := Scalar.cmpi .ne v323 c0_i32_129
  v324

def k0_chk54 (i : grid0.Coords) (v321 : BitVec 32) (v3074 : BitVec 32) : Prop :=
  (∀ (k0_h54 : k0_cond54 v321 = 1#1), ∀ a, (k0_off162 i v3074) a + S1x1x512.size a ≤ S1024x200x512.size a)
instance k0_chk54.dec : ∀ (i : grid0.Coords) (v321 : BitVec 32) (v3074 : BitVec 32), Decidable (k0_chk54 i v321 v3074) := fun i v321 v3074 => decidable_of_iff' _ (Iff.of_eq (k0_chk54.eq_1 i v321 v3074))
theorem k0_off162_inb : ∀ (i : grid0.Coords) (v321 : BitVec 32) (v3074 : BitVec 32) (k0_hw54 : k0_chk54 i v321 v3074), ∀ (k0_h54 : k0_cond54 v321 = 1#1), ∀ a, (k0_off162 i v3074) a + S1x1x512.size a ≤ S1024x200x512.size a := fun i v321 v3074 k0_hw54 k0_h54 => k0_hw54 k0_h54

def k0_off163 (i : grid0.Coords) : Fin 1 → Nat :=
  let arg0 : BitVec 32 := BitVec.ofNat 32 (i 0).val
  let c256_i32 : BitVec 32 := 256#32
  let v0 : BitVec 32 := Scalar.muli arg0 c256_i32
  let c22_i32_130 : BitVec 32 := 22#32
  let v325 : BitVec 32 := Scalar.addi v0 c22_i32_130
  let v326 : Index := Scalar.indexCast v325
  ![v326.toNat]
def k0_off164 (i : grid0.Coords) : Fin 1 → Nat :=
  let arg0 : BitVec 32 := BitVec.ofNat 32 (i 0).val
  let c256_i32 : BitVec 32 := 256#32
  let v0 : BitVec 32 := Scalar.muli arg0 c256_i32
  let c22_i32_130 : BitVec 32 := 22#32
  let v325 : BitVec 32 := Scalar.addi v0 c22_i32_130
  let v3073 : Index := Scalar.indexCast v325
  ![v3073.toNat]
def k0_off165 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c22_i32_130 : BitVec 32 := 22#32
  let v325 : BitVec 32 := Scalar.addi v0 c22_i32_130
  let c0_i32_1282 : BitVec 32 := 0#32
  ![v325.toNat, v3074.toNat, 0]
def k0_cond55 (v327 : BitVec 32) : BitVec 1 :=
  let c0_i32_131 : BitVec 32 := 0#32
  let v328 : BitVec 1 := Scalar.cmpi .sgt v327 c0_i32_131
  let v329 : BitVec 32 := Scalar.extui v328
  let c0_i32_132 : BitVec 32 := 0#32
  let v330 : BitVec 1 := Scalar.cmpi .ne v329 c0_i32_132
  v330

def k0_chk55 (i : grid0.Coords) (v327 : BitVec 32) (v3074 : BitVec 32) : Prop :=
  (∀ (k0_h55 : k0_cond55 v327 = 1#1), ∀ a, (k0_off165 i v3074) a + S1x1x512.size a ≤ S1024x200x512.size a)
instance k0_chk55.dec : ∀ (i : grid0.Coords) (v327 : BitVec 32) (v3074 : BitVec 32), Decidable (k0_chk55 i v327 v3074) := fun i v327 v3074 => decidable_of_iff' _ (Iff.of_eq (k0_chk55.eq_1 i v327 v3074))
theorem k0_off165_inb : ∀ (i : grid0.Coords) (v327 : BitVec 32) (v3074 : BitVec 32) (k0_hw55 : k0_chk55 i v327 v3074), ∀ (k0_h55 : k0_cond55 v327 = 1#1), ∀ a, (k0_off165 i v3074) a + S1x1x512.size a ≤ S1024x200x512.size a := fun i v327 v3074 k0_hw55 k0_h55 => k0_hw55 k0_h55

def k0_off166 (i : grid0.Coords) : Fin 1 → Nat :=
  let arg0 : BitVec 32 := BitVec.ofNat 32 (i 0).val
  let c256_i32 : BitVec 32 := 256#32
  let v0 : BitVec 32 := Scalar.muli arg0 c256_i32
  let c23_i32_133 : BitVec 32 := 23#32
  let v331 : BitVec 32 := Scalar.addi v0 c23_i32_133
  let v332 : Index := Scalar.indexCast v331
  ![v332.toNat]
def k0_off167 (i : grid0.Coords) : Fin 1 → Nat :=
  let arg0 : BitVec 32 := BitVec.ofNat 32 (i 0).val
  let c256_i32 : BitVec 32 := 256#32
  let v0 : BitVec 32 := Scalar.muli arg0 c256_i32
  let c23_i32_133 : BitVec 32 := 23#32
  let v331 : BitVec 32 := Scalar.addi v0 c23_i32_133
  let v3073 : Index := Scalar.indexCast v331
  ![v3073.toNat]
def k0_off168 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c23_i32_133 : BitVec 32 := 23#32
  let v331 : BitVec 32 := Scalar.addi v0 c23_i32_133
  let c0_i32_1282 : BitVec 32 := 0#32
  ![v331.toNat, v3074.toNat, 0]
def k0_cond56 (v333 : BitVec 32) : BitVec 1 :=
  let c0_i32_134 : BitVec 32 := 0#32
  let v334 : BitVec 1 := Scalar.cmpi .sgt v333 c0_i32_134
  let v335 : BitVec 32 := Scalar.extui v334
  let c0_i32_135 : BitVec 32 := 0#32
  let v336 : BitVec 1 := Scalar.cmpi .ne v335 c0_i32_135
  v336

def k0_chk56 (i : grid0.Coords) (v333 : BitVec 32) (v3074 : BitVec 32) : Prop :=
  (∀ (k0_h56 : k0_cond56 v333 = 1#1), ∀ a, (k0_off168 i v3074) a + S1x1x512.size a ≤ S1024x200x512.size a)
instance k0_chk56.dec : ∀ (i : grid0.Coords) (v333 : BitVec 32) (v3074 : BitVec 32), Decidable (k0_chk56 i v333 v3074) := fun i v333 v3074 => decidable_of_iff' _ (Iff.of_eq (k0_chk56.eq_1 i v333 v3074))
theorem k0_off168_inb : ∀ (i : grid0.Coords) (v333 : BitVec 32) (v3074 : BitVec 32) (k0_hw56 : k0_chk56 i v333 v3074), ∀ (k0_h56 : k0_cond56 v333 = 1#1), ∀ a, (k0_off168 i v3074) a + S1x1x512.size a ≤ S1024x200x512.size a := fun i v333 v3074 k0_hw56 k0_h56 => k0_hw56 k0_h56

def k0_off169 (i : grid0.Coords) : Fin 1 → Nat :=
  let arg0 : BitVec 32 := BitVec.ofNat 32 (i 0).val
  let c256_i32 : BitVec 32 := 256#32
  let v0 : BitVec 32 := Scalar.muli arg0 c256_i32
  let c24_i32_136 : BitVec 32 := 24#32
  let v337 : BitVec 32 := Scalar.addi v0 c24_i32_136
  let v338 : Index := Scalar.indexCast v337
  ![v338.toNat]
def k0_off170 (i : grid0.Coords) : Fin 1 → Nat :=
  let arg0 : BitVec 32 := BitVec.ofNat 32 (i 0).val
  let c256_i32 : BitVec 32 := 256#32
  let v0 : BitVec 32 := Scalar.muli arg0 c256_i32
  let c24_i32_136 : BitVec 32 := 24#32
  let v337 : BitVec 32 := Scalar.addi v0 c24_i32_136
  let v3073 : Index := Scalar.indexCast v337
  ![v3073.toNat]
def k0_off171 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c24_i32_136 : BitVec 32 := 24#32
  let v337 : BitVec 32 := Scalar.addi v0 c24_i32_136
  let c0_i32_1282 : BitVec 32 := 0#32
  ![v337.toNat, v3074.toNat, 0]
def k0_cond57 (v339 : BitVec 32) : BitVec 1 :=
  let c0_i32_137 : BitVec 32 := 0#32
  let v340 : BitVec 1 := Scalar.cmpi .sgt v339 c0_i32_137
  let v341 : BitVec 32 := Scalar.extui v340
  let c0_i32_138 : BitVec 32 := 0#32
  let v342 : BitVec 1 := Scalar.cmpi .ne v341 c0_i32_138
  v342

def k0_chk57 (i : grid0.Coords) (v339 : BitVec 32) (v3074 : BitVec 32) : Prop :=
  (∀ (k0_h57 : k0_cond57 v339 = 1#1), ∀ a, (k0_off171 i v3074) a + S1x1x512.size a ≤ S1024x200x512.size a)
instance k0_chk57.dec : ∀ (i : grid0.Coords) (v339 : BitVec 32) (v3074 : BitVec 32), Decidable (k0_chk57 i v339 v3074) := fun i v339 v3074 => decidable_of_iff' _ (Iff.of_eq (k0_chk57.eq_1 i v339 v3074))
theorem k0_off171_inb : ∀ (i : grid0.Coords) (v339 : BitVec 32) (v3074 : BitVec 32) (k0_hw57 : k0_chk57 i v339 v3074), ∀ (k0_h57 : k0_cond57 v339 = 1#1), ∀ a, (k0_off171 i v3074) a + S1x1x512.size a ≤ S1024x200x512.size a := fun i v339 v3074 k0_hw57 k0_h57 => k0_hw57 k0_h57

def k0_off172 (i : grid0.Coords) : Fin 1 → Nat :=
  let arg0 : BitVec 32 := BitVec.ofNat 32 (i 0).val
  let c256_i32 : BitVec 32 := 256#32
  let v0 : BitVec 32 := Scalar.muli arg0 c256_i32
  let c25_i32_139 : BitVec 32 := 25#32
  let v343 : BitVec 32 := Scalar.addi v0 c25_i32_139
  let v344 : Index := Scalar.indexCast v343
  ![v344.toNat]
def k0_off173 (i : grid0.Coords) : Fin 1 → Nat :=
  let arg0 : BitVec 32 := BitVec.ofNat 32 (i 0).val
  let c256_i32 : BitVec 32 := 256#32
  let v0 : BitVec 32 := Scalar.muli arg0 c256_i32
  let c25_i32_139 : BitVec 32 := 25#32
  let v343 : BitVec 32 := Scalar.addi v0 c25_i32_139
  let v3073 : Index := Scalar.indexCast v343
  ![v3073.toNat]
def k0_off174 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c25_i32_139 : BitVec 32 := 25#32
  let v343 : BitVec 32 := Scalar.addi v0 c25_i32_139
  let c0_i32_1282 : BitVec 32 := 0#32
  ![v343.toNat, v3074.toNat, 0]
def k0_cond58 (v345 : BitVec 32) : BitVec 1 :=
  let c0_i32_140 : BitVec 32 := 0#32
  let v346 : BitVec 1 := Scalar.cmpi .sgt v345 c0_i32_140
  let v347 : BitVec 32 := Scalar.extui v346
  let c0_i32_141 : BitVec 32 := 0#32
  let v348 : BitVec 1 := Scalar.cmpi .ne v347 c0_i32_141
  v348

def k0_chk58 (i : grid0.Coords) (v345 : BitVec 32) (v3074 : BitVec 32) : Prop :=
  (∀ (k0_h58 : k0_cond58 v345 = 1#1), ∀ a, (k0_off174 i v3074) a + S1x1x512.size a ≤ S1024x200x512.size a)
instance k0_chk58.dec : ∀ (i : grid0.Coords) (v345 : BitVec 32) (v3074 : BitVec 32), Decidable (k0_chk58 i v345 v3074) := fun i v345 v3074 => decidable_of_iff' _ (Iff.of_eq (k0_chk58.eq_1 i v345 v3074))
theorem k0_off174_inb : ∀ (i : grid0.Coords) (v345 : BitVec 32) (v3074 : BitVec 32) (k0_hw58 : k0_chk58 i v345 v3074), ∀ (k0_h58 : k0_cond58 v345 = 1#1), ∀ a, (k0_off174 i v3074) a + S1x1x512.size a ≤ S1024x200x512.size a := fun i v345 v3074 k0_hw58 k0_h58 => k0_hw58 k0_h58

def k0_off175 (i : grid0.Coords) : Fin 1 → Nat :=
  let arg0 : BitVec 32 := BitVec.ofNat 32 (i 0).val
  let c256_i32 : BitVec 32 := 256#32
  let v0 : BitVec 32 := Scalar.muli arg0 c256_i32
  let c26_i32_142 : BitVec 32 := 26#32
  let v349 : BitVec 32 := Scalar.addi v0 c26_i32_142
  let v350 : Index := Scalar.indexCast v349
  ![v350.toNat]
def k0_off176 (i : grid0.Coords) : Fin 1 → Nat :=
  let arg0 : BitVec 32 := BitVec.ofNat 32 (i 0).val
  let c256_i32 : BitVec 32 := 256#32
  let v0 : BitVec 32 := Scalar.muli arg0 c256_i32
  let c26_i32_142 : BitVec 32 := 26#32
  let v349 : BitVec 32 := Scalar.addi v0 c26_i32_142
  let v3073 : Index := Scalar.indexCast v349
  ![v3073.toNat]
def k0_off177 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c26_i32_142 : BitVec 32 := 26#32
  let v349 : BitVec 32 := Scalar.addi v0 c26_i32_142
  let c0_i32_1282 : BitVec 32 := 0#32
  ![v349.toNat, v3074.toNat, 0]
def k0_cond59 (v351 : BitVec 32) : BitVec 1 :=
  let c0_i32_143 : BitVec 32 := 0#32
  let v352 : BitVec 1 := Scalar.cmpi .sgt v351 c0_i32_143
  let v353 : BitVec 32 := Scalar.extui v352
  let c0_i32_144 : BitVec 32 := 0#32
  let v354 : BitVec 1 := Scalar.cmpi .ne v353 c0_i32_144
  v354

def k0_chk59 (i : grid0.Coords) (v351 : BitVec 32) (v3074 : BitVec 32) : Prop :=
  (∀ (k0_h59 : k0_cond59 v351 = 1#1), ∀ a, (k0_off177 i v3074) a + S1x1x512.size a ≤ S1024x200x512.size a)
instance k0_chk59.dec : ∀ (i : grid0.Coords) (v351 : BitVec 32) (v3074 : BitVec 32), Decidable (k0_chk59 i v351 v3074) := fun i v351 v3074 => decidable_of_iff' _ (Iff.of_eq (k0_chk59.eq_1 i v351 v3074))
theorem k0_off177_inb : ∀ (i : grid0.Coords) (v351 : BitVec 32) (v3074 : BitVec 32) (k0_hw59 : k0_chk59 i v351 v3074), ∀ (k0_h59 : k0_cond59 v351 = 1#1), ∀ a, (k0_off177 i v3074) a + S1x1x512.size a ≤ S1024x200x512.size a := fun i v351 v3074 k0_hw59 k0_h59 => k0_hw59 k0_h59

def k0_off178 (i : grid0.Coords) : Fin 1 → Nat :=
  let arg0 : BitVec 32 := BitVec.ofNat 32 (i 0).val
  let c256_i32 : BitVec 32 := 256#32
  let v0 : BitVec 32 := Scalar.muli arg0 c256_i32
  let c27_i32_145 : BitVec 32 := 27#32
  let v355 : BitVec 32 := Scalar.addi v0 c27_i32_145
  let v356 : Index := Scalar.indexCast v355
  ![v356.toNat]
def k0_off179 (i : grid0.Coords) : Fin 1 → Nat :=
  let arg0 : BitVec 32 := BitVec.ofNat 32 (i 0).val
  let c256_i32 : BitVec 32 := 256#32
  let v0 : BitVec 32 := Scalar.muli arg0 c256_i32
  let c27_i32_145 : BitVec 32 := 27#32
  let v355 : BitVec 32 := Scalar.addi v0 c27_i32_145
  let v3073 : Index := Scalar.indexCast v355
  ![v3073.toNat]
def k0_off180 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c27_i32_145 : BitVec 32 := 27#32
  let v355 : BitVec 32 := Scalar.addi v0 c27_i32_145
  let c0_i32_1282 : BitVec 32 := 0#32
  ![v355.toNat, v3074.toNat, 0]
def k0_cond60 (v357 : BitVec 32) : BitVec 1 :=
  let c0_i32_146 : BitVec 32 := 0#32
  let v358 : BitVec 1 := Scalar.cmpi .sgt v357 c0_i32_146
  let v359 : BitVec 32 := Scalar.extui v358
  let c0_i32_147 : BitVec 32 := 0#32
  let v360 : BitVec 1 := Scalar.cmpi .ne v359 c0_i32_147
  v360

def k0_chk60 (i : grid0.Coords) (v357 : BitVec 32) (v3074 : BitVec 32) : Prop :=
  (∀ (k0_h60 : k0_cond60 v357 = 1#1), ∀ a, (k0_off180 i v3074) a + S1x1x512.size a ≤ S1024x200x512.size a)
instance k0_chk60.dec : ∀ (i : grid0.Coords) (v357 : BitVec 32) (v3074 : BitVec 32), Decidable (k0_chk60 i v357 v3074) := fun i v357 v3074 => decidable_of_iff' _ (Iff.of_eq (k0_chk60.eq_1 i v357 v3074))
theorem k0_off180_inb : ∀ (i : grid0.Coords) (v357 : BitVec 32) (v3074 : BitVec 32) (k0_hw60 : k0_chk60 i v357 v3074), ∀ (k0_h60 : k0_cond60 v357 = 1#1), ∀ a, (k0_off180 i v3074) a + S1x1x512.size a ≤ S1024x200x512.size a := fun i v357 v3074 k0_hw60 k0_h60 => k0_hw60 k0_h60

def k0_off181 (i : grid0.Coords) : Fin 1 → Nat :=
  let arg0 : BitVec 32 := BitVec.ofNat 32 (i 0).val
  let c256_i32 : BitVec 32 := 256#32
  let v0 : BitVec 32 := Scalar.muli arg0 c256_i32
  let c28_i32_148 : BitVec 32 := 28#32
  let v361 : BitVec 32 := Scalar.addi v0 c28_i32_148
  let v362 : Index := Scalar.indexCast v361
  ![v362.toNat]
def k0_off182 (i : grid0.Coords) : Fin 1 → Nat :=
  let arg0 : BitVec 32 := BitVec.ofNat 32 (i 0).val
  let c256_i32 : BitVec 32 := 256#32
  let v0 : BitVec 32 := Scalar.muli arg0 c256_i32
  let c28_i32_148 : BitVec 32 := 28#32
  let v361 : BitVec 32 := Scalar.addi v0 c28_i32_148
  let v3073 : Index := Scalar.indexCast v361
  ![v3073.toNat]
def k0_off183 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c28_i32_148 : BitVec 32 := 28#32
  let v361 : BitVec 32 := Scalar.addi v0 c28_i32_148
  let c0_i32_1282 : BitVec 32 := 0#32
  ![v361.toNat, v3074.toNat, 0]
def k0_cond61 (v363 : BitVec 32) : BitVec 1 :=
  let c0_i32_149 : BitVec 32 := 0#32
  let v364 : BitVec 1 := Scalar.cmpi .sgt v363 c0_i32_149
  let v365 : BitVec 32 := Scalar.extui v364
  let c0_i32_150 : BitVec 32 := 0#32
  let v366 : BitVec 1 := Scalar.cmpi .ne v365 c0_i32_150
  v366

def k0_chk61 (i : grid0.Coords) (v363 : BitVec 32) (v3074 : BitVec 32) : Prop :=
  (∀ (k0_h61 : k0_cond61 v363 = 1#1), ∀ a, (k0_off183 i v3074) a + S1x1x512.size a ≤ S1024x200x512.size a)
instance k0_chk61.dec : ∀ (i : grid0.Coords) (v363 : BitVec 32) (v3074 : BitVec 32), Decidable (k0_chk61 i v363 v3074) := fun i v363 v3074 => decidable_of_iff' _ (Iff.of_eq (k0_chk61.eq_1 i v363 v3074))
theorem k0_off183_inb : ∀ (i : grid0.Coords) (v363 : BitVec 32) (v3074 : BitVec 32) (k0_hw61 : k0_chk61 i v363 v3074), ∀ (k0_h61 : k0_cond61 v363 = 1#1), ∀ a, (k0_off183 i v3074) a + S1x1x512.size a ≤ S1024x200x512.size a := fun i v363 v3074 k0_hw61 k0_h61 => k0_hw61 k0_h61

def k0_off184 (i : grid0.Coords) : Fin 1 → Nat :=
  let arg0 : BitVec 32 := BitVec.ofNat 32 (i 0).val
  let c256_i32 : BitVec 32 := 256#32
  let v0 : BitVec 32 := Scalar.muli arg0 c256_i32
  let c29_i32_151 : BitVec 32 := 29#32
  let v367 : BitVec 32 := Scalar.addi v0 c29_i32_151
  let v368 : Index := Scalar.indexCast v367
  ![v368.toNat]
def k0_off185 (i : grid0.Coords) : Fin 1 → Nat :=
  let arg0 : BitVec 32 := BitVec.ofNat 32 (i 0).val
  let c256_i32 : BitVec 32 := 256#32
  let v0 : BitVec 32 := Scalar.muli arg0 c256_i32
  let c29_i32_151 : BitVec 32 := 29#32
  let v367 : BitVec 32 := Scalar.addi v0 c29_i32_151
  let v3073 : Index := Scalar.indexCast v367
  ![v3073.toNat]
def k0_off186 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c29_i32_151 : BitVec 32 := 29#32
  let v367 : BitVec 32 := Scalar.addi v0 c29_i32_151
  let c0_i32_1282 : BitVec 32 := 0#32
  ![v367.toNat, v3074.toNat, 0]
def k0_cond62 (v369 : BitVec 32) : BitVec 1 :=
  let c0_i32_152 : BitVec 32 := 0#32
  let v370 : BitVec 1 := Scalar.cmpi .sgt v369 c0_i32_152
  let v371 : BitVec 32 := Scalar.extui v370
  let c0_i32_153 : BitVec 32 := 0#32
  let v372 : BitVec 1 := Scalar.cmpi .ne v371 c0_i32_153
  v372

def k0_chk62 (i : grid0.Coords) (v369 : BitVec 32) (v3074 : BitVec 32) : Prop :=
  (∀ (k0_h62 : k0_cond62 v369 = 1#1), ∀ a, (k0_off186 i v3074) a + S1x1x512.size a ≤ S1024x200x512.size a)
instance k0_chk62.dec : ∀ (i : grid0.Coords) (v369 : BitVec 32) (v3074 : BitVec 32), Decidable (k0_chk62 i v369 v3074) := fun i v369 v3074 => decidable_of_iff' _ (Iff.of_eq (k0_chk62.eq_1 i v369 v3074))
theorem k0_off186_inb : ∀ (i : grid0.Coords) (v369 : BitVec 32) (v3074 : BitVec 32) (k0_hw62 : k0_chk62 i v369 v3074), ∀ (k0_h62 : k0_cond62 v369 = 1#1), ∀ a, (k0_off186 i v3074) a + S1x1x512.size a ≤ S1024x200x512.size a := fun i v369 v3074 k0_hw62 k0_h62 => k0_hw62 k0_h62

def k0_off187 (i : grid0.Coords) : Fin 1 → Nat :=
  let arg0 : BitVec 32 := BitVec.ofNat 32 (i 0).val
  let c256_i32 : BitVec 32 := 256#32
  let v0 : BitVec 32 := Scalar.muli arg0 c256_i32
  let c30_i32_154 : BitVec 32 := 30#32
  let v373 : BitVec 32 := Scalar.addi v0 c30_i32_154
  let v374 : Index := Scalar.indexCast v373
  ![v374.toNat]
def k0_off188 (i : grid0.Coords) : Fin 1 → Nat :=
  let arg0 : BitVec 32 := BitVec.ofNat 32 (i 0).val
  let c256_i32 : BitVec 32 := 256#32
  let v0 : BitVec 32 := Scalar.muli arg0 c256_i32
  let c30_i32_154 : BitVec 32 := 30#32
  let v373 : BitVec 32 := Scalar.addi v0 c30_i32_154
  let v3073 : Index := Scalar.indexCast v373
  ![v3073.toNat]
def k0_off189 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c30_i32_154 : BitVec 32 := 30#32
  let v373 : BitVec 32 := Scalar.addi v0 c30_i32_154
  let c0_i32_1282 : BitVec 32 := 0#32
  ![v373.toNat, v3074.toNat, 0]
def k0_cond63 (v375 : BitVec 32) : BitVec 1 :=
  let c0_i32_155 : BitVec 32 := 0#32
  let v376 : BitVec 1 := Scalar.cmpi .sgt v375 c0_i32_155
  let v377 : BitVec 32 := Scalar.extui v376
  let c0_i32_156 : BitVec 32 := 0#32
  let v378 : BitVec 1 := Scalar.cmpi .ne v377 c0_i32_156
  v378

def k0_chk63 (i : grid0.Coords) (v375 : BitVec 32) (v3074 : BitVec 32) : Prop :=
  (∀ (k0_h63 : k0_cond63 v375 = 1#1), ∀ a, (k0_off189 i v3074) a + S1x1x512.size a ≤ S1024x200x512.size a)
instance k0_chk63.dec : ∀ (i : grid0.Coords) (v375 : BitVec 32) (v3074 : BitVec 32), Decidable (k0_chk63 i v375 v3074) := fun i v375 v3074 => decidable_of_iff' _ (Iff.of_eq (k0_chk63.eq_1 i v375 v3074))
theorem k0_off189_inb : ∀ (i : grid0.Coords) (v375 : BitVec 32) (v3074 : BitVec 32) (k0_hw63 : k0_chk63 i v375 v3074), ∀ (k0_h63 : k0_cond63 v375 = 1#1), ∀ a, (k0_off189 i v3074) a + S1x1x512.size a ≤ S1024x200x512.size a := fun i v375 v3074 k0_hw63 k0_h63 => k0_hw63 k0_h63

def k0_off190 (i : grid0.Coords) : Fin 1 → Nat :=
  let arg0 : BitVec 32 := BitVec.ofNat 32 (i 0).val
  let c256_i32 : BitVec 32 := 256#32
  let v0 : BitVec 32 := Scalar.muli arg0 c256_i32
  let c31_i32_157 : BitVec 32 := 31#32
  let v379 : BitVec 32 := Scalar.addi v0 c31_i32_157
  let v380 : Index := Scalar.indexCast v379
  ![v380.toNat]
def k0_off191 (i : grid0.Coords) : Fin 1 → Nat :=
  let arg0 : BitVec 32 := BitVec.ofNat 32 (i 0).val
  let c256_i32 : BitVec 32 := 256#32
  let v0 : BitVec 32 := Scalar.muli arg0 c256_i32
  let c31_i32_157 : BitVec 32 := 31#32
  let v379 : BitVec 32 := Scalar.addi v0 c31_i32_157
  let v3073 : Index := Scalar.indexCast v379
  ![v3073.toNat]
def k0_off192 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c31_i32_157 : BitVec 32 := 31#32
  let v379 : BitVec 32 := Scalar.addi v0 c31_i32_157
  let c0_i32_1282 : BitVec 32 := 0#32
  ![v379.toNat, v3074.toNat, 0]
def k0_cond64 (v381 : BitVec 32) : BitVec 1 :=
  let c0_i32_158 : BitVec 32 := 0#32
  let v382 : BitVec 1 := Scalar.cmpi .sgt v381 c0_i32_158
  let v383 : BitVec 32 := Scalar.extui v382
  let c0_i32_159 : BitVec 32 := 0#32
  let v384 : BitVec 1 := Scalar.cmpi .ne v383 c0_i32_159
  v384

def k0_chk64 (i : grid0.Coords) (v381 : BitVec 32) (v3074 : BitVec 32) : Prop :=
  (∀ (k0_h64 : k0_cond64 v381 = 1#1), ∀ a, (k0_off192 i v3074) a + S1x1x512.size a ≤ S1024x200x512.size a)
instance k0_chk64.dec : ∀ (i : grid0.Coords) (v381 : BitVec 32) (v3074 : BitVec 32), Decidable (k0_chk64 i v381 v3074) := fun i v381 v3074 => decidable_of_iff' _ (Iff.of_eq (k0_chk64.eq_1 i v381 v3074))
theorem k0_off192_inb : ∀ (i : grid0.Coords) (v381 : BitVec 32) (v3074 : BitVec 32) (k0_hw64 : k0_chk64 i v381 v3074), ∀ (k0_h64 : k0_cond64 v381 = 1#1), ∀ a, (k0_off192 i v3074) a + S1x1x512.size a ≤ S1024x200x512.size a := fun i v381 v3074 k0_hw64 k0_h64 => k0_hw64 k0_h64

def k0_off193 (i : grid0.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v385 : BitVec 32 := Scalar.addi v0 c32_i32
  let v386 : Index := Scalar.indexCast v385
  ![v386.toNat]
def k0_off194 (i : grid0.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v385 : BitVec 32 := Scalar.addi v0 c32_i32
  let v3073 : Index := Scalar.indexCast v385
  ![v3073.toNat]
def k0_off195 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c32_i32 : BitVec 32 := 32#32
  let v385 : BitVec 32 := Scalar.addi v0 c32_i32
  let c0_i32_1287 : BitVec 32 := 0#32
  ![v385.toNat, v3074.toNat, 0]
def k0_cond65 (v387 : BitVec 32) : BitVec 1 :=
  let c0_i32_160 : BitVec 32 := 0#32
  let v388 : BitVec 1 := Scalar.cmpi .sgt v387 c0_i32_160
  let v389 : BitVec 32 := Scalar.extui v388
  let c0_i32_161 : BitVec 32 := 0#32
  let v390 : BitVec 1 := Scalar.cmpi .ne v389 c0_i32_161
  v390

def k0_chk65 (i : grid0.Coords) (v387 : BitVec 32) (v3074 : BitVec 32) : Prop :=
  (∀ (k0_h65 : k0_cond65 v387 = 1#1), ∀ a, (k0_off195 i v3074) a + S1x1x512.size a ≤ S1024x200x512.size a)
instance k0_chk65.dec : ∀ (i : grid0.Coords) (v387 : BitVec 32) (v3074 : BitVec 32), Decidable (k0_chk65 i v387 v3074) := fun i v387 v3074 => decidable_of_iff' _ (Iff.of_eq (k0_chk65.eq_1 i v387 v3074))
theorem k0_off195_inb : ∀ (i : grid0.Coords) (v387 : BitVec 32) (v3074 : BitVec 32) (k0_hw65 : k0_chk65 i v387 v3074), ∀ (k0_h65 : k0_cond65 v387 = 1#1), ∀ a, (k0_off195 i v3074) a + S1x1x512.size a ≤ S1024x200x512.size a := fun i v387 v3074 k0_hw65 k0_h65 => k0_hw65 k0_h65

def k0_off196 (i : grid0.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v391 : BitVec 32 := Scalar.addi v0 c33_i32
  let v392 : Index := Scalar.indexCast v391
  ![v392.toNat]
def k0_off197 (i : grid0.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v391 : BitVec 32 := Scalar.addi v0 c33_i32
  let v3073 : Index := Scalar.indexCast v391
  ![v3073.toNat]
def k0_off198 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c33_i32 : BitVec 32 := 33#32
  let v391 : BitVec 32 := Scalar.addi v0 c33_i32
  let c0_i32_1287 : BitVec 32 := 0#32
  ![v391.toNat, v3074.toNat, 0]
def k0_cond66 (v393 : BitVec 32) : BitVec 1 :=
  let c0_i32_162 : BitVec 32 := 0#32
  let v394 : BitVec 1 := Scalar.cmpi .sgt v393 c0_i32_162
  let v395 : BitVec 32 := Scalar.extui v394
  let c0_i32_163 : BitVec 32 := 0#32
  let v396 : BitVec 1 := Scalar.cmpi .ne v395 c0_i32_163
  v396

def k0_chk66 (i : grid0.Coords) (v393 : BitVec 32) (v3074 : BitVec 32) : Prop :=
  (∀ (k0_h66 : k0_cond66 v393 = 1#1), ∀ a, (k0_off198 i v3074) a + S1x1x512.size a ≤ S1024x200x512.size a)
instance k0_chk66.dec : ∀ (i : grid0.Coords) (v393 : BitVec 32) (v3074 : BitVec 32), Decidable (k0_chk66 i v393 v3074) := fun i v393 v3074 => decidable_of_iff' _ (Iff.of_eq (k0_chk66.eq_1 i v393 v3074))
theorem k0_off198_inb : ∀ (i : grid0.Coords) (v393 : BitVec 32) (v3074 : BitVec 32) (k0_hw66 : k0_chk66 i v393 v3074), ∀ (k0_h66 : k0_cond66 v393 = 1#1), ∀ a, (k0_off198 i v3074) a + S1x1x512.size a ≤ S1024x200x512.size a := fun i v393 v3074 k0_hw66 k0_h66 => k0_hw66 k0_h66

def k0_off199 (i : grid0.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v397 : BitVec 32 := Scalar.addi v0 c34_i32
  let v398 : Index := Scalar.indexCast v397
  ![v398.toNat]
def k0_off200 (i : grid0.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v397 : BitVec 32 := Scalar.addi v0 c34_i32
  let v3073 : Index := Scalar.indexCast v397
  ![v3073.toNat]
def k0_off201 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c34_i32 : BitVec 32 := 34#32
  let v397 : BitVec 32 := Scalar.addi v0 c34_i32
  let c0_i32_1287 : BitVec 32 := 0#32
  ![v397.toNat, v3074.toNat, 0]
def k0_cond67 (v399 : BitVec 32) : BitVec 1 :=
  let c0_i32_164 : BitVec 32 := 0#32
  let v400 : BitVec 1 := Scalar.cmpi .sgt v399 c0_i32_164
  let v401 : BitVec 32 := Scalar.extui v400
  let c0_i32_165 : BitVec 32 := 0#32
  let v402 : BitVec 1 := Scalar.cmpi .ne v401 c0_i32_165
  v402

def k0_chk67 (i : grid0.Coords) (v399 : BitVec 32) (v3074 : BitVec 32) : Prop :=
  (∀ (k0_h67 : k0_cond67 v399 = 1#1), ∀ a, (k0_off201 i v3074) a + S1x1x512.size a ≤ S1024x200x512.size a)
instance k0_chk67.dec : ∀ (i : grid0.Coords) (v399 : BitVec 32) (v3074 : BitVec 32), Decidable (k0_chk67 i v399 v3074) := fun i v399 v3074 => decidable_of_iff' _ (Iff.of_eq (k0_chk67.eq_1 i v399 v3074))
theorem k0_off201_inb : ∀ (i : grid0.Coords) (v399 : BitVec 32) (v3074 : BitVec 32) (k0_hw67 : k0_chk67 i v399 v3074), ∀ (k0_h67 : k0_cond67 v399 = 1#1), ∀ a, (k0_off201 i v3074) a + S1x1x512.size a ≤ S1024x200x512.size a := fun i v399 v3074 k0_hw67 k0_h67 => k0_hw67 k0_h67

def k0_off202 (i : grid0.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v403 : BitVec 32 := Scalar.addi v0 c35_i32
  let v404 : Index := Scalar.indexCast v403
  ![v404.toNat]
def k0_off203 (i : grid0.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v403 : BitVec 32 := Scalar.addi v0 c35_i32
  let v3073 : Index := Scalar.indexCast v403
  ![v3073.toNat]
def k0_off204 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c35_i32 : BitVec 32 := 35#32
  let v403 : BitVec 32 := Scalar.addi v0 c35_i32
  let c0_i32_1287 : BitVec 32 := 0#32
  ![v403.toNat, v3074.toNat, 0]
def k0_cond68 (v405 : BitVec 32) : BitVec 1 :=
  let c0_i32_166 : BitVec 32 := 0#32
  let v406 : BitVec 1 := Scalar.cmpi .sgt v405 c0_i32_166
  let v407 : BitVec 32 := Scalar.extui v406
  let c0_i32_167 : BitVec 32 := 0#32
  let v408 : BitVec 1 := Scalar.cmpi .ne v407 c0_i32_167
  v408

def k0_chk68 (i : grid0.Coords) (v405 : BitVec 32) (v3074 : BitVec 32) : Prop :=
  (∀ (k0_h68 : k0_cond68 v405 = 1#1), ∀ a, (k0_off204 i v3074) a + S1x1x512.size a ≤ S1024x200x512.size a)
instance k0_chk68.dec : ∀ (i : grid0.Coords) (v405 : BitVec 32) (v3074 : BitVec 32), Decidable (k0_chk68 i v405 v3074) := fun i v405 v3074 => decidable_of_iff' _ (Iff.of_eq (k0_chk68.eq_1 i v405 v3074))
theorem k0_off204_inb : ∀ (i : grid0.Coords) (v405 : BitVec 32) (v3074 : BitVec 32) (k0_hw68 : k0_chk68 i v405 v3074), ∀ (k0_h68 : k0_cond68 v405 = 1#1), ∀ a, (k0_off204 i v3074) a + S1x1x512.size a ≤ S1024x200x512.size a := fun i v405 v3074 k0_hw68 k0_h68 => k0_hw68 k0_h68

def k0_off205 (i : grid0.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v409 : BitVec 32 := Scalar.addi v0 c36_i32
  let v410 : Index := Scalar.indexCast v409
  ![v410.toNat]
def k0_off206 (i : grid0.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v409 : BitVec 32 := Scalar.addi v0 c36_i32
  let v3073 : Index := Scalar.indexCast v409
  ![v3073.toNat]
def k0_off207 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c36_i32 : BitVec 32 := 36#32
  let v409 : BitVec 32 := Scalar.addi v0 c36_i32
  let c0_i32_1287 : BitVec 32 := 0#32
  ![v409.toNat, v3074.toNat, 0]
def k0_cond69 (v411 : BitVec 32) : BitVec 1 :=
  let c0_i32_168 : BitVec 32 := 0#32
  let v412 : BitVec 1 := Scalar.cmpi .sgt v411 c0_i32_168
  let v413 : BitVec 32 := Scalar.extui v412
  let c0_i32_169 : BitVec 32 := 0#32
  let v414 : BitVec 1 := Scalar.cmpi .ne v413 c0_i32_169
  v414

def k0_chk69 (i : grid0.Coords) (v411 : BitVec 32) (v3074 : BitVec 32) : Prop :=
  (∀ (k0_h69 : k0_cond69 v411 = 1#1), ∀ a, (k0_off207 i v3074) a + S1x1x512.size a ≤ S1024x200x512.size a)
instance k0_chk69.dec : ∀ (i : grid0.Coords) (v411 : BitVec 32) (v3074 : BitVec 32), Decidable (k0_chk69 i v411 v3074) := fun i v411 v3074 => decidable_of_iff' _ (Iff.of_eq (k0_chk69.eq_1 i v411 v3074))
theorem k0_off207_inb : ∀ (i : grid0.Coords) (v411 : BitVec 32) (v3074 : BitVec 32) (k0_hw69 : k0_chk69 i v411 v3074), ∀ (k0_h69 : k0_cond69 v411 = 1#1), ∀ a, (k0_off207 i v3074) a + S1x1x512.size a ≤ S1024x200x512.size a := fun i v411 v3074 k0_hw69 k0_h69 => k0_hw69 k0_h69

def k0_off208 (i : grid0.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v415 : BitVec 32 := Scalar.addi v0 c37_i32
  let v416 : Index := Scalar.indexCast v415
  ![v416.toNat]
def k0_off209 (i : grid0.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v415 : BitVec 32 := Scalar.addi v0 c37_i32
  let v3073 : Index := Scalar.indexCast v415
  ![v3073.toNat]
def k0_off210 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c37_i32 : BitVec 32 := 37#32
  let v415 : BitVec 32 := Scalar.addi v0 c37_i32
  let c0_i32_1287 : BitVec 32 := 0#32
  ![v415.toNat, v3074.toNat, 0]
def k0_cond70 (v417 : BitVec 32) : BitVec 1 :=
  let c0_i32_170 : BitVec 32 := 0#32
  let v418 : BitVec 1 := Scalar.cmpi .sgt v417 c0_i32_170
  let v419 : BitVec 32 := Scalar.extui v418
  let c0_i32_171 : BitVec 32 := 0#32
  let v420 : BitVec 1 := Scalar.cmpi .ne v419 c0_i32_171
  v420

def k0_chk70 (i : grid0.Coords) (v417 : BitVec 32) (v3074 : BitVec 32) : Prop :=
  (∀ (k0_h70 : k0_cond70 v417 = 1#1), ∀ a, (k0_off210 i v3074) a + S1x1x512.size a ≤ S1024x200x512.size a)
instance k0_chk70.dec : ∀ (i : grid0.Coords) (v417 : BitVec 32) (v3074 : BitVec 32), Decidable (k0_chk70 i v417 v3074) := fun i v417 v3074 => decidable_of_iff' _ (Iff.of_eq (k0_chk70.eq_1 i v417 v3074))
theorem k0_off210_inb : ∀ (i : grid0.Coords) (v417 : BitVec 32) (v3074 : BitVec 32) (k0_hw70 : k0_chk70 i v417 v3074), ∀ (k0_h70 : k0_cond70 v417 = 1#1), ∀ a, (k0_off210 i v3074) a + S1x1x512.size a ≤ S1024x200x512.size a := fun i v417 v3074 k0_hw70 k0_h70 => k0_hw70 k0_h70

def k0_off211 (i : grid0.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v421 : BitVec 32 := Scalar.addi v0 c38_i32
  let v422 : Index := Scalar.indexCast v421
  ![v422.toNat]
def k0_off212 (i : grid0.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v421 : BitVec 32 := Scalar.addi v0 c38_i32
  let v3073 : Index := Scalar.indexCast v421
  ![v3073.toNat]
def k0_off213 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c38_i32 : BitVec 32 := 38#32
  let v421 : BitVec 32 := Scalar.addi v0 c38_i32
  let c0_i32_1287 : BitVec 32 := 0#32
  ![v421.toNat, v3074.toNat, 0]
def k0_cond71 (v423 : BitVec 32) : BitVec 1 :=
  let c0_i32_172 : BitVec 32 := 0#32
  let v424 : BitVec 1 := Scalar.cmpi .sgt v423 c0_i32_172
  let v425 : BitVec 32 := Scalar.extui v424
  let c0_i32_173 : BitVec 32 := 0#32
  let v426 : BitVec 1 := Scalar.cmpi .ne v425 c0_i32_173
  v426

def k0_chk71 (i : grid0.Coords) (v423 : BitVec 32) (v3074 : BitVec 32) : Prop :=
  (∀ (k0_h71 : k0_cond71 v423 = 1#1), ∀ a, (k0_off213 i v3074) a + S1x1x512.size a ≤ S1024x200x512.size a)
instance k0_chk71.dec : ∀ (i : grid0.Coords) (v423 : BitVec 32) (v3074 : BitVec 32), Decidable (k0_chk71 i v423 v3074) := fun i v423 v3074 => decidable_of_iff' _ (Iff.of_eq (k0_chk71.eq_1 i v423 v3074))
theorem k0_off213_inb : ∀ (i : grid0.Coords) (v423 : BitVec 32) (v3074 : BitVec 32) (k0_hw71 : k0_chk71 i v423 v3074), ∀ (k0_h71 : k0_cond71 v423 = 1#1), ∀ a, (k0_off213 i v3074) a + S1x1x512.size a ≤ S1024x200x512.size a := fun i v423 v3074 k0_hw71 k0_h71 => k0_hw71 k0_h71

def k0_off214 (i : grid0.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v427 : BitVec 32 := Scalar.addi v0 c39_i32
  let v428 : Index := Scalar.indexCast v427
  ![v428.toNat]
def k0_off215 (i : grid0.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v427 : BitVec 32 := Scalar.addi v0 c39_i32
  let v3073 : Index := Scalar.indexCast v427
  ![v3073.toNat]
def k0_off216 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c39_i32 : BitVec 32 := 39#32
  let v427 : BitVec 32 := Scalar.addi v0 c39_i32
  let c0_i32_1287 : BitVec 32 := 0#32
  ![v427.toNat, v3074.toNat, 0]
def k0_cond72 (v429 : BitVec 32) : BitVec 1 :=
  let c0_i32_174 : BitVec 32 := 0#32
  let v430 : BitVec 1 := Scalar.cmpi .sgt v429 c0_i32_174
  let v431 : BitVec 32 := Scalar.extui v430
  let c0_i32_175 : BitVec 32 := 0#32
  let v432 : BitVec 1 := Scalar.cmpi .ne v431 c0_i32_175
  v432

def k0_chk72 (i : grid0.Coords) (v429 : BitVec 32) (v3074 : BitVec 32) : Prop :=
  (∀ (k0_h72 : k0_cond72 v429 = 1#1), ∀ a, (k0_off216 i v3074) a + S1x1x512.size a ≤ S1024x200x512.size a)
instance k0_chk72.dec : ∀ (i : grid0.Coords) (v429 : BitVec 32) (v3074 : BitVec 32), Decidable (k0_chk72 i v429 v3074) := fun i v429 v3074 => decidable_of_iff' _ (Iff.of_eq (k0_chk72.eq_1 i v429 v3074))
theorem k0_off216_inb : ∀ (i : grid0.Coords) (v429 : BitVec 32) (v3074 : BitVec 32) (k0_hw72 : k0_chk72 i v429 v3074), ∀ (k0_h72 : k0_cond72 v429 = 1#1), ∀ a, (k0_off216 i v3074) a + S1x1x512.size a ≤ S1024x200x512.size a := fun i v429 v3074 k0_hw72 k0_h72 => k0_hw72 k0_h72

def k0_off217 (i : grid0.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v433 : BitVec 32 := Scalar.addi v0 c40_i32
  let v434 : Index := Scalar.indexCast v433
  ![v434.toNat]
def k0_off218 (i : grid0.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v433 : BitVec 32 := Scalar.addi v0 c40_i32
  let v3073 : Index := Scalar.indexCast v433
  ![v3073.toNat]
def k0_off219 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c40_i32 : BitVec 32 := 40#32
  let v433 : BitVec 32 := Scalar.addi v0 c40_i32
  let c0_i32_1287 : BitVec 32 := 0#32
  ![v433.toNat, v3074.toNat, 0]
def k0_cond73 (v435 : BitVec 32) : BitVec 1 :=
  let c0_i32_176 : BitVec 32 := 0#32
  let v436 : BitVec 1 := Scalar.cmpi .sgt v435 c0_i32_176
  let v437 : BitVec 32 := Scalar.extui v436
  let c0_i32_177 : BitVec 32 := 0#32
  let v438 : BitVec 1 := Scalar.cmpi .ne v437 c0_i32_177
  v438

def k0_chk73 (i : grid0.Coords) (v435 : BitVec 32) (v3074 : BitVec 32) : Prop :=
  (∀ (k0_h73 : k0_cond73 v435 = 1#1), ∀ a, (k0_off219 i v3074) a + S1x1x512.size a ≤ S1024x200x512.size a)
instance k0_chk73.dec : ∀ (i : grid0.Coords) (v435 : BitVec 32) (v3074 : BitVec 32), Decidable (k0_chk73 i v435 v3074) := fun i v435 v3074 => decidable_of_iff' _ (Iff.of_eq (k0_chk73.eq_1 i v435 v3074))
theorem k0_off219_inb : ∀ (i : grid0.Coords) (v435 : BitVec 32) (v3074 : BitVec 32) (k0_hw73 : k0_chk73 i v435 v3074), ∀ (k0_h73 : k0_cond73 v435 = 1#1), ∀ a, (k0_off219 i v3074) a + S1x1x512.size a ≤ S1024x200x512.size a := fun i v435 v3074 k0_hw73 k0_h73 => k0_hw73 k0_h73

def k0_off220 (i : grid0.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v439 : BitVec 32 := Scalar.addi v0 c41_i32
  let v440 : Index := Scalar.indexCast v439
  ![v440.toNat]
def k0_off221 (i : grid0.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v439 : BitVec 32 := Scalar.addi v0 c41_i32
  let v3073 : Index := Scalar.indexCast v439
  ![v3073.toNat]
def k0_off222 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c41_i32 : BitVec 32 := 41#32
  let v439 : BitVec 32 := Scalar.addi v0 c41_i32
  let c0_i32_1287 : BitVec 32 := 0#32
  ![v439.toNat, v3074.toNat, 0]
def k0_cond74 (v441 : BitVec 32) : BitVec 1 :=
  let c0_i32_178 : BitVec 32 := 0#32
  let v442 : BitVec 1 := Scalar.cmpi .sgt v441 c0_i32_178
  let v443 : BitVec 32 := Scalar.extui v442
  let c0_i32_179 : BitVec 32 := 0#32
  let v444 : BitVec 1 := Scalar.cmpi .ne v443 c0_i32_179
  v444

def k0_chk74 (i : grid0.Coords) (v441 : BitVec 32) (v3074 : BitVec 32) : Prop :=
  (∀ (k0_h74 : k0_cond74 v441 = 1#1), ∀ a, (k0_off222 i v3074) a + S1x1x512.size a ≤ S1024x200x512.size a)
instance k0_chk74.dec : ∀ (i : grid0.Coords) (v441 : BitVec 32) (v3074 : BitVec 32), Decidable (k0_chk74 i v441 v3074) := fun i v441 v3074 => decidable_of_iff' _ (Iff.of_eq (k0_chk74.eq_1 i v441 v3074))
theorem k0_off222_inb : ∀ (i : grid0.Coords) (v441 : BitVec 32) (v3074 : BitVec 32) (k0_hw74 : k0_chk74 i v441 v3074), ∀ (k0_h74 : k0_cond74 v441 = 1#1), ∀ a, (k0_off222 i v3074) a + S1x1x512.size a ≤ S1024x200x512.size a := fun i v441 v3074 k0_hw74 k0_h74 => k0_hw74 k0_h74

def k0_off223 (i : grid0.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v445 : BitVec 32 := Scalar.addi v0 c42_i32
  let v446 : Index := Scalar.indexCast v445
  ![v446.toNat]
def k0_off224 (i : grid0.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v445 : BitVec 32 := Scalar.addi v0 c42_i32
  let v3073 : Index := Scalar.indexCast v445
  ![v3073.toNat]
def k0_off225 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c42_i32 : BitVec 32 := 42#32
  let v445 : BitVec 32 := Scalar.addi v0 c42_i32
  let c0_i32_1287 : BitVec 32 := 0#32
  ![v445.toNat, v3074.toNat, 0]
def k0_cond75 (v447 : BitVec 32) : BitVec 1 :=
  let c0_i32_180 : BitVec 32 := 0#32
  let v448 : BitVec 1 := Scalar.cmpi .sgt v447 c0_i32_180
  let v449 : BitVec 32 := Scalar.extui v448
  let c0_i32_181 : BitVec 32 := 0#32
  let v450 : BitVec 1 := Scalar.cmpi .ne v449 c0_i32_181
  v450

def k0_chk75 (i : grid0.Coords) (v447 : BitVec 32) (v3074 : BitVec 32) : Prop :=
  (∀ (k0_h75 : k0_cond75 v447 = 1#1), ∀ a, (k0_off225 i v3074) a + S1x1x512.size a ≤ S1024x200x512.size a)
instance k0_chk75.dec : ∀ (i : grid0.Coords) (v447 : BitVec 32) (v3074 : BitVec 32), Decidable (k0_chk75 i v447 v3074) := fun i v447 v3074 => decidable_of_iff' _ (Iff.of_eq (k0_chk75.eq_1 i v447 v3074))
theorem k0_off225_inb : ∀ (i : grid0.Coords) (v447 : BitVec 32) (v3074 : BitVec 32) (k0_hw75 : k0_chk75 i v447 v3074), ∀ (k0_h75 : k0_cond75 v447 = 1#1), ∀ a, (k0_off225 i v3074) a + S1x1x512.size a ≤ S1024x200x512.size a := fun i v447 v3074 k0_hw75 k0_h75 => k0_hw75 k0_h75

def k0_off226 (i : grid0.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v451 : BitVec 32 := Scalar.addi v0 c43_i32
  let v452 : Index := Scalar.indexCast v451
  ![v452.toNat]
def k0_off227 (i : grid0.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v451 : BitVec 32 := Scalar.addi v0 c43_i32
  let v3073 : Index := Scalar.indexCast v451
  ![v3073.toNat]
def k0_off228 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c43_i32 : BitVec 32 := 43#32
  let v451 : BitVec 32 := Scalar.addi v0 c43_i32
  let c0_i32_1287 : BitVec 32 := 0#32
  ![v451.toNat, v3074.toNat, 0]
def k0_cond76 (v453 : BitVec 32) : BitVec 1 :=
  let c0_i32_182 : BitVec 32 := 0#32
  let v454 : BitVec 1 := Scalar.cmpi .sgt v453 c0_i32_182
  let v455 : BitVec 32 := Scalar.extui v454
  let c0_i32_183 : BitVec 32 := 0#32
  let v456 : BitVec 1 := Scalar.cmpi .ne v455 c0_i32_183
  v456

def k0_chk76 (i : grid0.Coords) (v453 : BitVec 32) (v3074 : BitVec 32) : Prop :=
  (∀ (k0_h76 : k0_cond76 v453 = 1#1), ∀ a, (k0_off228 i v3074) a + S1x1x512.size a ≤ S1024x200x512.size a)
instance k0_chk76.dec : ∀ (i : grid0.Coords) (v453 : BitVec 32) (v3074 : BitVec 32), Decidable (k0_chk76 i v453 v3074) := fun i v453 v3074 => decidable_of_iff' _ (Iff.of_eq (k0_chk76.eq_1 i v453 v3074))
theorem k0_off228_inb : ∀ (i : grid0.Coords) (v453 : BitVec 32) (v3074 : BitVec 32) (k0_hw76 : k0_chk76 i v453 v3074), ∀ (k0_h76 : k0_cond76 v453 = 1#1), ∀ a, (k0_off228 i v3074) a + S1x1x512.size a ≤ S1024x200x512.size a := fun i v453 v3074 k0_hw76 k0_h76 => k0_hw76 k0_h76

def k0_off229 (i : grid0.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v457 : BitVec 32 := Scalar.addi v0 c44_i32
  let v458 : Index := Scalar.indexCast v457
  ![v458.toNat]
def k0_off230 (i : grid0.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v457 : BitVec 32 := Scalar.addi v0 c44_i32
  let v3073 : Index := Scalar.indexCast v457
  ![v3073.toNat]
def k0_off231 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c44_i32 : BitVec 32 := 44#32
  let v457 : BitVec 32 := Scalar.addi v0 c44_i32
  let c0_i32_1287 : BitVec 32 := 0#32
  ![v457.toNat, v3074.toNat, 0]
def k0_cond77 (v459 : BitVec 32) : BitVec 1 :=
  let c0_i32_184 : BitVec 32 := 0#32
  let v460 : BitVec 1 := Scalar.cmpi .sgt v459 c0_i32_184
  let v461 : BitVec 32 := Scalar.extui v460
  let c0_i32_185 : BitVec 32 := 0#32
  let v462 : BitVec 1 := Scalar.cmpi .ne v461 c0_i32_185
  v462

def k0_chk77 (i : grid0.Coords) (v459 : BitVec 32) (v3074 : BitVec 32) : Prop :=
  (∀ (k0_h77 : k0_cond77 v459 = 1#1), ∀ a, (k0_off231 i v3074) a + S1x1x512.size a ≤ S1024x200x512.size a)
instance k0_chk77.dec : ∀ (i : grid0.Coords) (v459 : BitVec 32) (v3074 : BitVec 32), Decidable (k0_chk77 i v459 v3074) := fun i v459 v3074 => decidable_of_iff' _ (Iff.of_eq (k0_chk77.eq_1 i v459 v3074))
theorem k0_off231_inb : ∀ (i : grid0.Coords) (v459 : BitVec 32) (v3074 : BitVec 32) (k0_hw77 : k0_chk77 i v459 v3074), ∀ (k0_h77 : k0_cond77 v459 = 1#1), ∀ a, (k0_off231 i v3074) a + S1x1x512.size a ≤ S1024x200x512.size a := fun i v459 v3074 k0_hw77 k0_h77 => k0_hw77 k0_h77

def k0_off232 (i : grid0.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v463 : BitVec 32 := Scalar.addi v0 c45_i32
  let v464 : Index := Scalar.indexCast v463
  ![v464.toNat]
def k0_off233 (i : grid0.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v463 : BitVec 32 := Scalar.addi v0 c45_i32
  let v3073 : Index := Scalar.indexCast v463
  ![v3073.toNat]
def k0_off234 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c45_i32 : BitVec 32 := 45#32
  let v463 : BitVec 32 := Scalar.addi v0 c45_i32
  let c0_i32_1287 : BitVec 32 := 0#32
  ![v463.toNat, v3074.toNat, 0]
def k0_cond78 (v465 : BitVec 32) : BitVec 1 :=
  let c0_i32_186 : BitVec 32 := 0#32
  let v466 : BitVec 1 := Scalar.cmpi .sgt v465 c0_i32_186
  let v467 : BitVec 32 := Scalar.extui v466
  let c0_i32_187 : BitVec 32 := 0#32
  let v468 : BitVec 1 := Scalar.cmpi .ne v467 c0_i32_187
  v468

def k0_chk78 (i : grid0.Coords) (v465 : BitVec 32) (v3074 : BitVec 32) : Prop :=
  (∀ (k0_h78 : k0_cond78 v465 = 1#1), ∀ a, (k0_off234 i v3074) a + S1x1x512.size a ≤ S1024x200x512.size a)
instance k0_chk78.dec : ∀ (i : grid0.Coords) (v465 : BitVec 32) (v3074 : BitVec 32), Decidable (k0_chk78 i v465 v3074) := fun i v465 v3074 => decidable_of_iff' _ (Iff.of_eq (k0_chk78.eq_1 i v465 v3074))
theorem k0_off234_inb : ∀ (i : grid0.Coords) (v465 : BitVec 32) (v3074 : BitVec 32) (k0_hw78 : k0_chk78 i v465 v3074), ∀ (k0_h78 : k0_cond78 v465 = 1#1), ∀ a, (k0_off234 i v3074) a + S1x1x512.size a ≤ S1024x200x512.size a := fun i v465 v3074 k0_hw78 k0_h78 => k0_hw78 k0_h78

def k0_off235 (i : grid0.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v469 : BitVec 32 := Scalar.addi v0 c46_i32
  let v470 : Index := Scalar.indexCast v469
  ![v470.toNat]
def k0_off236 (i : grid0.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v469 : BitVec 32 := Scalar.addi v0 c46_i32
  let v3073 : Index := Scalar.indexCast v469
  ![v3073.toNat]
def k0_off237 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c46_i32 : BitVec 32 := 46#32
  let v469 : BitVec 32 := Scalar.addi v0 c46_i32
  let c0_i32_1287 : BitVec 32 := 0#32
  ![v469.toNat, v3074.toNat, 0]
def k0_cond79 (v471 : BitVec 32) : BitVec 1 :=
  let c0_i32_188 : BitVec 32 := 0#32
  let v472 : BitVec 1 := Scalar.cmpi .sgt v471 c0_i32_188
  let v473 : BitVec 32 := Scalar.extui v472
  let c0_i32_189 : BitVec 32 := 0#32
  let v474 : BitVec 1 := Scalar.cmpi .ne v473 c0_i32_189
  v474

def k0_chk79 (i : grid0.Coords) (v471 : BitVec 32) (v3074 : BitVec 32) : Prop :=
  (∀ (k0_h79 : k0_cond79 v471 = 1#1), ∀ a, (k0_off237 i v3074) a + S1x1x512.size a ≤ S1024x200x512.size a)
instance k0_chk79.dec : ∀ (i : grid0.Coords) (v471 : BitVec 32) (v3074 : BitVec 32), Decidable (k0_chk79 i v471 v3074) := fun i v471 v3074 => decidable_of_iff' _ (Iff.of_eq (k0_chk79.eq_1 i v471 v3074))
theorem k0_off237_inb : ∀ (i : grid0.Coords) (v471 : BitVec 32) (v3074 : BitVec 32) (k0_hw79 : k0_chk79 i v471 v3074), ∀ (k0_h79 : k0_cond79 v471 = 1#1), ∀ a, (k0_off237 i v3074) a + S1x1x512.size a ≤ S1024x200x512.size a := fun i v471 v3074 k0_hw79 k0_h79 => k0_hw79 k0_h79

def k0_off238 (i : grid0.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v475 : BitVec 32 := Scalar.addi v0 c47_i32
  let v476 : Index := Scalar.indexCast v475
  ![v476.toNat]
def k0_off239 (i : grid0.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v475 : BitVec 32 := Scalar.addi v0 c47_i32
  let v3073 : Index := Scalar.indexCast v475
  ![v3073.toNat]
def k0_off240 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c47_i32 : BitVec 32 := 47#32
  let v475 : BitVec 32 := Scalar.addi v0 c47_i32
  let c0_i32_1287 : BitVec 32 := 0#32
  ![v475.toNat, v3074.toNat, 0]
def k0_cond80 (v477 : BitVec 32) : BitVec 1 :=
  let c0_i32_190 : BitVec 32 := 0#32
  let v478 : BitVec 1 := Scalar.cmpi .sgt v477 c0_i32_190
  let v479 : BitVec 32 := Scalar.extui v478
  let c0_i32_191 : BitVec 32 := 0#32
  let v480 : BitVec 1 := Scalar.cmpi .ne v479 c0_i32_191
  v480

def k0_chk80 (i : grid0.Coords) (v477 : BitVec 32) (v3074 : BitVec 32) : Prop :=
  (∀ (k0_h80 : k0_cond80 v477 = 1#1), ∀ a, (k0_off240 i v3074) a + S1x1x512.size a ≤ S1024x200x512.size a)
instance k0_chk80.dec : ∀ (i : grid0.Coords) (v477 : BitVec 32) (v3074 : BitVec 32), Decidable (k0_chk80 i v477 v3074) := fun i v477 v3074 => decidable_of_iff' _ (Iff.of_eq (k0_chk80.eq_1 i v477 v3074))
theorem k0_off240_inb : ∀ (i : grid0.Coords) (v477 : BitVec 32) (v3074 : BitVec 32) (k0_hw80 : k0_chk80 i v477 v3074), ∀ (k0_h80 : k0_cond80 v477 = 1#1), ∀ a, (k0_off240 i v3074) a + S1x1x512.size a ≤ S1024x200x512.size a := fun i v477 v3074 k0_hw80 k0_h80 => k0_hw80 k0_h80

def k0_off241 (i : grid0.Coords) : Fin 1 → Nat :=
  let arg0 : BitVec 32 := BitVec.ofNat 32 (i 0).val
  let c256_i32 : BitVec 32 := 256#32
  let v0 : BitVec 32 := Scalar.muli arg0 c256_i32
  let c32_i32_192 : BitVec 32 := 32#32
  let v481 : BitVec 32 := Scalar.addi v0 c32_i32_192
  let v482 : Index := Scalar.indexCast v481
  ![v482.toNat]
def k0_off242 (i : grid0.Coords) : Fin 1 → Nat :=
  let arg0 : BitVec 32 := BitVec.ofNat 32 (i 0).val
  let c256_i32 : BitVec 32 := 256#32
  let v0 : BitVec 32 := Scalar.muli arg0 c256_i32
  let c32_i32_192 : BitVec 32 := 32#32
  let v481 : BitVec 32 := Scalar.addi v0 c32_i32_192
  let v3073 : Index := Scalar.indexCast v481
  ![v3073.toNat]
def k0_off243 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c32_i32_192 : BitVec 32 := 32#32
  let v481 : BitVec 32 := Scalar.addi v0 c32_i32_192
  let c0_i32_1282 : BitVec 32 := 0#32
  ![v481.toNat, v3074.toNat, 0]
def k0_cond81 (v483 : BitVec 32) : BitVec 1 :=
  let c0_i32_193 : BitVec 32 := 0#32
  let v484 : BitVec 1 := Scalar.cmpi .sgt v483 c0_i32_193
  let v485 : BitVec 32 := Scalar.extui v484
  let c0_i32_194 : BitVec 32 := 0#32
  let v486 : BitVec 1 := Scalar.cmpi .ne v485 c0_i32_194
  v486

def k0_chk81 (i : grid0.Coords) (v483 : BitVec 32) (v3074 : BitVec 32) : Prop :=
  (∀ (k0_h81 : k0_cond81 v483 = 1#1), ∀ a, (k0_off243 i v3074) a + S1x1x512.size a ≤ S1024x200x512.size a)
instance k0_chk81.dec : ∀ (i : grid0.Coords) (v483 : BitVec 32) (v3074 : BitVec 32), Decidable (k0_chk81 i v483 v3074) := fun i v483 v3074 => decidable_of_iff' _ (Iff.of_eq (k0_chk81.eq_1 i v483 v3074))
theorem k0_off243_inb : ∀ (i : grid0.Coords) (v483 : BitVec 32) (v3074 : BitVec 32) (k0_hw81 : k0_chk81 i v483 v3074), ∀ (k0_h81 : k0_cond81 v483 = 1#1), ∀ a, (k0_off243 i v3074) a + S1x1x512.size a ≤ S1024x200x512.size a := fun i v483 v3074 k0_hw81 k0_h81 => k0_hw81 k0_h81

def k0_off244 (i : grid0.Coords) : Fin 1 → Nat :=
  let arg0 : BitVec 32 := BitVec.ofNat 32 (i 0).val
  let c256_i32 : BitVec 32 := 256#32
  let v0 : BitVec 32 := Scalar.muli arg0 c256_i32
  let c33_i32_195 : BitVec 32 := 33#32
  let v487 : BitVec 32 := Scalar.addi v0 c33_i32_195
  let v488 : Index := Scalar.indexCast v487
  ![v488.toNat]
def k0_off245 (i : grid0.Coords) : Fin 1 → Nat :=
  let arg0 : BitVec 32 := BitVec.ofNat 32 (i 0).val
  let c256_i32 : BitVec 32 := 256#32
  let v0 : BitVec 32 := Scalar.muli arg0 c256_i32
  let c33_i32_195 : BitVec 32 := 33#32
  let v487 : BitVec 32 := Scalar.addi v0 c33_i32_195
  let v3073 : Index := Scalar.indexCast v487
  ![v3073.toNat]
def k0_off246 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c33_i32_195 : BitVec 32 := 33#32
  let v487 : BitVec 32 := Scalar.addi v0 c33_i32_195
  let c0_i32_1282 : BitVec 32 := 0#32
  ![v487.toNat, v3074.toNat, 0]
def k0_cond82 (v489 : BitVec 32) : BitVec 1 :=
  let c0_i32_196 : BitVec 32 := 0#32
  let v490 : BitVec 1 := Scalar.cmpi .sgt v489 c0_i32_196
  let v491 : BitVec 32 := Scalar.extui v490
  let c0_i32_197 : BitVec 32 := 0#32
  let v492 : BitVec 1 := Scalar.cmpi .ne v491 c0_i32_197
  v492

def k0_chk82 (i : grid0.Coords) (v489 : BitVec 32) (v3074 : BitVec 32) : Prop :=
  (∀ (k0_h82 : k0_cond82 v489 = 1#1), ∀ a, (k0_off246 i v3074) a + S1x1x512.size a ≤ S1024x200x512.size a)
instance k0_chk82.dec : ∀ (i : grid0.Coords) (v489 : BitVec 32) (v3074 : BitVec 32), Decidable (k0_chk82 i v489 v3074) := fun i v489 v3074 => decidable_of_iff' _ (Iff.of_eq (k0_chk82.eq_1 i v489 v3074))
theorem k0_off246_inb : ∀ (i : grid0.Coords) (v489 : BitVec 32) (v3074 : BitVec 32) (k0_hw82 : k0_chk82 i v489 v3074), ∀ (k0_h82 : k0_cond82 v489 = 1#1), ∀ a, (k0_off246 i v3074) a + S1x1x512.size a ≤ S1024x200x512.size a := fun i v489 v3074 k0_hw82 k0_h82 => k0_hw82 k0_h82

def k0_off247 (i : grid0.Coords) : Fin 1 → Nat :=
  let arg0 : BitVec 32 := BitVec.ofNat 32 (i 0).val
  let c256_i32 : BitVec 32 := 256#32
  let v0 : BitVec 32 := Scalar.muli arg0 c256_i32
  let c34_i32_198 : BitVec 32 := 34#32
  let v493 : BitVec 32 := Scalar.addi v0 c34_i32_198
  let v494 : Index := Scalar.indexCast v493
  ![v494.toNat]
def k0_off248 (i : grid0.Coords) : Fin 1 → Nat :=
  let arg0 : BitVec 32 := BitVec.ofNat 32 (i 0).val
  let c256_i32 : BitVec 32 := 256#32
  let v0 : BitVec 32 := Scalar.muli arg0 c256_i32
  let c34_i32_198 : BitVec 32 := 34#32
  let v493 : BitVec 32 := Scalar.addi v0 c34_i32_198
  let v3073 : Index := Scalar.indexCast v493
  ![v3073.toNat]
def k0_off249 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c34_i32_198 : BitVec 32 := 34#32
  let v493 : BitVec 32 := Scalar.addi v0 c34_i32_198
  let c0_i32_1282 : BitVec 32 := 0#32
  ![v493.toNat, v3074.toNat, 0]
def k0_cond83 (v495 : BitVec 32) : BitVec 1 :=
  let c0_i32_199 : BitVec 32 := 0#32
  let v496 : BitVec 1 := Scalar.cmpi .sgt v495 c0_i32_199
  let v497 : BitVec 32 := Scalar.extui v496
  let c0_i32_200 : BitVec 32 := 0#32
  let v498 : BitVec 1 := Scalar.cmpi .ne v497 c0_i32_200
  v498

def k0_chk83 (i : grid0.Coords) (v495 : BitVec 32) (v3074 : BitVec 32) : Prop :=
  (∀ (k0_h83 : k0_cond83 v495 = 1#1), ∀ a, (k0_off249 i v3074) a + S1x1x512.size a ≤ S1024x200x512.size a)
instance k0_chk83.dec : ∀ (i : grid0.Coords) (v495 : BitVec 32) (v3074 : BitVec 32), Decidable (k0_chk83 i v495 v3074) := fun i v495 v3074 => decidable_of_iff' _ (Iff.of_eq (k0_chk83.eq_1 i v495 v3074))
theorem k0_off249_inb : ∀ (i : grid0.Coords) (v495 : BitVec 32) (v3074 : BitVec 32) (k0_hw83 : k0_chk83 i v495 v3074), ∀ (k0_h83 : k0_cond83 v495 = 1#1), ∀ a, (k0_off249 i v3074) a + S1x1x512.size a ≤ S1024x200x512.size a := fun i v495 v3074 k0_hw83 k0_h83 => k0_hw83 k0_h83

def k0_off250 (i : grid0.Coords) : Fin 1 → Nat :=
  let arg0 : BitVec 32 := BitVec.ofNat 32 (i 0).val
  let c256_i32 : BitVec 32 := 256#32
  let v0 : BitVec 32 := Scalar.muli arg0 c256_i32
  let c35_i32_201 : BitVec 32 := 35#32
  let v499 : BitVec 32 := Scalar.addi v0 c35_i32_201
  let v500 : Index := Scalar.indexCast v499
  ![v500.toNat]
def k0_off251 (i : grid0.Coords) : Fin 1 → Nat :=
  let arg0 : BitVec 32 := BitVec.ofNat 32 (i 0).val
  let c256_i32 : BitVec 32 := 256#32
  let v0 : BitVec 32 := Scalar.muli arg0 c256_i32
  let c35_i32_201 : BitVec 32 := 35#32
  let v499 : BitVec 32 := Scalar.addi v0 c35_i32_201
  let v3073 : Index := Scalar.indexCast v499
  ![v3073.toNat]
def k0_off252 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c35_i32_201 : BitVec 32 := 35#32
  let v499 : BitVec 32 := Scalar.addi v0 c35_i32_201
  let c0_i32_1282 : BitVec 32 := 0#32
  ![v499.toNat, v3074.toNat, 0]
def k0_cond84 (v501 : BitVec 32) : BitVec 1 :=
  let c0_i32_202 : BitVec 32 := 0#32
  let v502 : BitVec 1 := Scalar.cmpi .sgt v501 c0_i32_202
  let v503 : BitVec 32 := Scalar.extui v502
  let c0_i32_203 : BitVec 32 := 0#32
  let v504 : BitVec 1 := Scalar.cmpi .ne v503 c0_i32_203
  v504

def k0_chk84 (i : grid0.Coords) (v501 : BitVec 32) (v3074 : BitVec 32) : Prop :=
  (∀ (k0_h84 : k0_cond84 v501 = 1#1), ∀ a, (k0_off252 i v3074) a + S1x1x512.size a ≤ S1024x200x512.size a)
instance k0_chk84.dec : ∀ (i : grid0.Coords) (v501 : BitVec 32) (v3074 : BitVec 32), Decidable (k0_chk84 i v501 v3074) := fun i v501 v3074 => decidable_of_iff' _ (Iff.of_eq (k0_chk84.eq_1 i v501 v3074))
theorem k0_off252_inb : ∀ (i : grid0.Coords) (v501 : BitVec 32) (v3074 : BitVec 32) (k0_hw84 : k0_chk84 i v501 v3074), ∀ (k0_h84 : k0_cond84 v501 = 1#1), ∀ a, (k0_off252 i v3074) a + S1x1x512.size a ≤ S1024x200x512.size a := fun i v501 v3074 k0_hw84 k0_h84 => k0_hw84 k0_h84

def k0_off253 (i : grid0.Coords) : Fin 1 → Nat :=
  let arg0 : BitVec 32 := BitVec.ofNat 32 (i 0).val
  let c256_i32 : BitVec 32 := 256#32
  let v0 : BitVec 32 := Scalar.muli arg0 c256_i32
  let c36_i32_204 : BitVec 32 := 36#32
  let v505 : BitVec 32 := Scalar.addi v0 c36_i32_204
  let v506 : Index := Scalar.indexCast v505
  ![v506.toNat]
def k0_off254 (i : grid0.Coords) : Fin 1 → Nat :=
  let arg0 : BitVec 32 := BitVec.ofNat 32 (i 0).val
  let c256_i32 : BitVec 32 := 256#32
  let v0 : BitVec 32 := Scalar.muli arg0 c256_i32
  let c36_i32_204 : BitVec 32 := 36#32
  let v505 : BitVec 32 := Scalar.addi v0 c36_i32_204
  let v3073 : Index := Scalar.indexCast v505
  ![v3073.toNat]
def k0_off255 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c36_i32_204 : BitVec 32 := 36#32
  let v505 : BitVec 32 := Scalar.addi v0 c36_i32_204
  let c0_i32_1282 : BitVec 32 := 0#32
  ![v505.toNat, v3074.toNat, 0]
def k0_cond85 (v507 : BitVec 32) : BitVec 1 :=
  let c0_i32_205 : BitVec 32 := 0#32
  let v508 : BitVec 1 := Scalar.cmpi .sgt v507 c0_i32_205
  let v509 : BitVec 32 := Scalar.extui v508
  let c0_i32_206 : BitVec 32 := 0#32
  let v510 : BitVec 1 := Scalar.cmpi .ne v509 c0_i32_206
  v510

def k0_chk85 (i : grid0.Coords) (v507 : BitVec 32) (v3074 : BitVec 32) : Prop :=
  (∀ (k0_h85 : k0_cond85 v507 = 1#1), ∀ a, (k0_off255 i v3074) a + S1x1x512.size a ≤ S1024x200x512.size a)
instance k0_chk85.dec : ∀ (i : grid0.Coords) (v507 : BitVec 32) (v3074 : BitVec 32), Decidable (k0_chk85 i v507 v3074) := fun i v507 v3074 => decidable_of_iff' _ (Iff.of_eq (k0_chk85.eq_1 i v507 v3074))
theorem k0_off255_inb : ∀ (i : grid0.Coords) (v507 : BitVec 32) (v3074 : BitVec 32) (k0_hw85 : k0_chk85 i v507 v3074), ∀ (k0_h85 : k0_cond85 v507 = 1#1), ∀ a, (k0_off255 i v3074) a + S1x1x512.size a ≤ S1024x200x512.size a := fun i v507 v3074 k0_hw85 k0_h85 => k0_hw85 k0_h85

def k0_off256 (i : grid0.Coords) : Fin 1 → Nat :=
  let arg0 : BitVec 32 := BitVec.ofNat 32 (i 0).val
  let c256_i32 : BitVec 32 := 256#32
  let v0 : BitVec 32 := Scalar.muli arg0 c256_i32
  let c37_i32_207 : BitVec 32 := 37#32
  let v511 : BitVec 32 := Scalar.addi v0 c37_i32_207
  let v512 : Index := Scalar.indexCast v511
  ![v512.toNat]
def k0_off257 (i : grid0.Coords) : Fin 1 → Nat :=
  let arg0 : BitVec 32 := BitVec.ofNat 32 (i 0).val
  let c256_i32 : BitVec 32 := 256#32
  let v0 : BitVec 32 := Scalar.muli arg0 c256_i32
  let c37_i32_207 : BitVec 32 := 37#32
  let v511 : BitVec 32 := Scalar.addi v0 c37_i32_207
  let v3073 : Index := Scalar.indexCast v511
  ![v3073.toNat]
def k0_off258 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c37_i32_207 : BitVec 32 := 37#32
  let v511 : BitVec 32 := Scalar.addi v0 c37_i32_207
  let c0_i32_1282 : BitVec 32 := 0#32
  ![v511.toNat, v3074.toNat, 0]
def k0_cond86 (v513 : BitVec 32) : BitVec 1 :=
  let c0_i32_208 : BitVec 32 := 0#32
  let v514 : BitVec 1 := Scalar.cmpi .sgt v513 c0_i32_208
  let v515 : BitVec 32 := Scalar.extui v514
  let c0_i32_209 : BitVec 32 := 0#32
  let v516 : BitVec 1 := Scalar.cmpi .ne v515 c0_i32_209
  v516

def k0_chk86 (i : grid0.Coords) (v513 : BitVec 32) (v3074 : BitVec 32) : Prop :=
  (∀ (k0_h86 : k0_cond86 v513 = 1#1), ∀ a, (k0_off258 i v3074) a + S1x1x512.size a ≤ S1024x200x512.size a)
instance k0_chk86.dec : ∀ (i : grid0.Coords) (v513 : BitVec 32) (v3074 : BitVec 32), Decidable (k0_chk86 i v513 v3074) := fun i v513 v3074 => decidable_of_iff' _ (Iff.of_eq (k0_chk86.eq_1 i v513 v3074))
theorem k0_off258_inb : ∀ (i : grid0.Coords) (v513 : BitVec 32) (v3074 : BitVec 32) (k0_hw86 : k0_chk86 i v513 v3074), ∀ (k0_h86 : k0_cond86 v513 = 1#1), ∀ a, (k0_off258 i v3074) a + S1x1x512.size a ≤ S1024x200x512.size a := fun i v513 v3074 k0_hw86 k0_h86 => k0_hw86 k0_h86

def k0_off259 (i : grid0.Coords) : Fin 1 → Nat :=
  let arg0 : BitVec 32 := BitVec.ofNat 32 (i 0).val
  let c256_i32 : BitVec 32 := 256#32
  let v0 : BitVec 32 := Scalar.muli arg0 c256_i32
  let c38_i32_210 : BitVec 32 := 38#32
  let v517 : BitVec 32 := Scalar.addi v0 c38_i32_210
  let v518 : Index := Scalar.indexCast v517
  ![v518.toNat]
def k0_off260 (i : grid0.Coords) : Fin 1 → Nat :=
  let arg0 : BitVec 32 := BitVec.ofNat 32 (i 0).val
  let c256_i32 : BitVec 32 := 256#32
  let v0 : BitVec 32 := Scalar.muli arg0 c256_i32
  let c38_i32_210 : BitVec 32 := 38#32
  let v517 : BitVec 32 := Scalar.addi v0 c38_i32_210
  let v3073 : Index := Scalar.indexCast v517
  ![v3073.toNat]
def k0_off261 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c38_i32_210 : BitVec 32 := 38#32
  let v517 : BitVec 32 := Scalar.addi v0 c38_i32_210
  let c0_i32_1282 : BitVec 32 := 0#32
  ![v517.toNat, v3074.toNat, 0]
def k0_cond87 (v519 : BitVec 32) : BitVec 1 :=
  let c0_i32_211 : BitVec 32 := 0#32
  let v520 : BitVec 1 := Scalar.cmpi .sgt v519 c0_i32_211
  let v521 : BitVec 32 := Scalar.extui v520
  let c0_i32_212 : BitVec 32 := 0#32
  let v522 : BitVec 1 := Scalar.cmpi .ne v521 c0_i32_212
  v522

def k0_chk87 (i : grid0.Coords) (v519 : BitVec 32) (v3074 : BitVec 32) : Prop :=
  (∀ (k0_h87 : k0_cond87 v519 = 1#1), ∀ a, (k0_off261 i v3074) a + S1x1x512.size a ≤ S1024x200x512.size a)
instance k0_chk87.dec : ∀ (i : grid0.Coords) (v519 : BitVec 32) (v3074 : BitVec 32), Decidable (k0_chk87 i v519 v3074) := fun i v519 v3074 => decidable_of_iff' _ (Iff.of_eq (k0_chk87.eq_1 i v519 v3074))
theorem k0_off261_inb : ∀ (i : grid0.Coords) (v519 : BitVec 32) (v3074 : BitVec 32) (k0_hw87 : k0_chk87 i v519 v3074), ∀ (k0_h87 : k0_cond87 v519 = 1#1), ∀ a, (k0_off261 i v3074) a + S1x1x512.size a ≤ S1024x200x512.size a := fun i v519 v3074 k0_hw87 k0_h87 => k0_hw87 k0_h87

def k0_off262 (i : grid0.Coords) : Fin 1 → Nat :=
  let arg0 : BitVec 32 := BitVec.ofNat 32 (i 0).val
  let c256_i32 : BitVec 32 := 256#32
  let v0 : BitVec 32 := Scalar.muli arg0 c256_i32
  let c39_i32_213 : BitVec 32 := 39#32
  let v523 : BitVec 32 := Scalar.addi v0 c39_i32_213
  let v524 : Index := Scalar.indexCast v523
  ![v524.toNat]
def k0_off263 (i : grid0.Coords) : Fin 1 → Nat :=
  let arg0 : BitVec 32 := BitVec.ofNat 32 (i 0).val
  let c256_i32 : BitVec 32 := 256#32
  let v0 : BitVec 32 := Scalar.muli arg0 c256_i32
  let c39_i32_213 : BitVec 32 := 39#32
  let v523 : BitVec 32 := Scalar.addi v0 c39_i32_213
  let v3073 : Index := Scalar.indexCast v523
  ![v3073.toNat]
def k0_off264 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c39_i32_213 : BitVec 32 := 39#32
  let v523 : BitVec 32 := Scalar.addi v0 c39_i32_213
  let c0_i32_1282 : BitVec 32 := 0#32
  ![v523.toNat, v3074.toNat, 0]
def k0_cond88 (v525 : BitVec 32) : BitVec 1 :=
  let c0_i32_214 : BitVec 32 := 0#32
  let v526 : BitVec 1 := Scalar.cmpi .sgt v525 c0_i32_214
  let v527 : BitVec 32 := Scalar.extui v526
  let c0_i32_215 : BitVec 32 := 0#32
  let v528 : BitVec 1 := Scalar.cmpi .ne v527 c0_i32_215
  v528

def k0_chk88 (i : grid0.Coords) (v525 : BitVec 32) (v3074 : BitVec 32) : Prop :=
  (∀ (k0_h88 : k0_cond88 v525 = 1#1), ∀ a, (k0_off264 i v3074) a + S1x1x512.size a ≤ S1024x200x512.size a)
instance k0_chk88.dec : ∀ (i : grid0.Coords) (v525 : BitVec 32) (v3074 : BitVec 32), Decidable (k0_chk88 i v525 v3074) := fun i v525 v3074 => decidable_of_iff' _ (Iff.of_eq (k0_chk88.eq_1 i v525 v3074))
theorem k0_off264_inb : ∀ (i : grid0.Coords) (v525 : BitVec 32) (v3074 : BitVec 32) (k0_hw88 : k0_chk88 i v525 v3074), ∀ (k0_h88 : k0_cond88 v525 = 1#1), ∀ a, (k0_off264 i v3074) a + S1x1x512.size a ≤ S1024x200x512.size a := fun i v525 v3074 k0_hw88 k0_h88 => k0_hw88 k0_h88

def k0_off265 (i : grid0.Coords) : Fin 1 → Nat :=
  let arg0 : BitVec 32 := BitVec.ofNat 32 (i 0).val
  let c256_i32 : BitVec 32 := 256#32
  let v0 : BitVec 32 := Scalar.muli arg0 c256_i32
  let c40_i32_216 : BitVec 32 := 40#32
  let v529 : BitVec 32 := Scalar.addi v0 c40_i32_216
  let v530 : Index := Scalar.indexCast v529
  ![v530.toNat]
def k0_off266 (i : grid0.Coords) : Fin 1 → Nat :=
  let arg0 : BitVec 32 := BitVec.ofNat 32 (i 0).val
  let c256_i32 : BitVec 32 := 256#32
  let v0 : BitVec 32 := Scalar.muli arg0 c256_i32
  let c40_i32_216 : BitVec 32 := 40#32
  let v529 : BitVec 32 := Scalar.addi v0 c40_i32_216
  let v3073 : Index := Scalar.indexCast v529
  ![v3073.toNat]
def k0_off267 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c40_i32_216 : BitVec 32 := 40#32
  let v529 : BitVec 32 := Scalar.addi v0 c40_i32_216
  let c0_i32_1282 : BitVec 32 := 0#32
  ![v529.toNat, v3074.toNat, 0]
def k0_cond89 (v531 : BitVec 32) : BitVec 1 :=
  let c0_i32_217 : BitVec 32 := 0#32
  let v532 : BitVec 1 := Scalar.cmpi .sgt v531 c0_i32_217
  let v533 : BitVec 32 := Scalar.extui v532
  let c0_i32_218 : BitVec 32 := 0#32
  let v534 : BitVec 1 := Scalar.cmpi .ne v533 c0_i32_218
  v534

def k0_chk89 (i : grid0.Coords) (v531 : BitVec 32) (v3074 : BitVec 32) : Prop :=
  (∀ (k0_h89 : k0_cond89 v531 = 1#1), ∀ a, (k0_off267 i v3074) a + S1x1x512.size a ≤ S1024x200x512.size a)
instance k0_chk89.dec : ∀ (i : grid0.Coords) (v531 : BitVec 32) (v3074 : BitVec 32), Decidable (k0_chk89 i v531 v3074) := fun i v531 v3074 => decidable_of_iff' _ (Iff.of_eq (k0_chk89.eq_1 i v531 v3074))
theorem k0_off267_inb : ∀ (i : grid0.Coords) (v531 : BitVec 32) (v3074 : BitVec 32) (k0_hw89 : k0_chk89 i v531 v3074), ∀ (k0_h89 : k0_cond89 v531 = 1#1), ∀ a, (k0_off267 i v3074) a + S1x1x512.size a ≤ S1024x200x512.size a := fun i v531 v3074 k0_hw89 k0_h89 => k0_hw89 k0_h89

def k0_off268 (i : grid0.Coords) : Fin 1 → Nat :=
  let arg0 : BitVec 32 := BitVec.ofNat 32 (i 0).val
  let c256_i32 : BitVec 32 := 256#32
  let v0 : BitVec 32 := Scalar.muli arg0 c256_i32
  let c41_i32_219 : BitVec 32 := 41#32
  let v535 : BitVec 32 := Scalar.addi v0 c41_i32_219
  let v536 : Index := Scalar.indexCast v535
  ![v536.toNat]
def k0_off269 (i : grid0.Coords) : Fin 1 → Nat :=
  let arg0 : BitVec 32 := BitVec.ofNat 32 (i 0).val
  let c256_i32 : BitVec 32 := 256#32
  let v0 : BitVec 32 := Scalar.muli arg0 c256_i32
  let c41_i32_219 : BitVec 32 := 41#32
  let v535 : BitVec 32 := Scalar.addi v0 c41_i32_219
  let v3073 : Index := Scalar.indexCast v535
  ![v3073.toNat]
def k0_off270 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c41_i32_219 : BitVec 32 := 41#32
  let v535 : BitVec 32 := Scalar.addi v0 c41_i32_219
  let c0_i32_1282 : BitVec 32 := 0#32
  ![v535.toNat, v3074.toNat, 0]
def k0_cond90 (v537 : BitVec 32) : BitVec 1 :=
  let c0_i32_220 : BitVec 32 := 0#32
  let v538 : BitVec 1 := Scalar.cmpi .sgt v537 c0_i32_220
  let v539 : BitVec 32 := Scalar.extui v538
  let c0_i32_221 : BitVec 32 := 0#32
  let v540 : BitVec 1 := Scalar.cmpi .ne v539 c0_i32_221
  v540

def k0_chk90 (i : grid0.Coords) (v537 : BitVec 32) (v3074 : BitVec 32) : Prop :=
  (∀ (k0_h90 : k0_cond90 v537 = 1#1), ∀ a, (k0_off270 i v3074) a + S1x1x512.size a ≤ S1024x200x512.size a)
instance k0_chk90.dec : ∀ (i : grid0.Coords) (v537 : BitVec 32) (v3074 : BitVec 32), Decidable (k0_chk90 i v537 v3074) := fun i v537 v3074 => decidable_of_iff' _ (Iff.of_eq (k0_chk90.eq_1 i v537 v3074))
theorem k0_off270_inb : ∀ (i : grid0.Coords) (v537 : BitVec 32) (v3074 : BitVec 32) (k0_hw90 : k0_chk90 i v537 v3074), ∀ (k0_h90 : k0_cond90 v537 = 1#1), ∀ a, (k0_off270 i v3074) a + S1x1x512.size a ≤ S1024x200x512.size a := fun i v537 v3074 k0_hw90 k0_h90 => k0_hw90 k0_h90

def k0_off271 (i : grid0.Coords) : Fin 1 → Nat :=
  let arg0 : BitVec 32 := BitVec.ofNat 32 (i 0).val
  let c256_i32 : BitVec 32 := 256#32
  let v0 : BitVec 32 := Scalar.muli arg0 c256_i32
  let c42_i32_222 : BitVec 32 := 42#32
  let v541 : BitVec 32 := Scalar.addi v0 c42_i32_222
  let v542 : Index := Scalar.indexCast v541
  ![v542.toNat]
def k0_off272 (i : grid0.Coords) : Fin 1 → Nat :=
  let arg0 : BitVec 32 := BitVec.ofNat 32 (i 0).val
  let c256_i32 : BitVec 32 := 256#32
  let v0 : BitVec 32 := Scalar.muli arg0 c256_i32
  let c42_i32_222 : BitVec 32 := 42#32
  let v541 : BitVec 32 := Scalar.addi v0 c42_i32_222
  let v3073 : Index := Scalar.indexCast v541
  ![v3073.toNat]
def k0_off273 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c42_i32_222 : BitVec 32 := 42#32
  let v541 : BitVec 32 := Scalar.addi v0 c42_i32_222
  let c0_i32_1282 : BitVec 32 := 0#32
  ![v541.toNat, v3074.toNat, 0]
def k0_cond91 (v543 : BitVec 32) : BitVec 1 :=
  let c0_i32_223 : BitVec 32 := 0#32
  let v544 : BitVec 1 := Scalar.cmpi .sgt v543 c0_i32_223
  let v545 : BitVec 32 := Scalar.extui v544
  let c0_i32_224 : BitVec 32 := 0#32
  let v546 : BitVec 1 := Scalar.cmpi .ne v545 c0_i32_224
  v546

def k0_chk91 (i : grid0.Coords) (v543 : BitVec 32) (v3074 : BitVec 32) : Prop :=
  (∀ (k0_h91 : k0_cond91 v543 = 1#1), ∀ a, (k0_off273 i v3074) a + S1x1x512.size a ≤ S1024x200x512.size a)
instance k0_chk91.dec : ∀ (i : grid0.Coords) (v543 : BitVec 32) (v3074 : BitVec 32), Decidable (k0_chk91 i v543 v3074) := fun i v543 v3074 => decidable_of_iff' _ (Iff.of_eq (k0_chk91.eq_1 i v543 v3074))
theorem k0_off273_inb : ∀ (i : grid0.Coords) (v543 : BitVec 32) (v3074 : BitVec 32) (k0_hw91 : k0_chk91 i v543 v3074), ∀ (k0_h91 : k0_cond91 v543 = 1#1), ∀ a, (k0_off273 i v3074) a + S1x1x512.size a ≤ S1024x200x512.size a := fun i v543 v3074 k0_hw91 k0_h91 => k0_hw91 k0_h91

def k0_off274 (i : grid0.Coords) : Fin 1 → Nat :=
  let arg0 : BitVec 32 := BitVec.ofNat 32 (i 0).val
  let c256_i32 : BitVec 32 := 256#32
  let v0 : BitVec 32 := Scalar.muli arg0 c256_i32
  let c43_i32_225 : BitVec 32 := 43#32
  let v547 : BitVec 32 := Scalar.addi v0 c43_i32_225
  let v548 : Index := Scalar.indexCast v547
  ![v548.toNat]
def k0_off275 (i : grid0.Coords) : Fin 1 → Nat :=
  let arg0 : BitVec 32 := BitVec.ofNat 32 (i 0).val
  let c256_i32 : BitVec 32 := 256#32
  let v0 : BitVec 32 := Scalar.muli arg0 c256_i32
  let c43_i32_225 : BitVec 32 := 43#32
  let v547 : BitVec 32 := Scalar.addi v0 c43_i32_225
  let v3073 : Index := Scalar.indexCast v547
  ![v3073.toNat]
def k0_off276 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c43_i32_225 : BitVec 32 := 43#32
  let v547 : BitVec 32 := Scalar.addi v0 c43_i32_225
  let c0_i32_1282 : BitVec 32 := 0#32
  ![v547.toNat, v3074.toNat, 0]
def k0_cond92 (v549 : BitVec 32) : BitVec 1 :=
  let c0_i32_226 : BitVec 32 := 0#32
  let v550 : BitVec 1 := Scalar.cmpi .sgt v549 c0_i32_226
  let v551 : BitVec 32 := Scalar.extui v550
  let c0_i32_227 : BitVec 32 := 0#32
  let v552 : BitVec 1 := Scalar.cmpi .ne v551 c0_i32_227
  v552

def k0_chk92 (i : grid0.Coords) (v549 : BitVec 32) (v3074 : BitVec 32) : Prop :=
  (∀ (k0_h92 : k0_cond92 v549 = 1#1), ∀ a, (k0_off276 i v3074) a + S1x1x512.size a ≤ S1024x200x512.size a)
instance k0_chk92.dec : ∀ (i : grid0.Coords) (v549 : BitVec 32) (v3074 : BitVec 32), Decidable (k0_chk92 i v549 v3074) := fun i v549 v3074 => decidable_of_iff' _ (Iff.of_eq (k0_chk92.eq_1 i v549 v3074))
theorem k0_off276_inb : ∀ (i : grid0.Coords) (v549 : BitVec 32) (v3074 : BitVec 32) (k0_hw92 : k0_chk92 i v549 v3074), ∀ (k0_h92 : k0_cond92 v549 = 1#1), ∀ a, (k0_off276 i v3074) a + S1x1x512.size a ≤ S1024x200x512.size a := fun i v549 v3074 k0_hw92 k0_h92 => k0_hw92 k0_h92

def k0_off277 (i : grid0.Coords) : Fin 1 → Nat :=
  let arg0 : BitVec 32 := BitVec.ofNat 32 (i 0).val
  let c256_i32 : BitVec 32 := 256#32
  let v0 : BitVec 32 := Scalar.muli arg0 c256_i32
  let c44_i32_228 : BitVec 32 := 44#32
  let v553 : BitVec 32 := Scalar.addi v0 c44_i32_228
  let v554 : Index := Scalar.indexCast v553
  ![v554.toNat]
def k0_off278 (i : grid0.Coords) : Fin 1 → Nat :=
  let arg0 : BitVec 32 := BitVec.ofNat 32 (i 0).val
  let c256_i32 : BitVec 32 := 256#32
  let v0 : BitVec 32 := Scalar.muli arg0 c256_i32
  let c44_i32_228 : BitVec 32 := 44#32
  let v553 : BitVec 32 := Scalar.addi v0 c44_i32_228
  let v3073 : Index := Scalar.indexCast v553
  ![v3073.toNat]
def k0_off279 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c44_i32_228 : BitVec 32 := 44#32
  let v553 : BitVec 32 := Scalar.addi v0 c44_i32_228
  let c0_i32_1282 : BitVec 32 := 0#32
  ![v553.toNat, v3074.toNat, 0]
def k0_cond93 (v555 : BitVec 32) : BitVec 1 :=
  let c0_i32_229 : BitVec 32 := 0#32
  let v556 : BitVec 1 := Scalar.cmpi .sgt v555 c0_i32_229
  let v557 : BitVec 32 := Scalar.extui v556
  let c0_i32_230 : BitVec 32 := 0#32
  let v558 : BitVec 1 := Scalar.cmpi .ne v557 c0_i32_230
  v558

def k0_chk93 (i : grid0.Coords) (v555 : BitVec 32) (v3074 : BitVec 32) : Prop :=
  (∀ (k0_h93 : k0_cond93 v555 = 1#1), ∀ a, (k0_off279 i v3074) a + S1x1x512.size a ≤ S1024x200x512.size a)
instance k0_chk93.dec : ∀ (i : grid0.Coords) (v555 : BitVec 32) (v3074 : BitVec 32), Decidable (k0_chk93 i v555 v3074) := fun i v555 v3074 => decidable_of_iff' _ (Iff.of_eq (k0_chk93.eq_1 i v555 v3074))
theorem k0_off279_inb : ∀ (i : grid0.Coords) (v555 : BitVec 32) (v3074 : BitVec 32) (k0_hw93 : k0_chk93 i v555 v3074), ∀ (k0_h93 : k0_cond93 v555 = 1#1), ∀ a, (k0_off279 i v3074) a + S1x1x512.size a ≤ S1024x200x512.size a := fun i v555 v3074 k0_hw93 k0_h93 => k0_hw93 k0_h93

def k0_off280 (i : grid0.Coords) : Fin 1 → Nat :=
  let arg0 : BitVec 32 := BitVec.ofNat 32 (i 0).val
  let c256_i32 : BitVec 32 := 256#32
  let v0 : BitVec 32 := Scalar.muli arg0 c256_i32
  let c45_i32_231 : BitVec 32 := 45#32
  let v559 : BitVec 32 := Scalar.addi v0 c45_i32_231
  let v560 : Index := Scalar.indexCast v559
  ![v560.toNat]
def k0_off281 (i : grid0.Coords) : Fin 1 → Nat :=
  let arg0 : BitVec 32 := BitVec.ofNat 32 (i 0).val
  let c256_i32 : BitVec 32 := 256#32
  let v0 : BitVec 32 := Scalar.muli arg0 c256_i32
  let c45_i32_231 : BitVec 32 := 45#32
  let v559 : BitVec 32 := Scalar.addi v0 c45_i32_231
  let v3073 : Index := Scalar.indexCast v559
  ![v3073.toNat]
def k0_off282 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c45_i32_231 : BitVec 32 := 45#32
  let v559 : BitVec 32 := Scalar.addi v0 c45_i32_231
  let c0_i32_1282 : BitVec 32 := 0#32
  ![v559.toNat, v3074.toNat, 0]
def k0_cond94 (v561 : BitVec 32) : BitVec 1 :=
  let c0_i32_232 : BitVec 32 := 0#32
  let v562 : BitVec 1 := Scalar.cmpi .sgt v561 c0_i32_232
  let v563 : BitVec 32 := Scalar.extui v562
  let c0_i32_233 : BitVec 32 := 0#32
  let v564 : BitVec 1 := Scalar.cmpi .ne v563 c0_i32_233
  v564

def k0_chk94 (i : grid0.Coords) (v561 : BitVec 32) (v3074 : BitVec 32) : Prop :=
  (∀ (k0_h94 : k0_cond94 v561 = 1#1), ∀ a, (k0_off282 i v3074) a + S1x1x512.size a ≤ S1024x200x512.size a)
instance k0_chk94.dec : ∀ (i : grid0.Coords) (v561 : BitVec 32) (v3074 : BitVec 32), Decidable (k0_chk94 i v561 v3074) := fun i v561 v3074 => decidable_of_iff' _ (Iff.of_eq (k0_chk94.eq_1 i v561 v3074))
theorem k0_off282_inb : ∀ (i : grid0.Coords) (v561 : BitVec 32) (v3074 : BitVec 32) (k0_hw94 : k0_chk94 i v561 v3074), ∀ (k0_h94 : k0_cond94 v561 = 1#1), ∀ a, (k0_off282 i v3074) a + S1x1x512.size a ≤ S1024x200x512.size a := fun i v561 v3074 k0_hw94 k0_h94 => k0_hw94 k0_h94

def k0_off283 (i : grid0.Coords) : Fin 1 → Nat :=
  let arg0 : BitVec 32 := BitVec.ofNat 32 (i 0).val
  let c256_i32 : BitVec 32 := 256#32
  let v0 : BitVec 32 := Scalar.muli arg0 c256_i32
  let c46_i32_234 : BitVec 32 := 46#32
  let v565 : BitVec 32 := Scalar.addi v0 c46_i32_234
  let v566 : Index := Scalar.indexCast v565
  ![v566.toNat]
def k0_off284 (i : grid0.Coords) : Fin 1 → Nat :=
  let arg0 : BitVec 32 := BitVec.ofNat 32 (i 0).val
  let c256_i32 : BitVec 32 := 256#32
  let v0 : BitVec 32 := Scalar.muli arg0 c256_i32
  let c46_i32_234 : BitVec 32 := 46#32
  let v565 : BitVec 32 := Scalar.addi v0 c46_i32_234
  let v3073 : Index := Scalar.indexCast v565
  ![v3073.toNat]
def k0_off285 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c46_i32_234 : BitVec 32 := 46#32
  let v565 : BitVec 32 := Scalar.addi v0 c46_i32_234
  let c0_i32_1282 : BitVec 32 := 0#32
  ![v565.toNat, v3074.toNat, 0]
def k0_cond95 (v567 : BitVec 32) : BitVec 1 :=
  let c0_i32_235 : BitVec 32 := 0#32
  let v568 : BitVec 1 := Scalar.cmpi .sgt v567 c0_i32_235
  let v569 : BitVec 32 := Scalar.extui v568
  let c0_i32_236 : BitVec 32 := 0#32
  let v570 : BitVec 1 := Scalar.cmpi .ne v569 c0_i32_236
  v570

def k0_chk95 (i : grid0.Coords) (v567 : BitVec 32) (v3074 : BitVec 32) : Prop :=
  (∀ (k0_h95 : k0_cond95 v567 = 1#1), ∀ a, (k0_off285 i v3074) a + S1x1x512.size a ≤ S1024x200x512.size a)
instance k0_chk95.dec : ∀ (i : grid0.Coords) (v567 : BitVec 32) (v3074 : BitVec 32), Decidable (k0_chk95 i v567 v3074) := fun i v567 v3074 => decidable_of_iff' _ (Iff.of_eq (k0_chk95.eq_1 i v567 v3074))
theorem k0_off285_inb : ∀ (i : grid0.Coords) (v567 : BitVec 32) (v3074 : BitVec 32) (k0_hw95 : k0_chk95 i v567 v3074), ∀ (k0_h95 : k0_cond95 v567 = 1#1), ∀ a, (k0_off285 i v3074) a + S1x1x512.size a ≤ S1024x200x512.size a := fun i v567 v3074 k0_hw95 k0_h95 => k0_hw95 k0_h95

def k0_off286 (i : grid0.Coords) : Fin 1 → Nat :=
  let arg0 : BitVec 32 := BitVec.ofNat 32 (i 0).val
  let c256_i32 : BitVec 32 := 256#32
  let v0 : BitVec 32 := Scalar.muli arg0 c256_i32
  let c47_i32_237 : BitVec 32 := 47#32
  let v571 : BitVec 32 := Scalar.addi v0 c47_i32_237
  let v572 : Index := Scalar.indexCast v571
  ![v572.toNat]
def k0_off287 (i : grid0.Coords) : Fin 1 → Nat :=
  let arg0 : BitVec 32 := BitVec.ofNat 32 (i 0).val
  let c256_i32 : BitVec 32 := 256#32
  let v0 : BitVec 32 := Scalar.muli arg0 c256_i32
  let c47_i32_237 : BitVec 32 := 47#32
  let v571 : BitVec 32 := Scalar.addi v0 c47_i32_237
  let v3073 : Index := Scalar.indexCast v571
  ![v3073.toNat]
def k0_off288 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c47_i32_237 : BitVec 32 := 47#32
  let v571 : BitVec 32 := Scalar.addi v0 c47_i32_237
  let c0_i32_1282 : BitVec 32 := 0#32
  ![v571.toNat, v3074.toNat, 0]
def k0_cond96 (v573 : BitVec 32) : BitVec 1 :=
  let c0_i32_238 : BitVec 32 := 0#32
  let v574 : BitVec 1 := Scalar.cmpi .sgt v573 c0_i32_238
  let v575 : BitVec 32 := Scalar.extui v574
  let c0_i32_239 : BitVec 32 := 0#32
  let v576 : BitVec 1 := Scalar.cmpi .ne v575 c0_i32_239
  v576

def k0_chk96 (i : grid0.Coords) (v573 : BitVec 32) (v3074 : BitVec 32) : Prop :=
  (∀ (k0_h96 : k0_cond96 v573 = 1#1), ∀ a, (k0_off288 i v3074) a + S1x1x512.size a ≤ S1024x200x512.size a)
instance k0_chk96.dec : ∀ (i : grid0.Coords) (v573 : BitVec 32) (v3074 : BitVec 32), Decidable (k0_chk96 i v573 v3074) := fun i v573 v3074 => decidable_of_iff' _ (Iff.of_eq (k0_chk96.eq_1 i v573 v3074))
theorem k0_off288_inb : ∀ (i : grid0.Coords) (v573 : BitVec 32) (v3074 : BitVec 32) (k0_hw96 : k0_chk96 i v573 v3074), ∀ (k0_h96 : k0_cond96 v573 = 1#1), ∀ a, (k0_off288 i v3074) a + S1x1x512.size a ≤ S1024x200x512.size a := fun i v573 v3074 k0_hw96 k0_h96 => k0_hw96 k0_h96

def k0_off289 (i : grid0.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v577 : BitVec 32 := Scalar.addi v0 c48_i32
  let v578 : Index := Scalar.indexCast v577
  ![v578.toNat]
def k0_off290 (i : grid0.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v577 : BitVec 32 := Scalar.addi v0 c48_i32
  let v3073 : Index := Scalar.indexCast v577
  ![v3073.toNat]
def k0_off291 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c48_i32 : BitVec 32 := 48#32
  let v577 : BitVec 32 := Scalar.addi v0 c48_i32
  let c0_i32_1287 : BitVec 32 := 0#32
  ![v577.toNat, v3074.toNat, 0]
def k0_cond97 (v579 : BitVec 32) : BitVec 1 :=
  let c0_i32_240 : BitVec 32 := 0#32
  let v580 : BitVec 1 := Scalar.cmpi .sgt v579 c0_i32_240
  let v581 : BitVec 32 := Scalar.extui v580
  let c0_i32_241 : BitVec 32 := 0#32
  let v582 : BitVec 1 := Scalar.cmpi .ne v581 c0_i32_241
  v582

def k0_chk97 (i : grid0.Coords) (v579 : BitVec 32) (v3074 : BitVec 32) : Prop :=
  (∀ (k0_h97 : k0_cond97 v579 = 1#1), ∀ a, (k0_off291 i v3074) a + S1x1x512.size a ≤ S1024x200x512.size a)
instance k0_chk97.dec : ∀ (i : grid0.Coords) (v579 : BitVec 32) (v3074 : BitVec 32), Decidable (k0_chk97 i v579 v3074) := fun i v579 v3074 => decidable_of_iff' _ (Iff.of_eq (k0_chk97.eq_1 i v579 v3074))
theorem k0_off291_inb : ∀ (i : grid0.Coords) (v579 : BitVec 32) (v3074 : BitVec 32) (k0_hw97 : k0_chk97 i v579 v3074), ∀ (k0_h97 : k0_cond97 v579 = 1#1), ∀ a, (k0_off291 i v3074) a + S1x1x512.size a ≤ S1024x200x512.size a := fun i v579 v3074 k0_hw97 k0_h97 => k0_hw97 k0_h97

def k0_off292 (i : grid0.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v583 : BitVec 32 := Scalar.addi v0 c49_i32
  let v584 : Index := Scalar.indexCast v583
  ![v584.toNat]
def k0_off293 (i : grid0.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v583 : BitVec 32 := Scalar.addi v0 c49_i32
  let v3073 : Index := Scalar.indexCast v583
  ![v3073.toNat]
def k0_off294 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c49_i32 : BitVec 32 := 49#32
  let v583 : BitVec 32 := Scalar.addi v0 c49_i32
  let c0_i32_1287 : BitVec 32 := 0#32
  ![v583.toNat, v3074.toNat, 0]
def k0_cond98 (v585 : BitVec 32) : BitVec 1 :=
  let c0_i32_242 : BitVec 32 := 0#32
  let v586 : BitVec 1 := Scalar.cmpi .sgt v585 c0_i32_242
  let v587 : BitVec 32 := Scalar.extui v586
  let c0_i32_243 : BitVec 32 := 0#32
  let v588 : BitVec 1 := Scalar.cmpi .ne v587 c0_i32_243
  v588

def k0_chk98 (i : grid0.Coords) (v585 : BitVec 32) (v3074 : BitVec 32) : Prop :=
  (∀ (k0_h98 : k0_cond98 v585 = 1#1), ∀ a, (k0_off294 i v3074) a + S1x1x512.size a ≤ S1024x200x512.size a)
instance k0_chk98.dec : ∀ (i : grid0.Coords) (v585 : BitVec 32) (v3074 : BitVec 32), Decidable (k0_chk98 i v585 v3074) := fun i v585 v3074 => decidable_of_iff' _ (Iff.of_eq (k0_chk98.eq_1 i v585 v3074))
theorem k0_off294_inb : ∀ (i : grid0.Coords) (v585 : BitVec 32) (v3074 : BitVec 32) (k0_hw98 : k0_chk98 i v585 v3074), ∀ (k0_h98 : k0_cond98 v585 = 1#1), ∀ a, (k0_off294 i v3074) a + S1x1x512.size a ≤ S1024x200x512.size a := fun i v585 v3074 k0_hw98 k0_h98 => k0_hw98 k0_h98

def k0_off295 (i : grid0.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v589 : BitVec 32 := Scalar.addi v0 c50_i32
  let v590 : Index := Scalar.indexCast v589
  ![v590.toNat]
def k0_off296 (i : grid0.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v589 : BitVec 32 := Scalar.addi v0 c50_i32
  let v3073 : Index := Scalar.indexCast v589
  ![v3073.toNat]
def k0_off297 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c50_i32 : BitVec 32 := 50#32
  let v589 : BitVec 32 := Scalar.addi v0 c50_i32
  let c0_i32_1287 : BitVec 32 := 0#32
  ![v589.toNat, v3074.toNat, 0]
def k0_cond99 (v591 : BitVec 32) : BitVec 1 :=
  let c0_i32_244 : BitVec 32 := 0#32
  let v592 : BitVec 1 := Scalar.cmpi .sgt v591 c0_i32_244
  let v593 : BitVec 32 := Scalar.extui v592
  let c0_i32_245 : BitVec 32 := 0#32
  let v594 : BitVec 1 := Scalar.cmpi .ne v593 c0_i32_245
  v594

def k0_chk99 (i : grid0.Coords) (v591 : BitVec 32) (v3074 : BitVec 32) : Prop :=
  (∀ (k0_h99 : k0_cond99 v591 = 1#1), ∀ a, (k0_off297 i v3074) a + S1x1x512.size a ≤ S1024x200x512.size a)
instance k0_chk99.dec : ∀ (i : grid0.Coords) (v591 : BitVec 32) (v3074 : BitVec 32), Decidable (k0_chk99 i v591 v3074) := fun i v591 v3074 => decidable_of_iff' _ (Iff.of_eq (k0_chk99.eq_1 i v591 v3074))
theorem k0_off297_inb : ∀ (i : grid0.Coords) (v591 : BitVec 32) (v3074 : BitVec 32) (k0_hw99 : k0_chk99 i v591 v3074), ∀ (k0_h99 : k0_cond99 v591 = 1#1), ∀ a, (k0_off297 i v3074) a + S1x1x512.size a ≤ S1024x200x512.size a := fun i v591 v3074 k0_hw99 k0_h99 => k0_hw99 k0_h99

def k0_off298 (i : grid0.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v595 : BitVec 32 := Scalar.addi v0 c51_i32
  let v596 : Index := Scalar.indexCast v595
  ![v596.toNat]
def k0_off299 (i : grid0.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v595 : BitVec 32 := Scalar.addi v0 c51_i32
  let v3073 : Index := Scalar.indexCast v595
  ![v3073.toNat]
def k0_off300 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c51_i32 : BitVec 32 := 51#32
  let v595 : BitVec 32 := Scalar.addi v0 c51_i32
  let c0_i32_1287 : BitVec 32 := 0#32
  ![v595.toNat, v3074.toNat, 0]
def k0_cond100 (v597 : BitVec 32) : BitVec 1 :=
  let c0_i32_246 : BitVec 32 := 0#32
  let v598 : BitVec 1 := Scalar.cmpi .sgt v597 c0_i32_246
  let v599 : BitVec 32 := Scalar.extui v598
  let c0_i32_247 : BitVec 32 := 0#32
  let v600 : BitVec 1 := Scalar.cmpi .ne v599 c0_i32_247
  v600

def k0_chk100 (i : grid0.Coords) (v597 : BitVec 32) (v3074 : BitVec 32) : Prop :=
  (∀ (k0_h100 : k0_cond100 v597 = 1#1), ∀ a, (k0_off300 i v3074) a + S1x1x512.size a ≤ S1024x200x512.size a)
instance k0_chk100.dec : ∀ (i : grid0.Coords) (v597 : BitVec 32) (v3074 : BitVec 32), Decidable (k0_chk100 i v597 v3074) := fun i v597 v3074 => decidable_of_iff' _ (Iff.of_eq (k0_chk100.eq_1 i v597 v3074))
theorem k0_off300_inb : ∀ (i : grid0.Coords) (v597 : BitVec 32) (v3074 : BitVec 32) (k0_hw100 : k0_chk100 i v597 v3074), ∀ (k0_h100 : k0_cond100 v597 = 1#1), ∀ a, (k0_off300 i v3074) a + S1x1x512.size a ≤ S1024x200x512.size a := fun i v597 v3074 k0_hw100 k0_h100 => k0_hw100 k0_h100

def k0_off301 (i : grid0.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v601 : BitVec 32 := Scalar.addi v0 c52_i32
  let v602 : Index := Scalar.indexCast v601
  ![v602.toNat]
def k0_off302 (i : grid0.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v601 : BitVec 32 := Scalar.addi v0 c52_i32
  let v3073 : Index := Scalar.indexCast v601
  ![v3073.toNat]
def k0_off303 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c52_i32 : BitVec 32 := 52#32
  let v601 : BitVec 32 := Scalar.addi v0 c52_i32
  let c0_i32_1287 : BitVec 32 := 0#32
  ![v601.toNat, v3074.toNat, 0]
def k0_cond101 (v603 : BitVec 32) : BitVec 1 :=
  let c0_i32_248 : BitVec 32 := 0#32
  let v604 : BitVec 1 := Scalar.cmpi .sgt v603 c0_i32_248
  let v605 : BitVec 32 := Scalar.extui v604
  let c0_i32_249 : BitVec 32 := 0#32
  let v606 : BitVec 1 := Scalar.cmpi .ne v605 c0_i32_249
  v606

def k0_chk101 (i : grid0.Coords) (v603 : BitVec 32) (v3074 : BitVec 32) : Prop :=
  (∀ (k0_h101 : k0_cond101 v603 = 1#1), ∀ a, (k0_off303 i v3074) a + S1x1x512.size a ≤ S1024x200x512.size a)
instance k0_chk101.dec : ∀ (i : grid0.Coords) (v603 : BitVec 32) (v3074 : BitVec 32), Decidable (k0_chk101 i v603 v3074) := fun i v603 v3074 => decidable_of_iff' _ (Iff.of_eq (k0_chk101.eq_1 i v603 v3074))
theorem k0_off303_inb : ∀ (i : grid0.Coords) (v603 : BitVec 32) (v3074 : BitVec 32) (k0_hw101 : k0_chk101 i v603 v3074), ∀ (k0_h101 : k0_cond101 v603 = 1#1), ∀ a, (k0_off303 i v3074) a + S1x1x512.size a ≤ S1024x200x512.size a := fun i v603 v3074 k0_hw101 k0_h101 => k0_hw101 k0_h101

def k0_off304 (i : grid0.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v607 : BitVec 32 := Scalar.addi v0 c53_i32
  let v608 : Index := Scalar.indexCast v607
  ![v608.toNat]
def k0_off305 (i : grid0.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v607 : BitVec 32 := Scalar.addi v0 c53_i32
  let v3073 : Index := Scalar.indexCast v607
  ![v3073.toNat]
def k0_off306 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c53_i32 : BitVec 32 := 53#32
  let v607 : BitVec 32 := Scalar.addi v0 c53_i32
  let c0_i32_1287 : BitVec 32 := 0#32
  ![v607.toNat, v3074.toNat, 0]
def k0_cond102 (v609 : BitVec 32) : BitVec 1 :=
  let c0_i32_250 : BitVec 32 := 0#32
  let v610 : BitVec 1 := Scalar.cmpi .sgt v609 c0_i32_250
  let v611 : BitVec 32 := Scalar.extui v610
  let c0_i32_251 : BitVec 32 := 0#32
  let v612 : BitVec 1 := Scalar.cmpi .ne v611 c0_i32_251
  v612

def k0_chk102 (i : grid0.Coords) (v609 : BitVec 32) (v3074 : BitVec 32) : Prop :=
  (∀ (k0_h102 : k0_cond102 v609 = 1#1), ∀ a, (k0_off306 i v3074) a + S1x1x512.size a ≤ S1024x200x512.size a)
instance k0_chk102.dec : ∀ (i : grid0.Coords) (v609 : BitVec 32) (v3074 : BitVec 32), Decidable (k0_chk102 i v609 v3074) := fun i v609 v3074 => decidable_of_iff' _ (Iff.of_eq (k0_chk102.eq_1 i v609 v3074))
theorem k0_off306_inb : ∀ (i : grid0.Coords) (v609 : BitVec 32) (v3074 : BitVec 32) (k0_hw102 : k0_chk102 i v609 v3074), ∀ (k0_h102 : k0_cond102 v609 = 1#1), ∀ a, (k0_off306 i v3074) a + S1x1x512.size a ≤ S1024x200x512.size a := fun i v609 v3074 k0_hw102 k0_h102 => k0_hw102 k0_h102

def k0_off307 (i : grid0.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v613 : BitVec 32 := Scalar.addi v0 c54_i32
  let v614 : Index := Scalar.indexCast v613
  ![v614.toNat]
def k0_off308 (i : grid0.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v613 : BitVec 32 := Scalar.addi v0 c54_i32
  let v3073 : Index := Scalar.indexCast v613
  ![v3073.toNat]
def k0_off309 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c54_i32 : BitVec 32 := 54#32
  let v613 : BitVec 32 := Scalar.addi v0 c54_i32
  let c0_i32_1287 : BitVec 32 := 0#32
  ![v613.toNat, v3074.toNat, 0]
def k0_cond103 (v615 : BitVec 32) : BitVec 1 :=
  let c0_i32_252 : BitVec 32 := 0#32
  let v616 : BitVec 1 := Scalar.cmpi .sgt v615 c0_i32_252
  let v617 : BitVec 32 := Scalar.extui v616
  let c0_i32_253 : BitVec 32 := 0#32
  let v618 : BitVec 1 := Scalar.cmpi .ne v617 c0_i32_253
  v618

def k0_chk103 (i : grid0.Coords) (v615 : BitVec 32) (v3074 : BitVec 32) : Prop :=
  (∀ (k0_h103 : k0_cond103 v615 = 1#1), ∀ a, (k0_off309 i v3074) a + S1x1x512.size a ≤ S1024x200x512.size a)
instance k0_chk103.dec : ∀ (i : grid0.Coords) (v615 : BitVec 32) (v3074 : BitVec 32), Decidable (k0_chk103 i v615 v3074) := fun i v615 v3074 => decidable_of_iff' _ (Iff.of_eq (k0_chk103.eq_1 i v615 v3074))
theorem k0_off309_inb : ∀ (i : grid0.Coords) (v615 : BitVec 32) (v3074 : BitVec 32) (k0_hw103 : k0_chk103 i v615 v3074), ∀ (k0_h103 : k0_cond103 v615 = 1#1), ∀ a, (k0_off309 i v3074) a + S1x1x512.size a ≤ S1024x200x512.size a := fun i v615 v3074 k0_hw103 k0_h103 => k0_hw103 k0_h103

def k0_off310 (i : grid0.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v619 : BitVec 32 := Scalar.addi v0 c55_i32
  let v620 : Index := Scalar.indexCast v619
  ![v620.toNat]
def k0_off311 (i : grid0.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v619 : BitVec 32 := Scalar.addi v0 c55_i32
  let v3073 : Index := Scalar.indexCast v619
  ![v3073.toNat]
def k0_off312 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c55_i32 : BitVec 32 := 55#32
  let v619 : BitVec 32 := Scalar.addi v0 c55_i32
  let c0_i32_1287 : BitVec 32 := 0#32
  ![v619.toNat, v3074.toNat, 0]
def k0_cond104 (v621 : BitVec 32) : BitVec 1 :=
  let c0_i32_254 : BitVec 32 := 0#32
  let v622 : BitVec 1 := Scalar.cmpi .sgt v621 c0_i32_254
  let v623 : BitVec 32 := Scalar.extui v622
  let c0_i32_255 : BitVec 32 := 0#32
  let v624 : BitVec 1 := Scalar.cmpi .ne v623 c0_i32_255
  v624

def k0_chk104 (i : grid0.Coords) (v621 : BitVec 32) (v3074 : BitVec 32) : Prop :=
  (∀ (k0_h104 : k0_cond104 v621 = 1#1), ∀ a, (k0_off312 i v3074) a + S1x1x512.size a ≤ S1024x200x512.size a)
instance k0_chk104.dec : ∀ (i : grid0.Coords) (v621 : BitVec 32) (v3074 : BitVec 32), Decidable (k0_chk104 i v621 v3074) := fun i v621 v3074 => decidable_of_iff' _ (Iff.of_eq (k0_chk104.eq_1 i v621 v3074))
theorem k0_off312_inb : ∀ (i : grid0.Coords) (v621 : BitVec 32) (v3074 : BitVec 32) (k0_hw104 : k0_chk104 i v621 v3074), ∀ (k0_h104 : k0_cond104 v621 = 1#1), ∀ a, (k0_off312 i v3074) a + S1x1x512.size a ≤ S1024x200x512.size a := fun i v621 v3074 k0_hw104 k0_h104 => k0_hw104 k0_h104

def k0_off313 (i : grid0.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v625 : BitVec 32 := Scalar.addi v0 c56_i32
  let v626 : Index := Scalar.indexCast v625
  ![v626.toNat]
def k0_off314 (i : grid0.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v625 : BitVec 32 := Scalar.addi v0 c56_i32
  let v3073 : Index := Scalar.indexCast v625
  ![v3073.toNat]
def k0_off315 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c56_i32 : BitVec 32 := 56#32
  let v625 : BitVec 32 := Scalar.addi v0 c56_i32
  let c0_i32_1287 : BitVec 32 := 0#32
  ![v625.toNat, v3074.toNat, 0]
def k0_cond105 (v627 : BitVec 32) : BitVec 1 :=
  let c0_i32_256 : BitVec 32 := 0#32
  let v628 : BitVec 1 := Scalar.cmpi .sgt v627 c0_i32_256
  let v629 : BitVec 32 := Scalar.extui v628
  let c0_i32_257 : BitVec 32 := 0#32
  let v630 : BitVec 1 := Scalar.cmpi .ne v629 c0_i32_257
  v630

def k0_chk105 (i : grid0.Coords) (v627 : BitVec 32) (v3074 : BitVec 32) : Prop :=
  (∀ (k0_h105 : k0_cond105 v627 = 1#1), ∀ a, (k0_off315 i v3074) a + S1x1x512.size a ≤ S1024x200x512.size a)
instance k0_chk105.dec : ∀ (i : grid0.Coords) (v627 : BitVec 32) (v3074 : BitVec 32), Decidable (k0_chk105 i v627 v3074) := fun i v627 v3074 => decidable_of_iff' _ (Iff.of_eq (k0_chk105.eq_1 i v627 v3074))
theorem k0_off315_inb : ∀ (i : grid0.Coords) (v627 : BitVec 32) (v3074 : BitVec 32) (k0_hw105 : k0_chk105 i v627 v3074), ∀ (k0_h105 : k0_cond105 v627 = 1#1), ∀ a, (k0_off315 i v3074) a + S1x1x512.size a ≤ S1024x200x512.size a := fun i v627 v3074 k0_hw105 k0_h105 => k0_hw105 k0_h105

def k0_off316 (i : grid0.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v631 : BitVec 32 := Scalar.addi v0 c57_i32
  let v632 : Index := Scalar.indexCast v631
  ![v632.toNat]
def k0_off317 (i : grid0.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v631 : BitVec 32 := Scalar.addi v0 c57_i32
  let v3073 : Index := Scalar.indexCast v631
  ![v3073.toNat]
def k0_off318 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c57_i32 : BitVec 32 := 57#32
  let v631 : BitVec 32 := Scalar.addi v0 c57_i32
  let c0_i32_1287 : BitVec 32 := 0#32
  ![v631.toNat, v3074.toNat, 0]
def k0_cond106 (v633 : BitVec 32) : BitVec 1 :=
  let c0_i32_258 : BitVec 32 := 0#32
  let v634 : BitVec 1 := Scalar.cmpi .sgt v633 c0_i32_258
  let v635 : BitVec 32 := Scalar.extui v634
  let c0_i32_259 : BitVec 32 := 0#32
  let v636 : BitVec 1 := Scalar.cmpi .ne v635 c0_i32_259
  v636

def k0_chk106 (i : grid0.Coords) (v633 : BitVec 32) (v3074 : BitVec 32) : Prop :=
  (∀ (k0_h106 : k0_cond106 v633 = 1#1), ∀ a, (k0_off318 i v3074) a + S1x1x512.size a ≤ S1024x200x512.size a)
instance k0_chk106.dec : ∀ (i : grid0.Coords) (v633 : BitVec 32) (v3074 : BitVec 32), Decidable (k0_chk106 i v633 v3074) := fun i v633 v3074 => decidable_of_iff' _ (Iff.of_eq (k0_chk106.eq_1 i v633 v3074))
theorem k0_off318_inb : ∀ (i : grid0.Coords) (v633 : BitVec 32) (v3074 : BitVec 32) (k0_hw106 : k0_chk106 i v633 v3074), ∀ (k0_h106 : k0_cond106 v633 = 1#1), ∀ a, (k0_off318 i v3074) a + S1x1x512.size a ≤ S1024x200x512.size a := fun i v633 v3074 k0_hw106 k0_h106 => k0_hw106 k0_h106

def k0_off319 (i : grid0.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v637 : BitVec 32 := Scalar.addi v0 c58_i32
  let v638 : Index := Scalar.indexCast v637
  ![v638.toNat]
def k0_off320 (i : grid0.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v637 : BitVec 32 := Scalar.addi v0 c58_i32
  let v3073 : Index := Scalar.indexCast v637
  ![v3073.toNat]
def k0_off321 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c58_i32 : BitVec 32 := 58#32
  let v637 : BitVec 32 := Scalar.addi v0 c58_i32
  let c0_i32_1287 : BitVec 32 := 0#32
  ![v637.toNat, v3074.toNat, 0]
def k0_cond107 (v639 : BitVec 32) : BitVec 1 :=
  let c0_i32_260 : BitVec 32 := 0#32
  let v640 : BitVec 1 := Scalar.cmpi .sgt v639 c0_i32_260
  let v641 : BitVec 32 := Scalar.extui v640
  let c0_i32_261 : BitVec 32 := 0#32
  let v642 : BitVec 1 := Scalar.cmpi .ne v641 c0_i32_261
  v642

def k0_chk107 (i : grid0.Coords) (v639 : BitVec 32) (v3074 : BitVec 32) : Prop :=
  (∀ (k0_h107 : k0_cond107 v639 = 1#1), ∀ a, (k0_off321 i v3074) a + S1x1x512.size a ≤ S1024x200x512.size a)
instance k0_chk107.dec : ∀ (i : grid0.Coords) (v639 : BitVec 32) (v3074 : BitVec 32), Decidable (k0_chk107 i v639 v3074) := fun i v639 v3074 => decidable_of_iff' _ (Iff.of_eq (k0_chk107.eq_1 i v639 v3074))
theorem k0_off321_inb : ∀ (i : grid0.Coords) (v639 : BitVec 32) (v3074 : BitVec 32) (k0_hw107 : k0_chk107 i v639 v3074), ∀ (k0_h107 : k0_cond107 v639 = 1#1), ∀ a, (k0_off321 i v3074) a + S1x1x512.size a ≤ S1024x200x512.size a := fun i v639 v3074 k0_hw107 k0_h107 => k0_hw107 k0_h107

def k0_off322 (i : grid0.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v643 : BitVec 32 := Scalar.addi v0 c59_i32
  let v644 : Index := Scalar.indexCast v643
  ![v644.toNat]
def k0_off323 (i : grid0.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v643 : BitVec 32 := Scalar.addi v0 c59_i32
  let v3073 : Index := Scalar.indexCast v643
  ![v3073.toNat]
def k0_off324 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c59_i32 : BitVec 32 := 59#32
  let v643 : BitVec 32 := Scalar.addi v0 c59_i32
  let c0_i32_1287 : BitVec 32 := 0#32
  ![v643.toNat, v3074.toNat, 0]
def k0_cond108 (v645 : BitVec 32) : BitVec 1 :=
  let c0_i32_262 : BitVec 32 := 0#32
  let v646 : BitVec 1 := Scalar.cmpi .sgt v645 c0_i32_262
  let v647 : BitVec 32 := Scalar.extui v646
  let c0_i32_263 : BitVec 32 := 0#32
  let v648 : BitVec 1 := Scalar.cmpi .ne v647 c0_i32_263
  v648

def k0_chk108 (i : grid0.Coords) (v645 : BitVec 32) (v3074 : BitVec 32) : Prop :=
  (∀ (k0_h108 : k0_cond108 v645 = 1#1), ∀ a, (k0_off324 i v3074) a + S1x1x512.size a ≤ S1024x200x512.size a)
instance k0_chk108.dec : ∀ (i : grid0.Coords) (v645 : BitVec 32) (v3074 : BitVec 32), Decidable (k0_chk108 i v645 v3074) := fun i v645 v3074 => decidable_of_iff' _ (Iff.of_eq (k0_chk108.eq_1 i v645 v3074))
theorem k0_off324_inb : ∀ (i : grid0.Coords) (v645 : BitVec 32) (v3074 : BitVec 32) (k0_hw108 : k0_chk108 i v645 v3074), ∀ (k0_h108 : k0_cond108 v645 = 1#1), ∀ a, (k0_off324 i v3074) a + S1x1x512.size a ≤ S1024x200x512.size a := fun i v645 v3074 k0_hw108 k0_h108 => k0_hw108 k0_h108

def k0_off325 (i : grid0.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v649 : BitVec 32 := Scalar.addi v0 c60_i32
  let v650 : Index := Scalar.indexCast v649
  ![v650.toNat]
def k0_off326 (i : grid0.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v649 : BitVec 32 := Scalar.addi v0 c60_i32
  let v3073 : Index := Scalar.indexCast v649
  ![v3073.toNat]
def k0_off327 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c60_i32 : BitVec 32 := 60#32
  let v649 : BitVec 32 := Scalar.addi v0 c60_i32
  let c0_i32_1287 : BitVec 32 := 0#32
  ![v649.toNat, v3074.toNat, 0]
def k0_cond109 (v651 : BitVec 32) : BitVec 1 :=
  let c0_i32_264 : BitVec 32 := 0#32
  let v652 : BitVec 1 := Scalar.cmpi .sgt v651 c0_i32_264
  let v653 : BitVec 32 := Scalar.extui v652
  let c0_i32_265 : BitVec 32 := 0#32
  let v654 : BitVec 1 := Scalar.cmpi .ne v653 c0_i32_265
  v654

def k0_chk109 (i : grid0.Coords) (v651 : BitVec 32) (v3074 : BitVec 32) : Prop :=
  (∀ (k0_h109 : k0_cond109 v651 = 1#1), ∀ a, (k0_off327 i v3074) a + S1x1x512.size a ≤ S1024x200x512.size a)
instance k0_chk109.dec : ∀ (i : grid0.Coords) (v651 : BitVec 32) (v3074 : BitVec 32), Decidable (k0_chk109 i v651 v3074) := fun i v651 v3074 => decidable_of_iff' _ (Iff.of_eq (k0_chk109.eq_1 i v651 v3074))
theorem k0_off327_inb : ∀ (i : grid0.Coords) (v651 : BitVec 32) (v3074 : BitVec 32) (k0_hw109 : k0_chk109 i v651 v3074), ∀ (k0_h109 : k0_cond109 v651 = 1#1), ∀ a, (k0_off327 i v3074) a + S1x1x512.size a ≤ S1024x200x512.size a := fun i v651 v3074 k0_hw109 k0_h109 => k0_hw109 k0_h109

def k0_off328 (i : grid0.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v655 : BitVec 32 := Scalar.addi v0 c61_i32
  let v656 : Index := Scalar.indexCast v655
  ![v656.toNat]
def k0_off329 (i : grid0.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v655 : BitVec 32 := Scalar.addi v0 c61_i32
  let v3073 : Index := Scalar.indexCast v655
  ![v3073.toNat]
def k0_off330 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c61_i32 : BitVec 32 := 61#32
  let v655 : BitVec 32 := Scalar.addi v0 c61_i32
  let c0_i32_1287 : BitVec 32 := 0#32
  ![v655.toNat, v3074.toNat, 0]
def k0_cond110 (v657 : BitVec 32) : BitVec 1 :=
  let c0_i32_266 : BitVec 32 := 0#32
  let v658 : BitVec 1 := Scalar.cmpi .sgt v657 c0_i32_266
  let v659 : BitVec 32 := Scalar.extui v658
  let c0_i32_267 : BitVec 32 := 0#32
  let v660 : BitVec 1 := Scalar.cmpi .ne v659 c0_i32_267
  v660

def k0_chk110 (i : grid0.Coords) (v657 : BitVec 32) (v3074 : BitVec 32) : Prop :=
  (∀ (k0_h110 : k0_cond110 v657 = 1#1), ∀ a, (k0_off330 i v3074) a + S1x1x512.size a ≤ S1024x200x512.size a)
instance k0_chk110.dec : ∀ (i : grid0.Coords) (v657 : BitVec 32) (v3074 : BitVec 32), Decidable (k0_chk110 i v657 v3074) := fun i v657 v3074 => decidable_of_iff' _ (Iff.of_eq (k0_chk110.eq_1 i v657 v3074))
theorem k0_off330_inb : ∀ (i : grid0.Coords) (v657 : BitVec 32) (v3074 : BitVec 32) (k0_hw110 : k0_chk110 i v657 v3074), ∀ (k0_h110 : k0_cond110 v657 = 1#1), ∀ a, (k0_off330 i v3074) a + S1x1x512.size a ≤ S1024x200x512.size a := fun i v657 v3074 k0_hw110 k0_h110 => k0_hw110 k0_h110

def k0_off331 (i : grid0.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v661 : BitVec 32 := Scalar.addi v0 c62_i32
  let v662 : Index := Scalar.indexCast v661
  ![v662.toNat]
def k0_off332 (i : grid0.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v661 : BitVec 32 := Scalar.addi v0 c62_i32
  let v3073 : Index := Scalar.indexCast v661
  ![v3073.toNat]
def k0_off333 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c62_i32 : BitVec 32 := 62#32
  let v661 : BitVec 32 := Scalar.addi v0 c62_i32
  let c0_i32_1287 : BitVec 32 := 0#32
  ![v661.toNat, v3074.toNat, 0]
def k0_cond111 (v663 : BitVec 32) : BitVec 1 :=
  let c0_i32_268 : BitVec 32 := 0#32
  let v664 : BitVec 1 := Scalar.cmpi .sgt v663 c0_i32_268
  let v665 : BitVec 32 := Scalar.extui v664
  let c0_i32_269 : BitVec 32 := 0#32
  let v666 : BitVec 1 := Scalar.cmpi .ne v665 c0_i32_269
  v666

def k0_chk111 (i : grid0.Coords) (v663 : BitVec 32) (v3074 : BitVec 32) : Prop :=
  (∀ (k0_h111 : k0_cond111 v663 = 1#1), ∀ a, (k0_off333 i v3074) a + S1x1x512.size a ≤ S1024x200x512.size a)
instance k0_chk111.dec : ∀ (i : grid0.Coords) (v663 : BitVec 32) (v3074 : BitVec 32), Decidable (k0_chk111 i v663 v3074) := fun i v663 v3074 => decidable_of_iff' _ (Iff.of_eq (k0_chk111.eq_1 i v663 v3074))
theorem k0_off333_inb : ∀ (i : grid0.Coords) (v663 : BitVec 32) (v3074 : BitVec 32) (k0_hw111 : k0_chk111 i v663 v3074), ∀ (k0_h111 : k0_cond111 v663 = 1#1), ∀ a, (k0_off333 i v3074) a + S1x1x512.size a ≤ S1024x200x512.size a := fun i v663 v3074 k0_hw111 k0_h111 => k0_hw111 k0_h111

def k0_off334 (i : grid0.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v667 : BitVec 32 := Scalar.addi v0 c63_i32
  let v668 : Index := Scalar.indexCast v667
  ![v668.toNat]
def k0_off335 (i : grid0.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v667 : BitVec 32 := Scalar.addi v0 c63_i32
  let v3073 : Index := Scalar.indexCast v667
  ![v3073.toNat]
def k0_off336 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c63_i32 : BitVec 32 := 63#32
  let v667 : BitVec 32 := Scalar.addi v0 c63_i32
  let c0_i32_1287 : BitVec 32 := 0#32
  ![v667.toNat, v3074.toNat, 0]
def k0_cond112 (v669 : BitVec 32) : BitVec 1 :=
  let c0_i32_270 : BitVec 32 := 0#32
  let v670 : BitVec 1 := Scalar.cmpi .sgt v669 c0_i32_270
  let v671 : BitVec 32 := Scalar.extui v670
  let c0_i32_271 : BitVec 32 := 0#32
  let v672 : BitVec 1 := Scalar.cmpi .ne v671 c0_i32_271
  v672

def k0_chk112 (i : grid0.Coords) (v669 : BitVec 32) (v3074 : BitVec 32) : Prop :=
  (∀ (k0_h112 : k0_cond112 v669 = 1#1), ∀ a, (k0_off336 i v3074) a + S1x1x512.size a ≤ S1024x200x512.size a)
instance k0_chk112.dec : ∀ (i : grid0.Coords) (v669 : BitVec 32) (v3074 : BitVec 32), Decidable (k0_chk112 i v669 v3074) := fun i v669 v3074 => decidable_of_iff' _ (Iff.of_eq (k0_chk112.eq_1 i v669 v3074))
theorem k0_off336_inb : ∀ (i : grid0.Coords) (v669 : BitVec 32) (v3074 : BitVec 32) (k0_hw112 : k0_chk112 i v669 v3074), ∀ (k0_h112 : k0_cond112 v669 = 1#1), ∀ a, (k0_off336 i v3074) a + S1x1x512.size a ≤ S1024x200x512.size a := fun i v669 v3074 k0_hw112 k0_h112 => k0_hw112 k0_h112

def k0_off337 (i : grid0.Coords) : Fin 1 → Nat :=
  let arg0 : BitVec 32 := BitVec.ofNat 32 (i 0).val
  let c256_i32 : BitVec 32 := 256#32
  let v0 : BitVec 32 := Scalar.muli arg0 c256_i32
  let c48_i32_272 : BitVec 32 := 48#32
  let v673 : BitVec 32 := Scalar.addi v0 c48_i32_272
  let v674 : Index := Scalar.indexCast v673
  ![v674.toNat]
def k0_off338 (i : grid0.Coords) : Fin 1 → Nat :=
  let arg0 : BitVec 32 := BitVec.ofNat 32 (i 0).val
  let c256_i32 : BitVec 32 := 256#32
  let v0 : BitVec 32 := Scalar.muli arg0 c256_i32
  let c48_i32_272 : BitVec 32 := 48#32
  let v673 : BitVec 32 := Scalar.addi v0 c48_i32_272
  let v3073 : Index := Scalar.indexCast v673
  ![v3073.toNat]
def k0_off339 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c48_i32_272 : BitVec 32 := 48#32
  let v673 : BitVec 32 := Scalar.addi v0 c48_i32_272
  let c0_i32_1282 : BitVec 32 := 0#32
  ![v673.toNat, v3074.toNat, 0]
def k0_cond113 (v675 : BitVec 32) : BitVec 1 :=
  let c0_i32_273 : BitVec 32 := 0#32
  let v676 : BitVec 1 := Scalar.cmpi .sgt v675 c0_i32_273
  let v677 : BitVec 32 := Scalar.extui v676
  let c0_i32_274 : BitVec 32 := 0#32
  let v678 : BitVec 1 := Scalar.cmpi .ne v677 c0_i32_274
  v678

def k0_chk113 (i : grid0.Coords) (v675 : BitVec 32) (v3074 : BitVec 32) : Prop :=
  (∀ (k0_h113 : k0_cond113 v675 = 1#1), ∀ a, (k0_off339 i v3074) a + S1x1x512.size a ≤ S1024x200x512.size a)
instance k0_chk113.dec : ∀ (i : grid0.Coords) (v675 : BitVec 32) (v3074 : BitVec 32), Decidable (k0_chk113 i v675 v3074) := fun i v675 v3074 => decidable_of_iff' _ (Iff.of_eq (k0_chk113.eq_1 i v675 v3074))
theorem k0_off339_inb : ∀ (i : grid0.Coords) (v675 : BitVec 32) (v3074 : BitVec 32) (k0_hw113 : k0_chk113 i v675 v3074), ∀ (k0_h113 : k0_cond113 v675 = 1#1), ∀ a, (k0_off339 i v3074) a + S1x1x512.size a ≤ S1024x200x512.size a := fun i v675 v3074 k0_hw113 k0_h113 => k0_hw113 k0_h113

def k0_off340 (i : grid0.Coords) : Fin 1 → Nat :=
  let arg0 : BitVec 32 := BitVec.ofNat 32 (i 0).val
  let c256_i32 : BitVec 32 := 256#32
  let v0 : BitVec 32 := Scalar.muli arg0 c256_i32
  let c49_i32_275 : BitVec 32 := 49#32
  let v679 : BitVec 32 := Scalar.addi v0 c49_i32_275
  let v680 : Index := Scalar.indexCast v679
  ![v680.toNat]
def k0_off341 (i : grid0.Coords) : Fin 1 → Nat :=
  let arg0 : BitVec 32 := BitVec.ofNat 32 (i 0).val
  let c256_i32 : BitVec 32 := 256#32
  let v0 : BitVec 32 := Scalar.muli arg0 c256_i32
  let c49_i32_275 : BitVec 32 := 49#32
  let v679 : BitVec 32 := Scalar.addi v0 c49_i32_275
  let v3073 : Index := Scalar.indexCast v679
  ![v3073.toNat]
def k0_off342 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c49_i32_275 : BitVec 32 := 49#32
  let v679 : BitVec 32 := Scalar.addi v0 c49_i32_275
  let c0_i32_1282 : BitVec 32 := 0#32
  ![v679.toNat, v3074.toNat, 0]
def k0_cond114 (v681 : BitVec 32) : BitVec 1 :=
  let c0_i32_276 : BitVec 32 := 0#32
  let v682 : BitVec 1 := Scalar.cmpi .sgt v681 c0_i32_276
  let v683 : BitVec 32 := Scalar.extui v682
  let c0_i32_277 : BitVec 32 := 0#32
  let v684 : BitVec 1 := Scalar.cmpi .ne v683 c0_i32_277
  v684

def k0_chk114 (i : grid0.Coords) (v681 : BitVec 32) (v3074 : BitVec 32) : Prop :=
  (∀ (k0_h114 : k0_cond114 v681 = 1#1), ∀ a, (k0_off342 i v3074) a + S1x1x512.size a ≤ S1024x200x512.size a)
instance k0_chk114.dec : ∀ (i : grid0.Coords) (v681 : BitVec 32) (v3074 : BitVec 32), Decidable (k0_chk114 i v681 v3074) := fun i v681 v3074 => decidable_of_iff' _ (Iff.of_eq (k0_chk114.eq_1 i v681 v3074))
theorem k0_off342_inb : ∀ (i : grid0.Coords) (v681 : BitVec 32) (v3074 : BitVec 32) (k0_hw114 : k0_chk114 i v681 v3074), ∀ (k0_h114 : k0_cond114 v681 = 1#1), ∀ a, (k0_off342 i v3074) a + S1x1x512.size a ≤ S1024x200x512.size a := fun i v681 v3074 k0_hw114 k0_h114 => k0_hw114 k0_h114

def k0_off343 (i : grid0.Coords) : Fin 1 → Nat :=
  let arg0 : BitVec 32 := BitVec.ofNat 32 (i 0).val
  let c256_i32 : BitVec 32 := 256#32
  let v0 : BitVec 32 := Scalar.muli arg0 c256_i32
  let c50_i32_278 : BitVec 32 := 50#32
  let v685 : BitVec 32 := Scalar.addi v0 c50_i32_278
  let v686 : Index := Scalar.indexCast v685
  ![v686.toNat]
def k0_off344 (i : grid0.Coords) : Fin 1 → Nat :=
  let arg0 : BitVec 32 := BitVec.ofNat 32 (i 0).val
  let c256_i32 : BitVec 32 := 256#32
  let v0 : BitVec 32 := Scalar.muli arg0 c256_i32
  let c50_i32_278 : BitVec 32 := 50#32
  let v685 : BitVec 32 := Scalar.addi v0 c50_i32_278
  let v3073 : Index := Scalar.indexCast v685
  ![v3073.toNat]
def k0_off345 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c50_i32_278 : BitVec 32 := 50#32
  let v685 : BitVec 32 := Scalar.addi v0 c50_i32_278
  let c0_i32_1282 : BitVec 32 := 0#32
  ![v685.toNat, v3074.toNat, 0]
def k0_cond115 (v687 : BitVec 32) : BitVec 1 :=
  let c0_i32_279 : BitVec 32 := 0#32
  let v688 : BitVec 1 := Scalar.cmpi .sgt v687 c0_i32_279
  let v689 : BitVec 32 := Scalar.extui v688
  let c0_i32_280 : BitVec 32 := 0#32
  let v690 : BitVec 1 := Scalar.cmpi .ne v689 c0_i32_280
  v690

def k0_chk115 (i : grid0.Coords) (v687 : BitVec 32) (v3074 : BitVec 32) : Prop :=
  (∀ (k0_h115 : k0_cond115 v687 = 1#1), ∀ a, (k0_off345 i v3074) a + S1x1x512.size a ≤ S1024x200x512.size a)
instance k0_chk115.dec : ∀ (i : grid0.Coords) (v687 : BitVec 32) (v3074 : BitVec 32), Decidable (k0_chk115 i v687 v3074) := fun i v687 v3074 => decidable_of_iff' _ (Iff.of_eq (k0_chk115.eq_1 i v687 v3074))
theorem k0_off345_inb : ∀ (i : grid0.Coords) (v687 : BitVec 32) (v3074 : BitVec 32) (k0_hw115 : k0_chk115 i v687 v3074), ∀ (k0_h115 : k0_cond115 v687 = 1#1), ∀ a, (k0_off345 i v3074) a + S1x1x512.size a ≤ S1024x200x512.size a := fun i v687 v3074 k0_hw115 k0_h115 => k0_hw115 k0_h115

def k0_off346 (i : grid0.Coords) : Fin 1 → Nat :=
  let arg0 : BitVec 32 := BitVec.ofNat 32 (i 0).val
  let c256_i32 : BitVec 32 := 256#32
  let v0 : BitVec 32 := Scalar.muli arg0 c256_i32
  let c51_i32_281 : BitVec 32 := 51#32
  let v691 : BitVec 32 := Scalar.addi v0 c51_i32_281
  let v692 : Index := Scalar.indexCast v691
  ![v692.toNat]
def k0_off347 (i : grid0.Coords) : Fin 1 → Nat :=
  let arg0 : BitVec 32 := BitVec.ofNat 32 (i 0).val
  let c256_i32 : BitVec 32 := 256#32
  let v0 : BitVec 32 := Scalar.muli arg0 c256_i32
  let c51_i32_281 : BitVec 32 := 51#32
  let v691 : BitVec 32 := Scalar.addi v0 c51_i32_281
  let v3073 : Index := Scalar.indexCast v691
  ![v3073.toNat]
def k0_off348 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c51_i32_281 : BitVec 32 := 51#32
  let v691 : BitVec 32 := Scalar.addi v0 c51_i32_281
  let c0_i32_1282 : BitVec 32 := 0#32
  ![v691.toNat, v3074.toNat, 0]
def k0_cond116 (v693 : BitVec 32) : BitVec 1 :=
  let c0_i32_282 : BitVec 32 := 0#32
  let v694 : BitVec 1 := Scalar.cmpi .sgt v693 c0_i32_282
  let v695 : BitVec 32 := Scalar.extui v694
  let c0_i32_283 : BitVec 32 := 0#32
  let v696 : BitVec 1 := Scalar.cmpi .ne v695 c0_i32_283
  v696

def k0_chk116 (i : grid0.Coords) (v693 : BitVec 32) (v3074 : BitVec 32) : Prop :=
  (∀ (k0_h116 : k0_cond116 v693 = 1#1), ∀ a, (k0_off348 i v3074) a + S1x1x512.size a ≤ S1024x200x512.size a)
instance k0_chk116.dec : ∀ (i : grid0.Coords) (v693 : BitVec 32) (v3074 : BitVec 32), Decidable (k0_chk116 i v693 v3074) := fun i v693 v3074 => decidable_of_iff' _ (Iff.of_eq (k0_chk116.eq_1 i v693 v3074))
theorem k0_off348_inb : ∀ (i : grid0.Coords) (v693 : BitVec 32) (v3074 : BitVec 32) (k0_hw116 : k0_chk116 i v693 v3074), ∀ (k0_h116 : k0_cond116 v693 = 1#1), ∀ a, (k0_off348 i v3074) a + S1x1x512.size a ≤ S1024x200x512.size a := fun i v693 v3074 k0_hw116 k0_h116 => k0_hw116 k0_h116

def k0_off349 (i : grid0.Coords) : Fin 1 → Nat :=
  let arg0 : BitVec 32 := BitVec.ofNat 32 (i 0).val
  let c256_i32 : BitVec 32 := 256#32
  let v0 : BitVec 32 := Scalar.muli arg0 c256_i32
  let c52_i32_284 : BitVec 32 := 52#32
  let v697 : BitVec 32 := Scalar.addi v0 c52_i32_284
  let v698 : Index := Scalar.indexCast v697
  ![v698.toNat]
def k0_off350 (i : grid0.Coords) : Fin 1 → Nat :=
  let arg0 : BitVec 32 := BitVec.ofNat 32 (i 0).val
  let c256_i32 : BitVec 32 := 256#32
  let v0 : BitVec 32 := Scalar.muli arg0 c256_i32
  let c52_i32_284 : BitVec 32 := 52#32
  let v697 : BitVec 32 := Scalar.addi v0 c52_i32_284
  let v3073 : Index := Scalar.indexCast v697
  ![v3073.toNat]
def k0_off351 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c52_i32_284 : BitVec 32 := 52#32
  let v697 : BitVec 32 := Scalar.addi v0 c52_i32_284
  let c0_i32_1282 : BitVec 32 := 0#32
  ![v697.toNat, v3074.toNat, 0]
def k0_cond117 (v699 : BitVec 32) : BitVec 1 :=
  let c0_i32_285 : BitVec 32 := 0#32
  let v700 : BitVec 1 := Scalar.cmpi .sgt v699 c0_i32_285
  let v701 : BitVec 32 := Scalar.extui v700
  let c0_i32_286 : BitVec 32 := 0#32
  let v702 : BitVec 1 := Scalar.cmpi .ne v701 c0_i32_286
  v702

def k0_chk117 (i : grid0.Coords) (v699 : BitVec 32) (v3074 : BitVec 32) : Prop :=
  (∀ (k0_h117 : k0_cond117 v699 = 1#1), ∀ a, (k0_off351 i v3074) a + S1x1x512.size a ≤ S1024x200x512.size a)
instance k0_chk117.dec : ∀ (i : grid0.Coords) (v699 : BitVec 32) (v3074 : BitVec 32), Decidable (k0_chk117 i v699 v3074) := fun i v699 v3074 => decidable_of_iff' _ (Iff.of_eq (k0_chk117.eq_1 i v699 v3074))
theorem k0_off351_inb : ∀ (i : grid0.Coords) (v699 : BitVec 32) (v3074 : BitVec 32) (k0_hw117 : k0_chk117 i v699 v3074), ∀ (k0_h117 : k0_cond117 v699 = 1#1), ∀ a, (k0_off351 i v3074) a + S1x1x512.size a ≤ S1024x200x512.size a := fun i v699 v3074 k0_hw117 k0_h117 => k0_hw117 k0_h117

def k0_off352 (i : grid0.Coords) : Fin 1 → Nat :=
  let arg0 : BitVec 32 := BitVec.ofNat 32 (i 0).val
  let c256_i32 : BitVec 32 := 256#32
  let v0 : BitVec 32 := Scalar.muli arg0 c256_i32
  let c53_i32_287 : BitVec 32 := 53#32
  let v703 : BitVec 32 := Scalar.addi v0 c53_i32_287
  let v704 : Index := Scalar.indexCast v703
  ![v704.toNat]
def k0_off353 (i : grid0.Coords) : Fin 1 → Nat :=
  let arg0 : BitVec 32 := BitVec.ofNat 32 (i 0).val
  let c256_i32 : BitVec 32 := 256#32
  let v0 : BitVec 32 := Scalar.muli arg0 c256_i32
  let c53_i32_287 : BitVec 32 := 53#32
  let v703 : BitVec 32 := Scalar.addi v0 c53_i32_287
  let v3073 : Index := Scalar.indexCast v703
  ![v3073.toNat]
def k0_off354 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c53_i32_287 : BitVec 32 := 53#32
  let v703 : BitVec 32 := Scalar.addi v0 c53_i32_287
  let c0_i32_1282 : BitVec 32 := 0#32
  ![v703.toNat, v3074.toNat, 0]
def k0_cond118 (v705 : BitVec 32) : BitVec 1 :=
  let c0_i32_288 : BitVec 32 := 0#32
  let v706 : BitVec 1 := Scalar.cmpi .sgt v705 c0_i32_288
  let v707 : BitVec 32 := Scalar.extui v706
  let c0_i32_289 : BitVec 32 := 0#32
  let v708 : BitVec 1 := Scalar.cmpi .ne v707 c0_i32_289
  v708

def k0_chk118 (i : grid0.Coords) (v705 : BitVec 32) (v3074 : BitVec 32) : Prop :=
  (∀ (k0_h118 : k0_cond118 v705 = 1#1), ∀ a, (k0_off354 i v3074) a + S1x1x512.size a ≤ S1024x200x512.size a)
instance k0_chk118.dec : ∀ (i : grid0.Coords) (v705 : BitVec 32) (v3074 : BitVec 32), Decidable (k0_chk118 i v705 v3074) := fun i v705 v3074 => decidable_of_iff' _ (Iff.of_eq (k0_chk118.eq_1 i v705 v3074))
theorem k0_off354_inb : ∀ (i : grid0.Coords) (v705 : BitVec 32) (v3074 : BitVec 32) (k0_hw118 : k0_chk118 i v705 v3074), ∀ (k0_h118 : k0_cond118 v705 = 1#1), ∀ a, (k0_off354 i v3074) a + S1x1x512.size a ≤ S1024x200x512.size a := fun i v705 v3074 k0_hw118 k0_h118 => k0_hw118 k0_h118

def k0_off355 (i : grid0.Coords) : Fin 1 → Nat :=
  let arg0 : BitVec 32 := BitVec.ofNat 32 (i 0).val
  let c256_i32 : BitVec 32 := 256#32
  let v0 : BitVec 32 := Scalar.muli arg0 c256_i32
  let c54_i32_290 : BitVec 32 := 54#32
  let v709 : BitVec 32 := Scalar.addi v0 c54_i32_290
  let v710 : Index := Scalar.indexCast v709
  ![v710.toNat]
def k0_off356 (i : grid0.Coords) : Fin 1 → Nat :=
  let arg0 : BitVec 32 := BitVec.ofNat 32 (i 0).val
  let c256_i32 : BitVec 32 := 256#32
  let v0 : BitVec 32 := Scalar.muli arg0 c256_i32
  let c54_i32_290 : BitVec 32 := 54#32
  let v709 : BitVec 32 := Scalar.addi v0 c54_i32_290
  let v3073 : Index := Scalar.indexCast v709
  ![v3073.toNat]
def k0_off357 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c54_i32_290 : BitVec 32 := 54#32
  let v709 : BitVec 32 := Scalar.addi v0 c54_i32_290
  let c0_i32_1282 : BitVec 32 := 0#32
  ![v709.toNat, v3074.toNat, 0]
def k0_cond119 (v711 : BitVec 32) : BitVec 1 :=
  let c0_i32_291 : BitVec 32 := 0#32
  let v712 : BitVec 1 := Scalar.cmpi .sgt v711 c0_i32_291
  let v713 : BitVec 32 := Scalar.extui v712
  let c0_i32_292 : BitVec 32 := 0#32
  let v714 : BitVec 1 := Scalar.cmpi .ne v713 c0_i32_292
  v714

def k0_chk119 (i : grid0.Coords) (v711 : BitVec 32) (v3074 : BitVec 32) : Prop :=
  (∀ (k0_h119 : k0_cond119 v711 = 1#1), ∀ a, (k0_off357 i v3074) a + S1x1x512.size a ≤ S1024x200x512.size a)
instance k0_chk119.dec : ∀ (i : grid0.Coords) (v711 : BitVec 32) (v3074 : BitVec 32), Decidable (k0_chk119 i v711 v3074) := fun i v711 v3074 => decidable_of_iff' _ (Iff.of_eq (k0_chk119.eq_1 i v711 v3074))
theorem k0_off357_inb : ∀ (i : grid0.Coords) (v711 : BitVec 32) (v3074 : BitVec 32) (k0_hw119 : k0_chk119 i v711 v3074), ∀ (k0_h119 : k0_cond119 v711 = 1#1), ∀ a, (k0_off357 i v3074) a + S1x1x512.size a ≤ S1024x200x512.size a := fun i v711 v3074 k0_hw119 k0_h119 => k0_hw119 k0_h119

def k0_off358 (i : grid0.Coords) : Fin 1 → Nat :=
  let arg0 : BitVec 32 := BitVec.ofNat 32 (i 0).val
  let c256_i32 : BitVec 32 := 256#32
  let v0 : BitVec 32 := Scalar.muli arg0 c256_i32
  let c55_i32_293 : BitVec 32 := 55#32
  let v715 : BitVec 32 := Scalar.addi v0 c55_i32_293
  let v716 : Index := Scalar.indexCast v715
  ![v716.toNat]
def k0_off359 (i : grid0.Coords) : Fin 1 → Nat :=
  let arg0 : BitVec 32 := BitVec.ofNat 32 (i 0).val
  let c256_i32 : BitVec 32 := 256#32
  let v0 : BitVec 32 := Scalar.muli arg0 c256_i32
  let c55_i32_293 : BitVec 32 := 55#32
  let v715 : BitVec 32 := Scalar.addi v0 c55_i32_293
  let v3073 : Index := Scalar.indexCast v715
  ![v3073.toNat]
def k0_off360 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c55_i32_293 : BitVec 32 := 55#32
  let v715 : BitVec 32 := Scalar.addi v0 c55_i32_293
  let c0_i32_1282 : BitVec 32 := 0#32
  ![v715.toNat, v3074.toNat, 0]
def k0_cond120 (v717 : BitVec 32) : BitVec 1 :=
  let c0_i32_294 : BitVec 32 := 0#32
  let v718 : BitVec 1 := Scalar.cmpi .sgt v717 c0_i32_294
  let v719 : BitVec 32 := Scalar.extui v718
  let c0_i32_295 : BitVec 32 := 0#32
  let v720 : BitVec 1 := Scalar.cmpi .ne v719 c0_i32_295
  v720

def k0_chk120 (i : grid0.Coords) (v717 : BitVec 32) (v3074 : BitVec 32) : Prop :=
  (∀ (k0_h120 : k0_cond120 v717 = 1#1), ∀ a, (k0_off360 i v3074) a + S1x1x512.size a ≤ S1024x200x512.size a)
instance k0_chk120.dec : ∀ (i : grid0.Coords) (v717 : BitVec 32) (v3074 : BitVec 32), Decidable (k0_chk120 i v717 v3074) := fun i v717 v3074 => decidable_of_iff' _ (Iff.of_eq (k0_chk120.eq_1 i v717 v3074))
theorem k0_off360_inb : ∀ (i : grid0.Coords) (v717 : BitVec 32) (v3074 : BitVec 32) (k0_hw120 : k0_chk120 i v717 v3074), ∀ (k0_h120 : k0_cond120 v717 = 1#1), ∀ a, (k0_off360 i v3074) a + S1x1x512.size a ≤ S1024x200x512.size a := fun i v717 v3074 k0_hw120 k0_h120 => k0_hw120 k0_h120

def k0_off361 (i : grid0.Coords) : Fin 1 → Nat :=
  let arg0 : BitVec 32 := BitVec.ofNat 32 (i 0).val
  let c256_i32 : BitVec 32 := 256#32
  let v0 : BitVec 32 := Scalar.muli arg0 c256_i32
  let c56_i32_296 : BitVec 32 := 56#32
  let v721 : BitVec 32 := Scalar.addi v0 c56_i32_296
  let v722 : Index := Scalar.indexCast v721
  ![v722.toNat]
def k0_off362 (i : grid0.Coords) : Fin 1 → Nat :=
  let arg0 : BitVec 32 := BitVec.ofNat 32 (i 0).val
  let c256_i32 : BitVec 32 := 256#32
  let v0 : BitVec 32 := Scalar.muli arg0 c256_i32
  let c56_i32_296 : BitVec 32 := 56#32
  let v721 : BitVec 32 := Scalar.addi v0 c56_i32_296
  let v3073 : Index := Scalar.indexCast v721
  ![v3073.toNat]
def k0_off363 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c56_i32_296 : BitVec 32 := 56#32
  let v721 : BitVec 32 := Scalar.addi v0 c56_i32_296
  let c0_i32_1282 : BitVec 32 := 0#32
  ![v721.toNat, v3074.toNat, 0]
def k0_cond121 (v723 : BitVec 32) : BitVec 1 :=
  let c0_i32_297 : BitVec 32 := 0#32
  let v724 : BitVec 1 := Scalar.cmpi .sgt v723 c0_i32_297
  let v725 : BitVec 32 := Scalar.extui v724
  let c0_i32_298 : BitVec 32 := 0#32
  let v726 : BitVec 1 := Scalar.cmpi .ne v725 c0_i32_298
  v726

def k0_chk121 (i : grid0.Coords) (v723 : BitVec 32) (v3074 : BitVec 32) : Prop :=
  (∀ (k0_h121 : k0_cond121 v723 = 1#1), ∀ a, (k0_off363 i v3074) a + S1x1x512.size a ≤ S1024x200x512.size a)
instance k0_chk121.dec : ∀ (i : grid0.Coords) (v723 : BitVec 32) (v3074 : BitVec 32), Decidable (k0_chk121 i v723 v3074) := fun i v723 v3074 => decidable_of_iff' _ (Iff.of_eq (k0_chk121.eq_1 i v723 v3074))
theorem k0_off363_inb : ∀ (i : grid0.Coords) (v723 : BitVec 32) (v3074 : BitVec 32) (k0_hw121 : k0_chk121 i v723 v3074), ∀ (k0_h121 : k0_cond121 v723 = 1#1), ∀ a, (k0_off363 i v3074) a + S1x1x512.size a ≤ S1024x200x512.size a := fun i v723 v3074 k0_hw121 k0_h121 => k0_hw121 k0_h121

def k0_off364 (i : grid0.Coords) : Fin 1 → Nat :=
  let arg0 : BitVec 32 := BitVec.ofNat 32 (i 0).val
  let c256_i32 : BitVec 32 := 256#32
  let v0 : BitVec 32 := Scalar.muli arg0 c256_i32
  let c57_i32_299 : BitVec 32 := 57#32
  let v727 : BitVec 32 := Scalar.addi v0 c57_i32_299
  let v728 : Index := Scalar.indexCast v727
  ![v728.toNat]
def k0_off365 (i : grid0.Coords) : Fin 1 → Nat :=
  let arg0 : BitVec 32 := BitVec.ofNat 32 (i 0).val
  let c256_i32 : BitVec 32 := 256#32
  let v0 : BitVec 32 := Scalar.muli arg0 c256_i32
  let c57_i32_299 : BitVec 32 := 57#32
  let v727 : BitVec 32 := Scalar.addi v0 c57_i32_299
  let v3073 : Index := Scalar.indexCast v727
  ![v3073.toNat]
def k0_off366 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c57_i32_299 : BitVec 32 := 57#32
  let v727 : BitVec 32 := Scalar.addi v0 c57_i32_299
  let c0_i32_1282 : BitVec 32 := 0#32
  ![v727.toNat, v3074.toNat, 0]
def k0_cond122 (v729 : BitVec 32) : BitVec 1 :=
  let c0_i32_300 : BitVec 32 := 0#32
  let v730 : BitVec 1 := Scalar.cmpi .sgt v729 c0_i32_300
  let v731 : BitVec 32 := Scalar.extui v730
  let c0_i32_301 : BitVec 32 := 0#32
  let v732 : BitVec 1 := Scalar.cmpi .ne v731 c0_i32_301
  v732

def k0_chk122 (i : grid0.Coords) (v729 : BitVec 32) (v3074 : BitVec 32) : Prop :=
  (∀ (k0_h122 : k0_cond122 v729 = 1#1), ∀ a, (k0_off366 i v3074) a + S1x1x512.size a ≤ S1024x200x512.size a)
instance k0_chk122.dec : ∀ (i : grid0.Coords) (v729 : BitVec 32) (v3074 : BitVec 32), Decidable (k0_chk122 i v729 v3074) := fun i v729 v3074 => decidable_of_iff' _ (Iff.of_eq (k0_chk122.eq_1 i v729 v3074))
theorem k0_off366_inb : ∀ (i : grid0.Coords) (v729 : BitVec 32) (v3074 : BitVec 32) (k0_hw122 : k0_chk122 i v729 v3074), ∀ (k0_h122 : k0_cond122 v729 = 1#1), ∀ a, (k0_off366 i v3074) a + S1x1x512.size a ≤ S1024x200x512.size a := fun i v729 v3074 k0_hw122 k0_h122 => k0_hw122 k0_h122

def k0_off367 (i : grid0.Coords) : Fin 1 → Nat :=
  let arg0 : BitVec 32 := BitVec.ofNat 32 (i 0).val
  let c256_i32 : BitVec 32 := 256#32
  let v0 : BitVec 32 := Scalar.muli arg0 c256_i32
  let c58_i32_302 : BitVec 32 := 58#32
  let v733 : BitVec 32 := Scalar.addi v0 c58_i32_302
  let v734 : Index := Scalar.indexCast v733
  ![v734.toNat]
def k0_off368 (i : grid0.Coords) : Fin 1 → Nat :=
  let arg0 : BitVec 32 := BitVec.ofNat 32 (i 0).val
  let c256_i32 : BitVec 32 := 256#32
  let v0 : BitVec 32 := Scalar.muli arg0 c256_i32
  let c58_i32_302 : BitVec 32 := 58#32
  let v733 : BitVec 32 := Scalar.addi v0 c58_i32_302
  let v3073 : Index := Scalar.indexCast v733
  ![v3073.toNat]
def k0_off369 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c58_i32_302 : BitVec 32 := 58#32
  let v733 : BitVec 32 := Scalar.addi v0 c58_i32_302
  let c0_i32_1282 : BitVec 32 := 0#32
  ![v733.toNat, v3074.toNat, 0]
def k0_cond123 (v735 : BitVec 32) : BitVec 1 :=
  let c0_i32_303 : BitVec 32 := 0#32
  let v736 : BitVec 1 := Scalar.cmpi .sgt v735 c0_i32_303
  let v737 : BitVec 32 := Scalar.extui v736
  let c0_i32_304 : BitVec 32 := 0#32
  let v738 : BitVec 1 := Scalar.cmpi .ne v737 c0_i32_304
  v738

def k0_chk123 (i : grid0.Coords) (v735 : BitVec 32) (v3074 : BitVec 32) : Prop :=
  (∀ (k0_h123 : k0_cond123 v735 = 1#1), ∀ a, (k0_off369 i v3074) a + S1x1x512.size a ≤ S1024x200x512.size a)
instance k0_chk123.dec : ∀ (i : grid0.Coords) (v735 : BitVec 32) (v3074 : BitVec 32), Decidable (k0_chk123 i v735 v3074) := fun i v735 v3074 => decidable_of_iff' _ (Iff.of_eq (k0_chk123.eq_1 i v735 v3074))
theorem k0_off369_inb : ∀ (i : grid0.Coords) (v735 : BitVec 32) (v3074 : BitVec 32) (k0_hw123 : k0_chk123 i v735 v3074), ∀ (k0_h123 : k0_cond123 v735 = 1#1), ∀ a, (k0_off369 i v3074) a + S1x1x512.size a ≤ S1024x200x512.size a := fun i v735 v3074 k0_hw123 k0_h123 => k0_hw123 k0_h123

def k0_off370 (i : grid0.Coords) : Fin 1 → Nat :=
  let arg0 : BitVec 32 := BitVec.ofNat 32 (i 0).val
  let c256_i32 : BitVec 32 := 256#32
  let v0 : BitVec 32 := Scalar.muli arg0 c256_i32
  let c59_i32_305 : BitVec 32 := 59#32
  let v739 : BitVec 32 := Scalar.addi v0 c59_i32_305
  let v740 : Index := Scalar.indexCast v739
  ![v740.toNat]
def k0_off371 (i : grid0.Coords) : Fin 1 → Nat :=
  let arg0 : BitVec 32 := BitVec.ofNat 32 (i 0).val
  let c256_i32 : BitVec 32 := 256#32
  let v0 : BitVec 32 := Scalar.muli arg0 c256_i32
  let c59_i32_305 : BitVec 32 := 59#32
  let v739 : BitVec 32 := Scalar.addi v0 c59_i32_305
  let v3073 : Index := Scalar.indexCast v739
  ![v3073.toNat]
def k0_off372 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c59_i32_305 : BitVec 32 := 59#32
  let v739 : BitVec 32 := Scalar.addi v0 c59_i32_305
  let c0_i32_1282 : BitVec 32 := 0#32
  ![v739.toNat, v3074.toNat, 0]
def k0_cond124 (v741 : BitVec 32) : BitVec 1 :=
  let c0_i32_306 : BitVec 32 := 0#32
  let v742 : BitVec 1 := Scalar.cmpi .sgt v741 c0_i32_306
  let v743 : BitVec 32 := Scalar.extui v742
  let c0_i32_307 : BitVec 32 := 0#32
  let v744 : BitVec 1 := Scalar.cmpi .ne v743 c0_i32_307
  v744

def k0_chk124 (i : grid0.Coords) (v741 : BitVec 32) (v3074 : BitVec 32) : Prop :=
  (∀ (k0_h124 : k0_cond124 v741 = 1#1), ∀ a, (k0_off372 i v3074) a + S1x1x512.size a ≤ S1024x200x512.size a)
instance k0_chk124.dec : ∀ (i : grid0.Coords) (v741 : BitVec 32) (v3074 : BitVec 32), Decidable (k0_chk124 i v741 v3074) := fun i v741 v3074 => decidable_of_iff' _ (Iff.of_eq (k0_chk124.eq_1 i v741 v3074))
theorem k0_off372_inb : ∀ (i : grid0.Coords) (v741 : BitVec 32) (v3074 : BitVec 32) (k0_hw124 : k0_chk124 i v741 v3074), ∀ (k0_h124 : k0_cond124 v741 = 1#1), ∀ a, (k0_off372 i v3074) a + S1x1x512.size a ≤ S1024x200x512.size a := fun i v741 v3074 k0_hw124 k0_h124 => k0_hw124 k0_h124

def k0_off373 (i : grid0.Coords) : Fin 1 → Nat :=
  let arg0 : BitVec 32 := BitVec.ofNat 32 (i 0).val
  let c256_i32 : BitVec 32 := 256#32
  let v0 : BitVec 32 := Scalar.muli arg0 c256_i32
  let c60_i32_308 : BitVec 32 := 60#32
  let v745 : BitVec 32 := Scalar.addi v0 c60_i32_308
  let v746 : Index := Scalar.indexCast v745
  ![v746.toNat]
def k0_off374 (i : grid0.Coords) : Fin 1 → Nat :=
  let arg0 : BitVec 32 := BitVec.ofNat 32 (i 0).val
  let c256_i32 : BitVec 32 := 256#32
  let v0 : BitVec 32 := Scalar.muli arg0 c256_i32
  let c60_i32_308 : BitVec 32 := 60#32
  let v745 : BitVec 32 := Scalar.addi v0 c60_i32_308
  let v3073 : Index := Scalar.indexCast v745
  ![v3073.toNat]
def k0_off375 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c60_i32_308 : BitVec 32 := 60#32
  let v745 : BitVec 32 := Scalar.addi v0 c60_i32_308
  let c0_i32_1282 : BitVec 32 := 0#32
  ![v745.toNat, v3074.toNat, 0]
def k0_cond125 (v747 : BitVec 32) : BitVec 1 :=
  let c0_i32_309 : BitVec 32 := 0#32
  let v748 : BitVec 1 := Scalar.cmpi .sgt v747 c0_i32_309
  let v749 : BitVec 32 := Scalar.extui v748
  let c0_i32_310 : BitVec 32 := 0#32
  let v750 : BitVec 1 := Scalar.cmpi .ne v749 c0_i32_310
  v750

def k0_chk125 (i : grid0.Coords) (v747 : BitVec 32) (v3074 : BitVec 32) : Prop :=
  (∀ (k0_h125 : k0_cond125 v747 = 1#1), ∀ a, (k0_off375 i v3074) a + S1x1x512.size a ≤ S1024x200x512.size a)
instance k0_chk125.dec : ∀ (i : grid0.Coords) (v747 : BitVec 32) (v3074 : BitVec 32), Decidable (k0_chk125 i v747 v3074) := fun i v747 v3074 => decidable_of_iff' _ (Iff.of_eq (k0_chk125.eq_1 i v747 v3074))
theorem k0_off375_inb : ∀ (i : grid0.Coords) (v747 : BitVec 32) (v3074 : BitVec 32) (k0_hw125 : k0_chk125 i v747 v3074), ∀ (k0_h125 : k0_cond125 v747 = 1#1), ∀ a, (k0_off375 i v3074) a + S1x1x512.size a ≤ S1024x200x512.size a := fun i v747 v3074 k0_hw125 k0_h125 => k0_hw125 k0_h125

def k0_off376 (i : grid0.Coords) : Fin 1 → Nat :=
  let arg0 : BitVec 32 := BitVec.ofNat 32 (i 0).val
  let c256_i32 : BitVec 32 := 256#32
  let v0 : BitVec 32 := Scalar.muli arg0 c256_i32
  let c61_i32_311 : BitVec 32 := 61#32
  let v751 : BitVec 32 := Scalar.addi v0 c61_i32_311
  let v752 : Index := Scalar.indexCast v751
  ![v752.toNat]
def k0_off377 (i : grid0.Coords) : Fin 1 → Nat :=
  let arg0 : BitVec 32 := BitVec.ofNat 32 (i 0).val
  let c256_i32 : BitVec 32 := 256#32
  let v0 : BitVec 32 := Scalar.muli arg0 c256_i32
  let c61_i32_311 : BitVec 32 := 61#32
  let v751 : BitVec 32 := Scalar.addi v0 c61_i32_311
  let v3073 : Index := Scalar.indexCast v751
  ![v3073.toNat]
def k0_off378 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c61_i32_311 : BitVec 32 := 61#32
  let v751 : BitVec 32 := Scalar.addi v0 c61_i32_311
  let c0_i32_1282 : BitVec 32 := 0#32
  ![v751.toNat, v3074.toNat, 0]
def k0_cond126 (v753 : BitVec 32) : BitVec 1 :=
  let c0_i32_312 : BitVec 32 := 0#32
  let v754 : BitVec 1 := Scalar.cmpi .sgt v753 c0_i32_312
  let v755 : BitVec 32 := Scalar.extui v754
  let c0_i32_313 : BitVec 32 := 0#32
  let v756 : BitVec 1 := Scalar.cmpi .ne v755 c0_i32_313
  v756

def k0_chk126 (i : grid0.Coords) (v753 : BitVec 32) (v3074 : BitVec 32) : Prop :=
  (∀ (k0_h126 : k0_cond126 v753 = 1#1), ∀ a, (k0_off378 i v3074) a + S1x1x512.size a ≤ S1024x200x512.size a)
instance k0_chk126.dec : ∀ (i : grid0.Coords) (v753 : BitVec 32) (v3074 : BitVec 32), Decidable (k0_chk126 i v753 v3074) := fun i v753 v3074 => decidable_of_iff' _ (Iff.of_eq (k0_chk126.eq_1 i v753 v3074))
theorem k0_off378_inb : ∀ (i : grid0.Coords) (v753 : BitVec 32) (v3074 : BitVec 32) (k0_hw126 : k0_chk126 i v753 v3074), ∀ (k0_h126 : k0_cond126 v753 = 1#1), ∀ a, (k0_off378 i v3074) a + S1x1x512.size a ≤ S1024x200x512.size a := fun i v753 v3074 k0_hw126 k0_h126 => k0_hw126 k0_h126

def k0_off379 (i : grid0.Coords) : Fin 1 → Nat :=
  let arg0 : BitVec 32 := BitVec.ofNat 32 (i 0).val
  let c256_i32 : BitVec 32 := 256#32
  let v0 : BitVec 32 := Scalar.muli arg0 c256_i32
  let c62_i32_314 : BitVec 32 := 62#32
  let v757 : BitVec 32 := Scalar.addi v0 c62_i32_314
  let v758 : Index := Scalar.indexCast v757
  ![v758.toNat]
def k0_off380 (i : grid0.Coords) : Fin 1 → Nat :=
  let arg0 : BitVec 32 := BitVec.ofNat 32 (i 0).val
  let c256_i32 : BitVec 32 := 256#32
  let v0 : BitVec 32 := Scalar.muli arg0 c256_i32
  let c62_i32_314 : BitVec 32 := 62#32
  let v757 : BitVec 32 := Scalar.addi v0 c62_i32_314
  let v3073 : Index := Scalar.indexCast v757
  ![v3073.toNat]
def k0_off381 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c62_i32_314 : BitVec 32 := 62#32
  let v757 : BitVec 32 := Scalar.addi v0 c62_i32_314
  let c0_i32_1282 : BitVec 32 := 0#32
  ![v757.toNat, v3074.toNat, 0]
def k0_cond127 (v759 : BitVec 32) : BitVec 1 :=
  let c0_i32_315 : BitVec 32 := 0#32
  let v760 : BitVec 1 := Scalar.cmpi .sgt v759 c0_i32_315
  let v761 : BitVec 32 := Scalar.extui v760
  let c0_i32_316 : BitVec 32 := 0#32
  let v762 : BitVec 1 := Scalar.cmpi .ne v761 c0_i32_316
  v762

def k0_chk127 (i : grid0.Coords) (v759 : BitVec 32) (v3074 : BitVec 32) : Prop :=
  (∀ (k0_h127 : k0_cond127 v759 = 1#1), ∀ a, (k0_off381 i v3074) a + S1x1x512.size a ≤ S1024x200x512.size a)
instance k0_chk127.dec : ∀ (i : grid0.Coords) (v759 : BitVec 32) (v3074 : BitVec 32), Decidable (k0_chk127 i v759 v3074) := fun i v759 v3074 => decidable_of_iff' _ (Iff.of_eq (k0_chk127.eq_1 i v759 v3074))
theorem k0_off381_inb : ∀ (i : grid0.Coords) (v759 : BitVec 32) (v3074 : BitVec 32) (k0_hw127 : k0_chk127 i v759 v3074), ∀ (k0_h127 : k0_cond127 v759 = 1#1), ∀ a, (k0_off381 i v3074) a + S1x1x512.size a ≤ S1024x200x512.size a := fun i v759 v3074 k0_hw127 k0_h127 => k0_hw127 k0_h127

def k0_off382 (i : grid0.Coords) : Fin 1 → Nat :=
  let arg0 : BitVec 32 := BitVec.ofNat 32 (i 0).val
  let c256_i32 : BitVec 32 := 256#32
  let v0 : BitVec 32 := Scalar.muli arg0 c256_i32
  let c63_i32_317 : BitVec 32 := 63#32
  let v763 : BitVec 32 := Scalar.addi v0 c63_i32_317
  let v764 : Index := Scalar.indexCast v763
  ![v764.toNat]
def k0_off383 (i : grid0.Coords) : Fin 1 → Nat :=
  let arg0 : BitVec 32 := BitVec.ofNat 32 (i 0).val
  let c256_i32 : BitVec 32 := 256#32
  let v0 : BitVec 32 := Scalar.muli arg0 c256_i32
  let c63_i32_317 : BitVec 32 := 63#32
  let v763 : BitVec 32 := Scalar.addi v0 c63_i32_317
  let v3073 : Index := Scalar.indexCast v763
  ![v3073.toNat]
def k0_off384 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c63_i32_317 : BitVec 32 := 63#32
  let v763 : BitVec 32 := Scalar.addi v0 c63_i32_317
  let c0_i32_1282 : BitVec 32 := 0#32
  ![v763.toNat, v3074.toNat, 0]
def k0_cond128 (v765 : BitVec 32) : BitVec 1 :=
  let c0_i32_318 : BitVec 32 := 0#32
  let v766 : BitVec 1 := Scalar.cmpi .sgt v765 c0_i32_318
  let v767 : BitVec 32 := Scalar.extui v766
  let c0_i32_319 : BitVec 32 := 0#32
  let v768 : BitVec 1 := Scalar.cmpi .ne v767 c0_i32_319
  v768

def k0_chk128 (i : grid0.Coords) (v765 : BitVec 32) (v3074 : BitVec 32) : Prop :=
  (∀ (k0_h128 : k0_cond128 v765 = 1#1), ∀ a, (k0_off384 i v3074) a + S1x1x512.size a ≤ S1024x200x512.size a)
instance k0_chk128.dec : ∀ (i : grid0.Coords) (v765 : BitVec 32) (v3074 : BitVec 32), Decidable (k0_chk128 i v765 v3074) := fun i v765 v3074 => decidable_of_iff' _ (Iff.of_eq (k0_chk128.eq_1 i v765 v3074))
theorem k0_off384_inb : ∀ (i : grid0.Coords) (v765 : BitVec 32) (v3074 : BitVec 32) (k0_hw128 : k0_chk128 i v765 v3074), ∀ (k0_h128 : k0_cond128 v765 = 1#1), ∀ a, (k0_off384 i v3074) a + S1x1x512.size a ≤ S1024x200x512.size a := fun i v765 v3074 k0_hw128 k0_h128 => k0_hw128 k0_h128

def k0_off385 (i : grid0.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v769 : BitVec 32 := Scalar.addi v0 c64_i32
  let v770 : Index := Scalar.indexCast v769
  ![v770.toNat]
def k0_off386 (i : grid0.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v769 : BitVec 32 := Scalar.addi v0 c64_i32
  let v3073 : Index := Scalar.indexCast v769
  ![v3073.toNat]
def k0_off387 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c64_i32 : BitVec 32 := 64#32
  let v769 : BitVec 32 := Scalar.addi v0 c64_i32
  let c0_i32_1287 : BitVec 32 := 0#32
  ![v769.toNat, v3074.toNat, 0]
def k0_cond129 (v771 : BitVec 32) : BitVec 1 :=
  let c0_i32_320 : BitVec 32 := 0#32
  let v772 : BitVec 1 := Scalar.cmpi .sgt v771 c0_i32_320
  let v773 : BitVec 32 := Scalar.extui v772
  let c0_i32_321 : BitVec 32 := 0#32
  let v774 : BitVec 1 := Scalar.cmpi .ne v773 c0_i32_321
  v774

def k0_chk129 (i : grid0.Coords) (v771 : BitVec 32) (v3074 : BitVec 32) : Prop :=
  (∀ (k0_h129 : k0_cond129 v771 = 1#1), ∀ a, (k0_off387 i v3074) a + S1x1x512.size a ≤ S1024x200x512.size a)
instance k0_chk129.dec : ∀ (i : grid0.Coords) (v771 : BitVec 32) (v3074 : BitVec 32), Decidable (k0_chk129 i v771 v3074) := fun i v771 v3074 => decidable_of_iff' _ (Iff.of_eq (k0_chk129.eq_1 i v771 v3074))
theorem k0_off387_inb : ∀ (i : grid0.Coords) (v771 : BitVec 32) (v3074 : BitVec 32) (k0_hw129 : k0_chk129 i v771 v3074), ∀ (k0_h129 : k0_cond129 v771 = 1#1), ∀ a, (k0_off387 i v3074) a + S1x1x512.size a ≤ S1024x200x512.size a := fun i v771 v3074 k0_hw129 k0_h129 => k0_hw129 k0_h129

def k0_off388 (i : grid0.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v775 : BitVec 32 := Scalar.addi v0 c65_i32
  let v776 : Index := Scalar.indexCast v775
  ![v776.toNat]
def k0_off389 (i : grid0.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v775 : BitVec 32 := Scalar.addi v0 c65_i32
  let v3073 : Index := Scalar.indexCast v775
  ![v3073.toNat]
def k0_off390 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c65_i32 : BitVec 32 := 65#32
  let v775 : BitVec 32 := Scalar.addi v0 c65_i32
  let c0_i32_1287 : BitVec 32 := 0#32
  ![v775.toNat, v3074.toNat, 0]
def k0_cond130 (v777 : BitVec 32) : BitVec 1 :=
  let c0_i32_322 : BitVec 32 := 0#32
  let v778 : BitVec 1 := Scalar.cmpi .sgt v777 c0_i32_322
  let v779 : BitVec 32 := Scalar.extui v778
  let c0_i32_323 : BitVec 32 := 0#32
  let v780 : BitVec 1 := Scalar.cmpi .ne v779 c0_i32_323
  v780

def k0_chk130 (i : grid0.Coords) (v777 : BitVec 32) (v3074 : BitVec 32) : Prop :=
  (∀ (k0_h130 : k0_cond130 v777 = 1#1), ∀ a, (k0_off390 i v3074) a + S1x1x512.size a ≤ S1024x200x512.size a)
instance k0_chk130.dec : ∀ (i : grid0.Coords) (v777 : BitVec 32) (v3074 : BitVec 32), Decidable (k0_chk130 i v777 v3074) := fun i v777 v3074 => decidable_of_iff' _ (Iff.of_eq (k0_chk130.eq_1 i v777 v3074))
theorem k0_off390_inb : ∀ (i : grid0.Coords) (v777 : BitVec 32) (v3074 : BitVec 32) (k0_hw130 : k0_chk130 i v777 v3074), ∀ (k0_h130 : k0_cond130 v777 = 1#1), ∀ a, (k0_off390 i v3074) a + S1x1x512.size a ≤ S1024x200x512.size a := fun i v777 v3074 k0_hw130 k0_h130 => k0_hw130 k0_h130

def k0_off391 (i : grid0.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v781 : BitVec 32 := Scalar.addi v0 c66_i32
  let v782 : Index := Scalar.indexCast v781
  ![v782.toNat]
def k0_off392 (i : grid0.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v781 : BitVec 32 := Scalar.addi v0 c66_i32
  let v3073 : Index := Scalar.indexCast v781
  ![v3073.toNat]
def k0_off393 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c66_i32 : BitVec 32 := 66#32
  let v781 : BitVec 32 := Scalar.addi v0 c66_i32
  let c0_i32_1287 : BitVec 32 := 0#32
  ![v781.toNat, v3074.toNat, 0]
def k0_cond131 (v783 : BitVec 32) : BitVec 1 :=
  let c0_i32_324 : BitVec 32 := 0#32
  let v784 : BitVec 1 := Scalar.cmpi .sgt v783 c0_i32_324
  let v785 : BitVec 32 := Scalar.extui v784
  let c0_i32_325 : BitVec 32 := 0#32
  let v786 : BitVec 1 := Scalar.cmpi .ne v785 c0_i32_325
  v786

def k0_chk131 (i : grid0.Coords) (v783 : BitVec 32) (v3074 : BitVec 32) : Prop :=
  (∀ (k0_h131 : k0_cond131 v783 = 1#1), ∀ a, (k0_off393 i v3074) a + S1x1x512.size a ≤ S1024x200x512.size a)
instance k0_chk131.dec : ∀ (i : grid0.Coords) (v783 : BitVec 32) (v3074 : BitVec 32), Decidable (k0_chk131 i v783 v3074) := fun i v783 v3074 => decidable_of_iff' _ (Iff.of_eq (k0_chk131.eq_1 i v783 v3074))
theorem k0_off393_inb : ∀ (i : grid0.Coords) (v783 : BitVec 32) (v3074 : BitVec 32) (k0_hw131 : k0_chk131 i v783 v3074), ∀ (k0_h131 : k0_cond131 v783 = 1#1), ∀ a, (k0_off393 i v3074) a + S1x1x512.size a ≤ S1024x200x512.size a := fun i v783 v3074 k0_hw131 k0_h131 => k0_hw131 k0_h131

def k0_off394 (i : grid0.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v787 : BitVec 32 := Scalar.addi v0 c67_i32
  let v788 : Index := Scalar.indexCast v787
  ![v788.toNat]
def k0_off395 (i : grid0.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v787 : BitVec 32 := Scalar.addi v0 c67_i32
  let v3073 : Index := Scalar.indexCast v787
  ![v3073.toNat]
def k0_off396 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c67_i32 : BitVec 32 := 67#32
  let v787 : BitVec 32 := Scalar.addi v0 c67_i32
  let c0_i32_1287 : BitVec 32 := 0#32
  ![v787.toNat, v3074.toNat, 0]
def k0_cond132 (v789 : BitVec 32) : BitVec 1 :=
  let c0_i32_326 : BitVec 32 := 0#32
  let v790 : BitVec 1 := Scalar.cmpi .sgt v789 c0_i32_326
  let v791 : BitVec 32 := Scalar.extui v790
  let c0_i32_327 : BitVec 32 := 0#32
  let v792 : BitVec 1 := Scalar.cmpi .ne v791 c0_i32_327
  v792

def k0_chk132 (i : grid0.Coords) (v789 : BitVec 32) (v3074 : BitVec 32) : Prop :=
  (∀ (k0_h132 : k0_cond132 v789 = 1#1), ∀ a, (k0_off396 i v3074) a + S1x1x512.size a ≤ S1024x200x512.size a)
instance k0_chk132.dec : ∀ (i : grid0.Coords) (v789 : BitVec 32) (v3074 : BitVec 32), Decidable (k0_chk132 i v789 v3074) := fun i v789 v3074 => decidable_of_iff' _ (Iff.of_eq (k0_chk132.eq_1 i v789 v3074))
theorem k0_off396_inb : ∀ (i : grid0.Coords) (v789 : BitVec 32) (v3074 : BitVec 32) (k0_hw132 : k0_chk132 i v789 v3074), ∀ (k0_h132 : k0_cond132 v789 = 1#1), ∀ a, (k0_off396 i v3074) a + S1x1x512.size a ≤ S1024x200x512.size a := fun i v789 v3074 k0_hw132 k0_h132 => k0_hw132 k0_h132

def k0_off397 (i : grid0.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v793 : BitVec 32 := Scalar.addi v0 c68_i32
  let v794 : Index := Scalar.indexCast v793
  ![v794.toNat]
def k0_off398 (i : grid0.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v793 : BitVec 32 := Scalar.addi v0 c68_i32
  let v3073 : Index := Scalar.indexCast v793
  ![v3073.toNat]
def k0_off399 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c68_i32 : BitVec 32 := 68#32
  let v793 : BitVec 32 := Scalar.addi v0 c68_i32
  let c0_i32_1287 : BitVec 32 := 0#32
  ![v793.toNat, v3074.toNat, 0]
def k0_cond133 (v795 : BitVec 32) : BitVec 1 :=
  let c0_i32_328 : BitVec 32 := 0#32
  let v796 : BitVec 1 := Scalar.cmpi .sgt v795 c0_i32_328
  let v797 : BitVec 32 := Scalar.extui v796
  let c0_i32_329 : BitVec 32 := 0#32
  let v798 : BitVec 1 := Scalar.cmpi .ne v797 c0_i32_329
  v798

def k0_chk133 (i : grid0.Coords) (v795 : BitVec 32) (v3074 : BitVec 32) : Prop :=
  (∀ (k0_h133 : k0_cond133 v795 = 1#1), ∀ a, (k0_off399 i v3074) a + S1x1x512.size a ≤ S1024x200x512.size a)
instance k0_chk133.dec : ∀ (i : grid0.Coords) (v795 : BitVec 32) (v3074 : BitVec 32), Decidable (k0_chk133 i v795 v3074) := fun i v795 v3074 => decidable_of_iff' _ (Iff.of_eq (k0_chk133.eq_1 i v795 v3074))
theorem k0_off399_inb : ∀ (i : grid0.Coords) (v795 : BitVec 32) (v3074 : BitVec 32) (k0_hw133 : k0_chk133 i v795 v3074), ∀ (k0_h133 : k0_cond133 v795 = 1#1), ∀ a, (k0_off399 i v3074) a + S1x1x512.size a ≤ S1024x200x512.size a := fun i v795 v3074 k0_hw133 k0_h133 => k0_hw133 k0_h133

def k0_off400 (i : grid0.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v799 : BitVec 32 := Scalar.addi v0 c69_i32
  let v800 : Index := Scalar.indexCast v799
  ![v800.toNat]
def k0_off401 (i : grid0.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v799 : BitVec 32 := Scalar.addi v0 c69_i32
  let v3073 : Index := Scalar.indexCast v799
  ![v3073.toNat]
def k0_off402 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c69_i32 : BitVec 32 := 69#32
  let v799 : BitVec 32 := Scalar.addi v0 c69_i32
  let c0_i32_1287 : BitVec 32 := 0#32
  ![v799.toNat, v3074.toNat, 0]
def k0_cond134 (v801 : BitVec 32) : BitVec 1 :=
  let c0_i32_330 : BitVec 32 := 0#32
  let v802 : BitVec 1 := Scalar.cmpi .sgt v801 c0_i32_330
  let v803 : BitVec 32 := Scalar.extui v802
  let c0_i32_331 : BitVec 32 := 0#32
  let v804 : BitVec 1 := Scalar.cmpi .ne v803 c0_i32_331
  v804

def k0_chk134 (i : grid0.Coords) (v801 : BitVec 32) (v3074 : BitVec 32) : Prop :=
  (∀ (k0_h134 : k0_cond134 v801 = 1#1), ∀ a, (k0_off402 i v3074) a + S1x1x512.size a ≤ S1024x200x512.size a)
instance k0_chk134.dec : ∀ (i : grid0.Coords) (v801 : BitVec 32) (v3074 : BitVec 32), Decidable (k0_chk134 i v801 v3074) := fun i v801 v3074 => decidable_of_iff' _ (Iff.of_eq (k0_chk134.eq_1 i v801 v3074))
theorem k0_off402_inb : ∀ (i : grid0.Coords) (v801 : BitVec 32) (v3074 : BitVec 32) (k0_hw134 : k0_chk134 i v801 v3074), ∀ (k0_h134 : k0_cond134 v801 = 1#1), ∀ a, (k0_off402 i v3074) a + S1x1x512.size a ≤ S1024x200x512.size a := fun i v801 v3074 k0_hw134 k0_h134 => k0_hw134 k0_h134

def k0_off403 (i : grid0.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v805 : BitVec 32 := Scalar.addi v0 c70_i32
  let v806 : Index := Scalar.indexCast v805
  ![v806.toNat]
def k0_off404 (i : grid0.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v805 : BitVec 32 := Scalar.addi v0 c70_i32
  let v3073 : Index := Scalar.indexCast v805
  ![v3073.toNat]
def k0_off405 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c70_i32 : BitVec 32 := 70#32
  let v805 : BitVec 32 := Scalar.addi v0 c70_i32
  let c0_i32_1287 : BitVec 32 := 0#32
  ![v805.toNat, v3074.toNat, 0]
def k0_cond135 (v807 : BitVec 32) : BitVec 1 :=
  let c0_i32_332 : BitVec 32 := 0#32
  let v808 : BitVec 1 := Scalar.cmpi .sgt v807 c0_i32_332
  let v809 : BitVec 32 := Scalar.extui v808
  let c0_i32_333 : BitVec 32 := 0#32
  let v810 : BitVec 1 := Scalar.cmpi .ne v809 c0_i32_333
  v810

def k0_chk135 (i : grid0.Coords) (v807 : BitVec 32) (v3074 : BitVec 32) : Prop :=
  (∀ (k0_h135 : k0_cond135 v807 = 1#1), ∀ a, (k0_off405 i v3074) a + S1x1x512.size a ≤ S1024x200x512.size a)
instance k0_chk135.dec : ∀ (i : grid0.Coords) (v807 : BitVec 32) (v3074 : BitVec 32), Decidable (k0_chk135 i v807 v3074) := fun i v807 v3074 => decidable_of_iff' _ (Iff.of_eq (k0_chk135.eq_1 i v807 v3074))
theorem k0_off405_inb : ∀ (i : grid0.Coords) (v807 : BitVec 32) (v3074 : BitVec 32) (k0_hw135 : k0_chk135 i v807 v3074), ∀ (k0_h135 : k0_cond135 v807 = 1#1), ∀ a, (k0_off405 i v3074) a + S1x1x512.size a ≤ S1024x200x512.size a := fun i v807 v3074 k0_hw135 k0_h135 => k0_hw135 k0_h135

def k0_off406 (i : grid0.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v811 : BitVec 32 := Scalar.addi v0 c71_i32
  let v812 : Index := Scalar.indexCast v811
  ![v812.toNat]
def k0_off407 (i : grid0.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v811 : BitVec 32 := Scalar.addi v0 c71_i32
  let v3073 : Index := Scalar.indexCast v811
  ![v3073.toNat]
def k0_off408 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c71_i32 : BitVec 32 := 71#32
  let v811 : BitVec 32 := Scalar.addi v0 c71_i32
  let c0_i32_1287 : BitVec 32 := 0#32
  ![v811.toNat, v3074.toNat, 0]
def k0_cond136 (v813 : BitVec 32) : BitVec 1 :=
  let c0_i32_334 : BitVec 32 := 0#32
  let v814 : BitVec 1 := Scalar.cmpi .sgt v813 c0_i32_334
  let v815 : BitVec 32 := Scalar.extui v814
  let c0_i32_335 : BitVec 32 := 0#32
  let v816 : BitVec 1 := Scalar.cmpi .ne v815 c0_i32_335
  v816

def k0_chk136 (i : grid0.Coords) (v813 : BitVec 32) (v3074 : BitVec 32) : Prop :=
  (∀ (k0_h136 : k0_cond136 v813 = 1#1), ∀ a, (k0_off408 i v3074) a + S1x1x512.size a ≤ S1024x200x512.size a)
instance k0_chk136.dec : ∀ (i : grid0.Coords) (v813 : BitVec 32) (v3074 : BitVec 32), Decidable (k0_chk136 i v813 v3074) := fun i v813 v3074 => decidable_of_iff' _ (Iff.of_eq (k0_chk136.eq_1 i v813 v3074))
theorem k0_off408_inb : ∀ (i : grid0.Coords) (v813 : BitVec 32) (v3074 : BitVec 32) (k0_hw136 : k0_chk136 i v813 v3074), ∀ (k0_h136 : k0_cond136 v813 = 1#1), ∀ a, (k0_off408 i v3074) a + S1x1x512.size a ≤ S1024x200x512.size a := fun i v813 v3074 k0_hw136 k0_h136 => k0_hw136 k0_h136

def k0_off409 (i : grid0.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v817 : BitVec 32 := Scalar.addi v0 c72_i32
  let v818 : Index := Scalar.indexCast v817
  ![v818.toNat]
def k0_off410 (i : grid0.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v817 : BitVec 32 := Scalar.addi v0 c72_i32
  let v3073 : Index := Scalar.indexCast v817
  ![v3073.toNat]
def k0_off411 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c72_i32 : BitVec 32 := 72#32
  let v817 : BitVec 32 := Scalar.addi v0 c72_i32
  let c0_i32_1287 : BitVec 32 := 0#32
  ![v817.toNat, v3074.toNat, 0]
def k0_cond137 (v819 : BitVec 32) : BitVec 1 :=
  let c0_i32_336 : BitVec 32 := 0#32
  let v820 : BitVec 1 := Scalar.cmpi .sgt v819 c0_i32_336
  let v821 : BitVec 32 := Scalar.extui v820
  let c0_i32_337 : BitVec 32 := 0#32
  let v822 : BitVec 1 := Scalar.cmpi .ne v821 c0_i32_337
  v822

def k0_chk137 (i : grid0.Coords) (v819 : BitVec 32) (v3074 : BitVec 32) : Prop :=
  (∀ (k0_h137 : k0_cond137 v819 = 1#1), ∀ a, (k0_off411 i v3074) a + S1x1x512.size a ≤ S1024x200x512.size a)
instance k0_chk137.dec : ∀ (i : grid0.Coords) (v819 : BitVec 32) (v3074 : BitVec 32), Decidable (k0_chk137 i v819 v3074) := fun i v819 v3074 => decidable_of_iff' _ (Iff.of_eq (k0_chk137.eq_1 i v819 v3074))
theorem k0_off411_inb : ∀ (i : grid0.Coords) (v819 : BitVec 32) (v3074 : BitVec 32) (k0_hw137 : k0_chk137 i v819 v3074), ∀ (k0_h137 : k0_cond137 v819 = 1#1), ∀ a, (k0_off411 i v3074) a + S1x1x512.size a ≤ S1024x200x512.size a := fun i v819 v3074 k0_hw137 k0_h137 => k0_hw137 k0_h137

def k0_off412 (i : grid0.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v823 : BitVec 32 := Scalar.addi v0 c73_i32
  let v824 : Index := Scalar.indexCast v823
  ![v824.toNat]
def k0_off413 (i : grid0.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v823 : BitVec 32 := Scalar.addi v0 c73_i32
  let v3073 : Index := Scalar.indexCast v823
  ![v3073.toNat]
def k0_off414 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c73_i32 : BitVec 32 := 73#32
  let v823 : BitVec 32 := Scalar.addi v0 c73_i32
  let c0_i32_1287 : BitVec 32 := 0#32
  ![v823.toNat, v3074.toNat, 0]
def k0_cond138 (v825 : BitVec 32) : BitVec 1 :=
  let c0_i32_338 : BitVec 32 := 0#32
  let v826 : BitVec 1 := Scalar.cmpi .sgt v825 c0_i32_338
  let v827 : BitVec 32 := Scalar.extui v826
  let c0_i32_339 : BitVec 32 := 0#32
  let v828 : BitVec 1 := Scalar.cmpi .ne v827 c0_i32_339
  v828

def k0_chk138 (i : grid0.Coords) (v825 : BitVec 32) (v3074 : BitVec 32) : Prop :=
  (∀ (k0_h138 : k0_cond138 v825 = 1#1), ∀ a, (k0_off414 i v3074) a + S1x1x512.size a ≤ S1024x200x512.size a)
instance k0_chk138.dec : ∀ (i : grid0.Coords) (v825 : BitVec 32) (v3074 : BitVec 32), Decidable (k0_chk138 i v825 v3074) := fun i v825 v3074 => decidable_of_iff' _ (Iff.of_eq (k0_chk138.eq_1 i v825 v3074))
theorem k0_off414_inb : ∀ (i : grid0.Coords) (v825 : BitVec 32) (v3074 : BitVec 32) (k0_hw138 : k0_chk138 i v825 v3074), ∀ (k0_h138 : k0_cond138 v825 = 1#1), ∀ a, (k0_off414 i v3074) a + S1x1x512.size a ≤ S1024x200x512.size a := fun i v825 v3074 k0_hw138 k0_h138 => k0_hw138 k0_h138

def k0_off415 (i : grid0.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v829 : BitVec 32 := Scalar.addi v0 c74_i32
  let v830 : Index := Scalar.indexCast v829
  ![v830.toNat]
def k0_off416 (i : grid0.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v829 : BitVec 32 := Scalar.addi v0 c74_i32
  let v3073 : Index := Scalar.indexCast v829
  ![v3073.toNat]
def k0_off417 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c74_i32 : BitVec 32 := 74#32
  let v829 : BitVec 32 := Scalar.addi v0 c74_i32
  let c0_i32_1287 : BitVec 32 := 0#32
  ![v829.toNat, v3074.toNat, 0]
def k0_cond139 (v831 : BitVec 32) : BitVec 1 :=
  let c0_i32_340 : BitVec 32 := 0#32
  let v832 : BitVec 1 := Scalar.cmpi .sgt v831 c0_i32_340
  let v833 : BitVec 32 := Scalar.extui v832
  let c0_i32_341 : BitVec 32 := 0#32
  let v834 : BitVec 1 := Scalar.cmpi .ne v833 c0_i32_341
  v834

def k0_chk139 (i : grid0.Coords) (v831 : BitVec 32) (v3074 : BitVec 32) : Prop :=
  (∀ (k0_h139 : k0_cond139 v831 = 1#1), ∀ a, (k0_off417 i v3074) a + S1x1x512.size a ≤ S1024x200x512.size a)
instance k0_chk139.dec : ∀ (i : grid0.Coords) (v831 : BitVec 32) (v3074 : BitVec 32), Decidable (k0_chk139 i v831 v3074) := fun i v831 v3074 => decidable_of_iff' _ (Iff.of_eq (k0_chk139.eq_1 i v831 v3074))
theorem k0_off417_inb : ∀ (i : grid0.Coords) (v831 : BitVec 32) (v3074 : BitVec 32) (k0_hw139 : k0_chk139 i v831 v3074), ∀ (k0_h139 : k0_cond139 v831 = 1#1), ∀ a, (k0_off417 i v3074) a + S1x1x512.size a ≤ S1024x200x512.size a := fun i v831 v3074 k0_hw139 k0_h139 => k0_hw139 k0_h139

def k0_off418 (i : grid0.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v835 : BitVec 32 := Scalar.addi v0 c75_i32
  let v836 : Index := Scalar.indexCast v835
  ![v836.toNat]
def k0_off419 (i : grid0.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v835 : BitVec 32 := Scalar.addi v0 c75_i32
  let v3073 : Index := Scalar.indexCast v835
  ![v3073.toNat]
def k0_off420 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c75_i32 : BitVec 32 := 75#32
  let v835 : BitVec 32 := Scalar.addi v0 c75_i32
  let c0_i32_1287 : BitVec 32 := 0#32
  ![v835.toNat, v3074.toNat, 0]
def k0_cond140 (v837 : BitVec 32) : BitVec 1 :=
  let c0_i32_342 : BitVec 32 := 0#32
  let v838 : BitVec 1 := Scalar.cmpi .sgt v837 c0_i32_342
  let v839 : BitVec 32 := Scalar.extui v838
  let c0_i32_343 : BitVec 32 := 0#32
  let v840 : BitVec 1 := Scalar.cmpi .ne v839 c0_i32_343
  v840

def k0_chk140 (i : grid0.Coords) (v837 : BitVec 32) (v3074 : BitVec 32) : Prop :=
  (∀ (k0_h140 : k0_cond140 v837 = 1#1), ∀ a, (k0_off420 i v3074) a + S1x1x512.size a ≤ S1024x200x512.size a)
instance k0_chk140.dec : ∀ (i : grid0.Coords) (v837 : BitVec 32) (v3074 : BitVec 32), Decidable (k0_chk140 i v837 v3074) := fun i v837 v3074 => decidable_of_iff' _ (Iff.of_eq (k0_chk140.eq_1 i v837 v3074))
theorem k0_off420_inb : ∀ (i : grid0.Coords) (v837 : BitVec 32) (v3074 : BitVec 32) (k0_hw140 : k0_chk140 i v837 v3074), ∀ (k0_h140 : k0_cond140 v837 = 1#1), ∀ a, (k0_off420 i v3074) a + S1x1x512.size a ≤ S1024x200x512.size a := fun i v837 v3074 k0_hw140 k0_h140 => k0_hw140 k0_h140

def k0_off421 (i : grid0.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v841 : BitVec 32 := Scalar.addi v0 c76_i32
  let v842 : Index := Scalar.indexCast v841
  ![v842.toNat]
def k0_off422 (i : grid0.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v841 : BitVec 32 := Scalar.addi v0 c76_i32
  let v3073 : Index := Scalar.indexCast v841
  ![v3073.toNat]
def k0_off423 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c76_i32 : BitVec 32 := 76#32
  let v841 : BitVec 32 := Scalar.addi v0 c76_i32
  let c0_i32_1287 : BitVec 32 := 0#32
  ![v841.toNat, v3074.toNat, 0]
def k0_cond141 (v843 : BitVec 32) : BitVec 1 :=
  let c0_i32_344 : BitVec 32 := 0#32
  let v844 : BitVec 1 := Scalar.cmpi .sgt v843 c0_i32_344
  let v845 : BitVec 32 := Scalar.extui v844
  let c0_i32_345 : BitVec 32 := 0#32
  let v846 : BitVec 1 := Scalar.cmpi .ne v845 c0_i32_345
  v846

def k0_chk141 (i : grid0.Coords) (v843 : BitVec 32) (v3074 : BitVec 32) : Prop :=
  (∀ (k0_h141 : k0_cond141 v843 = 1#1), ∀ a, (k0_off423 i v3074) a + S1x1x512.size a ≤ S1024x200x512.size a)
instance k0_chk141.dec : ∀ (i : grid0.Coords) (v843 : BitVec 32) (v3074 : BitVec 32), Decidable (k0_chk141 i v843 v3074) := fun i v843 v3074 => decidable_of_iff' _ (Iff.of_eq (k0_chk141.eq_1 i v843 v3074))
theorem k0_off423_inb : ∀ (i : grid0.Coords) (v843 : BitVec 32) (v3074 : BitVec 32) (k0_hw141 : k0_chk141 i v843 v3074), ∀ (k0_h141 : k0_cond141 v843 = 1#1), ∀ a, (k0_off423 i v3074) a + S1x1x512.size a ≤ S1024x200x512.size a := fun i v843 v3074 k0_hw141 k0_h141 => k0_hw141 k0_h141

def k0_off424 (i : grid0.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v847 : BitVec 32 := Scalar.addi v0 c77_i32
  let v848 : Index := Scalar.indexCast v847
  ![v848.toNat]
def k0_off425 (i : grid0.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v847 : BitVec 32 := Scalar.addi v0 c77_i32
  let v3073 : Index := Scalar.indexCast v847
  ![v3073.toNat]
def k0_off426 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c77_i32 : BitVec 32 := 77#32
  let v847 : BitVec 32 := Scalar.addi v0 c77_i32
  let c0_i32_1287 : BitVec 32 := 0#32
  ![v847.toNat, v3074.toNat, 0]
def k0_cond142 (v849 : BitVec 32) : BitVec 1 :=
  let c0_i32_346 : BitVec 32 := 0#32
  let v850 : BitVec 1 := Scalar.cmpi .sgt v849 c0_i32_346
  let v851 : BitVec 32 := Scalar.extui v850
  let c0_i32_347 : BitVec 32 := 0#32
  let v852 : BitVec 1 := Scalar.cmpi .ne v851 c0_i32_347
  v852

def k0_chk142 (i : grid0.Coords) (v849 : BitVec 32) (v3074 : BitVec 32) : Prop :=
  (∀ (k0_h142 : k0_cond142 v849 = 1#1), ∀ a, (k0_off426 i v3074) a + S1x1x512.size a ≤ S1024x200x512.size a)
instance k0_chk142.dec : ∀ (i : grid0.Coords) (v849 : BitVec 32) (v3074 : BitVec 32), Decidable (k0_chk142 i v849 v3074) := fun i v849 v3074 => decidable_of_iff' _ (Iff.of_eq (k0_chk142.eq_1 i v849 v3074))
theorem k0_off426_inb : ∀ (i : grid0.Coords) (v849 : BitVec 32) (v3074 : BitVec 32) (k0_hw142 : k0_chk142 i v849 v3074), ∀ (k0_h142 : k0_cond142 v849 = 1#1), ∀ a, (k0_off426 i v3074) a + S1x1x512.size a ≤ S1024x200x512.size a := fun i v849 v3074 k0_hw142 k0_h142 => k0_hw142 k0_h142

def k0_off427 (i : grid0.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v853 : BitVec 32 := Scalar.addi v0 c78_i32
  let v854 : Index := Scalar.indexCast v853
  ![v854.toNat]
def k0_off428 (i : grid0.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v853 : BitVec 32 := Scalar.addi v0 c78_i32
  let v3073 : Index := Scalar.indexCast v853
  ![v3073.toNat]
def k0_off429 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c78_i32 : BitVec 32 := 78#32
  let v853 : BitVec 32 := Scalar.addi v0 c78_i32
  let c0_i32_1287 : BitVec 32 := 0#32
  ![v853.toNat, v3074.toNat, 0]
def k0_cond143 (v855 : BitVec 32) : BitVec 1 :=
  let c0_i32_348 : BitVec 32 := 0#32
  let v856 : BitVec 1 := Scalar.cmpi .sgt v855 c0_i32_348
  let v857 : BitVec 32 := Scalar.extui v856
  let c0_i32_349 : BitVec 32 := 0#32
  let v858 : BitVec 1 := Scalar.cmpi .ne v857 c0_i32_349
  v858

def k0_chk143 (i : grid0.Coords) (v855 : BitVec 32) (v3074 : BitVec 32) : Prop :=
  (∀ (k0_h143 : k0_cond143 v855 = 1#1), ∀ a, (k0_off429 i v3074) a + S1x1x512.size a ≤ S1024x200x512.size a)
instance k0_chk143.dec : ∀ (i : grid0.Coords) (v855 : BitVec 32) (v3074 : BitVec 32), Decidable (k0_chk143 i v855 v3074) := fun i v855 v3074 => decidable_of_iff' _ (Iff.of_eq (k0_chk143.eq_1 i v855 v3074))
theorem k0_off429_inb : ∀ (i : grid0.Coords) (v855 : BitVec 32) (v3074 : BitVec 32) (k0_hw143 : k0_chk143 i v855 v3074), ∀ (k0_h143 : k0_cond143 v855 = 1#1), ∀ a, (k0_off429 i v3074) a + S1x1x512.size a ≤ S1024x200x512.size a := fun i v855 v3074 k0_hw143 k0_h143 => k0_hw143 k0_h143

def k0_off430 (i : grid0.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v859 : BitVec 32 := Scalar.addi v0 c79_i32
  let v860 : Index := Scalar.indexCast v859
  ![v860.toNat]
def k0_off431 (i : grid0.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v859 : BitVec 32 := Scalar.addi v0 c79_i32
  let v3073 : Index := Scalar.indexCast v859
  ![v3073.toNat]
def k0_off432 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c79_i32 : BitVec 32 := 79#32
  let v859 : BitVec 32 := Scalar.addi v0 c79_i32
  let c0_i32_1287 : BitVec 32 := 0#32
  ![v859.toNat, v3074.toNat, 0]
def k0_cond144 (v861 : BitVec 32) : BitVec 1 :=
  let c0_i32_350 : BitVec 32 := 0#32
  let v862 : BitVec 1 := Scalar.cmpi .sgt v861 c0_i32_350
  let v863 : BitVec 32 := Scalar.extui v862
  let c0_i32_351 : BitVec 32 := 0#32
  let v864 : BitVec 1 := Scalar.cmpi .ne v863 c0_i32_351
  v864

def k0_chk144 (i : grid0.Coords) (v861 : BitVec 32) (v3074 : BitVec 32) : Prop :=
  (∀ (k0_h144 : k0_cond144 v861 = 1#1), ∀ a, (k0_off432 i v3074) a + S1x1x512.size a ≤ S1024x200x512.size a)
instance k0_chk144.dec : ∀ (i : grid0.Coords) (v861 : BitVec 32) (v3074 : BitVec 32), Decidable (k0_chk144 i v861 v3074) := fun i v861 v3074 => decidable_of_iff' _ (Iff.of_eq (k0_chk144.eq_1 i v861 v3074))
theorem k0_off432_inb : ∀ (i : grid0.Coords) (v861 : BitVec 32) (v3074 : BitVec 32) (k0_hw144 : k0_chk144 i v861 v3074), ∀ (k0_h144 : k0_cond144 v861 = 1#1), ∀ a, (k0_off432 i v3074) a + S1x1x512.size a ≤ S1024x200x512.size a := fun i v861 v3074 k0_hw144 k0_h144 => k0_hw144 k0_h144

def k0_off433 (i : grid0.Coords) : Fin 1 → Nat :=
  let arg0 : BitVec 32 := BitVec.ofNat 32 (i 0).val
  let c256_i32 : BitVec 32 := 256#32
  let v0 : BitVec 32 := Scalar.muli arg0 c256_i32
  let c64_i32_352 : BitVec 32 := 64#32
  let v865 : BitVec 32 := Scalar.addi v0 c64_i32_352
  let v866 : Index := Scalar.indexCast v865
  ![v866.toNat]
def k0_off434 (i : grid0.Coords) : Fin 1 → Nat :=
  let arg0 : BitVec 32 := BitVec.ofNat 32 (i 0).val
  let c256_i32 : BitVec 32 := 256#32
  let v0 : BitVec 32 := Scalar.muli arg0 c256_i32
  let c64_i32_352 : BitVec 32 := 64#32
  let v865 : BitVec 32 := Scalar.addi v0 c64_i32_352
  let v3073 : Index := Scalar.indexCast v865
  ![v3073.toNat]
def k0_off435 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c64_i32_352 : BitVec 32 := 64#32
  let v865 : BitVec 32 := Scalar.addi v0 c64_i32_352
  let c0_i32_1282 : BitVec 32 := 0#32
  ![v865.toNat, v3074.toNat, 0]
def k0_cond145 (v867 : BitVec 32) : BitVec 1 :=
  let c0_i32_353 : BitVec 32 := 0#32
  let v868 : BitVec 1 := Scalar.cmpi .sgt v867 c0_i32_353
  let v869 : BitVec 32 := Scalar.extui v868
  let c0_i32_354 : BitVec 32 := 0#32
  let v870 : BitVec 1 := Scalar.cmpi .ne v869 c0_i32_354
  v870

def k0_chk145 (i : grid0.Coords) (v867 : BitVec 32) (v3074 : BitVec 32) : Prop :=
  (∀ (k0_h145 : k0_cond145 v867 = 1#1), ∀ a, (k0_off435 i v3074) a + S1x1x512.size a ≤ S1024x200x512.size a)
instance k0_chk145.dec : ∀ (i : grid0.Coords) (v867 : BitVec 32) (v3074 : BitVec 32), Decidable (k0_chk145 i v867 v3074) := fun i v867 v3074 => decidable_of_iff' _ (Iff.of_eq (k0_chk145.eq_1 i v867 v3074))
theorem k0_off435_inb : ∀ (i : grid0.Coords) (v867 : BitVec 32) (v3074 : BitVec 32) (k0_hw145 : k0_chk145 i v867 v3074), ∀ (k0_h145 : k0_cond145 v867 = 1#1), ∀ a, (k0_off435 i v3074) a + S1x1x512.size a ≤ S1024x200x512.size a := fun i v867 v3074 k0_hw145 k0_h145 => k0_hw145 k0_h145

def k0_off436 (i : grid0.Coords) : Fin 1 → Nat :=
  let arg0 : BitVec 32 := BitVec.ofNat 32 (i 0).val
  let c256_i32 : BitVec 32 := 256#32
  let v0 : BitVec 32 := Scalar.muli arg0 c256_i32
  let c65_i32_355 : BitVec 32 := 65#32
  let v871 : BitVec 32 := Scalar.addi v0 c65_i32_355
  let v872 : Index := Scalar.indexCast v871
  ![v872.toNat]
def k0_off437 (i : grid0.Coords) : Fin 1 → Nat :=
  let arg0 : BitVec 32 := BitVec.ofNat 32 (i 0).val
  let c256_i32 : BitVec 32 := 256#32
  let v0 : BitVec 32 := Scalar.muli arg0 c256_i32
  let c65_i32_355 : BitVec 32 := 65#32
  let v871 : BitVec 32 := Scalar.addi v0 c65_i32_355
  let v3073 : Index := Scalar.indexCast v871
  ![v3073.toNat]
def k0_off438 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c65_i32_355 : BitVec 32 := 65#32
  let v871 : BitVec 32 := Scalar.addi v0 c65_i32_355
  let c0_i32_1282 : BitVec 32 := 0#32
  ![v871.toNat, v3074.toNat, 0]
def k0_cond146 (v873 : BitVec 32) : BitVec 1 :=
  let c0_i32_356 : BitVec 32 := 0#32
  let v874 : BitVec 1 := Scalar.cmpi .sgt v873 c0_i32_356
  let v875 : BitVec 32 := Scalar.extui v874
  let c0_i32_357 : BitVec 32 := 0#32
  let v876 : BitVec 1 := Scalar.cmpi .ne v875 c0_i32_357
  v876

def k0_chk146 (i : grid0.Coords) (v873 : BitVec 32) (v3074 : BitVec 32) : Prop :=
  (∀ (k0_h146 : k0_cond146 v873 = 1#1), ∀ a, (k0_off438 i v3074) a + S1x1x512.size a ≤ S1024x200x512.size a)
instance k0_chk146.dec : ∀ (i : grid0.Coords) (v873 : BitVec 32) (v3074 : BitVec 32), Decidable (k0_chk146 i v873 v3074) := fun i v873 v3074 => decidable_of_iff' _ (Iff.of_eq (k0_chk146.eq_1 i v873 v3074))
theorem k0_off438_inb : ∀ (i : grid0.Coords) (v873 : BitVec 32) (v3074 : BitVec 32) (k0_hw146 : k0_chk146 i v873 v3074), ∀ (k0_h146 : k0_cond146 v873 = 1#1), ∀ a, (k0_off438 i v3074) a + S1x1x512.size a ≤ S1024x200x512.size a := fun i v873 v3074 k0_hw146 k0_h146 => k0_hw146 k0_h146

def k0_off439 (i : grid0.Coords) : Fin 1 → Nat :=
  let arg0 : BitVec 32 := BitVec.ofNat 32 (i 0).val
  let c256_i32 : BitVec 32 := 256#32
  let v0 : BitVec 32 := Scalar.muli arg0 c256_i32
  let c66_i32_358 : BitVec 32 := 66#32
  let v877 : BitVec 32 := Scalar.addi v0 c66_i32_358
  let v878 : Index := Scalar.indexCast v877
  ![v878.toNat]
def k0_off440 (i : grid0.Coords) : Fin 1 → Nat :=
  let arg0 : BitVec 32 := BitVec.ofNat 32 (i 0).val
  let c256_i32 : BitVec 32 := 256#32
  let v0 : BitVec 32 := Scalar.muli arg0 c256_i32
  let c66_i32_358 : BitVec 32 := 66#32
  let v877 : BitVec 32 := Scalar.addi v0 c66_i32_358
  let v3073 : Index := Scalar.indexCast v877
  ![v3073.toNat]
def k0_off441 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c66_i32_358 : BitVec 32 := 66#32
  let v877 : BitVec 32 := Scalar.addi v0 c66_i32_358
  let c0_i32_1282 : BitVec 32 := 0#32
  ![v877.toNat, v3074.toNat, 0]
def k0_cond147 (v879 : BitVec 32) : BitVec 1 :=
  let c0_i32_359 : BitVec 32 := 0#32
  let v880 : BitVec 1 := Scalar.cmpi .sgt v879 c0_i32_359
  let v881 : BitVec 32 := Scalar.extui v880
  let c0_i32_360 : BitVec 32 := 0#32
  let v882 : BitVec 1 := Scalar.cmpi .ne v881 c0_i32_360
  v882

def k0_chk147 (i : grid0.Coords) (v879 : BitVec 32) (v3074 : BitVec 32) : Prop :=
  (∀ (k0_h147 : k0_cond147 v879 = 1#1), ∀ a, (k0_off441 i v3074) a + S1x1x512.size a ≤ S1024x200x512.size a)
instance k0_chk147.dec : ∀ (i : grid0.Coords) (v879 : BitVec 32) (v3074 : BitVec 32), Decidable (k0_chk147 i v879 v3074) := fun i v879 v3074 => decidable_of_iff' _ (Iff.of_eq (k0_chk147.eq_1 i v879 v3074))
theorem k0_off441_inb : ∀ (i : grid0.Coords) (v879 : BitVec 32) (v3074 : BitVec 32) (k0_hw147 : k0_chk147 i v879 v3074), ∀ (k0_h147 : k0_cond147 v879 = 1#1), ∀ a, (k0_off441 i v3074) a + S1x1x512.size a ≤ S1024x200x512.size a := fun i v879 v3074 k0_hw147 k0_h147 => k0_hw147 k0_h147

def k0_off442 (i : grid0.Coords) : Fin 1 → Nat :=
  let arg0 : BitVec 32 := BitVec.ofNat 32 (i 0).val
  let c256_i32 : BitVec 32 := 256#32
  let v0 : BitVec 32 := Scalar.muli arg0 c256_i32
  let c67_i32_361 : BitVec 32 := 67#32
  let v883 : BitVec 32 := Scalar.addi v0 c67_i32_361
  let v884 : Index := Scalar.indexCast v883
  ![v884.toNat]
def k0_off443 (i : grid0.Coords) : Fin 1 → Nat :=
  let arg0 : BitVec 32 := BitVec.ofNat 32 (i 0).val
  let c256_i32 : BitVec 32 := 256#32
  let v0 : BitVec 32 := Scalar.muli arg0 c256_i32
  let c67_i32_361 : BitVec 32 := 67#32
  let v883 : BitVec 32 := Scalar.addi v0 c67_i32_361
  let v3073 : Index := Scalar.indexCast v883
  ![v3073.toNat]
def k0_off444 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c67_i32_361 : BitVec 32 := 67#32
  let v883 : BitVec 32 := Scalar.addi v0 c67_i32_361
  let c0_i32_1282 : BitVec 32 := 0#32
  ![v883.toNat, v3074.toNat, 0]
def k0_cond148 (v885 : BitVec 32) : BitVec 1 :=
  let c0_i32_362 : BitVec 32 := 0#32
  let v886 : BitVec 1 := Scalar.cmpi .sgt v885 c0_i32_362
  let v887 : BitVec 32 := Scalar.extui v886
  let c0_i32_363 : BitVec 32 := 0#32
  let v888 : BitVec 1 := Scalar.cmpi .ne v887 c0_i32_363
  v888

def k0_chk148 (i : grid0.Coords) (v885 : BitVec 32) (v3074 : BitVec 32) : Prop :=
  (∀ (k0_h148 : k0_cond148 v885 = 1#1), ∀ a, (k0_off444 i v3074) a + S1x1x512.size a ≤ S1024x200x512.size a)
instance k0_chk148.dec : ∀ (i : grid0.Coords) (v885 : BitVec 32) (v3074 : BitVec 32), Decidable (k0_chk148 i v885 v3074) := fun i v885 v3074 => decidable_of_iff' _ (Iff.of_eq (k0_chk148.eq_1 i v885 v3074))
theorem k0_off444_inb : ∀ (i : grid0.Coords) (v885 : BitVec 32) (v3074 : BitVec 32) (k0_hw148 : k0_chk148 i v885 v3074), ∀ (k0_h148 : k0_cond148 v885 = 1#1), ∀ a, (k0_off444 i v3074) a + S1x1x512.size a ≤ S1024x200x512.size a := fun i v885 v3074 k0_hw148 k0_h148 => k0_hw148 k0_h148

def k0_off445 (i : grid0.Coords) : Fin 1 → Nat :=
  let arg0 : BitVec 32 := BitVec.ofNat 32 (i 0).val
  let c256_i32 : BitVec 32 := 256#32
  let v0 : BitVec 32 := Scalar.muli arg0 c256_i32
  let c68_i32_364 : BitVec 32 := 68#32
  let v889 : BitVec 32 := Scalar.addi v0 c68_i32_364
  let v890 : Index := Scalar.indexCast v889
  ![v890.toNat]
def k0_off446 (i : grid0.Coords) : Fin 1 → Nat :=
  let arg0 : BitVec 32 := BitVec.ofNat 32 (i 0).val
  let c256_i32 : BitVec 32 := 256#32
  let v0 : BitVec 32 := Scalar.muli arg0 c256_i32
  let c68_i32_364 : BitVec 32 := 68#32
  let v889 : BitVec 32 := Scalar.addi v0 c68_i32_364
  let v3073 : Index := Scalar.indexCast v889
  ![v3073.toNat]
def k0_off447 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c68_i32_364 : BitVec 32 := 68#32
  let v889 : BitVec 32 := Scalar.addi v0 c68_i32_364
  let c0_i32_1282 : BitVec 32 := 0#32
  ![v889.toNat, v3074.toNat, 0]
def k0_cond149 (v891 : BitVec 32) : BitVec 1 :=
  let c0_i32_365 : BitVec 32 := 0#32
  let v892 : BitVec 1 := Scalar.cmpi .sgt v891 c0_i32_365
  let v893 : BitVec 32 := Scalar.extui v892
  let c0_i32_366 : BitVec 32 := 0#32
  let v894 : BitVec 1 := Scalar.cmpi .ne v893 c0_i32_366
  v894

def k0_chk149 (i : grid0.Coords) (v891 : BitVec 32) (v3074 : BitVec 32) : Prop :=
  (∀ (k0_h149 : k0_cond149 v891 = 1#1), ∀ a, (k0_off447 i v3074) a + S1x1x512.size a ≤ S1024x200x512.size a)
instance k0_chk149.dec : ∀ (i : grid0.Coords) (v891 : BitVec 32) (v3074 : BitVec 32), Decidable (k0_chk149 i v891 v3074) := fun i v891 v3074 => decidable_of_iff' _ (Iff.of_eq (k0_chk149.eq_1 i v891 v3074))
theorem k0_off447_inb : ∀ (i : grid0.Coords) (v891 : BitVec 32) (v3074 : BitVec 32) (k0_hw149 : k0_chk149 i v891 v3074), ∀ (k0_h149 : k0_cond149 v891 = 1#1), ∀ a, (k0_off447 i v3074) a + S1x1x512.size a ≤ S1024x200x512.size a := fun i v891 v3074 k0_hw149 k0_h149 => k0_hw149 k0_h149

def k0_off448 (i : grid0.Coords) : Fin 1 → Nat :=
  let arg0 : BitVec 32 := BitVec.ofNat 32 (i 0).val
  let c256_i32 : BitVec 32 := 256#32
  let v0 : BitVec 32 := Scalar.muli arg0 c256_i32
  let c69_i32_367 : BitVec 32 := 69#32
  let v895 : BitVec 32 := Scalar.addi v0 c69_i32_367
  let v896 : Index := Scalar.indexCast v895
  ![v896.toNat]
def k0_off449 (i : grid0.Coords) : Fin 1 → Nat :=
  let arg0 : BitVec 32 := BitVec.ofNat 32 (i 0).val
  let c256_i32 : BitVec 32 := 256#32
  let v0 : BitVec 32 := Scalar.muli arg0 c256_i32
  let c69_i32_367 : BitVec 32 := 69#32
  let v895 : BitVec 32 := Scalar.addi v0 c69_i32_367
  let v3073 : Index := Scalar.indexCast v895
  ![v3073.toNat]
def k0_off450 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c69_i32_367 : BitVec 32 := 69#32
  let v895 : BitVec 32 := Scalar.addi v0 c69_i32_367
  let c0_i32_1282 : BitVec 32 := 0#32
  ![v895.toNat, v3074.toNat, 0]
def k0_cond150 (v897 : BitVec 32) : BitVec 1 :=
  let c0_i32_368 : BitVec 32 := 0#32
  let v898 : BitVec 1 := Scalar.cmpi .sgt v897 c0_i32_368
  let v899 : BitVec 32 := Scalar.extui v898
  let c0_i32_369 : BitVec 32 := 0#32
  let v900 : BitVec 1 := Scalar.cmpi .ne v899 c0_i32_369
  v900

def k0_chk150 (i : grid0.Coords) (v897 : BitVec 32) (v3074 : BitVec 32) : Prop :=
  (∀ (k0_h150 : k0_cond150 v897 = 1#1), ∀ a, (k0_off450 i v3074) a + S1x1x512.size a ≤ S1024x200x512.size a)
instance k0_chk150.dec : ∀ (i : grid0.Coords) (v897 : BitVec 32) (v3074 : BitVec 32), Decidable (k0_chk150 i v897 v3074) := fun i v897 v3074 => decidable_of_iff' _ (Iff.of_eq (k0_chk150.eq_1 i v897 v3074))
theorem k0_off450_inb : ∀ (i : grid0.Coords) (v897 : BitVec 32) (v3074 : BitVec 32) (k0_hw150 : k0_chk150 i v897 v3074), ∀ (k0_h150 : k0_cond150 v897 = 1#1), ∀ a, (k0_off450 i v3074) a + S1x1x512.size a ≤ S1024x200x512.size a := fun i v897 v3074 k0_hw150 k0_h150 => k0_hw150 k0_h150

def k0_off451 (i : grid0.Coords) : Fin 1 → Nat :=
  let arg0 : BitVec 32 := BitVec.ofNat 32 (i 0).val
  let c256_i32 : BitVec 32 := 256#32
  let v0 : BitVec 32 := Scalar.muli arg0 c256_i32
  let c70_i32_370 : BitVec 32 := 70#32
  let v901 : BitVec 32 := Scalar.addi v0 c70_i32_370
  let v902 : Index := Scalar.indexCast v901
  ![v902.toNat]
def k0_off452 (i : grid0.Coords) : Fin 1 → Nat :=
  let arg0 : BitVec 32 := BitVec.ofNat 32 (i 0).val
  let c256_i32 : BitVec 32 := 256#32
  let v0 : BitVec 32 := Scalar.muli arg0 c256_i32
  let c70_i32_370 : BitVec 32 := 70#32
  let v901 : BitVec 32 := Scalar.addi v0 c70_i32_370
  let v3073 : Index := Scalar.indexCast v901
  ![v3073.toNat]
def k0_off453 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c70_i32_370 : BitVec 32 := 70#32
  let v901 : BitVec 32 := Scalar.addi v0 c70_i32_370
  let c0_i32_1282 : BitVec 32 := 0#32
  ![v901.toNat, v3074.toNat, 0]
def k0_cond151 (v903 : BitVec 32) : BitVec 1 :=
  let c0_i32_371 : BitVec 32 := 0#32
  let v904 : BitVec 1 := Scalar.cmpi .sgt v903 c0_i32_371
  let v905 : BitVec 32 := Scalar.extui v904
  let c0_i32_372 : BitVec 32 := 0#32
  let v906 : BitVec 1 := Scalar.cmpi .ne v905 c0_i32_372
  v906

def k0_chk151 (i : grid0.Coords) (v903 : BitVec 32) (v3074 : BitVec 32) : Prop :=
  (∀ (k0_h151 : k0_cond151 v903 = 1#1), ∀ a, (k0_off453 i v3074) a + S1x1x512.size a ≤ S1024x200x512.size a)
instance k0_chk151.dec : ∀ (i : grid0.Coords) (v903 : BitVec 32) (v3074 : BitVec 32), Decidable (k0_chk151 i v903 v3074) := fun i v903 v3074 => decidable_of_iff' _ (Iff.of_eq (k0_chk151.eq_1 i v903 v3074))
theorem k0_off453_inb : ∀ (i : grid0.Coords) (v903 : BitVec 32) (v3074 : BitVec 32) (k0_hw151 : k0_chk151 i v903 v3074), ∀ (k0_h151 : k0_cond151 v903 = 1#1), ∀ a, (k0_off453 i v3074) a + S1x1x512.size a ≤ S1024x200x512.size a := fun i v903 v3074 k0_hw151 k0_h151 => k0_hw151 k0_h151

def k0_off454 (i : grid0.Coords) : Fin 1 → Nat :=
  let arg0 : BitVec 32 := BitVec.ofNat 32 (i 0).val
  let c256_i32 : BitVec 32 := 256#32
  let v0 : BitVec 32 := Scalar.muli arg0 c256_i32
  let c71_i32_373 : BitVec 32 := 71#32
  let v907 : BitVec 32 := Scalar.addi v0 c71_i32_373
  let v908 : Index := Scalar.indexCast v907
  ![v908.toNat]
def k0_off455 (i : grid0.Coords) : Fin 1 → Nat :=
  let arg0 : BitVec 32 := BitVec.ofNat 32 (i 0).val
  let c256_i32 : BitVec 32 := 256#32
  let v0 : BitVec 32 := Scalar.muli arg0 c256_i32
  let c71_i32_373 : BitVec 32 := 71#32
  let v907 : BitVec 32 := Scalar.addi v0 c71_i32_373
  let v3073 : Index := Scalar.indexCast v907
  ![v3073.toNat]
def k0_off456 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c71_i32_373 : BitVec 32 := 71#32
  let v907 : BitVec 32 := Scalar.addi v0 c71_i32_373
  let c0_i32_1282 : BitVec 32 := 0#32
  ![v907.toNat, v3074.toNat, 0]
def k0_cond152 (v909 : BitVec 32) : BitVec 1 :=
  let c0_i32_374 : BitVec 32 := 0#32
  let v910 : BitVec 1 := Scalar.cmpi .sgt v909 c0_i32_374
  let v911 : BitVec 32 := Scalar.extui v910
  let c0_i32_375 : BitVec 32 := 0#32
  let v912 : BitVec 1 := Scalar.cmpi .ne v911 c0_i32_375
  v912

def k0_chk152 (i : grid0.Coords) (v909 : BitVec 32) (v3074 : BitVec 32) : Prop :=
  (∀ (k0_h152 : k0_cond152 v909 = 1#1), ∀ a, (k0_off456 i v3074) a + S1x1x512.size a ≤ S1024x200x512.size a)
instance k0_chk152.dec : ∀ (i : grid0.Coords) (v909 : BitVec 32) (v3074 : BitVec 32), Decidable (k0_chk152 i v909 v3074) := fun i v909 v3074 => decidable_of_iff' _ (Iff.of_eq (k0_chk152.eq_1 i v909 v3074))
theorem k0_off456_inb : ∀ (i : grid0.Coords) (v909 : BitVec 32) (v3074 : BitVec 32) (k0_hw152 : k0_chk152 i v909 v3074), ∀ (k0_h152 : k0_cond152 v909 = 1#1), ∀ a, (k0_off456 i v3074) a + S1x1x512.size a ≤ S1024x200x512.size a := fun i v909 v3074 k0_hw152 k0_h152 => k0_hw152 k0_h152

def k0_off457 (i : grid0.Coords) : Fin 1 → Nat :=
  let arg0 : BitVec 32 := BitVec.ofNat 32 (i 0).val
  let c256_i32 : BitVec 32 := 256#32
  let v0 : BitVec 32 := Scalar.muli arg0 c256_i32
  let c72_i32_376 : BitVec 32 := 72#32
  let v913 : BitVec 32 := Scalar.addi v0 c72_i32_376
  let v914 : Index := Scalar.indexCast v913
  ![v914.toNat]
def k0_off458 (i : grid0.Coords) : Fin 1 → Nat :=
  let arg0 : BitVec 32 := BitVec.ofNat 32 (i 0).val
  let c256_i32 : BitVec 32 := 256#32
  let v0 : BitVec 32 := Scalar.muli arg0 c256_i32
  let c72_i32_376 : BitVec 32 := 72#32
  let v913 : BitVec 32 := Scalar.addi v0 c72_i32_376
  let v3073 : Index := Scalar.indexCast v913
  ![v3073.toNat]
def k0_off459 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c72_i32_376 : BitVec 32 := 72#32
  let v913 : BitVec 32 := Scalar.addi v0 c72_i32_376
  let c0_i32_1282 : BitVec 32 := 0#32
  ![v913.toNat, v3074.toNat, 0]
def k0_cond153 (v915 : BitVec 32) : BitVec 1 :=
  let c0_i32_377 : BitVec 32 := 0#32
  let v916 : BitVec 1 := Scalar.cmpi .sgt v915 c0_i32_377
  let v917 : BitVec 32 := Scalar.extui v916
  let c0_i32_378 : BitVec 32 := 0#32
  let v918 : BitVec 1 := Scalar.cmpi .ne v917 c0_i32_378
  v918

def k0_chk153 (i : grid0.Coords) (v915 : BitVec 32) (v3074 : BitVec 32) : Prop :=
  (∀ (k0_h153 : k0_cond153 v915 = 1#1), ∀ a, (k0_off459 i v3074) a + S1x1x512.size a ≤ S1024x200x512.size a)
instance k0_chk153.dec : ∀ (i : grid0.Coords) (v915 : BitVec 32) (v3074 : BitVec 32), Decidable (k0_chk153 i v915 v3074) := fun i v915 v3074 => decidable_of_iff' _ (Iff.of_eq (k0_chk153.eq_1 i v915 v3074))
theorem k0_off459_inb : ∀ (i : grid0.Coords) (v915 : BitVec 32) (v3074 : BitVec 32) (k0_hw153 : k0_chk153 i v915 v3074), ∀ (k0_h153 : k0_cond153 v915 = 1#1), ∀ a, (k0_off459 i v3074) a + S1x1x512.size a ≤ S1024x200x512.size a := fun i v915 v3074 k0_hw153 k0_h153 => k0_hw153 k0_h153

def k0_off460 (i : grid0.Coords) : Fin 1 → Nat :=
  let arg0 : BitVec 32 := BitVec.ofNat 32 (i 0).val
  let c256_i32 : BitVec 32 := 256#32
  let v0 : BitVec 32 := Scalar.muli arg0 c256_i32
  let c73_i32_379 : BitVec 32 := 73#32
  let v919 : BitVec 32 := Scalar.addi v0 c73_i32_379
  let v920 : Index := Scalar.indexCast v919
  ![v920.toNat]
def k0_off461 (i : grid0.Coords) : Fin 1 → Nat :=
  let arg0 : BitVec 32 := BitVec.ofNat 32 (i 0).val
  let c256_i32 : BitVec 32 := 256#32
  let v0 : BitVec 32 := Scalar.muli arg0 c256_i32
  let c73_i32_379 : BitVec 32 := 73#32
  let v919 : BitVec 32 := Scalar.addi v0 c73_i32_379
  let v3073 : Index := Scalar.indexCast v919
  ![v3073.toNat]
def k0_off462 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c73_i32_379 : BitVec 32 := 73#32
  let v919 : BitVec 32 := Scalar.addi v0 c73_i32_379
  let c0_i32_1282 : BitVec 32 := 0#32
  ![v919.toNat, v3074.toNat, 0]
def k0_cond154 (v921 : BitVec 32) : BitVec 1 :=
  let c0_i32_380 : BitVec 32 := 0#32
  let v922 : BitVec 1 := Scalar.cmpi .sgt v921 c0_i32_380
  let v923 : BitVec 32 := Scalar.extui v922
  let c0_i32_381 : BitVec 32 := 0#32
  let v924 : BitVec 1 := Scalar.cmpi .ne v923 c0_i32_381
  v924

def k0_chk154 (i : grid0.Coords) (v921 : BitVec 32) (v3074 : BitVec 32) : Prop :=
  (∀ (k0_h154 : k0_cond154 v921 = 1#1), ∀ a, (k0_off462 i v3074) a + S1x1x512.size a ≤ S1024x200x512.size a)
instance k0_chk154.dec : ∀ (i : grid0.Coords) (v921 : BitVec 32) (v3074 : BitVec 32), Decidable (k0_chk154 i v921 v3074) := fun i v921 v3074 => decidable_of_iff' _ (Iff.of_eq (k0_chk154.eq_1 i v921 v3074))
theorem k0_off462_inb : ∀ (i : grid0.Coords) (v921 : BitVec 32) (v3074 : BitVec 32) (k0_hw154 : k0_chk154 i v921 v3074), ∀ (k0_h154 : k0_cond154 v921 = 1#1), ∀ a, (k0_off462 i v3074) a + S1x1x512.size a ≤ S1024x200x512.size a := fun i v921 v3074 k0_hw154 k0_h154 => k0_hw154 k0_h154

def k0_off463 (i : grid0.Coords) : Fin 1 → Nat :=
  let arg0 : BitVec 32 := BitVec.ofNat 32 (i 0).val
  let c256_i32 : BitVec 32 := 256#32
  let v0 : BitVec 32 := Scalar.muli arg0 c256_i32
  let c74_i32_382 : BitVec 32 := 74#32
  let v925 : BitVec 32 := Scalar.addi v0 c74_i32_382
  let v926 : Index := Scalar.indexCast v925
  ![v926.toNat]
def k0_off464 (i : grid0.Coords) : Fin 1 → Nat :=
  let arg0 : BitVec 32 := BitVec.ofNat 32 (i 0).val
  let c256_i32 : BitVec 32 := 256#32
  let v0 : BitVec 32 := Scalar.muli arg0 c256_i32
  let c74_i32_382 : BitVec 32 := 74#32
  let v925 : BitVec 32 := Scalar.addi v0 c74_i32_382
  let v3073 : Index := Scalar.indexCast v925
  ![v3073.toNat]
def k0_off465 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c74_i32_382 : BitVec 32 := 74#32
  let v925 : BitVec 32 := Scalar.addi v0 c74_i32_382
  let c0_i32_1282 : BitVec 32 := 0#32
  ![v925.toNat, v3074.toNat, 0]
def k0_cond155 (v927 : BitVec 32) : BitVec 1 :=
  let c0_i32_383 : BitVec 32 := 0#32
  let v928 : BitVec 1 := Scalar.cmpi .sgt v927 c0_i32_383
  let v929 : BitVec 32 := Scalar.extui v928
  let c0_i32_384 : BitVec 32 := 0#32
  let v930 : BitVec 1 := Scalar.cmpi .ne v929 c0_i32_384
  v930

def k0_chk155 (i : grid0.Coords) (v927 : BitVec 32) (v3074 : BitVec 32) : Prop :=
  (∀ (k0_h155 : k0_cond155 v927 = 1#1), ∀ a, (k0_off465 i v3074) a + S1x1x512.size a ≤ S1024x200x512.size a)
instance k0_chk155.dec : ∀ (i : grid0.Coords) (v927 : BitVec 32) (v3074 : BitVec 32), Decidable (k0_chk155 i v927 v3074) := fun i v927 v3074 => decidable_of_iff' _ (Iff.of_eq (k0_chk155.eq_1 i v927 v3074))
theorem k0_off465_inb : ∀ (i : grid0.Coords) (v927 : BitVec 32) (v3074 : BitVec 32) (k0_hw155 : k0_chk155 i v927 v3074), ∀ (k0_h155 : k0_cond155 v927 = 1#1), ∀ a, (k0_off465 i v3074) a + S1x1x512.size a ≤ S1024x200x512.size a := fun i v927 v3074 k0_hw155 k0_h155 => k0_hw155 k0_h155

def k0_off466 (i : grid0.Coords) : Fin 1 → Nat :=
  let arg0 : BitVec 32 := BitVec.ofNat 32 (i 0).val
  let c256_i32 : BitVec 32 := 256#32
  let v0 : BitVec 32 := Scalar.muli arg0 c256_i32
  let c75_i32_385 : BitVec 32 := 75#32
  let v931 : BitVec 32 := Scalar.addi v0 c75_i32_385
  let v932 : Index := Scalar.indexCast v931
  ![v932.toNat]
def k0_off467 (i : grid0.Coords) : Fin 1 → Nat :=
  let arg0 : BitVec 32 := BitVec.ofNat 32 (i 0).val
  let c256_i32 : BitVec 32 := 256#32
  let v0 : BitVec 32 := Scalar.muli arg0 c256_i32
  let c75_i32_385 : BitVec 32 := 75#32
  let v931 : BitVec 32 := Scalar.addi v0 c75_i32_385
  let v3073 : Index := Scalar.indexCast v931
  ![v3073.toNat]
def k0_off468 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c75_i32_385 : BitVec 32 := 75#32
  let v931 : BitVec 32 := Scalar.addi v0 c75_i32_385
  let c0_i32_1282 : BitVec 32 := 0#32
  ![v931.toNat, v3074.toNat, 0]
def k0_cond156 (v933 : BitVec 32) : BitVec 1 :=
  let c0_i32_386 : BitVec 32 := 0#32
  let v934 : BitVec 1 := Scalar.cmpi .sgt v933 c0_i32_386
  let v935 : BitVec 32 := Scalar.extui v934
  let c0_i32_387 : BitVec 32 := 0#32
  let v936 : BitVec 1 := Scalar.cmpi .ne v935 c0_i32_387
  v936

def k0_chk156 (i : grid0.Coords) (v933 : BitVec 32) (v3074 : BitVec 32) : Prop :=
  (∀ (k0_h156 : k0_cond156 v933 = 1#1), ∀ a, (k0_off468 i v3074) a + S1x1x512.size a ≤ S1024x200x512.size a)
instance k0_chk156.dec : ∀ (i : grid0.Coords) (v933 : BitVec 32) (v3074 : BitVec 32), Decidable (k0_chk156 i v933 v3074) := fun i v933 v3074 => decidable_of_iff' _ (Iff.of_eq (k0_chk156.eq_1 i v933 v3074))
theorem k0_off468_inb : ∀ (i : grid0.Coords) (v933 : BitVec 32) (v3074 : BitVec 32) (k0_hw156 : k0_chk156 i v933 v3074), ∀ (k0_h156 : k0_cond156 v933 = 1#1), ∀ a, (k0_off468 i v3074) a + S1x1x512.size a ≤ S1024x200x512.size a := fun i v933 v3074 k0_hw156 k0_h156 => k0_hw156 k0_h156

def k0_off469 (i : grid0.Coords) : Fin 1 → Nat :=
  let arg0 : BitVec 32 := BitVec.ofNat 32 (i 0).val
  let c256_i32 : BitVec 32 := 256#32
  let v0 : BitVec 32 := Scalar.muli arg0 c256_i32
  let c76_i32_388 : BitVec 32 := 76#32
  let v937 : BitVec 32 := Scalar.addi v0 c76_i32_388
  let v938 : Index := Scalar.indexCast v937
  ![v938.toNat]
def k0_off470 (i : grid0.Coords) : Fin 1 → Nat :=
  let arg0 : BitVec 32 := BitVec.ofNat 32 (i 0).val
  let c256_i32 : BitVec 32 := 256#32
  let v0 : BitVec 32 := Scalar.muli arg0 c256_i32
  let c76_i32_388 : BitVec 32 := 76#32
  let v937 : BitVec 32 := Scalar.addi v0 c76_i32_388
  let v3073 : Index := Scalar.indexCast v937
  ![v3073.toNat]
def k0_off471 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c76_i32_388 : BitVec 32 := 76#32
  let v937 : BitVec 32 := Scalar.addi v0 c76_i32_388
  let c0_i32_1282 : BitVec 32 := 0#32
  ![v937.toNat, v3074.toNat, 0]
def k0_cond157 (v939 : BitVec 32) : BitVec 1 :=
  let c0_i32_389 : BitVec 32 := 0#32
  let v940 : BitVec 1 := Scalar.cmpi .sgt v939 c0_i32_389
  let v941 : BitVec 32 := Scalar.extui v940
  let c0_i32_390 : BitVec 32 := 0#32
  let v942 : BitVec 1 := Scalar.cmpi .ne v941 c0_i32_390
  v942

def k0_chk157 (i : grid0.Coords) (v939 : BitVec 32) (v3074 : BitVec 32) : Prop :=
  (∀ (k0_h157 : k0_cond157 v939 = 1#1), ∀ a, (k0_off471 i v3074) a + S1x1x512.size a ≤ S1024x200x512.size a)
instance k0_chk157.dec : ∀ (i : grid0.Coords) (v939 : BitVec 32) (v3074 : BitVec 32), Decidable (k0_chk157 i v939 v3074) := fun i v939 v3074 => decidable_of_iff' _ (Iff.of_eq (k0_chk157.eq_1 i v939 v3074))
theorem k0_off471_inb : ∀ (i : grid0.Coords) (v939 : BitVec 32) (v3074 : BitVec 32) (k0_hw157 : k0_chk157 i v939 v3074), ∀ (k0_h157 : k0_cond157 v939 = 1#1), ∀ a, (k0_off471 i v3074) a + S1x1x512.size a ≤ S1024x200x512.size a := fun i v939 v3074 k0_hw157 k0_h157 => k0_hw157 k0_h157

def k0_off472 (i : grid0.Coords) : Fin 1 → Nat :=
  let arg0 : BitVec 32 := BitVec.ofNat 32 (i 0).val
  let c256_i32 : BitVec 32 := 256#32
  let v0 : BitVec 32 := Scalar.muli arg0 c256_i32
  let c77_i32_391 : BitVec 32 := 77#32
  let v943 : BitVec 32 := Scalar.addi v0 c77_i32_391
  let v944 : Index := Scalar.indexCast v943
  ![v944.toNat]
def k0_off473 (i : grid0.Coords) : Fin 1 → Nat :=
  let arg0 : BitVec 32 := BitVec.ofNat 32 (i 0).val
  let c256_i32 : BitVec 32 := 256#32
  let v0 : BitVec 32 := Scalar.muli arg0 c256_i32
  let c77_i32_391 : BitVec 32 := 77#32
  let v943 : BitVec 32 := Scalar.addi v0 c77_i32_391
  let v3073 : Index := Scalar.indexCast v943
  ![v3073.toNat]
def k0_off474 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c77_i32_391 : BitVec 32 := 77#32
  let v943 : BitVec 32 := Scalar.addi v0 c77_i32_391
  let c0_i32_1282 : BitVec 32 := 0#32
  ![v943.toNat, v3074.toNat, 0]
def k0_cond158 (v945 : BitVec 32) : BitVec 1 :=
  let c0_i32_392 : BitVec 32 := 0#32
  let v946 : BitVec 1 := Scalar.cmpi .sgt v945 c0_i32_392
  let v947 : BitVec 32 := Scalar.extui v946
  let c0_i32_393 : BitVec 32 := 0#32
  let v948 : BitVec 1 := Scalar.cmpi .ne v947 c0_i32_393
  v948

def k0_chk158 (i : grid0.Coords) (v945 : BitVec 32) (v3074 : BitVec 32) : Prop :=
  (∀ (k0_h158 : k0_cond158 v945 = 1#1), ∀ a, (k0_off474 i v3074) a + S1x1x512.size a ≤ S1024x200x512.size a)
instance k0_chk158.dec : ∀ (i : grid0.Coords) (v945 : BitVec 32) (v3074 : BitVec 32), Decidable (k0_chk158 i v945 v3074) := fun i v945 v3074 => decidable_of_iff' _ (Iff.of_eq (k0_chk158.eq_1 i v945 v3074))
theorem k0_off474_inb : ∀ (i : grid0.Coords) (v945 : BitVec 32) (v3074 : BitVec 32) (k0_hw158 : k0_chk158 i v945 v3074), ∀ (k0_h158 : k0_cond158 v945 = 1#1), ∀ a, (k0_off474 i v3074) a + S1x1x512.size a ≤ S1024x200x512.size a := fun i v945 v3074 k0_hw158 k0_h158 => k0_hw158 k0_h158

def k0_off475 (i : grid0.Coords) : Fin 1 → Nat :=
  let arg0 : BitVec 32 := BitVec.ofNat 32 (i 0).val
  let c256_i32 : BitVec 32 := 256#32
  let v0 : BitVec 32 := Scalar.muli arg0 c256_i32
  let c78_i32_394 : BitVec 32 := 78#32
  let v949 : BitVec 32 := Scalar.addi v0 c78_i32_394
  let v950 : Index := Scalar.indexCast v949
  ![v950.toNat]
def k0_off476 (i : grid0.Coords) : Fin 1 → Nat :=
  let arg0 : BitVec 32 := BitVec.ofNat 32 (i 0).val
  let c256_i32 : BitVec 32 := 256#32
  let v0 : BitVec 32 := Scalar.muli arg0 c256_i32
  let c78_i32_394 : BitVec 32 := 78#32
  let v949 : BitVec 32 := Scalar.addi v0 c78_i32_394
  let v3073 : Index := Scalar.indexCast v949
  ![v3073.toNat]
def k0_off477 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c78_i32_394 : BitVec 32 := 78#32
  let v949 : BitVec 32 := Scalar.addi v0 c78_i32_394
  let c0_i32_1282 : BitVec 32 := 0#32
  ![v949.toNat, v3074.toNat, 0]
def k0_cond159 (v951 : BitVec 32) : BitVec 1 :=
  let c0_i32_395 : BitVec 32 := 0#32
  let v952 : BitVec 1 := Scalar.cmpi .sgt v951 c0_i32_395
  let v953 : BitVec 32 := Scalar.extui v952
  let c0_i32_396 : BitVec 32 := 0#32
  let v954 : BitVec 1 := Scalar.cmpi .ne v953 c0_i32_396
  v954

def k0_chk159 (i : grid0.Coords) (v951 : BitVec 32) (v3074 : BitVec 32) : Prop :=
  (∀ (k0_h159 : k0_cond159 v951 = 1#1), ∀ a, (k0_off477 i v3074) a + S1x1x512.size a ≤ S1024x200x512.size a)
instance k0_chk159.dec : ∀ (i : grid0.Coords) (v951 : BitVec 32) (v3074 : BitVec 32), Decidable (k0_chk159 i v951 v3074) := fun i v951 v3074 => decidable_of_iff' _ (Iff.of_eq (k0_chk159.eq_1 i v951 v3074))
theorem k0_off477_inb : ∀ (i : grid0.Coords) (v951 : BitVec 32) (v3074 : BitVec 32) (k0_hw159 : k0_chk159 i v951 v3074), ∀ (k0_h159 : k0_cond159 v951 = 1#1), ∀ a, (k0_off477 i v3074) a + S1x1x512.size a ≤ S1024x200x512.size a := fun i v951 v3074 k0_hw159 k0_h159 => k0_hw159 k0_h159

def k0_off478 (i : grid0.Coords) : Fin 1 → Nat :=
  let arg0 : BitVec 32 := BitVec.ofNat 32 (i 0).val
  let c256_i32 : BitVec 32 := 256#32
  let v0 : BitVec 32 := Scalar.muli arg0 c256_i32
  let c79_i32_397 : BitVec 32 := 79#32
  let v955 : BitVec 32 := Scalar.addi v0 c79_i32_397
  let v956 : Index := Scalar.indexCast v955
  ![v956.toNat]
def k0_off479 (i : grid0.Coords) : Fin 1 → Nat :=
  let arg0 : BitVec 32 := BitVec.ofNat 32 (i 0).val
  let c256_i32 : BitVec 32 := 256#32
  let v0 : BitVec 32 := Scalar.muli arg0 c256_i32
  let c79_i32_397 : BitVec 32 := 79#32
  let v955 : BitVec 32 := Scalar.addi v0 c79_i32_397
  let v3073 : Index := Scalar.indexCast v955
  ![v3073.toNat]
def k0_off480 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c79_i32_397 : BitVec 32 := 79#32
  let v955 : BitVec 32 := Scalar.addi v0 c79_i32_397
  let c0_i32_1282 : BitVec 32 := 0#32
  ![v955.toNat, v3074.toNat, 0]
def k0_cond160 (v957 : BitVec 32) : BitVec 1 :=
  let c0_i32_398 : BitVec 32 := 0#32
  let v958 : BitVec 1 := Scalar.cmpi .sgt v957 c0_i32_398
  let v959 : BitVec 32 := Scalar.extui v958
  let c0_i32_399 : BitVec 32 := 0#32
  let v960 : BitVec 1 := Scalar.cmpi .ne v959 c0_i32_399
  v960

def k0_chk160 (i : grid0.Coords) (v957 : BitVec 32) (v3074 : BitVec 32) : Prop :=
  (∀ (k0_h160 : k0_cond160 v957 = 1#1), ∀ a, (k0_off480 i v3074) a + S1x1x512.size a ≤ S1024x200x512.size a)
instance k0_chk160.dec : ∀ (i : grid0.Coords) (v957 : BitVec 32) (v3074 : BitVec 32), Decidable (k0_chk160 i v957 v3074) := fun i v957 v3074 => decidable_of_iff' _ (Iff.of_eq (k0_chk160.eq_1 i v957 v3074))
theorem k0_off480_inb : ∀ (i : grid0.Coords) (v957 : BitVec 32) (v3074 : BitVec 32) (k0_hw160 : k0_chk160 i v957 v3074), ∀ (k0_h160 : k0_cond160 v957 = 1#1), ∀ a, (k0_off480 i v3074) a + S1x1x512.size a ≤ S1024x200x512.size a := fun i v957 v3074 k0_hw160 k0_h160 => k0_hw160 k0_h160

def k0_off481 (i : grid0.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v961 : BitVec 32 := Scalar.addi v0 c80_i32
  let v962 : Index := Scalar.indexCast v961
  ![v962.toNat]
def k0_off482 (i : grid0.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v961 : BitVec 32 := Scalar.addi v0 c80_i32
  let v3073 : Index := Scalar.indexCast v961
  ![v3073.toNat]
def k0_off483 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c80_i32 : BitVec 32 := 80#32
  let v961 : BitVec 32 := Scalar.addi v0 c80_i32
  let c0_i32_1287 : BitVec 32 := 0#32
  ![v961.toNat, v3074.toNat, 0]
def k0_cond161 (v963 : BitVec 32) : BitVec 1 :=
  let c0_i32_400 : BitVec 32 := 0#32
  let v964 : BitVec 1 := Scalar.cmpi .sgt v963 c0_i32_400
  let v965 : BitVec 32 := Scalar.extui v964
  let c0_i32_401 : BitVec 32 := 0#32
  let v966 : BitVec 1 := Scalar.cmpi .ne v965 c0_i32_401
  v966

def k0_chk161 (i : grid0.Coords) (v963 : BitVec 32) (v3074 : BitVec 32) : Prop :=
  (∀ (k0_h161 : k0_cond161 v963 = 1#1), ∀ a, (k0_off483 i v3074) a + S1x1x512.size a ≤ S1024x200x512.size a)
instance k0_chk161.dec : ∀ (i : grid0.Coords) (v963 : BitVec 32) (v3074 : BitVec 32), Decidable (k0_chk161 i v963 v3074) := fun i v963 v3074 => decidable_of_iff' _ (Iff.of_eq (k0_chk161.eq_1 i v963 v3074))
theorem k0_off483_inb : ∀ (i : grid0.Coords) (v963 : BitVec 32) (v3074 : BitVec 32) (k0_hw161 : k0_chk161 i v963 v3074), ∀ (k0_h161 : k0_cond161 v963 = 1#1), ∀ a, (k0_off483 i v3074) a + S1x1x512.size a ≤ S1024x200x512.size a := fun i v963 v3074 k0_hw161 k0_h161 => k0_hw161 k0_h161

def k0_off484 (i : grid0.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v967 : BitVec 32 := Scalar.addi v0 c81_i32
  let v968 : Index := Scalar.indexCast v967
  ![v968.toNat]
def k0_off485 (i : grid0.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v967 : BitVec 32 := Scalar.addi v0 c81_i32
  let v3073 : Index := Scalar.indexCast v967
  ![v3073.toNat]
def k0_off486 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c81_i32 : BitVec 32 := 81#32
  let v967 : BitVec 32 := Scalar.addi v0 c81_i32
  let c0_i32_1287 : BitVec 32 := 0#32
  ![v967.toNat, v3074.toNat, 0]
def k0_cond162 (v969 : BitVec 32) : BitVec 1 :=
  let c0_i32_402 : BitVec 32 := 0#32
  let v970 : BitVec 1 := Scalar.cmpi .sgt v969 c0_i32_402
  let v971 : BitVec 32 := Scalar.extui v970
  let c0_i32_403 : BitVec 32 := 0#32
  let v972 : BitVec 1 := Scalar.cmpi .ne v971 c0_i32_403
  v972

def k0_chk162 (i : grid0.Coords) (v969 : BitVec 32) (v3074 : BitVec 32) : Prop :=
  (∀ (k0_h162 : k0_cond162 v969 = 1#1), ∀ a, (k0_off486 i v3074) a + S1x1x512.size a ≤ S1024x200x512.size a)
instance k0_chk162.dec : ∀ (i : grid0.Coords) (v969 : BitVec 32) (v3074 : BitVec 32), Decidable (k0_chk162 i v969 v3074) := fun i v969 v3074 => decidable_of_iff' _ (Iff.of_eq (k0_chk162.eq_1 i v969 v3074))
theorem k0_off486_inb : ∀ (i : grid0.Coords) (v969 : BitVec 32) (v3074 : BitVec 32) (k0_hw162 : k0_chk162 i v969 v3074), ∀ (k0_h162 : k0_cond162 v969 = 1#1), ∀ a, (k0_off486 i v3074) a + S1x1x512.size a ≤ S1024x200x512.size a := fun i v969 v3074 k0_hw162 k0_h162 => k0_hw162 k0_h162

def k0_off487 (i : grid0.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v973 : BitVec 32 := Scalar.addi v0 c82_i32
  let v974 : Index := Scalar.indexCast v973
  ![v974.toNat]
def k0_off488 (i : grid0.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v973 : BitVec 32 := Scalar.addi v0 c82_i32
  let v3073 : Index := Scalar.indexCast v973
  ![v3073.toNat]
def k0_off489 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c82_i32 : BitVec 32 := 82#32
  let v973 : BitVec 32 := Scalar.addi v0 c82_i32
  let c0_i32_1287 : BitVec 32 := 0#32
  ![v973.toNat, v3074.toNat, 0]
def k0_cond163 (v975 : BitVec 32) : BitVec 1 :=
  let c0_i32_404 : BitVec 32 := 0#32
  let v976 : BitVec 1 := Scalar.cmpi .sgt v975 c0_i32_404
  let v977 : BitVec 32 := Scalar.extui v976
  let c0_i32_405 : BitVec 32 := 0#32
  let v978 : BitVec 1 := Scalar.cmpi .ne v977 c0_i32_405
  v978

def k0_chk163 (i : grid0.Coords) (v975 : BitVec 32) (v3074 : BitVec 32) : Prop :=
  (∀ (k0_h163 : k0_cond163 v975 = 1#1), ∀ a, (k0_off489 i v3074) a + S1x1x512.size a ≤ S1024x200x512.size a)
instance k0_chk163.dec : ∀ (i : grid0.Coords) (v975 : BitVec 32) (v3074 : BitVec 32), Decidable (k0_chk163 i v975 v3074) := fun i v975 v3074 => decidable_of_iff' _ (Iff.of_eq (k0_chk163.eq_1 i v975 v3074))
theorem k0_off489_inb : ∀ (i : grid0.Coords) (v975 : BitVec 32) (v3074 : BitVec 32) (k0_hw163 : k0_chk163 i v975 v3074), ∀ (k0_h163 : k0_cond163 v975 = 1#1), ∀ a, (k0_off489 i v3074) a + S1x1x512.size a ≤ S1024x200x512.size a := fun i v975 v3074 k0_hw163 k0_h163 => k0_hw163 k0_h163

def k0_off490 (i : grid0.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v979 : BitVec 32 := Scalar.addi v0 c83_i32
  let v980 : Index := Scalar.indexCast v979
  ![v980.toNat]
def k0_off491 (i : grid0.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v979 : BitVec 32 := Scalar.addi v0 c83_i32
  let v3073 : Index := Scalar.indexCast v979
  ![v3073.toNat]
def k0_off492 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c83_i32 : BitVec 32 := 83#32
  let v979 : BitVec 32 := Scalar.addi v0 c83_i32
  let c0_i32_1287 : BitVec 32 := 0#32
  ![v979.toNat, v3074.toNat, 0]
def k0_cond164 (v981 : BitVec 32) : BitVec 1 :=
  let c0_i32_406 : BitVec 32 := 0#32
  let v982 : BitVec 1 := Scalar.cmpi .sgt v981 c0_i32_406
  let v983 : BitVec 32 := Scalar.extui v982
  let c0_i32_407 : BitVec 32 := 0#32
  let v984 : BitVec 1 := Scalar.cmpi .ne v983 c0_i32_407
  v984

def k0_chk164 (i : grid0.Coords) (v981 : BitVec 32) (v3074 : BitVec 32) : Prop :=
  (∀ (k0_h164 : k0_cond164 v981 = 1#1), ∀ a, (k0_off492 i v3074) a + S1x1x512.size a ≤ S1024x200x512.size a)
instance k0_chk164.dec : ∀ (i : grid0.Coords) (v981 : BitVec 32) (v3074 : BitVec 32), Decidable (k0_chk164 i v981 v3074) := fun i v981 v3074 => decidable_of_iff' _ (Iff.of_eq (k0_chk164.eq_1 i v981 v3074))
theorem k0_off492_inb : ∀ (i : grid0.Coords) (v981 : BitVec 32) (v3074 : BitVec 32) (k0_hw164 : k0_chk164 i v981 v3074), ∀ (k0_h164 : k0_cond164 v981 = 1#1), ∀ a, (k0_off492 i v3074) a + S1x1x512.size a ≤ S1024x200x512.size a := fun i v981 v3074 k0_hw164 k0_h164 => k0_hw164 k0_h164

def k0_off493 (i : grid0.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v985 : BitVec 32 := Scalar.addi v0 c84_i32
  let v986 : Index := Scalar.indexCast v985
  ![v986.toNat]
def k0_off494 (i : grid0.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v985 : BitVec 32 := Scalar.addi v0 c84_i32
  let v3073 : Index := Scalar.indexCast v985
  ![v3073.toNat]
def k0_off495 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c84_i32 : BitVec 32 := 84#32
  let v985 : BitVec 32 := Scalar.addi v0 c84_i32
  let c0_i32_1287 : BitVec 32 := 0#32
  ![v985.toNat, v3074.toNat, 0]
def k0_cond165 (v987 : BitVec 32) : BitVec 1 :=
  let c0_i32_408 : BitVec 32 := 0#32
  let v988 : BitVec 1 := Scalar.cmpi .sgt v987 c0_i32_408
  let v989 : BitVec 32 := Scalar.extui v988
  let c0_i32_409 : BitVec 32 := 0#32
  let v990 : BitVec 1 := Scalar.cmpi .ne v989 c0_i32_409
  v990

def k0_chk165 (i : grid0.Coords) (v987 : BitVec 32) (v3074 : BitVec 32) : Prop :=
  (∀ (k0_h165 : k0_cond165 v987 = 1#1), ∀ a, (k0_off495 i v3074) a + S1x1x512.size a ≤ S1024x200x512.size a)
instance k0_chk165.dec : ∀ (i : grid0.Coords) (v987 : BitVec 32) (v3074 : BitVec 32), Decidable (k0_chk165 i v987 v3074) := fun i v987 v3074 => decidable_of_iff' _ (Iff.of_eq (k0_chk165.eq_1 i v987 v3074))
theorem k0_off495_inb : ∀ (i : grid0.Coords) (v987 : BitVec 32) (v3074 : BitVec 32) (k0_hw165 : k0_chk165 i v987 v3074), ∀ (k0_h165 : k0_cond165 v987 = 1#1), ∀ a, (k0_off495 i v3074) a + S1x1x512.size a ≤ S1024x200x512.size a := fun i v987 v3074 k0_hw165 k0_h165 => k0_hw165 k0_h165

def k0_off496 (i : grid0.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v991 : BitVec 32 := Scalar.addi v0 c85_i32
  let v992 : Index := Scalar.indexCast v991
  ![v992.toNat]
def k0_off497 (i : grid0.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v991 : BitVec 32 := Scalar.addi v0 c85_i32
  let v3073 : Index := Scalar.indexCast v991
  ![v3073.toNat]
def k0_off498 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c85_i32 : BitVec 32 := 85#32
  let v991 : BitVec 32 := Scalar.addi v0 c85_i32
  let c0_i32_1287 : BitVec 32 := 0#32
  ![v991.toNat, v3074.toNat, 0]
def k0_cond166 (v993 : BitVec 32) : BitVec 1 :=
  let c0_i32_410 : BitVec 32 := 0#32
  let v994 : BitVec 1 := Scalar.cmpi .sgt v993 c0_i32_410
  let v995 : BitVec 32 := Scalar.extui v994
  let c0_i32_411 : BitVec 32 := 0#32
  let v996 : BitVec 1 := Scalar.cmpi .ne v995 c0_i32_411
  v996

def k0_chk166 (i : grid0.Coords) (v993 : BitVec 32) (v3074 : BitVec 32) : Prop :=
  (∀ (k0_h166 : k0_cond166 v993 = 1#1), ∀ a, (k0_off498 i v3074) a + S1x1x512.size a ≤ S1024x200x512.size a)
instance k0_chk166.dec : ∀ (i : grid0.Coords) (v993 : BitVec 32) (v3074 : BitVec 32), Decidable (k0_chk166 i v993 v3074) := fun i v993 v3074 => decidable_of_iff' _ (Iff.of_eq (k0_chk166.eq_1 i v993 v3074))
theorem k0_off498_inb : ∀ (i : grid0.Coords) (v993 : BitVec 32) (v3074 : BitVec 32) (k0_hw166 : k0_chk166 i v993 v3074), ∀ (k0_h166 : k0_cond166 v993 = 1#1), ∀ a, (k0_off498 i v3074) a + S1x1x512.size a ≤ S1024x200x512.size a := fun i v993 v3074 k0_hw166 k0_h166 => k0_hw166 k0_h166

def k0_off499 (i : grid0.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v997 : BitVec 32 := Scalar.addi v0 c86_i32
  let v998 : Index := Scalar.indexCast v997
  ![v998.toNat]
def k0_off500 (i : grid0.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v997 : BitVec 32 := Scalar.addi v0 c86_i32
  let v3073 : Index := Scalar.indexCast v997
  ![v3073.toNat]
def k0_off501 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c86_i32 : BitVec 32 := 86#32
  let v997 : BitVec 32 := Scalar.addi v0 c86_i32
  let c0_i32_1287 : BitVec 32 := 0#32
  ![v997.toNat, v3074.toNat, 0]
def k0_cond167 (v999 : BitVec 32) : BitVec 1 :=
  let c0_i32_412 : BitVec 32 := 0#32
  let v1000 : BitVec 1 := Scalar.cmpi .sgt v999 c0_i32_412
  let v1001 : BitVec 32 := Scalar.extui v1000
  let c0_i32_413 : BitVec 32 := 0#32
  let v1002 : BitVec 1 := Scalar.cmpi .ne v1001 c0_i32_413
  v1002

def k0_chk167 (i : grid0.Coords) (v999 : BitVec 32) (v3074 : BitVec 32) : Prop :=
  (∀ (k0_h167 : k0_cond167 v999 = 1#1), ∀ a, (k0_off501 i v3074) a + S1x1x512.size a ≤ S1024x200x512.size a)
instance k0_chk167.dec : ∀ (i : grid0.Coords) (v999 : BitVec 32) (v3074 : BitVec 32), Decidable (k0_chk167 i v999 v3074) := fun i v999 v3074 => decidable_of_iff' _ (Iff.of_eq (k0_chk167.eq_1 i v999 v3074))
theorem k0_off501_inb : ∀ (i : grid0.Coords) (v999 : BitVec 32) (v3074 : BitVec 32) (k0_hw167 : k0_chk167 i v999 v3074), ∀ (k0_h167 : k0_cond167 v999 = 1#1), ∀ a, (k0_off501 i v3074) a + S1x1x512.size a ≤ S1024x200x512.size a := fun i v999 v3074 k0_hw167 k0_h167 => k0_hw167 k0_h167

def k0_off502 (i : grid0.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v1003 : BitVec 32 := Scalar.addi v0 c87_i32
  let v1004 : Index := Scalar.indexCast v1003
  ![v1004.toNat]
def k0_off503 (i : grid0.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v1003 : BitVec 32 := Scalar.addi v0 c87_i32
  let v3073 : Index := Scalar.indexCast v1003
  ![v3073.toNat]
def k0_off504 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c87_i32 : BitVec 32 := 87#32
  let v1003 : BitVec 32 := Scalar.addi v0 c87_i32
  let c0_i32_1287 : BitVec 32 := 0#32
  ![v1003.toNat, v3074.toNat, 0]
def k0_cond168 (v1005 : BitVec 32) : BitVec 1 :=
  let c0_i32_414 : BitVec 32 := 0#32
  let v1006 : BitVec 1 := Scalar.cmpi .sgt v1005 c0_i32_414
  let v1007 : BitVec 32 := Scalar.extui v1006
  let c0_i32_415 : BitVec 32 := 0#32
  let v1008 : BitVec 1 := Scalar.cmpi .ne v1007 c0_i32_415
  v1008

def k0_chk168 (i : grid0.Coords) (v1005 : BitVec 32) (v3074 : BitVec 32) : Prop :=
  (∀ (k0_h168 : k0_cond168 v1005 = 1#1), ∀ a, (k0_off504 i v3074) a + S1x1x512.size a ≤ S1024x200x512.size a)
instance k0_chk168.dec : ∀ (i : grid0.Coords) (v1005 : BitVec 32) (v3074 : BitVec 32), Decidable (k0_chk168 i v1005 v3074) := fun i v1005 v3074 => decidable_of_iff' _ (Iff.of_eq (k0_chk168.eq_1 i v1005 v3074))
theorem k0_off504_inb : ∀ (i : grid0.Coords) (v1005 : BitVec 32) (v3074 : BitVec 32) (k0_hw168 : k0_chk168 i v1005 v3074), ∀ (k0_h168 : k0_cond168 v1005 = 1#1), ∀ a, (k0_off504 i v3074) a + S1x1x512.size a ≤ S1024x200x512.size a := fun i v1005 v3074 k0_hw168 k0_h168 => k0_hw168 k0_h168

def k0_off505 (i : grid0.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v1009 : BitVec 32 := Scalar.addi v0 c88_i32
  let v1010 : Index := Scalar.indexCast v1009
  ![v1010.toNat]
def k0_off506 (i : grid0.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v1009 : BitVec 32 := Scalar.addi v0 c88_i32
  let v3073 : Index := Scalar.indexCast v1009
  ![v3073.toNat]
def k0_off507 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c88_i32 : BitVec 32 := 88#32
  let v1009 : BitVec 32 := Scalar.addi v0 c88_i32
  let c0_i32_1287 : BitVec 32 := 0#32
  ![v1009.toNat, v3074.toNat, 0]
def k0_cond169 (v1011 : BitVec 32) : BitVec 1 :=
  let c0_i32_416 : BitVec 32 := 0#32
  let v1012 : BitVec 1 := Scalar.cmpi .sgt v1011 c0_i32_416
  let v1013 : BitVec 32 := Scalar.extui v1012
  let c0_i32_417 : BitVec 32 := 0#32
  let v1014 : BitVec 1 := Scalar.cmpi .ne v1013 c0_i32_417
  v1014

def k0_chk169 (i : grid0.Coords) (v1011 : BitVec 32) (v3074 : BitVec 32) : Prop :=
  (∀ (k0_h169 : k0_cond169 v1011 = 1#1), ∀ a, (k0_off507 i v3074) a + S1x1x512.size a ≤ S1024x200x512.size a)
instance k0_chk169.dec : ∀ (i : grid0.Coords) (v1011 : BitVec 32) (v3074 : BitVec 32), Decidable (k0_chk169 i v1011 v3074) := fun i v1011 v3074 => decidable_of_iff' _ (Iff.of_eq (k0_chk169.eq_1 i v1011 v3074))
theorem k0_off507_inb : ∀ (i : grid0.Coords) (v1011 : BitVec 32) (v3074 : BitVec 32) (k0_hw169 : k0_chk169 i v1011 v3074), ∀ (k0_h169 : k0_cond169 v1011 = 1#1), ∀ a, (k0_off507 i v3074) a + S1x1x512.size a ≤ S1024x200x512.size a := fun i v1011 v3074 k0_hw169 k0_h169 => k0_hw169 k0_h169

def k0_off508 (i : grid0.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v1015 : BitVec 32 := Scalar.addi v0 c89_i32
  let v1016 : Index := Scalar.indexCast v1015
  ![v1016.toNat]
def k0_off509 (i : grid0.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v1015 : BitVec 32 := Scalar.addi v0 c89_i32
  let v3073 : Index := Scalar.indexCast v1015
  ![v3073.toNat]
def k0_off510 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c89_i32 : BitVec 32 := 89#32
  let v1015 : BitVec 32 := Scalar.addi v0 c89_i32
  let c0_i32_1287 : BitVec 32 := 0#32
  ![v1015.toNat, v3074.toNat, 0]
def k0_cond170 (v1017 : BitVec 32) : BitVec 1 :=
  let c0_i32_418 : BitVec 32 := 0#32
  let v1018 : BitVec 1 := Scalar.cmpi .sgt v1017 c0_i32_418
  let v1019 : BitVec 32 := Scalar.extui v1018
  let c0_i32_419 : BitVec 32 := 0#32
  let v1020 : BitVec 1 := Scalar.cmpi .ne v1019 c0_i32_419
  v1020

def k0_chk170 (i : grid0.Coords) (v1017 : BitVec 32) (v3074 : BitVec 32) : Prop :=
  (∀ (k0_h170 : k0_cond170 v1017 = 1#1), ∀ a, (k0_off510 i v3074) a + S1x1x512.size a ≤ S1024x200x512.size a)
instance k0_chk170.dec : ∀ (i : grid0.Coords) (v1017 : BitVec 32) (v3074 : BitVec 32), Decidable (k0_chk170 i v1017 v3074) := fun i v1017 v3074 => decidable_of_iff' _ (Iff.of_eq (k0_chk170.eq_1 i v1017 v3074))
theorem k0_off510_inb : ∀ (i : grid0.Coords) (v1017 : BitVec 32) (v3074 : BitVec 32) (k0_hw170 : k0_chk170 i v1017 v3074), ∀ (k0_h170 : k0_cond170 v1017 = 1#1), ∀ a, (k0_off510 i v3074) a + S1x1x512.size a ≤ S1024x200x512.size a := fun i v1017 v3074 k0_hw170 k0_h170 => k0_hw170 k0_h170

def k0_off511 (i : grid0.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v1021 : BitVec 32 := Scalar.addi v0 c90_i32
  let v1022 : Index := Scalar.indexCast v1021
  ![v1022.toNat]
def k0_off512 (i : grid0.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v1021 : BitVec 32 := Scalar.addi v0 c90_i32
  let v3073 : Index := Scalar.indexCast v1021
  ![v3073.toNat]
def k0_off513 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c90_i32 : BitVec 32 := 90#32
  let v1021 : BitVec 32 := Scalar.addi v0 c90_i32
  let c0_i32_1287 : BitVec 32 := 0#32
  ![v1021.toNat, v3074.toNat, 0]
def k0_cond171 (v1023 : BitVec 32) : BitVec 1 :=
  let c0_i32_420 : BitVec 32 := 0#32
  let v1024 : BitVec 1 := Scalar.cmpi .sgt v1023 c0_i32_420
  let v1025 : BitVec 32 := Scalar.extui v1024
  let c0_i32_421 : BitVec 32 := 0#32
  let v1026 : BitVec 1 := Scalar.cmpi .ne v1025 c0_i32_421
  v1026

def k0_chk171 (i : grid0.Coords) (v1023 : BitVec 32) (v3074 : BitVec 32) : Prop :=
  (∀ (k0_h171 : k0_cond171 v1023 = 1#1), ∀ a, (k0_off513 i v3074) a + S1x1x512.size a ≤ S1024x200x512.size a)
instance k0_chk171.dec : ∀ (i : grid0.Coords) (v1023 : BitVec 32) (v3074 : BitVec 32), Decidable (k0_chk171 i v1023 v3074) := fun i v1023 v3074 => decidable_of_iff' _ (Iff.of_eq (k0_chk171.eq_1 i v1023 v3074))
theorem k0_off513_inb : ∀ (i : grid0.Coords) (v1023 : BitVec 32) (v3074 : BitVec 32) (k0_hw171 : k0_chk171 i v1023 v3074), ∀ (k0_h171 : k0_cond171 v1023 = 1#1), ∀ a, (k0_off513 i v3074) a + S1x1x512.size a ≤ S1024x200x512.size a := fun i v1023 v3074 k0_hw171 k0_h171 => k0_hw171 k0_h171

def k0_off514 (i : grid0.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v1027 : BitVec 32 := Scalar.addi v0 c91_i32
  let v1028 : Index := Scalar.indexCast v1027
  ![v1028.toNat]
def k0_off515 (i : grid0.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v1027 : BitVec 32 := Scalar.addi v0 c91_i32
  let v3073 : Index := Scalar.indexCast v1027
  ![v3073.toNat]
def k0_off516 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c91_i32 : BitVec 32 := 91#32
  let v1027 : BitVec 32 := Scalar.addi v0 c91_i32
  let c0_i32_1287 : BitVec 32 := 0#32
  ![v1027.toNat, v3074.toNat, 0]
def k0_cond172 (v1029 : BitVec 32) : BitVec 1 :=
  let c0_i32_422 : BitVec 32 := 0#32
  let v1030 : BitVec 1 := Scalar.cmpi .sgt v1029 c0_i32_422
  let v1031 : BitVec 32 := Scalar.extui v1030
  let c0_i32_423 : BitVec 32 := 0#32
  let v1032 : BitVec 1 := Scalar.cmpi .ne v1031 c0_i32_423
  v1032

def k0_chk172 (i : grid0.Coords) (v1029 : BitVec 32) (v3074 : BitVec 32) : Prop :=
  (∀ (k0_h172 : k0_cond172 v1029 = 1#1), ∀ a, (k0_off516 i v3074) a + S1x1x512.size a ≤ S1024x200x512.size a)
instance k0_chk172.dec : ∀ (i : grid0.Coords) (v1029 : BitVec 32) (v3074 : BitVec 32), Decidable (k0_chk172 i v1029 v3074) := fun i v1029 v3074 => decidable_of_iff' _ (Iff.of_eq (k0_chk172.eq_1 i v1029 v3074))
theorem k0_off516_inb : ∀ (i : grid0.Coords) (v1029 : BitVec 32) (v3074 : BitVec 32) (k0_hw172 : k0_chk172 i v1029 v3074), ∀ (k0_h172 : k0_cond172 v1029 = 1#1), ∀ a, (k0_off516 i v3074) a + S1x1x512.size a ≤ S1024x200x512.size a := fun i v1029 v3074 k0_hw172 k0_h172 => k0_hw172 k0_h172

def k0_off517 (i : grid0.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v1033 : BitVec 32 := Scalar.addi v0 c92_i32
  let v1034 : Index := Scalar.indexCast v1033
  ![v1034.toNat]
def k0_off518 (i : grid0.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v1033 : BitVec 32 := Scalar.addi v0 c92_i32
  let v3073 : Index := Scalar.indexCast v1033
  ![v3073.toNat]
def k0_off519 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c92_i32 : BitVec 32 := 92#32
  let v1033 : BitVec 32 := Scalar.addi v0 c92_i32
  let c0_i32_1287 : BitVec 32 := 0#32
  ![v1033.toNat, v3074.toNat, 0]
def k0_cond173 (v1035 : BitVec 32) : BitVec 1 :=
  let c0_i32_424 : BitVec 32 := 0#32
  let v1036 : BitVec 1 := Scalar.cmpi .sgt v1035 c0_i32_424
  let v1037 : BitVec 32 := Scalar.extui v1036
  let c0_i32_425 : BitVec 32 := 0#32
  let v1038 : BitVec 1 := Scalar.cmpi .ne v1037 c0_i32_425
  v1038

def k0_chk173 (i : grid0.Coords) (v1035 : BitVec 32) (v3074 : BitVec 32) : Prop :=
  (∀ (k0_h173 : k0_cond173 v1035 = 1#1), ∀ a, (k0_off519 i v3074) a + S1x1x512.size a ≤ S1024x200x512.size a)
instance k0_chk173.dec : ∀ (i : grid0.Coords) (v1035 : BitVec 32) (v3074 : BitVec 32), Decidable (k0_chk173 i v1035 v3074) := fun i v1035 v3074 => decidable_of_iff' _ (Iff.of_eq (k0_chk173.eq_1 i v1035 v3074))
theorem k0_off519_inb : ∀ (i : grid0.Coords) (v1035 : BitVec 32) (v3074 : BitVec 32) (k0_hw173 : k0_chk173 i v1035 v3074), ∀ (k0_h173 : k0_cond173 v1035 = 1#1), ∀ a, (k0_off519 i v3074) a + S1x1x512.size a ≤ S1024x200x512.size a := fun i v1035 v3074 k0_hw173 k0_h173 => k0_hw173 k0_h173

def k0_off520 (i : grid0.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v1039 : BitVec 32 := Scalar.addi v0 c93_i32
  let v1040 : Index := Scalar.indexCast v1039
  ![v1040.toNat]
def k0_off521 (i : grid0.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v1039 : BitVec 32 := Scalar.addi v0 c93_i32
  let v3073 : Index := Scalar.indexCast v1039
  ![v3073.toNat]
def k0_off522 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c93_i32 : BitVec 32 := 93#32
  let v1039 : BitVec 32 := Scalar.addi v0 c93_i32
  let c0_i32_1287 : BitVec 32 := 0#32
  ![v1039.toNat, v3074.toNat, 0]
def k0_cond174 (v1041 : BitVec 32) : BitVec 1 :=
  let c0_i32_426 : BitVec 32 := 0#32
  let v1042 : BitVec 1 := Scalar.cmpi .sgt v1041 c0_i32_426
  let v1043 : BitVec 32 := Scalar.extui v1042
  let c0_i32_427 : BitVec 32 := 0#32
  let v1044 : BitVec 1 := Scalar.cmpi .ne v1043 c0_i32_427
  v1044

def k0_chk174 (i : grid0.Coords) (v1041 : BitVec 32) (v3074 : BitVec 32) : Prop :=
  (∀ (k0_h174 : k0_cond174 v1041 = 1#1), ∀ a, (k0_off522 i v3074) a + S1x1x512.size a ≤ S1024x200x512.size a)
instance k0_chk174.dec : ∀ (i : grid0.Coords) (v1041 : BitVec 32) (v3074 : BitVec 32), Decidable (k0_chk174 i v1041 v3074) := fun i v1041 v3074 => decidable_of_iff' _ (Iff.of_eq (k0_chk174.eq_1 i v1041 v3074))
theorem k0_off522_inb : ∀ (i : grid0.Coords) (v1041 : BitVec 32) (v3074 : BitVec 32) (k0_hw174 : k0_chk174 i v1041 v3074), ∀ (k0_h174 : k0_cond174 v1041 = 1#1), ∀ a, (k0_off522 i v3074) a + S1x1x512.size a ≤ S1024x200x512.size a := fun i v1041 v3074 k0_hw174 k0_h174 => k0_hw174 k0_h174

def k0_off523 (i : grid0.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v1045 : BitVec 32 := Scalar.addi v0 c94_i32
  let v1046 : Index := Scalar.indexCast v1045
  ![v1046.toNat]
def k0_off524 (i : grid0.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v1045 : BitVec 32 := Scalar.addi v0 c94_i32
  let v3073 : Index := Scalar.indexCast v1045
  ![v3073.toNat]
def k0_off525 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c94_i32 : BitVec 32 := 94#32
  let v1045 : BitVec 32 := Scalar.addi v0 c94_i32
  let c0_i32_1287 : BitVec 32 := 0#32
  ![v1045.toNat, v3074.toNat, 0]
def k0_cond175 (v1047 : BitVec 32) : BitVec 1 :=
  let c0_i32_428 : BitVec 32 := 0#32
  let v1048 : BitVec 1 := Scalar.cmpi .sgt v1047 c0_i32_428
  let v1049 : BitVec 32 := Scalar.extui v1048
  let c0_i32_429 : BitVec 32 := 0#32
  let v1050 : BitVec 1 := Scalar.cmpi .ne v1049 c0_i32_429
  v1050

def k0_chk175 (i : grid0.Coords) (v1047 : BitVec 32) (v3074 : BitVec 32) : Prop :=
  (∀ (k0_h175 : k0_cond175 v1047 = 1#1), ∀ a, (k0_off525 i v3074) a + S1x1x512.size a ≤ S1024x200x512.size a)
instance k0_chk175.dec : ∀ (i : grid0.Coords) (v1047 : BitVec 32) (v3074 : BitVec 32), Decidable (k0_chk175 i v1047 v3074) := fun i v1047 v3074 => decidable_of_iff' _ (Iff.of_eq (k0_chk175.eq_1 i v1047 v3074))
theorem k0_off525_inb : ∀ (i : grid0.Coords) (v1047 : BitVec 32) (v3074 : BitVec 32) (k0_hw175 : k0_chk175 i v1047 v3074), ∀ (k0_h175 : k0_cond175 v1047 = 1#1), ∀ a, (k0_off525 i v3074) a + S1x1x512.size a ≤ S1024x200x512.size a := fun i v1047 v3074 k0_hw175 k0_h175 => k0_hw175 k0_h175

def k0_off526 (i : grid0.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v1051 : BitVec 32 := Scalar.addi v0 c95_i32
  let v1052 : Index := Scalar.indexCast v1051
  ![v1052.toNat]
def k0_off527 (i : grid0.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v1051 : BitVec 32 := Scalar.addi v0 c95_i32
  let v3073 : Index := Scalar.indexCast v1051
  ![v3073.toNat]
def k0_off528 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c95_i32 : BitVec 32 := 95#32
  let v1051 : BitVec 32 := Scalar.addi v0 c95_i32
  let c0_i32_1287 : BitVec 32 := 0#32
  ![v1051.toNat, v3074.toNat, 0]
def k0_cond176 (v1053 : BitVec 32) : BitVec 1 :=
  let c0_i32_430 : BitVec 32 := 0#32
  let v1054 : BitVec 1 := Scalar.cmpi .sgt v1053 c0_i32_430
  let v1055 : BitVec 32 := Scalar.extui v1054
  let c0_i32_431 : BitVec 32 := 0#32
  let v1056 : BitVec 1 := Scalar.cmpi .ne v1055 c0_i32_431
  v1056

def k0_chk176 (i : grid0.Coords) (v1053 : BitVec 32) (v3074 : BitVec 32) : Prop :=
  (∀ (k0_h176 : k0_cond176 v1053 = 1#1), ∀ a, (k0_off528 i v3074) a + S1x1x512.size a ≤ S1024x200x512.size a)
instance k0_chk176.dec : ∀ (i : grid0.Coords) (v1053 : BitVec 32) (v3074 : BitVec 32), Decidable (k0_chk176 i v1053 v3074) := fun i v1053 v3074 => decidable_of_iff' _ (Iff.of_eq (k0_chk176.eq_1 i v1053 v3074))
theorem k0_off528_inb : ∀ (i : grid0.Coords) (v1053 : BitVec 32) (v3074 : BitVec 32) (k0_hw176 : k0_chk176 i v1053 v3074), ∀ (k0_h176 : k0_cond176 v1053 = 1#1), ∀ a, (k0_off528 i v3074) a + S1x1x512.size a ≤ S1024x200x512.size a := fun i v1053 v3074 k0_hw176 k0_h176 => k0_hw176 k0_h176

def k0_off529 (i : grid0.Coords) : Fin 1 → Nat :=
  let arg0 : BitVec 32 := BitVec.ofNat 32 (i 0).val
  let c256_i32 : BitVec 32 := 256#32
  let v0 : BitVec 32 := Scalar.muli arg0 c256_i32
  let c80_i32_432 : BitVec 32 := 80#32
  let v1057 : BitVec 32 := Scalar.addi v0 c80_i32_432
  let v1058 : Index := Scalar.indexCast v1057
  ![v1058.toNat]
def k0_off530 (i : grid0.Coords) : Fin 1 → Nat :=
  let arg0 : BitVec 32 := BitVec.ofNat 32 (i 0).val
  let c256_i32 : BitVec 32 := 256#32
  let v0 : BitVec 32 := Scalar.muli arg0 c256_i32
  let c80_i32_432 : BitVec 32 := 80#32
  let v1057 : BitVec 32 := Scalar.addi v0 c80_i32_432
  let v3073 : Index := Scalar.indexCast v1057
  ![v3073.toNat]
def k0_off531 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c80_i32_432 : BitVec 32 := 80#32
  let v1057 : BitVec 32 := Scalar.addi v0 c80_i32_432
  let c0_i32_1282 : BitVec 32 := 0#32
  ![v1057.toNat, v3074.toNat, 0]
def k0_cond177 (v1059 : BitVec 32) : BitVec 1 :=
  let c0_i32_433 : BitVec 32 := 0#32
  let v1060 : BitVec 1 := Scalar.cmpi .sgt v1059 c0_i32_433
  let v1061 : BitVec 32 := Scalar.extui v1060
  let c0_i32_434 : BitVec 32 := 0#32
  let v1062 : BitVec 1 := Scalar.cmpi .ne v1061 c0_i32_434
  v1062

def k0_chk177 (i : grid0.Coords) (v1059 : BitVec 32) (v3074 : BitVec 32) : Prop :=
  (∀ (k0_h177 : k0_cond177 v1059 = 1#1), ∀ a, (k0_off531 i v3074) a + S1x1x512.size a ≤ S1024x200x512.size a)
instance k0_chk177.dec : ∀ (i : grid0.Coords) (v1059 : BitVec 32) (v3074 : BitVec 32), Decidable (k0_chk177 i v1059 v3074) := fun i v1059 v3074 => decidable_of_iff' _ (Iff.of_eq (k0_chk177.eq_1 i v1059 v3074))
theorem k0_off531_inb : ∀ (i : grid0.Coords) (v1059 : BitVec 32) (v3074 : BitVec 32) (k0_hw177 : k0_chk177 i v1059 v3074), ∀ (k0_h177 : k0_cond177 v1059 = 1#1), ∀ a, (k0_off531 i v3074) a + S1x1x512.size a ≤ S1024x200x512.size a := fun i v1059 v3074 k0_hw177 k0_h177 => k0_hw177 k0_h177

def k0_off532 (i : grid0.Coords) : Fin 1 → Nat :=
  let arg0 : BitVec 32 := BitVec.ofNat 32 (i 0).val
  let c256_i32 : BitVec 32 := 256#32
  let v0 : BitVec 32 := Scalar.muli arg0 c256_i32
  let c81_i32_435 : BitVec 32 := 81#32
  let v1063 : BitVec 32 := Scalar.addi v0 c81_i32_435
  let v1064 : Index := Scalar.indexCast v1063
  ![v1064.toNat]
def k0_off533 (i : grid0.Coords) : Fin 1 → Nat :=
  let arg0 : BitVec 32 := BitVec.ofNat 32 (i 0).val
  let c256_i32 : BitVec 32 := 256#32
  let v0 : BitVec 32 := Scalar.muli arg0 c256_i32
  let c81_i32_435 : BitVec 32 := 81#32
  let v1063 : BitVec 32 := Scalar.addi v0 c81_i32_435
  let v3073 : Index := Scalar.indexCast v1063
  ![v3073.toNat]
def k0_off534 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c81_i32_435 : BitVec 32 := 81#32
  let v1063 : BitVec 32 := Scalar.addi v0 c81_i32_435
  let c0_i32_1282 : BitVec 32 := 0#32
  ![v1063.toNat, v3074.toNat, 0]
def k0_cond178 (v1065 : BitVec 32) : BitVec 1 :=
  let c0_i32_436 : BitVec 32 := 0#32
  let v1066 : BitVec 1 := Scalar.cmpi .sgt v1065 c0_i32_436
  let v1067 : BitVec 32 := Scalar.extui v1066
  let c0_i32_437 : BitVec 32 := 0#32
  let v1068 : BitVec 1 := Scalar.cmpi .ne v1067 c0_i32_437
  v1068

def k0_chk178 (i : grid0.Coords) (v1065 : BitVec 32) (v3074 : BitVec 32) : Prop :=
  (∀ (k0_h178 : k0_cond178 v1065 = 1#1), ∀ a, (k0_off534 i v3074) a + S1x1x512.size a ≤ S1024x200x512.size a)
instance k0_chk178.dec : ∀ (i : grid0.Coords) (v1065 : BitVec 32) (v3074 : BitVec 32), Decidable (k0_chk178 i v1065 v3074) := fun i v1065 v3074 => decidable_of_iff' _ (Iff.of_eq (k0_chk178.eq_1 i v1065 v3074))
theorem k0_off534_inb : ∀ (i : grid0.Coords) (v1065 : BitVec 32) (v3074 : BitVec 32) (k0_hw178 : k0_chk178 i v1065 v3074), ∀ (k0_h178 : k0_cond178 v1065 = 1#1), ∀ a, (k0_off534 i v3074) a + S1x1x512.size a ≤ S1024x200x512.size a := fun i v1065 v3074 k0_hw178 k0_h178 => k0_hw178 k0_h178

def k0_off535 (i : grid0.Coords) : Fin 1 → Nat :=
  let arg0 : BitVec 32 := BitVec.ofNat 32 (i 0).val
  let c256_i32 : BitVec 32 := 256#32
  let v0 : BitVec 32 := Scalar.muli arg0 c256_i32
  let c82_i32_438 : BitVec 32 := 82#32
  let v1069 : BitVec 32 := Scalar.addi v0 c82_i32_438
  let v1070 : Index := Scalar.indexCast v1069
  ![v1070.toNat]
def k0_off536 (i : grid0.Coords) : Fin 1 → Nat :=
  let arg0 : BitVec 32 := BitVec.ofNat 32 (i 0).val
  let c256_i32 : BitVec 32 := 256#32
  let v0 : BitVec 32 := Scalar.muli arg0 c256_i32
  let c82_i32_438 : BitVec 32 := 82#32
  let v1069 : BitVec 32 := Scalar.addi v0 c82_i32_438
  let v3073 : Index := Scalar.indexCast v1069
  ![v3073.toNat]
def k0_off537 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c82_i32_438 : BitVec 32 := 82#32
  let v1069 : BitVec 32 := Scalar.addi v0 c82_i32_438
  let c0_i32_1282 : BitVec 32 := 0#32
  ![v1069.toNat, v3074.toNat, 0]
def k0_cond179 (v1071 : BitVec 32) : BitVec 1 :=
  let c0_i32_439 : BitVec 32 := 0#32
  let v1072 : BitVec 1 := Scalar.cmpi .sgt v1071 c0_i32_439
  let v1073 : BitVec 32 := Scalar.extui v1072
  let c0_i32_440 : BitVec 32 := 0#32
  let v1074 : BitVec 1 := Scalar.cmpi .ne v1073 c0_i32_440
  v1074

def k0_chk179 (i : grid0.Coords) (v1071 : BitVec 32) (v3074 : BitVec 32) : Prop :=
  (∀ (k0_h179 : k0_cond179 v1071 = 1#1), ∀ a, (k0_off537 i v3074) a + S1x1x512.size a ≤ S1024x200x512.size a)
instance k0_chk179.dec : ∀ (i : grid0.Coords) (v1071 : BitVec 32) (v3074 : BitVec 32), Decidable (k0_chk179 i v1071 v3074) := fun i v1071 v3074 => decidable_of_iff' _ (Iff.of_eq (k0_chk179.eq_1 i v1071 v3074))
theorem k0_off537_inb : ∀ (i : grid0.Coords) (v1071 : BitVec 32) (v3074 : BitVec 32) (k0_hw179 : k0_chk179 i v1071 v3074), ∀ (k0_h179 : k0_cond179 v1071 = 1#1), ∀ a, (k0_off537 i v3074) a + S1x1x512.size a ≤ S1024x200x512.size a := fun i v1071 v3074 k0_hw179 k0_h179 => k0_hw179 k0_h179

def k0_off538 (i : grid0.Coords) : Fin 1 → Nat :=
  let arg0 : BitVec 32 := BitVec.ofNat 32 (i 0).val
  let c256_i32 : BitVec 32 := 256#32
  let v0 : BitVec 32 := Scalar.muli arg0 c256_i32
  let c83_i32_441 : BitVec 32 := 83#32
  let v1075 : BitVec 32 := Scalar.addi v0 c83_i32_441
  let v1076 : Index := Scalar.indexCast v1075
  ![v1076.toNat]
def k0_off539 (i : grid0.Coords) : Fin 1 → Nat :=
  let arg0 : BitVec 32 := BitVec.ofNat 32 (i 0).val
  let c256_i32 : BitVec 32 := 256#32
  let v0 : BitVec 32 := Scalar.muli arg0 c256_i32
  let c83_i32_441 : BitVec 32 := 83#32
  let v1075 : BitVec 32 := Scalar.addi v0 c83_i32_441
  let v3073 : Index := Scalar.indexCast v1075
  ![v3073.toNat]
def k0_off540 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c83_i32_441 : BitVec 32 := 83#32
  let v1075 : BitVec 32 := Scalar.addi v0 c83_i32_441
  let c0_i32_1282 : BitVec 32 := 0#32
  ![v1075.toNat, v3074.toNat, 0]
def k0_cond180 (v1077 : BitVec 32) : BitVec 1 :=
  let c0_i32_442 : BitVec 32 := 0#32
  let v1078 : BitVec 1 := Scalar.cmpi .sgt v1077 c0_i32_442
  let v1079 : BitVec 32 := Scalar.extui v1078
  let c0_i32_443 : BitVec 32 := 0#32
  let v1080 : BitVec 1 := Scalar.cmpi .ne v1079 c0_i32_443
  v1080

def k0_chk180 (i : grid0.Coords) (v1077 : BitVec 32) (v3074 : BitVec 32) : Prop :=
  (∀ (k0_h180 : k0_cond180 v1077 = 1#1), ∀ a, (k0_off540 i v3074) a + S1x1x512.size a ≤ S1024x200x512.size a)
instance k0_chk180.dec : ∀ (i : grid0.Coords) (v1077 : BitVec 32) (v3074 : BitVec 32), Decidable (k0_chk180 i v1077 v3074) := fun i v1077 v3074 => decidable_of_iff' _ (Iff.of_eq (k0_chk180.eq_1 i v1077 v3074))
theorem k0_off540_inb : ∀ (i : grid0.Coords) (v1077 : BitVec 32) (v3074 : BitVec 32) (k0_hw180 : k0_chk180 i v1077 v3074), ∀ (k0_h180 : k0_cond180 v1077 = 1#1), ∀ a, (k0_off540 i v3074) a + S1x1x512.size a ≤ S1024x200x512.size a := fun i v1077 v3074 k0_hw180 k0_h180 => k0_hw180 k0_h180

def k0_off541 (i : grid0.Coords) : Fin 1 → Nat :=
  let arg0 : BitVec 32 := BitVec.ofNat 32 (i 0).val
  let c256_i32 : BitVec 32 := 256#32
  let v0 : BitVec 32 := Scalar.muli arg0 c256_i32
  let c84_i32_444 : BitVec 32 := 84#32
  let v1081 : BitVec 32 := Scalar.addi v0 c84_i32_444
  let v1082 : Index := Scalar.indexCast v1081
  ![v1082.toNat]
def k0_off542 (i : grid0.Coords) : Fin 1 → Nat :=
  let arg0 : BitVec 32 := BitVec.ofNat 32 (i 0).val
  let c256_i32 : BitVec 32 := 256#32
  let v0 : BitVec 32 := Scalar.muli arg0 c256_i32
  let c84_i32_444 : BitVec 32 := 84#32
  let v1081 : BitVec 32 := Scalar.addi v0 c84_i32_444
  let v3073 : Index := Scalar.indexCast v1081
  ![v3073.toNat]
def k0_off543 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c84_i32_444 : BitVec 32 := 84#32
  let v1081 : BitVec 32 := Scalar.addi v0 c84_i32_444
  let c0_i32_1282 : BitVec 32 := 0#32
  ![v1081.toNat, v3074.toNat, 0]
def k0_cond181 (v1083 : BitVec 32) : BitVec 1 :=
  let c0_i32_445 : BitVec 32 := 0#32
  let v1084 : BitVec 1 := Scalar.cmpi .sgt v1083 c0_i32_445
  let v1085 : BitVec 32 := Scalar.extui v1084
  let c0_i32_446 : BitVec 32 := 0#32
  let v1086 : BitVec 1 := Scalar.cmpi .ne v1085 c0_i32_446
  v1086

def k0_chk181 (i : grid0.Coords) (v1083 : BitVec 32) (v3074 : BitVec 32) : Prop :=
  (∀ (k0_h181 : k0_cond181 v1083 = 1#1), ∀ a, (k0_off543 i v3074) a + S1x1x512.size a ≤ S1024x200x512.size a)
instance k0_chk181.dec : ∀ (i : grid0.Coords) (v1083 : BitVec 32) (v3074 : BitVec 32), Decidable (k0_chk181 i v1083 v3074) := fun i v1083 v3074 => decidable_of_iff' _ (Iff.of_eq (k0_chk181.eq_1 i v1083 v3074))
theorem k0_off543_inb : ∀ (i : grid0.Coords) (v1083 : BitVec 32) (v3074 : BitVec 32) (k0_hw181 : k0_chk181 i v1083 v3074), ∀ (k0_h181 : k0_cond181 v1083 = 1#1), ∀ a, (k0_off543 i v3074) a + S1x1x512.size a ≤ S1024x200x512.size a := fun i v1083 v3074 k0_hw181 k0_h181 => k0_hw181 k0_h181

def k0_off544 (i : grid0.Coords) : Fin 1 → Nat :=
  let arg0 : BitVec 32 := BitVec.ofNat 32 (i 0).val
  let c256_i32 : BitVec 32 := 256#32
  let v0 : BitVec 32 := Scalar.muli arg0 c256_i32
  let c85_i32_447 : BitVec 32 := 85#32
  let v1087 : BitVec 32 := Scalar.addi v0 c85_i32_447
  let v1088 : Index := Scalar.indexCast v1087
  ![v1088.toNat]
def k0_off545 (i : grid0.Coords) : Fin 1 → Nat :=
  let arg0 : BitVec 32 := BitVec.ofNat 32 (i 0).val
  let c256_i32 : BitVec 32 := 256#32
  let v0 : BitVec 32 := Scalar.muli arg0 c256_i32
  let c85_i32_447 : BitVec 32 := 85#32
  let v1087 : BitVec 32 := Scalar.addi v0 c85_i32_447
  let v3073 : Index := Scalar.indexCast v1087
  ![v3073.toNat]
def k0_off546 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c85_i32_447 : BitVec 32 := 85#32
  let v1087 : BitVec 32 := Scalar.addi v0 c85_i32_447
  let c0_i32_1282 : BitVec 32 := 0#32
  ![v1087.toNat, v3074.toNat, 0]
def k0_cond182 (v1089 : BitVec 32) : BitVec 1 :=
  let c0_i32_448 : BitVec 32 := 0#32
  let v1090 : BitVec 1 := Scalar.cmpi .sgt v1089 c0_i32_448
  let v1091 : BitVec 32 := Scalar.extui v1090
  let c0_i32_449 : BitVec 32 := 0#32
  let v1092 : BitVec 1 := Scalar.cmpi .ne v1091 c0_i32_449
  v1092

def k0_chk182 (i : grid0.Coords) (v1089 : BitVec 32) (v3074 : BitVec 32) : Prop :=
  (∀ (k0_h182 : k0_cond182 v1089 = 1#1), ∀ a, (k0_off546 i v3074) a + S1x1x512.size a ≤ S1024x200x512.size a)
instance k0_chk182.dec : ∀ (i : grid0.Coords) (v1089 : BitVec 32) (v3074 : BitVec 32), Decidable (k0_chk182 i v1089 v3074) := fun i v1089 v3074 => decidable_of_iff' _ (Iff.of_eq (k0_chk182.eq_1 i v1089 v3074))
theorem k0_off546_inb : ∀ (i : grid0.Coords) (v1089 : BitVec 32) (v3074 : BitVec 32) (k0_hw182 : k0_chk182 i v1089 v3074), ∀ (k0_h182 : k0_cond182 v1089 = 1#1), ∀ a, (k0_off546 i v3074) a + S1x1x512.size a ≤ S1024x200x512.size a := fun i v1089 v3074 k0_hw182 k0_h182 => k0_hw182 k0_h182

def k0_off547 (i : grid0.Coords) : Fin 1 → Nat :=
  let arg0 : BitVec 32 := BitVec.ofNat 32 (i 0).val
  let c256_i32 : BitVec 32 := 256#32
  let v0 : BitVec 32 := Scalar.muli arg0 c256_i32
  let c86_i32_450 : BitVec 32 := 86#32
  let v1093 : BitVec 32 := Scalar.addi v0 c86_i32_450
  let v1094 : Index := Scalar.indexCast v1093
  ![v1094.toNat]
def k0_off548 (i : grid0.Coords) : Fin 1 → Nat :=
  let arg0 : BitVec 32 := BitVec.ofNat 32 (i 0).val
  let c256_i32 : BitVec 32 := 256#32
  let v0 : BitVec 32 := Scalar.muli arg0 c256_i32
  let c86_i32_450 : BitVec 32 := 86#32
  let v1093 : BitVec 32 := Scalar.addi v0 c86_i32_450
  let v3073 : Index := Scalar.indexCast v1093
  ![v3073.toNat]
def k0_off549 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c86_i32_450 : BitVec 32 := 86#32
  let v1093 : BitVec 32 := Scalar.addi v0 c86_i32_450
  let c0_i32_1282 : BitVec 32 := 0#32
  ![v1093.toNat, v3074.toNat, 0]
def k0_cond183 (v1095 : BitVec 32) : BitVec 1 :=
  let c0_i32_451 : BitVec 32 := 0#32
  let v1096 : BitVec 1 := Scalar.cmpi .sgt v1095 c0_i32_451
  let v1097 : BitVec 32 := Scalar.extui v1096
  let c0_i32_452 : BitVec 32 := 0#32
  let v1098 : BitVec 1 := Scalar.cmpi .ne v1097 c0_i32_452
  v1098

def k0_chk183 (i : grid0.Coords) (v1095 : BitVec 32) (v3074 : BitVec 32) : Prop :=
  (∀ (k0_h183 : k0_cond183 v1095 = 1#1), ∀ a, (k0_off549 i v3074) a + S1x1x512.size a ≤ S1024x200x512.size a)
instance k0_chk183.dec : ∀ (i : grid0.Coords) (v1095 : BitVec 32) (v3074 : BitVec 32), Decidable (k0_chk183 i v1095 v3074) := fun i v1095 v3074 => decidable_of_iff' _ (Iff.of_eq (k0_chk183.eq_1 i v1095 v3074))
theorem k0_off549_inb : ∀ (i : grid0.Coords) (v1095 : BitVec 32) (v3074 : BitVec 32) (k0_hw183 : k0_chk183 i v1095 v3074), ∀ (k0_h183 : k0_cond183 v1095 = 1#1), ∀ a, (k0_off549 i v3074) a + S1x1x512.size a ≤ S1024x200x512.size a := fun i v1095 v3074 k0_hw183 k0_h183 => k0_hw183 k0_h183

def k0_off550 (i : grid0.Coords) : Fin 1 → Nat :=
  let arg0 : BitVec 32 := BitVec.ofNat 32 (i 0).val
  let c256_i32 : BitVec 32 := 256#32
  let v0 : BitVec 32 := Scalar.muli arg0 c256_i32
  let c87_i32_453 : BitVec 32 := 87#32
  let v1099 : BitVec 32 := Scalar.addi v0 c87_i32_453
  let v1100 : Index := Scalar.indexCast v1099
  ![v1100.toNat]
def k0_off551 (i : grid0.Coords) : Fin 1 → Nat :=
  let arg0 : BitVec 32 := BitVec.ofNat 32 (i 0).val
  let c256_i32 : BitVec 32 := 256#32
  let v0 : BitVec 32 := Scalar.muli arg0 c256_i32
  let c87_i32_453 : BitVec 32 := 87#32
  let v1099 : BitVec 32 := Scalar.addi v0 c87_i32_453
  let v3073 : Index := Scalar.indexCast v1099
  ![v3073.toNat]
def k0_off552 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c87_i32_453 : BitVec 32 := 87#32
  let v1099 : BitVec 32 := Scalar.addi v0 c87_i32_453
  let c0_i32_1282 : BitVec 32 := 0#32
  ![v1099.toNat, v3074.toNat, 0]
def k0_cond184 (v1101 : BitVec 32) : BitVec 1 :=
  let c0_i32_454 : BitVec 32 := 0#32
  let v1102 : BitVec 1 := Scalar.cmpi .sgt v1101 c0_i32_454
  let v1103 : BitVec 32 := Scalar.extui v1102
  let c0_i32_455 : BitVec 32 := 0#32
  let v1104 : BitVec 1 := Scalar.cmpi .ne v1103 c0_i32_455
  v1104

def k0_chk184 (i : grid0.Coords) (v1101 : BitVec 32) (v3074 : BitVec 32) : Prop :=
  (∀ (k0_h184 : k0_cond184 v1101 = 1#1), ∀ a, (k0_off552 i v3074) a + S1x1x512.size a ≤ S1024x200x512.size a)
instance k0_chk184.dec : ∀ (i : grid0.Coords) (v1101 : BitVec 32) (v3074 : BitVec 32), Decidable (k0_chk184 i v1101 v3074) := fun i v1101 v3074 => decidable_of_iff' _ (Iff.of_eq (k0_chk184.eq_1 i v1101 v3074))
theorem k0_off552_inb : ∀ (i : grid0.Coords) (v1101 : BitVec 32) (v3074 : BitVec 32) (k0_hw184 : k0_chk184 i v1101 v3074), ∀ (k0_h184 : k0_cond184 v1101 = 1#1), ∀ a, (k0_off552 i v3074) a + S1x1x512.size a ≤ S1024x200x512.size a := fun i v1101 v3074 k0_hw184 k0_h184 => k0_hw184 k0_h184

def k0_off553 (i : grid0.Coords) : Fin 1 → Nat :=
  let arg0 : BitVec 32 := BitVec.ofNat 32 (i 0).val
  let c256_i32 : BitVec 32 := 256#32
  let v0 : BitVec 32 := Scalar.muli arg0 c256_i32
  let c88_i32_456 : BitVec 32 := 88#32
  let v1105 : BitVec 32 := Scalar.addi v0 c88_i32_456
  let v1106 : Index := Scalar.indexCast v1105
  ![v1106.toNat]
def k0_off554 (i : grid0.Coords) : Fin 1 → Nat :=
  let arg0 : BitVec 32 := BitVec.ofNat 32 (i 0).val
  let c256_i32 : BitVec 32 := 256#32
  let v0 : BitVec 32 := Scalar.muli arg0 c256_i32
  let c88_i32_456 : BitVec 32 := 88#32
  let v1105 : BitVec 32 := Scalar.addi v0 c88_i32_456
  let v3073 : Index := Scalar.indexCast v1105
  ![v3073.toNat]
def k0_off555 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c88_i32_456 : BitVec 32 := 88#32
  let v1105 : BitVec 32 := Scalar.addi v0 c88_i32_456
  let c0_i32_1282 : BitVec 32 := 0#32
  ![v1105.toNat, v3074.toNat, 0]
def k0_cond185 (v1107 : BitVec 32) : BitVec 1 :=
  let c0_i32_457 : BitVec 32 := 0#32
  let v1108 : BitVec 1 := Scalar.cmpi .sgt v1107 c0_i32_457
  let v1109 : BitVec 32 := Scalar.extui v1108
  let c0_i32_458 : BitVec 32 := 0#32
  let v1110 : BitVec 1 := Scalar.cmpi .ne v1109 c0_i32_458
  v1110

def k0_chk185 (i : grid0.Coords) (v1107 : BitVec 32) (v3074 : BitVec 32) : Prop :=
  (∀ (k0_h185 : k0_cond185 v1107 = 1#1), ∀ a, (k0_off555 i v3074) a + S1x1x512.size a ≤ S1024x200x512.size a)
instance k0_chk185.dec : ∀ (i : grid0.Coords) (v1107 : BitVec 32) (v3074 : BitVec 32), Decidable (k0_chk185 i v1107 v3074) := fun i v1107 v3074 => decidable_of_iff' _ (Iff.of_eq (k0_chk185.eq_1 i v1107 v3074))
theorem k0_off555_inb : ∀ (i : grid0.Coords) (v1107 : BitVec 32) (v3074 : BitVec 32) (k0_hw185 : k0_chk185 i v1107 v3074), ∀ (k0_h185 : k0_cond185 v1107 = 1#1), ∀ a, (k0_off555 i v3074) a + S1x1x512.size a ≤ S1024x200x512.size a := fun i v1107 v3074 k0_hw185 k0_h185 => k0_hw185 k0_h185

def k0_off556 (i : grid0.Coords) : Fin 1 → Nat :=
  let arg0 : BitVec 32 := BitVec.ofNat 32 (i 0).val
  let c256_i32 : BitVec 32 := 256#32
  let v0 : BitVec 32 := Scalar.muli arg0 c256_i32
  let c89_i32_459 : BitVec 32 := 89#32
  let v1111 : BitVec 32 := Scalar.addi v0 c89_i32_459
  let v1112 : Index := Scalar.indexCast v1111
  ![v1112.toNat]
def k0_off557 (i : grid0.Coords) : Fin 1 → Nat :=
  let arg0 : BitVec 32 := BitVec.ofNat 32 (i 0).val
  let c256_i32 : BitVec 32 := 256#32
  let v0 : BitVec 32 := Scalar.muli arg0 c256_i32
  let c89_i32_459 : BitVec 32 := 89#32
  let v1111 : BitVec 32 := Scalar.addi v0 c89_i32_459
  let v3073 : Index := Scalar.indexCast v1111
  ![v3073.toNat]
def k0_off558 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c89_i32_459 : BitVec 32 := 89#32
  let v1111 : BitVec 32 := Scalar.addi v0 c89_i32_459
  let c0_i32_1282 : BitVec 32 := 0#32
  ![v1111.toNat, v3074.toNat, 0]
def k0_cond186 (v1113 : BitVec 32) : BitVec 1 :=
  let c0_i32_460 : BitVec 32 := 0#32
  let v1114 : BitVec 1 := Scalar.cmpi .sgt v1113 c0_i32_460
  let v1115 : BitVec 32 := Scalar.extui v1114
  let c0_i32_461 : BitVec 32 := 0#32
  let v1116 : BitVec 1 := Scalar.cmpi .ne v1115 c0_i32_461
  v1116

def k0_chk186 (i : grid0.Coords) (v1113 : BitVec 32) (v3074 : BitVec 32) : Prop :=
  (∀ (k0_h186 : k0_cond186 v1113 = 1#1), ∀ a, (k0_off558 i v3074) a + S1x1x512.size a ≤ S1024x200x512.size a)
instance k0_chk186.dec : ∀ (i : grid0.Coords) (v1113 : BitVec 32) (v3074 : BitVec 32), Decidable (k0_chk186 i v1113 v3074) := fun i v1113 v3074 => decidable_of_iff' _ (Iff.of_eq (k0_chk186.eq_1 i v1113 v3074))
theorem k0_off558_inb : ∀ (i : grid0.Coords) (v1113 : BitVec 32) (v3074 : BitVec 32) (k0_hw186 : k0_chk186 i v1113 v3074), ∀ (k0_h186 : k0_cond186 v1113 = 1#1), ∀ a, (k0_off558 i v3074) a + S1x1x512.size a ≤ S1024x200x512.size a := fun i v1113 v3074 k0_hw186 k0_h186 => k0_hw186 k0_h186

def k0_off559 (i : grid0.Coords) : Fin 1 → Nat :=
  let arg0 : BitVec 32 := BitVec.ofNat 32 (i 0).val
  let c256_i32 : BitVec 32 := 256#32
  let v0 : BitVec 32 := Scalar.muli arg0 c256_i32
  let c90_i32_462 : BitVec 32 := 90#32
  let v1117 : BitVec 32 := Scalar.addi v0 c90_i32_462
  let v1118 : Index := Scalar.indexCast v1117
  ![v1118.toNat]
def k0_off560 (i : grid0.Coords) : Fin 1 → Nat :=
  let arg0 : BitVec 32 := BitVec.ofNat 32 (i 0).val
  let c256_i32 : BitVec 32 := 256#32
  let v0 : BitVec 32 := Scalar.muli arg0 c256_i32
  let c90_i32_462 : BitVec 32 := 90#32
  let v1117 : BitVec 32 := Scalar.addi v0 c90_i32_462
  let v3073 : Index := Scalar.indexCast v1117
  ![v3073.toNat]
def k0_off561 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c90_i32_462 : BitVec 32 := 90#32
  let v1117 : BitVec 32 := Scalar.addi v0 c90_i32_462
  let c0_i32_1282 : BitVec 32 := 0#32
  ![v1117.toNat, v3074.toNat, 0]
def k0_cond187 (v1119 : BitVec 32) : BitVec 1 :=
  let c0_i32_463 : BitVec 32 := 0#32
  let v1120 : BitVec 1 := Scalar.cmpi .sgt v1119 c0_i32_463
  let v1121 : BitVec 32 := Scalar.extui v1120
  let c0_i32_464 : BitVec 32 := 0#32
  let v1122 : BitVec 1 := Scalar.cmpi .ne v1121 c0_i32_464
  v1122

def k0_chk187 (i : grid0.Coords) (v1119 : BitVec 32) (v3074 : BitVec 32) : Prop :=
  (∀ (k0_h187 : k0_cond187 v1119 = 1#1), ∀ a, (k0_off561 i v3074) a + S1x1x512.size a ≤ S1024x200x512.size a)
instance k0_chk187.dec : ∀ (i : grid0.Coords) (v1119 : BitVec 32) (v3074 : BitVec 32), Decidable (k0_chk187 i v1119 v3074) := fun i v1119 v3074 => decidable_of_iff' _ (Iff.of_eq (k0_chk187.eq_1 i v1119 v3074))
theorem k0_off561_inb : ∀ (i : grid0.Coords) (v1119 : BitVec 32) (v3074 : BitVec 32) (k0_hw187 : k0_chk187 i v1119 v3074), ∀ (k0_h187 : k0_cond187 v1119 = 1#1), ∀ a, (k0_off561 i v3074) a + S1x1x512.size a ≤ S1024x200x512.size a := fun i v1119 v3074 k0_hw187 k0_h187 => k0_hw187 k0_h187

def k0_off562 (i : grid0.Coords) : Fin 1 → Nat :=
  let arg0 : BitVec 32 := BitVec.ofNat 32 (i 0).val
  let c256_i32 : BitVec 32 := 256#32
  let v0 : BitVec 32 := Scalar.muli arg0 c256_i32
  let c91_i32_465 : BitVec 32 := 91#32
  let v1123 : BitVec 32 := Scalar.addi v0 c91_i32_465
  let v1124 : Index := Scalar.indexCast v1123
  ![v1124.toNat]
def k0_off563 (i : grid0.Coords) : Fin 1 → Nat :=
  let arg0 : BitVec 32 := BitVec.ofNat 32 (i 0).val
  let c256_i32 : BitVec 32 := 256#32
  let v0 : BitVec 32 := Scalar.muli arg0 c256_i32
  let c91_i32_465 : BitVec 32 := 91#32
  let v1123 : BitVec 32 := Scalar.addi v0 c91_i32_465
  let v3073 : Index := Scalar.indexCast v1123
  ![v3073.toNat]
def k0_off564 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c91_i32_465 : BitVec 32 := 91#32
  let v1123 : BitVec 32 := Scalar.addi v0 c91_i32_465
  let c0_i32_1282 : BitVec 32 := 0#32
  ![v1123.toNat, v3074.toNat, 0]
def k0_cond188 (v1125 : BitVec 32) : BitVec 1 :=
  let c0_i32_466 : BitVec 32 := 0#32
  let v1126 : BitVec 1 := Scalar.cmpi .sgt v1125 c0_i32_466
  let v1127 : BitVec 32 := Scalar.extui v1126
  let c0_i32_467 : BitVec 32 := 0#32
  let v1128 : BitVec 1 := Scalar.cmpi .ne v1127 c0_i32_467
  v1128

def k0_chk188 (i : grid0.Coords) (v1125 : BitVec 32) (v3074 : BitVec 32) : Prop :=
  (∀ (k0_h188 : k0_cond188 v1125 = 1#1), ∀ a, (k0_off564 i v3074) a + S1x1x512.size a ≤ S1024x200x512.size a)
instance k0_chk188.dec : ∀ (i : grid0.Coords) (v1125 : BitVec 32) (v3074 : BitVec 32), Decidable (k0_chk188 i v1125 v3074) := fun i v1125 v3074 => decidable_of_iff' _ (Iff.of_eq (k0_chk188.eq_1 i v1125 v3074))
theorem k0_off564_inb : ∀ (i : grid0.Coords) (v1125 : BitVec 32) (v3074 : BitVec 32) (k0_hw188 : k0_chk188 i v1125 v3074), ∀ (k0_h188 : k0_cond188 v1125 = 1#1), ∀ a, (k0_off564 i v3074) a + S1x1x512.size a ≤ S1024x200x512.size a := fun i v1125 v3074 k0_hw188 k0_h188 => k0_hw188 k0_h188

def k0_off565 (i : grid0.Coords) : Fin 1 → Nat :=
  let arg0 : BitVec 32 := BitVec.ofNat 32 (i 0).val
  let c256_i32 : BitVec 32 := 256#32
  let v0 : BitVec 32 := Scalar.muli arg0 c256_i32
  let c92_i32_468 : BitVec 32 := 92#32
  let v1129 : BitVec 32 := Scalar.addi v0 c92_i32_468
  let v1130 : Index := Scalar.indexCast v1129
  ![v1130.toNat]
def k0_off566 (i : grid0.Coords) : Fin 1 → Nat :=
  let arg0 : BitVec 32 := BitVec.ofNat 32 (i 0).val
  let c256_i32 : BitVec 32 := 256#32
  let v0 : BitVec 32 := Scalar.muli arg0 c256_i32
  let c92_i32_468 : BitVec 32 := 92#32
  let v1129 : BitVec 32 := Scalar.addi v0 c92_i32_468
  let v3073 : Index := Scalar.indexCast v1129
  ![v3073.toNat]
def k0_off567 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c92_i32_468 : BitVec 32 := 92#32
  let v1129 : BitVec 32 := Scalar.addi v0 c92_i32_468
  let c0_i32_1282 : BitVec 32 := 0#32
  ![v1129.toNat, v3074.toNat, 0]
def k0_cond189 (v1131 : BitVec 32) : BitVec 1 :=
  let c0_i32_469 : BitVec 32 := 0#32
  let v1132 : BitVec 1 := Scalar.cmpi .sgt v1131 c0_i32_469
  let v1133 : BitVec 32 := Scalar.extui v1132
  let c0_i32_470 : BitVec 32 := 0#32
  let v1134 : BitVec 1 := Scalar.cmpi .ne v1133 c0_i32_470
  v1134

def k0_chk189 (i : grid0.Coords) (v1131 : BitVec 32) (v3074 : BitVec 32) : Prop :=
  (∀ (k0_h189 : k0_cond189 v1131 = 1#1), ∀ a, (k0_off567 i v3074) a + S1x1x512.size a ≤ S1024x200x512.size a)
instance k0_chk189.dec : ∀ (i : grid0.Coords) (v1131 : BitVec 32) (v3074 : BitVec 32), Decidable (k0_chk189 i v1131 v3074) := fun i v1131 v3074 => decidable_of_iff' _ (Iff.of_eq (k0_chk189.eq_1 i v1131 v3074))
theorem k0_off567_inb : ∀ (i : grid0.Coords) (v1131 : BitVec 32) (v3074 : BitVec 32) (k0_hw189 : k0_chk189 i v1131 v3074), ∀ (k0_h189 : k0_cond189 v1131 = 1#1), ∀ a, (k0_off567 i v3074) a + S1x1x512.size a ≤ S1024x200x512.size a := fun i v1131 v3074 k0_hw189 k0_h189 => k0_hw189 k0_h189

def k0_off568 (i : grid0.Coords) : Fin 1 → Nat :=
  let arg0 : BitVec 32 := BitVec.ofNat 32 (i 0).val
  let c256_i32 : BitVec 32 := 256#32
  let v0 : BitVec 32 := Scalar.muli arg0 c256_i32
  let c93_i32_471 : BitVec 32 := 93#32
  let v1135 : BitVec 32 := Scalar.addi v0 c93_i32_471
  let v1136 : Index := Scalar.indexCast v1135
  ![v1136.toNat]
def k0_off569 (i : grid0.Coords) : Fin 1 → Nat :=
  let arg0 : BitVec 32 := BitVec.ofNat 32 (i 0).val
  let c256_i32 : BitVec 32 := 256#32
  let v0 : BitVec 32 := Scalar.muli arg0 c256_i32
  let c93_i32_471 : BitVec 32 := 93#32
  let v1135 : BitVec 32 := Scalar.addi v0 c93_i32_471
  let v3073 : Index := Scalar.indexCast v1135
  ![v3073.toNat]
def k0_off570 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c93_i32_471 : BitVec 32 := 93#32
  let v1135 : BitVec 32 := Scalar.addi v0 c93_i32_471
  let c0_i32_1282 : BitVec 32 := 0#32
  ![v1135.toNat, v3074.toNat, 0]
def k0_cond190 (v1137 : BitVec 32) : BitVec 1 :=
  let c0_i32_472 : BitVec 32 := 0#32
  let v1138 : BitVec 1 := Scalar.cmpi .sgt v1137 c0_i32_472
  let v1139 : BitVec 32 := Scalar.extui v1138
  let c0_i32_473 : BitVec 32 := 0#32
  let v1140 : BitVec 1 := Scalar.cmpi .ne v1139 c0_i32_473
  v1140

def k0_chk190 (i : grid0.Coords) (v1137 : BitVec 32) (v3074 : BitVec 32) : Prop :=
  (∀ (k0_h190 : k0_cond190 v1137 = 1#1), ∀ a, (k0_off570 i v3074) a + S1x1x512.size a ≤ S1024x200x512.size a)
instance k0_chk190.dec : ∀ (i : grid0.Coords) (v1137 : BitVec 32) (v3074 : BitVec 32), Decidable (k0_chk190 i v1137 v3074) := fun i v1137 v3074 => decidable_of_iff' _ (Iff.of_eq (k0_chk190.eq_1 i v1137 v3074))
theorem k0_off570_inb : ∀ (i : grid0.Coords) (v1137 : BitVec 32) (v3074 : BitVec 32) (k0_hw190 : k0_chk190 i v1137 v3074), ∀ (k0_h190 : k0_cond190 v1137 = 1#1), ∀ a, (k0_off570 i v3074) a + S1x1x512.size a ≤ S1024x200x512.size a := fun i v1137 v3074 k0_hw190 k0_h190 => k0_hw190 k0_h190

def k0_off571 (i : grid0.Coords) : Fin 1 → Nat :=
  let arg0 : BitVec 32 := BitVec.ofNat 32 (i 0).val
  let c256_i32 : BitVec 32 := 256#32
  let v0 : BitVec 32 := Scalar.muli arg0 c256_i32
  let c94_i32_474 : BitVec 32 := 94#32
  let v1141 : BitVec 32 := Scalar.addi v0 c94_i32_474
  let v1142 : Index := Scalar.indexCast v1141
  ![v1142.toNat]
def k0_off572 (i : grid0.Coords) : Fin 1 → Nat :=
  let arg0 : BitVec 32 := BitVec.ofNat 32 (i 0).val
  let c256_i32 : BitVec 32 := 256#32
  let v0 : BitVec 32 := Scalar.muli arg0 c256_i32
  let c94_i32_474 : BitVec 32 := 94#32
  let v1141 : BitVec 32 := Scalar.addi v0 c94_i32_474
  let v3073 : Index := Scalar.indexCast v1141
  ![v3073.toNat]
def k0_off573 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c94_i32_474 : BitVec 32 := 94#32
  let v1141 : BitVec 32 := Scalar.addi v0 c94_i32_474
  let c0_i32_1282 : BitVec 32 := 0#32
  ![v1141.toNat, v3074.toNat, 0]
def k0_cond191 (v1143 : BitVec 32) : BitVec 1 :=
  let c0_i32_475 : BitVec 32 := 0#32
  let v1144 : BitVec 1 := Scalar.cmpi .sgt v1143 c0_i32_475
  let v1145 : BitVec 32 := Scalar.extui v1144
  let c0_i32_476 : BitVec 32 := 0#32
  let v1146 : BitVec 1 := Scalar.cmpi .ne v1145 c0_i32_476
  v1146

def k0_chk191 (i : grid0.Coords) (v1143 : BitVec 32) (v3074 : BitVec 32) : Prop :=
  (∀ (k0_h191 : k0_cond191 v1143 = 1#1), ∀ a, (k0_off573 i v3074) a + S1x1x512.size a ≤ S1024x200x512.size a)
instance k0_chk191.dec : ∀ (i : grid0.Coords) (v1143 : BitVec 32) (v3074 : BitVec 32), Decidable (k0_chk191 i v1143 v3074) := fun i v1143 v3074 => decidable_of_iff' _ (Iff.of_eq (k0_chk191.eq_1 i v1143 v3074))
theorem k0_off573_inb : ∀ (i : grid0.Coords) (v1143 : BitVec 32) (v3074 : BitVec 32) (k0_hw191 : k0_chk191 i v1143 v3074), ∀ (k0_h191 : k0_cond191 v1143 = 1#1), ∀ a, (k0_off573 i v3074) a + S1x1x512.size a ≤ S1024x200x512.size a := fun i v1143 v3074 k0_hw191 k0_h191 => k0_hw191 k0_h191

def k0_off574 (i : grid0.Coords) : Fin 1 → Nat :=
  let arg0 : BitVec 32 := BitVec.ofNat 32 (i 0).val
  let c256_i32 : BitVec 32 := 256#32
  let v0 : BitVec 32 := Scalar.muli arg0 c256_i32
  let c95_i32_477 : BitVec 32 := 95#32
  let v1147 : BitVec 32 := Scalar.addi v0 c95_i32_477
  let v1148 : Index := Scalar.indexCast v1147
  ![v1148.toNat]
def k0_off575 (i : grid0.Coords) : Fin 1 → Nat :=
  let arg0 : BitVec 32 := BitVec.ofNat 32 (i 0).val
  let c256_i32 : BitVec 32 := 256#32
  let v0 : BitVec 32 := Scalar.muli arg0 c256_i32
  let c95_i32_477 : BitVec 32 := 95#32
  let v1147 : BitVec 32 := Scalar.addi v0 c95_i32_477
  let v3073 : Index := Scalar.indexCast v1147
  ![v3073.toNat]
def k0_off576 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c95_i32_477 : BitVec 32 := 95#32
  let v1147 : BitVec 32 := Scalar.addi v0 c95_i32_477
  let c0_i32_1282 : BitVec 32 := 0#32
  ![v1147.toNat, v3074.toNat, 0]
def k0_cond192 (v1149 : BitVec 32) : BitVec 1 :=
  let c0_i32_478 : BitVec 32 := 0#32
  let v1150 : BitVec 1 := Scalar.cmpi .sgt v1149 c0_i32_478
  let v1151 : BitVec 32 := Scalar.extui v1150
  let c0_i32_479 : BitVec 32 := 0#32
  let v1152 : BitVec 1 := Scalar.cmpi .ne v1151 c0_i32_479
  v1152

def k0_chk192 (i : grid0.Coords) (v1149 : BitVec 32) (v3074 : BitVec 32) : Prop :=
  (∀ (k0_h192 : k0_cond192 v1149 = 1#1), ∀ a, (k0_off576 i v3074) a + S1x1x512.size a ≤ S1024x200x512.size a)
instance k0_chk192.dec : ∀ (i : grid0.Coords) (v1149 : BitVec 32) (v3074 : BitVec 32), Decidable (k0_chk192 i v1149 v3074) := fun i v1149 v3074 => decidable_of_iff' _ (Iff.of_eq (k0_chk192.eq_1 i v1149 v3074))
theorem k0_off576_inb : ∀ (i : grid0.Coords) (v1149 : BitVec 32) (v3074 : BitVec 32) (k0_hw192 : k0_chk192 i v1149 v3074), ∀ (k0_h192 : k0_cond192 v1149 = 1#1), ∀ a, (k0_off576 i v3074) a + S1x1x512.size a ≤ S1024x200x512.size a := fun i v1149 v3074 k0_hw192 k0_h192 => k0_hw192 k0_h192

def k0_off577 (i : grid0.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v1153 : BitVec 32 := Scalar.addi v0 c96_i32
  let v1154 : Index := Scalar.indexCast v1153
  ![v1154.toNat]
def k0_off578 (i : grid0.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v1153 : BitVec 32 := Scalar.addi v0 c96_i32
  let v3073 : Index := Scalar.indexCast v1153
  ![v3073.toNat]
def k0_off579 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c96_i32 : BitVec 32 := 96#32
  let v1153 : BitVec 32 := Scalar.addi v0 c96_i32
  let c0_i32_1287 : BitVec 32 := 0#32
  ![v1153.toNat, v3074.toNat, 0]
def k0_cond193 (v1155 : BitVec 32) : BitVec 1 :=
  let c0_i32_480 : BitVec 32 := 0#32
  let v1156 : BitVec 1 := Scalar.cmpi .sgt v1155 c0_i32_480
  let v1157 : BitVec 32 := Scalar.extui v1156
  let c0_i32_481 : BitVec 32 := 0#32
  let v1158 : BitVec 1 := Scalar.cmpi .ne v1157 c0_i32_481
  v1158

def k0_chk193 (i : grid0.Coords) (v1155 : BitVec 32) (v3074 : BitVec 32) : Prop :=
  (∀ (k0_h193 : k0_cond193 v1155 = 1#1), ∀ a, (k0_off579 i v3074) a + S1x1x512.size a ≤ S1024x200x512.size a)
instance k0_chk193.dec : ∀ (i : grid0.Coords) (v1155 : BitVec 32) (v3074 : BitVec 32), Decidable (k0_chk193 i v1155 v3074) := fun i v1155 v3074 => decidable_of_iff' _ (Iff.of_eq (k0_chk193.eq_1 i v1155 v3074))
theorem k0_off579_inb : ∀ (i : grid0.Coords) (v1155 : BitVec 32) (v3074 : BitVec 32) (k0_hw193 : k0_chk193 i v1155 v3074), ∀ (k0_h193 : k0_cond193 v1155 = 1#1), ∀ a, (k0_off579 i v3074) a + S1x1x512.size a ≤ S1024x200x512.size a := fun i v1155 v3074 k0_hw193 k0_h193 => k0_hw193 k0_h193

def k0_off580 (i : grid0.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v1159 : BitVec 32 := Scalar.addi v0 c97_i32
  let v1160 : Index := Scalar.indexCast v1159
  ![v1160.toNat]
def k0_off581 (i : grid0.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v1159 : BitVec 32 := Scalar.addi v0 c97_i32
  let v3073 : Index := Scalar.indexCast v1159
  ![v3073.toNat]
def k0_off582 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c97_i32 : BitVec 32 := 97#32
  let v1159 : BitVec 32 := Scalar.addi v0 c97_i32
  let c0_i32_1287 : BitVec 32 := 0#32
  ![v1159.toNat, v3074.toNat, 0]
def k0_cond194 (v1161 : BitVec 32) : BitVec 1 :=
  let c0_i32_482 : BitVec 32 := 0#32
  let v1162 : BitVec 1 := Scalar.cmpi .sgt v1161 c0_i32_482
  let v1163 : BitVec 32 := Scalar.extui v1162
  let c0_i32_483 : BitVec 32 := 0#32
  let v1164 : BitVec 1 := Scalar.cmpi .ne v1163 c0_i32_483
  v1164

def k0_chk194 (i : grid0.Coords) (v1161 : BitVec 32) (v3074 : BitVec 32) : Prop :=
  (∀ (k0_h194 : k0_cond194 v1161 = 1#1), ∀ a, (k0_off582 i v3074) a + S1x1x512.size a ≤ S1024x200x512.size a)
instance k0_chk194.dec : ∀ (i : grid0.Coords) (v1161 : BitVec 32) (v3074 : BitVec 32), Decidable (k0_chk194 i v1161 v3074) := fun i v1161 v3074 => decidable_of_iff' _ (Iff.of_eq (k0_chk194.eq_1 i v1161 v3074))
theorem k0_off582_inb : ∀ (i : grid0.Coords) (v1161 : BitVec 32) (v3074 : BitVec 32) (k0_hw194 : k0_chk194 i v1161 v3074), ∀ (k0_h194 : k0_cond194 v1161 = 1#1), ∀ a, (k0_off582 i v3074) a + S1x1x512.size a ≤ S1024x200x512.size a := fun i v1161 v3074 k0_hw194 k0_h194 => k0_hw194 k0_h194

def k0_off583 (i : grid0.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v1165 : BitVec 32 := Scalar.addi v0 c98_i32
  let v1166 : Index := Scalar.indexCast v1165
  ![v1166.toNat]
def k0_off584 (i : grid0.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v1165 : BitVec 32 := Scalar.addi v0 c98_i32
  let v3073 : Index := Scalar.indexCast v1165
  ![v3073.toNat]
def k0_off585 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c98_i32 : BitVec 32 := 98#32
  let v1165 : BitVec 32 := Scalar.addi v0 c98_i32
  let c0_i32_1287 : BitVec 32 := 0#32
  ![v1165.toNat, v3074.toNat, 0]
def k0_cond195 (v1167 : BitVec 32) : BitVec 1 :=
  let c0_i32_484 : BitVec 32 := 0#32
  let v1168 : BitVec 1 := Scalar.cmpi .sgt v1167 c0_i32_484
  let v1169 : BitVec 32 := Scalar.extui v1168
  let c0_i32_485 : BitVec 32 := 0#32
  let v1170 : BitVec 1 := Scalar.cmpi .ne v1169 c0_i32_485
  v1170

def k0_chk195 (i : grid0.Coords) (v1167 : BitVec 32) (v3074 : BitVec 32) : Prop :=
  (∀ (k0_h195 : k0_cond195 v1167 = 1#1), ∀ a, (k0_off585 i v3074) a + S1x1x512.size a ≤ S1024x200x512.size a)
instance k0_chk195.dec : ∀ (i : grid0.Coords) (v1167 : BitVec 32) (v3074 : BitVec 32), Decidable (k0_chk195 i v1167 v3074) := fun i v1167 v3074 => decidable_of_iff' _ (Iff.of_eq (k0_chk195.eq_1 i v1167 v3074))
theorem k0_off585_inb : ∀ (i : grid0.Coords) (v1167 : BitVec 32) (v3074 : BitVec 32) (k0_hw195 : k0_chk195 i v1167 v3074), ∀ (k0_h195 : k0_cond195 v1167 = 1#1), ∀ a, (k0_off585 i v3074) a + S1x1x512.size a ≤ S1024x200x512.size a := fun i v1167 v3074 k0_hw195 k0_h195 => k0_hw195 k0_h195

def k0_off586 (i : grid0.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v1171 : BitVec 32 := Scalar.addi v0 c99_i32
  let v1172 : Index := Scalar.indexCast v1171
  ![v1172.toNat]
def k0_off587 (i : grid0.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v1171 : BitVec 32 := Scalar.addi v0 c99_i32
  let v3073 : Index := Scalar.indexCast v1171
  ![v3073.toNat]
def k0_off588 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c99_i32 : BitVec 32 := 99#32
  let v1171 : BitVec 32 := Scalar.addi v0 c99_i32
  let c0_i32_1287 : BitVec 32 := 0#32
  ![v1171.toNat, v3074.toNat, 0]
def k0_cond196 (v1173 : BitVec 32) : BitVec 1 :=
  let c0_i32_486 : BitVec 32 := 0#32
  let v1174 : BitVec 1 := Scalar.cmpi .sgt v1173 c0_i32_486
  let v1175 : BitVec 32 := Scalar.extui v1174
  let c0_i32_487 : BitVec 32 := 0#32
  let v1176 : BitVec 1 := Scalar.cmpi .ne v1175 c0_i32_487
  v1176

def k0_chk196 (i : grid0.Coords) (v1173 : BitVec 32) (v3074 : BitVec 32) : Prop :=
  (∀ (k0_h196 : k0_cond196 v1173 = 1#1), ∀ a, (k0_off588 i v3074) a + S1x1x512.size a ≤ S1024x200x512.size a)
instance k0_chk196.dec : ∀ (i : grid0.Coords) (v1173 : BitVec 32) (v3074 : BitVec 32), Decidable (k0_chk196 i v1173 v3074) := fun i v1173 v3074 => decidable_of_iff' _ (Iff.of_eq (k0_chk196.eq_1 i v1173 v3074))
theorem k0_off588_inb : ∀ (i : grid0.Coords) (v1173 : BitVec 32) (v3074 : BitVec 32) (k0_hw196 : k0_chk196 i v1173 v3074), ∀ (k0_h196 : k0_cond196 v1173 = 1#1), ∀ a, (k0_off588 i v3074) a + S1x1x512.size a ≤ S1024x200x512.size a := fun i v1173 v3074 k0_hw196 k0_h196 => k0_hw196 k0_h196

def k0_off589 (i : grid0.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v1177 : BitVec 32 := Scalar.addi v0 c100_i32
  let v1178 : Index := Scalar.indexCast v1177
  ![v1178.toNat]
def k0_off590 (i : grid0.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v1177 : BitVec 32 := Scalar.addi v0 c100_i32
  let v3073 : Index := Scalar.indexCast v1177
  ![v3073.toNat]
def k0_off591 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c100_i32 : BitVec 32 := 100#32
  let v1177 : BitVec 32 := Scalar.addi v0 c100_i32
  let c0_i32_1287 : BitVec 32 := 0#32
  ![v1177.toNat, v3074.toNat, 0]
def k0_cond197 (v1179 : BitVec 32) : BitVec 1 :=
  let c0_i32_488 : BitVec 32 := 0#32
  let v1180 : BitVec 1 := Scalar.cmpi .sgt v1179 c0_i32_488
  let v1181 : BitVec 32 := Scalar.extui v1180
  let c0_i32_489 : BitVec 32 := 0#32
  let v1182 : BitVec 1 := Scalar.cmpi .ne v1181 c0_i32_489
  v1182

def k0_chk197 (i : grid0.Coords) (v1179 : BitVec 32) (v3074 : BitVec 32) : Prop :=
  (∀ (k0_h197 : k0_cond197 v1179 = 1#1), ∀ a, (k0_off591 i v3074) a + S1x1x512.size a ≤ S1024x200x512.size a)
instance k0_chk197.dec : ∀ (i : grid0.Coords) (v1179 : BitVec 32) (v3074 : BitVec 32), Decidable (k0_chk197 i v1179 v3074) := fun i v1179 v3074 => decidable_of_iff' _ (Iff.of_eq (k0_chk197.eq_1 i v1179 v3074))
theorem k0_off591_inb : ∀ (i : grid0.Coords) (v1179 : BitVec 32) (v3074 : BitVec 32) (k0_hw197 : k0_chk197 i v1179 v3074), ∀ (k0_h197 : k0_cond197 v1179 = 1#1), ∀ a, (k0_off591 i v3074) a + S1x1x512.size a ≤ S1024x200x512.size a := fun i v1179 v3074 k0_hw197 k0_h197 => k0_hw197 k0_h197

def k0_off592 (i : grid0.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v1183 : BitVec 32 := Scalar.addi v0 c101_i32
  let v1184 : Index := Scalar.indexCast v1183
  ![v1184.toNat]
def k0_off593 (i : grid0.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v1183 : BitVec 32 := Scalar.addi v0 c101_i32
  let v3073 : Index := Scalar.indexCast v1183
  ![v3073.toNat]
def k0_off594 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c101_i32 : BitVec 32 := 101#32
  let v1183 : BitVec 32 := Scalar.addi v0 c101_i32
  let c0_i32_1287 : BitVec 32 := 0#32
  ![v1183.toNat, v3074.toNat, 0]
def k0_cond198 (v1185 : BitVec 32) : BitVec 1 :=
  let c0_i32_490 : BitVec 32 := 0#32
  let v1186 : BitVec 1 := Scalar.cmpi .sgt v1185 c0_i32_490
  let v1187 : BitVec 32 := Scalar.extui v1186
  let c0_i32_491 : BitVec 32 := 0#32
  let v1188 : BitVec 1 := Scalar.cmpi .ne v1187 c0_i32_491
  v1188

def k0_chk198 (i : grid0.Coords) (v1185 : BitVec 32) (v3074 : BitVec 32) : Prop :=
  (∀ (k0_h198 : k0_cond198 v1185 = 1#1), ∀ a, (k0_off594 i v3074) a + S1x1x512.size a ≤ S1024x200x512.size a)
instance k0_chk198.dec : ∀ (i : grid0.Coords) (v1185 : BitVec 32) (v3074 : BitVec 32), Decidable (k0_chk198 i v1185 v3074) := fun i v1185 v3074 => decidable_of_iff' _ (Iff.of_eq (k0_chk198.eq_1 i v1185 v3074))
theorem k0_off594_inb : ∀ (i : grid0.Coords) (v1185 : BitVec 32) (v3074 : BitVec 32) (k0_hw198 : k0_chk198 i v1185 v3074), ∀ (k0_h198 : k0_cond198 v1185 = 1#1), ∀ a, (k0_off594 i v3074) a + S1x1x512.size a ≤ S1024x200x512.size a := fun i v1185 v3074 k0_hw198 k0_h198 => k0_hw198 k0_h198

def k0_off595 (i : grid0.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v1189 : BitVec 32 := Scalar.addi v0 c102_i32
  let v1190 : Index := Scalar.indexCast v1189
  ![v1190.toNat]
def k0_off596 (i : grid0.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v1189 : BitVec 32 := Scalar.addi v0 c102_i32
  let v3073 : Index := Scalar.indexCast v1189
  ![v3073.toNat]
def k0_off597 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c102_i32 : BitVec 32 := 102#32
  let v1189 : BitVec 32 := Scalar.addi v0 c102_i32
  let c0_i32_1287 : BitVec 32 := 0#32
  ![v1189.toNat, v3074.toNat, 0]
def k0_cond199 (v1191 : BitVec 32) : BitVec 1 :=
  let c0_i32_492 : BitVec 32 := 0#32
  let v1192 : BitVec 1 := Scalar.cmpi .sgt v1191 c0_i32_492
  let v1193 : BitVec 32 := Scalar.extui v1192
  let c0_i32_493 : BitVec 32 := 0#32
  let v1194 : BitVec 1 := Scalar.cmpi .ne v1193 c0_i32_493
  v1194

def k0_chk199 (i : grid0.Coords) (v1191 : BitVec 32) (v3074 : BitVec 32) : Prop :=
  (∀ (k0_h199 : k0_cond199 v1191 = 1#1), ∀ a, (k0_off597 i v3074) a + S1x1x512.size a ≤ S1024x200x512.size a)
instance k0_chk199.dec : ∀ (i : grid0.Coords) (v1191 : BitVec 32) (v3074 : BitVec 32), Decidable (k0_chk199 i v1191 v3074) := fun i v1191 v3074 => decidable_of_iff' _ (Iff.of_eq (k0_chk199.eq_1 i v1191 v3074))
theorem k0_off597_inb : ∀ (i : grid0.Coords) (v1191 : BitVec 32) (v3074 : BitVec 32) (k0_hw199 : k0_chk199 i v1191 v3074), ∀ (k0_h199 : k0_cond199 v1191 = 1#1), ∀ a, (k0_off597 i v3074) a + S1x1x512.size a ≤ S1024x200x512.size a := fun i v1191 v3074 k0_hw199 k0_h199 => k0_hw199 k0_h199

def k0_off598 (i : grid0.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v1195 : BitVec 32 := Scalar.addi v0 c103_i32
  let v1196 : Index := Scalar.indexCast v1195
  ![v1196.toNat]
def k0_off599 (i : grid0.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v1195 : BitVec 32 := Scalar.addi v0 c103_i32
  let v3073 : Index := Scalar.indexCast v1195
  ![v3073.toNat]
def k0_off600 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c103_i32 : BitVec 32 := 103#32
  let v1195 : BitVec 32 := Scalar.addi v0 c103_i32
  let c0_i32_1287 : BitVec 32 := 0#32
  ![v1195.toNat, v3074.toNat, 0]
def k0_cond200 (v1197 : BitVec 32) : BitVec 1 :=
  let c0_i32_494 : BitVec 32 := 0#32
  let v1198 : BitVec 1 := Scalar.cmpi .sgt v1197 c0_i32_494
  let v1199 : BitVec 32 := Scalar.extui v1198
  let c0_i32_495 : BitVec 32 := 0#32
  let v1200 : BitVec 1 := Scalar.cmpi .ne v1199 c0_i32_495
  v1200

def k0_chk200 (i : grid0.Coords) (v1197 : BitVec 32) (v3074 : BitVec 32) : Prop :=
  (∀ (k0_h200 : k0_cond200 v1197 = 1#1), ∀ a, (k0_off600 i v3074) a + S1x1x512.size a ≤ S1024x200x512.size a)
instance k0_chk200.dec : ∀ (i : grid0.Coords) (v1197 : BitVec 32) (v3074 : BitVec 32), Decidable (k0_chk200 i v1197 v3074) := fun i v1197 v3074 => decidable_of_iff' _ (Iff.of_eq (k0_chk200.eq_1 i v1197 v3074))
theorem k0_off600_inb : ∀ (i : grid0.Coords) (v1197 : BitVec 32) (v3074 : BitVec 32) (k0_hw200 : k0_chk200 i v1197 v3074), ∀ (k0_h200 : k0_cond200 v1197 = 1#1), ∀ a, (k0_off600 i v3074) a + S1x1x512.size a ≤ S1024x200x512.size a := fun i v1197 v3074 k0_hw200 k0_h200 => k0_hw200 k0_h200

def k0_off601 (i : grid0.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v1201 : BitVec 32 := Scalar.addi v0 c104_i32
  let v1202 : Index := Scalar.indexCast v1201
  ![v1202.toNat]
def k0_off602 (i : grid0.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v1201 : BitVec 32 := Scalar.addi v0 c104_i32
  let v3073 : Index := Scalar.indexCast v1201
  ![v3073.toNat]
def k0_off603 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c104_i32 : BitVec 32 := 104#32
  let v1201 : BitVec 32 := Scalar.addi v0 c104_i32
  let c0_i32_1287 : BitVec 32 := 0#32
  ![v1201.toNat, v3074.toNat, 0]
def k0_cond201 (v1203 : BitVec 32) : BitVec 1 :=
  let c0_i32_496 : BitVec 32 := 0#32
  let v1204 : BitVec 1 := Scalar.cmpi .sgt v1203 c0_i32_496
  let v1205 : BitVec 32 := Scalar.extui v1204
  let c0_i32_497 : BitVec 32 := 0#32
  let v1206 : BitVec 1 := Scalar.cmpi .ne v1205 c0_i32_497
  v1206

def k0_chk201 (i : grid0.Coords) (v1203 : BitVec 32) (v3074 : BitVec 32) : Prop :=
  (∀ (k0_h201 : k0_cond201 v1203 = 1#1), ∀ a, (k0_off603 i v3074) a + S1x1x512.size a ≤ S1024x200x512.size a)
instance k0_chk201.dec : ∀ (i : grid0.Coords) (v1203 : BitVec 32) (v3074 : BitVec 32), Decidable (k0_chk201 i v1203 v3074) := fun i v1203 v3074 => decidable_of_iff' _ (Iff.of_eq (k0_chk201.eq_1 i v1203 v3074))
theorem k0_off603_inb : ∀ (i : grid0.Coords) (v1203 : BitVec 32) (v3074 : BitVec 32) (k0_hw201 : k0_chk201 i v1203 v3074), ∀ (k0_h201 : k0_cond201 v1203 = 1#1), ∀ a, (k0_off603 i v3074) a + S1x1x512.size a ≤ S1024x200x512.size a := fun i v1203 v3074 k0_hw201 k0_h201 => k0_hw201 k0_h201

def k0_off604 (i : grid0.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v1207 : BitVec 32 := Scalar.addi v0 c105_i32
  let v1208 : Index := Scalar.indexCast v1207
  ![v1208.toNat]
def k0_off605 (i : grid0.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v1207 : BitVec 32 := Scalar.addi v0 c105_i32
  let v3073 : Index := Scalar.indexCast v1207
  ![v3073.toNat]
def k0_off606 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c105_i32 : BitVec 32 := 105#32
  let v1207 : BitVec 32 := Scalar.addi v0 c105_i32
  let c0_i32_1287 : BitVec 32 := 0#32
  ![v1207.toNat, v3074.toNat, 0]
def k0_cond202 (v1209 : BitVec 32) : BitVec 1 :=
  let c0_i32_498 : BitVec 32 := 0#32
  let v1210 : BitVec 1 := Scalar.cmpi .sgt v1209 c0_i32_498
  let v1211 : BitVec 32 := Scalar.extui v1210
  let c0_i32_499 : BitVec 32 := 0#32
  let v1212 : BitVec 1 := Scalar.cmpi .ne v1211 c0_i32_499
  v1212

def k0_chk202 (i : grid0.Coords) (v1209 : BitVec 32) (v3074 : BitVec 32) : Prop :=
  (∀ (k0_h202 : k0_cond202 v1209 = 1#1), ∀ a, (k0_off606 i v3074) a + S1x1x512.size a ≤ S1024x200x512.size a)
instance k0_chk202.dec : ∀ (i : grid0.Coords) (v1209 : BitVec 32) (v3074 : BitVec 32), Decidable (k0_chk202 i v1209 v3074) := fun i v1209 v3074 => decidable_of_iff' _ (Iff.of_eq (k0_chk202.eq_1 i v1209 v3074))
theorem k0_off606_inb : ∀ (i : grid0.Coords) (v1209 : BitVec 32) (v3074 : BitVec 32) (k0_hw202 : k0_chk202 i v1209 v3074), ∀ (k0_h202 : k0_cond202 v1209 = 1#1), ∀ a, (k0_off606 i v3074) a + S1x1x512.size a ≤ S1024x200x512.size a := fun i v1209 v3074 k0_hw202 k0_h202 => k0_hw202 k0_h202

def k0_off607 (i : grid0.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v1213 : BitVec 32 := Scalar.addi v0 c106_i32
  let v1214 : Index := Scalar.indexCast v1213
  ![v1214.toNat]
def k0_off608 (i : grid0.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v1213 : BitVec 32 := Scalar.addi v0 c106_i32
  let v3073 : Index := Scalar.indexCast v1213
  ![v3073.toNat]
def k0_off609 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c106_i32 : BitVec 32 := 106#32
  let v1213 : BitVec 32 := Scalar.addi v0 c106_i32
  let c0_i32_1287 : BitVec 32 := 0#32
  ![v1213.toNat, v3074.toNat, 0]
def k0_cond203 (v1215 : BitVec 32) : BitVec 1 :=
  let c0_i32_500 : BitVec 32 := 0#32
  let v1216 : BitVec 1 := Scalar.cmpi .sgt v1215 c0_i32_500
  let v1217 : BitVec 32 := Scalar.extui v1216
  let c0_i32_501 : BitVec 32 := 0#32
  let v1218 : BitVec 1 := Scalar.cmpi .ne v1217 c0_i32_501
  v1218

def k0_chk203 (i : grid0.Coords) (v1215 : BitVec 32) (v3074 : BitVec 32) : Prop :=
  (∀ (k0_h203 : k0_cond203 v1215 = 1#1), ∀ a, (k0_off609 i v3074) a + S1x1x512.size a ≤ S1024x200x512.size a)
instance k0_chk203.dec : ∀ (i : grid0.Coords) (v1215 : BitVec 32) (v3074 : BitVec 32), Decidable (k0_chk203 i v1215 v3074) := fun i v1215 v3074 => decidable_of_iff' _ (Iff.of_eq (k0_chk203.eq_1 i v1215 v3074))
theorem k0_off609_inb : ∀ (i : grid0.Coords) (v1215 : BitVec 32) (v3074 : BitVec 32) (k0_hw203 : k0_chk203 i v1215 v3074), ∀ (k0_h203 : k0_cond203 v1215 = 1#1), ∀ a, (k0_off609 i v3074) a + S1x1x512.size a ≤ S1024x200x512.size a := fun i v1215 v3074 k0_hw203 k0_h203 => k0_hw203 k0_h203

def k0_off610 (i : grid0.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v1219 : BitVec 32 := Scalar.addi v0 c107_i32
  let v1220 : Index := Scalar.indexCast v1219
  ![v1220.toNat]
def k0_off611 (i : grid0.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v1219 : BitVec 32 := Scalar.addi v0 c107_i32
  let v3073 : Index := Scalar.indexCast v1219
  ![v3073.toNat]
def k0_off612 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c107_i32 : BitVec 32 := 107#32
  let v1219 : BitVec 32 := Scalar.addi v0 c107_i32
  let c0_i32_1287 : BitVec 32 := 0#32
  ![v1219.toNat, v3074.toNat, 0]
def k0_cond204 (v1221 : BitVec 32) : BitVec 1 :=
  let c0_i32_502 : BitVec 32 := 0#32
  let v1222 : BitVec 1 := Scalar.cmpi .sgt v1221 c0_i32_502
  let v1223 : BitVec 32 := Scalar.extui v1222
  let c0_i32_503 : BitVec 32 := 0#32
  let v1224 : BitVec 1 := Scalar.cmpi .ne v1223 c0_i32_503
  v1224

def k0_chk204 (i : grid0.Coords) (v1221 : BitVec 32) (v3074 : BitVec 32) : Prop :=
  (∀ (k0_h204 : k0_cond204 v1221 = 1#1), ∀ a, (k0_off612 i v3074) a + S1x1x512.size a ≤ S1024x200x512.size a)
instance k0_chk204.dec : ∀ (i : grid0.Coords) (v1221 : BitVec 32) (v3074 : BitVec 32), Decidable (k0_chk204 i v1221 v3074) := fun i v1221 v3074 => decidable_of_iff' _ (Iff.of_eq (k0_chk204.eq_1 i v1221 v3074))
theorem k0_off612_inb : ∀ (i : grid0.Coords) (v1221 : BitVec 32) (v3074 : BitVec 32) (k0_hw204 : k0_chk204 i v1221 v3074), ∀ (k0_h204 : k0_cond204 v1221 = 1#1), ∀ a, (k0_off612 i v3074) a + S1x1x512.size a ≤ S1024x200x512.size a := fun i v1221 v3074 k0_hw204 k0_h204 => k0_hw204 k0_h204

def k0_off613 (i : grid0.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v1225 : BitVec 32 := Scalar.addi v0 c108_i32
  let v1226 : Index := Scalar.indexCast v1225
  ![v1226.toNat]
def k0_off614 (i : grid0.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v1225 : BitVec 32 := Scalar.addi v0 c108_i32
  let v3073 : Index := Scalar.indexCast v1225
  ![v3073.toNat]
def k0_off615 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c108_i32 : BitVec 32 := 108#32
  let v1225 : BitVec 32 := Scalar.addi v0 c108_i32
  let c0_i32_1287 : BitVec 32 := 0#32
  ![v1225.toNat, v3074.toNat, 0]
def k0_cond205 (v1227 : BitVec 32) : BitVec 1 :=
  let c0_i32_504 : BitVec 32 := 0#32
  let v1228 : BitVec 1 := Scalar.cmpi .sgt v1227 c0_i32_504
  let v1229 : BitVec 32 := Scalar.extui v1228
  let c0_i32_505 : BitVec 32 := 0#32
  let v1230 : BitVec 1 := Scalar.cmpi .ne v1229 c0_i32_505
  v1230

def k0_chk205 (i : grid0.Coords) (v1227 : BitVec 32) (v3074 : BitVec 32) : Prop :=
  (∀ (k0_h205 : k0_cond205 v1227 = 1#1), ∀ a, (k0_off615 i v3074) a + S1x1x512.size a ≤ S1024x200x512.size a)
instance k0_chk205.dec : ∀ (i : grid0.Coords) (v1227 : BitVec 32) (v3074 : BitVec 32), Decidable (k0_chk205 i v1227 v3074) := fun i v1227 v3074 => decidable_of_iff' _ (Iff.of_eq (k0_chk205.eq_1 i v1227 v3074))
theorem k0_off615_inb : ∀ (i : grid0.Coords) (v1227 : BitVec 32) (v3074 : BitVec 32) (k0_hw205 : k0_chk205 i v1227 v3074), ∀ (k0_h205 : k0_cond205 v1227 = 1#1), ∀ a, (k0_off615 i v3074) a + S1x1x512.size a ≤ S1024x200x512.size a := fun i v1227 v3074 k0_hw205 k0_h205 => k0_hw205 k0_h205

def k0_off616 (i : grid0.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v1231 : BitVec 32 := Scalar.addi v0 c109_i32
  let v1232 : Index := Scalar.indexCast v1231
  ![v1232.toNat]
def k0_off617 (i : grid0.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v1231 : BitVec 32 := Scalar.addi v0 c109_i32
  let v3073 : Index := Scalar.indexCast v1231
  ![v3073.toNat]
def k0_off618 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c109_i32 : BitVec 32 := 109#32
  let v1231 : BitVec 32 := Scalar.addi v0 c109_i32
  let c0_i32_1287 : BitVec 32 := 0#32
  ![v1231.toNat, v3074.toNat, 0]
def k0_cond206 (v1233 : BitVec 32) : BitVec 1 :=
  let c0_i32_506 : BitVec 32 := 0#32
  let v1234 : BitVec 1 := Scalar.cmpi .sgt v1233 c0_i32_506
  let v1235 : BitVec 32 := Scalar.extui v1234
  let c0_i32_507 : BitVec 32 := 0#32
  let v1236 : BitVec 1 := Scalar.cmpi .ne v1235 c0_i32_507
  v1236

def k0_chk206 (i : grid0.Coords) (v1233 : BitVec 32) (v3074 : BitVec 32) : Prop :=
  (∀ (k0_h206 : k0_cond206 v1233 = 1#1), ∀ a, (k0_off618 i v3074) a + S1x1x512.size a ≤ S1024x200x512.size a)
instance k0_chk206.dec : ∀ (i : grid0.Coords) (v1233 : BitVec 32) (v3074 : BitVec 32), Decidable (k0_chk206 i v1233 v3074) := fun i v1233 v3074 => decidable_of_iff' _ (Iff.of_eq (k0_chk206.eq_1 i v1233 v3074))
theorem k0_off618_inb : ∀ (i : grid0.Coords) (v1233 : BitVec 32) (v3074 : BitVec 32) (k0_hw206 : k0_chk206 i v1233 v3074), ∀ (k0_h206 : k0_cond206 v1233 = 1#1), ∀ a, (k0_off618 i v3074) a + S1x1x512.size a ≤ S1024x200x512.size a := fun i v1233 v3074 k0_hw206 k0_h206 => k0_hw206 k0_h206

def k0_off619 (i : grid0.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v1237 : BitVec 32 := Scalar.addi v0 c110_i32
  let v1238 : Index := Scalar.indexCast v1237
  ![v1238.toNat]
def k0_off620 (i : grid0.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v1237 : BitVec 32 := Scalar.addi v0 c110_i32
  let v3073 : Index := Scalar.indexCast v1237
  ![v3073.toNat]
def k0_off621 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c110_i32 : BitVec 32 := 110#32
  let v1237 : BitVec 32 := Scalar.addi v0 c110_i32
  let c0_i32_1287 : BitVec 32 := 0#32
  ![v1237.toNat, v3074.toNat, 0]
def k0_cond207 (v1239 : BitVec 32) : BitVec 1 :=
  let c0_i32_508 : BitVec 32 := 0#32
  let v1240 : BitVec 1 := Scalar.cmpi .sgt v1239 c0_i32_508
  let v1241 : BitVec 32 := Scalar.extui v1240
  let c0_i32_509 : BitVec 32 := 0#32
  let v1242 : BitVec 1 := Scalar.cmpi .ne v1241 c0_i32_509
  v1242

def k0_chk207 (i : grid0.Coords) (v1239 : BitVec 32) (v3074 : BitVec 32) : Prop :=
  (∀ (k0_h207 : k0_cond207 v1239 = 1#1), ∀ a, (k0_off621 i v3074) a + S1x1x512.size a ≤ S1024x200x512.size a)
instance k0_chk207.dec : ∀ (i : grid0.Coords) (v1239 : BitVec 32) (v3074 : BitVec 32), Decidable (k0_chk207 i v1239 v3074) := fun i v1239 v3074 => decidable_of_iff' _ (Iff.of_eq (k0_chk207.eq_1 i v1239 v3074))
theorem k0_off621_inb : ∀ (i : grid0.Coords) (v1239 : BitVec 32) (v3074 : BitVec 32) (k0_hw207 : k0_chk207 i v1239 v3074), ∀ (k0_h207 : k0_cond207 v1239 = 1#1), ∀ a, (k0_off621 i v3074) a + S1x1x512.size a ≤ S1024x200x512.size a := fun i v1239 v3074 k0_hw207 k0_h207 => k0_hw207 k0_h207

def k0_off622 (i : grid0.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1243 : BitVec 32 := Scalar.addi v0 c111_i32
  let v1244 : Index := Scalar.indexCast v1243
  ![v1244.toNat]
def k0_off623 (i : grid0.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1243 : BitVec 32 := Scalar.addi v0 c111_i32
  let v3073 : Index := Scalar.indexCast v1243
  ![v3073.toNat]
def k0_off624 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c111_i32 : BitVec 32 := 111#32
  let v1243 : BitVec 32 := Scalar.addi v0 c111_i32
  let c0_i32_1287 : BitVec 32 := 0#32
  ![v1243.toNat, v3074.toNat, 0]
def k0_cond208 (v1245 : BitVec 32) : BitVec 1 :=
  let c0_i32_510 : BitVec 32 := 0#32
  let v1246 : BitVec 1 := Scalar.cmpi .sgt v1245 c0_i32_510
  let v1247 : BitVec 32 := Scalar.extui v1246
  let c0_i32_511 : BitVec 32 := 0#32
  let v1248 : BitVec 1 := Scalar.cmpi .ne v1247 c0_i32_511
  v1248

def k0_chk208 (i : grid0.Coords) (v1245 : BitVec 32) (v3074 : BitVec 32) : Prop :=
  (∀ (k0_h208 : k0_cond208 v1245 = 1#1), ∀ a, (k0_off624 i v3074) a + S1x1x512.size a ≤ S1024x200x512.size a)
instance k0_chk208.dec : ∀ (i : grid0.Coords) (v1245 : BitVec 32) (v3074 : BitVec 32), Decidable (k0_chk208 i v1245 v3074) := fun i v1245 v3074 => decidable_of_iff' _ (Iff.of_eq (k0_chk208.eq_1 i v1245 v3074))
theorem k0_off624_inb : ∀ (i : grid0.Coords) (v1245 : BitVec 32) (v3074 : BitVec 32) (k0_hw208 : k0_chk208 i v1245 v3074), ∀ (k0_h208 : k0_cond208 v1245 = 1#1), ∀ a, (k0_off624 i v3074) a + S1x1x512.size a ≤ S1024x200x512.size a := fun i v1245 v3074 k0_hw208 k0_h208 => k0_hw208 k0_h208

def k0_off625 (i : grid0.Coords) : Fin 1 → Nat :=
  let arg0 : BitVec 32 := BitVec.ofNat 32 (i 0).val
  let c256_i32 : BitVec 32 := 256#32
  let v0 : BitVec 32 := Scalar.muli arg0 c256_i32
  let c96_i32_512 : BitVec 32 := 96#32
  let v1249 : BitVec 32 := Scalar.addi v0 c96_i32_512
  let v1250 : Index := Scalar.indexCast v1249
  ![v1250.toNat]
def k0_off626 (i : grid0.Coords) : Fin 1 → Nat :=
  let arg0 : BitVec 32 := BitVec.ofNat 32 (i 0).val
  let c256_i32 : BitVec 32 := 256#32
  let v0 : BitVec 32 := Scalar.muli arg0 c256_i32
  let c96_i32_512 : BitVec 32 := 96#32
  let v1249 : BitVec 32 := Scalar.addi v0 c96_i32_512
  let v3073 : Index := Scalar.indexCast v1249
  ![v3073.toNat]
def k0_off627 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c96_i32_512 : BitVec 32 := 96#32
  let v1249 : BitVec 32 := Scalar.addi v0 c96_i32_512
  let c0_i32_1282 : BitVec 32 := 0#32
  ![v1249.toNat, v3074.toNat, 0]
def k0_cond209 (v1251 : BitVec 32) : BitVec 1 :=
  let c0_i32_513 : BitVec 32 := 0#32
  let v1252 : BitVec 1 := Scalar.cmpi .sgt v1251 c0_i32_513
  let v1253 : BitVec 32 := Scalar.extui v1252
  let c0_i32_514 : BitVec 32 := 0#32
  let v1254 : BitVec 1 := Scalar.cmpi .ne v1253 c0_i32_514
  v1254

def k0_chk209 (i : grid0.Coords) (v1251 : BitVec 32) (v3074 : BitVec 32) : Prop :=
  (∀ (k0_h209 : k0_cond209 v1251 = 1#1), ∀ a, (k0_off627 i v3074) a + S1x1x512.size a ≤ S1024x200x512.size a)
instance k0_chk209.dec : ∀ (i : grid0.Coords) (v1251 : BitVec 32) (v3074 : BitVec 32), Decidable (k0_chk209 i v1251 v3074) := fun i v1251 v3074 => decidable_of_iff' _ (Iff.of_eq (k0_chk209.eq_1 i v1251 v3074))
theorem k0_off627_inb : ∀ (i : grid0.Coords) (v1251 : BitVec 32) (v3074 : BitVec 32) (k0_hw209 : k0_chk209 i v1251 v3074), ∀ (k0_h209 : k0_cond209 v1251 = 1#1), ∀ a, (k0_off627 i v3074) a + S1x1x512.size a ≤ S1024x200x512.size a := fun i v1251 v3074 k0_hw209 k0_h209 => k0_hw209 k0_h209

def k0_off628 (i : grid0.Coords) : Fin 1 → Nat :=
  let arg0 : BitVec 32 := BitVec.ofNat 32 (i 0).val
  let c256_i32 : BitVec 32 := 256#32
  let v0 : BitVec 32 := Scalar.muli arg0 c256_i32
  let c97_i32_515 : BitVec 32 := 97#32
  let v1255 : BitVec 32 := Scalar.addi v0 c97_i32_515
  let v1256 : Index := Scalar.indexCast v1255
  ![v1256.toNat]
def k0_off629 (i : grid0.Coords) : Fin 1 → Nat :=
  let arg0 : BitVec 32 := BitVec.ofNat 32 (i 0).val
  let c256_i32 : BitVec 32 := 256#32
  let v0 : BitVec 32 := Scalar.muli arg0 c256_i32
  let c97_i32_515 : BitVec 32 := 97#32
  let v1255 : BitVec 32 := Scalar.addi v0 c97_i32_515
  let v3073 : Index := Scalar.indexCast v1255
  ![v3073.toNat]
def k0_off630 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c97_i32_515 : BitVec 32 := 97#32
  let v1255 : BitVec 32 := Scalar.addi v0 c97_i32_515
  let c0_i32_1282 : BitVec 32 := 0#32
  ![v1255.toNat, v3074.toNat, 0]
def k0_cond210 (v1257 : BitVec 32) : BitVec 1 :=
  let c0_i32_516 : BitVec 32 := 0#32
  let v1258 : BitVec 1 := Scalar.cmpi .sgt v1257 c0_i32_516
  let v1259 : BitVec 32 := Scalar.extui v1258
  let c0_i32_517 : BitVec 32 := 0#32
  let v1260 : BitVec 1 := Scalar.cmpi .ne v1259 c0_i32_517
  v1260

def k0_chk210 (i : grid0.Coords) (v1257 : BitVec 32) (v3074 : BitVec 32) : Prop :=
  (∀ (k0_h210 : k0_cond210 v1257 = 1#1), ∀ a, (k0_off630 i v3074) a + S1x1x512.size a ≤ S1024x200x512.size a)
instance k0_chk210.dec : ∀ (i : grid0.Coords) (v1257 : BitVec 32) (v3074 : BitVec 32), Decidable (k0_chk210 i v1257 v3074) := fun i v1257 v3074 => decidable_of_iff' _ (Iff.of_eq (k0_chk210.eq_1 i v1257 v3074))
theorem k0_off630_inb : ∀ (i : grid0.Coords) (v1257 : BitVec 32) (v3074 : BitVec 32) (k0_hw210 : k0_chk210 i v1257 v3074), ∀ (k0_h210 : k0_cond210 v1257 = 1#1), ∀ a, (k0_off630 i v3074) a + S1x1x512.size a ≤ S1024x200x512.size a := fun i v1257 v3074 k0_hw210 k0_h210 => k0_hw210 k0_h210

def k0_off631 (i : grid0.Coords) : Fin 1 → Nat :=
  let arg0 : BitVec 32 := BitVec.ofNat 32 (i 0).val
  let c256_i32 : BitVec 32 := 256#32
  let v0 : BitVec 32 := Scalar.muli arg0 c256_i32
  let c98_i32_518 : BitVec 32 := 98#32
  let v1261 : BitVec 32 := Scalar.addi v0 c98_i32_518
  let v1262 : Index := Scalar.indexCast v1261
  ![v1262.toNat]
def k0_off632 (i : grid0.Coords) : Fin 1 → Nat :=
  let arg0 : BitVec 32 := BitVec.ofNat 32 (i 0).val
  let c256_i32 : BitVec 32 := 256#32
  let v0 : BitVec 32 := Scalar.muli arg0 c256_i32
  let c98_i32_518 : BitVec 32 := 98#32
  let v1261 : BitVec 32 := Scalar.addi v0 c98_i32_518
  let v3073 : Index := Scalar.indexCast v1261
  ![v3073.toNat]
def k0_off633 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c98_i32_518 : BitVec 32 := 98#32
  let v1261 : BitVec 32 := Scalar.addi v0 c98_i32_518
  let c0_i32_1282 : BitVec 32 := 0#32
  ![v1261.toNat, v3074.toNat, 0]
def k0_cond211 (v1263 : BitVec 32) : BitVec 1 :=
  let c0_i32_519 : BitVec 32 := 0#32
  let v1264 : BitVec 1 := Scalar.cmpi .sgt v1263 c0_i32_519
  let v1265 : BitVec 32 := Scalar.extui v1264
  let c0_i32_520 : BitVec 32 := 0#32
  let v1266 : BitVec 1 := Scalar.cmpi .ne v1265 c0_i32_520
  v1266

def k0_chk211 (i : grid0.Coords) (v1263 : BitVec 32) (v3074 : BitVec 32) : Prop :=
  (∀ (k0_h211 : k0_cond211 v1263 = 1#1), ∀ a, (k0_off633 i v3074) a + S1x1x512.size a ≤ S1024x200x512.size a)
instance k0_chk211.dec : ∀ (i : grid0.Coords) (v1263 : BitVec 32) (v3074 : BitVec 32), Decidable (k0_chk211 i v1263 v3074) := fun i v1263 v3074 => decidable_of_iff' _ (Iff.of_eq (k0_chk211.eq_1 i v1263 v3074))
theorem k0_off633_inb : ∀ (i : grid0.Coords) (v1263 : BitVec 32) (v3074 : BitVec 32) (k0_hw211 : k0_chk211 i v1263 v3074), ∀ (k0_h211 : k0_cond211 v1263 = 1#1), ∀ a, (k0_off633 i v3074) a + S1x1x512.size a ≤ S1024x200x512.size a := fun i v1263 v3074 k0_hw211 k0_h211 => k0_hw211 k0_h211

def k0_off634 (i : grid0.Coords) : Fin 1 → Nat :=
  let arg0 : BitVec 32 := BitVec.ofNat 32 (i 0).val
  let c256_i32 : BitVec 32 := 256#32
  let v0 : BitVec 32 := Scalar.muli arg0 c256_i32
  let c99_i32_521 : BitVec 32 := 99#32
  let v1267 : BitVec 32 := Scalar.addi v0 c99_i32_521
  let v1268 : Index := Scalar.indexCast v1267
  ![v1268.toNat]
def k0_off635 (i : grid0.Coords) : Fin 1 → Nat :=
  let arg0 : BitVec 32 := BitVec.ofNat 32 (i 0).val
  let c256_i32 : BitVec 32 := 256#32
  let v0 : BitVec 32 := Scalar.muli arg0 c256_i32
  let c99_i32_521 : BitVec 32 := 99#32
  let v1267 : BitVec 32 := Scalar.addi v0 c99_i32_521
  let v3073 : Index := Scalar.indexCast v1267
  ![v3073.toNat]
def k0_off636 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c99_i32_521 : BitVec 32 := 99#32
  let v1267 : BitVec 32 := Scalar.addi v0 c99_i32_521
  let c0_i32_1282 : BitVec 32 := 0#32
  ![v1267.toNat, v3074.toNat, 0]
def k0_cond212 (v1269 : BitVec 32) : BitVec 1 :=
  let c0_i32_522 : BitVec 32 := 0#32
  let v1270 : BitVec 1 := Scalar.cmpi .sgt v1269 c0_i32_522
  let v1271 : BitVec 32 := Scalar.extui v1270
  let c0_i32_523 : BitVec 32 := 0#32
  let v1272 : BitVec 1 := Scalar.cmpi .ne v1271 c0_i32_523
  v1272

def k0_chk212 (i : grid0.Coords) (v1269 : BitVec 32) (v3074 : BitVec 32) : Prop :=
  (∀ (k0_h212 : k0_cond212 v1269 = 1#1), ∀ a, (k0_off636 i v3074) a + S1x1x512.size a ≤ S1024x200x512.size a)
instance k0_chk212.dec : ∀ (i : grid0.Coords) (v1269 : BitVec 32) (v3074 : BitVec 32), Decidable (k0_chk212 i v1269 v3074) := fun i v1269 v3074 => decidable_of_iff' _ (Iff.of_eq (k0_chk212.eq_1 i v1269 v3074))
theorem k0_off636_inb : ∀ (i : grid0.Coords) (v1269 : BitVec 32) (v3074 : BitVec 32) (k0_hw212 : k0_chk212 i v1269 v3074), ∀ (k0_h212 : k0_cond212 v1269 = 1#1), ∀ a, (k0_off636 i v3074) a + S1x1x512.size a ≤ S1024x200x512.size a := fun i v1269 v3074 k0_hw212 k0_h212 => k0_hw212 k0_h212

def k0_off637 (i : grid0.Coords) : Fin 1 → Nat :=
  let arg0 : BitVec 32 := BitVec.ofNat 32 (i 0).val
  let c256_i32 : BitVec 32 := 256#32
  let v0 : BitVec 32 := Scalar.muli arg0 c256_i32
  let c100_i32_524 : BitVec 32 := 100#32
  let v1273 : BitVec 32 := Scalar.addi v0 c100_i32_524
  let v1274 : Index := Scalar.indexCast v1273
  ![v1274.toNat]
def k0_off638 (i : grid0.Coords) : Fin 1 → Nat :=
  let arg0 : BitVec 32 := BitVec.ofNat 32 (i 0).val
  let c256_i32 : BitVec 32 := 256#32
  let v0 : BitVec 32 := Scalar.muli arg0 c256_i32
  let c100_i32_524 : BitVec 32 := 100#32
  let v1273 : BitVec 32 := Scalar.addi v0 c100_i32_524
  let v3073 : Index := Scalar.indexCast v1273
  ![v3073.toNat]
def k0_off639 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c100_i32_524 : BitVec 32 := 100#32
  let v1273 : BitVec 32 := Scalar.addi v0 c100_i32_524
  let c0_i32_1282 : BitVec 32 := 0#32
  ![v1273.toNat, v3074.toNat, 0]
def k0_cond213 (v1275 : BitVec 32) : BitVec 1 :=
  let c0_i32_525 : BitVec 32 := 0#32
  let v1276 : BitVec 1 := Scalar.cmpi .sgt v1275 c0_i32_525
  let v1277 : BitVec 32 := Scalar.extui v1276
  let c0_i32_526 : BitVec 32 := 0#32
  let v1278 : BitVec 1 := Scalar.cmpi .ne v1277 c0_i32_526
  v1278

def k0_chk213 (i : grid0.Coords) (v1275 : BitVec 32) (v3074 : BitVec 32) : Prop :=
  (∀ (k0_h213 : k0_cond213 v1275 = 1#1), ∀ a, (k0_off639 i v3074) a + S1x1x512.size a ≤ S1024x200x512.size a)
instance k0_chk213.dec : ∀ (i : grid0.Coords) (v1275 : BitVec 32) (v3074 : BitVec 32), Decidable (k0_chk213 i v1275 v3074) := fun i v1275 v3074 => decidable_of_iff' _ (Iff.of_eq (k0_chk213.eq_1 i v1275 v3074))
theorem k0_off639_inb : ∀ (i : grid0.Coords) (v1275 : BitVec 32) (v3074 : BitVec 32) (k0_hw213 : k0_chk213 i v1275 v3074), ∀ (k0_h213 : k0_cond213 v1275 = 1#1), ∀ a, (k0_off639 i v3074) a + S1x1x512.size a ≤ S1024x200x512.size a := fun i v1275 v3074 k0_hw213 k0_h213 => k0_hw213 k0_h213

def k0_off640 (i : grid0.Coords) : Fin 1 → Nat :=
  let arg0 : BitVec 32 := BitVec.ofNat 32 (i 0).val
  let c256_i32 : BitVec 32 := 256#32
  let v0 : BitVec 32 := Scalar.muli arg0 c256_i32
  let c101_i32_527 : BitVec 32 := 101#32
  let v1279 : BitVec 32 := Scalar.addi v0 c101_i32_527
  let v1280 : Index := Scalar.indexCast v1279
  ![v1280.toNat]
def k0_off641 (i : grid0.Coords) : Fin 1 → Nat :=
  let arg0 : BitVec 32 := BitVec.ofNat 32 (i 0).val
  let c256_i32 : BitVec 32 := 256#32
  let v0 : BitVec 32 := Scalar.muli arg0 c256_i32
  let c101_i32_527 : BitVec 32 := 101#32
  let v1279 : BitVec 32 := Scalar.addi v0 c101_i32_527
  let v3073 : Index := Scalar.indexCast v1279
  ![v3073.toNat]
def k0_off642 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c101_i32_527 : BitVec 32 := 101#32
  let v1279 : BitVec 32 := Scalar.addi v0 c101_i32_527
  let c0_i32_1282 : BitVec 32 := 0#32
  ![v1279.toNat, v3074.toNat, 0]
def k0_cond214 (v1281 : BitVec 32) : BitVec 1 :=
  let c0_i32_528 : BitVec 32 := 0#32
  let v1282 : BitVec 1 := Scalar.cmpi .sgt v1281 c0_i32_528
  let v1283 : BitVec 32 := Scalar.extui v1282
  let c0_i32_529 : BitVec 32 := 0#32
  let v1284 : BitVec 1 := Scalar.cmpi .ne v1283 c0_i32_529
  v1284

def k0_chk214 (i : grid0.Coords) (v1281 : BitVec 32) (v3074 : BitVec 32) : Prop :=
  (∀ (k0_h214 : k0_cond214 v1281 = 1#1), ∀ a, (k0_off642 i v3074) a + S1x1x512.size a ≤ S1024x200x512.size a)
instance k0_chk214.dec : ∀ (i : grid0.Coords) (v1281 : BitVec 32) (v3074 : BitVec 32), Decidable (k0_chk214 i v1281 v3074) := fun i v1281 v3074 => decidable_of_iff' _ (Iff.of_eq (k0_chk214.eq_1 i v1281 v3074))
theorem k0_off642_inb : ∀ (i : grid0.Coords) (v1281 : BitVec 32) (v3074 : BitVec 32) (k0_hw214 : k0_chk214 i v1281 v3074), ∀ (k0_h214 : k0_cond214 v1281 = 1#1), ∀ a, (k0_off642 i v3074) a + S1x1x512.size a ≤ S1024x200x512.size a := fun i v1281 v3074 k0_hw214 k0_h214 => k0_hw214 k0_h214

def k0_off643 (i : grid0.Coords) : Fin 1 → Nat :=
  let arg0 : BitVec 32 := BitVec.ofNat 32 (i 0).val
  let c256_i32 : BitVec 32 := 256#32
  let v0 : BitVec 32 := Scalar.muli arg0 c256_i32
  let c102_i32_530 : BitVec 32 := 102#32
  let v1285 : BitVec 32 := Scalar.addi v0 c102_i32_530
  let v1286 : Index := Scalar.indexCast v1285
  ![v1286.toNat]
def k0_off644 (i : grid0.Coords) : Fin 1 → Nat :=
  let arg0 : BitVec 32 := BitVec.ofNat 32 (i 0).val
  let c256_i32 : BitVec 32 := 256#32
  let v0 : BitVec 32 := Scalar.muli arg0 c256_i32
  let c102_i32_530 : BitVec 32 := 102#32
  let v1285 : BitVec 32 := Scalar.addi v0 c102_i32_530
  let v3073 : Index := Scalar.indexCast v1285
  ![v3073.toNat]
def k0_off645 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c102_i32_530 : BitVec 32 := 102#32
  let v1285 : BitVec 32 := Scalar.addi v0 c102_i32_530
  let c0_i32_1282 : BitVec 32 := 0#32
  ![v1285.toNat, v3074.toNat, 0]
def k0_cond215 (v1287 : BitVec 32) : BitVec 1 :=
  let c0_i32_531 : BitVec 32 := 0#32
  let v1288 : BitVec 1 := Scalar.cmpi .sgt v1287 c0_i32_531
  let v1289 : BitVec 32 := Scalar.extui v1288
  let c0_i32_532 : BitVec 32 := 0#32
  let v1290 : BitVec 1 := Scalar.cmpi .ne v1289 c0_i32_532
  v1290

def k0_chk215 (i : grid0.Coords) (v1287 : BitVec 32) (v3074 : BitVec 32) : Prop :=
  (∀ (k0_h215 : k0_cond215 v1287 = 1#1), ∀ a, (k0_off645 i v3074) a + S1x1x512.size a ≤ S1024x200x512.size a)
instance k0_chk215.dec : ∀ (i : grid0.Coords) (v1287 : BitVec 32) (v3074 : BitVec 32), Decidable (k0_chk215 i v1287 v3074) := fun i v1287 v3074 => decidable_of_iff' _ (Iff.of_eq (k0_chk215.eq_1 i v1287 v3074))
theorem k0_off645_inb : ∀ (i : grid0.Coords) (v1287 : BitVec 32) (v3074 : BitVec 32) (k0_hw215 : k0_chk215 i v1287 v3074), ∀ (k0_h215 : k0_cond215 v1287 = 1#1), ∀ a, (k0_off645 i v3074) a + S1x1x512.size a ≤ S1024x200x512.size a := fun i v1287 v3074 k0_hw215 k0_h215 => k0_hw215 k0_h215

def k0_off646 (i : grid0.Coords) : Fin 1 → Nat :=
  let arg0 : BitVec 32 := BitVec.ofNat 32 (i 0).val
  let c256_i32 : BitVec 32 := 256#32
  let v0 : BitVec 32 := Scalar.muli arg0 c256_i32
  let c103_i32_533 : BitVec 32 := 103#32
  let v1291 : BitVec 32 := Scalar.addi v0 c103_i32_533
  let v1292 : Index := Scalar.indexCast v1291
  ![v1292.toNat]
def k0_off647 (i : grid0.Coords) : Fin 1 → Nat :=
  let arg0 : BitVec 32 := BitVec.ofNat 32 (i 0).val
  let c256_i32 : BitVec 32 := 256#32
  let v0 : BitVec 32 := Scalar.muli arg0 c256_i32
  let c103_i32_533 : BitVec 32 := 103#32
  let v1291 : BitVec 32 := Scalar.addi v0 c103_i32_533
  let v3073 : Index := Scalar.indexCast v1291
  ![v3073.toNat]
def k0_off648 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c103_i32_533 : BitVec 32 := 103#32
  let v1291 : BitVec 32 := Scalar.addi v0 c103_i32_533
  let c0_i32_1282 : BitVec 32 := 0#32
  ![v1291.toNat, v3074.toNat, 0]
def k0_cond216 (v1293 : BitVec 32) : BitVec 1 :=
  let c0_i32_534 : BitVec 32 := 0#32
  let v1294 : BitVec 1 := Scalar.cmpi .sgt v1293 c0_i32_534
  let v1295 : BitVec 32 := Scalar.extui v1294
  let c0_i32_535 : BitVec 32 := 0#32
  let v1296 : BitVec 1 := Scalar.cmpi .ne v1295 c0_i32_535
  v1296

def k0_chk216 (i : grid0.Coords) (v1293 : BitVec 32) (v3074 : BitVec 32) : Prop :=
  (∀ (k0_h216 : k0_cond216 v1293 = 1#1), ∀ a, (k0_off648 i v3074) a + S1x1x512.size a ≤ S1024x200x512.size a)
instance k0_chk216.dec : ∀ (i : grid0.Coords) (v1293 : BitVec 32) (v3074 : BitVec 32), Decidable (k0_chk216 i v1293 v3074) := fun i v1293 v3074 => decidable_of_iff' _ (Iff.of_eq (k0_chk216.eq_1 i v1293 v3074))
theorem k0_off648_inb : ∀ (i : grid0.Coords) (v1293 : BitVec 32) (v3074 : BitVec 32) (k0_hw216 : k0_chk216 i v1293 v3074), ∀ (k0_h216 : k0_cond216 v1293 = 1#1), ∀ a, (k0_off648 i v3074) a + S1x1x512.size a ≤ S1024x200x512.size a := fun i v1293 v3074 k0_hw216 k0_h216 => k0_hw216 k0_h216

def k0_off649 (i : grid0.Coords) : Fin 1 → Nat :=
  let arg0 : BitVec 32 := BitVec.ofNat 32 (i 0).val
  let c256_i32 : BitVec 32 := 256#32
  let v0 : BitVec 32 := Scalar.muli arg0 c256_i32
  let c104_i32_536 : BitVec 32 := 104#32
  let v1297 : BitVec 32 := Scalar.addi v0 c104_i32_536
  let v1298 : Index := Scalar.indexCast v1297
  ![v1298.toNat]
def k0_off650 (i : grid0.Coords) : Fin 1 → Nat :=
  let arg0 : BitVec 32 := BitVec.ofNat 32 (i 0).val
  let c256_i32 : BitVec 32 := 256#32
  let v0 : BitVec 32 := Scalar.muli arg0 c256_i32
  let c104_i32_536 : BitVec 32 := 104#32
  let v1297 : BitVec 32 := Scalar.addi v0 c104_i32_536
  let v3073 : Index := Scalar.indexCast v1297
  ![v3073.toNat]
def k0_off651 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c104_i32_536 : BitVec 32 := 104#32
  let v1297 : BitVec 32 := Scalar.addi v0 c104_i32_536
  let c0_i32_1282 : BitVec 32 := 0#32
  ![v1297.toNat, v3074.toNat, 0]
def k0_cond217 (v1299 : BitVec 32) : BitVec 1 :=
  let c0_i32_537 : BitVec 32 := 0#32
  let v1300 : BitVec 1 := Scalar.cmpi .sgt v1299 c0_i32_537
  let v1301 : BitVec 32 := Scalar.extui v1300
  let c0_i32_538 : BitVec 32 := 0#32
  let v1302 : BitVec 1 := Scalar.cmpi .ne v1301 c0_i32_538
  v1302

def k0_chk217 (i : grid0.Coords) (v1299 : BitVec 32) (v3074 : BitVec 32) : Prop :=
  (∀ (k0_h217 : k0_cond217 v1299 = 1#1), ∀ a, (k0_off651 i v3074) a + S1x1x512.size a ≤ S1024x200x512.size a)
instance k0_chk217.dec : ∀ (i : grid0.Coords) (v1299 : BitVec 32) (v3074 : BitVec 32), Decidable (k0_chk217 i v1299 v3074) := fun i v1299 v3074 => decidable_of_iff' _ (Iff.of_eq (k0_chk217.eq_1 i v1299 v3074))
theorem k0_off651_inb : ∀ (i : grid0.Coords) (v1299 : BitVec 32) (v3074 : BitVec 32) (k0_hw217 : k0_chk217 i v1299 v3074), ∀ (k0_h217 : k0_cond217 v1299 = 1#1), ∀ a, (k0_off651 i v3074) a + S1x1x512.size a ≤ S1024x200x512.size a := fun i v1299 v3074 k0_hw217 k0_h217 => k0_hw217 k0_h217

def k0_off652 (i : grid0.Coords) : Fin 1 → Nat :=
  let arg0 : BitVec 32 := BitVec.ofNat 32 (i 0).val
  let c256_i32 : BitVec 32 := 256#32
  let v0 : BitVec 32 := Scalar.muli arg0 c256_i32
  let c105_i32_539 : BitVec 32 := 105#32
  let v1303 : BitVec 32 := Scalar.addi v0 c105_i32_539
  let v1304 : Index := Scalar.indexCast v1303
  ![v1304.toNat]
def k0_off653 (i : grid0.Coords) : Fin 1 → Nat :=
  let arg0 : BitVec 32 := BitVec.ofNat 32 (i 0).val
  let c256_i32 : BitVec 32 := 256#32
  let v0 : BitVec 32 := Scalar.muli arg0 c256_i32
  let c105_i32_539 : BitVec 32 := 105#32
  let v1303 : BitVec 32 := Scalar.addi v0 c105_i32_539
  let v3073 : Index := Scalar.indexCast v1303
  ![v3073.toNat]
def k0_off654 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c105_i32_539 : BitVec 32 := 105#32
  let v1303 : BitVec 32 := Scalar.addi v0 c105_i32_539
  let c0_i32_1282 : BitVec 32 := 0#32
  ![v1303.toNat, v3074.toNat, 0]
def k0_cond218 (v1305 : BitVec 32) : BitVec 1 :=
  let c0_i32_540 : BitVec 32 := 0#32
  let v1306 : BitVec 1 := Scalar.cmpi .sgt v1305 c0_i32_540
  let v1307 : BitVec 32 := Scalar.extui v1306
  let c0_i32_541 : BitVec 32 := 0#32
  let v1308 : BitVec 1 := Scalar.cmpi .ne v1307 c0_i32_541
  v1308

def k0_chk218 (i : grid0.Coords) (v1305 : BitVec 32) (v3074 : BitVec 32) : Prop :=
  (∀ (k0_h218 : k0_cond218 v1305 = 1#1), ∀ a, (k0_off654 i v3074) a + S1x1x512.size a ≤ S1024x200x512.size a)
instance k0_chk218.dec : ∀ (i : grid0.Coords) (v1305 : BitVec 32) (v3074 : BitVec 32), Decidable (k0_chk218 i v1305 v3074) := fun i v1305 v3074 => decidable_of_iff' _ (Iff.of_eq (k0_chk218.eq_1 i v1305 v3074))
theorem k0_off654_inb : ∀ (i : grid0.Coords) (v1305 : BitVec 32) (v3074 : BitVec 32) (k0_hw218 : k0_chk218 i v1305 v3074), ∀ (k0_h218 : k0_cond218 v1305 = 1#1), ∀ a, (k0_off654 i v3074) a + S1x1x512.size a ≤ S1024x200x512.size a := fun i v1305 v3074 k0_hw218 k0_h218 => k0_hw218 k0_h218

def k0_off655 (i : grid0.Coords) : Fin 1 → Nat :=
  let arg0 : BitVec 32 := BitVec.ofNat 32 (i 0).val
  let c256_i32 : BitVec 32 := 256#32
  let v0 : BitVec 32 := Scalar.muli arg0 c256_i32
  let c106_i32_542 : BitVec 32 := 106#32
  let v1309 : BitVec 32 := Scalar.addi v0 c106_i32_542
  let v1310 : Index := Scalar.indexCast v1309
  ![v1310.toNat]
def k0_off656 (i : grid0.Coords) : Fin 1 → Nat :=
  let arg0 : BitVec 32 := BitVec.ofNat 32 (i 0).val
  let c256_i32 : BitVec 32 := 256#32
  let v0 : BitVec 32 := Scalar.muli arg0 c256_i32
  let c106_i32_542 : BitVec 32 := 106#32
  let v1309 : BitVec 32 := Scalar.addi v0 c106_i32_542
  let v3073 : Index := Scalar.indexCast v1309
  ![v3073.toNat]
def k0_off657 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c106_i32_542 : BitVec 32 := 106#32
  let v1309 : BitVec 32 := Scalar.addi v0 c106_i32_542
  let c0_i32_1282 : BitVec 32 := 0#32
  ![v1309.toNat, v3074.toNat, 0]
def k0_cond219 (v1311 : BitVec 32) : BitVec 1 :=
  let c0_i32_543 : BitVec 32 := 0#32
  let v1312 : BitVec 1 := Scalar.cmpi .sgt v1311 c0_i32_543
  let v1313 : BitVec 32 := Scalar.extui v1312
  let c0_i32_544 : BitVec 32 := 0#32
  let v1314 : BitVec 1 := Scalar.cmpi .ne v1313 c0_i32_544
  v1314

def k0_chk219 (i : grid0.Coords) (v1311 : BitVec 32) (v3074 : BitVec 32) : Prop :=
  (∀ (k0_h219 : k0_cond219 v1311 = 1#1), ∀ a, (k0_off657 i v3074) a + S1x1x512.size a ≤ S1024x200x512.size a)
instance k0_chk219.dec : ∀ (i : grid0.Coords) (v1311 : BitVec 32) (v3074 : BitVec 32), Decidable (k0_chk219 i v1311 v3074) := fun i v1311 v3074 => decidable_of_iff' _ (Iff.of_eq (k0_chk219.eq_1 i v1311 v3074))
theorem k0_off657_inb : ∀ (i : grid0.Coords) (v1311 : BitVec 32) (v3074 : BitVec 32) (k0_hw219 : k0_chk219 i v1311 v3074), ∀ (k0_h219 : k0_cond219 v1311 = 1#1), ∀ a, (k0_off657 i v3074) a + S1x1x512.size a ≤ S1024x200x512.size a := fun i v1311 v3074 k0_hw219 k0_h219 => k0_hw219 k0_h219

def k0_off658 (i : grid0.Coords) : Fin 1 → Nat :=
  let arg0 : BitVec 32 := BitVec.ofNat 32 (i 0).val
  let c256_i32 : BitVec 32 := 256#32
  let v0 : BitVec 32 := Scalar.muli arg0 c256_i32
  let c107_i32_545 : BitVec 32 := 107#32
  let v1315 : BitVec 32 := Scalar.addi v0 c107_i32_545
  let v1316 : Index := Scalar.indexCast v1315
  ![v1316.toNat]
def k0_off659 (i : grid0.Coords) : Fin 1 → Nat :=
  let arg0 : BitVec 32 := BitVec.ofNat 32 (i 0).val
  let c256_i32 : BitVec 32 := 256#32
  let v0 : BitVec 32 := Scalar.muli arg0 c256_i32
  let c107_i32_545 : BitVec 32 := 107#32
  let v1315 : BitVec 32 := Scalar.addi v0 c107_i32_545
  let v3073 : Index := Scalar.indexCast v1315
  ![v3073.toNat]
def k0_off660 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c107_i32_545 : BitVec 32 := 107#32
  let v1315 : BitVec 32 := Scalar.addi v0 c107_i32_545
  let c0_i32_1282 : BitVec 32 := 0#32
  ![v1315.toNat, v3074.toNat, 0]
def k0_cond220 (v1317 : BitVec 32) : BitVec 1 :=
  let c0_i32_546 : BitVec 32 := 0#32
  let v1318 : BitVec 1 := Scalar.cmpi .sgt v1317 c0_i32_546
  let v1319 : BitVec 32 := Scalar.extui v1318
  let c0_i32_547 : BitVec 32 := 0#32
  let v1320 : BitVec 1 := Scalar.cmpi .ne v1319 c0_i32_547
  v1320

def k0_chk220 (i : grid0.Coords) (v1317 : BitVec 32) (v3074 : BitVec 32) : Prop :=
  (∀ (k0_h220 : k0_cond220 v1317 = 1#1), ∀ a, (k0_off660 i v3074) a + S1x1x512.size a ≤ S1024x200x512.size a)
instance k0_chk220.dec : ∀ (i : grid0.Coords) (v1317 : BitVec 32) (v3074 : BitVec 32), Decidable (k0_chk220 i v1317 v3074) := fun i v1317 v3074 => decidable_of_iff' _ (Iff.of_eq (k0_chk220.eq_1 i v1317 v3074))
theorem k0_off660_inb : ∀ (i : grid0.Coords) (v1317 : BitVec 32) (v3074 : BitVec 32) (k0_hw220 : k0_chk220 i v1317 v3074), ∀ (k0_h220 : k0_cond220 v1317 = 1#1), ∀ a, (k0_off660 i v3074) a + S1x1x512.size a ≤ S1024x200x512.size a := fun i v1317 v3074 k0_hw220 k0_h220 => k0_hw220 k0_h220

def k0_off661 (i : grid0.Coords) : Fin 1 → Nat :=
  let arg0 : BitVec 32 := BitVec.ofNat 32 (i 0).val
  let c256_i32 : BitVec 32 := 256#32
  let v0 : BitVec 32 := Scalar.muli arg0 c256_i32
  let c108_i32_548 : BitVec 32 := 108#32
  let v1321 : BitVec 32 := Scalar.addi v0 c108_i32_548
  let v1322 : Index := Scalar.indexCast v1321
  ![v1322.toNat]
def k0_off662 (i : grid0.Coords) : Fin 1 → Nat :=
  let arg0 : BitVec 32 := BitVec.ofNat 32 (i 0).val
  let c256_i32 : BitVec 32 := 256#32
  let v0 : BitVec 32 := Scalar.muli arg0 c256_i32
  let c108_i32_548 : BitVec 32 := 108#32
  let v1321 : BitVec 32 := Scalar.addi v0 c108_i32_548
  let v3073 : Index := Scalar.indexCast v1321
  ![v3073.toNat]
def k0_off663 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c108_i32_548 : BitVec 32 := 108#32
  let v1321 : BitVec 32 := Scalar.addi v0 c108_i32_548
  let c0_i32_1282 : BitVec 32 := 0#32
  ![v1321.toNat, v3074.toNat, 0]
def k0_cond221 (v1323 : BitVec 32) : BitVec 1 :=
  let c0_i32_549 : BitVec 32 := 0#32
  let v1324 : BitVec 1 := Scalar.cmpi .sgt v1323 c0_i32_549
  let v1325 : BitVec 32 := Scalar.extui v1324
  let c0_i32_550 : BitVec 32 := 0#32
  let v1326 : BitVec 1 := Scalar.cmpi .ne v1325 c0_i32_550
  v1326

def k0_chk221 (i : grid0.Coords) (v1323 : BitVec 32) (v3074 : BitVec 32) : Prop :=
  (∀ (k0_h221 : k0_cond221 v1323 = 1#1), ∀ a, (k0_off663 i v3074) a + S1x1x512.size a ≤ S1024x200x512.size a)
instance k0_chk221.dec : ∀ (i : grid0.Coords) (v1323 : BitVec 32) (v3074 : BitVec 32), Decidable (k0_chk221 i v1323 v3074) := fun i v1323 v3074 => decidable_of_iff' _ (Iff.of_eq (k0_chk221.eq_1 i v1323 v3074))
theorem k0_off663_inb : ∀ (i : grid0.Coords) (v1323 : BitVec 32) (v3074 : BitVec 32) (k0_hw221 : k0_chk221 i v1323 v3074), ∀ (k0_h221 : k0_cond221 v1323 = 1#1), ∀ a, (k0_off663 i v3074) a + S1x1x512.size a ≤ S1024x200x512.size a := fun i v1323 v3074 k0_hw221 k0_h221 => k0_hw221 k0_h221

def k0_off664 (i : grid0.Coords) : Fin 1 → Nat :=
  let arg0 : BitVec 32 := BitVec.ofNat 32 (i 0).val
  let c256_i32 : BitVec 32 := 256#32
  let v0 : BitVec 32 := Scalar.muli arg0 c256_i32
  let c109_i32_551 : BitVec 32 := 109#32
  let v1327 : BitVec 32 := Scalar.addi v0 c109_i32_551
  let v1328 : Index := Scalar.indexCast v1327
  ![v1328.toNat]
def k0_off665 (i : grid0.Coords) : Fin 1 → Nat :=
  let arg0 : BitVec 32 := BitVec.ofNat 32 (i 0).val
  let c256_i32 : BitVec 32 := 256#32
  let v0 : BitVec 32 := Scalar.muli arg0 c256_i32
  let c109_i32_551 : BitVec 32 := 109#32
  let v1327 : BitVec 32 := Scalar.addi v0 c109_i32_551
  let v3073 : Index := Scalar.indexCast v1327
  ![v3073.toNat]
def k0_off666 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c109_i32_551 : BitVec 32 := 109#32
  let v1327 : BitVec 32 := Scalar.addi v0 c109_i32_551
  let c0_i32_1282 : BitVec 32 := 0#32
  ![v1327.toNat, v3074.toNat, 0]
def k0_cond222 (v1329 : BitVec 32) : BitVec 1 :=
  let c0_i32_552 : BitVec 32 := 0#32
  let v1330 : BitVec 1 := Scalar.cmpi .sgt v1329 c0_i32_552
  let v1331 : BitVec 32 := Scalar.extui v1330
  let c0_i32_553 : BitVec 32 := 0#32
  let v1332 : BitVec 1 := Scalar.cmpi .ne v1331 c0_i32_553
  v1332

def k0_chk222 (i : grid0.Coords) (v1329 : BitVec 32) (v3074 : BitVec 32) : Prop :=
  (∀ (k0_h222 : k0_cond222 v1329 = 1#1), ∀ a, (k0_off666 i v3074) a + S1x1x512.size a ≤ S1024x200x512.size a)
instance k0_chk222.dec : ∀ (i : grid0.Coords) (v1329 : BitVec 32) (v3074 : BitVec 32), Decidable (k0_chk222 i v1329 v3074) := fun i v1329 v3074 => decidable_of_iff' _ (Iff.of_eq (k0_chk222.eq_1 i v1329 v3074))
theorem k0_off666_inb : ∀ (i : grid0.Coords) (v1329 : BitVec 32) (v3074 : BitVec 32) (k0_hw222 : k0_chk222 i v1329 v3074), ∀ (k0_h222 : k0_cond222 v1329 = 1#1), ∀ a, (k0_off666 i v3074) a + S1x1x512.size a ≤ S1024x200x512.size a := fun i v1329 v3074 k0_hw222 k0_h222 => k0_hw222 k0_h222

def k0_off667 (i : grid0.Coords) : Fin 1 → Nat :=
  let arg0 : BitVec 32 := BitVec.ofNat 32 (i 0).val
  let c256_i32 : BitVec 32 := 256#32
  let v0 : BitVec 32 := Scalar.muli arg0 c256_i32
  let c110_i32_554 : BitVec 32 := 110#32
  let v1333 : BitVec 32 := Scalar.addi v0 c110_i32_554
  let v1334 : Index := Scalar.indexCast v1333
  ![v1334.toNat]
def k0_off668 (i : grid0.Coords) : Fin 1 → Nat :=
  let arg0 : BitVec 32 := BitVec.ofNat 32 (i 0).val
  let c256_i32 : BitVec 32 := 256#32
  let v0 : BitVec 32 := Scalar.muli arg0 c256_i32
  let c110_i32_554 : BitVec 32 := 110#32
  let v1333 : BitVec 32 := Scalar.addi v0 c110_i32_554
  let v3073 : Index := Scalar.indexCast v1333
  ![v3073.toNat]
def k0_off669 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c110_i32_554 : BitVec 32 := 110#32
  let v1333 : BitVec 32 := Scalar.addi v0 c110_i32_554
  let c0_i32_1282 : BitVec 32 := 0#32
  ![v1333.toNat, v3074.toNat, 0]
def k0_cond223 (v1335 : BitVec 32) : BitVec 1 :=
  let c0_i32_555 : BitVec 32 := 0#32
  let v1336 : BitVec 1 := Scalar.cmpi .sgt v1335 c0_i32_555
  let v1337 : BitVec 32 := Scalar.extui v1336
  let c0_i32_556 : BitVec 32 := 0#32
  let v1338 : BitVec 1 := Scalar.cmpi .ne v1337 c0_i32_556
  v1338

def k0_chk223 (i : grid0.Coords) (v1335 : BitVec 32) (v3074 : BitVec 32) : Prop :=
  (∀ (k0_h223 : k0_cond223 v1335 = 1#1), ∀ a, (k0_off669 i v3074) a + S1x1x512.size a ≤ S1024x200x512.size a)
instance k0_chk223.dec : ∀ (i : grid0.Coords) (v1335 : BitVec 32) (v3074 : BitVec 32), Decidable (k0_chk223 i v1335 v3074) := fun i v1335 v3074 => decidable_of_iff' _ (Iff.of_eq (k0_chk223.eq_1 i v1335 v3074))
theorem k0_off669_inb : ∀ (i : grid0.Coords) (v1335 : BitVec 32) (v3074 : BitVec 32) (k0_hw223 : k0_chk223 i v1335 v3074), ∀ (k0_h223 : k0_cond223 v1335 = 1#1), ∀ a, (k0_off669 i v3074) a + S1x1x512.size a ≤ S1024x200x512.size a := fun i v1335 v3074 k0_hw223 k0_h223 => k0_hw223 k0_h223

def k0_off670 (i : grid0.Coords) : Fin 1 → Nat :=
  let arg0 : BitVec 32 := BitVec.ofNat 32 (i 0).val
  let c256_i32 : BitVec 32 := 256#32
  let v0 : BitVec 32 := Scalar.muli arg0 c256_i32
  let c111_i32_557 : BitVec 32 := 111#32
  let v1339 : BitVec 32 := Scalar.addi v0 c111_i32_557
  let v1340 : Index := Scalar.indexCast v1339
  ![v1340.toNat]
def k0_off671 (i : grid0.Coords) : Fin 1 → Nat :=
  let arg0 : BitVec 32 := BitVec.ofNat 32 (i 0).val
  let c256_i32 : BitVec 32 := 256#32
  let v0 : BitVec 32 := Scalar.muli arg0 c256_i32
  let c111_i32_557 : BitVec 32 := 111#32
  let v1339 : BitVec 32 := Scalar.addi v0 c111_i32_557
  let v3073 : Index := Scalar.indexCast v1339
  ![v3073.toNat]
def k0_off672 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c111_i32_557 : BitVec 32 := 111#32
  let v1339 : BitVec 32 := Scalar.addi v0 c111_i32_557
  let c0_i32_1282 : BitVec 32 := 0#32
  ![v1339.toNat, v3074.toNat, 0]
def k0_cond224 (v1341 : BitVec 32) : BitVec 1 :=
  let c0_i32_558 : BitVec 32 := 0#32
  let v1342 : BitVec 1 := Scalar.cmpi .sgt v1341 c0_i32_558
  let v1343 : BitVec 32 := Scalar.extui v1342
  let c0_i32_559 : BitVec 32 := 0#32
  let v1344 : BitVec 1 := Scalar.cmpi .ne v1343 c0_i32_559
  v1344

def k0_chk224 (i : grid0.Coords) (v1341 : BitVec 32) (v3074 : BitVec 32) : Prop :=
  (∀ (k0_h224 : k0_cond224 v1341 = 1#1), ∀ a, (k0_off672 i v3074) a + S1x1x512.size a ≤ S1024x200x512.size a)
instance k0_chk224.dec : ∀ (i : grid0.Coords) (v1341 : BitVec 32) (v3074 : BitVec 32), Decidable (k0_chk224 i v1341 v3074) := fun i v1341 v3074 => decidable_of_iff' _ (Iff.of_eq (k0_chk224.eq_1 i v1341 v3074))
theorem k0_off672_inb : ∀ (i : grid0.Coords) (v1341 : BitVec 32) (v3074 : BitVec 32) (k0_hw224 : k0_chk224 i v1341 v3074), ∀ (k0_h224 : k0_cond224 v1341 = 1#1), ∀ a, (k0_off672 i v3074) a + S1x1x512.size a ≤ S1024x200x512.size a := fun i v1341 v3074 k0_hw224 k0_h224 => k0_hw224 k0_h224

def k0_off673 (i : grid0.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1345 : BitVec 32 := Scalar.addi v0 c112_i32
  let v1346 : Index := Scalar.indexCast v1345
  ![v1346.toNat]
def k0_off674 (i : grid0.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1345 : BitVec 32 := Scalar.addi v0 c112_i32
  let v3073 : Index := Scalar.indexCast v1345
  ![v3073.toNat]
def k0_off675 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c112_i32 : BitVec 32 := 112#32
  let v1345 : BitVec 32 := Scalar.addi v0 c112_i32
  let c0_i32_1287 : BitVec 32 := 0#32
  ![v1345.toNat, v3074.toNat, 0]
def k0_cond225 (v1347 : BitVec 32) : BitVec 1 :=
  let c0_i32_560 : BitVec 32 := 0#32
  let v1348 : BitVec 1 := Scalar.cmpi .sgt v1347 c0_i32_560
  let v1349 : BitVec 32 := Scalar.extui v1348
  let c0_i32_561 : BitVec 32 := 0#32
  let v1350 : BitVec 1 := Scalar.cmpi .ne v1349 c0_i32_561
  v1350

def k0_chk225 (i : grid0.Coords) (v1347 : BitVec 32) (v3074 : BitVec 32) : Prop :=
  (∀ (k0_h225 : k0_cond225 v1347 = 1#1), ∀ a, (k0_off675 i v3074) a + S1x1x512.size a ≤ S1024x200x512.size a)
instance k0_chk225.dec : ∀ (i : grid0.Coords) (v1347 : BitVec 32) (v3074 : BitVec 32), Decidable (k0_chk225 i v1347 v3074) := fun i v1347 v3074 => decidable_of_iff' _ (Iff.of_eq (k0_chk225.eq_1 i v1347 v3074))
theorem k0_off675_inb : ∀ (i : grid0.Coords) (v1347 : BitVec 32) (v3074 : BitVec 32) (k0_hw225 : k0_chk225 i v1347 v3074), ∀ (k0_h225 : k0_cond225 v1347 = 1#1), ∀ a, (k0_off675 i v3074) a + S1x1x512.size a ≤ S1024x200x512.size a := fun i v1347 v3074 k0_hw225 k0_h225 => k0_hw225 k0_h225

def k0_off676 (i : grid0.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1351 : BitVec 32 := Scalar.addi v0 c113_i32
  let v1352 : Index := Scalar.indexCast v1351
  ![v1352.toNat]
def k0_off677 (i : grid0.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1351 : BitVec 32 := Scalar.addi v0 c113_i32
  let v3073 : Index := Scalar.indexCast v1351
  ![v3073.toNat]
def k0_off678 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c113_i32 : BitVec 32 := 113#32
  let v1351 : BitVec 32 := Scalar.addi v0 c113_i32
  let c0_i32_1287 : BitVec 32 := 0#32
  ![v1351.toNat, v3074.toNat, 0]
def k0_cond226 (v1353 : BitVec 32) : BitVec 1 :=
  let c0_i32_562 : BitVec 32 := 0#32
  let v1354 : BitVec 1 := Scalar.cmpi .sgt v1353 c0_i32_562
  let v1355 : BitVec 32 := Scalar.extui v1354
  let c0_i32_563 : BitVec 32 := 0#32
  let v1356 : BitVec 1 := Scalar.cmpi .ne v1355 c0_i32_563
  v1356

def k0_chk226 (i : grid0.Coords) (v1353 : BitVec 32) (v3074 : BitVec 32) : Prop :=
  (∀ (k0_h226 : k0_cond226 v1353 = 1#1), ∀ a, (k0_off678 i v3074) a + S1x1x512.size a ≤ S1024x200x512.size a)
instance k0_chk226.dec : ∀ (i : grid0.Coords) (v1353 : BitVec 32) (v3074 : BitVec 32), Decidable (k0_chk226 i v1353 v3074) := fun i v1353 v3074 => decidable_of_iff' _ (Iff.of_eq (k0_chk226.eq_1 i v1353 v3074))
theorem k0_off678_inb : ∀ (i : grid0.Coords) (v1353 : BitVec 32) (v3074 : BitVec 32) (k0_hw226 : k0_chk226 i v1353 v3074), ∀ (k0_h226 : k0_cond226 v1353 = 1#1), ∀ a, (k0_off678 i v3074) a + S1x1x512.size a ≤ S1024x200x512.size a := fun i v1353 v3074 k0_hw226 k0_h226 => k0_hw226 k0_h226

def k0_off679 (i : grid0.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1357 : BitVec 32 := Scalar.addi v0 c114_i32
  let v1358 : Index := Scalar.indexCast v1357
  ![v1358.toNat]
def k0_off680 (i : grid0.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1357 : BitVec 32 := Scalar.addi v0 c114_i32
  let v3073 : Index := Scalar.indexCast v1357
  ![v3073.toNat]
def k0_off681 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c114_i32 : BitVec 32 := 114#32
  let v1357 : BitVec 32 := Scalar.addi v0 c114_i32
  let c0_i32_1287 : BitVec 32 := 0#32
  ![v1357.toNat, v3074.toNat, 0]
def k0_cond227 (v1359 : BitVec 32) : BitVec 1 :=
  let c0_i32_564 : BitVec 32 := 0#32
  let v1360 : BitVec 1 := Scalar.cmpi .sgt v1359 c0_i32_564
  let v1361 : BitVec 32 := Scalar.extui v1360
  let c0_i32_565 : BitVec 32 := 0#32
  let v1362 : BitVec 1 := Scalar.cmpi .ne v1361 c0_i32_565
  v1362

def k0_chk227 (i : grid0.Coords) (v1359 : BitVec 32) (v3074 : BitVec 32) : Prop :=
  (∀ (k0_h227 : k0_cond227 v1359 = 1#1), ∀ a, (k0_off681 i v3074) a + S1x1x512.size a ≤ S1024x200x512.size a)
instance k0_chk227.dec : ∀ (i : grid0.Coords) (v1359 : BitVec 32) (v3074 : BitVec 32), Decidable (k0_chk227 i v1359 v3074) := fun i v1359 v3074 => decidable_of_iff' _ (Iff.of_eq (k0_chk227.eq_1 i v1359 v3074))
theorem k0_off681_inb : ∀ (i : grid0.Coords) (v1359 : BitVec 32) (v3074 : BitVec 32) (k0_hw227 : k0_chk227 i v1359 v3074), ∀ (k0_h227 : k0_cond227 v1359 = 1#1), ∀ a, (k0_off681 i v3074) a + S1x1x512.size a ≤ S1024x200x512.size a := fun i v1359 v3074 k0_hw227 k0_h227 => k0_hw227 k0_h227

def k0_off682 (i : grid0.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1363 : BitVec 32 := Scalar.addi v0 c115_i32
  let v1364 : Index := Scalar.indexCast v1363
  ![v1364.toNat]
def k0_off683 (i : grid0.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1363 : BitVec 32 := Scalar.addi v0 c115_i32
  let v3073 : Index := Scalar.indexCast v1363
  ![v3073.toNat]
def k0_off684 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c115_i32 : BitVec 32 := 115#32
  let v1363 : BitVec 32 := Scalar.addi v0 c115_i32
  let c0_i32_1287 : BitVec 32 := 0#32
  ![v1363.toNat, v3074.toNat, 0]
def k0_cond228 (v1365 : BitVec 32) : BitVec 1 :=
  let c0_i32_566 : BitVec 32 := 0#32
  let v1366 : BitVec 1 := Scalar.cmpi .sgt v1365 c0_i32_566
  let v1367 : BitVec 32 := Scalar.extui v1366
  let c0_i32_567 : BitVec 32 := 0#32
  let v1368 : BitVec 1 := Scalar.cmpi .ne v1367 c0_i32_567
  v1368

def k0_chk228 (i : grid0.Coords) (v1365 : BitVec 32) (v3074 : BitVec 32) : Prop :=
  (∀ (k0_h228 : k0_cond228 v1365 = 1#1), ∀ a, (k0_off684 i v3074) a + S1x1x512.size a ≤ S1024x200x512.size a)
instance k0_chk228.dec : ∀ (i : grid0.Coords) (v1365 : BitVec 32) (v3074 : BitVec 32), Decidable (k0_chk228 i v1365 v3074) := fun i v1365 v3074 => decidable_of_iff' _ (Iff.of_eq (k0_chk228.eq_1 i v1365 v3074))
theorem k0_off684_inb : ∀ (i : grid0.Coords) (v1365 : BitVec 32) (v3074 : BitVec 32) (k0_hw228 : k0_chk228 i v1365 v3074), ∀ (k0_h228 : k0_cond228 v1365 = 1#1), ∀ a, (k0_off684 i v3074) a + S1x1x512.size a ≤ S1024x200x512.size a := fun i v1365 v3074 k0_hw228 k0_h228 => k0_hw228 k0_h228

def k0_off685 (i : grid0.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1369 : BitVec 32 := Scalar.addi v0 c116_i32
  let v1370 : Index := Scalar.indexCast v1369
  ![v1370.toNat]
def k0_off686 (i : grid0.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1369 : BitVec 32 := Scalar.addi v0 c116_i32
  let v3073 : Index := Scalar.indexCast v1369
  ![v3073.toNat]
def k0_off687 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c116_i32 : BitVec 32 := 116#32
  let v1369 : BitVec 32 := Scalar.addi v0 c116_i32
  let c0_i32_1287 : BitVec 32 := 0#32
  ![v1369.toNat, v3074.toNat, 0]
def k0_cond229 (v1371 : BitVec 32) : BitVec 1 :=
  let c0_i32_568 : BitVec 32 := 0#32
  let v1372 : BitVec 1 := Scalar.cmpi .sgt v1371 c0_i32_568
  let v1373 : BitVec 32 := Scalar.extui v1372
  let c0_i32_569 : BitVec 32 := 0#32
  let v1374 : BitVec 1 := Scalar.cmpi .ne v1373 c0_i32_569
  v1374

def k0_chk229 (i : grid0.Coords) (v1371 : BitVec 32) (v3074 : BitVec 32) : Prop :=
  (∀ (k0_h229 : k0_cond229 v1371 = 1#1), ∀ a, (k0_off687 i v3074) a + S1x1x512.size a ≤ S1024x200x512.size a)
instance k0_chk229.dec : ∀ (i : grid0.Coords) (v1371 : BitVec 32) (v3074 : BitVec 32), Decidable (k0_chk229 i v1371 v3074) := fun i v1371 v3074 => decidable_of_iff' _ (Iff.of_eq (k0_chk229.eq_1 i v1371 v3074))
theorem k0_off687_inb : ∀ (i : grid0.Coords) (v1371 : BitVec 32) (v3074 : BitVec 32) (k0_hw229 : k0_chk229 i v1371 v3074), ∀ (k0_h229 : k0_cond229 v1371 = 1#1), ∀ a, (k0_off687 i v3074) a + S1x1x512.size a ≤ S1024x200x512.size a := fun i v1371 v3074 k0_hw229 k0_h229 => k0_hw229 k0_h229

def k0_off688 (i : grid0.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1375 : BitVec 32 := Scalar.addi v0 c117_i32
  let v1376 : Index := Scalar.indexCast v1375
  ![v1376.toNat]
def k0_off689 (i : grid0.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1375 : BitVec 32 := Scalar.addi v0 c117_i32
  let v3073 : Index := Scalar.indexCast v1375
  ![v3073.toNat]
def k0_off690 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c117_i32 : BitVec 32 := 117#32
  let v1375 : BitVec 32 := Scalar.addi v0 c117_i32
  let c0_i32_1287 : BitVec 32 := 0#32
  ![v1375.toNat, v3074.toNat, 0]
def k0_cond230 (v1377 : BitVec 32) : BitVec 1 :=
  let c0_i32_570 : BitVec 32 := 0#32
  let v1378 : BitVec 1 := Scalar.cmpi .sgt v1377 c0_i32_570
  let v1379 : BitVec 32 := Scalar.extui v1378
  let c0_i32_571 : BitVec 32 := 0#32
  let v1380 : BitVec 1 := Scalar.cmpi .ne v1379 c0_i32_571
  v1380

def k0_chk230 (i : grid0.Coords) (v1377 : BitVec 32) (v3074 : BitVec 32) : Prop :=
  (∀ (k0_h230 : k0_cond230 v1377 = 1#1), ∀ a, (k0_off690 i v3074) a + S1x1x512.size a ≤ S1024x200x512.size a)
instance k0_chk230.dec : ∀ (i : grid0.Coords) (v1377 : BitVec 32) (v3074 : BitVec 32), Decidable (k0_chk230 i v1377 v3074) := fun i v1377 v3074 => decidable_of_iff' _ (Iff.of_eq (k0_chk230.eq_1 i v1377 v3074))
theorem k0_off690_inb : ∀ (i : grid0.Coords) (v1377 : BitVec 32) (v3074 : BitVec 32) (k0_hw230 : k0_chk230 i v1377 v3074), ∀ (k0_h230 : k0_cond230 v1377 = 1#1), ∀ a, (k0_off690 i v3074) a + S1x1x512.size a ≤ S1024x200x512.size a := fun i v1377 v3074 k0_hw230 k0_h230 => k0_hw230 k0_h230

def k0_off691 (i : grid0.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1381 : BitVec 32 := Scalar.addi v0 c118_i32
  let v1382 : Index := Scalar.indexCast v1381
  ![v1382.toNat]
def k0_off692 (i : grid0.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1381 : BitVec 32 := Scalar.addi v0 c118_i32
  let v3073 : Index := Scalar.indexCast v1381
  ![v3073.toNat]
def k0_off693 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c118_i32 : BitVec 32 := 118#32
  let v1381 : BitVec 32 := Scalar.addi v0 c118_i32
  let c0_i32_1287 : BitVec 32 := 0#32
  ![v1381.toNat, v3074.toNat, 0]
def k0_cond231 (v1383 : BitVec 32) : BitVec 1 :=
  let c0_i32_572 : BitVec 32 := 0#32
  let v1384 : BitVec 1 := Scalar.cmpi .sgt v1383 c0_i32_572
  let v1385 : BitVec 32 := Scalar.extui v1384
  let c0_i32_573 : BitVec 32 := 0#32
  let v1386 : BitVec 1 := Scalar.cmpi .ne v1385 c0_i32_573
  v1386

def k0_chk231 (i : grid0.Coords) (v1383 : BitVec 32) (v3074 : BitVec 32) : Prop :=
  (∀ (k0_h231 : k0_cond231 v1383 = 1#1), ∀ a, (k0_off693 i v3074) a + S1x1x512.size a ≤ S1024x200x512.size a)
instance k0_chk231.dec : ∀ (i : grid0.Coords) (v1383 : BitVec 32) (v3074 : BitVec 32), Decidable (k0_chk231 i v1383 v3074) := fun i v1383 v3074 => decidable_of_iff' _ (Iff.of_eq (k0_chk231.eq_1 i v1383 v3074))
theorem k0_off693_inb : ∀ (i : grid0.Coords) (v1383 : BitVec 32) (v3074 : BitVec 32) (k0_hw231 : k0_chk231 i v1383 v3074), ∀ (k0_h231 : k0_cond231 v1383 = 1#1), ∀ a, (k0_off693 i v3074) a + S1x1x512.size a ≤ S1024x200x512.size a := fun i v1383 v3074 k0_hw231 k0_h231 => k0_hw231 k0_h231

def k0_off694 (i : grid0.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1387 : BitVec 32 := Scalar.addi v0 c119_i32
  let v1388 : Index := Scalar.indexCast v1387
  ![v1388.toNat]
def k0_off695 (i : grid0.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1387 : BitVec 32 := Scalar.addi v0 c119_i32
  let v3073 : Index := Scalar.indexCast v1387
  ![v3073.toNat]
def k0_off696 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c119_i32 : BitVec 32 := 119#32
  let v1387 : BitVec 32 := Scalar.addi v0 c119_i32
  let c0_i32_1287 : BitVec 32 := 0#32
  ![v1387.toNat, v3074.toNat, 0]
def k0_cond232 (v1389 : BitVec 32) : BitVec 1 :=
  let c0_i32_574 : BitVec 32 := 0#32
  let v1390 : BitVec 1 := Scalar.cmpi .sgt v1389 c0_i32_574
  let v1391 : BitVec 32 := Scalar.extui v1390
  let c0_i32_575 : BitVec 32 := 0#32
  let v1392 : BitVec 1 := Scalar.cmpi .ne v1391 c0_i32_575
  v1392

def k0_chk232 (i : grid0.Coords) (v1389 : BitVec 32) (v3074 : BitVec 32) : Prop :=
  (∀ (k0_h232 : k0_cond232 v1389 = 1#1), ∀ a, (k0_off696 i v3074) a + S1x1x512.size a ≤ S1024x200x512.size a)
instance k0_chk232.dec : ∀ (i : grid0.Coords) (v1389 : BitVec 32) (v3074 : BitVec 32), Decidable (k0_chk232 i v1389 v3074) := fun i v1389 v3074 => decidable_of_iff' _ (Iff.of_eq (k0_chk232.eq_1 i v1389 v3074))
theorem k0_off696_inb : ∀ (i : grid0.Coords) (v1389 : BitVec 32) (v3074 : BitVec 32) (k0_hw232 : k0_chk232 i v1389 v3074), ∀ (k0_h232 : k0_cond232 v1389 = 1#1), ∀ a, (k0_off696 i v3074) a + S1x1x512.size a ≤ S1024x200x512.size a := fun i v1389 v3074 k0_hw232 k0_h232 => k0_hw232 k0_h232

def k0_off697 (i : grid0.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1393 : BitVec 32 := Scalar.addi v0 c120_i32
  let v1394 : Index := Scalar.indexCast v1393
  ![v1394.toNat]
def k0_off698 (i : grid0.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1393 : BitVec 32 := Scalar.addi v0 c120_i32
  let v3073 : Index := Scalar.indexCast v1393
  ![v3073.toNat]
def k0_off699 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c120_i32 : BitVec 32 := 120#32
  let v1393 : BitVec 32 := Scalar.addi v0 c120_i32
  let c0_i32_1287 : BitVec 32 := 0#32
  ![v1393.toNat, v3074.toNat, 0]
def k0_cond233 (v1395 : BitVec 32) : BitVec 1 :=
  let c0_i32_576 : BitVec 32 := 0#32
  let v1396 : BitVec 1 := Scalar.cmpi .sgt v1395 c0_i32_576
  let v1397 : BitVec 32 := Scalar.extui v1396
  let c0_i32_577 : BitVec 32 := 0#32
  let v1398 : BitVec 1 := Scalar.cmpi .ne v1397 c0_i32_577
  v1398

def k0_chk233 (i : grid0.Coords) (v1395 : BitVec 32) (v3074 : BitVec 32) : Prop :=
  (∀ (k0_h233 : k0_cond233 v1395 = 1#1), ∀ a, (k0_off699 i v3074) a + S1x1x512.size a ≤ S1024x200x512.size a)
instance k0_chk233.dec : ∀ (i : grid0.Coords) (v1395 : BitVec 32) (v3074 : BitVec 32), Decidable (k0_chk233 i v1395 v3074) := fun i v1395 v3074 => decidable_of_iff' _ (Iff.of_eq (k0_chk233.eq_1 i v1395 v3074))
theorem k0_off699_inb : ∀ (i : grid0.Coords) (v1395 : BitVec 32) (v3074 : BitVec 32) (k0_hw233 : k0_chk233 i v1395 v3074), ∀ (k0_h233 : k0_cond233 v1395 = 1#1), ∀ a, (k0_off699 i v3074) a + S1x1x512.size a ≤ S1024x200x512.size a := fun i v1395 v3074 k0_hw233 k0_h233 => k0_hw233 k0_h233

def k0_off700 (i : grid0.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1399 : BitVec 32 := Scalar.addi v0 c121_i32
  let v1400 : Index := Scalar.indexCast v1399
  ![v1400.toNat]
def k0_off701 (i : grid0.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1399 : BitVec 32 := Scalar.addi v0 c121_i32
  let v3073 : Index := Scalar.indexCast v1399
  ![v3073.toNat]
def k0_off702 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c121_i32 : BitVec 32 := 121#32
  let v1399 : BitVec 32 := Scalar.addi v0 c121_i32
  let c0_i32_1287 : BitVec 32 := 0#32
  ![v1399.toNat, v3074.toNat, 0]
def k0_cond234 (v1401 : BitVec 32) : BitVec 1 :=
  let c0_i32_578 : BitVec 32 := 0#32
  let v1402 : BitVec 1 := Scalar.cmpi .sgt v1401 c0_i32_578
  let v1403 : BitVec 32 := Scalar.extui v1402
  let c0_i32_579 : BitVec 32 := 0#32
  let v1404 : BitVec 1 := Scalar.cmpi .ne v1403 c0_i32_579
  v1404

def k0_chk234 (i : grid0.Coords) (v1401 : BitVec 32) (v3074 : BitVec 32) : Prop :=
  (∀ (k0_h234 : k0_cond234 v1401 = 1#1), ∀ a, (k0_off702 i v3074) a + S1x1x512.size a ≤ S1024x200x512.size a)
instance k0_chk234.dec : ∀ (i : grid0.Coords) (v1401 : BitVec 32) (v3074 : BitVec 32), Decidable (k0_chk234 i v1401 v3074) := fun i v1401 v3074 => decidable_of_iff' _ (Iff.of_eq (k0_chk234.eq_1 i v1401 v3074))
theorem k0_off702_inb : ∀ (i : grid0.Coords) (v1401 : BitVec 32) (v3074 : BitVec 32) (k0_hw234 : k0_chk234 i v1401 v3074), ∀ (k0_h234 : k0_cond234 v1401 = 1#1), ∀ a, (k0_off702 i v3074) a + S1x1x512.size a ≤ S1024x200x512.size a := fun i v1401 v3074 k0_hw234 k0_h234 => k0_hw234 k0_h234

def k0_off703 (i : grid0.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1405 : BitVec 32 := Scalar.addi v0 c122_i32
  let v1406 : Index := Scalar.indexCast v1405
  ![v1406.toNat]
def k0_off704 (i : grid0.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1405 : BitVec 32 := Scalar.addi v0 c122_i32
  let v3073 : Index := Scalar.indexCast v1405
  ![v3073.toNat]
def k0_off705 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c122_i32 : BitVec 32 := 122#32
  let v1405 : BitVec 32 := Scalar.addi v0 c122_i32
  let c0_i32_1287 : BitVec 32 := 0#32
  ![v1405.toNat, v3074.toNat, 0]
def k0_cond235 (v1407 : BitVec 32) : BitVec 1 :=
  let c0_i32_580 : BitVec 32 := 0#32
  let v1408 : BitVec 1 := Scalar.cmpi .sgt v1407 c0_i32_580
  let v1409 : BitVec 32 := Scalar.extui v1408
  let c0_i32_581 : BitVec 32 := 0#32
  let v1410 : BitVec 1 := Scalar.cmpi .ne v1409 c0_i32_581
  v1410

def k0_chk235 (i : grid0.Coords) (v1407 : BitVec 32) (v3074 : BitVec 32) : Prop :=
  (∀ (k0_h235 : k0_cond235 v1407 = 1#1), ∀ a, (k0_off705 i v3074) a + S1x1x512.size a ≤ S1024x200x512.size a)
instance k0_chk235.dec : ∀ (i : grid0.Coords) (v1407 : BitVec 32) (v3074 : BitVec 32), Decidable (k0_chk235 i v1407 v3074) := fun i v1407 v3074 => decidable_of_iff' _ (Iff.of_eq (k0_chk235.eq_1 i v1407 v3074))
theorem k0_off705_inb : ∀ (i : grid0.Coords) (v1407 : BitVec 32) (v3074 : BitVec 32) (k0_hw235 : k0_chk235 i v1407 v3074), ∀ (k0_h235 : k0_cond235 v1407 = 1#1), ∀ a, (k0_off705 i v3074) a + S1x1x512.size a ≤ S1024x200x512.size a := fun i v1407 v3074 k0_hw235 k0_h235 => k0_hw235 k0_h235

def k0_off706 (i : grid0.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1411 : BitVec 32 := Scalar.addi v0 c123_i32
  let v1412 : Index := Scalar.indexCast v1411
  ![v1412.toNat]
def k0_off707 (i : grid0.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1411 : BitVec 32 := Scalar.addi v0 c123_i32
  let v3073 : Index := Scalar.indexCast v1411
  ![v3073.toNat]
def k0_off708 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c123_i32 : BitVec 32 := 123#32
  let v1411 : BitVec 32 := Scalar.addi v0 c123_i32
  let c0_i32_1287 : BitVec 32 := 0#32
  ![v1411.toNat, v3074.toNat, 0]
def k0_cond236 (v1413 : BitVec 32) : BitVec 1 :=
  let c0_i32_582 : BitVec 32 := 0#32
  let v1414 : BitVec 1 := Scalar.cmpi .sgt v1413 c0_i32_582
  let v1415 : BitVec 32 := Scalar.extui v1414
  let c0_i32_583 : BitVec 32 := 0#32
  let v1416 : BitVec 1 := Scalar.cmpi .ne v1415 c0_i32_583
  v1416

def k0_chk236 (i : grid0.Coords) (v1413 : BitVec 32) (v3074 : BitVec 32) : Prop :=
  (∀ (k0_h236 : k0_cond236 v1413 = 1#1), ∀ a, (k0_off708 i v3074) a + S1x1x512.size a ≤ S1024x200x512.size a)
instance k0_chk236.dec : ∀ (i : grid0.Coords) (v1413 : BitVec 32) (v3074 : BitVec 32), Decidable (k0_chk236 i v1413 v3074) := fun i v1413 v3074 => decidable_of_iff' _ (Iff.of_eq (k0_chk236.eq_1 i v1413 v3074))
theorem k0_off708_inb : ∀ (i : grid0.Coords) (v1413 : BitVec 32) (v3074 : BitVec 32) (k0_hw236 : k0_chk236 i v1413 v3074), ∀ (k0_h236 : k0_cond236 v1413 = 1#1), ∀ a, (k0_off708 i v3074) a + S1x1x512.size a ≤ S1024x200x512.size a := fun i v1413 v3074 k0_hw236 k0_h236 => k0_hw236 k0_h236

def k0_off709 (i : grid0.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1417 : BitVec 32 := Scalar.addi v0 c124_i32
  let v1418 : Index := Scalar.indexCast v1417
  ![v1418.toNat]
def k0_off710 (i : grid0.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1417 : BitVec 32 := Scalar.addi v0 c124_i32
  let v3073 : Index := Scalar.indexCast v1417
  ![v3073.toNat]
def k0_off711 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c124_i32 : BitVec 32 := 124#32
  let v1417 : BitVec 32 := Scalar.addi v0 c124_i32
  let c0_i32_1287 : BitVec 32 := 0#32
  ![v1417.toNat, v3074.toNat, 0]
def k0_cond237 (v1419 : BitVec 32) : BitVec 1 :=
  let c0_i32_584 : BitVec 32 := 0#32
  let v1420 : BitVec 1 := Scalar.cmpi .sgt v1419 c0_i32_584
  let v1421 : BitVec 32 := Scalar.extui v1420
  let c0_i32_585 : BitVec 32 := 0#32
  let v1422 : BitVec 1 := Scalar.cmpi .ne v1421 c0_i32_585
  v1422

def k0_chk237 (i : grid0.Coords) (v1419 : BitVec 32) (v3074 : BitVec 32) : Prop :=
  (∀ (k0_h237 : k0_cond237 v1419 = 1#1), ∀ a, (k0_off711 i v3074) a + S1x1x512.size a ≤ S1024x200x512.size a)
instance k0_chk237.dec : ∀ (i : grid0.Coords) (v1419 : BitVec 32) (v3074 : BitVec 32), Decidable (k0_chk237 i v1419 v3074) := fun i v1419 v3074 => decidable_of_iff' _ (Iff.of_eq (k0_chk237.eq_1 i v1419 v3074))
theorem k0_off711_inb : ∀ (i : grid0.Coords) (v1419 : BitVec 32) (v3074 : BitVec 32) (k0_hw237 : k0_chk237 i v1419 v3074), ∀ (k0_h237 : k0_cond237 v1419 = 1#1), ∀ a, (k0_off711 i v3074) a + S1x1x512.size a ≤ S1024x200x512.size a := fun i v1419 v3074 k0_hw237 k0_h237 => k0_hw237 k0_h237

def k0_off712 (i : grid0.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1423 : BitVec 32 := Scalar.addi v0 c125_i32
  let v1424 : Index := Scalar.indexCast v1423
  ![v1424.toNat]
def k0_off713 (i : grid0.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1423 : BitVec 32 := Scalar.addi v0 c125_i32
  let v3073 : Index := Scalar.indexCast v1423
  ![v3073.toNat]
def k0_off714 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c125_i32 : BitVec 32 := 125#32
  let v1423 : BitVec 32 := Scalar.addi v0 c125_i32
  let c0_i32_1287 : BitVec 32 := 0#32
  ![v1423.toNat, v3074.toNat, 0]
def k0_cond238 (v1425 : BitVec 32) : BitVec 1 :=
  let c0_i32_586 : BitVec 32 := 0#32
  let v1426 : BitVec 1 := Scalar.cmpi .sgt v1425 c0_i32_586
  let v1427 : BitVec 32 := Scalar.extui v1426
  let c0_i32_587 : BitVec 32 := 0#32
  let v1428 : BitVec 1 := Scalar.cmpi .ne v1427 c0_i32_587
  v1428

def k0_chk238 (i : grid0.Coords) (v1425 : BitVec 32) (v3074 : BitVec 32) : Prop :=
  (∀ (k0_h238 : k0_cond238 v1425 = 1#1), ∀ a, (k0_off714 i v3074) a + S1x1x512.size a ≤ S1024x200x512.size a)
instance k0_chk238.dec : ∀ (i : grid0.Coords) (v1425 : BitVec 32) (v3074 : BitVec 32), Decidable (k0_chk238 i v1425 v3074) := fun i v1425 v3074 => decidable_of_iff' _ (Iff.of_eq (k0_chk238.eq_1 i v1425 v3074))
theorem k0_off714_inb : ∀ (i : grid0.Coords) (v1425 : BitVec 32) (v3074 : BitVec 32) (k0_hw238 : k0_chk238 i v1425 v3074), ∀ (k0_h238 : k0_cond238 v1425 = 1#1), ∀ a, (k0_off714 i v3074) a + S1x1x512.size a ≤ S1024x200x512.size a := fun i v1425 v3074 k0_hw238 k0_h238 => k0_hw238 k0_h238

def k0_off715 (i : grid0.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1429 : BitVec 32 := Scalar.addi v0 c126_i32
  let v1430 : Index := Scalar.indexCast v1429
  ![v1430.toNat]
def k0_off716 (i : grid0.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1429 : BitVec 32 := Scalar.addi v0 c126_i32
  let v3073 : Index := Scalar.indexCast v1429
  ![v3073.toNat]
def k0_off717 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c126_i32 : BitVec 32 := 126#32
  let v1429 : BitVec 32 := Scalar.addi v0 c126_i32
  let c0_i32_1287 : BitVec 32 := 0#32
  ![v1429.toNat, v3074.toNat, 0]
def k0_cond239 (v1431 : BitVec 32) : BitVec 1 :=
  let c0_i32_588 : BitVec 32 := 0#32
  let v1432 : BitVec 1 := Scalar.cmpi .sgt v1431 c0_i32_588
  let v1433 : BitVec 32 := Scalar.extui v1432
  let c0_i32_589 : BitVec 32 := 0#32
  let v1434 : BitVec 1 := Scalar.cmpi .ne v1433 c0_i32_589
  v1434

def k0_chk239 (i : grid0.Coords) (v1431 : BitVec 32) (v3074 : BitVec 32) : Prop :=
  (∀ (k0_h239 : k0_cond239 v1431 = 1#1), ∀ a, (k0_off717 i v3074) a + S1x1x512.size a ≤ S1024x200x512.size a)
instance k0_chk239.dec : ∀ (i : grid0.Coords) (v1431 : BitVec 32) (v3074 : BitVec 32), Decidable (k0_chk239 i v1431 v3074) := fun i v1431 v3074 => decidable_of_iff' _ (Iff.of_eq (k0_chk239.eq_1 i v1431 v3074))
theorem k0_off717_inb : ∀ (i : grid0.Coords) (v1431 : BitVec 32) (v3074 : BitVec 32) (k0_hw239 : k0_chk239 i v1431 v3074), ∀ (k0_h239 : k0_cond239 v1431 = 1#1), ∀ a, (k0_off717 i v3074) a + S1x1x512.size a ≤ S1024x200x512.size a := fun i v1431 v3074 k0_hw239 k0_h239 => k0_hw239 k0_h239

def k0_off718 (i : grid0.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1435 : BitVec 32 := Scalar.addi v0 c127_i32
  let v1436 : Index := Scalar.indexCast v1435
  ![v1436.toNat]
def k0_off719 (i : grid0.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1435 : BitVec 32 := Scalar.addi v0 c127_i32
  let v3073 : Index := Scalar.indexCast v1435
  ![v3073.toNat]
def k0_off720 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c127_i32 : BitVec 32 := 127#32
  let v1435 : BitVec 32 := Scalar.addi v0 c127_i32
  let c0_i32_1287 : BitVec 32 := 0#32
  ![v1435.toNat, v3074.toNat, 0]
def k0_cond240 (v1437 : BitVec 32) : BitVec 1 :=
  let c0_i32_590 : BitVec 32 := 0#32
  let v1438 : BitVec 1 := Scalar.cmpi .sgt v1437 c0_i32_590
  let v1439 : BitVec 32 := Scalar.extui v1438
  let c0_i32_591 : BitVec 32 := 0#32
  let v1440 : BitVec 1 := Scalar.cmpi .ne v1439 c0_i32_591
  v1440

def k0_chk240 (i : grid0.Coords) (v1437 : BitVec 32) (v3074 : BitVec 32) : Prop :=
  (∀ (k0_h240 : k0_cond240 v1437 = 1#1), ∀ a, (k0_off720 i v3074) a + S1x1x512.size a ≤ S1024x200x512.size a)
instance k0_chk240.dec : ∀ (i : grid0.Coords) (v1437 : BitVec 32) (v3074 : BitVec 32), Decidable (k0_chk240 i v1437 v3074) := fun i v1437 v3074 => decidable_of_iff' _ (Iff.of_eq (k0_chk240.eq_1 i v1437 v3074))
theorem k0_off720_inb : ∀ (i : grid0.Coords) (v1437 : BitVec 32) (v3074 : BitVec 32) (k0_hw240 : k0_chk240 i v1437 v3074), ∀ (k0_h240 : k0_cond240 v1437 = 1#1), ∀ a, (k0_off720 i v3074) a + S1x1x512.size a ≤ S1024x200x512.size a := fun i v1437 v3074 k0_hw240 k0_h240 => k0_hw240 k0_h240

def k0_off721 (i : grid0.Coords) : Fin 1 → Nat :=
  let arg0 : BitVec 32 := BitVec.ofNat 32 (i 0).val
  let c256_i32 : BitVec 32 := 256#32
  let v0 : BitVec 32 := Scalar.muli arg0 c256_i32
  let c112_i32_592 : BitVec 32 := 112#32
  let v1441 : BitVec 32 := Scalar.addi v0 c112_i32_592
  let v1442 : Index := Scalar.indexCast v1441
  ![v1442.toNat]
def k0_off722 (i : grid0.Coords) : Fin 1 → Nat :=
  let arg0 : BitVec 32 := BitVec.ofNat 32 (i 0).val
  let c256_i32 : BitVec 32 := 256#32
  let v0 : BitVec 32 := Scalar.muli arg0 c256_i32
  let c112_i32_592 : BitVec 32 := 112#32
  let v1441 : BitVec 32 := Scalar.addi v0 c112_i32_592
  let v3073 : Index := Scalar.indexCast v1441
  ![v3073.toNat]
def k0_off723 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c112_i32_592 : BitVec 32 := 112#32
  let v1441 : BitVec 32 := Scalar.addi v0 c112_i32_592
  let c0_i32_1282 : BitVec 32 := 0#32
  ![v1441.toNat, v3074.toNat, 0]
def k0_cond241 (v1443 : BitVec 32) : BitVec 1 :=
  let c0_i32_593 : BitVec 32 := 0#32
  let v1444 : BitVec 1 := Scalar.cmpi .sgt v1443 c0_i32_593
  let v1445 : BitVec 32 := Scalar.extui v1444
  let c0_i32_594 : BitVec 32 := 0#32
  let v1446 : BitVec 1 := Scalar.cmpi .ne v1445 c0_i32_594
  v1446

def k0_chk241 (i : grid0.Coords) (v1443 : BitVec 32) (v3074 : BitVec 32) : Prop :=
  (∀ (k0_h241 : k0_cond241 v1443 = 1#1), ∀ a, (k0_off723 i v3074) a + S1x1x512.size a ≤ S1024x200x512.size a)
instance k0_chk241.dec : ∀ (i : grid0.Coords) (v1443 : BitVec 32) (v3074 : BitVec 32), Decidable (k0_chk241 i v1443 v3074) := fun i v1443 v3074 => decidable_of_iff' _ (Iff.of_eq (k0_chk241.eq_1 i v1443 v3074))
theorem k0_off723_inb : ∀ (i : grid0.Coords) (v1443 : BitVec 32) (v3074 : BitVec 32) (k0_hw241 : k0_chk241 i v1443 v3074), ∀ (k0_h241 : k0_cond241 v1443 = 1#1), ∀ a, (k0_off723 i v3074) a + S1x1x512.size a ≤ S1024x200x512.size a := fun i v1443 v3074 k0_hw241 k0_h241 => k0_hw241 k0_h241

def k0_off724 (i : grid0.Coords) : Fin 1 → Nat :=
  let arg0 : BitVec 32 := BitVec.ofNat 32 (i 0).val
  let c256_i32 : BitVec 32 := 256#32
  let v0 : BitVec 32 := Scalar.muli arg0 c256_i32
  let c113_i32_595 : BitVec 32 := 113#32
  let v1447 : BitVec 32 := Scalar.addi v0 c113_i32_595
  let v1448 : Index := Scalar.indexCast v1447
  ![v1448.toNat]
def k0_off725 (i : grid0.Coords) : Fin 1 → Nat :=
  let arg0 : BitVec 32 := BitVec.ofNat 32 (i 0).val
  let c256_i32 : BitVec 32 := 256#32
  let v0 : BitVec 32 := Scalar.muli arg0 c256_i32
  let c113_i32_595 : BitVec 32 := 113#32
  let v1447 : BitVec 32 := Scalar.addi v0 c113_i32_595
  let v3073 : Index := Scalar.indexCast v1447
  ![v3073.toNat]
def k0_off726 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c113_i32_595 : BitVec 32 := 113#32
  let v1447 : BitVec 32 := Scalar.addi v0 c113_i32_595
  let c0_i32_1282 : BitVec 32 := 0#32
  ![v1447.toNat, v3074.toNat, 0]
def k0_cond242 (v1449 : BitVec 32) : BitVec 1 :=
  let c0_i32_596 : BitVec 32 := 0#32
  let v1450 : BitVec 1 := Scalar.cmpi .sgt v1449 c0_i32_596
  let v1451 : BitVec 32 := Scalar.extui v1450
  let c0_i32_597 : BitVec 32 := 0#32
  let v1452 : BitVec 1 := Scalar.cmpi .ne v1451 c0_i32_597
  v1452

def k0_chk242 (i : grid0.Coords) (v1449 : BitVec 32) (v3074 : BitVec 32) : Prop :=
  (∀ (k0_h242 : k0_cond242 v1449 = 1#1), ∀ a, (k0_off726 i v3074) a + S1x1x512.size a ≤ S1024x200x512.size a)
instance k0_chk242.dec : ∀ (i : grid0.Coords) (v1449 : BitVec 32) (v3074 : BitVec 32), Decidable (k0_chk242 i v1449 v3074) := fun i v1449 v3074 => decidable_of_iff' _ (Iff.of_eq (k0_chk242.eq_1 i v1449 v3074))
theorem k0_off726_inb : ∀ (i : grid0.Coords) (v1449 : BitVec 32) (v3074 : BitVec 32) (k0_hw242 : k0_chk242 i v1449 v3074), ∀ (k0_h242 : k0_cond242 v1449 = 1#1), ∀ a, (k0_off726 i v3074) a + S1x1x512.size a ≤ S1024x200x512.size a := fun i v1449 v3074 k0_hw242 k0_h242 => k0_hw242 k0_h242

def k0_off727 (i : grid0.Coords) : Fin 1 → Nat :=
  let arg0 : BitVec 32 := BitVec.ofNat 32 (i 0).val
  let c256_i32 : BitVec 32 := 256#32
  let v0 : BitVec 32 := Scalar.muli arg0 c256_i32
  let c114_i32_598 : BitVec 32 := 114#32
  let v1453 : BitVec 32 := Scalar.addi v0 c114_i32_598
  let v1454 : Index := Scalar.indexCast v1453
  ![v1454.toNat]
def k0_off728 (i : grid0.Coords) : Fin 1 → Nat :=
  let arg0 : BitVec 32 := BitVec.ofNat 32 (i 0).val
  let c256_i32 : BitVec 32 := 256#32
  let v0 : BitVec 32 := Scalar.muli arg0 c256_i32
  let c114_i32_598 : BitVec 32 := 114#32
  let v1453 : BitVec 32 := Scalar.addi v0 c114_i32_598
  let v3073 : Index := Scalar.indexCast v1453
  ![v3073.toNat]
def k0_off729 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c114_i32_598 : BitVec 32 := 114#32
  let v1453 : BitVec 32 := Scalar.addi v0 c114_i32_598
  let c0_i32_1282 : BitVec 32 := 0#32
  ![v1453.toNat, v3074.toNat, 0]
def k0_cond243 (v1455 : BitVec 32) : BitVec 1 :=
  let c0_i32_599 : BitVec 32 := 0#32
  let v1456 : BitVec 1 := Scalar.cmpi .sgt v1455 c0_i32_599
  let v1457 : BitVec 32 := Scalar.extui v1456
  let c0_i32_600 : BitVec 32 := 0#32
  let v1458 : BitVec 1 := Scalar.cmpi .ne v1457 c0_i32_600
  v1458

def k0_chk243 (i : grid0.Coords) (v1455 : BitVec 32) (v3074 : BitVec 32) : Prop :=
  (∀ (k0_h243 : k0_cond243 v1455 = 1#1), ∀ a, (k0_off729 i v3074) a + S1x1x512.size a ≤ S1024x200x512.size a)
instance k0_chk243.dec : ∀ (i : grid0.Coords) (v1455 : BitVec 32) (v3074 : BitVec 32), Decidable (k0_chk243 i v1455 v3074) := fun i v1455 v3074 => decidable_of_iff' _ (Iff.of_eq (k0_chk243.eq_1 i v1455 v3074))
theorem k0_off729_inb : ∀ (i : grid0.Coords) (v1455 : BitVec 32) (v3074 : BitVec 32) (k0_hw243 : k0_chk243 i v1455 v3074), ∀ (k0_h243 : k0_cond243 v1455 = 1#1), ∀ a, (k0_off729 i v3074) a + S1x1x512.size a ≤ S1024x200x512.size a := fun i v1455 v3074 k0_hw243 k0_h243 => k0_hw243 k0_h243

def k0_off730 (i : grid0.Coords) : Fin 1 → Nat :=
  let arg0 : BitVec 32 := BitVec.ofNat 32 (i 0).val
  let c256_i32 : BitVec 32 := 256#32
  let v0 : BitVec 32 := Scalar.muli arg0 c256_i32
  let c115_i32_601 : BitVec 32 := 115#32
  let v1459 : BitVec 32 := Scalar.addi v0 c115_i32_601
  let v1460 : Index := Scalar.indexCast v1459
  ![v1460.toNat]
def k0_off731 (i : grid0.Coords) : Fin 1 → Nat :=
  let arg0 : BitVec 32 := BitVec.ofNat 32 (i 0).val
  let c256_i32 : BitVec 32 := 256#32
  let v0 : BitVec 32 := Scalar.muli arg0 c256_i32
  let c115_i32_601 : BitVec 32 := 115#32
  let v1459 : BitVec 32 := Scalar.addi v0 c115_i32_601
  let v3073 : Index := Scalar.indexCast v1459
  ![v3073.toNat]
def k0_off732 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c115_i32_601 : BitVec 32 := 115#32
  let v1459 : BitVec 32 := Scalar.addi v0 c115_i32_601
  let c0_i32_1282 : BitVec 32 := 0#32
  ![v1459.toNat, v3074.toNat, 0]
def k0_cond244 (v1461 : BitVec 32) : BitVec 1 :=
  let c0_i32_602 : BitVec 32 := 0#32
  let v1462 : BitVec 1 := Scalar.cmpi .sgt v1461 c0_i32_602
  let v1463 : BitVec 32 := Scalar.extui v1462
  let c0_i32_603 : BitVec 32 := 0#32
  let v1464 : BitVec 1 := Scalar.cmpi .ne v1463 c0_i32_603
  v1464

def k0_chk244 (i : grid0.Coords) (v1461 : BitVec 32) (v3074 : BitVec 32) : Prop :=
  (∀ (k0_h244 : k0_cond244 v1461 = 1#1), ∀ a, (k0_off732 i v3074) a + S1x1x512.size a ≤ S1024x200x512.size a)
instance k0_chk244.dec : ∀ (i : grid0.Coords) (v1461 : BitVec 32) (v3074 : BitVec 32), Decidable (k0_chk244 i v1461 v3074) := fun i v1461 v3074 => decidable_of_iff' _ (Iff.of_eq (k0_chk244.eq_1 i v1461 v3074))
theorem k0_off732_inb : ∀ (i : grid0.Coords) (v1461 : BitVec 32) (v3074 : BitVec 32) (k0_hw244 : k0_chk244 i v1461 v3074), ∀ (k0_h244 : k0_cond244 v1461 = 1#1), ∀ a, (k0_off732 i v3074) a + S1x1x512.size a ≤ S1024x200x512.size a := fun i v1461 v3074 k0_hw244 k0_h244 => k0_hw244 k0_h244

def k0_off733 (i : grid0.Coords) : Fin 1 → Nat :=
  let arg0 : BitVec 32 := BitVec.ofNat 32 (i 0).val
  let c256_i32 : BitVec 32 := 256#32
  let v0 : BitVec 32 := Scalar.muli arg0 c256_i32
  let c116_i32_604 : BitVec 32 := 116#32
  let v1465 : BitVec 32 := Scalar.addi v0 c116_i32_604
  let v1466 : Index := Scalar.indexCast v1465
  ![v1466.toNat]
def k0_off734 (i : grid0.Coords) : Fin 1 → Nat :=
  let arg0 : BitVec 32 := BitVec.ofNat 32 (i 0).val
  let c256_i32 : BitVec 32 := 256#32
  let v0 : BitVec 32 := Scalar.muli arg0 c256_i32
  let c116_i32_604 : BitVec 32 := 116#32
  let v1465 : BitVec 32 := Scalar.addi v0 c116_i32_604
  let v3073 : Index := Scalar.indexCast v1465
  ![v3073.toNat]
def k0_off735 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c116_i32_604 : BitVec 32 := 116#32
  let v1465 : BitVec 32 := Scalar.addi v0 c116_i32_604
  let c0_i32_1282 : BitVec 32 := 0#32
  ![v1465.toNat, v3074.toNat, 0]
def k0_cond245 (v1467 : BitVec 32) : BitVec 1 :=
  let c0_i32_605 : BitVec 32 := 0#32
  let v1468 : BitVec 1 := Scalar.cmpi .sgt v1467 c0_i32_605
  let v1469 : BitVec 32 := Scalar.extui v1468
  let c0_i32_606 : BitVec 32 := 0#32
  let v1470 : BitVec 1 := Scalar.cmpi .ne v1469 c0_i32_606
  v1470

def k0_chk245 (i : grid0.Coords) (v1467 : BitVec 32) (v3074 : BitVec 32) : Prop :=
  (∀ (k0_h245 : k0_cond245 v1467 = 1#1), ∀ a, (k0_off735 i v3074) a + S1x1x512.size a ≤ S1024x200x512.size a)
instance k0_chk245.dec : ∀ (i : grid0.Coords) (v1467 : BitVec 32) (v3074 : BitVec 32), Decidable (k0_chk245 i v1467 v3074) := fun i v1467 v3074 => decidable_of_iff' _ (Iff.of_eq (k0_chk245.eq_1 i v1467 v3074))
theorem k0_off735_inb : ∀ (i : grid0.Coords) (v1467 : BitVec 32) (v3074 : BitVec 32) (k0_hw245 : k0_chk245 i v1467 v3074), ∀ (k0_h245 : k0_cond245 v1467 = 1#1), ∀ a, (k0_off735 i v3074) a + S1x1x512.size a ≤ S1024x200x512.size a := fun i v1467 v3074 k0_hw245 k0_h245 => k0_hw245 k0_h245

def k0_off736 (i : grid0.Coords) : Fin 1 → Nat :=
  let arg0 : BitVec 32 := BitVec.ofNat 32 (i 0).val
  let c256_i32 : BitVec 32 := 256#32
  let v0 : BitVec 32 := Scalar.muli arg0 c256_i32
  let c117_i32_607 : BitVec 32 := 117#32
  let v1471 : BitVec 32 := Scalar.addi v0 c117_i32_607
  let v1472 : Index := Scalar.indexCast v1471
  ![v1472.toNat]
def k0_off737 (i : grid0.Coords) : Fin 1 → Nat :=
  let arg0 : BitVec 32 := BitVec.ofNat 32 (i 0).val
  let c256_i32 : BitVec 32 := 256#32
  let v0 : BitVec 32 := Scalar.muli arg0 c256_i32
  let c117_i32_607 : BitVec 32 := 117#32
  let v1471 : BitVec 32 := Scalar.addi v0 c117_i32_607
  let v3073 : Index := Scalar.indexCast v1471
  ![v3073.toNat]
def k0_off738 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c117_i32_607 : BitVec 32 := 117#32
  let v1471 : BitVec 32 := Scalar.addi v0 c117_i32_607
  let c0_i32_1282 : BitVec 32 := 0#32
  ![v1471.toNat, v3074.toNat, 0]
def k0_cond246 (v1473 : BitVec 32) : BitVec 1 :=
  let c0_i32_608 : BitVec 32 := 0#32
  let v1474 : BitVec 1 := Scalar.cmpi .sgt v1473 c0_i32_608
  let v1475 : BitVec 32 := Scalar.extui v1474
  let c0_i32_609 : BitVec 32 := 0#32
  let v1476 : BitVec 1 := Scalar.cmpi .ne v1475 c0_i32_609
  v1476

def k0_chk246 (i : grid0.Coords) (v1473 : BitVec 32) (v3074 : BitVec 32) : Prop :=
  (∀ (k0_h246 : k0_cond246 v1473 = 1#1), ∀ a, (k0_off738 i v3074) a + S1x1x512.size a ≤ S1024x200x512.size a)
instance k0_chk246.dec : ∀ (i : grid0.Coords) (v1473 : BitVec 32) (v3074 : BitVec 32), Decidable (k0_chk246 i v1473 v3074) := fun i v1473 v3074 => decidable_of_iff' _ (Iff.of_eq (k0_chk246.eq_1 i v1473 v3074))
theorem k0_off738_inb : ∀ (i : grid0.Coords) (v1473 : BitVec 32) (v3074 : BitVec 32) (k0_hw246 : k0_chk246 i v1473 v3074), ∀ (k0_h246 : k0_cond246 v1473 = 1#1), ∀ a, (k0_off738 i v3074) a + S1x1x512.size a ≤ S1024x200x512.size a := fun i v1473 v3074 k0_hw246 k0_h246 => k0_hw246 k0_h246

def k0_off739 (i : grid0.Coords) : Fin 1 → Nat :=
  let arg0 : BitVec 32 := BitVec.ofNat 32 (i 0).val
  let c256_i32 : BitVec 32 := 256#32
  let v0 : BitVec 32 := Scalar.muli arg0 c256_i32
  let c118_i32_610 : BitVec 32 := 118#32
  let v1477 : BitVec 32 := Scalar.addi v0 c118_i32_610
  let v1478 : Index := Scalar.indexCast v1477
  ![v1478.toNat]
def k0_off740 (i : grid0.Coords) : Fin 1 → Nat :=
  let arg0 : BitVec 32 := BitVec.ofNat 32 (i 0).val
  let c256_i32 : BitVec 32 := 256#32
  let v0 : BitVec 32 := Scalar.muli arg0 c256_i32
  let c118_i32_610 : BitVec 32 := 118#32
  let v1477 : BitVec 32 := Scalar.addi v0 c118_i32_610
  let v3073 : Index := Scalar.indexCast v1477
  ![v3073.toNat]
def k0_off741 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c118_i32_610 : BitVec 32 := 118#32
  let v1477 : BitVec 32 := Scalar.addi v0 c118_i32_610
  let c0_i32_1282 : BitVec 32 := 0#32
  ![v1477.toNat, v3074.toNat, 0]
def k0_cond247 (v1479 : BitVec 32) : BitVec 1 :=
  let c0_i32_611 : BitVec 32 := 0#32
  let v1480 : BitVec 1 := Scalar.cmpi .sgt v1479 c0_i32_611
  let v1481 : BitVec 32 := Scalar.extui v1480
  let c0_i32_612 : BitVec 32 := 0#32
  let v1482 : BitVec 1 := Scalar.cmpi .ne v1481 c0_i32_612
  v1482

def k0_chk247 (i : grid0.Coords) (v1479 : BitVec 32) (v3074 : BitVec 32) : Prop :=
  (∀ (k0_h247 : k0_cond247 v1479 = 1#1), ∀ a, (k0_off741 i v3074) a + S1x1x512.size a ≤ S1024x200x512.size a)
instance k0_chk247.dec : ∀ (i : grid0.Coords) (v1479 : BitVec 32) (v3074 : BitVec 32), Decidable (k0_chk247 i v1479 v3074) := fun i v1479 v3074 => decidable_of_iff' _ (Iff.of_eq (k0_chk247.eq_1 i v1479 v3074))
theorem k0_off741_inb : ∀ (i : grid0.Coords) (v1479 : BitVec 32) (v3074 : BitVec 32) (k0_hw247 : k0_chk247 i v1479 v3074), ∀ (k0_h247 : k0_cond247 v1479 = 1#1), ∀ a, (k0_off741 i v3074) a + S1x1x512.size a ≤ S1024x200x512.size a := fun i v1479 v3074 k0_hw247 k0_h247 => k0_hw247 k0_h247

def k0_off742 (i : grid0.Coords) : Fin 1 → Nat :=
  let arg0 : BitVec 32 := BitVec.ofNat 32 (i 0).val
  let c256_i32 : BitVec 32 := 256#32
  let v0 : BitVec 32 := Scalar.muli arg0 c256_i32
  let c119_i32_613 : BitVec 32 := 119#32
  let v1483 : BitVec 32 := Scalar.addi v0 c119_i32_613
  let v1484 : Index := Scalar.indexCast v1483
  ![v1484.toNat]
def k0_off743 (i : grid0.Coords) : Fin 1 → Nat :=
  let arg0 : BitVec 32 := BitVec.ofNat 32 (i 0).val
  let c256_i32 : BitVec 32 := 256#32
  let v0 : BitVec 32 := Scalar.muli arg0 c256_i32
  let c119_i32_613 : BitVec 32 := 119#32
  let v1483 : BitVec 32 := Scalar.addi v0 c119_i32_613
  let v3073 : Index := Scalar.indexCast v1483
  ![v3073.toNat]
def k0_off744 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c119_i32_613 : BitVec 32 := 119#32
  let v1483 : BitVec 32 := Scalar.addi v0 c119_i32_613
  let c0_i32_1282 : BitVec 32 := 0#32
  ![v1483.toNat, v3074.toNat, 0]
def k0_cond248 (v1485 : BitVec 32) : BitVec 1 :=
  let c0_i32_614 : BitVec 32 := 0#32
  let v1486 : BitVec 1 := Scalar.cmpi .sgt v1485 c0_i32_614
  let v1487 : BitVec 32 := Scalar.extui v1486
  let c0_i32_615 : BitVec 32 := 0#32
  let v1488 : BitVec 1 := Scalar.cmpi .ne v1487 c0_i32_615
  v1488

def k0_chk248 (i : grid0.Coords) (v1485 : BitVec 32) (v3074 : BitVec 32) : Prop :=
  (∀ (k0_h248 : k0_cond248 v1485 = 1#1), ∀ a, (k0_off744 i v3074) a + S1x1x512.size a ≤ S1024x200x512.size a)
instance k0_chk248.dec : ∀ (i : grid0.Coords) (v1485 : BitVec 32) (v3074 : BitVec 32), Decidable (k0_chk248 i v1485 v3074) := fun i v1485 v3074 => decidable_of_iff' _ (Iff.of_eq (k0_chk248.eq_1 i v1485 v3074))
theorem k0_off744_inb : ∀ (i : grid0.Coords) (v1485 : BitVec 32) (v3074 : BitVec 32) (k0_hw248 : k0_chk248 i v1485 v3074), ∀ (k0_h248 : k0_cond248 v1485 = 1#1), ∀ a, (k0_off744 i v3074) a + S1x1x512.size a ≤ S1024x200x512.size a := fun i v1485 v3074 k0_hw248 k0_h248 => k0_hw248 k0_h248

def k0_off745 (i : grid0.Coords) : Fin 1 → Nat :=
  let arg0 : BitVec 32 := BitVec.ofNat 32 (i 0).val
  let c256_i32 : BitVec 32 := 256#32
  let v0 : BitVec 32 := Scalar.muli arg0 c256_i32
  let c120_i32_616 : BitVec 32 := 120#32
  let v1489 : BitVec 32 := Scalar.addi v0 c120_i32_616
  let v1490 : Index := Scalar.indexCast v1489
  ![v1490.toNat]
def k0_off746 (i : grid0.Coords) : Fin 1 → Nat :=
  let arg0 : BitVec 32 := BitVec.ofNat 32 (i 0).val
  let c256_i32 : BitVec 32 := 256#32
  let v0 : BitVec 32 := Scalar.muli arg0 c256_i32
  let c120_i32_616 : BitVec 32 := 120#32
  let v1489 : BitVec 32 := Scalar.addi v0 c120_i32_616
  let v3073 : Index := Scalar.indexCast v1489
  ![v3073.toNat]
def k0_off747 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c120_i32_616 : BitVec 32 := 120#32
  let v1489 : BitVec 32 := Scalar.addi v0 c120_i32_616
  let c0_i32_1282 : BitVec 32 := 0#32
  ![v1489.toNat, v3074.toNat, 0]
def k0_cond249 (v1491 : BitVec 32) : BitVec 1 :=
  let c0_i32_617 : BitVec 32 := 0#32
  let v1492 : BitVec 1 := Scalar.cmpi .sgt v1491 c0_i32_617
  let v1493 : BitVec 32 := Scalar.extui v1492
  let c0_i32_618 : BitVec 32 := 0#32
  let v1494 : BitVec 1 := Scalar.cmpi .ne v1493 c0_i32_618
  v1494

def k0_chk249 (i : grid0.Coords) (v1491 : BitVec 32) (v3074 : BitVec 32) : Prop :=
  (∀ (k0_h249 : k0_cond249 v1491 = 1#1), ∀ a, (k0_off747 i v3074) a + S1x1x512.size a ≤ S1024x200x512.size a)
instance k0_chk249.dec : ∀ (i : grid0.Coords) (v1491 : BitVec 32) (v3074 : BitVec 32), Decidable (k0_chk249 i v1491 v3074) := fun i v1491 v3074 => decidable_of_iff' _ (Iff.of_eq (k0_chk249.eq_1 i v1491 v3074))
theorem k0_off747_inb : ∀ (i : grid0.Coords) (v1491 : BitVec 32) (v3074 : BitVec 32) (k0_hw249 : k0_chk249 i v1491 v3074), ∀ (k0_h249 : k0_cond249 v1491 = 1#1), ∀ a, (k0_off747 i v3074) a + S1x1x512.size a ≤ S1024x200x512.size a := fun i v1491 v3074 k0_hw249 k0_h249 => k0_hw249 k0_h249

def k0_off748 (i : grid0.Coords) : Fin 1 → Nat :=
  let arg0 : BitVec 32 := BitVec.ofNat 32 (i 0).val
  let c256_i32 : BitVec 32 := 256#32
  let v0 : BitVec 32 := Scalar.muli arg0 c256_i32
  let c121_i32_619 : BitVec 32 := 121#32
  let v1495 : BitVec 32 := Scalar.addi v0 c121_i32_619
  let v1496 : Index := Scalar.indexCast v1495
  ![v1496.toNat]
def k0_off749 (i : grid0.Coords) : Fin 1 → Nat :=
  let arg0 : BitVec 32 := BitVec.ofNat 32 (i 0).val
  let c256_i32 : BitVec 32 := 256#32
  let v0 : BitVec 32 := Scalar.muli arg0 c256_i32
  let c121_i32_619 : BitVec 32 := 121#32
  let v1495 : BitVec 32 := Scalar.addi v0 c121_i32_619
  let v3073 : Index := Scalar.indexCast v1495
  ![v3073.toNat]
def k0_off750 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c121_i32_619 : BitVec 32 := 121#32
  let v1495 : BitVec 32 := Scalar.addi v0 c121_i32_619
  let c0_i32_1282 : BitVec 32 := 0#32
  ![v1495.toNat, v3074.toNat, 0]
def k0_cond250 (v1497 : BitVec 32) : BitVec 1 :=
  let c0_i32_620 : BitVec 32 := 0#32
  let v1498 : BitVec 1 := Scalar.cmpi .sgt v1497 c0_i32_620
  let v1499 : BitVec 32 := Scalar.extui v1498
  let c0_i32_621 : BitVec 32 := 0#32
  let v1500 : BitVec 1 := Scalar.cmpi .ne v1499 c0_i32_621
  v1500

def k0_chk250 (i : grid0.Coords) (v1497 : BitVec 32) (v3074 : BitVec 32) : Prop :=
  (∀ (k0_h250 : k0_cond250 v1497 = 1#1), ∀ a, (k0_off750 i v3074) a + S1x1x512.size a ≤ S1024x200x512.size a)
instance k0_chk250.dec : ∀ (i : grid0.Coords) (v1497 : BitVec 32) (v3074 : BitVec 32), Decidable (k0_chk250 i v1497 v3074) := fun i v1497 v3074 => decidable_of_iff' _ (Iff.of_eq (k0_chk250.eq_1 i v1497 v3074))
theorem k0_off750_inb : ∀ (i : grid0.Coords) (v1497 : BitVec 32) (v3074 : BitVec 32) (k0_hw250 : k0_chk250 i v1497 v3074), ∀ (k0_h250 : k0_cond250 v1497 = 1#1), ∀ a, (k0_off750 i v3074) a + S1x1x512.size a ≤ S1024x200x512.size a := fun i v1497 v3074 k0_hw250 k0_h250 => k0_hw250 k0_h250

def k0_off751 (i : grid0.Coords) : Fin 1 → Nat :=
  let arg0 : BitVec 32 := BitVec.ofNat 32 (i 0).val
  let c256_i32 : BitVec 32 := 256#32
  let v0 : BitVec 32 := Scalar.muli arg0 c256_i32
  let c122_i32_622 : BitVec 32 := 122#32
  let v1501 : BitVec 32 := Scalar.addi v0 c122_i32_622
  let v1502 : Index := Scalar.indexCast v1501
  ![v1502.toNat]
def k0_off752 (i : grid0.Coords) : Fin 1 → Nat :=
  let arg0 : BitVec 32 := BitVec.ofNat 32 (i 0).val
  let c256_i32 : BitVec 32 := 256#32
  let v0 : BitVec 32 := Scalar.muli arg0 c256_i32
  let c122_i32_622 : BitVec 32 := 122#32
  let v1501 : BitVec 32 := Scalar.addi v0 c122_i32_622
  let v3073 : Index := Scalar.indexCast v1501
  ![v3073.toNat]
def k0_off753 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c122_i32_622 : BitVec 32 := 122#32
  let v1501 : BitVec 32 := Scalar.addi v0 c122_i32_622
  let c0_i32_1282 : BitVec 32 := 0#32
  ![v1501.toNat, v3074.toNat, 0]
def k0_cond251 (v1503 : BitVec 32) : BitVec 1 :=
  let c0_i32_623 : BitVec 32 := 0#32
  let v1504 : BitVec 1 := Scalar.cmpi .sgt v1503 c0_i32_623
  let v1505 : BitVec 32 := Scalar.extui v1504
  let c0_i32_624 : BitVec 32 := 0#32
  let v1506 : BitVec 1 := Scalar.cmpi .ne v1505 c0_i32_624
  v1506

def k0_chk251 (i : grid0.Coords) (v1503 : BitVec 32) (v3074 : BitVec 32) : Prop :=
  (∀ (k0_h251 : k0_cond251 v1503 = 1#1), ∀ a, (k0_off753 i v3074) a + S1x1x512.size a ≤ S1024x200x512.size a)
instance k0_chk251.dec : ∀ (i : grid0.Coords) (v1503 : BitVec 32) (v3074 : BitVec 32), Decidable (k0_chk251 i v1503 v3074) := fun i v1503 v3074 => decidable_of_iff' _ (Iff.of_eq (k0_chk251.eq_1 i v1503 v3074))
theorem k0_off753_inb : ∀ (i : grid0.Coords) (v1503 : BitVec 32) (v3074 : BitVec 32) (k0_hw251 : k0_chk251 i v1503 v3074), ∀ (k0_h251 : k0_cond251 v1503 = 1#1), ∀ a, (k0_off753 i v3074) a + S1x1x512.size a ≤ S1024x200x512.size a := fun i v1503 v3074 k0_hw251 k0_h251 => k0_hw251 k0_h251

def k0_off754 (i : grid0.Coords) : Fin 1 → Nat :=
  let arg0 : BitVec 32 := BitVec.ofNat 32 (i 0).val
  let c256_i32 : BitVec 32 := 256#32
  let v0 : BitVec 32 := Scalar.muli arg0 c256_i32
  let c123_i32_625 : BitVec 32 := 123#32
  let v1507 : BitVec 32 := Scalar.addi v0 c123_i32_625
  let v1508 : Index := Scalar.indexCast v1507
  ![v1508.toNat]
def k0_off755 (i : grid0.Coords) : Fin 1 → Nat :=
  let arg0 : BitVec 32 := BitVec.ofNat 32 (i 0).val
  let c256_i32 : BitVec 32 := 256#32
  let v0 : BitVec 32 := Scalar.muli arg0 c256_i32
  let c123_i32_625 : BitVec 32 := 123#32
  let v1507 : BitVec 32 := Scalar.addi v0 c123_i32_625
  let v3073 : Index := Scalar.indexCast v1507
  ![v3073.toNat]
def k0_off756 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c123_i32_625 : BitVec 32 := 123#32
  let v1507 : BitVec 32 := Scalar.addi v0 c123_i32_625
  let c0_i32_1282 : BitVec 32 := 0#32
  ![v1507.toNat, v3074.toNat, 0]
def k0_cond252 (v1509 : BitVec 32) : BitVec 1 :=
  let c0_i32_626 : BitVec 32 := 0#32
  let v1510 : BitVec 1 := Scalar.cmpi .sgt v1509 c0_i32_626
  let v1511 : BitVec 32 := Scalar.extui v1510
  let c0_i32_627 : BitVec 32 := 0#32
  let v1512 : BitVec 1 := Scalar.cmpi .ne v1511 c0_i32_627
  v1512

def k0_chk252 (i : grid0.Coords) (v1509 : BitVec 32) (v3074 : BitVec 32) : Prop :=
  (∀ (k0_h252 : k0_cond252 v1509 = 1#1), ∀ a, (k0_off756 i v3074) a + S1x1x512.size a ≤ S1024x200x512.size a)
instance k0_chk252.dec : ∀ (i : grid0.Coords) (v1509 : BitVec 32) (v3074 : BitVec 32), Decidable (k0_chk252 i v1509 v3074) := fun i v1509 v3074 => decidable_of_iff' _ (Iff.of_eq (k0_chk252.eq_1 i v1509 v3074))
theorem k0_off756_inb : ∀ (i : grid0.Coords) (v1509 : BitVec 32) (v3074 : BitVec 32) (k0_hw252 : k0_chk252 i v1509 v3074), ∀ (k0_h252 : k0_cond252 v1509 = 1#1), ∀ a, (k0_off756 i v3074) a + S1x1x512.size a ≤ S1024x200x512.size a := fun i v1509 v3074 k0_hw252 k0_h252 => k0_hw252 k0_h252

def k0_off757 (i : grid0.Coords) : Fin 1 → Nat :=
  let arg0 : BitVec 32 := BitVec.ofNat 32 (i 0).val
  let c256_i32 : BitVec 32 := 256#32
  let v0 : BitVec 32 := Scalar.muli arg0 c256_i32
  let c124_i32_628 : BitVec 32 := 124#32
  let v1513 : BitVec 32 := Scalar.addi v0 c124_i32_628
  let v1514 : Index := Scalar.indexCast v1513
  ![v1514.toNat]
def k0_off758 (i : grid0.Coords) : Fin 1 → Nat :=
  let arg0 : BitVec 32 := BitVec.ofNat 32 (i 0).val
  let c256_i32 : BitVec 32 := 256#32
  let v0 : BitVec 32 := Scalar.muli arg0 c256_i32
  let c124_i32_628 : BitVec 32 := 124#32
  let v1513 : BitVec 32 := Scalar.addi v0 c124_i32_628
  let v3073 : Index := Scalar.indexCast v1513
  ![v3073.toNat]
def k0_off759 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c124_i32_628 : BitVec 32 := 124#32
  let v1513 : BitVec 32 := Scalar.addi v0 c124_i32_628
  let c0_i32_1282 : BitVec 32 := 0#32
  ![v1513.toNat, v3074.toNat, 0]
def k0_cond253 (v1515 : BitVec 32) : BitVec 1 :=
  let c0_i32_629 : BitVec 32 := 0#32
  let v1516 : BitVec 1 := Scalar.cmpi .sgt v1515 c0_i32_629
  let v1517 : BitVec 32 := Scalar.extui v1516
  let c0_i32_630 : BitVec 32 := 0#32
  let v1518 : BitVec 1 := Scalar.cmpi .ne v1517 c0_i32_630
  v1518

def k0_chk253 (i : grid0.Coords) (v1515 : BitVec 32) (v3074 : BitVec 32) : Prop :=
  (∀ (k0_h253 : k0_cond253 v1515 = 1#1), ∀ a, (k0_off759 i v3074) a + S1x1x512.size a ≤ S1024x200x512.size a)
instance k0_chk253.dec : ∀ (i : grid0.Coords) (v1515 : BitVec 32) (v3074 : BitVec 32), Decidable (k0_chk253 i v1515 v3074) := fun i v1515 v3074 => decidable_of_iff' _ (Iff.of_eq (k0_chk253.eq_1 i v1515 v3074))
theorem k0_off759_inb : ∀ (i : grid0.Coords) (v1515 : BitVec 32) (v3074 : BitVec 32) (k0_hw253 : k0_chk253 i v1515 v3074), ∀ (k0_h253 : k0_cond253 v1515 = 1#1), ∀ a, (k0_off759 i v3074) a + S1x1x512.size a ≤ S1024x200x512.size a := fun i v1515 v3074 k0_hw253 k0_h253 => k0_hw253 k0_h253

def k0_off760 (i : grid0.Coords) : Fin 1 → Nat :=
  let arg0 : BitVec 32 := BitVec.ofNat 32 (i 0).val
  let c256_i32 : BitVec 32 := 256#32
  let v0 : BitVec 32 := Scalar.muli arg0 c256_i32
  let c125_i32_631 : BitVec 32 := 125#32
  let v1519 : BitVec 32 := Scalar.addi v0 c125_i32_631
  let v1520 : Index := Scalar.indexCast v1519
  ![v1520.toNat]
def k0_off761 (i : grid0.Coords) : Fin 1 → Nat :=
  let arg0 : BitVec 32 := BitVec.ofNat 32 (i 0).val
  let c256_i32 : BitVec 32 := 256#32
  let v0 : BitVec 32 := Scalar.muli arg0 c256_i32
  let c125_i32_631 : BitVec 32 := 125#32
  let v1519 : BitVec 32 := Scalar.addi v0 c125_i32_631
  let v3073 : Index := Scalar.indexCast v1519
  ![v3073.toNat]
def k0_off762 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c125_i32_631 : BitVec 32 := 125#32
  let v1519 : BitVec 32 := Scalar.addi v0 c125_i32_631
  let c0_i32_1282 : BitVec 32 := 0#32
  ![v1519.toNat, v3074.toNat, 0]
def k0_cond254 (v1521 : BitVec 32) : BitVec 1 :=
  let c0_i32_632 : BitVec 32 := 0#32
  let v1522 : BitVec 1 := Scalar.cmpi .sgt v1521 c0_i32_632
  let v1523 : BitVec 32 := Scalar.extui v1522
  let c0_i32_633 : BitVec 32 := 0#32
  let v1524 : BitVec 1 := Scalar.cmpi .ne v1523 c0_i32_633
  v1524

def k0_chk254 (i : grid0.Coords) (v1521 : BitVec 32) (v3074 : BitVec 32) : Prop :=
  (∀ (k0_h254 : k0_cond254 v1521 = 1#1), ∀ a, (k0_off762 i v3074) a + S1x1x512.size a ≤ S1024x200x512.size a)
instance k0_chk254.dec : ∀ (i : grid0.Coords) (v1521 : BitVec 32) (v3074 : BitVec 32), Decidable (k0_chk254 i v1521 v3074) := fun i v1521 v3074 => decidable_of_iff' _ (Iff.of_eq (k0_chk254.eq_1 i v1521 v3074))
theorem k0_off762_inb : ∀ (i : grid0.Coords) (v1521 : BitVec 32) (v3074 : BitVec 32) (k0_hw254 : k0_chk254 i v1521 v3074), ∀ (k0_h254 : k0_cond254 v1521 = 1#1), ∀ a, (k0_off762 i v3074) a + S1x1x512.size a ≤ S1024x200x512.size a := fun i v1521 v3074 k0_hw254 k0_h254 => k0_hw254 k0_h254

def k0_off763 (i : grid0.Coords) : Fin 1 → Nat :=
  let arg0 : BitVec 32 := BitVec.ofNat 32 (i 0).val
  let c256_i32 : BitVec 32 := 256#32
  let v0 : BitVec 32 := Scalar.muli arg0 c256_i32
  let c126_i32_634 : BitVec 32 := 126#32
  let v1525 : BitVec 32 := Scalar.addi v0 c126_i32_634
  let v1526 : Index := Scalar.indexCast v1525
  ![v1526.toNat]
def k0_off764 (i : grid0.Coords) : Fin 1 → Nat :=
  let arg0 : BitVec 32 := BitVec.ofNat 32 (i 0).val
  let c256_i32 : BitVec 32 := 256#32
  let v0 : BitVec 32 := Scalar.muli arg0 c256_i32
  let c126_i32_634 : BitVec 32 := 126#32
  let v1525 : BitVec 32 := Scalar.addi v0 c126_i32_634
  let v3073 : Index := Scalar.indexCast v1525
  ![v3073.toNat]
def k0_off765 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c126_i32_634 : BitVec 32 := 126#32
  let v1525 : BitVec 32 := Scalar.addi v0 c126_i32_634
  let c0_i32_1282 : BitVec 32 := 0#32
  ![v1525.toNat, v3074.toNat, 0]
def k0_cond255 (v1527 : BitVec 32) : BitVec 1 :=
  let c0_i32_635 : BitVec 32 := 0#32
  let v1528 : BitVec 1 := Scalar.cmpi .sgt v1527 c0_i32_635
  let v1529 : BitVec 32 := Scalar.extui v1528
  let c0_i32_636 : BitVec 32 := 0#32
  let v1530 : BitVec 1 := Scalar.cmpi .ne v1529 c0_i32_636
  v1530

def k0_chk255 (i : grid0.Coords) (v1527 : BitVec 32) (v3074 : BitVec 32) : Prop :=
  (∀ (k0_h255 : k0_cond255 v1527 = 1#1), ∀ a, (k0_off765 i v3074) a + S1x1x512.size a ≤ S1024x200x512.size a)
instance k0_chk255.dec : ∀ (i : grid0.Coords) (v1527 : BitVec 32) (v3074 : BitVec 32), Decidable (k0_chk255 i v1527 v3074) := fun i v1527 v3074 => decidable_of_iff' _ (Iff.of_eq (k0_chk255.eq_1 i v1527 v3074))
theorem k0_off765_inb : ∀ (i : grid0.Coords) (v1527 : BitVec 32) (v3074 : BitVec 32) (k0_hw255 : k0_chk255 i v1527 v3074), ∀ (k0_h255 : k0_cond255 v1527 = 1#1), ∀ a, (k0_off765 i v3074) a + S1x1x512.size a ≤ S1024x200x512.size a := fun i v1527 v3074 k0_hw255 k0_h255 => k0_hw255 k0_h255

def k0_off766 (i : grid0.Coords) : Fin 1 → Nat :=
  let arg0 : BitVec 32 := BitVec.ofNat 32 (i 0).val
  let c256_i32 : BitVec 32 := 256#32
  let v0 : BitVec 32 := Scalar.muli arg0 c256_i32
  let c127_i32_637 : BitVec 32 := 127#32
  let v1531 : BitVec 32 := Scalar.addi v0 c127_i32_637
  let v1532 : Index := Scalar.indexCast v1531
  ![v1532.toNat]
def k0_off767 (i : grid0.Coords) : Fin 1 → Nat :=
  let arg0 : BitVec 32 := BitVec.ofNat 32 (i 0).val
  let c256_i32 : BitVec 32 := 256#32
  let v0 : BitVec 32 := Scalar.muli arg0 c256_i32
  let c127_i32_637 : BitVec 32 := 127#32
  let v1531 : BitVec 32 := Scalar.addi v0 c127_i32_637
  let v3073 : Index := Scalar.indexCast v1531
  ![v3073.toNat]
def k0_off768 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c127_i32_637 : BitVec 32 := 127#32
  let v1531 : BitVec 32 := Scalar.addi v0 c127_i32_637
  let c0_i32_1282 : BitVec 32 := 0#32
  ![v1531.toNat, v3074.toNat, 0]
def k0_cond256 (v1533 : BitVec 32) : BitVec 1 :=
  let c0_i32_638 : BitVec 32 := 0#32
  let v1534 : BitVec 1 := Scalar.cmpi .sgt v1533 c0_i32_638
  let v1535 : BitVec 32 := Scalar.extui v1534
  let c0_i32_639 : BitVec 32 := 0#32
  let v1536 : BitVec 1 := Scalar.cmpi .ne v1535 c0_i32_639
  v1536

def k0_chk256 (i : grid0.Coords) (v1533 : BitVec 32) (v3074 : BitVec 32) : Prop :=
  (∀ (k0_h256 : k0_cond256 v1533 = 1#1), ∀ a, (k0_off768 i v3074) a + S1x1x512.size a ≤ S1024x200x512.size a)
instance k0_chk256.dec : ∀ (i : grid0.Coords) (v1533 : BitVec 32) (v3074 : BitVec 32), Decidable (k0_chk256 i v1533 v3074) := fun i v1533 v3074 => decidable_of_iff' _ (Iff.of_eq (k0_chk256.eq_1 i v1533 v3074))
theorem k0_off768_inb : ∀ (i : grid0.Coords) (v1533 : BitVec 32) (v3074 : BitVec 32) (k0_hw256 : k0_chk256 i v1533 v3074), ∀ (k0_h256 : k0_cond256 v1533 = 1#1), ∀ a, (k0_off768 i v3074) a + S1x1x512.size a ≤ S1024x200x512.size a := fun i v1533 v3074 k0_hw256 k0_h256 => k0_hw256 k0_h256

def k0_off769 (i : grid0.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1537 : BitVec 32 := Scalar.addi v0 c128_i32
  let v1538 : Index := Scalar.indexCast v1537
  ![v1538.toNat]
def k0_off770 (i : grid0.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1537 : BitVec 32 := Scalar.addi v0 c128_i32
  let v3073 : Index := Scalar.indexCast v1537
  ![v3073.toNat]
def k0_off771 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c128_i32 : BitVec 32 := 128#32
  let v1537 : BitVec 32 := Scalar.addi v0 c128_i32
  let c0_i32_1287 : BitVec 32 := 0#32
  ![v1537.toNat, v3074.toNat, 0]
def k0_cond257 (v1539 : BitVec 32) : BitVec 1 :=
  let c0_i32_640 : BitVec 32 := 0#32
  let v1540 : BitVec 1 := Scalar.cmpi .sgt v1539 c0_i32_640
  let v1541 : BitVec 32 := Scalar.extui v1540
  let c0_i32_641 : BitVec 32 := 0#32
  let v1542 : BitVec 1 := Scalar.cmpi .ne v1541 c0_i32_641
  v1542

def k0_chk257 (i : grid0.Coords) (v1539 : BitVec 32) (v3074 : BitVec 32) : Prop :=
  (∀ (k0_h257 : k0_cond257 v1539 = 1#1), ∀ a, (k0_off771 i v3074) a + S1x1x512.size a ≤ S1024x200x512.size a)
instance k0_chk257.dec : ∀ (i : grid0.Coords) (v1539 : BitVec 32) (v3074 : BitVec 32), Decidable (k0_chk257 i v1539 v3074) := fun i v1539 v3074 => decidable_of_iff' _ (Iff.of_eq (k0_chk257.eq_1 i v1539 v3074))
theorem k0_off771_inb : ∀ (i : grid0.Coords) (v1539 : BitVec 32) (v3074 : BitVec 32) (k0_hw257 : k0_chk257 i v1539 v3074), ∀ (k0_h257 : k0_cond257 v1539 = 1#1), ∀ a, (k0_off771 i v3074) a + S1x1x512.size a ≤ S1024x200x512.size a := fun i v1539 v3074 k0_hw257 k0_h257 => k0_hw257 k0_h257

def k0_off772 (i : grid0.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1543 : BitVec 32 := Scalar.addi v0 c129_i32
  let v1544 : Index := Scalar.indexCast v1543
  ![v1544.toNat]
def k0_off773 (i : grid0.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1543 : BitVec 32 := Scalar.addi v0 c129_i32
  let v3073 : Index := Scalar.indexCast v1543
  ![v3073.toNat]
def k0_off774 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c129_i32 : BitVec 32 := 129#32
  let v1543 : BitVec 32 := Scalar.addi v0 c129_i32
  let c0_i32_1287 : BitVec 32 := 0#32
  ![v1543.toNat, v3074.toNat, 0]
def k0_cond258 (v1545 : BitVec 32) : BitVec 1 :=
  let c0_i32_642 : BitVec 32 := 0#32
  let v1546 : BitVec 1 := Scalar.cmpi .sgt v1545 c0_i32_642
  let v1547 : BitVec 32 := Scalar.extui v1546
  let c0_i32_643 : BitVec 32 := 0#32
  let v1548 : BitVec 1 := Scalar.cmpi .ne v1547 c0_i32_643
  v1548

def k0_chk258 (i : grid0.Coords) (v1545 : BitVec 32) (v3074 : BitVec 32) : Prop :=
  (∀ (k0_h258 : k0_cond258 v1545 = 1#1), ∀ a, (k0_off774 i v3074) a + S1x1x512.size a ≤ S1024x200x512.size a)
instance k0_chk258.dec : ∀ (i : grid0.Coords) (v1545 : BitVec 32) (v3074 : BitVec 32), Decidable (k0_chk258 i v1545 v3074) := fun i v1545 v3074 => decidable_of_iff' _ (Iff.of_eq (k0_chk258.eq_1 i v1545 v3074))
theorem k0_off774_inb : ∀ (i : grid0.Coords) (v1545 : BitVec 32) (v3074 : BitVec 32) (k0_hw258 : k0_chk258 i v1545 v3074), ∀ (k0_h258 : k0_cond258 v1545 = 1#1), ∀ a, (k0_off774 i v3074) a + S1x1x512.size a ≤ S1024x200x512.size a := fun i v1545 v3074 k0_hw258 k0_h258 => k0_hw258 k0_h258

def k0_off775 (i : grid0.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1549 : BitVec 32 := Scalar.addi v0 c130_i32
  let v1550 : Index := Scalar.indexCast v1549
  ![v1550.toNat]
def k0_off776 (i : grid0.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1549 : BitVec 32 := Scalar.addi v0 c130_i32
  let v3073 : Index := Scalar.indexCast v1549
  ![v3073.toNat]
def k0_off777 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c130_i32 : BitVec 32 := 130#32
  let v1549 : BitVec 32 := Scalar.addi v0 c130_i32
  let c0_i32_1287 : BitVec 32 := 0#32
  ![v1549.toNat, v3074.toNat, 0]
def k0_cond259 (v1551 : BitVec 32) : BitVec 1 :=
  let c0_i32_644 : BitVec 32 := 0#32
  let v1552 : BitVec 1 := Scalar.cmpi .sgt v1551 c0_i32_644
  let v1553 : BitVec 32 := Scalar.extui v1552
  let c0_i32_645 : BitVec 32 := 0#32
  let v1554 : BitVec 1 := Scalar.cmpi .ne v1553 c0_i32_645
  v1554

def k0_chk259 (i : grid0.Coords) (v1551 : BitVec 32) (v3074 : BitVec 32) : Prop :=
  (∀ (k0_h259 : k0_cond259 v1551 = 1#1), ∀ a, (k0_off777 i v3074) a + S1x1x512.size a ≤ S1024x200x512.size a)
instance k0_chk259.dec : ∀ (i : grid0.Coords) (v1551 : BitVec 32) (v3074 : BitVec 32), Decidable (k0_chk259 i v1551 v3074) := fun i v1551 v3074 => decidable_of_iff' _ (Iff.of_eq (k0_chk259.eq_1 i v1551 v3074))
theorem k0_off777_inb : ∀ (i : grid0.Coords) (v1551 : BitVec 32) (v3074 : BitVec 32) (k0_hw259 : k0_chk259 i v1551 v3074), ∀ (k0_h259 : k0_cond259 v1551 = 1#1), ∀ a, (k0_off777 i v3074) a + S1x1x512.size a ≤ S1024x200x512.size a := fun i v1551 v3074 k0_hw259 k0_h259 => k0_hw259 k0_h259

def k0_off778 (i : grid0.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1555 : BitVec 32 := Scalar.addi v0 c131_i32
  let v1556 : Index := Scalar.indexCast v1555
  ![v1556.toNat]
def k0_off779 (i : grid0.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1555 : BitVec 32 := Scalar.addi v0 c131_i32
  let v3073 : Index := Scalar.indexCast v1555
  ![v3073.toNat]
def k0_off780 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c131_i32 : BitVec 32 := 131#32
  let v1555 : BitVec 32 := Scalar.addi v0 c131_i32
  let c0_i32_1287 : BitVec 32 := 0#32
  ![v1555.toNat, v3074.toNat, 0]
def k0_cond260 (v1557 : BitVec 32) : BitVec 1 :=
  let c0_i32_646 : BitVec 32 := 0#32
  let v1558 : BitVec 1 := Scalar.cmpi .sgt v1557 c0_i32_646
  let v1559 : BitVec 32 := Scalar.extui v1558
  let c0_i32_647 : BitVec 32 := 0#32
  let v1560 : BitVec 1 := Scalar.cmpi .ne v1559 c0_i32_647
  v1560

def k0_chk260 (i : grid0.Coords) (v1557 : BitVec 32) (v3074 : BitVec 32) : Prop :=
  (∀ (k0_h260 : k0_cond260 v1557 = 1#1), ∀ a, (k0_off780 i v3074) a + S1x1x512.size a ≤ S1024x200x512.size a)
instance k0_chk260.dec : ∀ (i : grid0.Coords) (v1557 : BitVec 32) (v3074 : BitVec 32), Decidable (k0_chk260 i v1557 v3074) := fun i v1557 v3074 => decidable_of_iff' _ (Iff.of_eq (k0_chk260.eq_1 i v1557 v3074))
theorem k0_off780_inb : ∀ (i : grid0.Coords) (v1557 : BitVec 32) (v3074 : BitVec 32) (k0_hw260 : k0_chk260 i v1557 v3074), ∀ (k0_h260 : k0_cond260 v1557 = 1#1), ∀ a, (k0_off780 i v3074) a + S1x1x512.size a ≤ S1024x200x512.size a := fun i v1557 v3074 k0_hw260 k0_h260 => k0_hw260 k0_h260

def k0_off781 (i : grid0.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1561 : BitVec 32 := Scalar.addi v0 c132_i32
  let v1562 : Index := Scalar.indexCast v1561
  ![v1562.toNat]
def k0_off782 (i : grid0.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1561 : BitVec 32 := Scalar.addi v0 c132_i32
  let v3073 : Index := Scalar.indexCast v1561
  ![v3073.toNat]
def k0_off783 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c132_i32 : BitVec 32 := 132#32
  let v1561 : BitVec 32 := Scalar.addi v0 c132_i32
  let c0_i32_1287 : BitVec 32 := 0#32
  ![v1561.toNat, v3074.toNat, 0]
def k0_cond261 (v1563 : BitVec 32) : BitVec 1 :=
  let c0_i32_648 : BitVec 32 := 0#32
  let v1564 : BitVec 1 := Scalar.cmpi .sgt v1563 c0_i32_648
  let v1565 : BitVec 32 := Scalar.extui v1564
  let c0_i32_649 : BitVec 32 := 0#32
  let v1566 : BitVec 1 := Scalar.cmpi .ne v1565 c0_i32_649
  v1566

def k0_chk261 (i : grid0.Coords) (v1563 : BitVec 32) (v3074 : BitVec 32) : Prop :=
  (∀ (k0_h261 : k0_cond261 v1563 = 1#1), ∀ a, (k0_off783 i v3074) a + S1x1x512.size a ≤ S1024x200x512.size a)
instance k0_chk261.dec : ∀ (i : grid0.Coords) (v1563 : BitVec 32) (v3074 : BitVec 32), Decidable (k0_chk261 i v1563 v3074) := fun i v1563 v3074 => decidable_of_iff' _ (Iff.of_eq (k0_chk261.eq_1 i v1563 v3074))
theorem k0_off783_inb : ∀ (i : grid0.Coords) (v1563 : BitVec 32) (v3074 : BitVec 32) (k0_hw261 : k0_chk261 i v1563 v3074), ∀ (k0_h261 : k0_cond261 v1563 = 1#1), ∀ a, (k0_off783 i v3074) a + S1x1x512.size a ≤ S1024x200x512.size a := fun i v1563 v3074 k0_hw261 k0_h261 => k0_hw261 k0_h261

def k0_off784 (i : grid0.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1567 : BitVec 32 := Scalar.addi v0 c133_i32
  let v1568 : Index := Scalar.indexCast v1567
  ![v1568.toNat]
def k0_off785 (i : grid0.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1567 : BitVec 32 := Scalar.addi v0 c133_i32
  let v3073 : Index := Scalar.indexCast v1567
  ![v3073.toNat]
def k0_off786 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c133_i32 : BitVec 32 := 133#32
  let v1567 : BitVec 32 := Scalar.addi v0 c133_i32
  let c0_i32_1287 : BitVec 32 := 0#32
  ![v1567.toNat, v3074.toNat, 0]
def k0_cond262 (v1569 : BitVec 32) : BitVec 1 :=
  let c0_i32_650 : BitVec 32 := 0#32
  let v1570 : BitVec 1 := Scalar.cmpi .sgt v1569 c0_i32_650
  let v1571 : BitVec 32 := Scalar.extui v1570
  let c0_i32_651 : BitVec 32 := 0#32
  let v1572 : BitVec 1 := Scalar.cmpi .ne v1571 c0_i32_651
  v1572

def k0_chk262 (i : grid0.Coords) (v1569 : BitVec 32) (v3074 : BitVec 32) : Prop :=
  (∀ (k0_h262 : k0_cond262 v1569 = 1#1), ∀ a, (k0_off786 i v3074) a + S1x1x512.size a ≤ S1024x200x512.size a)
instance k0_chk262.dec : ∀ (i : grid0.Coords) (v1569 : BitVec 32) (v3074 : BitVec 32), Decidable (k0_chk262 i v1569 v3074) := fun i v1569 v3074 => decidable_of_iff' _ (Iff.of_eq (k0_chk262.eq_1 i v1569 v3074))
theorem k0_off786_inb : ∀ (i : grid0.Coords) (v1569 : BitVec 32) (v3074 : BitVec 32) (k0_hw262 : k0_chk262 i v1569 v3074), ∀ (k0_h262 : k0_cond262 v1569 = 1#1), ∀ a, (k0_off786 i v3074) a + S1x1x512.size a ≤ S1024x200x512.size a := fun i v1569 v3074 k0_hw262 k0_h262 => k0_hw262 k0_h262

def k0_off787 (i : grid0.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1573 : BitVec 32 := Scalar.addi v0 c134_i32
  let v1574 : Index := Scalar.indexCast v1573
  ![v1574.toNat]
def k0_off788 (i : grid0.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1573 : BitVec 32 := Scalar.addi v0 c134_i32
  let v3073 : Index := Scalar.indexCast v1573
  ![v3073.toNat]
def k0_off789 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c134_i32 : BitVec 32 := 134#32
  let v1573 : BitVec 32 := Scalar.addi v0 c134_i32
  let c0_i32_1287 : BitVec 32 := 0#32
  ![v1573.toNat, v3074.toNat, 0]
def k0_cond263 (v1575 : BitVec 32) : BitVec 1 :=
  let c0_i32_652 : BitVec 32 := 0#32
  let v1576 : BitVec 1 := Scalar.cmpi .sgt v1575 c0_i32_652
  let v1577 : BitVec 32 := Scalar.extui v1576
  let c0_i32_653 : BitVec 32 := 0#32
  let v1578 : BitVec 1 := Scalar.cmpi .ne v1577 c0_i32_653
  v1578

def k0_chk263 (i : grid0.Coords) (v1575 : BitVec 32) (v3074 : BitVec 32) : Prop :=
  (∀ (k0_h263 : k0_cond263 v1575 = 1#1), ∀ a, (k0_off789 i v3074) a + S1x1x512.size a ≤ S1024x200x512.size a)
instance k0_chk263.dec : ∀ (i : grid0.Coords) (v1575 : BitVec 32) (v3074 : BitVec 32), Decidable (k0_chk263 i v1575 v3074) := fun i v1575 v3074 => decidable_of_iff' _ (Iff.of_eq (k0_chk263.eq_1 i v1575 v3074))
theorem k0_off789_inb : ∀ (i : grid0.Coords) (v1575 : BitVec 32) (v3074 : BitVec 32) (k0_hw263 : k0_chk263 i v1575 v3074), ∀ (k0_h263 : k0_cond263 v1575 = 1#1), ∀ a, (k0_off789 i v3074) a + S1x1x512.size a ≤ S1024x200x512.size a := fun i v1575 v3074 k0_hw263 k0_h263 => k0_hw263 k0_h263

def k0_off790 (i : grid0.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1579 : BitVec 32 := Scalar.addi v0 c135_i32
  let v1580 : Index := Scalar.indexCast v1579
  ![v1580.toNat]
def k0_off791 (i : grid0.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1579 : BitVec 32 := Scalar.addi v0 c135_i32
  let v3073 : Index := Scalar.indexCast v1579
  ![v3073.toNat]
def k0_off792 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c135_i32 : BitVec 32 := 135#32
  let v1579 : BitVec 32 := Scalar.addi v0 c135_i32
  let c0_i32_1287 : BitVec 32 := 0#32
  ![v1579.toNat, v3074.toNat, 0]
def k0_cond264 (v1581 : BitVec 32) : BitVec 1 :=
  let c0_i32_654 : BitVec 32 := 0#32
  let v1582 : BitVec 1 := Scalar.cmpi .sgt v1581 c0_i32_654
  let v1583 : BitVec 32 := Scalar.extui v1582
  let c0_i32_655 : BitVec 32 := 0#32
  let v1584 : BitVec 1 := Scalar.cmpi .ne v1583 c0_i32_655
  v1584

def k0_chk264 (i : grid0.Coords) (v1581 : BitVec 32) (v3074 : BitVec 32) : Prop :=
  (∀ (k0_h264 : k0_cond264 v1581 = 1#1), ∀ a, (k0_off792 i v3074) a + S1x1x512.size a ≤ S1024x200x512.size a)
instance k0_chk264.dec : ∀ (i : grid0.Coords) (v1581 : BitVec 32) (v3074 : BitVec 32), Decidable (k0_chk264 i v1581 v3074) := fun i v1581 v3074 => decidable_of_iff' _ (Iff.of_eq (k0_chk264.eq_1 i v1581 v3074))
theorem k0_off792_inb : ∀ (i : grid0.Coords) (v1581 : BitVec 32) (v3074 : BitVec 32) (k0_hw264 : k0_chk264 i v1581 v3074), ∀ (k0_h264 : k0_cond264 v1581 = 1#1), ∀ a, (k0_off792 i v3074) a + S1x1x512.size a ≤ S1024x200x512.size a := fun i v1581 v3074 k0_hw264 k0_h264 => k0_hw264 k0_h264

def k0_off793 (i : grid0.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1585 : BitVec 32 := Scalar.addi v0 c136_i32
  let v1586 : Index := Scalar.indexCast v1585
  ![v1586.toNat]
def k0_off794 (i : grid0.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1585 : BitVec 32 := Scalar.addi v0 c136_i32
  let v3073 : Index := Scalar.indexCast v1585
  ![v3073.toNat]
def k0_off795 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c136_i32 : BitVec 32 := 136#32
  let v1585 : BitVec 32 := Scalar.addi v0 c136_i32
  let c0_i32_1287 : BitVec 32 := 0#32
  ![v1585.toNat, v3074.toNat, 0]
def k0_cond265 (v1587 : BitVec 32) : BitVec 1 :=
  let c0_i32_656 : BitVec 32 := 0#32
  let v1588 : BitVec 1 := Scalar.cmpi .sgt v1587 c0_i32_656
  let v1589 : BitVec 32 := Scalar.extui v1588
  let c0_i32_657 : BitVec 32 := 0#32
  let v1590 : BitVec 1 := Scalar.cmpi .ne v1589 c0_i32_657
  v1590

def k0_chk265 (i : grid0.Coords) (v1587 : BitVec 32) (v3074 : BitVec 32) : Prop :=
  (∀ (k0_h265 : k0_cond265 v1587 = 1#1), ∀ a, (k0_off795 i v3074) a + S1x1x512.size a ≤ S1024x200x512.size a)
instance k0_chk265.dec : ∀ (i : grid0.Coords) (v1587 : BitVec 32) (v3074 : BitVec 32), Decidable (k0_chk265 i v1587 v3074) := fun i v1587 v3074 => decidable_of_iff' _ (Iff.of_eq (k0_chk265.eq_1 i v1587 v3074))
theorem k0_off795_inb : ∀ (i : grid0.Coords) (v1587 : BitVec 32) (v3074 : BitVec 32) (k0_hw265 : k0_chk265 i v1587 v3074), ∀ (k0_h265 : k0_cond265 v1587 = 1#1), ∀ a, (k0_off795 i v3074) a + S1x1x512.size a ≤ S1024x200x512.size a := fun i v1587 v3074 k0_hw265 k0_h265 => k0_hw265 k0_h265

def k0_off796 (i : grid0.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v1591 : BitVec 32 := Scalar.addi v0 c137_i32
  let v1592 : Index := Scalar.indexCast v1591
  ![v1592.toNat]
def k0_off797 (i : grid0.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v1591 : BitVec 32 := Scalar.addi v0 c137_i32
  let v3073 : Index := Scalar.indexCast v1591
  ![v3073.toNat]
def k0_off798 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c137_i32 : BitVec 32 := 137#32
  let v1591 : BitVec 32 := Scalar.addi v0 c137_i32
  let c0_i32_1287 : BitVec 32 := 0#32
  ![v1591.toNat, v3074.toNat, 0]
def k0_cond266 (v1593 : BitVec 32) : BitVec 1 :=
  let c0_i32_658 : BitVec 32 := 0#32
  let v1594 : BitVec 1 := Scalar.cmpi .sgt v1593 c0_i32_658
  let v1595 : BitVec 32 := Scalar.extui v1594
  let c0_i32_659 : BitVec 32 := 0#32
  let v1596 : BitVec 1 := Scalar.cmpi .ne v1595 c0_i32_659
  v1596

def k0_chk266 (i : grid0.Coords) (v1593 : BitVec 32) (v3074 : BitVec 32) : Prop :=
  (∀ (k0_h266 : k0_cond266 v1593 = 1#1), ∀ a, (k0_off798 i v3074) a + S1x1x512.size a ≤ S1024x200x512.size a)
instance k0_chk266.dec : ∀ (i : grid0.Coords) (v1593 : BitVec 32) (v3074 : BitVec 32), Decidable (k0_chk266 i v1593 v3074) := fun i v1593 v3074 => decidable_of_iff' _ (Iff.of_eq (k0_chk266.eq_1 i v1593 v3074))
theorem k0_off798_inb : ∀ (i : grid0.Coords) (v1593 : BitVec 32) (v3074 : BitVec 32) (k0_hw266 : k0_chk266 i v1593 v3074), ∀ (k0_h266 : k0_cond266 v1593 = 1#1), ∀ a, (k0_off798 i v3074) a + S1x1x512.size a ≤ S1024x200x512.size a := fun i v1593 v3074 k0_hw266 k0_h266 => k0_hw266 k0_h266

def k0_off799 (i : grid0.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v1597 : BitVec 32 := Scalar.addi v0 c138_i32
  let v1598 : Index := Scalar.indexCast v1597
  ![v1598.toNat]
def k0_off800 (i : grid0.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v1597 : BitVec 32 := Scalar.addi v0 c138_i32
  let v3073 : Index := Scalar.indexCast v1597
  ![v3073.toNat]
def k0_off801 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c138_i32 : BitVec 32 := 138#32
  let v1597 : BitVec 32 := Scalar.addi v0 c138_i32
  let c0_i32_1287 : BitVec 32 := 0#32
  ![v1597.toNat, v3074.toNat, 0]
def k0_cond267 (v1599 : BitVec 32) : BitVec 1 :=
  let c0_i32_660 : BitVec 32 := 0#32
  let v1600 : BitVec 1 := Scalar.cmpi .sgt v1599 c0_i32_660
  let v1601 : BitVec 32 := Scalar.extui v1600
  let c0_i32_661 : BitVec 32 := 0#32
  let v1602 : BitVec 1 := Scalar.cmpi .ne v1601 c0_i32_661
  v1602

def k0_chk267 (i : grid0.Coords) (v1599 : BitVec 32) (v3074 : BitVec 32) : Prop :=
  (∀ (k0_h267 : k0_cond267 v1599 = 1#1), ∀ a, (k0_off801 i v3074) a + S1x1x512.size a ≤ S1024x200x512.size a)
instance k0_chk267.dec : ∀ (i : grid0.Coords) (v1599 : BitVec 32) (v3074 : BitVec 32), Decidable (k0_chk267 i v1599 v3074) := fun i v1599 v3074 => decidable_of_iff' _ (Iff.of_eq (k0_chk267.eq_1 i v1599 v3074))
theorem k0_off801_inb : ∀ (i : grid0.Coords) (v1599 : BitVec 32) (v3074 : BitVec 32) (k0_hw267 : k0_chk267 i v1599 v3074), ∀ (k0_h267 : k0_cond267 v1599 = 1#1), ∀ a, (k0_off801 i v3074) a + S1x1x512.size a ≤ S1024x200x512.size a := fun i v1599 v3074 k0_hw267 k0_h267 => k0_hw267 k0_h267

def k0_off802 (i : grid0.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v1603 : BitVec 32 := Scalar.addi v0 c139_i32
  let v1604 : Index := Scalar.indexCast v1603
  ![v1604.toNat]
def k0_off803 (i : grid0.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v1603 : BitVec 32 := Scalar.addi v0 c139_i32
  let v3073 : Index := Scalar.indexCast v1603
  ![v3073.toNat]
def k0_off804 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c139_i32 : BitVec 32 := 139#32
  let v1603 : BitVec 32 := Scalar.addi v0 c139_i32
  let c0_i32_1287 : BitVec 32 := 0#32
  ![v1603.toNat, v3074.toNat, 0]
def k0_cond268 (v1605 : BitVec 32) : BitVec 1 :=
  let c0_i32_662 : BitVec 32 := 0#32
  let v1606 : BitVec 1 := Scalar.cmpi .sgt v1605 c0_i32_662
  let v1607 : BitVec 32 := Scalar.extui v1606
  let c0_i32_663 : BitVec 32 := 0#32
  let v1608 : BitVec 1 := Scalar.cmpi .ne v1607 c0_i32_663
  v1608

def k0_chk268 (i : grid0.Coords) (v1605 : BitVec 32) (v3074 : BitVec 32) : Prop :=
  (∀ (k0_h268 : k0_cond268 v1605 = 1#1), ∀ a, (k0_off804 i v3074) a + S1x1x512.size a ≤ S1024x200x512.size a)
instance k0_chk268.dec : ∀ (i : grid0.Coords) (v1605 : BitVec 32) (v3074 : BitVec 32), Decidable (k0_chk268 i v1605 v3074) := fun i v1605 v3074 => decidable_of_iff' _ (Iff.of_eq (k0_chk268.eq_1 i v1605 v3074))
theorem k0_off804_inb : ∀ (i : grid0.Coords) (v1605 : BitVec 32) (v3074 : BitVec 32) (k0_hw268 : k0_chk268 i v1605 v3074), ∀ (k0_h268 : k0_cond268 v1605 = 1#1), ∀ a, (k0_off804 i v3074) a + S1x1x512.size a ≤ S1024x200x512.size a := fun i v1605 v3074 k0_hw268 k0_h268 => k0_hw268 k0_h268

def k0_off805 (i : grid0.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v1609 : BitVec 32 := Scalar.addi v0 c140_i32
  let v1610 : Index := Scalar.indexCast v1609
  ![v1610.toNat]
def k0_off806 (i : grid0.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v1609 : BitVec 32 := Scalar.addi v0 c140_i32
  let v3073 : Index := Scalar.indexCast v1609
  ![v3073.toNat]
def k0_off807 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c140_i32 : BitVec 32 := 140#32
  let v1609 : BitVec 32 := Scalar.addi v0 c140_i32
  let c0_i32_1287 : BitVec 32 := 0#32
  ![v1609.toNat, v3074.toNat, 0]
def k0_cond269 (v1611 : BitVec 32) : BitVec 1 :=
  let c0_i32_664 : BitVec 32 := 0#32
  let v1612 : BitVec 1 := Scalar.cmpi .sgt v1611 c0_i32_664
  let v1613 : BitVec 32 := Scalar.extui v1612
  let c0_i32_665 : BitVec 32 := 0#32
  let v1614 : BitVec 1 := Scalar.cmpi .ne v1613 c0_i32_665
  v1614

def k0_chk269 (i : grid0.Coords) (v1611 : BitVec 32) (v3074 : BitVec 32) : Prop :=
  (∀ (k0_h269 : k0_cond269 v1611 = 1#1), ∀ a, (k0_off807 i v3074) a + S1x1x512.size a ≤ S1024x200x512.size a)
instance k0_chk269.dec : ∀ (i : grid0.Coords) (v1611 : BitVec 32) (v3074 : BitVec 32), Decidable (k0_chk269 i v1611 v3074) := fun i v1611 v3074 => decidable_of_iff' _ (Iff.of_eq (k0_chk269.eq_1 i v1611 v3074))
theorem k0_off807_inb : ∀ (i : grid0.Coords) (v1611 : BitVec 32) (v3074 : BitVec 32) (k0_hw269 : k0_chk269 i v1611 v3074), ∀ (k0_h269 : k0_cond269 v1611 = 1#1), ∀ a, (k0_off807 i v3074) a + S1x1x512.size a ≤ S1024x200x512.size a := fun i v1611 v3074 k0_hw269 k0_h269 => k0_hw269 k0_h269

def k0_off808 (i : grid0.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v1615 : BitVec 32 := Scalar.addi v0 c141_i32
  let v1616 : Index := Scalar.indexCast v1615
  ![v1616.toNat]
def k0_off809 (i : grid0.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v1615 : BitVec 32 := Scalar.addi v0 c141_i32
  let v3073 : Index := Scalar.indexCast v1615
  ![v3073.toNat]
def k0_off810 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c141_i32 : BitVec 32 := 141#32
  let v1615 : BitVec 32 := Scalar.addi v0 c141_i32
  let c0_i32_1287 : BitVec 32 := 0#32
  ![v1615.toNat, v3074.toNat, 0]
def k0_cond270 (v1617 : BitVec 32) : BitVec 1 :=
  let c0_i32_666 : BitVec 32 := 0#32
  let v1618 : BitVec 1 := Scalar.cmpi .sgt v1617 c0_i32_666
  let v1619 : BitVec 32 := Scalar.extui v1618
  let c0_i32_667 : BitVec 32 := 0#32
  let v1620 : BitVec 1 := Scalar.cmpi .ne v1619 c0_i32_667
  v1620

def k0_chk270 (i : grid0.Coords) (v1617 : BitVec 32) (v3074 : BitVec 32) : Prop :=
  (∀ (k0_h270 : k0_cond270 v1617 = 1#1), ∀ a, (k0_off810 i v3074) a + S1x1x512.size a ≤ S1024x200x512.size a)
instance k0_chk270.dec : ∀ (i : grid0.Coords) (v1617 : BitVec 32) (v3074 : BitVec 32), Decidable (k0_chk270 i v1617 v3074) := fun i v1617 v3074 => decidable_of_iff' _ (Iff.of_eq (k0_chk270.eq_1 i v1617 v3074))
theorem k0_off810_inb : ∀ (i : grid0.Coords) (v1617 : BitVec 32) (v3074 : BitVec 32) (k0_hw270 : k0_chk270 i v1617 v3074), ∀ (k0_h270 : k0_cond270 v1617 = 1#1), ∀ a, (k0_off810 i v3074) a + S1x1x512.size a ≤ S1024x200x512.size a := fun i v1617 v3074 k0_hw270 k0_h270 => k0_hw270 k0_h270

def k0_off811 (i : grid0.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v1621 : BitVec 32 := Scalar.addi v0 c142_i32
  let v1622 : Index := Scalar.indexCast v1621
  ![v1622.toNat]
def k0_off812 (i : grid0.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v1621 : BitVec 32 := Scalar.addi v0 c142_i32
  let v3073 : Index := Scalar.indexCast v1621
  ![v3073.toNat]
def k0_off813 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c142_i32 : BitVec 32 := 142#32
  let v1621 : BitVec 32 := Scalar.addi v0 c142_i32
  let c0_i32_1287 : BitVec 32 := 0#32
  ![v1621.toNat, v3074.toNat, 0]
def k0_cond271 (v1623 : BitVec 32) : BitVec 1 :=
  let c0_i32_668 : BitVec 32 := 0#32
  let v1624 : BitVec 1 := Scalar.cmpi .sgt v1623 c0_i32_668
  let v1625 : BitVec 32 := Scalar.extui v1624
  let c0_i32_669 : BitVec 32 := 0#32
  let v1626 : BitVec 1 := Scalar.cmpi .ne v1625 c0_i32_669
  v1626

def k0_chk271 (i : grid0.Coords) (v1623 : BitVec 32) (v3074 : BitVec 32) : Prop :=
  (∀ (k0_h271 : k0_cond271 v1623 = 1#1), ∀ a, (k0_off813 i v3074) a + S1x1x512.size a ≤ S1024x200x512.size a)
instance k0_chk271.dec : ∀ (i : grid0.Coords) (v1623 : BitVec 32) (v3074 : BitVec 32), Decidable (k0_chk271 i v1623 v3074) := fun i v1623 v3074 => decidable_of_iff' _ (Iff.of_eq (k0_chk271.eq_1 i v1623 v3074))
theorem k0_off813_inb : ∀ (i : grid0.Coords) (v1623 : BitVec 32) (v3074 : BitVec 32) (k0_hw271 : k0_chk271 i v1623 v3074), ∀ (k0_h271 : k0_cond271 v1623 = 1#1), ∀ a, (k0_off813 i v3074) a + S1x1x512.size a ≤ S1024x200x512.size a := fun i v1623 v3074 k0_hw271 k0_h271 => k0_hw271 k0_h271

def k0_off814 (i : grid0.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v1627 : BitVec 32 := Scalar.addi v0 c143_i32
  let v1628 : Index := Scalar.indexCast v1627
  ![v1628.toNat]
def k0_off815 (i : grid0.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v1627 : BitVec 32 := Scalar.addi v0 c143_i32
  let v3073 : Index := Scalar.indexCast v1627
  ![v3073.toNat]
def k0_off816 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c143_i32 : BitVec 32 := 143#32
  let v1627 : BitVec 32 := Scalar.addi v0 c143_i32
  let c0_i32_1287 : BitVec 32 := 0#32
  ![v1627.toNat, v3074.toNat, 0]
def k0_cond272 (v1629 : BitVec 32) : BitVec 1 :=
  let c0_i32_670 : BitVec 32 := 0#32
  let v1630 : BitVec 1 := Scalar.cmpi .sgt v1629 c0_i32_670
  let v1631 : BitVec 32 := Scalar.extui v1630
  let c0_i32_671 : BitVec 32 := 0#32
  let v1632 : BitVec 1 := Scalar.cmpi .ne v1631 c0_i32_671
  v1632

def k0_chk272 (i : grid0.Coords) (v1629 : BitVec 32) (v3074 : BitVec 32) : Prop :=
  (∀ (k0_h272 : k0_cond272 v1629 = 1#1), ∀ a, (k0_off816 i v3074) a + S1x1x512.size a ≤ S1024x200x512.size a)
instance k0_chk272.dec : ∀ (i : grid0.Coords) (v1629 : BitVec 32) (v3074 : BitVec 32), Decidable (k0_chk272 i v1629 v3074) := fun i v1629 v3074 => decidable_of_iff' _ (Iff.of_eq (k0_chk272.eq_1 i v1629 v3074))
theorem k0_off816_inb : ∀ (i : grid0.Coords) (v1629 : BitVec 32) (v3074 : BitVec 32) (k0_hw272 : k0_chk272 i v1629 v3074), ∀ (k0_h272 : k0_cond272 v1629 = 1#1), ∀ a, (k0_off816 i v3074) a + S1x1x512.size a ≤ S1024x200x512.size a := fun i v1629 v3074 k0_hw272 k0_h272 => k0_hw272 k0_h272

def k0_off817 (i : grid0.Coords) : Fin 1 → Nat :=
  let arg0 : BitVec 32 := BitVec.ofNat 32 (i 0).val
  let c256_i32 : BitVec 32 := 256#32
  let v0 : BitVec 32 := Scalar.muli arg0 c256_i32
  let c128_i32_672 : BitVec 32 := 128#32
  let v1633 : BitVec 32 := Scalar.addi v0 c128_i32_672
  let v1634 : Index := Scalar.indexCast v1633
  ![v1634.toNat]
def k0_off818 (i : grid0.Coords) : Fin 1 → Nat :=
  let arg0 : BitVec 32 := BitVec.ofNat 32 (i 0).val
  let c256_i32 : BitVec 32 := 256#32
  let v0 : BitVec 32 := Scalar.muli arg0 c256_i32
  let c128_i32_672 : BitVec 32 := 128#32
  let v1633 : BitVec 32 := Scalar.addi v0 c128_i32_672
  let v3073 : Index := Scalar.indexCast v1633
  ![v3073.toNat]
def k0_off819 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c128_i32_672 : BitVec 32 := 128#32
  let v1633 : BitVec 32 := Scalar.addi v0 c128_i32_672
  let c0_i32_1282 : BitVec 32 := 0#32
  ![v1633.toNat, v3074.toNat, 0]
def k0_cond273 (v1635 : BitVec 32) : BitVec 1 :=
  let c0_i32_673 : BitVec 32 := 0#32
  let v1636 : BitVec 1 := Scalar.cmpi .sgt v1635 c0_i32_673
  let v1637 : BitVec 32 := Scalar.extui v1636
  let c0_i32_674 : BitVec 32 := 0#32
  let v1638 : BitVec 1 := Scalar.cmpi .ne v1637 c0_i32_674
  v1638

def k0_chk273 (i : grid0.Coords) (v1635 : BitVec 32) (v3074 : BitVec 32) : Prop :=
  (∀ (k0_h273 : k0_cond273 v1635 = 1#1), ∀ a, (k0_off819 i v3074) a + S1x1x512.size a ≤ S1024x200x512.size a)
instance k0_chk273.dec : ∀ (i : grid0.Coords) (v1635 : BitVec 32) (v3074 : BitVec 32), Decidable (k0_chk273 i v1635 v3074) := fun i v1635 v3074 => decidable_of_iff' _ (Iff.of_eq (k0_chk273.eq_1 i v1635 v3074))
theorem k0_off819_inb : ∀ (i : grid0.Coords) (v1635 : BitVec 32) (v3074 : BitVec 32) (k0_hw273 : k0_chk273 i v1635 v3074), ∀ (k0_h273 : k0_cond273 v1635 = 1#1), ∀ a, (k0_off819 i v3074) a + S1x1x512.size a ≤ S1024x200x512.size a := fun i v1635 v3074 k0_hw273 k0_h273 => k0_hw273 k0_h273

def k0_off820 (i : grid0.Coords) : Fin 1 → Nat :=
  let arg0 : BitVec 32 := BitVec.ofNat 32 (i 0).val
  let c256_i32 : BitVec 32 := 256#32
  let v0 : BitVec 32 := Scalar.muli arg0 c256_i32
  let c129_i32_675 : BitVec 32 := 129#32
  let v1639 : BitVec 32 := Scalar.addi v0 c129_i32_675
  let v1640 : Index := Scalar.indexCast v1639
  ![v1640.toNat]
def k0_off821 (i : grid0.Coords) : Fin 1 → Nat :=
  let arg0 : BitVec 32 := BitVec.ofNat 32 (i 0).val
  let c256_i32 : BitVec 32 := 256#32
  let v0 : BitVec 32 := Scalar.muli arg0 c256_i32
  let c129_i32_675 : BitVec 32 := 129#32
  let v1639 : BitVec 32 := Scalar.addi v0 c129_i32_675
  let v3073 : Index := Scalar.indexCast v1639
  ![v3073.toNat]
def k0_off822 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c129_i32_675 : BitVec 32 := 129#32
  let v1639 : BitVec 32 := Scalar.addi v0 c129_i32_675
  let c0_i32_1282 : BitVec 32 := 0#32
  ![v1639.toNat, v3074.toNat, 0]
def k0_cond274 (v1641 : BitVec 32) : BitVec 1 :=
  let c0_i32_676 : BitVec 32 := 0#32
  let v1642 : BitVec 1 := Scalar.cmpi .sgt v1641 c0_i32_676
  let v1643 : BitVec 32 := Scalar.extui v1642
  let c0_i32_677 : BitVec 32 := 0#32
  let v1644 : BitVec 1 := Scalar.cmpi .ne v1643 c0_i32_677
  v1644

def k0_chk274 (i : grid0.Coords) (v1641 : BitVec 32) (v3074 : BitVec 32) : Prop :=
  (∀ (k0_h274 : k0_cond274 v1641 = 1#1), ∀ a, (k0_off822 i v3074) a + S1x1x512.size a ≤ S1024x200x512.size a)
instance k0_chk274.dec : ∀ (i : grid0.Coords) (v1641 : BitVec 32) (v3074 : BitVec 32), Decidable (k0_chk274 i v1641 v3074) := fun i v1641 v3074 => decidable_of_iff' _ (Iff.of_eq (k0_chk274.eq_1 i v1641 v3074))
theorem k0_off822_inb : ∀ (i : grid0.Coords) (v1641 : BitVec 32) (v3074 : BitVec 32) (k0_hw274 : k0_chk274 i v1641 v3074), ∀ (k0_h274 : k0_cond274 v1641 = 1#1), ∀ a, (k0_off822 i v3074) a + S1x1x512.size a ≤ S1024x200x512.size a := fun i v1641 v3074 k0_hw274 k0_h274 => k0_hw274 k0_h274

def k0_off823 (i : grid0.Coords) : Fin 1 → Nat :=
  let arg0 : BitVec 32 := BitVec.ofNat 32 (i 0).val
  let c256_i32 : BitVec 32 := 256#32
  let v0 : BitVec 32 := Scalar.muli arg0 c256_i32
  let c130_i32_678 : BitVec 32 := 130#32
  let v1645 : BitVec 32 := Scalar.addi v0 c130_i32_678
  let v1646 : Index := Scalar.indexCast v1645
  ![v1646.toNat]
def k0_off824 (i : grid0.Coords) : Fin 1 → Nat :=
  let arg0 : BitVec 32 := BitVec.ofNat 32 (i 0).val
  let c256_i32 : BitVec 32 := 256#32
  let v0 : BitVec 32 := Scalar.muli arg0 c256_i32
  let c130_i32_678 : BitVec 32 := 130#32
  let v1645 : BitVec 32 := Scalar.addi v0 c130_i32_678
  let v3073 : Index := Scalar.indexCast v1645
  ![v3073.toNat]
def k0_off825 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c130_i32_678 : BitVec 32 := 130#32
  let v1645 : BitVec 32 := Scalar.addi v0 c130_i32_678
  let c0_i32_1282 : BitVec 32 := 0#32
  ![v1645.toNat, v3074.toNat, 0]
def k0_cond275 (v1647 : BitVec 32) : BitVec 1 :=
  let c0_i32_679 : BitVec 32 := 0#32
  let v1648 : BitVec 1 := Scalar.cmpi .sgt v1647 c0_i32_679
  let v1649 : BitVec 32 := Scalar.extui v1648
  let c0_i32_680 : BitVec 32 := 0#32
  let v1650 : BitVec 1 := Scalar.cmpi .ne v1649 c0_i32_680
  v1650

def k0_chk275 (i : grid0.Coords) (v1647 : BitVec 32) (v3074 : BitVec 32) : Prop :=
  (∀ (k0_h275 : k0_cond275 v1647 = 1#1), ∀ a, (k0_off825 i v3074) a + S1x1x512.size a ≤ S1024x200x512.size a)
instance k0_chk275.dec : ∀ (i : grid0.Coords) (v1647 : BitVec 32) (v3074 : BitVec 32), Decidable (k0_chk275 i v1647 v3074) := fun i v1647 v3074 => decidable_of_iff' _ (Iff.of_eq (k0_chk275.eq_1 i v1647 v3074))
theorem k0_off825_inb : ∀ (i : grid0.Coords) (v1647 : BitVec 32) (v3074 : BitVec 32) (k0_hw275 : k0_chk275 i v1647 v3074), ∀ (k0_h275 : k0_cond275 v1647 = 1#1), ∀ a, (k0_off825 i v3074) a + S1x1x512.size a ≤ S1024x200x512.size a := fun i v1647 v3074 k0_hw275 k0_h275 => k0_hw275 k0_h275

def k0_off826 (i : grid0.Coords) : Fin 1 → Nat :=
  let arg0 : BitVec 32 := BitVec.ofNat 32 (i 0).val
  let c256_i32 : BitVec 32 := 256#32
  let v0 : BitVec 32 := Scalar.muli arg0 c256_i32
  let c131_i32_681 : BitVec 32 := 131#32
  let v1651 : BitVec 32 := Scalar.addi v0 c131_i32_681
  let v1652 : Index := Scalar.indexCast v1651
  ![v1652.toNat]
def k0_off827 (i : grid0.Coords) : Fin 1 → Nat :=
  let arg0 : BitVec 32 := BitVec.ofNat 32 (i 0).val
  let c256_i32 : BitVec 32 := 256#32
  let v0 : BitVec 32 := Scalar.muli arg0 c256_i32
  let c131_i32_681 : BitVec 32 := 131#32
  let v1651 : BitVec 32 := Scalar.addi v0 c131_i32_681
  let v3073 : Index := Scalar.indexCast v1651
  ![v3073.toNat]
def k0_off828 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c131_i32_681 : BitVec 32 := 131#32
  let v1651 : BitVec 32 := Scalar.addi v0 c131_i32_681
  let c0_i32_1282 : BitVec 32 := 0#32
  ![v1651.toNat, v3074.toNat, 0]
def k0_cond276 (v1653 : BitVec 32) : BitVec 1 :=
  let c0_i32_682 : BitVec 32 := 0#32
  let v1654 : BitVec 1 := Scalar.cmpi .sgt v1653 c0_i32_682
  let v1655 : BitVec 32 := Scalar.extui v1654
  let c0_i32_683 : BitVec 32 := 0#32
  let v1656 : BitVec 1 := Scalar.cmpi .ne v1655 c0_i32_683
  v1656

def k0_chk276 (i : grid0.Coords) (v1653 : BitVec 32) (v3074 : BitVec 32) : Prop :=
  (∀ (k0_h276 : k0_cond276 v1653 = 1#1), ∀ a, (k0_off828 i v3074) a + S1x1x512.size a ≤ S1024x200x512.size a)
instance k0_chk276.dec : ∀ (i : grid0.Coords) (v1653 : BitVec 32) (v3074 : BitVec 32), Decidable (k0_chk276 i v1653 v3074) := fun i v1653 v3074 => decidable_of_iff' _ (Iff.of_eq (k0_chk276.eq_1 i v1653 v3074))
theorem k0_off828_inb : ∀ (i : grid0.Coords) (v1653 : BitVec 32) (v3074 : BitVec 32) (k0_hw276 : k0_chk276 i v1653 v3074), ∀ (k0_h276 : k0_cond276 v1653 = 1#1), ∀ a, (k0_off828 i v3074) a + S1x1x512.size a ≤ S1024x200x512.size a := fun i v1653 v3074 k0_hw276 k0_h276 => k0_hw276 k0_h276

def k0_off829 (i : grid0.Coords) : Fin 1 → Nat :=
  let arg0 : BitVec 32 := BitVec.ofNat 32 (i 0).val
  let c256_i32 : BitVec 32 := 256#32
  let v0 : BitVec 32 := Scalar.muli arg0 c256_i32
  let c132_i32_684 : BitVec 32 := 132#32
  let v1657 : BitVec 32 := Scalar.addi v0 c132_i32_684
  let v1658 : Index := Scalar.indexCast v1657
  ![v1658.toNat]
def k0_off830 (i : grid0.Coords) : Fin 1 → Nat :=
  let arg0 : BitVec 32 := BitVec.ofNat 32 (i 0).val
  let c256_i32 : BitVec 32 := 256#32
  let v0 : BitVec 32 := Scalar.muli arg0 c256_i32
  let c132_i32_684 : BitVec 32 := 132#32
  let v1657 : BitVec 32 := Scalar.addi v0 c132_i32_684
  let v3073 : Index := Scalar.indexCast v1657
  ![v3073.toNat]
def k0_off831 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c132_i32_684 : BitVec 32 := 132#32
  let v1657 : BitVec 32 := Scalar.addi v0 c132_i32_684
  let c0_i32_1282 : BitVec 32 := 0#32
  ![v1657.toNat, v3074.toNat, 0]
def k0_cond277 (v1659 : BitVec 32) : BitVec 1 :=
  let c0_i32_685 : BitVec 32 := 0#32
  let v1660 : BitVec 1 := Scalar.cmpi .sgt v1659 c0_i32_685
  let v1661 : BitVec 32 := Scalar.extui v1660
  let c0_i32_686 : BitVec 32 := 0#32
  let v1662 : BitVec 1 := Scalar.cmpi .ne v1661 c0_i32_686
  v1662

def k0_chk277 (i : grid0.Coords) (v1659 : BitVec 32) (v3074 : BitVec 32) : Prop :=
  (∀ (k0_h277 : k0_cond277 v1659 = 1#1), ∀ a, (k0_off831 i v3074) a + S1x1x512.size a ≤ S1024x200x512.size a)
instance k0_chk277.dec : ∀ (i : grid0.Coords) (v1659 : BitVec 32) (v3074 : BitVec 32), Decidable (k0_chk277 i v1659 v3074) := fun i v1659 v3074 => decidable_of_iff' _ (Iff.of_eq (k0_chk277.eq_1 i v1659 v3074))
theorem k0_off831_inb : ∀ (i : grid0.Coords) (v1659 : BitVec 32) (v3074 : BitVec 32) (k0_hw277 : k0_chk277 i v1659 v3074), ∀ (k0_h277 : k0_cond277 v1659 = 1#1), ∀ a, (k0_off831 i v3074) a + S1x1x512.size a ≤ S1024x200x512.size a := fun i v1659 v3074 k0_hw277 k0_h277 => k0_hw277 k0_h277

def k0_off832 (i : grid0.Coords) : Fin 1 → Nat :=
  let arg0 : BitVec 32 := BitVec.ofNat 32 (i 0).val
  let c256_i32 : BitVec 32 := 256#32
  let v0 : BitVec 32 := Scalar.muli arg0 c256_i32
  let c133_i32_687 : BitVec 32 := 133#32
  let v1663 : BitVec 32 := Scalar.addi v0 c133_i32_687
  let v1664 : Index := Scalar.indexCast v1663
  ![v1664.toNat]
def k0_off833 (i : grid0.Coords) : Fin 1 → Nat :=
  let arg0 : BitVec 32 := BitVec.ofNat 32 (i 0).val
  let c256_i32 : BitVec 32 := 256#32
  let v0 : BitVec 32 := Scalar.muli arg0 c256_i32
  let c133_i32_687 : BitVec 32 := 133#32
  let v1663 : BitVec 32 := Scalar.addi v0 c133_i32_687
  let v3073 : Index := Scalar.indexCast v1663
  ![v3073.toNat]
def k0_off834 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c133_i32_687 : BitVec 32 := 133#32
  let v1663 : BitVec 32 := Scalar.addi v0 c133_i32_687
  let c0_i32_1282 : BitVec 32 := 0#32
  ![v1663.toNat, v3074.toNat, 0]
def k0_cond278 (v1665 : BitVec 32) : BitVec 1 :=
  let c0_i32_688 : BitVec 32 := 0#32
  let v1666 : BitVec 1 := Scalar.cmpi .sgt v1665 c0_i32_688
  let v1667 : BitVec 32 := Scalar.extui v1666
  let c0_i32_689 : BitVec 32 := 0#32
  let v1668 : BitVec 1 := Scalar.cmpi .ne v1667 c0_i32_689
  v1668

def k0_chk278 (i : grid0.Coords) (v1665 : BitVec 32) (v3074 : BitVec 32) : Prop :=
  (∀ (k0_h278 : k0_cond278 v1665 = 1#1), ∀ a, (k0_off834 i v3074) a + S1x1x512.size a ≤ S1024x200x512.size a)
instance k0_chk278.dec : ∀ (i : grid0.Coords) (v1665 : BitVec 32) (v3074 : BitVec 32), Decidable (k0_chk278 i v1665 v3074) := fun i v1665 v3074 => decidable_of_iff' _ (Iff.of_eq (k0_chk278.eq_1 i v1665 v3074))
theorem k0_off834_inb : ∀ (i : grid0.Coords) (v1665 : BitVec 32) (v3074 : BitVec 32) (k0_hw278 : k0_chk278 i v1665 v3074), ∀ (k0_h278 : k0_cond278 v1665 = 1#1), ∀ a, (k0_off834 i v3074) a + S1x1x512.size a ≤ S1024x200x512.size a := fun i v1665 v3074 k0_hw278 k0_h278 => k0_hw278 k0_h278

def k0_off835 (i : grid0.Coords) : Fin 1 → Nat :=
  let arg0 : BitVec 32 := BitVec.ofNat 32 (i 0).val
  let c256_i32 : BitVec 32 := 256#32
  let v0 : BitVec 32 := Scalar.muli arg0 c256_i32
  let c134_i32_690 : BitVec 32 := 134#32
  let v1669 : BitVec 32 := Scalar.addi v0 c134_i32_690
  let v1670 : Index := Scalar.indexCast v1669
  ![v1670.toNat]
def k0_off836 (i : grid0.Coords) : Fin 1 → Nat :=
  let arg0 : BitVec 32 := BitVec.ofNat 32 (i 0).val
  let c256_i32 : BitVec 32 := 256#32
  let v0 : BitVec 32 := Scalar.muli arg0 c256_i32
  let c134_i32_690 : BitVec 32 := 134#32
  let v1669 : BitVec 32 := Scalar.addi v0 c134_i32_690
  let v3073 : Index := Scalar.indexCast v1669
  ![v3073.toNat]
def k0_off837 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c134_i32_690 : BitVec 32 := 134#32
  let v1669 : BitVec 32 := Scalar.addi v0 c134_i32_690
  let c0_i32_1282 : BitVec 32 := 0#32
  ![v1669.toNat, v3074.toNat, 0]
def k0_cond279 (v1671 : BitVec 32) : BitVec 1 :=
  let c0_i32_691 : BitVec 32 := 0#32
  let v1672 : BitVec 1 := Scalar.cmpi .sgt v1671 c0_i32_691
  let v1673 : BitVec 32 := Scalar.extui v1672
  let c0_i32_692 : BitVec 32 := 0#32
  let v1674 : BitVec 1 := Scalar.cmpi .ne v1673 c0_i32_692
  v1674

def k0_chk279 (i : grid0.Coords) (v1671 : BitVec 32) (v3074 : BitVec 32) : Prop :=
  (∀ (k0_h279 : k0_cond279 v1671 = 1#1), ∀ a, (k0_off837 i v3074) a + S1x1x512.size a ≤ S1024x200x512.size a)
instance k0_chk279.dec : ∀ (i : grid0.Coords) (v1671 : BitVec 32) (v3074 : BitVec 32), Decidable (k0_chk279 i v1671 v3074) := fun i v1671 v3074 => decidable_of_iff' _ (Iff.of_eq (k0_chk279.eq_1 i v1671 v3074))
theorem k0_off837_inb : ∀ (i : grid0.Coords) (v1671 : BitVec 32) (v3074 : BitVec 32) (k0_hw279 : k0_chk279 i v1671 v3074), ∀ (k0_h279 : k0_cond279 v1671 = 1#1), ∀ a, (k0_off837 i v3074) a + S1x1x512.size a ≤ S1024x200x512.size a := fun i v1671 v3074 k0_hw279 k0_h279 => k0_hw279 k0_h279

def k0_off838 (i : grid0.Coords) : Fin 1 → Nat :=
  let arg0 : BitVec 32 := BitVec.ofNat 32 (i 0).val
  let c256_i32 : BitVec 32 := 256#32
  let v0 : BitVec 32 := Scalar.muli arg0 c256_i32
  let c135_i32_693 : BitVec 32 := 135#32
  let v1675 : BitVec 32 := Scalar.addi v0 c135_i32_693
  let v1676 : Index := Scalar.indexCast v1675
  ![v1676.toNat]
def k0_off839 (i : grid0.Coords) : Fin 1 → Nat :=
  let arg0 : BitVec 32 := BitVec.ofNat 32 (i 0).val
  let c256_i32 : BitVec 32 := 256#32
  let v0 : BitVec 32 := Scalar.muli arg0 c256_i32
  let c135_i32_693 : BitVec 32 := 135#32
  let v1675 : BitVec 32 := Scalar.addi v0 c135_i32_693
  let v3073 : Index := Scalar.indexCast v1675
  ![v3073.toNat]
def k0_off840 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c135_i32_693 : BitVec 32 := 135#32
  let v1675 : BitVec 32 := Scalar.addi v0 c135_i32_693
  let c0_i32_1282 : BitVec 32 := 0#32
  ![v1675.toNat, v3074.toNat, 0]
def k0_cond280 (v1677 : BitVec 32) : BitVec 1 :=
  let c0_i32_694 : BitVec 32 := 0#32
  let v1678 : BitVec 1 := Scalar.cmpi .sgt v1677 c0_i32_694
  let v1679 : BitVec 32 := Scalar.extui v1678
  let c0_i32_695 : BitVec 32 := 0#32
  let v1680 : BitVec 1 := Scalar.cmpi .ne v1679 c0_i32_695
  v1680

def k0_chk280 (i : grid0.Coords) (v1677 : BitVec 32) (v3074 : BitVec 32) : Prop :=
  (∀ (k0_h280 : k0_cond280 v1677 = 1#1), ∀ a, (k0_off840 i v3074) a + S1x1x512.size a ≤ S1024x200x512.size a)
instance k0_chk280.dec : ∀ (i : grid0.Coords) (v1677 : BitVec 32) (v3074 : BitVec 32), Decidable (k0_chk280 i v1677 v3074) := fun i v1677 v3074 => decidable_of_iff' _ (Iff.of_eq (k0_chk280.eq_1 i v1677 v3074))
theorem k0_off840_inb : ∀ (i : grid0.Coords) (v1677 : BitVec 32) (v3074 : BitVec 32) (k0_hw280 : k0_chk280 i v1677 v3074), ∀ (k0_h280 : k0_cond280 v1677 = 1#1), ∀ a, (k0_off840 i v3074) a + S1x1x512.size a ≤ S1024x200x512.size a := fun i v1677 v3074 k0_hw280 k0_h280 => k0_hw280 k0_h280

def k0_off841 (i : grid0.Coords) : Fin 1 → Nat :=
  let arg0 : BitVec 32 := BitVec.ofNat 32 (i 0).val
  let c256_i32 : BitVec 32 := 256#32
  let v0 : BitVec 32 := Scalar.muli arg0 c256_i32
  let c136_i32_696 : BitVec 32 := 136#32
  let v1681 : BitVec 32 := Scalar.addi v0 c136_i32_696
  let v1682 : Index := Scalar.indexCast v1681
  ![v1682.toNat]
def k0_off842 (i : grid0.Coords) : Fin 1 → Nat :=
  let arg0 : BitVec 32 := BitVec.ofNat 32 (i 0).val
  let c256_i32 : BitVec 32 := 256#32
  let v0 : BitVec 32 := Scalar.muli arg0 c256_i32
  let c136_i32_696 : BitVec 32 := 136#32
  let v1681 : BitVec 32 := Scalar.addi v0 c136_i32_696
  let v3073 : Index := Scalar.indexCast v1681
  ![v3073.toNat]
def k0_off843 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c136_i32_696 : BitVec 32 := 136#32
  let v1681 : BitVec 32 := Scalar.addi v0 c136_i32_696
  let c0_i32_1282 : BitVec 32 := 0#32
  ![v1681.toNat, v3074.toNat, 0]
def k0_cond281 (v1683 : BitVec 32) : BitVec 1 :=
  let c0_i32_697 : BitVec 32 := 0#32
  let v1684 : BitVec 1 := Scalar.cmpi .sgt v1683 c0_i32_697
  let v1685 : BitVec 32 := Scalar.extui v1684
  let c0_i32_698 : BitVec 32 := 0#32
  let v1686 : BitVec 1 := Scalar.cmpi .ne v1685 c0_i32_698
  v1686

def k0_chk281 (i : grid0.Coords) (v1683 : BitVec 32) (v3074 : BitVec 32) : Prop :=
  (∀ (k0_h281 : k0_cond281 v1683 = 1#1), ∀ a, (k0_off843 i v3074) a + S1x1x512.size a ≤ S1024x200x512.size a)
instance k0_chk281.dec : ∀ (i : grid0.Coords) (v1683 : BitVec 32) (v3074 : BitVec 32), Decidable (k0_chk281 i v1683 v3074) := fun i v1683 v3074 => decidable_of_iff' _ (Iff.of_eq (k0_chk281.eq_1 i v1683 v3074))
theorem k0_off843_inb : ∀ (i : grid0.Coords) (v1683 : BitVec 32) (v3074 : BitVec 32) (k0_hw281 : k0_chk281 i v1683 v3074), ∀ (k0_h281 : k0_cond281 v1683 = 1#1), ∀ a, (k0_off843 i v3074) a + S1x1x512.size a ≤ S1024x200x512.size a := fun i v1683 v3074 k0_hw281 k0_h281 => k0_hw281 k0_h281

def k0_off844 (i : grid0.Coords) : Fin 1 → Nat :=
  let arg0 : BitVec 32 := BitVec.ofNat 32 (i 0).val
  let c256_i32 : BitVec 32 := 256#32
  let v0 : BitVec 32 := Scalar.muli arg0 c256_i32
  let c137_i32_699 : BitVec 32 := 137#32
  let v1687 : BitVec 32 := Scalar.addi v0 c137_i32_699
  let v1688 : Index := Scalar.indexCast v1687
  ![v1688.toNat]
def k0_off845 (i : grid0.Coords) : Fin 1 → Nat :=
  let arg0 : BitVec 32 := BitVec.ofNat 32 (i 0).val
  let c256_i32 : BitVec 32 := 256#32
  let v0 : BitVec 32 := Scalar.muli arg0 c256_i32
  let c137_i32_699 : BitVec 32 := 137#32
  let v1687 : BitVec 32 := Scalar.addi v0 c137_i32_699
  let v3073 : Index := Scalar.indexCast v1687
  ![v3073.toNat]
def k0_off846 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c137_i32_699 : BitVec 32 := 137#32
  let v1687 : BitVec 32 := Scalar.addi v0 c137_i32_699
  let c0_i32_1282 : BitVec 32 := 0#32
  ![v1687.toNat, v3074.toNat, 0]
def k0_cond282 (v1689 : BitVec 32) : BitVec 1 :=
  let c0_i32_700 : BitVec 32 := 0#32
  let v1690 : BitVec 1 := Scalar.cmpi .sgt v1689 c0_i32_700
  let v1691 : BitVec 32 := Scalar.extui v1690
  let c0_i32_701 : BitVec 32 := 0#32
  let v1692 : BitVec 1 := Scalar.cmpi .ne v1691 c0_i32_701
  v1692

def k0_chk282 (i : grid0.Coords) (v1689 : BitVec 32) (v3074 : BitVec 32) : Prop :=
  (∀ (k0_h282 : k0_cond282 v1689 = 1#1), ∀ a, (k0_off846 i v3074) a + S1x1x512.size a ≤ S1024x200x512.size a)
instance k0_chk282.dec : ∀ (i : grid0.Coords) (v1689 : BitVec 32) (v3074 : BitVec 32), Decidable (k0_chk282 i v1689 v3074) := fun i v1689 v3074 => decidable_of_iff' _ (Iff.of_eq (k0_chk282.eq_1 i v1689 v3074))
theorem k0_off846_inb : ∀ (i : grid0.Coords) (v1689 : BitVec 32) (v3074 : BitVec 32) (k0_hw282 : k0_chk282 i v1689 v3074), ∀ (k0_h282 : k0_cond282 v1689 = 1#1), ∀ a, (k0_off846 i v3074) a + S1x1x512.size a ≤ S1024x200x512.size a := fun i v1689 v3074 k0_hw282 k0_h282 => k0_hw282 k0_h282

def k0_off847 (i : grid0.Coords) : Fin 1 → Nat :=
  let arg0 : BitVec 32 := BitVec.ofNat 32 (i 0).val
  let c256_i32 : BitVec 32 := 256#32
  let v0 : BitVec 32 := Scalar.muli arg0 c256_i32
  let c138_i32_702 : BitVec 32 := 138#32
  let v1693 : BitVec 32 := Scalar.addi v0 c138_i32_702
  let v1694 : Index := Scalar.indexCast v1693
  ![v1694.toNat]
def k0_off848 (i : grid0.Coords) : Fin 1 → Nat :=
  let arg0 : BitVec 32 := BitVec.ofNat 32 (i 0).val
  let c256_i32 : BitVec 32 := 256#32
  let v0 : BitVec 32 := Scalar.muli arg0 c256_i32
  let c138_i32_702 : BitVec 32 := 138#32
  let v1693 : BitVec 32 := Scalar.addi v0 c138_i32_702
  let v3073 : Index := Scalar.indexCast v1693
  ![v3073.toNat]
def k0_off849 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c138_i32_702 : BitVec 32 := 138#32
  let v1693 : BitVec 32 := Scalar.addi v0 c138_i32_702
  let c0_i32_1282 : BitVec 32 := 0#32
  ![v1693.toNat, v3074.toNat, 0]
def k0_cond283 (v1695 : BitVec 32) : BitVec 1 :=
  let c0_i32_703 : BitVec 32 := 0#32
  let v1696 : BitVec 1 := Scalar.cmpi .sgt v1695 c0_i32_703
  let v1697 : BitVec 32 := Scalar.extui v1696
  let c0_i32_704 : BitVec 32 := 0#32
  let v1698 : BitVec 1 := Scalar.cmpi .ne v1697 c0_i32_704
  v1698

def k0_chk283 (i : grid0.Coords) (v1695 : BitVec 32) (v3074 : BitVec 32) : Prop :=
  (∀ (k0_h283 : k0_cond283 v1695 = 1#1), ∀ a, (k0_off849 i v3074) a + S1x1x512.size a ≤ S1024x200x512.size a)
instance k0_chk283.dec : ∀ (i : grid0.Coords) (v1695 : BitVec 32) (v3074 : BitVec 32), Decidable (k0_chk283 i v1695 v3074) := fun i v1695 v3074 => decidable_of_iff' _ (Iff.of_eq (k0_chk283.eq_1 i v1695 v3074))
theorem k0_off849_inb : ∀ (i : grid0.Coords) (v1695 : BitVec 32) (v3074 : BitVec 32) (k0_hw283 : k0_chk283 i v1695 v3074), ∀ (k0_h283 : k0_cond283 v1695 = 1#1), ∀ a, (k0_off849 i v3074) a + S1x1x512.size a ≤ S1024x200x512.size a := fun i v1695 v3074 k0_hw283 k0_h283 => k0_hw283 k0_h283

def k0_off850 (i : grid0.Coords) : Fin 1 → Nat :=
  let arg0 : BitVec 32 := BitVec.ofNat 32 (i 0).val
  let c256_i32 : BitVec 32 := 256#32
  let v0 : BitVec 32 := Scalar.muli arg0 c256_i32
  let c139_i32_705 : BitVec 32 := 139#32
  let v1699 : BitVec 32 := Scalar.addi v0 c139_i32_705
  let v1700 : Index := Scalar.indexCast v1699
  ![v1700.toNat]
def k0_off851 (i : grid0.Coords) : Fin 1 → Nat :=
  let arg0 : BitVec 32 := BitVec.ofNat 32 (i 0).val
  let c256_i32 : BitVec 32 := 256#32
  let v0 : BitVec 32 := Scalar.muli arg0 c256_i32
  let c139_i32_705 : BitVec 32 := 139#32
  let v1699 : BitVec 32 := Scalar.addi v0 c139_i32_705
  let v3073 : Index := Scalar.indexCast v1699
  ![v3073.toNat]
def k0_off852 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c139_i32_705 : BitVec 32 := 139#32
  let v1699 : BitVec 32 := Scalar.addi v0 c139_i32_705
  let c0_i32_1282 : BitVec 32 := 0#32
  ![v1699.toNat, v3074.toNat, 0]
def k0_cond284 (v1701 : BitVec 32) : BitVec 1 :=
  let c0_i32_706 : BitVec 32 := 0#32
  let v1702 : BitVec 1 := Scalar.cmpi .sgt v1701 c0_i32_706
  let v1703 : BitVec 32 := Scalar.extui v1702
  let c0_i32_707 : BitVec 32 := 0#32
  let v1704 : BitVec 1 := Scalar.cmpi .ne v1703 c0_i32_707
  v1704

def k0_chk284 (i : grid0.Coords) (v1701 : BitVec 32) (v3074 : BitVec 32) : Prop :=
  (∀ (k0_h284 : k0_cond284 v1701 = 1#1), ∀ a, (k0_off852 i v3074) a + S1x1x512.size a ≤ S1024x200x512.size a)
instance k0_chk284.dec : ∀ (i : grid0.Coords) (v1701 : BitVec 32) (v3074 : BitVec 32), Decidable (k0_chk284 i v1701 v3074) := fun i v1701 v3074 => decidable_of_iff' _ (Iff.of_eq (k0_chk284.eq_1 i v1701 v3074))
theorem k0_off852_inb : ∀ (i : grid0.Coords) (v1701 : BitVec 32) (v3074 : BitVec 32) (k0_hw284 : k0_chk284 i v1701 v3074), ∀ (k0_h284 : k0_cond284 v1701 = 1#1), ∀ a, (k0_off852 i v3074) a + S1x1x512.size a ≤ S1024x200x512.size a := fun i v1701 v3074 k0_hw284 k0_h284 => k0_hw284 k0_h284

def k0_off853 (i : grid0.Coords) : Fin 1 → Nat :=
  let arg0 : BitVec 32 := BitVec.ofNat 32 (i 0).val
  let c256_i32 : BitVec 32 := 256#32
  let v0 : BitVec 32 := Scalar.muli arg0 c256_i32
  let c140_i32_708 : BitVec 32 := 140#32
  let v1705 : BitVec 32 := Scalar.addi v0 c140_i32_708
  let v1706 : Index := Scalar.indexCast v1705
  ![v1706.toNat]
def k0_off854 (i : grid0.Coords) : Fin 1 → Nat :=
  let arg0 : BitVec 32 := BitVec.ofNat 32 (i 0).val
  let c256_i32 : BitVec 32 := 256#32
  let v0 : BitVec 32 := Scalar.muli arg0 c256_i32
  let c140_i32_708 : BitVec 32 := 140#32
  let v1705 : BitVec 32 := Scalar.addi v0 c140_i32_708
  let v3073 : Index := Scalar.indexCast v1705
  ![v3073.toNat]
def k0_off855 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c140_i32_708 : BitVec 32 := 140#32
  let v1705 : BitVec 32 := Scalar.addi v0 c140_i32_708
  let c0_i32_1282 : BitVec 32 := 0#32
  ![v1705.toNat, v3074.toNat, 0]
def k0_cond285 (v1707 : BitVec 32) : BitVec 1 :=
  let c0_i32_709 : BitVec 32 := 0#32
  let v1708 : BitVec 1 := Scalar.cmpi .sgt v1707 c0_i32_709
  let v1709 : BitVec 32 := Scalar.extui v1708
  let c0_i32_710 : BitVec 32 := 0#32
  let v1710 : BitVec 1 := Scalar.cmpi .ne v1709 c0_i32_710
  v1710

def k0_chk285 (i : grid0.Coords) (v1707 : BitVec 32) (v3074 : BitVec 32) : Prop :=
  (∀ (k0_h285 : k0_cond285 v1707 = 1#1), ∀ a, (k0_off855 i v3074) a + S1x1x512.size a ≤ S1024x200x512.size a)
instance k0_chk285.dec : ∀ (i : grid0.Coords) (v1707 : BitVec 32) (v3074 : BitVec 32), Decidable (k0_chk285 i v1707 v3074) := fun i v1707 v3074 => decidable_of_iff' _ (Iff.of_eq (k0_chk285.eq_1 i v1707 v3074))
theorem k0_off855_inb : ∀ (i : grid0.Coords) (v1707 : BitVec 32) (v3074 : BitVec 32) (k0_hw285 : k0_chk285 i v1707 v3074), ∀ (k0_h285 : k0_cond285 v1707 = 1#1), ∀ a, (k0_off855 i v3074) a + S1x1x512.size a ≤ S1024x200x512.size a := fun i v1707 v3074 k0_hw285 k0_h285 => k0_hw285 k0_h285

def k0_off856 (i : grid0.Coords) : Fin 1 → Nat :=
  let arg0 : BitVec 32 := BitVec.ofNat 32 (i 0).val
  let c256_i32 : BitVec 32 := 256#32
  let v0 : BitVec 32 := Scalar.muli arg0 c256_i32
  let c141_i32_711 : BitVec 32 := 141#32
  let v1711 : BitVec 32 := Scalar.addi v0 c141_i32_711
  let v1712 : Index := Scalar.indexCast v1711
  ![v1712.toNat]
def k0_off857 (i : grid0.Coords) : Fin 1 → Nat :=
  let arg0 : BitVec 32 := BitVec.ofNat 32 (i 0).val
  let c256_i32 : BitVec 32 := 256#32
  let v0 : BitVec 32 := Scalar.muli arg0 c256_i32
  let c141_i32_711 : BitVec 32 := 141#32
  let v1711 : BitVec 32 := Scalar.addi v0 c141_i32_711
  let v3073 : Index := Scalar.indexCast v1711
  ![v3073.toNat]
def k0_off858 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c141_i32_711 : BitVec 32 := 141#32
  let v1711 : BitVec 32 := Scalar.addi v0 c141_i32_711
  let c0_i32_1282 : BitVec 32 := 0#32
  ![v1711.toNat, v3074.toNat, 0]
def k0_cond286 (v1713 : BitVec 32) : BitVec 1 :=
  let c0_i32_712 : BitVec 32 := 0#32
  let v1714 : BitVec 1 := Scalar.cmpi .sgt v1713 c0_i32_712
  let v1715 : BitVec 32 := Scalar.extui v1714
  let c0_i32_713 : BitVec 32 := 0#32
  let v1716 : BitVec 1 := Scalar.cmpi .ne v1715 c0_i32_713
  v1716

def k0_chk286 (i : grid0.Coords) (v1713 : BitVec 32) (v3074 : BitVec 32) : Prop :=
  (∀ (k0_h286 : k0_cond286 v1713 = 1#1), ∀ a, (k0_off858 i v3074) a + S1x1x512.size a ≤ S1024x200x512.size a)
instance k0_chk286.dec : ∀ (i : grid0.Coords) (v1713 : BitVec 32) (v3074 : BitVec 32), Decidable (k0_chk286 i v1713 v3074) := fun i v1713 v3074 => decidable_of_iff' _ (Iff.of_eq (k0_chk286.eq_1 i v1713 v3074))
theorem k0_off858_inb : ∀ (i : grid0.Coords) (v1713 : BitVec 32) (v3074 : BitVec 32) (k0_hw286 : k0_chk286 i v1713 v3074), ∀ (k0_h286 : k0_cond286 v1713 = 1#1), ∀ a, (k0_off858 i v3074) a + S1x1x512.size a ≤ S1024x200x512.size a := fun i v1713 v3074 k0_hw286 k0_h286 => k0_hw286 k0_h286

def k0_off859 (i : grid0.Coords) : Fin 1 → Nat :=
  let arg0 : BitVec 32 := BitVec.ofNat 32 (i 0).val
  let c256_i32 : BitVec 32 := 256#32
  let v0 : BitVec 32 := Scalar.muli arg0 c256_i32
  let c142_i32_714 : BitVec 32 := 142#32
  let v1717 : BitVec 32 := Scalar.addi v0 c142_i32_714
  let v1718 : Index := Scalar.indexCast v1717
  ![v1718.toNat]
def k0_off860 (i : grid0.Coords) : Fin 1 → Nat :=
  let arg0 : BitVec 32 := BitVec.ofNat 32 (i 0).val
  let c256_i32 : BitVec 32 := 256#32
  let v0 : BitVec 32 := Scalar.muli arg0 c256_i32
  let c142_i32_714 : BitVec 32 := 142#32
  let v1717 : BitVec 32 := Scalar.addi v0 c142_i32_714
  let v3073 : Index := Scalar.indexCast v1717
  ![v3073.toNat]
def k0_off861 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c142_i32_714 : BitVec 32 := 142#32
  let v1717 : BitVec 32 := Scalar.addi v0 c142_i32_714
  let c0_i32_1282 : BitVec 32 := 0#32
  ![v1717.toNat, v3074.toNat, 0]
def k0_cond287 (v1719 : BitVec 32) : BitVec 1 :=
  let c0_i32_715 : BitVec 32 := 0#32
  let v1720 : BitVec 1 := Scalar.cmpi .sgt v1719 c0_i32_715
  let v1721 : BitVec 32 := Scalar.extui v1720
  let c0_i32_716 : BitVec 32 := 0#32
  let v1722 : BitVec 1 := Scalar.cmpi .ne v1721 c0_i32_716
  v1722

def k0_chk287 (i : grid0.Coords) (v1719 : BitVec 32) (v3074 : BitVec 32) : Prop :=
  (∀ (k0_h287 : k0_cond287 v1719 = 1#1), ∀ a, (k0_off861 i v3074) a + S1x1x512.size a ≤ S1024x200x512.size a)
instance k0_chk287.dec : ∀ (i : grid0.Coords) (v1719 : BitVec 32) (v3074 : BitVec 32), Decidable (k0_chk287 i v1719 v3074) := fun i v1719 v3074 => decidable_of_iff' _ (Iff.of_eq (k0_chk287.eq_1 i v1719 v3074))
theorem k0_off861_inb : ∀ (i : grid0.Coords) (v1719 : BitVec 32) (v3074 : BitVec 32) (k0_hw287 : k0_chk287 i v1719 v3074), ∀ (k0_h287 : k0_cond287 v1719 = 1#1), ∀ a, (k0_off861 i v3074) a + S1x1x512.size a ≤ S1024x200x512.size a := fun i v1719 v3074 k0_hw287 k0_h287 => k0_hw287 k0_h287

def k0_off862 (i : grid0.Coords) : Fin 1 → Nat :=
  let arg0 : BitVec 32 := BitVec.ofNat 32 (i 0).val
  let c256_i32 : BitVec 32 := 256#32
  let v0 : BitVec 32 := Scalar.muli arg0 c256_i32
  let c143_i32_717 : BitVec 32 := 143#32
  let v1723 : BitVec 32 := Scalar.addi v0 c143_i32_717
  let v1724 : Index := Scalar.indexCast v1723
  ![v1724.toNat]
def k0_off863 (i : grid0.Coords) : Fin 1 → Nat :=
  let arg0 : BitVec 32 := BitVec.ofNat 32 (i 0).val
  let c256_i32 : BitVec 32 := 256#32
  let v0 : BitVec 32 := Scalar.muli arg0 c256_i32
  let c143_i32_717 : BitVec 32 := 143#32
  let v1723 : BitVec 32 := Scalar.addi v0 c143_i32_717
  let v3073 : Index := Scalar.indexCast v1723
  ![v3073.toNat]
def k0_off864 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c143_i32_717 : BitVec 32 := 143#32
  let v1723 : BitVec 32 := Scalar.addi v0 c143_i32_717
  let c0_i32_1282 : BitVec 32 := 0#32
  ![v1723.toNat, v3074.toNat, 0]
def k0_cond288 (v1725 : BitVec 32) : BitVec 1 :=
  let c0_i32_718 : BitVec 32 := 0#32
  let v1726 : BitVec 1 := Scalar.cmpi .sgt v1725 c0_i32_718
  let v1727 : BitVec 32 := Scalar.extui v1726
  let c0_i32_719 : BitVec 32 := 0#32
  let v1728 : BitVec 1 := Scalar.cmpi .ne v1727 c0_i32_719
  v1728

def k0_chk288 (i : grid0.Coords) (v1725 : BitVec 32) (v3074 : BitVec 32) : Prop :=
  (∀ (k0_h288 : k0_cond288 v1725 = 1#1), ∀ a, (k0_off864 i v3074) a + S1x1x512.size a ≤ S1024x200x512.size a)
instance k0_chk288.dec : ∀ (i : grid0.Coords) (v1725 : BitVec 32) (v3074 : BitVec 32), Decidable (k0_chk288 i v1725 v3074) := fun i v1725 v3074 => decidable_of_iff' _ (Iff.of_eq (k0_chk288.eq_1 i v1725 v3074))
theorem k0_off864_inb : ∀ (i : grid0.Coords) (v1725 : BitVec 32) (v3074 : BitVec 32) (k0_hw288 : k0_chk288 i v1725 v3074), ∀ (k0_h288 : k0_cond288 v1725 = 1#1), ∀ a, (k0_off864 i v3074) a + S1x1x512.size a ≤ S1024x200x512.size a := fun i v1725 v3074 k0_hw288 k0_h288 => k0_hw288 k0_h288

def k0_off865 (i : grid0.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v1729 : BitVec 32 := Scalar.addi v0 c144_i32
  let v1730 : Index := Scalar.indexCast v1729
  ![v1730.toNat]
def k0_off866 (i : grid0.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v1729 : BitVec 32 := Scalar.addi v0 c144_i32
  let v3073 : Index := Scalar.indexCast v1729
  ![v3073.toNat]
def k0_off867 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c144_i32 : BitVec 32 := 144#32
  let v1729 : BitVec 32 := Scalar.addi v0 c144_i32
  let c0_i32_1287 : BitVec 32 := 0#32
  ![v1729.toNat, v3074.toNat, 0]
def k0_cond289 (v1731 : BitVec 32) : BitVec 1 :=
  let c0_i32_720 : BitVec 32 := 0#32
  let v1732 : BitVec 1 := Scalar.cmpi .sgt v1731 c0_i32_720
  let v1733 : BitVec 32 := Scalar.extui v1732
  let c0_i32_721 : BitVec 32 := 0#32
  let v1734 : BitVec 1 := Scalar.cmpi .ne v1733 c0_i32_721
  v1734

def k0_chk289 (i : grid0.Coords) (v1731 : BitVec 32) (v3074 : BitVec 32) : Prop :=
  (∀ (k0_h289 : k0_cond289 v1731 = 1#1), ∀ a, (k0_off867 i v3074) a + S1x1x512.size a ≤ S1024x200x512.size a)
instance k0_chk289.dec : ∀ (i : grid0.Coords) (v1731 : BitVec 32) (v3074 : BitVec 32), Decidable (k0_chk289 i v1731 v3074) := fun i v1731 v3074 => decidable_of_iff' _ (Iff.of_eq (k0_chk289.eq_1 i v1731 v3074))
theorem k0_off867_inb : ∀ (i : grid0.Coords) (v1731 : BitVec 32) (v3074 : BitVec 32) (k0_hw289 : k0_chk289 i v1731 v3074), ∀ (k0_h289 : k0_cond289 v1731 = 1#1), ∀ a, (k0_off867 i v3074) a + S1x1x512.size a ≤ S1024x200x512.size a := fun i v1731 v3074 k0_hw289 k0_h289 => k0_hw289 k0_h289

def k0_off868 (i : grid0.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v1735 : BitVec 32 := Scalar.addi v0 c145_i32
  let v1736 : Index := Scalar.indexCast v1735
  ![v1736.toNat]
def k0_off869 (i : grid0.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v1735 : BitVec 32 := Scalar.addi v0 c145_i32
  let v3073 : Index := Scalar.indexCast v1735
  ![v3073.toNat]
def k0_off870 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c145_i32 : BitVec 32 := 145#32
  let v1735 : BitVec 32 := Scalar.addi v0 c145_i32
  let c0_i32_1287 : BitVec 32 := 0#32
  ![v1735.toNat, v3074.toNat, 0]
def k0_cond290 (v1737 : BitVec 32) : BitVec 1 :=
  let c0_i32_722 : BitVec 32 := 0#32
  let v1738 : BitVec 1 := Scalar.cmpi .sgt v1737 c0_i32_722
  let v1739 : BitVec 32 := Scalar.extui v1738
  let c0_i32_723 : BitVec 32 := 0#32
  let v1740 : BitVec 1 := Scalar.cmpi .ne v1739 c0_i32_723
  v1740

def k0_chk290 (i : grid0.Coords) (v1737 : BitVec 32) (v3074 : BitVec 32) : Prop :=
  (∀ (k0_h290 : k0_cond290 v1737 = 1#1), ∀ a, (k0_off870 i v3074) a + S1x1x512.size a ≤ S1024x200x512.size a)
instance k0_chk290.dec : ∀ (i : grid0.Coords) (v1737 : BitVec 32) (v3074 : BitVec 32), Decidable (k0_chk290 i v1737 v3074) := fun i v1737 v3074 => decidable_of_iff' _ (Iff.of_eq (k0_chk290.eq_1 i v1737 v3074))
theorem k0_off870_inb : ∀ (i : grid0.Coords) (v1737 : BitVec 32) (v3074 : BitVec 32) (k0_hw290 : k0_chk290 i v1737 v3074), ∀ (k0_h290 : k0_cond290 v1737 = 1#1), ∀ a, (k0_off870 i v3074) a + S1x1x512.size a ≤ S1024x200x512.size a := fun i v1737 v3074 k0_hw290 k0_h290 => k0_hw290 k0_h290

def k0_off871 (i : grid0.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v1741 : BitVec 32 := Scalar.addi v0 c146_i32
  let v1742 : Index := Scalar.indexCast v1741
  ![v1742.toNat]
def k0_off872 (i : grid0.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v1741 : BitVec 32 := Scalar.addi v0 c146_i32
  let v3073 : Index := Scalar.indexCast v1741
  ![v3073.toNat]
def k0_off873 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c146_i32 : BitVec 32 := 146#32
  let v1741 : BitVec 32 := Scalar.addi v0 c146_i32
  let c0_i32_1287 : BitVec 32 := 0#32
  ![v1741.toNat, v3074.toNat, 0]
def k0_cond291 (v1743 : BitVec 32) : BitVec 1 :=
  let c0_i32_724 : BitVec 32 := 0#32
  let v1744 : BitVec 1 := Scalar.cmpi .sgt v1743 c0_i32_724
  let v1745 : BitVec 32 := Scalar.extui v1744
  let c0_i32_725 : BitVec 32 := 0#32
  let v1746 : BitVec 1 := Scalar.cmpi .ne v1745 c0_i32_725
  v1746

def k0_chk291 (i : grid0.Coords) (v1743 : BitVec 32) (v3074 : BitVec 32) : Prop :=
  (∀ (k0_h291 : k0_cond291 v1743 = 1#1), ∀ a, (k0_off873 i v3074) a + S1x1x512.size a ≤ S1024x200x512.size a)
instance k0_chk291.dec : ∀ (i : grid0.Coords) (v1743 : BitVec 32) (v3074 : BitVec 32), Decidable (k0_chk291 i v1743 v3074) := fun i v1743 v3074 => decidable_of_iff' _ (Iff.of_eq (k0_chk291.eq_1 i v1743 v3074))
theorem k0_off873_inb : ∀ (i : grid0.Coords) (v1743 : BitVec 32) (v3074 : BitVec 32) (k0_hw291 : k0_chk291 i v1743 v3074), ∀ (k0_h291 : k0_cond291 v1743 = 1#1), ∀ a, (k0_off873 i v3074) a + S1x1x512.size a ≤ S1024x200x512.size a := fun i v1743 v3074 k0_hw291 k0_h291 => k0_hw291 k0_h291

def k0_off874 (i : grid0.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v1747 : BitVec 32 := Scalar.addi v0 c147_i32
  let v1748 : Index := Scalar.indexCast v1747
  ![v1748.toNat]
def k0_off875 (i : grid0.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v1747 : BitVec 32 := Scalar.addi v0 c147_i32
  let v3073 : Index := Scalar.indexCast v1747
  ![v3073.toNat]
def k0_off876 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c147_i32 : BitVec 32 := 147#32
  let v1747 : BitVec 32 := Scalar.addi v0 c147_i32
  let c0_i32_1287 : BitVec 32 := 0#32
  ![v1747.toNat, v3074.toNat, 0]
def k0_cond292 (v1749 : BitVec 32) : BitVec 1 :=
  let c0_i32_726 : BitVec 32 := 0#32
  let v1750 : BitVec 1 := Scalar.cmpi .sgt v1749 c0_i32_726
  let v1751 : BitVec 32 := Scalar.extui v1750
  let c0_i32_727 : BitVec 32 := 0#32
  let v1752 : BitVec 1 := Scalar.cmpi .ne v1751 c0_i32_727
  v1752

def k0_chk292 (i : grid0.Coords) (v1749 : BitVec 32) (v3074 : BitVec 32) : Prop :=
  (∀ (k0_h292 : k0_cond292 v1749 = 1#1), ∀ a, (k0_off876 i v3074) a + S1x1x512.size a ≤ S1024x200x512.size a)
instance k0_chk292.dec : ∀ (i : grid0.Coords) (v1749 : BitVec 32) (v3074 : BitVec 32), Decidable (k0_chk292 i v1749 v3074) := fun i v1749 v3074 => decidable_of_iff' _ (Iff.of_eq (k0_chk292.eq_1 i v1749 v3074))
theorem k0_off876_inb : ∀ (i : grid0.Coords) (v1749 : BitVec 32) (v3074 : BitVec 32) (k0_hw292 : k0_chk292 i v1749 v3074), ∀ (k0_h292 : k0_cond292 v1749 = 1#1), ∀ a, (k0_off876 i v3074) a + S1x1x512.size a ≤ S1024x200x512.size a := fun i v1749 v3074 k0_hw292 k0_h292 => k0_hw292 k0_h292

def k0_off877 (i : grid0.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v1753 : BitVec 32 := Scalar.addi v0 c148_i32
  let v1754 : Index := Scalar.indexCast v1753
  ![v1754.toNat]
def k0_off878 (i : grid0.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v1753 : BitVec 32 := Scalar.addi v0 c148_i32
  let v3073 : Index := Scalar.indexCast v1753
  ![v3073.toNat]
def k0_off879 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c148_i32 : BitVec 32 := 148#32
  let v1753 : BitVec 32 := Scalar.addi v0 c148_i32
  let c0_i32_1287 : BitVec 32 := 0#32
  ![v1753.toNat, v3074.toNat, 0]
def k0_cond293 (v1755 : BitVec 32) : BitVec 1 :=
  let c0_i32_728 : BitVec 32 := 0#32
  let v1756 : BitVec 1 := Scalar.cmpi .sgt v1755 c0_i32_728
  let v1757 : BitVec 32 := Scalar.extui v1756
  let c0_i32_729 : BitVec 32 := 0#32
  let v1758 : BitVec 1 := Scalar.cmpi .ne v1757 c0_i32_729
  v1758

def k0_chk293 (i : grid0.Coords) (v1755 : BitVec 32) (v3074 : BitVec 32) : Prop :=
  (∀ (k0_h293 : k0_cond293 v1755 = 1#1), ∀ a, (k0_off879 i v3074) a + S1x1x512.size a ≤ S1024x200x512.size a)
instance k0_chk293.dec : ∀ (i : grid0.Coords) (v1755 : BitVec 32) (v3074 : BitVec 32), Decidable (k0_chk293 i v1755 v3074) := fun i v1755 v3074 => decidable_of_iff' _ (Iff.of_eq (k0_chk293.eq_1 i v1755 v3074))
theorem k0_off879_inb : ∀ (i : grid0.Coords) (v1755 : BitVec 32) (v3074 : BitVec 32) (k0_hw293 : k0_chk293 i v1755 v3074), ∀ (k0_h293 : k0_cond293 v1755 = 1#1), ∀ a, (k0_off879 i v3074) a + S1x1x512.size a ≤ S1024x200x512.size a := fun i v1755 v3074 k0_hw293 k0_h293 => k0_hw293 k0_h293

def k0_off880 (i : grid0.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v1759 : BitVec 32 := Scalar.addi v0 c149_i32
  let v1760 : Index := Scalar.indexCast v1759
  ![v1760.toNat]
def k0_off881 (i : grid0.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v1759 : BitVec 32 := Scalar.addi v0 c149_i32
  let v3073 : Index := Scalar.indexCast v1759
  ![v3073.toNat]
def k0_off882 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c149_i32 : BitVec 32 := 149#32
  let v1759 : BitVec 32 := Scalar.addi v0 c149_i32
  let c0_i32_1287 : BitVec 32 := 0#32
  ![v1759.toNat, v3074.toNat, 0]
def k0_cond294 (v1761 : BitVec 32) : BitVec 1 :=
  let c0_i32_730 : BitVec 32 := 0#32
  let v1762 : BitVec 1 := Scalar.cmpi .sgt v1761 c0_i32_730
  let v1763 : BitVec 32 := Scalar.extui v1762
  let c0_i32_731 : BitVec 32 := 0#32
  let v1764 : BitVec 1 := Scalar.cmpi .ne v1763 c0_i32_731
  v1764

def k0_chk294 (i : grid0.Coords) (v1761 : BitVec 32) (v3074 : BitVec 32) : Prop :=
  (∀ (k0_h294 : k0_cond294 v1761 = 1#1), ∀ a, (k0_off882 i v3074) a + S1x1x512.size a ≤ S1024x200x512.size a)
instance k0_chk294.dec : ∀ (i : grid0.Coords) (v1761 : BitVec 32) (v3074 : BitVec 32), Decidable (k0_chk294 i v1761 v3074) := fun i v1761 v3074 => decidable_of_iff' _ (Iff.of_eq (k0_chk294.eq_1 i v1761 v3074))
theorem k0_off882_inb : ∀ (i : grid0.Coords) (v1761 : BitVec 32) (v3074 : BitVec 32) (k0_hw294 : k0_chk294 i v1761 v3074), ∀ (k0_h294 : k0_cond294 v1761 = 1#1), ∀ a, (k0_off882 i v3074) a + S1x1x512.size a ≤ S1024x200x512.size a := fun i v1761 v3074 k0_hw294 k0_h294 => k0_hw294 k0_h294

def k0_off883 (i : grid0.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v1765 : BitVec 32 := Scalar.addi v0 c150_i32
  let v1766 : Index := Scalar.indexCast v1765
  ![v1766.toNat]
def k0_off884 (i : grid0.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v1765 : BitVec 32 := Scalar.addi v0 c150_i32
  let v3073 : Index := Scalar.indexCast v1765
  ![v3073.toNat]
def k0_off885 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c150_i32 : BitVec 32 := 150#32
  let v1765 : BitVec 32 := Scalar.addi v0 c150_i32
  let c0_i32_1287 : BitVec 32 := 0#32
  ![v1765.toNat, v3074.toNat, 0]
def k0_cond295 (v1767 : BitVec 32) : BitVec 1 :=
  let c0_i32_732 : BitVec 32 := 0#32
  let v1768 : BitVec 1 := Scalar.cmpi .sgt v1767 c0_i32_732
  let v1769 : BitVec 32 := Scalar.extui v1768
  let c0_i32_733 : BitVec 32 := 0#32
  let v1770 : BitVec 1 := Scalar.cmpi .ne v1769 c0_i32_733
  v1770

def k0_chk295 (i : grid0.Coords) (v1767 : BitVec 32) (v3074 : BitVec 32) : Prop :=
  (∀ (k0_h295 : k0_cond295 v1767 = 1#1), ∀ a, (k0_off885 i v3074) a + S1x1x512.size a ≤ S1024x200x512.size a)
instance k0_chk295.dec : ∀ (i : grid0.Coords) (v1767 : BitVec 32) (v3074 : BitVec 32), Decidable (k0_chk295 i v1767 v3074) := fun i v1767 v3074 => decidable_of_iff' _ (Iff.of_eq (k0_chk295.eq_1 i v1767 v3074))
theorem k0_off885_inb : ∀ (i : grid0.Coords) (v1767 : BitVec 32) (v3074 : BitVec 32) (k0_hw295 : k0_chk295 i v1767 v3074), ∀ (k0_h295 : k0_cond295 v1767 = 1#1), ∀ a, (k0_off885 i v3074) a + S1x1x512.size a ≤ S1024x200x512.size a := fun i v1767 v3074 k0_hw295 k0_h295 => k0_hw295 k0_h295

def k0_off886 (i : grid0.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v1771 : BitVec 32 := Scalar.addi v0 c151_i32
  let v1772 : Index := Scalar.indexCast v1771
  ![v1772.toNat]
def k0_off887 (i : grid0.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v1771 : BitVec 32 := Scalar.addi v0 c151_i32
  let v3073 : Index := Scalar.indexCast v1771
  ![v3073.toNat]
def k0_off888 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c151_i32 : BitVec 32 := 151#32
  let v1771 : BitVec 32 := Scalar.addi v0 c151_i32
  let c0_i32_1287 : BitVec 32 := 0#32
  ![v1771.toNat, v3074.toNat, 0]
def k0_cond296 (v1773 : BitVec 32) : BitVec 1 :=
  let c0_i32_734 : BitVec 32 := 0#32
  let v1774 : BitVec 1 := Scalar.cmpi .sgt v1773 c0_i32_734
  let v1775 : BitVec 32 := Scalar.extui v1774
  let c0_i32_735 : BitVec 32 := 0#32
  let v1776 : BitVec 1 := Scalar.cmpi .ne v1775 c0_i32_735
  v1776

def k0_chk296 (i : grid0.Coords) (v1773 : BitVec 32) (v3074 : BitVec 32) : Prop :=
  (∀ (k0_h296 : k0_cond296 v1773 = 1#1), ∀ a, (k0_off888 i v3074) a + S1x1x512.size a ≤ S1024x200x512.size a)
instance k0_chk296.dec : ∀ (i : grid0.Coords) (v1773 : BitVec 32) (v3074 : BitVec 32), Decidable (k0_chk296 i v1773 v3074) := fun i v1773 v3074 => decidable_of_iff' _ (Iff.of_eq (k0_chk296.eq_1 i v1773 v3074))
theorem k0_off888_inb : ∀ (i : grid0.Coords) (v1773 : BitVec 32) (v3074 : BitVec 32) (k0_hw296 : k0_chk296 i v1773 v3074), ∀ (k0_h296 : k0_cond296 v1773 = 1#1), ∀ a, (k0_off888 i v3074) a + S1x1x512.size a ≤ S1024x200x512.size a := fun i v1773 v3074 k0_hw296 k0_h296 => k0_hw296 k0_h296

def k0_off889 (i : grid0.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v1777 : BitVec 32 := Scalar.addi v0 c152_i32
  let v1778 : Index := Scalar.indexCast v1777
  ![v1778.toNat]
def k0_off890 (i : grid0.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v1777 : BitVec 32 := Scalar.addi v0 c152_i32
  let v3073 : Index := Scalar.indexCast v1777
  ![v3073.toNat]
def k0_off891 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c152_i32 : BitVec 32 := 152#32
  let v1777 : BitVec 32 := Scalar.addi v0 c152_i32
  let c0_i32_1287 : BitVec 32 := 0#32
  ![v1777.toNat, v3074.toNat, 0]
def k0_cond297 (v1779 : BitVec 32) : BitVec 1 :=
  let c0_i32_736 : BitVec 32 := 0#32
  let v1780 : BitVec 1 := Scalar.cmpi .sgt v1779 c0_i32_736
  let v1781 : BitVec 32 := Scalar.extui v1780
  let c0_i32_737 : BitVec 32 := 0#32
  let v1782 : BitVec 1 := Scalar.cmpi .ne v1781 c0_i32_737
  v1782

def k0_chk297 (i : grid0.Coords) (v1779 : BitVec 32) (v3074 : BitVec 32) : Prop :=
  (∀ (k0_h297 : k0_cond297 v1779 = 1#1), ∀ a, (k0_off891 i v3074) a + S1x1x512.size a ≤ S1024x200x512.size a)
instance k0_chk297.dec : ∀ (i : grid0.Coords) (v1779 : BitVec 32) (v3074 : BitVec 32), Decidable (k0_chk297 i v1779 v3074) := fun i v1779 v3074 => decidable_of_iff' _ (Iff.of_eq (k0_chk297.eq_1 i v1779 v3074))
theorem k0_off891_inb : ∀ (i : grid0.Coords) (v1779 : BitVec 32) (v3074 : BitVec 32) (k0_hw297 : k0_chk297 i v1779 v3074), ∀ (k0_h297 : k0_cond297 v1779 = 1#1), ∀ a, (k0_off891 i v3074) a + S1x1x512.size a ≤ S1024x200x512.size a := fun i v1779 v3074 k0_hw297 k0_h297 => k0_hw297 k0_h297

def k0_off892 (i : grid0.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v1783 : BitVec 32 := Scalar.addi v0 c153_i32
  let v1784 : Index := Scalar.indexCast v1783
  ![v1784.toNat]
def k0_off893 (i : grid0.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v1783 : BitVec 32 := Scalar.addi v0 c153_i32
  let v3073 : Index := Scalar.indexCast v1783
  ![v3073.toNat]
def k0_off894 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c153_i32 : BitVec 32 := 153#32
  let v1783 : BitVec 32 := Scalar.addi v0 c153_i32
  let c0_i32_1287 : BitVec 32 := 0#32
  ![v1783.toNat, v3074.toNat, 0]
def k0_cond298 (v1785 : BitVec 32) : BitVec 1 :=
  let c0_i32_738 : BitVec 32 := 0#32
  let v1786 : BitVec 1 := Scalar.cmpi .sgt v1785 c0_i32_738
  let v1787 : BitVec 32 := Scalar.extui v1786
  let c0_i32_739 : BitVec 32 := 0#32
  let v1788 : BitVec 1 := Scalar.cmpi .ne v1787 c0_i32_739
  v1788

def k0_chk298 (i : grid0.Coords) (v1785 : BitVec 32) (v3074 : BitVec 32) : Prop :=
  (∀ (k0_h298 : k0_cond298 v1785 = 1#1), ∀ a, (k0_off894 i v3074) a + S1x1x512.size a ≤ S1024x200x512.size a)
instance k0_chk298.dec : ∀ (i : grid0.Coords) (v1785 : BitVec 32) (v3074 : BitVec 32), Decidable (k0_chk298 i v1785 v3074) := fun i v1785 v3074 => decidable_of_iff' _ (Iff.of_eq (k0_chk298.eq_1 i v1785 v3074))
theorem k0_off894_inb : ∀ (i : grid0.Coords) (v1785 : BitVec 32) (v3074 : BitVec 32) (k0_hw298 : k0_chk298 i v1785 v3074), ∀ (k0_h298 : k0_cond298 v1785 = 1#1), ∀ a, (k0_off894 i v3074) a + S1x1x512.size a ≤ S1024x200x512.size a := fun i v1785 v3074 k0_hw298 k0_h298 => k0_hw298 k0_h298

def k0_off895 (i : grid0.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v1789 : BitVec 32 := Scalar.addi v0 c154_i32
  let v1790 : Index := Scalar.indexCast v1789
  ![v1790.toNat]
def k0_off896 (i : grid0.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v1789 : BitVec 32 := Scalar.addi v0 c154_i32
  let v3073 : Index := Scalar.indexCast v1789
  ![v3073.toNat]
def k0_off897 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c154_i32 : BitVec 32 := 154#32
  let v1789 : BitVec 32 := Scalar.addi v0 c154_i32
  let c0_i32_1287 : BitVec 32 := 0#32
  ![v1789.toNat, v3074.toNat, 0]
def k0_cond299 (v1791 : BitVec 32) : BitVec 1 :=
  let c0_i32_740 : BitVec 32 := 0#32
  let v1792 : BitVec 1 := Scalar.cmpi .sgt v1791 c0_i32_740
  let v1793 : BitVec 32 := Scalar.extui v1792
  let c0_i32_741 : BitVec 32 := 0#32
  let v1794 : BitVec 1 := Scalar.cmpi .ne v1793 c0_i32_741
  v1794

def k0_chk299 (i : grid0.Coords) (v1791 : BitVec 32) (v3074 : BitVec 32) : Prop :=
  (∀ (k0_h299 : k0_cond299 v1791 = 1#1), ∀ a, (k0_off897 i v3074) a + S1x1x512.size a ≤ S1024x200x512.size a)
instance k0_chk299.dec : ∀ (i : grid0.Coords) (v1791 : BitVec 32) (v3074 : BitVec 32), Decidable (k0_chk299 i v1791 v3074) := fun i v1791 v3074 => decidable_of_iff' _ (Iff.of_eq (k0_chk299.eq_1 i v1791 v3074))
theorem k0_off897_inb : ∀ (i : grid0.Coords) (v1791 : BitVec 32) (v3074 : BitVec 32) (k0_hw299 : k0_chk299 i v1791 v3074), ∀ (k0_h299 : k0_cond299 v1791 = 1#1), ∀ a, (k0_off897 i v3074) a + S1x1x512.size a ≤ S1024x200x512.size a := fun i v1791 v3074 k0_hw299 k0_h299 => k0_hw299 k0_h299

def k0_off898 (i : grid0.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v1795 : BitVec 32 := Scalar.addi v0 c155_i32
  let v1796 : Index := Scalar.indexCast v1795
  ![v1796.toNat]
def k0_off899 (i : grid0.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v1795 : BitVec 32 := Scalar.addi v0 c155_i32
  let v3073 : Index := Scalar.indexCast v1795
  ![v3073.toNat]
def k0_off900 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c155_i32 : BitVec 32 := 155#32
  let v1795 : BitVec 32 := Scalar.addi v0 c155_i32
  let c0_i32_1287 : BitVec 32 := 0#32
  ![v1795.toNat, v3074.toNat, 0]
def k0_cond300 (v1797 : BitVec 32) : BitVec 1 :=
  let c0_i32_742 : BitVec 32 := 0#32
  let v1798 : BitVec 1 := Scalar.cmpi .sgt v1797 c0_i32_742
  let v1799 : BitVec 32 := Scalar.extui v1798
  let c0_i32_743 : BitVec 32 := 0#32
  let v1800 : BitVec 1 := Scalar.cmpi .ne v1799 c0_i32_743
  v1800

def k0_chk300 (i : grid0.Coords) (v1797 : BitVec 32) (v3074 : BitVec 32) : Prop :=
  (∀ (k0_h300 : k0_cond300 v1797 = 1#1), ∀ a, (k0_off900 i v3074) a + S1x1x512.size a ≤ S1024x200x512.size a)
instance k0_chk300.dec : ∀ (i : grid0.Coords) (v1797 : BitVec 32) (v3074 : BitVec 32), Decidable (k0_chk300 i v1797 v3074) := fun i v1797 v3074 => decidable_of_iff' _ (Iff.of_eq (k0_chk300.eq_1 i v1797 v3074))
theorem k0_off900_inb : ∀ (i : grid0.Coords) (v1797 : BitVec 32) (v3074 : BitVec 32) (k0_hw300 : k0_chk300 i v1797 v3074), ∀ (k0_h300 : k0_cond300 v1797 = 1#1), ∀ a, (k0_off900 i v3074) a + S1x1x512.size a ≤ S1024x200x512.size a := fun i v1797 v3074 k0_hw300 k0_h300 => k0_hw300 k0_h300

def k0_off901 (i : grid0.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v1801 : BitVec 32 := Scalar.addi v0 c156_i32
  let v1802 : Index := Scalar.indexCast v1801
  ![v1802.toNat]
def k0_off902 (i : grid0.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v1801 : BitVec 32 := Scalar.addi v0 c156_i32
  let v3073 : Index := Scalar.indexCast v1801
  ![v3073.toNat]
def k0_off903 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c156_i32 : BitVec 32 := 156#32
  let v1801 : BitVec 32 := Scalar.addi v0 c156_i32
  let c0_i32_1287 : BitVec 32 := 0#32
  ![v1801.toNat, v3074.toNat, 0]
def k0_cond301 (v1803 : BitVec 32) : BitVec 1 :=
  let c0_i32_744 : BitVec 32 := 0#32
  let v1804 : BitVec 1 := Scalar.cmpi .sgt v1803 c0_i32_744
  let v1805 : BitVec 32 := Scalar.extui v1804
  let c0_i32_745 : BitVec 32 := 0#32
  let v1806 : BitVec 1 := Scalar.cmpi .ne v1805 c0_i32_745
  v1806

def k0_chk301 (i : grid0.Coords) (v1803 : BitVec 32) (v3074 : BitVec 32) : Prop :=
  (∀ (k0_h301 : k0_cond301 v1803 = 1#1), ∀ a, (k0_off903 i v3074) a + S1x1x512.size a ≤ S1024x200x512.size a)
instance k0_chk301.dec : ∀ (i : grid0.Coords) (v1803 : BitVec 32) (v3074 : BitVec 32), Decidable (k0_chk301 i v1803 v3074) := fun i v1803 v3074 => decidable_of_iff' _ (Iff.of_eq (k0_chk301.eq_1 i v1803 v3074))
theorem k0_off903_inb : ∀ (i : grid0.Coords) (v1803 : BitVec 32) (v3074 : BitVec 32) (k0_hw301 : k0_chk301 i v1803 v3074), ∀ (k0_h301 : k0_cond301 v1803 = 1#1), ∀ a, (k0_off903 i v3074) a + S1x1x512.size a ≤ S1024x200x512.size a := fun i v1803 v3074 k0_hw301 k0_h301 => k0_hw301 k0_h301

def k0_off904 (i : grid0.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v1807 : BitVec 32 := Scalar.addi v0 c157_i32
  let v1808 : Index := Scalar.indexCast v1807
  ![v1808.toNat]
def k0_off905 (i : grid0.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v1807 : BitVec 32 := Scalar.addi v0 c157_i32
  let v3073 : Index := Scalar.indexCast v1807
  ![v3073.toNat]
def k0_off906 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c157_i32 : BitVec 32 := 157#32
  let v1807 : BitVec 32 := Scalar.addi v0 c157_i32
  let c0_i32_1287 : BitVec 32 := 0#32
  ![v1807.toNat, v3074.toNat, 0]
def k0_cond302 (v1809 : BitVec 32) : BitVec 1 :=
  let c0_i32_746 : BitVec 32 := 0#32
  let v1810 : BitVec 1 := Scalar.cmpi .sgt v1809 c0_i32_746
  let v1811 : BitVec 32 := Scalar.extui v1810
  let c0_i32_747 : BitVec 32 := 0#32
  let v1812 : BitVec 1 := Scalar.cmpi .ne v1811 c0_i32_747
  v1812

def k0_chk302 (i : grid0.Coords) (v1809 : BitVec 32) (v3074 : BitVec 32) : Prop :=
  (∀ (k0_h302 : k0_cond302 v1809 = 1#1), ∀ a, (k0_off906 i v3074) a + S1x1x512.size a ≤ S1024x200x512.size a)
instance k0_chk302.dec : ∀ (i : grid0.Coords) (v1809 : BitVec 32) (v3074 : BitVec 32), Decidable (k0_chk302 i v1809 v3074) := fun i v1809 v3074 => decidable_of_iff' _ (Iff.of_eq (k0_chk302.eq_1 i v1809 v3074))
theorem k0_off906_inb : ∀ (i : grid0.Coords) (v1809 : BitVec 32) (v3074 : BitVec 32) (k0_hw302 : k0_chk302 i v1809 v3074), ∀ (k0_h302 : k0_cond302 v1809 = 1#1), ∀ a, (k0_off906 i v3074) a + S1x1x512.size a ≤ S1024x200x512.size a := fun i v1809 v3074 k0_hw302 k0_h302 => k0_hw302 k0_h302

def k0_off907 (i : grid0.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v1813 : BitVec 32 := Scalar.addi v0 c158_i32
  let v1814 : Index := Scalar.indexCast v1813
  ![v1814.toNat]
def k0_off908 (i : grid0.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v1813 : BitVec 32 := Scalar.addi v0 c158_i32
  let v3073 : Index := Scalar.indexCast v1813
  ![v3073.toNat]
def k0_off909 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c158_i32 : BitVec 32 := 158#32
  let v1813 : BitVec 32 := Scalar.addi v0 c158_i32
  let c0_i32_1287 : BitVec 32 := 0#32
  ![v1813.toNat, v3074.toNat, 0]
def k0_cond303 (v1815 : BitVec 32) : BitVec 1 :=
  let c0_i32_748 : BitVec 32 := 0#32
  let v1816 : BitVec 1 := Scalar.cmpi .sgt v1815 c0_i32_748
  let v1817 : BitVec 32 := Scalar.extui v1816
  let c0_i32_749 : BitVec 32 := 0#32
  let v1818 : BitVec 1 := Scalar.cmpi .ne v1817 c0_i32_749
  v1818

def k0_chk303 (i : grid0.Coords) (v1815 : BitVec 32) (v3074 : BitVec 32) : Prop :=
  (∀ (k0_h303 : k0_cond303 v1815 = 1#1), ∀ a, (k0_off909 i v3074) a + S1x1x512.size a ≤ S1024x200x512.size a)
instance k0_chk303.dec : ∀ (i : grid0.Coords) (v1815 : BitVec 32) (v3074 : BitVec 32), Decidable (k0_chk303 i v1815 v3074) := fun i v1815 v3074 => decidable_of_iff' _ (Iff.of_eq (k0_chk303.eq_1 i v1815 v3074))
theorem k0_off909_inb : ∀ (i : grid0.Coords) (v1815 : BitVec 32) (v3074 : BitVec 32) (k0_hw303 : k0_chk303 i v1815 v3074), ∀ (k0_h303 : k0_cond303 v1815 = 1#1), ∀ a, (k0_off909 i v3074) a + S1x1x512.size a ≤ S1024x200x512.size a := fun i v1815 v3074 k0_hw303 k0_h303 => k0_hw303 k0_h303

def k0_off910 (i : grid0.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v1819 : BitVec 32 := Scalar.addi v0 c159_i32
  let v1820 : Index := Scalar.indexCast v1819
  ![v1820.toNat]
def k0_off911 (i : grid0.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v1819 : BitVec 32 := Scalar.addi v0 c159_i32
  let v3073 : Index := Scalar.indexCast v1819
  ![v3073.toNat]
def k0_off912 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c159_i32 : BitVec 32 := 159#32
  let v1819 : BitVec 32 := Scalar.addi v0 c159_i32
  let c0_i32_1287 : BitVec 32 := 0#32
  ![v1819.toNat, v3074.toNat, 0]
def k0_cond304 (v1821 : BitVec 32) : BitVec 1 :=
  let c0_i32_750 : BitVec 32 := 0#32
  let v1822 : BitVec 1 := Scalar.cmpi .sgt v1821 c0_i32_750
  let v1823 : BitVec 32 := Scalar.extui v1822
  let c0_i32_751 : BitVec 32 := 0#32
  let v1824 : BitVec 1 := Scalar.cmpi .ne v1823 c0_i32_751
  v1824

def k0_chk304 (i : grid0.Coords) (v1821 : BitVec 32) (v3074 : BitVec 32) : Prop :=
  (∀ (k0_h304 : k0_cond304 v1821 = 1#1), ∀ a, (k0_off912 i v3074) a + S1x1x512.size a ≤ S1024x200x512.size a)
instance k0_chk304.dec : ∀ (i : grid0.Coords) (v1821 : BitVec 32) (v3074 : BitVec 32), Decidable (k0_chk304 i v1821 v3074) := fun i v1821 v3074 => decidable_of_iff' _ (Iff.of_eq (k0_chk304.eq_1 i v1821 v3074))
theorem k0_off912_inb : ∀ (i : grid0.Coords) (v1821 : BitVec 32) (v3074 : BitVec 32) (k0_hw304 : k0_chk304 i v1821 v3074), ∀ (k0_h304 : k0_cond304 v1821 = 1#1), ∀ a, (k0_off912 i v3074) a + S1x1x512.size a ≤ S1024x200x512.size a := fun i v1821 v3074 k0_hw304 k0_h304 => k0_hw304 k0_h304

def k0_off913 (i : grid0.Coords) : Fin 1 → Nat :=
  let arg0 : BitVec 32 := BitVec.ofNat 32 (i 0).val
  let c256_i32 : BitVec 32 := 256#32
  let v0 : BitVec 32 := Scalar.muli arg0 c256_i32
  let c144_i32_752 : BitVec 32 := 144#32
  let v1825 : BitVec 32 := Scalar.addi v0 c144_i32_752
  let v1826 : Index := Scalar.indexCast v1825
  ![v1826.toNat]
def k0_off914 (i : grid0.Coords) : Fin 1 → Nat :=
  let arg0 : BitVec 32 := BitVec.ofNat 32 (i 0).val
  let c256_i32 : BitVec 32 := 256#32
  let v0 : BitVec 32 := Scalar.muli arg0 c256_i32
  let c144_i32_752 : BitVec 32 := 144#32
  let v1825 : BitVec 32 := Scalar.addi v0 c144_i32_752
  let v3073 : Index := Scalar.indexCast v1825
  ![v3073.toNat]
def k0_off915 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c144_i32_752 : BitVec 32 := 144#32
  let v1825 : BitVec 32 := Scalar.addi v0 c144_i32_752
  let c0_i32_1282 : BitVec 32 := 0#32
  ![v1825.toNat, v3074.toNat, 0]
def k0_cond305 (v1827 : BitVec 32) : BitVec 1 :=
  let c0_i32_753 : BitVec 32 := 0#32
  let v1828 : BitVec 1 := Scalar.cmpi .sgt v1827 c0_i32_753
  let v1829 : BitVec 32 := Scalar.extui v1828
  let c0_i32_754 : BitVec 32 := 0#32
  let v1830 : BitVec 1 := Scalar.cmpi .ne v1829 c0_i32_754
  v1830

def k0_chk305 (i : grid0.Coords) (v1827 : BitVec 32) (v3074 : BitVec 32) : Prop :=
  (∀ (k0_h305 : k0_cond305 v1827 = 1#1), ∀ a, (k0_off915 i v3074) a + S1x1x512.size a ≤ S1024x200x512.size a)
instance k0_chk305.dec : ∀ (i : grid0.Coords) (v1827 : BitVec 32) (v3074 : BitVec 32), Decidable (k0_chk305 i v1827 v3074) := fun i v1827 v3074 => decidable_of_iff' _ (Iff.of_eq (k0_chk305.eq_1 i v1827 v3074))
theorem k0_off915_inb : ∀ (i : grid0.Coords) (v1827 : BitVec 32) (v3074 : BitVec 32) (k0_hw305 : k0_chk305 i v1827 v3074), ∀ (k0_h305 : k0_cond305 v1827 = 1#1), ∀ a, (k0_off915 i v3074) a + S1x1x512.size a ≤ S1024x200x512.size a := fun i v1827 v3074 k0_hw305 k0_h305 => k0_hw305 k0_h305

def k0_off916 (i : grid0.Coords) : Fin 1 → Nat :=
  let arg0 : BitVec 32 := BitVec.ofNat 32 (i 0).val
  let c256_i32 : BitVec 32 := 256#32
  let v0 : BitVec 32 := Scalar.muli arg0 c256_i32
  let c145_i32_755 : BitVec 32 := 145#32
  let v1831 : BitVec 32 := Scalar.addi v0 c145_i32_755
  let v1832 : Index := Scalar.indexCast v1831
  ![v1832.toNat]
def k0_off917 (i : grid0.Coords) : Fin 1 → Nat :=
  let arg0 : BitVec 32 := BitVec.ofNat 32 (i 0).val
  let c256_i32 : BitVec 32 := 256#32
  let v0 : BitVec 32 := Scalar.muli arg0 c256_i32
  let c145_i32_755 : BitVec 32 := 145#32
  let v1831 : BitVec 32 := Scalar.addi v0 c145_i32_755
  let v3073 : Index := Scalar.indexCast v1831
  ![v3073.toNat]
def k0_off918 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c145_i32_755 : BitVec 32 := 145#32
  let v1831 : BitVec 32 := Scalar.addi v0 c145_i32_755
  let c0_i32_1282 : BitVec 32 := 0#32
  ![v1831.toNat, v3074.toNat, 0]
def k0_cond306 (v1833 : BitVec 32) : BitVec 1 :=
  let c0_i32_756 : BitVec 32 := 0#32
  let v1834 : BitVec 1 := Scalar.cmpi .sgt v1833 c0_i32_756
  let v1835 : BitVec 32 := Scalar.extui v1834
  let c0_i32_757 : BitVec 32 := 0#32
  let v1836 : BitVec 1 := Scalar.cmpi .ne v1835 c0_i32_757
  v1836

def k0_chk306 (i : grid0.Coords) (v1833 : BitVec 32) (v3074 : BitVec 32) : Prop :=
  (∀ (k0_h306 : k0_cond306 v1833 = 1#1), ∀ a, (k0_off918 i v3074) a + S1x1x512.size a ≤ S1024x200x512.size a)
instance k0_chk306.dec : ∀ (i : grid0.Coords) (v1833 : BitVec 32) (v3074 : BitVec 32), Decidable (k0_chk306 i v1833 v3074) := fun i v1833 v3074 => decidable_of_iff' _ (Iff.of_eq (k0_chk306.eq_1 i v1833 v3074))
theorem k0_off918_inb : ∀ (i : grid0.Coords) (v1833 : BitVec 32) (v3074 : BitVec 32) (k0_hw306 : k0_chk306 i v1833 v3074), ∀ (k0_h306 : k0_cond306 v1833 = 1#1), ∀ a, (k0_off918 i v3074) a + S1x1x512.size a ≤ S1024x200x512.size a := fun i v1833 v3074 k0_hw306 k0_h306 => k0_hw306 k0_h306

def k0_off919 (i : grid0.Coords) : Fin 1 → Nat :=
  let arg0 : BitVec 32 := BitVec.ofNat 32 (i 0).val
  let c256_i32 : BitVec 32 := 256#32
  let v0 : BitVec 32 := Scalar.muli arg0 c256_i32
  let c146_i32_758 : BitVec 32 := 146#32
  let v1837 : BitVec 32 := Scalar.addi v0 c146_i32_758
  let v1838 : Index := Scalar.indexCast v1837
  ![v1838.toNat]
def k0_off920 (i : grid0.Coords) : Fin 1 → Nat :=
  let arg0 : BitVec 32 := BitVec.ofNat 32 (i 0).val
  let c256_i32 : BitVec 32 := 256#32
  let v0 : BitVec 32 := Scalar.muli arg0 c256_i32
  let c146_i32_758 : BitVec 32 := 146#32
  let v1837 : BitVec 32 := Scalar.addi v0 c146_i32_758
  let v3073 : Index := Scalar.indexCast v1837
  ![v3073.toNat]
def k0_off921 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c146_i32_758 : BitVec 32 := 146#32
  let v1837 : BitVec 32 := Scalar.addi v0 c146_i32_758
  let c0_i32_1282 : BitVec 32 := 0#32
  ![v1837.toNat, v3074.toNat, 0]
def k0_cond307 (v1839 : BitVec 32) : BitVec 1 :=
  let c0_i32_759 : BitVec 32 := 0#32
  let v1840 : BitVec 1 := Scalar.cmpi .sgt v1839 c0_i32_759
  let v1841 : BitVec 32 := Scalar.extui v1840
  let c0_i32_760 : BitVec 32 := 0#32
  let v1842 : BitVec 1 := Scalar.cmpi .ne v1841 c0_i32_760
  v1842

def k0_chk307 (i : grid0.Coords) (v1839 : BitVec 32) (v3074 : BitVec 32) : Prop :=
  (∀ (k0_h307 : k0_cond307 v1839 = 1#1), ∀ a, (k0_off921 i v3074) a + S1x1x512.size a ≤ S1024x200x512.size a)
instance k0_chk307.dec : ∀ (i : grid0.Coords) (v1839 : BitVec 32) (v3074 : BitVec 32), Decidable (k0_chk307 i v1839 v3074) := fun i v1839 v3074 => decidable_of_iff' _ (Iff.of_eq (k0_chk307.eq_1 i v1839 v3074))
theorem k0_off921_inb : ∀ (i : grid0.Coords) (v1839 : BitVec 32) (v3074 : BitVec 32) (k0_hw307 : k0_chk307 i v1839 v3074), ∀ (k0_h307 : k0_cond307 v1839 = 1#1), ∀ a, (k0_off921 i v3074) a + S1x1x512.size a ≤ S1024x200x512.size a := fun i v1839 v3074 k0_hw307 k0_h307 => k0_hw307 k0_h307

def k0_off922 (i : grid0.Coords) : Fin 1 → Nat :=
  let arg0 : BitVec 32 := BitVec.ofNat 32 (i 0).val
  let c256_i32 : BitVec 32 := 256#32
  let v0 : BitVec 32 := Scalar.muli arg0 c256_i32
  let c147_i32_761 : BitVec 32 := 147#32
  let v1843 : BitVec 32 := Scalar.addi v0 c147_i32_761
  let v1844 : Index := Scalar.indexCast v1843
  ![v1844.toNat]
def k0_off923 (i : grid0.Coords) : Fin 1 → Nat :=
  let arg0 : BitVec 32 := BitVec.ofNat 32 (i 0).val
  let c256_i32 : BitVec 32 := 256#32
  let v0 : BitVec 32 := Scalar.muli arg0 c256_i32
  let c147_i32_761 : BitVec 32 := 147#32
  let v1843 : BitVec 32 := Scalar.addi v0 c147_i32_761
  let v3073 : Index := Scalar.indexCast v1843
  ![v3073.toNat]
def k0_off924 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c147_i32_761 : BitVec 32 := 147#32
  let v1843 : BitVec 32 := Scalar.addi v0 c147_i32_761
  let c0_i32_1282 : BitVec 32 := 0#32
  ![v1843.toNat, v3074.toNat, 0]
def k0_cond308 (v1845 : BitVec 32) : BitVec 1 :=
  let c0_i32_762 : BitVec 32 := 0#32
  let v1846 : BitVec 1 := Scalar.cmpi .sgt v1845 c0_i32_762
  let v1847 : BitVec 32 := Scalar.extui v1846
  let c0_i32_763 : BitVec 32 := 0#32
  let v1848 : BitVec 1 := Scalar.cmpi .ne v1847 c0_i32_763
  v1848

def k0_chk308 (i : grid0.Coords) (v1845 : BitVec 32) (v3074 : BitVec 32) : Prop :=
  (∀ (k0_h308 : k0_cond308 v1845 = 1#1), ∀ a, (k0_off924 i v3074) a + S1x1x512.size a ≤ S1024x200x512.size a)
instance k0_chk308.dec : ∀ (i : grid0.Coords) (v1845 : BitVec 32) (v3074 : BitVec 32), Decidable (k0_chk308 i v1845 v3074) := fun i v1845 v3074 => decidable_of_iff' _ (Iff.of_eq (k0_chk308.eq_1 i v1845 v3074))
theorem k0_off924_inb : ∀ (i : grid0.Coords) (v1845 : BitVec 32) (v3074 : BitVec 32) (k0_hw308 : k0_chk308 i v1845 v3074), ∀ (k0_h308 : k0_cond308 v1845 = 1#1), ∀ a, (k0_off924 i v3074) a + S1x1x512.size a ≤ S1024x200x512.size a := fun i v1845 v3074 k0_hw308 k0_h308 => k0_hw308 k0_h308

def k0_off925 (i : grid0.Coords) : Fin 1 → Nat :=
  let arg0 : BitVec 32 := BitVec.ofNat 32 (i 0).val
  let c256_i32 : BitVec 32 := 256#32
  let v0 : BitVec 32 := Scalar.muli arg0 c256_i32
  let c148_i32_764 : BitVec 32 := 148#32
  let v1849 : BitVec 32 := Scalar.addi v0 c148_i32_764
  let v1850 : Index := Scalar.indexCast v1849
  ![v1850.toNat]
def k0_off926 (i : grid0.Coords) : Fin 1 → Nat :=
  let arg0 : BitVec 32 := BitVec.ofNat 32 (i 0).val
  let c256_i32 : BitVec 32 := 256#32
  let v0 : BitVec 32 := Scalar.muli arg0 c256_i32
  let c148_i32_764 : BitVec 32 := 148#32
  let v1849 : BitVec 32 := Scalar.addi v0 c148_i32_764
  let v3073 : Index := Scalar.indexCast v1849
  ![v3073.toNat]
def k0_off927 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c148_i32_764 : BitVec 32 := 148#32
  let v1849 : BitVec 32 := Scalar.addi v0 c148_i32_764
  let c0_i32_1282 : BitVec 32 := 0#32
  ![v1849.toNat, v3074.toNat, 0]
def k0_cond309 (v1851 : BitVec 32) : BitVec 1 :=
  let c0_i32_765 : BitVec 32 := 0#32
  let v1852 : BitVec 1 := Scalar.cmpi .sgt v1851 c0_i32_765
  let v1853 : BitVec 32 := Scalar.extui v1852
  let c0_i32_766 : BitVec 32 := 0#32
  let v1854 : BitVec 1 := Scalar.cmpi .ne v1853 c0_i32_766
  v1854

def k0_chk309 (i : grid0.Coords) (v1851 : BitVec 32) (v3074 : BitVec 32) : Prop :=
  (∀ (k0_h309 : k0_cond309 v1851 = 1#1), ∀ a, (k0_off927 i v3074) a + S1x1x512.size a ≤ S1024x200x512.size a)
instance k0_chk309.dec : ∀ (i : grid0.Coords) (v1851 : BitVec 32) (v3074 : BitVec 32), Decidable (k0_chk309 i v1851 v3074) := fun i v1851 v3074 => decidable_of_iff' _ (Iff.of_eq (k0_chk309.eq_1 i v1851 v3074))
theorem k0_off927_inb : ∀ (i : grid0.Coords) (v1851 : BitVec 32) (v3074 : BitVec 32) (k0_hw309 : k0_chk309 i v1851 v3074), ∀ (k0_h309 : k0_cond309 v1851 = 1#1), ∀ a, (k0_off927 i v3074) a + S1x1x512.size a ≤ S1024x200x512.size a := fun i v1851 v3074 k0_hw309 k0_h309 => k0_hw309 k0_h309

def k0_off928 (i : grid0.Coords) : Fin 1 → Nat :=
  let arg0 : BitVec 32 := BitVec.ofNat 32 (i 0).val
  let c256_i32 : BitVec 32 := 256#32
  let v0 : BitVec 32 := Scalar.muli arg0 c256_i32
  let c149_i32_767 : BitVec 32 := 149#32
  let v1855 : BitVec 32 := Scalar.addi v0 c149_i32_767
  let v1856 : Index := Scalar.indexCast v1855
  ![v1856.toNat]
def k0_off929 (i : grid0.Coords) : Fin 1 → Nat :=
  let arg0 : BitVec 32 := BitVec.ofNat 32 (i 0).val
  let c256_i32 : BitVec 32 := 256#32
  let v0 : BitVec 32 := Scalar.muli arg0 c256_i32
  let c149_i32_767 : BitVec 32 := 149#32
  let v1855 : BitVec 32 := Scalar.addi v0 c149_i32_767
  let v3073 : Index := Scalar.indexCast v1855
  ![v3073.toNat]
def k0_off930 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c149_i32_767 : BitVec 32 := 149#32
  let v1855 : BitVec 32 := Scalar.addi v0 c149_i32_767
  let c0_i32_1282 : BitVec 32 := 0#32
  ![v1855.toNat, v3074.toNat, 0]
def k0_cond310 (v1857 : BitVec 32) : BitVec 1 :=
  let c0_i32_768 : BitVec 32 := 0#32
  let v1858 : BitVec 1 := Scalar.cmpi .sgt v1857 c0_i32_768
  let v1859 : BitVec 32 := Scalar.extui v1858
  let c0_i32_769 : BitVec 32 := 0#32
  let v1860 : BitVec 1 := Scalar.cmpi .ne v1859 c0_i32_769
  v1860

def k0_chk310 (i : grid0.Coords) (v1857 : BitVec 32) (v3074 : BitVec 32) : Prop :=
  (∀ (k0_h310 : k0_cond310 v1857 = 1#1), ∀ a, (k0_off930 i v3074) a + S1x1x512.size a ≤ S1024x200x512.size a)
instance k0_chk310.dec : ∀ (i : grid0.Coords) (v1857 : BitVec 32) (v3074 : BitVec 32), Decidable (k0_chk310 i v1857 v3074) := fun i v1857 v3074 => decidable_of_iff' _ (Iff.of_eq (k0_chk310.eq_1 i v1857 v3074))
theorem k0_off930_inb : ∀ (i : grid0.Coords) (v1857 : BitVec 32) (v3074 : BitVec 32) (k0_hw310 : k0_chk310 i v1857 v3074), ∀ (k0_h310 : k0_cond310 v1857 = 1#1), ∀ a, (k0_off930 i v3074) a + S1x1x512.size a ≤ S1024x200x512.size a := fun i v1857 v3074 k0_hw310 k0_h310 => k0_hw310 k0_h310

def k0_off931 (i : grid0.Coords) : Fin 1 → Nat :=
  let arg0 : BitVec 32 := BitVec.ofNat 32 (i 0).val
  let c256_i32 : BitVec 32 := 256#32
  let v0 : BitVec 32 := Scalar.muli arg0 c256_i32
  let c150_i32_770 : BitVec 32 := 150#32
  let v1861 : BitVec 32 := Scalar.addi v0 c150_i32_770
  let v1862 : Index := Scalar.indexCast v1861
  ![v1862.toNat]
def k0_off932 (i : grid0.Coords) : Fin 1 → Nat :=
  let arg0 : BitVec 32 := BitVec.ofNat 32 (i 0).val
  let c256_i32 : BitVec 32 := 256#32
  let v0 : BitVec 32 := Scalar.muli arg0 c256_i32
  let c150_i32_770 : BitVec 32 := 150#32
  let v1861 : BitVec 32 := Scalar.addi v0 c150_i32_770
  let v3073 : Index := Scalar.indexCast v1861
  ![v3073.toNat]
def k0_off933 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c150_i32_770 : BitVec 32 := 150#32
  let v1861 : BitVec 32 := Scalar.addi v0 c150_i32_770
  let c0_i32_1282 : BitVec 32 := 0#32
  ![v1861.toNat, v3074.toNat, 0]
def k0_cond311 (v1863 : BitVec 32) : BitVec 1 :=
  let c0_i32_771 : BitVec 32 := 0#32
  let v1864 : BitVec 1 := Scalar.cmpi .sgt v1863 c0_i32_771
  let v1865 : BitVec 32 := Scalar.extui v1864
  let c0_i32_772 : BitVec 32 := 0#32
  let v1866 : BitVec 1 := Scalar.cmpi .ne v1865 c0_i32_772
  v1866

def k0_chk311 (i : grid0.Coords) (v1863 : BitVec 32) (v3074 : BitVec 32) : Prop :=
  (∀ (k0_h311 : k0_cond311 v1863 = 1#1), ∀ a, (k0_off933 i v3074) a + S1x1x512.size a ≤ S1024x200x512.size a)
instance k0_chk311.dec : ∀ (i : grid0.Coords) (v1863 : BitVec 32) (v3074 : BitVec 32), Decidable (k0_chk311 i v1863 v3074) := fun i v1863 v3074 => decidable_of_iff' _ (Iff.of_eq (k0_chk311.eq_1 i v1863 v3074))
theorem k0_off933_inb : ∀ (i : grid0.Coords) (v1863 : BitVec 32) (v3074 : BitVec 32) (k0_hw311 : k0_chk311 i v1863 v3074), ∀ (k0_h311 : k0_cond311 v1863 = 1#1), ∀ a, (k0_off933 i v3074) a + S1x1x512.size a ≤ S1024x200x512.size a := fun i v1863 v3074 k0_hw311 k0_h311 => k0_hw311 k0_h311

def k0_off934 (i : grid0.Coords) : Fin 1 → Nat :=
  let arg0 : BitVec 32 := BitVec.ofNat 32 (i 0).val
  let c256_i32 : BitVec 32 := 256#32
  let v0 : BitVec 32 := Scalar.muli arg0 c256_i32
  let c151_i32_773 : BitVec 32 := 151#32
  let v1867 : BitVec 32 := Scalar.addi v0 c151_i32_773
  let v1868 : Index := Scalar.indexCast v1867
  ![v1868.toNat]
def k0_off935 (i : grid0.Coords) : Fin 1 → Nat :=
  let arg0 : BitVec 32 := BitVec.ofNat 32 (i 0).val
  let c256_i32 : BitVec 32 := 256#32
  let v0 : BitVec 32 := Scalar.muli arg0 c256_i32
  let c151_i32_773 : BitVec 32 := 151#32
  let v1867 : BitVec 32 := Scalar.addi v0 c151_i32_773
  let v3073 : Index := Scalar.indexCast v1867
  ![v3073.toNat]
def k0_off936 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c151_i32_773 : BitVec 32 := 151#32
  let v1867 : BitVec 32 := Scalar.addi v0 c151_i32_773
  let c0_i32_1282 : BitVec 32 := 0#32
  ![v1867.toNat, v3074.toNat, 0]
def k0_cond312 (v1869 : BitVec 32) : BitVec 1 :=
  let c0_i32_774 : BitVec 32 := 0#32
  let v1870 : BitVec 1 := Scalar.cmpi .sgt v1869 c0_i32_774
  let v1871 : BitVec 32 := Scalar.extui v1870
  let c0_i32_775 : BitVec 32 := 0#32
  let v1872 : BitVec 1 := Scalar.cmpi .ne v1871 c0_i32_775
  v1872

def k0_chk312 (i : grid0.Coords) (v1869 : BitVec 32) (v3074 : BitVec 32) : Prop :=
  (∀ (k0_h312 : k0_cond312 v1869 = 1#1), ∀ a, (k0_off936 i v3074) a + S1x1x512.size a ≤ S1024x200x512.size a)
instance k0_chk312.dec : ∀ (i : grid0.Coords) (v1869 : BitVec 32) (v3074 : BitVec 32), Decidable (k0_chk312 i v1869 v3074) := fun i v1869 v3074 => decidable_of_iff' _ (Iff.of_eq (k0_chk312.eq_1 i v1869 v3074))
theorem k0_off936_inb : ∀ (i : grid0.Coords) (v1869 : BitVec 32) (v3074 : BitVec 32) (k0_hw312 : k0_chk312 i v1869 v3074), ∀ (k0_h312 : k0_cond312 v1869 = 1#1), ∀ a, (k0_off936 i v3074) a + S1x1x512.size a ≤ S1024x200x512.size a := fun i v1869 v3074 k0_hw312 k0_h312 => k0_hw312 k0_h312

def k0_off937 (i : grid0.Coords) : Fin 1 → Nat :=
  let arg0 : BitVec 32 := BitVec.ofNat 32 (i 0).val
  let c256_i32 : BitVec 32 := 256#32
  let v0 : BitVec 32 := Scalar.muli arg0 c256_i32
  let c152_i32_776 : BitVec 32 := 152#32
  let v1873 : BitVec 32 := Scalar.addi v0 c152_i32_776
  let v1874 : Index := Scalar.indexCast v1873
  ![v1874.toNat]
def k0_off938 (i : grid0.Coords) : Fin 1 → Nat :=
  let arg0 : BitVec 32 := BitVec.ofNat 32 (i 0).val
  let c256_i32 : BitVec 32 := 256#32
  let v0 : BitVec 32 := Scalar.muli arg0 c256_i32
  let c152_i32_776 : BitVec 32 := 152#32
  let v1873 : BitVec 32 := Scalar.addi v0 c152_i32_776
  let v3073 : Index := Scalar.indexCast v1873
  ![v3073.toNat]
def k0_off939 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c152_i32_776 : BitVec 32 := 152#32
  let v1873 : BitVec 32 := Scalar.addi v0 c152_i32_776
  let c0_i32_1282 : BitVec 32 := 0#32
  ![v1873.toNat, v3074.toNat, 0]
def k0_cond313 (v1875 : BitVec 32) : BitVec 1 :=
  let c0_i32_777 : BitVec 32 := 0#32
  let v1876 : BitVec 1 := Scalar.cmpi .sgt v1875 c0_i32_777
  let v1877 : BitVec 32 := Scalar.extui v1876
  let c0_i32_778 : BitVec 32 := 0#32
  let v1878 : BitVec 1 := Scalar.cmpi .ne v1877 c0_i32_778
  v1878

def k0_chk313 (i : grid0.Coords) (v1875 : BitVec 32) (v3074 : BitVec 32) : Prop :=
  (∀ (k0_h313 : k0_cond313 v1875 = 1#1), ∀ a, (k0_off939 i v3074) a + S1x1x512.size a ≤ S1024x200x512.size a)
instance k0_chk313.dec : ∀ (i : grid0.Coords) (v1875 : BitVec 32) (v3074 : BitVec 32), Decidable (k0_chk313 i v1875 v3074) := fun i v1875 v3074 => decidable_of_iff' _ (Iff.of_eq (k0_chk313.eq_1 i v1875 v3074))
theorem k0_off939_inb : ∀ (i : grid0.Coords) (v1875 : BitVec 32) (v3074 : BitVec 32) (k0_hw313 : k0_chk313 i v1875 v3074), ∀ (k0_h313 : k0_cond313 v1875 = 1#1), ∀ a, (k0_off939 i v3074) a + S1x1x512.size a ≤ S1024x200x512.size a := fun i v1875 v3074 k0_hw313 k0_h313 => k0_hw313 k0_h313

def k0_off940 (i : grid0.Coords) : Fin 1 → Nat :=
  let arg0 : BitVec 32 := BitVec.ofNat 32 (i 0).val
  let c256_i32 : BitVec 32 := 256#32
  let v0 : BitVec 32 := Scalar.muli arg0 c256_i32
  let c153_i32_779 : BitVec 32 := 153#32
  let v1879 : BitVec 32 := Scalar.addi v0 c153_i32_779
  let v1880 : Index := Scalar.indexCast v1879
  ![v1880.toNat]
def k0_off941 (i : grid0.Coords) : Fin 1 → Nat :=
  let arg0 : BitVec 32 := BitVec.ofNat 32 (i 0).val
  let c256_i32 : BitVec 32 := 256#32
  let v0 : BitVec 32 := Scalar.muli arg0 c256_i32
  let c153_i32_779 : BitVec 32 := 153#32
  let v1879 : BitVec 32 := Scalar.addi v0 c153_i32_779
  let v3073 : Index := Scalar.indexCast v1879
  ![v3073.toNat]
def k0_off942 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c153_i32_779 : BitVec 32 := 153#32
  let v1879 : BitVec 32 := Scalar.addi v0 c153_i32_779
  let c0_i32_1282 : BitVec 32 := 0#32
  ![v1879.toNat, v3074.toNat, 0]
def k0_cond314 (v1881 : BitVec 32) : BitVec 1 :=
  let c0_i32_780 : BitVec 32 := 0#32
  let v1882 : BitVec 1 := Scalar.cmpi .sgt v1881 c0_i32_780
  let v1883 : BitVec 32 := Scalar.extui v1882
  let c0_i32_781 : BitVec 32 := 0#32
  let v1884 : BitVec 1 := Scalar.cmpi .ne v1883 c0_i32_781
  v1884

def k0_chk314 (i : grid0.Coords) (v1881 : BitVec 32) (v3074 : BitVec 32) : Prop :=
  (∀ (k0_h314 : k0_cond314 v1881 = 1#1), ∀ a, (k0_off942 i v3074) a + S1x1x512.size a ≤ S1024x200x512.size a)
instance k0_chk314.dec : ∀ (i : grid0.Coords) (v1881 : BitVec 32) (v3074 : BitVec 32), Decidable (k0_chk314 i v1881 v3074) := fun i v1881 v3074 => decidable_of_iff' _ (Iff.of_eq (k0_chk314.eq_1 i v1881 v3074))
theorem k0_off942_inb : ∀ (i : grid0.Coords) (v1881 : BitVec 32) (v3074 : BitVec 32) (k0_hw314 : k0_chk314 i v1881 v3074), ∀ (k0_h314 : k0_cond314 v1881 = 1#1), ∀ a, (k0_off942 i v3074) a + S1x1x512.size a ≤ S1024x200x512.size a := fun i v1881 v3074 k0_hw314 k0_h314 => k0_hw314 k0_h314

def k0_off943 (i : grid0.Coords) : Fin 1 → Nat :=
  let arg0 : BitVec 32 := BitVec.ofNat 32 (i 0).val
  let c256_i32 : BitVec 32 := 256#32
  let v0 : BitVec 32 := Scalar.muli arg0 c256_i32
  let c154_i32_782 : BitVec 32 := 154#32
  let v1885 : BitVec 32 := Scalar.addi v0 c154_i32_782
  let v1886 : Index := Scalar.indexCast v1885
  ![v1886.toNat]
def k0_off944 (i : grid0.Coords) : Fin 1 → Nat :=
  let arg0 : BitVec 32 := BitVec.ofNat 32 (i 0).val
  let c256_i32 : BitVec 32 := 256#32
  let v0 : BitVec 32 := Scalar.muli arg0 c256_i32
  let c154_i32_782 : BitVec 32 := 154#32
  let v1885 : BitVec 32 := Scalar.addi v0 c154_i32_782
  let v3073 : Index := Scalar.indexCast v1885
  ![v3073.toNat]
def k0_off945 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c154_i32_782 : BitVec 32 := 154#32
  let v1885 : BitVec 32 := Scalar.addi v0 c154_i32_782
  let c0_i32_1282 : BitVec 32 := 0#32
  ![v1885.toNat, v3074.toNat, 0]
def k0_cond315 (v1887 : BitVec 32) : BitVec 1 :=
  let c0_i32_783 : BitVec 32 := 0#32
  let v1888 : BitVec 1 := Scalar.cmpi .sgt v1887 c0_i32_783
  let v1889 : BitVec 32 := Scalar.extui v1888
  let c0_i32_784 : BitVec 32 := 0#32
  let v1890 : BitVec 1 := Scalar.cmpi .ne v1889 c0_i32_784
  v1890

def k0_chk315 (i : grid0.Coords) (v1887 : BitVec 32) (v3074 : BitVec 32) : Prop :=
  (∀ (k0_h315 : k0_cond315 v1887 = 1#1), ∀ a, (k0_off945 i v3074) a + S1x1x512.size a ≤ S1024x200x512.size a)
instance k0_chk315.dec : ∀ (i : grid0.Coords) (v1887 : BitVec 32) (v3074 : BitVec 32), Decidable (k0_chk315 i v1887 v3074) := fun i v1887 v3074 => decidable_of_iff' _ (Iff.of_eq (k0_chk315.eq_1 i v1887 v3074))
theorem k0_off945_inb : ∀ (i : grid0.Coords) (v1887 : BitVec 32) (v3074 : BitVec 32) (k0_hw315 : k0_chk315 i v1887 v3074), ∀ (k0_h315 : k0_cond315 v1887 = 1#1), ∀ a, (k0_off945 i v3074) a + S1x1x512.size a ≤ S1024x200x512.size a := fun i v1887 v3074 k0_hw315 k0_h315 => k0_hw315 k0_h315

def k0_off946 (i : grid0.Coords) : Fin 1 → Nat :=
  let arg0 : BitVec 32 := BitVec.ofNat 32 (i 0).val
  let c256_i32 : BitVec 32 := 256#32
  let v0 : BitVec 32 := Scalar.muli arg0 c256_i32
  let c155_i32_785 : BitVec 32 := 155#32
  let v1891 : BitVec 32 := Scalar.addi v0 c155_i32_785
  let v1892 : Index := Scalar.indexCast v1891
  ![v1892.toNat]
def k0_off947 (i : grid0.Coords) : Fin 1 → Nat :=
  let arg0 : BitVec 32 := BitVec.ofNat 32 (i 0).val
  let c256_i32 : BitVec 32 := 256#32
  let v0 : BitVec 32 := Scalar.muli arg0 c256_i32
  let c155_i32_785 : BitVec 32 := 155#32
  let v1891 : BitVec 32 := Scalar.addi v0 c155_i32_785
  let v3073 : Index := Scalar.indexCast v1891
  ![v3073.toNat]
def k0_off948 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c155_i32_785 : BitVec 32 := 155#32
  let v1891 : BitVec 32 := Scalar.addi v0 c155_i32_785
  let c0_i32_1282 : BitVec 32 := 0#32
  ![v1891.toNat, v3074.toNat, 0]
def k0_cond316 (v1893 : BitVec 32) : BitVec 1 :=
  let c0_i32_786 : BitVec 32 := 0#32
  let v1894 : BitVec 1 := Scalar.cmpi .sgt v1893 c0_i32_786
  let v1895 : BitVec 32 := Scalar.extui v1894
  let c0_i32_787 : BitVec 32 := 0#32
  let v1896 : BitVec 1 := Scalar.cmpi .ne v1895 c0_i32_787
  v1896

def k0_chk316 (i : grid0.Coords) (v1893 : BitVec 32) (v3074 : BitVec 32) : Prop :=
  (∀ (k0_h316 : k0_cond316 v1893 = 1#1), ∀ a, (k0_off948 i v3074) a + S1x1x512.size a ≤ S1024x200x512.size a)
instance k0_chk316.dec : ∀ (i : grid0.Coords) (v1893 : BitVec 32) (v3074 : BitVec 32), Decidable (k0_chk316 i v1893 v3074) := fun i v1893 v3074 => decidable_of_iff' _ (Iff.of_eq (k0_chk316.eq_1 i v1893 v3074))
theorem k0_off948_inb : ∀ (i : grid0.Coords) (v1893 : BitVec 32) (v3074 : BitVec 32) (k0_hw316 : k0_chk316 i v1893 v3074), ∀ (k0_h316 : k0_cond316 v1893 = 1#1), ∀ a, (k0_off948 i v3074) a + S1x1x512.size a ≤ S1024x200x512.size a := fun i v1893 v3074 k0_hw316 k0_h316 => k0_hw316 k0_h316

def k0_off949 (i : grid0.Coords) : Fin 1 → Nat :=
  let arg0 : BitVec 32 := BitVec.ofNat 32 (i 0).val
  let c256_i32 : BitVec 32 := 256#32
  let v0 : BitVec 32 := Scalar.muli arg0 c256_i32
  let c156_i32_788 : BitVec 32 := 156#32
  let v1897 : BitVec 32 := Scalar.addi v0 c156_i32_788
  let v1898 : Index := Scalar.indexCast v1897
  ![v1898.toNat]
def k0_off950 (i : grid0.Coords) : Fin 1 → Nat :=
  let arg0 : BitVec 32 := BitVec.ofNat 32 (i 0).val
  let c256_i32 : BitVec 32 := 256#32
  let v0 : BitVec 32 := Scalar.muli arg0 c256_i32
  let c156_i32_788 : BitVec 32 := 156#32
  let v1897 : BitVec 32 := Scalar.addi v0 c156_i32_788
  let v3073 : Index := Scalar.indexCast v1897
  ![v3073.toNat]
def k0_off951 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c156_i32_788 : BitVec 32 := 156#32
  let v1897 : BitVec 32 := Scalar.addi v0 c156_i32_788
  let c0_i32_1282 : BitVec 32 := 0#32
  ![v1897.toNat, v3074.toNat, 0]
def k0_cond317 (v1899 : BitVec 32) : BitVec 1 :=
  let c0_i32_789 : BitVec 32 := 0#32
  let v1900 : BitVec 1 := Scalar.cmpi .sgt v1899 c0_i32_789
  let v1901 : BitVec 32 := Scalar.extui v1900
  let c0_i32_790 : BitVec 32 := 0#32
  let v1902 : BitVec 1 := Scalar.cmpi .ne v1901 c0_i32_790
  v1902

def k0_chk317 (i : grid0.Coords) (v1899 : BitVec 32) (v3074 : BitVec 32) : Prop :=
  (∀ (k0_h317 : k0_cond317 v1899 = 1#1), ∀ a, (k0_off951 i v3074) a + S1x1x512.size a ≤ S1024x200x512.size a)
instance k0_chk317.dec : ∀ (i : grid0.Coords) (v1899 : BitVec 32) (v3074 : BitVec 32), Decidable (k0_chk317 i v1899 v3074) := fun i v1899 v3074 => decidable_of_iff' _ (Iff.of_eq (k0_chk317.eq_1 i v1899 v3074))
theorem k0_off951_inb : ∀ (i : grid0.Coords) (v1899 : BitVec 32) (v3074 : BitVec 32) (k0_hw317 : k0_chk317 i v1899 v3074), ∀ (k0_h317 : k0_cond317 v1899 = 1#1), ∀ a, (k0_off951 i v3074) a + S1x1x512.size a ≤ S1024x200x512.size a := fun i v1899 v3074 k0_hw317 k0_h317 => k0_hw317 k0_h317

def k0_off952 (i : grid0.Coords) : Fin 1 → Nat :=
  let arg0 : BitVec 32 := BitVec.ofNat 32 (i 0).val
  let c256_i32 : BitVec 32 := 256#32
  let v0 : BitVec 32 := Scalar.muli arg0 c256_i32
  let c157_i32_791 : BitVec 32 := 157#32
  let v1903 : BitVec 32 := Scalar.addi v0 c157_i32_791
  let v1904 : Index := Scalar.indexCast v1903
  ![v1904.toNat]
def k0_off953 (i : grid0.Coords) : Fin 1 → Nat :=
  let arg0 : BitVec 32 := BitVec.ofNat 32 (i 0).val
  let c256_i32 : BitVec 32 := 256#32
  let v0 : BitVec 32 := Scalar.muli arg0 c256_i32
  let c157_i32_791 : BitVec 32 := 157#32
  let v1903 : BitVec 32 := Scalar.addi v0 c157_i32_791
  let v3073 : Index := Scalar.indexCast v1903
  ![v3073.toNat]
def k0_off954 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c157_i32_791 : BitVec 32 := 157#32
  let v1903 : BitVec 32 := Scalar.addi v0 c157_i32_791
  let c0_i32_1282 : BitVec 32 := 0#32
  ![v1903.toNat, v3074.toNat, 0]
def k0_cond318 (v1905 : BitVec 32) : BitVec 1 :=
  let c0_i32_792 : BitVec 32 := 0#32
  let v1906 : BitVec 1 := Scalar.cmpi .sgt v1905 c0_i32_792
  let v1907 : BitVec 32 := Scalar.extui v1906
  let c0_i32_793 : BitVec 32 := 0#32
  let v1908 : BitVec 1 := Scalar.cmpi .ne v1907 c0_i32_793
  v1908

def k0_chk318 (i : grid0.Coords) (v1905 : BitVec 32) (v3074 : BitVec 32) : Prop :=
  (∀ (k0_h318 : k0_cond318 v1905 = 1#1), ∀ a, (k0_off954 i v3074) a + S1x1x512.size a ≤ S1024x200x512.size a)
instance k0_chk318.dec : ∀ (i : grid0.Coords) (v1905 : BitVec 32) (v3074 : BitVec 32), Decidable (k0_chk318 i v1905 v3074) := fun i v1905 v3074 => decidable_of_iff' _ (Iff.of_eq (k0_chk318.eq_1 i v1905 v3074))
theorem k0_off954_inb : ∀ (i : grid0.Coords) (v1905 : BitVec 32) (v3074 : BitVec 32) (k0_hw318 : k0_chk318 i v1905 v3074), ∀ (k0_h318 : k0_cond318 v1905 = 1#1), ∀ a, (k0_off954 i v3074) a + S1x1x512.size a ≤ S1024x200x512.size a := fun i v1905 v3074 k0_hw318 k0_h318 => k0_hw318 k0_h318

def k0_off955 (i : grid0.Coords) : Fin 1 → Nat :=
  let arg0 : BitVec 32 := BitVec.ofNat 32 (i 0).val
  let c256_i32 : BitVec 32 := 256#32
  let v0 : BitVec 32 := Scalar.muli arg0 c256_i32
  let c158_i32_794 : BitVec 32 := 158#32
  let v1909 : BitVec 32 := Scalar.addi v0 c158_i32_794
  let v1910 : Index := Scalar.indexCast v1909
  ![v1910.toNat]
def k0_off956 (i : grid0.Coords) : Fin 1 → Nat :=
  let arg0 : BitVec 32 := BitVec.ofNat 32 (i 0).val
  let c256_i32 : BitVec 32 := 256#32
  let v0 : BitVec 32 := Scalar.muli arg0 c256_i32
  let c158_i32_794 : BitVec 32 := 158#32
  let v1909 : BitVec 32 := Scalar.addi v0 c158_i32_794
  let v3073 : Index := Scalar.indexCast v1909
  ![v3073.toNat]
def k0_off957 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c158_i32_794 : BitVec 32 := 158#32
  let v1909 : BitVec 32 := Scalar.addi v0 c158_i32_794
  let c0_i32_1282 : BitVec 32 := 0#32
  ![v1909.toNat, v3074.toNat, 0]
def k0_cond319 (v1911 : BitVec 32) : BitVec 1 :=
  let c0_i32_795 : BitVec 32 := 0#32
  let v1912 : BitVec 1 := Scalar.cmpi .sgt v1911 c0_i32_795
  let v1913 : BitVec 32 := Scalar.extui v1912
  let c0_i32_796 : BitVec 32 := 0#32
  let v1914 : BitVec 1 := Scalar.cmpi .ne v1913 c0_i32_796
  v1914

def k0_chk319 (i : grid0.Coords) (v1911 : BitVec 32) (v3074 : BitVec 32) : Prop :=
  (∀ (k0_h319 : k0_cond319 v1911 = 1#1), ∀ a, (k0_off957 i v3074) a + S1x1x512.size a ≤ S1024x200x512.size a)
instance k0_chk319.dec : ∀ (i : grid0.Coords) (v1911 : BitVec 32) (v3074 : BitVec 32), Decidable (k0_chk319 i v1911 v3074) := fun i v1911 v3074 => decidable_of_iff' _ (Iff.of_eq (k0_chk319.eq_1 i v1911 v3074))
theorem k0_off957_inb : ∀ (i : grid0.Coords) (v1911 : BitVec 32) (v3074 : BitVec 32) (k0_hw319 : k0_chk319 i v1911 v3074), ∀ (k0_h319 : k0_cond319 v1911 = 1#1), ∀ a, (k0_off957 i v3074) a + S1x1x512.size a ≤ S1024x200x512.size a := fun i v1911 v3074 k0_hw319 k0_h319 => k0_hw319 k0_h319

def k0_off958 (i : grid0.Coords) : Fin 1 → Nat :=
  let arg0 : BitVec 32 := BitVec.ofNat 32 (i 0).val
  let c256_i32 : BitVec 32 := 256#32
  let v0 : BitVec 32 := Scalar.muli arg0 c256_i32
  let c159_i32_797 : BitVec 32 := 159#32
  let v1915 : BitVec 32 := Scalar.addi v0 c159_i32_797
  let v1916 : Index := Scalar.indexCast v1915
  ![v1916.toNat]
def k0_off959 (i : grid0.Coords) : Fin 1 → Nat :=
  let arg0 : BitVec 32 := BitVec.ofNat 32 (i 0).val
  let c256_i32 : BitVec 32 := 256#32
  let v0 : BitVec 32 := Scalar.muli arg0 c256_i32
  let c159_i32_797 : BitVec 32 := 159#32
  let v1915 : BitVec 32 := Scalar.addi v0 c159_i32_797
  let v3073 : Index := Scalar.indexCast v1915
  ![v3073.toNat]
def k0_off960 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c159_i32_797 : BitVec 32 := 159#32
  let v1915 : BitVec 32 := Scalar.addi v0 c159_i32_797
  let c0_i32_1282 : BitVec 32 := 0#32
  ![v1915.toNat, v3074.toNat, 0]
def k0_cond320 (v1917 : BitVec 32) : BitVec 1 :=
  let c0_i32_798 : BitVec 32 := 0#32
  let v1918 : BitVec 1 := Scalar.cmpi .sgt v1917 c0_i32_798
  let v1919 : BitVec 32 := Scalar.extui v1918
  let c0_i32_799 : BitVec 32 := 0#32
  let v1920 : BitVec 1 := Scalar.cmpi .ne v1919 c0_i32_799
  v1920

def k0_chk320 (i : grid0.Coords) (v1917 : BitVec 32) (v3074 : BitVec 32) : Prop :=
  (∀ (k0_h320 : k0_cond320 v1917 = 1#1), ∀ a, (k0_off960 i v3074) a + S1x1x512.size a ≤ S1024x200x512.size a)
instance k0_chk320.dec : ∀ (i : grid0.Coords) (v1917 : BitVec 32) (v3074 : BitVec 32), Decidable (k0_chk320 i v1917 v3074) := fun i v1917 v3074 => decidable_of_iff' _ (Iff.of_eq (k0_chk320.eq_1 i v1917 v3074))
theorem k0_off960_inb : ∀ (i : grid0.Coords) (v1917 : BitVec 32) (v3074 : BitVec 32) (k0_hw320 : k0_chk320 i v1917 v3074), ∀ (k0_h320 : k0_cond320 v1917 = 1#1), ∀ a, (k0_off960 i v3074) a + S1x1x512.size a ≤ S1024x200x512.size a := fun i v1917 v3074 k0_hw320 k0_h320 => k0_hw320 k0_h320

def k0_off961 (i : grid0.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v1921 : BitVec 32 := Scalar.addi v0 c160_i32
  let v1922 : Index := Scalar.indexCast v1921
  ![v1922.toNat]
def k0_off962 (i : grid0.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v1921 : BitVec 32 := Scalar.addi v0 c160_i32
  let v3073 : Index := Scalar.indexCast v1921
  ![v3073.toNat]
def k0_off963 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c160_i32 : BitVec 32 := 160#32
  let v1921 : BitVec 32 := Scalar.addi v0 c160_i32
  let c0_i32_1287 : BitVec 32 := 0#32
  ![v1921.toNat, v3074.toNat, 0]
def k0_cond321 (v1923 : BitVec 32) : BitVec 1 :=
  let c0_i32_800 : BitVec 32 := 0#32
  let v1924 : BitVec 1 := Scalar.cmpi .sgt v1923 c0_i32_800
  let v1925 : BitVec 32 := Scalar.extui v1924
  let c0_i32_801 : BitVec 32 := 0#32
  let v1926 : BitVec 1 := Scalar.cmpi .ne v1925 c0_i32_801
  v1926

def k0_chk321 (i : grid0.Coords) (v1923 : BitVec 32) (v3074 : BitVec 32) : Prop :=
  (∀ (k0_h321 : k0_cond321 v1923 = 1#1), ∀ a, (k0_off963 i v3074) a + S1x1x512.size a ≤ S1024x200x512.size a)
instance k0_chk321.dec : ∀ (i : grid0.Coords) (v1923 : BitVec 32) (v3074 : BitVec 32), Decidable (k0_chk321 i v1923 v3074) := fun i v1923 v3074 => decidable_of_iff' _ (Iff.of_eq (k0_chk321.eq_1 i v1923 v3074))
theorem k0_off963_inb : ∀ (i : grid0.Coords) (v1923 : BitVec 32) (v3074 : BitVec 32) (k0_hw321 : k0_chk321 i v1923 v3074), ∀ (k0_h321 : k0_cond321 v1923 = 1#1), ∀ a, (k0_off963 i v3074) a + S1x1x512.size a ≤ S1024x200x512.size a := fun i v1923 v3074 k0_hw321 k0_h321 => k0_hw321 k0_h321

def k0_off964 (i : grid0.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v1927 : BitVec 32 := Scalar.addi v0 c161_i32
  let v1928 : Index := Scalar.indexCast v1927
  ![v1928.toNat]
def k0_off965 (i : grid0.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v1927 : BitVec 32 := Scalar.addi v0 c161_i32
  let v3073 : Index := Scalar.indexCast v1927
  ![v3073.toNat]
def k0_off966 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c161_i32 : BitVec 32 := 161#32
  let v1927 : BitVec 32 := Scalar.addi v0 c161_i32
  let c0_i32_1287 : BitVec 32 := 0#32
  ![v1927.toNat, v3074.toNat, 0]
def k0_cond322 (v1929 : BitVec 32) : BitVec 1 :=
  let c0_i32_802 : BitVec 32 := 0#32
  let v1930 : BitVec 1 := Scalar.cmpi .sgt v1929 c0_i32_802
  let v1931 : BitVec 32 := Scalar.extui v1930
  let c0_i32_803 : BitVec 32 := 0#32
  let v1932 : BitVec 1 := Scalar.cmpi .ne v1931 c0_i32_803
  v1932

def k0_chk322 (i : grid0.Coords) (v1929 : BitVec 32) (v3074 : BitVec 32) : Prop :=
  (∀ (k0_h322 : k0_cond322 v1929 = 1#1), ∀ a, (k0_off966 i v3074) a + S1x1x512.size a ≤ S1024x200x512.size a)
instance k0_chk322.dec : ∀ (i : grid0.Coords) (v1929 : BitVec 32) (v3074 : BitVec 32), Decidable (k0_chk322 i v1929 v3074) := fun i v1929 v3074 => decidable_of_iff' _ (Iff.of_eq (k0_chk322.eq_1 i v1929 v3074))
theorem k0_off966_inb : ∀ (i : grid0.Coords) (v1929 : BitVec 32) (v3074 : BitVec 32) (k0_hw322 : k0_chk322 i v1929 v3074), ∀ (k0_h322 : k0_cond322 v1929 = 1#1), ∀ a, (k0_off966 i v3074) a + S1x1x512.size a ≤ S1024x200x512.size a := fun i v1929 v3074 k0_hw322 k0_h322 => k0_hw322 k0_h322

def k0_off967 (i : grid0.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v1933 : BitVec 32 := Scalar.addi v0 c162_i32
  let v1934 : Index := Scalar.indexCast v1933
  ![v1934.toNat]
def k0_off968 (i : grid0.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v1933 : BitVec 32 := Scalar.addi v0 c162_i32
  let v3073 : Index := Scalar.indexCast v1933
  ![v3073.toNat]
def k0_off969 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c162_i32 : BitVec 32 := 162#32
  let v1933 : BitVec 32 := Scalar.addi v0 c162_i32
  let c0_i32_1287 : BitVec 32 := 0#32
  ![v1933.toNat, v3074.toNat, 0]
def k0_cond323 (v1935 : BitVec 32) : BitVec 1 :=
  let c0_i32_804 : BitVec 32 := 0#32
  let v1936 : BitVec 1 := Scalar.cmpi .sgt v1935 c0_i32_804
  let v1937 : BitVec 32 := Scalar.extui v1936
  let c0_i32_805 : BitVec 32 := 0#32
  let v1938 : BitVec 1 := Scalar.cmpi .ne v1937 c0_i32_805
  v1938

def k0_chk323 (i : grid0.Coords) (v1935 : BitVec 32) (v3074 : BitVec 32) : Prop :=
  (∀ (k0_h323 : k0_cond323 v1935 = 1#1), ∀ a, (k0_off969 i v3074) a + S1x1x512.size a ≤ S1024x200x512.size a)
instance k0_chk323.dec : ∀ (i : grid0.Coords) (v1935 : BitVec 32) (v3074 : BitVec 32), Decidable (k0_chk323 i v1935 v3074) := fun i v1935 v3074 => decidable_of_iff' _ (Iff.of_eq (k0_chk323.eq_1 i v1935 v3074))
theorem k0_off969_inb : ∀ (i : grid0.Coords) (v1935 : BitVec 32) (v3074 : BitVec 32) (k0_hw323 : k0_chk323 i v1935 v3074), ∀ (k0_h323 : k0_cond323 v1935 = 1#1), ∀ a, (k0_off969 i v3074) a + S1x1x512.size a ≤ S1024x200x512.size a := fun i v1935 v3074 k0_hw323 k0_h323 => k0_hw323 k0_h323

def k0_off970 (i : grid0.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v1939 : BitVec 32 := Scalar.addi v0 c163_i32
  let v1940 : Index := Scalar.indexCast v1939
  ![v1940.toNat]
def k0_off971 (i : grid0.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v1939 : BitVec 32 := Scalar.addi v0 c163_i32
  let v3073 : Index := Scalar.indexCast v1939
  ![v3073.toNat]
def k0_off972 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c163_i32 : BitVec 32 := 163#32
  let v1939 : BitVec 32 := Scalar.addi v0 c163_i32
  let c0_i32_1287 : BitVec 32 := 0#32
  ![v1939.toNat, v3074.toNat, 0]
def k0_cond324 (v1941 : BitVec 32) : BitVec 1 :=
  let c0_i32_806 : BitVec 32 := 0#32
  let v1942 : BitVec 1 := Scalar.cmpi .sgt v1941 c0_i32_806
  let v1943 : BitVec 32 := Scalar.extui v1942
  let c0_i32_807 : BitVec 32 := 0#32
  let v1944 : BitVec 1 := Scalar.cmpi .ne v1943 c0_i32_807
  v1944

def k0_chk324 (i : grid0.Coords) (v1941 : BitVec 32) (v3074 : BitVec 32) : Prop :=
  (∀ (k0_h324 : k0_cond324 v1941 = 1#1), ∀ a, (k0_off972 i v3074) a + S1x1x512.size a ≤ S1024x200x512.size a)
instance k0_chk324.dec : ∀ (i : grid0.Coords) (v1941 : BitVec 32) (v3074 : BitVec 32), Decidable (k0_chk324 i v1941 v3074) := fun i v1941 v3074 => decidable_of_iff' _ (Iff.of_eq (k0_chk324.eq_1 i v1941 v3074))
theorem k0_off972_inb : ∀ (i : grid0.Coords) (v1941 : BitVec 32) (v3074 : BitVec 32) (k0_hw324 : k0_chk324 i v1941 v3074), ∀ (k0_h324 : k0_cond324 v1941 = 1#1), ∀ a, (k0_off972 i v3074) a + S1x1x512.size a ≤ S1024x200x512.size a := fun i v1941 v3074 k0_hw324 k0_h324 => k0_hw324 k0_h324

def k0_off973 (i : grid0.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v1945 : BitVec 32 := Scalar.addi v0 c164_i32
  let v1946 : Index := Scalar.indexCast v1945
  ![v1946.toNat]
def k0_off974 (i : grid0.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v1945 : BitVec 32 := Scalar.addi v0 c164_i32
  let v3073 : Index := Scalar.indexCast v1945
  ![v3073.toNat]
def k0_off975 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c164_i32 : BitVec 32 := 164#32
  let v1945 : BitVec 32 := Scalar.addi v0 c164_i32
  let c0_i32_1287 : BitVec 32 := 0#32
  ![v1945.toNat, v3074.toNat, 0]
def k0_cond325 (v1947 : BitVec 32) : BitVec 1 :=
  let c0_i32_808 : BitVec 32 := 0#32
  let v1948 : BitVec 1 := Scalar.cmpi .sgt v1947 c0_i32_808
  let v1949 : BitVec 32 := Scalar.extui v1948
  let c0_i32_809 : BitVec 32 := 0#32
  let v1950 : BitVec 1 := Scalar.cmpi .ne v1949 c0_i32_809
  v1950

def k0_chk325 (i : grid0.Coords) (v1947 : BitVec 32) (v3074 : BitVec 32) : Prop :=
  (∀ (k0_h325 : k0_cond325 v1947 = 1#1), ∀ a, (k0_off975 i v3074) a + S1x1x512.size a ≤ S1024x200x512.size a)
instance k0_chk325.dec : ∀ (i : grid0.Coords) (v1947 : BitVec 32) (v3074 : BitVec 32), Decidable (k0_chk325 i v1947 v3074) := fun i v1947 v3074 => decidable_of_iff' _ (Iff.of_eq (k0_chk325.eq_1 i v1947 v3074))
theorem k0_off975_inb : ∀ (i : grid0.Coords) (v1947 : BitVec 32) (v3074 : BitVec 32) (k0_hw325 : k0_chk325 i v1947 v3074), ∀ (k0_h325 : k0_cond325 v1947 = 1#1), ∀ a, (k0_off975 i v3074) a + S1x1x512.size a ≤ S1024x200x512.size a := fun i v1947 v3074 k0_hw325 k0_h325 => k0_hw325 k0_h325

def k0_off976 (i : grid0.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v1951 : BitVec 32 := Scalar.addi v0 c165_i32
  let v1952 : Index := Scalar.indexCast v1951
  ![v1952.toNat]
def k0_off977 (i : grid0.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v1951 : BitVec 32 := Scalar.addi v0 c165_i32
  let v3073 : Index := Scalar.indexCast v1951
  ![v3073.toNat]
def k0_off978 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c165_i32 : BitVec 32 := 165#32
  let v1951 : BitVec 32 := Scalar.addi v0 c165_i32
  let c0_i32_1287 : BitVec 32 := 0#32
  ![v1951.toNat, v3074.toNat, 0]
def k0_cond326 (v1953 : BitVec 32) : BitVec 1 :=
  let c0_i32_810 : BitVec 32 := 0#32
  let v1954 : BitVec 1 := Scalar.cmpi .sgt v1953 c0_i32_810
  let v1955 : BitVec 32 := Scalar.extui v1954
  let c0_i32_811 : BitVec 32 := 0#32
  let v1956 : BitVec 1 := Scalar.cmpi .ne v1955 c0_i32_811
  v1956

def k0_chk326 (i : grid0.Coords) (v1953 : BitVec 32) (v3074 : BitVec 32) : Prop :=
  (∀ (k0_h326 : k0_cond326 v1953 = 1#1), ∀ a, (k0_off978 i v3074) a + S1x1x512.size a ≤ S1024x200x512.size a)
instance k0_chk326.dec : ∀ (i : grid0.Coords) (v1953 : BitVec 32) (v3074 : BitVec 32), Decidable (k0_chk326 i v1953 v3074) := fun i v1953 v3074 => decidable_of_iff' _ (Iff.of_eq (k0_chk326.eq_1 i v1953 v3074))
theorem k0_off978_inb : ∀ (i : grid0.Coords) (v1953 : BitVec 32) (v3074 : BitVec 32) (k0_hw326 : k0_chk326 i v1953 v3074), ∀ (k0_h326 : k0_cond326 v1953 = 1#1), ∀ a, (k0_off978 i v3074) a + S1x1x512.size a ≤ S1024x200x512.size a := fun i v1953 v3074 k0_hw326 k0_h326 => k0_hw326 k0_h326

def k0_off979 (i : grid0.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v1957 : BitVec 32 := Scalar.addi v0 c166_i32
  let v1958 : Index := Scalar.indexCast v1957
  ![v1958.toNat]
def k0_off980 (i : grid0.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v1957 : BitVec 32 := Scalar.addi v0 c166_i32
  let v3073 : Index := Scalar.indexCast v1957
  ![v3073.toNat]
def k0_off981 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c166_i32 : BitVec 32 := 166#32
  let v1957 : BitVec 32 := Scalar.addi v0 c166_i32
  let c0_i32_1287 : BitVec 32 := 0#32
  ![v1957.toNat, v3074.toNat, 0]
def k0_cond327 (v1959 : BitVec 32) : BitVec 1 :=
  let c0_i32_812 : BitVec 32 := 0#32
  let v1960 : BitVec 1 := Scalar.cmpi .sgt v1959 c0_i32_812
  let v1961 : BitVec 32 := Scalar.extui v1960
  let c0_i32_813 : BitVec 32 := 0#32
  let v1962 : BitVec 1 := Scalar.cmpi .ne v1961 c0_i32_813
  v1962

def k0_chk327 (i : grid0.Coords) (v1959 : BitVec 32) (v3074 : BitVec 32) : Prop :=
  (∀ (k0_h327 : k0_cond327 v1959 = 1#1), ∀ a, (k0_off981 i v3074) a + S1x1x512.size a ≤ S1024x200x512.size a)
instance k0_chk327.dec : ∀ (i : grid0.Coords) (v1959 : BitVec 32) (v3074 : BitVec 32), Decidable (k0_chk327 i v1959 v3074) := fun i v1959 v3074 => decidable_of_iff' _ (Iff.of_eq (k0_chk327.eq_1 i v1959 v3074))
theorem k0_off981_inb : ∀ (i : grid0.Coords) (v1959 : BitVec 32) (v3074 : BitVec 32) (k0_hw327 : k0_chk327 i v1959 v3074), ∀ (k0_h327 : k0_cond327 v1959 = 1#1), ∀ a, (k0_off981 i v3074) a + S1x1x512.size a ≤ S1024x200x512.size a := fun i v1959 v3074 k0_hw327 k0_h327 => k0_hw327 k0_h327

def k0_off982 (i : grid0.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v1963 : BitVec 32 := Scalar.addi v0 c167_i32
  let v1964 : Index := Scalar.indexCast v1963
  ![v1964.toNat]
def k0_off983 (i : grid0.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v1963 : BitVec 32 := Scalar.addi v0 c167_i32
  let v3073 : Index := Scalar.indexCast v1963
  ![v3073.toNat]
def k0_off984 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c167_i32 : BitVec 32 := 167#32
  let v1963 : BitVec 32 := Scalar.addi v0 c167_i32
  let c0_i32_1287 : BitVec 32 := 0#32
  ![v1963.toNat, v3074.toNat, 0]
def k0_cond328 (v1965 : BitVec 32) : BitVec 1 :=
  let c0_i32_814 : BitVec 32 := 0#32
  let v1966 : BitVec 1 := Scalar.cmpi .sgt v1965 c0_i32_814
  let v1967 : BitVec 32 := Scalar.extui v1966
  let c0_i32_815 : BitVec 32 := 0#32
  let v1968 : BitVec 1 := Scalar.cmpi .ne v1967 c0_i32_815
  v1968

def k0_chk328 (i : grid0.Coords) (v1965 : BitVec 32) (v3074 : BitVec 32) : Prop :=
  (∀ (k0_h328 : k0_cond328 v1965 = 1#1), ∀ a, (k0_off984 i v3074) a + S1x1x512.size a ≤ S1024x200x512.size a)
instance k0_chk328.dec : ∀ (i : grid0.Coords) (v1965 : BitVec 32) (v3074 : BitVec 32), Decidable (k0_chk328 i v1965 v3074) := fun i v1965 v3074 => decidable_of_iff' _ (Iff.of_eq (k0_chk328.eq_1 i v1965 v3074))
theorem k0_off984_inb : ∀ (i : grid0.Coords) (v1965 : BitVec 32) (v3074 : BitVec 32) (k0_hw328 : k0_chk328 i v1965 v3074), ∀ (k0_h328 : k0_cond328 v1965 = 1#1), ∀ a, (k0_off984 i v3074) a + S1x1x512.size a ≤ S1024x200x512.size a := fun i v1965 v3074 k0_hw328 k0_h328 => k0_hw328 k0_h328

def k0_off985 (i : grid0.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v1969 : BitVec 32 := Scalar.addi v0 c168_i32
  let v1970 : Index := Scalar.indexCast v1969
  ![v1970.toNat]
def k0_off986 (i : grid0.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v1969 : BitVec 32 := Scalar.addi v0 c168_i32
  let v3073 : Index := Scalar.indexCast v1969
  ![v3073.toNat]
def k0_off987 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c168_i32 : BitVec 32 := 168#32
  let v1969 : BitVec 32 := Scalar.addi v0 c168_i32
  let c0_i32_1287 : BitVec 32 := 0#32
  ![v1969.toNat, v3074.toNat, 0]
def k0_cond329 (v1971 : BitVec 32) : BitVec 1 :=
  let c0_i32_816 : BitVec 32 := 0#32
  let v1972 : BitVec 1 := Scalar.cmpi .sgt v1971 c0_i32_816
  let v1973 : BitVec 32 := Scalar.extui v1972
  let c0_i32_817 : BitVec 32 := 0#32
  let v1974 : BitVec 1 := Scalar.cmpi .ne v1973 c0_i32_817
  v1974

def k0_chk329 (i : grid0.Coords) (v1971 : BitVec 32) (v3074 : BitVec 32) : Prop :=
  (∀ (k0_h329 : k0_cond329 v1971 = 1#1), ∀ a, (k0_off987 i v3074) a + S1x1x512.size a ≤ S1024x200x512.size a)
instance k0_chk329.dec : ∀ (i : grid0.Coords) (v1971 : BitVec 32) (v3074 : BitVec 32), Decidable (k0_chk329 i v1971 v3074) := fun i v1971 v3074 => decidable_of_iff' _ (Iff.of_eq (k0_chk329.eq_1 i v1971 v3074))
theorem k0_off987_inb : ∀ (i : grid0.Coords) (v1971 : BitVec 32) (v3074 : BitVec 32) (k0_hw329 : k0_chk329 i v1971 v3074), ∀ (k0_h329 : k0_cond329 v1971 = 1#1), ∀ a, (k0_off987 i v3074) a + S1x1x512.size a ≤ S1024x200x512.size a := fun i v1971 v3074 k0_hw329 k0_h329 => k0_hw329 k0_h329

def k0_off988 (i : grid0.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v1975 : BitVec 32 := Scalar.addi v0 c169_i32
  let v1976 : Index := Scalar.indexCast v1975
  ![v1976.toNat]
def k0_off989 (i : grid0.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v1975 : BitVec 32 := Scalar.addi v0 c169_i32
  let v3073 : Index := Scalar.indexCast v1975
  ![v3073.toNat]
def k0_off990 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c169_i32 : BitVec 32 := 169#32
  let v1975 : BitVec 32 := Scalar.addi v0 c169_i32
  let c0_i32_1287 : BitVec 32 := 0#32
  ![v1975.toNat, v3074.toNat, 0]
def k0_cond330 (v1977 : BitVec 32) : BitVec 1 :=
  let c0_i32_818 : BitVec 32 := 0#32
  let v1978 : BitVec 1 := Scalar.cmpi .sgt v1977 c0_i32_818
  let v1979 : BitVec 32 := Scalar.extui v1978
  let c0_i32_819 : BitVec 32 := 0#32
  let v1980 : BitVec 1 := Scalar.cmpi .ne v1979 c0_i32_819
  v1980

def k0_chk330 (i : grid0.Coords) (v1977 : BitVec 32) (v3074 : BitVec 32) : Prop :=
  (∀ (k0_h330 : k0_cond330 v1977 = 1#1), ∀ a, (k0_off990 i v3074) a + S1x1x512.size a ≤ S1024x200x512.size a)
instance k0_chk330.dec : ∀ (i : grid0.Coords) (v1977 : BitVec 32) (v3074 : BitVec 32), Decidable (k0_chk330 i v1977 v3074) := fun i v1977 v3074 => decidable_of_iff' _ (Iff.of_eq (k0_chk330.eq_1 i v1977 v3074))
theorem k0_off990_inb : ∀ (i : grid0.Coords) (v1977 : BitVec 32) (v3074 : BitVec 32) (k0_hw330 : k0_chk330 i v1977 v3074), ∀ (k0_h330 : k0_cond330 v1977 = 1#1), ∀ a, (k0_off990 i v3074) a + S1x1x512.size a ≤ S1024x200x512.size a := fun i v1977 v3074 k0_hw330 k0_h330 => k0_hw330 k0_h330

def k0_off991 (i : grid0.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v1981 : BitVec 32 := Scalar.addi v0 c170_i32
  let v1982 : Index := Scalar.indexCast v1981
  ![v1982.toNat]
def k0_off992 (i : grid0.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v1981 : BitVec 32 := Scalar.addi v0 c170_i32
  let v3073 : Index := Scalar.indexCast v1981
  ![v3073.toNat]
def k0_off993 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c170_i32 : BitVec 32 := 170#32
  let v1981 : BitVec 32 := Scalar.addi v0 c170_i32
  let c0_i32_1287 : BitVec 32 := 0#32
  ![v1981.toNat, v3074.toNat, 0]
def k0_cond331 (v1983 : BitVec 32) : BitVec 1 :=
  let c0_i32_820 : BitVec 32 := 0#32
  let v1984 : BitVec 1 := Scalar.cmpi .sgt v1983 c0_i32_820
  let v1985 : BitVec 32 := Scalar.extui v1984
  let c0_i32_821 : BitVec 32 := 0#32
  let v1986 : BitVec 1 := Scalar.cmpi .ne v1985 c0_i32_821
  v1986

def k0_chk331 (i : grid0.Coords) (v1983 : BitVec 32) (v3074 : BitVec 32) : Prop :=
  (∀ (k0_h331 : k0_cond331 v1983 = 1#1), ∀ a, (k0_off993 i v3074) a + S1x1x512.size a ≤ S1024x200x512.size a)
instance k0_chk331.dec : ∀ (i : grid0.Coords) (v1983 : BitVec 32) (v3074 : BitVec 32), Decidable (k0_chk331 i v1983 v3074) := fun i v1983 v3074 => decidable_of_iff' _ (Iff.of_eq (k0_chk331.eq_1 i v1983 v3074))
theorem k0_off993_inb : ∀ (i : grid0.Coords) (v1983 : BitVec 32) (v3074 : BitVec 32) (k0_hw331 : k0_chk331 i v1983 v3074), ∀ (k0_h331 : k0_cond331 v1983 = 1#1), ∀ a, (k0_off993 i v3074) a + S1x1x512.size a ≤ S1024x200x512.size a := fun i v1983 v3074 k0_hw331 k0_h331 => k0_hw331 k0_h331

def k0_off994 (i : grid0.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v1987 : BitVec 32 := Scalar.addi v0 c171_i32
  let v1988 : Index := Scalar.indexCast v1987
  ![v1988.toNat]
def k0_off995 (i : grid0.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v1987 : BitVec 32 := Scalar.addi v0 c171_i32
  let v3073 : Index := Scalar.indexCast v1987
  ![v3073.toNat]
def k0_off996 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c171_i32 : BitVec 32 := 171#32
  let v1987 : BitVec 32 := Scalar.addi v0 c171_i32
  let c0_i32_1287 : BitVec 32 := 0#32
  ![v1987.toNat, v3074.toNat, 0]
def k0_cond332 (v1989 : BitVec 32) : BitVec 1 :=
  let c0_i32_822 : BitVec 32 := 0#32
  let v1990 : BitVec 1 := Scalar.cmpi .sgt v1989 c0_i32_822
  let v1991 : BitVec 32 := Scalar.extui v1990
  let c0_i32_823 : BitVec 32 := 0#32
  let v1992 : BitVec 1 := Scalar.cmpi .ne v1991 c0_i32_823
  v1992

def k0_chk332 (i : grid0.Coords) (v1989 : BitVec 32) (v3074 : BitVec 32) : Prop :=
  (∀ (k0_h332 : k0_cond332 v1989 = 1#1), ∀ a, (k0_off996 i v3074) a + S1x1x512.size a ≤ S1024x200x512.size a)
instance k0_chk332.dec : ∀ (i : grid0.Coords) (v1989 : BitVec 32) (v3074 : BitVec 32), Decidable (k0_chk332 i v1989 v3074) := fun i v1989 v3074 => decidable_of_iff' _ (Iff.of_eq (k0_chk332.eq_1 i v1989 v3074))
theorem k0_off996_inb : ∀ (i : grid0.Coords) (v1989 : BitVec 32) (v3074 : BitVec 32) (k0_hw332 : k0_chk332 i v1989 v3074), ∀ (k0_h332 : k0_cond332 v1989 = 1#1), ∀ a, (k0_off996 i v3074) a + S1x1x512.size a ≤ S1024x200x512.size a := fun i v1989 v3074 k0_hw332 k0_h332 => k0_hw332 k0_h332

def k0_off997 (i : grid0.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v1993 : BitVec 32 := Scalar.addi v0 c172_i32
  let v1994 : Index := Scalar.indexCast v1993
  ![v1994.toNat]
def k0_off998 (i : grid0.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v1993 : BitVec 32 := Scalar.addi v0 c172_i32
  let v3073 : Index := Scalar.indexCast v1993
  ![v3073.toNat]
def k0_off999 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c172_i32 : BitVec 32 := 172#32
  let v1993 : BitVec 32 := Scalar.addi v0 c172_i32
  let c0_i32_1287 : BitVec 32 := 0#32
  ![v1993.toNat, v3074.toNat, 0]
def k0_cond333 (v1995 : BitVec 32) : BitVec 1 :=
  let c0_i32_824 : BitVec 32 := 0#32
  let v1996 : BitVec 1 := Scalar.cmpi .sgt v1995 c0_i32_824
  let v1997 : BitVec 32 := Scalar.extui v1996
  let c0_i32_825 : BitVec 32 := 0#32
  let v1998 : BitVec 1 := Scalar.cmpi .ne v1997 c0_i32_825
  v1998

def k0_chk333 (i : grid0.Coords) (v1995 : BitVec 32) (v3074 : BitVec 32) : Prop :=
  (∀ (k0_h333 : k0_cond333 v1995 = 1#1), ∀ a, (k0_off999 i v3074) a + S1x1x512.size a ≤ S1024x200x512.size a)
instance k0_chk333.dec : ∀ (i : grid0.Coords) (v1995 : BitVec 32) (v3074 : BitVec 32), Decidable (k0_chk333 i v1995 v3074) := fun i v1995 v3074 => decidable_of_iff' _ (Iff.of_eq (k0_chk333.eq_1 i v1995 v3074))
theorem k0_off999_inb : ∀ (i : grid0.Coords) (v1995 : BitVec 32) (v3074 : BitVec 32) (k0_hw333 : k0_chk333 i v1995 v3074), ∀ (k0_h333 : k0_cond333 v1995 = 1#1), ∀ a, (k0_off999 i v3074) a + S1x1x512.size a ≤ S1024x200x512.size a := fun i v1995 v3074 k0_hw333 k0_h333 => k0_hw333 k0_h333

def k0_off1000 (i : grid0.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v1999 : BitVec 32 := Scalar.addi v0 c173_i32
  let v2000 : Index := Scalar.indexCast v1999
  ![v2000.toNat]
def k0_off1001 (i : grid0.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v1999 : BitVec 32 := Scalar.addi v0 c173_i32
  let v3073 : Index := Scalar.indexCast v1999
  ![v3073.toNat]
def k0_off1002 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c173_i32 : BitVec 32 := 173#32
  let v1999 : BitVec 32 := Scalar.addi v0 c173_i32
  let c0_i32_1287 : BitVec 32 := 0#32
  ![v1999.toNat, v3074.toNat, 0]
def k0_cond334 (v2001 : BitVec 32) : BitVec 1 :=
  let c0_i32_826 : BitVec 32 := 0#32
  let v2002 : BitVec 1 := Scalar.cmpi .sgt v2001 c0_i32_826
  let v2003 : BitVec 32 := Scalar.extui v2002
  let c0_i32_827 : BitVec 32 := 0#32
  let v2004 : BitVec 1 := Scalar.cmpi .ne v2003 c0_i32_827
  v2004

def k0_chk334 (i : grid0.Coords) (v2001 : BitVec 32) (v3074 : BitVec 32) : Prop :=
  (∀ (k0_h334 : k0_cond334 v2001 = 1#1), ∀ a, (k0_off1002 i v3074) a + S1x1x512.size a ≤ S1024x200x512.size a)
instance k0_chk334.dec : ∀ (i : grid0.Coords) (v2001 : BitVec 32) (v3074 : BitVec 32), Decidable (k0_chk334 i v2001 v3074) := fun i v2001 v3074 => decidable_of_iff' _ (Iff.of_eq (k0_chk334.eq_1 i v2001 v3074))
theorem k0_off1002_inb : ∀ (i : grid0.Coords) (v2001 : BitVec 32) (v3074 : BitVec 32) (k0_hw334 : k0_chk334 i v2001 v3074), ∀ (k0_h334 : k0_cond334 v2001 = 1#1), ∀ a, (k0_off1002 i v3074) a + S1x1x512.size a ≤ S1024x200x512.size a := fun i v2001 v3074 k0_hw334 k0_h334 => k0_hw334 k0_h334

def k0_off1003 (i : grid0.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v2005 : BitVec 32 := Scalar.addi v0 c174_i32
  let v2006 : Index := Scalar.indexCast v2005
  ![v2006.toNat]
def k0_off1004 (i : grid0.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v2005 : BitVec 32 := Scalar.addi v0 c174_i32
  let v3073 : Index := Scalar.indexCast v2005
  ![v3073.toNat]
def k0_off1005 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c174_i32 : BitVec 32 := 174#32
  let v2005 : BitVec 32 := Scalar.addi v0 c174_i32
  let c0_i32_1287 : BitVec 32 := 0#32
  ![v2005.toNat, v3074.toNat, 0]
def k0_cond335 (v2007 : BitVec 32) : BitVec 1 :=
  let c0_i32_828 : BitVec 32 := 0#32
  let v2008 : BitVec 1 := Scalar.cmpi .sgt v2007 c0_i32_828
  let v2009 : BitVec 32 := Scalar.extui v2008
  let c0_i32_829 : BitVec 32 := 0#32
  let v2010 : BitVec 1 := Scalar.cmpi .ne v2009 c0_i32_829
  v2010

def k0_chk335 (i : grid0.Coords) (v2007 : BitVec 32) (v3074 : BitVec 32) : Prop :=
  (∀ (k0_h335 : k0_cond335 v2007 = 1#1), ∀ a, (k0_off1005 i v3074) a + S1x1x512.size a ≤ S1024x200x512.size a)
instance k0_chk335.dec : ∀ (i : grid0.Coords) (v2007 : BitVec 32) (v3074 : BitVec 32), Decidable (k0_chk335 i v2007 v3074) := fun i v2007 v3074 => decidable_of_iff' _ (Iff.of_eq (k0_chk335.eq_1 i v2007 v3074))
theorem k0_off1005_inb : ∀ (i : grid0.Coords) (v2007 : BitVec 32) (v3074 : BitVec 32) (k0_hw335 : k0_chk335 i v2007 v3074), ∀ (k0_h335 : k0_cond335 v2007 = 1#1), ∀ a, (k0_off1005 i v3074) a + S1x1x512.size a ≤ S1024x200x512.size a := fun i v2007 v3074 k0_hw335 k0_h335 => k0_hw335 k0_h335

def k0_off1006 (i : grid0.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v2011 : BitVec 32 := Scalar.addi v0 c175_i32
  let v2012 : Index := Scalar.indexCast v2011
  ![v2012.toNat]
def k0_off1007 (i : grid0.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v2011 : BitVec 32 := Scalar.addi v0 c175_i32
  let v3073 : Index := Scalar.indexCast v2011
  ![v3073.toNat]
def k0_off1008 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c175_i32 : BitVec 32 := 175#32
  let v2011 : BitVec 32 := Scalar.addi v0 c175_i32
  let c0_i32_1287 : BitVec 32 := 0#32
  ![v2011.toNat, v3074.toNat, 0]
def k0_cond336 (v2013 : BitVec 32) : BitVec 1 :=
  let c0_i32_830 : BitVec 32 := 0#32
  let v2014 : BitVec 1 := Scalar.cmpi .sgt v2013 c0_i32_830
  let v2015 : BitVec 32 := Scalar.extui v2014
  let c0_i32_831 : BitVec 32 := 0#32
  let v2016 : BitVec 1 := Scalar.cmpi .ne v2015 c0_i32_831
  v2016

def k0_chk336 (i : grid0.Coords) (v2013 : BitVec 32) (v3074 : BitVec 32) : Prop :=
  (∀ (k0_h336 : k0_cond336 v2013 = 1#1), ∀ a, (k0_off1008 i v3074) a + S1x1x512.size a ≤ S1024x200x512.size a)
instance k0_chk336.dec : ∀ (i : grid0.Coords) (v2013 : BitVec 32) (v3074 : BitVec 32), Decidable (k0_chk336 i v2013 v3074) := fun i v2013 v3074 => decidable_of_iff' _ (Iff.of_eq (k0_chk336.eq_1 i v2013 v3074))
theorem k0_off1008_inb : ∀ (i : grid0.Coords) (v2013 : BitVec 32) (v3074 : BitVec 32) (k0_hw336 : k0_chk336 i v2013 v3074), ∀ (k0_h336 : k0_cond336 v2013 = 1#1), ∀ a, (k0_off1008 i v3074) a + S1x1x512.size a ≤ S1024x200x512.size a := fun i v2013 v3074 k0_hw336 k0_h336 => k0_hw336 k0_h336

def k0_off1009 (i : grid0.Coords) : Fin 1 → Nat :=
  let arg0 : BitVec 32 := BitVec.ofNat 32 (i 0).val
  let c256_i32 : BitVec 32 := 256#32
  let v0 : BitVec 32 := Scalar.muli arg0 c256_i32
  let c160_i32_832 : BitVec 32 := 160#32
  let v2017 : BitVec 32 := Scalar.addi v0 c160_i32_832
  let v2018 : Index := Scalar.indexCast v2017
  ![v2018.toNat]
def k0_off1010 (i : grid0.Coords) : Fin 1 → Nat :=
  let arg0 : BitVec 32 := BitVec.ofNat 32 (i 0).val
  let c256_i32 : BitVec 32 := 256#32
  let v0 : BitVec 32 := Scalar.muli arg0 c256_i32
  let c160_i32_832 : BitVec 32 := 160#32
  let v2017 : BitVec 32 := Scalar.addi v0 c160_i32_832
  let v3073 : Index := Scalar.indexCast v2017
  ![v3073.toNat]
def k0_off1011 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c160_i32_832 : BitVec 32 := 160#32
  let v2017 : BitVec 32 := Scalar.addi v0 c160_i32_832
  let c0_i32_1282 : BitVec 32 := 0#32
  ![v2017.toNat, v3074.toNat, 0]
def k0_cond337 (v2019 : BitVec 32) : BitVec 1 :=
  let c0_i32_833 : BitVec 32 := 0#32
  let v2020 : BitVec 1 := Scalar.cmpi .sgt v2019 c0_i32_833
  let v2021 : BitVec 32 := Scalar.extui v2020
  let c0_i32_834 : BitVec 32 := 0#32
  let v2022 : BitVec 1 := Scalar.cmpi .ne v2021 c0_i32_834
  v2022

def k0_chk337 (i : grid0.Coords) (v2019 : BitVec 32) (v3074 : BitVec 32) : Prop :=
  (∀ (k0_h337 : k0_cond337 v2019 = 1#1), ∀ a, (k0_off1011 i v3074) a + S1x1x512.size a ≤ S1024x200x512.size a)
instance k0_chk337.dec : ∀ (i : grid0.Coords) (v2019 : BitVec 32) (v3074 : BitVec 32), Decidable (k0_chk337 i v2019 v3074) := fun i v2019 v3074 => decidable_of_iff' _ (Iff.of_eq (k0_chk337.eq_1 i v2019 v3074))
theorem k0_off1011_inb : ∀ (i : grid0.Coords) (v2019 : BitVec 32) (v3074 : BitVec 32) (k0_hw337 : k0_chk337 i v2019 v3074), ∀ (k0_h337 : k0_cond337 v2019 = 1#1), ∀ a, (k0_off1011 i v3074) a + S1x1x512.size a ≤ S1024x200x512.size a := fun i v2019 v3074 k0_hw337 k0_h337 => k0_hw337 k0_h337

def k0_off1012 (i : grid0.Coords) : Fin 1 → Nat :=
  let arg0 : BitVec 32 := BitVec.ofNat 32 (i 0).val
  let c256_i32 : BitVec 32 := 256#32
  let v0 : BitVec 32 := Scalar.muli arg0 c256_i32
  let c161_i32_835 : BitVec 32 := 161#32
  let v2023 : BitVec 32 := Scalar.addi v0 c161_i32_835
  let v2024 : Index := Scalar.indexCast v2023
  ![v2024.toNat]
def k0_off1013 (i : grid0.Coords) : Fin 1 → Nat :=
  let arg0 : BitVec 32 := BitVec.ofNat 32 (i 0).val
  let c256_i32 : BitVec 32 := 256#32
  let v0 : BitVec 32 := Scalar.muli arg0 c256_i32
  let c161_i32_835 : BitVec 32 := 161#32
  let v2023 : BitVec 32 := Scalar.addi v0 c161_i32_835
  let v3073 : Index := Scalar.indexCast v2023
  ![v3073.toNat]
def k0_off1014 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c161_i32_835 : BitVec 32 := 161#32
  let v2023 : BitVec 32 := Scalar.addi v0 c161_i32_835
  let c0_i32_1282 : BitVec 32 := 0#32
  ![v2023.toNat, v3074.toNat, 0]
def k0_cond338 (v2025 : BitVec 32) : BitVec 1 :=
  let c0_i32_836 : BitVec 32 := 0#32
  let v2026 : BitVec 1 := Scalar.cmpi .sgt v2025 c0_i32_836
  let v2027 : BitVec 32 := Scalar.extui v2026
  let c0_i32_837 : BitVec 32 := 0#32
  let v2028 : BitVec 1 := Scalar.cmpi .ne v2027 c0_i32_837
  v2028

def k0_chk338 (i : grid0.Coords) (v2025 : BitVec 32) (v3074 : BitVec 32) : Prop :=
  (∀ (k0_h338 : k0_cond338 v2025 = 1#1), ∀ a, (k0_off1014 i v3074) a + S1x1x512.size a ≤ S1024x200x512.size a)
instance k0_chk338.dec : ∀ (i : grid0.Coords) (v2025 : BitVec 32) (v3074 : BitVec 32), Decidable (k0_chk338 i v2025 v3074) := fun i v2025 v3074 => decidable_of_iff' _ (Iff.of_eq (k0_chk338.eq_1 i v2025 v3074))
theorem k0_off1014_inb : ∀ (i : grid0.Coords) (v2025 : BitVec 32) (v3074 : BitVec 32) (k0_hw338 : k0_chk338 i v2025 v3074), ∀ (k0_h338 : k0_cond338 v2025 = 1#1), ∀ a, (k0_off1014 i v3074) a + S1x1x512.size a ≤ S1024x200x512.size a := fun i v2025 v3074 k0_hw338 k0_h338 => k0_hw338 k0_h338

def k0_off1015 (i : grid0.Coords) : Fin 1 → Nat :=
  let arg0 : BitVec 32 := BitVec.ofNat 32 (i 0).val
  let c256_i32 : BitVec 32 := 256#32
  let v0 : BitVec 32 := Scalar.muli arg0 c256_i32
  let c162_i32_838 : BitVec 32 := 162#32
  let v2029 : BitVec 32 := Scalar.addi v0 c162_i32_838
  let v2030 : Index := Scalar.indexCast v2029
  ![v2030.toNat]
def k0_off1016 (i : grid0.Coords) : Fin 1 → Nat :=
  let arg0 : BitVec 32 := BitVec.ofNat 32 (i 0).val
  let c256_i32 : BitVec 32 := 256#32
  let v0 : BitVec 32 := Scalar.muli arg0 c256_i32
  let c162_i32_838 : BitVec 32 := 162#32
  let v2029 : BitVec 32 := Scalar.addi v0 c162_i32_838
  let v3073 : Index := Scalar.indexCast v2029
  ![v3073.toNat]
def k0_off1017 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c162_i32_838 : BitVec 32 := 162#32
  let v2029 : BitVec 32 := Scalar.addi v0 c162_i32_838
  let c0_i32_1282 : BitVec 32 := 0#32
  ![v2029.toNat, v3074.toNat, 0]
def k0_cond339 (v2031 : BitVec 32) : BitVec 1 :=
  let c0_i32_839 : BitVec 32 := 0#32
  let v2032 : BitVec 1 := Scalar.cmpi .sgt v2031 c0_i32_839
  let v2033 : BitVec 32 := Scalar.extui v2032
  let c0_i32_840 : BitVec 32 := 0#32
  let v2034 : BitVec 1 := Scalar.cmpi .ne v2033 c0_i32_840
  v2034

def k0_chk339 (i : grid0.Coords) (v2031 : BitVec 32) (v3074 : BitVec 32) : Prop :=
  (∀ (k0_h339 : k0_cond339 v2031 = 1#1), ∀ a, (k0_off1017 i v3074) a + S1x1x512.size a ≤ S1024x200x512.size a)
instance k0_chk339.dec : ∀ (i : grid0.Coords) (v2031 : BitVec 32) (v3074 : BitVec 32), Decidable (k0_chk339 i v2031 v3074) := fun i v2031 v3074 => decidable_of_iff' _ (Iff.of_eq (k0_chk339.eq_1 i v2031 v3074))
theorem k0_off1017_inb : ∀ (i : grid0.Coords) (v2031 : BitVec 32) (v3074 : BitVec 32) (k0_hw339 : k0_chk339 i v2031 v3074), ∀ (k0_h339 : k0_cond339 v2031 = 1#1), ∀ a, (k0_off1017 i v3074) a + S1x1x512.size a ≤ S1024x200x512.size a := fun i v2031 v3074 k0_hw339 k0_h339 => k0_hw339 k0_h339

def k0_off1018 (i : grid0.Coords) : Fin 1 → Nat :=
  let arg0 : BitVec 32 := BitVec.ofNat 32 (i 0).val
  let c256_i32 : BitVec 32 := 256#32
  let v0 : BitVec 32 := Scalar.muli arg0 c256_i32
  let c163_i32_841 : BitVec 32 := 163#32
  let v2035 : BitVec 32 := Scalar.addi v0 c163_i32_841
  let v2036 : Index := Scalar.indexCast v2035
  ![v2036.toNat]
def k0_off1019 (i : grid0.Coords) : Fin 1 → Nat :=
  let arg0 : BitVec 32 := BitVec.ofNat 32 (i 0).val
  let c256_i32 : BitVec 32 := 256#32
  let v0 : BitVec 32 := Scalar.muli arg0 c256_i32
  let c163_i32_841 : BitVec 32 := 163#32
  let v2035 : BitVec 32 := Scalar.addi v0 c163_i32_841
  let v3073 : Index := Scalar.indexCast v2035
  ![v3073.toNat]
def k0_off1020 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c163_i32_841 : BitVec 32 := 163#32
  let v2035 : BitVec 32 := Scalar.addi v0 c163_i32_841
  let c0_i32_1282 : BitVec 32 := 0#32
  ![v2035.toNat, v3074.toNat, 0]
def k0_cond340 (v2037 : BitVec 32) : BitVec 1 :=
  let c0_i32_842 : BitVec 32 := 0#32
  let v2038 : BitVec 1 := Scalar.cmpi .sgt v2037 c0_i32_842
  let v2039 : BitVec 32 := Scalar.extui v2038
  let c0_i32_843 : BitVec 32 := 0#32
  let v2040 : BitVec 1 := Scalar.cmpi .ne v2039 c0_i32_843
  v2040

def k0_chk340 (i : grid0.Coords) (v2037 : BitVec 32) (v3074 : BitVec 32) : Prop :=
  (∀ (k0_h340 : k0_cond340 v2037 = 1#1), ∀ a, (k0_off1020 i v3074) a + S1x1x512.size a ≤ S1024x200x512.size a)
instance k0_chk340.dec : ∀ (i : grid0.Coords) (v2037 : BitVec 32) (v3074 : BitVec 32), Decidable (k0_chk340 i v2037 v3074) := fun i v2037 v3074 => decidable_of_iff' _ (Iff.of_eq (k0_chk340.eq_1 i v2037 v3074))
theorem k0_off1020_inb : ∀ (i : grid0.Coords) (v2037 : BitVec 32) (v3074 : BitVec 32) (k0_hw340 : k0_chk340 i v2037 v3074), ∀ (k0_h340 : k0_cond340 v2037 = 1#1), ∀ a, (k0_off1020 i v3074) a + S1x1x512.size a ≤ S1024x200x512.size a := fun i v2037 v3074 k0_hw340 k0_h340 => k0_hw340 k0_h340

def k0_off1021 (i : grid0.Coords) : Fin 1 → Nat :=
  let arg0 : BitVec 32 := BitVec.ofNat 32 (i 0).val
  let c256_i32 : BitVec 32 := 256#32
  let v0 : BitVec 32 := Scalar.muli arg0 c256_i32
  let c164_i32_844 : BitVec 32 := 164#32
  let v2041 : BitVec 32 := Scalar.addi v0 c164_i32_844
  let v2042 : Index := Scalar.indexCast v2041
  ![v2042.toNat]
def k0_off1022 (i : grid0.Coords) : Fin 1 → Nat :=
  let arg0 : BitVec 32 := BitVec.ofNat 32 (i 0).val
  let c256_i32 : BitVec 32 := 256#32
  let v0 : BitVec 32 := Scalar.muli arg0 c256_i32
  let c164_i32_844 : BitVec 32 := 164#32
  let v2041 : BitVec 32 := Scalar.addi v0 c164_i32_844
  let v3073 : Index := Scalar.indexCast v2041
  ![v3073.toNat]
def k0_off1023 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c164_i32_844 : BitVec 32 := 164#32
  let v2041 : BitVec 32 := Scalar.addi v0 c164_i32_844
  let c0_i32_1282 : BitVec 32 := 0#32
  ![v2041.toNat, v3074.toNat, 0]
def k0_cond341 (v2043 : BitVec 32) : BitVec 1 :=
  let c0_i32_845 : BitVec 32 := 0#32
  let v2044 : BitVec 1 := Scalar.cmpi .sgt v2043 c0_i32_845
  let v2045 : BitVec 32 := Scalar.extui v2044
  let c0_i32_846 : BitVec 32 := 0#32
  let v2046 : BitVec 1 := Scalar.cmpi .ne v2045 c0_i32_846
  v2046

def k0_chk341 (i : grid0.Coords) (v2043 : BitVec 32) (v3074 : BitVec 32) : Prop :=
  (∀ (k0_h341 : k0_cond341 v2043 = 1#1), ∀ a, (k0_off1023 i v3074) a + S1x1x512.size a ≤ S1024x200x512.size a)
instance k0_chk341.dec : ∀ (i : grid0.Coords) (v2043 : BitVec 32) (v3074 : BitVec 32), Decidable (k0_chk341 i v2043 v3074) := fun i v2043 v3074 => decidable_of_iff' _ (Iff.of_eq (k0_chk341.eq_1 i v2043 v3074))
theorem k0_off1023_inb : ∀ (i : grid0.Coords) (v2043 : BitVec 32) (v3074 : BitVec 32) (k0_hw341 : k0_chk341 i v2043 v3074), ∀ (k0_h341 : k0_cond341 v2043 = 1#1), ∀ a, (k0_off1023 i v3074) a + S1x1x512.size a ≤ S1024x200x512.size a := fun i v2043 v3074 k0_hw341 k0_h341 => k0_hw341 k0_h341

def k0_off1024 (i : grid0.Coords) : Fin 1 → Nat :=
  let arg0 : BitVec 32 := BitVec.ofNat 32 (i 0).val
  let c256_i32 : BitVec 32 := 256#32
  let v0 : BitVec 32 := Scalar.muli arg0 c256_i32
  let c165_i32_847 : BitVec 32 := 165#32
  let v2047 : BitVec 32 := Scalar.addi v0 c165_i32_847
  let v2048 : Index := Scalar.indexCast v2047
  ![v2048.toNat]
def k0_off1025 (i : grid0.Coords) : Fin 1 → Nat :=
  let arg0 : BitVec 32 := BitVec.ofNat 32 (i 0).val
  let c256_i32 : BitVec 32 := 256#32
  let v0 : BitVec 32 := Scalar.muli arg0 c256_i32
  let c165_i32_847 : BitVec 32 := 165#32
  let v2047 : BitVec 32 := Scalar.addi v0 c165_i32_847
  let v3073 : Index := Scalar.indexCast v2047
  ![v3073.toNat]
def k0_off1026 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c165_i32_847 : BitVec 32 := 165#32
  let v2047 : BitVec 32 := Scalar.addi v0 c165_i32_847
  let c0_i32_1282 : BitVec 32 := 0#32
  ![v2047.toNat, v3074.toNat, 0]
def k0_cond342 (v2049 : BitVec 32) : BitVec 1 :=
  let c0_i32_848 : BitVec 32 := 0#32
  let v2050 : BitVec 1 := Scalar.cmpi .sgt v2049 c0_i32_848
  let v2051 : BitVec 32 := Scalar.extui v2050
  let c0_i32_849 : BitVec 32 := 0#32
  let v2052 : BitVec 1 := Scalar.cmpi .ne v2051 c0_i32_849
  v2052

def k0_chk342 (i : grid0.Coords) (v2049 : BitVec 32) (v3074 : BitVec 32) : Prop :=
  (∀ (k0_h342 : k0_cond342 v2049 = 1#1), ∀ a, (k0_off1026 i v3074) a + S1x1x512.size a ≤ S1024x200x512.size a)
instance k0_chk342.dec : ∀ (i : grid0.Coords) (v2049 : BitVec 32) (v3074 : BitVec 32), Decidable (k0_chk342 i v2049 v3074) := fun i v2049 v3074 => decidable_of_iff' _ (Iff.of_eq (k0_chk342.eq_1 i v2049 v3074))
theorem k0_off1026_inb : ∀ (i : grid0.Coords) (v2049 : BitVec 32) (v3074 : BitVec 32) (k0_hw342 : k0_chk342 i v2049 v3074), ∀ (k0_h342 : k0_cond342 v2049 = 1#1), ∀ a, (k0_off1026 i v3074) a + S1x1x512.size a ≤ S1024x200x512.size a := fun i v2049 v3074 k0_hw342 k0_h342 => k0_hw342 k0_h342

def k0_off1027 (i : grid0.Coords) : Fin 1 → Nat :=
  let arg0 : BitVec 32 := BitVec.ofNat 32 (i 0).val
  let c256_i32 : BitVec 32 := 256#32
  let v0 : BitVec 32 := Scalar.muli arg0 c256_i32
  let c166_i32_850 : BitVec 32 := 166#32
  let v2053 : BitVec 32 := Scalar.addi v0 c166_i32_850
  let v2054 : Index := Scalar.indexCast v2053
  ![v2054.toNat]
def k0_off1028 (i : grid0.Coords) : Fin 1 → Nat :=
  let arg0 : BitVec 32 := BitVec.ofNat 32 (i 0).val
  let c256_i32 : BitVec 32 := 256#32
  let v0 : BitVec 32 := Scalar.muli arg0 c256_i32
  let c166_i32_850 : BitVec 32 := 166#32
  let v2053 : BitVec 32 := Scalar.addi v0 c166_i32_850
  let v3073 : Index := Scalar.indexCast v2053
  ![v3073.toNat]
def k0_off1029 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c166_i32_850 : BitVec 32 := 166#32
  let v2053 : BitVec 32 := Scalar.addi v0 c166_i32_850
  let c0_i32_1282 : BitVec 32 := 0#32
  ![v2053.toNat, v3074.toNat, 0]
def k0_cond343 (v2055 : BitVec 32) : BitVec 1 :=
  let c0_i32_851 : BitVec 32 := 0#32
  let v2056 : BitVec 1 := Scalar.cmpi .sgt v2055 c0_i32_851
  let v2057 : BitVec 32 := Scalar.extui v2056
  let c0_i32_852 : BitVec 32 := 0#32
  let v2058 : BitVec 1 := Scalar.cmpi .ne v2057 c0_i32_852
  v2058

def k0_chk343 (i : grid0.Coords) (v2055 : BitVec 32) (v3074 : BitVec 32) : Prop :=
  (∀ (k0_h343 : k0_cond343 v2055 = 1#1), ∀ a, (k0_off1029 i v3074) a + S1x1x512.size a ≤ S1024x200x512.size a)
instance k0_chk343.dec : ∀ (i : grid0.Coords) (v2055 : BitVec 32) (v3074 : BitVec 32), Decidable (k0_chk343 i v2055 v3074) := fun i v2055 v3074 => decidable_of_iff' _ (Iff.of_eq (k0_chk343.eq_1 i v2055 v3074))
theorem k0_off1029_inb : ∀ (i : grid0.Coords) (v2055 : BitVec 32) (v3074 : BitVec 32) (k0_hw343 : k0_chk343 i v2055 v3074), ∀ (k0_h343 : k0_cond343 v2055 = 1#1), ∀ a, (k0_off1029 i v3074) a + S1x1x512.size a ≤ S1024x200x512.size a := fun i v2055 v3074 k0_hw343 k0_h343 => k0_hw343 k0_h343

def k0_off1030 (i : grid0.Coords) : Fin 1 → Nat :=
  let arg0 : BitVec 32 := BitVec.ofNat 32 (i 0).val
  let c256_i32 : BitVec 32 := 256#32
  let v0 : BitVec 32 := Scalar.muli arg0 c256_i32
  let c167_i32_853 : BitVec 32 := 167#32
  let v2059 : BitVec 32 := Scalar.addi v0 c167_i32_853
  let v2060 : Index := Scalar.indexCast v2059
  ![v2060.toNat]
def k0_off1031 (i : grid0.Coords) : Fin 1 → Nat :=
  let arg0 : BitVec 32 := BitVec.ofNat 32 (i 0).val
  let c256_i32 : BitVec 32 := 256#32
  let v0 : BitVec 32 := Scalar.muli arg0 c256_i32
  let c167_i32_853 : BitVec 32 := 167#32
  let v2059 : BitVec 32 := Scalar.addi v0 c167_i32_853
  let v3073 : Index := Scalar.indexCast v2059
  ![v3073.toNat]
def k0_off1032 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c167_i32_853 : BitVec 32 := 167#32
  let v2059 : BitVec 32 := Scalar.addi v0 c167_i32_853
  let c0_i32_1282 : BitVec 32 := 0#32
  ![v2059.toNat, v3074.toNat, 0]
def k0_cond344 (v2061 : BitVec 32) : BitVec 1 :=
  let c0_i32_854 : BitVec 32 := 0#32
  let v2062 : BitVec 1 := Scalar.cmpi .sgt v2061 c0_i32_854
  let v2063 : BitVec 32 := Scalar.extui v2062
  let c0_i32_855 : BitVec 32 := 0#32
  let v2064 : BitVec 1 := Scalar.cmpi .ne v2063 c0_i32_855
  v2064

def k0_chk344 (i : grid0.Coords) (v2061 : BitVec 32) (v3074 : BitVec 32) : Prop :=
  (∀ (k0_h344 : k0_cond344 v2061 = 1#1), ∀ a, (k0_off1032 i v3074) a + S1x1x512.size a ≤ S1024x200x512.size a)
instance k0_chk344.dec : ∀ (i : grid0.Coords) (v2061 : BitVec 32) (v3074 : BitVec 32), Decidable (k0_chk344 i v2061 v3074) := fun i v2061 v3074 => decidable_of_iff' _ (Iff.of_eq (k0_chk344.eq_1 i v2061 v3074))
theorem k0_off1032_inb : ∀ (i : grid0.Coords) (v2061 : BitVec 32) (v3074 : BitVec 32) (k0_hw344 : k0_chk344 i v2061 v3074), ∀ (k0_h344 : k0_cond344 v2061 = 1#1), ∀ a, (k0_off1032 i v3074) a + S1x1x512.size a ≤ S1024x200x512.size a := fun i v2061 v3074 k0_hw344 k0_h344 => k0_hw344 k0_h344

def k0_off1033 (i : grid0.Coords) : Fin 1 → Nat :=
  let arg0 : BitVec 32 := BitVec.ofNat 32 (i 0).val
  let c256_i32 : BitVec 32 := 256#32
  let v0 : BitVec 32 := Scalar.muli arg0 c256_i32
  let c168_i32_856 : BitVec 32 := 168#32
  let v2065 : BitVec 32 := Scalar.addi v0 c168_i32_856
  let v2066 : Index := Scalar.indexCast v2065
  ![v2066.toNat]
def k0_off1034 (i : grid0.Coords) : Fin 1 → Nat :=
  let arg0 : BitVec 32 := BitVec.ofNat 32 (i 0).val
  let c256_i32 : BitVec 32 := 256#32
  let v0 : BitVec 32 := Scalar.muli arg0 c256_i32
  let c168_i32_856 : BitVec 32 := 168#32
  let v2065 : BitVec 32 := Scalar.addi v0 c168_i32_856
  let v3073 : Index := Scalar.indexCast v2065
  ![v3073.toNat]
def k0_off1035 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c168_i32_856 : BitVec 32 := 168#32
  let v2065 : BitVec 32 := Scalar.addi v0 c168_i32_856
  let c0_i32_1282 : BitVec 32 := 0#32
  ![v2065.toNat, v3074.toNat, 0]
def k0_cond345 (v2067 : BitVec 32) : BitVec 1 :=
  let c0_i32_857 : BitVec 32 := 0#32
  let v2068 : BitVec 1 := Scalar.cmpi .sgt v2067 c0_i32_857
  let v2069 : BitVec 32 := Scalar.extui v2068
  let c0_i32_858 : BitVec 32 := 0#32
  let v2070 : BitVec 1 := Scalar.cmpi .ne v2069 c0_i32_858
  v2070

def k0_chk345 (i : grid0.Coords) (v2067 : BitVec 32) (v3074 : BitVec 32) : Prop :=
  (∀ (k0_h345 : k0_cond345 v2067 = 1#1), ∀ a, (k0_off1035 i v3074) a + S1x1x512.size a ≤ S1024x200x512.size a)
instance k0_chk345.dec : ∀ (i : grid0.Coords) (v2067 : BitVec 32) (v3074 : BitVec 32), Decidable (k0_chk345 i v2067 v3074) := fun i v2067 v3074 => decidable_of_iff' _ (Iff.of_eq (k0_chk345.eq_1 i v2067 v3074))
theorem k0_off1035_inb : ∀ (i : grid0.Coords) (v2067 : BitVec 32) (v3074 : BitVec 32) (k0_hw345 : k0_chk345 i v2067 v3074), ∀ (k0_h345 : k0_cond345 v2067 = 1#1), ∀ a, (k0_off1035 i v3074) a + S1x1x512.size a ≤ S1024x200x512.size a := fun i v2067 v3074 k0_hw345 k0_h345 => k0_hw345 k0_h345

def k0_off1036 (i : grid0.Coords) : Fin 1 → Nat :=
  let arg0 : BitVec 32 := BitVec.ofNat 32 (i 0).val
  let c256_i32 : BitVec 32 := 256#32
  let v0 : BitVec 32 := Scalar.muli arg0 c256_i32
  let c169_i32_859 : BitVec 32 := 169#32
  let v2071 : BitVec 32 := Scalar.addi v0 c169_i32_859
  let v2072 : Index := Scalar.indexCast v2071
  ![v2072.toNat]
def k0_off1037 (i : grid0.Coords) : Fin 1 → Nat :=
  let arg0 : BitVec 32 := BitVec.ofNat 32 (i 0).val
  let c256_i32 : BitVec 32 := 256#32
  let v0 : BitVec 32 := Scalar.muli arg0 c256_i32
  let c169_i32_859 : BitVec 32 := 169#32
  let v2071 : BitVec 32 := Scalar.addi v0 c169_i32_859
  let v3073 : Index := Scalar.indexCast v2071
  ![v3073.toNat]
def k0_off1038 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c169_i32_859 : BitVec 32 := 169#32
  let v2071 : BitVec 32 := Scalar.addi v0 c169_i32_859
  let c0_i32_1282 : BitVec 32 := 0#32
  ![v2071.toNat, v3074.toNat, 0]
def k0_cond346 (v2073 : BitVec 32) : BitVec 1 :=
  let c0_i32_860 : BitVec 32 := 0#32
  let v2074 : BitVec 1 := Scalar.cmpi .sgt v2073 c0_i32_860
  let v2075 : BitVec 32 := Scalar.extui v2074
  let c0_i32_861 : BitVec 32 := 0#32
  let v2076 : BitVec 1 := Scalar.cmpi .ne v2075 c0_i32_861
  v2076

def k0_chk346 (i : grid0.Coords) (v2073 : BitVec 32) (v3074 : BitVec 32) : Prop :=
  (∀ (k0_h346 : k0_cond346 v2073 = 1#1), ∀ a, (k0_off1038 i v3074) a + S1x1x512.size a ≤ S1024x200x512.size a)
instance k0_chk346.dec : ∀ (i : grid0.Coords) (v2073 : BitVec 32) (v3074 : BitVec 32), Decidable (k0_chk346 i v2073 v3074) := fun i v2073 v3074 => decidable_of_iff' _ (Iff.of_eq (k0_chk346.eq_1 i v2073 v3074))
theorem k0_off1038_inb : ∀ (i : grid0.Coords) (v2073 : BitVec 32) (v3074 : BitVec 32) (k0_hw346 : k0_chk346 i v2073 v3074), ∀ (k0_h346 : k0_cond346 v2073 = 1#1), ∀ a, (k0_off1038 i v3074) a + S1x1x512.size a ≤ S1024x200x512.size a := fun i v2073 v3074 k0_hw346 k0_h346 => k0_hw346 k0_h346

def k0_off1039 (i : grid0.Coords) : Fin 1 → Nat :=
  let arg0 : BitVec 32 := BitVec.ofNat 32 (i 0).val
  let c256_i32 : BitVec 32 := 256#32
  let v0 : BitVec 32 := Scalar.muli arg0 c256_i32
  let c170_i32_862 : BitVec 32 := 170#32
  let v2077 : BitVec 32 := Scalar.addi v0 c170_i32_862
  let v2078 : Index := Scalar.indexCast v2077
  ![v2078.toNat]
def k0_off1040 (i : grid0.Coords) : Fin 1 → Nat :=
  let arg0 : BitVec 32 := BitVec.ofNat 32 (i 0).val
  let c256_i32 : BitVec 32 := 256#32
  let v0 : BitVec 32 := Scalar.muli arg0 c256_i32
  let c170_i32_862 : BitVec 32 := 170#32
  let v2077 : BitVec 32 := Scalar.addi v0 c170_i32_862
  let v3073 : Index := Scalar.indexCast v2077
  ![v3073.toNat]
def k0_off1041 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c170_i32_862 : BitVec 32 := 170#32
  let v2077 : BitVec 32 := Scalar.addi v0 c170_i32_862
  let c0_i32_1282 : BitVec 32 := 0#32
  ![v2077.toNat, v3074.toNat, 0]
def k0_cond347 (v2079 : BitVec 32) : BitVec 1 :=
  let c0_i32_863 : BitVec 32 := 0#32
  let v2080 : BitVec 1 := Scalar.cmpi .sgt v2079 c0_i32_863
  let v2081 : BitVec 32 := Scalar.extui v2080
  let c0_i32_864 : BitVec 32 := 0#32
  let v2082 : BitVec 1 := Scalar.cmpi .ne v2081 c0_i32_864
  v2082

def k0_chk347 (i : grid0.Coords) (v2079 : BitVec 32) (v3074 : BitVec 32) : Prop :=
  (∀ (k0_h347 : k0_cond347 v2079 = 1#1), ∀ a, (k0_off1041 i v3074) a + S1x1x512.size a ≤ S1024x200x512.size a)
instance k0_chk347.dec : ∀ (i : grid0.Coords) (v2079 : BitVec 32) (v3074 : BitVec 32), Decidable (k0_chk347 i v2079 v3074) := fun i v2079 v3074 => decidable_of_iff' _ (Iff.of_eq (k0_chk347.eq_1 i v2079 v3074))
theorem k0_off1041_inb : ∀ (i : grid0.Coords) (v2079 : BitVec 32) (v3074 : BitVec 32) (k0_hw347 : k0_chk347 i v2079 v3074), ∀ (k0_h347 : k0_cond347 v2079 = 1#1), ∀ a, (k0_off1041 i v3074) a + S1x1x512.size a ≤ S1024x200x512.size a := fun i v2079 v3074 k0_hw347 k0_h347 => k0_hw347 k0_h347

def k0_off1042 (i : grid0.Coords) : Fin 1 → Nat :=
  let arg0 : BitVec 32 := BitVec.ofNat 32 (i 0).val
  let c256_i32 : BitVec 32 := 256#32
  let v0 : BitVec 32 := Scalar.muli arg0 c256_i32
  let c171_i32_865 : BitVec 32 := 171#32
  let v2083 : BitVec 32 := Scalar.addi v0 c171_i32_865
  let v2084 : Index := Scalar.indexCast v2083
  ![v2084.toNat]
def k0_off1043 (i : grid0.Coords) : Fin 1 → Nat :=
  let arg0 : BitVec 32 := BitVec.ofNat 32 (i 0).val
  let c256_i32 : BitVec 32 := 256#32
  let v0 : BitVec 32 := Scalar.muli arg0 c256_i32
  let c171_i32_865 : BitVec 32 := 171#32
  let v2083 : BitVec 32 := Scalar.addi v0 c171_i32_865
  let v3073 : Index := Scalar.indexCast v2083
  ![v3073.toNat]
def k0_off1044 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c171_i32_865 : BitVec 32 := 171#32
  let v2083 : BitVec 32 := Scalar.addi v0 c171_i32_865
  let c0_i32_1282 : BitVec 32 := 0#32
  ![v2083.toNat, v3074.toNat, 0]
def k0_cond348 (v2085 : BitVec 32) : BitVec 1 :=
  let c0_i32_866 : BitVec 32 := 0#32
  let v2086 : BitVec 1 := Scalar.cmpi .sgt v2085 c0_i32_866
  let v2087 : BitVec 32 := Scalar.extui v2086
  let c0_i32_867 : BitVec 32 := 0#32
  let v2088 : BitVec 1 := Scalar.cmpi .ne v2087 c0_i32_867
  v2088

def k0_chk348 (i : grid0.Coords) (v2085 : BitVec 32) (v3074 : BitVec 32) : Prop :=
  (∀ (k0_h348 : k0_cond348 v2085 = 1#1), ∀ a, (k0_off1044 i v3074) a + S1x1x512.size a ≤ S1024x200x512.size a)
instance k0_chk348.dec : ∀ (i : grid0.Coords) (v2085 : BitVec 32) (v3074 : BitVec 32), Decidable (k0_chk348 i v2085 v3074) := fun i v2085 v3074 => decidable_of_iff' _ (Iff.of_eq (k0_chk348.eq_1 i v2085 v3074))
theorem k0_off1044_inb : ∀ (i : grid0.Coords) (v2085 : BitVec 32) (v3074 : BitVec 32) (k0_hw348 : k0_chk348 i v2085 v3074), ∀ (k0_h348 : k0_cond348 v2085 = 1#1), ∀ a, (k0_off1044 i v3074) a + S1x1x512.size a ≤ S1024x200x512.size a := fun i v2085 v3074 k0_hw348 k0_h348 => k0_hw348 k0_h348

def k0_off1045 (i : grid0.Coords) : Fin 1 → Nat :=
  let arg0 : BitVec 32 := BitVec.ofNat 32 (i 0).val
  let c256_i32 : BitVec 32 := 256#32
  let v0 : BitVec 32 := Scalar.muli arg0 c256_i32
  let c172_i32_868 : BitVec 32 := 172#32
  let v2089 : BitVec 32 := Scalar.addi v0 c172_i32_868
  let v2090 : Index := Scalar.indexCast v2089
  ![v2090.toNat]
def k0_off1046 (i : grid0.Coords) : Fin 1 → Nat :=
  let arg0 : BitVec 32 := BitVec.ofNat 32 (i 0).val
  let c256_i32 : BitVec 32 := 256#32
  let v0 : BitVec 32 := Scalar.muli arg0 c256_i32
  let c172_i32_868 : BitVec 32 := 172#32
  let v2089 : BitVec 32 := Scalar.addi v0 c172_i32_868
  let v3073 : Index := Scalar.indexCast v2089
  ![v3073.toNat]
def k0_off1047 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c172_i32_868 : BitVec 32 := 172#32
  let v2089 : BitVec 32 := Scalar.addi v0 c172_i32_868
  let c0_i32_1282 : BitVec 32 := 0#32
  ![v2089.toNat, v3074.toNat, 0]
def k0_cond349 (v2091 : BitVec 32) : BitVec 1 :=
  let c0_i32_869 : BitVec 32 := 0#32
  let v2092 : BitVec 1 := Scalar.cmpi .sgt v2091 c0_i32_869
  let v2093 : BitVec 32 := Scalar.extui v2092
  let c0_i32_870 : BitVec 32 := 0#32
  let v2094 : BitVec 1 := Scalar.cmpi .ne v2093 c0_i32_870
  v2094

def k0_chk349 (i : grid0.Coords) (v2091 : BitVec 32) (v3074 : BitVec 32) : Prop :=
  (∀ (k0_h349 : k0_cond349 v2091 = 1#1), ∀ a, (k0_off1047 i v3074) a + S1x1x512.size a ≤ S1024x200x512.size a)
instance k0_chk349.dec : ∀ (i : grid0.Coords) (v2091 : BitVec 32) (v3074 : BitVec 32), Decidable (k0_chk349 i v2091 v3074) := fun i v2091 v3074 => decidable_of_iff' _ (Iff.of_eq (k0_chk349.eq_1 i v2091 v3074))
theorem k0_off1047_inb : ∀ (i : grid0.Coords) (v2091 : BitVec 32) (v3074 : BitVec 32) (k0_hw349 : k0_chk349 i v2091 v3074), ∀ (k0_h349 : k0_cond349 v2091 = 1#1), ∀ a, (k0_off1047 i v3074) a + S1x1x512.size a ≤ S1024x200x512.size a := fun i v2091 v3074 k0_hw349 k0_h349 => k0_hw349 k0_h349

def k0_off1048 (i : grid0.Coords) : Fin 1 → Nat :=
  let arg0 : BitVec 32 := BitVec.ofNat 32 (i 0).val
  let c256_i32 : BitVec 32 := 256#32
  let v0 : BitVec 32 := Scalar.muli arg0 c256_i32
  let c173_i32_871 : BitVec 32 := 173#32
  let v2095 : BitVec 32 := Scalar.addi v0 c173_i32_871
  let v2096 : Index := Scalar.indexCast v2095
  ![v2096.toNat]
def k0_off1049 (i : grid0.Coords) : Fin 1 → Nat :=
  let arg0 : BitVec 32 := BitVec.ofNat 32 (i 0).val
  let c256_i32 : BitVec 32 := 256#32
  let v0 : BitVec 32 := Scalar.muli arg0 c256_i32
  let c173_i32_871 : BitVec 32 := 173#32
  let v2095 : BitVec 32 := Scalar.addi v0 c173_i32_871
  let v3073 : Index := Scalar.indexCast v2095
  ![v3073.toNat]
def k0_off1050 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c173_i32_871 : BitVec 32 := 173#32
  let v2095 : BitVec 32 := Scalar.addi v0 c173_i32_871
  let c0_i32_1282 : BitVec 32 := 0#32
  ![v2095.toNat, v3074.toNat, 0]
def k0_cond350 (v2097 : BitVec 32) : BitVec 1 :=
  let c0_i32_872 : BitVec 32 := 0#32
  let v2098 : BitVec 1 := Scalar.cmpi .sgt v2097 c0_i32_872
  let v2099 : BitVec 32 := Scalar.extui v2098
  let c0_i32_873 : BitVec 32 := 0#32
  let v2100 : BitVec 1 := Scalar.cmpi .ne v2099 c0_i32_873
  v2100

def k0_chk350 (i : grid0.Coords) (v2097 : BitVec 32) (v3074 : BitVec 32) : Prop :=
  (∀ (k0_h350 : k0_cond350 v2097 = 1#1), ∀ a, (k0_off1050 i v3074) a + S1x1x512.size a ≤ S1024x200x512.size a)
instance k0_chk350.dec : ∀ (i : grid0.Coords) (v2097 : BitVec 32) (v3074 : BitVec 32), Decidable (k0_chk350 i v2097 v3074) := fun i v2097 v3074 => decidable_of_iff' _ (Iff.of_eq (k0_chk350.eq_1 i v2097 v3074))
theorem k0_off1050_inb : ∀ (i : grid0.Coords) (v2097 : BitVec 32) (v3074 : BitVec 32) (k0_hw350 : k0_chk350 i v2097 v3074), ∀ (k0_h350 : k0_cond350 v2097 = 1#1), ∀ a, (k0_off1050 i v3074) a + S1x1x512.size a ≤ S1024x200x512.size a := fun i v2097 v3074 k0_hw350 k0_h350 => k0_hw350 k0_h350

def k0_off1051 (i : grid0.Coords) : Fin 1 → Nat :=
  let arg0 : BitVec 32 := BitVec.ofNat 32 (i 0).val
  let c256_i32 : BitVec 32 := 256#32
  let v0 : BitVec 32 := Scalar.muli arg0 c256_i32
  let c174_i32_874 : BitVec 32 := 174#32
  let v2101 : BitVec 32 := Scalar.addi v0 c174_i32_874
  let v2102 : Index := Scalar.indexCast v2101
  ![v2102.toNat]
def k0_off1052 (i : grid0.Coords) : Fin 1 → Nat :=
  let arg0 : BitVec 32 := BitVec.ofNat 32 (i 0).val
  let c256_i32 : BitVec 32 := 256#32
  let v0 : BitVec 32 := Scalar.muli arg0 c256_i32
  let c174_i32_874 : BitVec 32 := 174#32
  let v2101 : BitVec 32 := Scalar.addi v0 c174_i32_874
  let v3073 : Index := Scalar.indexCast v2101
  ![v3073.toNat]
def k0_off1053 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c174_i32_874 : BitVec 32 := 174#32
  let v2101 : BitVec 32 := Scalar.addi v0 c174_i32_874
  let c0_i32_1282 : BitVec 32 := 0#32
  ![v2101.toNat, v3074.toNat, 0]
def k0_cond351 (v2103 : BitVec 32) : BitVec 1 :=
  let c0_i32_875 : BitVec 32 := 0#32
  let v2104 : BitVec 1 := Scalar.cmpi .sgt v2103 c0_i32_875
  let v2105 : BitVec 32 := Scalar.extui v2104
  let c0_i32_876 : BitVec 32 := 0#32
  let v2106 : BitVec 1 := Scalar.cmpi .ne v2105 c0_i32_876
  v2106

def k0_chk351 (i : grid0.Coords) (v2103 : BitVec 32) (v3074 : BitVec 32) : Prop :=
  (∀ (k0_h351 : k0_cond351 v2103 = 1#1), ∀ a, (k0_off1053 i v3074) a + S1x1x512.size a ≤ S1024x200x512.size a)
instance k0_chk351.dec : ∀ (i : grid0.Coords) (v2103 : BitVec 32) (v3074 : BitVec 32), Decidable (k0_chk351 i v2103 v3074) := fun i v2103 v3074 => decidable_of_iff' _ (Iff.of_eq (k0_chk351.eq_1 i v2103 v3074))
theorem k0_off1053_inb : ∀ (i : grid0.Coords) (v2103 : BitVec 32) (v3074 : BitVec 32) (k0_hw351 : k0_chk351 i v2103 v3074), ∀ (k0_h351 : k0_cond351 v2103 = 1#1), ∀ a, (k0_off1053 i v3074) a + S1x1x512.size a ≤ S1024x200x512.size a := fun i v2103 v3074 k0_hw351 k0_h351 => k0_hw351 k0_h351

def k0_off1054 (i : grid0.Coords) : Fin 1 → Nat :=
  let arg0 : BitVec 32 := BitVec.ofNat 32 (i 0).val
  let c256_i32 : BitVec 32 := 256#32
  let v0 : BitVec 32 := Scalar.muli arg0 c256_i32
  let c175_i32_877 : BitVec 32 := 175#32
  let v2107 : BitVec 32 := Scalar.addi v0 c175_i32_877
  let v2108 : Index := Scalar.indexCast v2107
  ![v2108.toNat]
def k0_off1055 (i : grid0.Coords) : Fin 1 → Nat :=
  let arg0 : BitVec 32 := BitVec.ofNat 32 (i 0).val
  let c256_i32 : BitVec 32 := 256#32
  let v0 : BitVec 32 := Scalar.muli arg0 c256_i32
  let c175_i32_877 : BitVec 32 := 175#32
  let v2107 : BitVec 32 := Scalar.addi v0 c175_i32_877
  let v3073 : Index := Scalar.indexCast v2107
  ![v3073.toNat]
def k0_off1056 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c175_i32_877 : BitVec 32 := 175#32
  let v2107 : BitVec 32 := Scalar.addi v0 c175_i32_877
  let c0_i32_1282 : BitVec 32 := 0#32
  ![v2107.toNat, v3074.toNat, 0]
def k0_cond352 (v2109 : BitVec 32) : BitVec 1 :=
  let c0_i32_878 : BitVec 32 := 0#32
  let v2110 : BitVec 1 := Scalar.cmpi .sgt v2109 c0_i32_878
  let v2111 : BitVec 32 := Scalar.extui v2110
  let c0_i32_879 : BitVec 32 := 0#32
  let v2112 : BitVec 1 := Scalar.cmpi .ne v2111 c0_i32_879
  v2112

def k0_chk352 (i : grid0.Coords) (v2109 : BitVec 32) (v3074 : BitVec 32) : Prop :=
  (∀ (k0_h352 : k0_cond352 v2109 = 1#1), ∀ a, (k0_off1056 i v3074) a + S1x1x512.size a ≤ S1024x200x512.size a)
instance k0_chk352.dec : ∀ (i : grid0.Coords) (v2109 : BitVec 32) (v3074 : BitVec 32), Decidable (k0_chk352 i v2109 v3074) := fun i v2109 v3074 => decidable_of_iff' _ (Iff.of_eq (k0_chk352.eq_1 i v2109 v3074))
theorem k0_off1056_inb : ∀ (i : grid0.Coords) (v2109 : BitVec 32) (v3074 : BitVec 32) (k0_hw352 : k0_chk352 i v2109 v3074), ∀ (k0_h352 : k0_cond352 v2109 = 1#1), ∀ a, (k0_off1056 i v3074) a + S1x1x512.size a ≤ S1024x200x512.size a := fun i v2109 v3074 k0_hw352 k0_h352 => k0_hw352 k0_h352

def k0_off1057 (i : grid0.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v2113 : BitVec 32 := Scalar.addi v0 c176_i32
  let v2114 : Index := Scalar.indexCast v2113
  ![v2114.toNat]
def k0_off1058 (i : grid0.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v2113 : BitVec 32 := Scalar.addi v0 c176_i32
  let v3073 : Index := Scalar.indexCast v2113
  ![v3073.toNat]
def k0_off1059 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c176_i32 : BitVec 32 := 176#32
  let v2113 : BitVec 32 := Scalar.addi v0 c176_i32
  let c0_i32_1287 : BitVec 32 := 0#32
  ![v2113.toNat, v3074.toNat, 0]
def k0_cond353 (v2115 : BitVec 32) : BitVec 1 :=
  let c0_i32_880 : BitVec 32 := 0#32
  let v2116 : BitVec 1 := Scalar.cmpi .sgt v2115 c0_i32_880
  let v2117 : BitVec 32 := Scalar.extui v2116
  let c0_i32_881 : BitVec 32 := 0#32
  let v2118 : BitVec 1 := Scalar.cmpi .ne v2117 c0_i32_881
  v2118

def k0_chk353 (i : grid0.Coords) (v2115 : BitVec 32) (v3074 : BitVec 32) : Prop :=
  (∀ (k0_h353 : k0_cond353 v2115 = 1#1), ∀ a, (k0_off1059 i v3074) a + S1x1x512.size a ≤ S1024x200x512.size a)
instance k0_chk353.dec : ∀ (i : grid0.Coords) (v2115 : BitVec 32) (v3074 : BitVec 32), Decidable (k0_chk353 i v2115 v3074) := fun i v2115 v3074 => decidable_of_iff' _ (Iff.of_eq (k0_chk353.eq_1 i v2115 v3074))
theorem k0_off1059_inb : ∀ (i : grid0.Coords) (v2115 : BitVec 32) (v3074 : BitVec 32) (k0_hw353 : k0_chk353 i v2115 v3074), ∀ (k0_h353 : k0_cond353 v2115 = 1#1), ∀ a, (k0_off1059 i v3074) a + S1x1x512.size a ≤ S1024x200x512.size a := fun i v2115 v3074 k0_hw353 k0_h353 => k0_hw353 k0_h353

def k0_off1060 (i : grid0.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v2119 : BitVec 32 := Scalar.addi v0 c177_i32
  let v2120 : Index := Scalar.indexCast v2119
  ![v2120.toNat]
def k0_off1061 (i : grid0.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v2119 : BitVec 32 := Scalar.addi v0 c177_i32
  let v3073 : Index := Scalar.indexCast v2119
  ![v3073.toNat]
def k0_off1062 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c177_i32 : BitVec 32 := 177#32
  let v2119 : BitVec 32 := Scalar.addi v0 c177_i32
  let c0_i32_1287 : BitVec 32 := 0#32
  ![v2119.toNat, v3074.toNat, 0]
def k0_cond354 (v2121 : BitVec 32) : BitVec 1 :=
  let c0_i32_882 : BitVec 32 := 0#32
  let v2122 : BitVec 1 := Scalar.cmpi .sgt v2121 c0_i32_882
  let v2123 : BitVec 32 := Scalar.extui v2122
  let c0_i32_883 : BitVec 32 := 0#32
  let v2124 : BitVec 1 := Scalar.cmpi .ne v2123 c0_i32_883
  v2124

def k0_chk354 (i : grid0.Coords) (v2121 : BitVec 32) (v3074 : BitVec 32) : Prop :=
  (∀ (k0_h354 : k0_cond354 v2121 = 1#1), ∀ a, (k0_off1062 i v3074) a + S1x1x512.size a ≤ S1024x200x512.size a)
instance k0_chk354.dec : ∀ (i : grid0.Coords) (v2121 : BitVec 32) (v3074 : BitVec 32), Decidable (k0_chk354 i v2121 v3074) := fun i v2121 v3074 => decidable_of_iff' _ (Iff.of_eq (k0_chk354.eq_1 i v2121 v3074))
theorem k0_off1062_inb : ∀ (i : grid0.Coords) (v2121 : BitVec 32) (v3074 : BitVec 32) (k0_hw354 : k0_chk354 i v2121 v3074), ∀ (k0_h354 : k0_cond354 v2121 = 1#1), ∀ a, (k0_off1062 i v3074) a + S1x1x512.size a ≤ S1024x200x512.size a := fun i v2121 v3074 k0_hw354 k0_h354 => k0_hw354 k0_h354

def k0_off1063 (i : grid0.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v2125 : BitVec 32 := Scalar.addi v0 c178_i32
  let v2126 : Index := Scalar.indexCast v2125
  ![v2126.toNat]
def k0_off1064 (i : grid0.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v2125 : BitVec 32 := Scalar.addi v0 c178_i32
  let v3073 : Index := Scalar.indexCast v2125
  ![v3073.toNat]
def k0_off1065 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c178_i32 : BitVec 32 := 178#32
  let v2125 : BitVec 32 := Scalar.addi v0 c178_i32
  let c0_i32_1287 : BitVec 32 := 0#32
  ![v2125.toNat, v3074.toNat, 0]
def k0_cond355 (v2127 : BitVec 32) : BitVec 1 :=
  let c0_i32_884 : BitVec 32 := 0#32
  let v2128 : BitVec 1 := Scalar.cmpi .sgt v2127 c0_i32_884
  let v2129 : BitVec 32 := Scalar.extui v2128
  let c0_i32_885 : BitVec 32 := 0#32
  let v2130 : BitVec 1 := Scalar.cmpi .ne v2129 c0_i32_885
  v2130

def k0_chk355 (i : grid0.Coords) (v2127 : BitVec 32) (v3074 : BitVec 32) : Prop :=
  (∀ (k0_h355 : k0_cond355 v2127 = 1#1), ∀ a, (k0_off1065 i v3074) a + S1x1x512.size a ≤ S1024x200x512.size a)
instance k0_chk355.dec : ∀ (i : grid0.Coords) (v2127 : BitVec 32) (v3074 : BitVec 32), Decidable (k0_chk355 i v2127 v3074) := fun i v2127 v3074 => decidable_of_iff' _ (Iff.of_eq (k0_chk355.eq_1 i v2127 v3074))
theorem k0_off1065_inb : ∀ (i : grid0.Coords) (v2127 : BitVec 32) (v3074 : BitVec 32) (k0_hw355 : k0_chk355 i v2127 v3074), ∀ (k0_h355 : k0_cond355 v2127 = 1#1), ∀ a, (k0_off1065 i v3074) a + S1x1x512.size a ≤ S1024x200x512.size a := fun i v2127 v3074 k0_hw355 k0_h355 => k0_hw355 k0_h355

def k0_off1066 (i : grid0.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v2131 : BitVec 32 := Scalar.addi v0 c179_i32
  let v2132 : Index := Scalar.indexCast v2131
  ![v2132.toNat]
def k0_off1067 (i : grid0.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v2131 : BitVec 32 := Scalar.addi v0 c179_i32
  let v3073 : Index := Scalar.indexCast v2131
  ![v3073.toNat]
def k0_off1068 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c179_i32 : BitVec 32 := 179#32
  let v2131 : BitVec 32 := Scalar.addi v0 c179_i32
  let c0_i32_1287 : BitVec 32 := 0#32
  ![v2131.toNat, v3074.toNat, 0]
def k0_cond356 (v2133 : BitVec 32) : BitVec 1 :=
  let c0_i32_886 : BitVec 32 := 0#32
  let v2134 : BitVec 1 := Scalar.cmpi .sgt v2133 c0_i32_886
  let v2135 : BitVec 32 := Scalar.extui v2134
  let c0_i32_887 : BitVec 32 := 0#32
  let v2136 : BitVec 1 := Scalar.cmpi .ne v2135 c0_i32_887
  v2136

def k0_chk356 (i : grid0.Coords) (v2133 : BitVec 32) (v3074 : BitVec 32) : Prop :=
  (∀ (k0_h356 : k0_cond356 v2133 = 1#1), ∀ a, (k0_off1068 i v3074) a + S1x1x512.size a ≤ S1024x200x512.size a)
instance k0_chk356.dec : ∀ (i : grid0.Coords) (v2133 : BitVec 32) (v3074 : BitVec 32), Decidable (k0_chk356 i v2133 v3074) := fun i v2133 v3074 => decidable_of_iff' _ (Iff.of_eq (k0_chk356.eq_1 i v2133 v3074))
theorem k0_off1068_inb : ∀ (i : grid0.Coords) (v2133 : BitVec 32) (v3074 : BitVec 32) (k0_hw356 : k0_chk356 i v2133 v3074), ∀ (k0_h356 : k0_cond356 v2133 = 1#1), ∀ a, (k0_off1068 i v3074) a + S1x1x512.size a ≤ S1024x200x512.size a := fun i v2133 v3074 k0_hw356 k0_h356 => k0_hw356 k0_h356

def k0_off1069 (i : grid0.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v2137 : BitVec 32 := Scalar.addi v0 c180_i32
  let v2138 : Index := Scalar.indexCast v2137
  ![v2138.toNat]
def k0_off1070 (i : grid0.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v2137 : BitVec 32 := Scalar.addi v0 c180_i32
  let v3073 : Index := Scalar.indexCast v2137
  ![v3073.toNat]
def k0_off1071 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c180_i32 : BitVec 32 := 180#32
  let v2137 : BitVec 32 := Scalar.addi v0 c180_i32
  let c0_i32_1287 : BitVec 32 := 0#32
  ![v2137.toNat, v3074.toNat, 0]
def k0_cond357 (v2139 : BitVec 32) : BitVec 1 :=
  let c0_i32_888 : BitVec 32 := 0#32
  let v2140 : BitVec 1 := Scalar.cmpi .sgt v2139 c0_i32_888
  let v2141 : BitVec 32 := Scalar.extui v2140
  let c0_i32_889 : BitVec 32 := 0#32
  let v2142 : BitVec 1 := Scalar.cmpi .ne v2141 c0_i32_889
  v2142

def k0_chk357 (i : grid0.Coords) (v2139 : BitVec 32) (v3074 : BitVec 32) : Prop :=
  (∀ (k0_h357 : k0_cond357 v2139 = 1#1), ∀ a, (k0_off1071 i v3074) a + S1x1x512.size a ≤ S1024x200x512.size a)
instance k0_chk357.dec : ∀ (i : grid0.Coords) (v2139 : BitVec 32) (v3074 : BitVec 32), Decidable (k0_chk357 i v2139 v3074) := fun i v2139 v3074 => decidable_of_iff' _ (Iff.of_eq (k0_chk357.eq_1 i v2139 v3074))
theorem k0_off1071_inb : ∀ (i : grid0.Coords) (v2139 : BitVec 32) (v3074 : BitVec 32) (k0_hw357 : k0_chk357 i v2139 v3074), ∀ (k0_h357 : k0_cond357 v2139 = 1#1), ∀ a, (k0_off1071 i v3074) a + S1x1x512.size a ≤ S1024x200x512.size a := fun i v2139 v3074 k0_hw357 k0_h357 => k0_hw357 k0_h357

def k0_off1072 (i : grid0.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v2143 : BitVec 32 := Scalar.addi v0 c181_i32
  let v2144 : Index := Scalar.indexCast v2143
  ![v2144.toNat]
def k0_off1073 (i : grid0.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v2143 : BitVec 32 := Scalar.addi v0 c181_i32
  let v3073 : Index := Scalar.indexCast v2143
  ![v3073.toNat]
def k0_off1074 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c181_i32 : BitVec 32 := 181#32
  let v2143 : BitVec 32 := Scalar.addi v0 c181_i32
  let c0_i32_1287 : BitVec 32 := 0#32
  ![v2143.toNat, v3074.toNat, 0]
def k0_cond358 (v2145 : BitVec 32) : BitVec 1 :=
  let c0_i32_890 : BitVec 32 := 0#32
  let v2146 : BitVec 1 := Scalar.cmpi .sgt v2145 c0_i32_890
  let v2147 : BitVec 32 := Scalar.extui v2146
  let c0_i32_891 : BitVec 32 := 0#32
  let v2148 : BitVec 1 := Scalar.cmpi .ne v2147 c0_i32_891
  v2148

def k0_chk358 (i : grid0.Coords) (v2145 : BitVec 32) (v3074 : BitVec 32) : Prop :=
  (∀ (k0_h358 : k0_cond358 v2145 = 1#1), ∀ a, (k0_off1074 i v3074) a + S1x1x512.size a ≤ S1024x200x512.size a)
instance k0_chk358.dec : ∀ (i : grid0.Coords) (v2145 : BitVec 32) (v3074 : BitVec 32), Decidable (k0_chk358 i v2145 v3074) := fun i v2145 v3074 => decidable_of_iff' _ (Iff.of_eq (k0_chk358.eq_1 i v2145 v3074))
theorem k0_off1074_inb : ∀ (i : grid0.Coords) (v2145 : BitVec 32) (v3074 : BitVec 32) (k0_hw358 : k0_chk358 i v2145 v3074), ∀ (k0_h358 : k0_cond358 v2145 = 1#1), ∀ a, (k0_off1074 i v3074) a + S1x1x512.size a ≤ S1024x200x512.size a := fun i v2145 v3074 k0_hw358 k0_h358 => k0_hw358 k0_h358

def k0_off1075 (i : grid0.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v2149 : BitVec 32 := Scalar.addi v0 c182_i32
  let v2150 : Index := Scalar.indexCast v2149
  ![v2150.toNat]
def k0_off1076 (i : grid0.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v2149 : BitVec 32 := Scalar.addi v0 c182_i32
  let v3073 : Index := Scalar.indexCast v2149
  ![v3073.toNat]
def k0_off1077 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c182_i32 : BitVec 32 := 182#32
  let v2149 : BitVec 32 := Scalar.addi v0 c182_i32
  let c0_i32_1287 : BitVec 32 := 0#32
  ![v2149.toNat, v3074.toNat, 0]
def k0_cond359 (v2151 : BitVec 32) : BitVec 1 :=
  let c0_i32_892 : BitVec 32 := 0#32
  let v2152 : BitVec 1 := Scalar.cmpi .sgt v2151 c0_i32_892
  let v2153 : BitVec 32 := Scalar.extui v2152
  let c0_i32_893 : BitVec 32 := 0#32
  let v2154 : BitVec 1 := Scalar.cmpi .ne v2153 c0_i32_893
  v2154

def k0_chk359 (i : grid0.Coords) (v2151 : BitVec 32) (v3074 : BitVec 32) : Prop :=
  (∀ (k0_h359 : k0_cond359 v2151 = 1#1), ∀ a, (k0_off1077 i v3074) a + S1x1x512.size a ≤ S1024x200x512.size a)
instance k0_chk359.dec : ∀ (i : grid0.Coords) (v2151 : BitVec 32) (v3074 : BitVec 32), Decidable (k0_chk359 i v2151 v3074) := fun i v2151 v3074 => decidable_of_iff' _ (Iff.of_eq (k0_chk359.eq_1 i v2151 v3074))
theorem k0_off1077_inb : ∀ (i : grid0.Coords) (v2151 : BitVec 32) (v3074 : BitVec 32) (k0_hw359 : k0_chk359 i v2151 v3074), ∀ (k0_h359 : k0_cond359 v2151 = 1#1), ∀ a, (k0_off1077 i v3074) a + S1x1x512.size a ≤ S1024x200x512.size a := fun i v2151 v3074 k0_hw359 k0_h359 => k0_hw359 k0_h359

def k0_off1078 (i : grid0.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v2155 : BitVec 32 := Scalar.addi v0 c183_i32
  let v2156 : Index := Scalar.indexCast v2155
  ![v2156.toNat]
def k0_off1079 (i : grid0.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v2155 : BitVec 32 := Scalar.addi v0 c183_i32
  let v3073 : Index := Scalar.indexCast v2155
  ![v3073.toNat]
def k0_off1080 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c183_i32 : BitVec 32 := 183#32
  let v2155 : BitVec 32 := Scalar.addi v0 c183_i32
  let c0_i32_1287 : BitVec 32 := 0#32
  ![v2155.toNat, v3074.toNat, 0]
def k0_cond360 (v2157 : BitVec 32) : BitVec 1 :=
  let c0_i32_894 : BitVec 32 := 0#32
  let v2158 : BitVec 1 := Scalar.cmpi .sgt v2157 c0_i32_894
  let v2159 : BitVec 32 := Scalar.extui v2158
  let c0_i32_895 : BitVec 32 := 0#32
  let v2160 : BitVec 1 := Scalar.cmpi .ne v2159 c0_i32_895
  v2160

def k0_chk360 (i : grid0.Coords) (v2157 : BitVec 32) (v3074 : BitVec 32) : Prop :=
  (∀ (k0_h360 : k0_cond360 v2157 = 1#1), ∀ a, (k0_off1080 i v3074) a + S1x1x512.size a ≤ S1024x200x512.size a)
instance k0_chk360.dec : ∀ (i : grid0.Coords) (v2157 : BitVec 32) (v3074 : BitVec 32), Decidable (k0_chk360 i v2157 v3074) := fun i v2157 v3074 => decidable_of_iff' _ (Iff.of_eq (k0_chk360.eq_1 i v2157 v3074))
theorem k0_off1080_inb : ∀ (i : grid0.Coords) (v2157 : BitVec 32) (v3074 : BitVec 32) (k0_hw360 : k0_chk360 i v2157 v3074), ∀ (k0_h360 : k0_cond360 v2157 = 1#1), ∀ a, (k0_off1080 i v3074) a + S1x1x512.size a ≤ S1024x200x512.size a := fun i v2157 v3074 k0_hw360 k0_h360 => k0_hw360 k0_h360

def k0_off1081 (i : grid0.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v2161 : BitVec 32 := Scalar.addi v0 c184_i32
  let v2162 : Index := Scalar.indexCast v2161
  ![v2162.toNat]
def k0_off1082 (i : grid0.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v2161 : BitVec 32 := Scalar.addi v0 c184_i32
  let v3073 : Index := Scalar.indexCast v2161
  ![v3073.toNat]
def k0_off1083 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c184_i32 : BitVec 32 := 184#32
  let v2161 : BitVec 32 := Scalar.addi v0 c184_i32
  let c0_i32_1287 : BitVec 32 := 0#32
  ![v2161.toNat, v3074.toNat, 0]
def k0_cond361 (v2163 : BitVec 32) : BitVec 1 :=
  let c0_i32_896 : BitVec 32 := 0#32
  let v2164 : BitVec 1 := Scalar.cmpi .sgt v2163 c0_i32_896
  let v2165 : BitVec 32 := Scalar.extui v2164
  let c0_i32_897 : BitVec 32 := 0#32
  let v2166 : BitVec 1 := Scalar.cmpi .ne v2165 c0_i32_897
  v2166

def k0_chk361 (i : grid0.Coords) (v2163 : BitVec 32) (v3074 : BitVec 32) : Prop :=
  (∀ (k0_h361 : k0_cond361 v2163 = 1#1), ∀ a, (k0_off1083 i v3074) a + S1x1x512.size a ≤ S1024x200x512.size a)
instance k0_chk361.dec : ∀ (i : grid0.Coords) (v2163 : BitVec 32) (v3074 : BitVec 32), Decidable (k0_chk361 i v2163 v3074) := fun i v2163 v3074 => decidable_of_iff' _ (Iff.of_eq (k0_chk361.eq_1 i v2163 v3074))
theorem k0_off1083_inb : ∀ (i : grid0.Coords) (v2163 : BitVec 32) (v3074 : BitVec 32) (k0_hw361 : k0_chk361 i v2163 v3074), ∀ (k0_h361 : k0_cond361 v2163 = 1#1), ∀ a, (k0_off1083 i v3074) a + S1x1x512.size a ≤ S1024x200x512.size a := fun i v2163 v3074 k0_hw361 k0_h361 => k0_hw361 k0_h361

def k0_off1084 (i : grid0.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v2167 : BitVec 32 := Scalar.addi v0 c185_i32
  let v2168 : Index := Scalar.indexCast v2167
  ![v2168.toNat]
def k0_off1085 (i : grid0.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v2167 : BitVec 32 := Scalar.addi v0 c185_i32
  let v3073 : Index := Scalar.indexCast v2167
  ![v3073.toNat]
def k0_off1086 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c185_i32 : BitVec 32 := 185#32
  let v2167 : BitVec 32 := Scalar.addi v0 c185_i32
  let c0_i32_1287 : BitVec 32 := 0#32
  ![v2167.toNat, v3074.toNat, 0]
def k0_cond362 (v2169 : BitVec 32) : BitVec 1 :=
  let c0_i32_898 : BitVec 32 := 0#32
  let v2170 : BitVec 1 := Scalar.cmpi .sgt v2169 c0_i32_898
  let v2171 : BitVec 32 := Scalar.extui v2170
  let c0_i32_899 : BitVec 32 := 0#32
  let v2172 : BitVec 1 := Scalar.cmpi .ne v2171 c0_i32_899
  v2172

def k0_chk362 (i : grid0.Coords) (v2169 : BitVec 32) (v3074 : BitVec 32) : Prop :=
  (∀ (k0_h362 : k0_cond362 v2169 = 1#1), ∀ a, (k0_off1086 i v3074) a + S1x1x512.size a ≤ S1024x200x512.size a)
instance k0_chk362.dec : ∀ (i : grid0.Coords) (v2169 : BitVec 32) (v3074 : BitVec 32), Decidable (k0_chk362 i v2169 v3074) := fun i v2169 v3074 => decidable_of_iff' _ (Iff.of_eq (k0_chk362.eq_1 i v2169 v3074))
theorem k0_off1086_inb : ∀ (i : grid0.Coords) (v2169 : BitVec 32) (v3074 : BitVec 32) (k0_hw362 : k0_chk362 i v2169 v3074), ∀ (k0_h362 : k0_cond362 v2169 = 1#1), ∀ a, (k0_off1086 i v3074) a + S1x1x512.size a ≤ S1024x200x512.size a := fun i v2169 v3074 k0_hw362 k0_h362 => k0_hw362 k0_h362

def k0_off1087 (i : grid0.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v2173 : BitVec 32 := Scalar.addi v0 c186_i32
  let v2174 : Index := Scalar.indexCast v2173
  ![v2174.toNat]
def k0_off1088 (i : grid0.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v2173 : BitVec 32 := Scalar.addi v0 c186_i32
  let v3073 : Index := Scalar.indexCast v2173
  ![v3073.toNat]
def k0_off1089 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c186_i32 : BitVec 32 := 186#32
  let v2173 : BitVec 32 := Scalar.addi v0 c186_i32
  let c0_i32_1287 : BitVec 32 := 0#32
  ![v2173.toNat, v3074.toNat, 0]
def k0_cond363 (v2175 : BitVec 32) : BitVec 1 :=
  let c0_i32_900 : BitVec 32 := 0#32
  let v2176 : BitVec 1 := Scalar.cmpi .sgt v2175 c0_i32_900
  let v2177 : BitVec 32 := Scalar.extui v2176
  let c0_i32_901 : BitVec 32 := 0#32
  let v2178 : BitVec 1 := Scalar.cmpi .ne v2177 c0_i32_901
  v2178

def k0_chk363 (i : grid0.Coords) (v2175 : BitVec 32) (v3074 : BitVec 32) : Prop :=
  (∀ (k0_h363 : k0_cond363 v2175 = 1#1), ∀ a, (k0_off1089 i v3074) a + S1x1x512.size a ≤ S1024x200x512.size a)
instance k0_chk363.dec : ∀ (i : grid0.Coords) (v2175 : BitVec 32) (v3074 : BitVec 32), Decidable (k0_chk363 i v2175 v3074) := fun i v2175 v3074 => decidable_of_iff' _ (Iff.of_eq (k0_chk363.eq_1 i v2175 v3074))
theorem k0_off1089_inb : ∀ (i : grid0.Coords) (v2175 : BitVec 32) (v3074 : BitVec 32) (k0_hw363 : k0_chk363 i v2175 v3074), ∀ (k0_h363 : k0_cond363 v2175 = 1#1), ∀ a, (k0_off1089 i v3074) a + S1x1x512.size a ≤ S1024x200x512.size a := fun i v2175 v3074 k0_hw363 k0_h363 => k0_hw363 k0_h363

def k0_off1090 (i : grid0.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v2179 : BitVec 32 := Scalar.addi v0 c187_i32
  let v2180 : Index := Scalar.indexCast v2179
  ![v2180.toNat]
def k0_off1091 (i : grid0.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v2179 : BitVec 32 := Scalar.addi v0 c187_i32
  let v3073 : Index := Scalar.indexCast v2179
  ![v3073.toNat]
def k0_off1092 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c187_i32 : BitVec 32 := 187#32
  let v2179 : BitVec 32 := Scalar.addi v0 c187_i32
  let c0_i32_1287 : BitVec 32 := 0#32
  ![v2179.toNat, v3074.toNat, 0]
def k0_cond364 (v2181 : BitVec 32) : BitVec 1 :=
  let c0_i32_902 : BitVec 32 := 0#32
  let v2182 : BitVec 1 := Scalar.cmpi .sgt v2181 c0_i32_902
  let v2183 : BitVec 32 := Scalar.extui v2182
  let c0_i32_903 : BitVec 32 := 0#32
  let v2184 : BitVec 1 := Scalar.cmpi .ne v2183 c0_i32_903
  v2184

def k0_chk364 (i : grid0.Coords) (v2181 : BitVec 32) (v3074 : BitVec 32) : Prop :=
  (∀ (k0_h364 : k0_cond364 v2181 = 1#1), ∀ a, (k0_off1092 i v3074) a + S1x1x512.size a ≤ S1024x200x512.size a)
instance k0_chk364.dec : ∀ (i : grid0.Coords) (v2181 : BitVec 32) (v3074 : BitVec 32), Decidable (k0_chk364 i v2181 v3074) := fun i v2181 v3074 => decidable_of_iff' _ (Iff.of_eq (k0_chk364.eq_1 i v2181 v3074))
theorem k0_off1092_inb : ∀ (i : grid0.Coords) (v2181 : BitVec 32) (v3074 : BitVec 32) (k0_hw364 : k0_chk364 i v2181 v3074), ∀ (k0_h364 : k0_cond364 v2181 = 1#1), ∀ a, (k0_off1092 i v3074) a + S1x1x512.size a ≤ S1024x200x512.size a := fun i v2181 v3074 k0_hw364 k0_h364 => k0_hw364 k0_h364

def k0_off1093 (i : grid0.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v2185 : BitVec 32 := Scalar.addi v0 c188_i32
  let v2186 : Index := Scalar.indexCast v2185
  ![v2186.toNat]
def k0_off1094 (i : grid0.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v2185 : BitVec 32 := Scalar.addi v0 c188_i32
  let v3073 : Index := Scalar.indexCast v2185
  ![v3073.toNat]
def k0_off1095 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c188_i32 : BitVec 32 := 188#32
  let v2185 : BitVec 32 := Scalar.addi v0 c188_i32
  let c0_i32_1287 : BitVec 32 := 0#32
  ![v2185.toNat, v3074.toNat, 0]
def k0_cond365 (v2187 : BitVec 32) : BitVec 1 :=
  let c0_i32_904 : BitVec 32 := 0#32
  let v2188 : BitVec 1 := Scalar.cmpi .sgt v2187 c0_i32_904
  let v2189 : BitVec 32 := Scalar.extui v2188
  let c0_i32_905 : BitVec 32 := 0#32
  let v2190 : BitVec 1 := Scalar.cmpi .ne v2189 c0_i32_905
  v2190

def k0_chk365 (i : grid0.Coords) (v2187 : BitVec 32) (v3074 : BitVec 32) : Prop :=
  (∀ (k0_h365 : k0_cond365 v2187 = 1#1), ∀ a, (k0_off1095 i v3074) a + S1x1x512.size a ≤ S1024x200x512.size a)
instance k0_chk365.dec : ∀ (i : grid0.Coords) (v2187 : BitVec 32) (v3074 : BitVec 32), Decidable (k0_chk365 i v2187 v3074) := fun i v2187 v3074 => decidable_of_iff' _ (Iff.of_eq (k0_chk365.eq_1 i v2187 v3074))
theorem k0_off1095_inb : ∀ (i : grid0.Coords) (v2187 : BitVec 32) (v3074 : BitVec 32) (k0_hw365 : k0_chk365 i v2187 v3074), ∀ (k0_h365 : k0_cond365 v2187 = 1#1), ∀ a, (k0_off1095 i v3074) a + S1x1x512.size a ≤ S1024x200x512.size a := fun i v2187 v3074 k0_hw365 k0_h365 => k0_hw365 k0_h365

def k0_off1096 (i : grid0.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v2191 : BitVec 32 := Scalar.addi v0 c189_i32
  let v2192 : Index := Scalar.indexCast v2191
  ![v2192.toNat]
def k0_off1097 (i : grid0.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v2191 : BitVec 32 := Scalar.addi v0 c189_i32
  let v3073 : Index := Scalar.indexCast v2191
  ![v3073.toNat]
def k0_off1098 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c189_i32 : BitVec 32 := 189#32
  let v2191 : BitVec 32 := Scalar.addi v0 c189_i32
  let c0_i32_1287 : BitVec 32 := 0#32
  ![v2191.toNat, v3074.toNat, 0]
def k0_cond366 (v2193 : BitVec 32) : BitVec 1 :=
  let c0_i32_906 : BitVec 32 := 0#32
  let v2194 : BitVec 1 := Scalar.cmpi .sgt v2193 c0_i32_906
  let v2195 : BitVec 32 := Scalar.extui v2194
  let c0_i32_907 : BitVec 32 := 0#32
  let v2196 : BitVec 1 := Scalar.cmpi .ne v2195 c0_i32_907
  v2196

def k0_chk366 (i : grid0.Coords) (v2193 : BitVec 32) (v3074 : BitVec 32) : Prop :=
  (∀ (k0_h366 : k0_cond366 v2193 = 1#1), ∀ a, (k0_off1098 i v3074) a + S1x1x512.size a ≤ S1024x200x512.size a)
instance k0_chk366.dec : ∀ (i : grid0.Coords) (v2193 : BitVec 32) (v3074 : BitVec 32), Decidable (k0_chk366 i v2193 v3074) := fun i v2193 v3074 => decidable_of_iff' _ (Iff.of_eq (k0_chk366.eq_1 i v2193 v3074))
theorem k0_off1098_inb : ∀ (i : grid0.Coords) (v2193 : BitVec 32) (v3074 : BitVec 32) (k0_hw366 : k0_chk366 i v2193 v3074), ∀ (k0_h366 : k0_cond366 v2193 = 1#1), ∀ a, (k0_off1098 i v3074) a + S1x1x512.size a ≤ S1024x200x512.size a := fun i v2193 v3074 k0_hw366 k0_h366 => k0_hw366 k0_h366

def k0_off1099 (i : grid0.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v2197 : BitVec 32 := Scalar.addi v0 c190_i32
  let v2198 : Index := Scalar.indexCast v2197
  ![v2198.toNat]
def k0_off1100 (i : grid0.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v2197 : BitVec 32 := Scalar.addi v0 c190_i32
  let v3073 : Index := Scalar.indexCast v2197
  ![v3073.toNat]
def k0_off1101 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c190_i32 : BitVec 32 := 190#32
  let v2197 : BitVec 32 := Scalar.addi v0 c190_i32
  let c0_i32_1287 : BitVec 32 := 0#32
  ![v2197.toNat, v3074.toNat, 0]
def k0_cond367 (v2199 : BitVec 32) : BitVec 1 :=
  let c0_i32_908 : BitVec 32 := 0#32
  let v2200 : BitVec 1 := Scalar.cmpi .sgt v2199 c0_i32_908
  let v2201 : BitVec 32 := Scalar.extui v2200
  let c0_i32_909 : BitVec 32 := 0#32
  let v2202 : BitVec 1 := Scalar.cmpi .ne v2201 c0_i32_909
  v2202

def k0_chk367 (i : grid0.Coords) (v2199 : BitVec 32) (v3074 : BitVec 32) : Prop :=
  (∀ (k0_h367 : k0_cond367 v2199 = 1#1), ∀ a, (k0_off1101 i v3074) a + S1x1x512.size a ≤ S1024x200x512.size a)
instance k0_chk367.dec : ∀ (i : grid0.Coords) (v2199 : BitVec 32) (v3074 : BitVec 32), Decidable (k0_chk367 i v2199 v3074) := fun i v2199 v3074 => decidable_of_iff' _ (Iff.of_eq (k0_chk367.eq_1 i v2199 v3074))
theorem k0_off1101_inb : ∀ (i : grid0.Coords) (v2199 : BitVec 32) (v3074 : BitVec 32) (k0_hw367 : k0_chk367 i v2199 v3074), ∀ (k0_h367 : k0_cond367 v2199 = 1#1), ∀ a, (k0_off1101 i v3074) a + S1x1x512.size a ≤ S1024x200x512.size a := fun i v2199 v3074 k0_hw367 k0_h367 => k0_hw367 k0_h367

def k0_off1102 (i : grid0.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v2203 : BitVec 32 := Scalar.addi v0 c191_i32
  let v2204 : Index := Scalar.indexCast v2203
  ![v2204.toNat]
def k0_off1103 (i : grid0.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v2203 : BitVec 32 := Scalar.addi v0 c191_i32
  let v3073 : Index := Scalar.indexCast v2203
  ![v3073.toNat]
def k0_off1104 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c191_i32 : BitVec 32 := 191#32
  let v2203 : BitVec 32 := Scalar.addi v0 c191_i32
  let c0_i32_1287 : BitVec 32 := 0#32
  ![v2203.toNat, v3074.toNat, 0]
def k0_cond368 (v2205 : BitVec 32) : BitVec 1 :=
  let c0_i32_910 : BitVec 32 := 0#32
  let v2206 : BitVec 1 := Scalar.cmpi .sgt v2205 c0_i32_910
  let v2207 : BitVec 32 := Scalar.extui v2206
  let c0_i32_911 : BitVec 32 := 0#32
  let v2208 : BitVec 1 := Scalar.cmpi .ne v2207 c0_i32_911
  v2208

def k0_chk368 (i : grid0.Coords) (v2205 : BitVec 32) (v3074 : BitVec 32) : Prop :=
  (∀ (k0_h368 : k0_cond368 v2205 = 1#1), ∀ a, (k0_off1104 i v3074) a + S1x1x512.size a ≤ S1024x200x512.size a)
instance k0_chk368.dec : ∀ (i : grid0.Coords) (v2205 : BitVec 32) (v3074 : BitVec 32), Decidable (k0_chk368 i v2205 v3074) := fun i v2205 v3074 => decidable_of_iff' _ (Iff.of_eq (k0_chk368.eq_1 i v2205 v3074))
theorem k0_off1104_inb : ∀ (i : grid0.Coords) (v2205 : BitVec 32) (v3074 : BitVec 32) (k0_hw368 : k0_chk368 i v2205 v3074), ∀ (k0_h368 : k0_cond368 v2205 = 1#1), ∀ a, (k0_off1104 i v3074) a + S1x1x512.size a ≤ S1024x200x512.size a := fun i v2205 v3074 k0_hw368 k0_h368 => k0_hw368 k0_h368

def k0_off1105 (i : grid0.Coords) : Fin 1 → Nat :=
  let arg0 : BitVec 32 := BitVec.ofNat 32 (i 0).val
  let c256_i32 : BitVec 32 := 256#32
  let v0 : BitVec 32 := Scalar.muli arg0 c256_i32
  let c176_i32_912 : BitVec 32 := 176#32
  let v2209 : BitVec 32 := Scalar.addi v0 c176_i32_912
  let v2210 : Index := Scalar.indexCast v2209
  ![v2210.toNat]
def k0_off1106 (i : grid0.Coords) : Fin 1 → Nat :=
  let arg0 : BitVec 32 := BitVec.ofNat 32 (i 0).val
  let c256_i32 : BitVec 32 := 256#32
  let v0 : BitVec 32 := Scalar.muli arg0 c256_i32
  let c176_i32_912 : BitVec 32 := 176#32
  let v2209 : BitVec 32 := Scalar.addi v0 c176_i32_912
  let v3073 : Index := Scalar.indexCast v2209
  ![v3073.toNat]
def k0_off1107 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c176_i32_912 : BitVec 32 := 176#32
  let v2209 : BitVec 32 := Scalar.addi v0 c176_i32_912
  let c0_i32_1282 : BitVec 32 := 0#32
  ![v2209.toNat, v3074.toNat, 0]
def k0_cond369 (v2211 : BitVec 32) : BitVec 1 :=
  let c0_i32_913 : BitVec 32 := 0#32
  let v2212 : BitVec 1 := Scalar.cmpi .sgt v2211 c0_i32_913
  let v2213 : BitVec 32 := Scalar.extui v2212
  let c0_i32_914 : BitVec 32 := 0#32
  let v2214 : BitVec 1 := Scalar.cmpi .ne v2213 c0_i32_914
  v2214

def k0_chk369 (i : grid0.Coords) (v2211 : BitVec 32) (v3074 : BitVec 32) : Prop :=
  (∀ (k0_h369 : k0_cond369 v2211 = 1#1), ∀ a, (k0_off1107 i v3074) a + S1x1x512.size a ≤ S1024x200x512.size a)
instance k0_chk369.dec : ∀ (i : grid0.Coords) (v2211 : BitVec 32) (v3074 : BitVec 32), Decidable (k0_chk369 i v2211 v3074) := fun i v2211 v3074 => decidable_of_iff' _ (Iff.of_eq (k0_chk369.eq_1 i v2211 v3074))
theorem k0_off1107_inb : ∀ (i : grid0.Coords) (v2211 : BitVec 32) (v3074 : BitVec 32) (k0_hw369 : k0_chk369 i v2211 v3074), ∀ (k0_h369 : k0_cond369 v2211 = 1#1), ∀ a, (k0_off1107 i v3074) a + S1x1x512.size a ≤ S1024x200x512.size a := fun i v2211 v3074 k0_hw369 k0_h369 => k0_hw369 k0_h369

def k0_off1108 (i : grid0.Coords) : Fin 1 → Nat :=
  let arg0 : BitVec 32 := BitVec.ofNat 32 (i 0).val
  let c256_i32 : BitVec 32 := 256#32
  let v0 : BitVec 32 := Scalar.muli arg0 c256_i32
  let c177_i32_915 : BitVec 32 := 177#32
  let v2215 : BitVec 32 := Scalar.addi v0 c177_i32_915
  let v2216 : Index := Scalar.indexCast v2215
  ![v2216.toNat]
def k0_off1109 (i : grid0.Coords) : Fin 1 → Nat :=
  let arg0 : BitVec 32 := BitVec.ofNat 32 (i 0).val
  let c256_i32 : BitVec 32 := 256#32
  let v0 : BitVec 32 := Scalar.muli arg0 c256_i32
  let c177_i32_915 : BitVec 32 := 177#32
  let v2215 : BitVec 32 := Scalar.addi v0 c177_i32_915
  let v3073 : Index := Scalar.indexCast v2215
  ![v3073.toNat]
def k0_off1110 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c177_i32_915 : BitVec 32 := 177#32
  let v2215 : BitVec 32 := Scalar.addi v0 c177_i32_915
  let c0_i32_1282 : BitVec 32 := 0#32
  ![v2215.toNat, v3074.toNat, 0]
def k0_cond370 (v2217 : BitVec 32) : BitVec 1 :=
  let c0_i32_916 : BitVec 32 := 0#32
  let v2218 : BitVec 1 := Scalar.cmpi .sgt v2217 c0_i32_916
  let v2219 : BitVec 32 := Scalar.extui v2218
  let c0_i32_917 : BitVec 32 := 0#32
  let v2220 : BitVec 1 := Scalar.cmpi .ne v2219 c0_i32_917
  v2220

def k0_chk370 (i : grid0.Coords) (v2217 : BitVec 32) (v3074 : BitVec 32) : Prop :=
  (∀ (k0_h370 : k0_cond370 v2217 = 1#1), ∀ a, (k0_off1110 i v3074) a + S1x1x512.size a ≤ S1024x200x512.size a)
instance k0_chk370.dec : ∀ (i : grid0.Coords) (v2217 : BitVec 32) (v3074 : BitVec 32), Decidable (k0_chk370 i v2217 v3074) := fun i v2217 v3074 => decidable_of_iff' _ (Iff.of_eq (k0_chk370.eq_1 i v2217 v3074))
theorem k0_off1110_inb : ∀ (i : grid0.Coords) (v2217 : BitVec 32) (v3074 : BitVec 32) (k0_hw370 : k0_chk370 i v2217 v3074), ∀ (k0_h370 : k0_cond370 v2217 = 1#1), ∀ a, (k0_off1110 i v3074) a + S1x1x512.size a ≤ S1024x200x512.size a := fun i v2217 v3074 k0_hw370 k0_h370 => k0_hw370 k0_h370

def k0_off1111 (i : grid0.Coords) : Fin 1 → Nat :=
  let arg0 : BitVec 32 := BitVec.ofNat 32 (i 0).val
  let c256_i32 : BitVec 32 := 256#32
  let v0 : BitVec 32 := Scalar.muli arg0 c256_i32
  let c178_i32_918 : BitVec 32 := 178#32
  let v2221 : BitVec 32 := Scalar.addi v0 c178_i32_918
  let v2222 : Index := Scalar.indexCast v2221
  ![v2222.toNat]
def k0_off1112 (i : grid0.Coords) : Fin 1 → Nat :=
  let arg0 : BitVec 32 := BitVec.ofNat 32 (i 0).val
  let c256_i32 : BitVec 32 := 256#32
  let v0 : BitVec 32 := Scalar.muli arg0 c256_i32
  let c178_i32_918 : BitVec 32 := 178#32
  let v2221 : BitVec 32 := Scalar.addi v0 c178_i32_918
  let v3073 : Index := Scalar.indexCast v2221
  ![v3073.toNat]
def k0_off1113 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c178_i32_918 : BitVec 32 := 178#32
  let v2221 : BitVec 32 := Scalar.addi v0 c178_i32_918
  let c0_i32_1282 : BitVec 32 := 0#32
  ![v2221.toNat, v3074.toNat, 0]
def k0_cond371 (v2223 : BitVec 32) : BitVec 1 :=
  let c0_i32_919 : BitVec 32 := 0#32
  let v2224 : BitVec 1 := Scalar.cmpi .sgt v2223 c0_i32_919
  let v2225 : BitVec 32 := Scalar.extui v2224
  let c0_i32_920 : BitVec 32 := 0#32
  let v2226 : BitVec 1 := Scalar.cmpi .ne v2225 c0_i32_920
  v2226

def k0_chk371 (i : grid0.Coords) (v2223 : BitVec 32) (v3074 : BitVec 32) : Prop :=
  (∀ (k0_h371 : k0_cond371 v2223 = 1#1), ∀ a, (k0_off1113 i v3074) a + S1x1x512.size a ≤ S1024x200x512.size a)
instance k0_chk371.dec : ∀ (i : grid0.Coords) (v2223 : BitVec 32) (v3074 : BitVec 32), Decidable (k0_chk371 i v2223 v3074) := fun i v2223 v3074 => decidable_of_iff' _ (Iff.of_eq (k0_chk371.eq_1 i v2223 v3074))
theorem k0_off1113_inb : ∀ (i : grid0.Coords) (v2223 : BitVec 32) (v3074 : BitVec 32) (k0_hw371 : k0_chk371 i v2223 v3074), ∀ (k0_h371 : k0_cond371 v2223 = 1#1), ∀ a, (k0_off1113 i v3074) a + S1x1x512.size a ≤ S1024x200x512.size a := fun i v2223 v3074 k0_hw371 k0_h371 => k0_hw371 k0_h371

def k0_off1114 (i : grid0.Coords) : Fin 1 → Nat :=
  let arg0 : BitVec 32 := BitVec.ofNat 32 (i 0).val
  let c256_i32 : BitVec 32 := 256#32
  let v0 : BitVec 32 := Scalar.muli arg0 c256_i32
  let c179_i32_921 : BitVec 32 := 179#32
  let v2227 : BitVec 32 := Scalar.addi v0 c179_i32_921
  let v2228 : Index := Scalar.indexCast v2227
  ![v2228.toNat]
def k0_off1115 (i : grid0.Coords) : Fin 1 → Nat :=
  let arg0 : BitVec 32 := BitVec.ofNat 32 (i 0).val
  let c256_i32 : BitVec 32 := 256#32
  let v0 : BitVec 32 := Scalar.muli arg0 c256_i32
  let c179_i32_921 : BitVec 32 := 179#32
  let v2227 : BitVec 32 := Scalar.addi v0 c179_i32_921
  let v3073 : Index := Scalar.indexCast v2227
  ![v3073.toNat]
def k0_off1116 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c179_i32_921 : BitVec 32 := 179#32
  let v2227 : BitVec 32 := Scalar.addi v0 c179_i32_921
  let c0_i32_1282 : BitVec 32 := 0#32
  ![v2227.toNat, v3074.toNat, 0]
def k0_cond372 (v2229 : BitVec 32) : BitVec 1 :=
  let c0_i32_922 : BitVec 32 := 0#32
  let v2230 : BitVec 1 := Scalar.cmpi .sgt v2229 c0_i32_922
  let v2231 : BitVec 32 := Scalar.extui v2230
  let c0_i32_923 : BitVec 32 := 0#32
  let v2232 : BitVec 1 := Scalar.cmpi .ne v2231 c0_i32_923
  v2232

def k0_chk372 (i : grid0.Coords) (v2229 : BitVec 32) (v3074 : BitVec 32) : Prop :=
  (∀ (k0_h372 : k0_cond372 v2229 = 1#1), ∀ a, (k0_off1116 i v3074) a + S1x1x512.size a ≤ S1024x200x512.size a)
instance k0_chk372.dec : ∀ (i : grid0.Coords) (v2229 : BitVec 32) (v3074 : BitVec 32), Decidable (k0_chk372 i v2229 v3074) := fun i v2229 v3074 => decidable_of_iff' _ (Iff.of_eq (k0_chk372.eq_1 i v2229 v3074))
theorem k0_off1116_inb : ∀ (i : grid0.Coords) (v2229 : BitVec 32) (v3074 : BitVec 32) (k0_hw372 : k0_chk372 i v2229 v3074), ∀ (k0_h372 : k0_cond372 v2229 = 1#1), ∀ a, (k0_off1116 i v3074) a + S1x1x512.size a ≤ S1024x200x512.size a := fun i v2229 v3074 k0_hw372 k0_h372 => k0_hw372 k0_h372

def k0_off1117 (i : grid0.Coords) : Fin 1 → Nat :=
  let arg0 : BitVec 32 := BitVec.ofNat 32 (i 0).val
  let c256_i32 : BitVec 32 := 256#32
  let v0 : BitVec 32 := Scalar.muli arg0 c256_i32
  let c180_i32_924 : BitVec 32 := 180#32
  let v2233 : BitVec 32 := Scalar.addi v0 c180_i32_924
  let v2234 : Index := Scalar.indexCast v2233
  ![v2234.toNat]
def k0_off1118 (i : grid0.Coords) : Fin 1 → Nat :=
  let arg0 : BitVec 32 := BitVec.ofNat 32 (i 0).val
  let c256_i32 : BitVec 32 := 256#32
  let v0 : BitVec 32 := Scalar.muli arg0 c256_i32
  let c180_i32_924 : BitVec 32 := 180#32
  let v2233 : BitVec 32 := Scalar.addi v0 c180_i32_924
  let v3073 : Index := Scalar.indexCast v2233
  ![v3073.toNat]
def k0_off1119 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c180_i32_924 : BitVec 32 := 180#32
  let v2233 : BitVec 32 := Scalar.addi v0 c180_i32_924
  let c0_i32_1282 : BitVec 32 := 0#32
  ![v2233.toNat, v3074.toNat, 0]
def k0_cond373 (v2235 : BitVec 32) : BitVec 1 :=
  let c0_i32_925 : BitVec 32 := 0#32
  let v2236 : BitVec 1 := Scalar.cmpi .sgt v2235 c0_i32_925
  let v2237 : BitVec 32 := Scalar.extui v2236
  let c0_i32_926 : BitVec 32 := 0#32
  let v2238 : BitVec 1 := Scalar.cmpi .ne v2237 c0_i32_926
  v2238

def k0_chk373 (i : grid0.Coords) (v2235 : BitVec 32) (v3074 : BitVec 32) : Prop :=
  (∀ (k0_h373 : k0_cond373 v2235 = 1#1), ∀ a, (k0_off1119 i v3074) a + S1x1x512.size a ≤ S1024x200x512.size a)
instance k0_chk373.dec : ∀ (i : grid0.Coords) (v2235 : BitVec 32) (v3074 : BitVec 32), Decidable (k0_chk373 i v2235 v3074) := fun i v2235 v3074 => decidable_of_iff' _ (Iff.of_eq (k0_chk373.eq_1 i v2235 v3074))
theorem k0_off1119_inb : ∀ (i : grid0.Coords) (v2235 : BitVec 32) (v3074 : BitVec 32) (k0_hw373 : k0_chk373 i v2235 v3074), ∀ (k0_h373 : k0_cond373 v2235 = 1#1), ∀ a, (k0_off1119 i v3074) a + S1x1x512.size a ≤ S1024x200x512.size a := fun i v2235 v3074 k0_hw373 k0_h373 => k0_hw373 k0_h373

def k0_off1120 (i : grid0.Coords) : Fin 1 → Nat :=
  let arg0 : BitVec 32 := BitVec.ofNat 32 (i 0).val
  let c256_i32 : BitVec 32 := 256#32
  let v0 : BitVec 32 := Scalar.muli arg0 c256_i32
  let c181_i32_927 : BitVec 32 := 181#32
  let v2239 : BitVec 32 := Scalar.addi v0 c181_i32_927
  let v2240 : Index := Scalar.indexCast v2239
  ![v2240.toNat]
def k0_off1121 (i : grid0.Coords) : Fin 1 → Nat :=
  let arg0 : BitVec 32 := BitVec.ofNat 32 (i 0).val
  let c256_i32 : BitVec 32 := 256#32
  let v0 : BitVec 32 := Scalar.muli arg0 c256_i32
  let c181_i32_927 : BitVec 32 := 181#32
  let v2239 : BitVec 32 := Scalar.addi v0 c181_i32_927
  let v3073 : Index := Scalar.indexCast v2239
  ![v3073.toNat]
def k0_off1122 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c181_i32_927 : BitVec 32 := 181#32
  let v2239 : BitVec 32 := Scalar.addi v0 c181_i32_927
  let c0_i32_1282 : BitVec 32 := 0#32
  ![v2239.toNat, v3074.toNat, 0]
def k0_cond374 (v2241 : BitVec 32) : BitVec 1 :=
  let c0_i32_928 : BitVec 32 := 0#32
  let v2242 : BitVec 1 := Scalar.cmpi .sgt v2241 c0_i32_928
  let v2243 : BitVec 32 := Scalar.extui v2242
  let c0_i32_929 : BitVec 32 := 0#32
  let v2244 : BitVec 1 := Scalar.cmpi .ne v2243 c0_i32_929
  v2244

def k0_chk374 (i : grid0.Coords) (v2241 : BitVec 32) (v3074 : BitVec 32) : Prop :=
  (∀ (k0_h374 : k0_cond374 v2241 = 1#1), ∀ a, (k0_off1122 i v3074) a + S1x1x512.size a ≤ S1024x200x512.size a)
instance k0_chk374.dec : ∀ (i : grid0.Coords) (v2241 : BitVec 32) (v3074 : BitVec 32), Decidable (k0_chk374 i v2241 v3074) := fun i v2241 v3074 => decidable_of_iff' _ (Iff.of_eq (k0_chk374.eq_1 i v2241 v3074))
theorem k0_off1122_inb : ∀ (i : grid0.Coords) (v2241 : BitVec 32) (v3074 : BitVec 32) (k0_hw374 : k0_chk374 i v2241 v3074), ∀ (k0_h374 : k0_cond374 v2241 = 1#1), ∀ a, (k0_off1122 i v3074) a + S1x1x512.size a ≤ S1024x200x512.size a := fun i v2241 v3074 k0_hw374 k0_h374 => k0_hw374 k0_h374

def k0_off1123 (i : grid0.Coords) : Fin 1 → Nat :=
  let arg0 : BitVec 32 := BitVec.ofNat 32 (i 0).val
  let c256_i32 : BitVec 32 := 256#32
  let v0 : BitVec 32 := Scalar.muli arg0 c256_i32
  let c182_i32_930 : BitVec 32 := 182#32
  let v2245 : BitVec 32 := Scalar.addi v0 c182_i32_930
  let v2246 : Index := Scalar.indexCast v2245
  ![v2246.toNat]
def k0_off1124 (i : grid0.Coords) : Fin 1 → Nat :=
  let arg0 : BitVec 32 := BitVec.ofNat 32 (i 0).val
  let c256_i32 : BitVec 32 := 256#32
  let v0 : BitVec 32 := Scalar.muli arg0 c256_i32
  let c182_i32_930 : BitVec 32 := 182#32
  let v2245 : BitVec 32 := Scalar.addi v0 c182_i32_930
  let v3073 : Index := Scalar.indexCast v2245
  ![v3073.toNat]
def k0_off1125 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c182_i32_930 : BitVec 32 := 182#32
  let v2245 : BitVec 32 := Scalar.addi v0 c182_i32_930
  let c0_i32_1282 : BitVec 32 := 0#32
  ![v2245.toNat, v3074.toNat, 0]
def k0_cond375 (v2247 : BitVec 32) : BitVec 1 :=
  let c0_i32_931 : BitVec 32 := 0#32
  let v2248 : BitVec 1 := Scalar.cmpi .sgt v2247 c0_i32_931
  let v2249 : BitVec 32 := Scalar.extui v2248
  let c0_i32_932 : BitVec 32 := 0#32
  let v2250 : BitVec 1 := Scalar.cmpi .ne v2249 c0_i32_932
  v2250

def k0_chk375 (i : grid0.Coords) (v2247 : BitVec 32) (v3074 : BitVec 32) : Prop :=
  (∀ (k0_h375 : k0_cond375 v2247 = 1#1), ∀ a, (k0_off1125 i v3074) a + S1x1x512.size a ≤ S1024x200x512.size a)
instance k0_chk375.dec : ∀ (i : grid0.Coords) (v2247 : BitVec 32) (v3074 : BitVec 32), Decidable (k0_chk375 i v2247 v3074) := fun i v2247 v3074 => decidable_of_iff' _ (Iff.of_eq (k0_chk375.eq_1 i v2247 v3074))
theorem k0_off1125_inb : ∀ (i : grid0.Coords) (v2247 : BitVec 32) (v3074 : BitVec 32) (k0_hw375 : k0_chk375 i v2247 v3074), ∀ (k0_h375 : k0_cond375 v2247 = 1#1), ∀ a, (k0_off1125 i v3074) a + S1x1x512.size a ≤ S1024x200x512.size a := fun i v2247 v3074 k0_hw375 k0_h375 => k0_hw375 k0_h375

def k0_off1126 (i : grid0.Coords) : Fin 1 → Nat :=
  let arg0 : BitVec 32 := BitVec.ofNat 32 (i 0).val
  let c256_i32 : BitVec 32 := 256#32
  let v0 : BitVec 32 := Scalar.muli arg0 c256_i32
  let c183_i32_933 : BitVec 32 := 183#32
  let v2251 : BitVec 32 := Scalar.addi v0 c183_i32_933
  let v2252 : Index := Scalar.indexCast v2251
  ![v2252.toNat]
def k0_off1127 (i : grid0.Coords) : Fin 1 → Nat :=
  let arg0 : BitVec 32 := BitVec.ofNat 32 (i 0).val
  let c256_i32 : BitVec 32 := 256#32
  let v0 : BitVec 32 := Scalar.muli arg0 c256_i32
  let c183_i32_933 : BitVec 32 := 183#32
  let v2251 : BitVec 32 := Scalar.addi v0 c183_i32_933
  let v3073 : Index := Scalar.indexCast v2251
  ![v3073.toNat]
def k0_off1128 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c183_i32_933 : BitVec 32 := 183#32
  let v2251 : BitVec 32 := Scalar.addi v0 c183_i32_933
  let c0_i32_1282 : BitVec 32 := 0#32
  ![v2251.toNat, v3074.toNat, 0]
def k0_cond376 (v2253 : BitVec 32) : BitVec 1 :=
  let c0_i32_934 : BitVec 32 := 0#32
  let v2254 : BitVec 1 := Scalar.cmpi .sgt v2253 c0_i32_934
  let v2255 : BitVec 32 := Scalar.extui v2254
  let c0_i32_935 : BitVec 32 := 0#32
  let v2256 : BitVec 1 := Scalar.cmpi .ne v2255 c0_i32_935
  v2256

def k0_chk376 (i : grid0.Coords) (v2253 : BitVec 32) (v3074 : BitVec 32) : Prop :=
  (∀ (k0_h376 : k0_cond376 v2253 = 1#1), ∀ a, (k0_off1128 i v3074) a + S1x1x512.size a ≤ S1024x200x512.size a)
instance k0_chk376.dec : ∀ (i : grid0.Coords) (v2253 : BitVec 32) (v3074 : BitVec 32), Decidable (k0_chk376 i v2253 v3074) := fun i v2253 v3074 => decidable_of_iff' _ (Iff.of_eq (k0_chk376.eq_1 i v2253 v3074))
theorem k0_off1128_inb : ∀ (i : grid0.Coords) (v2253 : BitVec 32) (v3074 : BitVec 32) (k0_hw376 : k0_chk376 i v2253 v3074), ∀ (k0_h376 : k0_cond376 v2253 = 1#1), ∀ a, (k0_off1128 i v3074) a + S1x1x512.size a ≤ S1024x200x512.size a := fun i v2253 v3074 k0_hw376 k0_h376 => k0_hw376 k0_h376

def k0_off1129 (i : grid0.Coords) : Fin 1 → Nat :=
  let arg0 : BitVec 32 := BitVec.ofNat 32 (i 0).val
  let c256_i32 : BitVec 32 := 256#32
  let v0 : BitVec 32 := Scalar.muli arg0 c256_i32
  let c184_i32_936 : BitVec 32 := 184#32
  let v2257 : BitVec 32 := Scalar.addi v0 c184_i32_936
  let v2258 : Index := Scalar.indexCast v2257
  ![v2258.toNat]
def k0_off1130 (i : grid0.Coords) : Fin 1 → Nat :=
  let arg0 : BitVec 32 := BitVec.ofNat 32 (i 0).val
  let c256_i32 : BitVec 32 := 256#32
  let v0 : BitVec 32 := Scalar.muli arg0 c256_i32
  let c184_i32_936 : BitVec 32 := 184#32
  let v2257 : BitVec 32 := Scalar.addi v0 c184_i32_936
  let v3073 : Index := Scalar.indexCast v2257
  ![v3073.toNat]
def k0_off1131 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c184_i32_936 : BitVec 32 := 184#32
  let v2257 : BitVec 32 := Scalar.addi v0 c184_i32_936
  let c0_i32_1282 : BitVec 32 := 0#32
  ![v2257.toNat, v3074.toNat, 0]
def k0_cond377 (v2259 : BitVec 32) : BitVec 1 :=
  let c0_i32_937 : BitVec 32 := 0#32
  let v2260 : BitVec 1 := Scalar.cmpi .sgt v2259 c0_i32_937
  let v2261 : BitVec 32 := Scalar.extui v2260
  let c0_i32_938 : BitVec 32 := 0#32
  let v2262 : BitVec 1 := Scalar.cmpi .ne v2261 c0_i32_938
  v2262

def k0_chk377 (i : grid0.Coords) (v2259 : BitVec 32) (v3074 : BitVec 32) : Prop :=
  (∀ (k0_h377 : k0_cond377 v2259 = 1#1), ∀ a, (k0_off1131 i v3074) a + S1x1x512.size a ≤ S1024x200x512.size a)
instance k0_chk377.dec : ∀ (i : grid0.Coords) (v2259 : BitVec 32) (v3074 : BitVec 32), Decidable (k0_chk377 i v2259 v3074) := fun i v2259 v3074 => decidable_of_iff' _ (Iff.of_eq (k0_chk377.eq_1 i v2259 v3074))
theorem k0_off1131_inb : ∀ (i : grid0.Coords) (v2259 : BitVec 32) (v3074 : BitVec 32) (k0_hw377 : k0_chk377 i v2259 v3074), ∀ (k0_h377 : k0_cond377 v2259 = 1#1), ∀ a, (k0_off1131 i v3074) a + S1x1x512.size a ≤ S1024x200x512.size a := fun i v2259 v3074 k0_hw377 k0_h377 => k0_hw377 k0_h377

def k0_off1132 (i : grid0.Coords) : Fin 1 → Nat :=
  let arg0 : BitVec 32 := BitVec.ofNat 32 (i 0).val
  let c256_i32 : BitVec 32 := 256#32
  let v0 : BitVec 32 := Scalar.muli arg0 c256_i32
  let c185_i32_939 : BitVec 32 := 185#32
  let v2263 : BitVec 32 := Scalar.addi v0 c185_i32_939
  let v2264 : Index := Scalar.indexCast v2263
  ![v2264.toNat]
def k0_off1133 (i : grid0.Coords) : Fin 1 → Nat :=
  let arg0 : BitVec 32 := BitVec.ofNat 32 (i 0).val
  let c256_i32 : BitVec 32 := 256#32
  let v0 : BitVec 32 := Scalar.muli arg0 c256_i32
  let c185_i32_939 : BitVec 32 := 185#32
  let v2263 : BitVec 32 := Scalar.addi v0 c185_i32_939
  let v3073 : Index := Scalar.indexCast v2263
  ![v3073.toNat]
def k0_off1134 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c185_i32_939 : BitVec 32 := 185#32
  let v2263 : BitVec 32 := Scalar.addi v0 c185_i32_939
  let c0_i32_1282 : BitVec 32 := 0#32
  ![v2263.toNat, v3074.toNat, 0]
def k0_cond378 (v2265 : BitVec 32) : BitVec 1 :=
  let c0_i32_940 : BitVec 32 := 0#32
  let v2266 : BitVec 1 := Scalar.cmpi .sgt v2265 c0_i32_940
  let v2267 : BitVec 32 := Scalar.extui v2266
  let c0_i32_941 : BitVec 32 := 0#32
  let v2268 : BitVec 1 := Scalar.cmpi .ne v2267 c0_i32_941
  v2268

def k0_chk378 (i : grid0.Coords) (v2265 : BitVec 32) (v3074 : BitVec 32) : Prop :=
  (∀ (k0_h378 : k0_cond378 v2265 = 1#1), ∀ a, (k0_off1134 i v3074) a + S1x1x512.size a ≤ S1024x200x512.size a)
instance k0_chk378.dec : ∀ (i : grid0.Coords) (v2265 : BitVec 32) (v3074 : BitVec 32), Decidable (k0_chk378 i v2265 v3074) := fun i v2265 v3074 => decidable_of_iff' _ (Iff.of_eq (k0_chk378.eq_1 i v2265 v3074))
theorem k0_off1134_inb : ∀ (i : grid0.Coords) (v2265 : BitVec 32) (v3074 : BitVec 32) (k0_hw378 : k0_chk378 i v2265 v3074), ∀ (k0_h378 : k0_cond378 v2265 = 1#1), ∀ a, (k0_off1134 i v3074) a + S1x1x512.size a ≤ S1024x200x512.size a := fun i v2265 v3074 k0_hw378 k0_h378 => k0_hw378 k0_h378

def k0_off1135 (i : grid0.Coords) : Fin 1 → Nat :=
  let arg0 : BitVec 32 := BitVec.ofNat 32 (i 0).val
  let c256_i32 : BitVec 32 := 256#32
  let v0 : BitVec 32 := Scalar.muli arg0 c256_i32
  let c186_i32_942 : BitVec 32 := 186#32
  let v2269 : BitVec 32 := Scalar.addi v0 c186_i32_942
  let v2270 : Index := Scalar.indexCast v2269
  ![v2270.toNat]
def k0_off1136 (i : grid0.Coords) : Fin 1 → Nat :=
  let arg0 : BitVec 32 := BitVec.ofNat 32 (i 0).val
  let c256_i32 : BitVec 32 := 256#32
  let v0 : BitVec 32 := Scalar.muli arg0 c256_i32
  let c186_i32_942 : BitVec 32 := 186#32
  let v2269 : BitVec 32 := Scalar.addi v0 c186_i32_942
  let v3073 : Index := Scalar.indexCast v2269
  ![v3073.toNat]
def k0_off1137 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c186_i32_942 : BitVec 32 := 186#32
  let v2269 : BitVec 32 := Scalar.addi v0 c186_i32_942
  let c0_i32_1282 : BitVec 32 := 0#32
  ![v2269.toNat, v3074.toNat, 0]
def k0_cond379 (v2271 : BitVec 32) : BitVec 1 :=
  let c0_i32_943 : BitVec 32 := 0#32
  let v2272 : BitVec 1 := Scalar.cmpi .sgt v2271 c0_i32_943
  let v2273 : BitVec 32 := Scalar.extui v2272
  let c0_i32_944 : BitVec 32 := 0#32
  let v2274 : BitVec 1 := Scalar.cmpi .ne v2273 c0_i32_944
  v2274

def k0_chk379 (i : grid0.Coords) (v2271 : BitVec 32) (v3074 : BitVec 32) : Prop :=
  (∀ (k0_h379 : k0_cond379 v2271 = 1#1), ∀ a, (k0_off1137 i v3074) a + S1x1x512.size a ≤ S1024x200x512.size a)
instance k0_chk379.dec : ∀ (i : grid0.Coords) (v2271 : BitVec 32) (v3074 : BitVec 32), Decidable (k0_chk379 i v2271 v3074) := fun i v2271 v3074 => decidable_of_iff' _ (Iff.of_eq (k0_chk379.eq_1 i v2271 v3074))
theorem k0_off1137_inb : ∀ (i : grid0.Coords) (v2271 : BitVec 32) (v3074 : BitVec 32) (k0_hw379 : k0_chk379 i v2271 v3074), ∀ (k0_h379 : k0_cond379 v2271 = 1#1), ∀ a, (k0_off1137 i v3074) a + S1x1x512.size a ≤ S1024x200x512.size a := fun i v2271 v3074 k0_hw379 k0_h379 => k0_hw379 k0_h379

def k0_off1138 (i : grid0.Coords) : Fin 1 → Nat :=
  let arg0 : BitVec 32 := BitVec.ofNat 32 (i 0).val
  let c256_i32 : BitVec 32 := 256#32
  let v0 : BitVec 32 := Scalar.muli arg0 c256_i32
  let c187_i32_945 : BitVec 32 := 187#32
  let v2275 : BitVec 32 := Scalar.addi v0 c187_i32_945
  let v2276 : Index := Scalar.indexCast v2275
  ![v2276.toNat]
def k0_off1139 (i : grid0.Coords) : Fin 1 → Nat :=
  let arg0 : BitVec 32 := BitVec.ofNat 32 (i 0).val
  let c256_i32 : BitVec 32 := 256#32
  let v0 : BitVec 32 := Scalar.muli arg0 c256_i32
  let c187_i32_945 : BitVec 32 := 187#32
  let v2275 : BitVec 32 := Scalar.addi v0 c187_i32_945
  let v3073 : Index := Scalar.indexCast v2275
  ![v3073.toNat]
def k0_off1140 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c187_i32_945 : BitVec 32 := 187#32
  let v2275 : BitVec 32 := Scalar.addi v0 c187_i32_945
  let c0_i32_1282 : BitVec 32 := 0#32
  ![v2275.toNat, v3074.toNat, 0]
def k0_cond380 (v2277 : BitVec 32) : BitVec 1 :=
  let c0_i32_946 : BitVec 32 := 0#32
  let v2278 : BitVec 1 := Scalar.cmpi .sgt v2277 c0_i32_946
  let v2279 : BitVec 32 := Scalar.extui v2278
  let c0_i32_947 : BitVec 32 := 0#32
  let v2280 : BitVec 1 := Scalar.cmpi .ne v2279 c0_i32_947
  v2280

def k0_chk380 (i : grid0.Coords) (v2277 : BitVec 32) (v3074 : BitVec 32) : Prop :=
  (∀ (k0_h380 : k0_cond380 v2277 = 1#1), ∀ a, (k0_off1140 i v3074) a + S1x1x512.size a ≤ S1024x200x512.size a)
instance k0_chk380.dec : ∀ (i : grid0.Coords) (v2277 : BitVec 32) (v3074 : BitVec 32), Decidable (k0_chk380 i v2277 v3074) := fun i v2277 v3074 => decidable_of_iff' _ (Iff.of_eq (k0_chk380.eq_1 i v2277 v3074))
theorem k0_off1140_inb : ∀ (i : grid0.Coords) (v2277 : BitVec 32) (v3074 : BitVec 32) (k0_hw380 : k0_chk380 i v2277 v3074), ∀ (k0_h380 : k0_cond380 v2277 = 1#1), ∀ a, (k0_off1140 i v3074) a + S1x1x512.size a ≤ S1024x200x512.size a := fun i v2277 v3074 k0_hw380 k0_h380 => k0_hw380 k0_h380

def k0_off1141 (i : grid0.Coords) : Fin 1 → Nat :=
  let arg0 : BitVec 32 := BitVec.ofNat 32 (i 0).val
  let c256_i32 : BitVec 32 := 256#32
  let v0 : BitVec 32 := Scalar.muli arg0 c256_i32
  let c188_i32_948 : BitVec 32 := 188#32
  let v2281 : BitVec 32 := Scalar.addi v0 c188_i32_948
  let v2282 : Index := Scalar.indexCast v2281
  ![v2282.toNat]
def k0_off1142 (i : grid0.Coords) : Fin 1 → Nat :=
  let arg0 : BitVec 32 := BitVec.ofNat 32 (i 0).val
  let c256_i32 : BitVec 32 := 256#32
  let v0 : BitVec 32 := Scalar.muli arg0 c256_i32
  let c188_i32_948 : BitVec 32 := 188#32
  let v2281 : BitVec 32 := Scalar.addi v0 c188_i32_948
  let v3073 : Index := Scalar.indexCast v2281
  ![v3073.toNat]
def k0_off1143 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c188_i32_948 : BitVec 32 := 188#32
  let v2281 : BitVec 32 := Scalar.addi v0 c188_i32_948
  let c0_i32_1282 : BitVec 32 := 0#32
  ![v2281.toNat, v3074.toNat, 0]
def k0_cond381 (v2283 : BitVec 32) : BitVec 1 :=
  let c0_i32_949 : BitVec 32 := 0#32
  let v2284 : BitVec 1 := Scalar.cmpi .sgt v2283 c0_i32_949
  let v2285 : BitVec 32 := Scalar.extui v2284
  let c0_i32_950 : BitVec 32 := 0#32
  let v2286 : BitVec 1 := Scalar.cmpi .ne v2285 c0_i32_950
  v2286

def k0_chk381 (i : grid0.Coords) (v2283 : BitVec 32) (v3074 : BitVec 32) : Prop :=
  (∀ (k0_h381 : k0_cond381 v2283 = 1#1), ∀ a, (k0_off1143 i v3074) a + S1x1x512.size a ≤ S1024x200x512.size a)
instance k0_chk381.dec : ∀ (i : grid0.Coords) (v2283 : BitVec 32) (v3074 : BitVec 32), Decidable (k0_chk381 i v2283 v3074) := fun i v2283 v3074 => decidable_of_iff' _ (Iff.of_eq (k0_chk381.eq_1 i v2283 v3074))
theorem k0_off1143_inb : ∀ (i : grid0.Coords) (v2283 : BitVec 32) (v3074 : BitVec 32) (k0_hw381 : k0_chk381 i v2283 v3074), ∀ (k0_h381 : k0_cond381 v2283 = 1#1), ∀ a, (k0_off1143 i v3074) a + S1x1x512.size a ≤ S1024x200x512.size a := fun i v2283 v3074 k0_hw381 k0_h381 => k0_hw381 k0_h381

def k0_off1144 (i : grid0.Coords) : Fin 1 → Nat :=
  let arg0 : BitVec 32 := BitVec.ofNat 32 (i 0).val
  let c256_i32 : BitVec 32 := 256#32
  let v0 : BitVec 32 := Scalar.muli arg0 c256_i32
  let c189_i32_951 : BitVec 32 := 189#32
  let v2287 : BitVec 32 := Scalar.addi v0 c189_i32_951
  let v2288 : Index := Scalar.indexCast v2287
  ![v2288.toNat]
def k0_off1145 (i : grid0.Coords) : Fin 1 → Nat :=
  let arg0 : BitVec 32 := BitVec.ofNat 32 (i 0).val
  let c256_i32 : BitVec 32 := 256#32
  let v0 : BitVec 32 := Scalar.muli arg0 c256_i32
  let c189_i32_951 : BitVec 32 := 189#32
  let v2287 : BitVec 32 := Scalar.addi v0 c189_i32_951
  let v3073 : Index := Scalar.indexCast v2287
  ![v3073.toNat]
def k0_off1146 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c189_i32_951 : BitVec 32 := 189#32
  let v2287 : BitVec 32 := Scalar.addi v0 c189_i32_951
  let c0_i32_1282 : BitVec 32 := 0#32
  ![v2287.toNat, v3074.toNat, 0]
def k0_cond382 (v2289 : BitVec 32) : BitVec 1 :=
  let c0_i32_952 : BitVec 32 := 0#32
  let v2290 : BitVec 1 := Scalar.cmpi .sgt v2289 c0_i32_952
  let v2291 : BitVec 32 := Scalar.extui v2290
  let c0_i32_953 : BitVec 32 := 0#32
  let v2292 : BitVec 1 := Scalar.cmpi .ne v2291 c0_i32_953
  v2292

def k0_chk382 (i : grid0.Coords) (v2289 : BitVec 32) (v3074 : BitVec 32) : Prop :=
  (∀ (k0_h382 : k0_cond382 v2289 = 1#1), ∀ a, (k0_off1146 i v3074) a + S1x1x512.size a ≤ S1024x200x512.size a)
instance k0_chk382.dec : ∀ (i : grid0.Coords) (v2289 : BitVec 32) (v3074 : BitVec 32), Decidable (k0_chk382 i v2289 v3074) := fun i v2289 v3074 => decidable_of_iff' _ (Iff.of_eq (k0_chk382.eq_1 i v2289 v3074))
theorem k0_off1146_inb : ∀ (i : grid0.Coords) (v2289 : BitVec 32) (v3074 : BitVec 32) (k0_hw382 : k0_chk382 i v2289 v3074), ∀ (k0_h382 : k0_cond382 v2289 = 1#1), ∀ a, (k0_off1146 i v3074) a + S1x1x512.size a ≤ S1024x200x512.size a := fun i v2289 v3074 k0_hw382 k0_h382 => k0_hw382 k0_h382

def k0_off1147 (i : grid0.Coords) : Fin 1 → Nat :=
  let arg0 : BitVec 32 := BitVec.ofNat 32 (i 0).val
  let c256_i32 : BitVec 32 := 256#32
  let v0 : BitVec 32 := Scalar.muli arg0 c256_i32
  let c190_i32_954 : BitVec 32 := 190#32
  let v2293 : BitVec 32 := Scalar.addi v0 c190_i32_954
  let v2294 : Index := Scalar.indexCast v2293
  ![v2294.toNat]
def k0_off1148 (i : grid0.Coords) : Fin 1 → Nat :=
  let arg0 : BitVec 32 := BitVec.ofNat 32 (i 0).val
  let c256_i32 : BitVec 32 := 256#32
  let v0 : BitVec 32 := Scalar.muli arg0 c256_i32
  let c190_i32_954 : BitVec 32 := 190#32
  let v2293 : BitVec 32 := Scalar.addi v0 c190_i32_954
  let v3073 : Index := Scalar.indexCast v2293
  ![v3073.toNat]
def k0_off1149 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c190_i32_954 : BitVec 32 := 190#32
  let v2293 : BitVec 32 := Scalar.addi v0 c190_i32_954
  let c0_i32_1282 : BitVec 32 := 0#32
  ![v2293.toNat, v3074.toNat, 0]
def k0_cond383 (v2295 : BitVec 32) : BitVec 1 :=
  let c0_i32_955 : BitVec 32 := 0#32
  let v2296 : BitVec 1 := Scalar.cmpi .sgt v2295 c0_i32_955
  let v2297 : BitVec 32 := Scalar.extui v2296
  let c0_i32_956 : BitVec 32 := 0#32
  let v2298 : BitVec 1 := Scalar.cmpi .ne v2297 c0_i32_956
  v2298

def k0_chk383 (i : grid0.Coords) (v2295 : BitVec 32) (v3074 : BitVec 32) : Prop :=
  (∀ (k0_h383 : k0_cond383 v2295 = 1#1), ∀ a, (k0_off1149 i v3074) a + S1x1x512.size a ≤ S1024x200x512.size a)
instance k0_chk383.dec : ∀ (i : grid0.Coords) (v2295 : BitVec 32) (v3074 : BitVec 32), Decidable (k0_chk383 i v2295 v3074) := fun i v2295 v3074 => decidable_of_iff' _ (Iff.of_eq (k0_chk383.eq_1 i v2295 v3074))
theorem k0_off1149_inb : ∀ (i : grid0.Coords) (v2295 : BitVec 32) (v3074 : BitVec 32) (k0_hw383 : k0_chk383 i v2295 v3074), ∀ (k0_h383 : k0_cond383 v2295 = 1#1), ∀ a, (k0_off1149 i v3074) a + S1x1x512.size a ≤ S1024x200x512.size a := fun i v2295 v3074 k0_hw383 k0_h383 => k0_hw383 k0_h383

def k0_off1150 (i : grid0.Coords) : Fin 1 → Nat :=
  let arg0 : BitVec 32 := BitVec.ofNat 32 (i 0).val
  let c256_i32 : BitVec 32 := 256#32
  let v0 : BitVec 32 := Scalar.muli arg0 c256_i32
  let c191_i32_957 : BitVec 32 := 191#32
  let v2299 : BitVec 32 := Scalar.addi v0 c191_i32_957
  let v2300 : Index := Scalar.indexCast v2299
  ![v2300.toNat]
def k0_off1151 (i : grid0.Coords) : Fin 1 → Nat :=
  let arg0 : BitVec 32 := BitVec.ofNat 32 (i 0).val
  let c256_i32 : BitVec 32 := 256#32
  let v0 : BitVec 32 := Scalar.muli arg0 c256_i32
  let c191_i32_957 : BitVec 32 := 191#32
  let v2299 : BitVec 32 := Scalar.addi v0 c191_i32_957
  let v3073 : Index := Scalar.indexCast v2299
  ![v3073.toNat]
def k0_off1152 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c191_i32_957 : BitVec 32 := 191#32
  let v2299 : BitVec 32 := Scalar.addi v0 c191_i32_957
  let c0_i32_1282 : BitVec 32 := 0#32
  ![v2299.toNat, v3074.toNat, 0]
def k0_cond384 (v2301 : BitVec 32) : BitVec 1 :=
  let c0_i32_958 : BitVec 32 := 0#32
  let v2302 : BitVec 1 := Scalar.cmpi .sgt v2301 c0_i32_958
  let v2303 : BitVec 32 := Scalar.extui v2302
  let c0_i32_959 : BitVec 32 := 0#32
  let v2304 : BitVec 1 := Scalar.cmpi .ne v2303 c0_i32_959
  v2304

def k0_chk384 (i : grid0.Coords) (v2301 : BitVec 32) (v3074 : BitVec 32) : Prop :=
  (∀ (k0_h384 : k0_cond384 v2301 = 1#1), ∀ a, (k0_off1152 i v3074) a + S1x1x512.size a ≤ S1024x200x512.size a)
instance k0_chk384.dec : ∀ (i : grid0.Coords) (v2301 : BitVec 32) (v3074 : BitVec 32), Decidable (k0_chk384 i v2301 v3074) := fun i v2301 v3074 => decidable_of_iff' _ (Iff.of_eq (k0_chk384.eq_1 i v2301 v3074))
theorem k0_off1152_inb : ∀ (i : grid0.Coords) (v2301 : BitVec 32) (v3074 : BitVec 32) (k0_hw384 : k0_chk384 i v2301 v3074), ∀ (k0_h384 : k0_cond384 v2301 = 1#1), ∀ a, (k0_off1152 i v3074) a + S1x1x512.size a ≤ S1024x200x512.size a := fun i v2301 v3074 k0_hw384 k0_h384 => k0_hw384 k0_h384

def k0_off1153 (i : grid0.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v2305 : BitVec 32 := Scalar.addi v0 c192_i32
  let v2306 : Index := Scalar.indexCast v2305
  ![v2306.toNat]
def k0_off1154 (i : grid0.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v2305 : BitVec 32 := Scalar.addi v0 c192_i32
  let v3073 : Index := Scalar.indexCast v2305
  ![v3073.toNat]
def k0_off1155 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c192_i32 : BitVec 32 := 192#32
  let v2305 : BitVec 32 := Scalar.addi v0 c192_i32
  let c0_i32_1287 : BitVec 32 := 0#32
  ![v2305.toNat, v3074.toNat, 0]
def k0_cond385 (v2307 : BitVec 32) : BitVec 1 :=
  let c0_i32_960 : BitVec 32 := 0#32
  let v2308 : BitVec 1 := Scalar.cmpi .sgt v2307 c0_i32_960
  let v2309 : BitVec 32 := Scalar.extui v2308
  let c0_i32_961 : BitVec 32 := 0#32
  let v2310 : BitVec 1 := Scalar.cmpi .ne v2309 c0_i32_961
  v2310

def k0_chk385 (i : grid0.Coords) (v2307 : BitVec 32) (v3074 : BitVec 32) : Prop :=
  (∀ (k0_h385 : k0_cond385 v2307 = 1#1), ∀ a, (k0_off1155 i v3074) a + S1x1x512.size a ≤ S1024x200x512.size a)
instance k0_chk385.dec : ∀ (i : grid0.Coords) (v2307 : BitVec 32) (v3074 : BitVec 32), Decidable (k0_chk385 i v2307 v3074) := fun i v2307 v3074 => decidable_of_iff' _ (Iff.of_eq (k0_chk385.eq_1 i v2307 v3074))
theorem k0_off1155_inb : ∀ (i : grid0.Coords) (v2307 : BitVec 32) (v3074 : BitVec 32) (k0_hw385 : k0_chk385 i v2307 v3074), ∀ (k0_h385 : k0_cond385 v2307 = 1#1), ∀ a, (k0_off1155 i v3074) a + S1x1x512.size a ≤ S1024x200x512.size a := fun i v2307 v3074 k0_hw385 k0_h385 => k0_hw385 k0_h385

def k0_off1156 (i : grid0.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v2311 : BitVec 32 := Scalar.addi v0 c193_i32
  let v2312 : Index := Scalar.indexCast v2311
  ![v2312.toNat]
def k0_off1157 (i : grid0.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v2311 : BitVec 32 := Scalar.addi v0 c193_i32
  let v3073 : Index := Scalar.indexCast v2311
  ![v3073.toNat]
def k0_off1158 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c193_i32 : BitVec 32 := 193#32
  let v2311 : BitVec 32 := Scalar.addi v0 c193_i32
  let c0_i32_1287 : BitVec 32 := 0#32
  ![v2311.toNat, v3074.toNat, 0]
def k0_cond386 (v2313 : BitVec 32) : BitVec 1 :=
  let c0_i32_962 : BitVec 32 := 0#32
  let v2314 : BitVec 1 := Scalar.cmpi .sgt v2313 c0_i32_962
  let v2315 : BitVec 32 := Scalar.extui v2314
  let c0_i32_963 : BitVec 32 := 0#32
  let v2316 : BitVec 1 := Scalar.cmpi .ne v2315 c0_i32_963
  v2316

def k0_chk386 (i : grid0.Coords) (v2313 : BitVec 32) (v3074 : BitVec 32) : Prop :=
  (∀ (k0_h386 : k0_cond386 v2313 = 1#1), ∀ a, (k0_off1158 i v3074) a + S1x1x512.size a ≤ S1024x200x512.size a)
instance k0_chk386.dec : ∀ (i : grid0.Coords) (v2313 : BitVec 32) (v3074 : BitVec 32), Decidable (k0_chk386 i v2313 v3074) := fun i v2313 v3074 => decidable_of_iff' _ (Iff.of_eq (k0_chk386.eq_1 i v2313 v3074))
theorem k0_off1158_inb : ∀ (i : grid0.Coords) (v2313 : BitVec 32) (v3074 : BitVec 32) (k0_hw386 : k0_chk386 i v2313 v3074), ∀ (k0_h386 : k0_cond386 v2313 = 1#1), ∀ a, (k0_off1158 i v3074) a + S1x1x512.size a ≤ S1024x200x512.size a := fun i v2313 v3074 k0_hw386 k0_h386 => k0_hw386 k0_h386

def k0_off1159 (i : grid0.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v2317 : BitVec 32 := Scalar.addi v0 c194_i32
  let v2318 : Index := Scalar.indexCast v2317
  ![v2318.toNat]
def k0_off1160 (i : grid0.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v2317 : BitVec 32 := Scalar.addi v0 c194_i32
  let v3073 : Index := Scalar.indexCast v2317
  ![v3073.toNat]
def k0_off1161 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c194_i32 : BitVec 32 := 194#32
  let v2317 : BitVec 32 := Scalar.addi v0 c194_i32
  let c0_i32_1287 : BitVec 32 := 0#32
  ![v2317.toNat, v3074.toNat, 0]
def k0_cond387 (v2319 : BitVec 32) : BitVec 1 :=
  let c0_i32_964 : BitVec 32 := 0#32
  let v2320 : BitVec 1 := Scalar.cmpi .sgt v2319 c0_i32_964
  let v2321 : BitVec 32 := Scalar.extui v2320
  let c0_i32_965 : BitVec 32 := 0#32
  let v2322 : BitVec 1 := Scalar.cmpi .ne v2321 c0_i32_965
  v2322

def k0_chk387 (i : grid0.Coords) (v2319 : BitVec 32) (v3074 : BitVec 32) : Prop :=
  (∀ (k0_h387 : k0_cond387 v2319 = 1#1), ∀ a, (k0_off1161 i v3074) a + S1x1x512.size a ≤ S1024x200x512.size a)
instance k0_chk387.dec : ∀ (i : grid0.Coords) (v2319 : BitVec 32) (v3074 : BitVec 32), Decidable (k0_chk387 i v2319 v3074) := fun i v2319 v3074 => decidable_of_iff' _ (Iff.of_eq (k0_chk387.eq_1 i v2319 v3074))
theorem k0_off1161_inb : ∀ (i : grid0.Coords) (v2319 : BitVec 32) (v3074 : BitVec 32) (k0_hw387 : k0_chk387 i v2319 v3074), ∀ (k0_h387 : k0_cond387 v2319 = 1#1), ∀ a, (k0_off1161 i v3074) a + S1x1x512.size a ≤ S1024x200x512.size a := fun i v2319 v3074 k0_hw387 k0_h387 => k0_hw387 k0_h387

def k0_off1162 (i : grid0.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v2323 : BitVec 32 := Scalar.addi v0 c195_i32
  let v2324 : Index := Scalar.indexCast v2323
  ![v2324.toNat]
def k0_off1163 (i : grid0.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v2323 : BitVec 32 := Scalar.addi v0 c195_i32
  let v3073 : Index := Scalar.indexCast v2323
  ![v3073.toNat]
def k0_off1164 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c195_i32 : BitVec 32 := 195#32
  let v2323 : BitVec 32 := Scalar.addi v0 c195_i32
  let c0_i32_1287 : BitVec 32 := 0#32
  ![v2323.toNat, v3074.toNat, 0]
def k0_cond388 (v2325 : BitVec 32) : BitVec 1 :=
  let c0_i32_966 : BitVec 32 := 0#32
  let v2326 : BitVec 1 := Scalar.cmpi .sgt v2325 c0_i32_966
  let v2327 : BitVec 32 := Scalar.extui v2326
  let c0_i32_967 : BitVec 32 := 0#32
  let v2328 : BitVec 1 := Scalar.cmpi .ne v2327 c0_i32_967
  v2328

def k0_chk388 (i : grid0.Coords) (v2325 : BitVec 32) (v3074 : BitVec 32) : Prop :=
  (∀ (k0_h388 : k0_cond388 v2325 = 1#1), ∀ a, (k0_off1164 i v3074) a + S1x1x512.size a ≤ S1024x200x512.size a)
instance k0_chk388.dec : ∀ (i : grid0.Coords) (v2325 : BitVec 32) (v3074 : BitVec 32), Decidable (k0_chk388 i v2325 v3074) := fun i v2325 v3074 => decidable_of_iff' _ (Iff.of_eq (k0_chk388.eq_1 i v2325 v3074))
theorem k0_off1164_inb : ∀ (i : grid0.Coords) (v2325 : BitVec 32) (v3074 : BitVec 32) (k0_hw388 : k0_chk388 i v2325 v3074), ∀ (k0_h388 : k0_cond388 v2325 = 1#1), ∀ a, (k0_off1164 i v3074) a + S1x1x512.size a ≤ S1024x200x512.size a := fun i v2325 v3074 k0_hw388 k0_h388 => k0_hw388 k0_h388

def k0_off1165 (i : grid0.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v2329 : BitVec 32 := Scalar.addi v0 c196_i32
  let v2330 : Index := Scalar.indexCast v2329
  ![v2330.toNat]
def k0_off1166 (i : grid0.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v2329 : BitVec 32 := Scalar.addi v0 c196_i32
  let v3073 : Index := Scalar.indexCast v2329
  ![v3073.toNat]
def k0_off1167 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c196_i32 : BitVec 32 := 196#32
  let v2329 : BitVec 32 := Scalar.addi v0 c196_i32
  let c0_i32_1287 : BitVec 32 := 0#32
  ![v2329.toNat, v3074.toNat, 0]
def k0_cond389 (v2331 : BitVec 32) : BitVec 1 :=
  let c0_i32_968 : BitVec 32 := 0#32
  let v2332 : BitVec 1 := Scalar.cmpi .sgt v2331 c0_i32_968
  let v2333 : BitVec 32 := Scalar.extui v2332
  let c0_i32_969 : BitVec 32 := 0#32
  let v2334 : BitVec 1 := Scalar.cmpi .ne v2333 c0_i32_969
  v2334

def k0_chk389 (i : grid0.Coords) (v2331 : BitVec 32) (v3074 : BitVec 32) : Prop :=
  (∀ (k0_h389 : k0_cond389 v2331 = 1#1), ∀ a, (k0_off1167 i v3074) a + S1x1x512.size a ≤ S1024x200x512.size a)
instance k0_chk389.dec : ∀ (i : grid0.Coords) (v2331 : BitVec 32) (v3074 : BitVec 32), Decidable (k0_chk389 i v2331 v3074) := fun i v2331 v3074 => decidable_of_iff' _ (Iff.of_eq (k0_chk389.eq_1 i v2331 v3074))
theorem k0_off1167_inb : ∀ (i : grid0.Coords) (v2331 : BitVec 32) (v3074 : BitVec 32) (k0_hw389 : k0_chk389 i v2331 v3074), ∀ (k0_h389 : k0_cond389 v2331 = 1#1), ∀ a, (k0_off1167 i v3074) a + S1x1x512.size a ≤ S1024x200x512.size a := fun i v2331 v3074 k0_hw389 k0_h389 => k0_hw389 k0_h389

def k0_off1168 (i : grid0.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v2335 : BitVec 32 := Scalar.addi v0 c197_i32
  let v2336 : Index := Scalar.indexCast v2335
  ![v2336.toNat]
def k0_off1169 (i : grid0.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v2335 : BitVec 32 := Scalar.addi v0 c197_i32
  let v3073 : Index := Scalar.indexCast v2335
  ![v3073.toNat]
def k0_off1170 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c197_i32 : BitVec 32 := 197#32
  let v2335 : BitVec 32 := Scalar.addi v0 c197_i32
  let c0_i32_1287 : BitVec 32 := 0#32
  ![v2335.toNat, v3074.toNat, 0]
def k0_cond390 (v2337 : BitVec 32) : BitVec 1 :=
  let c0_i32_970 : BitVec 32 := 0#32
  let v2338 : BitVec 1 := Scalar.cmpi .sgt v2337 c0_i32_970
  let v2339 : BitVec 32 := Scalar.extui v2338
  let c0_i32_971 : BitVec 32 := 0#32
  let v2340 : BitVec 1 := Scalar.cmpi .ne v2339 c0_i32_971
  v2340

def k0_chk390 (i : grid0.Coords) (v2337 : BitVec 32) (v3074 : BitVec 32) : Prop :=
  (∀ (k0_h390 : k0_cond390 v2337 = 1#1), ∀ a, (k0_off1170 i v3074) a + S1x1x512.size a ≤ S1024x200x512.size a)
instance k0_chk390.dec : ∀ (i : grid0.Coords) (v2337 : BitVec 32) (v3074 : BitVec 32), Decidable (k0_chk390 i v2337 v3074) := fun i v2337 v3074 => decidable_of_iff' _ (Iff.of_eq (k0_chk390.eq_1 i v2337 v3074))
theorem k0_off1170_inb : ∀ (i : grid0.Coords) (v2337 : BitVec 32) (v3074 : BitVec 32) (k0_hw390 : k0_chk390 i v2337 v3074), ∀ (k0_h390 : k0_cond390 v2337 = 1#1), ∀ a, (k0_off1170 i v3074) a + S1x1x512.size a ≤ S1024x200x512.size a := fun i v2337 v3074 k0_hw390 k0_h390 => k0_hw390 k0_h390

def k0_off1171 (i : grid0.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v2341 : BitVec 32 := Scalar.addi v0 c198_i32
  let v2342 : Index := Scalar.indexCast v2341
  ![v2342.toNat]
def k0_off1172 (i : grid0.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v2341 : BitVec 32 := Scalar.addi v0 c198_i32
  let v3073 : Index := Scalar.indexCast v2341
  ![v3073.toNat]
def k0_off1173 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c198_i32 : BitVec 32 := 198#32
  let v2341 : BitVec 32 := Scalar.addi v0 c198_i32
  let c0_i32_1287 : BitVec 32 := 0#32
  ![v2341.toNat, v3074.toNat, 0]
def k0_cond391 (v2343 : BitVec 32) : BitVec 1 :=
  let c0_i32_972 : BitVec 32 := 0#32
  let v2344 : BitVec 1 := Scalar.cmpi .sgt v2343 c0_i32_972
  let v2345 : BitVec 32 := Scalar.extui v2344
  let c0_i32_973 : BitVec 32 := 0#32
  let v2346 : BitVec 1 := Scalar.cmpi .ne v2345 c0_i32_973
  v2346

def k0_chk391 (i : grid0.Coords) (v2343 : BitVec 32) (v3074 : BitVec 32) : Prop :=
  (∀ (k0_h391 : k0_cond391 v2343 = 1#1), ∀ a, (k0_off1173 i v3074) a + S1x1x512.size a ≤ S1024x200x512.size a)
instance k0_chk391.dec : ∀ (i : grid0.Coords) (v2343 : BitVec 32) (v3074 : BitVec 32), Decidable (k0_chk391 i v2343 v3074) := fun i v2343 v3074 => decidable_of_iff' _ (Iff.of_eq (k0_chk391.eq_1 i v2343 v3074))
theorem k0_off1173_inb : ∀ (i : grid0.Coords) (v2343 : BitVec 32) (v3074 : BitVec 32) (k0_hw391 : k0_chk391 i v2343 v3074), ∀ (k0_h391 : k0_cond391 v2343 = 1#1), ∀ a, (k0_off1173 i v3074) a + S1x1x512.size a ≤ S1024x200x512.size a := fun i v2343 v3074 k0_hw391 k0_h391 => k0_hw391 k0_h391

def k0_off1174 (i : grid0.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v2347 : BitVec 32 := Scalar.addi v0 c199_i32
  let v2348 : Index := Scalar.indexCast v2347
  ![v2348.toNat]
def k0_off1175 (i : grid0.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v2347 : BitVec 32 := Scalar.addi v0 c199_i32
  let v3073 : Index := Scalar.indexCast v2347
  ![v3073.toNat]
def k0_off1176 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c199_i32 : BitVec 32 := 199#32
  let v2347 : BitVec 32 := Scalar.addi v0 c199_i32
  let c0_i32_1287 : BitVec 32 := 0#32
  ![v2347.toNat, v3074.toNat, 0]
def k0_cond392 (v2349 : BitVec 32) : BitVec 1 :=
  let c0_i32_974 : BitVec 32 := 0#32
  let v2350 : BitVec 1 := Scalar.cmpi .sgt v2349 c0_i32_974
  let v2351 : BitVec 32 := Scalar.extui v2350
  let c0_i32_975 : BitVec 32 := 0#32
  let v2352 : BitVec 1 := Scalar.cmpi .ne v2351 c0_i32_975
  v2352

def k0_chk392 (i : grid0.Coords) (v2349 : BitVec 32) (v3074 : BitVec 32) : Prop :=
  (∀ (k0_h392 : k0_cond392 v2349 = 1#1), ∀ a, (k0_off1176 i v3074) a + S1x1x512.size a ≤ S1024x200x512.size a)
instance k0_chk392.dec : ∀ (i : grid0.Coords) (v2349 : BitVec 32) (v3074 : BitVec 32), Decidable (k0_chk392 i v2349 v3074) := fun i v2349 v3074 => decidable_of_iff' _ (Iff.of_eq (k0_chk392.eq_1 i v2349 v3074))
theorem k0_off1176_inb : ∀ (i : grid0.Coords) (v2349 : BitVec 32) (v3074 : BitVec 32) (k0_hw392 : k0_chk392 i v2349 v3074), ∀ (k0_h392 : k0_cond392 v2349 = 1#1), ∀ a, (k0_off1176 i v3074) a + S1x1x512.size a ≤ S1024x200x512.size a := fun i v2349 v3074 k0_hw392 k0_h392 => k0_hw392 k0_h392

def k0_off1177 (i : grid0.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v2353 : BitVec 32 := Scalar.addi v0 c200_i32
  let v2354 : Index := Scalar.indexCast v2353
  ![v2354.toNat]
def k0_off1178 (i : grid0.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v2353 : BitVec 32 := Scalar.addi v0 c200_i32
  let v3073 : Index := Scalar.indexCast v2353
  ![v3073.toNat]
def k0_off1179 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c200_i32 : BitVec 32 := 200#32
  let v2353 : BitVec 32 := Scalar.addi v0 c200_i32
  let c0_i32_1287 : BitVec 32 := 0#32
  ![v2353.toNat, v3074.toNat, 0]
def k0_cond393 (v2355 : BitVec 32) : BitVec 1 :=
  let c0_i32_976 : BitVec 32 := 0#32
  let v2356 : BitVec 1 := Scalar.cmpi .sgt v2355 c0_i32_976
  let v2357 : BitVec 32 := Scalar.extui v2356
  let c0_i32_977 : BitVec 32 := 0#32
  let v2358 : BitVec 1 := Scalar.cmpi .ne v2357 c0_i32_977
  v2358

def k0_chk393 (i : grid0.Coords) (v2355 : BitVec 32) (v3074 : BitVec 32) : Prop :=
  (∀ (k0_h393 : k0_cond393 v2355 = 1#1), ∀ a, (k0_off1179 i v3074) a + S1x1x512.size a ≤ S1024x200x512.size a)
instance k0_chk393.dec : ∀ (i : grid0.Coords) (v2355 : BitVec 32) (v3074 : BitVec 32), Decidable (k0_chk393 i v2355 v3074) := fun i v2355 v3074 => decidable_of_iff' _ (Iff.of_eq (k0_chk393.eq_1 i v2355 v3074))
theorem k0_off1179_inb : ∀ (i : grid0.Coords) (v2355 : BitVec 32) (v3074 : BitVec 32) (k0_hw393 : k0_chk393 i v2355 v3074), ∀ (k0_h393 : k0_cond393 v2355 = 1#1), ∀ a, (k0_off1179 i v3074) a + S1x1x512.size a ≤ S1024x200x512.size a := fun i v2355 v3074 k0_hw393 k0_h393 => k0_hw393 k0_h393

def k0_off1180 (i : grid0.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v2359 : BitVec 32 := Scalar.addi v0 c201_i32
  let v2360 : Index := Scalar.indexCast v2359
  ![v2360.toNat]
def k0_off1181 (i : grid0.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v2359 : BitVec 32 := Scalar.addi v0 c201_i32
  let v3073 : Index := Scalar.indexCast v2359
  ![v3073.toNat]
def k0_off1182 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c201_i32 : BitVec 32 := 201#32
  let v2359 : BitVec 32 := Scalar.addi v0 c201_i32
  let c0_i32_1287 : BitVec 32 := 0#32
  ![v2359.toNat, v3074.toNat, 0]
def k0_cond394 (v2361 : BitVec 32) : BitVec 1 :=
  let c0_i32_978 : BitVec 32 := 0#32
  let v2362 : BitVec 1 := Scalar.cmpi .sgt v2361 c0_i32_978
  let v2363 : BitVec 32 := Scalar.extui v2362
  let c0_i32_979 : BitVec 32 := 0#32
  let v2364 : BitVec 1 := Scalar.cmpi .ne v2363 c0_i32_979
  v2364

def k0_chk394 (i : grid0.Coords) (v2361 : BitVec 32) (v3074 : BitVec 32) : Prop :=
  (∀ (k0_h394 : k0_cond394 v2361 = 1#1), ∀ a, (k0_off1182 i v3074) a + S1x1x512.size a ≤ S1024x200x512.size a)
instance k0_chk394.dec : ∀ (i : grid0.Coords) (v2361 : BitVec 32) (v3074 : BitVec 32), Decidable (k0_chk394 i v2361 v3074) := fun i v2361 v3074 => decidable_of_iff' _ (Iff.of_eq (k0_chk394.eq_1 i v2361 v3074))
theorem k0_off1182_inb : ∀ (i : grid0.Coords) (v2361 : BitVec 32) (v3074 : BitVec 32) (k0_hw394 : k0_chk394 i v2361 v3074), ∀ (k0_h394 : k0_cond394 v2361 = 1#1), ∀ a, (k0_off1182 i v3074) a + S1x1x512.size a ≤ S1024x200x512.size a := fun i v2361 v3074 k0_hw394 k0_h394 => k0_hw394 k0_h394

def k0_off1183 (i : grid0.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v2365 : BitVec 32 := Scalar.addi v0 c202_i32
  let v2366 : Index := Scalar.indexCast v2365
  ![v2366.toNat]
def k0_off1184 (i : grid0.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v2365 : BitVec 32 := Scalar.addi v0 c202_i32
  let v3073 : Index := Scalar.indexCast v2365
  ![v3073.toNat]
def k0_off1185 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c202_i32 : BitVec 32 := 202#32
  let v2365 : BitVec 32 := Scalar.addi v0 c202_i32
  let c0_i32_1287 : BitVec 32 := 0#32
  ![v2365.toNat, v3074.toNat, 0]
def k0_cond395 (v2367 : BitVec 32) : BitVec 1 :=
  let c0_i32_980 : BitVec 32 := 0#32
  let v2368 : BitVec 1 := Scalar.cmpi .sgt v2367 c0_i32_980
  let v2369 : BitVec 32 := Scalar.extui v2368
  let c0_i32_981 : BitVec 32 := 0#32
  let v2370 : BitVec 1 := Scalar.cmpi .ne v2369 c0_i32_981
  v2370

def k0_chk395 (i : grid0.Coords) (v2367 : BitVec 32) (v3074 : BitVec 32) : Prop :=
  (∀ (k0_h395 : k0_cond395 v2367 = 1#1), ∀ a, (k0_off1185 i v3074) a + S1x1x512.size a ≤ S1024x200x512.size a)
instance k0_chk395.dec : ∀ (i : grid0.Coords) (v2367 : BitVec 32) (v3074 : BitVec 32), Decidable (k0_chk395 i v2367 v3074) := fun i v2367 v3074 => decidable_of_iff' _ (Iff.of_eq (k0_chk395.eq_1 i v2367 v3074))
theorem k0_off1185_inb : ∀ (i : grid0.Coords) (v2367 : BitVec 32) (v3074 : BitVec 32) (k0_hw395 : k0_chk395 i v2367 v3074), ∀ (k0_h395 : k0_cond395 v2367 = 1#1), ∀ a, (k0_off1185 i v3074) a + S1x1x512.size a ≤ S1024x200x512.size a := fun i v2367 v3074 k0_hw395 k0_h395 => k0_hw395 k0_h395

def k0_off1186 (i : grid0.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v2371 : BitVec 32 := Scalar.addi v0 c203_i32
  let v2372 : Index := Scalar.indexCast v2371
  ![v2372.toNat]
def k0_off1187 (i : grid0.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v2371 : BitVec 32 := Scalar.addi v0 c203_i32
  let v3073 : Index := Scalar.indexCast v2371
  ![v3073.toNat]
def k0_off1188 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c203_i32 : BitVec 32 := 203#32
  let v2371 : BitVec 32 := Scalar.addi v0 c203_i32
  let c0_i32_1287 : BitVec 32 := 0#32
  ![v2371.toNat, v3074.toNat, 0]
def k0_cond396 (v2373 : BitVec 32) : BitVec 1 :=
  let c0_i32_982 : BitVec 32 := 0#32
  let v2374 : BitVec 1 := Scalar.cmpi .sgt v2373 c0_i32_982
  let v2375 : BitVec 32 := Scalar.extui v2374
  let c0_i32_983 : BitVec 32 := 0#32
  let v2376 : BitVec 1 := Scalar.cmpi .ne v2375 c0_i32_983
  v2376

def k0_chk396 (i : grid0.Coords) (v2373 : BitVec 32) (v3074 : BitVec 32) : Prop :=
  (∀ (k0_h396 : k0_cond396 v2373 = 1#1), ∀ a, (k0_off1188 i v3074) a + S1x1x512.size a ≤ S1024x200x512.size a)
instance k0_chk396.dec : ∀ (i : grid0.Coords) (v2373 : BitVec 32) (v3074 : BitVec 32), Decidable (k0_chk396 i v2373 v3074) := fun i v2373 v3074 => decidable_of_iff' _ (Iff.of_eq (k0_chk396.eq_1 i v2373 v3074))
theorem k0_off1188_inb : ∀ (i : grid0.Coords) (v2373 : BitVec 32) (v3074 : BitVec 32) (k0_hw396 : k0_chk396 i v2373 v3074), ∀ (k0_h396 : k0_cond396 v2373 = 1#1), ∀ a, (k0_off1188 i v3074) a + S1x1x512.size a ≤ S1024x200x512.size a := fun i v2373 v3074 k0_hw396 k0_h396 => k0_hw396 k0_h396

def k0_off1189 (i : grid0.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v2377 : BitVec 32 := Scalar.addi v0 c204_i32
  let v2378 : Index := Scalar.indexCast v2377
  ![v2378.toNat]
def k0_off1190 (i : grid0.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v2377 : BitVec 32 := Scalar.addi v0 c204_i32
  let v3073 : Index := Scalar.indexCast v2377
  ![v3073.toNat]
def k0_off1191 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c204_i32 : BitVec 32 := 204#32
  let v2377 : BitVec 32 := Scalar.addi v0 c204_i32
  let c0_i32_1287 : BitVec 32 := 0#32
  ![v2377.toNat, v3074.toNat, 0]
def k0_cond397 (v2379 : BitVec 32) : BitVec 1 :=
  let c0_i32_984 : BitVec 32 := 0#32
  let v2380 : BitVec 1 := Scalar.cmpi .sgt v2379 c0_i32_984
  let v2381 : BitVec 32 := Scalar.extui v2380
  let c0_i32_985 : BitVec 32 := 0#32
  let v2382 : BitVec 1 := Scalar.cmpi .ne v2381 c0_i32_985
  v2382

def k0_chk397 (i : grid0.Coords) (v2379 : BitVec 32) (v3074 : BitVec 32) : Prop :=
  (∀ (k0_h397 : k0_cond397 v2379 = 1#1), ∀ a, (k0_off1191 i v3074) a + S1x1x512.size a ≤ S1024x200x512.size a)
instance k0_chk397.dec : ∀ (i : grid0.Coords) (v2379 : BitVec 32) (v3074 : BitVec 32), Decidable (k0_chk397 i v2379 v3074) := fun i v2379 v3074 => decidable_of_iff' _ (Iff.of_eq (k0_chk397.eq_1 i v2379 v3074))
theorem k0_off1191_inb : ∀ (i : grid0.Coords) (v2379 : BitVec 32) (v3074 : BitVec 32) (k0_hw397 : k0_chk397 i v2379 v3074), ∀ (k0_h397 : k0_cond397 v2379 = 1#1), ∀ a, (k0_off1191 i v3074) a + S1x1x512.size a ≤ S1024x200x512.size a := fun i v2379 v3074 k0_hw397 k0_h397 => k0_hw397 k0_h397

def k0_off1192 (i : grid0.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v2383 : BitVec 32 := Scalar.addi v0 c205_i32
  let v2384 : Index := Scalar.indexCast v2383
  ![v2384.toNat]
def k0_off1193 (i : grid0.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v2383 : BitVec 32 := Scalar.addi v0 c205_i32
  let v3073 : Index := Scalar.indexCast v2383
  ![v3073.toNat]
def k0_off1194 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c205_i32 : BitVec 32 := 205#32
  let v2383 : BitVec 32 := Scalar.addi v0 c205_i32
  let c0_i32_1287 : BitVec 32 := 0#32
  ![v2383.toNat, v3074.toNat, 0]
def k0_cond398 (v2385 : BitVec 32) : BitVec 1 :=
  let c0_i32_986 : BitVec 32 := 0#32
  let v2386 : BitVec 1 := Scalar.cmpi .sgt v2385 c0_i32_986
  let v2387 : BitVec 32 := Scalar.extui v2386
  let c0_i32_987 : BitVec 32 := 0#32
  let v2388 : BitVec 1 := Scalar.cmpi .ne v2387 c0_i32_987
  v2388

def k0_chk398 (i : grid0.Coords) (v2385 : BitVec 32) (v3074 : BitVec 32) : Prop :=
  (∀ (k0_h398 : k0_cond398 v2385 = 1#1), ∀ a, (k0_off1194 i v3074) a + S1x1x512.size a ≤ S1024x200x512.size a)
instance k0_chk398.dec : ∀ (i : grid0.Coords) (v2385 : BitVec 32) (v3074 : BitVec 32), Decidable (k0_chk398 i v2385 v3074) := fun i v2385 v3074 => decidable_of_iff' _ (Iff.of_eq (k0_chk398.eq_1 i v2385 v3074))
theorem k0_off1194_inb : ∀ (i : grid0.Coords) (v2385 : BitVec 32) (v3074 : BitVec 32) (k0_hw398 : k0_chk398 i v2385 v3074), ∀ (k0_h398 : k0_cond398 v2385 = 1#1), ∀ a, (k0_off1194 i v3074) a + S1x1x512.size a ≤ S1024x200x512.size a := fun i v2385 v3074 k0_hw398 k0_h398 => k0_hw398 k0_h398

def k0_off1195 (i : grid0.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v2389 : BitVec 32 := Scalar.addi v0 c206_i32
  let v2390 : Index := Scalar.indexCast v2389
  ![v2390.toNat]
def k0_off1196 (i : grid0.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v2389 : BitVec 32 := Scalar.addi v0 c206_i32
  let v3073 : Index := Scalar.indexCast v2389
  ![v3073.toNat]
def k0_off1197 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c206_i32 : BitVec 32 := 206#32
  let v2389 : BitVec 32 := Scalar.addi v0 c206_i32
  let c0_i32_1287 : BitVec 32 := 0#32
  ![v2389.toNat, v3074.toNat, 0]
def k0_cond399 (v2391 : BitVec 32) : BitVec 1 :=
  let c0_i32_988 : BitVec 32 := 0#32
  let v2392 : BitVec 1 := Scalar.cmpi .sgt v2391 c0_i32_988
  let v2393 : BitVec 32 := Scalar.extui v2392
  let c0_i32_989 : BitVec 32 := 0#32
  let v2394 : BitVec 1 := Scalar.cmpi .ne v2393 c0_i32_989
  v2394

def k0_chk399 (i : grid0.Coords) (v2391 : BitVec 32) (v3074 : BitVec 32) : Prop :=
  (∀ (k0_h399 : k0_cond399 v2391 = 1#1), ∀ a, (k0_off1197 i v3074) a + S1x1x512.size a ≤ S1024x200x512.size a)
instance k0_chk399.dec : ∀ (i : grid0.Coords) (v2391 : BitVec 32) (v3074 : BitVec 32), Decidable (k0_chk399 i v2391 v3074) := fun i v2391 v3074 => decidable_of_iff' _ (Iff.of_eq (k0_chk399.eq_1 i v2391 v3074))
theorem k0_off1197_inb : ∀ (i : grid0.Coords) (v2391 : BitVec 32) (v3074 : BitVec 32) (k0_hw399 : k0_chk399 i v2391 v3074), ∀ (k0_h399 : k0_cond399 v2391 = 1#1), ∀ a, (k0_off1197 i v3074) a + S1x1x512.size a ≤ S1024x200x512.size a := fun i v2391 v3074 k0_hw399 k0_h399 => k0_hw399 k0_h399

def k0_off1198 (i : grid0.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v2395 : BitVec 32 := Scalar.addi v0 c207_i32
  let v2396 : Index := Scalar.indexCast v2395
  ![v2396.toNat]
def k0_off1199 (i : grid0.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v2395 : BitVec 32 := Scalar.addi v0 c207_i32
  let v3073 : Index := Scalar.indexCast v2395
  ![v3073.toNat]
def k0_off1200 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c207_i32 : BitVec 32 := 207#32
  let v2395 : BitVec 32 := Scalar.addi v0 c207_i32
  let c0_i32_1287 : BitVec 32 := 0#32
  ![v2395.toNat, v3074.toNat, 0]
def k0_cond400 (v2397 : BitVec 32) : BitVec 1 :=
  let c0_i32_990 : BitVec 32 := 0#32
  let v2398 : BitVec 1 := Scalar.cmpi .sgt v2397 c0_i32_990
  let v2399 : BitVec 32 := Scalar.extui v2398
  let c0_i32_991 : BitVec 32 := 0#32
  let v2400 : BitVec 1 := Scalar.cmpi .ne v2399 c0_i32_991
  v2400

def k0_chk400 (i : grid0.Coords) (v2397 : BitVec 32) (v3074 : BitVec 32) : Prop :=
  (∀ (k0_h400 : k0_cond400 v2397 = 1#1), ∀ a, (k0_off1200 i v3074) a + S1x1x512.size a ≤ S1024x200x512.size a)
instance k0_chk400.dec : ∀ (i : grid0.Coords) (v2397 : BitVec 32) (v3074 : BitVec 32), Decidable (k0_chk400 i v2397 v3074) := fun i v2397 v3074 => decidable_of_iff' _ (Iff.of_eq (k0_chk400.eq_1 i v2397 v3074))
theorem k0_off1200_inb : ∀ (i : grid0.Coords) (v2397 : BitVec 32) (v3074 : BitVec 32) (k0_hw400 : k0_chk400 i v2397 v3074), ∀ (k0_h400 : k0_cond400 v2397 = 1#1), ∀ a, (k0_off1200 i v3074) a + S1x1x512.size a ≤ S1024x200x512.size a := fun i v2397 v3074 k0_hw400 k0_h400 => k0_hw400 k0_h400

def k0_off1201 (i : grid0.Coords) : Fin 1 → Nat :=
  let arg0 : BitVec 32 := BitVec.ofNat 32 (i 0).val
  let c256_i32 : BitVec 32 := 256#32
  let v0 : BitVec 32 := Scalar.muli arg0 c256_i32
  let c192_i32_992 : BitVec 32 := 192#32
  let v2401 : BitVec 32 := Scalar.addi v0 c192_i32_992
  let v2402 : Index := Scalar.indexCast v2401
  ![v2402.toNat]
def k0_off1202 (i : grid0.Coords) : Fin 1 → Nat :=
  let arg0 : BitVec 32 := BitVec.ofNat 32 (i 0).val
  let c256_i32 : BitVec 32 := 256#32
  let v0 : BitVec 32 := Scalar.muli arg0 c256_i32
  let c192_i32_992 : BitVec 32 := 192#32
  let v2401 : BitVec 32 := Scalar.addi v0 c192_i32_992
  let v3073 : Index := Scalar.indexCast v2401
  ![v3073.toNat]
def k0_off1203 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c192_i32_992 : BitVec 32 := 192#32
  let v2401 : BitVec 32 := Scalar.addi v0 c192_i32_992
  let c0_i32_1282 : BitVec 32 := 0#32
  ![v2401.toNat, v3074.toNat, 0]
def k0_cond401 (v2403 : BitVec 32) : BitVec 1 :=
  let c0_i32_993 : BitVec 32 := 0#32
  let v2404 : BitVec 1 := Scalar.cmpi .sgt v2403 c0_i32_993
  let v2405 : BitVec 32 := Scalar.extui v2404
  let c0_i32_994 : BitVec 32 := 0#32
  let v2406 : BitVec 1 := Scalar.cmpi .ne v2405 c0_i32_994
  v2406

def k0_chk401 (i : grid0.Coords) (v2403 : BitVec 32) (v3074 : BitVec 32) : Prop :=
  (∀ (k0_h401 : k0_cond401 v2403 = 1#1), ∀ a, (k0_off1203 i v3074) a + S1x1x512.size a ≤ S1024x200x512.size a)
instance k0_chk401.dec : ∀ (i : grid0.Coords) (v2403 : BitVec 32) (v3074 : BitVec 32), Decidable (k0_chk401 i v2403 v3074) := fun i v2403 v3074 => decidable_of_iff' _ (Iff.of_eq (k0_chk401.eq_1 i v2403 v3074))
theorem k0_off1203_inb : ∀ (i : grid0.Coords) (v2403 : BitVec 32) (v3074 : BitVec 32) (k0_hw401 : k0_chk401 i v2403 v3074), ∀ (k0_h401 : k0_cond401 v2403 = 1#1), ∀ a, (k0_off1203 i v3074) a + S1x1x512.size a ≤ S1024x200x512.size a := fun i v2403 v3074 k0_hw401 k0_h401 => k0_hw401 k0_h401

def k0_off1204 (i : grid0.Coords) : Fin 1 → Nat :=
  let arg0 : BitVec 32 := BitVec.ofNat 32 (i 0).val
  let c256_i32 : BitVec 32 := 256#32
  let v0 : BitVec 32 := Scalar.muli arg0 c256_i32
  let c193_i32_995 : BitVec 32 := 193#32
  let v2407 : BitVec 32 := Scalar.addi v0 c193_i32_995
  let v2408 : Index := Scalar.indexCast v2407
  ![v2408.toNat]
def k0_off1205 (i : grid0.Coords) : Fin 1 → Nat :=
  let arg0 : BitVec 32 := BitVec.ofNat 32 (i 0).val
  let c256_i32 : BitVec 32 := 256#32
  let v0 : BitVec 32 := Scalar.muli arg0 c256_i32
  let c193_i32_995 : BitVec 32 := 193#32
  let v2407 : BitVec 32 := Scalar.addi v0 c193_i32_995
  let v3073 : Index := Scalar.indexCast v2407
  ![v3073.toNat]
def k0_off1206 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c193_i32_995 : BitVec 32 := 193#32
  let v2407 : BitVec 32 := Scalar.addi v0 c193_i32_995
  let c0_i32_1282 : BitVec 32 := 0#32
  ![v2407.toNat, v3074.toNat, 0]
def k0_cond402 (v2409 : BitVec 32) : BitVec 1 :=
  let c0_i32_996 : BitVec 32 := 0#32
  let v2410 : BitVec 1 := Scalar.cmpi .sgt v2409 c0_i32_996
  let v2411 : BitVec 32 := Scalar.extui v2410
  let c0_i32_997 : BitVec 32 := 0#32
  let v2412 : BitVec 1 := Scalar.cmpi .ne v2411 c0_i32_997
  v2412

def k0_chk402 (i : grid0.Coords) (v2409 : BitVec 32) (v3074 : BitVec 32) : Prop :=
  (∀ (k0_h402 : k0_cond402 v2409 = 1#1), ∀ a, (k0_off1206 i v3074) a + S1x1x512.size a ≤ S1024x200x512.size a)
instance k0_chk402.dec : ∀ (i : grid0.Coords) (v2409 : BitVec 32) (v3074 : BitVec 32), Decidable (k0_chk402 i v2409 v3074) := fun i v2409 v3074 => decidable_of_iff' _ (Iff.of_eq (k0_chk402.eq_1 i v2409 v3074))
theorem k0_off1206_inb : ∀ (i : grid0.Coords) (v2409 : BitVec 32) (v3074 : BitVec 32) (k0_hw402 : k0_chk402 i v2409 v3074), ∀ (k0_h402 : k0_cond402 v2409 = 1#1), ∀ a, (k0_off1206 i v3074) a + S1x1x512.size a ≤ S1024x200x512.size a := fun i v2409 v3074 k0_hw402 k0_h402 => k0_hw402 k0_h402

def k0_off1207 (i : grid0.Coords) : Fin 1 → Nat :=
  let arg0 : BitVec 32 := BitVec.ofNat 32 (i 0).val
  let c256_i32 : BitVec 32 := 256#32
  let v0 : BitVec 32 := Scalar.muli arg0 c256_i32
  let c194_i32_998 : BitVec 32 := 194#32
  let v2413 : BitVec 32 := Scalar.addi v0 c194_i32_998
  let v2414 : Index := Scalar.indexCast v2413
  ![v2414.toNat]
def k0_off1208 (i : grid0.Coords) : Fin 1 → Nat :=
  let arg0 : BitVec 32 := BitVec.ofNat 32 (i 0).val
  let c256_i32 : BitVec 32 := 256#32
  let v0 : BitVec 32 := Scalar.muli arg0 c256_i32
  let c194_i32_998 : BitVec 32 := 194#32
  let v2413 : BitVec 32 := Scalar.addi v0 c194_i32_998
  let v3073 : Index := Scalar.indexCast v2413
  ![v3073.toNat]
def k0_off1209 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c194_i32_998 : BitVec 32 := 194#32
  let v2413 : BitVec 32 := Scalar.addi v0 c194_i32_998
  let c0_i32_1282 : BitVec 32 := 0#32
  ![v2413.toNat, v3074.toNat, 0]
def k0_cond403 (v2415 : BitVec 32) : BitVec 1 :=
  let c0_i32_999 : BitVec 32 := 0#32
  let v2416 : BitVec 1 := Scalar.cmpi .sgt v2415 c0_i32_999
  let v2417 : BitVec 32 := Scalar.extui v2416
  let c0_i32_1000 : BitVec 32 := 0#32
  let v2418 : BitVec 1 := Scalar.cmpi .ne v2417 c0_i32_1000
  v2418

def k0_chk403 (i : grid0.Coords) (v2415 : BitVec 32) (v3074 : BitVec 32) : Prop :=
  (∀ (k0_h403 : k0_cond403 v2415 = 1#1), ∀ a, (k0_off1209 i v3074) a + S1x1x512.size a ≤ S1024x200x512.size a)
instance k0_chk403.dec : ∀ (i : grid0.Coords) (v2415 : BitVec 32) (v3074 : BitVec 32), Decidable (k0_chk403 i v2415 v3074) := fun i v2415 v3074 => decidable_of_iff' _ (Iff.of_eq (k0_chk403.eq_1 i v2415 v3074))
theorem k0_off1209_inb : ∀ (i : grid0.Coords) (v2415 : BitVec 32) (v3074 : BitVec 32) (k0_hw403 : k0_chk403 i v2415 v3074), ∀ (k0_h403 : k0_cond403 v2415 = 1#1), ∀ a, (k0_off1209 i v3074) a + S1x1x512.size a ≤ S1024x200x512.size a := fun i v2415 v3074 k0_hw403 k0_h403 => k0_hw403 k0_h403

def k0_off1210 (i : grid0.Coords) : Fin 1 → Nat :=
  let arg0 : BitVec 32 := BitVec.ofNat 32 (i 0).val
  let c256_i32 : BitVec 32 := 256#32
  let v0 : BitVec 32 := Scalar.muli arg0 c256_i32
  let c195_i32_1001 : BitVec 32 := 195#32
  let v2419 : BitVec 32 := Scalar.addi v0 c195_i32_1001
  let v2420 : Index := Scalar.indexCast v2419
  ![v2420.toNat]
def k0_off1211 (i : grid0.Coords) : Fin 1 → Nat :=
  let arg0 : BitVec 32 := BitVec.ofNat 32 (i 0).val
  let c256_i32 : BitVec 32 := 256#32
  let v0 : BitVec 32 := Scalar.muli arg0 c256_i32
  let c195_i32_1001 : BitVec 32 := 195#32
  let v2419 : BitVec 32 := Scalar.addi v0 c195_i32_1001
  let v3073 : Index := Scalar.indexCast v2419
  ![v3073.toNat]
def k0_off1212 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c195_i32_1001 : BitVec 32 := 195#32
  let v2419 : BitVec 32 := Scalar.addi v0 c195_i32_1001
  let c0_i32_1282 : BitVec 32 := 0#32
  ![v2419.toNat, v3074.toNat, 0]
def k0_cond404 (v2421 : BitVec 32) : BitVec 1 :=
  let c0_i32_1002 : BitVec 32 := 0#32
  let v2422 : BitVec 1 := Scalar.cmpi .sgt v2421 c0_i32_1002
  let v2423 : BitVec 32 := Scalar.extui v2422
  let c0_i32_1003 : BitVec 32 := 0#32
  let v2424 : BitVec 1 := Scalar.cmpi .ne v2423 c0_i32_1003
  v2424

def k0_chk404 (i : grid0.Coords) (v2421 : BitVec 32) (v3074 : BitVec 32) : Prop :=
  (∀ (k0_h404 : k0_cond404 v2421 = 1#1), ∀ a, (k0_off1212 i v3074) a + S1x1x512.size a ≤ S1024x200x512.size a)
instance k0_chk404.dec : ∀ (i : grid0.Coords) (v2421 : BitVec 32) (v3074 : BitVec 32), Decidable (k0_chk404 i v2421 v3074) := fun i v2421 v3074 => decidable_of_iff' _ (Iff.of_eq (k0_chk404.eq_1 i v2421 v3074))
theorem k0_off1212_inb : ∀ (i : grid0.Coords) (v2421 : BitVec 32) (v3074 : BitVec 32) (k0_hw404 : k0_chk404 i v2421 v3074), ∀ (k0_h404 : k0_cond404 v2421 = 1#1), ∀ a, (k0_off1212 i v3074) a + S1x1x512.size a ≤ S1024x200x512.size a := fun i v2421 v3074 k0_hw404 k0_h404 => k0_hw404 k0_h404

def k0_off1213 (i : grid0.Coords) : Fin 1 → Nat :=
  let arg0 : BitVec 32 := BitVec.ofNat 32 (i 0).val
  let c256_i32 : BitVec 32 := 256#32
  let v0 : BitVec 32 := Scalar.muli arg0 c256_i32
  let c196_i32_1004 : BitVec 32 := 196#32
  let v2425 : BitVec 32 := Scalar.addi v0 c196_i32_1004
  let v2426 : Index := Scalar.indexCast v2425
  ![v2426.toNat]
def k0_off1214 (i : grid0.Coords) : Fin 1 → Nat :=
  let arg0 : BitVec 32 := BitVec.ofNat 32 (i 0).val
  let c256_i32 : BitVec 32 := 256#32
  let v0 : BitVec 32 := Scalar.muli arg0 c256_i32
  let c196_i32_1004 : BitVec 32 := 196#32
  let v2425 : BitVec 32 := Scalar.addi v0 c196_i32_1004
  let v3073 : Index := Scalar.indexCast v2425
  ![v3073.toNat]
def k0_off1215 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c196_i32_1004 : BitVec 32 := 196#32
  let v2425 : BitVec 32 := Scalar.addi v0 c196_i32_1004
  let c0_i32_1282 : BitVec 32 := 0#32
  ![v2425.toNat, v3074.toNat, 0]
def k0_cond405 (v2427 : BitVec 32) : BitVec 1 :=
  let c0_i32_1005 : BitVec 32 := 0#32
  let v2428 : BitVec 1 := Scalar.cmpi .sgt v2427 c0_i32_1005
  let v2429 : BitVec 32 := Scalar.extui v2428
  let c0_i32_1006 : BitVec 32 := 0#32
  let v2430 : BitVec 1 := Scalar.cmpi .ne v2429 c0_i32_1006
  v2430

def k0_chk405 (i : grid0.Coords) (v2427 : BitVec 32) (v3074 : BitVec 32) : Prop :=
  (∀ (k0_h405 : k0_cond405 v2427 = 1#1), ∀ a, (k0_off1215 i v3074) a + S1x1x512.size a ≤ S1024x200x512.size a)
instance k0_chk405.dec : ∀ (i : grid0.Coords) (v2427 : BitVec 32) (v3074 : BitVec 32), Decidable (k0_chk405 i v2427 v3074) := fun i v2427 v3074 => decidable_of_iff' _ (Iff.of_eq (k0_chk405.eq_1 i v2427 v3074))
theorem k0_off1215_inb : ∀ (i : grid0.Coords) (v2427 : BitVec 32) (v3074 : BitVec 32) (k0_hw405 : k0_chk405 i v2427 v3074), ∀ (k0_h405 : k0_cond405 v2427 = 1#1), ∀ a, (k0_off1215 i v3074) a + S1x1x512.size a ≤ S1024x200x512.size a := fun i v2427 v3074 k0_hw405 k0_h405 => k0_hw405 k0_h405

def k0_off1216 (i : grid0.Coords) : Fin 1 → Nat :=
  let arg0 : BitVec 32 := BitVec.ofNat 32 (i 0).val
  let c256_i32 : BitVec 32 := 256#32
  let v0 : BitVec 32 := Scalar.muli arg0 c256_i32
  let c197_i32_1007 : BitVec 32 := 197#32
  let v2431 : BitVec 32 := Scalar.addi v0 c197_i32_1007
  let v2432 : Index := Scalar.indexCast v2431
  ![v2432.toNat]
def k0_off1217 (i : grid0.Coords) : Fin 1 → Nat :=
  let arg0 : BitVec 32 := BitVec.ofNat 32 (i 0).val
  let c256_i32 : BitVec 32 := 256#32
  let v0 : BitVec 32 := Scalar.muli arg0 c256_i32
  let c197_i32_1007 : BitVec 32 := 197#32
  let v2431 : BitVec 32 := Scalar.addi v0 c197_i32_1007
  let v3073 : Index := Scalar.indexCast v2431
  ![v3073.toNat]
def k0_off1218 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c197_i32_1007 : BitVec 32 := 197#32
  let v2431 : BitVec 32 := Scalar.addi v0 c197_i32_1007
  let c0_i32_1282 : BitVec 32 := 0#32
  ![v2431.toNat, v3074.toNat, 0]
def k0_cond406 (v2433 : BitVec 32) : BitVec 1 :=
  let c0_i32_1008 : BitVec 32 := 0#32
  let v2434 : BitVec 1 := Scalar.cmpi .sgt v2433 c0_i32_1008
  let v2435 : BitVec 32 := Scalar.extui v2434
  let c0_i32_1009 : BitVec 32 := 0#32
  let v2436 : BitVec 1 := Scalar.cmpi .ne v2435 c0_i32_1009
  v2436

def k0_chk406 (i : grid0.Coords) (v2433 : BitVec 32) (v3074 : BitVec 32) : Prop :=
  (∀ (k0_h406 : k0_cond406 v2433 = 1#1), ∀ a, (k0_off1218 i v3074) a + S1x1x512.size a ≤ S1024x200x512.size a)
instance k0_chk406.dec : ∀ (i : grid0.Coords) (v2433 : BitVec 32) (v3074 : BitVec 32), Decidable (k0_chk406 i v2433 v3074) := fun i v2433 v3074 => decidable_of_iff' _ (Iff.of_eq (k0_chk406.eq_1 i v2433 v3074))
theorem k0_off1218_inb : ∀ (i : grid0.Coords) (v2433 : BitVec 32) (v3074 : BitVec 32) (k0_hw406 : k0_chk406 i v2433 v3074), ∀ (k0_h406 : k0_cond406 v2433 = 1#1), ∀ a, (k0_off1218 i v3074) a + S1x1x512.size a ≤ S1024x200x512.size a := fun i v2433 v3074 k0_hw406 k0_h406 => k0_hw406 k0_h406

def k0_off1219 (i : grid0.Coords) : Fin 1 → Nat :=
  let arg0 : BitVec 32 := BitVec.ofNat 32 (i 0).val
  let c256_i32 : BitVec 32 := 256#32
  let v0 : BitVec 32 := Scalar.muli arg0 c256_i32
  let c198_i32_1010 : BitVec 32 := 198#32
  let v2437 : BitVec 32 := Scalar.addi v0 c198_i32_1010
  let v2438 : Index := Scalar.indexCast v2437
  ![v2438.toNat]
def k0_off1220 (i : grid0.Coords) : Fin 1 → Nat :=
  let arg0 : BitVec 32 := BitVec.ofNat 32 (i 0).val
  let c256_i32 : BitVec 32 := 256#32
  let v0 : BitVec 32 := Scalar.muli arg0 c256_i32
  let c198_i32_1010 : BitVec 32 := 198#32
  let v2437 : BitVec 32 := Scalar.addi v0 c198_i32_1010
  let v3073 : Index := Scalar.indexCast v2437
  ![v3073.toNat]
def k0_off1221 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c198_i32_1010 : BitVec 32 := 198#32
  let v2437 : BitVec 32 := Scalar.addi v0 c198_i32_1010
  let c0_i32_1282 : BitVec 32 := 0#32
  ![v2437.toNat, v3074.toNat, 0]
def k0_cond407 (v2439 : BitVec 32) : BitVec 1 :=
  let c0_i32_1011 : BitVec 32 := 0#32
  let v2440 : BitVec 1 := Scalar.cmpi .sgt v2439 c0_i32_1011
  let v2441 : BitVec 32 := Scalar.extui v2440
  let c0_i32_1012 : BitVec 32 := 0#32
  let v2442 : BitVec 1 := Scalar.cmpi .ne v2441 c0_i32_1012
  v2442

def k0_chk407 (i : grid0.Coords) (v2439 : BitVec 32) (v3074 : BitVec 32) : Prop :=
  (∀ (k0_h407 : k0_cond407 v2439 = 1#1), ∀ a, (k0_off1221 i v3074) a + S1x1x512.size a ≤ S1024x200x512.size a)
instance k0_chk407.dec : ∀ (i : grid0.Coords) (v2439 : BitVec 32) (v3074 : BitVec 32), Decidable (k0_chk407 i v2439 v3074) := fun i v2439 v3074 => decidable_of_iff' _ (Iff.of_eq (k0_chk407.eq_1 i v2439 v3074))
theorem k0_off1221_inb : ∀ (i : grid0.Coords) (v2439 : BitVec 32) (v3074 : BitVec 32) (k0_hw407 : k0_chk407 i v2439 v3074), ∀ (k0_h407 : k0_cond407 v2439 = 1#1), ∀ a, (k0_off1221 i v3074) a + S1x1x512.size a ≤ S1024x200x512.size a := fun i v2439 v3074 k0_hw407 k0_h407 => k0_hw407 k0_h407

def k0_off1222 (i : grid0.Coords) : Fin 1 → Nat :=
  let arg0 : BitVec 32 := BitVec.ofNat 32 (i 0).val
  let c256_i32 : BitVec 32 := 256#32
  let v0 : BitVec 32 := Scalar.muli arg0 c256_i32
  let c199_i32_1013 : BitVec 32 := 199#32
  let v2443 : BitVec 32 := Scalar.addi v0 c199_i32_1013
  let v2444 : Index := Scalar.indexCast v2443
  ![v2444.toNat]
def k0_off1223 (i : grid0.Coords) : Fin 1 → Nat :=
  let arg0 : BitVec 32 := BitVec.ofNat 32 (i 0).val
  let c256_i32 : BitVec 32 := 256#32
  let v0 : BitVec 32 := Scalar.muli arg0 c256_i32
  let c199_i32_1013 : BitVec 32 := 199#32
  let v2443 : BitVec 32 := Scalar.addi v0 c199_i32_1013
  let v3073 : Index := Scalar.indexCast v2443
  ![v3073.toNat]
def k0_off1224 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c199_i32_1013 : BitVec 32 := 199#32
  let v2443 : BitVec 32 := Scalar.addi v0 c199_i32_1013
  let c0_i32_1282 : BitVec 32 := 0#32
  ![v2443.toNat, v3074.toNat, 0]
def k0_cond408 (v2445 : BitVec 32) : BitVec 1 :=
  let c0_i32_1014 : BitVec 32 := 0#32
  let v2446 : BitVec 1 := Scalar.cmpi .sgt v2445 c0_i32_1014
  let v2447 : BitVec 32 := Scalar.extui v2446
  let c0_i32_1015 : BitVec 32 := 0#32
  let v2448 : BitVec 1 := Scalar.cmpi .ne v2447 c0_i32_1015
  v2448

def k0_chk408 (i : grid0.Coords) (v2445 : BitVec 32) (v3074 : BitVec 32) : Prop :=
  (∀ (k0_h408 : k0_cond408 v2445 = 1#1), ∀ a, (k0_off1224 i v3074) a + S1x1x512.size a ≤ S1024x200x512.size a)
instance k0_chk408.dec : ∀ (i : grid0.Coords) (v2445 : BitVec 32) (v3074 : BitVec 32), Decidable (k0_chk408 i v2445 v3074) := fun i v2445 v3074 => decidable_of_iff' _ (Iff.of_eq (k0_chk408.eq_1 i v2445 v3074))
theorem k0_off1224_inb : ∀ (i : grid0.Coords) (v2445 : BitVec 32) (v3074 : BitVec 32) (k0_hw408 : k0_chk408 i v2445 v3074), ∀ (k0_h408 : k0_cond408 v2445 = 1#1), ∀ a, (k0_off1224 i v3074) a + S1x1x512.size a ≤ S1024x200x512.size a := fun i v2445 v3074 k0_hw408 k0_h408 => k0_hw408 k0_h408

def k0_off1225 (i : grid0.Coords) : Fin 1 → Nat :=
  let arg0 : BitVec 32 := BitVec.ofNat 32 (i 0).val
  let c256_i32 : BitVec 32 := 256#32
  let v0 : BitVec 32 := Scalar.muli arg0 c256_i32
  let c200_i32_1016 : BitVec 32 := 200#32
  let v2449 : BitVec 32 := Scalar.addi v0 c200_i32_1016
  let v2450 : Index := Scalar.indexCast v2449
  ![v2450.toNat]
def k0_off1226 (i : grid0.Coords) : Fin 1 → Nat :=
  let arg0 : BitVec 32 := BitVec.ofNat 32 (i 0).val
  let c256_i32 : BitVec 32 := 256#32
  let v0 : BitVec 32 := Scalar.muli arg0 c256_i32
  let c200_i32_1016 : BitVec 32 := 200#32
  let v2449 : BitVec 32 := Scalar.addi v0 c200_i32_1016
  let v3073 : Index := Scalar.indexCast v2449
  ![v3073.toNat]
def k0_off1227 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c200_i32_1016 : BitVec 32 := 200#32
  let v2449 : BitVec 32 := Scalar.addi v0 c200_i32_1016
  let c0_i32_1282 : BitVec 32 := 0#32
  ![v2449.toNat, v3074.toNat, 0]
def k0_cond409 (v2451 : BitVec 32) : BitVec 1 :=
  let c0_i32_1017 : BitVec 32 := 0#32
  let v2452 : BitVec 1 := Scalar.cmpi .sgt v2451 c0_i32_1017
  let v2453 : BitVec 32 := Scalar.extui v2452
  let c0_i32_1018 : BitVec 32 := 0#32
  let v2454 : BitVec 1 := Scalar.cmpi .ne v2453 c0_i32_1018
  v2454

def k0_chk409 (i : grid0.Coords) (v2451 : BitVec 32) (v3074 : BitVec 32) : Prop :=
  (∀ (k0_h409 : k0_cond409 v2451 = 1#1), ∀ a, (k0_off1227 i v3074) a + S1x1x512.size a ≤ S1024x200x512.size a)
instance k0_chk409.dec : ∀ (i : grid0.Coords) (v2451 : BitVec 32) (v3074 : BitVec 32), Decidable (k0_chk409 i v2451 v3074) := fun i v2451 v3074 => decidable_of_iff' _ (Iff.of_eq (k0_chk409.eq_1 i v2451 v3074))
theorem k0_off1227_inb : ∀ (i : grid0.Coords) (v2451 : BitVec 32) (v3074 : BitVec 32) (k0_hw409 : k0_chk409 i v2451 v3074), ∀ (k0_h409 : k0_cond409 v2451 = 1#1), ∀ a, (k0_off1227 i v3074) a + S1x1x512.size a ≤ S1024x200x512.size a := fun i v2451 v3074 k0_hw409 k0_h409 => k0_hw409 k0_h409

def k0_off1228 (i : grid0.Coords) : Fin 1 → Nat :=
  let arg0 : BitVec 32 := BitVec.ofNat 32 (i 0).val
  let c256_i32 : BitVec 32 := 256#32
  let v0 : BitVec 32 := Scalar.muli arg0 c256_i32
  let c201_i32_1019 : BitVec 32 := 201#32
  let v2455 : BitVec 32 := Scalar.addi v0 c201_i32_1019
  let v2456 : Index := Scalar.indexCast v2455
  ![v2456.toNat]
def k0_off1229 (i : grid0.Coords) : Fin 1 → Nat :=
  let arg0 : BitVec 32 := BitVec.ofNat 32 (i 0).val
  let c256_i32 : BitVec 32 := 256#32
  let v0 : BitVec 32 := Scalar.muli arg0 c256_i32
  let c201_i32_1019 : BitVec 32 := 201#32
  let v2455 : BitVec 32 := Scalar.addi v0 c201_i32_1019
  let v3073 : Index := Scalar.indexCast v2455
  ![v3073.toNat]
def k0_off1230 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c201_i32_1019 : BitVec 32 := 201#32
  let v2455 : BitVec 32 := Scalar.addi v0 c201_i32_1019
  let c0_i32_1282 : BitVec 32 := 0#32
  ![v2455.toNat, v3074.toNat, 0]
def k0_cond410 (v2457 : BitVec 32) : BitVec 1 :=
  let c0_i32_1020 : BitVec 32 := 0#32
  let v2458 : BitVec 1 := Scalar.cmpi .sgt v2457 c0_i32_1020
  let v2459 : BitVec 32 := Scalar.extui v2458
  let c0_i32_1021 : BitVec 32 := 0#32
  let v2460 : BitVec 1 := Scalar.cmpi .ne v2459 c0_i32_1021
  v2460

def k0_chk410 (i : grid0.Coords) (v2457 : BitVec 32) (v3074 : BitVec 32) : Prop :=
  (∀ (k0_h410 : k0_cond410 v2457 = 1#1), ∀ a, (k0_off1230 i v3074) a + S1x1x512.size a ≤ S1024x200x512.size a)
instance k0_chk410.dec : ∀ (i : grid0.Coords) (v2457 : BitVec 32) (v3074 : BitVec 32), Decidable (k0_chk410 i v2457 v3074) := fun i v2457 v3074 => decidable_of_iff' _ (Iff.of_eq (k0_chk410.eq_1 i v2457 v3074))
theorem k0_off1230_inb : ∀ (i : grid0.Coords) (v2457 : BitVec 32) (v3074 : BitVec 32) (k0_hw410 : k0_chk410 i v2457 v3074), ∀ (k0_h410 : k0_cond410 v2457 = 1#1), ∀ a, (k0_off1230 i v3074) a + S1x1x512.size a ≤ S1024x200x512.size a := fun i v2457 v3074 k0_hw410 k0_h410 => k0_hw410 k0_h410

def k0_off1231 (i : grid0.Coords) : Fin 1 → Nat :=
  let arg0 : BitVec 32 := BitVec.ofNat 32 (i 0).val
  let c256_i32 : BitVec 32 := 256#32
  let v0 : BitVec 32 := Scalar.muli arg0 c256_i32
  let c202_i32_1022 : BitVec 32 := 202#32
  let v2461 : BitVec 32 := Scalar.addi v0 c202_i32_1022
  let v2462 : Index := Scalar.indexCast v2461
  ![v2462.toNat]
def k0_off1232 (i : grid0.Coords) : Fin 1 → Nat :=
  let arg0 : BitVec 32 := BitVec.ofNat 32 (i 0).val
  let c256_i32 : BitVec 32 := 256#32
  let v0 : BitVec 32 := Scalar.muli arg0 c256_i32
  let c202_i32_1022 : BitVec 32 := 202#32
  let v2461 : BitVec 32 := Scalar.addi v0 c202_i32_1022
  let v3073 : Index := Scalar.indexCast v2461
  ![v3073.toNat]
def k0_off1233 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c202_i32_1022 : BitVec 32 := 202#32
  let v2461 : BitVec 32 := Scalar.addi v0 c202_i32_1022
  let c0_i32_1282 : BitVec 32 := 0#32
  ![v2461.toNat, v3074.toNat, 0]
def k0_cond411 (v2463 : BitVec 32) : BitVec 1 :=
  let c0_i32_1023 : BitVec 32 := 0#32
  let v2464 : BitVec 1 := Scalar.cmpi .sgt v2463 c0_i32_1023
  let v2465 : BitVec 32 := Scalar.extui v2464
  let c0_i32_1024 : BitVec 32 := 0#32
  let v2466 : BitVec 1 := Scalar.cmpi .ne v2465 c0_i32_1024
  v2466

def k0_chk411 (i : grid0.Coords) (v2463 : BitVec 32) (v3074 : BitVec 32) : Prop :=
  (∀ (k0_h411 : k0_cond411 v2463 = 1#1), ∀ a, (k0_off1233 i v3074) a + S1x1x512.size a ≤ S1024x200x512.size a)
instance k0_chk411.dec : ∀ (i : grid0.Coords) (v2463 : BitVec 32) (v3074 : BitVec 32), Decidable (k0_chk411 i v2463 v3074) := fun i v2463 v3074 => decidable_of_iff' _ (Iff.of_eq (k0_chk411.eq_1 i v2463 v3074))
theorem k0_off1233_inb : ∀ (i : grid0.Coords) (v2463 : BitVec 32) (v3074 : BitVec 32) (k0_hw411 : k0_chk411 i v2463 v3074), ∀ (k0_h411 : k0_cond411 v2463 = 1#1), ∀ a, (k0_off1233 i v3074) a + S1x1x512.size a ≤ S1024x200x512.size a := fun i v2463 v3074 k0_hw411 k0_h411 => k0_hw411 k0_h411

def k0_off1234 (i : grid0.Coords) : Fin 1 → Nat :=
  let arg0 : BitVec 32 := BitVec.ofNat 32 (i 0).val
  let c256_i32 : BitVec 32 := 256#32
  let v0 : BitVec 32 := Scalar.muli arg0 c256_i32
  let c203_i32_1025 : BitVec 32 := 203#32
  let v2467 : BitVec 32 := Scalar.addi v0 c203_i32_1025
  let v2468 : Index := Scalar.indexCast v2467
  ![v2468.toNat]
def k0_off1235 (i : grid0.Coords) : Fin 1 → Nat :=
  let arg0 : BitVec 32 := BitVec.ofNat 32 (i 0).val
  let c256_i32 : BitVec 32 := 256#32
  let v0 : BitVec 32 := Scalar.muli arg0 c256_i32
  let c203_i32_1025 : BitVec 32 := 203#32
  let v2467 : BitVec 32 := Scalar.addi v0 c203_i32_1025
  let v3073 : Index := Scalar.indexCast v2467
  ![v3073.toNat]
def k0_off1236 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c203_i32_1025 : BitVec 32 := 203#32
  let v2467 : BitVec 32 := Scalar.addi v0 c203_i32_1025
  let c0_i32_1282 : BitVec 32 := 0#32
  ![v2467.toNat, v3074.toNat, 0]
def k0_cond412 (v2469 : BitVec 32) : BitVec 1 :=
  let c0_i32_1026 : BitVec 32 := 0#32
  let v2470 : BitVec 1 := Scalar.cmpi .sgt v2469 c0_i32_1026
  let v2471 : BitVec 32 := Scalar.extui v2470
  let c0_i32_1027 : BitVec 32 := 0#32
  let v2472 : BitVec 1 := Scalar.cmpi .ne v2471 c0_i32_1027
  v2472

def k0_chk412 (i : grid0.Coords) (v2469 : BitVec 32) (v3074 : BitVec 32) : Prop :=
  (∀ (k0_h412 : k0_cond412 v2469 = 1#1), ∀ a, (k0_off1236 i v3074) a + S1x1x512.size a ≤ S1024x200x512.size a)
instance k0_chk412.dec : ∀ (i : grid0.Coords) (v2469 : BitVec 32) (v3074 : BitVec 32), Decidable (k0_chk412 i v2469 v3074) := fun i v2469 v3074 => decidable_of_iff' _ (Iff.of_eq (k0_chk412.eq_1 i v2469 v3074))
theorem k0_off1236_inb : ∀ (i : grid0.Coords) (v2469 : BitVec 32) (v3074 : BitVec 32) (k0_hw412 : k0_chk412 i v2469 v3074), ∀ (k0_h412 : k0_cond412 v2469 = 1#1), ∀ a, (k0_off1236 i v3074) a + S1x1x512.size a ≤ S1024x200x512.size a := fun i v2469 v3074 k0_hw412 k0_h412 => k0_hw412 k0_h412

def k0_off1237 (i : grid0.Coords) : Fin 1 → Nat :=
  let arg0 : BitVec 32 := BitVec.ofNat 32 (i 0).val
  let c256_i32 : BitVec 32 := 256#32
  let v0 : BitVec 32 := Scalar.muli arg0 c256_i32
  let c204_i32_1028 : BitVec 32 := 204#32
  let v2473 : BitVec 32 := Scalar.addi v0 c204_i32_1028
  let v2474 : Index := Scalar.indexCast v2473
  ![v2474.toNat]
def k0_off1238 (i : grid0.Coords) : Fin 1 → Nat :=
  let arg0 : BitVec 32 := BitVec.ofNat 32 (i 0).val
  let c256_i32 : BitVec 32 := 256#32
  let v0 : BitVec 32 := Scalar.muli arg0 c256_i32
  let c204_i32_1028 : BitVec 32 := 204#32
  let v2473 : BitVec 32 := Scalar.addi v0 c204_i32_1028
  let v3073 : Index := Scalar.indexCast v2473
  ![v3073.toNat]
def k0_off1239 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c204_i32_1028 : BitVec 32 := 204#32
  let v2473 : BitVec 32 := Scalar.addi v0 c204_i32_1028
  let c0_i32_1282 : BitVec 32 := 0#32
  ![v2473.toNat, v3074.toNat, 0]
def k0_cond413 (v2475 : BitVec 32) : BitVec 1 :=
  let c0_i32_1029 : BitVec 32 := 0#32
  let v2476 : BitVec 1 := Scalar.cmpi .sgt v2475 c0_i32_1029
  let v2477 : BitVec 32 := Scalar.extui v2476
  let c0_i32_1030 : BitVec 32 := 0#32
  let v2478 : BitVec 1 := Scalar.cmpi .ne v2477 c0_i32_1030
  v2478

def k0_chk413 (i : grid0.Coords) (v2475 : BitVec 32) (v3074 : BitVec 32) : Prop :=
  (∀ (k0_h413 : k0_cond413 v2475 = 1#1), ∀ a, (k0_off1239 i v3074) a + S1x1x512.size a ≤ S1024x200x512.size a)
instance k0_chk413.dec : ∀ (i : grid0.Coords) (v2475 : BitVec 32) (v3074 : BitVec 32), Decidable (k0_chk413 i v2475 v3074) := fun i v2475 v3074 => decidable_of_iff' _ (Iff.of_eq (k0_chk413.eq_1 i v2475 v3074))
theorem k0_off1239_inb : ∀ (i : grid0.Coords) (v2475 : BitVec 32) (v3074 : BitVec 32) (k0_hw413 : k0_chk413 i v2475 v3074), ∀ (k0_h413 : k0_cond413 v2475 = 1#1), ∀ a, (k0_off1239 i v3074) a + S1x1x512.size a ≤ S1024x200x512.size a := fun i v2475 v3074 k0_hw413 k0_h413 => k0_hw413 k0_h413

def k0_off1240 (i : grid0.Coords) : Fin 1 → Nat :=
  let arg0 : BitVec 32 := BitVec.ofNat 32 (i 0).val
  let c256_i32 : BitVec 32 := 256#32
  let v0 : BitVec 32 := Scalar.muli arg0 c256_i32
  let c205_i32_1031 : BitVec 32 := 205#32
  let v2479 : BitVec 32 := Scalar.addi v0 c205_i32_1031
  let v2480 : Index := Scalar.indexCast v2479
  ![v2480.toNat]
def k0_off1241 (i : grid0.Coords) : Fin 1 → Nat :=
  let arg0 : BitVec 32 := BitVec.ofNat 32 (i 0).val
  let c256_i32 : BitVec 32 := 256#32
  let v0 : BitVec 32 := Scalar.muli arg0 c256_i32
  let c205_i32_1031 : BitVec 32 := 205#32
  let v2479 : BitVec 32 := Scalar.addi v0 c205_i32_1031
  let v3073 : Index := Scalar.indexCast v2479
  ![v3073.toNat]
def k0_off1242 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c205_i32_1031 : BitVec 32 := 205#32
  let v2479 : BitVec 32 := Scalar.addi v0 c205_i32_1031
  let c0_i32_1282 : BitVec 32 := 0#32
  ![v2479.toNat, v3074.toNat, 0]
def k0_cond414 (v2481 : BitVec 32) : BitVec 1 :=
  let c0_i32_1032 : BitVec 32 := 0#32
  let v2482 : BitVec 1 := Scalar.cmpi .sgt v2481 c0_i32_1032
  let v2483 : BitVec 32 := Scalar.extui v2482
  let c0_i32_1033 : BitVec 32 := 0#32
  let v2484 : BitVec 1 := Scalar.cmpi .ne v2483 c0_i32_1033
  v2484

def k0_chk414 (i : grid0.Coords) (v2481 : BitVec 32) (v3074 : BitVec 32) : Prop :=
  (∀ (k0_h414 : k0_cond414 v2481 = 1#1), ∀ a, (k0_off1242 i v3074) a + S1x1x512.size a ≤ S1024x200x512.size a)
instance k0_chk414.dec : ∀ (i : grid0.Coords) (v2481 : BitVec 32) (v3074 : BitVec 32), Decidable (k0_chk414 i v2481 v3074) := fun i v2481 v3074 => decidable_of_iff' _ (Iff.of_eq (k0_chk414.eq_1 i v2481 v3074))
theorem k0_off1242_inb : ∀ (i : grid0.Coords) (v2481 : BitVec 32) (v3074 : BitVec 32) (k0_hw414 : k0_chk414 i v2481 v3074), ∀ (k0_h414 : k0_cond414 v2481 = 1#1), ∀ a, (k0_off1242 i v3074) a + S1x1x512.size a ≤ S1024x200x512.size a := fun i v2481 v3074 k0_hw414 k0_h414 => k0_hw414 k0_h414

def k0_off1243 (i : grid0.Coords) : Fin 1 → Nat :=
  let arg0 : BitVec 32 := BitVec.ofNat 32 (i 0).val
  let c256_i32 : BitVec 32 := 256#32
  let v0 : BitVec 32 := Scalar.muli arg0 c256_i32
  let c206_i32_1034 : BitVec 32 := 206#32
  let v2485 : BitVec 32 := Scalar.addi v0 c206_i32_1034
  let v2486 : Index := Scalar.indexCast v2485
  ![v2486.toNat]
def k0_off1244 (i : grid0.Coords) : Fin 1 → Nat :=
  let arg0 : BitVec 32 := BitVec.ofNat 32 (i 0).val
  let c256_i32 : BitVec 32 := 256#32
  let v0 : BitVec 32 := Scalar.muli arg0 c256_i32
  let c206_i32_1034 : BitVec 32 := 206#32
  let v2485 : BitVec 32 := Scalar.addi v0 c206_i32_1034
  let v3073 : Index := Scalar.indexCast v2485
  ![v3073.toNat]
def k0_off1245 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c206_i32_1034 : BitVec 32 := 206#32
  let v2485 : BitVec 32 := Scalar.addi v0 c206_i32_1034
  let c0_i32_1282 : BitVec 32 := 0#32
  ![v2485.toNat, v3074.toNat, 0]
def k0_cond415 (v2487 : BitVec 32) : BitVec 1 :=
  let c0_i32_1035 : BitVec 32 := 0#32
  let v2488 : BitVec 1 := Scalar.cmpi .sgt v2487 c0_i32_1035
  let v2489 : BitVec 32 := Scalar.extui v2488
  let c0_i32_1036 : BitVec 32 := 0#32
  let v2490 : BitVec 1 := Scalar.cmpi .ne v2489 c0_i32_1036
  v2490

def k0_chk415 (i : grid0.Coords) (v2487 : BitVec 32) (v3074 : BitVec 32) : Prop :=
  (∀ (k0_h415 : k0_cond415 v2487 = 1#1), ∀ a, (k0_off1245 i v3074) a + S1x1x512.size a ≤ S1024x200x512.size a)
instance k0_chk415.dec : ∀ (i : grid0.Coords) (v2487 : BitVec 32) (v3074 : BitVec 32), Decidable (k0_chk415 i v2487 v3074) := fun i v2487 v3074 => decidable_of_iff' _ (Iff.of_eq (k0_chk415.eq_1 i v2487 v3074))
theorem k0_off1245_inb : ∀ (i : grid0.Coords) (v2487 : BitVec 32) (v3074 : BitVec 32) (k0_hw415 : k0_chk415 i v2487 v3074), ∀ (k0_h415 : k0_cond415 v2487 = 1#1), ∀ a, (k0_off1245 i v3074) a + S1x1x512.size a ≤ S1024x200x512.size a := fun i v2487 v3074 k0_hw415 k0_h415 => k0_hw415 k0_h415

def k0_off1246 (i : grid0.Coords) : Fin 1 → Nat :=
  let arg0 : BitVec 32 := BitVec.ofNat 32 (i 0).val
  let c256_i32 : BitVec 32 := 256#32
  let v0 : BitVec 32 := Scalar.muli arg0 c256_i32
  let c207_i32_1037 : BitVec 32 := 207#32
  let v2491 : BitVec 32 := Scalar.addi v0 c207_i32_1037
  let v2492 : Index := Scalar.indexCast v2491
  ![v2492.toNat]
def k0_off1247 (i : grid0.Coords) : Fin 1 → Nat :=
  let arg0 : BitVec 32 := BitVec.ofNat 32 (i 0).val
  let c256_i32 : BitVec 32 := 256#32
  let v0 : BitVec 32 := Scalar.muli arg0 c256_i32
  let c207_i32_1037 : BitVec 32 := 207#32
  let v2491 : BitVec 32 := Scalar.addi v0 c207_i32_1037
  let v3073 : Index := Scalar.indexCast v2491
  ![v3073.toNat]
def k0_off1248 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c207_i32_1037 : BitVec 32 := 207#32
  let v2491 : BitVec 32 := Scalar.addi v0 c207_i32_1037
  let c0_i32_1282 : BitVec 32 := 0#32
  ![v2491.toNat, v3074.toNat, 0]
def k0_cond416 (v2493 : BitVec 32) : BitVec 1 :=
  let c0_i32_1038 : BitVec 32 := 0#32
  let v2494 : BitVec 1 := Scalar.cmpi .sgt v2493 c0_i32_1038
  let v2495 : BitVec 32 := Scalar.extui v2494
  let c0_i32_1039 : BitVec 32 := 0#32
  let v2496 : BitVec 1 := Scalar.cmpi .ne v2495 c0_i32_1039
  v2496

def k0_chk416 (i : grid0.Coords) (v2493 : BitVec 32) (v3074 : BitVec 32) : Prop :=
  (∀ (k0_h416 : k0_cond416 v2493 = 1#1), ∀ a, (k0_off1248 i v3074) a + S1x1x512.size a ≤ S1024x200x512.size a)
instance k0_chk416.dec : ∀ (i : grid0.Coords) (v2493 : BitVec 32) (v3074 : BitVec 32), Decidable (k0_chk416 i v2493 v3074) := fun i v2493 v3074 => decidable_of_iff' _ (Iff.of_eq (k0_chk416.eq_1 i v2493 v3074))
theorem k0_off1248_inb : ∀ (i : grid0.Coords) (v2493 : BitVec 32) (v3074 : BitVec 32) (k0_hw416 : k0_chk416 i v2493 v3074), ∀ (k0_h416 : k0_cond416 v2493 = 1#1), ∀ a, (k0_off1248 i v3074) a + S1x1x512.size a ≤ S1024x200x512.size a := fun i v2493 v3074 k0_hw416 k0_h416 => k0_hw416 k0_h416

def k0_off1249 (i : grid0.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v2497 : BitVec 32 := Scalar.addi v0 c208_i32
  let v2498 : Index := Scalar.indexCast v2497
  ![v2498.toNat]
def k0_off1250 (i : grid0.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v2497 : BitVec 32 := Scalar.addi v0 c208_i32
  let v3073 : Index := Scalar.indexCast v2497
  ![v3073.toNat]
def k0_off1251 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c208_i32 : BitVec 32 := 208#32
  let v2497 : BitVec 32 := Scalar.addi v0 c208_i32
  let c0_i32_1287 : BitVec 32 := 0#32
  ![v2497.toNat, v3074.toNat, 0]
def k0_cond417 (v2499 : BitVec 32) : BitVec 1 :=
  let c0_i32_1040 : BitVec 32 := 0#32
  let v2500 : BitVec 1 := Scalar.cmpi .sgt v2499 c0_i32_1040
  let v2501 : BitVec 32 := Scalar.extui v2500
  let c0_i32_1041 : BitVec 32 := 0#32
  let v2502 : BitVec 1 := Scalar.cmpi .ne v2501 c0_i32_1041
  v2502

def k0_chk417 (i : grid0.Coords) (v2499 : BitVec 32) (v3074 : BitVec 32) : Prop :=
  (∀ (k0_h417 : k0_cond417 v2499 = 1#1), ∀ a, (k0_off1251 i v3074) a + S1x1x512.size a ≤ S1024x200x512.size a)
instance k0_chk417.dec : ∀ (i : grid0.Coords) (v2499 : BitVec 32) (v3074 : BitVec 32), Decidable (k0_chk417 i v2499 v3074) := fun i v2499 v3074 => decidable_of_iff' _ (Iff.of_eq (k0_chk417.eq_1 i v2499 v3074))
theorem k0_off1251_inb : ∀ (i : grid0.Coords) (v2499 : BitVec 32) (v3074 : BitVec 32) (k0_hw417 : k0_chk417 i v2499 v3074), ∀ (k0_h417 : k0_cond417 v2499 = 1#1), ∀ a, (k0_off1251 i v3074) a + S1x1x512.size a ≤ S1024x200x512.size a := fun i v2499 v3074 k0_hw417 k0_h417 => k0_hw417 k0_h417

def k0_off1252 (i : grid0.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v2503 : BitVec 32 := Scalar.addi v0 c209_i32
  let v2504 : Index := Scalar.indexCast v2503
  ![v2504.toNat]
def k0_off1253 (i : grid0.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v2503 : BitVec 32 := Scalar.addi v0 c209_i32
  let v3073 : Index := Scalar.indexCast v2503
  ![v3073.toNat]
def k0_off1254 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c209_i32 : BitVec 32 := 209#32
  let v2503 : BitVec 32 := Scalar.addi v0 c209_i32
  let c0_i32_1287 : BitVec 32 := 0#32
  ![v2503.toNat, v3074.toNat, 0]
def k0_cond418 (v2505 : BitVec 32) : BitVec 1 :=
  let c0_i32_1042 : BitVec 32 := 0#32
  let v2506 : BitVec 1 := Scalar.cmpi .sgt v2505 c0_i32_1042
  let v2507 : BitVec 32 := Scalar.extui v2506
  let c0_i32_1043 : BitVec 32 := 0#32
  let v2508 : BitVec 1 := Scalar.cmpi .ne v2507 c0_i32_1043
  v2508

def k0_chk418 (i : grid0.Coords) (v2505 : BitVec 32) (v3074 : BitVec 32) : Prop :=
  (∀ (k0_h418 : k0_cond418 v2505 = 1#1), ∀ a, (k0_off1254 i v3074) a + S1x1x512.size a ≤ S1024x200x512.size a)
instance k0_chk418.dec : ∀ (i : grid0.Coords) (v2505 : BitVec 32) (v3074 : BitVec 32), Decidable (k0_chk418 i v2505 v3074) := fun i v2505 v3074 => decidable_of_iff' _ (Iff.of_eq (k0_chk418.eq_1 i v2505 v3074))
theorem k0_off1254_inb : ∀ (i : grid0.Coords) (v2505 : BitVec 32) (v3074 : BitVec 32) (k0_hw418 : k0_chk418 i v2505 v3074), ∀ (k0_h418 : k0_cond418 v2505 = 1#1), ∀ a, (k0_off1254 i v3074) a + S1x1x512.size a ≤ S1024x200x512.size a := fun i v2505 v3074 k0_hw418 k0_h418 => k0_hw418 k0_h418

def k0_off1255 (i : grid0.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v2509 : BitVec 32 := Scalar.addi v0 c210_i32
  let v2510 : Index := Scalar.indexCast v2509
  ![v2510.toNat]
def k0_off1256 (i : grid0.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v2509 : BitVec 32 := Scalar.addi v0 c210_i32
  let v3073 : Index := Scalar.indexCast v2509
  ![v3073.toNat]
def k0_off1257 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c210_i32 : BitVec 32 := 210#32
  let v2509 : BitVec 32 := Scalar.addi v0 c210_i32
  let c0_i32_1287 : BitVec 32 := 0#32
  ![v2509.toNat, v3074.toNat, 0]
def k0_cond419 (v2511 : BitVec 32) : BitVec 1 :=
  let c0_i32_1044 : BitVec 32 := 0#32
  let v2512 : BitVec 1 := Scalar.cmpi .sgt v2511 c0_i32_1044
  let v2513 : BitVec 32 := Scalar.extui v2512
  let c0_i32_1045 : BitVec 32 := 0#32
  let v2514 : BitVec 1 := Scalar.cmpi .ne v2513 c0_i32_1045
  v2514

def k0_chk419 (i : grid0.Coords) (v2511 : BitVec 32) (v3074 : BitVec 32) : Prop :=
  (∀ (k0_h419 : k0_cond419 v2511 = 1#1), ∀ a, (k0_off1257 i v3074) a + S1x1x512.size a ≤ S1024x200x512.size a)
instance k0_chk419.dec : ∀ (i : grid0.Coords) (v2511 : BitVec 32) (v3074 : BitVec 32), Decidable (k0_chk419 i v2511 v3074) := fun i v2511 v3074 => decidable_of_iff' _ (Iff.of_eq (k0_chk419.eq_1 i v2511 v3074))
theorem k0_off1257_inb : ∀ (i : grid0.Coords) (v2511 : BitVec 32) (v3074 : BitVec 32) (k0_hw419 : k0_chk419 i v2511 v3074), ∀ (k0_h419 : k0_cond419 v2511 = 1#1), ∀ a, (k0_off1257 i v3074) a + S1x1x512.size a ≤ S1024x200x512.size a := fun i v2511 v3074 k0_hw419 k0_h419 => k0_hw419 k0_h419

def k0_off1258 (i : grid0.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v2515 : BitVec 32 := Scalar.addi v0 c211_i32
  let v2516 : Index := Scalar.indexCast v2515
  ![v2516.toNat]
def k0_off1259 (i : grid0.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v2515 : BitVec 32 := Scalar.addi v0 c211_i32
  let v3073 : Index := Scalar.indexCast v2515
  ![v3073.toNat]
def k0_off1260 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c211_i32 : BitVec 32 := 211#32
  let v2515 : BitVec 32 := Scalar.addi v0 c211_i32
  let c0_i32_1287 : BitVec 32 := 0#32
  ![v2515.toNat, v3074.toNat, 0]
def k0_cond420 (v2517 : BitVec 32) : BitVec 1 :=
  let c0_i32_1046 : BitVec 32 := 0#32
  let v2518 : BitVec 1 := Scalar.cmpi .sgt v2517 c0_i32_1046
  let v2519 : BitVec 32 := Scalar.extui v2518
  let c0_i32_1047 : BitVec 32 := 0#32
  let v2520 : BitVec 1 := Scalar.cmpi .ne v2519 c0_i32_1047
  v2520

def k0_chk420 (i : grid0.Coords) (v2517 : BitVec 32) (v3074 : BitVec 32) : Prop :=
  (∀ (k0_h420 : k0_cond420 v2517 = 1#1), ∀ a, (k0_off1260 i v3074) a + S1x1x512.size a ≤ S1024x200x512.size a)
instance k0_chk420.dec : ∀ (i : grid0.Coords) (v2517 : BitVec 32) (v3074 : BitVec 32), Decidable (k0_chk420 i v2517 v3074) := fun i v2517 v3074 => decidable_of_iff' _ (Iff.of_eq (k0_chk420.eq_1 i v2517 v3074))
theorem k0_off1260_inb : ∀ (i : grid0.Coords) (v2517 : BitVec 32) (v3074 : BitVec 32) (k0_hw420 : k0_chk420 i v2517 v3074), ∀ (k0_h420 : k0_cond420 v2517 = 1#1), ∀ a, (k0_off1260 i v3074) a + S1x1x512.size a ≤ S1024x200x512.size a := fun i v2517 v3074 k0_hw420 k0_h420 => k0_hw420 k0_h420

def k0_off1261 (i : grid0.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v2521 : BitVec 32 := Scalar.addi v0 c212_i32
  let v2522 : Index := Scalar.indexCast v2521
  ![v2522.toNat]
def k0_off1262 (i : grid0.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v2521 : BitVec 32 := Scalar.addi v0 c212_i32
  let v3073 : Index := Scalar.indexCast v2521
  ![v3073.toNat]
def k0_off1263 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c212_i32 : BitVec 32 := 212#32
  let v2521 : BitVec 32 := Scalar.addi v0 c212_i32
  let c0_i32_1287 : BitVec 32 := 0#32
  ![v2521.toNat, v3074.toNat, 0]
def k0_cond421 (v2523 : BitVec 32) : BitVec 1 :=
  let c0_i32_1048 : BitVec 32 := 0#32
  let v2524 : BitVec 1 := Scalar.cmpi .sgt v2523 c0_i32_1048
  let v2525 : BitVec 32 := Scalar.extui v2524
  let c0_i32_1049 : BitVec 32 := 0#32
  let v2526 : BitVec 1 := Scalar.cmpi .ne v2525 c0_i32_1049
  v2526

def k0_chk421 (i : grid0.Coords) (v2523 : BitVec 32) (v3074 : BitVec 32) : Prop :=
  (∀ (k0_h421 : k0_cond421 v2523 = 1#1), ∀ a, (k0_off1263 i v3074) a + S1x1x512.size a ≤ S1024x200x512.size a)
instance k0_chk421.dec : ∀ (i : grid0.Coords) (v2523 : BitVec 32) (v3074 : BitVec 32), Decidable (k0_chk421 i v2523 v3074) := fun i v2523 v3074 => decidable_of_iff' _ (Iff.of_eq (k0_chk421.eq_1 i v2523 v3074))
theorem k0_off1263_inb : ∀ (i : grid0.Coords) (v2523 : BitVec 32) (v3074 : BitVec 32) (k0_hw421 : k0_chk421 i v2523 v3074), ∀ (k0_h421 : k0_cond421 v2523 = 1#1), ∀ a, (k0_off1263 i v3074) a + S1x1x512.size a ≤ S1024x200x512.size a := fun i v2523 v3074 k0_hw421 k0_h421 => k0_hw421 k0_h421

def k0_off1264 (i : grid0.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v2527 : BitVec 32 := Scalar.addi v0 c213_i32
  let v2528 : Index := Scalar.indexCast v2527
  ![v2528.toNat]
def k0_off1265 (i : grid0.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v2527 : BitVec 32 := Scalar.addi v0 c213_i32
  let v3073 : Index := Scalar.indexCast v2527
  ![v3073.toNat]
def k0_off1266 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c213_i32 : BitVec 32 := 213#32
  let v2527 : BitVec 32 := Scalar.addi v0 c213_i32
  let c0_i32_1287 : BitVec 32 := 0#32
  ![v2527.toNat, v3074.toNat, 0]
def k0_cond422 (v2529 : BitVec 32) : BitVec 1 :=
  let c0_i32_1050 : BitVec 32 := 0#32
  let v2530 : BitVec 1 := Scalar.cmpi .sgt v2529 c0_i32_1050
  let v2531 : BitVec 32 := Scalar.extui v2530
  let c0_i32_1051 : BitVec 32 := 0#32
  let v2532 : BitVec 1 := Scalar.cmpi .ne v2531 c0_i32_1051
  v2532

def k0_chk422 (i : grid0.Coords) (v2529 : BitVec 32) (v3074 : BitVec 32) : Prop :=
  (∀ (k0_h422 : k0_cond422 v2529 = 1#1), ∀ a, (k0_off1266 i v3074) a + S1x1x512.size a ≤ S1024x200x512.size a)
instance k0_chk422.dec : ∀ (i : grid0.Coords) (v2529 : BitVec 32) (v3074 : BitVec 32), Decidable (k0_chk422 i v2529 v3074) := fun i v2529 v3074 => decidable_of_iff' _ (Iff.of_eq (k0_chk422.eq_1 i v2529 v3074))
theorem k0_off1266_inb : ∀ (i : grid0.Coords) (v2529 : BitVec 32) (v3074 : BitVec 32) (k0_hw422 : k0_chk422 i v2529 v3074), ∀ (k0_h422 : k0_cond422 v2529 = 1#1), ∀ a, (k0_off1266 i v3074) a + S1x1x512.size a ≤ S1024x200x512.size a := fun i v2529 v3074 k0_hw422 k0_h422 => k0_hw422 k0_h422

def k0_off1267 (i : grid0.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v2533 : BitVec 32 := Scalar.addi v0 c214_i32
  let v2534 : Index := Scalar.indexCast v2533
  ![v2534.toNat]
def k0_off1268 (i : grid0.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v2533 : BitVec 32 := Scalar.addi v0 c214_i32
  let v3073 : Index := Scalar.indexCast v2533
  ![v3073.toNat]
def k0_off1269 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c214_i32 : BitVec 32 := 214#32
  let v2533 : BitVec 32 := Scalar.addi v0 c214_i32
  let c0_i32_1287 : BitVec 32 := 0#32
  ![v2533.toNat, v3074.toNat, 0]
def k0_cond423 (v2535 : BitVec 32) : BitVec 1 :=
  let c0_i32_1052 : BitVec 32 := 0#32
  let v2536 : BitVec 1 := Scalar.cmpi .sgt v2535 c0_i32_1052
  let v2537 : BitVec 32 := Scalar.extui v2536
  let c0_i32_1053 : BitVec 32 := 0#32
  let v2538 : BitVec 1 := Scalar.cmpi .ne v2537 c0_i32_1053
  v2538

def k0_chk423 (i : grid0.Coords) (v2535 : BitVec 32) (v3074 : BitVec 32) : Prop :=
  (∀ (k0_h423 : k0_cond423 v2535 = 1#1), ∀ a, (k0_off1269 i v3074) a + S1x1x512.size a ≤ S1024x200x512.size a)
instance k0_chk423.dec : ∀ (i : grid0.Coords) (v2535 : BitVec 32) (v3074 : BitVec 32), Decidable (k0_chk423 i v2535 v3074) := fun i v2535 v3074 => decidable_of_iff' _ (Iff.of_eq (k0_chk423.eq_1 i v2535 v3074))
theorem k0_off1269_inb : ∀ (i : grid0.Coords) (v2535 : BitVec 32) (v3074 : BitVec 32) (k0_hw423 : k0_chk423 i v2535 v3074), ∀ (k0_h423 : k0_cond423 v2535 = 1#1), ∀ a, (k0_off1269 i v3074) a + S1x1x512.size a ≤ S1024x200x512.size a := fun i v2535 v3074 k0_hw423 k0_h423 => k0_hw423 k0_h423

def k0_off1270 (i : grid0.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v2539 : BitVec 32 := Scalar.addi v0 c215_i32
  let v2540 : Index := Scalar.indexCast v2539
  ![v2540.toNat]
def k0_off1271 (i : grid0.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v2539 : BitVec 32 := Scalar.addi v0 c215_i32
  let v3073 : Index := Scalar.indexCast v2539
  ![v3073.toNat]
def k0_off1272 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c215_i32 : BitVec 32 := 215#32
  let v2539 : BitVec 32 := Scalar.addi v0 c215_i32
  let c0_i32_1287 : BitVec 32 := 0#32
  ![v2539.toNat, v3074.toNat, 0]
def k0_cond424 (v2541 : BitVec 32) : BitVec 1 :=
  let c0_i32_1054 : BitVec 32 := 0#32
  let v2542 : BitVec 1 := Scalar.cmpi .sgt v2541 c0_i32_1054
  let v2543 : BitVec 32 := Scalar.extui v2542
  let c0_i32_1055 : BitVec 32 := 0#32
  let v2544 : BitVec 1 := Scalar.cmpi .ne v2543 c0_i32_1055
  v2544

def k0_chk424 (i : grid0.Coords) (v2541 : BitVec 32) (v3074 : BitVec 32) : Prop :=
  (∀ (k0_h424 : k0_cond424 v2541 = 1#1), ∀ a, (k0_off1272 i v3074) a + S1x1x512.size a ≤ S1024x200x512.size a)
instance k0_chk424.dec : ∀ (i : grid0.Coords) (v2541 : BitVec 32) (v3074 : BitVec 32), Decidable (k0_chk424 i v2541 v3074) := fun i v2541 v3074 => decidable_of_iff' _ (Iff.of_eq (k0_chk424.eq_1 i v2541 v3074))
theorem k0_off1272_inb : ∀ (i : grid0.Coords) (v2541 : BitVec 32) (v3074 : BitVec 32) (k0_hw424 : k0_chk424 i v2541 v3074), ∀ (k0_h424 : k0_cond424 v2541 = 1#1), ∀ a, (k0_off1272 i v3074) a + S1x1x512.size a ≤ S1024x200x512.size a := fun i v2541 v3074 k0_hw424 k0_h424 => k0_hw424 k0_h424

def k0_off1273 (i : grid0.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v2545 : BitVec 32 := Scalar.addi v0 c216_i32
  let v2546 : Index := Scalar.indexCast v2545
  ![v2546.toNat]
def k0_off1274 (i : grid0.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v2545 : BitVec 32 := Scalar.addi v0 c216_i32
  let v3073 : Index := Scalar.indexCast v2545
  ![v3073.toNat]
def k0_off1275 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c216_i32 : BitVec 32 := 216#32
  let v2545 : BitVec 32 := Scalar.addi v0 c216_i32
  let c0_i32_1287 : BitVec 32 := 0#32
  ![v2545.toNat, v3074.toNat, 0]
def k0_cond425 (v2547 : BitVec 32) : BitVec 1 :=
  let c0_i32_1056 : BitVec 32 := 0#32
  let v2548 : BitVec 1 := Scalar.cmpi .sgt v2547 c0_i32_1056
  let v2549 : BitVec 32 := Scalar.extui v2548
  let c0_i32_1057 : BitVec 32 := 0#32
  let v2550 : BitVec 1 := Scalar.cmpi .ne v2549 c0_i32_1057
  v2550

def k0_chk425 (i : grid0.Coords) (v2547 : BitVec 32) (v3074 : BitVec 32) : Prop :=
  (∀ (k0_h425 : k0_cond425 v2547 = 1#1), ∀ a, (k0_off1275 i v3074) a + S1x1x512.size a ≤ S1024x200x512.size a)
instance k0_chk425.dec : ∀ (i : grid0.Coords) (v2547 : BitVec 32) (v3074 : BitVec 32), Decidable (k0_chk425 i v2547 v3074) := fun i v2547 v3074 => decidable_of_iff' _ (Iff.of_eq (k0_chk425.eq_1 i v2547 v3074))
theorem k0_off1275_inb : ∀ (i : grid0.Coords) (v2547 : BitVec 32) (v3074 : BitVec 32) (k0_hw425 : k0_chk425 i v2547 v3074), ∀ (k0_h425 : k0_cond425 v2547 = 1#1), ∀ a, (k0_off1275 i v3074) a + S1x1x512.size a ≤ S1024x200x512.size a := fun i v2547 v3074 k0_hw425 k0_h425 => k0_hw425 k0_h425

def k0_off1276 (i : grid0.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v2551 : BitVec 32 := Scalar.addi v0 c217_i32
  let v2552 : Index := Scalar.indexCast v2551
  ![v2552.toNat]
def k0_off1277 (i : grid0.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v2551 : BitVec 32 := Scalar.addi v0 c217_i32
  let v3073 : Index := Scalar.indexCast v2551
  ![v3073.toNat]
def k0_off1278 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c217_i32 : BitVec 32 := 217#32
  let v2551 : BitVec 32 := Scalar.addi v0 c217_i32
  let c0_i32_1287 : BitVec 32 := 0#32
  ![v2551.toNat, v3074.toNat, 0]
def k0_cond426 (v2553 : BitVec 32) : BitVec 1 :=
  let c0_i32_1058 : BitVec 32 := 0#32
  let v2554 : BitVec 1 := Scalar.cmpi .sgt v2553 c0_i32_1058
  let v2555 : BitVec 32 := Scalar.extui v2554
  let c0_i32_1059 : BitVec 32 := 0#32
  let v2556 : BitVec 1 := Scalar.cmpi .ne v2555 c0_i32_1059
  v2556

def k0_chk426 (i : grid0.Coords) (v2553 : BitVec 32) (v3074 : BitVec 32) : Prop :=
  (∀ (k0_h426 : k0_cond426 v2553 = 1#1), ∀ a, (k0_off1278 i v3074) a + S1x1x512.size a ≤ S1024x200x512.size a)
instance k0_chk426.dec : ∀ (i : grid0.Coords) (v2553 : BitVec 32) (v3074 : BitVec 32), Decidable (k0_chk426 i v2553 v3074) := fun i v2553 v3074 => decidable_of_iff' _ (Iff.of_eq (k0_chk426.eq_1 i v2553 v3074))
theorem k0_off1278_inb : ∀ (i : grid0.Coords) (v2553 : BitVec 32) (v3074 : BitVec 32) (k0_hw426 : k0_chk426 i v2553 v3074), ∀ (k0_h426 : k0_cond426 v2553 = 1#1), ∀ a, (k0_off1278 i v3074) a + S1x1x512.size a ≤ S1024x200x512.size a := fun i v2553 v3074 k0_hw426 k0_h426 => k0_hw426 k0_h426

def k0_off1279 (i : grid0.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v2557 : BitVec 32 := Scalar.addi v0 c218_i32
  let v2558 : Index := Scalar.indexCast v2557
  ![v2558.toNat]
def k0_off1280 (i : grid0.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v2557 : BitVec 32 := Scalar.addi v0 c218_i32
  let v3073 : Index := Scalar.indexCast v2557
  ![v3073.toNat]
def k0_off1281 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c218_i32 : BitVec 32 := 218#32
  let v2557 : BitVec 32 := Scalar.addi v0 c218_i32
  let c0_i32_1287 : BitVec 32 := 0#32
  ![v2557.toNat, v3074.toNat, 0]
def k0_cond427 (v2559 : BitVec 32) : BitVec 1 :=
  let c0_i32_1060 : BitVec 32 := 0#32
  let v2560 : BitVec 1 := Scalar.cmpi .sgt v2559 c0_i32_1060
  let v2561 : BitVec 32 := Scalar.extui v2560
  let c0_i32_1061 : BitVec 32 := 0#32
  let v2562 : BitVec 1 := Scalar.cmpi .ne v2561 c0_i32_1061
  v2562

def k0_chk427 (i : grid0.Coords) (v2559 : BitVec 32) (v3074 : BitVec 32) : Prop :=
  (∀ (k0_h427 : k0_cond427 v2559 = 1#1), ∀ a, (k0_off1281 i v3074) a + S1x1x512.size a ≤ S1024x200x512.size a)
instance k0_chk427.dec : ∀ (i : grid0.Coords) (v2559 : BitVec 32) (v3074 : BitVec 32), Decidable (k0_chk427 i v2559 v3074) := fun i v2559 v3074 => decidable_of_iff' _ (Iff.of_eq (k0_chk427.eq_1 i v2559 v3074))
theorem k0_off1281_inb : ∀ (i : grid0.Coords) (v2559 : BitVec 32) (v3074 : BitVec 32) (k0_hw427 : k0_chk427 i v2559 v3074), ∀ (k0_h427 : k0_cond427 v2559 = 1#1), ∀ a, (k0_off1281 i v3074) a + S1x1x512.size a ≤ S1024x200x512.size a := fun i v2559 v3074 k0_hw427 k0_h427 => k0_hw427 k0_h427

def k0_off1282 (i : grid0.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v2563 : BitVec 32 := Scalar.addi v0 c219_i32
  let v2564 : Index := Scalar.indexCast v2563
  ![v2564.toNat]
def k0_off1283 (i : grid0.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v2563 : BitVec 32 := Scalar.addi v0 c219_i32
  let v3073 : Index := Scalar.indexCast v2563
  ![v3073.toNat]
def k0_off1284 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c219_i32 : BitVec 32 := 219#32
  let v2563 : BitVec 32 := Scalar.addi v0 c219_i32
  let c0_i32_1287 : BitVec 32 := 0#32
  ![v2563.toNat, v3074.toNat, 0]
def k0_cond428 (v2565 : BitVec 32) : BitVec 1 :=
  let c0_i32_1062 : BitVec 32 := 0#32
  let v2566 : BitVec 1 := Scalar.cmpi .sgt v2565 c0_i32_1062
  let v2567 : BitVec 32 := Scalar.extui v2566
  let c0_i32_1063 : BitVec 32 := 0#32
  let v2568 : BitVec 1 := Scalar.cmpi .ne v2567 c0_i32_1063
  v2568

def k0_chk428 (i : grid0.Coords) (v2565 : BitVec 32) (v3074 : BitVec 32) : Prop :=
  (∀ (k0_h428 : k0_cond428 v2565 = 1#1), ∀ a, (k0_off1284 i v3074) a + S1x1x512.size a ≤ S1024x200x512.size a)
instance k0_chk428.dec : ∀ (i : grid0.Coords) (v2565 : BitVec 32) (v3074 : BitVec 32), Decidable (k0_chk428 i v2565 v3074) := fun i v2565 v3074 => decidable_of_iff' _ (Iff.of_eq (k0_chk428.eq_1 i v2565 v3074))
theorem k0_off1284_inb : ∀ (i : grid0.Coords) (v2565 : BitVec 32) (v3074 : BitVec 32) (k0_hw428 : k0_chk428 i v2565 v3074), ∀ (k0_h428 : k0_cond428 v2565 = 1#1), ∀ a, (k0_off1284 i v3074) a + S1x1x512.size a ≤ S1024x200x512.size a := fun i v2565 v3074 k0_hw428 k0_h428 => k0_hw428 k0_h428

def k0_off1285 (i : grid0.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v2569 : BitVec 32 := Scalar.addi v0 c220_i32
  let v2570 : Index := Scalar.indexCast v2569
  ![v2570.toNat]
def k0_off1286 (i : grid0.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v2569 : BitVec 32 := Scalar.addi v0 c220_i32
  let v3073 : Index := Scalar.indexCast v2569
  ![v3073.toNat]
def k0_off1287 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c220_i32 : BitVec 32 := 220#32
  let v2569 : BitVec 32 := Scalar.addi v0 c220_i32
  let c0_i32_1287 : BitVec 32 := 0#32
  ![v2569.toNat, v3074.toNat, 0]
def k0_cond429 (v2571 : BitVec 32) : BitVec 1 :=
  let c0_i32_1064 : BitVec 32 := 0#32
  let v2572 : BitVec 1 := Scalar.cmpi .sgt v2571 c0_i32_1064
  let v2573 : BitVec 32 := Scalar.extui v2572
  let c0_i32_1065 : BitVec 32 := 0#32
  let v2574 : BitVec 1 := Scalar.cmpi .ne v2573 c0_i32_1065
  v2574

def k0_chk429 (i : grid0.Coords) (v2571 : BitVec 32) (v3074 : BitVec 32) : Prop :=
  (∀ (k0_h429 : k0_cond429 v2571 = 1#1), ∀ a, (k0_off1287 i v3074) a + S1x1x512.size a ≤ S1024x200x512.size a)
instance k0_chk429.dec : ∀ (i : grid0.Coords) (v2571 : BitVec 32) (v3074 : BitVec 32), Decidable (k0_chk429 i v2571 v3074) := fun i v2571 v3074 => decidable_of_iff' _ (Iff.of_eq (k0_chk429.eq_1 i v2571 v3074))
theorem k0_off1287_inb : ∀ (i : grid0.Coords) (v2571 : BitVec 32) (v3074 : BitVec 32) (k0_hw429 : k0_chk429 i v2571 v3074), ∀ (k0_h429 : k0_cond429 v2571 = 1#1), ∀ a, (k0_off1287 i v3074) a + S1x1x512.size a ≤ S1024x200x512.size a := fun i v2571 v3074 k0_hw429 k0_h429 => k0_hw429 k0_h429

def k0_off1288 (i : grid0.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v2575 : BitVec 32 := Scalar.addi v0 c221_i32
  let v2576 : Index := Scalar.indexCast v2575
  ![v2576.toNat]
def k0_off1289 (i : grid0.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v2575 : BitVec 32 := Scalar.addi v0 c221_i32
  let v3073 : Index := Scalar.indexCast v2575
  ![v3073.toNat]
def k0_off1290 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c221_i32 : BitVec 32 := 221#32
  let v2575 : BitVec 32 := Scalar.addi v0 c221_i32
  let c0_i32_1287 : BitVec 32 := 0#32
  ![v2575.toNat, v3074.toNat, 0]
def k0_cond430 (v2577 : BitVec 32) : BitVec 1 :=
  let c0_i32_1066 : BitVec 32 := 0#32
  let v2578 : BitVec 1 := Scalar.cmpi .sgt v2577 c0_i32_1066
  let v2579 : BitVec 32 := Scalar.extui v2578
  let c0_i32_1067 : BitVec 32 := 0#32
  let v2580 : BitVec 1 := Scalar.cmpi .ne v2579 c0_i32_1067
  v2580

def k0_chk430 (i : grid0.Coords) (v2577 : BitVec 32) (v3074 : BitVec 32) : Prop :=
  (∀ (k0_h430 : k0_cond430 v2577 = 1#1), ∀ a, (k0_off1290 i v3074) a + S1x1x512.size a ≤ S1024x200x512.size a)
instance k0_chk430.dec : ∀ (i : grid0.Coords) (v2577 : BitVec 32) (v3074 : BitVec 32), Decidable (k0_chk430 i v2577 v3074) := fun i v2577 v3074 => decidable_of_iff' _ (Iff.of_eq (k0_chk430.eq_1 i v2577 v3074))
theorem k0_off1290_inb : ∀ (i : grid0.Coords) (v2577 : BitVec 32) (v3074 : BitVec 32) (k0_hw430 : k0_chk430 i v2577 v3074), ∀ (k0_h430 : k0_cond430 v2577 = 1#1), ∀ a, (k0_off1290 i v3074) a + S1x1x512.size a ≤ S1024x200x512.size a := fun i v2577 v3074 k0_hw430 k0_h430 => k0_hw430 k0_h430

def k0_off1291 (i : grid0.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v2581 : BitVec 32 := Scalar.addi v0 c222_i32
  let v2582 : Index := Scalar.indexCast v2581
  ![v2582.toNat]
def k0_off1292 (i : grid0.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v2581 : BitVec 32 := Scalar.addi v0 c222_i32
  let v3073 : Index := Scalar.indexCast v2581
  ![v3073.toNat]
def k0_off1293 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c222_i32 : BitVec 32 := 222#32
  let v2581 : BitVec 32 := Scalar.addi v0 c222_i32
  let c0_i32_1287 : BitVec 32 := 0#32
  ![v2581.toNat, v3074.toNat, 0]
def k0_cond431 (v2583 : BitVec 32) : BitVec 1 :=
  let c0_i32_1068 : BitVec 32 := 0#32
  let v2584 : BitVec 1 := Scalar.cmpi .sgt v2583 c0_i32_1068
  let v2585 : BitVec 32 := Scalar.extui v2584
  let c0_i32_1069 : BitVec 32 := 0#32
  let v2586 : BitVec 1 := Scalar.cmpi .ne v2585 c0_i32_1069
  v2586

def k0_chk431 (i : grid0.Coords) (v2583 : BitVec 32) (v3074 : BitVec 32) : Prop :=
  (∀ (k0_h431 : k0_cond431 v2583 = 1#1), ∀ a, (k0_off1293 i v3074) a + S1x1x512.size a ≤ S1024x200x512.size a)
instance k0_chk431.dec : ∀ (i : grid0.Coords) (v2583 : BitVec 32) (v3074 : BitVec 32), Decidable (k0_chk431 i v2583 v3074) := fun i v2583 v3074 => decidable_of_iff' _ (Iff.of_eq (k0_chk431.eq_1 i v2583 v3074))
theorem k0_off1293_inb : ∀ (i : grid0.Coords) (v2583 : BitVec 32) (v3074 : BitVec 32) (k0_hw431 : k0_chk431 i v2583 v3074), ∀ (k0_h431 : k0_cond431 v2583 = 1#1), ∀ a, (k0_off1293 i v3074) a + S1x1x512.size a ≤ S1024x200x512.size a := fun i v2583 v3074 k0_hw431 k0_h431 => k0_hw431 k0_h431

def k0_off1294 (i : grid0.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v2587 : BitVec 32 := Scalar.addi v0 c223_i32
  let v2588 : Index := Scalar.indexCast v2587
  ![v2588.toNat]
def k0_off1295 (i : grid0.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v2587 : BitVec 32 := Scalar.addi v0 c223_i32
  let v3073 : Index := Scalar.indexCast v2587
  ![v3073.toNat]
def k0_off1296 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c223_i32 : BitVec 32 := 223#32
  let v2587 : BitVec 32 := Scalar.addi v0 c223_i32
  let c0_i32_1287 : BitVec 32 := 0#32
  ![v2587.toNat, v3074.toNat, 0]
def k0_cond432 (v2589 : BitVec 32) : BitVec 1 :=
  let c0_i32_1070 : BitVec 32 := 0#32
  let v2590 : BitVec 1 := Scalar.cmpi .sgt v2589 c0_i32_1070
  let v2591 : BitVec 32 := Scalar.extui v2590
  let c0_i32_1071 : BitVec 32 := 0#32
  let v2592 : BitVec 1 := Scalar.cmpi .ne v2591 c0_i32_1071
  v2592

def k0_chk432 (i : grid0.Coords) (v2589 : BitVec 32) (v3074 : BitVec 32) : Prop :=
  (∀ (k0_h432 : k0_cond432 v2589 = 1#1), ∀ a, (k0_off1296 i v3074) a + S1x1x512.size a ≤ S1024x200x512.size a)
instance k0_chk432.dec : ∀ (i : grid0.Coords) (v2589 : BitVec 32) (v3074 : BitVec 32), Decidable (k0_chk432 i v2589 v3074) := fun i v2589 v3074 => decidable_of_iff' _ (Iff.of_eq (k0_chk432.eq_1 i v2589 v3074))
theorem k0_off1296_inb : ∀ (i : grid0.Coords) (v2589 : BitVec 32) (v3074 : BitVec 32) (k0_hw432 : k0_chk432 i v2589 v3074), ∀ (k0_h432 : k0_cond432 v2589 = 1#1), ∀ a, (k0_off1296 i v3074) a + S1x1x512.size a ≤ S1024x200x512.size a := fun i v2589 v3074 k0_hw432 k0_h432 => k0_hw432 k0_h432

def k0_off1297 (i : grid0.Coords) : Fin 1 → Nat :=
  let arg0 : BitVec 32 := BitVec.ofNat 32 (i 0).val
  let c256_i32 : BitVec 32 := 256#32
  let v0 : BitVec 32 := Scalar.muli arg0 c256_i32
  let c208_i32_1072 : BitVec 32 := 208#32
  let v2593 : BitVec 32 := Scalar.addi v0 c208_i32_1072
  let v2594 : Index := Scalar.indexCast v2593
  ![v2594.toNat]
def k0_off1298 (i : grid0.Coords) : Fin 1 → Nat :=
  let arg0 : BitVec 32 := BitVec.ofNat 32 (i 0).val
  let c256_i32 : BitVec 32 := 256#32
  let v0 : BitVec 32 := Scalar.muli arg0 c256_i32
  let c208_i32_1072 : BitVec 32 := 208#32
  let v2593 : BitVec 32 := Scalar.addi v0 c208_i32_1072
  let v3073 : Index := Scalar.indexCast v2593
  ![v3073.toNat]
def k0_off1299 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c208_i32_1072 : BitVec 32 := 208#32
  let v2593 : BitVec 32 := Scalar.addi v0 c208_i32_1072
  let c0_i32_1282 : BitVec 32 := 0#32
  ![v2593.toNat, v3074.toNat, 0]
def k0_cond433 (v2595 : BitVec 32) : BitVec 1 :=
  let c0_i32_1073 : BitVec 32 := 0#32
  let v2596 : BitVec 1 := Scalar.cmpi .sgt v2595 c0_i32_1073
  let v2597 : BitVec 32 := Scalar.extui v2596
  let c0_i32_1074 : BitVec 32 := 0#32
  let v2598 : BitVec 1 := Scalar.cmpi .ne v2597 c0_i32_1074
  v2598

def k0_chk433 (i : grid0.Coords) (v2595 : BitVec 32) (v3074 : BitVec 32) : Prop :=
  (∀ (k0_h433 : k0_cond433 v2595 = 1#1), ∀ a, (k0_off1299 i v3074) a + S1x1x512.size a ≤ S1024x200x512.size a)
instance k0_chk433.dec : ∀ (i : grid0.Coords) (v2595 : BitVec 32) (v3074 : BitVec 32), Decidable (k0_chk433 i v2595 v3074) := fun i v2595 v3074 => decidable_of_iff' _ (Iff.of_eq (k0_chk433.eq_1 i v2595 v3074))
theorem k0_off1299_inb : ∀ (i : grid0.Coords) (v2595 : BitVec 32) (v3074 : BitVec 32) (k0_hw433 : k0_chk433 i v2595 v3074), ∀ (k0_h433 : k0_cond433 v2595 = 1#1), ∀ a, (k0_off1299 i v3074) a + S1x1x512.size a ≤ S1024x200x512.size a := fun i v2595 v3074 k0_hw433 k0_h433 => k0_hw433 k0_h433

def k0_off1300 (i : grid0.Coords) : Fin 1 → Nat :=
  let arg0 : BitVec 32 := BitVec.ofNat 32 (i 0).val
  let c256_i32 : BitVec 32 := 256#32
  let v0 : BitVec 32 := Scalar.muli arg0 c256_i32
  let c209_i32_1075 : BitVec 32 := 209#32
  let v2599 : BitVec 32 := Scalar.addi v0 c209_i32_1075
  let v2600 : Index := Scalar.indexCast v2599
  ![v2600.toNat]
def k0_off1301 (i : grid0.Coords) : Fin 1 → Nat :=
  let arg0 : BitVec 32 := BitVec.ofNat 32 (i 0).val
  let c256_i32 : BitVec 32 := 256#32
  let v0 : BitVec 32 := Scalar.muli arg0 c256_i32
  let c209_i32_1075 : BitVec 32 := 209#32
  let v2599 : BitVec 32 := Scalar.addi v0 c209_i32_1075
  let v3073 : Index := Scalar.indexCast v2599
  ![v3073.toNat]
def k0_off1302 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c209_i32_1075 : BitVec 32 := 209#32
  let v2599 : BitVec 32 := Scalar.addi v0 c209_i32_1075
  let c0_i32_1282 : BitVec 32 := 0#32
  ![v2599.toNat, v3074.toNat, 0]
def k0_cond434 (v2601 : BitVec 32) : BitVec 1 :=
  let c0_i32_1076 : BitVec 32 := 0#32
  let v2602 : BitVec 1 := Scalar.cmpi .sgt v2601 c0_i32_1076
  let v2603 : BitVec 32 := Scalar.extui v2602
  let c0_i32_1077 : BitVec 32 := 0#32
  let v2604 : BitVec 1 := Scalar.cmpi .ne v2603 c0_i32_1077
  v2604

def k0_chk434 (i : grid0.Coords) (v2601 : BitVec 32) (v3074 : BitVec 32) : Prop :=
  (∀ (k0_h434 : k0_cond434 v2601 = 1#1), ∀ a, (k0_off1302 i v3074) a + S1x1x512.size a ≤ S1024x200x512.size a)
instance k0_chk434.dec : ∀ (i : grid0.Coords) (v2601 : BitVec 32) (v3074 : BitVec 32), Decidable (k0_chk434 i v2601 v3074) := fun i v2601 v3074 => decidable_of_iff' _ (Iff.of_eq (k0_chk434.eq_1 i v2601 v3074))
theorem k0_off1302_inb : ∀ (i : grid0.Coords) (v2601 : BitVec 32) (v3074 : BitVec 32) (k0_hw434 : k0_chk434 i v2601 v3074), ∀ (k0_h434 : k0_cond434 v2601 = 1#1), ∀ a, (k0_off1302 i v3074) a + S1x1x512.size a ≤ S1024x200x512.size a := fun i v2601 v3074 k0_hw434 k0_h434 => k0_hw434 k0_h434

def k0_off1303 (i : grid0.Coords) : Fin 1 → Nat :=
  let arg0 : BitVec 32 := BitVec.ofNat 32 (i 0).val
  let c256_i32 : BitVec 32 := 256#32
  let v0 : BitVec 32 := Scalar.muli arg0 c256_i32
  let c210_i32_1078 : BitVec 32 := 210#32
  let v2605 : BitVec 32 := Scalar.addi v0 c210_i32_1078
  let v2606 : Index := Scalar.indexCast v2605
  ![v2606.toNat]
def k0_off1304 (i : grid0.Coords) : Fin 1 → Nat :=
  let arg0 : BitVec 32 := BitVec.ofNat 32 (i 0).val
  let c256_i32 : BitVec 32 := 256#32
  let v0 : BitVec 32 := Scalar.muli arg0 c256_i32
  let c210_i32_1078 : BitVec 32 := 210#32
  let v2605 : BitVec 32 := Scalar.addi v0 c210_i32_1078
  let v3073 : Index := Scalar.indexCast v2605
  ![v3073.toNat]
def k0_off1305 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c210_i32_1078 : BitVec 32 := 210#32
  let v2605 : BitVec 32 := Scalar.addi v0 c210_i32_1078
  let c0_i32_1282 : BitVec 32 := 0#32
  ![v2605.toNat, v3074.toNat, 0]
def k0_cond435 (v2607 : BitVec 32) : BitVec 1 :=
  let c0_i32_1079 : BitVec 32 := 0#32
  let v2608 : BitVec 1 := Scalar.cmpi .sgt v2607 c0_i32_1079
  let v2609 : BitVec 32 := Scalar.extui v2608
  let c0_i32_1080 : BitVec 32 := 0#32
  let v2610 : BitVec 1 := Scalar.cmpi .ne v2609 c0_i32_1080
  v2610

def k0_chk435 (i : grid0.Coords) (v2607 : BitVec 32) (v3074 : BitVec 32) : Prop :=
  (∀ (k0_h435 : k0_cond435 v2607 = 1#1), ∀ a, (k0_off1305 i v3074) a + S1x1x512.size a ≤ S1024x200x512.size a)
instance k0_chk435.dec : ∀ (i : grid0.Coords) (v2607 : BitVec 32) (v3074 : BitVec 32), Decidable (k0_chk435 i v2607 v3074) := fun i v2607 v3074 => decidable_of_iff' _ (Iff.of_eq (k0_chk435.eq_1 i v2607 v3074))
theorem k0_off1305_inb : ∀ (i : grid0.Coords) (v2607 : BitVec 32) (v3074 : BitVec 32) (k0_hw435 : k0_chk435 i v2607 v3074), ∀ (k0_h435 : k0_cond435 v2607 = 1#1), ∀ a, (k0_off1305 i v3074) a + S1x1x512.size a ≤ S1024x200x512.size a := fun i v2607 v3074 k0_hw435 k0_h435 => k0_hw435 k0_h435

def k0_off1306 (i : grid0.Coords) : Fin 1 → Nat :=
  let arg0 : BitVec 32 := BitVec.ofNat 32 (i 0).val
  let c256_i32 : BitVec 32 := 256#32
  let v0 : BitVec 32 := Scalar.muli arg0 c256_i32
  let c211_i32_1081 : BitVec 32 := 211#32
  let v2611 : BitVec 32 := Scalar.addi v0 c211_i32_1081
  let v2612 : Index := Scalar.indexCast v2611
  ![v2612.toNat]
def k0_off1307 (i : grid0.Coords) : Fin 1 → Nat :=
  let arg0 : BitVec 32 := BitVec.ofNat 32 (i 0).val
  let c256_i32 : BitVec 32 := 256#32
  let v0 : BitVec 32 := Scalar.muli arg0 c256_i32
  let c211_i32_1081 : BitVec 32 := 211#32
  let v2611 : BitVec 32 := Scalar.addi v0 c211_i32_1081
  let v3073 : Index := Scalar.indexCast v2611
  ![v3073.toNat]
def k0_off1308 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c211_i32_1081 : BitVec 32 := 211#32
  let v2611 : BitVec 32 := Scalar.addi v0 c211_i32_1081
  let c0_i32_1282 : BitVec 32 := 0#32
  ![v2611.toNat, v3074.toNat, 0]
def k0_cond436 (v2613 : BitVec 32) : BitVec 1 :=
  let c0_i32_1082 : BitVec 32 := 0#32
  let v2614 : BitVec 1 := Scalar.cmpi .sgt v2613 c0_i32_1082
  let v2615 : BitVec 32 := Scalar.extui v2614
  let c0_i32_1083 : BitVec 32 := 0#32
  let v2616 : BitVec 1 := Scalar.cmpi .ne v2615 c0_i32_1083
  v2616

def k0_chk436 (i : grid0.Coords) (v2613 : BitVec 32) (v3074 : BitVec 32) : Prop :=
  (∀ (k0_h436 : k0_cond436 v2613 = 1#1), ∀ a, (k0_off1308 i v3074) a + S1x1x512.size a ≤ S1024x200x512.size a)
instance k0_chk436.dec : ∀ (i : grid0.Coords) (v2613 : BitVec 32) (v3074 : BitVec 32), Decidable (k0_chk436 i v2613 v3074) := fun i v2613 v3074 => decidable_of_iff' _ (Iff.of_eq (k0_chk436.eq_1 i v2613 v3074))
theorem k0_off1308_inb : ∀ (i : grid0.Coords) (v2613 : BitVec 32) (v3074 : BitVec 32) (k0_hw436 : k0_chk436 i v2613 v3074), ∀ (k0_h436 : k0_cond436 v2613 = 1#1), ∀ a, (k0_off1308 i v3074) a + S1x1x512.size a ≤ S1024x200x512.size a := fun i v2613 v3074 k0_hw436 k0_h436 => k0_hw436 k0_h436

def k0_off1309 (i : grid0.Coords) : Fin 1 → Nat :=
  let arg0 : BitVec 32 := BitVec.ofNat 32 (i 0).val
  let c256_i32 : BitVec 32 := 256#32
  let v0 : BitVec 32 := Scalar.muli arg0 c256_i32
  let c212_i32_1084 : BitVec 32 := 212#32
  let v2617 : BitVec 32 := Scalar.addi v0 c212_i32_1084
  let v2618 : Index := Scalar.indexCast v2617
  ![v2618.toNat]
def k0_off1310 (i : grid0.Coords) : Fin 1 → Nat :=
  let arg0 : BitVec 32 := BitVec.ofNat 32 (i 0).val
  let c256_i32 : BitVec 32 := 256#32
  let v0 : BitVec 32 := Scalar.muli arg0 c256_i32
  let c212_i32_1084 : BitVec 32 := 212#32
  let v2617 : BitVec 32 := Scalar.addi v0 c212_i32_1084
  let v3073 : Index := Scalar.indexCast v2617
  ![v3073.toNat]
def k0_off1311 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c212_i32_1084 : BitVec 32 := 212#32
  let v2617 : BitVec 32 := Scalar.addi v0 c212_i32_1084
  let c0_i32_1282 : BitVec 32 := 0#32
  ![v2617.toNat, v3074.toNat, 0]
def k0_cond437 (v2619 : BitVec 32) : BitVec 1 :=
  let c0_i32_1085 : BitVec 32 := 0#32
  let v2620 : BitVec 1 := Scalar.cmpi .sgt v2619 c0_i32_1085
  let v2621 : BitVec 32 := Scalar.extui v2620
  let c0_i32_1086 : BitVec 32 := 0#32
  let v2622 : BitVec 1 := Scalar.cmpi .ne v2621 c0_i32_1086
  v2622

def k0_chk437 (i : grid0.Coords) (v2619 : BitVec 32) (v3074 : BitVec 32) : Prop :=
  (∀ (k0_h437 : k0_cond437 v2619 = 1#1), ∀ a, (k0_off1311 i v3074) a + S1x1x512.size a ≤ S1024x200x512.size a)
instance k0_chk437.dec : ∀ (i : grid0.Coords) (v2619 : BitVec 32) (v3074 : BitVec 32), Decidable (k0_chk437 i v2619 v3074) := fun i v2619 v3074 => decidable_of_iff' _ (Iff.of_eq (k0_chk437.eq_1 i v2619 v3074))
theorem k0_off1311_inb : ∀ (i : grid0.Coords) (v2619 : BitVec 32) (v3074 : BitVec 32) (k0_hw437 : k0_chk437 i v2619 v3074), ∀ (k0_h437 : k0_cond437 v2619 = 1#1), ∀ a, (k0_off1311 i v3074) a + S1x1x512.size a ≤ S1024x200x512.size a := fun i v2619 v3074 k0_hw437 k0_h437 => k0_hw437 k0_h437

def k0_off1312 (i : grid0.Coords) : Fin 1 → Nat :=
  let arg0 : BitVec 32 := BitVec.ofNat 32 (i 0).val
  let c256_i32 : BitVec 32 := 256#32
  let v0 : BitVec 32 := Scalar.muli arg0 c256_i32
  let c213_i32_1087 : BitVec 32 := 213#32
  let v2623 : BitVec 32 := Scalar.addi v0 c213_i32_1087
  let v2624 : Index := Scalar.indexCast v2623
  ![v2624.toNat]
def k0_off1313 (i : grid0.Coords) : Fin 1 → Nat :=
  let arg0 : BitVec 32 := BitVec.ofNat 32 (i 0).val
  let c256_i32 : BitVec 32 := 256#32
  let v0 : BitVec 32 := Scalar.muli arg0 c256_i32
  let c213_i32_1087 : BitVec 32 := 213#32
  let v2623 : BitVec 32 := Scalar.addi v0 c213_i32_1087
  let v3073 : Index := Scalar.indexCast v2623
  ![v3073.toNat]
def k0_off1314 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c213_i32_1087 : BitVec 32 := 213#32
  let v2623 : BitVec 32 := Scalar.addi v0 c213_i32_1087
  let c0_i32_1282 : BitVec 32 := 0#32
  ![v2623.toNat, v3074.toNat, 0]
def k0_cond438 (v2625 : BitVec 32) : BitVec 1 :=
  let c0_i32_1088 : BitVec 32 := 0#32
  let v2626 : BitVec 1 := Scalar.cmpi .sgt v2625 c0_i32_1088
  let v2627 : BitVec 32 := Scalar.extui v2626
  let c0_i32_1089 : BitVec 32 := 0#32
  let v2628 : BitVec 1 := Scalar.cmpi .ne v2627 c0_i32_1089
  v2628

def k0_chk438 (i : grid0.Coords) (v2625 : BitVec 32) (v3074 : BitVec 32) : Prop :=
  (∀ (k0_h438 : k0_cond438 v2625 = 1#1), ∀ a, (k0_off1314 i v3074) a + S1x1x512.size a ≤ S1024x200x512.size a)
instance k0_chk438.dec : ∀ (i : grid0.Coords) (v2625 : BitVec 32) (v3074 : BitVec 32), Decidable (k0_chk438 i v2625 v3074) := fun i v2625 v3074 => decidable_of_iff' _ (Iff.of_eq (k0_chk438.eq_1 i v2625 v3074))
theorem k0_off1314_inb : ∀ (i : grid0.Coords) (v2625 : BitVec 32) (v3074 : BitVec 32) (k0_hw438 : k0_chk438 i v2625 v3074), ∀ (k0_h438 : k0_cond438 v2625 = 1#1), ∀ a, (k0_off1314 i v3074) a + S1x1x512.size a ≤ S1024x200x512.size a := fun i v2625 v3074 k0_hw438 k0_h438 => k0_hw438 k0_h438

def k0_off1315 (i : grid0.Coords) : Fin 1 → Nat :=
  let arg0 : BitVec 32 := BitVec.ofNat 32 (i 0).val
  let c256_i32 : BitVec 32 := 256#32
  let v0 : BitVec 32 := Scalar.muli arg0 c256_i32
  let c214_i32_1090 : BitVec 32 := 214#32
  let v2629 : BitVec 32 := Scalar.addi v0 c214_i32_1090
  let v2630 : Index := Scalar.indexCast v2629
  ![v2630.toNat]
def k0_off1316 (i : grid0.Coords) : Fin 1 → Nat :=
  let arg0 : BitVec 32 := BitVec.ofNat 32 (i 0).val
  let c256_i32 : BitVec 32 := 256#32
  let v0 : BitVec 32 := Scalar.muli arg0 c256_i32
  let c214_i32_1090 : BitVec 32 := 214#32
  let v2629 : BitVec 32 := Scalar.addi v0 c214_i32_1090
  let v3073 : Index := Scalar.indexCast v2629
  ![v3073.toNat]
def k0_off1317 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c214_i32_1090 : BitVec 32 := 214#32
  let v2629 : BitVec 32 := Scalar.addi v0 c214_i32_1090
  let c0_i32_1282 : BitVec 32 := 0#32
  ![v2629.toNat, v3074.toNat, 0]
def k0_cond439 (v2631 : BitVec 32) : BitVec 1 :=
  let c0_i32_1091 : BitVec 32 := 0#32
  let v2632 : BitVec 1 := Scalar.cmpi .sgt v2631 c0_i32_1091
  let v2633 : BitVec 32 := Scalar.extui v2632
  let c0_i32_1092 : BitVec 32 := 0#32
  let v2634 : BitVec 1 := Scalar.cmpi .ne v2633 c0_i32_1092
  v2634

def k0_chk439 (i : grid0.Coords) (v2631 : BitVec 32) (v3074 : BitVec 32) : Prop :=
  (∀ (k0_h439 : k0_cond439 v2631 = 1#1), ∀ a, (k0_off1317 i v3074) a + S1x1x512.size a ≤ S1024x200x512.size a)
instance k0_chk439.dec : ∀ (i : grid0.Coords) (v2631 : BitVec 32) (v3074 : BitVec 32), Decidable (k0_chk439 i v2631 v3074) := fun i v2631 v3074 => decidable_of_iff' _ (Iff.of_eq (k0_chk439.eq_1 i v2631 v3074))
theorem k0_off1317_inb : ∀ (i : grid0.Coords) (v2631 : BitVec 32) (v3074 : BitVec 32) (k0_hw439 : k0_chk439 i v2631 v3074), ∀ (k0_h439 : k0_cond439 v2631 = 1#1), ∀ a, (k0_off1317 i v3074) a + S1x1x512.size a ≤ S1024x200x512.size a := fun i v2631 v3074 k0_hw439 k0_h439 => k0_hw439 k0_h439

def k0_off1318 (i : grid0.Coords) : Fin 1 → Nat :=
  let arg0 : BitVec 32 := BitVec.ofNat 32 (i 0).val
  let c256_i32 : BitVec 32 := 256#32
  let v0 : BitVec 32 := Scalar.muli arg0 c256_i32
  let c215_i32_1093 : BitVec 32 := 215#32
  let v2635 : BitVec 32 := Scalar.addi v0 c215_i32_1093
  let v2636 : Index := Scalar.indexCast v2635
  ![v2636.toNat]
def k0_off1319 (i : grid0.Coords) : Fin 1 → Nat :=
  let arg0 : BitVec 32 := BitVec.ofNat 32 (i 0).val
  let c256_i32 : BitVec 32 := 256#32
  let v0 : BitVec 32 := Scalar.muli arg0 c256_i32
  let c215_i32_1093 : BitVec 32 := 215#32
  let v2635 : BitVec 32 := Scalar.addi v0 c215_i32_1093
  let v3073 : Index := Scalar.indexCast v2635
  ![v3073.toNat]
def k0_off1320 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c215_i32_1093 : BitVec 32 := 215#32
  let v2635 : BitVec 32 := Scalar.addi v0 c215_i32_1093
  let c0_i32_1282 : BitVec 32 := 0#32
  ![v2635.toNat, v3074.toNat, 0]
def k0_cond440 (v2637 : BitVec 32) : BitVec 1 :=
  let c0_i32_1094 : BitVec 32 := 0#32
  let v2638 : BitVec 1 := Scalar.cmpi .sgt v2637 c0_i32_1094
  let v2639 : BitVec 32 := Scalar.extui v2638
  let c0_i32_1095 : BitVec 32 := 0#32
  let v2640 : BitVec 1 := Scalar.cmpi .ne v2639 c0_i32_1095
  v2640

def k0_chk440 (i : grid0.Coords) (v2637 : BitVec 32) (v3074 : BitVec 32) : Prop :=
  (∀ (k0_h440 : k0_cond440 v2637 = 1#1), ∀ a, (k0_off1320 i v3074) a + S1x1x512.size a ≤ S1024x200x512.size a)
instance k0_chk440.dec : ∀ (i : grid0.Coords) (v2637 : BitVec 32) (v3074 : BitVec 32), Decidable (k0_chk440 i v2637 v3074) := fun i v2637 v3074 => decidable_of_iff' _ (Iff.of_eq (k0_chk440.eq_1 i v2637 v3074))
theorem k0_off1320_inb : ∀ (i : grid0.Coords) (v2637 : BitVec 32) (v3074 : BitVec 32) (k0_hw440 : k0_chk440 i v2637 v3074), ∀ (k0_h440 : k0_cond440 v2637 = 1#1), ∀ a, (k0_off1320 i v3074) a + S1x1x512.size a ≤ S1024x200x512.size a := fun i v2637 v3074 k0_hw440 k0_h440 => k0_hw440 k0_h440

def k0_off1321 (i : grid0.Coords) : Fin 1 → Nat :=
  let arg0 : BitVec 32 := BitVec.ofNat 32 (i 0).val
  let c256_i32 : BitVec 32 := 256#32
  let v0 : BitVec 32 := Scalar.muli arg0 c256_i32
  let c216_i32_1096 : BitVec 32 := 216#32
  let v2641 : BitVec 32 := Scalar.addi v0 c216_i32_1096
  let v2642 : Index := Scalar.indexCast v2641
  ![v2642.toNat]
def k0_off1322 (i : grid0.Coords) : Fin 1 → Nat :=
  let arg0 : BitVec 32 := BitVec.ofNat 32 (i 0).val
  let c256_i32 : BitVec 32 := 256#32
  let v0 : BitVec 32 := Scalar.muli arg0 c256_i32
  let c216_i32_1096 : BitVec 32 := 216#32
  let v2641 : BitVec 32 := Scalar.addi v0 c216_i32_1096
  let v3073 : Index := Scalar.indexCast v2641
  ![v3073.toNat]
def k0_off1323 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c216_i32_1096 : BitVec 32 := 216#32
  let v2641 : BitVec 32 := Scalar.addi v0 c216_i32_1096
  let c0_i32_1282 : BitVec 32 := 0#32
  ![v2641.toNat, v3074.toNat, 0]
def k0_cond441 (v2643 : BitVec 32) : BitVec 1 :=
  let c0_i32_1097 : BitVec 32 := 0#32
  let v2644 : BitVec 1 := Scalar.cmpi .sgt v2643 c0_i32_1097
  let v2645 : BitVec 32 := Scalar.extui v2644
  let c0_i32_1098 : BitVec 32 := 0#32
  let v2646 : BitVec 1 := Scalar.cmpi .ne v2645 c0_i32_1098
  v2646

def k0_chk441 (i : grid0.Coords) (v2643 : BitVec 32) (v3074 : BitVec 32) : Prop :=
  (∀ (k0_h441 : k0_cond441 v2643 = 1#1), ∀ a, (k0_off1323 i v3074) a + S1x1x512.size a ≤ S1024x200x512.size a)
instance k0_chk441.dec : ∀ (i : grid0.Coords) (v2643 : BitVec 32) (v3074 : BitVec 32), Decidable (k0_chk441 i v2643 v3074) := fun i v2643 v3074 => decidable_of_iff' _ (Iff.of_eq (k0_chk441.eq_1 i v2643 v3074))
theorem k0_off1323_inb : ∀ (i : grid0.Coords) (v2643 : BitVec 32) (v3074 : BitVec 32) (k0_hw441 : k0_chk441 i v2643 v3074), ∀ (k0_h441 : k0_cond441 v2643 = 1#1), ∀ a, (k0_off1323 i v3074) a + S1x1x512.size a ≤ S1024x200x512.size a := fun i v2643 v3074 k0_hw441 k0_h441 => k0_hw441 k0_h441

def k0_off1324 (i : grid0.Coords) : Fin 1 → Nat :=
  let arg0 : BitVec 32 := BitVec.ofNat 32 (i 0).val
  let c256_i32 : BitVec 32 := 256#32
  let v0 : BitVec 32 := Scalar.muli arg0 c256_i32
  let c217_i32_1099 : BitVec 32 := 217#32
  let v2647 : BitVec 32 := Scalar.addi v0 c217_i32_1099
  let v2648 : Index := Scalar.indexCast v2647
  ![v2648.toNat]
def k0_off1325 (i : grid0.Coords) : Fin 1 → Nat :=
  let arg0 : BitVec 32 := BitVec.ofNat 32 (i 0).val
  let c256_i32 : BitVec 32 := 256#32
  let v0 : BitVec 32 := Scalar.muli arg0 c256_i32
  let c217_i32_1099 : BitVec 32 := 217#32
  let v2647 : BitVec 32 := Scalar.addi v0 c217_i32_1099
  let v3073 : Index := Scalar.indexCast v2647
  ![v3073.toNat]
def k0_off1326 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c217_i32_1099 : BitVec 32 := 217#32
  let v2647 : BitVec 32 := Scalar.addi v0 c217_i32_1099
  let c0_i32_1282 : BitVec 32 := 0#32
  ![v2647.toNat, v3074.toNat, 0]
def k0_cond442 (v2649 : BitVec 32) : BitVec 1 :=
  let c0_i32_1100 : BitVec 32 := 0#32
  let v2650 : BitVec 1 := Scalar.cmpi .sgt v2649 c0_i32_1100
  let v2651 : BitVec 32 := Scalar.extui v2650
  let c0_i32_1101 : BitVec 32 := 0#32
  let v2652 : BitVec 1 := Scalar.cmpi .ne v2651 c0_i32_1101
  v2652

def k0_chk442 (i : grid0.Coords) (v2649 : BitVec 32) (v3074 : BitVec 32) : Prop :=
  (∀ (k0_h442 : k0_cond442 v2649 = 1#1), ∀ a, (k0_off1326 i v3074) a + S1x1x512.size a ≤ S1024x200x512.size a)
instance k0_chk442.dec : ∀ (i : grid0.Coords) (v2649 : BitVec 32) (v3074 : BitVec 32), Decidable (k0_chk442 i v2649 v3074) := fun i v2649 v3074 => decidable_of_iff' _ (Iff.of_eq (k0_chk442.eq_1 i v2649 v3074))
theorem k0_off1326_inb : ∀ (i : grid0.Coords) (v2649 : BitVec 32) (v3074 : BitVec 32) (k0_hw442 : k0_chk442 i v2649 v3074), ∀ (k0_h442 : k0_cond442 v2649 = 1#1), ∀ a, (k0_off1326 i v3074) a + S1x1x512.size a ≤ S1024x200x512.size a := fun i v2649 v3074 k0_hw442 k0_h442 => k0_hw442 k0_h442

def k0_off1327 (i : grid0.Coords) : Fin 1 → Nat :=
  let arg0 : BitVec 32 := BitVec.ofNat 32 (i 0).val
  let c256_i32 : BitVec 32 := 256#32
  let v0 : BitVec 32 := Scalar.muli arg0 c256_i32
  let c218_i32_1102 : BitVec 32 := 218#32
  let v2653 : BitVec 32 := Scalar.addi v0 c218_i32_1102
  let v2654 : Index := Scalar.indexCast v2653
  ![v2654.toNat]
def k0_off1328 (i : grid0.Coords) : Fin 1 → Nat :=
  let arg0 : BitVec 32 := BitVec.ofNat 32 (i 0).val
  let c256_i32 : BitVec 32 := 256#32
  let v0 : BitVec 32 := Scalar.muli arg0 c256_i32
  let c218_i32_1102 : BitVec 32 := 218#32
  let v2653 : BitVec 32 := Scalar.addi v0 c218_i32_1102
  let v3073 : Index := Scalar.indexCast v2653
  ![v3073.toNat]
def k0_off1329 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c218_i32_1102 : BitVec 32 := 218#32
  let v2653 : BitVec 32 := Scalar.addi v0 c218_i32_1102
  let c0_i32_1282 : BitVec 32 := 0#32
  ![v2653.toNat, v3074.toNat, 0]
def k0_cond443 (v2655 : BitVec 32) : BitVec 1 :=
  let c0_i32_1103 : BitVec 32 := 0#32
  let v2656 : BitVec 1 := Scalar.cmpi .sgt v2655 c0_i32_1103
  let v2657 : BitVec 32 := Scalar.extui v2656
  let c0_i32_1104 : BitVec 32 := 0#32
  let v2658 : BitVec 1 := Scalar.cmpi .ne v2657 c0_i32_1104
  v2658

def k0_chk443 (i : grid0.Coords) (v2655 : BitVec 32) (v3074 : BitVec 32) : Prop :=
  (∀ (k0_h443 : k0_cond443 v2655 = 1#1), ∀ a, (k0_off1329 i v3074) a + S1x1x512.size a ≤ S1024x200x512.size a)
instance k0_chk443.dec : ∀ (i : grid0.Coords) (v2655 : BitVec 32) (v3074 : BitVec 32), Decidable (k0_chk443 i v2655 v3074) := fun i v2655 v3074 => decidable_of_iff' _ (Iff.of_eq (k0_chk443.eq_1 i v2655 v3074))
theorem k0_off1329_inb : ∀ (i : grid0.Coords) (v2655 : BitVec 32) (v3074 : BitVec 32) (k0_hw443 : k0_chk443 i v2655 v3074), ∀ (k0_h443 : k0_cond443 v2655 = 1#1), ∀ a, (k0_off1329 i v3074) a + S1x1x512.size a ≤ S1024x200x512.size a := fun i v2655 v3074 k0_hw443 k0_h443 => k0_hw443 k0_h443

def k0_off1330 (i : grid0.Coords) : Fin 1 → Nat :=
  let arg0 : BitVec 32 := BitVec.ofNat 32 (i 0).val
  let c256_i32 : BitVec 32 := 256#32
  let v0 : BitVec 32 := Scalar.muli arg0 c256_i32
  let c219_i32_1105 : BitVec 32 := 219#32
  let v2659 : BitVec 32 := Scalar.addi v0 c219_i32_1105
  let v2660 : Index := Scalar.indexCast v2659
  ![v2660.toNat]
def k0_off1331 (i : grid0.Coords) : Fin 1 → Nat :=
  let arg0 : BitVec 32 := BitVec.ofNat 32 (i 0).val
  let c256_i32 : BitVec 32 := 256#32
  let v0 : BitVec 32 := Scalar.muli arg0 c256_i32
  let c219_i32_1105 : BitVec 32 := 219#32
  let v2659 : BitVec 32 := Scalar.addi v0 c219_i32_1105
  let v3073 : Index := Scalar.indexCast v2659
  ![v3073.toNat]
def k0_off1332 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c219_i32_1105 : BitVec 32 := 219#32
  let v2659 : BitVec 32 := Scalar.addi v0 c219_i32_1105
  let c0_i32_1282 : BitVec 32 := 0#32
  ![v2659.toNat, v3074.toNat, 0]
def k0_cond444 (v2661 : BitVec 32) : BitVec 1 :=
  let c0_i32_1106 : BitVec 32 := 0#32
  let v2662 : BitVec 1 := Scalar.cmpi .sgt v2661 c0_i32_1106
  let v2663 : BitVec 32 := Scalar.extui v2662
  let c0_i32_1107 : BitVec 32 := 0#32
  let v2664 : BitVec 1 := Scalar.cmpi .ne v2663 c0_i32_1107
  v2664

def k0_chk444 (i : grid0.Coords) (v2661 : BitVec 32) (v3074 : BitVec 32) : Prop :=
  (∀ (k0_h444 : k0_cond444 v2661 = 1#1), ∀ a, (k0_off1332 i v3074) a + S1x1x512.size a ≤ S1024x200x512.size a)
instance k0_chk444.dec : ∀ (i : grid0.Coords) (v2661 : BitVec 32) (v3074 : BitVec 32), Decidable (k0_chk444 i v2661 v3074) := fun i v2661 v3074 => decidable_of_iff' _ (Iff.of_eq (k0_chk444.eq_1 i v2661 v3074))
theorem k0_off1332_inb : ∀ (i : grid0.Coords) (v2661 : BitVec 32) (v3074 : BitVec 32) (k0_hw444 : k0_chk444 i v2661 v3074), ∀ (k0_h444 : k0_cond444 v2661 = 1#1), ∀ a, (k0_off1332 i v3074) a + S1x1x512.size a ≤ S1024x200x512.size a := fun i v2661 v3074 k0_hw444 k0_h444 => k0_hw444 k0_h444

def k0_off1333 (i : grid0.Coords) : Fin 1 → Nat :=
  let arg0 : BitVec 32 := BitVec.ofNat 32 (i 0).val
  let c256_i32 : BitVec 32 := 256#32
  let v0 : BitVec 32 := Scalar.muli arg0 c256_i32
  let c220_i32_1108 : BitVec 32 := 220#32
  let v2665 : BitVec 32 := Scalar.addi v0 c220_i32_1108
  let v2666 : Index := Scalar.indexCast v2665
  ![v2666.toNat]
def k0_off1334 (i : grid0.Coords) : Fin 1 → Nat :=
  let arg0 : BitVec 32 := BitVec.ofNat 32 (i 0).val
  let c256_i32 : BitVec 32 := 256#32
  let v0 : BitVec 32 := Scalar.muli arg0 c256_i32
  let c220_i32_1108 : BitVec 32 := 220#32
  let v2665 : BitVec 32 := Scalar.addi v0 c220_i32_1108
  let v3073 : Index := Scalar.indexCast v2665
  ![v3073.toNat]
def k0_off1335 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c220_i32_1108 : BitVec 32 := 220#32
  let v2665 : BitVec 32 := Scalar.addi v0 c220_i32_1108
  let c0_i32_1282 : BitVec 32 := 0#32
  ![v2665.toNat, v3074.toNat, 0]
def k0_cond445 (v2667 : BitVec 32) : BitVec 1 :=
  let c0_i32_1109 : BitVec 32 := 0#32
  let v2668 : BitVec 1 := Scalar.cmpi .sgt v2667 c0_i32_1109
  let v2669 : BitVec 32 := Scalar.extui v2668
  let c0_i32_1110 : BitVec 32 := 0#32
  let v2670 : BitVec 1 := Scalar.cmpi .ne v2669 c0_i32_1110
  v2670

def k0_chk445 (i : grid0.Coords) (v2667 : BitVec 32) (v3074 : BitVec 32) : Prop :=
  (∀ (k0_h445 : k0_cond445 v2667 = 1#1), ∀ a, (k0_off1335 i v3074) a + S1x1x512.size a ≤ S1024x200x512.size a)
instance k0_chk445.dec : ∀ (i : grid0.Coords) (v2667 : BitVec 32) (v3074 : BitVec 32), Decidable (k0_chk445 i v2667 v3074) := fun i v2667 v3074 => decidable_of_iff' _ (Iff.of_eq (k0_chk445.eq_1 i v2667 v3074))
theorem k0_off1335_inb : ∀ (i : grid0.Coords) (v2667 : BitVec 32) (v3074 : BitVec 32) (k0_hw445 : k0_chk445 i v2667 v3074), ∀ (k0_h445 : k0_cond445 v2667 = 1#1), ∀ a, (k0_off1335 i v3074) a + S1x1x512.size a ≤ S1024x200x512.size a := fun i v2667 v3074 k0_hw445 k0_h445 => k0_hw445 k0_h445

def k0_off1336 (i : grid0.Coords) : Fin 1 → Nat :=
  let arg0 : BitVec 32 := BitVec.ofNat 32 (i 0).val
  let c256_i32 : BitVec 32 := 256#32
  let v0 : BitVec 32 := Scalar.muli arg0 c256_i32
  let c221_i32_1111 : BitVec 32 := 221#32
  let v2671 : BitVec 32 := Scalar.addi v0 c221_i32_1111
  let v2672 : Index := Scalar.indexCast v2671
  ![v2672.toNat]
def k0_off1337 (i : grid0.Coords) : Fin 1 → Nat :=
  let arg0 : BitVec 32 := BitVec.ofNat 32 (i 0).val
  let c256_i32 : BitVec 32 := 256#32
  let v0 : BitVec 32 := Scalar.muli arg0 c256_i32
  let c221_i32_1111 : BitVec 32 := 221#32
  let v2671 : BitVec 32 := Scalar.addi v0 c221_i32_1111
  let v3073 : Index := Scalar.indexCast v2671
  ![v3073.toNat]
def k0_off1338 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c221_i32_1111 : BitVec 32 := 221#32
  let v2671 : BitVec 32 := Scalar.addi v0 c221_i32_1111
  let c0_i32_1282 : BitVec 32 := 0#32
  ![v2671.toNat, v3074.toNat, 0]
def k0_cond446 (v2673 : BitVec 32) : BitVec 1 :=
  let c0_i32_1112 : BitVec 32 := 0#32
  let v2674 : BitVec 1 := Scalar.cmpi .sgt v2673 c0_i32_1112
  let v2675 : BitVec 32 := Scalar.extui v2674
  let c0_i32_1113 : BitVec 32 := 0#32
  let v2676 : BitVec 1 := Scalar.cmpi .ne v2675 c0_i32_1113
  v2676

def k0_chk446 (i : grid0.Coords) (v2673 : BitVec 32) (v3074 : BitVec 32) : Prop :=
  (∀ (k0_h446 : k0_cond446 v2673 = 1#1), ∀ a, (k0_off1338 i v3074) a + S1x1x512.size a ≤ S1024x200x512.size a)
instance k0_chk446.dec : ∀ (i : grid0.Coords) (v2673 : BitVec 32) (v3074 : BitVec 32), Decidable (k0_chk446 i v2673 v3074) := fun i v2673 v3074 => decidable_of_iff' _ (Iff.of_eq (k0_chk446.eq_1 i v2673 v3074))
theorem k0_off1338_inb : ∀ (i : grid0.Coords) (v2673 : BitVec 32) (v3074 : BitVec 32) (k0_hw446 : k0_chk446 i v2673 v3074), ∀ (k0_h446 : k0_cond446 v2673 = 1#1), ∀ a, (k0_off1338 i v3074) a + S1x1x512.size a ≤ S1024x200x512.size a := fun i v2673 v3074 k0_hw446 k0_h446 => k0_hw446 k0_h446

def k0_off1339 (i : grid0.Coords) : Fin 1 → Nat :=
  let arg0 : BitVec 32 := BitVec.ofNat 32 (i 0).val
  let c256_i32 : BitVec 32 := 256#32
  let v0 : BitVec 32 := Scalar.muli arg0 c256_i32
  let c222_i32_1114 : BitVec 32 := 222#32
  let v2677 : BitVec 32 := Scalar.addi v0 c222_i32_1114
  let v2678 : Index := Scalar.indexCast v2677
  ![v2678.toNat]
def k0_off1340 (i : grid0.Coords) : Fin 1 → Nat :=
  let arg0 : BitVec 32 := BitVec.ofNat 32 (i 0).val
  let c256_i32 : BitVec 32 := 256#32
  let v0 : BitVec 32 := Scalar.muli arg0 c256_i32
  let c222_i32_1114 : BitVec 32 := 222#32
  let v2677 : BitVec 32 := Scalar.addi v0 c222_i32_1114
  let v3073 : Index := Scalar.indexCast v2677
  ![v3073.toNat]
def k0_off1341 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c222_i32_1114 : BitVec 32 := 222#32
  let v2677 : BitVec 32 := Scalar.addi v0 c222_i32_1114
  let c0_i32_1282 : BitVec 32 := 0#32
  ![v2677.toNat, v3074.toNat, 0]
def k0_cond447 (v2679 : BitVec 32) : BitVec 1 :=
  let c0_i32_1115 : BitVec 32 := 0#32
  let v2680 : BitVec 1 := Scalar.cmpi .sgt v2679 c0_i32_1115
  let v2681 : BitVec 32 := Scalar.extui v2680
  let c0_i32_1116 : BitVec 32 := 0#32
  let v2682 : BitVec 1 := Scalar.cmpi .ne v2681 c0_i32_1116
  v2682

def k0_chk447 (i : grid0.Coords) (v2679 : BitVec 32) (v3074 : BitVec 32) : Prop :=
  (∀ (k0_h447 : k0_cond447 v2679 = 1#1), ∀ a, (k0_off1341 i v3074) a + S1x1x512.size a ≤ S1024x200x512.size a)
instance k0_chk447.dec : ∀ (i : grid0.Coords) (v2679 : BitVec 32) (v3074 : BitVec 32), Decidable (k0_chk447 i v2679 v3074) := fun i v2679 v3074 => decidable_of_iff' _ (Iff.of_eq (k0_chk447.eq_1 i v2679 v3074))
theorem k0_off1341_inb : ∀ (i : grid0.Coords) (v2679 : BitVec 32) (v3074 : BitVec 32) (k0_hw447 : k0_chk447 i v2679 v3074), ∀ (k0_h447 : k0_cond447 v2679 = 1#1), ∀ a, (k0_off1341 i v3074) a + S1x1x512.size a ≤ S1024x200x512.size a := fun i v2679 v3074 k0_hw447 k0_h447 => k0_hw447 k0_h447

def k0_off1342 (i : grid0.Coords) : Fin 1 → Nat :=
  let arg0 : BitVec 32 := BitVec.ofNat 32 (i 0).val
  let c256_i32 : BitVec 32 := 256#32
  let v0 : BitVec 32 := Scalar.muli arg0 c256_i32
  let c223_i32_1117 : BitVec 32 := 223#32
  let v2683 : BitVec 32 := Scalar.addi v0 c223_i32_1117
  let v2684 : Index := Scalar.indexCast v2683
  ![v2684.toNat]
def k0_off1343 (i : grid0.Coords) : Fin 1 → Nat :=
  let arg0 : BitVec 32 := BitVec.ofNat 32 (i 0).val
  let c256_i32 : BitVec 32 := 256#32
  let v0 : BitVec 32 := Scalar.muli arg0 c256_i32
  let c223_i32_1117 : BitVec 32 := 223#32
  let v2683 : BitVec 32 := Scalar.addi v0 c223_i32_1117
  let v3073 : Index := Scalar.indexCast v2683
  ![v3073.toNat]
def k0_off1344 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c223_i32_1117 : BitVec 32 := 223#32
  let v2683 : BitVec 32 := Scalar.addi v0 c223_i32_1117
  let c0_i32_1282 : BitVec 32 := 0#32
  ![v2683.toNat, v3074.toNat, 0]
def k0_cond448 (v2685 : BitVec 32) : BitVec 1 :=
  let c0_i32_1118 : BitVec 32 := 0#32
  let v2686 : BitVec 1 := Scalar.cmpi .sgt v2685 c0_i32_1118
  let v2687 : BitVec 32 := Scalar.extui v2686
  let c0_i32_1119 : BitVec 32 := 0#32
  let v2688 : BitVec 1 := Scalar.cmpi .ne v2687 c0_i32_1119
  v2688

def k0_chk448 (i : grid0.Coords) (v2685 : BitVec 32) (v3074 : BitVec 32) : Prop :=
  (∀ (k0_h448 : k0_cond448 v2685 = 1#1), ∀ a, (k0_off1344 i v3074) a + S1x1x512.size a ≤ S1024x200x512.size a)
instance k0_chk448.dec : ∀ (i : grid0.Coords) (v2685 : BitVec 32) (v3074 : BitVec 32), Decidable (k0_chk448 i v2685 v3074) := fun i v2685 v3074 => decidable_of_iff' _ (Iff.of_eq (k0_chk448.eq_1 i v2685 v3074))
theorem k0_off1344_inb : ∀ (i : grid0.Coords) (v2685 : BitVec 32) (v3074 : BitVec 32) (k0_hw448 : k0_chk448 i v2685 v3074), ∀ (k0_h448 : k0_cond448 v2685 = 1#1), ∀ a, (k0_off1344 i v3074) a + S1x1x512.size a ≤ S1024x200x512.size a := fun i v2685 v3074 k0_hw448 k0_h448 => k0_hw448 k0_h448

def k0_off1345 (i : grid0.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v2689 : BitVec 32 := Scalar.addi v0 c224_i32
  let v2690 : Index := Scalar.indexCast v2689
  ![v2690.toNat]
def k0_off1346 (i : grid0.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v2689 : BitVec 32 := Scalar.addi v0 c224_i32
  let v3073 : Index := Scalar.indexCast v2689
  ![v3073.toNat]
def k0_off1347 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c224_i32 : BitVec 32 := 224#32
  let v2689 : BitVec 32 := Scalar.addi v0 c224_i32
  let c0_i32_1287 : BitVec 32 := 0#32
  ![v2689.toNat, v3074.toNat, 0]
def k0_cond449 (v2691 : BitVec 32) : BitVec 1 :=
  let c0_i32_1120 : BitVec 32 := 0#32
  let v2692 : BitVec 1 := Scalar.cmpi .sgt v2691 c0_i32_1120
  let v2693 : BitVec 32 := Scalar.extui v2692
  let c0_i32_1121 : BitVec 32 := 0#32
  let v2694 : BitVec 1 := Scalar.cmpi .ne v2693 c0_i32_1121
  v2694

def k0_chk449 (i : grid0.Coords) (v2691 : BitVec 32) (v3074 : BitVec 32) : Prop :=
  (∀ (k0_h449 : k0_cond449 v2691 = 1#1), ∀ a, (k0_off1347 i v3074) a + S1x1x512.size a ≤ S1024x200x512.size a)
instance k0_chk449.dec : ∀ (i : grid0.Coords) (v2691 : BitVec 32) (v3074 : BitVec 32), Decidable (k0_chk449 i v2691 v3074) := fun i v2691 v3074 => decidable_of_iff' _ (Iff.of_eq (k0_chk449.eq_1 i v2691 v3074))
theorem k0_off1347_inb : ∀ (i : grid0.Coords) (v2691 : BitVec 32) (v3074 : BitVec 32) (k0_hw449 : k0_chk449 i v2691 v3074), ∀ (k0_h449 : k0_cond449 v2691 = 1#1), ∀ a, (k0_off1347 i v3074) a + S1x1x512.size a ≤ S1024x200x512.size a := fun i v2691 v3074 k0_hw449 k0_h449 => k0_hw449 k0_h449

def k0_off1348 (i : grid0.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v2695 : BitVec 32 := Scalar.addi v0 c225_i32
  let v2696 : Index := Scalar.indexCast v2695
  ![v2696.toNat]
def k0_off1349 (i : grid0.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v2695 : BitVec 32 := Scalar.addi v0 c225_i32
  let v3073 : Index := Scalar.indexCast v2695
  ![v3073.toNat]
def k0_off1350 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c225_i32 : BitVec 32 := 225#32
  let v2695 : BitVec 32 := Scalar.addi v0 c225_i32
  let c0_i32_1287 : BitVec 32 := 0#32
  ![v2695.toNat, v3074.toNat, 0]
def k0_cond450 (v2697 : BitVec 32) : BitVec 1 :=
  let c0_i32_1122 : BitVec 32 := 0#32
  let v2698 : BitVec 1 := Scalar.cmpi .sgt v2697 c0_i32_1122
  let v2699 : BitVec 32 := Scalar.extui v2698
  let c0_i32_1123 : BitVec 32 := 0#32
  let v2700 : BitVec 1 := Scalar.cmpi .ne v2699 c0_i32_1123
  v2700

def k0_chk450 (i : grid0.Coords) (v2697 : BitVec 32) (v3074 : BitVec 32) : Prop :=
  (∀ (k0_h450 : k0_cond450 v2697 = 1#1), ∀ a, (k0_off1350 i v3074) a + S1x1x512.size a ≤ S1024x200x512.size a)
instance k0_chk450.dec : ∀ (i : grid0.Coords) (v2697 : BitVec 32) (v3074 : BitVec 32), Decidable (k0_chk450 i v2697 v3074) := fun i v2697 v3074 => decidable_of_iff' _ (Iff.of_eq (k0_chk450.eq_1 i v2697 v3074))
theorem k0_off1350_inb : ∀ (i : grid0.Coords) (v2697 : BitVec 32) (v3074 : BitVec 32) (k0_hw450 : k0_chk450 i v2697 v3074), ∀ (k0_h450 : k0_cond450 v2697 = 1#1), ∀ a, (k0_off1350 i v3074) a + S1x1x512.size a ≤ S1024x200x512.size a := fun i v2697 v3074 k0_hw450 k0_h450 => k0_hw450 k0_h450

def k0_off1351 (i : grid0.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v2701 : BitVec 32 := Scalar.addi v0 c226_i32
  let v2702 : Index := Scalar.indexCast v2701
  ![v2702.toNat]
def k0_off1352 (i : grid0.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v2701 : BitVec 32 := Scalar.addi v0 c226_i32
  let v3073 : Index := Scalar.indexCast v2701
  ![v3073.toNat]
def k0_off1353 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c226_i32 : BitVec 32 := 226#32
  let v2701 : BitVec 32 := Scalar.addi v0 c226_i32
  let c0_i32_1287 : BitVec 32 := 0#32
  ![v2701.toNat, v3074.toNat, 0]
def k0_cond451 (v2703 : BitVec 32) : BitVec 1 :=
  let c0_i32_1124 : BitVec 32 := 0#32
  let v2704 : BitVec 1 := Scalar.cmpi .sgt v2703 c0_i32_1124
  let v2705 : BitVec 32 := Scalar.extui v2704
  let c0_i32_1125 : BitVec 32 := 0#32
  let v2706 : BitVec 1 := Scalar.cmpi .ne v2705 c0_i32_1125
  v2706

def k0_chk451 (i : grid0.Coords) (v2703 : BitVec 32) (v3074 : BitVec 32) : Prop :=
  (∀ (k0_h451 : k0_cond451 v2703 = 1#1), ∀ a, (k0_off1353 i v3074) a + S1x1x512.size a ≤ S1024x200x512.size a)
instance k0_chk451.dec : ∀ (i : grid0.Coords) (v2703 : BitVec 32) (v3074 : BitVec 32), Decidable (k0_chk451 i v2703 v3074) := fun i v2703 v3074 => decidable_of_iff' _ (Iff.of_eq (k0_chk451.eq_1 i v2703 v3074))
theorem k0_off1353_inb : ∀ (i : grid0.Coords) (v2703 : BitVec 32) (v3074 : BitVec 32) (k0_hw451 : k0_chk451 i v2703 v3074), ∀ (k0_h451 : k0_cond451 v2703 = 1#1), ∀ a, (k0_off1353 i v3074) a + S1x1x512.size a ≤ S1024x200x512.size a := fun i v2703 v3074 k0_hw451 k0_h451 => k0_hw451 k0_h451

def k0_off1354 (i : grid0.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v2707 : BitVec 32 := Scalar.addi v0 c227_i32
  let v2708 : Index := Scalar.indexCast v2707
  ![v2708.toNat]
def k0_off1355 (i : grid0.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v2707 : BitVec 32 := Scalar.addi v0 c227_i32
  let v3073 : Index := Scalar.indexCast v2707
  ![v3073.toNat]
def k0_off1356 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c227_i32 : BitVec 32 := 227#32
  let v2707 : BitVec 32 := Scalar.addi v0 c227_i32
  let c0_i32_1287 : BitVec 32 := 0#32
  ![v2707.toNat, v3074.toNat, 0]
def k0_cond452 (v2709 : BitVec 32) : BitVec 1 :=
  let c0_i32_1126 : BitVec 32 := 0#32
  let v2710 : BitVec 1 := Scalar.cmpi .sgt v2709 c0_i32_1126
  let v2711 : BitVec 32 := Scalar.extui v2710
  let c0_i32_1127 : BitVec 32 := 0#32
  let v2712 : BitVec 1 := Scalar.cmpi .ne v2711 c0_i32_1127
  v2712

def k0_chk452 (i : grid0.Coords) (v2709 : BitVec 32) (v3074 : BitVec 32) : Prop :=
  (∀ (k0_h452 : k0_cond452 v2709 = 1#1), ∀ a, (k0_off1356 i v3074) a + S1x1x512.size a ≤ S1024x200x512.size a)
instance k0_chk452.dec : ∀ (i : grid0.Coords) (v2709 : BitVec 32) (v3074 : BitVec 32), Decidable (k0_chk452 i v2709 v3074) := fun i v2709 v3074 => decidable_of_iff' _ (Iff.of_eq (k0_chk452.eq_1 i v2709 v3074))
theorem k0_off1356_inb : ∀ (i : grid0.Coords) (v2709 : BitVec 32) (v3074 : BitVec 32) (k0_hw452 : k0_chk452 i v2709 v3074), ∀ (k0_h452 : k0_cond452 v2709 = 1#1), ∀ a, (k0_off1356 i v3074) a + S1x1x512.size a ≤ S1024x200x512.size a := fun i v2709 v3074 k0_hw452 k0_h452 => k0_hw452 k0_h452

def k0_off1357 (i : grid0.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v2713 : BitVec 32 := Scalar.addi v0 c228_i32
  let v2714 : Index := Scalar.indexCast v2713
  ![v2714.toNat]
def k0_off1358 (i : grid0.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v2713 : BitVec 32 := Scalar.addi v0 c228_i32
  let v3073 : Index := Scalar.indexCast v2713
  ![v3073.toNat]
def k0_off1359 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c228_i32 : BitVec 32 := 228#32
  let v2713 : BitVec 32 := Scalar.addi v0 c228_i32
  let c0_i32_1287 : BitVec 32 := 0#32
  ![v2713.toNat, v3074.toNat, 0]
def k0_cond453 (v2715 : BitVec 32) : BitVec 1 :=
  let c0_i32_1128 : BitVec 32 := 0#32
  let v2716 : BitVec 1 := Scalar.cmpi .sgt v2715 c0_i32_1128
  let v2717 : BitVec 32 := Scalar.extui v2716
  let c0_i32_1129 : BitVec 32 := 0#32
  let v2718 : BitVec 1 := Scalar.cmpi .ne v2717 c0_i32_1129
  v2718

def k0_chk453 (i : grid0.Coords) (v2715 : BitVec 32) (v3074 : BitVec 32) : Prop :=
  (∀ (k0_h453 : k0_cond453 v2715 = 1#1), ∀ a, (k0_off1359 i v3074) a + S1x1x512.size a ≤ S1024x200x512.size a)
instance k0_chk453.dec : ∀ (i : grid0.Coords) (v2715 : BitVec 32) (v3074 : BitVec 32), Decidable (k0_chk453 i v2715 v3074) := fun i v2715 v3074 => decidable_of_iff' _ (Iff.of_eq (k0_chk453.eq_1 i v2715 v3074))
theorem k0_off1359_inb : ∀ (i : grid0.Coords) (v2715 : BitVec 32) (v3074 : BitVec 32) (k0_hw453 : k0_chk453 i v2715 v3074), ∀ (k0_h453 : k0_cond453 v2715 = 1#1), ∀ a, (k0_off1359 i v3074) a + S1x1x512.size a ≤ S1024x200x512.size a := fun i v2715 v3074 k0_hw453 k0_h453 => k0_hw453 k0_h453

def k0_off1360 (i : grid0.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v2719 : BitVec 32 := Scalar.addi v0 c229_i32
  let v2720 : Index := Scalar.indexCast v2719
  ![v2720.toNat]
def k0_off1361 (i : grid0.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v2719 : BitVec 32 := Scalar.addi v0 c229_i32
  let v3073 : Index := Scalar.indexCast v2719
  ![v3073.toNat]
def k0_off1362 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c229_i32 : BitVec 32 := 229#32
  let v2719 : BitVec 32 := Scalar.addi v0 c229_i32
  let c0_i32_1287 : BitVec 32 := 0#32
  ![v2719.toNat, v3074.toNat, 0]
def k0_cond454 (v2721 : BitVec 32) : BitVec 1 :=
  let c0_i32_1130 : BitVec 32 := 0#32
  let v2722 : BitVec 1 := Scalar.cmpi .sgt v2721 c0_i32_1130
  let v2723 : BitVec 32 := Scalar.extui v2722
  let c0_i32_1131 : BitVec 32 := 0#32
  let v2724 : BitVec 1 := Scalar.cmpi .ne v2723 c0_i32_1131
  v2724

def k0_chk454 (i : grid0.Coords) (v2721 : BitVec 32) (v3074 : BitVec 32) : Prop :=
  (∀ (k0_h454 : k0_cond454 v2721 = 1#1), ∀ a, (k0_off1362 i v3074) a + S1x1x512.size a ≤ S1024x200x512.size a)
instance k0_chk454.dec : ∀ (i : grid0.Coords) (v2721 : BitVec 32) (v3074 : BitVec 32), Decidable (k0_chk454 i v2721 v3074) := fun i v2721 v3074 => decidable_of_iff' _ (Iff.of_eq (k0_chk454.eq_1 i v2721 v3074))
theorem k0_off1362_inb : ∀ (i : grid0.Coords) (v2721 : BitVec 32) (v3074 : BitVec 32) (k0_hw454 : k0_chk454 i v2721 v3074), ∀ (k0_h454 : k0_cond454 v2721 = 1#1), ∀ a, (k0_off1362 i v3074) a + S1x1x512.size a ≤ S1024x200x512.size a := fun i v2721 v3074 k0_hw454 k0_h454 => k0_hw454 k0_h454

def k0_off1363 (i : grid0.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v2725 : BitVec 32 := Scalar.addi v0 c230_i32
  let v2726 : Index := Scalar.indexCast v2725
  ![v2726.toNat]
def k0_off1364 (i : grid0.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v2725 : BitVec 32 := Scalar.addi v0 c230_i32
  let v3073 : Index := Scalar.indexCast v2725
  ![v3073.toNat]
def k0_off1365 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c230_i32 : BitVec 32 := 230#32
  let v2725 : BitVec 32 := Scalar.addi v0 c230_i32
  let c0_i32_1287 : BitVec 32 := 0#32
  ![v2725.toNat, v3074.toNat, 0]
def k0_cond455 (v2727 : BitVec 32) : BitVec 1 :=
  let c0_i32_1132 : BitVec 32 := 0#32
  let v2728 : BitVec 1 := Scalar.cmpi .sgt v2727 c0_i32_1132
  let v2729 : BitVec 32 := Scalar.extui v2728
  let c0_i32_1133 : BitVec 32 := 0#32
  let v2730 : BitVec 1 := Scalar.cmpi .ne v2729 c0_i32_1133
  v2730

def k0_chk455 (i : grid0.Coords) (v2727 : BitVec 32) (v3074 : BitVec 32) : Prop :=
  (∀ (k0_h455 : k0_cond455 v2727 = 1#1), ∀ a, (k0_off1365 i v3074) a + S1x1x512.size a ≤ S1024x200x512.size a)
instance k0_chk455.dec : ∀ (i : grid0.Coords) (v2727 : BitVec 32) (v3074 : BitVec 32), Decidable (k0_chk455 i v2727 v3074) := fun i v2727 v3074 => decidable_of_iff' _ (Iff.of_eq (k0_chk455.eq_1 i v2727 v3074))
theorem k0_off1365_inb : ∀ (i : grid0.Coords) (v2727 : BitVec 32) (v3074 : BitVec 32) (k0_hw455 : k0_chk455 i v2727 v3074), ∀ (k0_h455 : k0_cond455 v2727 = 1#1), ∀ a, (k0_off1365 i v3074) a + S1x1x512.size a ≤ S1024x200x512.size a := fun i v2727 v3074 k0_hw455 k0_h455 => k0_hw455 k0_h455

def k0_off1366 (i : grid0.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v2731 : BitVec 32 := Scalar.addi v0 c231_i32
  let v2732 : Index := Scalar.indexCast v2731
  ![v2732.toNat]
def k0_off1367 (i : grid0.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v2731 : BitVec 32 := Scalar.addi v0 c231_i32
  let v3073 : Index := Scalar.indexCast v2731
  ![v3073.toNat]
def k0_off1368 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c231_i32 : BitVec 32 := 231#32
  let v2731 : BitVec 32 := Scalar.addi v0 c231_i32
  let c0_i32_1287 : BitVec 32 := 0#32
  ![v2731.toNat, v3074.toNat, 0]
def k0_cond456 (v2733 : BitVec 32) : BitVec 1 :=
  let c0_i32_1134 : BitVec 32 := 0#32
  let v2734 : BitVec 1 := Scalar.cmpi .sgt v2733 c0_i32_1134
  let v2735 : BitVec 32 := Scalar.extui v2734
  let c0_i32_1135 : BitVec 32 := 0#32
  let v2736 : BitVec 1 := Scalar.cmpi .ne v2735 c0_i32_1135
  v2736

def k0_chk456 (i : grid0.Coords) (v2733 : BitVec 32) (v3074 : BitVec 32) : Prop :=
  (∀ (k0_h456 : k0_cond456 v2733 = 1#1), ∀ a, (k0_off1368 i v3074) a + S1x1x512.size a ≤ S1024x200x512.size a)
instance k0_chk456.dec : ∀ (i : grid0.Coords) (v2733 : BitVec 32) (v3074 : BitVec 32), Decidable (k0_chk456 i v2733 v3074) := fun i v2733 v3074 => decidable_of_iff' _ (Iff.of_eq (k0_chk456.eq_1 i v2733 v3074))
theorem k0_off1368_inb : ∀ (i : grid0.Coords) (v2733 : BitVec 32) (v3074 : BitVec 32) (k0_hw456 : k0_chk456 i v2733 v3074), ∀ (k0_h456 : k0_cond456 v2733 = 1#1), ∀ a, (k0_off1368 i v3074) a + S1x1x512.size a ≤ S1024x200x512.size a := fun i v2733 v3074 k0_hw456 k0_h456 => k0_hw456 k0_h456

def k0_off1369 (i : grid0.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v2737 : BitVec 32 := Scalar.addi v0 c232_i32
  let v2738 : Index := Scalar.indexCast v2737
  ![v2738.toNat]
def k0_off1370 (i : grid0.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v2737 : BitVec 32 := Scalar.addi v0 c232_i32
  let v3073 : Index := Scalar.indexCast v2737
  ![v3073.toNat]
def k0_off1371 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c232_i32 : BitVec 32 := 232#32
  let v2737 : BitVec 32 := Scalar.addi v0 c232_i32
  let c0_i32_1287 : BitVec 32 := 0#32
  ![v2737.toNat, v3074.toNat, 0]
def k0_cond457 (v2739 : BitVec 32) : BitVec 1 :=
  let c0_i32_1136 : BitVec 32 := 0#32
  let v2740 : BitVec 1 := Scalar.cmpi .sgt v2739 c0_i32_1136
  let v2741 : BitVec 32 := Scalar.extui v2740
  let c0_i32_1137 : BitVec 32 := 0#32
  let v2742 : BitVec 1 := Scalar.cmpi .ne v2741 c0_i32_1137
  v2742

def k0_chk457 (i : grid0.Coords) (v2739 : BitVec 32) (v3074 : BitVec 32) : Prop :=
  (∀ (k0_h457 : k0_cond457 v2739 = 1#1), ∀ a, (k0_off1371 i v3074) a + S1x1x512.size a ≤ S1024x200x512.size a)
instance k0_chk457.dec : ∀ (i : grid0.Coords) (v2739 : BitVec 32) (v3074 : BitVec 32), Decidable (k0_chk457 i v2739 v3074) := fun i v2739 v3074 => decidable_of_iff' _ (Iff.of_eq (k0_chk457.eq_1 i v2739 v3074))
theorem k0_off1371_inb : ∀ (i : grid0.Coords) (v2739 : BitVec 32) (v3074 : BitVec 32) (k0_hw457 : k0_chk457 i v2739 v3074), ∀ (k0_h457 : k0_cond457 v2739 = 1#1), ∀ a, (k0_off1371 i v3074) a + S1x1x512.size a ≤ S1024x200x512.size a := fun i v2739 v3074 k0_hw457 k0_h457 => k0_hw457 k0_h457

def k0_off1372 (i : grid0.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v2743 : BitVec 32 := Scalar.addi v0 c233_i32
  let v2744 : Index := Scalar.indexCast v2743
  ![v2744.toNat]
def k0_off1373 (i : grid0.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v2743 : BitVec 32 := Scalar.addi v0 c233_i32
  let v3073 : Index := Scalar.indexCast v2743
  ![v3073.toNat]
def k0_off1374 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c233_i32 : BitVec 32 := 233#32
  let v2743 : BitVec 32 := Scalar.addi v0 c233_i32
  let c0_i32_1287 : BitVec 32 := 0#32
  ![v2743.toNat, v3074.toNat, 0]
def k0_cond458 (v2745 : BitVec 32) : BitVec 1 :=
  let c0_i32_1138 : BitVec 32 := 0#32
  let v2746 : BitVec 1 := Scalar.cmpi .sgt v2745 c0_i32_1138
  let v2747 : BitVec 32 := Scalar.extui v2746
  let c0_i32_1139 : BitVec 32 := 0#32
  let v2748 : BitVec 1 := Scalar.cmpi .ne v2747 c0_i32_1139
  v2748

def k0_chk458 (i : grid0.Coords) (v2745 : BitVec 32) (v3074 : BitVec 32) : Prop :=
  (∀ (k0_h458 : k0_cond458 v2745 = 1#1), ∀ a, (k0_off1374 i v3074) a + S1x1x512.size a ≤ S1024x200x512.size a)
instance k0_chk458.dec : ∀ (i : grid0.Coords) (v2745 : BitVec 32) (v3074 : BitVec 32), Decidable (k0_chk458 i v2745 v3074) := fun i v2745 v3074 => decidable_of_iff' _ (Iff.of_eq (k0_chk458.eq_1 i v2745 v3074))
theorem k0_off1374_inb : ∀ (i : grid0.Coords) (v2745 : BitVec 32) (v3074 : BitVec 32) (k0_hw458 : k0_chk458 i v2745 v3074), ∀ (k0_h458 : k0_cond458 v2745 = 1#1), ∀ a, (k0_off1374 i v3074) a + S1x1x512.size a ≤ S1024x200x512.size a := fun i v2745 v3074 k0_hw458 k0_h458 => k0_hw458 k0_h458

def k0_off1375 (i : grid0.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v2749 : BitVec 32 := Scalar.addi v0 c234_i32
  let v2750 : Index := Scalar.indexCast v2749
  ![v2750.toNat]
def k0_off1376 (i : grid0.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v2749 : BitVec 32 := Scalar.addi v0 c234_i32
  let v3073 : Index := Scalar.indexCast v2749
  ![v3073.toNat]
def k0_off1377 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c234_i32 : BitVec 32 := 234#32
  let v2749 : BitVec 32 := Scalar.addi v0 c234_i32
  let c0_i32_1287 : BitVec 32 := 0#32
  ![v2749.toNat, v3074.toNat, 0]
def k0_cond459 (v2751 : BitVec 32) : BitVec 1 :=
  let c0_i32_1140 : BitVec 32 := 0#32
  let v2752 : BitVec 1 := Scalar.cmpi .sgt v2751 c0_i32_1140
  let v2753 : BitVec 32 := Scalar.extui v2752
  let c0_i32_1141 : BitVec 32 := 0#32
  let v2754 : BitVec 1 := Scalar.cmpi .ne v2753 c0_i32_1141
  v2754

def k0_chk459 (i : grid0.Coords) (v2751 : BitVec 32) (v3074 : BitVec 32) : Prop :=
  (∀ (k0_h459 : k0_cond459 v2751 = 1#1), ∀ a, (k0_off1377 i v3074) a + S1x1x512.size a ≤ S1024x200x512.size a)
instance k0_chk459.dec : ∀ (i : grid0.Coords) (v2751 : BitVec 32) (v3074 : BitVec 32), Decidable (k0_chk459 i v2751 v3074) := fun i v2751 v3074 => decidable_of_iff' _ (Iff.of_eq (k0_chk459.eq_1 i v2751 v3074))
theorem k0_off1377_inb : ∀ (i : grid0.Coords) (v2751 : BitVec 32) (v3074 : BitVec 32) (k0_hw459 : k0_chk459 i v2751 v3074), ∀ (k0_h459 : k0_cond459 v2751 = 1#1), ∀ a, (k0_off1377 i v3074) a + S1x1x512.size a ≤ S1024x200x512.size a := fun i v2751 v3074 k0_hw459 k0_h459 => k0_hw459 k0_h459

def k0_off1378 (i : grid0.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v2755 : BitVec 32 := Scalar.addi v0 c235_i32
  let v2756 : Index := Scalar.indexCast v2755
  ![v2756.toNat]
def k0_off1379 (i : grid0.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v2755 : BitVec 32 := Scalar.addi v0 c235_i32
  let v3073 : Index := Scalar.indexCast v2755
  ![v3073.toNat]
def k0_off1380 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c235_i32 : BitVec 32 := 235#32
  let v2755 : BitVec 32 := Scalar.addi v0 c235_i32
  let c0_i32_1287 : BitVec 32 := 0#32
  ![v2755.toNat, v3074.toNat, 0]
def k0_cond460 (v2757 : BitVec 32) : BitVec 1 :=
  let c0_i32_1142 : BitVec 32 := 0#32
  let v2758 : BitVec 1 := Scalar.cmpi .sgt v2757 c0_i32_1142
  let v2759 : BitVec 32 := Scalar.extui v2758
  let c0_i32_1143 : BitVec 32 := 0#32
  let v2760 : BitVec 1 := Scalar.cmpi .ne v2759 c0_i32_1143
  v2760

def k0_chk460 (i : grid0.Coords) (v2757 : BitVec 32) (v3074 : BitVec 32) : Prop :=
  (∀ (k0_h460 : k0_cond460 v2757 = 1#1), ∀ a, (k0_off1380 i v3074) a + S1x1x512.size a ≤ S1024x200x512.size a)
instance k0_chk460.dec : ∀ (i : grid0.Coords) (v2757 : BitVec 32) (v3074 : BitVec 32), Decidable (k0_chk460 i v2757 v3074) := fun i v2757 v3074 => decidable_of_iff' _ (Iff.of_eq (k0_chk460.eq_1 i v2757 v3074))
theorem k0_off1380_inb : ∀ (i : grid0.Coords) (v2757 : BitVec 32) (v3074 : BitVec 32) (k0_hw460 : k0_chk460 i v2757 v3074), ∀ (k0_h460 : k0_cond460 v2757 = 1#1), ∀ a, (k0_off1380 i v3074) a + S1x1x512.size a ≤ S1024x200x512.size a := fun i v2757 v3074 k0_hw460 k0_h460 => k0_hw460 k0_h460

def k0_off1381 (i : grid0.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v2761 : BitVec 32 := Scalar.addi v0 c236_i32
  let v2762 : Index := Scalar.indexCast v2761
  ![v2762.toNat]
def k0_off1382 (i : grid0.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v2761 : BitVec 32 := Scalar.addi v0 c236_i32
  let v3073 : Index := Scalar.indexCast v2761
  ![v3073.toNat]
def k0_off1383 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c236_i32 : BitVec 32 := 236#32
  let v2761 : BitVec 32 := Scalar.addi v0 c236_i32
  let c0_i32_1287 : BitVec 32 := 0#32
  ![v2761.toNat, v3074.toNat, 0]
def k0_cond461 (v2763 : BitVec 32) : BitVec 1 :=
  let c0_i32_1144 : BitVec 32 := 0#32
  let v2764 : BitVec 1 := Scalar.cmpi .sgt v2763 c0_i32_1144
  let v2765 : BitVec 32 := Scalar.extui v2764
  let c0_i32_1145 : BitVec 32 := 0#32
  let v2766 : BitVec 1 := Scalar.cmpi .ne v2765 c0_i32_1145
  v2766

def k0_chk461 (i : grid0.Coords) (v2763 : BitVec 32) (v3074 : BitVec 32) : Prop :=
  (∀ (k0_h461 : k0_cond461 v2763 = 1#1), ∀ a, (k0_off1383 i v3074) a + S1x1x512.size a ≤ S1024x200x512.size a)
instance k0_chk461.dec : ∀ (i : grid0.Coords) (v2763 : BitVec 32) (v3074 : BitVec 32), Decidable (k0_chk461 i v2763 v3074) := fun i v2763 v3074 => decidable_of_iff' _ (Iff.of_eq (k0_chk461.eq_1 i v2763 v3074))
theorem k0_off1383_inb : ∀ (i : grid0.Coords) (v2763 : BitVec 32) (v3074 : BitVec 32) (k0_hw461 : k0_chk461 i v2763 v3074), ∀ (k0_h461 : k0_cond461 v2763 = 1#1), ∀ a, (k0_off1383 i v3074) a + S1x1x512.size a ≤ S1024x200x512.size a := fun i v2763 v3074 k0_hw461 k0_h461 => k0_hw461 k0_h461

def k0_off1384 (i : grid0.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v2767 : BitVec 32 := Scalar.addi v0 c237_i32
  let v2768 : Index := Scalar.indexCast v2767
  ![v2768.toNat]
def k0_off1385 (i : grid0.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v2767 : BitVec 32 := Scalar.addi v0 c237_i32
  let v3073 : Index := Scalar.indexCast v2767
  ![v3073.toNat]
def k0_off1386 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c237_i32 : BitVec 32 := 237#32
  let v2767 : BitVec 32 := Scalar.addi v0 c237_i32
  let c0_i32_1287 : BitVec 32 := 0#32
  ![v2767.toNat, v3074.toNat, 0]
def k0_cond462 (v2769 : BitVec 32) : BitVec 1 :=
  let c0_i32_1146 : BitVec 32 := 0#32
  let v2770 : BitVec 1 := Scalar.cmpi .sgt v2769 c0_i32_1146
  let v2771 : BitVec 32 := Scalar.extui v2770
  let c0_i32_1147 : BitVec 32 := 0#32
  let v2772 : BitVec 1 := Scalar.cmpi .ne v2771 c0_i32_1147
  v2772

def k0_chk462 (i : grid0.Coords) (v2769 : BitVec 32) (v3074 : BitVec 32) : Prop :=
  (∀ (k0_h462 : k0_cond462 v2769 = 1#1), ∀ a, (k0_off1386 i v3074) a + S1x1x512.size a ≤ S1024x200x512.size a)
instance k0_chk462.dec : ∀ (i : grid0.Coords) (v2769 : BitVec 32) (v3074 : BitVec 32), Decidable (k0_chk462 i v2769 v3074) := fun i v2769 v3074 => decidable_of_iff' _ (Iff.of_eq (k0_chk462.eq_1 i v2769 v3074))
theorem k0_off1386_inb : ∀ (i : grid0.Coords) (v2769 : BitVec 32) (v3074 : BitVec 32) (k0_hw462 : k0_chk462 i v2769 v3074), ∀ (k0_h462 : k0_cond462 v2769 = 1#1), ∀ a, (k0_off1386 i v3074) a + S1x1x512.size a ≤ S1024x200x512.size a := fun i v2769 v3074 k0_hw462 k0_h462 => k0_hw462 k0_h462

def k0_off1387 (i : grid0.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v2773 : BitVec 32 := Scalar.addi v0 c238_i32
  let v2774 : Index := Scalar.indexCast v2773
  ![v2774.toNat]
def k0_off1388 (i : grid0.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v2773 : BitVec 32 := Scalar.addi v0 c238_i32
  let v3073 : Index := Scalar.indexCast v2773
  ![v3073.toNat]
def k0_off1389 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c238_i32 : BitVec 32 := 238#32
  let v2773 : BitVec 32 := Scalar.addi v0 c238_i32
  let c0_i32_1287 : BitVec 32 := 0#32
  ![v2773.toNat, v3074.toNat, 0]
def k0_cond463 (v2775 : BitVec 32) : BitVec 1 :=
  let c0_i32_1148 : BitVec 32 := 0#32
  let v2776 : BitVec 1 := Scalar.cmpi .sgt v2775 c0_i32_1148
  let v2777 : BitVec 32 := Scalar.extui v2776
  let c0_i32_1149 : BitVec 32 := 0#32
  let v2778 : BitVec 1 := Scalar.cmpi .ne v2777 c0_i32_1149
  v2778

def k0_chk463 (i : grid0.Coords) (v2775 : BitVec 32) (v3074 : BitVec 32) : Prop :=
  (∀ (k0_h463 : k0_cond463 v2775 = 1#1), ∀ a, (k0_off1389 i v3074) a + S1x1x512.size a ≤ S1024x200x512.size a)
instance k0_chk463.dec : ∀ (i : grid0.Coords) (v2775 : BitVec 32) (v3074 : BitVec 32), Decidable (k0_chk463 i v2775 v3074) := fun i v2775 v3074 => decidable_of_iff' _ (Iff.of_eq (k0_chk463.eq_1 i v2775 v3074))
theorem k0_off1389_inb : ∀ (i : grid0.Coords) (v2775 : BitVec 32) (v3074 : BitVec 32) (k0_hw463 : k0_chk463 i v2775 v3074), ∀ (k0_h463 : k0_cond463 v2775 = 1#1), ∀ a, (k0_off1389 i v3074) a + S1x1x512.size a ≤ S1024x200x512.size a := fun i v2775 v3074 k0_hw463 k0_h463 => k0_hw463 k0_h463

def k0_off1390 (i : grid0.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v2779 : BitVec 32 := Scalar.addi v0 c239_i32
  let v2780 : Index := Scalar.indexCast v2779
  ![v2780.toNat]
def k0_off1391 (i : grid0.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v2779 : BitVec 32 := Scalar.addi v0 c239_i32
  let v3073 : Index := Scalar.indexCast v2779
  ![v3073.toNat]
def k0_off1392 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c239_i32 : BitVec 32 := 239#32
  let v2779 : BitVec 32 := Scalar.addi v0 c239_i32
  let c0_i32_1287 : BitVec 32 := 0#32
  ![v2779.toNat, v3074.toNat, 0]
def k0_cond464 (v2781 : BitVec 32) : BitVec 1 :=
  let c0_i32_1150 : BitVec 32 := 0#32
  let v2782 : BitVec 1 := Scalar.cmpi .sgt v2781 c0_i32_1150
  let v2783 : BitVec 32 := Scalar.extui v2782
  let c0_i32_1151 : BitVec 32 := 0#32
  let v2784 : BitVec 1 := Scalar.cmpi .ne v2783 c0_i32_1151
  v2784

def k0_chk464 (i : grid0.Coords) (v2781 : BitVec 32) (v3074 : BitVec 32) : Prop :=
  (∀ (k0_h464 : k0_cond464 v2781 = 1#1), ∀ a, (k0_off1392 i v3074) a + S1x1x512.size a ≤ S1024x200x512.size a)
instance k0_chk464.dec : ∀ (i : grid0.Coords) (v2781 : BitVec 32) (v3074 : BitVec 32), Decidable (k0_chk464 i v2781 v3074) := fun i v2781 v3074 => decidable_of_iff' _ (Iff.of_eq (k0_chk464.eq_1 i v2781 v3074))
theorem k0_off1392_inb : ∀ (i : grid0.Coords) (v2781 : BitVec 32) (v3074 : BitVec 32) (k0_hw464 : k0_chk464 i v2781 v3074), ∀ (k0_h464 : k0_cond464 v2781 = 1#1), ∀ a, (k0_off1392 i v3074) a + S1x1x512.size a ≤ S1024x200x512.size a := fun i v2781 v3074 k0_hw464 k0_h464 => k0_hw464 k0_h464

def k0_off1393 (i : grid0.Coords) : Fin 1 → Nat :=
  let arg0 : BitVec 32 := BitVec.ofNat 32 (i 0).val
  let c256_i32 : BitVec 32 := 256#32
  let v0 : BitVec 32 := Scalar.muli arg0 c256_i32
  let c224_i32_1152 : BitVec 32 := 224#32
  let v2785 : BitVec 32 := Scalar.addi v0 c224_i32_1152
  let v2786 : Index := Scalar.indexCast v2785
  ![v2786.toNat]
def k0_off1394 (i : grid0.Coords) : Fin 1 → Nat :=
  let arg0 : BitVec 32 := BitVec.ofNat 32 (i 0).val
  let c256_i32 : BitVec 32 := 256#32
  let v0 : BitVec 32 := Scalar.muli arg0 c256_i32
  let c224_i32_1152 : BitVec 32 := 224#32
  let v2785 : BitVec 32 := Scalar.addi v0 c224_i32_1152
  let v3073 : Index := Scalar.indexCast v2785
  ![v3073.toNat]
def k0_off1395 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c224_i32_1152 : BitVec 32 := 224#32
  let v2785 : BitVec 32 := Scalar.addi v0 c224_i32_1152
  let c0_i32_1282 : BitVec 32 := 0#32
  ![v2785.toNat, v3074.toNat, 0]
def k0_cond465 (v2787 : BitVec 32) : BitVec 1 :=
  let c0_i32_1153 : BitVec 32 := 0#32
  let v2788 : BitVec 1 := Scalar.cmpi .sgt v2787 c0_i32_1153
  let v2789 : BitVec 32 := Scalar.extui v2788
  let c0_i32_1154 : BitVec 32 := 0#32
  let v2790 : BitVec 1 := Scalar.cmpi .ne v2789 c0_i32_1154
  v2790

def k0_chk465 (i : grid0.Coords) (v2787 : BitVec 32) (v3074 : BitVec 32) : Prop :=
  (∀ (k0_h465 : k0_cond465 v2787 = 1#1), ∀ a, (k0_off1395 i v3074) a + S1x1x512.size a ≤ S1024x200x512.size a)
instance k0_chk465.dec : ∀ (i : grid0.Coords) (v2787 : BitVec 32) (v3074 : BitVec 32), Decidable (k0_chk465 i v2787 v3074) := fun i v2787 v3074 => decidable_of_iff' _ (Iff.of_eq (k0_chk465.eq_1 i v2787 v3074))
theorem k0_off1395_inb : ∀ (i : grid0.Coords) (v2787 : BitVec 32) (v3074 : BitVec 32) (k0_hw465 : k0_chk465 i v2787 v3074), ∀ (k0_h465 : k0_cond465 v2787 = 1#1), ∀ a, (k0_off1395 i v3074) a + S1x1x512.size a ≤ S1024x200x512.size a := fun i v2787 v3074 k0_hw465 k0_h465 => k0_hw465 k0_h465

def k0_off1396 (i : grid0.Coords) : Fin 1 → Nat :=
  let arg0 : BitVec 32 := BitVec.ofNat 32 (i 0).val
  let c256_i32 : BitVec 32 := 256#32
  let v0 : BitVec 32 := Scalar.muli arg0 c256_i32
  let c225_i32_1155 : BitVec 32 := 225#32
  let v2791 : BitVec 32 := Scalar.addi v0 c225_i32_1155
  let v2792 : Index := Scalar.indexCast v2791
  ![v2792.toNat]
def k0_off1397 (i : grid0.Coords) : Fin 1 → Nat :=
  let arg0 : BitVec 32 := BitVec.ofNat 32 (i 0).val
  let c256_i32 : BitVec 32 := 256#32
  let v0 : BitVec 32 := Scalar.muli arg0 c256_i32
  let c225_i32_1155 : BitVec 32 := 225#32
  let v2791 : BitVec 32 := Scalar.addi v0 c225_i32_1155
  let v3073 : Index := Scalar.indexCast v2791
  ![v3073.toNat]
def k0_off1398 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c225_i32_1155 : BitVec 32 := 225#32
  let v2791 : BitVec 32 := Scalar.addi v0 c225_i32_1155
  let c0_i32_1282 : BitVec 32 := 0#32
  ![v2791.toNat, v3074.toNat, 0]
def k0_cond466 (v2793 : BitVec 32) : BitVec 1 :=
  let c0_i32_1156 : BitVec 32 := 0#32
  let v2794 : BitVec 1 := Scalar.cmpi .sgt v2793 c0_i32_1156
  let v2795 : BitVec 32 := Scalar.extui v2794
  let c0_i32_1157 : BitVec 32 := 0#32
  let v2796 : BitVec 1 := Scalar.cmpi .ne v2795 c0_i32_1157
  v2796

def k0_chk466 (i : grid0.Coords) (v2793 : BitVec 32) (v3074 : BitVec 32) : Prop :=
  (∀ (k0_h466 : k0_cond466 v2793 = 1#1), ∀ a, (k0_off1398 i v3074) a + S1x1x512.size a ≤ S1024x200x512.size a)
instance k0_chk466.dec : ∀ (i : grid0.Coords) (v2793 : BitVec 32) (v3074 : BitVec 32), Decidable (k0_chk466 i v2793 v3074) := fun i v2793 v3074 => decidable_of_iff' _ (Iff.of_eq (k0_chk466.eq_1 i v2793 v3074))
theorem k0_off1398_inb : ∀ (i : grid0.Coords) (v2793 : BitVec 32) (v3074 : BitVec 32) (k0_hw466 : k0_chk466 i v2793 v3074), ∀ (k0_h466 : k0_cond466 v2793 = 1#1), ∀ a, (k0_off1398 i v3074) a + S1x1x512.size a ≤ S1024x200x512.size a := fun i v2793 v3074 k0_hw466 k0_h466 => k0_hw466 k0_h466

def k0_off1399 (i : grid0.Coords) : Fin 1 → Nat :=
  let arg0 : BitVec 32 := BitVec.ofNat 32 (i 0).val
  let c256_i32 : BitVec 32 := 256#32
  let v0 : BitVec 32 := Scalar.muli arg0 c256_i32
  let c226_i32_1158 : BitVec 32 := 226#32
  let v2797 : BitVec 32 := Scalar.addi v0 c226_i32_1158
  let v2798 : Index := Scalar.indexCast v2797
  ![v2798.toNat]
def k0_off1400 (i : grid0.Coords) : Fin 1 → Nat :=
  let arg0 : BitVec 32 := BitVec.ofNat 32 (i 0).val
  let c256_i32 : BitVec 32 := 256#32
  let v0 : BitVec 32 := Scalar.muli arg0 c256_i32
  let c226_i32_1158 : BitVec 32 := 226#32
  let v2797 : BitVec 32 := Scalar.addi v0 c226_i32_1158
  let v3073 : Index := Scalar.indexCast v2797
  ![v3073.toNat]
def k0_off1401 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c226_i32_1158 : BitVec 32 := 226#32
  let v2797 : BitVec 32 := Scalar.addi v0 c226_i32_1158
  let c0_i32_1282 : BitVec 32 := 0#32
  ![v2797.toNat, v3074.toNat, 0]
def k0_cond467 (v2799 : BitVec 32) : BitVec 1 :=
  let c0_i32_1159 : BitVec 32 := 0#32
  let v2800 : BitVec 1 := Scalar.cmpi .sgt v2799 c0_i32_1159
  let v2801 : BitVec 32 := Scalar.extui v2800
  let c0_i32_1160 : BitVec 32 := 0#32
  let v2802 : BitVec 1 := Scalar.cmpi .ne v2801 c0_i32_1160
  v2802

def k0_chk467 (i : grid0.Coords) (v2799 : BitVec 32) (v3074 : BitVec 32) : Prop :=
  (∀ (k0_h467 : k0_cond467 v2799 = 1#1), ∀ a, (k0_off1401 i v3074) a + S1x1x512.size a ≤ S1024x200x512.size a)
instance k0_chk467.dec : ∀ (i : grid0.Coords) (v2799 : BitVec 32) (v3074 : BitVec 32), Decidable (k0_chk467 i v2799 v3074) := fun i v2799 v3074 => decidable_of_iff' _ (Iff.of_eq (k0_chk467.eq_1 i v2799 v3074))
theorem k0_off1401_inb : ∀ (i : grid0.Coords) (v2799 : BitVec 32) (v3074 : BitVec 32) (k0_hw467 : k0_chk467 i v2799 v3074), ∀ (k0_h467 : k0_cond467 v2799 = 1#1), ∀ a, (k0_off1401 i v3074) a + S1x1x512.size a ≤ S1024x200x512.size a := fun i v2799 v3074 k0_hw467 k0_h467 => k0_hw467 k0_h467

def k0_off1402 (i : grid0.Coords) : Fin 1 → Nat :=
  let arg0 : BitVec 32 := BitVec.ofNat 32 (i 0).val
  let c256_i32 : BitVec 32 := 256#32
  let v0 : BitVec 32 := Scalar.muli arg0 c256_i32
  let c227_i32_1161 : BitVec 32 := 227#32
  let v2803 : BitVec 32 := Scalar.addi v0 c227_i32_1161
  let v2804 : Index := Scalar.indexCast v2803
  ![v2804.toNat]
def k0_off1403 (i : grid0.Coords) : Fin 1 → Nat :=
  let arg0 : BitVec 32 := BitVec.ofNat 32 (i 0).val
  let c256_i32 : BitVec 32 := 256#32
  let v0 : BitVec 32 := Scalar.muli arg0 c256_i32
  let c227_i32_1161 : BitVec 32 := 227#32
  let v2803 : BitVec 32 := Scalar.addi v0 c227_i32_1161
  let v3073 : Index := Scalar.indexCast v2803
  ![v3073.toNat]
def k0_off1404 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c227_i32_1161 : BitVec 32 := 227#32
  let v2803 : BitVec 32 := Scalar.addi v0 c227_i32_1161
  let c0_i32_1282 : BitVec 32 := 0#32
  ![v2803.toNat, v3074.toNat, 0]
def k0_cond468 (v2805 : BitVec 32) : BitVec 1 :=
  let c0_i32_1162 : BitVec 32 := 0#32
  let v2806 : BitVec 1 := Scalar.cmpi .sgt v2805 c0_i32_1162
  let v2807 : BitVec 32 := Scalar.extui v2806
  let c0_i32_1163 : BitVec 32 := 0#32
  let v2808 : BitVec 1 := Scalar.cmpi .ne v2807 c0_i32_1163
  v2808

def k0_chk468 (i : grid0.Coords) (v2805 : BitVec 32) (v3074 : BitVec 32) : Prop :=
  (∀ (k0_h468 : k0_cond468 v2805 = 1#1), ∀ a, (k0_off1404 i v3074) a + S1x1x512.size a ≤ S1024x200x512.size a)
instance k0_chk468.dec : ∀ (i : grid0.Coords) (v2805 : BitVec 32) (v3074 : BitVec 32), Decidable (k0_chk468 i v2805 v3074) := fun i v2805 v3074 => decidable_of_iff' _ (Iff.of_eq (k0_chk468.eq_1 i v2805 v3074))
theorem k0_off1404_inb : ∀ (i : grid0.Coords) (v2805 : BitVec 32) (v3074 : BitVec 32) (k0_hw468 : k0_chk468 i v2805 v3074), ∀ (k0_h468 : k0_cond468 v2805 = 1#1), ∀ a, (k0_off1404 i v3074) a + S1x1x512.size a ≤ S1024x200x512.size a := fun i v2805 v3074 k0_hw468 k0_h468 => k0_hw468 k0_h468

def k0_off1405 (i : grid0.Coords) : Fin 1 → Nat :=
  let arg0 : BitVec 32 := BitVec.ofNat 32 (i 0).val
  let c256_i32 : BitVec 32 := 256#32
  let v0 : BitVec 32 := Scalar.muli arg0 c256_i32
  let c228_i32_1164 : BitVec 32 := 228#32
  let v2809 : BitVec 32 := Scalar.addi v0 c228_i32_1164
  let v2810 : Index := Scalar.indexCast v2809
  ![v2810.toNat]
def k0_off1406 (i : grid0.Coords) : Fin 1 → Nat :=
  let arg0 : BitVec 32 := BitVec.ofNat 32 (i 0).val
  let c256_i32 : BitVec 32 := 256#32
  let v0 : BitVec 32 := Scalar.muli arg0 c256_i32
  let c228_i32_1164 : BitVec 32 := 228#32
  let v2809 : BitVec 32 := Scalar.addi v0 c228_i32_1164
  let v3073 : Index := Scalar.indexCast v2809
  ![v3073.toNat]
def k0_off1407 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c228_i32_1164 : BitVec 32 := 228#32
  let v2809 : BitVec 32 := Scalar.addi v0 c228_i32_1164
  let c0_i32_1282 : BitVec 32 := 0#32
  ![v2809.toNat, v3074.toNat, 0]
def k0_cond469 (v2811 : BitVec 32) : BitVec 1 :=
  let c0_i32_1165 : BitVec 32 := 0#32
  let v2812 : BitVec 1 := Scalar.cmpi .sgt v2811 c0_i32_1165
  let v2813 : BitVec 32 := Scalar.extui v2812
  let c0_i32_1166 : BitVec 32 := 0#32
  let v2814 : BitVec 1 := Scalar.cmpi .ne v2813 c0_i32_1166
  v2814

def k0_chk469 (i : grid0.Coords) (v2811 : BitVec 32) (v3074 : BitVec 32) : Prop :=
  (∀ (k0_h469 : k0_cond469 v2811 = 1#1), ∀ a, (k0_off1407 i v3074) a + S1x1x512.size a ≤ S1024x200x512.size a)
instance k0_chk469.dec : ∀ (i : grid0.Coords) (v2811 : BitVec 32) (v3074 : BitVec 32), Decidable (k0_chk469 i v2811 v3074) := fun i v2811 v3074 => decidable_of_iff' _ (Iff.of_eq (k0_chk469.eq_1 i v2811 v3074))
theorem k0_off1407_inb : ∀ (i : grid0.Coords) (v2811 : BitVec 32) (v3074 : BitVec 32) (k0_hw469 : k0_chk469 i v2811 v3074), ∀ (k0_h469 : k0_cond469 v2811 = 1#1), ∀ a, (k0_off1407 i v3074) a + S1x1x512.size a ≤ S1024x200x512.size a := fun i v2811 v3074 k0_hw469 k0_h469 => k0_hw469 k0_h469

def k0_off1408 (i : grid0.Coords) : Fin 1 → Nat :=
  let arg0 : BitVec 32 := BitVec.ofNat 32 (i 0).val
  let c256_i32 : BitVec 32 := 256#32
  let v0 : BitVec 32 := Scalar.muli arg0 c256_i32
  let c229_i32_1167 : BitVec 32 := 229#32
  let v2815 : BitVec 32 := Scalar.addi v0 c229_i32_1167
  let v2816 : Index := Scalar.indexCast v2815
  ![v2816.toNat]
def k0_off1409 (i : grid0.Coords) : Fin 1 → Nat :=
  let arg0 : BitVec 32 := BitVec.ofNat 32 (i 0).val
  let c256_i32 : BitVec 32 := 256#32
  let v0 : BitVec 32 := Scalar.muli arg0 c256_i32
  let c229_i32_1167 : BitVec 32 := 229#32
  let v2815 : BitVec 32 := Scalar.addi v0 c229_i32_1167
  let v3073 : Index := Scalar.indexCast v2815
  ![v3073.toNat]
def k0_off1410 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c229_i32_1167 : BitVec 32 := 229#32
  let v2815 : BitVec 32 := Scalar.addi v0 c229_i32_1167
  let c0_i32_1282 : BitVec 32 := 0#32
  ![v2815.toNat, v3074.toNat, 0]
def k0_cond470 (v2817 : BitVec 32) : BitVec 1 :=
  let c0_i32_1168 : BitVec 32 := 0#32
  let v2818 : BitVec 1 := Scalar.cmpi .sgt v2817 c0_i32_1168
  let v2819 : BitVec 32 := Scalar.extui v2818
  let c0_i32_1169 : BitVec 32 := 0#32
  let v2820 : BitVec 1 := Scalar.cmpi .ne v2819 c0_i32_1169
  v2820

def k0_chk470 (i : grid0.Coords) (v2817 : BitVec 32) (v3074 : BitVec 32) : Prop :=
  (∀ (k0_h470 : k0_cond470 v2817 = 1#1), ∀ a, (k0_off1410 i v3074) a + S1x1x512.size a ≤ S1024x200x512.size a)
instance k0_chk470.dec : ∀ (i : grid0.Coords) (v2817 : BitVec 32) (v3074 : BitVec 32), Decidable (k0_chk470 i v2817 v3074) := fun i v2817 v3074 => decidable_of_iff' _ (Iff.of_eq (k0_chk470.eq_1 i v2817 v3074))
theorem k0_off1410_inb : ∀ (i : grid0.Coords) (v2817 : BitVec 32) (v3074 : BitVec 32) (k0_hw470 : k0_chk470 i v2817 v3074), ∀ (k0_h470 : k0_cond470 v2817 = 1#1), ∀ a, (k0_off1410 i v3074) a + S1x1x512.size a ≤ S1024x200x512.size a := fun i v2817 v3074 k0_hw470 k0_h470 => k0_hw470 k0_h470

def k0_off1411 (i : grid0.Coords) : Fin 1 → Nat :=
  let arg0 : BitVec 32 := BitVec.ofNat 32 (i 0).val
  let c256_i32 : BitVec 32 := 256#32
  let v0 : BitVec 32 := Scalar.muli arg0 c256_i32
  let c230_i32_1170 : BitVec 32 := 230#32
  let v2821 : BitVec 32 := Scalar.addi v0 c230_i32_1170
  let v2822 : Index := Scalar.indexCast v2821
  ![v2822.toNat]
def k0_off1412 (i : grid0.Coords) : Fin 1 → Nat :=
  let arg0 : BitVec 32 := BitVec.ofNat 32 (i 0).val
  let c256_i32 : BitVec 32 := 256#32
  let v0 : BitVec 32 := Scalar.muli arg0 c256_i32
  let c230_i32_1170 : BitVec 32 := 230#32
  let v2821 : BitVec 32 := Scalar.addi v0 c230_i32_1170
  let v3073 : Index := Scalar.indexCast v2821
  ![v3073.toNat]
def k0_off1413 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c230_i32_1170 : BitVec 32 := 230#32
  let v2821 : BitVec 32 := Scalar.addi v0 c230_i32_1170
  let c0_i32_1282 : BitVec 32 := 0#32
  ![v2821.toNat, v3074.toNat, 0]
def k0_cond471 (v2823 : BitVec 32) : BitVec 1 :=
  let c0_i32_1171 : BitVec 32 := 0#32
  let v2824 : BitVec 1 := Scalar.cmpi .sgt v2823 c0_i32_1171
  let v2825 : BitVec 32 := Scalar.extui v2824
  let c0_i32_1172 : BitVec 32 := 0#32
  let v2826 : BitVec 1 := Scalar.cmpi .ne v2825 c0_i32_1172
  v2826

def k0_chk471 (i : grid0.Coords) (v2823 : BitVec 32) (v3074 : BitVec 32) : Prop :=
  (∀ (k0_h471 : k0_cond471 v2823 = 1#1), ∀ a, (k0_off1413 i v3074) a + S1x1x512.size a ≤ S1024x200x512.size a)
instance k0_chk471.dec : ∀ (i : grid0.Coords) (v2823 : BitVec 32) (v3074 : BitVec 32), Decidable (k0_chk471 i v2823 v3074) := fun i v2823 v3074 => decidable_of_iff' _ (Iff.of_eq (k0_chk471.eq_1 i v2823 v3074))
theorem k0_off1413_inb : ∀ (i : grid0.Coords) (v2823 : BitVec 32) (v3074 : BitVec 32) (k0_hw471 : k0_chk471 i v2823 v3074), ∀ (k0_h471 : k0_cond471 v2823 = 1#1), ∀ a, (k0_off1413 i v3074) a + S1x1x512.size a ≤ S1024x200x512.size a := fun i v2823 v3074 k0_hw471 k0_h471 => k0_hw471 k0_h471

def k0_off1414 (i : grid0.Coords) : Fin 1 → Nat :=
  let arg0 : BitVec 32 := BitVec.ofNat 32 (i 0).val
  let c256_i32 : BitVec 32 := 256#32
  let v0 : BitVec 32 := Scalar.muli arg0 c256_i32
  let c231_i32_1173 : BitVec 32 := 231#32
  let v2827 : BitVec 32 := Scalar.addi v0 c231_i32_1173
  let v2828 : Index := Scalar.indexCast v2827
  ![v2828.toNat]
def k0_off1415 (i : grid0.Coords) : Fin 1 → Nat :=
  let arg0 : BitVec 32 := BitVec.ofNat 32 (i 0).val
  let c256_i32 : BitVec 32 := 256#32
  let v0 : BitVec 32 := Scalar.muli arg0 c256_i32
  let c231_i32_1173 : BitVec 32 := 231#32
  let v2827 : BitVec 32 := Scalar.addi v0 c231_i32_1173
  let v3073 : Index := Scalar.indexCast v2827
  ![v3073.toNat]
def k0_off1416 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c231_i32_1173 : BitVec 32 := 231#32
  let v2827 : BitVec 32 := Scalar.addi v0 c231_i32_1173
  let c0_i32_1282 : BitVec 32 := 0#32
  ![v2827.toNat, v3074.toNat, 0]
def k0_cond472 (v2829 : BitVec 32) : BitVec 1 :=
  let c0_i32_1174 : BitVec 32 := 0#32
  let v2830 : BitVec 1 := Scalar.cmpi .sgt v2829 c0_i32_1174
  let v2831 : BitVec 32 := Scalar.extui v2830
  let c0_i32_1175 : BitVec 32 := 0#32
  let v2832 : BitVec 1 := Scalar.cmpi .ne v2831 c0_i32_1175
  v2832

def k0_chk472 (i : grid0.Coords) (v2829 : BitVec 32) (v3074 : BitVec 32) : Prop :=
  (∀ (k0_h472 : k0_cond472 v2829 = 1#1), ∀ a, (k0_off1416 i v3074) a + S1x1x512.size a ≤ S1024x200x512.size a)
instance k0_chk472.dec : ∀ (i : grid0.Coords) (v2829 : BitVec 32) (v3074 : BitVec 32), Decidable (k0_chk472 i v2829 v3074) := fun i v2829 v3074 => decidable_of_iff' _ (Iff.of_eq (k0_chk472.eq_1 i v2829 v3074))
theorem k0_off1416_inb : ∀ (i : grid0.Coords) (v2829 : BitVec 32) (v3074 : BitVec 32) (k0_hw472 : k0_chk472 i v2829 v3074), ∀ (k0_h472 : k0_cond472 v2829 = 1#1), ∀ a, (k0_off1416 i v3074) a + S1x1x512.size a ≤ S1024x200x512.size a := fun i v2829 v3074 k0_hw472 k0_h472 => k0_hw472 k0_h472

def k0_off1417 (i : grid0.Coords) : Fin 1 → Nat :=
  let arg0 : BitVec 32 := BitVec.ofNat 32 (i 0).val
  let c256_i32 : BitVec 32 := 256#32
  let v0 : BitVec 32 := Scalar.muli arg0 c256_i32
  let c232_i32_1176 : BitVec 32 := 232#32
  let v2833 : BitVec 32 := Scalar.addi v0 c232_i32_1176
  let v2834 : Index := Scalar.indexCast v2833
  ![v2834.toNat]
def k0_off1418 (i : grid0.Coords) : Fin 1 → Nat :=
  let arg0 : BitVec 32 := BitVec.ofNat 32 (i 0).val
  let c256_i32 : BitVec 32 := 256#32
  let v0 : BitVec 32 := Scalar.muli arg0 c256_i32
  let c232_i32_1176 : BitVec 32 := 232#32
  let v2833 : BitVec 32 := Scalar.addi v0 c232_i32_1176
  let v3073 : Index := Scalar.indexCast v2833
  ![v3073.toNat]
def k0_off1419 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c232_i32_1176 : BitVec 32 := 232#32
  let v2833 : BitVec 32 := Scalar.addi v0 c232_i32_1176
  let c0_i32_1282 : BitVec 32 := 0#32
  ![v2833.toNat, v3074.toNat, 0]
def k0_cond473 (v2835 : BitVec 32) : BitVec 1 :=
  let c0_i32_1177 : BitVec 32 := 0#32
  let v2836 : BitVec 1 := Scalar.cmpi .sgt v2835 c0_i32_1177
  let v2837 : BitVec 32 := Scalar.extui v2836
  let c0_i32_1178 : BitVec 32 := 0#32
  let v2838 : BitVec 1 := Scalar.cmpi .ne v2837 c0_i32_1178
  v2838

def k0_chk473 (i : grid0.Coords) (v2835 : BitVec 32) (v3074 : BitVec 32) : Prop :=
  (∀ (k0_h473 : k0_cond473 v2835 = 1#1), ∀ a, (k0_off1419 i v3074) a + S1x1x512.size a ≤ S1024x200x512.size a)
instance k0_chk473.dec : ∀ (i : grid0.Coords) (v2835 : BitVec 32) (v3074 : BitVec 32), Decidable (k0_chk473 i v2835 v3074) := fun i v2835 v3074 => decidable_of_iff' _ (Iff.of_eq (k0_chk473.eq_1 i v2835 v3074))
theorem k0_off1419_inb : ∀ (i : grid0.Coords) (v2835 : BitVec 32) (v3074 : BitVec 32) (k0_hw473 : k0_chk473 i v2835 v3074), ∀ (k0_h473 : k0_cond473 v2835 = 1#1), ∀ a, (k0_off1419 i v3074) a + S1x1x512.size a ≤ S1024x200x512.size a := fun i v2835 v3074 k0_hw473 k0_h473 => k0_hw473 k0_h473

def k0_off1420 (i : grid0.Coords) : Fin 1 → Nat :=
  let arg0 : BitVec 32 := BitVec.ofNat 32 (i 0).val
  let c256_i32 : BitVec 32 := 256#32
  let v0 : BitVec 32 := Scalar.muli arg0 c256_i32
  let c233_i32_1179 : BitVec 32 := 233#32
  let v2839 : BitVec 32 := Scalar.addi v0 c233_i32_1179
  let v2840 : Index := Scalar.indexCast v2839
  ![v2840.toNat]
def k0_off1421 (i : grid0.Coords) : Fin 1 → Nat :=
  let arg0 : BitVec 32 := BitVec.ofNat 32 (i 0).val
  let c256_i32 : BitVec 32 := 256#32
  let v0 : BitVec 32 := Scalar.muli arg0 c256_i32
  let c233_i32_1179 : BitVec 32 := 233#32
  let v2839 : BitVec 32 := Scalar.addi v0 c233_i32_1179
  let v3073 : Index := Scalar.indexCast v2839
  ![v3073.toNat]
def k0_off1422 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c233_i32_1179 : BitVec 32 := 233#32
  let v2839 : BitVec 32 := Scalar.addi v0 c233_i32_1179
  let c0_i32_1282 : BitVec 32 := 0#32
  ![v2839.toNat, v3074.toNat, 0]
def k0_cond474 (v2841 : BitVec 32) : BitVec 1 :=
  let c0_i32_1180 : BitVec 32 := 0#32
  let v2842 : BitVec 1 := Scalar.cmpi .sgt v2841 c0_i32_1180
  let v2843 : BitVec 32 := Scalar.extui v2842
  let c0_i32_1181 : BitVec 32 := 0#32
  let v2844 : BitVec 1 := Scalar.cmpi .ne v2843 c0_i32_1181
  v2844

def k0_chk474 (i : grid0.Coords) (v2841 : BitVec 32) (v3074 : BitVec 32) : Prop :=
  (∀ (k0_h474 : k0_cond474 v2841 = 1#1), ∀ a, (k0_off1422 i v3074) a + S1x1x512.size a ≤ S1024x200x512.size a)
instance k0_chk474.dec : ∀ (i : grid0.Coords) (v2841 : BitVec 32) (v3074 : BitVec 32), Decidable (k0_chk474 i v2841 v3074) := fun i v2841 v3074 => decidable_of_iff' _ (Iff.of_eq (k0_chk474.eq_1 i v2841 v3074))
theorem k0_off1422_inb : ∀ (i : grid0.Coords) (v2841 : BitVec 32) (v3074 : BitVec 32) (k0_hw474 : k0_chk474 i v2841 v3074), ∀ (k0_h474 : k0_cond474 v2841 = 1#1), ∀ a, (k0_off1422 i v3074) a + S1x1x512.size a ≤ S1024x200x512.size a := fun i v2841 v3074 k0_hw474 k0_h474 => k0_hw474 k0_h474

def k0_off1423 (i : grid0.Coords) : Fin 1 → Nat :=
  let arg0 : BitVec 32 := BitVec.ofNat 32 (i 0).val
  let c256_i32 : BitVec 32 := 256#32
  let v0 : BitVec 32 := Scalar.muli arg0 c256_i32
  let c234_i32_1182 : BitVec 32 := 234#32
  let v2845 : BitVec 32 := Scalar.addi v0 c234_i32_1182
  let v2846 : Index := Scalar.indexCast v2845
  ![v2846.toNat]
def k0_off1424 (i : grid0.Coords) : Fin 1 → Nat :=
  let arg0 : BitVec 32 := BitVec.ofNat 32 (i 0).val
  let c256_i32 : BitVec 32 := 256#32
  let v0 : BitVec 32 := Scalar.muli arg0 c256_i32
  let c234_i32_1182 : BitVec 32 := 234#32
  let v2845 : BitVec 32 := Scalar.addi v0 c234_i32_1182
  let v3073 : Index := Scalar.indexCast v2845
  ![v3073.toNat]
def k0_off1425 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c234_i32_1182 : BitVec 32 := 234#32
  let v2845 : BitVec 32 := Scalar.addi v0 c234_i32_1182
  let c0_i32_1282 : BitVec 32 := 0#32
  ![v2845.toNat, v3074.toNat, 0]
def k0_cond475 (v2847 : BitVec 32) : BitVec 1 :=
  let c0_i32_1183 : BitVec 32 := 0#32
  let v2848 : BitVec 1 := Scalar.cmpi .sgt v2847 c0_i32_1183
  let v2849 : BitVec 32 := Scalar.extui v2848
  let c0_i32_1184 : BitVec 32 := 0#32
  let v2850 : BitVec 1 := Scalar.cmpi .ne v2849 c0_i32_1184
  v2850

def k0_chk475 (i : grid0.Coords) (v2847 : BitVec 32) (v3074 : BitVec 32) : Prop :=
  (∀ (k0_h475 : k0_cond475 v2847 = 1#1), ∀ a, (k0_off1425 i v3074) a + S1x1x512.size a ≤ S1024x200x512.size a)
instance k0_chk475.dec : ∀ (i : grid0.Coords) (v2847 : BitVec 32) (v3074 : BitVec 32), Decidable (k0_chk475 i v2847 v3074) := fun i v2847 v3074 => decidable_of_iff' _ (Iff.of_eq (k0_chk475.eq_1 i v2847 v3074))
theorem k0_off1425_inb : ∀ (i : grid0.Coords) (v2847 : BitVec 32) (v3074 : BitVec 32) (k0_hw475 : k0_chk475 i v2847 v3074), ∀ (k0_h475 : k0_cond475 v2847 = 1#1), ∀ a, (k0_off1425 i v3074) a + S1x1x512.size a ≤ S1024x200x512.size a := fun i v2847 v3074 k0_hw475 k0_h475 => k0_hw475 k0_h475

def k0_off1426 (i : grid0.Coords) : Fin 1 → Nat :=
  let arg0 : BitVec 32 := BitVec.ofNat 32 (i 0).val
  let c256_i32 : BitVec 32 := 256#32
  let v0 : BitVec 32 := Scalar.muli arg0 c256_i32
  let c235_i32_1185 : BitVec 32 := 235#32
  let v2851 : BitVec 32 := Scalar.addi v0 c235_i32_1185
  let v2852 : Index := Scalar.indexCast v2851
  ![v2852.toNat]
def k0_off1427 (i : grid0.Coords) : Fin 1 → Nat :=
  let arg0 : BitVec 32 := BitVec.ofNat 32 (i 0).val
  let c256_i32 : BitVec 32 := 256#32
  let v0 : BitVec 32 := Scalar.muli arg0 c256_i32
  let c235_i32_1185 : BitVec 32 := 235#32
  let v2851 : BitVec 32 := Scalar.addi v0 c235_i32_1185
  let v3073 : Index := Scalar.indexCast v2851
  ![v3073.toNat]
def k0_off1428 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c235_i32_1185 : BitVec 32 := 235#32
  let v2851 : BitVec 32 := Scalar.addi v0 c235_i32_1185
  let c0_i32_1282 : BitVec 32 := 0#32
  ![v2851.toNat, v3074.toNat, 0]
def k0_cond476 (v2853 : BitVec 32) : BitVec 1 :=
  let c0_i32_1186 : BitVec 32 := 0#32
  let v2854 : BitVec 1 := Scalar.cmpi .sgt v2853 c0_i32_1186
  let v2855 : BitVec 32 := Scalar.extui v2854
  let c0_i32_1187 : BitVec 32 := 0#32
  let v2856 : BitVec 1 := Scalar.cmpi .ne v2855 c0_i32_1187
  v2856

def k0_chk476 (i : grid0.Coords) (v2853 : BitVec 32) (v3074 : BitVec 32) : Prop :=
  (∀ (k0_h476 : k0_cond476 v2853 = 1#1), ∀ a, (k0_off1428 i v3074) a + S1x1x512.size a ≤ S1024x200x512.size a)
instance k0_chk476.dec : ∀ (i : grid0.Coords) (v2853 : BitVec 32) (v3074 : BitVec 32), Decidable (k0_chk476 i v2853 v3074) := fun i v2853 v3074 => decidable_of_iff' _ (Iff.of_eq (k0_chk476.eq_1 i v2853 v3074))
theorem k0_off1428_inb : ∀ (i : grid0.Coords) (v2853 : BitVec 32) (v3074 : BitVec 32) (k0_hw476 : k0_chk476 i v2853 v3074), ∀ (k0_h476 : k0_cond476 v2853 = 1#1), ∀ a, (k0_off1428 i v3074) a + S1x1x512.size a ≤ S1024x200x512.size a := fun i v2853 v3074 k0_hw476 k0_h476 => k0_hw476 k0_h476

def k0_off1429 (i : grid0.Coords) : Fin 1 → Nat :=
  let arg0 : BitVec 32 := BitVec.ofNat 32 (i 0).val
  let c256_i32 : BitVec 32 := 256#32
  let v0 : BitVec 32 := Scalar.muli arg0 c256_i32
  let c236_i32_1188 : BitVec 32 := 236#32
  let v2857 : BitVec 32 := Scalar.addi v0 c236_i32_1188
  let v2858 : Index := Scalar.indexCast v2857
  ![v2858.toNat]
def k0_off1430 (i : grid0.Coords) : Fin 1 → Nat :=
  let arg0 : BitVec 32 := BitVec.ofNat 32 (i 0).val
  let c256_i32 : BitVec 32 := 256#32
  let v0 : BitVec 32 := Scalar.muli arg0 c256_i32
  let c236_i32_1188 : BitVec 32 := 236#32
  let v2857 : BitVec 32 := Scalar.addi v0 c236_i32_1188
  let v3073 : Index := Scalar.indexCast v2857
  ![v3073.toNat]
def k0_off1431 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c236_i32_1188 : BitVec 32 := 236#32
  let v2857 : BitVec 32 := Scalar.addi v0 c236_i32_1188
  let c0_i32_1282 : BitVec 32 := 0#32
  ![v2857.toNat, v3074.toNat, 0]
def k0_cond477 (v2859 : BitVec 32) : BitVec 1 :=
  let c0_i32_1189 : BitVec 32 := 0#32
  let v2860 : BitVec 1 := Scalar.cmpi .sgt v2859 c0_i32_1189
  let v2861 : BitVec 32 := Scalar.extui v2860
  let c0_i32_1190 : BitVec 32 := 0#32
  let v2862 : BitVec 1 := Scalar.cmpi .ne v2861 c0_i32_1190
  v2862

def k0_chk477 (i : grid0.Coords) (v2859 : BitVec 32) (v3074 : BitVec 32) : Prop :=
  (∀ (k0_h477 : k0_cond477 v2859 = 1#1), ∀ a, (k0_off1431 i v3074) a + S1x1x512.size a ≤ S1024x200x512.size a)
instance k0_chk477.dec : ∀ (i : grid0.Coords) (v2859 : BitVec 32) (v3074 : BitVec 32), Decidable (k0_chk477 i v2859 v3074) := fun i v2859 v3074 => decidable_of_iff' _ (Iff.of_eq (k0_chk477.eq_1 i v2859 v3074))
theorem k0_off1431_inb : ∀ (i : grid0.Coords) (v2859 : BitVec 32) (v3074 : BitVec 32) (k0_hw477 : k0_chk477 i v2859 v3074), ∀ (k0_h477 : k0_cond477 v2859 = 1#1), ∀ a, (k0_off1431 i v3074) a + S1x1x512.size a ≤ S1024x200x512.size a := fun i v2859 v3074 k0_hw477 k0_h477 => k0_hw477 k0_h477

def k0_off1432 (i : grid0.Coords) : Fin 1 → Nat :=
  let arg0 : BitVec 32 := BitVec.ofNat 32 (i 0).val
  let c256_i32 : BitVec 32 := 256#32
  let v0 : BitVec 32 := Scalar.muli arg0 c256_i32
  let c237_i32_1191 : BitVec 32 := 237#32
  let v2863 : BitVec 32 := Scalar.addi v0 c237_i32_1191
  let v2864 : Index := Scalar.indexCast v2863
  ![v2864.toNat]
def k0_off1433 (i : grid0.Coords) : Fin 1 → Nat :=
  let arg0 : BitVec 32 := BitVec.ofNat 32 (i 0).val
  let c256_i32 : BitVec 32 := 256#32
  let v0 : BitVec 32 := Scalar.muli arg0 c256_i32
  let c237_i32_1191 : BitVec 32 := 237#32
  let v2863 : BitVec 32 := Scalar.addi v0 c237_i32_1191
  let v3073 : Index := Scalar.indexCast v2863
  ![v3073.toNat]
def k0_off1434 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c237_i32_1191 : BitVec 32 := 237#32
  let v2863 : BitVec 32 := Scalar.addi v0 c237_i32_1191
  let c0_i32_1282 : BitVec 32 := 0#32
  ![v2863.toNat, v3074.toNat, 0]
def k0_cond478 (v2865 : BitVec 32) : BitVec 1 :=
  let c0_i32_1192 : BitVec 32 := 0#32
  let v2866 : BitVec 1 := Scalar.cmpi .sgt v2865 c0_i32_1192
  let v2867 : BitVec 32 := Scalar.extui v2866
  let c0_i32_1193 : BitVec 32 := 0#32
  let v2868 : BitVec 1 := Scalar.cmpi .ne v2867 c0_i32_1193
  v2868

def k0_chk478 (i : grid0.Coords) (v2865 : BitVec 32) (v3074 : BitVec 32) : Prop :=
  (∀ (k0_h478 : k0_cond478 v2865 = 1#1), ∀ a, (k0_off1434 i v3074) a + S1x1x512.size a ≤ S1024x200x512.size a)
instance k0_chk478.dec : ∀ (i : grid0.Coords) (v2865 : BitVec 32) (v3074 : BitVec 32), Decidable (k0_chk478 i v2865 v3074) := fun i v2865 v3074 => decidable_of_iff' _ (Iff.of_eq (k0_chk478.eq_1 i v2865 v3074))
theorem k0_off1434_inb : ∀ (i : grid0.Coords) (v2865 : BitVec 32) (v3074 : BitVec 32) (k0_hw478 : k0_chk478 i v2865 v3074), ∀ (k0_h478 : k0_cond478 v2865 = 1#1), ∀ a, (k0_off1434 i v3074) a + S1x1x512.size a ≤ S1024x200x512.size a := fun i v2865 v3074 k0_hw478 k0_h478 => k0_hw478 k0_h478

def k0_off1435 (i : grid0.Coords) : Fin 1 → Nat :=
  let arg0 : BitVec 32 := BitVec.ofNat 32 (i 0).val
  let c256_i32 : BitVec 32 := 256#32
  let v0 : BitVec 32 := Scalar.muli arg0 c256_i32
  let c238_i32_1194 : BitVec 32 := 238#32
  let v2869 : BitVec 32 := Scalar.addi v0 c238_i32_1194
  let v2870 : Index := Scalar.indexCast v2869
  ![v2870.toNat]
def k0_off1436 (i : grid0.Coords) : Fin 1 → Nat :=
  let arg0 : BitVec 32 := BitVec.ofNat 32 (i 0).val
  let c256_i32 : BitVec 32 := 256#32
  let v0 : BitVec 32 := Scalar.muli arg0 c256_i32
  let c238_i32_1194 : BitVec 32 := 238#32
  let v2869 : BitVec 32 := Scalar.addi v0 c238_i32_1194
  let v3073 : Index := Scalar.indexCast v2869
  ![v3073.toNat]
def k0_off1437 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c238_i32_1194 : BitVec 32 := 238#32
  let v2869 : BitVec 32 := Scalar.addi v0 c238_i32_1194
  let c0_i32_1282 : BitVec 32 := 0#32
  ![v2869.toNat, v3074.toNat, 0]
def k0_cond479 (v2871 : BitVec 32) : BitVec 1 :=
  let c0_i32_1195 : BitVec 32 := 0#32
  let v2872 : BitVec 1 := Scalar.cmpi .sgt v2871 c0_i32_1195
  let v2873 : BitVec 32 := Scalar.extui v2872
  let c0_i32_1196 : BitVec 32 := 0#32
  let v2874 : BitVec 1 := Scalar.cmpi .ne v2873 c0_i32_1196
  v2874

def k0_chk479 (i : grid0.Coords) (v2871 : BitVec 32) (v3074 : BitVec 32) : Prop :=
  (∀ (k0_h479 : k0_cond479 v2871 = 1#1), ∀ a, (k0_off1437 i v3074) a + S1x1x512.size a ≤ S1024x200x512.size a)
instance k0_chk479.dec : ∀ (i : grid0.Coords) (v2871 : BitVec 32) (v3074 : BitVec 32), Decidable (k0_chk479 i v2871 v3074) := fun i v2871 v3074 => decidable_of_iff' _ (Iff.of_eq (k0_chk479.eq_1 i v2871 v3074))
theorem k0_off1437_inb : ∀ (i : grid0.Coords) (v2871 : BitVec 32) (v3074 : BitVec 32) (k0_hw479 : k0_chk479 i v2871 v3074), ∀ (k0_h479 : k0_cond479 v2871 = 1#1), ∀ a, (k0_off1437 i v3074) a + S1x1x512.size a ≤ S1024x200x512.size a := fun i v2871 v3074 k0_hw479 k0_h479 => k0_hw479 k0_h479

def k0_off1438 (i : grid0.Coords) : Fin 1 → Nat :=
  let arg0 : BitVec 32 := BitVec.ofNat 32 (i 0).val
  let c256_i32 : BitVec 32 := 256#32
  let v0 : BitVec 32 := Scalar.muli arg0 c256_i32
  let c239_i32_1197 : BitVec 32 := 239#32
  let v2875 : BitVec 32 := Scalar.addi v0 c239_i32_1197
  let v2876 : Index := Scalar.indexCast v2875
  ![v2876.toNat]
def k0_off1439 (i : grid0.Coords) : Fin 1 → Nat :=
  let arg0 : BitVec 32 := BitVec.ofNat 32 (i 0).val
  let c256_i32 : BitVec 32 := 256#32
  let v0 : BitVec 32 := Scalar.muli arg0 c256_i32
  let c239_i32_1197 : BitVec 32 := 239#32
  let v2875 : BitVec 32 := Scalar.addi v0 c239_i32_1197
  let v3073 : Index := Scalar.indexCast v2875
  ![v3073.toNat]
def k0_off1440 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c239_i32_1197 : BitVec 32 := 239#32
  let v2875 : BitVec 32 := Scalar.addi v0 c239_i32_1197
  let c0_i32_1282 : BitVec 32 := 0#32
  ![v2875.toNat, v3074.toNat, 0]
def k0_cond480 (v2877 : BitVec 32) : BitVec 1 :=
  let c0_i32_1198 : BitVec 32 := 0#32
  let v2878 : BitVec 1 := Scalar.cmpi .sgt v2877 c0_i32_1198
  let v2879 : BitVec 32 := Scalar.extui v2878
  let c0_i32_1199 : BitVec 32 := 0#32
  let v2880 : BitVec 1 := Scalar.cmpi .ne v2879 c0_i32_1199
  v2880

def k0_chk480 (i : grid0.Coords) (v2877 : BitVec 32) (v3074 : BitVec 32) : Prop :=
  (∀ (k0_h480 : k0_cond480 v2877 = 1#1), ∀ a, (k0_off1440 i v3074) a + S1x1x512.size a ≤ S1024x200x512.size a)
instance k0_chk480.dec : ∀ (i : grid0.Coords) (v2877 : BitVec 32) (v3074 : BitVec 32), Decidable (k0_chk480 i v2877 v3074) := fun i v2877 v3074 => decidable_of_iff' _ (Iff.of_eq (k0_chk480.eq_1 i v2877 v3074))
theorem k0_off1440_inb : ∀ (i : grid0.Coords) (v2877 : BitVec 32) (v3074 : BitVec 32) (k0_hw480 : k0_chk480 i v2877 v3074), ∀ (k0_h480 : k0_cond480 v2877 = 1#1), ∀ a, (k0_off1440 i v3074) a + S1x1x512.size a ≤ S1024x200x512.size a := fun i v2877 v3074 k0_hw480 k0_h480 => k0_hw480 k0_h480

def k0_off1441 (i : grid0.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v2881 : BitVec 32 := Scalar.addi v0 c240_i32
  let v2882 : Index := Scalar.indexCast v2881
  ![v2882.toNat]
def k0_off1442 (i : grid0.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v2881 : BitVec 32 := Scalar.addi v0 c240_i32
  let v3073 : Index := Scalar.indexCast v2881
  ![v3073.toNat]
def k0_off1443 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c240_i32 : BitVec 32 := 240#32
  let v2881 : BitVec 32 := Scalar.addi v0 c240_i32
  let c0_i32_1287 : BitVec 32 := 0#32
  ![v2881.toNat, v3074.toNat, 0]
def k0_cond481 (v2883 : BitVec 32) : BitVec 1 :=
  let c0_i32_1200 : BitVec 32 := 0#32
  let v2884 : BitVec 1 := Scalar.cmpi .sgt v2883 c0_i32_1200
  let v2885 : BitVec 32 := Scalar.extui v2884
  let c0_i32_1201 : BitVec 32 := 0#32
  let v2886 : BitVec 1 := Scalar.cmpi .ne v2885 c0_i32_1201
  v2886

def k0_chk481 (i : grid0.Coords) (v2883 : BitVec 32) (v3074 : BitVec 32) : Prop :=
  (∀ (k0_h481 : k0_cond481 v2883 = 1#1), ∀ a, (k0_off1443 i v3074) a + S1x1x512.size a ≤ S1024x200x512.size a)
instance k0_chk481.dec : ∀ (i : grid0.Coords) (v2883 : BitVec 32) (v3074 : BitVec 32), Decidable (k0_chk481 i v2883 v3074) := fun i v2883 v3074 => decidable_of_iff' _ (Iff.of_eq (k0_chk481.eq_1 i v2883 v3074))
theorem k0_off1443_inb : ∀ (i : grid0.Coords) (v2883 : BitVec 32) (v3074 : BitVec 32) (k0_hw481 : k0_chk481 i v2883 v3074), ∀ (k0_h481 : k0_cond481 v2883 = 1#1), ∀ a, (k0_off1443 i v3074) a + S1x1x512.size a ≤ S1024x200x512.size a := fun i v2883 v3074 k0_hw481 k0_h481 => k0_hw481 k0_h481

def k0_off1444 (i : grid0.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v2887 : BitVec 32 := Scalar.addi v0 c241_i32
  let v2888 : Index := Scalar.indexCast v2887
  ![v2888.toNat]
def k0_off1445 (i : grid0.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v2887 : BitVec 32 := Scalar.addi v0 c241_i32
  let v3073 : Index := Scalar.indexCast v2887
  ![v3073.toNat]
def k0_off1446 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c241_i32 : BitVec 32 := 241#32
  let v2887 : BitVec 32 := Scalar.addi v0 c241_i32
  let c0_i32_1287 : BitVec 32 := 0#32
  ![v2887.toNat, v3074.toNat, 0]
def k0_cond482 (v2889 : BitVec 32) : BitVec 1 :=
  let c0_i32_1202 : BitVec 32 := 0#32
  let v2890 : BitVec 1 := Scalar.cmpi .sgt v2889 c0_i32_1202
  let v2891 : BitVec 32 := Scalar.extui v2890
  let c0_i32_1203 : BitVec 32 := 0#32
  let v2892 : BitVec 1 := Scalar.cmpi .ne v2891 c0_i32_1203
  v2892

def k0_chk482 (i : grid0.Coords) (v2889 : BitVec 32) (v3074 : BitVec 32) : Prop :=
  (∀ (k0_h482 : k0_cond482 v2889 = 1#1), ∀ a, (k0_off1446 i v3074) a + S1x1x512.size a ≤ S1024x200x512.size a)
instance k0_chk482.dec : ∀ (i : grid0.Coords) (v2889 : BitVec 32) (v3074 : BitVec 32), Decidable (k0_chk482 i v2889 v3074) := fun i v2889 v3074 => decidable_of_iff' _ (Iff.of_eq (k0_chk482.eq_1 i v2889 v3074))
theorem k0_off1446_inb : ∀ (i : grid0.Coords) (v2889 : BitVec 32) (v3074 : BitVec 32) (k0_hw482 : k0_chk482 i v2889 v3074), ∀ (k0_h482 : k0_cond482 v2889 = 1#1), ∀ a, (k0_off1446 i v3074) a + S1x1x512.size a ≤ S1024x200x512.size a := fun i v2889 v3074 k0_hw482 k0_h482 => k0_hw482 k0_h482

def k0_off1447 (i : grid0.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v2893 : BitVec 32 := Scalar.addi v0 c242_i32
  let v2894 : Index := Scalar.indexCast v2893
  ![v2894.toNat]
def k0_off1448 (i : grid0.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v2893 : BitVec 32 := Scalar.addi v0 c242_i32
  let v3073 : Index := Scalar.indexCast v2893
  ![v3073.toNat]
def k0_off1449 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c242_i32 : BitVec 32 := 242#32
  let v2893 : BitVec 32 := Scalar.addi v0 c242_i32
  let c0_i32_1287 : BitVec 32 := 0#32
  ![v2893.toNat, v3074.toNat, 0]
def k0_cond483 (v2895 : BitVec 32) : BitVec 1 :=
  let c0_i32_1204 : BitVec 32 := 0#32
  let v2896 : BitVec 1 := Scalar.cmpi .sgt v2895 c0_i32_1204
  let v2897 : BitVec 32 := Scalar.extui v2896
  let c0_i32_1205 : BitVec 32 := 0#32
  let v2898 : BitVec 1 := Scalar.cmpi .ne v2897 c0_i32_1205
  v2898

def k0_chk483 (i : grid0.Coords) (v2895 : BitVec 32) (v3074 : BitVec 32) : Prop :=
  (∀ (k0_h483 : k0_cond483 v2895 = 1#1), ∀ a, (k0_off1449 i v3074) a + S1x1x512.size a ≤ S1024x200x512.size a)
instance k0_chk483.dec : ∀ (i : grid0.Coords) (v2895 : BitVec 32) (v3074 : BitVec 32), Decidable (k0_chk483 i v2895 v3074) := fun i v2895 v3074 => decidable_of_iff' _ (Iff.of_eq (k0_chk483.eq_1 i v2895 v3074))
theorem k0_off1449_inb : ∀ (i : grid0.Coords) (v2895 : BitVec 32) (v3074 : BitVec 32) (k0_hw483 : k0_chk483 i v2895 v3074), ∀ (k0_h483 : k0_cond483 v2895 = 1#1), ∀ a, (k0_off1449 i v3074) a + S1x1x512.size a ≤ S1024x200x512.size a := fun i v2895 v3074 k0_hw483 k0_h483 => k0_hw483 k0_h483

def k0_off1450 (i : grid0.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v2899 : BitVec 32 := Scalar.addi v0 c243_i32
  let v2900 : Index := Scalar.indexCast v2899
  ![v2900.toNat]
def k0_off1451 (i : grid0.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v2899 : BitVec 32 := Scalar.addi v0 c243_i32
  let v3073 : Index := Scalar.indexCast v2899
  ![v3073.toNat]
def k0_off1452 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c243_i32 : BitVec 32 := 243#32
  let v2899 : BitVec 32 := Scalar.addi v0 c243_i32
  let c0_i32_1287 : BitVec 32 := 0#32
  ![v2899.toNat, v3074.toNat, 0]
def k0_cond484 (v2901 : BitVec 32) : BitVec 1 :=
  let c0_i32_1206 : BitVec 32 := 0#32
  let v2902 : BitVec 1 := Scalar.cmpi .sgt v2901 c0_i32_1206
  let v2903 : BitVec 32 := Scalar.extui v2902
  let c0_i32_1207 : BitVec 32 := 0#32
  let v2904 : BitVec 1 := Scalar.cmpi .ne v2903 c0_i32_1207
  v2904

def k0_chk484 (i : grid0.Coords) (v2901 : BitVec 32) (v3074 : BitVec 32) : Prop :=
  (∀ (k0_h484 : k0_cond484 v2901 = 1#1), ∀ a, (k0_off1452 i v3074) a + S1x1x512.size a ≤ S1024x200x512.size a)
instance k0_chk484.dec : ∀ (i : grid0.Coords) (v2901 : BitVec 32) (v3074 : BitVec 32), Decidable (k0_chk484 i v2901 v3074) := fun i v2901 v3074 => decidable_of_iff' _ (Iff.of_eq (k0_chk484.eq_1 i v2901 v3074))
theorem k0_off1452_inb : ∀ (i : grid0.Coords) (v2901 : BitVec 32) (v3074 : BitVec 32) (k0_hw484 : k0_chk484 i v2901 v3074), ∀ (k0_h484 : k0_cond484 v2901 = 1#1), ∀ a, (k0_off1452 i v3074) a + S1x1x512.size a ≤ S1024x200x512.size a := fun i v2901 v3074 k0_hw484 k0_h484 => k0_hw484 k0_h484

def k0_off1453 (i : grid0.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v2905 : BitVec 32 := Scalar.addi v0 c244_i32
  let v2906 : Index := Scalar.indexCast v2905
  ![v2906.toNat]
def k0_off1454 (i : grid0.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v2905 : BitVec 32 := Scalar.addi v0 c244_i32
  let v3073 : Index := Scalar.indexCast v2905
  ![v3073.toNat]
def k0_off1455 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c244_i32 : BitVec 32 := 244#32
  let v2905 : BitVec 32 := Scalar.addi v0 c244_i32
  let c0_i32_1287 : BitVec 32 := 0#32
  ![v2905.toNat, v3074.toNat, 0]
def k0_cond485 (v2907 : BitVec 32) : BitVec 1 :=
  let c0_i32_1208 : BitVec 32 := 0#32
  let v2908 : BitVec 1 := Scalar.cmpi .sgt v2907 c0_i32_1208
  let v2909 : BitVec 32 := Scalar.extui v2908
  let c0_i32_1209 : BitVec 32 := 0#32
  let v2910 : BitVec 1 := Scalar.cmpi .ne v2909 c0_i32_1209
  v2910

def k0_chk485 (i : grid0.Coords) (v2907 : BitVec 32) (v3074 : BitVec 32) : Prop :=
  (∀ (k0_h485 : k0_cond485 v2907 = 1#1), ∀ a, (k0_off1455 i v3074) a + S1x1x512.size a ≤ S1024x200x512.size a)
instance k0_chk485.dec : ∀ (i : grid0.Coords) (v2907 : BitVec 32) (v3074 : BitVec 32), Decidable (k0_chk485 i v2907 v3074) := fun i v2907 v3074 => decidable_of_iff' _ (Iff.of_eq (k0_chk485.eq_1 i v2907 v3074))
theorem k0_off1455_inb : ∀ (i : grid0.Coords) (v2907 : BitVec 32) (v3074 : BitVec 32) (k0_hw485 : k0_chk485 i v2907 v3074), ∀ (k0_h485 : k0_cond485 v2907 = 1#1), ∀ a, (k0_off1455 i v3074) a + S1x1x512.size a ≤ S1024x200x512.size a := fun i v2907 v3074 k0_hw485 k0_h485 => k0_hw485 k0_h485

def k0_off1456 (i : grid0.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v2911 : BitVec 32 := Scalar.addi v0 c245_i32
  let v2912 : Index := Scalar.indexCast v2911
  ![v2912.toNat]
def k0_off1457 (i : grid0.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v2911 : BitVec 32 := Scalar.addi v0 c245_i32
  let v3073 : Index := Scalar.indexCast v2911
  ![v3073.toNat]
def k0_off1458 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c245_i32 : BitVec 32 := 245#32
  let v2911 : BitVec 32 := Scalar.addi v0 c245_i32
  let c0_i32_1287 : BitVec 32 := 0#32
  ![v2911.toNat, v3074.toNat, 0]
def k0_cond486 (v2913 : BitVec 32) : BitVec 1 :=
  let c0_i32_1210 : BitVec 32 := 0#32
  let v2914 : BitVec 1 := Scalar.cmpi .sgt v2913 c0_i32_1210
  let v2915 : BitVec 32 := Scalar.extui v2914
  let c0_i32_1211 : BitVec 32 := 0#32
  let v2916 : BitVec 1 := Scalar.cmpi .ne v2915 c0_i32_1211
  v2916

def k0_chk486 (i : grid0.Coords) (v2913 : BitVec 32) (v3074 : BitVec 32) : Prop :=
  (∀ (k0_h486 : k0_cond486 v2913 = 1#1), ∀ a, (k0_off1458 i v3074) a + S1x1x512.size a ≤ S1024x200x512.size a)
instance k0_chk486.dec : ∀ (i : grid0.Coords) (v2913 : BitVec 32) (v3074 : BitVec 32), Decidable (k0_chk486 i v2913 v3074) := fun i v2913 v3074 => decidable_of_iff' _ (Iff.of_eq (k0_chk486.eq_1 i v2913 v3074))
theorem k0_off1458_inb : ∀ (i : grid0.Coords) (v2913 : BitVec 32) (v3074 : BitVec 32) (k0_hw486 : k0_chk486 i v2913 v3074), ∀ (k0_h486 : k0_cond486 v2913 = 1#1), ∀ a, (k0_off1458 i v3074) a + S1x1x512.size a ≤ S1024x200x512.size a := fun i v2913 v3074 k0_hw486 k0_h486 => k0_hw486 k0_h486

def k0_off1459 (i : grid0.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v2917 : BitVec 32 := Scalar.addi v0 c246_i32
  let v2918 : Index := Scalar.indexCast v2917
  ![v2918.toNat]
def k0_off1460 (i : grid0.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v2917 : BitVec 32 := Scalar.addi v0 c246_i32
  let v3073 : Index := Scalar.indexCast v2917
  ![v3073.toNat]
def k0_off1461 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c246_i32 : BitVec 32 := 246#32
  let v2917 : BitVec 32 := Scalar.addi v0 c246_i32
  let c0_i32_1287 : BitVec 32 := 0#32
  ![v2917.toNat, v3074.toNat, 0]
def k0_cond487 (v2919 : BitVec 32) : BitVec 1 :=
  let c0_i32_1212 : BitVec 32 := 0#32
  let v2920 : BitVec 1 := Scalar.cmpi .sgt v2919 c0_i32_1212
  let v2921 : BitVec 32 := Scalar.extui v2920
  let c0_i32_1213 : BitVec 32 := 0#32
  let v2922 : BitVec 1 := Scalar.cmpi .ne v2921 c0_i32_1213
  v2922

def k0_chk487 (i : grid0.Coords) (v2919 : BitVec 32) (v3074 : BitVec 32) : Prop :=
  (∀ (k0_h487 : k0_cond487 v2919 = 1#1), ∀ a, (k0_off1461 i v3074) a + S1x1x512.size a ≤ S1024x200x512.size a)
instance k0_chk487.dec : ∀ (i : grid0.Coords) (v2919 : BitVec 32) (v3074 : BitVec 32), Decidable (k0_chk487 i v2919 v3074) := fun i v2919 v3074 => decidable_of_iff' _ (Iff.of_eq (k0_chk487.eq_1 i v2919 v3074))
theorem k0_off1461_inb : ∀ (i : grid0.Coords) (v2919 : BitVec 32) (v3074 : BitVec 32) (k0_hw487 : k0_chk487 i v2919 v3074), ∀ (k0_h487 : k0_cond487 v2919 = 1#1), ∀ a, (k0_off1461 i v3074) a + S1x1x512.size a ≤ S1024x200x512.size a := fun i v2919 v3074 k0_hw487 k0_h487 => k0_hw487 k0_h487

def k0_off1462 (i : grid0.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v2923 : BitVec 32 := Scalar.addi v0 c247_i32
  let v2924 : Index := Scalar.indexCast v2923
  ![v2924.toNat]
def k0_off1463 (i : grid0.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v2923 : BitVec 32 := Scalar.addi v0 c247_i32
  let v3073 : Index := Scalar.indexCast v2923
  ![v3073.toNat]
def k0_off1464 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c247_i32 : BitVec 32 := 247#32
  let v2923 : BitVec 32 := Scalar.addi v0 c247_i32
  let c0_i32_1287 : BitVec 32 := 0#32
  ![v2923.toNat, v3074.toNat, 0]
def k0_cond488 (v2925 : BitVec 32) : BitVec 1 :=
  let c0_i32_1214 : BitVec 32 := 0#32
  let v2926 : BitVec 1 := Scalar.cmpi .sgt v2925 c0_i32_1214
  let v2927 : BitVec 32 := Scalar.extui v2926
  let c0_i32_1215 : BitVec 32 := 0#32
  let v2928 : BitVec 1 := Scalar.cmpi .ne v2927 c0_i32_1215
  v2928

def k0_chk488 (i : grid0.Coords) (v2925 : BitVec 32) (v3074 : BitVec 32) : Prop :=
  (∀ (k0_h488 : k0_cond488 v2925 = 1#1), ∀ a, (k0_off1464 i v3074) a + S1x1x512.size a ≤ S1024x200x512.size a)
instance k0_chk488.dec : ∀ (i : grid0.Coords) (v2925 : BitVec 32) (v3074 : BitVec 32), Decidable (k0_chk488 i v2925 v3074) := fun i v2925 v3074 => decidable_of_iff' _ (Iff.of_eq (k0_chk488.eq_1 i v2925 v3074))
theorem k0_off1464_inb : ∀ (i : grid0.Coords) (v2925 : BitVec 32) (v3074 : BitVec 32) (k0_hw488 : k0_chk488 i v2925 v3074), ∀ (k0_h488 : k0_cond488 v2925 = 1#1), ∀ a, (k0_off1464 i v3074) a + S1x1x512.size a ≤ S1024x200x512.size a := fun i v2925 v3074 k0_hw488 k0_h488 => k0_hw488 k0_h488

def k0_off1465 (i : grid0.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v2929 : BitVec 32 := Scalar.addi v0 c248_i32
  let v2930 : Index := Scalar.indexCast v2929
  ![v2930.toNat]
def k0_off1466 (i : grid0.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v2929 : BitVec 32 := Scalar.addi v0 c248_i32
  let v3073 : Index := Scalar.indexCast v2929
  ![v3073.toNat]
def k0_off1467 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c248_i32 : BitVec 32 := 248#32
  let v2929 : BitVec 32 := Scalar.addi v0 c248_i32
  let c0_i32_1287 : BitVec 32 := 0#32
  ![v2929.toNat, v3074.toNat, 0]
def k0_cond489 (v2931 : BitVec 32) : BitVec 1 :=
  let c0_i32_1216 : BitVec 32 := 0#32
  let v2932 : BitVec 1 := Scalar.cmpi .sgt v2931 c0_i32_1216
  let v2933 : BitVec 32 := Scalar.extui v2932
  let c0_i32_1217 : BitVec 32 := 0#32
  let v2934 : BitVec 1 := Scalar.cmpi .ne v2933 c0_i32_1217
  v2934

def k0_chk489 (i : grid0.Coords) (v2931 : BitVec 32) (v3074 : BitVec 32) : Prop :=
  (∀ (k0_h489 : k0_cond489 v2931 = 1#1), ∀ a, (k0_off1467 i v3074) a + S1x1x512.size a ≤ S1024x200x512.size a)
instance k0_chk489.dec : ∀ (i : grid0.Coords) (v2931 : BitVec 32) (v3074 : BitVec 32), Decidable (k0_chk489 i v2931 v3074) := fun i v2931 v3074 => decidable_of_iff' _ (Iff.of_eq (k0_chk489.eq_1 i v2931 v3074))
theorem k0_off1467_inb : ∀ (i : grid0.Coords) (v2931 : BitVec 32) (v3074 : BitVec 32) (k0_hw489 : k0_chk489 i v2931 v3074), ∀ (k0_h489 : k0_cond489 v2931 = 1#1), ∀ a, (k0_off1467 i v3074) a + S1x1x512.size a ≤ S1024x200x512.size a := fun i v2931 v3074 k0_hw489 k0_h489 => k0_hw489 k0_h489

def k0_off1468 (i : grid0.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v2935 : BitVec 32 := Scalar.addi v0 c249_i32
  let v2936 : Index := Scalar.indexCast v2935
  ![v2936.toNat]
def k0_off1469 (i : grid0.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v2935 : BitVec 32 := Scalar.addi v0 c249_i32
  let v3073 : Index := Scalar.indexCast v2935
  ![v3073.toNat]
def k0_off1470 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c249_i32 : BitVec 32 := 249#32
  let v2935 : BitVec 32 := Scalar.addi v0 c249_i32
  let c0_i32_1287 : BitVec 32 := 0#32
  ![v2935.toNat, v3074.toNat, 0]
def k0_cond490 (v2937 : BitVec 32) : BitVec 1 :=
  let c0_i32_1218 : BitVec 32 := 0#32
  let v2938 : BitVec 1 := Scalar.cmpi .sgt v2937 c0_i32_1218
  let v2939 : BitVec 32 := Scalar.extui v2938
  let c0_i32_1219 : BitVec 32 := 0#32
  let v2940 : BitVec 1 := Scalar.cmpi .ne v2939 c0_i32_1219
  v2940

def k0_chk490 (i : grid0.Coords) (v2937 : BitVec 32) (v3074 : BitVec 32) : Prop :=
  (∀ (k0_h490 : k0_cond490 v2937 = 1#1), ∀ a, (k0_off1470 i v3074) a + S1x1x512.size a ≤ S1024x200x512.size a)
instance k0_chk490.dec : ∀ (i : grid0.Coords) (v2937 : BitVec 32) (v3074 : BitVec 32), Decidable (k0_chk490 i v2937 v3074) := fun i v2937 v3074 => decidable_of_iff' _ (Iff.of_eq (k0_chk490.eq_1 i v2937 v3074))
theorem k0_off1470_inb : ∀ (i : grid0.Coords) (v2937 : BitVec 32) (v3074 : BitVec 32) (k0_hw490 : k0_chk490 i v2937 v3074), ∀ (k0_h490 : k0_cond490 v2937 = 1#1), ∀ a, (k0_off1470 i v3074) a + S1x1x512.size a ≤ S1024x200x512.size a := fun i v2937 v3074 k0_hw490 k0_h490 => k0_hw490 k0_h490

def k0_off1471 (i : grid0.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v2941 : BitVec 32 := Scalar.addi v0 c250_i32
  let v2942 : Index := Scalar.indexCast v2941
  ![v2942.toNat]
def k0_off1472 (i : grid0.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v2941 : BitVec 32 := Scalar.addi v0 c250_i32
  let v3073 : Index := Scalar.indexCast v2941
  ![v3073.toNat]
def k0_off1473 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c250_i32 : BitVec 32 := 250#32
  let v2941 : BitVec 32 := Scalar.addi v0 c250_i32
  let c0_i32_1287 : BitVec 32 := 0#32
  ![v2941.toNat, v3074.toNat, 0]
def k0_cond491 (v2943 : BitVec 32) : BitVec 1 :=
  let c0_i32_1220 : BitVec 32 := 0#32
  let v2944 : BitVec 1 := Scalar.cmpi .sgt v2943 c0_i32_1220
  let v2945 : BitVec 32 := Scalar.extui v2944
  let c0_i32_1221 : BitVec 32 := 0#32
  let v2946 : BitVec 1 := Scalar.cmpi .ne v2945 c0_i32_1221
  v2946

def k0_chk491 (i : grid0.Coords) (v2943 : BitVec 32) (v3074 : BitVec 32) : Prop :=
  (∀ (k0_h491 : k0_cond491 v2943 = 1#1), ∀ a, (k0_off1473 i v3074) a + S1x1x512.size a ≤ S1024x200x512.size a)
instance k0_chk491.dec : ∀ (i : grid0.Coords) (v2943 : BitVec 32) (v3074 : BitVec 32), Decidable (k0_chk491 i v2943 v3074) := fun i v2943 v3074 => decidable_of_iff' _ (Iff.of_eq (k0_chk491.eq_1 i v2943 v3074))
theorem k0_off1473_inb : ∀ (i : grid0.Coords) (v2943 : BitVec 32) (v3074 : BitVec 32) (k0_hw491 : k0_chk491 i v2943 v3074), ∀ (k0_h491 : k0_cond491 v2943 = 1#1), ∀ a, (k0_off1473 i v3074) a + S1x1x512.size a ≤ S1024x200x512.size a := fun i v2943 v3074 k0_hw491 k0_h491 => k0_hw491 k0_h491

def k0_off1474 (i : grid0.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v2947 : BitVec 32 := Scalar.addi v0 c251_i32
  let v2948 : Index := Scalar.indexCast v2947
  ![v2948.toNat]
def k0_off1475 (i : grid0.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v2947 : BitVec 32 := Scalar.addi v0 c251_i32
  let v3073 : Index := Scalar.indexCast v2947
  ![v3073.toNat]
def k0_off1476 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c251_i32 : BitVec 32 := 251#32
  let v2947 : BitVec 32 := Scalar.addi v0 c251_i32
  let c0_i32_1287 : BitVec 32 := 0#32
  ![v2947.toNat, v3074.toNat, 0]
def k0_cond492 (v2949 : BitVec 32) : BitVec 1 :=
  let c0_i32_1222 : BitVec 32 := 0#32
  let v2950 : BitVec 1 := Scalar.cmpi .sgt v2949 c0_i32_1222
  let v2951 : BitVec 32 := Scalar.extui v2950
  let c0_i32_1223 : BitVec 32 := 0#32
  let v2952 : BitVec 1 := Scalar.cmpi .ne v2951 c0_i32_1223
  v2952

def k0_chk492 (i : grid0.Coords) (v2949 : BitVec 32) (v3074 : BitVec 32) : Prop :=
  (∀ (k0_h492 : k0_cond492 v2949 = 1#1), ∀ a, (k0_off1476 i v3074) a + S1x1x512.size a ≤ S1024x200x512.size a)
instance k0_chk492.dec : ∀ (i : grid0.Coords) (v2949 : BitVec 32) (v3074 : BitVec 32), Decidable (k0_chk492 i v2949 v3074) := fun i v2949 v3074 => decidable_of_iff' _ (Iff.of_eq (k0_chk492.eq_1 i v2949 v3074))
theorem k0_off1476_inb : ∀ (i : grid0.Coords) (v2949 : BitVec 32) (v3074 : BitVec 32) (k0_hw492 : k0_chk492 i v2949 v3074), ∀ (k0_h492 : k0_cond492 v2949 = 1#1), ∀ a, (k0_off1476 i v3074) a + S1x1x512.size a ≤ S1024x200x512.size a := fun i v2949 v3074 k0_hw492 k0_h492 => k0_hw492 k0_h492

def k0_off1477 (i : grid0.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v2953 : BitVec 32 := Scalar.addi v0 c252_i32
  let v2954 : Index := Scalar.indexCast v2953
  ![v2954.toNat]
def k0_off1478 (i : grid0.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v2953 : BitVec 32 := Scalar.addi v0 c252_i32
  let v3073 : Index := Scalar.indexCast v2953
  ![v3073.toNat]
def k0_off1479 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c252_i32 : BitVec 32 := 252#32
  let v2953 : BitVec 32 := Scalar.addi v0 c252_i32
  let c0_i32_1287 : BitVec 32 := 0#32
  ![v2953.toNat, v3074.toNat, 0]
def k0_cond493 (v2955 : BitVec 32) : BitVec 1 :=
  let c0_i32_1224 : BitVec 32 := 0#32
  let v2956 : BitVec 1 := Scalar.cmpi .sgt v2955 c0_i32_1224
  let v2957 : BitVec 32 := Scalar.extui v2956
  let c0_i32_1225 : BitVec 32 := 0#32
  let v2958 : BitVec 1 := Scalar.cmpi .ne v2957 c0_i32_1225
  v2958

def k0_chk493 (i : grid0.Coords) (v2955 : BitVec 32) (v3074 : BitVec 32) : Prop :=
  (∀ (k0_h493 : k0_cond493 v2955 = 1#1), ∀ a, (k0_off1479 i v3074) a + S1x1x512.size a ≤ S1024x200x512.size a)
instance k0_chk493.dec : ∀ (i : grid0.Coords) (v2955 : BitVec 32) (v3074 : BitVec 32), Decidable (k0_chk493 i v2955 v3074) := fun i v2955 v3074 => decidable_of_iff' _ (Iff.of_eq (k0_chk493.eq_1 i v2955 v3074))
theorem k0_off1479_inb : ∀ (i : grid0.Coords) (v2955 : BitVec 32) (v3074 : BitVec 32) (k0_hw493 : k0_chk493 i v2955 v3074), ∀ (k0_h493 : k0_cond493 v2955 = 1#1), ∀ a, (k0_off1479 i v3074) a + S1x1x512.size a ≤ S1024x200x512.size a := fun i v2955 v3074 k0_hw493 k0_h493 => k0_hw493 k0_h493

def k0_off1480 (i : grid0.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v2959 : BitVec 32 := Scalar.addi v0 c253_i32
  let v2960 : Index := Scalar.indexCast v2959
  ![v2960.toNat]
def k0_off1481 (i : grid0.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v2959 : BitVec 32 := Scalar.addi v0 c253_i32
  let v3073 : Index := Scalar.indexCast v2959
  ![v3073.toNat]
def k0_off1482 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c253_i32 : BitVec 32 := 253#32
  let v2959 : BitVec 32 := Scalar.addi v0 c253_i32
  let c0_i32_1287 : BitVec 32 := 0#32
  ![v2959.toNat, v3074.toNat, 0]
def k0_cond494 (v2961 : BitVec 32) : BitVec 1 :=
  let c0_i32_1226 : BitVec 32 := 0#32
  let v2962 : BitVec 1 := Scalar.cmpi .sgt v2961 c0_i32_1226
  let v2963 : BitVec 32 := Scalar.extui v2962
  let c0_i32_1227 : BitVec 32 := 0#32
  let v2964 : BitVec 1 := Scalar.cmpi .ne v2963 c0_i32_1227
  v2964

def k0_chk494 (i : grid0.Coords) (v2961 : BitVec 32) (v3074 : BitVec 32) : Prop :=
  (∀ (k0_h494 : k0_cond494 v2961 = 1#1), ∀ a, (k0_off1482 i v3074) a + S1x1x512.size a ≤ S1024x200x512.size a)
instance k0_chk494.dec : ∀ (i : grid0.Coords) (v2961 : BitVec 32) (v3074 : BitVec 32), Decidable (k0_chk494 i v2961 v3074) := fun i v2961 v3074 => decidable_of_iff' _ (Iff.of_eq (k0_chk494.eq_1 i v2961 v3074))
theorem k0_off1482_inb : ∀ (i : grid0.Coords) (v2961 : BitVec 32) (v3074 : BitVec 32) (k0_hw494 : k0_chk494 i v2961 v3074), ∀ (k0_h494 : k0_cond494 v2961 = 1#1), ∀ a, (k0_off1482 i v3074) a + S1x1x512.size a ≤ S1024x200x512.size a := fun i v2961 v3074 k0_hw494 k0_h494 => k0_hw494 k0_h494

def k0_off1483 (i : grid0.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v2965 : BitVec 32 := Scalar.addi v0 c254_i32
  let v2966 : Index := Scalar.indexCast v2965
  ![v2966.toNat]
def k0_off1484 (i : grid0.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v2965 : BitVec 32 := Scalar.addi v0 c254_i32
  let v3073 : Index := Scalar.indexCast v2965
  ![v3073.toNat]
def k0_off1485 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c254_i32 : BitVec 32 := 254#32
  let v2965 : BitVec 32 := Scalar.addi v0 c254_i32
  let c0_i32_1287 : BitVec 32 := 0#32
  ![v2965.toNat, v3074.toNat, 0]
def k0_cond495 (v2967 : BitVec 32) : BitVec 1 :=
  let c0_i32_1228 : BitVec 32 := 0#32
  let v2968 : BitVec 1 := Scalar.cmpi .sgt v2967 c0_i32_1228
  let v2969 : BitVec 32 := Scalar.extui v2968
  let c0_i32_1229 : BitVec 32 := 0#32
  let v2970 : BitVec 1 := Scalar.cmpi .ne v2969 c0_i32_1229
  v2970

def k0_chk495 (i : grid0.Coords) (v2967 : BitVec 32) (v3074 : BitVec 32) : Prop :=
  (∀ (k0_h495 : k0_cond495 v2967 = 1#1), ∀ a, (k0_off1485 i v3074) a + S1x1x512.size a ≤ S1024x200x512.size a)
instance k0_chk495.dec : ∀ (i : grid0.Coords) (v2967 : BitVec 32) (v3074 : BitVec 32), Decidable (k0_chk495 i v2967 v3074) := fun i v2967 v3074 => decidable_of_iff' _ (Iff.of_eq (k0_chk495.eq_1 i v2967 v3074))
theorem k0_off1485_inb : ∀ (i : grid0.Coords) (v2967 : BitVec 32) (v3074 : BitVec 32) (k0_hw495 : k0_chk495 i v2967 v3074), ∀ (k0_h495 : k0_cond495 v2967 = 1#1), ∀ a, (k0_off1485 i v3074) a + S1x1x512.size a ≤ S1024x200x512.size a := fun i v2967 v3074 k0_hw495 k0_h495 => k0_hw495 k0_h495

def k0_off1486 (i : grid0.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v2971 : BitVec 32 := Scalar.addi v0 c255_i32
  let v2972 : Index := Scalar.indexCast v2971
  ![v2972.toNat]
def k0_off1487 (i : grid0.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v2971 : BitVec 32 := Scalar.addi v0 c255_i32
  let v3073 : Index := Scalar.indexCast v2971
  ![v3073.toNat]
def k0_off1488 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c255_i32 : BitVec 32 := 255#32
  let v2971 : BitVec 32 := Scalar.addi v0 c255_i32
  let c0_i32_1287 : BitVec 32 := 0#32
  ![v2971.toNat, v3074.toNat, 0]
def k0_cond496 (v2973 : BitVec 32) : BitVec 1 :=
  let c0_i32_1230 : BitVec 32 := 0#32
  let v2974 : BitVec 1 := Scalar.cmpi .sgt v2973 c0_i32_1230
  let v2975 : BitVec 32 := Scalar.extui v2974
  let c0_i32_1231 : BitVec 32 := 0#32
  let v2976 : BitVec 1 := Scalar.cmpi .ne v2975 c0_i32_1231
  v2976

def k0_chk496 (i : grid0.Coords) (v2973 : BitVec 32) (v3074 : BitVec 32) : Prop :=
  (∀ (k0_h496 : k0_cond496 v2973 = 1#1), ∀ a, (k0_off1488 i v3074) a + S1x1x512.size a ≤ S1024x200x512.size a)
instance k0_chk496.dec : ∀ (i : grid0.Coords) (v2973 : BitVec 32) (v3074 : BitVec 32), Decidable (k0_chk496 i v2973 v3074) := fun i v2973 v3074 => decidable_of_iff' _ (Iff.of_eq (k0_chk496.eq_1 i v2973 v3074))
theorem k0_off1488_inb : ∀ (i : grid0.Coords) (v2973 : BitVec 32) (v3074 : BitVec 32) (k0_hw496 : k0_chk496 i v2973 v3074), ∀ (k0_h496 : k0_cond496 v2973 = 1#1), ∀ a, (k0_off1488 i v3074) a + S1x1x512.size a ≤ S1024x200x512.size a := fun i v2973 v3074 k0_hw496 k0_h496 => k0_hw496 k0_h496

def k0_off1489 (i : grid0.Coords) : Fin 1 → Nat :=
  let arg0 : BitVec 32 := BitVec.ofNat 32 (i 0).val
  let c256_i32 : BitVec 32 := 256#32
  let v0 : BitVec 32 := Scalar.muli arg0 c256_i32
  let c240_i32_1232 : BitVec 32 := 240#32
  let v2977 : BitVec 32 := Scalar.addi v0 c240_i32_1232
  let v2978 : Index := Scalar.indexCast v2977
  ![v2978.toNat]
def k0_off1490 (i : grid0.Coords) : Fin 1 → Nat :=
  let arg0 : BitVec 32 := BitVec.ofNat 32 (i 0).val
  let c256_i32 : BitVec 32 := 256#32
  let v0 : BitVec 32 := Scalar.muli arg0 c256_i32
  let c240_i32_1232 : BitVec 32 := 240#32
  let v2977 : BitVec 32 := Scalar.addi v0 c240_i32_1232
  let v3073 : Index := Scalar.indexCast v2977
  ![v3073.toNat]
def k0_off1491 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c240_i32_1232 : BitVec 32 := 240#32
  let v2977 : BitVec 32 := Scalar.addi v0 c240_i32_1232
  let c0_i32_1282 : BitVec 32 := 0#32
  ![v2977.toNat, v3074.toNat, 0]
def k0_cond497 (v2979 : BitVec 32) : BitVec 1 :=
  let c0_i32_1233 : BitVec 32 := 0#32
  let v2980 : BitVec 1 := Scalar.cmpi .sgt v2979 c0_i32_1233
  let v2981 : BitVec 32 := Scalar.extui v2980
  let c0_i32_1234 : BitVec 32 := 0#32
  let v2982 : BitVec 1 := Scalar.cmpi .ne v2981 c0_i32_1234
  v2982

def k0_chk497 (i : grid0.Coords) (v2979 : BitVec 32) (v3074 : BitVec 32) : Prop :=
  (∀ (k0_h497 : k0_cond497 v2979 = 1#1), ∀ a, (k0_off1491 i v3074) a + S1x1x512.size a ≤ S1024x200x512.size a)
instance k0_chk497.dec : ∀ (i : grid0.Coords) (v2979 : BitVec 32) (v3074 : BitVec 32), Decidable (k0_chk497 i v2979 v3074) := fun i v2979 v3074 => decidable_of_iff' _ (Iff.of_eq (k0_chk497.eq_1 i v2979 v3074))
theorem k0_off1491_inb : ∀ (i : grid0.Coords) (v2979 : BitVec 32) (v3074 : BitVec 32) (k0_hw497 : k0_chk497 i v2979 v3074), ∀ (k0_h497 : k0_cond497 v2979 = 1#1), ∀ a, (k0_off1491 i v3074) a + S1x1x512.size a ≤ S1024x200x512.size a := fun i v2979 v3074 k0_hw497 k0_h497 => k0_hw497 k0_h497

def k0_off1492 (i : grid0.Coords) : Fin 1 → Nat :=
  let arg0 : BitVec 32 := BitVec.ofNat 32 (i 0).val
  let c256_i32 : BitVec 32 := 256#32
  let v0 : BitVec 32 := Scalar.muli arg0 c256_i32
  let c241_i32_1235 : BitVec 32 := 241#32
  let v2983 : BitVec 32 := Scalar.addi v0 c241_i32_1235
  let v2984 : Index := Scalar.indexCast v2983
  ![v2984.toNat]
def k0_off1493 (i : grid0.Coords) : Fin 1 → Nat :=
  let arg0 : BitVec 32 := BitVec.ofNat 32 (i 0).val
  let c256_i32 : BitVec 32 := 256#32
  let v0 : BitVec 32 := Scalar.muli arg0 c256_i32
  let c241_i32_1235 : BitVec 32 := 241#32
  let v2983 : BitVec 32 := Scalar.addi v0 c241_i32_1235
  let v3073 : Index := Scalar.indexCast v2983
  ![v3073.toNat]
def k0_off1494 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c241_i32_1235 : BitVec 32 := 241#32
  let v2983 : BitVec 32 := Scalar.addi v0 c241_i32_1235
  let c0_i32_1282 : BitVec 32 := 0#32
  ![v2983.toNat, v3074.toNat, 0]
def k0_cond498 (v2985 : BitVec 32) : BitVec 1 :=
  let c0_i32_1236 : BitVec 32 := 0#32
  let v2986 : BitVec 1 := Scalar.cmpi .sgt v2985 c0_i32_1236
  let v2987 : BitVec 32 := Scalar.extui v2986
  let c0_i32_1237 : BitVec 32 := 0#32
  let v2988 : BitVec 1 := Scalar.cmpi .ne v2987 c0_i32_1237
  v2988

def k0_chk498 (i : grid0.Coords) (v2985 : BitVec 32) (v3074 : BitVec 32) : Prop :=
  (∀ (k0_h498 : k0_cond498 v2985 = 1#1), ∀ a, (k0_off1494 i v3074) a + S1x1x512.size a ≤ S1024x200x512.size a)
instance k0_chk498.dec : ∀ (i : grid0.Coords) (v2985 : BitVec 32) (v3074 : BitVec 32), Decidable (k0_chk498 i v2985 v3074) := fun i v2985 v3074 => decidable_of_iff' _ (Iff.of_eq (k0_chk498.eq_1 i v2985 v3074))
theorem k0_off1494_inb : ∀ (i : grid0.Coords) (v2985 : BitVec 32) (v3074 : BitVec 32) (k0_hw498 : k0_chk498 i v2985 v3074), ∀ (k0_h498 : k0_cond498 v2985 = 1#1), ∀ a, (k0_off1494 i v3074) a + S1x1x512.size a ≤ S1024x200x512.size a := fun i v2985 v3074 k0_hw498 k0_h498 => k0_hw498 k0_h498

def k0_off1495 (i : grid0.Coords) : Fin 1 → Nat :=
  let arg0 : BitVec 32 := BitVec.ofNat 32 (i 0).val
  let c256_i32 : BitVec 32 := 256#32
  let v0 : BitVec 32 := Scalar.muli arg0 c256_i32
  let c242_i32_1238 : BitVec 32 := 242#32
  let v2989 : BitVec 32 := Scalar.addi v0 c242_i32_1238
  let v2990 : Index := Scalar.indexCast v2989
  ![v2990.toNat]
def k0_off1496 (i : grid0.Coords) : Fin 1 → Nat :=
  let arg0 : BitVec 32 := BitVec.ofNat 32 (i 0).val
  let c256_i32 : BitVec 32 := 256#32
  let v0 : BitVec 32 := Scalar.muli arg0 c256_i32
  let c242_i32_1238 : BitVec 32 := 242#32
  let v2989 : BitVec 32 := Scalar.addi v0 c242_i32_1238
  let v3073 : Index := Scalar.indexCast v2989
  ![v3073.toNat]
def k0_off1497 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c242_i32_1238 : BitVec 32 := 242#32
  let v2989 : BitVec 32 := Scalar.addi v0 c242_i32_1238
  let c0_i32_1282 : BitVec 32 := 0#32
  ![v2989.toNat, v3074.toNat, 0]
def k0_cond499 (v2991 : BitVec 32) : BitVec 1 :=
  let c0_i32_1239 : BitVec 32 := 0#32
  let v2992 : BitVec 1 := Scalar.cmpi .sgt v2991 c0_i32_1239
  let v2993 : BitVec 32 := Scalar.extui v2992
  let c0_i32_1240 : BitVec 32 := 0#32
  let v2994 : BitVec 1 := Scalar.cmpi .ne v2993 c0_i32_1240
  v2994

def k0_chk499 (i : grid0.Coords) (v2991 : BitVec 32) (v3074 : BitVec 32) : Prop :=
  (∀ (k0_h499 : k0_cond499 v2991 = 1#1), ∀ a, (k0_off1497 i v3074) a + S1x1x512.size a ≤ S1024x200x512.size a)
instance k0_chk499.dec : ∀ (i : grid0.Coords) (v2991 : BitVec 32) (v3074 : BitVec 32), Decidable (k0_chk499 i v2991 v3074) := fun i v2991 v3074 => decidable_of_iff' _ (Iff.of_eq (k0_chk499.eq_1 i v2991 v3074))
theorem k0_off1497_inb : ∀ (i : grid0.Coords) (v2991 : BitVec 32) (v3074 : BitVec 32) (k0_hw499 : k0_chk499 i v2991 v3074), ∀ (k0_h499 : k0_cond499 v2991 = 1#1), ∀ a, (k0_off1497 i v3074) a + S1x1x512.size a ≤ S1024x200x512.size a := fun i v2991 v3074 k0_hw499 k0_h499 => k0_hw499 k0_h499

def k0_off1498 (i : grid0.Coords) : Fin 1 → Nat :=
  let arg0 : BitVec 32 := BitVec.ofNat 32 (i 0).val
  let c256_i32 : BitVec 32 := 256#32
  let v0 : BitVec 32 := Scalar.muli arg0 c256_i32
  let c243_i32_1241 : BitVec 32 := 243#32
  let v2995 : BitVec 32 := Scalar.addi v0 c243_i32_1241
  let v2996 : Index := Scalar.indexCast v2995
  ![v2996.toNat]
def k0_off1499 (i : grid0.Coords) : Fin 1 → Nat :=
  let arg0 : BitVec 32 := BitVec.ofNat 32 (i 0).val
  let c256_i32 : BitVec 32 := 256#32
  let v0 : BitVec 32 := Scalar.muli arg0 c256_i32
  let c243_i32_1241 : BitVec 32 := 243#32
  let v2995 : BitVec 32 := Scalar.addi v0 c243_i32_1241
  let v3073 : Index := Scalar.indexCast v2995
  ![v3073.toNat]
def k0_off1500 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c243_i32_1241 : BitVec 32 := 243#32
  let v2995 : BitVec 32 := Scalar.addi v0 c243_i32_1241
  let c0_i32_1282 : BitVec 32 := 0#32
  ![v2995.toNat, v3074.toNat, 0]
def k0_cond500 (v2997 : BitVec 32) : BitVec 1 :=
  let c0_i32_1242 : BitVec 32 := 0#32
  let v2998 : BitVec 1 := Scalar.cmpi .sgt v2997 c0_i32_1242
  let v2999 : BitVec 32 := Scalar.extui v2998
  let c0_i32_1243 : BitVec 32 := 0#32
  let v3000 : BitVec 1 := Scalar.cmpi .ne v2999 c0_i32_1243
  v3000

def k0_chk500 (i : grid0.Coords) (v2997 : BitVec 32) (v3074 : BitVec 32) : Prop :=
  (∀ (k0_h500 : k0_cond500 v2997 = 1#1), ∀ a, (k0_off1500 i v3074) a + S1x1x512.size a ≤ S1024x200x512.size a)
instance k0_chk500.dec : ∀ (i : grid0.Coords) (v2997 : BitVec 32) (v3074 : BitVec 32), Decidable (k0_chk500 i v2997 v3074) := fun i v2997 v3074 => decidable_of_iff' _ (Iff.of_eq (k0_chk500.eq_1 i v2997 v3074))
theorem k0_off1500_inb : ∀ (i : grid0.Coords) (v2997 : BitVec 32) (v3074 : BitVec 32) (k0_hw500 : k0_chk500 i v2997 v3074), ∀ (k0_h500 : k0_cond500 v2997 = 1#1), ∀ a, (k0_off1500 i v3074) a + S1x1x512.size a ≤ S1024x200x512.size a := fun i v2997 v3074 k0_hw500 k0_h500 => k0_hw500 k0_h500

def k0_off1501 (i : grid0.Coords) : Fin 1 → Nat :=
  let arg0 : BitVec 32 := BitVec.ofNat 32 (i 0).val
  let c256_i32 : BitVec 32 := 256#32
  let v0 : BitVec 32 := Scalar.muli arg0 c256_i32
  let c244_i32_1244 : BitVec 32 := 244#32
  let v3001 : BitVec 32 := Scalar.addi v0 c244_i32_1244
  let v3002 : Index := Scalar.indexCast v3001
  ![v3002.toNat]
def k0_off1502 (i : grid0.Coords) : Fin 1 → Nat :=
  let arg0 : BitVec 32 := BitVec.ofNat 32 (i 0).val
  let c256_i32 : BitVec 32 := 256#32
  let v0 : BitVec 32 := Scalar.muli arg0 c256_i32
  let c244_i32_1244 : BitVec 32 := 244#32
  let v3001 : BitVec 32 := Scalar.addi v0 c244_i32_1244
  let v3073 : Index := Scalar.indexCast v3001
  ![v3073.toNat]
def k0_off1503 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c244_i32_1244 : BitVec 32 := 244#32
  let v3001 : BitVec 32 := Scalar.addi v0 c244_i32_1244
  let c0_i32_1282 : BitVec 32 := 0#32
  ![v3001.toNat, v3074.toNat, 0]
def k0_cond501 (v3003 : BitVec 32) : BitVec 1 :=
  let c0_i32_1245 : BitVec 32 := 0#32
  let v3004 : BitVec 1 := Scalar.cmpi .sgt v3003 c0_i32_1245
  let v3005 : BitVec 32 := Scalar.extui v3004
  let c0_i32_1246 : BitVec 32 := 0#32
  let v3006 : BitVec 1 := Scalar.cmpi .ne v3005 c0_i32_1246
  v3006

def k0_chk501 (i : grid0.Coords) (v3003 : BitVec 32) (v3074 : BitVec 32) : Prop :=
  (∀ (k0_h501 : k0_cond501 v3003 = 1#1), ∀ a, (k0_off1503 i v3074) a + S1x1x512.size a ≤ S1024x200x512.size a)
instance k0_chk501.dec : ∀ (i : grid0.Coords) (v3003 : BitVec 32) (v3074 : BitVec 32), Decidable (k0_chk501 i v3003 v3074) := fun i v3003 v3074 => decidable_of_iff' _ (Iff.of_eq (k0_chk501.eq_1 i v3003 v3074))
theorem k0_off1503_inb : ∀ (i : grid0.Coords) (v3003 : BitVec 32) (v3074 : BitVec 32) (k0_hw501 : k0_chk501 i v3003 v3074), ∀ (k0_h501 : k0_cond501 v3003 = 1#1), ∀ a, (k0_off1503 i v3074) a + S1x1x512.size a ≤ S1024x200x512.size a := fun i v3003 v3074 k0_hw501 k0_h501 => k0_hw501 k0_h501

def k0_off1504 (i : grid0.Coords) : Fin 1 → Nat :=
  let arg0 : BitVec 32 := BitVec.ofNat 32 (i 0).val
  let c256_i32 : BitVec 32 := 256#32
  let v0 : BitVec 32 := Scalar.muli arg0 c256_i32
  let c245_i32_1247 : BitVec 32 := 245#32
  let v3007 : BitVec 32 := Scalar.addi v0 c245_i32_1247
  let v3008 : Index := Scalar.indexCast v3007
  ![v3008.toNat]
def k0_off1505 (i : grid0.Coords) : Fin 1 → Nat :=
  let arg0 : BitVec 32 := BitVec.ofNat 32 (i 0).val
  let c256_i32 : BitVec 32 := 256#32
  let v0 : BitVec 32 := Scalar.muli arg0 c256_i32
  let c245_i32_1247 : BitVec 32 := 245#32
  let v3007 : BitVec 32 := Scalar.addi v0 c245_i32_1247
  let v3073 : Index := Scalar.indexCast v3007
  ![v3073.toNat]
def k0_off1506 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c245_i32_1247 : BitVec 32 := 245#32
  let v3007 : BitVec 32 := Scalar.addi v0 c245_i32_1247
  let c0_i32_1282 : BitVec 32 := 0#32
  ![v3007.toNat, v3074.toNat, 0]
def k0_cond502 (v3009 : BitVec 32) : BitVec 1 :=
  let c0_i32_1248 : BitVec 32 := 0#32
  let v3010 : BitVec 1 := Scalar.cmpi .sgt v3009 c0_i32_1248
  let v3011 : BitVec 32 := Scalar.extui v3010
  let c0_i32_1249 : BitVec 32 := 0#32
  let v3012 : BitVec 1 := Scalar.cmpi .ne v3011 c0_i32_1249
  v3012

def k0_chk502 (i : grid0.Coords) (v3009 : BitVec 32) (v3074 : BitVec 32) : Prop :=
  (∀ (k0_h502 : k0_cond502 v3009 = 1#1), ∀ a, (k0_off1506 i v3074) a + S1x1x512.size a ≤ S1024x200x512.size a)
instance k0_chk502.dec : ∀ (i : grid0.Coords) (v3009 : BitVec 32) (v3074 : BitVec 32), Decidable (k0_chk502 i v3009 v3074) := fun i v3009 v3074 => decidable_of_iff' _ (Iff.of_eq (k0_chk502.eq_1 i v3009 v3074))
theorem k0_off1506_inb : ∀ (i : grid0.Coords) (v3009 : BitVec 32) (v3074 : BitVec 32) (k0_hw502 : k0_chk502 i v3009 v3074), ∀ (k0_h502 : k0_cond502 v3009 = 1#1), ∀ a, (k0_off1506 i v3074) a + S1x1x512.size a ≤ S1024x200x512.size a := fun i v3009 v3074 k0_hw502 k0_h502 => k0_hw502 k0_h502

def k0_off1507 (i : grid0.Coords) : Fin 1 → Nat :=
  let arg0 : BitVec 32 := BitVec.ofNat 32 (i 0).val
  let c256_i32 : BitVec 32 := 256#32
  let v0 : BitVec 32 := Scalar.muli arg0 c256_i32
  let c246_i32_1250 : BitVec 32 := 246#32
  let v3013 : BitVec 32 := Scalar.addi v0 c246_i32_1250
  let v3014 : Index := Scalar.indexCast v3013
  ![v3014.toNat]
def k0_off1508 (i : grid0.Coords) : Fin 1 → Nat :=
  let arg0 : BitVec 32 := BitVec.ofNat 32 (i 0).val
  let c256_i32 : BitVec 32 := 256#32
  let v0 : BitVec 32 := Scalar.muli arg0 c256_i32
  let c246_i32_1250 : BitVec 32 := 246#32
  let v3013 : BitVec 32 := Scalar.addi v0 c246_i32_1250
  let v3073 : Index := Scalar.indexCast v3013
  ![v3073.toNat]
def k0_off1509 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c246_i32_1250 : BitVec 32 := 246#32
  let v3013 : BitVec 32 := Scalar.addi v0 c246_i32_1250
  let c0_i32_1282 : BitVec 32 := 0#32
  ![v3013.toNat, v3074.toNat, 0]
def k0_cond503 (v3015 : BitVec 32) : BitVec 1 :=
  let c0_i32_1251 : BitVec 32 := 0#32
  let v3016 : BitVec 1 := Scalar.cmpi .sgt v3015 c0_i32_1251
  let v3017 : BitVec 32 := Scalar.extui v3016
  let c0_i32_1252 : BitVec 32 := 0#32
  let v3018 : BitVec 1 := Scalar.cmpi .ne v3017 c0_i32_1252
  v3018

def k0_chk503 (i : grid0.Coords) (v3015 : BitVec 32) (v3074 : BitVec 32) : Prop :=
  (∀ (k0_h503 : k0_cond503 v3015 = 1#1), ∀ a, (k0_off1509 i v3074) a + S1x1x512.size a ≤ S1024x200x512.size a)
instance k0_chk503.dec : ∀ (i : grid0.Coords) (v3015 : BitVec 32) (v3074 : BitVec 32), Decidable (k0_chk503 i v3015 v3074) := fun i v3015 v3074 => decidable_of_iff' _ (Iff.of_eq (k0_chk503.eq_1 i v3015 v3074))
theorem k0_off1509_inb : ∀ (i : grid0.Coords) (v3015 : BitVec 32) (v3074 : BitVec 32) (k0_hw503 : k0_chk503 i v3015 v3074), ∀ (k0_h503 : k0_cond503 v3015 = 1#1), ∀ a, (k0_off1509 i v3074) a + S1x1x512.size a ≤ S1024x200x512.size a := fun i v3015 v3074 k0_hw503 k0_h503 => k0_hw503 k0_h503

def k0_off1510 (i : grid0.Coords) : Fin 1 → Nat :=
  let arg0 : BitVec 32 := BitVec.ofNat 32 (i 0).val
  let c256_i32 : BitVec 32 := 256#32
  let v0 : BitVec 32 := Scalar.muli arg0 c256_i32
  let c247_i32_1253 : BitVec 32 := 247#32
  let v3019 : BitVec 32 := Scalar.addi v0 c247_i32_1253
  let v3020 : Index := Scalar.indexCast v3019
  ![v3020.toNat]
def k0_off1511 (i : grid0.Coords) : Fin 1 → Nat :=
  let arg0 : BitVec 32 := BitVec.ofNat 32 (i 0).val
  let c256_i32 : BitVec 32 := 256#32
  let v0 : BitVec 32 := Scalar.muli arg0 c256_i32
  let c247_i32_1253 : BitVec 32 := 247#32
  let v3019 : BitVec 32 := Scalar.addi v0 c247_i32_1253
  let v3073 : Index := Scalar.indexCast v3019
  ![v3073.toNat]
def k0_off1512 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c247_i32_1253 : BitVec 32 := 247#32
  let v3019 : BitVec 32 := Scalar.addi v0 c247_i32_1253
  let c0_i32_1282 : BitVec 32 := 0#32
  ![v3019.toNat, v3074.toNat, 0]
def k0_cond504 (v3021 : BitVec 32) : BitVec 1 :=
  let c0_i32_1254 : BitVec 32 := 0#32
  let v3022 : BitVec 1 := Scalar.cmpi .sgt v3021 c0_i32_1254
  let v3023 : BitVec 32 := Scalar.extui v3022
  let c0_i32_1255 : BitVec 32 := 0#32
  let v3024 : BitVec 1 := Scalar.cmpi .ne v3023 c0_i32_1255
  v3024

def k0_chk504 (i : grid0.Coords) (v3021 : BitVec 32) (v3074 : BitVec 32) : Prop :=
  (∀ (k0_h504 : k0_cond504 v3021 = 1#1), ∀ a, (k0_off1512 i v3074) a + S1x1x512.size a ≤ S1024x200x512.size a)
instance k0_chk504.dec : ∀ (i : grid0.Coords) (v3021 : BitVec 32) (v3074 : BitVec 32), Decidable (k0_chk504 i v3021 v3074) := fun i v3021 v3074 => decidable_of_iff' _ (Iff.of_eq (k0_chk504.eq_1 i v3021 v3074))
theorem k0_off1512_inb : ∀ (i : grid0.Coords) (v3021 : BitVec 32) (v3074 : BitVec 32) (k0_hw504 : k0_chk504 i v3021 v3074), ∀ (k0_h504 : k0_cond504 v3021 = 1#1), ∀ a, (k0_off1512 i v3074) a + S1x1x512.size a ≤ S1024x200x512.size a := fun i v3021 v3074 k0_hw504 k0_h504 => k0_hw504 k0_h504

def k0_off1513 (i : grid0.Coords) : Fin 1 → Nat :=
  let arg0 : BitVec 32 := BitVec.ofNat 32 (i 0).val
  let c256_i32 : BitVec 32 := 256#32
  let v0 : BitVec 32 := Scalar.muli arg0 c256_i32
  let c248_i32_1256 : BitVec 32 := 248#32
  let v3025 : BitVec 32 := Scalar.addi v0 c248_i32_1256
  let v3026 : Index := Scalar.indexCast v3025
  ![v3026.toNat]
def k0_off1514 (i : grid0.Coords) : Fin 1 → Nat :=
  let arg0 : BitVec 32 := BitVec.ofNat 32 (i 0).val
  let c256_i32 : BitVec 32 := 256#32
  let v0 : BitVec 32 := Scalar.muli arg0 c256_i32
  let c248_i32_1256 : BitVec 32 := 248#32
  let v3025 : BitVec 32 := Scalar.addi v0 c248_i32_1256
  let v3073 : Index := Scalar.indexCast v3025
  ![v3073.toNat]
def k0_off1515 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c248_i32_1256 : BitVec 32 := 248#32
  let v3025 : BitVec 32 := Scalar.addi v0 c248_i32_1256
  let c0_i32_1282 : BitVec 32 := 0#32
  ![v3025.toNat, v3074.toNat, 0]
def k0_cond505 (v3027 : BitVec 32) : BitVec 1 :=
  let c0_i32_1257 : BitVec 32 := 0#32
  let v3028 : BitVec 1 := Scalar.cmpi .sgt v3027 c0_i32_1257
  let v3029 : BitVec 32 := Scalar.extui v3028
  let c0_i32_1258 : BitVec 32 := 0#32
  let v3030 : BitVec 1 := Scalar.cmpi .ne v3029 c0_i32_1258
  v3030

def k0_chk505 (i : grid0.Coords) (v3027 : BitVec 32) (v3074 : BitVec 32) : Prop :=
  (∀ (k0_h505 : k0_cond505 v3027 = 1#1), ∀ a, (k0_off1515 i v3074) a + S1x1x512.size a ≤ S1024x200x512.size a)
instance k0_chk505.dec : ∀ (i : grid0.Coords) (v3027 : BitVec 32) (v3074 : BitVec 32), Decidable (k0_chk505 i v3027 v3074) := fun i v3027 v3074 => decidable_of_iff' _ (Iff.of_eq (k0_chk505.eq_1 i v3027 v3074))
theorem k0_off1515_inb : ∀ (i : grid0.Coords) (v3027 : BitVec 32) (v3074 : BitVec 32) (k0_hw505 : k0_chk505 i v3027 v3074), ∀ (k0_h505 : k0_cond505 v3027 = 1#1), ∀ a, (k0_off1515 i v3074) a + S1x1x512.size a ≤ S1024x200x512.size a := fun i v3027 v3074 k0_hw505 k0_h505 => k0_hw505 k0_h505

def k0_off1516 (i : grid0.Coords) : Fin 1 → Nat :=
  let arg0 : BitVec 32 := BitVec.ofNat 32 (i 0).val
  let c256_i32 : BitVec 32 := 256#32
  let v0 : BitVec 32 := Scalar.muli arg0 c256_i32
  let c249_i32_1259 : BitVec 32 := 249#32
  let v3031 : BitVec 32 := Scalar.addi v0 c249_i32_1259
  let v3032 : Index := Scalar.indexCast v3031
  ![v3032.toNat]
def k0_off1517 (i : grid0.Coords) : Fin 1 → Nat :=
  let arg0 : BitVec 32 := BitVec.ofNat 32 (i 0).val
  let c256_i32 : BitVec 32 := 256#32
  let v0 : BitVec 32 := Scalar.muli arg0 c256_i32
  let c249_i32_1259 : BitVec 32 := 249#32
  let v3031 : BitVec 32 := Scalar.addi v0 c249_i32_1259
  let v3073 : Index := Scalar.indexCast v3031
  ![v3073.toNat]
def k0_off1518 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c249_i32_1259 : BitVec 32 := 249#32
  let v3031 : BitVec 32 := Scalar.addi v0 c249_i32_1259
  let c0_i32_1282 : BitVec 32 := 0#32
  ![v3031.toNat, v3074.toNat, 0]
def k0_cond506 (v3033 : BitVec 32) : BitVec 1 :=
  let c0_i32_1260 : BitVec 32 := 0#32
  let v3034 : BitVec 1 := Scalar.cmpi .sgt v3033 c0_i32_1260
  let v3035 : BitVec 32 := Scalar.extui v3034
  let c0_i32_1261 : BitVec 32 := 0#32
  let v3036 : BitVec 1 := Scalar.cmpi .ne v3035 c0_i32_1261
  v3036

def k0_chk506 (i : grid0.Coords) (v3033 : BitVec 32) (v3074 : BitVec 32) : Prop :=
  (∀ (k0_h506 : k0_cond506 v3033 = 1#1), ∀ a, (k0_off1518 i v3074) a + S1x1x512.size a ≤ S1024x200x512.size a)
instance k0_chk506.dec : ∀ (i : grid0.Coords) (v3033 : BitVec 32) (v3074 : BitVec 32), Decidable (k0_chk506 i v3033 v3074) := fun i v3033 v3074 => decidable_of_iff' _ (Iff.of_eq (k0_chk506.eq_1 i v3033 v3074))
theorem k0_off1518_inb : ∀ (i : grid0.Coords) (v3033 : BitVec 32) (v3074 : BitVec 32) (k0_hw506 : k0_chk506 i v3033 v3074), ∀ (k0_h506 : k0_cond506 v3033 = 1#1), ∀ a, (k0_off1518 i v3074) a + S1x1x512.size a ≤ S1024x200x512.size a := fun i v3033 v3074 k0_hw506 k0_h506 => k0_hw506 k0_h506

def k0_off1519 (i : grid0.Coords) : Fin 1 → Nat :=
  let arg0 : BitVec 32 := BitVec.ofNat 32 (i 0).val
  let c256_i32 : BitVec 32 := 256#32
  let v0 : BitVec 32 := Scalar.muli arg0 c256_i32
  let c250_i32_1262 : BitVec 32 := 250#32
  let v3037 : BitVec 32 := Scalar.addi v0 c250_i32_1262
  let v3038 : Index := Scalar.indexCast v3037
  ![v3038.toNat]
def k0_off1520 (i : grid0.Coords) : Fin 1 → Nat :=
  let arg0 : BitVec 32 := BitVec.ofNat 32 (i 0).val
  let c256_i32 : BitVec 32 := 256#32
  let v0 : BitVec 32 := Scalar.muli arg0 c256_i32
  let c250_i32_1262 : BitVec 32 := 250#32
  let v3037 : BitVec 32 := Scalar.addi v0 c250_i32_1262
  let v3073 : Index := Scalar.indexCast v3037
  ![v3073.toNat]
def k0_off1521 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c250_i32_1262 : BitVec 32 := 250#32
  let v3037 : BitVec 32 := Scalar.addi v0 c250_i32_1262
  let c0_i32_1282 : BitVec 32 := 0#32
  ![v3037.toNat, v3074.toNat, 0]
def k0_cond507 (v3039 : BitVec 32) : BitVec 1 :=
  let c0_i32_1263 : BitVec 32 := 0#32
  let v3040 : BitVec 1 := Scalar.cmpi .sgt v3039 c0_i32_1263
  let v3041 : BitVec 32 := Scalar.extui v3040
  let c0_i32_1264 : BitVec 32 := 0#32
  let v3042 : BitVec 1 := Scalar.cmpi .ne v3041 c0_i32_1264
  v3042

def k0_chk507 (i : grid0.Coords) (v3039 : BitVec 32) (v3074 : BitVec 32) : Prop :=
  (∀ (k0_h507 : k0_cond507 v3039 = 1#1), ∀ a, (k0_off1521 i v3074) a + S1x1x512.size a ≤ S1024x200x512.size a)
instance k0_chk507.dec : ∀ (i : grid0.Coords) (v3039 : BitVec 32) (v3074 : BitVec 32), Decidable (k0_chk507 i v3039 v3074) := fun i v3039 v3074 => decidable_of_iff' _ (Iff.of_eq (k0_chk507.eq_1 i v3039 v3074))
theorem k0_off1521_inb : ∀ (i : grid0.Coords) (v3039 : BitVec 32) (v3074 : BitVec 32) (k0_hw507 : k0_chk507 i v3039 v3074), ∀ (k0_h507 : k0_cond507 v3039 = 1#1), ∀ a, (k0_off1521 i v3074) a + S1x1x512.size a ≤ S1024x200x512.size a := fun i v3039 v3074 k0_hw507 k0_h507 => k0_hw507 k0_h507

def k0_off1522 (i : grid0.Coords) : Fin 1 → Nat :=
  let arg0 : BitVec 32 := BitVec.ofNat 32 (i 0).val
  let c256_i32 : BitVec 32 := 256#32
  let v0 : BitVec 32 := Scalar.muli arg0 c256_i32
  let c251_i32_1265 : BitVec 32 := 251#32
  let v3043 : BitVec 32 := Scalar.addi v0 c251_i32_1265
  let v3044 : Index := Scalar.indexCast v3043
  ![v3044.toNat]
def k0_off1523 (i : grid0.Coords) : Fin 1 → Nat :=
  let arg0 : BitVec 32 := BitVec.ofNat 32 (i 0).val
  let c256_i32 : BitVec 32 := 256#32
  let v0 : BitVec 32 := Scalar.muli arg0 c256_i32
  let c251_i32_1265 : BitVec 32 := 251#32
  let v3043 : BitVec 32 := Scalar.addi v0 c251_i32_1265
  let v3073 : Index := Scalar.indexCast v3043
  ![v3073.toNat]
def k0_off1524 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c251_i32_1265 : BitVec 32 := 251#32
  let v3043 : BitVec 32 := Scalar.addi v0 c251_i32_1265
  let c0_i32_1282 : BitVec 32 := 0#32
  ![v3043.toNat, v3074.toNat, 0]
def k0_cond508 (v3045 : BitVec 32) : BitVec 1 :=
  let c0_i32_1266 : BitVec 32 := 0#32
  let v3046 : BitVec 1 := Scalar.cmpi .sgt v3045 c0_i32_1266
  let v3047 : BitVec 32 := Scalar.extui v3046
  let c0_i32_1267 : BitVec 32 := 0#32
  let v3048 : BitVec 1 := Scalar.cmpi .ne v3047 c0_i32_1267
  v3048

def k0_chk508 (i : grid0.Coords) (v3045 : BitVec 32) (v3074 : BitVec 32) : Prop :=
  (∀ (k0_h508 : k0_cond508 v3045 = 1#1), ∀ a, (k0_off1524 i v3074) a + S1x1x512.size a ≤ S1024x200x512.size a)
instance k0_chk508.dec : ∀ (i : grid0.Coords) (v3045 : BitVec 32) (v3074 : BitVec 32), Decidable (k0_chk508 i v3045 v3074) := fun i v3045 v3074 => decidable_of_iff' _ (Iff.of_eq (k0_chk508.eq_1 i v3045 v3074))
theorem k0_off1524_inb : ∀ (i : grid0.Coords) (v3045 : BitVec 32) (v3074 : BitVec 32) (k0_hw508 : k0_chk508 i v3045 v3074), ∀ (k0_h508 : k0_cond508 v3045 = 1#1), ∀ a, (k0_off1524 i v3074) a + S1x1x512.size a ≤ S1024x200x512.size a := fun i v3045 v3074 k0_hw508 k0_h508 => k0_hw508 k0_h508

def k0_off1525 (i : grid0.Coords) : Fin 1 → Nat :=
  let arg0 : BitVec 32 := BitVec.ofNat 32 (i 0).val
  let c256_i32 : BitVec 32 := 256#32
  let v0 : BitVec 32 := Scalar.muli arg0 c256_i32
  let c252_i32_1268 : BitVec 32 := 252#32
  let v3049 : BitVec 32 := Scalar.addi v0 c252_i32_1268
  let v3050 : Index := Scalar.indexCast v3049
  ![v3050.toNat]
def k0_off1526 (i : grid0.Coords) : Fin 1 → Nat :=
  let arg0 : BitVec 32 := BitVec.ofNat 32 (i 0).val
  let c256_i32 : BitVec 32 := 256#32
  let v0 : BitVec 32 := Scalar.muli arg0 c256_i32
  let c252_i32_1268 : BitVec 32 := 252#32
  let v3049 : BitVec 32 := Scalar.addi v0 c252_i32_1268
  let v3073 : Index := Scalar.indexCast v3049
  ![v3073.toNat]
def k0_off1527 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c252_i32_1268 : BitVec 32 := 252#32
  let v3049 : BitVec 32 := Scalar.addi v0 c252_i32_1268
  let c0_i32_1282 : BitVec 32 := 0#32
  ![v3049.toNat, v3074.toNat, 0]
def k0_cond509 (v3051 : BitVec 32) : BitVec 1 :=
  let c0_i32_1269 : BitVec 32 := 0#32
  let v3052 : BitVec 1 := Scalar.cmpi .sgt v3051 c0_i32_1269
  let v3053 : BitVec 32 := Scalar.extui v3052
  let c0_i32_1270 : BitVec 32 := 0#32
  let v3054 : BitVec 1 := Scalar.cmpi .ne v3053 c0_i32_1270
  v3054

def k0_chk509 (i : grid0.Coords) (v3051 : BitVec 32) (v3074 : BitVec 32) : Prop :=
  (∀ (k0_h509 : k0_cond509 v3051 = 1#1), ∀ a, (k0_off1527 i v3074) a + S1x1x512.size a ≤ S1024x200x512.size a)
instance k0_chk509.dec : ∀ (i : grid0.Coords) (v3051 : BitVec 32) (v3074 : BitVec 32), Decidable (k0_chk509 i v3051 v3074) := fun i v3051 v3074 => decidable_of_iff' _ (Iff.of_eq (k0_chk509.eq_1 i v3051 v3074))
theorem k0_off1527_inb : ∀ (i : grid0.Coords) (v3051 : BitVec 32) (v3074 : BitVec 32) (k0_hw509 : k0_chk509 i v3051 v3074), ∀ (k0_h509 : k0_cond509 v3051 = 1#1), ∀ a, (k0_off1527 i v3074) a + S1x1x512.size a ≤ S1024x200x512.size a := fun i v3051 v3074 k0_hw509 k0_h509 => k0_hw509 k0_h509

def k0_off1528 (i : grid0.Coords) : Fin 1 → Nat :=
  let arg0 : BitVec 32 := BitVec.ofNat 32 (i 0).val
  let c256_i32 : BitVec 32 := 256#32
  let v0 : BitVec 32 := Scalar.muli arg0 c256_i32
  let c253_i32_1271 : BitVec 32 := 253#32
  let v3055 : BitVec 32 := Scalar.addi v0 c253_i32_1271
  let v3056 : Index := Scalar.indexCast v3055
  ![v3056.toNat]
def k0_off1529 (i : grid0.Coords) : Fin 1 → Nat :=
  let arg0 : BitVec 32 := BitVec.ofNat 32 (i 0).val
  let c256_i32 : BitVec 32 := 256#32
  let v0 : BitVec 32 := Scalar.muli arg0 c256_i32
  let c253_i32_1271 : BitVec 32 := 253#32
  let v3055 : BitVec 32 := Scalar.addi v0 c253_i32_1271
  let v3073 : Index := Scalar.indexCast v3055
  ![v3073.toNat]
def k0_off1530 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c253_i32_1271 : BitVec 32 := 253#32
  let v3055 : BitVec 32 := Scalar.addi v0 c253_i32_1271
  let c0_i32_1282 : BitVec 32 := 0#32
  ![v3055.toNat, v3074.toNat, 0]
def k0_cond510 (v3057 : BitVec 32) : BitVec 1 :=
  let c0_i32_1272 : BitVec 32 := 0#32
  let v3058 : BitVec 1 := Scalar.cmpi .sgt v3057 c0_i32_1272
  let v3059 : BitVec 32 := Scalar.extui v3058
  let c0_i32_1273 : BitVec 32 := 0#32
  let v3060 : BitVec 1 := Scalar.cmpi .ne v3059 c0_i32_1273
  v3060

def k0_chk510 (i : grid0.Coords) (v3057 : BitVec 32) (v3074 : BitVec 32) : Prop :=
  (∀ (k0_h510 : k0_cond510 v3057 = 1#1), ∀ a, (k0_off1530 i v3074) a + S1x1x512.size a ≤ S1024x200x512.size a)
instance k0_chk510.dec : ∀ (i : grid0.Coords) (v3057 : BitVec 32) (v3074 : BitVec 32), Decidable (k0_chk510 i v3057 v3074) := fun i v3057 v3074 => decidable_of_iff' _ (Iff.of_eq (k0_chk510.eq_1 i v3057 v3074))
theorem k0_off1530_inb : ∀ (i : grid0.Coords) (v3057 : BitVec 32) (v3074 : BitVec 32) (k0_hw510 : k0_chk510 i v3057 v3074), ∀ (k0_h510 : k0_cond510 v3057 = 1#1), ∀ a, (k0_off1530 i v3074) a + S1x1x512.size a ≤ S1024x200x512.size a := fun i v3057 v3074 k0_hw510 k0_h510 => k0_hw510 k0_h510

def k0_off1531 (i : grid0.Coords) : Fin 1 → Nat :=
  let arg0 : BitVec 32 := BitVec.ofNat 32 (i 0).val
  let c256_i32 : BitVec 32 := 256#32
  let v0 : BitVec 32 := Scalar.muli arg0 c256_i32
  let c254_i32_1274 : BitVec 32 := 254#32
  let v3061 : BitVec 32 := Scalar.addi v0 c254_i32_1274
  let v3062 : Index := Scalar.indexCast v3061
  ![v3062.toNat]
def k0_off1532 (i : grid0.Coords) : Fin 1 → Nat :=
  let arg0 : BitVec 32 := BitVec.ofNat 32 (i 0).val
  let c256_i32 : BitVec 32 := 256#32
  let v0 : BitVec 32 := Scalar.muli arg0 c256_i32
  let c254_i32_1274 : BitVec 32 := 254#32
  let v3061 : BitVec 32 := Scalar.addi v0 c254_i32_1274
  let v3073 : Index := Scalar.indexCast v3061
  ![v3073.toNat]
def k0_off1533 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c254_i32_1274 : BitVec 32 := 254#32
  let v3061 : BitVec 32 := Scalar.addi v0 c254_i32_1274
  let c0_i32_1282 : BitVec 32 := 0#32
  ![v3061.toNat, v3074.toNat, 0]
def k0_cond511 (v3063 : BitVec 32) : BitVec 1 :=
  let c0_i32_1275 : BitVec 32 := 0#32
  let v3064 : BitVec 1 := Scalar.cmpi .sgt v3063 c0_i32_1275
  let v3065 : BitVec 32 := Scalar.extui v3064
  let c0_i32_1276 : BitVec 32 := 0#32
  let v3066 : BitVec 1 := Scalar.cmpi .ne v3065 c0_i32_1276
  v3066

def k0_chk511 (i : grid0.Coords) (v3063 : BitVec 32) (v3074 : BitVec 32) : Prop :=
  (∀ (k0_h511 : k0_cond511 v3063 = 1#1), ∀ a, (k0_off1533 i v3074) a + S1x1x512.size a ≤ S1024x200x512.size a)
instance k0_chk511.dec : ∀ (i : grid0.Coords) (v3063 : BitVec 32) (v3074 : BitVec 32), Decidable (k0_chk511 i v3063 v3074) := fun i v3063 v3074 => decidable_of_iff' _ (Iff.of_eq (k0_chk511.eq_1 i v3063 v3074))
theorem k0_off1533_inb : ∀ (i : grid0.Coords) (v3063 : BitVec 32) (v3074 : BitVec 32) (k0_hw511 : k0_chk511 i v3063 v3074), ∀ (k0_h511 : k0_cond511 v3063 = 1#1), ∀ a, (k0_off1533 i v3074) a + S1x1x512.size a ≤ S1024x200x512.size a := fun i v3063 v3074 k0_hw511 k0_h511 => k0_hw511 k0_h511

def k0_off1534 (i : grid0.Coords) : Fin 1 → Nat :=
  let arg0 : BitVec 32 := BitVec.ofNat 32 (i 0).val
  let c256_i32 : BitVec 32 := 256#32
  let v0 : BitVec 32 := Scalar.muli arg0 c256_i32
  let c255_i32_1277 : BitVec 32 := 255#32
  let v3067 : BitVec 32 := Scalar.addi v0 c255_i32_1277
  let v3068 : Index := Scalar.indexCast v3067
  ![v3068.toNat]
def k0_off1535 (i : grid0.Coords) : Fin 1 → Nat :=
  let arg0 : BitVec 32 := BitVec.ofNat 32 (i 0).val
  let c256_i32 : BitVec 32 := 256#32
  let v0 : BitVec 32 := Scalar.muli arg0 c256_i32
  let c255_i32_1277 : BitVec 32 := 255#32
  let v3067 : BitVec 32 := Scalar.addi v0 c255_i32_1277
  let v3073 : Index := Scalar.indexCast v3067
  ![v3073.toNat]
def k0_off1536 (i : grid0.Coords) (v3074 : BitVec 32) : Fin 3 → Nat :=
  let arg0 : BitVec 32 := BitVec.ofNat 32 (i 0).val
  let c256_i32 : BitVec 32 := 256#32
  let v0 : BitVec 32 := Scalar.muli arg0 c256_i32
  let c255_i32_1277 : BitVec 32 := 255#32
  let v3067 : BitVec 32 := Scalar.addi v0 c255_i32_1277
  let c0_i32_1282 : BitVec 32 := 0#32
  ![v3067.toNat, v3074.toNat, 0]
def k0_cond512 (v3069 : BitVec 32) : BitVec 1 :=
  let c0_i32_1278 : BitVec 32 := 0#32
  let v3070 : BitVec 1 := Scalar.cmpi .sgt v3069 c0_i32_1278
  let v3071 : BitVec 32 := Scalar.extui v3070
  let c0_i32_1279 : BitVec 32 := 0#32
  let v3072 : BitVec 1 := Scalar.cmpi .ne v3071 c0_i32_1279
  v3072

def k0_chk512 (i : grid0.Coords) (v3069 : BitVec 32) (v3074 : BitVec 32) : Prop :=
  (∀ (k0_h512 : k0_cond512 v3069 = 1#1), ∀ a, (k0_off1536 i v3074) a + S1x1x512.size a ≤ S1024x200x512.size a)
instance k0_chk512.dec : ∀ (i : grid0.Coords) (v3069 : BitVec 32) (v3074 : BitVec 32), Decidable (k0_chk512 i v3069 v3074) := fun i v3069 v3074 => decidable_of_iff' _ (Iff.of_eq (k0_chk512.eq_1 i v3069 v3074))
theorem k0_off1536_inb : ∀ (i : grid0.Coords) (v3069 : BitVec 32) (v3074 : BitVec 32) (k0_hw512 : k0_chk512 i v3069 v3074), ∀ (k0_h512 : k0_cond512 v3069 = 1#1), ∀ a, (k0_off1536 i v3074) a + S1x1x512.size a ≤ S1024x200x512.size a := fun i v3069 v3074 k0_hw512 k0_h512 => k0_hw512 k0_h512

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class K0.R1.Facts₀ : Prop where
  hrank0 : 0 < grid0.rank
  k0_off1_inb : ∀ i : grid0.Coords, ∀ a, (k0_off1 i) a + S1.size a ≤ S1024.size a
  k0_off2_inb : ∀ i : grid0.Coords, ∀ a, (k0_off2 i) a + S1.size a ≤ S1024.size a
  k0_off4_inb : ∀ i : grid0.Coords, ∀ a, (k0_off4 i) a + S1.size a ≤ S1024.size a
  k0_off5_inb : ∀ i : grid0.Coords, ∀ a, (k0_off5 i) a + S1.size a ≤ S1024.size a
  k0_off7_inb : ∀ i : grid0.Coords, ∀ a, (k0_off7 i) a + S1.size a ≤ S1024.size a
  k0_off8_inb : ∀ i : grid0.Coords, ∀ a, (k0_off8 i) a + S1.size a ≤ S1024.size a
  k0_off10_inb : ∀ i : grid0.Coords, ∀ a, (k0_off10 i) a + S1.size a ≤ S1024.size a
  k0_off11_inb : ∀ i : grid0.Coords, ∀ a, (k0_off11 i) a + S1.size a ≤ S1024.size a
  k0_off13_inb : ∀ i : grid0.Coords, ∀ a, (k0_off13 i) a + S1.size a ≤ S1024.size a
  k0_off14_inb : ∀ i : grid0.Coords, ∀ a, (k0_off14 i) a + S1.size a ≤ S1024.size a
  k0_off16_inb : ∀ i : grid0.Coords, ∀ a, (k0_off16 i) a + S1.size a ≤ S1024.size a
  k0_off17_inb : ∀ i : grid0.Coords, ∀ a, (k0_off17 i) a + S1.size a ≤ S1024.size a
  k0_off19_inb : ∀ i : grid0.Coords, ∀ a, (k0_off19 i) a + S1.size a ≤ S1024.size a
  k0_off20_inb : ∀ i : grid0.Coords, ∀ a, (k0_off20 i) a + S1.size a ≤ S1024.size a
  k0_off22_inb : ∀ i : grid0.Coords, ∀ a, (k0_off22 i) a + S1.size a ≤ S1024.size a
  k0_off23_inb : ∀ i : grid0.Coords, ∀ a, (k0_off23 i) a + S1.size a ≤ S1024.size a
  k0_off25_inb : ∀ i : grid0.Coords, ∀ a, (k0_off25 i) a + S1.size a ≤ S1024.size a
  k0_off26_inb : ∀ i : grid0.Coords, ∀ a, (k0_off26 i) a + S1.size a ≤ S1024.size a
  k0_off28_inb : ∀ i : grid0.Coords, ∀ a, (k0_off28 i) a + S1.size a ≤ S1024.size a
  k0_off29_inb : ∀ i : grid0.Coords, ∀ a, (k0_off29 i) a + S1.size a ≤ S1024.size a
  k0_off31_inb : ∀ i : grid0.Coords, ∀ a, (k0_off31 i) a + S1.size a ≤ S1024.size a
  k0_off32_inb : ∀ i : grid0.Coords, ∀ a, (k0_off32 i) a + S1.size a ≤ S1024.size a
  k0_off34_inb : ∀ i : grid0.Coords, ∀ a, (k0_off34 i) a + S1.size a ≤ S1024.size a
  k0_off35_inb : ∀ i : grid0.Coords, ∀ a, (k0_off35 i) a + S1.size a ≤ S1024.size a
  k0_off37_inb : ∀ i : grid0.Coords, ∀ a, (k0_off37 i) a + S1.size a ≤ S1024.size a
  k0_off38_inb : ∀ i : grid0.Coords, ∀ a, (k0_off38 i) a + S1.size a ≤ S1024.size a
  k0_off40_inb : ∀ i : grid0.Coords, ∀ a, (k0_off40 i) a + S1.size a ≤ S1024.size a
  k0_off41_inb : ∀ i : grid0.Coords, ∀ a, (k0_off41 i) a + S1.size a ≤ S1024.size a
  k0_off43_inb : ∀ i : grid0.Coords, ∀ a, (k0_off43 i) a + S1.size a ≤ S1024.size a
  k0_off44_inb : ∀ i : grid0.Coords, ∀ a, (k0_off44 i) a + S1.size a ≤ S1024.size a
  k0_off46_inb : ∀ i : grid0.Coords, ∀ a, (k0_off46 i) a + S1.size a ≤ S1024.size a
  k0_off47_inb : ∀ i : grid0.Coords, ∀ a, (k0_off47 i) a + S1.size a ≤ S1024.size a
  k0_off49_inb : ∀ i : grid0.Coords, ∀ a, (k0_off49 i) a + S1.size a ≤ S1024.size a
  k0_off50_inb : ∀ i : grid0.Coords, ∀ a, (k0_off50 i) a + S1.size a ≤ S1024.size a
  k0_off52_inb : ∀ i : grid0.Coords, ∀ a, (k0_off52 i) a + S1.size a ≤ S1024.size a
  k0_off53_inb : ∀ i : grid0.Coords, ∀ a, (k0_off53 i) a + S1.size a ≤ S1024.size a
  k0_off55_inb : ∀ i : grid0.Coords, ∀ a, (k0_off55 i) a + S1.size a ≤ S1024.size a
  k0_off56_inb : ∀ i : grid0.Coords, ∀ a, (k0_off56 i) a + S1.size a ≤ S1024.size a
  k0_off58_inb : ∀ i : grid0.Coords, ∀ a, (k0_off58 i) a + S1.size a ≤ S1024.size a
  k0_off59_inb : ∀ i : grid0.Coords, ∀ a, (k0_off59 i) a + S1.size a ≤ S1024.size a
  k0_off61_inb : ∀ i : grid0.Coords, ∀ a, (k0_off61 i) a + S1.size a ≤ S1024.size a
  k0_off62_inb : ∀ i : grid0.Coords, ∀ a, (k0_off62 i) a + S1.size a ≤ S1024.size a
  k0_off64_inb : ∀ i : grid0.Coords, ∀ a, (k0_off64 i) a + S1.size a ≤ S1024.size a
  k0_off65_inb : ∀ i : grid0.Coords, ∀ a, (k0_off65 i) a + S1.size a ≤ S1024.size a
  k0_off67_inb : ∀ i : grid0.Coords, ∀ a, (k0_off67 i) a + S1.size a ≤ S1024.size a
  k0_off68_inb : ∀ i : grid0.Coords, ∀ a, (k0_off68 i) a + S1.size a ≤ S1024.size a
  k0_off70_inb : ∀ i : grid0.Coords, ∀ a, (k0_off70 i) a + S1.size a ≤ S1024.size a
  k0_off71_inb : ∀ i : grid0.Coords, ∀ a, (k0_off71 i) a + S1.size a ≤ S1024.size a
  k0_off73_inb : ∀ i : grid0.Coords, ∀ a, (k0_off73 i) a + S1.size a ≤ S1024.size a
  k0_off74_inb : ∀ i : grid0.Coords, ∀ a, (k0_off74 i) a + S1.size a ≤ S1024.size a
  k0_off76_inb : ∀ i : grid0.Coords, ∀ a, (k0_off76 i) a + S1.size a ≤ S1024.size a
  k0_off77_inb : ∀ i : grid0.Coords, ∀ a, (k0_off77 i) a + S1.size a ≤ S1024.size a
  k0_off79_inb : ∀ i : grid0.Coords, ∀ a, (k0_off79 i) a + S1.size a ≤ S1024.size a
  k0_off80_inb : ∀ i : grid0.Coords, ∀ a, (k0_off80 i) a + S1.size a ≤ S1024.size a
  k0_off82_inb : ∀ i : grid0.Coords, ∀ a, (k0_off82 i) a + S1.size a ≤ S1024.size a
  k0_off83_inb : ∀ i : grid0.Coords, ∀ a, (k0_off83 i) a + S1.size a ≤ S1024.size a
  k0_off85_inb : ∀ i : grid0.Coords, ∀ a, (k0_off85 i) a + S1.size a ≤ S1024.size a
  k0_off86_inb : ∀ i : grid0.Coords, ∀ a, (k0_off86 i) a + S1.size a ≤ S1024.size a
  k0_off88_inb : ∀ i : grid0.Coords, ∀ a, (k0_off88 i) a + S1.size a ≤ S1024.size a
  k0_off89_inb : ∀ i : grid0.Coords, ∀ a, (k0_off89 i) a + S1.size a ≤ S1024.size a
  k0_off91_inb : ∀ i : grid0.Coords, ∀ a, (k0_off91 i) a + S1.size a ≤ S1024.size a
  k0_off92_inb : ∀ i : grid0.Coords, ∀ a, (k0_off92 i) a + S1.size a ≤ S1024.size a
  k0_off94_inb : ∀ i : grid0.Coords, ∀ a, (k0_off94 i) a + S1.size a ≤ S1024.size a
  k0_off95_inb : ∀ i : grid0.Coords, ∀ a, (k0_off95 i) a + S1.size a ≤ S1024.size a
  k0_off97_inb : ∀ i : grid0.Coords, ∀ a, (k0_off97 i) a + S1.size a ≤ S1024.size a
  k0_off98_inb : ∀ i : grid0.Coords, ∀ a, (k0_off98 i) a + S1.size a ≤ S1024.size a
  k0_off100_inb : ∀ i : grid0.Coords, ∀ a, (k0_off100 i) a + S1.size a ≤ S1024.size a
  k0_off101_inb : ∀ i : grid0.Coords, ∀ a, (k0_off101 i) a + S1.size a ≤ S1024.size a
  k0_off103_inb : ∀ i : grid0.Coords, ∀ a, (k0_off103 i) a + S1.size a ≤ S1024.size a
  k0_off104_inb : ∀ i : grid0.Coords, ∀ a, (k0_off104 i) a + S1.size a ≤ S1024.size a
  k0_off106_inb : ∀ i : grid0.Coords, ∀ a, (k0_off106 i) a + S1.size a ≤ S1024.size a
  k0_off107_inb : ∀ i : grid0.Coords, ∀ a, (k0_off107 i) a + S1.size a ≤ S1024.size a
  k0_off109_inb : ∀ i : grid0.Coords, ∀ a, (k0_off109 i) a + S1.size a ≤ S1024.size a
  k0_off110_inb : ∀ i : grid0.Coords, ∀ a, (k0_off110 i) a + S1.size a ≤ S1024.size a
  k0_off112_inb : ∀ i : grid0.Coords, ∀ a, (k0_off112 i) a + S1.size a ≤ S1024.size a
  k0_off113_inb : ∀ i : grid0.Coords, ∀ a, (k0_off113 i) a + S1.size a ≤ S1024.size a
  k0_off115_inb : ∀ i : grid0.Coords, ∀ a, (k0_off115 i) a + S1.size a ≤ S1024.size a
  k0_off116_inb : ∀ i : grid0.Coords, ∀ a, (k0_off116 i) a + S1.size a ≤ S1024.size a
  k0_off118_inb : ∀ i : grid0.Coords, ∀ a, (k0_off118 i) a + S1.size a ≤ S1024.size a
  k0_off119_inb : ∀ i : grid0.Coords, ∀ a, (k0_off119 i) a + S1.size a ≤ S1024.size a
  k0_off121_inb : ∀ i : grid0.Coords, ∀ a, (k0_off121 i) a + S1.size a ≤ S1024.size a
  k0_off122_inb : ∀ i : grid0.Coords, ∀ a, (k0_off122 i) a + S1.size a ≤ S1024.size a
  k0_off124_inb : ∀ i : grid0.Coords, ∀ a, (k0_off124 i) a + S1.size a ≤ S1024.size a
  k0_off125_inb : ∀ i : grid0.Coords, ∀ a, (k0_off125 i) a + S1.size a ≤ S1024.size a
  k0_off127_inb : ∀ i : grid0.Coords, ∀ a, (k0_off127 i) a + S1.size a ≤ S1024.size a
  k0_off128_inb : ∀ i : grid0.Coords, ∀ a, (k0_off128 i) a + S1.size a ≤ S1024.size a
  k0_off130_inb : ∀ i : grid0.Coords, ∀ a, (k0_off130 i) a + S1.size a ≤ S1024.size a
  k0_off131_inb : ∀ i : grid0.Coords, ∀ a, (k0_off131 i) a + S1.size a ≤ S1024.size a
  k0_off133_inb : ∀ i : grid0.Coords, ∀ a, (k0_off133 i) a + S1.size a ≤ S1024.size a
  k0_off134_inb : ∀ i : grid0.Coords, ∀ a, (k0_off134 i) a + S1.size a ≤ S1024.size a
  k0_off136_inb : ∀ i : grid0.Coords, ∀ a, (k0_off136 i) a + S1.size a ≤ S1024.size a
  k0_off137_inb : ∀ i : grid0.Coords, ∀ a, (k0_off137 i) a + S1.size a ≤ S1024.size a
  k0_off139_inb : ∀ i : grid0.Coords, ∀ a, (k0_off139 i) a + S1.size a ≤ S1024.size a
  k0_off140_inb : ∀ i : grid0.Coords, ∀ a, (k0_off140 i) a + S1.size a ≤ S1024.size a
  k0_off142_inb : ∀ i : grid0.Coords, ∀ a, (k0_off142 i) a + S1.size a ≤ S1024.size a
  k0_off143_inb : ∀ i : grid0.Coords, ∀ a, (k0_off143 i) a + S1.size a ≤ S1024.size a
  k0_off145_inb : ∀ i : grid0.Coords, ∀ a, (k0_off145 i) a + S1.size a ≤ S1024.size a
  k0_off146_inb : ∀ i : grid0.Coords, ∀ a, (k0_off146 i) a + S1.size a ≤ S1024.size a
  k0_off148_inb : ∀ i : grid0.Coords, ∀ a, (k0_off148 i) a + S1.size a ≤ S1024.size a
  k0_off149_inb : ∀ i : grid0.Coords, ∀ a, (k0_off149 i) a + S1.size a ≤ S1024.size a
  k0_off151_inb : ∀ i : grid0.Coords, ∀ a, (k0_off151 i) a + S1.size a ≤ S1024.size a
  k0_off152_inb : ∀ i : grid0.Coords, ∀ a, (k0_off152 i) a + S1.size a ≤ S1024.size a
  k0_off154_inb : ∀ i : grid0.Coords, ∀ a, (k0_off154 i) a + S1.size a ≤ S1024.size a
  k0_off155_inb : ∀ i : grid0.Coords, ∀ a, (k0_off155 i) a + S1.size a ≤ S1024.size a
  k0_off157_inb : ∀ i : grid0.Coords, ∀ a, (k0_off157 i) a + S1.size a ≤ S1024.size a
  k0_off158_inb : ∀ i : grid0.Coords, ∀ a, (k0_off158 i) a + S1.size a ≤ S1024.size a
  k0_off160_inb : ∀ i : grid0.Coords, ∀ a, (k0_off160 i) a + S1.size a ≤ S1024.size a
  k0_off161_inb : ∀ i : grid0.Coords, ∀ a, (k0_off161 i) a + S1.size a ≤ S1024.size a
  k0_off163_inb : ∀ i : grid0.Coords, ∀ a, (k0_off163 i) a + S1.size a ≤ S1024.size a
  k0_off164_inb : ∀ i : grid0.Coords, ∀ a, (k0_off164 i) a + S1.size a ≤ S1024.size a
  k0_off166_inb : ∀ i : grid0.Coords, ∀ a, (k0_off166 i) a + S1.size a ≤ S1024.size a
  k0_off167_inb : ∀ i : grid0.Coords, ∀ a, (k0_off167 i) a + S1.size a ≤ S1024.size a
  k0_off169_inb : ∀ i : grid0.Coords, ∀ a, (k0_off169 i) a + S1.size a ≤ S1024.size a
  k0_off170_inb : ∀ i : grid0.Coords, ∀ a, (k0_off170 i) a + S1.size a ≤ S1024.size a
  k0_off172_inb : ∀ i : grid0.Coords, ∀ a, (k0_off172 i) a + S1.size a ≤ S1024.size a
  k0_off173_inb : ∀ i : grid0.Coords, ∀ a, (k0_off173 i) a + S1.size a ≤ S1024.size a
  k0_off175_inb : ∀ i : grid0.Coords, ∀ a, (k0_off175 i) a + S1.size a ≤ S1024.size a
  k0_off176_inb : ∀ i : grid0.Coords, ∀ a, (k0_off176 i) a + S1.size a ≤ S1024.size a
  k0_off178_inb : ∀ i : grid0.Coords, ∀ a, (k0_off178 i) a + S1.size a ≤ S1024.size a
  k0_off179_inb : ∀ i : grid0.Coords, ∀ a, (k0_off179 i) a + S1.size a ≤ S1024.size a
  k0_off181_inb : ∀ i : grid0.Coords, ∀ a, (k0_off181 i) a + S1.size a ≤ S1024.size a
  k0_off182_inb : ∀ i : grid0.Coords, ∀ a, (k0_off182 i) a + S1.size a ≤ S1024.size a
  k0_off184_inb : ∀ i : grid0.Coords, ∀ a, (k0_off184 i) a + S1.size a ≤ S1024.size a
  k0_off185_inb : ∀ i : grid0.Coords, ∀ a, (k0_off185 i) a + S1.size a ≤ S1024.size a
  k0_off187_inb : ∀ i : grid0.Coords, ∀ a, (k0_off187 i) a + S1.size a ≤ S1024.size a
  k0_off188_inb : ∀ i : grid0.Coords, ∀ a, (k0_off188 i) a + S1.size a ≤ S1024.size a
  k0_off190_inb : ∀ i : grid0.Coords, ∀ a, (k0_off190 i) a + S1.size a ≤ S1024.size a
  k0_off191_inb : ∀ i : grid0.Coords, ∀ a, (k0_off191 i) a + S1.size a ≤ S1024.size a
  k0_off193_inb : ∀ i : grid0.Coords, ∀ a, (k0_off193 i) a + S1.size a ≤ S1024.size a
  k0_off194_inb : ∀ i : grid0.Coords, ∀ a, (k0_off194 i) a + S1.size a ≤ S1024.size a
  k0_off196_inb : ∀ i : grid0.Coords, ∀ a, (k0_off196 i) a + S1.size a ≤ S1024.size a
  k0_off197_inb : ∀ i : grid0.Coords, ∀ a, (k0_off197 i) a + S1.size a ≤ S1024.size a
  k0_off199_inb : ∀ i : grid0.Coords, ∀ a, (k0_off199 i) a + S1.size a ≤ S1024.size a
  k0_off200_inb : ∀ i : grid0.Coords, ∀ a, (k0_off200 i) a + S1.size a ≤ S1024.size a
  k0_off202_inb : ∀ i : grid0.Coords, ∀ a, (k0_off202 i) a + S1.size a ≤ S1024.size a
  k0_off203_inb : ∀ i : grid0.Coords, ∀ a, (k0_off203 i) a + S1.size a ≤ S1024.size a
  k0_off205_inb : ∀ i : grid0.Coords, ∀ a, (k0_off205 i) a + S1.size a ≤ S1024.size a
  k0_off206_inb : ∀ i : grid0.Coords, ∀ a, (k0_off206 i) a + S1.size a ≤ S1024.size a
  k0_off208_inb : ∀ i : grid0.Coords, ∀ a, (k0_off208 i) a + S1.size a ≤ S1024.size a
  k0_off209_inb : ∀ i : grid0.Coords, ∀ a, (k0_off209 i) a + S1.size a ≤ S1024.size a
  k0_off211_inb : ∀ i : grid0.Coords, ∀ a, (k0_off211 i) a + S1.size a ≤ S1024.size a
  k0_off212_inb : ∀ i : grid0.Coords, ∀ a, (k0_off212 i) a + S1.size a ≤ S1024.size a
  k0_off214_inb : ∀ i : grid0.Coords, ∀ a, (k0_off214 i) a + S1.size a ≤ S1024.size a
  k0_off215_inb : ∀ i : grid0.Coords, ∀ a, (k0_off215 i) a + S1.size a ≤ S1024.size a
  k0_off217_inb : ∀ i : grid0.Coords, ∀ a, (k0_off217 i) a + S1.size a ≤ S1024.size a
  k0_off218_inb : ∀ i : grid0.Coords, ∀ a, (k0_off218 i) a + S1.size a ≤ S1024.size a
  k0_off220_inb : ∀ i : grid0.Coords, ∀ a, (k0_off220 i) a + S1.size a ≤ S1024.size a
  k0_off221_inb : ∀ i : grid0.Coords, ∀ a, (k0_off221 i) a + S1.size a ≤ S1024.size a
  k0_off223_inb : ∀ i : grid0.Coords, ∀ a, (k0_off223 i) a + S1.size a ≤ S1024.size a
  k0_off224_inb : ∀ i : grid0.Coords, ∀ a, (k0_off224 i) a + S1.size a ≤ S1024.size a
  k0_off226_inb : ∀ i : grid0.Coords, ∀ a, (k0_off226 i) a + S1.size a ≤ S1024.size a
  k0_off227_inb : ∀ i : grid0.Coords, ∀ a, (k0_off227 i) a + S1.size a ≤ S1024.size a
  k0_off229_inb : ∀ i : grid0.Coords, ∀ a, (k0_off229 i) a + S1.size a ≤ S1024.size a
  k0_off230_inb : ∀ i : grid0.Coords, ∀ a, (k0_off230 i) a + S1.size a ≤ S1024.size a
  k0_off232_inb : ∀ i : grid0.Coords, ∀ a, (k0_off232 i) a + S1.size a ≤ S1024.size a
  k0_off233_inb : ∀ i : grid0.Coords, ∀ a, (k0_off233 i) a + S1.size a ≤ S1024.size a
  k0_off235_inb : ∀ i : grid0.Coords, ∀ a, (k0_off235 i) a + S1.size a ≤ S1024.size a
  k0_off236_inb : ∀ i : grid0.Coords, ∀ a, (k0_off236 i) a + S1.size a ≤ S1024.size a
  k0_off238_inb : ∀ i : grid0.Coords, ∀ a, (k0_off238 i) a + S1.size a ≤ S1024.size a
  k0_off239_inb : ∀ i : grid0.Coords, ∀ a, (k0_off239 i) a + S1.size a ≤ S1024.size a
  k0_off241_inb : ∀ i : grid0.Coords, ∀ a, (k0_off241 i) a + S1.size a ≤ S1024.size a
  k0_off242_inb : ∀ i : grid0.Coords, ∀ a, (k0_off242 i) a + S1.size a ≤ S1024.size a
  k0_off244_inb : ∀ i : grid0.Coords, ∀ a, (k0_off244 i) a + S1.size a ≤ S1024.size a
  k0_off245_inb : ∀ i : grid0.Coords, ∀ a, (k0_off245 i) a + S1.size a ≤ S1024.size a
  k0_off247_inb : ∀ i : grid0.Coords, ∀ a, (k0_off247 i) a + S1.size a ≤ S1024.size a
  k0_off248_inb : ∀ i : grid0.Coords, ∀ a, (k0_off248 i) a + S1.size a ≤ S1024.size a
  k0_off250_inb : ∀ i : grid0.Coords, ∀ a, (k0_off250 i) a + S1.size a ≤ S1024.size a
  k0_off251_inb : ∀ i : grid0.Coords, ∀ a, (k0_off251 i) a + S1.size a ≤ S1024.size a
  k0_off253_inb : ∀ i : grid0.Coords, ∀ a, (k0_off253 i) a + S1.size a ≤ S1024.size a
  k0_off254_inb : ∀ i : grid0.Coords, ∀ a, (k0_off254 i) a + S1.size a ≤ S1024.size a
  k0_off256_inb : ∀ i : grid0.Coords, ∀ a, (k0_off256 i) a + S1.size a ≤ S1024.size a
  k0_off257_inb : ∀ i : grid0.Coords, ∀ a, (k0_off257 i) a + S1.size a ≤ S1024.size a
  k0_off259_inb : ∀ i : grid0.Coords, ∀ a, (k0_off259 i) a + S1.size a ≤ S1024.size a
  k0_off260_inb : ∀ i : grid0.Coords, ∀ a, (k0_off260 i) a + S1.size a ≤ S1024.size a
  k0_off262_inb : ∀ i : grid0.Coords, ∀ a, (k0_off262 i) a + S1.size a ≤ S1024.size a
  k0_off263_inb : ∀ i : grid0.Coords, ∀ a, (k0_off263 i) a + S1.size a ≤ S1024.size a
  k0_off265_inb : ∀ i : grid0.Coords, ∀ a, (k0_off265 i) a + S1.size a ≤ S1024.size a
  k0_off266_inb : ∀ i : grid0.Coords, ∀ a, (k0_off266 i) a + S1.size a ≤ S1024.size a
  k0_off268_inb : ∀ i : grid0.Coords, ∀ a, (k0_off268 i) a + S1.size a ≤ S1024.size a
  k0_off269_inb : ∀ i : grid0.Coords, ∀ a, (k0_off269 i) a + S1.size a ≤ S1024.size a
  k0_off271_inb : ∀ i : grid0.Coords, ∀ a, (k0_off271 i) a + S1.size a ≤ S1024.size a
  k0_off272_inb : ∀ i : grid0.Coords, ∀ a, (k0_off272 i) a + S1.size a ≤ S1024.size a
  k0_off274_inb : ∀ i : grid0.Coords, ∀ a, (k0_off274 i) a + S1.size a ≤ S1024.size a
  k0_off275_inb : ∀ i : grid0.Coords, ∀ a, (k0_off275 i) a + S1.size a ≤ S1024.size a
  k0_off277_inb : ∀ i : grid0.Coords, ∀ a, (k0_off277 i) a + S1.size a ≤ S1024.size a
  k0_off278_inb : ∀ i : grid0.Coords, ∀ a, (k0_off278 i) a + S1.size a ≤ S1024.size a
  k0_off280_inb : ∀ i : grid0.Coords, ∀ a, (k0_off280 i) a + S1.size a ≤ S1024.size a
  k0_off281_inb : ∀ i : grid0.Coords, ∀ a, (k0_off281 i) a + S1.size a ≤ S1024.size a
  k0_off283_inb : ∀ i : grid0.Coords, ∀ a, (k0_off283 i) a + S1.size a ≤ S1024.size a
  k0_off284_inb : ∀ i : grid0.Coords, ∀ a, (k0_off284 i) a + S1.size a ≤ S1024.size a
  k0_off286_inb : ∀ i : grid0.Coords, ∀ a, (k0_off286 i) a + S1.size a ≤ S1024.size a
  k0_off287_inb : ∀ i : grid0.Coords, ∀ a, (k0_off287 i) a + S1.size a ≤ S1024.size a
  k0_off289_inb : ∀ i : grid0.Coords, ∀ a, (k0_off289 i) a + S1.size a ≤ S1024.size a
  k0_off290_inb : ∀ i : grid0.Coords, ∀ a, (k0_off290 i) a + S1.size a ≤ S1024.size a
  k0_off292_inb : ∀ i : grid0.Coords, ∀ a, (k0_off292 i) a + S1.size a ≤ S1024.size a
  k0_off293_inb : ∀ i : grid0.Coords, ∀ a, (k0_off293 i) a + S1.size a ≤ S1024.size a
  k0_off295_inb : ∀ i : grid0.Coords, ∀ a, (k0_off295 i) a + S1.size a ≤ S1024.size a
  k0_off296_inb : ∀ i : grid0.Coords, ∀ a, (k0_off296 i) a + S1.size a ≤ S1024.size a
  k0_off298_inb : ∀ i : grid0.Coords, ∀ a, (k0_off298 i) a + S1.size a ≤ S1024.size a
  k0_off299_inb : ∀ i : grid0.Coords, ∀ a, (k0_off299 i) a + S1.size a ≤ S1024.size a
  k0_off301_inb : ∀ i : grid0.Coords, ∀ a, (k0_off301 i) a + S1.size a ≤ S1024.size a
  k0_off302_inb : ∀ i : grid0.Coords, ∀ a, (k0_off302 i) a + S1.size a ≤ S1024.size a
  k0_off304_inb : ∀ i : grid0.Coords, ∀ a, (k0_off304 i) a + S1.size a ≤ S1024.size a
  k0_off305_inb : ∀ i : grid0.Coords, ∀ a, (k0_off305 i) a + S1.size a ≤ S1024.size a
  k0_off307_inb : ∀ i : grid0.Coords, ∀ a, (k0_off307 i) a + S1.size a ≤ S1024.size a
  k0_off308_inb : ∀ i : grid0.Coords, ∀ a, (k0_off308 i) a + S1.size a ≤ S1024.size a
  k0_off310_inb : ∀ i : grid0.Coords, ∀ a, (k0_off310 i) a + S1.size a ≤ S1024.size a
  k0_off311_inb : ∀ i : grid0.Coords, ∀ a, (k0_off311 i) a + S1.size a ≤ S1024.size a
  k0_off313_inb : ∀ i : grid0.Coords, ∀ a, (k0_off313 i) a + S1.size a ≤ S1024.size a
  k0_off314_inb : ∀ i : grid0.Coords, ∀ a, (k0_off314 i) a + S1.size a ≤ S1024.size a
  k0_off316_inb : ∀ i : grid0.Coords, ∀ a, (k0_off316 i) a + S1.size a ≤ S1024.size a
  k0_off317_inb : ∀ i : grid0.Coords, ∀ a, (k0_off317 i) a + S1.size a ≤ S1024.size a
  k0_off319_inb : ∀ i : grid0.Coords, ∀ a, (k0_off319 i) a + S1.size a ≤ S1024.size a
  k0_off320_inb : ∀ i : grid0.Coords, ∀ a, (k0_off320 i) a + S1.size a ≤ S1024.size a
  k0_off322_inb : ∀ i : grid0.Coords, ∀ a, (k0_off322 i) a + S1.size a ≤ S1024.size a
  k0_off323_inb : ∀ i : grid0.Coords, ∀ a, (k0_off323 i) a + S1.size a ≤ S1024.size a
  k0_off325_inb : ∀ i : grid0.Coords, ∀ a, (k0_off325 i) a + S1.size a ≤ S1024.size a
  k0_off326_inb : ∀ i : grid0.Coords, ∀ a, (k0_off326 i) a + S1.size a ≤ S1024.size a
  k0_off328_inb : ∀ i : grid0.Coords, ∀ a, (k0_off328 i) a + S1.size a ≤ S1024.size a
  k0_off329_inb : ∀ i : grid0.Coords, ∀ a, (k0_off329 i) a + S1.size a ≤ S1024.size a
  k0_off331_inb : ∀ i : grid0.Coords, ∀ a, (k0_off331 i) a + S1.size a ≤ S1024.size a
  k0_off332_inb : ∀ i : grid0.Coords, ∀ a, (k0_off332 i) a + S1.size a ≤ S1024.size a
  k0_off334_inb : ∀ i : grid0.Coords, ∀ a, (k0_off334 i) a + S1.size a ≤ S1024.size a
  k0_off335_inb : ∀ i : grid0.Coords, ∀ a, (k0_off335 i) a + S1.size a ≤ S1024.size a
  k0_off337_inb : ∀ i : grid0.Coords, ∀ a, (k0_off337 i) a + S1.size a ≤ S1024.size a
  k0_off338_inb : ∀ i : grid0.Coords, ∀ a, (k0_off338 i) a + S1.size a ≤ S1024.size a
  k0_off340_inb : ∀ i : grid0.Coords, ∀ a, (k0_off340 i) a + S1.size a ≤ S1024.size a
  k0_off341_inb : ∀ i : grid0.Coords, ∀ a, (k0_off341 i) a + S1.size a ≤ S1024.size a
  k0_off343_inb : ∀ i : grid0.Coords, ∀ a, (k0_off343 i) a + S1.size a ≤ S1024.size a
  k0_off344_inb : ∀ i : grid0.Coords, ∀ a, (k0_off344 i) a + S1.size a ≤ S1024.size a
  k0_off346_inb : ∀ i : grid0.Coords, ∀ a, (k0_off346 i) a + S1.size a ≤ S1024.size a
  k0_off347_inb : ∀ i : grid0.Coords, ∀ a, (k0_off347 i) a + S1.size a ≤ S1024.size a
  k0_off349_inb : ∀ i : grid0.Coords, ∀ a, (k0_off349 i) a + S1.size a ≤ S1024.size a
  k0_off350_inb : ∀ i : grid0.Coords, ∀ a, (k0_off350 i) a + S1.size a ≤ S1024.size a
  k0_off352_inb : ∀ i : grid0.Coords, ∀ a, (k0_off352 i) a + S1.size a ≤ S1024.size a
  k0_off353_inb : ∀ i : grid0.Coords, ∀ a, (k0_off353 i) a + S1.size a ≤ S1024.size a
  k0_off355_inb : ∀ i : grid0.Coords, ∀ a, (k0_off355 i) a + S1.size a ≤ S1024.size a
  k0_off356_inb : ∀ i : grid0.Coords, ∀ a, (k0_off356 i) a + S1.size a ≤ S1024.size a
  k0_off358_inb : ∀ i : grid0.Coords, ∀ a, (k0_off358 i) a + S1.size a ≤ S1024.size a
  k0_off359_inb : ∀ i : grid0.Coords, ∀ a, (k0_off359 i) a + S1.size a ≤ S1024.size a
  k0_off361_inb : ∀ i : grid0.Coords, ∀ a, (k0_off361 i) a + S1.size a ≤ S1024.size a
  k0_off362_inb : ∀ i : grid0.Coords, ∀ a, (k0_off362 i) a + S1.size a ≤ S1024.size a
  k0_off364_inb : ∀ i : grid0.Coords, ∀ a, (k0_off364 i) a + S1.size a ≤ S1024.size a
  k0_off365_inb : ∀ i : grid0.Coords, ∀ a, (k0_off365 i) a + S1.size a ≤ S1024.size a
  k0_off367_inb : ∀ i : grid0.Coords, ∀ a, (k0_off367 i) a + S1.size a ≤ S1024.size a
  k0_off368_inb : ∀ i : grid0.Coords, ∀ a, (k0_off368 i) a + S1.size a ≤ S1024.size a
  k0_off370_inb : ∀ i : grid0.Coords, ∀ a, (k0_off370 i) a + S1.size a ≤ S1024.size a
  k0_off371_inb : ∀ i : grid0.Coords, ∀ a, (k0_off371 i) a + S1.size a ≤ S1024.size a
  k0_off373_inb : ∀ i : grid0.Coords, ∀ a, (k0_off373 i) a + S1.size a ≤ S1024.size a
  k0_off374_inb : ∀ i : grid0.Coords, ∀ a, (k0_off374 i) a + S1.size a ≤ S1024.size a
  k0_off376_inb : ∀ i : grid0.Coords, ∀ a, (k0_off376 i) a + S1.size a ≤ S1024.size a
  k0_off377_inb : ∀ i : grid0.Coords, ∀ a, (k0_off377 i) a + S1.size a ≤ S1024.size a
  k0_off379_inb : ∀ i : grid0.Coords, ∀ a, (k0_off379 i) a + S1.size a ≤ S1024.size a
  k0_off380_inb : ∀ i : grid0.Coords, ∀ a, (k0_off380 i) a + S1.size a ≤ S1024.size a
  k0_off382_inb : ∀ i : grid0.Coords, ∀ a, (k0_off382 i) a + S1.size a ≤ S1024.size a
  k0_off383_inb : ∀ i : grid0.Coords, ∀ a, (k0_off383 i) a + S1.size a ≤ S1024.size a
  k0_off385_inb : ∀ i : grid0.Coords, ∀ a, (k0_off385 i) a + S1.size a ≤ S1024.size a
  k0_off386_inb : ∀ i : grid0.Coords, ∀ a, (k0_off386 i) a + S1.size a ≤ S1024.size a
  k0_off388_inb : ∀ i : grid0.Coords, ∀ a, (k0_off388 i) a + S1.size a ≤ S1024.size a
  k0_off389_inb : ∀ i : grid0.Coords, ∀ a, (k0_off389 i) a + S1.size a ≤ S1024.size a
  k0_off391_inb : ∀ i : grid0.Coords, ∀ a, (k0_off391 i) a + S1.size a ≤ S1024.size a
  k0_off392_inb : ∀ i : grid0.Coords, ∀ a, (k0_off392 i) a + S1.size a ≤ S1024.size a
  k0_off394_inb : ∀ i : grid0.Coords, ∀ a, (k0_off394 i) a + S1.size a ≤ S1024.size a
  k0_off395_inb : ∀ i : grid0.Coords, ∀ a, (k0_off395 i) a + S1.size a ≤ S1024.size a
  k0_off397_inb : ∀ i : grid0.Coords, ∀ a, (k0_off397 i) a + S1.size a ≤ S1024.size a
  k0_off398_inb : ∀ i : grid0.Coords, ∀ a, (k0_off398 i) a + S1.size a ≤ S1024.size a
  k0_off400_inb : ∀ i : grid0.Coords, ∀ a, (k0_off400 i) a + S1.size a ≤ S1024.size a
  k0_off401_inb : ∀ i : grid0.Coords, ∀ a, (k0_off401 i) a + S1.size a ≤ S1024.size a
  k0_off403_inb : ∀ i : grid0.Coords, ∀ a, (k0_off403 i) a + S1.size a ≤ S1024.size a
  k0_off404_inb : ∀ i : grid0.Coords, ∀ a, (k0_off404 i) a + S1.size a ≤ S1024.size a
  k0_off406_inb : ∀ i : grid0.Coords, ∀ a, (k0_off406 i) a + S1.size a ≤ S1024.size a
  k0_off407_inb : ∀ i : grid0.Coords, ∀ a, (k0_off407 i) a + S1.size a ≤ S1024.size a
  k0_off409_inb : ∀ i : grid0.Coords, ∀ a, (k0_off409 i) a + S1.size a ≤ S1024.size a
  k0_off410_inb : ∀ i : grid0.Coords, ∀ a, (k0_off410 i) a + S1.size a ≤ S1024.size a
  k0_off412_inb : ∀ i : grid0.Coords, ∀ a, (k0_off412 i) a + S1.size a ≤ S1024.size a
  k0_off413_inb : ∀ i : grid0.Coords, ∀ a, (k0_off413 i) a + S1.size a ≤ S1024.size a
  k0_off415_inb : ∀ i : grid0.Coords, ∀ a, (k0_off415 i) a + S1.size a ≤ S1024.size a
  k0_off416_inb : ∀ i : grid0.Coords, ∀ a, (k0_off416 i) a + S1.size a ≤ S1024.size a
  k0_off418_inb : ∀ i : grid0.Coords, ∀ a, (k0_off418 i) a + S1.size a ≤ S1024.size a
  k0_off419_inb : ∀ i : grid0.Coords, ∀ a, (k0_off419 i) a + S1.size a ≤ S1024.size a
  k0_off421_inb : ∀ i : grid0.Coords, ∀ a, (k0_off421 i) a + S1.size a ≤ S1024.size a
  k0_off422_inb : ∀ i : grid0.Coords, ∀ a, (k0_off422 i) a + S1.size a ≤ S1024.size a
  k0_off424_inb : ∀ i : grid0.Coords, ∀ a, (k0_off424 i) a + S1.size a ≤ S1024.size a
  k0_off425_inb : ∀ i : grid0.Coords, ∀ a, (k0_off425 i) a + S1.size a ≤ S1024.size a
  k0_off427_inb : ∀ i : grid0.Coords, ∀ a, (k0_off427 i) a + S1.size a ≤ S1024.size a
  k0_off428_inb : ∀ i : grid0.Coords, ∀ a, (k0_off428 i) a + S1.size a ≤ S1024.size a
  k0_off430_inb : ∀ i : grid0.Coords, ∀ a, (k0_off430 i) a + S1.size a ≤ S1024.size a
  k0_off431_inb : ∀ i : grid0.Coords, ∀ a, (k0_off431 i) a + S1.size a ≤ S1024.size a
  k0_off433_inb : ∀ i : grid0.Coords, ∀ a, (k0_off433 i) a + S1.size a ≤ S1024.size a
  k0_off434_inb : ∀ i : grid0.Coords, ∀ a, (k0_off434 i) a + S1.size a ≤ S1024.size a
  k0_off436_inb : ∀ i : grid0.Coords, ∀ a, (k0_off436 i) a + S1.size a ≤ S1024.size a
  k0_off437_inb : ∀ i : grid0.Coords, ∀ a, (k0_off437 i) a + S1.size a ≤ S1024.size a
  k0_off439_inb : ∀ i : grid0.Coords, ∀ a, (k0_off439 i) a + S1.size a ≤ S1024.size a
  k0_off440_inb : ∀ i : grid0.Coords, ∀ a, (k0_off440 i) a + S1.size a ≤ S1024.size a
  k0_off442_inb : ∀ i : grid0.Coords, ∀ a, (k0_off442 i) a + S1.size a ≤ S1024.size a
  k0_off443_inb : ∀ i : grid0.Coords, ∀ a, (k0_off443 i) a + S1.size a ≤ S1024.size a
  k0_off445_inb : ∀ i : grid0.Coords, ∀ a, (k0_off445 i) a + S1.size a ≤ S1024.size a
  k0_off446_inb : ∀ i : grid0.Coords, ∀ a, (k0_off446 i) a + S1.size a ≤ S1024.size a
  k0_off448_inb : ∀ i : grid0.Coords, ∀ a, (k0_off448 i) a + S1.size a ≤ S1024.size a
  k0_off449_inb : ∀ i : grid0.Coords, ∀ a, (k0_off449 i) a + S1.size a ≤ S1024.size a
  k0_off451_inb : ∀ i : grid0.Coords, ∀ a, (k0_off451 i) a + S1.size a ≤ S1024.size a
  k0_off452_inb : ∀ i : grid0.Coords, ∀ a, (k0_off452 i) a + S1.size a ≤ S1024.size a
  k0_off454_inb : ∀ i : grid0.Coords, ∀ a, (k0_off454 i) a + S1.size a ≤ S1024.size a
  k0_off455_inb : ∀ i : grid0.Coords, ∀ a, (k0_off455 i) a + S1.size a ≤ S1024.size a
  k0_off457_inb : ∀ i : grid0.Coords, ∀ a, (k0_off457 i) a + S1.size a ≤ S1024.size a
  k0_off458_inb : ∀ i : grid0.Coords, ∀ a, (k0_off458 i) a + S1.size a ≤ S1024.size a
  k0_off460_inb : ∀ i : grid0.Coords, ∀ a, (k0_off460 i) a + S1.size a ≤ S1024.size a
  k0_off461_inb : ∀ i : grid0.Coords, ∀ a, (k0_off461 i) a + S1.size a ≤ S1024.size a
  k0_off463_inb : ∀ i : grid0.Coords, ∀ a, (k0_off463 i) a + S1.size a ≤ S1024.size a
  k0_off464_inb : ∀ i : grid0.Coords, ∀ a, (k0_off464 i) a + S1.size a ≤ S1024.size a
  k0_off466_inb : ∀ i : grid0.Coords, ∀ a, (k0_off466 i) a + S1.size a ≤ S1024.size a
  k0_off467_inb : ∀ i : grid0.Coords, ∀ a, (k0_off467 i) a + S1.size a ≤ S1024.size a
  k0_off469_inb : ∀ i : grid0.Coords, ∀ a, (k0_off469 i) a + S1.size a ≤ S1024.size a
  k0_off470_inb : ∀ i : grid0.Coords, ∀ a, (k0_off470 i) a + S1.size a ≤ S1024.size a
  k0_off472_inb : ∀ i : grid0.Coords, ∀ a, (k0_off472 i) a + S1.size a ≤ S1024.size a
  k0_off473_inb : ∀ i : grid0.Coords, ∀ a, (k0_off473 i) a + S1.size a ≤ S1024.size a
  k0_off475_inb : ∀ i : grid0.Coords, ∀ a, (k0_off475 i) a + S1.size a ≤ S1024.size a
  k0_off476_inb : ∀ i : grid0.Coords, ∀ a, (k0_off476 i) a + S1.size a ≤ S1024.size a
  k0_off478_inb : ∀ i : grid0.Coords, ∀ a, (k0_off478 i) a + S1.size a ≤ S1024.size a
  k0_off479_inb : ∀ i : grid0.Coords, ∀ a, (k0_off479 i) a + S1.size a ≤ S1024.size a
  k0_off481_inb : ∀ i : grid0.Coords, ∀ a, (k0_off481 i) a + S1.size a ≤ S1024.size a
  k0_off482_inb : ∀ i : grid0.Coords, ∀ a, (k0_off482 i) a + S1.size a ≤ S1024.size a
  k0_off484_inb : ∀ i : grid0.Coords, ∀ a, (k0_off484 i) a + S1.size a ≤ S1024.size a
  k0_off485_inb : ∀ i : grid0.Coords, ∀ a, (k0_off485 i) a + S1.size a ≤ S1024.size a
  k0_off487_inb : ∀ i : grid0.Coords, ∀ a, (k0_off487 i) a + S1.size a ≤ S1024.size a
  k0_off488_inb : ∀ i : grid0.Coords, ∀ a, (k0_off488 i) a + S1.size a ≤ S1024.size a
  k0_off490_inb : ∀ i : grid0.Coords, ∀ a, (k0_off490 i) a + S1.size a ≤ S1024.size a
  k0_off491_inb : ∀ i : grid0.Coords, ∀ a, (k0_off491 i) a + S1.size a ≤ S1024.size a
  k0_off493_inb : ∀ i : grid0.Coords, ∀ a, (k0_off493 i) a + S1.size a ≤ S1024.size a
  k0_off494_inb : ∀ i : grid0.Coords, ∀ a, (k0_off494 i) a + S1.size a ≤ S1024.size a
  k0_off496_inb : ∀ i : grid0.Coords, ∀ a, (k0_off496 i) a + S1.size a ≤ S1024.size a
  k0_off497_inb : ∀ i : grid0.Coords, ∀ a, (k0_off497 i) a + S1.size a ≤ S1024.size a
  k0_off499_inb : ∀ i : grid0.Coords, ∀ a, (k0_off499 i) a + S1.size a ≤ S1024.size a
  k0_off500_inb : ∀ i : grid0.Coords, ∀ a, (k0_off500 i) a + S1.size a ≤ S1024.size a
  k0_off502_inb : ∀ i : grid0.Coords, ∀ a, (k0_off502 i) a + S1.size a ≤ S1024.size a
  k0_off503_inb : ∀ i : grid0.Coords, ∀ a, (k0_off503 i) a + S1.size a ≤ S1024.size a
  k0_off505_inb : ∀ i : grid0.Coords, ∀ a, (k0_off505 i) a + S1.size a ≤ S1024.size a
  k0_off506_inb : ∀ i : grid0.Coords, ∀ a, (k0_off506 i) a + S1.size a ≤ S1024.size a
  k0_off508_inb : ∀ i : grid0.Coords, ∀ a, (k0_off508 i) a + S1.size a ≤ S1024.size a
  k0_off509_inb : ∀ i : grid0.Coords, ∀ a, (k0_off509 i) a + S1.size a ≤ S1024.size a
  k0_off511_inb : ∀ i : grid0.Coords, ∀ a, (k0_off511 i) a + S1.size a ≤ S1024.size a
  k0_off512_inb : ∀ i : grid0.Coords, ∀ a, (k0_off512 i) a + S1.size a ≤ S1024.size a
  k0_off514_inb : ∀ i : grid0.Coords, ∀ a, (k0_off514 i) a + S1.size a ≤ S1024.size a
  k0_off515_inb : ∀ i : grid0.Coords, ∀ a, (k0_off515 i) a + S1.size a ≤ S1024.size a
  k0_off517_inb : ∀ i : grid0.Coords, ∀ a, (k0_off517 i) a + S1.size a ≤ S1024.size a
  k0_off518_inb : ∀ i : grid0.Coords, ∀ a, (k0_off518 i) a + S1.size a ≤ S1024.size a
  k0_off520_inb : ∀ i : grid0.Coords, ∀ a, (k0_off520 i) a + S1.size a ≤ S1024.size a
  k0_off521_inb : ∀ i : grid0.Coords, ∀ a, (k0_off521 i) a + S1.size a ≤ S1024.size a
  k0_off523_inb : ∀ i : grid0.Coords, ∀ a, (k0_off523 i) a + S1.size a ≤ S1024.size a
  k0_off524_inb : ∀ i : grid0.Coords, ∀ a, (k0_off524 i) a + S1.size a ≤ S1024.size a
  k0_off526_inb : ∀ i : grid0.Coords, ∀ a, (k0_off526 i) a + S1.size a ≤ S1024.size a
  k0_off527_inb : ∀ i : grid0.Coords, ∀ a, (k0_off527 i) a + S1.size a ≤ S1024.size a
  k0_off529_inb : ∀ i : grid0.Coords, ∀ a, (k0_off529 i) a + S1.size a ≤ S1024.size a
  k0_off530_inb : ∀ i : grid0.Coords, ∀ a, (k0_off530 i) a + S1.size a ≤ S1024.size a
  k0_off532_inb : ∀ i : grid0.Coords, ∀ a, (k0_off532 i) a + S1.size a ≤ S1024.size a
  k0_off533_inb : ∀ i : grid0.Coords, ∀ a, (k0_off533 i) a + S1.size a ≤ S1024.size a
  k0_off535_inb : ∀ i : grid0.Coords, ∀ a, (k0_off535 i) a + S1.size a ≤ S1024.size a
  k0_off536_inb : ∀ i : grid0.Coords, ∀ a, (k0_off536 i) a + S1.size a ≤ S1024.size a
  k0_off538_inb : ∀ i : grid0.Coords, ∀ a, (k0_off538 i) a + S1.size a ≤ S1024.size a
  k0_off539_inb : ∀ i : grid0.Coords, ∀ a, (k0_off539 i) a + S1.size a ≤ S1024.size a
  k0_off541_inb : ∀ i : grid0.Coords, ∀ a, (k0_off541 i) a + S1.size a ≤ S1024.size a
  k0_off542_inb : ∀ i : grid0.Coords, ∀ a, (k0_off542 i) a + S1.size a ≤ S1024.size a
  k0_off544_inb : ∀ i : grid0.Coords, ∀ a, (k0_off544 i) a + S1.size a ≤ S1024.size a
  k0_off545_inb : ∀ i : grid0.Coords, ∀ a, (k0_off545 i) a + S1.size a ≤ S1024.size a
  k0_off547_inb : ∀ i : grid0.Coords, ∀ a, (k0_off547 i) a + S1.size a ≤ S1024.size a
  k0_off548_inb : ∀ i : grid0.Coords, ∀ a, (k0_off548 i) a + S1.size a ≤ S1024.size a
  k0_off550_inb : ∀ i : grid0.Coords, ∀ a, (k0_off550 i) a + S1.size a ≤ S1024.size a
  k0_off551_inb : ∀ i : grid0.Coords, ∀ a, (k0_off551 i) a + S1.size a ≤ S1024.size a
  k0_off553_inb : ∀ i : grid0.Coords, ∀ a, (k0_off553 i) a + S1.size a ≤ S1024.size a
  k0_off554_inb : ∀ i : grid0.Coords, ∀ a, (k0_off554 i) a + S1.size a ≤ S1024.size a
  k0_off556_inb : ∀ i : grid0.Coords, ∀ a, (k0_off556 i) a + S1.size a ≤ S1024.size a
  k0_off557_inb : ∀ i : grid0.Coords, ∀ a, (k0_off557 i) a + S1.size a ≤ S1024.size a
  k0_off559_inb : ∀ i : grid0.Coords, ∀ a, (k0_off559 i) a + S1.size a ≤ S1024.size a
  k0_off560_inb : ∀ i : grid0.Coords, ∀ a, (k0_off560 i) a + S1.size a ≤ S1024.size a
  k0_off562_inb : ∀ i : grid0.Coords, ∀ a, (k0_off562 i) a + S1.size a ≤ S1024.size a
  k0_off563_inb : ∀ i : grid0.Coords, ∀ a, (k0_off563 i) a + S1.size a ≤ S1024.size a
  k0_off565_inb : ∀ i : grid0.Coords, ∀ a, (k0_off565 i) a + S1.size a ≤ S1024.size a
  k0_off566_inb : ∀ i : grid0.Coords, ∀ a, (k0_off566 i) a + S1.size a ≤ S1024.size a
  k0_off568_inb : ∀ i : grid0.Coords, ∀ a, (k0_off568 i) a + S1.size a ≤ S1024.size a
  k0_off569_inb : ∀ i : grid0.Coords, ∀ a, (k0_off569 i) a + S1.size a ≤ S1024.size a
  k0_off571_inb : ∀ i : grid0.Coords, ∀ a, (k0_off571 i) a + S1.size a ≤ S1024.size a
  k0_off572_inb : ∀ i : grid0.Coords, ∀ a, (k0_off572 i) a + S1.size a ≤ S1024.size a
  k0_off574_inb : ∀ i : grid0.Coords, ∀ a, (k0_off574 i) a + S1.size a ≤ S1024.size a
  k0_off575_inb : ∀ i : grid0.Coords, ∀ a, (k0_off575 i) a + S1.size a ≤ S1024.size a
  k0_off577_inb : ∀ i : grid0.Coords, ∀ a, (k0_off577 i) a + S1.size a ≤ S1024.size a
  k0_off578_inb : ∀ i : grid0.Coords, ∀ a, (k0_off578 i) a + S1.size a ≤ S1024.size a
  k0_off580_inb : ∀ i : grid0.Coords, ∀ a, (k0_off580 i) a + S1.size a ≤ S1024.size a
  k0_off581_inb : ∀ i : grid0.Coords, ∀ a, (k0_off581 i) a + S1.size a ≤ S1024.size a
  k0_off583_inb : ∀ i : grid0.Coords, ∀ a, (k0_off583 i) a + S1.size a ≤ S1024.size a
  k0_off584_inb : ∀ i : grid0.Coords, ∀ a, (k0_off584 i) a + S1.size a ≤ S1024.size a
  k0_off586_inb : ∀ i : grid0.Coords, ∀ a, (k0_off586 i) a + S1.size a ≤ S1024.size a
  k0_off587_inb : ∀ i : grid0.Coords, ∀ a, (k0_off587 i) a + S1.size a ≤ S1024.size a
  k0_off589_inb : ∀ i : grid0.Coords, ∀ a, (k0_off589 i) a + S1.size a ≤ S1024.size a
  k0_off590_inb : ∀ i : grid0.Coords, ∀ a, (k0_off590 i) a + S1.size a ≤ S1024.size a
  k0_off592_inb : ∀ i : grid0.Coords, ∀ a, (k0_off592 i) a + S1.size a ≤ S1024.size a
  k0_off593_inb : ∀ i : grid0.Coords, ∀ a, (k0_off593 i) a + S1.size a ≤ S1024.size a
  k0_off595_inb : ∀ i : grid0.Coords, ∀ a, (k0_off595 i) a + S1.size a ≤ S1024.size a
  k0_off596_inb : ∀ i : grid0.Coords, ∀ a, (k0_off596 i) a + S1.size a ≤ S1024.size a
  k0_off598_inb : ∀ i : grid0.Coords, ∀ a, (k0_off598 i) a + S1.size a ≤ S1024.size a
  k0_off599_inb : ∀ i : grid0.Coords, ∀ a, (k0_off599 i) a + S1.size a ≤ S1024.size a
  k0_off601_inb : ∀ i : grid0.Coords, ∀ a, (k0_off601 i) a + S1.size a ≤ S1024.size a
  k0_off602_inb : ∀ i : grid0.Coords, ∀ a, (k0_off602 i) a + S1.size a ≤ S1024.size a
  k0_off604_inb : ∀ i : grid0.Coords, ∀ a, (k0_off604 i) a + S1.size a ≤ S1024.size a
  k0_off605_inb : ∀ i : grid0.Coords, ∀ a, (k0_off605 i) a + S1.size a ≤ S1024.size a
  k0_off607_inb : ∀ i : grid0.Coords, ∀ a, (k0_off607 i) a + S1.size a ≤ S1024.size a
  k0_off608_inb : ∀ i : grid0.Coords, ∀ a, (k0_off608 i) a + S1.size a ≤ S1024.size a
  k0_off610_inb : ∀ i : grid0.Coords, ∀ a, (k0_off610 i) a + S1.size a ≤ S1024.size a
  k0_off611_inb : ∀ i : grid0.Coords, ∀ a, (k0_off611 i) a + S1.size a ≤ S1024.size a
  k0_off613_inb : ∀ i : grid0.Coords, ∀ a, (k0_off613 i) a + S1.size a ≤ S1024.size a
  k0_off614_inb : ∀ i : grid0.Coords, ∀ a, (k0_off614 i) a + S1.size a ≤ S1024.size a
  k0_off616_inb : ∀ i : grid0.Coords, ∀ a, (k0_off616 i) a + S1.size a ≤ S1024.size a
  k0_off617_inb : ∀ i : grid0.Coords, ∀ a, (k0_off617 i) a + S1.size a ≤ S1024.size a
  k0_off619_inb : ∀ i : grid0.Coords, ∀ a, (k0_off619 i) a + S1.size a ≤ S1024.size a
  k0_off620_inb : ∀ i : grid0.Coords, ∀ a, (k0_off620 i) a + S1.size a ≤ S1024.size a
  k0_off622_inb : ∀ i : grid0.Coords, ∀ a, (k0_off622 i) a + S1.size a ≤ S1024.size a
  k0_off623_inb : ∀ i : grid0.Coords, ∀ a, (k0_off623 i) a + S1.size a ≤ S1024.size a
  k0_off625_inb : ∀ i : grid0.Coords, ∀ a, (k0_off625 i) a + S1.size a ≤ S1024.size a
  k0_off626_inb : ∀ i : grid0.Coords, ∀ a, (k0_off626 i) a + S1.size a ≤ S1024.size a
  k0_off628_inb : ∀ i : grid0.Coords, ∀ a, (k0_off628 i) a + S1.size a ≤ S1024.size a
  k0_off629_inb : ∀ i : grid0.Coords, ∀ a, (k0_off629 i) a + S1.size a ≤ S1024.size a
  k0_off631_inb : ∀ i : grid0.Coords, ∀ a, (k0_off631 i) a + S1.size a ≤ S1024.size a
  k0_off632_inb : ∀ i : grid0.Coords, ∀ a, (k0_off632 i) a + S1.size a ≤ S1024.size a
  k0_off634_inb : ∀ i : grid0.Coords, ∀ a, (k0_off634 i) a + S1.size a ≤ S1024.size a
  k0_off635_inb : ∀ i : grid0.Coords, ∀ a, (k0_off635 i) a + S1.size a ≤ S1024.size a
  k0_off637_inb : ∀ i : grid0.Coords, ∀ a, (k0_off637 i) a + S1.size a ≤ S1024.size a
  k0_off638_inb : ∀ i : grid0.Coords, ∀ a, (k0_off638 i) a + S1.size a ≤ S1024.size a
  k0_off640_inb : ∀ i : grid0.Coords, ∀ a, (k0_off640 i) a + S1.size a ≤ S1024.size a
  k0_off641_inb : ∀ i : grid0.Coords, ∀ a, (k0_off641 i) a + S1.size a ≤ S1024.size a
  k0_off643_inb : ∀ i : grid0.Coords, ∀ a, (k0_off643 i) a + S1.size a ≤ S1024.size a
  k0_off644_inb : ∀ i : grid0.Coords, ∀ a, (k0_off644 i) a + S1.size a ≤ S1024.size a
  k0_off646_inb : ∀ i : grid0.Coords, ∀ a, (k0_off646 i) a + S1.size a ≤ S1024.size a
  k0_off647_inb : ∀ i : grid0.Coords, ∀ a, (k0_off647 i) a + S1.size a ≤ S1024.size a
  k0_off649_inb : ∀ i : grid0.Coords, ∀ a, (k0_off649 i) a + S1.size a ≤ S1024.size a
  k0_off650_inb : ∀ i : grid0.Coords, ∀ a, (k0_off650 i) a + S1.size a ≤ S1024.size a
  k0_off652_inb : ∀ i : grid0.Coords, ∀ a, (k0_off652 i) a + S1.size a ≤ S1024.size a
  k0_off653_inb : ∀ i : grid0.Coords, ∀ a, (k0_off653 i) a + S1.size a ≤ S1024.size a
  k0_off655_inb : ∀ i : grid0.Coords, ∀ a, (k0_off655 i) a + S1.size a ≤ S1024.size a
  k0_off656_inb : ∀ i : grid0.Coords, ∀ a, (k0_off656 i) a + S1.size a ≤ S1024.size a
  k0_off658_inb : ∀ i : grid0.Coords, ∀ a, (k0_off658 i) a + S1.size a ≤ S1024.size a
  k0_off659_inb : ∀ i : grid0.Coords, ∀ a, (k0_off659 i) a + S1.size a ≤ S1024.size a
  k0_off661_inb : ∀ i : grid0.Coords, ∀ a, (k0_off661 i) a + S1.size a ≤ S1024.size a
  k0_off662_inb : ∀ i : grid0.Coords, ∀ a, (k0_off662 i) a + S1.size a ≤ S1024.size a
  k0_off664_inb : ∀ i : grid0.Coords, ∀ a, (k0_off664 i) a + S1.size a ≤ S1024.size a
  k0_off665_inb : ∀ i : grid0.Coords, ∀ a, (k0_off665 i) a + S1.size a ≤ S1024.size a
  k0_off667_inb : ∀ i : grid0.Coords, ∀ a, (k0_off667 i) a + S1.size a ≤ S1024.size a
  k0_off668_inb : ∀ i : grid0.Coords, ∀ a, (k0_off668 i) a + S1.size a ≤ S1024.size a
  k0_off670_inb : ∀ i : grid0.Coords, ∀ a, (k0_off670 i) a + S1.size a ≤ S1024.size a
  k0_off671_inb : ∀ i : grid0.Coords, ∀ a, (k0_off671 i) a + S1.size a ≤ S1024.size a
  k0_off673_inb : ∀ i : grid0.Coords, ∀ a, (k0_off673 i) a + S1.size a ≤ S1024.size a
  k0_off674_inb : ∀ i : grid0.Coords, ∀ a, (k0_off674 i) a + S1.size a ≤ S1024.size a
  k0_off676_inb : ∀ i : grid0.Coords, ∀ a, (k0_off676 i) a + S1.size a ≤ S1024.size a
  k0_off677_inb : ∀ i : grid0.Coords, ∀ a, (k0_off677 i) a + S1.size a ≤ S1024.size a
  k0_off679_inb : ∀ i : grid0.Coords, ∀ a, (k0_off679 i) a + S1.size a ≤ S1024.size a
  k0_off680_inb : ∀ i : grid0.Coords, ∀ a, (k0_off680 i) a + S1.size a ≤ S1024.size a
  k0_off682_inb : ∀ i : grid0.Coords, ∀ a, (k0_off682 i) a + S1.size a ≤ S1024.size a
  k0_off683_inb : ∀ i : grid0.Coords, ∀ a, (k0_off683 i) a + S1.size a ≤ S1024.size a
  k0_off685_inb : ∀ i : grid0.Coords, ∀ a, (k0_off685 i) a + S1.size a ≤ S1024.size a
  k0_off686_inb : ∀ i : grid0.Coords, ∀ a, (k0_off686 i) a + S1.size a ≤ S1024.size a
  k0_off688_inb : ∀ i : grid0.Coords, ∀ a, (k0_off688 i) a + S1.size a ≤ S1024.size a
  k0_off689_inb : ∀ i : grid0.Coords, ∀ a, (k0_off689 i) a + S1.size a ≤ S1024.size a
  k0_off691_inb : ∀ i : grid0.Coords, ∀ a, (k0_off691 i) a + S1.size a ≤ S1024.size a
  k0_off692_inb : ∀ i : grid0.Coords, ∀ a, (k0_off692 i) a + S1.size a ≤ S1024.size a
  k0_off694_inb : ∀ i : grid0.Coords, ∀ a, (k0_off694 i) a + S1.size a ≤ S1024.size a
  k0_off695_inb : ∀ i : grid0.Coords, ∀ a, (k0_off695 i) a + S1.size a ≤ S1024.size a
  k0_off697_inb : ∀ i : grid0.Coords, ∀ a, (k0_off697 i) a + S1.size a ≤ S1024.size a
  k0_off698_inb : ∀ i : grid0.Coords, ∀ a, (k0_off698 i) a + S1.size a ≤ S1024.size a
  k0_off700_inb : ∀ i : grid0.Coords, ∀ a, (k0_off700 i) a + S1.size a ≤ S1024.size a
  k0_off701_inb : ∀ i : grid0.Coords, ∀ a, (k0_off701 i) a + S1.size a ≤ S1024.size a
  k0_off703_inb : ∀ i : grid0.Coords, ∀ a, (k0_off703 i) a + S1.size a ≤ S1024.size a
  k0_off704_inb : ∀ i : grid0.Coords, ∀ a, (k0_off704 i) a + S1.size a ≤ S1024.size a
  k0_off706_inb : ∀ i : grid0.Coords, ∀ a, (k0_off706 i) a + S1.size a ≤ S1024.size a
  k0_off707_inb : ∀ i : grid0.Coords, ∀ a, (k0_off707 i) a + S1.size a ≤ S1024.size a
  k0_off709_inb : ∀ i : grid0.Coords, ∀ a, (k0_off709 i) a + S1.size a ≤ S1024.size a
  k0_off710_inb : ∀ i : grid0.Coords, ∀ a, (k0_off710 i) a + S1.size a ≤ S1024.size a
  k0_off712_inb : ∀ i : grid0.Coords, ∀ a, (k0_off712 i) a + S1.size a ≤ S1024.size a
  k0_off713_inb : ∀ i : grid0.Coords, ∀ a, (k0_off713 i) a + S1.size a ≤ S1024.size a
  k0_off715_inb : ∀ i : grid0.Coords, ∀ a, (k0_off715 i) a + S1.size a ≤ S1024.size a
  k0_off716_inb : ∀ i : grid0.Coords, ∀ a, (k0_off716 i) a + S1.size a ≤ S1024.size a
  k0_off718_inb : ∀ i : grid0.Coords, ∀ a, (k0_off718 i) a + S1.size a ≤ S1024.size a
  k0_off719_inb : ∀ i : grid0.Coords, ∀ a, (k0_off719 i) a + S1.size a ≤ S1024.size a
  k0_off721_inb : ∀ i : grid0.Coords, ∀ a, (k0_off721 i) a + S1.size a ≤ S1024.size a
  k0_off722_inb : ∀ i : grid0.Coords, ∀ a, (k0_off722 i) a + S1.size a ≤ S1024.size a
  k0_off724_inb : ∀ i : grid0.Coords, ∀ a, (k0_off724 i) a + S1.size a ≤ S1024.size a
  k0_off725_inb : ∀ i : grid0.Coords, ∀ a, (k0_off725 i) a + S1.size a ≤ S1024.size a
  k0_off727_inb : ∀ i : grid0.Coords, ∀ a, (k0_off727 i) a + S1.size a ≤ S1024.size a
  k0_off728_inb : ∀ i : grid0.Coords, ∀ a, (k0_off728 i) a + S1.size a ≤ S1024.size a
  k0_off730_inb : ∀ i : grid0.Coords, ∀ a, (k0_off730 i) a + S1.size a ≤ S1024.size a
  k0_off731_inb : ∀ i : grid0.Coords, ∀ a, (k0_off731 i) a + S1.size a ≤ S1024.size a
  k0_off733_inb : ∀ i : grid0.Coords, ∀ a, (k0_off733 i) a + S1.size a ≤ S1024.size a
  k0_off734_inb : ∀ i : grid0.Coords, ∀ a, (k0_off734 i) a + S1.size a ≤ S1024.size a
  k0_off736_inb : ∀ i : grid0.Coords, ∀ a, (k0_off736 i) a + S1.size a ≤ S1024.size a
  k0_off737_inb : ∀ i : grid0.Coords, ∀ a, (k0_off737 i) a + S1.size a ≤ S1024.size a
  k0_off739_inb : ∀ i : grid0.Coords, ∀ a, (k0_off739 i) a + S1.size a ≤ S1024.size a
  k0_off740_inb : ∀ i : grid0.Coords, ∀ a, (k0_off740 i) a + S1.size a ≤ S1024.size a
  k0_off742_inb : ∀ i : grid0.Coords, ∀ a, (k0_off742 i) a + S1.size a ≤ S1024.size a
  k0_off743_inb : ∀ i : grid0.Coords, ∀ a, (k0_off743 i) a + S1.size a ≤ S1024.size a
  k0_off745_inb : ∀ i : grid0.Coords, ∀ a, (k0_off745 i) a + S1.size a ≤ S1024.size a
  k0_off746_inb : ∀ i : grid0.Coords, ∀ a, (k0_off746 i) a + S1.size a ≤ S1024.size a
  k0_off748_inb : ∀ i : grid0.Coords, ∀ a, (k0_off748 i) a + S1.size a ≤ S1024.size a
  k0_off749_inb : ∀ i : grid0.Coords, ∀ a, (k0_off749 i) a + S1.size a ≤ S1024.size a
  k0_off751_inb : ∀ i : grid0.Coords, ∀ a, (k0_off751 i) a + S1.size a ≤ S1024.size a
  k0_off752_inb : ∀ i : grid0.Coords, ∀ a, (k0_off752 i) a + S1.size a ≤ S1024.size a
  k0_off754_inb : ∀ i : grid0.Coords, ∀ a, (k0_off754 i) a + S1.size a ≤ S1024.size a
  k0_off755_inb : ∀ i : grid0.Coords, ∀ a, (k0_off755 i) a + S1.size a ≤ S1024.size a
  k0_off757_inb : ∀ i : grid0.Coords, ∀ a, (k0_off757 i) a + S1.size a ≤ S1024.size a
  k0_off758_inb : ∀ i : grid0.Coords, ∀ a, (k0_off758 i) a + S1.size a ≤ S1024.size a
  k0_off760_inb : ∀ i : grid0.Coords, ∀ a, (k0_off760 i) a + S1.size a ≤ S1024.size a
  k0_off761_inb : ∀ i : grid0.Coords, ∀ a, (k0_off761 i) a + S1.size a ≤ S1024.size a
  k0_off763_inb : ∀ i : grid0.Coords, ∀ a, (k0_off763 i) a + S1.size a ≤ S1024.size a
  k0_off764_inb : ∀ i : grid0.Coords, ∀ a, (k0_off764 i) a + S1.size a ≤ S1024.size a
  k0_off766_inb : ∀ i : grid0.Coords, ∀ a, (k0_off766 i) a + S1.size a ≤ S1024.size a
  k0_off767_inb : ∀ i : grid0.Coords, ∀ a, (k0_off767 i) a + S1.size a ≤ S1024.size a
  k0_off769_inb : ∀ i : grid0.Coords, ∀ a, (k0_off769 i) a + S1.size a ≤ S1024.size a
  k0_off770_inb : ∀ i : grid0.Coords, ∀ a, (k0_off770 i) a + S1.size a ≤ S1024.size a
  k0_off772_inb : ∀ i : grid0.Coords, ∀ a, (k0_off772 i) a + S1.size a ≤ S1024.size a
  k0_off773_inb : ∀ i : grid0.Coords, ∀ a, (k0_off773 i) a + S1.size a ≤ S1024.size a
  k0_off775_inb : ∀ i : grid0.Coords, ∀ a, (k0_off775 i) a + S1.size a ≤ S1024.size a
  k0_off776_inb : ∀ i : grid0.Coords, ∀ a, (k0_off776 i) a + S1.size a ≤ S1024.size a
  k0_off778_inb : ∀ i : grid0.Coords, ∀ a, (k0_off778 i) a + S1.size a ≤ S1024.size a
  k0_off779_inb : ∀ i : grid0.Coords, ∀ a, (k0_off779 i) a + S1.size a ≤ S1024.size a
  k0_off781_inb : ∀ i : grid0.Coords, ∀ a, (k0_off781 i) a + S1.size a ≤ S1024.size a
  k0_off782_inb : ∀ i : grid0.Coords, ∀ a, (k0_off782 i) a + S1.size a ≤ S1024.size a
  k0_off784_inb : ∀ i : grid0.Coords, ∀ a, (k0_off784 i) a + S1.size a ≤ S1024.size a
  k0_off785_inb : ∀ i : grid0.Coords, ∀ a, (k0_off785 i) a + S1.size a ≤ S1024.size a
  k0_off787_inb : ∀ i : grid0.Coords, ∀ a, (k0_off787 i) a + S1.size a ≤ S1024.size a
  k0_off788_inb : ∀ i : grid0.Coords, ∀ a, (k0_off788 i) a + S1.size a ≤ S1024.size a
  k0_off790_inb : ∀ i : grid0.Coords, ∀ a, (k0_off790 i) a + S1.size a ≤ S1024.size a
  k0_off791_inb : ∀ i : grid0.Coords, ∀ a, (k0_off791 i) a + S1.size a ≤ S1024.size a
  k0_off793_inb : ∀ i : grid0.Coords, ∀ a, (k0_off793 i) a + S1.size a ≤ S1024.size a
  k0_off794_inb : ∀ i : grid0.Coords, ∀ a, (k0_off794 i) a + S1.size a ≤ S1024.size a
  k0_off796_inb : ∀ i : grid0.Coords, ∀ a, (k0_off796 i) a + S1.size a ≤ S1024.size a
  k0_off797_inb : ∀ i : grid0.Coords, ∀ a, (k0_off797 i) a + S1.size a ≤ S1024.size a
  k0_off799_inb : ∀ i : grid0.Coords, ∀ a, (k0_off799 i) a + S1.size a ≤ S1024.size a
  k0_off800_inb : ∀ i : grid0.Coords, ∀ a, (k0_off800 i) a + S1.size a ≤ S1024.size a
  k0_off802_inb : ∀ i : grid0.Coords, ∀ a, (k0_off802 i) a + S1.size a ≤ S1024.size a
  k0_off803_inb : ∀ i : grid0.Coords, ∀ a, (k0_off803 i) a + S1.size a ≤ S1024.size a
  k0_off805_inb : ∀ i : grid0.Coords, ∀ a, (k0_off805 i) a + S1.size a ≤ S1024.size a
  k0_off806_inb : ∀ i : grid0.Coords, ∀ a, (k0_off806 i) a + S1.size a ≤ S1024.size a
  k0_off808_inb : ∀ i : grid0.Coords, ∀ a, (k0_off808 i) a + S1.size a ≤ S1024.size a
  k0_off809_inb : ∀ i : grid0.Coords, ∀ a, (k0_off809 i) a + S1.size a ≤ S1024.size a
  k0_off811_inb : ∀ i : grid0.Coords, ∀ a, (k0_off811 i) a + S1.size a ≤ S1024.size a
  k0_off812_inb : ∀ i : grid0.Coords, ∀ a, (k0_off812 i) a + S1.size a ≤ S1024.size a
  k0_off814_inb : ∀ i : grid0.Coords, ∀ a, (k0_off814 i) a + S1.size a ≤ S1024.size a
  k0_off815_inb : ∀ i : grid0.Coords, ∀ a, (k0_off815 i) a + S1.size a ≤ S1024.size a
  k0_off817_inb : ∀ i : grid0.Coords, ∀ a, (k0_off817 i) a + S1.size a ≤ S1024.size a
  k0_off818_inb : ∀ i : grid0.Coords, ∀ a, (k0_off818 i) a + S1.size a ≤ S1024.size a
  k0_off820_inb : ∀ i : grid0.Coords, ∀ a, (k0_off820 i) a + S1.size a ≤ S1024.size a
  k0_off821_inb : ∀ i : grid0.Coords, ∀ a, (k0_off821 i) a + S1.size a ≤ S1024.size a
  k0_off823_inb : ∀ i : grid0.Coords, ∀ a, (k0_off823 i) a + S1.size a ≤ S1024.size a
  k0_off824_inb : ∀ i : grid0.Coords, ∀ a, (k0_off824 i) a + S1.size a ≤ S1024.size a
  k0_off826_inb : ∀ i : grid0.Coords, ∀ a, (k0_off826 i) a + S1.size a ≤ S1024.size a
  k0_off827_inb : ∀ i : grid0.Coords, ∀ a, (k0_off827 i) a + S1.size a ≤ S1024.size a
  k0_off829_inb : ∀ i : grid0.Coords, ∀ a, (k0_off829 i) a + S1.size a ≤ S1024.size a
  k0_off830_inb : ∀ i : grid0.Coords, ∀ a, (k0_off830 i) a + S1.size a ≤ S1024.size a
  k0_off832_inb : ∀ i : grid0.Coords, ∀ a, (k0_off832 i) a + S1.size a ≤ S1024.size a
  k0_off833_inb : ∀ i : grid0.Coords, ∀ a, (k0_off833 i) a + S1.size a ≤ S1024.size a
  k0_off835_inb : ∀ i : grid0.Coords, ∀ a, (k0_off835 i) a + S1.size a ≤ S1024.size a
  k0_off836_inb : ∀ i : grid0.Coords, ∀ a, (k0_off836 i) a + S1.size a ≤ S1024.size a
  k0_off838_inb : ∀ i : grid0.Coords, ∀ a, (k0_off838 i) a + S1.size a ≤ S1024.size a
  k0_off839_inb : ∀ i : grid0.Coords, ∀ a, (k0_off839 i) a + S1.size a ≤ S1024.size a
  k0_off841_inb : ∀ i : grid0.Coords, ∀ a, (k0_off841 i) a + S1.size a ≤ S1024.size a
  k0_off842_inb : ∀ i : grid0.Coords, ∀ a, (k0_off842 i) a + S1.size a ≤ S1024.size a
  k0_off844_inb : ∀ i : grid0.Coords, ∀ a, (k0_off844 i) a + S1.size a ≤ S1024.size a
  k0_off845_inb : ∀ i : grid0.Coords, ∀ a, (k0_off845 i) a + S1.size a ≤ S1024.size a
  k0_off847_inb : ∀ i : grid0.Coords, ∀ a, (k0_off847 i) a + S1.size a ≤ S1024.size a
  k0_off848_inb : ∀ i : grid0.Coords, ∀ a, (k0_off848 i) a + S1.size a ≤ S1024.size a
  k0_off850_inb : ∀ i : grid0.Coords, ∀ a, (k0_off850 i) a + S1.size a ≤ S1024.size a
  k0_off851_inb : ∀ i : grid0.Coords, ∀ a, (k0_off851 i) a + S1.size a ≤ S1024.size a
  k0_off853_inb : ∀ i : grid0.Coords, ∀ a, (k0_off853 i) a + S1.size a ≤ S1024.size a
  k0_off854_inb : ∀ i : grid0.Coords, ∀ a, (k0_off854 i) a + S1.size a ≤ S1024.size a
  k0_off856_inb : ∀ i : grid0.Coords, ∀ a, (k0_off856 i) a + S1.size a ≤ S1024.size a
  k0_off857_inb : ∀ i : grid0.Coords, ∀ a, (k0_off857 i) a + S1.size a ≤ S1024.size a
  k0_off859_inb : ∀ i : grid0.Coords, ∀ a, (k0_off859 i) a + S1.size a ≤ S1024.size a
  k0_off860_inb : ∀ i : grid0.Coords, ∀ a, (k0_off860 i) a + S1.size a ≤ S1024.size a
  k0_off862_inb : ∀ i : grid0.Coords, ∀ a, (k0_off862 i) a + S1.size a ≤ S1024.size a
  k0_off863_inb : ∀ i : grid0.Coords, ∀ a, (k0_off863 i) a + S1.size a ≤ S1024.size a
  k0_off865_inb : ∀ i : grid0.Coords, ∀ a, (k0_off865 i) a + S1.size a ≤ S1024.size a
  k0_off866_inb : ∀ i : grid0.Coords, ∀ a, (k0_off866 i) a + S1.size a ≤ S1024.size a
  k0_off868_inb : ∀ i : grid0.Coords, ∀ a, (k0_off868 i) a + S1.size a ≤ S1024.size a
  k0_off869_inb : ∀ i : grid0.Coords, ∀ a, (k0_off869 i) a + S1.size a ≤ S1024.size a
  k0_off871_inb : ∀ i : grid0.Coords, ∀ a, (k0_off871 i) a + S1.size a ≤ S1024.size a
  k0_off872_inb : ∀ i : grid0.Coords, ∀ a, (k0_off872 i) a + S1.size a ≤ S1024.size a
  k0_off874_inb : ∀ i : grid0.Coords, ∀ a, (k0_off874 i) a + S1.size a ≤ S1024.size a
  k0_off875_inb : ∀ i : grid0.Coords, ∀ a, (k0_off875 i) a + S1.size a ≤ S1024.size a
  k0_off877_inb : ∀ i : grid0.Coords, ∀ a, (k0_off877 i) a + S1.size a ≤ S1024.size a
  k0_off878_inb : ∀ i : grid0.Coords, ∀ a, (k0_off878 i) a + S1.size a ≤ S1024.size a
  k0_off880_inb : ∀ i : grid0.Coords, ∀ a, (k0_off880 i) a + S1.size a ≤ S1024.size a
  k0_off881_inb : ∀ i : grid0.Coords, ∀ a, (k0_off881 i) a + S1.size a ≤ S1024.size a
  k0_off883_inb : ∀ i : grid0.Coords, ∀ a, (k0_off883 i) a + S1.size a ≤ S1024.size a
  k0_off884_inb : ∀ i : grid0.Coords, ∀ a, (k0_off884 i) a + S1.size a ≤ S1024.size a
  k0_off886_inb : ∀ i : grid0.Coords, ∀ a, (k0_off886 i) a + S1.size a ≤ S1024.size a
  k0_off887_inb : ∀ i : grid0.Coords, ∀ a, (k0_off887 i) a + S1.size a ≤ S1024.size a
  k0_off889_inb : ∀ i : grid0.Coords, ∀ a, (k0_off889 i) a + S1.size a ≤ S1024.size a
  k0_off890_inb : ∀ i : grid0.Coords, ∀ a, (k0_off890 i) a + S1.size a ≤ S1024.size a
  k0_off892_inb : ∀ i : grid0.Coords, ∀ a, (k0_off892 i) a + S1.size a ≤ S1024.size a
  k0_off893_inb : ∀ i : grid0.Coords, ∀ a, (k0_off893 i) a + S1.size a ≤ S1024.size a
  k0_off895_inb : ∀ i : grid0.Coords, ∀ a, (k0_off895 i) a + S1.size a ≤ S1024.size a
  k0_off896_inb : ∀ i : grid0.Coords, ∀ a, (k0_off896 i) a + S1.size a ≤ S1024.size a
  k0_off898_inb : ∀ i : grid0.Coords, ∀ a, (k0_off898 i) a + S1.size a ≤ S1024.size a
  k0_off899_inb : ∀ i : grid0.Coords, ∀ a, (k0_off899 i) a + S1.size a ≤ S1024.size a
  k0_off901_inb : ∀ i : grid0.Coords, ∀ a, (k0_off901 i) a + S1.size a ≤ S1024.size a
  k0_off902_inb : ∀ i : grid0.Coords, ∀ a, (k0_off902 i) a + S1.size a ≤ S1024.size a
  k0_off904_inb : ∀ i : grid0.Coords, ∀ a, (k0_off904 i) a + S1.size a ≤ S1024.size a
  k0_off905_inb : ∀ i : grid0.Coords, ∀ a, (k0_off905 i) a + S1.size a ≤ S1024.size a
  k0_off907_inb : ∀ i : grid0.Coords, ∀ a, (k0_off907 i) a + S1.size a ≤ S1024.size a
  k0_off908_inb : ∀ i : grid0.Coords, ∀ a, (k0_off908 i) a + S1.size a ≤ S1024.size a
  k0_off910_inb : ∀ i : grid0.Coords, ∀ a, (k0_off910 i) a + S1.size a ≤ S1024.size a
  k0_off911_inb : ∀ i : grid0.Coords, ∀ a, (k0_off911 i) a + S1.size a ≤ S1024.size a
  k0_off913_inb : ∀ i : grid0.Coords, ∀ a, (k0_off913 i) a + S1.size a ≤ S1024.size a
  k0_off914_inb : ∀ i : grid0.Coords, ∀ a, (k0_off914 i) a + S1.size a ≤ S1024.size a
  k0_off916_inb : ∀ i : grid0.Coords, ∀ a, (k0_off916 i) a + S1.size a ≤ S1024.size a
  k0_off917_inb : ∀ i : grid0.Coords, ∀ a, (k0_off917 i) a + S1.size a ≤ S1024.size a
  k0_off919_inb : ∀ i : grid0.Coords, ∀ a, (k0_off919 i) a + S1.size a ≤ S1024.size a
  k0_off920_inb : ∀ i : grid0.Coords, ∀ a, (k0_off920 i) a + S1.size a ≤ S1024.size a
  k0_off922_inb : ∀ i : grid0.Coords, ∀ a, (k0_off922 i) a + S1.size a ≤ S1024.size a
  k0_off923_inb : ∀ i : grid0.Coords, ∀ a, (k0_off923 i) a + S1.size a ≤ S1024.size a
  k0_off925_inb : ∀ i : grid0.Coords, ∀ a, (k0_off925 i) a + S1.size a ≤ S1024.size a
  k0_off926_inb : ∀ i : grid0.Coords, ∀ a, (k0_off926 i) a + S1.size a ≤ S1024.size a
  k0_off928_inb : ∀ i : grid0.Coords, ∀ a, (k0_off928 i) a + S1.size a ≤ S1024.size a
  k0_off929_inb : ∀ i : grid0.Coords, ∀ a, (k0_off929 i) a + S1.size a ≤ S1024.size a
  k0_off931_inb : ∀ i : grid0.Coords, ∀ a, (k0_off931 i) a + S1.size a ≤ S1024.size a
  k0_off932_inb : ∀ i : grid0.Coords, ∀ a, (k0_off932 i) a + S1.size a ≤ S1024.size a
  k0_off934_inb : ∀ i : grid0.Coords, ∀ a, (k0_off934 i) a + S1.size a ≤ S1024.size a
  k0_off935_inb : ∀ i : grid0.Coords, ∀ a, (k0_off935 i) a + S1.size a ≤ S1024.size a
  k0_off937_inb : ∀ i : grid0.Coords, ∀ a, (k0_off937 i) a + S1.size a ≤ S1024.size a
  k0_off938_inb : ∀ i : grid0.Coords, ∀ a, (k0_off938 i) a + S1.size a ≤ S1024.size a
  k0_off940_inb : ∀ i : grid0.Coords, ∀ a, (k0_off940 i) a + S1.size a ≤ S1024.size a
  k0_off941_inb : ∀ i : grid0.Coords, ∀ a, (k0_off941 i) a + S1.size a ≤ S1024.size a
  k0_off943_inb : ∀ i : grid0.Coords, ∀ a, (k0_off943 i) a + S1.size a ≤ S1024.size a
  k0_off944_inb : ∀ i : grid0.Coords, ∀ a, (k0_off944 i) a + S1.size a ≤ S1024.size a
  k0_off946_inb : ∀ i : grid0.Coords, ∀ a, (k0_off946 i) a + S1.size a ≤ S1024.size a
  k0_off947_inb : ∀ i : grid0.Coords, ∀ a, (k0_off947 i) a + S1.size a ≤ S1024.size a
  k0_off949_inb : ∀ i : grid0.Coords, ∀ a, (k0_off949 i) a + S1.size a ≤ S1024.size a
  k0_off950_inb : ∀ i : grid0.Coords, ∀ a, (k0_off950 i) a + S1.size a ≤ S1024.size a
  k0_off952_inb : ∀ i : grid0.Coords, ∀ a, (k0_off952 i) a + S1.size a ≤ S1024.size a
  k0_off953_inb : ∀ i : grid0.Coords, ∀ a, (k0_off953 i) a + S1.size a ≤ S1024.size a
  k0_off955_inb : ∀ i : grid0.Coords, ∀ a, (k0_off955 i) a + S1.size a ≤ S1024.size a
  k0_off956_inb : ∀ i : grid0.Coords, ∀ a, (k0_off956 i) a + S1.size a ≤ S1024.size a
  k0_off958_inb : ∀ i : grid0.Coords, ∀ a, (k0_off958 i) a + S1.size a ≤ S1024.size a
  k0_off959_inb : ∀ i : grid0.Coords, ∀ a, (k0_off959 i) a + S1.size a ≤ S1024.size a
  k0_off961_inb : ∀ i : grid0.Coords, ∀ a, (k0_off961 i) a + S1.size a ≤ S1024.size a
  k0_off962_inb : ∀ i : grid0.Coords, ∀ a, (k0_off962 i) a + S1.size a ≤ S1024.size a
  k0_off964_inb : ∀ i : grid0.Coords, ∀ a, (k0_off964 i) a + S1.size a ≤ S1024.size a
  k0_off965_inb : ∀ i : grid0.Coords, ∀ a, (k0_off965 i) a + S1.size a ≤ S1024.size a
  k0_off967_inb : ∀ i : grid0.Coords, ∀ a, (k0_off967 i) a + S1.size a ≤ S1024.size a
  k0_off968_inb : ∀ i : grid0.Coords, ∀ a, (k0_off968 i) a + S1.size a ≤ S1024.size a
  k0_off970_inb : ∀ i : grid0.Coords, ∀ a, (k0_off970 i) a + S1.size a ≤ S1024.size a
  k0_off971_inb : ∀ i : grid0.Coords, ∀ a, (k0_off971 i) a + S1.size a ≤ S1024.size a
  k0_off973_inb : ∀ i : grid0.Coords, ∀ a, (k0_off973 i) a + S1.size a ≤ S1024.size a
  k0_off974_inb : ∀ i : grid0.Coords, ∀ a, (k0_off974 i) a + S1.size a ≤ S1024.size a
  k0_off976_inb : ∀ i : grid0.Coords, ∀ a, (k0_off976 i) a + S1.size a ≤ S1024.size a
  k0_off977_inb : ∀ i : grid0.Coords, ∀ a, (k0_off977 i) a + S1.size a ≤ S1024.size a
  k0_off979_inb : ∀ i : grid0.Coords, ∀ a, (k0_off979 i) a + S1.size a ≤ S1024.size a
  k0_off980_inb : ∀ i : grid0.Coords, ∀ a, (k0_off980 i) a + S1.size a ≤ S1024.size a
  k0_off982_inb : ∀ i : grid0.Coords, ∀ a, (k0_off982 i) a + S1.size a ≤ S1024.size a
  k0_off983_inb : ∀ i : grid0.Coords, ∀ a, (k0_off983 i) a + S1.size a ≤ S1024.size a
  k0_off985_inb : ∀ i : grid0.Coords, ∀ a, (k0_off985 i) a + S1.size a ≤ S1024.size a
  k0_off986_inb : ∀ i : grid0.Coords, ∀ a, (k0_off986 i) a + S1.size a ≤ S1024.size a
  k0_off988_inb : ∀ i : grid0.Coords, ∀ a, (k0_off988 i) a + S1.size a ≤ S1024.size a
  k0_off989_inb : ∀ i : grid0.Coords, ∀ a, (k0_off989 i) a + S1.size a ≤ S1024.size a
  k0_off991_inb : ∀ i : grid0.Coords, ∀ a, (k0_off991 i) a + S1.size a ≤ S1024.size a
  k0_off992_inb : ∀ i : grid0.Coords, ∀ a, (k0_off992 i) a + S1.size a ≤ S1024.size a
  k0_off994_inb : ∀ i : grid0.Coords, ∀ a, (k0_off994 i) a + S1.size a ≤ S1024.size a
  k0_off995_inb : ∀ i : grid0.Coords, ∀ a, (k0_off995 i) a + S1.size a ≤ S1024.size a
  k0_off997_inb : ∀ i : grid0.Coords, ∀ a, (k0_off997 i) a + S1.size a ≤ S1024.size a
  k0_off998_inb : ∀ i : grid0.Coords, ∀ a, (k0_off998 i) a + S1.size a ≤ S1024.size a
  k0_off1000_inb : ∀ i : grid0.Coords, ∀ a, (k0_off1000 i) a + S1.size a ≤ S1024.size a
  k0_off1001_inb : ∀ i : grid0.Coords, ∀ a, (k0_off1001 i) a + S1.size a ≤ S1024.size a
  k0_off1003_inb : ∀ i : grid0.Coords, ∀ a, (k0_off1003 i) a + S1.size a ≤ S1024.size a
  k0_off1004_inb : ∀ i : grid0.Coords, ∀ a, (k0_off1004 i) a + S1.size a ≤ S1024.size a
  k0_off1006_inb : ∀ i : grid0.Coords, ∀ a, (k0_off1006 i) a + S1.size a ≤ S1024.size a
  k0_off1007_inb : ∀ i : grid0.Coords, ∀ a, (k0_off1007 i) a + S1.size a ≤ S1024.size a
  k0_off1009_inb : ∀ i : grid0.Coords, ∀ a, (k0_off1009 i) a + S1.size a ≤ S1024.size a
  k0_off1010_inb : ∀ i : grid0.Coords, ∀ a, (k0_off1010 i) a + S1.size a ≤ S1024.size a
  k0_off1012_inb : ∀ i : grid0.Coords, ∀ a, (k0_off1012 i) a + S1.size a ≤ S1024.size a
  k0_off1013_inb : ∀ i : grid0.Coords, ∀ a, (k0_off1013 i) a + S1.size a ≤ S1024.size a
  k0_off1015_inb : ∀ i : grid0.Coords, ∀ a, (k0_off1015 i) a + S1.size a ≤ S1024.size a
  k0_off1016_inb : ∀ i : grid0.Coords, ∀ a, (k0_off1016 i) a + S1.size a ≤ S1024.size a
  k0_off1018_inb : ∀ i : grid0.Coords, ∀ a, (k0_off1018 i) a + S1.size a ≤ S1024.size a
  k0_off1019_inb : ∀ i : grid0.Coords, ∀ a, (k0_off1019 i) a + S1.size a ≤ S1024.size a
  k0_off1021_inb : ∀ i : grid0.Coords, ∀ a, (k0_off1021 i) a + S1.size a ≤ S1024.size a
  k0_off1022_inb : ∀ i : grid0.Coords, ∀ a, (k0_off1022 i) a + S1.size a ≤ S1024.size a
  k0_off1024_inb : ∀ i : grid0.Coords, ∀ a, (k0_off1024 i) a + S1.size a ≤ S1024.size a
  k0_off1025_inb : ∀ i : grid0.Coords, ∀ a, (k0_off1025 i) a + S1.size a ≤ S1024.size a
  k0_off1027_inb : ∀ i : grid0.Coords, ∀ a, (k0_off1027 i) a + S1.size a ≤ S1024.size a
  k0_off1028_inb : ∀ i : grid0.Coords, ∀ a, (k0_off1028 i) a + S1.size a ≤ S1024.size a
  k0_off1030_inb : ∀ i : grid0.Coords, ∀ a, (k0_off1030 i) a + S1.size a ≤ S1024.size a
  k0_off1031_inb : ∀ i : grid0.Coords, ∀ a, (k0_off1031 i) a + S1.size a ≤ S1024.size a
  k0_off1033_inb : ∀ i : grid0.Coords, ∀ a, (k0_off1033 i) a + S1.size a ≤ S1024.size a
  k0_off1034_inb : ∀ i : grid0.Coords, ∀ a, (k0_off1034 i) a + S1.size a ≤ S1024.size a
  k0_off1036_inb : ∀ i : grid0.Coords, ∀ a, (k0_off1036 i) a + S1.size a ≤ S1024.size a
  k0_off1037_inb : ∀ i : grid0.Coords, ∀ a, (k0_off1037 i) a + S1.size a ≤ S1024.size a
  k0_off1039_inb : ∀ i : grid0.Coords, ∀ a, (k0_off1039 i) a + S1.size a ≤ S1024.size a
  k0_off1040_inb : ∀ i : grid0.Coords, ∀ a, (k0_off1040 i) a + S1.size a ≤ S1024.size a
  k0_off1042_inb : ∀ i : grid0.Coords, ∀ a, (k0_off1042 i) a + S1.size a ≤ S1024.size a
  k0_off1043_inb : ∀ i : grid0.Coords, ∀ a, (k0_off1043 i) a + S1.size a ≤ S1024.size a
  k0_off1045_inb : ∀ i : grid0.Coords, ∀ a, (k0_off1045 i) a + S1.size a ≤ S1024.size a
  k0_off1046_inb : ∀ i : grid0.Coords, ∀ a, (k0_off1046 i) a + S1.size a ≤ S1024.size a
  k0_off1048_inb : ∀ i : grid0.Coords, ∀ a, (k0_off1048 i) a + S1.size a ≤ S1024.size a
  k0_off1049_inb : ∀ i : grid0.Coords, ∀ a, (k0_off1049 i) a + S1.size a ≤ S1024.size a
  k0_off1051_inb : ∀ i : grid0.Coords, ∀ a, (k0_off1051 i) a + S1.size a ≤ S1024.size a
  k0_off1052_inb : ∀ i : grid0.Coords, ∀ a, (k0_off1052 i) a + S1.size a ≤ S1024.size a
  k0_off1054_inb : ∀ i : grid0.Coords, ∀ a, (k0_off1054 i) a + S1.size a ≤ S1024.size a
  k0_off1055_inb : ∀ i : grid0.Coords, ∀ a, (k0_off1055 i) a + S1.size a ≤ S1024.size a
  k0_off1057_inb : ∀ i : grid0.Coords, ∀ a, (k0_off1057 i) a + S1.size a ≤ S1024.size a
  k0_off1058_inb : ∀ i : grid0.Coords, ∀ a, (k0_off1058 i) a + S1.size a ≤ S1024.size a
  k0_off1060_inb : ∀ i : grid0.Coords, ∀ a, (k0_off1060 i) a + S1.size a ≤ S1024.size a
  k0_off1061_inb : ∀ i : grid0.Coords, ∀ a, (k0_off1061 i) a + S1.size a ≤ S1024.size a
  k0_off1063_inb : ∀ i : grid0.Coords, ∀ a, (k0_off1063 i) a + S1.size a ≤ S1024.size a
  k0_off1064_inb : ∀ i : grid0.Coords, ∀ a, (k0_off1064 i) a + S1.size a ≤ S1024.size a
  k0_off1066_inb : ∀ i : grid0.Coords, ∀ a, (k0_off1066 i) a + S1.size a ≤ S1024.size a
  k0_off1067_inb : ∀ i : grid0.Coords, ∀ a, (k0_off1067 i) a + S1.size a ≤ S1024.size a
  k0_off1069_inb : ∀ i : grid0.Coords, ∀ a, (k0_off1069 i) a + S1.size a ≤ S1024.size a
  k0_off1070_inb : ∀ i : grid0.Coords, ∀ a, (k0_off1070 i) a + S1.size a ≤ S1024.size a
  k0_off1072_inb : ∀ i : grid0.Coords, ∀ a, (k0_off1072 i) a + S1.size a ≤ S1024.size a
  k0_off1073_inb : ∀ i : grid0.Coords, ∀ a, (k0_off1073 i) a + S1.size a ≤ S1024.size a
  k0_off1075_inb : ∀ i : grid0.Coords, ∀ a, (k0_off1075 i) a + S1.size a ≤ S1024.size a
  k0_off1076_inb : ∀ i : grid0.Coords, ∀ a, (k0_off1076 i) a + S1.size a ≤ S1024.size a
  k0_off1078_inb : ∀ i : grid0.Coords, ∀ a, (k0_off1078 i) a + S1.size a ≤ S1024.size a
  k0_off1079_inb : ∀ i : grid0.Coords, ∀ a, (k0_off1079 i) a + S1.size a ≤ S1024.size a
  k0_off1081_inb : ∀ i : grid0.Coords, ∀ a, (k0_off1081 i) a + S1.size a ≤ S1024.size a
  k0_off1082_inb : ∀ i : grid0.Coords, ∀ a, (k0_off1082 i) a + S1.size a ≤ S1024.size a
  k0_off1084_inb : ∀ i : grid0.Coords, ∀ a, (k0_off1084 i) a + S1.size a ≤ S1024.size a
  k0_off1085_inb : ∀ i : grid0.Coords, ∀ a, (k0_off1085 i) a + S1.size a ≤ S1024.size a
  k0_off1087_inb : ∀ i : grid0.Coords, ∀ a, (k0_off1087 i) a + S1.size a ≤ S1024.size a
  k0_off1088_inb : ∀ i : grid0.Coords, ∀ a, (k0_off1088 i) a + S1.size a ≤ S1024.size a
  k0_off1090_inb : ∀ i : grid0.Coords, ∀ a, (k0_off1090 i) a + S1.size a ≤ S1024.size a
  k0_off1091_inb : ∀ i : grid0.Coords, ∀ a, (k0_off1091 i) a + S1.size a ≤ S1024.size a
  k0_off1093_inb : ∀ i : grid0.Coords, ∀ a, (k0_off1093 i) a + S1.size a ≤ S1024.size a
  k0_off1094_inb : ∀ i : grid0.Coords, ∀ a, (k0_off1094 i) a + S1.size a ≤ S1024.size a
  k0_off1096_inb : ∀ i : grid0.Coords, ∀ a, (k0_off1096 i) a + S1.size a ≤ S1024.size a
  k0_off1097_inb : ∀ i : grid0.Coords, ∀ a, (k0_off1097 i) a + S1.size a ≤ S1024.size a
  k0_off1099_inb : ∀ i : grid0.Coords, ∀ a, (k0_off1099 i) a + S1.size a ≤ S1024.size a
  k0_off1100_inb : ∀ i : grid0.Coords, ∀ a, (k0_off1100 i) a + S1.size a ≤ S1024.size a
  k0_off1102_inb : ∀ i : grid0.Coords, ∀ a, (k0_off1102 i) a + S1.size a ≤ S1024.size a
  k0_off1103_inb : ∀ i : grid0.Coords, ∀ a, (k0_off1103 i) a + S1.size a ≤ S1024.size a
  k0_off1105_inb : ∀ i : grid0.Coords, ∀ a, (k0_off1105 i) a + S1.size a ≤ S1024.size a
  k0_off1106_inb : ∀ i : grid0.Coords, ∀ a, (k0_off1106 i) a + S1.size a ≤ S1024.size a
  k0_off1108_inb : ∀ i : grid0.Coords, ∀ a, (k0_off1108 i) a + S1.size a ≤ S1024.size a
  k0_off1109_inb : ∀ i : grid0.Coords, ∀ a, (k0_off1109 i) a + S1.size a ≤ S1024.size a
  k0_off1111_inb : ∀ i : grid0.Coords, ∀ a, (k0_off1111 i) a + S1.size a ≤ S1024.size a
  k0_off1112_inb : ∀ i : grid0.Coords, ∀ a, (k0_off1112 i) a + S1.size a ≤ S1024.size a
  k0_off1114_inb : ∀ i : grid0.Coords, ∀ a, (k0_off1114 i) a + S1.size a ≤ S1024.size a
  k0_off1115_inb : ∀ i : grid0.Coords, ∀ a, (k0_off1115 i) a + S1.size a ≤ S1024.size a
  k0_off1117_inb : ∀ i : grid0.Coords, ∀ a, (k0_off1117 i) a + S1.size a ≤ S1024.size a
  k0_off1118_inb : ∀ i : grid0.Coords, ∀ a, (k0_off1118 i) a + S1.size a ≤ S1024.size a
  k0_off1120_inb : ∀ i : grid0.Coords, ∀ a, (k0_off1120 i) a + S1.size a ≤ S1024.size a
  k0_off1121_inb : ∀ i : grid0.Coords, ∀ a, (k0_off1121 i) a + S1.size a ≤ S1024.size a
  k0_off1123_inb : ∀ i : grid0.Coords, ∀ a, (k0_off1123 i) a + S1.size a ≤ S1024.size a
  k0_off1124_inb : ∀ i : grid0.Coords, ∀ a, (k0_off1124 i) a + S1.size a ≤ S1024.size a
  k0_off1126_inb : ∀ i : grid0.Coords, ∀ a, (k0_off1126 i) a + S1.size a ≤ S1024.size a
  k0_off1127_inb : ∀ i : grid0.Coords, ∀ a, (k0_off1127 i) a + S1.size a ≤ S1024.size a
  k0_off1129_inb : ∀ i : grid0.Coords, ∀ a, (k0_off1129 i) a + S1.size a ≤ S1024.size a
  k0_off1130_inb : ∀ i : grid0.Coords, ∀ a, (k0_off1130 i) a + S1.size a ≤ S1024.size a
  k0_off1132_inb : ∀ i : grid0.Coords, ∀ a, (k0_off1132 i) a + S1.size a ≤ S1024.size a
  k0_off1133_inb : ∀ i : grid0.Coords, ∀ a, (k0_off1133 i) a + S1.size a ≤ S1024.size a
  k0_off1135_inb : ∀ i : grid0.Coords, ∀ a, (k0_off1135 i) a + S1.size a ≤ S1024.size a
  k0_off1136_inb : ∀ i : grid0.Coords, ∀ a, (k0_off1136 i) a + S1.size a ≤ S1024.size a
  k0_off1138_inb : ∀ i : grid0.Coords, ∀ a, (k0_off1138 i) a + S1.size a ≤ S1024.size a
  k0_off1139_inb : ∀ i : grid0.Coords, ∀ a, (k0_off1139 i) a + S1.size a ≤ S1024.size a
  k0_off1141_inb : ∀ i : grid0.Coords, ∀ a, (k0_off1141 i) a + S1.size a ≤ S1024.size a
  k0_off1142_inb : ∀ i : grid0.Coords, ∀ a, (k0_off1142 i) a + S1.size a ≤ S1024.size a
  k0_off1144_inb : ∀ i : grid0.Coords, ∀ a, (k0_off1144 i) a + S1.size a ≤ S1024.size a
  k0_off1145_inb : ∀ i : grid0.Coords, ∀ a, (k0_off1145 i) a + S1.size a ≤ S1024.size a
  k0_off1147_inb : ∀ i : grid0.Coords, ∀ a, (k0_off1147 i) a + S1.size a ≤ S1024.size a
  k0_off1148_inb : ∀ i : grid0.Coords, ∀ a, (k0_off1148 i) a + S1.size a ≤ S1024.size a
  k0_off1150_inb : ∀ i : grid0.Coords, ∀ a, (k0_off1150 i) a + S1.size a ≤ S1024.size a
  k0_off1151_inb : ∀ i : grid0.Coords, ∀ a, (k0_off1151 i) a + S1.size a ≤ S1024.size a
  k0_off1153_inb : ∀ i : grid0.Coords, ∀ a, (k0_off1153 i) a + S1.size a ≤ S1024.size a
  k0_off1154_inb : ∀ i : grid0.Coords, ∀ a, (k0_off1154 i) a + S1.size a ≤ S1024.size a
  k0_off1156_inb : ∀ i : grid0.Coords, ∀ a, (k0_off1156 i) a + S1.size a ≤ S1024.size a
  k0_off1157_inb : ∀ i : grid0.Coords, ∀ a, (k0_off1157 i) a + S1.size a ≤ S1024.size a
  k0_off1159_inb : ∀ i : grid0.Coords, ∀ a, (k0_off1159 i) a + S1.size a ≤ S1024.size a
  k0_off1160_inb : ∀ i : grid0.Coords, ∀ a, (k0_off1160 i) a + S1.size a ≤ S1024.size a
  k0_off1162_inb : ∀ i : grid0.Coords, ∀ a, (k0_off1162 i) a + S1.size a ≤ S1024.size a
  k0_off1163_inb : ∀ i : grid0.Coords, ∀ a, (k0_off1163 i) a + S1.size a ≤ S1024.size a
  k0_off1165_inb : ∀ i : grid0.Coords, ∀ a, (k0_off1165 i) a + S1.size a ≤ S1024.size a
  k0_off1166_inb : ∀ i : grid0.Coords, ∀ a, (k0_off1166 i) a + S1.size a ≤ S1024.size a
  k0_off1168_inb : ∀ i : grid0.Coords, ∀ a, (k0_off1168 i) a + S1.size a ≤ S1024.size a
  k0_off1169_inb : ∀ i : grid0.Coords, ∀ a, (k0_off1169 i) a + S1.size a ≤ S1024.size a
  k0_off1171_inb : ∀ i : grid0.Coords, ∀ a, (k0_off1171 i) a + S1.size a ≤ S1024.size a
  k0_off1172_inb : ∀ i : grid0.Coords, ∀ a, (k0_off1172 i) a + S1.size a ≤ S1024.size a
  k0_off1174_inb : ∀ i : grid0.Coords, ∀ a, (k0_off1174 i) a + S1.size a ≤ S1024.size a
  k0_off1175_inb : ∀ i : grid0.Coords, ∀ a, (k0_off1175 i) a + S1.size a ≤ S1024.size a
  k0_off1177_inb : ∀ i : grid0.Coords, ∀ a, (k0_off1177 i) a + S1.size a ≤ S1024.size a
  k0_off1178_inb : ∀ i : grid0.Coords, ∀ a, (k0_off1178 i) a + S1.size a ≤ S1024.size a
  k0_off1180_inb : ∀ i : grid0.Coords, ∀ a, (k0_off1180 i) a + S1.size a ≤ S1024.size a
  k0_off1181_inb : ∀ i : grid0.Coords, ∀ a, (k0_off1181 i) a + S1.size a ≤ S1024.size a
  k0_off1183_inb : ∀ i : grid0.Coords, ∀ a, (k0_off1183 i) a + S1.size a ≤ S1024.size a
  k0_off1184_inb : ∀ i : grid0.Coords, ∀ a, (k0_off1184 i) a + S1.size a ≤ S1024.size a
  k0_off1186_inb : ∀ i : grid0.Coords, ∀ a, (k0_off1186 i) a + S1.size a ≤ S1024.size a
  k0_off1187_inb : ∀ i : grid0.Coords, ∀ a, (k0_off1187 i) a + S1.size a ≤ S1024.size a
  k0_off1189_inb : ∀ i : grid0.Coords, ∀ a, (k0_off1189 i) a + S1.size a ≤ S1024.size a
  k0_off1190_inb : ∀ i : grid0.Coords, ∀ a, (k0_off1190 i) a + S1.size a ≤ S1024.size a
  k0_off1192_inb : ∀ i : grid0.Coords, ∀ a, (k0_off1192 i) a + S1.size a ≤ S1024.size a
  k0_off1193_inb : ∀ i : grid0.Coords, ∀ a, (k0_off1193 i) a + S1.size a ≤ S1024.size a
  k0_off1195_inb : ∀ i : grid0.Coords, ∀ a, (k0_off1195 i) a + S1.size a ≤ S1024.size a
  k0_off1196_inb : ∀ i : grid0.Coords, ∀ a, (k0_off1196 i) a + S1.size a ≤ S1024.size a
  k0_off1198_inb : ∀ i : grid0.Coords, ∀ a, (k0_off1198 i) a + S1.size a ≤ S1024.size a
  k0_off1199_inb : ∀ i : grid0.Coords, ∀ a, (k0_off1199 i) a + S1.size a ≤ S1024.size a
  k0_off1201_inb : ∀ i : grid0.Coords, ∀ a, (k0_off1201 i) a + S1.size a ≤ S1024.size a
  k0_off1202_inb : ∀ i : grid0.Coords, ∀ a, (k0_off1202 i) a + S1.size a ≤ S1024.size a
  k0_off1204_inb : ∀ i : grid0.Coords, ∀ a, (k0_off1204 i) a + S1.size a ≤ S1024.size a
  k0_off1205_inb : ∀ i : grid0.Coords, ∀ a, (k0_off1205 i) a + S1.size a ≤ S1024.size a
  k0_off1207_inb : ∀ i : grid0.Coords, ∀ a, (k0_off1207 i) a + S1.size a ≤ S1024.size a
  k0_off1208_inb : ∀ i : grid0.Coords, ∀ a, (k0_off1208 i) a + S1.size a ≤ S1024.size a
  k0_off1210_inb : ∀ i : grid0.Coords, ∀ a, (k0_off1210 i) a + S1.size a ≤ S1024.size a
  k0_off1211_inb : ∀ i : grid0.Coords, ∀ a, (k0_off1211 i) a + S1.size a ≤ S1024.size a
  k0_off1213_inb : ∀ i : grid0.Coords, ∀ a, (k0_off1213 i) a + S1.size a ≤ S1024.size a
  k0_off1214_inb : ∀ i : grid0.Coords, ∀ a, (k0_off1214 i) a + S1.size a ≤ S1024.size a
  k0_off1216_inb : ∀ i : grid0.Coords, ∀ a, (k0_off1216 i) a + S1.size a ≤ S1024.size a
  k0_off1217_inb : ∀ i : grid0.Coords, ∀ a, (k0_off1217 i) a + S1.size a ≤ S1024.size a
  k0_off1219_inb : ∀ i : grid0.Coords, ∀ a, (k0_off1219 i) a + S1.size a ≤ S1024.size a
  k0_off1220_inb : ∀ i : grid0.Coords, ∀ a, (k0_off1220 i) a + S1.size a ≤ S1024.size a
  k0_off1222_inb : ∀ i : grid0.Coords, ∀ a, (k0_off1222 i) a + S1.size a ≤ S1024.size a
  k0_off1223_inb : ∀ i : grid0.Coords, ∀ a, (k0_off1223 i) a + S1.size a ≤ S1024.size a
  k0_off1225_inb : ∀ i : grid0.Coords, ∀ a, (k0_off1225 i) a + S1.size a ≤ S1024.size a
  k0_off1226_inb : ∀ i : grid0.Coords, ∀ a, (k0_off1226 i) a + S1.size a ≤ S1024.size a
  k0_off1228_inb : ∀ i : grid0.Coords, ∀ a, (k0_off1228 i) a + S1.size a ≤ S1024.size a
  k0_off1229_inb : ∀ i : grid0.Coords, ∀ a, (k0_off1229 i) a + S1.size a ≤ S1024.size a
  k0_off1231_inb : ∀ i : grid0.Coords, ∀ a, (k0_off1231 i) a + S1.size a ≤ S1024.size a
  k0_off1232_inb : ∀ i : grid0.Coords, ∀ a, (k0_off1232 i) a + S1.size a ≤ S1024.size a
  k0_off1234_inb : ∀ i : grid0.Coords, ∀ a, (k0_off1234 i) a + S1.size a ≤ S1024.size a
  k0_off1235_inb : ∀ i : grid0.Coords, ∀ a, (k0_off1235 i) a + S1.size a ≤ S1024.size a
  k0_off1237_inb : ∀ i : grid0.Coords, ∀ a, (k0_off1237 i) a + S1.size a ≤ S1024.size a
  k0_off1238_inb : ∀ i : grid0.Coords, ∀ a, (k0_off1238 i) a + S1.size a ≤ S1024.size a
  k0_off1240_inb : ∀ i : grid0.Coords, ∀ a, (k0_off1240 i) a + S1.size a ≤ S1024.size a
  k0_off1241_inb : ∀ i : grid0.Coords, ∀ a, (k0_off1241 i) a + S1.size a ≤ S1024.size a
  k0_off1243_inb : ∀ i : grid0.Coords, ∀ a, (k0_off1243 i) a + S1.size a ≤ S1024.size a
  k0_off1244_inb : ∀ i : grid0.Coords, ∀ a, (k0_off1244 i) a + S1.size a ≤ S1024.size a
  k0_off1246_inb : ∀ i : grid0.Coords, ∀ a, (k0_off1246 i) a + S1.size a ≤ S1024.size a
  k0_off1247_inb : ∀ i : grid0.Coords, ∀ a, (k0_off1247 i) a + S1.size a ≤ S1024.size a
  k0_off1249_inb : ∀ i : grid0.Coords, ∀ a, (k0_off1249 i) a + S1.size a ≤ S1024.size a
  k0_off1250_inb : ∀ i : grid0.Coords, ∀ a, (k0_off1250 i) a + S1.size a ≤ S1024.size a
  k0_off1252_inb : ∀ i : grid0.Coords, ∀ a, (k0_off1252 i) a + S1.size a ≤ S1024.size a
  k0_off1253_inb : ∀ i : grid0.Coords, ∀ a, (k0_off1253 i) a + S1.size a ≤ S1024.size a
  k0_off1255_inb : ∀ i : grid0.Coords, ∀ a, (k0_off1255 i) a + S1.size a ≤ S1024.size a
  k0_off1256_inb : ∀ i : grid0.Coords, ∀ a, (k0_off1256 i) a + S1.size a ≤ S1024.size a
  k0_off1258_inb : ∀ i : grid0.Coords, ∀ a, (k0_off1258 i) a + S1.size a ≤ S1024.size a
  k0_off1259_inb : ∀ i : grid0.Coords, ∀ a, (k0_off1259 i) a + S1.size a ≤ S1024.size a
  k0_off1261_inb : ∀ i : grid0.Coords, ∀ a, (k0_off1261 i) a + S1.size a ≤ S1024.size a
  k0_off1262_inb : ∀ i : grid0.Coords, ∀ a, (k0_off1262 i) a + S1.size a ≤ S1024.size a
  k0_off1264_inb : ∀ i : grid0.Coords, ∀ a, (k0_off1264 i) a + S1.size a ≤ S1024.size a
  k0_off1265_inb : ∀ i : grid0.Coords, ∀ a, (k0_off1265 i) a + S1.size a ≤ S1024.size a
  k0_off1267_inb : ∀ i : grid0.Coords, ∀ a, (k0_off1267 i) a + S1.size a ≤ S1024.size a
  k0_off1268_inb : ∀ i : grid0.Coords, ∀ a, (k0_off1268 i) a + S1.size a ≤ S1024.size a
  k0_off1270_inb : ∀ i : grid0.Coords, ∀ a, (k0_off1270 i) a + S1.size a ≤ S1024.size a
  k0_off1271_inb : ∀ i : grid0.Coords, ∀ a, (k0_off1271 i) a + S1.size a ≤ S1024.size a
  k0_off1273_inb : ∀ i : grid0.Coords, ∀ a, (k0_off1273 i) a + S1.size a ≤ S1024.size a
  k0_off1274_inb : ∀ i : grid0.Coords, ∀ a, (k0_off1274 i) a + S1.size a ≤ S1024.size a
  k0_off1276_inb : ∀ i : grid0.Coords, ∀ a, (k0_off1276 i) a + S1.size a ≤ S1024.size a
  k0_off1277_inb : ∀ i : grid0.Coords, ∀ a, (k0_off1277 i) a + S1.size a ≤ S1024.size a
  k0_off1279_inb : ∀ i : grid0.Coords, ∀ a, (k0_off1279 i) a + S1.size a ≤ S1024.size a
  k0_off1280_inb : ∀ i : grid0.Coords, ∀ a, (k0_off1280 i) a + S1.size a ≤ S1024.size a
  k0_off1282_inb : ∀ i : grid0.Coords, ∀ a, (k0_off1282 i) a + S1.size a ≤ S1024.size a
  k0_off1283_inb : ∀ i : grid0.Coords, ∀ a, (k0_off1283 i) a + S1.size a ≤ S1024.size a
  k0_off1285_inb : ∀ i : grid0.Coords, ∀ a, (k0_off1285 i) a + S1.size a ≤ S1024.size a
  k0_off1286_inb : ∀ i : grid0.Coords, ∀ a, (k0_off1286 i) a + S1.size a ≤ S1024.size a
  k0_off1288_inb : ∀ i : grid0.Coords, ∀ a, (k0_off1288 i) a + S1.size a ≤ S1024.size a
  k0_off1289_inb : ∀ i : grid0.Coords, ∀ a, (k0_off1289 i) a + S1.size a ≤ S1024.size a
  k0_off1291_inb : ∀ i : grid0.Coords, ∀ a, (k0_off1291 i) a + S1.size a ≤ S1024.size a
  k0_off1292_inb : ∀ i : grid0.Coords, ∀ a, (k0_off1292 i) a + S1.size a ≤ S1024.size a
  k0_off1294_inb : ∀ i : grid0.Coords, ∀ a, (k0_off1294 i) a + S1.size a ≤ S1024.size a
  k0_off1295_inb : ∀ i : grid0.Coords, ∀ a, (k0_off1295 i) a + S1.size a ≤ S1024.size a
  k0_off1297_inb : ∀ i : grid0.Coords, ∀ a, (k0_off1297 i) a + S1.size a ≤ S1024.size a
  k0_off1298_inb : ∀ i : grid0.Coords, ∀ a, (k0_off1298 i) a + S1.size a ≤ S1024.size a
  k0_off1300_inb : ∀ i : grid0.Coords, ∀ a, (k0_off1300 i) a + S1.size a ≤ S1024.size a
  k0_off1301_inb : ∀ i : grid0.Coords, ∀ a, (k0_off1301 i) a + S1.size a ≤ S1024.size a
  k0_off1303_inb : ∀ i : grid0.Coords, ∀ a, (k0_off1303 i) a + S1.size a ≤ S1024.size a
  k0_off1304_inb : ∀ i : grid0.Coords, ∀ a, (k0_off1304 i) a + S1.size a ≤ S1024.size a
  k0_off1306_inb : ∀ i : grid0.Coords, ∀ a, (k0_off1306 i) a + S1.size a ≤ S1024.size a
  k0_off1307_inb : ∀ i : grid0.Coords, ∀ a, (k0_off1307 i) a + S1.size a ≤ S1024.size a
  k0_off1309_inb : ∀ i : grid0.Coords, ∀ a, (k0_off1309 i) a + S1.size a ≤ S1024.size a
  k0_off1310_inb : ∀ i : grid0.Coords, ∀ a, (k0_off1310 i) a + S1.size a ≤ S1024.size a
  k0_off1312_inb : ∀ i : grid0.Coords, ∀ a, (k0_off1312 i) a + S1.size a ≤ S1024.size a
  k0_off1313_inb : ∀ i : grid0.Coords, ∀ a, (k0_off1313 i) a + S1.size a ≤ S1024.size a
  k0_off1315_inb : ∀ i : grid0.Coords, ∀ a, (k0_off1315 i) a + S1.size a ≤ S1024.size a
  k0_off1316_inb : ∀ i : grid0.Coords, ∀ a, (k0_off1316 i) a + S1.size a ≤ S1024.size a
  k0_off1318_inb : ∀ i : grid0.Coords, ∀ a, (k0_off1318 i) a + S1.size a ≤ S1024.size a
  k0_off1319_inb : ∀ i : grid0.Coords, ∀ a, (k0_off1319 i) a + S1.size a ≤ S1024.size a
  k0_off1321_inb : ∀ i : grid0.Coords, ∀ a, (k0_off1321 i) a + S1.size a ≤ S1024.size a
  k0_off1322_inb : ∀ i : grid0.Coords, ∀ a, (k0_off1322 i) a + S1.size a ≤ S1024.size a
  k0_off1324_inb : ∀ i : grid0.Coords, ∀ a, (k0_off1324 i) a + S1.size a ≤ S1024.size a
  k0_off1325_inb : ∀ i : grid0.Coords, ∀ a, (k0_off1325 i) a + S1.size a ≤ S1024.size a
  k0_off1327_inb : ∀ i : grid0.Coords, ∀ a, (k0_off1327 i) a + S1.size a ≤ S1024.size a
  k0_off1328_inb : ∀ i : grid0.Coords, ∀ a, (k0_off1328 i) a + S1.size a ≤ S1024.size a
  k0_off1330_inb : ∀ i : grid0.Coords, ∀ a, (k0_off1330 i) a + S1.size a ≤ S1024.size a
  k0_off1331_inb : ∀ i : grid0.Coords, ∀ a, (k0_off1331 i) a + S1.size a ≤ S1024.size a
  k0_off1333_inb : ∀ i : grid0.Coords, ∀ a, (k0_off1333 i) a + S1.size a ≤ S1024.size a
  k0_off1334_inb : ∀ i : grid0.Coords, ∀ a, (k0_off1334 i) a + S1.size a ≤ S1024.size a
  k0_off1336_inb : ∀ i : grid0.Coords, ∀ a, (k0_off1336 i) a + S1.size a ≤ S1024.size a
  k0_off1337_inb : ∀ i : grid0.Coords, ∀ a, (k0_off1337 i) a + S1.size a ≤ S1024.size a
  k0_off1339_inb : ∀ i : grid0.Coords, ∀ a, (k0_off1339 i) a + S1.size a ≤ S1024.size a
  k0_off1340_inb : ∀ i : grid0.Coords, ∀ a, (k0_off1340 i) a + S1.size a ≤ S1024.size a
  k0_off1342_inb : ∀ i : grid0.Coords, ∀ a, (k0_off1342 i) a + S1.size a ≤ S1024.size a
  k0_off1343_inb : ∀ i : grid0.Coords, ∀ a, (k0_off1343 i) a + S1.size a ≤ S1024.size a
  k0_off1345_inb : ∀ i : grid0.Coords, ∀ a, (k0_off1345 i) a + S1.size a ≤ S1024.size a
  k0_off1346_inb : ∀ i : grid0.Coords, ∀ a, (k0_off1346 i) a + S1.size a ≤ S1024.size a
  k0_off1348_inb : ∀ i : grid0.Coords, ∀ a, (k0_off1348 i) a + S1.size a ≤ S1024.size a
  k0_off1349_inb : ∀ i : grid0.Coords, ∀ a, (k0_off1349 i) a + S1.size a ≤ S1024.size a
  k0_off1351_inb : ∀ i : grid0.Coords, ∀ a, (k0_off1351 i) a + S1.size a ≤ S1024.size a
  k0_off1352_inb : ∀ i : grid0.Coords, ∀ a, (k0_off1352 i) a + S1.size a ≤ S1024.size a
  k0_off1354_inb : ∀ i : grid0.Coords, ∀ a, (k0_off1354 i) a + S1.size a ≤ S1024.size a
  k0_off1355_inb : ∀ i : grid0.Coords, ∀ a, (k0_off1355 i) a + S1.size a ≤ S1024.size a
  k0_off1357_inb : ∀ i : grid0.Coords, ∀ a, (k0_off1357 i) a + S1.size a ≤ S1024.size a
  k0_off1358_inb : ∀ i : grid0.Coords, ∀ a, (k0_off1358 i) a + S1.size a ≤ S1024.size a
  k0_off1360_inb : ∀ i : grid0.Coords, ∀ a, (k0_off1360 i) a + S1.size a ≤ S1024.size a
  k0_off1361_inb : ∀ i : grid0.Coords, ∀ a, (k0_off1361 i) a + S1.size a ≤ S1024.size a
  k0_off1363_inb : ∀ i : grid0.Coords, ∀ a, (k0_off1363 i) a + S1.size a ≤ S1024.size a
  k0_off1364_inb : ∀ i : grid0.Coords, ∀ a, (k0_off1364 i) a + S1.size a ≤ S1024.size a
  k0_off1366_inb : ∀ i : grid0.Coords, ∀ a, (k0_off1366 i) a + S1.size a ≤ S1024.size a
  k0_off1367_inb : ∀ i : grid0.Coords, ∀ a, (k0_off1367 i) a + S1.size a ≤ S1024.size a
  k0_off1369_inb : ∀ i : grid0.Coords, ∀ a, (k0_off1369 i) a + S1.size a ≤ S1024.size a
  k0_off1370_inb : ∀ i : grid0.Coords, ∀ a, (k0_off1370 i) a + S1.size a ≤ S1024.size a
  k0_off1372_inb : ∀ i : grid0.Coords, ∀ a, (k0_off1372 i) a + S1.size a ≤ S1024.size a
  k0_off1373_inb : ∀ i : grid0.Coords, ∀ a, (k0_off1373 i) a + S1.size a ≤ S1024.size a
  k0_off1375_inb : ∀ i : grid0.Coords, ∀ a, (k0_off1375 i) a + S1.size a ≤ S1024.size a
  k0_off1376_inb : ∀ i : grid0.Coords, ∀ a, (k0_off1376 i) a + S1.size a ≤ S1024.size a
  k0_off1378_inb : ∀ i : grid0.Coords, ∀ a, (k0_off1378 i) a + S1.size a ≤ S1024.size a
  k0_off1379_inb : ∀ i : grid0.Coords, ∀ a, (k0_off1379 i) a + S1.size a ≤ S1024.size a
  k0_off1381_inb : ∀ i : grid0.Coords, ∀ a, (k0_off1381 i) a + S1.size a ≤ S1024.size a
  k0_off1382_inb : ∀ i : grid0.Coords, ∀ a, (k0_off1382 i) a + S1.size a ≤ S1024.size a
  k0_off1384_inb : ∀ i : grid0.Coords, ∀ a, (k0_off1384 i) a + S1.size a ≤ S1024.size a
  k0_off1385_inb : ∀ i : grid0.Coords, ∀ a, (k0_off1385 i) a + S1.size a ≤ S1024.size a
  k0_off1387_inb : ∀ i : grid0.Coords, ∀ a, (k0_off1387 i) a + S1.size a ≤ S1024.size a
  k0_off1388_inb : ∀ i : grid0.Coords, ∀ a, (k0_off1388 i) a + S1.size a ≤ S1024.size a
  k0_off1390_inb : ∀ i : grid0.Coords, ∀ a, (k0_off1390 i) a + S1.size a ≤ S1024.size a
  k0_off1391_inb : ∀ i : grid0.Coords, ∀ a, (k0_off1391 i) a + S1.size a ≤ S1024.size a
  k0_off1393_inb : ∀ i : grid0.Coords, ∀ a, (k0_off1393 i) a + S1.size a ≤ S1024.size a
  k0_off1394_inb : ∀ i : grid0.Coords, ∀ a, (k0_off1394 i) a + S1.size a ≤ S1024.size a
  k0_off1396_inb : ∀ i : grid0.Coords, ∀ a, (k0_off1396 i) a + S1.size a ≤ S1024.size a
  k0_off1397_inb : ∀ i : grid0.Coords, ∀ a, (k0_off1397 i) a + S1.size a ≤ S1024.size a
  k0_off1399_inb : ∀ i : grid0.Coords, ∀ a, (k0_off1399 i) a + S1.size a ≤ S1024.size a
  k0_off1400_inb : ∀ i : grid0.Coords, ∀ a, (k0_off1400 i) a + S1.size a ≤ S1024.size a
  k0_off1402_inb : ∀ i : grid0.Coords, ∀ a, (k0_off1402 i) a + S1.size a ≤ S1024.size a
  k0_off1403_inb : ∀ i : grid0.Coords, ∀ a, (k0_off1403 i) a + S1.size a ≤ S1024.size a
  k0_off1405_inb : ∀ i : grid0.Coords, ∀ a, (k0_off1405 i) a + S1.size a ≤ S1024.size a
  k0_off1406_inb : ∀ i : grid0.Coords, ∀ a, (k0_off1406 i) a + S1.size a ≤ S1024.size a
  k0_off1408_inb : ∀ i : grid0.Coords, ∀ a, (k0_off1408 i) a + S1.size a ≤ S1024.size a
  k0_off1409_inb : ∀ i : grid0.Coords, ∀ a, (k0_off1409 i) a + S1.size a ≤ S1024.size a
  k0_off1411_inb : ∀ i : grid0.Coords, ∀ a, (k0_off1411 i) a + S1.size a ≤ S1024.size a
  k0_off1412_inb : ∀ i : grid0.Coords, ∀ a, (k0_off1412 i) a + S1.size a ≤ S1024.size a
  k0_off1414_inb : ∀ i : grid0.Coords, ∀ a, (k0_off1414 i) a + S1.size a ≤ S1024.size a
  k0_off1415_inb : ∀ i : grid0.Coords, ∀ a, (k0_off1415 i) a + S1.size a ≤ S1024.size a
  k0_off1417_inb : ∀ i : grid0.Coords, ∀ a, (k0_off1417 i) a + S1.size a ≤ S1024.size a
  k0_off1418_inb : ∀ i : grid0.Coords, ∀ a, (k0_off1418 i) a + S1.size a ≤ S1024.size a
  k0_off1420_inb : ∀ i : grid0.Coords, ∀ a, (k0_off1420 i) a + S1.size a ≤ S1024.size a
  k0_off1421_inb : ∀ i : grid0.Coords, ∀ a, (k0_off1421 i) a + S1.size a ≤ S1024.size a
  k0_off1423_inb : ∀ i : grid0.Coords, ∀ a, (k0_off1423 i) a + S1.size a ≤ S1024.size a
  k0_off1424_inb : ∀ i : grid0.Coords, ∀ a, (k0_off1424 i) a + S1.size a ≤ S1024.size a
  k0_off1426_inb : ∀ i : grid0.Coords, ∀ a, (k0_off1426 i) a + S1.size a ≤ S1024.size a
  k0_off1427_inb : ∀ i : grid0.Coords, ∀ a, (k0_off1427 i) a + S1.size a ≤ S1024.size a
  k0_off1429_inb : ∀ i : grid0.Coords, ∀ a, (k0_off1429 i) a + S1.size a ≤ S1024.size a
  k0_off1430_inb : ∀ i : grid0.Coords, ∀ a, (k0_off1430 i) a + S1.size a ≤ S1024.size a
  k0_off1432_inb : ∀ i : grid0.Coords, ∀ a, (k0_off1432 i) a + S1.size a ≤ S1024.size a
  k0_off1433_inb : ∀ i : grid0.Coords, ∀ a, (k0_off1433 i) a + S1.size a ≤ S1024.size a
  k0_off1435_inb : ∀ i : grid0.Coords, ∀ a, (k0_off1435 i) a + S1.size a ≤ S1024.size a
  k0_off1436_inb : ∀ i : grid0.Coords, ∀ a, (k0_off1436 i) a + S1.size a ≤ S1024.size a
  k0_off1438_inb : ∀ i : grid0.Coords, ∀ a, (k0_off1438 i) a + S1.size a ≤ S1024.size a
  k0_off1439_inb : ∀ i : grid0.Coords, ∀ a, (k0_off1439 i) a + S1.size a ≤ S1024.size a
  k0_off1441_inb : ∀ i : grid0.Coords, ∀ a, (k0_off1441 i) a + S1.size a ≤ S1024.size a
  k0_off1442_inb : ∀ i : grid0.Coords, ∀ a, (k0_off1442 i) a + S1.size a ≤ S1024.size a
  k0_off1444_inb : ∀ i : grid0.Coords, ∀ a, (k0_off1444 i) a + S1.size a ≤ S1024.size a
  k0_off1445_inb : ∀ i : grid0.Coords, ∀ a, (k0_off1445 i) a + S1.size a ≤ S1024.size a
  k0_off1447_inb : ∀ i : grid0.Coords, ∀ a, (k0_off1447 i) a + S1.size a ≤ S1024.size a
  k0_off1448_inb : ∀ i : grid0.Coords, ∀ a, (k0_off1448 i) a + S1.size a ≤ S1024.size a
  k0_off1450_inb : ∀ i : grid0.Coords, ∀ a, (k0_off1450 i) a + S1.size a ≤ S1024.size a
  k0_off1451_inb : ∀ i : grid0.Coords, ∀ a, (k0_off1451 i) a + S1.size a ≤ S1024.size a
  k0_off1453_inb : ∀ i : grid0.Coords, ∀ a, (k0_off1453 i) a + S1.size a ≤ S1024.size a
  k0_off1454_inb : ∀ i : grid0.Coords, ∀ a, (k0_off1454 i) a + S1.size a ≤ S1024.size a
  k0_off1456_inb : ∀ i : grid0.Coords, ∀ a, (k0_off1456 i) a + S1.size a ≤ S1024.size a
  k0_off1457_inb : ∀ i : grid0.Coords, ∀ a, (k0_off1457 i) a + S1.size a ≤ S1024.size a
  k0_off1459_inb : ∀ i : grid0.Coords, ∀ a, (k0_off1459 i) a + S1.size a ≤ S1024.size a
  k0_off1460_inb : ∀ i : grid0.Coords, ∀ a, (k0_off1460 i) a + S1.size a ≤ S1024.size a
  k0_off1462_inb : ∀ i : grid0.Coords, ∀ a, (k0_off1462 i) a + S1.size a ≤ S1024.size a
  k0_off1463_inb : ∀ i : grid0.Coords, ∀ a, (k0_off1463 i) a + S1.size a ≤ S1024.size a
  k0_off1465_inb : ∀ i : grid0.Coords, ∀ a, (k0_off1465 i) a + S1.size a ≤ S1024.size a
  k0_off1466_inb : ∀ i : grid0.Coords, ∀ a, (k0_off1466 i) a + S1.size a ≤ S1024.size a
  k0_off1468_inb : ∀ i : grid0.Coords, ∀ a, (k0_off1468 i) a + S1.size a ≤ S1024.size a
  k0_off1469_inb : ∀ i : grid0.Coords, ∀ a, (k0_off1469 i) a + S1.size a ≤ S1024.size a
  k0_off1471_inb : ∀ i : grid0.Coords, ∀ a, (k0_off1471 i) a + S1.size a ≤ S1024.size a
  k0_off1472_inb : ∀ i : grid0.Coords, ∀ a, (k0_off1472 i) a + S1.size a ≤ S1024.size a
  k0_off1474_inb : ∀ i : grid0.Coords, ∀ a, (k0_off1474 i) a + S1.size a ≤ S1024.size a
  k0_off1475_inb : ∀ i : grid0.Coords, ∀ a, (k0_off1475 i) a + S1.size a ≤ S1024.size a
  k0_off1477_inb : ∀ i : grid0.Coords, ∀ a, (k0_off1477 i) a + S1.size a ≤ S1024.size a
  k0_off1478_inb : ∀ i : grid0.Coords, ∀ a, (k0_off1478 i) a + S1.size a ≤ S1024.size a
  k0_off1480_inb : ∀ i : grid0.Coords, ∀ a, (k0_off1480 i) a + S1.size a ≤ S1024.size a
  k0_off1481_inb : ∀ i : grid0.Coords, ∀ a, (k0_off1481 i) a + S1.size a ≤ S1024.size a
  k0_off1483_inb : ∀ i : grid0.Coords, ∀ a, (k0_off1483 i) a + S1.size a ≤ S1024.size a
  k0_off1484_inb : ∀ i : grid0.Coords, ∀ a, (k0_off1484 i) a + S1.size a ≤ S1024.size a
  k0_off1486_inb : ∀ i : grid0.Coords, ∀ a, (k0_off1486 i) a + S1.size a ≤ S1024.size a
  k0_off1487_inb : ∀ i : grid0.Coords, ∀ a, (k0_off1487 i) a + S1.size a ≤ S1024.size a
  k0_off1489_inb : ∀ i : grid0.Coords, ∀ a, (k0_off1489 i) a + S1.size a ≤ S1024.size a
  k0_off1490_inb : ∀ i : grid0.Coords, ∀ a, (k0_off1490 i) a + S1.size a ≤ S1024.size a
  k0_off1492_inb : ∀ i : grid0.Coords, ∀ a, (k0_off1492 i) a + S1.size a ≤ S1024.size a
  k0_off1493_inb : ∀ i : grid0.Coords, ∀ a, (k0_off1493 i) a + S1.size a ≤ S1024.size a
  k0_off1495_inb : ∀ i : grid0.Coords, ∀ a, (k0_off1495 i) a + S1.size a ≤ S1024.size a
  k0_off1496_inb : ∀ i : grid0.Coords, ∀ a, (k0_off1496 i) a + S1.size a ≤ S1024.size a
  k0_off1498_inb : ∀ i : grid0.Coords, ∀ a, (k0_off1498 i) a + S1.size a ≤ S1024.size a

class K0.R2.Facts₀ : Prop where
  k0_off1499_inb : ∀ i : grid0.Coords, ∀ a, (k0_off1499 i) a + S1.size a ≤ S1024.size a
  k0_off1501_inb : ∀ i : grid0.Coords, ∀ a, (k0_off1501 i) a + S1.size a ≤ S1024.size a
  k0_off1502_inb : ∀ i : grid0.Coords, ∀ a, (k0_off1502 i) a + S1.size a ≤ S1024.size a
  k0_off1504_inb : ∀ i : grid0.Coords, ∀ a, (k0_off1504 i) a + S1.size a ≤ S1024.size a
  k0_off1505_inb : ∀ i : grid0.Coords, ∀ a, (k0_off1505 i) a + S1.size a ≤ S1024.size a
  k0_off1507_inb : ∀ i : grid0.Coords, ∀ a, (k0_off1507 i) a + S1.size a ≤ S1024.size a
  k0_off1508_inb : ∀ i : grid0.Coords, ∀ a, (k0_off1508 i) a + S1.size a ≤ S1024.size a
  k0_off1510_inb : ∀ i : grid0.Coords, ∀ a, (k0_off1510 i) a + S1.size a ≤ S1024.size a
  k0_off1511_inb : ∀ i : grid0.Coords, ∀ a, (k0_off1511 i) a + S1.size a ≤ S1024.size a
  k0_off1513_inb : ∀ i : grid0.Coords, ∀ a, (k0_off1513 i) a + S1.size a ≤ S1024.size a
  k0_off1514_inb : ∀ i : grid0.Coords, ∀ a, (k0_off1514 i) a + S1.size a ≤ S1024.size a
  k0_off1516_inb : ∀ i : grid0.Coords, ∀ a, (k0_off1516 i) a + S1.size a ≤ S1024.size a
  k0_off1517_inb : ∀ i : grid0.Coords, ∀ a, (k0_off1517 i) a + S1.size a ≤ S1024.size a
  k0_off1519_inb : ∀ i : grid0.Coords, ∀ a, (k0_off1519 i) a + S1.size a ≤ S1024.size a
  k0_off1520_inb : ∀ i : grid0.Coords, ∀ a, (k0_off1520 i) a + S1.size a ≤ S1024.size a
  k0_off1522_inb : ∀ i : grid0.Coords, ∀ a, (k0_off1522 i) a + S1.size a ≤ S1024.size a
  k0_off1523_inb : ∀ i : grid0.Coords, ∀ a, (k0_off1523 i) a + S1.size a ≤ S1024.size a
  k0_off1525_inb : ∀ i : grid0.Coords, ∀ a, (k0_off1525 i) a + S1.size a ≤ S1024.size a
  k0_off1526_inb : ∀ i : grid0.Coords, ∀ a, (k0_off1526 i) a + S1.size a ≤ S1024.size a
  k0_off1528_inb : ∀ i : grid0.Coords, ∀ a, (k0_off1528 i) a + S1.size a ≤ S1024.size a
  k0_off1529_inb : ∀ i : grid0.Coords, ∀ a, (k0_off1529 i) a + S1.size a ≤ S1024.size a
  k0_off1531_inb : ∀ i : grid0.Coords, ∀ a, (k0_off1531 i) a + S1.size a ≤ S1024.size a
  k0_off1532_inb : ∀ i : grid0.Coords, ∀ a, (k0_off1532 i) a + S1.size a ≤ S1024.size a
  k0_off1534_inb : ∀ i : grid0.Coords, ∀ a, (k0_off1534 i) a + S1.size a ≤ S1024.size a
  k0_off1535_inb : ∀ i : grid0.Coords, ∀ a, (k0_off1535 i) a + S1.size a ≤ S1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1x512.size a ≤ S1024x1x512.size a
  hwx0_0 : ∀ i : grid0.Coords, EltTy.bits .f32 = 32 ∨ (Rect.block (s := S1024x1x512) S256x1x512.size (cc0_transform_0 i) (hinb0_0 i)).WholeWords (EltTy.packing .f32)

class Shapes1.Facts₀ : Prop where
  bcast_S_S1024 : S_.BroadcastsInDim S1024 (![] : Fin 0 → Fin S1024.rank)
  natLt_1_32 : 1 < 32
  bcast_S1024x512_S1024x1x512_0_2 : S1024x512.BroadcastsInDim S1024x1x512 (![0, 2] : Fin 2 → Fin S1024x1x512.rank)
  numel1_S1 : S1.numel = 1
  inb_S16_S1_0 : ∀ a, (![0] : Fin 1 → Nat) a + S1.size a ≤ S16.size a
  squeezes_S1_S_ : S1.Squeezes S_
  squeezes_S1x1x512_S1x512 : S1x1x512.Squeezes S1x512
  inb_S256x1x512_S1x1x512_0_0_0 : ∀ a, (![0, 0, 0] : Fin 3 → Nat) a + S1x1x512.size a ≤ S256x1x512.size a
  inb_S16_S1_1 : ∀ a, (![1] : Fin 1 → Nat) a + S1.size a ≤ S16.size a
  inb_S256x1x512_S1x1x512_1_0_0 : ∀ a, (![1, 0, 0] : Fin 3 → Nat) a + S1x1x512.size a ≤ S256x1x512.size a
  inb_S16_S1_2 : ∀ a, (![2] : Fin 1 → Nat) a + S1.size a ≤ S16.size a
  inb_S256x1x512_S1x1x512_2_0_0 : ∀ a, (![2, 0, 0] : Fin 3 → Nat) a + S1x1x512.size a ≤ S256x1x512.size a
  inb_S16_S1_3 : ∀ a, (![3] : Fin 1 → Nat) a + S1.size a ≤ S16.size a
  inb_S256x1x512_S1x1x512_3_0_0 : ∀ a, (![3, 0, 0] : Fin 3 → Nat) a + S1x1x512.size a ≤ S256x1x512.size a
  inb_S16_S1_4 : ∀ a, (![4] : Fin 1 → Nat) a + S1.size a ≤ S16.size a
  inb_S256x1x512_S1x1x512_4_0_0 : ∀ a, (![4, 0, 0] : Fin 3 → Nat) a + S1x1x512.size a ≤ S256x1x512.size a
  inb_S16_S1_5 : ∀ a, (![5] : Fin 1 → Nat) a + S1.size a ≤ S16.size a
  inb_S256x1x512_S1x1x512_5_0_0 : ∀ a, (![5, 0, 0] : Fin 3 → Nat) a + S1x1x512.size a ≤ S256x1x512.size a
  inb_S16_S1_6 : ∀ a, (![6] : Fin 1 → Nat) a + S1.size a ≤ S16.size a
  inb_S256x1x512_S1x1x512_6_0_0 : ∀ a, (![6, 0, 0] : Fin 3 → Nat) a + S1x1x512.size a ≤ S256x1x512.size a
  inb_S16_S1_7 : ∀ a, (![7] : Fin 1 → Nat) a + S1.size a ≤ S16.size a
  inb_S256x1x512_S1x1x512_7_0_0 : ∀ a, (![7, 0, 0] : Fin 3 → Nat) a + S1x1x512.size a ≤ S256x1x512.size a
  inb_S16_S1_8 : ∀ a, (![8] : Fin 1 → Nat) a + S1.size a ≤ S16.size a
  inb_S256x1x512_S1x1x512_8_0_0 : ∀ a, (![8, 0, 0] : Fin 3 → Nat) a + S1x1x512.size a ≤ S256x1x512.size a
  inb_S16_S1_9 : ∀ a, (![9] : Fin 1 → Nat) a + S1.size a ≤ S16.size a
  inb_S256x1x512_S1x1x512_9_0_0 : ∀ a, (![9, 0, 0] : Fin 3 → Nat) a + S1x1x512.size a ≤ S256x1x512.size a
  inb_S16_S1_10 : ∀ a, (![10] : Fin 1 → Nat) a + S1.size a ≤ S16.size a
  inb_S256x1x512_S1x1x512_10_0_0 : ∀ a, (![10, 0, 0] : Fin 3 → Nat) a + S1x1x512.size a ≤ S256x1x512.size a
  inb_S16_S1_11 : ∀ a, (![11] : Fin 1 → Nat) a + S1.size a ≤ S16.size a
  inb_S256x1x512_S1x1x512_11_0_0 : ∀ a, (![11, 0, 0] : Fin 3 → Nat) a + S1x1x512.size a ≤ S256x1x512.size a
  inb_S16_S1_12 : ∀ a, (![12] : Fin 1 → Nat) a + S1.size a ≤ S16.size a
  inb_S256x1x512_S1x1x512_12_0_0 : ∀ a, (![12, 0, 0] : Fin 3 → Nat) a + S1x1x512.size a ≤ S256x1x512.size a
  inb_S16_S1_13 : ∀ a, (![13] : Fin 1 → Nat) a + S1.size a ≤ S16.size a
  inb_S256x1x512_S1x1x512_13_0_0 : ∀ a, (![13, 0, 0] : Fin 3 → Nat) a + S1x1x512.size a ≤ S256x1x512.size a
  inb_S16_S1_14 : ∀ a, (![14] : Fin 1 → Nat) a + S1.size a ≤ S16.size a
  inb_S256x1x512_S1x1x512_14_0_0 : ∀ a, (![14, 0, 0] : Fin 3 → Nat) a + S1x1x512.size a ≤ S256x1x512.size a
  inb_S16_S1_15 : ∀ a, (![15] : Fin 1 → Nat) a + S1.size a ≤ S16.size a
  inb_S256x1x512_S1x1x512_15_0_0 : ∀ a, (![15, 0, 0] : Fin 3 → Nat) a + S1x1x512.size a ≤ S256x1x512.size a
  inb_S256x1x512_S1x1x512_16_0_0 : ∀ a, (![16, 0, 0] : Fin 3 → Nat) a + S1x1x512.size a ≤ S256x1x512.size a
  inb_S256x1x512_S1x1x512_17_0_0 : ∀ a, (![17, 0, 0] : Fin 3 → Nat) a + S1x1x512.size a ≤ S256x1x512.size a
  inb_S256x1x512_S1x1x512_18_0_0 : ∀ a, (![18, 0, 0] : Fin 3 → Nat) a + S1x1x512.size a ≤ S256x1x512.size a
  inb_S256x1x512_S1x1x512_19_0_0 : ∀ a, (![19, 0, 0] : Fin 3 → Nat) a + S1x1x512.size a ≤ S256x1x512.size a
  inb_S256x1x512_S1x1x512_20_0_0 : ∀ a, (![20, 0, 0] : Fin 3 → Nat) a + S1x1x512.size a ≤ S256x1x512.size a
  inb_S256x1x512_S1x1x512_21_0_0 : ∀ a, (![21, 0, 0] : Fin 3 → Nat) a + S1x1x512.size a ≤ S256x1x512.size a
  inb_S256x1x512_S1x1x512_22_0_0 : ∀ a, (![22, 0, 0] : Fin 3 → Nat) a + S1x1x512.size a ≤ S256x1x512.size a
  inb_S256x1x512_S1x1x512_23_0_0 : ∀ a, (![23, 0, 0] : Fin 3 → Nat) a + S1x1x512.size a ≤ S256x1x512.size a
  inb_S256x1x512_S1x1x512_24_0_0 : ∀ a, (![24, 0, 0] : Fin 3 → Nat) a + S1x1x512.size a ≤ S256x1x512.size a
  inb_S256x1x512_S1x1x512_25_0_0 : ∀ a, (![25, 0, 0] : Fin 3 → Nat) a + S1x1x512.size a ≤ S256x1x512.size a
  inb_S256x1x512_S1x1x512_26_0_0 : ∀ a, (![26, 0, 0] : Fin 3 → Nat) a + S1x1x512.size a ≤ S256x1x512.size a
  inb_S256x1x512_S1x1x512_27_0_0 : ∀ a, (![27, 0, 0] : Fin 3 → Nat) a + S1x1x512.size a ≤ S256x1x512.size a
  inb_S256x1x512_S1x1x512_28_0_0 : ∀ a, (![28, 0, 0] : Fin 3 → Nat) a + S1x1x512.size a ≤ S256x1x512.size a
  inb_S256x1x512_S1x1x512_29_0_0 : ∀ a, (![29, 0, 0] : Fin 3 → Nat) a + S1x1x512.size a ≤ S256x1x512.size a
  inb_S256x1x512_S1x1x512_30_0_0 : ∀ a, (![30, 0, 0] : Fin 3 → Nat) a + S1x1x512.size a ≤ S256x1x512.size a
  inb_S256x1x512_S1x1x512_31_0_0 : ∀ a, (![31, 0, 0] : Fin 3 → Nat) a + S1x1x512.size a ≤ S256x1x512.size a
  inb_S256x1x512_S1x1x512_32_0_0 : ∀ a, (![32, 0, 0] : Fin 3 → Nat) a + S1x1x512.size a ≤ S256x1x512.size a
  inb_S256x1x512_S1x1x512_33_0_0 : ∀ a, (![33, 0, 0] : Fin 3 → Nat) a + S1x1x512.size a ≤ S256x1x512.size a
  inb_S256x1x512_S1x1x512_34_0_0 : ∀ a, (![34, 0, 0] : Fin 3 → Nat) a + S1x1x512.size a ≤ S256x1x512.size a
  inb_S256x1x512_S1x1x512_35_0_0 : ∀ a, (![35, 0, 0] : Fin 3 → Nat) a + S1x1x512.size a ≤ S256x1x512.size a
  inb_S256x1x512_S1x1x512_36_0_0 : ∀ a, (![36, 0, 0] : Fin 3 → Nat) a + S1x1x512.size a ≤ S256x1x512.size a
  inb_S256x1x512_S1x1x512_37_0_0 : ∀ a, (![37, 0, 0] : Fin 3 → Nat) a + S1x1x512.size a ≤ S256x1x512.size a
  inb_S256x1x512_S1x1x512_38_0_0 : ∀ a, (![38, 0, 0] : Fin 3 → Nat) a + S1x1x512.size a ≤ S256x1x512.size a
  inb_S256x1x512_S1x1x512_39_0_0 : ∀ a, (![39, 0, 0] : Fin 3 → Nat) a + S1x1x512.size a ≤ S256x1x512.size a
  inb_S256x1x512_S1x1x512_40_0_0 : ∀ a, (![40, 0, 0] : Fin 3 → Nat) a + S1x1x512.size a ≤ S256x1x512.size a
  inb_S256x1x512_S1x1x512_41_0_0 : ∀ a, (![41, 0, 0] : Fin 3 → Nat) a + S1x1x512.size a ≤ S256x1x512.size a
  inb_S256x1x512_S1x1x512_42_0_0 : ∀ a, (![42, 0, 0] : Fin 3 → Nat) a + S1x1x512.size a ≤ S256x1x512.size a
  inb_S256x1x512_S1x1x512_43_0_0 : ∀ a, (![43, 0, 0] : Fin 3 → Nat) a + S1x1x512.size a ≤ S256x1x512.size a
  inb_S256x1x512_S1x1x512_44_0_0 : ∀ a, (![44, 0, 0] : Fin 3 → Nat) a + S1x1x512.size a ≤ S256x1x512.size a
  inb_S256x1x512_S1x1x512_45_0_0 : ∀ a, (![45, 0, 0] : Fin 3 → Nat) a + S1x1x512.size a ≤ S256x1x512.size a
  inb_S256x1x512_S1x1x512_46_0_0 : ∀ a, (![46, 0, 0] : Fin 3 → Nat) a + S1x1x512.size a ≤ S256x1x512.size a
  inb_S256x1x512_S1x1x512_47_0_0 : ∀ a, (![47, 0, 0] : Fin 3 → Nat) a + S1x1x512.size a ≤ S256x1x512.size a
  inb_S256x1x512_S1x1x512_48_0_0 : ∀ a, (![48, 0, 0] : Fin 3 → Nat) a + S1x1x512.size a ≤ S256x1x512.size a
  inb_S256x1x512_S1x1x512_49_0_0 : ∀ a, (![49, 0, 0] : Fin 3 → Nat) a + S1x1x512.size a ≤ S256x1x512.size a
  inb_S256x1x512_S1x1x512_50_0_0 : ∀ a, (![50, 0, 0] : Fin 3 → Nat) a + S1x1x512.size a ≤ S256x1x512.size a
  inb_S256x1x512_S1x1x512_51_0_0 : ∀ a, (![51, 0, 0] : Fin 3 → Nat) a + S1x1x512.size a ≤ S256x1x512.size a
  inb_S256x1x512_S1x1x512_52_0_0 : ∀ a, (![52, 0, 0] : Fin 3 → Nat) a + S1x1x512.size a ≤ S256x1x512.size a
  inb_S256x1x512_S1x1x512_53_0_0 : ∀ a, (![53, 0, 0] : Fin 3 → Nat) a + S1x1x512.size a ≤ S256x1x512.size a
  inb_S256x1x512_S1x1x512_54_0_0 : ∀ a, (![54, 0, 0] : Fin 3 → Nat) a + S1x1x512.size a ≤ S256x1x512.size a
  inb_S256x1x512_S1x1x512_55_0_0 : ∀ a, (![55, 0, 0] : Fin 3 → Nat) a + S1x1x512.size a ≤ S256x1x512.size a
  inb_S256x1x512_S1x1x512_56_0_0 : ∀ a, (![56, 0, 0] : Fin 3 → Nat) a + S1x1x512.size a ≤ S256x1x512.size a
  inb_S256x1x512_S1x1x512_57_0_0 : ∀ a, (![57, 0, 0] : Fin 3 → Nat) a + S1x1x512.size a ≤ S256x1x512.size a
  inb_S256x1x512_S1x1x512_58_0_0 : ∀ a, (![58, 0, 0] : Fin 3 → Nat) a + S1x1x512.size a ≤ S256x1x512.size a
  inb_S256x1x512_S1x1x512_59_0_0 : ∀ a, (![59, 0, 0] : Fin 3 → Nat) a + S1x1x512.size a ≤ S256x1x512.size a
  inb_S256x1x512_S1x1x512_60_0_0 : ∀ a, (![60, 0, 0] : Fin 3 → Nat) a + S1x1x512.size a ≤ S256x1x512.size a
  inb_S256x1x512_S1x1x512_61_0_0 : ∀ a, (![61, 0, 0] : Fin 3 → Nat) a + S1x1x512.size a ≤ S256x1x512.size a
  inb_S256x1x512_S1x1x512_62_0_0 : ∀ a, (![62, 0, 0] : Fin 3 → Nat) a + S1x1x512.size a ≤ S256x1x512.size a
  inb_S256x1x512_S1x1x512_63_0_0 : ∀ a, (![63, 0, 0] : Fin 3 → Nat) a + S1x1x512.size a ≤ S256x1x512.size a
  inb_S256x1x512_S1x1x512_64_0_0 : ∀ a, (![64, 0, 0] : Fin 3 → Nat) a + S1x1x512.size a ≤ S256x1x512.size a
  inb_S256x1x512_S1x1x512_65_0_0 : ∀ a, (![65, 0, 0] : Fin 3 → Nat) a + S1x1x512.size a ≤ S256x1x512.size a
  inb_S256x1x512_S1x1x512_66_0_0 : ∀ a, (![66, 0, 0] : Fin 3 → Nat) a + S1x1x512.size a ≤ S256x1x512.size a
  inb_S256x1x512_S1x1x512_67_0_0 : ∀ a, (![67, 0, 0] : Fin 3 → Nat) a + S1x1x512.size a ≤ S256x1x512.size a
  inb_S256x1x512_S1x1x512_68_0_0 : ∀ a, (![68, 0, 0] : Fin 3 → Nat) a + S1x1x512.size a ≤ S256x1x512.size a
  inb_S256x1x512_S1x1x512_69_0_0 : ∀ a, (![69, 0, 0] : Fin 3 → Nat) a + S1x1x512.size a ≤ S256x1x512.size a
  inb_S256x1x512_S1x1x512_70_0_0 : ∀ a, (![70, 0, 0] : Fin 3 → Nat) a + S1x1x512.size a ≤ S256x1x512.size a
  inb_S256x1x512_S1x1x512_71_0_0 : ∀ a, (![71, 0, 0] : Fin 3 → Nat) a + S1x1x512.size a ≤ S256x1x512.size a
  inb_S256x1x512_S1x1x512_72_0_0 : ∀ a, (![72, 0, 0] : Fin 3 → Nat) a + S1x1x512.size a ≤ S256x1x512.size a
  inb_S256x1x512_S1x1x512_73_0_0 : ∀ a, (![73, 0, 0] : Fin 3 → Nat) a + S1x1x512.size a ≤ S256x1x512.size a
  inb_S256x1x512_S1x1x512_74_0_0 : ∀ a, (![74, 0, 0] : Fin 3 → Nat) a + S1x1x512.size a ≤ S256x1x512.size a
  inb_S256x1x512_S1x1x512_75_0_0 : ∀ a, (![75, 0, 0] : Fin 3 → Nat) a + S1x1x512.size a ≤ S256x1x512.size a
  inb_S256x1x512_S1x1x512_76_0_0 : ∀ a, (![76, 0, 0] : Fin 3 → Nat) a + S1x1x512.size a ≤ S256x1x512.size a
  inb_S256x1x512_S1x1x512_77_0_0 : ∀ a, (![77, 0, 0] : Fin 3 → Nat) a + S1x1x512.size a ≤ S256x1x512.size a
  inb_S256x1x512_S1x1x512_78_0_0 : ∀ a, (![78, 0, 0] : Fin 3 → Nat) a + S1x1x512.size a ≤ S256x1x512.size a
  inb_S256x1x512_S1x1x512_79_0_0 : ∀ a, (![79, 0, 0] : Fin 3 → Nat) a + S1x1x512.size a ≤ S256x1x512.size a
  inb_S256x1x512_S1x1x512_80_0_0 : ∀ a, (![80, 0, 0] : Fin 3 → Nat) a + S1x1x512.size a ≤ S256x1x512.size a
  inb_S256x1x512_S1x1x512_81_0_0 : ∀ a, (![81, 0, 0] : Fin 3 → Nat) a + S1x1x512.size a ≤ S256x1x512.size a
  inb_S256x1x512_S1x1x512_82_0_0 : ∀ a, (![82, 0, 0] : Fin 3 → Nat) a + S1x1x512.size a ≤ S256x1x512.size a
  inb_S256x1x512_S1x1x512_83_0_0 : ∀ a, (![83, 0, 0] : Fin 3 → Nat) a + S1x1x512.size a ≤ S256x1x512.size a
  inb_S256x1x512_S1x1x512_84_0_0 : ∀ a, (![84, 0, 0] : Fin 3 → Nat) a + S1x1x512.size a ≤ S256x1x512.size a
  inb_S256x1x512_S1x1x512_85_0_0 : ∀ a, (![85, 0, 0] : Fin 3 → Nat) a + S1x1x512.size a ≤ S256x1x512.size a
  inb_S256x1x512_S1x1x512_86_0_0 : ∀ a, (![86, 0, 0] : Fin 3 → Nat) a + S1x1x512.size a ≤ S256x1x512.size a
  inb_S256x1x512_S1x1x512_87_0_0 : ∀ a, (![87, 0, 0] : Fin 3 → Nat) a + S1x1x512.size a ≤ S256x1x512.size a
  inb_S256x1x512_S1x1x512_88_0_0 : ∀ a, (![88, 0, 0] : Fin 3 → Nat) a + S1x1x512.size a ≤ S256x1x512.size a
  inb_S256x1x512_S1x1x512_89_0_0 : ∀ a, (![89, 0, 0] : Fin 3 → Nat) a + S1x1x512.size a ≤ S256x1x512.size a
  inb_S256x1x512_S1x1x512_90_0_0 : ∀ a, (![90, 0, 0] : Fin 3 → Nat) a + S1x1x512.size a ≤ S256x1x512.size a
  inb_S256x1x512_S1x1x512_91_0_0 : ∀ a, (![91, 0, 0] : Fin 3 → Nat) a + S1x1x512.size a ≤ S256x1x512.size a
  inb_S256x1x512_S1x1x512_92_0_0 : ∀ a, (![92, 0, 0] : Fin 3 → Nat) a + S1x1x512.size a ≤ S256x1x512.size a
  inb_S256x1x512_S1x1x512_93_0_0 : ∀ a, (![93, 0, 0] : Fin 3 → Nat) a + S1x1x512.size a ≤ S256x1x512.size a
  inb_S256x1x512_S1x1x512_94_0_0 : ∀ a, (![94, 0, 0] : Fin 3 → Nat) a + S1x1x512.size a ≤ S256x1x512.size a
  inb_S256x1x512_S1x1x512_95_0_0 : ∀ a, (![95, 0, 0] : Fin 3 → Nat) a + S1x1x512.size a ≤ S256x1x512.size a
  inb_S256x1x512_S1x1x512_96_0_0 : ∀ a, (![96, 0, 0] : Fin 3 → Nat) a + S1x1x512.size a ≤ S256x1x512.size a
  inb_S256x1x512_S1x1x512_97_0_0 : ∀ a, (![97, 0, 0] : Fin 3 → Nat) a + S1x1x512.size a ≤ S256x1x512.size a
  inb_S256x1x512_S1x1x512_98_0_0 : ∀ a, (![98, 0, 0] : Fin 3 → Nat) a + S1x1x512.size a ≤ S256x1x512.size a
  inb_S256x1x512_S1x1x512_99_0_0 : ∀ a, (![99, 0, 0] : Fin 3 → Nat) a + S1x1x512.size a ≤ S256x1x512.size a
  inb_S256x1x512_S1x1x512_100_0_0 : ∀ a, (![100, 0, 0] : Fin 3 → Nat) a + S1x1x512.size a ≤ S256x1x512.size a
  inb_S256x1x512_S1x1x512_101_0_0 : ∀ a, (![101, 0, 0] : Fin 3 → Nat) a + S1x1x512.size a ≤ S256x1x512.size a
  inb_S256x1x512_S1x1x512_102_0_0 : ∀ a, (![102, 0, 0] : Fin 3 → Nat) a + S1x1x512.size a ≤ S256x1x512.size a
  inb_S256x1x512_S1x1x512_103_0_0 : ∀ a, (![103, 0, 0] : Fin 3 → Nat) a + S1x1x512.size a ≤ S256x1x512.size a
  inb_S256x1x512_S1x1x512_104_0_0 : ∀ a, (![104, 0, 0] : Fin 3 → Nat) a + S1x1x512.size a ≤ S256x1x512.size a
  inb_S256x1x512_S1x1x512_105_0_0 : ∀ a, (![105, 0, 0] : Fin 3 → Nat) a + S1x1x512.size a ≤ S256x1x512.size a
  inb_S256x1x512_S1x1x512_106_0_0 : ∀ a, (![106, 0, 0] : Fin 3 → Nat) a + S1x1x512.size a ≤ S256x1x512.size a
  inb_S256x1x512_S1x1x512_107_0_0 : ∀ a, (![107, 0, 0] : Fin 3 → Nat) a + S1x1x512.size a ≤ S256x1x512.size a
  inb_S256x1x512_S1x1x512_108_0_0 : ∀ a, (![108, 0, 0] : Fin 3 → Nat) a + S1x1x512.size a ≤ S256x1x512.size a
  inb_S256x1x512_S1x1x512_109_0_0 : ∀ a, (![109, 0, 0] : Fin 3 → Nat) a + S1x1x512.size a ≤ S256x1x512.size a
  inb_S256x1x512_S1x1x512_110_0_0 : ∀ a, (![110, 0, 0] : Fin 3 → Nat) a + S1x1x512.size a ≤ S256x1x512.size a
  inb_S256x1x512_S1x1x512_111_0_0 : ∀ a, (![111, 0, 0] : Fin 3 → Nat) a + S1x1x512.size a ≤ S256x1x512.size a
  inb_S256x1x512_S1x1x512_112_0_0 : ∀ a, (![112, 0, 0] : Fin 3 → Nat) a + S1x1x512.size a ≤ S256x1x512.size a
  inb_S256x1x512_S1x1x512_113_0_0 : ∀ a, (![113, 0, 0] : Fin 3 → Nat) a + S1x1x512.size a ≤ S256x1x512.size a
  inb_S256x1x512_S1x1x512_114_0_0 : ∀ a, (![114, 0, 0] : Fin 3 → Nat) a + S1x1x512.size a ≤ S256x1x512.size a
  inb_S256x1x512_S1x1x512_115_0_0 : ∀ a, (![115, 0, 0] : Fin 3 → Nat) a + S1x1x512.size a ≤ S256x1x512.size a
  inb_S256x1x512_S1x1x512_116_0_0 : ∀ a, (![116, 0, 0] : Fin 3 → Nat) a + S1x1x512.size a ≤ S256x1x512.size a
  inb_S256x1x512_S1x1x512_117_0_0 : ∀ a, (![117, 0, 0] : Fin 3 → Nat) a + S1x1x512.size a ≤ S256x1x512.size a
  inb_S256x1x512_S1x1x512_118_0_0 : ∀ a, (![118, 0, 0] : Fin 3 → Nat) a + S1x1x512.size a ≤ S256x1x512.size a
  inb_S256x1x512_S1x1x512_119_0_0 : ∀ a, (![119, 0, 0] : Fin 3 → Nat) a + S1x1x512.size a ≤ S256x1x512.size a
  inb_S256x1x512_S1x1x512_120_0_0 : ∀ a, (![120, 0, 0] : Fin 3 → Nat) a + S1x1x512.size a ≤ S256x1x512.size a
  inb_S256x1x512_S1x1x512_121_0_0 : ∀ a, (![121, 0, 0] : Fin 3 → Nat) a + S1x1x512.size a ≤ S256x1x512.size a
  inb_S256x1x512_S1x1x512_122_0_0 : ∀ a, (![122, 0, 0] : Fin 3 → Nat) a + S1x1x512.size a ≤ S256x1x512.size a
  inb_S256x1x512_S1x1x512_123_0_0 : ∀ a, (![123, 0, 0] : Fin 3 → Nat) a + S1x1x512.size a ≤ S256x1x512.size a
  inb_S256x1x512_S1x1x512_124_0_0 : ∀ a, (![124, 0, 0] : Fin 3 → Nat) a + S1x1x512.size a ≤ S256x1x512.size a
  inb_S256x1x512_S1x1x512_125_0_0 : ∀ a, (![125, 0, 0] : Fin 3 → Nat) a + S1x1x512.size a ≤ S256x1x512.size a
  inb_S256x1x512_S1x1x512_126_0_0 : ∀ a, (![126, 0, 0] : Fin 3 → Nat) a + S1x1x512.size a ≤ S256x1x512.size a
  inb_S256x1x512_S1x1x512_127_0_0 : ∀ a, (![127, 0, 0] : Fin 3 → Nat) a + S1x1x512.size a ≤ S256x1x512.size a
  inb_S256x1x512_S1x1x512_128_0_0 : ∀ a, (![128, 0, 0] : Fin 3 → Nat) a + S1x1x512.size a ≤ S256x1x512.size a
  inb_S256x1x512_S1x1x512_129_0_0 : ∀ a, (![129, 0, 0] : Fin 3 → Nat) a + S1x1x512.size a ≤ S256x1x512.size a
  inb_S256x1x512_S1x1x512_130_0_0 : ∀ a, (![130, 0, 0] : Fin 3 → Nat) a + S1x1x512.size a ≤ S256x1x512.size a
  inb_S256x1x512_S1x1x512_131_0_0 : ∀ a, (![131, 0, 0] : Fin 3 → Nat) a + S1x1x512.size a ≤ S256x1x512.size a
  inb_S256x1x512_S1x1x512_132_0_0 : ∀ a, (![132, 0, 0] : Fin 3 → Nat) a + S1x1x512.size a ≤ S256x1x512.size a
  inb_S256x1x512_S1x1x512_133_0_0 : ∀ a, (![133, 0, 0] : Fin 3 → Nat) a + S1x1x512.size a ≤ S256x1x512.size a
  inb_S256x1x512_S1x1x512_134_0_0 : ∀ a, (![134, 0, 0] : Fin 3 → Nat) a + S1x1x512.size a ≤ S256x1x512.size a
  inb_S256x1x512_S1x1x512_135_0_0 : ∀ a, (![135, 0, 0] : Fin 3 → Nat) a + S1x1x512.size a ≤ S256x1x512.size a
  inb_S256x1x512_S1x1x512_136_0_0 : ∀ a, (![136, 0, 0] : Fin 3 → Nat) a + S1x1x512.size a ≤ S256x1x512.size a
  inb_S256x1x512_S1x1x512_137_0_0 : ∀ a, (![137, 0, 0] : Fin 3 → Nat) a + S1x1x512.size a ≤ S256x1x512.size a
  inb_S256x1x512_S1x1x512_138_0_0 : ∀ a, (![138, 0, 0] : Fin 3 → Nat) a + S1x1x512.size a ≤ S256x1x512.size a
  inb_S256x1x512_S1x1x512_139_0_0 : ∀ a, (![139, 0, 0] : Fin 3 → Nat) a + S1x1x512.size a ≤ S256x1x512.size a
  inb_S256x1x512_S1x1x512_140_0_0 : ∀ a, (![140, 0, 0] : Fin 3 → Nat) a + S1x1x512.size a ≤ S256x1x512.size a
  inb_S256x1x512_S1x1x512_141_0_0 : ∀ a, (![141, 0, 0] : Fin 3 → Nat) a + S1x1x512.size a ≤ S256x1x512.size a
  inb_S256x1x512_S1x1x512_142_0_0 : ∀ a, (![142, 0, 0] : Fin 3 → Nat) a + S1x1x512.size a ≤ S256x1x512.size a
  inb_S256x1x512_S1x1x512_143_0_0 : ∀ a, (![143, 0, 0] : Fin 3 → Nat) a + S1x1x512.size a ≤ S256x1x512.size a
  inb_S256x1x512_S1x1x512_144_0_0 : ∀ a, (![144, 0, 0] : Fin 3 → Nat) a + S1x1x512.size a ≤ S256x1x512.size a
  inb_S256x1x512_S1x1x512_145_0_0 : ∀ a, (![145, 0, 0] : Fin 3 → Nat) a + S1x1x512.size a ≤ S256x1x512.size a
  inb_S256x1x512_S1x1x512_146_0_0 : ∀ a, (![146, 0, 0] : Fin 3 → Nat) a + S1x1x512.size a ≤ S256x1x512.size a
  inb_S256x1x512_S1x1x512_147_0_0 : ∀ a, (![147, 0, 0] : Fin 3 → Nat) a + S1x1x512.size a ≤ S256x1x512.size a
  inb_S256x1x512_S1x1x512_148_0_0 : ∀ a, (![148, 0, 0] : Fin 3 → Nat) a + S1x1x512.size a ≤ S256x1x512.size a
  inb_S256x1x512_S1x1x512_149_0_0 : ∀ a, (![149, 0, 0] : Fin 3 → Nat) a + S1x1x512.size a ≤ S256x1x512.size a
  inb_S256x1x512_S1x1x512_150_0_0 : ∀ a, (![150, 0, 0] : Fin 3 → Nat) a + S1x1x512.size a ≤ S256x1x512.size a
  inb_S256x1x512_S1x1x512_151_0_0 : ∀ a, (![151, 0, 0] : Fin 3 → Nat) a + S1x1x512.size a ≤ S256x1x512.size a
  inb_S256x1x512_S1x1x512_152_0_0 : ∀ a, (![152, 0, 0] : Fin 3 → Nat) a + S1x1x512.size a ≤ S256x1x512.size a
  inb_S256x1x512_S1x1x512_153_0_0 : ∀ a, (![153, 0, 0] : Fin 3 → Nat) a + S1x1x512.size a ≤ S256x1x512.size a
  inb_S256x1x512_S1x1x512_154_0_0 : ∀ a, (![154, 0, 0] : Fin 3 → Nat) a + S1x1x512.size a ≤ S256x1x512.size a
  inb_S256x1x512_S1x1x512_155_0_0 : ∀ a, (![155, 0, 0] : Fin 3 → Nat) a + S1x1x512.size a ≤ S256x1x512.size a
  inb_S256x1x512_S1x1x512_156_0_0 : ∀ a, (![156, 0, 0] : Fin 3 → Nat) a + S1x1x512.size a ≤ S256x1x512.size a
  inb_S256x1x512_S1x1x512_157_0_0 : ∀ a, (![157, 0, 0] : Fin 3 → Nat) a + S1x1x512.size a ≤ S256x1x512.size a
  inb_S256x1x512_S1x1x512_158_0_0 : ∀ a, (![158, 0, 0] : Fin 3 → Nat) a + S1x1x512.size a ≤ S256x1x512.size a
  inb_S256x1x512_S1x1x512_159_0_0 : ∀ a, (![159, 0, 0] : Fin 3 → Nat) a + S1x1x512.size a ≤ S256x1x512.size a
  inb_S256x1x512_S1x1x512_160_0_0 : ∀ a, (![160, 0, 0] : Fin 3 → Nat) a + S1x1x512.size a ≤ S256x1x512.size a
  inb_S256x1x512_S1x1x512_161_0_0 : ∀ a, (![161, 0, 0] : Fin 3 → Nat) a + S1x1x512.size a ≤ S256x1x512.size a
  inb_S256x1x512_S1x1x512_162_0_0 : ∀ a, (![162, 0, 0] : Fin 3 → Nat) a + S1x1x512.size a ≤ S256x1x512.size a
  inb_S256x1x512_S1x1x512_163_0_0 : ∀ a, (![163, 0, 0] : Fin 3 → Nat) a + S1x1x512.size a ≤ S256x1x512.size a
  inb_S256x1x512_S1x1x512_164_0_0 : ∀ a, (![164, 0, 0] : Fin 3 → Nat) a + S1x1x512.size a ≤ S256x1x512.size a
  inb_S256x1x512_S1x1x512_165_0_0 : ∀ a, (![165, 0, 0] : Fin 3 → Nat) a + S1x1x512.size a ≤ S256x1x512.size a
  inb_S256x1x512_S1x1x512_166_0_0 : ∀ a, (![166, 0, 0] : Fin 3 → Nat) a + S1x1x512.size a ≤ S256x1x512.size a
  inb_S256x1x512_S1x1x512_167_0_0 : ∀ a, (![167, 0, 0] : Fin 3 → Nat) a + S1x1x512.size a ≤ S256x1x512.size a
  inb_S256x1x512_S1x1x512_168_0_0 : ∀ a, (![168, 0, 0] : Fin 3 → Nat) a + S1x1x512.size a ≤ S256x1x512.size a
  inb_S256x1x512_S1x1x512_169_0_0 : ∀ a, (![169, 0, 0] : Fin 3 → Nat) a + S1x1x512.size a ≤ S256x1x512.size a
  inb_S256x1x512_S1x1x512_170_0_0 : ∀ a, (![170, 0, 0] : Fin 3 → Nat) a + S1x1x512.size a ≤ S256x1x512.size a
  inb_S256x1x512_S1x1x512_171_0_0 : ∀ a, (![171, 0, 0] : Fin 3 → Nat) a + S1x1x512.size a ≤ S256x1x512.size a
  inb_S256x1x512_S1x1x512_172_0_0 : ∀ a, (![172, 0, 0] : Fin 3 → Nat) a + S1x1x512.size a ≤ S256x1x512.size a
  inb_S256x1x512_S1x1x512_173_0_0 : ∀ a, (![173, 0, 0] : Fin 3 → Nat) a + S1x1x512.size a ≤ S256x1x512.size a
  inb_S256x1x512_S1x1x512_174_0_0 : ∀ a, (![174, 0, 0] : Fin 3 → Nat) a + S1x1x512.size a ≤ S256x1x512.size a
  inb_S256x1x512_S1x1x512_175_0_0 : ∀ a, (![175, 0, 0] : Fin 3 → Nat) a + S1x1x512.size a ≤ S256x1x512.size a
  inb_S256x1x512_S1x1x512_176_0_0 : ∀ a, (![176, 0, 0] : Fin 3 → Nat) a + S1x1x512.size a ≤ S256x1x512.size a
  inb_S256x1x512_S1x1x512_177_0_0 : ∀ a, (![177, 0, 0] : Fin 3 → Nat) a + S1x1x512.size a ≤ S256x1x512.size a
  inb_S256x1x512_S1x1x512_178_0_0 : ∀ a, (![178, 0, 0] : Fin 3 → Nat) a + S1x1x512.size a ≤ S256x1x512.size a
  inb_S256x1x512_S1x1x512_179_0_0 : ∀ a, (![179, 0, 0] : Fin 3 → Nat) a + S1x1x512.size a ≤ S256x1x512.size a
  inb_S256x1x512_S1x1x512_180_0_0 : ∀ a, (![180, 0, 0] : Fin 3 → Nat) a + S1x1x512.size a ≤ S256x1x512.size a
  inb_S256x1x512_S1x1x512_181_0_0 : ∀ a, (![181, 0, 0] : Fin 3 → Nat) a + S1x1x512.size a ≤ S256x1x512.size a
  inb_S256x1x512_S1x1x512_182_0_0 : ∀ a, (![182, 0, 0] : Fin 3 → Nat) a + S1x1x512.size a ≤ S256x1x512.size a
  inb_S256x1x512_S1x1x512_183_0_0 : ∀ a, (![183, 0, 0] : Fin 3 → Nat) a + S1x1x512.size a ≤ S256x1x512.size a
  inb_S256x1x512_S1x1x512_184_0_0 : ∀ a, (![184, 0, 0] : Fin 3 → Nat) a + S1x1x512.size a ≤ S256x1x512.size a
  inb_S256x1x512_S1x1x512_185_0_0 : ∀ a, (![185, 0, 0] : Fin 3 → Nat) a + S1x1x512.size a ≤ S256x1x512.size a
  inb_S256x1x512_S1x1x512_186_0_0 : ∀ a, (![186, 0, 0] : Fin 3 → Nat) a + S1x1x512.size a ≤ S256x1x512.size a
  inb_S256x1x512_S1x1x512_187_0_0 : ∀ a, (![187, 0, 0] : Fin 3 → Nat) a + S1x1x512.size a ≤ S256x1x512.size a
  inb_S256x1x512_S1x1x512_188_0_0 : ∀ a, (![188, 0, 0] : Fin 3 → Nat) a + S1x1x512.size a ≤ S256x1x512.size a
  inb_S256x1x512_S1x1x512_189_0_0 : ∀ a, (![189, 0, 0] : Fin 3 → Nat) a + S1x1x512.size a ≤ S256x1x512.size a
  inb_S256x1x512_S1x1x512_190_0_0 : ∀ a, (![190, 0, 0] : Fin 3 → Nat) a + S1x1x512.size a ≤ S256x1x512.size a
  inb_S256x1x512_S1x1x512_191_0_0 : ∀ a, (![191, 0, 0] : Fin 3 → Nat) a + S1x1x512.size a ≤ S256x1x512.size a
  inb_S256x1x512_S1x1x512_192_0_0 : ∀ a, (![192, 0, 0] : Fin 3 → Nat) a + S1x1x512.size a ≤ S256x1x512.size a
  inb_S256x1x512_S1x1x512_193_0_0 : ∀ a, (![193, 0, 0] : Fin 3 → Nat) a + S1x1x512.size a ≤ S256x1x512.size a
  inb_S256x1x512_S1x1x512_194_0_0 : ∀ a, (![194, 0, 0] : Fin 3 → Nat) a + S1x1x512.size a ≤ S256x1x512.size a
  inb_S256x1x512_S1x1x512_195_0_0 : ∀ a, (![195, 0, 0] : Fin 3 → Nat) a + S1x1x512.size a ≤ S256x1x512.size a
  inb_S256x1x512_S1x1x512_196_0_0 : ∀ a, (![196, 0, 0] : Fin 3 → Nat) a + S1x1x512.size a ≤ S256x1x512.size a
  inb_S256x1x512_S1x1x512_197_0_0 : ∀ a, (![197, 0, 0] : Fin 3 → Nat) a + S1x1x512.size a ≤ S256x1x512.size a
  inb_S256x1x512_S1x1x512_198_0_0 : ∀ a, (![198, 0, 0] : Fin 3 → Nat) a + S1x1x512.size a ≤ S256x1x512.size a
  inb_S256x1x512_S1x1x512_199_0_0 : ∀ a, (![199, 0, 0] : Fin 3 → Nat) a + S1x1x512.size a ≤ S256x1x512.size a
  inb_S256x1x512_S1x1x512_200_0_0 : ∀ a, (![200, 0, 0] : Fin 3 → Nat) a + S1x1x512.size a ≤ S256x1x512.size a
  inb_S256x1x512_S1x1x512_201_0_0 : ∀ a, (![201, 0, 0] : Fin 3 → Nat) a + S1x1x512.size a ≤ S256x1x512.size a
  inb_S256x1x512_S1x1x512_202_0_0 : ∀ a, (![202, 0, 0] : Fin 3 → Nat) a + S1x1x512.size a ≤ S256x1x512.size a
  inb_S256x1x512_S1x1x512_203_0_0 : ∀ a, (![203, 0, 0] : Fin 3 → Nat) a + S1x1x512.size a ≤ S256x1x512.size a
  inb_S256x1x512_S1x1x512_204_0_0 : ∀ a, (![204, 0, 0] : Fin 3 → Nat) a + S1x1x512.size a ≤ S256x1x512.size a
  inb_S256x1x512_S1x1x512_205_0_0 : ∀ a, (![205, 0, 0] : Fin 3 → Nat) a + S1x1x512.size a ≤ S256x1x512.size a
  inb_S256x1x512_S1x1x512_206_0_0 : ∀ a, (![206, 0, 0] : Fin 3 → Nat) a + S1x1x512.size a ≤ S256x1x512.size a
  inb_S256x1x512_S1x1x512_207_0_0 : ∀ a, (![207, 0, 0] : Fin 3 → Nat) a + S1x1x512.size a ≤ S256x1x512.size a
  inb_S256x1x512_S1x1x512_208_0_0 : ∀ a, (![208, 0, 0] : Fin 3 → Nat) a + S1x1x512.size a ≤ S256x1x512.size a
  inb_S256x1x512_S1x1x512_209_0_0 : ∀ a, (![209, 0, 0] : Fin 3 → Nat) a + S1x1x512.size a ≤ S256x1x512.size a
  inb_S256x1x512_S1x1x512_210_0_0 : ∀ a, (![210, 0, 0] : Fin 3 → Nat) a + S1x1x512.size a ≤ S256x1x512.size a
  inb_S256x1x512_S1x1x512_211_0_0 : ∀ a, (![211, 0, 0] : Fin 3 → Nat) a + S1x1x512.size a ≤ S256x1x512.size a
  inb_S256x1x512_S1x1x512_212_0_0 : ∀ a, (![212, 0, 0] : Fin 3 → Nat) a + S1x1x512.size a ≤ S256x1x512.size a
  inb_S256x1x512_S1x1x512_213_0_0 : ∀ a, (![213, 0, 0] : Fin 3 → Nat) a + S1x1x512.size a ≤ S256x1x512.size a
  inb_S256x1x512_S1x1x512_214_0_0 : ∀ a, (![214, 0, 0] : Fin 3 → Nat) a + S1x1x512.size a ≤ S256x1x512.size a
  inb_S256x1x512_S1x1x512_215_0_0 : ∀ a, (![215, 0, 0] : Fin 3 → Nat) a + S1x1x512.size a ≤ S256x1x512.size a
  inb_S256x1x512_S1x1x512_216_0_0 : ∀ a, (![216, 0, 0] : Fin 3 → Nat) a + S1x1x512.size a ≤ S256x1x512.size a
  inb_S256x1x512_S1x1x512_217_0_0 : ∀ a, (![217, 0, 0] : Fin 3 → Nat) a + S1x1x512.size a ≤ S256x1x512.size a
  inb_S256x1x512_S1x1x512_218_0_0 : ∀ a, (![218, 0, 0] : Fin 3 → Nat) a + S1x1x512.size a ≤ S256x1x512.size a
  inb_S256x1x512_S1x1x512_219_0_0 : ∀ a, (![219, 0, 0] : Fin 3 → Nat) a + S1x1x512.size a ≤ S256x1x512.size a
  inb_S256x1x512_S1x1x512_220_0_0 : ∀ a, (![220, 0, 0] : Fin 3 → Nat) a + S1x1x512.size a ≤ S256x1x512.size a
  inb_S256x1x512_S1x1x512_221_0_0 : ∀ a, (![221, 0, 0] : Fin 3 → Nat) a + S1x1x512.size a ≤ S256x1x512.size a
  inb_S256x1x512_S1x1x512_222_0_0 : ∀ a, (![222, 0, 0] : Fin 3 → Nat) a + S1x1x512.size a ≤ S256x1x512.size a
  inb_S256x1x512_S1x1x512_223_0_0 : ∀ a, (![223, 0, 0] : Fin 3 → Nat) a + S1x1x512.size a ≤ S256x1x512.size a
  inb_S256x1x512_S1x1x512_224_0_0 : ∀ a, (![224, 0, 0] : Fin 3 → Nat) a + S1x1x512.size a ≤ S256x1x512.size a
  inb_S256x1x512_S1x1x512_225_0_0 : ∀ a, (![225, 0, 0] : Fin 3 → Nat) a + S1x1x512.size a ≤ S256x1x512.size a
  inb_S256x1x512_S1x1x512_226_0_0 : ∀ a, (![226, 0, 0] : Fin 3 → Nat) a + S1x1x512.size a ≤ S256x1x512.size a
  inb_S256x1x512_S1x1x512_227_0_0 : ∀ a, (![227, 0, 0] : Fin 3 → Nat) a + S1x1x512.size a ≤ S256x1x512.size a
  inb_S256x1x512_S1x1x512_228_0_0 : ∀ a, (![228, 0, 0] : Fin 3 → Nat) a + S1x1x512.size a ≤ S256x1x512.size a
  inb_S256x1x512_S1x1x512_229_0_0 : ∀ a, (![229, 0, 0] : Fin 3 → Nat) a + S1x1x512.size a ≤ S256x1x512.size a
  inb_S256x1x512_S1x1x512_230_0_0 : ∀ a, (![230, 0, 0] : Fin 3 → Nat) a + S1x1x512.size a ≤ S256x1x512.size a
  inb_S256x1x512_S1x1x512_231_0_0 : ∀ a, (![231, 0, 0] : Fin 3 → Nat) a + S1x1x512.size a ≤ S256x1x512.size a
  inb_S256x1x512_S1x1x512_232_0_0 : ∀ a, (![232, 0, 0] : Fin 3 → Nat) a + S1x1x512.size a ≤ S256x1x512.size a
  inb_S256x1x512_S1x1x512_233_0_0 : ∀ a, (![233, 0, 0] : Fin 3 → Nat) a + S1x1x512.size a ≤ S256x1x512.size a
  inb_S256x1x512_S1x1x512_234_0_0 : ∀ a, (![234, 0, 0] : Fin 3 → Nat) a + S1x1x512.size a ≤ S256x1x512.size a
  inb_S256x1x512_S1x1x512_235_0_0 : ∀ a, (![235, 0, 0] : Fin 3 → Nat) a + S1x1x512.size a ≤ S256x1x512.size a
  inb_S256x1x512_S1x1x512_236_0_0 : ∀ a, (![236, 0, 0] : Fin 3 → Nat) a + S1x1x512.size a ≤ S256x1x512.size a
  inb_S256x1x512_S1x1x512_237_0_0 : ∀ a, (![237, 0, 0] : Fin 3 → Nat) a + S1x1x512.size a ≤ S256x1x512.size a
  inb_S256x1x512_S1x1x512_238_0_0 : ∀ a, (![238, 0, 0] : Fin 3 → Nat) a + S1x1x512.size a ≤ S256x1x512.size a
  inb_S256x1x512_S1x1x512_239_0_0 : ∀ a, (![239, 0, 0] : Fin 3 → Nat) a + S1x1x512.size a ≤ S256x1x512.size a
  inb_S256x1x512_S1x1x512_240_0_0 : ∀ a, (![240, 0, 0] : Fin 3 → Nat) a + S1x1x512.size a ≤ S256x1x512.size a
  inb_S256x1x512_S1x1x512_241_0_0 : ∀ a, (![241, 0, 0] : Fin 3 → Nat) a + S1x1x512.size a ≤ S256x1x512.size a
  inb_S256x1x512_S1x1x512_242_0_0 : ∀ a, (![242, 0, 0] : Fin 3 → Nat) a + S1x1x512.size a ≤ S256x1x512.size a
  inb_S256x1x512_S1x1x512_243_0_0 : ∀ a, (![243, 0, 0] : Fin 3 → Nat) a + S1x1x512.size a ≤ S256x1x512.size a
  inb_S256x1x512_S1x1x512_244_0_0 : ∀ a, (![244, 0, 0] : Fin 3 → Nat) a + S1x1x512.size a ≤ S256x1x512.size a
  inb_S256x1x512_S1x1x512_245_0_0 : ∀ a, (![245, 0, 0] : Fin 3 → Nat) a + S1x1x512.size a ≤ S256x1x512.size a
  inb_S256x1x512_S1x1x512_246_0_0 : ∀ a, (![246, 0, 0] : Fin 3 → Nat) a + S1x1x512.size a ≤ S256x1x512.size a
  inb_S256x1x512_S1x1x512_247_0_0 : ∀ a, (![247, 0, 0] : Fin 3 → Nat) a + S1x1x512.size a ≤ S256x1x512.size a
  inb_S256x1x512_S1x1x512_248_0_0 : ∀ a, (![248, 0, 0] : Fin 3 → Nat) a + S1x1x512.size a ≤ S256x1x512.size a
  inb_S256x1x512_S1x1x512_249_0_0 : ∀ a, (![249, 0, 0] : Fin 3 → Nat) a + S1x1x512.size a ≤ S256x1x512.size a
  inb_S256x1x512_S1x1x512_250_0_0 : ∀ a, (![250, 0, 0] : Fin 3 → Nat) a + S1x1x512.size a ≤ S256x1x512.size a
  inb_S256x1x512_S1x1x512_251_0_0 : ∀ a, (![251, 0, 0] : Fin 3 → Nat) a + S1x1x512.size a ≤ S256x1x512.size a
  inb_S256x1x512_S1x1x512_252_0_0 : ∀ a, (![252, 0, 0] : Fin 3 → Nat) a + S1x1x512.size a ≤ S256x1x512.size a
  inb_S256x1x512_S1x1x512_253_0_0 : ∀ a, (![253, 0, 0] : Fin 3 → Nat) a + S1x1x512.size a ≤ S256x1x512.size a
  inb_S256x1x512_S1x1x512_254_0_0 : ∀ a, (![254, 0, 0] : Fin 3 → Nat) a + S1x1x512.size a ≤ S256x1x512.size a
  inb_S256x1x512_S1x1x512_255_0_0 : ∀ a, (![255, 0, 0] : Fin 3 → Nat) a + S1x1x512.size a ≤ S256x1x512.size a
  hcc0_scratch0 : 2 + S16.numel ≤ 18

class Facts₀ : Prop where
  k0_r1 : K0.R1.Facts₀
  k0_r2 : K0.R2.Facts₀
  shapes1 : Shapes1.Facts₀
attribute [instance] Facts₀.k0_r1 Facts₀.k0_r2 Facts₀.shapes1

variable [Facts₀]

abbrev cc0_scratch0 : DmaSems sig S16 := SemArray.consecutive 2 S16 hcc0_scratch0

abbrev spec0_0 : Pipeline.WinSpec sig grid0.rank :=
  Pipeline.WinSpec.ofSpec (Memref.whole main_call0_v14) S256x1x512.size reads0_0 false false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_0 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S1024x200x512 : Shape := ⟨3, ![1024, 200, 512]⟩
abbrev S1024x512 : Shape := ⟨2, ![1024, 512]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 62
  | .vmem => 0
  | .smem => 0
  | _ => 0

abbrev bufTy : (tb : Table) → Fin (tcTables nBuf tb) → BufTy
  | .hbm, ⟨0, _⟩ => ⟨S1024x200x512, .f32⟩
  | .hbm, ⟨1, _⟩ => ⟨S1024x512, .f32⟩
  | .hbm, ⟨2, _⟩ => ⟨S1024, .f32⟩
  | .hbm, ⟨3, _⟩ => ⟨S1024, .i32⟩
  | .hbm, ⟨4, _⟩ => ⟨S1024, .i32⟩
  | .hbm, ⟨5, _⟩ => ⟨S_, .f32⟩
  | .hbm, ⟨6, _⟩ => ⟨S1024, .f32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S1024, .i1⟩
  | .hbm, ⟨12, _⟩ => ⟨S1024, .i1⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x1, .i32⟩
  | .hbm, ⟨39, _⟩ => ⟨S1024x2, .i32⟩
  | .hbm, ⟨40, _⟩ => ⟨S1024x512, .f32⟩
  | .hbm, ⟨41, _⟩ => ⟨S1024x1, .i1⟩
  | .hbm, ⟨42, _⟩ => ⟨S1024x512, .i1⟩
  | .hbm, ⟨43, _⟩ => ⟨S1024x512, .f32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1024x1, .i32⟩
  | .hbm, ⟨60, _⟩ => ⟨S1024x2, .i32⟩
  | .hbm, ⟨61, _⟩ => ⟨S1024x200x512, .f32⟩
  | _, _ => ⟨S1024x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_v0 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  natLt_1_32 : 1 < 32
  bcast_S1024_S1024x1_0 : S1024.BroadcastsInDim S1024x1 (![0] : Fin 1 → Fin S1024x1.rank)
  concatenates_S1024x1_S1024x1_S1024x2_d1 : Shape.Concatenates [S1024x1, S1024x1] S1024x2 1
  bcast_S1024x1_S1024x512_0_1 : S1024x1.BroadcastsInDim S1024x512 (![0, 1] : Fin 2 → Fin S1024x512.rank)
  gather_S1024x200x512_S1024x2_S1024x512_1_01_n_n_01_1_11512_wf : GatherDims.WF S1024x200x512 S1024x2 S1024x512 [1] [0, 1] [] [0, 1] [] 1 ![1, 1, 512]
  scatter_S1024x200x512_S1024x2_S1024x512_1_01_01_1_wf : ScatterDims.WF S1024x200x512 S1024x2 S1024x512 [1] [0, 1] [0, 1] 1

variable [Facts₀]

def gather_S1024x200x512_S1024x2_S1024x512_1_01_n_n_01_1_11512 : GatherDims S1024x200x512 S1024x2 S1024x512 where
  offsetDims := [1]
  collapsedSliceDims := [0, 1]
  operandBatchingDims := []
  startIndicesBatchingDims := []
  startIndexMap := [0, 1]
  indexVectorDim := 1
  sliceSizes := ![1, 1, 512]
  wf := gather_S1024x200x512_S1024x2_S1024x512_1_01_n_n_01_1_11512_wf
def scatter_S1024x200x512_S1024x2_S1024x512_1_01_01_1 : ScatterDims S1024x200x512 S1024x2 S1024x512 where
  updateWindowDims := [1]
  insertedWindowDims := [0, 1]
  scatterDimsToOperandDims := [0, 1]
  indexVectorDim := 1
  wf := scatter_S1024x200x512_S1024x2_S1024x512_1_01_01_1_wf

class Facts : Prop extends Facts₀ where

variable [Facts]
-- ==== Proof.LaunchIdeal.lean ====
/-
  The launch of the scatter program.

  @main is twenty host operations and then one kernel region. The host operations compute, for each of the 1024
  environments, the word that says whether it accepts its observation and the slot it writes, copy the observations
  into a [1024, 1, 512] array and copy the bank into the result buffer. The region is a pipeline over four grid
  points: the two tables of words are prefetched, the observations are staged 256 rows at a time, and at each point
  the body copies the staged row of each accepting environment into its slot of the result buffer by transfers on
  sixteen semaphores of its own, waiting for all of them before the point ends.

  The result buffer is no window of the pipeline, so the run accounts for it through the body's invariant: before
  point t the buffer holds, whole, the contents "Yt t" (a parameter: what the bank is after t points), beside the
  sixteen semaphores at zero and the two tables, which the body reads. Given that the body, at every point, takes the
  invariant at t to the invariant at t + 1, the program runs to the end from any memory, the result buffer ends at
  "Yt 4", and every other buffer the host operations or the arguments own ends as the host operations left it.
-/
import proofs.«427608_j71184787964323_3_alg».proof.Proof.Gen.KernelIdeal.Launch
import Idealize.ShloMosaic.Lib.Pipeline.Frame
import Idealize.ShloMosaic.Lib.Pipeline.Routed

noncomputable section

namespace Cert.KernelIdeal.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose)

variable {F : FTy → Type} [FloatOps F]

/-! ## The algebra, the semaphores, the contents at the region's entry -/

/-- The proof's user algebra: the pipeline's rounds beside the counters a transfer's invariant draws its tokens from. -/
abbrev UC : Type := Pipeline.UC sig nD τ

local notation "𝕄" => MT nD τ sig Unit (Elt F) ℕ UC ℕ

/-- The pipeline's algebra is the left component. -/
abbrev EP : Emb (UR sig nD τ) (MT nD τ sig Unit (Elt F) ℕ UC ℕ) := embL

/-- The body's own sixteen semaphores: numbers 2 to 17 of the pool. -/
abbrev osem : Fin 16 → SemLoc sig := fun j => .dma ⟨2 + j.val, by have := j.isLt; show 2 + j.val < 18; omega⟩

/-- They are scoped, distinct, and none is a staging semaphore. -/
theorem ownSemFacts : Pipeline.OwnSemFacts spec0 osem := by decide

variable (m : (ℓ : Loc nD τ sig) → Buf (Elt F) ℓ)

/-- Every buffer of core c when the region is entered: the twenty host operations have run on the launch memory. -/
abbrev V (c : Dev nD) (b : Ref sig .tc) : Buf (Elt F) ((c : Thread nD τ).loc b) :=
  StableHlo.after hostOps0 (fun b => m (c, b)) b

/-! ## The proof data -/

/-- The body's invariant when the result buffer holds W: the buffer whole, the sixteen semaphores at zero, the
    tables at the contents the region read, and the scoped buffers the pipeline does not stage. -/
def ΦAt (pf : pre0.Contents (Elt F)) (c : Dev nD) (W : Buf (Elt F) ((c : Thread nD τ).loc main_v0_0)) : sProp 𝕄 :=
  iprop((((c : Thread nD τ).loc main_v0_0) ↦{fullShare} W) ∗ Pipeline.ownSems0 osem c
    ∗ Pipeline.prefHeld pre0 c (fun _ => fullShare.right) pf
    ∗ Pipeline.scopedRest (Ix := Unit) (Name := ℕ) (U := UC) (Lvl := ℕ) (Val := Elt F) spec0 c)

/-- The proof data on core c, at tables' contents a and a family Yt of contents of the result buffer: the staged array
    is the copy of the observations; the body leaves in the staging buffer the block it found there; before point t
    the invariant holds the result buffer at Yt t; nothing is owed. -/
def dats (a : (p : Fin 1) → (pcfgs (F := F) p).Adm)
    (Yt : (c : Dev nD) → ℕ → Buf (Elt F) ((c : Thread nD τ).loc main_v0_0)) (p : Fin 1) (c : Dev nD) :
    Dat τ (Elt F) Unit ℕ UC ℕ (Pipeline.pin (pcfgs (F := F)) a p) c where
  A w := V m c (Pipeline.arrRef spec0 w)
  after w t := match w with
    | ⟨0, _⟩ => (((Pipeline.pin (pcfgs (F := F)) a p).win 0).blk t).view.read (Elt F) (V m c main_call0_v14)
  Φ t := ΦAt (a p).1 c (Yt c t.val)
  q _ := fullShare
  owed _ := 0

/-! ## What the host operations leave alone, and the tables they make -/

/-- The twenty references the host operations write, in order. -/
def written : List (Ref sig .tc) :=
  [main_call0_cst, main_call0_v0, main_call0_v1, main_call0_c, main_call0_v2, main_call0_v3, main_call0_v4, main_call0_v5,
   main_call0_v6, main_v0_1, main_call0_c_0, main_call0_v8, main_call0_v9, main_call0_c_1, main_call0_v10, main_call0_v11,
   main_call0_v12, main_call0_v13, main_call0_v14, main_v0_0]

omit [FloatOps F] in
/-- An operation that writes one listed reference writes within the list. -/
theorem writes_sub_of {op : HloOp τ sig (Elt F)} {y : Ref sig .tc} (h : op.writes = {Proc.devRef .tc y}) (hy : y ∈ written) :
    op.writes ⊆ (written.map (Proc.devRef (τ := τ) .tc)).toFinset := by
  rw [h]; exact Finset.singleton_subset_iff.mpr (List.mem_toFinset.mpr (List.mem_map_of_mem hy))

/-- Every host operation writes within the list. -/
theorem written_sub : (hostOps0 (F := F)).Forall fun op => op.writes ⊆ (written.map (Proc.devRef (τ := τ) .tc)).toFinset :=
  ⟨writes_sub_of rfl (by decide), writes_sub_of rfl (by decide), writes_sub_of rfl (by decide), writes_sub_of rfl (by decide),
   writes_sub_of rfl (by decide), writes_sub_of rfl (by decide), writes_sub_of rfl (by decide), writes_sub_of rfl (by decide),
   writes_sub_of rfl (by decide), writes_sub_of rfl (by decide), writes_sub_of rfl (by decide), writes_sub_of rfl (by decide),
   writes_sub_of rfl (by decide), writes_sub_of rfl (by decide), writes_sub_of rfl (by decide), writes_sub_of rfl (by decide),
   writes_sub_of rfl (by decide), writes_sub_of rfl (by decide), writes_sub_of rfl (by decide), writes_sub_of rfl (by decide)⟩

/-- A reference the host operations do not write reaches the region, and the end, as launched: the five arguments do. -/
theorem V_unwritten (c : Dev nD) (r : Ref sig .tc) (hr : r ∉ written) : V m c r = m ((c : Thread nD τ).loc r) :=
  StableHlo.after_of_writes_sub hostOps0 (fun b => m (c, b)) written_sub hr

theorem V_arg0 (c : Dev nD) : V m c main_arg0 = m ((c : Thread nD τ).loc main_arg0) := V_unwritten m c main_arg0 (by decide)
theorem V_arg1 (c : Dev nD) : V m c main_arg1 = m ((c : Thread nD τ).loc main_arg1) := V_unwritten m c main_arg1 (by decide)
theorem V_arg2 (c : Dev nD) : V m c main_arg2 = m ((c : Thread nD τ).loc main_arg2) := V_unwritten m c main_arg2 (by decide)
theorem V_arg3 (c : Dev nD) : V m c main_arg3 = m ((c : Thread nD τ).loc main_arg3) := V_unwritten m c main_arg3 (by decide)
theorem V_arg4 (c : Dev nD) : V m c main_arg4 = m ((c : Thread nD τ).loc main_arg4) := V_unwritten m c main_arg4 (by decide)

/-- The tables' contents the region reads: what the host operations left in the two tables. Any contents are
    admissible: the staged blocks do not depend on them. -/
def adm : (p : Fin 1) → (pcfgs (F := F) p).Adm := fun _ => ⟨fun k => V m 0 (pre0.ref k), trivial⟩

/-- They are the tables' contents at the region's entry, on the one core. -/
theorem hpf_adm (c : Dev nD) (k : Fin pre0.K) : V m c (pre0.ref k) = (adm m 0).1 k := by
  obtain rfl : c = 0 := Subsingleton.elim c 0
  rfl

/-! ## What the body's proof opens the data with -/

/-- The sixteen semaphores at zero, one by one. -/
theorem ownSems0_eq (c : Dev nD) :
    (Pipeline.ownSems0 (Ix := Unit) (Name := ℕ) (U := UC) (Lvl := ℕ) (Val := Elt F) (τ := τ) osem c : sProp 𝕄)
      = iprop(semVal ((c : Thread nD τ), osem 0) 0 ∗ semVal ((c : Thread nD τ), osem 1) 0 ∗ semVal ((c : Thread nD τ), osem 2) 0
          ∗ semVal ((c : Thread nD τ), osem 3) 0 ∗ semVal ((c : Thread nD τ), osem 4) 0 ∗ semVal ((c : Thread nD τ), osem 5) 0
          ∗ semVal ((c : Thread nD τ), osem 6) 0 ∗ semVal ((c : Thread nD τ), osem 7) 0 ∗ semVal ((c : Thread nD τ), osem 8) 0
          ∗ semVal ((c : Thread nD τ), osem 9) 0 ∗ semVal ((c : Thread nD τ), osem 10) 0 ∗ semVal ((c : Thread nD τ), osem 11) 0
          ∗ semVal ((c : Thread nD τ), osem 12) 0 ∗ semVal ((c : Thread nD τ), osem 13) 0 ∗ semVal ((c : Thread nD τ), osem 14) 0
          ∗ semVal ((c : Thread nD τ), osem 15) 0) :=
  Pipeline.ownSems0_eq_of_list c osem [0, 1, 2, 3, 4, 5, 6, 7, 8, 9, 10, 11, 12, 13, 14, 15] (by decide) (by decide)

/-- The block index's first coordinate is the point's number. -/
theorem transform_coord (u : Fin grid0.N) : cc0_transform_0 (grid0.coords u) (0 : Fin 3) = u.val := by
  obtain rfl | rfl | rfl | rfl := fin_N0 u <;> decide

variable (a : (p : Fin 1) → (pcfgs (F := F) p).Adm)
  (Yt : (c : Dev nD) → ℕ → Buf (Elt F) ((c : Thread nD τ).loc main_v0_0))

/-- Before point t the result buffer holds Yt t, -/
theorem Φ_castSucc (c : Dev nD) (t : Fin (Pipeline.pin (pcfgs (F := F)) a 0).N) :
    (dats m a Yt 0 c).Φ t.castSucc = ΦAt (a 0).1 c (Yt c t.val) := rfl

/-- and after it Yt (t + 1). -/
theorem Φ_succ (c : Dev nD) (t : Fin (Pipeline.pin (pcfgs (F := F)) a 0).N) :
    (dats m a Yt 0 c).Φ t.succ = ΦAt (a 0).1 c (Yt c (t.val + 1)) := rfl

/-- The block of observations moves with the point, so it is fetched anew at every point. -/
theorem fetch_all (t : Fin (Pipeline.pin (pcfgs (F := F)) a 0).N) : ((Pipeline.pin (pcfgs (F := F)) a 0).win 0).fetch t = true := by
  -- the block index's first coordinate is the point's number
  have hidx : ∀ u : Fin (Pipeline.pin (pcfgs (F := F)) a 0).N, ((Pipeline.pin (pcfgs (F := F)) a 0).win 0).index u (0 : Fin 3) = u.val :=
    fun u => transform_coord u
  unfold Pipeline.Window.fetch
  rw [show ((Pipeline.pin (pcfgs (F := F)) a 0).win 0).isOut = false from rfl]
  by_cases h0 : t.val = 0
  · simp [h0]
  · have hne : ∃ h : 0 < t.val, ((Pipeline.pin (pcfgs (F := F)) a 0).win 0).index t
        ≠ ((Pipeline.pin (pcfgs (F := F)) a 0).win 0).index ⟨t.val - 1, Nat.lt_of_le_of_lt (Nat.sub_le _ _) t.isLt⟩ :=
      ⟨Nat.pos_of_ne_zero h0, fun h => by
        have h' := congrFun h (0 : Fin 3)
        rw [hidx, hidx] at h'
        have h'' : t.val = t.val - 1 := h'
        omega⟩
    simp [hne]

/-- What the body finds in the staging buffer at point t: that point's 256 rows of the observations. -/
theorem before_eq (c : Dev nD) (t : Fin (Pipeline.pin (pcfgs (F := F)) a 0).N) (d) :
    (dats m a Yt 0 c).before 0 t d
      = (((Pipeline.pin (pcfgs (F := F)) a 0).win 0).blk t).view.read (Elt F) (V m c main_call0_v14) := by
  rw [(dats m a Yt 0 c).before_fetched 0 t (fetch_all a t)]
  rfl

/-- which is also what it leaves there. -/
theorem after_eq (c : Dev nD) (t : Fin (Pipeline.pin (pcfgs (F := F)) a 0).N) :
    (dats m a Yt 0 c).after 0 t
      = (((Pipeline.pin (pcfgs (F := F)) a 0).win 0).blk t).view.read (Elt F) (V m c main_call0_v14) := rfl

/-! ## The run -/

/-- What the run leaves: the result buffer at Y, every other unscoped buffer as the host operations left it. -/
def Post (Y : (c : Dev nD) → Buf (Elt F) ((c : Thread nD τ).loc main_v0_0)) (r : PUnit × MemSt nD τ sig (Elt F)) : Prop :=
  ∀ c : Dev nD, r.2.mem ((c : Thread nD τ).loc main_v0_0) = Y c
    ∧ ∀ b : Ref sig .tc, b.isScoped = false → b ≠ main_v0_0 → r.2.mem ((c : Thread nD τ).loc b) = V m c b

/-- The result buffer is among the buffers that are neither scoped, nor the staged array, nor a table. -/
theorem v0_0_mem : ({main_v0_0} : Finset (Ref sig .tc)) ⊆ Pipeline.restRefsP sig pre0 spec0 := by decide

/-- The grid has four points, at any contents of the tables. -/
theorem N_pin (a : (p : Fin 1) → (pcfgs (F := F) p).Adm) : (Pipeline.pin (pcfgs (F := F)) a 0).N = 4 := N_0

/-- The bypassing buffers: unscoped, not the staged array, not a table, not the result buffer; each whole at the contents
    the host operations left. -/
def Zc (c : Dev nD) : sProp 𝕄 :=
  bigSep (Pipeline.restRefsP sig pre0 spec0 \ {main_v0_0}) fun b => (((c : Thread nD τ).loc b) ↦{fullShare} V m c b : sProp 𝕄)

theorem run_main (g : Dev nD → PrngReg) (𝒱₀ : Variants)
    (a : (p : Fin 1) → (pcfgs (F := F) p).Adm) (hpf : ∀ c k, V m c (pre0.ref k) = (a 0).1 k)
    (Yt : (c : Dev nD) → ℕ → Buf (Elt F) ((c : Thread nD τ).loc main_v0_0)) (hY0 : ∀ c, Yt c 0 = V m c main_v0_0)
    (hbody : ∀ c, BodyObligationLoose (dats m a Yt 0 c) defs₀ 𝒱₀ () Set.univ) :
    θ_run defs (onTc (τ := τ) (main (F := F))) ⟨m, fun _ => 0, g⟩ (Post m fun c => Yt c 4) :=
  Pipeline.θ_run_region_pf (pcfgs (F := F)) a (dats m a Yt) () (cellOf_inj a) 0 winFacts0.to₀ ownSemFacts preFacts0 EP defs₀ 𝒱₀ m g main
    hbody block_pos0 arr_whole0 stage_whole0 (fun _ _ => rfl)
    (G := fun _ => iprop(emp))
    (u₀ := (initOf (Pipeline.cells (Pipeline.pin (pcfgs (F := F)) a) (cellOf_inj a)) (Pipeline.launchToks (Pipeline.pin (pcfgs (F := F)) a) (cellOf_inj a)), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmainP_prefix (pcfgs (F := F)) 0 defs₀ 𝒱₀ m main hostOps0 hostOps0_sub
      (by simp only [hostOps0, List.Forall]; repeat' constructor) (fun c => main_chain c))
    (hsplit := fun c => Pipeline.arrays_split (cfgs := Pipeline.pin (pcfgs (F := F)) a) (dats := dats m a Yt) (p := 0)
      winFacts0.arr_inj c arr_whole0 ((dats m a Yt 0 c).share_full fun _ => rfl) (V m c) _ fun _ => rfl)
    (hpf := hpf)
    (X := fun c => iprop((((c : Thread nD τ).loc main_v0_0) ↦{fullShare} V m c main_v0_0) ∗ Pipeline.ownSems0 osem c))
    (Y := fun c => (((c : Thread nD τ).loc main_v0_0) ↦{fullShare} Yt c 4 : sProp 𝕄))
    (Z := Zc m)
    (hX := fun c => by
      rw [show Pipeline.unscopedRestP (Ix := Unit) (Name := ℕ) (U := UC) (Lvl := ℕ) pre0 (Pipeline.pin (pcfgs (F := F)) a 0).spec c (V m c)
          = iprop((((c : Thread nD τ).loc main_v0_0) ↦{fullShare} V m c main_v0_0) ∗ Zc m c)
        from by unfold Pipeline.unscopedRestP Zc; rw [bigSep_sdiff_split v0_0_mem, BI.bigSep_singleton]; rfl]
      iintro ⟨⟨H0, HZ⟩, Hos, -, -, -, -⟩
      imodintro
      isplitr [HZ]
      · isplitl [H0]; · iexact H0
        iexact Hos
      · iexact HZ)
    (hin := fun c => by
      show _ ⊢ ΦAt (a 0).1 c (Yt c 0)
      rw [hY0]; unfold ΦAt
      iintro ⟨⟨H0, Hos⟩, Ht, Hr⟩
      isplitl [H0]; · iexact H0
      isplitl [Hos]; · iexact Hos
      isplitl [Ht]; · iexact Ht
      iexact Hr)
    (hout := fun c => by
      show ΦAt (a 0).1 c (Yt c (Fin.last (Pipeline.pin (pcfgs (F := F)) a 0).N).val) ⊢ _
      rw [Fin.val_last, N_pin]; unfold ΦAt
      iintro ⟨H0, Hos, -, Hr⟩
      isplitl [H0]; · iexact H0
      isplitl [Hos]; · iexact Hos
      iexact Hr)
    (QY := fun c s => s.mem ((c : Thread nD τ).loc main_v0_0) = Yt c 4
      ∧ ∀ b ∈ Pipeline.restRefsP sig pre0 spec0 \ {main_v0_0}, s.mem ((c : Thread nD τ).loc b) = V m c b)
    (hY := fun c s' => by
      unfold Zc
      iintro ⟨H0, HZ, HSI⟩
      icombine HSI H0 gives %h0
      ihave H := (pointsTo_read_all (Pipeline.restRefsP sig pre0 spec0 \ {main_v0_0}) (fun b => (c : Thread nD τ).loc b) (V m c) s') $$ [HZ HSI]
      · isplitl [HZ] <;> iassumption
      icases H with ⟨%hZ, HSI⟩
      imodintro
      isplitr; · ipureintro; exact ⟨Buf.eq_of_forall_mem_univ h0, hZ⟩
      iexact HSI)
    (hQ := fun s h c => by
      obtain ⟨ha, ht, h0, hr⟩ := h c
      refine ⟨h0, fun b hs hb => ?_⟩
      classical
      by_cases hb1 : b ∈ Finset.univ.image (Pipeline.arrRef spec0)
      · obtain ⟨w, -, rfl⟩ := Finset.mem_image.mp hb1
        exact (ha w).trans ((dats m a Yt 0 c).arrAt_in w (match w with | ⟨0, _⟩ => rfl) _)
      by_cases hb2 : b ∈ Finset.univ.image pre0.ref
      · obtain ⟨k, -, rfl⟩ := Finset.mem_image.mp hb2
        exact (ht k).trans (hpf c k).symm
      refine hr b ?_
      simp only [Finset.mem_sdiff, Finset.mem_filter, Finset.mem_univ, _root_.true_and, Finset.mem_singleton]
      exact ⟨⟨⟨by simp [hs], hb1⟩, hb2⟩, hb⟩)

/-- The run at the tables the host operations make. -/
theorem run_main_adm (g : Dev nD → PrngReg) (𝒱₀ : Variants)
    (Yt : (c : Dev nD) → ℕ → Buf (Elt F) ((c : Thread nD τ).loc main_v0_0)) (hY0 : ∀ c, Yt c 0 = V m c main_v0_0)
    (hbody : ∀ c, BodyObligationLoose (dats m (adm m) Yt 0 c) defs₀ 𝒱₀ () Set.univ) :
    θ_run defs (onTc (τ := τ) (main (F := F))) ⟨m, fun _ => 0, g⟩ (Post m fun c => Yt c 4) :=
  run_main m g 𝒱₀ (adm m) (hpf_adm m) Yt hY0 hbody

/-- info: 'Cert.KernelIdeal.Routed.run_main' depends on axioms: [propext, Classical.choice, Quot.sound] -/
#guard_msgs in #print axioms run_main

end Cert.KernelIdeal.Routed

end
-- ==== Proof.BodyIdeal.lean ====
/-
  The body's obligation, from one grid point's run.

  One run of the body at grid point t reads the two tables of words and the 256 staged rows of observations, and takes
  the bank from its contents f to "pointOut t (mask words) (slot words) (staged rows) f", the sixteen semaphores back at
  zero, nothing owed. Taking that run as given, this module states the bank point by point — at launch the copy the
  host operations made, after point t what that point's run makes of the bank after point t - 1 — and shows that the
  body meets the pipeline's obligation with it: before point t the invariant holds the bank after t points, the run is
  the given one on the staged block of point t, and after it the invariant holds the bank after t + 1 points, the
  staged block as it was found. With the launch this gives the whole program's run: the bank ends as the fourth point
  leaves it.
-/
import proofs.«427608_j71184787964323_3_alg».proof.Proof.LaunchIdeal

noncomputable section

namespace Cert.KernelIdeal.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose)

variable {F : FTy → Type} [FloatOps F]

local notation "𝕄" => MT nD τ sig Unit (Elt F) ℕ UC ℕ

/-! ## The tables, one by one -/

/-- The two tables held at one share: the slot words and the mask words. -/
theorem prefHeld_eq (c : Dev nD) (q : PosShare TreeShare) (pf : pre0.Contents (Elt F)) :
    (Pipeline.prefHeld pre0 c (fun _ => q) pf : sProp 𝕄)
      = iprop((((c : Thread nD τ).loc main_call0_v12) ↦{q} pf 0) ∗ (((c : Thread nD τ).loc main_call0_v13) ↦{q} pf 1)) := by
  unfold Pipeline.prefHeld
  exact bigSep_univ_eq_bigSepL [(0 : Fin pre0.K), 1] (by decide) (by decide) _

/-! ## One grid point's run, and the bank point by point -/

/-- One grid point's run of the body: holding the slot words ai (each below 200) and the mask words wm at any share,
    the staged block at x3, the bank whole at f, the sixteen semaphores at zero and owing nothing, the body at point t
    runs to the same with the bank at pointOut t wm ai x3 f. -/
def PointRun (𝒱₀ : Variants)
    (pointOut : Fin grid0.N → Vec F S1024 .i32 → Vec F S1024 .i32 → Vec F S256x1x512 .f32
      → Vec F S1024x200x512 .f32 → Vec F S1024x200x512 .f32) : Prop :=
  ∀ (c : Dev nD) (t : Fin grid0.N) (arg3 : Memref sig .tc .vmem S256x1x512 .f32) (harg3 : arg3.IsWhole) (q : PosShare TreeShare)
    (ai wm : Vec F S1024 .i32) (_ : ∀ y, (ai y : BitVec 32).toNat < 200) (x3 : Vec F S256x1x512 .f32)
    (f : Buf (Elt F) ((c : Thread nD τ).loc main_v0_0)) (W : Waits sig Unit),
    iprop((((c : Thread nD τ).loc main_call0_v12) ↦{q} ai) ∗ (((c : Thread nD τ).loc main_call0_v13) ↦{q} wm)
        ∗ owns (c : Thread nD τ) arg3 fullShare x3 ∗ (((c : Thread nD τ).loc main_v0_0) ↦{fullShare} f)
        ∗ Pipeline.ownSems0 osem c ∗ owes (c : Thread nD τ) 0 W)
      ⊢ (wp frame (wpE (defs₀ (F := F)) 𝒱₀ (c : Thread nD τ) none) Set.univ
          (cc0__scatter_kernel (grid0.coords t) (Memref.whole main_call0_v12) (Memref.isWhole_whole _)
            (Memref.whole main_call0_v13) (Memref.isWhole_whole _) arg3 harg3
            (Memref.whole main_v0_0) (Memref.isWhole_whole _) (Memref.whole main_v0_0) (Memref.isWhole_whole _) cc0_scratch0)
          (fun _ => iprop((((c : Thread nD τ).loc main_call0_v12) ↦{q} ai) ∗ (((c : Thread nD τ).loc main_call0_v13) ↦{q} wm)
            ∗ owns (c : Thread nD τ) arg3 fullShare x3 ∗ (((c : Thread nD τ).loc main_v0_0) ↦{fullShare} pointOut t wm ai x3 f)
            ∗ Pipeline.ownSems0 osem c ∗ ∃ W', owes (c : Thread nD τ) 0 W')) : sProp 𝕄)

variable (m : (ℓ : Loc nD τ sig) → Buf (Elt F) ℓ)
  (pointOut : Fin grid0.N → Vec F S1024 .i32 → Vec F S1024 .i32 → Vec F S256x1x512 .f32
      → Vec F S1024x200x512 .f32 → Vec F S1024x200x512 .f32)
  (a : (p : Fin 1) → (pcfgs (F := F) p).Adm)

/-- The staged block at point t: that point's 256 rows of the observations. -/
abbrev blockAt (c : Dev nD) (t : Fin grid0.N) : Vec F S256x1x512 .f32 :=
  (((Pipeline.pin (pcfgs (F := F)) a 0).win 0).blk t).view.read (Elt F) (V m c main_call0_v14)

/-- The bank after t points: at launch the host operations' copy; each point's run applied to the bank before it, on
    the mask words, the slot words and that point's staged block. -/
def Ytab (c : Dev nD) : ℕ → Buf (Elt F) ((c : Thread nD τ).loc main_v0_0)
  | 0 => V m c main_v0_0
  | t + 1 => if h : t < grid0.N then pointOut ⟨t, h⟩ ((a 0).1 1) ((a 0).1 0) (blockAt m a c ⟨t, h⟩) (Ytab c t) else Ytab c t

theorem Ytab_zero (c : Dev nD) : Ytab m pointOut a c 0 = V m c main_v0_0 := rfl

theorem Ytab_succ (c : Dev nD) (t : Fin grid0.N) :
    Ytab m pointOut a c (t.val + 1) = pointOut t ((a 0).1 1) ((a 0).1 0) (blockAt m a c t) (Ytab m pointOut a c t.val) := by
  show (if h : t.val < grid0.N then _ else _) = _
  rw [dif_pos t.isLt]

/-! ## The obligation -/

theorem body_obligation (𝒱₀ : Variants) (hpoint : PointRun (F := F) 𝒱₀ pointOut)
    (hai : ∀ y, ((a 0).1 0 y : BitVec 32).toNat < 200) (c : Dev nD) :
    BodyObligationLoose (dats m a (Ytab m pointOut a) 0 c) defs₀ 𝒱₀ () Set.univ := by
  refine (show BodyObligation (dats m a (Ytab m pointOut a) 0 c) defs₀ 𝒱₀ () Set.univ from fun t => ?_).loose
  rw [bigSep_W0, bigSep_W0, Φ_castSucc, Φ_succ, Ytab_succ m pointOut a c t]
  simp only [before_eq, after_eq]
  unfold ΦAt Dat.owesAt Pipeline.owesWithin
  rw [scopedRest0_eq, prefHeld_eq,
    show (dats m a (Ytab m pointOut a) 0 c).owed t.castSucc = 0 from rfl,
    show (dats m a (Ytab m pointOut a) 0 c).owed t.succ = 0 from rfl]
  iintro ⟨⟨H0, Hos, ⟨H12, H13⟩, -⟩, ⟨%W, -, HO⟩, ⟨%d, Hst⟩⟩
  iapply (wp_wand_r frame _ Set.univ)
  isplitl [H0 Hos H12 H13 HO Hst]
  · iapply (hpoint c t _ _ fullShare.right ((a 0).1 0) ((a 0).1 1) hai (blockAt m a c t) (Ytab m pointOut a c t.val) W)
    isplitl [H12]; · iexact H12
    isplitl [H13]; · iexact H13
    isplitl [Hst]
    · rw [show blockAt m a c t = (dats m a (Ytab m pointOut a) 0 c).before 0 t d from (before_eq m a (Ytab m pointOut a) c t d).symm]
      iexact Hst
    isplitl [H0]; · iexact H0
    isplitl [Hos]; · iexact Hos
    iexact HO
  · iintro %_ ⟨H12, H13, Hst, H0, Hos, ⟨%W', HO⟩⟩
    isplitl [H0 Hos H12 H13]
    · isplitl [H0]; · iexact H0
      isplitl [Hos]; · iexact Hos
      isplitl [H12 H13]
      · isplitl [H12] <;> iassumption
      · iempintro
    isplitl [HO]
    · iexists W'; isplitr; · ipureintro; exact fun _ _ => Or.inl trivial
      iexact HO
    · iexact Hst

/-! ## The program's run -/

/-- From one point's run: the program runs to the end, the bank ends as the fourth point leaves it, every other
    buffer as the host operations left it. The tables' contents a are those at the region's entry (hpf), the slot
    words among them below 200 (hai). -/
theorem run_of_point (g : Dev nD → PrngReg) (𝒱₀ : Variants) (hpoint : PointRun (F := F) 𝒱₀ pointOut)
    (hpf : ∀ c k, V m c (pre0.ref k) = (a 0).1 k) (hai : ∀ y, ((a 0).1 0 y : BitVec 32).toNat < 200) :
    θ_run defs (onTc (τ := τ) (main (F := F))) ⟨m, fun _ => 0, g⟩ (Post m fun c => Ytab m pointOut a c 4) :=
  run_main m g 𝒱₀ a hpf (Ytab m pointOut a) (fun _ => rfl) (body_obligation m pointOut a 𝒱₀ hpoint hai)

/-- The tables the host operations make: the slot words, -/
theorem adm_slot : (adm m 0).1 0 = V m 0 main_call0_v12 := rfl
/-- and the mask words. -/
theorem adm_mask : (adm m 0).1 1 = V m 0 main_call0_v13 := rfl

/-- The same at the tables the host operations make, their slot words below 200. -/
theorem run_of_point_adm (g : Dev nD → PrngReg) (𝒱₀ : Variants) (hpoint : PointRun (F := F) 𝒱₀ pointOut)
    (hslot : ∀ y, (V m 0 main_call0_v12 y : BitVec 32).toNat < 200) :
    θ_run defs (onTc (τ := τ) (main (F := F))) ⟨m, fun _ => 0, g⟩ (Post m fun c => Ytab m pointOut (adm m) c 4) :=
  run_of_point m pointOut (adm m) g 𝒱₀ hpoint (hpf_adm m) hslot

/-- info: 'Cert.KernelIdeal.Routed.run_of_point_adm' depends on axioms: [propext, Classical.choice, Quot.sound] -/
#guard_msgs in #print axioms run_of_point_adm

end Cert.KernelIdeal.Routed

end
-- ==== Proof.Spec.lean ====
/-
  What the step computes, as one function of its inputs. Env `e` accepts its observation when its mask bit is set;
  it then writes the observation's 512 features into slot `slot e` of its own bank of 200 slots, and every other
  entry of the [1024, 200, 512] array is left as it was. Nothing is added or scaled: each entry of the result is an
  entry of the bank or of the observations, so the same function describes the step over any element type.
-/
import Idealize.ShloMosaic.Lib.ValueIdx

namespace Cert.Scatter

open Idealize.ShloMosaic Idealize.ShloMosaic.ValueIdx

/-- The bank after the step, entry by entry: entry (e, s, d) is observation (e, d) when env e's mask bit is set and
    s is the slot env e writes; otherwise it is the bank's own entry. -/
def updated {α : Type} (mask : (⟨1, ![1024]⟩ : Shape).Idx → BitVec 1) (slot : (⟨1, ![1024]⟩ : Shape).Idx → BitVec 32)
    (bank : (⟨3, ![1024, 200, 512]⟩ : Shape).Idx → α) (obs : (⟨2, ![1024, 512]⟩ : Shape).Idx → α) :
    (⟨3, ![1024, 200, 512]⟩ : Shape).Idx → α :=
  fun y => if mask (ix1 (y 0)) = 1#1 ∧ (y 1).val = (slot (ix1 (y 0))).toNat then obs (ix2 (y 0) (y 2)) else bank y

/-- At an entry of the written row of an accepting env the result is the observation. -/
theorem updated_hit {α : Type} (mask slot) (bank : (⟨3, ![1024, 200, 512]⟩ : Shape).Idx → α) (obs) (y)
    (hm : mask (ix1 (y 0)) = 1#1) (hs : (y 1).val = (slot (ix1 (y 0))).toNat) :
    updated mask slot bank obs y = obs (ix2 (y 0) (y 2)) := by
  unfold updated; rw [if_pos ⟨hm, hs⟩]

/-- Everywhere else the result is the bank's entry. -/
theorem updated_miss {α : Type} (mask slot) (bank : (⟨3, ![1024, 200, 512]⟩ : Shape).Idx → α) (obs) (y)
    (h : ¬(mask (ix1 (y 0)) = 1#1 ∧ (y 1).val = (slot (ix1 (y 0))).toNat)) :
    updated mask slot bank obs y = bank y := by
  unfold updated; rw [if_neg h]

end Cert.Scatter
-- ==== Proof.TablesIdeal.lean ====
/-
  The host stretch of the step, read back as pure functions of the three small inputs. Before the scatter region runs,
  the program computes for each env e: the mask bit (its similarity exceeds one half), that bit widened to a word (the
  table the region branches on), the new count (the old count plus one when the bank is not full and the bit is set),
  and the slot (the drawn index when the bank is full, otherwise the new count less one, not below zero); it also lays
  the observations out as a [1024, 1, 512] array and copies the bank. This module names those functions, says what each
  array holds after the stretch, and shows that under the precondition every env's slot is one of the bank's 200 slots.
-/
import proofs.«427608_j71184787964323_3_alg».proof.Defs
import proofs.«427608_j71184787964323_3_alg».proof.Proof.Gen.KernelIdeal.Launch
import proofs.«427608_j71184787964323_3_alg».proof.Proof.Spec
import Idealize.ShloMosaic.Lib.StableHlo.Run
import Idealize.ShloMosaic.Lib.StableHlo.Predicate
import Idealize.ShloMosaic.Lib.ReduceAll

noncomputable section

namespace Cert.KernelIdeal.Tables

open Cert.KernelIdeal Cert.KernelIdeal.Gen
open Idealize.ShloMosaic Idealize.ShloMosaic.TcCoe Idealize.SL.Sem

variable {F : FTy → Type} [FloatOps F]

/-! ## The functions -/

/-- The mask: bit e is set when env e's similarity exceeds one half. -/
def maskT (sim : FVec F S1024 .f32) : IVec S1024 1 :=
  cmpf .ogt sim (broadcastInDim S1024 ![] bcast_S_S1024 (constant S_ .f32 0x3F000000#32))

/-- The mask widened to words: the table the region branches on. -/
def wordT (sim : FVec F S1024 .f32) : IVec S1024 32 :=
  extui 32 (maskT sim) natLt_1_32

/-- Bit e is set when env e's bank is full (its count is 200). -/
def fullT (mm : IVec S1024 32) : IVec S1024 1 :=
  cmpi .eq mm (broadcastInDim S1024 ![] bcast_S_S1024 (constantI S_ 32 200#32))

/-- The new count: the old count, plus one when the bank is not full and the mask bit is set. -/
def newCountT (sim : FVec F S1024 .f32) (mm : IVec S1024 32) : IVec S1024 32 :=
  addi mm (extui 32 (andi (noti (fullT mm)) (maskT sim)) natLt_1_32)

/-- The slot: the drawn index when the bank is full, otherwise the new count less one, not below zero. -/
def slotT (sim : FVec F S1024 .f32) (mm ri : IVec S1024 32) : IVec S1024 32 :=
  select (fullT mm) ri
    (maxsi (subi (newCountT sim mm) (broadcastInDim S1024 ![] bcast_S_S1024 (constantI S_ 32 1#32)))
      (broadcastInDim S1024 ![] bcast_S_S1024 (constantI S_ 32 0#32)))

/-- The observations laid out as a [1024, 1, 512] array. -/
def obs3 (obs : FVec F S1024x512 .f32) : FVec F S1024x1x512 .f32 :=
  broadcastInDim S1024x1x512 ![0, 2] bcast_S1024x512_S1024x1x512_0_2 obs

/-! ## What the arrays hold after the host stretch -/

variable (m : (ℓ : Loc nD τ sig) → Buf (Elt F) ℓ) (c : Dev nD)

/-- The slot table after the stretch. -/
theorem after_slot :
    (StableHlo.after (hostOps0 (F := F)) (fun b => m (c, b)) (Proc.devRef .tc main_call0_v12) : IVec S1024 32)
      = slotT (m ((c : Thread nD τ).loc main_arg2)) (m ((c : Thread nD τ).loc main_arg3)) (m ((c : Thread nD τ).loc main_arg4)) := by
  after_results
  rfl

/-- The word table after the stretch. -/
theorem after_word :
    (StableHlo.after (hostOps0 (F := F)) (fun b => m (c, b)) (Proc.devRef .tc main_call0_v13) : IVec S1024 32)
      = wordT (m ((c : Thread nD τ).loc main_arg2)) := by
  after_results
  rfl

/-- The mask after the stretch. -/
theorem after_mask :
    (StableHlo.after (hostOps0 (F := F)) (fun b => m (c, b)) (Proc.devRef .tc main_call0_v1) : IVec S1024 1)
      = maskT (m ((c : Thread nD τ).loc main_arg2)) := by
  after_results
  rfl

/-- The new count, the program's second result, after the stretch. -/
theorem after_newCount :
    (StableHlo.after (hostOps0 (F := F)) (fun b => m (c, b)) (Proc.devRef .tc main_v0_1) : IVec S1024 32)
      = newCountT (m ((c : Thread nD τ).loc main_arg2)) (m ((c : Thread nD τ).loc main_arg3)) := by
  after_results
  rfl

/-- The laid-out observations after the stretch. -/
theorem after_obs3 :
    (StableHlo.after (hostOps0 (F := F)) (fun b => m (c, b)) (Proc.devRef .tc main_call0_v14) : FVec F S1024x1x512 .f32)
      = obs3 (m ((c : Thread nD τ).loc main_arg1)) := by
  after_results
  rfl

/-- The bank's copy after the stretch is the bank. -/
theorem after_bank :
    (StableHlo.after (hostOps0 (F := F)) (fun b => m (c, b)) (Proc.devRef .tc main_v0_0) : FVec F S1024x200x512 .f32)
      = m ((c : Thread nD τ).loc main_arg0) := by
  after_results
  rfl

/-- The stretch leaves the five inputs as they were. -/
theorem after_arg0 :
    (StableHlo.after (hostOps0 (F := F)) (fun b => m (c, b)) (Proc.devRef .tc main_arg0) : FVec F S1024x200x512 .f32)
      = m ((c : Thread nD τ).loc main_arg0) := by
  after_results

theorem after_arg1 :
    (StableHlo.after (hostOps0 (F := F)) (fun b => m (c, b)) (Proc.devRef .tc main_arg1) : FVec F S1024x512 .f32)
      = m ((c : Thread nD τ).loc main_arg1) := by
  after_results

theorem after_arg2 :
    (StableHlo.after (hostOps0 (F := F)) (fun b => m (c, b)) (Proc.devRef .tc main_arg2) : FVec F S1024 .f32)
      = m ((c : Thread nD τ).loc main_arg2) := by
  after_results

theorem after_arg3 :
    (StableHlo.after (hostOps0 (F := F)) (fun b => m (c, b)) (Proc.devRef .tc main_arg3) : IVec S1024 32)
      = m ((c : Thread nD τ).loc main_arg3) := by
  after_results

theorem after_arg4 :
    (StableHlo.after (hostOps0 (F := F)) (fun b => m (c, b)) (Proc.devRef .tc main_arg4) : IVec S1024 32)
      = m ((c : Thread nD τ).loc main_arg4) := by
  after_results

/-! ## The region's branch test -/

/-- On the widened bit, "the word is positive" (as the region tests it: compare, widen, compare with zero) says the bit is set. -/
theorem bit_pos_iff : ∀ b : BitVec 1,
    Scalar.cmpi .ne (Scalar.extui (Scalar.cmpi .sgt (b.setWidth 32) 0#32)) 0#32 = 1#1 ↔ b = 1#1 := by
  decide

/-- The region's test on env y's word holds exactly when env y's mask bit is set. -/
theorem word_pos_iff (sim : FVec F S1024 .f32) (y : S1024.Idx) :
    Scalar.cmpi .ne (Scalar.extui (Scalar.cmpi .sgt (wordT sim y) 0#32)) 0#32 = 1#1 ↔ maskT sim y = 1#1 :=
  bit_pos_iff (maskT sim y)

/-! ## The precondition decoded: every slot is one of the bank's 200 -/

/-- A signed word between 0 and n (n small) reads, unsigned, at most n. -/
theorem toNat_le_of_signed (w : BitVec 32) (n : Nat) (hn : n < 2 ^ 31)
    (h0 : IntOp.cmpi .sge w 0#32 = 1#1) (h1 : IntOp.cmpi .sle w (BitVec.ofNat 32 n) = 1#1) : w.toNat ≤ n := by
  unfold IntOp.cmpi at h0 h1
  rw [StableHlo.Predicate.ofBool_eq_one_iff] at h0 h1
  simp only [BitVec.sle, decide_eq_true_eq] at h0 h1
  rw [StableHlo.Predicate.toInt_ofNat_small n hn] at h1
  have z : (0#32 : BitVec 32).toInt = 0 := by decide
  rw [z] at h0
  have hl := w.isLt
  rw [BitVec.toInt_eq_toNat_cond] at h0 h1
  split at h0 <;> omega

/-- A signed word at least 0 and below n (n small) reads, unsigned, below n. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  unfold IntOp.cmpi at h0 h1
  rw [StableHlo.Predicate.ofBool_eq_one_iff] at h0 h1
  simp only [BitVec.sle, BitVec.slt, decide_eq_true_eq] at h0 h1
  rw [StableHlo.Predicate.toInt_ofNat_small n hn] at h1
  have z : (0#32 : BitVec 32).toInt = 0 := by decide
  rw [z] at h0
  have hl := w.isLt
  rw [BitVec.toInt_eq_toNat_cond] at h0 h1
  split at h0 <;> omega

/-- The slot of one env, as a function of its count w, its drawn index r and its mask bit b: when the count is at most
    200 and the drawn index below 200, the slot is below 200. A full bank takes the drawn index; otherwise the count
    is below 200, the new count at most 200, and one less than it (or zero, when the new count is zero) is below 200. -/
theorem slot_word_lt (w r : BitVec 32) (b : BitVec 1) (hw : w.toNat ≤ 200) (hr : r.toNat < 200) :
    (Scalar.select (IntOp.cmpi .eq w 200#32) r
      (IntOp.maxsi (IntOp.subi (IntOp.addi w ((IntOp.andi (~~~(IntOp.cmpi .eq w 200#32)) b).setWidth 32)) 1#32) 0#32)).toNat < 200 := by
  by_cases hf : w = 200#32
  · have e : IntOp.cmpi .eq w 200#32 = 1#1 := StableHlo.Predicate.cmpi_eq_iff.2 hf
    rw [e]
    exact hr
  · have e : IntOp.cmpi .eq w 200#32 = 0#1 := by
      rcases BitVec.eq_zero_or_eq_one (IntOp.cmpi .eq w 200#32) with h | h
      · exact h
      · exact absurd (StableHlo.Predicate.cmpi_eq_iff.1 h) hf
    rw [e]
    have hb : IntOp.andi (~~~(0#1 : BitVec 1)) b = b := by revert b; decide
    rw [hb]
    have hw' : w.toNat < 200 := by
      have : w.toNat ≠ 200 := fun h => hf (BitVec.eq_of_toNat_eq h)
      omega
    have hbn : (b.setWidth 32).toNat ≤ 1 := by
      rcases BitVec.eq_zero_or_eq_one b with rfl | rfl <;> decide
    have hs : (IntOp.addi w (b.setWidth 32)).toNat ≤ 200 := by
      show (w + b.setWidth 32).toNat ≤ 200
      rw [BitVec.toNat_add]; omega
    generalize IntOp.addi w (b.setWidth 32) = s at hs
    show (if (0#1 : BitVec 1) = 1 then r else IntOp.maxsi (IntOp.subi s 1#32) 0#32).toNat < 200
    rw [if_neg (by decide)]
    unfold IntOp.maxsi IntOp.subi
    split
    · rename_i hc
      simp only [BitVec.slt, decide_eq_true_eq] at hc
      have z : (0#32 : BitVec 32).toInt = 0 := by decide
      rw [z, BitVec.toInt_eq_toNat_cond] at hc
      have hl := s.isLt
      have hsub : (s - 1#32).toNat = (2 ^ 32 - 1 + s.toNat) % 2 ^ 32 := by
        rw [BitVec.toNat_sub]; rfl
      split at hc <;> omega
    · decide

instance : Subsingleton Cert.Pre_finite_inputs.S_.Idx := ⟨fun a b => funext fun d => d.elim0⟩

variable [Cert.Pre_finite_inputs.Facts]

/-- The precondition's last two conjuncts at env y: its count is between 0 and 200 and its drawn index between 0 and
    199, as signed words. -/
theorem pre_ranges (a0 : FVec F S1024x200x512 .f32) (a1 : FVec F S1024x512 .f32) (sim : FVec F S1024 .f32) (mm ri : IVec S1024 32)
    (h : Cert.Pre_finite_inputs.fn (F := F) a0 a1 sim mm ri = fun _ => 1#1) (y : S1024.Idx) :
    (IntOp.cmpi .sge (mm y) 0#32 = 1#1 ∧ IntOp.cmpi .sle (mm y) 200#32 = 1#1)
      ∧ (IntOp.cmpi .sge (ri y) 0#32 = 1#1 ∧ IntOp.cmpi .slt (ri y) 200#32 = 1#1) := by
  have e := congrFun h ValueIdx.ix0
  dsimp only [Cert.Pre_finite_inputs.fn, Cert.Pre_finite_inputs.fn_part1] at e
  obtain ⟨h20, h26⟩ := IntOp.andi_eq_one.1 e
  obtain ⟨-, h19⟩ := IntOp.andi_eq_one.1 h20
  have hm := Host.reduce_andi_all _ _ _ _ _ h19 y
  have hr := Host.reduce_andi_all _ _ _ _ _ h26 y
  exact ⟨IntOp.andi_eq_one.1 hm, IntOp.andi_eq_one.1 hr⟩

/-- Under the precondition every env's slot is one of the bank's 200 slots. -/
theorem slot_lt_of_pre (a0 : FVec F S1024x200x512 .f32) (a1 : FVec F S1024x512 .f32) (sim : FVec F S1024 .f32) (mm ri : IVec S1024 32)
    (h : Cert.Pre_finite_inputs.fn (F := F) a0 a1 sim mm ri = fun _ => 1#1) (y : S1024.Idx) :
    (slotT sim mm ri y).toNat < 200 := by
  obtain ⟨⟨hm0, hm1⟩, hr0, hr1⟩ := pre_ranges a0 a1 sim mm ri h y
  exact slot_word_lt (mm y) (ri y) (maskT sim y) (toNat_le_of_signed _ 200 (by decide) hm0 hm1)
    (toNat_lt_of_signed _ 200 (by decide) hr0 hr1)

/-! ## The same from the program's precondition on a launch memory

The one statement here that names the instance and the program's precondition. -/

/-- Under the program's precondition every env's slot, as the host stretch computes it from the launch memory, is one
    of the bank's 200 slots. -/
theorem slot_lt (mI : (ℓ : Loc nD τ sig) → Buf (Elt Ideal) ℓ) (c : Dev nD) (h : Cert.Pre_KernelIdeal mI) (y : S1024.Idx) :
    (slotT (F := Ideal) (mI ((c : Thread nD τ).loc main_arg2)) (mI ((c : Thread nD τ).loc main_arg3)) (mI ((c : Thread nD τ).loc main_arg4)) y).toNat < 200 :=
  slot_lt_of_pre (F := Ideal) _ _ _ _ _ (h c) y

end Cert.KernelIdeal.Tables

end
-- ==== Proof.RefValue.lean ====
/-
  The reference's result, read as the specification. The reference gathers, for each env e, row (e, slot e) of the bank,
  keeps it or takes the observation's row by the env's mask bit, and scatters the chosen rows back to (e, slot e). Under
  the precondition every slot lies in [0, 200), so no index is negative or clamped, and the env numbers are distinct, so
  each entry of the result is written by at most one update: entry (e, s, d) is the observation's (e, d) when env e's
  mask bit is set and s is its slot, and the bank's own entry otherwise.
-/
import proofs.«427608_j71184787964323_3_alg».proof.Proof.Spec
import proofs.«427608_j71184787964323_3_alg».proof.Proof.Gen.ReferenceIdeal.Run
import proofs.«427608_j71184787964323_3_alg».proof.Proof.Gen.ReferenceIdeal.Read
import proofs.«427608_j71184787964323_3_alg».proof.Proof.Gen.Pre_finite_inputs
import proofs.«427608_j71184787964323_3_alg».proof.Defs
import Idealize.ShloMosaic.Lib.ValueIdx
import Idealize.ShloMosaic.Lib.Pipeline.Value
import Idealize.ShloMosaic.Lib.StableHlo.Predicate
import Idealize.ShloMosaic.Lib.ReduceAll

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.StableHlo.Predicate

/-! ## A fold of overwriting steps, read at one position

A scatter whose body returns the update is a left fold of steps, step n overwriting the position g n (when there is
one) with the value v n. At a position no step lands on the fold leaves the initial value; at a position exactly one
step of a duplicate-free list lands on, it leaves that step's value. -/

section Fold
variable {ι β α : Type} [DecidableEq β]

/-- No step of the list lands on p: the fold keeps the initial value there. -/
theorem foldl_overwrite_miss (g : ι → Option β) (v : ι → α) (step : (β → α) → ι → (β → α))
    (hstep : ∀ r n q, step r n q = if g n = some q then v n else r q) (p : β) :
    ∀ (l : List ι) (x : β → α), (∀ n ∈ l, g n ≠ some p) → l.foldl step x p = x p
  | [], _, _ => rfl
  | a :: l, x, h => by
    rw [List.foldl_cons, foldl_overwrite_miss g v step hstep p l (step x a) (fun n hn => h n (List.mem_cons_of_mem a hn)),
      hstep, if_neg (h a (List.mem_cons_self ..))]

/-- Exactly one step n₀ of a duplicate-free list lands on p: the fold leaves v n₀ there. -/
theorem foldl_overwrite_hit (g : ι → Option β) (v : ι → α) (step : (β → α) → ι → (β → α))
    (hstep : ∀ r n q, step r n q = if g n = some q then v n else r q) (p : β) (n₀ : ι) (h₀ : g n₀ = some p) :
    ∀ (l : List ι) (x : β → α), l.Nodup → n₀ ∈ l → (∀ n ∈ l, g n = some p → n = n₀) → l.foldl step x p = v n₀
  | [], _, _, hm, _ => absurd hm (List.not_mem_nil)
  | a :: l, x, hnd, hm, hu => by
    rw [List.foldl_cons]
    have hnd' := List.nodup_cons.1 hnd
    by_cases ha : a = n₀
    · subst ha
      rw [foldl_overwrite_miss g v step hstep p l (step x a) (fun n hn hg => hnd'.1 (hu n (List.mem_cons_of_mem a hn) hg ▸ hn)),
        hstep, if_pos h₀]
    · have hm' : n₀ ∈ l := by
        rcases List.mem_cons.1 hm with h | h
        · exact absurd h.symm ha
        · exact h
      exact foldl_overwrite_hit g v step hstep p n₀ h₀ l (step x a) hnd'.2 hm' (fun n hn => hu n (List.mem_cons_of_mem a hn))

end Fold

/-! ## An overwriting scatter read at one position -/

section Scatter
variable {α : Type} {s si u : Shape} {w : Nat}

/-- The step of the scatter's fold, at a position: the update's value if the update lands there, else what was there. -/
theorem scatter_step (d : ScatterDims s si u) (idx : IVec si w) (upd : u.Idx → α) (r : s.Idx → α) (n : Fin u.numel) (q : s.Idx) :
    (match d.resultIdx? (u.rowMajor.symm n) idx with
      | some i => fun i' => if i' = i then (fun (_ : α) b => b) (r i) (upd (u.rowMajor.symm n)) else r i'
      | none => r) q
      = if d.resultIdx? (u.rowMajor.symm n) idx = some q then upd (u.rowMajor.symm n) else r q := by
  cases hres : d.resultIdx? (u.rowMajor.symm n) idx with
  | none => simp
  | some i =>
    by_cases hq : q = i
    · subst hq; simp
    · have : ¬ (some i = some q) := fun h => hq (Option.some.inj h).symm
      simp [hq, this]

/-- No update lands on y: the scatter leaves the operand's element. -/
theorem scatter_overwrite_miss (d : ScatterDims s si u) (x : s.Idx → α) (idx : IVec si w) (upd : u.Idx → α) (y : s.Idx)
    (hmiss : ∀ j, d.resultIdx? j idx ≠ some y) :
    Host.scatter d (fun _ b => b) x idx upd y = x y := by
  unfold Host.scatter
  exact foldl_overwrite_miss (fun n => d.resultIdx? (u.rowMajor.symm n) idx) (fun n => upd (u.rowMajor.symm n)) _
    (fun r n q => scatter_step d idx upd r n q) y _ x (fun n _ => hmiss _)

/-- Exactly one update j₀ lands on y: the scatter leaves that update's element. -/
theorem scatter_overwrite_hit (d : ScatterDims s si u) (x : s.Idx → α) (idx : IVec si w) (upd : u.Idx → α) (y : s.Idx)
    (j₀ : u.Idx) (h₀ : d.resultIdx? j₀ idx = some y) (huniq : ∀ j, d.resultIdx? j idx = some y → j = j₀) :
    Host.scatter d (fun _ b => b) x idx upd y = upd j₀ := by
  unfold Host.scatter
  have key := foldl_overwrite_hit (fun n => d.resultIdx? (u.rowMajor.symm n) idx) (fun n => upd (u.rowMajor.symm n)) _
    (fun r n q => scatter_step d idx upd r n q) y (u.rowMajor j₀)
    (by rw [Equiv.symm_apply_apply]; exact h₀) (List.finRange u.numel) x
    (List.nodup_finRange _) (List.mem_finRange _)
    (fun n _ hn => by
      have hj := huniq _ hn
      rw [← hj, Equiv.apply_symm_apply])
  rw [Equiv.symm_apply_apply] at key
  exact key

end Scatter

/-! ## The program's scatter and gather dimension numbers, at an index

Both read a [1024, 2] table of (env, slot) pairs, row e for update (or result) row e. The scatter sends update (e, c)
to operand position (table (e, 0), table (e, 1), c), read signed and not clamped; the gather reads result (e, c) from
operand position (table (e, 0), table (e, 1), c), each component read signed and clamped into its axis. -/

/-- The scatter's dimension numbers. -/
abbrev sD : ScatterDims S1024x200x512 S1024x2 S1024x512 := scatter_S1024x200x512_S1024x2_S1024x512_1_01_01_1
/-- The gather's dimension numbers. -/
abbrev gD : GatherDims S1024x200x512 S1024x2 S1024x512 := gather_S1024x200x512_S1024x2_S1024x512_1_01_n_n_01_1_11512

section Dims
variable {w : Nat}

theorem sD_siIdx (j : S1024x512.Idx) (c : Fin 2) : sD.siIdx j c = ix2 (j 0) c := by
  funext b; refine Fin.ext ?_
  match b with
  | ⟨0, _⟩ => rfl
  | ⟨1, _⟩ => rfl

theorem sD_start0 (j : S1024x512.Idx) (idx : IVec S1024x2 w) : sD.start j idx 0 = (idx (ix2 (j 0) 0)).toInt := by
  unfold ScatterDims.start
  rw [dif_pos (show (0 : Fin 3) ∈ sD.scatterDimsToOperandDims by decide)]
  exact congrArg (fun k => (idx k).toInt) (sD_siIdx j 0)

theorem sD_start1 (j : S1024x512.Idx) (idx : IVec S1024x2 w) : sD.start j idx 1 = (idx (ix2 (j 0) 1)).toInt := by
  unfold ScatterDims.start
  rw [dif_pos (show (1 : Fin 3) ∈ sD.scatterDimsToOperandDims by decide)]
  exact congrArg (fun k => (idx k).toInt) (sD_siIdx j 1)

theorem sD_start2 (j : S1024x512.Idx) (idx : IVec S1024x2 w) : sD.start j idx 2 = 0 := by
  unfold ScatterDims.start
  rw [dif_neg (show ¬ (2 : Fin 3) ∈ sD.scatterDimsToOperandDims by decide)]

theorem sD_window0 (j : S1024x512.Idx) : sD.window j 0 = 0 := by
  unfold ScatterDims.window
  rw [dif_neg (show ¬ (0 : Fin 3) ∈ sD.sKept by decide)]

theorem sD_window1 (j : S1024x512.Idx) : sD.window j 1 = 0 := by
  unfold ScatterDims.window
  rw [dif_neg (show ¬ (1 : Fin 3) ∈ sD.sKept by decide)]

theorem sD_window2 (j : S1024x512.Idx) : sD.window j 2 = (j 1).val := by
  unfold ScatterDims.window
  rw [dif_pos (show (2 : Fin 3) ∈ sD.sKept by decide)]
  rfl

/-- Update (e, c) lands on y exactly when row e of the table is (y 0, y 1) and c = y 2. -/
theorem sD_resultIdx_iff (idx : IVec S1024x2 w) (j : S1024x512.Idx) (y : S1024x200x512.Idx) :
    sD.resultIdx? j idx = some y ↔
      (idx (ix2 (j 0) 0)).toInt = ((y 0).val : Int) ∧ (idx (ix2 (j 0) 1)).toInt = ((y 1).val : Int) ∧ (j 1).val = (y 2).val := by
  have hy0 : (y 0).val < 1024 := (y 0).isLt
  have hy1 : (y 1).val < 200 := (y 1).isLt
  have hy2 : (y 2).val < 512 := (y 2).isLt
  unfold ScatterDims.resultIdx?
  split
  · next h =>
    rw [Option.some.injEq]
    constructor
    · intro hy
      have e0 := congrArg (fun z : S1024x200x512.Idx => (z 0).val) hy
      have e1 := congrArg (fun z : S1024x200x512.Idx => (z 1).val) hy
      have e2 := congrArg (fun z : S1024x200x512.Idx => (z 2).val) hy
      have h0 := h 0; have h1 := h 1; have h2 := h 2
      simp only [sD_start0, sD_start1, sD_start2, sD_window0, sD_window1, sD_window2] at e0 e1 e2 h0 h1 h2
      refine ⟨?_, ?_, ?_⟩ <;> omega
    · rintro ⟨e0, e1, e2⟩
      funext a; refine Fin.ext ?_
      match a with
      | ⟨0, _⟩ =>
        show (sD.start j idx 0 + (sD.window j 0 : Int)).toNat = (y 0).val
        rw [sD_start0, sD_window0, e0]; omega
      | ⟨1, _⟩ =>
        show (sD.start j idx 1 + (sD.window j 1 : Int)).toNat = (y 1).val
        rw [sD_start1, sD_window1, e1]; omega
      | ⟨2, _⟩ =>
        show (sD.start j idx 2 + (sD.window j 2 : Int)).toNat = (y 2).val
        rw [sD_start2, sD_window2, e2]; omega
  · next h =>
    constructor
    · intro hn; cases hn
    · rintro ⟨e0, e1, e2⟩
      exfalso; apply h
      intro a
      match a with
      | ⟨0, _⟩ =>
        show 0 ≤ sD.start j idx 0 + (sD.window j 0 : Int) ∧ sD.start j idx 0 + (sD.window j 0 : Int) < ((1024 : Nat) : Int)
        rw [sD_start0, sD_window0, e0]; omega
      | ⟨1, _⟩ =>
        show 0 ≤ sD.start j idx 1 + (sD.window j 1 : Int) ∧ sD.start j idx 1 + (sD.window j 1 : Int) < ((200 : Nat) : Int)
        rw [sD_start1, sD_window1, e1]; omega
      | ⟨2, _⟩ =>
        show 0 ≤ sD.start j idx 2 + (sD.window j 2 : Int) ∧ sD.start j idx 2 + (sD.window j 2 : Int) < ((512 : Nat) : Int)
        rw [sD_start2, sD_window2, e2]; omega

theorem gD_siIdx (j : S1024x512.Idx) (c : Fin 2) : gD.siIdx j c = ix2 (j 0) c := by
  funext b; refine Fin.ext ?_
  match b with
  | ⟨0, _⟩ => rfl
  | ⟨1, _⟩ => rfl

/-- Result (e, c) of the gather reads the operand at row e of the table, each component clamped into its axis, and c. -/
theorem gD_operandIdx (idx : IVec S1024x2 w) (j : S1024x512.Idx) :
    gD.operandIdx j idx
      = ix3 (⟨min (idx (ix2 (j 0) 0)).toInt.toNat 1023, by omega⟩ : Fin 1024)
          (⟨min (idx (ix2 (j 0) 1)).toInt.toNat 199, by omega⟩ : Fin 200) (j 1) := by
  funext a; refine Fin.ext ?_
  match a with
  | ⟨0, _⟩ =>
    show gD.start j idx 0 + gD.batchCoord j 0 + gD.offCoord j 0 = _
    rw [GatherDims.batchCoord_eq_zero _ _ _ (show ¬ (0 : Fin 3) ∈ gD.operandBatchingDims by decide),
      GatherDims.offCoord_eq_zero _ _ _ (show ¬ (0 : Fin 3) ∈ gD.sKept by decide)]
    unfold GatherDims.start
    rw [dif_pos (show (0 : Fin 3) ∈ gD.startIndexMap by decide)]
    show min (idx (gD.siIdx j (0 : Fin 2))).toInt.toNat (1024 - 1) + 0 + 0 = _
    rw [gD_siIdx]; rfl
  | ⟨1, _⟩ =>
    show gD.start j idx 1 + gD.batchCoord j 1 + gD.offCoord j 1 = _
    rw [GatherDims.batchCoord_eq_zero _ _ _ (show ¬ (1 : Fin 3) ∈ gD.operandBatchingDims by decide),
      GatherDims.offCoord_eq_zero _ _ _ (show ¬ (1 : Fin 3) ∈ gD.sKept by decide)]
    unfold GatherDims.start
    rw [dif_pos (show (1 : Fin 3) ∈ gD.startIndexMap by decide)]
    show min (idx (gD.siIdx j (1 : Fin 2))).toInt.toNat (200 - 1) + 0 + 0 = _
    rw [gD_siIdx]; rfl
  | ⟨2, _⟩ =>
    show gD.start j idx 2 + gD.batchCoord j 2 + gD.offCoord j 2 = _
    rw [GatherDims.batchCoord_eq_zero _ _ _ (show ¬ (2 : Fin 3) ∈ gD.operandBatchingDims by decide)]
    unfold GatherDims.start GatherDims.offCoord
    rw [dif_neg (show ¬ (2 : Fin 3) ∈ gD.startIndexMap by decide), dif_pos (show (2 : Fin 3) ∈ gD.sKept by decide)]
    show 0 + 0 + (j 1).val = (j 1).val
    omega

end Dims

/-! ## The two index operations over a table whose row e is (e, slot e) -/

section Rows
variable {α : Type}

/-- Update (e, c) lands on (a, b, d) exactly when the table's row e is (a, b) and c = d. -/
theorem sD_resultIdx_ix {w : Nat} (idx : IVec S1024x2 w) (e : Fin 1024) (c : Fin 512) (a : Fin 1024) (b : Fin 200) (d : Fin 512) :
    sD.resultIdx? (ix2 e c) idx = some (ix3 a b d) ↔
      (idx (ix2 e 0)).toInt = (a.val : Int) ∧ (idx (ix2 e 1)).toInt = (b.val : Int) ∧ c = d :=
  (sD_resultIdx_iff idx (ix2 e c) (ix3 a b d)).trans
    ⟨fun ⟨h0, h1, h2⟩ => ⟨h0, h1, Fin.ext h2⟩, fun ⟨h0, h1, h2⟩ => ⟨h0, h1, congrArg Fin.val h2⟩⟩

/-- The scatter over such a table: entry (a, b, d) is update (a, d) when b is env a's slot, else the operand's. The env
    numbers in column 0 are distinct, so at most one update lands on an entry. -/
theorem scatter_rows (idx : IVec S1024x2 32) (x0 : S1024x200x512.Idx → α) (upd : S1024x512.Idx → α) (slot : Fin 1024 → Fin 200)
    (h0 : ∀ e : Fin 1024, idx (ix2 e 0) = BitVec.ofNat 32 e.val)
    (h1 : ∀ e : Fin 1024, idx (ix2 e 1) = BitVec.ofNat 32 (slot e).val) (a : Fin 1024) (b : Fin 200) (d : Fin 512) :
    Host.scatter sD (fun _ v => v) x0 idx upd (ix3 a b d) = if b = slot a then upd (ix2 a d) else x0 (ix3 a b d) := by
  have key : ∀ (e : Fin 1024) (c : Fin 512), sD.resultIdx? (ix2 e c) idx = some (ix3 a b d) ↔ e = a ∧ slot e = b ∧ c = d := by
    intro e c
    rw [sD_resultIdx_ix, h0, h1, toInt_ofNat_small _ (by have := e.isLt; omega),
      toInt_ofNat_small _ (by have := (slot e).isLt; omega)]
    constructor
    · rintro ⟨p, q, r⟩; exact ⟨Fin.ext (by exact_mod_cast p), Fin.ext (by exact_mod_cast q), r⟩
    · rintro ⟨rfl, rfl, rfl⟩; exact ⟨rfl, rfl, rfl⟩
  by_cases h : b = slot a
  · rw [if_pos h]
    refine scatter_overwrite_hit sD x0 idx upd _ (ix2 a d) ((key a d).2 ⟨rfl, h.symm, rfl⟩) (fun j hj => ?_)
    obtain ⟨e, c, rfl⟩ : ∃ (e : Fin 1024) (c : Fin 512), j = ix2 e c := ⟨j 0, j 1, eq_ix2 j⟩
    obtain ⟨rfl, -, rfl⟩ := (key e c).1 hj
    rfl
  · rw [if_neg h]
    refine scatter_overwrite_miss sD x0 idx upd _ (fun j hj => ?_)
    obtain ⟨e, c, rfl⟩ : ∃ (e : Fin 1024) (c : Fin 512), j = ix2 e c := ⟨j 0, j 1, eq_ix2 j⟩
    obtain ⟨rfl, hs, -⟩ := (key e c).1 hj
    exact h hs.symm

/-- The gather over such a table: result (e, c) is the operand's entry (e, slot e, c); nothing is clamped. -/
theorem gather_row (idx : IVec S1024x2 32) (x0 : S1024x200x512.Idx → α) (e : Fin 1024) (c : Fin 512) (s : Fin 200)
    (h0 : idx (ix2 e 0) = BitVec.ofNat 32 e.val) (h1 : idx (ix2 e 1) = BitVec.ofNat 32 s.val) :
    Host.gather gD x0 idx (ix2 e c) = x0 (ix3 e s c) := by
  show x0 (gD.operandIdx (ix2 e c) idx) = _
  rw [gD_operandIdx]
  congr 1
  funext k; refine Fin.ext ?_
  match k with
  | ⟨0, _⟩ =>
    show min (idx (ix2 e 0)).toInt.toNat 1023 = e.val
    rw [h0, toInt_ofNat_small _ (by have := e.isLt; omega)]; have := e.isLt; omega
  | ⟨1, _⟩ =>
    show min (idx (ix2 e 1)).toInt.toNat 199 = s.val
    rw [h1, toInt_ofNat_small _ (by have := s.isLt; omega)]; have := s.isLt; omega
  | ⟨2, _⟩ => rfl

end Rows

/-! ## Words: the slot is in range -/

/-- A small non-negative word is not below zero. -/
theorem slt_zero_of_small (a : BitVec 32) (ha : a.toNat < 2 ^ 31) : IntOp.cmpi .slt a 0#32 = 0#1 :=
  eq_zero_of_ne_one (fun h => by
    have := (slt_iff_toNat ha (by decide)).1 h
    simp at this)

/-- The slot word: the random slot when the bank is full (count 200), else the new count less one, not below zero. With
    the count in [0, 200] and the random slot in [0, 200) it lies in [0, 200). -/
theorem slot_word_lt (a r : BitVec 32) (b : BitVec 1) (ha : a.toNat ≤ 200) (hr : r.toNat < 200) :
    (Scalar.select (IntOp.cmpi .eq a 200#32) r
      (IntOp.maxsi (IntOp.subi (IntOp.addi a ((IntOp.andi (~~~(IntOp.cmpi .eq a 200#32)) b).setWidth 32)) 1#32) 0#32)).toNat < 200 := by
  by_cases h : a = 200#32
  · rw [cmpi_eq_iff.2 h, select_one]; exact hr
  · have hc : IntOp.cmpi .eq a 200#32 = 0#1 := eq_zero_of_ne_one (fun hc => h (cmpi_eq_iff.1 hc))
    rw [hc, select_zero]
    have ha' : a.toNat < 200 := by
      rcases Nat.lt_or_ge a.toNat 200 with h1 | h1
      · exact h1
      · exact absurd (BitVec.eq_of_toNat_eq (by simp only [BitVec.toNat_ofNat]; omega)) h
    generalize hd : (IntOp.andi (~~~(0#1)) b).setWidth 32 = dw
    have hdn : dw.toNat ≤ 1 := by
      rw [← hd, toNat_setWidth_bit]; split <;> omega
    unfold IntOp.maxsi IntOp.subi IntOp.addi
    split
    · next hs =>
      simp only [BitVec.slt, decide_eq_true_eq, BitVec.toInt_eq_toNat_cond, BitVec.toNat_sub, BitVec.toNat_add, BitVec.toNat_ofNat] at hs ⊢
      omega
    · simp

/-! ## The reference's host terms: mask, new count, slot -/

section Stages
variable {F : FTy → Type} [FloatOps F]
variable (x0 : (⟨S1024x200x512, .f32⟩ : BufTy).Contents (Elt F)) (x1 : (⟨S1024x512, .f32⟩ : BufTy).Contents (Elt F))
  (x2 : (⟨S1024, .f32⟩ : BufTy).Contents (Elt F)) (x3 x4 : (⟨S1024, .i32⟩ : BufTy).Contents (Elt F))

/-- Env e accepts its observation: its similarity is above one half. -/
def maskR : S1024.Idx → BitVec 1 := val_main_v1 (F := F) x2
/-- Env e's count after the step: one more when it accepts and its bank is not full. -/
def newCountR : S1024.Idx → BitVec 32 := val_main_v7 (F := F) x2 x3
/-- The slot env e writes: the random one when its bank is full, else the last counted one. -/
def slotR : S1024.Idx → BitVec 32 := val_main_v12 (F := F) x2 x3 x4

theorem maskR_apply (i : S1024.Idx) :
    maskR x2 i = FloatOps.cmpf .ogt (x2 i) (FloatOps.ofBits .f32 0x3F000000#32) := by
  unfold maskR; rw [val_main_v1_apply, val_main_v0_apply, val_main_cst_apply]

theorem newCountR_apply (i : S1024.Idx) :
    newCountR x2 x3 i = IntOp.addi (x3 i) ((IntOp.andi (~~~(IntOp.cmpi .eq (x3 i) 200#32)) (maskR x2 i)).setWidth 32) := by
  unfold newCountR maskR
  rw [val_main_v7_apply, val_main_v6_apply, val_main_v5_apply, val_main_v4_apply, val_main_v3_apply, val_main_v2_apply,
    val_main_c_apply]

theorem slotR_apply (i : S1024.Idx) :
    slotR x2 x3 x4 i = Scalar.select (IntOp.cmpi .eq (x3 i) 200#32) (x4 i)
      (IntOp.maxsi (IntOp.subi (newCountR x2 x3 i) 1#32) 0#32) := by
  unfold slotR newCountR
  rw [val_main_v12_apply, val_main_v11_apply, val_main_v9_apply, val_main_v3_apply, val_main_v2_apply, val_main_c_apply,
    val_main_v8_apply, val_main_c_0_apply, val_main_v10_apply, val_main_c_1_apply]

/-- With every count in [0, 200] and every random slot in [0, 200), every env's slot is in [0, 200). -/
theorem slotR_lt (hmm : ∀ i, (x3 i).toNat ≤ 200) (hri : ∀ i, (x4 i).toNat < 200) (i : S1024.Idx) :
    (slotR x2 x3 x4 i).toNat < 200 := by
  rw [slotR_apply, newCountR_apply]; exact slot_word_lt _ _ _ (hmm i) (hri i)

/-! ## The two index tables: row e is (e, slot e) -/

/-- Column 0 of the scatter's table is the env number (an env number is never negative). -/
theorem v42_col0 (e : Fin 1024) : val_main_v42 (F := F) x2 x3 x4 (ix2 e 0) = BitVec.ofNat 32 e.val := by
  unfold val_main_v42
  refine (concatenate_pair_apply_left (t := S1024x2) (s₁ := S1024x1) (s₂ := S1024x1) (1 : Fin 2) (val_main_v40 (F := F))
    (val_main_v41 (F := F) x2 x3 x4) concatenates_S1024x1_S1024x1_S1024x2_d1 (ix2 e (0 : Fin 2)) rfl (ix2 e (0 : Fin 1)) (fun b => ?_)).trans ?_
  · match b with
    | ⟨0, _⟩ => rfl
    | ⟨1, _⟩ => rfl
  · rw [val_main_v40_apply, val_main_v34_apply, val_main_v31_apply, val_main_v30_apply, val_main_c_6_apply, val_main_v13_apply]
    show Scalar.select (IntOp.cmpi .slt (BitVec.ofNat 32 e.val) 0#32) _ (BitVec.ofNat 32 e.val) = _
    rw [slt_zero_of_small _ (by simp only [BitVec.toNat_ofNat]; have := e.isLt; omega), select_zero]

/-- Column 1 of the scatter's table is the slot, when the slot is not negative. -/
theorem v42_col1 (e : Fin 1024) (h : (slotR x2 x3 x4 (ix1 e)).toNat < 2 ^ 31) :
    val_main_v42 (F := F) x2 x3 x4 (ix2 e 1) = slotR x2 x3 x4 (ix1 e) := by
  unfold val_main_v42
  refine (concatenate_pair_apply_right (t := S1024x2) (s₁ := S1024x1) (s₂ := S1024x1) (1 : Fin 2) (val_main_v40 (F := F))
    (val_main_v41 (F := F) x2 x3 x4) concatenates_S1024x1_S1024x1_S1024x2_d1 (ix2 e (1 : Fin 2)) rfl rfl (ix2 e (0 : Fin 1))
    (fun b hb => ?_) rfl).trans ?_
  · match b with
    | ⟨0, _⟩ => rfl
    | ⟨1, _⟩ => exact absurd rfl hb
  · rw [val_main_v41_apply, val_main_v39_apply, val_main_v36_apply, val_main_v35_apply, val_main_c_8_apply]
    have hidx : idx_main_v41 (ix2 e (0 : Fin 1)) = ix1 e := by
      funext k; match k with | ⟨0, _⟩ => rfl
    rw [hidx]
    show Scalar.select (IntOp.cmpi .slt (slotR x2 x3 x4 (ix1 e)) 0#32) _ (slotR x2 x3 x4 (ix1 e)) = _
    rw [slt_zero_of_small _ h, select_zero]

/-- Column 0 of the gather's table is the env number. -/
theorem v26_col0 (e : Fin 1024) : val_main_v26 (F := F) x2 x3 x4 (ix2 e 0) = BitVec.ofNat 32 e.val := by
  unfold val_main_v26
  refine (concatenate_pair_apply_left (t := S1024x2) (s₁ := S1024x1) (s₂ := S1024x1) (1 : Fin 2) (val_main_v24 (F := F))
    (val_main_v25 (F := F) x2 x3 x4) concatenates_S1024x1_S1024x1_S1024x2_d1 (ix2 e (0 : Fin 2)) rfl (ix2 e (0 : Fin 1)) (fun b => ?_)).trans ?_
  · match b with
    | ⟨0, _⟩ => rfl
    | ⟨1, _⟩ => rfl
  · rw [val_main_v24_apply, val_main_v18_apply, val_main_v15_apply, val_main_v14_apply, val_main_c_2_apply, val_main_v13_apply]
    show Scalar.select (IntOp.cmpi .slt (BitVec.ofNat 32 e.val) 0#32) _ (BitVec.ofNat 32 e.val) = _
    rw [slt_zero_of_small _ (by simp only [BitVec.toNat_ofNat]; have := e.isLt; omega), select_zero]

/-- Column 1 of the gather's table is the slot, when the slot is not negative. -/
theorem v26_col1 (e : Fin 1024) (h : (slotR x2 x3 x4 (ix1 e)).toNat < 2 ^ 31) :
    val_main_v26 (F := F) x2 x3 x4 (ix2 e 1) = slotR x2 x3 x4 (ix1 e) := by
  unfold val_main_v26
  refine (concatenate_pair_apply_right (t := S1024x2) (s₁ := S1024x1) (s₂ := S1024x1) (1 : Fin 2) (val_main_v24 (F := F))
    (val_main_v25 (F := F) x2 x3 x4) concatenates_S1024x1_S1024x1_S1024x2_d1 (ix2 e (1 : Fin 2)) rfl rfl (ix2 e (0 : Fin 1))
    (fun b hb => ?_) rfl).trans ?_
  · match b with
    | ⟨0, _⟩ => rfl
    | ⟨1, _⟩ => exact absurd rfl hb
  · rw [val_main_v25_apply, val_main_v23_apply, val_main_v20_apply, val_main_v19_apply, val_main_c_4_apply]
    have hidx : idx_main_v25 (ix2 e (0 : Fin 1)) = ix1 e := by
      funext k; match k with | ⟨0, _⟩ => rfl
    rw [hidx]
    show Scalar.select (IntOp.cmpi .slt (slotR x2 x3 x4 (ix1 e)) 0#32) _ (slotR x2 x3 x4 (ix1 e)) = _
    rw [slt_zero_of_small _ h, select_zero]

/-! ## The result is the specification's -/

/-- With the counts in [0, 200] and the random slots in [0, 200), the reference's result is the updated bank. -/
theorem val_main_v43_eq_updated (hmm : ∀ i, (x3 i).toNat ≤ 200) (hri : ∀ i, (x4 i).toNat < 200) :
    val_main_v43 (F := F) x0 x1 x2 x3 x4 = Cert.Scatter.updated (maskR x2) (slotR x2 x3 x4) x0 x1 := by
  funext y
  obtain ⟨a, b, d, rfl⟩ : ∃ (a : Fin 1024) (b : Fin 200) (d : Fin 512), y = ix3 a b d := ⟨y 0, y 1, y 2, eq_ix3 y⟩
  have hs : ∀ e : Fin 1024, (slotR x2 x3 x4 (ix1 e)).toNat < 200 := fun e => slotR_lt x2 x3 x4 hmm hri _
  have hslot : ∀ e : Fin 1024, slotR x2 x3 x4 (ix1 e) = BitVec.ofNat 32 (slotR x2 x3 x4 (ix1 e)).toNat := fun e => by
    rw [BitVec.ofNat_toNat, BitVec.setWidth_eq]
  unfold val_main_v43
  rw [scatter_rows (val_main_v42 (F := F) x2 x3 x4) x0 (val_main_v29 (F := F) x0 x1 x2 x3 x4)
    (fun e => ⟨(slotR x2 x3 x4 (ix1 e)).toNat, hs e⟩) (fun e => v42_col0 x2 x3 x4 e)
    (fun e => (v42_col1 x2 x3 x4 e (by have := hs e; omega)).trans (hslot e)) a b d]
  show (if b = (⟨(slotR x2 x3 x4 (ix1 a)).toNat, hs a⟩ : Fin 200) then val_main_v29 (F := F) x0 x1 x2 x3 x4 (ix2 a d) else x0 (ix3 a b d))
    = if maskR x2 (ix1 a) = 1#1 ∧ b.val = (slotR x2 x3 x4 (ix1 a)).toNat then x1 (ix2 a d) else x0 (ix3 a b d)
  by_cases h : b = (⟨(slotR x2 x3 x4 (ix1 a)).toNat, hs a⟩ : Fin 200)
  · have hb : b.val = (slotR x2 x3 x4 (ix1 a)).toNat := congrArg Fin.val h
    rw [if_pos h, val_main_v29_apply, val_main_call1_v0_apply, val_main_v28_apply]
    have hidx : idx_main_v28 (idx_main_call1_v0 (ix2 a d)) = ix1 a := by
      funext k; match k with | ⟨0, _⟩ => rfl
    rw [hidx]
    show Scalar.select (maskR x2 (ix1 a)) (x1 (ix2 a d)) (val_main_v27 (F := F) x0 x2 x3 x4 (ix2 a d)) = _
    by_cases hm : maskR x2 (ix1 a) = 1#1
    · rw [if_pos ⟨hm, hb⟩, hm, select_one]
    · rw [if_neg (fun hc => hm hc.1), eq_zero_of_ne_one hm, select_zero]
      unfold val_main_v27
      rw [gather_row (val_main_v26 (F := F) x2 x3 x4) x0 a d ⟨(slotR x2 x3 x4 (ix1 a)).toNat, hs a⟩ (v26_col0 x2 x3 x4 a)
        ((v26_col1 x2 x3 x4 a (by have := hs a; omega)).trans (hslot a)), ← h]
  · rw [if_neg h, if_neg (fun hc => h (Fin.ext hc.2))]

end Stages

/-! ## What the precondition says of the two integer arrays -/

section Pre
variable {F : FTy → Type} [FloatOps F]

/-- A broadcast constant reads the constant everywhere. -/
theorem bcast_const (v : BitVec 32) (hb : Cert.Pre_finite_inputs.S_.BroadcastsInDim Cert.Pre_finite_inputs.S1024 ![])
    (i : Cert.Pre_finite_inputs.S1024.Idx) :
    broadcastInDim Cert.Pre_finite_inputs.S1024 ![] hb (constantI Cert.Pre_finite_inputs.S_ 32 v) i = v :=
  broadcastInDim_apply _ hb _ i (fun a => a.elim0) (fun a => a.elim0)

/-- The precondition's last two conjuncts, read back: every count is in [0, 200] and every random slot in [0, 200). -/
theorem pre_ranges (x0 : FVec F Cert.Pre_finite_inputs.S1024x200x512 .f32) (x1 : FVec F Cert.Pre_finite_inputs.S1024x512 .f32)
    (x2 : FVec F Cert.Pre_finite_inputs.S1024 .f32) (x3 x4 : IVec Cert.Pre_finite_inputs.S1024 32)
    (h : Cert.Pre_finite_inputs.fn (F := F) x0 x1 x2 x3 x4 = fun _ => 1#1) :
    (∀ i, (x3 i).toNat ≤ 200) ∧ (∀ i, (x4 i).toNat < 200) := by
  have h1 : Cert.Pre_finite_inputs.fn_part1 (F := F) x3 x4 _ _ _ ix0 = 1#1 := congrFun h ix0
  unfold Cert.Pre_finite_inputs.fn_part1 at h1
  obtain ⟨h20, h26⟩ := IntOp.andi_eq_one.1 h1
  obtain ⟨-, h19⟩ := IntOp.andi_eq_one.1 h20
  haveI : Subsingleton Cert.Pre_finite_inputs.S_.Idx := ⟨fun a b => funext fun k => k.elim0⟩
  have a3 := Host.reduce_andi_all _ _ _ _ _ h19
  have a4 := Host.reduce_andi_all _ _ _ _ _ h26
  refine ⟨fun i => ?_, fun i => ?_⟩
  · obtain ⟨p, q⟩ := IntOp.andi_eq_one.1 (a3 i)
    have p' := IntOp.cmpi_sge.1 p
    have q' := IntOp.cmpi_sle.1 q
    rw [bcast_const] at p' q'
    have e0 : (0#32 : BitVec 32).toInt = 0 := by decide
    have e200 : (200#32 : BitVec 32).toInt = 200 := by decide
    have ex := BitVec.toInt_eq_toNat_cond (x3 i)
    have := (x3 i).isLt
    rw [e0] at p'; rw [e200] at q'
    omega
  · obtain ⟨p, q⟩ := IntOp.andi_eq_one.1 (a4 i)
    have p' := IntOp.cmpi_sge.1 p
    have q' := IntOp.cmpi_slt.1 q
    rw [bcast_const] at p' q'
    have e0 : (0#32 : BitVec 32).toInt = 0 := by decide
    have e200 : (200#32 : BitVec 32).toInt = 200 := by decide
    have ex := BitVec.toInt_eq_toNat_cond (x4 i)
    have := (x4 i).isLt
    rw [e0] at p'; rw [e200] at q'
    omega

end Pre

/-! ## The run -/

/-- Under the precondition the reference runs to the end, its first result the updated bank, its second the new counts,
    its arguments unchanged. -/
theorem run_value (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v43)
        = Cert.Scatter.updated (maskR (F := Ideal) (m ((c.tc : Thread nD τ).loc main_arg2)))
            (slotR (F := Ideal) (m ((c.tc : Thread nD τ).loc main_arg2)) (m ((c.tc : Thread nD τ).loc main_arg3))
              (m ((c.tc : Thread nD τ).loc main_arg4)))
            (m ((c.tc : Thread nD τ).loc main_arg0)) (m ((c.tc : Thread nD τ).loc main_arg1))
      ∧ r.2.mem ((c.tc : Thread nD τ).loc main_v7)
        = newCountR (F := Ideal) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨h43, h7, hargs⟩ := h c
      obtain ⟨hmm, hri⟩ := pre_ranges (F := Ideal) _ _ _ _ _ (hpre c)
      exact ⟨h43.trans ((val_main_v43_eq m c).trans (val_main_v43_eq_updated _ _ _ _ _ hmm hri)),
        h7.trans (val_main_v7_eq _ _), hargs⟩)
    (Cert.ReferenceIdeal.Value.run m ρ)

end Cert.ReferenceIdeal.RefValue

end
-- ==== Proof.CellsIdeal.lean ====
/-
  The vocabulary of one grid point's 256 cells. At grid point `i` the body handles the envs `256·i₀ + li`, `li < 256`,
  each on its own: env `li`'s mask word decides whether row `li` of the staged observations is copied into the env's
  own 200 × 512 slab of the bank, at the slot its slot word names, on semaphore `li mod 16`. A cell is that env's slab,
  that staged row and that semaphore; no two cells of a point share an element, so each step of the body is stated
  over its own cell alone.
-/
import proofs.«427608_j71184787964323_3_alg».proof.Proof.Gen.KernelIdeal.Launch
import proofs.«427608_j71184787964323_3_alg».proof.Proof.Gen.KernelIdeal.Skeleton
import Idealize.ShloMosaic.Lib.Pipeline.Routed
import Idealize.ShloMosaic.Lib.Transfers
import Idealize.ShloMosaic.Lib.ValueIdx

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The env a cell handles, as the body computes it: the word `i₀ · 256 + li`, read as a number. -/
def envW (i : grid0.Coords) (li : Nat) : Nat :=
  (Scalar.addi (Scalar.muli (BitVec.ofNat 32 (i 0).val) 256#32) (BitVec.ofNat 32 li)).toNat

/-- No wrap-around: the env is `256 · i₀ + li`. -/
theorem envW_eq (i : grid0.Coords) (li : Nat) (hli : li < 256) : envW i li = 256 * (i 0).val + li := by
  have hi : (i 0).val < 4 := (i 0).isLt
  unfold envW
  simp only [Scalar.addi, Scalar.muli, IntOp.addi, IntOp.muli, BitVec.toNat_add, BitVec.toNat_mul, BitVec.toNat_ofNat]
  omega

theorem envW_lt (i : grid0.Coords) (li : Nat) (hli : li < 256) : envW i li + 1 ≤ 1024 := by
  have hi : (i 0).val < 4 := (i 0).isLt
  rw [envW_eq i li hli]; omega

/-- Entry `envW i li` of a 1024-word table: the word a cell's steps load, however the loading access is spelled. -/
def wordOf (tbl : S1024.Idx → BitVec 32) (i : grid0.Coords) (li : Nat) (hli : li < 256) : BitVec 32 :=
  tbl (ValueIdx.ix1 (⟨envW i li, by have := envW_lt i li hli; omega⟩ : Fin 1024))

/-- The body's test of a mask word: positive. -/
def condW (w : BitVec 32) : BitVec 1 := Scalar.cmpi .ne (Scalar.extui (Scalar.cmpi .sgt w 0#32)) 0#32

/-- Row `li` of the staged block, as the transfer's source. -/
abbrev rowM (arg3 : Memref sig .tc .vmem S256x1x512 .f32) (li : Nat)
    (h : ∀ a, (![li, 0, 0] : Fin 3 → Nat) a + S1x1x512.size a ≤ S256x1x512.size a) : Memref sig .tc .vmem S1x512 .f32 :=
  (arg3.slice (Rect.unit (s := S256x1x512) ![li, 0, 0] S1x1x512.size h) (fun _ => rfl)).squeeze S1x512 squeezes_S1x1x512_S1x512

/-- The one-row window of the bank at offsets `off`, as the transfer's destination. -/
abbrev winM (arg5 : Memref sig .tc .hbm S1024x200x512 .f32) (off : Fin 3 → Nat)
    (h : ∀ a, off a + S1x1x512.size a ≤ S1024x200x512.size a) : Memref sig .tc .hbm S1x512 .f32 :=
  (arg5.slice (Rect.unit (s := S1024x200x512) off S1x1x512.size h) (fun _ => rfl)).squeeze S1x512 squeezes_S1x1x512_S1x512

/-- An env's slab lies inside the bank. -/
theorem slab_inb (e : Nat) (he : e + 1 ≤ 1024) : ∀ a : Fin 3, (![e, 0, 0] : Fin 3 → Nat) a + (![1, 200, 512] : Fin 3 → Nat) a ≤ S1024x200x512.size a := by
  intro a; fin_cases a
  · exact he
  · show (0 : ℕ) + 200 ≤ 200; omega
  · show (0 : ℕ) + 512 ≤ 512; omega

/-- Env `e`'s 200 × 512 slab, as elements of the bank's buffer. -/
abbrev slabSet (c : Dev nD) (arg5 : Memref sig .tc .hbm S1024x200x512 .f32) (e : Nat) (he : e + 1 ≤ 1024) :
    Finset (Idx (View.loc (c : Thread nD τ) arg5.view)) :=
  (arg5.slice (Rect.unit (s := S1024x200x512) ![e, 0, 0] ![1, 200, 512] (slab_inb e he)) (fun _ => rfl)).view.set

/-- Semaphore `j` of the kernel's pool of sixteen. -/
abbrev semM (j : Nat) (h : ∀ a, (![j] : Fin 1 → Nat) a + S1.size a ≤ S16.size a) : DmaSem sig :=
  ((cc0_scratch0.slice (Rect.unit (s := S16) ![j] S1.size h)).squeeze S_ squeezes_S1_S_).sem

local notation "𝕄" => MT nD τ sig Unit (Elt F) ℕ (Pipeline.UC sig nD τ) ℕ

section Assertions

variable (c : Dev nD) (arg3 : Memref sig .tc .vmem S256x1x512 .f32) (arg5 : Memref sig .tc .hbm S1024x200x512 .f32)

/-- The staged row `li` held, the staging buffer at contents `x`. -/
def rowPt (li : Nat) (h : ∀ a, (![li, 0, 0] : Fin 3 → Nat) a + S1x1x512.size a ≤ S256x1x512.size a)
    (x : Buf (Elt F) ((rowM arg3 li h).view.loc (c : Thread nD τ))) : sProp 𝕄 :=
  (rowM arg3 li h).view.loc (c : Thread nD τ) ↦[(rowM arg3 li h).view.set]{fullShare} x

/-- Env `e`'s slab held, the bank at contents `f`. -/
def slabPt (e : Nat) (he : e + 1 ≤ 1024) (f : Buf (Elt F) (View.loc (c : Thread nD τ) arg5.view)) : sProp 𝕄 :=
  View.loc (c : Thread nD τ) arg5.view ↦[slabSet c arg5 e he]{fullShare} f

/-- Semaphore `j` at zero. -/
def semPt (j : Nat) (hj : ∀ a, (![j] : Fin 1 → Nat) a + S1.size a ≤ S16.size a) : sProp 𝕄 :=
  semVal ((c : Thread nD τ), SemLoc.dma (semM j hj)) 0

end Assertions

end Cert.KernelIdeal.Cells

end
-- ==== Proof.CellStatesIdeal.lean ====
/-
  The states of one cell across a grid point's body. Before its start step a cell is idle: its staged row, its slab of
  the bank and its semaphore at zero are held as they are. After the start step, when the env's mask word is positive the
  row's copy into the slab's window at the env's slot is in flight on the semaphore, to deliver the slab rewritten and
  the row back; otherwise the cell is still idle. After the wait step the cell is done: row, slab and semaphore held
  again, the slab rewritten exactly when the mask word is positive. Every state is spelled over the two table words of
  the cell (entry envW i li of the mask table and of the slot table), however a step's access to them is printed.
-/
import proofs.«427608_j71184787964323_3_alg».proof.Proof.CellsIdeal

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The one-row window at slot s of env e's slab lies inside the bank. -/
theorem win_inb (e : Nat) (he : e + 1 ≤ 1024) (s : Nat) (hs : s < 200) :
    ∀ a : Fin 3, (![e, s, 0] : Fin 3 → Nat) a + S1x1x512.size a ≤ S1024x200x512.size a := by
  intro a; fin_cases a
  · exact he
  · show s + 1 ≤ 200; omega
  · show (0 : ℕ) + 512 ≤ 512; omega

section States

variable (c : Dev nD) (arg3 : Memref sig .tc .vmem S256x1x512 .f32) (arg5 : Memref sig .tc .hbm S1024x200x512 .f32)
  (i : grid0.Coords) (li j : Nat) (hli : li < 256)
  (hrow : ∀ a, (![li, 0, 0] : Fin 3 → Nat) a + S1x1x512.size a ≤ S256x1x512.size a)
  (hj : ∀ a, (![j] : Fin 1 → Nat) a + S1.size a ≤ S16.size a)
  (ai wm : S1024.Idx → BitVec 32) (hai : ∀ y, (ai y).toNat < 200)

/-- The cell's window of the bank: row (envW i li, slot) where the slot is the cell's slot word. -/
abbrev cellWin : Memref sig .tc .hbm S1x512 .f32 :=
  winM arg5 ![envW i li, (wordOf ai i li hli).toNat, 0] (win_inb _ (envW_lt i li hli) _ (hai _))

/-- The bank's contents once the cell's staged row has landed in its window. -/
def cellWritten (x3 : Buf (Elt F) ((rowM arg3 li hrow).view.loc (c : Thread nD τ)))
    (f : Buf (Elt F) (View.loc (c : Thread nD τ) arg5.view)) : Buf (Elt F) (View.loc (c : Thread nD τ) arg5.view) :=
  (cellWin arg5 i li hli ai hai).view.write (Elt F) f ((rowM arg3 li hrow).view.read (Elt F) x3) Finset.univ

/-- Idle: the staged row, the slab at contents f and the semaphore at zero. -/
def cellIdle (x3 : Buf (Elt F) ((rowM arg3 li hrow).view.loc (c : Thread nD τ)))
    (f : Buf (Elt F) (View.loc (c : Thread nD τ) arg5.view)) : sProp 𝕄 :=
  iprop(rowPt c arg3 li hrow x3 ∗ slabPt c arg5 (envW i li) (envW_lt i li hli) f ∗ semPt c j hj)

/-- In flight: the copy issued on the cell's semaphore, to deliver the slab rewritten and the row back. -/
def cellFly (x3 : Buf (Elt F) ((rowM arg3 li hrow).view.loc (c : Thread nD τ)))
    (f : Buf (Elt F) (View.loc (c : Thread nD τ) arg5.view)) : sProp 𝕄 :=
  Transfers.Flight (countersEmb (U := Pipeline.UC sig nD τ)) (c : Thread nD τ) (.dma (semM j hj)) default 512
    iprop(slabPt c arg5 (envW i li) (envW_lt i li hli) (cellWritten c arg3 arg5 i li hli hrow ai hai x3 f) ∗ rowPt c arg3 li hrow x3)

/-- After the start step: in flight when the mask word is positive, idle otherwise. -/
def cellStarted (x3 : Buf (Elt F) ((rowM arg3 li hrow).view.loc (c : Thread nD τ)))
    (f : Buf (Elt F) (View.loc (c : Thread nD τ) arg5.view)) : sProp 𝕄 :=
  if condW (wordOf wm i li hli) = 1#1 then cellFly c arg3 arg5 i li j hli hrow hj ai hai x3 f
  else cellIdle c arg3 arg5 i li j hli hrow hj x3 f

/-- After the wait step: row, slab and semaphore held, the slab rewritten exactly when the mask word is positive. -/
def cellDone (x3 : Buf (Elt F) ((rowM arg3 li hrow).view.loc (c : Thread nD τ)))
    (f : Buf (Elt F) (View.loc (c : Thread nD τ) arg5.view)) : sProp 𝕄 :=
  iprop(rowPt c arg3 li hrow x3
    ∗ slabPt c arg5 (envW i li) (envW_lt i li hli)
        (if condW (wordOf wm i li hli) = 1#1 then cellWritten c arg3 arg5 i li hli hrow ai hai x3 f else f)
    ∗ semPt c j hj)

end States

end Cert.KernelIdeal.Cells

end
-- ==== Proof.SplitIdeal.lean ====
/-
  A grid point's share of the bank, cell by cell.

  At grid point i the body touches only the 256 env slabs 256·i₀ + li of the bank, and of the staged block only row
  li for env li. The slabs of one point are pairwise disjoint, because their env coordinates differ, and the 256 staged
  rows tile the staged block. So the bank held whole is the 256 slabs held apart beside everything else, and when each
  slab comes back at contents of its own the bank is whole again at the contents that agree with each slab on that slab
  and with the old contents elsewhere.

  Read entry by entry, those contents are: at entry (e, s, d) with e one of the point's envs whose mask word is positive
  and s that env's slot, the staged row's entry d; everywhere else the old entry. Every env belongs to exactly one of
  the four points, and point t finds staged the observations of its own envs, so the four points in order take the bank
  to the step's specification.
-/
import proofs.«427608_j71184787964323_3_alg».proof.Proof.CellsIdeal
import proofs.«427608_j71184787964323_3_alg».proof.Proof.CellStatesIdeal
import proofs.«427608_j71184787964323_3_alg».proof.Proof.TablesIdeal
import proofs.«427608_j71184787964323_3_alg».proof.Proof.Spec
import Idealize.ShloMosaic.Lib.Pipeline.Value
import Idealize.ShloMosaic.Rules.PointsTo
import Idealize.ShloMosaic.Lib.ReshapeSlab
import Idealize.ShloMosaic.Lib.Pipeline.Kit

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## Sums over the 256 cells -/

section Chains

variable {M : Type} [URA M]

/-- A sum over the 256 cells is the chain of its terms in order. -/
theorem bigSep_cells (Φ : Fin 256 → sProp M) : bigSep Finset.univ Φ = bigSepL (List.finRange 256) Φ :=
  bigSep_univ_eq_bigSepL (List.finRange 256) (by ext x; simp) (List.nodup_finRange 256) Φ

/-- One cell taken out of a sum, the others left. -/
theorem bigSep_cells_take (Φ : Fin 256 → sProp M) (li : Fin 256) :
    bigSep Finset.univ Φ = iprop(Φ li ∗ bigSep (Finset.univ.erase li) Φ) :=
  bigSep_univ_split li

/-- One cell put back changed: the sum of the family changed at that cell. -/
theorem bigSep_cells_put {α : Type} (Ψ : Fin 256 → α → sProp M) (g : Fin 256 → α) (li : Fin 256) (x : α) :
    iprop(Ψ li x ∗ bigSep (Finset.univ.erase li) fun l => Ψ l (g l))
      = bigSep Finset.univ fun l => Ψ l (Function.update g li x l) := by
  rw [bigSep_univ_split li (Φ := fun l => Ψ l (Function.update g li x l)), Function.update_self]
  congr 1
  exact bigSep_congr fun l hl => by rw [Function.update_of_ne (Finset.ne_of_mem_erase hl)]

end Chains

/-! ## The bank: 256 slabs and the rest -/

section Bank

variable (c : Dev nD) (arg5 : Memref sig .tc .hbm S1024x200x512 .f32)

/-- The slab of the point's cell li. -/
abbrev slabAt (i : grid0.Coords) (li : Fin 256) : Finset (Idx (View.loc (c : Thread nD τ) arg5.view)) :=
  slabSet c arg5 (envW i li.val) (envW_lt i li.val li.isLt)

/-- Two cells' slabs share no element: their envs differ. -/
theorem slabAt_disjoint (i : grid0.Coords) (li lj : Fin 256) (h : li ≠ lj) :
    Disjoint (slabAt c arg5 i li) (slabAt c arg5 i lj) := by
  refine View.disjoint_slice_of_sep arg5.view _ _ (0 : Fin 3) rfl rfl ?_
  have hne : li.val ≠ lj.val := fun e => h (Fin.ext e)
  show envW i li.val + 1 ≤ envW i lj.val ∨ envW i lj.val + 1 ≤ envW i li.val
  rw [envW_eq i li.val li.isLt, envW_eq i lj.val lj.isLt]
  omega

/-- The point's 256 slabs together. -/
def slabs (i : grid0.Coords) : Finset (Idx (View.loc (c : Thread nD τ) arg5.view)) :=
  Finset.univ.biUnion (slabAt c arg5 i)

/-- The bank's elements outside the point's slabs. -/
def rest (i : grid0.Coords) : Finset (Idx (View.loc (c : Thread nD τ) arg5.view)) :=
  arg5.view.set \ slabs c arg5 i

theorem slabs_subset (i : grid0.Coords) : slabs c arg5 i ⊆ arg5.view.set :=
  Finset.biUnion_subset.mpr fun _ _ => View.set_slice_subset _ _

/-- The slabs held at one contents are their union held at it. -/
theorem slabs_pointsTo (i : grid0.Coords) (f : Buf (Elt F) (View.loc (c : Thread nD τ) arg5.view)) :
    (bigSep Finset.univ fun li : Fin 256 => slabPt c arg5 (envW i li.val) (envW_lt i li.val li.isLt) f : sProp 𝕄)
      = (View.loc (c : Thread nD τ) arg5.view ↦[slabs c arg5 i]{fullShare} f) :=
  (pointsTo_biUnion Finset.univ (slabAt c arg5 i) fun t _ t' _ h => slabAt_disjoint c arg5 i t t' h).symm

/-- The bank held whole is the point's 256 slabs held apart, beside the rest. -/
theorem bank_split (harg5 : arg5.IsWhole) (i : grid0.Coords) (f : Buf (Elt F) (View.loc (c : Thread nD τ) arg5.view)) :
    (View.loc (c : Thread nD τ) arg5.view ↦{fullShare} f : sProp 𝕄)
      = iprop((bigSep Finset.univ fun li : Fin 256 => slabPt c arg5 (envW i li.val) (envW_lt i li.val li.isLt) f)
          ∗ (View.loc (c : Thread nD τ) arg5.view ↦[rest c arg5 i]{fullShare} f)) := by
  rw [slabs_pointsTo, rest, ← harg5.set_eq_univ]
  have h : (View.loc (c : Thread nD τ) arg5.view ↦[arg5.view.set]{fullShare} f : sProp 𝕄)
      ⊣⊢ iprop((View.loc (c : Thread nD τ) arg5.view ↦[slabs c arg5 i]{fullShare} f)
        ∗ View.loc (c : Thread nD τ) arg5.view ↦[arg5.view.set \ slabs c arg5 i]{fullShare} f) :=
    pointsTo_split_subset (slabs_subset c arg5 i)
  exact equiv_iff.mp ⟨h.1, h.2⟩

/-- The bank's contents when slab li holds g li and the rest holds f. -/
def pointOutG (i : grid0.Coords) (g : Fin 256 → Buf (Elt F) (View.loc (c : Thread nD τ) arg5.view))
    (f : Buf (Elt F) (View.loc (c : Thread nD τ) arg5.view)) : Buf (Elt F) (View.loc (c : Thread nD τ) arg5.view) :=
  fun y => if h : ∃ li : Fin 256, y ∈ slabAt c arg5 i li then g h.choose y else f y

/-- On slab li it is g li. -/
theorem pointOutG_slab (i : grid0.Coords) (g : Fin 256 → Buf (Elt F) (View.loc (c : Thread nD τ) arg5.view))
    (f : Buf (Elt F) (View.loc (c : Thread nD τ) arg5.view)) (li : Fin 256)
    (y : Idx (View.loc (c : Thread nD τ) arg5.view)) (hy : y ∈ slabAt c arg5 i li) :
    pointOutG c arg5 i g f y = g li y := by
  have hex : ∃ lj : Fin 256, y ∈ slabAt c arg5 i lj := ⟨li, hy⟩
  unfold pointOutG
  rw [dif_pos hex]
  have : hex.choose = li := by
    by_contra hne
    exact Finset.disjoint_left.mp (slabAt_disjoint c arg5 i _ _ hne) hex.choose_spec hy
  rw [this]

/-- Off the slabs it is f. -/
theorem pointOutG_rest (i : grid0.Coords) (g : Fin 256 → Buf (Elt F) (View.loc (c : Thread nD τ) arg5.view))
    (f : Buf (Elt F) (View.loc (c : Thread nD τ) arg5.view))
    (y : Idx (View.loc (c : Thread nD τ) arg5.view)) (hy : y ∉ slabs c arg5 i) :
    pointOutG c arg5 i g f y = f y := by
  unfold pointOutG
  rw [dif_neg]
  rintro ⟨li, hli⟩
  exact hy (Finset.mem_biUnion.mpr ⟨li, Finset.mem_univ _, hli⟩)

/-- Each slab back at contents of its own, beside the rest: the bank whole again. -/
theorem bank_rejoin (harg5 : arg5.IsWhole) (i : grid0.Coords) (g : Fin 256 → Buf (Elt F) (View.loc (c : Thread nD τ) arg5.view))
    (f : Buf (Elt F) (View.loc (c : Thread nD τ) arg5.view)) :
    iprop((bigSep Finset.univ fun li : Fin 256 => slabPt c arg5 (envW i li.val) (envW_lt i li.val li.isLt) (g li))
          ∗ (View.loc (c : Thread nD τ) arg5.view ↦[rest c arg5 i]{fullShare} f))
      = (View.loc (c : Thread nD τ) arg5.view ↦{fullShare} pointOutG c arg5 i g f : sProp 𝕄) := by
  have h1 : (bigSep Finset.univ fun li : Fin 256 => slabPt c arg5 (envW i li.val) (envW_lt i li.val li.isLt) (g li) : sProp 𝕄)
      = bigSep Finset.univ fun li : Fin 256 => slabPt c arg5 (envW i li.val) (envW_lt i li.val li.isLt) (pointOutG c arg5 i g f) :=
    bigSep_congr fun li _ => (pointsTo_congr fun y hy => (pointOutG_slab c arg5 i g f li y hy).symm)
  have h2 : (View.loc (c : Thread nD τ) arg5.view ↦[rest c arg5 i]{fullShare} f : sProp 𝕄)
      = (View.loc (c : Thread nD τ) arg5.view ↦[rest c arg5 i]{fullShare} pointOutG c arg5 i g f) :=
    pointsTo_congr fun y hy => (pointOutG_rest c arg5 i g f y (Finset.mem_sdiff.mp hy).2).symm
  exact (congrArg₂ (fun a b : sProp 𝕄 => iprop(a ∗ b)) h1 h2).trans (bank_split c arg5 harg5 i (pointOutG c arg5 i g f)).symm

end Bank

/-! ## The staged block: 256 rows -/

section Stage

variable (c : Dev nD) (arg3 : Memref sig .tc .vmem S256x1x512 .f32)

/-- Row li lies inside the staged block. -/
theorem row_inb (li : Nat) (hli : li < 256) :
    ∀ a : Fin 3, (![li, 0, 0] : Fin 3 → Nat) a + S1x1x512.size a ≤ S256x1x512.size a := by
  intro a; fin_cases a
  · show li + 1 ≤ 256; omega
  · show (0 : ℕ) + 1 ≤ 1; omega
  · show (0 : ℕ) + 512 ≤ 512; omega

/-- The elements of the staged row of cell li. -/
abbrev rowAt (li : Fin 256) : Finset (Idx (View.loc (c : Thread nD τ) arg3.view)) :=
  (rowM arg3 li.val (row_inb li.val li.isLt)).view.set

/-- The squeezed row has the elements of the one-row rectangle. -/
theorem rowAt_eq (li : Fin 256) :
    rowAt c arg3 li
      = (arg3.view.slice (Rect.unit (s := S256x1x512) ![li.val, 0, 0] S1x1x512.size (row_inb li.val li.isLt))).set :=
  View.set_reshape _ _

/-- Two cells' rows share no element. -/
theorem rowAt_disjoint (li lj : Fin 256) (h : li ≠ lj) : Disjoint (rowAt c arg3 li) (rowAt c arg3 lj) := by
  rw [rowAt_eq, rowAt_eq]
  refine View.disjoint_slice_of_sep arg3.view _ _ (0 : Fin 3) rfl rfl ?_
  have hne : li.val ≠ lj.val := fun e => h (Fin.ext e)
  show li.val + 1 ≤ lj.val ∨ lj.val + 1 ≤ li.val
  omega

/-- The 256 rows are the whole block. -/
theorem rows_cover : Finset.univ.biUnion (rowAt c arg3) = arg3.view.set := by
  ext y
  constructor
  · intro hy
    obtain ⟨li, -, hli⟩ := Finset.mem_biUnion.mp hy
    rw [rowAt_eq] at hli
    exact View.set_slice_subset _ _ hli
  · intro hy
    obtain ⟨x, -, rfl⟩ := Finset.mem_map.mp hy
    refine Finset.mem_biUnion.mpr ⟨⟨(x 0).val, (x 0).isLt⟩, Finset.mem_univ _, ?_⟩
    rw [rowAt_eq, View.set_slice]
    refine Finset.mem_map_of_mem _ (LoadRect.mem_set _ |>.mpr fun a => ?_)
    fin_cases a
    · exact ⟨0, Nat.one_pos, by simp [Rect.unit]⟩
    · refine ⟨0, Nat.one_pos, ?_⟩
      have : (x 1).val < 1 := (x 1).isLt
      show (x 1).val = 0 + 1 * 0
      omega
    · exact ⟨(x 2).val, (x 2).isLt, by show (x 2).val = 0 + 1 * (x 2).val; omega⟩

/-- The staged block held whole is its 256 rows held apart. -/
theorem stage_split (harg3 : arg3.IsWhole) (x3 : Buf (Elt F) (View.loc (c : Thread nD τ) arg3.view)) :
    (View.loc (c : Thread nD τ) arg3.view ↦{fullShare} x3 : sProp 𝕄)
      = bigSep Finset.univ fun li : Fin 256 => rowPt c arg3 li.val (row_inb li.val li.isLt) x3 := by
  rw [← harg3.set_eq_univ, ← rows_cover c arg3]
  exact pointsTo_biUnion Finset.univ (rowAt c arg3) fun t _ t' _ h => rowAt_disjoint c arg3 t t' h

end Stage

/-! ## The point's contents, entry by entry -/

section Contents

open Idealize.ShloMosaic.ValueIdx

/-- An element of a view lies under a rectangle's slice exactly when its index lies in the rectangle. -/
theorem emb_mem_slice_iff {κ : Kind} {sp : Space} {s : Shape} {e : EltTy} (v : View sig κ sp s e) (r : Rect s) (y : s.Idx) :
    v.emb y ∈ (v.slice r).set ↔ y ∈ r.set := by
  rw [View.set_slice]; exact Finset.mem_map' _

/-- The bank after grid point i, entry by entry. Entry (e, s, d) with e one of the point's envs 256·i₀ + li whose mask
    word is positive and s the env's slot is the staged row's entry (li, 0, d); every other entry is the bank's own. -/
def pointOut (i : grid0.Coords) (wm ai : S1024.Idx → BitVec 32) (x3 : S256x1x512.Idx → Elt F .f32)
    (f : S1024x200x512.Idx → Elt F .f32) : S1024x200x512.Idx → Elt F .f32 :=
  fun y =>
    if h : 256 * (i 0).val ≤ (y 0).val ∧ (y 0).val < 256 * (i 0).val + 256 then
      if condW (wm (ix1 (y 0))) = 1#1 ∧ (y 1).val = (ai (ix1 (y 0))).toNat then
        x3 (ix3 (⟨(y 0).val - 256 * (i 0).val, by omega⟩ : Fin 256) (0 : Fin 1) (y 2))
      else f y
    else f y

variable (c : Dev nD) (arg3 : Memref sig .tc .vmem S256x1x512 .f32) (arg5 : Memref sig .tc .hbm S1024x200x512 .f32)
  (i : grid0.Coords) (wm ai : S1024.Idx → BitVec 32) (hai : ∀ y, (ai y).toNat < 200)

/-- Slab li's contents when the point's body is over: rewritten by the cell's transfer when the mask word is positive. -/
def cellOut (x3 : Buf (Elt F) (View.loc (c : Thread nD τ) arg3.view)) (f : Buf (Elt F) (View.loc (c : Thread nD τ) arg5.view))
    (li : Fin 256) : Buf (Elt F) (View.loc (c : Thread nD τ) arg5.view) :=
  if condW (wordOf wm i li.val li.isLt) = 1#1 then
    cellWritten c arg3 arg5 i li.val li.isLt (row_inb li.val li.isLt) ai hai x3 f
  else f

/-- An index of the bank lies in env e's slab exactly when its env coordinate is e. -/
theorem mem_slab_iff (e : Nat) (he : e + 1 ≤ 1024) (y : S1024x200x512.Idx) :
    arg5.view.emb y ∈ slabSet c arg5 e he ↔ (y 0).val = e := by
  rw [emb_mem_slice_iff, Rect.mem_set_unit]
  constructor
  · intro h
    have h0 := h 0
    change e ≤ (y 0).val ∧ (y 0).val < e + 1 at h0
    omega
  · intro h a
    fin_cases a
    · show e ≤ (y 0).val ∧ (y 0).val < e + 1; omega
    · show 0 ≤ (y 1).val ∧ (y 1).val < 0 + 200; have := (y 1).isLt; change (y 1).val < 200 at this; omega
    · show 0 ≤ (y 2).val ∧ (y 2).val < 0 + 512; have := (y 2).isLt; change (y 2).val < 512 at this; omega

/-- Where a squeezed one-row slice of a rank-3 memref puts its entry (0, d): at the slice's offsets, d further along
    the last axis. -/
theorem squeezed_row_emb {κ : Kind} {sp : Space} {e : EltTy} {dims : Fin 3 → Nat} (M : Memref sig κ sp ⟨3, dims⟩ e)
    (off : Fin 3 → Nat) (inb : ∀ a, off a + S1x1x512.size a ≤ (⟨3, dims⟩ : Shape).size a) (d : Fin 512)
    (z : (⟨3, dims⟩ : Shape).Idx) (h0 : (z 0).val = off 0) (h1 : (z 1).val = off 1) (h2 : (z 2).val = off 2 + d.val) :
    ((M.slice (Rect.unit (s := ⟨3, dims⟩) off S1x1x512.size inb) (fun _ => rfl)).squeeze S1x512 squeezes_S1x1x512_S1x512).view.emb
        (ix2 (0 : Fin 1) d) = M.view.emb z := by
  show M.view.emb ((Rect.unit (s := ⟨3, dims⟩) off S1x1x512.size inb).emb
    (Shape.reshapeEquiv squeezes_S1x1x512_S1x512.numel_eq (ix2 (0 : Fin 1) d))) = M.view.emb z
  congr 1
  have hre : Shape.reshapeEquiv squeezes_S1x1x512_S1x512.numel_eq (ix2 (0 : Fin 1) d)
      = (ix3 (0 : Fin 1) (0 : Fin 1) d : S1x1x512.Idx) :=
    Shape.reshapeEquiv_eq_of_rowMajor _ (by rw [Shape.rowMajor_val_three, Shape.rowMajor_val_two]; simp)
  rw [hre]
  funext a
  apply Fin.ext
  rw [Rect.emb_apply]
  fin_cases a
  · show off 0 + 1 * 0 = (z 0).val; omega
  · show off 1 + 1 * 0 = (z 1).val; omega
  · show off 2 + 1 * d.val = (z 2).val; omega

/-- The point's contents read back through the bank: slab by slab as the cells leave them, they are the bank after
    the point, entry by entry. -/
theorem read_pointOutG (x3 : Buf (Elt F) (View.loc (c : Thread nD τ) arg3.view))
    (f : Buf (Elt F) (View.loc (c : Thread nD τ) arg5.view)) :
    arg5.view.read (Elt F) (pointOutG c arg5 i (cellOut c arg3 arg5 i wm ai hai x3 f) f)
      = pointOut i wm ai (arg3.view.read (Elt F) x3) (arg5.view.read (Elt F) f) := by
  funext y
  rw [View.read_apply]
  unfold pointOut
  by_cases hr : 256 * (i 0).val ≤ (y 0).val ∧ (y 0).val < 256 * (i 0).val + 256
  · rw [dif_pos hr]
    -- the cell of y's env
    obtain ⟨li, hli⟩ : ∃ li : Fin 256, li.val = (y 0).val - 256 * (i 0).val := ⟨⟨(y 0).val - 256 * (i 0).val, by omega⟩, rfl⟩
    have he : envW i li.val = (y 0).val := by rw [envW_eq i li.val li.isLt]; omega
    have hmem : arg5.view.emb y ∈ slabAt c arg5 i li := (mem_slab_iff c arg5 _ _ y).mpr he.symm
    rw [pointOutG_slab c arg5 i _ f li _ hmem]
    have hix : (ix1 (⟨envW i li.val, by have := envW_lt i li.val li.isLt; omega⟩ : Fin 1024) : S1024.Idx) = ix1 (y 0) :=
      congrArg (ix1 (n := 1024)) (Fin.ext he)
    have hwm : wordOf wm i li.val li.isLt = wm (ix1 (y 0)) := congrArg wm hix
    have hai' : wordOf ai i li.val li.isLt = ai (ix1 (y 0)) := congrArg ai hix
    have hli' : (⟨(y 0).val - 256 * (i 0).val, by omega⟩ : Fin 256) = li := Fin.ext hli.symm
    rw [hli']
    unfold cellOut
    rw [hwm]
    by_cases hc : condW (wm (ix1 (y 0))) = 1#1
    · rw [if_pos hc]
      by_cases hs : (y 1).val = (ai (ix1 (y 0))).toNat
      · rw [if_pos ⟨hc, hs⟩]
        unfold cellWritten
        have hW := squeezed_row_emb arg5 ![envW i li.val, (wordOf ai i li.val li.isLt).toNat, 0]
          (win_inb _ (envW_lt i li.val li.isLt) _ (hai _)) (y 2) y he.symm (by rw [hai']; exact hs)
          (by show (y 2).val = 0 + (y 2).val; omega)
        have hR := squeezed_row_emb arg3 ![li.val, 0, 0] (row_inb li.val li.isLt) (y 2) (ix3 li (0 : Fin 1) (y 2)) rfl rfl
          (by show (y 2).val = 0 + (y 2).val; omega)
        rw [← hW, View.write_emb_of_mem _ _ (Finset.mem_univ _), View.read_apply, View.read_apply, hR, cast_cast, cast_eq]
      · rw [if_neg (fun h => hs h.2)]
        unfold cellWritten
        rw [View.write_of_not_mem]
        · rfl
        · intro hin
          rw [View.setOn_univ, View.set_reshape] at hin
          have h1 := (Rect.mem_set_unit.mp ((emb_mem_slice_iff arg5.view _ y).mp hin)) 1
          change (wordOf ai i li.val li.isLt).toNat ≤ (y 1).val ∧ (y 1).val < (wordOf ai i li.val li.isLt).toNat + 1 at h1
          rw [hai'] at h1
          omega
    · rw [if_neg hc, if_neg (fun h => hc h.1)]; rfl
  · rw [dif_neg hr, pointOutG_rest c arg5 i _ f _ ?_]
    · rfl
    · intro hin
      obtain ⟨lj, -, hlj⟩ := Finset.mem_biUnion.mp hin
      have h0 := (mem_slab_iff c arg5 _ _ y).mp hlj
      rw [envW_eq i lj.val lj.isLt] at h0
      have := lj.isLt
      omega

end Contents

/-! ## The bank is the whole result buffer: the contents themselves -/

section Whole

variable (c : Dev nD) (arg3 : Memref sig .tc .vmem S256x1x512 .f32)
  (i : grid0.Coords) (wm ai : S1024.Idx → BitVec 32) (hai : ∀ y, (ai y).toNat < 200)

/-- A whole buffer read through itself is its contents. -/
theorem read_whole {κ : Kind} {Val : EltTy → Type} (b : Ref sig κ) (g : b.ty.Contents Val) :
    (Memref.whole b).view.read Val g = g := rfl

/-- With the result buffer itself as the bank, the slabs as the cells leave them make the bank after the point. -/
theorem pointOutG_whole (x3 : Buf (Elt F) (View.loc (c : Thread nD τ) arg3.view))
    (f : Buf (Elt F) (View.loc (c : Thread nD τ) (Memref.whole main_v0_0).view)) :
    pointOutG c (Memref.whole main_v0_0) i (cellOut c arg3 (Memref.whole main_v0_0) i wm ai hai x3 f) f
      = pointOut i wm ai (arg3.view.read (Elt F) x3) f := by
  have h := read_pointOutG c arg3 (Memref.whole main_v0_0) i wm ai hai x3 f
  rw [read_whole main_v0_0, read_whole main_v0_0] at h
  exact h

end Whole

/-! ## Four points make the step -/

section FourPoints

open Idealize.ShloMosaic.ValueIdx

variable (wm ai : S1024.Idx → BitVec 32)

/-- At an entry of one of the point's envs the point writes what the step writes: the env's observation, when its mask
    bit is set and the entry lies in its slot. -/
theorem pointOut_here (mask : S1024.Idx → BitVec 1) (hmask : ∀ y, condW (wm y) = 1#1 ↔ mask y = 1#1)
    (obs : S1024x512.Idx → Elt F .f32) (i : grid0.Coords) (t : Nat) (ht : t < 4) (hit : (i 0).val = t)
    (x3 : S256x1x512.Idx → Elt F .f32)
    (hx : ∀ z : S256x1x512.Idx, x3 z = obs (ix2 (⟨256 * t + (z 0).val, by
      have := (z 0).isLt; change (z 0).val < 256 at this; omega⟩ : Fin 1024) (z 2)))
    (f : S1024x200x512.Idx → Elt F .f32) (y : S1024x200x512.Idx)
    (hy : 256 * t ≤ (y 0).val ∧ (y 0).val < 256 * t + 256) :
    pointOut i wm ai x3 f y
      = if mask (ix1 (y 0)) = 1#1 ∧ (y 1).val = (ai (ix1 (y 0))).toNat then obs (ix2 (y 0) (y 2)) else f y := by
  unfold pointOut
  rw [dif_pos (by rw [hit]; exact hy)]
  by_cases hc : condW (wm (ix1 (y 0))) = 1#1 ∧ (y 1).val = (ai (ix1 (y 0))).toNat
  · rw [if_pos hc, if_pos ⟨(hmask _).mp hc.1, hc.2⟩, hx]
    congr 2
    apply Fin.ext
    show 256 * t + ((y 0).val - 256 * (i 0).val) = (y 0).val
    rw [hit]; omega
  · rw [if_neg hc, if_neg (fun h => hc ⟨(hmask _).mpr h.1, h.2⟩)]

/-- At an entry of any other env the point leaves the bank as it is. -/
theorem pointOut_away (i : grid0.Coords) (t : Nat) (hit : (i 0).val = t) (x3 : S256x1x512.Idx → Elt F .f32)
    (f : S1024x200x512.Idx → Elt F .f32) (y : S1024x200x512.Idx)
    (hy : ¬(256 * t ≤ (y 0).val ∧ (y 0).val < 256 * t + 256)) :
    pointOut i wm ai x3 f y = f y := by
  unfold pointOut
  rw [dif_neg (by rw [hit]; exact hy)]

/-- The four grid points in order, each finding in the staged block its own 256 observations, take the bank to the
    step's result. -/
theorem four_points (mask : S1024.Idx → BitVec 1) (hmask : ∀ y, condW (wm y) = 1#1 ↔ mask y = 1#1)
    (obs : S1024x512.Idx → Elt F .f32) (i0 i1 i2 i3 : grid0.Coords) (h0 : (i0 0).val = 0) (h1 : (i1 0).val = 1) (h2 : (i2 0).val = 2)
    (h3 : (i3 0).val = 3) (x0 x1 x2 x3 : S256x1x512.Idx → Elt F .f32)
    (hx0 : ∀ z : S256x1x512.Idx, x0 z = obs (ix2 (⟨256 * 0 + (z 0).val, by
      have := (z 0).isLt; change (z 0).val < 256 at this; omega⟩ : Fin 1024) (z 2)))
    (hx1 : ∀ z : S256x1x512.Idx, x1 z = obs (ix2 (⟨256 * 1 + (z 0).val, by
      have := (z 0).isLt; change (z 0).val < 256 at this; omega⟩ : Fin 1024) (z 2)))
    (hx2 : ∀ z : S256x1x512.Idx, x2 z = obs (ix2 (⟨256 * 2 + (z 0).val, by
      have := (z 0).isLt; change (z 0).val < 256 at this; omega⟩ : Fin 1024) (z 2)))
    (hx3 : ∀ z : S256x1x512.Idx, x3 z = obs (ix2 (⟨256 * 3 + (z 0).val, by
      have := (z 0).isLt; change (z 0).val < 256 at this; omega⟩ : Fin 1024) (z 2)))
    (bank : S1024x200x512.Idx → Elt F .f32) :
    pointOut i3 wm ai x3 (pointOut i2 wm ai x2 (pointOut i1 wm ai x1 (pointOut i0 wm ai x0 bank)))
      = Cert.Scatter.updated mask ai bank obs := by
  funext y
  have hy : (y 0).val < 1024 := (y 0).isLt
  unfold Cert.Scatter.updated
  by_cases c0 : (y 0).val < 256
  · rw [pointOut_away wm ai i3 3 h3 _ _ y (by omega), pointOut_away wm ai i2 2 h2 _ _ y (by omega),
      pointOut_away wm ai i1 1 h1 _ _ y (by omega),
      pointOut_here wm ai mask hmask obs i0 0 (by omega) h0 x0 hx0 _ y (by omega)]
  by_cases c1 : (y 0).val < 512
  · rw [pointOut_away wm ai i3 3 h3 _ _ y (by omega), pointOut_away wm ai i2 2 h2 _ _ y (by omega),
      pointOut_here wm ai mask hmask obs i1 1 (by omega) h1 x1 hx1 _ y (by omega),
      pointOut_away wm ai i0 0 h0 _ _ y (by omega)]
  by_cases c2 : (y 0).val < 768
  · rw [pointOut_away wm ai i3 3 h3 _ _ y (by omega),
      pointOut_here wm ai mask hmask obs i2 2 (by omega) h2 x2 hx2 _ y (by omega),
      pointOut_away wm ai i1 1 h1 _ _ y (by omega), pointOut_away wm ai i0 0 h0 _ _ y (by omega)]
  · rw [pointOut_here wm ai mask hmask obs i3 3 (by omega) h3 x3 hx3 _ y (by omega),
      pointOut_away wm ai i2 2 h2 _ _ y (by omega),
      pointOut_away wm ai i1 1 h1 _ _ y (by omega), pointOut_away wm ai i0 0 h0 _ _ y (by omega)]

end FourPoints

/-! ## What a point finds staged: its own 256 observations -/

section Blocks

open Idealize.ShloMosaic.ValueIdx

/-- The laid-out observations at (e, 0, d) are observation (e, d). -/
theorem obs3_apply (obs : FVec F S1024x512 .f32) (w : S1024x1x512.Idx) :
    Tables.obs3 obs w = obs (ix2 (w 0) (w 2)) := by
  unfold Tables.obs3
  refine broadcastInDim_apply _ _ obs w (ix2 (w 0) (w 2)) fun a => ?_
  fin_cases a
  · show (w 0).val = if (1024 : ℕ) = 1 then 0 else (w 0).val
    rw [if_neg (by decide)]
  · show (w 2).val = if (512 : ℕ) = 1 then 0 else (w 2).val
    rw [if_neg (by decide)]

/-- The block of 256 rows at rows 256·t … of the laid-out observations, read entry by entry: the block point t finds
    staged. -/
theorem obs_block_read (obs : FVec F S1024x512 .f32) (t : Nat) (ht : t < 4) (off : Fin 3 → Nat)
    (inb : ∀ a, off a + S256x1x512.size a ≤ S1024x1x512.size a) (h0 : off 0 = 256 * t) (h1 : off 1 = 0) (h2 : off 2 = 0)
    (z : S256x1x512.Idx) :
    ((Memref.whole main_call0_v14).slice (Rect.unit (s := S1024x1x512) off S256x1x512.size inb) (fun _ => rfl)).view.read
        (Elt F) (Tables.obs3 obs) z
      = obs (ix2 (⟨256 * t + (z 0).val, by
          have := (z 0).isLt; change (z 0).val < 256 at this; omega⟩ : Fin 1024) (z 2)) := by
  show Tables.obs3 obs ((Rect.unit (s := S1024x1x512) off S256x1x512.size inb).emb z) = _
  rw [obs3_apply]
  refine congrArg₂ (fun (a : Fin 1024) (b : Fin 512) => obs (ix2 a b)) (Fin.ext ?_) (Fin.ext ?_)
  · show off 0 + 1 * (z 0).val = 256 * t + (z 0).val
    omega
  · show off 2 + 1 * (z 2).val = (z 2).val
    omega

end Blocks

/-! ## The four points of the grid, on the tables the host stretch makes -/

section Grid

open Idealize.ShloMosaic.ValueIdx

/-- The 256 rows 256·t … of an array of 1024 rows. -/
def rowsOf (t : Nat) (ht : t < 4) (X : S1024x1x512.Idx → Elt F .f32) : S256x1x512.Idx → Elt F .f32 :=
  fun j => X (ix3 (⟨256 * t + (j 0).val, by
    have h0 : (j 0).val < 256 := (j 0).isLt
    omega⟩ : Fin 1024) (j 1) (j 2))

/-- The grid's four points in order, on the mask words and slot words the host stretch computes, each finding staged
    its own rows of the laid-out observations, take the bank to the step's result. -/
theorem four_points_grid (sim : FVec F S1024 .f32) (mm ri : IVec S1024 32) (bank : FVec F S1024x200x512 .f32)
    (obs : FVec F S1024x512 .f32) :
    pointOut (grid0.coords t0_3) (Tables.wordT sim) (Tables.slotT sim mm ri) (rowsOf 3 (by decide) (Tables.obs3 obs))
        (pointOut (grid0.coords t0_2) (Tables.wordT sim) (Tables.slotT sim mm ri) (rowsOf 2 (by decide) (Tables.obs3 obs))
          (pointOut (grid0.coords t0_1) (Tables.wordT sim) (Tables.slotT sim mm ri) (rowsOf 1 (by decide) (Tables.obs3 obs))
            (pointOut (grid0.coords t0_0) (Tables.wordT sim) (Tables.slotT sim mm ri) (rowsOf 0 (by decide) (Tables.obs3 obs))
              bank)))
      = Cert.Scatter.updated (Tables.maskT sim) (Tables.slotT sim mm ri) bank obs :=
  four_points (Tables.wordT sim) (Tables.slotT sim mm ri) (Tables.maskT sim) (fun y => Tables.word_pos_iff sim y) obs
    (grid0.coords t0_0) (grid0.coords t0_1) (grid0.coords t0_2) (grid0.coords t0_3) (by decide) (by decide) (by decide) (by decide)
    _ _ _ _ (fun _ => obs3_apply obs _) (fun _ => obs3_apply obs _) (fun _ => obs3_apply obs _) (fun _ => obs3_apply obs _) bank

end Grid

end Cert.KernelIdeal.Cells

end
-- ==== Proof.Claims.lean ====
/-
  The claims, assembled.

  The kernel's program runs as its launch says once one grid point's run of the body is given: the bank ends as the
  fourth point leaves it, the new counts as the host operations computed them, the arguments untouched. Four points'
  runs in a row, each on its own 256 rows of the observations, make of the bank exactly the specification's updated
  bank (given as a hypothesis here: every env is handled at one point, and points do not touch each other's envs). The
  reference's run ends at the same updated bank and the same new counts, its mask, slot and count functions being the
  kernel's host operations term for term. So the two programs agree, and each leaves its arguments as they were.
-/
import proofs.«427608_j71184787964323_3_alg».proof.Defs
import proofs.«427608_j71184787964323_3_alg».proof.Proof.BodyIdeal
import proofs.«427608_j71184787964323_3_alg».proof.Proof.TablesIdeal
import proofs.«427608_j71184787964323_3_alg».proof.Proof.BodyBits
import proofs.«427608_j71184787964323_3_alg».proof.Proof.TablesBits
import proofs.«427608_j71184787964323_3_alg».proof.Proof.RefValue
import proofs.«427608_j71184787964323_3_alg».proof.Proof.SplitIdeal
import proofs.«427608_j71184787964323_3_alg».proof.Proof.Gen.Kernel
import proofs.«427608_j71184787964323_3_alg».proof.Proof.Gen.KernelIdeal
import proofs.«427608_j71184787964323_3_alg».proof.Proof.Gen.ReferenceIdeal
import proofs.«427608_j71184787964323_3_alg».proof.Proof.Gen.Pre_finite_inputs

noncomputable section

namespace Cert.Proof.Claims

open Idealize.ShloMosaic Idealize.ShloMosaic.TcCoe Idealize.ShloMosaic.ValueIdx Idealize.SL.Sem

/-! ## The staged block as rows of the observations; the bank after four points -/

section Kernel

open Cert.KernelIdeal Cert.KernelIdeal.Gen Cert.KernelIdeal.Routed Cert.KernelIdeal.Tables

variable {F : FTy → Type} [FloatOps F]

/-- Rows 256·t to 256·t + 255 of a [1024, 1, 512] array, as a [256, 1, 512] block. -/
def rowsAt (t : Fin grid0.N) (X : Vec F S1024x1x512 .f32) : Vec F S256x1x512 .f32 :=
  fun j => X (ix3 ⟨256 * t.val + (j 0).val, by
    have h : t.val < 4 := lt_of_lt_of_eq t.isLt N_0
    have h0 : (j 0).val < 256 := (j 0).isLt
    omega⟩ (j 1) (j 2))

variable (m : (ℓ : Loc nD τ sig) → Buf (Elt F) ℓ) (a : (p : Fin 1) → (pcfgs (F := F) p).Adm)

/-- The block staged at point t is those rows of the laid-out observations. -/
theorem blockAt_eq_rowsAt (c : Dev nD) (t : Fin grid0.N) : blockAt m a c t = rowsAt t (V m c main_call0_v14) := by
  funext j
  show V m c main_call0_v14 ((((Pipeline.pin (pcfgs (F := F)) a 0).win 0).rect t).emb j) = V m c main_call0_v14 (ix3 _ (j 1) (j 2))
  refine congrArg _ (funext fun (k : Fin 3) => Fin.ext ?_)
  match k with
  | ⟨0, _⟩ =>
    show cc0_transform_0 (grid0.coords t) (0 : Fin 3) * 256 + 1 * (j 0).val = 256 * t.val + (j 0).val
    rw [transform_coord]; omega
  | ⟨1, _⟩ => show 0 * 1 + 1 * (j 1).val = (j 1).val; omega
  | ⟨2, _⟩ => show 0 * 512 + 1 * (j 2).val = (j 2).val; omega

variable (P : Fin grid0.N → Vec F S1024 .i32 → Vec F S1024 .i32 → Vec F S256x1x512 .f32
      → Vec F S1024x200x512 .f32 → Vec F S1024x200x512 .f32)

/-- The bank after the four points, spelt out. -/
theorem Ytab_four (c : Dev nD) :
    Ytab m P a c 4
      = P t0_3 ((a 0).1 1) ((a 0).1 0) (blockAt m a c t0_3)
          (P t0_2 ((a 0).1 1) ((a 0).1 0) (blockAt m a c t0_2)
            (P t0_1 ((a 0).1 1) ((a 0).1 0) (blockAt m a c t0_1)
              (P t0_0 ((a 0).1 1) ((a 0).1 0) (blockAt m a c t0_0) (V m c main_v0_0)))) := by
  rw [show (4 : ℕ) = t0_3.val + 1 from rfl, Ytab_succ, show t0_3.val = t0_2.val + 1 from rfl, Ytab_succ,
    show t0_2.val = t0_1.val + 1 from rfl, Ytab_succ, show t0_1.val = t0_0.val + 1 from rfl, Ytab_succ]
  rfl

/-- Four points' runs in a row, each on its own rows of the laid-out observations, make of a bank the specification's
    updated bank: every env is handled at exactly one point, by that env's mask word and slot word. -/
def Four : Prop :=
  ∀ (sim : FVec F S1024 .f32) (mm ri : IVec S1024 32) (bank : FVec F S1024x200x512 .f32) (obs : FVec F S1024x512 .f32),
    P t0_3 (wordT sim) (slotT sim mm ri) (rowsAt t0_3 (obs3 obs))
        (P t0_2 (wordT sim) (slotT sim mm ri) (rowsAt t0_2 (obs3 obs))
          (P t0_1 (wordT sim) (slotT sim mm ri) (rowsAt t0_1 (obs3 obs))
            (P t0_0 (wordT sim) (slotT sim mm ri) (rowsAt t0_0 (obs3 obs)) bank)))
      = Cert.Scatter.updated (maskT sim) (slotT sim mm ri) bank obs

/-- At the tables the host operations make, the bank after the four points is the specification's updated bank of the
    launch memory's five inputs. -/
theorem Ytab_four_adm (hfour : Four P) (c : Dev nD) :
    Ytab m P (adm m) c 4
      = Cert.Scatter.updated (maskT (m ((c : Thread nD τ).loc main_arg2)))
          (slotT (m ((c : Thread nD τ).loc main_arg2)) (m ((c : Thread nD τ).loc main_arg3)) (m ((c : Thread nD τ).loc main_arg4)))
          (m ((c : Thread nD τ).loc main_arg0)) (m ((c : Thread nD τ).loc main_arg1)) := by
  obtain rfl : c = 0 := Subsingleton.elim c 0
  rw [Ytab_four, blockAt_eq_rowsAt, blockAt_eq_rowsAt, blockAt_eq_rowsAt, blockAt_eq_rowsAt, adm_mask, adm_slot,
    show V m 0 main_call0_v13 = wordT _ from after_word m 0,
    show V m 0 main_call0_v12 = slotT _ _ _ from after_slot m 0,
    show V m 0 main_call0_v14 = obs3 _ from after_obs3 m 0,
    show V m 0 main_v0_0 = m (((0 : Dev nD) : Thread nD τ).loc main_arg0) from after_bank m 0]
  exact hfour _ _ _ _ _

end Kernel

/-! ## The reference's host terms are the kernel's -/

section Bridge

open Cert.ReferenceIdeal.RefValue Cert.KernelIdeal.Tables

variable {F : FTy → Type} [FloatOps F]

theorem maskR_eq (x2 : FVec F Cert.KernelIdeal.S1024 .f32) : maskR (F := F) x2 = maskT x2 := by
  funext i; rw [maskR_apply]; rfl

theorem newCountR_eq (x2 : FVec F Cert.KernelIdeal.S1024 .f32) (x3 : IVec Cert.KernelIdeal.S1024 32) :
    newCountR (F := F) x2 x3 = newCountT x2 x3 := by
  funext i; rw [newCountR_apply, maskR_eq]; rfl

theorem slotR_eq (x2 : FVec F Cert.KernelIdeal.S1024 .f32) (x3 x4 : IVec Cert.KernelIdeal.S1024 32) :
    slotR (F := F) x2 x3 x4 = slotT x2 x3 x4 := by
  funext i; rw [slotR_apply, newCountR_eq]; rfl

end Bridge

/-! ## The claims -/

section Claims

/-- Under the precondition the slot words the idealized kernel's host operations make are below 200, -/
theorem hslot_of_pre (m : (ℓ : Loc Cert.KernelIdeal.nD Cert.KernelIdeal.τ Cert.KernelIdeal.sig) → Buf (Elt Ideal) ℓ)
    (hpre : Cert.Pre_KernelIdeal m) (y : Cert.KernelIdeal.S1024.Idx) :
    (Cert.KernelIdeal.Routed.V m 0 Cert.KernelIdeal.main_call0_v12 y : BitVec 32).toNat < 200 := by
  have h := Cert.KernelIdeal.Tables.slot_lt m 0 hpre y
  rw [← Cert.KernelIdeal.Tables.after_slot (F := Ideal) m 0] at h
  exact h

/-- and so are the word-level kernel's. -/
theorem hslot_of_preB (m : (ℓ : Loc Cert.Kernel.nD Cert.Kernel.τ Cert.Kernel.sig) → Buf (Elt Bits) ℓ)
    (hpre : Cert.Pre_Kernel m) (y : Cert.Kernel.S1024.Idx) :
    (Cert.Kernel.Routed.V m 0 Cert.Kernel.main_call0_v12 y : BitVec 32).toNat < 200 := by
  have h := Cert.Kernel.Tables.slot_lt m 0 hpre y
  rw [← Cert.Kernel.Tables.after_slot (F := Bits) m 0] at h
  exact h

/-- The word-level kernel runs and leaves its arguments as they were: any account of one point's run will do. -/
theorem frame_Kernel (Hk : ∃ PB, Cert.Kernel.Routed.PointRun (F := Bits) Variants.none PB) : Cert.frame_Kernel := by
  obtain ⟨PB, hpoint⟩ := Hk
  intro m g hpre
  refine (θ_run _ _ _).mono (fun r h c => ?_)
    (Cert.Kernel.Routed.run_of_point_adm m PB g Variants.none hpoint (hslot_of_preB m hpre))
  obtain ⟨-, hr⟩ := h c
  exact ⟨(hr Cert.Kernel.main_arg0 rfl (by decide)).trans (Cert.Kernel.Routed.V_arg0 m c),
    (hr Cert.Kernel.main_arg1 rfl (by decide)).trans (Cert.Kernel.Routed.V_arg1 m c),
    (hr Cert.Kernel.main_arg2 rfl (by decide)).trans (Cert.Kernel.Routed.V_arg2 m c),
    (hr Cert.Kernel.main_arg3 rfl (by decide)).trans (Cert.Kernel.Routed.V_arg3 m c),
    (hr Cert.Kernel.main_arg4 rfl (by decide)).trans (Cert.Kernel.Routed.V_arg4 m c)⟩

variable (P : Fin Cert.KernelIdeal.grid0.N → Vec Ideal Cert.KernelIdeal.S1024 .i32 → Vec Ideal Cert.KernelIdeal.S1024 .i32
      → Vec Ideal Cert.KernelIdeal.S256x1x512 .f32 → Vec Ideal Cert.KernelIdeal.S1024x200x512 .f32
      → Vec Ideal Cert.KernelIdeal.S1024x200x512 .f32)
  (hpoint : Cert.KernelIdeal.Routed.PointRun (F := Ideal) Variants.none P)

include hpoint in
/-- The idealized kernel runs and leaves its arguments as they were. -/
theorem frame_KernelIdeal : Cert.frame_KernelIdeal := by
  intro m g hpre
  refine (θ_run _ _ _).mono (fun r h c => ?_)
    (Cert.KernelIdeal.Routed.run_of_point_adm m P g Variants.none hpoint (hslot_of_pre m hpre))
  obtain ⟨-, hr⟩ := h c
  exact ⟨(hr Cert.KernelIdeal.main_arg0 rfl (by decide)).trans (Cert.KernelIdeal.Routed.V_arg0 m c),
    (hr Cert.KernelIdeal.main_arg1 rfl (by decide)).trans (Cert.KernelIdeal.Routed.V_arg1 m c),
    (hr Cert.KernelIdeal.main_arg2 rfl (by decide)).trans (Cert.KernelIdeal.Routed.V_arg2 m c),
    (hr Cert.KernelIdeal.main_arg3 rfl (by decide)).trans (Cert.KernelIdeal.Routed.V_arg3 m c),
    (hr Cert.KernelIdeal.main_arg4 rfl (by decide)).trans (Cert.KernelIdeal.Routed.V_arg4 m c)⟩

/-- The reference runs and leaves its arguments as they were. -/
theorem frame_ReferenceIdeal : Cert.frame_ReferenceIdeal := by
  intro m g hpre
  exact (θ_run _ _ _).mono (fun r h c => (h c).2.2) (Cert.ReferenceIdeal.RefValue.run_value m g hpre)

include hpoint in
/-- From memories agreeing on the arguments, kernel and reference end with the same bank — the specification's updated
    bank — and the same new counts, their arguments as they were. -/
theorem algebraic (hfour : Four P) : Cert.algebraic_KernelIdeal_ReferenceIdeal := by
  intro m g m' g' hpre hagree
  refine ⟨fun c => Cert.Scatter.updated
      (Cert.KernelIdeal.Tables.maskT (F := Ideal) (m ((c : Thread Cert.KernelIdeal.nD Cert.KernelIdeal.τ).loc Cert.KernelIdeal.main_arg2)))
      (Cert.KernelIdeal.Tables.slotT (F := Ideal) (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4)))
      (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => Cert.KernelIdeal.Tables.newCountT (F := Ideal)
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · -- the kernel
    refine (θ_run _ _ _).mono (fun r h c => ?_)
      (Cert.KernelIdeal.Routed.run_of_point_adm m P g Variants.none hpoint (hslot_of_pre m hpre))
    obtain ⟨h0, hr⟩ := h c
    exact ⟨h0.trans (Ytab_four_adm m P hfour c),
      (hr Cert.KernelIdeal.main_v0_1 rfl (by decide)).trans (Cert.KernelIdeal.Tables.after_newCount m c),
      (hr Cert.KernelIdeal.main_arg0 rfl (by decide)).trans (Cert.KernelIdeal.Routed.V_arg0 m c),
      (hr Cert.KernelIdeal.main_arg1 rfl (by decide)).trans (Cert.KernelIdeal.Routed.V_arg1 m c),
      (hr Cert.KernelIdeal.main_arg2 rfl (by decide)).trans (Cert.KernelIdeal.Routed.V_arg2 m c),
      (hr Cert.KernelIdeal.main_arg3 rfl (by decide)).trans (Cert.KernelIdeal.Routed.V_arg3 m c),
      (hr Cert.KernelIdeal.main_arg4 rfl (by decide)).trans (Cert.KernelIdeal.Routed.V_arg4 m c)⟩
  · -- the reference, its inputs the kernel's
    have hpre' : Cert.Pre_ReferenceIdeal m' := fun c => by
      obtain ⟨h0, h1, h2, h3, h4⟩ := hagree c
      rw [h0, h1, h2, h3, h4]; exact hpre c
    refine (θ_run _ _ _).mono (fun r h c => ?_) (Cert.ReferenceIdeal.RefValue.run_value m' g' hpre')
    obtain ⟨h43, h7, hargs⟩ := h c
    obtain ⟨h0, h1, h2, h3, h4⟩ := hagree c
    refine ⟨?_, ?_, hargs⟩
    · rw [h43, maskR_eq, slotR_eq, h0, h1, h2, h3, h4]
    · rw [h7, newCountR_eq, h2, h3]

include hpoint in
/-- Everything the certificate claims, from one point's run of each program's body and the four points' sum. -/
theorem claim_of (Hk : ∃ PB, Cert.Kernel.Routed.PointRun (F := Bits) Variants.none PB) (hfour : Four P) : Cert.Claim :=
  ⟨Cert.Kernel.Gen.facts, Cert.KernelIdeal.Gen.facts, Cert.ReferenceIdeal.Gen.facts, Cert.Pre_finite_inputs.Gen.facts,
    frame_Kernel Hk, frame_KernelIdeal P hpoint, frame_ReferenceIdeal, trivial, algebraic P hpoint hfour⟩

end Claims

/-! ## With the cells' account of a point -/

section Cells

open Cert.KernelIdeal Cert.KernelIdeal.Gen

/-- The four points' sum holds of the entry-by-entry account of a point: each env lies in exactly one point's 256. -/
theorem four_cells {F : FTy → Type} [FloatOps F] :
    Four (F := F) (fun t => Cert.KernelIdeal.Cells.pointOut (F := F) (grid0.coords t)) :=
  fun sim mm ri bank obs => Cert.KernelIdeal.Cells.four_points_grid sim mm ri bank obs

/-- Everything the certificate claims, from one point's run of each program's body. -/
theorem claim_of_cells (Hk : ∃ PB, Cert.Kernel.Routed.PointRun (F := Bits) Variants.none PB)
    (hpoint : Cert.KernelIdeal.Routed.PointRun (F := Ideal) Variants.none
      (fun t => Cert.KernelIdeal.Cells.pointOut (F := Ideal) (grid0.coords t))) : Cert.Claim :=
  claim_of _ hpoint Hk four_cells

/-- info: 'Cert.Proof.Claims.claim_of_cells' depends on axioms: [propext, Classical.choice, Quot.sound] -/
#guard_msgs in #print axioms claim_of_cells

end Cells

end Cert.Proof.Claims

end
-- ==== Proof.StartStepIdeal.lean ====
/-
  The start step of one cell, as two rules over the cell's own resources. The body first loads the cell's mask word: the
  word read through the whole mask table at the unit rectangle at entry envW i li is that entry of the table. It then
  tests the word. When it is positive the body loads the cell's slot word (the same entry of the slot table), assumes
  that the one-row window at that slot lies inside the bank (it does: every slot word is below 200), and issues the copy
  of the cell's staged row into that window on the cell's semaphore; the window lies inside the cell's slab, so the slab,
  the row and the semaphore at zero are exactly what the copy takes, and it leaves the cell in flight. When the word is
  not positive nothing is touched. Either way the cell ends as `cellStarted` says and the slot table is handed back.
  The printed offsets, test and check of a site enter as variables tied to the cell's canonical terms by equations.
-/
import proofs.«427608_j71184787964323_3_alg».proof.Proof.CellStatesIdeal

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- A word load continued is the element load with that continuation. -/
theorem smemLoad_bind_eq {p : Proc τ} {s : Shape} {e : EltTy} {α : Type} (m : Memref sig p.kind .smem s e) (r : Rect s)
    (h1 : r.shape.numel = 1) (hp : e.packing = 1) (k : Elt F e → Prog (TpuEff nD τ sig (Elt F) Λ₀ p) α) :
    (smemLoad m r h1 hp >>= k) = smemLoadElt m r (View.loads_smem_one hp h1) (Shape.Idx.first (h1.symm ▸ Nat.one_pos)) k := rfl

/-- The one index of the unit rectangle at entry e of a 1024-word table is entry e. -/
theorem unit_idx_first (e : Nat) (he : e < 1024) (inb : ∀ a, (![e] : Fin 1 → Nat) a + S1.size a ≤ S1024.size a)
    (h : 0 < (Rect.unit (s := S1024) ![e] S1.size inb).shape.numel) :
    (Rect.unit (s := S1024) ![e] S1.size inb).toLoadRect.idx (Shape.Idx.first h) = ValueIdx.ix1 (⟨e, he⟩ : Fin 1024) := by
  funext a
  apply Fin.ext
  fin_cases a
  show e + 1 * 0 = e
  omega

/-- The one-row window at slot s of env e lies inside env e's slab. -/
theorem win_subset_slab (c : Dev nD) (arg5 : Memref sig .tc .hbm S1024x200x512 .f32) (e : Nat) (he : e + 1 ≤ 1024) (s : Nat) (hs : s < 200)
    (inb : ∀ a, (![e, s, 0] : Fin 3 → Nat) a + S1x1x512.size a ≤ S1024x200x512.size a) :
    (winM arg5 ![e, s, 0] inb).view.set ⊆ slabSet c arg5 e he := by
  refine Memref.subset_of_eq_set (Memref.set_view_squeeze
    (arg5.slice (Rect.unit (s := S1024x200x512) ![e, s, 0] S1x1x512.size inb) (fun _ => rfl)) squeezes_S1x1x512_S1x512) ?_
  show (arg5.view.slice (Rect.unit (s := S1024x200x512) ![e, s, 0] S1x1x512.size inb)).set
    ⊆ (arg5.view.slice (Rect.unit (s := S1024x200x512) ![e, 0, 0] ![1, 200, 512] (slab_inb e he))).set
  rw [View.set_slice, View.set_slice]
  refine Finset.map_subset_map.mpr fun x hx => ?_
  rw [LoadRect.mem_set] at hx ⊢
  intro a
  obtain ⟨t, ht, et⟩ := hx a
  fin_cases a
  · exact ⟨t, ht, et⟩
  · refine ⟨s + t, ?_, ?_⟩
    · have : t < 1 := ht
      show s + t < 200
      omega
    · have e1 : (x 1 : Nat) = s + 1 * t := et
      show (x 1 : Nat) = 0 + 1 * (s + t)
      omega
  · exact ⟨t, ht, et⟩

/-- The cell's entry of a 1024-word table lies inside the table. -/
theorem env_inb (i : grid0.Coords) (li : Nat) (hli : li < 256) : ∀ a, (![envW i li] : Fin 1 → Nat) a + S1.size a ≤ S1024.size a := by
  intro a; fin_cases a; exact envW_lt i li hli

/-- LOAD of the cell's mask word: the word read is the cell's entry of the mask table. -/
theorem loadMask_wp (c : Dev nD) (𝒱₀ : Variants) (i : grid0.Coords) (li : Nat) (hli : li < 256) (q : PosShare TreeShare)
    (wm : S1024.Idx → BitVec 32) {off : Fin 1 → Nat} (hoff : off = ![envW i li])
    {inb : ∀ a, off a + S1.size a ≤ S1024.size a} {h1 : S1.numel = 1} {hp : EltTy.i32.packing = 1}
    {α : Type} {k : BitVec 32 → Prog (TpuEff nD τ sig (Elt F) Λ₀ .tc) α} {Q : α → sProp 𝕄} :
    (((c : Thread nD τ).loc main_call0_v13 ↦{q} wm : sProp 𝕄))
      ⊢ iprop((((c : Thread nD τ).loc main_call0_v13 ↦{q} wm) -∗ ∀ w, ⌜w = wordOf wm i li hli⌝
            -∗ wp frame (wpE (defs₀ (F := F)) 𝒱₀ (c : Thread nD τ) none) Set.univ (k w) Q)
          -∗ wp frame (wpE (defs₀ (F := F)) 𝒱₀ (c : Thread nD τ) none) Set.univ
              (smemLoad (Memref.whole main_call0_v13) (Rect.unit (s := S1024) off S1.size inb) h1 hp >>= k) Q) := by
  subst hoff
  rw [smemLoad_bind_eq]
  iintro HT Hk
  iapply (wp_smemLoadElt (defs := defs₀ (F := F)) 𝒱₀ (c : Thread nD τ) none Set.univ (m := Memref.whole main_call0_v13)
    (r := Rect.unit (s := S1024) ![envW i li] S1.size inb) (S := Finset.univ) (Finset.subset_univ _)) $$ HT
  iintro HT
  iapply Hk $$ HT
  ipureintro
  exact congrArg wm (unit_idx_first _ _ inb _)

/-- LOAD of the cell's slot word: the word read is the cell's entry of the slot table. -/
theorem loadSlot_wp (c : Dev nD) (𝒱₀ : Variants) (i : grid0.Coords) (li : Nat) (hli : li < 256) (q : PosShare TreeShare)
    (ai : S1024.Idx → BitVec 32) {off : Fin 1 → Nat} (hoff : off = ![envW i li])
    {inb : ∀ a, off a + S1.size a ≤ S1024.size a} {h1 : S1.numel = 1} {hp : EltTy.i32.packing = 1}
    {α : Type} {k : BitVec 32 → Prog (TpuEff nD τ sig (Elt F) Λ₀ .tc) α} {Q : α → sProp 𝕄} :
    (((c : Thread nD τ).loc main_call0_v12 ↦{q} ai : sProp 𝕄))
      ⊢ iprop((((c : Thread nD τ).loc main_call0_v12 ↦{q} ai) -∗ ∀ w, ⌜w = wordOf ai i li hli⌝
            -∗ wp frame (wpE (defs₀ (F := F)) 𝒱₀ (c : Thread nD τ) none) Set.univ (k w) Q)
          -∗ wp frame (wpE (defs₀ (F := F)) 𝒱₀ (c : Thread nD τ) none) Set.univ
              (smemLoad (Memref.whole main_call0_v12) (Rect.unit (s := S1024) off S1.size inb) h1 hp >>= k) Q) := by
  subst hoff
  rw [smemLoad_bind_eq]
  iintro HT Hk
  iapply (wp_smemLoadElt (defs := defs₀ (F := F)) 𝒱₀ (c : Thread nD τ) none Set.univ (m := Memref.whole main_call0_v12)
    (r := Rect.unit (s := S1024) ![envW i li] S1.size inb) (S := Finset.univ) (Finset.subset_univ _)) $$ HT
  iintro HT
  iapply Hk $$ HT
  ipureintro
  exact congrArg ai (unit_idx_first _ _ inb _)

/-- GUARD of the cell's start step. -/
theorem startGuard_wp (c : Dev nD) (𝒱₀ : Variants) (arg3 : Memref sig .tc .vmem S256x1x512 .f32) (arg5 : Memref sig .tc .hbm S1024x200x512 .f32)
    (i : grid0.Coords) (li j : Nat) (hli : li < 256)
    (hrow : ∀ a, (![li, 0, 0] : Fin 3 → Nat) a + S1x1x512.size a ≤ S256x1x512.size a)
    (hj : ∀ a, (![j] : Fin 1 → Nat) a + S1.size a ≤ S16.size a)
    (q : PosShare TreeShare) (ai wm : S1024.Idx → BitVec 32) (hai : ∀ y, (ai y).toNat < 200)
    (w : BitVec 32) (hw : w = wordOf wm i li hli)
    (cnd : BitVec 32 → BitVec 1) (hcnd : ∀ w, cnd w = condW w)
    (chk : BitVec 32 → BitVec 32 → Prop) (dec : ∀ w v, Decidable (chk w v)) (offC : BitVec 32 → Fin 3 → Nat)
    (hC : ∀ v, offC v = ![envW i li, v.toNat, 0])
    (hchk : ∀ w v, chk w v = (∀ (_ : cnd w = 1#1), ∀ a, offC v a + S1x1x512.size a ≤ S1024x200x512.size a))
    {offB : Fin 1 → Nat} (hB : offB = ![envW i li]) {inbB : ∀ a, offB a + S1.size a ≤ S1024.size a}
    {h1 : S1.numel = 1} {hp : EltTy.i32.packing = 1}
    (x3 : Buf (Elt F) ((rowM arg3 li hrow).view.loc (c : Thread nD τ))) (f : Buf (Elt F) (View.loc (c : Thread nD τ) arg5.view))
    {α : Type} {k : Prog (TpuEff nD τ sig (Elt F) Λ₀ .tc) α} {Q : α → sProp 𝕄} :
    iprop(((c : Thread nD τ).loc main_call0_v12 ↦{q} ai) ∗ cellIdle c arg3 arg5 i li j hli hrow hj x3 f)
      ⊢ iprop((iprop(((c : Thread nD τ).loc main_call0_v12 ↦{q} ai) ∗ cellStarted c arg3 arg5 i li j hli hrow hj ai wm hai x3 f)
            -∗ wp frame (wpE (defs₀ (F := F)) 𝒱₀ (c : Thread nD τ) none) Set.univ k Q)
          -∗ wp frame (wpE (defs₀ (F := F)) 𝒱₀ (c : Thread nD τ) none) Set.univ
              (if h : cnd w = 1#1 then
                (smemLoad (Memref.whole main_call0_v12) (Rect.unit (s := S1024) offB S1.size inbB) h1 hp >>= fun v =>
                  Prog.lift (TpuEff.assume (chk w v) (dec w v)) >>= fun x =>
                  Prog.lift (TpuEff.enqueueDma (rowM arg3 li hrow)
                      (.here (winM arg5 (offC v) (Eq.mp (hchk w v) x.down h))) (.dma (semM j hj))
                      ((View.wordExact_bits rfl).reshape _ _) ((View.wordExact_bits rfl).reshape _ _) ⟨Or.inl rfl, trivial⟩) >>= fun _ => k)
              else k) Q) := by
  subst hB hw
  obtain rfl : offC = fun v => ![envW i li, v.toNat, 0] := funext hC
  obtain rfl : cnd = condW := funext hcnd
  obtain rfl : chk = fun w v => (∀ (_ : condW w = 1#1), ∀ a, (![envW i li, v.toNat, 0] : Fin 3 → Nat) a + S1x1x512.size a ≤ S1024x200x512.size a) :=
    funext fun w => funext fun v => hchk w v
  iintro ⟨HS, Hcell⟩ Hk
  by_cases hc : condW (wordOf wm i li hli) = 1#1
  · rw [dif_pos hc]
    iapply (loadSlot_wp c 𝒱₀ i li hli q ai rfl) $$ HS
    iintro HS %v %hv
    subst hv
    have hP : ∀ (_ : condW (wordOf wm i li hli) = 1#1), ∀ a, (![envW i li, (wordOf ai i li hli).toNat, 0] : Fin 3 → Nat) a + S1x1x512.size a ≤ S1024x200x512.size a :=
      fun _ => win_inb _ (envW_lt i li hli) _ (hai _)
    rw [Prog.bind_lift]
    iapply (wp_assume (defs := defs₀ (F := F)) 𝒱₀ (c : Thread nD τ) none Set.univ hP)
    rw [Prog.bind_lift]
    unfold cellIdle rowPt slabPt semPt
    icases Hcell with ⟨Hrow, Hslab, Hsem⟩
    iapply (Transfers.wp_dmaLocal (countersEmb (U := Pipeline.UC sig nD τ)) (defs := defs₀ (F := F)) 𝒱₀ (c : Thread nD τ) none
      (src := rowM arg3 li hrow) (dst := cellWin arg5 i li hli ai hai) (q := fullShare) (fs := x3)
      (Sd := slabSet c arg5 (envW i li) (envW_lt i li hli)) (fd := f)
      default 512 rfl (by decide) (win_subset_slab c arg5 _ (envW_lt i li hli) _ (hai _) _)) $$ [Hrow Hslab Hsem]
    · isplitl [Hrow]
      · iexact Hrow
      isplitl [Hslab]
      · iexact Hslab
      · iexact Hsem
    iintro Hf
    iapply Hk
    isplitl [HS]
    · iexact HS
    · unfold cellStarted
      rw [if_pos hc]
      unfold cellFly cellWritten slabPt rowPt
      rw [ReadAs.apply_same]
      iexact Hf
  · rw [dif_neg hc]
    iapply Hk
    isplitl [HS]
    · iexact HS
    · unfold cellStarted
      rw [if_neg hc]
      iexact Hcell

end Cert.KernelIdeal.Cells

end
-- ==== Proof.WaitStepIdeal.lean ====
/-
  The wait step of one cell. When the env's mask word is positive the body loads the env's slot word again, names the
  same one-row window of the bank, and waits on the cell's semaphore for the copy its start step issued: the copy's
  delivery comes back, the slab rewritten and the staged row as it was, with the semaphore at zero. When the word is not
  positive nothing was issued and nothing is waited for. Either way the cell ends done.
-/
import proofs.«427608_j71184787964323_3_alg».proof.Proof.CellStatesIdeal

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## A table word, however the loading access is spelled -/

/-- A load of one word of the slot table at the cell's env reads the cell's slot word. -/
private theorem read_slotWord (c : Dev nD) (i : grid0.Coords) (li : Nat) (hli : li < 256)
    (ai : Buf (Elt F) ((c : Thread nD τ).loc main_call0_v12))
    (off : Fin 1 → Nat) (hoff : off = ![envW i li]) (hinb : ∀ a, off a + S1.size a ≤ S1024.size a) :
    ((Memref.whole main_call0_v12 : Memref sig .tc .smem S1024 .i32).access (Rect.unit (s := S1024) off S1.size hinb)).read (Elt F) ai
        (Shape.Idx.first (numel1_S1.symm ▸ Nat.one_pos))
      = wordOf ai i li hli := by
  subst hoff
  unfold wordOf
  show ai ((Rect.unit (s := S1024) ![envW i li] S1.size hinb).idx (Shape.Idx.first (numel1_S1.symm ▸ Nat.one_pos))) = _
  congr 1
  funext a
  refine Fin.ext ?_
  match a with
  | ⟨0, _⟩ =>
    first
      | rfl
      | (simp [Rect.unit, Shape.Idx.first]; done)
      | (simp [Rect.unit, Shape.Idx.first, LoadRect.idx, Rect.toLoadRect]; omega)

/-- A load of one word of the mask table at the cell's env reads the cell's mask word. -/
private theorem read_maskWord (c : Dev nD) (i : grid0.Coords) (li : Nat) (hli : li < 256)
    (wm : Buf (Elt F) ((c : Thread nD τ).loc main_call0_v13))
    (off : Fin 1 → Nat) (hoff : off = ![envW i li]) (hinb : ∀ a, off a + S1.size a ≤ S1024.size a) :
    ((Memref.whole main_call0_v13 : Memref sig .tc .smem S1024 .i32).access (Rect.unit (s := S1024) off S1.size hinb)).read (Elt F) wm
        (Shape.Idx.first (numel1_S1.symm ▸ Nat.one_pos))
      = wordOf wm i li hli := by
  subst hoff
  unfold wordOf
  show wm ((Rect.unit (s := S1024) ![envW i li] S1.size hinb).idx (Shape.Idx.first (numel1_S1.symm ▸ Nat.one_pos))) = _
  congr 1
  funext a
  refine Fin.ext ?_
  match a with
  | ⟨0, _⟩ =>
    first
      | rfl
      | (simp [Rect.unit, Shape.Idx.first]; done)
      | (simp [Rect.unit, Shape.Idx.first, LoadRect.idx, Rect.toLoadRect]; omega)

section Steps

variable (c : Dev nD) (𝒱₀ : Variants)

/-- The slot word's load: holding the slot table at any share, the continuation receives the cell's slot word. -/
private theorem slotLoad_wp (i : grid0.Coords) (li : Nat) (hli : li < 256) (q : PosShare TreeShare)
    (ai : S1024.Idx → BitVec 32) (off : Fin 1 → Nat) (hoff : off = ![envW i li]) (hinb : ∀ a, off a + S1.size a ≤ S1024.size a)
    {α : Type} (k : BitVec 32 → Prog (TpuEff nD τ sig (Elt F) Λ₀ .tc) α) (Q : α → sProp 𝕄) :
    (((c : Thread nD τ).loc main_call0_v12 ↦{q} ai : sProp 𝕄))
      ⊢ iprop(((((c : Thread nD τ).loc main_call0_v12 ↦{q} ai : sProp 𝕄)) -∗ wp frame (wpE defs₀ 𝒱₀ (c : Thread nD τ) none) Set.univ (k (wordOf ai i li hli)) Q)
          -∗ wp frame (wpE defs₀ 𝒱₀ (c : Thread nD τ) none) Set.univ
              (smemLoad (Memref.whole main_call0_v12) (Rect.unit (s := S1024) off S1.size hinb) numel1_S1 rfl >>= k) Q) := by
  have h := wp_smemLoadElt (defs := defs₀) 𝒱₀ (c : Thread nD τ) none (Γ := .empty) Set.univ (Q := Q)
    (m := (Memref.whole main_call0_v12 : Memref sig .tc .smem S1024 .i32)) (r := Rect.unit (s := S1024) off S1.size hinb)
    (hw := View.loads_smem_one rfl numel1_S1) (x := Shape.Idx.first (numel1_S1.symm ▸ Nat.one_pos)) (k := k)
    (S := Finset.univ) (q := q) (f := ai) (Finset.subset_univ _)
  rw [read_slotWord c i li hli ai off hoff hinb] at h
  exact h

/-- The mask word's load: holding the mask table at any share, the continuation receives the cell's mask word. -/
theorem maskLoad_wp (i : grid0.Coords) (li : Nat) (hli : li < 256) (q : PosShare TreeShare)
    (wm : S1024.Idx → BitVec 32) (off : Fin 1 → Nat) (hoff : off = ![envW i li]) (hinb : ∀ a, off a + S1.size a ≤ S1024.size a)
    {α : Type} (k : BitVec 32 → Prog (TpuEff nD τ sig (Elt F) Λ₀ .tc) α) (Q : α → sProp 𝕄) :
    (((c : Thread nD τ).loc main_call0_v13 ↦{q} wm : sProp 𝕄))
      ⊢ iprop(((((c : Thread nD τ).loc main_call0_v13 ↦{q} wm : sProp 𝕄)) -∗ wp frame (wpE defs₀ 𝒱₀ (c : Thread nD τ) none) Set.univ (k (wordOf wm i li hli)) Q)
          -∗ wp frame (wpE defs₀ 𝒱₀ (c : Thread nD τ) none) Set.univ
              (smemLoad (Memref.whole main_call0_v13) (Rect.unit (s := S1024) off S1.size hinb) numel1_S1 rfl >>= k) Q) := by
  have h := wp_smemLoadElt (defs := defs₀) 𝒱₀ (c : Thread nD τ) none (Γ := .empty) Set.univ (Q := Q)
    (m := (Memref.whole main_call0_v13 : Memref sig .tc .smem S1024 .i32)) (r := Rect.unit (s := S1024) off S1.size hinb)
    (hw := View.loads_smem_one rfl numel1_S1) (x := Shape.Idx.first (numel1_S1.symm ▸ Nat.one_pos)) (k := k)
    (S := Finset.univ) (q := q) (f := wm) (Finset.subset_univ _)
  rw [read_maskWord c i li hli wm off hoff hinb] at h
  exact h

variable (arg3 : Memref sig .tc .vmem S256x1x512 .f32) (arg5 : Memref sig .tc .hbm S1024x200x512 .f32)

/-- The wait step, from the guard on: a started cell ends done. -/
theorem waitGuard_wp (i : grid0.Coords) (li j : Nat) (hli : li < 256)
    (hrow : ∀ a, (![li, 0, 0] : Fin 3 → Nat) a + S1x1x512.size a ≤ S256x1x512.size a)
    (hj : ∀ a, (![j] : Fin 1 → Nat) a + S1.size a ≤ S16.size a)
    (q : PosShare TreeShare) (ai wm : S1024.Idx → BitVec 32) (hai : ∀ y, (ai y).toNat < 200)
    (w : BitVec 32) (hw : w = wordOf wm i li hli)
    (offB : Fin 1 → Nat) (hB : offB = ![envW i li]) (hoffB : ∀ a, offB a + S1.size a ≤ S1024.size a)
    (cnd : BitVec 32 → BitVec 1) (hcnd : ∀ w, cnd w = condW w)
    (chk : BitVec 32 → BitVec 32 → Prop) (dec : ∀ w v, Decidable (chk w v))
    (offC : BitVec 32 → Fin 3 → Nat) (hC : ∀ v, offC v = ![envW i li, v.toNat, 0])
    (hchk : ∀ w v, (∀ (_ : cnd w = 1#1), ∀ a, offC v a + S1x1x512.size a ≤ S1024x200x512.size a) → chk w v)
    (hinb : ∀ w v, chk w v → cnd w = 1#1 → ∀ a, offC v a + S1x1x512.size a ≤ S1024x200x512.size a)
    (pfs : (rowM arg3 li hrow).view.WordExact)
    (pfd : ∀ (off : Fin 3 → Nat) (h : ∀ a, off a + S1x1x512.size a ≤ S1024x200x512.size a), (winM arg5 off h).view.WordExact)
    {α : Type} (k : Prog (TpuEff nD τ sig (Elt F) Λ₀ .tc) α) (Q : α → sProp 𝕄) (W : Waits sig Unit)
    (x3 : Buf (Elt F) ((rowM arg3 li hrow).view.loc (c : Thread nD τ)))
    (f : Buf (Elt F) (View.loc (c : Thread nD τ) arg5.view)) :
    iprop(((c : Thread nD τ).loc main_call0_v12 ↦{q} ai) ∗ ((c : Thread nD τ).loc main_call0_v13 ↦{q} wm)
        ∗ cellStarted c arg3 arg5 i li j hli hrow hj ai wm hai x3 f ∗ owes (c : Thread nD τ) 0 W)
      ⊢ iprop((iprop(((c : Thread nD τ).loc main_call0_v12 ↦{q} ai) ∗ ((c : Thread nD τ).loc main_call0_v13 ↦{q} wm)
                ∗ cellDone c arg3 arg5 i li j hli hrow hj ai wm hai x3 f ∗ ∃ W', owes (c : Thread nD τ) 0 W')
              -∗ wp frame (wpE defs₀ 𝒱₀ (c : Thread nD τ) none) Set.univ k Q)
          -∗ wp frame (wpE defs₀ 𝒱₀ (c : Thread nD τ) none) Set.univ
              (do
                if h : cnd w = 1#1 then do
                  let v ← smemLoad (Memref.whole main_call0_v12) (Rect.unit (s := S1024) offB S1.size hoffB) numel1_S1 rfl
                  have hw' : chk w v := (← Prog.lift (TpuEff.assume (chk w v) (dec w v))).down
                  Prog.lift (.waitDma2 (semM j hj) (rowM arg3 li hrow) (winM arg5 (offC v) (hinb w v hw' h)) pfs (pfd _ _))
                  pure ⟨⟩
                else do
                  pure ⟨⟩
                k) Q) := by
  subst hw
  obtain rfl : cnd = condW := funext hcnd
  obtain rfl : offC = fun v => ![envW i li, v.toNat, 0] := funext hC
  by_cases hg : condW (wordOf wm i li hli) = 1#1
  · unfold cellStarted cellDone cellFly semPt
    rw [if_pos hg, if_pos hg, dif_pos hg]
    iintro ⟨Ht1, Ht2, Hcell, HO⟩ Hk
    iapply (slotLoad_wp c 𝒱₀ i li hli q ai offB hB hoffB _ Q) $$ Ht1
    iintro Ht1
    iapply (wp_assume (defs := defs₀) 𝒱₀ (c : Thread nD τ) none (Γ := .empty) Set.univ
      (hchk _ _ (fun _ => win_inb _ (envW_lt i li hli) _ (hai _))))
    iapply (Transfers.wp_waitLocal (countersEmb (U := Pipeline.UC sig nD τ)) 𝒱₀ (c : Thread nD τ) none default (N := 512) rfl) $$ [Hcell HO]
    · isplitl [Hcell]; · iexact Hcell
      iexact HO
    iintro ⟨⟨Hslab, Hrow⟩, Hsem, HO⟩
    iapply Hk
    isplitl [Ht1]; · iexact Ht1
    isplitl [Ht2]; · iexact Ht2
    isplitr [HO]
    · isplitl [Hrow]; · iexact Hrow
      isplitl [Hslab]; · iexact Hslab
      iexact Hsem
    · iexists _
      iexact HO
  · unfold cellStarted cellDone cellIdle
    rw [if_neg hg, if_neg hg, dif_neg hg]
    iintro ⟨Ht1, Ht2, Hcell, HO⟩ Hk
    iapply Hk
    isplitl [Ht1]; · iexact Ht1
    isplitl [Ht2]; · iexact Ht2
    isplitl [Hcell]; · iexact Hcell
    iexists W
    iexact HO

end Steps

end Cert.KernelIdeal.Cells

end
-- ==== Proof.FamilyIdeal.lean ====
/-
  All 256 cells of a grid point as one family indexed by progress. The body runs 512 guarded steps: in wave `w`
  (16 of them) it starts the cells `16w + j`, `j < 16`, in order, then waits for them in the same order. After `n` of
  those steps a cell is still pending (its slab and staged row untouched), started (its transfer in flight on
  semaphore `j`, or nothing done if its mask word is clear), or done (its slab written if the mask word is set). A
  semaphore belongs to a cell only between its start and its wait; otherwise it is held apart, at zero.
-/
import proofs.«427608_j71184787964323_3_alg».proof.Proof.CellStatesIdeal
import proofs.«427608_j71184787964323_3_alg».proof.Proof.SplitIdeal
import proofs.«427608_j71184787964323_3_alg».proof.Proof.StartStepIdeal
import proofs.«427608_j71184787964323_3_alg».proof.Proof.WaitStepIdeal

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- Where a cell stands. -/
inductive St | pending | started | done
  deriving DecidableEq

/-- The state of cell `li` after `n` guarded steps: its start is step `32·(li / 16) + li % 16 + 1`, its wait sixteen later. -/
def stateAt (n : Nat) (li : Fin 256) : St :=
  if n ≤ 32 * (li.val / 16) + li.val % 16 then .pending
  else if n ≤ 32 * (li.val / 16) + 16 + li.val % 16 then .started
  else .done

/-- Semaphore `j` is one of the sixteen. -/
theorem sem_inb (j : Nat) (hj : j < 16) : ∀ a : Fin 1, (![j] : Fin 1 → Nat) a + S1.size a ≤ S16.size a := by
  intro a; fin_cases a; show j + 1 ≤ 16; omega

section Family

variable (c : Dev nD) (arg3 : Memref sig .tc .vmem S256x1x512 .f32) (arg5 : Memref sig .tc .hbm S1024x200x512 .f32)
  (i : grid0.Coords) (ai wm : S1024.Idx → BitVec 32) (hai : ∀ y, (ai y).toNat < 200)
  (x3 : Buf (Elt F) (View.loc (c : Thread nD τ) arg3.view)) (f : Buf (Elt F) (View.loc (c : Thread nD τ) arg5.view))

/-- What cell `li` holds in each state (its semaphore only while started). -/
def cellSt (li : Fin 256) : St → sProp 𝕄
  | .pending => iprop(rowPt c arg3 li.val (row_inb li.val li.isLt) x3 ∗ slabPt c arg5 (envW i li.val) (envW_lt i li.val li.isLt) f)
  | .started => cellStarted c arg3 arg5 i li.val (li.val % 16) li.isLt (row_inb li.val li.isLt) (sem_inb _ (Nat.mod_lt _ (by decide))) ai wm hai x3 f
  | .done => iprop(rowPt c arg3 li.val (row_inb li.val li.isLt) x3
      ∗ slabPt c arg5 (envW i li.val) (envW_lt i li.val li.isLt)
          (if condW (wordOf wm i li.val li.isLt) = 1#1 then cellWritten c arg3 arg5 i li.val li.isLt (row_inb li.val li.isLt) ai hai x3 f else f))

/-- The 256 cells after `n` guarded steps. -/
def cells (n : Nat) : sProp 𝕄 := bigSep Finset.univ fun li : Fin 256 => cellSt c arg3 arg5 i ai wm hai x3 f li (stateAt n li)

end Family

section Steps

variable (c : Dev nD) (𝒱₀ : Variants) (arg3 : Memref sig .tc .vmem S256x1x512 .f32) (arg5 : Memref sig .tc .hbm S1024x200x512 .f32)
  (i : grid0.Coords) (q : PosShare TreeShare) (ai wm : S1024.Idx → BitVec 32) (hai : ∀ y, (ai y).toNat < 200)
  (x3 : Buf (Elt F) (View.loc (c : Thread nD τ) arg3.view)) (f : Buf (Elt F) (View.loc (c : Thread nD τ) arg5.view))

/-- A guarded start, over the family: step `g + 1` starts the pending cell `li` on its semaphore. -/
theorem start_fam (g li j : Nat) (hli : li < 256) (hj16 : j < 16) (hjeq : li % 16 = j)
    (hpend : stateAt g ⟨li, hli⟩ = St.pending)
    (hnext : ∀ l : Fin 256, stateAt (g + 1) l = Function.update (stateAt g) ⟨li, hli⟩ St.started l)
    (w : BitVec 32) (hw : w = wordOf wm i li hli)
    (cnd : BitVec 32 → BitVec 1) (hcnd : ∀ w, cnd w = condW w)
    (chk : BitVec 32 → BitVec 32 → Prop) (dec : ∀ w v, Decidable (chk w v)) (offC : BitVec 32 → Fin 3 → Nat)
    (hC : ∀ v, offC v = ![envW i li, v.toNat, 0])
    (hchk : ∀ w v, chk w v = (∀ (_ : cnd w = 1#1), ∀ a, offC v a + S1x1x512.size a ≤ S1024x200x512.size a))
    {offB : Fin 1 → Nat} (hB : offB = ![envW i li]) {inbB : ∀ a, offB a + S1.size a ≤ S1024.size a}
    {h1 : S1.numel = 1} {hp : EltTy.i32.packing = 1}
    {α : Type} {k : Prog (TpuEff nD τ sig (Elt F) Λ₀ .tc) α} {Q : α → sProp 𝕄} :
    iprop(((c : Thread nD τ).loc main_call0_v12 ↦{q} ai) ∗ cells c arg3 arg5 i ai wm hai x3 f g ∗ semPt c j (sem_inb j hj16))
      ⊢ iprop((iprop(((c : Thread nD τ).loc main_call0_v12 ↦{q} ai) ∗ cells c arg3 arg5 i ai wm hai x3 f (g + 1))
            -∗ wp frame (wpE (defs₀ (F := F)) 𝒱₀ (c : Thread nD τ) none) Set.univ k Q)
          -∗ wp frame (wpE (defs₀ (F := F)) 𝒱₀ (c : Thread nD τ) none) Set.univ
              (if h : cnd w = 1#1 then
                (smemLoad (Memref.whole main_call0_v12) (Rect.unit (s := S1024) offB S1.size inbB) h1 hp >>= fun v =>
                  Prog.lift (TpuEff.assume (chk w v) (dec w v)) >>= fun x =>
                  Prog.lift (TpuEff.enqueueDma (rowM arg3 li (row_inb li hli))
                      (.here (winM arg5 (offC v) (Eq.mp (hchk w v) x.down h))) (.dma (semM j (sem_inb j hj16)))
                      ((View.wordExact_bits rfl).reshape _ _) ((View.wordExact_bits rfl).reshape _ _) ⟨Or.inl rfl, trivial⟩) >>= fun _ => k)
              else k) Q) := by
  subst hjeq
  have htake := bigSep_cells_take (M := 𝕄) (fun l => cellSt c arg3 arg5 i ai wm hai x3 f l (stateAt g l)) ⟨li, hli⟩
  have hput := bigSep_cells_put (M := 𝕄) (fun l s => cellSt c arg3 arg5 i ai wm hai x3 f l s) (stateAt g) ⟨li, hli⟩ St.started
  have hnext' : (fun l => cellSt c arg3 arg5 i ai wm hai x3 f l (Function.update (stateAt g) ⟨li, hli⟩ St.started l))
      = fun l => cellSt c arg3 arg5 i ai wm hai x3 f l (stateAt (g + 1) l) := funext fun l => by rw [hnext l]
  beta_reduce at htake hput
  rw [hnext'] at hput
  unfold cells
  rw [htake, hpend, ← hput]
  iintro ⟨HS, ⟨HC, HREST⟩, HSEM⟩ Hk
  iapply (startGuard_wp c 𝒱₀ arg3 arg5 i li (li % 16) hli (row_inb li hli) (sem_inb _ hj16) q ai wm hai w hw cnd hcnd chk dec offC hC hchk hB x3 f) $$ [HS HC HSEM]
  · unfold cellSt cellIdle
    icases HC with ⟨HR, HB⟩
    isplitl [HS]; · iexact HS
    isplitl [HR]; · iexact HR
    isplitl [HB]; · iexact HB
    iexact HSEM
  iintro ⟨HS, HC⟩
  iapply Hk
  isplitl [HS]; · iexact HS
  isplitl [HC]; · unfold cellSt; iexact HC
  iexact HREST

/-- A guarded wait, over the family: step `g + 1` waits for the started cell `li` and frees its semaphore. -/
theorem wait_fam (g li j : Nat) (hli : li < 256) (hj16 : j < 16) (hjeq : li % 16 = j)
    (hst : stateAt g ⟨li, hli⟩ = St.started)
    (hnext : ∀ l : Fin 256, stateAt (g + 1) l = Function.update (stateAt g) ⟨li, hli⟩ St.done l)
    (w : BitVec 32) (hw : w = wordOf wm i li hli)
    (offB : Fin 1 → Nat) (hB : offB = ![envW i li]) (hoffB : ∀ a, offB a + S1.size a ≤ S1024.size a)
    (cnd : BitVec 32 → BitVec 1) (hcnd : ∀ w, cnd w = condW w)
    (chk : BitVec 32 → BitVec 32 → Prop) (dec : ∀ w v, Decidable (chk w v))
    (offC : BitVec 32 → Fin 3 → Nat) (hC : ∀ v, offC v = ![envW i li, v.toNat, 0])
    (hchk : ∀ w v, (∀ (_ : cnd w = 1#1), ∀ a, offC v a + S1x1x512.size a ≤ S1024x200x512.size a) → chk w v)
    (hinb : ∀ w v, chk w v → cnd w = 1#1 → ∀ a, offC v a + S1x1x512.size a ≤ S1024x200x512.size a)
    (pfs : (rowM arg3 li (row_inb li hli)).view.WordExact)
    (pfd : ∀ (off : Fin 3 → Nat) (h : ∀ a, off a + S1x1x512.size a ≤ S1024x200x512.size a), (winM arg5 off h).view.WordExact)
    {α : Type} (k : Prog (TpuEff nD τ sig (Elt F) Λ₀ .tc) α) (Q : α → sProp 𝕄) (W : Waits sig Unit) :
    iprop(((c : Thread nD τ).loc main_call0_v12 ↦{q} ai) ∗ ((c : Thread nD τ).loc main_call0_v13 ↦{q} wm)
        ∗ cells c arg3 arg5 i ai wm hai x3 f g ∗ owes (c : Thread nD τ) 0 W)
      ⊢ iprop((iprop(((c : Thread nD τ).loc main_call0_v12 ↦{q} ai) ∗ ((c : Thread nD τ).loc main_call0_v13 ↦{q} wm)
                ∗ cells c arg3 arg5 i ai wm hai x3 f (g + 1) ∗ semPt c j (sem_inb j hj16) ∗ ∃ W', owes (c : Thread nD τ) 0 W')
              -∗ wp frame (wpE defs₀ 𝒱₀ (c : Thread nD τ) none) Set.univ k Q)
          -∗ wp frame (wpE defs₀ 𝒱₀ (c : Thread nD τ) none) Set.univ
              (do
                if h : cnd w = 1#1 then do
                  let v ← smemLoad (Memref.whole main_call0_v12) (Rect.unit (s := S1024) offB S1.size hoffB) numel1_S1 rfl
                  have hw' : chk w v := (← Prog.lift (TpuEff.assume (chk w v) (dec w v))).down
                  Prog.lift (.waitDma2 (semM j (sem_inb j hj16)) (rowM arg3 li (row_inb li hli)) (winM arg5 (offC v) (hinb w v hw' h)) pfs (pfd _ _))
                  pure ⟨⟩
                else do
                  pure ⟨⟩
                k) Q) := by
  subst hjeq
  have htake := bigSep_cells_take (M := 𝕄) (fun l => cellSt c arg3 arg5 i ai wm hai x3 f l (stateAt g l)) ⟨li, hli⟩
  have hput := bigSep_cells_put (M := 𝕄) (fun l s => cellSt c arg3 arg5 i ai wm hai x3 f l s) (stateAt g) ⟨li, hli⟩ St.done
  have hnext' : (fun l => cellSt c arg3 arg5 i ai wm hai x3 f l (Function.update (stateAt g) ⟨li, hli⟩ St.done l))
      = fun l => cellSt c arg3 arg5 i ai wm hai x3 f l (stateAt (g + 1) l) := funext fun l => by rw [hnext l]
  beta_reduce at htake hput
  rw [hnext'] at hput
  unfold cells
  rw [htake, hst, ← hput]
  iintro ⟨HS, HM, ⟨HC, HREST⟩, HO⟩ Hk
  iapply (waitGuard_wp c 𝒱₀ arg3 arg5 i li (li % 16) hli (row_inb li hli) (sem_inb _ hj16) q ai wm hai w hw offB hB hoffB cnd hcnd chk dec offC hC hchk hinb pfs pfd k Q W x3 f) $$ [HS HM HC HO]
  · isplitl [HS]; · iexact HS
    isplitl [HM]; · iexact HM
    isplitl [HC]; · unfold cellSt; iexact HC
    iexact HO
  iintro ⟨HS, HM, HD, HO⟩
  unfold cellDone
  icases HD with ⟨HR, HB, HSEM⟩
  iapply Hk
  isplitl [HS]; · iexact HS
  isplitl [HM]; · iexact HM
  isplitl [HR HB HREST]
  · isplitl [HR HB]
    · unfold cellSt; isplitl [HR]; · iexact HR
      iexact HB
    iexact HREST
  isplitl [HSEM]; · iexact HSEM
  iexact HO

end Steps

end Cert.KernelIdeal.Cells

end
-- ==== Proof.PointRunIdeal.lean ====
/-
  One grid point's run of the body, from its run over the point's 256 cells.

  The run over the cells starts from every cell pending (its staged row and its slab of the bank held as they are),
  the sixteen semaphores at zero beside them, and ends with every cell done (its slab rewritten exactly when its mask
  word is positive). Around it: the staged block held whole is the 256 rows, the bank held whole is the 256 slabs and a
  rest that the run never touches and that is framed around it; afterwards the rows make the staged block again, and
  the slabs with the rest make the bank whole at the contents that are, entry by entry, the bank after the point.
-/
import proofs.«427608_j71184787964323_3_alg».proof.Proof.FamilyIdeal
import proofs.«427608_j71184787964323_3_alg».proof.Proof.SplitIdeal
import proofs.«427608_j71184787964323_3_alg».proof.Proof.BodyIdeal

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The cells before the first step and after the last -/

/-- Before the first step every cell is pending. -/
theorem stateAt_zero (li : Fin 256) : stateAt 0 li = St.pending := by
  unfold stateAt; rw [if_pos (Nat.zero_le _)]

/-- After the 512th step every cell is done. -/
theorem stateAt_last (li : Fin 256) : stateAt 512 li = St.done := by
  have h := li.isLt
  unfold stateAt
  rw [if_neg (by omega), if_neg (by omega)]

section Ends

variable (c : Dev nD) (arg3 : Memref sig .tc .vmem S256x1x512 .f32) (arg5 : Memref sig .tc .hbm S1024x200x512 .f32)
  (i : grid0.Coords) (ai wm : S1024.Idx → BitVec 32) (hai : ∀ y, (ai y).toNat < 200)
  (x3 : Buf (Elt F) (View.loc (c : Thread nD τ) arg3.view)) (f : Buf (Elt F) (View.loc (c : Thread nD τ) arg5.view))

/-- All cells pending: the 256 rows and the 256 slabs as they are. -/
theorem cells_zero :
    cells c arg3 arg5 i ai wm hai x3 f 0
      = iprop((bigSep Finset.univ fun li : Fin 256 => rowPt c arg3 li.val (row_inb li.val li.isLt) x3)
          ∗ bigSep Finset.univ fun li : Fin 256 => slabPt c arg5 (envW i li.val) (envW_lt i li.val li.isLt) f) := by
  unfold cells
  rw [← bigSep_sep']
  exact bigSep_congr fun li _ => by rw [stateAt_zero]; rfl

/-- All cells done: the 256 rows as they were, each slab as its cell leaves it. -/
theorem cells_last :
    cells c arg3 arg5 i ai wm hai x3 f 512
      = iprop((bigSep Finset.univ fun li : Fin 256 => rowPt c arg3 li.val (row_inb li.val li.isLt) x3)
          ∗ bigSep Finset.univ fun li : Fin 256 =>
              slabPt c arg5 (envW i li.val) (envW_lt i li.val li.isLt) (cellOut c arg3 arg5 i wm ai hai x3 f li)) := by
  unfold cells
  rw [← bigSep_sep']
  exact bigSep_congr fun li _ => by rw [stateAt_last]; rfl

end Ends

/-! ## The sixteen semaphores -/

/-- Semaphore j of the body's pool is the launch's own semaphore j. -/
theorem semM_eq (j : Nat) (hj : j < 16) :
    (SemLoc.dma (semM j (sem_inb j hj)) : SemLoc sig) = Routed.osem ⟨j, hj⟩ := by
  show SemLoc.dma _ = SemLoc.dma _
  congr 1
  apply Fin.ext
  show 2 + (S16.rowMajor ((Rect.unit (s := S16) ![j] S1.size (sem_inb j hj)).emb
    (Shape.reshapeEquiv squeezes_S1_S_.numel_eq fun a => a.elim0))).val = 2 + j
  rw [Shape.rowMajor_val_one, Rect.emb_apply]
  have hz : ((Shape.reshapeEquiv squeezes_S1_S_.numel_eq (fun a => a.elim0 : S_.Idx) : S1.Idx) 0).val = 0 := by
    have := ((Shape.reshapeEquiv squeezes_S1_S_.numel_eq (fun a => a.elim0 : S_.Idx) : S1.Idx) 0).isLt
    change _ < 1 at this
    omega
  show 2 + (j + 1 * _) = 2 + j
  rw [hz]
  omega

/-- A semaphore of the pool at zero, as the launch holds it. -/
theorem semPt_eq (c : Dev nD) (j : Nat) (hj : j < 16) :
    (semPt c j (sem_inb j hj) : sProp 𝕄) = semVal ((c : Thread nD τ), Routed.osem ⟨j, hj⟩) 0 := by
  unfold semPt; rw [semM_eq]

/-- The launch's sixteen semaphores at zero are the pool's sixteen, one by one. -/
theorem ownSems0_pool (c : Dev nD) :
    (Pipeline.ownSems0 (Ix := Unit) (Name := ℕ) (U := Pipeline.UC sig nD τ) (Lvl := ℕ) (Val := Elt F) (τ := τ) Routed.osem c : sProp 𝕄)
      = iprop(semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide))) := by
  rw [Routed.ownSems0_eq c, semPt_eq c 0, semPt_eq c 1, semPt_eq c 2, semPt_eq c 3, semPt_eq c 4, semPt_eq c 5, semPt_eq c 6, semPt_eq c 7, semPt_eq c 8, semPt_eq c 9, semPt_eq c 10, semPt_eq c 11, semPt_eq c 12, semPt_eq c 13, semPt_eq c 14, semPt_eq c 15]
  rfl

/-! ## The run -/

/-- The run over the point's 256 cells: from every cell pending, the sixteen semaphores at zero and nothing owed, the
    body at point i runs to every cell done, the semaphores at zero again. -/
def PointCells : Prop :=
  ∀ (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view))
    (f : Buf (Elt F) (View.loc (c : Thread nD τ) (Memref.whole main_v0_0).view)) (W : Waits sig Unit),
    (iprop(((c : Thread nD τ).loc main_call0_v12 ↦{q} ai) ∗ ((c : Thread nD τ).loc main_call0_v13 ↦{q} wm)
        ∗ cells c arg3 (Memref.whole main_v0_0) i ai wm hai x3 f 0
        ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide))
        ∗ owes (c : Thread nD τ) 0 W) : sProp 𝕄)
      ⊢ wp frame (wpE (defs₀ (F := F)) 𝒱₀ (c : Thread nD τ) none) Set.univ
          (cc0__scatter_kernel i (Memref.whole main_call0_v12) (Memref.isWhole_whole _) (Memref.whole main_call0_v13) (Memref.isWhole_whole _) arg3 harg3
            (Memref.whole main_v0_0) (Memref.isWhole_whole _) (Memref.whole main_v0_0) (Memref.isWhole_whole _) cc0_scratch0)
          (fun _ => iprop(((c : Thread nD τ).loc main_call0_v12 ↦{q} ai) ∗ ((c : Thread nD τ).loc main_call0_v13 ↦{q} wm)
            ∗ cells c arg3 (Memref.whole main_v0_0) i ai wm hai x3 f 512
            ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide))
            ∗ ∃ W', owes (c : Thread nD τ) 0 W'))

section Around

variable (c : Dev nD) (arg3 : Memref sig .tc .vmem S256x1x512 .f32) (harg3 : arg3.IsWhole)
  (i : grid0.Coords) (ai wm : S1024.Idx → BitVec 32) (hai : ∀ y, (ai y).toNat < 200)
  (f3 : Buf (Elt F) (View.loc (c : Thread nD τ) arg3.view))
  (f : Buf (Elt F) (View.loc (c : Thread nD τ) (Memref.whole main_v0_0).view))

include harg3 in
/-- The staged block's elements held at f3 are the 256 rows held at f3. -/
theorem stage_rows :
    (arg3.view.loc (c : Thread nD τ) ↦[arg3.view.set]{fullShare} f3 : sProp 𝕄)
      = bigSep Finset.univ fun li : Fin 256 => rowPt c arg3 li.val (row_inb li.val li.isLt) f3 := by
  rw [harg3.set_eq_univ]; exact stage_split c arg3 harg3 f3

/-- The bank whole is the point's slabs beside the rest. -/
theorem bank_open :
    (((c : Thread nD τ).loc main_v0_0) ↦{fullShare} f : sProp 𝕄)
      = iprop((bigSep Finset.univ fun li : Fin 256 =>
            slabPt c (Memref.whole main_v0_0) (envW i li.val) (envW_lt i li.val li.isLt) f)
          ∗ (View.loc (c : Thread nD τ) (Memref.whole main_v0_0).view ↦[rest c (Memref.whole main_v0_0) i]{fullShare} f)) :=
  bank_split c (Memref.whole main_v0_0) (Memref.isWhole_whole _) i f

/-- The slabs as the cells leave them, beside the rest: the bank whole, at the contents after the point. -/
theorem bank_close :
    iprop((bigSep Finset.univ fun li : Fin 256 =>
            slabPt c (Memref.whole main_v0_0) (envW i li.val) (envW_lt i li.val li.isLt)
              (cellOut c arg3 (Memref.whole main_v0_0) i wm ai hai f3 f li))
          ∗ (View.loc (c : Thread nD τ) (Memref.whole main_v0_0).view ↦[rest c (Memref.whole main_v0_0) i]{fullShare} f))
      = (((c : Thread nD τ).loc main_v0_0) ↦{fullShare} pointOut i wm ai (arg3.view.read (Elt F) f3) f : sProp 𝕄) := by
  rw [bank_rejoin c (Memref.whole main_v0_0) (Memref.isWhole_whole _) i, pointOutG_whole]

end Around

/-- One grid point's run of the body, given its run over the point's cells. -/
theorem pointRun_of_cells (hcells : PointCells (F := F)) (𝒱₀ : Variants) :
    Routed.PointRun (F := F) 𝒱₀ (fun t => pointOut (grid0.coords t)) := by
  intro c t arg3 harg3 q ai wm hai x3 f W
  unfold owns
  rw [ownSems0_pool c, bank_open c (grid0.coords t) f]
  iintro ⟨H12, H13, ⟨%f3, %hf3, Hst⟩, ⟨Hslabs, Hrest⟩, ⟨S0, S1, S2, S3, S4, S5, S6, S7, S8, S9, S10, S11, S12, S13, S14, S15⟩, Howes⟩
  subst hf3
  ihave Hrows := (Entails.of_eq (stage_rows c arg3 harg3 f3)) $$ Hst
  iapply (wp_wand_r frame _ Set.univ)
  isplitr [Hrest]
  · iapply (hcells c 𝒱₀ (grid0.coords t) arg3 harg3 q ai wm hai f3 f W)
    rw [cells_zero]
    isplitl [H12]; · iexact H12
    isplitl [H13]; · iexact H13
    isplitl [Hrows Hslabs]
    · isplitl [Hrows]; · iexact Hrows
      iexact Hslabs
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact Howes
  · rw [cells_last]
    iintro %_ ⟨H12, H13, ⟨Hrows, Hslabs⟩, S0, S1, S2, S3, S4, S5, S6, S7, S8, S9, S10, S11, S12, S13, S14, S15, HW⟩
    isplitl [H12]; · iexact H12
    isplitl [H13]; · iexact H13
    isplitl [Hrows]
    · iexists f3
      isplitr
      · ipureintro; rfl
      · iapply (Entails.of_eq (stage_rows c arg3 harg3 f3).symm)
        iexact Hrows
    isplitl [Hslabs Hrest]
    · iapply (Entails.of_eq (bank_close c arg3 (grid0.coords t) ai wm hai f3 f))
      isplitl [Hslabs]; · iexact Hslabs
      iexact Hrest
    isplitr [HW]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexact S15
    iexact HW

end Cert.KernelIdeal.Cells

end
-- ==== Proof.Parts1Ideal.lean ====
/-
  Parts 1 to 11 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyIdeal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 1 of the body: steps 1 to 5, and the load of the next step's mask word. -/
theorem part1_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    :
    iprop(((c : Thread nD τ).loc main_call0_v12 ↦{q} ai) ∗ ((c : Thread nD τ).loc main_call0_v13 ↦{q} wm) ∗ cells c arg3 (Memref.whole main_v0_0) i ai wm hai x3 f 0 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part1 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0)
          (fun r => iprop(⌜r.2.2.1 = wordOf wm i 5 (by decide)⌝ ∗ ((c : Thread nD τ).loc main_call0_v12 ↦{q} ai) ∗ ((c : Thread nD τ).loc main_call0_v13 ↦{q} wm) ∗ cells c arg3 (Memref.whole main_v0_0) i ai wm hai x3 f 5 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part1_eq_skeleton]; unfold k0_part1_skel
  iintro ⟨HS, HM, HC, S0, S1, S2, S3, S4, S5, S6, S7, S8, S9, S10, S11, S12, S13, S14, S15, HO⟩
  have hl0 : (0 : ℕ) < 256 := by decide
  have hl1 : (1 : ℕ) < 256 := by decide
  have hl2 : (2 : ℕ) < 256 := by decide
  have hl3 : (3 : ℕ) < 256 := by decide
  have hl4 : (4 : ℕ) < 256 := by decide
  have hl5 : (5 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  iapply (loadMask_wp c 𝒱₀ i 0 hl0 q wm rfl) $$ HM
  iintro HM %w1 %hw1
  have hp1 : stateAt 0 ⟨0, hl0⟩ = St.pending := show stateAt 0 ⟨0, (by decide : (0 : ℕ) < 256)⟩ = St.pending from by decide
  have hn1 : ∀ l : Fin 256, stateAt 1 l = Function.update (stateAt 0) ⟨0, hl0⟩ St.started l := show ∀ l : Fin 256, stateAt 1 l = Function.update (stateAt 0) ⟨0, (by decide : (0 : ℕ) < 256)⟩ St.started l from by decide
  iapply (start_fam c 𝒱₀ arg3 (Memref.whole main_v0_0) i q ai wm hai x3 f 0 0 0 hl0 hj0 rfl hp1 hn1 w1 hw1 k0_cond1 (fun _ => rfl) (k0_chk1 i) (k0_chk1.dec i) (k0_off3 i) (fun _ => rfl) (fun _ _ => rfl) rfl) $$ [HS HC S0]
  · isplitl [HS]; · iexact HS
    isplitl [HC]; · iexact HC
    iexact S0
  iintro ⟨HS, HC⟩
  iapply (loadMask_wp c 𝒱₀ i 1 hl1 q wm rfl) $$ HM
  iintro HM %w2 %hw2
  have hp2 : stateAt 1 ⟨1, hl1⟩ = St.pending := show stateAt 1 ⟨1, (by decide : (1 : ℕ) < 256)⟩ = St.pending from by decide
  have hn2 : ∀ l : Fin 256, stateAt 2 l = Function.update (stateAt 1) ⟨1, hl1⟩ St.started l := show ∀ l : Fin 256, stateAt 2 l = Function.update (stateAt 1) ⟨1, (by decide : (1 : ℕ) < 256)⟩ St.started l from by decide
  iapply (start_fam c 𝒱₀ arg3 (Memref.whole main_v0_0) i q ai wm hai x3 f 1 1 1 hl1 hj1 rfl hp2 hn2 w2 hw2 k0_cond2 (fun _ => rfl) (k0_chk2 i) (k0_chk2.dec i) (k0_off6 i) (fun _ => rfl) (fun _ _ => rfl) rfl) $$ [HS HC S1]
  · isplitl [HS]; · iexact HS
    isplitl [HC]; · iexact HC
    iexact S1
  iintro ⟨HS, HC⟩
  iapply (loadMask_wp c 𝒱₀ i 2 hl2 q wm rfl) $$ HM
  iintro HM %w3 %hw3
  have hp3 : stateAt 2 ⟨2, hl2⟩ = St.pending := show stateAt 2 ⟨2, (by decide : (2 : ℕ) < 256)⟩ = St.pending from by decide
  have hn3 : ∀ l : Fin 256, stateAt 3 l = Function.update (stateAt 2) ⟨2, hl2⟩ St.started l := show ∀ l : Fin 256, stateAt 3 l = Function.update (stateAt 2) ⟨2, (by decide : (2 : ℕ) < 256)⟩ St.started l from by decide
  iapply (start_fam c 𝒱₀ arg3 (Memref.whole main_v0_0) i q ai wm hai x3 f 2 2 2 hl2 hj2 rfl hp3 hn3 w3 hw3 k0_cond3 (fun _ => rfl) (k0_chk3 i) (k0_chk3.dec i) (k0_off9 i) (fun _ => rfl) (fun _ _ => rfl) rfl) $$ [HS HC S2]
  · isplitl [HS]; · iexact HS
    isplitl [HC]; · iexact HC
    iexact S2
  iintro ⟨HS, HC⟩
  iapply (loadMask_wp c 𝒱₀ i 3 hl3 q wm rfl) $$ HM
  iintro HM %w4 %hw4
  have hp4 : stateAt 3 ⟨3, hl3⟩ = St.pending := show stateAt 3 ⟨3, (by decide : (3 : ℕ) < 256)⟩ = St.pending from by decide
  have hn4 : ∀ l : Fin 256, stateAt 4 l = Function.update (stateAt 3) ⟨3, hl3⟩ St.started l := show ∀ l : Fin 256, stateAt 4 l = Function.update (stateAt 3) ⟨3, (by decide : (3 : ℕ) < 256)⟩ St.started l from by decide
  iapply (start_fam c 𝒱₀ arg3 (Memref.whole main_v0_0) i q ai wm hai x3 f 3 3 3 hl3 hj3 rfl hp4 hn4 w4 hw4 k0_cond4 (fun _ => rfl) (k0_chk4 i) (k0_chk4.dec i) (k0_off12 i) (fun _ => rfl) (fun _ _ => rfl) rfl) $$ [HS HC S3]
  · isplitl [HS]; · iexact HS
    isplitl [HC]; · iexact HC
    iexact S3
  iintro ⟨HS, HC⟩
  iapply (loadMask_wp c 𝒱₀ i 4 hl4 q wm rfl) $$ HM
  iintro HM %w5 %hw5
  have hp5 : stateAt 4 ⟨4, hl4⟩ = St.pending := show stateAt 4 ⟨4, (by decide : (4 : ℕ) < 256)⟩ = St.pending from by decide
  have hn5 : ∀ l : Fin 256, stateAt 5 l = Function.update (stateAt 4) ⟨4, hl4⟩ St.started l := show ∀ l : Fin 256, stateAt 5 l = Function.update (stateAt 4) ⟨4, (by decide : (4 : ℕ) < 256)⟩ St.started l from by decide
  iapply (start_fam c 𝒱₀ arg3 (Memref.whole main_v0_0) i q ai wm hai x3 f 4 4 4 hl4 hj4 rfl hp5 hn5 w5 hw5 k0_cond5 (fun _ => rfl) (k0_chk5 i) (k0_chk5.dec i) (k0_off15 i) (fun _ => rfl) (fun _ _ => rfl) rfl) $$ [HS HC S4]
  · isplitl [HS]; · iexact HS
    isplitl [HC]; · iexact HC
    iexact S4
  iintro ⟨HS, HC⟩
  iapply (loadMask_wp c 𝒱₀ i 5 hl5 q wm rfl) $$ HM
  iintro HM %w6 %hw6
  rw [wp_pure]
  imodintro
  isplitr; · ipureintro; exact hw6
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 2 of the body: steps 6 to 11, and the load of the next step's mask word. -/
theorem part2_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 5 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 5 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part2 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 11 (by decide)⌝ ∗ ((c : Thread nD τ).loc main_call0_v12 ↦{q} ai) ∗ ((c : Thread nD τ).loc main_call0_v13 ↦{q} wm) ∗ cells c arg3 (Memref.whole main_v0_0) i ai wm hai x3 f 11 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part2_eq_skeleton]; unfold k0_part2_skel
  iintro ⟨HS, HM, HC, S5, S6, S7, S8, S9, S10, S11, S12, S13, S14, S15, HO⟩
  have hl5 : (5 : ℕ) < 256 := by decide
  have hl6 : (6 : ℕ) < 256 := by decide
  have hl7 : (7 : ℕ) < 256 := by decide
  have hl8 : (8 : ℕ) < 256 := by decide
  have hl9 : (9 : ℕ) < 256 := by decide
  have hl10 : (10 : ℕ) < 256 := by decide
  have hl11 : (11 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw6 : w = wordOf wm i 5 hl5 := hw
  have hp6 : stateAt 5 ⟨5, hl5⟩ = St.pending := show stateAt 5 ⟨5, (by decide : (5 : ℕ) < 256)⟩ = St.pending from by decide
  have hn6 : ∀ l : Fin 256, stateAt 6 l = Function.update (stateAt 5) ⟨5, hl5⟩ St.started l := show ∀ l : Fin 256, stateAt 6 l = Function.update (stateAt 5) ⟨5, (by decide : (5 : ℕ) < 256)⟩ St.started l from by decide
  iapply (start_fam c 𝒱₀ arg3 (Memref.whole main_v0_0) i q ai wm hai x3 f 5 5 5 hl5 hj5 rfl hp6 hn6 w hw6 k0_cond6 (fun _ => rfl) (k0_chk6 i) (k0_chk6.dec i) (k0_off18 i) (fun _ => rfl) (fun _ _ => rfl) rfl) $$ [HS HC S5]
  · isplitl [HS]; · iexact HS
    isplitl [HC]; · iexact HC
    iexact S5
  iintro ⟨HS, HC⟩
  iapply (loadMask_wp c 𝒱₀ i 6 hl6 q wm rfl) $$ HM
  iintro HM %w7 %hw7
  have hp7 : stateAt 6 ⟨6, hl6⟩ = St.pending := show stateAt 6 ⟨6, (by decide : (6 : ℕ) < 256)⟩ = St.pending from by decide
  have hn7 : ∀ l : Fin 256, stateAt 7 l = Function.update (stateAt 6) ⟨6, hl6⟩ St.started l := show ∀ l : Fin 256, stateAt 7 l = Function.update (stateAt 6) ⟨6, (by decide : (6 : ℕ) < 256)⟩ St.started l from by decide
  iapply (start_fam c 𝒱₀ arg3 (Memref.whole main_v0_0) i q ai wm hai x3 f 6 6 6 hl6 hj6 rfl hp7 hn7 w7 hw7 k0_cond7 (fun _ => rfl) (k0_chk7 i) (k0_chk7.dec i) (k0_off21 i) (fun _ => rfl) (fun _ _ => rfl) rfl) $$ [HS HC S6]
  · isplitl [HS]; · iexact HS
    isplitl [HC]; · iexact HC
    iexact S6
  iintro ⟨HS, HC⟩
  iapply (loadMask_wp c 𝒱₀ i 7 hl7 q wm rfl) $$ HM
  iintro HM %w8 %hw8
  have hp8 : stateAt 7 ⟨7, hl7⟩ = St.pending := show stateAt 7 ⟨7, (by decide : (7 : ℕ) < 256)⟩ = St.pending from by decide
  have hn8 : ∀ l : Fin 256, stateAt 8 l = Function.update (stateAt 7) ⟨7, hl7⟩ St.started l := show ∀ l : Fin 256, stateAt 8 l = Function.update (stateAt 7) ⟨7, (by decide : (7 : ℕ) < 256)⟩ St.started l from by decide
  iapply (start_fam c 𝒱₀ arg3 (Memref.whole main_v0_0) i q ai wm hai x3 f 7 7 7 hl7 hj7 rfl hp8 hn8 w8 hw8 k0_cond8 (fun _ => rfl) (k0_chk8 i) (k0_chk8.dec i) (k0_off24 i) (fun _ => rfl) (fun _ _ => rfl) rfl) $$ [HS HC S7]
  · isplitl [HS]; · iexact HS
    isplitl [HC]; · iexact HC
    iexact S7
  iintro ⟨HS, HC⟩
  iapply (loadMask_wp c 𝒱₀ i 8 hl8 q wm rfl) $$ HM
  iintro HM %w9 %hw9
  have hp9 : stateAt 8 ⟨8, hl8⟩ = St.pending := show stateAt 8 ⟨8, (by decide : (8 : ℕ) < 256)⟩ = St.pending from by decide
  have hn9 : ∀ l : Fin 256, stateAt 9 l = Function.update (stateAt 8) ⟨8, hl8⟩ St.started l := show ∀ l : Fin 256, stateAt 9 l = Function.update (stateAt 8) ⟨8, (by decide : (8 : ℕ) < 256)⟩ St.started l from by decide
  iapply (start_fam c 𝒱₀ arg3 (Memref.whole main_v0_0) i q ai wm hai x3 f 8 8 8 hl8 hj8 rfl hp9 hn9 w9 hw9 k0_cond9 (fun _ => rfl) (k0_chk9 i) (k0_chk9.dec i) (k0_off27 i) (fun _ => rfl) (fun _ _ => rfl) rfl) $$ [HS HC S8]
  · isplitl [HS]; · iexact HS
    isplitl [HC]; · iexact HC
    iexact S8
  iintro ⟨HS, HC⟩
  iapply (loadMask_wp c 𝒱₀ i 9 hl9 q wm rfl) $$ HM
  iintro HM %w10 %hw10
  have hp10 : stateAt 9 ⟨9, hl9⟩ = St.pending := show stateAt 9 ⟨9, (by decide : (9 : ℕ) < 256)⟩ = St.pending from by decide
  have hn10 : ∀ l : Fin 256, stateAt 10 l = Function.update (stateAt 9) ⟨9, hl9⟩ St.started l := show ∀ l : Fin 256, stateAt 10 l = Function.update (stateAt 9) ⟨9, (by decide : (9 : ℕ) < 256)⟩ St.started l from by decide
  iapply (start_fam c 𝒱₀ arg3 (Memref.whole main_v0_0) i q ai wm hai x3 f 9 9 9 hl9 hj9 rfl hp10 hn10 w10 hw10 k0_cond10 (fun _ => rfl) (k0_chk10 i) (k0_chk10.dec i) (k0_off30 i) (fun _ => rfl) (fun _ _ => rfl) rfl) $$ [HS HC S9]
  · isplitl [HS]; · iexact HS
    isplitl [HC]; · iexact HC
    iexact S9
  iintro ⟨HS, HC⟩
  iapply (loadMask_wp c 𝒱₀ i 10 hl10 q wm rfl) $$ HM
  iintro HM %w11 %hw11
  have hp11 : stateAt 10 ⟨10, hl10⟩ = St.pending := show stateAt 10 ⟨10, (by decide : (10 : ℕ) < 256)⟩ = St.pending from by decide
  have hn11 : ∀ l : Fin 256, stateAt 11 l = Function.update (stateAt 10) ⟨10, hl10⟩ St.started l := show ∀ l : Fin 256, stateAt 11 l = Function.update (stateAt 10) ⟨10, (by decide : (10 : ℕ) < 256)⟩ St.started l from by decide
  iapply (start_fam c 𝒱₀ arg3 (Memref.whole main_v0_0) i q ai wm hai x3 f 10 10 10 hl10 hj10 rfl hp11 hn11 w11 hw11 k0_cond11 (fun _ => rfl) (k0_chk11 i) (k0_chk11.dec i) (k0_off33 i) (fun _ => rfl) (fun _ _ => rfl) rfl) $$ [HS HC S10]
  · isplitl [HS]; · iexact HS
    isplitl [HC]; · iexact HC
    iexact S10
  iintro ⟨HS, HC⟩
  iapply (loadMask_wp c 𝒱₀ i 11 hl11 q wm rfl) $$ HM
  iintro HM %w12 %hw12
  rw [wp_pure]
  imodintro
  isplitr; · ipureintro; exact hw12
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 3 of the body: steps 12 to 17, and the load of the next step's mask word. -/
theorem part3_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 11 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 11 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part3 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 1 (by decide)⌝ ∗ ((c : Thread nD τ).loc main_call0_v12 ↦{q} ai) ∗ ((c : Thread nD τ).loc main_call0_v13 ↦{q} wm) ∗ cells c arg3 (Memref.whole main_v0_0) i ai wm hai x3 f 17 ∗ semPt c 0 (sem_inb 0 (by decide)) ∗ ∃ W', owes (c : Thread nD τ) 0 W')) := by
  rw [k0_part3_eq_skeleton]; unfold k0_part3_skel
  iintro ⟨HS, HM, HC, S11, S12, S13, S14, S15, HO⟩
  have hl0 : (0 : ℕ) < 256 := by decide
  have hl1 : (1 : ℕ) < 256 := by decide
  have hl11 : (11 : ℕ) < 256 := by decide
  have hl12 : (12 : ℕ) < 256 := by decide
  have hl13 : (13 : ℕ) < 256 := by decide
  have hl14 : (14 : ℕ) < 256 := by decide
  have hl15 : (15 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw12 : w = wordOf wm i 11 hl11 := hw
  have hp12 : stateAt 11 ⟨11, hl11⟩ = St.pending := show stateAt 11 ⟨11, (by decide : (11 : ℕ) < 256)⟩ = St.pending from by decide
  have hn12 : ∀ l : Fin 256, stateAt 12 l = Function.update (stateAt 11) ⟨11, hl11⟩ St.started l := show ∀ l : Fin 256, stateAt 12 l = Function.update (stateAt 11) ⟨11, (by decide : (11 : ℕ) < 256)⟩ St.started l from by decide
  iapply (start_fam c 𝒱₀ arg3 (Memref.whole main_v0_0) i q ai wm hai x3 f 11 11 11 hl11 hj11 rfl hp12 hn12 w hw12 k0_cond12 (fun _ => rfl) (k0_chk12 i) (k0_chk12.dec i) (k0_off36 i) (fun _ => rfl) (fun _ _ => rfl) rfl) $$ [HS HC S11]
  · isplitl [HS]; · iexact HS
    isplitl [HC]; · iexact HC
    iexact S11
  iintro ⟨HS, HC⟩
  iapply (loadMask_wp c 𝒱₀ i 12 hl12 q wm rfl) $$ HM
  iintro HM %w13 %hw13
  have hp13 : stateAt 12 ⟨12, hl12⟩ = St.pending := show stateAt 12 ⟨12, (by decide : (12 : ℕ) < 256)⟩ = St.pending from by decide
  have hn13 : ∀ l : Fin 256, stateAt 13 l = Function.update (stateAt 12) ⟨12, hl12⟩ St.started l := show ∀ l : Fin 256, stateAt 13 l = Function.update (stateAt 12) ⟨12, (by decide : (12 : ℕ) < 256)⟩ St.started l from by decide
  iapply (start_fam c 𝒱₀ arg3 (Memref.whole main_v0_0) i q ai wm hai x3 f 12 12 12 hl12 hj12 rfl hp13 hn13 w13 hw13 k0_cond13 (fun _ => rfl) (k0_chk13 i) (k0_chk13.dec i) (k0_off39 i) (fun _ => rfl) (fun _ _ => rfl) rfl) $$ [HS HC S12]
  · isplitl [HS]; · iexact HS
    isplitl [HC]; · iexact HC
    iexact S12
  iintro ⟨HS, HC⟩
  iapply (loadMask_wp c 𝒱₀ i 13 hl13 q wm rfl) $$ HM
  iintro HM %w14 %hw14
  have hp14 : stateAt 13 ⟨13, hl13⟩ = St.pending := show stateAt 13 ⟨13, (by decide : (13 : ℕ) < 256)⟩ = St.pending from by decide
  have hn14 : ∀ l : Fin 256, stateAt 14 l = Function.update (stateAt 13) ⟨13, hl13⟩ St.started l := show ∀ l : Fin 256, stateAt 14 l = Function.update (stateAt 13) ⟨13, (by decide : (13 : ℕ) < 256)⟩ St.started l from by decide
  iapply (start_fam c 𝒱₀ arg3 (Memref.whole main_v0_0) i q ai wm hai x3 f 13 13 13 hl13 hj13 rfl hp14 hn14 w14 hw14 k0_cond14 (fun _ => rfl) (k0_chk14 i) (k0_chk14.dec i) (k0_off42 i) (fun _ => rfl) (fun _ _ => rfl) rfl) $$ [HS HC S13]
  · isplitl [HS]; · iexact HS
    isplitl [HC]; · iexact HC
    iexact S13
  iintro ⟨HS, HC⟩
  iapply (loadMask_wp c 𝒱₀ i 14 hl14 q wm rfl) $$ HM
  iintro HM %w15 %hw15
  have hp15 : stateAt 14 ⟨14, hl14⟩ = St.pending := show stateAt 14 ⟨14, (by decide : (14 : ℕ) < 256)⟩ = St.pending from by decide
  have hn15 : ∀ l : Fin 256, stateAt 15 l = Function.update (stateAt 14) ⟨14, hl14⟩ St.started l := show ∀ l : Fin 256, stateAt 15 l = Function.update (stateAt 14) ⟨14, (by decide : (14 : ℕ) < 256)⟩ St.started l from by decide
  iapply (start_fam c 𝒱₀ arg3 (Memref.whole main_v0_0) i q ai wm hai x3 f 14 14 14 hl14 hj14 rfl hp15 hn15 w15 hw15 k0_cond15 (fun _ => rfl) (k0_chk15 i) (k0_chk15.dec i) (k0_off45 i) (fun _ => rfl) (fun _ _ => rfl) rfl) $$ [HS HC S14]
  · isplitl [HS]; · iexact HS
    isplitl [HC]; · iexact HC
    iexact S14
  iintro ⟨HS, HC⟩
  iapply (loadMask_wp c 𝒱₀ i 15 hl15 q wm rfl) $$ HM
  iintro HM %w16 %hw16
  have hp16 : stateAt 15 ⟨15, hl15⟩ = St.pending := show stateAt 15 ⟨15, (by decide : (15 : ℕ) < 256)⟩ = St.pending from by decide
  have hn16 : ∀ l : Fin 256, stateAt 16 l = Function.update (stateAt 15) ⟨15, hl15⟩ St.started l := show ∀ l : Fin 256, stateAt 16 l = Function.update (stateAt 15) ⟨15, (by decide : (15 : ℕ) < 256)⟩ St.started l from by decide
  iapply (start_fam c 𝒱₀ arg3 (Memref.whole main_v0_0) i q ai wm hai x3 f 15 15 15 hl15 hj15 rfl hp16 hn16 w16 hw16 k0_cond16 (fun _ => rfl) (k0_chk16 i) (k0_chk16.dec i) (k0_off48 i) (fun _ => rfl) (fun _ _ => rfl) rfl) $$ [HS HC S15]
  · isplitl [HS]; · iexact HS
    isplitl [HC]; · iexact HC
    iexact S15
  iintro ⟨HS, HC⟩
  iapply (loadMask_wp c 𝒱₀ i 0 hl0 q wm rfl) $$ HM
  iintro HM %w17 %hw17
  have hp17 : stateAt 16 ⟨0, hl0⟩ = St.started := show stateAt 16 ⟨0, (by decide : (0 : ℕ) < 256)⟩ = St.started from by decide
  have hn17 : ∀ l : Fin 256, stateAt 17 l = Function.update (stateAt 16) ⟨0, hl0⟩ St.done l := show ∀ l : Fin 256, stateAt 17 l = Function.update (stateAt 16) ⟨0, (by decide : (0 : ℕ) < 256)⟩ St.done l from by decide
  iapply (wait_fam c 𝒱₀ arg3 (Memref.whole main_v0_0) i q ai wm hai x3 f 16 0 0 hl0 hj0 rfl hp17 hn17 w17 hw17 (k0_off50 i) rfl (k0_off50_inb i) k0_cond17 (fun _ => rfl) (k0_chk17 i) (k0_chk17.dec i) (k0_off51 i) (fun _ => rfl) (fun _ _ h => h) (k0_off51_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W17, HO⟩
  iapply (loadMask_wp c 𝒱₀ i 1 hl1 q wm rfl) $$ HM
  iintro HM %w18 %hw18
  rw [wp_pure]
  imodintro
  isplitr; · ipureintro; exact hw18
  isplitl [HS]; · iexact HS
  isplitl [HM]; · iexact HM
  isplitl [HC]; · iexact HC
  isplitl [S0]; · iexact S0
  iexists _; iexact HO

set_option maxHeartbeats 0 in
/-- Part 4 of the body: steps 18 to 23, and the load of the next step's mask word. -/
theorem part4_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 1 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 17 ∗ semPt c 0 (sem_inb 0 (by decide)) ∗ owes (c : Thread nD τ) 0 W)
      ⊢ wp frame (wpE (defs₀ (F := F)) 𝒱₀ (c : Thread nD τ) none) Set.univ (k0_part4 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 7 (by decide)⌝ ∗ ((c : Thread nD τ).loc main_call0_v12 ↦{q} ai) ∗ ((c : Thread nD τ).loc main_call0_v13 ↦{q} wm) ∗ cells c arg3 (Memref.whole main_v0_0) i ai wm hai x3 f 23 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part4_eq_skeleton]; unfold k0_part4_skel
  iintro ⟨HS, HM, HC, S0, HO⟩
  have hl1 : (1 : ℕ) < 256 := by decide
  have hl2 : (2 : ℕ) < 256 := by decide
  have hl3 : (3 : ℕ) < 256 := by decide
  have hl4 : (4 : ℕ) < 256 := by decide
  have hl5 : (5 : ℕ) < 256 := by decide
  have hl6 : (6 : ℕ) < 256 := by decide
  have hl7 : (7 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw18 : w = wordOf wm i 1 hl1 := hw
  have hp18 : stateAt 17 ⟨1, hl1⟩ = St.started := show stateAt 17 ⟨1, (by decide : (1 : ℕ) < 256)⟩ = St.started from by decide
  have hn18 : ∀ l : Fin 256, stateAt 18 l = Function.update (stateAt 17) ⟨1, hl1⟩ St.done l := show ∀ l : Fin 256, stateAt 18 l = Function.update (stateAt 17) ⟨1, (by decide : (1 : ℕ) < 256)⟩ St.done l from by decide
  iapply (wait_fam c 𝒱₀ arg3 (Memref.whole main_v0_0) i q ai wm hai x3 f 17 1 1 hl1 hj1 rfl hp18 hn18 w hw18 (k0_off53 i) rfl (k0_off53_inb i) k0_cond18 (fun _ => rfl) (k0_chk18 i) (k0_chk18.dec i) (k0_off54 i) (fun _ => rfl) (fun _ _ h => h) (k0_off54_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W18, HO⟩
  iapply (loadMask_wp c 𝒱₀ i 2 hl2 q wm rfl) $$ HM
  iintro HM %w19 %hw19
  have hp19 : stateAt 18 ⟨2, hl2⟩ = St.started := show stateAt 18 ⟨2, (by decide : (2 : ℕ) < 256)⟩ = St.started from by decide
  have hn19 : ∀ l : Fin 256, stateAt 19 l = Function.update (stateAt 18) ⟨2, hl2⟩ St.done l := show ∀ l : Fin 256, stateAt 19 l = Function.update (stateAt 18) ⟨2, (by decide : (2 : ℕ) < 256)⟩ St.done l from by decide
  iapply (wait_fam c 𝒱₀ arg3 (Memref.whole main_v0_0) i q ai wm hai x3 f 18 2 2 hl2 hj2 rfl hp19 hn19 w19 hw19 (k0_off56 i) rfl (k0_off56_inb i) k0_cond19 (fun _ => rfl) (k0_chk19 i) (k0_chk19.dec i) (k0_off57 i) (fun _ => rfl) (fun _ _ h => h) (k0_off57_inb i) ((View.wordExact_bits rfl).reshape _ _) (fun _ _ => (View.wordExact_bits rfl).reshape _ _) _ _ W18) $$ [HS HM HC HO]
  · isplitl [HS]; · iexact HS
    isplitl [HM]; · iexact HM
    isplitl [HC]; · iexact HC
    iexact HO
  iintro ⟨HS, HM, HC, S2, %W19, HO⟩
  iapply (loadMask_wp c 𝒱₀ i 3 hl3 q wm rfl) $$ HM
  iintro HM %w20 %hw20
  have hp20 : stateAt 19 ⟨3, hl3⟩ = St.started := show stateAt 19 ⟨3, (by decide : (3 : ℕ) < 256)⟩ = St.started from by decide
  have hn20 : ∀ l : Fin 256, stateAt 20 l = Function.update (stateAt 19) ⟨3, hl3⟩ St.done l := show ∀ l : Fin 256, stateAt 20 l = Function.update (stateAt 19) ⟨3, (by decide : (3 : ℕ) < 256)⟩ St.done l from by decide
  iapply (wait_fam c 𝒱₀ arg3 (Memref.whole main_v0_0) i q ai wm hai x3 f 19 3 3 hl3 hj3 rfl hp20 hn20 w20 hw20 (k0_off59 i) rfl (k0_off59_inb i) k0_cond20 (fun _ => rfl) (k0_chk20 i) (k0_chk20.dec i) (k0_off60 i) (fun _ => rfl) (fun _ _ h => h) (k0_off60_inb i) ((View.wordExact_bits rfl).reshape _ _) (fun _ _ => (View.wordExact_bits rfl).reshape _ _) _ _ W19) $$ [HS HM HC HO]
  · isplitl [HS]; · iexact HS
    isplitl [HM]; · iexact HM
    isplitl [HC]; · iexact HC
    iexact HO
  iintro ⟨HS, HM, HC, S3, %W20, HO⟩
  iapply (loadMask_wp c 𝒱₀ i 4 hl4 q wm rfl) $$ HM
  iintro HM %w21 %hw21
  have hp21 : stateAt 20 ⟨4, hl4⟩ = St.started := show stateAt 20 ⟨4, (by decide : (4 : ℕ) < 256)⟩ = St.started from by decide
  have hn21 : ∀ l : Fin 256, stateAt 21 l = Function.update (stateAt 20) ⟨4, hl4⟩ St.done l := show ∀ l : Fin 256, stateAt 21 l = Function.update (stateAt 20) ⟨4, (by decide : (4 : ℕ) < 256)⟩ St.done l from by decide
  iapply (wait_fam c 𝒱₀ arg3 (Memref.whole main_v0_0) i q ai wm hai x3 f 20 4 4 hl4 hj4 rfl hp21 hn21 w21 hw21 (k0_off62 i) rfl (k0_off62_inb i) k0_cond21 (fun _ => rfl) (k0_chk21 i) (k0_chk21.dec i) (k0_off63 i) (fun _ => rfl) (fun _ _ h => h) (k0_off63_inb i) ((View.wordExact_bits rfl).reshape _ _) (fun _ _ => (View.wordExact_bits rfl).reshape _ _) _ _ W20) $$ [HS HM HC HO]
  · isplitl [HS]; · iexact HS
    isplitl [HM]; · iexact HM
    isplitl [HC]; · iexact HC
    iexact HO
  iintro ⟨HS, HM, HC, S4, %W21, HO⟩
  iapply (loadMask_wp c 𝒱₀ i 5 hl5 q wm rfl) $$ HM
  iintro HM %w22 %hw22
  have hp22 : stateAt 21 ⟨5, hl5⟩ = St.started := show stateAt 21 ⟨5, (by decide : (5 : ℕ) < 256)⟩ = St.started from by decide
  have hn22 : ∀ l : Fin 256, stateAt 22 l = Function.update (stateAt 21) ⟨5, hl5⟩ St.done l := show ∀ l : Fin 256, stateAt 22 l = Function.update (stateAt 21) ⟨5, (by decide : (5 : ℕ) < 256)⟩ St.done l from by decide
  iapply (wait_fam c 𝒱₀ arg3 (Memref.whole main_v0_0) i q ai wm hai x3 f 21 5 5 hl5 hj5 rfl hp22 hn22 w22 hw22 (k0_off65 i) rfl (k0_off65_inb i) k0_cond22 (fun _ => rfl) (k0_chk22 i) (k0_chk22.dec i) (k0_off66 i) (fun _ => rfl) (fun _ _ h => h) (k0_off66_inb i) ((View.wordExact_bits rfl).reshape _ _) (fun _ _ => (View.wordExact_bits rfl).reshape _ _) _ _ W21) $$ [HS HM HC HO]
  · isplitl [HS]; · iexact HS
    isplitl [HM]; · iexact HM
    isplitl [HC]; · iexact HC
    iexact HO
  iintro ⟨HS, HM, HC, S5, %W22, HO⟩
  iapply (loadMask_wp c 𝒱₀ i 6 hl6 q wm rfl) $$ HM
  iintro HM %w23 %hw23
  have hp23 : stateAt 22 ⟨6, hl6⟩ = St.started := show stateAt 22 ⟨6, (by decide : (6 : ℕ) < 256)⟩ = St.started from by decide
  have hn23 : ∀ l : Fin 256, stateAt 23 l = Function.update (stateAt 22) ⟨6, hl6⟩ St.done l := show ∀ l : Fin 256, stateAt 23 l = Function.update (stateAt 22) ⟨6, (by decide : (6 : ℕ) < 256)⟩ St.done l from by decide
  iapply (wait_fam c 𝒱₀ arg3 (Memref.whole main_v0_0) i q ai wm hai x3 f 22 6 6 hl6 hj6 rfl hp23 hn23 w23 hw23 (k0_off68 i) rfl (k0_off68_inb i) k0_cond23 (fun _ => rfl) (k0_chk23 i) (k0_chk23.dec i) (k0_off69 i) (fun _ => rfl) (fun _ _ h => h) (k0_off69_inb i) ((View.wordExact_bits rfl).reshape _ _) (fun _ _ => (View.wordExact_bits rfl).reshape _ _) _ _ W22) $$ [HS HM HC HO]
  · isplitl [HS]; · iexact HS
    isplitl [HM]; · iexact HM
    isplitl [HC]; · iexact HC
    iexact HO
  iintro ⟨HS, HM, HC, S6, %W23, HO⟩
  iapply (loadMask_wp c 𝒱₀ i 7 hl7 q wm rfl) $$ HM
  iintro HM %w24 %hw24
  rw [wp_pure]
  imodintro
  isplitr; · ipureintro; exact hw24
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 5 of the body: steps 24 to 29, and the load of the next step's mask word. -/
theorem part5_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 7 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 23 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part5 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 13 (by decide)⌝ ∗ ((c : Thread nD τ).loc main_call0_v12 ↦{q} ai) ∗ ((c : Thread nD τ).loc main_call0_v13 ↦{q} wm) ∗ cells c arg3 (Memref.whole main_v0_0) i ai wm hai x3 f 29 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part5_eq_skeleton]; unfold k0_part5_skel
  iintro ⟨HS, HM, HC, S0, S1, S2, S3, S4, S5, S6, HO⟩
  have hl7 : (7 : ℕ) < 256 := by decide
  have hl8 : (8 : ℕ) < 256 := by decide
  have hl9 : (9 : ℕ) < 256 := by decide
  have hl10 : (10 : ℕ) < 256 := by decide
  have hl11 : (11 : ℕ) < 256 := by decide
  have hl12 : (12 : ℕ) < 256 := by decide
  have hl13 : (13 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw24 : w = wordOf wm i 7 hl7 := hw
  have hp24 : stateAt 23 ⟨7, hl7⟩ = St.started := show stateAt 23 ⟨7, (by decide : (7 : ℕ) < 256)⟩ = St.started from by decide
  have hn24 : ∀ l : Fin 256, stateAt 24 l = Function.update (stateAt 23) ⟨7, hl7⟩ St.done l := show ∀ l : Fin 256, stateAt 24 l = Function.update (stateAt 23) ⟨7, (by decide : (7 : ℕ) < 256)⟩ St.done l from by decide
  iapply (wait_fam c 𝒱₀ arg3 (Memref.whole main_v0_0) i q ai wm hai x3 f 23 7 7 hl7 hj7 rfl hp24 hn24 w hw24 (k0_off71 i) rfl (k0_off71_inb i) k0_cond24 (fun _ => rfl) (k0_chk24 i) (k0_chk24.dec i) (k0_off72 i) (fun _ => rfl) (fun _ _ h => h) (k0_off72_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W24, HO⟩
  iapply (loadMask_wp c 𝒱₀ i 8 hl8 q wm rfl) $$ HM
  iintro HM %w25 %hw25
  have hp25 : stateAt 24 ⟨8, hl8⟩ = St.started := show stateAt 24 ⟨8, (by decide : (8 : ℕ) < 256)⟩ = St.started from by decide
  have hn25 : ∀ l : Fin 256, stateAt 25 l = Function.update (stateAt 24) ⟨8, hl8⟩ St.done l := show ∀ l : Fin 256, stateAt 25 l = Function.update (stateAt 24) ⟨8, (by decide : (8 : ℕ) < 256)⟩ St.done l from by decide
  iapply (wait_fam c 𝒱₀ arg3 (Memref.whole main_v0_0) i q ai wm hai x3 f 24 8 8 hl8 hj8 rfl hp25 hn25 w25 hw25 (k0_off74 i) rfl (k0_off74_inb i) k0_cond25 (fun _ => rfl) (k0_chk25 i) (k0_chk25.dec i) (k0_off75 i) (fun _ => rfl) (fun _ _ h => h) (k0_off75_inb i) ((View.wordExact_bits rfl).reshape _ _) (fun _ _ => (View.wordExact_bits rfl).reshape _ _) _ _ W24) $$ [HS HM HC HO]
  · isplitl [HS]; · iexact HS
    isplitl [HM]; · iexact HM
    isplitl [HC]; · iexact HC
    iexact HO
  iintro ⟨HS, HM, HC, S8, %W25, HO⟩
  iapply (loadMask_wp c 𝒱₀ i 9 hl9 q wm rfl) $$ HM
  iintro HM %w26 %hw26
  have hp26 : stateAt 25 ⟨9, hl9⟩ = St.started := show stateAt 25 ⟨9, (by decide : (9 : ℕ) < 256)⟩ = St.started from by decide
  have hn26 : ∀ l : Fin 256, stateAt 26 l = Function.update (stateAt 25) ⟨9, hl9⟩ St.done l := show ∀ l : Fin 256, stateAt 26 l = Function.update (stateAt 25) ⟨9, (by decide : (9 : ℕ) < 256)⟩ St.done l from by decide
  iapply (wait_fam c 𝒱₀ arg3 (Memref.whole main_v0_0) i q ai wm hai x3 f 25 9 9 hl9 hj9 rfl hp26 hn26 w26 hw26 (k0_off77 i) rfl (k0_off77_inb i) k0_cond26 (fun _ => rfl) (k0_chk26 i) (k0_chk26.dec i) (k0_off78 i) (fun _ => rfl) (fun _ _ h => h) (k0_off78_inb i) ((View.wordExact_bits rfl).reshape _ _) (fun _ _ => (View.wordExact_bits rfl).reshape _ _) _ _ W25) $$ [HS HM HC HO]
  · isplitl [HS]; · iexact HS
    isplitl [HM]; · iexact HM
    isplitl [HC]; · iexact HC
    iexact HO
  iintro ⟨HS, HM, HC, S9, %W26, HO⟩
  iapply (loadMask_wp c 𝒱₀ i 10 hl10 q wm rfl) $$ HM
  iintro HM %w27 %hw27
  have hp27 : stateAt 26 ⟨10, hl10⟩ = St.started := show stateAt 26 ⟨10, (by decide : (10 : ℕ) < 256)⟩ = St.started from by decide
  have hn27 : ∀ l : Fin 256, stateAt 27 l = Function.update (stateAt 26) ⟨10, hl10⟩ St.done l := show ∀ l : Fin 256, stateAt 27 l = Function.update (stateAt 26) ⟨10, (by decide : (10 : ℕ) < 256)⟩ St.done l from by decide
  iapply (wait_fam c 𝒱₀ arg3 (Memref.whole main_v0_0) i q ai wm hai x3 f 26 10 10 hl10 hj10 rfl hp27 hn27 w27 hw27 (k0_off80 i) rfl (k0_off80_inb i) k0_cond27 (fun _ => rfl) (k0_chk27 i) (k0_chk27.dec i) (k0_off81 i) (fun _ => rfl) (fun _ _ h => h) (k0_off81_inb i) ((View.wordExact_bits rfl).reshape _ _) (fun _ _ => (View.wordExact_bits rfl).reshape _ _) _ _ W26) $$ [HS HM HC HO]
  · isplitl [HS]; · iexact HS
    isplitl [HM]; · iexact HM
    isplitl [HC]; · iexact HC
    iexact HO
  iintro ⟨HS, HM, HC, S10, %W27, HO⟩
  iapply (loadMask_wp c 𝒱₀ i 11 hl11 q wm rfl) $$ HM
  iintro HM %w28 %hw28
  have hp28 : stateAt 27 ⟨11, hl11⟩ = St.started := show stateAt 27 ⟨11, (by decide : (11 : ℕ) < 256)⟩ = St.started from by decide
  have hn28 : ∀ l : Fin 256, stateAt 28 l = Function.update (stateAt 27) ⟨11, hl11⟩ St.done l := show ∀ l : Fin 256, stateAt 28 l = Function.update (stateAt 27) ⟨11, (by decide : (11 : ℕ) < 256)⟩ St.done l from by decide
  iapply (wait_fam c 𝒱₀ arg3 (Memref.whole main_v0_0) i q ai wm hai x3 f 27 11 11 hl11 hj11 rfl hp28 hn28 w28 hw28 (k0_off83 i) rfl (k0_off83_inb i) k0_cond28 (fun _ => rfl) (k0_chk28 i) (k0_chk28.dec i) (k0_off84 i) (fun _ => rfl) (fun _ _ h => h) (k0_off84_inb i) ((View.wordExact_bits rfl).reshape _ _) (fun _ _ => (View.wordExact_bits rfl).reshape _ _) _ _ W27) $$ [HS HM HC HO]
  · isplitl [HS]; · iexact HS
    isplitl [HM]; · iexact HM
    isplitl [HC]; · iexact HC
    iexact HO
  iintro ⟨HS, HM, HC, S11, %W28, HO⟩
  iapply (loadMask_wp c 𝒱₀ i 12 hl12 q wm rfl) $$ HM
  iintro HM %w29 %hw29
  have hp29 : stateAt 28 ⟨12, hl12⟩ = St.started := show stateAt 28 ⟨12, (by decide : (12 : ℕ) < 256)⟩ = St.started from by decide
  have hn29 : ∀ l : Fin 256, stateAt 29 l = Function.update (stateAt 28) ⟨12, hl12⟩ St.done l := show ∀ l : Fin 256, stateAt 29 l = Function.update (stateAt 28) ⟨12, (by decide : (12 : ℕ) < 256)⟩ St.done l from by decide
  iapply (wait_fam c 𝒱₀ arg3 (Memref.whole main_v0_0) i q ai wm hai x3 f 28 12 12 hl12 hj12 rfl hp29 hn29 w29 hw29 (k0_off86 i) rfl (k0_off86_inb i) k0_cond29 (fun _ => rfl) (k0_chk29 i) (k0_chk29.dec i) (k0_off87 i) (fun _ => rfl) (fun _ _ h => h) (k0_off87_inb i) ((View.wordExact_bits rfl).reshape _ _) (fun _ _ => (View.wordExact_bits rfl).reshape _ _) _ _ W28) $$ [HS HM HC HO]
  · isplitl [HS]; · iexact HS
    isplitl [HM]; · iexact HM
    isplitl [HC]; · iexact HC
    iexact HO
  iintro ⟨HS, HM, HC, S12, %W29, HO⟩
  iapply (loadMask_wp c 𝒱₀ i 13 hl13 q wm rfl) $$ HM
  iintro HM %w30 %hw30
  rw [wp_pure]
  imodintro
  isplitr; · ipureintro; exact hw30
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 6 of the body: steps 30 to 35, and the load of the next step's mask word. -/
theorem part6_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 13 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 29 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part6 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 19 (by decide)⌝ ∗ ((c : Thread nD τ).loc main_call0_v12 ↦{q} ai) ∗ ((c : Thread nD τ).loc main_call0_v13 ↦{q} wm) ∗ cells c arg3 (Memref.whole main_v0_0) i ai wm hai x3 f 35 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part6_eq_skeleton]; unfold k0_part6_skel
  iintro ⟨HS, HM, HC, S0, S1, S2, S3, S4, S5, S6, S7, S8, S9, S10, S11, S12, HO⟩
  have hl13 : (13 : ℕ) < 256 := by decide
  have hl14 : (14 : ℕ) < 256 := by decide
  have hl15 : (15 : ℕ) < 256 := by decide
  have hl16 : (16 : ℕ) < 256 := by decide
  have hl17 : (17 : ℕ) < 256 := by decide
  have hl18 : (18 : ℕ) < 256 := by decide
  have hl19 : (19 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw30 : w = wordOf wm i 13 hl13 := hw
  have hp30 : stateAt 29 ⟨13, hl13⟩ = St.started := show stateAt 29 ⟨13, (by decide : (13 : ℕ) < 256)⟩ = St.started from by decide
  have hn30 : ∀ l : Fin 256, stateAt 30 l = Function.update (stateAt 29) ⟨13, hl13⟩ St.done l := show ∀ l : Fin 256, stateAt 30 l = Function.update (stateAt 29) ⟨13, (by decide : (13 : ℕ) < 256)⟩ St.done l from by decide
  iapply (wait_fam c 𝒱₀ arg3 (Memref.whole main_v0_0) i q ai wm hai x3 f 29 13 13 hl13 hj13 rfl hp30 hn30 w hw30 (k0_off89 i) rfl (k0_off89_inb i) k0_cond30 (fun _ => rfl) (k0_chk30 i) (k0_chk30.dec i) (k0_off90 i) (fun _ => rfl) (fun _ _ h => h) (k0_off90_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W30, HO⟩
  iapply (loadMask_wp c 𝒱₀ i 14 hl14 q wm rfl) $$ HM
  iintro HM %w31 %hw31
  have hp31 : stateAt 30 ⟨14, hl14⟩ = St.started := show stateAt 30 ⟨14, (by decide : (14 : ℕ) < 256)⟩ = St.started from by decide
  have hn31 : ∀ l : Fin 256, stateAt 31 l = Function.update (stateAt 30) ⟨14, hl14⟩ St.done l := show ∀ l : Fin 256, stateAt 31 l = Function.update (stateAt 30) ⟨14, (by decide : (14 : ℕ) < 256)⟩ St.done l from by decide
  iapply (wait_fam c 𝒱₀ arg3 (Memref.whole main_v0_0) i q ai wm hai x3 f 30 14 14 hl14 hj14 rfl hp31 hn31 w31 hw31 (k0_off92 i) rfl (k0_off92_inb i) k0_cond31 (fun _ => rfl) (k0_chk31 i) (k0_chk31.dec i) (k0_off93 i) (fun _ => rfl) (fun _ _ h => h) (k0_off93_inb i) ((View.wordExact_bits rfl).reshape _ _) (fun _ _ => (View.wordExact_bits rfl).reshape _ _) _ _ W30) $$ [HS HM HC HO]
  · isplitl [HS]; · iexact HS
    isplitl [HM]; · iexact HM
    isplitl [HC]; · iexact HC
    iexact HO
  iintro ⟨HS, HM, HC, S14, %W31, HO⟩
  iapply (loadMask_wp c 𝒱₀ i 15 hl15 q wm rfl) $$ HM
  iintro HM %w32 %hw32
  have hp32 : stateAt 31 ⟨15, hl15⟩ = St.started := show stateAt 31 ⟨15, (by decide : (15 : ℕ) < 256)⟩ = St.started from by decide
  have hn32 : ∀ l : Fin 256, stateAt 32 l = Function.update (stateAt 31) ⟨15, hl15⟩ St.done l := show ∀ l : Fin 256, stateAt 32 l = Function.update (stateAt 31) ⟨15, (by decide : (15 : ℕ) < 256)⟩ St.done l from by decide
  iapply (wait_fam c 𝒱₀ arg3 (Memref.whole main_v0_0) i q ai wm hai x3 f 31 15 15 hl15 hj15 rfl hp32 hn32 w32 hw32 (k0_off95 i) rfl (k0_off95_inb i) k0_cond32 (fun _ => rfl) (k0_chk32 i) (k0_chk32.dec i) (k0_off96 i) (fun _ => rfl) (fun _ _ h => h) (k0_off96_inb i) ((View.wordExact_bits rfl).reshape _ _) (fun _ _ => (View.wordExact_bits rfl).reshape _ _) _ _ W31) $$ [HS HM HC HO]
  · isplitl [HS]; · iexact HS
    isplitl [HM]; · iexact HM
    isplitl [HC]; · iexact HC
    iexact HO
  iintro ⟨HS, HM, HC, S15, %W32, HO⟩
  iapply (loadMask_wp c 𝒱₀ i 16 hl16 q wm rfl) $$ HM
  iintro HM %w33 %hw33
  have hp33 : stateAt 32 ⟨16, hl16⟩ = St.pending := show stateAt 32 ⟨16, (by decide : (16 : ℕ) < 256)⟩ = St.pending from by decide
  have hn33 : ∀ l : Fin 256, stateAt 33 l = Function.update (stateAt 32) ⟨16, hl16⟩ St.started l := show ∀ l : Fin 256, stateAt 33 l = Function.update (stateAt 32) ⟨16, (by decide : (16 : ℕ) < 256)⟩ St.started l from by decide
  iapply (start_fam c 𝒱₀ arg3 (Memref.whole main_v0_0) i q ai wm hai x3 f 32 16 0 hl16 hj0 rfl hp33 hn33 w33 hw33 k0_cond33 (fun _ => rfl) (k0_chk33 i) (k0_chk33.dec i) (k0_off99 i) (fun _ => rfl) (fun _ _ => rfl) rfl) $$ [HS HC S0]
  · isplitl [HS]; · iexact HS
    isplitl [HC]; · iexact HC
    iexact S0
  iintro ⟨HS, HC⟩
  iapply (loadMask_wp c 𝒱₀ i 17 hl17 q wm rfl) $$ HM
  iintro HM %w34 %hw34
  have hp34 : stateAt 33 ⟨17, hl17⟩ = St.pending := show stateAt 33 ⟨17, (by decide : (17 : ℕ) < 256)⟩ = St.pending from by decide
  have hn34 : ∀ l : Fin 256, stateAt 34 l = Function.update (stateAt 33) ⟨17, hl17⟩ St.started l := show ∀ l : Fin 256, stateAt 34 l = Function.update (stateAt 33) ⟨17, (by decide : (17 : ℕ) < 256)⟩ St.started l from by decide
  iapply (start_fam c 𝒱₀ arg3 (Memref.whole main_v0_0) i q ai wm hai x3 f 33 17 1 hl17 hj1 rfl hp34 hn34 w34 hw34 k0_cond34 (fun _ => rfl) (k0_chk34 i) (k0_chk34.dec i) (k0_off102 i) (fun _ => rfl) (fun _ _ => rfl) rfl) $$ [HS HC S1]
  · isplitl [HS]; · iexact HS
    isplitl [HC]; · iexact HC
    iexact S1
  iintro ⟨HS, HC⟩
  iapply (loadMask_wp c 𝒱₀ i 18 hl18 q wm rfl) $$ HM
  iintro HM %w35 %hw35
  have hp35 : stateAt 34 ⟨18, hl18⟩ = St.pending := show stateAt 34 ⟨18, (by decide : (18 : ℕ) < 256)⟩ = St.pending from by decide
  have hn35 : ∀ l : Fin 256, stateAt 35 l = Function.update (stateAt 34) ⟨18, hl18⟩ St.started l := show ∀ l : Fin 256, stateAt 35 l = Function.update (stateAt 34) ⟨18, (by decide : (18 : ℕ) < 256)⟩ St.started l from by decide
  iapply (start_fam c 𝒱₀ arg3 (Memref.whole main_v0_0) i q ai wm hai x3 f 34 18 2 hl18 hj2 rfl hp35 hn35 w35 hw35 k0_cond35 (fun _ => rfl) (k0_chk35 i) (k0_chk35.dec i) (k0_off105 i) (fun _ => rfl) (fun _ _ => rfl) rfl) $$ [HS HC S2]
  · isplitl [HS]; · iexact HS
    isplitl [HC]; · iexact HC
    iexact S2
  iintro ⟨HS, HC⟩
  iapply (loadMask_wp c 𝒱₀ i 19 hl19 q wm rfl) $$ HM
  iintro HM %w36 %hw36
  rw [wp_pure]
  imodintro
  isplitr; · ipureintro; exact hw36
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 7 of the body: steps 36 to 41, and the load of the next step's mask word. -/
theorem part7_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 19 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 35 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part7 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 25 (by decide)⌝ ∗ ((c : Thread nD τ).loc main_call0_v12 ↦{q} ai) ∗ ((c : Thread nD τ).loc main_call0_v13 ↦{q} wm) ∗ cells c arg3 (Memref.whole main_v0_0) i ai wm hai x3 f 41 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part7_eq_skeleton]; unfold k0_part7_skel
  iintro ⟨HS, HM, HC, S3, S4, S5, S6, S7, S8, S9, S10, S11, S12, S13, S14, S15, HO⟩
  have hl19 : (19 : ℕ) < 256 := by decide
  have hl20 : (20 : ℕ) < 256 := by decide
  have hl21 : (21 : ℕ) < 256 := by decide
  have hl22 : (22 : ℕ) < 256 := by decide
  have hl23 : (23 : ℕ) < 256 := by decide
  have hl24 : (24 : ℕ) < 256 := by decide
  have hl25 : (25 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw36 : w = wordOf wm i 19 hl19 := hw
  have hp36 : stateAt 35 ⟨19, hl19⟩ = St.pending := show stateAt 35 ⟨19, (by decide : (19 : ℕ) < 256)⟩ = St.pending from by decide
  have hn36 : ∀ l : Fin 256, stateAt 36 l = Function.update (stateAt 35) ⟨19, hl19⟩ St.started l := show ∀ l : Fin 256, stateAt 36 l = Function.update (stateAt 35) ⟨19, (by decide : (19 : ℕ) < 256)⟩ St.started l from by decide
  iapply (start_fam c 𝒱₀ arg3 (Memref.whole main_v0_0) i q ai wm hai x3 f 35 19 3 hl19 hj3 rfl hp36 hn36 w hw36 k0_cond36 (fun _ => rfl) (k0_chk36 i) (k0_chk36.dec i) (k0_off108 i) (fun _ => rfl) (fun _ _ => rfl) rfl) $$ [HS HC S3]
  · isplitl [HS]; · iexact HS
    isplitl [HC]; · iexact HC
    iexact S3
  iintro ⟨HS, HC⟩
  iapply (loadMask_wp c 𝒱₀ i 20 hl20 q wm rfl) $$ HM
  iintro HM %w37 %hw37
  have hp37 : stateAt 36 ⟨20, hl20⟩ = St.pending := show stateAt 36 ⟨20, (by decide : (20 : ℕ) < 256)⟩ = St.pending from by decide
  have hn37 : ∀ l : Fin 256, stateAt 37 l = Function.update (stateAt 36) ⟨20, hl20⟩ St.started l := show ∀ l : Fin 256, stateAt 37 l = Function.update (stateAt 36) ⟨20, (by decide : (20 : ℕ) < 256)⟩ St.started l from by decide
  iapply (start_fam c 𝒱₀ arg3 (Memref.whole main_v0_0) i q ai wm hai x3 f 36 20 4 hl20 hj4 rfl hp37 hn37 w37 hw37 k0_cond37 (fun _ => rfl) (k0_chk37 i) (k0_chk37.dec i) (k0_off111 i) (fun _ => rfl) (fun _ _ => rfl) rfl) $$ [HS HC S4]
  · isplitl [HS]; · iexact HS
    isplitl [HC]; · iexact HC
    iexact S4
  iintro ⟨HS, HC⟩
  iapply (loadMask_wp c 𝒱₀ i 21 hl21 q wm rfl) $$ HM
  iintro HM %w38 %hw38
  have hp38 : stateAt 37 ⟨21, hl21⟩ = St.pending := show stateAt 37 ⟨21, (by decide : (21 : ℕ) < 256)⟩ = St.pending from by decide
  have hn38 : ∀ l : Fin 256, stateAt 38 l = Function.update (stateAt 37) ⟨21, hl21⟩ St.started l := show ∀ l : Fin 256, stateAt 38 l = Function.update (stateAt 37) ⟨21, (by decide : (21 : ℕ) < 256)⟩ St.started l from by decide
  iapply (start_fam c 𝒱₀ arg3 (Memref.whole main_v0_0) i q ai wm hai x3 f 37 21 5 hl21 hj5 rfl hp38 hn38 w38 hw38 k0_cond38 (fun _ => rfl) (k0_chk38 i) (k0_chk38.dec i) (k0_off114 i) (fun _ => rfl) (fun _ _ => rfl) rfl) $$ [HS HC S5]
  · isplitl [HS]; · iexact HS
    isplitl [HC]; · iexact HC
    iexact S5
  iintro ⟨HS, HC⟩
  iapply (loadMask_wp c 𝒱₀ i 22 hl22 q wm rfl) $$ HM
  iintro HM %w39 %hw39
  have hp39 : stateAt 38 ⟨22, hl22⟩ = St.pending := show stateAt 38 ⟨22, (by decide : (22 : ℕ) < 256)⟩ = St.pending from by decide
  have hn39 : ∀ l : Fin 256, stateAt 39 l = Function.update (stateAt 38) ⟨22, hl22⟩ St.started l := show ∀ l : Fin 256, stateAt 39 l = Function.update (stateAt 38) ⟨22, (by decide : (22 : ℕ) < 256)⟩ St.started l from by decide
  iapply (start_fam c 𝒱₀ arg3 (Memref.whole main_v0_0) i q ai wm hai x3 f 38 22 6 hl22 hj6 rfl hp39 hn39 w39 hw39 k0_cond39 (fun _ => rfl) (k0_chk39 i) (k0_chk39.dec i) (k0_off117 i) (fun _ => rfl) (fun _ _ => rfl) rfl) $$ [HS HC S6]
  · isplitl [HS]; · iexact HS
    isplitl [HC]; · iexact HC
    iexact S6
  iintro ⟨HS, HC⟩
  iapply (loadMask_wp c 𝒱₀ i 23 hl23 q wm rfl) $$ HM
  iintro HM %w40 %hw40
  have hp40 : stateAt 39 ⟨23, hl23⟩ = St.pending := show stateAt 39 ⟨23, (by decide : (23 : ℕ) < 256)⟩ = St.pending from by decide
  have hn40 : ∀ l : Fin 256, stateAt 40 l = Function.update (stateAt 39) ⟨23, hl23⟩ St.started l := show ∀ l : Fin 256, stateAt 40 l = Function.update (stateAt 39) ⟨23, (by decide : (23 : ℕ) < 256)⟩ St.started l from by decide
  iapply (start_fam c 𝒱₀ arg3 (Memref.whole main_v0_0) i q ai wm hai x3 f 39 23 7 hl23 hj7 rfl hp40 hn40 w40 hw40 k0_cond40 (fun _ => rfl) (k0_chk40 i) (k0_chk40.dec i) (k0_off120 i) (fun _ => rfl) (fun _ _ => rfl) rfl) $$ [HS HC S7]
  · isplitl [HS]; · iexact HS
    isplitl [HC]; · iexact HC
    iexact S7
  iintro ⟨HS, HC⟩
  iapply (loadMask_wp c 𝒱₀ i 24 hl24 q wm rfl) $$ HM
  iintro HM %w41 %hw41
  have hp41 : stateAt 40 ⟨24, hl24⟩ = St.pending := show stateAt 40 ⟨24, (by decide : (24 : ℕ) < 256)⟩ = St.pending from by decide
  have hn41 : ∀ l : Fin 256, stateAt 41 l = Function.update (stateAt 40) ⟨24, hl24⟩ St.started l := show ∀ l : Fin 256, stateAt 41 l = Function.update (stateAt 40) ⟨24, (by decide : (24 : ℕ) < 256)⟩ St.started l from by decide
  iapply (start_fam c 𝒱₀ arg3 (Memref.whole main_v0_0) i q ai wm hai x3 f 40 24 8 hl24 hj8 rfl hp41 hn41 w41 hw41 k0_cond41 (fun _ => rfl) (k0_chk41 i) (k0_chk41.dec i) (k0_off123 i) (fun _ => rfl) (fun _ _ => rfl) rfl) $$ [HS HC S8]
  · isplitl [HS]; · iexact HS
    isplitl [HC]; · iexact HC
    iexact S8
  iintro ⟨HS, HC⟩
  iapply (loadMask_wp c 𝒱₀ i 25 hl25 q wm rfl) $$ HM
  iintro HM %w42 %hw42
  rw [wp_pure]
  imodintro
  isplitr; · ipureintro; exact hw42
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 8 of the body: steps 42 to 47, and the load of the next step's mask word. -/
theorem part8_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 25 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 41 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part8 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 31 (by decide)⌝ ∗ ((c : Thread nD τ).loc main_call0_v12 ↦{q} ai) ∗ ((c : Thread nD τ).loc main_call0_v13 ↦{q} wm) ∗ cells c arg3 (Memref.whole main_v0_0) i ai wm hai x3 f 47 ∗ semPt c 15 (sem_inb 15 (by decide)) ∗ ∃ W', owes (c : Thread nD τ) 0 W')) := by
  rw [k0_part8_eq_skeleton]; unfold k0_part8_skel
  iintro ⟨HS, HM, HC, S9, S10, S11, S12, S13, S14, S15, HO⟩
  have hl25 : (25 : ℕ) < 256 := by decide
  have hl26 : (26 : ℕ) < 256 := by decide
  have hl27 : (27 : ℕ) < 256 := by decide
  have hl28 : (28 : ℕ) < 256 := by decide
  have hl29 : (29 : ℕ) < 256 := by decide
  have hl30 : (30 : ℕ) < 256 := by decide
  have hl31 : (31 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw42 : w = wordOf wm i 25 hl25 := hw
  have hp42 : stateAt 41 ⟨25, hl25⟩ = St.pending := show stateAt 41 ⟨25, (by decide : (25 : ℕ) < 256)⟩ = St.pending from by decide
  have hn42 : ∀ l : Fin 256, stateAt 42 l = Function.update (stateAt 41) ⟨25, hl25⟩ St.started l := show ∀ l : Fin 256, stateAt 42 l = Function.update (stateAt 41) ⟨25, (by decide : (25 : ℕ) < 256)⟩ St.started l from by decide
  iapply (start_fam c 𝒱₀ arg3 (Memref.whole main_v0_0) i q ai wm hai x3 f 41 25 9 hl25 hj9 rfl hp42 hn42 w hw42 k0_cond42 (fun _ => rfl) (k0_chk42 i) (k0_chk42.dec i) (k0_off126 i) (fun _ => rfl) (fun _ _ => rfl) rfl) $$ [HS HC S9]
  · isplitl [HS]; · iexact HS
    isplitl [HC]; · iexact HC
    iexact S9
  iintro ⟨HS, HC⟩
  iapply (loadMask_wp c 𝒱₀ i 26 hl26 q wm rfl) $$ HM
  iintro HM %w43 %hw43
  have hp43 : stateAt 42 ⟨26, hl26⟩ = St.pending := show stateAt 42 ⟨26, (by decide : (26 : ℕ) < 256)⟩ = St.pending from by decide
  have hn43 : ∀ l : Fin 256, stateAt 43 l = Function.update (stateAt 42) ⟨26, hl26⟩ St.started l := show ∀ l : Fin 256, stateAt 43 l = Function.update (stateAt 42) ⟨26, (by decide : (26 : ℕ) < 256)⟩ St.started l from by decide
  iapply (start_fam c 𝒱₀ arg3 (Memref.whole main_v0_0) i q ai wm hai x3 f 42 26 10 hl26 hj10 rfl hp43 hn43 w43 hw43 k0_cond43 (fun _ => rfl) (k0_chk43 i) (k0_chk43.dec i) (k0_off129 i) (fun _ => rfl) (fun _ _ => rfl) rfl) $$ [HS HC S10]
  · isplitl [HS]; · iexact HS
    isplitl [HC]; · iexact HC
    iexact S10
  iintro ⟨HS, HC⟩
  iapply (loadMask_wp c 𝒱₀ i 27 hl27 q wm rfl) $$ HM
  iintro HM %w44 %hw44
  have hp44 : stateAt 43 ⟨27, hl27⟩ = St.pending := show stateAt 43 ⟨27, (by decide : (27 : ℕ) < 256)⟩ = St.pending from by decide
  have hn44 : ∀ l : Fin 256, stateAt 44 l = Function.update (stateAt 43) ⟨27, hl27⟩ St.started l := show ∀ l : Fin 256, stateAt 44 l = Function.update (stateAt 43) ⟨27, (by decide : (27 : ℕ) < 256)⟩ St.started l from by decide
  iapply (start_fam c 𝒱₀ arg3 (Memref.whole main_v0_0) i q ai wm hai x3 f 43 27 11 hl27 hj11 rfl hp44 hn44 w44 hw44 k0_cond44 (fun _ => rfl) (k0_chk44 i) (k0_chk44.dec i) (k0_off132 i) (fun _ => rfl) (fun _ _ => rfl) rfl) $$ [HS HC S11]
  · isplitl [HS]; · iexact HS
    isplitl [HC]; · iexact HC
    iexact S11
  iintro ⟨HS, HC⟩
  iapply (loadMask_wp c 𝒱₀ i 28 hl28 q wm rfl) $$ HM
  iintro HM %w45 %hw45
  have hp45 : stateAt 44 ⟨28, hl28⟩ = St.pending := show stateAt 44 ⟨28, (by decide : (28 : ℕ) < 256)⟩ = St.pending from by decide
  have hn45 : ∀ l : Fin 256, stateAt 45 l = Function.update (stateAt 44) ⟨28, hl28⟩ St.started l := show ∀ l : Fin 256, stateAt 45 l = Function.update (stateAt 44) ⟨28, (by decide : (28 : ℕ) < 256)⟩ St.started l from by decide
  iapply (start_fam c 𝒱₀ arg3 (Memref.whole main_v0_0) i q ai wm hai x3 f 44 28 12 hl28 hj12 rfl hp45 hn45 w45 hw45 k0_cond45 (fun _ => rfl) (k0_chk45 i) (k0_chk45.dec i) (k0_off135 i) (fun _ => rfl) (fun _ _ => rfl) rfl) $$ [HS HC S12]
  · isplitl [HS]; · iexact HS
    isplitl [HC]; · iexact HC
    iexact S12
  iintro ⟨HS, HC⟩
  iapply (loadMask_wp c 𝒱₀ i 29 hl29 q wm rfl) $$ HM
  iintro HM %w46 %hw46
  have hp46 : stateAt 45 ⟨29, hl29⟩ = St.pending := show stateAt 45 ⟨29, (by decide : (29 : ℕ) < 256)⟩ = St.pending from by decide
  have hn46 : ∀ l : Fin 256, stateAt 46 l = Function.update (stateAt 45) ⟨29, hl29⟩ St.started l := show ∀ l : Fin 256, stateAt 46 l = Function.update (stateAt 45) ⟨29, (by decide : (29 : ℕ) < 256)⟩ St.started l from by decide
  iapply (start_fam c 𝒱₀ arg3 (Memref.whole main_v0_0) i q ai wm hai x3 f 45 29 13 hl29 hj13 rfl hp46 hn46 w46 hw46 k0_cond46 (fun _ => rfl) (k0_chk46 i) (k0_chk46.dec i) (k0_off138 i) (fun _ => rfl) (fun _ _ => rfl) rfl) $$ [HS HC S13]
  · isplitl [HS]; · iexact HS
    isplitl [HC]; · iexact HC
    iexact S13
  iintro ⟨HS, HC⟩
  iapply (loadMask_wp c 𝒱₀ i 30 hl30 q wm rfl) $$ HM
  iintro HM %w47 %hw47
  have hp47 : stateAt 46 ⟨30, hl30⟩ = St.pending := show stateAt 46 ⟨30, (by decide : (30 : ℕ) < 256)⟩ = St.pending from by decide
  have hn47 : ∀ l : Fin 256, stateAt 47 l = Function.update (stateAt 46) ⟨30, hl30⟩ St.started l := show ∀ l : Fin 256, stateAt 47 l = Function.update (stateAt 46) ⟨30, (by decide : (30 : ℕ) < 256)⟩ St.started l from by decide
  iapply (start_fam c 𝒱₀ arg3 (Memref.whole main_v0_0) i q ai wm hai x3 f 46 30 14 hl30 hj14 rfl hp47 hn47 w47 hw47 k0_cond47 (fun _ => rfl) (k0_chk47 i) (k0_chk47.dec i) (k0_off141 i) (fun _ => rfl) (fun _ _ => rfl) rfl) $$ [HS HC S14]
  · isplitl [HS]; · iexact HS
    isplitl [HC]; · iexact HC
    iexact S14
  iintro ⟨HS, HC⟩
  iapply (loadMask_wp c 𝒱₀ i 31 hl31 q wm rfl) $$ HM
  iintro HM %w48 %hw48
  rw [wp_pure]
  imodintro
  isplitr; · ipureintro; exact hw48
  isplitl [HS]; · iexact HS
  isplitl [HM]; · iexact HM
  isplitl [HC]; · iexact HC
  isplitl [S15]; · iexact S15
  iexists _; iexact HO

set_option maxHeartbeats 0 in
/-- Part 9 of the body: steps 48 to 53, and the load of the next step's mask word. -/
theorem part9_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 31 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 47 ∗ semPt c 15 (sem_inb 15 (by decide)) ∗ owes (c : Thread nD τ) 0 W)
      ⊢ wp frame (wpE (defs₀ (F := F)) 𝒱₀ (c : Thread nD τ) none) Set.univ (k0_part9 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 21 (by decide)⌝ ∗ ((c : Thread nD τ).loc main_call0_v12 ↦{q} ai) ∗ ((c : Thread nD τ).loc main_call0_v13 ↦{q} wm) ∗ cells c arg3 (Memref.whole main_v0_0) i ai wm hai x3 f 53 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part9_eq_skeleton]; unfold k0_part9_skel
  iintro ⟨HS, HM, HC, S15, HO⟩
  have hl16 : (16 : ℕ) < 256 := by decide
  have hl17 : (17 : ℕ) < 256 := by decide
  have hl18 : (18 : ℕ) < 256 := by decide
  have hl19 : (19 : ℕ) < 256 := by decide
  have hl20 : (20 : ℕ) < 256 := by decide
  have hl21 : (21 : ℕ) < 256 := by decide
  have hl31 : (31 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw48 : w = wordOf wm i 31 hl31 := hw
  have hp48 : stateAt 47 ⟨31, hl31⟩ = St.pending := show stateAt 47 ⟨31, (by decide : (31 : ℕ) < 256)⟩ = St.pending from by decide
  have hn48 : ∀ l : Fin 256, stateAt 48 l = Function.update (stateAt 47) ⟨31, hl31⟩ St.started l := show ∀ l : Fin 256, stateAt 48 l = Function.update (stateAt 47) ⟨31, (by decide : (31 : ℕ) < 256)⟩ St.started l from by decide
  iapply (start_fam c 𝒱₀ arg3 (Memref.whole main_v0_0) i q ai wm hai x3 f 47 31 15 hl31 hj15 rfl hp48 hn48 w hw48 k0_cond48 (fun _ => rfl) (k0_chk48 i) (k0_chk48.dec i) (k0_off144 i) (fun _ => rfl) (fun _ _ => rfl) rfl) $$ [HS HC S15]
  · isplitl [HS]; · iexact HS
    isplitl [HC]; · iexact HC
    iexact S15
  iintro ⟨HS, HC⟩
  iapply (loadMask_wp c 𝒱₀ i 16 hl16 q wm rfl) $$ HM
  iintro HM %w49 %hw49
  have hp49 : stateAt 48 ⟨16, hl16⟩ = St.started := show stateAt 48 ⟨16, (by decide : (16 : ℕ) < 256)⟩ = St.started from by decide
  have hn49 : ∀ l : Fin 256, stateAt 49 l = Function.update (stateAt 48) ⟨16, hl16⟩ St.done l := show ∀ l : Fin 256, stateAt 49 l = Function.update (stateAt 48) ⟨16, (by decide : (16 : ℕ) < 256)⟩ St.done l from by decide
  iapply (wait_fam c 𝒱₀ arg3 (Memref.whole main_v0_0) i q ai wm hai x3 f 48 16 0 hl16 hj0 rfl hp49 hn49 w49 hw49 (k0_off146 i) rfl (k0_off146_inb i) k0_cond49 (fun _ => rfl) (k0_chk49 i) (k0_chk49.dec i) (k0_off147 i) (fun _ => rfl) (fun _ _ h => h) (k0_off147_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W49, HO⟩
  iapply (loadMask_wp c 𝒱₀ i 17 hl17 q wm rfl) $$ HM
  iintro HM %w50 %hw50
  have hp50 : stateAt 49 ⟨17, hl17⟩ = St.started := show stateAt 49 ⟨17, (by decide : (17 : ℕ) < 256)⟩ = St.started from by decide
  have hn50 : ∀ l : Fin 256, stateAt 50 l = Function.update (stateAt 49) ⟨17, hl17⟩ St.done l := show ∀ l : Fin 256, stateAt 50 l = Function.update (stateAt 49) ⟨17, (by decide : (17 : ℕ) < 256)⟩ St.done l from by decide
  iapply (wait_fam c 𝒱₀ arg3 (Memref.whole main_v0_0) i q ai wm hai x3 f 49 17 1 hl17 hj1 rfl hp50 hn50 w50 hw50 (k0_off149 i) rfl (k0_off149_inb i) k0_cond50 (fun _ => rfl) (k0_chk50 i) (k0_chk50.dec i) (k0_off150 i) (fun _ => rfl) (fun _ _ h => h) (k0_off150_inb i) ((View.wordExact_bits rfl).reshape _ _) (fun _ _ => (View.wordExact_bits rfl).reshape _ _) _ _ W49) $$ [HS HM HC HO]
  · isplitl [HS]; · iexact HS
    isplitl [HM]; · iexact HM
    isplitl [HC]; · iexact HC
    iexact HO
  iintro ⟨HS, HM, HC, S1, %W50, HO⟩
  iapply (loadMask_wp c 𝒱₀ i 18 hl18 q wm rfl) $$ HM
  iintro HM %w51 %hw51
  have hp51 : stateAt 50 ⟨18, hl18⟩ = St.started := show stateAt 50 ⟨18, (by decide : (18 : ℕ) < 256)⟩ = St.started from by decide
  have hn51 : ∀ l : Fin 256, stateAt 51 l = Function.update (stateAt 50) ⟨18, hl18⟩ St.done l := show ∀ l : Fin 256, stateAt 51 l = Function.update (stateAt 50) ⟨18, (by decide : (18 : ℕ) < 256)⟩ St.done l from by decide
  iapply (wait_fam c 𝒱₀ arg3 (Memref.whole main_v0_0) i q ai wm hai x3 f 50 18 2 hl18 hj2 rfl hp51 hn51 w51 hw51 (k0_off152 i) rfl (k0_off152_inb i) k0_cond51 (fun _ => rfl) (k0_chk51 i) (k0_chk51.dec i) (k0_off153 i) (fun _ => rfl) (fun _ _ h => h) (k0_off153_inb i) ((View.wordExact_bits rfl).reshape _ _) (fun _ _ => (View.wordExact_bits rfl).reshape _ _) _ _ W50) $$ [HS HM HC HO]
  · isplitl [HS]; · iexact HS
    isplitl [HM]; · iexact HM
    isplitl [HC]; · iexact HC
    iexact HO
  iintro ⟨HS, HM, HC, S2, %W51, HO⟩
  iapply (loadMask_wp c 𝒱₀ i 19 hl19 q wm rfl) $$ HM
  iintro HM %w52 %hw52
  have hp52 : stateAt 51 ⟨19, hl19⟩ = St.started := show stateAt 51 ⟨19, (by decide : (19 : ℕ) < 256)⟩ = St.started from by decide
  have hn52 : ∀ l : Fin 256, stateAt 52 l = Function.update (stateAt 51) ⟨19, hl19⟩ St.done l := show ∀ l : Fin 256, stateAt 52 l = Function.update (stateAt 51) ⟨19, (by decide : (19 : ℕ) < 256)⟩ St.done l from by decide
  iapply (wait_fam c 𝒱₀ arg3 (Memref.whole main_v0_0) i q ai wm hai x3 f 51 19 3 hl19 hj3 rfl hp52 hn52 w52 hw52 (k0_off155 i) rfl (k0_off155_inb i) k0_cond52 (fun _ => rfl) (k0_chk52 i) (k0_chk52.dec i) (k0_off156 i) (fun _ => rfl) (fun _ _ h => h) (k0_off156_inb i) ((View.wordExact_bits rfl).reshape _ _) (fun _ _ => (View.wordExact_bits rfl).reshape _ _) _ _ W51) $$ [HS HM HC HO]
  · isplitl [HS]; · iexact HS
    isplitl [HM]; · iexact HM
    isplitl [HC]; · iexact HC
    iexact HO
  iintro ⟨HS, HM, HC, S3, %W52, HO⟩
  iapply (loadMask_wp c 𝒱₀ i 20 hl20 q wm rfl) $$ HM
  iintro HM %w53 %hw53
  have hp53 : stateAt 52 ⟨20, hl20⟩ = St.started := show stateAt 52 ⟨20, (by decide : (20 : ℕ) < 256)⟩ = St.started from by decide
  have hn53 : ∀ l : Fin 256, stateAt 53 l = Function.update (stateAt 52) ⟨20, hl20⟩ St.done l := show ∀ l : Fin 256, stateAt 53 l = Function.update (stateAt 52) ⟨20, (by decide : (20 : ℕ) < 256)⟩ St.done l from by decide
  iapply (wait_fam c 𝒱₀ arg3 (Memref.whole main_v0_0) i q ai wm hai x3 f 52 20 4 hl20 hj4 rfl hp53 hn53 w53 hw53 (k0_off158 i) rfl (k0_off158_inb i) k0_cond53 (fun _ => rfl) (k0_chk53 i) (k0_chk53.dec i) (k0_off159 i) (fun _ => rfl) (fun _ _ h => h) (k0_off159_inb i) ((View.wordExact_bits rfl).reshape _ _) (fun _ _ => (View.wordExact_bits rfl).reshape _ _) _ _ W52) $$ [HS HM HC HO]
  · isplitl [HS]; · iexact HS
    isplitl [HM]; · iexact HM
    isplitl [HC]; · iexact HC
    iexact HO
  iintro ⟨HS, HM, HC, S4, %W53, HO⟩
  iapply (loadMask_wp c 𝒱₀ i 21 hl21 q wm rfl) $$ HM
  iintro HM %w54 %hw54
  rw [wp_pure]
  imodintro
  isplitr; · ipureintro; exact hw54
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 10 of the body: steps 54 to 59, and the load of the next step's mask word. -/
theorem part10_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 21 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 53 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part10 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 27 (by decide)⌝ ∗ ((c : Thread nD τ).loc main_call0_v12 ↦{q} ai) ∗ ((c : Thread nD τ).loc main_call0_v13 ↦{q} wm) ∗ cells c arg3 (Memref.whole main_v0_0) i ai wm hai x3 f 59 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part10_eq_skeleton]; unfold k0_part10_skel
  iintro ⟨HS, HM, HC, S0, S1, S2, S3, S4, HO⟩
  have hl21 : (21 : ℕ) < 256 := by decide
  have hl22 : (22 : ℕ) < 256 := by decide
  have hl23 : (23 : ℕ) < 256 := by decide
  have hl24 : (24 : ℕ) < 256 := by decide
  have hl25 : (25 : ℕ) < 256 := by decide
  have hl26 : (26 : ℕ) < 256 := by decide
  have hl27 : (27 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw54 : w = wordOf wm i 21 hl21 := hw
  have hp54 : stateAt 53 ⟨21, hl21⟩ = St.started := show stateAt 53 ⟨21, (by decide : (21 : ℕ) < 256)⟩ = St.started from by decide
  have hn54 : ∀ l : Fin 256, stateAt 54 l = Function.update (stateAt 53) ⟨21, hl21⟩ St.done l := show ∀ l : Fin 256, stateAt 54 l = Function.update (stateAt 53) ⟨21, (by decide : (21 : ℕ) < 256)⟩ St.done l from by decide
  iapply (wait_fam c 𝒱₀ arg3 (Memref.whole main_v0_0) i q ai wm hai x3 f 53 21 5 hl21 hj5 rfl hp54 hn54 w hw54 (k0_off161 i) rfl (k0_off161_inb i) k0_cond54 (fun _ => rfl) (k0_chk54 i) (k0_chk54.dec i) (k0_off162 i) (fun _ => rfl) (fun _ _ h => h) (k0_off162_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W54, HO⟩
  iapply (loadMask_wp c 𝒱₀ i 22 hl22 q wm rfl) $$ HM
  iintro HM %w55 %hw55
  have hp55 : stateAt 54 ⟨22, hl22⟩ = St.started := show stateAt 54 ⟨22, (by decide : (22 : ℕ) < 256)⟩ = St.started from by decide
  have hn55 : ∀ l : Fin 256, stateAt 55 l = Function.update (stateAt 54) ⟨22, hl22⟩ St.done l := show ∀ l : Fin 256, stateAt 55 l = Function.update (stateAt 54) ⟨22, (by decide : (22 : ℕ) < 256)⟩ St.done l from by decide
  iapply (wait_fam c 𝒱₀ arg3 (Memref.whole main_v0_0) i q ai wm hai x3 f 54 22 6 hl22 hj6 rfl hp55 hn55 w55 hw55 (k0_off164 i) rfl (k0_off164_inb i) k0_cond55 (fun _ => rfl) (k0_chk55 i) (k0_chk55.dec i) (k0_off165 i) (fun _ => rfl) (fun _ _ h => h) (k0_off165_inb i) ((View.wordExact_bits rfl).reshape _ _) (fun _ _ => (View.wordExact_bits rfl).reshape _ _) _ _ W54) $$ [HS HM HC HO]
  · isplitl [HS]; · iexact HS
    isplitl [HM]; · iexact HM
    isplitl [HC]; · iexact HC
    iexact HO
  iintro ⟨HS, HM, HC, S6, %W55, HO⟩
  iapply (loadMask_wp c 𝒱₀ i 23 hl23 q wm rfl) $$ HM
  iintro HM %w56 %hw56
  have hp56 : stateAt 55 ⟨23, hl23⟩ = St.started := show stateAt 55 ⟨23, (by decide : (23 : ℕ) < 256)⟩ = St.started from by decide
  have hn56 : ∀ l : Fin 256, stateAt 56 l = Function.update (stateAt 55) ⟨23, hl23⟩ St.done l := show ∀ l : Fin 256, stateAt 56 l = Function.update (stateAt 55) ⟨23, (by decide : (23 : ℕ) < 256)⟩ St.done l from by decide
  iapply (wait_fam c 𝒱₀ arg3 (Memref.whole main_v0_0) i q ai wm hai x3 f 55 23 7 hl23 hj7 rfl hp56 hn56 w56 hw56 (k0_off167 i) rfl (k0_off167_inb i) k0_cond56 (fun _ => rfl) (k0_chk56 i) (k0_chk56.dec i) (k0_off168 i) (fun _ => rfl) (fun _ _ h => h) (k0_off168_inb i) ((View.wordExact_bits rfl).reshape _ _) (fun _ _ => (View.wordExact_bits rfl).reshape _ _) _ _ W55) $$ [HS HM HC HO]
  · isplitl [HS]; · iexact HS
    isplitl [HM]; · iexact HM
    isplitl [HC]; · iexact HC
    iexact HO
  iintro ⟨HS, HM, HC, S7, %W56, HO⟩
  iapply (loadMask_wp c 𝒱₀ i 24 hl24 q wm rfl) $$ HM
  iintro HM %w57 %hw57
  have hp57 : stateAt 56 ⟨24, hl24⟩ = St.started := show stateAt 56 ⟨24, (by decide : (24 : ℕ) < 256)⟩ = St.started from by decide
  have hn57 : ∀ l : Fin 256, stateAt 57 l = Function.update (stateAt 56) ⟨24, hl24⟩ St.done l := show ∀ l : Fin 256, stateAt 57 l = Function.update (stateAt 56) ⟨24, (by decide : (24 : ℕ) < 256)⟩ St.done l from by decide
  iapply (wait_fam c 𝒱₀ arg3 (Memref.whole main_v0_0) i q ai wm hai x3 f 56 24 8 hl24 hj8 rfl hp57 hn57 w57 hw57 (k0_off170 i) rfl (k0_off170_inb i) k0_cond57 (fun _ => rfl) (k0_chk57 i) (k0_chk57.dec i) (k0_off171 i) (fun _ => rfl) (fun _ _ h => h) (k0_off171_inb i) ((View.wordExact_bits rfl).reshape _ _) (fun _ _ => (View.wordExact_bits rfl).reshape _ _) _ _ W56) $$ [HS HM HC HO]
  · isplitl [HS]; · iexact HS
    isplitl [HM]; · iexact HM
    isplitl [HC]; · iexact HC
    iexact HO
  iintro ⟨HS, HM, HC, S8, %W57, HO⟩
  iapply (loadMask_wp c 𝒱₀ i 25 hl25 q wm rfl) $$ HM
  iintro HM %w58 %hw58
  have hp58 : stateAt 57 ⟨25, hl25⟩ = St.started := show stateAt 57 ⟨25, (by decide : (25 : ℕ) < 256)⟩ = St.started from by decide
  have hn58 : ∀ l : Fin 256, stateAt 58 l = Function.update (stateAt 57) ⟨25, hl25⟩ St.done l := show ∀ l : Fin 256, stateAt 58 l = Function.update (stateAt 57) ⟨25, (by decide : (25 : ℕ) < 256)⟩ St.done l from by decide
  iapply (wait_fam c 𝒱₀ arg3 (Memref.whole main_v0_0) i q ai wm hai x3 f 57 25 9 hl25 hj9 rfl hp58 hn58 w58 hw58 (k0_off173 i) rfl (k0_off173_inb i) k0_cond58 (fun _ => rfl) (k0_chk58 i) (k0_chk58.dec i) (k0_off174 i) (fun _ => rfl) (fun _ _ h => h) (k0_off174_inb i) ((View.wordExact_bits rfl).reshape _ _) (fun _ _ => (View.wordExact_bits rfl).reshape _ _) _ _ W57) $$ [HS HM HC HO]
  · isplitl [HS]; · iexact HS
    isplitl [HM]; · iexact HM
    isplitl [HC]; · iexact HC
    iexact HO
  iintro ⟨HS, HM, HC, S9, %W58, HO⟩
  iapply (loadMask_wp c 𝒱₀ i 26 hl26 q wm rfl) $$ HM
  iintro HM %w59 %hw59
  have hp59 : stateAt 58 ⟨26, hl26⟩ = St.started := show stateAt 58 ⟨26, (by decide : (26 : ℕ) < 256)⟩ = St.started from by decide
  have hn59 : ∀ l : Fin 256, stateAt 59 l = Function.update (stateAt 58) ⟨26, hl26⟩ St.done l := show ∀ l : Fin 256, stateAt 59 l = Function.update (stateAt 58) ⟨26, (by decide : (26 : ℕ) < 256)⟩ St.done l from by decide
  iapply (wait_fam c 𝒱₀ arg3 (Memref.whole main_v0_0) i q ai wm hai x3 f 58 26 10 hl26 hj10 rfl hp59 hn59 w59 hw59 (k0_off176 i) rfl (k0_off176_inb i) k0_cond59 (fun _ => rfl) (k0_chk59 i) (k0_chk59.dec i) (k0_off177 i) (fun _ => rfl) (fun _ _ h => h) (k0_off177_inb i) ((View.wordExact_bits rfl).reshape _ _) (fun _ _ => (View.wordExact_bits rfl).reshape _ _) _ _ W58) $$ [HS HM HC HO]
  · isplitl [HS]; · iexact HS
    isplitl [HM]; · iexact HM
    isplitl [HC]; · iexact HC
    iexact HO
  iintro ⟨HS, HM, HC, S10, %W59, HO⟩
  iapply (loadMask_wp c 𝒱₀ i 27 hl27 q wm rfl) $$ HM
  iintro HM %w60 %hw60
  rw [wp_pure]
  imodintro
  isplitr; · ipureintro; exact hw60
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 11 of the body: steps 60 to 65, and the load of the next step's mask word. -/
theorem part11_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 27 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 59 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part11 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 33 (by decide)⌝ ∗ ((c : Thread nD τ).loc main_call0_v12 ↦{q} ai) ∗ ((c : Thread nD τ).loc main_call0_v13 ↦{q} wm) ∗ cells c arg3 (Memref.whole main_v0_0) i ai wm hai x3 f 65 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part11_eq_skeleton]; unfold k0_part11_skel
  iintro ⟨HS, HM, HC, S0, S1, S2, S3, S4, S5, S6, S7, S8, S9, S10, HO⟩
  have hl27 : (27 : ℕ) < 256 := by decide
  have hl28 : (28 : ℕ) < 256 := by decide
  have hl29 : (29 : ℕ) < 256 := by decide
  have hl30 : (30 : ℕ) < 256 := by decide
  have hl31 : (31 : ℕ) < 256 := by decide
  have hl32 : (32 : ℕ) < 256 := by decide
  have hl33 : (33 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw60 : w = wordOf wm i 27 hl27 := hw
  have hp60 : stateAt 59 ⟨27, hl27⟩ = St.started := show stateAt 59 ⟨27, (by decide : (27 : ℕ) < 256)⟩ = St.started from by decide
  have hn60 : ∀ l : Fin 256, stateAt 60 l = Function.update (stateAt 59) ⟨27, hl27⟩ St.done l := show ∀ l : Fin 256, stateAt 60 l = Function.update (stateAt 59) ⟨27, (by decide : (27 : ℕ) < 256)⟩ St.done l from by decide
  iapply (wait_fam c 𝒱₀ arg3 (Memref.whole main_v0_0) i q ai wm hai x3 f 59 27 11 hl27 hj11 rfl hp60 hn60 w hw60 (k0_off179 i) rfl (k0_off179_inb i) k0_cond60 (fun _ => rfl) (k0_chk60 i) (k0_chk60.dec i) (k0_off180 i) (fun _ => rfl) (fun _ _ h => h) (k0_off180_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W60, HO⟩
  iapply (loadMask_wp c 𝒱₀ i 28 hl28 q wm rfl) $$ HM
  iintro HM %w61 %hw61
  have hp61 : stateAt 60 ⟨28, hl28⟩ = St.started := show stateAt 60 ⟨28, (by decide : (28 : ℕ) < 256)⟩ = St.started from by decide
  have hn61 : ∀ l : Fin 256, stateAt 61 l = Function.update (stateAt 60) ⟨28, hl28⟩ St.done l := show ∀ l : Fin 256, stateAt 61 l = Function.update (stateAt 60) ⟨28, (by decide : (28 : ℕ) < 256)⟩ St.done l from by decide
  iapply (wait_fam c 𝒱₀ arg3 (Memref.whole main_v0_0) i q ai wm hai x3 f 60 28 12 hl28 hj12 rfl hp61 hn61 w61 hw61 (k0_off182 i) rfl (k0_off182_inb i) k0_cond61 (fun _ => rfl) (k0_chk61 i) (k0_chk61.dec i) (k0_off183 i) (fun _ => rfl) (fun _ _ h => h) (k0_off183_inb i) ((View.wordExact_bits rfl).reshape _ _) (fun _ _ => (View.wordExact_bits rfl).reshape _ _) _ _ W60) $$ [HS HM HC HO]
  · isplitl [HS]; · iexact HS
    isplitl [HM]; · iexact HM
    isplitl [HC]; · iexact HC
    iexact HO
  iintro ⟨HS, HM, HC, S12, %W61, HO⟩
  iapply (loadMask_wp c 𝒱₀ i 29 hl29 q wm rfl) $$ HM
  iintro HM %w62 %hw62
  have hp62 : stateAt 61 ⟨29, hl29⟩ = St.started := show stateAt 61 ⟨29, (by decide : (29 : ℕ) < 256)⟩ = St.started from by decide
  have hn62 : ∀ l : Fin 256, stateAt 62 l = Function.update (stateAt 61) ⟨29, hl29⟩ St.done l := show ∀ l : Fin 256, stateAt 62 l = Function.update (stateAt 61) ⟨29, (by decide : (29 : ℕ) < 256)⟩ St.done l from by decide
  iapply (wait_fam c 𝒱₀ arg3 (Memref.whole main_v0_0) i q ai wm hai x3 f 61 29 13 hl29 hj13 rfl hp62 hn62 w62 hw62 (k0_off185 i) rfl (k0_off185_inb i) k0_cond62 (fun _ => rfl) (k0_chk62 i) (k0_chk62.dec i) (k0_off186 i) (fun _ => rfl) (fun _ _ h => h) (k0_off186_inb i) ((View.wordExact_bits rfl).reshape _ _) (fun _ _ => (View.wordExact_bits rfl).reshape _ _) _ _ W61) $$ [HS HM HC HO]
  · isplitl [HS]; · iexact HS
    isplitl [HM]; · iexact HM
    isplitl [HC]; · iexact HC
    iexact HO
  iintro ⟨HS, HM, HC, S13, %W62, HO⟩
  iapply (loadMask_wp c 𝒱₀ i 30 hl30 q wm rfl) $$ HM
  iintro HM %w63 %hw63
  have hp63 : stateAt 62 ⟨30, hl30⟩ = St.started := show stateAt 62 ⟨30, (by decide : (30 : ℕ) < 256)⟩ = St.started from by decide
  have hn63 : ∀ l : Fin 256, stateAt 63 l = Function.update (stateAt 62) ⟨30, hl30⟩ St.done l := show ∀ l : Fin 256, stateAt 63 l = Function.update (stateAt 62) ⟨30, (by decide : (30 : ℕ) < 256)⟩ St.done l from by decide
  iapply (wait_fam c 𝒱₀ arg3 (Memref.whole main_v0_0) i q ai wm hai x3 f 62 30 14 hl30 hj14 rfl hp63 hn63 w63 hw63 (k0_off188 i) rfl (k0_off188_inb i) k0_cond63 (fun _ => rfl) (k0_chk63 i) (k0_chk63.dec i) (k0_off189 i) (fun _ => rfl) (fun _ _ h => h) (k0_off189_inb i) ((View.wordExact_bits rfl).reshape _ _) (fun _ _ => (View.wordExact_bits rfl).reshape _ _) _ _ W62) $$ [HS HM HC HO]
  · isplitl [HS]; · iexact HS
    isplitl [HM]; · iexact HM
    isplitl [HC]; · iexact HC
    iexact HO
  iintro ⟨HS, HM, HC, S14, %W63, HO⟩
  iapply (loadMask_wp c 𝒱₀ i 31 hl31 q wm rfl) $$ HM
  iintro HM %w64 %hw64
  have hp64 : stateAt 63 ⟨31, hl31⟩ = St.started := show stateAt 63 ⟨31, (by decide : (31 : ℕ) < 256)⟩ = St.started from by decide
  have hn64 : ∀ l : Fin 256, stateAt 64 l = Function.update (stateAt 63) ⟨31, hl31⟩ St.done l := show ∀ l : Fin 256, stateAt 64 l = Function.update (stateAt 63) ⟨31, (by decide : (31 : ℕ) < 256)⟩ St.done l from by decide
  iapply (wait_fam c 𝒱₀ arg3 (Memref.whole main_v0_0) i q ai wm hai x3 f 63 31 15 hl31 hj15 rfl hp64 hn64 w64 hw64 (k0_off191 i) rfl (k0_off191_inb i) k0_cond64 (fun _ => rfl) (k0_chk64 i) (k0_chk64.dec i) (k0_off192 i) (fun _ => rfl) (fun _ _ h => h) (k0_off192_inb i) ((View.wordExact_bits rfl).reshape _ _) (fun _ _ => (View.wordExact_bits rfl).reshape _ _) _ _ W63) $$ [HS HM HC HO]
  · isplitl [HS]; · iexact HS
    isplitl [HM]; · iexact HM
    isplitl [HC]; · iexact HC
    iexact HO
  iintro ⟨HS, HM, HC, S15, %W64, HO⟩
  iapply (loadMask_wp c 𝒱₀ i 32 hl32 q wm rfl) $$ HM
  iintro HM %w65 %hw65
  have hp65 : stateAt 64 ⟨32, hl32⟩ = St.pending := show stateAt 64 ⟨32, (by decide : (32 : ℕ) < 256)⟩ = St.pending from by decide
  have hn65 : ∀ l : Fin 256, stateAt 65 l = Function.update (stateAt 64) ⟨32, hl32⟩ St.started l := show ∀ l : Fin 256, stateAt 65 l = Function.update (stateAt 64) ⟨32, (by decide : (32 : ℕ) < 256)⟩ St.started l from by decide
  iapply (start_fam c 𝒱₀ arg3 (Memref.whole main_v0_0) i q ai wm hai x3 f 64 32 0 hl32 hj0 rfl hp65 hn65 w65 hw65 k0_cond65 (fun _ => rfl) (k0_chk65 i) (k0_chk65.dec i) (k0_off195 i) (fun _ => rfl) (fun _ _ => rfl) rfl) $$ [HS HC S0]
  · isplitl [HS]; · iexact HS
    isplitl [HC]; · iexact HC
    iexact S0
  iintro ⟨HS, HC⟩
  iapply (loadMask_wp c 𝒱₀ i 33 hl33 q wm rfl) $$ HM
  iintro HM %w66 %hw66
  rw [wp_pure]
  imodintro
  isplitr; · ipureintro; exact hw66
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.KernelIdeal.Cells

end
-- ==== Proof.Parts2Ideal.lean ====
/-
  Parts 12 to 22 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyIdeal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 12 of the body: steps 66 to 71, and the load of the next step's mask word. -/
theorem part12_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 33 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 65 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part12 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 39 (by decide)⌝ ∗ ((c : Thread nD τ).loc main_call0_v12 ↦{q} ai) ∗ ((c : Thread nD τ).loc main_call0_v13 ↦{q} wm) ∗ cells c arg3 (Memref.whole main_v0_0) i ai wm hai x3 f 71 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part12_eq_skeleton]; unfold k0_part12_skel
  iintro ⟨HS, HM, HC, S1, S2, S3, S4, S5, S6, S7, S8, S9, S10, S11, S12, S13, S14, S15, HO⟩
  have hl33 : (33 : ℕ) < 256 := by decide
  have hl34 : (34 : ℕ) < 256 := by decide
  have hl35 : (35 : ℕ) < 256 := by decide
  have hl36 : (36 : ℕ) < 256 := by decide
  have hl37 : (37 : ℕ) < 256 := by decide
  have hl38 : (38 : ℕ) < 256 := by decide
  have hl39 : (39 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw66 : w = wordOf wm i 33 hl33 := hw
  have hp66 : stateAt 65 ⟨33, hl33⟩ = St.pending := show stateAt 65 ⟨33, (by decide : (33 : ℕ) < 256)⟩ = St.pending from by decide
  have hn66 : ∀ l : Fin 256, stateAt 66 l = Function.update (stateAt 65) ⟨33, hl33⟩ St.started l := show ∀ l : Fin 256, stateAt 66 l = Function.update (stateAt 65) ⟨33, (by decide : (33 : ℕ) < 256)⟩ St.started l from by decide
  iapply (start_fam c 𝒱₀ arg3 (Memref.whole main_v0_0) i q ai wm hai x3 f 65 33 1 hl33 hj1 rfl hp66 hn66 w hw66 k0_cond66 (fun _ => rfl) (k0_chk66 i) (k0_chk66.dec i) (k0_off198 i) (fun _ => rfl) (fun _ _ => rfl) rfl) $$ [HS HC S1]
  · isplitl [HS]; · iexact HS
    isplitl [HC]; · iexact HC
    iexact S1
  iintro ⟨HS, HC⟩
  iapply (loadMask_wp c 𝒱₀ i 34 hl34 q wm rfl) $$ HM
  iintro HM %w67 %hw67
  have hp67 : stateAt 66 ⟨34, hl34⟩ = St.pending := show stateAt 66 ⟨34, (by decide : (34 : ℕ) < 256)⟩ = St.pending from by decide
  have hn67 : ∀ l : Fin 256, stateAt 67 l = Function.update (stateAt 66) ⟨34, hl34⟩ St.started l := show ∀ l : Fin 256, stateAt 67 l = Function.update (stateAt 66) ⟨34, (by decide : (34 : ℕ) < 256)⟩ St.started l from by decide
  iapply (start_fam c 𝒱₀ arg3 (Memref.whole main_v0_0) i q ai wm hai x3 f 66 34 2 hl34 hj2 rfl hp67 hn67 w67 hw67 k0_cond67 (fun _ => rfl) (k0_chk67 i) (k0_chk67.dec i) (k0_off201 i) (fun _ => rfl) (fun _ _ => rfl) rfl) $$ [HS HC S2]
  · isplitl [HS]; · iexact HS
    isplitl [HC]; · iexact HC
    iexact S2
  iintro ⟨HS, HC⟩
  iapply (loadMask_wp c 𝒱₀ i 35 hl35 q wm rfl) $$ HM
  iintro HM %w68 %hw68
  have hp68 : stateAt 67 ⟨35, hl35⟩ = St.pending := show stateAt 67 ⟨35, (by decide : (35 : ℕ) < 256)⟩ = St.pending from by decide
  have hn68 : ∀ l : Fin 256, stateAt 68 l = Function.update (stateAt 67) ⟨35, hl35⟩ St.started l := show ∀ l : Fin 256, stateAt 68 l = Function.update (stateAt 67) ⟨35, (by decide : (35 : ℕ) < 256)⟩ St.started l from by decide
  iapply (start_fam c 𝒱₀ arg3 (Memref.whole main_v0_0) i q ai wm hai x3 f 67 35 3 hl35 hj3 rfl hp68 hn68 w68 hw68 k0_cond68 (fun _ => rfl) (k0_chk68 i) (k0_chk68.dec i) (k0_off204 i) (fun _ => rfl) (fun _ _ => rfl) rfl) $$ [HS HC S3]
  · isplitl [HS]; · iexact HS
    isplitl [HC]; · iexact HC
    iexact S3
  iintro ⟨HS, HC⟩
  iapply (loadMask_wp c 𝒱₀ i 36 hl36 q wm rfl) $$ HM
  iintro HM %w69 %hw69
  have hp69 : stateAt 68 ⟨36, hl36⟩ = St.pending := show stateAt 68 ⟨36, (by decide : (36 : ℕ) < 256)⟩ = St.pending from by decide
  have hn69 : ∀ l : Fin 256, stateAt 69 l = Function.update (stateAt 68) ⟨36, hl36⟩ St.started l := show ∀ l : Fin 256, stateAt 69 l = Function.update (stateAt 68) ⟨36, (by decide : (36 : ℕ) < 256)⟩ St.started l from by decide
  iapply (start_fam c 𝒱₀ arg3 (Memref.whole main_v0_0) i q ai wm hai x3 f 68 36 4 hl36 hj4 rfl hp69 hn69 w69 hw69 k0_cond69 (fun _ => rfl) (k0_chk69 i) (k0_chk69.dec i) (k0_off207 i) (fun _ => rfl) (fun _ _ => rfl) rfl) $$ [HS HC S4]
  · isplitl [HS]; · iexact HS
    isplitl [HC]; · iexact HC
    iexact S4
  iintro ⟨HS, HC⟩
  iapply (loadMask_wp c 𝒱₀ i 37 hl37 q wm rfl) $$ HM
  iintro HM %w70 %hw70
  have hp70 : stateAt 69 ⟨37, hl37⟩ = St.pending := show stateAt 69 ⟨37, (by decide : (37 : ℕ) < 256)⟩ = St.pending from by decide
  have hn70 : ∀ l : Fin 256, stateAt 70 l = Function.update (stateAt 69) ⟨37, hl37⟩ St.started l := show ∀ l : Fin 256, stateAt 70 l = Function.update (stateAt 69) ⟨37, (by decide : (37 : ℕ) < 256)⟩ St.started l from by decide
  iapply (start_fam c 𝒱₀ arg3 (Memref.whole main_v0_0) i q ai wm hai x3 f 69 37 5 hl37 hj5 rfl hp70 hn70 w70 hw70 k0_cond70 (fun _ => rfl) (k0_chk70 i) (k0_chk70.dec i) (k0_off210 i) (fun _ => rfl) (fun _ _ => rfl) rfl) $$ [HS HC S5]
  · isplitl [HS]; · iexact HS
    isplitl [HC]; · iexact HC
    iexact S5
  iintro ⟨HS, HC⟩
  iapply (loadMask_wp c 𝒱₀ i 38 hl38 q wm rfl) $$ HM
  iintro HM %w71 %hw71
  have hp71 : stateAt 70 ⟨38, hl38⟩ = St.pending := show stateAt 70 ⟨38, (by decide : (38 : ℕ) < 256)⟩ = St.pending from by decide
  have hn71 : ∀ l : Fin 256, stateAt 71 l = Function.update (stateAt 70) ⟨38, hl38⟩ St.started l := show ∀ l : Fin 256, stateAt 71 l = Function.update (stateAt 70) ⟨38, (by decide : (38 : ℕ) < 256)⟩ St.started l from by decide
  iapply (start_fam c 𝒱₀ arg3 (Memref.whole main_v0_0) i q ai wm hai x3 f 70 38 6 hl38 hj6 rfl hp71 hn71 w71 hw71 k0_cond71 (fun _ => rfl) (k0_chk71 i) (k0_chk71.dec i) (k0_off213 i) (fun _ => rfl) (fun _ _ => rfl) rfl) $$ [HS HC S6]
  · isplitl [HS]; · iexact HS
    isplitl [HC]; · iexact HC
    iexact S6
  iintro ⟨HS, HC⟩
  iapply (loadMask_wp c 𝒱₀ i 39 hl39 q wm rfl) $$ HM
  iintro HM %w72 %hw72
  rw [wp_pure]
  imodintro
  isplitr; · ipureintro; exact hw72
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 13 of the body: steps 72 to 77, and the load of the next step's mask word. -/
theorem part13_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 39 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 71 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part13 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 45 (by decide)⌝ ∗ ((c : Thread nD τ).loc main_call0_v12 ↦{q} ai) ∗ ((c : Thread nD τ).loc main_call0_v13 ↦{q} wm) ∗ cells c arg3 (Memref.whole main_v0_0) i ai wm hai x3 f 77 ∗ semPt c 13 (sem_inb 13 (by decide)) ∗ semPt c 14 (sem_inb 14 (by decide)) ∗ semPt c 15 (sem_inb 15 (by decide)) ∗ ∃ W', owes (c : Thread nD τ) 0 W')) := by
  rw [k0_part13_eq_skeleton]; unfold k0_part13_skel
  iintro ⟨HS, HM, HC, S7, S8, S9, S10, S11, S12, S13, S14, S15, HO⟩
  have hl39 : (39 : ℕ) < 256 := by decide
  have hl40 : (40 : ℕ) < 256 := by decide
  have hl41 : (41 : ℕ) < 256 := by decide
  have hl42 : (42 : ℕ) < 256 := by decide
  have hl43 : (43 : ℕ) < 256 := by decide
  have hl44 : (44 : ℕ) < 256 := by decide
  have hl45 : (45 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw72 : w = wordOf wm i 39 hl39 := hw
  have hp72 : stateAt 71 ⟨39, hl39⟩ = St.pending := show stateAt 71 ⟨39, (by decide : (39 : ℕ) < 256)⟩ = St.pending from by decide
  have hn72 : ∀ l : Fin 256, stateAt 72 l = Function.update (stateAt 71) ⟨39, hl39⟩ St.started l := show ∀ l : Fin 256, stateAt 72 l = Function.update (stateAt 71) ⟨39, (by decide : (39 : ℕ) < 256)⟩ St.started l from by decide
  iapply (start_fam c 𝒱₀ arg3 (Memref.whole main_v0_0) i q ai wm hai x3 f 71 39 7 hl39 hj7 rfl hp72 hn72 w hw72 k0_cond72 (fun _ => rfl) (k0_chk72 i) (k0_chk72.dec i) (k0_off216 i) (fun _ => rfl) (fun _ _ => rfl) rfl) $$ [HS HC S7]
  · isplitl [HS]; · iexact HS
    isplitl [HC]; · iexact HC
    iexact S7
  iintro ⟨HS, HC⟩
  iapply (loadMask_wp c 𝒱₀ i 40 hl40 q wm rfl) $$ HM
  iintro HM %w73 %hw73
  have hp73 : stateAt 72 ⟨40, hl40⟩ = St.pending := show stateAt 72 ⟨40, (by decide : (40 : ℕ) < 256)⟩ = St.pending from by decide
  have hn73 : ∀ l : Fin 256, stateAt 73 l = Function.update (stateAt 72) ⟨40, hl40⟩ St.started l := show ∀ l : Fin 256, stateAt 73 l = Function.update (stateAt 72) ⟨40, (by decide : (40 : ℕ) < 256)⟩ St.started l from by decide
  iapply (start_fam c 𝒱₀ arg3 (Memref.whole main_v0_0) i q ai wm hai x3 f 72 40 8 hl40 hj8 rfl hp73 hn73 w73 hw73 k0_cond73 (fun _ => rfl) (k0_chk73 i) (k0_chk73.dec i) (k0_off219 i) (fun _ => rfl) (fun _ _ => rfl) rfl) $$ [HS HC S8]
  · isplitl [HS]; · iexact HS
    isplitl [HC]; · iexact HC
    iexact S8
  iintro ⟨HS, HC⟩
  iapply (loadMask_wp c 𝒱₀ i 41 hl41 q wm rfl) $$ HM
  iintro HM %w74 %hw74
  have hp74 : stateAt 73 ⟨41, hl41⟩ = St.pending := show stateAt 73 ⟨41, (by decide : (41 : ℕ) < 256)⟩ = St.pending from by decide
  have hn74 : ∀ l : Fin 256, stateAt 74 l = Function.update (stateAt 73) ⟨41, hl41⟩ St.started l := show ∀ l : Fin 256, stateAt 74 l = Function.update (stateAt 73) ⟨41, (by decide : (41 : ℕ) < 256)⟩ St.started l from by decide
  iapply (start_fam c 𝒱₀ arg3 (Memref.whole main_v0_0) i q ai wm hai x3 f 73 41 9 hl41 hj9 rfl hp74 hn74 w74 hw74 k0_cond74 (fun _ => rfl) (k0_chk74 i) (k0_chk74.dec i) (k0_off222 i) (fun _ => rfl) (fun _ _ => rfl) rfl) $$ [HS HC S9]
  · isplitl [HS]; · iexact HS
    isplitl [HC]; · iexact HC
    iexact S9
  iintro ⟨HS, HC⟩
  iapply (loadMask_wp c 𝒱₀ i 42 hl42 q wm rfl) $$ HM
  iintro HM %w75 %hw75
  have hp75 : stateAt 74 ⟨42, hl42⟩ = St.pending := show stateAt 74 ⟨42, (by decide : (42 : ℕ) < 256)⟩ = St.pending from by decide
  have hn75 : ∀ l : Fin 256, stateAt 75 l = Function.update (stateAt 74) ⟨42, hl42⟩ St.started l := show ∀ l : Fin 256, stateAt 75 l = Function.update (stateAt 74) ⟨42, (by decide : (42 : ℕ) < 256)⟩ St.started l from by decide
  iapply (start_fam c 𝒱₀ arg3 (Memref.whole main_v0_0) i q ai wm hai x3 f 74 42 10 hl42 hj10 rfl hp75 hn75 w75 hw75 k0_cond75 (fun _ => rfl) (k0_chk75 i) (k0_chk75.dec i) (k0_off225 i) (fun _ => rfl) (fun _ _ => rfl) rfl) $$ [HS HC S10]
  · isplitl [HS]; · iexact HS
    isplitl [HC]; · iexact HC
    iexact S10
  iintro ⟨HS, HC⟩
  iapply (loadMask_wp c 𝒱₀ i 43 hl43 q wm rfl) $$ HM
  iintro HM %w76 %hw76
  have hp76 : stateAt 75 ⟨43, hl43⟩ = St.pending := show stateAt 75 ⟨43, (by decide : (43 : ℕ) < 256)⟩ = St.pending from by decide
  have hn76 : ∀ l : Fin 256, stateAt 76 l = Function.update (stateAt 75) ⟨43, hl43⟩ St.started l := show ∀ l : Fin 256, stateAt 76 l = Function.update (stateAt 75) ⟨43, (by decide : (43 : ℕ) < 256)⟩ St.started l from by decide
  iapply (start_fam c 𝒱₀ arg3 (Memref.whole main_v0_0) i q ai wm hai x3 f 75 43 11 hl43 hj11 rfl hp76 hn76 w76 hw76 k0_cond76 (fun _ => rfl) (k0_chk76 i) (k0_chk76.dec i) (k0_off228 i) (fun _ => rfl) (fun _ _ => rfl) rfl) $$ [HS HC S11]
  · isplitl [HS]; · iexact HS
    isplitl [HC]; · iexact HC
    iexact S11
  iintro ⟨HS, HC⟩
  iapply (loadMask_wp c 𝒱₀ i 44 hl44 q wm rfl) $$ HM
  iintro HM %w77 %hw77
  have hp77 : stateAt 76 ⟨44, hl44⟩ = St.pending := show stateAt 76 ⟨44, (by decide : (44 : ℕ) < 256)⟩ = St.pending from by decide
  have hn77 : ∀ l : Fin 256, stateAt 77 l = Function.update (stateAt 76) ⟨44, hl44⟩ St.started l := show ∀ l : Fin 256, stateAt 77 l = Function.update (stateAt 76) ⟨44, (by decide : (44 : ℕ) < 256)⟩ St.started l from by decide
  iapply (start_fam c 𝒱₀ arg3 (Memref.whole main_v0_0) i q ai wm hai x3 f 76 44 12 hl44 hj12 rfl hp77 hn77 w77 hw77 k0_cond77 (fun _ => rfl) (k0_chk77 i) (k0_chk77.dec i) (k0_off231 i) (fun _ => rfl) (fun _ _ => rfl) rfl) $$ [HS HC S12]
  · isplitl [HS]; · iexact HS
    isplitl [HC]; · iexact HC
    iexact S12
  iintro ⟨HS, HC⟩
  iapply (loadMask_wp c 𝒱₀ i 45 hl45 q wm rfl) $$ HM
  iintro HM %w78 %hw78
  rw [wp_pure]
  imodintro
  isplitr; · ipureintro; exact hw78
  isplitl [HS]; · iexact HS
  isplitl [HM]; · iexact HM
  isplitl [HC]; · iexact HC
  isplitl [S13]; · iexact S13
  isplitl [S14]; · iexact S14
  isplitl [S15]; · iexact S15
  iexists _; iexact HO

set_option maxHeartbeats 0 in
/-- Part 14 of the body: steps 78 to 83, and the load of the next step's mask word. -/
theorem part14_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 45 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 77 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part14 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 35 (by decide)⌝ ∗ ((c : Thread nD τ).loc main_call0_v12 ↦{q} ai) ∗ ((c : Thread nD τ).loc main_call0_v13 ↦{q} wm) ∗ cells c arg3 (Memref.whole main_v0_0) i ai wm hai x3 f 83 ∗ semPt c 0 (sem_inb 0 (by decide)) ∗ semPt c 1 (sem_inb 1 (by decide)) ∗ semPt c 2 (sem_inb 2 (by decide)) ∗ ∃ W', owes (c : Thread nD τ) 0 W')) := by
  rw [k0_part14_eq_skeleton]; unfold k0_part14_skel
  iintro ⟨HS, HM, HC, S13, S14, S15, HO⟩
  have hl32 : (32 : ℕ) < 256 := by decide
  have hl33 : (33 : ℕ) < 256 := by decide
  have hl34 : (34 : ℕ) < 256 := by decide
  have hl35 : (35 : ℕ) < 256 := by decide
  have hl45 : (45 : ℕ) < 256 := by decide
  have hl46 : (46 : ℕ) < 256 := by decide
  have hl47 : (47 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw78 : w = wordOf wm i 45 hl45 := hw
  have hp78 : stateAt 77 ⟨45, hl45⟩ = St.pending := show stateAt 77 ⟨45, (by decide : (45 : ℕ) < 256)⟩ = St.pending from by decide
  have hn78 : ∀ l : Fin 256, stateAt 78 l = Function.update (stateAt 77) ⟨45, hl45⟩ St.started l := show ∀ l : Fin 256, stateAt 78 l = Function.update (stateAt 77) ⟨45, (by decide : (45 : ℕ) < 256)⟩ St.started l from by decide
  iapply (start_fam c 𝒱₀ arg3 (Memref.whole main_v0_0) i q ai wm hai x3 f 77 45 13 hl45 hj13 rfl hp78 hn78 w hw78 k0_cond78 (fun _ => rfl) (k0_chk78 i) (k0_chk78.dec i) (k0_off234 i) (fun _ => rfl) (fun _ _ => rfl) rfl) $$ [HS HC S13]
  · isplitl [HS]; · iexact HS
    isplitl [HC]; · iexact HC
    iexact S13
  iintro ⟨HS, HC⟩
  iapply (loadMask_wp c 𝒱₀ i 46 hl46 q wm rfl) $$ HM
  iintro HM %w79 %hw79
  have hp79 : stateAt 78 ⟨46, hl46⟩ = St.pending := show stateAt 78 ⟨46, (by decide : (46 : ℕ) < 256)⟩ = St.pending from by decide
  have hn79 : ∀ l : Fin 256, stateAt 79 l = Function.update (stateAt 78) ⟨46, hl46⟩ St.started l := show ∀ l : Fin 256, stateAt 79 l = Function.update (stateAt 78) ⟨46, (by decide : (46 : ℕ) < 256)⟩ St.started l from by decide
  iapply (start_fam c 𝒱₀ arg3 (Memref.whole main_v0_0) i q ai wm hai x3 f 78 46 14 hl46 hj14 rfl hp79 hn79 w79 hw79 k0_cond79 (fun _ => rfl) (k0_chk79 i) (k0_chk79.dec i) (k0_off237 i) (fun _ => rfl) (fun _ _ => rfl) rfl) $$ [HS HC S14]
  · isplitl [HS]; · iexact HS
    isplitl [HC]; · iexact HC
    iexact S14
  iintro ⟨HS, HC⟩
  iapply (loadMask_wp c 𝒱₀ i 47 hl47 q wm rfl) $$ HM
  iintro HM %w80 %hw80
  have hp80 : stateAt 79 ⟨47, hl47⟩ = St.pending := show stateAt 79 ⟨47, (by decide : (47 : ℕ) < 256)⟩ = St.pending from by decide
  have hn80 : ∀ l : Fin 256, stateAt 80 l = Function.update (stateAt 79) ⟨47, hl47⟩ St.started l := show ∀ l : Fin 256, stateAt 80 l = Function.update (stateAt 79) ⟨47, (by decide : (47 : ℕ) < 256)⟩ St.started l from by decide
  iapply (start_fam c 𝒱₀ arg3 (Memref.whole main_v0_0) i q ai wm hai x3 f 79 47 15 hl47 hj15 rfl hp80 hn80 w80 hw80 k0_cond80 (fun _ => rfl) (k0_chk80 i) (k0_chk80.dec i) (k0_off240 i) (fun _ => rfl) (fun _ _ => rfl) rfl) $$ [HS HC S15]
  · isplitl [HS]; · iexact HS
    isplitl [HC]; · iexact HC
    iexact S15
  iintro ⟨HS, HC⟩
  iapply (loadMask_wp c 𝒱₀ i 32 hl32 q wm rfl) $$ HM
  iintro HM %w81 %hw81
  have hp81 : stateAt 80 ⟨32, hl32⟩ = St.started := show stateAt 80 ⟨32, (by decide : (32 : ℕ) < 256)⟩ = St.started from by decide
  have hn81 : ∀ l : Fin 256, stateAt 81 l = Function.update (stateAt 80) ⟨32, hl32⟩ St.done l := show ∀ l : Fin 256, stateAt 81 l = Function.update (stateAt 80) ⟨32, (by decide : (32 : ℕ) < 256)⟩ St.done l from by decide
  iapply (wait_fam c 𝒱₀ arg3 (Memref.whole main_v0_0) i q ai wm hai x3 f 80 32 0 hl32 hj0 rfl hp81 hn81 w81 hw81 (k0_off242 i) rfl (k0_off242_inb i) k0_cond81 (fun _ => rfl) (k0_chk81 i) (k0_chk81.dec i) (k0_off243 i) (fun _ => rfl) (fun _ _ h => h) (k0_off243_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W81, HO⟩
  iapply (loadMask_wp c 𝒱₀ i 33 hl33 q wm rfl) $$ HM
  iintro HM %w82 %hw82
  have hp82 : stateAt 81 ⟨33, hl33⟩ = St.started := show stateAt 81 ⟨33, (by decide : (33 : ℕ) < 256)⟩ = St.started from by decide
  have hn82 : ∀ l : Fin 256, stateAt 82 l = Function.update (stateAt 81) ⟨33, hl33⟩ St.done l := show ∀ l : Fin 256, stateAt 82 l = Function.update (stateAt 81) ⟨33, (by decide : (33 : ℕ) < 256)⟩ St.done l from by decide
  iapply (wait_fam c 𝒱₀ arg3 (Memref.whole main_v0_0) i q ai wm hai x3 f 81 33 1 hl33 hj1 rfl hp82 hn82 w82 hw82 (k0_off245 i) rfl (k0_off245_inb i) k0_cond82 (fun _ => rfl) (k0_chk82 i) (k0_chk82.dec i) (k0_off246 i) (fun _ => rfl) (fun _ _ h => h) (k0_off246_inb i) ((View.wordExact_bits rfl).reshape _ _) (fun _ _ => (View.wordExact_bits rfl).reshape _ _) _ _ W81) $$ [HS HM HC HO]
  · isplitl [HS]; · iexact HS
    isplitl [HM]; · iexact HM
    isplitl [HC]; · iexact HC
    iexact HO
  iintro ⟨HS, HM, HC, S1, %W82, HO⟩
  iapply (loadMask_wp c 𝒱₀ i 34 hl34 q wm rfl) $$ HM
  iintro HM %w83 %hw83
  have hp83 : stateAt 82 ⟨34, hl34⟩ = St.started := show stateAt 82 ⟨34, (by decide : (34 : ℕ) < 256)⟩ = St.started from by decide
  have hn83 : ∀ l : Fin 256, stateAt 83 l = Function.update (stateAt 82) ⟨34, hl34⟩ St.done l := show ∀ l : Fin 256, stateAt 83 l = Function.update (stateAt 82) ⟨34, (by decide : (34 : ℕ) < 256)⟩ St.done l from by decide
  iapply (wait_fam c 𝒱₀ arg3 (Memref.whole main_v0_0) i q ai wm hai x3 f 82 34 2 hl34 hj2 rfl hp83 hn83 w83 hw83 (k0_off248 i) rfl (k0_off248_inb i) k0_cond83 (fun _ => rfl) (k0_chk83 i) (k0_chk83.dec i) (k0_off249 i) (fun _ => rfl) (fun _ _ h => h) (k0_off249_inb i) ((View.wordExact_bits rfl).reshape _ _) (fun _ _ => (View.wordExact_bits rfl).reshape _ _) _ _ W82) $$ [HS HM HC HO]
  · isplitl [HS]; · iexact HS
    isplitl [HM]; · iexact HM
    isplitl [HC]; · iexact HC
    iexact HO
  iintro ⟨HS, HM, HC, S2, %W83, HO⟩
  iapply (loadMask_wp c 𝒱₀ i 35 hl35 q wm rfl) $$ HM
  iintro HM %w84 %hw84
  rw [wp_pure]
  imodintro
  isplitr; · ipureintro; exact hw84
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 15 of the body: steps 84 to 89, and the load of the next step's mask word. -/
theorem part15_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 35 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 83 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part15 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 41 (by decide)⌝ ∗ ((c : Thread nD τ).loc main_call0_v12 ↦{q} ai) ∗ ((c : Thread nD τ).loc main_call0_v13 ↦{q} wm) ∗ cells c arg3 (Memref.whole main_v0_0) i ai wm hai x3 f 89 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part15_eq_skeleton]; unfold k0_part15_skel
  iintro ⟨HS, HM, HC, S0, S1, S2, HO⟩
  have hl35 : (35 : ℕ) < 256 := by decide
  have hl36 : (36 : ℕ) < 256 := by decide
  have hl37 : (37 : ℕ) < 256 := by decide
  have hl38 : (38 : ℕ) < 256 := by decide
  have hl39 : (39 : ℕ) < 256 := by decide
  have hl40 : (40 : ℕ) < 256 := by decide
  have hl41 : (41 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw84 : w = wordOf wm i 35 hl35 := hw
  have hp84 : stateAt 83 ⟨35, hl35⟩ = St.started := show stateAt 83 ⟨35, (by decide : (35 : ℕ) < 256)⟩ = St.started from by decide
  have hn84 : ∀ l : Fin 256, stateAt 84 l = Function.update (stateAt 83) ⟨35, hl35⟩ St.done l := show ∀ l : Fin 256, stateAt 84 l = Function.update (stateAt 83) ⟨35, (by decide : (35 : ℕ) < 256)⟩ St.done l from by decide
  iapply (wait_fam c 𝒱₀ arg3 (Memref.whole main_v0_0) i q ai wm hai x3 f 83 35 3 hl35 hj3 rfl hp84 hn84 w hw84 (k0_off251 i) rfl (k0_off251_inb i) k0_cond84 (fun _ => rfl) (k0_chk84 i) (k0_chk84.dec i) (k0_off252 i) (fun _ => rfl) (fun _ _ h => h) (k0_off252_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W84, HO⟩
  iapply (loadMask_wp c 𝒱₀ i 36 hl36 q wm rfl) $$ HM
  iintro HM %w85 %hw85
  have hp85 : stateAt 84 ⟨36, hl36⟩ = St.started := show stateAt 84 ⟨36, (by decide : (36 : ℕ) < 256)⟩ = St.started from by decide
  have hn85 : ∀ l : Fin 256, stateAt 85 l = Function.update (stateAt 84) ⟨36, hl36⟩ St.done l := show ∀ l : Fin 256, stateAt 85 l = Function.update (stateAt 84) ⟨36, (by decide : (36 : ℕ) < 256)⟩ St.done l from by decide
  iapply (wait_fam c 𝒱₀ arg3 (Memref.whole main_v0_0) i q ai wm hai x3 f 84 36 4 hl36 hj4 rfl hp85 hn85 w85 hw85 (k0_off254 i) rfl (k0_off254_inb i) k0_cond85 (fun _ => rfl) (k0_chk85 i) (k0_chk85.dec i) (k0_off255 i) (fun _ => rfl) (fun _ _ h => h) (k0_off255_inb i) ((View.wordExact_bits rfl).reshape _ _) (fun _ _ => (View.wordExact_bits rfl).reshape _ _) _ _ W84) $$ [HS HM HC HO]
  · isplitl [HS]; · iexact HS
    isplitl [HM]; · iexact HM
    isplitl [HC]; · iexact HC
    iexact HO
  iintro ⟨HS, HM, HC, S4, %W85, HO⟩
  iapply (loadMask_wp c 𝒱₀ i 37 hl37 q wm rfl) $$ HM
  iintro HM %w86 %hw86
  have hp86 : stateAt 85 ⟨37, hl37⟩ = St.started := show stateAt 85 ⟨37, (by decide : (37 : ℕ) < 256)⟩ = St.started from by decide
  have hn86 : ∀ l : Fin 256, stateAt 86 l = Function.update (stateAt 85) ⟨37, hl37⟩ St.done l := show ∀ l : Fin 256, stateAt 86 l = Function.update (stateAt 85) ⟨37, (by decide : (37 : ℕ) < 256)⟩ St.done l from by decide
  iapply (wait_fam c 𝒱₀ arg3 (Memref.whole main_v0_0) i q ai wm hai x3 f 85 37 5 hl37 hj5 rfl hp86 hn86 w86 hw86 (k0_off257 i) rfl (k0_off257_inb i) k0_cond86 (fun _ => rfl) (k0_chk86 i) (k0_chk86.dec i) (k0_off258 i) (fun _ => rfl) (fun _ _ h => h) (k0_off258_inb i) ((View.wordExact_bits rfl).reshape _ _) (fun _ _ => (View.wordExact_bits rfl).reshape _ _) _ _ W85) $$ [HS HM HC HO]
  · isplitl [HS]; · iexact HS
    isplitl [HM]; · iexact HM
    isplitl [HC]; · iexact HC
    iexact HO
  iintro ⟨HS, HM, HC, S5, %W86, HO⟩
  iapply (loadMask_wp c 𝒱₀ i 38 hl38 q wm rfl) $$ HM
  iintro HM %w87 %hw87
  have hp87 : stateAt 86 ⟨38, hl38⟩ = St.started := show stateAt 86 ⟨38, (by decide : (38 : ℕ) < 256)⟩ = St.started from by decide
  have hn87 : ∀ l : Fin 256, stateAt 87 l = Function.update (stateAt 86) ⟨38, hl38⟩ St.done l := show ∀ l : Fin 256, stateAt 87 l = Function.update (stateAt 86) ⟨38, (by decide : (38 : ℕ) < 256)⟩ St.done l from by decide
  iapply (wait_fam c 𝒱₀ arg3 (Memref.whole main_v0_0) i q ai wm hai x3 f 86 38 6 hl38 hj6 rfl hp87 hn87 w87 hw87 (k0_off260 i) rfl (k0_off260_inb i) k0_cond87 (fun _ => rfl) (k0_chk87 i) (k0_chk87.dec i) (k0_off261 i) (fun _ => rfl) (fun _ _ h => h) (k0_off261_inb i) ((View.wordExact_bits rfl).reshape _ _) (fun _ _ => (View.wordExact_bits rfl).reshape _ _) _ _ W86) $$ [HS HM HC HO]
  · isplitl [HS]; · iexact HS
    isplitl [HM]; · iexact HM
    isplitl [HC]; · iexact HC
    iexact HO
  iintro ⟨HS, HM, HC, S6, %W87, HO⟩
  iapply (loadMask_wp c 𝒱₀ i 39 hl39 q wm rfl) $$ HM
  iintro HM %w88 %hw88
  have hp88 : stateAt 87 ⟨39, hl39⟩ = St.started := show stateAt 87 ⟨39, (by decide : (39 : ℕ) < 256)⟩ = St.started from by decide
  have hn88 : ∀ l : Fin 256, stateAt 88 l = Function.update (stateAt 87) ⟨39, hl39⟩ St.done l := show ∀ l : Fin 256, stateAt 88 l = Function.update (stateAt 87) ⟨39, (by decide : (39 : ℕ) < 256)⟩ St.done l from by decide
  iapply (wait_fam c 𝒱₀ arg3 (Memref.whole main_v0_0) i q ai wm hai x3 f 87 39 7 hl39 hj7 rfl hp88 hn88 w88 hw88 (k0_off263 i) rfl (k0_off263_inb i) k0_cond88 (fun _ => rfl) (k0_chk88 i) (k0_chk88.dec i) (k0_off264 i) (fun _ => rfl) (fun _ _ h => h) (k0_off264_inb i) ((View.wordExact_bits rfl).reshape _ _) (fun _ _ => (View.wordExact_bits rfl).reshape _ _) _ _ W87) $$ [HS HM HC HO]
  · isplitl [HS]; · iexact HS
    isplitl [HM]; · iexact HM
    isplitl [HC]; · iexact HC
    iexact HO
  iintro ⟨HS, HM, HC, S7, %W88, HO⟩
  iapply (loadMask_wp c 𝒱₀ i 40 hl40 q wm rfl) $$ HM
  iintro HM %w89 %hw89
  have hp89 : stateAt 88 ⟨40, hl40⟩ = St.started := show stateAt 88 ⟨40, (by decide : (40 : ℕ) < 256)⟩ = St.started from by decide
  have hn89 : ∀ l : Fin 256, stateAt 89 l = Function.update (stateAt 88) ⟨40, hl40⟩ St.done l := show ∀ l : Fin 256, stateAt 89 l = Function.update (stateAt 88) ⟨40, (by decide : (40 : ℕ) < 256)⟩ St.done l from by decide
  iapply (wait_fam c 𝒱₀ arg3 (Memref.whole main_v0_0) i q ai wm hai x3 f 88 40 8 hl40 hj8 rfl hp89 hn89 w89 hw89 (k0_off266 i) rfl (k0_off266_inb i) k0_cond89 (fun _ => rfl) (k0_chk89 i) (k0_chk89.dec i) (k0_off267 i) (fun _ => rfl) (fun _ _ h => h) (k0_off267_inb i) ((View.wordExact_bits rfl).reshape _ _) (fun _ _ => (View.wordExact_bits rfl).reshape _ _) _ _ W88) $$ [HS HM HC HO]
  · isplitl [HS]; · iexact HS
    isplitl [HM]; · iexact HM
    isplitl [HC]; · iexact HC
    iexact HO
  iintro ⟨HS, HM, HC, S8, %W89, HO⟩
  iapply (loadMask_wp c 𝒱₀ i 41 hl41 q wm rfl) $$ HM
  iintro HM %w90 %hw90
  rw [wp_pure]
  imodintro
  isplitr; · ipureintro; exact hw90
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 16 of the body: steps 90 to 95, and the load of the next step's mask word. -/
theorem part16_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 41 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 89 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part16 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 47 (by decide)⌝ ∗ ((c : Thread nD τ).loc main_call0_v12 ↦{q} ai) ∗ ((c : Thread nD τ).loc main_call0_v13 ↦{q} wm) ∗ cells c arg3 (Memref.whole main_v0_0) i ai wm hai x3 f 95 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part16_eq_skeleton]; unfold k0_part16_skel
  iintro ⟨HS, HM, HC, S0, S1, S2, S3, S4, S5, S6, S7, S8, HO⟩
  have hl41 : (41 : ℕ) < 256 := by decide
  have hl42 : (42 : ℕ) < 256 := by decide
  have hl43 : (43 : ℕ) < 256 := by decide
  have hl44 : (44 : ℕ) < 256 := by decide
  have hl45 : (45 : ℕ) < 256 := by decide
  have hl46 : (46 : ℕ) < 256 := by decide
  have hl47 : (47 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw90 : w = wordOf wm i 41 hl41 := hw
  have hp90 : stateAt 89 ⟨41, hl41⟩ = St.started := show stateAt 89 ⟨41, (by decide : (41 : ℕ) < 256)⟩ = St.started from by decide
  have hn90 : ∀ l : Fin 256, stateAt 90 l = Function.update (stateAt 89) ⟨41, hl41⟩ St.done l := show ∀ l : Fin 256, stateAt 90 l = Function.update (stateAt 89) ⟨41, (by decide : (41 : ℕ) < 256)⟩ St.done l from by decide
  iapply (wait_fam c 𝒱₀ arg3 (Memref.whole main_v0_0) i q ai wm hai x3 f 89 41 9 hl41 hj9 rfl hp90 hn90 w hw90 (k0_off269 i) rfl (k0_off269_inb i) k0_cond90 (fun _ => rfl) (k0_chk90 i) (k0_chk90.dec i) (k0_off270 i) (fun _ => rfl) (fun _ _ h => h) (k0_off270_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W90, HO⟩
  iapply (loadMask_wp c 𝒱₀ i 42 hl42 q wm rfl) $$ HM
  iintro HM %w91 %hw91
  have hp91 : stateAt 90 ⟨42, hl42⟩ = St.started := show stateAt 90 ⟨42, (by decide : (42 : ℕ) < 256)⟩ = St.started from by decide
  have hn91 : ∀ l : Fin 256, stateAt 91 l = Function.update (stateAt 90) ⟨42, hl42⟩ St.done l := show ∀ l : Fin 256, stateAt 91 l = Function.update (stateAt 90) ⟨42, (by decide : (42 : ℕ) < 256)⟩ St.done l from by decide
  iapply (wait_fam c 𝒱₀ arg3 (Memref.whole main_v0_0) i q ai wm hai x3 f 90 42 10 hl42 hj10 rfl hp91 hn91 w91 hw91 (k0_off272 i) rfl (k0_off272_inb i) k0_cond91 (fun _ => rfl) (k0_chk91 i) (k0_chk91.dec i) (k0_off273 i) (fun _ => rfl) (fun _ _ h => h) (k0_off273_inb i) ((View.wordExact_bits rfl).reshape _ _) (fun _ _ => (View.wordExact_bits rfl).reshape _ _) _ _ W90) $$ [HS HM HC HO]
  · isplitl [HS]; · iexact HS
    isplitl [HM]; · iexact HM
    isplitl [HC]; · iexact HC
    iexact HO
  iintro ⟨HS, HM, HC, S10, %W91, HO⟩
  iapply (loadMask_wp c 𝒱₀ i 43 hl43 q wm rfl) $$ HM
  iintro HM %w92 %hw92
  have hp92 : stateAt 91 ⟨43, hl43⟩ = St.started := show stateAt 91 ⟨43, (by decide : (43 : ℕ) < 256)⟩ = St.started from by decide
  have hn92 : ∀ l : Fin 256, stateAt 92 l = Function.update (stateAt 91) ⟨43, hl43⟩ St.done l := show ∀ l : Fin 256, stateAt 92 l = Function.update (stateAt 91) ⟨43, (by decide : (43 : ℕ) < 256)⟩ St.done l from by decide
  iapply (wait_fam c 𝒱₀ arg3 (Memref.whole main_v0_0) i q ai wm hai x3 f 91 43 11 hl43 hj11 rfl hp92 hn92 w92 hw92 (k0_off275 i) rfl (k0_off275_inb i) k0_cond92 (fun _ => rfl) (k0_chk92 i) (k0_chk92.dec i) (k0_off276 i) (fun _ => rfl) (fun _ _ h => h) (k0_off276_inb i) ((View.wordExact_bits rfl).reshape _ _) (fun _ _ => (View.wordExact_bits rfl).reshape _ _) _ _ W91) $$ [HS HM HC HO]
  · isplitl [HS]; · iexact HS
    isplitl [HM]; · iexact HM
    isplitl [HC]; · iexact HC
    iexact HO
  iintro ⟨HS, HM, HC, S11, %W92, HO⟩
  iapply (loadMask_wp c 𝒱₀ i 44 hl44 q wm rfl) $$ HM
  iintro HM %w93 %hw93
  have hp93 : stateAt 92 ⟨44, hl44⟩ = St.started := show stateAt 92 ⟨44, (by decide : (44 : ℕ) < 256)⟩ = St.started from by decide
  have hn93 : ∀ l : Fin 256, stateAt 93 l = Function.update (stateAt 92) ⟨44, hl44⟩ St.done l := show ∀ l : Fin 256, stateAt 93 l = Function.update (stateAt 92) ⟨44, (by decide : (44 : ℕ) < 256)⟩ St.done l from by decide
  iapply (wait_fam c 𝒱₀ arg3 (Memref.whole main_v0_0) i q ai wm hai x3 f 92 44 12 hl44 hj12 rfl hp93 hn93 w93 hw93 (k0_off278 i) rfl (k0_off278_inb i) k0_cond93 (fun _ => rfl) (k0_chk93 i) (k0_chk93.dec i) (k0_off279 i) (fun _ => rfl) (fun _ _ h => h) (k0_off279_inb i) ((View.wordExact_bits rfl).reshape _ _) (fun _ _ => (View.wordExact_bits rfl).reshape _ _) _ _ W92) $$ [HS HM HC HO]
  · isplitl [HS]; · iexact HS
    isplitl [HM]; · iexact HM
    isplitl [HC]; · iexact HC
    iexact HO
  iintro ⟨HS, HM, HC, S12, %W93, HO⟩
  iapply (loadMask_wp c 𝒱₀ i 45 hl45 q wm rfl) $$ HM
  iintro HM %w94 %hw94
  have hp94 : stateAt 93 ⟨45, hl45⟩ = St.started := show stateAt 93 ⟨45, (by decide : (45 : ℕ) < 256)⟩ = St.started from by decide
  have hn94 : ∀ l : Fin 256, stateAt 94 l = Function.update (stateAt 93) ⟨45, hl45⟩ St.done l := show ∀ l : Fin 256, stateAt 94 l = Function.update (stateAt 93) ⟨45, (by decide : (45 : ℕ) < 256)⟩ St.done l from by decide
  iapply (wait_fam c 𝒱₀ arg3 (Memref.whole main_v0_0) i q ai wm hai x3 f 93 45 13 hl45 hj13 rfl hp94 hn94 w94 hw94 (k0_off281 i) rfl (k0_off281_inb i) k0_cond94 (fun _ => rfl) (k0_chk94 i) (k0_chk94.dec i) (k0_off282 i) (fun _ => rfl) (fun _ _ h => h) (k0_off282_inb i) ((View.wordExact_bits rfl).reshape _ _) (fun _ _ => (View.wordExact_bits rfl).reshape _ _) _ _ W93) $$ [HS HM HC HO]
  · isplitl [HS]; · iexact HS
    isplitl [HM]; · iexact HM
    isplitl [HC]; · iexact HC
    iexact HO
  iintro ⟨HS, HM, HC, S13, %W94, HO⟩
  iapply (loadMask_wp c 𝒱₀ i 46 hl46 q wm rfl) $$ HM
  iintro HM %w95 %hw95
  have hp95 : stateAt 94 ⟨46, hl46⟩ = St.started := show stateAt 94 ⟨46, (by decide : (46 : ℕ) < 256)⟩ = St.started from by decide
  have hn95 : ∀ l : Fin 256, stateAt 95 l = Function.update (stateAt 94) ⟨46, hl46⟩ St.done l := show ∀ l : Fin 256, stateAt 95 l = Function.update (stateAt 94) ⟨46, (by decide : (46 : ℕ) < 256)⟩ St.done l from by decide
  iapply (wait_fam c 𝒱₀ arg3 (Memref.whole main_v0_0) i q ai wm hai x3 f 94 46 14 hl46 hj14 rfl hp95 hn95 w95 hw95 (k0_off284 i) rfl (k0_off284_inb i) k0_cond95 (fun _ => rfl) (k0_chk95 i) (k0_chk95.dec i) (k0_off285 i) (fun _ => rfl) (fun _ _ h => h) (k0_off285_inb i) ((View.wordExact_bits rfl).reshape _ _) (fun _ _ => (View.wordExact_bits rfl).reshape _ _) _ _ W94) $$ [HS HM HC HO]
  · isplitl [HS]; · iexact HS
    isplitl [HM]; · iexact HM
    isplitl [HC]; · iexact HC
    iexact HO
  iintro ⟨HS, HM, HC, S14, %W95, HO⟩
  iapply (loadMask_wp c 𝒱₀ i 47 hl47 q wm rfl) $$ HM
  iintro HM %w96 %hw96
  rw [wp_pure]
  imodintro
  isplitr; · ipureintro; exact hw96
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 17 of the body: steps 96 to 101, and the load of the next step's mask word. -/
theorem part17_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 47 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 95 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part17 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 53 (by decide)⌝ ∗ ((c : Thread nD τ).loc main_call0_v12 ↦{q} ai) ∗ ((c : Thread nD τ).loc main_call0_v13 ↦{q} wm) ∗ cells c arg3 (Memref.whole main_v0_0) i ai wm hai x3 f 101 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part17_eq_skeleton]; unfold k0_part17_skel
  iintro ⟨HS, HM, HC, S0, S1, S2, S3, S4, S5, S6, S7, S8, S9, S10, S11, S12, S13, S14, HO⟩
  have hl47 : (47 : ℕ) < 256 := by decide
  have hl48 : (48 : ℕ) < 256 := by decide
  have hl49 : (49 : ℕ) < 256 := by decide
  have hl50 : (50 : ℕ) < 256 := by decide
  have hl51 : (51 : ℕ) < 256 := by decide
  have hl52 : (52 : ℕ) < 256 := by decide
  have hl53 : (53 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw96 : w = wordOf wm i 47 hl47 := hw
  have hp96 : stateAt 95 ⟨47, hl47⟩ = St.started := show stateAt 95 ⟨47, (by decide : (47 : ℕ) < 256)⟩ = St.started from by decide
  have hn96 : ∀ l : Fin 256, stateAt 96 l = Function.update (stateAt 95) ⟨47, hl47⟩ St.done l := show ∀ l : Fin 256, stateAt 96 l = Function.update (stateAt 95) ⟨47, (by decide : (47 : ℕ) < 256)⟩ St.done l from by decide
  iapply (wait_fam c 𝒱₀ arg3 (Memref.whole main_v0_0) i q ai wm hai x3 f 95 47 15 hl47 hj15 rfl hp96 hn96 w hw96 (k0_off287 i) rfl (k0_off287_inb i) k0_cond96 (fun _ => rfl) (k0_chk96 i) (k0_chk96.dec i) (k0_off288 i) (fun _ => rfl) (fun _ _ h => h) (k0_off288_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W96, HO⟩
  iapply (loadMask_wp c 𝒱₀ i 48 hl48 q wm rfl) $$ HM
  iintro HM %w97 %hw97
  have hp97 : stateAt 96 ⟨48, hl48⟩ = St.pending := show stateAt 96 ⟨48, (by decide : (48 : ℕ) < 256)⟩ = St.pending from by decide
  have hn97 : ∀ l : Fin 256, stateAt 97 l = Function.update (stateAt 96) ⟨48, hl48⟩ St.started l := show ∀ l : Fin 256, stateAt 97 l = Function.update (stateAt 96) ⟨48, (by decide : (48 : ℕ) < 256)⟩ St.started l from by decide
  iapply (start_fam c 𝒱₀ arg3 (Memref.whole main_v0_0) i q ai wm hai x3 f 96 48 0 hl48 hj0 rfl hp97 hn97 w97 hw97 k0_cond97 (fun _ => rfl) (k0_chk97 i) (k0_chk97.dec i) (k0_off291 i) (fun _ => rfl) (fun _ _ => rfl) rfl) $$ [HS HC S0]
  · isplitl [HS]; · iexact HS
    isplitl [HC]; · iexact HC
    iexact S0
  iintro ⟨HS, HC⟩
  iapply (loadMask_wp c 𝒱₀ i 49 hl49 q wm rfl) $$ HM
  iintro HM %w98 %hw98
  have hp98 : stateAt 97 ⟨49, hl49⟩ = St.pending := show stateAt 97 ⟨49, (by decide : (49 : ℕ) < 256)⟩ = St.pending from by decide
  have hn98 : ∀ l : Fin 256, stateAt 98 l = Function.update (stateAt 97) ⟨49, hl49⟩ St.started l := show ∀ l : Fin 256, stateAt 98 l = Function.update (stateAt 97) ⟨49, (by decide : (49 : ℕ) < 256)⟩ St.started l from by decide
  iapply (start_fam c 𝒱₀ arg3 (Memref.whole main_v0_0) i q ai wm hai x3 f 97 49 1 hl49 hj1 rfl hp98 hn98 w98 hw98 k0_cond98 (fun _ => rfl) (k0_chk98 i) (k0_chk98.dec i) (k0_off294 i) (fun _ => rfl) (fun _ _ => rfl) rfl) $$ [HS HC S1]
  · isplitl [HS]; · iexact HS
    isplitl [HC]; · iexact HC
    iexact S1
  iintro ⟨HS, HC⟩
  iapply (loadMask_wp c 𝒱₀ i 50 hl50 q wm rfl) $$ HM
  iintro HM %w99 %hw99
  have hp99 : stateAt 98 ⟨50, hl50⟩ = St.pending := show stateAt 98 ⟨50, (by decide : (50 : ℕ) < 256)⟩ = St.pending from by decide
  have hn99 : ∀ l : Fin 256, stateAt 99 l = Function.update (stateAt 98) ⟨50, hl50⟩ St.started l := show ∀ l : Fin 256, stateAt 99 l = Function.update (stateAt 98) ⟨50, (by decide : (50 : ℕ) < 256)⟩ St.started l from by decide
  iapply (start_fam c 𝒱₀ arg3 (Memref.whole main_v0_0) i q ai wm hai x3 f 98 50 2 hl50 hj2 rfl hp99 hn99 w99 hw99 k0_cond99 (fun _ => rfl) (k0_chk99 i) (k0_chk99.dec i) (k0_off297 i) (fun _ => rfl) (fun _ _ => rfl) rfl) $$ [HS HC S2]
  · isplitl [HS]; · iexact HS
    isplitl [HC]; · iexact HC
    iexact S2
  iintro ⟨HS, HC⟩
  iapply (loadMask_wp c 𝒱₀ i 51 hl51 q wm rfl) $$ HM
  iintro HM %w100 %hw100
  have hp100 : stateAt 99 ⟨51, hl51⟩ = St.pending := show stateAt 99 ⟨51, (by decide : (51 : ℕ) < 256)⟩ = St.pending from by decide
  have hn100 : ∀ l : Fin 256, stateAt 100 l = Function.update (stateAt 99) ⟨51, hl51⟩ St.started l := show ∀ l : Fin 256, stateAt 100 l = Function.update (stateAt 99) ⟨51, (by decide : (51 : ℕ) < 256)⟩ St.started l from by decide
  iapply (start_fam c 𝒱₀ arg3 (Memref.whole main_v0_0) i q ai wm hai x3 f 99 51 3 hl51 hj3 rfl hp100 hn100 w100 hw100 k0_cond100 (fun _ => rfl) (k0_chk100 i) (k0_chk100.dec i) (k0_off300 i) (fun _ => rfl) (fun _ _ => rfl) rfl) $$ [HS HC S3]
  · isplitl [HS]; · iexact HS
    isplitl [HC]; · iexact HC
    iexact S3
  iintro ⟨HS, HC⟩
  iapply (loadMask_wp c 𝒱₀ i 52 hl52 q wm rfl) $$ HM
  iintro HM %w101 %hw101
  have hp101 : stateAt 100 ⟨52, hl52⟩ = St.pending := show stateAt 100 ⟨52, (by decide : (52 : ℕ) < 256)⟩ = St.pending from by decide
  have hn101 : ∀ l : Fin 256, stateAt 101 l = Function.update (stateAt 100) ⟨52, hl52⟩ St.started l := show ∀ l : Fin 256, stateAt 101 l = Function.update (stateAt 100) ⟨52, (by decide : (52 : ℕ) < 256)⟩ St.started l from by decide
  iapply (start_fam c 𝒱₀ arg3 (Memref.whole main_v0_0) i q ai wm hai x3 f 100 52 4 hl52 hj4 rfl hp101 hn101 w101 hw101 k0_cond101 (fun _ => rfl) (k0_chk101 i) (k0_chk101.dec i) (k0_off303 i) (fun _ => rfl) (fun _ _ => rfl) rfl) $$ [HS HC S4]
  · isplitl [HS]; · iexact HS
    isplitl [HC]; · iexact HC
    iexact S4
  iintro ⟨HS, HC⟩
  iapply (loadMask_wp c 𝒱₀ i 53 hl53 q wm rfl) $$ HM
  iintro HM %w102 %hw102
  rw [wp_pure]
  imodintro
  isplitr; · ipureintro; exact hw102
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 18 of the body: steps 102 to 107, and the load of the next step's mask word. -/
theorem part18_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 53 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 101 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part18 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 59 (by decide)⌝ ∗ ((c : Thread nD τ).loc main_call0_v12 ↦{q} ai) ∗ ((c : Thread nD τ).loc main_call0_v13 ↦{q} wm) ∗ cells c arg3 (Memref.whole main_v0_0) i ai wm hai x3 f 107 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part18_eq_skeleton]; unfold k0_part18_skel
  iintro ⟨HS, HM, HC, S5, S6, S7, S8, S9, S10, S11, S12, S13, S14, S15, HO⟩
  have hl53 : (53 : ℕ) < 256 := by decide
  have hl54 : (54 : ℕ) < 256 := by decide
  have hl55 : (55 : ℕ) < 256 := by decide
  have hl56 : (56 : ℕ) < 256 := by decide
  have hl57 : (57 : ℕ) < 256 := by decide
  have hl58 : (58 : ℕ) < 256 := by decide
  have hl59 : (59 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw102 : w = wordOf wm i 53 hl53 := hw
  have hp102 : stateAt 101 ⟨53, hl53⟩ = St.pending := show stateAt 101 ⟨53, (by decide : (53 : ℕ) < 256)⟩ = St.pending from by decide
  have hn102 : ∀ l : Fin 256, stateAt 102 l = Function.update (stateAt 101) ⟨53, hl53⟩ St.started l := show ∀ l : Fin 256, stateAt 102 l = Function.update (stateAt 101) ⟨53, (by decide : (53 : ℕ) < 256)⟩ St.started l from by decide
  iapply (start_fam c 𝒱₀ arg3 (Memref.whole main_v0_0) i q ai wm hai x3 f 101 53 5 hl53 hj5 rfl hp102 hn102 w hw102 k0_cond102 (fun _ => rfl) (k0_chk102 i) (k0_chk102.dec i) (k0_off306 i) (fun _ => rfl) (fun _ _ => rfl) rfl) $$ [HS HC S5]
  · isplitl [HS]; · iexact HS
    isplitl [HC]; · iexact HC
    iexact S5
  iintro ⟨HS, HC⟩
  iapply (loadMask_wp c 𝒱₀ i 54 hl54 q wm rfl) $$ HM
  iintro HM %w103 %hw103
  have hp103 : stateAt 102 ⟨54, hl54⟩ = St.pending := show stateAt 102 ⟨54, (by decide : (54 : ℕ) < 256)⟩ = St.pending from by decide
  have hn103 : ∀ l : Fin 256, stateAt 103 l = Function.update (stateAt 102) ⟨54, hl54⟩ St.started l := show ∀ l : Fin 256, stateAt 103 l = Function.update (stateAt 102) ⟨54, (by decide : (54 : ℕ) < 256)⟩ St.started l from by decide
  iapply (start_fam c 𝒱₀ arg3 (Memref.whole main_v0_0) i q ai wm hai x3 f 102 54 6 hl54 hj6 rfl hp103 hn103 w103 hw103 k0_cond103 (fun _ => rfl) (k0_chk103 i) (k0_chk103.dec i) (k0_off309 i) (fun _ => rfl) (fun _ _ => rfl) rfl) $$ [HS HC S6]
  · isplitl [HS]; · iexact HS
    isplitl [HC]; · iexact HC
    iexact S6
  iintro ⟨HS, HC⟩
  iapply (loadMask_wp c 𝒱₀ i 55 hl55 q wm rfl) $$ HM
  iintro HM %w104 %hw104
  have hp104 : stateAt 103 ⟨55, hl55⟩ = St.pending := show stateAt 103 ⟨55, (by decide : (55 : ℕ) < 256)⟩ = St.pending from by decide
  have hn104 : ∀ l : Fin 256, stateAt 104 l = Function.update (stateAt 103) ⟨55, hl55⟩ St.started l := show ∀ l : Fin 256, stateAt 104 l = Function.update (stateAt 103) ⟨55, (by decide : (55 : ℕ) < 256)⟩ St.started l from by decide
  iapply (start_fam c 𝒱₀ arg3 (Memref.whole main_v0_0) i q ai wm hai x3 f 103 55 7 hl55 hj7 rfl hp104 hn104 w104 hw104 k0_cond104 (fun _ => rfl) (k0_chk104 i) (k0_chk104.dec i) (k0_off312 i) (fun _ => rfl) (fun _ _ => rfl) rfl) $$ [HS HC S7]
  · isplitl [HS]; · iexact HS
    isplitl [HC]; · iexact HC
    iexact S7
  iintro ⟨HS, HC⟩
  iapply (loadMask_wp c 𝒱₀ i 56 hl56 q wm rfl) $$ HM
  iintro HM %w105 %hw105
  have hp105 : stateAt 104 ⟨56, hl56⟩ = St.pending := show stateAt 104 ⟨56, (by decide : (56 : ℕ) < 256)⟩ = St.pending from by decide
  have hn105 : ∀ l : Fin 256, stateAt 105 l = Function.update (stateAt 104) ⟨56, hl56⟩ St.started l := show ∀ l : Fin 256, stateAt 105 l = Function.update (stateAt 104) ⟨56, (by decide : (56 : ℕ) < 256)⟩ St.started l from by decide
  iapply (start_fam c 𝒱₀ arg3 (Memref.whole main_v0_0) i q ai wm hai x3 f 104 56 8 hl56 hj8 rfl hp105 hn105 w105 hw105 k0_cond105 (fun _ => rfl) (k0_chk105 i) (k0_chk105.dec i) (k0_off315 i) (fun _ => rfl) (fun _ _ => rfl) rfl) $$ [HS HC S8]
  · isplitl [HS]; · iexact HS
    isplitl [HC]; · iexact HC
    iexact S8
  iintro ⟨HS, HC⟩
  iapply (loadMask_wp c 𝒱₀ i 57 hl57 q wm rfl) $$ HM
  iintro HM %w106 %hw106
  have hp106 : stateAt 105 ⟨57, hl57⟩ = St.pending := show stateAt 105 ⟨57, (by decide : (57 : ℕ) < 256)⟩ = St.pending from by decide
  have hn106 : ∀ l : Fin 256, stateAt 106 l = Function.update (stateAt 105) ⟨57, hl57⟩ St.started l := show ∀ l : Fin 256, stateAt 106 l = Function.update (stateAt 105) ⟨57, (by decide : (57 : ℕ) < 256)⟩ St.started l from by decide
  iapply (start_fam c 𝒱₀ arg3 (Memref.whole main_v0_0) i q ai wm hai x3 f 105 57 9 hl57 hj9 rfl hp106 hn106 w106 hw106 k0_cond106 (fun _ => rfl) (k0_chk106 i) (k0_chk106.dec i) (k0_off318 i) (fun _ => rfl) (fun _ _ => rfl) rfl) $$ [HS HC S9]
  · isplitl [HS]; · iexact HS
    isplitl [HC]; · iexact HC
    iexact S9
  iintro ⟨HS, HC⟩
  iapply (loadMask_wp c 𝒱₀ i 58 hl58 q wm rfl) $$ HM
  iintro HM %w107 %hw107
  have hp107 : stateAt 106 ⟨58, hl58⟩ = St.pending := show stateAt 106 ⟨58, (by decide : (58 : ℕ) < 256)⟩ = St.pending from by decide
  have hn107 : ∀ l : Fin 256, stateAt 107 l = Function.update (stateAt 106) ⟨58, hl58⟩ St.started l := show ∀ l : Fin 256, stateAt 107 l = Function.update (stateAt 106) ⟨58, (by decide : (58 : ℕ) < 256)⟩ St.started l from by decide
  iapply (start_fam c 𝒱₀ arg3 (Memref.whole main_v0_0) i q ai wm hai x3 f 106 58 10 hl58 hj10 rfl hp107 hn107 w107 hw107 k0_cond107 (fun _ => rfl) (k0_chk107 i) (k0_chk107.dec i) (k0_off321 i) (fun _ => rfl) (fun _ _ => rfl) rfl) $$ [HS HC S10]
  · isplitl [HS]; · iexact HS
    isplitl [HC]; · iexact HC
    iexact S10
  iintro ⟨HS, HC⟩
  iapply (loadMask_wp c 𝒱₀ i 59 hl59 q wm rfl) $$ HM
  iintro HM %w108 %hw108
  rw [wp_pure]
  imodintro
  isplitr; · ipureintro; exact hw108
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 19 of the body: steps 108 to 113, and the load of the next step's mask word. -/
theorem part19_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 59 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 107 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part19 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 49 (by decide)⌝ ∗ ((c : Thread nD τ).loc main_call0_v12 ↦{q} ai) ∗ ((c : Thread nD τ).loc main_call0_v13 ↦{q} wm) ∗ cells c arg3 (Memref.whole main_v0_0) i ai wm hai x3 f 113 ∗ semPt c 0 (sem_inb 0 (by decide)) ∗ ∃ W', owes (c : Thread nD τ) 0 W')) := by
  rw [k0_part19_eq_skeleton]; unfold k0_part19_skel
  iintro ⟨HS, HM, HC, S11, S12, S13, S14, S15, HO⟩
  have hl48 : (48 : ℕ) < 256 := by decide
  have hl49 : (49 : ℕ) < 256 := by decide
  have hl59 : (59 : ℕ) < 256 := by decide
  have hl60 : (60 : ℕ) < 256 := by decide
  have hl61 : (61 : ℕ) < 256 := by decide
  have hl62 : (62 : ℕ) < 256 := by decide
  have hl63 : (63 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw108 : w = wordOf wm i 59 hl59 := hw
  have hp108 : stateAt 107 ⟨59, hl59⟩ = St.pending := show stateAt 107 ⟨59, (by decide : (59 : ℕ) < 256)⟩ = St.pending from by decide
  have hn108 : ∀ l : Fin 256, stateAt 108 l = Function.update (stateAt 107) ⟨59, hl59⟩ St.started l := show ∀ l : Fin 256, stateAt 108 l = Function.update (stateAt 107) ⟨59, (by decide : (59 : ℕ) < 256)⟩ St.started l from by decide
  iapply (start_fam c 𝒱₀ arg3 (Memref.whole main_v0_0) i q ai wm hai x3 f 107 59 11 hl59 hj11 rfl hp108 hn108 w hw108 k0_cond108 (fun _ => rfl) (k0_chk108 i) (k0_chk108.dec i) (k0_off324 i) (fun _ => rfl) (fun _ _ => rfl) rfl) $$ [HS HC S11]
  · isplitl [HS]; · iexact HS
    isplitl [HC]; · iexact HC
    iexact S11
  iintro ⟨HS, HC⟩
  iapply (loadMask_wp c 𝒱₀ i 60 hl60 q wm rfl) $$ HM
  iintro HM %w109 %hw109
  have hp109 : stateAt 108 ⟨60, hl60⟩ = St.pending := show stateAt 108 ⟨60, (by decide : (60 : ℕ) < 256)⟩ = St.pending from by decide
  have hn109 : ∀ l : Fin 256, stateAt 109 l = Function.update (stateAt 108) ⟨60, hl60⟩ St.started l := show ∀ l : Fin 256, stateAt 109 l = Function.update (stateAt 108) ⟨60, (by decide : (60 : ℕ) < 256)⟩ St.started l from by decide
  iapply (start_fam c 𝒱₀ arg3 (Memref.whole main_v0_0) i q ai wm hai x3 f 108 60 12 hl60 hj12 rfl hp109 hn109 w109 hw109 k0_cond109 (fun _ => rfl) (k0_chk109 i) (k0_chk109.dec i) (k0_off327 i) (fun _ => rfl) (fun _ _ => rfl) rfl) $$ [HS HC S12]
  · isplitl [HS]; · iexact HS
    isplitl [HC]; · iexact HC
    iexact S12
  iintro ⟨HS, HC⟩
  iapply (loadMask_wp c 𝒱₀ i 61 hl61 q wm rfl) $$ HM
  iintro HM %w110 %hw110
  have hp110 : stateAt 109 ⟨61, hl61⟩ = St.pending := show stateAt 109 ⟨61, (by decide : (61 : ℕ) < 256)⟩ = St.pending from by decide
  have hn110 : ∀ l : Fin 256, stateAt 110 l = Function.update (stateAt 109) ⟨61, hl61⟩ St.started l := show ∀ l : Fin 256, stateAt 110 l = Function.update (stateAt 109) ⟨61, (by decide : (61 : ℕ) < 256)⟩ St.started l from by decide
  iapply (start_fam c 𝒱₀ arg3 (Memref.whole main_v0_0) i q ai wm hai x3 f 109 61 13 hl61 hj13 rfl hp110 hn110 w110 hw110 k0_cond110 (fun _ => rfl) (k0_chk110 i) (k0_chk110.dec i) (k0_off330 i) (fun _ => rfl) (fun _ _ => rfl) rfl) $$ [HS HC S13]
  · isplitl [HS]; · iexact HS
    isplitl [HC]; · iexact HC
    iexact S13
  iintro ⟨HS, HC⟩
  iapply (loadMask_wp c 𝒱₀ i 62 hl62 q wm rfl) $$ HM
  iintro HM %w111 %hw111
  have hp111 : stateAt 110 ⟨62, hl62⟩ = St.pending := show stateAt 110 ⟨62, (by decide : (62 : ℕ) < 256)⟩ = St.pending from by decide
  have hn111 : ∀ l : Fin 256, stateAt 111 l = Function.update (stateAt 110) ⟨62, hl62⟩ St.started l := show ∀ l : Fin 256, stateAt 111 l = Function.update (stateAt 110) ⟨62, (by decide : (62 : ℕ) < 256)⟩ St.started l from by decide
  iapply (start_fam c 𝒱₀ arg3 (Memref.whole main_v0_0) i q ai wm hai x3 f 110 62 14 hl62 hj14 rfl hp111 hn111 w111 hw111 k0_cond111 (fun _ => rfl) (k0_chk111 i) (k0_chk111.dec i) (k0_off333 i) (fun _ => rfl) (fun _ _ => rfl) rfl) $$ [HS HC S14]
  · isplitl [HS]; · iexact HS
    isplitl [HC]; · iexact HC
    iexact S14
  iintro ⟨HS, HC⟩
  iapply (loadMask_wp c 𝒱₀ i 63 hl63 q wm rfl) $$ HM
  iintro HM %w112 %hw112
  have hp112 : stateAt 111 ⟨63, hl63⟩ = St.pending := show stateAt 111 ⟨63, (by decide : (63 : ℕ) < 256)⟩ = St.pending from by decide
  have hn112 : ∀ l : Fin 256, stateAt 112 l = Function.update (stateAt 111) ⟨63, hl63⟩ St.started l := show ∀ l : Fin 256, stateAt 112 l = Function.update (stateAt 111) ⟨63, (by decide : (63 : ℕ) < 256)⟩ St.started l from by decide
  iapply (start_fam c 𝒱₀ arg3 (Memref.whole main_v0_0) i q ai wm hai x3 f 111 63 15 hl63 hj15 rfl hp112 hn112 w112 hw112 k0_cond112 (fun _ => rfl) (k0_chk112 i) (k0_chk112.dec i) (k0_off336 i) (fun _ => rfl) (fun _ _ => rfl) rfl) $$ [HS HC S15]
  · isplitl [HS]; · iexact HS
    isplitl [HC]; · iexact HC
    iexact S15
  iintro ⟨HS, HC⟩
  iapply (loadMask_wp c 𝒱₀ i 48 hl48 q wm rfl) $$ HM
  iintro HM %w113 %hw113
  have hp113 : stateAt 112 ⟨48, hl48⟩ = St.started := show stateAt 112 ⟨48, (by decide : (48 : ℕ) < 256)⟩ = St.started from by decide
  have hn113 : ∀ l : Fin 256, stateAt 113 l = Function.update (stateAt 112) ⟨48, hl48⟩ St.done l := show ∀ l : Fin 256, stateAt 113 l = Function.update (stateAt 112) ⟨48, (by decide : (48 : ℕ) < 256)⟩ St.done l from by decide
  iapply (wait_fam c 𝒱₀ arg3 (Memref.whole main_v0_0) i q ai wm hai x3 f 112 48 0 hl48 hj0 rfl hp113 hn113 w113 hw113 (k0_off338 i) rfl (k0_off338_inb i) k0_cond113 (fun _ => rfl) (k0_chk113 i) (k0_chk113.dec i) (k0_off339 i) (fun _ => rfl) (fun _ _ h => h) (k0_off339_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W113, HO⟩
  iapply (loadMask_wp c 𝒱₀ i 49 hl49 q wm rfl) $$ HM
  iintro HM %w114 %hw114
  rw [wp_pure]
  imodintro
  isplitr; · ipureintro; exact hw114
  isplitl [HS]; · iexact HS
  isplitl [HM]; · iexact HM
  isplitl [HC]; · iexact HC
  isplitl [S0]; · iexact S0
  iexists _; iexact HO

set_option maxHeartbeats 0 in
/-- Part 20 of the body: steps 114 to 119, and the load of the next step's mask word. -/
theorem part20_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 49 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 113 ∗ semPt c 0 (sem_inb 0 (by decide)) ∗ owes (c : Thread nD τ) 0 W)
      ⊢ wp frame (wpE (defs₀ (F := F)) 𝒱₀ (c : Thread nD τ) none) Set.univ (k0_part20 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 55 (by decide)⌝ ∗ ((c : Thread nD τ).loc main_call0_v12 ↦{q} ai) ∗ ((c : Thread nD τ).loc main_call0_v13 ↦{q} wm) ∗ cells c arg3 (Memref.whole main_v0_0) i ai wm hai x3 f 119 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part20_eq_skeleton]; unfold k0_part20_skel
  iintro ⟨HS, HM, HC, S0, HO⟩
  have hl49 : (49 : ℕ) < 256 := by decide
  have hl50 : (50 : ℕ) < 256 := by decide
  have hl51 : (51 : ℕ) < 256 := by decide
  have hl52 : (52 : ℕ) < 256 := by decide
  have hl53 : (53 : ℕ) < 256 := by decide
  have hl54 : (54 : ℕ) < 256 := by decide
  have hl55 : (55 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw114 : w = wordOf wm i 49 hl49 := hw
  have hp114 : stateAt 113 ⟨49, hl49⟩ = St.started := show stateAt 113 ⟨49, (by decide : (49 : ℕ) < 256)⟩ = St.started from by decide
  have hn114 : ∀ l : Fin 256, stateAt 114 l = Function.update (stateAt 113) ⟨49, hl49⟩ St.done l := show ∀ l : Fin 256, stateAt 114 l = Function.update (stateAt 113) ⟨49, (by decide : (49 : ℕ) < 256)⟩ St.done l from by decide
  iapply (wait_fam c 𝒱₀ arg3 (Memref.whole main_v0_0) i q ai wm hai x3 f 113 49 1 hl49 hj1 rfl hp114 hn114 w hw114 (k0_off341 i) rfl (k0_off341_inb i) k0_cond114 (fun _ => rfl) (k0_chk114 i) (k0_chk114.dec i) (k0_off342 i) (fun _ => rfl) (fun _ _ h => h) (k0_off342_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W114, HO⟩
  iapply (loadMask_wp c 𝒱₀ i 50 hl50 q wm rfl) $$ HM
  iintro HM %w115 %hw115
  have hp115 : stateAt 114 ⟨50, hl50⟩ = St.started := show stateAt 114 ⟨50, (by decide : (50 : ℕ) < 256)⟩ = St.started from by decide
  have hn115 : ∀ l : Fin 256, stateAt 115 l = Function.update (stateAt 114) ⟨50, hl50⟩ St.done l := show ∀ l : Fin 256, stateAt 115 l = Function.update (stateAt 114) ⟨50, (by decide : (50 : ℕ) < 256)⟩ St.done l from by decide
  iapply (wait_fam c 𝒱₀ arg3 (Memref.whole main_v0_0) i q ai wm hai x3 f 114 50 2 hl50 hj2 rfl hp115 hn115 w115 hw115 (k0_off344 i) rfl (k0_off344_inb i) k0_cond115 (fun _ => rfl) (k0_chk115 i) (k0_chk115.dec i) (k0_off345 i) (fun _ => rfl) (fun _ _ h => h) (k0_off345_inb i) ((View.wordExact_bits rfl).reshape _ _) (fun _ _ => (View.wordExact_bits rfl).reshape _ _) _ _ W114) $$ [HS HM HC HO]
  · isplitl [HS]; · iexact HS
    isplitl [HM]; · iexact HM
    isplitl [HC]; · iexact HC
    iexact HO
  iintro ⟨HS, HM, HC, S2, %W115, HO⟩
  iapply (loadMask_wp c 𝒱₀ i 51 hl51 q wm rfl) $$ HM
  iintro HM %w116 %hw116
  have hp116 : stateAt 115 ⟨51, hl51⟩ = St.started := show stateAt 115 ⟨51, (by decide : (51 : ℕ) < 256)⟩ = St.started from by decide
  have hn116 : ∀ l : Fin 256, stateAt 116 l = Function.update (stateAt 115) ⟨51, hl51⟩ St.done l := show ∀ l : Fin 256, stateAt 116 l = Function.update (stateAt 115) ⟨51, (by decide : (51 : ℕ) < 256)⟩ St.done l from by decide
  iapply (wait_fam c 𝒱₀ arg3 (Memref.whole main_v0_0) i q ai wm hai x3 f 115 51 3 hl51 hj3 rfl hp116 hn116 w116 hw116 (k0_off347 i) rfl (k0_off347_inb i) k0_cond116 (fun _ => rfl) (k0_chk116 i) (k0_chk116.dec i) (k0_off348 i) (fun _ => rfl) (fun _ _ h => h) (k0_off348_inb i) ((View.wordExact_bits rfl).reshape _ _) (fun _ _ => (View.wordExact_bits rfl).reshape _ _) _ _ W115) $$ [HS HM HC HO]
  · isplitl [HS]; · iexact HS
    isplitl [HM]; · iexact HM
    isplitl [HC]; · iexact HC
    iexact HO
  iintro ⟨HS, HM, HC, S3, %W116, HO⟩
  iapply (loadMask_wp c 𝒱₀ i 52 hl52 q wm rfl) $$ HM
  iintro HM %w117 %hw117
  have hp117 : stateAt 116 ⟨52, hl52⟩ = St.started := show stateAt 116 ⟨52, (by decide : (52 : ℕ) < 256)⟩ = St.started from by decide
  have hn117 : ∀ l : Fin 256, stateAt 117 l = Function.update (stateAt 116) ⟨52, hl52⟩ St.done l := show ∀ l : Fin 256, stateAt 117 l = Function.update (stateAt 116) ⟨52, (by decide : (52 : ℕ) < 256)⟩ St.done l from by decide
  iapply (wait_fam c 𝒱₀ arg3 (Memref.whole main_v0_0) i q ai wm hai x3 f 116 52 4 hl52 hj4 rfl hp117 hn117 w117 hw117 (k0_off350 i) rfl (k0_off350_inb i) k0_cond117 (fun _ => rfl) (k0_chk117 i) (k0_chk117.dec i) (k0_off351 i) (fun _ => rfl) (fun _ _ h => h) (k0_off351_inb i) ((View.wordExact_bits rfl).reshape _ _) (fun _ _ => (View.wordExact_bits rfl).reshape _ _) _ _ W116) $$ [HS HM HC HO]
  · isplitl [HS]; · iexact HS
    isplitl [HM]; · iexact HM
    isplitl [HC]; · iexact HC
    iexact HO
  iintro ⟨HS, HM, HC, S4, %W117, HO⟩
  iapply (loadMask_wp c 𝒱₀ i 53 hl53 q wm rfl) $$ HM
  iintro HM %w118 %hw118
  have hp118 : stateAt 117 ⟨53, hl53⟩ = St.started := show stateAt 117 ⟨53, (by decide : (53 : ℕ) < 256)⟩ = St.started from by decide
  have hn118 : ∀ l : Fin 256, stateAt 118 l = Function.update (stateAt 117) ⟨53, hl53⟩ St.done l := show ∀ l : Fin 256, stateAt 118 l = Function.update (stateAt 117) ⟨53, (by decide : (53 : ℕ) < 256)⟩ St.done l from by decide
  iapply (wait_fam c 𝒱₀ arg3 (Memref.whole main_v0_0) i q ai wm hai x3 f 117 53 5 hl53 hj5 rfl hp118 hn118 w118 hw118 (k0_off353 i) rfl (k0_off353_inb i) k0_cond118 (fun _ => rfl) (k0_chk118 i) (k0_chk118.dec i) (k0_off354 i) (fun _ => rfl) (fun _ _ h => h) (k0_off354_inb i) ((View.wordExact_bits rfl).reshape _ _) (fun _ _ => (View.wordExact_bits rfl).reshape _ _) _ _ W117) $$ [HS HM HC HO]
  · isplitl [HS]; · iexact HS
    isplitl [HM]; · iexact HM
    isplitl [HC]; · iexact HC
    iexact HO
  iintro ⟨HS, HM, HC, S5, %W118, HO⟩
  iapply (loadMask_wp c 𝒱₀ i 54 hl54 q wm rfl) $$ HM
  iintro HM %w119 %hw119
  have hp119 : stateAt 118 ⟨54, hl54⟩ = St.started := show stateAt 118 ⟨54, (by decide : (54 : ℕ) < 256)⟩ = St.started from by decide
  have hn119 : ∀ l : Fin 256, stateAt 119 l = Function.update (stateAt 118) ⟨54, hl54⟩ St.done l := show ∀ l : Fin 256, stateAt 119 l = Function.update (stateAt 118) ⟨54, (by decide : (54 : ℕ) < 256)⟩ St.done l from by decide
  iapply (wait_fam c 𝒱₀ arg3 (Memref.whole main_v0_0) i q ai wm hai x3 f 118 54 6 hl54 hj6 rfl hp119 hn119 w119 hw119 (k0_off356 i) rfl (k0_off356_inb i) k0_cond119 (fun _ => rfl) (k0_chk119 i) (k0_chk119.dec i) (k0_off357 i) (fun _ => rfl) (fun _ _ h => h) (k0_off357_inb i) ((View.wordExact_bits rfl).reshape _ _) (fun _ _ => (View.wordExact_bits rfl).reshape _ _) _ _ W118) $$ [HS HM HC HO]
  · isplitl [HS]; · iexact HS
    isplitl [HM]; · iexact HM
    isplitl [HC]; · iexact HC
    iexact HO
  iintro ⟨HS, HM, HC, S6, %W119, HO⟩
  iapply (loadMask_wp c 𝒱₀ i 55 hl55 q wm rfl) $$ HM
  iintro HM %w120 %hw120
  rw [wp_pure]
  imodintro
  isplitr; · ipureintro; exact hw120
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 21 of the body: steps 120 to 125, and the load of the next step's mask word. -/
theorem part21_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 55 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 119 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part21 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 61 (by decide)⌝ ∗ ((c : Thread nD τ).loc main_call0_v12 ↦{q} ai) ∗ ((c : Thread nD τ).loc main_call0_v13 ↦{q} wm) ∗ cells c arg3 (Memref.whole main_v0_0) i ai wm hai x3 f 125 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part21_eq_skeleton]; unfold k0_part21_skel
  iintro ⟨HS, HM, HC, S0, S1, S2, S3, S4, S5, S6, HO⟩
  have hl55 : (55 : ℕ) < 256 := by decide
  have hl56 : (56 : ℕ) < 256 := by decide
  have hl57 : (57 : ℕ) < 256 := by decide
  have hl58 : (58 : ℕ) < 256 := by decide
  have hl59 : (59 : ℕ) < 256 := by decide
  have hl60 : (60 : ℕ) < 256 := by decide
  have hl61 : (61 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw120 : w = wordOf wm i 55 hl55 := hw
  have hp120 : stateAt 119 ⟨55, hl55⟩ = St.started := show stateAt 119 ⟨55, (by decide : (55 : ℕ) < 256)⟩ = St.started from by decide
  have hn120 : ∀ l : Fin 256, stateAt 120 l = Function.update (stateAt 119) ⟨55, hl55⟩ St.done l := show ∀ l : Fin 256, stateAt 120 l = Function.update (stateAt 119) ⟨55, (by decide : (55 : ℕ) < 256)⟩ St.done l from by decide
  iapply (wait_fam c 𝒱₀ arg3 (Memref.whole main_v0_0) i q ai wm hai x3 f 119 55 7 hl55 hj7 rfl hp120 hn120 w hw120 (k0_off359 i) rfl (k0_off359_inb i) k0_cond120 (fun _ => rfl) (k0_chk120 i) (k0_chk120.dec i) (k0_off360 i) (fun _ => rfl) (fun _ _ h => h) (k0_off360_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W120, HO⟩
  iapply (loadMask_wp c 𝒱₀ i 56 hl56 q wm rfl) $$ HM
  iintro HM %w121 %hw121
  have hp121 : stateAt 120 ⟨56, hl56⟩ = St.started := show stateAt 120 ⟨56, (by decide : (56 : ℕ) < 256)⟩ = St.started from by decide
  have hn121 : ∀ l : Fin 256, stateAt 121 l = Function.update (stateAt 120) ⟨56, hl56⟩ St.done l := show ∀ l : Fin 256, stateAt 121 l = Function.update (stateAt 120) ⟨56, (by decide : (56 : ℕ) < 256)⟩ St.done l from by decide
  iapply (wait_fam c 𝒱₀ arg3 (Memref.whole main_v0_0) i q ai wm hai x3 f 120 56 8 hl56 hj8 rfl hp121 hn121 w121 hw121 (k0_off362 i) rfl (k0_off362_inb i) k0_cond121 (fun _ => rfl) (k0_chk121 i) (k0_chk121.dec i) (k0_off363 i) (fun _ => rfl) (fun _ _ h => h) (k0_off363_inb i) ((View.wordExact_bits rfl).reshape _ _) (fun _ _ => (View.wordExact_bits rfl).reshape _ _) _ _ W120) $$ [HS HM HC HO]
  · isplitl [HS]; · iexact HS
    isplitl [HM]; · iexact HM
    isplitl [HC]; · iexact HC
    iexact HO
  iintro ⟨HS, HM, HC, S8, %W121, HO⟩
  iapply (loadMask_wp c 𝒱₀ i 57 hl57 q wm rfl) $$ HM
  iintro HM %w122 %hw122
  have hp122 : stateAt 121 ⟨57, hl57⟩ = St.started := show stateAt 121 ⟨57, (by decide : (57 : ℕ) < 256)⟩ = St.started from by decide
  have hn122 : ∀ l : Fin 256, stateAt 122 l = Function.update (stateAt 121) ⟨57, hl57⟩ St.done l := show ∀ l : Fin 256, stateAt 122 l = Function.update (stateAt 121) ⟨57, (by decide : (57 : ℕ) < 256)⟩ St.done l from by decide
  iapply (wait_fam c 𝒱₀ arg3 (Memref.whole main_v0_0) i q ai wm hai x3 f 121 57 9 hl57 hj9 rfl hp122 hn122 w122 hw122 (k0_off365 i) rfl (k0_off365_inb i) k0_cond122 (fun _ => rfl) (k0_chk122 i) (k0_chk122.dec i) (k0_off366 i) (fun _ => rfl) (fun _ _ h => h) (k0_off366_inb i) ((View.wordExact_bits rfl).reshape _ _) (fun _ _ => (View.wordExact_bits rfl).reshape _ _) _ _ W121) $$ [HS HM HC HO]
  · isplitl [HS]; · iexact HS
    isplitl [HM]; · iexact HM
    isplitl [HC]; · iexact HC
    iexact HO
  iintro ⟨HS, HM, HC, S9, %W122, HO⟩
  iapply (loadMask_wp c 𝒱₀ i 58 hl58 q wm rfl) $$ HM
  iintro HM %w123 %hw123
  have hp123 : stateAt 122 ⟨58, hl58⟩ = St.started := show stateAt 122 ⟨58, (by decide : (58 : ℕ) < 256)⟩ = St.started from by decide
  have hn123 : ∀ l : Fin 256, stateAt 123 l = Function.update (stateAt 122) ⟨58, hl58⟩ St.done l := show ∀ l : Fin 256, stateAt 123 l = Function.update (stateAt 122) ⟨58, (by decide : (58 : ℕ) < 256)⟩ St.done l from by decide
  iapply (wait_fam c 𝒱₀ arg3 (Memref.whole main_v0_0) i q ai wm hai x3 f 122 58 10 hl58 hj10 rfl hp123 hn123 w123 hw123 (k0_off368 i) rfl (k0_off368_inb i) k0_cond123 (fun _ => rfl) (k0_chk123 i) (k0_chk123.dec i) (k0_off369 i) (fun _ => rfl) (fun _ _ h => h) (k0_off369_inb i) ((View.wordExact_bits rfl).reshape _ _) (fun _ _ => (View.wordExact_bits rfl).reshape _ _) _ _ W122) $$ [HS HM HC HO]
  · isplitl [HS]; · iexact HS
    isplitl [HM]; · iexact HM
    isplitl [HC]; · iexact HC
    iexact HO
  iintro ⟨HS, HM, HC, S10, %W123, HO⟩
  iapply (loadMask_wp c 𝒱₀ i 59 hl59 q wm rfl) $$ HM
  iintro HM %w124 %hw124
  have hp124 : stateAt 123 ⟨59, hl59⟩ = St.started := show stateAt 123 ⟨59, (by decide : (59 : ℕ) < 256)⟩ = St.started from by decide
  have hn124 : ∀ l : Fin 256, stateAt 124 l = Function.update (stateAt 123) ⟨59, hl59⟩ St.done l := show ∀ l : Fin 256, stateAt 124 l = Function.update (stateAt 123) ⟨59, (by decide : (59 : ℕ) < 256)⟩ St.done l from by decide
  iapply (wait_fam c 𝒱₀ arg3 (Memref.whole main_v0_0) i q ai wm hai x3 f 123 59 11 hl59 hj11 rfl hp124 hn124 w124 hw124 (k0_off371 i) rfl (k0_off371_inb i) k0_cond124 (fun _ => rfl) (k0_chk124 i) (k0_chk124.dec i) (k0_off372 i) (fun _ => rfl) (fun _ _ h => h) (k0_off372_inb i) ((View.wordExact_bits rfl).reshape _ _) (fun _ _ => (View.wordExact_bits rfl).reshape _ _) _ _ W123) $$ [HS HM HC HO]
  · isplitl [HS]; · iexact HS
    isplitl [HM]; · iexact HM
    isplitl [HC]; · iexact HC
    iexact HO
  iintro ⟨HS, HM, HC, S11, %W124, HO⟩
  iapply (loadMask_wp c 𝒱₀ i 60 hl60 q wm rfl) $$ HM
  iintro HM %w125 %hw125
  have hp125 : stateAt 124 ⟨60, hl60⟩ = St.started := show stateAt 124 ⟨60, (by decide : (60 : ℕ) < 256)⟩ = St.started from by decide
  have hn125 : ∀ l : Fin 256, stateAt 125 l = Function.update (stateAt 124) ⟨60, hl60⟩ St.done l := show ∀ l : Fin 256, stateAt 125 l = Function.update (stateAt 124) ⟨60, (by decide : (60 : ℕ) < 256)⟩ St.done l from by decide
  iapply (wait_fam c 𝒱₀ arg3 (Memref.whole main_v0_0) i q ai wm hai x3 f 124 60 12 hl60 hj12 rfl hp125 hn125 w125 hw125 (k0_off374 i) rfl (k0_off374_inb i) k0_cond125 (fun _ => rfl) (k0_chk125 i) (k0_chk125.dec i) (k0_off375 i) (fun _ => rfl) (fun _ _ h => h) (k0_off375_inb i) ((View.wordExact_bits rfl).reshape _ _) (fun _ _ => (View.wordExact_bits rfl).reshape _ _) _ _ W124) $$ [HS HM HC HO]
  · isplitl [HS]; · iexact HS
    isplitl [HM]; · iexact HM
    isplitl [HC]; · iexact HC
    iexact HO
  iintro ⟨HS, HM, HC, S12, %W125, HO⟩
  iapply (loadMask_wp c 𝒱₀ i 61 hl61 q wm rfl) $$ HM
  iintro HM %w126 %hw126
  rw [wp_pure]
  imodintro
  isplitr; · ipureintro; exact hw126
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 22 of the body: steps 126 to 131, and the load of the next step's mask word. -/
theorem part22_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 61 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 125 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part22 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 67 (by decide)⌝ ∗ ((c : Thread nD τ).loc main_call0_v12 ↦{q} ai) ∗ ((c : Thread nD τ).loc main_call0_v13 ↦{q} wm) ∗ cells c arg3 (Memref.whole main_v0_0) i ai wm hai x3 f 131 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part22_eq_skeleton]; unfold k0_part22_skel
  iintro ⟨HS, HM, HC, S0, S1, S2, S3, S4, S5, S6, S7, S8, S9, S10, S11, S12, HO⟩
  have hl61 : (61 : ℕ) < 256 := by decide
  have hl62 : (62 : ℕ) < 256 := by decide
  have hl63 : (63 : ℕ) < 256 := by decide
  have hl64 : (64 : ℕ) < 256 := by decide
  have hl65 : (65 : ℕ) < 256 := by decide
  have hl66 : (66 : ℕ) < 256 := by decide
  have hl67 : (67 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw126 : w = wordOf wm i 61 hl61 := hw
  have hp126 : stateAt 125 ⟨61, hl61⟩ = St.started := show stateAt 125 ⟨61, (by decide : (61 : ℕ) < 256)⟩ = St.started from by decide
  have hn126 : ∀ l : Fin 256, stateAt 126 l = Function.update (stateAt 125) ⟨61, hl61⟩ St.done l := show ∀ l : Fin 256, stateAt 126 l = Function.update (stateAt 125) ⟨61, (by decide : (61 : ℕ) < 256)⟩ St.done l from by decide
  iapply (wait_fam c 𝒱₀ arg3 (Memref.whole main_v0_0) i q ai wm hai x3 f 125 61 13 hl61 hj13 rfl hp126 hn126 w hw126 (k0_off377 i) rfl (k0_off377_inb i) k0_cond126 (fun _ => rfl) (k0_chk126 i) (k0_chk126.dec i) (k0_off378 i) (fun _ => rfl) (fun _ _ h => h) (k0_off378_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W126, HO⟩
  iapply (loadMask_wp c 𝒱₀ i 62 hl62 q wm rfl) $$ HM
  iintro HM %w127 %hw127
  have hp127 : stateAt 126 ⟨62, hl62⟩ = St.started := show stateAt 126 ⟨62, (by decide : (62 : ℕ) < 256)⟩ = St.started from by decide
  have hn127 : ∀ l : Fin 256, stateAt 127 l = Function.update (stateAt 126) ⟨62, hl62⟩ St.done l := show ∀ l : Fin 256, stateAt 127 l = Function.update (stateAt 126) ⟨62, (by decide : (62 : ℕ) < 256)⟩ St.done l from by decide
  iapply (wait_fam c 𝒱₀ arg3 (Memref.whole main_v0_0) i q ai wm hai x3 f 126 62 14 hl62 hj14 rfl hp127 hn127 w127 hw127 (k0_off380 i) rfl (k0_off380_inb i) k0_cond127 (fun _ => rfl) (k0_chk127 i) (k0_chk127.dec i) (k0_off381 i) (fun _ => rfl) (fun _ _ h => h) (k0_off381_inb i) ((View.wordExact_bits rfl).reshape _ _) (fun _ _ => (View.wordExact_bits rfl).reshape _ _) _ _ W126) $$ [HS HM HC HO]
  · isplitl [HS]; · iexact HS
    isplitl [HM]; · iexact HM
    isplitl [HC]; · iexact HC
    iexact HO
  iintro ⟨HS, HM, HC, S14, %W127, HO⟩
  iapply (loadMask_wp c 𝒱₀ i 63 hl63 q wm rfl) $$ HM
  iintro HM %w128 %hw128
  have hp128 : stateAt 127 ⟨63, hl63⟩ = St.started := show stateAt 127 ⟨63, (by decide : (63 : ℕ) < 256)⟩ = St.started from by decide
  have hn128 : ∀ l : Fin 256, stateAt 128 l = Function.update (stateAt 127) ⟨63, hl63⟩ St.done l := show ∀ l : Fin 256, stateAt 128 l = Function.update (stateAt 127) ⟨63, (by decide : (63 : ℕ) < 256)⟩ St.done l from by decide
  iapply (wait_fam c 𝒱₀ arg3 (Memref.whole main_v0_0) i q ai wm hai x3 f 127 63 15 hl63 hj15 rfl hp128 hn128 w128 hw128 (k0_off383 i) rfl (k0_off383_inb i) k0_cond128 (fun _ => rfl) (k0_chk128 i) (k0_chk128.dec i) (k0_off384 i) (fun _ => rfl) (fun _ _ h => h) (k0_off384_inb i) ((View.wordExact_bits rfl).reshape _ _) (fun _ _ => (View.wordExact_bits rfl).reshape _ _) _ _ W127) $$ [HS HM HC HO]
  · isplitl [HS]; · iexact HS
    isplitl [HM]; · iexact HM
    isplitl [HC]; · iexact HC
    iexact HO
  iintro ⟨HS, HM, HC, S15, %W128, HO⟩
  iapply (loadMask_wp c 𝒱₀ i 64 hl64 q wm rfl) $$ HM
  iintro HM %w129 %hw129
  have hp129 : stateAt 128 ⟨64, hl64⟩ = St.pending := show stateAt 128 ⟨64, (by decide : (64 : ℕ) < 256)⟩ = St.pending from by decide
  have hn129 : ∀ l : Fin 256, stateAt 129 l = Function.update (stateAt 128) ⟨64, hl64⟩ St.started l := show ∀ l : Fin 256, stateAt 129 l = Function.update (stateAt 128) ⟨64, (by decide : (64 : ℕ) < 256)⟩ St.started l from by decide
  iapply (start_fam c 𝒱₀ arg3 (Memref.whole main_v0_0) i q ai wm hai x3 f 128 64 0 hl64 hj0 rfl hp129 hn129 w129 hw129 k0_cond129 (fun _ => rfl) (k0_chk129 i) (k0_chk129.dec i) (k0_off387 i) (fun _ => rfl) (fun _ _ => rfl) rfl) $$ [HS HC S0]
  · isplitl [HS]; · iexact HS
    isplitl [HC]; · iexact HC
    iexact S0
  iintro ⟨HS, HC⟩
  iapply (loadMask_wp c 𝒱₀ i 65 hl65 q wm rfl) $$ HM
  iintro HM %w130 %hw130
  have hp130 : stateAt 129 ⟨65, hl65⟩ = St.pending := show stateAt 129 ⟨65, (by decide : (65 : ℕ) < 256)⟩ = St.pending from by decide
  have hn130 : ∀ l : Fin 256, stateAt 130 l = Function.update (stateAt 129) ⟨65, hl65⟩ St.started l := show ∀ l : Fin 256, stateAt 130 l = Function.update (stateAt 129) ⟨65, (by decide : (65 : ℕ) < 256)⟩ St.started l from by decide
  iapply (start_fam c 𝒱₀ arg3 (Memref.whole main_v0_0) i q ai wm hai x3 f 129 65 1 hl65 hj1 rfl hp130 hn130 w130 hw130 k0_cond130 (fun _ => rfl) (k0_chk130 i) (k0_chk130.dec i) (k0_off390 i) (fun _ => rfl) (fun _ _ => rfl) rfl) $$ [HS HC S1]
  · isplitl [HS]; · iexact HS
    isplitl [HC]; · iexact HC
    iexact S1
  iintro ⟨HS, HC⟩
  iapply (loadMask_wp c 𝒱₀ i 66 hl66 q wm rfl) $$ HM
  iintro HM %w131 %hw131
  have hp131 : stateAt 130 ⟨66, hl66⟩ = St.pending := show stateAt 130 ⟨66, (by decide : (66 : ℕ) < 256)⟩ = St.pending from by decide
  have hn131 : ∀ l : Fin 256, stateAt 131 l = Function.update (stateAt 130) ⟨66, hl66⟩ St.started l := show ∀ l : Fin 256, stateAt 131 l = Function.update (stateAt 130) ⟨66, (by decide : (66 : ℕ) < 256)⟩ St.started l from by decide
  iapply (start_fam c 𝒱₀ arg3 (Memref.whole main_v0_0) i q ai wm hai x3 f 130 66 2 hl66 hj2 rfl hp131 hn131 w131 hw131 k0_cond131 (fun _ => rfl) (k0_chk131 i) (k0_chk131.dec i) (k0_off393 i) (fun _ => rfl) (fun _ _ => rfl) rfl) $$ [HS HC S2]
  · isplitl [HS]; · iexact HS
    isplitl [HC]; · iexact HC
    iexact S2
  iintro ⟨HS, HC⟩
  iapply (loadMask_wp c 𝒱₀ i 67 hl67 q wm rfl) $$ HM
  iintro HM %w132 %hw132
  rw [wp_pure]
  imodintro
  isplitr; · ipureintro; exact hw132
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.KernelIdeal.Cells

end
-- ==== Proof.Parts3Ideal.lean ====
/-
  Parts 23 to 33 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyIdeal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 23 of the body: steps 132 to 137, and the load of the next step's mask word. -/
theorem part23_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 67 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 131 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part23 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 73 (by decide)⌝ ∗ ((c : Thread nD τ).loc main_call0_v12 ↦{q} ai) ∗ ((c : Thread nD τ).loc main_call0_v13 ↦{q} wm) ∗ cells c arg3 (Memref.whole main_v0_0) i ai wm hai x3 f 137 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part23_eq_skeleton]; unfold k0_part23_skel
  iintro ⟨HS, HM, HC, S3, S4, S5, S6, S7, S8, S9, S10, S11, S12, S13, S14, S15, HO⟩
  have hl67 : (67 : ℕ) < 256 := by decide
  have hl68 : (68 : ℕ) < 256 := by decide
  have hl69 : (69 : ℕ) < 256 := by decide
  have hl70 : (70 : ℕ) < 256 := by decide
  have hl71 : (71 : ℕ) < 256 := by decide
  have hl72 : (72 : ℕ) < 256 := by decide
  have hl73 : (73 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw132 : w = wordOf wm i 67 hl67 := hw
  have hp132 : stateAt 131 ⟨67, hl67⟩ = St.pending := show stateAt 131 ⟨67, (by decide : (67 : ℕ) < 256)⟩ = St.pending from by decide
  have hn132 : ∀ l : Fin 256, stateAt 132 l = Function.update (stateAt 131) ⟨67, hl67⟩ St.started l := show ∀ l : Fin 256, stateAt 132 l = Function.update (stateAt 131) ⟨67, (by decide : (67 : ℕ) < 256)⟩ St.started l from by decide
  iapply (start_fam c 𝒱₀ arg3 (Memref.whole main_v0_0) i q ai wm hai x3 f 131 67 3 hl67 hj3 rfl hp132 hn132 w hw132 k0_cond132 (fun _ => rfl) (k0_chk132 i) (k0_chk132.dec i) (k0_off396 i) (fun _ => rfl) (fun _ _ => rfl) rfl) $$ [HS HC S3]
  · isplitl [HS]; · iexact HS
    isplitl [HC]; · iexact HC
    iexact S3
  iintro ⟨HS, HC⟩
  iapply (loadMask_wp c 𝒱₀ i 68 hl68 q wm rfl) $$ HM
  iintro HM %w133 %hw133
  have hp133 : stateAt 132 ⟨68, hl68⟩ = St.pending := show stateAt 132 ⟨68, (by decide : (68 : ℕ) < 256)⟩ = St.pending from by decide
  have hn133 : ∀ l : Fin 256, stateAt 133 l = Function.update (stateAt 132) ⟨68, hl68⟩ St.started l := show ∀ l : Fin 256, stateAt 133 l = Function.update (stateAt 132) ⟨68, (by decide : (68 : ℕ) < 256)⟩ St.started l from by decide
  iapply (start_fam c 𝒱₀ arg3 (Memref.whole main_v0_0) i q ai wm hai x3 f 132 68 4 hl68 hj4 rfl hp133 hn133 w133 hw133 k0_cond133 (fun _ => rfl) (k0_chk133 i) (k0_chk133.dec i) (k0_off399 i) (fun _ => rfl) (fun _ _ => rfl) rfl) $$ [HS HC S4]
  · isplitl [HS]; · iexact HS
    isplitl [HC]; · iexact HC
    iexact S4
  iintro ⟨HS, HC⟩
  iapply (loadMask_wp c 𝒱₀ i 69 hl69 q wm rfl) $$ HM
  iintro HM %w134 %hw134
  have hp134 : stateAt 133 ⟨69, hl69⟩ = St.pending := show stateAt 133 ⟨69, (by decide : (69 : ℕ) < 256)⟩ = St.pending from by decide
  have hn134 : ∀ l : Fin 256, stateAt 134 l = Function.update (stateAt 133) ⟨69, hl69⟩ St.started l := show ∀ l : Fin 256, stateAt 134 l = Function.update (stateAt 133) ⟨69, (by decide : (69 : ℕ) < 256)⟩ St.started l from by decide
  iapply (start_fam c 𝒱₀ arg3 (Memref.whole main_v0_0) i q ai wm hai x3 f 133 69 5 hl69 hj5 rfl hp134 hn134 w134 hw134 k0_cond134 (fun _ => rfl) (k0_chk134 i) (k0_chk134.dec i) (k0_off402 i) (fun _ => rfl) (fun _ _ => rfl) rfl) $$ [HS HC S5]
  · isplitl [HS]; · iexact HS
    isplitl [HC]; · iexact HC
    iexact S5
  iintro ⟨HS, HC⟩
  iapply (loadMask_wp c 𝒱₀ i 70 hl70 q wm rfl) $$ HM
  iintro HM %w135 %hw135
  have hp135 : stateAt 134 ⟨70, hl70⟩ = St.pending := show stateAt 134 ⟨70, (by decide : (70 : ℕ) < 256)⟩ = St.pending from by decide
  have hn135 : ∀ l : Fin 256, stateAt 135 l = Function.update (stateAt 134) ⟨70, hl70⟩ St.started l := show ∀ l : Fin 256, stateAt 135 l = Function.update (stateAt 134) ⟨70, (by decide : (70 : ℕ) < 256)⟩ St.started l from by decide
  iapply (start_fam c 𝒱₀ arg3 (Memref.whole main_v0_0) i q ai wm hai x3 f 134 70 6 hl70 hj6 rfl hp135 hn135 w135 hw135 k0_cond135 (fun _ => rfl) (k0_chk135 i) (k0_chk135.dec i) (k0_off405 i) (fun _ => rfl) (fun _ _ => rfl) rfl) $$ [HS HC S6]
  · isplitl [HS]; · iexact HS
    isplitl [HC]; · iexact HC
    iexact S6
  iintro ⟨HS, HC⟩
  iapply (loadMask_wp c 𝒱₀ i 71 hl71 q wm rfl) $$ HM
  iintro HM %w136 %hw136
  have hp136 : stateAt 135 ⟨71, hl71⟩ = St.pending := show stateAt 135 ⟨71, (by decide : (71 : ℕ) < 256)⟩ = St.pending from by decide
  have hn136 : ∀ l : Fin 256, stateAt 136 l = Function.update (stateAt 135) ⟨71, hl71⟩ St.started l := show ∀ l : Fin 256, stateAt 136 l = Function.update (stateAt 135) ⟨71, (by decide : (71 : ℕ) < 256)⟩ St.started l from by decide
  iapply (start_fam c 𝒱₀ arg3 (Memref.whole main_v0_0) i q ai wm hai x3 f 135 71 7 hl71 hj7 rfl hp136 hn136 w136 hw136 k0_cond136 (fun _ => rfl) (k0_chk136 i) (k0_chk136.dec i) (k0_off408 i) (fun _ => rfl) (fun _ _ => rfl) rfl) $$ [HS HC S7]
  · isplitl [HS]; · iexact HS
    isplitl [HC]; · iexact HC
    iexact S7
  iintro ⟨HS, HC⟩
  iapply (loadMask_wp c 𝒱₀ i 72 hl72 q wm rfl) $$ HM
  iintro HM %w137 %hw137
  have hp137 : stateAt 136 ⟨72, hl72⟩ = St.pending := show stateAt 136 ⟨72, (by decide : (72 : ℕ) < 256)⟩ = St.pending from by decide
  have hn137 : ∀ l : Fin 256, stateAt 137 l = Function.update (stateAt 136) ⟨72, hl72⟩ St.started l := show ∀ l : Fin 256, stateAt 137 l = Function.update (stateAt 136) ⟨72, (by decide : (72 : ℕ) < 256)⟩ St.started l from by decide
  iapply (start_fam c 𝒱₀ arg3 (Memref.whole main_v0_0) i q ai wm hai x3 f 136 72 8 hl72 hj8 rfl hp137 hn137 w137 hw137 k0_cond137 (fun _ => rfl) (k0_chk137 i) (k0_chk137.dec i) (k0_off411 i) (fun _ => rfl) (fun _ _ => rfl) rfl) $$ [HS HC S8]
  · isplitl [HS]; · iexact HS
    isplitl [HC]; · iexact HC
    iexact S8
  iintro ⟨HS, HC⟩
  iapply (loadMask_wp c 𝒱₀ i 73 hl73 q wm rfl) $$ HM
  iintro HM %w138 %hw138
  rw [wp_pure]
  imodintro
  isplitr; · ipureintro; exact hw138
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 24 of the body: steps 138 to 143, and the load of the next step's mask word. -/
theorem part24_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 73 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 137 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part24 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 79 (by decide)⌝ ∗ ((c : Thread nD τ).loc main_call0_v12 ↦{q} ai) ∗ ((c : Thread nD τ).loc main_call0_v13 ↦{q} wm) ∗ cells c arg3 (Memref.whole main_v0_0) i ai wm hai x3 f 143 ∗ semPt c 15 (sem_inb 15 (by decide)) ∗ ∃ W', owes (c : Thread nD τ) 0 W')) := by
  rw [k0_part24_eq_skeleton]; unfold k0_part24_skel
  iintro ⟨HS, HM, HC, S9, S10, S11, S12, S13, S14, S15, HO⟩
  have hl73 : (73 : ℕ) < 256 := by decide
  have hl74 : (74 : ℕ) < 256 := by decide
  have hl75 : (75 : ℕ) < 256 := by decide
  have hl76 : (76 : ℕ) < 256 := by decide
  have hl77 : (77 : ℕ) < 256 := by decide
  have hl78 : (78 : ℕ) < 256 := by decide
  have hl79 : (79 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw138 : w = wordOf wm i 73 hl73 := hw
  have hp138 : stateAt 137 ⟨73, hl73⟩ = St.pending := show stateAt 137 ⟨73, (by decide : (73 : ℕ) < 256)⟩ = St.pending from by decide
  have hn138 : ∀ l : Fin 256, stateAt 138 l = Function.update (stateAt 137) ⟨73, hl73⟩ St.started l := show ∀ l : Fin 256, stateAt 138 l = Function.update (stateAt 137) ⟨73, (by decide : (73 : ℕ) < 256)⟩ St.started l from by decide
  iapply (start_fam c 𝒱₀ arg3 (Memref.whole main_v0_0) i q ai wm hai x3 f 137 73 9 hl73 hj9 rfl hp138 hn138 w hw138 k0_cond138 (fun _ => rfl) (k0_chk138 i) (k0_chk138.dec i) (k0_off414 i) (fun _ => rfl) (fun _ _ => rfl) rfl) $$ [HS HC S9]
  · isplitl [HS]; · iexact HS
    isplitl [HC]; · iexact HC
    iexact S9
  iintro ⟨HS, HC⟩
  iapply (loadMask_wp c 𝒱₀ i 74 hl74 q wm rfl) $$ HM
  iintro HM %w139 %hw139
  have hp139 : stateAt 138 ⟨74, hl74⟩ = St.pending := show stateAt 138 ⟨74, (by decide : (74 : ℕ) < 256)⟩ = St.pending from by decide
  have hn139 : ∀ l : Fin 256, stateAt 139 l = Function.update (stateAt 138) ⟨74, hl74⟩ St.started l := show ∀ l : Fin 256, stateAt 139 l = Function.update (stateAt 138) ⟨74, (by decide : (74 : ℕ) < 256)⟩ St.started l from by decide
  iapply (start_fam c 𝒱₀ arg3 (Memref.whole main_v0_0) i q ai wm hai x3 f 138 74 10 hl74 hj10 rfl hp139 hn139 w139 hw139 k0_cond139 (fun _ => rfl) (k0_chk139 i) (k0_chk139.dec i) (k0_off417 i) (fun _ => rfl) (fun _ _ => rfl) rfl) $$ [HS HC S10]
  · isplitl [HS]; · iexact HS
    isplitl [HC]; · iexact HC
    iexact S10
  iintro ⟨HS, HC⟩
  iapply (loadMask_wp c 𝒱₀ i 75 hl75 q wm rfl) $$ HM
  iintro HM %w140 %hw140
  have hp140 : stateAt 139 ⟨75, hl75⟩ = St.pending := show stateAt 139 ⟨75, (by decide : (75 : ℕ) < 256)⟩ = St.pending from by decide
  have hn140 : ∀ l : Fin 256, stateAt 140 l = Function.update (stateAt 139) ⟨75, hl75⟩ St.started l := show ∀ l : Fin 256, stateAt 140 l = Function.update (stateAt 139) ⟨75, (by decide : (75 : ℕ) < 256)⟩ St.started l from by decide
  iapply (start_fam c 𝒱₀ arg3 (Memref.whole main_v0_0) i q ai wm hai x3 f 139 75 11 hl75 hj11 rfl hp140 hn140 w140 hw140 k0_cond140 (fun _ => rfl) (k0_chk140 i) (k0_chk140.dec i) (k0_off420 i) (fun _ => rfl) (fun _ _ => rfl) rfl) $$ [HS HC S11]
  · isplitl [HS]; · iexact HS
    isplitl [HC]; · iexact HC
    iexact S11
  iintro ⟨HS, HC⟩
  iapply (loadMask_wp c 𝒱₀ i 76 hl76 q wm rfl) $$ HM
  iintro HM %w141 %hw141
  have hp141 : stateAt 140 ⟨76, hl76⟩ = St.pending := show stateAt 140 ⟨76, (by decide : (76 : ℕ) < 256)⟩ = St.pending from by decide
  have hn141 : ∀ l : Fin 256, stateAt 141 l = Function.update (stateAt 140) ⟨76, hl76⟩ St.started l := show ∀ l : Fin 256, stateAt 141 l = Function.update (stateAt 140) ⟨76, (by decide : (76 : ℕ) < 256)⟩ St.started l from by decide
  iapply (start_fam c 𝒱₀ arg3 (Memref.whole main_v0_0) i q ai wm hai x3 f 140 76 12 hl76 hj12 rfl hp141 hn141 w141 hw141 k0_cond141 (fun _ => rfl) (k0_chk141 i) (k0_chk141.dec i) (k0_off423 i) (fun _ => rfl) (fun _ _ => rfl) rfl) $$ [HS HC S12]
  · isplitl [HS]; · iexact HS
    isplitl [HC]; · iexact HC
    iexact S12
  iintro ⟨HS, HC⟩
  iapply (loadMask_wp c 𝒱₀ i 77 hl77 q wm rfl) $$ HM
  iintro HM %w142 %hw142
  have hp142 : stateAt 141 ⟨77, hl77⟩ = St.pending := show stateAt 141 ⟨77, (by decide : (77 : ℕ) < 256)⟩ = St.pending from by decide
  have hn142 : ∀ l : Fin 256, stateAt 142 l = Function.update (stateAt 141) ⟨77, hl77⟩ St.started l := show ∀ l : Fin 256, stateAt 142 l = Function.update (stateAt 141) ⟨77, (by decide : (77 : ℕ) < 256)⟩ St.started l from by decide
  iapply (start_fam c 𝒱₀ arg3 (Memref.whole main_v0_0) i q ai wm hai x3 f 141 77 13 hl77 hj13 rfl hp142 hn142 w142 hw142 k0_cond142 (fun _ => rfl) (k0_chk142 i) (k0_chk142.dec i) (k0_off426 i) (fun _ => rfl) (fun _ _ => rfl) rfl) $$ [HS HC S13]
  · isplitl [HS]; · iexact HS
    isplitl [HC]; · iexact HC
    iexact S13
  iintro ⟨HS, HC⟩
  iapply (loadMask_wp c 𝒱₀ i 78 hl78 q wm rfl) $$ HM
  iintro HM %w143 %hw143
  have hp143 : stateAt 142 ⟨78, hl78⟩ = St.pending := show stateAt 142 ⟨78, (by decide : (78 : ℕ) < 256)⟩ = St.pending from by decide
  have hn143 : ∀ l : Fin 256, stateAt 143 l = Function.update (stateAt 142) ⟨78, hl78⟩ St.started l := show ∀ l : Fin 256, stateAt 143 l = Function.update (stateAt 142) ⟨78, (by decide : (78 : ℕ) < 256)⟩ St.started l from by decide
  iapply (start_fam c 𝒱₀ arg3 (Memref.whole main_v0_0) i q ai wm hai x3 f 142 78 14 hl78 hj14 rfl hp143 hn143 w143 hw143 k0_cond143 (fun _ => rfl) (k0_chk143 i) (k0_chk143.dec i) (k0_off429 i) (fun _ => rfl) (fun _ _ => rfl) rfl) $$ [HS HC S14]
  · isplitl [HS]; · iexact HS
    isplitl [HC]; · iexact HC
    iexact S14
  iintro ⟨HS, HC⟩
  iapply (loadMask_wp c 𝒱₀ i 79 hl79 q wm rfl) $$ HM
  iintro HM %w144 %hw144
  rw [wp_pure]
  imodintro
  isplitr; · ipureintro; exact hw144
  isplitl [HS]; · iexact HS
  isplitl [HM]; · iexact HM
  isplitl [HC]; · iexact HC
  isplitl [S15]; · iexact S15
  iexists _; iexact HO

set_option maxHeartbeats 0 in
/-- Part 25 of the body: steps 144 to 149, and the load of the next step's mask word. -/
theorem part25_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 79 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 143 ∗ semPt c 15 (sem_inb 15 (by decide)) ∗ owes (c : Thread nD τ) 0 W)
      ⊢ wp frame (wpE (defs₀ (F := F)) 𝒱₀ (c : Thread nD τ) none) Set.univ (k0_part25 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 69 (by decide)⌝ ∗ ((c : Thread nD τ).loc main_call0_v12 ↦{q} ai) ∗ ((c : Thread nD τ).loc main_call0_v13 ↦{q} wm) ∗ cells c arg3 (Memref.whole main_v0_0) i ai wm hai x3 f 149 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part25_eq_skeleton]; unfold k0_part25_skel
  iintro ⟨HS, HM, HC, S15, HO⟩
  have hl64 : (64 : ℕ) < 256 := by decide
  have hl65 : (65 : ℕ) < 256 := by decide
  have hl66 : (66 : ℕ) < 256 := by decide
  have hl67 : (67 : ℕ) < 256 := by decide
  have hl68 : (68 : ℕ) < 256 := by decide
  have hl69 : (69 : ℕ) < 256 := by decide
  have hl79 : (79 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw144 : w = wordOf wm i 79 hl79 := hw
  have hp144 : stateAt 143 ⟨79, hl79⟩ = St.pending := show stateAt 143 ⟨79, (by decide : (79 : ℕ) < 256)⟩ = St.pending from by decide
  have hn144 : ∀ l : Fin 256, stateAt 144 l = Function.update (stateAt 143) ⟨79, hl79⟩ St.started l := show ∀ l : Fin 256, stateAt 144 l = Function.update (stateAt 143) ⟨79, (by decide : (79 : ℕ) < 256)⟩ St.started l from by decide
  iapply (start_fam c 𝒱₀ arg3 (Memref.whole main_v0_0) i q ai wm hai x3 f 143 79 15 hl79 hj15 rfl hp144 hn144 w hw144 k0_cond144 (fun _ => rfl) (k0_chk144 i) (k0_chk144.dec i) (k0_off432 i) (fun _ => rfl) (fun _ _ => rfl) rfl) $$ [HS HC S15]
  · isplitl [HS]; · iexact HS
    isplitl [HC]; · iexact HC
    iexact S15
  iintro ⟨HS, HC⟩
  iapply (loadMask_wp c 𝒱₀ i 64 hl64 q wm rfl) $$ HM
  iintro HM %w145 %hw145
  have hp145 : stateAt 144 ⟨64, hl64⟩ = St.started := show stateAt 144 ⟨64, (by decide : (64 : ℕ) < 256)⟩ = St.started from by decide
  have hn145 : ∀ l : Fin 256, stateAt 145 l = Function.update (stateAt 144) ⟨64, hl64⟩ St.done l := show ∀ l : Fin 256, stateAt 145 l = Function.update (stateAt 144) ⟨64, (by decide : (64 : ℕ) < 256)⟩ St.done l from by decide
  iapply (wait_fam c 𝒱₀ arg3 (Memref.whole main_v0_0) i q ai wm hai x3 f 144 64 0 hl64 hj0 rfl hp145 hn145 w145 hw145 (k0_off434 i) rfl (k0_off434_inb i) k0_cond145 (fun _ => rfl) (k0_chk145 i) (k0_chk145.dec i) (k0_off435 i) (fun _ => rfl) (fun _ _ h => h) (k0_off435_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W145, HO⟩
  iapply (loadMask_wp c 𝒱₀ i 65 hl65 q wm rfl) $$ HM
  iintro HM %w146 %hw146
  have hp146 : stateAt 145 ⟨65, hl65⟩ = St.started := show stateAt 145 ⟨65, (by decide : (65 : ℕ) < 256)⟩ = St.started from by decide
  have hn146 : ∀ l : Fin 256, stateAt 146 l = Function.update (stateAt 145) ⟨65, hl65⟩ St.done l := show ∀ l : Fin 256, stateAt 146 l = Function.update (stateAt 145) ⟨65, (by decide : (65 : ℕ) < 256)⟩ St.done l from by decide
  iapply (wait_fam c 𝒱₀ arg3 (Memref.whole main_v0_0) i q ai wm hai x3 f 145 65 1 hl65 hj1 rfl hp146 hn146 w146 hw146 (k0_off437 i) rfl (k0_off437_inb i) k0_cond146 (fun _ => rfl) (k0_chk146 i) (k0_chk146.dec i) (k0_off438 i) (fun _ => rfl) (fun _ _ h => h) (k0_off438_inb i) ((View.wordExact_bits rfl).reshape _ _) (fun _ _ => (View.wordExact_bits rfl).reshape _ _) _ _ W145) $$ [HS HM HC HO]
  · isplitl [HS]; · iexact HS
    isplitl [HM]; · iexact HM
    isplitl [HC]; · iexact HC
    iexact HO
  iintro ⟨HS, HM, HC, S1, %W146, HO⟩
  iapply (loadMask_wp c 𝒱₀ i 66 hl66 q wm rfl) $$ HM
  iintro HM %w147 %hw147
  have hp147 : stateAt 146 ⟨66, hl66⟩ = St.started := show stateAt 146 ⟨66, (by decide : (66 : ℕ) < 256)⟩ = St.started from by decide
  have hn147 : ∀ l : Fin 256, stateAt 147 l = Function.update (stateAt 146) ⟨66, hl66⟩ St.done l := show ∀ l : Fin 256, stateAt 147 l = Function.update (stateAt 146) ⟨66, (by decide : (66 : ℕ) < 256)⟩ St.done l from by decide
  iapply (wait_fam c 𝒱₀ arg3 (Memref.whole main_v0_0) i q ai wm hai x3 f 146 66 2 hl66 hj2 rfl hp147 hn147 w147 hw147 (k0_off440 i) rfl (k0_off440_inb i) k0_cond147 (fun _ => rfl) (k0_chk147 i) (k0_chk147.dec i) (k0_off441 i) (fun _ => rfl) (fun _ _ h => h) (k0_off441_inb i) ((View.wordExact_bits rfl).reshape _ _) (fun _ _ => (View.wordExact_bits rfl).reshape _ _) _ _ W146) $$ [HS HM HC HO]
  · isplitl [HS]; · iexact HS
    isplitl [HM]; · iexact HM
    isplitl [HC]; · iexact HC
    iexact HO
  iintro ⟨HS, HM, HC, S2, %W147, HO⟩
  iapply (loadMask_wp c 𝒱₀ i 67 hl67 q wm rfl) $$ HM
  iintro HM %w148 %hw148
  have hp148 : stateAt 147 ⟨67, hl67⟩ = St.started := show stateAt 147 ⟨67, (by decide : (67 : ℕ) < 256)⟩ = St.started from by decide
  have hn148 : ∀ l : Fin 256, stateAt 148 l = Function.update (stateAt 147) ⟨67, hl67⟩ St.done l := show ∀ l : Fin 256, stateAt 148 l = Function.update (stateAt 147) ⟨67, (by decide : (67 : ℕ) < 256)⟩ St.done l from by decide
  iapply (wait_fam c 𝒱₀ arg3 (Memref.whole main_v0_0) i q ai wm hai x3 f 147 67 3 hl67 hj3 rfl hp148 hn148 w148 hw148 (k0_off443 i) rfl (k0_off443_inb i) k0_cond148 (fun _ => rfl) (k0_chk148 i) (k0_chk148.dec i) (k0_off444 i) (fun _ => rfl) (fun _ _ h => h) (k0_off444_inb i) ((View.wordExact_bits rfl).reshape _ _) (fun _ _ => (View.wordExact_bits rfl).reshape _ _) _ _ W147) $$ [HS HM HC HO]
  · isplitl [HS]; · iexact HS
    isplitl [HM]; · iexact HM
    isplitl [HC]; · iexact HC
    iexact HO
  iintro ⟨HS, HM, HC, S3, %W148, HO⟩
  iapply (loadMask_wp c 𝒱₀ i 68 hl68 q wm rfl) $$ HM
  iintro HM %w149 %hw149
  have hp149 : stateAt 148 ⟨68, hl68⟩ = St.started := show stateAt 148 ⟨68, (by decide : (68 : ℕ) < 256)⟩ = St.started from by decide
  have hn149 : ∀ l : Fin 256, stateAt 149 l = Function.update (stateAt 148) ⟨68, hl68⟩ St.done l := show ∀ l : Fin 256, stateAt 149 l = Function.update (stateAt 148) ⟨68, (by decide : (68 : ℕ) < 256)⟩ St.done l from by decide
  iapply (wait_fam c 𝒱₀ arg3 (Memref.whole main_v0_0) i q ai wm hai x3 f 148 68 4 hl68 hj4 rfl hp149 hn149 w149 hw149 (k0_off446 i) rfl (k0_off446_inb i) k0_cond149 (fun _ => rfl) (k0_chk149 i) (k0_chk149.dec i) (k0_off447 i) (fun _ => rfl) (fun _ _ h => h) (k0_off447_inb i) ((View.wordExact_bits rfl).reshape _ _) (fun _ _ => (View.wordExact_bits rfl).reshape _ _) _ _ W148) $$ [HS HM HC HO]
  · isplitl [HS]; · iexact HS
    isplitl [HM]; · iexact HM
    isplitl [HC]; · iexact HC
    iexact HO
  iintro ⟨HS, HM, HC, S4, %W149, HO⟩
  iapply (loadMask_wp c 𝒱₀ i 69 hl69 q wm rfl) $$ HM
  iintro HM %w150 %hw150
  rw [wp_pure]
  imodintro
  isplitr; · ipureintro; exact hw150
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 26 of the body: steps 150 to 155, and the load of the next step's mask word. -/
theorem part26_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 69 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 149 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part26 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 75 (by decide)⌝ ∗ ((c : Thread nD τ).loc main_call0_v12 ↦{q} ai) ∗ ((c : Thread nD τ).loc main_call0_v13 ↦{q} wm) ∗ cells c arg3 (Memref.whole main_v0_0) i ai wm hai x3 f 155 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part26_eq_skeleton]; unfold k0_part26_skel
  iintro ⟨HS, HM, HC, S0, S1, S2, S3, S4, HO⟩
  have hl69 : (69 : ℕ) < 256 := by decide
  have hl70 : (70 : ℕ) < 256 := by decide
  have hl71 : (71 : ℕ) < 256 := by decide
  have hl72 : (72 : ℕ) < 256 := by decide
  have hl73 : (73 : ℕ) < 256 := by decide
  have hl74 : (74 : ℕ) < 256 := by decide
  have hl75 : (75 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw150 : w = wordOf wm i 69 hl69 := hw
  have hp150 : stateAt 149 ⟨69, hl69⟩ = St.started := show stateAt 149 ⟨69, (by decide : (69 : ℕ) < 256)⟩ = St.started from by decide
  have hn150 : ∀ l : Fin 256, stateAt 150 l = Function.update (stateAt 149) ⟨69, hl69⟩ St.done l := show ∀ l : Fin 256, stateAt 150 l = Function.update (stateAt 149) ⟨69, (by decide : (69 : ℕ) < 256)⟩ St.done l from by decide
  iapply (wait_fam c 𝒱₀ arg3 (Memref.whole main_v0_0) i q ai wm hai x3 f 149 69 5 hl69 hj5 rfl hp150 hn150 w hw150 (k0_off449 i) rfl (k0_off449_inb i) k0_cond150 (fun _ => rfl) (k0_chk150 i) (k0_chk150.dec i) (k0_off450 i) (fun _ => rfl) (fun _ _ h => h) (k0_off450_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W150, HO⟩
  iapply (loadMask_wp c 𝒱₀ i 70 hl70 q wm rfl) $$ HM
  iintro HM %w151 %hw151
  have hp151 : stateAt 150 ⟨70, hl70⟩ = St.started := show stateAt 150 ⟨70, (by decide : (70 : ℕ) < 256)⟩ = St.started from by decide
  have hn151 : ∀ l : Fin 256, stateAt 151 l = Function.update (stateAt 150) ⟨70, hl70⟩ St.done l := show ∀ l : Fin 256, stateAt 151 l = Function.update (stateAt 150) ⟨70, (by decide : (70 : ℕ) < 256)⟩ St.done l from by decide
  iapply (wait_fam c 𝒱₀ arg3 (Memref.whole main_v0_0) i q ai wm hai x3 f 150 70 6 hl70 hj6 rfl hp151 hn151 w151 hw151 (k0_off452 i) rfl (k0_off452_inb i) k0_cond151 (fun _ => rfl) (k0_chk151 i) (k0_chk151.dec i) (k0_off453 i) (fun _ => rfl) (fun _ _ h => h) (k0_off453_inb i) ((View.wordExact_bits rfl).reshape _ _) (fun _ _ => (View.wordExact_bits rfl).reshape _ _) _ _ W150) $$ [HS HM HC HO]
  · isplitl [HS]; · iexact HS
    isplitl [HM]; · iexact HM
    isplitl [HC]; · iexact HC
    iexact HO
  iintro ⟨HS, HM, HC, S6, %W151, HO⟩
  iapply (loadMask_wp c 𝒱₀ i 71 hl71 q wm rfl) $$ HM
  iintro HM %w152 %hw152
  have hp152 : stateAt 151 ⟨71, hl71⟩ = St.started := show stateAt 151 ⟨71, (by decide : (71 : ℕ) < 256)⟩ = St.started from by decide
  have hn152 : ∀ l : Fin 256, stateAt 152 l = Function.update (stateAt 151) ⟨71, hl71⟩ St.done l := show ∀ l : Fin 256, stateAt 152 l = Function.update (stateAt 151) ⟨71, (by decide : (71 : ℕ) < 256)⟩ St.done l from by decide
  iapply (wait_fam c 𝒱₀ arg3 (Memref.whole main_v0_0) i q ai wm hai x3 f 151 71 7 hl71 hj7 rfl hp152 hn152 w152 hw152 (k0_off455 i) rfl (k0_off455_inb i) k0_cond152 (fun _ => rfl) (k0_chk152 i) (k0_chk152.dec i) (k0_off456 i) (fun _ => rfl) (fun _ _ h => h) (k0_off456_inb i) ((View.wordExact_bits rfl).reshape _ _) (fun _ _ => (View.wordExact_bits rfl).reshape _ _) _ _ W151) $$ [HS HM HC HO]
  · isplitl [HS]; · iexact HS
    isplitl [HM]; · iexact HM
    isplitl [HC]; · iexact HC
    iexact HO
  iintro ⟨HS, HM, HC, S7, %W152, HO⟩
  iapply (loadMask_wp c 𝒱₀ i 72 hl72 q wm rfl) $$ HM
  iintro HM %w153 %hw153
  have hp153 : stateAt 152 ⟨72, hl72⟩ = St.started := show stateAt 152 ⟨72, (by decide : (72 : ℕ) < 256)⟩ = St.started from by decide
  have hn153 : ∀ l : Fin 256, stateAt 153 l = Function.update (stateAt 152) ⟨72, hl72⟩ St.done l := show ∀ l : Fin 256, stateAt 153 l = Function.update (stateAt 152) ⟨72, (by decide : (72 : ℕ) < 256)⟩ St.done l from by decide
  iapply (wait_fam c 𝒱₀ arg3 (Memref.whole main_v0_0) i q ai wm hai x3 f 152 72 8 hl72 hj8 rfl hp153 hn153 w153 hw153 (k0_off458 i) rfl (k0_off458_inb i) k0_cond153 (fun _ => rfl) (k0_chk153 i) (k0_chk153.dec i) (k0_off459 i) (fun _ => rfl) (fun _ _ h => h) (k0_off459_inb i) ((View.wordExact_bits rfl).reshape _ _) (fun _ _ => (View.wordExact_bits rfl).reshape _ _) _ _ W152) $$ [HS HM HC HO]
  · isplitl [HS]; · iexact HS
    isplitl [HM]; · iexact HM
    isplitl [HC]; · iexact HC
    iexact HO
  iintro ⟨HS, HM, HC, S8, %W153, HO⟩
  iapply (loadMask_wp c 𝒱₀ i 73 hl73 q wm rfl) $$ HM
  iintro HM %w154 %hw154
  have hp154 : stateAt 153 ⟨73, hl73⟩ = St.started := show stateAt 153 ⟨73, (by decide : (73 : ℕ) < 256)⟩ = St.started from by decide
  have hn154 : ∀ l : Fin 256, stateAt 154 l = Function.update (stateAt 153) ⟨73, hl73⟩ St.done l := show ∀ l : Fin 256, stateAt 154 l = Function.update (stateAt 153) ⟨73, (by decide : (73 : ℕ) < 256)⟩ St.done l from by decide
  iapply (wait_fam c 𝒱₀ arg3 (Memref.whole main_v0_0) i q ai wm hai x3 f 153 73 9 hl73 hj9 rfl hp154 hn154 w154 hw154 (k0_off461 i) rfl (k0_off461_inb i) k0_cond154 (fun _ => rfl) (k0_chk154 i) (k0_chk154.dec i) (k0_off462 i) (fun _ => rfl) (fun _ _ h => h) (k0_off462_inb i) ((View.wordExact_bits rfl).reshape _ _) (fun _ _ => (View.wordExact_bits rfl).reshape _ _) _ _ W153) $$ [HS HM HC HO]
  · isplitl [HS]; · iexact HS
    isplitl [HM]; · iexact HM
    isplitl [HC]; · iexact HC
    iexact HO
  iintro ⟨HS, HM, HC, S9, %W154, HO⟩
  iapply (loadMask_wp c 𝒱₀ i 74 hl74 q wm rfl) $$ HM
  iintro HM %w155 %hw155
  have hp155 : stateAt 154 ⟨74, hl74⟩ = St.started := show stateAt 154 ⟨74, (by decide : (74 : ℕ) < 256)⟩ = St.started from by decide
  have hn155 : ∀ l : Fin 256, stateAt 155 l = Function.update (stateAt 154) ⟨74, hl74⟩ St.done l := show ∀ l : Fin 256, stateAt 155 l = Function.update (stateAt 154) ⟨74, (by decide : (74 : ℕ) < 256)⟩ St.done l from by decide
  iapply (wait_fam c 𝒱₀ arg3 (Memref.whole main_v0_0) i q ai wm hai x3 f 154 74 10 hl74 hj10 rfl hp155 hn155 w155 hw155 (k0_off464 i) rfl (k0_off464_inb i) k0_cond155 (fun _ => rfl) (k0_chk155 i) (k0_chk155.dec i) (k0_off465 i) (fun _ => rfl) (fun _ _ h => h) (k0_off465_inb i) ((View.wordExact_bits rfl).reshape _ _) (fun _ _ => (View.wordExact_bits rfl).reshape _ _) _ _ W154) $$ [HS HM HC HO]
  · isplitl [HS]; · iexact HS
    isplitl [HM]; · iexact HM
    isplitl [HC]; · iexact HC
    iexact HO
  iintro ⟨HS, HM, HC, S10, %W155, HO⟩
  iapply (loadMask_wp c 𝒱₀ i 75 hl75 q wm rfl) $$ HM
  iintro HM %w156 %hw156
  rw [wp_pure]
  imodintro
  isplitr; · ipureintro; exact hw156
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 27 of the body: steps 156 to 161, and the load of the next step's mask word. -/
theorem part27_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 75 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 155 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part27 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 81 (by decide)⌝ ∗ ((c : Thread nD τ).loc main_call0_v12 ↦{q} ai) ∗ ((c : Thread nD τ).loc main_call0_v13 ↦{q} wm) ∗ cells c arg3 (Memref.whole main_v0_0) i ai wm hai x3 f 161 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part27_eq_skeleton]; unfold k0_part27_skel
  iintro ⟨HS, HM, HC, S0, S1, S2, S3, S4, S5, S6, S7, S8, S9, S10, HO⟩
  have hl75 : (75 : ℕ) < 256 := by decide
  have hl76 : (76 : ℕ) < 256 := by decide
  have hl77 : (77 : ℕ) < 256 := by decide
  have hl78 : (78 : ℕ) < 256 := by decide
  have hl79 : (79 : ℕ) < 256 := by decide
  have hl80 : (80 : ℕ) < 256 := by decide
  have hl81 : (81 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw156 : w = wordOf wm i 75 hl75 := hw
  have hp156 : stateAt 155 ⟨75, hl75⟩ = St.started := show stateAt 155 ⟨75, (by decide : (75 : ℕ) < 256)⟩ = St.started from by decide
  have hn156 : ∀ l : Fin 256, stateAt 156 l = Function.update (stateAt 155) ⟨75, hl75⟩ St.done l := show ∀ l : Fin 256, stateAt 156 l = Function.update (stateAt 155) ⟨75, (by decide : (75 : ℕ) < 256)⟩ St.done l from by decide
  iapply (wait_fam c 𝒱₀ arg3 (Memref.whole main_v0_0) i q ai wm hai x3 f 155 75 11 hl75 hj11 rfl hp156 hn156 w hw156 (k0_off467 i) rfl (k0_off467_inb i) k0_cond156 (fun _ => rfl) (k0_chk156 i) (k0_chk156.dec i) (k0_off468 i) (fun _ => rfl) (fun _ _ h => h) (k0_off468_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W156, HO⟩
  iapply (loadMask_wp c 𝒱₀ i 76 hl76 q wm rfl) $$ HM
  iintro HM %w157 %hw157
  have hp157 : stateAt 156 ⟨76, hl76⟩ = St.started := show stateAt 156 ⟨76, (by decide : (76 : ℕ) < 256)⟩ = St.started from by decide
  have hn157 : ∀ l : Fin 256, stateAt 157 l = Function.update (stateAt 156) ⟨76, hl76⟩ St.done l := show ∀ l : Fin 256, stateAt 157 l = Function.update (stateAt 156) ⟨76, (by decide : (76 : ℕ) < 256)⟩ St.done l from by decide
  iapply (wait_fam c 𝒱₀ arg3 (Memref.whole main_v0_0) i q ai wm hai x3 f 156 76 12 hl76 hj12 rfl hp157 hn157 w157 hw157 (k0_off470 i) rfl (k0_off470_inb i) k0_cond157 (fun _ => rfl) (k0_chk157 i) (k0_chk157.dec i) (k0_off471 i) (fun _ => rfl) (fun _ _ h => h) (k0_off471_inb i) ((View.wordExact_bits rfl).reshape _ _) (fun _ _ => (View.wordExact_bits rfl).reshape _ _) _ _ W156) $$ [HS HM HC HO]
  · isplitl [HS]; · iexact HS
    isplitl [HM]; · iexact HM
    isplitl [HC]; · iexact HC
    iexact HO
  iintro ⟨HS, HM, HC, S12, %W157, HO⟩
  iapply (loadMask_wp c 𝒱₀ i 77 hl77 q wm rfl) $$ HM
  iintro HM %w158 %hw158
  have hp158 : stateAt 157 ⟨77, hl77⟩ = St.started := show stateAt 157 ⟨77, (by decide : (77 : ℕ) < 256)⟩ = St.started from by decide
  have hn158 : ∀ l : Fin 256, stateAt 158 l = Function.update (stateAt 157) ⟨77, hl77⟩ St.done l := show ∀ l : Fin 256, stateAt 158 l = Function.update (stateAt 157) ⟨77, (by decide : (77 : ℕ) < 256)⟩ St.done l from by decide
  iapply (wait_fam c 𝒱₀ arg3 (Memref.whole main_v0_0) i q ai wm hai x3 f 157 77 13 hl77 hj13 rfl hp158 hn158 w158 hw158 (k0_off473 i) rfl (k0_off473_inb i) k0_cond158 (fun _ => rfl) (k0_chk158 i) (k0_chk158.dec i) (k0_off474 i) (fun _ => rfl) (fun _ _ h => h) (k0_off474_inb i) ((View.wordExact_bits rfl).reshape _ _) (fun _ _ => (View.wordExact_bits rfl).reshape _ _) _ _ W157) $$ [HS HM HC HO]
  · isplitl [HS]; · iexact HS
    isplitl [HM]; · iexact HM
    isplitl [HC]; · iexact HC
    iexact HO
  iintro ⟨HS, HM, HC, S13, %W158, HO⟩
  iapply (loadMask_wp c 𝒱₀ i 78 hl78 q wm rfl) $$ HM
  iintro HM %w159 %hw159
  have hp159 : stateAt 158 ⟨78, hl78⟩ = St.started := show stateAt 158 ⟨78, (by decide : (78 : ℕ) < 256)⟩ = St.started from by decide
  have hn159 : ∀ l : Fin 256, stateAt 159 l = Function.update (stateAt 158) ⟨78, hl78⟩ St.done l := show ∀ l : Fin 256, stateAt 159 l = Function.update (stateAt 158) ⟨78, (by decide : (78 : ℕ) < 256)⟩ St.done l from by decide
  iapply (wait_fam c 𝒱₀ arg3 (Memref.whole main_v0_0) i q ai wm hai x3 f 158 78 14 hl78 hj14 rfl hp159 hn159 w159 hw159 (k0_off476 i) rfl (k0_off476_inb i) k0_cond159 (fun _ => rfl) (k0_chk159 i) (k0_chk159.dec i) (k0_off477 i) (fun _ => rfl) (fun _ _ h => h) (k0_off477_inb i) ((View.wordExact_bits rfl).reshape _ _) (fun _ _ => (View.wordExact_bits rfl).reshape _ _) _ _ W158) $$ [HS HM HC HO]
  · isplitl [HS]; · iexact HS
    isplitl [HM]; · iexact HM
    isplitl [HC]; · iexact HC
    iexact HO
  iintro ⟨HS, HM, HC, S14, %W159, HO⟩
  iapply (loadMask_wp c 𝒱₀ i 79 hl79 q wm rfl) $$ HM
  iintro HM %w160 %hw160
  have hp160 : stateAt 159 ⟨79, hl79⟩ = St.started := show stateAt 159 ⟨79, (by decide : (79 : ℕ) < 256)⟩ = St.started from by decide
  have hn160 : ∀ l : Fin 256, stateAt 160 l = Function.update (stateAt 159) ⟨79, hl79⟩ St.done l := show ∀ l : Fin 256, stateAt 160 l = Function.update (stateAt 159) ⟨79, (by decide : (79 : ℕ) < 256)⟩ St.done l from by decide
  iapply (wait_fam c 𝒱₀ arg3 (Memref.whole main_v0_0) i q ai wm hai x3 f 159 79 15 hl79 hj15 rfl hp160 hn160 w160 hw160 (k0_off479 i) rfl (k0_off479_inb i) k0_cond160 (fun _ => rfl) (k0_chk160 i) (k0_chk160.dec i) (k0_off480 i) (fun _ => rfl) (fun _ _ h => h) (k0_off480_inb i) ((View.wordExact_bits rfl).reshape _ _) (fun _ _ => (View.wordExact_bits rfl).reshape _ _) _ _ W159) $$ [HS HM HC HO]
  · isplitl [HS]; · iexact HS
    isplitl [HM]; · iexact HM
    isplitl [HC]; · iexact HC
    iexact HO
  iintro ⟨HS, HM, HC, S15, %W160, HO⟩
  iapply (loadMask_wp c 𝒱₀ i 80 hl80 q wm rfl) $$ HM
  iintro HM %w161 %hw161
  have hp161 : stateAt 160 ⟨80, hl80⟩ = St.pending := show stateAt 160 ⟨80, (by decide : (80 : ℕ) < 256)⟩ = St.pending from by decide
  have hn161 : ∀ l : Fin 256, stateAt 161 l = Function.update (stateAt 160) ⟨80, hl80⟩ St.started l := show ∀ l : Fin 256, stateAt 161 l = Function.update (stateAt 160) ⟨80, (by decide : (80 : ℕ) < 256)⟩ St.started l from by decide
  iapply (start_fam c 𝒱₀ arg3 (Memref.whole main_v0_0) i q ai wm hai x3 f 160 80 0 hl80 hj0 rfl hp161 hn161 w161 hw161 k0_cond161 (fun _ => rfl) (k0_chk161 i) (k0_chk161.dec i) (k0_off483 i) (fun _ => rfl) (fun _ _ => rfl) rfl) $$ [HS HC S0]
  · isplitl [HS]; · iexact HS
    isplitl [HC]; · iexact HC
    iexact S0
  iintro ⟨HS, HC⟩
  iapply (loadMask_wp c 𝒱₀ i 81 hl81 q wm rfl) $$ HM
  iintro HM %w162 %hw162
  rw [wp_pure]
  imodintro
  isplitr; · ipureintro; exact hw162
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 28 of the body: steps 162 to 167, and the load of the next step's mask word. -/
theorem part28_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 81 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 161 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part28 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 87 (by decide)⌝ ∗ ((c : Thread nD τ).loc main_call0_v12 ↦{q} ai) ∗ ((c : Thread nD τ).loc main_call0_v13 ↦{q} wm) ∗ cells c arg3 (Memref.whole main_v0_0) i ai wm hai x3 f 167 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part28_eq_skeleton]; unfold k0_part28_skel
  iintro ⟨HS, HM, HC, S1, S2, S3, S4, S5, S6, S7, S8, S9, S10, S11, S12, S13, S14, S15, HO⟩
  have hl81 : (81 : ℕ) < 256 := by decide
  have hl82 : (82 : ℕ) < 256 := by decide
  have hl83 : (83 : ℕ) < 256 := by decide
  have hl84 : (84 : ℕ) < 256 := by decide
  have hl85 : (85 : ℕ) < 256 := by decide
  have hl86 : (86 : ℕ) < 256 := by decide
  have hl87 : (87 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw162 : w = wordOf wm i 81 hl81 := hw
  have hp162 : stateAt 161 ⟨81, hl81⟩ = St.pending := show stateAt 161 ⟨81, (by decide : (81 : ℕ) < 256)⟩ = St.pending from by decide
  have hn162 : ∀ l : Fin 256, stateAt 162 l = Function.update (stateAt 161) ⟨81, hl81⟩ St.started l := show ∀ l : Fin 256, stateAt 162 l = Function.update (stateAt 161) ⟨81, (by decide : (81 : ℕ) < 256)⟩ St.started l from by decide
  iapply (start_fam c 𝒱₀ arg3 (Memref.whole main_v0_0) i q ai wm hai x3 f 161 81 1 hl81 hj1 rfl hp162 hn162 w hw162 k0_cond162 (fun _ => rfl) (k0_chk162 i) (k0_chk162.dec i) (k0_off486 i) (fun _ => rfl) (fun _ _ => rfl) rfl) $$ [HS HC S1]
  · isplitl [HS]; · iexact HS
    isplitl [HC]; · iexact HC
    iexact S1
  iintro ⟨HS, HC⟩
  iapply (loadMask_wp c 𝒱₀ i 82 hl82 q wm rfl) $$ HM
  iintro HM %w163 %hw163
  have hp163 : stateAt 162 ⟨82, hl82⟩ = St.pending := show stateAt 162 ⟨82, (by decide : (82 : ℕ) < 256)⟩ = St.pending from by decide
  have hn163 : ∀ l : Fin 256, stateAt 163 l = Function.update (stateAt 162) ⟨82, hl82⟩ St.started l := show ∀ l : Fin 256, stateAt 163 l = Function.update (stateAt 162) ⟨82, (by decide : (82 : ℕ) < 256)⟩ St.started l from by decide
  iapply (start_fam c 𝒱₀ arg3 (Memref.whole main_v0_0) i q ai wm hai x3 f 162 82 2 hl82 hj2 rfl hp163 hn163 w163 hw163 k0_cond163 (fun _ => rfl) (k0_chk163 i) (k0_chk163.dec i) (k0_off489 i) (fun _ => rfl) (fun _ _ => rfl) rfl) $$ [HS HC S2]
  · isplitl [HS]; · iexact HS
    isplitl [HC]; · iexact HC
    iexact S2
  iintro ⟨HS, HC⟩
  iapply (loadMask_wp c 𝒱₀ i 83 hl83 q wm rfl) $$ HM
  iintro HM %w164 %hw164
  have hp164 : stateAt 163 ⟨83, hl83⟩ = St.pending := show stateAt 163 ⟨83, (by decide : (83 : ℕ) < 256)⟩ = St.pending from by decide
  have hn164 : ∀ l : Fin 256, stateAt 164 l = Function.update (stateAt 163) ⟨83, hl83⟩ St.started l := show ∀ l : Fin 256, stateAt 164 l = Function.update (stateAt 163) ⟨83, (by decide : (83 : ℕ) < 256)⟩ St.started l from by decide
  iapply (start_fam c 𝒱₀ arg3 (Memref.whole main_v0_0) i q ai wm hai x3 f 163 83 3 hl83 hj3 rfl hp164 hn164 w164 hw164 k0_cond164 (fun _ => rfl) (k0_chk164 i) (k0_chk164.dec i) (k0_off492 i) (fun _ => rfl) (fun _ _ => rfl) rfl) $$ [HS HC S3]
  · isplitl [HS]; · iexact HS
    isplitl [HC]; · iexact HC
    iexact S3
  iintro ⟨HS, HC⟩
  iapply (loadMask_wp c 𝒱₀ i 84 hl84 q wm rfl) $$ HM
  iintro HM %w165 %hw165
  have hp165 : stateAt 164 ⟨84, hl84⟩ = St.pending := show stateAt 164 ⟨84, (by decide : (84 : ℕ) < 256)⟩ = St.pending from by decide
  have hn165 : ∀ l : Fin 256, stateAt 165 l = Function.update (stateAt 164) ⟨84, hl84⟩ St.started l := show ∀ l : Fin 256, stateAt 165 l = Function.update (stateAt 164) ⟨84, (by decide : (84 : ℕ) < 256)⟩ St.started l from by decide
  iapply (start_fam c 𝒱₀ arg3 (Memref.whole main_v0_0) i q ai wm hai x3 f 164 84 4 hl84 hj4 rfl hp165 hn165 w165 hw165 k0_cond165 (fun _ => rfl) (k0_chk165 i) (k0_chk165.dec i) (k0_off495 i) (fun _ => rfl) (fun _ _ => rfl) rfl) $$ [HS HC S4]
  · isplitl [HS]; · iexact HS
    isplitl [HC]; · iexact HC
    iexact S4
  iintro ⟨HS, HC⟩
  iapply (loadMask_wp c 𝒱₀ i 85 hl85 q wm rfl) $$ HM
  iintro HM %w166 %hw166
  have hp166 : stateAt 165 ⟨85, hl85⟩ = St.pending := show stateAt 165 ⟨85, (by decide : (85 : ℕ) < 256)⟩ = St.pending from by decide
  have hn166 : ∀ l : Fin 256, stateAt 166 l = Function.update (stateAt 165) ⟨85, hl85⟩ St.started l := show ∀ l : Fin 256, stateAt 166 l = Function.update (stateAt 165) ⟨85, (by decide : (85 : ℕ) < 256)⟩ St.started l from by decide
  iapply (start_fam c 𝒱₀ arg3 (Memref.whole main_v0_0) i q ai wm hai x3 f 165 85 5 hl85 hj5 rfl hp166 hn166 w166 hw166 k0_cond166 (fun _ => rfl) (k0_chk166 i) (k0_chk166.dec i) (k0_off498 i) (fun _ => rfl) (fun _ _ => rfl) rfl) $$ [HS HC S5]
  · isplitl [HS]; · iexact HS
    isplitl [HC]; · iexact HC
    iexact S5
  iintro ⟨HS, HC⟩
  iapply (loadMask_wp c 𝒱₀ i 86 hl86 q wm rfl) $$ HM
  iintro HM %w167 %hw167
  have hp167 : stateAt 166 ⟨86, hl86⟩ = St.pending := show stateAt 166 ⟨86, (by decide : (86 : ℕ) < 256)⟩ = St.pending from by decide
  have hn167 : ∀ l : Fin 256, stateAt 167 l = Function.update (stateAt 166) ⟨86, hl86⟩ St.started l := show ∀ l : Fin 256, stateAt 167 l = Function.update (stateAt 166) ⟨86, (by decide : (86 : ℕ) < 256)⟩ St.started l from by decide
  iapply (start_fam c 𝒱₀ arg3 (Memref.whole main_v0_0) i q ai wm hai x3 f 166 86 6 hl86 hj6 rfl hp167 hn167 w167 hw167 k0_cond167 (fun _ => rfl) (k0_chk167 i) (k0_chk167.dec i) (k0_off501 i) (fun _ => rfl) (fun _ _ => rfl) rfl) $$ [HS HC S6]
  · isplitl [HS]; · iexact HS
    isplitl [HC]; · iexact HC
    iexact S6
  iintro ⟨HS, HC⟩
  iapply (loadMask_wp c 𝒱₀ i 87 hl87 q wm rfl) $$ HM
  iintro HM %w168 %hw168
  rw [wp_pure]
  imodintro
  isplitr; · ipureintro; exact hw168
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 29 of the body: steps 168 to 173, and the load of the next step's mask word. -/
theorem part29_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 87 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 167 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part29 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 93 (by decide)⌝ ∗ ((c : Thread nD τ).loc main_call0_v12 ↦{q} ai) ∗ ((c : Thread nD τ).loc main_call0_v13 ↦{q} wm) ∗ cells c arg3 (Memref.whole main_v0_0) i ai wm hai x3 f 173 ∗ semPt c 13 (sem_inb 13 (by decide)) ∗ semPt c 14 (sem_inb 14 (by decide)) ∗ semPt c 15 (sem_inb 15 (by decide)) ∗ ∃ W', owes (c : Thread nD τ) 0 W')) := by
  rw [k0_part29_eq_skeleton]; unfold k0_part29_skel
  iintro ⟨HS, HM, HC, S7, S8, S9, S10, S11, S12, S13, S14, S15, HO⟩
  have hl87 : (87 : ℕ) < 256 := by decide
  have hl88 : (88 : ℕ) < 256 := by decide
  have hl89 : (89 : ℕ) < 256 := by decide
  have hl90 : (90 : ℕ) < 256 := by decide
  have hl91 : (91 : ℕ) < 256 := by decide
  have hl92 : (92 : ℕ) < 256 := by decide
  have hl93 : (93 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw168 : w = wordOf wm i 87 hl87 := hw
  have hp168 : stateAt 167 ⟨87, hl87⟩ = St.pending := show stateAt 167 ⟨87, (by decide : (87 : ℕ) < 256)⟩ = St.pending from by decide
  have hn168 : ∀ l : Fin 256, stateAt 168 l = Function.update (stateAt 167) ⟨87, hl87⟩ St.started l := show ∀ l : Fin 256, stateAt 168 l = Function.update (stateAt 167) ⟨87, (by decide : (87 : ℕ) < 256)⟩ St.started l from by decide
  iapply (start_fam c 𝒱₀ arg3 (Memref.whole main_v0_0) i q ai wm hai x3 f 167 87 7 hl87 hj7 rfl hp168 hn168 w hw168 k0_cond168 (fun _ => rfl) (k0_chk168 i) (k0_chk168.dec i) (k0_off504 i) (fun _ => rfl) (fun _ _ => rfl) rfl) $$ [HS HC S7]
  · isplitl [HS]; · iexact HS
    isplitl [HC]; · iexact HC
    iexact S7
  iintro ⟨HS, HC⟩
  iapply (loadMask_wp c 𝒱₀ i 88 hl88 q wm rfl) $$ HM
  iintro HM %w169 %hw169
  have hp169 : stateAt 168 ⟨88, hl88⟩ = St.pending := show stateAt 168 ⟨88, (by decide : (88 : ℕ) < 256)⟩ = St.pending from by decide
  have hn169 : ∀ l : Fin 256, stateAt 169 l = Function.update (stateAt 168) ⟨88, hl88⟩ St.started l := show ∀ l : Fin 256, stateAt 169 l = Function.update (stateAt 168) ⟨88, (by decide : (88 : ℕ) < 256)⟩ St.started l from by decide
  iapply (start_fam c 𝒱₀ arg3 (Memref.whole main_v0_0) i q ai wm hai x3 f 168 88 8 hl88 hj8 rfl hp169 hn169 w169 hw169 k0_cond169 (fun _ => rfl) (k0_chk169 i) (k0_chk169.dec i) (k0_off507 i) (fun _ => rfl) (fun _ _ => rfl) rfl) $$ [HS HC S8]
  · isplitl [HS]; · iexact HS
    isplitl [HC]; · iexact HC
    iexact S8
  iintro ⟨HS, HC⟩
  iapply (loadMask_wp c 𝒱₀ i 89 hl89 q wm rfl) $$ HM
  iintro HM %w170 %hw170
  have hp170 : stateAt 169 ⟨89, hl89⟩ = St.pending := show stateAt 169 ⟨89, (by decide : (89 : ℕ) < 256)⟩ = St.pending from by decide
  have hn170 : ∀ l : Fin 256, stateAt 170 l = Function.update (stateAt 169) ⟨89, hl89⟩ St.started l := show ∀ l : Fin 256, stateAt 170 l = Function.update (stateAt 169) ⟨89, (by decide : (89 : ℕ) < 256)⟩ St.started l from by decide
  iapply (start_fam c 𝒱₀ arg3 (Memref.whole main_v0_0) i q ai wm hai x3 f 169 89 9 hl89 hj9 rfl hp170 hn170 w170 hw170 k0_cond170 (fun _ => rfl) (k0_chk170 i) (k0_chk170.dec i) (k0_off510 i) (fun _ => rfl) (fun _ _ => rfl) rfl) $$ [HS HC S9]
  · isplitl [HS]; · iexact HS
    isplitl [HC]; · iexact HC
    iexact S9
  iintro ⟨HS, HC⟩
  iapply (loadMask_wp c 𝒱₀ i 90 hl90 q wm rfl) $$ HM
  iintro HM %w171 %hw171
  have hp171 : stateAt 170 ⟨90, hl90⟩ = St.pending := show stateAt 170 ⟨90, (by decide : (90 : ℕ) < 256)⟩ = St.pending from by decide
  have hn171 : ∀ l : Fin 256, stateAt 171 l = Function.update (stateAt 170) ⟨90, hl90⟩ St.started l := show ∀ l : Fin 256, stateAt 171 l = Function.update (stateAt 170) ⟨90, (by decide : (90 : ℕ) < 256)⟩ St.started l from by decide
  iapply (start_fam c 𝒱₀ arg3 (Memref.whole main_v0_0) i q ai wm hai x3 f 170 90 10 hl90 hj10 rfl hp171 hn171 w171 hw171 k0_cond171 (fun _ => rfl) (k0_chk171 i) (k0_chk171.dec i) (k0_off513 i) (fun _ => rfl) (fun _ _ => rfl) rfl) $$ [HS HC S10]
  · isplitl [HS]; · iexact HS
    isplitl [HC]; · iexact HC
    iexact S10
  iintro ⟨HS, HC⟩
  iapply (loadMask_wp c 𝒱₀ i 91 hl91 q wm rfl) $$ HM
  iintro HM %w172 %hw172
  have hp172 : stateAt 171 ⟨91, hl91⟩ = St.pending := show stateAt 171 ⟨91, (by decide : (91 : ℕ) < 256)⟩ = St.pending from by decide
  have hn172 : ∀ l : Fin 256, stateAt 172 l = Function.update (stateAt 171) ⟨91, hl91⟩ St.started l := show ∀ l : Fin 256, stateAt 172 l = Function.update (stateAt 171) ⟨91, (by decide : (91 : ℕ) < 256)⟩ St.started l from by decide
  iapply (start_fam c 𝒱₀ arg3 (Memref.whole main_v0_0) i q ai wm hai x3 f 171 91 11 hl91 hj11 rfl hp172 hn172 w172 hw172 k0_cond172 (fun _ => rfl) (k0_chk172 i) (k0_chk172.dec i) (k0_off516 i) (fun _ => rfl) (fun _ _ => rfl) rfl) $$ [HS HC S11]
  · isplitl [HS]; · iexact HS
    isplitl [HC]; · iexact HC
    iexact S11
  iintro ⟨HS, HC⟩
  iapply (loadMask_wp c 𝒱₀ i 92 hl92 q wm rfl) $$ HM
  iintro HM %w173 %hw173
  have hp173 : stateAt 172 ⟨92, hl92⟩ = St.pending := show stateAt 172 ⟨92, (by decide : (92 : ℕ) < 256)⟩ = St.pending from by decide
  have hn173 : ∀ l : Fin 256, stateAt 173 l = Function.update (stateAt 172) ⟨92, hl92⟩ St.started l := show ∀ l : Fin 256, stateAt 173 l = Function.update (stateAt 172) ⟨92, (by decide : (92 : ℕ) < 256)⟩ St.started l from by decide
  iapply (start_fam c 𝒱₀ arg3 (Memref.whole main_v0_0) i q ai wm hai x3 f 172 92 12 hl92 hj12 rfl hp173 hn173 w173 hw173 k0_cond173 (fun _ => rfl) (k0_chk173 i) (k0_chk173.dec i) (k0_off519 i) (fun _ => rfl) (fun _ _ => rfl) rfl) $$ [HS HC S12]
  · isplitl [HS]; · iexact HS
    isplitl [HC]; · iexact HC
    iexact S12
  iintro ⟨HS, HC⟩
  iapply (loadMask_wp c 𝒱₀ i 93 hl93 q wm rfl) $$ HM
  iintro HM %w174 %hw174
  rw [wp_pure]
  imodintro
  isplitr; · ipureintro; exact hw174
  isplitl [HS]; · iexact HS
  isplitl [HM]; · iexact HM
  isplitl [HC]; · iexact HC
  isplitl [S13]; · iexact S13
  isplitl [S14]; · iexact S14
  isplitl [S15]; · iexact S15
  iexists _; iexact HO

set_option maxHeartbeats 0 in
/-- Part 30 of the body: steps 174 to 179, and the load of the next step's mask word. -/
theorem part30_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 93 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 173 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part30 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 83 (by decide)⌝ ∗ ((c : Thread nD τ).loc main_call0_v12 ↦{q} ai) ∗ ((c : Thread nD τ).loc main_call0_v13 ↦{q} wm) ∗ cells c arg3 (Memref.whole main_v0_0) i ai wm hai x3 f 179 ∗ semPt c 0 (sem_inb 0 (by decide)) ∗ semPt c 1 (sem_inb 1 (by decide)) ∗ semPt c 2 (sem_inb 2 (by decide)) ∗ ∃ W', owes (c : Thread nD τ) 0 W')) := by
  rw [k0_part30_eq_skeleton]; unfold k0_part30_skel
  iintro ⟨HS, HM, HC, S13, S14, S15, HO⟩
  have hl80 : (80 : ℕ) < 256 := by decide
  have hl81 : (81 : ℕ) < 256 := by decide
  have hl82 : (82 : ℕ) < 256 := by decide
  have hl83 : (83 : ℕ) < 256 := by decide
  have hl93 : (93 : ℕ) < 256 := by decide
  have hl94 : (94 : ℕ) < 256 := by decide
  have hl95 : (95 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw174 : w = wordOf wm i 93 hl93 := hw
  have hp174 : stateAt 173 ⟨93, hl93⟩ = St.pending := show stateAt 173 ⟨93, (by decide : (93 : ℕ) < 256)⟩ = St.pending from by decide
  have hn174 : ∀ l : Fin 256, stateAt 174 l = Function.update (stateAt 173) ⟨93, hl93⟩ St.started l := show ∀ l : Fin 256, stateAt 174 l = Function.update (stateAt 173) ⟨93, (by decide : (93 : ℕ) < 256)⟩ St.started l from by decide
  iapply (start_fam c 𝒱₀ arg3 (Memref.whole main_v0_0) i q ai wm hai x3 f 173 93 13 hl93 hj13 rfl hp174 hn174 w hw174 k0_cond174 (fun _ => rfl) (k0_chk174 i) (k0_chk174.dec i) (k0_off522 i) (fun _ => rfl) (fun _ _ => rfl) rfl) $$ [HS HC S13]
  · isplitl [HS]; · iexact HS
    isplitl [HC]; · iexact HC
    iexact S13
  iintro ⟨HS, HC⟩
  iapply (loadMask_wp c 𝒱₀ i 94 hl94 q wm rfl) $$ HM
  iintro HM %w175 %hw175
  have hp175 : stateAt 174 ⟨94, hl94⟩ = St.pending := show stateAt 174 ⟨94, (by decide : (94 : ℕ) < 256)⟩ = St.pending from by decide
  have hn175 : ∀ l : Fin 256, stateAt 175 l = Function.update (stateAt 174) ⟨94, hl94⟩ St.started l := show ∀ l : Fin 256, stateAt 175 l = Function.update (stateAt 174) ⟨94, (by decide : (94 : ℕ) < 256)⟩ St.started l from by decide
  iapply (start_fam c 𝒱₀ arg3 (Memref.whole main_v0_0) i q ai wm hai x3 f 174 94 14 hl94 hj14 rfl hp175 hn175 w175 hw175 k0_cond175 (fun _ => rfl) (k0_chk175 i) (k0_chk175.dec i) (k0_off525 i) (fun _ => rfl) (fun _ _ => rfl) rfl) $$ [HS HC S14]
  · isplitl [HS]; · iexact HS
    isplitl [HC]; · iexact HC
    iexact S14
  iintro ⟨HS, HC⟩
  iapply (loadMask_wp c 𝒱₀ i 95 hl95 q wm rfl) $$ HM
  iintro HM %w176 %hw176
  have hp176 : stateAt 175 ⟨95, hl95⟩ = St.pending := show stateAt 175 ⟨95, (by decide : (95 : ℕ) < 256)⟩ = St.pending from by decide
  have hn176 : ∀ l : Fin 256, stateAt 176 l = Function.update (stateAt 175) ⟨95, hl95⟩ St.started l := show ∀ l : Fin 256, stateAt 176 l = Function.update (stateAt 175) ⟨95, (by decide : (95 : ℕ) < 256)⟩ St.started l from by decide
  iapply (start_fam c 𝒱₀ arg3 (Memref.whole main_v0_0) i q ai wm hai x3 f 175 95 15 hl95 hj15 rfl hp176 hn176 w176 hw176 k0_cond176 (fun _ => rfl) (k0_chk176 i) (k0_chk176.dec i) (k0_off528 i) (fun _ => rfl) (fun _ _ => rfl) rfl) $$ [HS HC S15]
  · isplitl [HS]; · iexact HS
    isplitl [HC]; · iexact HC
    iexact S15
  iintro ⟨HS, HC⟩
  iapply (loadMask_wp c 𝒱₀ i 80 hl80 q wm rfl) $$ HM
  iintro HM %w177 %hw177
  have hp177 : stateAt 176 ⟨80, hl80⟩ = St.started := show stateAt 176 ⟨80, (by decide : (80 : ℕ) < 256)⟩ = St.started from by decide
  have hn177 : ∀ l : Fin 256, stateAt 177 l = Function.update (stateAt 176) ⟨80, hl80⟩ St.done l := show ∀ l : Fin 256, stateAt 177 l = Function.update (stateAt 176) ⟨80, (by decide : (80 : ℕ) < 256)⟩ St.done l from by decide
  iapply (wait_fam c 𝒱₀ arg3 (Memref.whole main_v0_0) i q ai wm hai x3 f 176 80 0 hl80 hj0 rfl hp177 hn177 w177 hw177 (k0_off530 i) rfl (k0_off530_inb i) k0_cond177 (fun _ => rfl) (k0_chk177 i) (k0_chk177.dec i) (k0_off531 i) (fun _ => rfl) (fun _ _ h => h) (k0_off531_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W177, HO⟩
  iapply (loadMask_wp c 𝒱₀ i 81 hl81 q wm rfl) $$ HM
  iintro HM %w178 %hw178
  have hp178 : stateAt 177 ⟨81, hl81⟩ = St.started := show stateAt 177 ⟨81, (by decide : (81 : ℕ) < 256)⟩ = St.started from by decide
  have hn178 : ∀ l : Fin 256, stateAt 178 l = Function.update (stateAt 177) ⟨81, hl81⟩ St.done l := show ∀ l : Fin 256, stateAt 178 l = Function.update (stateAt 177) ⟨81, (by decide : (81 : ℕ) < 256)⟩ St.done l from by decide
  iapply (wait_fam c 𝒱₀ arg3 (Memref.whole main_v0_0) i q ai wm hai x3 f 177 81 1 hl81 hj1 rfl hp178 hn178 w178 hw178 (k0_off533 i) rfl (k0_off533_inb i) k0_cond178 (fun _ => rfl) (k0_chk178 i) (k0_chk178.dec i) (k0_off534 i) (fun _ => rfl) (fun _ _ h => h) (k0_off534_inb i) ((View.wordExact_bits rfl).reshape _ _) (fun _ _ => (View.wordExact_bits rfl).reshape _ _) _ _ W177) $$ [HS HM HC HO]
  · isplitl [HS]; · iexact HS
    isplitl [HM]; · iexact HM
    isplitl [HC]; · iexact HC
    iexact HO
  iintro ⟨HS, HM, HC, S1, %W178, HO⟩
  iapply (loadMask_wp c 𝒱₀ i 82 hl82 q wm rfl) $$ HM
  iintro HM %w179 %hw179
  have hp179 : stateAt 178 ⟨82, hl82⟩ = St.started := show stateAt 178 ⟨82, (by decide : (82 : ℕ) < 256)⟩ = St.started from by decide
  have hn179 : ∀ l : Fin 256, stateAt 179 l = Function.update (stateAt 178) ⟨82, hl82⟩ St.done l := show ∀ l : Fin 256, stateAt 179 l = Function.update (stateAt 178) ⟨82, (by decide : (82 : ℕ) < 256)⟩ St.done l from by decide
  iapply (wait_fam c 𝒱₀ arg3 (Memref.whole main_v0_0) i q ai wm hai x3 f 178 82 2 hl82 hj2 rfl hp179 hn179 w179 hw179 (k0_off536 i) rfl (k0_off536_inb i) k0_cond179 (fun _ => rfl) (k0_chk179 i) (k0_chk179.dec i) (k0_off537 i) (fun _ => rfl) (fun _ _ h => h) (k0_off537_inb i) ((View.wordExact_bits rfl).reshape _ _) (fun _ _ => (View.wordExact_bits rfl).reshape _ _) _ _ W178) $$ [HS HM HC HO]
  · isplitl [HS]; · iexact HS
    isplitl [HM]; · iexact HM
    isplitl [HC]; · iexact HC
    iexact HO
  iintro ⟨HS, HM, HC, S2, %W179, HO⟩
  iapply (loadMask_wp c 𝒱₀ i 83 hl83 q wm rfl) $$ HM
  iintro HM %w180 %hw180
  rw [wp_pure]
  imodintro
  isplitr; · ipureintro; exact hw180
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 31 of the body: steps 180 to 185, and the load of the next step's mask word. -/
theorem part31_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 83 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 179 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part31 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 89 (by decide)⌝ ∗ ((c : Thread nD τ).loc main_call0_v12 ↦{q} ai) ∗ ((c : Thread nD τ).loc main_call0_v13 ↦{q} wm) ∗ cells c arg3 (Memref.whole main_v0_0) i ai wm hai x3 f 185 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part31_eq_skeleton]; unfold k0_part31_skel
  iintro ⟨HS, HM, HC, S0, S1, S2, HO⟩
  have hl83 : (83 : ℕ) < 256 := by decide
  have hl84 : (84 : ℕ) < 256 := by decide
  have hl85 : (85 : ℕ) < 256 := by decide
  have hl86 : (86 : ℕ) < 256 := by decide
  have hl87 : (87 : ℕ) < 256 := by decide
  have hl88 : (88 : ℕ) < 256 := by decide
  have hl89 : (89 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw180 : w = wordOf wm i 83 hl83 := hw
  have hp180 : stateAt 179 ⟨83, hl83⟩ = St.started := show stateAt 179 ⟨83, (by decide : (83 : ℕ) < 256)⟩ = St.started from by decide
  have hn180 : ∀ l : Fin 256, stateAt 180 l = Function.update (stateAt 179) ⟨83, hl83⟩ St.done l := show ∀ l : Fin 256, stateAt 180 l = Function.update (stateAt 179) ⟨83, (by decide : (83 : ℕ) < 256)⟩ St.done l from by decide
  iapply (wait_fam c 𝒱₀ arg3 (Memref.whole main_v0_0) i q ai wm hai x3 f 179 83 3 hl83 hj3 rfl hp180 hn180 w hw180 (k0_off539 i) rfl (k0_off539_inb i) k0_cond180 (fun _ => rfl) (k0_chk180 i) (k0_chk180.dec i) (k0_off540 i) (fun _ => rfl) (fun _ _ h => h) (k0_off540_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W180, HO⟩
  iapply (loadMask_wp c 𝒱₀ i 84 hl84 q wm rfl) $$ HM
  iintro HM %w181 %hw181
  have hp181 : stateAt 180 ⟨84, hl84⟩ = St.started := show stateAt 180 ⟨84, (by decide : (84 : ℕ) < 256)⟩ = St.started from by decide
  have hn181 : ∀ l : Fin 256, stateAt 181 l = Function.update (stateAt 180) ⟨84, hl84⟩ St.done l := show ∀ l : Fin 256, stateAt 181 l = Function.update (stateAt 180) ⟨84, (by decide : (84 : ℕ) < 256)⟩ St.done l from by decide
  iapply (wait_fam c 𝒱₀ arg3 (Memref.whole main_v0_0) i q ai wm hai x3 f 180 84 4 hl84 hj4 rfl hp181 hn181 w181 hw181 (k0_off542 i) rfl (k0_off542_inb i) k0_cond181 (fun _ => rfl) (k0_chk181 i) (k0_chk181.dec i) (k0_off543 i) (fun _ => rfl) (fun _ _ h => h) (k0_off543_inb i) ((View.wordExact_bits rfl).reshape _ _) (fun _ _ => (View.wordExact_bits rfl).reshape _ _) _ _ W180) $$ [HS HM HC HO]
  · isplitl [HS]; · iexact HS
    isplitl [HM]; · iexact HM
    isplitl [HC]; · iexact HC
    iexact HO
  iintro ⟨HS, HM, HC, S4, %W181, HO⟩
  iapply (loadMask_wp c 𝒱₀ i 85 hl85 q wm rfl) $$ HM
  iintro HM %w182 %hw182
  have hp182 : stateAt 181 ⟨85, hl85⟩ = St.started := show stateAt 181 ⟨85, (by decide : (85 : ℕ) < 256)⟩ = St.started from by decide
  have hn182 : ∀ l : Fin 256, stateAt 182 l = Function.update (stateAt 181) ⟨85, hl85⟩ St.done l := show ∀ l : Fin 256, stateAt 182 l = Function.update (stateAt 181) ⟨85, (by decide : (85 : ℕ) < 256)⟩ St.done l from by decide
  iapply (wait_fam c 𝒱₀ arg3 (Memref.whole main_v0_0) i q ai wm hai x3 f 181 85 5 hl85 hj5 rfl hp182 hn182 w182 hw182 (k0_off545 i) rfl (k0_off545_inb i) k0_cond182 (fun _ => rfl) (k0_chk182 i) (k0_chk182.dec i) (k0_off546 i) (fun _ => rfl) (fun _ _ h => h) (k0_off546_inb i) ((View.wordExact_bits rfl).reshape _ _) (fun _ _ => (View.wordExact_bits rfl).reshape _ _) _ _ W181) $$ [HS HM HC HO]
  · isplitl [HS]; · iexact HS
    isplitl [HM]; · iexact HM
    isplitl [HC]; · iexact HC
    iexact HO
  iintro ⟨HS, HM, HC, S5, %W182, HO⟩
  iapply (loadMask_wp c 𝒱₀ i 86 hl86 q wm rfl) $$ HM
  iintro HM %w183 %hw183
  have hp183 : stateAt 182 ⟨86, hl86⟩ = St.started := show stateAt 182 ⟨86, (by decide : (86 : ℕ) < 256)⟩ = St.started from by decide
  have hn183 : ∀ l : Fin 256, stateAt 183 l = Function.update (stateAt 182) ⟨86, hl86⟩ St.done l := show ∀ l : Fin 256, stateAt 183 l = Function.update (stateAt 182) ⟨86, (by decide : (86 : ℕ) < 256)⟩ St.done l from by decide
  iapply (wait_fam c 𝒱₀ arg3 (Memref.whole main_v0_0) i q ai wm hai x3 f 182 86 6 hl86 hj6 rfl hp183 hn183 w183 hw183 (k0_off548 i) rfl (k0_off548_inb i) k0_cond183 (fun _ => rfl) (k0_chk183 i) (k0_chk183.dec i) (k0_off549 i) (fun _ => rfl) (fun _ _ h => h) (k0_off549_inb i) ((View.wordExact_bits rfl).reshape _ _) (fun _ _ => (View.wordExact_bits rfl).reshape _ _) _ _ W182) $$ [HS HM HC HO]
  · isplitl [HS]; · iexact HS
    isplitl [HM]; · iexact HM
    isplitl [HC]; · iexact HC
    iexact HO
  iintro ⟨HS, HM, HC, S6, %W183, HO⟩
  iapply (loadMask_wp c 𝒱₀ i 87 hl87 q wm rfl) $$ HM
  iintro HM %w184 %hw184
  have hp184 : stateAt 183 ⟨87, hl87⟩ = St.started := show stateAt 183 ⟨87, (by decide : (87 : ℕ) < 256)⟩ = St.started from by decide
  have hn184 : ∀ l : Fin 256, stateAt 184 l = Function.update (stateAt 183) ⟨87, hl87⟩ St.done l := show ∀ l : Fin 256, stateAt 184 l = Function.update (stateAt 183) ⟨87, (by decide : (87 : ℕ) < 256)⟩ St.done l from by decide
  iapply (wait_fam c 𝒱₀ arg3 (Memref.whole main_v0_0) i q ai wm hai x3 f 183 87 7 hl87 hj7 rfl hp184 hn184 w184 hw184 (k0_off551 i) rfl (k0_off551_inb i) k0_cond184 (fun _ => rfl) (k0_chk184 i) (k0_chk184.dec i) (k0_off552 i) (fun _ => rfl) (fun _ _ h => h) (k0_off552_inb i) ((View.wordExact_bits rfl).reshape _ _) (fun _ _ => (View.wordExact_bits rfl).reshape _ _) _ _ W183) $$ [HS HM HC HO]
  · isplitl [HS]; · iexact HS
    isplitl [HM]; · iexact HM
    isplitl [HC]; · iexact HC
    iexact HO
  iintro ⟨HS, HM, HC, S7, %W184, HO⟩
  iapply (loadMask_wp c 𝒱₀ i 88 hl88 q wm rfl) $$ HM
  iintro HM %w185 %hw185
  have hp185 : stateAt 184 ⟨88, hl88⟩ = St.started := show stateAt 184 ⟨88, (by decide : (88 : ℕ) < 256)⟩ = St.started from by decide
  have hn185 : ∀ l : Fin 256, stateAt 185 l = Function.update (stateAt 184) ⟨88, hl88⟩ St.done l := show ∀ l : Fin 256, stateAt 185 l = Function.update (stateAt 184) ⟨88, (by decide : (88 : ℕ) < 256)⟩ St.done l from by decide
  iapply (wait_fam c 𝒱₀ arg3 (Memref.whole main_v0_0) i q ai wm hai x3 f 184 88 8 hl88 hj8 rfl hp185 hn185 w185 hw185 (k0_off554 i) rfl (k0_off554_inb i) k0_cond185 (fun _ => rfl) (k0_chk185 i) (k0_chk185.dec i) (k0_off555 i) (fun _ => rfl) (fun _ _ h => h) (k0_off555_inb i) ((View.wordExact_bits rfl).reshape _ _) (fun _ _ => (View.wordExact_bits rfl).reshape _ _) _ _ W184) $$ [HS HM HC HO]
  · isplitl [HS]; · iexact HS
    isplitl [HM]; · iexact HM
    isplitl [HC]; · iexact HC
    iexact HO
  iintro ⟨HS, HM, HC, S8, %W185, HO⟩
  iapply (loadMask_wp c 𝒱₀ i 89 hl89 q wm rfl) $$ HM
  iintro HM %w186 %hw186
  rw [wp_pure]
  imodintro
  isplitr; · ipureintro; exact hw186
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 32 of the body: steps 186 to 191, and the load of the next step's mask word. -/
theorem part32_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 89 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 185 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part32 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 95 (by decide)⌝ ∗ ((c : Thread nD τ).loc main_call0_v12 ↦{q} ai) ∗ ((c : Thread nD τ).loc main_call0_v13 ↦{q} wm) ∗ cells c arg3 (Memref.whole main_v0_0) i ai wm hai x3 f 191 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part32_eq_skeleton]; unfold k0_part32_skel
  iintro ⟨HS, HM, HC, S0, S1, S2, S3, S4, S5, S6, S7, S8, HO⟩
  have hl89 : (89 : ℕ) < 256 := by decide
  have hl90 : (90 : ℕ) < 256 := by decide
  have hl91 : (91 : ℕ) < 256 := by decide
  have hl92 : (92 : ℕ) < 256 := by decide
  have hl93 : (93 : ℕ) < 256 := by decide
  have hl94 : (94 : ℕ) < 256 := by decide
  have hl95 : (95 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw186 : w = wordOf wm i 89 hl89 := hw
  have hp186 : stateAt 185 ⟨89, hl89⟩ = St.started := show stateAt 185 ⟨89, (by decide : (89 : ℕ) < 256)⟩ = St.started from by decide
  have hn186 : ∀ l : Fin 256, stateAt 186 l = Function.update (stateAt 185) ⟨89, hl89⟩ St.done l := show ∀ l : Fin 256, stateAt 186 l = Function.update (stateAt 185) ⟨89, (by decide : (89 : ℕ) < 256)⟩ St.done l from by decide
  iapply (wait_fam c 𝒱₀ arg3 (Memref.whole main_v0_0) i q ai wm hai x3 f 185 89 9 hl89 hj9 rfl hp186 hn186 w hw186 (k0_off557 i) rfl (k0_off557_inb i) k0_cond186 (fun _ => rfl) (k0_chk186 i) (k0_chk186.dec i) (k0_off558 i) (fun _ => rfl) (fun _ _ h => h) (k0_off558_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W186, HO⟩
  iapply (loadMask_wp c 𝒱₀ i 90 hl90 q wm rfl) $$ HM
  iintro HM %w187 %hw187
  have hp187 : stateAt 186 ⟨90, hl90⟩ = St.started := show stateAt 186 ⟨90, (by decide : (90 : ℕ) < 256)⟩ = St.started from by decide
  have hn187 : ∀ l : Fin 256, stateAt 187 l = Function.update (stateAt 186) ⟨90, hl90⟩ St.done l := show ∀ l : Fin 256, stateAt 187 l = Function.update (stateAt 186) ⟨90, (by decide : (90 : ℕ) < 256)⟩ St.done l from by decide
  iapply (wait_fam c 𝒱₀ arg3 (Memref.whole main_v0_0) i q ai wm hai x3 f 186 90 10 hl90 hj10 rfl hp187 hn187 w187 hw187 (k0_off560 i) rfl (k0_off560_inb i) k0_cond187 (fun _ => rfl) (k0_chk187 i) (k0_chk187.dec i) (k0_off561 i) (fun _ => rfl) (fun _ _ h => h) (k0_off561_inb i) ((View.wordExact_bits rfl).reshape _ _) (fun _ _ => (View.wordExact_bits rfl).reshape _ _) _ _ W186) $$ [HS HM HC HO]
  · isplitl [HS]; · iexact HS
    isplitl [HM]; · iexact HM
    isplitl [HC]; · iexact HC
    iexact HO
  iintro ⟨HS, HM, HC, S10, %W187, HO⟩
  iapply (loadMask_wp c 𝒱₀ i 91 hl91 q wm rfl) $$ HM
  iintro HM %w188 %hw188
  have hp188 : stateAt 187 ⟨91, hl91⟩ = St.started := show stateAt 187 ⟨91, (by decide : (91 : ℕ) < 256)⟩ = St.started from by decide
  have hn188 : ∀ l : Fin 256, stateAt 188 l = Function.update (stateAt 187) ⟨91, hl91⟩ St.done l := show ∀ l : Fin 256, stateAt 188 l = Function.update (stateAt 187) ⟨91, (by decide : (91 : ℕ) < 256)⟩ St.done l from by decide
  iapply (wait_fam c 𝒱₀ arg3 (Memref.whole main_v0_0) i q ai wm hai x3 f 187 91 11 hl91 hj11 rfl hp188 hn188 w188 hw188 (k0_off563 i) rfl (k0_off563_inb i) k0_cond188 (fun _ => rfl) (k0_chk188 i) (k0_chk188.dec i) (k0_off564 i) (fun _ => rfl) (fun _ _ h => h) (k0_off564_inb i) ((View.wordExact_bits rfl).reshape _ _) (fun _ _ => (View.wordExact_bits rfl).reshape _ _) _ _ W187) $$ [HS HM HC HO]
  · isplitl [HS]; · iexact HS
    isplitl [HM]; · iexact HM
    isplitl [HC]; · iexact HC
    iexact HO
  iintro ⟨HS, HM, HC, S11, %W188, HO⟩
  iapply (loadMask_wp c 𝒱₀ i 92 hl92 q wm rfl) $$ HM
  iintro HM %w189 %hw189
  have hp189 : stateAt 188 ⟨92, hl92⟩ = St.started := show stateAt 188 ⟨92, (by decide : (92 : ℕ) < 256)⟩ = St.started from by decide
  have hn189 : ∀ l : Fin 256, stateAt 189 l = Function.update (stateAt 188) ⟨92, hl92⟩ St.done l := show ∀ l : Fin 256, stateAt 189 l = Function.update (stateAt 188) ⟨92, (by decide : (92 : ℕ) < 256)⟩ St.done l from by decide
  iapply (wait_fam c 𝒱₀ arg3 (Memref.whole main_v0_0) i q ai wm hai x3 f 188 92 12 hl92 hj12 rfl hp189 hn189 w189 hw189 (k0_off566 i) rfl (k0_off566_inb i) k0_cond189 (fun _ => rfl) (k0_chk189 i) (k0_chk189.dec i) (k0_off567 i) (fun _ => rfl) (fun _ _ h => h) (k0_off567_inb i) ((View.wordExact_bits rfl).reshape _ _) (fun _ _ => (View.wordExact_bits rfl).reshape _ _) _ _ W188) $$ [HS HM HC HO]
  · isplitl [HS]; · iexact HS
    isplitl [HM]; · iexact HM
    isplitl [HC]; · iexact HC
    iexact HO
  iintro ⟨HS, HM, HC, S12, %W189, HO⟩
  iapply (loadMask_wp c 𝒱₀ i 93 hl93 q wm rfl) $$ HM
  iintro HM %w190 %hw190
  have hp190 : stateAt 189 ⟨93, hl93⟩ = St.started := show stateAt 189 ⟨93, (by decide : (93 : ℕ) < 256)⟩ = St.started from by decide
  have hn190 : ∀ l : Fin 256, stateAt 190 l = Function.update (stateAt 189) ⟨93, hl93⟩ St.done l := show ∀ l : Fin 256, stateAt 190 l = Function.update (stateAt 189) ⟨93, (by decide : (93 : ℕ) < 256)⟩ St.done l from by decide
  iapply (wait_fam c 𝒱₀ arg3 (Memref.whole main_v0_0) i q ai wm hai x3 f 189 93 13 hl93 hj13 rfl hp190 hn190 w190 hw190 (k0_off569 i) rfl (k0_off569_inb i) k0_cond190 (fun _ => rfl) (k0_chk190 i) (k0_chk190.dec i) (k0_off570 i) (fun _ => rfl) (fun _ _ h => h) (k0_off570_inb i) ((View.wordExact_bits rfl).reshape _ _) (fun _ _ => (View.wordExact_bits rfl).reshape _ _) _ _ W189) $$ [HS HM HC HO]
  · isplitl [HS]; · iexact HS
    isplitl [HM]; · iexact HM
    isplitl [HC]; · iexact HC
    iexact HO
  iintro ⟨HS, HM, HC, S13, %W190, HO⟩
  iapply (loadMask_wp c 𝒱₀ i 94 hl94 q wm rfl) $$ HM
  iintro HM %w191 %hw191
  have hp191 : stateAt 190 ⟨94, hl94⟩ = St.started := show stateAt 190 ⟨94, (by decide : (94 : ℕ) < 256)⟩ = St.started from by decide
  have hn191 : ∀ l : Fin 256, stateAt 191 l = Function.update (stateAt 190) ⟨94, hl94⟩ St.done l := show ∀ l : Fin 256, stateAt 191 l = Function.update (stateAt 190) ⟨94, (by decide : (94 : ℕ) < 256)⟩ St.done l from by decide
  iapply (wait_fam c 𝒱₀ arg3 (Memref.whole main_v0_0) i q ai wm hai x3 f 190 94 14 hl94 hj14 rfl hp191 hn191 w191 hw191 (k0_off572 i) rfl (k0_off572_inb i) k0_cond191 (fun _ => rfl) (k0_chk191 i) (k0_chk191.dec i) (k0_off573 i) (fun _ => rfl) (fun _ _ h => h) (k0_off573_inb i) ((View.wordExact_bits rfl).reshape _ _) (fun _ _ => (View.wordExact_bits rfl).reshape _ _) _ _ W190) $$ [HS HM HC HO]
  · isplitl [HS]; · iexact HS
    isplitl [HM]; · iexact HM
    isplitl [HC]; · iexact HC
    iexact HO
  iintro ⟨HS, HM, HC, S14, %W191, HO⟩
  iapply (loadMask_wp c 𝒱₀ i 95 hl95 q wm rfl) $$ HM
  iintro HM %w192 %hw192
  rw [wp_pure]
  imodintro
  isplitr; · ipureintro; exact hw192
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 33 of the body: steps 192 to 197, and the load of the next step's mask word. -/
theorem part33_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 95 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 191 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part33 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 101 (by decide)⌝ ∗ ((c : Thread nD τ).loc main_call0_v12 ↦{q} ai) ∗ ((c : Thread nD τ).loc main_call0_v13 ↦{q} wm) ∗ cells c arg3 (Memref.whole main_v0_0) i ai wm hai x3 f 197 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part33_eq_skeleton]; unfold k0_part33_skel
  iintro ⟨HS, HM, HC, S0, S1, S2, S3, S4, S5, S6, S7, S8, S9, S10, S11, S12, S13, S14, HO⟩
  have hl95 : (95 : ℕ) < 256 := by decide
  have hl96 : (96 : ℕ) < 256 := by decide
  have hl97 : (97 : ℕ) < 256 := by decide
  have hl98 : (98 : ℕ) < 256 := by decide
  have hl99 : (99 : ℕ) < 256 := by decide
  have hl100 : (100 : ℕ) < 256 := by decide
  have hl101 : (101 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw192 : w = wordOf wm i 95 hl95 := hw
  have hp192 : stateAt 191 ⟨95, hl95⟩ = St.started := show stateAt 191 ⟨95, (by decide : (95 : ℕ) < 256)⟩ = St.started from by decide
  have hn192 : ∀ l : Fin 256, stateAt 192 l = Function.update (stateAt 191) ⟨95, hl95⟩ St.done l := show ∀ l : Fin 256, stateAt 192 l = Function.update (stateAt 191) ⟨95, (by decide : (95 : ℕ) < 256)⟩ St.done l from by decide
  iapply (wait_fam c 𝒱₀ arg3 (Memref.whole main_v0_0) i q ai wm hai x3 f 191 95 15 hl95 hj15 rfl hp192 hn192 w hw192 (k0_off575 i) rfl (k0_off575_inb i) k0_cond192 (fun _ => rfl) (k0_chk192 i) (k0_chk192.dec i) (k0_off576 i) (fun _ => rfl) (fun _ _ h => h) (k0_off576_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W192, HO⟩
  iapply (loadMask_wp c 𝒱₀ i 96 hl96 q wm rfl) $$ HM
  iintro HM %w193 %hw193
  have hp193 : stateAt 192 ⟨96, hl96⟩ = St.pending := show stateAt 192 ⟨96, (by decide : (96 : ℕ) < 256)⟩ = St.pending from by decide
  have hn193 : ∀ l : Fin 256, stateAt 193 l = Function.update (stateAt 192) ⟨96, hl96⟩ St.started l := show ∀ l : Fin 256, stateAt 193 l = Function.update (stateAt 192) ⟨96, (by decide : (96 : ℕ) < 256)⟩ St.started l from by decide
  iapply (start_fam c 𝒱₀ arg3 (Memref.whole main_v0_0) i q ai wm hai x3 f 192 96 0 hl96 hj0 rfl hp193 hn193 w193 hw193 k0_cond193 (fun _ => rfl) (k0_chk193 i) (k0_chk193.dec i) (k0_off579 i) (fun _ => rfl) (fun _ _ => rfl) rfl) $$ [HS HC S0]
  · isplitl [HS]; · iexact HS
    isplitl [HC]; · iexact HC
    iexact S0
  iintro ⟨HS, HC⟩
  iapply (loadMask_wp c 𝒱₀ i 97 hl97 q wm rfl) $$ HM
  iintro HM %w194 %hw194
  have hp194 : stateAt 193 ⟨97, hl97⟩ = St.pending := show stateAt 193 ⟨97, (by decide : (97 : ℕ) < 256)⟩ = St.pending from by decide
  have hn194 : ∀ l : Fin 256, stateAt 194 l = Function.update (stateAt 193) ⟨97, hl97⟩ St.started l := show ∀ l : Fin 256, stateAt 194 l = Function.update (stateAt 193) ⟨97, (by decide : (97 : ℕ) < 256)⟩ St.started l from by decide
  iapply (start_fam c 𝒱₀ arg3 (Memref.whole main_v0_0) i q ai wm hai x3 f 193 97 1 hl97 hj1 rfl hp194 hn194 w194 hw194 k0_cond194 (fun _ => rfl) (k0_chk194 i) (k0_chk194.dec i) (k0_off582 i) (fun _ => rfl) (fun _ _ => rfl) rfl) $$ [HS HC S1]
  · isplitl [HS]; · iexact HS
    isplitl [HC]; · iexact HC
    iexact S1
  iintro ⟨HS, HC⟩
  iapply (loadMask_wp c 𝒱₀ i 98 hl98 q wm rfl) $$ HM
  iintro HM %w195 %hw195
  have hp195 : stateAt 194 ⟨98, hl98⟩ = St.pending := show stateAt 194 ⟨98, (by decide : (98 : ℕ) < 256)⟩ = St.pending from by decide
  have hn195 : ∀ l : Fin 256, stateAt 195 l = Function.update (stateAt 194) ⟨98, hl98⟩ St.started l := show ∀ l : Fin 256, stateAt 195 l = Function.update (stateAt 194) ⟨98, (by decide : (98 : ℕ) < 256)⟩ St.started l from by decide
  iapply (start_fam c 𝒱₀ arg3 (Memref.whole main_v0_0) i q ai wm hai x3 f 194 98 2 hl98 hj2 rfl hp195 hn195 w195 hw195 k0_cond195 (fun _ => rfl) (k0_chk195 i) (k0_chk195.dec i) (k0_off585 i) (fun _ => rfl) (fun _ _ => rfl) rfl) $$ [HS HC S2]
  · isplitl [HS]; · iexact HS
    isplitl [HC]; · iexact HC
    iexact S2
  iintro ⟨HS, HC⟩
  iapply (loadMask_wp c 𝒱₀ i 99 hl99 q wm rfl) $$ HM
  iintro HM %w196 %hw196
  have hp196 : stateAt 195 ⟨99, hl99⟩ = St.pending := show stateAt 195 ⟨99, (by decide : (99 : ℕ) < 256)⟩ = St.pending from by decide
  have hn196 : ∀ l : Fin 256, stateAt 196 l = Function.update (stateAt 195) ⟨99, hl99⟩ St.started l := show ∀ l : Fin 256, stateAt 196 l = Function.update (stateAt 195) ⟨99, (by decide : (99 : ℕ) < 256)⟩ St.started l from by decide
  iapply (start_fam c 𝒱₀ arg3 (Memref.whole main_v0_0) i q ai wm hai x3 f 195 99 3 hl99 hj3 rfl hp196 hn196 w196 hw196 k0_cond196 (fun _ => rfl) (k0_chk196 i) (k0_chk196.dec i) (k0_off588 i) (fun _ => rfl) (fun _ _ => rfl) rfl) $$ [HS HC S3]
  · isplitl [HS]; · iexact HS
    isplitl [HC]; · iexact HC
    iexact S3
  iintro ⟨HS, HC⟩
  iapply (loadMask_wp c 𝒱₀ i 100 hl100 q wm rfl) $$ HM
  iintro HM %w197 %hw197
  have hp197 : stateAt 196 ⟨100, hl100⟩ = St.pending := show stateAt 196 ⟨100, (by decide : (100 : ℕ) < 256)⟩ = St.pending from by decide
  have hn197 : ∀ l : Fin 256, stateAt 197 l = Function.update (stateAt 196) ⟨100, hl100⟩ St.started l := show ∀ l : Fin 256, stateAt 197 l = Function.update (stateAt 196) ⟨100, (by decide : (100 : ℕ) < 256)⟩ St.started l from by decide
  iapply (start_fam c 𝒱₀ arg3 (Memref.whole main_v0_0) i q ai wm hai x3 f 196 100 4 hl100 hj4 rfl hp197 hn197 w197 hw197 k0_cond197 (fun _ => rfl) (k0_chk197 i) (k0_chk197.dec i) (k0_off591 i) (fun _ => rfl) (fun _ _ => rfl) rfl) $$ [HS HC S4]
  · isplitl [HS]; · iexact HS
    isplitl [HC]; · iexact HC
    iexact S4
  iintro ⟨HS, HC⟩
  iapply (loadMask_wp c 𝒱₀ i 101 hl101 q wm rfl) $$ HM
  iintro HM %w198 %hw198
  rw [wp_pure]
  imodintro
  isplitr; · ipureintro; exact hw198
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.KernelIdeal.Cells

end
-- ==== Proof.Parts4Ideal.lean ====
/-
  Parts 34 to 44 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyIdeal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 34 of the body: steps 198 to 203, and the load of the next step's mask word. -/
theorem part34_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 101 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 197 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part34 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 107 (by decide)⌝ ∗ ((c : Thread nD τ).loc main_call0_v12 ↦{q} ai) ∗ ((c : Thread nD τ).loc main_call0_v13 ↦{q} wm) ∗ cells c arg3 (Memref.whole main_v0_0) i ai wm hai x3 f 203 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part34_eq_skeleton]; unfold k0_part34_skel
  iintro ⟨HS, HM, HC, S5, S6, S7, S8, S9, S10, S11, S12, S13, S14, S15, HO⟩
  have hl101 : (101 : ℕ) < 256 := by decide
  have hl102 : (102 : ℕ) < 256 := by decide
  have hl103 : (103 : ℕ) < 256 := by decide
  have hl104 : (104 : ℕ) < 256 := by decide
  have hl105 : (105 : ℕ) < 256 := by decide
  have hl106 : (106 : ℕ) < 256 := by decide
  have hl107 : (107 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw198 : w = wordOf wm i 101 hl101 := hw
  have hp198 : stateAt 197 ⟨101, hl101⟩ = St.pending := show stateAt 197 ⟨101, (by decide : (101 : ℕ) < 256)⟩ = St.pending from by decide
  have hn198 : ∀ l : Fin 256, stateAt 198 l = Function.update (stateAt 197) ⟨101, hl101⟩ St.started l := show ∀ l : Fin 256, stateAt 198 l = Function.update (stateAt 197) ⟨101, (by decide : (101 : ℕ) < 256)⟩ St.started l from by decide
  iapply (start_fam c 𝒱₀ arg3 (Memref.whole main_v0_0) i q ai wm hai x3 f 197 101 5 hl101 hj5 rfl hp198 hn198 w hw198 k0_cond198 (fun _ => rfl) (k0_chk198 i) (k0_chk198.dec i) (k0_off594 i) (fun _ => rfl) (fun _ _ => rfl) rfl) $$ [HS HC S5]
  · isplitl [HS]; · iexact HS
    isplitl [HC]; · iexact HC
    iexact S5
  iintro ⟨HS, HC⟩
  iapply (loadMask_wp c 𝒱₀ i 102 hl102 q wm rfl) $$ HM
  iintro HM %w199 %hw199
  have hp199 : stateAt 198 ⟨102, hl102⟩ = St.pending := show stateAt 198 ⟨102, (by decide : (102 : ℕ) < 256)⟩ = St.pending from by decide
  have hn199 : ∀ l : Fin 256, stateAt 199 l = Function.update (stateAt 198) ⟨102, hl102⟩ St.started l := show ∀ l : Fin 256, stateAt 199 l = Function.update (stateAt 198) ⟨102, (by decide : (102 : ℕ) < 256)⟩ St.started l from by decide
  iapply (start_fam c 𝒱₀ arg3 (Memref.whole main_v0_0) i q ai wm hai x3 f 198 102 6 hl102 hj6 rfl hp199 hn199 w199 hw199 k0_cond199 (fun _ => rfl) (k0_chk199 i) (k0_chk199.dec i) (k0_off597 i) (fun _ => rfl) (fun _ _ => rfl) rfl) $$ [HS HC S6]
  · isplitl [HS]; · iexact HS
    isplitl [HC]; · iexact HC
    iexact S6
  iintro ⟨HS, HC⟩
  iapply (loadMask_wp c 𝒱₀ i 103 hl103 q wm rfl) $$ HM
  iintro HM %w200 %hw200
  have hp200 : stateAt 199 ⟨103, hl103⟩ = St.pending := show stateAt 199 ⟨103, (by decide : (103 : ℕ) < 256)⟩ = St.pending from by decide
  have hn200 : ∀ l : Fin 256, stateAt 200 l = Function.update (stateAt 199) ⟨103, hl103⟩ St.started l := show ∀ l : Fin 256, stateAt 200 l = Function.update (stateAt 199) ⟨103, (by decide : (103 : ℕ) < 256)⟩ St.started l from by decide
  iapply (start_fam c 𝒱₀ arg3 (Memref.whole main_v0_0) i q ai wm hai x3 f 199 103 7 hl103 hj7 rfl hp200 hn200 w200 hw200 k0_cond200 (fun _ => rfl) (k0_chk200 i) (k0_chk200.dec i) (k0_off600 i) (fun _ => rfl) (fun _ _ => rfl) rfl) $$ [HS HC S7]
  · isplitl [HS]; · iexact HS
    isplitl [HC]; · iexact HC
    iexact S7
  iintro ⟨HS, HC⟩
  iapply (loadMask_wp c 𝒱₀ i 104 hl104 q wm rfl) $$ HM
  iintro HM %w201 %hw201
  have hp201 : stateAt 200 ⟨104, hl104⟩ = St.pending := show stateAt 200 ⟨104, (by decide : (104 : ℕ) < 256)⟩ = St.pending from by decide
  have hn201 : ∀ l : Fin 256, stateAt 201 l = Function.update (stateAt 200) ⟨104, hl104⟩ St.started l := show ∀ l : Fin 256, stateAt 201 l = Function.update (stateAt 200) ⟨104, (by decide : (104 : ℕ) < 256)⟩ St.started l from by decide
  iapply (start_fam c 𝒱₀ arg3 (Memref.whole main_v0_0) i q ai wm hai x3 f 200 104 8 hl104 hj8 rfl hp201 hn201 w201 hw201 k0_cond201 (fun _ => rfl) (k0_chk201 i) (k0_chk201.dec i) (k0_off603 i) (fun _ => rfl) (fun _ _ => rfl) rfl) $$ [HS HC S8]
  · isplitl [HS]; · iexact HS
    isplitl [HC]; · iexact HC
    iexact S8
  iintro ⟨HS, HC⟩
  iapply (loadMask_wp c 𝒱₀ i 105 hl105 q wm rfl) $$ HM
  iintro HM %w202 %hw202
  have hp202 : stateAt 201 ⟨105, hl105⟩ = St.pending := show stateAt 201 ⟨105, (by decide : (105 : ℕ) < 256)⟩ = St.pending from by decide
  have hn202 : ∀ l : Fin 256, stateAt 202 l = Function.update (stateAt 201) ⟨105, hl105⟩ St.started l := show ∀ l : Fin 256, stateAt 202 l = Function.update (stateAt 201) ⟨105, (by decide : (105 : ℕ) < 256)⟩ St.started l from by decide
  iapply (start_fam c 𝒱₀ arg3 (Memref.whole main_v0_0) i q ai wm hai x3 f 201 105 9 hl105 hj9 rfl hp202 hn202 w202 hw202 k0_cond202 (fun _ => rfl) (k0_chk202 i) (k0_chk202.dec i) (k0_off606 i) (fun _ => rfl) (fun _ _ => rfl) rfl) $$ [HS HC S9]
  · isplitl [HS]; · iexact HS
    isplitl [HC]; · iexact HC
    iexact S9
  iintro ⟨HS, HC⟩
  iapply (loadMask_wp c 𝒱₀ i 106 hl106 q wm rfl) $$ HM
  iintro HM %w203 %hw203
  have hp203 : stateAt 202 ⟨106, hl106⟩ = St.pending := show stateAt 202 ⟨106, (by decide : (106 : ℕ) < 256)⟩ = St.pending from by decide
  have hn203 : ∀ l : Fin 256, stateAt 203 l = Function.update (stateAt 202) ⟨106, hl106⟩ St.started l := show ∀ l : Fin 256, stateAt 203 l = Function.update (stateAt 202) ⟨106, (by decide : (106 : ℕ) < 256)⟩ St.started l from by decide
  iapply (start_fam c 𝒱₀ arg3 (Memref.whole main_v0_0) i q ai wm hai x3 f 202 106 10 hl106 hj10 rfl hp203 hn203 w203 hw203 k0_cond203 (fun _ => rfl) (k0_chk203 i) (k0_chk203.dec i) (k0_off609 i) (fun _ => rfl) (fun _ _ => rfl) rfl) $$ [HS HC S10]
  · isplitl [HS]; · iexact HS
    isplitl [HC]; · iexact HC
    iexact S10
  iintro ⟨HS, HC⟩
  iapply (loadMask_wp c 𝒱₀ i 107 hl107 q wm rfl) $$ HM
  iintro HM %w204 %hw204
  rw [wp_pure]
  imodintro
  isplitr; · ipureintro; exact hw204
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 35 of the body: steps 204 to 209, and the load of the next step's mask word. -/
theorem part35_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 107 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 203 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part35 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 97 (by decide)⌝ ∗ ((c : Thread nD τ).loc main_call0_v12 ↦{q} ai) ∗ ((c : Thread nD τ).loc main_call0_v13 ↦{q} wm) ∗ cells c arg3 (Memref.whole main_v0_0) i ai wm hai x3 f 209 ∗ semPt c 0 (sem_inb 0 (by decide)) ∗ ∃ W', owes (c : Thread nD τ) 0 W')) := by
  rw [k0_part35_eq_skeleton]; unfold k0_part35_skel
  iintro ⟨HS, HM, HC, S11, S12, S13, S14, S15, HO⟩
  have hl96 : (96 : ℕ) < 256 := by decide
  have hl97 : (97 : ℕ) < 256 := by decide
  have hl107 : (107 : ℕ) < 256 := by decide
  have hl108 : (108 : ℕ) < 256 := by decide
  have hl109 : (109 : ℕ) < 256 := by decide
  have hl110 : (110 : ℕ) < 256 := by decide
  have hl111 : (111 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw204 : w = wordOf wm i 107 hl107 := hw
  have hp204 : stateAt 203 ⟨107, hl107⟩ = St.pending := show stateAt 203 ⟨107, (by decide : (107 : ℕ) < 256)⟩ = St.pending from by decide
  have hn204 : ∀ l : Fin 256, stateAt 204 l = Function.update (stateAt 203) ⟨107, hl107⟩ St.started l := show ∀ l : Fin 256, stateAt 204 l = Function.update (stateAt 203) ⟨107, (by decide : (107 : ℕ) < 256)⟩ St.started l from by decide
  iapply (start_fam c 𝒱₀ arg3 (Memref.whole main_v0_0) i q ai wm hai x3 f 203 107 11 hl107 hj11 rfl hp204 hn204 w hw204 k0_cond204 (fun _ => rfl) (k0_chk204 i) (k0_chk204.dec i) (k0_off612 i) (fun _ => rfl) (fun _ _ => rfl) rfl) $$ [HS HC S11]
  · isplitl [HS]; · iexact HS
    isplitl [HC]; · iexact HC
    iexact S11
  iintro ⟨HS, HC⟩
  iapply (loadMask_wp c 𝒱₀ i 108 hl108 q wm rfl) $$ HM
  iintro HM %w205 %hw205
  have hp205 : stateAt 204 ⟨108, hl108⟩ = St.pending := show stateAt 204 ⟨108, (by decide : (108 : ℕ) < 256)⟩ = St.pending from by decide
  have hn205 : ∀ l : Fin 256, stateAt 205 l = Function.update (stateAt 204) ⟨108, hl108⟩ St.started l := show ∀ l : Fin 256, stateAt 205 l = Function.update (stateAt 204) ⟨108, (by decide : (108 : ℕ) < 256)⟩ St.started l from by decide
  iapply (start_fam c 𝒱₀ arg3 (Memref.whole main_v0_0) i q ai wm hai x3 f 204 108 12 hl108 hj12 rfl hp205 hn205 w205 hw205 k0_cond205 (fun _ => rfl) (k0_chk205 i) (k0_chk205.dec i) (k0_off615 i) (fun _ => rfl) (fun _ _ => rfl) rfl) $$ [HS HC S12]
  · isplitl [HS]; · iexact HS
    isplitl [HC]; · iexact HC
    iexact S12
  iintro ⟨HS, HC⟩
  iapply (loadMask_wp c 𝒱₀ i 109 hl109 q wm rfl) $$ HM
  iintro HM %w206 %hw206
  have hp206 : stateAt 205 ⟨109, hl109⟩ = St.pending := show stateAt 205 ⟨109, (by decide : (109 : ℕ) < 256)⟩ = St.pending from by decide
  have hn206 : ∀ l : Fin 256, stateAt 206 l = Function.update (stateAt 205) ⟨109, hl109⟩ St.started l := show ∀ l : Fin 256, stateAt 206 l = Function.update (stateAt 205) ⟨109, (by decide : (109 : ℕ) < 256)⟩ St.started l from by decide
  iapply (start_fam c 𝒱₀ arg3 (Memref.whole main_v0_0) i q ai wm hai x3 f 205 109 13 hl109 hj13 rfl hp206 hn206 w206 hw206 k0_cond206 (fun _ => rfl) (k0_chk206 i) (k0_chk206.dec i) (k0_off618 i) (fun _ => rfl) (fun _ _ => rfl) rfl) $$ [HS HC S13]
  · isplitl [HS]; · iexact HS
    isplitl [HC]; · iexact HC
    iexact S13
  iintro ⟨HS, HC⟩
  iapply (loadMask_wp c 𝒱₀ i 110 hl110 q wm rfl) $$ HM
  iintro HM %w207 %hw207
  have hp207 : stateAt 206 ⟨110, hl110⟩ = St.pending := show stateAt 206 ⟨110, (by decide : (110 : ℕ) < 256)⟩ = St.pending from by decide
  have hn207 : ∀ l : Fin 256, stateAt 207 l = Function.update (stateAt 206) ⟨110, hl110⟩ St.started l := show ∀ l : Fin 256, stateAt 207 l = Function.update (stateAt 206) ⟨110, (by decide : (110 : ℕ) < 256)⟩ St.started l from by decide
  iapply (start_fam c 𝒱₀ arg3 (Memref.whole main_v0_0) i q ai wm hai x3 f 206 110 14 hl110 hj14 rfl hp207 hn207 w207 hw207 k0_cond207 (fun _ => rfl) (k0_chk207 i) (k0_chk207.dec i) (k0_off621 i) (fun _ => rfl) (fun _ _ => rfl) rfl) $$ [HS HC S14]
  · isplitl [HS]; · iexact HS
    isplitl [HC]; · iexact HC
    iexact S14
  iintro ⟨HS, HC⟩
  iapply (loadMask_wp c 𝒱₀ i 111 hl111 q wm rfl) $$ HM
  iintro HM %w208 %hw208
  have hp208 : stateAt 207 ⟨111, hl111⟩ = St.pending := show stateAt 207 ⟨111, (by decide : (111 : ℕ) < 256)⟩ = St.pending from by decide
  have hn208 : ∀ l : Fin 256, stateAt 208 l = Function.update (stateAt 207) ⟨111, hl111⟩ St.started l := show ∀ l : Fin 256, stateAt 208 l = Function.update (stateAt 207) ⟨111, (by decide : (111 : ℕ) < 256)⟩ St.started l from by decide
  iapply (start_fam c 𝒱₀ arg3 (Memref.whole main_v0_0) i q ai wm hai x3 f 207 111 15 hl111 hj15 rfl hp208 hn208 w208 hw208 k0_cond208 (fun _ => rfl) (k0_chk208 i) (k0_chk208.dec i) (k0_off624 i) (fun _ => rfl) (fun _ _ => rfl) rfl) $$ [HS HC S15]
  · isplitl [HS]; · iexact HS
    isplitl [HC]; · iexact HC
    iexact S15
  iintro ⟨HS, HC⟩
  iapply (loadMask_wp c 𝒱₀ i 96 hl96 q wm rfl) $$ HM
  iintro HM %w209 %hw209
  have hp209 : stateAt 208 ⟨96, hl96⟩ = St.started := show stateAt 208 ⟨96, (by decide : (96 : ℕ) < 256)⟩ = St.started from by decide
  have hn209 : ∀ l : Fin 256, stateAt 209 l = Function.update (stateAt 208) ⟨96, hl96⟩ St.done l := show ∀ l : Fin 256, stateAt 209 l = Function.update (stateAt 208) ⟨96, (by decide : (96 : ℕ) < 256)⟩ St.done l from by decide
  iapply (wait_fam c 𝒱₀ arg3 (Memref.whole main_v0_0) i q ai wm hai x3 f 208 96 0 hl96 hj0 rfl hp209 hn209 w209 hw209 (k0_off626 i) rfl (k0_off626_inb i) k0_cond209 (fun _ => rfl) (k0_chk209 i) (k0_chk209.dec i) (k0_off627 i) (fun _ => rfl) (fun _ _ h => h) (k0_off627_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W209, HO⟩
  iapply (loadMask_wp c 𝒱₀ i 97 hl97 q wm rfl) $$ HM
  iintro HM %w210 %hw210
  rw [wp_pure]
  imodintro
  isplitr; · ipureintro; exact hw210
  isplitl [HS]; · iexact HS
  isplitl [HM]; · iexact HM
  isplitl [HC]; · iexact HC
  isplitl [S0]; · iexact S0
  iexists _; iexact HO

set_option maxHeartbeats 0 in
/-- Part 36 of the body: steps 210 to 215, and the load of the next step's mask word. -/
theorem part36_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 97 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 209 ∗ semPt c 0 (sem_inb 0 (by decide)) ∗ owes (c : Thread nD τ) 0 W)
      ⊢ wp frame (wpE (defs₀ (F := F)) 𝒱₀ (c : Thread nD τ) none) Set.univ (k0_part36 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 103 (by decide)⌝ ∗ ((c : Thread nD τ).loc main_call0_v12 ↦{q} ai) ∗ ((c : Thread nD τ).loc main_call0_v13 ↦{q} wm) ∗ cells c arg3 (Memref.whole main_v0_0) i ai wm hai x3 f 215 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part36_eq_skeleton]; unfold k0_part36_skel
  iintro ⟨HS, HM, HC, S0, HO⟩
  have hl97 : (97 : ℕ) < 256 := by decide
  have hl98 : (98 : ℕ) < 256 := by decide
  have hl99 : (99 : ℕ) < 256 := by decide
  have hl100 : (100 : ℕ) < 256 := by decide
  have hl101 : (101 : ℕ) < 256 := by decide
  have hl102 : (102 : ℕ) < 256 := by decide
  have hl103 : (103 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw210 : w = wordOf wm i 97 hl97 := hw
  have hp210 : stateAt 209 ⟨97, hl97⟩ = St.started := show stateAt 209 ⟨97, (by decide : (97 : ℕ) < 256)⟩ = St.started from by decide
  have hn210 : ∀ l : Fin 256, stateAt 210 l = Function.update (stateAt 209) ⟨97, hl97⟩ St.done l := show ∀ l : Fin 256, stateAt 210 l = Function.update (stateAt 209) ⟨97, (by decide : (97 : ℕ) < 256)⟩ St.done l from by decide
  iapply (wait_fam c 𝒱₀ arg3 (Memref.whole main_v0_0) i q ai wm hai x3 f 209 97 1 hl97 hj1 rfl hp210 hn210 w hw210 (k0_off629 i) rfl (k0_off629_inb i) k0_cond210 (fun _ => rfl) (k0_chk210 i) (k0_chk210.dec i) (k0_off630 i) (fun _ => rfl) (fun _ _ h => h) (k0_off630_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W210, HO⟩
  iapply (loadMask_wp c 𝒱₀ i 98 hl98 q wm rfl) $$ HM
  iintro HM %w211 %hw211
  have hp211 : stateAt 210 ⟨98, hl98⟩ = St.started := show stateAt 210 ⟨98, (by decide : (98 : ℕ) < 256)⟩ = St.started from by decide
  have hn211 : ∀ l : Fin 256, stateAt 211 l = Function.update (stateAt 210) ⟨98, hl98⟩ St.done l := show ∀ l : Fin 256, stateAt 211 l = Function.update (stateAt 210) ⟨98, (by decide : (98 : ℕ) < 256)⟩ St.done l from by decide
  iapply (wait_fam c 𝒱₀ arg3 (Memref.whole main_v0_0) i q ai wm hai x3 f 210 98 2 hl98 hj2 rfl hp211 hn211 w211 hw211 (k0_off632 i) rfl (k0_off632_inb i) k0_cond211 (fun _ => rfl) (k0_chk211 i) (k0_chk211.dec i) (k0_off633 i) (fun _ => rfl) (fun _ _ h => h) (k0_off633_inb i) ((View.wordExact_bits rfl).reshape _ _) (fun _ _ => (View.wordExact_bits rfl).reshape _ _) _ _ W210) $$ [HS HM HC HO]
  · isplitl [HS]; · iexact HS
    isplitl [HM]; · iexact HM
    isplitl [HC]; · iexact HC
    iexact HO
  iintro ⟨HS, HM, HC, S2, %W211, HO⟩
  iapply (loadMask_wp c 𝒱₀ i 99 hl99 q wm rfl) $$ HM
  iintro HM %w212 %hw212
  have hp212 : stateAt 211 ⟨99, hl99⟩ = St.started := show stateAt 211 ⟨99, (by decide : (99 : ℕ) < 256)⟩ = St.started from by decide
  have hn212 : ∀ l : Fin 256, stateAt 212 l = Function.update (stateAt 211) ⟨99, hl99⟩ St.done l := show ∀ l : Fin 256, stateAt 212 l = Function.update (stateAt 211) ⟨99, (by decide : (99 : ℕ) < 256)⟩ St.done l from by decide
  iapply (wait_fam c 𝒱₀ arg3 (Memref.whole main_v0_0) i q ai wm hai x3 f 211 99 3 hl99 hj3 rfl hp212 hn212 w212 hw212 (k0_off635 i) rfl (k0_off635_inb i) k0_cond212 (fun _ => rfl) (k0_chk212 i) (k0_chk212.dec i) (k0_off636 i) (fun _ => rfl) (fun _ _ h => h) (k0_off636_inb i) ((View.wordExact_bits rfl).reshape _ _) (fun _ _ => (View.wordExact_bits rfl).reshape _ _) _ _ W211) $$ [HS HM HC HO]
  · isplitl [HS]; · iexact HS
    isplitl [HM]; · iexact HM
    isplitl [HC]; · iexact HC
    iexact HO
  iintro ⟨HS, HM, HC, S3, %W212, HO⟩
  iapply (loadMask_wp c 𝒱₀ i 100 hl100 q wm rfl) $$ HM
  iintro HM %w213 %hw213
  have hp213 : stateAt 212 ⟨100, hl100⟩ = St.started := show stateAt 212 ⟨100, (by decide : (100 : ℕ) < 256)⟩ = St.started from by decide
  have hn213 : ∀ l : Fin 256, stateAt 213 l = Function.update (stateAt 212) ⟨100, hl100⟩ St.done l := show ∀ l : Fin 256, stateAt 213 l = Function.update (stateAt 212) ⟨100, (by decide : (100 : ℕ) < 256)⟩ St.done l from by decide
  iapply (wait_fam c 𝒱₀ arg3 (Memref.whole main_v0_0) i q ai wm hai x3 f 212 100 4 hl100 hj4 rfl hp213 hn213 w213 hw213 (k0_off638 i) rfl (k0_off638_inb i) k0_cond213 (fun _ => rfl) (k0_chk213 i) (k0_chk213.dec i) (k0_off639 i) (fun _ => rfl) (fun _ _ h => h) (k0_off639_inb i) ((View.wordExact_bits rfl).reshape _ _) (fun _ _ => (View.wordExact_bits rfl).reshape _ _) _ _ W212) $$ [HS HM HC HO]
  · isplitl [HS]; · iexact HS
    isplitl [HM]; · iexact HM
    isplitl [HC]; · iexact HC
    iexact HO
  iintro ⟨HS, HM, HC, S4, %W213, HO⟩
  iapply (loadMask_wp c 𝒱₀ i 101 hl101 q wm rfl) $$ HM
  iintro HM %w214 %hw214
  have hp214 : stateAt 213 ⟨101, hl101⟩ = St.started := show stateAt 213 ⟨101, (by decide : (101 : ℕ) < 256)⟩ = St.started from by decide
  have hn214 : ∀ l : Fin 256, stateAt 214 l = Function.update (stateAt 213) ⟨101, hl101⟩ St.done l := show ∀ l : Fin 256, stateAt 214 l = Function.update (stateAt 213) ⟨101, (by decide : (101 : ℕ) < 256)⟩ St.done l from by decide
  iapply (wait_fam c 𝒱₀ arg3 (Memref.whole main_v0_0) i q ai wm hai x3 f 213 101 5 hl101 hj5 rfl hp214 hn214 w214 hw214 (k0_off641 i) rfl (k0_off641_inb i) k0_cond214 (fun _ => rfl) (k0_chk214 i) (k0_chk214.dec i) (k0_off642 i) (fun _ => rfl) (fun _ _ h => h) (k0_off642_inb i) ((View.wordExact_bits rfl).reshape _ _) (fun _ _ => (View.wordExact_bits rfl).reshape _ _) _ _ W213) $$ [HS HM HC HO]
  · isplitl [HS]; · iexact HS
    isplitl [HM]; · iexact HM
    isplitl [HC]; · iexact HC
    iexact HO
  iintro ⟨HS, HM, HC, S5, %W214, HO⟩
  iapply (loadMask_wp c 𝒱₀ i 102 hl102 q wm rfl) $$ HM
  iintro HM %w215 %hw215
  have hp215 : stateAt 214 ⟨102, hl102⟩ = St.started := show stateAt 214 ⟨102, (by decide : (102 : ℕ) < 256)⟩ = St.started from by decide
  have hn215 : ∀ l : Fin 256, stateAt 215 l = Function.update (stateAt 214) ⟨102, hl102⟩ St.done l := show ∀ l : Fin 256, stateAt 215 l = Function.update (stateAt 214) ⟨102, (by decide : (102 : ℕ) < 256)⟩ St.done l from by decide
  iapply (wait_fam c 𝒱₀ arg3 (Memref.whole main_v0_0) i q ai wm hai x3 f 214 102 6 hl102 hj6 rfl hp215 hn215 w215 hw215 (k0_off644 i) rfl (k0_off644_inb i) k0_cond215 (fun _ => rfl) (k0_chk215 i) (k0_chk215.dec i) (k0_off645 i) (fun _ => rfl) (fun _ _ h => h) (k0_off645_inb i) ((View.wordExact_bits rfl).reshape _ _) (fun _ _ => (View.wordExact_bits rfl).reshape _ _) _ _ W214) $$ [HS HM HC HO]
  · isplitl [HS]; · iexact HS
    isplitl [HM]; · iexact HM
    isplitl [HC]; · iexact HC
    iexact HO
  iintro ⟨HS, HM, HC, S6, %W215, HO⟩
  iapply (loadMask_wp c 𝒱₀ i 103 hl103 q wm rfl) $$ HM
  iintro HM %w216 %hw216
  rw [wp_pure]
  imodintro
  isplitr; · ipureintro; exact hw216
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 37 of the body: steps 216 to 221, and the load of the next step's mask word. -/
theorem part37_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 103 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 215 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part37 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 109 (by decide)⌝ ∗ ((c : Thread nD τ).loc main_call0_v12 ↦{q} ai) ∗ ((c : Thread nD τ).loc main_call0_v13 ↦{q} wm) ∗ cells c arg3 (Memref.whole main_v0_0) i ai wm hai x3 f 221 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part37_eq_skeleton]; unfold k0_part37_skel
  iintro ⟨HS, HM, HC, S0, S1, S2, S3, S4, S5, S6, HO⟩
  have hl103 : (103 : ℕ) < 256 := by decide
  have hl104 : (104 : ℕ) < 256 := by decide
  have hl105 : (105 : ℕ) < 256 := by decide
  have hl106 : (106 : ℕ) < 256 := by decide
  have hl107 : (107 : ℕ) < 256 := by decide
  have hl108 : (108 : ℕ) < 256 := by decide
  have hl109 : (109 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw216 : w = wordOf wm i 103 hl103 := hw
  have hp216 : stateAt 215 ⟨103, hl103⟩ = St.started := show stateAt 215 ⟨103, (by decide : (103 : ℕ) < 256)⟩ = St.started from by decide
  have hn216 : ∀ l : Fin 256, stateAt 216 l = Function.update (stateAt 215) ⟨103, hl103⟩ St.done l := show ∀ l : Fin 256, stateAt 216 l = Function.update (stateAt 215) ⟨103, (by decide : (103 : ℕ) < 256)⟩ St.done l from by decide
  iapply (wait_fam c 𝒱₀ arg3 (Memref.whole main_v0_0) i q ai wm hai x3 f 215 103 7 hl103 hj7 rfl hp216 hn216 w hw216 (k0_off647 i) rfl (k0_off647_inb i) k0_cond216 (fun _ => rfl) (k0_chk216 i) (k0_chk216.dec i) (k0_off648 i) (fun _ => rfl) (fun _ _ h => h) (k0_off648_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W216, HO⟩
  iapply (loadMask_wp c 𝒱₀ i 104 hl104 q wm rfl) $$ HM
  iintro HM %w217 %hw217
  have hp217 : stateAt 216 ⟨104, hl104⟩ = St.started := show stateAt 216 ⟨104, (by decide : (104 : ℕ) < 256)⟩ = St.started from by decide
  have hn217 : ∀ l : Fin 256, stateAt 217 l = Function.update (stateAt 216) ⟨104, hl104⟩ St.done l := show ∀ l : Fin 256, stateAt 217 l = Function.update (stateAt 216) ⟨104, (by decide : (104 : ℕ) < 256)⟩ St.done l from by decide
  iapply (wait_fam c 𝒱₀ arg3 (Memref.whole main_v0_0) i q ai wm hai x3 f 216 104 8 hl104 hj8 rfl hp217 hn217 w217 hw217 (k0_off650 i) rfl (k0_off650_inb i) k0_cond217 (fun _ => rfl) (k0_chk217 i) (k0_chk217.dec i) (k0_off651 i) (fun _ => rfl) (fun _ _ h => h) (k0_off651_inb i) ((View.wordExact_bits rfl).reshape _ _) (fun _ _ => (View.wordExact_bits rfl).reshape _ _) _ _ W216) $$ [HS HM HC HO]
  · isplitl [HS]; · iexact HS
    isplitl [HM]; · iexact HM
    isplitl [HC]; · iexact HC
    iexact HO
  iintro ⟨HS, HM, HC, S8, %W217, HO⟩
  iapply (loadMask_wp c 𝒱₀ i 105 hl105 q wm rfl) $$ HM
  iintro HM %w218 %hw218
  have hp218 : stateAt 217 ⟨105, hl105⟩ = St.started := show stateAt 217 ⟨105, (by decide : (105 : ℕ) < 256)⟩ = St.started from by decide
  have hn218 : ∀ l : Fin 256, stateAt 218 l = Function.update (stateAt 217) ⟨105, hl105⟩ St.done l := show ∀ l : Fin 256, stateAt 218 l = Function.update (stateAt 217) ⟨105, (by decide : (105 : ℕ) < 256)⟩ St.done l from by decide
  iapply (wait_fam c 𝒱₀ arg3 (Memref.whole main_v0_0) i q ai wm hai x3 f 217 105 9 hl105 hj9 rfl hp218 hn218 w218 hw218 (k0_off653 i) rfl (k0_off653_inb i) k0_cond218 (fun _ => rfl) (k0_chk218 i) (k0_chk218.dec i) (k0_off654 i) (fun _ => rfl) (fun _ _ h => h) (k0_off654_inb i) ((View.wordExact_bits rfl).reshape _ _) (fun _ _ => (View.wordExact_bits rfl).reshape _ _) _ _ W217) $$ [HS HM HC HO]
  · isplitl [HS]; · iexact HS
    isplitl [HM]; · iexact HM
    isplitl [HC]; · iexact HC
    iexact HO
  iintro ⟨HS, HM, HC, S9, %W218, HO⟩
  iapply (loadMask_wp c 𝒱₀ i 106 hl106 q wm rfl) $$ HM
  iintro HM %w219 %hw219
  have hp219 : stateAt 218 ⟨106, hl106⟩ = St.started := show stateAt 218 ⟨106, (by decide : (106 : ℕ) < 256)⟩ = St.started from by decide
  have hn219 : ∀ l : Fin 256, stateAt 219 l = Function.update (stateAt 218) ⟨106, hl106⟩ St.done l := show ∀ l : Fin 256, stateAt 219 l = Function.update (stateAt 218) ⟨106, (by decide : (106 : ℕ) < 256)⟩ St.done l from by decide
  iapply (wait_fam c 𝒱₀ arg3 (Memref.whole main_v0_0) i q ai wm hai x3 f 218 106 10 hl106 hj10 rfl hp219 hn219 w219 hw219 (k0_off656 i) rfl (k0_off656_inb i) k0_cond219 (fun _ => rfl) (k0_chk219 i) (k0_chk219.dec i) (k0_off657 i) (fun _ => rfl) (fun _ _ h => h) (k0_off657_inb i) ((View.wordExact_bits rfl).reshape _ _) (fun _ _ => (View.wordExact_bits rfl).reshape _ _) _ _ W218) $$ [HS HM HC HO]
  · isplitl [HS]; · iexact HS
    isplitl [HM]; · iexact HM
    isplitl [HC]; · iexact HC
    iexact HO
  iintro ⟨HS, HM, HC, S10, %W219, HO⟩
  iapply (loadMask_wp c 𝒱₀ i 107 hl107 q wm rfl) $$ HM
  iintro HM %w220 %hw220
  have hp220 : stateAt 219 ⟨107, hl107⟩ = St.started := show stateAt 219 ⟨107, (by decide : (107 : ℕ) < 256)⟩ = St.started from by decide
  have hn220 : ∀ l : Fin 256, stateAt 220 l = Function.update (stateAt 219) ⟨107, hl107⟩ St.done l := show ∀ l : Fin 256, stateAt 220 l = Function.update (stateAt 219) ⟨107, (by decide : (107 : ℕ) < 256)⟩ St.done l from by decide
  iapply (wait_fam c 𝒱₀ arg3 (Memref.whole main_v0_0) i q ai wm hai x3 f 219 107 11 hl107 hj11 rfl hp220 hn220 w220 hw220 (k0_off659 i) rfl (k0_off659_inb i) k0_cond220 (fun _ => rfl) (k0_chk220 i) (k0_chk220.dec i) (k0_off660 i) (fun _ => rfl) (fun _ _ h => h) (k0_off660_inb i) ((View.wordExact_bits rfl).reshape _ _) (fun _ _ => (View.wordExact_bits rfl).reshape _ _) _ _ W219) $$ [HS HM HC HO]
  · isplitl [HS]; · iexact HS
    isplitl [HM]; · iexact HM
    isplitl [HC]; · iexact HC
    iexact HO
  iintro ⟨HS, HM, HC, S11, %W220, HO⟩
  iapply (loadMask_wp c 𝒱₀ i 108 hl108 q wm rfl) $$ HM
  iintro HM %w221 %hw221
  have hp221 : stateAt 220 ⟨108, hl108⟩ = St.started := show stateAt 220 ⟨108, (by decide : (108 : ℕ) < 256)⟩ = St.started from by decide
  have hn221 : ∀ l : Fin 256, stateAt 221 l = Function.update (stateAt 220) ⟨108, hl108⟩ St.done l := show ∀ l : Fin 256, stateAt 221 l = Function.update (stateAt 220) ⟨108, (by decide : (108 : ℕ) < 256)⟩ St.done l from by decide
  iapply (wait_fam c 𝒱₀ arg3 (Memref.whole main_v0_0) i q ai wm hai x3 f 220 108 12 hl108 hj12 rfl hp221 hn221 w221 hw221 (k0_off662 i) rfl (k0_off662_inb i) k0_cond221 (fun _ => rfl) (k0_chk221 i) (k0_chk221.dec i) (k0_off663 i) (fun _ => rfl) (fun _ _ h => h) (k0_off663_inb i) ((View.wordExact_bits rfl).reshape _ _) (fun _ _ => (View.wordExact_bits rfl).reshape _ _) _ _ W220) $$ [HS HM HC HO]
  · isplitl [HS]; · iexact HS
    isplitl [HM]; · iexact HM
    isplitl [HC]; · iexact HC
    iexact HO
  iintro ⟨HS, HM, HC, S12, %W221, HO⟩
  iapply (loadMask_wp c 𝒱₀ i 109 hl109 q wm rfl) $$ HM
  iintro HM %w222 %hw222
  rw [wp_pure]
  imodintro
  isplitr; · ipureintro; exact hw222
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 38 of the body: steps 222 to 227, and the load of the next step's mask word. -/
theorem part38_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 109 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 221 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part38 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 115 (by decide)⌝ ∗ ((c : Thread nD τ).loc main_call0_v12 ↦{q} ai) ∗ ((c : Thread nD τ).loc main_call0_v13 ↦{q} wm) ∗ cells c arg3 (Memref.whole main_v0_0) i ai wm hai x3 f 227 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part38_eq_skeleton]; unfold k0_part38_skel
  iintro ⟨HS, HM, HC, S0, S1, S2, S3, S4, S5, S6, S7, S8, S9, S10, S11, S12, HO⟩
  have hl109 : (109 : ℕ) < 256 := by decide
  have hl110 : (110 : ℕ) < 256 := by decide
  have hl111 : (111 : ℕ) < 256 := by decide
  have hl112 : (112 : ℕ) < 256 := by decide
  have hl113 : (113 : ℕ) < 256 := by decide
  have hl114 : (114 : ℕ) < 256 := by decide
  have hl115 : (115 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw222 : w = wordOf wm i 109 hl109 := hw
  have hp222 : stateAt 221 ⟨109, hl109⟩ = St.started := show stateAt 221 ⟨109, (by decide : (109 : ℕ) < 256)⟩ = St.started from by decide
  have hn222 : ∀ l : Fin 256, stateAt 222 l = Function.update (stateAt 221) ⟨109, hl109⟩ St.done l := show ∀ l : Fin 256, stateAt 222 l = Function.update (stateAt 221) ⟨109, (by decide : (109 : ℕ) < 256)⟩ St.done l from by decide
  iapply (wait_fam c 𝒱₀ arg3 (Memref.whole main_v0_0) i q ai wm hai x3 f 221 109 13 hl109 hj13 rfl hp222 hn222 w hw222 (k0_off665 i) rfl (k0_off665_inb i) k0_cond222 (fun _ => rfl) (k0_chk222 i) (k0_chk222.dec i) (k0_off666 i) (fun _ => rfl) (fun _ _ h => h) (k0_off666_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W222, HO⟩
  iapply (loadMask_wp c 𝒱₀ i 110 hl110 q wm rfl) $$ HM
  iintro HM %w223 %hw223
  have hp223 : stateAt 222 ⟨110, hl110⟩ = St.started := show stateAt 222 ⟨110, (by decide : (110 : ℕ) < 256)⟩ = St.started from by decide
  have hn223 : ∀ l : Fin 256, stateAt 223 l = Function.update (stateAt 222) ⟨110, hl110⟩ St.done l := show ∀ l : Fin 256, stateAt 223 l = Function.update (stateAt 222) ⟨110, (by decide : (110 : ℕ) < 256)⟩ St.done l from by decide
  iapply (wait_fam c 𝒱₀ arg3 (Memref.whole main_v0_0) i q ai wm hai x3 f 222 110 14 hl110 hj14 rfl hp223 hn223 w223 hw223 (k0_off668 i) rfl (k0_off668_inb i) k0_cond223 (fun _ => rfl) (k0_chk223 i) (k0_chk223.dec i) (k0_off669 i) (fun _ => rfl) (fun _ _ h => h) (k0_off669_inb i) ((View.wordExact_bits rfl).reshape _ _) (fun _ _ => (View.wordExact_bits rfl).reshape _ _) _ _ W222) $$ [HS HM HC HO]
  · isplitl [HS]; · iexact HS
    isplitl [HM]; · iexact HM
    isplitl [HC]; · iexact HC
    iexact HO
  iintro ⟨HS, HM, HC, S14, %W223, HO⟩
  iapply (loadMask_wp c 𝒱₀ i 111 hl111 q wm rfl) $$ HM
  iintro HM %w224 %hw224
  have hp224 : stateAt 223 ⟨111, hl111⟩ = St.started := show stateAt 223 ⟨111, (by decide : (111 : ℕ) < 256)⟩ = St.started from by decide
  have hn224 : ∀ l : Fin 256, stateAt 224 l = Function.update (stateAt 223) ⟨111, hl111⟩ St.done l := show ∀ l : Fin 256, stateAt 224 l = Function.update (stateAt 223) ⟨111, (by decide : (111 : ℕ) < 256)⟩ St.done l from by decide
  iapply (wait_fam c 𝒱₀ arg3 (Memref.whole main_v0_0) i q ai wm hai x3 f 223 111 15 hl111 hj15 rfl hp224 hn224 w224 hw224 (k0_off671 i) rfl (k0_off671_inb i) k0_cond224 (fun _ => rfl) (k0_chk224 i) (k0_chk224.dec i) (k0_off672 i) (fun _ => rfl) (fun _ _ h => h) (k0_off672_inb i) ((View.wordExact_bits rfl).reshape _ _) (fun _ _ => (View.wordExact_bits rfl).reshape _ _) _ _ W223) $$ [HS HM HC HO]
  · isplitl [HS]; · iexact HS
    isplitl [HM]; · iexact HM
    isplitl [HC]; · iexact HC
    iexact HO
  iintro ⟨HS, HM, HC, S15, %W224, HO⟩
  iapply (loadMask_wp c 𝒱₀ i 112 hl112 q wm rfl) $$ HM
  iintro HM %w225 %hw225
  have hp225 : stateAt 224 ⟨112, hl112⟩ = St.pending := show stateAt 224 ⟨112, (by decide : (112 : ℕ) < 256)⟩ = St.pending from by decide
  have hn225 : ∀ l : Fin 256, stateAt 225 l = Function.update (stateAt 224) ⟨112, hl112⟩ St.started l := show ∀ l : Fin 256, stateAt 225 l = Function.update (stateAt 224) ⟨112, (by decide : (112 : ℕ) < 256)⟩ St.started l from by decide
  iapply (start_fam c 𝒱₀ arg3 (Memref.whole main_v0_0) i q ai wm hai x3 f 224 112 0 hl112 hj0 rfl hp225 hn225 w225 hw225 k0_cond225 (fun _ => rfl) (k0_chk225 i) (k0_chk225.dec i) (k0_off675 i) (fun _ => rfl) (fun _ _ => rfl) rfl) $$ [HS HC S0]
  · isplitl [HS]; · iexact HS
    isplitl [HC]; · iexact HC
    iexact S0
  iintro ⟨HS, HC⟩
  iapply (loadMask_wp c 𝒱₀ i 113 hl113 q wm rfl) $$ HM
  iintro HM %w226 %hw226
  have hp226 : stateAt 225 ⟨113, hl113⟩ = St.pending := show stateAt 225 ⟨113, (by decide : (113 : ℕ) < 256)⟩ = St.pending from by decide
  have hn226 : ∀ l : Fin 256, stateAt 226 l = Function.update (stateAt 225) ⟨113, hl113⟩ St.started l := show ∀ l : Fin 256, stateAt 226 l = Function.update (stateAt 225) ⟨113, (by decide : (113 : ℕ) < 256)⟩ St.started l from by decide
  iapply (start_fam c 𝒱₀ arg3 (Memref.whole main_v0_0) i q ai wm hai x3 f 225 113 1 hl113 hj1 rfl hp226 hn226 w226 hw226 k0_cond226 (fun _ => rfl) (k0_chk226 i) (k0_chk226.dec i) (k0_off678 i) (fun _ => rfl) (fun _ _ => rfl) rfl) $$ [HS HC S1]
  · isplitl [HS]; · iexact HS
    isplitl [HC]; · iexact HC
    iexact S1
  iintro ⟨HS, HC⟩
  iapply (loadMask_wp c 𝒱₀ i 114 hl114 q wm rfl) $$ HM
  iintro HM %w227 %hw227
  have hp227 : stateAt 226 ⟨114, hl114⟩ = St.pending := show stateAt 226 ⟨114, (by decide : (114 : ℕ) < 256)⟩ = St.pending from by decide
  have hn227 : ∀ l : Fin 256, stateAt 227 l = Function.update (stateAt 226) ⟨114, hl114⟩ St.started l := show ∀ l : Fin 256, stateAt 227 l = Function.update (stateAt 226) ⟨114, (by decide : (114 : ℕ) < 256)⟩ St.started l from by decide
  iapply (start_fam c 𝒱₀ arg3 (Memref.whole main_v0_0) i q ai wm hai x3 f 226 114 2 hl114 hj2 rfl hp227 hn227 w227 hw227 k0_cond227 (fun _ => rfl) (k0_chk227 i) (k0_chk227.dec i) (k0_off681 i) (fun _ => rfl) (fun _ _ => rfl) rfl) $$ [HS HC S2]
  · isplitl [HS]; · iexact HS
    isplitl [HC]; · iexact HC
    iexact S2
  iintro ⟨HS, HC⟩
  iapply (loadMask_wp c 𝒱₀ i 115 hl115 q wm rfl) $$ HM
  iintro HM %w228 %hw228
  rw [wp_pure]
  imodintro
  isplitr; · ipureintro; exact hw228
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 39 of the body: steps 228 to 233, and the load of the next step's mask word. -/
theorem part39_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 115 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 227 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part39 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 121 (by decide)⌝ ∗ ((c : Thread nD τ).loc main_call0_v12 ↦{q} ai) ∗ ((c : Thread nD τ).loc main_call0_v13 ↦{q} wm) ∗ cells c arg3 (Memref.whole main_v0_0) i ai wm hai x3 f 233 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part39_eq_skeleton]; unfold k0_part39_skel
  iintro ⟨HS, HM, HC, S3, S4, S5, S6, S7, S8, S9, S10, S11, S12, S13, S14, S15, HO⟩
  have hl115 : (115 : ℕ) < 256 := by decide
  have hl116 : (116 : ℕ) < 256 := by decide
  have hl117 : (117 : ℕ) < 256 := by decide
  have hl118 : (118 : ℕ) < 256 := by decide
  have hl119 : (119 : ℕ) < 256 := by decide
  have hl120 : (120 : ℕ) < 256 := by decide
  have hl121 : (121 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw228 : w = wordOf wm i 115 hl115 := hw
  have hp228 : stateAt 227 ⟨115, hl115⟩ = St.pending := show stateAt 227 ⟨115, (by decide : (115 : ℕ) < 256)⟩ = St.pending from by decide
  have hn228 : ∀ l : Fin 256, stateAt 228 l = Function.update (stateAt 227) ⟨115, hl115⟩ St.started l := show ∀ l : Fin 256, stateAt 228 l = Function.update (stateAt 227) ⟨115, (by decide : (115 : ℕ) < 256)⟩ St.started l from by decide
  iapply (start_fam c 𝒱₀ arg3 (Memref.whole main_v0_0) i q ai wm hai x3 f 227 115 3 hl115 hj3 rfl hp228 hn228 w hw228 k0_cond228 (fun _ => rfl) (k0_chk228 i) (k0_chk228.dec i) (k0_off684 i) (fun _ => rfl) (fun _ _ => rfl) rfl) $$ [HS HC S3]
  · isplitl [HS]; · iexact HS
    isplitl [HC]; · iexact HC
    iexact S3
  iintro ⟨HS, HC⟩
  iapply (loadMask_wp c 𝒱₀ i 116 hl116 q wm rfl) $$ HM
  iintro HM %w229 %hw229
  have hp229 : stateAt 228 ⟨116, hl116⟩ = St.pending := show stateAt 228 ⟨116, (by decide : (116 : ℕ) < 256)⟩ = St.pending from by decide
  have hn229 : ∀ l : Fin 256, stateAt 229 l = Function.update (stateAt 228) ⟨116, hl116⟩ St.started l := show ∀ l : Fin 256, stateAt 229 l = Function.update (stateAt 228) ⟨116, (by decide : (116 : ℕ) < 256)⟩ St.started l from by decide
  iapply (start_fam c 𝒱₀ arg3 (Memref.whole main_v0_0) i q ai wm hai x3 f 228 116 4 hl116 hj4 rfl hp229 hn229 w229 hw229 k0_cond229 (fun _ => rfl) (k0_chk229 i) (k0_chk229.dec i) (k0_off687 i) (fun _ => rfl) (fun _ _ => rfl) rfl) $$ [HS HC S4]
  · isplitl [HS]; · iexact HS
    isplitl [HC]; · iexact HC
    iexact S4
  iintro ⟨HS, HC⟩
  iapply (loadMask_wp c 𝒱₀ i 117 hl117 q wm rfl) $$ HM
  iintro HM %w230 %hw230
  have hp230 : stateAt 229 ⟨117, hl117⟩ = St.pending := show stateAt 229 ⟨117, (by decide : (117 : ℕ) < 256)⟩ = St.pending from by decide
  have hn230 : ∀ l : Fin 256, stateAt 230 l = Function.update (stateAt 229) ⟨117, hl117⟩ St.started l := show ∀ l : Fin 256, stateAt 230 l = Function.update (stateAt 229) ⟨117, (by decide : (117 : ℕ) < 256)⟩ St.started l from by decide
  iapply (start_fam c 𝒱₀ arg3 (Memref.whole main_v0_0) i q ai wm hai x3 f 229 117 5 hl117 hj5 rfl hp230 hn230 w230 hw230 k0_cond230 (fun _ => rfl) (k0_chk230 i) (k0_chk230.dec i) (k0_off690 i) (fun _ => rfl) (fun _ _ => rfl) rfl) $$ [HS HC S5]
  · isplitl [HS]; · iexact HS
    isplitl [HC]; · iexact HC
    iexact S5
  iintro ⟨HS, HC⟩
  iapply (loadMask_wp c 𝒱₀ i 118 hl118 q wm rfl) $$ HM
  iintro HM %w231 %hw231
  have hp231 : stateAt 230 ⟨118, hl118⟩ = St.pending := show stateAt 230 ⟨118, (by decide : (118 : ℕ) < 256)⟩ = St.pending from by decide
  have hn231 : ∀ l : Fin 256, stateAt 231 l = Function.update (stateAt 230) ⟨118, hl118⟩ St.started l := show ∀ l : Fin 256, stateAt 231 l = Function.update (stateAt 230) ⟨118, (by decide : (118 : ℕ) < 256)⟩ St.started l from by decide
  iapply (start_fam c 𝒱₀ arg3 (Memref.whole main_v0_0) i q ai wm hai x3 f 230 118 6 hl118 hj6 rfl hp231 hn231 w231 hw231 k0_cond231 (fun _ => rfl) (k0_chk231 i) (k0_chk231.dec i) (k0_off693 i) (fun _ => rfl) (fun _ _ => rfl) rfl) $$ [HS HC S6]
  · isplitl [HS]; · iexact HS
    isplitl [HC]; · iexact HC
    iexact S6
  iintro ⟨HS, HC⟩
  iapply (loadMask_wp c 𝒱₀ i 119 hl119 q wm rfl) $$ HM
  iintro HM %w232 %hw232
  have hp232 : stateAt 231 ⟨119, hl119⟩ = St.pending := show stateAt 231 ⟨119, (by decide : (119 : ℕ) < 256)⟩ = St.pending from by decide
  have hn232 : ∀ l : Fin 256, stateAt 232 l = Function.update (stateAt 231) ⟨119, hl119⟩ St.started l := show ∀ l : Fin 256, stateAt 232 l = Function.update (stateAt 231) ⟨119, (by decide : (119 : ℕ) < 256)⟩ St.started l from by decide
  iapply (start_fam c 𝒱₀ arg3 (Memref.whole main_v0_0) i q ai wm hai x3 f 231 119 7 hl119 hj7 rfl hp232 hn232 w232 hw232 k0_cond232 (fun _ => rfl) (k0_chk232 i) (k0_chk232.dec i) (k0_off696 i) (fun _ => rfl) (fun _ _ => rfl) rfl) $$ [HS HC S7]
  · isplitl [HS]; · iexact HS
    isplitl [HC]; · iexact HC
    iexact S7
  iintro ⟨HS, HC⟩
  iapply (loadMask_wp c 𝒱₀ i 120 hl120 q wm rfl) $$ HM
  iintro HM %w233 %hw233
  have hp233 : stateAt 232 ⟨120, hl120⟩ = St.pending := show stateAt 232 ⟨120, (by decide : (120 : ℕ) < 256)⟩ = St.pending from by decide
  have hn233 : ∀ l : Fin 256, stateAt 233 l = Function.update (stateAt 232) ⟨120, hl120⟩ St.started l := show ∀ l : Fin 256, stateAt 233 l = Function.update (stateAt 232) ⟨120, (by decide : (120 : ℕ) < 256)⟩ St.started l from by decide
  iapply (start_fam c 𝒱₀ arg3 (Memref.whole main_v0_0) i q ai wm hai x3 f 232 120 8 hl120 hj8 rfl hp233 hn233 w233 hw233 k0_cond233 (fun _ => rfl) (k0_chk233 i) (k0_chk233.dec i) (k0_off699 i) (fun _ => rfl) (fun _ _ => rfl) rfl) $$ [HS HC S8]
  · isplitl [HS]; · iexact HS
    isplitl [HC]; · iexact HC
    iexact S8
  iintro ⟨HS, HC⟩
  iapply (loadMask_wp c 𝒱₀ i 121 hl121 q wm rfl) $$ HM
  iintro HM %w234 %hw234
  rw [wp_pure]
  imodintro
  isplitr; · ipureintro; exact hw234
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 40 of the body: steps 234 to 239, and the load of the next step's mask word. -/
theorem part40_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 121 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 233 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part40 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 127 (by decide)⌝ ∗ ((c : Thread nD τ).loc main_call0_v12 ↦{q} ai) ∗ ((c : Thread nD τ).loc main_call0_v13 ↦{q} wm) ∗ cells c arg3 (Memref.whole main_v0_0) i ai wm hai x3 f 239 ∗ semPt c 15 (sem_inb 15 (by decide)) ∗ ∃ W', owes (c : Thread nD τ) 0 W')) := by
  rw [k0_part40_eq_skeleton]; unfold k0_part40_skel
  iintro ⟨HS, HM, HC, S9, S10, S11, S12, S13, S14, S15, HO⟩
  have hl121 : (121 : ℕ) < 256 := by decide
  have hl122 : (122 : ℕ) < 256 := by decide
  have hl123 : (123 : ℕ) < 256 := by decide
  have hl124 : (124 : ℕ) < 256 := by decide
  have hl125 : (125 : ℕ) < 256 := by decide
  have hl126 : (126 : ℕ) < 256 := by decide
  have hl127 : (127 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw234 : w = wordOf wm i 121 hl121 := hw
  have hp234 : stateAt 233 ⟨121, hl121⟩ = St.pending := show stateAt 233 ⟨121, (by decide : (121 : ℕ) < 256)⟩ = St.pending from by decide
  have hn234 : ∀ l : Fin 256, stateAt 234 l = Function.update (stateAt 233) ⟨121, hl121⟩ St.started l := show ∀ l : Fin 256, stateAt 234 l = Function.update (stateAt 233) ⟨121, (by decide : (121 : ℕ) < 256)⟩ St.started l from by decide
  iapply (start_fam c 𝒱₀ arg3 (Memref.whole main_v0_0) i q ai wm hai x3 f 233 121 9 hl121 hj9 rfl hp234 hn234 w hw234 k0_cond234 (fun _ => rfl) (k0_chk234 i) (k0_chk234.dec i) (k0_off702 i) (fun _ => rfl) (fun _ _ => rfl) rfl) $$ [HS HC S9]
  · isplitl [HS]; · iexact HS
    isplitl [HC]; · iexact HC
    iexact S9
  iintro ⟨HS, HC⟩
  iapply (loadMask_wp c 𝒱₀ i 122 hl122 q wm rfl) $$ HM
  iintro HM %w235 %hw235
  have hp235 : stateAt 234 ⟨122, hl122⟩ = St.pending := show stateAt 234 ⟨122, (by decide : (122 : ℕ) < 256)⟩ = St.pending from by decide
  have hn235 : ∀ l : Fin 256, stateAt 235 l = Function.update (stateAt 234) ⟨122, hl122⟩ St.started l := show ∀ l : Fin 256, stateAt 235 l = Function.update (stateAt 234) ⟨122, (by decide : (122 : ℕ) < 256)⟩ St.started l from by decide
  iapply (start_fam c 𝒱₀ arg3 (Memref.whole main_v0_0) i q ai wm hai x3 f 234 122 10 hl122 hj10 rfl hp235 hn235 w235 hw235 k0_cond235 (fun _ => rfl) (k0_chk235 i) (k0_chk235.dec i) (k0_off705 i) (fun _ => rfl) (fun _ _ => rfl) rfl) $$ [HS HC S10]
  · isplitl [HS]; · iexact HS
    isplitl [HC]; · iexact HC
    iexact S10
  iintro ⟨HS, HC⟩
  iapply (loadMask_wp c 𝒱₀ i 123 hl123 q wm rfl) $$ HM
  iintro HM %w236 %hw236
  have hp236 : stateAt 235 ⟨123, hl123⟩ = St.pending := show stateAt 235 ⟨123, (by decide : (123 : ℕ) < 256)⟩ = St.pending from by decide
  have hn236 : ∀ l : Fin 256, stateAt 236 l = Function.update (stateAt 235) ⟨123, hl123⟩ St.started l := show ∀ l : Fin 256, stateAt 236 l = Function.update (stateAt 235) ⟨123, (by decide : (123 : ℕ) < 256)⟩ St.started l from by decide
  iapply (start_fam c 𝒱₀ arg3 (Memref.whole main_v0_0) i q ai wm hai x3 f 235 123 11 hl123 hj11 rfl hp236 hn236 w236 hw236 k0_cond236 (fun _ => rfl) (k0_chk236 i) (k0_chk236.dec i) (k0_off708 i) (fun _ => rfl) (fun _ _ => rfl) rfl) $$ [HS HC S11]
  · isplitl [HS]; · iexact HS
    isplitl [HC]; · iexact HC
    iexact S11
  iintro ⟨HS, HC⟩
  iapply (loadMask_wp c 𝒱₀ i 124 hl124 q wm rfl) $$ HM
  iintro HM %w237 %hw237
  have hp237 : stateAt 236 ⟨124, hl124⟩ = St.pending := show stateAt 236 ⟨124, (by decide : (124 : ℕ) < 256)⟩ = St.pending from by decide
  have hn237 : ∀ l : Fin 256, stateAt 237 l = Function.update (stateAt 236) ⟨124, hl124⟩ St.started l := show ∀ l : Fin 256, stateAt 237 l = Function.update (stateAt 236) ⟨124, (by decide : (124 : ℕ) < 256)⟩ St.started l from by decide
  iapply (start_fam c 𝒱₀ arg3 (Memref.whole main_v0_0) i q ai wm hai x3 f 236 124 12 hl124 hj12 rfl hp237 hn237 w237 hw237 k0_cond237 (fun _ => rfl) (k0_chk237 i) (k0_chk237.dec i) (k0_off711 i) (fun _ => rfl) (fun _ _ => rfl) rfl) $$ [HS HC S12]
  · isplitl [HS]; · iexact HS
    isplitl [HC]; · iexact HC
    iexact S12
  iintro ⟨HS, HC⟩
  iapply (loadMask_wp c 𝒱₀ i 125 hl125 q wm rfl) $$ HM
  iintro HM %w238 %hw238
  have hp238 : stateAt 237 ⟨125, hl125⟩ = St.pending := show stateAt 237 ⟨125, (by decide : (125 : ℕ) < 256)⟩ = St.pending from by decide
  have hn238 : ∀ l : Fin 256, stateAt 238 l = Function.update (stateAt 237) ⟨125, hl125⟩ St.started l := show ∀ l : Fin 256, stateAt 238 l = Function.update (stateAt 237) ⟨125, (by decide : (125 : ℕ) < 256)⟩ St.started l from by decide
  iapply (start_fam c 𝒱₀ arg3 (Memref.whole main_v0_0) i q ai wm hai x3 f 237 125 13 hl125 hj13 rfl hp238 hn238 w238 hw238 k0_cond238 (fun _ => rfl) (k0_chk238 i) (k0_chk238.dec i) (k0_off714 i) (fun _ => rfl) (fun _ _ => rfl) rfl) $$ [HS HC S13]
  · isplitl [HS]; · iexact HS
    isplitl [HC]; · iexact HC
    iexact S13
  iintro ⟨HS, HC⟩
  iapply (loadMask_wp c 𝒱₀ i 126 hl126 q wm rfl) $$ HM
  iintro HM %w239 %hw239
  have hp239 : stateAt 238 ⟨126, hl126⟩ = St.pending := show stateAt 238 ⟨126, (by decide : (126 : ℕ) < 256)⟩ = St.pending from by decide
  have hn239 : ∀ l : Fin 256, stateAt 239 l = Function.update (stateAt 238) ⟨126, hl126⟩ St.started l := show ∀ l : Fin 256, stateAt 239 l = Function.update (stateAt 238) ⟨126, (by decide : (126 : ℕ) < 256)⟩ St.started l from by decide
  iapply (start_fam c 𝒱₀ arg3 (Memref.whole main_v0_0) i q ai wm hai x3 f 238 126 14 hl126 hj14 rfl hp239 hn239 w239 hw239 k0_cond239 (fun _ => rfl) (k0_chk239 i) (k0_chk239.dec i) (k0_off717 i) (fun _ => rfl) (fun _ _ => rfl) rfl) $$ [HS HC S14]
  · isplitl [HS]; · iexact HS
    isplitl [HC]; · iexact HC
    iexact S14
  iintro ⟨HS, HC⟩
  iapply (loadMask_wp c 𝒱₀ i 127 hl127 q wm rfl) $$ HM
  iintro HM %w240 %hw240
  rw [wp_pure]
  imodintro
  isplitr; · ipureintro; exact hw240
  isplitl [HS]; · iexact HS
  isplitl [HM]; · iexact HM
  isplitl [HC]; · iexact HC
  isplitl [S15]; · iexact S15
  iexists _; iexact HO

set_option maxHeartbeats 0 in
/-- Part 41 of the body: steps 240 to 245, and the load of the next step's mask word. -/
theorem part41_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 127 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 239 ∗ semPt c 15 (sem_inb 15 (by decide)) ∗ owes (c : Thread nD τ) 0 W)
      ⊢ wp frame (wpE (defs₀ (F := F)) 𝒱₀ (c : Thread nD τ) none) Set.univ (k0_part41 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 117 (by decide)⌝ ∗ ((c : Thread nD τ).loc main_call0_v12 ↦{q} ai) ∗ ((c : Thread nD τ).loc main_call0_v13 ↦{q} wm) ∗ cells c arg3 (Memref.whole main_v0_0) i ai wm hai x3 f 245 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part41_eq_skeleton]; unfold k0_part41_skel
  iintro ⟨HS, HM, HC, S15, HO⟩
  have hl112 : (112 : ℕ) < 256 := by decide
  have hl113 : (113 : ℕ) < 256 := by decide
  have hl114 : (114 : ℕ) < 256 := by decide
  have hl115 : (115 : ℕ) < 256 := by decide
  have hl116 : (116 : ℕ) < 256 := by decide
  have hl117 : (117 : ℕ) < 256 := by decide
  have hl127 : (127 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw240 : w = wordOf wm i 127 hl127 := hw
  have hp240 : stateAt 239 ⟨127, hl127⟩ = St.pending := show stateAt 239 ⟨127, (by decide : (127 : ℕ) < 256)⟩ = St.pending from by decide
  have hn240 : ∀ l : Fin 256, stateAt 240 l = Function.update (stateAt 239) ⟨127, hl127⟩ St.started l := show ∀ l : Fin 256, stateAt 240 l = Function.update (stateAt 239) ⟨127, (by decide : (127 : ℕ) < 256)⟩ St.started l from by decide
  iapply (start_fam c 𝒱₀ arg3 (Memref.whole main_v0_0) i q ai wm hai x3 f 239 127 15 hl127 hj15 rfl hp240 hn240 w hw240 k0_cond240 (fun _ => rfl) (k0_chk240 i) (k0_chk240.dec i) (k0_off720 i) (fun _ => rfl) (fun _ _ => rfl) rfl) $$ [HS HC S15]
  · isplitl [HS]; · iexact HS
    isplitl [HC]; · iexact HC
    iexact S15
  iintro ⟨HS, HC⟩
  iapply (loadMask_wp c 𝒱₀ i 112 hl112 q wm rfl) $$ HM
  iintro HM %w241 %hw241
  have hp241 : stateAt 240 ⟨112, hl112⟩ = St.started := show stateAt 240 ⟨112, (by decide : (112 : ℕ) < 256)⟩ = St.started from by decide
  have hn241 : ∀ l : Fin 256, stateAt 241 l = Function.update (stateAt 240) ⟨112, hl112⟩ St.done l := show ∀ l : Fin 256, stateAt 241 l = Function.update (stateAt 240) ⟨112, (by decide : (112 : ℕ) < 256)⟩ St.done l from by decide
  iapply (wait_fam c 𝒱₀ arg3 (Memref.whole main_v0_0) i q ai wm hai x3 f 240 112 0 hl112 hj0 rfl hp241 hn241 w241 hw241 (k0_off722 i) rfl (k0_off722_inb i) k0_cond241 (fun _ => rfl) (k0_chk241 i) (k0_chk241.dec i) (k0_off723 i) (fun _ => rfl) (fun _ _ h => h) (k0_off723_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W241, HO⟩
  iapply (loadMask_wp c 𝒱₀ i 113 hl113 q wm rfl) $$ HM
  iintro HM %w242 %hw242
  have hp242 : stateAt 241 ⟨113, hl113⟩ = St.started := show stateAt 241 ⟨113, (by decide : (113 : ℕ) < 256)⟩ = St.started from by decide
  have hn242 : ∀ l : Fin 256, stateAt 242 l = Function.update (stateAt 241) ⟨113, hl113⟩ St.done l := show ∀ l : Fin 256, stateAt 242 l = Function.update (stateAt 241) ⟨113, (by decide : (113 : ℕ) < 256)⟩ St.done l from by decide
  iapply (wait_fam c 𝒱₀ arg3 (Memref.whole main_v0_0) i q ai wm hai x3 f 241 113 1 hl113 hj1 rfl hp242 hn242 w242 hw242 (k0_off725 i) rfl (k0_off725_inb i) k0_cond242 (fun _ => rfl) (k0_chk242 i) (k0_chk242.dec i) (k0_off726 i) (fun _ => rfl) (fun _ _ h => h) (k0_off726_inb i) ((View.wordExact_bits rfl).reshape _ _) (fun _ _ => (View.wordExact_bits rfl).reshape _ _) _ _ W241) $$ [HS HM HC HO]
  · isplitl [HS]; · iexact HS
    isplitl [HM]; · iexact HM
    isplitl [HC]; · iexact HC
    iexact HO
  iintro ⟨HS, HM, HC, S1, %W242, HO⟩
  iapply (loadMask_wp c 𝒱₀ i 114 hl114 q wm rfl) $$ HM
  iintro HM %w243 %hw243
  have hp243 : stateAt 242 ⟨114, hl114⟩ = St.started := show stateAt 242 ⟨114, (by decide : (114 : ℕ) < 256)⟩ = St.started from by decide
  have hn243 : ∀ l : Fin 256, stateAt 243 l = Function.update (stateAt 242) ⟨114, hl114⟩ St.done l := show ∀ l : Fin 256, stateAt 243 l = Function.update (stateAt 242) ⟨114, (by decide : (114 : ℕ) < 256)⟩ St.done l from by decide
  iapply (wait_fam c 𝒱₀ arg3 (Memref.whole main_v0_0) i q ai wm hai x3 f 242 114 2 hl114 hj2 rfl hp243 hn243 w243 hw243 (k0_off728 i) rfl (k0_off728_inb i) k0_cond243 (fun _ => rfl) (k0_chk243 i) (k0_chk243.dec i) (k0_off729 i) (fun _ => rfl) (fun _ _ h => h) (k0_off729_inb i) ((View.wordExact_bits rfl).reshape _ _) (fun _ _ => (View.wordExact_bits rfl).reshape _ _) _ _ W242) $$ [HS HM HC HO]
  · isplitl [HS]; · iexact HS
    isplitl [HM]; · iexact HM
    isplitl [HC]; · iexact HC
    iexact HO
  iintro ⟨HS, HM, HC, S2, %W243, HO⟩
  iapply (loadMask_wp c 𝒱₀ i 115 hl115 q wm rfl) $$ HM
  iintro HM %w244 %hw244
  have hp244 : stateAt 243 ⟨115, hl115⟩ = St.started := show stateAt 243 ⟨115, (by decide : (115 : ℕ) < 256)⟩ = St.started from by decide
  have hn244 : ∀ l : Fin 256, stateAt 244 l = Function.update (stateAt 243) ⟨115, hl115⟩ St.done l := show ∀ l : Fin 256, stateAt 244 l = Function.update (stateAt 243) ⟨115, (by decide : (115 : ℕ) < 256)⟩ St.done l from by decide
  iapply (wait_fam c 𝒱₀ arg3 (Memref.whole main_v0_0) i q ai wm hai x3 f 243 115 3 hl115 hj3 rfl hp244 hn244 w244 hw244 (k0_off731 i) rfl (k0_off731_inb i) k0_cond244 (fun _ => rfl) (k0_chk244 i) (k0_chk244.dec i) (k0_off732 i) (fun _ => rfl) (fun _ _ h => h) (k0_off732_inb i) ((View.wordExact_bits rfl).reshape _ _) (fun _ _ => (View.wordExact_bits rfl).reshape _ _) _ _ W243) $$ [HS HM HC HO]
  · isplitl [HS]; · iexact HS
    isplitl [HM]; · iexact HM
    isplitl [HC]; · iexact HC
    iexact HO
  iintro ⟨HS, HM, HC, S3, %W244, HO⟩
  iapply (loadMask_wp c 𝒱₀ i 116 hl116 q wm rfl) $$ HM
  iintro HM %w245 %hw245
  have hp245 : stateAt 244 ⟨116, hl116⟩ = St.started := show stateAt 244 ⟨116, (by decide : (116 : ℕ) < 256)⟩ = St.started from by decide
  have hn245 : ∀ l : Fin 256, stateAt 245 l = Function.update (stateAt 244) ⟨116, hl116⟩ St.done l := show ∀ l : Fin 256, stateAt 245 l = Function.update (stateAt 244) ⟨116, (by decide : (116 : ℕ) < 256)⟩ St.done l from by decide
  iapply (wait_fam c 𝒱₀ arg3 (Memref.whole main_v0_0) i q ai wm hai x3 f 244 116 4 hl116 hj4 rfl hp245 hn245 w245 hw245 (k0_off734 i) rfl (k0_off734_inb i) k0_cond245 (fun _ => rfl) (k0_chk245 i) (k0_chk245.dec i) (k0_off735 i) (fun _ => rfl) (fun _ _ h => h) (k0_off735_inb i) ((View.wordExact_bits rfl).reshape _ _) (fun _ _ => (View.wordExact_bits rfl).reshape _ _) _ _ W244) $$ [HS HM HC HO]
  · isplitl [HS]; · iexact HS
    isplitl [HM]; · iexact HM
    isplitl [HC]; · iexact HC
    iexact HO
  iintro ⟨HS, HM, HC, S4, %W245, HO⟩
  iapply (loadMask_wp c 𝒱₀ i 117 hl117 q wm rfl) $$ HM
  iintro HM %w246 %hw246
  rw [wp_pure]
  imodintro
  isplitr; · ipureintro; exact hw246
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 42 of the body: steps 246 to 251, and the load of the next step's mask word. -/
theorem part42_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 117 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 245 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part42 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 123 (by decide)⌝ ∗ ((c : Thread nD τ).loc main_call0_v12 ↦{q} ai) ∗ ((c : Thread nD τ).loc main_call0_v13 ↦{q} wm) ∗ cells c arg3 (Memref.whole main_v0_0) i ai wm hai x3 f 251 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part42_eq_skeleton]; unfold k0_part42_skel
  iintro ⟨HS, HM, HC, S0, S1, S2, S3, S4, HO⟩
  have hl117 : (117 : ℕ) < 256 := by decide
  have hl118 : (118 : ℕ) < 256 := by decide
  have hl119 : (119 : ℕ) < 256 := by decide
  have hl120 : (120 : ℕ) < 256 := by decide
  have hl121 : (121 : ℕ) < 256 := by decide
  have hl122 : (122 : ℕ) < 256 := by decide
  have hl123 : (123 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw246 : w = wordOf wm i 117 hl117 := hw
  have hp246 : stateAt 245 ⟨117, hl117⟩ = St.started := show stateAt 245 ⟨117, (by decide : (117 : ℕ) < 256)⟩ = St.started from by decide
  have hn246 : ∀ l : Fin 256, stateAt 246 l = Function.update (stateAt 245) ⟨117, hl117⟩ St.done l := show ∀ l : Fin 256, stateAt 246 l = Function.update (stateAt 245) ⟨117, (by decide : (117 : ℕ) < 256)⟩ St.done l from by decide
  iapply (wait_fam c 𝒱₀ arg3 (Memref.whole main_v0_0) i q ai wm hai x3 f 245 117 5 hl117 hj5 rfl hp246 hn246 w hw246 (k0_off737 i) rfl (k0_off737_inb i) k0_cond246 (fun _ => rfl) (k0_chk246 i) (k0_chk246.dec i) (k0_off738 i) (fun _ => rfl) (fun _ _ h => h) (k0_off738_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W246, HO⟩
  iapply (loadMask_wp c 𝒱₀ i 118 hl118 q wm rfl) $$ HM
  iintro HM %w247 %hw247
  have hp247 : stateAt 246 ⟨118, hl118⟩ = St.started := show stateAt 246 ⟨118, (by decide : (118 : ℕ) < 256)⟩ = St.started from by decide
  have hn247 : ∀ l : Fin 256, stateAt 247 l = Function.update (stateAt 246) ⟨118, hl118⟩ St.done l := show ∀ l : Fin 256, stateAt 247 l = Function.update (stateAt 246) ⟨118, (by decide : (118 : ℕ) < 256)⟩ St.done l from by decide
  iapply (wait_fam c 𝒱₀ arg3 (Memref.whole main_v0_0) i q ai wm hai x3 f 246 118 6 hl118 hj6 rfl hp247 hn247 w247 hw247 (k0_off740 i) rfl (k0_off740_inb i) k0_cond247 (fun _ => rfl) (k0_chk247 i) (k0_chk247.dec i) (k0_off741 i) (fun _ => rfl) (fun _ _ h => h) (k0_off741_inb i) ((View.wordExact_bits rfl).reshape _ _) (fun _ _ => (View.wordExact_bits rfl).reshape _ _) _ _ W246) $$ [HS HM HC HO]
  · isplitl [HS]; · iexact HS
    isplitl [HM]; · iexact HM
    isplitl [HC]; · iexact HC
    iexact HO
  iintro ⟨HS, HM, HC, S6, %W247, HO⟩
  iapply (loadMask_wp c 𝒱₀ i 119 hl119 q wm rfl) $$ HM
  iintro HM %w248 %hw248
  have hp248 : stateAt 247 ⟨119, hl119⟩ = St.started := show stateAt 247 ⟨119, (by decide : (119 : ℕ) < 256)⟩ = St.started from by decide
  have hn248 : ∀ l : Fin 256, stateAt 248 l = Function.update (stateAt 247) ⟨119, hl119⟩ St.done l := show ∀ l : Fin 256, stateAt 248 l = Function.update (stateAt 247) ⟨119, (by decide : (119 : ℕ) < 256)⟩ St.done l from by decide
  iapply (wait_fam c 𝒱₀ arg3 (Memref.whole main_v0_0) i q ai wm hai x3 f 247 119 7 hl119 hj7 rfl hp248 hn248 w248 hw248 (k0_off743 i) rfl (k0_off743_inb i) k0_cond248 (fun _ => rfl) (k0_chk248 i) (k0_chk248.dec i) (k0_off744 i) (fun _ => rfl) (fun _ _ h => h) (k0_off744_inb i) ((View.wordExact_bits rfl).reshape _ _) (fun _ _ => (View.wordExact_bits rfl).reshape _ _) _ _ W247) $$ [HS HM HC HO]
  · isplitl [HS]; · iexact HS
    isplitl [HM]; · iexact HM
    isplitl [HC]; · iexact HC
    iexact HO
  iintro ⟨HS, HM, HC, S7, %W248, HO⟩
  iapply (loadMask_wp c 𝒱₀ i 120 hl120 q wm rfl) $$ HM
  iintro HM %w249 %hw249
  have hp249 : stateAt 248 ⟨120, hl120⟩ = St.started := show stateAt 248 ⟨120, (by decide : (120 : ℕ) < 256)⟩ = St.started from by decide
  have hn249 : ∀ l : Fin 256, stateAt 249 l = Function.update (stateAt 248) ⟨120, hl120⟩ St.done l := show ∀ l : Fin 256, stateAt 249 l = Function.update (stateAt 248) ⟨120, (by decide : (120 : ℕ) < 256)⟩ St.done l from by decide
  iapply (wait_fam c 𝒱₀ arg3 (Memref.whole main_v0_0) i q ai wm hai x3 f 248 120 8 hl120 hj8 rfl hp249 hn249 w249 hw249 (k0_off746 i) rfl (k0_off746_inb i) k0_cond249 (fun _ => rfl) (k0_chk249 i) (k0_chk249.dec i) (k0_off747 i) (fun _ => rfl) (fun _ _ h => h) (k0_off747_inb i) ((View.wordExact_bits rfl).reshape _ _) (fun _ _ => (View.wordExact_bits rfl).reshape _ _) _ _ W248) $$ [HS HM HC HO]
  · isplitl [HS]; · iexact HS
    isplitl [HM]; · iexact HM
    isplitl [HC]; · iexact HC
    iexact HO
  iintro ⟨HS, HM, HC, S8, %W249, HO⟩
  iapply (loadMask_wp c 𝒱₀ i 121 hl121 q wm rfl) $$ HM
  iintro HM %w250 %hw250
  have hp250 : stateAt 249 ⟨121, hl121⟩ = St.started := show stateAt 249 ⟨121, (by decide : (121 : ℕ) < 256)⟩ = St.started from by decide
  have hn250 : ∀ l : Fin 256, stateAt 250 l = Function.update (stateAt 249) ⟨121, hl121⟩ St.done l := show ∀ l : Fin 256, stateAt 250 l = Function.update (stateAt 249) ⟨121, (by decide : (121 : ℕ) < 256)⟩ St.done l from by decide
  iapply (wait_fam c 𝒱₀ arg3 (Memref.whole main_v0_0) i q ai wm hai x3 f 249 121 9 hl121 hj9 rfl hp250 hn250 w250 hw250 (k0_off749 i) rfl (k0_off749_inb i) k0_cond250 (fun _ => rfl) (k0_chk250 i) (k0_chk250.dec i) (k0_off750 i) (fun _ => rfl) (fun _ _ h => h) (k0_off750_inb i) ((View.wordExact_bits rfl).reshape _ _) (fun _ _ => (View.wordExact_bits rfl).reshape _ _) _ _ W249) $$ [HS HM HC HO]
  · isplitl [HS]; · iexact HS
    isplitl [HM]; · iexact HM
    isplitl [HC]; · iexact HC
    iexact HO
  iintro ⟨HS, HM, HC, S9, %W250, HO⟩
  iapply (loadMask_wp c 𝒱₀ i 122 hl122 q wm rfl) $$ HM
  iintro HM %w251 %hw251
  have hp251 : stateAt 250 ⟨122, hl122⟩ = St.started := show stateAt 250 ⟨122, (by decide : (122 : ℕ) < 256)⟩ = St.started from by decide
  have hn251 : ∀ l : Fin 256, stateAt 251 l = Function.update (stateAt 250) ⟨122, hl122⟩ St.done l := show ∀ l : Fin 256, stateAt 251 l = Function.update (stateAt 250) ⟨122, (by decide : (122 : ℕ) < 256)⟩ St.done l from by decide
  iapply (wait_fam c 𝒱₀ arg3 (Memref.whole main_v0_0) i q ai wm hai x3 f 250 122 10 hl122 hj10 rfl hp251 hn251 w251 hw251 (k0_off752 i) rfl (k0_off752_inb i) k0_cond251 (fun _ => rfl) (k0_chk251 i) (k0_chk251.dec i) (k0_off753 i) (fun _ => rfl) (fun _ _ h => h) (k0_off753_inb i) ((View.wordExact_bits rfl).reshape _ _) (fun _ _ => (View.wordExact_bits rfl).reshape _ _) _ _ W250) $$ [HS HM HC HO]
  · isplitl [HS]; · iexact HS
    isplitl [HM]; · iexact HM
    isplitl [HC]; · iexact HC
    iexact HO
  iintro ⟨HS, HM, HC, S10, %W251, HO⟩
  iapply (loadMask_wp c 𝒱₀ i 123 hl123 q wm rfl) $$ HM
  iintro HM %w252 %hw252
  rw [wp_pure]
  imodintro
  isplitr; · ipureintro; exact hw252
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 43 of the body: steps 252 to 257, and the load of the next step's mask word. -/
theorem part43_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 123 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 251 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part43 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 129 (by decide)⌝ ∗ ((c : Thread nD τ).loc main_call0_v12 ↦{q} ai) ∗ ((c : Thread nD τ).loc main_call0_v13 ↦{q} wm) ∗ cells c arg3 (Memref.whole main_v0_0) i ai wm hai x3 f 257 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part43_eq_skeleton]; unfold k0_part43_skel
  iintro ⟨HS, HM, HC, S0, S1, S2, S3, S4, S5, S6, S7, S8, S9, S10, HO⟩
  have hl123 : (123 : ℕ) < 256 := by decide
  have hl124 : (124 : ℕ) < 256 := by decide
  have hl125 : (125 : ℕ) < 256 := by decide
  have hl126 : (126 : ℕ) < 256 := by decide
  have hl127 : (127 : ℕ) < 256 := by decide
  have hl128 : (128 : ℕ) < 256 := by decide
  have hl129 : (129 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw252 : w = wordOf wm i 123 hl123 := hw
  have hp252 : stateAt 251 ⟨123, hl123⟩ = St.started := show stateAt 251 ⟨123, (by decide : (123 : ℕ) < 256)⟩ = St.started from by decide
  have hn252 : ∀ l : Fin 256, stateAt 252 l = Function.update (stateAt 251) ⟨123, hl123⟩ St.done l := show ∀ l : Fin 256, stateAt 252 l = Function.update (stateAt 251) ⟨123, (by decide : (123 : ℕ) < 256)⟩ St.done l from by decide
  iapply (wait_fam c 𝒱₀ arg3 (Memref.whole main_v0_0) i q ai wm hai x3 f 251 123 11 hl123 hj11 rfl hp252 hn252 w hw252 (k0_off755 i) rfl (k0_off755_inb i) k0_cond252 (fun _ => rfl) (k0_chk252 i) (k0_chk252.dec i) (k0_off756 i) (fun _ => rfl) (fun _ _ h => h) (k0_off756_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W252, HO⟩
  iapply (loadMask_wp c 𝒱₀ i 124 hl124 q wm rfl) $$ HM
  iintro HM %w253 %hw253
  have hp253 : stateAt 252 ⟨124, hl124⟩ = St.started := show stateAt 252 ⟨124, (by decide : (124 : ℕ) < 256)⟩ = St.started from by decide
  have hn253 : ∀ l : Fin 256, stateAt 253 l = Function.update (stateAt 252) ⟨124, hl124⟩ St.done l := show ∀ l : Fin 256, stateAt 253 l = Function.update (stateAt 252) ⟨124, (by decide : (124 : ℕ) < 256)⟩ St.done l from by decide
  iapply (wait_fam c 𝒱₀ arg3 (Memref.whole main_v0_0) i q ai wm hai x3 f 252 124 12 hl124 hj12 rfl hp253 hn253 w253 hw253 (k0_off758 i) rfl (k0_off758_inb i) k0_cond253 (fun _ => rfl) (k0_chk253 i) (k0_chk253.dec i) (k0_off759 i) (fun _ => rfl) (fun _ _ h => h) (k0_off759_inb i) ((View.wordExact_bits rfl).reshape _ _) (fun _ _ => (View.wordExact_bits rfl).reshape _ _) _ _ W252) $$ [HS HM HC HO]
  · isplitl [HS]; · iexact HS
    isplitl [HM]; · iexact HM
    isplitl [HC]; · iexact HC
    iexact HO
  iintro ⟨HS, HM, HC, S12, %W253, HO⟩
  iapply (loadMask_wp c 𝒱₀ i 125 hl125 q wm rfl) $$ HM
  iintro HM %w254 %hw254
  have hp254 : stateAt 253 ⟨125, hl125⟩ = St.started := show stateAt 253 ⟨125, (by decide : (125 : ℕ) < 256)⟩ = St.started from by decide
  have hn254 : ∀ l : Fin 256, stateAt 254 l = Function.update (stateAt 253) ⟨125, hl125⟩ St.done l := show ∀ l : Fin 256, stateAt 254 l = Function.update (stateAt 253) ⟨125, (by decide : (125 : ℕ) < 256)⟩ St.done l from by decide
  iapply (wait_fam c 𝒱₀ arg3 (Memref.whole main_v0_0) i q ai wm hai x3 f 253 125 13 hl125 hj13 rfl hp254 hn254 w254 hw254 (k0_off761 i) rfl (k0_off761_inb i) k0_cond254 (fun _ => rfl) (k0_chk254 i) (k0_chk254.dec i) (k0_off762 i) (fun _ => rfl) (fun _ _ h => h) (k0_off762_inb i) ((View.wordExact_bits rfl).reshape _ _) (fun _ _ => (View.wordExact_bits rfl).reshape _ _) _ _ W253) $$ [HS HM HC HO]
  · isplitl [HS]; · iexact HS
    isplitl [HM]; · iexact HM
    isplitl [HC]; · iexact HC
    iexact HO
  iintro ⟨HS, HM, HC, S13, %W254, HO⟩
  iapply (loadMask_wp c 𝒱₀ i 126 hl126 q wm rfl) $$ HM
  iintro HM %w255 %hw255
  have hp255 : stateAt 254 ⟨126, hl126⟩ = St.started := show stateAt 254 ⟨126, (by decide : (126 : ℕ) < 256)⟩ = St.started from by decide
  have hn255 : ∀ l : Fin 256, stateAt 255 l = Function.update (stateAt 254) ⟨126, hl126⟩ St.done l := show ∀ l : Fin 256, stateAt 255 l = Function.update (stateAt 254) ⟨126, (by decide : (126 : ℕ) < 256)⟩ St.done l from by decide
  iapply (wait_fam c 𝒱₀ arg3 (Memref.whole main_v0_0) i q ai wm hai x3 f 254 126 14 hl126 hj14 rfl hp255 hn255 w255 hw255 (k0_off764 i) rfl (k0_off764_inb i) k0_cond255 (fun _ => rfl) (k0_chk255 i) (k0_chk255.dec i) (k0_off765 i) (fun _ => rfl) (fun _ _ h => h) (k0_off765_inb i) ((View.wordExact_bits rfl).reshape _ _) (fun _ _ => (View.wordExact_bits rfl).reshape _ _) _ _ W254) $$ [HS HM HC HO]
  · isplitl [HS]; · iexact HS
    isplitl [HM]; · iexact HM
    isplitl [HC]; · iexact HC
    iexact HO
  iintro ⟨HS, HM, HC, S14, %W255, HO⟩
  iapply (loadMask_wp c 𝒱₀ i 127 hl127 q wm rfl) $$ HM
  iintro HM %w256 %hw256
  have hp256 : stateAt 255 ⟨127, hl127⟩ = St.started := show stateAt 255 ⟨127, (by decide : (127 : ℕ) < 256)⟩ = St.started from by decide
  have hn256 : ∀ l : Fin 256, stateAt 256 l = Function.update (stateAt 255) ⟨127, hl127⟩ St.done l := show ∀ l : Fin 256, stateAt 256 l = Function.update (stateAt 255) ⟨127, (by decide : (127 : ℕ) < 256)⟩ St.done l from by decide
  iapply (wait_fam c 𝒱₀ arg3 (Memref.whole main_v0_0) i q ai wm hai x3 f 255 127 15 hl127 hj15 rfl hp256 hn256 w256 hw256 (k0_off767 i) rfl (k0_off767_inb i) k0_cond256 (fun _ => rfl) (k0_chk256 i) (k0_chk256.dec i) (k0_off768 i) (fun _ => rfl) (fun _ _ h => h) (k0_off768_inb i) ((View.wordExact_bits rfl).reshape _ _) (fun _ _ => (View.wordExact_bits rfl).reshape _ _) _ _ W255) $$ [HS HM HC HO]
  · isplitl [HS]; · iexact HS
    isplitl [HM]; · iexact HM
    isplitl [HC]; · iexact HC
    iexact HO
  iintro ⟨HS, HM, HC, S15, %W256, HO⟩
  iapply (loadMask_wp c 𝒱₀ i 128 hl128 q wm rfl) $$ HM
  iintro HM %w257 %hw257
  have hp257 : stateAt 256 ⟨128, hl128⟩ = St.pending := show stateAt 256 ⟨128, (by decide : (128 : ℕ) < 256)⟩ = St.pending from by decide
  have hn257 : ∀ l : Fin 256, stateAt 257 l = Function.update (stateAt 256) ⟨128, hl128⟩ St.started l := show ∀ l : Fin 256, stateAt 257 l = Function.update (stateAt 256) ⟨128, (by decide : (128 : ℕ) < 256)⟩ St.started l from by decide
  iapply (start_fam c 𝒱₀ arg3 (Memref.whole main_v0_0) i q ai wm hai x3 f 256 128 0 hl128 hj0 rfl hp257 hn257 w257 hw257 k0_cond257 (fun _ => rfl) (k0_chk257 i) (k0_chk257.dec i) (k0_off771 i) (fun _ => rfl) (fun _ _ => rfl) rfl) $$ [HS HC S0]
  · isplitl [HS]; · iexact HS
    isplitl [HC]; · iexact HC
    iexact S0
  iintro ⟨HS, HC⟩
  iapply (loadMask_wp c 𝒱₀ i 129 hl129 q wm rfl) $$ HM
  iintro HM %w258 %hw258
  rw [wp_pure]
  imodintro
  isplitr; · ipureintro; exact hw258
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 44 of the body: steps 258 to 263, and the load of the next step's mask word. -/
theorem part44_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 129 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 257 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part44 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 135 (by decide)⌝ ∗ ((c : Thread nD τ).loc main_call0_v12 ↦{q} ai) ∗ ((c : Thread nD τ).loc main_call0_v13 ↦{q} wm) ∗ cells c arg3 (Memref.whole main_v0_0) i ai wm hai x3 f 263 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part44_eq_skeleton]; unfold k0_part44_skel
  iintro ⟨HS, HM, HC, S1, S2, S3, S4, S5, S6, S7, S8, S9, S10, S11, S12, S13, S14, S15, HO⟩
  have hl129 : (129 : ℕ) < 256 := by decide
  have hl130 : (130 : ℕ) < 256 := by decide
  have hl131 : (131 : ℕ) < 256 := by decide
  have hl132 : (132 : ℕ) < 256 := by decide
  have hl133 : (133 : ℕ) < 256 := by decide
  have hl134 : (134 : ℕ) < 256 := by decide
  have hl135 : (135 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw258 : w = wordOf wm i 129 hl129 := hw
  have hp258 : stateAt 257 ⟨129, hl129⟩ = St.pending := show stateAt 257 ⟨129, (by decide : (129 : ℕ) < 256)⟩ = St.pending from by decide
  have hn258 : ∀ l : Fin 256, stateAt 258 l = Function.update (stateAt 257) ⟨129, hl129⟩ St.started l := show ∀ l : Fin 256, stateAt 258 l = Function.update (stateAt 257) ⟨129, (by decide : (129 : ℕ) < 256)⟩ St.started l from by decide
  iapply (start_fam c 𝒱₀ arg3 (Memref.whole main_v0_0) i q ai wm hai x3 f 257 129 1 hl129 hj1 rfl hp258 hn258 w hw258 k0_cond258 (fun _ => rfl) (k0_chk258 i) (k0_chk258.dec i) (k0_off774 i) (fun _ => rfl) (fun _ _ => rfl) rfl) $$ [HS HC S1]
  · isplitl [HS]; · iexact HS
    isplitl [HC]; · iexact HC
    iexact S1
  iintro ⟨HS, HC⟩
  iapply (loadMask_wp c 𝒱₀ i 130 hl130 q wm rfl) $$ HM
  iintro HM %w259 %hw259
  have hp259 : stateAt 258 ⟨130, hl130⟩ = St.pending := show stateAt 258 ⟨130, (by decide : (130 : ℕ) < 256)⟩ = St.pending from by decide
  have hn259 : ∀ l : Fin 256, stateAt 259 l = Function.update (stateAt 258) ⟨130, hl130⟩ St.started l := show ∀ l : Fin 256, stateAt 259 l = Function.update (stateAt 258) ⟨130, (by decide : (130 : ℕ) < 256)⟩ St.started l from by decide
  iapply (start_fam c 𝒱₀ arg3 (Memref.whole main_v0_0) i q ai wm hai x3 f 258 130 2 hl130 hj2 rfl hp259 hn259 w259 hw259 k0_cond259 (fun _ => rfl) (k0_chk259 i) (k0_chk259.dec i) (k0_off777 i) (fun _ => rfl) (fun _ _ => rfl) rfl) $$ [HS HC S2]
  · isplitl [HS]; · iexact HS
    isplitl [HC]; · iexact HC
    iexact S2
  iintro ⟨HS, HC⟩
  iapply (loadMask_wp c 𝒱₀ i 131 hl131 q wm rfl) $$ HM
  iintro HM %w260 %hw260
  have hp260 : stateAt 259 ⟨131, hl131⟩ = St.pending := show stateAt 259 ⟨131, (by decide : (131 : ℕ) < 256)⟩ = St.pending from by decide
  have hn260 : ∀ l : Fin 256, stateAt 260 l = Function.update (stateAt 259) ⟨131, hl131⟩ St.started l := show ∀ l : Fin 256, stateAt 260 l = Function.update (stateAt 259) ⟨131, (by decide : (131 : ℕ) < 256)⟩ St.started l from by decide
  iapply (start_fam c 𝒱₀ arg3 (Memref.whole main_v0_0) i q ai wm hai x3 f 259 131 3 hl131 hj3 rfl hp260 hn260 w260 hw260 k0_cond260 (fun _ => rfl) (k0_chk260 i) (k0_chk260.dec i) (k0_off780 i) (fun _ => rfl) (fun _ _ => rfl) rfl) $$ [HS HC S3]
  · isplitl [HS]; · iexact HS
    isplitl [HC]; · iexact HC
    iexact S3
  iintro ⟨HS, HC⟩
  iapply (loadMask_wp c 𝒱₀ i 132 hl132 q wm rfl) $$ HM
  iintro HM %w261 %hw261
  have hp261 : stateAt 260 ⟨132, hl132⟩ = St.pending := show stateAt 260 ⟨132, (by decide : (132 : ℕ) < 256)⟩ = St.pending from by decide
  have hn261 : ∀ l : Fin 256, stateAt 261 l = Function.update (stateAt 260) ⟨132, hl132⟩ St.started l := show ∀ l : Fin 256, stateAt 261 l = Function.update (stateAt 260) ⟨132, (by decide : (132 : ℕ) < 256)⟩ St.started l from by decide
  iapply (start_fam c 𝒱₀ arg3 (Memref.whole main_v0_0) i q ai wm hai x3 f 260 132 4 hl132 hj4 rfl hp261 hn261 w261 hw261 k0_cond261 (fun _ => rfl) (k0_chk261 i) (k0_chk261.dec i) (k0_off783 i) (fun _ => rfl) (fun _ _ => rfl) rfl) $$ [HS HC S4]
  · isplitl [HS]; · iexact HS
    isplitl [HC]; · iexact HC
    iexact S4
  iintro ⟨HS, HC⟩
  iapply (loadMask_wp c 𝒱₀ i 133 hl133 q wm rfl) $$ HM
  iintro HM %w262 %hw262
  have hp262 : stateAt 261 ⟨133, hl133⟩ = St.pending := show stateAt 261 ⟨133, (by decide : (133 : ℕ) < 256)⟩ = St.pending from by decide
  have hn262 : ∀ l : Fin 256, stateAt 262 l = Function.update (stateAt 261) ⟨133, hl133⟩ St.started l := show ∀ l : Fin 256, stateAt 262 l = Function.update (stateAt 261) ⟨133, (by decide : (133 : ℕ) < 256)⟩ St.started l from by decide
  iapply (start_fam c 𝒱₀ arg3 (Memref.whole main_v0_0) i q ai wm hai x3 f 261 133 5 hl133 hj5 rfl hp262 hn262 w262 hw262 k0_cond262 (fun _ => rfl) (k0_chk262 i) (k0_chk262.dec i) (k0_off786 i) (fun _ => rfl) (fun _ _ => rfl) rfl) $$ [HS HC S5]
  · isplitl [HS]; · iexact HS
    isplitl [HC]; · iexact HC
    iexact S5
  iintro ⟨HS, HC⟩
  iapply (loadMask_wp c 𝒱₀ i 134 hl134 q wm rfl) $$ HM
  iintro HM %w263 %hw263
  have hp263 : stateAt 262 ⟨134, hl134⟩ = St.pending := show stateAt 262 ⟨134, (by decide : (134 : ℕ) < 256)⟩ = St.pending from by decide
  have hn263 : ∀ l : Fin 256, stateAt 263 l = Function.update (stateAt 262) ⟨134, hl134⟩ St.started l := show ∀ l : Fin 256, stateAt 263 l = Function.update (stateAt 262) ⟨134, (by decide : (134 : ℕ) < 256)⟩ St.started l from by decide
  iapply (start_fam c 𝒱₀ arg3 (Memref.whole main_v0_0) i q ai wm hai x3 f 262 134 6 hl134 hj6 rfl hp263 hn263 w263 hw263 k0_cond263 (fun _ => rfl) (k0_chk263 i) (k0_chk263.dec i) (k0_off789 i) (fun _ => rfl) (fun _ _ => rfl) rfl) $$ [HS HC S6]
  · isplitl [HS]; · iexact HS
    isplitl [HC]; · iexact HC
    iexact S6
  iintro ⟨HS, HC⟩
  iapply (loadMask_wp c 𝒱₀ i 135 hl135 q wm rfl) $$ HM
  iintro HM %w264 %hw264
  rw [wp_pure]
  imodintro
  isplitr; · ipureintro; exact hw264
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.KernelIdeal.Cells

end
-- ==== Proof.Parts5Ideal.lean ====
/-
  Parts 45 to 55 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyIdeal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 45 of the body: steps 264 to 269, and the load of the next step's mask word. -/
theorem part45_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 135 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 263 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part45 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 141 (by decide)⌝ ∗ ((c : Thread nD τ).loc main_call0_v12 ↦{q} ai) ∗ ((c : Thread nD τ).loc main_call0_v13 ↦{q} wm) ∗ cells c arg3 (Memref.whole main_v0_0) i ai wm hai x3 f 269 ∗ semPt c 13 (sem_inb 13 (by decide)) ∗ semPt c 14 (sem_inb 14 (by decide)) ∗ semPt c 15 (sem_inb 15 (by decide)) ∗ ∃ W', owes (c : Thread nD τ) 0 W')) := by
  rw [k0_part45_eq_skeleton]; unfold k0_part45_skel
  iintro ⟨HS, HM, HC, S7, S8, S9, S10, S11, S12, S13, S14, S15, HO⟩
  have hl135 : (135 : ℕ) < 256 := by decide
  have hl136 : (136 : ℕ) < 256 := by decide
  have hl137 : (137 : ℕ) < 256 := by decide
  have hl138 : (138 : ℕ) < 256 := by decide
  have hl139 : (139 : ℕ) < 256 := by decide
  have hl140 : (140 : ℕ) < 256 := by decide
  have hl141 : (141 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw264 : w = wordOf wm i 135 hl135 := hw
  have hp264 : stateAt 263 ⟨135, hl135⟩ = St.pending := show stateAt 263 ⟨135, (by decide : (135 : ℕ) < 256)⟩ = St.pending from by decide
  have hn264 : ∀ l : Fin 256, stateAt 264 l = Function.update (stateAt 263) ⟨135, hl135⟩ St.started l := show ∀ l : Fin 256, stateAt 264 l = Function.update (stateAt 263) ⟨135, (by decide : (135 : ℕ) < 256)⟩ St.started l from by decide
  iapply (start_fam c 𝒱₀ arg3 (Memref.whole main_v0_0) i q ai wm hai x3 f 263 135 7 hl135 hj7 rfl hp264 hn264 w hw264 k0_cond264 (fun _ => rfl) (k0_chk264 i) (k0_chk264.dec i) (k0_off792 i) (fun _ => rfl) (fun _ _ => rfl) rfl) $$ [HS HC S7]
  · isplitl [HS]; · iexact HS
    isplitl [HC]; · iexact HC
    iexact S7
  iintro ⟨HS, HC⟩
  iapply (loadMask_wp c 𝒱₀ i 136 hl136 q wm rfl) $$ HM
  iintro HM %w265 %hw265
  have hp265 : stateAt 264 ⟨136, hl136⟩ = St.pending := show stateAt 264 ⟨136, (by decide : (136 : ℕ) < 256)⟩ = St.pending from by decide
  have hn265 : ∀ l : Fin 256, stateAt 265 l = Function.update (stateAt 264) ⟨136, hl136⟩ St.started l := show ∀ l : Fin 256, stateAt 265 l = Function.update (stateAt 264) ⟨136, (by decide : (136 : ℕ) < 256)⟩ St.started l from by decide
  iapply (start_fam c 𝒱₀ arg3 (Memref.whole main_v0_0) i q ai wm hai x3 f 264 136 8 hl136 hj8 rfl hp265 hn265 w265 hw265 k0_cond265 (fun _ => rfl) (k0_chk265 i) (k0_chk265.dec i) (k0_off795 i) (fun _ => rfl) (fun _ _ => rfl) rfl) $$ [HS HC S8]
  · isplitl [HS]; · iexact HS
    isplitl [HC]; · iexact HC
    iexact S8
  iintro ⟨HS, HC⟩
  iapply (loadMask_wp c 𝒱₀ i 137 hl137 q wm rfl) $$ HM
  iintro HM %w266 %hw266
  have hp266 : stateAt 265 ⟨137, hl137⟩ = St.pending := show stateAt 265 ⟨137, (by decide : (137 : ℕ) < 256)⟩ = St.pending from by decide
  have hn266 : ∀ l : Fin 256, stateAt 266 l = Function.update (stateAt 265) ⟨137, hl137⟩ St.started l := show ∀ l : Fin 256, stateAt 266 l = Function.update (stateAt 265) ⟨137, (by decide : (137 : ℕ) < 256)⟩ St.started l from by decide
  iapply (start_fam c 𝒱₀ arg3 (Memref.whole main_v0_0) i q ai wm hai x3 f 265 137 9 hl137 hj9 rfl hp266 hn266 w266 hw266 k0_cond266 (fun _ => rfl) (k0_chk266 i) (k0_chk266.dec i) (k0_off798 i) (fun _ => rfl) (fun _ _ => rfl) rfl) $$ [HS HC S9]
  · isplitl [HS]; · iexact HS
    isplitl [HC]; · iexact HC
    iexact S9
  iintro ⟨HS, HC⟩
  iapply (loadMask_wp c 𝒱₀ i 138 hl138 q wm rfl) $$ HM
  iintro HM %w267 %hw267
  have hp267 : stateAt 266 ⟨138, hl138⟩ = St.pending := show stateAt 266 ⟨138, (by decide : (138 : ℕ) < 256)⟩ = St.pending from by decide
  have hn267 : ∀ l : Fin 256, stateAt 267 l = Function.update (stateAt 266) ⟨138, hl138⟩ St.started l := show ∀ l : Fin 256, stateAt 267 l = Function.update (stateAt 266) ⟨138, (by decide : (138 : ℕ) < 256)⟩ St.started l from by decide
  iapply (start_fam c 𝒱₀ arg3 (Memref.whole main_v0_0) i q ai wm hai x3 f 266 138 10 hl138 hj10 rfl hp267 hn267 w267 hw267 k0_cond267 (fun _ => rfl) (k0_chk267 i) (k0_chk267.dec i) (k0_off801 i) (fun _ => rfl) (fun _ _ => rfl) rfl) $$ [HS HC S10]
  · isplitl [HS]; · iexact HS
    isplitl [HC]; · iexact HC
    iexact S10
  iintro ⟨HS, HC⟩
  iapply (loadMask_wp c 𝒱₀ i 139 hl139 q wm rfl) $$ HM
  iintro HM %w268 %hw268
  have hp268 : stateAt 267 ⟨139, hl139⟩ = St.pending := show stateAt 267 ⟨139, (by decide : (139 : ℕ) < 256)⟩ = St.pending from by decide
  have hn268 : ∀ l : Fin 256, stateAt 268 l = Function.update (stateAt 267) ⟨139, hl139⟩ St.started l := show ∀ l : Fin 256, stateAt 268 l = Function.update (stateAt 267) ⟨139, (by decide : (139 : ℕ) < 256)⟩ St.started l from by decide
  iapply (start_fam c 𝒱₀ arg3 (Memref.whole main_v0_0) i q ai wm hai x3 f 267 139 11 hl139 hj11 rfl hp268 hn268 w268 hw268 k0_cond268 (fun _ => rfl) (k0_chk268 i) (k0_chk268.dec i) (k0_off804 i) (fun _ => rfl) (fun _ _ => rfl) rfl) $$ [HS HC S11]
  · isplitl [HS]; · iexact HS
    isplitl [HC]; · iexact HC
    iexact S11
  iintro ⟨HS, HC⟩
  iapply (loadMask_wp c 𝒱₀ i 140 hl140 q wm rfl) $$ HM
  iintro HM %w269 %hw269
  have hp269 : stateAt 268 ⟨140, hl140⟩ = St.pending := show stateAt 268 ⟨140, (by decide : (140 : ℕ) < 256)⟩ = St.pending from by decide
  have hn269 : ∀ l : Fin 256, stateAt 269 l = Function.update (stateAt 268) ⟨140, hl140⟩ St.started l := show ∀ l : Fin 256, stateAt 269 l = Function.update (stateAt 268) ⟨140, (by decide : (140 : ℕ) < 256)⟩ St.started l from by decide
  iapply (start_fam c 𝒱₀ arg3 (Memref.whole main_v0_0) i q ai wm hai x3 f 268 140 12 hl140 hj12 rfl hp269 hn269 w269 hw269 k0_cond269 (fun _ => rfl) (k0_chk269 i) (k0_chk269.dec i) (k0_off807 i) (fun _ => rfl) (fun _ _ => rfl) rfl) $$ [HS HC S12]
  · isplitl [HS]; · iexact HS
    isplitl [HC]; · iexact HC
    iexact S12
  iintro ⟨HS, HC⟩
  iapply (loadMask_wp c 𝒱₀ i 141 hl141 q wm rfl) $$ HM
  iintro HM %w270 %hw270
  rw [wp_pure]
  imodintro
  isplitr; · ipureintro; exact hw270
  isplitl [HS]; · iexact HS
  isplitl [HM]; · iexact HM
  isplitl [HC]; · iexact HC
  isplitl [S13]; · iexact S13
  isplitl [S14]; · iexact S14
  isplitl [S15]; · iexact S15
  iexists _; iexact HO

set_option maxHeartbeats 0 in
/-- Part 46 of the body: steps 270 to 275, and the load of the next step's mask word. -/
theorem part46_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 141 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 269 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part46 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 131 (by decide)⌝ ∗ ((c : Thread nD τ).loc main_call0_v12 ↦{q} ai) ∗ ((c : Thread nD τ).loc main_call0_v13 ↦{q} wm) ∗ cells c arg3 (Memref.whole main_v0_0) i ai wm hai x3 f 275 ∗ semPt c 0 (sem_inb 0 (by decide)) ∗ semPt c 1 (sem_inb 1 (by decide)) ∗ semPt c 2 (sem_inb 2 (by decide)) ∗ ∃ W', owes (c : Thread nD τ) 0 W')) := by
  rw [k0_part46_eq_skeleton]; unfold k0_part46_skel
  iintro ⟨HS, HM, HC, S13, S14, S15, HO⟩
  have hl128 : (128 : ℕ) < 256 := by decide
  have hl129 : (129 : ℕ) < 256 := by decide
  have hl130 : (130 : ℕ) < 256 := by decide
  have hl131 : (131 : ℕ) < 256 := by decide
  have hl141 : (141 : ℕ) < 256 := by decide
  have hl142 : (142 : ℕ) < 256 := by decide
  have hl143 : (143 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw270 : w = wordOf wm i 141 hl141 := hw
  have hp270 : stateAt 269 ⟨141, hl141⟩ = St.pending := show stateAt 269 ⟨141, (by decide : (141 : ℕ) < 256)⟩ = St.pending from by decide
  have hn270 : ∀ l : Fin 256, stateAt 270 l = Function.update (stateAt 269) ⟨141, hl141⟩ St.started l := show ∀ l : Fin 256, stateAt 270 l = Function.update (stateAt 269) ⟨141, (by decide : (141 : ℕ) < 256)⟩ St.started l from by decide
  iapply (start_fam c 𝒱₀ arg3 (Memref.whole main_v0_0) i q ai wm hai x3 f 269 141 13 hl141 hj13 rfl hp270 hn270 w hw270 k0_cond270 (fun _ => rfl) (k0_chk270 i) (k0_chk270.dec i) (k0_off810 i) (fun _ => rfl) (fun _ _ => rfl) rfl) $$ [HS HC S13]
  · isplitl [HS]; · iexact HS
    isplitl [HC]; · iexact HC
    iexact S13
  iintro ⟨HS, HC⟩
  iapply (loadMask_wp c 𝒱₀ i 142 hl142 q wm rfl) $$ HM
  iintro HM %w271 %hw271
  have hp271 : stateAt 270 ⟨142, hl142⟩ = St.pending := show stateAt 270 ⟨142, (by decide : (142 : ℕ) < 256)⟩ = St.pending from by decide
  have hn271 : ∀ l : Fin 256, stateAt 271 l = Function.update (stateAt 270) ⟨142, hl142⟩ St.started l := show ∀ l : Fin 256, stateAt 271 l = Function.update (stateAt 270) ⟨142, (by decide : (142 : ℕ) < 256)⟩ St.started l from by decide
  iapply (start_fam c 𝒱₀ arg3 (Memref.whole main_v0_0) i q ai wm hai x3 f 270 142 14 hl142 hj14 rfl hp271 hn271 w271 hw271 k0_cond271 (fun _ => rfl) (k0_chk271 i) (k0_chk271.dec i) (k0_off813 i) (fun _ => rfl) (fun _ _ => rfl) rfl) $$ [HS HC S14]
  · isplitl [HS]; · iexact HS
    isplitl [HC]; · iexact HC
    iexact S14
  iintro ⟨HS, HC⟩
  iapply (loadMask_wp c 𝒱₀ i 143 hl143 q wm rfl) $$ HM
  iintro HM %w272 %hw272
  have hp272 : stateAt 271 ⟨143, hl143⟩ = St.pending := show stateAt 271 ⟨143, (by decide : (143 : ℕ) < 256)⟩ = St.pending from by decide
  have hn272 : ∀ l : Fin 256, stateAt 272 l = Function.update (stateAt 271) ⟨143, hl143⟩ St.started l := show ∀ l : Fin 256, stateAt 272 l = Function.update (stateAt 271) ⟨143, (by decide : (143 : ℕ) < 256)⟩ St.started l from by decide
  iapply (start_fam c 𝒱₀ arg3 (Memref.whole main_v0_0) i q ai wm hai x3 f 271 143 15 hl143 hj15 rfl hp272 hn272 w272 hw272 k0_cond272 (fun _ => rfl) (k0_chk272 i) (k0_chk272.dec i) (k0_off816 i) (fun _ => rfl) (fun _ _ => rfl) rfl) $$ [HS HC S15]
  · isplitl [HS]; · iexact HS
    isplitl [HC]; · iexact HC
    iexact S15
  iintro ⟨HS, HC⟩
  iapply (loadMask_wp c 𝒱₀ i 128 hl128 q wm rfl) $$ HM
  iintro HM %w273 %hw273
  have hp273 : stateAt 272 ⟨128, hl128⟩ = St.started := show stateAt 272 ⟨128, (by decide : (128 : ℕ) < 256)⟩ = St.started from by decide
  have hn273 : ∀ l : Fin 256, stateAt 273 l = Function.update (stateAt 272) ⟨128, hl128⟩ St.done l := show ∀ l : Fin 256, stateAt 273 l = Function.update (stateAt 272) ⟨128, (by decide : (128 : ℕ) < 256)⟩ St.done l from by decide
  iapply (wait_fam c 𝒱₀ arg3 (Memref.whole main_v0_0) i q ai wm hai x3 f 272 128 0 hl128 hj0 rfl hp273 hn273 w273 hw273 (k0_off818 i) rfl (k0_off818_inb i) k0_cond273 (fun _ => rfl) (k0_chk273 i) (k0_chk273.dec i) (k0_off819 i) (fun _ => rfl) (fun _ _ h => h) (k0_off819_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W273, HO⟩
  iapply (loadMask_wp c 𝒱₀ i 129 hl129 q wm rfl) $$ HM
  iintro HM %w274 %hw274
  have hp274 : stateAt 273 ⟨129, hl129⟩ = St.started := show stateAt 273 ⟨129, (by decide : (129 : ℕ) < 256)⟩ = St.started from by decide
  have hn274 : ∀ l : Fin 256, stateAt 274 l = Function.update (stateAt 273) ⟨129, hl129⟩ St.done l := show ∀ l : Fin 256, stateAt 274 l = Function.update (stateAt 273) ⟨129, (by decide : (129 : ℕ) < 256)⟩ St.done l from by decide
  iapply (wait_fam c 𝒱₀ arg3 (Memref.whole main_v0_0) i q ai wm hai x3 f 273 129 1 hl129 hj1 rfl hp274 hn274 w274 hw274 (k0_off821 i) rfl (k0_off821_inb i) k0_cond274 (fun _ => rfl) (k0_chk274 i) (k0_chk274.dec i) (k0_off822 i) (fun _ => rfl) (fun _ _ h => h) (k0_off822_inb i) ((View.wordExact_bits rfl).reshape _ _) (fun _ _ => (View.wordExact_bits rfl).reshape _ _) _ _ W273) $$ [HS HM HC HO]
  · isplitl [HS]; · iexact HS
    isplitl [HM]; · iexact HM
    isplitl [HC]; · iexact HC
    iexact HO
  iintro ⟨HS, HM, HC, S1, %W274, HO⟩
  iapply (loadMask_wp c 𝒱₀ i 130 hl130 q wm rfl) $$ HM
  iintro HM %w275 %hw275
  have hp275 : stateAt 274 ⟨130, hl130⟩ = St.started := show stateAt 274 ⟨130, (by decide : (130 : ℕ) < 256)⟩ = St.started from by decide
  have hn275 : ∀ l : Fin 256, stateAt 275 l = Function.update (stateAt 274) ⟨130, hl130⟩ St.done l := show ∀ l : Fin 256, stateAt 275 l = Function.update (stateAt 274) ⟨130, (by decide : (130 : ℕ) < 256)⟩ St.done l from by decide
  iapply (wait_fam c 𝒱₀ arg3 (Memref.whole main_v0_0) i q ai wm hai x3 f 274 130 2 hl130 hj2 rfl hp275 hn275 w275 hw275 (k0_off824 i) rfl (k0_off824_inb i) k0_cond275 (fun _ => rfl) (k0_chk275 i) (k0_chk275.dec i) (k0_off825 i) (fun _ => rfl) (fun _ _ h => h) (k0_off825_inb i) ((View.wordExact_bits rfl).reshape _ _) (fun _ _ => (View.wordExact_bits rfl).reshape _ _) _ _ W274) $$ [HS HM HC HO]
  · isplitl [HS]; · iexact HS
    isplitl [HM]; · iexact HM
    isplitl [HC]; · iexact HC
    iexact HO
  iintro ⟨HS, HM, HC, S2, %W275, HO⟩
  iapply (loadMask_wp c 𝒱₀ i 131 hl131 q wm rfl) $$ HM
  iintro HM %w276 %hw276
  rw [wp_pure]
  imodintro
  isplitr; · ipureintro; exact hw276
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 47 of the body: steps 276 to 281, and the load of the next step's mask word. -/
theorem part47_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 131 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 275 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part47 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 137 (by decide)⌝ ∗ ((c : Thread nD τ).loc main_call0_v12 ↦{q} ai) ∗ ((c : Thread nD τ).loc main_call0_v13 ↦{q} wm) ∗ cells c arg3 (Memref.whole main_v0_0) i ai wm hai x3 f 281 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part47_eq_skeleton]; unfold k0_part47_skel
  iintro ⟨HS, HM, HC, S0, S1, S2, HO⟩
  have hl131 : (131 : ℕ) < 256 := by decide
  have hl132 : (132 : ℕ) < 256 := by decide
  have hl133 : (133 : ℕ) < 256 := by decide
  have hl134 : (134 : ℕ) < 256 := by decide
  have hl135 : (135 : ℕ) < 256 := by decide
  have hl136 : (136 : ℕ) < 256 := by decide
  have hl137 : (137 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw276 : w = wordOf wm i 131 hl131 := hw
  have hp276 : stateAt 275 ⟨131, hl131⟩ = St.started := show stateAt 275 ⟨131, (by decide : (131 : ℕ) < 256)⟩ = St.started from by decide
  have hn276 : ∀ l : Fin 256, stateAt 276 l = Function.update (stateAt 275) ⟨131, hl131⟩ St.done l := show ∀ l : Fin 256, stateAt 276 l = Function.update (stateAt 275) ⟨131, (by decide : (131 : ℕ) < 256)⟩ St.done l from by decide
  iapply (wait_fam c 𝒱₀ arg3 (Memref.whole main_v0_0) i q ai wm hai x3 f 275 131 3 hl131 hj3 rfl hp276 hn276 w hw276 (k0_off827 i) rfl (k0_off827_inb i) k0_cond276 (fun _ => rfl) (k0_chk276 i) (k0_chk276.dec i) (k0_off828 i) (fun _ => rfl) (fun _ _ h => h) (k0_off828_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W276, HO⟩
  iapply (loadMask_wp c 𝒱₀ i 132 hl132 q wm rfl) $$ HM
  iintro HM %w277 %hw277
  have hp277 : stateAt 276 ⟨132, hl132⟩ = St.started := show stateAt 276 ⟨132, (by decide : (132 : ℕ) < 256)⟩ = St.started from by decide
  have hn277 : ∀ l : Fin 256, stateAt 277 l = Function.update (stateAt 276) ⟨132, hl132⟩ St.done l := show ∀ l : Fin 256, stateAt 277 l = Function.update (stateAt 276) ⟨132, (by decide : (132 : ℕ) < 256)⟩ St.done l from by decide
  iapply (wait_fam c 𝒱₀ arg3 (Memref.whole main_v0_0) i q ai wm hai x3 f 276 132 4 hl132 hj4 rfl hp277 hn277 w277 hw277 (k0_off830 i) rfl (k0_off830_inb i) k0_cond277 (fun _ => rfl) (k0_chk277 i) (k0_chk277.dec i) (k0_off831 i) (fun _ => rfl) (fun _ _ h => h) (k0_off831_inb i) ((View.wordExact_bits rfl).reshape _ _) (fun _ _ => (View.wordExact_bits rfl).reshape _ _) _ _ W276) $$ [HS HM HC HO]
  · isplitl [HS]; · iexact HS
    isplitl [HM]; · iexact HM
    isplitl [HC]; · iexact HC
    iexact HO
  iintro ⟨HS, HM, HC, S4, %W277, HO⟩
  iapply (loadMask_wp c 𝒱₀ i 133 hl133 q wm rfl) $$ HM
  iintro HM %w278 %hw278
  have hp278 : stateAt 277 ⟨133, hl133⟩ = St.started := show stateAt 277 ⟨133, (by decide : (133 : ℕ) < 256)⟩ = St.started from by decide
  have hn278 : ∀ l : Fin 256, stateAt 278 l = Function.update (stateAt 277) ⟨133, hl133⟩ St.done l := show ∀ l : Fin 256, stateAt 278 l = Function.update (stateAt 277) ⟨133, (by decide : (133 : ℕ) < 256)⟩ St.done l from by decide
  iapply (wait_fam c 𝒱₀ arg3 (Memref.whole main_v0_0) i q ai wm hai x3 f 277 133 5 hl133 hj5 rfl hp278 hn278 w278 hw278 (k0_off833 i) rfl (k0_off833_inb i) k0_cond278 (fun _ => rfl) (k0_chk278 i) (k0_chk278.dec i) (k0_off834 i) (fun _ => rfl) (fun _ _ h => h) (k0_off834_inb i) ((View.wordExact_bits rfl).reshape _ _) (fun _ _ => (View.wordExact_bits rfl).reshape _ _) _ _ W277) $$ [HS HM HC HO]
  · isplitl [HS]; · iexact HS
    isplitl [HM]; · iexact HM
    isplitl [HC]; · iexact HC
    iexact HO
  iintro ⟨HS, HM, HC, S5, %W278, HO⟩
  iapply (loadMask_wp c 𝒱₀ i 134 hl134 q wm rfl) $$ HM
  iintro HM %w279 %hw279
  have hp279 : stateAt 278 ⟨134, hl134⟩ = St.started := show stateAt 278 ⟨134, (by decide : (134 : ℕ) < 256)⟩ = St.started from by decide
  have hn279 : ∀ l : Fin 256, stateAt 279 l = Function.update (stateAt 278) ⟨134, hl134⟩ St.done l := show ∀ l : Fin 256, stateAt 279 l = Function.update (stateAt 278) ⟨134, (by decide : (134 : ℕ) < 256)⟩ St.done l from by decide
  iapply (wait_fam c 𝒱₀ arg3 (Memref.whole main_v0_0) i q ai wm hai x3 f 278 134 6 hl134 hj6 rfl hp279 hn279 w279 hw279 (k0_off836 i) rfl (k0_off836_inb i) k0_cond279 (fun _ => rfl) (k0_chk279 i) (k0_chk279.dec i) (k0_off837 i) (fun _ => rfl) (fun _ _ h => h) (k0_off837_inb i) ((View.wordExact_bits rfl).reshape _ _) (fun _ _ => (View.wordExact_bits rfl).reshape _ _) _ _ W278) $$ [HS HM HC HO]
  · isplitl [HS]; · iexact HS
    isplitl [HM]; · iexact HM
    isplitl [HC]; · iexact HC
    iexact HO
  iintro ⟨HS, HM, HC, S6, %W279, HO⟩
  iapply (loadMask_wp c 𝒱₀ i 135 hl135 q wm rfl) $$ HM
  iintro HM %w280 %hw280
  have hp280 : stateAt 279 ⟨135, hl135⟩ = St.started := show stateAt 279 ⟨135, (by decide : (135 : ℕ) < 256)⟩ = St.started from by decide
  have hn280 : ∀ l : Fin 256, stateAt 280 l = Function.update (stateAt 279) ⟨135, hl135⟩ St.done l := show ∀ l : Fin 256, stateAt 280 l = Function.update (stateAt 279) ⟨135, (by decide : (135 : ℕ) < 256)⟩ St.done l from by decide
  iapply (wait_fam c 𝒱₀ arg3 (Memref.whole main_v0_0) i q ai wm hai x3 f 279 135 7 hl135 hj7 rfl hp280 hn280 w280 hw280 (k0_off839 i) rfl (k0_off839_inb i) k0_cond280 (fun _ => rfl) (k0_chk280 i) (k0_chk280.dec i) (k0_off840 i) (fun _ => rfl) (fun _ _ h => h) (k0_off840_inb i) ((View.wordExact_bits rfl).reshape _ _) (fun _ _ => (View.wordExact_bits rfl).reshape _ _) _ _ W279) $$ [HS HM HC HO]
  · isplitl [HS]; · iexact HS
    isplitl [HM]; · iexact HM
    isplitl [HC]; · iexact HC
    iexact HO
  iintro ⟨HS, HM, HC, S7, %W280, HO⟩
  iapply (loadMask_wp c 𝒱₀ i 136 hl136 q wm rfl) $$ HM
  iintro HM %w281 %hw281
  have hp281 : stateAt 280 ⟨136, hl136⟩ = St.started := show stateAt 280 ⟨136, (by decide : (136 : ℕ) < 256)⟩ = St.started from by decide
  have hn281 : ∀ l : Fin 256, stateAt 281 l = Function.update (stateAt 280) ⟨136, hl136⟩ St.done l := show ∀ l : Fin 256, stateAt 281 l = Function.update (stateAt 280) ⟨136, (by decide : (136 : ℕ) < 256)⟩ St.done l from by decide
  iapply (wait_fam c 𝒱₀ arg3 (Memref.whole main_v0_0) i q ai wm hai x3 f 280 136 8 hl136 hj8 rfl hp281 hn281 w281 hw281 (k0_off842 i) rfl (k0_off842_inb i) k0_cond281 (fun _ => rfl) (k0_chk281 i) (k0_chk281.dec i) (k0_off843 i) (fun _ => rfl) (fun _ _ h => h) (k0_off843_inb i) ((View.wordExact_bits rfl).reshape _ _) (fun _ _ => (View.wordExact_bits rfl).reshape _ _) _ _ W280) $$ [HS HM HC HO]
  · isplitl [HS]; · iexact HS
    isplitl [HM]; · iexact HM
    isplitl [HC]; · iexact HC
    iexact HO
  iintro ⟨HS, HM, HC, S8, %W281, HO⟩
  iapply (loadMask_wp c 𝒱₀ i 137 hl137 q wm rfl) $$ HM
  iintro HM %w282 %hw282
  rw [wp_pure]
  imodintro
  isplitr; · ipureintro; exact hw282
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 48 of the body: steps 282 to 287, and the load of the next step's mask word. -/
theorem part48_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 137 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 281 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part48 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 143 (by decide)⌝ ∗ ((c : Thread nD τ).loc main_call0_v12 ↦{q} ai) ∗ ((c : Thread nD τ).loc main_call0_v13 ↦{q} wm) ∗ cells c arg3 (Memref.whole main_v0_0) i ai wm hai x3 f 287 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part48_eq_skeleton]; unfold k0_part48_skel
  iintro ⟨HS, HM, HC, S0, S1, S2, S3, S4, S5, S6, S7, S8, HO⟩
  have hl137 : (137 : ℕ) < 256 := by decide
  have hl138 : (138 : ℕ) < 256 := by decide
  have hl139 : (139 : ℕ) < 256 := by decide
  have hl140 : (140 : ℕ) < 256 := by decide
  have hl141 : (141 : ℕ) < 256 := by decide
  have hl142 : (142 : ℕ) < 256 := by decide
  have hl143 : (143 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw282 : w = wordOf wm i 137 hl137 := hw
  have hp282 : stateAt 281 ⟨137, hl137⟩ = St.started := show stateAt 281 ⟨137, (by decide : (137 : ℕ) < 256)⟩ = St.started from by decide
  have hn282 : ∀ l : Fin 256, stateAt 282 l = Function.update (stateAt 281) ⟨137, hl137⟩ St.done l := show ∀ l : Fin 256, stateAt 282 l = Function.update (stateAt 281) ⟨137, (by decide : (137 : ℕ) < 256)⟩ St.done l from by decide
  iapply (wait_fam c 𝒱₀ arg3 (Memref.whole main_v0_0) i q ai wm hai x3 f 281 137 9 hl137 hj9 rfl hp282 hn282 w hw282 (k0_off845 i) rfl (k0_off845_inb i) k0_cond282 (fun _ => rfl) (k0_chk282 i) (k0_chk282.dec i) (k0_off846 i) (fun _ => rfl) (fun _ _ h => h) (k0_off846_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W282, HO⟩
  iapply (loadMask_wp c 𝒱₀ i 138 hl138 q wm rfl) $$ HM
  iintro HM %w283 %hw283
  have hp283 : stateAt 282 ⟨138, hl138⟩ = St.started := show stateAt 282 ⟨138, (by decide : (138 : ℕ) < 256)⟩ = St.started from by decide
  have hn283 : ∀ l : Fin 256, stateAt 283 l = Function.update (stateAt 282) ⟨138, hl138⟩ St.done l := show ∀ l : Fin 256, stateAt 283 l = Function.update (stateAt 282) ⟨138, (by decide : (138 : ℕ) < 256)⟩ St.done l from by decide
  iapply (wait_fam c 𝒱₀ arg3 (Memref.whole main_v0_0) i q ai wm hai x3 f 282 138 10 hl138 hj10 rfl hp283 hn283 w283 hw283 (k0_off848 i) rfl (k0_off848_inb i) k0_cond283 (fun _ => rfl) (k0_chk283 i) (k0_chk283.dec i) (k0_off849 i) (fun _ => rfl) (fun _ _ h => h) (k0_off849_inb i) ((View.wordExact_bits rfl).reshape _ _) (fun _ _ => (View.wordExact_bits rfl).reshape _ _) _ _ W282) $$ [HS HM HC HO]
  · isplitl [HS]; · iexact HS
    isplitl [HM]; · iexact HM
    isplitl [HC]; · iexact HC
    iexact HO
  iintro ⟨HS, HM, HC, S10, %W283, HO⟩
  iapply (loadMask_wp c 𝒱₀ i 139 hl139 q wm rfl) $$ HM
  iintro HM %w284 %hw284
  have hp284 : stateAt 283 ⟨139, hl139⟩ = St.started := show stateAt 283 ⟨139, (by decide : (139 : ℕ) < 256)⟩ = St.started from by decide
  have hn284 : ∀ l : Fin 256, stateAt 284 l = Function.update (stateAt 283) ⟨139, hl139⟩ St.done l := show ∀ l : Fin 256, stateAt 284 l = Function.update (stateAt 283) ⟨139, (by decide : (139 : ℕ) < 256)⟩ St.done l from by decide
  iapply (wait_fam c 𝒱₀ arg3 (Memref.whole main_v0_0) i q ai wm hai x3 f 283 139 11 hl139 hj11 rfl hp284 hn284 w284 hw284 (k0_off851 i) rfl (k0_off851_inb i) k0_cond284 (fun _ => rfl) (k0_chk284 i) (k0_chk284.dec i) (k0_off852 i) (fun _ => rfl) (fun _ _ h => h) (k0_off852_inb i) ((View.wordExact_bits rfl).reshape _ _) (fun _ _ => (View.wordExact_bits rfl).reshape _ _) _ _ W283) $$ [HS HM HC HO]
  · isplitl [HS]; · iexact HS
    isplitl [HM]; · iexact HM
    isplitl [HC]; · iexact HC
    iexact HO
  iintro ⟨HS, HM, HC, S11, %W284, HO⟩
  iapply (loadMask_wp c 𝒱₀ i 140 hl140 q wm rfl) $$ HM
  iintro HM %w285 %hw285
  have hp285 : stateAt 284 ⟨140, hl140⟩ = St.started := show stateAt 284 ⟨140, (by decide : (140 : ℕ) < 256)⟩ = St.started from by decide
  have hn285 : ∀ l : Fin 256, stateAt 285 l = Function.update (stateAt 284) ⟨140, hl140⟩ St.done l := show ∀ l : Fin 256, stateAt 285 l = Function.update (stateAt 284) ⟨140, (by decide : (140 : ℕ) < 256)⟩ St.done l from by decide
  iapply (wait_fam c 𝒱₀ arg3 (Memref.whole main_v0_0) i q ai wm hai x3 f 284 140 12 hl140 hj12 rfl hp285 hn285 w285 hw285 (k0_off854 i) rfl (k0_off854_inb i) k0_cond285 (fun _ => rfl) (k0_chk285 i) (k0_chk285.dec i) (k0_off855 i) (fun _ => rfl) (fun _ _ h => h) (k0_off855_inb i) ((View.wordExact_bits rfl).reshape _ _) (fun _ _ => (View.wordExact_bits rfl).reshape _ _) _ _ W284) $$ [HS HM HC HO]
  · isplitl [HS]; · iexact HS
    isplitl [HM]; · iexact HM
    isplitl [HC]; · iexact HC
    iexact HO
  iintro ⟨HS, HM, HC, S12, %W285, HO⟩
  iapply (loadMask_wp c 𝒱₀ i 141 hl141 q wm rfl) $$ HM
  iintro HM %w286 %hw286
  have hp286 : stateAt 285 ⟨141, hl141⟩ = St.started := show stateAt 285 ⟨141, (by decide : (141 : ℕ) < 256)⟩ = St.started from by decide
  have hn286 : ∀ l : Fin 256, stateAt 286 l = Function.update (stateAt 285) ⟨141, hl141⟩ St.done l := show ∀ l : Fin 256, stateAt 286 l = Function.update (stateAt 285) ⟨141, (by decide : (141 : ℕ) < 256)⟩ St.done l from by decide
  iapply (wait_fam c 𝒱₀ arg3 (Memref.whole main_v0_0) i q ai wm hai x3 f 285 141 13 hl141 hj13 rfl hp286 hn286 w286 hw286 (k0_off857 i) rfl (k0_off857_inb i) k0_cond286 (fun _ => rfl) (k0_chk286 i) (k0_chk286.dec i) (k0_off858 i) (fun _ => rfl) (fun _ _ h => h) (k0_off858_inb i) ((View.wordExact_bits rfl).reshape _ _) (fun _ _ => (View.wordExact_bits rfl).reshape _ _) _ _ W285) $$ [HS HM HC HO]
  · isplitl [HS]; · iexact HS
    isplitl [HM]; · iexact HM
    isplitl [HC]; · iexact HC
    iexact HO
  iintro ⟨HS, HM, HC, S13, %W286, HO⟩
  iapply (loadMask_wp c 𝒱₀ i 142 hl142 q wm rfl) $$ HM
  iintro HM %w287 %hw287
  have hp287 : stateAt 286 ⟨142, hl142⟩ = St.started := show stateAt 286 ⟨142, (by decide : (142 : ℕ) < 256)⟩ = St.started from by decide
  have hn287 : ∀ l : Fin 256, stateAt 287 l = Function.update (stateAt 286) ⟨142, hl142⟩ St.done l := show ∀ l : Fin 256, stateAt 287 l = Function.update (stateAt 286) ⟨142, (by decide : (142 : ℕ) < 256)⟩ St.done l from by decide
  iapply (wait_fam c 𝒱₀ arg3 (Memref.whole main_v0_0) i q ai wm hai x3 f 286 142 14 hl142 hj14 rfl hp287 hn287 w287 hw287 (k0_off860 i) rfl (k0_off860_inb i) k0_cond287 (fun _ => rfl) (k0_chk287 i) (k0_chk287.dec i) (k0_off861 i) (fun _ => rfl) (fun _ _ h => h) (k0_off861_inb i) ((View.wordExact_bits rfl).reshape _ _) (fun _ _ => (View.wordExact_bits rfl).reshape _ _) _ _ W286) $$ [HS HM HC HO]
  · isplitl [HS]; · iexact HS
    isplitl [HM]; · iexact HM
    isplitl [HC]; · iexact HC
    iexact HO
  iintro ⟨HS, HM, HC, S14, %W287, HO⟩
  iapply (loadMask_wp c 𝒱₀ i 143 hl143 q wm rfl) $$ HM
  iintro HM %w288 %hw288
  rw [wp_pure]
  imodintro
  isplitr; · ipureintro; exact hw288
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 49 of the body: steps 288 to 293, and the load of the next step's mask word. -/
theorem part49_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 143 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 287 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part49 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 149 (by decide)⌝ ∗ ((c : Thread nD τ).loc main_call0_v12 ↦{q} ai) ∗ ((c : Thread nD τ).loc main_call0_v13 ↦{q} wm) ∗ cells c arg3 (Memref.whole main_v0_0) i ai wm hai x3 f 293 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part49_eq_skeleton]; unfold k0_part49_skel
  iintro ⟨HS, HM, HC, S0, S1, S2, S3, S4, S5, S6, S7, S8, S9, S10, S11, S12, S13, S14, HO⟩
  have hl143 : (143 : ℕ) < 256 := by decide
  have hl144 : (144 : ℕ) < 256 := by decide
  have hl145 : (145 : ℕ) < 256 := by decide
  have hl146 : (146 : ℕ) < 256 := by decide
  have hl147 : (147 : ℕ) < 256 := by decide
  have hl148 : (148 : ℕ) < 256 := by decide
  have hl149 : (149 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw288 : w = wordOf wm i 143 hl143 := hw
  have hp288 : stateAt 287 ⟨143, hl143⟩ = St.started := show stateAt 287 ⟨143, (by decide : (143 : ℕ) < 256)⟩ = St.started from by decide
  have hn288 : ∀ l : Fin 256, stateAt 288 l = Function.update (stateAt 287) ⟨143, hl143⟩ St.done l := show ∀ l : Fin 256, stateAt 288 l = Function.update (stateAt 287) ⟨143, (by decide : (143 : ℕ) < 256)⟩ St.done l from by decide
  iapply (wait_fam c 𝒱₀ arg3 (Memref.whole main_v0_0) i q ai wm hai x3 f 287 143 15 hl143 hj15 rfl hp288 hn288 w hw288 (k0_off863 i) rfl (k0_off863_inb i) k0_cond288 (fun _ => rfl) (k0_chk288 i) (k0_chk288.dec i) (k0_off864 i) (fun _ => rfl) (fun _ _ h => h) (k0_off864_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W288, HO⟩
  iapply (loadMask_wp c 𝒱₀ i 144 hl144 q wm rfl) $$ HM
  iintro HM %w289 %hw289
  have hp289 : stateAt 288 ⟨144, hl144⟩ = St.pending := show stateAt 288 ⟨144, (by decide : (144 : ℕ) < 256)⟩ = St.pending from by decide
  have hn289 : ∀ l : Fin 256, stateAt 289 l = Function.update (stateAt 288) ⟨144, hl144⟩ St.started l := show ∀ l : Fin 256, stateAt 289 l = Function.update (stateAt 288) ⟨144, (by decide : (144 : ℕ) < 256)⟩ St.started l from by decide
  iapply (start_fam c 𝒱₀ arg3 (Memref.whole main_v0_0) i q ai wm hai x3 f 288 144 0 hl144 hj0 rfl hp289 hn289 w289 hw289 k0_cond289 (fun _ => rfl) (k0_chk289 i) (k0_chk289.dec i) (k0_off867 i) (fun _ => rfl) (fun _ _ => rfl) rfl) $$ [HS HC S0]
  · isplitl [HS]; · iexact HS
    isplitl [HC]; · iexact HC
    iexact S0
  iintro ⟨HS, HC⟩
  iapply (loadMask_wp c 𝒱₀ i 145 hl145 q wm rfl) $$ HM
  iintro HM %w290 %hw290
  have hp290 : stateAt 289 ⟨145, hl145⟩ = St.pending := show stateAt 289 ⟨145, (by decide : (145 : ℕ) < 256)⟩ = St.pending from by decide
  have hn290 : ∀ l : Fin 256, stateAt 290 l = Function.update (stateAt 289) ⟨145, hl145⟩ St.started l := show ∀ l : Fin 256, stateAt 290 l = Function.update (stateAt 289) ⟨145, (by decide : (145 : ℕ) < 256)⟩ St.started l from by decide
  iapply (start_fam c 𝒱₀ arg3 (Memref.whole main_v0_0) i q ai wm hai x3 f 289 145 1 hl145 hj1 rfl hp290 hn290 w290 hw290 k0_cond290 (fun _ => rfl) (k0_chk290 i) (k0_chk290.dec i) (k0_off870 i) (fun _ => rfl) (fun _ _ => rfl) rfl) $$ [HS HC S1]
  · isplitl [HS]; · iexact HS
    isplitl [HC]; · iexact HC
    iexact S1
  iintro ⟨HS, HC⟩
  iapply (loadMask_wp c 𝒱₀ i 146 hl146 q wm rfl) $$ HM
  iintro HM %w291 %hw291
  have hp291 : stateAt 290 ⟨146, hl146⟩ = St.pending := show stateAt 290 ⟨146, (by decide : (146 : ℕ) < 256)⟩ = St.pending from by decide
  have hn291 : ∀ l : Fin 256, stateAt 291 l = Function.update (stateAt 290) ⟨146, hl146⟩ St.started l := show ∀ l : Fin 256, stateAt 291 l = Function.update (stateAt 290) ⟨146, (by decide : (146 : ℕ) < 256)⟩ St.started l from by decide
  iapply (start_fam c 𝒱₀ arg3 (Memref.whole main_v0_0) i q ai wm hai x3 f 290 146 2 hl146 hj2 rfl hp291 hn291 w291 hw291 k0_cond291 (fun _ => rfl) (k0_chk291 i) (k0_chk291.dec i) (k0_off873 i) (fun _ => rfl) (fun _ _ => rfl) rfl) $$ [HS HC S2]
  · isplitl [HS]; · iexact HS
    isplitl [HC]; · iexact HC
    iexact S2
  iintro ⟨HS, HC⟩
  iapply (loadMask_wp c 𝒱₀ i 147 hl147 q wm rfl) $$ HM
  iintro HM %w292 %hw292
  have hp292 : stateAt 291 ⟨147, hl147⟩ = St.pending := show stateAt 291 ⟨147, (by decide : (147 : ℕ) < 256)⟩ = St.pending from by decide
  have hn292 : ∀ l : Fin 256, stateAt 292 l = Function.update (stateAt 291) ⟨147, hl147⟩ St.started l := show ∀ l : Fin 256, stateAt 292 l = Function.update (stateAt 291) ⟨147, (by decide : (147 : ℕ) < 256)⟩ St.started l from by decide
  iapply (start_fam c 𝒱₀ arg3 (Memref.whole main_v0_0) i q ai wm hai x3 f 291 147 3 hl147 hj3 rfl hp292 hn292 w292 hw292 k0_cond292 (fun _ => rfl) (k0_chk292 i) (k0_chk292.dec i) (k0_off876 i) (fun _ => rfl) (fun _ _ => rfl) rfl) $$ [HS HC S3]
  · isplitl [HS]; · iexact HS
    isplitl [HC]; · iexact HC
    iexact S3
  iintro ⟨HS, HC⟩
  iapply (loadMask_wp c 𝒱₀ i 148 hl148 q wm rfl) $$ HM
  iintro HM %w293 %hw293
  have hp293 : stateAt 292 ⟨148, hl148⟩ = St.pending := show stateAt 292 ⟨148, (by decide : (148 : ℕ) < 256)⟩ = St.pending from by decide
  have hn293 : ∀ l : Fin 256, stateAt 293 l = Function.update (stateAt 292) ⟨148, hl148⟩ St.started l := show ∀ l : Fin 256, stateAt 293 l = Function.update (stateAt 292) ⟨148, (by decide : (148 : ℕ) < 256)⟩ St.started l from by decide
  iapply (start_fam c 𝒱₀ arg3 (Memref.whole main_v0_0) i q ai wm hai x3 f 292 148 4 hl148 hj4 rfl hp293 hn293 w293 hw293 k0_cond293 (fun _ => rfl) (k0_chk293 i) (k0_chk293.dec i) (k0_off879 i) (fun _ => rfl) (fun _ _ => rfl) rfl) $$ [HS HC S4]
  · isplitl [HS]; · iexact HS
    isplitl [HC]; · iexact HC
    iexact S4
  iintro ⟨HS, HC⟩
  iapply (loadMask_wp c 𝒱₀ i 149 hl149 q wm rfl) $$ HM
  iintro HM %w294 %hw294
  rw [wp_pure]
  imodintro
  isplitr; · ipureintro; exact hw294
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 50 of the body: steps 294 to 299, and the load of the next step's mask word. -/
theorem part50_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 149 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 293 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part50 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 155 (by decide)⌝ ∗ ((c : Thread nD τ).loc main_call0_v12 ↦{q} ai) ∗ ((c : Thread nD τ).loc main_call0_v13 ↦{q} wm) ∗ cells c arg3 (Memref.whole main_v0_0) i ai wm hai x3 f 299 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part50_eq_skeleton]; unfold k0_part50_skel
  iintro ⟨HS, HM, HC, S5, S6, S7, S8, S9, S10, S11, S12, S13, S14, S15, HO⟩
  have hl149 : (149 : ℕ) < 256 := by decide
  have hl150 : (150 : ℕ) < 256 := by decide
  have hl151 : (151 : ℕ) < 256 := by decide
  have hl152 : (152 : ℕ) < 256 := by decide
  have hl153 : (153 : ℕ) < 256 := by decide
  have hl154 : (154 : ℕ) < 256 := by decide
  have hl155 : (155 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw294 : w = wordOf wm i 149 hl149 := hw
  have hp294 : stateAt 293 ⟨149, hl149⟩ = St.pending := show stateAt 293 ⟨149, (by decide : (149 : ℕ) < 256)⟩ = St.pending from by decide
  have hn294 : ∀ l : Fin 256, stateAt 294 l = Function.update (stateAt 293) ⟨149, hl149⟩ St.started l := show ∀ l : Fin 256, stateAt 294 l = Function.update (stateAt 293) ⟨149, (by decide : (149 : ℕ) < 256)⟩ St.started l from by decide
  iapply (start_fam c 𝒱₀ arg3 (Memref.whole main_v0_0) i q ai wm hai x3 f 293 149 5 hl149 hj5 rfl hp294 hn294 w hw294 k0_cond294 (fun _ => rfl) (k0_chk294 i) (k0_chk294.dec i) (k0_off882 i) (fun _ => rfl) (fun _ _ => rfl) rfl) $$ [HS HC S5]
  · isplitl [HS]; · iexact HS
    isplitl [HC]; · iexact HC
    iexact S5
  iintro ⟨HS, HC⟩
  iapply (loadMask_wp c 𝒱₀ i 150 hl150 q wm rfl) $$ HM
  iintro HM %w295 %hw295
  have hp295 : stateAt 294 ⟨150, hl150⟩ = St.pending := show stateAt 294 ⟨150, (by decide : (150 : ℕ) < 256)⟩ = St.pending from by decide
  have hn295 : ∀ l : Fin 256, stateAt 295 l = Function.update (stateAt 294) ⟨150, hl150⟩ St.started l := show ∀ l : Fin 256, stateAt 295 l = Function.update (stateAt 294) ⟨150, (by decide : (150 : ℕ) < 256)⟩ St.started l from by decide
  iapply (start_fam c 𝒱₀ arg3 (Memref.whole main_v0_0) i q ai wm hai x3 f 294 150 6 hl150 hj6 rfl hp295 hn295 w295 hw295 k0_cond295 (fun _ => rfl) (k0_chk295 i) (k0_chk295.dec i) (k0_off885 i) (fun _ => rfl) (fun _ _ => rfl) rfl) $$ [HS HC S6]
  · isplitl [HS]; · iexact HS
    isplitl [HC]; · iexact HC
    iexact S6
  iintro ⟨HS, HC⟩
  iapply (loadMask_wp c 𝒱₀ i 151 hl151 q wm rfl) $$ HM
  iintro HM %w296 %hw296
  have hp296 : stateAt 295 ⟨151, hl151⟩ = St.pending := show stateAt 295 ⟨151, (by decide : (151 : ℕ) < 256)⟩ = St.pending from by decide
  have hn296 : ∀ l : Fin 256, stateAt 296 l = Function.update (stateAt 295) ⟨151, hl151⟩ St.started l := show ∀ l : Fin 256, stateAt 296 l = Function.update (stateAt 295) ⟨151, (by decide : (151 : ℕ) < 256)⟩ St.started l from by decide
  iapply (start_fam c 𝒱₀ arg3 (Memref.whole main_v0_0) i q ai wm hai x3 f 295 151 7 hl151 hj7 rfl hp296 hn296 w296 hw296 k0_cond296 (fun _ => rfl) (k0_chk296 i) (k0_chk296.dec i) (k0_off888 i) (fun _ => rfl) (fun _ _ => rfl) rfl) $$ [HS HC S7]
  · isplitl [HS]; · iexact HS
    isplitl [HC]; · iexact HC
    iexact S7
  iintro ⟨HS, HC⟩
  iapply (loadMask_wp c 𝒱₀ i 152 hl152 q wm rfl) $$ HM
  iintro HM %w297 %hw297
  have hp297 : stateAt 296 ⟨152, hl152⟩ = St.pending := show stateAt 296 ⟨152, (by decide : (152 : ℕ) < 256)⟩ = St.pending from by decide
  have hn297 : ∀ l : Fin 256, stateAt 297 l = Function.update (stateAt 296) ⟨152, hl152⟩ St.started l := show ∀ l : Fin 256, stateAt 297 l = Function.update (stateAt 296) ⟨152, (by decide : (152 : ℕ) < 256)⟩ St.started l from by decide
  iapply (start_fam c 𝒱₀ arg3 (Memref.whole main_v0_0) i q ai wm hai x3 f 296 152 8 hl152 hj8 rfl hp297 hn297 w297 hw297 k0_cond297 (fun _ => rfl) (k0_chk297 i) (k0_chk297.dec i) (k0_off891 i) (fun _ => rfl) (fun _ _ => rfl) rfl) $$ [HS HC S8]
  · isplitl [HS]; · iexact HS
    isplitl [HC]; · iexact HC
    iexact S8
  iintro ⟨HS, HC⟩
  iapply (loadMask_wp c 𝒱₀ i 153 hl153 q wm rfl) $$ HM
  iintro HM %w298 %hw298
  have hp298 : stateAt 297 ⟨153, hl153⟩ = St.pending := show stateAt 297 ⟨153, (by decide : (153 : ℕ) < 256)⟩ = St.pending from by decide
  have hn298 : ∀ l : Fin 256, stateAt 298 l = Function.update (stateAt 297) ⟨153, hl153⟩ St.started l := show ∀ l : Fin 256, stateAt 298 l = Function.update (stateAt 297) ⟨153, (by decide : (153 : ℕ) < 256)⟩ St.started l from by decide
  iapply (start_fam c 𝒱₀ arg3 (Memref.whole main_v0_0) i q ai wm hai x3 f 297 153 9 hl153 hj9 rfl hp298 hn298 w298 hw298 k0_cond298 (fun _ => rfl) (k0_chk298 i) (k0_chk298.dec i) (k0_off894 i) (fun _ => rfl) (fun _ _ => rfl) rfl) $$ [HS HC S9]
  · isplitl [HS]; · iexact HS
    isplitl [HC]; · iexact HC
    iexact S9
  iintro ⟨HS, HC⟩
  iapply (loadMask_wp c 𝒱₀ i 154 hl154 q wm rfl) $$ HM
  iintro HM %w299 %hw299
  have hp299 : stateAt 298 ⟨154, hl154⟩ = St.pending := show stateAt 298 ⟨154, (by decide : (154 : ℕ) < 256)⟩ = St.pending from by decide
  have hn299 : ∀ l : Fin 256, stateAt 299 l = Function.update (stateAt 298) ⟨154, hl154⟩ St.started l := show ∀ l : Fin 256, stateAt 299 l = Function.update (stateAt 298) ⟨154, (by decide : (154 : ℕ) < 256)⟩ St.started l from by decide
  iapply (start_fam c 𝒱₀ arg3 (Memref.whole main_v0_0) i q ai wm hai x3 f 298 154 10 hl154 hj10 rfl hp299 hn299 w299 hw299 k0_cond299 (fun _ => rfl) (k0_chk299 i) (k0_chk299.dec i) (k0_off897 i) (fun _ => rfl) (fun _ _ => rfl) rfl) $$ [HS HC S10]
  · isplitl [HS]; · iexact HS
    isplitl [HC]; · iexact HC
    iexact S10
  iintro ⟨HS, HC⟩
  iapply (loadMask_wp c 𝒱₀ i 155 hl155 q wm rfl) $$ HM
  iintro HM %w300 %hw300
  rw [wp_pure]
  imodintro
  isplitr; · ipureintro; exact hw300
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 51 of the body: steps 300 to 305, and the load of the next step's mask word. -/
theorem part51_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 155 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 299 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part51 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 145 (by decide)⌝ ∗ ((c : Thread nD τ).loc main_call0_v12 ↦{q} ai) ∗ ((c : Thread nD τ).loc main_call0_v13 ↦{q} wm) ∗ cells c arg3 (Memref.whole main_v0_0) i ai wm hai x3 f 305 ∗ semPt c 0 (sem_inb 0 (by decide)) ∗ ∃ W', owes (c : Thread nD τ) 0 W')) := by
  rw [k0_part51_eq_skeleton]; unfold k0_part51_skel
  iintro ⟨HS, HM, HC, S11, S12, S13, S14, S15, HO⟩
  have hl144 : (144 : ℕ) < 256 := by decide
  have hl145 : (145 : ℕ) < 256 := by decide
  have hl155 : (155 : ℕ) < 256 := by decide
  have hl156 : (156 : ℕ) < 256 := by decide
  have hl157 : (157 : ℕ) < 256 := by decide
  have hl158 : (158 : ℕ) < 256 := by decide
  have hl159 : (159 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw300 : w = wordOf wm i 155 hl155 := hw
  have hp300 : stateAt 299 ⟨155, hl155⟩ = St.pending := show stateAt 299 ⟨155, (by decide : (155 : ℕ) < 256)⟩ = St.pending from by decide
  have hn300 : ∀ l : Fin 256, stateAt 300 l = Function.update (stateAt 299) ⟨155, hl155⟩ St.started l := show ∀ l : Fin 256, stateAt 300 l = Function.update (stateAt 299) ⟨155, (by decide : (155 : ℕ) < 256)⟩ St.started l from by decide
  iapply (start_fam c 𝒱₀ arg3 (Memref.whole main_v0_0) i q ai wm hai x3 f 299 155 11 hl155 hj11 rfl hp300 hn300 w hw300 k0_cond300 (fun _ => rfl) (k0_chk300 i) (k0_chk300.dec i) (k0_off900 i) (fun _ => rfl) (fun _ _ => rfl) rfl) $$ [HS HC S11]
  · isplitl [HS]; · iexact HS
    isplitl [HC]; · iexact HC
    iexact S11
  iintro ⟨HS, HC⟩
  iapply (loadMask_wp c 𝒱₀ i 156 hl156 q wm rfl) $$ HM
  iintro HM %w301 %hw301
  have hp301 : stateAt 300 ⟨156, hl156⟩ = St.pending := show stateAt 300 ⟨156, (by decide : (156 : ℕ) < 256)⟩ = St.pending from by decide
  have hn301 : ∀ l : Fin 256, stateAt 301 l = Function.update (stateAt 300) ⟨156, hl156⟩ St.started l := show ∀ l : Fin 256, stateAt 301 l = Function.update (stateAt 300) ⟨156, (by decide : (156 : ℕ) < 256)⟩ St.started l from by decide
  iapply (start_fam c 𝒱₀ arg3 (Memref.whole main_v0_0) i q ai wm hai x3 f 300 156 12 hl156 hj12 rfl hp301 hn301 w301 hw301 k0_cond301 (fun _ => rfl) (k0_chk301 i) (k0_chk301.dec i) (k0_off903 i) (fun _ => rfl) (fun _ _ => rfl) rfl) $$ [HS HC S12]
  · isplitl [HS]; · iexact HS
    isplitl [HC]; · iexact HC
    iexact S12
  iintro ⟨HS, HC⟩
  iapply (loadMask_wp c 𝒱₀ i 157 hl157 q wm rfl) $$ HM
  iintro HM %w302 %hw302
  have hp302 : stateAt 301 ⟨157, hl157⟩ = St.pending := show stateAt 301 ⟨157, (by decide : (157 : ℕ) < 256)⟩ = St.pending from by decide
  have hn302 : ∀ l : Fin 256, stateAt 302 l = Function.update (stateAt 301) ⟨157, hl157⟩ St.started l := show ∀ l : Fin 256, stateAt 302 l = Function.update (stateAt 301) ⟨157, (by decide : (157 : ℕ) < 256)⟩ St.started l from by decide
  iapply (start_fam c 𝒱₀ arg3 (Memref.whole main_v0_0) i q ai wm hai x3 f 301 157 13 hl157 hj13 rfl hp302 hn302 w302 hw302 k0_cond302 (fun _ => rfl) (k0_chk302 i) (k0_chk302.dec i) (k0_off906 i) (fun _ => rfl) (fun _ _ => rfl) rfl) $$ [HS HC S13]
  · isplitl [HS]; · iexact HS
    isplitl [HC]; · iexact HC
    iexact S13
  iintro ⟨HS, HC⟩
  iapply (loadMask_wp c 𝒱₀ i 158 hl158 q wm rfl) $$ HM
  iintro HM %w303 %hw303
  have hp303 : stateAt 302 ⟨158, hl158⟩ = St.pending := show stateAt 302 ⟨158, (by decide : (158 : ℕ) < 256)⟩ = St.pending from by decide
  have hn303 : ∀ l : Fin 256, stateAt 303 l = Function.update (stateAt 302) ⟨158, hl158⟩ St.started l := show ∀ l : Fin 256, stateAt 303 l = Function.update (stateAt 302) ⟨158, (by decide : (158 : ℕ) < 256)⟩ St.started l from by decide
  iapply (start_fam c 𝒱₀ arg3 (Memref.whole main_v0_0) i q ai wm hai x3 f 302 158 14 hl158 hj14 rfl hp303 hn303 w303 hw303 k0_cond303 (fun _ => rfl) (k0_chk303 i) (k0_chk303.dec i) (k0_off909 i) (fun _ => rfl) (fun _ _ => rfl) rfl) $$ [HS HC S14]
  · isplitl [HS]; · iexact HS
    isplitl [HC]; · iexact HC
    iexact S14
  iintro ⟨HS, HC⟩
  iapply (loadMask_wp c 𝒱₀ i 159 hl159 q wm rfl) $$ HM
  iintro HM %w304 %hw304
  have hp304 : stateAt 303 ⟨159, hl159⟩ = St.pending := show stateAt 303 ⟨159, (by decide : (159 : ℕ) < 256)⟩ = St.pending from by decide
  have hn304 : ∀ l : Fin 256, stateAt 304 l = Function.update (stateAt 303) ⟨159, hl159⟩ St.started l := show ∀ l : Fin 256, stateAt 304 l = Function.update (stateAt 303) ⟨159, (by decide : (159 : ℕ) < 256)⟩ St.started l from by decide
  iapply (start_fam c 𝒱₀ arg3 (Memref.whole main_v0_0) i q ai wm hai x3 f 303 159 15 hl159 hj15 rfl hp304 hn304 w304 hw304 k0_cond304 (fun _ => rfl) (k0_chk304 i) (k0_chk304.dec i) (k0_off912 i) (fun _ => rfl) (fun _ _ => rfl) rfl) $$ [HS HC S15]
  · isplitl [HS]; · iexact HS
    isplitl [HC]; · iexact HC
    iexact S15
  iintro ⟨HS, HC⟩
  iapply (loadMask_wp c 𝒱₀ i 144 hl144 q wm rfl) $$ HM
  iintro HM %w305 %hw305
  have hp305 : stateAt 304 ⟨144, hl144⟩ = St.started := show stateAt 304 ⟨144, (by decide : (144 : ℕ) < 256)⟩ = St.started from by decide
  have hn305 : ∀ l : Fin 256, stateAt 305 l = Function.update (stateAt 304) ⟨144, hl144⟩ St.done l := show ∀ l : Fin 256, stateAt 305 l = Function.update (stateAt 304) ⟨144, (by decide : (144 : ℕ) < 256)⟩ St.done l from by decide
  iapply (wait_fam c 𝒱₀ arg3 (Memref.whole main_v0_0) i q ai wm hai x3 f 304 144 0 hl144 hj0 rfl hp305 hn305 w305 hw305 (k0_off914 i) rfl (k0_off914_inb i) k0_cond305 (fun _ => rfl) (k0_chk305 i) (k0_chk305.dec i) (k0_off915 i) (fun _ => rfl) (fun _ _ h => h) (k0_off915_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W305, HO⟩
  iapply (loadMask_wp c 𝒱₀ i 145 hl145 q wm rfl) $$ HM
  iintro HM %w306 %hw306
  rw [wp_pure]
  imodintro
  isplitr; · ipureintro; exact hw306
  isplitl [HS]; · iexact HS
  isplitl [HM]; · iexact HM
  isplitl [HC]; · iexact HC
  isplitl [S0]; · iexact S0
  iexists _; iexact HO

set_option maxHeartbeats 0 in
/-- Part 52 of the body: steps 306 to 311, and the load of the next step's mask word. -/
theorem part52_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 145 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 305 ∗ semPt c 0 (sem_inb 0 (by decide)) ∗ owes (c : Thread nD τ) 0 W)
      ⊢ wp frame (wpE (defs₀ (F := F)) 𝒱₀ (c : Thread nD τ) none) Set.univ (k0_part52 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 151 (by decide)⌝ ∗ ((c : Thread nD τ).loc main_call0_v12 ↦{q} ai) ∗ ((c : Thread nD τ).loc main_call0_v13 ↦{q} wm) ∗ cells c arg3 (Memref.whole main_v0_0) i ai wm hai x3 f 311 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part52_eq_skeleton]; unfold k0_part52_skel
  iintro ⟨HS, HM, HC, S0, HO⟩
  have hl145 : (145 : ℕ) < 256 := by decide
  have hl146 : (146 : ℕ) < 256 := by decide
  have hl147 : (147 : ℕ) < 256 := by decide
  have hl148 : (148 : ℕ) < 256 := by decide
  have hl149 : (149 : ℕ) < 256 := by decide
  have hl150 : (150 : ℕ) < 256 := by decide
  have hl151 : (151 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw306 : w = wordOf wm i 145 hl145 := hw
  have hp306 : stateAt 305 ⟨145, hl145⟩ = St.started := show stateAt 305 ⟨145, (by decide : (145 : ℕ) < 256)⟩ = St.started from by decide
  have hn306 : ∀ l : Fin 256, stateAt 306 l = Function.update (stateAt 305) ⟨145, hl145⟩ St.done l := show ∀ l : Fin 256, stateAt 306 l = Function.update (stateAt 305) ⟨145, (by decide : (145 : ℕ) < 256)⟩ St.done l from by decide
  iapply (wait_fam c 𝒱₀ arg3 (Memref.whole main_v0_0) i q ai wm hai x3 f 305 145 1 hl145 hj1 rfl hp306 hn306 w hw306 (k0_off917 i) rfl (k0_off917_inb i) k0_cond306 (fun _ => rfl) (k0_chk306 i) (k0_chk306.dec i) (k0_off918 i) (fun _ => rfl) (fun _ _ h => h) (k0_off918_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W306, HO⟩
  iapply (loadMask_wp c 𝒱₀ i 146 hl146 q wm rfl) $$ HM
  iintro HM %w307 %hw307
  have hp307 : stateAt 306 ⟨146, hl146⟩ = St.started := show stateAt 306 ⟨146, (by decide : (146 : ℕ) < 256)⟩ = St.started from by decide
  have hn307 : ∀ l : Fin 256, stateAt 307 l = Function.update (stateAt 306) ⟨146, hl146⟩ St.done l := show ∀ l : Fin 256, stateAt 307 l = Function.update (stateAt 306) ⟨146, (by decide : (146 : ℕ) < 256)⟩ St.done l from by decide
  iapply (wait_fam c 𝒱₀ arg3 (Memref.whole main_v0_0) i q ai wm hai x3 f 306 146 2 hl146 hj2 rfl hp307 hn307 w307 hw307 (k0_off920 i) rfl (k0_off920_inb i) k0_cond307 (fun _ => rfl) (k0_chk307 i) (k0_chk307.dec i) (k0_off921 i) (fun _ => rfl) (fun _ _ h => h) (k0_off921_inb i) ((View.wordExact_bits rfl).reshape _ _) (fun _ _ => (View.wordExact_bits rfl).reshape _ _) _ _ W306) $$ [HS HM HC HO]
  · isplitl [HS]; · iexact HS
    isplitl [HM]; · iexact HM
    isplitl [HC]; · iexact HC
    iexact HO
  iintro ⟨HS, HM, HC, S2, %W307, HO⟩
  iapply (loadMask_wp c 𝒱₀ i 147 hl147 q wm rfl) $$ HM
  iintro HM %w308 %hw308
  have hp308 : stateAt 307 ⟨147, hl147⟩ = St.started := show stateAt 307 ⟨147, (by decide : (147 : ℕ) < 256)⟩ = St.started from by decide
  have hn308 : ∀ l : Fin 256, stateAt 308 l = Function.update (stateAt 307) ⟨147, hl147⟩ St.done l := show ∀ l : Fin 256, stateAt 308 l = Function.update (stateAt 307) ⟨147, (by decide : (147 : ℕ) < 256)⟩ St.done l from by decide
  iapply (wait_fam c 𝒱₀ arg3 (Memref.whole main_v0_0) i q ai wm hai x3 f 307 147 3 hl147 hj3 rfl hp308 hn308 w308 hw308 (k0_off923 i) rfl (k0_off923_inb i) k0_cond308 (fun _ => rfl) (k0_chk308 i) (k0_chk308.dec i) (k0_off924 i) (fun _ => rfl) (fun _ _ h => h) (k0_off924_inb i) ((View.wordExact_bits rfl).reshape _ _) (fun _ _ => (View.wordExact_bits rfl).reshape _ _) _ _ W307) $$ [HS HM HC HO]
  · isplitl [HS]; · iexact HS
    isplitl [HM]; · iexact HM
    isplitl [HC]; · iexact HC
    iexact HO
  iintro ⟨HS, HM, HC, S3, %W308, HO⟩
  iapply (loadMask_wp c 𝒱₀ i 148 hl148 q wm rfl) $$ HM
  iintro HM %w309 %hw309
  have hp309 : stateAt 308 ⟨148, hl148⟩ = St.started := show stateAt 308 ⟨148, (by decide : (148 : ℕ) < 256)⟩ = St.started from by decide
  have hn309 : ∀ l : Fin 256, stateAt 309 l = Function.update (stateAt 308) ⟨148, hl148⟩ St.done l := show ∀ l : Fin 256, stateAt 309 l = Function.update (stateAt 308) ⟨148, (by decide : (148 : ℕ) < 256)⟩ St.done l from by decide
  iapply (wait_fam c 𝒱₀ arg3 (Memref.whole main_v0_0) i q ai wm hai x3 f 308 148 4 hl148 hj4 rfl hp309 hn309 w309 hw309 (k0_off926 i) rfl (k0_off926_inb i) k0_cond309 (fun _ => rfl) (k0_chk309 i) (k0_chk309.dec i) (k0_off927 i) (fun _ => rfl) (fun _ _ h => h) (k0_off927_inb i) ((View.wordExact_bits rfl).reshape _ _) (fun _ _ => (View.wordExact_bits rfl).reshape _ _) _ _ W308) $$ [HS HM HC HO]
  · isplitl [HS]; · iexact HS
    isplitl [HM]; · iexact HM
    isplitl [HC]; · iexact HC
    iexact HO
  iintro ⟨HS, HM, HC, S4, %W309, HO⟩
  iapply (loadMask_wp c 𝒱₀ i 149 hl149 q wm rfl) $$ HM
  iintro HM %w310 %hw310
  have hp310 : stateAt 309 ⟨149, hl149⟩ = St.started := show stateAt 309 ⟨149, (by decide : (149 : ℕ) < 256)⟩ = St.started from by decide
  have hn310 : ∀ l : Fin 256, stateAt 310 l = Function.update (stateAt 309) ⟨149, hl149⟩ St.done l := show ∀ l : Fin 256, stateAt 310 l = Function.update (stateAt 309) ⟨149, (by decide : (149 : ℕ) < 256)⟩ St.done l from by decide
  iapply (wait_fam c 𝒱₀ arg3 (Memref.whole main_v0_0) i q ai wm hai x3 f 309 149 5 hl149 hj5 rfl hp310 hn310 w310 hw310 (k0_off929 i) rfl (k0_off929_inb i) k0_cond310 (fun _ => rfl) (k0_chk310 i) (k0_chk310.dec i) (k0_off930 i) (fun _ => rfl) (fun _ _ h => h) (k0_off930_inb i) ((View.wordExact_bits rfl).reshape _ _) (fun _ _ => (View.wordExact_bits rfl).reshape _ _) _ _ W309) $$ [HS HM HC HO]
  · isplitl [HS]; · iexact HS
    isplitl [HM]; · iexact HM
    isplitl [HC]; · iexact HC
    iexact HO
  iintro ⟨HS, HM, HC, S5, %W310, HO⟩
  iapply (loadMask_wp c 𝒱₀ i 150 hl150 q wm rfl) $$ HM
  iintro HM %w311 %hw311
  have hp311 : stateAt 310 ⟨150, hl150⟩ = St.started := show stateAt 310 ⟨150, (by decide : (150 : ℕ) < 256)⟩ = St.started from by decide
  have hn311 : ∀ l : Fin 256, stateAt 311 l = Function.update (stateAt 310) ⟨150, hl150⟩ St.done l := show ∀ l : Fin 256, stateAt 311 l = Function.update (stateAt 310) ⟨150, (by decide : (150 : ℕ) < 256)⟩ St.done l from by decide
  iapply (wait_fam c 𝒱₀ arg3 (Memref.whole main_v0_0) i q ai wm hai x3 f 310 150 6 hl150 hj6 rfl hp311 hn311 w311 hw311 (k0_off932 i) rfl (k0_off932_inb i) k0_cond311 (fun _ => rfl) (k0_chk311 i) (k0_chk311.dec i) (k0_off933 i) (fun _ => rfl) (fun _ _ h => h) (k0_off933_inb i) ((View.wordExact_bits rfl).reshape _ _) (fun _ _ => (View.wordExact_bits rfl).reshape _ _) _ _ W310) $$ [HS HM HC HO]
  · isplitl [HS]; · iexact HS
    isplitl [HM]; · iexact HM
    isplitl [HC]; · iexact HC
    iexact HO
  iintro ⟨HS, HM, HC, S6, %W311, HO⟩
  iapply (loadMask_wp c 𝒱₀ i 151 hl151 q wm rfl) $$ HM
  iintro HM %w312 %hw312
  rw [wp_pure]
  imodintro
  isplitr; · ipureintro; exact hw312
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 53 of the body: steps 312 to 317, and the load of the next step's mask word. -/
theorem part53_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 151 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 311 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part53 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 157 (by decide)⌝ ∗ ((c : Thread nD τ).loc main_call0_v12 ↦{q} ai) ∗ ((c : Thread nD τ).loc main_call0_v13 ↦{q} wm) ∗ cells c arg3 (Memref.whole main_v0_0) i ai wm hai x3 f 317 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part53_eq_skeleton]; unfold k0_part53_skel
  iintro ⟨HS, HM, HC, S0, S1, S2, S3, S4, S5, S6, HO⟩
  have hl151 : (151 : ℕ) < 256 := by decide
  have hl152 : (152 : ℕ) < 256 := by decide
  have hl153 : (153 : ℕ) < 256 := by decide
  have hl154 : (154 : ℕ) < 256 := by decide
  have hl155 : (155 : ℕ) < 256 := by decide
  have hl156 : (156 : ℕ) < 256 := by decide
  have hl157 : (157 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw312 : w = wordOf wm i 151 hl151 := hw
  have hp312 : stateAt 311 ⟨151, hl151⟩ = St.started := show stateAt 311 ⟨151, (by decide : (151 : ℕ) < 256)⟩ = St.started from by decide
  have hn312 : ∀ l : Fin 256, stateAt 312 l = Function.update (stateAt 311) ⟨151, hl151⟩ St.done l := show ∀ l : Fin 256, stateAt 312 l = Function.update (stateAt 311) ⟨151, (by decide : (151 : ℕ) < 256)⟩ St.done l from by decide
  iapply (wait_fam c 𝒱₀ arg3 (Memref.whole main_v0_0) i q ai wm hai x3 f 311 151 7 hl151 hj7 rfl hp312 hn312 w hw312 (k0_off935 i) rfl (k0_off935_inb i) k0_cond312 (fun _ => rfl) (k0_chk312 i) (k0_chk312.dec i) (k0_off936 i) (fun _ => rfl) (fun _ _ h => h) (k0_off936_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W312, HO⟩
  iapply (loadMask_wp c 𝒱₀ i 152 hl152 q wm rfl) $$ HM
  iintro HM %w313 %hw313
  have hp313 : stateAt 312 ⟨152, hl152⟩ = St.started := show stateAt 312 ⟨152, (by decide : (152 : ℕ) < 256)⟩ = St.started from by decide
  have hn313 : ∀ l : Fin 256, stateAt 313 l = Function.update (stateAt 312) ⟨152, hl152⟩ St.done l := show ∀ l : Fin 256, stateAt 313 l = Function.update (stateAt 312) ⟨152, (by decide : (152 : ℕ) < 256)⟩ St.done l from by decide
  iapply (wait_fam c 𝒱₀ arg3 (Memref.whole main_v0_0) i q ai wm hai x3 f 312 152 8 hl152 hj8 rfl hp313 hn313 w313 hw313 (k0_off938 i) rfl (k0_off938_inb i) k0_cond313 (fun _ => rfl) (k0_chk313 i) (k0_chk313.dec i) (k0_off939 i) (fun _ => rfl) (fun _ _ h => h) (k0_off939_inb i) ((View.wordExact_bits rfl).reshape _ _) (fun _ _ => (View.wordExact_bits rfl).reshape _ _) _ _ W312) $$ [HS HM HC HO]
  · isplitl [HS]; · iexact HS
    isplitl [HM]; · iexact HM
    isplitl [HC]; · iexact HC
    iexact HO
  iintro ⟨HS, HM, HC, S8, %W313, HO⟩
  iapply (loadMask_wp c 𝒱₀ i 153 hl153 q wm rfl) $$ HM
  iintro HM %w314 %hw314
  have hp314 : stateAt 313 ⟨153, hl153⟩ = St.started := show stateAt 313 ⟨153, (by decide : (153 : ℕ) < 256)⟩ = St.started from by decide
  have hn314 : ∀ l : Fin 256, stateAt 314 l = Function.update (stateAt 313) ⟨153, hl153⟩ St.done l := show ∀ l : Fin 256, stateAt 314 l = Function.update (stateAt 313) ⟨153, (by decide : (153 : ℕ) < 256)⟩ St.done l from by decide
  iapply (wait_fam c 𝒱₀ arg3 (Memref.whole main_v0_0) i q ai wm hai x3 f 313 153 9 hl153 hj9 rfl hp314 hn314 w314 hw314 (k0_off941 i) rfl (k0_off941_inb i) k0_cond314 (fun _ => rfl) (k0_chk314 i) (k0_chk314.dec i) (k0_off942 i) (fun _ => rfl) (fun _ _ h => h) (k0_off942_inb i) ((View.wordExact_bits rfl).reshape _ _) (fun _ _ => (View.wordExact_bits rfl).reshape _ _) _ _ W313) $$ [HS HM HC HO]
  · isplitl [HS]; · iexact HS
    isplitl [HM]; · iexact HM
    isplitl [HC]; · iexact HC
    iexact HO
  iintro ⟨HS, HM, HC, S9, %W314, HO⟩
  iapply (loadMask_wp c 𝒱₀ i 154 hl154 q wm rfl) $$ HM
  iintro HM %w315 %hw315
  have hp315 : stateAt 314 ⟨154, hl154⟩ = St.started := show stateAt 314 ⟨154, (by decide : (154 : ℕ) < 256)⟩ = St.started from by decide
  have hn315 : ∀ l : Fin 256, stateAt 315 l = Function.update (stateAt 314) ⟨154, hl154⟩ St.done l := show ∀ l : Fin 256, stateAt 315 l = Function.update (stateAt 314) ⟨154, (by decide : (154 : ℕ) < 256)⟩ St.done l from by decide
  iapply (wait_fam c 𝒱₀ arg3 (Memref.whole main_v0_0) i q ai wm hai x3 f 314 154 10 hl154 hj10 rfl hp315 hn315 w315 hw315 (k0_off944 i) rfl (k0_off944_inb i) k0_cond315 (fun _ => rfl) (k0_chk315 i) (k0_chk315.dec i) (k0_off945 i) (fun _ => rfl) (fun _ _ h => h) (k0_off945_inb i) ((View.wordExact_bits rfl).reshape _ _) (fun _ _ => (View.wordExact_bits rfl).reshape _ _) _ _ W314) $$ [HS HM HC HO]
  · isplitl [HS]; · iexact HS
    isplitl [HM]; · iexact HM
    isplitl [HC]; · iexact HC
    iexact HO
  iintro ⟨HS, HM, HC, S10, %W315, HO⟩
  iapply (loadMask_wp c 𝒱₀ i 155 hl155 q wm rfl) $$ HM
  iintro HM %w316 %hw316
  have hp316 : stateAt 315 ⟨155, hl155⟩ = St.started := show stateAt 315 ⟨155, (by decide : (155 : ℕ) < 256)⟩ = St.started from by decide
  have hn316 : ∀ l : Fin 256, stateAt 316 l = Function.update (stateAt 315) ⟨155, hl155⟩ St.done l := show ∀ l : Fin 256, stateAt 316 l = Function.update (stateAt 315) ⟨155, (by decide : (155 : ℕ) < 256)⟩ St.done l from by decide
  iapply (wait_fam c 𝒱₀ arg3 (Memref.whole main_v0_0) i q ai wm hai x3 f 315 155 11 hl155 hj11 rfl hp316 hn316 w316 hw316 (k0_off947 i) rfl (k0_off947_inb i) k0_cond316 (fun _ => rfl) (k0_chk316 i) (k0_chk316.dec i) (k0_off948 i) (fun _ => rfl) (fun _ _ h => h) (k0_off948_inb i) ((View.wordExact_bits rfl).reshape _ _) (fun _ _ => (View.wordExact_bits rfl).reshape _ _) _ _ W315) $$ [HS HM HC HO]
  · isplitl [HS]; · iexact HS
    isplitl [HM]; · iexact HM
    isplitl [HC]; · iexact HC
    iexact HO
  iintro ⟨HS, HM, HC, S11, %W316, HO⟩
  iapply (loadMask_wp c 𝒱₀ i 156 hl156 q wm rfl) $$ HM
  iintro HM %w317 %hw317
  have hp317 : stateAt 316 ⟨156, hl156⟩ = St.started := show stateAt 316 ⟨156, (by decide : (156 : ℕ) < 256)⟩ = St.started from by decide
  have hn317 : ∀ l : Fin 256, stateAt 317 l = Function.update (stateAt 316) ⟨156, hl156⟩ St.done l := show ∀ l : Fin 256, stateAt 317 l = Function.update (stateAt 316) ⟨156, (by decide : (156 : ℕ) < 256)⟩ St.done l from by decide
  iapply (wait_fam c 𝒱₀ arg3 (Memref.whole main_v0_0) i q ai wm hai x3 f 316 156 12 hl156 hj12 rfl hp317 hn317 w317 hw317 (k0_off950 i) rfl (k0_off950_inb i) k0_cond317 (fun _ => rfl) (k0_chk317 i) (k0_chk317.dec i) (k0_off951 i) (fun _ => rfl) (fun _ _ h => h) (k0_off951_inb i) ((View.wordExact_bits rfl).reshape _ _) (fun _ _ => (View.wordExact_bits rfl).reshape _ _) _ _ W316) $$ [HS HM HC HO]
  · isplitl [HS]; · iexact HS
    isplitl [HM]; · iexact HM
    isplitl [HC]; · iexact HC
    iexact HO
  iintro ⟨HS, HM, HC, S12, %W317, HO⟩
  iapply (loadMask_wp c 𝒱₀ i 157 hl157 q wm rfl) $$ HM
  iintro HM %w318 %hw318
  rw [wp_pure]
  imodintro
  isplitr; · ipureintro; exact hw318
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 54 of the body: steps 318 to 323, and the load of the next step's mask word. -/
theorem part54_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 157 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 317 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part54 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 163 (by decide)⌝ ∗ ((c : Thread nD τ).loc main_call0_v12 ↦{q} ai) ∗ ((c : Thread nD τ).loc main_call0_v13 ↦{q} wm) ∗ cells c arg3 (Memref.whole main_v0_0) i ai wm hai x3 f 323 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part54_eq_skeleton]; unfold k0_part54_skel
  iintro ⟨HS, HM, HC, S0, S1, S2, S3, S4, S5, S6, S7, S8, S9, S10, S11, S12, HO⟩
  have hl157 : (157 : ℕ) < 256 := by decide
  have hl158 : (158 : ℕ) < 256 := by decide
  have hl159 : (159 : ℕ) < 256 := by decide
  have hl160 : (160 : ℕ) < 256 := by decide
  have hl161 : (161 : ℕ) < 256 := by decide
  have hl162 : (162 : ℕ) < 256 := by decide
  have hl163 : (163 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw318 : w = wordOf wm i 157 hl157 := hw
  have hp318 : stateAt 317 ⟨157, hl157⟩ = St.started := show stateAt 317 ⟨157, (by decide : (157 : ℕ) < 256)⟩ = St.started from by decide
  have hn318 : ∀ l : Fin 256, stateAt 318 l = Function.update (stateAt 317) ⟨157, hl157⟩ St.done l := show ∀ l : Fin 256, stateAt 318 l = Function.update (stateAt 317) ⟨157, (by decide : (157 : ℕ) < 256)⟩ St.done l from by decide
  iapply (wait_fam c 𝒱₀ arg3 (Memref.whole main_v0_0) i q ai wm hai x3 f 317 157 13 hl157 hj13 rfl hp318 hn318 w hw318 (k0_off953 i) rfl (k0_off953_inb i) k0_cond318 (fun _ => rfl) (k0_chk318 i) (k0_chk318.dec i) (k0_off954 i) (fun _ => rfl) (fun _ _ h => h) (k0_off954_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W318, HO⟩
  iapply (loadMask_wp c 𝒱₀ i 158 hl158 q wm rfl) $$ HM
  iintro HM %w319 %hw319
  have hp319 : stateAt 318 ⟨158, hl158⟩ = St.started := show stateAt 318 ⟨158, (by decide : (158 : ℕ) < 256)⟩ = St.started from by decide
  have hn319 : ∀ l : Fin 256, stateAt 319 l = Function.update (stateAt 318) ⟨158, hl158⟩ St.done l := show ∀ l : Fin 256, stateAt 319 l = Function.update (stateAt 318) ⟨158, (by decide : (158 : ℕ) < 256)⟩ St.done l from by decide
  iapply (wait_fam c 𝒱₀ arg3 (Memref.whole main_v0_0) i q ai wm hai x3 f 318 158 14 hl158 hj14 rfl hp319 hn319 w319 hw319 (k0_off956 i) rfl (k0_off956_inb i) k0_cond319 (fun _ => rfl) (k0_chk319 i) (k0_chk319.dec i) (k0_off957 i) (fun _ => rfl) (fun _ _ h => h) (k0_off957_inb i) ((View.wordExact_bits rfl).reshape _ _) (fun _ _ => (View.wordExact_bits rfl).reshape _ _) _ _ W318) $$ [HS HM HC HO]
  · isplitl [HS]; · iexact HS
    isplitl [HM]; · iexact HM
    isplitl [HC]; · iexact HC
    iexact HO
  iintro ⟨HS, HM, HC, S14, %W319, HO⟩
  iapply (loadMask_wp c 𝒱₀ i 159 hl159 q wm rfl) $$ HM
  iintro HM %w320 %hw320
  have hp320 : stateAt 319 ⟨159, hl159⟩ = St.started := show stateAt 319 ⟨159, (by decide : (159 : ℕ) < 256)⟩ = St.started from by decide
  have hn320 : ∀ l : Fin 256, stateAt 320 l = Function.update (stateAt 319) ⟨159, hl159⟩ St.done l := show ∀ l : Fin 256, stateAt 320 l = Function.update (stateAt 319) ⟨159, (by decide : (159 : ℕ) < 256)⟩ St.done l from by decide
  iapply (wait_fam c 𝒱₀ arg3 (Memref.whole main_v0_0) i q ai wm hai x3 f 319 159 15 hl159 hj15 rfl hp320 hn320 w320 hw320 (k0_off959 i) rfl (k0_off959_inb i) k0_cond320 (fun _ => rfl) (k0_chk320 i) (k0_chk320.dec i) (k0_off960 i) (fun _ => rfl) (fun _ _ h => h) (k0_off960_inb i) ((View.wordExact_bits rfl).reshape _ _) (fun _ _ => (View.wordExact_bits rfl).reshape _ _) _ _ W319) $$ [HS HM HC HO]
  · isplitl [HS]; · iexact HS
    isplitl [HM]; · iexact HM
    isplitl [HC]; · iexact HC
    iexact HO
  iintro ⟨HS, HM, HC, S15, %W320, HO⟩
  iapply (loadMask_wp c 𝒱₀ i 160 hl160 q wm rfl) $$ HM
  iintro HM %w321 %hw321
  have hp321 : stateAt 320 ⟨160, hl160⟩ = St.pending := show stateAt 320 ⟨160, (by decide : (160 : ℕ) < 256)⟩ = St.pending from by decide
  have hn321 : ∀ l : Fin 256, stateAt 321 l = Function.update (stateAt 320) ⟨160, hl160⟩ St.started l := show ∀ l : Fin 256, stateAt 321 l = Function.update (stateAt 320) ⟨160, (by decide : (160 : ℕ) < 256)⟩ St.started l from by decide
  iapply (start_fam c 𝒱₀ arg3 (Memref.whole main_v0_0) i q ai wm hai x3 f 320 160 0 hl160 hj0 rfl hp321 hn321 w321 hw321 k0_cond321 (fun _ => rfl) (k0_chk321 i) (k0_chk321.dec i) (k0_off963 i) (fun _ => rfl) (fun _ _ => rfl) rfl) $$ [HS HC S0]
  · isplitl [HS]; · iexact HS
    isplitl [HC]; · iexact HC
    iexact S0
  iintro ⟨HS, HC⟩
  iapply (loadMask_wp c 𝒱₀ i 161 hl161 q wm rfl) $$ HM
  iintro HM %w322 %hw322
  have hp322 : stateAt 321 ⟨161, hl161⟩ = St.pending := show stateAt 321 ⟨161, (by decide : (161 : ℕ) < 256)⟩ = St.pending from by decide
  have hn322 : ∀ l : Fin 256, stateAt 322 l = Function.update (stateAt 321) ⟨161, hl161⟩ St.started l := show ∀ l : Fin 256, stateAt 322 l = Function.update (stateAt 321) ⟨161, (by decide : (161 : ℕ) < 256)⟩ St.started l from by decide
  iapply (start_fam c 𝒱₀ arg3 (Memref.whole main_v0_0) i q ai wm hai x3 f 321 161 1 hl161 hj1 rfl hp322 hn322 w322 hw322 k0_cond322 (fun _ => rfl) (k0_chk322 i) (k0_chk322.dec i) (k0_off966 i) (fun _ => rfl) (fun _ _ => rfl) rfl) $$ [HS HC S1]
  · isplitl [HS]; · iexact HS
    isplitl [HC]; · iexact HC
    iexact S1
  iintro ⟨HS, HC⟩
  iapply (loadMask_wp c 𝒱₀ i 162 hl162 q wm rfl) $$ HM
  iintro HM %w323 %hw323
  have hp323 : stateAt 322 ⟨162, hl162⟩ = St.pending := show stateAt 322 ⟨162, (by decide : (162 : ℕ) < 256)⟩ = St.pending from by decide
  have hn323 : ∀ l : Fin 256, stateAt 323 l = Function.update (stateAt 322) ⟨162, hl162⟩ St.started l := show ∀ l : Fin 256, stateAt 323 l = Function.update (stateAt 322) ⟨162, (by decide : (162 : ℕ) < 256)⟩ St.started l from by decide
  iapply (start_fam c 𝒱₀ arg3 (Memref.whole main_v0_0) i q ai wm hai x3 f 322 162 2 hl162 hj2 rfl hp323 hn323 w323 hw323 k0_cond323 (fun _ => rfl) (k0_chk323 i) (k0_chk323.dec i) (k0_off969 i) (fun _ => rfl) (fun _ _ => rfl) rfl) $$ [HS HC S2]
  · isplitl [HS]; · iexact HS
    isplitl [HC]; · iexact HC
    iexact S2
  iintro ⟨HS, HC⟩
  iapply (loadMask_wp c 𝒱₀ i 163 hl163 q wm rfl) $$ HM
  iintro HM %w324 %hw324
  rw [wp_pure]
  imodintro
  isplitr; · ipureintro; exact hw324
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 55 of the body: steps 324 to 329, and the load of the next step's mask word. -/
theorem part55_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 163 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 323 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part55 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 169 (by decide)⌝ ∗ ((c : Thread nD τ).loc main_call0_v12 ↦{q} ai) ∗ ((c : Thread nD τ).loc main_call0_v13 ↦{q} wm) ∗ cells c arg3 (Memref.whole main_v0_0) i ai wm hai x3 f 329 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part55_eq_skeleton]; unfold k0_part55_skel
  iintro ⟨HS, HM, HC, S3, S4, S5, S6, S7, S8, S9, S10, S11, S12, S13, S14, S15, HO⟩
  have hl163 : (163 : ℕ) < 256 := by decide
  have hl164 : (164 : ℕ) < 256 := by decide
  have hl165 : (165 : ℕ) < 256 := by decide
  have hl166 : (166 : ℕ) < 256 := by decide
  have hl167 : (167 : ℕ) < 256 := by decide
  have hl168 : (168 : ℕ) < 256 := by decide
  have hl169 : (169 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw324 : w = wordOf wm i 163 hl163 := hw
  have hp324 : stateAt 323 ⟨163, hl163⟩ = St.pending := show stateAt 323 ⟨163, (by decide : (163 : ℕ) < 256)⟩ = St.pending from by decide
  have hn324 : ∀ l : Fin 256, stateAt 324 l = Function.update (stateAt 323) ⟨163, hl163⟩ St.started l := show ∀ l : Fin 256, stateAt 324 l = Function.update (stateAt 323) ⟨163, (by decide : (163 : ℕ) < 256)⟩ St.started l from by decide
  iapply (start_fam c 𝒱₀ arg3 (Memref.whole main_v0_0) i q ai wm hai x3 f 323 163 3 hl163 hj3 rfl hp324 hn324 w hw324 k0_cond324 (fun _ => rfl) (k0_chk324 i) (k0_chk324.dec i) (k0_off972 i) (fun _ => rfl) (fun _ _ => rfl) rfl) $$ [HS HC S3]
  · isplitl [HS]; · iexact HS
    isplitl [HC]; · iexact HC
    iexact S3
  iintro ⟨HS, HC⟩
  iapply (loadMask_wp c 𝒱₀ i 164 hl164 q wm rfl) $$ HM
  iintro HM %w325 %hw325
  have hp325 : stateAt 324 ⟨164, hl164⟩ = St.pending := show stateAt 324 ⟨164, (by decide : (164 : ℕ) < 256)⟩ = St.pending from by decide
  have hn325 : ∀ l : Fin 256, stateAt 325 l = Function.update (stateAt 324) ⟨164, hl164⟩ St.started l := show ∀ l : Fin 256, stateAt 325 l = Function.update (stateAt 324) ⟨164, (by decide : (164 : ℕ) < 256)⟩ St.started l from by decide
  iapply (start_fam c 𝒱₀ arg3 (Memref.whole main_v0_0) i q ai wm hai x3 f 324 164 4 hl164 hj4 rfl hp325 hn325 w325 hw325 k0_cond325 (fun _ => rfl) (k0_chk325 i) (k0_chk325.dec i) (k0_off975 i) (fun _ => rfl) (fun _ _ => rfl) rfl) $$ [HS HC S4]
  · isplitl [HS]; · iexact HS
    isplitl [HC]; · iexact HC
    iexact S4
  iintro ⟨HS, HC⟩
  iapply (loadMask_wp c 𝒱₀ i 165 hl165 q wm rfl) $$ HM
  iintro HM %w326 %hw326
  have hp326 : stateAt 325 ⟨165, hl165⟩ = St.pending := show stateAt 325 ⟨165, (by decide : (165 : ℕ) < 256)⟩ = St.pending from by decide
  have hn326 : ∀ l : Fin 256, stateAt 326 l = Function.update (stateAt 325) ⟨165, hl165⟩ St.started l := show ∀ l : Fin 256, stateAt 326 l = Function.update (stateAt 325) ⟨165, (by decide : (165 : ℕ) < 256)⟩ St.started l from by decide
  iapply (start_fam c 𝒱₀ arg3 (Memref.whole main_v0_0) i q ai wm hai x3 f 325 165 5 hl165 hj5 rfl hp326 hn326 w326 hw326 k0_cond326 (fun _ => rfl) (k0_chk326 i) (k0_chk326.dec i) (k0_off978 i) (fun _ => rfl) (fun _ _ => rfl) rfl) $$ [HS HC S5]
  · isplitl [HS]; · iexact HS
    isplitl [HC]; · iexact HC
    iexact S5
  iintro ⟨HS, HC⟩
  iapply (loadMask_wp c 𝒱₀ i 166 hl166 q wm rfl) $$ HM
  iintro HM %w327 %hw327
  have hp327 : stateAt 326 ⟨166, hl166⟩ = St.pending := show stateAt 326 ⟨166, (by decide : (166 : ℕ) < 256)⟩ = St.pending from by decide
  have hn327 : ∀ l : Fin 256, stateAt 327 l = Function.update (stateAt 326) ⟨166, hl166⟩ St.started l := show ∀ l : Fin 256, stateAt 327 l = Function.update (stateAt 326) ⟨166, (by decide : (166 : ℕ) < 256)⟩ St.started l from by decide
  iapply (start_fam c 𝒱₀ arg3 (Memref.whole main_v0_0) i q ai wm hai x3 f 326 166 6 hl166 hj6 rfl hp327 hn327 w327 hw327 k0_cond327 (fun _ => rfl) (k0_chk327 i) (k0_chk327.dec i) (k0_off981 i) (fun _ => rfl) (fun _ _ => rfl) rfl) $$ [HS HC S6]
  · isplitl [HS]; · iexact HS
    isplitl [HC]; · iexact HC
    iexact S6
  iintro ⟨HS, HC⟩
  iapply (loadMask_wp c 𝒱₀ i 167 hl167 q wm rfl) $$ HM
  iintro HM %w328 %hw328
  have hp328 : stateAt 327 ⟨167, hl167⟩ = St.pending := show stateAt 327 ⟨167, (by decide : (167 : ℕ) < 256)⟩ = St.pending from by decide
  have hn328 : ∀ l : Fin 256, stateAt 328 l = Function.update (stateAt 327) ⟨167, hl167⟩ St.started l := show ∀ l : Fin 256, stateAt 328 l = Function.update (stateAt 327) ⟨167, (by decide : (167 : ℕ) < 256)⟩ St.started l from by decide
  iapply (start_fam c 𝒱₀ arg3 (Memref.whole main_v0_0) i q ai wm hai x3 f 327 167 7 hl167 hj7 rfl hp328 hn328 w328 hw328 k0_cond328 (fun _ => rfl) (k0_chk328 i) (k0_chk328.dec i) (k0_off984 i) (fun _ => rfl) (fun _ _ => rfl) rfl) $$ [HS HC S7]
  · isplitl [HS]; · iexact HS
    isplitl [HC]; · iexact HC
    iexact S7
  iintro ⟨HS, HC⟩
  iapply (loadMask_wp c 𝒱₀ i 168 hl168 q wm rfl) $$ HM
  iintro HM %w329 %hw329
  have hp329 : stateAt 328 ⟨168, hl168⟩ = St.pending := show stateAt 328 ⟨168, (by decide : (168 : ℕ) < 256)⟩ = St.pending from by decide
  have hn329 : ∀ l : Fin 256, stateAt 329 l = Function.update (stateAt 328) ⟨168, hl168⟩ St.started l := show ∀ l : Fin 256, stateAt 329 l = Function.update (stateAt 328) ⟨168, (by decide : (168 : ℕ) < 256)⟩ St.started l from by decide
  iapply (start_fam c 𝒱₀ arg3 (Memref.whole main_v0_0) i q ai wm hai x3 f 328 168 8 hl168 hj8 rfl hp329 hn329 w329 hw329 k0_cond329 (fun _ => rfl) (k0_chk329 i) (k0_chk329.dec i) (k0_off987 i) (fun _ => rfl) (fun _ _ => rfl) rfl) $$ [HS HC S8]
  · isplitl [HS]; · iexact HS
    isplitl [HC]; · iexact HC
    iexact S8
  iintro ⟨HS, HC⟩
  iapply (loadMask_wp c 𝒱₀ i 169 hl169 q wm rfl) $$ HM
  iintro HM %w330 %hw330
  rw [wp_pure]
  imodintro
  isplitr; · ipureintro; exact hw330
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.KernelIdeal.Cells

end
-- ==== Proof.Parts6Ideal.lean ====
/-
  Parts 56 to 66 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyIdeal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 56 of the body: steps 330 to 335, and the load of the next step's mask word. -/
theorem part56_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 169 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 329 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part56 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 175 (by decide)⌝ ∗ ((c : Thread nD τ).loc main_call0_v12 ↦{q} ai) ∗ ((c : Thread nD τ).loc main_call0_v13 ↦{q} wm) ∗ cells c arg3 (Memref.whole main_v0_0) i ai wm hai x3 f 335 ∗ semPt c 15 (sem_inb 15 (by decide)) ∗ ∃ W', owes (c : Thread nD τ) 0 W')) := by
  rw [k0_part56_eq_skeleton]; unfold k0_part56_skel
  iintro ⟨HS, HM, HC, S9, S10, S11, S12, S13, S14, S15, HO⟩
  have hl169 : (169 : ℕ) < 256 := by decide
  have hl170 : (170 : ℕ) < 256 := by decide
  have hl171 : (171 : ℕ) < 256 := by decide
  have hl172 : (172 : ℕ) < 256 := by decide
  have hl173 : (173 : ℕ) < 256 := by decide
  have hl174 : (174 : ℕ) < 256 := by decide
  have hl175 : (175 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw330 : w = wordOf wm i 169 hl169 := hw
  have hp330 : stateAt 329 ⟨169, hl169⟩ = St.pending := show stateAt 329 ⟨169, (by decide : (169 : ℕ) < 256)⟩ = St.pending from by decide
  have hn330 : ∀ l : Fin 256, stateAt 330 l = Function.update (stateAt 329) ⟨169, hl169⟩ St.started l := show ∀ l : Fin 256, stateAt 330 l = Function.update (stateAt 329) ⟨169, (by decide : (169 : ℕ) < 256)⟩ St.started l from by decide
  iapply (start_fam c 𝒱₀ arg3 (Memref.whole main_v0_0) i q ai wm hai x3 f 329 169 9 hl169 hj9 rfl hp330 hn330 w hw330 k0_cond330 (fun _ => rfl) (k0_chk330 i) (k0_chk330.dec i) (k0_off990 i) (fun _ => rfl) (fun _ _ => rfl) rfl) $$ [HS HC S9]
  · isplitl [HS]; · iexact HS
    isplitl [HC]; · iexact HC
    iexact S9
  iintro ⟨HS, HC⟩
  iapply (loadMask_wp c 𝒱₀ i 170 hl170 q wm rfl) $$ HM
  iintro HM %w331 %hw331
  have hp331 : stateAt 330 ⟨170, hl170⟩ = St.pending := show stateAt 330 ⟨170, (by decide : (170 : ℕ) < 256)⟩ = St.pending from by decide
  have hn331 : ∀ l : Fin 256, stateAt 331 l = Function.update (stateAt 330) ⟨170, hl170⟩ St.started l := show ∀ l : Fin 256, stateAt 331 l = Function.update (stateAt 330) ⟨170, (by decide : (170 : ℕ) < 256)⟩ St.started l from by decide
  iapply (start_fam c 𝒱₀ arg3 (Memref.whole main_v0_0) i q ai wm hai x3 f 330 170 10 hl170 hj10 rfl hp331 hn331 w331 hw331 k0_cond331 (fun _ => rfl) (k0_chk331 i) (k0_chk331.dec i) (k0_off993 i) (fun _ => rfl) (fun _ _ => rfl) rfl) $$ [HS HC S10]
  · isplitl [HS]; · iexact HS
    isplitl [HC]; · iexact HC
    iexact S10
  iintro ⟨HS, HC⟩
  iapply (loadMask_wp c 𝒱₀ i 171 hl171 q wm rfl) $$ HM
  iintro HM %w332 %hw332
  have hp332 : stateAt 331 ⟨171, hl171⟩ = St.pending := show stateAt 331 ⟨171, (by decide : (171 : ℕ) < 256)⟩ = St.pending from by decide
  have hn332 : ∀ l : Fin 256, stateAt 332 l = Function.update (stateAt 331) ⟨171, hl171⟩ St.started l := show ∀ l : Fin 256, stateAt 332 l = Function.update (stateAt 331) ⟨171, (by decide : (171 : ℕ) < 256)⟩ St.started l from by decide
  iapply (start_fam c 𝒱₀ arg3 (Memref.whole main_v0_0) i q ai wm hai x3 f 331 171 11 hl171 hj11 rfl hp332 hn332 w332 hw332 k0_cond332 (fun _ => rfl) (k0_chk332 i) (k0_chk332.dec i) (k0_off996 i) (fun _ => rfl) (fun _ _ => rfl) rfl) $$ [HS HC S11]
  · isplitl [HS]; · iexact HS
    isplitl [HC]; · iexact HC
    iexact S11
  iintro ⟨HS, HC⟩
  iapply (loadMask_wp c 𝒱₀ i 172 hl172 q wm rfl) $$ HM
  iintro HM %w333 %hw333
  have hp333 : stateAt 332 ⟨172, hl172⟩ = St.pending := show stateAt 332 ⟨172, (by decide : (172 : ℕ) < 256)⟩ = St.pending from by decide
  have hn333 : ∀ l : Fin 256, stateAt 333 l = Function.update (stateAt 332) ⟨172, hl172⟩ St.started l := show ∀ l : Fin 256, stateAt 333 l = Function.update (stateAt 332) ⟨172, (by decide : (172 : ℕ) < 256)⟩ St.started l from by decide
  iapply (start_fam c 𝒱₀ arg3 (Memref.whole main_v0_0) i q ai wm hai x3 f 332 172 12 hl172 hj12 rfl hp333 hn333 w333 hw333 k0_cond333 (fun _ => rfl) (k0_chk333 i) (k0_chk333.dec i) (k0_off999 i) (fun _ => rfl) (fun _ _ => rfl) rfl) $$ [HS HC S12]
  · isplitl [HS]; · iexact HS
    isplitl [HC]; · iexact HC
    iexact S12
  iintro ⟨HS, HC⟩
  iapply (loadMask_wp c 𝒱₀ i 173 hl173 q wm rfl) $$ HM
  iintro HM %w334 %hw334
  have hp334 : stateAt 333 ⟨173, hl173⟩ = St.pending := show stateAt 333 ⟨173, (by decide : (173 : ℕ) < 256)⟩ = St.pending from by decide
  have hn334 : ∀ l : Fin 256, stateAt 334 l = Function.update (stateAt 333) ⟨173, hl173⟩ St.started l := show ∀ l : Fin 256, stateAt 334 l = Function.update (stateAt 333) ⟨173, (by decide : (173 : ℕ) < 256)⟩ St.started l from by decide
  iapply (start_fam c 𝒱₀ arg3 (Memref.whole main_v0_0) i q ai wm hai x3 f 333 173 13 hl173 hj13 rfl hp334 hn334 w334 hw334 k0_cond334 (fun _ => rfl) (k0_chk334 i) (k0_chk334.dec i) (k0_off1002 i) (fun _ => rfl) (fun _ _ => rfl) rfl) $$ [HS HC S13]
  · isplitl [HS]; · iexact HS
    isplitl [HC]; · iexact HC
    iexact S13
  iintro ⟨HS, HC⟩
  iapply (loadMask_wp c 𝒱₀ i 174 hl174 q wm rfl) $$ HM
  iintro HM %w335 %hw335
  have hp335 : stateAt 334 ⟨174, hl174⟩ = St.pending := show stateAt 334 ⟨174, (by decide : (174 : ℕ) < 256)⟩ = St.pending from by decide
  have hn335 : ∀ l : Fin 256, stateAt 335 l = Function.update (stateAt 334) ⟨174, hl174⟩ St.started l := show ∀ l : Fin 256, stateAt 335 l = Function.update (stateAt 334) ⟨174, (by decide : (174 : ℕ) < 256)⟩ St.started l from by decide
  iapply (start_fam c 𝒱₀ arg3 (Memref.whole main_v0_0) i q ai wm hai x3 f 334 174 14 hl174 hj14 rfl hp335 hn335 w335 hw335 k0_cond335 (fun _ => rfl) (k0_chk335 i) (k0_chk335.dec i) (k0_off1005 i) (fun _ => rfl) (fun _ _ => rfl) rfl) $$ [HS HC S14]
  · isplitl [HS]; · iexact HS
    isplitl [HC]; · iexact HC
    iexact S14
  iintro ⟨HS, HC⟩
  iapply (loadMask_wp c 𝒱₀ i 175 hl175 q wm rfl) $$ HM
  iintro HM %w336 %hw336
  rw [wp_pure]
  imodintro
  isplitr; · ipureintro; exact hw336
  isplitl [HS]; · iexact HS
  isplitl [HM]; · iexact HM
  isplitl [HC]; · iexact HC
  isplitl [S15]; · iexact S15
  iexists _; iexact HO

set_option maxHeartbeats 0 in
/-- Part 57 of the body: steps 336 to 341, and the load of the next step's mask word. -/
theorem part57_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 175 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 335 ∗ semPt c 15 (sem_inb 15 (by decide)) ∗ owes (c : Thread nD τ) 0 W)
      ⊢ wp frame (wpE (defs₀ (F := F)) 𝒱₀ (c : Thread nD τ) none) Set.univ (k0_part57 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 165 (by decide)⌝ ∗ ((c : Thread nD τ).loc main_call0_v12 ↦{q} ai) ∗ ((c : Thread nD τ).loc main_call0_v13 ↦{q} wm) ∗ cells c arg3 (Memref.whole main_v0_0) i ai wm hai x3 f 341 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part57_eq_skeleton]; unfold k0_part57_skel
  iintro ⟨HS, HM, HC, S15, HO⟩
  have hl160 : (160 : ℕ) < 256 := by decide
  have hl161 : (161 : ℕ) < 256 := by decide
  have hl162 : (162 : ℕ) < 256 := by decide
  have hl163 : (163 : ℕ) < 256 := by decide
  have hl164 : (164 : ℕ) < 256 := by decide
  have hl165 : (165 : ℕ) < 256 := by decide
  have hl175 : (175 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw336 : w = wordOf wm i 175 hl175 := hw
  have hp336 : stateAt 335 ⟨175, hl175⟩ = St.pending := show stateAt 335 ⟨175, (by decide : (175 : ℕ) < 256)⟩ = St.pending from by decide
  have hn336 : ∀ l : Fin 256, stateAt 336 l = Function.update (stateAt 335) ⟨175, hl175⟩ St.started l := show ∀ l : Fin 256, stateAt 336 l = Function.update (stateAt 335) ⟨175, (by decide : (175 : ℕ) < 256)⟩ St.started l from by decide
  iapply (start_fam c 𝒱₀ arg3 (Memref.whole main_v0_0) i q ai wm hai x3 f 335 175 15 hl175 hj15 rfl hp336 hn336 w hw336 k0_cond336 (fun _ => rfl) (k0_chk336 i) (k0_chk336.dec i) (k0_off1008 i) (fun _ => rfl) (fun _ _ => rfl) rfl) $$ [HS HC S15]
  · isplitl [HS]; · iexact HS
    isplitl [HC]; · iexact HC
    iexact S15
  iintro ⟨HS, HC⟩
  iapply (loadMask_wp c 𝒱₀ i 160 hl160 q wm rfl) $$ HM
  iintro HM %w337 %hw337
  have hp337 : stateAt 336 ⟨160, hl160⟩ = St.started := show stateAt 336 ⟨160, (by decide : (160 : ℕ) < 256)⟩ = St.started from by decide
  have hn337 : ∀ l : Fin 256, stateAt 337 l = Function.update (stateAt 336) ⟨160, hl160⟩ St.done l := show ∀ l : Fin 256, stateAt 337 l = Function.update (stateAt 336) ⟨160, (by decide : (160 : ℕ) < 256)⟩ St.done l from by decide
  iapply (wait_fam c 𝒱₀ arg3 (Memref.whole main_v0_0) i q ai wm hai x3 f 336 160 0 hl160 hj0 rfl hp337 hn337 w337 hw337 (k0_off1010 i) rfl (k0_off1010_inb i) k0_cond337 (fun _ => rfl) (k0_chk337 i) (k0_chk337.dec i) (k0_off1011 i) (fun _ => rfl) (fun _ _ h => h) (k0_off1011_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W337, HO⟩
  iapply (loadMask_wp c 𝒱₀ i 161 hl161 q wm rfl) $$ HM
  iintro HM %w338 %hw338
  have hp338 : stateAt 337 ⟨161, hl161⟩ = St.started := show stateAt 337 ⟨161, (by decide : (161 : ℕ) < 256)⟩ = St.started from by decide
  have hn338 : ∀ l : Fin 256, stateAt 338 l = Function.update (stateAt 337) ⟨161, hl161⟩ St.done l := show ∀ l : Fin 256, stateAt 338 l = Function.update (stateAt 337) ⟨161, (by decide : (161 : ℕ) < 256)⟩ St.done l from by decide
  iapply (wait_fam c 𝒱₀ arg3 (Memref.whole main_v0_0) i q ai wm hai x3 f 337 161 1 hl161 hj1 rfl hp338 hn338 w338 hw338 (k0_off1013 i) rfl (k0_off1013_inb i) k0_cond338 (fun _ => rfl) (k0_chk338 i) (k0_chk338.dec i) (k0_off1014 i) (fun _ => rfl) (fun _ _ h => h) (k0_off1014_inb i) ((View.wordExact_bits rfl).reshape _ _) (fun _ _ => (View.wordExact_bits rfl).reshape _ _) _ _ W337) $$ [HS HM HC HO]
  · isplitl [HS]; · iexact HS
    isplitl [HM]; · iexact HM
    isplitl [HC]; · iexact HC
    iexact HO
  iintro ⟨HS, HM, HC, S1, %W338, HO⟩
  iapply (loadMask_wp c 𝒱₀ i 162 hl162 q wm rfl) $$ HM
  iintro HM %w339 %hw339
  have hp339 : stateAt 338 ⟨162, hl162⟩ = St.started := show stateAt 338 ⟨162, (by decide : (162 : ℕ) < 256)⟩ = St.started from by decide
  have hn339 : ∀ l : Fin 256, stateAt 339 l = Function.update (stateAt 338) ⟨162, hl162⟩ St.done l := show ∀ l : Fin 256, stateAt 339 l = Function.update (stateAt 338) ⟨162, (by decide : (162 : ℕ) < 256)⟩ St.done l from by decide
  iapply (wait_fam c 𝒱₀ arg3 (Memref.whole main_v0_0) i q ai wm hai x3 f 338 162 2 hl162 hj2 rfl hp339 hn339 w339 hw339 (k0_off1016 i) rfl (k0_off1016_inb i) k0_cond339 (fun _ => rfl) (k0_chk339 i) (k0_chk339.dec i) (k0_off1017 i) (fun _ => rfl) (fun _ _ h => h) (k0_off1017_inb i) ((View.wordExact_bits rfl).reshape _ _) (fun _ _ => (View.wordExact_bits rfl).reshape _ _) _ _ W338) $$ [HS HM HC HO]
  · isplitl [HS]; · iexact HS
    isplitl [HM]; · iexact HM
    isplitl [HC]; · iexact HC
    iexact HO
  iintro ⟨HS, HM, HC, S2, %W339, HO⟩
  iapply (loadMask_wp c 𝒱₀ i 163 hl163 q wm rfl) $$ HM
  iintro HM %w340 %hw340
  have hp340 : stateAt 339 ⟨163, hl163⟩ = St.started := show stateAt 339 ⟨163, (by decide : (163 : ℕ) < 256)⟩ = St.started from by decide
  have hn340 : ∀ l : Fin 256, stateAt 340 l = Function.update (stateAt 339) ⟨163, hl163⟩ St.done l := show ∀ l : Fin 256, stateAt 340 l = Function.update (stateAt 339) ⟨163, (by decide : (163 : ℕ) < 256)⟩ St.done l from by decide
  iapply (wait_fam c 𝒱₀ arg3 (Memref.whole main_v0_0) i q ai wm hai x3 f 339 163 3 hl163 hj3 rfl hp340 hn340 w340 hw340 (k0_off1019 i) rfl (k0_off1019_inb i) k0_cond340 (fun _ => rfl) (k0_chk340 i) (k0_chk340.dec i) (k0_off1020 i) (fun _ => rfl) (fun _ _ h => h) (k0_off1020_inb i) ((View.wordExact_bits rfl).reshape _ _) (fun _ _ => (View.wordExact_bits rfl).reshape _ _) _ _ W339) $$ [HS HM HC HO]
  · isplitl [HS]; · iexact HS
    isplitl [HM]; · iexact HM
    isplitl [HC]; · iexact HC
    iexact HO
  iintro ⟨HS, HM, HC, S3, %W340, HO⟩
  iapply (loadMask_wp c 𝒱₀ i 164 hl164 q wm rfl) $$ HM
  iintro HM %w341 %hw341
  have hp341 : stateAt 340 ⟨164, hl164⟩ = St.started := show stateAt 340 ⟨164, (by decide : (164 : ℕ) < 256)⟩ = St.started from by decide
  have hn341 : ∀ l : Fin 256, stateAt 341 l = Function.update (stateAt 340) ⟨164, hl164⟩ St.done l := show ∀ l : Fin 256, stateAt 341 l = Function.update (stateAt 340) ⟨164, (by decide : (164 : ℕ) < 256)⟩ St.done l from by decide
  iapply (wait_fam c 𝒱₀ arg3 (Memref.whole main_v0_0) i q ai wm hai x3 f 340 164 4 hl164 hj4 rfl hp341 hn341 w341 hw341 (k0_off1022 i) rfl (k0_off1022_inb i) k0_cond341 (fun _ => rfl) (k0_chk341 i) (k0_chk341.dec i) (k0_off1023 i) (fun _ => rfl) (fun _ _ h => h) (k0_off1023_inb i) ((View.wordExact_bits rfl).reshape _ _) (fun _ _ => (View.wordExact_bits rfl).reshape _ _) _ _ W340) $$ [HS HM HC HO]
  · isplitl [HS]; · iexact HS
    isplitl [HM]; · iexact HM
    isplitl [HC]; · iexact HC
    iexact HO
  iintro ⟨HS, HM, HC, S4, %W341, HO⟩
  iapply (loadMask_wp c 𝒱₀ i 165 hl165 q wm rfl) $$ HM
  iintro HM %w342 %hw342
  rw [wp_pure]
  imodintro
  isplitr; · ipureintro; exact hw342
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 58 of the body: steps 342 to 347, and the load of the next step's mask word. -/
theorem part58_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 165 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 341 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part58 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 171 (by decide)⌝ ∗ ((c : Thread nD τ).loc main_call0_v12 ↦{q} ai) ∗ ((c : Thread nD τ).loc main_call0_v13 ↦{q} wm) ∗ cells c arg3 (Memref.whole main_v0_0) i ai wm hai x3 f 347 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part58_eq_skeleton]; unfold k0_part58_skel
  iintro ⟨HS, HM, HC, S0, S1, S2, S3, S4, HO⟩
  have hl165 : (165 : ℕ) < 256 := by decide
  have hl166 : (166 : ℕ) < 256 := by decide
  have hl167 : (167 : ℕ) < 256 := by decide
  have hl168 : (168 : ℕ) < 256 := by decide
  have hl169 : (169 : ℕ) < 256 := by decide
  have hl170 : (170 : ℕ) < 256 := by decide
  have hl171 : (171 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw342 : w = wordOf wm i 165 hl165 := hw
  have hp342 : stateAt 341 ⟨165, hl165⟩ = St.started := show stateAt 341 ⟨165, (by decide : (165 : ℕ) < 256)⟩ = St.started from by decide
  have hn342 : ∀ l : Fin 256, stateAt 342 l = Function.update (stateAt 341) ⟨165, hl165⟩ St.done l := show ∀ l : Fin 256, stateAt 342 l = Function.update (stateAt 341) ⟨165, (by decide : (165 : ℕ) < 256)⟩ St.done l from by decide
  iapply (wait_fam c 𝒱₀ arg3 (Memref.whole main_v0_0) i q ai wm hai x3 f 341 165 5 hl165 hj5 rfl hp342 hn342 w hw342 (k0_off1025 i) rfl (k0_off1025_inb i) k0_cond342 (fun _ => rfl) (k0_chk342 i) (k0_chk342.dec i) (k0_off1026 i) (fun _ => rfl) (fun _ _ h => h) (k0_off1026_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W342, HO⟩
  iapply (loadMask_wp c 𝒱₀ i 166 hl166 q wm rfl) $$ HM
  iintro HM %w343 %hw343
  have hp343 : stateAt 342 ⟨166, hl166⟩ = St.started := show stateAt 342 ⟨166, (by decide : (166 : ℕ) < 256)⟩ = St.started from by decide
  have hn343 : ∀ l : Fin 256, stateAt 343 l = Function.update (stateAt 342) ⟨166, hl166⟩ St.done l := show ∀ l : Fin 256, stateAt 343 l = Function.update (stateAt 342) ⟨166, (by decide : (166 : ℕ) < 256)⟩ St.done l from by decide
  iapply (wait_fam c 𝒱₀ arg3 (Memref.whole main_v0_0) i q ai wm hai x3 f 342 166 6 hl166 hj6 rfl hp343 hn343 w343 hw343 (k0_off1028 i) rfl (k0_off1028_inb i) k0_cond343 (fun _ => rfl) (k0_chk343 i) (k0_chk343.dec i) (k0_off1029 i) (fun _ => rfl) (fun _ _ h => h) (k0_off1029_inb i) ((View.wordExact_bits rfl).reshape _ _) (fun _ _ => (View.wordExact_bits rfl).reshape _ _) _ _ W342) $$ [HS HM HC HO]
  · isplitl [HS]; · iexact HS
    isplitl [HM]; · iexact HM
    isplitl [HC]; · iexact HC
    iexact HO
  iintro ⟨HS, HM, HC, S6, %W343, HO⟩
  iapply (loadMask_wp c 𝒱₀ i 167 hl167 q wm rfl) $$ HM
  iintro HM %w344 %hw344
  have hp344 : stateAt 343 ⟨167, hl167⟩ = St.started := show stateAt 343 ⟨167, (by decide : (167 : ℕ) < 256)⟩ = St.started from by decide
  have hn344 : ∀ l : Fin 256, stateAt 344 l = Function.update (stateAt 343) ⟨167, hl167⟩ St.done l := show ∀ l : Fin 256, stateAt 344 l = Function.update (stateAt 343) ⟨167, (by decide : (167 : ℕ) < 256)⟩ St.done l from by decide
  iapply (wait_fam c 𝒱₀ arg3 (Memref.whole main_v0_0) i q ai wm hai x3 f 343 167 7 hl167 hj7 rfl hp344 hn344 w344 hw344 (k0_off1031 i) rfl (k0_off1031_inb i) k0_cond344 (fun _ => rfl) (k0_chk344 i) (k0_chk344.dec i) (k0_off1032 i) (fun _ => rfl) (fun _ _ h => h) (k0_off1032_inb i) ((View.wordExact_bits rfl).reshape _ _) (fun _ _ => (View.wordExact_bits rfl).reshape _ _) _ _ W343) $$ [HS HM HC HO]
  · isplitl [HS]; · iexact HS
    isplitl [HM]; · iexact HM
    isplitl [HC]; · iexact HC
    iexact HO
  iintro ⟨HS, HM, HC, S7, %W344, HO⟩
  iapply (loadMask_wp c 𝒱₀ i 168 hl168 q wm rfl) $$ HM
  iintro HM %w345 %hw345
  have hp345 : stateAt 344 ⟨168, hl168⟩ = St.started := show stateAt 344 ⟨168, (by decide : (168 : ℕ) < 256)⟩ = St.started from by decide
  have hn345 : ∀ l : Fin 256, stateAt 345 l = Function.update (stateAt 344) ⟨168, hl168⟩ St.done l := show ∀ l : Fin 256, stateAt 345 l = Function.update (stateAt 344) ⟨168, (by decide : (168 : ℕ) < 256)⟩ St.done l from by decide
  iapply (wait_fam c 𝒱₀ arg3 (Memref.whole main_v0_0) i q ai wm hai x3 f 344 168 8 hl168 hj8 rfl hp345 hn345 w345 hw345 (k0_off1034 i) rfl (k0_off1034_inb i) k0_cond345 (fun _ => rfl) (k0_chk345 i) (k0_chk345.dec i) (k0_off1035 i) (fun _ => rfl) (fun _ _ h => h) (k0_off1035_inb i) ((View.wordExact_bits rfl).reshape _ _) (fun _ _ => (View.wordExact_bits rfl).reshape _ _) _ _ W344) $$ [HS HM HC HO]
  · isplitl [HS]; · iexact HS
    isplitl [HM]; · iexact HM
    isplitl [HC]; · iexact HC
    iexact HO
  iintro ⟨HS, HM, HC, S8, %W345, HO⟩
  iapply (loadMask_wp c 𝒱₀ i 169 hl169 q wm rfl) $$ HM
  iintro HM %w346 %hw346
  have hp346 : stateAt 345 ⟨169, hl169⟩ = St.started := show stateAt 345 ⟨169, (by decide : (169 : ℕ) < 256)⟩ = St.started from by decide
  have hn346 : ∀ l : Fin 256, stateAt 346 l = Function.update (stateAt 345) ⟨169, hl169⟩ St.done l := show ∀ l : Fin 256, stateAt 346 l = Function.update (stateAt 345) ⟨169, (by decide : (169 : ℕ) < 256)⟩ St.done l from by decide
  iapply (wait_fam c 𝒱₀ arg3 (Memref.whole main_v0_0) i q ai wm hai x3 f 345 169 9 hl169 hj9 rfl hp346 hn346 w346 hw346 (k0_off1037 i) rfl (k0_off1037_inb i) k0_cond346 (fun _ => rfl) (k0_chk346 i) (k0_chk346.dec i) (k0_off1038 i) (fun _ => rfl) (fun _ _ h => h) (k0_off1038_inb i) ((View.wordExact_bits rfl).reshape _ _) (fun _ _ => (View.wordExact_bits rfl).reshape _ _) _ _ W345) $$ [HS HM HC HO]
  · isplitl [HS]; · iexact HS
    isplitl [HM]; · iexact HM
    isplitl [HC]; · iexact HC
    iexact HO
  iintro ⟨HS, HM, HC, S9, %W346, HO⟩
  iapply (loadMask_wp c 𝒱₀ i 170 hl170 q wm rfl) $$ HM
  iintro HM %w347 %hw347
  have hp347 : stateAt 346 ⟨170, hl170⟩ = St.started := show stateAt 346 ⟨170, (by decide : (170 : ℕ) < 256)⟩ = St.started from by decide
  have hn347 : ∀ l : Fin 256, stateAt 347 l = Function.update (stateAt 346) ⟨170, hl170⟩ St.done l := show ∀ l : Fin 256, stateAt 347 l = Function.update (stateAt 346) ⟨170, (by decide : (170 : ℕ) < 256)⟩ St.done l from by decide
  iapply (wait_fam c 𝒱₀ arg3 (Memref.whole main_v0_0) i q ai wm hai x3 f 346 170 10 hl170 hj10 rfl hp347 hn347 w347 hw347 (k0_off1040 i) rfl (k0_off1040_inb i) k0_cond347 (fun _ => rfl) (k0_chk347 i) (k0_chk347.dec i) (k0_off1041 i) (fun _ => rfl) (fun _ _ h => h) (k0_off1041_inb i) ((View.wordExact_bits rfl).reshape _ _) (fun _ _ => (View.wordExact_bits rfl).reshape _ _) _ _ W346) $$ [HS HM HC HO]
  · isplitl [HS]; · iexact HS
    isplitl [HM]; · iexact HM
    isplitl [HC]; · iexact HC
    iexact HO
  iintro ⟨HS, HM, HC, S10, %W347, HO⟩
  iapply (loadMask_wp c 𝒱₀ i 171 hl171 q wm rfl) $$ HM
  iintro HM %w348 %hw348
  rw [wp_pure]
  imodintro
  isplitr; · ipureintro; exact hw348
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 59 of the body: steps 348 to 353, and the load of the next step's mask word. -/
theorem part59_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 171 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 347 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part59 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 177 (by decide)⌝ ∗ ((c : Thread nD τ).loc main_call0_v12 ↦{q} ai) ∗ ((c : Thread nD τ).loc main_call0_v13 ↦{q} wm) ∗ cells c arg3 (Memref.whole main_v0_0) i ai wm hai x3 f 353 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part59_eq_skeleton]; unfold k0_part59_skel
  iintro ⟨HS, HM, HC, S0, S1, S2, S3, S4, S5, S6, S7, S8, S9, S10, HO⟩
  have hl171 : (171 : ℕ) < 256 := by decide
  have hl172 : (172 : ℕ) < 256 := by decide
  have hl173 : (173 : ℕ) < 256 := by decide
  have hl174 : (174 : ℕ) < 256 := by decide
  have hl175 : (175 : ℕ) < 256 := by decide
  have hl176 : (176 : ℕ) < 256 := by decide
  have hl177 : (177 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw348 : w = wordOf wm i 171 hl171 := hw
  have hp348 : stateAt 347 ⟨171, hl171⟩ = St.started := show stateAt 347 ⟨171, (by decide : (171 : ℕ) < 256)⟩ = St.started from by decide
  have hn348 : ∀ l : Fin 256, stateAt 348 l = Function.update (stateAt 347) ⟨171, hl171⟩ St.done l := show ∀ l : Fin 256, stateAt 348 l = Function.update (stateAt 347) ⟨171, (by decide : (171 : ℕ) < 256)⟩ St.done l from by decide
  iapply (wait_fam c 𝒱₀ arg3 (Memref.whole main_v0_0) i q ai wm hai x3 f 347 171 11 hl171 hj11 rfl hp348 hn348 w hw348 (k0_off1043 i) rfl (k0_off1043_inb i) k0_cond348 (fun _ => rfl) (k0_chk348 i) (k0_chk348.dec i) (k0_off1044 i) (fun _ => rfl) (fun _ _ h => h) (k0_off1044_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W348, HO⟩
  iapply (loadMask_wp c 𝒱₀ i 172 hl172 q wm rfl) $$ HM
  iintro HM %w349 %hw349
  have hp349 : stateAt 348 ⟨172, hl172⟩ = St.started := show stateAt 348 ⟨172, (by decide : (172 : ℕ) < 256)⟩ = St.started from by decide
  have hn349 : ∀ l : Fin 256, stateAt 349 l = Function.update (stateAt 348) ⟨172, hl172⟩ St.done l := show ∀ l : Fin 256, stateAt 349 l = Function.update (stateAt 348) ⟨172, (by decide : (172 : ℕ) < 256)⟩ St.done l from by decide
  iapply (wait_fam c 𝒱₀ arg3 (Memref.whole main_v0_0) i q ai wm hai x3 f 348 172 12 hl172 hj12 rfl hp349 hn349 w349 hw349 (k0_off1046 i) rfl (k0_off1046_inb i) k0_cond349 (fun _ => rfl) (k0_chk349 i) (k0_chk349.dec i) (k0_off1047 i) (fun _ => rfl) (fun _ _ h => h) (k0_off1047_inb i) ((View.wordExact_bits rfl).reshape _ _) (fun _ _ => (View.wordExact_bits rfl).reshape _ _) _ _ W348) $$ [HS HM HC HO]
  · isplitl [HS]; · iexact HS
    isplitl [HM]; · iexact HM
    isplitl [HC]; · iexact HC
    iexact HO
  iintro ⟨HS, HM, HC, S12, %W349, HO⟩
  iapply (loadMask_wp c 𝒱₀ i 173 hl173 q wm rfl) $$ HM
  iintro HM %w350 %hw350
  have hp350 : stateAt 349 ⟨173, hl173⟩ = St.started := show stateAt 349 ⟨173, (by decide : (173 : ℕ) < 256)⟩ = St.started from by decide
  have hn350 : ∀ l : Fin 256, stateAt 350 l = Function.update (stateAt 349) ⟨173, hl173⟩ St.done l := show ∀ l : Fin 256, stateAt 350 l = Function.update (stateAt 349) ⟨173, (by decide : (173 : ℕ) < 256)⟩ St.done l from by decide
  iapply (wait_fam c 𝒱₀ arg3 (Memref.whole main_v0_0) i q ai wm hai x3 f 349 173 13 hl173 hj13 rfl hp350 hn350 w350 hw350 (k0_off1049 i) rfl (k0_off1049_inb i) k0_cond350 (fun _ => rfl) (k0_chk350 i) (k0_chk350.dec i) (k0_off1050 i) (fun _ => rfl) (fun _ _ h => h) (k0_off1050_inb i) ((View.wordExact_bits rfl).reshape _ _) (fun _ _ => (View.wordExact_bits rfl).reshape _ _) _ _ W349) $$ [HS HM HC HO]
  · isplitl [HS]; · iexact HS
    isplitl [HM]; · iexact HM
    isplitl [HC]; · iexact HC
    iexact HO
  iintro ⟨HS, HM, HC, S13, %W350, HO⟩
  iapply (loadMask_wp c 𝒱₀ i 174 hl174 q wm rfl) $$ HM
  iintro HM %w351 %hw351
  have hp351 : stateAt 350 ⟨174, hl174⟩ = St.started := show stateAt 350 ⟨174, (by decide : (174 : ℕ) < 256)⟩ = St.started from by decide
  have hn351 : ∀ l : Fin 256, stateAt 351 l = Function.update (stateAt 350) ⟨174, hl174⟩ St.done l := show ∀ l : Fin 256, stateAt 351 l = Function.update (stateAt 350) ⟨174, (by decide : (174 : ℕ) < 256)⟩ St.done l from by decide
  iapply (wait_fam c 𝒱₀ arg3 (Memref.whole main_v0_0) i q ai wm hai x3 f 350 174 14 hl174 hj14 rfl hp351 hn351 w351 hw351 (k0_off1052 i) rfl (k0_off1052_inb i) k0_cond351 (fun _ => rfl) (k0_chk351 i) (k0_chk351.dec i) (k0_off1053 i) (fun _ => rfl) (fun _ _ h => h) (k0_off1053_inb i) ((View.wordExact_bits rfl).reshape _ _) (fun _ _ => (View.wordExact_bits rfl).reshape _ _) _ _ W350) $$ [HS HM HC HO]
  · isplitl [HS]; · iexact HS
    isplitl [HM]; · iexact HM
    isplitl [HC]; · iexact HC
    iexact HO
  iintro ⟨HS, HM, HC, S14, %W351, HO⟩
  iapply (loadMask_wp c 𝒱₀ i 175 hl175 q wm rfl) $$ HM
  iintro HM %w352 %hw352
  have hp352 : stateAt 351 ⟨175, hl175⟩ = St.started := show stateAt 351 ⟨175, (by decide : (175 : ℕ) < 256)⟩ = St.started from by decide
  have hn352 : ∀ l : Fin 256, stateAt 352 l = Function.update (stateAt 351) ⟨175, hl175⟩ St.done l := show ∀ l : Fin 256, stateAt 352 l = Function.update (stateAt 351) ⟨175, (by decide : (175 : ℕ) < 256)⟩ St.done l from by decide
  iapply (wait_fam c 𝒱₀ arg3 (Memref.whole main_v0_0) i q ai wm hai x3 f 351 175 15 hl175 hj15 rfl hp352 hn352 w352 hw352 (k0_off1055 i) rfl (k0_off1055_inb i) k0_cond352 (fun _ => rfl) (k0_chk352 i) (k0_chk352.dec i) (k0_off1056 i) (fun _ => rfl) (fun _ _ h => h) (k0_off1056_inb i) ((View.wordExact_bits rfl).reshape _ _) (fun _ _ => (View.wordExact_bits rfl).reshape _ _) _ _ W351) $$ [HS HM HC HO]
  · isplitl [HS]; · iexact HS
    isplitl [HM]; · iexact HM
    isplitl [HC]; · iexact HC
    iexact HO
  iintro ⟨HS, HM, HC, S15, %W352, HO⟩
  iapply (loadMask_wp c 𝒱₀ i 176 hl176 q wm rfl) $$ HM
  iintro HM %w353 %hw353
  have hp353 : stateAt 352 ⟨176, hl176⟩ = St.pending := show stateAt 352 ⟨176, (by decide : (176 : ℕ) < 256)⟩ = St.pending from by decide
  have hn353 : ∀ l : Fin 256, stateAt 353 l = Function.update (stateAt 352) ⟨176, hl176⟩ St.started l := show ∀ l : Fin 256, stateAt 353 l = Function.update (stateAt 352) ⟨176, (by decide : (176 : ℕ) < 256)⟩ St.started l from by decide
  iapply (start_fam c 𝒱₀ arg3 (Memref.whole main_v0_0) i q ai wm hai x3 f 352 176 0 hl176 hj0 rfl hp353 hn353 w353 hw353 k0_cond353 (fun _ => rfl) (k0_chk353 i) (k0_chk353.dec i) (k0_off1059 i) (fun _ => rfl) (fun _ _ => rfl) rfl) $$ [HS HC S0]
  · isplitl [HS]; · iexact HS
    isplitl [HC]; · iexact HC
    iexact S0
  iintro ⟨HS, HC⟩
  iapply (loadMask_wp c 𝒱₀ i 177 hl177 q wm rfl) $$ HM
  iintro HM %w354 %hw354
  rw [wp_pure]
  imodintro
  isplitr; · ipureintro; exact hw354
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 60 of the body: steps 354 to 359, and the load of the next step's mask word. -/
theorem part60_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 177 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 353 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part60 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 183 (by decide)⌝ ∗ ((c : Thread nD τ).loc main_call0_v12 ↦{q} ai) ∗ ((c : Thread nD τ).loc main_call0_v13 ↦{q} wm) ∗ cells c arg3 (Memref.whole main_v0_0) i ai wm hai x3 f 359 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part60_eq_skeleton]; unfold k0_part60_skel
  iintro ⟨HS, HM, HC, S1, S2, S3, S4, S5, S6, S7, S8, S9, S10, S11, S12, S13, S14, S15, HO⟩
  have hl177 : (177 : ℕ) < 256 := by decide
  have hl178 : (178 : ℕ) < 256 := by decide
  have hl179 : (179 : ℕ) < 256 := by decide
  have hl180 : (180 : ℕ) < 256 := by decide
  have hl181 : (181 : ℕ) < 256 := by decide
  have hl182 : (182 : ℕ) < 256 := by decide
  have hl183 : (183 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw354 : w = wordOf wm i 177 hl177 := hw
  have hp354 : stateAt 353 ⟨177, hl177⟩ = St.pending := show stateAt 353 ⟨177, (by decide : (177 : ℕ) < 256)⟩ = St.pending from by decide
  have hn354 : ∀ l : Fin 256, stateAt 354 l = Function.update (stateAt 353) ⟨177, hl177⟩ St.started l := show ∀ l : Fin 256, stateAt 354 l = Function.update (stateAt 353) ⟨177, (by decide : (177 : ℕ) < 256)⟩ St.started l from by decide
  iapply (start_fam c 𝒱₀ arg3 (Memref.whole main_v0_0) i q ai wm hai x3 f 353 177 1 hl177 hj1 rfl hp354 hn354 w hw354 k0_cond354 (fun _ => rfl) (k0_chk354 i) (k0_chk354.dec i) (k0_off1062 i) (fun _ => rfl) (fun _ _ => rfl) rfl) $$ [HS HC S1]
  · isplitl [HS]; · iexact HS
    isplitl [HC]; · iexact HC
    iexact S1
  iintro ⟨HS, HC⟩
  iapply (loadMask_wp c 𝒱₀ i 178 hl178 q wm rfl) $$ HM
  iintro HM %w355 %hw355
  have hp355 : stateAt 354 ⟨178, hl178⟩ = St.pending := show stateAt 354 ⟨178, (by decide : (178 : ℕ) < 256)⟩ = St.pending from by decide
  have hn355 : ∀ l : Fin 256, stateAt 355 l = Function.update (stateAt 354) ⟨178, hl178⟩ St.started l := show ∀ l : Fin 256, stateAt 355 l = Function.update (stateAt 354) ⟨178, (by decide : (178 : ℕ) < 256)⟩ St.started l from by decide
  iapply (start_fam c 𝒱₀ arg3 (Memref.whole main_v0_0) i q ai wm hai x3 f 354 178 2 hl178 hj2 rfl hp355 hn355 w355 hw355 k0_cond355 (fun _ => rfl) (k0_chk355 i) (k0_chk355.dec i) (k0_off1065 i) (fun _ => rfl) (fun _ _ => rfl) rfl) $$ [HS HC S2]
  · isplitl [HS]; · iexact HS
    isplitl [HC]; · iexact HC
    iexact S2
  iintro ⟨HS, HC⟩
  iapply (loadMask_wp c 𝒱₀ i 179 hl179 q wm rfl) $$ HM
  iintro HM %w356 %hw356
  have hp356 : stateAt 355 ⟨179, hl179⟩ = St.pending := show stateAt 355 ⟨179, (by decide : (179 : ℕ) < 256)⟩ = St.pending from by decide
  have hn356 : ∀ l : Fin 256, stateAt 356 l = Function.update (stateAt 355) ⟨179, hl179⟩ St.started l := show ∀ l : Fin 256, stateAt 356 l = Function.update (stateAt 355) ⟨179, (by decide : (179 : ℕ) < 256)⟩ St.started l from by decide
  iapply (start_fam c 𝒱₀ arg3 (Memref.whole main_v0_0) i q ai wm hai x3 f 355 179 3 hl179 hj3 rfl hp356 hn356 w356 hw356 k0_cond356 (fun _ => rfl) (k0_chk356 i) (k0_chk356.dec i) (k0_off1068 i) (fun _ => rfl) (fun _ _ => rfl) rfl) $$ [HS HC S3]
  · isplitl [HS]; · iexact HS
    isplitl [HC]; · iexact HC
    iexact S3
  iintro ⟨HS, HC⟩
  iapply (loadMask_wp c 𝒱₀ i 180 hl180 q wm rfl) $$ HM
  iintro HM %w357 %hw357
  have hp357 : stateAt 356 ⟨180, hl180⟩ = St.pending := show stateAt 356 ⟨180, (by decide : (180 : ℕ) < 256)⟩ = St.pending from by decide
  have hn357 : ∀ l : Fin 256, stateAt 357 l = Function.update (stateAt 356) ⟨180, hl180⟩ St.started l := show ∀ l : Fin 256, stateAt 357 l = Function.update (stateAt 356) ⟨180, (by decide : (180 : ℕ) < 256)⟩ St.started l from by decide
  iapply (start_fam c 𝒱₀ arg3 (Memref.whole main_v0_0) i q ai wm hai x3 f 356 180 4 hl180 hj4 rfl hp357 hn357 w357 hw357 k0_cond357 (fun _ => rfl) (k0_chk357 i) (k0_chk357.dec i) (k0_off1071 i) (fun _ => rfl) (fun _ _ => rfl) rfl) $$ [HS HC S4]
  · isplitl [HS]; · iexact HS
    isplitl [HC]; · iexact HC
    iexact S4
  iintro ⟨HS, HC⟩
  iapply (loadMask_wp c 𝒱₀ i 181 hl181 q wm rfl) $$ HM
  iintro HM %w358 %hw358
  have hp358 : stateAt 357 ⟨181, hl181⟩ = St.pending := show stateAt 357 ⟨181, (by decide : (181 : ℕ) < 256)⟩ = St.pending from by decide
  have hn358 : ∀ l : Fin 256, stateAt 358 l = Function.update (stateAt 357) ⟨181, hl181⟩ St.started l := show ∀ l : Fin 256, stateAt 358 l = Function.update (stateAt 357) ⟨181, (by decide : (181 : ℕ) < 256)⟩ St.started l from by decide
  iapply (start_fam c 𝒱₀ arg3 (Memref.whole main_v0_0) i q ai wm hai x3 f 357 181 5 hl181 hj5 rfl hp358 hn358 w358 hw358 k0_cond358 (fun _ => rfl) (k0_chk358 i) (k0_chk358.dec i) (k0_off1074 i) (fun _ => rfl) (fun _ _ => rfl) rfl) $$ [HS HC S5]
  · isplitl [HS]; · iexact HS
    isplitl [HC]; · iexact HC
    iexact S5
  iintro ⟨HS, HC⟩
  iapply (loadMask_wp c 𝒱₀ i 182 hl182 q wm rfl) $$ HM
  iintro HM %w359 %hw359
  have hp359 : stateAt 358 ⟨182, hl182⟩ = St.pending := show stateAt 358 ⟨182, (by decide : (182 : ℕ) < 256)⟩ = St.pending from by decide
  have hn359 : ∀ l : Fin 256, stateAt 359 l = Function.update (stateAt 358) ⟨182, hl182⟩ St.started l := show ∀ l : Fin 256, stateAt 359 l = Function.update (stateAt 358) ⟨182, (by decide : (182 : ℕ) < 256)⟩ St.started l from by decide
  iapply (start_fam c 𝒱₀ arg3 (Memref.whole main_v0_0) i q ai wm hai x3 f 358 182 6 hl182 hj6 rfl hp359 hn359 w359 hw359 k0_cond359 (fun _ => rfl) (k0_chk359 i) (k0_chk359.dec i) (k0_off1077 i) (fun _ => rfl) (fun _ _ => rfl) rfl) $$ [HS HC S6]
  · isplitl [HS]; · iexact HS
    isplitl [HC]; · iexact HC
    iexact S6
  iintro ⟨HS, HC⟩
  iapply (loadMask_wp c 𝒱₀ i 183 hl183 q wm rfl) $$ HM
  iintro HM %w360 %hw360
  rw [wp_pure]
  imodintro
  isplitr; · ipureintro; exact hw360
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 61 of the body: steps 360 to 365, and the load of the next step's mask word. -/
theorem part61_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 183 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 359 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part61 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 189 (by decide)⌝ ∗ ((c : Thread nD τ).loc main_call0_v12 ↦{q} ai) ∗ ((c : Thread nD τ).loc main_call0_v13 ↦{q} wm) ∗ cells c arg3 (Memref.whole main_v0_0) i ai wm hai x3 f 365 ∗ semPt c 13 (sem_inb 13 (by decide)) ∗ semPt c 14 (sem_inb 14 (by decide)) ∗ semPt c 15 (sem_inb 15 (by decide)) ∗ ∃ W', owes (c : Thread nD τ) 0 W')) := by
  rw [k0_part61_eq_skeleton]; unfold k0_part61_skel
  iintro ⟨HS, HM, HC, S7, S8, S9, S10, S11, S12, S13, S14, S15, HO⟩
  have hl183 : (183 : ℕ) < 256 := by decide
  have hl184 : (184 : ℕ) < 256 := by decide
  have hl185 : (185 : ℕ) < 256 := by decide
  have hl186 : (186 : ℕ) < 256 := by decide
  have hl187 : (187 : ℕ) < 256 := by decide
  have hl188 : (188 : ℕ) < 256 := by decide
  have hl189 : (189 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw360 : w = wordOf wm i 183 hl183 := hw
  have hp360 : stateAt 359 ⟨183, hl183⟩ = St.pending := show stateAt 359 ⟨183, (by decide : (183 : ℕ) < 256)⟩ = St.pending from by decide
  have hn360 : ∀ l : Fin 256, stateAt 360 l = Function.update (stateAt 359) ⟨183, hl183⟩ St.started l := show ∀ l : Fin 256, stateAt 360 l = Function.update (stateAt 359) ⟨183, (by decide : (183 : ℕ) < 256)⟩ St.started l from by decide
  iapply (start_fam c 𝒱₀ arg3 (Memref.whole main_v0_0) i q ai wm hai x3 f 359 183 7 hl183 hj7 rfl hp360 hn360 w hw360 k0_cond360 (fun _ => rfl) (k0_chk360 i) (k0_chk360.dec i) (k0_off1080 i) (fun _ => rfl) (fun _ _ => rfl) rfl) $$ [HS HC S7]
  · isplitl [HS]; · iexact HS
    isplitl [HC]; · iexact HC
    iexact S7
  iintro ⟨HS, HC⟩
  iapply (loadMask_wp c 𝒱₀ i 184 hl184 q wm rfl) $$ HM
  iintro HM %w361 %hw361
  have hp361 : stateAt 360 ⟨184, hl184⟩ = St.pending := show stateAt 360 ⟨184, (by decide : (184 : ℕ) < 256)⟩ = St.pending from by decide
  have hn361 : ∀ l : Fin 256, stateAt 361 l = Function.update (stateAt 360) ⟨184, hl184⟩ St.started l := show ∀ l : Fin 256, stateAt 361 l = Function.update (stateAt 360) ⟨184, (by decide : (184 : ℕ) < 256)⟩ St.started l from by decide
  iapply (start_fam c 𝒱₀ arg3 (Memref.whole main_v0_0) i q ai wm hai x3 f 360 184 8 hl184 hj8 rfl hp361 hn361 w361 hw361 k0_cond361 (fun _ => rfl) (k0_chk361 i) (k0_chk361.dec i) (k0_off1083 i) (fun _ => rfl) (fun _ _ => rfl) rfl) $$ [HS HC S8]
  · isplitl [HS]; · iexact HS
    isplitl [HC]; · iexact HC
    iexact S8
  iintro ⟨HS, HC⟩
  iapply (loadMask_wp c 𝒱₀ i 185 hl185 q wm rfl) $$ HM
  iintro HM %w362 %hw362
  have hp362 : stateAt 361 ⟨185, hl185⟩ = St.pending := show stateAt 361 ⟨185, (by decide : (185 : ℕ) < 256)⟩ = St.pending from by decide
  have hn362 : ∀ l : Fin 256, stateAt 362 l = Function.update (stateAt 361) ⟨185, hl185⟩ St.started l := show ∀ l : Fin 256, stateAt 362 l = Function.update (stateAt 361) ⟨185, (by decide : (185 : ℕ) < 256)⟩ St.started l from by decide
  iapply (start_fam c 𝒱₀ arg3 (Memref.whole main_v0_0) i q ai wm hai x3 f 361 185 9 hl185 hj9 rfl hp362 hn362 w362 hw362 k0_cond362 (fun _ => rfl) (k0_chk362 i) (k0_chk362.dec i) (k0_off1086 i) (fun _ => rfl) (fun _ _ => rfl) rfl) $$ [HS HC S9]
  · isplitl [HS]; · iexact HS
    isplitl [HC]; · iexact HC
    iexact S9
  iintro ⟨HS, HC⟩
  iapply (loadMask_wp c 𝒱₀ i 186 hl186 q wm rfl) $$ HM
  iintro HM %w363 %hw363
  have hp363 : stateAt 362 ⟨186, hl186⟩ = St.pending := show stateAt 362 ⟨186, (by decide : (186 : ℕ) < 256)⟩ = St.pending from by decide
  have hn363 : ∀ l : Fin 256, stateAt 363 l = Function.update (stateAt 362) ⟨186, hl186⟩ St.started l := show ∀ l : Fin 256, stateAt 363 l = Function.update (stateAt 362) ⟨186, (by decide : (186 : ℕ) < 256)⟩ St.started l from by decide
  iapply (start_fam c 𝒱₀ arg3 (Memref.whole main_v0_0) i q ai wm hai x3 f 362 186 10 hl186 hj10 rfl hp363 hn363 w363 hw363 k0_cond363 (fun _ => rfl) (k0_chk363 i) (k0_chk363.dec i) (k0_off1089 i) (fun _ => rfl) (fun _ _ => rfl) rfl) $$ [HS HC S10]
  · isplitl [HS]; · iexact HS
    isplitl [HC]; · iexact HC
    iexact S10
  iintro ⟨HS, HC⟩
  iapply (loadMask_wp c 𝒱₀ i 187 hl187 q wm rfl) $$ HM
  iintro HM %w364 %hw364
  have hp364 : stateAt 363 ⟨187, hl187⟩ = St.pending := show stateAt 363 ⟨187, (by decide : (187 : ℕ) < 256)⟩ = St.pending from by decide
  have hn364 : ∀ l : Fin 256, stateAt 364 l = Function.update (stateAt 363) ⟨187, hl187⟩ St.started l := show ∀ l : Fin 256, stateAt 364 l = Function.update (stateAt 363) ⟨187, (by decide : (187 : ℕ) < 256)⟩ St.started l from by decide
  iapply (start_fam c 𝒱₀ arg3 (Memref.whole main_v0_0) i q ai wm hai x3 f 363 187 11 hl187 hj11 rfl hp364 hn364 w364 hw364 k0_cond364 (fun _ => rfl) (k0_chk364 i) (k0_chk364.dec i) (k0_off1092 i) (fun _ => rfl) (fun _ _ => rfl) rfl) $$ [HS HC S11]
  · isplitl [HS]; · iexact HS
    isplitl [HC]; · iexact HC
    iexact S11
  iintro ⟨HS, HC⟩
  iapply (loadMask_wp c 𝒱₀ i 188 hl188 q wm rfl) $$ HM
  iintro HM %w365 %hw365
  have hp365 : stateAt 364 ⟨188, hl188⟩ = St.pending := show stateAt 364 ⟨188, (by decide : (188 : ℕ) < 256)⟩ = St.pending from by decide
  have hn365 : ∀ l : Fin 256, stateAt 365 l = Function.update (stateAt 364) ⟨188, hl188⟩ St.started l := show ∀ l : Fin 256, stateAt 365 l = Function.update (stateAt 364) ⟨188, (by decide : (188 : ℕ) < 256)⟩ St.started l from by decide
  iapply (start_fam c 𝒱₀ arg3 (Memref.whole main_v0_0) i q ai wm hai x3 f 364 188 12 hl188 hj12 rfl hp365 hn365 w365 hw365 k0_cond365 (fun _ => rfl) (k0_chk365 i) (k0_chk365.dec i) (k0_off1095 i) (fun _ => rfl) (fun _ _ => rfl) rfl) $$ [HS HC S12]
  · isplitl [HS]; · iexact HS
    isplitl [HC]; · iexact HC
    iexact S12
  iintro ⟨HS, HC⟩
  iapply (loadMask_wp c 𝒱₀ i 189 hl189 q wm rfl) $$ HM
  iintro HM %w366 %hw366
  rw [wp_pure]
  imodintro
  isplitr; · ipureintro; exact hw366
  isplitl [HS]; · iexact HS
  isplitl [HM]; · iexact HM
  isplitl [HC]; · iexact HC
  isplitl [S13]; · iexact S13
  isplitl [S14]; · iexact S14
  isplitl [S15]; · iexact S15
  iexists _; iexact HO

set_option maxHeartbeats 0 in
/-- Part 62 of the body: steps 366 to 371, and the load of the next step's mask word. -/
theorem part62_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 189 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 365 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part62 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 179 (by decide)⌝ ∗ ((c : Thread nD τ).loc main_call0_v12 ↦{q} ai) ∗ ((c : Thread nD τ).loc main_call0_v13 ↦{q} wm) ∗ cells c arg3 (Memref.whole main_v0_0) i ai wm hai x3 f 371 ∗ semPt c 0 (sem_inb 0 (by decide)) ∗ semPt c 1 (sem_inb 1 (by decide)) ∗ semPt c 2 (sem_inb 2 (by decide)) ∗ ∃ W', owes (c : Thread nD τ) 0 W')) := by
  rw [k0_part62_eq_skeleton]; unfold k0_part62_skel
  iintro ⟨HS, HM, HC, S13, S14, S15, HO⟩
  have hl176 : (176 : ℕ) < 256 := by decide
  have hl177 : (177 : ℕ) < 256 := by decide
  have hl178 : (178 : ℕ) < 256 := by decide
  have hl179 : (179 : ℕ) < 256 := by decide
  have hl189 : (189 : ℕ) < 256 := by decide
  have hl190 : (190 : ℕ) < 256 := by decide
  have hl191 : (191 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw366 : w = wordOf wm i 189 hl189 := hw
  have hp366 : stateAt 365 ⟨189, hl189⟩ = St.pending := show stateAt 365 ⟨189, (by decide : (189 : ℕ) < 256)⟩ = St.pending from by decide
  have hn366 : ∀ l : Fin 256, stateAt 366 l = Function.update (stateAt 365) ⟨189, hl189⟩ St.started l := show ∀ l : Fin 256, stateAt 366 l = Function.update (stateAt 365) ⟨189, (by decide : (189 : ℕ) < 256)⟩ St.started l from by decide
  iapply (start_fam c 𝒱₀ arg3 (Memref.whole main_v0_0) i q ai wm hai x3 f 365 189 13 hl189 hj13 rfl hp366 hn366 w hw366 k0_cond366 (fun _ => rfl) (k0_chk366 i) (k0_chk366.dec i) (k0_off1098 i) (fun _ => rfl) (fun _ _ => rfl) rfl) $$ [HS HC S13]
  · isplitl [HS]; · iexact HS
    isplitl [HC]; · iexact HC
    iexact S13
  iintro ⟨HS, HC⟩
  iapply (loadMask_wp c 𝒱₀ i 190 hl190 q wm rfl) $$ HM
  iintro HM %w367 %hw367
  have hp367 : stateAt 366 ⟨190, hl190⟩ = St.pending := show stateAt 366 ⟨190, (by decide : (190 : ℕ) < 256)⟩ = St.pending from by decide
  have hn367 : ∀ l : Fin 256, stateAt 367 l = Function.update (stateAt 366) ⟨190, hl190⟩ St.started l := show ∀ l : Fin 256, stateAt 367 l = Function.update (stateAt 366) ⟨190, (by decide : (190 : ℕ) < 256)⟩ St.started l from by decide
  iapply (start_fam c 𝒱₀ arg3 (Memref.whole main_v0_0) i q ai wm hai x3 f 366 190 14 hl190 hj14 rfl hp367 hn367 w367 hw367 k0_cond367 (fun _ => rfl) (k0_chk367 i) (k0_chk367.dec i) (k0_off1101 i) (fun _ => rfl) (fun _ _ => rfl) rfl) $$ [HS HC S14]
  · isplitl [HS]; · iexact HS
    isplitl [HC]; · iexact HC
    iexact S14
  iintro ⟨HS, HC⟩
  iapply (loadMask_wp c 𝒱₀ i 191 hl191 q wm rfl) $$ HM
  iintro HM %w368 %hw368
  have hp368 : stateAt 367 ⟨191, hl191⟩ = St.pending := show stateAt 367 ⟨191, (by decide : (191 : ℕ) < 256)⟩ = St.pending from by decide
  have hn368 : ∀ l : Fin 256, stateAt 368 l = Function.update (stateAt 367) ⟨191, hl191⟩ St.started l := show ∀ l : Fin 256, stateAt 368 l = Function.update (stateAt 367) ⟨191, (by decide : (191 : ℕ) < 256)⟩ St.started l from by decide
  iapply (start_fam c 𝒱₀ arg3 (Memref.whole main_v0_0) i q ai wm hai x3 f 367 191 15 hl191 hj15 rfl hp368 hn368 w368 hw368 k0_cond368 (fun _ => rfl) (k0_chk368 i) (k0_chk368.dec i) (k0_off1104 i) (fun _ => rfl) (fun _ _ => rfl) rfl) $$ [HS HC S15]
  · isplitl [HS]; · iexact HS
    isplitl [HC]; · iexact HC
    iexact S15
  iintro ⟨HS, HC⟩
  iapply (loadMask_wp c 𝒱₀ i 176 hl176 q wm rfl) $$ HM
  iintro HM %w369 %hw369
  have hp369 : stateAt 368 ⟨176, hl176⟩ = St.started := show stateAt 368 ⟨176, (by decide : (176 : ℕ) < 256)⟩ = St.started from by decide
  have hn369 : ∀ l : Fin 256, stateAt 369 l = Function.update (stateAt 368) ⟨176, hl176⟩ St.done l := show ∀ l : Fin 256, stateAt 369 l = Function.update (stateAt 368) ⟨176, (by decide : (176 : ℕ) < 256)⟩ St.done l from by decide
  iapply (wait_fam c 𝒱₀ arg3 (Memref.whole main_v0_0) i q ai wm hai x3 f 368 176 0 hl176 hj0 rfl hp369 hn369 w369 hw369 (k0_off1106 i) rfl (k0_off1106_inb i) k0_cond369 (fun _ => rfl) (k0_chk369 i) (k0_chk369.dec i) (k0_off1107 i) (fun _ => rfl) (fun _ _ h => h) (k0_off1107_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W369, HO⟩
  iapply (loadMask_wp c 𝒱₀ i 177 hl177 q wm rfl) $$ HM
  iintro HM %w370 %hw370
  have hp370 : stateAt 369 ⟨177, hl177⟩ = St.started := show stateAt 369 ⟨177, (by decide : (177 : ℕ) < 256)⟩ = St.started from by decide
  have hn370 : ∀ l : Fin 256, stateAt 370 l = Function.update (stateAt 369) ⟨177, hl177⟩ St.done l := show ∀ l : Fin 256, stateAt 370 l = Function.update (stateAt 369) ⟨177, (by decide : (177 : ℕ) < 256)⟩ St.done l from by decide
  iapply (wait_fam c 𝒱₀ arg3 (Memref.whole main_v0_0) i q ai wm hai x3 f 369 177 1 hl177 hj1 rfl hp370 hn370 w370 hw370 (k0_off1109 i) rfl (k0_off1109_inb i) k0_cond370 (fun _ => rfl) (k0_chk370 i) (k0_chk370.dec i) (k0_off1110 i) (fun _ => rfl) (fun _ _ h => h) (k0_off1110_inb i) ((View.wordExact_bits rfl).reshape _ _) (fun _ _ => (View.wordExact_bits rfl).reshape _ _) _ _ W369) $$ [HS HM HC HO]
  · isplitl [HS]; · iexact HS
    isplitl [HM]; · iexact HM
    isplitl [HC]; · iexact HC
    iexact HO
  iintro ⟨HS, HM, HC, S1, %W370, HO⟩
  iapply (loadMask_wp c 𝒱₀ i 178 hl178 q wm rfl) $$ HM
  iintro HM %w371 %hw371
  have hp371 : stateAt 370 ⟨178, hl178⟩ = St.started := show stateAt 370 ⟨178, (by decide : (178 : ℕ) < 256)⟩ = St.started from by decide
  have hn371 : ∀ l : Fin 256, stateAt 371 l = Function.update (stateAt 370) ⟨178, hl178⟩ St.done l := show ∀ l : Fin 256, stateAt 371 l = Function.update (stateAt 370) ⟨178, (by decide : (178 : ℕ) < 256)⟩ St.done l from by decide
  iapply (wait_fam c 𝒱₀ arg3 (Memref.whole main_v0_0) i q ai wm hai x3 f 370 178 2 hl178 hj2 rfl hp371 hn371 w371 hw371 (k0_off1112 i) rfl (k0_off1112_inb i) k0_cond371 (fun _ => rfl) (k0_chk371 i) (k0_chk371.dec i) (k0_off1113 i) (fun _ => rfl) (fun _ _ h => h) (k0_off1113_inb i) ((View.wordExact_bits rfl).reshape _ _) (fun _ _ => (View.wordExact_bits rfl).reshape _ _) _ _ W370) $$ [HS HM HC HO]
  · isplitl [HS]; · iexact HS
    isplitl [HM]; · iexact HM
    isplitl [HC]; · iexact HC
    iexact HO
  iintro ⟨HS, HM, HC, S2, %W371, HO⟩
  iapply (loadMask_wp c 𝒱₀ i 179 hl179 q wm rfl) $$ HM
  iintro HM %w372 %hw372
  rw [wp_pure]
  imodintro
  isplitr; · ipureintro; exact hw372
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 63 of the body: steps 372 to 377, and the load of the next step's mask word. -/
theorem part63_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 179 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 371 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part63 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 185 (by decide)⌝ ∗ ((c : Thread nD τ).loc main_call0_v12 ↦{q} ai) ∗ ((c : Thread nD τ).loc main_call0_v13 ↦{q} wm) ∗ cells c arg3 (Memref.whole main_v0_0) i ai wm hai x3 f 377 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part63_eq_skeleton]; unfold k0_part63_skel
  iintro ⟨HS, HM, HC, S0, S1, S2, HO⟩
  have hl179 : (179 : ℕ) < 256 := by decide
  have hl180 : (180 : ℕ) < 256 := by decide
  have hl181 : (181 : ℕ) < 256 := by decide
  have hl182 : (182 : ℕ) < 256 := by decide
  have hl183 : (183 : ℕ) < 256 := by decide
  have hl184 : (184 : ℕ) < 256 := by decide
  have hl185 : (185 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw372 : w = wordOf wm i 179 hl179 := hw
  have hp372 : stateAt 371 ⟨179, hl179⟩ = St.started := show stateAt 371 ⟨179, (by decide : (179 : ℕ) < 256)⟩ = St.started from by decide
  have hn372 : ∀ l : Fin 256, stateAt 372 l = Function.update (stateAt 371) ⟨179, hl179⟩ St.done l := show ∀ l : Fin 256, stateAt 372 l = Function.update (stateAt 371) ⟨179, (by decide : (179 : ℕ) < 256)⟩ St.done l from by decide
  iapply (wait_fam c 𝒱₀ arg3 (Memref.whole main_v0_0) i q ai wm hai x3 f 371 179 3 hl179 hj3 rfl hp372 hn372 w hw372 (k0_off1115 i) rfl (k0_off1115_inb i) k0_cond372 (fun _ => rfl) (k0_chk372 i) (k0_chk372.dec i) (k0_off1116 i) (fun _ => rfl) (fun _ _ h => h) (k0_off1116_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W372, HO⟩
  iapply (loadMask_wp c 𝒱₀ i 180 hl180 q wm rfl) $$ HM
  iintro HM %w373 %hw373
  have hp373 : stateAt 372 ⟨180, hl180⟩ = St.started := show stateAt 372 ⟨180, (by decide : (180 : ℕ) < 256)⟩ = St.started from by decide
  have hn373 : ∀ l : Fin 256, stateAt 373 l = Function.update (stateAt 372) ⟨180, hl180⟩ St.done l := show ∀ l : Fin 256, stateAt 373 l = Function.update (stateAt 372) ⟨180, (by decide : (180 : ℕ) < 256)⟩ St.done l from by decide
  iapply (wait_fam c 𝒱₀ arg3 (Memref.whole main_v0_0) i q ai wm hai x3 f 372 180 4 hl180 hj4 rfl hp373 hn373 w373 hw373 (k0_off1118 i) rfl (k0_off1118_inb i) k0_cond373 (fun _ => rfl) (k0_chk373 i) (k0_chk373.dec i) (k0_off1119 i) (fun _ => rfl) (fun _ _ h => h) (k0_off1119_inb i) ((View.wordExact_bits rfl).reshape _ _) (fun _ _ => (View.wordExact_bits rfl).reshape _ _) _ _ W372) $$ [HS HM HC HO]
  · isplitl [HS]; · iexact HS
    isplitl [HM]; · iexact HM
    isplitl [HC]; · iexact HC
    iexact HO
  iintro ⟨HS, HM, HC, S4, %W373, HO⟩
  iapply (loadMask_wp c 𝒱₀ i 181 hl181 q wm rfl) $$ HM
  iintro HM %w374 %hw374
  have hp374 : stateAt 373 ⟨181, hl181⟩ = St.started := show stateAt 373 ⟨181, (by decide : (181 : ℕ) < 256)⟩ = St.started from by decide
  have hn374 : ∀ l : Fin 256, stateAt 374 l = Function.update (stateAt 373) ⟨181, hl181⟩ St.done l := show ∀ l : Fin 256, stateAt 374 l = Function.update (stateAt 373) ⟨181, (by decide : (181 : ℕ) < 256)⟩ St.done l from by decide
  iapply (wait_fam c 𝒱₀ arg3 (Memref.whole main_v0_0) i q ai wm hai x3 f 373 181 5 hl181 hj5 rfl hp374 hn374 w374 hw374 (k0_off1121 i) rfl (k0_off1121_inb i) k0_cond374 (fun _ => rfl) (k0_chk374 i) (k0_chk374.dec i) (k0_off1122 i) (fun _ => rfl) (fun _ _ h => h) (k0_off1122_inb i) ((View.wordExact_bits rfl).reshape _ _) (fun _ _ => (View.wordExact_bits rfl).reshape _ _) _ _ W373) $$ [HS HM HC HO]
  · isplitl [HS]; · iexact HS
    isplitl [HM]; · iexact HM
    isplitl [HC]; · iexact HC
    iexact HO
  iintro ⟨HS, HM, HC, S5, %W374, HO⟩
  iapply (loadMask_wp c 𝒱₀ i 182 hl182 q wm rfl) $$ HM
  iintro HM %w375 %hw375
  have hp375 : stateAt 374 ⟨182, hl182⟩ = St.started := show stateAt 374 ⟨182, (by decide : (182 : ℕ) < 256)⟩ = St.started from by decide
  have hn375 : ∀ l : Fin 256, stateAt 375 l = Function.update (stateAt 374) ⟨182, hl182⟩ St.done l := show ∀ l : Fin 256, stateAt 375 l = Function.update (stateAt 374) ⟨182, (by decide : (182 : ℕ) < 256)⟩ St.done l from by decide
  iapply (wait_fam c 𝒱₀ arg3 (Memref.whole main_v0_0) i q ai wm hai x3 f 374 182 6 hl182 hj6 rfl hp375 hn375 w375 hw375 (k0_off1124 i) rfl (k0_off1124_inb i) k0_cond375 (fun _ => rfl) (k0_chk375 i) (k0_chk375.dec i) (k0_off1125 i) (fun _ => rfl) (fun _ _ h => h) (k0_off1125_inb i) ((View.wordExact_bits rfl).reshape _ _) (fun _ _ => (View.wordExact_bits rfl).reshape _ _) _ _ W374) $$ [HS HM HC HO]
  · isplitl [HS]; · iexact HS
    isplitl [HM]; · iexact HM
    isplitl [HC]; · iexact HC
    iexact HO
  iintro ⟨HS, HM, HC, S6, %W375, HO⟩
  iapply (loadMask_wp c 𝒱₀ i 183 hl183 q wm rfl) $$ HM
  iintro HM %w376 %hw376
  have hp376 : stateAt 375 ⟨183, hl183⟩ = St.started := show stateAt 375 ⟨183, (by decide : (183 : ℕ) < 256)⟩ = St.started from by decide
  have hn376 : ∀ l : Fin 256, stateAt 376 l = Function.update (stateAt 375) ⟨183, hl183⟩ St.done l := show ∀ l : Fin 256, stateAt 376 l = Function.update (stateAt 375) ⟨183, (by decide : (183 : ℕ) < 256)⟩ St.done l from by decide
  iapply (wait_fam c 𝒱₀ arg3 (Memref.whole main_v0_0) i q ai wm hai x3 f 375 183 7 hl183 hj7 rfl hp376 hn376 w376 hw376 (k0_off1127 i) rfl (k0_off1127_inb i) k0_cond376 (fun _ => rfl) (k0_chk376 i) (k0_chk376.dec i) (k0_off1128 i) (fun _ => rfl) (fun _ _ h => h) (k0_off1128_inb i) ((View.wordExact_bits rfl).reshape _ _) (fun _ _ => (View.wordExact_bits rfl).reshape _ _) _ _ W375) $$ [HS HM HC HO]
  · isplitl [HS]; · iexact HS
    isplitl [HM]; · iexact HM
    isplitl [HC]; · iexact HC
    iexact HO
  iintro ⟨HS, HM, HC, S7, %W376, HO⟩
  iapply (loadMask_wp c 𝒱₀ i 184 hl184 q wm rfl) $$ HM
  iintro HM %w377 %hw377
  have hp377 : stateAt 376 ⟨184, hl184⟩ = St.started := show stateAt 376 ⟨184, (by decide : (184 : ℕ) < 256)⟩ = St.started from by decide
  have hn377 : ∀ l : Fin 256, stateAt 377 l = Function.update (stateAt 376) ⟨184, hl184⟩ St.done l := show ∀ l : Fin 256, stateAt 377 l = Function.update (stateAt 376) ⟨184, (by decide : (184 : ℕ) < 256)⟩ St.done l from by decide
  iapply (wait_fam c 𝒱₀ arg3 (Memref.whole main_v0_0) i q ai wm hai x3 f 376 184 8 hl184 hj8 rfl hp377 hn377 w377 hw377 (k0_off1130 i) rfl (k0_off1130_inb i) k0_cond377 (fun _ => rfl) (k0_chk377 i) (k0_chk377.dec i) (k0_off1131 i) (fun _ => rfl) (fun _ _ h => h) (k0_off1131_inb i) ((View.wordExact_bits rfl).reshape _ _) (fun _ _ => (View.wordExact_bits rfl).reshape _ _) _ _ W376) $$ [HS HM HC HO]
  · isplitl [HS]; · iexact HS
    isplitl [HM]; · iexact HM
    isplitl [HC]; · iexact HC
    iexact HO
  iintro ⟨HS, HM, HC, S8, %W377, HO⟩
  iapply (loadMask_wp c 𝒱₀ i 185 hl185 q wm rfl) $$ HM
  iintro HM %w378 %hw378
  rw [wp_pure]
  imodintro
  isplitr; · ipureintro; exact hw378
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 64 of the body: steps 378 to 383, and the load of the next step's mask word. -/
theorem part64_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 185 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 377 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part64 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 191 (by decide)⌝ ∗ ((c : Thread nD τ).loc main_call0_v12 ↦{q} ai) ∗ ((c : Thread nD τ).loc main_call0_v13 ↦{q} wm) ∗ cells c arg3 (Memref.whole main_v0_0) i ai wm hai x3 f 383 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part64_eq_skeleton]; unfold k0_part64_skel
  iintro ⟨HS, HM, HC, S0, S1, S2, S3, S4, S5, S6, S7, S8, HO⟩
  have hl185 : (185 : ℕ) < 256 := by decide
  have hl186 : (186 : ℕ) < 256 := by decide
  have hl187 : (187 : ℕ) < 256 := by decide
  have hl188 : (188 : ℕ) < 256 := by decide
  have hl189 : (189 : ℕ) < 256 := by decide
  have hl190 : (190 : ℕ) < 256 := by decide
  have hl191 : (191 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw378 : w = wordOf wm i 185 hl185 := hw
  have hp378 : stateAt 377 ⟨185, hl185⟩ = St.started := show stateAt 377 ⟨185, (by decide : (185 : ℕ) < 256)⟩ = St.started from by decide
  have hn378 : ∀ l : Fin 256, stateAt 378 l = Function.update (stateAt 377) ⟨185, hl185⟩ St.done l := show ∀ l : Fin 256, stateAt 378 l = Function.update (stateAt 377) ⟨185, (by decide : (185 : ℕ) < 256)⟩ St.done l from by decide
  iapply (wait_fam c 𝒱₀ arg3 (Memref.whole main_v0_0) i q ai wm hai x3 f 377 185 9 hl185 hj9 rfl hp378 hn378 w hw378 (k0_off1133 i) rfl (k0_off1133_inb i) k0_cond378 (fun _ => rfl) (k0_chk378 i) (k0_chk378.dec i) (k0_off1134 i) (fun _ => rfl) (fun _ _ h => h) (k0_off1134_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W378, HO⟩
  iapply (loadMask_wp c 𝒱₀ i 186 hl186 q wm rfl) $$ HM
  iintro HM %w379 %hw379
  have hp379 : stateAt 378 ⟨186, hl186⟩ = St.started := show stateAt 378 ⟨186, (by decide : (186 : ℕ) < 256)⟩ = St.started from by decide
  have hn379 : ∀ l : Fin 256, stateAt 379 l = Function.update (stateAt 378) ⟨186, hl186⟩ St.done l := show ∀ l : Fin 256, stateAt 379 l = Function.update (stateAt 378) ⟨186, (by decide : (186 : ℕ) < 256)⟩ St.done l from by decide
  iapply (wait_fam c 𝒱₀ arg3 (Memref.whole main_v0_0) i q ai wm hai x3 f 378 186 10 hl186 hj10 rfl hp379 hn379 w379 hw379 (k0_off1136 i) rfl (k0_off1136_inb i) k0_cond379 (fun _ => rfl) (k0_chk379 i) (k0_chk379.dec i) (k0_off1137 i) (fun _ => rfl) (fun _ _ h => h) (k0_off1137_inb i) ((View.wordExact_bits rfl).reshape _ _) (fun _ _ => (View.wordExact_bits rfl).reshape _ _) _ _ W378) $$ [HS HM HC HO]
  · isplitl [HS]; · iexact HS
    isplitl [HM]; · iexact HM
    isplitl [HC]; · iexact HC
    iexact HO
  iintro ⟨HS, HM, HC, S10, %W379, HO⟩
  iapply (loadMask_wp c 𝒱₀ i 187 hl187 q wm rfl) $$ HM
  iintro HM %w380 %hw380
  have hp380 : stateAt 379 ⟨187, hl187⟩ = St.started := show stateAt 379 ⟨187, (by decide : (187 : ℕ) < 256)⟩ = St.started from by decide
  have hn380 : ∀ l : Fin 256, stateAt 380 l = Function.update (stateAt 379) ⟨187, hl187⟩ St.done l := show ∀ l : Fin 256, stateAt 380 l = Function.update (stateAt 379) ⟨187, (by decide : (187 : ℕ) < 256)⟩ St.done l from by decide
  iapply (wait_fam c 𝒱₀ arg3 (Memref.whole main_v0_0) i q ai wm hai x3 f 379 187 11 hl187 hj11 rfl hp380 hn380 w380 hw380 (k0_off1139 i) rfl (k0_off1139_inb i) k0_cond380 (fun _ => rfl) (k0_chk380 i) (k0_chk380.dec i) (k0_off1140 i) (fun _ => rfl) (fun _ _ h => h) (k0_off1140_inb i) ((View.wordExact_bits rfl).reshape _ _) (fun _ _ => (View.wordExact_bits rfl).reshape _ _) _ _ W379) $$ [HS HM HC HO]
  · isplitl [HS]; · iexact HS
    isplitl [HM]; · iexact HM
    isplitl [HC]; · iexact HC
    iexact HO
  iintro ⟨HS, HM, HC, S11, %W380, HO⟩
  iapply (loadMask_wp c 𝒱₀ i 188 hl188 q wm rfl) $$ HM
  iintro HM %w381 %hw381
  have hp381 : stateAt 380 ⟨188, hl188⟩ = St.started := show stateAt 380 ⟨188, (by decide : (188 : ℕ) < 256)⟩ = St.started from by decide
  have hn381 : ∀ l : Fin 256, stateAt 381 l = Function.update (stateAt 380) ⟨188, hl188⟩ St.done l := show ∀ l : Fin 256, stateAt 381 l = Function.update (stateAt 380) ⟨188, (by decide : (188 : ℕ) < 256)⟩ St.done l from by decide
  iapply (wait_fam c 𝒱₀ arg3 (Memref.whole main_v0_0) i q ai wm hai x3 f 380 188 12 hl188 hj12 rfl hp381 hn381 w381 hw381 (k0_off1142 i) rfl (k0_off1142_inb i) k0_cond381 (fun _ => rfl) (k0_chk381 i) (k0_chk381.dec i) (k0_off1143 i) (fun _ => rfl) (fun _ _ h => h) (k0_off1143_inb i) ((View.wordExact_bits rfl).reshape _ _) (fun _ _ => (View.wordExact_bits rfl).reshape _ _) _ _ W380) $$ [HS HM HC HO]
  · isplitl [HS]; · iexact HS
    isplitl [HM]; · iexact HM
    isplitl [HC]; · iexact HC
    iexact HO
  iintro ⟨HS, HM, HC, S12, %W381, HO⟩
  iapply (loadMask_wp c 𝒱₀ i 189 hl189 q wm rfl) $$ HM
  iintro HM %w382 %hw382
  have hp382 : stateAt 381 ⟨189, hl189⟩ = St.started := show stateAt 381 ⟨189, (by decide : (189 : ℕ) < 256)⟩ = St.started from by decide
  have hn382 : ∀ l : Fin 256, stateAt 382 l = Function.update (stateAt 381) ⟨189, hl189⟩ St.done l := show ∀ l : Fin 256, stateAt 382 l = Function.update (stateAt 381) ⟨189, (by decide : (189 : ℕ) < 256)⟩ St.done l from by decide
  iapply (wait_fam c 𝒱₀ arg3 (Memref.whole main_v0_0) i q ai wm hai x3 f 381 189 13 hl189 hj13 rfl hp382 hn382 w382 hw382 (k0_off1145 i) rfl (k0_off1145_inb i) k0_cond382 (fun _ => rfl) (k0_chk382 i) (k0_chk382.dec i) (k0_off1146 i) (fun _ => rfl) (fun _ _ h => h) (k0_off1146_inb i) ((View.wordExact_bits rfl).reshape _ _) (fun _ _ => (View.wordExact_bits rfl).reshape _ _) _ _ W381) $$ [HS HM HC HO]
  · isplitl [HS]; · iexact HS
    isplitl [HM]; · iexact HM
    isplitl [HC]; · iexact HC
    iexact HO
  iintro ⟨HS, HM, HC, S13, %W382, HO⟩
  iapply (loadMask_wp c 𝒱₀ i 190 hl190 q wm rfl) $$ HM
  iintro HM %w383 %hw383
  have hp383 : stateAt 382 ⟨190, hl190⟩ = St.started := show stateAt 382 ⟨190, (by decide : (190 : ℕ) < 256)⟩ = St.started from by decide
  have hn383 : ∀ l : Fin 256, stateAt 383 l = Function.update (stateAt 382) ⟨190, hl190⟩ St.done l := show ∀ l : Fin 256, stateAt 383 l = Function.update (stateAt 382) ⟨190, (by decide : (190 : ℕ) < 256)⟩ St.done l from by decide
  iapply (wait_fam c 𝒱₀ arg3 (Memref.whole main_v0_0) i q ai wm hai x3 f 382 190 14 hl190 hj14 rfl hp383 hn383 w383 hw383 (k0_off1148 i) rfl (k0_off1148_inb i) k0_cond383 (fun _ => rfl) (k0_chk383 i) (k0_chk383.dec i) (k0_off1149 i) (fun _ => rfl) (fun _ _ h => h) (k0_off1149_inb i) ((View.wordExact_bits rfl).reshape _ _) (fun _ _ => (View.wordExact_bits rfl).reshape _ _) _ _ W382) $$ [HS HM HC HO]
  · isplitl [HS]; · iexact HS
    isplitl [HM]; · iexact HM
    isplitl [HC]; · iexact HC
    iexact HO
  iintro ⟨HS, HM, HC, S14, %W383, HO⟩
  iapply (loadMask_wp c 𝒱₀ i 191 hl191 q wm rfl) $$ HM
  iintro HM %w384 %hw384
  rw [wp_pure]
  imodintro
  isplitr; · ipureintro; exact hw384
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 65 of the body: steps 384 to 389, and the load of the next step's mask word. -/
theorem part65_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 191 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 383 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part65 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 197 (by decide)⌝ ∗ ((c : Thread nD τ).loc main_call0_v12 ↦{q} ai) ∗ ((c : Thread nD τ).loc main_call0_v13 ↦{q} wm) ∗ cells c arg3 (Memref.whole main_v0_0) i ai wm hai x3 f 389 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part65_eq_skeleton]; unfold k0_part65_skel
  iintro ⟨HS, HM, HC, S0, S1, S2, S3, S4, S5, S6, S7, S8, S9, S10, S11, S12, S13, S14, HO⟩
  have hl191 : (191 : ℕ) < 256 := by decide
  have hl192 : (192 : ℕ) < 256 := by decide
  have hl193 : (193 : ℕ) < 256 := by decide
  have hl194 : (194 : ℕ) < 256 := by decide
  have hl195 : (195 : ℕ) < 256 := by decide
  have hl196 : (196 : ℕ) < 256 := by decide
  have hl197 : (197 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw384 : w = wordOf wm i 191 hl191 := hw
  have hp384 : stateAt 383 ⟨191, hl191⟩ = St.started := show stateAt 383 ⟨191, (by decide : (191 : ℕ) < 256)⟩ = St.started from by decide
  have hn384 : ∀ l : Fin 256, stateAt 384 l = Function.update (stateAt 383) ⟨191, hl191⟩ St.done l := show ∀ l : Fin 256, stateAt 384 l = Function.update (stateAt 383) ⟨191, (by decide : (191 : ℕ) < 256)⟩ St.done l from by decide
  iapply (wait_fam c 𝒱₀ arg3 (Memref.whole main_v0_0) i q ai wm hai x3 f 383 191 15 hl191 hj15 rfl hp384 hn384 w hw384 (k0_off1151 i) rfl (k0_off1151_inb i) k0_cond384 (fun _ => rfl) (k0_chk384 i) (k0_chk384.dec i) (k0_off1152 i) (fun _ => rfl) (fun _ _ h => h) (k0_off1152_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W384, HO⟩
  iapply (loadMask_wp c 𝒱₀ i 192 hl192 q wm rfl) $$ HM
  iintro HM %w385 %hw385
  have hp385 : stateAt 384 ⟨192, hl192⟩ = St.pending := show stateAt 384 ⟨192, (by decide : (192 : ℕ) < 256)⟩ = St.pending from by decide
  have hn385 : ∀ l : Fin 256, stateAt 385 l = Function.update (stateAt 384) ⟨192, hl192⟩ St.started l := show ∀ l : Fin 256, stateAt 385 l = Function.update (stateAt 384) ⟨192, (by decide : (192 : ℕ) < 256)⟩ St.started l from by decide
  iapply (start_fam c 𝒱₀ arg3 (Memref.whole main_v0_0) i q ai wm hai x3 f 384 192 0 hl192 hj0 rfl hp385 hn385 w385 hw385 k0_cond385 (fun _ => rfl) (k0_chk385 i) (k0_chk385.dec i) (k0_off1155 i) (fun _ => rfl) (fun _ _ => rfl) rfl) $$ [HS HC S0]
  · isplitl [HS]; · iexact HS
    isplitl [HC]; · iexact HC
    iexact S0
  iintro ⟨HS, HC⟩
  iapply (loadMask_wp c 𝒱₀ i 193 hl193 q wm rfl) $$ HM
  iintro HM %w386 %hw386
  have hp386 : stateAt 385 ⟨193, hl193⟩ = St.pending := show stateAt 385 ⟨193, (by decide : (193 : ℕ) < 256)⟩ = St.pending from by decide
  have hn386 : ∀ l : Fin 256, stateAt 386 l = Function.update (stateAt 385) ⟨193, hl193⟩ St.started l := show ∀ l : Fin 256, stateAt 386 l = Function.update (stateAt 385) ⟨193, (by decide : (193 : ℕ) < 256)⟩ St.started l from by decide
  iapply (start_fam c 𝒱₀ arg3 (Memref.whole main_v0_0) i q ai wm hai x3 f 385 193 1 hl193 hj1 rfl hp386 hn386 w386 hw386 k0_cond386 (fun _ => rfl) (k0_chk386 i) (k0_chk386.dec i) (k0_off1158 i) (fun _ => rfl) (fun _ _ => rfl) rfl) $$ [HS HC S1]
  · isplitl [HS]; · iexact HS
    isplitl [HC]; · iexact HC
    iexact S1
  iintro ⟨HS, HC⟩
  iapply (loadMask_wp c 𝒱₀ i 194 hl194 q wm rfl) $$ HM
  iintro HM %w387 %hw387
  have hp387 : stateAt 386 ⟨194, hl194⟩ = St.pending := show stateAt 386 ⟨194, (by decide : (194 : ℕ) < 256)⟩ = St.pending from by decide
  have hn387 : ∀ l : Fin 256, stateAt 387 l = Function.update (stateAt 386) ⟨194, hl194⟩ St.started l := show ∀ l : Fin 256, stateAt 387 l = Function.update (stateAt 386) ⟨194, (by decide : (194 : ℕ) < 256)⟩ St.started l from by decide
  iapply (start_fam c 𝒱₀ arg3 (Memref.whole main_v0_0) i q ai wm hai x3 f 386 194 2 hl194 hj2 rfl hp387 hn387 w387 hw387 k0_cond387 (fun _ => rfl) (k0_chk387 i) (k0_chk387.dec i) (k0_off1161 i) (fun _ => rfl) (fun _ _ => rfl) rfl) $$ [HS HC S2]
  · isplitl [HS]; · iexact HS
    isplitl [HC]; · iexact HC
    iexact S2
  iintro ⟨HS, HC⟩
  iapply (loadMask_wp c 𝒱₀ i 195 hl195 q wm rfl) $$ HM
  iintro HM %w388 %hw388
  have hp388 : stateAt 387 ⟨195, hl195⟩ = St.pending := show stateAt 387 ⟨195, (by decide : (195 : ℕ) < 256)⟩ = St.pending from by decide
  have hn388 : ∀ l : Fin 256, stateAt 388 l = Function.update (stateAt 387) ⟨195, hl195⟩ St.started l := show ∀ l : Fin 256, stateAt 388 l = Function.update (stateAt 387) ⟨195, (by decide : (195 : ℕ) < 256)⟩ St.started l from by decide
  iapply (start_fam c 𝒱₀ arg3 (Memref.whole main_v0_0) i q ai wm hai x3 f 387 195 3 hl195 hj3 rfl hp388 hn388 w388 hw388 k0_cond388 (fun _ => rfl) (k0_chk388 i) (k0_chk388.dec i) (k0_off1164 i) (fun _ => rfl) (fun _ _ => rfl) rfl) $$ [HS HC S3]
  · isplitl [HS]; · iexact HS
    isplitl [HC]; · iexact HC
    iexact S3
  iintro ⟨HS, HC⟩
  iapply (loadMask_wp c 𝒱₀ i 196 hl196 q wm rfl) $$ HM
  iintro HM %w389 %hw389
  have hp389 : stateAt 388 ⟨196, hl196⟩ = St.pending := show stateAt 388 ⟨196, (by decide : (196 : ℕ) < 256)⟩ = St.pending from by decide
  have hn389 : ∀ l : Fin 256, stateAt 389 l = Function.update (stateAt 388) ⟨196, hl196⟩ St.started l := show ∀ l : Fin 256, stateAt 389 l = Function.update (stateAt 388) ⟨196, (by decide : (196 : ℕ) < 256)⟩ St.started l from by decide
  iapply (start_fam c 𝒱₀ arg3 (Memref.whole main_v0_0) i q ai wm hai x3 f 388 196 4 hl196 hj4 rfl hp389 hn389 w389 hw389 k0_cond389 (fun _ => rfl) (k0_chk389 i) (k0_chk389.dec i) (k0_off1167 i) (fun _ => rfl) (fun _ _ => rfl) rfl) $$ [HS HC S4]
  · isplitl [HS]; · iexact HS
    isplitl [HC]; · iexact HC
    iexact S4
  iintro ⟨HS, HC⟩
  iapply (loadMask_wp c 𝒱₀ i 197 hl197 q wm rfl) $$ HM
  iintro HM %w390 %hw390
  rw [wp_pure]
  imodintro
  isplitr; · ipureintro; exact hw390
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 66 of the body: steps 390 to 395, and the load of the next step's mask word. -/
theorem part66_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 197 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 389 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part66 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 203 (by decide)⌝ ∗ ((c : Thread nD τ).loc main_call0_v12 ↦{q} ai) ∗ ((c : Thread nD τ).loc main_call0_v13 ↦{q} wm) ∗ cells c arg3 (Memref.whole main_v0_0) i ai wm hai x3 f 395 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part66_eq_skeleton]; unfold k0_part66_skel
  iintro ⟨HS, HM, HC, S5, S6, S7, S8, S9, S10, S11, S12, S13, S14, S15, HO⟩
  have hl197 : (197 : ℕ) < 256 := by decide
  have hl198 : (198 : ℕ) < 256 := by decide
  have hl199 : (199 : ℕ) < 256 := by decide
  have hl200 : (200 : ℕ) < 256 := by decide
  have hl201 : (201 : ℕ) < 256 := by decide
  have hl202 : (202 : ℕ) < 256 := by decide
  have hl203 : (203 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw390 : w = wordOf wm i 197 hl197 := hw
  have hp390 : stateAt 389 ⟨197, hl197⟩ = St.pending := show stateAt 389 ⟨197, (by decide : (197 : ℕ) < 256)⟩ = St.pending from by decide
  have hn390 : ∀ l : Fin 256, stateAt 390 l = Function.update (stateAt 389) ⟨197, hl197⟩ St.started l := show ∀ l : Fin 256, stateAt 390 l = Function.update (stateAt 389) ⟨197, (by decide : (197 : ℕ) < 256)⟩ St.started l from by decide
  iapply (start_fam c 𝒱₀ arg3 (Memref.whole main_v0_0) i q ai wm hai x3 f 389 197 5 hl197 hj5 rfl hp390 hn390 w hw390 k0_cond390 (fun _ => rfl) (k0_chk390 i) (k0_chk390.dec i) (k0_off1170 i) (fun _ => rfl) (fun _ _ => rfl) rfl) $$ [HS HC S5]
  · isplitl [HS]; · iexact HS
    isplitl [HC]; · iexact HC
    iexact S5
  iintro ⟨HS, HC⟩
  iapply (loadMask_wp c 𝒱₀ i 198 hl198 q wm rfl) $$ HM
  iintro HM %w391 %hw391
  have hp391 : stateAt 390 ⟨198, hl198⟩ = St.pending := show stateAt 390 ⟨198, (by decide : (198 : ℕ) < 256)⟩ = St.pending from by decide
  have hn391 : ∀ l : Fin 256, stateAt 391 l = Function.update (stateAt 390) ⟨198, hl198⟩ St.started l := show ∀ l : Fin 256, stateAt 391 l = Function.update (stateAt 390) ⟨198, (by decide : (198 : ℕ) < 256)⟩ St.started l from by decide
  iapply (start_fam c 𝒱₀ arg3 (Memref.whole main_v0_0) i q ai wm hai x3 f 390 198 6 hl198 hj6 rfl hp391 hn391 w391 hw391 k0_cond391 (fun _ => rfl) (k0_chk391 i) (k0_chk391.dec i) (k0_off1173 i) (fun _ => rfl) (fun _ _ => rfl) rfl) $$ [HS HC S6]
  · isplitl [HS]; · iexact HS
    isplitl [HC]; · iexact HC
    iexact S6
  iintro ⟨HS, HC⟩
  iapply (loadMask_wp c 𝒱₀ i 199 hl199 q wm rfl) $$ HM
  iintro HM %w392 %hw392
  have hp392 : stateAt 391 ⟨199, hl199⟩ = St.pending := show stateAt 391 ⟨199, (by decide : (199 : ℕ) < 256)⟩ = St.pending from by decide
  have hn392 : ∀ l : Fin 256, stateAt 392 l = Function.update (stateAt 391) ⟨199, hl199⟩ St.started l := show ∀ l : Fin 256, stateAt 392 l = Function.update (stateAt 391) ⟨199, (by decide : (199 : ℕ) < 256)⟩ St.started l from by decide
  iapply (start_fam c 𝒱₀ arg3 (Memref.whole main_v0_0) i q ai wm hai x3 f 391 199 7 hl199 hj7 rfl hp392 hn392 w392 hw392 k0_cond392 (fun _ => rfl) (k0_chk392 i) (k0_chk392.dec i) (k0_off1176 i) (fun _ => rfl) (fun _ _ => rfl) rfl) $$ [HS HC S7]
  · isplitl [HS]; · iexact HS
    isplitl [HC]; · iexact HC
    iexact S7
  iintro ⟨HS, HC⟩
  iapply (loadMask_wp c 𝒱₀ i 200 hl200 q wm rfl) $$ HM
  iintro HM %w393 %hw393
  have hp393 : stateAt 392 ⟨200, hl200⟩ = St.pending := show stateAt 392 ⟨200, (by decide : (200 : ℕ) < 256)⟩ = St.pending from by decide
  have hn393 : ∀ l : Fin 256, stateAt 393 l = Function.update (stateAt 392) ⟨200, hl200⟩ St.started l := show ∀ l : Fin 256, stateAt 393 l = Function.update (stateAt 392) ⟨200, (by decide : (200 : ℕ) < 256)⟩ St.started l from by decide
  iapply (start_fam c 𝒱₀ arg3 (Memref.whole main_v0_0) i q ai wm hai x3 f 392 200 8 hl200 hj8 rfl hp393 hn393 w393 hw393 k0_cond393 (fun _ => rfl) (k0_chk393 i) (k0_chk393.dec i) (k0_off1179 i) (fun _ => rfl) (fun _ _ => rfl) rfl) $$ [HS HC S8]
  · isplitl [HS]; · iexact HS
    isplitl [HC]; · iexact HC
    iexact S8
  iintro ⟨HS, HC⟩
  iapply (loadMask_wp c 𝒱₀ i 201 hl201 q wm rfl) $$ HM
  iintro HM %w394 %hw394
  have hp394 : stateAt 393 ⟨201, hl201⟩ = St.pending := show stateAt 393 ⟨201, (by decide : (201 : ℕ) < 256)⟩ = St.pending from by decide
  have hn394 : ∀ l : Fin 256, stateAt 394 l = Function.update (stateAt 393) ⟨201, hl201⟩ St.started l := show ∀ l : Fin 256, stateAt 394 l = Function.update (stateAt 393) ⟨201, (by decide : (201 : ℕ) < 256)⟩ St.started l from by decide
  iapply (start_fam c 𝒱₀ arg3 (Memref.whole main_v0_0) i q ai wm hai x3 f 393 201 9 hl201 hj9 rfl hp394 hn394 w394 hw394 k0_cond394 (fun _ => rfl) (k0_chk394 i) (k0_chk394.dec i) (k0_off1182 i) (fun _ => rfl) (fun _ _ => rfl) rfl) $$ [HS HC S9]
  · isplitl [HS]; · iexact HS
    isplitl [HC]; · iexact HC
    iexact S9
  iintro ⟨HS, HC⟩
  iapply (loadMask_wp c 𝒱₀ i 202 hl202 q wm rfl) $$ HM
  iintro HM %w395 %hw395
  have hp395 : stateAt 394 ⟨202, hl202⟩ = St.pending := show stateAt 394 ⟨202, (by decide : (202 : ℕ) < 256)⟩ = St.pending from by decide
  have hn395 : ∀ l : Fin 256, stateAt 395 l = Function.update (stateAt 394) ⟨202, hl202⟩ St.started l := show ∀ l : Fin 256, stateAt 395 l = Function.update (stateAt 394) ⟨202, (by decide : (202 : ℕ) < 256)⟩ St.started l from by decide
  iapply (start_fam c 𝒱₀ arg3 (Memref.whole main_v0_0) i q ai wm hai x3 f 394 202 10 hl202 hj10 rfl hp395 hn395 w395 hw395 k0_cond395 (fun _ => rfl) (k0_chk395 i) (k0_chk395.dec i) (k0_off1185 i) (fun _ => rfl) (fun _ _ => rfl) rfl) $$ [HS HC S10]
  · isplitl [HS]; · iexact HS
    isplitl [HC]; · iexact HC
    iexact S10
  iintro ⟨HS, HC⟩
  iapply (loadMask_wp c 𝒱₀ i 203 hl203 q wm rfl) $$ HM
  iintro HM %w396 %hw396
  rw [wp_pure]
  imodintro
  isplitr; · ipureintro; exact hw396
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

end Cert.KernelIdeal.Cells

end
-- ==== Proof.Parts7Ideal.lean ====
/-
  Parts 67 to 77 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyIdeal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 67 of the body: steps 396 to 401, and the load of the next step's mask word. -/
theorem part67_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 203 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 395 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part67 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 193 (by decide)⌝ ∗ ((c : Thread nD τ).loc main_call0_v12 ↦{q} ai) ∗ ((c : Thread nD τ).loc main_call0_v13 ↦{q} wm) ∗ cells c arg3 (Memref.whole main_v0_0) i ai wm hai x3 f 401 ∗ semPt c 0 (sem_inb 0 (by decide)) ∗ ∃ W', owes (c : Thread nD τ) 0 W')) := by
  rw [k0_part67_eq_skeleton]; unfold k0_part67_skel
  iintro ⟨HS, HM, HC, S11, S12, S13, S14, S15, HO⟩
  have hl192 : (192 : ℕ) < 256 := by decide
  have hl193 : (193 : ℕ) < 256 := by decide
  have hl203 : (203 : ℕ) < 256 := by decide
  have hl204 : (204 : ℕ) < 256 := by decide
  have hl205 : (205 : ℕ) < 256 := by decide
  have hl206 : (206 : ℕ) < 256 := by decide
  have hl207 : (207 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw396 : w = wordOf wm i 203 hl203 := hw
  have hp396 : stateAt 395 ⟨203, hl203⟩ = St.pending := show stateAt 395 ⟨203, (by decide : (203 : ℕ) < 256)⟩ = St.pending from by decide
  have hn396 : ∀ l : Fin 256, stateAt 396 l = Function.update (stateAt 395) ⟨203, hl203⟩ St.started l := show ∀ l : Fin 256, stateAt 396 l = Function.update (stateAt 395) ⟨203, (by decide : (203 : ℕ) < 256)⟩ St.started l from by decide
  iapply (start_fam c 𝒱₀ arg3 (Memref.whole main_v0_0) i q ai wm hai x3 f 395 203 11 hl203 hj11 rfl hp396 hn396 w hw396 k0_cond396 (fun _ => rfl) (k0_chk396 i) (k0_chk396.dec i) (k0_off1188 i) (fun _ => rfl) (fun _ _ => rfl) rfl) $$ [HS HC S11]
  · isplitl [HS]; · iexact HS
    isplitl [HC]; · iexact HC
    iexact S11
  iintro ⟨HS, HC⟩
  iapply (loadMask_wp c 𝒱₀ i 204 hl204 q wm rfl) $$ HM
  iintro HM %w397 %hw397
  have hp397 : stateAt 396 ⟨204, hl204⟩ = St.pending := show stateAt 396 ⟨204, (by decide : (204 : ℕ) < 256)⟩ = St.pending from by decide
  have hn397 : ∀ l : Fin 256, stateAt 397 l = Function.update (stateAt 396) ⟨204, hl204⟩ St.started l := show ∀ l : Fin 256, stateAt 397 l = Function.update (stateAt 396) ⟨204, (by decide : (204 : ℕ) < 256)⟩ St.started l from by decide
  iapply (start_fam c 𝒱₀ arg3 (Memref.whole main_v0_0) i q ai wm hai x3 f 396 204 12 hl204 hj12 rfl hp397 hn397 w397 hw397 k0_cond397 (fun _ => rfl) (k0_chk397 i) (k0_chk397.dec i) (k0_off1191 i) (fun _ => rfl) (fun _ _ => rfl) rfl) $$ [HS HC S12]
  · isplitl [HS]; · iexact HS
    isplitl [HC]; · iexact HC
    iexact S12
  iintro ⟨HS, HC⟩
  iapply (loadMask_wp c 𝒱₀ i 205 hl205 q wm rfl) $$ HM
  iintro HM %w398 %hw398
  have hp398 : stateAt 397 ⟨205, hl205⟩ = St.pending := show stateAt 397 ⟨205, (by decide : (205 : ℕ) < 256)⟩ = St.pending from by decide
  have hn398 : ∀ l : Fin 256, stateAt 398 l = Function.update (stateAt 397) ⟨205, hl205⟩ St.started l := show ∀ l : Fin 256, stateAt 398 l = Function.update (stateAt 397) ⟨205, (by decide : (205 : ℕ) < 256)⟩ St.started l from by decide
  iapply (start_fam c 𝒱₀ arg3 (Memref.whole main_v0_0) i q ai wm hai x3 f 397 205 13 hl205 hj13 rfl hp398 hn398 w398 hw398 k0_cond398 (fun _ => rfl) (k0_chk398 i) (k0_chk398.dec i) (k0_off1194 i) (fun _ => rfl) (fun _ _ => rfl) rfl) $$ [HS HC S13]
  · isplitl [HS]; · iexact HS
    isplitl [HC]; · iexact HC
    iexact S13
  iintro ⟨HS, HC⟩
  iapply (loadMask_wp c 𝒱₀ i 206 hl206 q wm rfl) $$ HM
  iintro HM %w399 %hw399
  have hp399 : stateAt 398 ⟨206, hl206⟩ = St.pending := show stateAt 398 ⟨206, (by decide : (206 : ℕ) < 256)⟩ = St.pending from by decide
  have hn399 : ∀ l : Fin 256, stateAt 399 l = Function.update (stateAt 398) ⟨206, hl206⟩ St.started l := show ∀ l : Fin 256, stateAt 399 l = Function.update (stateAt 398) ⟨206, (by decide : (206 : ℕ) < 256)⟩ St.started l from by decide
  iapply (start_fam c 𝒱₀ arg3 (Memref.whole main_v0_0) i q ai wm hai x3 f 398 206 14 hl206 hj14 rfl hp399 hn399 w399 hw399 k0_cond399 (fun _ => rfl) (k0_chk399 i) (k0_chk399.dec i) (k0_off1197 i) (fun _ => rfl) (fun _ _ => rfl) rfl) $$ [HS HC S14]
  · isplitl [HS]; · iexact HS
    isplitl [HC]; · iexact HC
    iexact S14
  iintro ⟨HS, HC⟩
  iapply (loadMask_wp c 𝒱₀ i 207 hl207 q wm rfl) $$ HM
  iintro HM %w400 %hw400
  have hp400 : stateAt 399 ⟨207, hl207⟩ = St.pending := show stateAt 399 ⟨207, (by decide : (207 : ℕ) < 256)⟩ = St.pending from by decide
  have hn400 : ∀ l : Fin 256, stateAt 400 l = Function.update (stateAt 399) ⟨207, hl207⟩ St.started l := show ∀ l : Fin 256, stateAt 400 l = Function.update (stateAt 399) ⟨207, (by decide : (207 : ℕ) < 256)⟩ St.started l from by decide
  iapply (start_fam c 𝒱₀ arg3 (Memref.whole main_v0_0) i q ai wm hai x3 f 399 207 15 hl207 hj15 rfl hp400 hn400 w400 hw400 k0_cond400 (fun _ => rfl) (k0_chk400 i) (k0_chk400.dec i) (k0_off1200 i) (fun _ => rfl) (fun _ _ => rfl) rfl) $$ [HS HC S15]
  · isplitl [HS]; · iexact HS
    isplitl [HC]; · iexact HC
    iexact S15
  iintro ⟨HS, HC⟩
  iapply (loadMask_wp c 𝒱₀ i 192 hl192 q wm rfl) $$ HM
  iintro HM %w401 %hw401
  have hp401 : stateAt 400 ⟨192, hl192⟩ = St.started := show stateAt 400 ⟨192, (by decide : (192 : ℕ) < 256)⟩ = St.started from by decide
  have hn401 : ∀ l : Fin 256, stateAt 401 l = Function.update (stateAt 400) ⟨192, hl192⟩ St.done l := show ∀ l : Fin 256, stateAt 401 l = Function.update (stateAt 400) ⟨192, (by decide : (192 : ℕ) < 256)⟩ St.done l from by decide
  iapply (wait_fam c 𝒱₀ arg3 (Memref.whole main_v0_0) i q ai wm hai x3 f 400 192 0 hl192 hj0 rfl hp401 hn401 w401 hw401 (k0_off1202 i) rfl (k0_off1202_inb i) k0_cond401 (fun _ => rfl) (k0_chk401 i) (k0_chk401.dec i) (k0_off1203 i) (fun _ => rfl) (fun _ _ h => h) (k0_off1203_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W401, HO⟩
  iapply (loadMask_wp c 𝒱₀ i 193 hl193 q wm rfl) $$ HM
  iintro HM %w402 %hw402
  rw [wp_pure]
  imodintro
  isplitr; · ipureintro; exact hw402
  isplitl [HS]; · iexact HS
  isplitl [HM]; · iexact HM
  isplitl [HC]; · iexact HC
  isplitl [S0]; · iexact S0
  iexists _; iexact HO

set_option maxHeartbeats 0 in
/-- Part 68 of the body: steps 402 to 407, and the load of the next step's mask word. -/
theorem part68_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 193 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 401 ∗ semPt c 0 (sem_inb 0 (by decide)) ∗ owes (c : Thread nD τ) 0 W)
      ⊢ wp frame (wpE (defs₀ (F := F)) 𝒱₀ (c : Thread nD τ) none) Set.univ (k0_part68 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 199 (by decide)⌝ ∗ ((c : Thread nD τ).loc main_call0_v12 ↦{q} ai) ∗ ((c : Thread nD τ).loc main_call0_v13 ↦{q} wm) ∗ cells c arg3 (Memref.whole main_v0_0) i ai wm hai x3 f 407 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part68_eq_skeleton]; unfold k0_part68_skel
  iintro ⟨HS, HM, HC, S0, HO⟩
  have hl193 : (193 : ℕ) < 256 := by decide
  have hl194 : (194 : ℕ) < 256 := by decide
  have hl195 : (195 : ℕ) < 256 := by decide
  have hl196 : (196 : ℕ) < 256 := by decide
  have hl197 : (197 : ℕ) < 256 := by decide
  have hl198 : (198 : ℕ) < 256 := by decide
  have hl199 : (199 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw402 : w = wordOf wm i 193 hl193 := hw
  have hp402 : stateAt 401 ⟨193, hl193⟩ = St.started := show stateAt 401 ⟨193, (by decide : (193 : ℕ) < 256)⟩ = St.started from by decide
  have hn402 : ∀ l : Fin 256, stateAt 402 l = Function.update (stateAt 401) ⟨193, hl193⟩ St.done l := show ∀ l : Fin 256, stateAt 402 l = Function.update (stateAt 401) ⟨193, (by decide : (193 : ℕ) < 256)⟩ St.done l from by decide
  iapply (wait_fam c 𝒱₀ arg3 (Memref.whole main_v0_0) i q ai wm hai x3 f 401 193 1 hl193 hj1 rfl hp402 hn402 w hw402 (k0_off1205 i) rfl (k0_off1205_inb i) k0_cond402 (fun _ => rfl) (k0_chk402 i) (k0_chk402.dec i) (k0_off1206 i) (fun _ => rfl) (fun _ _ h => h) (k0_off1206_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W402, HO⟩
  iapply (loadMask_wp c 𝒱₀ i 194 hl194 q wm rfl) $$ HM
  iintro HM %w403 %hw403
  have hp403 : stateAt 402 ⟨194, hl194⟩ = St.started := show stateAt 402 ⟨194, (by decide : (194 : ℕ) < 256)⟩ = St.started from by decide
  have hn403 : ∀ l : Fin 256, stateAt 403 l = Function.update (stateAt 402) ⟨194, hl194⟩ St.done l := show ∀ l : Fin 256, stateAt 403 l = Function.update (stateAt 402) ⟨194, (by decide : (194 : ℕ) < 256)⟩ St.done l from by decide
  iapply (wait_fam c 𝒱₀ arg3 (Memref.whole main_v0_0) i q ai wm hai x3 f 402 194 2 hl194 hj2 rfl hp403 hn403 w403 hw403 (k0_off1208 i) rfl (k0_off1208_inb i) k0_cond403 (fun _ => rfl) (k0_chk403 i) (k0_chk403.dec i) (k0_off1209 i) (fun _ => rfl) (fun _ _ h => h) (k0_off1209_inb i) ((View.wordExact_bits rfl).reshape _ _) (fun _ _ => (View.wordExact_bits rfl).reshape _ _) _ _ W402) $$ [HS HM HC HO]
  · isplitl [HS]; · iexact HS
    isplitl [HM]; · iexact HM
    isplitl [HC]; · iexact HC
    iexact HO
  iintro ⟨HS, HM, HC, S2, %W403, HO⟩
  iapply (loadMask_wp c 𝒱₀ i 195 hl195 q wm rfl) $$ HM
  iintro HM %w404 %hw404
  have hp404 : stateAt 403 ⟨195, hl195⟩ = St.started := show stateAt 403 ⟨195, (by decide : (195 : ℕ) < 256)⟩ = St.started from by decide
  have hn404 : ∀ l : Fin 256, stateAt 404 l = Function.update (stateAt 403) ⟨195, hl195⟩ St.done l := show ∀ l : Fin 256, stateAt 404 l = Function.update (stateAt 403) ⟨195, (by decide : (195 : ℕ) < 256)⟩ St.done l from by decide
  iapply (wait_fam c 𝒱₀ arg3 (Memref.whole main_v0_0) i q ai wm hai x3 f 403 195 3 hl195 hj3 rfl hp404 hn404 w404 hw404 (k0_off1211 i) rfl (k0_off1211_inb i) k0_cond404 (fun _ => rfl) (k0_chk404 i) (k0_chk404.dec i) (k0_off1212 i) (fun _ => rfl) (fun _ _ h => h) (k0_off1212_inb i) ((View.wordExact_bits rfl).reshape _ _) (fun _ _ => (View.wordExact_bits rfl).reshape _ _) _ _ W403) $$ [HS HM HC HO]
  · isplitl [HS]; · iexact HS
    isplitl [HM]; · iexact HM
    isplitl [HC]; · iexact HC
    iexact HO
  iintro ⟨HS, HM, HC, S3, %W404, HO⟩
  iapply (loadMask_wp c 𝒱₀ i 196 hl196 q wm rfl) $$ HM
  iintro HM %w405 %hw405
  have hp405 : stateAt 404 ⟨196, hl196⟩ = St.started := show stateAt 404 ⟨196, (by decide : (196 : ℕ) < 256)⟩ = St.started from by decide
  have hn405 : ∀ l : Fin 256, stateAt 405 l = Function.update (stateAt 404) ⟨196, hl196⟩ St.done l := show ∀ l : Fin 256, stateAt 405 l = Function.update (stateAt 404) ⟨196, (by decide : (196 : ℕ) < 256)⟩ St.done l from by decide
  iapply (wait_fam c 𝒱₀ arg3 (Memref.whole main_v0_0) i q ai wm hai x3 f 404 196 4 hl196 hj4 rfl hp405 hn405 w405 hw405 (k0_off1214 i) rfl (k0_off1214_inb i) k0_cond405 (fun _ => rfl) (k0_chk405 i) (k0_chk405.dec i) (k0_off1215 i) (fun _ => rfl) (fun _ _ h => h) (k0_off1215_inb i) ((View.wordExact_bits rfl).reshape _ _) (fun _ _ => (View.wordExact_bits rfl).reshape _ _) _ _ W404) $$ [HS HM HC HO]
  · isplitl [HS]; · iexact HS
    isplitl [HM]; · iexact HM
    isplitl [HC]; · iexact HC
    iexact HO
  iintro ⟨HS, HM, HC, S4, %W405, HO⟩
  iapply (loadMask_wp c 𝒱₀ i 197 hl197 q wm rfl) $$ HM
  iintro HM %w406 %hw406
  have hp406 : stateAt 405 ⟨197, hl197⟩ = St.started := show stateAt 405 ⟨197, (by decide : (197 : ℕ) < 256)⟩ = St.started from by decide
  have hn406 : ∀ l : Fin 256, stateAt 406 l = Function.update (stateAt 405) ⟨197, hl197⟩ St.done l := show ∀ l : Fin 256, stateAt 406 l = Function.update (stateAt 405) ⟨197, (by decide : (197 : ℕ) < 256)⟩ St.done l from by decide
  iapply (wait_fam c 𝒱₀ arg3 (Memref.whole main_v0_0) i q ai wm hai x3 f 405 197 5 hl197 hj5 rfl hp406 hn406 w406 hw406 (k0_off1217 i) rfl (k0_off1217_inb i) k0_cond406 (fun _ => rfl) (k0_chk406 i) (k0_chk406.dec i) (k0_off1218 i) (fun _ => rfl) (fun _ _ h => h) (k0_off1218_inb i) ((View.wordExact_bits rfl).reshape _ _) (fun _ _ => (View.wordExact_bits rfl).reshape _ _) _ _ W405) $$ [HS HM HC HO]
  · isplitl [HS]; · iexact HS
    isplitl [HM]; · iexact HM
    isplitl [HC]; · iexact HC
    iexact HO
  iintro ⟨HS, HM, HC, S5, %W406, HO⟩
  iapply (loadMask_wp c 𝒱₀ i 198 hl198 q wm rfl) $$ HM
  iintro HM %w407 %hw407
  have hp407 : stateAt 406 ⟨198, hl198⟩ = St.started := show stateAt 406 ⟨198, (by decide : (198 : ℕ) < 256)⟩ = St.started from by decide
  have hn407 : ∀ l : Fin 256, stateAt 407 l = Function.update (stateAt 406) ⟨198, hl198⟩ St.done l := show ∀ l : Fin 256, stateAt 407 l = Function.update (stateAt 406) ⟨198, (by decide : (198 : ℕ) < 256)⟩ St.done l from by decide
  iapply (wait_fam c 𝒱₀ arg3 (Memref.whole main_v0_0) i q ai wm hai x3 f 406 198 6 hl198 hj6 rfl hp407 hn407 w407 hw407 (k0_off1220 i) rfl (k0_off1220_inb i) k0_cond407 (fun _ => rfl) (k0_chk407 i) (k0_chk407.dec i) (k0_off1221 i) (fun _ => rfl) (fun _ _ h => h) (k0_off1221_inb i) ((View.wordExact_bits rfl).reshape _ _) (fun _ _ => (View.wordExact_bits rfl).reshape _ _) _ _ W406) $$ [HS HM HC HO]
  · isplitl [HS]; · iexact HS
    isplitl [HM]; · iexact HM
    isplitl [HC]; · iexact HC
    iexact HO
  iintro ⟨HS, HM, HC, S6, %W407, HO⟩
  iapply (loadMask_wp c 𝒱₀ i 199 hl199 q wm rfl) $$ HM
  iintro HM %w408 %hw408
  rw [wp_pure]
  imodintro
  isplitr; · ipureintro; exact hw408
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 69 of the body: steps 408 to 413, and the load of the next step's mask word. -/
theorem part69_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 199 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 407 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part69 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 205 (by decide)⌝ ∗ ((c : Thread nD τ).loc main_call0_v12 ↦{q} ai) ∗ ((c : Thread nD τ).loc main_call0_v13 ↦{q} wm) ∗ cells c arg3 (Memref.whole main_v0_0) i ai wm hai x3 f 413 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part69_eq_skeleton]; unfold k0_part69_skel
  iintro ⟨HS, HM, HC, S0, S1, S2, S3, S4, S5, S6, HO⟩
  have hl199 : (199 : ℕ) < 256 := by decide
  have hl200 : (200 : ℕ) < 256 := by decide
  have hl201 : (201 : ℕ) < 256 := by decide
  have hl202 : (202 : ℕ) < 256 := by decide
  have hl203 : (203 : ℕ) < 256 := by decide
  have hl204 : (204 : ℕ) < 256 := by decide
  have hl205 : (205 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw408 : w = wordOf wm i 199 hl199 := hw
  have hp408 : stateAt 407 ⟨199, hl199⟩ = St.started := show stateAt 407 ⟨199, (by decide : (199 : ℕ) < 256)⟩ = St.started from by decide
  have hn408 : ∀ l : Fin 256, stateAt 408 l = Function.update (stateAt 407) ⟨199, hl199⟩ St.done l := show ∀ l : Fin 256, stateAt 408 l = Function.update (stateAt 407) ⟨199, (by decide : (199 : ℕ) < 256)⟩ St.done l from by decide
  iapply (wait_fam c 𝒱₀ arg3 (Memref.whole main_v0_0) i q ai wm hai x3 f 407 199 7 hl199 hj7 rfl hp408 hn408 w hw408 (k0_off1223 i) rfl (k0_off1223_inb i) k0_cond408 (fun _ => rfl) (k0_chk408 i) (k0_chk408.dec i) (k0_off1224 i) (fun _ => rfl) (fun _ _ h => h) (k0_off1224_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W408, HO⟩
  iapply (loadMask_wp c 𝒱₀ i 200 hl200 q wm rfl) $$ HM
  iintro HM %w409 %hw409
  have hp409 : stateAt 408 ⟨200, hl200⟩ = St.started := show stateAt 408 ⟨200, (by decide : (200 : ℕ) < 256)⟩ = St.started from by decide
  have hn409 : ∀ l : Fin 256, stateAt 409 l = Function.update (stateAt 408) ⟨200, hl200⟩ St.done l := show ∀ l : Fin 256, stateAt 409 l = Function.update (stateAt 408) ⟨200, (by decide : (200 : ℕ) < 256)⟩ St.done l from by decide
  iapply (wait_fam c 𝒱₀ arg3 (Memref.whole main_v0_0) i q ai wm hai x3 f 408 200 8 hl200 hj8 rfl hp409 hn409 w409 hw409 (k0_off1226 i) rfl (k0_off1226_inb i) k0_cond409 (fun _ => rfl) (k0_chk409 i) (k0_chk409.dec i) (k0_off1227 i) (fun _ => rfl) (fun _ _ h => h) (k0_off1227_inb i) ((View.wordExact_bits rfl).reshape _ _) (fun _ _ => (View.wordExact_bits rfl).reshape _ _) _ _ W408) $$ [HS HM HC HO]
  · isplitl [HS]; · iexact HS
    isplitl [HM]; · iexact HM
    isplitl [HC]; · iexact HC
    iexact HO
  iintro ⟨HS, HM, HC, S8, %W409, HO⟩
  iapply (loadMask_wp c 𝒱₀ i 201 hl201 q wm rfl) $$ HM
  iintro HM %w410 %hw410
  have hp410 : stateAt 409 ⟨201, hl201⟩ = St.started := show stateAt 409 ⟨201, (by decide : (201 : ℕ) < 256)⟩ = St.started from by decide
  have hn410 : ∀ l : Fin 256, stateAt 410 l = Function.update (stateAt 409) ⟨201, hl201⟩ St.done l := show ∀ l : Fin 256, stateAt 410 l = Function.update (stateAt 409) ⟨201, (by decide : (201 : ℕ) < 256)⟩ St.done l from by decide
  iapply (wait_fam c 𝒱₀ arg3 (Memref.whole main_v0_0) i q ai wm hai x3 f 409 201 9 hl201 hj9 rfl hp410 hn410 w410 hw410 (k0_off1229 i) rfl (k0_off1229_inb i) k0_cond410 (fun _ => rfl) (k0_chk410 i) (k0_chk410.dec i) (k0_off1230 i) (fun _ => rfl) (fun _ _ h => h) (k0_off1230_inb i) ((View.wordExact_bits rfl).reshape _ _) (fun _ _ => (View.wordExact_bits rfl).reshape _ _) _ _ W409) $$ [HS HM HC HO]
  · isplitl [HS]; · iexact HS
    isplitl [HM]; · iexact HM
    isplitl [HC]; · iexact HC
    iexact HO
  iintro ⟨HS, HM, HC, S9, %W410, HO⟩
  iapply (loadMask_wp c 𝒱₀ i 202 hl202 q wm rfl) $$ HM
  iintro HM %w411 %hw411
  have hp411 : stateAt 410 ⟨202, hl202⟩ = St.started := show stateAt 410 ⟨202, (by decide : (202 : ℕ) < 256)⟩ = St.started from by decide
  have hn411 : ∀ l : Fin 256, stateAt 411 l = Function.update (stateAt 410) ⟨202, hl202⟩ St.done l := show ∀ l : Fin 256, stateAt 411 l = Function.update (stateAt 410) ⟨202, (by decide : (202 : ℕ) < 256)⟩ St.done l from by decide
  iapply (wait_fam c 𝒱₀ arg3 (Memref.whole main_v0_0) i q ai wm hai x3 f 410 202 10 hl202 hj10 rfl hp411 hn411 w411 hw411 (k0_off1232 i) rfl (k0_off1232_inb i) k0_cond411 (fun _ => rfl) (k0_chk411 i) (k0_chk411.dec i) (k0_off1233 i) (fun _ => rfl) (fun _ _ h => h) (k0_off1233_inb i) ((View.wordExact_bits rfl).reshape _ _) (fun _ _ => (View.wordExact_bits rfl).reshape _ _) _ _ W410) $$ [HS HM HC HO]
  · isplitl [HS]; · iexact HS
    isplitl [HM]; · iexact HM
    isplitl [HC]; · iexact HC
    iexact HO
  iintro ⟨HS, HM, HC, S10, %W411, HO⟩
  iapply (loadMask_wp c 𝒱₀ i 203 hl203 q wm rfl) $$ HM
  iintro HM %w412 %hw412
  have hp412 : stateAt 411 ⟨203, hl203⟩ = St.started := show stateAt 411 ⟨203, (by decide : (203 : ℕ) < 256)⟩ = St.started from by decide
  have hn412 : ∀ l : Fin 256, stateAt 412 l = Function.update (stateAt 411) ⟨203, hl203⟩ St.done l := show ∀ l : Fin 256, stateAt 412 l = Function.update (stateAt 411) ⟨203, (by decide : (203 : ℕ) < 256)⟩ St.done l from by decide
  iapply (wait_fam c 𝒱₀ arg3 (Memref.whole main_v0_0) i q ai wm hai x3 f 411 203 11 hl203 hj11 rfl hp412 hn412 w412 hw412 (k0_off1235 i) rfl (k0_off1235_inb i) k0_cond412 (fun _ => rfl) (k0_chk412 i) (k0_chk412.dec i) (k0_off1236 i) (fun _ => rfl) (fun _ _ h => h) (k0_off1236_inb i) ((View.wordExact_bits rfl).reshape _ _) (fun _ _ => (View.wordExact_bits rfl).reshape _ _) _ _ W411) $$ [HS HM HC HO]
  · isplitl [HS]; · iexact HS
    isplitl [HM]; · iexact HM
    isplitl [HC]; · iexact HC
    iexact HO
  iintro ⟨HS, HM, HC, S11, %W412, HO⟩
  iapply (loadMask_wp c 𝒱₀ i 204 hl204 q wm rfl) $$ HM
  iintro HM %w413 %hw413
  have hp413 : stateAt 412 ⟨204, hl204⟩ = St.started := show stateAt 412 ⟨204, (by decide : (204 : ℕ) < 256)⟩ = St.started from by decide
  have hn413 : ∀ l : Fin 256, stateAt 413 l = Function.update (stateAt 412) ⟨204, hl204⟩ St.done l := show ∀ l : Fin 256, stateAt 413 l = Function.update (stateAt 412) ⟨204, (by decide : (204 : ℕ) < 256)⟩ St.done l from by decide
  iapply (wait_fam c 𝒱₀ arg3 (Memref.whole main_v0_0) i q ai wm hai x3 f 412 204 12 hl204 hj12 rfl hp413 hn413 w413 hw413 (k0_off1238 i) rfl (k0_off1238_inb i) k0_cond413 (fun _ => rfl) (k0_chk413 i) (k0_chk413.dec i) (k0_off1239 i) (fun _ => rfl) (fun _ _ h => h) (k0_off1239_inb i) ((View.wordExact_bits rfl).reshape _ _) (fun _ _ => (View.wordExact_bits rfl).reshape _ _) _ _ W412) $$ [HS HM HC HO]
  · isplitl [HS]; · iexact HS
    isplitl [HM]; · iexact HM
    isplitl [HC]; · iexact HC
    iexact HO
  iintro ⟨HS, HM, HC, S12, %W413, HO⟩
  iapply (loadMask_wp c 𝒱₀ i 205 hl205 q wm rfl) $$ HM
  iintro HM %w414 %hw414
  rw [wp_pure]
  imodintro
  isplitr; · ipureintro; exact hw414
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 70 of the body: steps 414 to 419, and the load of the next step's mask word. -/
theorem part70_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 205 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 413 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part70 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 211 (by decide)⌝ ∗ ((c : Thread nD τ).loc main_call0_v12 ↦{q} ai) ∗ ((c : Thread nD τ).loc main_call0_v13 ↦{q} wm) ∗ cells c arg3 (Memref.whole main_v0_0) i ai wm hai x3 f 419 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part70_eq_skeleton]; unfold k0_part70_skel
  iintro ⟨HS, HM, HC, S0, S1, S2, S3, S4, S5, S6, S7, S8, S9, S10, S11, S12, HO⟩
  have hl205 : (205 : ℕ) < 256 := by decide
  have hl206 : (206 : ℕ) < 256 := by decide
  have hl207 : (207 : ℕ) < 256 := by decide
  have hl208 : (208 : ℕ) < 256 := by decide
  have hl209 : (209 : ℕ) < 256 := by decide
  have hl210 : (210 : ℕ) < 256 := by decide
  have hl211 : (211 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw414 : w = wordOf wm i 205 hl205 := hw
  have hp414 : stateAt 413 ⟨205, hl205⟩ = St.started := show stateAt 413 ⟨205, (by decide : (205 : ℕ) < 256)⟩ = St.started from by decide
  have hn414 : ∀ l : Fin 256, stateAt 414 l = Function.update (stateAt 413) ⟨205, hl205⟩ St.done l := show ∀ l : Fin 256, stateAt 414 l = Function.update (stateAt 413) ⟨205, (by decide : (205 : ℕ) < 256)⟩ St.done l from by decide
  iapply (wait_fam c 𝒱₀ arg3 (Memref.whole main_v0_0) i q ai wm hai x3 f 413 205 13 hl205 hj13 rfl hp414 hn414 w hw414 (k0_off1241 i) rfl (k0_off1241_inb i) k0_cond414 (fun _ => rfl) (k0_chk414 i) (k0_chk414.dec i) (k0_off1242 i) (fun _ => rfl) (fun _ _ h => h) (k0_off1242_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W414, HO⟩
  iapply (loadMask_wp c 𝒱₀ i 206 hl206 q wm rfl) $$ HM
  iintro HM %w415 %hw415
  have hp415 : stateAt 414 ⟨206, hl206⟩ = St.started := show stateAt 414 ⟨206, (by decide : (206 : ℕ) < 256)⟩ = St.started from by decide
  have hn415 : ∀ l : Fin 256, stateAt 415 l = Function.update (stateAt 414) ⟨206, hl206⟩ St.done l := show ∀ l : Fin 256, stateAt 415 l = Function.update (stateAt 414) ⟨206, (by decide : (206 : ℕ) < 256)⟩ St.done l from by decide
  iapply (wait_fam c 𝒱₀ arg3 (Memref.whole main_v0_0) i q ai wm hai x3 f 414 206 14 hl206 hj14 rfl hp415 hn415 w415 hw415 (k0_off1244 i) rfl (k0_off1244_inb i) k0_cond415 (fun _ => rfl) (k0_chk415 i) (k0_chk415.dec i) (k0_off1245 i) (fun _ => rfl) (fun _ _ h => h) (k0_off1245_inb i) ((View.wordExact_bits rfl).reshape _ _) (fun _ _ => (View.wordExact_bits rfl).reshape _ _) _ _ W414) $$ [HS HM HC HO]
  · isplitl [HS]; · iexact HS
    isplitl [HM]; · iexact HM
    isplitl [HC]; · iexact HC
    iexact HO
  iintro ⟨HS, HM, HC, S14, %W415, HO⟩
  iapply (loadMask_wp c 𝒱₀ i 207 hl207 q wm rfl) $$ HM
  iintro HM %w416 %hw416
  have hp416 : stateAt 415 ⟨207, hl207⟩ = St.started := show stateAt 415 ⟨207, (by decide : (207 : ℕ) < 256)⟩ = St.started from by decide
  have hn416 : ∀ l : Fin 256, stateAt 416 l = Function.update (stateAt 415) ⟨207, hl207⟩ St.done l := show ∀ l : Fin 256, stateAt 416 l = Function.update (stateAt 415) ⟨207, (by decide : (207 : ℕ) < 256)⟩ St.done l from by decide
  iapply (wait_fam c 𝒱₀ arg3 (Memref.whole main_v0_0) i q ai wm hai x3 f 415 207 15 hl207 hj15 rfl hp416 hn416 w416 hw416 (k0_off1247 i) rfl (k0_off1247_inb i) k0_cond416 (fun _ => rfl) (k0_chk416 i) (k0_chk416.dec i) (k0_off1248 i) (fun _ => rfl) (fun _ _ h => h) (k0_off1248_inb i) ((View.wordExact_bits rfl).reshape _ _) (fun _ _ => (View.wordExact_bits rfl).reshape _ _) _ _ W415) $$ [HS HM HC HO]
  · isplitl [HS]; · iexact HS
    isplitl [HM]; · iexact HM
    isplitl [HC]; · iexact HC
    iexact HO
  iintro ⟨HS, HM, HC, S15, %W416, HO⟩
  iapply (loadMask_wp c 𝒱₀ i 208 hl208 q wm rfl) $$ HM
  iintro HM %w417 %hw417
  have hp417 : stateAt 416 ⟨208, hl208⟩ = St.pending := show stateAt 416 ⟨208, (by decide : (208 : ℕ) < 256)⟩ = St.pending from by decide
  have hn417 : ∀ l : Fin 256, stateAt 417 l = Function.update (stateAt 416) ⟨208, hl208⟩ St.started l := show ∀ l : Fin 256, stateAt 417 l = Function.update (stateAt 416) ⟨208, (by decide : (208 : ℕ) < 256)⟩ St.started l from by decide
  iapply (start_fam c 𝒱₀ arg3 (Memref.whole main_v0_0) i q ai wm hai x3 f 416 208 0 hl208 hj0 rfl hp417 hn417 w417 hw417 k0_cond417 (fun _ => rfl) (k0_chk417 i) (k0_chk417.dec i) (k0_off1251 i) (fun _ => rfl) (fun _ _ => rfl) rfl) $$ [HS HC S0]
  · isplitl [HS]; · iexact HS
    isplitl [HC]; · iexact HC
    iexact S0
  iintro ⟨HS, HC⟩
  iapply (loadMask_wp c 𝒱₀ i 209 hl209 q wm rfl) $$ HM
  iintro HM %w418 %hw418
  have hp418 : stateAt 417 ⟨209, hl209⟩ = St.pending := show stateAt 417 ⟨209, (by decide : (209 : ℕ) < 256)⟩ = St.pending from by decide
  have hn418 : ∀ l : Fin 256, stateAt 418 l = Function.update (stateAt 417) ⟨209, hl209⟩ St.started l := show ∀ l : Fin 256, stateAt 418 l = Function.update (stateAt 417) ⟨209, (by decide : (209 : ℕ) < 256)⟩ St.started l from by decide
  iapply (start_fam c 𝒱₀ arg3 (Memref.whole main_v0_0) i q ai wm hai x3 f 417 209 1 hl209 hj1 rfl hp418 hn418 w418 hw418 k0_cond418 (fun _ => rfl) (k0_chk418 i) (k0_chk418.dec i) (k0_off1254 i) (fun _ => rfl) (fun _ _ => rfl) rfl) $$ [HS HC S1]
  · isplitl [HS]; · iexact HS
    isplitl [HC]; · iexact HC
    iexact S1
  iintro ⟨HS, HC⟩
  iapply (loadMask_wp c 𝒱₀ i 210 hl210 q wm rfl) $$ HM
  iintro HM %w419 %hw419
  have hp419 : stateAt 418 ⟨210, hl210⟩ = St.pending := show stateAt 418 ⟨210, (by decide : (210 : ℕ) < 256)⟩ = St.pending from by decide
  have hn419 : ∀ l : Fin 256, stateAt 419 l = Function.update (stateAt 418) ⟨210, hl210⟩ St.started l := show ∀ l : Fin 256, stateAt 419 l = Function.update (stateAt 418) ⟨210, (by decide : (210 : ℕ) < 256)⟩ St.started l from by decide
  iapply (start_fam c 𝒱₀ arg3 (Memref.whole main_v0_0) i q ai wm hai x3 f 418 210 2 hl210 hj2 rfl hp419 hn419 w419 hw419 k0_cond419 (fun _ => rfl) (k0_chk419 i) (k0_chk419.dec i) (k0_off1257 i) (fun _ => rfl) (fun _ _ => rfl) rfl) $$ [HS HC S2]
  · isplitl [HS]; · iexact HS
    isplitl [HC]; · iexact HC
    iexact S2
  iintro ⟨HS, HC⟩
  iapply (loadMask_wp c 𝒱₀ i 211 hl211 q wm rfl) $$ HM
  iintro HM %w420 %hw420
  rw [wp_pure]
  imodintro
  isplitr; · ipureintro; exact hw420
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 71 of the body: steps 420 to 425, and the load of the next step's mask word. -/
theorem part71_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 211 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 419 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part71 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 217 (by decide)⌝ ∗ ((c : Thread nD τ).loc main_call0_v12 ↦{q} ai) ∗ ((c : Thread nD τ).loc main_call0_v13 ↦{q} wm) ∗ cells c arg3 (Memref.whole main_v0_0) i ai wm hai x3 f 425 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part71_eq_skeleton]; unfold k0_part71_skel
  iintro ⟨HS, HM, HC, S3, S4, S5, S6, S7, S8, S9, S10, S11, S12, S13, S14, S15, HO⟩
  have hl211 : (211 : ℕ) < 256 := by decide
  have hl212 : (212 : ℕ) < 256 := by decide
  have hl213 : (213 : ℕ) < 256 := by decide
  have hl214 : (214 : ℕ) < 256 := by decide
  have hl215 : (215 : ℕ) < 256 := by decide
  have hl216 : (216 : ℕ) < 256 := by decide
  have hl217 : (217 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw420 : w = wordOf wm i 211 hl211 := hw
  have hp420 : stateAt 419 ⟨211, hl211⟩ = St.pending := show stateAt 419 ⟨211, (by decide : (211 : ℕ) < 256)⟩ = St.pending from by decide
  have hn420 : ∀ l : Fin 256, stateAt 420 l = Function.update (stateAt 419) ⟨211, hl211⟩ St.started l := show ∀ l : Fin 256, stateAt 420 l = Function.update (stateAt 419) ⟨211, (by decide : (211 : ℕ) < 256)⟩ St.started l from by decide
  iapply (start_fam c 𝒱₀ arg3 (Memref.whole main_v0_0) i q ai wm hai x3 f 419 211 3 hl211 hj3 rfl hp420 hn420 w hw420 k0_cond420 (fun _ => rfl) (k0_chk420 i) (k0_chk420.dec i) (k0_off1260 i) (fun _ => rfl) (fun _ _ => rfl) rfl) $$ [HS HC S3]
  · isplitl [HS]; · iexact HS
    isplitl [HC]; · iexact HC
    iexact S3
  iintro ⟨HS, HC⟩
  iapply (loadMask_wp c 𝒱₀ i 212 hl212 q wm rfl) $$ HM
  iintro HM %w421 %hw421
  have hp421 : stateAt 420 ⟨212, hl212⟩ = St.pending := show stateAt 420 ⟨212, (by decide : (212 : ℕ) < 256)⟩ = St.pending from by decide
  have hn421 : ∀ l : Fin 256, stateAt 421 l = Function.update (stateAt 420) ⟨212, hl212⟩ St.started l := show ∀ l : Fin 256, stateAt 421 l = Function.update (stateAt 420) ⟨212, (by decide : (212 : ℕ) < 256)⟩ St.started l from by decide
  iapply (start_fam c 𝒱₀ arg3 (Memref.whole main_v0_0) i q ai wm hai x3 f 420 212 4 hl212 hj4 rfl hp421 hn421 w421 hw421 k0_cond421 (fun _ => rfl) (k0_chk421 i) (k0_chk421.dec i) (k0_off1263 i) (fun _ => rfl) (fun _ _ => rfl) rfl) $$ [HS HC S4]
  · isplitl [HS]; · iexact HS
    isplitl [HC]; · iexact HC
    iexact S4
  iintro ⟨HS, HC⟩
  iapply (loadMask_wp c 𝒱₀ i 213 hl213 q wm rfl) $$ HM
  iintro HM %w422 %hw422
  have hp422 : stateAt 421 ⟨213, hl213⟩ = St.pending := show stateAt 421 ⟨213, (by decide : (213 : ℕ) < 256)⟩ = St.pending from by decide
  have hn422 : ∀ l : Fin 256, stateAt 422 l = Function.update (stateAt 421) ⟨213, hl213⟩ St.started l := show ∀ l : Fin 256, stateAt 422 l = Function.update (stateAt 421) ⟨213, (by decide : (213 : ℕ) < 256)⟩ St.started l from by decide
  iapply (start_fam c 𝒱₀ arg3 (Memref.whole main_v0_0) i q ai wm hai x3 f 421 213 5 hl213 hj5 rfl hp422 hn422 w422 hw422 k0_cond422 (fun _ => rfl) (k0_chk422 i) (k0_chk422.dec i) (k0_off1266 i) (fun _ => rfl) (fun _ _ => rfl) rfl) $$ [HS HC S5]
  · isplitl [HS]; · iexact HS
    isplitl [HC]; · iexact HC
    iexact S5
  iintro ⟨HS, HC⟩
  iapply (loadMask_wp c 𝒱₀ i 214 hl214 q wm rfl) $$ HM
  iintro HM %w423 %hw423
  have hp423 : stateAt 422 ⟨214, hl214⟩ = St.pending := show stateAt 422 ⟨214, (by decide : (214 : ℕ) < 256)⟩ = St.pending from by decide
  have hn423 : ∀ l : Fin 256, stateAt 423 l = Function.update (stateAt 422) ⟨214, hl214⟩ St.started l := show ∀ l : Fin 256, stateAt 423 l = Function.update (stateAt 422) ⟨214, (by decide : (214 : ℕ) < 256)⟩ St.started l from by decide
  iapply (start_fam c 𝒱₀ arg3 (Memref.whole main_v0_0) i q ai wm hai x3 f 422 214 6 hl214 hj6 rfl hp423 hn423 w423 hw423 k0_cond423 (fun _ => rfl) (k0_chk423 i) (k0_chk423.dec i) (k0_off1269 i) (fun _ => rfl) (fun _ _ => rfl) rfl) $$ [HS HC S6]
  · isplitl [HS]; · iexact HS
    isplitl [HC]; · iexact HC
    iexact S6
  iintro ⟨HS, HC⟩
  iapply (loadMask_wp c 𝒱₀ i 215 hl215 q wm rfl) $$ HM
  iintro HM %w424 %hw424
  have hp424 : stateAt 423 ⟨215, hl215⟩ = St.pending := show stateAt 423 ⟨215, (by decide : (215 : ℕ) < 256)⟩ = St.pending from by decide
  have hn424 : ∀ l : Fin 256, stateAt 424 l = Function.update (stateAt 423) ⟨215, hl215⟩ St.started l := show ∀ l : Fin 256, stateAt 424 l = Function.update (stateAt 423) ⟨215, (by decide : (215 : ℕ) < 256)⟩ St.started l from by decide
  iapply (start_fam c 𝒱₀ arg3 (Memref.whole main_v0_0) i q ai wm hai x3 f 423 215 7 hl215 hj7 rfl hp424 hn424 w424 hw424 k0_cond424 (fun _ => rfl) (k0_chk424 i) (k0_chk424.dec i) (k0_off1272 i) (fun _ => rfl) (fun _ _ => rfl) rfl) $$ [HS HC S7]
  · isplitl [HS]; · iexact HS
    isplitl [HC]; · iexact HC
    iexact S7
  iintro ⟨HS, HC⟩
  iapply (loadMask_wp c 𝒱₀ i 216 hl216 q wm rfl) $$ HM
  iintro HM %w425 %hw425
  have hp425 : stateAt 424 ⟨216, hl216⟩ = St.pending := show stateAt 424 ⟨216, (by decide : (216 : ℕ) < 256)⟩ = St.pending from by decide
  have hn425 : ∀ l : Fin 256, stateAt 425 l = Function.update (stateAt 424) ⟨216, hl216⟩ St.started l := show ∀ l : Fin 256, stateAt 425 l = Function.update (stateAt 424) ⟨216, (by decide : (216 : ℕ) < 256)⟩ St.started l from by decide
  iapply (start_fam c 𝒱₀ arg3 (Memref.whole main_v0_0) i q ai wm hai x3 f 424 216 8 hl216 hj8 rfl hp425 hn425 w425 hw425 k0_cond425 (fun _ => rfl) (k0_chk425 i) (k0_chk425.dec i) (k0_off1275 i) (fun _ => rfl) (fun _ _ => rfl) rfl) $$ [HS HC S8]
  · isplitl [HS]; · iexact HS
    isplitl [HC]; · iexact HC
    iexact S8
  iintro ⟨HS, HC⟩
  iapply (loadMask_wp c 𝒱₀ i 217 hl217 q wm rfl) $$ HM
  iintro HM %w426 %hw426
  rw [wp_pure]
  imodintro
  isplitr; · ipureintro; exact hw426
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 72 of the body: steps 426 to 431, and the load of the next step's mask word. -/
theorem part72_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 217 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 425 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part72 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 223 (by decide)⌝ ∗ ((c : Thread nD τ).loc main_call0_v12 ↦{q} ai) ∗ ((c : Thread nD τ).loc main_call0_v13 ↦{q} wm) ∗ cells c arg3 (Memref.whole main_v0_0) i ai wm hai x3 f 431 ∗ semPt c 15 (sem_inb 15 (by decide)) ∗ ∃ W', owes (c : Thread nD τ) 0 W')) := by
  rw [k0_part72_eq_skeleton]; unfold k0_part72_skel
  iintro ⟨HS, HM, HC, S9, S10, S11, S12, S13, S14, S15, HO⟩
  have hl217 : (217 : ℕ) < 256 := by decide
  have hl218 : (218 : ℕ) < 256 := by decide
  have hl219 : (219 : ℕ) < 256 := by decide
  have hl220 : (220 : ℕ) < 256 := by decide
  have hl221 : (221 : ℕ) < 256 := by decide
  have hl222 : (222 : ℕ) < 256 := by decide
  have hl223 : (223 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw426 : w = wordOf wm i 217 hl217 := hw
  have hp426 : stateAt 425 ⟨217, hl217⟩ = St.pending := show stateAt 425 ⟨217, (by decide : (217 : ℕ) < 256)⟩ = St.pending from by decide
  have hn426 : ∀ l : Fin 256, stateAt 426 l = Function.update (stateAt 425) ⟨217, hl217⟩ St.started l := show ∀ l : Fin 256, stateAt 426 l = Function.update (stateAt 425) ⟨217, (by decide : (217 : ℕ) < 256)⟩ St.started l from by decide
  iapply (start_fam c 𝒱₀ arg3 (Memref.whole main_v0_0) i q ai wm hai x3 f 425 217 9 hl217 hj9 rfl hp426 hn426 w hw426 k0_cond426 (fun _ => rfl) (k0_chk426 i) (k0_chk426.dec i) (k0_off1278 i) (fun _ => rfl) (fun _ _ => rfl) rfl) $$ [HS HC S9]
  · isplitl [HS]; · iexact HS
    isplitl [HC]; · iexact HC
    iexact S9
  iintro ⟨HS, HC⟩
  iapply (loadMask_wp c 𝒱₀ i 218 hl218 q wm rfl) $$ HM
  iintro HM %w427 %hw427
  have hp427 : stateAt 426 ⟨218, hl218⟩ = St.pending := show stateAt 426 ⟨218, (by decide : (218 : ℕ) < 256)⟩ = St.pending from by decide
  have hn427 : ∀ l : Fin 256, stateAt 427 l = Function.update (stateAt 426) ⟨218, hl218⟩ St.started l := show ∀ l : Fin 256, stateAt 427 l = Function.update (stateAt 426) ⟨218, (by decide : (218 : ℕ) < 256)⟩ St.started l from by decide
  iapply (start_fam c 𝒱₀ arg3 (Memref.whole main_v0_0) i q ai wm hai x3 f 426 218 10 hl218 hj10 rfl hp427 hn427 w427 hw427 k0_cond427 (fun _ => rfl) (k0_chk427 i) (k0_chk427.dec i) (k0_off1281 i) (fun _ => rfl) (fun _ _ => rfl) rfl) $$ [HS HC S10]
  · isplitl [HS]; · iexact HS
    isplitl [HC]; · iexact HC
    iexact S10
  iintro ⟨HS, HC⟩
  iapply (loadMask_wp c 𝒱₀ i 219 hl219 q wm rfl) $$ HM
  iintro HM %w428 %hw428
  have hp428 : stateAt 427 ⟨219, hl219⟩ = St.pending := show stateAt 427 ⟨219, (by decide : (219 : ℕ) < 256)⟩ = St.pending from by decide
  have hn428 : ∀ l : Fin 256, stateAt 428 l = Function.update (stateAt 427) ⟨219, hl219⟩ St.started l := show ∀ l : Fin 256, stateAt 428 l = Function.update (stateAt 427) ⟨219, (by decide : (219 : ℕ) < 256)⟩ St.started l from by decide
  iapply (start_fam c 𝒱₀ arg3 (Memref.whole main_v0_0) i q ai wm hai x3 f 427 219 11 hl219 hj11 rfl hp428 hn428 w428 hw428 k0_cond428 (fun _ => rfl) (k0_chk428 i) (k0_chk428.dec i) (k0_off1284 i) (fun _ => rfl) (fun _ _ => rfl) rfl) $$ [HS HC S11]
  · isplitl [HS]; · iexact HS
    isplitl [HC]; · iexact HC
    iexact S11
  iintro ⟨HS, HC⟩
  iapply (loadMask_wp c 𝒱₀ i 220 hl220 q wm rfl) $$ HM
  iintro HM %w429 %hw429
  have hp429 : stateAt 428 ⟨220, hl220⟩ = St.pending := show stateAt 428 ⟨220, (by decide : (220 : ℕ) < 256)⟩ = St.pending from by decide
  have hn429 : ∀ l : Fin 256, stateAt 429 l = Function.update (stateAt 428) ⟨220, hl220⟩ St.started l := show ∀ l : Fin 256, stateAt 429 l = Function.update (stateAt 428) ⟨220, (by decide : (220 : ℕ) < 256)⟩ St.started l from by decide
  iapply (start_fam c 𝒱₀ arg3 (Memref.whole main_v0_0) i q ai wm hai x3 f 428 220 12 hl220 hj12 rfl hp429 hn429 w429 hw429 k0_cond429 (fun _ => rfl) (k0_chk429 i) (k0_chk429.dec i) (k0_off1287 i) (fun _ => rfl) (fun _ _ => rfl) rfl) $$ [HS HC S12]
  · isplitl [HS]; · iexact HS
    isplitl [HC]; · iexact HC
    iexact S12
  iintro ⟨HS, HC⟩
  iapply (loadMask_wp c 𝒱₀ i 221 hl221 q wm rfl) $$ HM
  iintro HM %w430 %hw430
  have hp430 : stateAt 429 ⟨221, hl221⟩ = St.pending := show stateAt 429 ⟨221, (by decide : (221 : ℕ) < 256)⟩ = St.pending from by decide
  have hn430 : ∀ l : Fin 256, stateAt 430 l = Function.update (stateAt 429) ⟨221, hl221⟩ St.started l := show ∀ l : Fin 256, stateAt 430 l = Function.update (stateAt 429) ⟨221, (by decide : (221 : ℕ) < 256)⟩ St.started l from by decide
  iapply (start_fam c 𝒱₀ arg3 (Memref.whole main_v0_0) i q ai wm hai x3 f 429 221 13 hl221 hj13 rfl hp430 hn430 w430 hw430 k0_cond430 (fun _ => rfl) (k0_chk430 i) (k0_chk430.dec i) (k0_off1290 i) (fun _ => rfl) (fun _ _ => rfl) rfl) $$ [HS HC S13]
  · isplitl [HS]; · iexact HS
    isplitl [HC]; · iexact HC
    iexact S13
  iintro ⟨HS, HC⟩
  iapply (loadMask_wp c 𝒱₀ i 222 hl222 q wm rfl) $$ HM
  iintro HM %w431 %hw431
  have hp431 : stateAt 430 ⟨222, hl222⟩ = St.pending := show stateAt 430 ⟨222, (by decide : (222 : ℕ) < 256)⟩ = St.pending from by decide
  have hn431 : ∀ l : Fin 256, stateAt 431 l = Function.update (stateAt 430) ⟨222, hl222⟩ St.started l := show ∀ l : Fin 256, stateAt 431 l = Function.update (stateAt 430) ⟨222, (by decide : (222 : ℕ) < 256)⟩ St.started l from by decide
  iapply (start_fam c 𝒱₀ arg3 (Memref.whole main_v0_0) i q ai wm hai x3 f 430 222 14 hl222 hj14 rfl hp431 hn431 w431 hw431 k0_cond431 (fun _ => rfl) (k0_chk431 i) (k0_chk431.dec i) (k0_off1293 i) (fun _ => rfl) (fun _ _ => rfl) rfl) $$ [HS HC S14]
  · isplitl [HS]; · iexact HS
    isplitl [HC]; · iexact HC
    iexact S14
  iintro ⟨HS, HC⟩
  iapply (loadMask_wp c 𝒱₀ i 223 hl223 q wm rfl) $$ HM
  iintro HM %w432 %hw432
  rw [wp_pure]
  imodintro
  isplitr; · ipureintro; exact hw432
  isplitl [HS]; · iexact HS
  isplitl [HM]; · iexact HM
  isplitl [HC]; · iexact HC
  isplitl [S15]; · iexact S15
  iexists _; iexact HO

set_option maxHeartbeats 0 in
/-- Part 73 of the body: steps 432 to 437, and the load of the next step's mask word. -/
theorem part73_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 223 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 431 ∗ semPt c 15 (sem_inb 15 (by decide)) ∗ owes (c : Thread nD τ) 0 W)
      ⊢ wp frame (wpE (defs₀ (F := F)) 𝒱₀ (c : Thread nD τ) none) Set.univ (k0_part73 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 213 (by decide)⌝ ∗ ((c : Thread nD τ).loc main_call0_v12 ↦{q} ai) ∗ ((c : Thread nD τ).loc main_call0_v13 ↦{q} wm) ∗ cells c arg3 (Memref.whole main_v0_0) i ai wm hai x3 f 437 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part73_eq_skeleton]; unfold k0_part73_skel
  iintro ⟨HS, HM, HC, S15, HO⟩
  have hl208 : (208 : ℕ) < 256 := by decide
  have hl209 : (209 : ℕ) < 256 := by decide
  have hl210 : (210 : ℕ) < 256 := by decide
  have hl211 : (211 : ℕ) < 256 := by decide
  have hl212 : (212 : ℕ) < 256 := by decide
  have hl213 : (213 : ℕ) < 256 := by decide
  have hl223 : (223 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw432 : w = wordOf wm i 223 hl223 := hw
  have hp432 : stateAt 431 ⟨223, hl223⟩ = St.pending := show stateAt 431 ⟨223, (by decide : (223 : ℕ) < 256)⟩ = St.pending from by decide
  have hn432 : ∀ l : Fin 256, stateAt 432 l = Function.update (stateAt 431) ⟨223, hl223⟩ St.started l := show ∀ l : Fin 256, stateAt 432 l = Function.update (stateAt 431) ⟨223, (by decide : (223 : ℕ) < 256)⟩ St.started l from by decide
  iapply (start_fam c 𝒱₀ arg3 (Memref.whole main_v0_0) i q ai wm hai x3 f 431 223 15 hl223 hj15 rfl hp432 hn432 w hw432 k0_cond432 (fun _ => rfl) (k0_chk432 i) (k0_chk432.dec i) (k0_off1296 i) (fun _ => rfl) (fun _ _ => rfl) rfl) $$ [HS HC S15]
  · isplitl [HS]; · iexact HS
    isplitl [HC]; · iexact HC
    iexact S15
  iintro ⟨HS, HC⟩
  iapply (loadMask_wp c 𝒱₀ i 208 hl208 q wm rfl) $$ HM
  iintro HM %w433 %hw433
  have hp433 : stateAt 432 ⟨208, hl208⟩ = St.started := show stateAt 432 ⟨208, (by decide : (208 : ℕ) < 256)⟩ = St.started from by decide
  have hn433 : ∀ l : Fin 256, stateAt 433 l = Function.update (stateAt 432) ⟨208, hl208⟩ St.done l := show ∀ l : Fin 256, stateAt 433 l = Function.update (stateAt 432) ⟨208, (by decide : (208 : ℕ) < 256)⟩ St.done l from by decide
  iapply (wait_fam c 𝒱₀ arg3 (Memref.whole main_v0_0) i q ai wm hai x3 f 432 208 0 hl208 hj0 rfl hp433 hn433 w433 hw433 (k0_off1298 i) rfl (k0_off1298_inb i) k0_cond433 (fun _ => rfl) (k0_chk433 i) (k0_chk433.dec i) (k0_off1299 i) (fun _ => rfl) (fun _ _ h => h) (k0_off1299_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W433, HO⟩
  iapply (loadMask_wp c 𝒱₀ i 209 hl209 q wm rfl) $$ HM
  iintro HM %w434 %hw434
  have hp434 : stateAt 433 ⟨209, hl209⟩ = St.started := show stateAt 433 ⟨209, (by decide : (209 : ℕ) < 256)⟩ = St.started from by decide
  have hn434 : ∀ l : Fin 256, stateAt 434 l = Function.update (stateAt 433) ⟨209, hl209⟩ St.done l := show ∀ l : Fin 256, stateAt 434 l = Function.update (stateAt 433) ⟨209, (by decide : (209 : ℕ) < 256)⟩ St.done l from by decide
  iapply (wait_fam c 𝒱₀ arg3 (Memref.whole main_v0_0) i q ai wm hai x3 f 433 209 1 hl209 hj1 rfl hp434 hn434 w434 hw434 (k0_off1301 i) rfl (k0_off1301_inb i) k0_cond434 (fun _ => rfl) (k0_chk434 i) (k0_chk434.dec i) (k0_off1302 i) (fun _ => rfl) (fun _ _ h => h) (k0_off1302_inb i) ((View.wordExact_bits rfl).reshape _ _) (fun _ _ => (View.wordExact_bits rfl).reshape _ _) _ _ W433) $$ [HS HM HC HO]
  · isplitl [HS]; · iexact HS
    isplitl [HM]; · iexact HM
    isplitl [HC]; · iexact HC
    iexact HO
  iintro ⟨HS, HM, HC, S1, %W434, HO⟩
  iapply (loadMask_wp c 𝒱₀ i 210 hl210 q wm rfl) $$ HM
  iintro HM %w435 %hw435
  have hp435 : stateAt 434 ⟨210, hl210⟩ = St.started := show stateAt 434 ⟨210, (by decide : (210 : ℕ) < 256)⟩ = St.started from by decide
  have hn435 : ∀ l : Fin 256, stateAt 435 l = Function.update (stateAt 434) ⟨210, hl210⟩ St.done l := show ∀ l : Fin 256, stateAt 435 l = Function.update (stateAt 434) ⟨210, (by decide : (210 : ℕ) < 256)⟩ St.done l from by decide
  iapply (wait_fam c 𝒱₀ arg3 (Memref.whole main_v0_0) i q ai wm hai x3 f 434 210 2 hl210 hj2 rfl hp435 hn435 w435 hw435 (k0_off1304 i) rfl (k0_off1304_inb i) k0_cond435 (fun _ => rfl) (k0_chk435 i) (k0_chk435.dec i) (k0_off1305 i) (fun _ => rfl) (fun _ _ h => h) (k0_off1305_inb i) ((View.wordExact_bits rfl).reshape _ _) (fun _ _ => (View.wordExact_bits rfl).reshape _ _) _ _ W434) $$ [HS HM HC HO]
  · isplitl [HS]; · iexact HS
    isplitl [HM]; · iexact HM
    isplitl [HC]; · iexact HC
    iexact HO
  iintro ⟨HS, HM, HC, S2, %W435, HO⟩
  iapply (loadMask_wp c 𝒱₀ i 211 hl211 q wm rfl) $$ HM
  iintro HM %w436 %hw436
  have hp436 : stateAt 435 ⟨211, hl211⟩ = St.started := show stateAt 435 ⟨211, (by decide : (211 : ℕ) < 256)⟩ = St.started from by decide
  have hn436 : ∀ l : Fin 256, stateAt 436 l = Function.update (stateAt 435) ⟨211, hl211⟩ St.done l := show ∀ l : Fin 256, stateAt 436 l = Function.update (stateAt 435) ⟨211, (by decide : (211 : ℕ) < 256)⟩ St.done l from by decide
  iapply (wait_fam c 𝒱₀ arg3 (Memref.whole main_v0_0) i q ai wm hai x3 f 435 211 3 hl211 hj3 rfl hp436 hn436 w436 hw436 (k0_off1307 i) rfl (k0_off1307_inb i) k0_cond436 (fun _ => rfl) (k0_chk436 i) (k0_chk436.dec i) (k0_off1308 i) (fun _ => rfl) (fun _ _ h => h) (k0_off1308_inb i) ((View.wordExact_bits rfl).reshape _ _) (fun _ _ => (View.wordExact_bits rfl).reshape _ _) _ _ W435) $$ [HS HM HC HO]
  · isplitl [HS]; · iexact HS
    isplitl [HM]; · iexact HM
    isplitl [HC]; · iexact HC
    iexact HO
  iintro ⟨HS, HM, HC, S3, %W436, HO⟩
  iapply (loadMask_wp c 𝒱₀ i 212 hl212 q wm rfl) $$ HM
  iintro HM %w437 %hw437
  have hp437 : stateAt 436 ⟨212, hl212⟩ = St.started := show stateAt 436 ⟨212, (by decide : (212 : ℕ) < 256)⟩ = St.started from by decide
  have hn437 : ∀ l : Fin 256, stateAt 437 l = Function.update (stateAt 436) ⟨212, hl212⟩ St.done l := show ∀ l : Fin 256, stateAt 437 l = Function.update (stateAt 436) ⟨212, (by decide : (212 : ℕ) < 256)⟩ St.done l from by decide
  iapply (wait_fam c 𝒱₀ arg3 (Memref.whole main_v0_0) i q ai wm hai x3 f 436 212 4 hl212 hj4 rfl hp437 hn437 w437 hw437 (k0_off1310 i) rfl (k0_off1310_inb i) k0_cond437 (fun _ => rfl) (k0_chk437 i) (k0_chk437.dec i) (k0_off1311 i) (fun _ => rfl) (fun _ _ h => h) (k0_off1311_inb i) ((View.wordExact_bits rfl).reshape _ _) (fun _ _ => (View.wordExact_bits rfl).reshape _ _) _ _ W436) $$ [HS HM HC HO]
  · isplitl [HS]; · iexact HS
    isplitl [HM]; · iexact HM
    isplitl [HC]; · iexact HC
    iexact HO
  iintro ⟨HS, HM, HC, S4, %W437, HO⟩
  iapply (loadMask_wp c 𝒱₀ i 213 hl213 q wm rfl) $$ HM
  iintro HM %w438 %hw438
  rw [wp_pure]
  imodintro
  isplitr; · ipureintro; exact hw438
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 74 of the body: steps 438 to 443, and the load of the next step's mask word. -/
theorem part74_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 213 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 437 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part74 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 219 (by decide)⌝ ∗ ((c : Thread nD τ).loc main_call0_v12 ↦{q} ai) ∗ ((c : Thread nD τ).loc main_call0_v13 ↦{q} wm) ∗ cells c arg3 (Memref.whole main_v0_0) i ai wm hai x3 f 443 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part74_eq_skeleton]; unfold k0_part74_skel
  iintro ⟨HS, HM, HC, S0, S1, S2, S3, S4, HO⟩
  have hl213 : (213 : ℕ) < 256 := by decide
  have hl214 : (214 : ℕ) < 256 := by decide
  have hl215 : (215 : ℕ) < 256 := by decide
  have hl216 : (216 : ℕ) < 256 := by decide
  have hl217 : (217 : ℕ) < 256 := by decide
  have hl218 : (218 : ℕ) < 256 := by decide
  have hl219 : (219 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw438 : w = wordOf wm i 213 hl213 := hw
  have hp438 : stateAt 437 ⟨213, hl213⟩ = St.started := show stateAt 437 ⟨213, (by decide : (213 : ℕ) < 256)⟩ = St.started from by decide
  have hn438 : ∀ l : Fin 256, stateAt 438 l = Function.update (stateAt 437) ⟨213, hl213⟩ St.done l := show ∀ l : Fin 256, stateAt 438 l = Function.update (stateAt 437) ⟨213, (by decide : (213 : ℕ) < 256)⟩ St.done l from by decide
  iapply (wait_fam c 𝒱₀ arg3 (Memref.whole main_v0_0) i q ai wm hai x3 f 437 213 5 hl213 hj5 rfl hp438 hn438 w hw438 (k0_off1313 i) rfl (k0_off1313_inb i) k0_cond438 (fun _ => rfl) (k0_chk438 i) (k0_chk438.dec i) (k0_off1314 i) (fun _ => rfl) (fun _ _ h => h) (k0_off1314_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W438, HO⟩
  iapply (loadMask_wp c 𝒱₀ i 214 hl214 q wm rfl) $$ HM
  iintro HM %w439 %hw439
  have hp439 : stateAt 438 ⟨214, hl214⟩ = St.started := show stateAt 438 ⟨214, (by decide : (214 : ℕ) < 256)⟩ = St.started from by decide
  have hn439 : ∀ l : Fin 256, stateAt 439 l = Function.update (stateAt 438) ⟨214, hl214⟩ St.done l := show ∀ l : Fin 256, stateAt 439 l = Function.update (stateAt 438) ⟨214, (by decide : (214 : ℕ) < 256)⟩ St.done l from by decide
  iapply (wait_fam c 𝒱₀ arg3 (Memref.whole main_v0_0) i q ai wm hai x3 f 438 214 6 hl214 hj6 rfl hp439 hn439 w439 hw439 (k0_off1316 i) rfl (k0_off1316_inb i) k0_cond439 (fun _ => rfl) (k0_chk439 i) (k0_chk439.dec i) (k0_off1317 i) (fun _ => rfl) (fun _ _ h => h) (k0_off1317_inb i) ((View.wordExact_bits rfl).reshape _ _) (fun _ _ => (View.wordExact_bits rfl).reshape _ _) _ _ W438) $$ [HS HM HC HO]
  · isplitl [HS]; · iexact HS
    isplitl [HM]; · iexact HM
    isplitl [HC]; · iexact HC
    iexact HO
  iintro ⟨HS, HM, HC, S6, %W439, HO⟩
  iapply (loadMask_wp c 𝒱₀ i 215 hl215 q wm rfl) $$ HM
  iintro HM %w440 %hw440
  have hp440 : stateAt 439 ⟨215, hl215⟩ = St.started := show stateAt 439 ⟨215, (by decide : (215 : ℕ) < 256)⟩ = St.started from by decide
  have hn440 : ∀ l : Fin 256, stateAt 440 l = Function.update (stateAt 439) ⟨215, hl215⟩ St.done l := show ∀ l : Fin 256, stateAt 440 l = Function.update (stateAt 439) ⟨215, (by decide : (215 : ℕ) < 256)⟩ St.done l from by decide
  iapply (wait_fam c 𝒱₀ arg3 (Memref.whole main_v0_0) i q ai wm hai x3 f 439 215 7 hl215 hj7 rfl hp440 hn440 w440 hw440 (k0_off1319 i) rfl (k0_off1319_inb i) k0_cond440 (fun _ => rfl) (k0_chk440 i) (k0_chk440.dec i) (k0_off1320 i) (fun _ => rfl) (fun _ _ h => h) (k0_off1320_inb i) ((View.wordExact_bits rfl).reshape _ _) (fun _ _ => (View.wordExact_bits rfl).reshape _ _) _ _ W439) $$ [HS HM HC HO]
  · isplitl [HS]; · iexact HS
    isplitl [HM]; · iexact HM
    isplitl [HC]; · iexact HC
    iexact HO
  iintro ⟨HS, HM, HC, S7, %W440, HO⟩
  iapply (loadMask_wp c 𝒱₀ i 216 hl216 q wm rfl) $$ HM
  iintro HM %w441 %hw441
  have hp441 : stateAt 440 ⟨216, hl216⟩ = St.started := show stateAt 440 ⟨216, (by decide : (216 : ℕ) < 256)⟩ = St.started from by decide
  have hn441 : ∀ l : Fin 256, stateAt 441 l = Function.update (stateAt 440) ⟨216, hl216⟩ St.done l := show ∀ l : Fin 256, stateAt 441 l = Function.update (stateAt 440) ⟨216, (by decide : (216 : ℕ) < 256)⟩ St.done l from by decide
  iapply (wait_fam c 𝒱₀ arg3 (Memref.whole main_v0_0) i q ai wm hai x3 f 440 216 8 hl216 hj8 rfl hp441 hn441 w441 hw441 (k0_off1322 i) rfl (k0_off1322_inb i) k0_cond441 (fun _ => rfl) (k0_chk441 i) (k0_chk441.dec i) (k0_off1323 i) (fun _ => rfl) (fun _ _ h => h) (k0_off1323_inb i) ((View.wordExact_bits rfl).reshape _ _) (fun _ _ => (View.wordExact_bits rfl).reshape _ _) _ _ W440) $$ [HS HM HC HO]
  · isplitl [HS]; · iexact HS
    isplitl [HM]; · iexact HM
    isplitl [HC]; · iexact HC
    iexact HO
  iintro ⟨HS, HM, HC, S8, %W441, HO⟩
  iapply (loadMask_wp c 𝒱₀ i 217 hl217 q wm rfl) $$ HM
  iintro HM %w442 %hw442
  have hp442 : stateAt 441 ⟨217, hl217⟩ = St.started := show stateAt 441 ⟨217, (by decide : (217 : ℕ) < 256)⟩ = St.started from by decide
  have hn442 : ∀ l : Fin 256, stateAt 442 l = Function.update (stateAt 441) ⟨217, hl217⟩ St.done l := show ∀ l : Fin 256, stateAt 442 l = Function.update (stateAt 441) ⟨217, (by decide : (217 : ℕ) < 256)⟩ St.done l from by decide
  iapply (wait_fam c 𝒱₀ arg3 (Memref.whole main_v0_0) i q ai wm hai x3 f 441 217 9 hl217 hj9 rfl hp442 hn442 w442 hw442 (k0_off1325 i) rfl (k0_off1325_inb i) k0_cond442 (fun _ => rfl) (k0_chk442 i) (k0_chk442.dec i) (k0_off1326 i) (fun _ => rfl) (fun _ _ h => h) (k0_off1326_inb i) ((View.wordExact_bits rfl).reshape _ _) (fun _ _ => (View.wordExact_bits rfl).reshape _ _) _ _ W441) $$ [HS HM HC HO]
  · isplitl [HS]; · iexact HS
    isplitl [HM]; · iexact HM
    isplitl [HC]; · iexact HC
    iexact HO
  iintro ⟨HS, HM, HC, S9, %W442, HO⟩
  iapply (loadMask_wp c 𝒱₀ i 218 hl218 q wm rfl) $$ HM
  iintro HM %w443 %hw443
  have hp443 : stateAt 442 ⟨218, hl218⟩ = St.started := show stateAt 442 ⟨218, (by decide : (218 : ℕ) < 256)⟩ = St.started from by decide
  have hn443 : ∀ l : Fin 256, stateAt 443 l = Function.update (stateAt 442) ⟨218, hl218⟩ St.done l := show ∀ l : Fin 256, stateAt 443 l = Function.update (stateAt 442) ⟨218, (by decide : (218 : ℕ) < 256)⟩ St.done l from by decide
  iapply (wait_fam c 𝒱₀ arg3 (Memref.whole main_v0_0) i q ai wm hai x3 f 442 218 10 hl218 hj10 rfl hp443 hn443 w443 hw443 (k0_off1328 i) rfl (k0_off1328_inb i) k0_cond443 (fun _ => rfl) (k0_chk443 i) (k0_chk443.dec i) (k0_off1329 i) (fun _ => rfl) (fun _ _ h => h) (k0_off1329_inb i) ((View.wordExact_bits rfl).reshape _ _) (fun _ _ => (View.wordExact_bits rfl).reshape _ _) _ _ W442) $$ [HS HM HC HO]
  · isplitl [HS]; · iexact HS
    isplitl [HM]; · iexact HM
    isplitl [HC]; · iexact HC
    iexact HO
  iintro ⟨HS, HM, HC, S10, %W443, HO⟩
  iapply (loadMask_wp c 𝒱₀ i 219 hl219 q wm rfl) $$ HM
  iintro HM %w444 %hw444
  rw [wp_pure]
  imodintro
  isplitr; · ipureintro; exact hw444
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 75 of the body: steps 444 to 449, and the load of the next step's mask word. -/
theorem part75_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 219 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 443 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part75 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 225 (by decide)⌝ ∗ ((c : Thread nD τ).loc main_call0_v12 ↦{q} ai) ∗ ((c : Thread nD τ).loc main_call0_v13 ↦{q} wm) ∗ cells c arg3 (Memref.whole main_v0_0) i ai wm hai x3 f 449 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part75_eq_skeleton]; unfold k0_part75_skel
  iintro ⟨HS, HM, HC, S0, S1, S2, S3, S4, S5, S6, S7, S8, S9, S10, HO⟩
  have hl219 : (219 : ℕ) < 256 := by decide
  have hl220 : (220 : ℕ) < 256 := by decide
  have hl221 : (221 : ℕ) < 256 := by decide
  have hl222 : (222 : ℕ) < 256 := by decide
  have hl223 : (223 : ℕ) < 256 := by decide
  have hl224 : (224 : ℕ) < 256 := by decide
  have hl225 : (225 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw444 : w = wordOf wm i 219 hl219 := hw
  have hp444 : stateAt 443 ⟨219, hl219⟩ = St.started := show stateAt 443 ⟨219, (by decide : (219 : ℕ) < 256)⟩ = St.started from by decide
  have hn444 : ∀ l : Fin 256, stateAt 444 l = Function.update (stateAt 443) ⟨219, hl219⟩ St.done l := show ∀ l : Fin 256, stateAt 444 l = Function.update (stateAt 443) ⟨219, (by decide : (219 : ℕ) < 256)⟩ St.done l from by decide
  iapply (wait_fam c 𝒱₀ arg3 (Memref.whole main_v0_0) i q ai wm hai x3 f 443 219 11 hl219 hj11 rfl hp444 hn444 w hw444 (k0_off1331 i) rfl (k0_off1331_inb i) k0_cond444 (fun _ => rfl) (k0_chk444 i) (k0_chk444.dec i) (k0_off1332 i) (fun _ => rfl) (fun _ _ h => h) (k0_off1332_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W444, HO⟩
  iapply (loadMask_wp c 𝒱₀ i 220 hl220 q wm rfl) $$ HM
  iintro HM %w445 %hw445
  have hp445 : stateAt 444 ⟨220, hl220⟩ = St.started := show stateAt 444 ⟨220, (by decide : (220 : ℕ) < 256)⟩ = St.started from by decide
  have hn445 : ∀ l : Fin 256, stateAt 445 l = Function.update (stateAt 444) ⟨220, hl220⟩ St.done l := show ∀ l : Fin 256, stateAt 445 l = Function.update (stateAt 444) ⟨220, (by decide : (220 : ℕ) < 256)⟩ St.done l from by decide
  iapply (wait_fam c 𝒱₀ arg3 (Memref.whole main_v0_0) i q ai wm hai x3 f 444 220 12 hl220 hj12 rfl hp445 hn445 w445 hw445 (k0_off1334 i) rfl (k0_off1334_inb i) k0_cond445 (fun _ => rfl) (k0_chk445 i) (k0_chk445.dec i) (k0_off1335 i) (fun _ => rfl) (fun _ _ h => h) (k0_off1335_inb i) ((View.wordExact_bits rfl).reshape _ _) (fun _ _ => (View.wordExact_bits rfl).reshape _ _) _ _ W444) $$ [HS HM HC HO]
  · isplitl [HS]; · iexact HS
    isplitl [HM]; · iexact HM
    isplitl [HC]; · iexact HC
    iexact HO
  iintro ⟨HS, HM, HC, S12, %W445, HO⟩
  iapply (loadMask_wp c 𝒱₀ i 221 hl221 q wm rfl) $$ HM
  iintro HM %w446 %hw446
  have hp446 : stateAt 445 ⟨221, hl221⟩ = St.started := show stateAt 445 ⟨221, (by decide : (221 : ℕ) < 256)⟩ = St.started from by decide
  have hn446 : ∀ l : Fin 256, stateAt 446 l = Function.update (stateAt 445) ⟨221, hl221⟩ St.done l := show ∀ l : Fin 256, stateAt 446 l = Function.update (stateAt 445) ⟨221, (by decide : (221 : ℕ) < 256)⟩ St.done l from by decide
  iapply (wait_fam c 𝒱₀ arg3 (Memref.whole main_v0_0) i q ai wm hai x3 f 445 221 13 hl221 hj13 rfl hp446 hn446 w446 hw446 (k0_off1337 i) rfl (k0_off1337_inb i) k0_cond446 (fun _ => rfl) (k0_chk446 i) (k0_chk446.dec i) (k0_off1338 i) (fun _ => rfl) (fun _ _ h => h) (k0_off1338_inb i) ((View.wordExact_bits rfl).reshape _ _) (fun _ _ => (View.wordExact_bits rfl).reshape _ _) _ _ W445) $$ [HS HM HC HO]
  · isplitl [HS]; · iexact HS
    isplitl [HM]; · iexact HM
    isplitl [HC]; · iexact HC
    iexact HO
  iintro ⟨HS, HM, HC, S13, %W446, HO⟩
  iapply (loadMask_wp c 𝒱₀ i 222 hl222 q wm rfl) $$ HM
  iintro HM %w447 %hw447
  have hp447 : stateAt 446 ⟨222, hl222⟩ = St.started := show stateAt 446 ⟨222, (by decide : (222 : ℕ) < 256)⟩ = St.started from by decide
  have hn447 : ∀ l : Fin 256, stateAt 447 l = Function.update (stateAt 446) ⟨222, hl222⟩ St.done l := show ∀ l : Fin 256, stateAt 447 l = Function.update (stateAt 446) ⟨222, (by decide : (222 : ℕ) < 256)⟩ St.done l from by decide
  iapply (wait_fam c 𝒱₀ arg3 (Memref.whole main_v0_0) i q ai wm hai x3 f 446 222 14 hl222 hj14 rfl hp447 hn447 w447 hw447 (k0_off1340 i) rfl (k0_off1340_inb i) k0_cond447 (fun _ => rfl) (k0_chk447 i) (k0_chk447.dec i) (k0_off1341 i) (fun _ => rfl) (fun _ _ h => h) (k0_off1341_inb i) ((View.wordExact_bits rfl).reshape _ _) (fun _ _ => (View.wordExact_bits rfl).reshape _ _) _ _ W446) $$ [HS HM HC HO]
  · isplitl [HS]; · iexact HS
    isplitl [HM]; · iexact HM
    isplitl [HC]; · iexact HC
    iexact HO
  iintro ⟨HS, HM, HC, S14, %W447, HO⟩
  iapply (loadMask_wp c 𝒱₀ i 223 hl223 q wm rfl) $$ HM
  iintro HM %w448 %hw448
  have hp448 : stateAt 447 ⟨223, hl223⟩ = St.started := show stateAt 447 ⟨223, (by decide : (223 : ℕ) < 256)⟩ = St.started from by decide
  have hn448 : ∀ l : Fin 256, stateAt 448 l = Function.update (stateAt 447) ⟨223, hl223⟩ St.done l := show ∀ l : Fin 256, stateAt 448 l = Function.update (stateAt 447) ⟨223, (by decide : (223 : ℕ) < 256)⟩ St.done l from by decide
  iapply (wait_fam c 𝒱₀ arg3 (Memref.whole main_v0_0) i q ai wm hai x3 f 447 223 15 hl223 hj15 rfl hp448 hn448 w448 hw448 (k0_off1343 i) rfl (k0_off1343_inb i) k0_cond448 (fun _ => rfl) (k0_chk448 i) (k0_chk448.dec i) (k0_off1344 i) (fun _ => rfl) (fun _ _ h => h) (k0_off1344_inb i) ((View.wordExact_bits rfl).reshape _ _) (fun _ _ => (View.wordExact_bits rfl).reshape _ _) _ _ W447) $$ [HS HM HC HO]
  · isplitl [HS]; · iexact HS
    isplitl [HM]; · iexact HM
    isplitl [HC]; · iexact HC
    iexact HO
  iintro ⟨HS, HM, HC, S15, %W448, HO⟩
  iapply (loadMask_wp c 𝒱₀ i 224 hl224 q wm rfl) $$ HM
  iintro HM %w449 %hw449
  have hp449 : stateAt 448 ⟨224, hl224⟩ = St.pending := show stateAt 448 ⟨224, (by decide : (224 : ℕ) < 256)⟩ = St.pending from by decide
  have hn449 : ∀ l : Fin 256, stateAt 449 l = Function.update (stateAt 448) ⟨224, hl224⟩ St.started l := show ∀ l : Fin 256, stateAt 449 l = Function.update (stateAt 448) ⟨224, (by decide : (224 : ℕ) < 256)⟩ St.started l from by decide
  iapply (start_fam c 𝒱₀ arg3 (Memref.whole main_v0_0) i q ai wm hai x3 f 448 224 0 hl224 hj0 rfl hp449 hn449 w449 hw449 k0_cond449 (fun _ => rfl) (k0_chk449 i) (k0_chk449.dec i) (k0_off1347 i) (fun _ => rfl) (fun _ _ => rfl) rfl) $$ [HS HC S0]
  · isplitl [HS]; · iexact HS
    isplitl [HC]; · iexact HC
    iexact S0
  iintro ⟨HS, HC⟩
  iapply (loadMask_wp c 𝒱₀ i 225 hl225 q wm rfl) $$ HM
  iintro HM %w450 %hw450
  rw [wp_pure]
  imodintro
  isplitr; · ipureintro; exact hw450
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 76 of the body: steps 450 to 455, and the load of the next step's mask word. -/
theorem part76_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 225 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 449 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part76 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 231 (by decide)⌝ ∗ ((c : Thread nD τ).loc main_call0_v12 ↦{q} ai) ∗ ((c : Thread nD τ).loc main_call0_v13 ↦{q} wm) ∗ cells c arg3 (Memref.whole main_v0_0) i ai wm hai x3 f 455 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part76_eq_skeleton]; unfold k0_part76_skel
  iintro ⟨HS, HM, HC, S1, S2, S3, S4, S5, S6, S7, S8, S9, S10, S11, S12, S13, S14, S15, HO⟩
  have hl225 : (225 : ℕ) < 256 := by decide
  have hl226 : (226 : ℕ) < 256 := by decide
  have hl227 : (227 : ℕ) < 256 := by decide
  have hl228 : (228 : ℕ) < 256 := by decide
  have hl229 : (229 : ℕ) < 256 := by decide
  have hl230 : (230 : ℕ) < 256 := by decide
  have hl231 : (231 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw450 : w = wordOf wm i 225 hl225 := hw
  have hp450 : stateAt 449 ⟨225, hl225⟩ = St.pending := show stateAt 449 ⟨225, (by decide : (225 : ℕ) < 256)⟩ = St.pending from by decide
  have hn450 : ∀ l : Fin 256, stateAt 450 l = Function.update (stateAt 449) ⟨225, hl225⟩ St.started l := show ∀ l : Fin 256, stateAt 450 l = Function.update (stateAt 449) ⟨225, (by decide : (225 : ℕ) < 256)⟩ St.started l from by decide
  iapply (start_fam c 𝒱₀ arg3 (Memref.whole main_v0_0) i q ai wm hai x3 f 449 225 1 hl225 hj1 rfl hp450 hn450 w hw450 k0_cond450 (fun _ => rfl) (k0_chk450 i) (k0_chk450.dec i) (k0_off1350 i) (fun _ => rfl) (fun _ _ => rfl) rfl) $$ [HS HC S1]
  · isplitl [HS]; · iexact HS
    isplitl [HC]; · iexact HC
    iexact S1
  iintro ⟨HS, HC⟩
  iapply (loadMask_wp c 𝒱₀ i 226 hl226 q wm rfl) $$ HM
  iintro HM %w451 %hw451
  have hp451 : stateAt 450 ⟨226, hl226⟩ = St.pending := show stateAt 450 ⟨226, (by decide : (226 : ℕ) < 256)⟩ = St.pending from by decide
  have hn451 : ∀ l : Fin 256, stateAt 451 l = Function.update (stateAt 450) ⟨226, hl226⟩ St.started l := show ∀ l : Fin 256, stateAt 451 l = Function.update (stateAt 450) ⟨226, (by decide : (226 : ℕ) < 256)⟩ St.started l from by decide
  iapply (start_fam c 𝒱₀ arg3 (Memref.whole main_v0_0) i q ai wm hai x3 f 450 226 2 hl226 hj2 rfl hp451 hn451 w451 hw451 k0_cond451 (fun _ => rfl) (k0_chk451 i) (k0_chk451.dec i) (k0_off1353 i) (fun _ => rfl) (fun _ _ => rfl) rfl) $$ [HS HC S2]
  · isplitl [HS]; · iexact HS
    isplitl [HC]; · iexact HC
    iexact S2
  iintro ⟨HS, HC⟩
  iapply (loadMask_wp c 𝒱₀ i 227 hl227 q wm rfl) $$ HM
  iintro HM %w452 %hw452
  have hp452 : stateAt 451 ⟨227, hl227⟩ = St.pending := show stateAt 451 ⟨227, (by decide : (227 : ℕ) < 256)⟩ = St.pending from by decide
  have hn452 : ∀ l : Fin 256, stateAt 452 l = Function.update (stateAt 451) ⟨227, hl227⟩ St.started l := show ∀ l : Fin 256, stateAt 452 l = Function.update (stateAt 451) ⟨227, (by decide : (227 : ℕ) < 256)⟩ St.started l from by decide
  iapply (start_fam c 𝒱₀ arg3 (Memref.whole main_v0_0) i q ai wm hai x3 f 451 227 3 hl227 hj3 rfl hp452 hn452 w452 hw452 k0_cond452 (fun _ => rfl) (k0_chk452 i) (k0_chk452.dec i) (k0_off1356 i) (fun _ => rfl) (fun _ _ => rfl) rfl) $$ [HS HC S3]
  · isplitl [HS]; · iexact HS
    isplitl [HC]; · iexact HC
    iexact S3
  iintro ⟨HS, HC⟩
  iapply (loadMask_wp c 𝒱₀ i 228 hl228 q wm rfl) $$ HM
  iintro HM %w453 %hw453
  have hp453 : stateAt 452 ⟨228, hl228⟩ = St.pending := show stateAt 452 ⟨228, (by decide : (228 : ℕ) < 256)⟩ = St.pending from by decide
  have hn453 : ∀ l : Fin 256, stateAt 453 l = Function.update (stateAt 452) ⟨228, hl228⟩ St.started l := show ∀ l : Fin 256, stateAt 453 l = Function.update (stateAt 452) ⟨228, (by decide : (228 : ℕ) < 256)⟩ St.started l from by decide
  iapply (start_fam c 𝒱₀ arg3 (Memref.whole main_v0_0) i q ai wm hai x3 f 452 228 4 hl228 hj4 rfl hp453 hn453 w453 hw453 k0_cond453 (fun _ => rfl) (k0_chk453 i) (k0_chk453.dec i) (k0_off1359 i) (fun _ => rfl) (fun _ _ => rfl) rfl) $$ [HS HC S4]
  · isplitl [HS]; · iexact HS
    isplitl [HC]; · iexact HC
    iexact S4
  iintro ⟨HS, HC⟩
  iapply (loadMask_wp c 𝒱₀ i 229 hl229 q wm rfl) $$ HM
  iintro HM %w454 %hw454
  have hp454 : stateAt 453 ⟨229, hl229⟩ = St.pending := show stateAt 453 ⟨229, (by decide : (229 : ℕ) < 256)⟩ = St.pending from by decide
  have hn454 : ∀ l : Fin 256, stateAt 454 l = Function.update (stateAt 453) ⟨229, hl229⟩ St.started l := show ∀ l : Fin 256, stateAt 454 l = Function.update (stateAt 453) ⟨229, (by decide : (229 : ℕ) < 256)⟩ St.started l from by decide
  iapply (start_fam c 𝒱₀ arg3 (Memref.whole main_v0_0) i q ai wm hai x3 f 453 229 5 hl229 hj5 rfl hp454 hn454 w454 hw454 k0_cond454 (fun _ => rfl) (k0_chk454 i) (k0_chk454.dec i) (k0_off1362 i) (fun _ => rfl) (fun _ _ => rfl) rfl) $$ [HS HC S5]
  · isplitl [HS]; · iexact HS
    isplitl [HC]; · iexact HC
    iexact S5
  iintro ⟨HS, HC⟩
  iapply (loadMask_wp c 𝒱₀ i 230 hl230 q wm rfl) $$ HM
  iintro HM %w455 %hw455
  have hp455 : stateAt 454 ⟨230, hl230⟩ = St.pending := show stateAt 454 ⟨230, (by decide : (230 : ℕ) < 256)⟩ = St.pending from by decide
  have hn455 : ∀ l : Fin 256, stateAt 455 l = Function.update (stateAt 454) ⟨230, hl230⟩ St.started l := show ∀ l : Fin 256, stateAt 455 l = Function.update (stateAt 454) ⟨230, (by decide : (230 : ℕ) < 256)⟩ St.started l from by decide
  iapply (start_fam c 𝒱₀ arg3 (Memref.whole main_v0_0) i q ai wm hai x3 f 454 230 6 hl230 hj6 rfl hp455 hn455 w455 hw455 k0_cond455 (fun _ => rfl) (k0_chk455 i) (k0_chk455.dec i) (k0_off1365 i) (fun _ => rfl) (fun _ _ => rfl) rfl) $$ [HS HC S6]
  · isplitl [HS]; · iexact HS
    isplitl [HC]; · iexact HC
    iexact S6
  iintro ⟨HS, HC⟩
  iapply (loadMask_wp c 𝒱₀ i 231 hl231 q wm rfl) $$ HM
  iintro HM %w456 %hw456
  rw [wp_pure]
  imodintro
  isplitr; · ipureintro; exact hw456
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 77 of the body: steps 456 to 461, and the load of the next step's mask word. -/
theorem part77_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 231 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 455 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part77 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 237 (by decide)⌝ ∗ ((c : Thread nD τ).loc main_call0_v12 ↦{q} ai) ∗ ((c : Thread nD τ).loc main_call0_v13 ↦{q} wm) ∗ cells c arg3 (Memref.whole main_v0_0) i ai wm hai x3 f 461 ∗ semPt c 13 (sem_inb 13 (by decide)) ∗ semPt c 14 (sem_inb 14 (by decide)) ∗ semPt c 15 (sem_inb 15 (by decide)) ∗ ∃ W', owes (c : Thread nD τ) 0 W')) := by
  rw [k0_part77_eq_skeleton]; unfold k0_part77_skel
  iintro ⟨HS, HM, HC, S7, S8, S9, S10, S11, S12, S13, S14, S15, HO⟩
  have hl231 : (231 : ℕ) < 256 := by decide
  have hl232 : (232 : ℕ) < 256 := by decide
  have hl233 : (233 : ℕ) < 256 := by decide
  have hl234 : (234 : ℕ) < 256 := by decide
  have hl235 : (235 : ℕ) < 256 := by decide
  have hl236 : (236 : ℕ) < 256 := by decide
  have hl237 : (237 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw456 : w = wordOf wm i 231 hl231 := hw
  have hp456 : stateAt 455 ⟨231, hl231⟩ = St.pending := show stateAt 455 ⟨231, (by decide : (231 : ℕ) < 256)⟩ = St.pending from by decide
  have hn456 : ∀ l : Fin 256, stateAt 456 l = Function.update (stateAt 455) ⟨231, hl231⟩ St.started l := show ∀ l : Fin 256, stateAt 456 l = Function.update (stateAt 455) ⟨231, (by decide : (231 : ℕ) < 256)⟩ St.started l from by decide
  iapply (start_fam c 𝒱₀ arg3 (Memref.whole main_v0_0) i q ai wm hai x3 f 455 231 7 hl231 hj7 rfl hp456 hn456 w hw456 k0_cond456 (fun _ => rfl) (k0_chk456 i) (k0_chk456.dec i) (k0_off1368 i) (fun _ => rfl) (fun _ _ => rfl) rfl) $$ [HS HC S7]
  · isplitl [HS]; · iexact HS
    isplitl [HC]; · iexact HC
    iexact S7
  iintro ⟨HS, HC⟩
  iapply (loadMask_wp c 𝒱₀ i 232 hl232 q wm rfl) $$ HM
  iintro HM %w457 %hw457
  have hp457 : stateAt 456 ⟨232, hl232⟩ = St.pending := show stateAt 456 ⟨232, (by decide : (232 : ℕ) < 256)⟩ = St.pending from by decide
  have hn457 : ∀ l : Fin 256, stateAt 457 l = Function.update (stateAt 456) ⟨232, hl232⟩ St.started l := show ∀ l : Fin 256, stateAt 457 l = Function.update (stateAt 456) ⟨232, (by decide : (232 : ℕ) < 256)⟩ St.started l from by decide
  iapply (start_fam c 𝒱₀ arg3 (Memref.whole main_v0_0) i q ai wm hai x3 f 456 232 8 hl232 hj8 rfl hp457 hn457 w457 hw457 k0_cond457 (fun _ => rfl) (k0_chk457 i) (k0_chk457.dec i) (k0_off1371 i) (fun _ => rfl) (fun _ _ => rfl) rfl) $$ [HS HC S8]
  · isplitl [HS]; · iexact HS
    isplitl [HC]; · iexact HC
    iexact S8
  iintro ⟨HS, HC⟩
  iapply (loadMask_wp c 𝒱₀ i 233 hl233 q wm rfl) $$ HM
  iintro HM %w458 %hw458
  have hp458 : stateAt 457 ⟨233, hl233⟩ = St.pending := show stateAt 457 ⟨233, (by decide : (233 : ℕ) < 256)⟩ = St.pending from by decide
  have hn458 : ∀ l : Fin 256, stateAt 458 l = Function.update (stateAt 457) ⟨233, hl233⟩ St.started l := show ∀ l : Fin 256, stateAt 458 l = Function.update (stateAt 457) ⟨233, (by decide : (233 : ℕ) < 256)⟩ St.started l from by decide
  iapply (start_fam c 𝒱₀ arg3 (Memref.whole main_v0_0) i q ai wm hai x3 f 457 233 9 hl233 hj9 rfl hp458 hn458 w458 hw458 k0_cond458 (fun _ => rfl) (k0_chk458 i) (k0_chk458.dec i) (k0_off1374 i) (fun _ => rfl) (fun _ _ => rfl) rfl) $$ [HS HC S9]
  · isplitl [HS]; · iexact HS
    isplitl [HC]; · iexact HC
    iexact S9
  iintro ⟨HS, HC⟩
  iapply (loadMask_wp c 𝒱₀ i 234 hl234 q wm rfl) $$ HM
  iintro HM %w459 %hw459
  have hp459 : stateAt 458 ⟨234, hl234⟩ = St.pending := show stateAt 458 ⟨234, (by decide : (234 : ℕ) < 256)⟩ = St.pending from by decide
  have hn459 : ∀ l : Fin 256, stateAt 459 l = Function.update (stateAt 458) ⟨234, hl234⟩ St.started l := show ∀ l : Fin 256, stateAt 459 l = Function.update (stateAt 458) ⟨234, (by decide : (234 : ℕ) < 256)⟩ St.started l from by decide
  iapply (start_fam c 𝒱₀ arg3 (Memref.whole main_v0_0) i q ai wm hai x3 f 458 234 10 hl234 hj10 rfl hp459 hn459 w459 hw459 k0_cond459 (fun _ => rfl) (k0_chk459 i) (k0_chk459.dec i) (k0_off1377 i) (fun _ => rfl) (fun _ _ => rfl) rfl) $$ [HS HC S10]
  · isplitl [HS]; · iexact HS
    isplitl [HC]; · iexact HC
    iexact S10
  iintro ⟨HS, HC⟩
  iapply (loadMask_wp c 𝒱₀ i 235 hl235 q wm rfl) $$ HM
  iintro HM %w460 %hw460
  have hp460 : stateAt 459 ⟨235, hl235⟩ = St.pending := show stateAt 459 ⟨235, (by decide : (235 : ℕ) < 256)⟩ = St.pending from by decide
  have hn460 : ∀ l : Fin 256, stateAt 460 l = Function.update (stateAt 459) ⟨235, hl235⟩ St.started l := show ∀ l : Fin 256, stateAt 460 l = Function.update (stateAt 459) ⟨235, (by decide : (235 : ℕ) < 256)⟩ St.started l from by decide
  iapply (start_fam c 𝒱₀ arg3 (Memref.whole main_v0_0) i q ai wm hai x3 f 459 235 11 hl235 hj11 rfl hp460 hn460 w460 hw460 k0_cond460 (fun _ => rfl) (k0_chk460 i) (k0_chk460.dec i) (k0_off1380 i) (fun _ => rfl) (fun _ _ => rfl) rfl) $$ [HS HC S11]
  · isplitl [HS]; · iexact HS
    isplitl [HC]; · iexact HC
    iexact S11
  iintro ⟨HS, HC⟩
  iapply (loadMask_wp c 𝒱₀ i 236 hl236 q wm rfl) $$ HM
  iintro HM %w461 %hw461
  have hp461 : stateAt 460 ⟨236, hl236⟩ = St.pending := show stateAt 460 ⟨236, (by decide : (236 : ℕ) < 256)⟩ = St.pending from by decide
  have hn461 : ∀ l : Fin 256, stateAt 461 l = Function.update (stateAt 460) ⟨236, hl236⟩ St.started l := show ∀ l : Fin 256, stateAt 461 l = Function.update (stateAt 460) ⟨236, (by decide : (236 : ℕ) < 256)⟩ St.started l from by decide
  iapply (start_fam c 𝒱₀ arg3 (Memref.whole main_v0_0) i q ai wm hai x3 f 460 236 12 hl236 hj12 rfl hp461 hn461 w461 hw461 k0_cond461 (fun _ => rfl) (k0_chk461 i) (k0_chk461.dec i) (k0_off1383 i) (fun _ => rfl) (fun _ _ => rfl) rfl) $$ [HS HC S12]
  · isplitl [HS]; · iexact HS
    isplitl [HC]; · iexact HC
    iexact S12
  iintro ⟨HS, HC⟩
  iapply (loadMask_wp c 𝒱₀ i 237 hl237 q wm rfl) $$ HM
  iintro HM %w462 %hw462
  rw [wp_pure]
  imodintro
  isplitr; · ipureintro; exact hw462
  isplitl [HS]; · iexact HS
  isplitl [HM]; · iexact HM
  isplitl [HC]; · iexact HC
  isplitl [S13]; · iexact S13
  isplitl [S14]; · iexact S14
  isplitl [S15]; · iexact S15
  iexists _; iexact HO

end Cert.KernelIdeal.Cells

end
-- ==== Proof.Parts8Ideal.lean ====
/-
  Parts 78 to 85 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyIdeal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 78 of the body: steps 462 to 467, and the load of the next step's mask word. -/
theorem part78_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 237 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 461 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part78 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 227 (by decide)⌝ ∗ ((c : Thread nD τ).loc main_call0_v12 ↦{q} ai) ∗ ((c : Thread nD τ).loc main_call0_v13 ↦{q} wm) ∗ cells c arg3 (Memref.whole main_v0_0) i ai wm hai x3 f 467 ∗ semPt c 0 (sem_inb 0 (by decide)) ∗ semPt c 1 (sem_inb 1 (by decide)) ∗ semPt c 2 (sem_inb 2 (by decide)) ∗ ∃ W', owes (c : Thread nD τ) 0 W')) := by
  rw [k0_part78_eq_skeleton]; unfold k0_part78_skel
  iintro ⟨HS, HM, HC, S13, S14, S15, HO⟩
  have hl224 : (224 : ℕ) < 256 := by decide
  have hl225 : (225 : ℕ) < 256 := by decide
  have hl226 : (226 : ℕ) < 256 := by decide
  have hl227 : (227 : ℕ) < 256 := by decide
  have hl237 : (237 : ℕ) < 256 := by decide
  have hl238 : (238 : ℕ) < 256 := by decide
  have hl239 : (239 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw462 : w = wordOf wm i 237 hl237 := hw
  have hp462 : stateAt 461 ⟨237, hl237⟩ = St.pending := show stateAt 461 ⟨237, (by decide : (237 : ℕ) < 256)⟩ = St.pending from by decide
  have hn462 : ∀ l : Fin 256, stateAt 462 l = Function.update (stateAt 461) ⟨237, hl237⟩ St.started l := show ∀ l : Fin 256, stateAt 462 l = Function.update (stateAt 461) ⟨237, (by decide : (237 : ℕ) < 256)⟩ St.started l from by decide
  iapply (start_fam c 𝒱₀ arg3 (Memref.whole main_v0_0) i q ai wm hai x3 f 461 237 13 hl237 hj13 rfl hp462 hn462 w hw462 k0_cond462 (fun _ => rfl) (k0_chk462 i) (k0_chk462.dec i) (k0_off1386 i) (fun _ => rfl) (fun _ _ => rfl) rfl) $$ [HS HC S13]
  · isplitl [HS]; · iexact HS
    isplitl [HC]; · iexact HC
    iexact S13
  iintro ⟨HS, HC⟩
  iapply (loadMask_wp c 𝒱₀ i 238 hl238 q wm rfl) $$ HM
  iintro HM %w463 %hw463
  have hp463 : stateAt 462 ⟨238, hl238⟩ = St.pending := show stateAt 462 ⟨238, (by decide : (238 : ℕ) < 256)⟩ = St.pending from by decide
  have hn463 : ∀ l : Fin 256, stateAt 463 l = Function.update (stateAt 462) ⟨238, hl238⟩ St.started l := show ∀ l : Fin 256, stateAt 463 l = Function.update (stateAt 462) ⟨238, (by decide : (238 : ℕ) < 256)⟩ St.started l from by decide
  iapply (start_fam c 𝒱₀ arg3 (Memref.whole main_v0_0) i q ai wm hai x3 f 462 238 14 hl238 hj14 rfl hp463 hn463 w463 hw463 k0_cond463 (fun _ => rfl) (k0_chk463 i) (k0_chk463.dec i) (k0_off1389 i) (fun _ => rfl) (fun _ _ => rfl) rfl) $$ [HS HC S14]
  · isplitl [HS]; · iexact HS
    isplitl [HC]; · iexact HC
    iexact S14
  iintro ⟨HS, HC⟩
  iapply (loadMask_wp c 𝒱₀ i 239 hl239 q wm rfl) $$ HM
  iintro HM %w464 %hw464
  have hp464 : stateAt 463 ⟨239, hl239⟩ = St.pending := show stateAt 463 ⟨239, (by decide : (239 : ℕ) < 256)⟩ = St.pending from by decide
  have hn464 : ∀ l : Fin 256, stateAt 464 l = Function.update (stateAt 463) ⟨239, hl239⟩ St.started l := show ∀ l : Fin 256, stateAt 464 l = Function.update (stateAt 463) ⟨239, (by decide : (239 : ℕ) < 256)⟩ St.started l from by decide
  iapply (start_fam c 𝒱₀ arg3 (Memref.whole main_v0_0) i q ai wm hai x3 f 463 239 15 hl239 hj15 rfl hp464 hn464 w464 hw464 k0_cond464 (fun _ => rfl) (k0_chk464 i) (k0_chk464.dec i) (k0_off1392 i) (fun _ => rfl) (fun _ _ => rfl) rfl) $$ [HS HC S15]
  · isplitl [HS]; · iexact HS
    isplitl [HC]; · iexact HC
    iexact S15
  iintro ⟨HS, HC⟩
  iapply (loadMask_wp c 𝒱₀ i 224 hl224 q wm rfl) $$ HM
  iintro HM %w465 %hw465
  have hp465 : stateAt 464 ⟨224, hl224⟩ = St.started := show stateAt 464 ⟨224, (by decide : (224 : ℕ) < 256)⟩ = St.started from by decide
  have hn465 : ∀ l : Fin 256, stateAt 465 l = Function.update (stateAt 464) ⟨224, hl224⟩ St.done l := show ∀ l : Fin 256, stateAt 465 l = Function.update (stateAt 464) ⟨224, (by decide : (224 : ℕ) < 256)⟩ St.done l from by decide
  iapply (wait_fam c 𝒱₀ arg3 (Memref.whole main_v0_0) i q ai wm hai x3 f 464 224 0 hl224 hj0 rfl hp465 hn465 w465 hw465 (k0_off1394 i) rfl (k0_off1394_inb i) k0_cond465 (fun _ => rfl) (k0_chk465 i) (k0_chk465.dec i) (k0_off1395 i) (fun _ => rfl) (fun _ _ h => h) (k0_off1395_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W465, HO⟩
  iapply (loadMask_wp c 𝒱₀ i 225 hl225 q wm rfl) $$ HM
  iintro HM %w466 %hw466
  have hp466 : stateAt 465 ⟨225, hl225⟩ = St.started := show stateAt 465 ⟨225, (by decide : (225 : ℕ) < 256)⟩ = St.started from by decide
  have hn466 : ∀ l : Fin 256, stateAt 466 l = Function.update (stateAt 465) ⟨225, hl225⟩ St.done l := show ∀ l : Fin 256, stateAt 466 l = Function.update (stateAt 465) ⟨225, (by decide : (225 : ℕ) < 256)⟩ St.done l from by decide
  iapply (wait_fam c 𝒱₀ arg3 (Memref.whole main_v0_0) i q ai wm hai x3 f 465 225 1 hl225 hj1 rfl hp466 hn466 w466 hw466 (k0_off1397 i) rfl (k0_off1397_inb i) k0_cond466 (fun _ => rfl) (k0_chk466 i) (k0_chk466.dec i) (k0_off1398 i) (fun _ => rfl) (fun _ _ h => h) (k0_off1398_inb i) ((View.wordExact_bits rfl).reshape _ _) (fun _ _ => (View.wordExact_bits rfl).reshape _ _) _ _ W465) $$ [HS HM HC HO]
  · isplitl [HS]; · iexact HS
    isplitl [HM]; · iexact HM
    isplitl [HC]; · iexact HC
    iexact HO
  iintro ⟨HS, HM, HC, S1, %W466, HO⟩
  iapply (loadMask_wp c 𝒱₀ i 226 hl226 q wm rfl) $$ HM
  iintro HM %w467 %hw467
  have hp467 : stateAt 466 ⟨226, hl226⟩ = St.started := show stateAt 466 ⟨226, (by decide : (226 : ℕ) < 256)⟩ = St.started from by decide
  have hn467 : ∀ l : Fin 256, stateAt 467 l = Function.update (stateAt 466) ⟨226, hl226⟩ St.done l := show ∀ l : Fin 256, stateAt 467 l = Function.update (stateAt 466) ⟨226, (by decide : (226 : ℕ) < 256)⟩ St.done l from by decide
  iapply (wait_fam c 𝒱₀ arg3 (Memref.whole main_v0_0) i q ai wm hai x3 f 466 226 2 hl226 hj2 rfl hp467 hn467 w467 hw467 (k0_off1400 i) rfl (k0_off1400_inb i) k0_cond467 (fun _ => rfl) (k0_chk467 i) (k0_chk467.dec i) (k0_off1401 i) (fun _ => rfl) (fun _ _ h => h) (k0_off1401_inb i) ((View.wordExact_bits rfl).reshape _ _) (fun _ _ => (View.wordExact_bits rfl).reshape _ _) _ _ W466) $$ [HS HM HC HO]
  · isplitl [HS]; · iexact HS
    isplitl [HM]; · iexact HM
    isplitl [HC]; · iexact HC
    iexact HO
  iintro ⟨HS, HM, HC, S2, %W467, HO⟩
  iapply (loadMask_wp c 𝒱₀ i 227 hl227 q wm rfl) $$ HM
  iintro HM %w468 %hw468
  rw [wp_pure]
  imodintro
  isplitr; · ipureintro; exact hw468
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 79 of the body: steps 468 to 473, and the load of the next step's mask word. -/
theorem part79_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 227 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 467 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part79 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 233 (by decide)⌝ ∗ ((c : Thread nD τ).loc main_call0_v12 ↦{q} ai) ∗ ((c : Thread nD τ).loc main_call0_v13 ↦{q} wm) ∗ cells c arg3 (Memref.whole main_v0_0) i ai wm hai x3 f 473 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part79_eq_skeleton]; unfold k0_part79_skel
  iintro ⟨HS, HM, HC, S0, S1, S2, HO⟩
  have hl227 : (227 : ℕ) < 256 := by decide
  have hl228 : (228 : ℕ) < 256 := by decide
  have hl229 : (229 : ℕ) < 256 := by decide
  have hl230 : (230 : ℕ) < 256 := by decide
  have hl231 : (231 : ℕ) < 256 := by decide
  have hl232 : (232 : ℕ) < 256 := by decide
  have hl233 : (233 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw468 : w = wordOf wm i 227 hl227 := hw
  have hp468 : stateAt 467 ⟨227, hl227⟩ = St.started := show stateAt 467 ⟨227, (by decide : (227 : ℕ) < 256)⟩ = St.started from by decide
  have hn468 : ∀ l : Fin 256, stateAt 468 l = Function.update (stateAt 467) ⟨227, hl227⟩ St.done l := show ∀ l : Fin 256, stateAt 468 l = Function.update (stateAt 467) ⟨227, (by decide : (227 : ℕ) < 256)⟩ St.done l from by decide
  iapply (wait_fam c 𝒱₀ arg3 (Memref.whole main_v0_0) i q ai wm hai x3 f 467 227 3 hl227 hj3 rfl hp468 hn468 w hw468 (k0_off1403 i) rfl (k0_off1403_inb i) k0_cond468 (fun _ => rfl) (k0_chk468 i) (k0_chk468.dec i) (k0_off1404 i) (fun _ => rfl) (fun _ _ h => h) (k0_off1404_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W468, HO⟩
  iapply (loadMask_wp c 𝒱₀ i 228 hl228 q wm rfl) $$ HM
  iintro HM %w469 %hw469
  have hp469 : stateAt 468 ⟨228, hl228⟩ = St.started := show stateAt 468 ⟨228, (by decide : (228 : ℕ) < 256)⟩ = St.started from by decide
  have hn469 : ∀ l : Fin 256, stateAt 469 l = Function.update (stateAt 468) ⟨228, hl228⟩ St.done l := show ∀ l : Fin 256, stateAt 469 l = Function.update (stateAt 468) ⟨228, (by decide : (228 : ℕ) < 256)⟩ St.done l from by decide
  iapply (wait_fam c 𝒱₀ arg3 (Memref.whole main_v0_0) i q ai wm hai x3 f 468 228 4 hl228 hj4 rfl hp469 hn469 w469 hw469 (k0_off1406 i) rfl (k0_off1406_inb i) k0_cond469 (fun _ => rfl) (k0_chk469 i) (k0_chk469.dec i) (k0_off1407 i) (fun _ => rfl) (fun _ _ h => h) (k0_off1407_inb i) ((View.wordExact_bits rfl).reshape _ _) (fun _ _ => (View.wordExact_bits rfl).reshape _ _) _ _ W468) $$ [HS HM HC HO]
  · isplitl [HS]; · iexact HS
    isplitl [HM]; · iexact HM
    isplitl [HC]; · iexact HC
    iexact HO
  iintro ⟨HS, HM, HC, S4, %W469, HO⟩
  iapply (loadMask_wp c 𝒱₀ i 229 hl229 q wm rfl) $$ HM
  iintro HM %w470 %hw470
  have hp470 : stateAt 469 ⟨229, hl229⟩ = St.started := show stateAt 469 ⟨229, (by decide : (229 : ℕ) < 256)⟩ = St.started from by decide
  have hn470 : ∀ l : Fin 256, stateAt 470 l = Function.update (stateAt 469) ⟨229, hl229⟩ St.done l := show ∀ l : Fin 256, stateAt 470 l = Function.update (stateAt 469) ⟨229, (by decide : (229 : ℕ) < 256)⟩ St.done l from by decide
  iapply (wait_fam c 𝒱₀ arg3 (Memref.whole main_v0_0) i q ai wm hai x3 f 469 229 5 hl229 hj5 rfl hp470 hn470 w470 hw470 (k0_off1409 i) rfl (k0_off1409_inb i) k0_cond470 (fun _ => rfl) (k0_chk470 i) (k0_chk470.dec i) (k0_off1410 i) (fun _ => rfl) (fun _ _ h => h) (k0_off1410_inb i) ((View.wordExact_bits rfl).reshape _ _) (fun _ _ => (View.wordExact_bits rfl).reshape _ _) _ _ W469) $$ [HS HM HC HO]
  · isplitl [HS]; · iexact HS
    isplitl [HM]; · iexact HM
    isplitl [HC]; · iexact HC
    iexact HO
  iintro ⟨HS, HM, HC, S5, %W470, HO⟩
  iapply (loadMask_wp c 𝒱₀ i 230 hl230 q wm rfl) $$ HM
  iintro HM %w471 %hw471
  have hp471 : stateAt 470 ⟨230, hl230⟩ = St.started := show stateAt 470 ⟨230, (by decide : (230 : ℕ) < 256)⟩ = St.started from by decide
  have hn471 : ∀ l : Fin 256, stateAt 471 l = Function.update (stateAt 470) ⟨230, hl230⟩ St.done l := show ∀ l : Fin 256, stateAt 471 l = Function.update (stateAt 470) ⟨230, (by decide : (230 : ℕ) < 256)⟩ St.done l from by decide
  iapply (wait_fam c 𝒱₀ arg3 (Memref.whole main_v0_0) i q ai wm hai x3 f 470 230 6 hl230 hj6 rfl hp471 hn471 w471 hw471 (k0_off1412 i) rfl (k0_off1412_inb i) k0_cond471 (fun _ => rfl) (k0_chk471 i) (k0_chk471.dec i) (k0_off1413 i) (fun _ => rfl) (fun _ _ h => h) (k0_off1413_inb i) ((View.wordExact_bits rfl).reshape _ _) (fun _ _ => (View.wordExact_bits rfl).reshape _ _) _ _ W470) $$ [HS HM HC HO]
  · isplitl [HS]; · iexact HS
    isplitl [HM]; · iexact HM
    isplitl [HC]; · iexact HC
    iexact HO
  iintro ⟨HS, HM, HC, S6, %W471, HO⟩
  iapply (loadMask_wp c 𝒱₀ i 231 hl231 q wm rfl) $$ HM
  iintro HM %w472 %hw472
  have hp472 : stateAt 471 ⟨231, hl231⟩ = St.started := show stateAt 471 ⟨231, (by decide : (231 : ℕ) < 256)⟩ = St.started from by decide
  have hn472 : ∀ l : Fin 256, stateAt 472 l = Function.update (stateAt 471) ⟨231, hl231⟩ St.done l := show ∀ l : Fin 256, stateAt 472 l = Function.update (stateAt 471) ⟨231, (by decide : (231 : ℕ) < 256)⟩ St.done l from by decide
  iapply (wait_fam c 𝒱₀ arg3 (Memref.whole main_v0_0) i q ai wm hai x3 f 471 231 7 hl231 hj7 rfl hp472 hn472 w472 hw472 (k0_off1415 i) rfl (k0_off1415_inb i) k0_cond472 (fun _ => rfl) (k0_chk472 i) (k0_chk472.dec i) (k0_off1416 i) (fun _ => rfl) (fun _ _ h => h) (k0_off1416_inb i) ((View.wordExact_bits rfl).reshape _ _) (fun _ _ => (View.wordExact_bits rfl).reshape _ _) _ _ W471) $$ [HS HM HC HO]
  · isplitl [HS]; · iexact HS
    isplitl [HM]; · iexact HM
    isplitl [HC]; · iexact HC
    iexact HO
  iintro ⟨HS, HM, HC, S7, %W472, HO⟩
  iapply (loadMask_wp c 𝒱₀ i 232 hl232 q wm rfl) $$ HM
  iintro HM %w473 %hw473
  have hp473 : stateAt 472 ⟨232, hl232⟩ = St.started := show stateAt 472 ⟨232, (by decide : (232 : ℕ) < 256)⟩ = St.started from by decide
  have hn473 : ∀ l : Fin 256, stateAt 473 l = Function.update (stateAt 472) ⟨232, hl232⟩ St.done l := show ∀ l : Fin 256, stateAt 473 l = Function.update (stateAt 472) ⟨232, (by decide : (232 : ℕ) < 256)⟩ St.done l from by decide
  iapply (wait_fam c 𝒱₀ arg3 (Memref.whole main_v0_0) i q ai wm hai x3 f 472 232 8 hl232 hj8 rfl hp473 hn473 w473 hw473 (k0_off1418 i) rfl (k0_off1418_inb i) k0_cond473 (fun _ => rfl) (k0_chk473 i) (k0_chk473.dec i) (k0_off1419 i) (fun _ => rfl) (fun _ _ h => h) (k0_off1419_inb i) ((View.wordExact_bits rfl).reshape _ _) (fun _ _ => (View.wordExact_bits rfl).reshape _ _) _ _ W472) $$ [HS HM HC HO]
  · isplitl [HS]; · iexact HS
    isplitl [HM]; · iexact HM
    isplitl [HC]; · iexact HC
    iexact HO
  iintro ⟨HS, HM, HC, S8, %W473, HO⟩
  iapply (loadMask_wp c 𝒱₀ i 233 hl233 q wm rfl) $$ HM
  iintro HM %w474 %hw474
  rw [wp_pure]
  imodintro
  isplitr; · ipureintro; exact hw474
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 80 of the body: steps 474 to 479, and the load of the next step's mask word. -/
theorem part80_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 233 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 473 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part80 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 239 (by decide)⌝ ∗ ((c : Thread nD τ).loc main_call0_v12 ↦{q} ai) ∗ ((c : Thread nD τ).loc main_call0_v13 ↦{q} wm) ∗ cells c arg3 (Memref.whole main_v0_0) i ai wm hai x3 f 479 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part80_eq_skeleton]; unfold k0_part80_skel
  iintro ⟨HS, HM, HC, S0, S1, S2, S3, S4, S5, S6, S7, S8, HO⟩
  have hl233 : (233 : ℕ) < 256 := by decide
  have hl234 : (234 : ℕ) < 256 := by decide
  have hl235 : (235 : ℕ) < 256 := by decide
  have hl236 : (236 : ℕ) < 256 := by decide
  have hl237 : (237 : ℕ) < 256 := by decide
  have hl238 : (238 : ℕ) < 256 := by decide
  have hl239 : (239 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw474 : w = wordOf wm i 233 hl233 := hw
  have hp474 : stateAt 473 ⟨233, hl233⟩ = St.started := show stateAt 473 ⟨233, (by decide : (233 : ℕ) < 256)⟩ = St.started from by decide
  have hn474 : ∀ l : Fin 256, stateAt 474 l = Function.update (stateAt 473) ⟨233, hl233⟩ St.done l := show ∀ l : Fin 256, stateAt 474 l = Function.update (stateAt 473) ⟨233, (by decide : (233 : ℕ) < 256)⟩ St.done l from by decide
  iapply (wait_fam c 𝒱₀ arg3 (Memref.whole main_v0_0) i q ai wm hai x3 f 473 233 9 hl233 hj9 rfl hp474 hn474 w hw474 (k0_off1421 i) rfl (k0_off1421_inb i) k0_cond474 (fun _ => rfl) (k0_chk474 i) (k0_chk474.dec i) (k0_off1422 i) (fun _ => rfl) (fun _ _ h => h) (k0_off1422_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W474, HO⟩
  iapply (loadMask_wp c 𝒱₀ i 234 hl234 q wm rfl) $$ HM
  iintro HM %w475 %hw475
  have hp475 : stateAt 474 ⟨234, hl234⟩ = St.started := show stateAt 474 ⟨234, (by decide : (234 : ℕ) < 256)⟩ = St.started from by decide
  have hn475 : ∀ l : Fin 256, stateAt 475 l = Function.update (stateAt 474) ⟨234, hl234⟩ St.done l := show ∀ l : Fin 256, stateAt 475 l = Function.update (stateAt 474) ⟨234, (by decide : (234 : ℕ) < 256)⟩ St.done l from by decide
  iapply (wait_fam c 𝒱₀ arg3 (Memref.whole main_v0_0) i q ai wm hai x3 f 474 234 10 hl234 hj10 rfl hp475 hn475 w475 hw475 (k0_off1424 i) rfl (k0_off1424_inb i) k0_cond475 (fun _ => rfl) (k0_chk475 i) (k0_chk475.dec i) (k0_off1425 i) (fun _ => rfl) (fun _ _ h => h) (k0_off1425_inb i) ((View.wordExact_bits rfl).reshape _ _) (fun _ _ => (View.wordExact_bits rfl).reshape _ _) _ _ W474) $$ [HS HM HC HO]
  · isplitl [HS]; · iexact HS
    isplitl [HM]; · iexact HM
    isplitl [HC]; · iexact HC
    iexact HO
  iintro ⟨HS, HM, HC, S10, %W475, HO⟩
  iapply (loadMask_wp c 𝒱₀ i 235 hl235 q wm rfl) $$ HM
  iintro HM %w476 %hw476
  have hp476 : stateAt 475 ⟨235, hl235⟩ = St.started := show stateAt 475 ⟨235, (by decide : (235 : ℕ) < 256)⟩ = St.started from by decide
  have hn476 : ∀ l : Fin 256, stateAt 476 l = Function.update (stateAt 475) ⟨235, hl235⟩ St.done l := show ∀ l : Fin 256, stateAt 476 l = Function.update (stateAt 475) ⟨235, (by decide : (235 : ℕ) < 256)⟩ St.done l from by decide
  iapply (wait_fam c 𝒱₀ arg3 (Memref.whole main_v0_0) i q ai wm hai x3 f 475 235 11 hl235 hj11 rfl hp476 hn476 w476 hw476 (k0_off1427 i) rfl (k0_off1427_inb i) k0_cond476 (fun _ => rfl) (k0_chk476 i) (k0_chk476.dec i) (k0_off1428 i) (fun _ => rfl) (fun _ _ h => h) (k0_off1428_inb i) ((View.wordExact_bits rfl).reshape _ _) (fun _ _ => (View.wordExact_bits rfl).reshape _ _) _ _ W475) $$ [HS HM HC HO]
  · isplitl [HS]; · iexact HS
    isplitl [HM]; · iexact HM
    isplitl [HC]; · iexact HC
    iexact HO
  iintro ⟨HS, HM, HC, S11, %W476, HO⟩
  iapply (loadMask_wp c 𝒱₀ i 236 hl236 q wm rfl) $$ HM
  iintro HM %w477 %hw477
  have hp477 : stateAt 476 ⟨236, hl236⟩ = St.started := show stateAt 476 ⟨236, (by decide : (236 : ℕ) < 256)⟩ = St.started from by decide
  have hn477 : ∀ l : Fin 256, stateAt 477 l = Function.update (stateAt 476) ⟨236, hl236⟩ St.done l := show ∀ l : Fin 256, stateAt 477 l = Function.update (stateAt 476) ⟨236, (by decide : (236 : ℕ) < 256)⟩ St.done l from by decide
  iapply (wait_fam c 𝒱₀ arg3 (Memref.whole main_v0_0) i q ai wm hai x3 f 476 236 12 hl236 hj12 rfl hp477 hn477 w477 hw477 (k0_off1430 i) rfl (k0_off1430_inb i) k0_cond477 (fun _ => rfl) (k0_chk477 i) (k0_chk477.dec i) (k0_off1431 i) (fun _ => rfl) (fun _ _ h => h) (k0_off1431_inb i) ((View.wordExact_bits rfl).reshape _ _) (fun _ _ => (View.wordExact_bits rfl).reshape _ _) _ _ W476) $$ [HS HM HC HO]
  · isplitl [HS]; · iexact HS
    isplitl [HM]; · iexact HM
    isplitl [HC]; · iexact HC
    iexact HO
  iintro ⟨HS, HM, HC, S12, %W477, HO⟩
  iapply (loadMask_wp c 𝒱₀ i 237 hl237 q wm rfl) $$ HM
  iintro HM %w478 %hw478
  have hp478 : stateAt 477 ⟨237, hl237⟩ = St.started := show stateAt 477 ⟨237, (by decide : (237 : ℕ) < 256)⟩ = St.started from by decide
  have hn478 : ∀ l : Fin 256, stateAt 478 l = Function.update (stateAt 477) ⟨237, hl237⟩ St.done l := show ∀ l : Fin 256, stateAt 478 l = Function.update (stateAt 477) ⟨237, (by decide : (237 : ℕ) < 256)⟩ St.done l from by decide
  iapply (wait_fam c 𝒱₀ arg3 (Memref.whole main_v0_0) i q ai wm hai x3 f 477 237 13 hl237 hj13 rfl hp478 hn478 w478 hw478 (k0_off1433 i) rfl (k0_off1433_inb i) k0_cond478 (fun _ => rfl) (k0_chk478 i) (k0_chk478.dec i) (k0_off1434 i) (fun _ => rfl) (fun _ _ h => h) (k0_off1434_inb i) ((View.wordExact_bits rfl).reshape _ _) (fun _ _ => (View.wordExact_bits rfl).reshape _ _) _ _ W477) $$ [HS HM HC HO]
  · isplitl [HS]; · iexact HS
    isplitl [HM]; · iexact HM
    isplitl [HC]; · iexact HC
    iexact HO
  iintro ⟨HS, HM, HC, S13, %W478, HO⟩
  iapply (loadMask_wp c 𝒱₀ i 238 hl238 q wm rfl) $$ HM
  iintro HM %w479 %hw479
  have hp479 : stateAt 478 ⟨238, hl238⟩ = St.started := show stateAt 478 ⟨238, (by decide : (238 : ℕ) < 256)⟩ = St.started from by decide
  have hn479 : ∀ l : Fin 256, stateAt 479 l = Function.update (stateAt 478) ⟨238, hl238⟩ St.done l := show ∀ l : Fin 256, stateAt 479 l = Function.update (stateAt 478) ⟨238, (by decide : (238 : ℕ) < 256)⟩ St.done l from by decide
  iapply (wait_fam c 𝒱₀ arg3 (Memref.whole main_v0_0) i q ai wm hai x3 f 478 238 14 hl238 hj14 rfl hp479 hn479 w479 hw479 (k0_off1436 i) rfl (k0_off1436_inb i) k0_cond479 (fun _ => rfl) (k0_chk479 i) (k0_chk479.dec i) (k0_off1437 i) (fun _ => rfl) (fun _ _ h => h) (k0_off1437_inb i) ((View.wordExact_bits rfl).reshape _ _) (fun _ _ => (View.wordExact_bits rfl).reshape _ _) _ _ W478) $$ [HS HM HC HO]
  · isplitl [HS]; · iexact HS
    isplitl [HM]; · iexact HM
    isplitl [HC]; · iexact HC
    iexact HO
  iintro ⟨HS, HM, HC, S14, %W479, HO⟩
  iapply (loadMask_wp c 𝒱₀ i 239 hl239 q wm rfl) $$ HM
  iintro HM %w480 %hw480
  rw [wp_pure]
  imodintro
  isplitr; · ipureintro; exact hw480
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 81 of the body: steps 480 to 485, and the load of the next step's mask word. -/
theorem part81_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 239 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 479 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part81 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 245 (by decide)⌝ ∗ ((c : Thread nD τ).loc main_call0_v12 ↦{q} ai) ∗ ((c : Thread nD τ).loc main_call0_v13 ↦{q} wm) ∗ cells c arg3 (Memref.whole main_v0_0) i ai wm hai x3 f 485 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part81_eq_skeleton]; unfold k0_part81_skel
  iintro ⟨HS, HM, HC, S0, S1, S2, S3, S4, S5, S6, S7, S8, S9, S10, S11, S12, S13, S14, HO⟩
  have hl239 : (239 : ℕ) < 256 := by decide
  have hl240 : (240 : ℕ) < 256 := by decide
  have hl241 : (241 : ℕ) < 256 := by decide
  have hl242 : (242 : ℕ) < 256 := by decide
  have hl243 : (243 : ℕ) < 256 := by decide
  have hl244 : (244 : ℕ) < 256 := by decide
  have hl245 : (245 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw480 : w = wordOf wm i 239 hl239 := hw
  have hp480 : stateAt 479 ⟨239, hl239⟩ = St.started := show stateAt 479 ⟨239, (by decide : (239 : ℕ) < 256)⟩ = St.started from by decide
  have hn480 : ∀ l : Fin 256, stateAt 480 l = Function.update (stateAt 479) ⟨239, hl239⟩ St.done l := show ∀ l : Fin 256, stateAt 480 l = Function.update (stateAt 479) ⟨239, (by decide : (239 : ℕ) < 256)⟩ St.done l from by decide
  iapply (wait_fam c 𝒱₀ arg3 (Memref.whole main_v0_0) i q ai wm hai x3 f 479 239 15 hl239 hj15 rfl hp480 hn480 w hw480 (k0_off1439 i) rfl (k0_off1439_inb i) k0_cond480 (fun _ => rfl) (k0_chk480 i) (k0_chk480.dec i) (k0_off1440 i) (fun _ => rfl) (fun _ _ h => h) (k0_off1440_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W480, HO⟩
  iapply (loadMask_wp c 𝒱₀ i 240 hl240 q wm rfl) $$ HM
  iintro HM %w481 %hw481
  have hp481 : stateAt 480 ⟨240, hl240⟩ = St.pending := show stateAt 480 ⟨240, (by decide : (240 : ℕ) < 256)⟩ = St.pending from by decide
  have hn481 : ∀ l : Fin 256, stateAt 481 l = Function.update (stateAt 480) ⟨240, hl240⟩ St.started l := show ∀ l : Fin 256, stateAt 481 l = Function.update (stateAt 480) ⟨240, (by decide : (240 : ℕ) < 256)⟩ St.started l from by decide
  iapply (start_fam c 𝒱₀ arg3 (Memref.whole main_v0_0) i q ai wm hai x3 f 480 240 0 hl240 hj0 rfl hp481 hn481 w481 hw481 k0_cond481 (fun _ => rfl) (k0_chk481 i) (k0_chk481.dec i) (k0_off1443 i) (fun _ => rfl) (fun _ _ => rfl) rfl) $$ [HS HC S0]
  · isplitl [HS]; · iexact HS
    isplitl [HC]; · iexact HC
    iexact S0
  iintro ⟨HS, HC⟩
  iapply (loadMask_wp c 𝒱₀ i 241 hl241 q wm rfl) $$ HM
  iintro HM %w482 %hw482
  have hp482 : stateAt 481 ⟨241, hl241⟩ = St.pending := show stateAt 481 ⟨241, (by decide : (241 : ℕ) < 256)⟩ = St.pending from by decide
  have hn482 : ∀ l : Fin 256, stateAt 482 l = Function.update (stateAt 481) ⟨241, hl241⟩ St.started l := show ∀ l : Fin 256, stateAt 482 l = Function.update (stateAt 481) ⟨241, (by decide : (241 : ℕ) < 256)⟩ St.started l from by decide
  iapply (start_fam c 𝒱₀ arg3 (Memref.whole main_v0_0) i q ai wm hai x3 f 481 241 1 hl241 hj1 rfl hp482 hn482 w482 hw482 k0_cond482 (fun _ => rfl) (k0_chk482 i) (k0_chk482.dec i) (k0_off1446 i) (fun _ => rfl) (fun _ _ => rfl) rfl) $$ [HS HC S1]
  · isplitl [HS]; · iexact HS
    isplitl [HC]; · iexact HC
    iexact S1
  iintro ⟨HS, HC⟩
  iapply (loadMask_wp c 𝒱₀ i 242 hl242 q wm rfl) $$ HM
  iintro HM %w483 %hw483
  have hp483 : stateAt 482 ⟨242, hl242⟩ = St.pending := show stateAt 482 ⟨242, (by decide : (242 : ℕ) < 256)⟩ = St.pending from by decide
  have hn483 : ∀ l : Fin 256, stateAt 483 l = Function.update (stateAt 482) ⟨242, hl242⟩ St.started l := show ∀ l : Fin 256, stateAt 483 l = Function.update (stateAt 482) ⟨242, (by decide : (242 : ℕ) < 256)⟩ St.started l from by decide
  iapply (start_fam c 𝒱₀ arg3 (Memref.whole main_v0_0) i q ai wm hai x3 f 482 242 2 hl242 hj2 rfl hp483 hn483 w483 hw483 k0_cond483 (fun _ => rfl) (k0_chk483 i) (k0_chk483.dec i) (k0_off1449 i) (fun _ => rfl) (fun _ _ => rfl) rfl) $$ [HS HC S2]
  · isplitl [HS]; · iexact HS
    isplitl [HC]; · iexact HC
    iexact S2
  iintro ⟨HS, HC⟩
  iapply (loadMask_wp c 𝒱₀ i 243 hl243 q wm rfl) $$ HM
  iintro HM %w484 %hw484
  have hp484 : stateAt 483 ⟨243, hl243⟩ = St.pending := show stateAt 483 ⟨243, (by decide : (243 : ℕ) < 256)⟩ = St.pending from by decide
  have hn484 : ∀ l : Fin 256, stateAt 484 l = Function.update (stateAt 483) ⟨243, hl243⟩ St.started l := show ∀ l : Fin 256, stateAt 484 l = Function.update (stateAt 483) ⟨243, (by decide : (243 : ℕ) < 256)⟩ St.started l from by decide
  iapply (start_fam c 𝒱₀ arg3 (Memref.whole main_v0_0) i q ai wm hai x3 f 483 243 3 hl243 hj3 rfl hp484 hn484 w484 hw484 k0_cond484 (fun _ => rfl) (k0_chk484 i) (k0_chk484.dec i) (k0_off1452 i) (fun _ => rfl) (fun _ _ => rfl) rfl) $$ [HS HC S3]
  · isplitl [HS]; · iexact HS
    isplitl [HC]; · iexact HC
    iexact S3
  iintro ⟨HS, HC⟩
  iapply (loadMask_wp c 𝒱₀ i 244 hl244 q wm rfl) $$ HM
  iintro HM %w485 %hw485
  have hp485 : stateAt 484 ⟨244, hl244⟩ = St.pending := show stateAt 484 ⟨244, (by decide : (244 : ℕ) < 256)⟩ = St.pending from by decide
  have hn485 : ∀ l : Fin 256, stateAt 485 l = Function.update (stateAt 484) ⟨244, hl244⟩ St.started l := show ∀ l : Fin 256, stateAt 485 l = Function.update (stateAt 484) ⟨244, (by decide : (244 : ℕ) < 256)⟩ St.started l from by decide
  iapply (start_fam c 𝒱₀ arg3 (Memref.whole main_v0_0) i q ai wm hai x3 f 484 244 4 hl244 hj4 rfl hp485 hn485 w485 hw485 k0_cond485 (fun _ => rfl) (k0_chk485 i) (k0_chk485.dec i) (k0_off1455 i) (fun _ => rfl) (fun _ _ => rfl) rfl) $$ [HS HC S4]
  · isplitl [HS]; · iexact HS
    isplitl [HC]; · iexact HC
    iexact S4
  iintro ⟨HS, HC⟩
  iapply (loadMask_wp c 𝒱₀ i 245 hl245 q wm rfl) $$ HM
  iintro HM %w486 %hw486
  rw [wp_pure]
  imodintro
  isplitr; · ipureintro; exact hw486
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 82 of the body: steps 486 to 491, and the load of the next step's mask word. -/
theorem part82_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 245 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 485 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part82 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 251 (by decide)⌝ ∗ ((c : Thread nD τ).loc main_call0_v12 ↦{q} ai) ∗ ((c : Thread nD τ).loc main_call0_v13 ↦{q} wm) ∗ cells c arg3 (Memref.whole main_v0_0) i ai wm hai x3 f 491 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part82_eq_skeleton]; unfold k0_part82_skel
  iintro ⟨HS, HM, HC, S5, S6, S7, S8, S9, S10, S11, S12, S13, S14, S15, HO⟩
  have hl245 : (245 : ℕ) < 256 := by decide
  have hl246 : (246 : ℕ) < 256 := by decide
  have hl247 : (247 : ℕ) < 256 := by decide
  have hl248 : (248 : ℕ) < 256 := by decide
  have hl249 : (249 : ℕ) < 256 := by decide
  have hl250 : (250 : ℕ) < 256 := by decide
  have hl251 : (251 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw486 : w = wordOf wm i 245 hl245 := hw
  have hp486 : stateAt 485 ⟨245, hl245⟩ = St.pending := show stateAt 485 ⟨245, (by decide : (245 : ℕ) < 256)⟩ = St.pending from by decide
  have hn486 : ∀ l : Fin 256, stateAt 486 l = Function.update (stateAt 485) ⟨245, hl245⟩ St.started l := show ∀ l : Fin 256, stateAt 486 l = Function.update (stateAt 485) ⟨245, (by decide : (245 : ℕ) < 256)⟩ St.started l from by decide
  iapply (start_fam c 𝒱₀ arg3 (Memref.whole main_v0_0) i q ai wm hai x3 f 485 245 5 hl245 hj5 rfl hp486 hn486 w hw486 k0_cond486 (fun _ => rfl) (k0_chk486 i) (k0_chk486.dec i) (k0_off1458 i) (fun _ => rfl) (fun _ _ => rfl) rfl) $$ [HS HC S5]
  · isplitl [HS]; · iexact HS
    isplitl [HC]; · iexact HC
    iexact S5
  iintro ⟨HS, HC⟩
  iapply (loadMask_wp c 𝒱₀ i 246 hl246 q wm rfl) $$ HM
  iintro HM %w487 %hw487
  have hp487 : stateAt 486 ⟨246, hl246⟩ = St.pending := show stateAt 486 ⟨246, (by decide : (246 : ℕ) < 256)⟩ = St.pending from by decide
  have hn487 : ∀ l : Fin 256, stateAt 487 l = Function.update (stateAt 486) ⟨246, hl246⟩ St.started l := show ∀ l : Fin 256, stateAt 487 l = Function.update (stateAt 486) ⟨246, (by decide : (246 : ℕ) < 256)⟩ St.started l from by decide
  iapply (start_fam c 𝒱₀ arg3 (Memref.whole main_v0_0) i q ai wm hai x3 f 486 246 6 hl246 hj6 rfl hp487 hn487 w487 hw487 k0_cond487 (fun _ => rfl) (k0_chk487 i) (k0_chk487.dec i) (k0_off1461 i) (fun _ => rfl) (fun _ _ => rfl) rfl) $$ [HS HC S6]
  · isplitl [HS]; · iexact HS
    isplitl [HC]; · iexact HC
    iexact S6
  iintro ⟨HS, HC⟩
  iapply (loadMask_wp c 𝒱₀ i 247 hl247 q wm rfl) $$ HM
  iintro HM %w488 %hw488
  have hp488 : stateAt 487 ⟨247, hl247⟩ = St.pending := show stateAt 487 ⟨247, (by decide : (247 : ℕ) < 256)⟩ = St.pending from by decide
  have hn488 : ∀ l : Fin 256, stateAt 488 l = Function.update (stateAt 487) ⟨247, hl247⟩ St.started l := show ∀ l : Fin 256, stateAt 488 l = Function.update (stateAt 487) ⟨247, (by decide : (247 : ℕ) < 256)⟩ St.started l from by decide
  iapply (start_fam c 𝒱₀ arg3 (Memref.whole main_v0_0) i q ai wm hai x3 f 487 247 7 hl247 hj7 rfl hp488 hn488 w488 hw488 k0_cond488 (fun _ => rfl) (k0_chk488 i) (k0_chk488.dec i) (k0_off1464 i) (fun _ => rfl) (fun _ _ => rfl) rfl) $$ [HS HC S7]
  · isplitl [HS]; · iexact HS
    isplitl [HC]; · iexact HC
    iexact S7
  iintro ⟨HS, HC⟩
  iapply (loadMask_wp c 𝒱₀ i 248 hl248 q wm rfl) $$ HM
  iintro HM %w489 %hw489
  have hp489 : stateAt 488 ⟨248, hl248⟩ = St.pending := show stateAt 488 ⟨248, (by decide : (248 : ℕ) < 256)⟩ = St.pending from by decide
  have hn489 : ∀ l : Fin 256, stateAt 489 l = Function.update (stateAt 488) ⟨248, hl248⟩ St.started l := show ∀ l : Fin 256, stateAt 489 l = Function.update (stateAt 488) ⟨248, (by decide : (248 : ℕ) < 256)⟩ St.started l from by decide
  iapply (start_fam c 𝒱₀ arg3 (Memref.whole main_v0_0) i q ai wm hai x3 f 488 248 8 hl248 hj8 rfl hp489 hn489 w489 hw489 k0_cond489 (fun _ => rfl) (k0_chk489 i) (k0_chk489.dec i) (k0_off1467 i) (fun _ => rfl) (fun _ _ => rfl) rfl) $$ [HS HC S8]
  · isplitl [HS]; · iexact HS
    isplitl [HC]; · iexact HC
    iexact S8
  iintro ⟨HS, HC⟩
  iapply (loadMask_wp c 𝒱₀ i 249 hl249 q wm rfl) $$ HM
  iintro HM %w490 %hw490
  have hp490 : stateAt 489 ⟨249, hl249⟩ = St.pending := show stateAt 489 ⟨249, (by decide : (249 : ℕ) < 256)⟩ = St.pending from by decide
  have hn490 : ∀ l : Fin 256, stateAt 490 l = Function.update (stateAt 489) ⟨249, hl249⟩ St.started l := show ∀ l : Fin 256, stateAt 490 l = Function.update (stateAt 489) ⟨249, (by decide : (249 : ℕ) < 256)⟩ St.started l from by decide
  iapply (start_fam c 𝒱₀ arg3 (Memref.whole main_v0_0) i q ai wm hai x3 f 489 249 9 hl249 hj9 rfl hp490 hn490 w490 hw490 k0_cond490 (fun _ => rfl) (k0_chk490 i) (k0_chk490.dec i) (k0_off1470 i) (fun _ => rfl) (fun _ _ => rfl) rfl) $$ [HS HC S9]
  · isplitl [HS]; · iexact HS
    isplitl [HC]; · iexact HC
    iexact S9
  iintro ⟨HS, HC⟩
  iapply (loadMask_wp c 𝒱₀ i 250 hl250 q wm rfl) $$ HM
  iintro HM %w491 %hw491
  have hp491 : stateAt 490 ⟨250, hl250⟩ = St.pending := show stateAt 490 ⟨250, (by decide : (250 : ℕ) < 256)⟩ = St.pending from by decide
  have hn491 : ∀ l : Fin 256, stateAt 491 l = Function.update (stateAt 490) ⟨250, hl250⟩ St.started l := show ∀ l : Fin 256, stateAt 491 l = Function.update (stateAt 490) ⟨250, (by decide : (250 : ℕ) < 256)⟩ St.started l from by decide
  iapply (start_fam c 𝒱₀ arg3 (Memref.whole main_v0_0) i q ai wm hai x3 f 490 250 10 hl250 hj10 rfl hp491 hn491 w491 hw491 k0_cond491 (fun _ => rfl) (k0_chk491 i) (k0_chk491.dec i) (k0_off1473 i) (fun _ => rfl) (fun _ _ => rfl) rfl) $$ [HS HC S10]
  · isplitl [HS]; · iexact HS
    isplitl [HC]; · iexact HC
    iexact S10
  iintro ⟨HS, HC⟩
  iapply (loadMask_wp c 𝒱₀ i 251 hl251 q wm rfl) $$ HM
  iintro HM %w492 %hw492
  rw [wp_pure]
  imodintro
  isplitr; · ipureintro; exact hw492
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 83 of the body: steps 492 to 497, and the load of the next step's mask word. -/
theorem part83_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 251 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 491 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part83 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 241 (by decide)⌝ ∗ ((c : Thread nD τ).loc main_call0_v12 ↦{q} ai) ∗ ((c : Thread nD τ).loc main_call0_v13 ↦{q} wm) ∗ cells c arg3 (Memref.whole main_v0_0) i ai wm hai x3 f 497 ∗ semPt c 0 (sem_inb 0 (by decide)) ∗ ∃ W', owes (c : Thread nD τ) 0 W')) := by
  rw [k0_part83_eq_skeleton]; unfold k0_part83_skel
  iintro ⟨HS, HM, HC, S11, S12, S13, S14, S15, HO⟩
  have hl240 : (240 : ℕ) < 256 := by decide
  have hl241 : (241 : ℕ) < 256 := by decide
  have hl251 : (251 : ℕ) < 256 := by decide
  have hl252 : (252 : ℕ) < 256 := by decide
  have hl253 : (253 : ℕ) < 256 := by decide
  have hl254 : (254 : ℕ) < 256 := by decide
  have hl255 : (255 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw492 : w = wordOf wm i 251 hl251 := hw
  have hp492 : stateAt 491 ⟨251, hl251⟩ = St.pending := show stateAt 491 ⟨251, (by decide : (251 : ℕ) < 256)⟩ = St.pending from by decide
  have hn492 : ∀ l : Fin 256, stateAt 492 l = Function.update (stateAt 491) ⟨251, hl251⟩ St.started l := show ∀ l : Fin 256, stateAt 492 l = Function.update (stateAt 491) ⟨251, (by decide : (251 : ℕ) < 256)⟩ St.started l from by decide
  iapply (start_fam c 𝒱₀ arg3 (Memref.whole main_v0_0) i q ai wm hai x3 f 491 251 11 hl251 hj11 rfl hp492 hn492 w hw492 k0_cond492 (fun _ => rfl) (k0_chk492 i) (k0_chk492.dec i) (k0_off1476 i) (fun _ => rfl) (fun _ _ => rfl) rfl) $$ [HS HC S11]
  · isplitl [HS]; · iexact HS
    isplitl [HC]; · iexact HC
    iexact S11
  iintro ⟨HS, HC⟩
  iapply (loadMask_wp c 𝒱₀ i 252 hl252 q wm rfl) $$ HM
  iintro HM %w493 %hw493
  have hp493 : stateAt 492 ⟨252, hl252⟩ = St.pending := show stateAt 492 ⟨252, (by decide : (252 : ℕ) < 256)⟩ = St.pending from by decide
  have hn493 : ∀ l : Fin 256, stateAt 493 l = Function.update (stateAt 492) ⟨252, hl252⟩ St.started l := show ∀ l : Fin 256, stateAt 493 l = Function.update (stateAt 492) ⟨252, (by decide : (252 : ℕ) < 256)⟩ St.started l from by decide
  iapply (start_fam c 𝒱₀ arg3 (Memref.whole main_v0_0) i q ai wm hai x3 f 492 252 12 hl252 hj12 rfl hp493 hn493 w493 hw493 k0_cond493 (fun _ => rfl) (k0_chk493 i) (k0_chk493.dec i) (k0_off1479 i) (fun _ => rfl) (fun _ _ => rfl) rfl) $$ [HS HC S12]
  · isplitl [HS]; · iexact HS
    isplitl [HC]; · iexact HC
    iexact S12
  iintro ⟨HS, HC⟩
  iapply (loadMask_wp c 𝒱₀ i 253 hl253 q wm rfl) $$ HM
  iintro HM %w494 %hw494
  have hp494 : stateAt 493 ⟨253, hl253⟩ = St.pending := show stateAt 493 ⟨253, (by decide : (253 : ℕ) < 256)⟩ = St.pending from by decide
  have hn494 : ∀ l : Fin 256, stateAt 494 l = Function.update (stateAt 493) ⟨253, hl253⟩ St.started l := show ∀ l : Fin 256, stateAt 494 l = Function.update (stateAt 493) ⟨253, (by decide : (253 : ℕ) < 256)⟩ St.started l from by decide
  iapply (start_fam c 𝒱₀ arg3 (Memref.whole main_v0_0) i q ai wm hai x3 f 493 253 13 hl253 hj13 rfl hp494 hn494 w494 hw494 k0_cond494 (fun _ => rfl) (k0_chk494 i) (k0_chk494.dec i) (k0_off1482 i) (fun _ => rfl) (fun _ _ => rfl) rfl) $$ [HS HC S13]
  · isplitl [HS]; · iexact HS
    isplitl [HC]; · iexact HC
    iexact S13
  iintro ⟨HS, HC⟩
  iapply (loadMask_wp c 𝒱₀ i 254 hl254 q wm rfl) $$ HM
  iintro HM %w495 %hw495
  have hp495 : stateAt 494 ⟨254, hl254⟩ = St.pending := show stateAt 494 ⟨254, (by decide : (254 : ℕ) < 256)⟩ = St.pending from by decide
  have hn495 : ∀ l : Fin 256, stateAt 495 l = Function.update (stateAt 494) ⟨254, hl254⟩ St.started l := show ∀ l : Fin 256, stateAt 495 l = Function.update (stateAt 494) ⟨254, (by decide : (254 : ℕ) < 256)⟩ St.started l from by decide
  iapply (start_fam c 𝒱₀ arg3 (Memref.whole main_v0_0) i q ai wm hai x3 f 494 254 14 hl254 hj14 rfl hp495 hn495 w495 hw495 k0_cond495 (fun _ => rfl) (k0_chk495 i) (k0_chk495.dec i) (k0_off1485 i) (fun _ => rfl) (fun _ _ => rfl) rfl) $$ [HS HC S14]
  · isplitl [HS]; · iexact HS
    isplitl [HC]; · iexact HC
    iexact S14
  iintro ⟨HS, HC⟩
  iapply (loadMask_wp c 𝒱₀ i 255 hl255 q wm rfl) $$ HM
  iintro HM %w496 %hw496
  have hp496 : stateAt 495 ⟨255, hl255⟩ = St.pending := show stateAt 495 ⟨255, (by decide : (255 : ℕ) < 256)⟩ = St.pending from by decide
  have hn496 : ∀ l : Fin 256, stateAt 496 l = Function.update (stateAt 495) ⟨255, hl255⟩ St.started l := show ∀ l : Fin 256, stateAt 496 l = Function.update (stateAt 495) ⟨255, (by decide : (255 : ℕ) < 256)⟩ St.started l from by decide
  iapply (start_fam c 𝒱₀ arg3 (Memref.whole main_v0_0) i q ai wm hai x3 f 495 255 15 hl255 hj15 rfl hp496 hn496 w496 hw496 k0_cond496 (fun _ => rfl) (k0_chk496 i) (k0_chk496.dec i) (k0_off1488 i) (fun _ => rfl) (fun _ _ => rfl) rfl) $$ [HS HC S15]
  · isplitl [HS]; · iexact HS
    isplitl [HC]; · iexact HC
    iexact S15
  iintro ⟨HS, HC⟩
  iapply (loadMask_wp c 𝒱₀ i 240 hl240 q wm rfl) $$ HM
  iintro HM %w497 %hw497
  have hp497 : stateAt 496 ⟨240, hl240⟩ = St.started := show stateAt 496 ⟨240, (by decide : (240 : ℕ) < 256)⟩ = St.started from by decide
  have hn497 : ∀ l : Fin 256, stateAt 497 l = Function.update (stateAt 496) ⟨240, hl240⟩ St.done l := show ∀ l : Fin 256, stateAt 497 l = Function.update (stateAt 496) ⟨240, (by decide : (240 : ℕ) < 256)⟩ St.done l from by decide
  iapply (wait_fam c 𝒱₀ arg3 (Memref.whole main_v0_0) i q ai wm hai x3 f 496 240 0 hl240 hj0 rfl hp497 hn497 w497 hw497 (k0_off1490 i) rfl (k0_off1490_inb i) k0_cond497 (fun _ => rfl) (k0_chk497 i) (k0_chk497.dec i) (k0_off1491 i) (fun _ => rfl) (fun _ _ h => h) (k0_off1491_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W497, HO⟩
  iapply (loadMask_wp c 𝒱₀ i 241 hl241 q wm rfl) $$ HM
  iintro HM %w498 %hw498
  rw [wp_pure]
  imodintro
  isplitr; · ipureintro; exact hw498
  isplitl [HS]; · iexact HS
  isplitl [HM]; · iexact HM
  isplitl [HC]; · iexact HC
  isplitl [S0]; · iexact S0
  iexists _; iexact HO

set_option maxHeartbeats 0 in
/-- Part 84 of the body: steps 498 to 503, and the load of the next step's mask word. -/
theorem part84_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 241 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 497 ∗ semPt c 0 (sem_inb 0 (by decide)) ∗ owes (c : Thread nD τ) 0 W)
      ⊢ wp frame (wpE (defs₀ (F := F)) 𝒱₀ (c : Thread nD τ) none) Set.univ (k0_part84 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 247 (by decide)⌝ ∗ ((c : Thread nD τ).loc main_call0_v12 ↦{q} ai) ∗ ((c : Thread nD τ).loc main_call0_v13 ↦{q} wm) ∗ cells c arg3 (Memref.whole main_v0_0) i ai wm hai x3 f 503 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part84_eq_skeleton]; unfold k0_part84_skel
  iintro ⟨HS, HM, HC, S0, HO⟩
  have hl241 : (241 : ℕ) < 256 := by decide
  have hl242 : (242 : ℕ) < 256 := by decide
  have hl243 : (243 : ℕ) < 256 := by decide
  have hl244 : (244 : ℕ) < 256 := by decide
  have hl245 : (245 : ℕ) < 256 := by decide
  have hl246 : (246 : ℕ) < 256 := by decide
  have hl247 : (247 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw498 : w = wordOf wm i 241 hl241 := hw
  have hp498 : stateAt 497 ⟨241, hl241⟩ = St.started := show stateAt 497 ⟨241, (by decide : (241 : ℕ) < 256)⟩ = St.started from by decide
  have hn498 : ∀ l : Fin 256, stateAt 498 l = Function.update (stateAt 497) ⟨241, hl241⟩ St.done l := show ∀ l : Fin 256, stateAt 498 l = Function.update (stateAt 497) ⟨241, (by decide : (241 : ℕ) < 256)⟩ St.done l from by decide
  iapply (wait_fam c 𝒱₀ arg3 (Memref.whole main_v0_0) i q ai wm hai x3 f 497 241 1 hl241 hj1 rfl hp498 hn498 w hw498 (k0_off1493 i) rfl (k0_off1493_inb i) k0_cond498 (fun _ => rfl) (k0_chk498 i) (k0_chk498.dec i) (k0_off1494 i) (fun _ => rfl) (fun _ _ h => h) (k0_off1494_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W498, HO⟩
  iapply (loadMask_wp c 𝒱₀ i 242 hl242 q wm rfl) $$ HM
  iintro HM %w499 %hw499
  have hp499 : stateAt 498 ⟨242, hl242⟩ = St.started := show stateAt 498 ⟨242, (by decide : (242 : ℕ) < 256)⟩ = St.started from by decide
  have hn499 : ∀ l : Fin 256, stateAt 499 l = Function.update (stateAt 498) ⟨242, hl242⟩ St.done l := show ∀ l : Fin 256, stateAt 499 l = Function.update (stateAt 498) ⟨242, (by decide : (242 : ℕ) < 256)⟩ St.done l from by decide
  iapply (wait_fam c 𝒱₀ arg3 (Memref.whole main_v0_0) i q ai wm hai x3 f 498 242 2 hl242 hj2 rfl hp499 hn499 w499 hw499 (k0_off1496 i) rfl (k0_off1496_inb i) k0_cond499 (fun _ => rfl) (k0_chk499 i) (k0_chk499.dec i) (k0_off1497 i) (fun _ => rfl) (fun _ _ h => h) (k0_off1497_inb i) ((View.wordExact_bits rfl).reshape _ _) (fun _ _ => (View.wordExact_bits rfl).reshape _ _) _ _ W498) $$ [HS HM HC HO]
  · isplitl [HS]; · iexact HS
    isplitl [HM]; · iexact HM
    isplitl [HC]; · iexact HC
    iexact HO
  iintro ⟨HS, HM, HC, S2, %W499, HO⟩
  iapply (loadMask_wp c 𝒱₀ i 243 hl243 q wm rfl) $$ HM
  iintro HM %w500 %hw500
  have hp500 : stateAt 499 ⟨243, hl243⟩ = St.started := show stateAt 499 ⟨243, (by decide : (243 : ℕ) < 256)⟩ = St.started from by decide
  have hn500 : ∀ l : Fin 256, stateAt 500 l = Function.update (stateAt 499) ⟨243, hl243⟩ St.done l := show ∀ l : Fin 256, stateAt 500 l = Function.update (stateAt 499) ⟨243, (by decide : (243 : ℕ) < 256)⟩ St.done l from by decide
  iapply (wait_fam c 𝒱₀ arg3 (Memref.whole main_v0_0) i q ai wm hai x3 f 499 243 3 hl243 hj3 rfl hp500 hn500 w500 hw500 (k0_off1499 i) rfl (k0_off1499_inb i) k0_cond500 (fun _ => rfl) (k0_chk500 i) (k0_chk500.dec i) (k0_off1500 i) (fun _ => rfl) (fun _ _ h => h) (k0_off1500_inb i) ((View.wordExact_bits rfl).reshape _ _) (fun _ _ => (View.wordExact_bits rfl).reshape _ _) _ _ W499) $$ [HS HM HC HO]
  · isplitl [HS]; · iexact HS
    isplitl [HM]; · iexact HM
    isplitl [HC]; · iexact HC
    iexact HO
  iintro ⟨HS, HM, HC, S3, %W500, HO⟩
  iapply (loadMask_wp c 𝒱₀ i 244 hl244 q wm rfl) $$ HM
  iintro HM %w501 %hw501
  have hp501 : stateAt 500 ⟨244, hl244⟩ = St.started := show stateAt 500 ⟨244, (by decide : (244 : ℕ) < 256)⟩ = St.started from by decide
  have hn501 : ∀ l : Fin 256, stateAt 501 l = Function.update (stateAt 500) ⟨244, hl244⟩ St.done l := show ∀ l : Fin 256, stateAt 501 l = Function.update (stateAt 500) ⟨244, (by decide : (244 : ℕ) < 256)⟩ St.done l from by decide
  iapply (wait_fam c 𝒱₀ arg3 (Memref.whole main_v0_0) i q ai wm hai x3 f 500 244 4 hl244 hj4 rfl hp501 hn501 w501 hw501 (k0_off1502 i) rfl (k0_off1502_inb i) k0_cond501 (fun _ => rfl) (k0_chk501 i) (k0_chk501.dec i) (k0_off1503 i) (fun _ => rfl) (fun _ _ h => h) (k0_off1503_inb i) ((View.wordExact_bits rfl).reshape _ _) (fun _ _ => (View.wordExact_bits rfl).reshape _ _) _ _ W500) $$ [HS HM HC HO]
  · isplitl [HS]; · iexact HS
    isplitl [HM]; · iexact HM
    isplitl [HC]; · iexact HC
    iexact HO
  iintro ⟨HS, HM, HC, S4, %W501, HO⟩
  iapply (loadMask_wp c 𝒱₀ i 245 hl245 q wm rfl) $$ HM
  iintro HM %w502 %hw502
  have hp502 : stateAt 501 ⟨245, hl245⟩ = St.started := show stateAt 501 ⟨245, (by decide : (245 : ℕ) < 256)⟩ = St.started from by decide
  have hn502 : ∀ l : Fin 256, stateAt 502 l = Function.update (stateAt 501) ⟨245, hl245⟩ St.done l := show ∀ l : Fin 256, stateAt 502 l = Function.update (stateAt 501) ⟨245, (by decide : (245 : ℕ) < 256)⟩ St.done l from by decide
  iapply (wait_fam c 𝒱₀ arg3 (Memref.whole main_v0_0) i q ai wm hai x3 f 501 245 5 hl245 hj5 rfl hp502 hn502 w502 hw502 (k0_off1505 i) rfl (k0_off1505_inb i) k0_cond502 (fun _ => rfl) (k0_chk502 i) (k0_chk502.dec i) (k0_off1506 i) (fun _ => rfl) (fun _ _ h => h) (k0_off1506_inb i) ((View.wordExact_bits rfl).reshape _ _) (fun _ _ => (View.wordExact_bits rfl).reshape _ _) _ _ W501) $$ [HS HM HC HO]
  · isplitl [HS]; · iexact HS
    isplitl [HM]; · iexact HM
    isplitl [HC]; · iexact HC
    iexact HO
  iintro ⟨HS, HM, HC, S5, %W502, HO⟩
  iapply (loadMask_wp c 𝒱₀ i 246 hl246 q wm rfl) $$ HM
  iintro HM %w503 %hw503
  have hp503 : stateAt 502 ⟨246, hl246⟩ = St.started := show stateAt 502 ⟨246, (by decide : (246 : ℕ) < 256)⟩ = St.started from by decide
  have hn503 : ∀ l : Fin 256, stateAt 503 l = Function.update (stateAt 502) ⟨246, hl246⟩ St.done l := show ∀ l : Fin 256, stateAt 503 l = Function.update (stateAt 502) ⟨246, (by decide : (246 : ℕ) < 256)⟩ St.done l from by decide
  iapply (wait_fam c 𝒱₀ arg3 (Memref.whole main_v0_0) i q ai wm hai x3 f 502 246 6 hl246 hj6 rfl hp503 hn503 w503 hw503 (k0_off1508 i) rfl (k0_off1508_inb i) k0_cond503 (fun _ => rfl) (k0_chk503 i) (k0_chk503.dec i) (k0_off1509 i) (fun _ => rfl) (fun _ _ h => h) (k0_off1509_inb i) ((View.wordExact_bits rfl).reshape _ _) (fun _ _ => (View.wordExact_bits rfl).reshape _ _) _ _ W502) $$ [HS HM HC HO]
  · isplitl [HS]; · iexact HS
    isplitl [HM]; · iexact HM
    isplitl [HC]; · iexact HC
    iexact HO
  iintro ⟨HS, HM, HC, S6, %W503, HO⟩
  iapply (loadMask_wp c 𝒱₀ i 247 hl247 q wm rfl) $$ HM
  iintro HM %w504 %hw504
  rw [wp_pure]
  imodintro
  isplitr; · ipureintro; exact hw504
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 85 of the body: steps 504 to 509, and the load of the next step's mask word. -/
theorem part85_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 247 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 503 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part85 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 253 (by decide)⌝ ∗ ((c : Thread nD τ).loc main_call0_v12 ↦{q} ai) ∗ ((c : Thread nD τ).loc main_call0_v13 ↦{q} wm) ∗ cells c arg3 (Memref.whole main_v0_0) i ai wm hai x3 f 509 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part85_eq_skeleton]; unfold k0_part85_skel
  iintro ⟨HS, HM, HC, S0, S1, S2, S3, S4, S5, S6, HO⟩
  have hl247 : (247 : ℕ) < 256 := by decide
  have hl248 : (248 : ℕ) < 256 := by decide
  have hl249 : (249 : ℕ) < 256 := by decide
  have hl250 : (250 : ℕ) < 256 := by decide
  have hl251 : (251 : ℕ) < 256 := by decide
  have hl252 : (252 : ℕ) < 256 := by decide
  have hl253 : (253 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw504 : w = wordOf wm i 247 hl247 := hw
  have hp504 : stateAt 503 ⟨247, hl247⟩ = St.started := show stateAt 503 ⟨247, (by decide : (247 : ℕ) < 256)⟩ = St.started from by decide
  have hn504 : ∀ l : Fin 256, stateAt 504 l = Function.update (stateAt 503) ⟨247, hl247⟩ St.done l := show ∀ l : Fin 256, stateAt 504 l = Function.update (stateAt 503) ⟨247, (by decide : (247 : ℕ) < 256)⟩ St.done l from by decide
  iapply (wait_fam c 𝒱₀ arg3 (Memref.whole main_v0_0) i q ai wm hai x3 f 503 247 7 hl247 hj7 rfl hp504 hn504 w hw504 (k0_off1511 i) rfl (k0_off1511_inb i) k0_cond504 (fun _ => rfl) (k0_chk504 i) (k0_chk504.dec i) (k0_off1512 i) (fun _ => rfl) (fun _ _ h => h) (k0_off1512_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W504, HO⟩
  iapply (loadMask_wp c 𝒱₀ i 248 hl248 q wm rfl) $$ HM
  iintro HM %w505 %hw505
  have hp505 : stateAt 504 ⟨248, hl248⟩ = St.started := show stateAt 504 ⟨248, (by decide : (248 : ℕ) < 256)⟩ = St.started from by decide
  have hn505 : ∀ l : Fin 256, stateAt 505 l = Function.update (stateAt 504) ⟨248, hl248⟩ St.done l := show ∀ l : Fin 256, stateAt 505 l = Function.update (stateAt 504) ⟨248, (by decide : (248 : ℕ) < 256)⟩ St.done l from by decide
  iapply (wait_fam c 𝒱₀ arg3 (Memref.whole main_v0_0) i q ai wm hai x3 f 504 248 8 hl248 hj8 rfl hp505 hn505 w505 hw505 (k0_off1514 i) rfl (k0_off1514_inb i) k0_cond505 (fun _ => rfl) (k0_chk505 i) (k0_chk505.dec i) (k0_off1515 i) (fun _ => rfl) (fun _ _ h => h) (k0_off1515_inb i) ((View.wordExact_bits rfl).reshape _ _) (fun _ _ => (View.wordExact_bits rfl).reshape _ _) _ _ W504) $$ [HS HM HC HO]
  · isplitl [HS]; · iexact HS
    isplitl [HM]; · iexact HM
    isplitl [HC]; · iexact HC
    iexact HO
  iintro ⟨HS, HM, HC, S8, %W505, HO⟩
  iapply (loadMask_wp c 𝒱₀ i 249 hl249 q wm rfl) $$ HM
  iintro HM %w506 %hw506
  have hp506 : stateAt 505 ⟨249, hl249⟩ = St.started := show stateAt 505 ⟨249, (by decide : (249 : ℕ) < 256)⟩ = St.started from by decide
  have hn506 : ∀ l : Fin 256, stateAt 506 l = Function.update (stateAt 505) ⟨249, hl249⟩ St.done l := show ∀ l : Fin 256, stateAt 506 l = Function.update (stateAt 505) ⟨249, (by decide : (249 : ℕ) < 256)⟩ St.done l from by decide
  iapply (wait_fam c 𝒱₀ arg3 (Memref.whole main_v0_0) i q ai wm hai x3 f 505 249 9 hl249 hj9 rfl hp506 hn506 w506 hw506 (k0_off1517 i) rfl (k0_off1517_inb i) k0_cond506 (fun _ => rfl) (k0_chk506 i) (k0_chk506.dec i) (k0_off1518 i) (fun _ => rfl) (fun _ _ h => h) (k0_off1518_inb i) ((View.wordExact_bits rfl).reshape _ _) (fun _ _ => (View.wordExact_bits rfl).reshape _ _) _ _ W505) $$ [HS HM HC HO]
  · isplitl [HS]; · iexact HS
    isplitl [HM]; · iexact HM
    isplitl [HC]; · iexact HC
    iexact HO
  iintro ⟨HS, HM, HC, S9, %W506, HO⟩
  iapply (loadMask_wp c 𝒱₀ i 250 hl250 q wm rfl) $$ HM
  iintro HM %w507 %hw507
  have hp507 : stateAt 506 ⟨250, hl250⟩ = St.started := show stateAt 506 ⟨250, (by decide : (250 : ℕ) < 256)⟩ = St.started from by decide
  have hn507 : ∀ l : Fin 256, stateAt 507 l = Function.update (stateAt 506) ⟨250, hl250⟩ St.done l := show ∀ l : Fin 256, stateAt 507 l = Function.update (stateAt 506) ⟨250, (by decide : (250 : ℕ) < 256)⟩ St.done l from by decide
  iapply (wait_fam c 𝒱₀ arg3 (Memref.whole main_v0_0) i q ai wm hai x3 f 506 250 10 hl250 hj10 rfl hp507 hn507 w507 hw507 (k0_off1520 i) rfl (k0_off1520_inb i) k0_cond507 (fun _ => rfl) (k0_chk507 i) (k0_chk507.dec i) (k0_off1521 i) (fun _ => rfl) (fun _ _ h => h) (k0_off1521_inb i) ((View.wordExact_bits rfl).reshape _ _) (fun _ _ => (View.wordExact_bits rfl).reshape _ _) _ _ W506) $$ [HS HM HC HO]
  · isplitl [HS]; · iexact HS
    isplitl [HM]; · iexact HM
    isplitl [HC]; · iexact HC
    iexact HO
  iintro ⟨HS, HM, HC, S10, %W507, HO⟩
  iapply (loadMask_wp c 𝒱₀ i 251 hl251 q wm rfl) $$ HM
  iintro HM %w508 %hw508
  have hp508 : stateAt 507 ⟨251, hl251⟩ = St.started := show stateAt 507 ⟨251, (by decide : (251 : ℕ) < 256)⟩ = St.started from by decide
  have hn508 : ∀ l : Fin 256, stateAt 508 l = Function.update (stateAt 507) ⟨251, hl251⟩ St.done l := show ∀ l : Fin 256, stateAt 508 l = Function.update (stateAt 507) ⟨251, (by decide : (251 : ℕ) < 256)⟩ St.done l from by decide
  iapply (wait_fam c 𝒱₀ arg3 (Memref.whole main_v0_0) i q ai wm hai x3 f 507 251 11 hl251 hj11 rfl hp508 hn508 w508 hw508 (k0_off1523 i) rfl (k0_off1523_inb i) k0_cond508 (fun _ => rfl) (k0_chk508 i) (k0_chk508.dec i) (k0_off1524 i) (fun _ => rfl) (fun _ _ h => h) (k0_off1524_inb i) ((View.wordExact_bits rfl).reshape _ _) (fun _ _ => (View.wordExact_bits rfl).reshape _ _) _ _ W507) $$ [HS HM HC HO]
  · isplitl [HS]; · iexact HS
    isplitl [HM]; · iexact HM
    isplitl [HC]; · iexact HC
    iexact HO
  iintro ⟨HS, HM, HC, S11, %W508, HO⟩
  iapply (loadMask_wp c 𝒱₀ i 252 hl252 q wm rfl) $$ HM
  iintro HM %w509 %hw509
  have hp509 : stateAt 508 ⟨252, hl252⟩ = St.started := show stateAt 508 ⟨252, (by decide : (252 : ℕ) < 256)⟩ = St.started from by decide
  have hn509 : ∀ l : Fin 256, stateAt 509 l = Function.update (stateAt 508) ⟨252, hl252⟩ St.done l := show ∀ l : Fin 256, stateAt 509 l = Function.update (stateAt 508) ⟨252, (by decide : (252 : ℕ) < 256)⟩ St.done l from by decide
  iapply (wait_fam c 𝒱₀ arg3 (Memref.whole main_v0_0) i q ai wm hai x3 f 508 252 12 hl252 hj12 rfl hp509 hn509 w509 hw509 (k0_off1526 i) rfl (k0_off1526_inb i) k0_cond509 (fun _ => rfl) (k0_chk509 i) (k0_chk509.dec i) (k0_off1527 i) (fun _ => rfl) (fun _ _ h => h) (k0_off1527_inb i) ((View.wordExact_bits rfl).reshape _ _) (fun _ _ => (View.wordExact_bits rfl).reshape _ _) _ _ W508) $$ [HS HM HC HO]
  · isplitl [HS]; · iexact HS
    isplitl [HM]; · iexact HM
    isplitl [HC]; · iexact HC
    iexact HO
  iintro ⟨HS, HM, HC, S12, %W509, HO⟩
  iapply (loadMask_wp c 𝒱₀ i 253 hl253 q wm rfl) $$ HM
  iintro HM %w510 %hw510
  rw [wp_pure]
  imodintro
  isplitr; · ipureintro; exact hw510
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

end Cert.KernelIdeal.Cells

end
-- ==== Proof.PointIdeal.lean ====
/-
  One grid point of the body: its 85 parts in program order, each handing the next the steps done, the free
  semaphores and the mask word it loaded last; then the last three waits.
-/
import proofs.«427608_j71184787964323_3_alg».proof.Proof.Parts1Ideal
import proofs.«427608_j71184787964323_3_alg».proof.Proof.Parts2Ideal
import proofs.«427608_j71184787964323_3_alg».proof.Proof.Parts3Ideal
import proofs.«427608_j71184787964323_3_alg».proof.Proof.Parts4Ideal
import proofs.«427608_j71184787964323_3_alg».proof.Proof.Parts5Ideal
import proofs.«427608_j71184787964323_3_alg».proof.Proof.Parts6Ideal
import proofs.«427608_j71184787964323_3_alg».proof.Proof.Parts7Ideal
import proofs.«427608_j71184787964323_3_alg».proof.Proof.Parts8Ideal

set_option maxRecDepth 65536

noncomputable section

namespace Cert.KernelIdeal.Cells

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The bind rule as an entailment. -/
theorem wp_bind_i {α β : Type} (c : Dev nD) (𝒱₀ : Variants) (p : Prog (TpuEff nD τ sig (Elt F) Λ₀ .tc) α)
    (k : α → Prog (TpuEff nD τ sig (Elt F) Λ₀ .tc) β) (Q : β → sProp 𝕄) :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q := by
  rw [wp_bind]
set_option maxHeartbeats 0 in
/-- Part 86 is parts 1 to 60 in order. -/
theorem part86_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit) :
    iprop(((c : Thread nD τ).loc main_call0_v12 ↦{q} ai) ∗ ((c : Thread nD τ).loc main_call0_v13 ↦{q} wm) ∗ cells c arg3 (Memref.whole main_v0_0) i ai wm hai x3 f 0 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part86 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0)
          (fun r => iprop(⌜r.2.2.1 = wordOf wm i 183 (by decide)⌝ ∗ ((c : Thread nD τ).loc main_call0_v12 ↦{q} ai) ∗ ((c : Thread nD τ).loc main_call0_v13 ↦{q} wm) ∗ cells c arg3 (Memref.whole main_v0_0) i ai wm hai x3 f 359 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part86_eq_skeleton]; unfold k0_part86_skel
  iintro ⟨HS, HM, HC, S0, S1, S2, S3, S4, S5, S6, S7, S8, S9, S10, S11, S12, S13, S14, S15, HO⟩
  iapply wp_bind_i
  iapply (wp_wand_r frame _ Set.univ)
  isplitl [HS HM HC S0 S1 S2 S3 S4 S5 S6 S7 S8 S9 S10 S11 S12 S13 S14 S15 HO]
  · iapply (part1_run c 𝒱₀ i arg3 harg3 q ai wm hai x3 f W) $$ [HS HM HC S0 S1 S2 S3 S4 S5 S6 S7 S8 S9 S10 S11 S12 S13 S14 S15 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r1 ⟨%hr1, HS, HM, HC, S5, S6, S7, S8, S9, S10, S11, S12, S13, S14, S15, %Wp1, HO⟩
  obtain ⟨r1a, r1b, r1c, r1d⟩ := r1
  dsimp only at hr1 ⊢
  have hwcur := hr1
  clear hr1
  iapply wp_bind_i
  iapply (wp_wand_r frame _ Set.univ)
  isplitl [HS HM HC S5 S6 S7 S8 S9 S10 S11 S12 S13 S14 S15 HO]
  · iapply (part2_run c 𝒱₀ i arg3 harg3 q ai wm hai x3 f Wp1 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r2 ⟨%hr2, HS, HM, HC, S11, S12, S13, S14, S15, %Wp2, HO⟩
  obtain ⟨r2a, r2b, r2c⟩ := r2
  dsimp only at hr2 ⊢
  have hwcur := hr2
  clear hr2
  iapply wp_bind_i
  iapply (wp_wand_r frame _ Set.univ)
  isplitl [HS HM HC S11 S12 S13 S14 S15 HO]
  · iapply (part3_run c 𝒱₀ i arg3 harg3 q ai wm hai x3 f Wp2 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r3 ⟨%hr3, HS, HM, HC, S0, %Wp3, HO⟩
  obtain ⟨r3a, r3b, r3c⟩ := r3
  dsimp only at hr3 ⊢
  have hwcur := hr3
  clear hr3
  iapply wp_bind_i
  iapply (wp_wand_r frame _ Set.univ)
  isplitl [HS HM HC S0 HO]
  · iapply (part4_run c 𝒱₀ i arg3 harg3 q ai wm hai x3 f Wp3 _ _ _ hwcur _) $$ [HS HM HC S0 HO]
    isplitl [HS]; · iexact HS
    isplitl [HM]; · iexact HM
    isplitl [HC]; · iexact HC
    isplitl [S0]; · iexact S0
    iexact HO
  iintro %r4 ⟨%hr4, HS, HM, HC, S0, S1, S2, S3, S4, S5, S6, %Wp4, HO⟩
  obtain ⟨r4a, r4b, r4c⟩ := r4
  dsimp only at hr4 ⊢
  have hwcur := hr4
  clear hr4
  iapply wp_bind_i
  iapply (wp_wand_r frame _ Set.univ)
  isplitl [HS HM HC S0 S1 S2 S3 S4 S5 S6 HO]
  · iapply (part5_run c 𝒱₀ i arg3 harg3 q ai wm hai x3 f Wp4 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r5 ⟨%hr5, HS, HM, HC, S0, S1, S2, S3, S4, S5, S6, S7, S8, S9, S10, S11, S12, %Wp5, HO⟩
  obtain ⟨r5a, r5b, r5c⟩ := r5
  dsimp only at hr5 ⊢
  have hwcur := hr5
  clear hr5
  iapply wp_bind_i
  iapply (wp_wand_r frame _ Set.univ)
  isplitl [HS HM HC S0 S1 S2 S3 S4 S5 S6 S7 S8 S9 S10 S11 S12 HO]
  · iapply (part6_run c 𝒱₀ i arg3 harg3 q ai wm hai x3 f Wp5 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r6 ⟨%hr6, HS, HM, HC, S3, S4, S5, S6, S7, S8, S9, S10, S11, S12, S13, S14, S15, %Wp6, HO⟩
  obtain ⟨r6a, r6b, r6c⟩ := r6
  dsimp only at hr6 ⊢
  have hwcur := hr6
  clear hr6
  iapply wp_bind_i
  iapply (wp_wand_r frame _ Set.univ)
  isplitl [HS HM HC S3 S4 S5 S6 S7 S8 S9 S10 S11 S12 S13 S14 S15 HO]
  · iapply (part7_run c 𝒱₀ i arg3 harg3 q ai wm hai x3 f Wp6 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r7 ⟨%hr7, HS, HM, HC, S9, S10, S11, S12, S13, S14, S15, %Wp7, HO⟩
  obtain ⟨r7a, r7b, r7c⟩ := r7
  dsimp only at hr7 ⊢
  have hwcur := hr7
  clear hr7
  iapply wp_bind_i
  iapply (wp_wand_r frame _ Set.univ)
  isplitl [HS HM HC S9 S10 S11 S12 S13 S14 S15 HO]
  · iapply (part8_run c 𝒱₀ i arg3 harg3 q ai wm hai x3 f Wp7 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r8 ⟨%hr8, HS, HM, HC, S15, %Wp8, HO⟩
  obtain ⟨r8a, r8b, r8c⟩ := r8
  dsimp only at hr8 ⊢
  have hwcur := hr8
  clear hr8
  iapply wp_bind_i
  iapply (wp_wand_r frame _ Set.univ)
  isplitl [HS HM HC S15 HO]
  · iapply (part9_run c 𝒱₀ i arg3 harg3 q ai wm hai x3 f Wp8 _ _ _ hwcur _) $$ [HS HM HC S15 HO]
    isplitl [HS]; · iexact HS
    isplitl [HM]; · iexact HM
    isplitl [HC]; · iexact HC
    isplitl [S15]; · iexact S15
    iexact HO
  iintro %r9 ⟨%hr9, HS, HM, HC, S0, S1, S2, S3, S4, %Wp9, HO⟩
  obtain ⟨r9a, r9b, r9c⟩ := r9
  dsimp only at hr9 ⊢
  have hwcur := hr9
  clear hr9
  iapply wp_bind_i
  iapply (wp_wand_r frame _ Set.univ)
  isplitl [HS HM HC S0 S1 S2 S3 S4 HO]
  · iapply (part10_run c 𝒱₀ i arg3 harg3 q ai wm hai x3 f Wp9 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r10 ⟨%hr10, HS, HM, HC, S0, S1, S2, S3, S4, S5, S6, S7, S8, S9, S10, %Wp10, HO⟩
  obtain ⟨r10a, r10b, r10c⟩ := r10
  dsimp only at hr10 ⊢
  have hwcur := hr10
  clear hr10
  iapply wp_bind_i
  iapply (wp_wand_r frame _ Set.univ)
  isplitl [HS HM HC S0 S1 S2 S3 S4 S5 S6 S7 S8 S9 S10 HO]
  · iapply (part11_run c 𝒱₀ i arg3 harg3 q ai wm hai x3 f Wp10 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r11 ⟨%hr11, HS, HM, HC, S1, S2, S3, S4, S5, S6, S7, S8, S9, S10, S11, S12, S13, S14, S15, %Wp11, HO⟩
  obtain ⟨r11a, r11b, r11c⟩ := r11
  dsimp only at hr11 ⊢
  have hwcur := hr11
  clear hr11
  iapply wp_bind_i
  iapply (wp_wand_r frame _ Set.univ)
  isplitl [HS HM HC S1 S2 S3 S4 S5 S6 S7 S8 S9 S10 S11 S12 S13 S14 S15 HO]
  · iapply (part12_run c 𝒱₀ i arg3 harg3 q ai wm hai x3 f Wp11 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r12 ⟨%hr12, HS, HM, HC, S7, S8, S9, S10, S11, S12, S13, S14, S15, %Wp12, HO⟩
  obtain ⟨r12a, r12b, r12c⟩ := r12
  dsimp only at hr12 ⊢
  have hwcur := hr12
  clear hr12
  iapply wp_bind_i
  iapply (wp_wand_r frame _ Set.univ)
  isplitl [HS HM HC S7 S8 S9 S10 S11 S12 S13 S14 S15 HO]
  · iapply (part13_run c 𝒱₀ i arg3 harg3 q ai wm hai x3 f Wp12 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r13 ⟨%hr13, HS, HM, HC, S13, S14, S15, %Wp13, HO⟩
  obtain ⟨r13a, r13b, r13c⟩ := r13
  dsimp only at hr13 ⊢
  have hwcur := hr13
  clear hr13
  iapply wp_bind_i
  iapply (wp_wand_r frame _ Set.univ)
  isplitl [HS HM HC S13 S14 S15 HO]
  · iapply (part14_run c 𝒱₀ i arg3 harg3 q ai wm hai x3 f Wp13 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r14 ⟨%hr14, HS, HM, HC, S0, S1, S2, %Wp14, HO⟩
  obtain ⟨r14a, r14b, r14c⟩ := r14
  dsimp only at hr14 ⊢
  have hwcur := hr14
  clear hr14
  iapply wp_bind_i
  iapply (wp_wand_r frame _ Set.univ)
  isplitl [HS HM HC S0 S1 S2 HO]
  · iapply (part15_run c 𝒱₀ i arg3 harg3 q ai wm hai x3 f Wp14 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r15 ⟨%hr15, HS, HM, HC, S0, S1, S2, S3, S4, S5, S6, S7, S8, %Wp15, HO⟩
  obtain ⟨r15a, r15b, r15c⟩ := r15
  dsimp only at hr15 ⊢
  have hwcur := hr15
  clear hr15
  iapply wp_bind_i
  iapply (wp_wand_r frame _ Set.univ)
  isplitl [HS HM HC S0 S1 S2 S3 S4 S5 S6 S7 S8 HO]
  · iapply (part16_run c 𝒱₀ i arg3 harg3 q ai wm hai x3 f Wp15 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r16 ⟨%hr16, HS, HM, HC, S0, S1, S2, S3, S4, S5, S6, S7, S8, S9, S10, S11, S12, S13, S14, %Wp16, HO⟩
  obtain ⟨r16a, r16b, r16c⟩ := r16
  dsimp only at hr16 ⊢
  have hwcur := hr16
  clear hr16
  iapply wp_bind_i
  iapply (wp_wand_r frame _ Set.univ)
  isplitl [HS HM HC S0 S1 S2 S3 S4 S5 S6 S7 S8 S9 S10 S11 S12 S13 S14 HO]
  · iapply (part17_run c 𝒱₀ i arg3 harg3 q ai wm hai x3 f Wp16 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r17 ⟨%hr17, HS, HM, HC, S5, S6, S7, S8, S9, S10, S11, S12, S13, S14, S15, %Wp17, HO⟩
  obtain ⟨r17a, r17b, r17c⟩ := r17
  dsimp only at hr17 ⊢
  have hwcur := hr17
  clear hr17
  iapply wp_bind_i
  iapply (wp_wand_r frame _ Set.univ)
  isplitl [HS HM HC S5 S6 S7 S8 S9 S10 S11 S12 S13 S14 S15 HO]
  · iapply (part18_run c 𝒱₀ i arg3 harg3 q ai wm hai x3 f Wp17 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r18 ⟨%hr18, HS, HM, HC, S11, S12, S13, S14, S15, %Wp18, HO⟩
  obtain ⟨r18a, r18b, r18c⟩ := r18
  dsimp only at hr18 ⊢
  have hwcur := hr18
  clear hr18
  iapply wp_bind_i
  iapply (wp_wand_r frame _ Set.univ)
  isplitl [HS HM HC S11 S12 S13 S14 S15 HO]
  · iapply (part19_run c 𝒱₀ i arg3 harg3 q ai wm hai x3 f Wp18 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r19 ⟨%hr19, HS, HM, HC, S0, %Wp19, HO⟩
  obtain ⟨r19a, r19b, r19c⟩ := r19
  dsimp only at hr19 ⊢
  have hwcur := hr19
  clear hr19
  iapply wp_bind_i
  iapply (wp_wand_r frame _ Set.univ)
  isplitl [HS HM HC S0 HO]
  · iapply (part20_run c 𝒱₀ i arg3 harg3 q ai wm hai x3 f Wp19 _ _ _ hwcur _) $$ [HS HM HC S0 HO]
    isplitl [HS]; · iexact HS
    isplitl [HM]; · iexact HM
    isplitl [HC]; · iexact HC
    isplitl [S0]; · iexact S0
    iexact HO
  iintro %r20 ⟨%hr20, HS, HM, HC, S0, S1, S2, S3, S4, S5, S6, %Wp20, HO⟩
  obtain ⟨r20a, r20b, r20c⟩ := r20
  dsimp only at hr20 ⊢
  have hwcur := hr20
  clear hr20
  iapply wp_bind_i
  iapply (wp_wand_r frame _ Set.univ)
  isplitl [HS HM HC S0 S1 S2 S3 S4 S5 S6 HO]
  · iapply (part21_run c 𝒱₀ i arg3 harg3 q ai wm hai x3 f Wp20 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r21 ⟨%hr21, HS, HM, HC, S0, S1, S2, S3, S4, S5, S6, S7, S8, S9, S10, S11, S12, %Wp21, HO⟩
  obtain ⟨r21a, r21b, r21c⟩ := r21
  dsimp only at hr21 ⊢
  have hwcur := hr21
  clear hr21
  iapply wp_bind_i
  iapply (wp_wand_r frame _ Set.univ)
  isplitl [HS HM HC S0 S1 S2 S3 S4 S5 S6 S7 S8 S9 S10 S11 S12 HO]
  · iapply (part22_run c 𝒱₀ i arg3 harg3 q ai wm hai x3 f Wp21 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r22 ⟨%hr22, HS, HM, HC, S3, S4, S5, S6, S7, S8, S9, S10, S11, S12, S13, S14, S15, %Wp22, HO⟩
  obtain ⟨r22a, r22b, r22c⟩ := r22
  dsimp only at hr22 ⊢
  have hwcur := hr22
  clear hr22
  iapply wp_bind_i
  iapply (wp_wand_r frame _ Set.univ)
  isplitl [HS HM HC S3 S4 S5 S6 S7 S8 S9 S10 S11 S12 S13 S14 S15 HO]
  · iapply (part23_run c 𝒱₀ i arg3 harg3 q ai wm hai x3 f Wp22 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r23 ⟨%hr23, HS, HM, HC, S9, S10, S11, S12, S13, S14, S15, %Wp23, HO⟩
  obtain ⟨r23a, r23b, r23c⟩ := r23
  dsimp only at hr23 ⊢
  have hwcur := hr23
  clear hr23
  iapply wp_bind_i
  iapply (wp_wand_r frame _ Set.univ)
  isplitl [HS HM HC S9 S10 S11 S12 S13 S14 S15 HO]
  · iapply (part24_run c 𝒱₀ i arg3 harg3 q ai wm hai x3 f Wp23 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r24 ⟨%hr24, HS, HM, HC, S15, %Wp24, HO⟩
  obtain ⟨r24a, r24b, r24c⟩ := r24
  dsimp only at hr24 ⊢
  have hwcur := hr24
  clear hr24
  iapply wp_bind_i
  iapply (wp_wand_r frame _ Set.univ)
  isplitl [HS HM HC S15 HO]
  · iapply (part25_run c 𝒱₀ i arg3 harg3 q ai wm hai x3 f Wp24 _ _ _ hwcur _) $$ [HS HM HC S15 HO]
    isplitl [HS]; · iexact HS
    isplitl [HM]; · iexact HM
    isplitl [HC]; · iexact HC
    isplitl [S15]; · iexact S15
    iexact HO
  iintro %r25 ⟨%hr25, HS, HM, HC, S0, S1, S2, S3, S4, %Wp25, HO⟩
  obtain ⟨r25a, r25b, r25c⟩ := r25
  dsimp only at hr25 ⊢
  have hwcur := hr25
  clear hr25
  iapply wp_bind_i
  iapply (wp_wand_r frame _ Set.univ)
  isplitl [HS HM HC S0 S1 S2 S3 S4 HO]
  · iapply (part26_run c 𝒱₀ i arg3 harg3 q ai wm hai x3 f Wp25 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r26 ⟨%hr26, HS, HM, HC, S0, S1, S2, S3, S4, S5, S6, S7, S8, S9, S10, %Wp26, HO⟩
  obtain ⟨r26a, r26b, r26c⟩ := r26
  dsimp only at hr26 ⊢
  have hwcur := hr26
  clear hr26
  iapply wp_bind_i
  iapply (wp_wand_r frame _ Set.univ)
  isplitl [HS HM HC S0 S1 S2 S3 S4 S5 S6 S7 S8 S9 S10 HO]
  · iapply (part27_run c 𝒱₀ i arg3 harg3 q ai wm hai x3 f Wp26 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r27 ⟨%hr27, HS, HM, HC, S1, S2, S3, S4, S5, S6, S7, S8, S9, S10, S11, S12, S13, S14, S15, %Wp27, HO⟩
  obtain ⟨r27a, r27b, r27c⟩ := r27
  dsimp only at hr27 ⊢
  have hwcur := hr27
  clear hr27
  iapply wp_bind_i
  iapply (wp_wand_r frame _ Set.univ)
  isplitl [HS HM HC S1 S2 S3 S4 S5 S6 S7 S8 S9 S10 S11 S12 S13 S14 S15 HO]
  · iapply (part28_run c 𝒱₀ i arg3 harg3 q ai wm hai x3 f Wp27 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r28 ⟨%hr28, HS, HM, HC, S7, S8, S9, S10, S11, S12, S13, S14, S15, %Wp28, HO⟩
  obtain ⟨r28a, r28b, r28c⟩ := r28
  dsimp only at hr28 ⊢
  have hwcur := hr28
  clear hr28
  iapply wp_bind_i
  iapply (wp_wand_r frame _ Set.univ)
  isplitl [HS HM HC S7 S8 S9 S10 S11 S12 S13 S14 S15 HO]
  · iapply (part29_run c 𝒱₀ i arg3 harg3 q ai wm hai x3 f Wp28 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r29 ⟨%hr29, HS, HM, HC, S13, S14, S15, %Wp29, HO⟩
  obtain ⟨r29a, r29b, r29c⟩ := r29
  dsimp only at hr29 ⊢
  have hwcur := hr29
  clear hr29
  iapply wp_bind_i
  iapply (wp_wand_r frame _ Set.univ)
  isplitl [HS HM HC S13 S14 S15 HO]
  · iapply (part30_run c 𝒱₀ i arg3 harg3 q ai wm hai x3 f Wp29 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r30 ⟨%hr30, HS, HM, HC, S0, S1, S2, %Wp30, HO⟩
  obtain ⟨r30a, r30b, r30c⟩ := r30
  dsimp only at hr30 ⊢
  have hwcur := hr30
  clear hr30
  iapply wp_bind_i
  iapply (wp_wand_r frame _ Set.univ)
  isplitl [HS HM HC S0 S1 S2 HO]
  · iapply (part31_run c 𝒱₀ i arg3 harg3 q ai wm hai x3 f Wp30 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r31 ⟨%hr31, HS, HM, HC, S0, S1, S2, S3, S4, S5, S6, S7, S8, %Wp31, HO⟩
  obtain ⟨r31a, r31b, r31c⟩ := r31
  dsimp only at hr31 ⊢
  have hwcur := hr31
  clear hr31
  iapply wp_bind_i
  iapply (wp_wand_r frame _ Set.univ)
  isplitl [HS HM HC S0 S1 S2 S3 S4 S5 S6 S7 S8 HO]
  · iapply (part32_run c 𝒱₀ i arg3 harg3 q ai wm hai x3 f Wp31 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r32 ⟨%hr32, HS, HM, HC, S0, S1, S2, S3, S4, S5, S6, S7, S8, S9, S10, S11, S12, S13, S14, %Wp32, HO⟩
  obtain ⟨r32a, r32b, r32c⟩ := r32
  dsimp only at hr32 ⊢
  have hwcur := hr32
  clear hr32
  iapply wp_bind_i
  iapply (wp_wand_r frame _ Set.univ)
  isplitl [HS HM HC S0 S1 S2 S3 S4 S5 S6 S7 S8 S9 S10 S11 S12 S13 S14 HO]
  · iapply (part33_run c 𝒱₀ i arg3 harg3 q ai wm hai x3 f Wp32 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r33 ⟨%hr33, HS, HM, HC, S5, S6, S7, S8, S9, S10, S11, S12, S13, S14, S15, %Wp33, HO⟩
  obtain ⟨r33a, r33b, r33c⟩ := r33
  dsimp only at hr33 ⊢
  have hwcur := hr33
  clear hr33
  iapply wp_bind_i
  iapply (wp_wand_r frame _ Set.univ)
  isplitl [HS HM HC S5 S6 S7 S8 S9 S10 S11 S12 S13 S14 S15 HO]
  · iapply (part34_run c 𝒱₀ i arg3 harg3 q ai wm hai x3 f Wp33 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r34 ⟨%hr34, HS, HM, HC, S11, S12, S13, S14, S15, %Wp34, HO⟩
  obtain ⟨r34a, r34b, r34c⟩ := r34
  dsimp only at hr34 ⊢
  have hwcur := hr34
  clear hr34
  iapply wp_bind_i
  iapply (wp_wand_r frame _ Set.univ)
  isplitl [HS HM HC S11 S12 S13 S14 S15 HO]
  · iapply (part35_run c 𝒱₀ i arg3 harg3 q ai wm hai x3 f Wp34 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r35 ⟨%hr35, HS, HM, HC, S0, %Wp35, HO⟩
  obtain ⟨r35a, r35b, r35c⟩ := r35
  dsimp only at hr35 ⊢
  have hwcur := hr35
  clear hr35
  iapply wp_bind_i
  iapply (wp_wand_r frame _ Set.univ)
  isplitl [HS HM HC S0 HO]
  · iapply (part36_run c 𝒱₀ i arg3 harg3 q ai wm hai x3 f Wp35 _ _ _ hwcur _) $$ [HS HM HC S0 HO]
    isplitl [HS]; · iexact HS
    isplitl [HM]; · iexact HM
    isplitl [HC]; · iexact HC
    isplitl [S0]; · iexact S0
    iexact HO
  iintro %r36 ⟨%hr36, HS, HM, HC, S0, S1, S2, S3, S4, S5, S6, %Wp36, HO⟩
  obtain ⟨r36a, r36b, r36c⟩ := r36
  dsimp only at hr36 ⊢
  have hwcur := hr36
  clear hr36
  iapply wp_bind_i
  iapply (wp_wand_r frame _ Set.univ)
  isplitl [HS HM HC S0 S1 S2 S3 S4 S5 S6 HO]
  · iapply (part37_run c 𝒱₀ i arg3 harg3 q ai wm hai x3 f Wp36 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r37 ⟨%hr37, HS, HM, HC, S0, S1, S2, S3, S4, S5, S6, S7, S8, S9, S10, S11, S12, %Wp37, HO⟩
  obtain ⟨r37a, r37b, r37c⟩ := r37
  dsimp only at hr37 ⊢
  have hwcur := hr37
  clear hr37
  iapply wp_bind_i
  iapply (wp_wand_r frame _ Set.univ)
  isplitl [HS HM HC S0 S1 S2 S3 S4 S5 S6 S7 S8 S9 S10 S11 S12 HO]
  · iapply (part38_run c 𝒱₀ i arg3 harg3 q ai wm hai x3 f Wp37 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r38 ⟨%hr38, HS, HM, HC, S3, S4, S5, S6, S7, S8, S9, S10, S11, S12, S13, S14, S15, %Wp38, HO⟩
  obtain ⟨r38a, r38b, r38c⟩ := r38
  dsimp only at hr38 ⊢
  have hwcur := hr38
  clear hr38
  iapply wp_bind_i
  iapply (wp_wand_r frame _ Set.univ)
  isplitl [HS HM HC S3 S4 S5 S6 S7 S8 S9 S10 S11 S12 S13 S14 S15 HO]
  · iapply (part39_run c 𝒱₀ i arg3 harg3 q ai wm hai x3 f Wp38 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r39 ⟨%hr39, HS, HM, HC, S9, S10, S11, S12, S13, S14, S15, %Wp39, HO⟩
  obtain ⟨r39a, r39b, r39c⟩ := r39
  dsimp only at hr39 ⊢
  have hwcur := hr39
  clear hr39
  iapply wp_bind_i
  iapply (wp_wand_r frame _ Set.univ)
  isplitl [HS HM HC S9 S10 S11 S12 S13 S14 S15 HO]
  · iapply (part40_run c 𝒱₀ i arg3 harg3 q ai wm hai x3 f Wp39 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r40 ⟨%hr40, HS, HM, HC, S15, %Wp40, HO⟩
  obtain ⟨r40a, r40b, r40c⟩ := r40
  dsimp only at hr40 ⊢
  have hwcur := hr40
  clear hr40
  iapply wp_bind_i
  iapply (wp_wand_r frame _ Set.univ)
  isplitl [HS HM HC S15 HO]
  · iapply (part41_run c 𝒱₀ i arg3 harg3 q ai wm hai x3 f Wp40 _ _ _ hwcur _) $$ [HS HM HC S15 HO]
    isplitl [HS]; · iexact HS
    isplitl [HM]; · iexact HM
    isplitl [HC]; · iexact HC
    isplitl [S15]; · iexact S15
    iexact HO
  iintro %r41 ⟨%hr41, HS, HM, HC, S0, S1, S2, S3, S4, %Wp41, HO⟩
  obtain ⟨r41a, r41b, r41c⟩ := r41
  dsimp only at hr41 ⊢
  have hwcur := hr41
  clear hr41
  iapply wp_bind_i
  iapply (wp_wand_r frame _ Set.univ)
  isplitl [HS HM HC S0 S1 S2 S3 S4 HO]
  · iapply (part42_run c 𝒱₀ i arg3 harg3 q ai wm hai x3 f Wp41 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r42 ⟨%hr42, HS, HM, HC, S0, S1, S2, S3, S4, S5, S6, S7, S8, S9, S10, %Wp42, HO⟩
  obtain ⟨r42a, r42b, r42c⟩ := r42
  dsimp only at hr42 ⊢
  have hwcur := hr42
  clear hr42
  iapply wp_bind_i
  iapply (wp_wand_r frame _ Set.univ)
  isplitl [HS HM HC S0 S1 S2 S3 S4 S5 S6 S7 S8 S9 S10 HO]
  · iapply (part43_run c 𝒱₀ i arg3 harg3 q ai wm hai x3 f Wp42 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r43 ⟨%hr43, HS, HM, HC, S1, S2, S3, S4, S5, S6, S7, S8, S9, S10, S11, S12, S13, S14, S15, %Wp43, HO⟩
  obtain ⟨r43a, r43b, r43c⟩ := r43
  dsimp only at hr43 ⊢
  have hwcur := hr43
  clear hr43
  iapply wp_bind_i
  iapply (wp_wand_r frame _ Set.univ)
  isplitl [HS HM HC S1 S2 S3 S4 S5 S6 S7 S8 S9 S10 S11 S12 S13 S14 S15 HO]
  · iapply (part44_run c 𝒱₀ i arg3 harg3 q ai wm hai x3 f Wp43 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r44 ⟨%hr44, HS, HM, HC, S7, S8, S9, S10, S11, S12, S13, S14, S15, %Wp44, HO⟩
  obtain ⟨r44a, r44b, r44c⟩ := r44
  dsimp only at hr44 ⊢
  have hwcur := hr44
  clear hr44
  iapply wp_bind_i
  iapply (wp_wand_r frame _ Set.univ)
  isplitl [HS HM HC S7 S8 S9 S10 S11 S12 S13 S14 S15 HO]
  · iapply (part45_run c 𝒱₀ i arg3 harg3 q ai wm hai x3 f Wp44 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r45 ⟨%hr45, HS, HM, HC, S13, S14, S15, %Wp45, HO⟩
  obtain ⟨r45a, r45b, r45c⟩ := r45
  dsimp only at hr45 ⊢
  have hwcur := hr45
  clear hr45
  iapply wp_bind_i
  iapply (wp_wand_r frame _ Set.univ)
  isplitl [HS HM HC S13 S14 S15 HO]
  · iapply (part46_run c 𝒱₀ i arg3 harg3 q ai wm hai x3 f Wp45 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r46 ⟨%hr46, HS, HM, HC, S0, S1, S2, %Wp46, HO⟩
  obtain ⟨r46a, r46b, r46c⟩ := r46
  dsimp only at hr46 ⊢
  have hwcur := hr46
  clear hr46
  iapply wp_bind_i
  iapply (wp_wand_r frame _ Set.univ)
  isplitl [HS HM HC S0 S1 S2 HO]
  · iapply (part47_run c 𝒱₀ i arg3 harg3 q ai wm hai x3 f Wp46 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r47 ⟨%hr47, HS, HM, HC, S0, S1, S2, S3, S4, S5, S6, S7, S8, %Wp47, HO⟩
  obtain ⟨r47a, r47b, r47c⟩ := r47
  dsimp only at hr47 ⊢
  have hwcur := hr47
  clear hr47
  iapply wp_bind_i
  iapply (wp_wand_r frame _ Set.univ)
  isplitl [HS HM HC S0 S1 S2 S3 S4 S5 S6 S7 S8 HO]
  · iapply (part48_run c 𝒱₀ i arg3 harg3 q ai wm hai x3 f Wp47 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r48 ⟨%hr48, HS, HM, HC, S0, S1, S2, S3, S4, S5, S6, S7, S8, S9, S10, S11, S12, S13, S14, %Wp48, HO⟩
  obtain ⟨r48a, r48b, r48c⟩ := r48
  dsimp only at hr48 ⊢
  have hwcur := hr48
  clear hr48
  iapply wp_bind_i
  iapply (wp_wand_r frame _ Set.univ)
  isplitl [HS HM HC S0 S1 S2 S3 S4 S5 S6 S7 S8 S9 S10 S11 S12 S13 S14 HO]
  · iapply (part49_run c 𝒱₀ i arg3 harg3 q ai wm hai x3 f Wp48 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r49 ⟨%hr49, HS, HM, HC, S5, S6, S7, S8, S9, S10, S11, S12, S13, S14, S15, %Wp49, HO⟩
  obtain ⟨r49a, r49b, r49c⟩ := r49
  dsimp only at hr49 ⊢
  have hwcur := hr49
  clear hr49
  iapply wp_bind_i
  iapply (wp_wand_r frame _ Set.univ)
  isplitl [HS HM HC S5 S6 S7 S8 S9 S10 S11 S12 S13 S14 S15 HO]
  · iapply (part50_run c 𝒱₀ i arg3 harg3 q ai wm hai x3 f Wp49 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r50 ⟨%hr50, HS, HM, HC, S11, S12, S13, S14, S15, %Wp50, HO⟩
  obtain ⟨r50a, r50b, r50c⟩ := r50
  dsimp only at hr50 ⊢
  have hwcur := hr50
  clear hr50
  iapply wp_bind_i
  iapply (wp_wand_r frame _ Set.univ)
  isplitl [HS HM HC S11 S12 S13 S14 S15 HO]
  · iapply (part51_run c 𝒱₀ i arg3 harg3 q ai wm hai x3 f Wp50 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r51 ⟨%hr51, HS, HM, HC, S0, %Wp51, HO⟩
  obtain ⟨r51a, r51b, r51c⟩ := r51
  dsimp only at hr51 ⊢
  have hwcur := hr51
  clear hr51
  iapply wp_bind_i
  iapply (wp_wand_r frame _ Set.univ)
  isplitl [HS HM HC S0 HO]
  · iapply (part52_run c 𝒱₀ i arg3 harg3 q ai wm hai x3 f Wp51 _ _ _ hwcur _) $$ [HS HM HC S0 HO]
    isplitl [HS]; · iexact HS
    isplitl [HM]; · iexact HM
    isplitl [HC]; · iexact HC
    isplitl [S0]; · iexact S0
    iexact HO
  iintro %r52 ⟨%hr52, HS, HM, HC, S0, S1, S2, S3, S4, S5, S6, %Wp52, HO⟩
  obtain ⟨r52a, r52b, r52c⟩ := r52
  dsimp only at hr52 ⊢
  have hwcur := hr52
  clear hr52
  iapply wp_bind_i
  iapply (wp_wand_r frame _ Set.univ)
  isplitl [HS HM HC S0 S1 S2 S3 S4 S5 S6 HO]
  · iapply (part53_run c 𝒱₀ i arg3 harg3 q ai wm hai x3 f Wp52 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r53 ⟨%hr53, HS, HM, HC, S0, S1, S2, S3, S4, S5, S6, S7, S8, S9, S10, S11, S12, %Wp53, HO⟩
  obtain ⟨r53a, r53b, r53c⟩ := r53
  dsimp only at hr53 ⊢
  have hwcur := hr53
  clear hr53
  iapply wp_bind_i
  iapply (wp_wand_r frame _ Set.univ)
  isplitl [HS HM HC S0 S1 S2 S3 S4 S5 S6 S7 S8 S9 S10 S11 S12 HO]
  · iapply (part54_run c 𝒱₀ i arg3 harg3 q ai wm hai x3 f Wp53 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r54 ⟨%hr54, HS, HM, HC, S3, S4, S5, S6, S7, S8, S9, S10, S11, S12, S13, S14, S15, %Wp54, HO⟩
  obtain ⟨r54a, r54b, r54c⟩ := r54
  dsimp only at hr54 ⊢
  have hwcur := hr54
  clear hr54
  iapply wp_bind_i
  iapply (wp_wand_r frame _ Set.univ)
  isplitl [HS HM HC S3 S4 S5 S6 S7 S8 S9 S10 S11 S12 S13 S14 S15 HO]
  · iapply (part55_run c 𝒱₀ i arg3 harg3 q ai wm hai x3 f Wp54 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r55 ⟨%hr55, HS, HM, HC, S9, S10, S11, S12, S13, S14, S15, %Wp55, HO⟩
  obtain ⟨r55a, r55b, r55c⟩ := r55
  dsimp only at hr55 ⊢
  have hwcur := hr55
  clear hr55
  iapply wp_bind_i
  iapply (wp_wand_r frame _ Set.univ)
  isplitl [HS HM HC S9 S10 S11 S12 S13 S14 S15 HO]
  · iapply (part56_run c 𝒱₀ i arg3 harg3 q ai wm hai x3 f Wp55 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r56 ⟨%hr56, HS, HM, HC, S15, %Wp56, HO⟩
  obtain ⟨r56a, r56b, r56c⟩ := r56
  dsimp only at hr56 ⊢
  have hwcur := hr56
  clear hr56
  iapply wp_bind_i
  iapply (wp_wand_r frame _ Set.univ)
  isplitl [HS HM HC S15 HO]
  · iapply (part57_run c 𝒱₀ i arg3 harg3 q ai wm hai x3 f Wp56 _ _ _ hwcur _) $$ [HS HM HC S15 HO]
    isplitl [HS]; · iexact HS
    isplitl [HM]; · iexact HM
    isplitl [HC]; · iexact HC
    isplitl [S15]; · iexact S15
    iexact HO
  iintro %r57 ⟨%hr57, HS, HM, HC, S0, S1, S2, S3, S4, %Wp57, HO⟩
  obtain ⟨r57a, r57b, r57c⟩ := r57
  dsimp only at hr57 ⊢
  have hwcur := hr57
  clear hr57
  iapply wp_bind_i
  iapply (wp_wand_r frame _ Set.univ)
  isplitl [HS HM HC S0 S1 S2 S3 S4 HO]
  · iapply (part58_run c 𝒱₀ i arg3 harg3 q ai wm hai x3 f Wp57 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r58 ⟨%hr58, HS, HM, HC, S0, S1, S2, S3, S4, S5, S6, S7, S8, S9, S10, %Wp58, HO⟩
  obtain ⟨r58a, r58b, r58c⟩ := r58
  dsimp only at hr58 ⊢
  have hwcur := hr58
  clear hr58
  iapply wp_bind_i
  iapply (wp_wand_r frame _ Set.univ)
  isplitl [HS HM HC S0 S1 S2 S3 S4 S5 S6 S7 S8 S9 S10 HO]
  · iapply (part59_run c 𝒱₀ i arg3 harg3 q ai wm hai x3 f Wp58 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r59 ⟨%hr59, HS, HM, HC, S1, S2, S3, S4, S5, S6, S7, S8, S9, S10, S11, S12, S13, S14, S15, %Wp59, HO⟩
  obtain ⟨r59a, r59b, r59c⟩ := r59
  dsimp only at hr59 ⊢
  have hwcur := hr59
  clear hr59
  iapply wp_bind_i
  iapply (wp_wand_r frame _ Set.univ)
  isplitl [HS HM HC S1 S2 S3 S4 S5 S6 S7 S8 S9 S10 S11 S12 S13 S14 S15 HO]
  · iapply (part60_run c 𝒱₀ i arg3 harg3 q ai wm hai x3 f Wp59 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r60 ⟨%hr60, HS, HM, HC, S7, S8, S9, S10, S11, S12, S13, S14, S15, %Wp60, HO⟩
  obtain ⟨r60a, r60b, r60c⟩ := r60
  dsimp only at hr60 ⊢
  have hwcur := hr60
  clear hr60
  rw [wp_pure]
  imodintro
  isplitr; · ipureintro; exact hwcur
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- The body at grid point i: from all 256 cells pending to all done, the tables, the sixteen semaphores and the core's debts as they were. -/
theorem point_cells (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit) :
    iprop(((c : Thread nD τ).loc main_call0_v12 ↦{q} ai) ∗ ((c : Thread nD τ).loc main_call0_v13 ↦{q} wm)
        ∗ cells c arg3 (Memref.whole main_v0_0) i ai wm hai x3 f 0
        ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide))
        ∗ owes (c : Thread nD τ) 0 W)
      ⊢ wp frame (wpE (defs₀ (F := F)) 𝒱₀ (c : Thread nD τ) none) Set.univ
          (cc0__scatter_kernel i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0)
          (fun _ => iprop(((c : Thread nD τ).loc main_call0_v12 ↦{q} ai) ∗ ((c : Thread nD τ).loc main_call0_v13 ↦{q} wm)
            ∗ cells c arg3 (Memref.whole main_v0_0) i ai wm hai x3 f 512
            ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide))
            ∗ ∃ W', owes (c : Thread nD τ) 0 W')) := by
  rw [cc0__scatter_kernel_eq_skeleton]; unfold cc0__scatter_kernel_skel
  iintro ⟨HS, HM, HC, S0, S1, S2, S3, S4, S5, S6, S7, S8, S9, S10, S11, S12, S13, S14, S15, HO⟩
  iapply wp_bind_i
  iapply (wp_wand_r frame _ Set.univ)
  isplitl [HS HM HC S0 S1 S2 S3 S4 S5 S6 S7 S8 S9 S10 S11 S12 S13 S14 S15 HO]
  · iapply (part86_run c 𝒱₀ i arg3 harg3 q ai wm hai x3 f W) $$ [HS HM HC S0 S1 S2 S3 S4 S5 S6 S7 S8 S9 S10 S11 S12 S13 S14 S15 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r86 ⟨%hr86, HS, HM, HC, S7, S8, S9, S10, S11, S12, S13, S14, S15, %Wp86, HO⟩
  obtain ⟨r86a, r86b, r86c, r86d⟩ := r86
  dsimp only at hr86 ⊢
  have hwcur := hr86
  clear hr86
  iapply wp_bind_i
  iapply (wp_wand_r frame _ Set.univ)
  isplitl [HS HM HC S7 S8 S9 S10 S11 S12 S13 S14 S15 HO]
  · iapply (part61_run c 𝒱₀ i arg3 harg3 q ai wm hai x3 f Wp86 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r61 ⟨%hr61, HS, HM, HC, S13, S14, S15, %Wp61, HO⟩
  obtain ⟨r61a, r61b, r61c⟩ := r61
  dsimp only at hr61 ⊢
  have hwcur := hr61
  clear hr61
  iapply wp_bind_i
  iapply (wp_wand_r frame _ Set.univ)
  isplitl [HS HM HC S13 S14 S15 HO]
  · iapply (part62_run c 𝒱₀ i arg3 harg3 q ai wm hai x3 f Wp61 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r62 ⟨%hr62, HS, HM, HC, S0, S1, S2, %Wp62, HO⟩
  obtain ⟨r62a, r62b, r62c⟩ := r62
  dsimp only at hr62 ⊢
  have hwcur := hr62
  clear hr62
  iapply wp_bind_i
  iapply (wp_wand_r frame _ Set.univ)
  isplitl [HS HM HC S0 S1 S2 HO]
  · iapply (part63_run c 𝒱₀ i arg3 harg3 q ai wm hai x3 f Wp62 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r63 ⟨%hr63, HS, HM, HC, S0, S1, S2, S3, S4, S5, S6, S7, S8, %Wp63, HO⟩
  obtain ⟨r63a, r63b, r63c⟩ := r63
  dsimp only at hr63 ⊢
  have hwcur := hr63
  clear hr63
  iapply wp_bind_i
  iapply (wp_wand_r frame _ Set.univ)
  isplitl [HS HM HC S0 S1 S2 S3 S4 S5 S6 S7 S8 HO]
  · iapply (part64_run c 𝒱₀ i arg3 harg3 q ai wm hai x3 f Wp63 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r64 ⟨%hr64, HS, HM, HC, S0, S1, S2, S3, S4, S5, S6, S7, S8, S9, S10, S11, S12, S13, S14, %Wp64, HO⟩
  obtain ⟨r64a, r64b, r64c⟩ := r64
  dsimp only at hr64 ⊢
  have hwcur := hr64
  clear hr64
  iapply wp_bind_i
  iapply (wp_wand_r frame _ Set.univ)
  isplitl [HS HM HC S0 S1 S2 S3 S4 S5 S6 S7 S8 S9 S10 S11 S12 S13 S14 HO]
  · iapply (part65_run c 𝒱₀ i arg3 harg3 q ai wm hai x3 f Wp64 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r65 ⟨%hr65, HS, HM, HC, S5, S6, S7, S8, S9, S10, S11, S12, S13, S14, S15, %Wp65, HO⟩
  obtain ⟨r65a, r65b, r65c⟩ := r65
  dsimp only at hr65 ⊢
  have hwcur := hr65
  clear hr65
  iapply wp_bind_i
  iapply (wp_wand_r frame _ Set.univ)
  isplitl [HS HM HC S5 S6 S7 S8 S9 S10 S11 S12 S13 S14 S15 HO]
  · iapply (part66_run c 𝒱₀ i arg3 harg3 q ai wm hai x3 f Wp65 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r66 ⟨%hr66, HS, HM, HC, S11, S12, S13, S14, S15, %Wp66, HO⟩
  obtain ⟨r66a, r66b, r66c⟩ := r66
  dsimp only at hr66 ⊢
  have hwcur := hr66
  clear hr66
  iapply wp_bind_i
  iapply (wp_wand_r frame _ Set.univ)
  isplitl [HS HM HC S11 S12 S13 S14 S15 HO]
  · iapply (part67_run c 𝒱₀ i arg3 harg3 q ai wm hai x3 f Wp66 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r67 ⟨%hr67, HS, HM, HC, S0, %Wp67, HO⟩
  obtain ⟨r67a, r67b, r67c⟩ := r67
  dsimp only at hr67 ⊢
  have hwcur := hr67
  clear hr67
  iapply wp_bind_i
  iapply (wp_wand_r frame _ Set.univ)
  isplitl [HS HM HC S0 HO]
  · iapply (part68_run c 𝒱₀ i arg3 harg3 q ai wm hai x3 f Wp67 _ _ _ hwcur _) $$ [HS HM HC S0 HO]
    isplitl [HS]; · iexact HS
    isplitl [HM]; · iexact HM
    isplitl [HC]; · iexact HC
    isplitl [S0]; · iexact S0
    iexact HO
  iintro %r68 ⟨%hr68, HS, HM, HC, S0, S1, S2, S3, S4, S5, S6, %Wp68, HO⟩
  obtain ⟨r68a, r68b, r68c⟩ := r68
  dsimp only at hr68 ⊢
  have hwcur := hr68
  clear hr68
  iapply wp_bind_i
  iapply (wp_wand_r frame _ Set.univ)
  isplitl [HS HM HC S0 S1 S2 S3 S4 S5 S6 HO]
  · iapply (part69_run c 𝒱₀ i arg3 harg3 q ai wm hai x3 f Wp68 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r69 ⟨%hr69, HS, HM, HC, S0, S1, S2, S3, S4, S5, S6, S7, S8, S9, S10, S11, S12, %Wp69, HO⟩
  obtain ⟨r69a, r69b, r69c⟩ := r69
  dsimp only at hr69 ⊢
  have hwcur := hr69
  clear hr69
  iapply wp_bind_i
  iapply (wp_wand_r frame _ Set.univ)
  isplitl [HS HM HC S0 S1 S2 S3 S4 S5 S6 S7 S8 S9 S10 S11 S12 HO]
  · iapply (part70_run c 𝒱₀ i arg3 harg3 q ai wm hai x3 f Wp69 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r70 ⟨%hr70, HS, HM, HC, S3, S4, S5, S6, S7, S8, S9, S10, S11, S12, S13, S14, S15, %Wp70, HO⟩
  obtain ⟨r70a, r70b, r70c⟩ := r70
  dsimp only at hr70 ⊢
  have hwcur := hr70
  clear hr70
  iapply wp_bind_i
  iapply (wp_wand_r frame _ Set.univ)
  isplitl [HS HM HC S3 S4 S5 S6 S7 S8 S9 S10 S11 S12 S13 S14 S15 HO]
  · iapply (part71_run c 𝒱₀ i arg3 harg3 q ai wm hai x3 f Wp70 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r71 ⟨%hr71, HS, HM, HC, S9, S10, S11, S12, S13, S14, S15, %Wp71, HO⟩
  obtain ⟨r71a, r71b, r71c⟩ := r71
  dsimp only at hr71 ⊢
  have hwcur := hr71
  clear hr71
  iapply wp_bind_i
  iapply (wp_wand_r frame _ Set.univ)
  isplitl [HS HM HC S9 S10 S11 S12 S13 S14 S15 HO]
  · iapply (part72_run c 𝒱₀ i arg3 harg3 q ai wm hai x3 f Wp71 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r72 ⟨%hr72, HS, HM, HC, S15, %Wp72, HO⟩
  obtain ⟨r72a, r72b, r72c⟩ := r72
  dsimp only at hr72 ⊢
  have hwcur := hr72
  clear hr72
  iapply wp_bind_i
  iapply (wp_wand_r frame _ Set.univ)
  isplitl [HS HM HC S15 HO]
  · iapply (part73_run c 𝒱₀ i arg3 harg3 q ai wm hai x3 f Wp72 _ _ _ hwcur _) $$ [HS HM HC S15 HO]
    isplitl [HS]; · iexact HS
    isplitl [HM]; · iexact HM
    isplitl [HC]; · iexact HC
    isplitl [S15]; · iexact S15
    iexact HO
  iintro %r73 ⟨%hr73, HS, HM, HC, S0, S1, S2, S3, S4, %Wp73, HO⟩
  obtain ⟨r73a, r73b, r73c⟩ := r73
  dsimp only at hr73 ⊢
  have hwcur := hr73
  clear hr73
  iapply wp_bind_i
  iapply (wp_wand_r frame _ Set.univ)
  isplitl [HS HM HC S0 S1 S2 S3 S4 HO]
  · iapply (part74_run c 𝒱₀ i arg3 harg3 q ai wm hai x3 f Wp73 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r74 ⟨%hr74, HS, HM, HC, S0, S1, S2, S3, S4, S5, S6, S7, S8, S9, S10, %Wp74, HO⟩
  obtain ⟨r74a, r74b, r74c⟩ := r74
  dsimp only at hr74 ⊢
  have hwcur := hr74
  clear hr74
  iapply wp_bind_i
  iapply (wp_wand_r frame _ Set.univ)
  isplitl [HS HM HC S0 S1 S2 S3 S4 S5 S6 S7 S8 S9 S10 HO]
  · iapply (part75_run c 𝒱₀ i arg3 harg3 q ai wm hai x3 f Wp74 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r75 ⟨%hr75, HS, HM, HC, S1, S2, S3, S4, S5, S6, S7, S8, S9, S10, S11, S12, S13, S14, S15, %Wp75, HO⟩
  obtain ⟨r75a, r75b, r75c⟩ := r75
  dsimp only at hr75 ⊢
  have hwcur := hr75
  clear hr75
  iapply wp_bind_i
  iapply (wp_wand_r frame _ Set.univ)
  isplitl [HS HM HC S1 S2 S3 S4 S5 S6 S7 S8 S9 S10 S11 S12 S13 S14 S15 HO]
  · iapply (part76_run c 𝒱₀ i arg3 harg3 q ai wm hai x3 f Wp75 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r76 ⟨%hr76, HS, HM, HC, S7, S8, S9, S10, S11, S12, S13, S14, S15, %Wp76, HO⟩
  obtain ⟨r76a, r76b, r76c⟩ := r76
  dsimp only at hr76 ⊢
  have hwcur := hr76
  clear hr76
  iapply wp_bind_i
  iapply (wp_wand_r frame _ Set.univ)
  isplitl [HS HM HC S7 S8 S9 S10 S11 S12 S13 S14 S15 HO]
  · iapply (part77_run c 𝒱₀ i arg3 harg3 q ai wm hai x3 f Wp76 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r77 ⟨%hr77, HS, HM, HC, S13, S14, S15, %Wp77, HO⟩
  obtain ⟨r77a, r77b, r77c⟩ := r77
  dsimp only at hr77 ⊢
  have hwcur := hr77
  clear hr77
  iapply wp_bind_i
  iapply (wp_wand_r frame _ Set.univ)
  isplitl [HS HM HC S13 S14 S15 HO]
  · iapply (part78_run c 𝒱₀ i arg3 harg3 q ai wm hai x3 f Wp77 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r78 ⟨%hr78, HS, HM, HC, S0, S1, S2, %Wp78, HO⟩
  obtain ⟨r78a, r78b, r78c⟩ := r78
  dsimp only at hr78 ⊢
  have hwcur := hr78
  clear hr78
  iapply wp_bind_i
  iapply (wp_wand_r frame _ Set.univ)
  isplitl [HS HM HC S0 S1 S2 HO]
  · iapply (part79_run c 𝒱₀ i arg3 harg3 q ai wm hai x3 f Wp78 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r79 ⟨%hr79, HS, HM, HC, S0, S1, S2, S3, S4, S5, S6, S7, S8, %Wp79, HO⟩
  obtain ⟨r79a, r79b, r79c⟩ := r79
  dsimp only at hr79 ⊢
  have hwcur := hr79
  clear hr79
  iapply wp_bind_i
  iapply (wp_wand_r frame _ Set.univ)
  isplitl [HS HM HC S0 S1 S2 S3 S4 S5 S6 S7 S8 HO]
  · iapply (part80_run c 𝒱₀ i arg3 harg3 q ai wm hai x3 f Wp79 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r80 ⟨%hr80, HS, HM, HC, S0, S1, S2, S3, S4, S5, S6, S7, S8, S9, S10, S11, S12, S13, S14, %Wp80, HO⟩
  obtain ⟨r80a, r80b, r80c⟩ := r80
  dsimp only at hr80 ⊢
  have hwcur := hr80
  clear hr80
  iapply wp_bind_i
  iapply (wp_wand_r frame _ Set.univ)
  isplitl [HS HM HC S0 S1 S2 S3 S4 S5 S6 S7 S8 S9 S10 S11 S12 S13 S14 HO]
  · iapply (part81_run c 𝒱₀ i arg3 harg3 q ai wm hai x3 f Wp80 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r81 ⟨%hr81, HS, HM, HC, S5, S6, S7, S8, S9, S10, S11, S12, S13, S14, S15, %Wp81, HO⟩
  obtain ⟨r81a, r81b, r81c⟩ := r81
  dsimp only at hr81 ⊢
  have hwcur := hr81
  clear hr81
  iapply wp_bind_i
  iapply (wp_wand_r frame _ Set.univ)
  isplitl [HS HM HC S5 S6 S7 S8 S9 S10 S11 S12 S13 S14 S15 HO]
  · iapply (part82_run c 𝒱₀ i arg3 harg3 q ai wm hai x3 f Wp81 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r82 ⟨%hr82, HS, HM, HC, S11, S12, S13, S14, S15, %Wp82, HO⟩
  obtain ⟨r82a, r82b, r82c⟩ := r82
  dsimp only at hr82 ⊢
  have hwcur := hr82
  clear hr82
  iapply wp_bind_i
  iapply (wp_wand_r frame _ Set.univ)
  isplitl [HS HM HC S11 S12 S13 S14 S15 HO]
  · iapply (part83_run c 𝒱₀ i arg3 harg3 q ai wm hai x3 f Wp82 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r83 ⟨%hr83, HS, HM, HC, S0, %Wp83, HO⟩
  obtain ⟨r83a, r83b, r83c⟩ := r83
  dsimp only at hr83 ⊢
  have hwcur := hr83
  clear hr83
  iapply wp_bind_i
  iapply (wp_wand_r frame _ Set.univ)
  isplitl [HS HM HC S0 HO]
  · iapply (part84_run c 𝒱₀ i arg3 harg3 q ai wm hai x3 f Wp83 _ _ _ hwcur _) $$ [HS HM HC S0 HO]
    isplitl [HS]; · iexact HS
    isplitl [HM]; · iexact HM
    isplitl [HC]; · iexact HC
    isplitl [S0]; · iexact S0
    iexact HO
  iintro %r84 ⟨%hr84, HS, HM, HC, S0, S1, S2, S3, S4, S5, S6, %Wp84, HO⟩
  obtain ⟨r84a, r84b, r84c⟩ := r84
  dsimp only at hr84 ⊢
  have hwcur := hr84
  clear hr84
  iapply wp_bind_i
  iapply (wp_wand_r frame _ Set.univ)
  isplitl [HS HM HC S0 S1 S2 S3 S4 S5 S6 HO]
  · iapply (part85_run c 𝒱₀ i arg3 harg3 q ai wm hai x3 f Wp84 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r85 ⟨%hr85, HS, HM, HC, S0, S1, S2, S3, S4, S5, S6, S7, S8, S9, S10, S11, S12, %Wp85, HO⟩
  obtain ⟨r85a, r85b, r85c⟩ := r85
  dsimp only at hr85 ⊢
  have hwcur := hr85
  clear hr85
  have hl253 : (253 : ℕ) < 256 := by decide
  have hl254 : (254 : ℕ) < 256 := by decide
  have hl255 : (255 : ℕ) < 256 := by decide
  have hj13 : (13 : ℕ) < 16 := by decide
  have hj14 : (14 : ℕ) < 16 := by decide
  have hj15 : (15 : ℕ) < 16 := by decide
  have hw510 := hwcur
  have hp510 : stateAt 509 ⟨253, hl253⟩ = St.started := show stateAt 509 ⟨253, (by decide : (253 : ℕ) < 256)⟩ = St.started from by decide
  have hn510 : ∀ l : Fin 256, stateAt 510 l = Function.update (stateAt 509) ⟨253, hl253⟩ St.done l := show ∀ l : Fin 256, stateAt 510 l = Function.update (stateAt 509) ⟨253, (by decide : (253 : ℕ) < 256)⟩ St.done l from by decide
  iapply (wait_fam c 𝒱₀ arg3 (Memref.whole main_v0_0) i q ai wm hai x3 f 509 253 13 hl253 hj13 rfl hp510 hn510 _ hw510 (k0_off1529 i) rfl (k0_off1529_inb i) k0_cond510 (fun _ => rfl) (k0_chk510 i) (k0_chk510.dec i) (k0_off1530 i) (fun _ => rfl) (fun _ _ h => h) (k0_off1530_inb i) ((View.wordExact_bits rfl).reshape _ _) (fun _ _ => (View.wordExact_bits rfl).reshape _ _) _ _ Wp85) $$ [HS HM HC HO]
  · isplitl [HS]; · iexact HS
    isplitl [HM]; · iexact HM
    isplitl [HC]; · iexact HC
    iexact HO
  iintro ⟨HS, HM, HC, S13, %W510, HO⟩
  iapply (loadMask_wp c 𝒱₀ i 254 hl254 q wm rfl) $$ HM
  iintro HM %w511 %hw511
  have hp511 : stateAt 510 ⟨254, hl254⟩ = St.started := show stateAt 510 ⟨254, (by decide : (254 : ℕ) < 256)⟩ = St.started from by decide
  have hn511 : ∀ l : Fin 256, stateAt 511 l = Function.update (stateAt 510) ⟨254, hl254⟩ St.done l := show ∀ l : Fin 256, stateAt 511 l = Function.update (stateAt 510) ⟨254, (by decide : (254 : ℕ) < 256)⟩ St.done l from by decide
  iapply (wait_fam c 𝒱₀ arg3 (Memref.whole main_v0_0) i q ai wm hai x3 f 510 254 14 hl254 hj14 rfl hp511 hn511 w511 hw511 (k0_off1532 i) rfl (k0_off1532_inb i) k0_cond511 (fun _ => rfl) (k0_chk511 i) (k0_chk511.dec i) (k0_off1533 i) (fun _ => rfl) (fun _ _ h => h) (k0_off1533_inb i) ((View.wordExact_bits rfl).reshape _ _) (fun _ _ => (View.wordExact_bits rfl).reshape _ _) _ _ W510) $$ [HS HM HC HO]
  · isplitl [HS]; · iexact HS
    isplitl [HM]; · iexact HM
    isplitl [HC]; · iexact HC
    iexact HO
  iintro ⟨HS, HM, HC, S14, %W511, HO⟩
  iapply (loadMask_wp c 𝒱₀ i 255 hl255 q wm rfl) $$ HM
  iintro HM %w512 %hw512
  have hp512 : stateAt 511 ⟨255, hl255⟩ = St.started := show stateAt 511 ⟨255, (by decide : (255 : ℕ) < 256)⟩ = St.started from by decide
  have hn512 : ∀ l : Fin 256, stateAt 512 l = Function.update (stateAt 511) ⟨255, hl255⟩ St.done l := show ∀ l : Fin 256, stateAt 512 l = Function.update (stateAt 511) ⟨255, (by decide : (255 : ℕ) < 256)⟩ St.done l from by decide
  iapply (wait_fam c 𝒱₀ arg3 (Memref.whole main_v0_0) i q ai wm hai x3 f 511 255 15 hl255 hj15 rfl hp512 hn512 w512 hw512 (k0_off1535 i) rfl (k0_off1535_inb i) k0_cond512 (fun _ => rfl) (k0_chk512 i) (k0_chk512.dec i) (k0_off1536 i) (fun _ => rfl) (fun _ _ h => h) (k0_off1536_inb i) ((View.wordExact_bits rfl).reshape _ _) (fun _ _ => (View.wordExact_bits rfl).reshape _ _) _ _ W511) $$ [HS HM HC HO]
  · isplitl [HS]; · iexact HS
    isplitl [HM]; · iexact HM
    isplitl [HC]; · iexact HC
    iexact HO
  iintro ⟨HS, HM, HC, S15, %W512, HO⟩
  rw [wp_pure]
  imodintro
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO
end Cert.KernelIdeal.Cells

end
-- ==== Proof.Parts1Bits.lean ====
/-
  Parts 1 to 11 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyBits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 1 of the body: steps 1 to 5, and the load of the next step's mask word. -/
theorem part1_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    :
    iprop(((c : Thread nD τ).loc main_call0_v12 ↦{q} ai) ∗ ((c : Thread nD τ).loc main_call0_v13 ↦{q} wm) ∗ cells c arg3 (Memref.whole main_v0_0) i ai wm hai x3 f 0 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part1 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0)
          (fun r => iprop(⌜r.2.2.1 = wordOf wm i 5 (by decide)⌝ ∗ ((c : Thread nD τ).loc main_call0_v12 ↦{q} ai) ∗ ((c : Thread nD τ).loc main_call0_v13 ↦{q} wm) ∗ cells c arg3 (Memref.whole main_v0_0) i ai wm hai x3 f 5 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part1_eq_skeleton]; unfold k0_part1_skel
  iintro ⟨HS, HM, HC, S0, S1, S2, S3, S4, S5, S6, S7, S8, S9, S10, S11, S12, S13, S14, S15, HO⟩
  have hl0 : (0 : ℕ) < 256 := by decide
  have hl1 : (1 : ℕ) < 256 := by decide
  have hl2 : (2 : ℕ) < 256 := by decide
  have hl3 : (3 : ℕ) < 256 := by decide
  have hl4 : (4 : ℕ) < 256 := by decide
  have hl5 : (5 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  iapply (loadMask_wp c 𝒱₀ i 0 hl0 q wm rfl) $$ HM
  iintro HM %w1 %hw1
  have hp1 : stateAt 0 ⟨0, hl0⟩ = St.pending := show stateAt 0 ⟨0, (by decide : (0 : ℕ) < 256)⟩ = St.pending from by decide
  have hn1 : ∀ l : Fin 256, stateAt 1 l = Function.update (stateAt 0) ⟨0, hl0⟩ St.started l := show ∀ l : Fin 256, stateAt 1 l = Function.update (stateAt 0) ⟨0, (by decide : (0 : ℕ) < 256)⟩ St.started l from by decide
  iapply (start_fam c 𝒱₀ arg3 (Memref.whole main_v0_0) i q ai wm hai x3 f 0 0 0 hl0 hj0 rfl hp1 hn1 w1 hw1 k0_cond1 (fun _ => rfl) (k0_chk1 i) (k0_chk1.dec i) (k0_off3 i) (fun _ => rfl) (fun _ _ => rfl) rfl) $$ [HS HC S0]
  · isplitl [HS]; · iexact HS
    isplitl [HC]; · iexact HC
    iexact S0
  iintro ⟨HS, HC⟩
  iapply (loadMask_wp c 𝒱₀ i 1 hl1 q wm rfl) $$ HM
  iintro HM %w2 %hw2
  have hp2 : stateAt 1 ⟨1, hl1⟩ = St.pending := show stateAt 1 ⟨1, (by decide : (1 : ℕ) < 256)⟩ = St.pending from by decide
  have hn2 : ∀ l : Fin 256, stateAt 2 l = Function.update (stateAt 1) ⟨1, hl1⟩ St.started l := show ∀ l : Fin 256, stateAt 2 l = Function.update (stateAt 1) ⟨1, (by decide : (1 : ℕ) < 256)⟩ St.started l from by decide
  iapply (start_fam c 𝒱₀ arg3 (Memref.whole main_v0_0) i q ai wm hai x3 f 1 1 1 hl1 hj1 rfl hp2 hn2 w2 hw2 k0_cond2 (fun _ => rfl) (k0_chk2 i) (k0_chk2.dec i) (k0_off6 i) (fun _ => rfl) (fun _ _ => rfl) rfl) $$ [HS HC S1]
  · isplitl [HS]; · iexact HS
    isplitl [HC]; · iexact HC
    iexact S1
  iintro ⟨HS, HC⟩
  iapply (loadMask_wp c 𝒱₀ i 2 hl2 q wm rfl) $$ HM
  iintro HM %w3 %hw3
  have hp3 : stateAt 2 ⟨2, hl2⟩ = St.pending := show stateAt 2 ⟨2, (by decide : (2 : ℕ) < 256)⟩ = St.pending from by decide
  have hn3 : ∀ l : Fin 256, stateAt 3 l = Function.update (stateAt 2) ⟨2, hl2⟩ St.started l := show ∀ l : Fin 256, stateAt 3 l = Function.update (stateAt 2) ⟨2, (by decide : (2 : ℕ) < 256)⟩ St.started l from by decide
  iapply (start_fam c 𝒱₀ arg3 (Memref.whole main_v0_0) i q ai wm hai x3 f 2 2 2 hl2 hj2 rfl hp3 hn3 w3 hw3 k0_cond3 (fun _ => rfl) (k0_chk3 i) (k0_chk3.dec i) (k0_off9 i) (fun _ => rfl) (fun _ _ => rfl) rfl) $$ [HS HC S2]
  · isplitl [HS]; · iexact HS
    isplitl [HC]; · iexact HC
    iexact S2
  iintro ⟨HS, HC⟩
  iapply (loadMask_wp c 𝒱₀ i 3 hl3 q wm rfl) $$ HM
  iintro HM %w4 %hw4
  have hp4 : stateAt 3 ⟨3, hl3⟩ = St.pending := show stateAt 3 ⟨3, (by decide : (3 : ℕ) < 256)⟩ = St.pending from by decide
  have hn4 : ∀ l : Fin 256, stateAt 4 l = Function.update (stateAt 3) ⟨3, hl3⟩ St.started l := show ∀ l : Fin 256, stateAt 4 l = Function.update (stateAt 3) ⟨3, (by decide : (3 : ℕ) < 256)⟩ St.started l from by decide
  iapply (start_fam c 𝒱₀ arg3 (Memref.whole main_v0_0) i q ai wm hai x3 f 3 3 3 hl3 hj3 rfl hp4 hn4 w4 hw4 k0_cond4 (fun _ => rfl) (k0_chk4 i) (k0_chk4.dec i) (k0_off12 i) (fun _ => rfl) (fun _ _ => rfl) rfl) $$ [HS HC S3]
  · isplitl [HS]; · iexact HS
    isplitl [HC]; · iexact HC
    iexact S3
  iintro ⟨HS, HC⟩
  iapply (loadMask_wp c 𝒱₀ i 4 hl4 q wm rfl) $$ HM
  iintro HM %w5 %hw5
  have hp5 : stateAt 4 ⟨4, hl4⟩ = St.pending := show stateAt 4 ⟨4, (by decide : (4 : ℕ) < 256)⟩ = St.pending from by decide
  have hn5 : ∀ l : Fin 256, stateAt 5 l = Function.update (stateAt 4) ⟨4, hl4⟩ St.started l := show ∀ l : Fin 256, stateAt 5 l = Function.update (stateAt 4) ⟨4, (by decide : (4 : ℕ) < 256)⟩ St.started l from by decide
  iapply (start_fam c 𝒱₀ arg3 (Memref.whole main_v0_0) i q ai wm hai x3 f 4 4 4 hl4 hj4 rfl hp5 hn5 w5 hw5 k0_cond5 (fun _ => rfl) (k0_chk5 i) (k0_chk5.dec i) (k0_off15 i) (fun _ => rfl) (fun _ _ => rfl) rfl) $$ [HS HC S4]
  · isplitl [HS]; · iexact HS
    isplitl [HC]; · iexact HC
    iexact S4
  iintro ⟨HS, HC⟩
  iapply (loadMask_wp c 𝒱₀ i 5 hl5 q wm rfl) $$ HM
  iintro HM %w6 %hw6
  rw [wp_pure]
  imodintro
  isplitr; · ipureintro; exact hw6
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 2 of the body: steps 6 to 11, and the load of the next step's mask word. -/
theorem part2_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 5 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 5 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part2 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 11 (by decide)⌝ ∗ ((c : Thread nD τ).loc main_call0_v12 ↦{q} ai) ∗ ((c : Thread nD τ).loc main_call0_v13 ↦{q} wm) ∗ cells c arg3 (Memref.whole main_v0_0) i ai wm hai x3 f 11 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part2_eq_skeleton]; unfold k0_part2_skel
  iintro ⟨HS, HM, HC, S5, S6, S7, S8, S9, S10, S11, S12, S13, S14, S15, HO⟩
  have hl5 : (5 : ℕ) < 256 := by decide
  have hl6 : (6 : ℕ) < 256 := by decide
  have hl7 : (7 : ℕ) < 256 := by decide
  have hl8 : (8 : ℕ) < 256 := by decide
  have hl9 : (9 : ℕ) < 256 := by decide
  have hl10 : (10 : ℕ) < 256 := by decide
  have hl11 : (11 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw6 : w = wordOf wm i 5 hl5 := hw
  have hp6 : stateAt 5 ⟨5, hl5⟩ = St.pending := show stateAt 5 ⟨5, (by decide : (5 : ℕ) < 256)⟩ = St.pending from by decide
  have hn6 : ∀ l : Fin 256, stateAt 6 l = Function.update (stateAt 5) ⟨5, hl5⟩ St.started l := show ∀ l : Fin 256, stateAt 6 l = Function.update (stateAt 5) ⟨5, (by decide : (5 : ℕ) < 256)⟩ St.started l from by decide
  iapply (start_fam c 𝒱₀ arg3 (Memref.whole main_v0_0) i q ai wm hai x3 f 5 5 5 hl5 hj5 rfl hp6 hn6 w hw6 k0_cond6 (fun _ => rfl) (k0_chk6 i) (k0_chk6.dec i) (k0_off18 i) (fun _ => rfl) (fun _ _ => rfl) rfl) $$ [HS HC S5]
  · isplitl [HS]; · iexact HS
    isplitl [HC]; · iexact HC
    iexact S5
  iintro ⟨HS, HC⟩
  iapply (loadMask_wp c 𝒱₀ i 6 hl6 q wm rfl) $$ HM
  iintro HM %w7 %hw7
  have hp7 : stateAt 6 ⟨6, hl6⟩ = St.pending := show stateAt 6 ⟨6, (by decide : (6 : ℕ) < 256)⟩ = St.pending from by decide
  have hn7 : ∀ l : Fin 256, stateAt 7 l = Function.update (stateAt 6) ⟨6, hl6⟩ St.started l := show ∀ l : Fin 256, stateAt 7 l = Function.update (stateAt 6) ⟨6, (by decide : (6 : ℕ) < 256)⟩ St.started l from by decide
  iapply (start_fam c 𝒱₀ arg3 (Memref.whole main_v0_0) i q ai wm hai x3 f 6 6 6 hl6 hj6 rfl hp7 hn7 w7 hw7 k0_cond7 (fun _ => rfl) (k0_chk7 i) (k0_chk7.dec i) (k0_off21 i) (fun _ => rfl) (fun _ _ => rfl) rfl) $$ [HS HC S6]
  · isplitl [HS]; · iexact HS
    isplitl [HC]; · iexact HC
    iexact S6
  iintro ⟨HS, HC⟩
  iapply (loadMask_wp c 𝒱₀ i 7 hl7 q wm rfl) $$ HM
  iintro HM %w8 %hw8
  have hp8 : stateAt 7 ⟨7, hl7⟩ = St.pending := show stateAt 7 ⟨7, (by decide : (7 : ℕ) < 256)⟩ = St.pending from by decide
  have hn8 : ∀ l : Fin 256, stateAt 8 l = Function.update (stateAt 7) ⟨7, hl7⟩ St.started l := show ∀ l : Fin 256, stateAt 8 l = Function.update (stateAt 7) ⟨7, (by decide : (7 : ℕ) < 256)⟩ St.started l from by decide
  iapply (start_fam c 𝒱₀ arg3 (Memref.whole main_v0_0) i q ai wm hai x3 f 7 7 7 hl7 hj7 rfl hp8 hn8 w8 hw8 k0_cond8 (fun _ => rfl) (k0_chk8 i) (k0_chk8.dec i) (k0_off24 i) (fun _ => rfl) (fun _ _ => rfl) rfl) $$ [HS HC S7]
  · isplitl [HS]; · iexact HS
    isplitl [HC]; · iexact HC
    iexact S7
  iintro ⟨HS, HC⟩
  iapply (loadMask_wp c 𝒱₀ i 8 hl8 q wm rfl) $$ HM
  iintro HM %w9 %hw9
  have hp9 : stateAt 8 ⟨8, hl8⟩ = St.pending := show stateAt 8 ⟨8, (by decide : (8 : ℕ) < 256)⟩ = St.pending from by decide
  have hn9 : ∀ l : Fin 256, stateAt 9 l = Function.update (stateAt 8) ⟨8, hl8⟩ St.started l := show ∀ l : Fin 256, stateAt 9 l = Function.update (stateAt 8) ⟨8, (by decide : (8 : ℕ) < 256)⟩ St.started l from by decide
  iapply (start_fam c 𝒱₀ arg3 (Memref.whole main_v0_0) i q ai wm hai x3 f 8 8 8 hl8 hj8 rfl hp9 hn9 w9 hw9 k0_cond9 (fun _ => rfl) (k0_chk9 i) (k0_chk9.dec i) (k0_off27 i) (fun _ => rfl) (fun _ _ => rfl) rfl) $$ [HS HC S8]
  · isplitl [HS]; · iexact HS
    isplitl [HC]; · iexact HC
    iexact S8
  iintro ⟨HS, HC⟩
  iapply (loadMask_wp c 𝒱₀ i 9 hl9 q wm rfl) $$ HM
  iintro HM %w10 %hw10
  have hp10 : stateAt 9 ⟨9, hl9⟩ = St.pending := show stateAt 9 ⟨9, (by decide : (9 : ℕ) < 256)⟩ = St.pending from by decide
  have hn10 : ∀ l : Fin 256, stateAt 10 l = Function.update (stateAt 9) ⟨9, hl9⟩ St.started l := show ∀ l : Fin 256, stateAt 10 l = Function.update (stateAt 9) ⟨9, (by decide : (9 : ℕ) < 256)⟩ St.started l from by decide
  iapply (start_fam c 𝒱₀ arg3 (Memref.whole main_v0_0) i q ai wm hai x3 f 9 9 9 hl9 hj9 rfl hp10 hn10 w10 hw10 k0_cond10 (fun _ => rfl) (k0_chk10 i) (k0_chk10.dec i) (k0_off30 i) (fun _ => rfl) (fun _ _ => rfl) rfl) $$ [HS HC S9]
  · isplitl [HS]; · iexact HS
    isplitl [HC]; · iexact HC
    iexact S9
  iintro ⟨HS, HC⟩
  iapply (loadMask_wp c 𝒱₀ i 10 hl10 q wm rfl) $$ HM
  iintro HM %w11 %hw11
  have hp11 : stateAt 10 ⟨10, hl10⟩ = St.pending := show stateAt 10 ⟨10, (by decide : (10 : ℕ) < 256)⟩ = St.pending from by decide
  have hn11 : ∀ l : Fin 256, stateAt 11 l = Function.update (stateAt 10) ⟨10, hl10⟩ St.started l := show ∀ l : Fin 256, stateAt 11 l = Function.update (stateAt 10) ⟨10, (by decide : (10 : ℕ) < 256)⟩ St.started l from by decide
  iapply (start_fam c 𝒱₀ arg3 (Memref.whole main_v0_0) i q ai wm hai x3 f 10 10 10 hl10 hj10 rfl hp11 hn11 w11 hw11 k0_cond11 (fun _ => rfl) (k0_chk11 i) (k0_chk11.dec i) (k0_off33 i) (fun _ => rfl) (fun _ _ => rfl) rfl) $$ [HS HC S10]
  · isplitl [HS]; · iexact HS
    isplitl [HC]; · iexact HC
    iexact S10
  iintro ⟨HS, HC⟩
  iapply (loadMask_wp c 𝒱₀ i 11 hl11 q wm rfl) $$ HM
  iintro HM %w12 %hw12
  rw [wp_pure]
  imodintro
  isplitr; · ipureintro; exact hw12
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 3 of the body: steps 12 to 17, and the load of the next step's mask word. -/
theorem part3_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 11 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 11 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part3 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 1 (by decide)⌝ ∗ ((c : Thread nD τ).loc main_call0_v12 ↦{q} ai) ∗ ((c : Thread nD τ).loc main_call0_v13 ↦{q} wm) ∗ cells c arg3 (Memref.whole main_v0_0) i ai wm hai x3 f 17 ∗ semPt c 0 (sem_inb 0 (by decide)) ∗ ∃ W', owes (c : Thread nD τ) 0 W')) := by
  rw [k0_part3_eq_skeleton]; unfold k0_part3_skel
  iintro ⟨HS, HM, HC, S11, S12, S13, S14, S15, HO⟩
  have hl0 : (0 : ℕ) < 256 := by decide
  have hl1 : (1 : ℕ) < 256 := by decide
  have hl11 : (11 : ℕ) < 256 := by decide
  have hl12 : (12 : ℕ) < 256 := by decide
  have hl13 : (13 : ℕ) < 256 := by decide
  have hl14 : (14 : ℕ) < 256 := by decide
  have hl15 : (15 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw12 : w = wordOf wm i 11 hl11 := hw
  have hp12 : stateAt 11 ⟨11, hl11⟩ = St.pending := show stateAt 11 ⟨11, (by decide : (11 : ℕ) < 256)⟩ = St.pending from by decide
  have hn12 : ∀ l : Fin 256, stateAt 12 l = Function.update (stateAt 11) ⟨11, hl11⟩ St.started l := show ∀ l : Fin 256, stateAt 12 l = Function.update (stateAt 11) ⟨11, (by decide : (11 : ℕ) < 256)⟩ St.started l from by decide
  iapply (start_fam c 𝒱₀ arg3 (Memref.whole main_v0_0) i q ai wm hai x3 f 11 11 11 hl11 hj11 rfl hp12 hn12 w hw12 k0_cond12 (fun _ => rfl) (k0_chk12 i) (k0_chk12.dec i) (k0_off36 i) (fun _ => rfl) (fun _ _ => rfl) rfl) $$ [HS HC S11]
  · isplitl [HS]; · iexact HS
    isplitl [HC]; · iexact HC
    iexact S11
  iintro ⟨HS, HC⟩
  iapply (loadMask_wp c 𝒱₀ i 12 hl12 q wm rfl) $$ HM
  iintro HM %w13 %hw13
  have hp13 : stateAt 12 ⟨12, hl12⟩ = St.pending := show stateAt 12 ⟨12, (by decide : (12 : ℕ) < 256)⟩ = St.pending from by decide
  have hn13 : ∀ l : Fin 256, stateAt 13 l = Function.update (stateAt 12) ⟨12, hl12⟩ St.started l := show ∀ l : Fin 256, stateAt 13 l = Function.update (stateAt 12) ⟨12, (by decide : (12 : ℕ) < 256)⟩ St.started l from by decide
  iapply (start_fam c 𝒱₀ arg3 (Memref.whole main_v0_0) i q ai wm hai x3 f 12 12 12 hl12 hj12 rfl hp13 hn13 w13 hw13 k0_cond13 (fun _ => rfl) (k0_chk13 i) (k0_chk13.dec i) (k0_off39 i) (fun _ => rfl) (fun _ _ => rfl) rfl) $$ [HS HC S12]
  · isplitl [HS]; · iexact HS
    isplitl [HC]; · iexact HC
    iexact S12
  iintro ⟨HS, HC⟩
  iapply (loadMask_wp c 𝒱₀ i 13 hl13 q wm rfl) $$ HM
  iintro HM %w14 %hw14
  have hp14 : stateAt 13 ⟨13, hl13⟩ = St.pending := show stateAt 13 ⟨13, (by decide : (13 : ℕ) < 256)⟩ = St.pending from by decide
  have hn14 : ∀ l : Fin 256, stateAt 14 l = Function.update (stateAt 13) ⟨13, hl13⟩ St.started l := show ∀ l : Fin 256, stateAt 14 l = Function.update (stateAt 13) ⟨13, (by decide : (13 : ℕ) < 256)⟩ St.started l from by decide
  iapply (start_fam c 𝒱₀ arg3 (Memref.whole main_v0_0) i q ai wm hai x3 f 13 13 13 hl13 hj13 rfl hp14 hn14 w14 hw14 k0_cond14 (fun _ => rfl) (k0_chk14 i) (k0_chk14.dec i) (k0_off42 i) (fun _ => rfl) (fun _ _ => rfl) rfl) $$ [HS HC S13]
  · isplitl [HS]; · iexact HS
    isplitl [HC]; · iexact HC
    iexact S13
  iintro ⟨HS, HC⟩
  iapply (loadMask_wp c 𝒱₀ i 14 hl14 q wm rfl) $$ HM
  iintro HM %w15 %hw15
  have hp15 : stateAt 14 ⟨14, hl14⟩ = St.pending := show stateAt 14 ⟨14, (by decide : (14 : ℕ) < 256)⟩ = St.pending from by decide
  have hn15 : ∀ l : Fin 256, stateAt 15 l = Function.update (stateAt 14) ⟨14, hl14⟩ St.started l := show ∀ l : Fin 256, stateAt 15 l = Function.update (stateAt 14) ⟨14, (by decide : (14 : ℕ) < 256)⟩ St.started l from by decide
  iapply (start_fam c 𝒱₀ arg3 (Memref.whole main_v0_0) i q ai wm hai x3 f 14 14 14 hl14 hj14 rfl hp15 hn15 w15 hw15 k0_cond15 (fun _ => rfl) (k0_chk15 i) (k0_chk15.dec i) (k0_off45 i) (fun _ => rfl) (fun _ _ => rfl) rfl) $$ [HS HC S14]
  · isplitl [HS]; · iexact HS
    isplitl [HC]; · iexact HC
    iexact S14
  iintro ⟨HS, HC⟩
  iapply (loadMask_wp c 𝒱₀ i 15 hl15 q wm rfl) $$ HM
  iintro HM %w16 %hw16
  have hp16 : stateAt 15 ⟨15, hl15⟩ = St.pending := show stateAt 15 ⟨15, (by decide : (15 : ℕ) < 256)⟩ = St.pending from by decide
  have hn16 : ∀ l : Fin 256, stateAt 16 l = Function.update (stateAt 15) ⟨15, hl15⟩ St.started l := show ∀ l : Fin 256, stateAt 16 l = Function.update (stateAt 15) ⟨15, (by decide : (15 : ℕ) < 256)⟩ St.started l from by decide
  iapply (start_fam c 𝒱₀ arg3 (Memref.whole main_v0_0) i q ai wm hai x3 f 15 15 15 hl15 hj15 rfl hp16 hn16 w16 hw16 k0_cond16 (fun _ => rfl) (k0_chk16 i) (k0_chk16.dec i) (k0_off48 i) (fun _ => rfl) (fun _ _ => rfl) rfl) $$ [HS HC S15]
  · isplitl [HS]; · iexact HS
    isplitl [HC]; · iexact HC
    iexact S15
  iintro ⟨HS, HC⟩
  iapply (loadMask_wp c 𝒱₀ i 0 hl0 q wm rfl) $$ HM
  iintro HM %w17 %hw17
  have hp17 : stateAt 16 ⟨0, hl0⟩ = St.started := show stateAt 16 ⟨0, (by decide : (0 : ℕ) < 256)⟩ = St.started from by decide
  have hn17 : ∀ l : Fin 256, stateAt 17 l = Function.update (stateAt 16) ⟨0, hl0⟩ St.done l := show ∀ l : Fin 256, stateAt 17 l = Function.update (stateAt 16) ⟨0, (by decide : (0 : ℕ) < 256)⟩ St.done l from by decide
  iapply (wait_fam c 𝒱₀ arg3 (Memref.whole main_v0_0) i q ai wm hai x3 f 16 0 0 hl0 hj0 rfl hp17 hn17 w17 hw17 (k0_off50 i) rfl (k0_off50_inb i) k0_cond17 (fun _ => rfl) (k0_chk17 i) (k0_chk17.dec i) (k0_off51 i) (fun _ => rfl) (fun _ _ h => h) (k0_off51_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W17, HO⟩
  iapply (loadMask_wp c 𝒱₀ i 1 hl1 q wm rfl) $$ HM
  iintro HM %w18 %hw18
  rw [wp_pure]
  imodintro
  isplitr; · ipureintro; exact hw18
  isplitl [HS]; · iexact HS
  isplitl [HM]; · iexact HM
  isplitl [HC]; · iexact HC
  isplitl [S0]; · iexact S0
  iexists _; iexact HO

set_option maxHeartbeats 0 in
/-- Part 4 of the body: steps 18 to 23, and the load of the next step's mask word. -/
theorem part4_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 1 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 17 ∗ semPt c 0 (sem_inb 0 (by decide)) ∗ owes (c : Thread nD τ) 0 W)
      ⊢ wp frame (wpE (defs₀ (F := F)) 𝒱₀ (c : Thread nD τ) none) Set.univ (k0_part4 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 7 (by decide)⌝ ∗ ((c : Thread nD τ).loc main_call0_v12 ↦{q} ai) ∗ ((c : Thread nD τ).loc main_call0_v13 ↦{q} wm) ∗ cells c arg3 (Memref.whole main_v0_0) i ai wm hai x3 f 23 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part4_eq_skeleton]; unfold k0_part4_skel
  iintro ⟨HS, HM, HC, S0, HO⟩
  have hl1 : (1 : ℕ) < 256 := by decide
  have hl2 : (2 : ℕ) < 256 := by decide
  have hl3 : (3 : ℕ) < 256 := by decide
  have hl4 : (4 : ℕ) < 256 := by decide
  have hl5 : (5 : ℕ) < 256 := by decide
  have hl6 : (6 : ℕ) < 256 := by decide
  have hl7 : (7 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw18 : w = wordOf wm i 1 hl1 := hw
  have hp18 : stateAt 17 ⟨1, hl1⟩ = St.started := show stateAt 17 ⟨1, (by decide : (1 : ℕ) < 256)⟩ = St.started from by decide
  have hn18 : ∀ l : Fin 256, stateAt 18 l = Function.update (stateAt 17) ⟨1, hl1⟩ St.done l := show ∀ l : Fin 256, stateAt 18 l = Function.update (stateAt 17) ⟨1, (by decide : (1 : ℕ) < 256)⟩ St.done l from by decide
  iapply (wait_fam c 𝒱₀ arg3 (Memref.whole main_v0_0) i q ai wm hai x3 f 17 1 1 hl1 hj1 rfl hp18 hn18 w hw18 (k0_off53 i) rfl (k0_off53_inb i) k0_cond18 (fun _ => rfl) (k0_chk18 i) (k0_chk18.dec i) (k0_off54 i) (fun _ => rfl) (fun _ _ h => h) (k0_off54_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W18, HO⟩
  iapply (loadMask_wp c 𝒱₀ i 2 hl2 q wm rfl) $$ HM
  iintro HM %w19 %hw19
  have hp19 : stateAt 18 ⟨2, hl2⟩ = St.started := show stateAt 18 ⟨2, (by decide : (2 : ℕ) < 256)⟩ = St.started from by decide
  have hn19 : ∀ l : Fin 256, stateAt 19 l = Function.update (stateAt 18) ⟨2, hl2⟩ St.done l := show ∀ l : Fin 256, stateAt 19 l = Function.update (stateAt 18) ⟨2, (by decide : (2 : ℕ) < 256)⟩ St.done l from by decide
  iapply (wait_fam c 𝒱₀ arg3 (Memref.whole main_v0_0) i q ai wm hai x3 f 18 2 2 hl2 hj2 rfl hp19 hn19 w19 hw19 (k0_off56 i) rfl (k0_off56_inb i) k0_cond19 (fun _ => rfl) (k0_chk19 i) (k0_chk19.dec i) (k0_off57 i) (fun _ => rfl) (fun _ _ h => h) (k0_off57_inb i) ((View.wordExact_bits rfl).reshape _ _) (fun _ _ => (View.wordExact_bits rfl).reshape _ _) _ _ W18) $$ [HS HM HC HO]
  · isplitl [HS]; · iexact HS
    isplitl [HM]; · iexact HM
    isplitl [HC]; · iexact HC
    iexact HO
  iintro ⟨HS, HM, HC, S2, %W19, HO⟩
  iapply (loadMask_wp c 𝒱₀ i 3 hl3 q wm rfl) $$ HM
  iintro HM %w20 %hw20
  have hp20 : stateAt 19 ⟨3, hl3⟩ = St.started := show stateAt 19 ⟨3, (by decide : (3 : ℕ) < 256)⟩ = St.started from by decide
  have hn20 : ∀ l : Fin 256, stateAt 20 l = Function.update (stateAt 19) ⟨3, hl3⟩ St.done l := show ∀ l : Fin 256, stateAt 20 l = Function.update (stateAt 19) ⟨3, (by decide : (3 : ℕ) < 256)⟩ St.done l from by decide
  iapply (wait_fam c 𝒱₀ arg3 (Memref.whole main_v0_0) i q ai wm hai x3 f 19 3 3 hl3 hj3 rfl hp20 hn20 w20 hw20 (k0_off59 i) rfl (k0_off59_inb i) k0_cond20 (fun _ => rfl) (k0_chk20 i) (k0_chk20.dec i) (k0_off60 i) (fun _ => rfl) (fun _ _ h => h) (k0_off60_inb i) ((View.wordExact_bits rfl).reshape _ _) (fun _ _ => (View.wordExact_bits rfl).reshape _ _) _ _ W19) $$ [HS HM HC HO]
  · isplitl [HS]; · iexact HS
    isplitl [HM]; · iexact HM
    isplitl [HC]; · iexact HC
    iexact HO
  iintro ⟨HS, HM, HC, S3, %W20, HO⟩
  iapply (loadMask_wp c 𝒱₀ i 4 hl4 q wm rfl) $$ HM
  iintro HM %w21 %hw21
  have hp21 : stateAt 20 ⟨4, hl4⟩ = St.started := show stateAt 20 ⟨4, (by decide : (4 : ℕ) < 256)⟩ = St.started from by decide
  have hn21 : ∀ l : Fin 256, stateAt 21 l = Function.update (stateAt 20) ⟨4, hl4⟩ St.done l := show ∀ l : Fin 256, stateAt 21 l = Function.update (stateAt 20) ⟨4, (by decide : (4 : ℕ) < 256)⟩ St.done l from by decide
  iapply (wait_fam c 𝒱₀ arg3 (Memref.whole main_v0_0) i q ai wm hai x3 f 20 4 4 hl4 hj4 rfl hp21 hn21 w21 hw21 (k0_off62 i) rfl (k0_off62_inb i) k0_cond21 (fun _ => rfl) (k0_chk21 i) (k0_chk21.dec i) (k0_off63 i) (fun _ => rfl) (fun _ _ h => h) (k0_off63_inb i) ((View.wordExact_bits rfl).reshape _ _) (fun _ _ => (View.wordExact_bits rfl).reshape _ _) _ _ W20) $$ [HS HM HC HO]
  · isplitl [HS]; · iexact HS
    isplitl [HM]; · iexact HM
    isplitl [HC]; · iexact HC
    iexact HO
  iintro ⟨HS, HM, HC, S4, %W21, HO⟩
  iapply (loadMask_wp c 𝒱₀ i 5 hl5 q wm rfl) $$ HM
  iintro HM %w22 %hw22
  have hp22 : stateAt 21 ⟨5, hl5⟩ = St.started := show stateAt 21 ⟨5, (by decide : (5 : ℕ) < 256)⟩ = St.started from by decide
  have hn22 : ∀ l : Fin 256, stateAt 22 l = Function.update (stateAt 21) ⟨5, hl5⟩ St.done l := show ∀ l : Fin 256, stateAt 22 l = Function.update (stateAt 21) ⟨5, (by decide : (5 : ℕ) < 256)⟩ St.done l from by decide
  iapply (wait_fam c 𝒱₀ arg3 (Memref.whole main_v0_0) i q ai wm hai x3 f 21 5 5 hl5 hj5 rfl hp22 hn22 w22 hw22 (k0_off65 i) rfl (k0_off65_inb i) k0_cond22 (fun _ => rfl) (k0_chk22 i) (k0_chk22.dec i) (k0_off66 i) (fun _ => rfl) (fun _ _ h => h) (k0_off66_inb i) ((View.wordExact_bits rfl).reshape _ _) (fun _ _ => (View.wordExact_bits rfl).reshape _ _) _ _ W21) $$ [HS HM HC HO]
  · isplitl [HS]; · iexact HS
    isplitl [HM]; · iexact HM
    isplitl [HC]; · iexact HC
    iexact HO
  iintro ⟨HS, HM, HC, S5, %W22, HO⟩
  iapply (loadMask_wp c 𝒱₀ i 6 hl6 q wm rfl) $$ HM
  iintro HM %w23 %hw23
  have hp23 : stateAt 22 ⟨6, hl6⟩ = St.started := show stateAt 22 ⟨6, (by decide : (6 : ℕ) < 256)⟩ = St.started from by decide
  have hn23 : ∀ l : Fin 256, stateAt 23 l = Function.update (stateAt 22) ⟨6, hl6⟩ St.done l := show ∀ l : Fin 256, stateAt 23 l = Function.update (stateAt 22) ⟨6, (by decide : (6 : ℕ) < 256)⟩ St.done l from by decide
  iapply (wait_fam c 𝒱₀ arg3 (Memref.whole main_v0_0) i q ai wm hai x3 f 22 6 6 hl6 hj6 rfl hp23 hn23 w23 hw23 (k0_off68 i) rfl (k0_off68_inb i) k0_cond23 (fun _ => rfl) (k0_chk23 i) (k0_chk23.dec i) (k0_off69 i) (fun _ => rfl) (fun _ _ h => h) (k0_off69_inb i) ((View.wordExact_bits rfl).reshape _ _) (fun _ _ => (View.wordExact_bits rfl).reshape _ _) _ _ W22) $$ [HS HM HC HO]
  · isplitl [HS]; · iexact HS
    isplitl [HM]; · iexact HM
    isplitl [HC]; · iexact HC
    iexact HO
  iintro ⟨HS, HM, HC, S6, %W23, HO⟩
  iapply (loadMask_wp c 𝒱₀ i 7 hl7 q wm rfl) $$ HM
  iintro HM %w24 %hw24
  rw [wp_pure]
  imodintro
  isplitr; · ipureintro; exact hw24
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 5 of the body: steps 24 to 29, and the load of the next step's mask word. -/
theorem part5_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 7 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 23 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part5 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 13 (by decide)⌝ ∗ ((c : Thread nD τ).loc main_call0_v12 ↦{q} ai) ∗ ((c : Thread nD τ).loc main_call0_v13 ↦{q} wm) ∗ cells c arg3 (Memref.whole main_v0_0) i ai wm hai x3 f 29 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part5_eq_skeleton]; unfold k0_part5_skel
  iintro ⟨HS, HM, HC, S0, S1, S2, S3, S4, S5, S6, HO⟩
  have hl7 : (7 : ℕ) < 256 := by decide
  have hl8 : (8 : ℕ) < 256 := by decide
  have hl9 : (9 : ℕ) < 256 := by decide
  have hl10 : (10 : ℕ) < 256 := by decide
  have hl11 : (11 : ℕ) < 256 := by decide
  have hl12 : (12 : ℕ) < 256 := by decide
  have hl13 : (13 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw24 : w = wordOf wm i 7 hl7 := hw
  have hp24 : stateAt 23 ⟨7, hl7⟩ = St.started := show stateAt 23 ⟨7, (by decide : (7 : ℕ) < 256)⟩ = St.started from by decide
  have hn24 : ∀ l : Fin 256, stateAt 24 l = Function.update (stateAt 23) ⟨7, hl7⟩ St.done l := show ∀ l : Fin 256, stateAt 24 l = Function.update (stateAt 23) ⟨7, (by decide : (7 : ℕ) < 256)⟩ St.done l from by decide
  iapply (wait_fam c 𝒱₀ arg3 (Memref.whole main_v0_0) i q ai wm hai x3 f 23 7 7 hl7 hj7 rfl hp24 hn24 w hw24 (k0_off71 i) rfl (k0_off71_inb i) k0_cond24 (fun _ => rfl) (k0_chk24 i) (k0_chk24.dec i) (k0_off72 i) (fun _ => rfl) (fun _ _ h => h) (k0_off72_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W24, HO⟩
  iapply (loadMask_wp c 𝒱₀ i 8 hl8 q wm rfl) $$ HM
  iintro HM %w25 %hw25
  have hp25 : stateAt 24 ⟨8, hl8⟩ = St.started := show stateAt 24 ⟨8, (by decide : (8 : ℕ) < 256)⟩ = St.started from by decide
  have hn25 : ∀ l : Fin 256, stateAt 25 l = Function.update (stateAt 24) ⟨8, hl8⟩ St.done l := show ∀ l : Fin 256, stateAt 25 l = Function.update (stateAt 24) ⟨8, (by decide : (8 : ℕ) < 256)⟩ St.done l from by decide
  iapply (wait_fam c 𝒱₀ arg3 (Memref.whole main_v0_0) i q ai wm hai x3 f 24 8 8 hl8 hj8 rfl hp25 hn25 w25 hw25 (k0_off74 i) rfl (k0_off74_inb i) k0_cond25 (fun _ => rfl) (k0_chk25 i) (k0_chk25.dec i) (k0_off75 i) (fun _ => rfl) (fun _ _ h => h) (k0_off75_inb i) ((View.wordExact_bits rfl).reshape _ _) (fun _ _ => (View.wordExact_bits rfl).reshape _ _) _ _ W24) $$ [HS HM HC HO]
  · isplitl [HS]; · iexact HS
    isplitl [HM]; · iexact HM
    isplitl [HC]; · iexact HC
    iexact HO
  iintro ⟨HS, HM, HC, S8, %W25, HO⟩
  iapply (loadMask_wp c 𝒱₀ i 9 hl9 q wm rfl) $$ HM
  iintro HM %w26 %hw26
  have hp26 : stateAt 25 ⟨9, hl9⟩ = St.started := show stateAt 25 ⟨9, (by decide : (9 : ℕ) < 256)⟩ = St.started from by decide
  have hn26 : ∀ l : Fin 256, stateAt 26 l = Function.update (stateAt 25) ⟨9, hl9⟩ St.done l := show ∀ l : Fin 256, stateAt 26 l = Function.update (stateAt 25) ⟨9, (by decide : (9 : ℕ) < 256)⟩ St.done l from by decide
  iapply (wait_fam c 𝒱₀ arg3 (Memref.whole main_v0_0) i q ai wm hai x3 f 25 9 9 hl9 hj9 rfl hp26 hn26 w26 hw26 (k0_off77 i) rfl (k0_off77_inb i) k0_cond26 (fun _ => rfl) (k0_chk26 i) (k0_chk26.dec i) (k0_off78 i) (fun _ => rfl) (fun _ _ h => h) (k0_off78_inb i) ((View.wordExact_bits rfl).reshape _ _) (fun _ _ => (View.wordExact_bits rfl).reshape _ _) _ _ W25) $$ [HS HM HC HO]
  · isplitl [HS]; · iexact HS
    isplitl [HM]; · iexact HM
    isplitl [HC]; · iexact HC
    iexact HO
  iintro ⟨HS, HM, HC, S9, %W26, HO⟩
  iapply (loadMask_wp c 𝒱₀ i 10 hl10 q wm rfl) $$ HM
  iintro HM %w27 %hw27
  have hp27 : stateAt 26 ⟨10, hl10⟩ = St.started := show stateAt 26 ⟨10, (by decide : (10 : ℕ) < 256)⟩ = St.started from by decide
  have hn27 : ∀ l : Fin 256, stateAt 27 l = Function.update (stateAt 26) ⟨10, hl10⟩ St.done l := show ∀ l : Fin 256, stateAt 27 l = Function.update (stateAt 26) ⟨10, (by decide : (10 : ℕ) < 256)⟩ St.done l from by decide
  iapply (wait_fam c 𝒱₀ arg3 (Memref.whole main_v0_0) i q ai wm hai x3 f 26 10 10 hl10 hj10 rfl hp27 hn27 w27 hw27 (k0_off80 i) rfl (k0_off80_inb i) k0_cond27 (fun _ => rfl) (k0_chk27 i) (k0_chk27.dec i) (k0_off81 i) (fun _ => rfl) (fun _ _ h => h) (k0_off81_inb i) ((View.wordExact_bits rfl).reshape _ _) (fun _ _ => (View.wordExact_bits rfl).reshape _ _) _ _ W26) $$ [HS HM HC HO]
  · isplitl [HS]; · iexact HS
    isplitl [HM]; · iexact HM
    isplitl [HC]; · iexact HC
    iexact HO
  iintro ⟨HS, HM, HC, S10, %W27, HO⟩
  iapply (loadMask_wp c 𝒱₀ i 11 hl11 q wm rfl) $$ HM
  iintro HM %w28 %hw28
  have hp28 : stateAt 27 ⟨11, hl11⟩ = St.started := show stateAt 27 ⟨11, (by decide : (11 : ℕ) < 256)⟩ = St.started from by decide
  have hn28 : ∀ l : Fin 256, stateAt 28 l = Function.update (stateAt 27) ⟨11, hl11⟩ St.done l := show ∀ l : Fin 256, stateAt 28 l = Function.update (stateAt 27) ⟨11, (by decide : (11 : ℕ) < 256)⟩ St.done l from by decide
  iapply (wait_fam c 𝒱₀ arg3 (Memref.whole main_v0_0) i q ai wm hai x3 f 27 11 11 hl11 hj11 rfl hp28 hn28 w28 hw28 (k0_off83 i) rfl (k0_off83_inb i) k0_cond28 (fun _ => rfl) (k0_chk28 i) (k0_chk28.dec i) (k0_off84 i) (fun _ => rfl) (fun _ _ h => h) (k0_off84_inb i) ((View.wordExact_bits rfl).reshape _ _) (fun _ _ => (View.wordExact_bits rfl).reshape _ _) _ _ W27) $$ [HS HM HC HO]
  · isplitl [HS]; · iexact HS
    isplitl [HM]; · iexact HM
    isplitl [HC]; · iexact HC
    iexact HO
  iintro ⟨HS, HM, HC, S11, %W28, HO⟩
  iapply (loadMask_wp c 𝒱₀ i 12 hl12 q wm rfl) $$ HM
  iintro HM %w29 %hw29
  have hp29 : stateAt 28 ⟨12, hl12⟩ = St.started := show stateAt 28 ⟨12, (by decide : (12 : ℕ) < 256)⟩ = St.started from by decide
  have hn29 : ∀ l : Fin 256, stateAt 29 l = Function.update (stateAt 28) ⟨12, hl12⟩ St.done l := show ∀ l : Fin 256, stateAt 29 l = Function.update (stateAt 28) ⟨12, (by decide : (12 : ℕ) < 256)⟩ St.done l from by decide
  iapply (wait_fam c 𝒱₀ arg3 (Memref.whole main_v0_0) i q ai wm hai x3 f 28 12 12 hl12 hj12 rfl hp29 hn29 w29 hw29 (k0_off86 i) rfl (k0_off86_inb i) k0_cond29 (fun _ => rfl) (k0_chk29 i) (k0_chk29.dec i) (k0_off87 i) (fun _ => rfl) (fun _ _ h => h) (k0_off87_inb i) ((View.wordExact_bits rfl).reshape _ _) (fun _ _ => (View.wordExact_bits rfl).reshape _ _) _ _ W28) $$ [HS HM HC HO]
  · isplitl [HS]; · iexact HS
    isplitl [HM]; · iexact HM
    isplitl [HC]; · iexact HC
    iexact HO
  iintro ⟨HS, HM, HC, S12, %W29, HO⟩
  iapply (loadMask_wp c 𝒱₀ i 13 hl13 q wm rfl) $$ HM
  iintro HM %w30 %hw30
  rw [wp_pure]
  imodintro
  isplitr; · ipureintro; exact hw30
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 6 of the body: steps 30 to 35, and the load of the next step's mask word. -/
theorem part6_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 13 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 29 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part6 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 19 (by decide)⌝ ∗ ((c : Thread nD τ).loc main_call0_v12 ↦{q} ai) ∗ ((c : Thread nD τ).loc main_call0_v13 ↦{q} wm) ∗ cells c arg3 (Memref.whole main_v0_0) i ai wm hai x3 f 35 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part6_eq_skeleton]; unfold k0_part6_skel
  iintro ⟨HS, HM, HC, S0, S1, S2, S3, S4, S5, S6, S7, S8, S9, S10, S11, S12, HO⟩
  have hl13 : (13 : ℕ) < 256 := by decide
  have hl14 : (14 : ℕ) < 256 := by decide
  have hl15 : (15 : ℕ) < 256 := by decide
  have hl16 : (16 : ℕ) < 256 := by decide
  have hl17 : (17 : ℕ) < 256 := by decide
  have hl18 : (18 : ℕ) < 256 := by decide
  have hl19 : (19 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw30 : w = wordOf wm i 13 hl13 := hw
  have hp30 : stateAt 29 ⟨13, hl13⟩ = St.started := show stateAt 29 ⟨13, (by decide : (13 : ℕ) < 256)⟩ = St.started from by decide
  have hn30 : ∀ l : Fin 256, stateAt 30 l = Function.update (stateAt 29) ⟨13, hl13⟩ St.done l := show ∀ l : Fin 256, stateAt 30 l = Function.update (stateAt 29) ⟨13, (by decide : (13 : ℕ) < 256)⟩ St.done l from by decide
  iapply (wait_fam c 𝒱₀ arg3 (Memref.whole main_v0_0) i q ai wm hai x3 f 29 13 13 hl13 hj13 rfl hp30 hn30 w hw30 (k0_off89 i) rfl (k0_off89_inb i) k0_cond30 (fun _ => rfl) (k0_chk30 i) (k0_chk30.dec i) (k0_off90 i) (fun _ => rfl) (fun _ _ h => h) (k0_off90_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W30, HO⟩
  iapply (loadMask_wp c 𝒱₀ i 14 hl14 q wm rfl) $$ HM
  iintro HM %w31 %hw31
  have hp31 : stateAt 30 ⟨14, hl14⟩ = St.started := show stateAt 30 ⟨14, (by decide : (14 : ℕ) < 256)⟩ = St.started from by decide
  have hn31 : ∀ l : Fin 256, stateAt 31 l = Function.update (stateAt 30) ⟨14, hl14⟩ St.done l := show ∀ l : Fin 256, stateAt 31 l = Function.update (stateAt 30) ⟨14, (by decide : (14 : ℕ) < 256)⟩ St.done l from by decide
  iapply (wait_fam c 𝒱₀ arg3 (Memref.whole main_v0_0) i q ai wm hai x3 f 30 14 14 hl14 hj14 rfl hp31 hn31 w31 hw31 (k0_off92 i) rfl (k0_off92_inb i) k0_cond31 (fun _ => rfl) (k0_chk31 i) (k0_chk31.dec i) (k0_off93 i) (fun _ => rfl) (fun _ _ h => h) (k0_off93_inb i) ((View.wordExact_bits rfl).reshape _ _) (fun _ _ => (View.wordExact_bits rfl).reshape _ _) _ _ W30) $$ [HS HM HC HO]
  · isplitl [HS]; · iexact HS
    isplitl [HM]; · iexact HM
    isplitl [HC]; · iexact HC
    iexact HO
  iintro ⟨HS, HM, HC, S14, %W31, HO⟩
  iapply (loadMask_wp c 𝒱₀ i 15 hl15 q wm rfl) $$ HM
  iintro HM %w32 %hw32
  have hp32 : stateAt 31 ⟨15, hl15⟩ = St.started := show stateAt 31 ⟨15, (by decide : (15 : ℕ) < 256)⟩ = St.started from by decide
  have hn32 : ∀ l : Fin 256, stateAt 32 l = Function.update (stateAt 31) ⟨15, hl15⟩ St.done l := show ∀ l : Fin 256, stateAt 32 l = Function.update (stateAt 31) ⟨15, (by decide : (15 : ℕ) < 256)⟩ St.done l from by decide
  iapply (wait_fam c 𝒱₀ arg3 (Memref.whole main_v0_0) i q ai wm hai x3 f 31 15 15 hl15 hj15 rfl hp32 hn32 w32 hw32 (k0_off95 i) rfl (k0_off95_inb i) k0_cond32 (fun _ => rfl) (k0_chk32 i) (k0_chk32.dec i) (k0_off96 i) (fun _ => rfl) (fun _ _ h => h) (k0_off96_inb i) ((View.wordExact_bits rfl).reshape _ _) (fun _ _ => (View.wordExact_bits rfl).reshape _ _) _ _ W31) $$ [HS HM HC HO]
  · isplitl [HS]; · iexact HS
    isplitl [HM]; · iexact HM
    isplitl [HC]; · iexact HC
    iexact HO
  iintro ⟨HS, HM, HC, S15, %W32, HO⟩
  iapply (loadMask_wp c 𝒱₀ i 16 hl16 q wm rfl) $$ HM
  iintro HM %w33 %hw33
  have hp33 : stateAt 32 ⟨16, hl16⟩ = St.pending := show stateAt 32 ⟨16, (by decide : (16 : ℕ) < 256)⟩ = St.pending from by decide
  have hn33 : ∀ l : Fin 256, stateAt 33 l = Function.update (stateAt 32) ⟨16, hl16⟩ St.started l := show ∀ l : Fin 256, stateAt 33 l = Function.update (stateAt 32) ⟨16, (by decide : (16 : ℕ) < 256)⟩ St.started l from by decide
  iapply (start_fam c 𝒱₀ arg3 (Memref.whole main_v0_0) i q ai wm hai x3 f 32 16 0 hl16 hj0 rfl hp33 hn33 w33 hw33 k0_cond33 (fun _ => rfl) (k0_chk33 i) (k0_chk33.dec i) (k0_off99 i) (fun _ => rfl) (fun _ _ => rfl) rfl) $$ [HS HC S0]
  · isplitl [HS]; · iexact HS
    isplitl [HC]; · iexact HC
    iexact S0
  iintro ⟨HS, HC⟩
  iapply (loadMask_wp c 𝒱₀ i 17 hl17 q wm rfl) $$ HM
  iintro HM %w34 %hw34
  have hp34 : stateAt 33 ⟨17, hl17⟩ = St.pending := show stateAt 33 ⟨17, (by decide : (17 : ℕ) < 256)⟩ = St.pending from by decide
  have hn34 : ∀ l : Fin 256, stateAt 34 l = Function.update (stateAt 33) ⟨17, hl17⟩ St.started l := show ∀ l : Fin 256, stateAt 34 l = Function.update (stateAt 33) ⟨17, (by decide : (17 : ℕ) < 256)⟩ St.started l from by decide
  iapply (start_fam c 𝒱₀ arg3 (Memref.whole main_v0_0) i q ai wm hai x3 f 33 17 1 hl17 hj1 rfl hp34 hn34 w34 hw34 k0_cond34 (fun _ => rfl) (k0_chk34 i) (k0_chk34.dec i) (k0_off102 i) (fun _ => rfl) (fun _ _ => rfl) rfl) $$ [HS HC S1]
  · isplitl [HS]; · iexact HS
    isplitl [HC]; · iexact HC
    iexact S1
  iintro ⟨HS, HC⟩
  iapply (loadMask_wp c 𝒱₀ i 18 hl18 q wm rfl) $$ HM
  iintro HM %w35 %hw35
  have hp35 : stateAt 34 ⟨18, hl18⟩ = St.pending := show stateAt 34 ⟨18, (by decide : (18 : ℕ) < 256)⟩ = St.pending from by decide
  have hn35 : ∀ l : Fin 256, stateAt 35 l = Function.update (stateAt 34) ⟨18, hl18⟩ St.started l := show ∀ l : Fin 256, stateAt 35 l = Function.update (stateAt 34) ⟨18, (by decide : (18 : ℕ) < 256)⟩ St.started l from by decide
  iapply (start_fam c 𝒱₀ arg3 (Memref.whole main_v0_0) i q ai wm hai x3 f 34 18 2 hl18 hj2 rfl hp35 hn35 w35 hw35 k0_cond35 (fun _ => rfl) (k0_chk35 i) (k0_chk35.dec i) (k0_off105 i) (fun _ => rfl) (fun _ _ => rfl) rfl) $$ [HS HC S2]
  · isplitl [HS]; · iexact HS
    isplitl [HC]; · iexact HC
    iexact S2
  iintro ⟨HS, HC⟩
  iapply (loadMask_wp c 𝒱₀ i 19 hl19 q wm rfl) $$ HM
  iintro HM %w36 %hw36
  rw [wp_pure]
  imodintro
  isplitr; · ipureintro; exact hw36
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 7 of the body: steps 36 to 41, and the load of the next step's mask word. -/
theorem part7_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 19 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 35 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part7 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 25 (by decide)⌝ ∗ ((c : Thread nD τ).loc main_call0_v12 ↦{q} ai) ∗ ((c : Thread nD τ).loc main_call0_v13 ↦{q} wm) ∗ cells c arg3 (Memref.whole main_v0_0) i ai wm hai x3 f 41 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part7_eq_skeleton]; unfold k0_part7_skel
  iintro ⟨HS, HM, HC, S3, S4, S5, S6, S7, S8, S9, S10, S11, S12, S13, S14, S15, HO⟩
  have hl19 : (19 : ℕ) < 256 := by decide
  have hl20 : (20 : ℕ) < 256 := by decide
  have hl21 : (21 : ℕ) < 256 := by decide
  have hl22 : (22 : ℕ) < 256 := by decide
  have hl23 : (23 : ℕ) < 256 := by decide
  have hl24 : (24 : ℕ) < 256 := by decide
  have hl25 : (25 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw36 : w = wordOf wm i 19 hl19 := hw
  have hp36 : stateAt 35 ⟨19, hl19⟩ = St.pending := show stateAt 35 ⟨19, (by decide : (19 : ℕ) < 256)⟩ = St.pending from by decide
  have hn36 : ∀ l : Fin 256, stateAt 36 l = Function.update (stateAt 35) ⟨19, hl19⟩ St.started l := show ∀ l : Fin 256, stateAt 36 l = Function.update (stateAt 35) ⟨19, (by decide : (19 : ℕ) < 256)⟩ St.started l from by decide
  iapply (start_fam c 𝒱₀ arg3 (Memref.whole main_v0_0) i q ai wm hai x3 f 35 19 3 hl19 hj3 rfl hp36 hn36 w hw36 k0_cond36 (fun _ => rfl) (k0_chk36 i) (k0_chk36.dec i) (k0_off108 i) (fun _ => rfl) (fun _ _ => rfl) rfl) $$ [HS HC S3]
  · isplitl [HS]; · iexact HS
    isplitl [HC]; · iexact HC
    iexact S3
  iintro ⟨HS, HC⟩
  iapply (loadMask_wp c 𝒱₀ i 20 hl20 q wm rfl) $$ HM
  iintro HM %w37 %hw37
  have hp37 : stateAt 36 ⟨20, hl20⟩ = St.pending := show stateAt 36 ⟨20, (by decide : (20 : ℕ) < 256)⟩ = St.pending from by decide
  have hn37 : ∀ l : Fin 256, stateAt 37 l = Function.update (stateAt 36) ⟨20, hl20⟩ St.started l := show ∀ l : Fin 256, stateAt 37 l = Function.update (stateAt 36) ⟨20, (by decide : (20 : ℕ) < 256)⟩ St.started l from by decide
  iapply (start_fam c 𝒱₀ arg3 (Memref.whole main_v0_0) i q ai wm hai x3 f 36 20 4 hl20 hj4 rfl hp37 hn37 w37 hw37 k0_cond37 (fun _ => rfl) (k0_chk37 i) (k0_chk37.dec i) (k0_off111 i) (fun _ => rfl) (fun _ _ => rfl) rfl) $$ [HS HC S4]
  · isplitl [HS]; · iexact HS
    isplitl [HC]; · iexact HC
    iexact S4
  iintro ⟨HS, HC⟩
  iapply (loadMask_wp c 𝒱₀ i 21 hl21 q wm rfl) $$ HM
  iintro HM %w38 %hw38
  have hp38 : stateAt 37 ⟨21, hl21⟩ = St.pending := show stateAt 37 ⟨21, (by decide : (21 : ℕ) < 256)⟩ = St.pending from by decide
  have hn38 : ∀ l : Fin 256, stateAt 38 l = Function.update (stateAt 37) ⟨21, hl21⟩ St.started l := show ∀ l : Fin 256, stateAt 38 l = Function.update (stateAt 37) ⟨21, (by decide : (21 : ℕ) < 256)⟩ St.started l from by decide
  iapply (start_fam c 𝒱₀ arg3 (Memref.whole main_v0_0) i q ai wm hai x3 f 37 21 5 hl21 hj5 rfl hp38 hn38 w38 hw38 k0_cond38 (fun _ => rfl) (k0_chk38 i) (k0_chk38.dec i) (k0_off114 i) (fun _ => rfl) (fun _ _ => rfl) rfl) $$ [HS HC S5]
  · isplitl [HS]; · iexact HS
    isplitl [HC]; · iexact HC
    iexact S5
  iintro ⟨HS, HC⟩
  iapply (loadMask_wp c 𝒱₀ i 22 hl22 q wm rfl) $$ HM
  iintro HM %w39 %hw39
  have hp39 : stateAt 38 ⟨22, hl22⟩ = St.pending := show stateAt 38 ⟨22, (by decide : (22 : ℕ) < 256)⟩ = St.pending from by decide
  have hn39 : ∀ l : Fin 256, stateAt 39 l = Function.update (stateAt 38) ⟨22, hl22⟩ St.started l := show ∀ l : Fin 256, stateAt 39 l = Function.update (stateAt 38) ⟨22, (by decide : (22 : ℕ) < 256)⟩ St.started l from by decide
  iapply (start_fam c 𝒱₀ arg3 (Memref.whole main_v0_0) i q ai wm hai x3 f 38 22 6 hl22 hj6 rfl hp39 hn39 w39 hw39 k0_cond39 (fun _ => rfl) (k0_chk39 i) (k0_chk39.dec i) (k0_off117 i) (fun _ => rfl) (fun _ _ => rfl) rfl) $$ [HS HC S6]
  · isplitl [HS]; · iexact HS
    isplitl [HC]; · iexact HC
    iexact S6
  iintro ⟨HS, HC⟩
  iapply (loadMask_wp c 𝒱₀ i 23 hl23 q wm rfl) $$ HM
  iintro HM %w40 %hw40
  have hp40 : stateAt 39 ⟨23, hl23⟩ = St.pending := show stateAt 39 ⟨23, (by decide : (23 : ℕ) < 256)⟩ = St.pending from by decide
  have hn40 : ∀ l : Fin 256, stateAt 40 l = Function.update (stateAt 39) ⟨23, hl23⟩ St.started l := show ∀ l : Fin 256, stateAt 40 l = Function.update (stateAt 39) ⟨23, (by decide : (23 : ℕ) < 256)⟩ St.started l from by decide
  iapply (start_fam c 𝒱₀ arg3 (Memref.whole main_v0_0) i q ai wm hai x3 f 39 23 7 hl23 hj7 rfl hp40 hn40 w40 hw40 k0_cond40 (fun _ => rfl) (k0_chk40 i) (k0_chk40.dec i) (k0_off120 i) (fun _ => rfl) (fun _ _ => rfl) rfl) $$ [HS HC S7]
  · isplitl [HS]; · iexact HS
    isplitl [HC]; · iexact HC
    iexact S7
  iintro ⟨HS, HC⟩
  iapply (loadMask_wp c 𝒱₀ i 24 hl24 q wm rfl) $$ HM
  iintro HM %w41 %hw41
  have hp41 : stateAt 40 ⟨24, hl24⟩ = St.pending := show stateAt 40 ⟨24, (by decide : (24 : ℕ) < 256)⟩ = St.pending from by decide
  have hn41 : ∀ l : Fin 256, stateAt 41 l = Function.update (stateAt 40) ⟨24, hl24⟩ St.started l := show ∀ l : Fin 256, stateAt 41 l = Function.update (stateAt 40) ⟨24, (by decide : (24 : ℕ) < 256)⟩ St.started l from by decide
  iapply (start_fam c 𝒱₀ arg3 (Memref.whole main_v0_0) i q ai wm hai x3 f 40 24 8 hl24 hj8 rfl hp41 hn41 w41 hw41 k0_cond41 (fun _ => rfl) (k0_chk41 i) (k0_chk41.dec i) (k0_off123 i) (fun _ => rfl) (fun _ _ => rfl) rfl) $$ [HS HC S8]
  · isplitl [HS]; · iexact HS
    isplitl [HC]; · iexact HC
    iexact S8
  iintro ⟨HS, HC⟩
  iapply (loadMask_wp c 𝒱₀ i 25 hl25 q wm rfl) $$ HM
  iintro HM %w42 %hw42
  rw [wp_pure]
  imodintro
  isplitr; · ipureintro; exact hw42
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 8 of the body: steps 42 to 47, and the load of the next step's mask word. -/
theorem part8_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 25 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 41 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part8 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 31 (by decide)⌝ ∗ ((c : Thread nD τ).loc main_call0_v12 ↦{q} ai) ∗ ((c : Thread nD τ).loc main_call0_v13 ↦{q} wm) ∗ cells c arg3 (Memref.whole main_v0_0) i ai wm hai x3 f 47 ∗ semPt c 15 (sem_inb 15 (by decide)) ∗ ∃ W', owes (c : Thread nD τ) 0 W')) := by
  rw [k0_part8_eq_skeleton]; unfold k0_part8_skel
  iintro ⟨HS, HM, HC, S9, S10, S11, S12, S13, S14, S15, HO⟩
  have hl25 : (25 : ℕ) < 256 := by decide
  have hl26 : (26 : ℕ) < 256 := by decide
  have hl27 : (27 : ℕ) < 256 := by decide
  have hl28 : (28 : ℕ) < 256 := by decide
  have hl29 : (29 : ℕ) < 256 := by decide
  have hl30 : (30 : ℕ) < 256 := by decide
  have hl31 : (31 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw42 : w = wordOf wm i 25 hl25 := hw
  have hp42 : stateAt 41 ⟨25, hl25⟩ = St.pending := show stateAt 41 ⟨25, (by decide : (25 : ℕ) < 256)⟩ = St.pending from by decide
  have hn42 : ∀ l : Fin 256, stateAt 42 l = Function.update (stateAt 41) ⟨25, hl25⟩ St.started l := show ∀ l : Fin 256, stateAt 42 l = Function.update (stateAt 41) ⟨25, (by decide : (25 : ℕ) < 256)⟩ St.started l from by decide
  iapply (start_fam c 𝒱₀ arg3 (Memref.whole main_v0_0) i q ai wm hai x3 f 41 25 9 hl25 hj9 rfl hp42 hn42 w hw42 k0_cond42 (fun _ => rfl) (k0_chk42 i) (k0_chk42.dec i) (k0_off126 i) (fun _ => rfl) (fun _ _ => rfl) rfl) $$ [HS HC S9]
  · isplitl [HS]; · iexact HS
    isplitl [HC]; · iexact HC
    iexact S9
  iintro ⟨HS, HC⟩
  iapply (loadMask_wp c 𝒱₀ i 26 hl26 q wm rfl) $$ HM
  iintro HM %w43 %hw43
  have hp43 : stateAt 42 ⟨26, hl26⟩ = St.pending := show stateAt 42 ⟨26, (by decide : (26 : ℕ) < 256)⟩ = St.pending from by decide
  have hn43 : ∀ l : Fin 256, stateAt 43 l = Function.update (stateAt 42) ⟨26, hl26⟩ St.started l := show ∀ l : Fin 256, stateAt 43 l = Function.update (stateAt 42) ⟨26, (by decide : (26 : ℕ) < 256)⟩ St.started l from by decide
  iapply (start_fam c 𝒱₀ arg3 (Memref.whole main_v0_0) i q ai wm hai x3 f 42 26 10 hl26 hj10 rfl hp43 hn43 w43 hw43 k0_cond43 (fun _ => rfl) (k0_chk43 i) (k0_chk43.dec i) (k0_off129 i) (fun _ => rfl) (fun _ _ => rfl) rfl) $$ [HS HC S10]
  · isplitl [HS]; · iexact HS
    isplitl [HC]; · iexact HC
    iexact S10
  iintro ⟨HS, HC⟩
  iapply (loadMask_wp c 𝒱₀ i 27 hl27 q wm rfl) $$ HM
  iintro HM %w44 %hw44
  have hp44 : stateAt 43 ⟨27, hl27⟩ = St.pending := show stateAt 43 ⟨27, (by decide : (27 : ℕ) < 256)⟩ = St.pending from by decide
  have hn44 : ∀ l : Fin 256, stateAt 44 l = Function.update (stateAt 43) ⟨27, hl27⟩ St.started l := show ∀ l : Fin 256, stateAt 44 l = Function.update (stateAt 43) ⟨27, (by decide : (27 : ℕ) < 256)⟩ St.started l from by decide
  iapply (start_fam c 𝒱₀ arg3 (Memref.whole main_v0_0) i q ai wm hai x3 f 43 27 11 hl27 hj11 rfl hp44 hn44 w44 hw44 k0_cond44 (fun _ => rfl) (k0_chk44 i) (k0_chk44.dec i) (k0_off132 i) (fun _ => rfl) (fun _ _ => rfl) rfl) $$ [HS HC S11]
  · isplitl [HS]; · iexact HS
    isplitl [HC]; · iexact HC
    iexact S11
  iintro ⟨HS, HC⟩
  iapply (loadMask_wp c 𝒱₀ i 28 hl28 q wm rfl) $$ HM
  iintro HM %w45 %hw45
  have hp45 : stateAt 44 ⟨28, hl28⟩ = St.pending := show stateAt 44 ⟨28, (by decide : (28 : ℕ) < 256)⟩ = St.pending from by decide
  have hn45 : ∀ l : Fin 256, stateAt 45 l = Function.update (stateAt 44) ⟨28, hl28⟩ St.started l := show ∀ l : Fin 256, stateAt 45 l = Function.update (stateAt 44) ⟨28, (by decide : (28 : ℕ) < 256)⟩ St.started l from by decide
  iapply (start_fam c 𝒱₀ arg3 (Memref.whole main_v0_0) i q ai wm hai x3 f 44 28 12 hl28 hj12 rfl hp45 hn45 w45 hw45 k0_cond45 (fun _ => rfl) (k0_chk45 i) (k0_chk45.dec i) (k0_off135 i) (fun _ => rfl) (fun _ _ => rfl) rfl) $$ [HS HC S12]
  · isplitl [HS]; · iexact HS
    isplitl [HC]; · iexact HC
    iexact S12
  iintro ⟨HS, HC⟩
  iapply (loadMask_wp c 𝒱₀ i 29 hl29 q wm rfl) $$ HM
  iintro HM %w46 %hw46
  have hp46 : stateAt 45 ⟨29, hl29⟩ = St.pending := show stateAt 45 ⟨29, (by decide : (29 : ℕ) < 256)⟩ = St.pending from by decide
  have hn46 : ∀ l : Fin 256, stateAt 46 l = Function.update (stateAt 45) ⟨29, hl29⟩ St.started l := show ∀ l : Fin 256, stateAt 46 l = Function.update (stateAt 45) ⟨29, (by decide : (29 : ℕ) < 256)⟩ St.started l from by decide
  iapply (start_fam c 𝒱₀ arg3 (Memref.whole main_v0_0) i q ai wm hai x3 f 45 29 13 hl29 hj13 rfl hp46 hn46 w46 hw46 k0_cond46 (fun _ => rfl) (k0_chk46 i) (k0_chk46.dec i) (k0_off138 i) (fun _ => rfl) (fun _ _ => rfl) rfl) $$ [HS HC S13]
  · isplitl [HS]; · iexact HS
    isplitl [HC]; · iexact HC
    iexact S13
  iintro ⟨HS, HC⟩
  iapply (loadMask_wp c 𝒱₀ i 30 hl30 q wm rfl) $$ HM
  iintro HM %w47 %hw47
  have hp47 : stateAt 46 ⟨30, hl30⟩ = St.pending := show stateAt 46 ⟨30, (by decide : (30 : ℕ) < 256)⟩ = St.pending from by decide
  have hn47 : ∀ l : Fin 256, stateAt 47 l = Function.update (stateAt 46) ⟨30, hl30⟩ St.started l := show ∀ l : Fin 256, stateAt 47 l = Function.update (stateAt 46) ⟨30, (by decide : (30 : ℕ) < 256)⟩ St.started l from by decide
  iapply (start_fam c 𝒱₀ arg3 (Memref.whole main_v0_0) i q ai wm hai x3 f 46 30 14 hl30 hj14 rfl hp47 hn47 w47 hw47 k0_cond47 (fun _ => rfl) (k0_chk47 i) (k0_chk47.dec i) (k0_off141 i) (fun _ => rfl) (fun _ _ => rfl) rfl) $$ [HS HC S14]
  · isplitl [HS]; · iexact HS
    isplitl [HC]; · iexact HC
    iexact S14
  iintro ⟨HS, HC⟩
  iapply (loadMask_wp c 𝒱₀ i 31 hl31 q wm rfl) $$ HM
  iintro HM %w48 %hw48
  rw [wp_pure]
  imodintro
  isplitr; · ipureintro; exact hw48
  isplitl [HS]; · iexact HS
  isplitl [HM]; · iexact HM
  isplitl [HC]; · iexact HC
  isplitl [S15]; · iexact S15
  iexists _; iexact HO

set_option maxHeartbeats 0 in
/-- Part 9 of the body: steps 48 to 53, and the load of the next step's mask word. -/
theorem part9_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 31 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 47 ∗ semPt c 15 (sem_inb 15 (by decide)) ∗ owes (c : Thread nD τ) 0 W)
      ⊢ wp frame (wpE (defs₀ (F := F)) 𝒱₀ (c : Thread nD τ) none) Set.univ (k0_part9 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 21 (by decide)⌝ ∗ ((c : Thread nD τ).loc main_call0_v12 ↦{q} ai) ∗ ((c : Thread nD τ).loc main_call0_v13 ↦{q} wm) ∗ cells c arg3 (Memref.whole main_v0_0) i ai wm hai x3 f 53 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part9_eq_skeleton]; unfold k0_part9_skel
  iintro ⟨HS, HM, HC, S15, HO⟩
  have hl16 : (16 : ℕ) < 256 := by decide
  have hl17 : (17 : ℕ) < 256 := by decide
  have hl18 : (18 : ℕ) < 256 := by decide
  have hl19 : (19 : ℕ) < 256 := by decide
  have hl20 : (20 : ℕ) < 256 := by decide
  have hl21 : (21 : ℕ) < 256 := by decide
  have hl31 : (31 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw48 : w = wordOf wm i 31 hl31 := hw
  have hp48 : stateAt 47 ⟨31, hl31⟩ = St.pending := show stateAt 47 ⟨31, (by decide : (31 : ℕ) < 256)⟩ = St.pending from by decide
  have hn48 : ∀ l : Fin 256, stateAt 48 l = Function.update (stateAt 47) ⟨31, hl31⟩ St.started l := show ∀ l : Fin 256, stateAt 48 l = Function.update (stateAt 47) ⟨31, (by decide : (31 : ℕ) < 256)⟩ St.started l from by decide
  iapply (start_fam c 𝒱₀ arg3 (Memref.whole main_v0_0) i q ai wm hai x3 f 47 31 15 hl31 hj15 rfl hp48 hn48 w hw48 k0_cond48 (fun _ => rfl) (k0_chk48 i) (k0_chk48.dec i) (k0_off144 i) (fun _ => rfl) (fun _ _ => rfl) rfl) $$ [HS HC S15]
  · isplitl [HS]; · iexact HS
    isplitl [HC]; · iexact HC
    iexact S15
  iintro ⟨HS, HC⟩
  iapply (loadMask_wp c 𝒱₀ i 16 hl16 q wm rfl) $$ HM
  iintro HM %w49 %hw49
  have hp49 : stateAt 48 ⟨16, hl16⟩ = St.started := show stateAt 48 ⟨16, (by decide : (16 : ℕ) < 256)⟩ = St.started from by decide
  have hn49 : ∀ l : Fin 256, stateAt 49 l = Function.update (stateAt 48) ⟨16, hl16⟩ St.done l := show ∀ l : Fin 256, stateAt 49 l = Function.update (stateAt 48) ⟨16, (by decide : (16 : ℕ) < 256)⟩ St.done l from by decide
  iapply (wait_fam c 𝒱₀ arg3 (Memref.whole main_v0_0) i q ai wm hai x3 f 48 16 0 hl16 hj0 rfl hp49 hn49 w49 hw49 (k0_off146 i) rfl (k0_off146_inb i) k0_cond49 (fun _ => rfl) (k0_chk49 i) (k0_chk49.dec i) (k0_off147 i) (fun _ => rfl) (fun _ _ h => h) (k0_off147_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W49, HO⟩
  iapply (loadMask_wp c 𝒱₀ i 17 hl17 q wm rfl) $$ HM
  iintro HM %w50 %hw50
  have hp50 : stateAt 49 ⟨17, hl17⟩ = St.started := show stateAt 49 ⟨17, (by decide : (17 : ℕ) < 256)⟩ = St.started from by decide
  have hn50 : ∀ l : Fin 256, stateAt 50 l = Function.update (stateAt 49) ⟨17, hl17⟩ St.done l := show ∀ l : Fin 256, stateAt 50 l = Function.update (stateAt 49) ⟨17, (by decide : (17 : ℕ) < 256)⟩ St.done l from by decide
  iapply (wait_fam c 𝒱₀ arg3 (Memref.whole main_v0_0) i q ai wm hai x3 f 49 17 1 hl17 hj1 rfl hp50 hn50 w50 hw50 (k0_off149 i) rfl (k0_off149_inb i) k0_cond50 (fun _ => rfl) (k0_chk50 i) (k0_chk50.dec i) (k0_off150 i) (fun _ => rfl) (fun _ _ h => h) (k0_off150_inb i) ((View.wordExact_bits rfl).reshape _ _) (fun _ _ => (View.wordExact_bits rfl).reshape _ _) _ _ W49) $$ [HS HM HC HO]
  · isplitl [HS]; · iexact HS
    isplitl [HM]; · iexact HM
    isplitl [HC]; · iexact HC
    iexact HO
  iintro ⟨HS, HM, HC, S1, %W50, HO⟩
  iapply (loadMask_wp c 𝒱₀ i 18 hl18 q wm rfl) $$ HM
  iintro HM %w51 %hw51
  have hp51 : stateAt 50 ⟨18, hl18⟩ = St.started := show stateAt 50 ⟨18, (by decide : (18 : ℕ) < 256)⟩ = St.started from by decide
  have hn51 : ∀ l : Fin 256, stateAt 51 l = Function.update (stateAt 50) ⟨18, hl18⟩ St.done l := show ∀ l : Fin 256, stateAt 51 l = Function.update (stateAt 50) ⟨18, (by decide : (18 : ℕ) < 256)⟩ St.done l from by decide
  iapply (wait_fam c 𝒱₀ arg3 (Memref.whole main_v0_0) i q ai wm hai x3 f 50 18 2 hl18 hj2 rfl hp51 hn51 w51 hw51 (k0_off152 i) rfl (k0_off152_inb i) k0_cond51 (fun _ => rfl) (k0_chk51 i) (k0_chk51.dec i) (k0_off153 i) (fun _ => rfl) (fun _ _ h => h) (k0_off153_inb i) ((View.wordExact_bits rfl).reshape _ _) (fun _ _ => (View.wordExact_bits rfl).reshape _ _) _ _ W50) $$ [HS HM HC HO]
  · isplitl [HS]; · iexact HS
    isplitl [HM]; · iexact HM
    isplitl [HC]; · iexact HC
    iexact HO
  iintro ⟨HS, HM, HC, S2, %W51, HO⟩
  iapply (loadMask_wp c 𝒱₀ i 19 hl19 q wm rfl) $$ HM
  iintro HM %w52 %hw52
  have hp52 : stateAt 51 ⟨19, hl19⟩ = St.started := show stateAt 51 ⟨19, (by decide : (19 : ℕ) < 256)⟩ = St.started from by decide
  have hn52 : ∀ l : Fin 256, stateAt 52 l = Function.update (stateAt 51) ⟨19, hl19⟩ St.done l := show ∀ l : Fin 256, stateAt 52 l = Function.update (stateAt 51) ⟨19, (by decide : (19 : ℕ) < 256)⟩ St.done l from by decide
  iapply (wait_fam c 𝒱₀ arg3 (Memref.whole main_v0_0) i q ai wm hai x3 f 51 19 3 hl19 hj3 rfl hp52 hn52 w52 hw52 (k0_off155 i) rfl (k0_off155_inb i) k0_cond52 (fun _ => rfl) (k0_chk52 i) (k0_chk52.dec i) (k0_off156 i) (fun _ => rfl) (fun _ _ h => h) (k0_off156_inb i) ((View.wordExact_bits rfl).reshape _ _) (fun _ _ => (View.wordExact_bits rfl).reshape _ _) _ _ W51) $$ [HS HM HC HO]
  · isplitl [HS]; · iexact HS
    isplitl [HM]; · iexact HM
    isplitl [HC]; · iexact HC
    iexact HO
  iintro ⟨HS, HM, HC, S3, %W52, HO⟩
  iapply (loadMask_wp c 𝒱₀ i 20 hl20 q wm rfl) $$ HM
  iintro HM %w53 %hw53
  have hp53 : stateAt 52 ⟨20, hl20⟩ = St.started := show stateAt 52 ⟨20, (by decide : (20 : ℕ) < 256)⟩ = St.started from by decide
  have hn53 : ∀ l : Fin 256, stateAt 53 l = Function.update (stateAt 52) ⟨20, hl20⟩ St.done l := show ∀ l : Fin 256, stateAt 53 l = Function.update (stateAt 52) ⟨20, (by decide : (20 : ℕ) < 256)⟩ St.done l from by decide
  iapply (wait_fam c 𝒱₀ arg3 (Memref.whole main_v0_0) i q ai wm hai x3 f 52 20 4 hl20 hj4 rfl hp53 hn53 w53 hw53 (k0_off158 i) rfl (k0_off158_inb i) k0_cond53 (fun _ => rfl) (k0_chk53 i) (k0_chk53.dec i) (k0_off159 i) (fun _ => rfl) (fun _ _ h => h) (k0_off159_inb i) ((View.wordExact_bits rfl).reshape _ _) (fun _ _ => (View.wordExact_bits rfl).reshape _ _) _ _ W52) $$ [HS HM HC HO]
  · isplitl [HS]; · iexact HS
    isplitl [HM]; · iexact HM
    isplitl [HC]; · iexact HC
    iexact HO
  iintro ⟨HS, HM, HC, S4, %W53, HO⟩
  iapply (loadMask_wp c 𝒱₀ i 21 hl21 q wm rfl) $$ HM
  iintro HM %w54 %hw54
  rw [wp_pure]
  imodintro
  isplitr; · ipureintro; exact hw54
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 10 of the body: steps 54 to 59, and the load of the next step's mask word. -/
theorem part10_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 21 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 53 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part10 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 27 (by decide)⌝ ∗ ((c : Thread nD τ).loc main_call0_v12 ↦{q} ai) ∗ ((c : Thread nD τ).loc main_call0_v13 ↦{q} wm) ∗ cells c arg3 (Memref.whole main_v0_0) i ai wm hai x3 f 59 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part10_eq_skeleton]; unfold k0_part10_skel
  iintro ⟨HS, HM, HC, S0, S1, S2, S3, S4, HO⟩
  have hl21 : (21 : ℕ) < 256 := by decide
  have hl22 : (22 : ℕ) < 256 := by decide
  have hl23 : (23 : ℕ) < 256 := by decide
  have hl24 : (24 : ℕ) < 256 := by decide
  have hl25 : (25 : ℕ) < 256 := by decide
  have hl26 : (26 : ℕ) < 256 := by decide
  have hl27 : (27 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw54 : w = wordOf wm i 21 hl21 := hw
  have hp54 : stateAt 53 ⟨21, hl21⟩ = St.started := show stateAt 53 ⟨21, (by decide : (21 : ℕ) < 256)⟩ = St.started from by decide
  have hn54 : ∀ l : Fin 256, stateAt 54 l = Function.update (stateAt 53) ⟨21, hl21⟩ St.done l := show ∀ l : Fin 256, stateAt 54 l = Function.update (stateAt 53) ⟨21, (by decide : (21 : ℕ) < 256)⟩ St.done l from by decide
  iapply (wait_fam c 𝒱₀ arg3 (Memref.whole main_v0_0) i q ai wm hai x3 f 53 21 5 hl21 hj5 rfl hp54 hn54 w hw54 (k0_off161 i) rfl (k0_off161_inb i) k0_cond54 (fun _ => rfl) (k0_chk54 i) (k0_chk54.dec i) (k0_off162 i) (fun _ => rfl) (fun _ _ h => h) (k0_off162_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W54, HO⟩
  iapply (loadMask_wp c 𝒱₀ i 22 hl22 q wm rfl) $$ HM
  iintro HM %w55 %hw55
  have hp55 : stateAt 54 ⟨22, hl22⟩ = St.started := show stateAt 54 ⟨22, (by decide : (22 : ℕ) < 256)⟩ = St.started from by decide
  have hn55 : ∀ l : Fin 256, stateAt 55 l = Function.update (stateAt 54) ⟨22, hl22⟩ St.done l := show ∀ l : Fin 256, stateAt 55 l = Function.update (stateAt 54) ⟨22, (by decide : (22 : ℕ) < 256)⟩ St.done l from by decide
  iapply (wait_fam c 𝒱₀ arg3 (Memref.whole main_v0_0) i q ai wm hai x3 f 54 22 6 hl22 hj6 rfl hp55 hn55 w55 hw55 (k0_off164 i) rfl (k0_off164_inb i) k0_cond55 (fun _ => rfl) (k0_chk55 i) (k0_chk55.dec i) (k0_off165 i) (fun _ => rfl) (fun _ _ h => h) (k0_off165_inb i) ((View.wordExact_bits rfl).reshape _ _) (fun _ _ => (View.wordExact_bits rfl).reshape _ _) _ _ W54) $$ [HS HM HC HO]
  · isplitl [HS]; · iexact HS
    isplitl [HM]; · iexact HM
    isplitl [HC]; · iexact HC
    iexact HO
  iintro ⟨HS, HM, HC, S6, %W55, HO⟩
  iapply (loadMask_wp c 𝒱₀ i 23 hl23 q wm rfl) $$ HM
  iintro HM %w56 %hw56
  have hp56 : stateAt 55 ⟨23, hl23⟩ = St.started := show stateAt 55 ⟨23, (by decide : (23 : ℕ) < 256)⟩ = St.started from by decide
  have hn56 : ∀ l : Fin 256, stateAt 56 l = Function.update (stateAt 55) ⟨23, hl23⟩ St.done l := show ∀ l : Fin 256, stateAt 56 l = Function.update (stateAt 55) ⟨23, (by decide : (23 : ℕ) < 256)⟩ St.done l from by decide
  iapply (wait_fam c 𝒱₀ arg3 (Memref.whole main_v0_0) i q ai wm hai x3 f 55 23 7 hl23 hj7 rfl hp56 hn56 w56 hw56 (k0_off167 i) rfl (k0_off167_inb i) k0_cond56 (fun _ => rfl) (k0_chk56 i) (k0_chk56.dec i) (k0_off168 i) (fun _ => rfl) (fun _ _ h => h) (k0_off168_inb i) ((View.wordExact_bits rfl).reshape _ _) (fun _ _ => (View.wordExact_bits rfl).reshape _ _) _ _ W55) $$ [HS HM HC HO]
  · isplitl [HS]; · iexact HS
    isplitl [HM]; · iexact HM
    isplitl [HC]; · iexact HC
    iexact HO
  iintro ⟨HS, HM, HC, S7, %W56, HO⟩
  iapply (loadMask_wp c 𝒱₀ i 24 hl24 q wm rfl) $$ HM
  iintro HM %w57 %hw57
  have hp57 : stateAt 56 ⟨24, hl24⟩ = St.started := show stateAt 56 ⟨24, (by decide : (24 : ℕ) < 256)⟩ = St.started from by decide
  have hn57 : ∀ l : Fin 256, stateAt 57 l = Function.update (stateAt 56) ⟨24, hl24⟩ St.done l := show ∀ l : Fin 256, stateAt 57 l = Function.update (stateAt 56) ⟨24, (by decide : (24 : ℕ) < 256)⟩ St.done l from by decide
  iapply (wait_fam c 𝒱₀ arg3 (Memref.whole main_v0_0) i q ai wm hai x3 f 56 24 8 hl24 hj8 rfl hp57 hn57 w57 hw57 (k0_off170 i) rfl (k0_off170_inb i) k0_cond57 (fun _ => rfl) (k0_chk57 i) (k0_chk57.dec i) (k0_off171 i) (fun _ => rfl) (fun _ _ h => h) (k0_off171_inb i) ((View.wordExact_bits rfl).reshape _ _) (fun _ _ => (View.wordExact_bits rfl).reshape _ _) _ _ W56) $$ [HS HM HC HO]
  · isplitl [HS]; · iexact HS
    isplitl [HM]; · iexact HM
    isplitl [HC]; · iexact HC
    iexact HO
  iintro ⟨HS, HM, HC, S8, %W57, HO⟩
  iapply (loadMask_wp c 𝒱₀ i 25 hl25 q wm rfl) $$ HM
  iintro HM %w58 %hw58
  have hp58 : stateAt 57 ⟨25, hl25⟩ = St.started := show stateAt 57 ⟨25, (by decide : (25 : ℕ) < 256)⟩ = St.started from by decide
  have hn58 : ∀ l : Fin 256, stateAt 58 l = Function.update (stateAt 57) ⟨25, hl25⟩ St.done l := show ∀ l : Fin 256, stateAt 58 l = Function.update (stateAt 57) ⟨25, (by decide : (25 : ℕ) < 256)⟩ St.done l from by decide
  iapply (wait_fam c 𝒱₀ arg3 (Memref.whole main_v0_0) i q ai wm hai x3 f 57 25 9 hl25 hj9 rfl hp58 hn58 w58 hw58 (k0_off173 i) rfl (k0_off173_inb i) k0_cond58 (fun _ => rfl) (k0_chk58 i) (k0_chk58.dec i) (k0_off174 i) (fun _ => rfl) (fun _ _ h => h) (k0_off174_inb i) ((View.wordExact_bits rfl).reshape _ _) (fun _ _ => (View.wordExact_bits rfl).reshape _ _) _ _ W57) $$ [HS HM HC HO]
  · isplitl [HS]; · iexact HS
    isplitl [HM]; · iexact HM
    isplitl [HC]; · iexact HC
    iexact HO
  iintro ⟨HS, HM, HC, S9, %W58, HO⟩
  iapply (loadMask_wp c 𝒱₀ i 26 hl26 q wm rfl) $$ HM
  iintro HM %w59 %hw59
  have hp59 : stateAt 58 ⟨26, hl26⟩ = St.started := show stateAt 58 ⟨26, (by decide : (26 : ℕ) < 256)⟩ = St.started from by decide
  have hn59 : ∀ l : Fin 256, stateAt 59 l = Function.update (stateAt 58) ⟨26, hl26⟩ St.done l := show ∀ l : Fin 256, stateAt 59 l = Function.update (stateAt 58) ⟨26, (by decide : (26 : ℕ) < 256)⟩ St.done l from by decide
  iapply (wait_fam c 𝒱₀ arg3 (Memref.whole main_v0_0) i q ai wm hai x3 f 58 26 10 hl26 hj10 rfl hp59 hn59 w59 hw59 (k0_off176 i) rfl (k0_off176_inb i) k0_cond59 (fun _ => rfl) (k0_chk59 i) (k0_chk59.dec i) (k0_off177 i) (fun _ => rfl) (fun _ _ h => h) (k0_off177_inb i) ((View.wordExact_bits rfl).reshape _ _) (fun _ _ => (View.wordExact_bits rfl).reshape _ _) _ _ W58) $$ [HS HM HC HO]
  · isplitl [HS]; · iexact HS
    isplitl [HM]; · iexact HM
    isplitl [HC]; · iexact HC
    iexact HO
  iintro ⟨HS, HM, HC, S10, %W59, HO⟩
  iapply (loadMask_wp c 𝒱₀ i 27 hl27 q wm rfl) $$ HM
  iintro HM %w60 %hw60
  rw [wp_pure]
  imodintro
  isplitr; · ipureintro; exact hw60
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 11 of the body: steps 60 to 65, and the load of the next step's mask word. -/
theorem part11_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 27 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 59 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part11 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 33 (by decide)⌝ ∗ ((c : Thread nD τ).loc main_call0_v12 ↦{q} ai) ∗ ((c : Thread nD τ).loc main_call0_v13 ↦{q} wm) ∗ cells c arg3 (Memref.whole main_v0_0) i ai wm hai x3 f 65 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part11_eq_skeleton]; unfold k0_part11_skel
  iintro ⟨HS, HM, HC, S0, S1, S2, S3, S4, S5, S6, S7, S8, S9, S10, HO⟩
  have hl27 : (27 : ℕ) < 256 := by decide
  have hl28 : (28 : ℕ) < 256 := by decide
  have hl29 : (29 : ℕ) < 256 := by decide
  have hl30 : (30 : ℕ) < 256 := by decide
  have hl31 : (31 : ℕ) < 256 := by decide
  have hl32 : (32 : ℕ) < 256 := by decide
  have hl33 : (33 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw60 : w = wordOf wm i 27 hl27 := hw
  have hp60 : stateAt 59 ⟨27, hl27⟩ = St.started := show stateAt 59 ⟨27, (by decide : (27 : ℕ) < 256)⟩ = St.started from by decide
  have hn60 : ∀ l : Fin 256, stateAt 60 l = Function.update (stateAt 59) ⟨27, hl27⟩ St.done l := show ∀ l : Fin 256, stateAt 60 l = Function.update (stateAt 59) ⟨27, (by decide : (27 : ℕ) < 256)⟩ St.done l from by decide
  iapply (wait_fam c 𝒱₀ arg3 (Memref.whole main_v0_0) i q ai wm hai x3 f 59 27 11 hl27 hj11 rfl hp60 hn60 w hw60 (k0_off179 i) rfl (k0_off179_inb i) k0_cond60 (fun _ => rfl) (k0_chk60 i) (k0_chk60.dec i) (k0_off180 i) (fun _ => rfl) (fun _ _ h => h) (k0_off180_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W60, HO⟩
  iapply (loadMask_wp c 𝒱₀ i 28 hl28 q wm rfl) $$ HM
  iintro HM %w61 %hw61
  have hp61 : stateAt 60 ⟨28, hl28⟩ = St.started := show stateAt 60 ⟨28, (by decide : (28 : ℕ) < 256)⟩ = St.started from by decide
  have hn61 : ∀ l : Fin 256, stateAt 61 l = Function.update (stateAt 60) ⟨28, hl28⟩ St.done l := show ∀ l : Fin 256, stateAt 61 l = Function.update (stateAt 60) ⟨28, (by decide : (28 : ℕ) < 256)⟩ St.done l from by decide
  iapply (wait_fam c 𝒱₀ arg3 (Memref.whole main_v0_0) i q ai wm hai x3 f 60 28 12 hl28 hj12 rfl hp61 hn61 w61 hw61 (k0_off182 i) rfl (k0_off182_inb i) k0_cond61 (fun _ => rfl) (k0_chk61 i) (k0_chk61.dec i) (k0_off183 i) (fun _ => rfl) (fun _ _ h => h) (k0_off183_inb i) ((View.wordExact_bits rfl).reshape _ _) (fun _ _ => (View.wordExact_bits rfl).reshape _ _) _ _ W60) $$ [HS HM HC HO]
  · isplitl [HS]; · iexact HS
    isplitl [HM]; · iexact HM
    isplitl [HC]; · iexact HC
    iexact HO
  iintro ⟨HS, HM, HC, S12, %W61, HO⟩
  iapply (loadMask_wp c 𝒱₀ i 29 hl29 q wm rfl) $$ HM
  iintro HM %w62 %hw62
  have hp62 : stateAt 61 ⟨29, hl29⟩ = St.started := show stateAt 61 ⟨29, (by decide : (29 : ℕ) < 256)⟩ = St.started from by decide
  have hn62 : ∀ l : Fin 256, stateAt 62 l = Function.update (stateAt 61) ⟨29, hl29⟩ St.done l := show ∀ l : Fin 256, stateAt 62 l = Function.update (stateAt 61) ⟨29, (by decide : (29 : ℕ) < 256)⟩ St.done l from by decide
  iapply (wait_fam c 𝒱₀ arg3 (Memref.whole main_v0_0) i q ai wm hai x3 f 61 29 13 hl29 hj13 rfl hp62 hn62 w62 hw62 (k0_off185 i) rfl (k0_off185_inb i) k0_cond62 (fun _ => rfl) (k0_chk62 i) (k0_chk62.dec i) (k0_off186 i) (fun _ => rfl) (fun _ _ h => h) (k0_off186_inb i) ((View.wordExact_bits rfl).reshape _ _) (fun _ _ => (View.wordExact_bits rfl).reshape _ _) _ _ W61) $$ [HS HM HC HO]
  · isplitl [HS]; · iexact HS
    isplitl [HM]; · iexact HM
    isplitl [HC]; · iexact HC
    iexact HO
  iintro ⟨HS, HM, HC, S13, %W62, HO⟩
  iapply (loadMask_wp c 𝒱₀ i 30 hl30 q wm rfl) $$ HM
  iintro HM %w63 %hw63
  have hp63 : stateAt 62 ⟨30, hl30⟩ = St.started := show stateAt 62 ⟨30, (by decide : (30 : ℕ) < 256)⟩ = St.started from by decide
  have hn63 : ∀ l : Fin 256, stateAt 63 l = Function.update (stateAt 62) ⟨30, hl30⟩ St.done l := show ∀ l : Fin 256, stateAt 63 l = Function.update (stateAt 62) ⟨30, (by decide : (30 : ℕ) < 256)⟩ St.done l from by decide
  iapply (wait_fam c 𝒱₀ arg3 (Memref.whole main_v0_0) i q ai wm hai x3 f 62 30 14 hl30 hj14 rfl hp63 hn63 w63 hw63 (k0_off188 i) rfl (k0_off188_inb i) k0_cond63 (fun _ => rfl) (k0_chk63 i) (k0_chk63.dec i) (k0_off189 i) (fun _ => rfl) (fun _ _ h => h) (k0_off189_inb i) ((View.wordExact_bits rfl).reshape _ _) (fun _ _ => (View.wordExact_bits rfl).reshape _ _) _ _ W62) $$ [HS HM HC HO]
  · isplitl [HS]; · iexact HS
    isplitl [HM]; · iexact HM
    isplitl [HC]; · iexact HC
    iexact HO
  iintro ⟨HS, HM, HC, S14, %W63, HO⟩
  iapply (loadMask_wp c 𝒱₀ i 31 hl31 q wm rfl) $$ HM
  iintro HM %w64 %hw64
  have hp64 : stateAt 63 ⟨31, hl31⟩ = St.started := show stateAt 63 ⟨31, (by decide : (31 : ℕ) < 256)⟩ = St.started from by decide
  have hn64 : ∀ l : Fin 256, stateAt 64 l = Function.update (stateAt 63) ⟨31, hl31⟩ St.done l := show ∀ l : Fin 256, stateAt 64 l = Function.update (stateAt 63) ⟨31, (by decide : (31 : ℕ) < 256)⟩ St.done l from by decide
  iapply (wait_fam c 𝒱₀ arg3 (Memref.whole main_v0_0) i q ai wm hai x3 f 63 31 15 hl31 hj15 rfl hp64 hn64 w64 hw64 (k0_off191 i) rfl (k0_off191_inb i) k0_cond64 (fun _ => rfl) (k0_chk64 i) (k0_chk64.dec i) (k0_off192 i) (fun _ => rfl) (fun _ _ h => h) (k0_off192_inb i) ((View.wordExact_bits rfl).reshape _ _) (fun _ _ => (View.wordExact_bits rfl).reshape _ _) _ _ W63) $$ [HS HM HC HO]
  · isplitl [HS]; · iexact HS
    isplitl [HM]; · iexact HM
    isplitl [HC]; · iexact HC
    iexact HO
  iintro ⟨HS, HM, HC, S15, %W64, HO⟩
  iapply (loadMask_wp c 𝒱₀ i 32 hl32 q wm rfl) $$ HM
  iintro HM %w65 %hw65
  have hp65 : stateAt 64 ⟨32, hl32⟩ = St.pending := show stateAt 64 ⟨32, (by decide : (32 : ℕ) < 256)⟩ = St.pending from by decide
  have hn65 : ∀ l : Fin 256, stateAt 65 l = Function.update (stateAt 64) ⟨32, hl32⟩ St.started l := show ∀ l : Fin 256, stateAt 65 l = Function.update (stateAt 64) ⟨32, (by decide : (32 : ℕ) < 256)⟩ St.started l from by decide
  iapply (start_fam c 𝒱₀ arg3 (Memref.whole main_v0_0) i q ai wm hai x3 f 64 32 0 hl32 hj0 rfl hp65 hn65 w65 hw65 k0_cond65 (fun _ => rfl) (k0_chk65 i) (k0_chk65.dec i) (k0_off195 i) (fun _ => rfl) (fun _ _ => rfl) rfl) $$ [HS HC S0]
  · isplitl [HS]; · iexact HS
    isplitl [HC]; · iexact HC
    iexact S0
  iintro ⟨HS, HC⟩
  iapply (loadMask_wp c 𝒱₀ i 33 hl33 q wm rfl) $$ HM
  iintro HM %w66 %hw66
  rw [wp_pure]
  imodintro
  isplitr; · ipureintro; exact hw66
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.Kernel.Cells

end
-- ==== Proof.Parts2Bits.lean ====
/-
  Parts 12 to 22 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyBits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 12 of the body: steps 66 to 71, and the load of the next step's mask word. -/
theorem part12_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 33 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 65 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part12 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 39 (by decide)⌝ ∗ ((c : Thread nD τ).loc main_call0_v12 ↦{q} ai) ∗ ((c : Thread nD τ).loc main_call0_v13 ↦{q} wm) ∗ cells c arg3 (Memref.whole main_v0_0) i ai wm hai x3 f 71 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part12_eq_skeleton]; unfold k0_part12_skel
  iintro ⟨HS, HM, HC, S1, S2, S3, S4, S5, S6, S7, S8, S9, S10, S11, S12, S13, S14, S15, HO⟩
  have hl33 : (33 : ℕ) < 256 := by decide
  have hl34 : (34 : ℕ) < 256 := by decide
  have hl35 : (35 : ℕ) < 256 := by decide
  have hl36 : (36 : ℕ) < 256 := by decide
  have hl37 : (37 : ℕ) < 256 := by decide
  have hl38 : (38 : ℕ) < 256 := by decide
  have hl39 : (39 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw66 : w = wordOf wm i 33 hl33 := hw
  have hp66 : stateAt 65 ⟨33, hl33⟩ = St.pending := show stateAt 65 ⟨33, (by decide : (33 : ℕ) < 256)⟩ = St.pending from by decide
  have hn66 : ∀ l : Fin 256, stateAt 66 l = Function.update (stateAt 65) ⟨33, hl33⟩ St.started l := show ∀ l : Fin 256, stateAt 66 l = Function.update (stateAt 65) ⟨33, (by decide : (33 : ℕ) < 256)⟩ St.started l from by decide
  iapply (start_fam c 𝒱₀ arg3 (Memref.whole main_v0_0) i q ai wm hai x3 f 65 33 1 hl33 hj1 rfl hp66 hn66 w hw66 k0_cond66 (fun _ => rfl) (k0_chk66 i) (k0_chk66.dec i) (k0_off198 i) (fun _ => rfl) (fun _ _ => rfl) rfl) $$ [HS HC S1]
  · isplitl [HS]; · iexact HS
    isplitl [HC]; · iexact HC
    iexact S1
  iintro ⟨HS, HC⟩
  iapply (loadMask_wp c 𝒱₀ i 34 hl34 q wm rfl) $$ HM
  iintro HM %w67 %hw67
  have hp67 : stateAt 66 ⟨34, hl34⟩ = St.pending := show stateAt 66 ⟨34, (by decide : (34 : ℕ) < 256)⟩ = St.pending from by decide
  have hn67 : ∀ l : Fin 256, stateAt 67 l = Function.update (stateAt 66) ⟨34, hl34⟩ St.started l := show ∀ l : Fin 256, stateAt 67 l = Function.update (stateAt 66) ⟨34, (by decide : (34 : ℕ) < 256)⟩ St.started l from by decide
  iapply (start_fam c 𝒱₀ arg3 (Memref.whole main_v0_0) i q ai wm hai x3 f 66 34 2 hl34 hj2 rfl hp67 hn67 w67 hw67 k0_cond67 (fun _ => rfl) (k0_chk67 i) (k0_chk67.dec i) (k0_off201 i) (fun _ => rfl) (fun _ _ => rfl) rfl) $$ [HS HC S2]
  · isplitl [HS]; · iexact HS
    isplitl [HC]; · iexact HC
    iexact S2
  iintro ⟨HS, HC⟩
  iapply (loadMask_wp c 𝒱₀ i 35 hl35 q wm rfl) $$ HM
  iintro HM %w68 %hw68
  have hp68 : stateAt 67 ⟨35, hl35⟩ = St.pending := show stateAt 67 ⟨35, (by decide : (35 : ℕ) < 256)⟩ = St.pending from by decide
  have hn68 : ∀ l : Fin 256, stateAt 68 l = Function.update (stateAt 67) ⟨35, hl35⟩ St.started l := show ∀ l : Fin 256, stateAt 68 l = Function.update (stateAt 67) ⟨35, (by decide : (35 : ℕ) < 256)⟩ St.started l from by decide
  iapply (start_fam c 𝒱₀ arg3 (Memref.whole main_v0_0) i q ai wm hai x3 f 67 35 3 hl35 hj3 rfl hp68 hn68 w68 hw68 k0_cond68 (fun _ => rfl) (k0_chk68 i) (k0_chk68.dec i) (k0_off204 i) (fun _ => rfl) (fun _ _ => rfl) rfl) $$ [HS HC S3]
  · isplitl [HS]; · iexact HS
    isplitl [HC]; · iexact HC
    iexact S3
  iintro ⟨HS, HC⟩
  iapply (loadMask_wp c 𝒱₀ i 36 hl36 q wm rfl) $$ HM
  iintro HM %w69 %hw69
  have hp69 : stateAt 68 ⟨36, hl36⟩ = St.pending := show stateAt 68 ⟨36, (by decide : (36 : ℕ) < 256)⟩ = St.pending from by decide
  have hn69 : ∀ l : Fin 256, stateAt 69 l = Function.update (stateAt 68) ⟨36, hl36⟩ St.started l := show ∀ l : Fin 256, stateAt 69 l = Function.update (stateAt 68) ⟨36, (by decide : (36 : ℕ) < 256)⟩ St.started l from by decide
  iapply (start_fam c 𝒱₀ arg3 (Memref.whole main_v0_0) i q ai wm hai x3 f 68 36 4 hl36 hj4 rfl hp69 hn69 w69 hw69 k0_cond69 (fun _ => rfl) (k0_chk69 i) (k0_chk69.dec i) (k0_off207 i) (fun _ => rfl) (fun _ _ => rfl) rfl) $$ [HS HC S4]
  · isplitl [HS]; · iexact HS
    isplitl [HC]; · iexact HC
    iexact S4
  iintro ⟨HS, HC⟩
  iapply (loadMask_wp c 𝒱₀ i 37 hl37 q wm rfl) $$ HM
  iintro HM %w70 %hw70
  have hp70 : stateAt 69 ⟨37, hl37⟩ = St.pending := show stateAt 69 ⟨37, (by decide : (37 : ℕ) < 256)⟩ = St.pending from by decide
  have hn70 : ∀ l : Fin 256, stateAt 70 l = Function.update (stateAt 69) ⟨37, hl37⟩ St.started l := show ∀ l : Fin 256, stateAt 70 l = Function.update (stateAt 69) ⟨37, (by decide : (37 : ℕ) < 256)⟩ St.started l from by decide
  iapply (start_fam c 𝒱₀ arg3 (Memref.whole main_v0_0) i q ai wm hai x3 f 69 37 5 hl37 hj5 rfl hp70 hn70 w70 hw70 k0_cond70 (fun _ => rfl) (k0_chk70 i) (k0_chk70.dec i) (k0_off210 i) (fun _ => rfl) (fun _ _ => rfl) rfl) $$ [HS HC S5]
  · isplitl [HS]; · iexact HS
    isplitl [HC]; · iexact HC
    iexact S5
  iintro ⟨HS, HC⟩
  iapply (loadMask_wp c 𝒱₀ i 38 hl38 q wm rfl) $$ HM
  iintro HM %w71 %hw71
  have hp71 : stateAt 70 ⟨38, hl38⟩ = St.pending := show stateAt 70 ⟨38, (by decide : (38 : ℕ) < 256)⟩ = St.pending from by decide
  have hn71 : ∀ l : Fin 256, stateAt 71 l = Function.update (stateAt 70) ⟨38, hl38⟩ St.started l := show ∀ l : Fin 256, stateAt 71 l = Function.update (stateAt 70) ⟨38, (by decide : (38 : ℕ) < 256)⟩ St.started l from by decide
  iapply (start_fam c 𝒱₀ arg3 (Memref.whole main_v0_0) i q ai wm hai x3 f 70 38 6 hl38 hj6 rfl hp71 hn71 w71 hw71 k0_cond71 (fun _ => rfl) (k0_chk71 i) (k0_chk71.dec i) (k0_off213 i) (fun _ => rfl) (fun _ _ => rfl) rfl) $$ [HS HC S6]
  · isplitl [HS]; · iexact HS
    isplitl [HC]; · iexact HC
    iexact S6
  iintro ⟨HS, HC⟩
  iapply (loadMask_wp c 𝒱₀ i 39 hl39 q wm rfl) $$ HM
  iintro HM %w72 %hw72
  rw [wp_pure]
  imodintro
  isplitr; · ipureintro; exact hw72
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 13 of the body: steps 72 to 77, and the load of the next step's mask word. -/
theorem part13_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 39 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 71 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part13 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 45 (by decide)⌝ ∗ ((c : Thread nD τ).loc main_call0_v12 ↦{q} ai) ∗ ((c : Thread nD τ).loc main_call0_v13 ↦{q} wm) ∗ cells c arg3 (Memref.whole main_v0_0) i ai wm hai x3 f 77 ∗ semPt c 13 (sem_inb 13 (by decide)) ∗ semPt c 14 (sem_inb 14 (by decide)) ∗ semPt c 15 (sem_inb 15 (by decide)) ∗ ∃ W', owes (c : Thread nD τ) 0 W')) := by
  rw [k0_part13_eq_skeleton]; unfold k0_part13_skel
  iintro ⟨HS, HM, HC, S7, S8, S9, S10, S11, S12, S13, S14, S15, HO⟩
  have hl39 : (39 : ℕ) < 256 := by decide
  have hl40 : (40 : ℕ) < 256 := by decide
  have hl41 : (41 : ℕ) < 256 := by decide
  have hl42 : (42 : ℕ) < 256 := by decide
  have hl43 : (43 : ℕ) < 256 := by decide
  have hl44 : (44 : ℕ) < 256 := by decide
  have hl45 : (45 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw72 : w = wordOf wm i 39 hl39 := hw
  have hp72 : stateAt 71 ⟨39, hl39⟩ = St.pending := show stateAt 71 ⟨39, (by decide : (39 : ℕ) < 256)⟩ = St.pending from by decide
  have hn72 : ∀ l : Fin 256, stateAt 72 l = Function.update (stateAt 71) ⟨39, hl39⟩ St.started l := show ∀ l : Fin 256, stateAt 72 l = Function.update (stateAt 71) ⟨39, (by decide : (39 : ℕ) < 256)⟩ St.started l from by decide
  iapply (start_fam c 𝒱₀ arg3 (Memref.whole main_v0_0) i q ai wm hai x3 f 71 39 7 hl39 hj7 rfl hp72 hn72 w hw72 k0_cond72 (fun _ => rfl) (k0_chk72 i) (k0_chk72.dec i) (k0_off216 i) (fun _ => rfl) (fun _ _ => rfl) rfl) $$ [HS HC S7]
  · isplitl [HS]; · iexact HS
    isplitl [HC]; · iexact HC
    iexact S7
  iintro ⟨HS, HC⟩
  iapply (loadMask_wp c 𝒱₀ i 40 hl40 q wm rfl) $$ HM
  iintro HM %w73 %hw73
  have hp73 : stateAt 72 ⟨40, hl40⟩ = St.pending := show stateAt 72 ⟨40, (by decide : (40 : ℕ) < 256)⟩ = St.pending from by decide
  have hn73 : ∀ l : Fin 256, stateAt 73 l = Function.update (stateAt 72) ⟨40, hl40⟩ St.started l := show ∀ l : Fin 256, stateAt 73 l = Function.update (stateAt 72) ⟨40, (by decide : (40 : ℕ) < 256)⟩ St.started l from by decide
  iapply (start_fam c 𝒱₀ arg3 (Memref.whole main_v0_0) i q ai wm hai x3 f 72 40 8 hl40 hj8 rfl hp73 hn73 w73 hw73 k0_cond73 (fun _ => rfl) (k0_chk73 i) (k0_chk73.dec i) (k0_off219 i) (fun _ => rfl) (fun _ _ => rfl) rfl) $$ [HS HC S8]
  · isplitl [HS]; · iexact HS
    isplitl [HC]; · iexact HC
    iexact S8
  iintro ⟨HS, HC⟩
  iapply (loadMask_wp c 𝒱₀ i 41 hl41 q wm rfl) $$ HM
  iintro HM %w74 %hw74
  have hp74 : stateAt 73 ⟨41, hl41⟩ = St.pending := show stateAt 73 ⟨41, (by decide : (41 : ℕ) < 256)⟩ = St.pending from by decide
  have hn74 : ∀ l : Fin 256, stateAt 74 l = Function.update (stateAt 73) ⟨41, hl41⟩ St.started l := show ∀ l : Fin 256, stateAt 74 l = Function.update (stateAt 73) ⟨41, (by decide : (41 : ℕ) < 256)⟩ St.started l from by decide
  iapply (start_fam c 𝒱₀ arg3 (Memref.whole main_v0_0) i q ai wm hai x3 f 73 41 9 hl41 hj9 rfl hp74 hn74 w74 hw74 k0_cond74 (fun _ => rfl) (k0_chk74 i) (k0_chk74.dec i) (k0_off222 i) (fun _ => rfl) (fun _ _ => rfl) rfl) $$ [HS HC S9]
  · isplitl [HS]; · iexact HS
    isplitl [HC]; · iexact HC
    iexact S9
  iintro ⟨HS, HC⟩
  iapply (loadMask_wp c 𝒱₀ i 42 hl42 q wm rfl) $$ HM
  iintro HM %w75 %hw75
  have hp75 : stateAt 74 ⟨42, hl42⟩ = St.pending := show stateAt 74 ⟨42, (by decide : (42 : ℕ) < 256)⟩ = St.pending from by decide
  have hn75 : ∀ l : Fin 256, stateAt 75 l = Function.update (stateAt 74) ⟨42, hl42⟩ St.started l := show ∀ l : Fin 256, stateAt 75 l = Function.update (stateAt 74) ⟨42, (by decide : (42 : ℕ) < 256)⟩ St.started l from by decide
  iapply (start_fam c 𝒱₀ arg3 (Memref.whole main_v0_0) i q ai wm hai x3 f 74 42 10 hl42 hj10 rfl hp75 hn75 w75 hw75 k0_cond75 (fun _ => rfl) (k0_chk75 i) (k0_chk75.dec i) (k0_off225 i) (fun _ => rfl) (fun _ _ => rfl) rfl) $$ [HS HC S10]
  · isplitl [HS]; · iexact HS
    isplitl [HC]; · iexact HC
    iexact S10
  iintro ⟨HS, HC⟩
  iapply (loadMask_wp c 𝒱₀ i 43 hl43 q wm rfl) $$ HM
  iintro HM %w76 %hw76
  have hp76 : stateAt 75 ⟨43, hl43⟩ = St.pending := show stateAt 75 ⟨43, (by decide : (43 : ℕ) < 256)⟩ = St.pending from by decide
  have hn76 : ∀ l : Fin 256, stateAt 76 l = Function.update (stateAt 75) ⟨43, hl43⟩ St.started l := show ∀ l : Fin 256, stateAt 76 l = Function.update (stateAt 75) ⟨43, (by decide : (43 : ℕ) < 256)⟩ St.started l from by decide
  iapply (start_fam c 𝒱₀ arg3 (Memref.whole main_v0_0) i q ai wm hai x3 f 75 43 11 hl43 hj11 rfl hp76 hn76 w76 hw76 k0_cond76 (fun _ => rfl) (k0_chk76 i) (k0_chk76.dec i) (k0_off228 i) (fun _ => rfl) (fun _ _ => rfl) rfl) $$ [HS HC S11]
  · isplitl [HS]; · iexact HS
    isplitl [HC]; · iexact HC
    iexact S11
  iintro ⟨HS, HC⟩
  iapply (loadMask_wp c 𝒱₀ i 44 hl44 q wm rfl) $$ HM
  iintro HM %w77 %hw77
  have hp77 : stateAt 76 ⟨44, hl44⟩ = St.pending := show stateAt 76 ⟨44, (by decide : (44 : ℕ) < 256)⟩ = St.pending from by decide
  have hn77 : ∀ l : Fin 256, stateAt 77 l = Function.update (stateAt 76) ⟨44, hl44⟩ St.started l := show ∀ l : Fin 256, stateAt 77 l = Function.update (stateAt 76) ⟨44, (by decide : (44 : ℕ) < 256)⟩ St.started l from by decide
  iapply (start_fam c 𝒱₀ arg3 (Memref.whole main_v0_0) i q ai wm hai x3 f 76 44 12 hl44 hj12 rfl hp77 hn77 w77 hw77 k0_cond77 (fun _ => rfl) (k0_chk77 i) (k0_chk77.dec i) (k0_off231 i) (fun _ => rfl) (fun _ _ => rfl) rfl) $$ [HS HC S12]
  · isplitl [HS]; · iexact HS
    isplitl [HC]; · iexact HC
    iexact S12
  iintro ⟨HS, HC⟩
  iapply (loadMask_wp c 𝒱₀ i 45 hl45 q wm rfl) $$ HM
  iintro HM %w78 %hw78
  rw [wp_pure]
  imodintro
  isplitr; · ipureintro; exact hw78
  isplitl [HS]; · iexact HS
  isplitl [HM]; · iexact HM
  isplitl [HC]; · iexact HC
  isplitl [S13]; · iexact S13
  isplitl [S14]; · iexact S14
  isplitl [S15]; · iexact S15
  iexists _; iexact HO

set_option maxHeartbeats 0 in
/-- Part 14 of the body: steps 78 to 83, and the load of the next step's mask word. -/
theorem part14_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 45 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 77 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part14 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 35 (by decide)⌝ ∗ ((c : Thread nD τ).loc main_call0_v12 ↦{q} ai) ∗ ((c : Thread nD τ).loc main_call0_v13 ↦{q} wm) ∗ cells c arg3 (Memref.whole main_v0_0) i ai wm hai x3 f 83 ∗ semPt c 0 (sem_inb 0 (by decide)) ∗ semPt c 1 (sem_inb 1 (by decide)) ∗ semPt c 2 (sem_inb 2 (by decide)) ∗ ∃ W', owes (c : Thread nD τ) 0 W')) := by
  rw [k0_part14_eq_skeleton]; unfold k0_part14_skel
  iintro ⟨HS, HM, HC, S13, S14, S15, HO⟩
  have hl32 : (32 : ℕ) < 256 := by decide
  have hl33 : (33 : ℕ) < 256 := by decide
  have hl34 : (34 : ℕ) < 256 := by decide
  have hl35 : (35 : ℕ) < 256 := by decide
  have hl45 : (45 : ℕ) < 256 := by decide
  have hl46 : (46 : ℕ) < 256 := by decide
  have hl47 : (47 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw78 : w = wordOf wm i 45 hl45 := hw
  have hp78 : stateAt 77 ⟨45, hl45⟩ = St.pending := show stateAt 77 ⟨45, (by decide : (45 : ℕ) < 256)⟩ = St.pending from by decide
  have hn78 : ∀ l : Fin 256, stateAt 78 l = Function.update (stateAt 77) ⟨45, hl45⟩ St.started l := show ∀ l : Fin 256, stateAt 78 l = Function.update (stateAt 77) ⟨45, (by decide : (45 : ℕ) < 256)⟩ St.started l from by decide
  iapply (start_fam c 𝒱₀ arg3 (Memref.whole main_v0_0) i q ai wm hai x3 f 77 45 13 hl45 hj13 rfl hp78 hn78 w hw78 k0_cond78 (fun _ => rfl) (k0_chk78 i) (k0_chk78.dec i) (k0_off234 i) (fun _ => rfl) (fun _ _ => rfl) rfl) $$ [HS HC S13]
  · isplitl [HS]; · iexact HS
    isplitl [HC]; · iexact HC
    iexact S13
  iintro ⟨HS, HC⟩
  iapply (loadMask_wp c 𝒱₀ i 46 hl46 q wm rfl) $$ HM
  iintro HM %w79 %hw79
  have hp79 : stateAt 78 ⟨46, hl46⟩ = St.pending := show stateAt 78 ⟨46, (by decide : (46 : ℕ) < 256)⟩ = St.pending from by decide
  have hn79 : ∀ l : Fin 256, stateAt 79 l = Function.update (stateAt 78) ⟨46, hl46⟩ St.started l := show ∀ l : Fin 256, stateAt 79 l = Function.update (stateAt 78) ⟨46, (by decide : (46 : ℕ) < 256)⟩ St.started l from by decide
  iapply (start_fam c 𝒱₀ arg3 (Memref.whole main_v0_0) i q ai wm hai x3 f 78 46 14 hl46 hj14 rfl hp79 hn79 w79 hw79 k0_cond79 (fun _ => rfl) (k0_chk79 i) (k0_chk79.dec i) (k0_off237 i) (fun _ => rfl) (fun _ _ => rfl) rfl) $$ [HS HC S14]
  · isplitl [HS]; · iexact HS
    isplitl [HC]; · iexact HC
    iexact S14
  iintro ⟨HS, HC⟩
  iapply (loadMask_wp c 𝒱₀ i 47 hl47 q wm rfl) $$ HM
  iintro HM %w80 %hw80
  have hp80 : stateAt 79 ⟨47, hl47⟩ = St.pending := show stateAt 79 ⟨47, (by decide : (47 : ℕ) < 256)⟩ = St.pending from by decide
  have hn80 : ∀ l : Fin 256, stateAt 80 l = Function.update (stateAt 79) ⟨47, hl47⟩ St.started l := show ∀ l : Fin 256, stateAt 80 l = Function.update (stateAt 79) ⟨47, (by decide : (47 : ℕ) < 256)⟩ St.started l from by decide
  iapply (start_fam c 𝒱₀ arg3 (Memref.whole main_v0_0) i q ai wm hai x3 f 79 47 15 hl47 hj15 rfl hp80 hn80 w80 hw80 k0_cond80 (fun _ => rfl) (k0_chk80 i) (k0_chk80.dec i) (k0_off240 i) (fun _ => rfl) (fun _ _ => rfl) rfl) $$ [HS HC S15]
  · isplitl [HS]; · iexact HS
    isplitl [HC]; · iexact HC
    iexact S15
  iintro ⟨HS, HC⟩
  iapply (loadMask_wp c 𝒱₀ i 32 hl32 q wm rfl) $$ HM
  iintro HM %w81 %hw81
  have hp81 : stateAt 80 ⟨32, hl32⟩ = St.started := show stateAt 80 ⟨32, (by decide : (32 : ℕ) < 256)⟩ = St.started from by decide
  have hn81 : ∀ l : Fin 256, stateAt 81 l = Function.update (stateAt 80) ⟨32, hl32⟩ St.done l := show ∀ l : Fin 256, stateAt 81 l = Function.update (stateAt 80) ⟨32, (by decide : (32 : ℕ) < 256)⟩ St.done l from by decide
  iapply (wait_fam c 𝒱₀ arg3 (Memref.whole main_v0_0) i q ai wm hai x3 f 80 32 0 hl32 hj0 rfl hp81 hn81 w81 hw81 (k0_off242 i) rfl (k0_off242_inb i) k0_cond81 (fun _ => rfl) (k0_chk81 i) (k0_chk81.dec i) (k0_off243 i) (fun _ => rfl) (fun _ _ h => h) (k0_off243_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W81, HO⟩
  iapply (loadMask_wp c 𝒱₀ i 33 hl33 q wm rfl) $$ HM
  iintro HM %w82 %hw82
  have hp82 : stateAt 81 ⟨33, hl33⟩ = St.started := show stateAt 81 ⟨33, (by decide : (33 : ℕ) < 256)⟩ = St.started from by decide
  have hn82 : ∀ l : Fin 256, stateAt 82 l = Function.update (stateAt 81) ⟨33, hl33⟩ St.done l := show ∀ l : Fin 256, stateAt 82 l = Function.update (stateAt 81) ⟨33, (by decide : (33 : ℕ) < 256)⟩ St.done l from by decide
  iapply (wait_fam c 𝒱₀ arg3 (Memref.whole main_v0_0) i q ai wm hai x3 f 81 33 1 hl33 hj1 rfl hp82 hn82 w82 hw82 (k0_off245 i) rfl (k0_off245_inb i) k0_cond82 (fun _ => rfl) (k0_chk82 i) (k0_chk82.dec i) (k0_off246 i) (fun _ => rfl) (fun _ _ h => h) (k0_off246_inb i) ((View.wordExact_bits rfl).reshape _ _) (fun _ _ => (View.wordExact_bits rfl).reshape _ _) _ _ W81) $$ [HS HM HC HO]
  · isplitl [HS]; · iexact HS
    isplitl [HM]; · iexact HM
    isplitl [HC]; · iexact HC
    iexact HO
  iintro ⟨HS, HM, HC, S1, %W82, HO⟩
  iapply (loadMask_wp c 𝒱₀ i 34 hl34 q wm rfl) $$ HM
  iintro HM %w83 %hw83
  have hp83 : stateAt 82 ⟨34, hl34⟩ = St.started := show stateAt 82 ⟨34, (by decide : (34 : ℕ) < 256)⟩ = St.started from by decide
  have hn83 : ∀ l : Fin 256, stateAt 83 l = Function.update (stateAt 82) ⟨34, hl34⟩ St.done l := show ∀ l : Fin 256, stateAt 83 l = Function.update (stateAt 82) ⟨34, (by decide : (34 : ℕ) < 256)⟩ St.done l from by decide
  iapply (wait_fam c 𝒱₀ arg3 (Memref.whole main_v0_0) i q ai wm hai x3 f 82 34 2 hl34 hj2 rfl hp83 hn83 w83 hw83 (k0_off248 i) rfl (k0_off248_inb i) k0_cond83 (fun _ => rfl) (k0_chk83 i) (k0_chk83.dec i) (k0_off249 i) (fun _ => rfl) (fun _ _ h => h) (k0_off249_inb i) ((View.wordExact_bits rfl).reshape _ _) (fun _ _ => (View.wordExact_bits rfl).reshape _ _) _ _ W82) $$ [HS HM HC HO]
  · isplitl [HS]; · iexact HS
    isplitl [HM]; · iexact HM
    isplitl [HC]; · iexact HC
    iexact HO
  iintro ⟨HS, HM, HC, S2, %W83, HO⟩
  iapply (loadMask_wp c 𝒱₀ i 35 hl35 q wm rfl) $$ HM
  iintro HM %w84 %hw84
  rw [wp_pure]
  imodintro
  isplitr; · ipureintro; exact hw84
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 15 of the body: steps 84 to 89, and the load of the next step's mask word. -/
theorem part15_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 35 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 83 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part15 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 41 (by decide)⌝ ∗ ((c : Thread nD τ).loc main_call0_v12 ↦{q} ai) ∗ ((c : Thread nD τ).loc main_call0_v13 ↦{q} wm) ∗ cells c arg3 (Memref.whole main_v0_0) i ai wm hai x3 f 89 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part15_eq_skeleton]; unfold k0_part15_skel
  iintro ⟨HS, HM, HC, S0, S1, S2, HO⟩
  have hl35 : (35 : ℕ) < 256 := by decide
  have hl36 : (36 : ℕ) < 256 := by decide
  have hl37 : (37 : ℕ) < 256 := by decide
  have hl38 : (38 : ℕ) < 256 := by decide
  have hl39 : (39 : ℕ) < 256 := by decide
  have hl40 : (40 : ℕ) < 256 := by decide
  have hl41 : (41 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw84 : w = wordOf wm i 35 hl35 := hw
  have hp84 : stateAt 83 ⟨35, hl35⟩ = St.started := show stateAt 83 ⟨35, (by decide : (35 : ℕ) < 256)⟩ = St.started from by decide
  have hn84 : ∀ l : Fin 256, stateAt 84 l = Function.update (stateAt 83) ⟨35, hl35⟩ St.done l := show ∀ l : Fin 256, stateAt 84 l = Function.update (stateAt 83) ⟨35, (by decide : (35 : ℕ) < 256)⟩ St.done l from by decide
  iapply (wait_fam c 𝒱₀ arg3 (Memref.whole main_v0_0) i q ai wm hai x3 f 83 35 3 hl35 hj3 rfl hp84 hn84 w hw84 (k0_off251 i) rfl (k0_off251_inb i) k0_cond84 (fun _ => rfl) (k0_chk84 i) (k0_chk84.dec i) (k0_off252 i) (fun _ => rfl) (fun _ _ h => h) (k0_off252_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W84, HO⟩
  iapply (loadMask_wp c 𝒱₀ i 36 hl36 q wm rfl) $$ HM
  iintro HM %w85 %hw85
  have hp85 : stateAt 84 ⟨36, hl36⟩ = St.started := show stateAt 84 ⟨36, (by decide : (36 : ℕ) < 256)⟩ = St.started from by decide
  have hn85 : ∀ l : Fin 256, stateAt 85 l = Function.update (stateAt 84) ⟨36, hl36⟩ St.done l := show ∀ l : Fin 256, stateAt 85 l = Function.update (stateAt 84) ⟨36, (by decide : (36 : ℕ) < 256)⟩ St.done l from by decide
  iapply (wait_fam c 𝒱₀ arg3 (Memref.whole main_v0_0) i q ai wm hai x3 f 84 36 4 hl36 hj4 rfl hp85 hn85 w85 hw85 (k0_off254 i) rfl (k0_off254_inb i) k0_cond85 (fun _ => rfl) (k0_chk85 i) (k0_chk85.dec i) (k0_off255 i) (fun _ => rfl) (fun _ _ h => h) (k0_off255_inb i) ((View.wordExact_bits rfl).reshape _ _) (fun _ _ => (View.wordExact_bits rfl).reshape _ _) _ _ W84) $$ [HS HM HC HO]
  · isplitl [HS]; · iexact HS
    isplitl [HM]; · iexact HM
    isplitl [HC]; · iexact HC
    iexact HO
  iintro ⟨HS, HM, HC, S4, %W85, HO⟩
  iapply (loadMask_wp c 𝒱₀ i 37 hl37 q wm rfl) $$ HM
  iintro HM %w86 %hw86
  have hp86 : stateAt 85 ⟨37, hl37⟩ = St.started := show stateAt 85 ⟨37, (by decide : (37 : ℕ) < 256)⟩ = St.started from by decide
  have hn86 : ∀ l : Fin 256, stateAt 86 l = Function.update (stateAt 85) ⟨37, hl37⟩ St.done l := show ∀ l : Fin 256, stateAt 86 l = Function.update (stateAt 85) ⟨37, (by decide : (37 : ℕ) < 256)⟩ St.done l from by decide
  iapply (wait_fam c 𝒱₀ arg3 (Memref.whole main_v0_0) i q ai wm hai x3 f 85 37 5 hl37 hj5 rfl hp86 hn86 w86 hw86 (k0_off257 i) rfl (k0_off257_inb i) k0_cond86 (fun _ => rfl) (k0_chk86 i) (k0_chk86.dec i) (k0_off258 i) (fun _ => rfl) (fun _ _ h => h) (k0_off258_inb i) ((View.wordExact_bits rfl).reshape _ _) (fun _ _ => (View.wordExact_bits rfl).reshape _ _) _ _ W85) $$ [HS HM HC HO]
  · isplitl [HS]; · iexact HS
    isplitl [HM]; · iexact HM
    isplitl [HC]; · iexact HC
    iexact HO
  iintro ⟨HS, HM, HC, S5, %W86, HO⟩
  iapply (loadMask_wp c 𝒱₀ i 38 hl38 q wm rfl) $$ HM
  iintro HM %w87 %hw87
  have hp87 : stateAt 86 ⟨38, hl38⟩ = St.started := show stateAt 86 ⟨38, (by decide : (38 : ℕ) < 256)⟩ = St.started from by decide
  have hn87 : ∀ l : Fin 256, stateAt 87 l = Function.update (stateAt 86) ⟨38, hl38⟩ St.done l := show ∀ l : Fin 256, stateAt 87 l = Function.update (stateAt 86) ⟨38, (by decide : (38 : ℕ) < 256)⟩ St.done l from by decide
  iapply (wait_fam c 𝒱₀ arg3 (Memref.whole main_v0_0) i q ai wm hai x3 f 86 38 6 hl38 hj6 rfl hp87 hn87 w87 hw87 (k0_off260 i) rfl (k0_off260_inb i) k0_cond87 (fun _ => rfl) (k0_chk87 i) (k0_chk87.dec i) (k0_off261 i) (fun _ => rfl) (fun _ _ h => h) (k0_off261_inb i) ((View.wordExact_bits rfl).reshape _ _) (fun _ _ => (View.wordExact_bits rfl).reshape _ _) _ _ W86) $$ [HS HM HC HO]
  · isplitl [HS]; · iexact HS
    isplitl [HM]; · iexact HM
    isplitl [HC]; · iexact HC
    iexact HO
  iintro ⟨HS, HM, HC, S6, %W87, HO⟩
  iapply (loadMask_wp c 𝒱₀ i 39 hl39 q wm rfl) $$ HM
  iintro HM %w88 %hw88
  have hp88 : stateAt 87 ⟨39, hl39⟩ = St.started := show stateAt 87 ⟨39, (by decide : (39 : ℕ) < 256)⟩ = St.started from by decide
  have hn88 : ∀ l : Fin 256, stateAt 88 l = Function.update (stateAt 87) ⟨39, hl39⟩ St.done l := show ∀ l : Fin 256, stateAt 88 l = Function.update (stateAt 87) ⟨39, (by decide : (39 : ℕ) < 256)⟩ St.done l from by decide
  iapply (wait_fam c 𝒱₀ arg3 (Memref.whole main_v0_0) i q ai wm hai x3 f 87 39 7 hl39 hj7 rfl hp88 hn88 w88 hw88 (k0_off263 i) rfl (k0_off263_inb i) k0_cond88 (fun _ => rfl) (k0_chk88 i) (k0_chk88.dec i) (k0_off264 i) (fun _ => rfl) (fun _ _ h => h) (k0_off264_inb i) ((View.wordExact_bits rfl).reshape _ _) (fun _ _ => (View.wordExact_bits rfl).reshape _ _) _ _ W87) $$ [HS HM HC HO]
  · isplitl [HS]; · iexact HS
    isplitl [HM]; · iexact HM
    isplitl [HC]; · iexact HC
    iexact HO
  iintro ⟨HS, HM, HC, S7, %W88, HO⟩
  iapply (loadMask_wp c 𝒱₀ i 40 hl40 q wm rfl) $$ HM
  iintro HM %w89 %hw89
  have hp89 : stateAt 88 ⟨40, hl40⟩ = St.started := show stateAt 88 ⟨40, (by decide : (40 : ℕ) < 256)⟩ = St.started from by decide
  have hn89 : ∀ l : Fin 256, stateAt 89 l = Function.update (stateAt 88) ⟨40, hl40⟩ St.done l := show ∀ l : Fin 256, stateAt 89 l = Function.update (stateAt 88) ⟨40, (by decide : (40 : ℕ) < 256)⟩ St.done l from by decide
  iapply (wait_fam c 𝒱₀ arg3 (Memref.whole main_v0_0) i q ai wm hai x3 f 88 40 8 hl40 hj8 rfl hp89 hn89 w89 hw89 (k0_off266 i) rfl (k0_off266_inb i) k0_cond89 (fun _ => rfl) (k0_chk89 i) (k0_chk89.dec i) (k0_off267 i) (fun _ => rfl) (fun _ _ h => h) (k0_off267_inb i) ((View.wordExact_bits rfl).reshape _ _) (fun _ _ => (View.wordExact_bits rfl).reshape _ _) _ _ W88) $$ [HS HM HC HO]
  · isplitl [HS]; · iexact HS
    isplitl [HM]; · iexact HM
    isplitl [HC]; · iexact HC
    iexact HO
  iintro ⟨HS, HM, HC, S8, %W89, HO⟩
  iapply (loadMask_wp c 𝒱₀ i 41 hl41 q wm rfl) $$ HM
  iintro HM %w90 %hw90
  rw [wp_pure]
  imodintro
  isplitr; · ipureintro; exact hw90
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 16 of the body: steps 90 to 95, and the load of the next step's mask word. -/
theorem part16_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 41 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 89 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part16 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 47 (by decide)⌝ ∗ ((c : Thread nD τ).loc main_call0_v12 ↦{q} ai) ∗ ((c : Thread nD τ).loc main_call0_v13 ↦{q} wm) ∗ cells c arg3 (Memref.whole main_v0_0) i ai wm hai x3 f 95 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part16_eq_skeleton]; unfold k0_part16_skel
  iintro ⟨HS, HM, HC, S0, S1, S2, S3, S4, S5, S6, S7, S8, HO⟩
  have hl41 : (41 : ℕ) < 256 := by decide
  have hl42 : (42 : ℕ) < 256 := by decide
  have hl43 : (43 : ℕ) < 256 := by decide
  have hl44 : (44 : ℕ) < 256 := by decide
  have hl45 : (45 : ℕ) < 256 := by decide
  have hl46 : (46 : ℕ) < 256 := by decide
  have hl47 : (47 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw90 : w = wordOf wm i 41 hl41 := hw
  have hp90 : stateAt 89 ⟨41, hl41⟩ = St.started := show stateAt 89 ⟨41, (by decide : (41 : ℕ) < 256)⟩ = St.started from by decide
  have hn90 : ∀ l : Fin 256, stateAt 90 l = Function.update (stateAt 89) ⟨41, hl41⟩ St.done l := show ∀ l : Fin 256, stateAt 90 l = Function.update (stateAt 89) ⟨41, (by decide : (41 : ℕ) < 256)⟩ St.done l from by decide
  iapply (wait_fam c 𝒱₀ arg3 (Memref.whole main_v0_0) i q ai wm hai x3 f 89 41 9 hl41 hj9 rfl hp90 hn90 w hw90 (k0_off269 i) rfl (k0_off269_inb i) k0_cond90 (fun _ => rfl) (k0_chk90 i) (k0_chk90.dec i) (k0_off270 i) (fun _ => rfl) (fun _ _ h => h) (k0_off270_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W90, HO⟩
  iapply (loadMask_wp c 𝒱₀ i 42 hl42 q wm rfl) $$ HM
  iintro HM %w91 %hw91
  have hp91 : stateAt 90 ⟨42, hl42⟩ = St.started := show stateAt 90 ⟨42, (by decide : (42 : ℕ) < 256)⟩ = St.started from by decide
  have hn91 : ∀ l : Fin 256, stateAt 91 l = Function.update (stateAt 90) ⟨42, hl42⟩ St.done l := show ∀ l : Fin 256, stateAt 91 l = Function.update (stateAt 90) ⟨42, (by decide : (42 : ℕ) < 256)⟩ St.done l from by decide
  iapply (wait_fam c 𝒱₀ arg3 (Memref.whole main_v0_0) i q ai wm hai x3 f 90 42 10 hl42 hj10 rfl hp91 hn91 w91 hw91 (k0_off272 i) rfl (k0_off272_inb i) k0_cond91 (fun _ => rfl) (k0_chk91 i) (k0_chk91.dec i) (k0_off273 i) (fun _ => rfl) (fun _ _ h => h) (k0_off273_inb i) ((View.wordExact_bits rfl).reshape _ _) (fun _ _ => (View.wordExact_bits rfl).reshape _ _) _ _ W90) $$ [HS HM HC HO]
  · isplitl [HS]; · iexact HS
    isplitl [HM]; · iexact HM
    isplitl [HC]; · iexact HC
    iexact HO
  iintro ⟨HS, HM, HC, S10, %W91, HO⟩
  iapply (loadMask_wp c 𝒱₀ i 43 hl43 q wm rfl) $$ HM
  iintro HM %w92 %hw92
  have hp92 : stateAt 91 ⟨43, hl43⟩ = St.started := show stateAt 91 ⟨43, (by decide : (43 : ℕ) < 256)⟩ = St.started from by decide
  have hn92 : ∀ l : Fin 256, stateAt 92 l = Function.update (stateAt 91) ⟨43, hl43⟩ St.done l := show ∀ l : Fin 256, stateAt 92 l = Function.update (stateAt 91) ⟨43, (by decide : (43 : ℕ) < 256)⟩ St.done l from by decide
  iapply (wait_fam c 𝒱₀ arg3 (Memref.whole main_v0_0) i q ai wm hai x3 f 91 43 11 hl43 hj11 rfl hp92 hn92 w92 hw92 (k0_off275 i) rfl (k0_off275_inb i) k0_cond92 (fun _ => rfl) (k0_chk92 i) (k0_chk92.dec i) (k0_off276 i) (fun _ => rfl) (fun _ _ h => h) (k0_off276_inb i) ((View.wordExact_bits rfl).reshape _ _) (fun _ _ => (View.wordExact_bits rfl).reshape _ _) _ _ W91) $$ [HS HM HC HO]
  · isplitl [HS]; · iexact HS
    isplitl [HM]; · iexact HM
    isplitl [HC]; · iexact HC
    iexact HO
  iintro ⟨HS, HM, HC, S11, %W92, HO⟩
  iapply (loadMask_wp c 𝒱₀ i 44 hl44 q wm rfl) $$ HM
  iintro HM %w93 %hw93
  have hp93 : stateAt 92 ⟨44, hl44⟩ = St.started := show stateAt 92 ⟨44, (by decide : (44 : ℕ) < 256)⟩ = St.started from by decide
  have hn93 : ∀ l : Fin 256, stateAt 93 l = Function.update (stateAt 92) ⟨44, hl44⟩ St.done l := show ∀ l : Fin 256, stateAt 93 l = Function.update (stateAt 92) ⟨44, (by decide : (44 : ℕ) < 256)⟩ St.done l from by decide
  iapply (wait_fam c 𝒱₀ arg3 (Memref.whole main_v0_0) i q ai wm hai x3 f 92 44 12 hl44 hj12 rfl hp93 hn93 w93 hw93 (k0_off278 i) rfl (k0_off278_inb i) k0_cond93 (fun _ => rfl) (k0_chk93 i) (k0_chk93.dec i) (k0_off279 i) (fun _ => rfl) (fun _ _ h => h) (k0_off279_inb i) ((View.wordExact_bits rfl).reshape _ _) (fun _ _ => (View.wordExact_bits rfl).reshape _ _) _ _ W92) $$ [HS HM HC HO]
  · isplitl [HS]; · iexact HS
    isplitl [HM]; · iexact HM
    isplitl [HC]; · iexact HC
    iexact HO
  iintro ⟨HS, HM, HC, S12, %W93, HO⟩
  iapply (loadMask_wp c 𝒱₀ i 45 hl45 q wm rfl) $$ HM
  iintro HM %w94 %hw94
  have hp94 : stateAt 93 ⟨45, hl45⟩ = St.started := show stateAt 93 ⟨45, (by decide : (45 : ℕ) < 256)⟩ = St.started from by decide
  have hn94 : ∀ l : Fin 256, stateAt 94 l = Function.update (stateAt 93) ⟨45, hl45⟩ St.done l := show ∀ l : Fin 256, stateAt 94 l = Function.update (stateAt 93) ⟨45, (by decide : (45 : ℕ) < 256)⟩ St.done l from by decide
  iapply (wait_fam c 𝒱₀ arg3 (Memref.whole main_v0_0) i q ai wm hai x3 f 93 45 13 hl45 hj13 rfl hp94 hn94 w94 hw94 (k0_off281 i) rfl (k0_off281_inb i) k0_cond94 (fun _ => rfl) (k0_chk94 i) (k0_chk94.dec i) (k0_off282 i) (fun _ => rfl) (fun _ _ h => h) (k0_off282_inb i) ((View.wordExact_bits rfl).reshape _ _) (fun _ _ => (View.wordExact_bits rfl).reshape _ _) _ _ W93) $$ [HS HM HC HO]
  · isplitl [HS]; · iexact HS
    isplitl [HM]; · iexact HM
    isplitl [HC]; · iexact HC
    iexact HO
  iintro ⟨HS, HM, HC, S13, %W94, HO⟩
  iapply (loadMask_wp c 𝒱₀ i 46 hl46 q wm rfl) $$ HM
  iintro HM %w95 %hw95
  have hp95 : stateAt 94 ⟨46, hl46⟩ = St.started := show stateAt 94 ⟨46, (by decide : (46 : ℕ) < 256)⟩ = St.started from by decide
  have hn95 : ∀ l : Fin 256, stateAt 95 l = Function.update (stateAt 94) ⟨46, hl46⟩ St.done l := show ∀ l : Fin 256, stateAt 95 l = Function.update (stateAt 94) ⟨46, (by decide : (46 : ℕ) < 256)⟩ St.done l from by decide
  iapply (wait_fam c 𝒱₀ arg3 (Memref.whole main_v0_0) i q ai wm hai x3 f 94 46 14 hl46 hj14 rfl hp95 hn95 w95 hw95 (k0_off284 i) rfl (k0_off284_inb i) k0_cond95 (fun _ => rfl) (k0_chk95 i) (k0_chk95.dec i) (k0_off285 i) (fun _ => rfl) (fun _ _ h => h) (k0_off285_inb i) ((View.wordExact_bits rfl).reshape _ _) (fun _ _ => (View.wordExact_bits rfl).reshape _ _) _ _ W94) $$ [HS HM HC HO]
  · isplitl [HS]; · iexact HS
    isplitl [HM]; · iexact HM
    isplitl [HC]; · iexact HC
    iexact HO
  iintro ⟨HS, HM, HC, S14, %W95, HO⟩
  iapply (loadMask_wp c 𝒱₀ i 47 hl47 q wm rfl) $$ HM
  iintro HM %w96 %hw96
  rw [wp_pure]
  imodintro
  isplitr; · ipureintro; exact hw96
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 17 of the body: steps 96 to 101, and the load of the next step's mask word. -/
theorem part17_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 47 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 95 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part17 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 53 (by decide)⌝ ∗ ((c : Thread nD τ).loc main_call0_v12 ↦{q} ai) ∗ ((c : Thread nD τ).loc main_call0_v13 ↦{q} wm) ∗ cells c arg3 (Memref.whole main_v0_0) i ai wm hai x3 f 101 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part17_eq_skeleton]; unfold k0_part17_skel
  iintro ⟨HS, HM, HC, S0, S1, S2, S3, S4, S5, S6, S7, S8, S9, S10, S11, S12, S13, S14, HO⟩
  have hl47 : (47 : ℕ) < 256 := by decide
  have hl48 : (48 : ℕ) < 256 := by decide
  have hl49 : (49 : ℕ) < 256 := by decide
  have hl50 : (50 : ℕ) < 256 := by decide
  have hl51 : (51 : ℕ) < 256 := by decide
  have hl52 : (52 : ℕ) < 256 := by decide
  have hl53 : (53 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw96 : w = wordOf wm i 47 hl47 := hw
  have hp96 : stateAt 95 ⟨47, hl47⟩ = St.started := show stateAt 95 ⟨47, (by decide : (47 : ℕ) < 256)⟩ = St.started from by decide
  have hn96 : ∀ l : Fin 256, stateAt 96 l = Function.update (stateAt 95) ⟨47, hl47⟩ St.done l := show ∀ l : Fin 256, stateAt 96 l = Function.update (stateAt 95) ⟨47, (by decide : (47 : ℕ) < 256)⟩ St.done l from by decide
  iapply (wait_fam c 𝒱₀ arg3 (Memref.whole main_v0_0) i q ai wm hai x3 f 95 47 15 hl47 hj15 rfl hp96 hn96 w hw96 (k0_off287 i) rfl (k0_off287_inb i) k0_cond96 (fun _ => rfl) (k0_chk96 i) (k0_chk96.dec i) (k0_off288 i) (fun _ => rfl) (fun _ _ h => h) (k0_off288_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W96, HO⟩
  iapply (loadMask_wp c 𝒱₀ i 48 hl48 q wm rfl) $$ HM
  iintro HM %w97 %hw97
  have hp97 : stateAt 96 ⟨48, hl48⟩ = St.pending := show stateAt 96 ⟨48, (by decide : (48 : ℕ) < 256)⟩ = St.pending from by decide
  have hn97 : ∀ l : Fin 256, stateAt 97 l = Function.update (stateAt 96) ⟨48, hl48⟩ St.started l := show ∀ l : Fin 256, stateAt 97 l = Function.update (stateAt 96) ⟨48, (by decide : (48 : ℕ) < 256)⟩ St.started l from by decide
  iapply (start_fam c 𝒱₀ arg3 (Memref.whole main_v0_0) i q ai wm hai x3 f 96 48 0 hl48 hj0 rfl hp97 hn97 w97 hw97 k0_cond97 (fun _ => rfl) (k0_chk97 i) (k0_chk97.dec i) (k0_off291 i) (fun _ => rfl) (fun _ _ => rfl) rfl) $$ [HS HC S0]
  · isplitl [HS]; · iexact HS
    isplitl [HC]; · iexact HC
    iexact S0
  iintro ⟨HS, HC⟩
  iapply (loadMask_wp c 𝒱₀ i 49 hl49 q wm rfl) $$ HM
  iintro HM %w98 %hw98
  have hp98 : stateAt 97 ⟨49, hl49⟩ = St.pending := show stateAt 97 ⟨49, (by decide : (49 : ℕ) < 256)⟩ = St.pending from by decide
  have hn98 : ∀ l : Fin 256, stateAt 98 l = Function.update (stateAt 97) ⟨49, hl49⟩ St.started l := show ∀ l : Fin 256, stateAt 98 l = Function.update (stateAt 97) ⟨49, (by decide : (49 : ℕ) < 256)⟩ St.started l from by decide
  iapply (start_fam c 𝒱₀ arg3 (Memref.whole main_v0_0) i q ai wm hai x3 f 97 49 1 hl49 hj1 rfl hp98 hn98 w98 hw98 k0_cond98 (fun _ => rfl) (k0_chk98 i) (k0_chk98.dec i) (k0_off294 i) (fun _ => rfl) (fun _ _ => rfl) rfl) $$ [HS HC S1]
  · isplitl [HS]; · iexact HS
    isplitl [HC]; · iexact HC
    iexact S1
  iintro ⟨HS, HC⟩
  iapply (loadMask_wp c 𝒱₀ i 50 hl50 q wm rfl) $$ HM
  iintro HM %w99 %hw99
  have hp99 : stateAt 98 ⟨50, hl50⟩ = St.pending := show stateAt 98 ⟨50, (by decide : (50 : ℕ) < 256)⟩ = St.pending from by decide
  have hn99 : ∀ l : Fin 256, stateAt 99 l = Function.update (stateAt 98) ⟨50, hl50⟩ St.started l := show ∀ l : Fin 256, stateAt 99 l = Function.update (stateAt 98) ⟨50, (by decide : (50 : ℕ) < 256)⟩ St.started l from by decide
  iapply (start_fam c 𝒱₀ arg3 (Memref.whole main_v0_0) i q ai wm hai x3 f 98 50 2 hl50 hj2 rfl hp99 hn99 w99 hw99 k0_cond99 (fun _ => rfl) (k0_chk99 i) (k0_chk99.dec i) (k0_off297 i) (fun _ => rfl) (fun _ _ => rfl) rfl) $$ [HS HC S2]
  · isplitl [HS]; · iexact HS
    isplitl [HC]; · iexact HC
    iexact S2
  iintro ⟨HS, HC⟩
  iapply (loadMask_wp c 𝒱₀ i 51 hl51 q wm rfl) $$ HM
  iintro HM %w100 %hw100
  have hp100 : stateAt 99 ⟨51, hl51⟩ = St.pending := show stateAt 99 ⟨51, (by decide : (51 : ℕ) < 256)⟩ = St.pending from by decide
  have hn100 : ∀ l : Fin 256, stateAt 100 l = Function.update (stateAt 99) ⟨51, hl51⟩ St.started l := show ∀ l : Fin 256, stateAt 100 l = Function.update (stateAt 99) ⟨51, (by decide : (51 : ℕ) < 256)⟩ St.started l from by decide
  iapply (start_fam c 𝒱₀ arg3 (Memref.whole main_v0_0) i q ai wm hai x3 f 99 51 3 hl51 hj3 rfl hp100 hn100 w100 hw100 k0_cond100 (fun _ => rfl) (k0_chk100 i) (k0_chk100.dec i) (k0_off300 i) (fun _ => rfl) (fun _ _ => rfl) rfl) $$ [HS HC S3]
  · isplitl [HS]; · iexact HS
    isplitl [HC]; · iexact HC
    iexact S3
  iintro ⟨HS, HC⟩
  iapply (loadMask_wp c 𝒱₀ i 52 hl52 q wm rfl) $$ HM
  iintro HM %w101 %hw101
  have hp101 : stateAt 100 ⟨52, hl52⟩ = St.pending := show stateAt 100 ⟨52, (by decide : (52 : ℕ) < 256)⟩ = St.pending from by decide
  have hn101 : ∀ l : Fin 256, stateAt 101 l = Function.update (stateAt 100) ⟨52, hl52⟩ St.started l := show ∀ l : Fin 256, stateAt 101 l = Function.update (stateAt 100) ⟨52, (by decide : (52 : ℕ) < 256)⟩ St.started l from by decide
  iapply (start_fam c 𝒱₀ arg3 (Memref.whole main_v0_0) i q ai wm hai x3 f 100 52 4 hl52 hj4 rfl hp101 hn101 w101 hw101 k0_cond101 (fun _ => rfl) (k0_chk101 i) (k0_chk101.dec i) (k0_off303 i) (fun _ => rfl) (fun _ _ => rfl) rfl) $$ [HS HC S4]
  · isplitl [HS]; · iexact HS
    isplitl [HC]; · iexact HC
    iexact S4
  iintro ⟨HS, HC⟩
  iapply (loadMask_wp c 𝒱₀ i 53 hl53 q wm rfl) $$ HM
  iintro HM %w102 %hw102
  rw [wp_pure]
  imodintro
  isplitr; · ipureintro; exact hw102
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 18 of the body: steps 102 to 107, and the load of the next step's mask word. -/
theorem part18_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 53 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 101 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part18 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 59 (by decide)⌝ ∗ ((c : Thread nD τ).loc main_call0_v12 ↦{q} ai) ∗ ((c : Thread nD τ).loc main_call0_v13 ↦{q} wm) ∗ cells c arg3 (Memref.whole main_v0_0) i ai wm hai x3 f 107 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part18_eq_skeleton]; unfold k0_part18_skel
  iintro ⟨HS, HM, HC, S5, S6, S7, S8, S9, S10, S11, S12, S13, S14, S15, HO⟩
  have hl53 : (53 : ℕ) < 256 := by decide
  have hl54 : (54 : ℕ) < 256 := by decide
  have hl55 : (55 : ℕ) < 256 := by decide
  have hl56 : (56 : ℕ) < 256 := by decide
  have hl57 : (57 : ℕ) < 256 := by decide
  have hl58 : (58 : ℕ) < 256 := by decide
  have hl59 : (59 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw102 : w = wordOf wm i 53 hl53 := hw
  have hp102 : stateAt 101 ⟨53, hl53⟩ = St.pending := show stateAt 101 ⟨53, (by decide : (53 : ℕ) < 256)⟩ = St.pending from by decide
  have hn102 : ∀ l : Fin 256, stateAt 102 l = Function.update (stateAt 101) ⟨53, hl53⟩ St.started l := show ∀ l : Fin 256, stateAt 102 l = Function.update (stateAt 101) ⟨53, (by decide : (53 : ℕ) < 256)⟩ St.started l from by decide
  iapply (start_fam c 𝒱₀ arg3 (Memref.whole main_v0_0) i q ai wm hai x3 f 101 53 5 hl53 hj5 rfl hp102 hn102 w hw102 k0_cond102 (fun _ => rfl) (k0_chk102 i) (k0_chk102.dec i) (k0_off306 i) (fun _ => rfl) (fun _ _ => rfl) rfl) $$ [HS HC S5]
  · isplitl [HS]; · iexact HS
    isplitl [HC]; · iexact HC
    iexact S5
  iintro ⟨HS, HC⟩
  iapply (loadMask_wp c 𝒱₀ i 54 hl54 q wm rfl) $$ HM
  iintro HM %w103 %hw103
  have hp103 : stateAt 102 ⟨54, hl54⟩ = St.pending := show stateAt 102 ⟨54, (by decide : (54 : ℕ) < 256)⟩ = St.pending from by decide
  have hn103 : ∀ l : Fin 256, stateAt 103 l = Function.update (stateAt 102) ⟨54, hl54⟩ St.started l := show ∀ l : Fin 256, stateAt 103 l = Function.update (stateAt 102) ⟨54, (by decide : (54 : ℕ) < 256)⟩ St.started l from by decide
  iapply (start_fam c 𝒱₀ arg3 (Memref.whole main_v0_0) i q ai wm hai x3 f 102 54 6 hl54 hj6 rfl hp103 hn103 w103 hw103 k0_cond103 (fun _ => rfl) (k0_chk103 i) (k0_chk103.dec i) (k0_off309 i) (fun _ => rfl) (fun _ _ => rfl) rfl) $$ [HS HC S6]
  · isplitl [HS]; · iexact HS
    isplitl [HC]; · iexact HC
    iexact S6
  iintro ⟨HS, HC⟩
  iapply (loadMask_wp c 𝒱₀ i 55 hl55 q wm rfl) $$ HM
  iintro HM %w104 %hw104
  have hp104 : stateAt 103 ⟨55, hl55⟩ = St.pending := show stateAt 103 ⟨55, (by decide : (55 : ℕ) < 256)⟩ = St.pending from by decide
  have hn104 : ∀ l : Fin 256, stateAt 104 l = Function.update (stateAt 103) ⟨55, hl55⟩ St.started l := show ∀ l : Fin 256, stateAt 104 l = Function.update (stateAt 103) ⟨55, (by decide : (55 : ℕ) < 256)⟩ St.started l from by decide
  iapply (start_fam c 𝒱₀ arg3 (Memref.whole main_v0_0) i q ai wm hai x3 f 103 55 7 hl55 hj7 rfl hp104 hn104 w104 hw104 k0_cond104 (fun _ => rfl) (k0_chk104 i) (k0_chk104.dec i) (k0_off312 i) (fun _ => rfl) (fun _ _ => rfl) rfl) $$ [HS HC S7]
  · isplitl [HS]; · iexact HS
    isplitl [HC]; · iexact HC
    iexact S7
  iintro ⟨HS, HC⟩
  iapply (loadMask_wp c 𝒱₀ i 56 hl56 q wm rfl) $$ HM
  iintro HM %w105 %hw105
  have hp105 : stateAt 104 ⟨56, hl56⟩ = St.pending := show stateAt 104 ⟨56, (by decide : (56 : ℕ) < 256)⟩ = St.pending from by decide
  have hn105 : ∀ l : Fin 256, stateAt 105 l = Function.update (stateAt 104) ⟨56, hl56⟩ St.started l := show ∀ l : Fin 256, stateAt 105 l = Function.update (stateAt 104) ⟨56, (by decide : (56 : ℕ) < 256)⟩ St.started l from by decide
  iapply (start_fam c 𝒱₀ arg3 (Memref.whole main_v0_0) i q ai wm hai x3 f 104 56 8 hl56 hj8 rfl hp105 hn105 w105 hw105 k0_cond105 (fun _ => rfl) (k0_chk105 i) (k0_chk105.dec i) (k0_off315 i) (fun _ => rfl) (fun _ _ => rfl) rfl) $$ [HS HC S8]
  · isplitl [HS]; · iexact HS
    isplitl [HC]; · iexact HC
    iexact S8
  iintro ⟨HS, HC⟩
  iapply (loadMask_wp c 𝒱₀ i 57 hl57 q wm rfl) $$ HM
  iintro HM %w106 %hw106
  have hp106 : stateAt 105 ⟨57, hl57⟩ = St.pending := show stateAt 105 ⟨57, (by decide : (57 : ℕ) < 256)⟩ = St.pending from by decide
  have hn106 : ∀ l : Fin 256, stateAt 106 l = Function.update (stateAt 105) ⟨57, hl57⟩ St.started l := show ∀ l : Fin 256, stateAt 106 l = Function.update (stateAt 105) ⟨57, (by decide : (57 : ℕ) < 256)⟩ St.started l from by decide
  iapply (start_fam c 𝒱₀ arg3 (Memref.whole main_v0_0) i q ai wm hai x3 f 105 57 9 hl57 hj9 rfl hp106 hn106 w106 hw106 k0_cond106 (fun _ => rfl) (k0_chk106 i) (k0_chk106.dec i) (k0_off318 i) (fun _ => rfl) (fun _ _ => rfl) rfl) $$ [HS HC S9]
  · isplitl [HS]; · iexact HS
    isplitl [HC]; · iexact HC
    iexact S9
  iintro ⟨HS, HC⟩
  iapply (loadMask_wp c 𝒱₀ i 58 hl58 q wm rfl) $$ HM
  iintro HM %w107 %hw107
  have hp107 : stateAt 106 ⟨58, hl58⟩ = St.pending := show stateAt 106 ⟨58, (by decide : (58 : ℕ) < 256)⟩ = St.pending from by decide
  have hn107 : ∀ l : Fin 256, stateAt 107 l = Function.update (stateAt 106) ⟨58, hl58⟩ St.started l := show ∀ l : Fin 256, stateAt 107 l = Function.update (stateAt 106) ⟨58, (by decide : (58 : ℕ) < 256)⟩ St.started l from by decide
  iapply (start_fam c 𝒱₀ arg3 (Memref.whole main_v0_0) i q ai wm hai x3 f 106 58 10 hl58 hj10 rfl hp107 hn107 w107 hw107 k0_cond107 (fun _ => rfl) (k0_chk107 i) (k0_chk107.dec i) (k0_off321 i) (fun _ => rfl) (fun _ _ => rfl) rfl) $$ [HS HC S10]
  · isplitl [HS]; · iexact HS
    isplitl [HC]; · iexact HC
    iexact S10
  iintro ⟨HS, HC⟩
  iapply (loadMask_wp c 𝒱₀ i 59 hl59 q wm rfl) $$ HM
  iintro HM %w108 %hw108
  rw [wp_pure]
  imodintro
  isplitr; · ipureintro; exact hw108
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 19 of the body: steps 108 to 113, and the load of the next step's mask word. -/
theorem part19_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 59 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 107 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part19 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 49 (by decide)⌝ ∗ ((c : Thread nD τ).loc main_call0_v12 ↦{q} ai) ∗ ((c : Thread nD τ).loc main_call0_v13 ↦{q} wm) ∗ cells c arg3 (Memref.whole main_v0_0) i ai wm hai x3 f 113 ∗ semPt c 0 (sem_inb 0 (by decide)) ∗ ∃ W', owes (c : Thread nD τ) 0 W')) := by
  rw [k0_part19_eq_skeleton]; unfold k0_part19_skel
  iintro ⟨HS, HM, HC, S11, S12, S13, S14, S15, HO⟩
  have hl48 : (48 : ℕ) < 256 := by decide
  have hl49 : (49 : ℕ) < 256 := by decide
  have hl59 : (59 : ℕ) < 256 := by decide
  have hl60 : (60 : ℕ) < 256 := by decide
  have hl61 : (61 : ℕ) < 256 := by decide
  have hl62 : (62 : ℕ) < 256 := by decide
  have hl63 : (63 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw108 : w = wordOf wm i 59 hl59 := hw
  have hp108 : stateAt 107 ⟨59, hl59⟩ = St.pending := show stateAt 107 ⟨59, (by decide : (59 : ℕ) < 256)⟩ = St.pending from by decide
  have hn108 : ∀ l : Fin 256, stateAt 108 l = Function.update (stateAt 107) ⟨59, hl59⟩ St.started l := show ∀ l : Fin 256, stateAt 108 l = Function.update (stateAt 107) ⟨59, (by decide : (59 : ℕ) < 256)⟩ St.started l from by decide
  iapply (start_fam c 𝒱₀ arg3 (Memref.whole main_v0_0) i q ai wm hai x3 f 107 59 11 hl59 hj11 rfl hp108 hn108 w hw108 k0_cond108 (fun _ => rfl) (k0_chk108 i) (k0_chk108.dec i) (k0_off324 i) (fun _ => rfl) (fun _ _ => rfl) rfl) $$ [HS HC S11]
  · isplitl [HS]; · iexact HS
    isplitl [HC]; · iexact HC
    iexact S11
  iintro ⟨HS, HC⟩
  iapply (loadMask_wp c 𝒱₀ i 60 hl60 q wm rfl) $$ HM
  iintro HM %w109 %hw109
  have hp109 : stateAt 108 ⟨60, hl60⟩ = St.pending := show stateAt 108 ⟨60, (by decide : (60 : ℕ) < 256)⟩ = St.pending from by decide
  have hn109 : ∀ l : Fin 256, stateAt 109 l = Function.update (stateAt 108) ⟨60, hl60⟩ St.started l := show ∀ l : Fin 256, stateAt 109 l = Function.update (stateAt 108) ⟨60, (by decide : (60 : ℕ) < 256)⟩ St.started l from by decide
  iapply (start_fam c 𝒱₀ arg3 (Memref.whole main_v0_0) i q ai wm hai x3 f 108 60 12 hl60 hj12 rfl hp109 hn109 w109 hw109 k0_cond109 (fun _ => rfl) (k0_chk109 i) (k0_chk109.dec i) (k0_off327 i) (fun _ => rfl) (fun _ _ => rfl) rfl) $$ [HS HC S12]
  · isplitl [HS]; · iexact HS
    isplitl [HC]; · iexact HC
    iexact S12
  iintro ⟨HS, HC⟩
  iapply (loadMask_wp c 𝒱₀ i 61 hl61 q wm rfl) $$ HM
  iintro HM %w110 %hw110
  have hp110 : stateAt 109 ⟨61, hl61⟩ = St.pending := show stateAt 109 ⟨61, (by decide : (61 : ℕ) < 256)⟩ = St.pending from by decide
  have hn110 : ∀ l : Fin 256, stateAt 110 l = Function.update (stateAt 109) ⟨61, hl61⟩ St.started l := show ∀ l : Fin 256, stateAt 110 l = Function.update (stateAt 109) ⟨61, (by decide : (61 : ℕ) < 256)⟩ St.started l from by decide
  iapply (start_fam c 𝒱₀ arg3 (Memref.whole main_v0_0) i q ai wm hai x3 f 109 61 13 hl61 hj13 rfl hp110 hn110 w110 hw110 k0_cond110 (fun _ => rfl) (k0_chk110 i) (k0_chk110.dec i) (k0_off330 i) (fun _ => rfl) (fun _ _ => rfl) rfl) $$ [HS HC S13]
  · isplitl [HS]; · iexact HS
    isplitl [HC]; · iexact HC
    iexact S13
  iintro ⟨HS, HC⟩
  iapply (loadMask_wp c 𝒱₀ i 62 hl62 q wm rfl) $$ HM
  iintro HM %w111 %hw111
  have hp111 : stateAt 110 ⟨62, hl62⟩ = St.pending := show stateAt 110 ⟨62, (by decide : (62 : ℕ) < 256)⟩ = St.pending from by decide
  have hn111 : ∀ l : Fin 256, stateAt 111 l = Function.update (stateAt 110) ⟨62, hl62⟩ St.started l := show ∀ l : Fin 256, stateAt 111 l = Function.update (stateAt 110) ⟨62, (by decide : (62 : ℕ) < 256)⟩ St.started l from by decide
  iapply (start_fam c 𝒱₀ arg3 (Memref.whole main_v0_0) i q ai wm hai x3 f 110 62 14 hl62 hj14 rfl hp111 hn111 w111 hw111 k0_cond111 (fun _ => rfl) (k0_chk111 i) (k0_chk111.dec i) (k0_off333 i) (fun _ => rfl) (fun _ _ => rfl) rfl) $$ [HS HC S14]
  · isplitl [HS]; · iexact HS
    isplitl [HC]; · iexact HC
    iexact S14
  iintro ⟨HS, HC⟩
  iapply (loadMask_wp c 𝒱₀ i 63 hl63 q wm rfl) $$ HM
  iintro HM %w112 %hw112
  have hp112 : stateAt 111 ⟨63, hl63⟩ = St.pending := show stateAt 111 ⟨63, (by decide : (63 : ℕ) < 256)⟩ = St.pending from by decide
  have hn112 : ∀ l : Fin 256, stateAt 112 l = Function.update (stateAt 111) ⟨63, hl63⟩ St.started l := show ∀ l : Fin 256, stateAt 112 l = Function.update (stateAt 111) ⟨63, (by decide : (63 : ℕ) < 256)⟩ St.started l from by decide
  iapply (start_fam c 𝒱₀ arg3 (Memref.whole main_v0_0) i q ai wm hai x3 f 111 63 15 hl63 hj15 rfl hp112 hn112 w112 hw112 k0_cond112 (fun _ => rfl) (k0_chk112 i) (k0_chk112.dec i) (k0_off336 i) (fun _ => rfl) (fun _ _ => rfl) rfl) $$ [HS HC S15]
  · isplitl [HS]; · iexact HS
    isplitl [HC]; · iexact HC
    iexact S15
  iintro ⟨HS, HC⟩
  iapply (loadMask_wp c 𝒱₀ i 48 hl48 q wm rfl) $$ HM
  iintro HM %w113 %hw113
  have hp113 : stateAt 112 ⟨48, hl48⟩ = St.started := show stateAt 112 ⟨48, (by decide : (48 : ℕ) < 256)⟩ = St.started from by decide
  have hn113 : ∀ l : Fin 256, stateAt 113 l = Function.update (stateAt 112) ⟨48, hl48⟩ St.done l := show ∀ l : Fin 256, stateAt 113 l = Function.update (stateAt 112) ⟨48, (by decide : (48 : ℕ) < 256)⟩ St.done l from by decide
  iapply (wait_fam c 𝒱₀ arg3 (Memref.whole main_v0_0) i q ai wm hai x3 f 112 48 0 hl48 hj0 rfl hp113 hn113 w113 hw113 (k0_off338 i) rfl (k0_off338_inb i) k0_cond113 (fun _ => rfl) (k0_chk113 i) (k0_chk113.dec i) (k0_off339 i) (fun _ => rfl) (fun _ _ h => h) (k0_off339_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W113, HO⟩
  iapply (loadMask_wp c 𝒱₀ i 49 hl49 q wm rfl) $$ HM
  iintro HM %w114 %hw114
  rw [wp_pure]
  imodintro
  isplitr; · ipureintro; exact hw114
  isplitl [HS]; · iexact HS
  isplitl [HM]; · iexact HM
  isplitl [HC]; · iexact HC
  isplitl [S0]; · iexact S0
  iexists _; iexact HO

set_option maxHeartbeats 0 in
/-- Part 20 of the body: steps 114 to 119, and the load of the next step's mask word. -/
theorem part20_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 49 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 113 ∗ semPt c 0 (sem_inb 0 (by decide)) ∗ owes (c : Thread nD τ) 0 W)
      ⊢ wp frame (wpE (defs₀ (F := F)) 𝒱₀ (c : Thread nD τ) none) Set.univ (k0_part20 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 55 (by decide)⌝ ∗ ((c : Thread nD τ).loc main_call0_v12 ↦{q} ai) ∗ ((c : Thread nD τ).loc main_call0_v13 ↦{q} wm) ∗ cells c arg3 (Memref.whole main_v0_0) i ai wm hai x3 f 119 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part20_eq_skeleton]; unfold k0_part20_skel
  iintro ⟨HS, HM, HC, S0, HO⟩
  have hl49 : (49 : ℕ) < 256 := by decide
  have hl50 : (50 : ℕ) < 256 := by decide
  have hl51 : (51 : ℕ) < 256 := by decide
  have hl52 : (52 : ℕ) < 256 := by decide
  have hl53 : (53 : ℕ) < 256 := by decide
  have hl54 : (54 : ℕ) < 256 := by decide
  have hl55 : (55 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw114 : w = wordOf wm i 49 hl49 := hw
  have hp114 : stateAt 113 ⟨49, hl49⟩ = St.started := show stateAt 113 ⟨49, (by decide : (49 : ℕ) < 256)⟩ = St.started from by decide
  have hn114 : ∀ l : Fin 256, stateAt 114 l = Function.update (stateAt 113) ⟨49, hl49⟩ St.done l := show ∀ l : Fin 256, stateAt 114 l = Function.update (stateAt 113) ⟨49, (by decide : (49 : ℕ) < 256)⟩ St.done l from by decide
  iapply (wait_fam c 𝒱₀ arg3 (Memref.whole main_v0_0) i q ai wm hai x3 f 113 49 1 hl49 hj1 rfl hp114 hn114 w hw114 (k0_off341 i) rfl (k0_off341_inb i) k0_cond114 (fun _ => rfl) (k0_chk114 i) (k0_chk114.dec i) (k0_off342 i) (fun _ => rfl) (fun _ _ h => h) (k0_off342_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W114, HO⟩
  iapply (loadMask_wp c 𝒱₀ i 50 hl50 q wm rfl) $$ HM
  iintro HM %w115 %hw115
  have hp115 : stateAt 114 ⟨50, hl50⟩ = St.started := show stateAt 114 ⟨50, (by decide : (50 : ℕ) < 256)⟩ = St.started from by decide
  have hn115 : ∀ l : Fin 256, stateAt 115 l = Function.update (stateAt 114) ⟨50, hl50⟩ St.done l := show ∀ l : Fin 256, stateAt 115 l = Function.update (stateAt 114) ⟨50, (by decide : (50 : ℕ) < 256)⟩ St.done l from by decide
  iapply (wait_fam c 𝒱₀ arg3 (Memref.whole main_v0_0) i q ai wm hai x3 f 114 50 2 hl50 hj2 rfl hp115 hn115 w115 hw115 (k0_off344 i) rfl (k0_off344_inb i) k0_cond115 (fun _ => rfl) (k0_chk115 i) (k0_chk115.dec i) (k0_off345 i) (fun _ => rfl) (fun _ _ h => h) (k0_off345_inb i) ((View.wordExact_bits rfl).reshape _ _) (fun _ _ => (View.wordExact_bits rfl).reshape _ _) _ _ W114) $$ [HS HM HC HO]
  · isplitl [HS]; · iexact HS
    isplitl [HM]; · iexact HM
    isplitl [HC]; · iexact HC
    iexact HO
  iintro ⟨HS, HM, HC, S2, %W115, HO⟩
  iapply (loadMask_wp c 𝒱₀ i 51 hl51 q wm rfl) $$ HM
  iintro HM %w116 %hw116
  have hp116 : stateAt 115 ⟨51, hl51⟩ = St.started := show stateAt 115 ⟨51, (by decide : (51 : ℕ) < 256)⟩ = St.started from by decide
  have hn116 : ∀ l : Fin 256, stateAt 116 l = Function.update (stateAt 115) ⟨51, hl51⟩ St.done l := show ∀ l : Fin 256, stateAt 116 l = Function.update (stateAt 115) ⟨51, (by decide : (51 : ℕ) < 256)⟩ St.done l from by decide
  iapply (wait_fam c 𝒱₀ arg3 (Memref.whole main_v0_0) i q ai wm hai x3 f 115 51 3 hl51 hj3 rfl hp116 hn116 w116 hw116 (k0_off347 i) rfl (k0_off347_inb i) k0_cond116 (fun _ => rfl) (k0_chk116 i) (k0_chk116.dec i) (k0_off348 i) (fun _ => rfl) (fun _ _ h => h) (k0_off348_inb i) ((View.wordExact_bits rfl).reshape _ _) (fun _ _ => (View.wordExact_bits rfl).reshape _ _) _ _ W115) $$ [HS HM HC HO]
  · isplitl [HS]; · iexact HS
    isplitl [HM]; · iexact HM
    isplitl [HC]; · iexact HC
    iexact HO
  iintro ⟨HS, HM, HC, S3, %W116, HO⟩
  iapply (loadMask_wp c 𝒱₀ i 52 hl52 q wm rfl) $$ HM
  iintro HM %w117 %hw117
  have hp117 : stateAt 116 ⟨52, hl52⟩ = St.started := show stateAt 116 ⟨52, (by decide : (52 : ℕ) < 256)⟩ = St.started from by decide
  have hn117 : ∀ l : Fin 256, stateAt 117 l = Function.update (stateAt 116) ⟨52, hl52⟩ St.done l := show ∀ l : Fin 256, stateAt 117 l = Function.update (stateAt 116) ⟨52, (by decide : (52 : ℕ) < 256)⟩ St.done l from by decide
  iapply (wait_fam c 𝒱₀ arg3 (Memref.whole main_v0_0) i q ai wm hai x3 f 116 52 4 hl52 hj4 rfl hp117 hn117 w117 hw117 (k0_off350 i) rfl (k0_off350_inb i) k0_cond117 (fun _ => rfl) (k0_chk117 i) (k0_chk117.dec i) (k0_off351 i) (fun _ => rfl) (fun _ _ h => h) (k0_off351_inb i) ((View.wordExact_bits rfl).reshape _ _) (fun _ _ => (View.wordExact_bits rfl).reshape _ _) _ _ W116) $$ [HS HM HC HO]
  · isplitl [HS]; · iexact HS
    isplitl [HM]; · iexact HM
    isplitl [HC]; · iexact HC
    iexact HO
  iintro ⟨HS, HM, HC, S4, %W117, HO⟩
  iapply (loadMask_wp c 𝒱₀ i 53 hl53 q wm rfl) $$ HM
  iintro HM %w118 %hw118
  have hp118 : stateAt 117 ⟨53, hl53⟩ = St.started := show stateAt 117 ⟨53, (by decide : (53 : ℕ) < 256)⟩ = St.started from by decide
  have hn118 : ∀ l : Fin 256, stateAt 118 l = Function.update (stateAt 117) ⟨53, hl53⟩ St.done l := show ∀ l : Fin 256, stateAt 118 l = Function.update (stateAt 117) ⟨53, (by decide : (53 : ℕ) < 256)⟩ St.done l from by decide
  iapply (wait_fam c 𝒱₀ arg3 (Memref.whole main_v0_0) i q ai wm hai x3 f 117 53 5 hl53 hj5 rfl hp118 hn118 w118 hw118 (k0_off353 i) rfl (k0_off353_inb i) k0_cond118 (fun _ => rfl) (k0_chk118 i) (k0_chk118.dec i) (k0_off354 i) (fun _ => rfl) (fun _ _ h => h) (k0_off354_inb i) ((View.wordExact_bits rfl).reshape _ _) (fun _ _ => (View.wordExact_bits rfl).reshape _ _) _ _ W117) $$ [HS HM HC HO]
  · isplitl [HS]; · iexact HS
    isplitl [HM]; · iexact HM
    isplitl [HC]; · iexact HC
    iexact HO
  iintro ⟨HS, HM, HC, S5, %W118, HO⟩
  iapply (loadMask_wp c 𝒱₀ i 54 hl54 q wm rfl) $$ HM
  iintro HM %w119 %hw119
  have hp119 : stateAt 118 ⟨54, hl54⟩ = St.started := show stateAt 118 ⟨54, (by decide : (54 : ℕ) < 256)⟩ = St.started from by decide
  have hn119 : ∀ l : Fin 256, stateAt 119 l = Function.update (stateAt 118) ⟨54, hl54⟩ St.done l := show ∀ l : Fin 256, stateAt 119 l = Function.update (stateAt 118) ⟨54, (by decide : (54 : ℕ) < 256)⟩ St.done l from by decide
  iapply (wait_fam c 𝒱₀ arg3 (Memref.whole main_v0_0) i q ai wm hai x3 f 118 54 6 hl54 hj6 rfl hp119 hn119 w119 hw119 (k0_off356 i) rfl (k0_off356_inb i) k0_cond119 (fun _ => rfl) (k0_chk119 i) (k0_chk119.dec i) (k0_off357 i) (fun _ => rfl) (fun _ _ h => h) (k0_off357_inb i) ((View.wordExact_bits rfl).reshape _ _) (fun _ _ => (View.wordExact_bits rfl).reshape _ _) _ _ W118) $$ [HS HM HC HO]
  · isplitl [HS]; · iexact HS
    isplitl [HM]; · iexact HM
    isplitl [HC]; · iexact HC
    iexact HO
  iintro ⟨HS, HM, HC, S6, %W119, HO⟩
  iapply (loadMask_wp c 𝒱₀ i 55 hl55 q wm rfl) $$ HM
  iintro HM %w120 %hw120
  rw [wp_pure]
  imodintro
  isplitr; · ipureintro; exact hw120
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 21 of the body: steps 120 to 125, and the load of the next step's mask word. -/
theorem part21_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 55 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 119 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part21 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 61 (by decide)⌝ ∗ ((c : Thread nD τ).loc main_call0_v12 ↦{q} ai) ∗ ((c : Thread nD τ).loc main_call0_v13 ↦{q} wm) ∗ cells c arg3 (Memref.whole main_v0_0) i ai wm hai x3 f 125 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part21_eq_skeleton]; unfold k0_part21_skel
  iintro ⟨HS, HM, HC, S0, S1, S2, S3, S4, S5, S6, HO⟩
  have hl55 : (55 : ℕ) < 256 := by decide
  have hl56 : (56 : ℕ) < 256 := by decide
  have hl57 : (57 : ℕ) < 256 := by decide
  have hl58 : (58 : ℕ) < 256 := by decide
  have hl59 : (59 : ℕ) < 256 := by decide
  have hl60 : (60 : ℕ) < 256 := by decide
  have hl61 : (61 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw120 : w = wordOf wm i 55 hl55 := hw
  have hp120 : stateAt 119 ⟨55, hl55⟩ = St.started := show stateAt 119 ⟨55, (by decide : (55 : ℕ) < 256)⟩ = St.started from by decide
  have hn120 : ∀ l : Fin 256, stateAt 120 l = Function.update (stateAt 119) ⟨55, hl55⟩ St.done l := show ∀ l : Fin 256, stateAt 120 l = Function.update (stateAt 119) ⟨55, (by decide : (55 : ℕ) < 256)⟩ St.done l from by decide
  iapply (wait_fam c 𝒱₀ arg3 (Memref.whole main_v0_0) i q ai wm hai x3 f 119 55 7 hl55 hj7 rfl hp120 hn120 w hw120 (k0_off359 i) rfl (k0_off359_inb i) k0_cond120 (fun _ => rfl) (k0_chk120 i) (k0_chk120.dec i) (k0_off360 i) (fun _ => rfl) (fun _ _ h => h) (k0_off360_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W120, HO⟩
  iapply (loadMask_wp c 𝒱₀ i 56 hl56 q wm rfl) $$ HM
  iintro HM %w121 %hw121
  have hp121 : stateAt 120 ⟨56, hl56⟩ = St.started := show stateAt 120 ⟨56, (by decide : (56 : ℕ) < 256)⟩ = St.started from by decide
  have hn121 : ∀ l : Fin 256, stateAt 121 l = Function.update (stateAt 120) ⟨56, hl56⟩ St.done l := show ∀ l : Fin 256, stateAt 121 l = Function.update (stateAt 120) ⟨56, (by decide : (56 : ℕ) < 256)⟩ St.done l from by decide
  iapply (wait_fam c 𝒱₀ arg3 (Memref.whole main_v0_0) i q ai wm hai x3 f 120 56 8 hl56 hj8 rfl hp121 hn121 w121 hw121 (k0_off362 i) rfl (k0_off362_inb i) k0_cond121 (fun _ => rfl) (k0_chk121 i) (k0_chk121.dec i) (k0_off363 i) (fun _ => rfl) (fun _ _ h => h) (k0_off363_inb i) ((View.wordExact_bits rfl).reshape _ _) (fun _ _ => (View.wordExact_bits rfl).reshape _ _) _ _ W120) $$ [HS HM HC HO]
  · isplitl [HS]; · iexact HS
    isplitl [HM]; · iexact HM
    isplitl [HC]; · iexact HC
    iexact HO
  iintro ⟨HS, HM, HC, S8, %W121, HO⟩
  iapply (loadMask_wp c 𝒱₀ i 57 hl57 q wm rfl) $$ HM
  iintro HM %w122 %hw122
  have hp122 : stateAt 121 ⟨57, hl57⟩ = St.started := show stateAt 121 ⟨57, (by decide : (57 : ℕ) < 256)⟩ = St.started from by decide
  have hn122 : ∀ l : Fin 256, stateAt 122 l = Function.update (stateAt 121) ⟨57, hl57⟩ St.done l := show ∀ l : Fin 256, stateAt 122 l = Function.update (stateAt 121) ⟨57, (by decide : (57 : ℕ) < 256)⟩ St.done l from by decide
  iapply (wait_fam c 𝒱₀ arg3 (Memref.whole main_v0_0) i q ai wm hai x3 f 121 57 9 hl57 hj9 rfl hp122 hn122 w122 hw122 (k0_off365 i) rfl (k0_off365_inb i) k0_cond122 (fun _ => rfl) (k0_chk122 i) (k0_chk122.dec i) (k0_off366 i) (fun _ => rfl) (fun _ _ h => h) (k0_off366_inb i) ((View.wordExact_bits rfl).reshape _ _) (fun _ _ => (View.wordExact_bits rfl).reshape _ _) _ _ W121) $$ [HS HM HC HO]
  · isplitl [HS]; · iexact HS
    isplitl [HM]; · iexact HM
    isplitl [HC]; · iexact HC
    iexact HO
  iintro ⟨HS, HM, HC, S9, %W122, HO⟩
  iapply (loadMask_wp c 𝒱₀ i 58 hl58 q wm rfl) $$ HM
  iintro HM %w123 %hw123
  have hp123 : stateAt 122 ⟨58, hl58⟩ = St.started := show stateAt 122 ⟨58, (by decide : (58 : ℕ) < 256)⟩ = St.started from by decide
  have hn123 : ∀ l : Fin 256, stateAt 123 l = Function.update (stateAt 122) ⟨58, hl58⟩ St.done l := show ∀ l : Fin 256, stateAt 123 l = Function.update (stateAt 122) ⟨58, (by decide : (58 : ℕ) < 256)⟩ St.done l from by decide
  iapply (wait_fam c 𝒱₀ arg3 (Memref.whole main_v0_0) i q ai wm hai x3 f 122 58 10 hl58 hj10 rfl hp123 hn123 w123 hw123 (k0_off368 i) rfl (k0_off368_inb i) k0_cond123 (fun _ => rfl) (k0_chk123 i) (k0_chk123.dec i) (k0_off369 i) (fun _ => rfl) (fun _ _ h => h) (k0_off369_inb i) ((View.wordExact_bits rfl).reshape _ _) (fun _ _ => (View.wordExact_bits rfl).reshape _ _) _ _ W122) $$ [HS HM HC HO]
  · isplitl [HS]; · iexact HS
    isplitl [HM]; · iexact HM
    isplitl [HC]; · iexact HC
    iexact HO
  iintro ⟨HS, HM, HC, S10, %W123, HO⟩
  iapply (loadMask_wp c 𝒱₀ i 59 hl59 q wm rfl) $$ HM
  iintro HM %w124 %hw124
  have hp124 : stateAt 123 ⟨59, hl59⟩ = St.started := show stateAt 123 ⟨59, (by decide : (59 : ℕ) < 256)⟩ = St.started from by decide
  have hn124 : ∀ l : Fin 256, stateAt 124 l = Function.update (stateAt 123) ⟨59, hl59⟩ St.done l := show ∀ l : Fin 256, stateAt 124 l = Function.update (stateAt 123) ⟨59, (by decide : (59 : ℕ) < 256)⟩ St.done l from by decide
  iapply (wait_fam c 𝒱₀ arg3 (Memref.whole main_v0_0) i q ai wm hai x3 f 123 59 11 hl59 hj11 rfl hp124 hn124 w124 hw124 (k0_off371 i) rfl (k0_off371_inb i) k0_cond124 (fun _ => rfl) (k0_chk124 i) (k0_chk124.dec i) (k0_off372 i) (fun _ => rfl) (fun _ _ h => h) (k0_off372_inb i) ((View.wordExact_bits rfl).reshape _ _) (fun _ _ => (View.wordExact_bits rfl).reshape _ _) _ _ W123) $$ [HS HM HC HO]
  · isplitl [HS]; · iexact HS
    isplitl [HM]; · iexact HM
    isplitl [HC]; · iexact HC
    iexact HO
  iintro ⟨HS, HM, HC, S11, %W124, HO⟩
  iapply (loadMask_wp c 𝒱₀ i 60 hl60 q wm rfl) $$ HM
  iintro HM %w125 %hw125
  have hp125 : stateAt 124 ⟨60, hl60⟩ = St.started := show stateAt 124 ⟨60, (by decide : (60 : ℕ) < 256)⟩ = St.started from by decide
  have hn125 : ∀ l : Fin 256, stateAt 125 l = Function.update (stateAt 124) ⟨60, hl60⟩ St.done l := show ∀ l : Fin 256, stateAt 125 l = Function.update (stateAt 124) ⟨60, (by decide : (60 : ℕ) < 256)⟩ St.done l from by decide
  iapply (wait_fam c 𝒱₀ arg3 (Memref.whole main_v0_0) i q ai wm hai x3 f 124 60 12 hl60 hj12 rfl hp125 hn125 w125 hw125 (k0_off374 i) rfl (k0_off374_inb i) k0_cond125 (fun _ => rfl) (k0_chk125 i) (k0_chk125.dec i) (k0_off375 i) (fun _ => rfl) (fun _ _ h => h) (k0_off375_inb i) ((View.wordExact_bits rfl).reshape _ _) (fun _ _ => (View.wordExact_bits rfl).reshape _ _) _ _ W124) $$ [HS HM HC HO]
  · isplitl [HS]; · iexact HS
    isplitl [HM]; · iexact HM
    isplitl [HC]; · iexact HC
    iexact HO
  iintro ⟨HS, HM, HC, S12, %W125, HO⟩
  iapply (loadMask_wp c 𝒱₀ i 61 hl61 q wm rfl) $$ HM
  iintro HM %w126 %hw126
  rw [wp_pure]
  imodintro
  isplitr; · ipureintro; exact hw126
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 22 of the body: steps 126 to 131, and the load of the next step's mask word. -/
theorem part22_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 61 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 125 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part22 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 67 (by decide)⌝ ∗ ((c : Thread nD τ).loc main_call0_v12 ↦{q} ai) ∗ ((c : Thread nD τ).loc main_call0_v13 ↦{q} wm) ∗ cells c arg3 (Memref.whole main_v0_0) i ai wm hai x3 f 131 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part22_eq_skeleton]; unfold k0_part22_skel
  iintro ⟨HS, HM, HC, S0, S1, S2, S3, S4, S5, S6, S7, S8, S9, S10, S11, S12, HO⟩
  have hl61 : (61 : ℕ) < 256 := by decide
  have hl62 : (62 : ℕ) < 256 := by decide
  have hl63 : (63 : ℕ) < 256 := by decide
  have hl64 : (64 : ℕ) < 256 := by decide
  have hl65 : (65 : ℕ) < 256 := by decide
  have hl66 : (66 : ℕ) < 256 := by decide
  have hl67 : (67 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw126 : w = wordOf wm i 61 hl61 := hw
  have hp126 : stateAt 125 ⟨61, hl61⟩ = St.started := show stateAt 125 ⟨61, (by decide : (61 : ℕ) < 256)⟩ = St.started from by decide
  have hn126 : ∀ l : Fin 256, stateAt 126 l = Function.update (stateAt 125) ⟨61, hl61⟩ St.done l := show ∀ l : Fin 256, stateAt 126 l = Function.update (stateAt 125) ⟨61, (by decide : (61 : ℕ) < 256)⟩ St.done l from by decide
  iapply (wait_fam c 𝒱₀ arg3 (Memref.whole main_v0_0) i q ai wm hai x3 f 125 61 13 hl61 hj13 rfl hp126 hn126 w hw126 (k0_off377 i) rfl (k0_off377_inb i) k0_cond126 (fun _ => rfl) (k0_chk126 i) (k0_chk126.dec i) (k0_off378 i) (fun _ => rfl) (fun _ _ h => h) (k0_off378_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W126, HO⟩
  iapply (loadMask_wp c 𝒱₀ i 62 hl62 q wm rfl) $$ HM
  iintro HM %w127 %hw127
  have hp127 : stateAt 126 ⟨62, hl62⟩ = St.started := show stateAt 126 ⟨62, (by decide : (62 : ℕ) < 256)⟩ = St.started from by decide
  have hn127 : ∀ l : Fin 256, stateAt 127 l = Function.update (stateAt 126) ⟨62, hl62⟩ St.done l := show ∀ l : Fin 256, stateAt 127 l = Function.update (stateAt 126) ⟨62, (by decide : (62 : ℕ) < 256)⟩ St.done l from by decide
  iapply (wait_fam c 𝒱₀ arg3 (Memref.whole main_v0_0) i q ai wm hai x3 f 126 62 14 hl62 hj14 rfl hp127 hn127 w127 hw127 (k0_off380 i) rfl (k0_off380_inb i) k0_cond127 (fun _ => rfl) (k0_chk127 i) (k0_chk127.dec i) (k0_off381 i) (fun _ => rfl) (fun _ _ h => h) (k0_off381_inb i) ((View.wordExact_bits rfl).reshape _ _) (fun _ _ => (View.wordExact_bits rfl).reshape _ _) _ _ W126) $$ [HS HM HC HO]
  · isplitl [HS]; · iexact HS
    isplitl [HM]; · iexact HM
    isplitl [HC]; · iexact HC
    iexact HO
  iintro ⟨HS, HM, HC, S14, %W127, HO⟩
  iapply (loadMask_wp c 𝒱₀ i 63 hl63 q wm rfl) $$ HM
  iintro HM %w128 %hw128
  have hp128 : stateAt 127 ⟨63, hl63⟩ = St.started := show stateAt 127 ⟨63, (by decide : (63 : ℕ) < 256)⟩ = St.started from by decide
  have hn128 : ∀ l : Fin 256, stateAt 128 l = Function.update (stateAt 127) ⟨63, hl63⟩ St.done l := show ∀ l : Fin 256, stateAt 128 l = Function.update (stateAt 127) ⟨63, (by decide : (63 : ℕ) < 256)⟩ St.done l from by decide
  iapply (wait_fam c 𝒱₀ arg3 (Memref.whole main_v0_0) i q ai wm hai x3 f 127 63 15 hl63 hj15 rfl hp128 hn128 w128 hw128 (k0_off383 i) rfl (k0_off383_inb i) k0_cond128 (fun _ => rfl) (k0_chk128 i) (k0_chk128.dec i) (k0_off384 i) (fun _ => rfl) (fun _ _ h => h) (k0_off384_inb i) ((View.wordExact_bits rfl).reshape _ _) (fun _ _ => (View.wordExact_bits rfl).reshape _ _) _ _ W127) $$ [HS HM HC HO]
  · isplitl [HS]; · iexact HS
    isplitl [HM]; · iexact HM
    isplitl [HC]; · iexact HC
    iexact HO
  iintro ⟨HS, HM, HC, S15, %W128, HO⟩
  iapply (loadMask_wp c 𝒱₀ i 64 hl64 q wm rfl) $$ HM
  iintro HM %w129 %hw129
  have hp129 : stateAt 128 ⟨64, hl64⟩ = St.pending := show stateAt 128 ⟨64, (by decide : (64 : ℕ) < 256)⟩ = St.pending from by decide
  have hn129 : ∀ l : Fin 256, stateAt 129 l = Function.update (stateAt 128) ⟨64, hl64⟩ St.started l := show ∀ l : Fin 256, stateAt 129 l = Function.update (stateAt 128) ⟨64, (by decide : (64 : ℕ) < 256)⟩ St.started l from by decide
  iapply (start_fam c 𝒱₀ arg3 (Memref.whole main_v0_0) i q ai wm hai x3 f 128 64 0 hl64 hj0 rfl hp129 hn129 w129 hw129 k0_cond129 (fun _ => rfl) (k0_chk129 i) (k0_chk129.dec i) (k0_off387 i) (fun _ => rfl) (fun _ _ => rfl) rfl) $$ [HS HC S0]
  · isplitl [HS]; · iexact HS
    isplitl [HC]; · iexact HC
    iexact S0
  iintro ⟨HS, HC⟩
  iapply (loadMask_wp c 𝒱₀ i 65 hl65 q wm rfl) $$ HM
  iintro HM %w130 %hw130
  have hp130 : stateAt 129 ⟨65, hl65⟩ = St.pending := show stateAt 129 ⟨65, (by decide : (65 : ℕ) < 256)⟩ = St.pending from by decide
  have hn130 : ∀ l : Fin 256, stateAt 130 l = Function.update (stateAt 129) ⟨65, hl65⟩ St.started l := show ∀ l : Fin 256, stateAt 130 l = Function.update (stateAt 129) ⟨65, (by decide : (65 : ℕ) < 256)⟩ St.started l from by decide
  iapply (start_fam c 𝒱₀ arg3 (Memref.whole main_v0_0) i q ai wm hai x3 f 129 65 1 hl65 hj1 rfl hp130 hn130 w130 hw130 k0_cond130 (fun _ => rfl) (k0_chk130 i) (k0_chk130.dec i) (k0_off390 i) (fun _ => rfl) (fun _ _ => rfl) rfl) $$ [HS HC S1]
  · isplitl [HS]; · iexact HS
    isplitl [HC]; · iexact HC
    iexact S1
  iintro ⟨HS, HC⟩
  iapply (loadMask_wp c 𝒱₀ i 66 hl66 q wm rfl) $$ HM
  iintro HM %w131 %hw131
  have hp131 : stateAt 130 ⟨66, hl66⟩ = St.pending := show stateAt 130 ⟨66, (by decide : (66 : ℕ) < 256)⟩ = St.pending from by decide
  have hn131 : ∀ l : Fin 256, stateAt 131 l = Function.update (stateAt 130) ⟨66, hl66⟩ St.started l := show ∀ l : Fin 256, stateAt 131 l = Function.update (stateAt 130) ⟨66, (by decide : (66 : ℕ) < 256)⟩ St.started l from by decide
  iapply (start_fam c 𝒱₀ arg3 (Memref.whole main_v0_0) i q ai wm hai x3 f 130 66 2 hl66 hj2 rfl hp131 hn131 w131 hw131 k0_cond131 (fun _ => rfl) (k0_chk131 i) (k0_chk131.dec i) (k0_off393 i) (fun _ => rfl) (fun _ _ => rfl) rfl) $$ [HS HC S2]
  · isplitl [HS]; · iexact HS
    isplitl [HC]; · iexact HC
    iexact S2
  iintro ⟨HS, HC⟩
  iapply (loadMask_wp c 𝒱₀ i 67 hl67 q wm rfl) $$ HM
  iintro HM %w132 %hw132
  rw [wp_pure]
  imodintro
  isplitr; · ipureintro; exact hw132
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.Kernel.Cells

end
-- ==== Proof.Parts3Bits.lean ====
/-
  Parts 23 to 33 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyBits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 23 of the body: steps 132 to 137, and the load of the next step's mask word. -/
theorem part23_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 67 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 131 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part23 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 73 (by decide)⌝ ∗ ((c : Thread nD τ).loc main_call0_v12 ↦{q} ai) ∗ ((c : Thread nD τ).loc main_call0_v13 ↦{q} wm) ∗ cells c arg3 (Memref.whole main_v0_0) i ai wm hai x3 f 137 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part23_eq_skeleton]; unfold k0_part23_skel
  iintro ⟨HS, HM, HC, S3, S4, S5, S6, S7, S8, S9, S10, S11, S12, S13, S14, S15, HO⟩
  have hl67 : (67 : ℕ) < 256 := by decide
  have hl68 : (68 : ℕ) < 256 := by decide
  have hl69 : (69 : ℕ) < 256 := by decide
  have hl70 : (70 : ℕ) < 256 := by decide
  have hl71 : (71 : ℕ) < 256 := by decide
  have hl72 : (72 : ℕ) < 256 := by decide
  have hl73 : (73 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw132 : w = wordOf wm i 67 hl67 := hw
  have hp132 : stateAt 131 ⟨67, hl67⟩ = St.pending := show stateAt 131 ⟨67, (by decide : (67 : ℕ) < 256)⟩ = St.pending from by decide
  have hn132 : ∀ l : Fin 256, stateAt 132 l = Function.update (stateAt 131) ⟨67, hl67⟩ St.started l := show ∀ l : Fin 256, stateAt 132 l = Function.update (stateAt 131) ⟨67, (by decide : (67 : ℕ) < 256)⟩ St.started l from by decide
  iapply (start_fam c 𝒱₀ arg3 (Memref.whole main_v0_0) i q ai wm hai x3 f 131 67 3 hl67 hj3 rfl hp132 hn132 w hw132 k0_cond132 (fun _ => rfl) (k0_chk132 i) (k0_chk132.dec i) (k0_off396 i) (fun _ => rfl) (fun _ _ => rfl) rfl) $$ [HS HC S3]
  · isplitl [HS]; · iexact HS
    isplitl [HC]; · iexact HC
    iexact S3
  iintro ⟨HS, HC⟩
  iapply (loadMask_wp c 𝒱₀ i 68 hl68 q wm rfl) $$ HM
  iintro HM %w133 %hw133
  have hp133 : stateAt 132 ⟨68, hl68⟩ = St.pending := show stateAt 132 ⟨68, (by decide : (68 : ℕ) < 256)⟩ = St.pending from by decide
  have hn133 : ∀ l : Fin 256, stateAt 133 l = Function.update (stateAt 132) ⟨68, hl68⟩ St.started l := show ∀ l : Fin 256, stateAt 133 l = Function.update (stateAt 132) ⟨68, (by decide : (68 : ℕ) < 256)⟩ St.started l from by decide
  iapply (start_fam c 𝒱₀ arg3 (Memref.whole main_v0_0) i q ai wm hai x3 f 132 68 4 hl68 hj4 rfl hp133 hn133 w133 hw133 k0_cond133 (fun _ => rfl) (k0_chk133 i) (k0_chk133.dec i) (k0_off399 i) (fun _ => rfl) (fun _ _ => rfl) rfl) $$ [HS HC S4]
  · isplitl [HS]; · iexact HS
    isplitl [HC]; · iexact HC
    iexact S4
  iintro ⟨HS, HC⟩
  iapply (loadMask_wp c 𝒱₀ i 69 hl69 q wm rfl) $$ HM
  iintro HM %w134 %hw134
  have hp134 : stateAt 133 ⟨69, hl69⟩ = St.pending := show stateAt 133 ⟨69, (by decide : (69 : ℕ) < 256)⟩ = St.pending from by decide
  have hn134 : ∀ l : Fin 256, stateAt 134 l = Function.update (stateAt 133) ⟨69, hl69⟩ St.started l := show ∀ l : Fin 256, stateAt 134 l = Function.update (stateAt 133) ⟨69, (by decide : (69 : ℕ) < 256)⟩ St.started l from by decide
  iapply (start_fam c 𝒱₀ arg3 (Memref.whole main_v0_0) i q ai wm hai x3 f 133 69 5 hl69 hj5 rfl hp134 hn134 w134 hw134 k0_cond134 (fun _ => rfl) (k0_chk134 i) (k0_chk134.dec i) (k0_off402 i) (fun _ => rfl) (fun _ _ => rfl) rfl) $$ [HS HC S5]
  · isplitl [HS]; · iexact HS
    isplitl [HC]; · iexact HC
    iexact S5
  iintro ⟨HS, HC⟩
  iapply (loadMask_wp c 𝒱₀ i 70 hl70 q wm rfl) $$ HM
  iintro HM %w135 %hw135
  have hp135 : stateAt 134 ⟨70, hl70⟩ = St.pending := show stateAt 134 ⟨70, (by decide : (70 : ℕ) < 256)⟩ = St.pending from by decide
  have hn135 : ∀ l : Fin 256, stateAt 135 l = Function.update (stateAt 134) ⟨70, hl70⟩ St.started l := show ∀ l : Fin 256, stateAt 135 l = Function.update (stateAt 134) ⟨70, (by decide : (70 : ℕ) < 256)⟩ St.started l from by decide
  iapply (start_fam c 𝒱₀ arg3 (Memref.whole main_v0_0) i q ai wm hai x3 f 134 70 6 hl70 hj6 rfl hp135 hn135 w135 hw135 k0_cond135 (fun _ => rfl) (k0_chk135 i) (k0_chk135.dec i) (k0_off405 i) (fun _ => rfl) (fun _ _ => rfl) rfl) $$ [HS HC S6]
  · isplitl [HS]; · iexact HS
    isplitl [HC]; · iexact HC
    iexact S6
  iintro ⟨HS, HC⟩
  iapply (loadMask_wp c 𝒱₀ i 71 hl71 q wm rfl) $$ HM
  iintro HM %w136 %hw136
  have hp136 : stateAt 135 ⟨71, hl71⟩ = St.pending := show stateAt 135 ⟨71, (by decide : (71 : ℕ) < 256)⟩ = St.pending from by decide
  have hn136 : ∀ l : Fin 256, stateAt 136 l = Function.update (stateAt 135) ⟨71, hl71⟩ St.started l := show ∀ l : Fin 256, stateAt 136 l = Function.update (stateAt 135) ⟨71, (by decide : (71 : ℕ) < 256)⟩ St.started l from by decide
  iapply (start_fam c 𝒱₀ arg3 (Memref.whole main_v0_0) i q ai wm hai x3 f 135 71 7 hl71 hj7 rfl hp136 hn136 w136 hw136 k0_cond136 (fun _ => rfl) (k0_chk136 i) (k0_chk136.dec i) (k0_off408 i) (fun _ => rfl) (fun _ _ => rfl) rfl) $$ [HS HC S7]
  · isplitl [HS]; · iexact HS
    isplitl [HC]; · iexact HC
    iexact S7
  iintro ⟨HS, HC⟩
  iapply (loadMask_wp c 𝒱₀ i 72 hl72 q wm rfl) $$ HM
  iintro HM %w137 %hw137
  have hp137 : stateAt 136 ⟨72, hl72⟩ = St.pending := show stateAt 136 ⟨72, (by decide : (72 : ℕ) < 256)⟩ = St.pending from by decide
  have hn137 : ∀ l : Fin 256, stateAt 137 l = Function.update (stateAt 136) ⟨72, hl72⟩ St.started l := show ∀ l : Fin 256, stateAt 137 l = Function.update (stateAt 136) ⟨72, (by decide : (72 : ℕ) < 256)⟩ St.started l from by decide
  iapply (start_fam c 𝒱₀ arg3 (Memref.whole main_v0_0) i q ai wm hai x3 f 136 72 8 hl72 hj8 rfl hp137 hn137 w137 hw137 k0_cond137 (fun _ => rfl) (k0_chk137 i) (k0_chk137.dec i) (k0_off411 i) (fun _ => rfl) (fun _ _ => rfl) rfl) $$ [HS HC S8]
  · isplitl [HS]; · iexact HS
    isplitl [HC]; · iexact HC
    iexact S8
  iintro ⟨HS, HC⟩
  iapply (loadMask_wp c 𝒱₀ i 73 hl73 q wm rfl) $$ HM
  iintro HM %w138 %hw138
  rw [wp_pure]
  imodintro
  isplitr; · ipureintro; exact hw138
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 24 of the body: steps 138 to 143, and the load of the next step's mask word. -/
theorem part24_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 73 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 137 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part24 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 79 (by decide)⌝ ∗ ((c : Thread nD τ).loc main_call0_v12 ↦{q} ai) ∗ ((c : Thread nD τ).loc main_call0_v13 ↦{q} wm) ∗ cells c arg3 (Memref.whole main_v0_0) i ai wm hai x3 f 143 ∗ semPt c 15 (sem_inb 15 (by decide)) ∗ ∃ W', owes (c : Thread nD τ) 0 W')) := by
  rw [k0_part24_eq_skeleton]; unfold k0_part24_skel
  iintro ⟨HS, HM, HC, S9, S10, S11, S12, S13, S14, S15, HO⟩
  have hl73 : (73 : ℕ) < 256 := by decide
  have hl74 : (74 : ℕ) < 256 := by decide
  have hl75 : (75 : ℕ) < 256 := by decide
  have hl76 : (76 : ℕ) < 256 := by decide
  have hl77 : (77 : ℕ) < 256 := by decide
  have hl78 : (78 : ℕ) < 256 := by decide
  have hl79 : (79 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw138 : w = wordOf wm i 73 hl73 := hw
  have hp138 : stateAt 137 ⟨73, hl73⟩ = St.pending := show stateAt 137 ⟨73, (by decide : (73 : ℕ) < 256)⟩ = St.pending from by decide
  have hn138 : ∀ l : Fin 256, stateAt 138 l = Function.update (stateAt 137) ⟨73, hl73⟩ St.started l := show ∀ l : Fin 256, stateAt 138 l = Function.update (stateAt 137) ⟨73, (by decide : (73 : ℕ) < 256)⟩ St.started l from by decide
  iapply (start_fam c 𝒱₀ arg3 (Memref.whole main_v0_0) i q ai wm hai x3 f 137 73 9 hl73 hj9 rfl hp138 hn138 w hw138 k0_cond138 (fun _ => rfl) (k0_chk138 i) (k0_chk138.dec i) (k0_off414 i) (fun _ => rfl) (fun _ _ => rfl) rfl) $$ [HS HC S9]
  · isplitl [HS]; · iexact HS
    isplitl [HC]; · iexact HC
    iexact S9
  iintro ⟨HS, HC⟩
  iapply (loadMask_wp c 𝒱₀ i 74 hl74 q wm rfl) $$ HM
  iintro HM %w139 %hw139
  have hp139 : stateAt 138 ⟨74, hl74⟩ = St.pending := show stateAt 138 ⟨74, (by decide : (74 : ℕ) < 256)⟩ = St.pending from by decide
  have hn139 : ∀ l : Fin 256, stateAt 139 l = Function.update (stateAt 138) ⟨74, hl74⟩ St.started l := show ∀ l : Fin 256, stateAt 139 l = Function.update (stateAt 138) ⟨74, (by decide : (74 : ℕ) < 256)⟩ St.started l from by decide
  iapply (start_fam c 𝒱₀ arg3 (Memref.whole main_v0_0) i q ai wm hai x3 f 138 74 10 hl74 hj10 rfl hp139 hn139 w139 hw139 k0_cond139 (fun _ => rfl) (k0_chk139 i) (k0_chk139.dec i) (k0_off417 i) (fun _ => rfl) (fun _ _ => rfl) rfl) $$ [HS HC S10]
  · isplitl [HS]; · iexact HS
    isplitl [HC]; · iexact HC
    iexact S10
  iintro ⟨HS, HC⟩
  iapply (loadMask_wp c 𝒱₀ i 75 hl75 q wm rfl) $$ HM
  iintro HM %w140 %hw140
  have hp140 : stateAt 139 ⟨75, hl75⟩ = St.pending := show stateAt 139 ⟨75, (by decide : (75 : ℕ) < 256)⟩ = St.pending from by decide
  have hn140 : ∀ l : Fin 256, stateAt 140 l = Function.update (stateAt 139) ⟨75, hl75⟩ St.started l := show ∀ l : Fin 256, stateAt 140 l = Function.update (stateAt 139) ⟨75, (by decide : (75 : ℕ) < 256)⟩ St.started l from by decide
  iapply (start_fam c 𝒱₀ arg3 (Memref.whole main_v0_0) i q ai wm hai x3 f 139 75 11 hl75 hj11 rfl hp140 hn140 w140 hw140 k0_cond140 (fun _ => rfl) (k0_chk140 i) (k0_chk140.dec i) (k0_off420 i) (fun _ => rfl) (fun _ _ => rfl) rfl) $$ [HS HC S11]
  · isplitl [HS]; · iexact HS
    isplitl [HC]; · iexact HC
    iexact S11
  iintro ⟨HS, HC⟩
  iapply (loadMask_wp c 𝒱₀ i 76 hl76 q wm rfl) $$ HM
  iintro HM %w141 %hw141
  have hp141 : stateAt 140 ⟨76, hl76⟩ = St.pending := show stateAt 140 ⟨76, (by decide : (76 : ℕ) < 256)⟩ = St.pending from by decide
  have hn141 : ∀ l : Fin 256, stateAt 141 l = Function.update (stateAt 140) ⟨76, hl76⟩ St.started l := show ∀ l : Fin 256, stateAt 141 l = Function.update (stateAt 140) ⟨76, (by decide : (76 : ℕ) < 256)⟩ St.started l from by decide
  iapply (start_fam c 𝒱₀ arg3 (Memref.whole main_v0_0) i q ai wm hai x3 f 140 76 12 hl76 hj12 rfl hp141 hn141 w141 hw141 k0_cond141 (fun _ => rfl) (k0_chk141 i) (k0_chk141.dec i) (k0_off423 i) (fun _ => rfl) (fun _ _ => rfl) rfl) $$ [HS HC S12]
  · isplitl [HS]; · iexact HS
    isplitl [HC]; · iexact HC
    iexact S12
  iintro ⟨HS, HC⟩
  iapply (loadMask_wp c 𝒱₀ i 77 hl77 q wm rfl) $$ HM
  iintro HM %w142 %hw142
  have hp142 : stateAt 141 ⟨77, hl77⟩ = St.pending := show stateAt 141 ⟨77, (by decide : (77 : ℕ) < 256)⟩ = St.pending from by decide
  have hn142 : ∀ l : Fin 256, stateAt 142 l = Function.update (stateAt 141) ⟨77, hl77⟩ St.started l := show ∀ l : Fin 256, stateAt 142 l = Function.update (stateAt 141) ⟨77, (by decide : (77 : ℕ) < 256)⟩ St.started l from by decide
  iapply (start_fam c 𝒱₀ arg3 (Memref.whole main_v0_0) i q ai wm hai x3 f 141 77 13 hl77 hj13 rfl hp142 hn142 w142 hw142 k0_cond142 (fun _ => rfl) (k0_chk142 i) (k0_chk142.dec i) (k0_off426 i) (fun _ => rfl) (fun _ _ => rfl) rfl) $$ [HS HC S13]
  · isplitl [HS]; · iexact HS
    isplitl [HC]; · iexact HC
    iexact S13
  iintro ⟨HS, HC⟩
  iapply (loadMask_wp c 𝒱₀ i 78 hl78 q wm rfl) $$ HM
  iintro HM %w143 %hw143
  have hp143 : stateAt 142 ⟨78, hl78⟩ = St.pending := show stateAt 142 ⟨78, (by decide : (78 : ℕ) < 256)⟩ = St.pending from by decide
  have hn143 : ∀ l : Fin 256, stateAt 143 l = Function.update (stateAt 142) ⟨78, hl78⟩ St.started l := show ∀ l : Fin 256, stateAt 143 l = Function.update (stateAt 142) ⟨78, (by decide : (78 : ℕ) < 256)⟩ St.started l from by decide
  iapply (start_fam c 𝒱₀ arg3 (Memref.whole main_v0_0) i q ai wm hai x3 f 142 78 14 hl78 hj14 rfl hp143 hn143 w143 hw143 k0_cond143 (fun _ => rfl) (k0_chk143 i) (k0_chk143.dec i) (k0_off429 i) (fun _ => rfl) (fun _ _ => rfl) rfl) $$ [HS HC S14]
  · isplitl [HS]; · iexact HS
    isplitl [HC]; · iexact HC
    iexact S14
  iintro ⟨HS, HC⟩
  iapply (loadMask_wp c 𝒱₀ i 79 hl79 q wm rfl) $$ HM
  iintro HM %w144 %hw144
  rw [wp_pure]
  imodintro
  isplitr; · ipureintro; exact hw144
  isplitl [HS]; · iexact HS
  isplitl [HM]; · iexact HM
  isplitl [HC]; · iexact HC
  isplitl [S15]; · iexact S15
  iexists _; iexact HO

set_option maxHeartbeats 0 in
/-- Part 25 of the body: steps 144 to 149, and the load of the next step's mask word. -/
theorem part25_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 79 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 143 ∗ semPt c 15 (sem_inb 15 (by decide)) ∗ owes (c : Thread nD τ) 0 W)
      ⊢ wp frame (wpE (defs₀ (F := F)) 𝒱₀ (c : Thread nD τ) none) Set.univ (k0_part25 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 69 (by decide)⌝ ∗ ((c : Thread nD τ).loc main_call0_v12 ↦{q} ai) ∗ ((c : Thread nD τ).loc main_call0_v13 ↦{q} wm) ∗ cells c arg3 (Memref.whole main_v0_0) i ai wm hai x3 f 149 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part25_eq_skeleton]; unfold k0_part25_skel
  iintro ⟨HS, HM, HC, S15, HO⟩
  have hl64 : (64 : ℕ) < 256 := by decide
  have hl65 : (65 : ℕ) < 256 := by decide
  have hl66 : (66 : ℕ) < 256 := by decide
  have hl67 : (67 : ℕ) < 256 := by decide
  have hl68 : (68 : ℕ) < 256 := by decide
  have hl69 : (69 : ℕ) < 256 := by decide
  have hl79 : (79 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw144 : w = wordOf wm i 79 hl79 := hw
  have hp144 : stateAt 143 ⟨79, hl79⟩ = St.pending := show stateAt 143 ⟨79, (by decide : (79 : ℕ) < 256)⟩ = St.pending from by decide
  have hn144 : ∀ l : Fin 256, stateAt 144 l = Function.update (stateAt 143) ⟨79, hl79⟩ St.started l := show ∀ l : Fin 256, stateAt 144 l = Function.update (stateAt 143) ⟨79, (by decide : (79 : ℕ) < 256)⟩ St.started l from by decide
  iapply (start_fam c 𝒱₀ arg3 (Memref.whole main_v0_0) i q ai wm hai x3 f 143 79 15 hl79 hj15 rfl hp144 hn144 w hw144 k0_cond144 (fun _ => rfl) (k0_chk144 i) (k0_chk144.dec i) (k0_off432 i) (fun _ => rfl) (fun _ _ => rfl) rfl) $$ [HS HC S15]
  · isplitl [HS]; · iexact HS
    isplitl [HC]; · iexact HC
    iexact S15
  iintro ⟨HS, HC⟩
  iapply (loadMask_wp c 𝒱₀ i 64 hl64 q wm rfl) $$ HM
  iintro HM %w145 %hw145
  have hp145 : stateAt 144 ⟨64, hl64⟩ = St.started := show stateAt 144 ⟨64, (by decide : (64 : ℕ) < 256)⟩ = St.started from by decide
  have hn145 : ∀ l : Fin 256, stateAt 145 l = Function.update (stateAt 144) ⟨64, hl64⟩ St.done l := show ∀ l : Fin 256, stateAt 145 l = Function.update (stateAt 144) ⟨64, (by decide : (64 : ℕ) < 256)⟩ St.done l from by decide
  iapply (wait_fam c 𝒱₀ arg3 (Memref.whole main_v0_0) i q ai wm hai x3 f 144 64 0 hl64 hj0 rfl hp145 hn145 w145 hw145 (k0_off434 i) rfl (k0_off434_inb i) k0_cond145 (fun _ => rfl) (k0_chk145 i) (k0_chk145.dec i) (k0_off435 i) (fun _ => rfl) (fun _ _ h => h) (k0_off435_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W145, HO⟩
  iapply (loadMask_wp c 𝒱₀ i 65 hl65 q wm rfl) $$ HM
  iintro HM %w146 %hw146
  have hp146 : stateAt 145 ⟨65, hl65⟩ = St.started := show stateAt 145 ⟨65, (by decide : (65 : ℕ) < 256)⟩ = St.started from by decide
  have hn146 : ∀ l : Fin 256, stateAt 146 l = Function.update (stateAt 145) ⟨65, hl65⟩ St.done l := show ∀ l : Fin 256, stateAt 146 l = Function.update (stateAt 145) ⟨65, (by decide : (65 : ℕ) < 256)⟩ St.done l from by decide
  iapply (wait_fam c 𝒱₀ arg3 (Memref.whole main_v0_0) i q ai wm hai x3 f 145 65 1 hl65 hj1 rfl hp146 hn146 w146 hw146 (k0_off437 i) rfl (k0_off437_inb i) k0_cond146 (fun _ => rfl) (k0_chk146 i) (k0_chk146.dec i) (k0_off438 i) (fun _ => rfl) (fun _ _ h => h) (k0_off438_inb i) ((View.wordExact_bits rfl).reshape _ _) (fun _ _ => (View.wordExact_bits rfl).reshape _ _) _ _ W145) $$ [HS HM HC HO]
  · isplitl [HS]; · iexact HS
    isplitl [HM]; · iexact HM
    isplitl [HC]; · iexact HC
    iexact HO
  iintro ⟨HS, HM, HC, S1, %W146, HO⟩
  iapply (loadMask_wp c 𝒱₀ i 66 hl66 q wm rfl) $$ HM
  iintro HM %w147 %hw147
  have hp147 : stateAt 146 ⟨66, hl66⟩ = St.started := show stateAt 146 ⟨66, (by decide : (66 : ℕ) < 256)⟩ = St.started from by decide
  have hn147 : ∀ l : Fin 256, stateAt 147 l = Function.update (stateAt 146) ⟨66, hl66⟩ St.done l := show ∀ l : Fin 256, stateAt 147 l = Function.update (stateAt 146) ⟨66, (by decide : (66 : ℕ) < 256)⟩ St.done l from by decide
  iapply (wait_fam c 𝒱₀ arg3 (Memref.whole main_v0_0) i q ai wm hai x3 f 146 66 2 hl66 hj2 rfl hp147 hn147 w147 hw147 (k0_off440 i) rfl (k0_off440_inb i) k0_cond147 (fun _ => rfl) (k0_chk147 i) (k0_chk147.dec i) (k0_off441 i) (fun _ => rfl) (fun _ _ h => h) (k0_off441_inb i) ((View.wordExact_bits rfl).reshape _ _) (fun _ _ => (View.wordExact_bits rfl).reshape _ _) _ _ W146) $$ [HS HM HC HO]
  · isplitl [HS]; · iexact HS
    isplitl [HM]; · iexact HM
    isplitl [HC]; · iexact HC
    iexact HO
  iintro ⟨HS, HM, HC, S2, %W147, HO⟩
  iapply (loadMask_wp c 𝒱₀ i 67 hl67 q wm rfl) $$ HM
  iintro HM %w148 %hw148
  have hp148 : stateAt 147 ⟨67, hl67⟩ = St.started := show stateAt 147 ⟨67, (by decide : (67 : ℕ) < 256)⟩ = St.started from by decide
  have hn148 : ∀ l : Fin 256, stateAt 148 l = Function.update (stateAt 147) ⟨67, hl67⟩ St.done l := show ∀ l : Fin 256, stateAt 148 l = Function.update (stateAt 147) ⟨67, (by decide : (67 : ℕ) < 256)⟩ St.done l from by decide
  iapply (wait_fam c 𝒱₀ arg3 (Memref.whole main_v0_0) i q ai wm hai x3 f 147 67 3 hl67 hj3 rfl hp148 hn148 w148 hw148 (k0_off443 i) rfl (k0_off443_inb i) k0_cond148 (fun _ => rfl) (k0_chk148 i) (k0_chk148.dec i) (k0_off444 i) (fun _ => rfl) (fun _ _ h => h) (k0_off444_inb i) ((View.wordExact_bits rfl).reshape _ _) (fun _ _ => (View.wordExact_bits rfl).reshape _ _) _ _ W147) $$ [HS HM HC HO]
  · isplitl [HS]; · iexact HS
    isplitl [HM]; · iexact HM
    isplitl [HC]; · iexact HC
    iexact HO
  iintro ⟨HS, HM, HC, S3, %W148, HO⟩
  iapply (loadMask_wp c 𝒱₀ i 68 hl68 q wm rfl) $$ HM
  iintro HM %w149 %hw149
  have hp149 : stateAt 148 ⟨68, hl68⟩ = St.started := show stateAt 148 ⟨68, (by decide : (68 : ℕ) < 256)⟩ = St.started from by decide
  have hn149 : ∀ l : Fin 256, stateAt 149 l = Function.update (stateAt 148) ⟨68, hl68⟩ St.done l := show ∀ l : Fin 256, stateAt 149 l = Function.update (stateAt 148) ⟨68, (by decide : (68 : ℕ) < 256)⟩ St.done l from by decide
  iapply (wait_fam c 𝒱₀ arg3 (Memref.whole main_v0_0) i q ai wm hai x3 f 148 68 4 hl68 hj4 rfl hp149 hn149 w149 hw149 (k0_off446 i) rfl (k0_off446_inb i) k0_cond149 (fun _ => rfl) (k0_chk149 i) (k0_chk149.dec i) (k0_off447 i) (fun _ => rfl) (fun _ _ h => h) (k0_off447_inb i) ((View.wordExact_bits rfl).reshape _ _) (fun _ _ => (View.wordExact_bits rfl).reshape _ _) _ _ W148) $$ [HS HM HC HO]
  · isplitl [HS]; · iexact HS
    isplitl [HM]; · iexact HM
    isplitl [HC]; · iexact HC
    iexact HO
  iintro ⟨HS, HM, HC, S4, %W149, HO⟩
  iapply (loadMask_wp c 𝒱₀ i 69 hl69 q wm rfl) $$ HM
  iintro HM %w150 %hw150
  rw [wp_pure]
  imodintro
  isplitr; · ipureintro; exact hw150
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 26 of the body: steps 150 to 155, and the load of the next step's mask word. -/
theorem part26_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 69 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 149 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part26 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 75 (by decide)⌝ ∗ ((c : Thread nD τ).loc main_call0_v12 ↦{q} ai) ∗ ((c : Thread nD τ).loc main_call0_v13 ↦{q} wm) ∗ cells c arg3 (Memref.whole main_v0_0) i ai wm hai x3 f 155 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part26_eq_skeleton]; unfold k0_part26_skel
  iintro ⟨HS, HM, HC, S0, S1, S2, S3, S4, HO⟩
  have hl69 : (69 : ℕ) < 256 := by decide
  have hl70 : (70 : ℕ) < 256 := by decide
  have hl71 : (71 : ℕ) < 256 := by decide
  have hl72 : (72 : ℕ) < 256 := by decide
  have hl73 : (73 : ℕ) < 256 := by decide
  have hl74 : (74 : ℕ) < 256 := by decide
  have hl75 : (75 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw150 : w = wordOf wm i 69 hl69 := hw
  have hp150 : stateAt 149 ⟨69, hl69⟩ = St.started := show stateAt 149 ⟨69, (by decide : (69 : ℕ) < 256)⟩ = St.started from by decide
  have hn150 : ∀ l : Fin 256, stateAt 150 l = Function.update (stateAt 149) ⟨69, hl69⟩ St.done l := show ∀ l : Fin 256, stateAt 150 l = Function.update (stateAt 149) ⟨69, (by decide : (69 : ℕ) < 256)⟩ St.done l from by decide
  iapply (wait_fam c 𝒱₀ arg3 (Memref.whole main_v0_0) i q ai wm hai x3 f 149 69 5 hl69 hj5 rfl hp150 hn150 w hw150 (k0_off449 i) rfl (k0_off449_inb i) k0_cond150 (fun _ => rfl) (k0_chk150 i) (k0_chk150.dec i) (k0_off450 i) (fun _ => rfl) (fun _ _ h => h) (k0_off450_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W150, HO⟩
  iapply (loadMask_wp c 𝒱₀ i 70 hl70 q wm rfl) $$ HM
  iintro HM %w151 %hw151
  have hp151 : stateAt 150 ⟨70, hl70⟩ = St.started := show stateAt 150 ⟨70, (by decide : (70 : ℕ) < 256)⟩ = St.started from by decide
  have hn151 : ∀ l : Fin 256, stateAt 151 l = Function.update (stateAt 150) ⟨70, hl70⟩ St.done l := show ∀ l : Fin 256, stateAt 151 l = Function.update (stateAt 150) ⟨70, (by decide : (70 : ℕ) < 256)⟩ St.done l from by decide
  iapply (wait_fam c 𝒱₀ arg3 (Memref.whole main_v0_0) i q ai wm hai x3 f 150 70 6 hl70 hj6 rfl hp151 hn151 w151 hw151 (k0_off452 i) rfl (k0_off452_inb i) k0_cond151 (fun _ => rfl) (k0_chk151 i) (k0_chk151.dec i) (k0_off453 i) (fun _ => rfl) (fun _ _ h => h) (k0_off453_inb i) ((View.wordExact_bits rfl).reshape _ _) (fun _ _ => (View.wordExact_bits rfl).reshape _ _) _ _ W150) $$ [HS HM HC HO]
  · isplitl [HS]; · iexact HS
    isplitl [HM]; · iexact HM
    isplitl [HC]; · iexact HC
    iexact HO
  iintro ⟨HS, HM, HC, S6, %W151, HO⟩
  iapply (loadMask_wp c 𝒱₀ i 71 hl71 q wm rfl) $$ HM
  iintro HM %w152 %hw152
  have hp152 : stateAt 151 ⟨71, hl71⟩ = St.started := show stateAt 151 ⟨71, (by decide : (71 : ℕ) < 256)⟩ = St.started from by decide
  have hn152 : ∀ l : Fin 256, stateAt 152 l = Function.update (stateAt 151) ⟨71, hl71⟩ St.done l := show ∀ l : Fin 256, stateAt 152 l = Function.update (stateAt 151) ⟨71, (by decide : (71 : ℕ) < 256)⟩ St.done l from by decide
  iapply (wait_fam c 𝒱₀ arg3 (Memref.whole main_v0_0) i q ai wm hai x3 f 151 71 7 hl71 hj7 rfl hp152 hn152 w152 hw152 (k0_off455 i) rfl (k0_off455_inb i) k0_cond152 (fun _ => rfl) (k0_chk152 i) (k0_chk152.dec i) (k0_off456 i) (fun _ => rfl) (fun _ _ h => h) (k0_off456_inb i) ((View.wordExact_bits rfl).reshape _ _) (fun _ _ => (View.wordExact_bits rfl).reshape _ _) _ _ W151) $$ [HS HM HC HO]
  · isplitl [HS]; · iexact HS
    isplitl [HM]; · iexact HM
    isplitl [HC]; · iexact HC
    iexact HO
  iintro ⟨HS, HM, HC, S7, %W152, HO⟩
  iapply (loadMask_wp c 𝒱₀ i 72 hl72 q wm rfl) $$ HM
  iintro HM %w153 %hw153
  have hp153 : stateAt 152 ⟨72, hl72⟩ = St.started := show stateAt 152 ⟨72, (by decide : (72 : ℕ) < 256)⟩ = St.started from by decide
  have hn153 : ∀ l : Fin 256, stateAt 153 l = Function.update (stateAt 152) ⟨72, hl72⟩ St.done l := show ∀ l : Fin 256, stateAt 153 l = Function.update (stateAt 152) ⟨72, (by decide : (72 : ℕ) < 256)⟩ St.done l from by decide
  iapply (wait_fam c 𝒱₀ arg3 (Memref.whole main_v0_0) i q ai wm hai x3 f 152 72 8 hl72 hj8 rfl hp153 hn153 w153 hw153 (k0_off458 i) rfl (k0_off458_inb i) k0_cond153 (fun _ => rfl) (k0_chk153 i) (k0_chk153.dec i) (k0_off459 i) (fun _ => rfl) (fun _ _ h => h) (k0_off459_inb i) ((View.wordExact_bits rfl).reshape _ _) (fun _ _ => (View.wordExact_bits rfl).reshape _ _) _ _ W152) $$ [HS HM HC HO]
  · isplitl [HS]; · iexact HS
    isplitl [HM]; · iexact HM
    isplitl [HC]; · iexact HC
    iexact HO
  iintro ⟨HS, HM, HC, S8, %W153, HO⟩
  iapply (loadMask_wp c 𝒱₀ i 73 hl73 q wm rfl) $$ HM
  iintro HM %w154 %hw154
  have hp154 : stateAt 153 ⟨73, hl73⟩ = St.started := show stateAt 153 ⟨73, (by decide : (73 : ℕ) < 256)⟩ = St.started from by decide
  have hn154 : ∀ l : Fin 256, stateAt 154 l = Function.update (stateAt 153) ⟨73, hl73⟩ St.done l := show ∀ l : Fin 256, stateAt 154 l = Function.update (stateAt 153) ⟨73, (by decide : (73 : ℕ) < 256)⟩ St.done l from by decide
  iapply (wait_fam c 𝒱₀ arg3 (Memref.whole main_v0_0) i q ai wm hai x3 f 153 73 9 hl73 hj9 rfl hp154 hn154 w154 hw154 (k0_off461 i) rfl (k0_off461_inb i) k0_cond154 (fun _ => rfl) (k0_chk154 i) (k0_chk154.dec i) (k0_off462 i) (fun _ => rfl) (fun _ _ h => h) (k0_off462_inb i) ((View.wordExact_bits rfl).reshape _ _) (fun _ _ => (View.wordExact_bits rfl).reshape _ _) _ _ W153) $$ [HS HM HC HO]
  · isplitl [HS]; · iexact HS
    isplitl [HM]; · iexact HM
    isplitl [HC]; · iexact HC
    iexact HO
  iintro ⟨HS, HM, HC, S9, %W154, HO⟩
  iapply (loadMask_wp c 𝒱₀ i 74 hl74 q wm rfl) $$ HM
  iintro HM %w155 %hw155
  have hp155 : stateAt 154 ⟨74, hl74⟩ = St.started := show stateAt 154 ⟨74, (by decide : (74 : ℕ) < 256)⟩ = St.started from by decide
  have hn155 : ∀ l : Fin 256, stateAt 155 l = Function.update (stateAt 154) ⟨74, hl74⟩ St.done l := show ∀ l : Fin 256, stateAt 155 l = Function.update (stateAt 154) ⟨74, (by decide : (74 : ℕ) < 256)⟩ St.done l from by decide
  iapply (wait_fam c 𝒱₀ arg3 (Memref.whole main_v0_0) i q ai wm hai x3 f 154 74 10 hl74 hj10 rfl hp155 hn155 w155 hw155 (k0_off464 i) rfl (k0_off464_inb i) k0_cond155 (fun _ => rfl) (k0_chk155 i) (k0_chk155.dec i) (k0_off465 i) (fun _ => rfl) (fun _ _ h => h) (k0_off465_inb i) ((View.wordExact_bits rfl).reshape _ _) (fun _ _ => (View.wordExact_bits rfl).reshape _ _) _ _ W154) $$ [HS HM HC HO]
  · isplitl [HS]; · iexact HS
    isplitl [HM]; · iexact HM
    isplitl [HC]; · iexact HC
    iexact HO
  iintro ⟨HS, HM, HC, S10, %W155, HO⟩
  iapply (loadMask_wp c 𝒱₀ i 75 hl75 q wm rfl) $$ HM
  iintro HM %w156 %hw156
  rw [wp_pure]
  imodintro
  isplitr; · ipureintro; exact hw156
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 27 of the body: steps 156 to 161, and the load of the next step's mask word. -/
theorem part27_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 75 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 155 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part27 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 81 (by decide)⌝ ∗ ((c : Thread nD τ).loc main_call0_v12 ↦{q} ai) ∗ ((c : Thread nD τ).loc main_call0_v13 ↦{q} wm) ∗ cells c arg3 (Memref.whole main_v0_0) i ai wm hai x3 f 161 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part27_eq_skeleton]; unfold k0_part27_skel
  iintro ⟨HS, HM, HC, S0, S1, S2, S3, S4, S5, S6, S7, S8, S9, S10, HO⟩
  have hl75 : (75 : ℕ) < 256 := by decide
  have hl76 : (76 : ℕ) < 256 := by decide
  have hl77 : (77 : ℕ) < 256 := by decide
  have hl78 : (78 : ℕ) < 256 := by decide
  have hl79 : (79 : ℕ) < 256 := by decide
  have hl80 : (80 : ℕ) < 256 := by decide
  have hl81 : (81 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw156 : w = wordOf wm i 75 hl75 := hw
  have hp156 : stateAt 155 ⟨75, hl75⟩ = St.started := show stateAt 155 ⟨75, (by decide : (75 : ℕ) < 256)⟩ = St.started from by decide
  have hn156 : ∀ l : Fin 256, stateAt 156 l = Function.update (stateAt 155) ⟨75, hl75⟩ St.done l := show ∀ l : Fin 256, stateAt 156 l = Function.update (stateAt 155) ⟨75, (by decide : (75 : ℕ) < 256)⟩ St.done l from by decide
  iapply (wait_fam c 𝒱₀ arg3 (Memref.whole main_v0_0) i q ai wm hai x3 f 155 75 11 hl75 hj11 rfl hp156 hn156 w hw156 (k0_off467 i) rfl (k0_off467_inb i) k0_cond156 (fun _ => rfl) (k0_chk156 i) (k0_chk156.dec i) (k0_off468 i) (fun _ => rfl) (fun _ _ h => h) (k0_off468_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W156, HO⟩
  iapply (loadMask_wp c 𝒱₀ i 76 hl76 q wm rfl) $$ HM
  iintro HM %w157 %hw157
  have hp157 : stateAt 156 ⟨76, hl76⟩ = St.started := show stateAt 156 ⟨76, (by decide : (76 : ℕ) < 256)⟩ = St.started from by decide
  have hn157 : ∀ l : Fin 256, stateAt 157 l = Function.update (stateAt 156) ⟨76, hl76⟩ St.done l := show ∀ l : Fin 256, stateAt 157 l = Function.update (stateAt 156) ⟨76, (by decide : (76 : ℕ) < 256)⟩ St.done l from by decide
  iapply (wait_fam c 𝒱₀ arg3 (Memref.whole main_v0_0) i q ai wm hai x3 f 156 76 12 hl76 hj12 rfl hp157 hn157 w157 hw157 (k0_off470 i) rfl (k0_off470_inb i) k0_cond157 (fun _ => rfl) (k0_chk157 i) (k0_chk157.dec i) (k0_off471 i) (fun _ => rfl) (fun _ _ h => h) (k0_off471_inb i) ((View.wordExact_bits rfl).reshape _ _) (fun _ _ => (View.wordExact_bits rfl).reshape _ _) _ _ W156) $$ [HS HM HC HO]
  · isplitl [HS]; · iexact HS
    isplitl [HM]; · iexact HM
    isplitl [HC]; · iexact HC
    iexact HO
  iintro ⟨HS, HM, HC, S12, %W157, HO⟩
  iapply (loadMask_wp c 𝒱₀ i 77 hl77 q wm rfl) $$ HM
  iintro HM %w158 %hw158
  have hp158 : stateAt 157 ⟨77, hl77⟩ = St.started := show stateAt 157 ⟨77, (by decide : (77 : ℕ) < 256)⟩ = St.started from by decide
  have hn158 : ∀ l : Fin 256, stateAt 158 l = Function.update (stateAt 157) ⟨77, hl77⟩ St.done l := show ∀ l : Fin 256, stateAt 158 l = Function.update (stateAt 157) ⟨77, (by decide : (77 : ℕ) < 256)⟩ St.done l from by decide
  iapply (wait_fam c 𝒱₀ arg3 (Memref.whole main_v0_0) i q ai wm hai x3 f 157 77 13 hl77 hj13 rfl hp158 hn158 w158 hw158 (k0_off473 i) rfl (k0_off473_inb i) k0_cond158 (fun _ => rfl) (k0_chk158 i) (k0_chk158.dec i) (k0_off474 i) (fun _ => rfl) (fun _ _ h => h) (k0_off474_inb i) ((View.wordExact_bits rfl).reshape _ _) (fun _ _ => (View.wordExact_bits rfl).reshape _ _) _ _ W157) $$ [HS HM HC HO]
  · isplitl [HS]; · iexact HS
    isplitl [HM]; · iexact HM
    isplitl [HC]; · iexact HC
    iexact HO
  iintro ⟨HS, HM, HC, S13, %W158, HO⟩
  iapply (loadMask_wp c 𝒱₀ i 78 hl78 q wm rfl) $$ HM
  iintro HM %w159 %hw159
  have hp159 : stateAt 158 ⟨78, hl78⟩ = St.started := show stateAt 158 ⟨78, (by decide : (78 : ℕ) < 256)⟩ = St.started from by decide
  have hn159 : ∀ l : Fin 256, stateAt 159 l = Function.update (stateAt 158) ⟨78, hl78⟩ St.done l := show ∀ l : Fin 256, stateAt 159 l = Function.update (stateAt 158) ⟨78, (by decide : (78 : ℕ) < 256)⟩ St.done l from by decide
  iapply (wait_fam c 𝒱₀ arg3 (Memref.whole main_v0_0) i q ai wm hai x3 f 158 78 14 hl78 hj14 rfl hp159 hn159 w159 hw159 (k0_off476 i) rfl (k0_off476_inb i) k0_cond159 (fun _ => rfl) (k0_chk159 i) (k0_chk159.dec i) (k0_off477 i) (fun _ => rfl) (fun _ _ h => h) (k0_off477_inb i) ((View.wordExact_bits rfl).reshape _ _) (fun _ _ => (View.wordExact_bits rfl).reshape _ _) _ _ W158) $$ [HS HM HC HO]
  · isplitl [HS]; · iexact HS
    isplitl [HM]; · iexact HM
    isplitl [HC]; · iexact HC
    iexact HO
  iintro ⟨HS, HM, HC, S14, %W159, HO⟩
  iapply (loadMask_wp c 𝒱₀ i 79 hl79 q wm rfl) $$ HM
  iintro HM %w160 %hw160
  have hp160 : stateAt 159 ⟨79, hl79⟩ = St.started := show stateAt 159 ⟨79, (by decide : (79 : ℕ) < 256)⟩ = St.started from by decide
  have hn160 : ∀ l : Fin 256, stateAt 160 l = Function.update (stateAt 159) ⟨79, hl79⟩ St.done l := show ∀ l : Fin 256, stateAt 160 l = Function.update (stateAt 159) ⟨79, (by decide : (79 : ℕ) < 256)⟩ St.done l from by decide
  iapply (wait_fam c 𝒱₀ arg3 (Memref.whole main_v0_0) i q ai wm hai x3 f 159 79 15 hl79 hj15 rfl hp160 hn160 w160 hw160 (k0_off479 i) rfl (k0_off479_inb i) k0_cond160 (fun _ => rfl) (k0_chk160 i) (k0_chk160.dec i) (k0_off480 i) (fun _ => rfl) (fun _ _ h => h) (k0_off480_inb i) ((View.wordExact_bits rfl).reshape _ _) (fun _ _ => (View.wordExact_bits rfl).reshape _ _) _ _ W159) $$ [HS HM HC HO]
  · isplitl [HS]; · iexact HS
    isplitl [HM]; · iexact HM
    isplitl [HC]; · iexact HC
    iexact HO
  iintro ⟨HS, HM, HC, S15, %W160, HO⟩
  iapply (loadMask_wp c 𝒱₀ i 80 hl80 q wm rfl) $$ HM
  iintro HM %w161 %hw161
  have hp161 : stateAt 160 ⟨80, hl80⟩ = St.pending := show stateAt 160 ⟨80, (by decide : (80 : ℕ) < 256)⟩ = St.pending from by decide
  have hn161 : ∀ l : Fin 256, stateAt 161 l = Function.update (stateAt 160) ⟨80, hl80⟩ St.started l := show ∀ l : Fin 256, stateAt 161 l = Function.update (stateAt 160) ⟨80, (by decide : (80 : ℕ) < 256)⟩ St.started l from by decide
  iapply (start_fam c 𝒱₀ arg3 (Memref.whole main_v0_0) i q ai wm hai x3 f 160 80 0 hl80 hj0 rfl hp161 hn161 w161 hw161 k0_cond161 (fun _ => rfl) (k0_chk161 i) (k0_chk161.dec i) (k0_off483 i) (fun _ => rfl) (fun _ _ => rfl) rfl) $$ [HS HC S0]
  · isplitl [HS]; · iexact HS
    isplitl [HC]; · iexact HC
    iexact S0
  iintro ⟨HS, HC⟩
  iapply (loadMask_wp c 𝒱₀ i 81 hl81 q wm rfl) $$ HM
  iintro HM %w162 %hw162
  rw [wp_pure]
  imodintro
  isplitr; · ipureintro; exact hw162
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 28 of the body: steps 162 to 167, and the load of the next step's mask word. -/
theorem part28_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 81 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 161 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part28 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 87 (by decide)⌝ ∗ ((c : Thread nD τ).loc main_call0_v12 ↦{q} ai) ∗ ((c : Thread nD τ).loc main_call0_v13 ↦{q} wm) ∗ cells c arg3 (Memref.whole main_v0_0) i ai wm hai x3 f 167 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part28_eq_skeleton]; unfold k0_part28_skel
  iintro ⟨HS, HM, HC, S1, S2, S3, S4, S5, S6, S7, S8, S9, S10, S11, S12, S13, S14, S15, HO⟩
  have hl81 : (81 : ℕ) < 256 := by decide
  have hl82 : (82 : ℕ) < 256 := by decide
  have hl83 : (83 : ℕ) < 256 := by decide
  have hl84 : (84 : ℕ) < 256 := by decide
  have hl85 : (85 : ℕ) < 256 := by decide
  have hl86 : (86 : ℕ) < 256 := by decide
  have hl87 : (87 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw162 : w = wordOf wm i 81 hl81 := hw
  have hp162 : stateAt 161 ⟨81, hl81⟩ = St.pending := show stateAt 161 ⟨81, (by decide : (81 : ℕ) < 256)⟩ = St.pending from by decide
  have hn162 : ∀ l : Fin 256, stateAt 162 l = Function.update (stateAt 161) ⟨81, hl81⟩ St.started l := show ∀ l : Fin 256, stateAt 162 l = Function.update (stateAt 161) ⟨81, (by decide : (81 : ℕ) < 256)⟩ St.started l from by decide
  iapply (start_fam c 𝒱₀ arg3 (Memref.whole main_v0_0) i q ai wm hai x3 f 161 81 1 hl81 hj1 rfl hp162 hn162 w hw162 k0_cond162 (fun _ => rfl) (k0_chk162 i) (k0_chk162.dec i) (k0_off486 i) (fun _ => rfl) (fun _ _ => rfl) rfl) $$ [HS HC S1]
  · isplitl [HS]; · iexact HS
    isplitl [HC]; · iexact HC
    iexact S1
  iintro ⟨HS, HC⟩
  iapply (loadMask_wp c 𝒱₀ i 82 hl82 q wm rfl) $$ HM
  iintro HM %w163 %hw163
  have hp163 : stateAt 162 ⟨82, hl82⟩ = St.pending := show stateAt 162 ⟨82, (by decide : (82 : ℕ) < 256)⟩ = St.pending from by decide
  have hn163 : ∀ l : Fin 256, stateAt 163 l = Function.update (stateAt 162) ⟨82, hl82⟩ St.started l := show ∀ l : Fin 256, stateAt 163 l = Function.update (stateAt 162) ⟨82, (by decide : (82 : ℕ) < 256)⟩ St.started l from by decide
  iapply (start_fam c 𝒱₀ arg3 (Memref.whole main_v0_0) i q ai wm hai x3 f 162 82 2 hl82 hj2 rfl hp163 hn163 w163 hw163 k0_cond163 (fun _ => rfl) (k0_chk163 i) (k0_chk163.dec i) (k0_off489 i) (fun _ => rfl) (fun _ _ => rfl) rfl) $$ [HS HC S2]
  · isplitl [HS]; · iexact HS
    isplitl [HC]; · iexact HC
    iexact S2
  iintro ⟨HS, HC⟩
  iapply (loadMask_wp c 𝒱₀ i 83 hl83 q wm rfl) $$ HM
  iintro HM %w164 %hw164
  have hp164 : stateAt 163 ⟨83, hl83⟩ = St.pending := show stateAt 163 ⟨83, (by decide : (83 : ℕ) < 256)⟩ = St.pending from by decide
  have hn164 : ∀ l : Fin 256, stateAt 164 l = Function.update (stateAt 163) ⟨83, hl83⟩ St.started l := show ∀ l : Fin 256, stateAt 164 l = Function.update (stateAt 163) ⟨83, (by decide : (83 : ℕ) < 256)⟩ St.started l from by decide
  iapply (start_fam c 𝒱₀ arg3 (Memref.whole main_v0_0) i q ai wm hai x3 f 163 83 3 hl83 hj3 rfl hp164 hn164 w164 hw164 k0_cond164 (fun _ => rfl) (k0_chk164 i) (k0_chk164.dec i) (k0_off492 i) (fun _ => rfl) (fun _ _ => rfl) rfl) $$ [HS HC S3]
  · isplitl [HS]; · iexact HS
    isplitl [HC]; · iexact HC
    iexact S3
  iintro ⟨HS, HC⟩
  iapply (loadMask_wp c 𝒱₀ i 84 hl84 q wm rfl) $$ HM
  iintro HM %w165 %hw165
  have hp165 : stateAt 164 ⟨84, hl84⟩ = St.pending := show stateAt 164 ⟨84, (by decide : (84 : ℕ) < 256)⟩ = St.pending from by decide
  have hn165 : ∀ l : Fin 256, stateAt 165 l = Function.update (stateAt 164) ⟨84, hl84⟩ St.started l := show ∀ l : Fin 256, stateAt 165 l = Function.update (stateAt 164) ⟨84, (by decide : (84 : ℕ) < 256)⟩ St.started l from by decide
  iapply (start_fam c 𝒱₀ arg3 (Memref.whole main_v0_0) i q ai wm hai x3 f 164 84 4 hl84 hj4 rfl hp165 hn165 w165 hw165 k0_cond165 (fun _ => rfl) (k0_chk165 i) (k0_chk165.dec i) (k0_off495 i) (fun _ => rfl) (fun _ _ => rfl) rfl) $$ [HS HC S4]
  · isplitl [HS]; · iexact HS
    isplitl [HC]; · iexact HC
    iexact S4
  iintro ⟨HS, HC⟩
  iapply (loadMask_wp c 𝒱₀ i 85 hl85 q wm rfl) $$ HM
  iintro HM %w166 %hw166
  have hp166 : stateAt 165 ⟨85, hl85⟩ = St.pending := show stateAt 165 ⟨85, (by decide : (85 : ℕ) < 256)⟩ = St.pending from by decide
  have hn166 : ∀ l : Fin 256, stateAt 166 l = Function.update (stateAt 165) ⟨85, hl85⟩ St.started l := show ∀ l : Fin 256, stateAt 166 l = Function.update (stateAt 165) ⟨85, (by decide : (85 : ℕ) < 256)⟩ St.started l from by decide
  iapply (start_fam c 𝒱₀ arg3 (Memref.whole main_v0_0) i q ai wm hai x3 f 165 85 5 hl85 hj5 rfl hp166 hn166 w166 hw166 k0_cond166 (fun _ => rfl) (k0_chk166 i) (k0_chk166.dec i) (k0_off498 i) (fun _ => rfl) (fun _ _ => rfl) rfl) $$ [HS HC S5]
  · isplitl [HS]; · iexact HS
    isplitl [HC]; · iexact HC
    iexact S5
  iintro ⟨HS, HC⟩
  iapply (loadMask_wp c 𝒱₀ i 86 hl86 q wm rfl) $$ HM
  iintro HM %w167 %hw167
  have hp167 : stateAt 166 ⟨86, hl86⟩ = St.pending := show stateAt 166 ⟨86, (by decide : (86 : ℕ) < 256)⟩ = St.pending from by decide
  have hn167 : ∀ l : Fin 256, stateAt 167 l = Function.update (stateAt 166) ⟨86, hl86⟩ St.started l := show ∀ l : Fin 256, stateAt 167 l = Function.update (stateAt 166) ⟨86, (by decide : (86 : ℕ) < 256)⟩ St.started l from by decide
  iapply (start_fam c 𝒱₀ arg3 (Memref.whole main_v0_0) i q ai wm hai x3 f 166 86 6 hl86 hj6 rfl hp167 hn167 w167 hw167 k0_cond167 (fun _ => rfl) (k0_chk167 i) (k0_chk167.dec i) (k0_off501 i) (fun _ => rfl) (fun _ _ => rfl) rfl) $$ [HS HC S6]
  · isplitl [HS]; · iexact HS
    isplitl [HC]; · iexact HC
    iexact S6
  iintro ⟨HS, HC⟩
  iapply (loadMask_wp c 𝒱₀ i 87 hl87 q wm rfl) $$ HM
  iintro HM %w168 %hw168
  rw [wp_pure]
  imodintro
  isplitr; · ipureintro; exact hw168
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 29 of the body: steps 168 to 173, and the load of the next step's mask word. -/
theorem part29_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 87 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 167 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part29 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 93 (by decide)⌝ ∗ ((c : Thread nD τ).loc main_call0_v12 ↦{q} ai) ∗ ((c : Thread nD τ).loc main_call0_v13 ↦{q} wm) ∗ cells c arg3 (Memref.whole main_v0_0) i ai wm hai x3 f 173 ∗ semPt c 13 (sem_inb 13 (by decide)) ∗ semPt c 14 (sem_inb 14 (by decide)) ∗ semPt c 15 (sem_inb 15 (by decide)) ∗ ∃ W', owes (c : Thread nD τ) 0 W')) := by
  rw [k0_part29_eq_skeleton]; unfold k0_part29_skel
  iintro ⟨HS, HM, HC, S7, S8, S9, S10, S11, S12, S13, S14, S15, HO⟩
  have hl87 : (87 : ℕ) < 256 := by decide
  have hl88 : (88 : ℕ) < 256 := by decide
  have hl89 : (89 : ℕ) < 256 := by decide
  have hl90 : (90 : ℕ) < 256 := by decide
  have hl91 : (91 : ℕ) < 256 := by decide
  have hl92 : (92 : ℕ) < 256 := by decide
  have hl93 : (93 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw168 : w = wordOf wm i 87 hl87 := hw
  have hp168 : stateAt 167 ⟨87, hl87⟩ = St.pending := show stateAt 167 ⟨87, (by decide : (87 : ℕ) < 256)⟩ = St.pending from by decide
  have hn168 : ∀ l : Fin 256, stateAt 168 l = Function.update (stateAt 167) ⟨87, hl87⟩ St.started l := show ∀ l : Fin 256, stateAt 168 l = Function.update (stateAt 167) ⟨87, (by decide : (87 : ℕ) < 256)⟩ St.started l from by decide
  iapply (start_fam c 𝒱₀ arg3 (Memref.whole main_v0_0) i q ai wm hai x3 f 167 87 7 hl87 hj7 rfl hp168 hn168 w hw168 k0_cond168 (fun _ => rfl) (k0_chk168 i) (k0_chk168.dec i) (k0_off504 i) (fun _ => rfl) (fun _ _ => rfl) rfl) $$ [HS HC S7]
  · isplitl [HS]; · iexact HS
    isplitl [HC]; · iexact HC
    iexact S7
  iintro ⟨HS, HC⟩
  iapply (loadMask_wp c 𝒱₀ i 88 hl88 q wm rfl) $$ HM
  iintro HM %w169 %hw169
  have hp169 : stateAt 168 ⟨88, hl88⟩ = St.pending := show stateAt 168 ⟨88, (by decide : (88 : ℕ) < 256)⟩ = St.pending from by decide
  have hn169 : ∀ l : Fin 256, stateAt 169 l = Function.update (stateAt 168) ⟨88, hl88⟩ St.started l := show ∀ l : Fin 256, stateAt 169 l = Function.update (stateAt 168) ⟨88, (by decide : (88 : ℕ) < 256)⟩ St.started l from by decide
  iapply (start_fam c 𝒱₀ arg3 (Memref.whole main_v0_0) i q ai wm hai x3 f 168 88 8 hl88 hj8 rfl hp169 hn169 w169 hw169 k0_cond169 (fun _ => rfl) (k0_chk169 i) (k0_chk169.dec i) (k0_off507 i) (fun _ => rfl) (fun _ _ => rfl) rfl) $$ [HS HC S8]
  · isplitl [HS]; · iexact HS
    isplitl [HC]; · iexact HC
    iexact S8
  iintro ⟨HS, HC⟩
  iapply (loadMask_wp c 𝒱₀ i 89 hl89 q wm rfl) $$ HM
  iintro HM %w170 %hw170
  have hp170 : stateAt 169 ⟨89, hl89⟩ = St.pending := show stateAt 169 ⟨89, (by decide : (89 : ℕ) < 256)⟩ = St.pending from by decide
  have hn170 : ∀ l : Fin 256, stateAt 170 l = Function.update (stateAt 169) ⟨89, hl89⟩ St.started l := show ∀ l : Fin 256, stateAt 170 l = Function.update (stateAt 169) ⟨89, (by decide : (89 : ℕ) < 256)⟩ St.started l from by decide
  iapply (start_fam c 𝒱₀ arg3 (Memref.whole main_v0_0) i q ai wm hai x3 f 169 89 9 hl89 hj9 rfl hp170 hn170 w170 hw170 k0_cond170 (fun _ => rfl) (k0_chk170 i) (k0_chk170.dec i) (k0_off510 i) (fun _ => rfl) (fun _ _ => rfl) rfl) $$ [HS HC S9]
  · isplitl [HS]; · iexact HS
    isplitl [HC]; · iexact HC
    iexact S9
  iintro ⟨HS, HC⟩
  iapply (loadMask_wp c 𝒱₀ i 90 hl90 q wm rfl) $$ HM
  iintro HM %w171 %hw171
  have hp171 : stateAt 170 ⟨90, hl90⟩ = St.pending := show stateAt 170 ⟨90, (by decide : (90 : ℕ) < 256)⟩ = St.pending from by decide
  have hn171 : ∀ l : Fin 256, stateAt 171 l = Function.update (stateAt 170) ⟨90, hl90⟩ St.started l := show ∀ l : Fin 256, stateAt 171 l = Function.update (stateAt 170) ⟨90, (by decide : (90 : ℕ) < 256)⟩ St.started l from by decide
  iapply (start_fam c 𝒱₀ arg3 (Memref.whole main_v0_0) i q ai wm hai x3 f 170 90 10 hl90 hj10 rfl hp171 hn171 w171 hw171 k0_cond171 (fun _ => rfl) (k0_chk171 i) (k0_chk171.dec i) (k0_off513 i) (fun _ => rfl) (fun _ _ => rfl) rfl) $$ [HS HC S10]
  · isplitl [HS]; · iexact HS
    isplitl [HC]; · iexact HC
    iexact S10
  iintro ⟨HS, HC⟩
  iapply (loadMask_wp c 𝒱₀ i 91 hl91 q wm rfl) $$ HM
  iintro HM %w172 %hw172
  have hp172 : stateAt 171 ⟨91, hl91⟩ = St.pending := show stateAt 171 ⟨91, (by decide : (91 : ℕ) < 256)⟩ = St.pending from by decide
  have hn172 : ∀ l : Fin 256, stateAt 172 l = Function.update (stateAt 171) ⟨91, hl91⟩ St.started l := show ∀ l : Fin 256, stateAt 172 l = Function.update (stateAt 171) ⟨91, (by decide : (91 : ℕ) < 256)⟩ St.started l from by decide
  iapply (start_fam c 𝒱₀ arg3 (Memref.whole main_v0_0) i q ai wm hai x3 f 171 91 11 hl91 hj11 rfl hp172 hn172 w172 hw172 k0_cond172 (fun _ => rfl) (k0_chk172 i) (k0_chk172.dec i) (k0_off516 i) (fun _ => rfl) (fun _ _ => rfl) rfl) $$ [HS HC S11]
  · isplitl [HS]; · iexact HS
    isplitl [HC]; · iexact HC
    iexact S11
  iintro ⟨HS, HC⟩
  iapply (loadMask_wp c 𝒱₀ i 92 hl92 q wm rfl) $$ HM
  iintro HM %w173 %hw173
  have hp173 : stateAt 172 ⟨92, hl92⟩ = St.pending := show stateAt 172 ⟨92, (by decide : (92 : ℕ) < 256)⟩ = St.pending from by decide
  have hn173 : ∀ l : Fin 256, stateAt 173 l = Function.update (stateAt 172) ⟨92, hl92⟩ St.started l := show ∀ l : Fin 256, stateAt 173 l = Function.update (stateAt 172) ⟨92, (by decide : (92 : ℕ) < 256)⟩ St.started l from by decide
  iapply (start_fam c 𝒱₀ arg3 (Memref.whole main_v0_0) i q ai wm hai x3 f 172 92 12 hl92 hj12 rfl hp173 hn173 w173 hw173 k0_cond173 (fun _ => rfl) (k0_chk173 i) (k0_chk173.dec i) (k0_off519 i) (fun _ => rfl) (fun _ _ => rfl) rfl) $$ [HS HC S12]
  · isplitl [HS]; · iexact HS
    isplitl [HC]; · iexact HC
    iexact S12
  iintro ⟨HS, HC⟩
  iapply (loadMask_wp c 𝒱₀ i 93 hl93 q wm rfl) $$ HM
  iintro HM %w174 %hw174
  rw [wp_pure]
  imodintro
  isplitr; · ipureintro; exact hw174
  isplitl [HS]; · iexact HS
  isplitl [HM]; · iexact HM
  isplitl [HC]; · iexact HC
  isplitl [S13]; · iexact S13
  isplitl [S14]; · iexact S14
  isplitl [S15]; · iexact S15
  iexists _; iexact HO

set_option maxHeartbeats 0 in
/-- Part 30 of the body: steps 174 to 179, and the load of the next step's mask word. -/
theorem part30_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 93 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 173 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part30 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 83 (by decide)⌝ ∗ ((c : Thread nD τ).loc main_call0_v12 ↦{q} ai) ∗ ((c : Thread nD τ).loc main_call0_v13 ↦{q} wm) ∗ cells c arg3 (Memref.whole main_v0_0) i ai wm hai x3 f 179 ∗ semPt c 0 (sem_inb 0 (by decide)) ∗ semPt c 1 (sem_inb 1 (by decide)) ∗ semPt c 2 (sem_inb 2 (by decide)) ∗ ∃ W', owes (c : Thread nD τ) 0 W')) := by
  rw [k0_part30_eq_skeleton]; unfold k0_part30_skel
  iintro ⟨HS, HM, HC, S13, S14, S15, HO⟩
  have hl80 : (80 : ℕ) < 256 := by decide
  have hl81 : (81 : ℕ) < 256 := by decide
  have hl82 : (82 : ℕ) < 256 := by decide
  have hl83 : (83 : ℕ) < 256 := by decide
  have hl93 : (93 : ℕ) < 256 := by decide
  have hl94 : (94 : ℕ) < 256 := by decide
  have hl95 : (95 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw174 : w = wordOf wm i 93 hl93 := hw
  have hp174 : stateAt 173 ⟨93, hl93⟩ = St.pending := show stateAt 173 ⟨93, (by decide : (93 : ℕ) < 256)⟩ = St.pending from by decide
  have hn174 : ∀ l : Fin 256, stateAt 174 l = Function.update (stateAt 173) ⟨93, hl93⟩ St.started l := show ∀ l : Fin 256, stateAt 174 l = Function.update (stateAt 173) ⟨93, (by decide : (93 : ℕ) < 256)⟩ St.started l from by decide
  iapply (start_fam c 𝒱₀ arg3 (Memref.whole main_v0_0) i q ai wm hai x3 f 173 93 13 hl93 hj13 rfl hp174 hn174 w hw174 k0_cond174 (fun _ => rfl) (k0_chk174 i) (k0_chk174.dec i) (k0_off522 i) (fun _ => rfl) (fun _ _ => rfl) rfl) $$ [HS HC S13]
  · isplitl [HS]; · iexact HS
    isplitl [HC]; · iexact HC
    iexact S13
  iintro ⟨HS, HC⟩
  iapply (loadMask_wp c 𝒱₀ i 94 hl94 q wm rfl) $$ HM
  iintro HM %w175 %hw175
  have hp175 : stateAt 174 ⟨94, hl94⟩ = St.pending := show stateAt 174 ⟨94, (by decide : (94 : ℕ) < 256)⟩ = St.pending from by decide
  have hn175 : ∀ l : Fin 256, stateAt 175 l = Function.update (stateAt 174) ⟨94, hl94⟩ St.started l := show ∀ l : Fin 256, stateAt 175 l = Function.update (stateAt 174) ⟨94, (by decide : (94 : ℕ) < 256)⟩ St.started l from by decide
  iapply (start_fam c 𝒱₀ arg3 (Memref.whole main_v0_0) i q ai wm hai x3 f 174 94 14 hl94 hj14 rfl hp175 hn175 w175 hw175 k0_cond175 (fun _ => rfl) (k0_chk175 i) (k0_chk175.dec i) (k0_off525 i) (fun _ => rfl) (fun _ _ => rfl) rfl) $$ [HS HC S14]
  · isplitl [HS]; · iexact HS
    isplitl [HC]; · iexact HC
    iexact S14
  iintro ⟨HS, HC⟩
  iapply (loadMask_wp c 𝒱₀ i 95 hl95 q wm rfl) $$ HM
  iintro HM %w176 %hw176
  have hp176 : stateAt 175 ⟨95, hl95⟩ = St.pending := show stateAt 175 ⟨95, (by decide : (95 : ℕ) < 256)⟩ = St.pending from by decide
  have hn176 : ∀ l : Fin 256, stateAt 176 l = Function.update (stateAt 175) ⟨95, hl95⟩ St.started l := show ∀ l : Fin 256, stateAt 176 l = Function.update (stateAt 175) ⟨95, (by decide : (95 : ℕ) < 256)⟩ St.started l from by decide
  iapply (start_fam c 𝒱₀ arg3 (Memref.whole main_v0_0) i q ai wm hai x3 f 175 95 15 hl95 hj15 rfl hp176 hn176 w176 hw176 k0_cond176 (fun _ => rfl) (k0_chk176 i) (k0_chk176.dec i) (k0_off528 i) (fun _ => rfl) (fun _ _ => rfl) rfl) $$ [HS HC S15]
  · isplitl [HS]; · iexact HS
    isplitl [HC]; · iexact HC
    iexact S15
  iintro ⟨HS, HC⟩
  iapply (loadMask_wp c 𝒱₀ i 80 hl80 q wm rfl) $$ HM
  iintro HM %w177 %hw177
  have hp177 : stateAt 176 ⟨80, hl80⟩ = St.started := show stateAt 176 ⟨80, (by decide : (80 : ℕ) < 256)⟩ = St.started from by decide
  have hn177 : ∀ l : Fin 256, stateAt 177 l = Function.update (stateAt 176) ⟨80, hl80⟩ St.done l := show ∀ l : Fin 256, stateAt 177 l = Function.update (stateAt 176) ⟨80, (by decide : (80 : ℕ) < 256)⟩ St.done l from by decide
  iapply (wait_fam c 𝒱₀ arg3 (Memref.whole main_v0_0) i q ai wm hai x3 f 176 80 0 hl80 hj0 rfl hp177 hn177 w177 hw177 (k0_off530 i) rfl (k0_off530_inb i) k0_cond177 (fun _ => rfl) (k0_chk177 i) (k0_chk177.dec i) (k0_off531 i) (fun _ => rfl) (fun _ _ h => h) (k0_off531_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W177, HO⟩
  iapply (loadMask_wp c 𝒱₀ i 81 hl81 q wm rfl) $$ HM
  iintro HM %w178 %hw178
  have hp178 : stateAt 177 ⟨81, hl81⟩ = St.started := show stateAt 177 ⟨81, (by decide : (81 : ℕ) < 256)⟩ = St.started from by decide
  have hn178 : ∀ l : Fin 256, stateAt 178 l = Function.update (stateAt 177) ⟨81, hl81⟩ St.done l := show ∀ l : Fin 256, stateAt 178 l = Function.update (stateAt 177) ⟨81, (by decide : (81 : ℕ) < 256)⟩ St.done l from by decide
  iapply (wait_fam c 𝒱₀ arg3 (Memref.whole main_v0_0) i q ai wm hai x3 f 177 81 1 hl81 hj1 rfl hp178 hn178 w178 hw178 (k0_off533 i) rfl (k0_off533_inb i) k0_cond178 (fun _ => rfl) (k0_chk178 i) (k0_chk178.dec i) (k0_off534 i) (fun _ => rfl) (fun _ _ h => h) (k0_off534_inb i) ((View.wordExact_bits rfl).reshape _ _) (fun _ _ => (View.wordExact_bits rfl).reshape _ _) _ _ W177) $$ [HS HM HC HO]
  · isplitl [HS]; · iexact HS
    isplitl [HM]; · iexact HM
    isplitl [HC]; · iexact HC
    iexact HO
  iintro ⟨HS, HM, HC, S1, %W178, HO⟩
  iapply (loadMask_wp c 𝒱₀ i 82 hl82 q wm rfl) $$ HM
  iintro HM %w179 %hw179
  have hp179 : stateAt 178 ⟨82, hl82⟩ = St.started := show stateAt 178 ⟨82, (by decide : (82 : ℕ) < 256)⟩ = St.started from by decide
  have hn179 : ∀ l : Fin 256, stateAt 179 l = Function.update (stateAt 178) ⟨82, hl82⟩ St.done l := show ∀ l : Fin 256, stateAt 179 l = Function.update (stateAt 178) ⟨82, (by decide : (82 : ℕ) < 256)⟩ St.done l from by decide
  iapply (wait_fam c 𝒱₀ arg3 (Memref.whole main_v0_0) i q ai wm hai x3 f 178 82 2 hl82 hj2 rfl hp179 hn179 w179 hw179 (k0_off536 i) rfl (k0_off536_inb i) k0_cond179 (fun _ => rfl) (k0_chk179 i) (k0_chk179.dec i) (k0_off537 i) (fun _ => rfl) (fun _ _ h => h) (k0_off537_inb i) ((View.wordExact_bits rfl).reshape _ _) (fun _ _ => (View.wordExact_bits rfl).reshape _ _) _ _ W178) $$ [HS HM HC HO]
  · isplitl [HS]; · iexact HS
    isplitl [HM]; · iexact HM
    isplitl [HC]; · iexact HC
    iexact HO
  iintro ⟨HS, HM, HC, S2, %W179, HO⟩
  iapply (loadMask_wp c 𝒱₀ i 83 hl83 q wm rfl) $$ HM
  iintro HM %w180 %hw180
  rw [wp_pure]
  imodintro
  isplitr; · ipureintro; exact hw180
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 31 of the body: steps 180 to 185, and the load of the next step's mask word. -/
theorem part31_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 83 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 179 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part31 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 89 (by decide)⌝ ∗ ((c : Thread nD τ).loc main_call0_v12 ↦{q} ai) ∗ ((c : Thread nD τ).loc main_call0_v13 ↦{q} wm) ∗ cells c arg3 (Memref.whole main_v0_0) i ai wm hai x3 f 185 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part31_eq_skeleton]; unfold k0_part31_skel
  iintro ⟨HS, HM, HC, S0, S1, S2, HO⟩
  have hl83 : (83 : ℕ) < 256 := by decide
  have hl84 : (84 : ℕ) < 256 := by decide
  have hl85 : (85 : ℕ) < 256 := by decide
  have hl86 : (86 : ℕ) < 256 := by decide
  have hl87 : (87 : ℕ) < 256 := by decide
  have hl88 : (88 : ℕ) < 256 := by decide
  have hl89 : (89 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw180 : w = wordOf wm i 83 hl83 := hw
  have hp180 : stateAt 179 ⟨83, hl83⟩ = St.started := show stateAt 179 ⟨83, (by decide : (83 : ℕ) < 256)⟩ = St.started from by decide
  have hn180 : ∀ l : Fin 256, stateAt 180 l = Function.update (stateAt 179) ⟨83, hl83⟩ St.done l := show ∀ l : Fin 256, stateAt 180 l = Function.update (stateAt 179) ⟨83, (by decide : (83 : ℕ) < 256)⟩ St.done l from by decide
  iapply (wait_fam c 𝒱₀ arg3 (Memref.whole main_v0_0) i q ai wm hai x3 f 179 83 3 hl83 hj3 rfl hp180 hn180 w hw180 (k0_off539 i) rfl (k0_off539_inb i) k0_cond180 (fun _ => rfl) (k0_chk180 i) (k0_chk180.dec i) (k0_off540 i) (fun _ => rfl) (fun _ _ h => h) (k0_off540_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W180, HO⟩
  iapply (loadMask_wp c 𝒱₀ i 84 hl84 q wm rfl) $$ HM
  iintro HM %w181 %hw181
  have hp181 : stateAt 180 ⟨84, hl84⟩ = St.started := show stateAt 180 ⟨84, (by decide : (84 : ℕ) < 256)⟩ = St.started from by decide
  have hn181 : ∀ l : Fin 256, stateAt 181 l = Function.update (stateAt 180) ⟨84, hl84⟩ St.done l := show ∀ l : Fin 256, stateAt 181 l = Function.update (stateAt 180) ⟨84, (by decide : (84 : ℕ) < 256)⟩ St.done l from by decide
  iapply (wait_fam c 𝒱₀ arg3 (Memref.whole main_v0_0) i q ai wm hai x3 f 180 84 4 hl84 hj4 rfl hp181 hn181 w181 hw181 (k0_off542 i) rfl (k0_off542_inb i) k0_cond181 (fun _ => rfl) (k0_chk181 i) (k0_chk181.dec i) (k0_off543 i) (fun _ => rfl) (fun _ _ h => h) (k0_off543_inb i) ((View.wordExact_bits rfl).reshape _ _) (fun _ _ => (View.wordExact_bits rfl).reshape _ _) _ _ W180) $$ [HS HM HC HO]
  · isplitl [HS]; · iexact HS
    isplitl [HM]; · iexact HM
    isplitl [HC]; · iexact HC
    iexact HO
  iintro ⟨HS, HM, HC, S4, %W181, HO⟩
  iapply (loadMask_wp c 𝒱₀ i 85 hl85 q wm rfl) $$ HM
  iintro HM %w182 %hw182
  have hp182 : stateAt 181 ⟨85, hl85⟩ = St.started := show stateAt 181 ⟨85, (by decide : (85 : ℕ) < 256)⟩ = St.started from by decide
  have hn182 : ∀ l : Fin 256, stateAt 182 l = Function.update (stateAt 181) ⟨85, hl85⟩ St.done l := show ∀ l : Fin 256, stateAt 182 l = Function.update (stateAt 181) ⟨85, (by decide : (85 : ℕ) < 256)⟩ St.done l from by decide
  iapply (wait_fam c 𝒱₀ arg3 (Memref.whole main_v0_0) i q ai wm hai x3 f 181 85 5 hl85 hj5 rfl hp182 hn182 w182 hw182 (k0_off545 i) rfl (k0_off545_inb i) k0_cond182 (fun _ => rfl) (k0_chk182 i) (k0_chk182.dec i) (k0_off546 i) (fun _ => rfl) (fun _ _ h => h) (k0_off546_inb i) ((View.wordExact_bits rfl).reshape _ _) (fun _ _ => (View.wordExact_bits rfl).reshape _ _) _ _ W181) $$ [HS HM HC HO]
  · isplitl [HS]; · iexact HS
    isplitl [HM]; · iexact HM
    isplitl [HC]; · iexact HC
    iexact HO
  iintro ⟨HS, HM, HC, S5, %W182, HO⟩
  iapply (loadMask_wp c 𝒱₀ i 86 hl86 q wm rfl) $$ HM
  iintro HM %w183 %hw183
  have hp183 : stateAt 182 ⟨86, hl86⟩ = St.started := show stateAt 182 ⟨86, (by decide : (86 : ℕ) < 256)⟩ = St.started from by decide
  have hn183 : ∀ l : Fin 256, stateAt 183 l = Function.update (stateAt 182) ⟨86, hl86⟩ St.done l := show ∀ l : Fin 256, stateAt 183 l = Function.update (stateAt 182) ⟨86, (by decide : (86 : ℕ) < 256)⟩ St.done l from by decide
  iapply (wait_fam c 𝒱₀ arg3 (Memref.whole main_v0_0) i q ai wm hai x3 f 182 86 6 hl86 hj6 rfl hp183 hn183 w183 hw183 (k0_off548 i) rfl (k0_off548_inb i) k0_cond183 (fun _ => rfl) (k0_chk183 i) (k0_chk183.dec i) (k0_off549 i) (fun _ => rfl) (fun _ _ h => h) (k0_off549_inb i) ((View.wordExact_bits rfl).reshape _ _) (fun _ _ => (View.wordExact_bits rfl).reshape _ _) _ _ W182) $$ [HS HM HC HO]
  · isplitl [HS]; · iexact HS
    isplitl [HM]; · iexact HM
    isplitl [HC]; · iexact HC
    iexact HO
  iintro ⟨HS, HM, HC, S6, %W183, HO⟩
  iapply (loadMask_wp c 𝒱₀ i 87 hl87 q wm rfl) $$ HM
  iintro HM %w184 %hw184
  have hp184 : stateAt 183 ⟨87, hl87⟩ = St.started := show stateAt 183 ⟨87, (by decide : (87 : ℕ) < 256)⟩ = St.started from by decide
  have hn184 : ∀ l : Fin 256, stateAt 184 l = Function.update (stateAt 183) ⟨87, hl87⟩ St.done l := show ∀ l : Fin 256, stateAt 184 l = Function.update (stateAt 183) ⟨87, (by decide : (87 : ℕ) < 256)⟩ St.done l from by decide
  iapply (wait_fam c 𝒱₀ arg3 (Memref.whole main_v0_0) i q ai wm hai x3 f 183 87 7 hl87 hj7 rfl hp184 hn184 w184 hw184 (k0_off551 i) rfl (k0_off551_inb i) k0_cond184 (fun _ => rfl) (k0_chk184 i) (k0_chk184.dec i) (k0_off552 i) (fun _ => rfl) (fun _ _ h => h) (k0_off552_inb i) ((View.wordExact_bits rfl).reshape _ _) (fun _ _ => (View.wordExact_bits rfl).reshape _ _) _ _ W183) $$ [HS HM HC HO]
  · isplitl [HS]; · iexact HS
    isplitl [HM]; · iexact HM
    isplitl [HC]; · iexact HC
    iexact HO
  iintro ⟨HS, HM, HC, S7, %W184, HO⟩
  iapply (loadMask_wp c 𝒱₀ i 88 hl88 q wm rfl) $$ HM
  iintro HM %w185 %hw185
  have hp185 : stateAt 184 ⟨88, hl88⟩ = St.started := show stateAt 184 ⟨88, (by decide : (88 : ℕ) < 256)⟩ = St.started from by decide
  have hn185 : ∀ l : Fin 256, stateAt 185 l = Function.update (stateAt 184) ⟨88, hl88⟩ St.done l := show ∀ l : Fin 256, stateAt 185 l = Function.update (stateAt 184) ⟨88, (by decide : (88 : ℕ) < 256)⟩ St.done l from by decide
  iapply (wait_fam c 𝒱₀ arg3 (Memref.whole main_v0_0) i q ai wm hai x3 f 184 88 8 hl88 hj8 rfl hp185 hn185 w185 hw185 (k0_off554 i) rfl (k0_off554_inb i) k0_cond185 (fun _ => rfl) (k0_chk185 i) (k0_chk185.dec i) (k0_off555 i) (fun _ => rfl) (fun _ _ h => h) (k0_off555_inb i) ((View.wordExact_bits rfl).reshape _ _) (fun _ _ => (View.wordExact_bits rfl).reshape _ _) _ _ W184) $$ [HS HM HC HO]
  · isplitl [HS]; · iexact HS
    isplitl [HM]; · iexact HM
    isplitl [HC]; · iexact HC
    iexact HO
  iintro ⟨HS, HM, HC, S8, %W185, HO⟩
  iapply (loadMask_wp c 𝒱₀ i 89 hl89 q wm rfl) $$ HM
  iintro HM %w186 %hw186
  rw [wp_pure]
  imodintro
  isplitr; · ipureintro; exact hw186
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 32 of the body: steps 186 to 191, and the load of the next step's mask word. -/
theorem part32_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 89 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 185 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part32 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 95 (by decide)⌝ ∗ ((c : Thread nD τ).loc main_call0_v12 ↦{q} ai) ∗ ((c : Thread nD τ).loc main_call0_v13 ↦{q} wm) ∗ cells c arg3 (Memref.whole main_v0_0) i ai wm hai x3 f 191 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part32_eq_skeleton]; unfold k0_part32_skel
  iintro ⟨HS, HM, HC, S0, S1, S2, S3, S4, S5, S6, S7, S8, HO⟩
  have hl89 : (89 : ℕ) < 256 := by decide
  have hl90 : (90 : ℕ) < 256 := by decide
  have hl91 : (91 : ℕ) < 256 := by decide
  have hl92 : (92 : ℕ) < 256 := by decide
  have hl93 : (93 : ℕ) < 256 := by decide
  have hl94 : (94 : ℕ) < 256 := by decide
  have hl95 : (95 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw186 : w = wordOf wm i 89 hl89 := hw
  have hp186 : stateAt 185 ⟨89, hl89⟩ = St.started := show stateAt 185 ⟨89, (by decide : (89 : ℕ) < 256)⟩ = St.started from by decide
  have hn186 : ∀ l : Fin 256, stateAt 186 l = Function.update (stateAt 185) ⟨89, hl89⟩ St.done l := show ∀ l : Fin 256, stateAt 186 l = Function.update (stateAt 185) ⟨89, (by decide : (89 : ℕ) < 256)⟩ St.done l from by decide
  iapply (wait_fam c 𝒱₀ arg3 (Memref.whole main_v0_0) i q ai wm hai x3 f 185 89 9 hl89 hj9 rfl hp186 hn186 w hw186 (k0_off557 i) rfl (k0_off557_inb i) k0_cond186 (fun _ => rfl) (k0_chk186 i) (k0_chk186.dec i) (k0_off558 i) (fun _ => rfl) (fun _ _ h => h) (k0_off558_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W186, HO⟩
  iapply (loadMask_wp c 𝒱₀ i 90 hl90 q wm rfl) $$ HM
  iintro HM %w187 %hw187
  have hp187 : stateAt 186 ⟨90, hl90⟩ = St.started := show stateAt 186 ⟨90, (by decide : (90 : ℕ) < 256)⟩ = St.started from by decide
  have hn187 : ∀ l : Fin 256, stateAt 187 l = Function.update (stateAt 186) ⟨90, hl90⟩ St.done l := show ∀ l : Fin 256, stateAt 187 l = Function.update (stateAt 186) ⟨90, (by decide : (90 : ℕ) < 256)⟩ St.done l from by decide
  iapply (wait_fam c 𝒱₀ arg3 (Memref.whole main_v0_0) i q ai wm hai x3 f 186 90 10 hl90 hj10 rfl hp187 hn187 w187 hw187 (k0_off560 i) rfl (k0_off560_inb i) k0_cond187 (fun _ => rfl) (k0_chk187 i) (k0_chk187.dec i) (k0_off561 i) (fun _ => rfl) (fun _ _ h => h) (k0_off561_inb i) ((View.wordExact_bits rfl).reshape _ _) (fun _ _ => (View.wordExact_bits rfl).reshape _ _) _ _ W186) $$ [HS HM HC HO]
  · isplitl [HS]; · iexact HS
    isplitl [HM]; · iexact HM
    isplitl [HC]; · iexact HC
    iexact HO
  iintro ⟨HS, HM, HC, S10, %W187, HO⟩
  iapply (loadMask_wp c 𝒱₀ i 91 hl91 q wm rfl) $$ HM
  iintro HM %w188 %hw188
  have hp188 : stateAt 187 ⟨91, hl91⟩ = St.started := show stateAt 187 ⟨91, (by decide : (91 : ℕ) < 256)⟩ = St.started from by decide
  have hn188 : ∀ l : Fin 256, stateAt 188 l = Function.update (stateAt 187) ⟨91, hl91⟩ St.done l := show ∀ l : Fin 256, stateAt 188 l = Function.update (stateAt 187) ⟨91, (by decide : (91 : ℕ) < 256)⟩ St.done l from by decide
  iapply (wait_fam c 𝒱₀ arg3 (Memref.whole main_v0_0) i q ai wm hai x3 f 187 91 11 hl91 hj11 rfl hp188 hn188 w188 hw188 (k0_off563 i) rfl (k0_off563_inb i) k0_cond188 (fun _ => rfl) (k0_chk188 i) (k0_chk188.dec i) (k0_off564 i) (fun _ => rfl) (fun _ _ h => h) (k0_off564_inb i) ((View.wordExact_bits rfl).reshape _ _) (fun _ _ => (View.wordExact_bits rfl).reshape _ _) _ _ W187) $$ [HS HM HC HO]
  · isplitl [HS]; · iexact HS
    isplitl [HM]; · iexact HM
    isplitl [HC]; · iexact HC
    iexact HO
  iintro ⟨HS, HM, HC, S11, %W188, HO⟩
  iapply (loadMask_wp c 𝒱₀ i 92 hl92 q wm rfl) $$ HM
  iintro HM %w189 %hw189
  have hp189 : stateAt 188 ⟨92, hl92⟩ = St.started := show stateAt 188 ⟨92, (by decide : (92 : ℕ) < 256)⟩ = St.started from by decide
  have hn189 : ∀ l : Fin 256, stateAt 189 l = Function.update (stateAt 188) ⟨92, hl92⟩ St.done l := show ∀ l : Fin 256, stateAt 189 l = Function.update (stateAt 188) ⟨92, (by decide : (92 : ℕ) < 256)⟩ St.done l from by decide
  iapply (wait_fam c 𝒱₀ arg3 (Memref.whole main_v0_0) i q ai wm hai x3 f 188 92 12 hl92 hj12 rfl hp189 hn189 w189 hw189 (k0_off566 i) rfl (k0_off566_inb i) k0_cond189 (fun _ => rfl) (k0_chk189 i) (k0_chk189.dec i) (k0_off567 i) (fun _ => rfl) (fun _ _ h => h) (k0_off567_inb i) ((View.wordExact_bits rfl).reshape _ _) (fun _ _ => (View.wordExact_bits rfl).reshape _ _) _ _ W188) $$ [HS HM HC HO]
  · isplitl [HS]; · iexact HS
    isplitl [HM]; · iexact HM
    isplitl [HC]; · iexact HC
    iexact HO
  iintro ⟨HS, HM, HC, S12, %W189, HO⟩
  iapply (loadMask_wp c 𝒱₀ i 93 hl93 q wm rfl) $$ HM
  iintro HM %w190 %hw190
  have hp190 : stateAt 189 ⟨93, hl93⟩ = St.started := show stateAt 189 ⟨93, (by decide : (93 : ℕ) < 256)⟩ = St.started from by decide
  have hn190 : ∀ l : Fin 256, stateAt 190 l = Function.update (stateAt 189) ⟨93, hl93⟩ St.done l := show ∀ l : Fin 256, stateAt 190 l = Function.update (stateAt 189) ⟨93, (by decide : (93 : ℕ) < 256)⟩ St.done l from by decide
  iapply (wait_fam c 𝒱₀ arg3 (Memref.whole main_v0_0) i q ai wm hai x3 f 189 93 13 hl93 hj13 rfl hp190 hn190 w190 hw190 (k0_off569 i) rfl (k0_off569_inb i) k0_cond190 (fun _ => rfl) (k0_chk190 i) (k0_chk190.dec i) (k0_off570 i) (fun _ => rfl) (fun _ _ h => h) (k0_off570_inb i) ((View.wordExact_bits rfl).reshape _ _) (fun _ _ => (View.wordExact_bits rfl).reshape _ _) _ _ W189) $$ [HS HM HC HO]
  · isplitl [HS]; · iexact HS
    isplitl [HM]; · iexact HM
    isplitl [HC]; · iexact HC
    iexact HO
  iintro ⟨HS, HM, HC, S13, %W190, HO⟩
  iapply (loadMask_wp c 𝒱₀ i 94 hl94 q wm rfl) $$ HM
  iintro HM %w191 %hw191
  have hp191 : stateAt 190 ⟨94, hl94⟩ = St.started := show stateAt 190 ⟨94, (by decide : (94 : ℕ) < 256)⟩ = St.started from by decide
  have hn191 : ∀ l : Fin 256, stateAt 191 l = Function.update (stateAt 190) ⟨94, hl94⟩ St.done l := show ∀ l : Fin 256, stateAt 191 l = Function.update (stateAt 190) ⟨94, (by decide : (94 : ℕ) < 256)⟩ St.done l from by decide
  iapply (wait_fam c 𝒱₀ arg3 (Memref.whole main_v0_0) i q ai wm hai x3 f 190 94 14 hl94 hj14 rfl hp191 hn191 w191 hw191 (k0_off572 i) rfl (k0_off572_inb i) k0_cond191 (fun _ => rfl) (k0_chk191 i) (k0_chk191.dec i) (k0_off573 i) (fun _ => rfl) (fun _ _ h => h) (k0_off573_inb i) ((View.wordExact_bits rfl).reshape _ _) (fun _ _ => (View.wordExact_bits rfl).reshape _ _) _ _ W190) $$ [HS HM HC HO]
  · isplitl [HS]; · iexact HS
    isplitl [HM]; · iexact HM
    isplitl [HC]; · iexact HC
    iexact HO
  iintro ⟨HS, HM, HC, S14, %W191, HO⟩
  iapply (loadMask_wp c 𝒱₀ i 95 hl95 q wm rfl) $$ HM
  iintro HM %w192 %hw192
  rw [wp_pure]
  imodintro
  isplitr; · ipureintro; exact hw192
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 33 of the body: steps 192 to 197, and the load of the next step's mask word. -/
theorem part33_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 95 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 191 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part33 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 101 (by decide)⌝ ∗ ((c : Thread nD τ).loc main_call0_v12 ↦{q} ai) ∗ ((c : Thread nD τ).loc main_call0_v13 ↦{q} wm) ∗ cells c arg3 (Memref.whole main_v0_0) i ai wm hai x3 f 197 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part33_eq_skeleton]; unfold k0_part33_skel
  iintro ⟨HS, HM, HC, S0, S1, S2, S3, S4, S5, S6, S7, S8, S9, S10, S11, S12, S13, S14, HO⟩
  have hl95 : (95 : ℕ) < 256 := by decide
  have hl96 : (96 : ℕ) < 256 := by decide
  have hl97 : (97 : ℕ) < 256 := by decide
  have hl98 : (98 : ℕ) < 256 := by decide
  have hl99 : (99 : ℕ) < 256 := by decide
  have hl100 : (100 : ℕ) < 256 := by decide
  have hl101 : (101 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw192 : w = wordOf wm i 95 hl95 := hw
  have hp192 : stateAt 191 ⟨95, hl95⟩ = St.started := show stateAt 191 ⟨95, (by decide : (95 : ℕ) < 256)⟩ = St.started from by decide
  have hn192 : ∀ l : Fin 256, stateAt 192 l = Function.update (stateAt 191) ⟨95, hl95⟩ St.done l := show ∀ l : Fin 256, stateAt 192 l = Function.update (stateAt 191) ⟨95, (by decide : (95 : ℕ) < 256)⟩ St.done l from by decide
  iapply (wait_fam c 𝒱₀ arg3 (Memref.whole main_v0_0) i q ai wm hai x3 f 191 95 15 hl95 hj15 rfl hp192 hn192 w hw192 (k0_off575 i) rfl (k0_off575_inb i) k0_cond192 (fun _ => rfl) (k0_chk192 i) (k0_chk192.dec i) (k0_off576 i) (fun _ => rfl) (fun _ _ h => h) (k0_off576_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W192, HO⟩
  iapply (loadMask_wp c 𝒱₀ i 96 hl96 q wm rfl) $$ HM
  iintro HM %w193 %hw193
  have hp193 : stateAt 192 ⟨96, hl96⟩ = St.pending := show stateAt 192 ⟨96, (by decide : (96 : ℕ) < 256)⟩ = St.pending from by decide
  have hn193 : ∀ l : Fin 256, stateAt 193 l = Function.update (stateAt 192) ⟨96, hl96⟩ St.started l := show ∀ l : Fin 256, stateAt 193 l = Function.update (stateAt 192) ⟨96, (by decide : (96 : ℕ) < 256)⟩ St.started l from by decide
  iapply (start_fam c 𝒱₀ arg3 (Memref.whole main_v0_0) i q ai wm hai x3 f 192 96 0 hl96 hj0 rfl hp193 hn193 w193 hw193 k0_cond193 (fun _ => rfl) (k0_chk193 i) (k0_chk193.dec i) (k0_off579 i) (fun _ => rfl) (fun _ _ => rfl) rfl) $$ [HS HC S0]
  · isplitl [HS]; · iexact HS
    isplitl [HC]; · iexact HC
    iexact S0
  iintro ⟨HS, HC⟩
  iapply (loadMask_wp c 𝒱₀ i 97 hl97 q wm rfl) $$ HM
  iintro HM %w194 %hw194
  have hp194 : stateAt 193 ⟨97, hl97⟩ = St.pending := show stateAt 193 ⟨97, (by decide : (97 : ℕ) < 256)⟩ = St.pending from by decide
  have hn194 : ∀ l : Fin 256, stateAt 194 l = Function.update (stateAt 193) ⟨97, hl97⟩ St.started l := show ∀ l : Fin 256, stateAt 194 l = Function.update (stateAt 193) ⟨97, (by decide : (97 : ℕ) < 256)⟩ St.started l from by decide
  iapply (start_fam c 𝒱₀ arg3 (Memref.whole main_v0_0) i q ai wm hai x3 f 193 97 1 hl97 hj1 rfl hp194 hn194 w194 hw194 k0_cond194 (fun _ => rfl) (k0_chk194 i) (k0_chk194.dec i) (k0_off582 i) (fun _ => rfl) (fun _ _ => rfl) rfl) $$ [HS HC S1]
  · isplitl [HS]; · iexact HS
    isplitl [HC]; · iexact HC
    iexact S1
  iintro ⟨HS, HC⟩
  iapply (loadMask_wp c 𝒱₀ i 98 hl98 q wm rfl) $$ HM
  iintro HM %w195 %hw195
  have hp195 : stateAt 194 ⟨98, hl98⟩ = St.pending := show stateAt 194 ⟨98, (by decide : (98 : ℕ) < 256)⟩ = St.pending from by decide
  have hn195 : ∀ l : Fin 256, stateAt 195 l = Function.update (stateAt 194) ⟨98, hl98⟩ St.started l := show ∀ l : Fin 256, stateAt 195 l = Function.update (stateAt 194) ⟨98, (by decide : (98 : ℕ) < 256)⟩ St.started l from by decide
  iapply (start_fam c 𝒱₀ arg3 (Memref.whole main_v0_0) i q ai wm hai x3 f 194 98 2 hl98 hj2 rfl hp195 hn195 w195 hw195 k0_cond195 (fun _ => rfl) (k0_chk195 i) (k0_chk195.dec i) (k0_off585 i) (fun _ => rfl) (fun _ _ => rfl) rfl) $$ [HS HC S2]
  · isplitl [HS]; · iexact HS
    isplitl [HC]; · iexact HC
    iexact S2
  iintro ⟨HS, HC⟩
  iapply (loadMask_wp c 𝒱₀ i 99 hl99 q wm rfl) $$ HM
  iintro HM %w196 %hw196
  have hp196 : stateAt 195 ⟨99, hl99⟩ = St.pending := show stateAt 195 ⟨99, (by decide : (99 : ℕ) < 256)⟩ = St.pending from by decide
  have hn196 : ∀ l : Fin 256, stateAt 196 l = Function.update (stateAt 195) ⟨99, hl99⟩ St.started l := show ∀ l : Fin 256, stateAt 196 l = Function.update (stateAt 195) ⟨99, (by decide : (99 : ℕ) < 256)⟩ St.started l from by decide
  iapply (start_fam c 𝒱₀ arg3 (Memref.whole main_v0_0) i q ai wm hai x3 f 195 99 3 hl99 hj3 rfl hp196 hn196 w196 hw196 k0_cond196 (fun _ => rfl) (k0_chk196 i) (k0_chk196.dec i) (k0_off588 i) (fun _ => rfl) (fun _ _ => rfl) rfl) $$ [HS HC S3]
  · isplitl [HS]; · iexact HS
    isplitl [HC]; · iexact HC
    iexact S3
  iintro ⟨HS, HC⟩
  iapply (loadMask_wp c 𝒱₀ i 100 hl100 q wm rfl) $$ HM
  iintro HM %w197 %hw197
  have hp197 : stateAt 196 ⟨100, hl100⟩ = St.pending := show stateAt 196 ⟨100, (by decide : (100 : ℕ) < 256)⟩ = St.pending from by decide
  have hn197 : ∀ l : Fin 256, stateAt 197 l = Function.update (stateAt 196) ⟨100, hl100⟩ St.started l := show ∀ l : Fin 256, stateAt 197 l = Function.update (stateAt 196) ⟨100, (by decide : (100 : ℕ) < 256)⟩ St.started l from by decide
  iapply (start_fam c 𝒱₀ arg3 (Memref.whole main_v0_0) i q ai wm hai x3 f 196 100 4 hl100 hj4 rfl hp197 hn197 w197 hw197 k0_cond197 (fun _ => rfl) (k0_chk197 i) (k0_chk197.dec i) (k0_off591 i) (fun _ => rfl) (fun _ _ => rfl) rfl) $$ [HS HC S4]
  · isplitl [HS]; · iexact HS
    isplitl [HC]; · iexact HC
    iexact S4
  iintro ⟨HS, HC⟩
  iapply (loadMask_wp c 𝒱₀ i 101 hl101 q wm rfl) $$ HM
  iintro HM %w198 %hw198
  rw [wp_pure]
  imodintro
  isplitr; · ipureintro; exact hw198
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.Kernel.Cells

end
-- ==== Proof.Parts4Bits.lean ====
/-
  Parts 34 to 44 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyBits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 34 of the body: steps 198 to 203, and the load of the next step's mask word. -/
theorem part34_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 101 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 197 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part34 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 107 (by decide)⌝ ∗ ((c : Thread nD τ).loc main_call0_v12 ↦{q} ai) ∗ ((c : Thread nD τ).loc main_call0_v13 ↦{q} wm) ∗ cells c arg3 (Memref.whole main_v0_0) i ai wm hai x3 f 203 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part34_eq_skeleton]; unfold k0_part34_skel
  iintro ⟨HS, HM, HC, S5, S6, S7, S8, S9, S10, S11, S12, S13, S14, S15, HO⟩
  have hl101 : (101 : ℕ) < 256 := by decide
  have hl102 : (102 : ℕ) < 256 := by decide
  have hl103 : (103 : ℕ) < 256 := by decide
  have hl104 : (104 : ℕ) < 256 := by decide
  have hl105 : (105 : ℕ) < 256 := by decide
  have hl106 : (106 : ℕ) < 256 := by decide
  have hl107 : (107 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw198 : w = wordOf wm i 101 hl101 := hw
  have hp198 : stateAt 197 ⟨101, hl101⟩ = St.pending := show stateAt 197 ⟨101, (by decide : (101 : ℕ) < 256)⟩ = St.pending from by decide
  have hn198 : ∀ l : Fin 256, stateAt 198 l = Function.update (stateAt 197) ⟨101, hl101⟩ St.started l := show ∀ l : Fin 256, stateAt 198 l = Function.update (stateAt 197) ⟨101, (by decide : (101 : ℕ) < 256)⟩ St.started l from by decide
  iapply (start_fam c 𝒱₀ arg3 (Memref.whole main_v0_0) i q ai wm hai x3 f 197 101 5 hl101 hj5 rfl hp198 hn198 w hw198 k0_cond198 (fun _ => rfl) (k0_chk198 i) (k0_chk198.dec i) (k0_off594 i) (fun _ => rfl) (fun _ _ => rfl) rfl) $$ [HS HC S5]
  · isplitl [HS]; · iexact HS
    isplitl [HC]; · iexact HC
    iexact S5
  iintro ⟨HS, HC⟩
  iapply (loadMask_wp c 𝒱₀ i 102 hl102 q wm rfl) $$ HM
  iintro HM %w199 %hw199
  have hp199 : stateAt 198 ⟨102, hl102⟩ = St.pending := show stateAt 198 ⟨102, (by decide : (102 : ℕ) < 256)⟩ = St.pending from by decide
  have hn199 : ∀ l : Fin 256, stateAt 199 l = Function.update (stateAt 198) ⟨102, hl102⟩ St.started l := show ∀ l : Fin 256, stateAt 199 l = Function.update (stateAt 198) ⟨102, (by decide : (102 : ℕ) < 256)⟩ St.started l from by decide
  iapply (start_fam c 𝒱₀ arg3 (Memref.whole main_v0_0) i q ai wm hai x3 f 198 102 6 hl102 hj6 rfl hp199 hn199 w199 hw199 k0_cond199 (fun _ => rfl) (k0_chk199 i) (k0_chk199.dec i) (k0_off597 i) (fun _ => rfl) (fun _ _ => rfl) rfl) $$ [HS HC S6]
  · isplitl [HS]; · iexact HS
    isplitl [HC]; · iexact HC
    iexact S6
  iintro ⟨HS, HC⟩
  iapply (loadMask_wp c 𝒱₀ i 103 hl103 q wm rfl) $$ HM
  iintro HM %w200 %hw200
  have hp200 : stateAt 199 ⟨103, hl103⟩ = St.pending := show stateAt 199 ⟨103, (by decide : (103 : ℕ) < 256)⟩ = St.pending from by decide
  have hn200 : ∀ l : Fin 256, stateAt 200 l = Function.update (stateAt 199) ⟨103, hl103⟩ St.started l := show ∀ l : Fin 256, stateAt 200 l = Function.update (stateAt 199) ⟨103, (by decide : (103 : ℕ) < 256)⟩ St.started l from by decide
  iapply (start_fam c 𝒱₀ arg3 (Memref.whole main_v0_0) i q ai wm hai x3 f 199 103 7 hl103 hj7 rfl hp200 hn200 w200 hw200 k0_cond200 (fun _ => rfl) (k0_chk200 i) (k0_chk200.dec i) (k0_off600 i) (fun _ => rfl) (fun _ _ => rfl) rfl) $$ [HS HC S7]
  · isplitl [HS]; · iexact HS
    isplitl [HC]; · iexact HC
    iexact S7
  iintro ⟨HS, HC⟩
  iapply (loadMask_wp c 𝒱₀ i 104 hl104 q wm rfl) $$ HM
  iintro HM %w201 %hw201
  have hp201 : stateAt 200 ⟨104, hl104⟩ = St.pending := show stateAt 200 ⟨104, (by decide : (104 : ℕ) < 256)⟩ = St.pending from by decide
  have hn201 : ∀ l : Fin 256, stateAt 201 l = Function.update (stateAt 200) ⟨104, hl104⟩ St.started l := show ∀ l : Fin 256, stateAt 201 l = Function.update (stateAt 200) ⟨104, (by decide : (104 : ℕ) < 256)⟩ St.started l from by decide
  iapply (start_fam c 𝒱₀ arg3 (Memref.whole main_v0_0) i q ai wm hai x3 f 200 104 8 hl104 hj8 rfl hp201 hn201 w201 hw201 k0_cond201 (fun _ => rfl) (k0_chk201 i) (k0_chk201.dec i) (k0_off603 i) (fun _ => rfl) (fun _ _ => rfl) rfl) $$ [HS HC S8]
  · isplitl [HS]; · iexact HS
    isplitl [HC]; · iexact HC
    iexact S8
  iintro ⟨HS, HC⟩
  iapply (loadMask_wp c 𝒱₀ i 105 hl105 q wm rfl) $$ HM
  iintro HM %w202 %hw202
  have hp202 : stateAt 201 ⟨105, hl105⟩ = St.pending := show stateAt 201 ⟨105, (by decide : (105 : ℕ) < 256)⟩ = St.pending from by decide
  have hn202 : ∀ l : Fin 256, stateAt 202 l = Function.update (stateAt 201) ⟨105, hl105⟩ St.started l := show ∀ l : Fin 256, stateAt 202 l = Function.update (stateAt 201) ⟨105, (by decide : (105 : ℕ) < 256)⟩ St.started l from by decide
  iapply (start_fam c 𝒱₀ arg3 (Memref.whole main_v0_0) i q ai wm hai x3 f 201 105 9 hl105 hj9 rfl hp202 hn202 w202 hw202 k0_cond202 (fun _ => rfl) (k0_chk202 i) (k0_chk202.dec i) (k0_off606 i) (fun _ => rfl) (fun _ _ => rfl) rfl) $$ [HS HC S9]
  · isplitl [HS]; · iexact HS
    isplitl [HC]; · iexact HC
    iexact S9
  iintro ⟨HS, HC⟩
  iapply (loadMask_wp c 𝒱₀ i 106 hl106 q wm rfl) $$ HM
  iintro HM %w203 %hw203
  have hp203 : stateAt 202 ⟨106, hl106⟩ = St.pending := show stateAt 202 ⟨106, (by decide : (106 : ℕ) < 256)⟩ = St.pending from by decide
  have hn203 : ∀ l : Fin 256, stateAt 203 l = Function.update (stateAt 202) ⟨106, hl106⟩ St.started l := show ∀ l : Fin 256, stateAt 203 l = Function.update (stateAt 202) ⟨106, (by decide : (106 : ℕ) < 256)⟩ St.started l from by decide
  iapply (start_fam c 𝒱₀ arg3 (Memref.whole main_v0_0) i q ai wm hai x3 f 202 106 10 hl106 hj10 rfl hp203 hn203 w203 hw203 k0_cond203 (fun _ => rfl) (k0_chk203 i) (k0_chk203.dec i) (k0_off609 i) (fun _ => rfl) (fun _ _ => rfl) rfl) $$ [HS HC S10]
  · isplitl [HS]; · iexact HS
    isplitl [HC]; · iexact HC
    iexact S10
  iintro ⟨HS, HC⟩
  iapply (loadMask_wp c 𝒱₀ i 107 hl107 q wm rfl) $$ HM
  iintro HM %w204 %hw204
  rw [wp_pure]
  imodintro
  isplitr; · ipureintro; exact hw204
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 35 of the body: steps 204 to 209, and the load of the next step's mask word. -/
theorem part35_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 107 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 203 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part35 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 97 (by decide)⌝ ∗ ((c : Thread nD τ).loc main_call0_v12 ↦{q} ai) ∗ ((c : Thread nD τ).loc main_call0_v13 ↦{q} wm) ∗ cells c arg3 (Memref.whole main_v0_0) i ai wm hai x3 f 209 ∗ semPt c 0 (sem_inb 0 (by decide)) ∗ ∃ W', owes (c : Thread nD τ) 0 W')) := by
  rw [k0_part35_eq_skeleton]; unfold k0_part35_skel
  iintro ⟨HS, HM, HC, S11, S12, S13, S14, S15, HO⟩
  have hl96 : (96 : ℕ) < 256 := by decide
  have hl97 : (97 : ℕ) < 256 := by decide
  have hl107 : (107 : ℕ) < 256 := by decide
  have hl108 : (108 : ℕ) < 256 := by decide
  have hl109 : (109 : ℕ) < 256 := by decide
  have hl110 : (110 : ℕ) < 256 := by decide
  have hl111 : (111 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw204 : w = wordOf wm i 107 hl107 := hw
  have hp204 : stateAt 203 ⟨107, hl107⟩ = St.pending := show stateAt 203 ⟨107, (by decide : (107 : ℕ) < 256)⟩ = St.pending from by decide
  have hn204 : ∀ l : Fin 256, stateAt 204 l = Function.update (stateAt 203) ⟨107, hl107⟩ St.started l := show ∀ l : Fin 256, stateAt 204 l = Function.update (stateAt 203) ⟨107, (by decide : (107 : ℕ) < 256)⟩ St.started l from by decide
  iapply (start_fam c 𝒱₀ arg3 (Memref.whole main_v0_0) i q ai wm hai x3 f 203 107 11 hl107 hj11 rfl hp204 hn204 w hw204 k0_cond204 (fun _ => rfl) (k0_chk204 i) (k0_chk204.dec i) (k0_off612 i) (fun _ => rfl) (fun _ _ => rfl) rfl) $$ [HS HC S11]
  · isplitl [HS]; · iexact HS
    isplitl [HC]; · iexact HC
    iexact S11
  iintro ⟨HS, HC⟩
  iapply (loadMask_wp c 𝒱₀ i 108 hl108 q wm rfl) $$ HM
  iintro HM %w205 %hw205
  have hp205 : stateAt 204 ⟨108, hl108⟩ = St.pending := show stateAt 204 ⟨108, (by decide : (108 : ℕ) < 256)⟩ = St.pending from by decide
  have hn205 : ∀ l : Fin 256, stateAt 205 l = Function.update (stateAt 204) ⟨108, hl108⟩ St.started l := show ∀ l : Fin 256, stateAt 205 l = Function.update (stateAt 204) ⟨108, (by decide : (108 : ℕ) < 256)⟩ St.started l from by decide
  iapply (start_fam c 𝒱₀ arg3 (Memref.whole main_v0_0) i q ai wm hai x3 f 204 108 12 hl108 hj12 rfl hp205 hn205 w205 hw205 k0_cond205 (fun _ => rfl) (k0_chk205 i) (k0_chk205.dec i) (k0_off615 i) (fun _ => rfl) (fun _ _ => rfl) rfl) $$ [HS HC S12]
  · isplitl [HS]; · iexact HS
    isplitl [HC]; · iexact HC
    iexact S12
  iintro ⟨HS, HC⟩
  iapply (loadMask_wp c 𝒱₀ i 109 hl109 q wm rfl) $$ HM
  iintro HM %w206 %hw206
  have hp206 : stateAt 205 ⟨109, hl109⟩ = St.pending := show stateAt 205 ⟨109, (by decide : (109 : ℕ) < 256)⟩ = St.pending from by decide
  have hn206 : ∀ l : Fin 256, stateAt 206 l = Function.update (stateAt 205) ⟨109, hl109⟩ St.started l := show ∀ l : Fin 256, stateAt 206 l = Function.update (stateAt 205) ⟨109, (by decide : (109 : ℕ) < 256)⟩ St.started l from by decide
  iapply (start_fam c 𝒱₀ arg3 (Memref.whole main_v0_0) i q ai wm hai x3 f 205 109 13 hl109 hj13 rfl hp206 hn206 w206 hw206 k0_cond206 (fun _ => rfl) (k0_chk206 i) (k0_chk206.dec i) (k0_off618 i) (fun _ => rfl) (fun _ _ => rfl) rfl) $$ [HS HC S13]
  · isplitl [HS]; · iexact HS
    isplitl [HC]; · iexact HC
    iexact S13
  iintro ⟨HS, HC⟩
  iapply (loadMask_wp c 𝒱₀ i 110 hl110 q wm rfl) $$ HM
  iintro HM %w207 %hw207
  have hp207 : stateAt 206 ⟨110, hl110⟩ = St.pending := show stateAt 206 ⟨110, (by decide : (110 : ℕ) < 256)⟩ = St.pending from by decide
  have hn207 : ∀ l : Fin 256, stateAt 207 l = Function.update (stateAt 206) ⟨110, hl110⟩ St.started l := show ∀ l : Fin 256, stateAt 207 l = Function.update (stateAt 206) ⟨110, (by decide : (110 : ℕ) < 256)⟩ St.started l from by decide
  iapply (start_fam c 𝒱₀ arg3 (Memref.whole main_v0_0) i q ai wm hai x3 f 206 110 14 hl110 hj14 rfl hp207 hn207 w207 hw207 k0_cond207 (fun _ => rfl) (k0_chk207 i) (k0_chk207.dec i) (k0_off621 i) (fun _ => rfl) (fun _ _ => rfl) rfl) $$ [HS HC S14]
  · isplitl [HS]; · iexact HS
    isplitl [HC]; · iexact HC
    iexact S14
  iintro ⟨HS, HC⟩
  iapply (loadMask_wp c 𝒱₀ i 111 hl111 q wm rfl) $$ HM
  iintro HM %w208 %hw208
  have hp208 : stateAt 207 ⟨111, hl111⟩ = St.pending := show stateAt 207 ⟨111, (by decide : (111 : ℕ) < 256)⟩ = St.pending from by decide
  have hn208 : ∀ l : Fin 256, stateAt 208 l = Function.update (stateAt 207) ⟨111, hl111⟩ St.started l := show ∀ l : Fin 256, stateAt 208 l = Function.update (stateAt 207) ⟨111, (by decide : (111 : ℕ) < 256)⟩ St.started l from by decide
  iapply (start_fam c 𝒱₀ arg3 (Memref.whole main_v0_0) i q ai wm hai x3 f 207 111 15 hl111 hj15 rfl hp208 hn208 w208 hw208 k0_cond208 (fun _ => rfl) (k0_chk208 i) (k0_chk208.dec i) (k0_off624 i) (fun _ => rfl) (fun _ _ => rfl) rfl) $$ [HS HC S15]
  · isplitl [HS]; · iexact HS
    isplitl [HC]; · iexact HC
    iexact S15
  iintro ⟨HS, HC⟩
  iapply (loadMask_wp c 𝒱₀ i 96 hl96 q wm rfl) $$ HM
  iintro HM %w209 %hw209
  have hp209 : stateAt 208 ⟨96, hl96⟩ = St.started := show stateAt 208 ⟨96, (by decide : (96 : ℕ) < 256)⟩ = St.started from by decide
  have hn209 : ∀ l : Fin 256, stateAt 209 l = Function.update (stateAt 208) ⟨96, hl96⟩ St.done l := show ∀ l : Fin 256, stateAt 209 l = Function.update (stateAt 208) ⟨96, (by decide : (96 : ℕ) < 256)⟩ St.done l from by decide
  iapply (wait_fam c 𝒱₀ arg3 (Memref.whole main_v0_0) i q ai wm hai x3 f 208 96 0 hl96 hj0 rfl hp209 hn209 w209 hw209 (k0_off626 i) rfl (k0_off626_inb i) k0_cond209 (fun _ => rfl) (k0_chk209 i) (k0_chk209.dec i) (k0_off627 i) (fun _ => rfl) (fun _ _ h => h) (k0_off627_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W209, HO⟩
  iapply (loadMask_wp c 𝒱₀ i 97 hl97 q wm rfl) $$ HM
  iintro HM %w210 %hw210
  rw [wp_pure]
  imodintro
  isplitr; · ipureintro; exact hw210
  isplitl [HS]; · iexact HS
  isplitl [HM]; · iexact HM
  isplitl [HC]; · iexact HC
  isplitl [S0]; · iexact S0
  iexists _; iexact HO

set_option maxHeartbeats 0 in
/-- Part 36 of the body: steps 210 to 215, and the load of the next step's mask word. -/
theorem part36_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 97 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 209 ∗ semPt c 0 (sem_inb 0 (by decide)) ∗ owes (c : Thread nD τ) 0 W)
      ⊢ wp frame (wpE (defs₀ (F := F)) 𝒱₀ (c : Thread nD τ) none) Set.univ (k0_part36 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 103 (by decide)⌝ ∗ ((c : Thread nD τ).loc main_call0_v12 ↦{q} ai) ∗ ((c : Thread nD τ).loc main_call0_v13 ↦{q} wm) ∗ cells c arg3 (Memref.whole main_v0_0) i ai wm hai x3 f 215 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part36_eq_skeleton]; unfold k0_part36_skel
  iintro ⟨HS, HM, HC, S0, HO⟩
  have hl97 : (97 : ℕ) < 256 := by decide
  have hl98 : (98 : ℕ) < 256 := by decide
  have hl99 : (99 : ℕ) < 256 := by decide
  have hl100 : (100 : ℕ) < 256 := by decide
  have hl101 : (101 : ℕ) < 256 := by decide
  have hl102 : (102 : ℕ) < 256 := by decide
  have hl103 : (103 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw210 : w = wordOf wm i 97 hl97 := hw
  have hp210 : stateAt 209 ⟨97, hl97⟩ = St.started := show stateAt 209 ⟨97, (by decide : (97 : ℕ) < 256)⟩ = St.started from by decide
  have hn210 : ∀ l : Fin 256, stateAt 210 l = Function.update (stateAt 209) ⟨97, hl97⟩ St.done l := show ∀ l : Fin 256, stateAt 210 l = Function.update (stateAt 209) ⟨97, (by decide : (97 : ℕ) < 256)⟩ St.done l from by decide
  iapply (wait_fam c 𝒱₀ arg3 (Memref.whole main_v0_0) i q ai wm hai x3 f 209 97 1 hl97 hj1 rfl hp210 hn210 w hw210 (k0_off629 i) rfl (k0_off629_inb i) k0_cond210 (fun _ => rfl) (k0_chk210 i) (k0_chk210.dec i) (k0_off630 i) (fun _ => rfl) (fun _ _ h => h) (k0_off630_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W210, HO⟩
  iapply (loadMask_wp c 𝒱₀ i 98 hl98 q wm rfl) $$ HM
  iintro HM %w211 %hw211
  have hp211 : stateAt 210 ⟨98, hl98⟩ = St.started := show stateAt 210 ⟨98, (by decide : (98 : ℕ) < 256)⟩ = St.started from by decide
  have hn211 : ∀ l : Fin 256, stateAt 211 l = Function.update (stateAt 210) ⟨98, hl98⟩ St.done l := show ∀ l : Fin 256, stateAt 211 l = Function.update (stateAt 210) ⟨98, (by decide : (98 : ℕ) < 256)⟩ St.done l from by decide
  iapply (wait_fam c 𝒱₀ arg3 (Memref.whole main_v0_0) i q ai wm hai x3 f 210 98 2 hl98 hj2 rfl hp211 hn211 w211 hw211 (k0_off632 i) rfl (k0_off632_inb i) k0_cond211 (fun _ => rfl) (k0_chk211 i) (k0_chk211.dec i) (k0_off633 i) (fun _ => rfl) (fun _ _ h => h) (k0_off633_inb i) ((View.wordExact_bits rfl).reshape _ _) (fun _ _ => (View.wordExact_bits rfl).reshape _ _) _ _ W210) $$ [HS HM HC HO]
  · isplitl [HS]; · iexact HS
    isplitl [HM]; · iexact HM
    isplitl [HC]; · iexact HC
    iexact HO
  iintro ⟨HS, HM, HC, S2, %W211, HO⟩
  iapply (loadMask_wp c 𝒱₀ i 99 hl99 q wm rfl) $$ HM
  iintro HM %w212 %hw212
  have hp212 : stateAt 211 ⟨99, hl99⟩ = St.started := show stateAt 211 ⟨99, (by decide : (99 : ℕ) < 256)⟩ = St.started from by decide
  have hn212 : ∀ l : Fin 256, stateAt 212 l = Function.update (stateAt 211) ⟨99, hl99⟩ St.done l := show ∀ l : Fin 256, stateAt 212 l = Function.update (stateAt 211) ⟨99, (by decide : (99 : ℕ) < 256)⟩ St.done l from by decide
  iapply (wait_fam c 𝒱₀ arg3 (Memref.whole main_v0_0) i q ai wm hai x3 f 211 99 3 hl99 hj3 rfl hp212 hn212 w212 hw212 (k0_off635 i) rfl (k0_off635_inb i) k0_cond212 (fun _ => rfl) (k0_chk212 i) (k0_chk212.dec i) (k0_off636 i) (fun _ => rfl) (fun _ _ h => h) (k0_off636_inb i) ((View.wordExact_bits rfl).reshape _ _) (fun _ _ => (View.wordExact_bits rfl).reshape _ _) _ _ W211) $$ [HS HM HC HO]
  · isplitl [HS]; · iexact HS
    isplitl [HM]; · iexact HM
    isplitl [HC]; · iexact HC
    iexact HO
  iintro ⟨HS, HM, HC, S3, %W212, HO⟩
  iapply (loadMask_wp c 𝒱₀ i 100 hl100 q wm rfl) $$ HM
  iintro HM %w213 %hw213
  have hp213 : stateAt 212 ⟨100, hl100⟩ = St.started := show stateAt 212 ⟨100, (by decide : (100 : ℕ) < 256)⟩ = St.started from by decide
  have hn213 : ∀ l : Fin 256, stateAt 213 l = Function.update (stateAt 212) ⟨100, hl100⟩ St.done l := show ∀ l : Fin 256, stateAt 213 l = Function.update (stateAt 212) ⟨100, (by decide : (100 : ℕ) < 256)⟩ St.done l from by decide
  iapply (wait_fam c 𝒱₀ arg3 (Memref.whole main_v0_0) i q ai wm hai x3 f 212 100 4 hl100 hj4 rfl hp213 hn213 w213 hw213 (k0_off638 i) rfl (k0_off638_inb i) k0_cond213 (fun _ => rfl) (k0_chk213 i) (k0_chk213.dec i) (k0_off639 i) (fun _ => rfl) (fun _ _ h => h) (k0_off639_inb i) ((View.wordExact_bits rfl).reshape _ _) (fun _ _ => (View.wordExact_bits rfl).reshape _ _) _ _ W212) $$ [HS HM HC HO]
  · isplitl [HS]; · iexact HS
    isplitl [HM]; · iexact HM
    isplitl [HC]; · iexact HC
    iexact HO
  iintro ⟨HS, HM, HC, S4, %W213, HO⟩
  iapply (loadMask_wp c 𝒱₀ i 101 hl101 q wm rfl) $$ HM
  iintro HM %w214 %hw214
  have hp214 : stateAt 213 ⟨101, hl101⟩ = St.started := show stateAt 213 ⟨101, (by decide : (101 : ℕ) < 256)⟩ = St.started from by decide
  have hn214 : ∀ l : Fin 256, stateAt 214 l = Function.update (stateAt 213) ⟨101, hl101⟩ St.done l := show ∀ l : Fin 256, stateAt 214 l = Function.update (stateAt 213) ⟨101, (by decide : (101 : ℕ) < 256)⟩ St.done l from by decide
  iapply (wait_fam c 𝒱₀ arg3 (Memref.whole main_v0_0) i q ai wm hai x3 f 213 101 5 hl101 hj5 rfl hp214 hn214 w214 hw214 (k0_off641 i) rfl (k0_off641_inb i) k0_cond214 (fun _ => rfl) (k0_chk214 i) (k0_chk214.dec i) (k0_off642 i) (fun _ => rfl) (fun _ _ h => h) (k0_off642_inb i) ((View.wordExact_bits rfl).reshape _ _) (fun _ _ => (View.wordExact_bits rfl).reshape _ _) _ _ W213) $$ [HS HM HC HO]
  · isplitl [HS]; · iexact HS
    isplitl [HM]; · iexact HM
    isplitl [HC]; · iexact HC
    iexact HO
  iintro ⟨HS, HM, HC, S5, %W214, HO⟩
  iapply (loadMask_wp c 𝒱₀ i 102 hl102 q wm rfl) $$ HM
  iintro HM %w215 %hw215
  have hp215 : stateAt 214 ⟨102, hl102⟩ = St.started := show stateAt 214 ⟨102, (by decide : (102 : ℕ) < 256)⟩ = St.started from by decide
  have hn215 : ∀ l : Fin 256, stateAt 215 l = Function.update (stateAt 214) ⟨102, hl102⟩ St.done l := show ∀ l : Fin 256, stateAt 215 l = Function.update (stateAt 214) ⟨102, (by decide : (102 : ℕ) < 256)⟩ St.done l from by decide
  iapply (wait_fam c 𝒱₀ arg3 (Memref.whole main_v0_0) i q ai wm hai x3 f 214 102 6 hl102 hj6 rfl hp215 hn215 w215 hw215 (k0_off644 i) rfl (k0_off644_inb i) k0_cond215 (fun _ => rfl) (k0_chk215 i) (k0_chk215.dec i) (k0_off645 i) (fun _ => rfl) (fun _ _ h => h) (k0_off645_inb i) ((View.wordExact_bits rfl).reshape _ _) (fun _ _ => (View.wordExact_bits rfl).reshape _ _) _ _ W214) $$ [HS HM HC HO]
  · isplitl [HS]; · iexact HS
    isplitl [HM]; · iexact HM
    isplitl [HC]; · iexact HC
    iexact HO
  iintro ⟨HS, HM, HC, S6, %W215, HO⟩
  iapply (loadMask_wp c 𝒱₀ i 103 hl103 q wm rfl) $$ HM
  iintro HM %w216 %hw216
  rw [wp_pure]
  imodintro
  isplitr; · ipureintro; exact hw216
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 37 of the body: steps 216 to 221, and the load of the next step's mask word. -/
theorem part37_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 103 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 215 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part37 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 109 (by decide)⌝ ∗ ((c : Thread nD τ).loc main_call0_v12 ↦{q} ai) ∗ ((c : Thread nD τ).loc main_call0_v13 ↦{q} wm) ∗ cells c arg3 (Memref.whole main_v0_0) i ai wm hai x3 f 221 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part37_eq_skeleton]; unfold k0_part37_skel
  iintro ⟨HS, HM, HC, S0, S1, S2, S3, S4, S5, S6, HO⟩
  have hl103 : (103 : ℕ) < 256 := by decide
  have hl104 : (104 : ℕ) < 256 := by decide
  have hl105 : (105 : ℕ) < 256 := by decide
  have hl106 : (106 : ℕ) < 256 := by decide
  have hl107 : (107 : ℕ) < 256 := by decide
  have hl108 : (108 : ℕ) < 256 := by decide
  have hl109 : (109 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw216 : w = wordOf wm i 103 hl103 := hw
  have hp216 : stateAt 215 ⟨103, hl103⟩ = St.started := show stateAt 215 ⟨103, (by decide : (103 : ℕ) < 256)⟩ = St.started from by decide
  have hn216 : ∀ l : Fin 256, stateAt 216 l = Function.update (stateAt 215) ⟨103, hl103⟩ St.done l := show ∀ l : Fin 256, stateAt 216 l = Function.update (stateAt 215) ⟨103, (by decide : (103 : ℕ) < 256)⟩ St.done l from by decide
  iapply (wait_fam c 𝒱₀ arg3 (Memref.whole main_v0_0) i q ai wm hai x3 f 215 103 7 hl103 hj7 rfl hp216 hn216 w hw216 (k0_off647 i) rfl (k0_off647_inb i) k0_cond216 (fun _ => rfl) (k0_chk216 i) (k0_chk216.dec i) (k0_off648 i) (fun _ => rfl) (fun _ _ h => h) (k0_off648_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W216, HO⟩
  iapply (loadMask_wp c 𝒱₀ i 104 hl104 q wm rfl) $$ HM
  iintro HM %w217 %hw217
  have hp217 : stateAt 216 ⟨104, hl104⟩ = St.started := show stateAt 216 ⟨104, (by decide : (104 : ℕ) < 256)⟩ = St.started from by decide
  have hn217 : ∀ l : Fin 256, stateAt 217 l = Function.update (stateAt 216) ⟨104, hl104⟩ St.done l := show ∀ l : Fin 256, stateAt 217 l = Function.update (stateAt 216) ⟨104, (by decide : (104 : ℕ) < 256)⟩ St.done l from by decide
  iapply (wait_fam c 𝒱₀ arg3 (Memref.whole main_v0_0) i q ai wm hai x3 f 216 104 8 hl104 hj8 rfl hp217 hn217 w217 hw217 (k0_off650 i) rfl (k0_off650_inb i) k0_cond217 (fun _ => rfl) (k0_chk217 i) (k0_chk217.dec i) (k0_off651 i) (fun _ => rfl) (fun _ _ h => h) (k0_off651_inb i) ((View.wordExact_bits rfl).reshape _ _) (fun _ _ => (View.wordExact_bits rfl).reshape _ _) _ _ W216) $$ [HS HM HC HO]
  · isplitl [HS]; · iexact HS
    isplitl [HM]; · iexact HM
    isplitl [HC]; · iexact HC
    iexact HO
  iintro ⟨HS, HM, HC, S8, %W217, HO⟩
  iapply (loadMask_wp c 𝒱₀ i 105 hl105 q wm rfl) $$ HM
  iintro HM %w218 %hw218
  have hp218 : stateAt 217 ⟨105, hl105⟩ = St.started := show stateAt 217 ⟨105, (by decide : (105 : ℕ) < 256)⟩ = St.started from by decide
  have hn218 : ∀ l : Fin 256, stateAt 218 l = Function.update (stateAt 217) ⟨105, hl105⟩ St.done l := show ∀ l : Fin 256, stateAt 218 l = Function.update (stateAt 217) ⟨105, (by decide : (105 : ℕ) < 256)⟩ St.done l from by decide
  iapply (wait_fam c 𝒱₀ arg3 (Memref.whole main_v0_0) i q ai wm hai x3 f 217 105 9 hl105 hj9 rfl hp218 hn218 w218 hw218 (k0_off653 i) rfl (k0_off653_inb i) k0_cond218 (fun _ => rfl) (k0_chk218 i) (k0_chk218.dec i) (k0_off654 i) (fun _ => rfl) (fun _ _ h => h) (k0_off654_inb i) ((View.wordExact_bits rfl).reshape _ _) (fun _ _ => (View.wordExact_bits rfl).reshape _ _) _ _ W217) $$ [HS HM HC HO]
  · isplitl [HS]; · iexact HS
    isplitl [HM]; · iexact HM
    isplitl [HC]; · iexact HC
    iexact HO
  iintro ⟨HS, HM, HC, S9, %W218, HO⟩
  iapply (loadMask_wp c 𝒱₀ i 106 hl106 q wm rfl) $$ HM
  iintro HM %w219 %hw219
  have hp219 : stateAt 218 ⟨106, hl106⟩ = St.started := show stateAt 218 ⟨106, (by decide : (106 : ℕ) < 256)⟩ = St.started from by decide
  have hn219 : ∀ l : Fin 256, stateAt 219 l = Function.update (stateAt 218) ⟨106, hl106⟩ St.done l := show ∀ l : Fin 256, stateAt 219 l = Function.update (stateAt 218) ⟨106, (by decide : (106 : ℕ) < 256)⟩ St.done l from by decide
  iapply (wait_fam c 𝒱₀ arg3 (Memref.whole main_v0_0) i q ai wm hai x3 f 218 106 10 hl106 hj10 rfl hp219 hn219 w219 hw219 (k0_off656 i) rfl (k0_off656_inb i) k0_cond219 (fun _ => rfl) (k0_chk219 i) (k0_chk219.dec i) (k0_off657 i) (fun _ => rfl) (fun _ _ h => h) (k0_off657_inb i) ((View.wordExact_bits rfl).reshape _ _) (fun _ _ => (View.wordExact_bits rfl).reshape _ _) _ _ W218) $$ [HS HM HC HO]
  · isplitl [HS]; · iexact HS
    isplitl [HM]; · iexact HM
    isplitl [HC]; · iexact HC
    iexact HO
  iintro ⟨HS, HM, HC, S10, %W219, HO⟩
  iapply (loadMask_wp c 𝒱₀ i 107 hl107 q wm rfl) $$ HM
  iintro HM %w220 %hw220
  have hp220 : stateAt 219 ⟨107, hl107⟩ = St.started := show stateAt 219 ⟨107, (by decide : (107 : ℕ) < 256)⟩ = St.started from by decide
  have hn220 : ∀ l : Fin 256, stateAt 220 l = Function.update (stateAt 219) ⟨107, hl107⟩ St.done l := show ∀ l : Fin 256, stateAt 220 l = Function.update (stateAt 219) ⟨107, (by decide : (107 : ℕ) < 256)⟩ St.done l from by decide
  iapply (wait_fam c 𝒱₀ arg3 (Memref.whole main_v0_0) i q ai wm hai x3 f 219 107 11 hl107 hj11 rfl hp220 hn220 w220 hw220 (k0_off659 i) rfl (k0_off659_inb i) k0_cond220 (fun _ => rfl) (k0_chk220 i) (k0_chk220.dec i) (k0_off660 i) (fun _ => rfl) (fun _ _ h => h) (k0_off660_inb i) ((View.wordExact_bits rfl).reshape _ _) (fun _ _ => (View.wordExact_bits rfl).reshape _ _) _ _ W219) $$ [HS HM HC HO]
  · isplitl [HS]; · iexact HS
    isplitl [HM]; · iexact HM
    isplitl [HC]; · iexact HC
    iexact HO
  iintro ⟨HS, HM, HC, S11, %W220, HO⟩
  iapply (loadMask_wp c 𝒱₀ i 108 hl108 q wm rfl) $$ HM
  iintro HM %w221 %hw221
  have hp221 : stateAt 220 ⟨108, hl108⟩ = St.started := show stateAt 220 ⟨108, (by decide : (108 : ℕ) < 256)⟩ = St.started from by decide
  have hn221 : ∀ l : Fin 256, stateAt 221 l = Function.update (stateAt 220) ⟨108, hl108⟩ St.done l := show ∀ l : Fin 256, stateAt 221 l = Function.update (stateAt 220) ⟨108, (by decide : (108 : ℕ) < 256)⟩ St.done l from by decide
  iapply (wait_fam c 𝒱₀ arg3 (Memref.whole main_v0_0) i q ai wm hai x3 f 220 108 12 hl108 hj12 rfl hp221 hn221 w221 hw221 (k0_off662 i) rfl (k0_off662_inb i) k0_cond221 (fun _ => rfl) (k0_chk221 i) (k0_chk221.dec i) (k0_off663 i) (fun _ => rfl) (fun _ _ h => h) (k0_off663_inb i) ((View.wordExact_bits rfl).reshape _ _) (fun _ _ => (View.wordExact_bits rfl).reshape _ _) _ _ W220) $$ [HS HM HC HO]
  · isplitl [HS]; · iexact HS
    isplitl [HM]; · iexact HM
    isplitl [HC]; · iexact HC
    iexact HO
  iintro ⟨HS, HM, HC, S12, %W221, HO⟩
  iapply (loadMask_wp c 𝒱₀ i 109 hl109 q wm rfl) $$ HM
  iintro HM %w222 %hw222
  rw [wp_pure]
  imodintro
  isplitr; · ipureintro; exact hw222
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 38 of the body: steps 222 to 227, and the load of the next step's mask word. -/
theorem part38_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 109 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 221 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part38 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 115 (by decide)⌝ ∗ ((c : Thread nD τ).loc main_call0_v12 ↦{q} ai) ∗ ((c : Thread nD τ).loc main_call0_v13 ↦{q} wm) ∗ cells c arg3 (Memref.whole main_v0_0) i ai wm hai x3 f 227 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part38_eq_skeleton]; unfold k0_part38_skel
  iintro ⟨HS, HM, HC, S0, S1, S2, S3, S4, S5, S6, S7, S8, S9, S10, S11, S12, HO⟩
  have hl109 : (109 : ℕ) < 256 := by decide
  have hl110 : (110 : ℕ) < 256 := by decide
  have hl111 : (111 : ℕ) < 256 := by decide
  have hl112 : (112 : ℕ) < 256 := by decide
  have hl113 : (113 : ℕ) < 256 := by decide
  have hl114 : (114 : ℕ) < 256 := by decide
  have hl115 : (115 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw222 : w = wordOf wm i 109 hl109 := hw
  have hp222 : stateAt 221 ⟨109, hl109⟩ = St.started := show stateAt 221 ⟨109, (by decide : (109 : ℕ) < 256)⟩ = St.started from by decide
  have hn222 : ∀ l : Fin 256, stateAt 222 l = Function.update (stateAt 221) ⟨109, hl109⟩ St.done l := show ∀ l : Fin 256, stateAt 222 l = Function.update (stateAt 221) ⟨109, (by decide : (109 : ℕ) < 256)⟩ St.done l from by decide
  iapply (wait_fam c 𝒱₀ arg3 (Memref.whole main_v0_0) i q ai wm hai x3 f 221 109 13 hl109 hj13 rfl hp222 hn222 w hw222 (k0_off665 i) rfl (k0_off665_inb i) k0_cond222 (fun _ => rfl) (k0_chk222 i) (k0_chk222.dec i) (k0_off666 i) (fun _ => rfl) (fun _ _ h => h) (k0_off666_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W222, HO⟩
  iapply (loadMask_wp c 𝒱₀ i 110 hl110 q wm rfl) $$ HM
  iintro HM %w223 %hw223
  have hp223 : stateAt 222 ⟨110, hl110⟩ = St.started := show stateAt 222 ⟨110, (by decide : (110 : ℕ) < 256)⟩ = St.started from by decide
  have hn223 : ∀ l : Fin 256, stateAt 223 l = Function.update (stateAt 222) ⟨110, hl110⟩ St.done l := show ∀ l : Fin 256, stateAt 223 l = Function.update (stateAt 222) ⟨110, (by decide : (110 : ℕ) < 256)⟩ St.done l from by decide
  iapply (wait_fam c 𝒱₀ arg3 (Memref.whole main_v0_0) i q ai wm hai x3 f 222 110 14 hl110 hj14 rfl hp223 hn223 w223 hw223 (k0_off668 i) rfl (k0_off668_inb i) k0_cond223 (fun _ => rfl) (k0_chk223 i) (k0_chk223.dec i) (k0_off669 i) (fun _ => rfl) (fun _ _ h => h) (k0_off669_inb i) ((View.wordExact_bits rfl).reshape _ _) (fun _ _ => (View.wordExact_bits rfl).reshape _ _) _ _ W222) $$ [HS HM HC HO]
  · isplitl [HS]; · iexact HS
    isplitl [HM]; · iexact HM
    isplitl [HC]; · iexact HC
    iexact HO
  iintro ⟨HS, HM, HC, S14, %W223, HO⟩
  iapply (loadMask_wp c 𝒱₀ i 111 hl111 q wm rfl) $$ HM
  iintro HM %w224 %hw224
  have hp224 : stateAt 223 ⟨111, hl111⟩ = St.started := show stateAt 223 ⟨111, (by decide : (111 : ℕ) < 256)⟩ = St.started from by decide
  have hn224 : ∀ l : Fin 256, stateAt 224 l = Function.update (stateAt 223) ⟨111, hl111⟩ St.done l := show ∀ l : Fin 256, stateAt 224 l = Function.update (stateAt 223) ⟨111, (by decide : (111 : ℕ) < 256)⟩ St.done l from by decide
  iapply (wait_fam c 𝒱₀ arg3 (Memref.whole main_v0_0) i q ai wm hai x3 f 223 111 15 hl111 hj15 rfl hp224 hn224 w224 hw224 (k0_off671 i) rfl (k0_off671_inb i) k0_cond224 (fun _ => rfl) (k0_chk224 i) (k0_chk224.dec i) (k0_off672 i) (fun _ => rfl) (fun _ _ h => h) (k0_off672_inb i) ((View.wordExact_bits rfl).reshape _ _) (fun _ _ => (View.wordExact_bits rfl).reshape _ _) _ _ W223) $$ [HS HM HC HO]
  · isplitl [HS]; · iexact HS
    isplitl [HM]; · iexact HM
    isplitl [HC]; · iexact HC
    iexact HO
  iintro ⟨HS, HM, HC, S15, %W224, HO⟩
  iapply (loadMask_wp c 𝒱₀ i 112 hl112 q wm rfl) $$ HM
  iintro HM %w225 %hw225
  have hp225 : stateAt 224 ⟨112, hl112⟩ = St.pending := show stateAt 224 ⟨112, (by decide : (112 : ℕ) < 256)⟩ = St.pending from by decide
  have hn225 : ∀ l : Fin 256, stateAt 225 l = Function.update (stateAt 224) ⟨112, hl112⟩ St.started l := show ∀ l : Fin 256, stateAt 225 l = Function.update (stateAt 224) ⟨112, (by decide : (112 : ℕ) < 256)⟩ St.started l from by decide
  iapply (start_fam c 𝒱₀ arg3 (Memref.whole main_v0_0) i q ai wm hai x3 f 224 112 0 hl112 hj0 rfl hp225 hn225 w225 hw225 k0_cond225 (fun _ => rfl) (k0_chk225 i) (k0_chk225.dec i) (k0_off675 i) (fun _ => rfl) (fun _ _ => rfl) rfl) $$ [HS HC S0]
  · isplitl [HS]; · iexact HS
    isplitl [HC]; · iexact HC
    iexact S0
  iintro ⟨HS, HC⟩
  iapply (loadMask_wp c 𝒱₀ i 113 hl113 q wm rfl) $$ HM
  iintro HM %w226 %hw226
  have hp226 : stateAt 225 ⟨113, hl113⟩ = St.pending := show stateAt 225 ⟨113, (by decide : (113 : ℕ) < 256)⟩ = St.pending from by decide
  have hn226 : ∀ l : Fin 256, stateAt 226 l = Function.update (stateAt 225) ⟨113, hl113⟩ St.started l := show ∀ l : Fin 256, stateAt 226 l = Function.update (stateAt 225) ⟨113, (by decide : (113 : ℕ) < 256)⟩ St.started l from by decide
  iapply (start_fam c 𝒱₀ arg3 (Memref.whole main_v0_0) i q ai wm hai x3 f 225 113 1 hl113 hj1 rfl hp226 hn226 w226 hw226 k0_cond226 (fun _ => rfl) (k0_chk226 i) (k0_chk226.dec i) (k0_off678 i) (fun _ => rfl) (fun _ _ => rfl) rfl) $$ [HS HC S1]
  · isplitl [HS]; · iexact HS
    isplitl [HC]; · iexact HC
    iexact S1
  iintro ⟨HS, HC⟩
  iapply (loadMask_wp c 𝒱₀ i 114 hl114 q wm rfl) $$ HM
  iintro HM %w227 %hw227
  have hp227 : stateAt 226 ⟨114, hl114⟩ = St.pending := show stateAt 226 ⟨114, (by decide : (114 : ℕ) < 256)⟩ = St.pending from by decide
  have hn227 : ∀ l : Fin 256, stateAt 227 l = Function.update (stateAt 226) ⟨114, hl114⟩ St.started l := show ∀ l : Fin 256, stateAt 227 l = Function.update (stateAt 226) ⟨114, (by decide : (114 : ℕ) < 256)⟩ St.started l from by decide
  iapply (start_fam c 𝒱₀ arg3 (Memref.whole main_v0_0) i q ai wm hai x3 f 226 114 2 hl114 hj2 rfl hp227 hn227 w227 hw227 k0_cond227 (fun _ => rfl) (k0_chk227 i) (k0_chk227.dec i) (k0_off681 i) (fun _ => rfl) (fun _ _ => rfl) rfl) $$ [HS HC S2]
  · isplitl [HS]; · iexact HS
    isplitl [HC]; · iexact HC
    iexact S2
  iintro ⟨HS, HC⟩
  iapply (loadMask_wp c 𝒱₀ i 115 hl115 q wm rfl) $$ HM
  iintro HM %w228 %hw228
  rw [wp_pure]
  imodintro
  isplitr; · ipureintro; exact hw228
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 39 of the body: steps 228 to 233, and the load of the next step's mask word. -/
theorem part39_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 115 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 227 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part39 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 121 (by decide)⌝ ∗ ((c : Thread nD τ).loc main_call0_v12 ↦{q} ai) ∗ ((c : Thread nD τ).loc main_call0_v13 ↦{q} wm) ∗ cells c arg3 (Memref.whole main_v0_0) i ai wm hai x3 f 233 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part39_eq_skeleton]; unfold k0_part39_skel
  iintro ⟨HS, HM, HC, S3, S4, S5, S6, S7, S8, S9, S10, S11, S12, S13, S14, S15, HO⟩
  have hl115 : (115 : ℕ) < 256 := by decide
  have hl116 : (116 : ℕ) < 256 := by decide
  have hl117 : (117 : ℕ) < 256 := by decide
  have hl118 : (118 : ℕ) < 256 := by decide
  have hl119 : (119 : ℕ) < 256 := by decide
  have hl120 : (120 : ℕ) < 256 := by decide
  have hl121 : (121 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw228 : w = wordOf wm i 115 hl115 := hw
  have hp228 : stateAt 227 ⟨115, hl115⟩ = St.pending := show stateAt 227 ⟨115, (by decide : (115 : ℕ) < 256)⟩ = St.pending from by decide
  have hn228 : ∀ l : Fin 256, stateAt 228 l = Function.update (stateAt 227) ⟨115, hl115⟩ St.started l := show ∀ l : Fin 256, stateAt 228 l = Function.update (stateAt 227) ⟨115, (by decide : (115 : ℕ) < 256)⟩ St.started l from by decide
  iapply (start_fam c 𝒱₀ arg3 (Memref.whole main_v0_0) i q ai wm hai x3 f 227 115 3 hl115 hj3 rfl hp228 hn228 w hw228 k0_cond228 (fun _ => rfl) (k0_chk228 i) (k0_chk228.dec i) (k0_off684 i) (fun _ => rfl) (fun _ _ => rfl) rfl) $$ [HS HC S3]
  · isplitl [HS]; · iexact HS
    isplitl [HC]; · iexact HC
    iexact S3
  iintro ⟨HS, HC⟩
  iapply (loadMask_wp c 𝒱₀ i 116 hl116 q wm rfl) $$ HM
  iintro HM %w229 %hw229
  have hp229 : stateAt 228 ⟨116, hl116⟩ = St.pending := show stateAt 228 ⟨116, (by decide : (116 : ℕ) < 256)⟩ = St.pending from by decide
  have hn229 : ∀ l : Fin 256, stateAt 229 l = Function.update (stateAt 228) ⟨116, hl116⟩ St.started l := show ∀ l : Fin 256, stateAt 229 l = Function.update (stateAt 228) ⟨116, (by decide : (116 : ℕ) < 256)⟩ St.started l from by decide
  iapply (start_fam c 𝒱₀ arg3 (Memref.whole main_v0_0) i q ai wm hai x3 f 228 116 4 hl116 hj4 rfl hp229 hn229 w229 hw229 k0_cond229 (fun _ => rfl) (k0_chk229 i) (k0_chk229.dec i) (k0_off687 i) (fun _ => rfl) (fun _ _ => rfl) rfl) $$ [HS HC S4]
  · isplitl [HS]; · iexact HS
    isplitl [HC]; · iexact HC
    iexact S4
  iintro ⟨HS, HC⟩
  iapply (loadMask_wp c 𝒱₀ i 117 hl117 q wm rfl) $$ HM
  iintro HM %w230 %hw230
  have hp230 : stateAt 229 ⟨117, hl117⟩ = St.pending := show stateAt 229 ⟨117, (by decide : (117 : ℕ) < 256)⟩ = St.pending from by decide
  have hn230 : ∀ l : Fin 256, stateAt 230 l = Function.update (stateAt 229) ⟨117, hl117⟩ St.started l := show ∀ l : Fin 256, stateAt 230 l = Function.update (stateAt 229) ⟨117, (by decide : (117 : ℕ) < 256)⟩ St.started l from by decide
  iapply (start_fam c 𝒱₀ arg3 (Memref.whole main_v0_0) i q ai wm hai x3 f 229 117 5 hl117 hj5 rfl hp230 hn230 w230 hw230 k0_cond230 (fun _ => rfl) (k0_chk230 i) (k0_chk230.dec i) (k0_off690 i) (fun _ => rfl) (fun _ _ => rfl) rfl) $$ [HS HC S5]
  · isplitl [HS]; · iexact HS
    isplitl [HC]; · iexact HC
    iexact S5
  iintro ⟨HS, HC⟩
  iapply (loadMask_wp c 𝒱₀ i 118 hl118 q wm rfl) $$ HM
  iintro HM %w231 %hw231
  have hp231 : stateAt 230 ⟨118, hl118⟩ = St.pending := show stateAt 230 ⟨118, (by decide : (118 : ℕ) < 256)⟩ = St.pending from by decide
  have hn231 : ∀ l : Fin 256, stateAt 231 l = Function.update (stateAt 230) ⟨118, hl118⟩ St.started l := show ∀ l : Fin 256, stateAt 231 l = Function.update (stateAt 230) ⟨118, (by decide : (118 : ℕ) < 256)⟩ St.started l from by decide
  iapply (start_fam c 𝒱₀ arg3 (Memref.whole main_v0_0) i q ai wm hai x3 f 230 118 6 hl118 hj6 rfl hp231 hn231 w231 hw231 k0_cond231 (fun _ => rfl) (k0_chk231 i) (k0_chk231.dec i) (k0_off693 i) (fun _ => rfl) (fun _ _ => rfl) rfl) $$ [HS HC S6]
  · isplitl [HS]; · iexact HS
    isplitl [HC]; · iexact HC
    iexact S6
  iintro ⟨HS, HC⟩
  iapply (loadMask_wp c 𝒱₀ i 119 hl119 q wm rfl) $$ HM
  iintro HM %w232 %hw232
  have hp232 : stateAt 231 ⟨119, hl119⟩ = St.pending := show stateAt 231 ⟨119, (by decide : (119 : ℕ) < 256)⟩ = St.pending from by decide
  have hn232 : ∀ l : Fin 256, stateAt 232 l = Function.update (stateAt 231) ⟨119, hl119⟩ St.started l := show ∀ l : Fin 256, stateAt 232 l = Function.update (stateAt 231) ⟨119, (by decide : (119 : ℕ) < 256)⟩ St.started l from by decide
  iapply (start_fam c 𝒱₀ arg3 (Memref.whole main_v0_0) i q ai wm hai x3 f 231 119 7 hl119 hj7 rfl hp232 hn232 w232 hw232 k0_cond232 (fun _ => rfl) (k0_chk232 i) (k0_chk232.dec i) (k0_off696 i) (fun _ => rfl) (fun _ _ => rfl) rfl) $$ [HS HC S7]
  · isplitl [HS]; · iexact HS
    isplitl [HC]; · iexact HC
    iexact S7
  iintro ⟨HS, HC⟩
  iapply (loadMask_wp c 𝒱₀ i 120 hl120 q wm rfl) $$ HM
  iintro HM %w233 %hw233
  have hp233 : stateAt 232 ⟨120, hl120⟩ = St.pending := show stateAt 232 ⟨120, (by decide : (120 : ℕ) < 256)⟩ = St.pending from by decide
  have hn233 : ∀ l : Fin 256, stateAt 233 l = Function.update (stateAt 232) ⟨120, hl120⟩ St.started l := show ∀ l : Fin 256, stateAt 233 l = Function.update (stateAt 232) ⟨120, (by decide : (120 : ℕ) < 256)⟩ St.started l from by decide
  iapply (start_fam c 𝒱₀ arg3 (Memref.whole main_v0_0) i q ai wm hai x3 f 232 120 8 hl120 hj8 rfl hp233 hn233 w233 hw233 k0_cond233 (fun _ => rfl) (k0_chk233 i) (k0_chk233.dec i) (k0_off699 i) (fun _ => rfl) (fun _ _ => rfl) rfl) $$ [HS HC S8]
  · isplitl [HS]; · iexact HS
    isplitl [HC]; · iexact HC
    iexact S8
  iintro ⟨HS, HC⟩
  iapply (loadMask_wp c 𝒱₀ i 121 hl121 q wm rfl) $$ HM
  iintro HM %w234 %hw234
  rw [wp_pure]
  imodintro
  isplitr; · ipureintro; exact hw234
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 40 of the body: steps 234 to 239, and the load of the next step's mask word. -/
theorem part40_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 121 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 233 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part40 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 127 (by decide)⌝ ∗ ((c : Thread nD τ).loc main_call0_v12 ↦{q} ai) ∗ ((c : Thread nD τ).loc main_call0_v13 ↦{q} wm) ∗ cells c arg3 (Memref.whole main_v0_0) i ai wm hai x3 f 239 ∗ semPt c 15 (sem_inb 15 (by decide)) ∗ ∃ W', owes (c : Thread nD τ) 0 W')) := by
  rw [k0_part40_eq_skeleton]; unfold k0_part40_skel
  iintro ⟨HS, HM, HC, S9, S10, S11, S12, S13, S14, S15, HO⟩
  have hl121 : (121 : ℕ) < 256 := by decide
  have hl122 : (122 : ℕ) < 256 := by decide
  have hl123 : (123 : ℕ) < 256 := by decide
  have hl124 : (124 : ℕ) < 256 := by decide
  have hl125 : (125 : ℕ) < 256 := by decide
  have hl126 : (126 : ℕ) < 256 := by decide
  have hl127 : (127 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw234 : w = wordOf wm i 121 hl121 := hw
  have hp234 : stateAt 233 ⟨121, hl121⟩ = St.pending := show stateAt 233 ⟨121, (by decide : (121 : ℕ) < 256)⟩ = St.pending from by decide
  have hn234 : ∀ l : Fin 256, stateAt 234 l = Function.update (stateAt 233) ⟨121, hl121⟩ St.started l := show ∀ l : Fin 256, stateAt 234 l = Function.update (stateAt 233) ⟨121, (by decide : (121 : ℕ) < 256)⟩ St.started l from by decide
  iapply (start_fam c 𝒱₀ arg3 (Memref.whole main_v0_0) i q ai wm hai x3 f 233 121 9 hl121 hj9 rfl hp234 hn234 w hw234 k0_cond234 (fun _ => rfl) (k0_chk234 i) (k0_chk234.dec i) (k0_off702 i) (fun _ => rfl) (fun _ _ => rfl) rfl) $$ [HS HC S9]
  · isplitl [HS]; · iexact HS
    isplitl [HC]; · iexact HC
    iexact S9
  iintro ⟨HS, HC⟩
  iapply (loadMask_wp c 𝒱₀ i 122 hl122 q wm rfl) $$ HM
  iintro HM %w235 %hw235
  have hp235 : stateAt 234 ⟨122, hl122⟩ = St.pending := show stateAt 234 ⟨122, (by decide : (122 : ℕ) < 256)⟩ = St.pending from by decide
  have hn235 : ∀ l : Fin 256, stateAt 235 l = Function.update (stateAt 234) ⟨122, hl122⟩ St.started l := show ∀ l : Fin 256, stateAt 235 l = Function.update (stateAt 234) ⟨122, (by decide : (122 : ℕ) < 256)⟩ St.started l from by decide
  iapply (start_fam c 𝒱₀ arg3 (Memref.whole main_v0_0) i q ai wm hai x3 f 234 122 10 hl122 hj10 rfl hp235 hn235 w235 hw235 k0_cond235 (fun _ => rfl) (k0_chk235 i) (k0_chk235.dec i) (k0_off705 i) (fun _ => rfl) (fun _ _ => rfl) rfl) $$ [HS HC S10]
  · isplitl [HS]; · iexact HS
    isplitl [HC]; · iexact HC
    iexact S10
  iintro ⟨HS, HC⟩
  iapply (loadMask_wp c 𝒱₀ i 123 hl123 q wm rfl) $$ HM
  iintro HM %w236 %hw236
  have hp236 : stateAt 235 ⟨123, hl123⟩ = St.pending := show stateAt 235 ⟨123, (by decide : (123 : ℕ) < 256)⟩ = St.pending from by decide
  have hn236 : ∀ l : Fin 256, stateAt 236 l = Function.update (stateAt 235) ⟨123, hl123⟩ St.started l := show ∀ l : Fin 256, stateAt 236 l = Function.update (stateAt 235) ⟨123, (by decide : (123 : ℕ) < 256)⟩ St.started l from by decide
  iapply (start_fam c 𝒱₀ arg3 (Memref.whole main_v0_0) i q ai wm hai x3 f 235 123 11 hl123 hj11 rfl hp236 hn236 w236 hw236 k0_cond236 (fun _ => rfl) (k0_chk236 i) (k0_chk236.dec i) (k0_off708 i) (fun _ => rfl) (fun _ _ => rfl) rfl) $$ [HS HC S11]
  · isplitl [HS]; · iexact HS
    isplitl [HC]; · iexact HC
    iexact S11
  iintro ⟨HS, HC⟩
  iapply (loadMask_wp c 𝒱₀ i 124 hl124 q wm rfl) $$ HM
  iintro HM %w237 %hw237
  have hp237 : stateAt 236 ⟨124, hl124⟩ = St.pending := show stateAt 236 ⟨124, (by decide : (124 : ℕ) < 256)⟩ = St.pending from by decide
  have hn237 : ∀ l : Fin 256, stateAt 237 l = Function.update (stateAt 236) ⟨124, hl124⟩ St.started l := show ∀ l : Fin 256, stateAt 237 l = Function.update (stateAt 236) ⟨124, (by decide : (124 : ℕ) < 256)⟩ St.started l from by decide
  iapply (start_fam c 𝒱₀ arg3 (Memref.whole main_v0_0) i q ai wm hai x3 f 236 124 12 hl124 hj12 rfl hp237 hn237 w237 hw237 k0_cond237 (fun _ => rfl) (k0_chk237 i) (k0_chk237.dec i) (k0_off711 i) (fun _ => rfl) (fun _ _ => rfl) rfl) $$ [HS HC S12]
  · isplitl [HS]; · iexact HS
    isplitl [HC]; · iexact HC
    iexact S12
  iintro ⟨HS, HC⟩
  iapply (loadMask_wp c 𝒱₀ i 125 hl125 q wm rfl) $$ HM
  iintro HM %w238 %hw238
  have hp238 : stateAt 237 ⟨125, hl125⟩ = St.pending := show stateAt 237 ⟨125, (by decide : (125 : ℕ) < 256)⟩ = St.pending from by decide
  have hn238 : ∀ l : Fin 256, stateAt 238 l = Function.update (stateAt 237) ⟨125, hl125⟩ St.started l := show ∀ l : Fin 256, stateAt 238 l = Function.update (stateAt 237) ⟨125, (by decide : (125 : ℕ) < 256)⟩ St.started l from by decide
  iapply (start_fam c 𝒱₀ arg3 (Memref.whole main_v0_0) i q ai wm hai x3 f 237 125 13 hl125 hj13 rfl hp238 hn238 w238 hw238 k0_cond238 (fun _ => rfl) (k0_chk238 i) (k0_chk238.dec i) (k0_off714 i) (fun _ => rfl) (fun _ _ => rfl) rfl) $$ [HS HC S13]
  · isplitl [HS]; · iexact HS
    isplitl [HC]; · iexact HC
    iexact S13
  iintro ⟨HS, HC⟩
  iapply (loadMask_wp c 𝒱₀ i 126 hl126 q wm rfl) $$ HM
  iintro HM %w239 %hw239
  have hp239 : stateAt 238 ⟨126, hl126⟩ = St.pending := show stateAt 238 ⟨126, (by decide : (126 : ℕ) < 256)⟩ = St.pending from by decide
  have hn239 : ∀ l : Fin 256, stateAt 239 l = Function.update (stateAt 238) ⟨126, hl126⟩ St.started l := show ∀ l : Fin 256, stateAt 239 l = Function.update (stateAt 238) ⟨126, (by decide : (126 : ℕ) < 256)⟩ St.started l from by decide
  iapply (start_fam c 𝒱₀ arg3 (Memref.whole main_v0_0) i q ai wm hai x3 f 238 126 14 hl126 hj14 rfl hp239 hn239 w239 hw239 k0_cond239 (fun _ => rfl) (k0_chk239 i) (k0_chk239.dec i) (k0_off717 i) (fun _ => rfl) (fun _ _ => rfl) rfl) $$ [HS HC S14]
  · isplitl [HS]; · iexact HS
    isplitl [HC]; · iexact HC
    iexact S14
  iintro ⟨HS, HC⟩
  iapply (loadMask_wp c 𝒱₀ i 127 hl127 q wm rfl) $$ HM
  iintro HM %w240 %hw240
  rw [wp_pure]
  imodintro
  isplitr; · ipureintro; exact hw240
  isplitl [HS]; · iexact HS
  isplitl [HM]; · iexact HM
  isplitl [HC]; · iexact HC
  isplitl [S15]; · iexact S15
  iexists _; iexact HO

set_option maxHeartbeats 0 in
/-- Part 41 of the body: steps 240 to 245, and the load of the next step's mask word. -/
theorem part41_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 127 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 239 ∗ semPt c 15 (sem_inb 15 (by decide)) ∗ owes (c : Thread nD τ) 0 W)
      ⊢ wp frame (wpE (defs₀ (F := F)) 𝒱₀ (c : Thread nD τ) none) Set.univ (k0_part41 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 117 (by decide)⌝ ∗ ((c : Thread nD τ).loc main_call0_v12 ↦{q} ai) ∗ ((c : Thread nD τ).loc main_call0_v13 ↦{q} wm) ∗ cells c arg3 (Memref.whole main_v0_0) i ai wm hai x3 f 245 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part41_eq_skeleton]; unfold k0_part41_skel
  iintro ⟨HS, HM, HC, S15, HO⟩
  have hl112 : (112 : ℕ) < 256 := by decide
  have hl113 : (113 : ℕ) < 256 := by decide
  have hl114 : (114 : ℕ) < 256 := by decide
  have hl115 : (115 : ℕ) < 256 := by decide
  have hl116 : (116 : ℕ) < 256 := by decide
  have hl117 : (117 : ℕ) < 256 := by decide
  have hl127 : (127 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw240 : w = wordOf wm i 127 hl127 := hw
  have hp240 : stateAt 239 ⟨127, hl127⟩ = St.pending := show stateAt 239 ⟨127, (by decide : (127 : ℕ) < 256)⟩ = St.pending from by decide
  have hn240 : ∀ l : Fin 256, stateAt 240 l = Function.update (stateAt 239) ⟨127, hl127⟩ St.started l := show ∀ l : Fin 256, stateAt 240 l = Function.update (stateAt 239) ⟨127, (by decide : (127 : ℕ) < 256)⟩ St.started l from by decide
  iapply (start_fam c 𝒱₀ arg3 (Memref.whole main_v0_0) i q ai wm hai x3 f 239 127 15 hl127 hj15 rfl hp240 hn240 w hw240 k0_cond240 (fun _ => rfl) (k0_chk240 i) (k0_chk240.dec i) (k0_off720 i) (fun _ => rfl) (fun _ _ => rfl) rfl) $$ [HS HC S15]
  · isplitl [HS]; · iexact HS
    isplitl [HC]; · iexact HC
    iexact S15
  iintro ⟨HS, HC⟩
  iapply (loadMask_wp c 𝒱₀ i 112 hl112 q wm rfl) $$ HM
  iintro HM %w241 %hw241
  have hp241 : stateAt 240 ⟨112, hl112⟩ = St.started := show stateAt 240 ⟨112, (by decide : (112 : ℕ) < 256)⟩ = St.started from by decide
  have hn241 : ∀ l : Fin 256, stateAt 241 l = Function.update (stateAt 240) ⟨112, hl112⟩ St.done l := show ∀ l : Fin 256, stateAt 241 l = Function.update (stateAt 240) ⟨112, (by decide : (112 : ℕ) < 256)⟩ St.done l from by decide
  iapply (wait_fam c 𝒱₀ arg3 (Memref.whole main_v0_0) i q ai wm hai x3 f 240 112 0 hl112 hj0 rfl hp241 hn241 w241 hw241 (k0_off722 i) rfl (k0_off722_inb i) k0_cond241 (fun _ => rfl) (k0_chk241 i) (k0_chk241.dec i) (k0_off723 i) (fun _ => rfl) (fun _ _ h => h) (k0_off723_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W241, HO⟩
  iapply (loadMask_wp c 𝒱₀ i 113 hl113 q wm rfl) $$ HM
  iintro HM %w242 %hw242
  have hp242 : stateAt 241 ⟨113, hl113⟩ = St.started := show stateAt 241 ⟨113, (by decide : (113 : ℕ) < 256)⟩ = St.started from by decide
  have hn242 : ∀ l : Fin 256, stateAt 242 l = Function.update (stateAt 241) ⟨113, hl113⟩ St.done l := show ∀ l : Fin 256, stateAt 242 l = Function.update (stateAt 241) ⟨113, (by decide : (113 : ℕ) < 256)⟩ St.done l from by decide
  iapply (wait_fam c 𝒱₀ arg3 (Memref.whole main_v0_0) i q ai wm hai x3 f 241 113 1 hl113 hj1 rfl hp242 hn242 w242 hw242 (k0_off725 i) rfl (k0_off725_inb i) k0_cond242 (fun _ => rfl) (k0_chk242 i) (k0_chk242.dec i) (k0_off726 i) (fun _ => rfl) (fun _ _ h => h) (k0_off726_inb i) ((View.wordExact_bits rfl).reshape _ _) (fun _ _ => (View.wordExact_bits rfl).reshape _ _) _ _ W241) $$ [HS HM HC HO]
  · isplitl [HS]; · iexact HS
    isplitl [HM]; · iexact HM
    isplitl [HC]; · iexact HC
    iexact HO
  iintro ⟨HS, HM, HC, S1, %W242, HO⟩
  iapply (loadMask_wp c 𝒱₀ i 114 hl114 q wm rfl) $$ HM
  iintro HM %w243 %hw243
  have hp243 : stateAt 242 ⟨114, hl114⟩ = St.started := show stateAt 242 ⟨114, (by decide : (114 : ℕ) < 256)⟩ = St.started from by decide
  have hn243 : ∀ l : Fin 256, stateAt 243 l = Function.update (stateAt 242) ⟨114, hl114⟩ St.done l := show ∀ l : Fin 256, stateAt 243 l = Function.update (stateAt 242) ⟨114, (by decide : (114 : ℕ) < 256)⟩ St.done l from by decide
  iapply (wait_fam c 𝒱₀ arg3 (Memref.whole main_v0_0) i q ai wm hai x3 f 242 114 2 hl114 hj2 rfl hp243 hn243 w243 hw243 (k0_off728 i) rfl (k0_off728_inb i) k0_cond243 (fun _ => rfl) (k0_chk243 i) (k0_chk243.dec i) (k0_off729 i) (fun _ => rfl) (fun _ _ h => h) (k0_off729_inb i) ((View.wordExact_bits rfl).reshape _ _) (fun _ _ => (View.wordExact_bits rfl).reshape _ _) _ _ W242) $$ [HS HM HC HO]
  · isplitl [HS]; · iexact HS
    isplitl [HM]; · iexact HM
    isplitl [HC]; · iexact HC
    iexact HO
  iintro ⟨HS, HM, HC, S2, %W243, HO⟩
  iapply (loadMask_wp c 𝒱₀ i 115 hl115 q wm rfl) $$ HM
  iintro HM %w244 %hw244
  have hp244 : stateAt 243 ⟨115, hl115⟩ = St.started := show stateAt 243 ⟨115, (by decide : (115 : ℕ) < 256)⟩ = St.started from by decide
  have hn244 : ∀ l : Fin 256, stateAt 244 l = Function.update (stateAt 243) ⟨115, hl115⟩ St.done l := show ∀ l : Fin 256, stateAt 244 l = Function.update (stateAt 243) ⟨115, (by decide : (115 : ℕ) < 256)⟩ St.done l from by decide
  iapply (wait_fam c 𝒱₀ arg3 (Memref.whole main_v0_0) i q ai wm hai x3 f 243 115 3 hl115 hj3 rfl hp244 hn244 w244 hw244 (k0_off731 i) rfl (k0_off731_inb i) k0_cond244 (fun _ => rfl) (k0_chk244 i) (k0_chk244.dec i) (k0_off732 i) (fun _ => rfl) (fun _ _ h => h) (k0_off732_inb i) ((View.wordExact_bits rfl).reshape _ _) (fun _ _ => (View.wordExact_bits rfl).reshape _ _) _ _ W243) $$ [HS HM HC HO]
  · isplitl [HS]; · iexact HS
    isplitl [HM]; · iexact HM
    isplitl [HC]; · iexact HC
    iexact HO
  iintro ⟨HS, HM, HC, S3, %W244, HO⟩
  iapply (loadMask_wp c 𝒱₀ i 116 hl116 q wm rfl) $$ HM
  iintro HM %w245 %hw245
  have hp245 : stateAt 244 ⟨116, hl116⟩ = St.started := show stateAt 244 ⟨116, (by decide : (116 : ℕ) < 256)⟩ = St.started from by decide
  have hn245 : ∀ l : Fin 256, stateAt 245 l = Function.update (stateAt 244) ⟨116, hl116⟩ St.done l := show ∀ l : Fin 256, stateAt 245 l = Function.update (stateAt 244) ⟨116, (by decide : (116 : ℕ) < 256)⟩ St.done l from by decide
  iapply (wait_fam c 𝒱₀ arg3 (Memref.whole main_v0_0) i q ai wm hai x3 f 244 116 4 hl116 hj4 rfl hp245 hn245 w245 hw245 (k0_off734 i) rfl (k0_off734_inb i) k0_cond245 (fun _ => rfl) (k0_chk245 i) (k0_chk245.dec i) (k0_off735 i) (fun _ => rfl) (fun _ _ h => h) (k0_off735_inb i) ((View.wordExact_bits rfl).reshape _ _) (fun _ _ => (View.wordExact_bits rfl).reshape _ _) _ _ W244) $$ [HS HM HC HO]
  · isplitl [HS]; · iexact HS
    isplitl [HM]; · iexact HM
    isplitl [HC]; · iexact HC
    iexact HO
  iintro ⟨HS, HM, HC, S4, %W245, HO⟩
  iapply (loadMask_wp c 𝒱₀ i 117 hl117 q wm rfl) $$ HM
  iintro HM %w246 %hw246
  rw [wp_pure]
  imodintro
  isplitr; · ipureintro; exact hw246
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 42 of the body: steps 246 to 251, and the load of the next step's mask word. -/
theorem part42_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 117 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 245 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part42 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 123 (by decide)⌝ ∗ ((c : Thread nD τ).loc main_call0_v12 ↦{q} ai) ∗ ((c : Thread nD τ).loc main_call0_v13 ↦{q} wm) ∗ cells c arg3 (Memref.whole main_v0_0) i ai wm hai x3 f 251 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part42_eq_skeleton]; unfold k0_part42_skel
  iintro ⟨HS, HM, HC, S0, S1, S2, S3, S4, HO⟩
  have hl117 : (117 : ℕ) < 256 := by decide
  have hl118 : (118 : ℕ) < 256 := by decide
  have hl119 : (119 : ℕ) < 256 := by decide
  have hl120 : (120 : ℕ) < 256 := by decide
  have hl121 : (121 : ℕ) < 256 := by decide
  have hl122 : (122 : ℕ) < 256 := by decide
  have hl123 : (123 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw246 : w = wordOf wm i 117 hl117 := hw
  have hp246 : stateAt 245 ⟨117, hl117⟩ = St.started := show stateAt 245 ⟨117, (by decide : (117 : ℕ) < 256)⟩ = St.started from by decide
  have hn246 : ∀ l : Fin 256, stateAt 246 l = Function.update (stateAt 245) ⟨117, hl117⟩ St.done l := show ∀ l : Fin 256, stateAt 246 l = Function.update (stateAt 245) ⟨117, (by decide : (117 : ℕ) < 256)⟩ St.done l from by decide
  iapply (wait_fam c 𝒱₀ arg3 (Memref.whole main_v0_0) i q ai wm hai x3 f 245 117 5 hl117 hj5 rfl hp246 hn246 w hw246 (k0_off737 i) rfl (k0_off737_inb i) k0_cond246 (fun _ => rfl) (k0_chk246 i) (k0_chk246.dec i) (k0_off738 i) (fun _ => rfl) (fun _ _ h => h) (k0_off738_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W246, HO⟩
  iapply (loadMask_wp c 𝒱₀ i 118 hl118 q wm rfl) $$ HM
  iintro HM %w247 %hw247
  have hp247 : stateAt 246 ⟨118, hl118⟩ = St.started := show stateAt 246 ⟨118, (by decide : (118 : ℕ) < 256)⟩ = St.started from by decide
  have hn247 : ∀ l : Fin 256, stateAt 247 l = Function.update (stateAt 246) ⟨118, hl118⟩ St.done l := show ∀ l : Fin 256, stateAt 247 l = Function.update (stateAt 246) ⟨118, (by decide : (118 : ℕ) < 256)⟩ St.done l from by decide
  iapply (wait_fam c 𝒱₀ arg3 (Memref.whole main_v0_0) i q ai wm hai x3 f 246 118 6 hl118 hj6 rfl hp247 hn247 w247 hw247 (k0_off740 i) rfl (k0_off740_inb i) k0_cond247 (fun _ => rfl) (k0_chk247 i) (k0_chk247.dec i) (k0_off741 i) (fun _ => rfl) (fun _ _ h => h) (k0_off741_inb i) ((View.wordExact_bits rfl).reshape _ _) (fun _ _ => (View.wordExact_bits rfl).reshape _ _) _ _ W246) $$ [HS HM HC HO]
  · isplitl [HS]; · iexact HS
    isplitl [HM]; · iexact HM
    isplitl [HC]; · iexact HC
    iexact HO
  iintro ⟨HS, HM, HC, S6, %W247, HO⟩
  iapply (loadMask_wp c 𝒱₀ i 119 hl119 q wm rfl) $$ HM
  iintro HM %w248 %hw248
  have hp248 : stateAt 247 ⟨119, hl119⟩ = St.started := show stateAt 247 ⟨119, (by decide : (119 : ℕ) < 256)⟩ = St.started from by decide
  have hn248 : ∀ l : Fin 256, stateAt 248 l = Function.update (stateAt 247) ⟨119, hl119⟩ St.done l := show ∀ l : Fin 256, stateAt 248 l = Function.update (stateAt 247) ⟨119, (by decide : (119 : ℕ) < 256)⟩ St.done l from by decide
  iapply (wait_fam c 𝒱₀ arg3 (Memref.whole main_v0_0) i q ai wm hai x3 f 247 119 7 hl119 hj7 rfl hp248 hn248 w248 hw248 (k0_off743 i) rfl (k0_off743_inb i) k0_cond248 (fun _ => rfl) (k0_chk248 i) (k0_chk248.dec i) (k0_off744 i) (fun _ => rfl) (fun _ _ h => h) (k0_off744_inb i) ((View.wordExact_bits rfl).reshape _ _) (fun _ _ => (View.wordExact_bits rfl).reshape _ _) _ _ W247) $$ [HS HM HC HO]
  · isplitl [HS]; · iexact HS
    isplitl [HM]; · iexact HM
    isplitl [HC]; · iexact HC
    iexact HO
  iintro ⟨HS, HM, HC, S7, %W248, HO⟩
  iapply (loadMask_wp c 𝒱₀ i 120 hl120 q wm rfl) $$ HM
  iintro HM %w249 %hw249
  have hp249 : stateAt 248 ⟨120, hl120⟩ = St.started := show stateAt 248 ⟨120, (by decide : (120 : ℕ) < 256)⟩ = St.started from by decide
  have hn249 : ∀ l : Fin 256, stateAt 249 l = Function.update (stateAt 248) ⟨120, hl120⟩ St.done l := show ∀ l : Fin 256, stateAt 249 l = Function.update (stateAt 248) ⟨120, (by decide : (120 : ℕ) < 256)⟩ St.done l from by decide
  iapply (wait_fam c 𝒱₀ arg3 (Memref.whole main_v0_0) i q ai wm hai x3 f 248 120 8 hl120 hj8 rfl hp249 hn249 w249 hw249 (k0_off746 i) rfl (k0_off746_inb i) k0_cond249 (fun _ => rfl) (k0_chk249 i) (k0_chk249.dec i) (k0_off747 i) (fun _ => rfl) (fun _ _ h => h) (k0_off747_inb i) ((View.wordExact_bits rfl).reshape _ _) (fun _ _ => (View.wordExact_bits rfl).reshape _ _) _ _ W248) $$ [HS HM HC HO]
  · isplitl [HS]; · iexact HS
    isplitl [HM]; · iexact HM
    isplitl [HC]; · iexact HC
    iexact HO
  iintro ⟨HS, HM, HC, S8, %W249, HO⟩
  iapply (loadMask_wp c 𝒱₀ i 121 hl121 q wm rfl) $$ HM
  iintro HM %w250 %hw250
  have hp250 : stateAt 249 ⟨121, hl121⟩ = St.started := show stateAt 249 ⟨121, (by decide : (121 : ℕ) < 256)⟩ = St.started from by decide
  have hn250 : ∀ l : Fin 256, stateAt 250 l = Function.update (stateAt 249) ⟨121, hl121⟩ St.done l := show ∀ l : Fin 256, stateAt 250 l = Function.update (stateAt 249) ⟨121, (by decide : (121 : ℕ) < 256)⟩ St.done l from by decide
  iapply (wait_fam c 𝒱₀ arg3 (Memref.whole main_v0_0) i q ai wm hai x3 f 249 121 9 hl121 hj9 rfl hp250 hn250 w250 hw250 (k0_off749 i) rfl (k0_off749_inb i) k0_cond250 (fun _ => rfl) (k0_chk250 i) (k0_chk250.dec i) (k0_off750 i) (fun _ => rfl) (fun _ _ h => h) (k0_off750_inb i) ((View.wordExact_bits rfl).reshape _ _) (fun _ _ => (View.wordExact_bits rfl).reshape _ _) _ _ W249) $$ [HS HM HC HO]
  · isplitl [HS]; · iexact HS
    isplitl [HM]; · iexact HM
    isplitl [HC]; · iexact HC
    iexact HO
  iintro ⟨HS, HM, HC, S9, %W250, HO⟩
  iapply (loadMask_wp c 𝒱₀ i 122 hl122 q wm rfl) $$ HM
  iintro HM %w251 %hw251
  have hp251 : stateAt 250 ⟨122, hl122⟩ = St.started := show stateAt 250 ⟨122, (by decide : (122 : ℕ) < 256)⟩ = St.started from by decide
  have hn251 : ∀ l : Fin 256, stateAt 251 l = Function.update (stateAt 250) ⟨122, hl122⟩ St.done l := show ∀ l : Fin 256, stateAt 251 l = Function.update (stateAt 250) ⟨122, (by decide : (122 : ℕ) < 256)⟩ St.done l from by decide
  iapply (wait_fam c 𝒱₀ arg3 (Memref.whole main_v0_0) i q ai wm hai x3 f 250 122 10 hl122 hj10 rfl hp251 hn251 w251 hw251 (k0_off752 i) rfl (k0_off752_inb i) k0_cond251 (fun _ => rfl) (k0_chk251 i) (k0_chk251.dec i) (k0_off753 i) (fun _ => rfl) (fun _ _ h => h) (k0_off753_inb i) ((View.wordExact_bits rfl).reshape _ _) (fun _ _ => (View.wordExact_bits rfl).reshape _ _) _ _ W250) $$ [HS HM HC HO]
  · isplitl [HS]; · iexact HS
    isplitl [HM]; · iexact HM
    isplitl [HC]; · iexact HC
    iexact HO
  iintro ⟨HS, HM, HC, S10, %W251, HO⟩
  iapply (loadMask_wp c 𝒱₀ i 123 hl123 q wm rfl) $$ HM
  iintro HM %w252 %hw252
  rw [wp_pure]
  imodintro
  isplitr; · ipureintro; exact hw252
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 43 of the body: steps 252 to 257, and the load of the next step's mask word. -/
theorem part43_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 123 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 251 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part43 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 129 (by decide)⌝ ∗ ((c : Thread nD τ).loc main_call0_v12 ↦{q} ai) ∗ ((c : Thread nD τ).loc main_call0_v13 ↦{q} wm) ∗ cells c arg3 (Memref.whole main_v0_0) i ai wm hai x3 f 257 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part43_eq_skeleton]; unfold k0_part43_skel
  iintro ⟨HS, HM, HC, S0, S1, S2, S3, S4, S5, S6, S7, S8, S9, S10, HO⟩
  have hl123 : (123 : ℕ) < 256 := by decide
  have hl124 : (124 : ℕ) < 256 := by decide
  have hl125 : (125 : ℕ) < 256 := by decide
  have hl126 : (126 : ℕ) < 256 := by decide
  have hl127 : (127 : ℕ) < 256 := by decide
  have hl128 : (128 : ℕ) < 256 := by decide
  have hl129 : (129 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw252 : w = wordOf wm i 123 hl123 := hw
  have hp252 : stateAt 251 ⟨123, hl123⟩ = St.started := show stateAt 251 ⟨123, (by decide : (123 : ℕ) < 256)⟩ = St.started from by decide
  have hn252 : ∀ l : Fin 256, stateAt 252 l = Function.update (stateAt 251) ⟨123, hl123⟩ St.done l := show ∀ l : Fin 256, stateAt 252 l = Function.update (stateAt 251) ⟨123, (by decide : (123 : ℕ) < 256)⟩ St.done l from by decide
  iapply (wait_fam c 𝒱₀ arg3 (Memref.whole main_v0_0) i q ai wm hai x3 f 251 123 11 hl123 hj11 rfl hp252 hn252 w hw252 (k0_off755 i) rfl (k0_off755_inb i) k0_cond252 (fun _ => rfl) (k0_chk252 i) (k0_chk252.dec i) (k0_off756 i) (fun _ => rfl) (fun _ _ h => h) (k0_off756_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W252, HO⟩
  iapply (loadMask_wp c 𝒱₀ i 124 hl124 q wm rfl) $$ HM
  iintro HM %w253 %hw253
  have hp253 : stateAt 252 ⟨124, hl124⟩ = St.started := show stateAt 252 ⟨124, (by decide : (124 : ℕ) < 256)⟩ = St.started from by decide
  have hn253 : ∀ l : Fin 256, stateAt 253 l = Function.update (stateAt 252) ⟨124, hl124⟩ St.done l := show ∀ l : Fin 256, stateAt 253 l = Function.update (stateAt 252) ⟨124, (by decide : (124 : ℕ) < 256)⟩ St.done l from by decide
  iapply (wait_fam c 𝒱₀ arg3 (Memref.whole main_v0_0) i q ai wm hai x3 f 252 124 12 hl124 hj12 rfl hp253 hn253 w253 hw253 (k0_off758 i) rfl (k0_off758_inb i) k0_cond253 (fun _ => rfl) (k0_chk253 i) (k0_chk253.dec i) (k0_off759 i) (fun _ => rfl) (fun _ _ h => h) (k0_off759_inb i) ((View.wordExact_bits rfl).reshape _ _) (fun _ _ => (View.wordExact_bits rfl).reshape _ _) _ _ W252) $$ [HS HM HC HO]
  · isplitl [HS]; · iexact HS
    isplitl [HM]; · iexact HM
    isplitl [HC]; · iexact HC
    iexact HO
  iintro ⟨HS, HM, HC, S12, %W253, HO⟩
  iapply (loadMask_wp c 𝒱₀ i 125 hl125 q wm rfl) $$ HM
  iintro HM %w254 %hw254
  have hp254 : stateAt 253 ⟨125, hl125⟩ = St.started := show stateAt 253 ⟨125, (by decide : (125 : ℕ) < 256)⟩ = St.started from by decide
  have hn254 : ∀ l : Fin 256, stateAt 254 l = Function.update (stateAt 253) ⟨125, hl125⟩ St.done l := show ∀ l : Fin 256, stateAt 254 l = Function.update (stateAt 253) ⟨125, (by decide : (125 : ℕ) < 256)⟩ St.done l from by decide
  iapply (wait_fam c 𝒱₀ arg3 (Memref.whole main_v0_0) i q ai wm hai x3 f 253 125 13 hl125 hj13 rfl hp254 hn254 w254 hw254 (k0_off761 i) rfl (k0_off761_inb i) k0_cond254 (fun _ => rfl) (k0_chk254 i) (k0_chk254.dec i) (k0_off762 i) (fun _ => rfl) (fun _ _ h => h) (k0_off762_inb i) ((View.wordExact_bits rfl).reshape _ _) (fun _ _ => (View.wordExact_bits rfl).reshape _ _) _ _ W253) $$ [HS HM HC HO]
  · isplitl [HS]; · iexact HS
    isplitl [HM]; · iexact HM
    isplitl [HC]; · iexact HC
    iexact HO
  iintro ⟨HS, HM, HC, S13, %W254, HO⟩
  iapply (loadMask_wp c 𝒱₀ i 126 hl126 q wm rfl) $$ HM
  iintro HM %w255 %hw255
  have hp255 : stateAt 254 ⟨126, hl126⟩ = St.started := show stateAt 254 ⟨126, (by decide : (126 : ℕ) < 256)⟩ = St.started from by decide
  have hn255 : ∀ l : Fin 256, stateAt 255 l = Function.update (stateAt 254) ⟨126, hl126⟩ St.done l := show ∀ l : Fin 256, stateAt 255 l = Function.update (stateAt 254) ⟨126, (by decide : (126 : ℕ) < 256)⟩ St.done l from by decide
  iapply (wait_fam c 𝒱₀ arg3 (Memref.whole main_v0_0) i q ai wm hai x3 f 254 126 14 hl126 hj14 rfl hp255 hn255 w255 hw255 (k0_off764 i) rfl (k0_off764_inb i) k0_cond255 (fun _ => rfl) (k0_chk255 i) (k0_chk255.dec i) (k0_off765 i) (fun _ => rfl) (fun _ _ h => h) (k0_off765_inb i) ((View.wordExact_bits rfl).reshape _ _) (fun _ _ => (View.wordExact_bits rfl).reshape _ _) _ _ W254) $$ [HS HM HC HO]
  · isplitl [HS]; · iexact HS
    isplitl [HM]; · iexact HM
    isplitl [HC]; · iexact HC
    iexact HO
  iintro ⟨HS, HM, HC, S14, %W255, HO⟩
  iapply (loadMask_wp c 𝒱₀ i 127 hl127 q wm rfl) $$ HM
  iintro HM %w256 %hw256
  have hp256 : stateAt 255 ⟨127, hl127⟩ = St.started := show stateAt 255 ⟨127, (by decide : (127 : ℕ) < 256)⟩ = St.started from by decide
  have hn256 : ∀ l : Fin 256, stateAt 256 l = Function.update (stateAt 255) ⟨127, hl127⟩ St.done l := show ∀ l : Fin 256, stateAt 256 l = Function.update (stateAt 255) ⟨127, (by decide : (127 : ℕ) < 256)⟩ St.done l from by decide
  iapply (wait_fam c 𝒱₀ arg3 (Memref.whole main_v0_0) i q ai wm hai x3 f 255 127 15 hl127 hj15 rfl hp256 hn256 w256 hw256 (k0_off767 i) rfl (k0_off767_inb i) k0_cond256 (fun _ => rfl) (k0_chk256 i) (k0_chk256.dec i) (k0_off768 i) (fun _ => rfl) (fun _ _ h => h) (k0_off768_inb i) ((View.wordExact_bits rfl).reshape _ _) (fun _ _ => (View.wordExact_bits rfl).reshape _ _) _ _ W255) $$ [HS HM HC HO]
  · isplitl [HS]; · iexact HS
    isplitl [HM]; · iexact HM
    isplitl [HC]; · iexact HC
    iexact HO
  iintro ⟨HS, HM, HC, S15, %W256, HO⟩
  iapply (loadMask_wp c 𝒱₀ i 128 hl128 q wm rfl) $$ HM
  iintro HM %w257 %hw257
  have hp257 : stateAt 256 ⟨128, hl128⟩ = St.pending := show stateAt 256 ⟨128, (by decide : (128 : ℕ) < 256)⟩ = St.pending from by decide
  have hn257 : ∀ l : Fin 256, stateAt 257 l = Function.update (stateAt 256) ⟨128, hl128⟩ St.started l := show ∀ l : Fin 256, stateAt 257 l = Function.update (stateAt 256) ⟨128, (by decide : (128 : ℕ) < 256)⟩ St.started l from by decide
  iapply (start_fam c 𝒱₀ arg3 (Memref.whole main_v0_0) i q ai wm hai x3 f 256 128 0 hl128 hj0 rfl hp257 hn257 w257 hw257 k0_cond257 (fun _ => rfl) (k0_chk257 i) (k0_chk257.dec i) (k0_off771 i) (fun _ => rfl) (fun _ _ => rfl) rfl) $$ [HS HC S0]
  · isplitl [HS]; · iexact HS
    isplitl [HC]; · iexact HC
    iexact S0
  iintro ⟨HS, HC⟩
  iapply (loadMask_wp c 𝒱₀ i 129 hl129 q wm rfl) $$ HM
  iintro HM %w258 %hw258
  rw [wp_pure]
  imodintro
  isplitr; · ipureintro; exact hw258
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 44 of the body: steps 258 to 263, and the load of the next step's mask word. -/
theorem part44_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 129 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 257 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part44 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 135 (by decide)⌝ ∗ ((c : Thread nD τ).loc main_call0_v12 ↦{q} ai) ∗ ((c : Thread nD τ).loc main_call0_v13 ↦{q} wm) ∗ cells c arg3 (Memref.whole main_v0_0) i ai wm hai x3 f 263 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part44_eq_skeleton]; unfold k0_part44_skel
  iintro ⟨HS, HM, HC, S1, S2, S3, S4, S5, S6, S7, S8, S9, S10, S11, S12, S13, S14, S15, HO⟩
  have hl129 : (129 : ℕ) < 256 := by decide
  have hl130 : (130 : ℕ) < 256 := by decide
  have hl131 : (131 : ℕ) < 256 := by decide
  have hl132 : (132 : ℕ) < 256 := by decide
  have hl133 : (133 : ℕ) < 256 := by decide
  have hl134 : (134 : ℕ) < 256 := by decide
  have hl135 : (135 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw258 : w = wordOf wm i 129 hl129 := hw
  have hp258 : stateAt 257 ⟨129, hl129⟩ = St.pending := show stateAt 257 ⟨129, (by decide : (129 : ℕ) < 256)⟩ = St.pending from by decide
  have hn258 : ∀ l : Fin 256, stateAt 258 l = Function.update (stateAt 257) ⟨129, hl129⟩ St.started l := show ∀ l : Fin 256, stateAt 258 l = Function.update (stateAt 257) ⟨129, (by decide : (129 : ℕ) < 256)⟩ St.started l from by decide
  iapply (start_fam c 𝒱₀ arg3 (Memref.whole main_v0_0) i q ai wm hai x3 f 257 129 1 hl129 hj1 rfl hp258 hn258 w hw258 k0_cond258 (fun _ => rfl) (k0_chk258 i) (k0_chk258.dec i) (k0_off774 i) (fun _ => rfl) (fun _ _ => rfl) rfl) $$ [HS HC S1]
  · isplitl [HS]; · iexact HS
    isplitl [HC]; · iexact HC
    iexact S1
  iintro ⟨HS, HC⟩
  iapply (loadMask_wp c 𝒱₀ i 130 hl130 q wm rfl) $$ HM
  iintro HM %w259 %hw259
  have hp259 : stateAt 258 ⟨130, hl130⟩ = St.pending := show stateAt 258 ⟨130, (by decide : (130 : ℕ) < 256)⟩ = St.pending from by decide
  have hn259 : ∀ l : Fin 256, stateAt 259 l = Function.update (stateAt 258) ⟨130, hl130⟩ St.started l := show ∀ l : Fin 256, stateAt 259 l = Function.update (stateAt 258) ⟨130, (by decide : (130 : ℕ) < 256)⟩ St.started l from by decide
  iapply (start_fam c 𝒱₀ arg3 (Memref.whole main_v0_0) i q ai wm hai x3 f 258 130 2 hl130 hj2 rfl hp259 hn259 w259 hw259 k0_cond259 (fun _ => rfl) (k0_chk259 i) (k0_chk259.dec i) (k0_off777 i) (fun _ => rfl) (fun _ _ => rfl) rfl) $$ [HS HC S2]
  · isplitl [HS]; · iexact HS
    isplitl [HC]; · iexact HC
    iexact S2
  iintro ⟨HS, HC⟩
  iapply (loadMask_wp c 𝒱₀ i 131 hl131 q wm rfl) $$ HM
  iintro HM %w260 %hw260
  have hp260 : stateAt 259 ⟨131, hl131⟩ = St.pending := show stateAt 259 ⟨131, (by decide : (131 : ℕ) < 256)⟩ = St.pending from by decide
  have hn260 : ∀ l : Fin 256, stateAt 260 l = Function.update (stateAt 259) ⟨131, hl131⟩ St.started l := show ∀ l : Fin 256, stateAt 260 l = Function.update (stateAt 259) ⟨131, (by decide : (131 : ℕ) < 256)⟩ St.started l from by decide
  iapply (start_fam c 𝒱₀ arg3 (Memref.whole main_v0_0) i q ai wm hai x3 f 259 131 3 hl131 hj3 rfl hp260 hn260 w260 hw260 k0_cond260 (fun _ => rfl) (k0_chk260 i) (k0_chk260.dec i) (k0_off780 i) (fun _ => rfl) (fun _ _ => rfl) rfl) $$ [HS HC S3]
  · isplitl [HS]; · iexact HS
    isplitl [HC]; · iexact HC
    iexact S3
  iintro ⟨HS, HC⟩
  iapply (loadMask_wp c 𝒱₀ i 132 hl132 q wm rfl) $$ HM
  iintro HM %w261 %hw261
  have hp261 : stateAt 260 ⟨132, hl132⟩ = St.pending := show stateAt 260 ⟨132, (by decide : (132 : ℕ) < 256)⟩ = St.pending from by decide
  have hn261 : ∀ l : Fin 256, stateAt 261 l = Function.update (stateAt 260) ⟨132, hl132⟩ St.started l := show ∀ l : Fin 256, stateAt 261 l = Function.update (stateAt 260) ⟨132, (by decide : (132 : ℕ) < 256)⟩ St.started l from by decide
  iapply (start_fam c 𝒱₀ arg3 (Memref.whole main_v0_0) i q ai wm hai x3 f 260 132 4 hl132 hj4 rfl hp261 hn261 w261 hw261 k0_cond261 (fun _ => rfl) (k0_chk261 i) (k0_chk261.dec i) (k0_off783 i) (fun _ => rfl) (fun _ _ => rfl) rfl) $$ [HS HC S4]
  · isplitl [HS]; · iexact HS
    isplitl [HC]; · iexact HC
    iexact S4
  iintro ⟨HS, HC⟩
  iapply (loadMask_wp c 𝒱₀ i 133 hl133 q wm rfl) $$ HM
  iintro HM %w262 %hw262
  have hp262 : stateAt 261 ⟨133, hl133⟩ = St.pending := show stateAt 261 ⟨133, (by decide : (133 : ℕ) < 256)⟩ = St.pending from by decide
  have hn262 : ∀ l : Fin 256, stateAt 262 l = Function.update (stateAt 261) ⟨133, hl133⟩ St.started l := show ∀ l : Fin 256, stateAt 262 l = Function.update (stateAt 261) ⟨133, (by decide : (133 : ℕ) < 256)⟩ St.started l from by decide
  iapply (start_fam c 𝒱₀ arg3 (Memref.whole main_v0_0) i q ai wm hai x3 f 261 133 5 hl133 hj5 rfl hp262 hn262 w262 hw262 k0_cond262 (fun _ => rfl) (k0_chk262 i) (k0_chk262.dec i) (k0_off786 i) (fun _ => rfl) (fun _ _ => rfl) rfl) $$ [HS HC S5]
  · isplitl [HS]; · iexact HS
    isplitl [HC]; · iexact HC
    iexact S5
  iintro ⟨HS, HC⟩
  iapply (loadMask_wp c 𝒱₀ i 134 hl134 q wm rfl) $$ HM
  iintro HM %w263 %hw263
  have hp263 : stateAt 262 ⟨134, hl134⟩ = St.pending := show stateAt 262 ⟨134, (by decide : (134 : ℕ) < 256)⟩ = St.pending from by decide
  have hn263 : ∀ l : Fin 256, stateAt 263 l = Function.update (stateAt 262) ⟨134, hl134⟩ St.started l := show ∀ l : Fin 256, stateAt 263 l = Function.update (stateAt 262) ⟨134, (by decide : (134 : ℕ) < 256)⟩ St.started l from by decide
  iapply (start_fam c 𝒱₀ arg3 (Memref.whole main_v0_0) i q ai wm hai x3 f 262 134 6 hl134 hj6 rfl hp263 hn263 w263 hw263 k0_cond263 (fun _ => rfl) (k0_chk263 i) (k0_chk263.dec i) (k0_off789 i) (fun _ => rfl) (fun _ _ => rfl) rfl) $$ [HS HC S6]
  · isplitl [HS]; · iexact HS
    isplitl [HC]; · iexact HC
    iexact S6
  iintro ⟨HS, HC⟩
  iapply (loadMask_wp c 𝒱₀ i 135 hl135 q wm rfl) $$ HM
  iintro HM %w264 %hw264
  rw [wp_pure]
  imodintro
  isplitr; · ipureintro; exact hw264
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.Kernel.Cells

end
-- ==== Proof.Parts5Bits.lean ====
/-
  Parts 45 to 55 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyBits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 45 of the body: steps 264 to 269, and the load of the next step's mask word. -/
theorem part45_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 135 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 263 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part45 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 141 (by decide)⌝ ∗ ((c : Thread nD τ).loc main_call0_v12 ↦{q} ai) ∗ ((c : Thread nD τ).loc main_call0_v13 ↦{q} wm) ∗ cells c arg3 (Memref.whole main_v0_0) i ai wm hai x3 f 269 ∗ semPt c 13 (sem_inb 13 (by decide)) ∗ semPt c 14 (sem_inb 14 (by decide)) ∗ semPt c 15 (sem_inb 15 (by decide)) ∗ ∃ W', owes (c : Thread nD τ) 0 W')) := by
  rw [k0_part45_eq_skeleton]; unfold k0_part45_skel
  iintro ⟨HS, HM, HC, S7, S8, S9, S10, S11, S12, S13, S14, S15, HO⟩
  have hl135 : (135 : ℕ) < 256 := by decide
  have hl136 : (136 : ℕ) < 256 := by decide
  have hl137 : (137 : ℕ) < 256 := by decide
  have hl138 : (138 : ℕ) < 256 := by decide
  have hl139 : (139 : ℕ) < 256 := by decide
  have hl140 : (140 : ℕ) < 256 := by decide
  have hl141 : (141 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw264 : w = wordOf wm i 135 hl135 := hw
  have hp264 : stateAt 263 ⟨135, hl135⟩ = St.pending := show stateAt 263 ⟨135, (by decide : (135 : ℕ) < 256)⟩ = St.pending from by decide
  have hn264 : ∀ l : Fin 256, stateAt 264 l = Function.update (stateAt 263) ⟨135, hl135⟩ St.started l := show ∀ l : Fin 256, stateAt 264 l = Function.update (stateAt 263) ⟨135, (by decide : (135 : ℕ) < 256)⟩ St.started l from by decide
  iapply (start_fam c 𝒱₀ arg3 (Memref.whole main_v0_0) i q ai wm hai x3 f 263 135 7 hl135 hj7 rfl hp264 hn264 w hw264 k0_cond264 (fun _ => rfl) (k0_chk264 i) (k0_chk264.dec i) (k0_off792 i) (fun _ => rfl) (fun _ _ => rfl) rfl) $$ [HS HC S7]
  · isplitl [HS]; · iexact HS
    isplitl [HC]; · iexact HC
    iexact S7
  iintro ⟨HS, HC⟩
  iapply (loadMask_wp c 𝒱₀ i 136 hl136 q wm rfl) $$ HM
  iintro HM %w265 %hw265
  have hp265 : stateAt 264 ⟨136, hl136⟩ = St.pending := show stateAt 264 ⟨136, (by decide : (136 : ℕ) < 256)⟩ = St.pending from by decide
  have hn265 : ∀ l : Fin 256, stateAt 265 l = Function.update (stateAt 264) ⟨136, hl136⟩ St.started l := show ∀ l : Fin 256, stateAt 265 l = Function.update (stateAt 264) ⟨136, (by decide : (136 : ℕ) < 256)⟩ St.started l from by decide
  iapply (start_fam c 𝒱₀ arg3 (Memref.whole main_v0_0) i q ai wm hai x3 f 264 136 8 hl136 hj8 rfl hp265 hn265 w265 hw265 k0_cond265 (fun _ => rfl) (k0_chk265 i) (k0_chk265.dec i) (k0_off795 i) (fun _ => rfl) (fun _ _ => rfl) rfl) $$ [HS HC S8]
  · isplitl [HS]; · iexact HS
    isplitl [HC]; · iexact HC
    iexact S8
  iintro ⟨HS, HC⟩
  iapply (loadMask_wp c 𝒱₀ i 137 hl137 q wm rfl) $$ HM
  iintro HM %w266 %hw266
  have hp266 : stateAt 265 ⟨137, hl137⟩ = St.pending := show stateAt 265 ⟨137, (by decide : (137 : ℕ) < 256)⟩ = St.pending from by decide
  have hn266 : ∀ l : Fin 256, stateAt 266 l = Function.update (stateAt 265) ⟨137, hl137⟩ St.started l := show ∀ l : Fin 256, stateAt 266 l = Function.update (stateAt 265) ⟨137, (by decide : (137 : ℕ) < 256)⟩ St.started l from by decide
  iapply (start_fam c 𝒱₀ arg3 (Memref.whole main_v0_0) i q ai wm hai x3 f 265 137 9 hl137 hj9 rfl hp266 hn266 w266 hw266 k0_cond266 (fun _ => rfl) (k0_chk266 i) (k0_chk266.dec i) (k0_off798 i) (fun _ => rfl) (fun _ _ => rfl) rfl) $$ [HS HC S9]
  · isplitl [HS]; · iexact HS
    isplitl [HC]; · iexact HC
    iexact S9
  iintro ⟨HS, HC⟩
  iapply (loadMask_wp c 𝒱₀ i 138 hl138 q wm rfl) $$ HM
  iintro HM %w267 %hw267
  have hp267 : stateAt 266 ⟨138, hl138⟩ = St.pending := show stateAt 266 ⟨138, (by decide : (138 : ℕ) < 256)⟩ = St.pending from by decide
  have hn267 : ∀ l : Fin 256, stateAt 267 l = Function.update (stateAt 266) ⟨138, hl138⟩ St.started l := show ∀ l : Fin 256, stateAt 267 l = Function.update (stateAt 266) ⟨138, (by decide : (138 : ℕ) < 256)⟩ St.started l from by decide
  iapply (start_fam c 𝒱₀ arg3 (Memref.whole main_v0_0) i q ai wm hai x3 f 266 138 10 hl138 hj10 rfl hp267 hn267 w267 hw267 k0_cond267 (fun _ => rfl) (k0_chk267 i) (k0_chk267.dec i) (k0_off801 i) (fun _ => rfl) (fun _ _ => rfl) rfl) $$ [HS HC S10]
  · isplitl [HS]; · iexact HS
    isplitl [HC]; · iexact HC
    iexact S10
  iintro ⟨HS, HC⟩
  iapply (loadMask_wp c 𝒱₀ i 139 hl139 q wm rfl) $$ HM
  iintro HM %w268 %hw268
  have hp268 : stateAt 267 ⟨139, hl139⟩ = St.pending := show stateAt 267 ⟨139, (by decide : (139 : ℕ) < 256)⟩ = St.pending from by decide
  have hn268 : ∀ l : Fin 256, stateAt 268 l = Function.update (stateAt 267) ⟨139, hl139⟩ St.started l := show ∀ l : Fin 256, stateAt 268 l = Function.update (stateAt 267) ⟨139, (by decide : (139 : ℕ) < 256)⟩ St.started l from by decide
  iapply (start_fam c 𝒱₀ arg3 (Memref.whole main_v0_0) i q ai wm hai x3 f 267 139 11 hl139 hj11 rfl hp268 hn268 w268 hw268 k0_cond268 (fun _ => rfl) (k0_chk268 i) (k0_chk268.dec i) (k0_off804 i) (fun _ => rfl) (fun _ _ => rfl) rfl) $$ [HS HC S11]
  · isplitl [HS]; · iexact HS
    isplitl [HC]; · iexact HC
    iexact S11
  iintro ⟨HS, HC⟩
  iapply (loadMask_wp c 𝒱₀ i 140 hl140 q wm rfl) $$ HM
  iintro HM %w269 %hw269
  have hp269 : stateAt 268 ⟨140, hl140⟩ = St.pending := show stateAt 268 ⟨140, (by decide : (140 : ℕ) < 256)⟩ = St.pending from by decide
  have hn269 : ∀ l : Fin 256, stateAt 269 l = Function.update (stateAt 268) ⟨140, hl140⟩ St.started l := show ∀ l : Fin 256, stateAt 269 l = Function.update (stateAt 268) ⟨140, (by decide : (140 : ℕ) < 256)⟩ St.started l from by decide
  iapply (start_fam c 𝒱₀ arg3 (Memref.whole main_v0_0) i q ai wm hai x3 f 268 140 12 hl140 hj12 rfl hp269 hn269 w269 hw269 k0_cond269 (fun _ => rfl) (k0_chk269 i) (k0_chk269.dec i) (k0_off807 i) (fun _ => rfl) (fun _ _ => rfl) rfl) $$ [HS HC S12]
  · isplitl [HS]; · iexact HS
    isplitl [HC]; · iexact HC
    iexact S12
  iintro ⟨HS, HC⟩
  iapply (loadMask_wp c 𝒱₀ i 141 hl141 q wm rfl) $$ HM
  iintro HM %w270 %hw270
  rw [wp_pure]
  imodintro
  isplitr; · ipureintro; exact hw270
  isplitl [HS]; · iexact HS
  isplitl [HM]; · iexact HM
  isplitl [HC]; · iexact HC
  isplitl [S13]; · iexact S13
  isplitl [S14]; · iexact S14
  isplitl [S15]; · iexact S15
  iexists _; iexact HO

set_option maxHeartbeats 0 in
/-- Part 46 of the body: steps 270 to 275, and the load of the next step's mask word. -/
theorem part46_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 141 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 269 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part46 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 131 (by decide)⌝ ∗ ((c : Thread nD τ).loc main_call0_v12 ↦{q} ai) ∗ ((c : Thread nD τ).loc main_call0_v13 ↦{q} wm) ∗ cells c arg3 (Memref.whole main_v0_0) i ai wm hai x3 f 275 ∗ semPt c 0 (sem_inb 0 (by decide)) ∗ semPt c 1 (sem_inb 1 (by decide)) ∗ semPt c 2 (sem_inb 2 (by decide)) ∗ ∃ W', owes (c : Thread nD τ) 0 W')) := by
  rw [k0_part46_eq_skeleton]; unfold k0_part46_skel
  iintro ⟨HS, HM, HC, S13, S14, S15, HO⟩
  have hl128 : (128 : ℕ) < 256 := by decide
  have hl129 : (129 : ℕ) < 256 := by decide
  have hl130 : (130 : ℕ) < 256 := by decide
  have hl131 : (131 : ℕ) < 256 := by decide
  have hl141 : (141 : ℕ) < 256 := by decide
  have hl142 : (142 : ℕ) < 256 := by decide
  have hl143 : (143 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw270 : w = wordOf wm i 141 hl141 := hw
  have hp270 : stateAt 269 ⟨141, hl141⟩ = St.pending := show stateAt 269 ⟨141, (by decide : (141 : ℕ) < 256)⟩ = St.pending from by decide
  have hn270 : ∀ l : Fin 256, stateAt 270 l = Function.update (stateAt 269) ⟨141, hl141⟩ St.started l := show ∀ l : Fin 256, stateAt 270 l = Function.update (stateAt 269) ⟨141, (by decide : (141 : ℕ) < 256)⟩ St.started l from by decide
  iapply (start_fam c 𝒱₀ arg3 (Memref.whole main_v0_0) i q ai wm hai x3 f 269 141 13 hl141 hj13 rfl hp270 hn270 w hw270 k0_cond270 (fun _ => rfl) (k0_chk270 i) (k0_chk270.dec i) (k0_off810 i) (fun _ => rfl) (fun _ _ => rfl) rfl) $$ [HS HC S13]
  · isplitl [HS]; · iexact HS
    isplitl [HC]; · iexact HC
    iexact S13
  iintro ⟨HS, HC⟩
  iapply (loadMask_wp c 𝒱₀ i 142 hl142 q wm rfl) $$ HM
  iintro HM %w271 %hw271
  have hp271 : stateAt 270 ⟨142, hl142⟩ = St.pending := show stateAt 270 ⟨142, (by decide : (142 : ℕ) < 256)⟩ = St.pending from by decide
  have hn271 : ∀ l : Fin 256, stateAt 271 l = Function.update (stateAt 270) ⟨142, hl142⟩ St.started l := show ∀ l : Fin 256, stateAt 271 l = Function.update (stateAt 270) ⟨142, (by decide : (142 : ℕ) < 256)⟩ St.started l from by decide
  iapply (start_fam c 𝒱₀ arg3 (Memref.whole main_v0_0) i q ai wm hai x3 f 270 142 14 hl142 hj14 rfl hp271 hn271 w271 hw271 k0_cond271 (fun _ => rfl) (k0_chk271 i) (k0_chk271.dec i) (k0_off813 i) (fun _ => rfl) (fun _ _ => rfl) rfl) $$ [HS HC S14]
  · isplitl [HS]; · iexact HS
    isplitl [HC]; · iexact HC
    iexact S14
  iintro ⟨HS, HC⟩
  iapply (loadMask_wp c 𝒱₀ i 143 hl143 q wm rfl) $$ HM
  iintro HM %w272 %hw272
  have hp272 : stateAt 271 ⟨143, hl143⟩ = St.pending := show stateAt 271 ⟨143, (by decide : (143 : ℕ) < 256)⟩ = St.pending from by decide
  have hn272 : ∀ l : Fin 256, stateAt 272 l = Function.update (stateAt 271) ⟨143, hl143⟩ St.started l := show ∀ l : Fin 256, stateAt 272 l = Function.update (stateAt 271) ⟨143, (by decide : (143 : ℕ) < 256)⟩ St.started l from by decide
  iapply (start_fam c 𝒱₀ arg3 (Memref.whole main_v0_0) i q ai wm hai x3 f 271 143 15 hl143 hj15 rfl hp272 hn272 w272 hw272 k0_cond272 (fun _ => rfl) (k0_chk272 i) (k0_chk272.dec i) (k0_off816 i) (fun _ => rfl) (fun _ _ => rfl) rfl) $$ [HS HC S15]
  · isplitl [HS]; · iexact HS
    isplitl [HC]; · iexact HC
    iexact S15
  iintro ⟨HS, HC⟩
  iapply (loadMask_wp c 𝒱₀ i 128 hl128 q wm rfl) $$ HM
  iintro HM %w273 %hw273
  have hp273 : stateAt 272 ⟨128, hl128⟩ = St.started := show stateAt 272 ⟨128, (by decide : (128 : ℕ) < 256)⟩ = St.started from by decide
  have hn273 : ∀ l : Fin 256, stateAt 273 l = Function.update (stateAt 272) ⟨128, hl128⟩ St.done l := show ∀ l : Fin 256, stateAt 273 l = Function.update (stateAt 272) ⟨128, (by decide : (128 : ℕ) < 256)⟩ St.done l from by decide
  iapply (wait_fam c 𝒱₀ arg3 (Memref.whole main_v0_0) i q ai wm hai x3 f 272 128 0 hl128 hj0 rfl hp273 hn273 w273 hw273 (k0_off818 i) rfl (k0_off818_inb i) k0_cond273 (fun _ => rfl) (k0_chk273 i) (k0_chk273.dec i) (k0_off819 i) (fun _ => rfl) (fun _ _ h => h) (k0_off819_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W273, HO⟩
  iapply (loadMask_wp c 𝒱₀ i 129 hl129 q wm rfl) $$ HM
  iintro HM %w274 %hw274
  have hp274 : stateAt 273 ⟨129, hl129⟩ = St.started := show stateAt 273 ⟨129, (by decide : (129 : ℕ) < 256)⟩ = St.started from by decide
  have hn274 : ∀ l : Fin 256, stateAt 274 l = Function.update (stateAt 273) ⟨129, hl129⟩ St.done l := show ∀ l : Fin 256, stateAt 274 l = Function.update (stateAt 273) ⟨129, (by decide : (129 : ℕ) < 256)⟩ St.done l from by decide
  iapply (wait_fam c 𝒱₀ arg3 (Memref.whole main_v0_0) i q ai wm hai x3 f 273 129 1 hl129 hj1 rfl hp274 hn274 w274 hw274 (k0_off821 i) rfl (k0_off821_inb i) k0_cond274 (fun _ => rfl) (k0_chk274 i) (k0_chk274.dec i) (k0_off822 i) (fun _ => rfl) (fun _ _ h => h) (k0_off822_inb i) ((View.wordExact_bits rfl).reshape _ _) (fun _ _ => (View.wordExact_bits rfl).reshape _ _) _ _ W273) $$ [HS HM HC HO]
  · isplitl [HS]; · iexact HS
    isplitl [HM]; · iexact HM
    isplitl [HC]; · iexact HC
    iexact HO
  iintro ⟨HS, HM, HC, S1, %W274, HO⟩
  iapply (loadMask_wp c 𝒱₀ i 130 hl130 q wm rfl) $$ HM
  iintro HM %w275 %hw275
  have hp275 : stateAt 274 ⟨130, hl130⟩ = St.started := show stateAt 274 ⟨130, (by decide : (130 : ℕ) < 256)⟩ = St.started from by decide
  have hn275 : ∀ l : Fin 256, stateAt 275 l = Function.update (stateAt 274) ⟨130, hl130⟩ St.done l := show ∀ l : Fin 256, stateAt 275 l = Function.update (stateAt 274) ⟨130, (by decide : (130 : ℕ) < 256)⟩ St.done l from by decide
  iapply (wait_fam c 𝒱₀ arg3 (Memref.whole main_v0_0) i q ai wm hai x3 f 274 130 2 hl130 hj2 rfl hp275 hn275 w275 hw275 (k0_off824 i) rfl (k0_off824_inb i) k0_cond275 (fun _ => rfl) (k0_chk275 i) (k0_chk275.dec i) (k0_off825 i) (fun _ => rfl) (fun _ _ h => h) (k0_off825_inb i) ((View.wordExact_bits rfl).reshape _ _) (fun _ _ => (View.wordExact_bits rfl).reshape _ _) _ _ W274) $$ [HS HM HC HO]
  · isplitl [HS]; · iexact HS
    isplitl [HM]; · iexact HM
    isplitl [HC]; · iexact HC
    iexact HO
  iintro ⟨HS, HM, HC, S2, %W275, HO⟩
  iapply (loadMask_wp c 𝒱₀ i 131 hl131 q wm rfl) $$ HM
  iintro HM %w276 %hw276
  rw [wp_pure]
  imodintro
  isplitr; · ipureintro; exact hw276
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 47 of the body: steps 276 to 281, and the load of the next step's mask word. -/
theorem part47_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 131 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 275 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part47 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 137 (by decide)⌝ ∗ ((c : Thread nD τ).loc main_call0_v12 ↦{q} ai) ∗ ((c : Thread nD τ).loc main_call0_v13 ↦{q} wm) ∗ cells c arg3 (Memref.whole main_v0_0) i ai wm hai x3 f 281 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part47_eq_skeleton]; unfold k0_part47_skel
  iintro ⟨HS, HM, HC, S0, S1, S2, HO⟩
  have hl131 : (131 : ℕ) < 256 := by decide
  have hl132 : (132 : ℕ) < 256 := by decide
  have hl133 : (133 : ℕ) < 256 := by decide
  have hl134 : (134 : ℕ) < 256 := by decide
  have hl135 : (135 : ℕ) < 256 := by decide
  have hl136 : (136 : ℕ) < 256 := by decide
  have hl137 : (137 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw276 : w = wordOf wm i 131 hl131 := hw
  have hp276 : stateAt 275 ⟨131, hl131⟩ = St.started := show stateAt 275 ⟨131, (by decide : (131 : ℕ) < 256)⟩ = St.started from by decide
  have hn276 : ∀ l : Fin 256, stateAt 276 l = Function.update (stateAt 275) ⟨131, hl131⟩ St.done l := show ∀ l : Fin 256, stateAt 276 l = Function.update (stateAt 275) ⟨131, (by decide : (131 : ℕ) < 256)⟩ St.done l from by decide
  iapply (wait_fam c 𝒱₀ arg3 (Memref.whole main_v0_0) i q ai wm hai x3 f 275 131 3 hl131 hj3 rfl hp276 hn276 w hw276 (k0_off827 i) rfl (k0_off827_inb i) k0_cond276 (fun _ => rfl) (k0_chk276 i) (k0_chk276.dec i) (k0_off828 i) (fun _ => rfl) (fun _ _ h => h) (k0_off828_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W276, HO⟩
  iapply (loadMask_wp c 𝒱₀ i 132 hl132 q wm rfl) $$ HM
  iintro HM %w277 %hw277
  have hp277 : stateAt 276 ⟨132, hl132⟩ = St.started := show stateAt 276 ⟨132, (by decide : (132 : ℕ) < 256)⟩ = St.started from by decide
  have hn277 : ∀ l : Fin 256, stateAt 277 l = Function.update (stateAt 276) ⟨132, hl132⟩ St.done l := show ∀ l : Fin 256, stateAt 277 l = Function.update (stateAt 276) ⟨132, (by decide : (132 : ℕ) < 256)⟩ St.done l from by decide
  iapply (wait_fam c 𝒱₀ arg3 (Memref.whole main_v0_0) i q ai wm hai x3 f 276 132 4 hl132 hj4 rfl hp277 hn277 w277 hw277 (k0_off830 i) rfl (k0_off830_inb i) k0_cond277 (fun _ => rfl) (k0_chk277 i) (k0_chk277.dec i) (k0_off831 i) (fun _ => rfl) (fun _ _ h => h) (k0_off831_inb i) ((View.wordExact_bits rfl).reshape _ _) (fun _ _ => (View.wordExact_bits rfl).reshape _ _) _ _ W276) $$ [HS HM HC HO]
  · isplitl [HS]; · iexact HS
    isplitl [HM]; · iexact HM
    isplitl [HC]; · iexact HC
    iexact HO
  iintro ⟨HS, HM, HC, S4, %W277, HO⟩
  iapply (loadMask_wp c 𝒱₀ i 133 hl133 q wm rfl) $$ HM
  iintro HM %w278 %hw278
  have hp278 : stateAt 277 ⟨133, hl133⟩ = St.started := show stateAt 277 ⟨133, (by decide : (133 : ℕ) < 256)⟩ = St.started from by decide
  have hn278 : ∀ l : Fin 256, stateAt 278 l = Function.update (stateAt 277) ⟨133, hl133⟩ St.done l := show ∀ l : Fin 256, stateAt 278 l = Function.update (stateAt 277) ⟨133, (by decide : (133 : ℕ) < 256)⟩ St.done l from by decide
  iapply (wait_fam c 𝒱₀ arg3 (Memref.whole main_v0_0) i q ai wm hai x3 f 277 133 5 hl133 hj5 rfl hp278 hn278 w278 hw278 (k0_off833 i) rfl (k0_off833_inb i) k0_cond278 (fun _ => rfl) (k0_chk278 i) (k0_chk278.dec i) (k0_off834 i) (fun _ => rfl) (fun _ _ h => h) (k0_off834_inb i) ((View.wordExact_bits rfl).reshape _ _) (fun _ _ => (View.wordExact_bits rfl).reshape _ _) _ _ W277) $$ [HS HM HC HO]
  · isplitl [HS]; · iexact HS
    isplitl [HM]; · iexact HM
    isplitl [HC]; · iexact HC
    iexact HO
  iintro ⟨HS, HM, HC, S5, %W278, HO⟩
  iapply (loadMask_wp c 𝒱₀ i 134 hl134 q wm rfl) $$ HM
  iintro HM %w279 %hw279
  have hp279 : stateAt 278 ⟨134, hl134⟩ = St.started := show stateAt 278 ⟨134, (by decide : (134 : ℕ) < 256)⟩ = St.started from by decide
  have hn279 : ∀ l : Fin 256, stateAt 279 l = Function.update (stateAt 278) ⟨134, hl134⟩ St.done l := show ∀ l : Fin 256, stateAt 279 l = Function.update (stateAt 278) ⟨134, (by decide : (134 : ℕ) < 256)⟩ St.done l from by decide
  iapply (wait_fam c 𝒱₀ arg3 (Memref.whole main_v0_0) i q ai wm hai x3 f 278 134 6 hl134 hj6 rfl hp279 hn279 w279 hw279 (k0_off836 i) rfl (k0_off836_inb i) k0_cond279 (fun _ => rfl) (k0_chk279 i) (k0_chk279.dec i) (k0_off837 i) (fun _ => rfl) (fun _ _ h => h) (k0_off837_inb i) ((View.wordExact_bits rfl).reshape _ _) (fun _ _ => (View.wordExact_bits rfl).reshape _ _) _ _ W278) $$ [HS HM HC HO]
  · isplitl [HS]; · iexact HS
    isplitl [HM]; · iexact HM
    isplitl [HC]; · iexact HC
    iexact HO
  iintro ⟨HS, HM, HC, S6, %W279, HO⟩
  iapply (loadMask_wp c 𝒱₀ i 135 hl135 q wm rfl) $$ HM
  iintro HM %w280 %hw280
  have hp280 : stateAt 279 ⟨135, hl135⟩ = St.started := show stateAt 279 ⟨135, (by decide : (135 : ℕ) < 256)⟩ = St.started from by decide
  have hn280 : ∀ l : Fin 256, stateAt 280 l = Function.update (stateAt 279) ⟨135, hl135⟩ St.done l := show ∀ l : Fin 256, stateAt 280 l = Function.update (stateAt 279) ⟨135, (by decide : (135 : ℕ) < 256)⟩ St.done l from by decide
  iapply (wait_fam c 𝒱₀ arg3 (Memref.whole main_v0_0) i q ai wm hai x3 f 279 135 7 hl135 hj7 rfl hp280 hn280 w280 hw280 (k0_off839 i) rfl (k0_off839_inb i) k0_cond280 (fun _ => rfl) (k0_chk280 i) (k0_chk280.dec i) (k0_off840 i) (fun _ => rfl) (fun _ _ h => h) (k0_off840_inb i) ((View.wordExact_bits rfl).reshape _ _) (fun _ _ => (View.wordExact_bits rfl).reshape _ _) _ _ W279) $$ [HS HM HC HO]
  · isplitl [HS]; · iexact HS
    isplitl [HM]; · iexact HM
    isplitl [HC]; · iexact HC
    iexact HO
  iintro ⟨HS, HM, HC, S7, %W280, HO⟩
  iapply (loadMask_wp c 𝒱₀ i 136 hl136 q wm rfl) $$ HM
  iintro HM %w281 %hw281
  have hp281 : stateAt 280 ⟨136, hl136⟩ = St.started := show stateAt 280 ⟨136, (by decide : (136 : ℕ) < 256)⟩ = St.started from by decide
  have hn281 : ∀ l : Fin 256, stateAt 281 l = Function.update (stateAt 280) ⟨136, hl136⟩ St.done l := show ∀ l : Fin 256, stateAt 281 l = Function.update (stateAt 280) ⟨136, (by decide : (136 : ℕ) < 256)⟩ St.done l from by decide
  iapply (wait_fam c 𝒱₀ arg3 (Memref.whole main_v0_0) i q ai wm hai x3 f 280 136 8 hl136 hj8 rfl hp281 hn281 w281 hw281 (k0_off842 i) rfl (k0_off842_inb i) k0_cond281 (fun _ => rfl) (k0_chk281 i) (k0_chk281.dec i) (k0_off843 i) (fun _ => rfl) (fun _ _ h => h) (k0_off843_inb i) ((View.wordExact_bits rfl).reshape _ _) (fun _ _ => (View.wordExact_bits rfl).reshape _ _) _ _ W280) $$ [HS HM HC HO]
  · isplitl [HS]; · iexact HS
    isplitl [HM]; · iexact HM
    isplitl [HC]; · iexact HC
    iexact HO
  iintro ⟨HS, HM, HC, S8, %W281, HO⟩
  iapply (loadMask_wp c 𝒱₀ i 137 hl137 q wm rfl) $$ HM
  iintro HM %w282 %hw282
  rw [wp_pure]
  imodintro
  isplitr; · ipureintro; exact hw282
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 48 of the body: steps 282 to 287, and the load of the next step's mask word. -/
theorem part48_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 137 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 281 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part48 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 143 (by decide)⌝ ∗ ((c : Thread nD τ).loc main_call0_v12 ↦{q} ai) ∗ ((c : Thread nD τ).loc main_call0_v13 ↦{q} wm) ∗ cells c arg3 (Memref.whole main_v0_0) i ai wm hai x3 f 287 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part48_eq_skeleton]; unfold k0_part48_skel
  iintro ⟨HS, HM, HC, S0, S1, S2, S3, S4, S5, S6, S7, S8, HO⟩
  have hl137 : (137 : ℕ) < 256 := by decide
  have hl138 : (138 : ℕ) < 256 := by decide
  have hl139 : (139 : ℕ) < 256 := by decide
  have hl140 : (140 : ℕ) < 256 := by decide
  have hl141 : (141 : ℕ) < 256 := by decide
  have hl142 : (142 : ℕ) < 256 := by decide
  have hl143 : (143 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw282 : w = wordOf wm i 137 hl137 := hw
  have hp282 : stateAt 281 ⟨137, hl137⟩ = St.started := show stateAt 281 ⟨137, (by decide : (137 : ℕ) < 256)⟩ = St.started from by decide
  have hn282 : ∀ l : Fin 256, stateAt 282 l = Function.update (stateAt 281) ⟨137, hl137⟩ St.done l := show ∀ l : Fin 256, stateAt 282 l = Function.update (stateAt 281) ⟨137, (by decide : (137 : ℕ) < 256)⟩ St.done l from by decide
  iapply (wait_fam c 𝒱₀ arg3 (Memref.whole main_v0_0) i q ai wm hai x3 f 281 137 9 hl137 hj9 rfl hp282 hn282 w hw282 (k0_off845 i) rfl (k0_off845_inb i) k0_cond282 (fun _ => rfl) (k0_chk282 i) (k0_chk282.dec i) (k0_off846 i) (fun _ => rfl) (fun _ _ h => h) (k0_off846_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W282, HO⟩
  iapply (loadMask_wp c 𝒱₀ i 138 hl138 q wm rfl) $$ HM
  iintro HM %w283 %hw283
  have hp283 : stateAt 282 ⟨138, hl138⟩ = St.started := show stateAt 282 ⟨138, (by decide : (138 : ℕ) < 256)⟩ = St.started from by decide
  have hn283 : ∀ l : Fin 256, stateAt 283 l = Function.update (stateAt 282) ⟨138, hl138⟩ St.done l := show ∀ l : Fin 256, stateAt 283 l = Function.update (stateAt 282) ⟨138, (by decide : (138 : ℕ) < 256)⟩ St.done l from by decide
  iapply (wait_fam c 𝒱₀ arg3 (Memref.whole main_v0_0) i q ai wm hai x3 f 282 138 10 hl138 hj10 rfl hp283 hn283 w283 hw283 (k0_off848 i) rfl (k0_off848_inb i) k0_cond283 (fun _ => rfl) (k0_chk283 i) (k0_chk283.dec i) (k0_off849 i) (fun _ => rfl) (fun _ _ h => h) (k0_off849_inb i) ((View.wordExact_bits rfl).reshape _ _) (fun _ _ => (View.wordExact_bits rfl).reshape _ _) _ _ W282) $$ [HS HM HC HO]
  · isplitl [HS]; · iexact HS
    isplitl [HM]; · iexact HM
    isplitl [HC]; · iexact HC
    iexact HO
  iintro ⟨HS, HM, HC, S10, %W283, HO⟩
  iapply (loadMask_wp c 𝒱₀ i 139 hl139 q wm rfl) $$ HM
  iintro HM %w284 %hw284
  have hp284 : stateAt 283 ⟨139, hl139⟩ = St.started := show stateAt 283 ⟨139, (by decide : (139 : ℕ) < 256)⟩ = St.started from by decide
  have hn284 : ∀ l : Fin 256, stateAt 284 l = Function.update (stateAt 283) ⟨139, hl139⟩ St.done l := show ∀ l : Fin 256, stateAt 284 l = Function.update (stateAt 283) ⟨139, (by decide : (139 : ℕ) < 256)⟩ St.done l from by decide
  iapply (wait_fam c 𝒱₀ arg3 (Memref.whole main_v0_0) i q ai wm hai x3 f 283 139 11 hl139 hj11 rfl hp284 hn284 w284 hw284 (k0_off851 i) rfl (k0_off851_inb i) k0_cond284 (fun _ => rfl) (k0_chk284 i) (k0_chk284.dec i) (k0_off852 i) (fun _ => rfl) (fun _ _ h => h) (k0_off852_inb i) ((View.wordExact_bits rfl).reshape _ _) (fun _ _ => (View.wordExact_bits rfl).reshape _ _) _ _ W283) $$ [HS HM HC HO]
  · isplitl [HS]; · iexact HS
    isplitl [HM]; · iexact HM
    isplitl [HC]; · iexact HC
    iexact HO
  iintro ⟨HS, HM, HC, S11, %W284, HO⟩
  iapply (loadMask_wp c 𝒱₀ i 140 hl140 q wm rfl) $$ HM
  iintro HM %w285 %hw285
  have hp285 : stateAt 284 ⟨140, hl140⟩ = St.started := show stateAt 284 ⟨140, (by decide : (140 : ℕ) < 256)⟩ = St.started from by decide
  have hn285 : ∀ l : Fin 256, stateAt 285 l = Function.update (stateAt 284) ⟨140, hl140⟩ St.done l := show ∀ l : Fin 256, stateAt 285 l = Function.update (stateAt 284) ⟨140, (by decide : (140 : ℕ) < 256)⟩ St.done l from by decide
  iapply (wait_fam c 𝒱₀ arg3 (Memref.whole main_v0_0) i q ai wm hai x3 f 284 140 12 hl140 hj12 rfl hp285 hn285 w285 hw285 (k0_off854 i) rfl (k0_off854_inb i) k0_cond285 (fun _ => rfl) (k0_chk285 i) (k0_chk285.dec i) (k0_off855 i) (fun _ => rfl) (fun _ _ h => h) (k0_off855_inb i) ((View.wordExact_bits rfl).reshape _ _) (fun _ _ => (View.wordExact_bits rfl).reshape _ _) _ _ W284) $$ [HS HM HC HO]
  · isplitl [HS]; · iexact HS
    isplitl [HM]; · iexact HM
    isplitl [HC]; · iexact HC
    iexact HO
  iintro ⟨HS, HM, HC, S12, %W285, HO⟩
  iapply (loadMask_wp c 𝒱₀ i 141 hl141 q wm rfl) $$ HM
  iintro HM %w286 %hw286
  have hp286 : stateAt 285 ⟨141, hl141⟩ = St.started := show stateAt 285 ⟨141, (by decide : (141 : ℕ) < 256)⟩ = St.started from by decide
  have hn286 : ∀ l : Fin 256, stateAt 286 l = Function.update (stateAt 285) ⟨141, hl141⟩ St.done l := show ∀ l : Fin 256, stateAt 286 l = Function.update (stateAt 285) ⟨141, (by decide : (141 : ℕ) < 256)⟩ St.done l from by decide
  iapply (wait_fam c 𝒱₀ arg3 (Memref.whole main_v0_0) i q ai wm hai x3 f 285 141 13 hl141 hj13 rfl hp286 hn286 w286 hw286 (k0_off857 i) rfl (k0_off857_inb i) k0_cond286 (fun _ => rfl) (k0_chk286 i) (k0_chk286.dec i) (k0_off858 i) (fun _ => rfl) (fun _ _ h => h) (k0_off858_inb i) ((View.wordExact_bits rfl).reshape _ _) (fun _ _ => (View.wordExact_bits rfl).reshape _ _) _ _ W285) $$ [HS HM HC HO]
  · isplitl [HS]; · iexact HS
    isplitl [HM]; · iexact HM
    isplitl [HC]; · iexact HC
    iexact HO
  iintro ⟨HS, HM, HC, S13, %W286, HO⟩
  iapply (loadMask_wp c 𝒱₀ i 142 hl142 q wm rfl) $$ HM
  iintro HM %w287 %hw287
  have hp287 : stateAt 286 ⟨142, hl142⟩ = St.started := show stateAt 286 ⟨142, (by decide : (142 : ℕ) < 256)⟩ = St.started from by decide
  have hn287 : ∀ l : Fin 256, stateAt 287 l = Function.update (stateAt 286) ⟨142, hl142⟩ St.done l := show ∀ l : Fin 256, stateAt 287 l = Function.update (stateAt 286) ⟨142, (by decide : (142 : ℕ) < 256)⟩ St.done l from by decide
  iapply (wait_fam c 𝒱₀ arg3 (Memref.whole main_v0_0) i q ai wm hai x3 f 286 142 14 hl142 hj14 rfl hp287 hn287 w287 hw287 (k0_off860 i) rfl (k0_off860_inb i) k0_cond287 (fun _ => rfl) (k0_chk287 i) (k0_chk287.dec i) (k0_off861 i) (fun _ => rfl) (fun _ _ h => h) (k0_off861_inb i) ((View.wordExact_bits rfl).reshape _ _) (fun _ _ => (View.wordExact_bits rfl).reshape _ _) _ _ W286) $$ [HS HM HC HO]
  · isplitl [HS]; · iexact HS
    isplitl [HM]; · iexact HM
    isplitl [HC]; · iexact HC
    iexact HO
  iintro ⟨HS, HM, HC, S14, %W287, HO⟩
  iapply (loadMask_wp c 𝒱₀ i 143 hl143 q wm rfl) $$ HM
  iintro HM %w288 %hw288
  rw [wp_pure]
  imodintro
  isplitr; · ipureintro; exact hw288
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 49 of the body: steps 288 to 293, and the load of the next step's mask word. -/
theorem part49_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 143 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 287 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part49 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 149 (by decide)⌝ ∗ ((c : Thread nD τ).loc main_call0_v12 ↦{q} ai) ∗ ((c : Thread nD τ).loc main_call0_v13 ↦{q} wm) ∗ cells c arg3 (Memref.whole main_v0_0) i ai wm hai x3 f 293 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part49_eq_skeleton]; unfold k0_part49_skel
  iintro ⟨HS, HM, HC, S0, S1, S2, S3, S4, S5, S6, S7, S8, S9, S10, S11, S12, S13, S14, HO⟩
  have hl143 : (143 : ℕ) < 256 := by decide
  have hl144 : (144 : ℕ) < 256 := by decide
  have hl145 : (145 : ℕ) < 256 := by decide
  have hl146 : (146 : ℕ) < 256 := by decide
  have hl147 : (147 : ℕ) < 256 := by decide
  have hl148 : (148 : ℕ) < 256 := by decide
  have hl149 : (149 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw288 : w = wordOf wm i 143 hl143 := hw
  have hp288 : stateAt 287 ⟨143, hl143⟩ = St.started := show stateAt 287 ⟨143, (by decide : (143 : ℕ) < 256)⟩ = St.started from by decide
  have hn288 : ∀ l : Fin 256, stateAt 288 l = Function.update (stateAt 287) ⟨143, hl143⟩ St.done l := show ∀ l : Fin 256, stateAt 288 l = Function.update (stateAt 287) ⟨143, (by decide : (143 : ℕ) < 256)⟩ St.done l from by decide
  iapply (wait_fam c 𝒱₀ arg3 (Memref.whole main_v0_0) i q ai wm hai x3 f 287 143 15 hl143 hj15 rfl hp288 hn288 w hw288 (k0_off863 i) rfl (k0_off863_inb i) k0_cond288 (fun _ => rfl) (k0_chk288 i) (k0_chk288.dec i) (k0_off864 i) (fun _ => rfl) (fun _ _ h => h) (k0_off864_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W288, HO⟩
  iapply (loadMask_wp c 𝒱₀ i 144 hl144 q wm rfl) $$ HM
  iintro HM %w289 %hw289
  have hp289 : stateAt 288 ⟨144, hl144⟩ = St.pending := show stateAt 288 ⟨144, (by decide : (144 : ℕ) < 256)⟩ = St.pending from by decide
  have hn289 : ∀ l : Fin 256, stateAt 289 l = Function.update (stateAt 288) ⟨144, hl144⟩ St.started l := show ∀ l : Fin 256, stateAt 289 l = Function.update (stateAt 288) ⟨144, (by decide : (144 : ℕ) < 256)⟩ St.started l from by decide
  iapply (start_fam c 𝒱₀ arg3 (Memref.whole main_v0_0) i q ai wm hai x3 f 288 144 0 hl144 hj0 rfl hp289 hn289 w289 hw289 k0_cond289 (fun _ => rfl) (k0_chk289 i) (k0_chk289.dec i) (k0_off867 i) (fun _ => rfl) (fun _ _ => rfl) rfl) $$ [HS HC S0]
  · isplitl [HS]; · iexact HS
    isplitl [HC]; · iexact HC
    iexact S0
  iintro ⟨HS, HC⟩
  iapply (loadMask_wp c 𝒱₀ i 145 hl145 q wm rfl) $$ HM
  iintro HM %w290 %hw290
  have hp290 : stateAt 289 ⟨145, hl145⟩ = St.pending := show stateAt 289 ⟨145, (by decide : (145 : ℕ) < 256)⟩ = St.pending from by decide
  have hn290 : ∀ l : Fin 256, stateAt 290 l = Function.update (stateAt 289) ⟨145, hl145⟩ St.started l := show ∀ l : Fin 256, stateAt 290 l = Function.update (stateAt 289) ⟨145, (by decide : (145 : ℕ) < 256)⟩ St.started l from by decide
  iapply (start_fam c 𝒱₀ arg3 (Memref.whole main_v0_0) i q ai wm hai x3 f 289 145 1 hl145 hj1 rfl hp290 hn290 w290 hw290 k0_cond290 (fun _ => rfl) (k0_chk290 i) (k0_chk290.dec i) (k0_off870 i) (fun _ => rfl) (fun _ _ => rfl) rfl) $$ [HS HC S1]
  · isplitl [HS]; · iexact HS
    isplitl [HC]; · iexact HC
    iexact S1
  iintro ⟨HS, HC⟩
  iapply (loadMask_wp c 𝒱₀ i 146 hl146 q wm rfl) $$ HM
  iintro HM %w291 %hw291
  have hp291 : stateAt 290 ⟨146, hl146⟩ = St.pending := show stateAt 290 ⟨146, (by decide : (146 : ℕ) < 256)⟩ = St.pending from by decide
  have hn291 : ∀ l : Fin 256, stateAt 291 l = Function.update (stateAt 290) ⟨146, hl146⟩ St.started l := show ∀ l : Fin 256, stateAt 291 l = Function.update (stateAt 290) ⟨146, (by decide : (146 : ℕ) < 256)⟩ St.started l from by decide
  iapply (start_fam c 𝒱₀ arg3 (Memref.whole main_v0_0) i q ai wm hai x3 f 290 146 2 hl146 hj2 rfl hp291 hn291 w291 hw291 k0_cond291 (fun _ => rfl) (k0_chk291 i) (k0_chk291.dec i) (k0_off873 i) (fun _ => rfl) (fun _ _ => rfl) rfl) $$ [HS HC S2]
  · isplitl [HS]; · iexact HS
    isplitl [HC]; · iexact HC
    iexact S2
  iintro ⟨HS, HC⟩
  iapply (loadMask_wp c 𝒱₀ i 147 hl147 q wm rfl) $$ HM
  iintro HM %w292 %hw292
  have hp292 : stateAt 291 ⟨147, hl147⟩ = St.pending := show stateAt 291 ⟨147, (by decide : (147 : ℕ) < 256)⟩ = St.pending from by decide
  have hn292 : ∀ l : Fin 256, stateAt 292 l = Function.update (stateAt 291) ⟨147, hl147⟩ St.started l := show ∀ l : Fin 256, stateAt 292 l = Function.update (stateAt 291) ⟨147, (by decide : (147 : ℕ) < 256)⟩ St.started l from by decide
  iapply (start_fam c 𝒱₀ arg3 (Memref.whole main_v0_0) i q ai wm hai x3 f 291 147 3 hl147 hj3 rfl hp292 hn292 w292 hw292 k0_cond292 (fun _ => rfl) (k0_chk292 i) (k0_chk292.dec i) (k0_off876 i) (fun _ => rfl) (fun _ _ => rfl) rfl) $$ [HS HC S3]
  · isplitl [HS]; · iexact HS
    isplitl [HC]; · iexact HC
    iexact S3
  iintro ⟨HS, HC⟩
  iapply (loadMask_wp c 𝒱₀ i 148 hl148 q wm rfl) $$ HM
  iintro HM %w293 %hw293
  have hp293 : stateAt 292 ⟨148, hl148⟩ = St.pending := show stateAt 292 ⟨148, (by decide : (148 : ℕ) < 256)⟩ = St.pending from by decide
  have hn293 : ∀ l : Fin 256, stateAt 293 l = Function.update (stateAt 292) ⟨148, hl148⟩ St.started l := show ∀ l : Fin 256, stateAt 293 l = Function.update (stateAt 292) ⟨148, (by decide : (148 : ℕ) < 256)⟩ St.started l from by decide
  iapply (start_fam c 𝒱₀ arg3 (Memref.whole main_v0_0) i q ai wm hai x3 f 292 148 4 hl148 hj4 rfl hp293 hn293 w293 hw293 k0_cond293 (fun _ => rfl) (k0_chk293 i) (k0_chk293.dec i) (k0_off879 i) (fun _ => rfl) (fun _ _ => rfl) rfl) $$ [HS HC S4]
  · isplitl [HS]; · iexact HS
    isplitl [HC]; · iexact HC
    iexact S4
  iintro ⟨HS, HC⟩
  iapply (loadMask_wp c 𝒱₀ i 149 hl149 q wm rfl) $$ HM
  iintro HM %w294 %hw294
  rw [wp_pure]
  imodintro
  isplitr; · ipureintro; exact hw294
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 50 of the body: steps 294 to 299, and the load of the next step's mask word. -/
theorem part50_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 149 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 293 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part50 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 155 (by decide)⌝ ∗ ((c : Thread nD τ).loc main_call0_v12 ↦{q} ai) ∗ ((c : Thread nD τ).loc main_call0_v13 ↦{q} wm) ∗ cells c arg3 (Memref.whole main_v0_0) i ai wm hai x3 f 299 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part50_eq_skeleton]; unfold k0_part50_skel
  iintro ⟨HS, HM, HC, S5, S6, S7, S8, S9, S10, S11, S12, S13, S14, S15, HO⟩
  have hl149 : (149 : ℕ) < 256 := by decide
  have hl150 : (150 : ℕ) < 256 := by decide
  have hl151 : (151 : ℕ) < 256 := by decide
  have hl152 : (152 : ℕ) < 256 := by decide
  have hl153 : (153 : ℕ) < 256 := by decide
  have hl154 : (154 : ℕ) < 256 := by decide
  have hl155 : (155 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw294 : w = wordOf wm i 149 hl149 := hw
  have hp294 : stateAt 293 ⟨149, hl149⟩ = St.pending := show stateAt 293 ⟨149, (by decide : (149 : ℕ) < 256)⟩ = St.pending from by decide
  have hn294 : ∀ l : Fin 256, stateAt 294 l = Function.update (stateAt 293) ⟨149, hl149⟩ St.started l := show ∀ l : Fin 256, stateAt 294 l = Function.update (stateAt 293) ⟨149, (by decide : (149 : ℕ) < 256)⟩ St.started l from by decide
  iapply (start_fam c 𝒱₀ arg3 (Memref.whole main_v0_0) i q ai wm hai x3 f 293 149 5 hl149 hj5 rfl hp294 hn294 w hw294 k0_cond294 (fun _ => rfl) (k0_chk294 i) (k0_chk294.dec i) (k0_off882 i) (fun _ => rfl) (fun _ _ => rfl) rfl) $$ [HS HC S5]
  · isplitl [HS]; · iexact HS
    isplitl [HC]; · iexact HC
    iexact S5
  iintro ⟨HS, HC⟩
  iapply (loadMask_wp c 𝒱₀ i 150 hl150 q wm rfl) $$ HM
  iintro HM %w295 %hw295
  have hp295 : stateAt 294 ⟨150, hl150⟩ = St.pending := show stateAt 294 ⟨150, (by decide : (150 : ℕ) < 256)⟩ = St.pending from by decide
  have hn295 : ∀ l : Fin 256, stateAt 295 l = Function.update (stateAt 294) ⟨150, hl150⟩ St.started l := show ∀ l : Fin 256, stateAt 295 l = Function.update (stateAt 294) ⟨150, (by decide : (150 : ℕ) < 256)⟩ St.started l from by decide
  iapply (start_fam c 𝒱₀ arg3 (Memref.whole main_v0_0) i q ai wm hai x3 f 294 150 6 hl150 hj6 rfl hp295 hn295 w295 hw295 k0_cond295 (fun _ => rfl) (k0_chk295 i) (k0_chk295.dec i) (k0_off885 i) (fun _ => rfl) (fun _ _ => rfl) rfl) $$ [HS HC S6]
  · isplitl [HS]; · iexact HS
    isplitl [HC]; · iexact HC
    iexact S6
  iintro ⟨HS, HC⟩
  iapply (loadMask_wp c 𝒱₀ i 151 hl151 q wm rfl) $$ HM
  iintro HM %w296 %hw296
  have hp296 : stateAt 295 ⟨151, hl151⟩ = St.pending := show stateAt 295 ⟨151, (by decide : (151 : ℕ) < 256)⟩ = St.pending from by decide
  have hn296 : ∀ l : Fin 256, stateAt 296 l = Function.update (stateAt 295) ⟨151, hl151⟩ St.started l := show ∀ l : Fin 256, stateAt 296 l = Function.update (stateAt 295) ⟨151, (by decide : (151 : ℕ) < 256)⟩ St.started l from by decide
  iapply (start_fam c 𝒱₀ arg3 (Memref.whole main_v0_0) i q ai wm hai x3 f 295 151 7 hl151 hj7 rfl hp296 hn296 w296 hw296 k0_cond296 (fun _ => rfl) (k0_chk296 i) (k0_chk296.dec i) (k0_off888 i) (fun _ => rfl) (fun _ _ => rfl) rfl) $$ [HS HC S7]
  · isplitl [HS]; · iexact HS
    isplitl [HC]; · iexact HC
    iexact S7
  iintro ⟨HS, HC⟩
  iapply (loadMask_wp c 𝒱₀ i 152 hl152 q wm rfl) $$ HM
  iintro HM %w297 %hw297
  have hp297 : stateAt 296 ⟨152, hl152⟩ = St.pending := show stateAt 296 ⟨152, (by decide : (152 : ℕ) < 256)⟩ = St.pending from by decide
  have hn297 : ∀ l : Fin 256, stateAt 297 l = Function.update (stateAt 296) ⟨152, hl152⟩ St.started l := show ∀ l : Fin 256, stateAt 297 l = Function.update (stateAt 296) ⟨152, (by decide : (152 : ℕ) < 256)⟩ St.started l from by decide
  iapply (start_fam c 𝒱₀ arg3 (Memref.whole main_v0_0) i q ai wm hai x3 f 296 152 8 hl152 hj8 rfl hp297 hn297 w297 hw297 k0_cond297 (fun _ => rfl) (k0_chk297 i) (k0_chk297.dec i) (k0_off891 i) (fun _ => rfl) (fun _ _ => rfl) rfl) $$ [HS HC S8]
  · isplitl [HS]; · iexact HS
    isplitl [HC]; · iexact HC
    iexact S8
  iintro ⟨HS, HC⟩
  iapply (loadMask_wp c 𝒱₀ i 153 hl153 q wm rfl) $$ HM
  iintro HM %w298 %hw298
  have hp298 : stateAt 297 ⟨153, hl153⟩ = St.pending := show stateAt 297 ⟨153, (by decide : (153 : ℕ) < 256)⟩ = St.pending from by decide
  have hn298 : ∀ l : Fin 256, stateAt 298 l = Function.update (stateAt 297) ⟨153, hl153⟩ St.started l := show ∀ l : Fin 256, stateAt 298 l = Function.update (stateAt 297) ⟨153, (by decide : (153 : ℕ) < 256)⟩ St.started l from by decide
  iapply (start_fam c 𝒱₀ arg3 (Memref.whole main_v0_0) i q ai wm hai x3 f 297 153 9 hl153 hj9 rfl hp298 hn298 w298 hw298 k0_cond298 (fun _ => rfl) (k0_chk298 i) (k0_chk298.dec i) (k0_off894 i) (fun _ => rfl) (fun _ _ => rfl) rfl) $$ [HS HC S9]
  · isplitl [HS]; · iexact HS
    isplitl [HC]; · iexact HC
    iexact S9
  iintro ⟨HS, HC⟩
  iapply (loadMask_wp c 𝒱₀ i 154 hl154 q wm rfl) $$ HM
  iintro HM %w299 %hw299
  have hp299 : stateAt 298 ⟨154, hl154⟩ = St.pending := show stateAt 298 ⟨154, (by decide : (154 : ℕ) < 256)⟩ = St.pending from by decide
  have hn299 : ∀ l : Fin 256, stateAt 299 l = Function.update (stateAt 298) ⟨154, hl154⟩ St.started l := show ∀ l : Fin 256, stateAt 299 l = Function.update (stateAt 298) ⟨154, (by decide : (154 : ℕ) < 256)⟩ St.started l from by decide
  iapply (start_fam c 𝒱₀ arg3 (Memref.whole main_v0_0) i q ai wm hai x3 f 298 154 10 hl154 hj10 rfl hp299 hn299 w299 hw299 k0_cond299 (fun _ => rfl) (k0_chk299 i) (k0_chk299.dec i) (k0_off897 i) (fun _ => rfl) (fun _ _ => rfl) rfl) $$ [HS HC S10]
  · isplitl [HS]; · iexact HS
    isplitl [HC]; · iexact HC
    iexact S10
  iintro ⟨HS, HC⟩
  iapply (loadMask_wp c 𝒱₀ i 155 hl155 q wm rfl) $$ HM
  iintro HM %w300 %hw300
  rw [wp_pure]
  imodintro
  isplitr; · ipureintro; exact hw300
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 51 of the body: steps 300 to 305, and the load of the next step's mask word. -/
theorem part51_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 155 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 299 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part51 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 145 (by decide)⌝ ∗ ((c : Thread nD τ).loc main_call0_v12 ↦{q} ai) ∗ ((c : Thread nD τ).loc main_call0_v13 ↦{q} wm) ∗ cells c arg3 (Memref.whole main_v0_0) i ai wm hai x3 f 305 ∗ semPt c 0 (sem_inb 0 (by decide)) ∗ ∃ W', owes (c : Thread nD τ) 0 W')) := by
  rw [k0_part51_eq_skeleton]; unfold k0_part51_skel
  iintro ⟨HS, HM, HC, S11, S12, S13, S14, S15, HO⟩
  have hl144 : (144 : ℕ) < 256 := by decide
  have hl145 : (145 : ℕ) < 256 := by decide
  have hl155 : (155 : ℕ) < 256 := by decide
  have hl156 : (156 : ℕ) < 256 := by decide
  have hl157 : (157 : ℕ) < 256 := by decide
  have hl158 : (158 : ℕ) < 256 := by decide
  have hl159 : (159 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw300 : w = wordOf wm i 155 hl155 := hw
  have hp300 : stateAt 299 ⟨155, hl155⟩ = St.pending := show stateAt 299 ⟨155, (by decide : (155 : ℕ) < 256)⟩ = St.pending from by decide
  have hn300 : ∀ l : Fin 256, stateAt 300 l = Function.update (stateAt 299) ⟨155, hl155⟩ St.started l := show ∀ l : Fin 256, stateAt 300 l = Function.update (stateAt 299) ⟨155, (by decide : (155 : ℕ) < 256)⟩ St.started l from by decide
  iapply (start_fam c 𝒱₀ arg3 (Memref.whole main_v0_0) i q ai wm hai x3 f 299 155 11 hl155 hj11 rfl hp300 hn300 w hw300 k0_cond300 (fun _ => rfl) (k0_chk300 i) (k0_chk300.dec i) (k0_off900 i) (fun _ => rfl) (fun _ _ => rfl) rfl) $$ [HS HC S11]
  · isplitl [HS]; · iexact HS
    isplitl [HC]; · iexact HC
    iexact S11
  iintro ⟨HS, HC⟩
  iapply (loadMask_wp c 𝒱₀ i 156 hl156 q wm rfl) $$ HM
  iintro HM %w301 %hw301
  have hp301 : stateAt 300 ⟨156, hl156⟩ = St.pending := show stateAt 300 ⟨156, (by decide : (156 : ℕ) < 256)⟩ = St.pending from by decide
  have hn301 : ∀ l : Fin 256, stateAt 301 l = Function.update (stateAt 300) ⟨156, hl156⟩ St.started l := show ∀ l : Fin 256, stateAt 301 l = Function.update (stateAt 300) ⟨156, (by decide : (156 : ℕ) < 256)⟩ St.started l from by decide
  iapply (start_fam c 𝒱₀ arg3 (Memref.whole main_v0_0) i q ai wm hai x3 f 300 156 12 hl156 hj12 rfl hp301 hn301 w301 hw301 k0_cond301 (fun _ => rfl) (k0_chk301 i) (k0_chk301.dec i) (k0_off903 i) (fun _ => rfl) (fun _ _ => rfl) rfl) $$ [HS HC S12]
  · isplitl [HS]; · iexact HS
    isplitl [HC]; · iexact HC
    iexact S12
  iintro ⟨HS, HC⟩
  iapply (loadMask_wp c 𝒱₀ i 157 hl157 q wm rfl) $$ HM
  iintro HM %w302 %hw302
  have hp302 : stateAt 301 ⟨157, hl157⟩ = St.pending := show stateAt 301 ⟨157, (by decide : (157 : ℕ) < 256)⟩ = St.pending from by decide
  have hn302 : ∀ l : Fin 256, stateAt 302 l = Function.update (stateAt 301) ⟨157, hl157⟩ St.started l := show ∀ l : Fin 256, stateAt 302 l = Function.update (stateAt 301) ⟨157, (by decide : (157 : ℕ) < 256)⟩ St.started l from by decide
  iapply (start_fam c 𝒱₀ arg3 (Memref.whole main_v0_0) i q ai wm hai x3 f 301 157 13 hl157 hj13 rfl hp302 hn302 w302 hw302 k0_cond302 (fun _ => rfl) (k0_chk302 i) (k0_chk302.dec i) (k0_off906 i) (fun _ => rfl) (fun _ _ => rfl) rfl) $$ [HS HC S13]
  · isplitl [HS]; · iexact HS
    isplitl [HC]; · iexact HC
    iexact S13
  iintro ⟨HS, HC⟩
  iapply (loadMask_wp c 𝒱₀ i 158 hl158 q wm rfl) $$ HM
  iintro HM %w303 %hw303
  have hp303 : stateAt 302 ⟨158, hl158⟩ = St.pending := show stateAt 302 ⟨158, (by decide : (158 : ℕ) < 256)⟩ = St.pending from by decide
  have hn303 : ∀ l : Fin 256, stateAt 303 l = Function.update (stateAt 302) ⟨158, hl158⟩ St.started l := show ∀ l : Fin 256, stateAt 303 l = Function.update (stateAt 302) ⟨158, (by decide : (158 : ℕ) < 256)⟩ St.started l from by decide
  iapply (start_fam c 𝒱₀ arg3 (Memref.whole main_v0_0) i q ai wm hai x3 f 302 158 14 hl158 hj14 rfl hp303 hn303 w303 hw303 k0_cond303 (fun _ => rfl) (k0_chk303 i) (k0_chk303.dec i) (k0_off909 i) (fun _ => rfl) (fun _ _ => rfl) rfl) $$ [HS HC S14]
  · isplitl [HS]; · iexact HS
    isplitl [HC]; · iexact HC
    iexact S14
  iintro ⟨HS, HC⟩
  iapply (loadMask_wp c 𝒱₀ i 159 hl159 q wm rfl) $$ HM
  iintro HM %w304 %hw304
  have hp304 : stateAt 303 ⟨159, hl159⟩ = St.pending := show stateAt 303 ⟨159, (by decide : (159 : ℕ) < 256)⟩ = St.pending from by decide
  have hn304 : ∀ l : Fin 256, stateAt 304 l = Function.update (stateAt 303) ⟨159, hl159⟩ St.started l := show ∀ l : Fin 256, stateAt 304 l = Function.update (stateAt 303) ⟨159, (by decide : (159 : ℕ) < 256)⟩ St.started l from by decide
  iapply (start_fam c 𝒱₀ arg3 (Memref.whole main_v0_0) i q ai wm hai x3 f 303 159 15 hl159 hj15 rfl hp304 hn304 w304 hw304 k0_cond304 (fun _ => rfl) (k0_chk304 i) (k0_chk304.dec i) (k0_off912 i) (fun _ => rfl) (fun _ _ => rfl) rfl) $$ [HS HC S15]
  · isplitl [HS]; · iexact HS
    isplitl [HC]; · iexact HC
    iexact S15
  iintro ⟨HS, HC⟩
  iapply (loadMask_wp c 𝒱₀ i 144 hl144 q wm rfl) $$ HM
  iintro HM %w305 %hw305
  have hp305 : stateAt 304 ⟨144, hl144⟩ = St.started := show stateAt 304 ⟨144, (by decide : (144 : ℕ) < 256)⟩ = St.started from by decide
  have hn305 : ∀ l : Fin 256, stateAt 305 l = Function.update (stateAt 304) ⟨144, hl144⟩ St.done l := show ∀ l : Fin 256, stateAt 305 l = Function.update (stateAt 304) ⟨144, (by decide : (144 : ℕ) < 256)⟩ St.done l from by decide
  iapply (wait_fam c 𝒱₀ arg3 (Memref.whole main_v0_0) i q ai wm hai x3 f 304 144 0 hl144 hj0 rfl hp305 hn305 w305 hw305 (k0_off914 i) rfl (k0_off914_inb i) k0_cond305 (fun _ => rfl) (k0_chk305 i) (k0_chk305.dec i) (k0_off915 i) (fun _ => rfl) (fun _ _ h => h) (k0_off915_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W305, HO⟩
  iapply (loadMask_wp c 𝒱₀ i 145 hl145 q wm rfl) $$ HM
  iintro HM %w306 %hw306
  rw [wp_pure]
  imodintro
  isplitr; · ipureintro; exact hw306
  isplitl [HS]; · iexact HS
  isplitl [HM]; · iexact HM
  isplitl [HC]; · iexact HC
  isplitl [S0]; · iexact S0
  iexists _; iexact HO

set_option maxHeartbeats 0 in
/-- Part 52 of the body: steps 306 to 311, and the load of the next step's mask word. -/
theorem part52_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 145 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 305 ∗ semPt c 0 (sem_inb 0 (by decide)) ∗ owes (c : Thread nD τ) 0 W)
      ⊢ wp frame (wpE (defs₀ (F := F)) 𝒱₀ (c : Thread nD τ) none) Set.univ (k0_part52 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 151 (by decide)⌝ ∗ ((c : Thread nD τ).loc main_call0_v12 ↦{q} ai) ∗ ((c : Thread nD τ).loc main_call0_v13 ↦{q} wm) ∗ cells c arg3 (Memref.whole main_v0_0) i ai wm hai x3 f 311 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part52_eq_skeleton]; unfold k0_part52_skel
  iintro ⟨HS, HM, HC, S0, HO⟩
  have hl145 : (145 : ℕ) < 256 := by decide
  have hl146 : (146 : ℕ) < 256 := by decide
  have hl147 : (147 : ℕ) < 256 := by decide
  have hl148 : (148 : ℕ) < 256 := by decide
  have hl149 : (149 : ℕ) < 256 := by decide
  have hl150 : (150 : ℕ) < 256 := by decide
  have hl151 : (151 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw306 : w = wordOf wm i 145 hl145 := hw
  have hp306 : stateAt 305 ⟨145, hl145⟩ = St.started := show stateAt 305 ⟨145, (by decide : (145 : ℕ) < 256)⟩ = St.started from by decide
  have hn306 : ∀ l : Fin 256, stateAt 306 l = Function.update (stateAt 305) ⟨145, hl145⟩ St.done l := show ∀ l : Fin 256, stateAt 306 l = Function.update (stateAt 305) ⟨145, (by decide : (145 : ℕ) < 256)⟩ St.done l from by decide
  iapply (wait_fam c 𝒱₀ arg3 (Memref.whole main_v0_0) i q ai wm hai x3 f 305 145 1 hl145 hj1 rfl hp306 hn306 w hw306 (k0_off917 i) rfl (k0_off917_inb i) k0_cond306 (fun _ => rfl) (k0_chk306 i) (k0_chk306.dec i) (k0_off918 i) (fun _ => rfl) (fun _ _ h => h) (k0_off918_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W306, HO⟩
  iapply (loadMask_wp c 𝒱₀ i 146 hl146 q wm rfl) $$ HM
  iintro HM %w307 %hw307
  have hp307 : stateAt 306 ⟨146, hl146⟩ = St.started := show stateAt 306 ⟨146, (by decide : (146 : ℕ) < 256)⟩ = St.started from by decide
  have hn307 : ∀ l : Fin 256, stateAt 307 l = Function.update (stateAt 306) ⟨146, hl146⟩ St.done l := show ∀ l : Fin 256, stateAt 307 l = Function.update (stateAt 306) ⟨146, (by decide : (146 : ℕ) < 256)⟩ St.done l from by decide
  iapply (wait_fam c 𝒱₀ arg3 (Memref.whole main_v0_0) i q ai wm hai x3 f 306 146 2 hl146 hj2 rfl hp307 hn307 w307 hw307 (k0_off920 i) rfl (k0_off920_inb i) k0_cond307 (fun _ => rfl) (k0_chk307 i) (k0_chk307.dec i) (k0_off921 i) (fun _ => rfl) (fun _ _ h => h) (k0_off921_inb i) ((View.wordExact_bits rfl).reshape _ _) (fun _ _ => (View.wordExact_bits rfl).reshape _ _) _ _ W306) $$ [HS HM HC HO]
  · isplitl [HS]; · iexact HS
    isplitl [HM]; · iexact HM
    isplitl [HC]; · iexact HC
    iexact HO
  iintro ⟨HS, HM, HC, S2, %W307, HO⟩
  iapply (loadMask_wp c 𝒱₀ i 147 hl147 q wm rfl) $$ HM
  iintro HM %w308 %hw308
  have hp308 : stateAt 307 ⟨147, hl147⟩ = St.started := show stateAt 307 ⟨147, (by decide : (147 : ℕ) < 256)⟩ = St.started from by decide
  have hn308 : ∀ l : Fin 256, stateAt 308 l = Function.update (stateAt 307) ⟨147, hl147⟩ St.done l := show ∀ l : Fin 256, stateAt 308 l = Function.update (stateAt 307) ⟨147, (by decide : (147 : ℕ) < 256)⟩ St.done l from by decide
  iapply (wait_fam c 𝒱₀ arg3 (Memref.whole main_v0_0) i q ai wm hai x3 f 307 147 3 hl147 hj3 rfl hp308 hn308 w308 hw308 (k0_off923 i) rfl (k0_off923_inb i) k0_cond308 (fun _ => rfl) (k0_chk308 i) (k0_chk308.dec i) (k0_off924 i) (fun _ => rfl) (fun _ _ h => h) (k0_off924_inb i) ((View.wordExact_bits rfl).reshape _ _) (fun _ _ => (View.wordExact_bits rfl).reshape _ _) _ _ W307) $$ [HS HM HC HO]
  · isplitl [HS]; · iexact HS
    isplitl [HM]; · iexact HM
    isplitl [HC]; · iexact HC
    iexact HO
  iintro ⟨HS, HM, HC, S3, %W308, HO⟩
  iapply (loadMask_wp c 𝒱₀ i 148 hl148 q wm rfl) $$ HM
  iintro HM %w309 %hw309
  have hp309 : stateAt 308 ⟨148, hl148⟩ = St.started := show stateAt 308 ⟨148, (by decide : (148 : ℕ) < 256)⟩ = St.started from by decide
  have hn309 : ∀ l : Fin 256, stateAt 309 l = Function.update (stateAt 308) ⟨148, hl148⟩ St.done l := show ∀ l : Fin 256, stateAt 309 l = Function.update (stateAt 308) ⟨148, (by decide : (148 : ℕ) < 256)⟩ St.done l from by decide
  iapply (wait_fam c 𝒱₀ arg3 (Memref.whole main_v0_0) i q ai wm hai x3 f 308 148 4 hl148 hj4 rfl hp309 hn309 w309 hw309 (k0_off926 i) rfl (k0_off926_inb i) k0_cond309 (fun _ => rfl) (k0_chk309 i) (k0_chk309.dec i) (k0_off927 i) (fun _ => rfl) (fun _ _ h => h) (k0_off927_inb i) ((View.wordExact_bits rfl).reshape _ _) (fun _ _ => (View.wordExact_bits rfl).reshape _ _) _ _ W308) $$ [HS HM HC HO]
  · isplitl [HS]; · iexact HS
    isplitl [HM]; · iexact HM
    isplitl [HC]; · iexact HC
    iexact HO
  iintro ⟨HS, HM, HC, S4, %W309, HO⟩
  iapply (loadMask_wp c 𝒱₀ i 149 hl149 q wm rfl) $$ HM
  iintro HM %w310 %hw310
  have hp310 : stateAt 309 ⟨149, hl149⟩ = St.started := show stateAt 309 ⟨149, (by decide : (149 : ℕ) < 256)⟩ = St.started from by decide
  have hn310 : ∀ l : Fin 256, stateAt 310 l = Function.update (stateAt 309) ⟨149, hl149⟩ St.done l := show ∀ l : Fin 256, stateAt 310 l = Function.update (stateAt 309) ⟨149, (by decide : (149 : ℕ) < 256)⟩ St.done l from by decide
  iapply (wait_fam c 𝒱₀ arg3 (Memref.whole main_v0_0) i q ai wm hai x3 f 309 149 5 hl149 hj5 rfl hp310 hn310 w310 hw310 (k0_off929 i) rfl (k0_off929_inb i) k0_cond310 (fun _ => rfl) (k0_chk310 i) (k0_chk310.dec i) (k0_off930 i) (fun _ => rfl) (fun _ _ h => h) (k0_off930_inb i) ((View.wordExact_bits rfl).reshape _ _) (fun _ _ => (View.wordExact_bits rfl).reshape _ _) _ _ W309) $$ [HS HM HC HO]
  · isplitl [HS]; · iexact HS
    isplitl [HM]; · iexact HM
    isplitl [HC]; · iexact HC
    iexact HO
  iintro ⟨HS, HM, HC, S5, %W310, HO⟩
  iapply (loadMask_wp c 𝒱₀ i 150 hl150 q wm rfl) $$ HM
  iintro HM %w311 %hw311
  have hp311 : stateAt 310 ⟨150, hl150⟩ = St.started := show stateAt 310 ⟨150, (by decide : (150 : ℕ) < 256)⟩ = St.started from by decide
  have hn311 : ∀ l : Fin 256, stateAt 311 l = Function.update (stateAt 310) ⟨150, hl150⟩ St.done l := show ∀ l : Fin 256, stateAt 311 l = Function.update (stateAt 310) ⟨150, (by decide : (150 : ℕ) < 256)⟩ St.done l from by decide
  iapply (wait_fam c 𝒱₀ arg3 (Memref.whole main_v0_0) i q ai wm hai x3 f 310 150 6 hl150 hj6 rfl hp311 hn311 w311 hw311 (k0_off932 i) rfl (k0_off932_inb i) k0_cond311 (fun _ => rfl) (k0_chk311 i) (k0_chk311.dec i) (k0_off933 i) (fun _ => rfl) (fun _ _ h => h) (k0_off933_inb i) ((View.wordExact_bits rfl).reshape _ _) (fun _ _ => (View.wordExact_bits rfl).reshape _ _) _ _ W310) $$ [HS HM HC HO]
  · isplitl [HS]; · iexact HS
    isplitl [HM]; · iexact HM
    isplitl [HC]; · iexact HC
    iexact HO
  iintro ⟨HS, HM, HC, S6, %W311, HO⟩
  iapply (loadMask_wp c 𝒱₀ i 151 hl151 q wm rfl) $$ HM
  iintro HM %w312 %hw312
  rw [wp_pure]
  imodintro
  isplitr; · ipureintro; exact hw312
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 53 of the body: steps 312 to 317, and the load of the next step's mask word. -/
theorem part53_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 151 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 311 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part53 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 157 (by decide)⌝ ∗ ((c : Thread nD τ).loc main_call0_v12 ↦{q} ai) ∗ ((c : Thread nD τ).loc main_call0_v13 ↦{q} wm) ∗ cells c arg3 (Memref.whole main_v0_0) i ai wm hai x3 f 317 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part53_eq_skeleton]; unfold k0_part53_skel
  iintro ⟨HS, HM, HC, S0, S1, S2, S3, S4, S5, S6, HO⟩
  have hl151 : (151 : ℕ) < 256 := by decide
  have hl152 : (152 : ℕ) < 256 := by decide
  have hl153 : (153 : ℕ) < 256 := by decide
  have hl154 : (154 : ℕ) < 256 := by decide
  have hl155 : (155 : ℕ) < 256 := by decide
  have hl156 : (156 : ℕ) < 256 := by decide
  have hl157 : (157 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw312 : w = wordOf wm i 151 hl151 := hw
  have hp312 : stateAt 311 ⟨151, hl151⟩ = St.started := show stateAt 311 ⟨151, (by decide : (151 : ℕ) < 256)⟩ = St.started from by decide
  have hn312 : ∀ l : Fin 256, stateAt 312 l = Function.update (stateAt 311) ⟨151, hl151⟩ St.done l := show ∀ l : Fin 256, stateAt 312 l = Function.update (stateAt 311) ⟨151, (by decide : (151 : ℕ) < 256)⟩ St.done l from by decide
  iapply (wait_fam c 𝒱₀ arg3 (Memref.whole main_v0_0) i q ai wm hai x3 f 311 151 7 hl151 hj7 rfl hp312 hn312 w hw312 (k0_off935 i) rfl (k0_off935_inb i) k0_cond312 (fun _ => rfl) (k0_chk312 i) (k0_chk312.dec i) (k0_off936 i) (fun _ => rfl) (fun _ _ h => h) (k0_off936_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W312, HO⟩
  iapply (loadMask_wp c 𝒱₀ i 152 hl152 q wm rfl) $$ HM
  iintro HM %w313 %hw313
  have hp313 : stateAt 312 ⟨152, hl152⟩ = St.started := show stateAt 312 ⟨152, (by decide : (152 : ℕ) < 256)⟩ = St.started from by decide
  have hn313 : ∀ l : Fin 256, stateAt 313 l = Function.update (stateAt 312) ⟨152, hl152⟩ St.done l := show ∀ l : Fin 256, stateAt 313 l = Function.update (stateAt 312) ⟨152, (by decide : (152 : ℕ) < 256)⟩ St.done l from by decide
  iapply (wait_fam c 𝒱₀ arg3 (Memref.whole main_v0_0) i q ai wm hai x3 f 312 152 8 hl152 hj8 rfl hp313 hn313 w313 hw313 (k0_off938 i) rfl (k0_off938_inb i) k0_cond313 (fun _ => rfl) (k0_chk313 i) (k0_chk313.dec i) (k0_off939 i) (fun _ => rfl) (fun _ _ h => h) (k0_off939_inb i) ((View.wordExact_bits rfl).reshape _ _) (fun _ _ => (View.wordExact_bits rfl).reshape _ _) _ _ W312) $$ [HS HM HC HO]
  · isplitl [HS]; · iexact HS
    isplitl [HM]; · iexact HM
    isplitl [HC]; · iexact HC
    iexact HO
  iintro ⟨HS, HM, HC, S8, %W313, HO⟩
  iapply (loadMask_wp c 𝒱₀ i 153 hl153 q wm rfl) $$ HM
  iintro HM %w314 %hw314
  have hp314 : stateAt 313 ⟨153, hl153⟩ = St.started := show stateAt 313 ⟨153, (by decide : (153 : ℕ) < 256)⟩ = St.started from by decide
  have hn314 : ∀ l : Fin 256, stateAt 314 l = Function.update (stateAt 313) ⟨153, hl153⟩ St.done l := show ∀ l : Fin 256, stateAt 314 l = Function.update (stateAt 313) ⟨153, (by decide : (153 : ℕ) < 256)⟩ St.done l from by decide
  iapply (wait_fam c 𝒱₀ arg3 (Memref.whole main_v0_0) i q ai wm hai x3 f 313 153 9 hl153 hj9 rfl hp314 hn314 w314 hw314 (k0_off941 i) rfl (k0_off941_inb i) k0_cond314 (fun _ => rfl) (k0_chk314 i) (k0_chk314.dec i) (k0_off942 i) (fun _ => rfl) (fun _ _ h => h) (k0_off942_inb i) ((View.wordExact_bits rfl).reshape _ _) (fun _ _ => (View.wordExact_bits rfl).reshape _ _) _ _ W313) $$ [HS HM HC HO]
  · isplitl [HS]; · iexact HS
    isplitl [HM]; · iexact HM
    isplitl [HC]; · iexact HC
    iexact HO
  iintro ⟨HS, HM, HC, S9, %W314, HO⟩
  iapply (loadMask_wp c 𝒱₀ i 154 hl154 q wm rfl) $$ HM
  iintro HM %w315 %hw315
  have hp315 : stateAt 314 ⟨154, hl154⟩ = St.started := show stateAt 314 ⟨154, (by decide : (154 : ℕ) < 256)⟩ = St.started from by decide
  have hn315 : ∀ l : Fin 256, stateAt 315 l = Function.update (stateAt 314) ⟨154, hl154⟩ St.done l := show ∀ l : Fin 256, stateAt 315 l = Function.update (stateAt 314) ⟨154, (by decide : (154 : ℕ) < 256)⟩ St.done l from by decide
  iapply (wait_fam c 𝒱₀ arg3 (Memref.whole main_v0_0) i q ai wm hai x3 f 314 154 10 hl154 hj10 rfl hp315 hn315 w315 hw315 (k0_off944 i) rfl (k0_off944_inb i) k0_cond315 (fun _ => rfl) (k0_chk315 i) (k0_chk315.dec i) (k0_off945 i) (fun _ => rfl) (fun _ _ h => h) (k0_off945_inb i) ((View.wordExact_bits rfl).reshape _ _) (fun _ _ => (View.wordExact_bits rfl).reshape _ _) _ _ W314) $$ [HS HM HC HO]
  · isplitl [HS]; · iexact HS
    isplitl [HM]; · iexact HM
    isplitl [HC]; · iexact HC
    iexact HO
  iintro ⟨HS, HM, HC, S10, %W315, HO⟩
  iapply (loadMask_wp c 𝒱₀ i 155 hl155 q wm rfl) $$ HM
  iintro HM %w316 %hw316
  have hp316 : stateAt 315 ⟨155, hl155⟩ = St.started := show stateAt 315 ⟨155, (by decide : (155 : ℕ) < 256)⟩ = St.started from by decide
  have hn316 : ∀ l : Fin 256, stateAt 316 l = Function.update (stateAt 315) ⟨155, hl155⟩ St.done l := show ∀ l : Fin 256, stateAt 316 l = Function.update (stateAt 315) ⟨155, (by decide : (155 : ℕ) < 256)⟩ St.done l from by decide
  iapply (wait_fam c 𝒱₀ arg3 (Memref.whole main_v0_0) i q ai wm hai x3 f 315 155 11 hl155 hj11 rfl hp316 hn316 w316 hw316 (k0_off947 i) rfl (k0_off947_inb i) k0_cond316 (fun _ => rfl) (k0_chk316 i) (k0_chk316.dec i) (k0_off948 i) (fun _ => rfl) (fun _ _ h => h) (k0_off948_inb i) ((View.wordExact_bits rfl).reshape _ _) (fun _ _ => (View.wordExact_bits rfl).reshape _ _) _ _ W315) $$ [HS HM HC HO]
  · isplitl [HS]; · iexact HS
    isplitl [HM]; · iexact HM
    isplitl [HC]; · iexact HC
    iexact HO
  iintro ⟨HS, HM, HC, S11, %W316, HO⟩
  iapply (loadMask_wp c 𝒱₀ i 156 hl156 q wm rfl) $$ HM
  iintro HM %w317 %hw317
  have hp317 : stateAt 316 ⟨156, hl156⟩ = St.started := show stateAt 316 ⟨156, (by decide : (156 : ℕ) < 256)⟩ = St.started from by decide
  have hn317 : ∀ l : Fin 256, stateAt 317 l = Function.update (stateAt 316) ⟨156, hl156⟩ St.done l := show ∀ l : Fin 256, stateAt 317 l = Function.update (stateAt 316) ⟨156, (by decide : (156 : ℕ) < 256)⟩ St.done l from by decide
  iapply (wait_fam c 𝒱₀ arg3 (Memref.whole main_v0_0) i q ai wm hai x3 f 316 156 12 hl156 hj12 rfl hp317 hn317 w317 hw317 (k0_off950 i) rfl (k0_off950_inb i) k0_cond317 (fun _ => rfl) (k0_chk317 i) (k0_chk317.dec i) (k0_off951 i) (fun _ => rfl) (fun _ _ h => h) (k0_off951_inb i) ((View.wordExact_bits rfl).reshape _ _) (fun _ _ => (View.wordExact_bits rfl).reshape _ _) _ _ W316) $$ [HS HM HC HO]
  · isplitl [HS]; · iexact HS
    isplitl [HM]; · iexact HM
    isplitl [HC]; · iexact HC
    iexact HO
  iintro ⟨HS, HM, HC, S12, %W317, HO⟩
  iapply (loadMask_wp c 𝒱₀ i 157 hl157 q wm rfl) $$ HM
  iintro HM %w318 %hw318
  rw [wp_pure]
  imodintro
  isplitr; · ipureintro; exact hw318
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 54 of the body: steps 318 to 323, and the load of the next step's mask word. -/
theorem part54_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 157 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 317 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part54 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 163 (by decide)⌝ ∗ ((c : Thread nD τ).loc main_call0_v12 ↦{q} ai) ∗ ((c : Thread nD τ).loc main_call0_v13 ↦{q} wm) ∗ cells c arg3 (Memref.whole main_v0_0) i ai wm hai x3 f 323 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part54_eq_skeleton]; unfold k0_part54_skel
  iintro ⟨HS, HM, HC, S0, S1, S2, S3, S4, S5, S6, S7, S8, S9, S10, S11, S12, HO⟩
  have hl157 : (157 : ℕ) < 256 := by decide
  have hl158 : (158 : ℕ) < 256 := by decide
  have hl159 : (159 : ℕ) < 256 := by decide
  have hl160 : (160 : ℕ) < 256 := by decide
  have hl161 : (161 : ℕ) < 256 := by decide
  have hl162 : (162 : ℕ) < 256 := by decide
  have hl163 : (163 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw318 : w = wordOf wm i 157 hl157 := hw
  have hp318 : stateAt 317 ⟨157, hl157⟩ = St.started := show stateAt 317 ⟨157, (by decide : (157 : ℕ) < 256)⟩ = St.started from by decide
  have hn318 : ∀ l : Fin 256, stateAt 318 l = Function.update (stateAt 317) ⟨157, hl157⟩ St.done l := show ∀ l : Fin 256, stateAt 318 l = Function.update (stateAt 317) ⟨157, (by decide : (157 : ℕ) < 256)⟩ St.done l from by decide
  iapply (wait_fam c 𝒱₀ arg3 (Memref.whole main_v0_0) i q ai wm hai x3 f 317 157 13 hl157 hj13 rfl hp318 hn318 w hw318 (k0_off953 i) rfl (k0_off953_inb i) k0_cond318 (fun _ => rfl) (k0_chk318 i) (k0_chk318.dec i) (k0_off954 i) (fun _ => rfl) (fun _ _ h => h) (k0_off954_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W318, HO⟩
  iapply (loadMask_wp c 𝒱₀ i 158 hl158 q wm rfl) $$ HM
  iintro HM %w319 %hw319
  have hp319 : stateAt 318 ⟨158, hl158⟩ = St.started := show stateAt 318 ⟨158, (by decide : (158 : ℕ) < 256)⟩ = St.started from by decide
  have hn319 : ∀ l : Fin 256, stateAt 319 l = Function.update (stateAt 318) ⟨158, hl158⟩ St.done l := show ∀ l : Fin 256, stateAt 319 l = Function.update (stateAt 318) ⟨158, (by decide : (158 : ℕ) < 256)⟩ St.done l from by decide
  iapply (wait_fam c 𝒱₀ arg3 (Memref.whole main_v0_0) i q ai wm hai x3 f 318 158 14 hl158 hj14 rfl hp319 hn319 w319 hw319 (k0_off956 i) rfl (k0_off956_inb i) k0_cond319 (fun _ => rfl) (k0_chk319 i) (k0_chk319.dec i) (k0_off957 i) (fun _ => rfl) (fun _ _ h => h) (k0_off957_inb i) ((View.wordExact_bits rfl).reshape _ _) (fun _ _ => (View.wordExact_bits rfl).reshape _ _) _ _ W318) $$ [HS HM HC HO]
  · isplitl [HS]; · iexact HS
    isplitl [HM]; · iexact HM
    isplitl [HC]; · iexact HC
    iexact HO
  iintro ⟨HS, HM, HC, S14, %W319, HO⟩
  iapply (loadMask_wp c 𝒱₀ i 159 hl159 q wm rfl) $$ HM
  iintro HM %w320 %hw320
  have hp320 : stateAt 319 ⟨159, hl159⟩ = St.started := show stateAt 319 ⟨159, (by decide : (159 : ℕ) < 256)⟩ = St.started from by decide
  have hn320 : ∀ l : Fin 256, stateAt 320 l = Function.update (stateAt 319) ⟨159, hl159⟩ St.done l := show ∀ l : Fin 256, stateAt 320 l = Function.update (stateAt 319) ⟨159, (by decide : (159 : ℕ) < 256)⟩ St.done l from by decide
  iapply (wait_fam c 𝒱₀ arg3 (Memref.whole main_v0_0) i q ai wm hai x3 f 319 159 15 hl159 hj15 rfl hp320 hn320 w320 hw320 (k0_off959 i) rfl (k0_off959_inb i) k0_cond320 (fun _ => rfl) (k0_chk320 i) (k0_chk320.dec i) (k0_off960 i) (fun _ => rfl) (fun _ _ h => h) (k0_off960_inb i) ((View.wordExact_bits rfl).reshape _ _) (fun _ _ => (View.wordExact_bits rfl).reshape _ _) _ _ W319) $$ [HS HM HC HO]
  · isplitl [HS]; · iexact HS
    isplitl [HM]; · iexact HM
    isplitl [HC]; · iexact HC
    iexact HO
  iintro ⟨HS, HM, HC, S15, %W320, HO⟩
  iapply (loadMask_wp c 𝒱₀ i 160 hl160 q wm rfl) $$ HM
  iintro HM %w321 %hw321
  have hp321 : stateAt 320 ⟨160, hl160⟩ = St.pending := show stateAt 320 ⟨160, (by decide : (160 : ℕ) < 256)⟩ = St.pending from by decide
  have hn321 : ∀ l : Fin 256, stateAt 321 l = Function.update (stateAt 320) ⟨160, hl160⟩ St.started l := show ∀ l : Fin 256, stateAt 321 l = Function.update (stateAt 320) ⟨160, (by decide : (160 : ℕ) < 256)⟩ St.started l from by decide
  iapply (start_fam c 𝒱₀ arg3 (Memref.whole main_v0_0) i q ai wm hai x3 f 320 160 0 hl160 hj0 rfl hp321 hn321 w321 hw321 k0_cond321 (fun _ => rfl) (k0_chk321 i) (k0_chk321.dec i) (k0_off963 i) (fun _ => rfl) (fun _ _ => rfl) rfl) $$ [HS HC S0]
  · isplitl [HS]; · iexact HS
    isplitl [HC]; · iexact HC
    iexact S0
  iintro ⟨HS, HC⟩
  iapply (loadMask_wp c 𝒱₀ i 161 hl161 q wm rfl) $$ HM
  iintro HM %w322 %hw322
  have hp322 : stateAt 321 ⟨161, hl161⟩ = St.pending := show stateAt 321 ⟨161, (by decide : (161 : ℕ) < 256)⟩ = St.pending from by decide
  have hn322 : ∀ l : Fin 256, stateAt 322 l = Function.update (stateAt 321) ⟨161, hl161⟩ St.started l := show ∀ l : Fin 256, stateAt 322 l = Function.update (stateAt 321) ⟨161, (by decide : (161 : ℕ) < 256)⟩ St.started l from by decide
  iapply (start_fam c 𝒱₀ arg3 (Memref.whole main_v0_0) i q ai wm hai x3 f 321 161 1 hl161 hj1 rfl hp322 hn322 w322 hw322 k0_cond322 (fun _ => rfl) (k0_chk322 i) (k0_chk322.dec i) (k0_off966 i) (fun _ => rfl) (fun _ _ => rfl) rfl) $$ [HS HC S1]
  · isplitl [HS]; · iexact HS
    isplitl [HC]; · iexact HC
    iexact S1
  iintro ⟨HS, HC⟩
  iapply (loadMask_wp c 𝒱₀ i 162 hl162 q wm rfl) $$ HM
  iintro HM %w323 %hw323
  have hp323 : stateAt 322 ⟨162, hl162⟩ = St.pending := show stateAt 322 ⟨162, (by decide : (162 : ℕ) < 256)⟩ = St.pending from by decide
  have hn323 : ∀ l : Fin 256, stateAt 323 l = Function.update (stateAt 322) ⟨162, hl162⟩ St.started l := show ∀ l : Fin 256, stateAt 323 l = Function.update (stateAt 322) ⟨162, (by decide : (162 : ℕ) < 256)⟩ St.started l from by decide
  iapply (start_fam c 𝒱₀ arg3 (Memref.whole main_v0_0) i q ai wm hai x3 f 322 162 2 hl162 hj2 rfl hp323 hn323 w323 hw323 k0_cond323 (fun _ => rfl) (k0_chk323 i) (k0_chk323.dec i) (k0_off969 i) (fun _ => rfl) (fun _ _ => rfl) rfl) $$ [HS HC S2]
  · isplitl [HS]; · iexact HS
    isplitl [HC]; · iexact HC
    iexact S2
  iintro ⟨HS, HC⟩
  iapply (loadMask_wp c 𝒱₀ i 163 hl163 q wm rfl) $$ HM
  iintro HM %w324 %hw324
  rw [wp_pure]
  imodintro
  isplitr; · ipureintro; exact hw324
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 55 of the body: steps 324 to 329, and the load of the next step's mask word. -/
theorem part55_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 163 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 323 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part55 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 169 (by decide)⌝ ∗ ((c : Thread nD τ).loc main_call0_v12 ↦{q} ai) ∗ ((c : Thread nD τ).loc main_call0_v13 ↦{q} wm) ∗ cells c arg3 (Memref.whole main_v0_0) i ai wm hai x3 f 329 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part55_eq_skeleton]; unfold k0_part55_skel
  iintro ⟨HS, HM, HC, S3, S4, S5, S6, S7, S8, S9, S10, S11, S12, S13, S14, S15, HO⟩
  have hl163 : (163 : ℕ) < 256 := by decide
  have hl164 : (164 : ℕ) < 256 := by decide
  have hl165 : (165 : ℕ) < 256 := by decide
  have hl166 : (166 : ℕ) < 256 := by decide
  have hl167 : (167 : ℕ) < 256 := by decide
  have hl168 : (168 : ℕ) < 256 := by decide
  have hl169 : (169 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw324 : w = wordOf wm i 163 hl163 := hw
  have hp324 : stateAt 323 ⟨163, hl163⟩ = St.pending := show stateAt 323 ⟨163, (by decide : (163 : ℕ) < 256)⟩ = St.pending from by decide
  have hn324 : ∀ l : Fin 256, stateAt 324 l = Function.update (stateAt 323) ⟨163, hl163⟩ St.started l := show ∀ l : Fin 256, stateAt 324 l = Function.update (stateAt 323) ⟨163, (by decide : (163 : ℕ) < 256)⟩ St.started l from by decide
  iapply (start_fam c 𝒱₀ arg3 (Memref.whole main_v0_0) i q ai wm hai x3 f 323 163 3 hl163 hj3 rfl hp324 hn324 w hw324 k0_cond324 (fun _ => rfl) (k0_chk324 i) (k0_chk324.dec i) (k0_off972 i) (fun _ => rfl) (fun _ _ => rfl) rfl) $$ [HS HC S3]
  · isplitl [HS]; · iexact HS
    isplitl [HC]; · iexact HC
    iexact S3
  iintro ⟨HS, HC⟩
  iapply (loadMask_wp c 𝒱₀ i 164 hl164 q wm rfl) $$ HM
  iintro HM %w325 %hw325
  have hp325 : stateAt 324 ⟨164, hl164⟩ = St.pending := show stateAt 324 ⟨164, (by decide : (164 : ℕ) < 256)⟩ = St.pending from by decide
  have hn325 : ∀ l : Fin 256, stateAt 325 l = Function.update (stateAt 324) ⟨164, hl164⟩ St.started l := show ∀ l : Fin 256, stateAt 325 l = Function.update (stateAt 324) ⟨164, (by decide : (164 : ℕ) < 256)⟩ St.started l from by decide
  iapply (start_fam c 𝒱₀ arg3 (Memref.whole main_v0_0) i q ai wm hai x3 f 324 164 4 hl164 hj4 rfl hp325 hn325 w325 hw325 k0_cond325 (fun _ => rfl) (k0_chk325 i) (k0_chk325.dec i) (k0_off975 i) (fun _ => rfl) (fun _ _ => rfl) rfl) $$ [HS HC S4]
  · isplitl [HS]; · iexact HS
    isplitl [HC]; · iexact HC
    iexact S4
  iintro ⟨HS, HC⟩
  iapply (loadMask_wp c 𝒱₀ i 165 hl165 q wm rfl) $$ HM
  iintro HM %w326 %hw326
  have hp326 : stateAt 325 ⟨165, hl165⟩ = St.pending := show stateAt 325 ⟨165, (by decide : (165 : ℕ) < 256)⟩ = St.pending from by decide
  have hn326 : ∀ l : Fin 256, stateAt 326 l = Function.update (stateAt 325) ⟨165, hl165⟩ St.started l := show ∀ l : Fin 256, stateAt 326 l = Function.update (stateAt 325) ⟨165, (by decide : (165 : ℕ) < 256)⟩ St.started l from by decide
  iapply (start_fam c 𝒱₀ arg3 (Memref.whole main_v0_0) i q ai wm hai x3 f 325 165 5 hl165 hj5 rfl hp326 hn326 w326 hw326 k0_cond326 (fun _ => rfl) (k0_chk326 i) (k0_chk326.dec i) (k0_off978 i) (fun _ => rfl) (fun _ _ => rfl) rfl) $$ [HS HC S5]
  · isplitl [HS]; · iexact HS
    isplitl [HC]; · iexact HC
    iexact S5
  iintro ⟨HS, HC⟩
  iapply (loadMask_wp c 𝒱₀ i 166 hl166 q wm rfl) $$ HM
  iintro HM %w327 %hw327
  have hp327 : stateAt 326 ⟨166, hl166⟩ = St.pending := show stateAt 326 ⟨166, (by decide : (166 : ℕ) < 256)⟩ = St.pending from by decide
  have hn327 : ∀ l : Fin 256, stateAt 327 l = Function.update (stateAt 326) ⟨166, hl166⟩ St.started l := show ∀ l : Fin 256, stateAt 327 l = Function.update (stateAt 326) ⟨166, (by decide : (166 : ℕ) < 256)⟩ St.started l from by decide
  iapply (start_fam c 𝒱₀ arg3 (Memref.whole main_v0_0) i q ai wm hai x3 f 326 166 6 hl166 hj6 rfl hp327 hn327 w327 hw327 k0_cond327 (fun _ => rfl) (k0_chk327 i) (k0_chk327.dec i) (k0_off981 i) (fun _ => rfl) (fun _ _ => rfl) rfl) $$ [HS HC S6]
  · isplitl [HS]; · iexact HS
    isplitl [HC]; · iexact HC
    iexact S6
  iintro ⟨HS, HC⟩
  iapply (loadMask_wp c 𝒱₀ i 167 hl167 q wm rfl) $$ HM
  iintro HM %w328 %hw328
  have hp328 : stateAt 327 ⟨167, hl167⟩ = St.pending := show stateAt 327 ⟨167, (by decide : (167 : ℕ) < 256)⟩ = St.pending from by decide
  have hn328 : ∀ l : Fin 256, stateAt 328 l = Function.update (stateAt 327) ⟨167, hl167⟩ St.started l := show ∀ l : Fin 256, stateAt 328 l = Function.update (stateAt 327) ⟨167, (by decide : (167 : ℕ) < 256)⟩ St.started l from by decide
  iapply (start_fam c 𝒱₀ arg3 (Memref.whole main_v0_0) i q ai wm hai x3 f 327 167 7 hl167 hj7 rfl hp328 hn328 w328 hw328 k0_cond328 (fun _ => rfl) (k0_chk328 i) (k0_chk328.dec i) (k0_off984 i) (fun _ => rfl) (fun _ _ => rfl) rfl) $$ [HS HC S7]
  · isplitl [HS]; · iexact HS
    isplitl [HC]; · iexact HC
    iexact S7
  iintro ⟨HS, HC⟩
  iapply (loadMask_wp c 𝒱₀ i 168 hl168 q wm rfl) $$ HM
  iintro HM %w329 %hw329
  have hp329 : stateAt 328 ⟨168, hl168⟩ = St.pending := show stateAt 328 ⟨168, (by decide : (168 : ℕ) < 256)⟩ = St.pending from by decide
  have hn329 : ∀ l : Fin 256, stateAt 329 l = Function.update (stateAt 328) ⟨168, hl168⟩ St.started l := show ∀ l : Fin 256, stateAt 329 l = Function.update (stateAt 328) ⟨168, (by decide : (168 : ℕ) < 256)⟩ St.started l from by decide
  iapply (start_fam c 𝒱₀ arg3 (Memref.whole main_v0_0) i q ai wm hai x3 f 328 168 8 hl168 hj8 rfl hp329 hn329 w329 hw329 k0_cond329 (fun _ => rfl) (k0_chk329 i) (k0_chk329.dec i) (k0_off987 i) (fun _ => rfl) (fun _ _ => rfl) rfl) $$ [HS HC S8]
  · isplitl [HS]; · iexact HS
    isplitl [HC]; · iexact HC
    iexact S8
  iintro ⟨HS, HC⟩
  iapply (loadMask_wp c 𝒱₀ i 169 hl169 q wm rfl) $$ HM
  iintro HM %w330 %hw330
  rw [wp_pure]
  imodintro
  isplitr; · ipureintro; exact hw330
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

end Cert.Kernel.Cells

end
-- ==== Proof.Parts6Bits.lean ====
/-
  Parts 56 to 66 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyBits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 56 of the body: steps 330 to 335, and the load of the next step's mask word. -/
theorem part56_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 169 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 329 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part56 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 175 (by decide)⌝ ∗ ((c : Thread nD τ).loc main_call0_v12 ↦{q} ai) ∗ ((c : Thread nD τ).loc main_call0_v13 ↦{q} wm) ∗ cells c arg3 (Memref.whole main_v0_0) i ai wm hai x3 f 335 ∗ semPt c 15 (sem_inb 15 (by decide)) ∗ ∃ W', owes (c : Thread nD τ) 0 W')) := by
  rw [k0_part56_eq_skeleton]; unfold k0_part56_skel
  iintro ⟨HS, HM, HC, S9, S10, S11, S12, S13, S14, S15, HO⟩
  have hl169 : (169 : ℕ) < 256 := by decide
  have hl170 : (170 : ℕ) < 256 := by decide
  have hl171 : (171 : ℕ) < 256 := by decide
  have hl172 : (172 : ℕ) < 256 := by decide
  have hl173 : (173 : ℕ) < 256 := by decide
  have hl174 : (174 : ℕ) < 256 := by decide
  have hl175 : (175 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw330 : w = wordOf wm i 169 hl169 := hw
  have hp330 : stateAt 329 ⟨169, hl169⟩ = St.pending := show stateAt 329 ⟨169, (by decide : (169 : ℕ) < 256)⟩ = St.pending from by decide
  have hn330 : ∀ l : Fin 256, stateAt 330 l = Function.update (stateAt 329) ⟨169, hl169⟩ St.started l := show ∀ l : Fin 256, stateAt 330 l = Function.update (stateAt 329) ⟨169, (by decide : (169 : ℕ) < 256)⟩ St.started l from by decide
  iapply (start_fam c 𝒱₀ arg3 (Memref.whole main_v0_0) i q ai wm hai x3 f 329 169 9 hl169 hj9 rfl hp330 hn330 w hw330 k0_cond330 (fun _ => rfl) (k0_chk330 i) (k0_chk330.dec i) (k0_off990 i) (fun _ => rfl) (fun _ _ => rfl) rfl) $$ [HS HC S9]
  · isplitl [HS]; · iexact HS
    isplitl [HC]; · iexact HC
    iexact S9
  iintro ⟨HS, HC⟩
  iapply (loadMask_wp c 𝒱₀ i 170 hl170 q wm rfl) $$ HM
  iintro HM %w331 %hw331
  have hp331 : stateAt 330 ⟨170, hl170⟩ = St.pending := show stateAt 330 ⟨170, (by decide : (170 : ℕ) < 256)⟩ = St.pending from by decide
  have hn331 : ∀ l : Fin 256, stateAt 331 l = Function.update (stateAt 330) ⟨170, hl170⟩ St.started l := show ∀ l : Fin 256, stateAt 331 l = Function.update (stateAt 330) ⟨170, (by decide : (170 : ℕ) < 256)⟩ St.started l from by decide
  iapply (start_fam c 𝒱₀ arg3 (Memref.whole main_v0_0) i q ai wm hai x3 f 330 170 10 hl170 hj10 rfl hp331 hn331 w331 hw331 k0_cond331 (fun _ => rfl) (k0_chk331 i) (k0_chk331.dec i) (k0_off993 i) (fun _ => rfl) (fun _ _ => rfl) rfl) $$ [HS HC S10]
  · isplitl [HS]; · iexact HS
    isplitl [HC]; · iexact HC
    iexact S10
  iintro ⟨HS, HC⟩
  iapply (loadMask_wp c 𝒱₀ i 171 hl171 q wm rfl) $$ HM
  iintro HM %w332 %hw332
  have hp332 : stateAt 331 ⟨171, hl171⟩ = St.pending := show stateAt 331 ⟨171, (by decide : (171 : ℕ) < 256)⟩ = St.pending from by decide
  have hn332 : ∀ l : Fin 256, stateAt 332 l = Function.update (stateAt 331) ⟨171, hl171⟩ St.started l := show ∀ l : Fin 256, stateAt 332 l = Function.update (stateAt 331) ⟨171, (by decide : (171 : ℕ) < 256)⟩ St.started l from by decide
  iapply (start_fam c 𝒱₀ arg3 (Memref.whole main_v0_0) i q ai wm hai x3 f 331 171 11 hl171 hj11 rfl hp332 hn332 w332 hw332 k0_cond332 (fun _ => rfl) (k0_chk332 i) (k0_chk332.dec i) (k0_off996 i) (fun _ => rfl) (fun _ _ => rfl) rfl) $$ [HS HC S11]
  · isplitl [HS]; · iexact HS
    isplitl [HC]; · iexact HC
    iexact S11
  iintro ⟨HS, HC⟩
  iapply (loadMask_wp c 𝒱₀ i 172 hl172 q wm rfl) $$ HM
  iintro HM %w333 %hw333
  have hp333 : stateAt 332 ⟨172, hl172⟩ = St.pending := show stateAt 332 ⟨172, (by decide : (172 : ℕ) < 256)⟩ = St.pending from by decide
  have hn333 : ∀ l : Fin 256, stateAt 333 l = Function.update (stateAt 332) ⟨172, hl172⟩ St.started l := show ∀ l : Fin 256, stateAt 333 l = Function.update (stateAt 332) ⟨172, (by decide : (172 : ℕ) < 256)⟩ St.started l from by decide
  iapply (start_fam c 𝒱₀ arg3 (Memref.whole main_v0_0) i q ai wm hai x3 f 332 172 12 hl172 hj12 rfl hp333 hn333 w333 hw333 k0_cond333 (fun _ => rfl) (k0_chk333 i) (k0_chk333.dec i) (k0_off999 i) (fun _ => rfl) (fun _ _ => rfl) rfl) $$ [HS HC S12]
  · isplitl [HS]; · iexact HS
    isplitl [HC]; · iexact HC
    iexact S12
  iintro ⟨HS, HC⟩
  iapply (loadMask_wp c 𝒱₀ i 173 hl173 q wm rfl) $$ HM
  iintro HM %w334 %hw334
  have hp334 : stateAt 333 ⟨173, hl173⟩ = St.pending := show stateAt 333 ⟨173, (by decide : (173 : ℕ) < 256)⟩ = St.pending from by decide
  have hn334 : ∀ l : Fin 256, stateAt 334 l = Function.update (stateAt 333) ⟨173, hl173⟩ St.started l := show ∀ l : Fin 256, stateAt 334 l = Function.update (stateAt 333) ⟨173, (by decide : (173 : ℕ) < 256)⟩ St.started l from by decide
  iapply (start_fam c 𝒱₀ arg3 (Memref.whole main_v0_0) i q ai wm hai x3 f 333 173 13 hl173 hj13 rfl hp334 hn334 w334 hw334 k0_cond334 (fun _ => rfl) (k0_chk334 i) (k0_chk334.dec i) (k0_off1002 i) (fun _ => rfl) (fun _ _ => rfl) rfl) $$ [HS HC S13]
  · isplitl [HS]; · iexact HS
    isplitl [HC]; · iexact HC
    iexact S13
  iintro ⟨HS, HC⟩
  iapply (loadMask_wp c 𝒱₀ i 174 hl174 q wm rfl) $$ HM
  iintro HM %w335 %hw335
  have hp335 : stateAt 334 ⟨174, hl174⟩ = St.pending := show stateAt 334 ⟨174, (by decide : (174 : ℕ) < 256)⟩ = St.pending from by decide
  have hn335 : ∀ l : Fin 256, stateAt 335 l = Function.update (stateAt 334) ⟨174, hl174⟩ St.started l := show ∀ l : Fin 256, stateAt 335 l = Function.update (stateAt 334) ⟨174, (by decide : (174 : ℕ) < 256)⟩ St.started l from by decide
  iapply (start_fam c 𝒱₀ arg3 (Memref.whole main_v0_0) i q ai wm hai x3 f 334 174 14 hl174 hj14 rfl hp335 hn335 w335 hw335 k0_cond335 (fun _ => rfl) (k0_chk335 i) (k0_chk335.dec i) (k0_off1005 i) (fun _ => rfl) (fun _ _ => rfl) rfl) $$ [HS HC S14]
  · isplitl [HS]; · iexact HS
    isplitl [HC]; · iexact HC
    iexact S14
  iintro ⟨HS, HC⟩
  iapply (loadMask_wp c 𝒱₀ i 175 hl175 q wm rfl) $$ HM
  iintro HM %w336 %hw336
  rw [wp_pure]
  imodintro
  isplitr; · ipureintro; exact hw336
  isplitl [HS]; · iexact HS
  isplitl [HM]; · iexact HM
  isplitl [HC]; · iexact HC
  isplitl [S15]; · iexact S15
  iexists _; iexact HO

set_option maxHeartbeats 0 in
/-- Part 57 of the body: steps 336 to 341, and the load of the next step's mask word. -/
theorem part57_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 175 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 335 ∗ semPt c 15 (sem_inb 15 (by decide)) ∗ owes (c : Thread nD τ) 0 W)
      ⊢ wp frame (wpE (defs₀ (F := F)) 𝒱₀ (c : Thread nD τ) none) Set.univ (k0_part57 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 165 (by decide)⌝ ∗ ((c : Thread nD τ).loc main_call0_v12 ↦{q} ai) ∗ ((c : Thread nD τ).loc main_call0_v13 ↦{q} wm) ∗ cells c arg3 (Memref.whole main_v0_0) i ai wm hai x3 f 341 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part57_eq_skeleton]; unfold k0_part57_skel
  iintro ⟨HS, HM, HC, S15, HO⟩
  have hl160 : (160 : ℕ) < 256 := by decide
  have hl161 : (161 : ℕ) < 256 := by decide
  have hl162 : (162 : ℕ) < 256 := by decide
  have hl163 : (163 : ℕ) < 256 := by decide
  have hl164 : (164 : ℕ) < 256 := by decide
  have hl165 : (165 : ℕ) < 256 := by decide
  have hl175 : (175 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw336 : w = wordOf wm i 175 hl175 := hw
  have hp336 : stateAt 335 ⟨175, hl175⟩ = St.pending := show stateAt 335 ⟨175, (by decide : (175 : ℕ) < 256)⟩ = St.pending from by decide
  have hn336 : ∀ l : Fin 256, stateAt 336 l = Function.update (stateAt 335) ⟨175, hl175⟩ St.started l := show ∀ l : Fin 256, stateAt 336 l = Function.update (stateAt 335) ⟨175, (by decide : (175 : ℕ) < 256)⟩ St.started l from by decide
  iapply (start_fam c 𝒱₀ arg3 (Memref.whole main_v0_0) i q ai wm hai x3 f 335 175 15 hl175 hj15 rfl hp336 hn336 w hw336 k0_cond336 (fun _ => rfl) (k0_chk336 i) (k0_chk336.dec i) (k0_off1008 i) (fun _ => rfl) (fun _ _ => rfl) rfl) $$ [HS HC S15]
  · isplitl [HS]; · iexact HS
    isplitl [HC]; · iexact HC
    iexact S15
  iintro ⟨HS, HC⟩
  iapply (loadMask_wp c 𝒱₀ i 160 hl160 q wm rfl) $$ HM
  iintro HM %w337 %hw337
  have hp337 : stateAt 336 ⟨160, hl160⟩ = St.started := show stateAt 336 ⟨160, (by decide : (160 : ℕ) < 256)⟩ = St.started from by decide
  have hn337 : ∀ l : Fin 256, stateAt 337 l = Function.update (stateAt 336) ⟨160, hl160⟩ St.done l := show ∀ l : Fin 256, stateAt 337 l = Function.update (stateAt 336) ⟨160, (by decide : (160 : ℕ) < 256)⟩ St.done l from by decide
  iapply (wait_fam c 𝒱₀ arg3 (Memref.whole main_v0_0) i q ai wm hai x3 f 336 160 0 hl160 hj0 rfl hp337 hn337 w337 hw337 (k0_off1010 i) rfl (k0_off1010_inb i) k0_cond337 (fun _ => rfl) (k0_chk337 i) (k0_chk337.dec i) (k0_off1011 i) (fun _ => rfl) (fun _ _ h => h) (k0_off1011_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W337, HO⟩
  iapply (loadMask_wp c 𝒱₀ i 161 hl161 q wm rfl) $$ HM
  iintro HM %w338 %hw338
  have hp338 : stateAt 337 ⟨161, hl161⟩ = St.started := show stateAt 337 ⟨161, (by decide : (161 : ℕ) < 256)⟩ = St.started from by decide
  have hn338 : ∀ l : Fin 256, stateAt 338 l = Function.update (stateAt 337) ⟨161, hl161⟩ St.done l := show ∀ l : Fin 256, stateAt 338 l = Function.update (stateAt 337) ⟨161, (by decide : (161 : ℕ) < 256)⟩ St.done l from by decide
  iapply (wait_fam c 𝒱₀ arg3 (Memref.whole main_v0_0) i q ai wm hai x3 f 337 161 1 hl161 hj1 rfl hp338 hn338 w338 hw338 (k0_off1013 i) rfl (k0_off1013_inb i) k0_cond338 (fun _ => rfl) (k0_chk338 i) (k0_chk338.dec i) (k0_off1014 i) (fun _ => rfl) (fun _ _ h => h) (k0_off1014_inb i) ((View.wordExact_bits rfl).reshape _ _) (fun _ _ => (View.wordExact_bits rfl).reshape _ _) _ _ W337) $$ [HS HM HC HO]
  · isplitl [HS]; · iexact HS
    isplitl [HM]; · iexact HM
    isplitl [HC]; · iexact HC
    iexact HO
  iintro ⟨HS, HM, HC, S1, %W338, HO⟩
  iapply (loadMask_wp c 𝒱₀ i 162 hl162 q wm rfl) $$ HM
  iintro HM %w339 %hw339
  have hp339 : stateAt 338 ⟨162, hl162⟩ = St.started := show stateAt 338 ⟨162, (by decide : (162 : ℕ) < 256)⟩ = St.started from by decide
  have hn339 : ∀ l : Fin 256, stateAt 339 l = Function.update (stateAt 338) ⟨162, hl162⟩ St.done l := show ∀ l : Fin 256, stateAt 339 l = Function.update (stateAt 338) ⟨162, (by decide : (162 : ℕ) < 256)⟩ St.done l from by decide
  iapply (wait_fam c 𝒱₀ arg3 (Memref.whole main_v0_0) i q ai wm hai x3 f 338 162 2 hl162 hj2 rfl hp339 hn339 w339 hw339 (k0_off1016 i) rfl (k0_off1016_inb i) k0_cond339 (fun _ => rfl) (k0_chk339 i) (k0_chk339.dec i) (k0_off1017 i) (fun _ => rfl) (fun _ _ h => h) (k0_off1017_inb i) ((View.wordExact_bits rfl).reshape _ _) (fun _ _ => (View.wordExact_bits rfl).reshape _ _) _ _ W338) $$ [HS HM HC HO]
  · isplitl [HS]; · iexact HS
    isplitl [HM]; · iexact HM
    isplitl [HC]; · iexact HC
    iexact HO
  iintro ⟨HS, HM, HC, S2, %W339, HO⟩
  iapply (loadMask_wp c 𝒱₀ i 163 hl163 q wm rfl) $$ HM
  iintro HM %w340 %hw340
  have hp340 : stateAt 339 ⟨163, hl163⟩ = St.started := show stateAt 339 ⟨163, (by decide : (163 : ℕ) < 256)⟩ = St.started from by decide
  have hn340 : ∀ l : Fin 256, stateAt 340 l = Function.update (stateAt 339) ⟨163, hl163⟩ St.done l := show ∀ l : Fin 256, stateAt 340 l = Function.update (stateAt 339) ⟨163, (by decide : (163 : ℕ) < 256)⟩ St.done l from by decide
  iapply (wait_fam c 𝒱₀ arg3 (Memref.whole main_v0_0) i q ai wm hai x3 f 339 163 3 hl163 hj3 rfl hp340 hn340 w340 hw340 (k0_off1019 i) rfl (k0_off1019_inb i) k0_cond340 (fun _ => rfl) (k0_chk340 i) (k0_chk340.dec i) (k0_off1020 i) (fun _ => rfl) (fun _ _ h => h) (k0_off1020_inb i) ((View.wordExact_bits rfl).reshape _ _) (fun _ _ => (View.wordExact_bits rfl).reshape _ _) _ _ W339) $$ [HS HM HC HO]
  · isplitl [HS]; · iexact HS
    isplitl [HM]; · iexact HM
    isplitl [HC]; · iexact HC
    iexact HO
  iintro ⟨HS, HM, HC, S3, %W340, HO⟩
  iapply (loadMask_wp c 𝒱₀ i 164 hl164 q wm rfl) $$ HM
  iintro HM %w341 %hw341
  have hp341 : stateAt 340 ⟨164, hl164⟩ = St.started := show stateAt 340 ⟨164, (by decide : (164 : ℕ) < 256)⟩ = St.started from by decide
  have hn341 : ∀ l : Fin 256, stateAt 341 l = Function.update (stateAt 340) ⟨164, hl164⟩ St.done l := show ∀ l : Fin 256, stateAt 341 l = Function.update (stateAt 340) ⟨164, (by decide : (164 : ℕ) < 256)⟩ St.done l from by decide
  iapply (wait_fam c 𝒱₀ arg3 (Memref.whole main_v0_0) i q ai wm hai x3 f 340 164 4 hl164 hj4 rfl hp341 hn341 w341 hw341 (k0_off1022 i) rfl (k0_off1022_inb i) k0_cond341 (fun _ => rfl) (k0_chk341 i) (k0_chk341.dec i) (k0_off1023 i) (fun _ => rfl) (fun _ _ h => h) (k0_off1023_inb i) ((View.wordExact_bits rfl).reshape _ _) (fun _ _ => (View.wordExact_bits rfl).reshape _ _) _ _ W340) $$ [HS HM HC HO]
  · isplitl [HS]; · iexact HS
    isplitl [HM]; · iexact HM
    isplitl [HC]; · iexact HC
    iexact HO
  iintro ⟨HS, HM, HC, S4, %W341, HO⟩
  iapply (loadMask_wp c 𝒱₀ i 165 hl165 q wm rfl) $$ HM
  iintro HM %w342 %hw342
  rw [wp_pure]
  imodintro
  isplitr; · ipureintro; exact hw342
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 58 of the body: steps 342 to 347, and the load of the next step's mask word. -/
theorem part58_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 165 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 341 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part58 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 171 (by decide)⌝ ∗ ((c : Thread nD τ).loc main_call0_v12 ↦{q} ai) ∗ ((c : Thread nD τ).loc main_call0_v13 ↦{q} wm) ∗ cells c arg3 (Memref.whole main_v0_0) i ai wm hai x3 f 347 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part58_eq_skeleton]; unfold k0_part58_skel
  iintro ⟨HS, HM, HC, S0, S1, S2, S3, S4, HO⟩
  have hl165 : (165 : ℕ) < 256 := by decide
  have hl166 : (166 : ℕ) < 256 := by decide
  have hl167 : (167 : ℕ) < 256 := by decide
  have hl168 : (168 : ℕ) < 256 := by decide
  have hl169 : (169 : ℕ) < 256 := by decide
  have hl170 : (170 : ℕ) < 256 := by decide
  have hl171 : (171 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw342 : w = wordOf wm i 165 hl165 := hw
  have hp342 : stateAt 341 ⟨165, hl165⟩ = St.started := show stateAt 341 ⟨165, (by decide : (165 : ℕ) < 256)⟩ = St.started from by decide
  have hn342 : ∀ l : Fin 256, stateAt 342 l = Function.update (stateAt 341) ⟨165, hl165⟩ St.done l := show ∀ l : Fin 256, stateAt 342 l = Function.update (stateAt 341) ⟨165, (by decide : (165 : ℕ) < 256)⟩ St.done l from by decide
  iapply (wait_fam c 𝒱₀ arg3 (Memref.whole main_v0_0) i q ai wm hai x3 f 341 165 5 hl165 hj5 rfl hp342 hn342 w hw342 (k0_off1025 i) rfl (k0_off1025_inb i) k0_cond342 (fun _ => rfl) (k0_chk342 i) (k0_chk342.dec i) (k0_off1026 i) (fun _ => rfl) (fun _ _ h => h) (k0_off1026_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W342, HO⟩
  iapply (loadMask_wp c 𝒱₀ i 166 hl166 q wm rfl) $$ HM
  iintro HM %w343 %hw343
  have hp343 : stateAt 342 ⟨166, hl166⟩ = St.started := show stateAt 342 ⟨166, (by decide : (166 : ℕ) < 256)⟩ = St.started from by decide
  have hn343 : ∀ l : Fin 256, stateAt 343 l = Function.update (stateAt 342) ⟨166, hl166⟩ St.done l := show ∀ l : Fin 256, stateAt 343 l = Function.update (stateAt 342) ⟨166, (by decide : (166 : ℕ) < 256)⟩ St.done l from by decide
  iapply (wait_fam c 𝒱₀ arg3 (Memref.whole main_v0_0) i q ai wm hai x3 f 342 166 6 hl166 hj6 rfl hp343 hn343 w343 hw343 (k0_off1028 i) rfl (k0_off1028_inb i) k0_cond343 (fun _ => rfl) (k0_chk343 i) (k0_chk343.dec i) (k0_off1029 i) (fun _ => rfl) (fun _ _ h => h) (k0_off1029_inb i) ((View.wordExact_bits rfl).reshape _ _) (fun _ _ => (View.wordExact_bits rfl).reshape _ _) _ _ W342) $$ [HS HM HC HO]
  · isplitl [HS]; · iexact HS
    isplitl [HM]; · iexact HM
    isplitl [HC]; · iexact HC
    iexact HO
  iintro ⟨HS, HM, HC, S6, %W343, HO⟩
  iapply (loadMask_wp c 𝒱₀ i 167 hl167 q wm rfl) $$ HM
  iintro HM %w344 %hw344
  have hp344 : stateAt 343 ⟨167, hl167⟩ = St.started := show stateAt 343 ⟨167, (by decide : (167 : ℕ) < 256)⟩ = St.started from by decide
  have hn344 : ∀ l : Fin 256, stateAt 344 l = Function.update (stateAt 343) ⟨167, hl167⟩ St.done l := show ∀ l : Fin 256, stateAt 344 l = Function.update (stateAt 343) ⟨167, (by decide : (167 : ℕ) < 256)⟩ St.done l from by decide
  iapply (wait_fam c 𝒱₀ arg3 (Memref.whole main_v0_0) i q ai wm hai x3 f 343 167 7 hl167 hj7 rfl hp344 hn344 w344 hw344 (k0_off1031 i) rfl (k0_off1031_inb i) k0_cond344 (fun _ => rfl) (k0_chk344 i) (k0_chk344.dec i) (k0_off1032 i) (fun _ => rfl) (fun _ _ h => h) (k0_off1032_inb i) ((View.wordExact_bits rfl).reshape _ _) (fun _ _ => (View.wordExact_bits rfl).reshape _ _) _ _ W343) $$ [HS HM HC HO]
  · isplitl [HS]; · iexact HS
    isplitl [HM]; · iexact HM
    isplitl [HC]; · iexact HC
    iexact HO
  iintro ⟨HS, HM, HC, S7, %W344, HO⟩
  iapply (loadMask_wp c 𝒱₀ i 168 hl168 q wm rfl) $$ HM
  iintro HM %w345 %hw345
  have hp345 : stateAt 344 ⟨168, hl168⟩ = St.started := show stateAt 344 ⟨168, (by decide : (168 : ℕ) < 256)⟩ = St.started from by decide
  have hn345 : ∀ l : Fin 256, stateAt 345 l = Function.update (stateAt 344) ⟨168, hl168⟩ St.done l := show ∀ l : Fin 256, stateAt 345 l = Function.update (stateAt 344) ⟨168, (by decide : (168 : ℕ) < 256)⟩ St.done l from by decide
  iapply (wait_fam c 𝒱₀ arg3 (Memref.whole main_v0_0) i q ai wm hai x3 f 344 168 8 hl168 hj8 rfl hp345 hn345 w345 hw345 (k0_off1034 i) rfl (k0_off1034_inb i) k0_cond345 (fun _ => rfl) (k0_chk345 i) (k0_chk345.dec i) (k0_off1035 i) (fun _ => rfl) (fun _ _ h => h) (k0_off1035_inb i) ((View.wordExact_bits rfl).reshape _ _) (fun _ _ => (View.wordExact_bits rfl).reshape _ _) _ _ W344) $$ [HS HM HC HO]
  · isplitl [HS]; · iexact HS
    isplitl [HM]; · iexact HM
    isplitl [HC]; · iexact HC
    iexact HO
  iintro ⟨HS, HM, HC, S8, %W345, HO⟩
  iapply (loadMask_wp c 𝒱₀ i 169 hl169 q wm rfl) $$ HM
  iintro HM %w346 %hw346
  have hp346 : stateAt 345 ⟨169, hl169⟩ = St.started := show stateAt 345 ⟨169, (by decide : (169 : ℕ) < 256)⟩ = St.started from by decide
  have hn346 : ∀ l : Fin 256, stateAt 346 l = Function.update (stateAt 345) ⟨169, hl169⟩ St.done l := show ∀ l : Fin 256, stateAt 346 l = Function.update (stateAt 345) ⟨169, (by decide : (169 : ℕ) < 256)⟩ St.done l from by decide
  iapply (wait_fam c 𝒱₀ arg3 (Memref.whole main_v0_0) i q ai wm hai x3 f 345 169 9 hl169 hj9 rfl hp346 hn346 w346 hw346 (k0_off1037 i) rfl (k0_off1037_inb i) k0_cond346 (fun _ => rfl) (k0_chk346 i) (k0_chk346.dec i) (k0_off1038 i) (fun _ => rfl) (fun _ _ h => h) (k0_off1038_inb i) ((View.wordExact_bits rfl).reshape _ _) (fun _ _ => (View.wordExact_bits rfl).reshape _ _) _ _ W345) $$ [HS HM HC HO]
  · isplitl [HS]; · iexact HS
    isplitl [HM]; · iexact HM
    isplitl [HC]; · iexact HC
    iexact HO
  iintro ⟨HS, HM, HC, S9, %W346, HO⟩
  iapply (loadMask_wp c 𝒱₀ i 170 hl170 q wm rfl) $$ HM
  iintro HM %w347 %hw347
  have hp347 : stateAt 346 ⟨170, hl170⟩ = St.started := show stateAt 346 ⟨170, (by decide : (170 : ℕ) < 256)⟩ = St.started from by decide
  have hn347 : ∀ l : Fin 256, stateAt 347 l = Function.update (stateAt 346) ⟨170, hl170⟩ St.done l := show ∀ l : Fin 256, stateAt 347 l = Function.update (stateAt 346) ⟨170, (by decide : (170 : ℕ) < 256)⟩ St.done l from by decide
  iapply (wait_fam c 𝒱₀ arg3 (Memref.whole main_v0_0) i q ai wm hai x3 f 346 170 10 hl170 hj10 rfl hp347 hn347 w347 hw347 (k0_off1040 i) rfl (k0_off1040_inb i) k0_cond347 (fun _ => rfl) (k0_chk347 i) (k0_chk347.dec i) (k0_off1041 i) (fun _ => rfl) (fun _ _ h => h) (k0_off1041_inb i) ((View.wordExact_bits rfl).reshape _ _) (fun _ _ => (View.wordExact_bits rfl).reshape _ _) _ _ W346) $$ [HS HM HC HO]
  · isplitl [HS]; · iexact HS
    isplitl [HM]; · iexact HM
    isplitl [HC]; · iexact HC
    iexact HO
  iintro ⟨HS, HM, HC, S10, %W347, HO⟩
  iapply (loadMask_wp c 𝒱₀ i 171 hl171 q wm rfl) $$ HM
  iintro HM %w348 %hw348
  rw [wp_pure]
  imodintro
  isplitr; · ipureintro; exact hw348
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 59 of the body: steps 348 to 353, and the load of the next step's mask word. -/
theorem part59_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 171 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 347 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part59 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 177 (by decide)⌝ ∗ ((c : Thread nD τ).loc main_call0_v12 ↦{q} ai) ∗ ((c : Thread nD τ).loc main_call0_v13 ↦{q} wm) ∗ cells c arg3 (Memref.whole main_v0_0) i ai wm hai x3 f 353 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part59_eq_skeleton]; unfold k0_part59_skel
  iintro ⟨HS, HM, HC, S0, S1, S2, S3, S4, S5, S6, S7, S8, S9, S10, HO⟩
  have hl171 : (171 : ℕ) < 256 := by decide
  have hl172 : (172 : ℕ) < 256 := by decide
  have hl173 : (173 : ℕ) < 256 := by decide
  have hl174 : (174 : ℕ) < 256 := by decide
  have hl175 : (175 : ℕ) < 256 := by decide
  have hl176 : (176 : ℕ) < 256 := by decide
  have hl177 : (177 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw348 : w = wordOf wm i 171 hl171 := hw
  have hp348 : stateAt 347 ⟨171, hl171⟩ = St.started := show stateAt 347 ⟨171, (by decide : (171 : ℕ) < 256)⟩ = St.started from by decide
  have hn348 : ∀ l : Fin 256, stateAt 348 l = Function.update (stateAt 347) ⟨171, hl171⟩ St.done l := show ∀ l : Fin 256, stateAt 348 l = Function.update (stateAt 347) ⟨171, (by decide : (171 : ℕ) < 256)⟩ St.done l from by decide
  iapply (wait_fam c 𝒱₀ arg3 (Memref.whole main_v0_0) i q ai wm hai x3 f 347 171 11 hl171 hj11 rfl hp348 hn348 w hw348 (k0_off1043 i) rfl (k0_off1043_inb i) k0_cond348 (fun _ => rfl) (k0_chk348 i) (k0_chk348.dec i) (k0_off1044 i) (fun _ => rfl) (fun _ _ h => h) (k0_off1044_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W348, HO⟩
  iapply (loadMask_wp c 𝒱₀ i 172 hl172 q wm rfl) $$ HM
  iintro HM %w349 %hw349
  have hp349 : stateAt 348 ⟨172, hl172⟩ = St.started := show stateAt 348 ⟨172, (by decide : (172 : ℕ) < 256)⟩ = St.started from by decide
  have hn349 : ∀ l : Fin 256, stateAt 349 l = Function.update (stateAt 348) ⟨172, hl172⟩ St.done l := show ∀ l : Fin 256, stateAt 349 l = Function.update (stateAt 348) ⟨172, (by decide : (172 : ℕ) < 256)⟩ St.done l from by decide
  iapply (wait_fam c 𝒱₀ arg3 (Memref.whole main_v0_0) i q ai wm hai x3 f 348 172 12 hl172 hj12 rfl hp349 hn349 w349 hw349 (k0_off1046 i) rfl (k0_off1046_inb i) k0_cond349 (fun _ => rfl) (k0_chk349 i) (k0_chk349.dec i) (k0_off1047 i) (fun _ => rfl) (fun _ _ h => h) (k0_off1047_inb i) ((View.wordExact_bits rfl).reshape _ _) (fun _ _ => (View.wordExact_bits rfl).reshape _ _) _ _ W348) $$ [HS HM HC HO]
  · isplitl [HS]; · iexact HS
    isplitl [HM]; · iexact HM
    isplitl [HC]; · iexact HC
    iexact HO
  iintro ⟨HS, HM, HC, S12, %W349, HO⟩
  iapply (loadMask_wp c 𝒱₀ i 173 hl173 q wm rfl) $$ HM
  iintro HM %w350 %hw350
  have hp350 : stateAt 349 ⟨173, hl173⟩ = St.started := show stateAt 349 ⟨173, (by decide : (173 : ℕ) < 256)⟩ = St.started from by decide
  have hn350 : ∀ l : Fin 256, stateAt 350 l = Function.update (stateAt 349) ⟨173, hl173⟩ St.done l := show ∀ l : Fin 256, stateAt 350 l = Function.update (stateAt 349) ⟨173, (by decide : (173 : ℕ) < 256)⟩ St.done l from by decide
  iapply (wait_fam c 𝒱₀ arg3 (Memref.whole main_v0_0) i q ai wm hai x3 f 349 173 13 hl173 hj13 rfl hp350 hn350 w350 hw350 (k0_off1049 i) rfl (k0_off1049_inb i) k0_cond350 (fun _ => rfl) (k0_chk350 i) (k0_chk350.dec i) (k0_off1050 i) (fun _ => rfl) (fun _ _ h => h) (k0_off1050_inb i) ((View.wordExact_bits rfl).reshape _ _) (fun _ _ => (View.wordExact_bits rfl).reshape _ _) _ _ W349) $$ [HS HM HC HO]
  · isplitl [HS]; · iexact HS
    isplitl [HM]; · iexact HM
    isplitl [HC]; · iexact HC
    iexact HO
  iintro ⟨HS, HM, HC, S13, %W350, HO⟩
  iapply (loadMask_wp c 𝒱₀ i 174 hl174 q wm rfl) $$ HM
  iintro HM %w351 %hw351
  have hp351 : stateAt 350 ⟨174, hl174⟩ = St.started := show stateAt 350 ⟨174, (by decide : (174 : ℕ) < 256)⟩ = St.started from by decide
  have hn351 : ∀ l : Fin 256, stateAt 351 l = Function.update (stateAt 350) ⟨174, hl174⟩ St.done l := show ∀ l : Fin 256, stateAt 351 l = Function.update (stateAt 350) ⟨174, (by decide : (174 : ℕ) < 256)⟩ St.done l from by decide
  iapply (wait_fam c 𝒱₀ arg3 (Memref.whole main_v0_0) i q ai wm hai x3 f 350 174 14 hl174 hj14 rfl hp351 hn351 w351 hw351 (k0_off1052 i) rfl (k0_off1052_inb i) k0_cond351 (fun _ => rfl) (k0_chk351 i) (k0_chk351.dec i) (k0_off1053 i) (fun _ => rfl) (fun _ _ h => h) (k0_off1053_inb i) ((View.wordExact_bits rfl).reshape _ _) (fun _ _ => (View.wordExact_bits rfl).reshape _ _) _ _ W350) $$ [HS HM HC HO]
  · isplitl [HS]; · iexact HS
    isplitl [HM]; · iexact HM
    isplitl [HC]; · iexact HC
    iexact HO
  iintro ⟨HS, HM, HC, S14, %W351, HO⟩
  iapply (loadMask_wp c 𝒱₀ i 175 hl175 q wm rfl) $$ HM
  iintro HM %w352 %hw352
  have hp352 : stateAt 351 ⟨175, hl175⟩ = St.started := show stateAt 351 ⟨175, (by decide : (175 : ℕ) < 256)⟩ = St.started from by decide
  have hn352 : ∀ l : Fin 256, stateAt 352 l = Function.update (stateAt 351) ⟨175, hl175⟩ St.done l := show ∀ l : Fin 256, stateAt 352 l = Function.update (stateAt 351) ⟨175, (by decide : (175 : ℕ) < 256)⟩ St.done l from by decide
  iapply (wait_fam c 𝒱₀ arg3 (Memref.whole main_v0_0) i q ai wm hai x3 f 351 175 15 hl175 hj15 rfl hp352 hn352 w352 hw352 (k0_off1055 i) rfl (k0_off1055_inb i) k0_cond352 (fun _ => rfl) (k0_chk352 i) (k0_chk352.dec i) (k0_off1056 i) (fun _ => rfl) (fun _ _ h => h) (k0_off1056_inb i) ((View.wordExact_bits rfl).reshape _ _) (fun _ _ => (View.wordExact_bits rfl).reshape _ _) _ _ W351) $$ [HS HM HC HO]
  · isplitl [HS]; · iexact HS
    isplitl [HM]; · iexact HM
    isplitl [HC]; · iexact HC
    iexact HO
  iintro ⟨HS, HM, HC, S15, %W352, HO⟩
  iapply (loadMask_wp c 𝒱₀ i 176 hl176 q wm rfl) $$ HM
  iintro HM %w353 %hw353
  have hp353 : stateAt 352 ⟨176, hl176⟩ = St.pending := show stateAt 352 ⟨176, (by decide : (176 : ℕ) < 256)⟩ = St.pending from by decide
  have hn353 : ∀ l : Fin 256, stateAt 353 l = Function.update (stateAt 352) ⟨176, hl176⟩ St.started l := show ∀ l : Fin 256, stateAt 353 l = Function.update (stateAt 352) ⟨176, (by decide : (176 : ℕ) < 256)⟩ St.started l from by decide
  iapply (start_fam c 𝒱₀ arg3 (Memref.whole main_v0_0) i q ai wm hai x3 f 352 176 0 hl176 hj0 rfl hp353 hn353 w353 hw353 k0_cond353 (fun _ => rfl) (k0_chk353 i) (k0_chk353.dec i) (k0_off1059 i) (fun _ => rfl) (fun _ _ => rfl) rfl) $$ [HS HC S0]
  · isplitl [HS]; · iexact HS
    isplitl [HC]; · iexact HC
    iexact S0
  iintro ⟨HS, HC⟩
  iapply (loadMask_wp c 𝒱₀ i 177 hl177 q wm rfl) $$ HM
  iintro HM %w354 %hw354
  rw [wp_pure]
  imodintro
  isplitr; · ipureintro; exact hw354
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 60 of the body: steps 354 to 359, and the load of the next step's mask word. -/
theorem part60_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 177 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 353 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part60 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 183 (by decide)⌝ ∗ ((c : Thread nD τ).loc main_call0_v12 ↦{q} ai) ∗ ((c : Thread nD τ).loc main_call0_v13 ↦{q} wm) ∗ cells c arg3 (Memref.whole main_v0_0) i ai wm hai x3 f 359 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part60_eq_skeleton]; unfold k0_part60_skel
  iintro ⟨HS, HM, HC, S1, S2, S3, S4, S5, S6, S7, S8, S9, S10, S11, S12, S13, S14, S15, HO⟩
  have hl177 : (177 : ℕ) < 256 := by decide
  have hl178 : (178 : ℕ) < 256 := by decide
  have hl179 : (179 : ℕ) < 256 := by decide
  have hl180 : (180 : ℕ) < 256 := by decide
  have hl181 : (181 : ℕ) < 256 := by decide
  have hl182 : (182 : ℕ) < 256 := by decide
  have hl183 : (183 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw354 : w = wordOf wm i 177 hl177 := hw
  have hp354 : stateAt 353 ⟨177, hl177⟩ = St.pending := show stateAt 353 ⟨177, (by decide : (177 : ℕ) < 256)⟩ = St.pending from by decide
  have hn354 : ∀ l : Fin 256, stateAt 354 l = Function.update (stateAt 353) ⟨177, hl177⟩ St.started l := show ∀ l : Fin 256, stateAt 354 l = Function.update (stateAt 353) ⟨177, (by decide : (177 : ℕ) < 256)⟩ St.started l from by decide
  iapply (start_fam c 𝒱₀ arg3 (Memref.whole main_v0_0) i q ai wm hai x3 f 353 177 1 hl177 hj1 rfl hp354 hn354 w hw354 k0_cond354 (fun _ => rfl) (k0_chk354 i) (k0_chk354.dec i) (k0_off1062 i) (fun _ => rfl) (fun _ _ => rfl) rfl) $$ [HS HC S1]
  · isplitl [HS]; · iexact HS
    isplitl [HC]; · iexact HC
    iexact S1
  iintro ⟨HS, HC⟩
  iapply (loadMask_wp c 𝒱₀ i 178 hl178 q wm rfl) $$ HM
  iintro HM %w355 %hw355
  have hp355 : stateAt 354 ⟨178, hl178⟩ = St.pending := show stateAt 354 ⟨178, (by decide : (178 : ℕ) < 256)⟩ = St.pending from by decide
  have hn355 : ∀ l : Fin 256, stateAt 355 l = Function.update (stateAt 354) ⟨178, hl178⟩ St.started l := show ∀ l : Fin 256, stateAt 355 l = Function.update (stateAt 354) ⟨178, (by decide : (178 : ℕ) < 256)⟩ St.started l from by decide
  iapply (start_fam c 𝒱₀ arg3 (Memref.whole main_v0_0) i q ai wm hai x3 f 354 178 2 hl178 hj2 rfl hp355 hn355 w355 hw355 k0_cond355 (fun _ => rfl) (k0_chk355 i) (k0_chk355.dec i) (k0_off1065 i) (fun _ => rfl) (fun _ _ => rfl) rfl) $$ [HS HC S2]
  · isplitl [HS]; · iexact HS
    isplitl [HC]; · iexact HC
    iexact S2
  iintro ⟨HS, HC⟩
  iapply (loadMask_wp c 𝒱₀ i 179 hl179 q wm rfl) $$ HM
  iintro HM %w356 %hw356
  have hp356 : stateAt 355 ⟨179, hl179⟩ = St.pending := show stateAt 355 ⟨179, (by decide : (179 : ℕ) < 256)⟩ = St.pending from by decide
  have hn356 : ∀ l : Fin 256, stateAt 356 l = Function.update (stateAt 355) ⟨179, hl179⟩ St.started l := show ∀ l : Fin 256, stateAt 356 l = Function.update (stateAt 355) ⟨179, (by decide : (179 : ℕ) < 256)⟩ St.started l from by decide
  iapply (start_fam c 𝒱₀ arg3 (Memref.whole main_v0_0) i q ai wm hai x3 f 355 179 3 hl179 hj3 rfl hp356 hn356 w356 hw356 k0_cond356 (fun _ => rfl) (k0_chk356 i) (k0_chk356.dec i) (k0_off1068 i) (fun _ => rfl) (fun _ _ => rfl) rfl) $$ [HS HC S3]
  · isplitl [HS]; · iexact HS
    isplitl [HC]; · iexact HC
    iexact S3
  iintro ⟨HS, HC⟩
  iapply (loadMask_wp c 𝒱₀ i 180 hl180 q wm rfl) $$ HM
  iintro HM %w357 %hw357
  have hp357 : stateAt 356 ⟨180, hl180⟩ = St.pending := show stateAt 356 ⟨180, (by decide : (180 : ℕ) < 256)⟩ = St.pending from by decide
  have hn357 : ∀ l : Fin 256, stateAt 357 l = Function.update (stateAt 356) ⟨180, hl180⟩ St.started l := show ∀ l : Fin 256, stateAt 357 l = Function.update (stateAt 356) ⟨180, (by decide : (180 : ℕ) < 256)⟩ St.started l from by decide
  iapply (start_fam c 𝒱₀ arg3 (Memref.whole main_v0_0) i q ai wm hai x3 f 356 180 4 hl180 hj4 rfl hp357 hn357 w357 hw357 k0_cond357 (fun _ => rfl) (k0_chk357 i) (k0_chk357.dec i) (k0_off1071 i) (fun _ => rfl) (fun _ _ => rfl) rfl) $$ [HS HC S4]
  · isplitl [HS]; · iexact HS
    isplitl [HC]; · iexact HC
    iexact S4
  iintro ⟨HS, HC⟩
  iapply (loadMask_wp c 𝒱₀ i 181 hl181 q wm rfl) $$ HM
  iintro HM %w358 %hw358
  have hp358 : stateAt 357 ⟨181, hl181⟩ = St.pending := show stateAt 357 ⟨181, (by decide : (181 : ℕ) < 256)⟩ = St.pending from by decide
  have hn358 : ∀ l : Fin 256, stateAt 358 l = Function.update (stateAt 357) ⟨181, hl181⟩ St.started l := show ∀ l : Fin 256, stateAt 358 l = Function.update (stateAt 357) ⟨181, (by decide : (181 : ℕ) < 256)⟩ St.started l from by decide
  iapply (start_fam c 𝒱₀ arg3 (Memref.whole main_v0_0) i q ai wm hai x3 f 357 181 5 hl181 hj5 rfl hp358 hn358 w358 hw358 k0_cond358 (fun _ => rfl) (k0_chk358 i) (k0_chk358.dec i) (k0_off1074 i) (fun _ => rfl) (fun _ _ => rfl) rfl) $$ [HS HC S5]
  · isplitl [HS]; · iexact HS
    isplitl [HC]; · iexact HC
    iexact S5
  iintro ⟨HS, HC⟩
  iapply (loadMask_wp c 𝒱₀ i 182 hl182 q wm rfl) $$ HM
  iintro HM %w359 %hw359
  have hp359 : stateAt 358 ⟨182, hl182⟩ = St.pending := show stateAt 358 ⟨182, (by decide : (182 : ℕ) < 256)⟩ = St.pending from by decide
  have hn359 : ∀ l : Fin 256, stateAt 359 l = Function.update (stateAt 358) ⟨182, hl182⟩ St.started l := show ∀ l : Fin 256, stateAt 359 l = Function.update (stateAt 358) ⟨182, (by decide : (182 : ℕ) < 256)⟩ St.started l from by decide
  iapply (start_fam c 𝒱₀ arg3 (Memref.whole main_v0_0) i q ai wm hai x3 f 358 182 6 hl182 hj6 rfl hp359 hn359 w359 hw359 k0_cond359 (fun _ => rfl) (k0_chk359 i) (k0_chk359.dec i) (k0_off1077 i) (fun _ => rfl) (fun _ _ => rfl) rfl) $$ [HS HC S6]
  · isplitl [HS]; · iexact HS
    isplitl [HC]; · iexact HC
    iexact S6
  iintro ⟨HS, HC⟩
  iapply (loadMask_wp c 𝒱₀ i 183 hl183 q wm rfl) $$ HM
  iintro HM %w360 %hw360
  rw [wp_pure]
  imodintro
  isplitr; · ipureintro; exact hw360
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 61 of the body: steps 360 to 365, and the load of the next step's mask word. -/
theorem part61_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 183 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 359 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part61 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 189 (by decide)⌝ ∗ ((c : Thread nD τ).loc main_call0_v12 ↦{q} ai) ∗ ((c : Thread nD τ).loc main_call0_v13 ↦{q} wm) ∗ cells c arg3 (Memref.whole main_v0_0) i ai wm hai x3 f 365 ∗ semPt c 13 (sem_inb 13 (by decide)) ∗ semPt c 14 (sem_inb 14 (by decide)) ∗ semPt c 15 (sem_inb 15 (by decide)) ∗ ∃ W', owes (c : Thread nD τ) 0 W')) := by
  rw [k0_part61_eq_skeleton]; unfold k0_part61_skel
  iintro ⟨HS, HM, HC, S7, S8, S9, S10, S11, S12, S13, S14, S15, HO⟩
  have hl183 : (183 : ℕ) < 256 := by decide
  have hl184 : (184 : ℕ) < 256 := by decide
  have hl185 : (185 : ℕ) < 256 := by decide
  have hl186 : (186 : ℕ) < 256 := by decide
  have hl187 : (187 : ℕ) < 256 := by decide
  have hl188 : (188 : ℕ) < 256 := by decide
  have hl189 : (189 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw360 : w = wordOf wm i 183 hl183 := hw
  have hp360 : stateAt 359 ⟨183, hl183⟩ = St.pending := show stateAt 359 ⟨183, (by decide : (183 : ℕ) < 256)⟩ = St.pending from by decide
  have hn360 : ∀ l : Fin 256, stateAt 360 l = Function.update (stateAt 359) ⟨183, hl183⟩ St.started l := show ∀ l : Fin 256, stateAt 360 l = Function.update (stateAt 359) ⟨183, (by decide : (183 : ℕ) < 256)⟩ St.started l from by decide
  iapply (start_fam c 𝒱₀ arg3 (Memref.whole main_v0_0) i q ai wm hai x3 f 359 183 7 hl183 hj7 rfl hp360 hn360 w hw360 k0_cond360 (fun _ => rfl) (k0_chk360 i) (k0_chk360.dec i) (k0_off1080 i) (fun _ => rfl) (fun _ _ => rfl) rfl) $$ [HS HC S7]
  · isplitl [HS]; · iexact HS
    isplitl [HC]; · iexact HC
    iexact S7
  iintro ⟨HS, HC⟩
  iapply (loadMask_wp c 𝒱₀ i 184 hl184 q wm rfl) $$ HM
  iintro HM %w361 %hw361
  have hp361 : stateAt 360 ⟨184, hl184⟩ = St.pending := show stateAt 360 ⟨184, (by decide : (184 : ℕ) < 256)⟩ = St.pending from by decide
  have hn361 : ∀ l : Fin 256, stateAt 361 l = Function.update (stateAt 360) ⟨184, hl184⟩ St.started l := show ∀ l : Fin 256, stateAt 361 l = Function.update (stateAt 360) ⟨184, (by decide : (184 : ℕ) < 256)⟩ St.started l from by decide
  iapply (start_fam c 𝒱₀ arg3 (Memref.whole main_v0_0) i q ai wm hai x3 f 360 184 8 hl184 hj8 rfl hp361 hn361 w361 hw361 k0_cond361 (fun _ => rfl) (k0_chk361 i) (k0_chk361.dec i) (k0_off1083 i) (fun _ => rfl) (fun _ _ => rfl) rfl) $$ [HS HC S8]
  · isplitl [HS]; · iexact HS
    isplitl [HC]; · iexact HC
    iexact S8
  iintro ⟨HS, HC⟩
  iapply (loadMask_wp c 𝒱₀ i 185 hl185 q wm rfl) $$ HM
  iintro HM %w362 %hw362
  have hp362 : stateAt 361 ⟨185, hl185⟩ = St.pending := show stateAt 361 ⟨185, (by decide : (185 : ℕ) < 256)⟩ = St.pending from by decide
  have hn362 : ∀ l : Fin 256, stateAt 362 l = Function.update (stateAt 361) ⟨185, hl185⟩ St.started l := show ∀ l : Fin 256, stateAt 362 l = Function.update (stateAt 361) ⟨185, (by decide : (185 : ℕ) < 256)⟩ St.started l from by decide
  iapply (start_fam c 𝒱₀ arg3 (Memref.whole main_v0_0) i q ai wm hai x3 f 361 185 9 hl185 hj9 rfl hp362 hn362 w362 hw362 k0_cond362 (fun _ => rfl) (k0_chk362 i) (k0_chk362.dec i) (k0_off1086 i) (fun _ => rfl) (fun _ _ => rfl) rfl) $$ [HS HC S9]
  · isplitl [HS]; · iexact HS
    isplitl [HC]; · iexact HC
    iexact S9
  iintro ⟨HS, HC⟩
  iapply (loadMask_wp c 𝒱₀ i 186 hl186 q wm rfl) $$ HM
  iintro HM %w363 %hw363
  have hp363 : stateAt 362 ⟨186, hl186⟩ = St.pending := show stateAt 362 ⟨186, (by decide : (186 : ℕ) < 256)⟩ = St.pending from by decide
  have hn363 : ∀ l : Fin 256, stateAt 363 l = Function.update (stateAt 362) ⟨186, hl186⟩ St.started l := show ∀ l : Fin 256, stateAt 363 l = Function.update (stateAt 362) ⟨186, (by decide : (186 : ℕ) < 256)⟩ St.started l from by decide
  iapply (start_fam c 𝒱₀ arg3 (Memref.whole main_v0_0) i q ai wm hai x3 f 362 186 10 hl186 hj10 rfl hp363 hn363 w363 hw363 k0_cond363 (fun _ => rfl) (k0_chk363 i) (k0_chk363.dec i) (k0_off1089 i) (fun _ => rfl) (fun _ _ => rfl) rfl) $$ [HS HC S10]
  · isplitl [HS]; · iexact HS
    isplitl [HC]; · iexact HC
    iexact S10
  iintro ⟨HS, HC⟩
  iapply (loadMask_wp c 𝒱₀ i 187 hl187 q wm rfl) $$ HM
  iintro HM %w364 %hw364
  have hp364 : stateAt 363 ⟨187, hl187⟩ = St.pending := show stateAt 363 ⟨187, (by decide : (187 : ℕ) < 256)⟩ = St.pending from by decide
  have hn364 : ∀ l : Fin 256, stateAt 364 l = Function.update (stateAt 363) ⟨187, hl187⟩ St.started l := show ∀ l : Fin 256, stateAt 364 l = Function.update (stateAt 363) ⟨187, (by decide : (187 : ℕ) < 256)⟩ St.started l from by decide
  iapply (start_fam c 𝒱₀ arg3 (Memref.whole main_v0_0) i q ai wm hai x3 f 363 187 11 hl187 hj11 rfl hp364 hn364 w364 hw364 k0_cond364 (fun _ => rfl) (k0_chk364 i) (k0_chk364.dec i) (k0_off1092 i) (fun _ => rfl) (fun _ _ => rfl) rfl) $$ [HS HC S11]
  · isplitl [HS]; · iexact HS
    isplitl [HC]; · iexact HC
    iexact S11
  iintro ⟨HS, HC⟩
  iapply (loadMask_wp c 𝒱₀ i 188 hl188 q wm rfl) $$ HM
  iintro HM %w365 %hw365
  have hp365 : stateAt 364 ⟨188, hl188⟩ = St.pending := show stateAt 364 ⟨188, (by decide : (188 : ℕ) < 256)⟩ = St.pending from by decide
  have hn365 : ∀ l : Fin 256, stateAt 365 l = Function.update (stateAt 364) ⟨188, hl188⟩ St.started l := show ∀ l : Fin 256, stateAt 365 l = Function.update (stateAt 364) ⟨188, (by decide : (188 : ℕ) < 256)⟩ St.started l from by decide
  iapply (start_fam c 𝒱₀ arg3 (Memref.whole main_v0_0) i q ai wm hai x3 f 364 188 12 hl188 hj12 rfl hp365 hn365 w365 hw365 k0_cond365 (fun _ => rfl) (k0_chk365 i) (k0_chk365.dec i) (k0_off1095 i) (fun _ => rfl) (fun _ _ => rfl) rfl) $$ [HS HC S12]
  · isplitl [HS]; · iexact HS
    isplitl [HC]; · iexact HC
    iexact S12
  iintro ⟨HS, HC⟩
  iapply (loadMask_wp c 𝒱₀ i 189 hl189 q wm rfl) $$ HM
  iintro HM %w366 %hw366
  rw [wp_pure]
  imodintro
  isplitr; · ipureintro; exact hw366
  isplitl [HS]; · iexact HS
  isplitl [HM]; · iexact HM
  isplitl [HC]; · iexact HC
  isplitl [S13]; · iexact S13
  isplitl [S14]; · iexact S14
  isplitl [S15]; · iexact S15
  iexists _; iexact HO

set_option maxHeartbeats 0 in
/-- Part 62 of the body: steps 366 to 371, and the load of the next step's mask word. -/
theorem part62_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 189 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 365 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part62 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 179 (by decide)⌝ ∗ ((c : Thread nD τ).loc main_call0_v12 ↦{q} ai) ∗ ((c : Thread nD τ).loc main_call0_v13 ↦{q} wm) ∗ cells c arg3 (Memref.whole main_v0_0) i ai wm hai x3 f 371 ∗ semPt c 0 (sem_inb 0 (by decide)) ∗ semPt c 1 (sem_inb 1 (by decide)) ∗ semPt c 2 (sem_inb 2 (by decide)) ∗ ∃ W', owes (c : Thread nD τ) 0 W')) := by
  rw [k0_part62_eq_skeleton]; unfold k0_part62_skel
  iintro ⟨HS, HM, HC, S13, S14, S15, HO⟩
  have hl176 : (176 : ℕ) < 256 := by decide
  have hl177 : (177 : ℕ) < 256 := by decide
  have hl178 : (178 : ℕ) < 256 := by decide
  have hl179 : (179 : ℕ) < 256 := by decide
  have hl189 : (189 : ℕ) < 256 := by decide
  have hl190 : (190 : ℕ) < 256 := by decide
  have hl191 : (191 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw366 : w = wordOf wm i 189 hl189 := hw
  have hp366 : stateAt 365 ⟨189, hl189⟩ = St.pending := show stateAt 365 ⟨189, (by decide : (189 : ℕ) < 256)⟩ = St.pending from by decide
  have hn366 : ∀ l : Fin 256, stateAt 366 l = Function.update (stateAt 365) ⟨189, hl189⟩ St.started l := show ∀ l : Fin 256, stateAt 366 l = Function.update (stateAt 365) ⟨189, (by decide : (189 : ℕ) < 256)⟩ St.started l from by decide
  iapply (start_fam c 𝒱₀ arg3 (Memref.whole main_v0_0) i q ai wm hai x3 f 365 189 13 hl189 hj13 rfl hp366 hn366 w hw366 k0_cond366 (fun _ => rfl) (k0_chk366 i) (k0_chk366.dec i) (k0_off1098 i) (fun _ => rfl) (fun _ _ => rfl) rfl) $$ [HS HC S13]
  · isplitl [HS]; · iexact HS
    isplitl [HC]; · iexact HC
    iexact S13
  iintro ⟨HS, HC⟩
  iapply (loadMask_wp c 𝒱₀ i 190 hl190 q wm rfl) $$ HM
  iintro HM %w367 %hw367
  have hp367 : stateAt 366 ⟨190, hl190⟩ = St.pending := show stateAt 366 ⟨190, (by decide : (190 : ℕ) < 256)⟩ = St.pending from by decide
  have hn367 : ∀ l : Fin 256, stateAt 367 l = Function.update (stateAt 366) ⟨190, hl190⟩ St.started l := show ∀ l : Fin 256, stateAt 367 l = Function.update (stateAt 366) ⟨190, (by decide : (190 : ℕ) < 256)⟩ St.started l from by decide
  iapply (start_fam c 𝒱₀ arg3 (Memref.whole main_v0_0) i q ai wm hai x3 f 366 190 14 hl190 hj14 rfl hp367 hn367 w367 hw367 k0_cond367 (fun _ => rfl) (k0_chk367 i) (k0_chk367.dec i) (k0_off1101 i) (fun _ => rfl) (fun _ _ => rfl) rfl) $$ [HS HC S14]
  · isplitl [HS]; · iexact HS
    isplitl [HC]; · iexact HC
    iexact S14
  iintro ⟨HS, HC⟩
  iapply (loadMask_wp c 𝒱₀ i 191 hl191 q wm rfl) $$ HM
  iintro HM %w368 %hw368
  have hp368 : stateAt 367 ⟨191, hl191⟩ = St.pending := show stateAt 367 ⟨191, (by decide : (191 : ℕ) < 256)⟩ = St.pending from by decide
  have hn368 : ∀ l : Fin 256, stateAt 368 l = Function.update (stateAt 367) ⟨191, hl191⟩ St.started l := show ∀ l : Fin 256, stateAt 368 l = Function.update (stateAt 367) ⟨191, (by decide : (191 : ℕ) < 256)⟩ St.started l from by decide
  iapply (start_fam c 𝒱₀ arg3 (Memref.whole main_v0_0) i q ai wm hai x3 f 367 191 15 hl191 hj15 rfl hp368 hn368 w368 hw368 k0_cond368 (fun _ => rfl) (k0_chk368 i) (k0_chk368.dec i) (k0_off1104 i) (fun _ => rfl) (fun _ _ => rfl) rfl) $$ [HS HC S15]
  · isplitl [HS]; · iexact HS
    isplitl [HC]; · iexact HC
    iexact S15
  iintro ⟨HS, HC⟩
  iapply (loadMask_wp c 𝒱₀ i 176 hl176 q wm rfl) $$ HM
  iintro HM %w369 %hw369
  have hp369 : stateAt 368 ⟨176, hl176⟩ = St.started := show stateAt 368 ⟨176, (by decide : (176 : ℕ) < 256)⟩ = St.started from by decide
  have hn369 : ∀ l : Fin 256, stateAt 369 l = Function.update (stateAt 368) ⟨176, hl176⟩ St.done l := show ∀ l : Fin 256, stateAt 369 l = Function.update (stateAt 368) ⟨176, (by decide : (176 : ℕ) < 256)⟩ St.done l from by decide
  iapply (wait_fam c 𝒱₀ arg3 (Memref.whole main_v0_0) i q ai wm hai x3 f 368 176 0 hl176 hj0 rfl hp369 hn369 w369 hw369 (k0_off1106 i) rfl (k0_off1106_inb i) k0_cond369 (fun _ => rfl) (k0_chk369 i) (k0_chk369.dec i) (k0_off1107 i) (fun _ => rfl) (fun _ _ h => h) (k0_off1107_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W369, HO⟩
  iapply (loadMask_wp c 𝒱₀ i 177 hl177 q wm rfl) $$ HM
  iintro HM %w370 %hw370
  have hp370 : stateAt 369 ⟨177, hl177⟩ = St.started := show stateAt 369 ⟨177, (by decide : (177 : ℕ) < 256)⟩ = St.started from by decide
  have hn370 : ∀ l : Fin 256, stateAt 370 l = Function.update (stateAt 369) ⟨177, hl177⟩ St.done l := show ∀ l : Fin 256, stateAt 370 l = Function.update (stateAt 369) ⟨177, (by decide : (177 : ℕ) < 256)⟩ St.done l from by decide
  iapply (wait_fam c 𝒱₀ arg3 (Memref.whole main_v0_0) i q ai wm hai x3 f 369 177 1 hl177 hj1 rfl hp370 hn370 w370 hw370 (k0_off1109 i) rfl (k0_off1109_inb i) k0_cond370 (fun _ => rfl) (k0_chk370 i) (k0_chk370.dec i) (k0_off1110 i) (fun _ => rfl) (fun _ _ h => h) (k0_off1110_inb i) ((View.wordExact_bits rfl).reshape _ _) (fun _ _ => (View.wordExact_bits rfl).reshape _ _) _ _ W369) $$ [HS HM HC HO]
  · isplitl [HS]; · iexact HS
    isplitl [HM]; · iexact HM
    isplitl [HC]; · iexact HC
    iexact HO
  iintro ⟨HS, HM, HC, S1, %W370, HO⟩
  iapply (loadMask_wp c 𝒱₀ i 178 hl178 q wm rfl) $$ HM
  iintro HM %w371 %hw371
  have hp371 : stateAt 370 ⟨178, hl178⟩ = St.started := show stateAt 370 ⟨178, (by decide : (178 : ℕ) < 256)⟩ = St.started from by decide
  have hn371 : ∀ l : Fin 256, stateAt 371 l = Function.update (stateAt 370) ⟨178, hl178⟩ St.done l := show ∀ l : Fin 256, stateAt 371 l = Function.update (stateAt 370) ⟨178, (by decide : (178 : ℕ) < 256)⟩ St.done l from by decide
  iapply (wait_fam c 𝒱₀ arg3 (Memref.whole main_v0_0) i q ai wm hai x3 f 370 178 2 hl178 hj2 rfl hp371 hn371 w371 hw371 (k0_off1112 i) rfl (k0_off1112_inb i) k0_cond371 (fun _ => rfl) (k0_chk371 i) (k0_chk371.dec i) (k0_off1113 i) (fun _ => rfl) (fun _ _ h => h) (k0_off1113_inb i) ((View.wordExact_bits rfl).reshape _ _) (fun _ _ => (View.wordExact_bits rfl).reshape _ _) _ _ W370) $$ [HS HM HC HO]
  · isplitl [HS]; · iexact HS
    isplitl [HM]; · iexact HM
    isplitl [HC]; · iexact HC
    iexact HO
  iintro ⟨HS, HM, HC, S2, %W371, HO⟩
  iapply (loadMask_wp c 𝒱₀ i 179 hl179 q wm rfl) $$ HM
  iintro HM %w372 %hw372
  rw [wp_pure]
  imodintro
  isplitr; · ipureintro; exact hw372
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 63 of the body: steps 372 to 377, and the load of the next step's mask word. -/
theorem part63_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 179 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 371 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part63 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 185 (by decide)⌝ ∗ ((c : Thread nD τ).loc main_call0_v12 ↦{q} ai) ∗ ((c : Thread nD τ).loc main_call0_v13 ↦{q} wm) ∗ cells c arg3 (Memref.whole main_v0_0) i ai wm hai x3 f 377 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part63_eq_skeleton]; unfold k0_part63_skel
  iintro ⟨HS, HM, HC, S0, S1, S2, HO⟩
  have hl179 : (179 : ℕ) < 256 := by decide
  have hl180 : (180 : ℕ) < 256 := by decide
  have hl181 : (181 : ℕ) < 256 := by decide
  have hl182 : (182 : ℕ) < 256 := by decide
  have hl183 : (183 : ℕ) < 256 := by decide
  have hl184 : (184 : ℕ) < 256 := by decide
  have hl185 : (185 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw372 : w = wordOf wm i 179 hl179 := hw
  have hp372 : stateAt 371 ⟨179, hl179⟩ = St.started := show stateAt 371 ⟨179, (by decide : (179 : ℕ) < 256)⟩ = St.started from by decide
  have hn372 : ∀ l : Fin 256, stateAt 372 l = Function.update (stateAt 371) ⟨179, hl179⟩ St.done l := show ∀ l : Fin 256, stateAt 372 l = Function.update (stateAt 371) ⟨179, (by decide : (179 : ℕ) < 256)⟩ St.done l from by decide
  iapply (wait_fam c 𝒱₀ arg3 (Memref.whole main_v0_0) i q ai wm hai x3 f 371 179 3 hl179 hj3 rfl hp372 hn372 w hw372 (k0_off1115 i) rfl (k0_off1115_inb i) k0_cond372 (fun _ => rfl) (k0_chk372 i) (k0_chk372.dec i) (k0_off1116 i) (fun _ => rfl) (fun _ _ h => h) (k0_off1116_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W372, HO⟩
  iapply (loadMask_wp c 𝒱₀ i 180 hl180 q wm rfl) $$ HM
  iintro HM %w373 %hw373
  have hp373 : stateAt 372 ⟨180, hl180⟩ = St.started := show stateAt 372 ⟨180, (by decide : (180 : ℕ) < 256)⟩ = St.started from by decide
  have hn373 : ∀ l : Fin 256, stateAt 373 l = Function.update (stateAt 372) ⟨180, hl180⟩ St.done l := show ∀ l : Fin 256, stateAt 373 l = Function.update (stateAt 372) ⟨180, (by decide : (180 : ℕ) < 256)⟩ St.done l from by decide
  iapply (wait_fam c 𝒱₀ arg3 (Memref.whole main_v0_0) i q ai wm hai x3 f 372 180 4 hl180 hj4 rfl hp373 hn373 w373 hw373 (k0_off1118 i) rfl (k0_off1118_inb i) k0_cond373 (fun _ => rfl) (k0_chk373 i) (k0_chk373.dec i) (k0_off1119 i) (fun _ => rfl) (fun _ _ h => h) (k0_off1119_inb i) ((View.wordExact_bits rfl).reshape _ _) (fun _ _ => (View.wordExact_bits rfl).reshape _ _) _ _ W372) $$ [HS HM HC HO]
  · isplitl [HS]; · iexact HS
    isplitl [HM]; · iexact HM
    isplitl [HC]; · iexact HC
    iexact HO
  iintro ⟨HS, HM, HC, S4, %W373, HO⟩
  iapply (loadMask_wp c 𝒱₀ i 181 hl181 q wm rfl) $$ HM
  iintro HM %w374 %hw374
  have hp374 : stateAt 373 ⟨181, hl181⟩ = St.started := show stateAt 373 ⟨181, (by decide : (181 : ℕ) < 256)⟩ = St.started from by decide
  have hn374 : ∀ l : Fin 256, stateAt 374 l = Function.update (stateAt 373) ⟨181, hl181⟩ St.done l := show ∀ l : Fin 256, stateAt 374 l = Function.update (stateAt 373) ⟨181, (by decide : (181 : ℕ) < 256)⟩ St.done l from by decide
  iapply (wait_fam c 𝒱₀ arg3 (Memref.whole main_v0_0) i q ai wm hai x3 f 373 181 5 hl181 hj5 rfl hp374 hn374 w374 hw374 (k0_off1121 i) rfl (k0_off1121_inb i) k0_cond374 (fun _ => rfl) (k0_chk374 i) (k0_chk374.dec i) (k0_off1122 i) (fun _ => rfl) (fun _ _ h => h) (k0_off1122_inb i) ((View.wordExact_bits rfl).reshape _ _) (fun _ _ => (View.wordExact_bits rfl).reshape _ _) _ _ W373) $$ [HS HM HC HO]
  · isplitl [HS]; · iexact HS
    isplitl [HM]; · iexact HM
    isplitl [HC]; · iexact HC
    iexact HO
  iintro ⟨HS, HM, HC, S5, %W374, HO⟩
  iapply (loadMask_wp c 𝒱₀ i 182 hl182 q wm rfl) $$ HM
  iintro HM %w375 %hw375
  have hp375 : stateAt 374 ⟨182, hl182⟩ = St.started := show stateAt 374 ⟨182, (by decide : (182 : ℕ) < 256)⟩ = St.started from by decide
  have hn375 : ∀ l : Fin 256, stateAt 375 l = Function.update (stateAt 374) ⟨182, hl182⟩ St.done l := show ∀ l : Fin 256, stateAt 375 l = Function.update (stateAt 374) ⟨182, (by decide : (182 : ℕ) < 256)⟩ St.done l from by decide
  iapply (wait_fam c 𝒱₀ arg3 (Memref.whole main_v0_0) i q ai wm hai x3 f 374 182 6 hl182 hj6 rfl hp375 hn375 w375 hw375 (k0_off1124 i) rfl (k0_off1124_inb i) k0_cond375 (fun _ => rfl) (k0_chk375 i) (k0_chk375.dec i) (k0_off1125 i) (fun _ => rfl) (fun _ _ h => h) (k0_off1125_inb i) ((View.wordExact_bits rfl).reshape _ _) (fun _ _ => (View.wordExact_bits rfl).reshape _ _) _ _ W374) $$ [HS HM HC HO]
  · isplitl [HS]; · iexact HS
    isplitl [HM]; · iexact HM
    isplitl [HC]; · iexact HC
    iexact HO
  iintro ⟨HS, HM, HC, S6, %W375, HO⟩
  iapply (loadMask_wp c 𝒱₀ i 183 hl183 q wm rfl) $$ HM
  iintro HM %w376 %hw376
  have hp376 : stateAt 375 ⟨183, hl183⟩ = St.started := show stateAt 375 ⟨183, (by decide : (183 : ℕ) < 256)⟩ = St.started from by decide
  have hn376 : ∀ l : Fin 256, stateAt 376 l = Function.update (stateAt 375) ⟨183, hl183⟩ St.done l := show ∀ l : Fin 256, stateAt 376 l = Function.update (stateAt 375) ⟨183, (by decide : (183 : ℕ) < 256)⟩ St.done l from by decide
  iapply (wait_fam c 𝒱₀ arg3 (Memref.whole main_v0_0) i q ai wm hai x3 f 375 183 7 hl183 hj7 rfl hp376 hn376 w376 hw376 (k0_off1127 i) rfl (k0_off1127_inb i) k0_cond376 (fun _ => rfl) (k0_chk376 i) (k0_chk376.dec i) (k0_off1128 i) (fun _ => rfl) (fun _ _ h => h) (k0_off1128_inb i) ((View.wordExact_bits rfl).reshape _ _) (fun _ _ => (View.wordExact_bits rfl).reshape _ _) _ _ W375) $$ [HS HM HC HO]
  · isplitl [HS]; · iexact HS
    isplitl [HM]; · iexact HM
    isplitl [HC]; · iexact HC
    iexact HO
  iintro ⟨HS, HM, HC, S7, %W376, HO⟩
  iapply (loadMask_wp c 𝒱₀ i 184 hl184 q wm rfl) $$ HM
  iintro HM %w377 %hw377
  have hp377 : stateAt 376 ⟨184, hl184⟩ = St.started := show stateAt 376 ⟨184, (by decide : (184 : ℕ) < 256)⟩ = St.started from by decide
  have hn377 : ∀ l : Fin 256, stateAt 377 l = Function.update (stateAt 376) ⟨184, hl184⟩ St.done l := show ∀ l : Fin 256, stateAt 377 l = Function.update (stateAt 376) ⟨184, (by decide : (184 : ℕ) < 256)⟩ St.done l from by decide
  iapply (wait_fam c 𝒱₀ arg3 (Memref.whole main_v0_0) i q ai wm hai x3 f 376 184 8 hl184 hj8 rfl hp377 hn377 w377 hw377 (k0_off1130 i) rfl (k0_off1130_inb i) k0_cond377 (fun _ => rfl) (k0_chk377 i) (k0_chk377.dec i) (k0_off1131 i) (fun _ => rfl) (fun _ _ h => h) (k0_off1131_inb i) ((View.wordExact_bits rfl).reshape _ _) (fun _ _ => (View.wordExact_bits rfl).reshape _ _) _ _ W376) $$ [HS HM HC HO]
  · isplitl [HS]; · iexact HS
    isplitl [HM]; · iexact HM
    isplitl [HC]; · iexact HC
    iexact HO
  iintro ⟨HS, HM, HC, S8, %W377, HO⟩
  iapply (loadMask_wp c 𝒱₀ i 185 hl185 q wm rfl) $$ HM
  iintro HM %w378 %hw378
  rw [wp_pure]
  imodintro
  isplitr; · ipureintro; exact hw378
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 64 of the body: steps 378 to 383, and the load of the next step's mask word. -/
theorem part64_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 185 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 377 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part64 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 191 (by decide)⌝ ∗ ((c : Thread nD τ).loc main_call0_v12 ↦{q} ai) ∗ ((c : Thread nD τ).loc main_call0_v13 ↦{q} wm) ∗ cells c arg3 (Memref.whole main_v0_0) i ai wm hai x3 f 383 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part64_eq_skeleton]; unfold k0_part64_skel
  iintro ⟨HS, HM, HC, S0, S1, S2, S3, S4, S5, S6, S7, S8, HO⟩
  have hl185 : (185 : ℕ) < 256 := by decide
  have hl186 : (186 : ℕ) < 256 := by decide
  have hl187 : (187 : ℕ) < 256 := by decide
  have hl188 : (188 : ℕ) < 256 := by decide
  have hl189 : (189 : ℕ) < 256 := by decide
  have hl190 : (190 : ℕ) < 256 := by decide
  have hl191 : (191 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw378 : w = wordOf wm i 185 hl185 := hw
  have hp378 : stateAt 377 ⟨185, hl185⟩ = St.started := show stateAt 377 ⟨185, (by decide : (185 : ℕ) < 256)⟩ = St.started from by decide
  have hn378 : ∀ l : Fin 256, stateAt 378 l = Function.update (stateAt 377) ⟨185, hl185⟩ St.done l := show ∀ l : Fin 256, stateAt 378 l = Function.update (stateAt 377) ⟨185, (by decide : (185 : ℕ) < 256)⟩ St.done l from by decide
  iapply (wait_fam c 𝒱₀ arg3 (Memref.whole main_v0_0) i q ai wm hai x3 f 377 185 9 hl185 hj9 rfl hp378 hn378 w hw378 (k0_off1133 i) rfl (k0_off1133_inb i) k0_cond378 (fun _ => rfl) (k0_chk378 i) (k0_chk378.dec i) (k0_off1134 i) (fun _ => rfl) (fun _ _ h => h) (k0_off1134_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W378, HO⟩
  iapply (loadMask_wp c 𝒱₀ i 186 hl186 q wm rfl) $$ HM
  iintro HM %w379 %hw379
  have hp379 : stateAt 378 ⟨186, hl186⟩ = St.started := show stateAt 378 ⟨186, (by decide : (186 : ℕ) < 256)⟩ = St.started from by decide
  have hn379 : ∀ l : Fin 256, stateAt 379 l = Function.update (stateAt 378) ⟨186, hl186⟩ St.done l := show ∀ l : Fin 256, stateAt 379 l = Function.update (stateAt 378) ⟨186, (by decide : (186 : ℕ) < 256)⟩ St.done l from by decide
  iapply (wait_fam c 𝒱₀ arg3 (Memref.whole main_v0_0) i q ai wm hai x3 f 378 186 10 hl186 hj10 rfl hp379 hn379 w379 hw379 (k0_off1136 i) rfl (k0_off1136_inb i) k0_cond379 (fun _ => rfl) (k0_chk379 i) (k0_chk379.dec i) (k0_off1137 i) (fun _ => rfl) (fun _ _ h => h) (k0_off1137_inb i) ((View.wordExact_bits rfl).reshape _ _) (fun _ _ => (View.wordExact_bits rfl).reshape _ _) _ _ W378) $$ [HS HM HC HO]
  · isplitl [HS]; · iexact HS
    isplitl [HM]; · iexact HM
    isplitl [HC]; · iexact HC
    iexact HO
  iintro ⟨HS, HM, HC, S10, %W379, HO⟩
  iapply (loadMask_wp c 𝒱₀ i 187 hl187 q wm rfl) $$ HM
  iintro HM %w380 %hw380
  have hp380 : stateAt 379 ⟨187, hl187⟩ = St.started := show stateAt 379 ⟨187, (by decide : (187 : ℕ) < 256)⟩ = St.started from by decide
  have hn380 : ∀ l : Fin 256, stateAt 380 l = Function.update (stateAt 379) ⟨187, hl187⟩ St.done l := show ∀ l : Fin 256, stateAt 380 l = Function.update (stateAt 379) ⟨187, (by decide : (187 : ℕ) < 256)⟩ St.done l from by decide
  iapply (wait_fam c 𝒱₀ arg3 (Memref.whole main_v0_0) i q ai wm hai x3 f 379 187 11 hl187 hj11 rfl hp380 hn380 w380 hw380 (k0_off1139 i) rfl (k0_off1139_inb i) k0_cond380 (fun _ => rfl) (k0_chk380 i) (k0_chk380.dec i) (k0_off1140 i) (fun _ => rfl) (fun _ _ h => h) (k0_off1140_inb i) ((View.wordExact_bits rfl).reshape _ _) (fun _ _ => (View.wordExact_bits rfl).reshape _ _) _ _ W379) $$ [HS HM HC HO]
  · isplitl [HS]; · iexact HS
    isplitl [HM]; · iexact HM
    isplitl [HC]; · iexact HC
    iexact HO
  iintro ⟨HS, HM, HC, S11, %W380, HO⟩
  iapply (loadMask_wp c 𝒱₀ i 188 hl188 q wm rfl) $$ HM
  iintro HM %w381 %hw381
  have hp381 : stateAt 380 ⟨188, hl188⟩ = St.started := show stateAt 380 ⟨188, (by decide : (188 : ℕ) < 256)⟩ = St.started from by decide
  have hn381 : ∀ l : Fin 256, stateAt 381 l = Function.update (stateAt 380) ⟨188, hl188⟩ St.done l := show ∀ l : Fin 256, stateAt 381 l = Function.update (stateAt 380) ⟨188, (by decide : (188 : ℕ) < 256)⟩ St.done l from by decide
  iapply (wait_fam c 𝒱₀ arg3 (Memref.whole main_v0_0) i q ai wm hai x3 f 380 188 12 hl188 hj12 rfl hp381 hn381 w381 hw381 (k0_off1142 i) rfl (k0_off1142_inb i) k0_cond381 (fun _ => rfl) (k0_chk381 i) (k0_chk381.dec i) (k0_off1143 i) (fun _ => rfl) (fun _ _ h => h) (k0_off1143_inb i) ((View.wordExact_bits rfl).reshape _ _) (fun _ _ => (View.wordExact_bits rfl).reshape _ _) _ _ W380) $$ [HS HM HC HO]
  · isplitl [HS]; · iexact HS
    isplitl [HM]; · iexact HM
    isplitl [HC]; · iexact HC
    iexact HO
  iintro ⟨HS, HM, HC, S12, %W381, HO⟩
  iapply (loadMask_wp c 𝒱₀ i 189 hl189 q wm rfl) $$ HM
  iintro HM %w382 %hw382
  have hp382 : stateAt 381 ⟨189, hl189⟩ = St.started := show stateAt 381 ⟨189, (by decide : (189 : ℕ) < 256)⟩ = St.started from by decide
  have hn382 : ∀ l : Fin 256, stateAt 382 l = Function.update (stateAt 381) ⟨189, hl189⟩ St.done l := show ∀ l : Fin 256, stateAt 382 l = Function.update (stateAt 381) ⟨189, (by decide : (189 : ℕ) < 256)⟩ St.done l from by decide
  iapply (wait_fam c 𝒱₀ arg3 (Memref.whole main_v0_0) i q ai wm hai x3 f 381 189 13 hl189 hj13 rfl hp382 hn382 w382 hw382 (k0_off1145 i) rfl (k0_off1145_inb i) k0_cond382 (fun _ => rfl) (k0_chk382 i) (k0_chk382.dec i) (k0_off1146 i) (fun _ => rfl) (fun _ _ h => h) (k0_off1146_inb i) ((View.wordExact_bits rfl).reshape _ _) (fun _ _ => (View.wordExact_bits rfl).reshape _ _) _ _ W381) $$ [HS HM HC HO]
  · isplitl [HS]; · iexact HS
    isplitl [HM]; · iexact HM
    isplitl [HC]; · iexact HC
    iexact HO
  iintro ⟨HS, HM, HC, S13, %W382, HO⟩
  iapply (loadMask_wp c 𝒱₀ i 190 hl190 q wm rfl) $$ HM
  iintro HM %w383 %hw383
  have hp383 : stateAt 382 ⟨190, hl190⟩ = St.started := show stateAt 382 ⟨190, (by decide : (190 : ℕ) < 256)⟩ = St.started from by decide
  have hn383 : ∀ l : Fin 256, stateAt 383 l = Function.update (stateAt 382) ⟨190, hl190⟩ St.done l := show ∀ l : Fin 256, stateAt 383 l = Function.update (stateAt 382) ⟨190, (by decide : (190 : ℕ) < 256)⟩ St.done l from by decide
  iapply (wait_fam c 𝒱₀ arg3 (Memref.whole main_v0_0) i q ai wm hai x3 f 382 190 14 hl190 hj14 rfl hp383 hn383 w383 hw383 (k0_off1148 i) rfl (k0_off1148_inb i) k0_cond383 (fun _ => rfl) (k0_chk383 i) (k0_chk383.dec i) (k0_off1149 i) (fun _ => rfl) (fun _ _ h => h) (k0_off1149_inb i) ((View.wordExact_bits rfl).reshape _ _) (fun _ _ => (View.wordExact_bits rfl).reshape _ _) _ _ W382) $$ [HS HM HC HO]
  · isplitl [HS]; · iexact HS
    isplitl [HM]; · iexact HM
    isplitl [HC]; · iexact HC
    iexact HO
  iintro ⟨HS, HM, HC, S14, %W383, HO⟩
  iapply (loadMask_wp c 𝒱₀ i 191 hl191 q wm rfl) $$ HM
  iintro HM %w384 %hw384
  rw [wp_pure]
  imodintro
  isplitr; · ipureintro; exact hw384
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 65 of the body: steps 384 to 389, and the load of the next step's mask word. -/
theorem part65_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 191 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 383 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part65 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 197 (by decide)⌝ ∗ ((c : Thread nD τ).loc main_call0_v12 ↦{q} ai) ∗ ((c : Thread nD τ).loc main_call0_v13 ↦{q} wm) ∗ cells c arg3 (Memref.whole main_v0_0) i ai wm hai x3 f 389 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part65_eq_skeleton]; unfold k0_part65_skel
  iintro ⟨HS, HM, HC, S0, S1, S2, S3, S4, S5, S6, S7, S8, S9, S10, S11, S12, S13, S14, HO⟩
  have hl191 : (191 : ℕ) < 256 := by decide
  have hl192 : (192 : ℕ) < 256 := by decide
  have hl193 : (193 : ℕ) < 256 := by decide
  have hl194 : (194 : ℕ) < 256 := by decide
  have hl195 : (195 : ℕ) < 256 := by decide
  have hl196 : (196 : ℕ) < 256 := by decide
  have hl197 : (197 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw384 : w = wordOf wm i 191 hl191 := hw
  have hp384 : stateAt 383 ⟨191, hl191⟩ = St.started := show stateAt 383 ⟨191, (by decide : (191 : ℕ) < 256)⟩ = St.started from by decide
  have hn384 : ∀ l : Fin 256, stateAt 384 l = Function.update (stateAt 383) ⟨191, hl191⟩ St.done l := show ∀ l : Fin 256, stateAt 384 l = Function.update (stateAt 383) ⟨191, (by decide : (191 : ℕ) < 256)⟩ St.done l from by decide
  iapply (wait_fam c 𝒱₀ arg3 (Memref.whole main_v0_0) i q ai wm hai x3 f 383 191 15 hl191 hj15 rfl hp384 hn384 w hw384 (k0_off1151 i) rfl (k0_off1151_inb i) k0_cond384 (fun _ => rfl) (k0_chk384 i) (k0_chk384.dec i) (k0_off1152 i) (fun _ => rfl) (fun _ _ h => h) (k0_off1152_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W384, HO⟩
  iapply (loadMask_wp c 𝒱₀ i 192 hl192 q wm rfl) $$ HM
  iintro HM %w385 %hw385
  have hp385 : stateAt 384 ⟨192, hl192⟩ = St.pending := show stateAt 384 ⟨192, (by decide : (192 : ℕ) < 256)⟩ = St.pending from by decide
  have hn385 : ∀ l : Fin 256, stateAt 385 l = Function.update (stateAt 384) ⟨192, hl192⟩ St.started l := show ∀ l : Fin 256, stateAt 385 l = Function.update (stateAt 384) ⟨192, (by decide : (192 : ℕ) < 256)⟩ St.started l from by decide
  iapply (start_fam c 𝒱₀ arg3 (Memref.whole main_v0_0) i q ai wm hai x3 f 384 192 0 hl192 hj0 rfl hp385 hn385 w385 hw385 k0_cond385 (fun _ => rfl) (k0_chk385 i) (k0_chk385.dec i) (k0_off1155 i) (fun _ => rfl) (fun _ _ => rfl) rfl) $$ [HS HC S0]
  · isplitl [HS]; · iexact HS
    isplitl [HC]; · iexact HC
    iexact S0
  iintro ⟨HS, HC⟩
  iapply (loadMask_wp c 𝒱₀ i 193 hl193 q wm rfl) $$ HM
  iintro HM %w386 %hw386
  have hp386 : stateAt 385 ⟨193, hl193⟩ = St.pending := show stateAt 385 ⟨193, (by decide : (193 : ℕ) < 256)⟩ = St.pending from by decide
  have hn386 : ∀ l : Fin 256, stateAt 386 l = Function.update (stateAt 385) ⟨193, hl193⟩ St.started l := show ∀ l : Fin 256, stateAt 386 l = Function.update (stateAt 385) ⟨193, (by decide : (193 : ℕ) < 256)⟩ St.started l from by decide
  iapply (start_fam c 𝒱₀ arg3 (Memref.whole main_v0_0) i q ai wm hai x3 f 385 193 1 hl193 hj1 rfl hp386 hn386 w386 hw386 k0_cond386 (fun _ => rfl) (k0_chk386 i) (k0_chk386.dec i) (k0_off1158 i) (fun _ => rfl) (fun _ _ => rfl) rfl) $$ [HS HC S1]
  · isplitl [HS]; · iexact HS
    isplitl [HC]; · iexact HC
    iexact S1
  iintro ⟨HS, HC⟩
  iapply (loadMask_wp c 𝒱₀ i 194 hl194 q wm rfl) $$ HM
  iintro HM %w387 %hw387
  have hp387 : stateAt 386 ⟨194, hl194⟩ = St.pending := show stateAt 386 ⟨194, (by decide : (194 : ℕ) < 256)⟩ = St.pending from by decide
  have hn387 : ∀ l : Fin 256, stateAt 387 l = Function.update (stateAt 386) ⟨194, hl194⟩ St.started l := show ∀ l : Fin 256, stateAt 387 l = Function.update (stateAt 386) ⟨194, (by decide : (194 : ℕ) < 256)⟩ St.started l from by decide
  iapply (start_fam c 𝒱₀ arg3 (Memref.whole main_v0_0) i q ai wm hai x3 f 386 194 2 hl194 hj2 rfl hp387 hn387 w387 hw387 k0_cond387 (fun _ => rfl) (k0_chk387 i) (k0_chk387.dec i) (k0_off1161 i) (fun _ => rfl) (fun _ _ => rfl) rfl) $$ [HS HC S2]
  · isplitl [HS]; · iexact HS
    isplitl [HC]; · iexact HC
    iexact S2
  iintro ⟨HS, HC⟩
  iapply (loadMask_wp c 𝒱₀ i 195 hl195 q wm rfl) $$ HM
  iintro HM %w388 %hw388
  have hp388 : stateAt 387 ⟨195, hl195⟩ = St.pending := show stateAt 387 ⟨195, (by decide : (195 : ℕ) < 256)⟩ = St.pending from by decide
  have hn388 : ∀ l : Fin 256, stateAt 388 l = Function.update (stateAt 387) ⟨195, hl195⟩ St.started l := show ∀ l : Fin 256, stateAt 388 l = Function.update (stateAt 387) ⟨195, (by decide : (195 : ℕ) < 256)⟩ St.started l from by decide
  iapply (start_fam c 𝒱₀ arg3 (Memref.whole main_v0_0) i q ai wm hai x3 f 387 195 3 hl195 hj3 rfl hp388 hn388 w388 hw388 k0_cond388 (fun _ => rfl) (k0_chk388 i) (k0_chk388.dec i) (k0_off1164 i) (fun _ => rfl) (fun _ _ => rfl) rfl) $$ [HS HC S3]
  · isplitl [HS]; · iexact HS
    isplitl [HC]; · iexact HC
    iexact S3
  iintro ⟨HS, HC⟩
  iapply (loadMask_wp c 𝒱₀ i 196 hl196 q wm rfl) $$ HM
  iintro HM %w389 %hw389
  have hp389 : stateAt 388 ⟨196, hl196⟩ = St.pending := show stateAt 388 ⟨196, (by decide : (196 : ℕ) < 256)⟩ = St.pending from by decide
  have hn389 : ∀ l : Fin 256, stateAt 389 l = Function.update (stateAt 388) ⟨196, hl196⟩ St.started l := show ∀ l : Fin 256, stateAt 389 l = Function.update (stateAt 388) ⟨196, (by decide : (196 : ℕ) < 256)⟩ St.started l from by decide
  iapply (start_fam c 𝒱₀ arg3 (Memref.whole main_v0_0) i q ai wm hai x3 f 388 196 4 hl196 hj4 rfl hp389 hn389 w389 hw389 k0_cond389 (fun _ => rfl) (k0_chk389 i) (k0_chk389.dec i) (k0_off1167 i) (fun _ => rfl) (fun _ _ => rfl) rfl) $$ [HS HC S4]
  · isplitl [HS]; · iexact HS
    isplitl [HC]; · iexact HC
    iexact S4
  iintro ⟨HS, HC⟩
  iapply (loadMask_wp c 𝒱₀ i 197 hl197 q wm rfl) $$ HM
  iintro HM %w390 %hw390
  rw [wp_pure]
  imodintro
  isplitr; · ipureintro; exact hw390
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 66 of the body: steps 390 to 395, and the load of the next step's mask word. -/
theorem part66_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 197 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 389 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part66 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 203 (by decide)⌝ ∗ ((c : Thread nD τ).loc main_call0_v12 ↦{q} ai) ∗ ((c : Thread nD τ).loc main_call0_v13 ↦{q} wm) ∗ cells c arg3 (Memref.whole main_v0_0) i ai wm hai x3 f 395 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part66_eq_skeleton]; unfold k0_part66_skel
  iintro ⟨HS, HM, HC, S5, S6, S7, S8, S9, S10, S11, S12, S13, S14, S15, HO⟩
  have hl197 : (197 : ℕ) < 256 := by decide
  have hl198 : (198 : ℕ) < 256 := by decide
  have hl199 : (199 : ℕ) < 256 := by decide
  have hl200 : (200 : ℕ) < 256 := by decide
  have hl201 : (201 : ℕ) < 256 := by decide
  have hl202 : (202 : ℕ) < 256 := by decide
  have hl203 : (203 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw390 : w = wordOf wm i 197 hl197 := hw
  have hp390 : stateAt 389 ⟨197, hl197⟩ = St.pending := show stateAt 389 ⟨197, (by decide : (197 : ℕ) < 256)⟩ = St.pending from by decide
  have hn390 : ∀ l : Fin 256, stateAt 390 l = Function.update (stateAt 389) ⟨197, hl197⟩ St.started l := show ∀ l : Fin 256, stateAt 390 l = Function.update (stateAt 389) ⟨197, (by decide : (197 : ℕ) < 256)⟩ St.started l from by decide
  iapply (start_fam c 𝒱₀ arg3 (Memref.whole main_v0_0) i q ai wm hai x3 f 389 197 5 hl197 hj5 rfl hp390 hn390 w hw390 k0_cond390 (fun _ => rfl) (k0_chk390 i) (k0_chk390.dec i) (k0_off1170 i) (fun _ => rfl) (fun _ _ => rfl) rfl) $$ [HS HC S5]
  · isplitl [HS]; · iexact HS
    isplitl [HC]; · iexact HC
    iexact S5
  iintro ⟨HS, HC⟩
  iapply (loadMask_wp c 𝒱₀ i 198 hl198 q wm rfl) $$ HM
  iintro HM %w391 %hw391
  have hp391 : stateAt 390 ⟨198, hl198⟩ = St.pending := show stateAt 390 ⟨198, (by decide : (198 : ℕ) < 256)⟩ = St.pending from by decide
  have hn391 : ∀ l : Fin 256, stateAt 391 l = Function.update (stateAt 390) ⟨198, hl198⟩ St.started l := show ∀ l : Fin 256, stateAt 391 l = Function.update (stateAt 390) ⟨198, (by decide : (198 : ℕ) < 256)⟩ St.started l from by decide
  iapply (start_fam c 𝒱₀ arg3 (Memref.whole main_v0_0) i q ai wm hai x3 f 390 198 6 hl198 hj6 rfl hp391 hn391 w391 hw391 k0_cond391 (fun _ => rfl) (k0_chk391 i) (k0_chk391.dec i) (k0_off1173 i) (fun _ => rfl) (fun _ _ => rfl) rfl) $$ [HS HC S6]
  · isplitl [HS]; · iexact HS
    isplitl [HC]; · iexact HC
    iexact S6
  iintro ⟨HS, HC⟩
  iapply (loadMask_wp c 𝒱₀ i 199 hl199 q wm rfl) $$ HM
  iintro HM %w392 %hw392
  have hp392 : stateAt 391 ⟨199, hl199⟩ = St.pending := show stateAt 391 ⟨199, (by decide : (199 : ℕ) < 256)⟩ = St.pending from by decide
  have hn392 : ∀ l : Fin 256, stateAt 392 l = Function.update (stateAt 391) ⟨199, hl199⟩ St.started l := show ∀ l : Fin 256, stateAt 392 l = Function.update (stateAt 391) ⟨199, (by decide : (199 : ℕ) < 256)⟩ St.started l from by decide
  iapply (start_fam c 𝒱₀ arg3 (Memref.whole main_v0_0) i q ai wm hai x3 f 391 199 7 hl199 hj7 rfl hp392 hn392 w392 hw392 k0_cond392 (fun _ => rfl) (k0_chk392 i) (k0_chk392.dec i) (k0_off1176 i) (fun _ => rfl) (fun _ _ => rfl) rfl) $$ [HS HC S7]
  · isplitl [HS]; · iexact HS
    isplitl [HC]; · iexact HC
    iexact S7
  iintro ⟨HS, HC⟩
  iapply (loadMask_wp c 𝒱₀ i 200 hl200 q wm rfl) $$ HM
  iintro HM %w393 %hw393
  have hp393 : stateAt 392 ⟨200, hl200⟩ = St.pending := show stateAt 392 ⟨200, (by decide : (200 : ℕ) < 256)⟩ = St.pending from by decide
  have hn393 : ∀ l : Fin 256, stateAt 393 l = Function.update (stateAt 392) ⟨200, hl200⟩ St.started l := show ∀ l : Fin 256, stateAt 393 l = Function.update (stateAt 392) ⟨200, (by decide : (200 : ℕ) < 256)⟩ St.started l from by decide
  iapply (start_fam c 𝒱₀ arg3 (Memref.whole main_v0_0) i q ai wm hai x3 f 392 200 8 hl200 hj8 rfl hp393 hn393 w393 hw393 k0_cond393 (fun _ => rfl) (k0_chk393 i) (k0_chk393.dec i) (k0_off1179 i) (fun _ => rfl) (fun _ _ => rfl) rfl) $$ [HS HC S8]
  · isplitl [HS]; · iexact HS
    isplitl [HC]; · iexact HC
    iexact S8
  iintro ⟨HS, HC⟩
  iapply (loadMask_wp c 𝒱₀ i 201 hl201 q wm rfl) $$ HM
  iintro HM %w394 %hw394
  have hp394 : stateAt 393 ⟨201, hl201⟩ = St.pending := show stateAt 393 ⟨201, (by decide : (201 : ℕ) < 256)⟩ = St.pending from by decide
  have hn394 : ∀ l : Fin 256, stateAt 394 l = Function.update (stateAt 393) ⟨201, hl201⟩ St.started l := show ∀ l : Fin 256, stateAt 394 l = Function.update (stateAt 393) ⟨201, (by decide : (201 : ℕ) < 256)⟩ St.started l from by decide
  iapply (start_fam c 𝒱₀ arg3 (Memref.whole main_v0_0) i q ai wm hai x3 f 393 201 9 hl201 hj9 rfl hp394 hn394 w394 hw394 k0_cond394 (fun _ => rfl) (k0_chk394 i) (k0_chk394.dec i) (k0_off1182 i) (fun _ => rfl) (fun _ _ => rfl) rfl) $$ [HS HC S9]
  · isplitl [HS]; · iexact HS
    isplitl [HC]; · iexact HC
    iexact S9
  iintro ⟨HS, HC⟩
  iapply (loadMask_wp c 𝒱₀ i 202 hl202 q wm rfl) $$ HM
  iintro HM %w395 %hw395
  have hp395 : stateAt 394 ⟨202, hl202⟩ = St.pending := show stateAt 394 ⟨202, (by decide : (202 : ℕ) < 256)⟩ = St.pending from by decide
  have hn395 : ∀ l : Fin 256, stateAt 395 l = Function.update (stateAt 394) ⟨202, hl202⟩ St.started l := show ∀ l : Fin 256, stateAt 395 l = Function.update (stateAt 394) ⟨202, (by decide : (202 : ℕ) < 256)⟩ St.started l from by decide
  iapply (start_fam c 𝒱₀ arg3 (Memref.whole main_v0_0) i q ai wm hai x3 f 394 202 10 hl202 hj10 rfl hp395 hn395 w395 hw395 k0_cond395 (fun _ => rfl) (k0_chk395 i) (k0_chk395.dec i) (k0_off1185 i) (fun _ => rfl) (fun _ _ => rfl) rfl) $$ [HS HC S10]
  · isplitl [HS]; · iexact HS
    isplitl [HC]; · iexact HC
    iexact S10
  iintro ⟨HS, HC⟩
  iapply (loadMask_wp c 𝒱₀ i 203 hl203 q wm rfl) $$ HM
  iintro HM %w396 %hw396
  rw [wp_pure]
  imodintro
  isplitr; · ipureintro; exact hw396
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

end Cert.Kernel.Cells

end
-- ==== Proof.Parts7Bits.lean ====
/-
  Parts 67 to 77 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyBits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 67 of the body: steps 396 to 401, and the load of the next step's mask word. -/
theorem part67_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 203 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 395 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part67 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 193 (by decide)⌝ ∗ ((c : Thread nD τ).loc main_call0_v12 ↦{q} ai) ∗ ((c : Thread nD τ).loc main_call0_v13 ↦{q} wm) ∗ cells c arg3 (Memref.whole main_v0_0) i ai wm hai x3 f 401 ∗ semPt c 0 (sem_inb 0 (by decide)) ∗ ∃ W', owes (c : Thread nD τ) 0 W')) := by
  rw [k0_part67_eq_skeleton]; unfold k0_part67_skel
  iintro ⟨HS, HM, HC, S11, S12, S13, S14, S15, HO⟩
  have hl192 : (192 : ℕ) < 256 := by decide
  have hl193 : (193 : ℕ) < 256 := by decide
  have hl203 : (203 : ℕ) < 256 := by decide
  have hl204 : (204 : ℕ) < 256 := by decide
  have hl205 : (205 : ℕ) < 256 := by decide
  have hl206 : (206 : ℕ) < 256 := by decide
  have hl207 : (207 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw396 : w = wordOf wm i 203 hl203 := hw
  have hp396 : stateAt 395 ⟨203, hl203⟩ = St.pending := show stateAt 395 ⟨203, (by decide : (203 : ℕ) < 256)⟩ = St.pending from by decide
  have hn396 : ∀ l : Fin 256, stateAt 396 l = Function.update (stateAt 395) ⟨203, hl203⟩ St.started l := show ∀ l : Fin 256, stateAt 396 l = Function.update (stateAt 395) ⟨203, (by decide : (203 : ℕ) < 256)⟩ St.started l from by decide
  iapply (start_fam c 𝒱₀ arg3 (Memref.whole main_v0_0) i q ai wm hai x3 f 395 203 11 hl203 hj11 rfl hp396 hn396 w hw396 k0_cond396 (fun _ => rfl) (k0_chk396 i) (k0_chk396.dec i) (k0_off1188 i) (fun _ => rfl) (fun _ _ => rfl) rfl) $$ [HS HC S11]
  · isplitl [HS]; · iexact HS
    isplitl [HC]; · iexact HC
    iexact S11
  iintro ⟨HS, HC⟩
  iapply (loadMask_wp c 𝒱₀ i 204 hl204 q wm rfl) $$ HM
  iintro HM %w397 %hw397
  have hp397 : stateAt 396 ⟨204, hl204⟩ = St.pending := show stateAt 396 ⟨204, (by decide : (204 : ℕ) < 256)⟩ = St.pending from by decide
  have hn397 : ∀ l : Fin 256, stateAt 397 l = Function.update (stateAt 396) ⟨204, hl204⟩ St.started l := show ∀ l : Fin 256, stateAt 397 l = Function.update (stateAt 396) ⟨204, (by decide : (204 : ℕ) < 256)⟩ St.started l from by decide
  iapply (start_fam c 𝒱₀ arg3 (Memref.whole main_v0_0) i q ai wm hai x3 f 396 204 12 hl204 hj12 rfl hp397 hn397 w397 hw397 k0_cond397 (fun _ => rfl) (k0_chk397 i) (k0_chk397.dec i) (k0_off1191 i) (fun _ => rfl) (fun _ _ => rfl) rfl) $$ [HS HC S12]
  · isplitl [HS]; · iexact HS
    isplitl [HC]; · iexact HC
    iexact S12
  iintro ⟨HS, HC⟩
  iapply (loadMask_wp c 𝒱₀ i 205 hl205 q wm rfl) $$ HM
  iintro HM %w398 %hw398
  have hp398 : stateAt 397 ⟨205, hl205⟩ = St.pending := show stateAt 397 ⟨205, (by decide : (205 : ℕ) < 256)⟩ = St.pending from by decide
  have hn398 : ∀ l : Fin 256, stateAt 398 l = Function.update (stateAt 397) ⟨205, hl205⟩ St.started l := show ∀ l : Fin 256, stateAt 398 l = Function.update (stateAt 397) ⟨205, (by decide : (205 : ℕ) < 256)⟩ St.started l from by decide
  iapply (start_fam c 𝒱₀ arg3 (Memref.whole main_v0_0) i q ai wm hai x3 f 397 205 13 hl205 hj13 rfl hp398 hn398 w398 hw398 k0_cond398 (fun _ => rfl) (k0_chk398 i) (k0_chk398.dec i) (k0_off1194 i) (fun _ => rfl) (fun _ _ => rfl) rfl) $$ [HS HC S13]
  · isplitl [HS]; · iexact HS
    isplitl [HC]; · iexact HC
    iexact S13
  iintro ⟨HS, HC⟩
  iapply (loadMask_wp c 𝒱₀ i 206 hl206 q wm rfl) $$ HM
  iintro HM %w399 %hw399
  have hp399 : stateAt 398 ⟨206, hl206⟩ = St.pending := show stateAt 398 ⟨206, (by decide : (206 : ℕ) < 256)⟩ = St.pending from by decide
  have hn399 : ∀ l : Fin 256, stateAt 399 l = Function.update (stateAt 398) ⟨206, hl206⟩ St.started l := show ∀ l : Fin 256, stateAt 399 l = Function.update (stateAt 398) ⟨206, (by decide : (206 : ℕ) < 256)⟩ St.started l from by decide
  iapply (start_fam c 𝒱₀ arg3 (Memref.whole main_v0_0) i q ai wm hai x3 f 398 206 14 hl206 hj14 rfl hp399 hn399 w399 hw399 k0_cond399 (fun _ => rfl) (k0_chk399 i) (k0_chk399.dec i) (k0_off1197 i) (fun _ => rfl) (fun _ _ => rfl) rfl) $$ [HS HC S14]
  · isplitl [HS]; · iexact HS
    isplitl [HC]; · iexact HC
    iexact S14
  iintro ⟨HS, HC⟩
  iapply (loadMask_wp c 𝒱₀ i 207 hl207 q wm rfl) $$ HM
  iintro HM %w400 %hw400
  have hp400 : stateAt 399 ⟨207, hl207⟩ = St.pending := show stateAt 399 ⟨207, (by decide : (207 : ℕ) < 256)⟩ = St.pending from by decide
  have hn400 : ∀ l : Fin 256, stateAt 400 l = Function.update (stateAt 399) ⟨207, hl207⟩ St.started l := show ∀ l : Fin 256, stateAt 400 l = Function.update (stateAt 399) ⟨207, (by decide : (207 : ℕ) < 256)⟩ St.started l from by decide
  iapply (start_fam c 𝒱₀ arg3 (Memref.whole main_v0_0) i q ai wm hai x3 f 399 207 15 hl207 hj15 rfl hp400 hn400 w400 hw400 k0_cond400 (fun _ => rfl) (k0_chk400 i) (k0_chk400.dec i) (k0_off1200 i) (fun _ => rfl) (fun _ _ => rfl) rfl) $$ [HS HC S15]
  · isplitl [HS]; · iexact HS
    isplitl [HC]; · iexact HC
    iexact S15
  iintro ⟨HS, HC⟩
  iapply (loadMask_wp c 𝒱₀ i 192 hl192 q wm rfl) $$ HM
  iintro HM %w401 %hw401
  have hp401 : stateAt 400 ⟨192, hl192⟩ = St.started := show stateAt 400 ⟨192, (by decide : (192 : ℕ) < 256)⟩ = St.started from by decide
  have hn401 : ∀ l : Fin 256, stateAt 401 l = Function.update (stateAt 400) ⟨192, hl192⟩ St.done l := show ∀ l : Fin 256, stateAt 401 l = Function.update (stateAt 400) ⟨192, (by decide : (192 : ℕ) < 256)⟩ St.done l from by decide
  iapply (wait_fam c 𝒱₀ arg3 (Memref.whole main_v0_0) i q ai wm hai x3 f 400 192 0 hl192 hj0 rfl hp401 hn401 w401 hw401 (k0_off1202 i) rfl (k0_off1202_inb i) k0_cond401 (fun _ => rfl) (k0_chk401 i) (k0_chk401.dec i) (k0_off1203 i) (fun _ => rfl) (fun _ _ h => h) (k0_off1203_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W401, HO⟩
  iapply (loadMask_wp c 𝒱₀ i 193 hl193 q wm rfl) $$ HM
  iintro HM %w402 %hw402
  rw [wp_pure]
  imodintro
  isplitr; · ipureintro; exact hw402
  isplitl [HS]; · iexact HS
  isplitl [HM]; · iexact HM
  isplitl [HC]; · iexact HC
  isplitl [S0]; · iexact S0
  iexists _; iexact HO

set_option maxHeartbeats 0 in
/-- Part 68 of the body: steps 402 to 407, and the load of the next step's mask word. -/
theorem part68_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 193 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 401 ∗ semPt c 0 (sem_inb 0 (by decide)) ∗ owes (c : Thread nD τ) 0 W)
      ⊢ wp frame (wpE (defs₀ (F := F)) 𝒱₀ (c : Thread nD τ) none) Set.univ (k0_part68 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 199 (by decide)⌝ ∗ ((c : Thread nD τ).loc main_call0_v12 ↦{q} ai) ∗ ((c : Thread nD τ).loc main_call0_v13 ↦{q} wm) ∗ cells c arg3 (Memref.whole main_v0_0) i ai wm hai x3 f 407 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part68_eq_skeleton]; unfold k0_part68_skel
  iintro ⟨HS, HM, HC, S0, HO⟩
  have hl193 : (193 : ℕ) < 256 := by decide
  have hl194 : (194 : ℕ) < 256 := by decide
  have hl195 : (195 : ℕ) < 256 := by decide
  have hl196 : (196 : ℕ) < 256 := by decide
  have hl197 : (197 : ℕ) < 256 := by decide
  have hl198 : (198 : ℕ) < 256 := by decide
  have hl199 : (199 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw402 : w = wordOf wm i 193 hl193 := hw
  have hp402 : stateAt 401 ⟨193, hl193⟩ = St.started := show stateAt 401 ⟨193, (by decide : (193 : ℕ) < 256)⟩ = St.started from by decide
  have hn402 : ∀ l : Fin 256, stateAt 402 l = Function.update (stateAt 401) ⟨193, hl193⟩ St.done l := show ∀ l : Fin 256, stateAt 402 l = Function.update (stateAt 401) ⟨193, (by decide : (193 : ℕ) < 256)⟩ St.done l from by decide
  iapply (wait_fam c 𝒱₀ arg3 (Memref.whole main_v0_0) i q ai wm hai x3 f 401 193 1 hl193 hj1 rfl hp402 hn402 w hw402 (k0_off1205 i) rfl (k0_off1205_inb i) k0_cond402 (fun _ => rfl) (k0_chk402 i) (k0_chk402.dec i) (k0_off1206 i) (fun _ => rfl) (fun _ _ h => h) (k0_off1206_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W402, HO⟩
  iapply (loadMask_wp c 𝒱₀ i 194 hl194 q wm rfl) $$ HM
  iintro HM %w403 %hw403
  have hp403 : stateAt 402 ⟨194, hl194⟩ = St.started := show stateAt 402 ⟨194, (by decide : (194 : ℕ) < 256)⟩ = St.started from by decide
  have hn403 : ∀ l : Fin 256, stateAt 403 l = Function.update (stateAt 402) ⟨194, hl194⟩ St.done l := show ∀ l : Fin 256, stateAt 403 l = Function.update (stateAt 402) ⟨194, (by decide : (194 : ℕ) < 256)⟩ St.done l from by decide
  iapply (wait_fam c 𝒱₀ arg3 (Memref.whole main_v0_0) i q ai wm hai x3 f 402 194 2 hl194 hj2 rfl hp403 hn403 w403 hw403 (k0_off1208 i) rfl (k0_off1208_inb i) k0_cond403 (fun _ => rfl) (k0_chk403 i) (k0_chk403.dec i) (k0_off1209 i) (fun _ => rfl) (fun _ _ h => h) (k0_off1209_inb i) ((View.wordExact_bits rfl).reshape _ _) (fun _ _ => (View.wordExact_bits rfl).reshape _ _) _ _ W402) $$ [HS HM HC HO]
  · isplitl [HS]; · iexact HS
    isplitl [HM]; · iexact HM
    isplitl [HC]; · iexact HC
    iexact HO
  iintro ⟨HS, HM, HC, S2, %W403, HO⟩
  iapply (loadMask_wp c 𝒱₀ i 195 hl195 q wm rfl) $$ HM
  iintro HM %w404 %hw404
  have hp404 : stateAt 403 ⟨195, hl195⟩ = St.started := show stateAt 403 ⟨195, (by decide : (195 : ℕ) < 256)⟩ = St.started from by decide
  have hn404 : ∀ l : Fin 256, stateAt 404 l = Function.update (stateAt 403) ⟨195, hl195⟩ St.done l := show ∀ l : Fin 256, stateAt 404 l = Function.update (stateAt 403) ⟨195, (by decide : (195 : ℕ) < 256)⟩ St.done l from by decide
  iapply (wait_fam c 𝒱₀ arg3 (Memref.whole main_v0_0) i q ai wm hai x3 f 403 195 3 hl195 hj3 rfl hp404 hn404 w404 hw404 (k0_off1211 i) rfl (k0_off1211_inb i) k0_cond404 (fun _ => rfl) (k0_chk404 i) (k0_chk404.dec i) (k0_off1212 i) (fun _ => rfl) (fun _ _ h => h) (k0_off1212_inb i) ((View.wordExact_bits rfl).reshape _ _) (fun _ _ => (View.wordExact_bits rfl).reshape _ _) _ _ W403) $$ [HS HM HC HO]
  · isplitl [HS]; · iexact HS
    isplitl [HM]; · iexact HM
    isplitl [HC]; · iexact HC
    iexact HO
  iintro ⟨HS, HM, HC, S3, %W404, HO⟩
  iapply (loadMask_wp c 𝒱₀ i 196 hl196 q wm rfl) $$ HM
  iintro HM %w405 %hw405
  have hp405 : stateAt 404 ⟨196, hl196⟩ = St.started := show stateAt 404 ⟨196, (by decide : (196 : ℕ) < 256)⟩ = St.started from by decide
  have hn405 : ∀ l : Fin 256, stateAt 405 l = Function.update (stateAt 404) ⟨196, hl196⟩ St.done l := show ∀ l : Fin 256, stateAt 405 l = Function.update (stateAt 404) ⟨196, (by decide : (196 : ℕ) < 256)⟩ St.done l from by decide
  iapply (wait_fam c 𝒱₀ arg3 (Memref.whole main_v0_0) i q ai wm hai x3 f 404 196 4 hl196 hj4 rfl hp405 hn405 w405 hw405 (k0_off1214 i) rfl (k0_off1214_inb i) k0_cond405 (fun _ => rfl) (k0_chk405 i) (k0_chk405.dec i) (k0_off1215 i) (fun _ => rfl) (fun _ _ h => h) (k0_off1215_inb i) ((View.wordExact_bits rfl).reshape _ _) (fun _ _ => (View.wordExact_bits rfl).reshape _ _) _ _ W404) $$ [HS HM HC HO]
  · isplitl [HS]; · iexact HS
    isplitl [HM]; · iexact HM
    isplitl [HC]; · iexact HC
    iexact HO
  iintro ⟨HS, HM, HC, S4, %W405, HO⟩
  iapply (loadMask_wp c 𝒱₀ i 197 hl197 q wm rfl) $$ HM
  iintro HM %w406 %hw406
  have hp406 : stateAt 405 ⟨197, hl197⟩ = St.started := show stateAt 405 ⟨197, (by decide : (197 : ℕ) < 256)⟩ = St.started from by decide
  have hn406 : ∀ l : Fin 256, stateAt 406 l = Function.update (stateAt 405) ⟨197, hl197⟩ St.done l := show ∀ l : Fin 256, stateAt 406 l = Function.update (stateAt 405) ⟨197, (by decide : (197 : ℕ) < 256)⟩ St.done l from by decide
  iapply (wait_fam c 𝒱₀ arg3 (Memref.whole main_v0_0) i q ai wm hai x3 f 405 197 5 hl197 hj5 rfl hp406 hn406 w406 hw406 (k0_off1217 i) rfl (k0_off1217_inb i) k0_cond406 (fun _ => rfl) (k0_chk406 i) (k0_chk406.dec i) (k0_off1218 i) (fun _ => rfl) (fun _ _ h => h) (k0_off1218_inb i) ((View.wordExact_bits rfl).reshape _ _) (fun _ _ => (View.wordExact_bits rfl).reshape _ _) _ _ W405) $$ [HS HM HC HO]
  · isplitl [HS]; · iexact HS
    isplitl [HM]; · iexact HM
    isplitl [HC]; · iexact HC
    iexact HO
  iintro ⟨HS, HM, HC, S5, %W406, HO⟩
  iapply (loadMask_wp c 𝒱₀ i 198 hl198 q wm rfl) $$ HM
  iintro HM %w407 %hw407
  have hp407 : stateAt 406 ⟨198, hl198⟩ = St.started := show stateAt 406 ⟨198, (by decide : (198 : ℕ) < 256)⟩ = St.started from by decide
  have hn407 : ∀ l : Fin 256, stateAt 407 l = Function.update (stateAt 406) ⟨198, hl198⟩ St.done l := show ∀ l : Fin 256, stateAt 407 l = Function.update (stateAt 406) ⟨198, (by decide : (198 : ℕ) < 256)⟩ St.done l from by decide
  iapply (wait_fam c 𝒱₀ arg3 (Memref.whole main_v0_0) i q ai wm hai x3 f 406 198 6 hl198 hj6 rfl hp407 hn407 w407 hw407 (k0_off1220 i) rfl (k0_off1220_inb i) k0_cond407 (fun _ => rfl) (k0_chk407 i) (k0_chk407.dec i) (k0_off1221 i) (fun _ => rfl) (fun _ _ h => h) (k0_off1221_inb i) ((View.wordExact_bits rfl).reshape _ _) (fun _ _ => (View.wordExact_bits rfl).reshape _ _) _ _ W406) $$ [HS HM HC HO]
  · isplitl [HS]; · iexact HS
    isplitl [HM]; · iexact HM
    isplitl [HC]; · iexact HC
    iexact HO
  iintro ⟨HS, HM, HC, S6, %W407, HO⟩
  iapply (loadMask_wp c 𝒱₀ i 199 hl199 q wm rfl) $$ HM
  iintro HM %w408 %hw408
  rw [wp_pure]
  imodintro
  isplitr; · ipureintro; exact hw408
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 69 of the body: steps 408 to 413, and the load of the next step's mask word. -/
theorem part69_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 199 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 407 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part69 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 205 (by decide)⌝ ∗ ((c : Thread nD τ).loc main_call0_v12 ↦{q} ai) ∗ ((c : Thread nD τ).loc main_call0_v13 ↦{q} wm) ∗ cells c arg3 (Memref.whole main_v0_0) i ai wm hai x3 f 413 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part69_eq_skeleton]; unfold k0_part69_skel
  iintro ⟨HS, HM, HC, S0, S1, S2, S3, S4, S5, S6, HO⟩
  have hl199 : (199 : ℕ) < 256 := by decide
  have hl200 : (200 : ℕ) < 256 := by decide
  have hl201 : (201 : ℕ) < 256 := by decide
  have hl202 : (202 : ℕ) < 256 := by decide
  have hl203 : (203 : ℕ) < 256 := by decide
  have hl204 : (204 : ℕ) < 256 := by decide
  have hl205 : (205 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw408 : w = wordOf wm i 199 hl199 := hw
  have hp408 : stateAt 407 ⟨199, hl199⟩ = St.started := show stateAt 407 ⟨199, (by decide : (199 : ℕ) < 256)⟩ = St.started from by decide
  have hn408 : ∀ l : Fin 256, stateAt 408 l = Function.update (stateAt 407) ⟨199, hl199⟩ St.done l := show ∀ l : Fin 256, stateAt 408 l = Function.update (stateAt 407) ⟨199, (by decide : (199 : ℕ) < 256)⟩ St.done l from by decide
  iapply (wait_fam c 𝒱₀ arg3 (Memref.whole main_v0_0) i q ai wm hai x3 f 407 199 7 hl199 hj7 rfl hp408 hn408 w hw408 (k0_off1223 i) rfl (k0_off1223_inb i) k0_cond408 (fun _ => rfl) (k0_chk408 i) (k0_chk408.dec i) (k0_off1224 i) (fun _ => rfl) (fun _ _ h => h) (k0_off1224_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W408, HO⟩
  iapply (loadMask_wp c 𝒱₀ i 200 hl200 q wm rfl) $$ HM
  iintro HM %w409 %hw409
  have hp409 : stateAt 408 ⟨200, hl200⟩ = St.started := show stateAt 408 ⟨200, (by decide : (200 : ℕ) < 256)⟩ = St.started from by decide
  have hn409 : ∀ l : Fin 256, stateAt 409 l = Function.update (stateAt 408) ⟨200, hl200⟩ St.done l := show ∀ l : Fin 256, stateAt 409 l = Function.update (stateAt 408) ⟨200, (by decide : (200 : ℕ) < 256)⟩ St.done l from by decide
  iapply (wait_fam c 𝒱₀ arg3 (Memref.whole main_v0_0) i q ai wm hai x3 f 408 200 8 hl200 hj8 rfl hp409 hn409 w409 hw409 (k0_off1226 i) rfl (k0_off1226_inb i) k0_cond409 (fun _ => rfl) (k0_chk409 i) (k0_chk409.dec i) (k0_off1227 i) (fun _ => rfl) (fun _ _ h => h) (k0_off1227_inb i) ((View.wordExact_bits rfl).reshape _ _) (fun _ _ => (View.wordExact_bits rfl).reshape _ _) _ _ W408) $$ [HS HM HC HO]
  · isplitl [HS]; · iexact HS
    isplitl [HM]; · iexact HM
    isplitl [HC]; · iexact HC
    iexact HO
  iintro ⟨HS, HM, HC, S8, %W409, HO⟩
  iapply (loadMask_wp c 𝒱₀ i 201 hl201 q wm rfl) $$ HM
  iintro HM %w410 %hw410
  have hp410 : stateAt 409 ⟨201, hl201⟩ = St.started := show stateAt 409 ⟨201, (by decide : (201 : ℕ) < 256)⟩ = St.started from by decide
  have hn410 : ∀ l : Fin 256, stateAt 410 l = Function.update (stateAt 409) ⟨201, hl201⟩ St.done l := show ∀ l : Fin 256, stateAt 410 l = Function.update (stateAt 409) ⟨201, (by decide : (201 : ℕ) < 256)⟩ St.done l from by decide
  iapply (wait_fam c 𝒱₀ arg3 (Memref.whole main_v0_0) i q ai wm hai x3 f 409 201 9 hl201 hj9 rfl hp410 hn410 w410 hw410 (k0_off1229 i) rfl (k0_off1229_inb i) k0_cond410 (fun _ => rfl) (k0_chk410 i) (k0_chk410.dec i) (k0_off1230 i) (fun _ => rfl) (fun _ _ h => h) (k0_off1230_inb i) ((View.wordExact_bits rfl).reshape _ _) (fun _ _ => (View.wordExact_bits rfl).reshape _ _) _ _ W409) $$ [HS HM HC HO]
  · isplitl [HS]; · iexact HS
    isplitl [HM]; · iexact HM
    isplitl [HC]; · iexact HC
    iexact HO
  iintro ⟨HS, HM, HC, S9, %W410, HO⟩
  iapply (loadMask_wp c 𝒱₀ i 202 hl202 q wm rfl) $$ HM
  iintro HM %w411 %hw411
  have hp411 : stateAt 410 ⟨202, hl202⟩ = St.started := show stateAt 410 ⟨202, (by decide : (202 : ℕ) < 256)⟩ = St.started from by decide
  have hn411 : ∀ l : Fin 256, stateAt 411 l = Function.update (stateAt 410) ⟨202, hl202⟩ St.done l := show ∀ l : Fin 256, stateAt 411 l = Function.update (stateAt 410) ⟨202, (by decide : (202 : ℕ) < 256)⟩ St.done l from by decide
  iapply (wait_fam c 𝒱₀ arg3 (Memref.whole main_v0_0) i q ai wm hai x3 f 410 202 10 hl202 hj10 rfl hp411 hn411 w411 hw411 (k0_off1232 i) rfl (k0_off1232_inb i) k0_cond411 (fun _ => rfl) (k0_chk411 i) (k0_chk411.dec i) (k0_off1233 i) (fun _ => rfl) (fun _ _ h => h) (k0_off1233_inb i) ((View.wordExact_bits rfl).reshape _ _) (fun _ _ => (View.wordExact_bits rfl).reshape _ _) _ _ W410) $$ [HS HM HC HO]
  · isplitl [HS]; · iexact HS
    isplitl [HM]; · iexact HM
    isplitl [HC]; · iexact HC
    iexact HO
  iintro ⟨HS, HM, HC, S10, %W411, HO⟩
  iapply (loadMask_wp c 𝒱₀ i 203 hl203 q wm rfl) $$ HM
  iintro HM %w412 %hw412
  have hp412 : stateAt 411 ⟨203, hl203⟩ = St.started := show stateAt 411 ⟨203, (by decide : (203 : ℕ) < 256)⟩ = St.started from by decide
  have hn412 : ∀ l : Fin 256, stateAt 412 l = Function.update (stateAt 411) ⟨203, hl203⟩ St.done l := show ∀ l : Fin 256, stateAt 412 l = Function.update (stateAt 411) ⟨203, (by decide : (203 : ℕ) < 256)⟩ St.done l from by decide
  iapply (wait_fam c 𝒱₀ arg3 (Memref.whole main_v0_0) i q ai wm hai x3 f 411 203 11 hl203 hj11 rfl hp412 hn412 w412 hw412 (k0_off1235 i) rfl (k0_off1235_inb i) k0_cond412 (fun _ => rfl) (k0_chk412 i) (k0_chk412.dec i) (k0_off1236 i) (fun _ => rfl) (fun _ _ h => h) (k0_off1236_inb i) ((View.wordExact_bits rfl).reshape _ _) (fun _ _ => (View.wordExact_bits rfl).reshape _ _) _ _ W411) $$ [HS HM HC HO]
  · isplitl [HS]; · iexact HS
    isplitl [HM]; · iexact HM
    isplitl [HC]; · iexact HC
    iexact HO
  iintro ⟨HS, HM, HC, S11, %W412, HO⟩
  iapply (loadMask_wp c 𝒱₀ i 204 hl204 q wm rfl) $$ HM
  iintro HM %w413 %hw413
  have hp413 : stateAt 412 ⟨204, hl204⟩ = St.started := show stateAt 412 ⟨204, (by decide : (204 : ℕ) < 256)⟩ = St.started from by decide
  have hn413 : ∀ l : Fin 256, stateAt 413 l = Function.update (stateAt 412) ⟨204, hl204⟩ St.done l := show ∀ l : Fin 256, stateAt 413 l = Function.update (stateAt 412) ⟨204, (by decide : (204 : ℕ) < 256)⟩ St.done l from by decide
  iapply (wait_fam c 𝒱₀ arg3 (Memref.whole main_v0_0) i q ai wm hai x3 f 412 204 12 hl204 hj12 rfl hp413 hn413 w413 hw413 (k0_off1238 i) rfl (k0_off1238_inb i) k0_cond413 (fun _ => rfl) (k0_chk413 i) (k0_chk413.dec i) (k0_off1239 i) (fun _ => rfl) (fun _ _ h => h) (k0_off1239_inb i) ((View.wordExact_bits rfl).reshape _ _) (fun _ _ => (View.wordExact_bits rfl).reshape _ _) _ _ W412) $$ [HS HM HC HO]
  · isplitl [HS]; · iexact HS
    isplitl [HM]; · iexact HM
    isplitl [HC]; · iexact HC
    iexact HO
  iintro ⟨HS, HM, HC, S12, %W413, HO⟩
  iapply (loadMask_wp c 𝒱₀ i 205 hl205 q wm rfl) $$ HM
  iintro HM %w414 %hw414
  rw [wp_pure]
  imodintro
  isplitr; · ipureintro; exact hw414
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

set_option maxHeartbeats 0 in
/-- Part 70 of the body: steps 414 to 419, and the load of the next step's mask word. -/
theorem part70_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 205 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 413 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ owes (c : Thread nD τ) 0 W)
      ⊢ wp frame (wpE (defs₀ (F := F)) 𝒱₀ (c : Thread nD τ) none) Set.univ (k0_part70 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 211 (by decide)⌝ ∗ ((c : Thread nD τ).loc main_call0_v12 ↦{q} ai) ∗ ((c : Thread nD τ).loc main_call0_v13 ↦{q} wm) ∗ cells c arg3 (Memref.whole main_v0_0) i ai wm hai x3 f 419 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part70_eq_skeleton]; unfold k0_part70_skel
  iintro ⟨HS, HM, HC, S0, S1, S2, S3, S4, S5, S6, S7, S8, S9, S10, S11, S12, HO⟩
  have hl205 : (205 : ℕ) < 256 := by decide
  have hl206 : (206 : ℕ) < 256 := by decide
  have hl207 : (207 : ℕ) < 256 := by decide
  have hl208 : (208 : ℕ) < 256 := by decide
  have hl209 : (209 : ℕ) < 256 := by decide
  have hl210 : (210 : ℕ) < 256 := by decide
  have hl211 : (211 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw414 : w = wordOf wm i 205 hl205 := hw
  have hp414 : stateAt 413 ⟨205, hl205⟩ = St.started := show stateAt 413 ⟨205, (by decide : (205 : ℕ) < 256)⟩ = St.started from by decide
  have hn414 : ∀ l : Fin 256, stateAt 414 l = Function.update (stateAt 413) ⟨205, hl205⟩ St.done l := show ∀ l : Fin 256, stateAt 414 l = Function.update (stateAt 413) ⟨205, (by decide : (205 : ℕ) < 256)⟩ St.done l from by decide
  iapply (wait_fam c 𝒱₀ arg3 (Memref.whole main_v0_0) i q ai wm hai x3 f 413 205 13 hl205 hj13 rfl hp414 hn414 w hw414 (k0_off1241 i) rfl (k0_off1241_inb i) k0_cond414 (fun _ => rfl) (k0_chk414 i) (k0_chk414.dec i) (k0_off1242 i) (fun _ => rfl) (fun _ _ h => h) (k0_off1242_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S13, %W414, HO⟩
  iapply (loadMask_wp c 𝒱₀ i 206 hl206 q wm rfl) $$ HM
  iintro HM %w415 %hw415
  have hp415 : stateAt 414 ⟨206, hl206⟩ = St.started := show stateAt 414 ⟨206, (by decide : (206 : ℕ) < 256)⟩ = St.started from by decide
  have hn415 : ∀ l : Fin 256, stateAt 415 l = Function.update (stateAt 414) ⟨206, hl206⟩ St.done l := show ∀ l : Fin 256, stateAt 415 l = Function.update (stateAt 414) ⟨206, (by decide : (206 : ℕ) < 256)⟩ St.done l from by decide
  iapply (wait_fam c 𝒱₀ arg3 (Memref.whole main_v0_0) i q ai wm hai x3 f 414 206 14 hl206 hj14 rfl hp415 hn415 w415 hw415 (k0_off1244 i) rfl (k0_off1244_inb i) k0_cond415 (fun _ => rfl) (k0_chk415 i) (k0_chk415.dec i) (k0_off1245 i) (fun _ => rfl) (fun _ _ h => h) (k0_off1245_inb i) ((View.wordExact_bits rfl).reshape _ _) (fun _ _ => (View.wordExact_bits rfl).reshape _ _) _ _ W414) $$ [HS HM HC HO]
  · isplitl [HS]; · iexact HS
    isplitl [HM]; · iexact HM
    isplitl [HC]; · iexact HC
    iexact HO
  iintro ⟨HS, HM, HC, S14, %W415, HO⟩
  iapply (loadMask_wp c 𝒱₀ i 207 hl207 q wm rfl) $$ HM
  iintro HM %w416 %hw416
  have hp416 : stateAt 415 ⟨207, hl207⟩ = St.started := show stateAt 415 ⟨207, (by decide : (207 : ℕ) < 256)⟩ = St.started from by decide
  have hn416 : ∀ l : Fin 256, stateAt 416 l = Function.update (stateAt 415) ⟨207, hl207⟩ St.done l := show ∀ l : Fin 256, stateAt 416 l = Function.update (stateAt 415) ⟨207, (by decide : (207 : ℕ) < 256)⟩ St.done l from by decide
  iapply (wait_fam c 𝒱₀ arg3 (Memref.whole main_v0_0) i q ai wm hai x3 f 415 207 15 hl207 hj15 rfl hp416 hn416 w416 hw416 (k0_off1247 i) rfl (k0_off1247_inb i) k0_cond416 (fun _ => rfl) (k0_chk416 i) (k0_chk416.dec i) (k0_off1248 i) (fun _ => rfl) (fun _ _ h => h) (k0_off1248_inb i) ((View.wordExact_bits rfl).reshape _ _) (fun _ _ => (View.wordExact_bits rfl).reshape _ _) _ _ W415) $$ [HS HM HC HO]
  · isplitl [HS]; · iexact HS
    isplitl [HM]; · iexact HM
    isplitl [HC]; · iexact HC
    iexact HO
  iintro ⟨HS, HM, HC, S15, %W416, HO⟩
  iapply (loadMask_wp c 𝒱₀ i 208 hl208 q wm rfl) $$ HM
  iintro HM %w417 %hw417
  have hp417 : stateAt 416 ⟨208, hl208⟩ = St.pending := show stateAt 416 ⟨208, (by decide : (208 : ℕ) < 256)⟩ = St.pending from by decide
  have hn417 : ∀ l : Fin 256, stateAt 417 l = Function.update (stateAt 416) ⟨208, hl208⟩ St.started l := show ∀ l : Fin 256, stateAt 417 l = Function.update (stateAt 416) ⟨208, (by decide : (208 : ℕ) < 256)⟩ St.started l from by decide
  iapply (start_fam c 𝒱₀ arg3 (Memref.whole main_v0_0) i q ai wm hai x3 f 416 208 0 hl208 hj0 rfl hp417 hn417 w417 hw417 k0_cond417 (fun _ => rfl) (k0_chk417 i) (k0_chk417.dec i) (k0_off1251 i) (fun _ => rfl) (fun _ _ => rfl) rfl) $$ [HS HC S0]
  · isplitl [HS]; · iexact HS
    isplitl [HC]; · iexact HC
    iexact S0
  iintro ⟨HS, HC⟩
  iapply (loadMask_wp c 𝒱₀ i 209 hl209 q wm rfl) $$ HM
  iintro HM %w418 %hw418
  have hp418 : stateAt 417 ⟨209, hl209⟩ = St.pending := show stateAt 417 ⟨209, (by decide : (209 : ℕ) < 256)⟩ = St.pending from by decide
  have hn418 : ∀ l : Fin 256, stateAt 418 l = Function.update (stateAt 417) ⟨209, hl209⟩ St.started l := show ∀ l : Fin 256, stateAt 418 l = Function.update (stateAt 417) ⟨209, (by decide : (209 : ℕ) < 256)⟩ St.started l from by decide
  iapply (start_fam c 𝒱₀ arg3 (Memref.whole main_v0_0) i q ai wm hai x3 f 417 209 1 hl209 hj1 rfl hp418 hn418 w418 hw418 k0_cond418 (fun _ => rfl) (k0_chk418 i) (k0_chk418.dec i) (k0_off1254 i) (fun _ => rfl) (fun _ _ => rfl) rfl) $$ [HS HC S1]
  · isplitl [HS]; · iexact HS
    isplitl [HC]; · iexact HC
    iexact S1
  iintro ⟨HS, HC⟩
  iapply (loadMask_wp c 𝒱₀ i 210 hl210 q wm rfl) $$ HM
  iintro HM %w419 %hw419
  have hp419 : stateAt 418 ⟨210, hl210⟩ = St.pending := show stateAt 418 ⟨210, (by decide : (210 : ℕ) < 256)⟩ = St.pending from by decide
  have hn419 : ∀ l : Fin 256, stateAt 419 l = Function.update (stateAt 418) ⟨210, hl210⟩ St.started l := show ∀ l : Fin 256, stateAt 419 l = Function.update (stateAt 418) ⟨210, (by decide : (210 : ℕ) < 256)⟩ St.started l from by decide
  iapply (start_fam c 𝒱₀ arg3 (Memref.whole main_v0_0) i q ai wm hai x3 f 418 210 2 hl210 hj2 rfl hp419 hn419 w419 hw419 k0_cond419 (fun _ => rfl) (k0_chk419 i) (k0_chk419.dec i) (k0_off1257 i) (fun _ => rfl) (fun _ _ => rfl) rfl) $$ [HS HC S2]
  · isplitl [HS]; · iexact HS
    isplitl [HC]; · iexact HC
    iexact S2
  iintro ⟨HS, HC⟩
  iapply (loadMask_wp c 𝒱₀ i 211 hl211 q wm rfl) $$ HM
  iintro HM %w420 %hw420
  rw [wp_pure]
  imodintro
  isplitr; · ipureintro; exact hw420
  isplitl [HS]; · iexact HS
  isplitl [HM]; · iexact HM
  isplitl [HC]; · iexact HC
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 71 of the body: steps 420 to 425, and the load of the next step's mask word. -/
theorem part71_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 211 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 419 ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part71 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 217 (by decide)⌝ ∗ ((c : Thread nD τ).loc main_call0_v12 ↦{q} ai) ∗ ((c : Thread nD τ).loc main_call0_v13 ↦{q} wm) ∗ cells c arg3 (Memref.whole main_v0_0) i ai wm hai x3 f 425 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part71_eq_skeleton]; unfold k0_part71_skel
  iintro ⟨HS, HM, HC, S3, S4, S5, S6, S7, S8, S9, S10, S11, S12, S13, S14, S15, HO⟩
  have hl211 : (211 : ℕ) < 256 := by decide
  have hl212 : (212 : ℕ) < 256 := by decide
  have hl213 : (213 : ℕ) < 256 := by decide
  have hl214 : (214 : ℕ) < 256 := by decide
  have hl215 : (215 : ℕ) < 256 := by decide
  have hl216 : (216 : ℕ) < 256 := by decide
  have hl217 : (217 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw420 : w = wordOf wm i 211 hl211 := hw
  have hp420 : stateAt 419 ⟨211, hl211⟩ = St.pending := show stateAt 419 ⟨211, (by decide : (211 : ℕ) < 256)⟩ = St.pending from by decide
  have hn420 : ∀ l : Fin 256, stateAt 420 l = Function.update (stateAt 419) ⟨211, hl211⟩ St.started l := show ∀ l : Fin 256, stateAt 420 l = Function.update (stateAt 419) ⟨211, (by decide : (211 : ℕ) < 256)⟩ St.started l from by decide
  iapply (start_fam c 𝒱₀ arg3 (Memref.whole main_v0_0) i q ai wm hai x3 f 419 211 3 hl211 hj3 rfl hp420 hn420 w hw420 k0_cond420 (fun _ => rfl) (k0_chk420 i) (k0_chk420.dec i) (k0_off1260 i) (fun _ => rfl) (fun _ _ => rfl) rfl) $$ [HS HC S3]
  · isplitl [HS]; · iexact HS
    isplitl [HC]; · iexact HC
    iexact S3
  iintro ⟨HS, HC⟩
  iapply (loadMask_wp c 𝒱₀ i 212 hl212 q wm rfl) $$ HM
  iintro HM %w421 %hw421
  have hp421 : stateAt 420 ⟨212, hl212⟩ = St.pending := show stateAt 420 ⟨212, (by decide : (212 : ℕ) < 256)⟩ = St.pending from by decide
  have hn421 : ∀ l : Fin 256, stateAt 421 l = Function.update (stateAt 420) ⟨212, hl212⟩ St.started l := show ∀ l : Fin 256, stateAt 421 l = Function.update (stateAt 420) ⟨212, (by decide : (212 : ℕ) < 256)⟩ St.started l from by decide
  iapply (start_fam c 𝒱₀ arg3 (Memref.whole main_v0_0) i q ai wm hai x3 f 420 212 4 hl212 hj4 rfl hp421 hn421 w421 hw421 k0_cond421 (fun _ => rfl) (k0_chk421 i) (k0_chk421.dec i) (k0_off1263 i) (fun _ => rfl) (fun _ _ => rfl) rfl) $$ [HS HC S4]
  · isplitl [HS]; · iexact HS
    isplitl [HC]; · iexact HC
    iexact S4
  iintro ⟨HS, HC⟩
  iapply (loadMask_wp c 𝒱₀ i 213 hl213 q wm rfl) $$ HM
  iintro HM %w422 %hw422
  have hp422 : stateAt 421 ⟨213, hl213⟩ = St.pending := show stateAt 421 ⟨213, (by decide : (213 : ℕ) < 256)⟩ = St.pending from by decide
  have hn422 : ∀ l : Fin 256, stateAt 422 l = Function.update (stateAt 421) ⟨213, hl213⟩ St.started l := show ∀ l : Fin 256, stateAt 422 l = Function.update (stateAt 421) ⟨213, (by decide : (213 : ℕ) < 256)⟩ St.started l from by decide
  iapply (start_fam c 𝒱₀ arg3 (Memref.whole main_v0_0) i q ai wm hai x3 f 421 213 5 hl213 hj5 rfl hp422 hn422 w422 hw422 k0_cond422 (fun _ => rfl) (k0_chk422 i) (k0_chk422.dec i) (k0_off1266 i) (fun _ => rfl) (fun _ _ => rfl) rfl) $$ [HS HC S5]
  · isplitl [HS]; · iexact HS
    isplitl [HC]; · iexact HC
    iexact S5
  iintro ⟨HS, HC⟩
  iapply (loadMask_wp c 𝒱₀ i 214 hl214 q wm rfl) $$ HM
  iintro HM %w423 %hw423
  have hp423 : stateAt 422 ⟨214, hl214⟩ = St.pending := show stateAt 422 ⟨214, (by decide : (214 : ℕ) < 256)⟩ = St.pending from by decide
  have hn423 : ∀ l : Fin 256, stateAt 423 l = Function.update (stateAt 422) ⟨214, hl214⟩ St.started l := show ∀ l : Fin 256, stateAt 423 l = Function.update (stateAt 422) ⟨214, (by decide : (214 : ℕ) < 256)⟩ St.started l from by decide
  iapply (start_fam c 𝒱₀ arg3 (Memref.whole main_v0_0) i q ai wm hai x3 f 422 214 6 hl214 hj6 rfl hp423 hn423 w423 hw423 k0_cond423 (fun _ => rfl) (k0_chk423 i) (k0_chk423.dec i) (k0_off1269 i) (fun _ => rfl) (fun _ _ => rfl) rfl) $$ [HS HC S6]
  · isplitl [HS]; · iexact HS
    isplitl [HC]; · iexact HC
    iexact S6
  iintro ⟨HS, HC⟩
  iapply (loadMask_wp c 𝒱₀ i 215 hl215 q wm rfl) $$ HM
  iintro HM %w424 %hw424
  have hp424 : stateAt 423 ⟨215, hl215⟩ = St.pending := show stateAt 423 ⟨215, (by decide : (215 : ℕ) < 256)⟩ = St.pending from by decide
  have hn424 : ∀ l : Fin 256, stateAt 424 l = Function.update (stateAt 423) ⟨215, hl215⟩ St.started l := show ∀ l : Fin 256, stateAt 424 l = Function.update (stateAt 423) ⟨215, (by decide : (215 : ℕ) < 256)⟩ St.started l from by decide
  iapply (start_fam c 𝒱₀ arg3 (Memref.whole main_v0_0) i q ai wm hai x3 f 423 215 7 hl215 hj7 rfl hp424 hn424 w424 hw424 k0_cond424 (fun _ => rfl) (k0_chk424 i) (k0_chk424.dec i) (k0_off1272 i) (fun _ => rfl) (fun _ _ => rfl) rfl) $$ [HS HC S7]
  · isplitl [HS]; · iexact HS
    isplitl [HC]; · iexact HC
    iexact S7
  iintro ⟨HS, HC⟩
  iapply (loadMask_wp c 𝒱₀ i 216 hl216 q wm rfl) $$ HM
  iintro HM %w425 %hw425
  have hp425 : stateAt 424 ⟨216, hl216⟩ = St.pending := show stateAt 424 ⟨216, (by decide : (216 : ℕ) < 256)⟩ = St.pending from by decide
  have hn425 : ∀ l : Fin 256, stateAt 425 l = Function.update (stateAt 424) ⟨216, hl216⟩ St.started l := show ∀ l : Fin 256, stateAt 425 l = Function.update (stateAt 424) ⟨216, (by decide : (216 : ℕ) < 256)⟩ St.started l from by decide
  iapply (start_fam c 𝒱₀ arg3 (Memref.whole main_v0_0) i q ai wm hai x3 f 424 216 8 hl216 hj8 rfl hp425 hn425 w425 hw425 k0_cond425 (fun _ => rfl) (k0_chk425 i) (k0_chk425.dec i) (k0_off1275 i) (fun _ => rfl) (fun _ _ => rfl) rfl) $$ [HS HC S8]
  · isplitl [HS]; · iexact HS
    isplitl [HC]; · iexact HC
    iexact S8
  iintro ⟨HS, HC⟩
  iapply (loadMask_wp c 𝒱₀ i 217 hl217 q wm rfl) $$ HM
  iintro HM %w426 %hw426
  rw [wp_pure]
  imodintro
  isplitr; · ipureintro; exact hw426
  isplitl [HS]; · iexact HS
  isplitl [HM]; · iexact HM
  isplitl [HC]; · iexact HC
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 72 of the body: steps 426 to 431, and the load of the next step's mask word. -/
theorem part72_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 217 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 425 ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part72 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 223 (by decide)⌝ ∗ ((c : Thread nD τ).loc main_call0_v12 ↦{q} ai) ∗ ((c : Thread nD τ).loc main_call0_v13 ↦{q} wm) ∗ cells c arg3 (Memref.whole main_v0_0) i ai wm hai x3 f 431 ∗ semPt c 15 (sem_inb 15 (by decide)) ∗ ∃ W', owes (c : Thread nD τ) 0 W')) := by
  rw [k0_part72_eq_skeleton]; unfold k0_part72_skel
  iintro ⟨HS, HM, HC, S9, S10, S11, S12, S13, S14, S15, HO⟩
  have hl217 : (217 : ℕ) < 256 := by decide
  have hl218 : (218 : ℕ) < 256 := by decide
  have hl219 : (219 : ℕ) < 256 := by decide
  have hl220 : (220 : ℕ) < 256 := by decide
  have hl221 : (221 : ℕ) < 256 := by decide
  have hl222 : (222 : ℕ) < 256 := by decide
  have hl223 : (223 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw426 : w = wordOf wm i 217 hl217 := hw
  have hp426 : stateAt 425 ⟨217, hl217⟩ = St.pending := show stateAt 425 ⟨217, (by decide : (217 : ℕ) < 256)⟩ = St.pending from by decide
  have hn426 : ∀ l : Fin 256, stateAt 426 l = Function.update (stateAt 425) ⟨217, hl217⟩ St.started l := show ∀ l : Fin 256, stateAt 426 l = Function.update (stateAt 425) ⟨217, (by decide : (217 : ℕ) < 256)⟩ St.started l from by decide
  iapply (start_fam c 𝒱₀ arg3 (Memref.whole main_v0_0) i q ai wm hai x3 f 425 217 9 hl217 hj9 rfl hp426 hn426 w hw426 k0_cond426 (fun _ => rfl) (k0_chk426 i) (k0_chk426.dec i) (k0_off1278 i) (fun _ => rfl) (fun _ _ => rfl) rfl) $$ [HS HC S9]
  · isplitl [HS]; · iexact HS
    isplitl [HC]; · iexact HC
    iexact S9
  iintro ⟨HS, HC⟩
  iapply (loadMask_wp c 𝒱₀ i 218 hl218 q wm rfl) $$ HM
  iintro HM %w427 %hw427
  have hp427 : stateAt 426 ⟨218, hl218⟩ = St.pending := show stateAt 426 ⟨218, (by decide : (218 : ℕ) < 256)⟩ = St.pending from by decide
  have hn427 : ∀ l : Fin 256, stateAt 427 l = Function.update (stateAt 426) ⟨218, hl218⟩ St.started l := show ∀ l : Fin 256, stateAt 427 l = Function.update (stateAt 426) ⟨218, (by decide : (218 : ℕ) < 256)⟩ St.started l from by decide
  iapply (start_fam c 𝒱₀ arg3 (Memref.whole main_v0_0) i q ai wm hai x3 f 426 218 10 hl218 hj10 rfl hp427 hn427 w427 hw427 k0_cond427 (fun _ => rfl) (k0_chk427 i) (k0_chk427.dec i) (k0_off1281 i) (fun _ => rfl) (fun _ _ => rfl) rfl) $$ [HS HC S10]
  · isplitl [HS]; · iexact HS
    isplitl [HC]; · iexact HC
    iexact S10
  iintro ⟨HS, HC⟩
  iapply (loadMask_wp c 𝒱₀ i 219 hl219 q wm rfl) $$ HM
  iintro HM %w428 %hw428
  have hp428 : stateAt 427 ⟨219, hl219⟩ = St.pending := show stateAt 427 ⟨219, (by decide : (219 : ℕ) < 256)⟩ = St.pending from by decide
  have hn428 : ∀ l : Fin 256, stateAt 428 l = Function.update (stateAt 427) ⟨219, hl219⟩ St.started l := show ∀ l : Fin 256, stateAt 428 l = Function.update (stateAt 427) ⟨219, (by decide : (219 : ℕ) < 256)⟩ St.started l from by decide
  iapply (start_fam c 𝒱₀ arg3 (Memref.whole main_v0_0) i q ai wm hai x3 f 427 219 11 hl219 hj11 rfl hp428 hn428 w428 hw428 k0_cond428 (fun _ => rfl) (k0_chk428 i) (k0_chk428.dec i) (k0_off1284 i) (fun _ => rfl) (fun _ _ => rfl) rfl) $$ [HS HC S11]
  · isplitl [HS]; · iexact HS
    isplitl [HC]; · iexact HC
    iexact S11
  iintro ⟨HS, HC⟩
  iapply (loadMask_wp c 𝒱₀ i 220 hl220 q wm rfl) $$ HM
  iintro HM %w429 %hw429
  have hp429 : stateAt 428 ⟨220, hl220⟩ = St.pending := show stateAt 428 ⟨220, (by decide : (220 : ℕ) < 256)⟩ = St.pending from by decide
  have hn429 : ∀ l : Fin 256, stateAt 429 l = Function.update (stateAt 428) ⟨220, hl220⟩ St.started l := show ∀ l : Fin 256, stateAt 429 l = Function.update (stateAt 428) ⟨220, (by decide : (220 : ℕ) < 256)⟩ St.started l from by decide
  iapply (start_fam c 𝒱₀ arg3 (Memref.whole main_v0_0) i q ai wm hai x3 f 428 220 12 hl220 hj12 rfl hp429 hn429 w429 hw429 k0_cond429 (fun _ => rfl) (k0_chk429 i) (k0_chk429.dec i) (k0_off1287 i) (fun _ => rfl) (fun _ _ => rfl) rfl) $$ [HS HC S12]
  · isplitl [HS]; · iexact HS
    isplitl [HC]; · iexact HC
    iexact S12
  iintro ⟨HS, HC⟩
  iapply (loadMask_wp c 𝒱₀ i 221 hl221 q wm rfl) $$ HM
  iintro HM %w430 %hw430
  have hp430 : stateAt 429 ⟨221, hl221⟩ = St.pending := show stateAt 429 ⟨221, (by decide : (221 : ℕ) < 256)⟩ = St.pending from by decide
  have hn430 : ∀ l : Fin 256, stateAt 430 l = Function.update (stateAt 429) ⟨221, hl221⟩ St.started l := show ∀ l : Fin 256, stateAt 430 l = Function.update (stateAt 429) ⟨221, (by decide : (221 : ℕ) < 256)⟩ St.started l from by decide
  iapply (start_fam c 𝒱₀ arg3 (Memref.whole main_v0_0) i q ai wm hai x3 f 429 221 13 hl221 hj13 rfl hp430 hn430 w430 hw430 k0_cond430 (fun _ => rfl) (k0_chk430 i) (k0_chk430.dec i) (k0_off1290 i) (fun _ => rfl) (fun _ _ => rfl) rfl) $$ [HS HC S13]
  · isplitl [HS]; · iexact HS
    isplitl [HC]; · iexact HC
    iexact S13
  iintro ⟨HS, HC⟩
  iapply (loadMask_wp c 𝒱₀ i 222 hl222 q wm rfl) $$ HM
  iintro HM %w431 %hw431
  have hp431 : stateAt 430 ⟨222, hl222⟩ = St.pending := show stateAt 430 ⟨222, (by decide : (222 : ℕ) < 256)⟩ = St.pending from by decide
  have hn431 : ∀ l : Fin 256, stateAt 431 l = Function.update (stateAt 430) ⟨222, hl222⟩ St.started l := show ∀ l : Fin 256, stateAt 431 l = Function.update (stateAt 430) ⟨222, (by decide : (222 : ℕ) < 256)⟩ St.started l from by decide
  iapply (start_fam c 𝒱₀ arg3 (Memref.whole main_v0_0) i q ai wm hai x3 f 430 222 14 hl222 hj14 rfl hp431 hn431 w431 hw431 k0_cond431 (fun _ => rfl) (k0_chk431 i) (k0_chk431.dec i) (k0_off1293 i) (fun _ => rfl) (fun _ _ => rfl) rfl) $$ [HS HC S14]
  · isplitl [HS]; · iexact HS
    isplitl [HC]; · iexact HC
    iexact S14
  iintro ⟨HS, HC⟩
  iapply (loadMask_wp c 𝒱₀ i 223 hl223 q wm rfl) $$ HM
  iintro HM %w432 %hw432
  rw [wp_pure]
  imodintro
  isplitr; · ipureintro; exact hw432
  isplitl [HS]; · iexact HS
  isplitl [HM]; · iexact HM
  isplitl [HC]; · iexact HC
  isplitl [S15]; · iexact S15
  iexists _; iexact HO

set_option maxHeartbeats 0 in
/-- Part 73 of the body: steps 432 to 437, and the load of the next step's mask word. -/
theorem part73_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 223 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 431 ∗ semPt c 15 (sem_inb 15 (by decide)) ∗ owes (c : Thread nD τ) 0 W)
      ⊢ wp frame (wpE (defs₀ (F := F)) 𝒱₀ (c : Thread nD τ) none) Set.univ (k0_part73 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 213 (by decide)⌝ ∗ ((c : Thread nD τ).loc main_call0_v12 ↦{q} ai) ∗ ((c : Thread nD τ).loc main_call0_v13 ↦{q} wm) ∗ cells c arg3 (Memref.whole main_v0_0) i ai wm hai x3 f 437 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ ∃ W', owes (c : Thread nD τ) 0 W')) := by
  rw [k0_part73_eq_skeleton]; unfold k0_part73_skel
  iintro ⟨HS, HM, HC, S15, HO⟩
  have hl208 : (208 : ℕ) < 256 := by decide
  have hl209 : (209 : ℕ) < 256 := by decide
  have hl210 : (210 : ℕ) < 256 := by decide
  have hl211 : (211 : ℕ) < 256 := by decide
  have hl212 : (212 : ℕ) < 256 := by decide
  have hl213 : (213 : ℕ) < 256 := by decide
  have hl223 : (223 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw432 : w = wordOf wm i 223 hl223 := hw
  have hp432 : stateAt 431 ⟨223, hl223⟩ = St.pending := show stateAt 431 ⟨223, (by decide : (223 : ℕ) < 256)⟩ = St.pending from by decide
  have hn432 : ∀ l : Fin 256, stateAt 432 l = Function.update (stateAt 431) ⟨223, hl223⟩ St.started l := show ∀ l : Fin 256, stateAt 432 l = Function.update (stateAt 431) ⟨223, (by decide : (223 : ℕ) < 256)⟩ St.started l from by decide
  iapply (start_fam c 𝒱₀ arg3 (Memref.whole main_v0_0) i q ai wm hai x3 f 431 223 15 hl223 hj15 rfl hp432 hn432 w hw432 k0_cond432 (fun _ => rfl) (k0_chk432 i) (k0_chk432.dec i) (k0_off1296 i) (fun _ => rfl) (fun _ _ => rfl) rfl) $$ [HS HC S15]
  · isplitl [HS]; · iexact HS
    isplitl [HC]; · iexact HC
    iexact S15
  iintro ⟨HS, HC⟩
  iapply (loadMask_wp c 𝒱₀ i 208 hl208 q wm rfl) $$ HM
  iintro HM %w433 %hw433
  have hp433 : stateAt 432 ⟨208, hl208⟩ = St.started := show stateAt 432 ⟨208, (by decide : (208 : ℕ) < 256)⟩ = St.started from by decide
  have hn433 : ∀ l : Fin 256, stateAt 433 l = Function.update (stateAt 432) ⟨208, hl208⟩ St.done l := show ∀ l : Fin 256, stateAt 433 l = Function.update (stateAt 432) ⟨208, (by decide : (208 : ℕ) < 256)⟩ St.done l from by decide
  iapply (wait_fam c 𝒱₀ arg3 (Memref.whole main_v0_0) i q ai wm hai x3 f 432 208 0 hl208 hj0 rfl hp433 hn433 w433 hw433 (k0_off1298 i) rfl (k0_off1298_inb i) k0_cond433 (fun _ => rfl) (k0_chk433 i) (k0_chk433.dec i) (k0_off1299 i) (fun _ => rfl) (fun _ _ h => h) (k0_off1299_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W433, HO⟩
  iapply (loadMask_wp c 𝒱₀ i 209 hl209 q wm rfl) $$ HM
  iintro HM %w434 %hw434
  have hp434 : stateAt 433 ⟨209, hl209⟩ = St.started := show stateAt 433 ⟨209, (by decide : (209 : ℕ) < 256)⟩ = St.started from by decide
  have hn434 : ∀ l : Fin 256, stateAt 434 l = Function.update (stateAt 433) ⟨209, hl209⟩ St.done l := show ∀ l : Fin 256, stateAt 434 l = Function.update (stateAt 433) ⟨209, (by decide : (209 : ℕ) < 256)⟩ St.done l from by decide
  iapply (wait_fam c 𝒱₀ arg3 (Memref.whole main_v0_0) i q ai wm hai x3 f 433 209 1 hl209 hj1 rfl hp434 hn434 w434 hw434 (k0_off1301 i) rfl (k0_off1301_inb i) k0_cond434 (fun _ => rfl) (k0_chk434 i) (k0_chk434.dec i) (k0_off1302 i) (fun _ => rfl) (fun _ _ h => h) (k0_off1302_inb i) ((View.wordExact_bits rfl).reshape _ _) (fun _ _ => (View.wordExact_bits rfl).reshape _ _) _ _ W433) $$ [HS HM HC HO]
  · isplitl [HS]; · iexact HS
    isplitl [HM]; · iexact HM
    isplitl [HC]; · iexact HC
    iexact HO
  iintro ⟨HS, HM, HC, S1, %W434, HO⟩
  iapply (loadMask_wp c 𝒱₀ i 210 hl210 q wm rfl) $$ HM
  iintro HM %w435 %hw435
  have hp435 : stateAt 434 ⟨210, hl210⟩ = St.started := show stateAt 434 ⟨210, (by decide : (210 : ℕ) < 256)⟩ = St.started from by decide
  have hn435 : ∀ l : Fin 256, stateAt 435 l = Function.update (stateAt 434) ⟨210, hl210⟩ St.done l := show ∀ l : Fin 256, stateAt 435 l = Function.update (stateAt 434) ⟨210, (by decide : (210 : ℕ) < 256)⟩ St.done l from by decide
  iapply (wait_fam c 𝒱₀ arg3 (Memref.whole main_v0_0) i q ai wm hai x3 f 434 210 2 hl210 hj2 rfl hp435 hn435 w435 hw435 (k0_off1304 i) rfl (k0_off1304_inb i) k0_cond435 (fun _ => rfl) (k0_chk435 i) (k0_chk435.dec i) (k0_off1305 i) (fun _ => rfl) (fun _ _ h => h) (k0_off1305_inb i) ((View.wordExact_bits rfl).reshape _ _) (fun _ _ => (View.wordExact_bits rfl).reshape _ _) _ _ W434) $$ [HS HM HC HO]
  · isplitl [HS]; · iexact HS
    isplitl [HM]; · iexact HM
    isplitl [HC]; · iexact HC
    iexact HO
  iintro ⟨HS, HM, HC, S2, %W435, HO⟩
  iapply (loadMask_wp c 𝒱₀ i 211 hl211 q wm rfl) $$ HM
  iintro HM %w436 %hw436
  have hp436 : stateAt 435 ⟨211, hl211⟩ = St.started := show stateAt 435 ⟨211, (by decide : (211 : ℕ) < 256)⟩ = St.started from by decide
  have hn436 : ∀ l : Fin 256, stateAt 436 l = Function.update (stateAt 435) ⟨211, hl211⟩ St.done l := show ∀ l : Fin 256, stateAt 436 l = Function.update (stateAt 435) ⟨211, (by decide : (211 : ℕ) < 256)⟩ St.done l from by decide
  iapply (wait_fam c 𝒱₀ arg3 (Memref.whole main_v0_0) i q ai wm hai x3 f 435 211 3 hl211 hj3 rfl hp436 hn436 w436 hw436 (k0_off1307 i) rfl (k0_off1307_inb i) k0_cond436 (fun _ => rfl) (k0_chk436 i) (k0_chk436.dec i) (k0_off1308 i) (fun _ => rfl) (fun _ _ h => h) (k0_off1308_inb i) ((View.wordExact_bits rfl).reshape _ _) (fun _ _ => (View.wordExact_bits rfl).reshape _ _) _ _ W435) $$ [HS HM HC HO]
  · isplitl [HS]; · iexact HS
    isplitl [HM]; · iexact HM
    isplitl [HC]; · iexact HC
    iexact HO
  iintro ⟨HS, HM, HC, S3, %W436, HO⟩
  iapply (loadMask_wp c 𝒱₀ i 212 hl212 q wm rfl) $$ HM
  iintro HM %w437 %hw437
  have hp437 : stateAt 436 ⟨212, hl212⟩ = St.started := show stateAt 436 ⟨212, (by decide : (212 : ℕ) < 256)⟩ = St.started from by decide
  have hn437 : ∀ l : Fin 256, stateAt 437 l = Function.update (stateAt 436) ⟨212, hl212⟩ St.done l := show ∀ l : Fin 256, stateAt 437 l = Function.update (stateAt 436) ⟨212, (by decide : (212 : ℕ) < 256)⟩ St.done l from by decide
  iapply (wait_fam c 𝒱₀ arg3 (Memref.whole main_v0_0) i q ai wm hai x3 f 436 212 4 hl212 hj4 rfl hp437 hn437 w437 hw437 (k0_off1310 i) rfl (k0_off1310_inb i) k0_cond437 (fun _ => rfl) (k0_chk437 i) (k0_chk437.dec i) (k0_off1311 i) (fun _ => rfl) (fun _ _ h => h) (k0_off1311_inb i) ((View.wordExact_bits rfl).reshape _ _) (fun _ _ => (View.wordExact_bits rfl).reshape _ _) _ _ W436) $$ [HS HM HC HO]
  · isplitl [HS]; · iexact HS
    isplitl [HM]; · iexact HM
    isplitl [HC]; · iexact HC
    iexact HO
  iintro ⟨HS, HM, HC, S4, %W437, HO⟩
  iapply (loadMask_wp c 𝒱₀ i 213 hl213 q wm rfl) $$ HM
  iintro HM %w438 %hw438
  rw [wp_pure]
  imodintro
  isplitr; · ipureintro; exact hw438
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  iexists _; iexact HO

set_option maxHeartbeats 0 in
/-- Part 74 of the body: steps 438 to 443, and the load of the next step's mask word. -/
theorem part74_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 213 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 437 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ owes (c : Thread nD τ) 0 W)
      ⊢ wp frame (wpE (defs₀ (F := F)) 𝒱₀ (c : Thread nD τ) none) Set.univ (k0_part74 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 219 (by decide)⌝ ∗ ((c : Thread nD τ).loc main_call0_v12 ↦{q} ai) ∗ ((c : Thread nD τ).loc main_call0_v13 ↦{q} wm) ∗ cells c arg3 (Memref.whole main_v0_0) i ai wm hai x3 f 443 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ ∃ W', owes (c : Thread nD τ) 0 W')) := by
  rw [k0_part74_eq_skeleton]; unfold k0_part74_skel
  iintro ⟨HS, HM, HC, S0, S1, S2, S3, S4, HO⟩
  have hl213 : (213 : ℕ) < 256 := by decide
  have hl214 : (214 : ℕ) < 256 := by decide
  have hl215 : (215 : ℕ) < 256 := by decide
  have hl216 : (216 : ℕ) < 256 := by decide
  have hl217 : (217 : ℕ) < 256 := by decide
  have hl218 : (218 : ℕ) < 256 := by decide
  have hl219 : (219 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw438 : w = wordOf wm i 213 hl213 := hw
  have hp438 : stateAt 437 ⟨213, hl213⟩ = St.started := show stateAt 437 ⟨213, (by decide : (213 : ℕ) < 256)⟩ = St.started from by decide
  have hn438 : ∀ l : Fin 256, stateAt 438 l = Function.update (stateAt 437) ⟨213, hl213⟩ St.done l := show ∀ l : Fin 256, stateAt 438 l = Function.update (stateAt 437) ⟨213, (by decide : (213 : ℕ) < 256)⟩ St.done l from by decide
  iapply (wait_fam c 𝒱₀ arg3 (Memref.whole main_v0_0) i q ai wm hai x3 f 437 213 5 hl213 hj5 rfl hp438 hn438 w hw438 (k0_off1313 i) rfl (k0_off1313_inb i) k0_cond438 (fun _ => rfl) (k0_chk438 i) (k0_chk438.dec i) (k0_off1314 i) (fun _ => rfl) (fun _ _ h => h) (k0_off1314_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S5, %W438, HO⟩
  iapply (loadMask_wp c 𝒱₀ i 214 hl214 q wm rfl) $$ HM
  iintro HM %w439 %hw439
  have hp439 : stateAt 438 ⟨214, hl214⟩ = St.started := show stateAt 438 ⟨214, (by decide : (214 : ℕ) < 256)⟩ = St.started from by decide
  have hn439 : ∀ l : Fin 256, stateAt 439 l = Function.update (stateAt 438) ⟨214, hl214⟩ St.done l := show ∀ l : Fin 256, stateAt 439 l = Function.update (stateAt 438) ⟨214, (by decide : (214 : ℕ) < 256)⟩ St.done l from by decide
  iapply (wait_fam c 𝒱₀ arg3 (Memref.whole main_v0_0) i q ai wm hai x3 f 438 214 6 hl214 hj6 rfl hp439 hn439 w439 hw439 (k0_off1316 i) rfl (k0_off1316_inb i) k0_cond439 (fun _ => rfl) (k0_chk439 i) (k0_chk439.dec i) (k0_off1317 i) (fun _ => rfl) (fun _ _ h => h) (k0_off1317_inb i) ((View.wordExact_bits rfl).reshape _ _) (fun _ _ => (View.wordExact_bits rfl).reshape _ _) _ _ W438) $$ [HS HM HC HO]
  · isplitl [HS]; · iexact HS
    isplitl [HM]; · iexact HM
    isplitl [HC]; · iexact HC
    iexact HO
  iintro ⟨HS, HM, HC, S6, %W439, HO⟩
  iapply (loadMask_wp c 𝒱₀ i 215 hl215 q wm rfl) $$ HM
  iintro HM %w440 %hw440
  have hp440 : stateAt 439 ⟨215, hl215⟩ = St.started := show stateAt 439 ⟨215, (by decide : (215 : ℕ) < 256)⟩ = St.started from by decide
  have hn440 : ∀ l : Fin 256, stateAt 440 l = Function.update (stateAt 439) ⟨215, hl215⟩ St.done l := show ∀ l : Fin 256, stateAt 440 l = Function.update (stateAt 439) ⟨215, (by decide : (215 : ℕ) < 256)⟩ St.done l from by decide
  iapply (wait_fam c 𝒱₀ arg3 (Memref.whole main_v0_0) i q ai wm hai x3 f 439 215 7 hl215 hj7 rfl hp440 hn440 w440 hw440 (k0_off1319 i) rfl (k0_off1319_inb i) k0_cond440 (fun _ => rfl) (k0_chk440 i) (k0_chk440.dec i) (k0_off1320 i) (fun _ => rfl) (fun _ _ h => h) (k0_off1320_inb i) ((View.wordExact_bits rfl).reshape _ _) (fun _ _ => (View.wordExact_bits rfl).reshape _ _) _ _ W439) $$ [HS HM HC HO]
  · isplitl [HS]; · iexact HS
    isplitl [HM]; · iexact HM
    isplitl [HC]; · iexact HC
    iexact HO
  iintro ⟨HS, HM, HC, S7, %W440, HO⟩
  iapply (loadMask_wp c 𝒱₀ i 216 hl216 q wm rfl) $$ HM
  iintro HM %w441 %hw441
  have hp441 : stateAt 440 ⟨216, hl216⟩ = St.started := show stateAt 440 ⟨216, (by decide : (216 : ℕ) < 256)⟩ = St.started from by decide
  have hn441 : ∀ l : Fin 256, stateAt 441 l = Function.update (stateAt 440) ⟨216, hl216⟩ St.done l := show ∀ l : Fin 256, stateAt 441 l = Function.update (stateAt 440) ⟨216, (by decide : (216 : ℕ) < 256)⟩ St.done l from by decide
  iapply (wait_fam c 𝒱₀ arg3 (Memref.whole main_v0_0) i q ai wm hai x3 f 440 216 8 hl216 hj8 rfl hp441 hn441 w441 hw441 (k0_off1322 i) rfl (k0_off1322_inb i) k0_cond441 (fun _ => rfl) (k0_chk441 i) (k0_chk441.dec i) (k0_off1323 i) (fun _ => rfl) (fun _ _ h => h) (k0_off1323_inb i) ((View.wordExact_bits rfl).reshape _ _) (fun _ _ => (View.wordExact_bits rfl).reshape _ _) _ _ W440) $$ [HS HM HC HO]
  · isplitl [HS]; · iexact HS
    isplitl [HM]; · iexact HM
    isplitl [HC]; · iexact HC
    iexact HO
  iintro ⟨HS, HM, HC, S8, %W441, HO⟩
  iapply (loadMask_wp c 𝒱₀ i 217 hl217 q wm rfl) $$ HM
  iintro HM %w442 %hw442
  have hp442 : stateAt 441 ⟨217, hl217⟩ = St.started := show stateAt 441 ⟨217, (by decide : (217 : ℕ) < 256)⟩ = St.started from by decide
  have hn442 : ∀ l : Fin 256, stateAt 442 l = Function.update (stateAt 441) ⟨217, hl217⟩ St.done l := show ∀ l : Fin 256, stateAt 442 l = Function.update (stateAt 441) ⟨217, (by decide : (217 : ℕ) < 256)⟩ St.done l from by decide
  iapply (wait_fam c 𝒱₀ arg3 (Memref.whole main_v0_0) i q ai wm hai x3 f 441 217 9 hl217 hj9 rfl hp442 hn442 w442 hw442 (k0_off1325 i) rfl (k0_off1325_inb i) k0_cond442 (fun _ => rfl) (k0_chk442 i) (k0_chk442.dec i) (k0_off1326 i) (fun _ => rfl) (fun _ _ h => h) (k0_off1326_inb i) ((View.wordExact_bits rfl).reshape _ _) (fun _ _ => (View.wordExact_bits rfl).reshape _ _) _ _ W441) $$ [HS HM HC HO]
  · isplitl [HS]; · iexact HS
    isplitl [HM]; · iexact HM
    isplitl [HC]; · iexact HC
    iexact HO
  iintro ⟨HS, HM, HC, S9, %W442, HO⟩
  iapply (loadMask_wp c 𝒱₀ i 218 hl218 q wm rfl) $$ HM
  iintro HM %w443 %hw443
  have hp443 : stateAt 442 ⟨218, hl218⟩ = St.started := show stateAt 442 ⟨218, (by decide : (218 : ℕ) < 256)⟩ = St.started from by decide
  have hn443 : ∀ l : Fin 256, stateAt 443 l = Function.update (stateAt 442) ⟨218, hl218⟩ St.done l := show ∀ l : Fin 256, stateAt 443 l = Function.update (stateAt 442) ⟨218, (by decide : (218 : ℕ) < 256)⟩ St.done l from by decide
  iapply (wait_fam c 𝒱₀ arg3 (Memref.whole main_v0_0) i q ai wm hai x3 f 442 218 10 hl218 hj10 rfl hp443 hn443 w443 hw443 (k0_off1328 i) rfl (k0_off1328_inb i) k0_cond443 (fun _ => rfl) (k0_chk443 i) (k0_chk443.dec i) (k0_off1329 i) (fun _ => rfl) (fun _ _ h => h) (k0_off1329_inb i) ((View.wordExact_bits rfl).reshape _ _) (fun _ _ => (View.wordExact_bits rfl).reshape _ _) _ _ W442) $$ [HS HM HC HO]
  · isplitl [HS]; · iexact HS
    isplitl [HM]; · iexact HM
    isplitl [HC]; · iexact HC
    iexact HO
  iintro ⟨HS, HM, HC, S10, %W443, HO⟩
  iapply (loadMask_wp c 𝒱₀ i 219 hl219 q wm rfl) $$ HM
  iintro HM %w444 %hw444
  rw [wp_pure]
  imodintro
  isplitr; · ipureintro; exact hw444
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexists _; iexact HO

set_option maxHeartbeats 0 in
/-- Part 75 of the body: steps 444 to 449, and the load of the next step's mask word. -/
theorem part75_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 219 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 443 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ owes (c : Thread nD τ) 0 W)
      ⊢ wp frame (wpE (defs₀ (F := F)) 𝒱₀ (c : Thread nD τ) none) Set.univ (k0_part75 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 225 (by decide)⌝ ∗ ((c : Thread nD τ).loc main_call0_v12 ↦{q} ai) ∗ ((c : Thread nD τ).loc main_call0_v13 ↦{q} wm) ∗ cells c arg3 (Memref.whole main_v0_0) i ai wm hai x3 f 449 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part75_eq_skeleton]; unfold k0_part75_skel
  iintro ⟨HS, HM, HC, S0, S1, S2, S3, S4, S5, S6, S7, S8, S9, S10, HO⟩
  have hl219 : (219 : ℕ) < 256 := by decide
  have hl220 : (220 : ℕ) < 256 := by decide
  have hl221 : (221 : ℕ) < 256 := by decide
  have hl222 : (222 : ℕ) < 256 := by decide
  have hl223 : (223 : ℕ) < 256 := by decide
  have hl224 : (224 : ℕ) < 256 := by decide
  have hl225 : (225 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw444 : w = wordOf wm i 219 hl219 := hw
  have hp444 : stateAt 443 ⟨219, hl219⟩ = St.started := show stateAt 443 ⟨219, (by decide : (219 : ℕ) < 256)⟩ = St.started from by decide
  have hn444 : ∀ l : Fin 256, stateAt 444 l = Function.update (stateAt 443) ⟨219, hl219⟩ St.done l := show ∀ l : Fin 256, stateAt 444 l = Function.update (stateAt 443) ⟨219, (by decide : (219 : ℕ) < 256)⟩ St.done l from by decide
  iapply (wait_fam c 𝒱₀ arg3 (Memref.whole main_v0_0) i q ai wm hai x3 f 443 219 11 hl219 hj11 rfl hp444 hn444 w hw444 (k0_off1331 i) rfl (k0_off1331_inb i) k0_cond444 (fun _ => rfl) (k0_chk444 i) (k0_chk444.dec i) (k0_off1332 i) (fun _ => rfl) (fun _ _ h => h) (k0_off1332_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S11, %W444, HO⟩
  iapply (loadMask_wp c 𝒱₀ i 220 hl220 q wm rfl) $$ HM
  iintro HM %w445 %hw445
  have hp445 : stateAt 444 ⟨220, hl220⟩ = St.started := show stateAt 444 ⟨220, (by decide : (220 : ℕ) < 256)⟩ = St.started from by decide
  have hn445 : ∀ l : Fin 256, stateAt 445 l = Function.update (stateAt 444) ⟨220, hl220⟩ St.done l := show ∀ l : Fin 256, stateAt 445 l = Function.update (stateAt 444) ⟨220, (by decide : (220 : ℕ) < 256)⟩ St.done l from by decide
  iapply (wait_fam c 𝒱₀ arg3 (Memref.whole main_v0_0) i q ai wm hai x3 f 444 220 12 hl220 hj12 rfl hp445 hn445 w445 hw445 (k0_off1334 i) rfl (k0_off1334_inb i) k0_cond445 (fun _ => rfl) (k0_chk445 i) (k0_chk445.dec i) (k0_off1335 i) (fun _ => rfl) (fun _ _ h => h) (k0_off1335_inb i) ((View.wordExact_bits rfl).reshape _ _) (fun _ _ => (View.wordExact_bits rfl).reshape _ _) _ _ W444) $$ [HS HM HC HO]
  · isplitl [HS]; · iexact HS
    isplitl [HM]; · iexact HM
    isplitl [HC]; · iexact HC
    iexact HO
  iintro ⟨HS, HM, HC, S12, %W445, HO⟩
  iapply (loadMask_wp c 𝒱₀ i 221 hl221 q wm rfl) $$ HM
  iintro HM %w446 %hw446
  have hp446 : stateAt 445 ⟨221, hl221⟩ = St.started := show stateAt 445 ⟨221, (by decide : (221 : ℕ) < 256)⟩ = St.started from by decide
  have hn446 : ∀ l : Fin 256, stateAt 446 l = Function.update (stateAt 445) ⟨221, hl221⟩ St.done l := show ∀ l : Fin 256, stateAt 446 l = Function.update (stateAt 445) ⟨221, (by decide : (221 : ℕ) < 256)⟩ St.done l from by decide
  iapply (wait_fam c 𝒱₀ arg3 (Memref.whole main_v0_0) i q ai wm hai x3 f 445 221 13 hl221 hj13 rfl hp446 hn446 w446 hw446 (k0_off1337 i) rfl (k0_off1337_inb i) k0_cond446 (fun _ => rfl) (k0_chk446 i) (k0_chk446.dec i) (k0_off1338 i) (fun _ => rfl) (fun _ _ h => h) (k0_off1338_inb i) ((View.wordExact_bits rfl).reshape _ _) (fun _ _ => (View.wordExact_bits rfl).reshape _ _) _ _ W445) $$ [HS HM HC HO]
  · isplitl [HS]; · iexact HS
    isplitl [HM]; · iexact HM
    isplitl [HC]; · iexact HC
    iexact HO
  iintro ⟨HS, HM, HC, S13, %W446, HO⟩
  iapply (loadMask_wp c 𝒱₀ i 222 hl222 q wm rfl) $$ HM
  iintro HM %w447 %hw447
  have hp447 : stateAt 446 ⟨222, hl222⟩ = St.started := show stateAt 446 ⟨222, (by decide : (222 : ℕ) < 256)⟩ = St.started from by decide
  have hn447 : ∀ l : Fin 256, stateAt 447 l = Function.update (stateAt 446) ⟨222, hl222⟩ St.done l := show ∀ l : Fin 256, stateAt 447 l = Function.update (stateAt 446) ⟨222, (by decide : (222 : ℕ) < 256)⟩ St.done l from by decide
  iapply (wait_fam c 𝒱₀ arg3 (Memref.whole main_v0_0) i q ai wm hai x3 f 446 222 14 hl222 hj14 rfl hp447 hn447 w447 hw447 (k0_off1340 i) rfl (k0_off1340_inb i) k0_cond447 (fun _ => rfl) (k0_chk447 i) (k0_chk447.dec i) (k0_off1341 i) (fun _ => rfl) (fun _ _ h => h) (k0_off1341_inb i) ((View.wordExact_bits rfl).reshape _ _) (fun _ _ => (View.wordExact_bits rfl).reshape _ _) _ _ W446) $$ [HS HM HC HO]
  · isplitl [HS]; · iexact HS
    isplitl [HM]; · iexact HM
    isplitl [HC]; · iexact HC
    iexact HO
  iintro ⟨HS, HM, HC, S14, %W447, HO⟩
  iapply (loadMask_wp c 𝒱₀ i 223 hl223 q wm rfl) $$ HM
  iintro HM %w448 %hw448
  have hp448 : stateAt 447 ⟨223, hl223⟩ = St.started := show stateAt 447 ⟨223, (by decide : (223 : ℕ) < 256)⟩ = St.started from by decide
  have hn448 : ∀ l : Fin 256, stateAt 448 l = Function.update (stateAt 447) ⟨223, hl223⟩ St.done l := show ∀ l : Fin 256, stateAt 448 l = Function.update (stateAt 447) ⟨223, (by decide : (223 : ℕ) < 256)⟩ St.done l from by decide
  iapply (wait_fam c 𝒱₀ arg3 (Memref.whole main_v0_0) i q ai wm hai x3 f 447 223 15 hl223 hj15 rfl hp448 hn448 w448 hw448 (k0_off1343 i) rfl (k0_off1343_inb i) k0_cond448 (fun _ => rfl) (k0_chk448 i) (k0_chk448.dec i) (k0_off1344 i) (fun _ => rfl) (fun _ _ h => h) (k0_off1344_inb i) ((View.wordExact_bits rfl).reshape _ _) (fun _ _ => (View.wordExact_bits rfl).reshape _ _) _ _ W447) $$ [HS HM HC HO]
  · isplitl [HS]; · iexact HS
    isplitl [HM]; · iexact HM
    isplitl [HC]; · iexact HC
    iexact HO
  iintro ⟨HS, HM, HC, S15, %W448, HO⟩
  iapply (loadMask_wp c 𝒱₀ i 224 hl224 q wm rfl) $$ HM
  iintro HM %w449 %hw449
  have hp449 : stateAt 448 ⟨224, hl224⟩ = St.pending := show stateAt 448 ⟨224, (by decide : (224 : ℕ) < 256)⟩ = St.pending from by decide
  have hn449 : ∀ l : Fin 256, stateAt 449 l = Function.update (stateAt 448) ⟨224, hl224⟩ St.started l := show ∀ l : Fin 256, stateAt 449 l = Function.update (stateAt 448) ⟨224, (by decide : (224 : ℕ) < 256)⟩ St.started l from by decide
  iapply (start_fam c 𝒱₀ arg3 (Memref.whole main_v0_0) i q ai wm hai x3 f 448 224 0 hl224 hj0 rfl hp449 hn449 w449 hw449 k0_cond449 (fun _ => rfl) (k0_chk449 i) (k0_chk449.dec i) (k0_off1347 i) (fun _ => rfl) (fun _ _ => rfl) rfl) $$ [HS HC S0]
  · isplitl [HS]; · iexact HS
    isplitl [HC]; · iexact HC
    iexact S0
  iintro ⟨HS, HC⟩
  iapply (loadMask_wp c 𝒱₀ i 225 hl225 q wm rfl) $$ HM
  iintro HM %w450 %hw450
  rw [wp_pure]
  imodintro
  isplitr; · ipureintro; exact hw450
  isplitl [HS]; · iexact HS
  isplitl [HM]; · iexact HM
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 76 of the body: steps 450 to 455, and the load of the next step's mask word. -/
theorem part76_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 225 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 449 ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part76 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 231 (by decide)⌝ ∗ ((c : Thread nD τ).loc main_call0_v12 ↦{q} ai) ∗ ((c : Thread nD τ).loc main_call0_v13 ↦{q} wm) ∗ cells c arg3 (Memref.whole main_v0_0) i ai wm hai x3 f 455 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part76_eq_skeleton]; unfold k0_part76_skel
  iintro ⟨HS, HM, HC, S1, S2, S3, S4, S5, S6, S7, S8, S9, S10, S11, S12, S13, S14, S15, HO⟩
  have hl225 : (225 : ℕ) < 256 := by decide
  have hl226 : (226 : ℕ) < 256 := by decide
  have hl227 : (227 : ℕ) < 256 := by decide
  have hl228 : (228 : ℕ) < 256 := by decide
  have hl229 : (229 : ℕ) < 256 := by decide
  have hl230 : (230 : ℕ) < 256 := by decide
  have hl231 : (231 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw450 : w = wordOf wm i 225 hl225 := hw
  have hp450 : stateAt 449 ⟨225, hl225⟩ = St.pending := show stateAt 449 ⟨225, (by decide : (225 : ℕ) < 256)⟩ = St.pending from by decide
  have hn450 : ∀ l : Fin 256, stateAt 450 l = Function.update (stateAt 449) ⟨225, hl225⟩ St.started l := show ∀ l : Fin 256, stateAt 450 l = Function.update (stateAt 449) ⟨225, (by decide : (225 : ℕ) < 256)⟩ St.started l from by decide
  iapply (start_fam c 𝒱₀ arg3 (Memref.whole main_v0_0) i q ai wm hai x3 f 449 225 1 hl225 hj1 rfl hp450 hn450 w hw450 k0_cond450 (fun _ => rfl) (k0_chk450 i) (k0_chk450.dec i) (k0_off1350 i) (fun _ => rfl) (fun _ _ => rfl) rfl) $$ [HS HC S1]
  · isplitl [HS]; · iexact HS
    isplitl [HC]; · iexact HC
    iexact S1
  iintro ⟨HS, HC⟩
  iapply (loadMask_wp c 𝒱₀ i 226 hl226 q wm rfl) $$ HM
  iintro HM %w451 %hw451
  have hp451 : stateAt 450 ⟨226, hl226⟩ = St.pending := show stateAt 450 ⟨226, (by decide : (226 : ℕ) < 256)⟩ = St.pending from by decide
  have hn451 : ∀ l : Fin 256, stateAt 451 l = Function.update (stateAt 450) ⟨226, hl226⟩ St.started l := show ∀ l : Fin 256, stateAt 451 l = Function.update (stateAt 450) ⟨226, (by decide : (226 : ℕ) < 256)⟩ St.started l from by decide
  iapply (start_fam c 𝒱₀ arg3 (Memref.whole main_v0_0) i q ai wm hai x3 f 450 226 2 hl226 hj2 rfl hp451 hn451 w451 hw451 k0_cond451 (fun _ => rfl) (k0_chk451 i) (k0_chk451.dec i) (k0_off1353 i) (fun _ => rfl) (fun _ _ => rfl) rfl) $$ [HS HC S2]
  · isplitl [HS]; · iexact HS
    isplitl [HC]; · iexact HC
    iexact S2
  iintro ⟨HS, HC⟩
  iapply (loadMask_wp c 𝒱₀ i 227 hl227 q wm rfl) $$ HM
  iintro HM %w452 %hw452
  have hp452 : stateAt 451 ⟨227, hl227⟩ = St.pending := show stateAt 451 ⟨227, (by decide : (227 : ℕ) < 256)⟩ = St.pending from by decide
  have hn452 : ∀ l : Fin 256, stateAt 452 l = Function.update (stateAt 451) ⟨227, hl227⟩ St.started l := show ∀ l : Fin 256, stateAt 452 l = Function.update (stateAt 451) ⟨227, (by decide : (227 : ℕ) < 256)⟩ St.started l from by decide
  iapply (start_fam c 𝒱₀ arg3 (Memref.whole main_v0_0) i q ai wm hai x3 f 451 227 3 hl227 hj3 rfl hp452 hn452 w452 hw452 k0_cond452 (fun _ => rfl) (k0_chk452 i) (k0_chk452.dec i) (k0_off1356 i) (fun _ => rfl) (fun _ _ => rfl) rfl) $$ [HS HC S3]
  · isplitl [HS]; · iexact HS
    isplitl [HC]; · iexact HC
    iexact S3
  iintro ⟨HS, HC⟩
  iapply (loadMask_wp c 𝒱₀ i 228 hl228 q wm rfl) $$ HM
  iintro HM %w453 %hw453
  have hp453 : stateAt 452 ⟨228, hl228⟩ = St.pending := show stateAt 452 ⟨228, (by decide : (228 : ℕ) < 256)⟩ = St.pending from by decide
  have hn453 : ∀ l : Fin 256, stateAt 453 l = Function.update (stateAt 452) ⟨228, hl228⟩ St.started l := show ∀ l : Fin 256, stateAt 453 l = Function.update (stateAt 452) ⟨228, (by decide : (228 : ℕ) < 256)⟩ St.started l from by decide
  iapply (start_fam c 𝒱₀ arg3 (Memref.whole main_v0_0) i q ai wm hai x3 f 452 228 4 hl228 hj4 rfl hp453 hn453 w453 hw453 k0_cond453 (fun _ => rfl) (k0_chk453 i) (k0_chk453.dec i) (k0_off1359 i) (fun _ => rfl) (fun _ _ => rfl) rfl) $$ [HS HC S4]
  · isplitl [HS]; · iexact HS
    isplitl [HC]; · iexact HC
    iexact S4
  iintro ⟨HS, HC⟩
  iapply (loadMask_wp c 𝒱₀ i 229 hl229 q wm rfl) $$ HM
  iintro HM %w454 %hw454
  have hp454 : stateAt 453 ⟨229, hl229⟩ = St.pending := show stateAt 453 ⟨229, (by decide : (229 : ℕ) < 256)⟩ = St.pending from by decide
  have hn454 : ∀ l : Fin 256, stateAt 454 l = Function.update (stateAt 453) ⟨229, hl229⟩ St.started l := show ∀ l : Fin 256, stateAt 454 l = Function.update (stateAt 453) ⟨229, (by decide : (229 : ℕ) < 256)⟩ St.started l from by decide
  iapply (start_fam c 𝒱₀ arg3 (Memref.whole main_v0_0) i q ai wm hai x3 f 453 229 5 hl229 hj5 rfl hp454 hn454 w454 hw454 k0_cond454 (fun _ => rfl) (k0_chk454 i) (k0_chk454.dec i) (k0_off1362 i) (fun _ => rfl) (fun _ _ => rfl) rfl) $$ [HS HC S5]
  · isplitl [HS]; · iexact HS
    isplitl [HC]; · iexact HC
    iexact S5
  iintro ⟨HS, HC⟩
  iapply (loadMask_wp c 𝒱₀ i 230 hl230 q wm rfl) $$ HM
  iintro HM %w455 %hw455
  have hp455 : stateAt 454 ⟨230, hl230⟩ = St.pending := show stateAt 454 ⟨230, (by decide : (230 : ℕ) < 256)⟩ = St.pending from by decide
  have hn455 : ∀ l : Fin 256, stateAt 455 l = Function.update (stateAt 454) ⟨230, hl230⟩ St.started l := show ∀ l : Fin 256, stateAt 455 l = Function.update (stateAt 454) ⟨230, (by decide : (230 : ℕ) < 256)⟩ St.started l from by decide
  iapply (start_fam c 𝒱₀ arg3 (Memref.whole main_v0_0) i q ai wm hai x3 f 454 230 6 hl230 hj6 rfl hp455 hn455 w455 hw455 k0_cond455 (fun _ => rfl) (k0_chk455 i) (k0_chk455.dec i) (k0_off1365 i) (fun _ => rfl) (fun _ _ => rfl) rfl) $$ [HS HC S6]
  · isplitl [HS]; · iexact HS
    isplitl [HC]; · iexact HC
    iexact S6
  iintro ⟨HS, HC⟩
  iapply (loadMask_wp c 𝒱₀ i 231 hl231 q wm rfl) $$ HM
  iintro HM %w456 %hw456
  rw [wp_pure]
  imodintro
  isplitr; · ipureintro; exact hw456
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 77 of the body: steps 456 to 461, and the load of the next step's mask word. -/
theorem part77_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 231 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 455 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part77 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 237 (by decide)⌝ ∗ ((c : Thread nD τ).loc main_call0_v12 ↦{q} ai) ∗ ((c : Thread nD τ).loc main_call0_v13 ↦{q} wm) ∗ cells c arg3 (Memref.whole main_v0_0) i ai wm hai x3 f 461 ∗ semPt c 13 (sem_inb 13 (by decide)) ∗ semPt c 14 (sem_inb 14 (by decide)) ∗ semPt c 15 (sem_inb 15 (by decide)) ∗ ∃ W', owes (c : Thread nD τ) 0 W')) := by
  rw [k0_part77_eq_skeleton]; unfold k0_part77_skel
  iintro ⟨HS, HM, HC, S7, S8, S9, S10, S11, S12, S13, S14, S15, HO⟩
  have hl231 : (231 : ℕ) < 256 := by decide
  have hl232 : (232 : ℕ) < 256 := by decide
  have hl233 : (233 : ℕ) < 256 := by decide
  have hl234 : (234 : ℕ) < 256 := by decide
  have hl235 : (235 : ℕ) < 256 := by decide
  have hl236 : (236 : ℕ) < 256 := by decide
  have hl237 : (237 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw456 : w = wordOf wm i 231 hl231 := hw
  have hp456 : stateAt 455 ⟨231, hl231⟩ = St.pending := show stateAt 455 ⟨231, (by decide : (231 : ℕ) < 256)⟩ = St.pending from by decide
  have hn456 : ∀ l : Fin 256, stateAt 456 l = Function.update (stateAt 455) ⟨231, hl231⟩ St.started l := show ∀ l : Fin 256, stateAt 456 l = Function.update (stateAt 455) ⟨231, (by decide : (231 : ℕ) < 256)⟩ St.started l from by decide
  iapply (start_fam c 𝒱₀ arg3 (Memref.whole main_v0_0) i q ai wm hai x3 f 455 231 7 hl231 hj7 rfl hp456 hn456 w hw456 k0_cond456 (fun _ => rfl) (k0_chk456 i) (k0_chk456.dec i) (k0_off1368 i) (fun _ => rfl) (fun _ _ => rfl) rfl) $$ [HS HC S7]
  · isplitl [HS]; · iexact HS
    isplitl [HC]; · iexact HC
    iexact S7
  iintro ⟨HS, HC⟩
  iapply (loadMask_wp c 𝒱₀ i 232 hl232 q wm rfl) $$ HM
  iintro HM %w457 %hw457
  have hp457 : stateAt 456 ⟨232, hl232⟩ = St.pending := show stateAt 456 ⟨232, (by decide : (232 : ℕ) < 256)⟩ = St.pending from by decide
  have hn457 : ∀ l : Fin 256, stateAt 457 l = Function.update (stateAt 456) ⟨232, hl232⟩ St.started l := show ∀ l : Fin 256, stateAt 457 l = Function.update (stateAt 456) ⟨232, (by decide : (232 : ℕ) < 256)⟩ St.started l from by decide
  iapply (start_fam c 𝒱₀ arg3 (Memref.whole main_v0_0) i q ai wm hai x3 f 456 232 8 hl232 hj8 rfl hp457 hn457 w457 hw457 k0_cond457 (fun _ => rfl) (k0_chk457 i) (k0_chk457.dec i) (k0_off1371 i) (fun _ => rfl) (fun _ _ => rfl) rfl) $$ [HS HC S8]
  · isplitl [HS]; · iexact HS
    isplitl [HC]; · iexact HC
    iexact S8
  iintro ⟨HS, HC⟩
  iapply (loadMask_wp c 𝒱₀ i 233 hl233 q wm rfl) $$ HM
  iintro HM %w458 %hw458
  have hp458 : stateAt 457 ⟨233, hl233⟩ = St.pending := show stateAt 457 ⟨233, (by decide : (233 : ℕ) < 256)⟩ = St.pending from by decide
  have hn458 : ∀ l : Fin 256, stateAt 458 l = Function.update (stateAt 457) ⟨233, hl233⟩ St.started l := show ∀ l : Fin 256, stateAt 458 l = Function.update (stateAt 457) ⟨233, (by decide : (233 : ℕ) < 256)⟩ St.started l from by decide
  iapply (start_fam c 𝒱₀ arg3 (Memref.whole main_v0_0) i q ai wm hai x3 f 457 233 9 hl233 hj9 rfl hp458 hn458 w458 hw458 k0_cond458 (fun _ => rfl) (k0_chk458 i) (k0_chk458.dec i) (k0_off1374 i) (fun _ => rfl) (fun _ _ => rfl) rfl) $$ [HS HC S9]
  · isplitl [HS]; · iexact HS
    isplitl [HC]; · iexact HC
    iexact S9
  iintro ⟨HS, HC⟩
  iapply (loadMask_wp c 𝒱₀ i 234 hl234 q wm rfl) $$ HM
  iintro HM %w459 %hw459
  have hp459 : stateAt 458 ⟨234, hl234⟩ = St.pending := show stateAt 458 ⟨234, (by decide : (234 : ℕ) < 256)⟩ = St.pending from by decide
  have hn459 : ∀ l : Fin 256, stateAt 459 l = Function.update (stateAt 458) ⟨234, hl234⟩ St.started l := show ∀ l : Fin 256, stateAt 459 l = Function.update (stateAt 458) ⟨234, (by decide : (234 : ℕ) < 256)⟩ St.started l from by decide
  iapply (start_fam c 𝒱₀ arg3 (Memref.whole main_v0_0) i q ai wm hai x3 f 458 234 10 hl234 hj10 rfl hp459 hn459 w459 hw459 k0_cond459 (fun _ => rfl) (k0_chk459 i) (k0_chk459.dec i) (k0_off1377 i) (fun _ => rfl) (fun _ _ => rfl) rfl) $$ [HS HC S10]
  · isplitl [HS]; · iexact HS
    isplitl [HC]; · iexact HC
    iexact S10
  iintro ⟨HS, HC⟩
  iapply (loadMask_wp c 𝒱₀ i 235 hl235 q wm rfl) $$ HM
  iintro HM %w460 %hw460
  have hp460 : stateAt 459 ⟨235, hl235⟩ = St.pending := show stateAt 459 ⟨235, (by decide : (235 : ℕ) < 256)⟩ = St.pending from by decide
  have hn460 : ∀ l : Fin 256, stateAt 460 l = Function.update (stateAt 459) ⟨235, hl235⟩ St.started l := show ∀ l : Fin 256, stateAt 460 l = Function.update (stateAt 459) ⟨235, (by decide : (235 : ℕ) < 256)⟩ St.started l from by decide
  iapply (start_fam c 𝒱₀ arg3 (Memref.whole main_v0_0) i q ai wm hai x3 f 459 235 11 hl235 hj11 rfl hp460 hn460 w460 hw460 k0_cond460 (fun _ => rfl) (k0_chk460 i) (k0_chk460.dec i) (k0_off1380 i) (fun _ => rfl) (fun _ _ => rfl) rfl) $$ [HS HC S11]
  · isplitl [HS]; · iexact HS
    isplitl [HC]; · iexact HC
    iexact S11
  iintro ⟨HS, HC⟩
  iapply (loadMask_wp c 𝒱₀ i 236 hl236 q wm rfl) $$ HM
  iintro HM %w461 %hw461
  have hp461 : stateAt 460 ⟨236, hl236⟩ = St.pending := show stateAt 460 ⟨236, (by decide : (236 : ℕ) < 256)⟩ = St.pending from by decide
  have hn461 : ∀ l : Fin 256, stateAt 461 l = Function.update (stateAt 460) ⟨236, hl236⟩ St.started l := show ∀ l : Fin 256, stateAt 461 l = Function.update (stateAt 460) ⟨236, (by decide : (236 : ℕ) < 256)⟩ St.started l from by decide
  iapply (start_fam c 𝒱₀ arg3 (Memref.whole main_v0_0) i q ai wm hai x3 f 460 236 12 hl236 hj12 rfl hp461 hn461 w461 hw461 k0_cond461 (fun _ => rfl) (k0_chk461 i) (k0_chk461.dec i) (k0_off1383 i) (fun _ => rfl) (fun _ _ => rfl) rfl) $$ [HS HC S12]
  · isplitl [HS]; · iexact HS
    isplitl [HC]; · iexact HC
    iexact S12
  iintro ⟨HS, HC⟩
  iapply (loadMask_wp c 𝒱₀ i 237 hl237 q wm rfl) $$ HM
  iintro HM %w462 %hw462
  rw [wp_pure]
  imodintro
  isplitr; · ipureintro; exact hw462
  isplitl [HS]; · iexact HS
  isplitl [HM]; · iexact HM
  isplitl [HC]; · iexact HC
  isplitl [S13]; · iexact S13
  isplitl [S14]; · iexact S14
  isplitl [S15]; · iexact S15
  iexists _; iexact HO

end Cert.Kernel.Cells

end
-- ==== Proof.Parts8Bits.lean ====
/-
  Parts 78 to 85 of the body at a grid point, each taken through its guarded steps one cell at a time:
  a mask-word load hands on the table's word for its cell, a guarded start moves its pending cell to started on the
  cell's semaphore, a guarded wait moves its started cell to done and frees the semaphore.
-/
import proofs.«427608_j71184787964323_3_alg».proof.Proof.FamilyBits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 0 in
/-- Part 78 of the body: steps 462 to 467, and the load of the next step's mask word. -/
theorem part78_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 237 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 461 ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part78 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 227 (by decide)⌝ ∗ ((c : Thread nD τ).loc main_call0_v12 ↦{q} ai) ∗ ((c : Thread nD τ).loc main_call0_v13 ↦{q} wm) ∗ cells c arg3 (Memref.whole main_v0_0) i ai wm hai x3 f 467 ∗ semPt c 0 (sem_inb 0 (by decide)) ∗ semPt c 1 (sem_inb 1 (by decide)) ∗ semPt c 2 (sem_inb 2 (by decide)) ∗ ∃ W', owes (c : Thread nD τ) 0 W')) := by
  rw [k0_part78_eq_skeleton]; unfold k0_part78_skel
  iintro ⟨HS, HM, HC, S13, S14, S15, HO⟩
  have hl224 : (224 : ℕ) < 256 := by decide
  have hl225 : (225 : ℕ) < 256 := by decide
  have hl226 : (226 : ℕ) < 256 := by decide
  have hl227 : (227 : ℕ) < 256 := by decide
  have hl237 : (237 : ℕ) < 256 := by decide
  have hl238 : (238 : ℕ) < 256 := by decide
  have hl239 : (239 : ℕ) < 256 := by decide
  have hj0 : (0 : ℕ) < 16 := by decide
  have hj1 : (1 : ℕ) < 16 := by decide
  have hj2 : (2 : ℕ) < 16 := by decide
  have hj13 : (13 : ℕ) < 16 := by decide
  have hj14 : (14 : ℕ) < 16 := by decide
  have hj15 : (15 : ℕ) < 16 := by decide
  have hw462 : w = wordOf wm i 237 hl237 := hw
  have hp462 : stateAt 461 ⟨237, hl237⟩ = St.pending := show stateAt 461 ⟨237, (by decide : (237 : ℕ) < 256)⟩ = St.pending from by decide
  have hn462 : ∀ l : Fin 256, stateAt 462 l = Function.update (stateAt 461) ⟨237, hl237⟩ St.started l := show ∀ l : Fin 256, stateAt 462 l = Function.update (stateAt 461) ⟨237, (by decide : (237 : ℕ) < 256)⟩ St.started l from by decide
  iapply (start_fam c 𝒱₀ arg3 (Memref.whole main_v0_0) i q ai wm hai x3 f 461 237 13 hl237 hj13 rfl hp462 hn462 w hw462 k0_cond462 (fun _ => rfl) (k0_chk462 i) (k0_chk462.dec i) (k0_off1386 i) (fun _ => rfl) (fun _ _ => rfl) rfl) $$ [HS HC S13]
  · isplitl [HS]; · iexact HS
    isplitl [HC]; · iexact HC
    iexact S13
  iintro ⟨HS, HC⟩
  iapply (loadMask_wp c 𝒱₀ i 238 hl238 q wm rfl) $$ HM
  iintro HM %w463 %hw463
  have hp463 : stateAt 462 ⟨238, hl238⟩ = St.pending := show stateAt 462 ⟨238, (by decide : (238 : ℕ) < 256)⟩ = St.pending from by decide
  have hn463 : ∀ l : Fin 256, stateAt 463 l = Function.update (stateAt 462) ⟨238, hl238⟩ St.started l := show ∀ l : Fin 256, stateAt 463 l = Function.update (stateAt 462) ⟨238, (by decide : (238 : ℕ) < 256)⟩ St.started l from by decide
  iapply (start_fam c 𝒱₀ arg3 (Memref.whole main_v0_0) i q ai wm hai x3 f 462 238 14 hl238 hj14 rfl hp463 hn463 w463 hw463 k0_cond463 (fun _ => rfl) (k0_chk463 i) (k0_chk463.dec i) (k0_off1389 i) (fun _ => rfl) (fun _ _ => rfl) rfl) $$ [HS HC S14]
  · isplitl [HS]; · iexact HS
    isplitl [HC]; · iexact HC
    iexact S14
  iintro ⟨HS, HC⟩
  iapply (loadMask_wp c 𝒱₀ i 239 hl239 q wm rfl) $$ HM
  iintro HM %w464 %hw464
  have hp464 : stateAt 463 ⟨239, hl239⟩ = St.pending := show stateAt 463 ⟨239, (by decide : (239 : ℕ) < 256)⟩ = St.pending from by decide
  have hn464 : ∀ l : Fin 256, stateAt 464 l = Function.update (stateAt 463) ⟨239, hl239⟩ St.started l := show ∀ l : Fin 256, stateAt 464 l = Function.update (stateAt 463) ⟨239, (by decide : (239 : ℕ) < 256)⟩ St.started l from by decide
  iapply (start_fam c 𝒱₀ arg3 (Memref.whole main_v0_0) i q ai wm hai x3 f 463 239 15 hl239 hj15 rfl hp464 hn464 w464 hw464 k0_cond464 (fun _ => rfl) (k0_chk464 i) (k0_chk464.dec i) (k0_off1392 i) (fun _ => rfl) (fun _ _ => rfl) rfl) $$ [HS HC S15]
  · isplitl [HS]; · iexact HS
    isplitl [HC]; · iexact HC
    iexact S15
  iintro ⟨HS, HC⟩
  iapply (loadMask_wp c 𝒱₀ i 224 hl224 q wm rfl) $$ HM
  iintro HM %w465 %hw465
  have hp465 : stateAt 464 ⟨224, hl224⟩ = St.started := show stateAt 464 ⟨224, (by decide : (224 : ℕ) < 256)⟩ = St.started from by decide
  have hn465 : ∀ l : Fin 256, stateAt 465 l = Function.update (stateAt 464) ⟨224, hl224⟩ St.done l := show ∀ l : Fin 256, stateAt 465 l = Function.update (stateAt 464) ⟨224, (by decide : (224 : ℕ) < 256)⟩ St.done l from by decide
  iapply (wait_fam c 𝒱₀ arg3 (Memref.whole main_v0_0) i q ai wm hai x3 f 464 224 0 hl224 hj0 rfl hp465 hn465 w465 hw465 (k0_off1394 i) rfl (k0_off1394_inb i) k0_cond465 (fun _ => rfl) (k0_chk465 i) (k0_chk465.dec i) (k0_off1395 i) (fun _ => rfl) (fun _ _ h => h) (k0_off1395_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W465, HO⟩
  iapply (loadMask_wp c 𝒱₀ i 225 hl225 q wm rfl) $$ HM
  iintro HM %w466 %hw466
  have hp466 : stateAt 465 ⟨225, hl225⟩ = St.started := show stateAt 465 ⟨225, (by decide : (225 : ℕ) < 256)⟩ = St.started from by decide
  have hn466 : ∀ l : Fin 256, stateAt 466 l = Function.update (stateAt 465) ⟨225, hl225⟩ St.done l := show ∀ l : Fin 256, stateAt 466 l = Function.update (stateAt 465) ⟨225, (by decide : (225 : ℕ) < 256)⟩ St.done l from by decide
  iapply (wait_fam c 𝒱₀ arg3 (Memref.whole main_v0_0) i q ai wm hai x3 f 465 225 1 hl225 hj1 rfl hp466 hn466 w466 hw466 (k0_off1397 i) rfl (k0_off1397_inb i) k0_cond466 (fun _ => rfl) (k0_chk466 i) (k0_chk466.dec i) (k0_off1398 i) (fun _ => rfl) (fun _ _ h => h) (k0_off1398_inb i) ((View.wordExact_bits rfl).reshape _ _) (fun _ _ => (View.wordExact_bits rfl).reshape _ _) _ _ W465) $$ [HS HM HC HO]
  · isplitl [HS]; · iexact HS
    isplitl [HM]; · iexact HM
    isplitl [HC]; · iexact HC
    iexact HO
  iintro ⟨HS, HM, HC, S1, %W466, HO⟩
  iapply (loadMask_wp c 𝒱₀ i 226 hl226 q wm rfl) $$ HM
  iintro HM %w467 %hw467
  have hp467 : stateAt 466 ⟨226, hl226⟩ = St.started := show stateAt 466 ⟨226, (by decide : (226 : ℕ) < 256)⟩ = St.started from by decide
  have hn467 : ∀ l : Fin 256, stateAt 467 l = Function.update (stateAt 466) ⟨226, hl226⟩ St.done l := show ∀ l : Fin 256, stateAt 467 l = Function.update (stateAt 466) ⟨226, (by decide : (226 : ℕ) < 256)⟩ St.done l from by decide
  iapply (wait_fam c 𝒱₀ arg3 (Memref.whole main_v0_0) i q ai wm hai x3 f 466 226 2 hl226 hj2 rfl hp467 hn467 w467 hw467 (k0_off1400 i) rfl (k0_off1400_inb i) k0_cond467 (fun _ => rfl) (k0_chk467 i) (k0_chk467.dec i) (k0_off1401 i) (fun _ => rfl) (fun _ _ h => h) (k0_off1401_inb i) ((View.wordExact_bits rfl).reshape _ _) (fun _ _ => (View.wordExact_bits rfl).reshape _ _) _ _ W466) $$ [HS HM HC HO]
  · isplitl [HS]; · iexact HS
    isplitl [HM]; · iexact HM
    isplitl [HC]; · iexact HC
    iexact HO
  iintro ⟨HS, HM, HC, S2, %W467, HO⟩
  iapply (loadMask_wp c 𝒱₀ i 227 hl227 q wm rfl) $$ HM
  iintro HM %w468 %hw468
  rw [wp_pure]
  imodintro
  isplitr; · ipureintro; exact hw468
  isplitl [HS]; · iexact HS
  isplitl [HM]; · iexact HM
  isplitl [HC]; · iexact HC
  isplitl [S0]; · iexact S0
  isplitl [S1]; · iexact S1
  isplitl [S2]; · iexact S2
  iexists _; iexact HO

set_option maxHeartbeats 0 in
/-- Part 79 of the body: steps 468 to 473, and the load of the next step's mask word. -/
theorem part79_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 227 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 467 ∗ semPt c 0 (sem_inb 0 (by decide)) ∗ semPt c 1 (sem_inb 1 (by decide)) ∗ semPt c 2 (sem_inb 2 (by decide)) ∗ owes (c : Thread nD τ) 0 W)
      ⊢ wp frame (wpE (defs₀ (F := F)) 𝒱₀ (c : Thread nD τ) none) Set.univ (k0_part79 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 233 (by decide)⌝ ∗ ((c : Thread nD τ).loc main_call0_v12 ↦{q} ai) ∗ ((c : Thread nD τ).loc main_call0_v13 ↦{q} wm) ∗ cells c arg3 (Memref.whole main_v0_0) i ai wm hai x3 f 473 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ ∃ W', owes (c : Thread nD τ) 0 W')) := by
  rw [k0_part79_eq_skeleton]; unfold k0_part79_skel
  iintro ⟨HS, HM, HC, S0, S1, S2, HO⟩
  have hl227 : (227 : ℕ) < 256 := by decide
  have hl228 : (228 : ℕ) < 256 := by decide
  have hl229 : (229 : ℕ) < 256 := by decide
  have hl230 : (230 : ℕ) < 256 := by decide
  have hl231 : (231 : ℕ) < 256 := by decide
  have hl232 : (232 : ℕ) < 256 := by decide
  have hl233 : (233 : ℕ) < 256 := by decide
  have hj3 : (3 : ℕ) < 16 := by decide
  have hj4 : (4 : ℕ) < 16 := by decide
  have hj5 : (5 : ℕ) < 16 := by decide
  have hj6 : (6 : ℕ) < 16 := by decide
  have hj7 : (7 : ℕ) < 16 := by decide
  have hj8 : (8 : ℕ) < 16 := by decide
  have hw468 : w = wordOf wm i 227 hl227 := hw
  have hp468 : stateAt 467 ⟨227, hl227⟩ = St.started := show stateAt 467 ⟨227, (by decide : (227 : ℕ) < 256)⟩ = St.started from by decide
  have hn468 : ∀ l : Fin 256, stateAt 468 l = Function.update (stateAt 467) ⟨227, hl227⟩ St.done l := show ∀ l : Fin 256, stateAt 468 l = Function.update (stateAt 467) ⟨227, (by decide : (227 : ℕ) < 256)⟩ St.done l from by decide
  iapply (wait_fam c 𝒱₀ arg3 (Memref.whole main_v0_0) i q ai wm hai x3 f 467 227 3 hl227 hj3 rfl hp468 hn468 w hw468 (k0_off1403 i) rfl (k0_off1403_inb i) k0_cond468 (fun _ => rfl) (k0_chk468 i) (k0_chk468.dec i) (k0_off1404 i) (fun _ => rfl) (fun _ _ h => h) (k0_off1404_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S3, %W468, HO⟩
  iapply (loadMask_wp c 𝒱₀ i 228 hl228 q wm rfl) $$ HM
  iintro HM %w469 %hw469
  have hp469 : stateAt 468 ⟨228, hl228⟩ = St.started := show stateAt 468 ⟨228, (by decide : (228 : ℕ) < 256)⟩ = St.started from by decide
  have hn469 : ∀ l : Fin 256, stateAt 469 l = Function.update (stateAt 468) ⟨228, hl228⟩ St.done l := show ∀ l : Fin 256, stateAt 469 l = Function.update (stateAt 468) ⟨228, (by decide : (228 : ℕ) < 256)⟩ St.done l from by decide
  iapply (wait_fam c 𝒱₀ arg3 (Memref.whole main_v0_0) i q ai wm hai x3 f 468 228 4 hl228 hj4 rfl hp469 hn469 w469 hw469 (k0_off1406 i) rfl (k0_off1406_inb i) k0_cond469 (fun _ => rfl) (k0_chk469 i) (k0_chk469.dec i) (k0_off1407 i) (fun _ => rfl) (fun _ _ h => h) (k0_off1407_inb i) ((View.wordExact_bits rfl).reshape _ _) (fun _ _ => (View.wordExact_bits rfl).reshape _ _) _ _ W468) $$ [HS HM HC HO]
  · isplitl [HS]; · iexact HS
    isplitl [HM]; · iexact HM
    isplitl [HC]; · iexact HC
    iexact HO
  iintro ⟨HS, HM, HC, S4, %W469, HO⟩
  iapply (loadMask_wp c 𝒱₀ i 229 hl229 q wm rfl) $$ HM
  iintro HM %w470 %hw470
  have hp470 : stateAt 469 ⟨229, hl229⟩ = St.started := show stateAt 469 ⟨229, (by decide : (229 : ℕ) < 256)⟩ = St.started from by decide
  have hn470 : ∀ l : Fin 256, stateAt 470 l = Function.update (stateAt 469) ⟨229, hl229⟩ St.done l := show ∀ l : Fin 256, stateAt 470 l = Function.update (stateAt 469) ⟨229, (by decide : (229 : ℕ) < 256)⟩ St.done l from by decide
  iapply (wait_fam c 𝒱₀ arg3 (Memref.whole main_v0_0) i q ai wm hai x3 f 469 229 5 hl229 hj5 rfl hp470 hn470 w470 hw470 (k0_off1409 i) rfl (k0_off1409_inb i) k0_cond470 (fun _ => rfl) (k0_chk470 i) (k0_chk470.dec i) (k0_off1410 i) (fun _ => rfl) (fun _ _ h => h) (k0_off1410_inb i) ((View.wordExact_bits rfl).reshape _ _) (fun _ _ => (View.wordExact_bits rfl).reshape _ _) _ _ W469) $$ [HS HM HC HO]
  · isplitl [HS]; · iexact HS
    isplitl [HM]; · iexact HM
    isplitl [HC]; · iexact HC
    iexact HO
  iintro ⟨HS, HM, HC, S5, %W470, HO⟩
  iapply (loadMask_wp c 𝒱₀ i 230 hl230 q wm rfl) $$ HM
  iintro HM %w471 %hw471
  have hp471 : stateAt 470 ⟨230, hl230⟩ = St.started := show stateAt 470 ⟨230, (by decide : (230 : ℕ) < 256)⟩ = St.started from by decide
  have hn471 : ∀ l : Fin 256, stateAt 471 l = Function.update (stateAt 470) ⟨230, hl230⟩ St.done l := show ∀ l : Fin 256, stateAt 471 l = Function.update (stateAt 470) ⟨230, (by decide : (230 : ℕ) < 256)⟩ St.done l from by decide
  iapply (wait_fam c 𝒱₀ arg3 (Memref.whole main_v0_0) i q ai wm hai x3 f 470 230 6 hl230 hj6 rfl hp471 hn471 w471 hw471 (k0_off1412 i) rfl (k0_off1412_inb i) k0_cond471 (fun _ => rfl) (k0_chk471 i) (k0_chk471.dec i) (k0_off1413 i) (fun _ => rfl) (fun _ _ h => h) (k0_off1413_inb i) ((View.wordExact_bits rfl).reshape _ _) (fun _ _ => (View.wordExact_bits rfl).reshape _ _) _ _ W470) $$ [HS HM HC HO]
  · isplitl [HS]; · iexact HS
    isplitl [HM]; · iexact HM
    isplitl [HC]; · iexact HC
    iexact HO
  iintro ⟨HS, HM, HC, S6, %W471, HO⟩
  iapply (loadMask_wp c 𝒱₀ i 231 hl231 q wm rfl) $$ HM
  iintro HM %w472 %hw472
  have hp472 : stateAt 471 ⟨231, hl231⟩ = St.started := show stateAt 471 ⟨231, (by decide : (231 : ℕ) < 256)⟩ = St.started from by decide
  have hn472 : ∀ l : Fin 256, stateAt 472 l = Function.update (stateAt 471) ⟨231, hl231⟩ St.done l := show ∀ l : Fin 256, stateAt 472 l = Function.update (stateAt 471) ⟨231, (by decide : (231 : ℕ) < 256)⟩ St.done l from by decide
  iapply (wait_fam c 𝒱₀ arg3 (Memref.whole main_v0_0) i q ai wm hai x3 f 471 231 7 hl231 hj7 rfl hp472 hn472 w472 hw472 (k0_off1415 i) rfl (k0_off1415_inb i) k0_cond472 (fun _ => rfl) (k0_chk472 i) (k0_chk472.dec i) (k0_off1416 i) (fun _ => rfl) (fun _ _ h => h) (k0_off1416_inb i) ((View.wordExact_bits rfl).reshape _ _) (fun _ _ => (View.wordExact_bits rfl).reshape _ _) _ _ W471) $$ [HS HM HC HO]
  · isplitl [HS]; · iexact HS
    isplitl [HM]; · iexact HM
    isplitl [HC]; · iexact HC
    iexact HO
  iintro ⟨HS, HM, HC, S7, %W472, HO⟩
  iapply (loadMask_wp c 𝒱₀ i 232 hl232 q wm rfl) $$ HM
  iintro HM %w473 %hw473
  have hp473 : stateAt 472 ⟨232, hl232⟩ = St.started := show stateAt 472 ⟨232, (by decide : (232 : ℕ) < 256)⟩ = St.started from by decide
  have hn473 : ∀ l : Fin 256, stateAt 473 l = Function.update (stateAt 472) ⟨232, hl232⟩ St.done l := show ∀ l : Fin 256, stateAt 473 l = Function.update (stateAt 472) ⟨232, (by decide : (232 : ℕ) < 256)⟩ St.done l from by decide
  iapply (wait_fam c 𝒱₀ arg3 (Memref.whole main_v0_0) i q ai wm hai x3 f 472 232 8 hl232 hj8 rfl hp473 hn473 w473 hw473 (k0_off1418 i) rfl (k0_off1418_inb i) k0_cond473 (fun _ => rfl) (k0_chk473 i) (k0_chk473.dec i) (k0_off1419 i) (fun _ => rfl) (fun _ _ h => h) (k0_off1419_inb i) ((View.wordExact_bits rfl).reshape _ _) (fun _ _ => (View.wordExact_bits rfl).reshape _ _) _ _ W472) $$ [HS HM HC HO]
  · isplitl [HS]; · iexact HS
    isplitl [HM]; · iexact HM
    isplitl [HC]; · iexact HC
    iexact HO
  iintro ⟨HS, HM, HC, S8, %W473, HO⟩
  iapply (loadMask_wp c 𝒱₀ i 233 hl233 q wm rfl) $$ HM
  iintro HM %w474 %hw474
  rw [wp_pure]
  imodintro
  isplitr; · ipureintro; exact hw474
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexists _; iexact HO

set_option maxHeartbeats 0 in
/-- Part 80 of the body: steps 474 to 479, and the load of the next step's mask word. -/
theorem part80_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 233 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 473 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ owes (c : Thread nD τ) 0 W)
      ⊢ wp frame (wpE (defs₀ (F := F)) 𝒱₀ (c : Thread nD τ) none) Set.univ (k0_part80 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 239 (by decide)⌝ ∗ ((c : Thread nD τ).loc main_call0_v12 ↦{q} ai) ∗ ((c : Thread nD τ).loc main_call0_v13 ↦{q} wm) ∗ cells c arg3 (Memref.whole main_v0_0) i ai wm hai x3 f 479 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ ∃ W', owes (c : Thread nD τ) 0 W')) := by
  rw [k0_part80_eq_skeleton]; unfold k0_part80_skel
  iintro ⟨HS, HM, HC, S0, S1, S2, S3, S4, S5, S6, S7, S8, HO⟩
  have hl233 : (233 : ℕ) < 256 := by decide
  have hl234 : (234 : ℕ) < 256 := by decide
  have hl235 : (235 : ℕ) < 256 := by decide
  have hl236 : (236 : ℕ) < 256 := by decide
  have hl237 : (237 : ℕ) < 256 := by decide
  have hl238 : (238 : ℕ) < 256 := by decide
  have hl239 : (239 : ℕ) < 256 := by decide
  have hj9 : (9 : ℕ) < 16 := by decide
  have hj10 : (10 : ℕ) < 16 := by decide
  have hj11 : (11 : ℕ) < 16 := by decide
  have hj12 : (12 : ℕ) < 16 := by decide
  have hj13 : (13 : ℕ) < 16 := by decide
  have hj14 : (14 : ℕ) < 16 := by decide
  have hw474 : w = wordOf wm i 233 hl233 := hw
  have hp474 : stateAt 473 ⟨233, hl233⟩ = St.started := show stateAt 473 ⟨233, (by decide : (233 : ℕ) < 256)⟩ = St.started from by decide
  have hn474 : ∀ l : Fin 256, stateAt 474 l = Function.update (stateAt 473) ⟨233, hl233⟩ St.done l := show ∀ l : Fin 256, stateAt 474 l = Function.update (stateAt 473) ⟨233, (by decide : (233 : ℕ) < 256)⟩ St.done l from by decide
  iapply (wait_fam c 𝒱₀ arg3 (Memref.whole main_v0_0) i q ai wm hai x3 f 473 233 9 hl233 hj9 rfl hp474 hn474 w hw474 (k0_off1421 i) rfl (k0_off1421_inb i) k0_cond474 (fun _ => rfl) (k0_chk474 i) (k0_chk474.dec i) (k0_off1422 i) (fun _ => rfl) (fun _ _ h => h) (k0_off1422_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S9, %W474, HO⟩
  iapply (loadMask_wp c 𝒱₀ i 234 hl234 q wm rfl) $$ HM
  iintro HM %w475 %hw475
  have hp475 : stateAt 474 ⟨234, hl234⟩ = St.started := show stateAt 474 ⟨234, (by decide : (234 : ℕ) < 256)⟩ = St.started from by decide
  have hn475 : ∀ l : Fin 256, stateAt 475 l = Function.update (stateAt 474) ⟨234, hl234⟩ St.done l := show ∀ l : Fin 256, stateAt 475 l = Function.update (stateAt 474) ⟨234, (by decide : (234 : ℕ) < 256)⟩ St.done l from by decide
  iapply (wait_fam c 𝒱₀ arg3 (Memref.whole main_v0_0) i q ai wm hai x3 f 474 234 10 hl234 hj10 rfl hp475 hn475 w475 hw475 (k0_off1424 i) rfl (k0_off1424_inb i) k0_cond475 (fun _ => rfl) (k0_chk475 i) (k0_chk475.dec i) (k0_off1425 i) (fun _ => rfl) (fun _ _ h => h) (k0_off1425_inb i) ((View.wordExact_bits rfl).reshape _ _) (fun _ _ => (View.wordExact_bits rfl).reshape _ _) _ _ W474) $$ [HS HM HC HO]
  · isplitl [HS]; · iexact HS
    isplitl [HM]; · iexact HM
    isplitl [HC]; · iexact HC
    iexact HO
  iintro ⟨HS, HM, HC, S10, %W475, HO⟩
  iapply (loadMask_wp c 𝒱₀ i 235 hl235 q wm rfl) $$ HM
  iintro HM %w476 %hw476
  have hp476 : stateAt 475 ⟨235, hl235⟩ = St.started := show stateAt 475 ⟨235, (by decide : (235 : ℕ) < 256)⟩ = St.started from by decide
  have hn476 : ∀ l : Fin 256, stateAt 476 l = Function.update (stateAt 475) ⟨235, hl235⟩ St.done l := show ∀ l : Fin 256, stateAt 476 l = Function.update (stateAt 475) ⟨235, (by decide : (235 : ℕ) < 256)⟩ St.done l from by decide
  iapply (wait_fam c 𝒱₀ arg3 (Memref.whole main_v0_0) i q ai wm hai x3 f 475 235 11 hl235 hj11 rfl hp476 hn476 w476 hw476 (k0_off1427 i) rfl (k0_off1427_inb i) k0_cond476 (fun _ => rfl) (k0_chk476 i) (k0_chk476.dec i) (k0_off1428 i) (fun _ => rfl) (fun _ _ h => h) (k0_off1428_inb i) ((View.wordExact_bits rfl).reshape _ _) (fun _ _ => (View.wordExact_bits rfl).reshape _ _) _ _ W475) $$ [HS HM HC HO]
  · isplitl [HS]; · iexact HS
    isplitl [HM]; · iexact HM
    isplitl [HC]; · iexact HC
    iexact HO
  iintro ⟨HS, HM, HC, S11, %W476, HO⟩
  iapply (loadMask_wp c 𝒱₀ i 236 hl236 q wm rfl) $$ HM
  iintro HM %w477 %hw477
  have hp477 : stateAt 476 ⟨236, hl236⟩ = St.started := show stateAt 476 ⟨236, (by decide : (236 : ℕ) < 256)⟩ = St.started from by decide
  have hn477 : ∀ l : Fin 256, stateAt 477 l = Function.update (stateAt 476) ⟨236, hl236⟩ St.done l := show ∀ l : Fin 256, stateAt 477 l = Function.update (stateAt 476) ⟨236, (by decide : (236 : ℕ) < 256)⟩ St.done l from by decide
  iapply (wait_fam c 𝒱₀ arg3 (Memref.whole main_v0_0) i q ai wm hai x3 f 476 236 12 hl236 hj12 rfl hp477 hn477 w477 hw477 (k0_off1430 i) rfl (k0_off1430_inb i) k0_cond477 (fun _ => rfl) (k0_chk477 i) (k0_chk477.dec i) (k0_off1431 i) (fun _ => rfl) (fun _ _ h => h) (k0_off1431_inb i) ((View.wordExact_bits rfl).reshape _ _) (fun _ _ => (View.wordExact_bits rfl).reshape _ _) _ _ W476) $$ [HS HM HC HO]
  · isplitl [HS]; · iexact HS
    isplitl [HM]; · iexact HM
    isplitl [HC]; · iexact HC
    iexact HO
  iintro ⟨HS, HM, HC, S12, %W477, HO⟩
  iapply (loadMask_wp c 𝒱₀ i 237 hl237 q wm rfl) $$ HM
  iintro HM %w478 %hw478
  have hp478 : stateAt 477 ⟨237, hl237⟩ = St.started := show stateAt 477 ⟨237, (by decide : (237 : ℕ) < 256)⟩ = St.started from by decide
  have hn478 : ∀ l : Fin 256, stateAt 478 l = Function.update (stateAt 477) ⟨237, hl237⟩ St.done l := show ∀ l : Fin 256, stateAt 478 l = Function.update (stateAt 477) ⟨237, (by decide : (237 : ℕ) < 256)⟩ St.done l from by decide
  iapply (wait_fam c 𝒱₀ arg3 (Memref.whole main_v0_0) i q ai wm hai x3 f 477 237 13 hl237 hj13 rfl hp478 hn478 w478 hw478 (k0_off1433 i) rfl (k0_off1433_inb i) k0_cond478 (fun _ => rfl) (k0_chk478 i) (k0_chk478.dec i) (k0_off1434 i) (fun _ => rfl) (fun _ _ h => h) (k0_off1434_inb i) ((View.wordExact_bits rfl).reshape _ _) (fun _ _ => (View.wordExact_bits rfl).reshape _ _) _ _ W477) $$ [HS HM HC HO]
  · isplitl [HS]; · iexact HS
    isplitl [HM]; · iexact HM
    isplitl [HC]; · iexact HC
    iexact HO
  iintro ⟨HS, HM, HC, S13, %W478, HO⟩
  iapply (loadMask_wp c 𝒱₀ i 238 hl238 q wm rfl) $$ HM
  iintro HM %w479 %hw479
  have hp479 : stateAt 478 ⟨238, hl238⟩ = St.started := show stateAt 478 ⟨238, (by decide : (238 : ℕ) < 256)⟩ = St.started from by decide
  have hn479 : ∀ l : Fin 256, stateAt 479 l = Function.update (stateAt 478) ⟨238, hl238⟩ St.done l := show ∀ l : Fin 256, stateAt 479 l = Function.update (stateAt 478) ⟨238, (by decide : (238 : ℕ) < 256)⟩ St.done l from by decide
  iapply (wait_fam c 𝒱₀ arg3 (Memref.whole main_v0_0) i q ai wm hai x3 f 478 238 14 hl238 hj14 rfl hp479 hn479 w479 hw479 (k0_off1436 i) rfl (k0_off1436_inb i) k0_cond479 (fun _ => rfl) (k0_chk479 i) (k0_chk479.dec i) (k0_off1437 i) (fun _ => rfl) (fun _ _ h => h) (k0_off1437_inb i) ((View.wordExact_bits rfl).reshape _ _) (fun _ _ => (View.wordExact_bits rfl).reshape _ _) _ _ W478) $$ [HS HM HC HO]
  · isplitl [HS]; · iexact HS
    isplitl [HM]; · iexact HM
    isplitl [HC]; · iexact HC
    iexact HO
  iintro ⟨HS, HM, HC, S14, %W479, HO⟩
  iapply (loadMask_wp c 𝒱₀ i 239 hl239 q wm rfl) $$ HM
  iintro HM %w480 %hw480
  rw [wp_pure]
  imodintro
  isplitr; · ipureintro; exact hw480
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexists _; iexact HO

set_option maxHeartbeats 0 in
/-- Part 81 of the body: steps 480 to 485, and the load of the next step's mask word. -/
theorem part81_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 239 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 479 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ owes (c : Thread nD τ) 0 W)
      ⊢ wp frame (wpE (defs₀ (F := F)) 𝒱₀ (c : Thread nD τ) none) Set.univ (k0_part81 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 245 (by decide)⌝ ∗ ((c : Thread nD τ).loc main_call0_v12 ↦{q} ai) ∗ ((c : Thread nD τ).loc main_call0_v13 ↦{q} wm) ∗ cells c arg3 (Memref.whole main_v0_0) i ai wm hai x3 f 485 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part81_eq_skeleton]; unfold k0_part81_skel
  iintro ⟨HS, HM, HC, S0, S1, S2, S3, S4, S5, S6, S7, S8, S9, S10, S11, S12, S13, S14, HO⟩
  have hl239 : (239 : ℕ) < 256 := by decide
  have hl240 : (240 : ℕ) < 256 := by decide
  have hl241 : (241 : ℕ) < 256 := by decide
  have hl242 : (242 : ℕ) < 256 := by decide
  have hl243 : (243 : ℕ) < 256 := by decide
  have hl244 : (244 : ℕ) < 256 := by decide
  have hl245 : (245 : ℕ) < 256 := by decide
  have hj0 : (0 : ℕ) < 16 := by decide
  have hj1 : (1 : ℕ) < 16 := by decide
  have hj2 : (2 : ℕ) < 16 := by decide
  have hj3 : (3 : ℕ) < 16 := by decide
  have hj4 : (4 : ℕ) < 16 := by decide
  have hj15 : (15 : ℕ) < 16 := by decide
  have hw480 : w = wordOf wm i 239 hl239 := hw
  have hp480 : stateAt 479 ⟨239, hl239⟩ = St.started := show stateAt 479 ⟨239, (by decide : (239 : ℕ) < 256)⟩ = St.started from by decide
  have hn480 : ∀ l : Fin 256, stateAt 480 l = Function.update (stateAt 479) ⟨239, hl239⟩ St.done l := show ∀ l : Fin 256, stateAt 480 l = Function.update (stateAt 479) ⟨239, (by decide : (239 : ℕ) < 256)⟩ St.done l from by decide
  iapply (wait_fam c 𝒱₀ arg3 (Memref.whole main_v0_0) i q ai wm hai x3 f 479 239 15 hl239 hj15 rfl hp480 hn480 w hw480 (k0_off1439 i) rfl (k0_off1439_inb i) k0_cond480 (fun _ => rfl) (k0_chk480 i) (k0_chk480.dec i) (k0_off1440 i) (fun _ => rfl) (fun _ _ h => h) (k0_off1440_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S15, %W480, HO⟩
  iapply (loadMask_wp c 𝒱₀ i 240 hl240 q wm rfl) $$ HM
  iintro HM %w481 %hw481
  have hp481 : stateAt 480 ⟨240, hl240⟩ = St.pending := show stateAt 480 ⟨240, (by decide : (240 : ℕ) < 256)⟩ = St.pending from by decide
  have hn481 : ∀ l : Fin 256, stateAt 481 l = Function.update (stateAt 480) ⟨240, hl240⟩ St.started l := show ∀ l : Fin 256, stateAt 481 l = Function.update (stateAt 480) ⟨240, (by decide : (240 : ℕ) < 256)⟩ St.started l from by decide
  iapply (start_fam c 𝒱₀ arg3 (Memref.whole main_v0_0) i q ai wm hai x3 f 480 240 0 hl240 hj0 rfl hp481 hn481 w481 hw481 k0_cond481 (fun _ => rfl) (k0_chk481 i) (k0_chk481.dec i) (k0_off1443 i) (fun _ => rfl) (fun _ _ => rfl) rfl) $$ [HS HC S0]
  · isplitl [HS]; · iexact HS
    isplitl [HC]; · iexact HC
    iexact S0
  iintro ⟨HS, HC⟩
  iapply (loadMask_wp c 𝒱₀ i 241 hl241 q wm rfl) $$ HM
  iintro HM %w482 %hw482
  have hp482 : stateAt 481 ⟨241, hl241⟩ = St.pending := show stateAt 481 ⟨241, (by decide : (241 : ℕ) < 256)⟩ = St.pending from by decide
  have hn482 : ∀ l : Fin 256, stateAt 482 l = Function.update (stateAt 481) ⟨241, hl241⟩ St.started l := show ∀ l : Fin 256, stateAt 482 l = Function.update (stateAt 481) ⟨241, (by decide : (241 : ℕ) < 256)⟩ St.started l from by decide
  iapply (start_fam c 𝒱₀ arg3 (Memref.whole main_v0_0) i q ai wm hai x3 f 481 241 1 hl241 hj1 rfl hp482 hn482 w482 hw482 k0_cond482 (fun _ => rfl) (k0_chk482 i) (k0_chk482.dec i) (k0_off1446 i) (fun _ => rfl) (fun _ _ => rfl) rfl) $$ [HS HC S1]
  · isplitl [HS]; · iexact HS
    isplitl [HC]; · iexact HC
    iexact S1
  iintro ⟨HS, HC⟩
  iapply (loadMask_wp c 𝒱₀ i 242 hl242 q wm rfl) $$ HM
  iintro HM %w483 %hw483
  have hp483 : stateAt 482 ⟨242, hl242⟩ = St.pending := show stateAt 482 ⟨242, (by decide : (242 : ℕ) < 256)⟩ = St.pending from by decide
  have hn483 : ∀ l : Fin 256, stateAt 483 l = Function.update (stateAt 482) ⟨242, hl242⟩ St.started l := show ∀ l : Fin 256, stateAt 483 l = Function.update (stateAt 482) ⟨242, (by decide : (242 : ℕ) < 256)⟩ St.started l from by decide
  iapply (start_fam c 𝒱₀ arg3 (Memref.whole main_v0_0) i q ai wm hai x3 f 482 242 2 hl242 hj2 rfl hp483 hn483 w483 hw483 k0_cond483 (fun _ => rfl) (k0_chk483 i) (k0_chk483.dec i) (k0_off1449 i) (fun _ => rfl) (fun _ _ => rfl) rfl) $$ [HS HC S2]
  · isplitl [HS]; · iexact HS
    isplitl [HC]; · iexact HC
    iexact S2
  iintro ⟨HS, HC⟩
  iapply (loadMask_wp c 𝒱₀ i 243 hl243 q wm rfl) $$ HM
  iintro HM %w484 %hw484
  have hp484 : stateAt 483 ⟨243, hl243⟩ = St.pending := show stateAt 483 ⟨243, (by decide : (243 : ℕ) < 256)⟩ = St.pending from by decide
  have hn484 : ∀ l : Fin 256, stateAt 484 l = Function.update (stateAt 483) ⟨243, hl243⟩ St.started l := show ∀ l : Fin 256, stateAt 484 l = Function.update (stateAt 483) ⟨243, (by decide : (243 : ℕ) < 256)⟩ St.started l from by decide
  iapply (start_fam c 𝒱₀ arg3 (Memref.whole main_v0_0) i q ai wm hai x3 f 483 243 3 hl243 hj3 rfl hp484 hn484 w484 hw484 k0_cond484 (fun _ => rfl) (k0_chk484 i) (k0_chk484.dec i) (k0_off1452 i) (fun _ => rfl) (fun _ _ => rfl) rfl) $$ [HS HC S3]
  · isplitl [HS]; · iexact HS
    isplitl [HC]; · iexact HC
    iexact S3
  iintro ⟨HS, HC⟩
  iapply (loadMask_wp c 𝒱₀ i 244 hl244 q wm rfl) $$ HM
  iintro HM %w485 %hw485
  have hp485 : stateAt 484 ⟨244, hl244⟩ = St.pending := show stateAt 484 ⟨244, (by decide : (244 : ℕ) < 256)⟩ = St.pending from by decide
  have hn485 : ∀ l : Fin 256, stateAt 485 l = Function.update (stateAt 484) ⟨244, hl244⟩ St.started l := show ∀ l : Fin 256, stateAt 485 l = Function.update (stateAt 484) ⟨244, (by decide : (244 : ℕ) < 256)⟩ St.started l from by decide
  iapply (start_fam c 𝒱₀ arg3 (Memref.whole main_v0_0) i q ai wm hai x3 f 484 244 4 hl244 hj4 rfl hp485 hn485 w485 hw485 k0_cond485 (fun _ => rfl) (k0_chk485 i) (k0_chk485.dec i) (k0_off1455 i) (fun _ => rfl) (fun _ _ => rfl) rfl) $$ [HS HC S4]
  · isplitl [HS]; · iexact HS
    isplitl [HC]; · iexact HC
    iexact S4
  iintro ⟨HS, HC⟩
  iapply (loadMask_wp c 𝒱₀ i 245 hl245 q wm rfl) $$ HM
  iintro HM %w486 %hw486
  rw [wp_pure]
  imodintro
  isplitr; · ipureintro; exact hw486
  isplitl [HS]; · iexact HS
  isplitl [HM]; · iexact HM
  isplitl [HC]; · iexact HC
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- Part 82 of the body: steps 486 to 491, and the load of the next step's mask word. -/
theorem part82_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 245 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 485 ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part82 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 251 (by decide)⌝ ∗ ((c : Thread nD τ).loc main_call0_v12 ↦{q} ai) ∗ ((c : Thread nD τ).loc main_call0_v13 ↦{q} wm) ∗ cells c arg3 (Memref.whole main_v0_0) i ai wm hai x3 f 491 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part82_eq_skeleton]; unfold k0_part82_skel
  iintro ⟨HS, HM, HC, S5, S6, S7, S8, S9, S10, S11, S12, S13, S14, S15, HO⟩
  have hl245 : (245 : ℕ) < 256 := by decide
  have hl246 : (246 : ℕ) < 256 := by decide
  have hl247 : (247 : ℕ) < 256 := by decide
  have hl248 : (248 : ℕ) < 256 := by decide
  have hl249 : (249 : ℕ) < 256 := by decide
  have hl250 : (250 : ℕ) < 256 := by decide
  have hl251 : (251 : ℕ) < 256 := by decide
  have hj5 : (5 : ℕ) < 16 := by decide
  have hj6 : (6 : ℕ) < 16 := by decide
  have hj7 : (7 : ℕ) < 16 := by decide
  have hj8 : (8 : ℕ) < 16 := by decide
  have hj9 : (9 : ℕ) < 16 := by decide
  have hj10 : (10 : ℕ) < 16 := by decide
  have hw486 : w = wordOf wm i 245 hl245 := hw
  have hp486 : stateAt 485 ⟨245, hl245⟩ = St.pending := show stateAt 485 ⟨245, (by decide : (245 : ℕ) < 256)⟩ = St.pending from by decide
  have hn486 : ∀ l : Fin 256, stateAt 486 l = Function.update (stateAt 485) ⟨245, hl245⟩ St.started l := show ∀ l : Fin 256, stateAt 486 l = Function.update (stateAt 485) ⟨245, (by decide : (245 : ℕ) < 256)⟩ St.started l from by decide
  iapply (start_fam c 𝒱₀ arg3 (Memref.whole main_v0_0) i q ai wm hai x3 f 485 245 5 hl245 hj5 rfl hp486 hn486 w hw486 k0_cond486 (fun _ => rfl) (k0_chk486 i) (k0_chk486.dec i) (k0_off1458 i) (fun _ => rfl) (fun _ _ => rfl) rfl) $$ [HS HC S5]
  · isplitl [HS]; · iexact HS
    isplitl [HC]; · iexact HC
    iexact S5
  iintro ⟨HS, HC⟩
  iapply (loadMask_wp c 𝒱₀ i 246 hl246 q wm rfl) $$ HM
  iintro HM %w487 %hw487
  have hp487 : stateAt 486 ⟨246, hl246⟩ = St.pending := show stateAt 486 ⟨246, (by decide : (246 : ℕ) < 256)⟩ = St.pending from by decide
  have hn487 : ∀ l : Fin 256, stateAt 487 l = Function.update (stateAt 486) ⟨246, hl246⟩ St.started l := show ∀ l : Fin 256, stateAt 487 l = Function.update (stateAt 486) ⟨246, (by decide : (246 : ℕ) < 256)⟩ St.started l from by decide
  iapply (start_fam c 𝒱₀ arg3 (Memref.whole main_v0_0) i q ai wm hai x3 f 486 246 6 hl246 hj6 rfl hp487 hn487 w487 hw487 k0_cond487 (fun _ => rfl) (k0_chk487 i) (k0_chk487.dec i) (k0_off1461 i) (fun _ => rfl) (fun _ _ => rfl) rfl) $$ [HS HC S6]
  · isplitl [HS]; · iexact HS
    isplitl [HC]; · iexact HC
    iexact S6
  iintro ⟨HS, HC⟩
  iapply (loadMask_wp c 𝒱₀ i 247 hl247 q wm rfl) $$ HM
  iintro HM %w488 %hw488
  have hp488 : stateAt 487 ⟨247, hl247⟩ = St.pending := show stateAt 487 ⟨247, (by decide : (247 : ℕ) < 256)⟩ = St.pending from by decide
  have hn488 : ∀ l : Fin 256, stateAt 488 l = Function.update (stateAt 487) ⟨247, hl247⟩ St.started l := show ∀ l : Fin 256, stateAt 488 l = Function.update (stateAt 487) ⟨247, (by decide : (247 : ℕ) < 256)⟩ St.started l from by decide
  iapply (start_fam c 𝒱₀ arg3 (Memref.whole main_v0_0) i q ai wm hai x3 f 487 247 7 hl247 hj7 rfl hp488 hn488 w488 hw488 k0_cond488 (fun _ => rfl) (k0_chk488 i) (k0_chk488.dec i) (k0_off1464 i) (fun _ => rfl) (fun _ _ => rfl) rfl) $$ [HS HC S7]
  · isplitl [HS]; · iexact HS
    isplitl [HC]; · iexact HC
    iexact S7
  iintro ⟨HS, HC⟩
  iapply (loadMask_wp c 𝒱₀ i 248 hl248 q wm rfl) $$ HM
  iintro HM %w489 %hw489
  have hp489 : stateAt 488 ⟨248, hl248⟩ = St.pending := show stateAt 488 ⟨248, (by decide : (248 : ℕ) < 256)⟩ = St.pending from by decide
  have hn489 : ∀ l : Fin 256, stateAt 489 l = Function.update (stateAt 488) ⟨248, hl248⟩ St.started l := show ∀ l : Fin 256, stateAt 489 l = Function.update (stateAt 488) ⟨248, (by decide : (248 : ℕ) < 256)⟩ St.started l from by decide
  iapply (start_fam c 𝒱₀ arg3 (Memref.whole main_v0_0) i q ai wm hai x3 f 488 248 8 hl248 hj8 rfl hp489 hn489 w489 hw489 k0_cond489 (fun _ => rfl) (k0_chk489 i) (k0_chk489.dec i) (k0_off1467 i) (fun _ => rfl) (fun _ _ => rfl) rfl) $$ [HS HC S8]
  · isplitl [HS]; · iexact HS
    isplitl [HC]; · iexact HC
    iexact S8
  iintro ⟨HS, HC⟩
  iapply (loadMask_wp c 𝒱₀ i 249 hl249 q wm rfl) $$ HM
  iintro HM %w490 %hw490
  have hp490 : stateAt 489 ⟨249, hl249⟩ = St.pending := show stateAt 489 ⟨249, (by decide : (249 : ℕ) < 256)⟩ = St.pending from by decide
  have hn490 : ∀ l : Fin 256, stateAt 490 l = Function.update (stateAt 489) ⟨249, hl249⟩ St.started l := show ∀ l : Fin 256, stateAt 490 l = Function.update (stateAt 489) ⟨249, (by decide : (249 : ℕ) < 256)⟩ St.started l from by decide
  iapply (start_fam c 𝒱₀ arg3 (Memref.whole main_v0_0) i q ai wm hai x3 f 489 249 9 hl249 hj9 rfl hp490 hn490 w490 hw490 k0_cond490 (fun _ => rfl) (k0_chk490 i) (k0_chk490.dec i) (k0_off1470 i) (fun _ => rfl) (fun _ _ => rfl) rfl) $$ [HS HC S9]
  · isplitl [HS]; · iexact HS
    isplitl [HC]; · iexact HC
    iexact S9
  iintro ⟨HS, HC⟩
  iapply (loadMask_wp c 𝒱₀ i 250 hl250 q wm rfl) $$ HM
  iintro HM %w491 %hw491
  have hp491 : stateAt 490 ⟨250, hl250⟩ = St.pending := show stateAt 490 ⟨250, (by decide : (250 : ℕ) < 256)⟩ = St.pending from by decide
  have hn491 : ∀ l : Fin 256, stateAt 491 l = Function.update (stateAt 490) ⟨250, hl250⟩ St.started l := show ∀ l : Fin 256, stateAt 491 l = Function.update (stateAt 490) ⟨250, (by decide : (250 : ℕ) < 256)⟩ St.started l from by decide
  iapply (start_fam c 𝒱₀ arg3 (Memref.whole main_v0_0) i q ai wm hai x3 f 490 250 10 hl250 hj10 rfl hp491 hn491 w491 hw491 k0_cond491 (fun _ => rfl) (k0_chk491 i) (k0_chk491.dec i) (k0_off1473 i) (fun _ => rfl) (fun _ _ => rfl) rfl) $$ [HS HC S10]
  · isplitl [HS]; · iexact HS
    isplitl [HC]; · iexact HC
    iexact S10
  iintro ⟨HS, HC⟩
  iapply (loadMask_wp c 𝒱₀ i 251 hl251 q wm rfl) $$ HM
  iintro HM %w492 %hw492
  rw [wp_pure]
  imodintro
  isplitr; · ipureintro; exact hw492
  isplitl [HS]; · iexact HS
  isplitl [HM]; · iexact HM
  isplitl [HC]; · iexact HC
  isplitl [S11]; · iexact S11
  isplitl [S12]; · iexact S12
  isplitl [S13]; · iexact S13
  isplitl [S14]; · iexact S14
  isplitl [S15]; · iexact S15
  iexists _; iexact HO

set_option maxHeartbeats 0 in
/-- Part 83 of the body: steps 492 to 497, and the load of the next step's mask word. -/
theorem part83_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 251 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 491 ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part83 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 241 (by decide)⌝ ∗ ((c : Thread nD τ).loc main_call0_v12 ↦{q} ai) ∗ ((c : Thread nD τ).loc main_call0_v13 ↦{q} wm) ∗ cells c arg3 (Memref.whole main_v0_0) i ai wm hai x3 f 497 ∗ semPt c 0 (sem_inb 0 (by decide)) ∗ ∃ W', owes (c : Thread nD τ) 0 W')) := by
  rw [k0_part83_eq_skeleton]; unfold k0_part83_skel
  iintro ⟨HS, HM, HC, S11, S12, S13, S14, S15, HO⟩
  have hl240 : (240 : ℕ) < 256 := by decide
  have hl241 : (241 : ℕ) < 256 := by decide
  have hl251 : (251 : ℕ) < 256 := by decide
  have hl252 : (252 : ℕ) < 256 := by decide
  have hl253 : (253 : ℕ) < 256 := by decide
  have hl254 : (254 : ℕ) < 256 := by decide
  have hl255 : (255 : ℕ) < 256 := by decide
  have hj0 : (0 : ℕ) < 16 := by decide
  have hj11 : (11 : ℕ) < 16 := by decide
  have hj12 : (12 : ℕ) < 16 := by decide
  have hj13 : (13 : ℕ) < 16 := by decide
  have hj14 : (14 : ℕ) < 16 := by decide
  have hj15 : (15 : ℕ) < 16 := by decide
  have hw492 : w = wordOf wm i 251 hl251 := hw
  have hp492 : stateAt 491 ⟨251, hl251⟩ = St.pending := show stateAt 491 ⟨251, (by decide : (251 : ℕ) < 256)⟩ = St.pending from by decide
  have hn492 : ∀ l : Fin 256, stateAt 492 l = Function.update (stateAt 491) ⟨251, hl251⟩ St.started l := show ∀ l : Fin 256, stateAt 492 l = Function.update (stateAt 491) ⟨251, (by decide : (251 : ℕ) < 256)⟩ St.started l from by decide
  iapply (start_fam c 𝒱₀ arg3 (Memref.whole main_v0_0) i q ai wm hai x3 f 491 251 11 hl251 hj11 rfl hp492 hn492 w hw492 k0_cond492 (fun _ => rfl) (k0_chk492 i) (k0_chk492.dec i) (k0_off1476 i) (fun _ => rfl) (fun _ _ => rfl) rfl) $$ [HS HC S11]
  · isplitl [HS]; · iexact HS
    isplitl [HC]; · iexact HC
    iexact S11
  iintro ⟨HS, HC⟩
  iapply (loadMask_wp c 𝒱₀ i 252 hl252 q wm rfl) $$ HM
  iintro HM %w493 %hw493
  have hp493 : stateAt 492 ⟨252, hl252⟩ = St.pending := show stateAt 492 ⟨252, (by decide : (252 : ℕ) < 256)⟩ = St.pending from by decide
  have hn493 : ∀ l : Fin 256, stateAt 493 l = Function.update (stateAt 492) ⟨252, hl252⟩ St.started l := show ∀ l : Fin 256, stateAt 493 l = Function.update (stateAt 492) ⟨252, (by decide : (252 : ℕ) < 256)⟩ St.started l from by decide
  iapply (start_fam c 𝒱₀ arg3 (Memref.whole main_v0_0) i q ai wm hai x3 f 492 252 12 hl252 hj12 rfl hp493 hn493 w493 hw493 k0_cond493 (fun _ => rfl) (k0_chk493 i) (k0_chk493.dec i) (k0_off1479 i) (fun _ => rfl) (fun _ _ => rfl) rfl) $$ [HS HC S12]
  · isplitl [HS]; · iexact HS
    isplitl [HC]; · iexact HC
    iexact S12
  iintro ⟨HS, HC⟩
  iapply (loadMask_wp c 𝒱₀ i 253 hl253 q wm rfl) $$ HM
  iintro HM %w494 %hw494
  have hp494 : stateAt 493 ⟨253, hl253⟩ = St.pending := show stateAt 493 ⟨253, (by decide : (253 : ℕ) < 256)⟩ = St.pending from by decide
  have hn494 : ∀ l : Fin 256, stateAt 494 l = Function.update (stateAt 493) ⟨253, hl253⟩ St.started l := show ∀ l : Fin 256, stateAt 494 l = Function.update (stateAt 493) ⟨253, (by decide : (253 : ℕ) < 256)⟩ St.started l from by decide
  iapply (start_fam c 𝒱₀ arg3 (Memref.whole main_v0_0) i q ai wm hai x3 f 493 253 13 hl253 hj13 rfl hp494 hn494 w494 hw494 k0_cond494 (fun _ => rfl) (k0_chk494 i) (k0_chk494.dec i) (k0_off1482 i) (fun _ => rfl) (fun _ _ => rfl) rfl) $$ [HS HC S13]
  · isplitl [HS]; · iexact HS
    isplitl [HC]; · iexact HC
    iexact S13
  iintro ⟨HS, HC⟩
  iapply (loadMask_wp c 𝒱₀ i 254 hl254 q wm rfl) $$ HM
  iintro HM %w495 %hw495
  have hp495 : stateAt 494 ⟨254, hl254⟩ = St.pending := show stateAt 494 ⟨254, (by decide : (254 : ℕ) < 256)⟩ = St.pending from by decide
  have hn495 : ∀ l : Fin 256, stateAt 495 l = Function.update (stateAt 494) ⟨254, hl254⟩ St.started l := show ∀ l : Fin 256, stateAt 495 l = Function.update (stateAt 494) ⟨254, (by decide : (254 : ℕ) < 256)⟩ St.started l from by decide
  iapply (start_fam c 𝒱₀ arg3 (Memref.whole main_v0_0) i q ai wm hai x3 f 494 254 14 hl254 hj14 rfl hp495 hn495 w495 hw495 k0_cond495 (fun _ => rfl) (k0_chk495 i) (k0_chk495.dec i) (k0_off1485 i) (fun _ => rfl) (fun _ _ => rfl) rfl) $$ [HS HC S14]
  · isplitl [HS]; · iexact HS
    isplitl [HC]; · iexact HC
    iexact S14
  iintro ⟨HS, HC⟩
  iapply (loadMask_wp c 𝒱₀ i 255 hl255 q wm rfl) $$ HM
  iintro HM %w496 %hw496
  have hp496 : stateAt 495 ⟨255, hl255⟩ = St.pending := show stateAt 495 ⟨255, (by decide : (255 : ℕ) < 256)⟩ = St.pending from by decide
  have hn496 : ∀ l : Fin 256, stateAt 496 l = Function.update (stateAt 495) ⟨255, hl255⟩ St.started l := show ∀ l : Fin 256, stateAt 496 l = Function.update (stateAt 495) ⟨255, (by decide : (255 : ℕ) < 256)⟩ St.started l from by decide
  iapply (start_fam c 𝒱₀ arg3 (Memref.whole main_v0_0) i q ai wm hai x3 f 495 255 15 hl255 hj15 rfl hp496 hn496 w496 hw496 k0_cond496 (fun _ => rfl) (k0_chk496 i) (k0_chk496.dec i) (k0_off1488 i) (fun _ => rfl) (fun _ _ => rfl) rfl) $$ [HS HC S15]
  · isplitl [HS]; · iexact HS
    isplitl [HC]; · iexact HC
    iexact S15
  iintro ⟨HS, HC⟩
  iapply (loadMask_wp c 𝒱₀ i 240 hl240 q wm rfl) $$ HM
  iintro HM %w497 %hw497
  have hp497 : stateAt 496 ⟨240, hl240⟩ = St.started := show stateAt 496 ⟨240, (by decide : (240 : ℕ) < 256)⟩ = St.started from by decide
  have hn497 : ∀ l : Fin 256, stateAt 497 l = Function.update (stateAt 496) ⟨240, hl240⟩ St.done l := show ∀ l : Fin 256, stateAt 497 l = Function.update (stateAt 496) ⟨240, (by decide : (240 : ℕ) < 256)⟩ St.done l from by decide
  iapply (wait_fam c 𝒱₀ arg3 (Memref.whole main_v0_0) i q ai wm hai x3 f 496 240 0 hl240 hj0 rfl hp497 hn497 w497 hw497 (k0_off1490 i) rfl (k0_off1490_inb i) k0_cond497 (fun _ => rfl) (k0_chk497 i) (k0_chk497.dec i) (k0_off1491 i) (fun _ => rfl) (fun _ _ h => h) (k0_off1491_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S0, %W497, HO⟩
  iapply (loadMask_wp c 𝒱₀ i 241 hl241 q wm rfl) $$ HM
  iintro HM %w498 %hw498
  rw [wp_pure]
  imodintro
  isplitr; · ipureintro; exact hw498
  isplitl [HS]; · iexact HS
  isplitl [HM]; · iexact HM
  isplitl [HC]; · iexact HC
  isplitl [S0]; · iexact S0
  iexists _; iexact HO

set_option maxHeartbeats 0 in
/-- Part 84 of the body: steps 498 to 503, and the load of the next step's mask word. -/
theorem part84_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 241 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 497 ∗ semPt c 0 (sem_inb 0 (by decide)) ∗ owes (c : Thread nD τ) 0 W)
      ⊢ wp frame (wpE (defs₀ (F := F)) 𝒱₀ (c : Thread nD τ) none) Set.univ (k0_part84 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 247 (by decide)⌝ ∗ ((c : Thread nD τ).loc main_call0_v12 ↦{q} ai) ∗ ((c : Thread nD τ).loc main_call0_v13 ↦{q} wm) ∗ cells c arg3 (Memref.whole main_v0_0) i ai wm hai x3 f 503 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ ∃ W', owes (c : Thread nD τ) 0 W')) := by
  rw [k0_part84_eq_skeleton]; unfold k0_part84_skel
  iintro ⟨HS, HM, HC, S0, HO⟩
  have hl241 : (241 : ℕ) < 256 := by decide
  have hl242 : (242 : ℕ) < 256 := by decide
  have hl243 : (243 : ℕ) < 256 := by decide
  have hl244 : (244 : ℕ) < 256 := by decide
  have hl245 : (245 : ℕ) < 256 := by decide
  have hl246 : (246 : ℕ) < 256 := by decide
  have hl247 : (247 : ℕ) < 256 := by decide
  have hj1 : (1 : ℕ) < 16 := by decide
  have hj2 : (2 : ℕ) < 16 := by decide
  have hj3 : (3 : ℕ) < 16 := by decide
  have hj4 : (4 : ℕ) < 16 := by decide
  have hj5 : (5 : ℕ) < 16 := by decide
  have hj6 : (6 : ℕ) < 16 := by decide
  have hw498 : w = wordOf wm i 241 hl241 := hw
  have hp498 : stateAt 497 ⟨241, hl241⟩ = St.started := show stateAt 497 ⟨241, (by decide : (241 : ℕ) < 256)⟩ = St.started from by decide
  have hn498 : ∀ l : Fin 256, stateAt 498 l = Function.update (stateAt 497) ⟨241, hl241⟩ St.done l := show ∀ l : Fin 256, stateAt 498 l = Function.update (stateAt 497) ⟨241, (by decide : (241 : ℕ) < 256)⟩ St.done l from by decide
  iapply (wait_fam c 𝒱₀ arg3 (Memref.whole main_v0_0) i q ai wm hai x3 f 497 241 1 hl241 hj1 rfl hp498 hn498 w hw498 (k0_off1493 i) rfl (k0_off1493_inb i) k0_cond498 (fun _ => rfl) (k0_chk498 i) (k0_chk498.dec i) (k0_off1494 i) (fun _ => rfl) (fun _ _ h => h) (k0_off1494_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S1, %W498, HO⟩
  iapply (loadMask_wp c 𝒱₀ i 242 hl242 q wm rfl) $$ HM
  iintro HM %w499 %hw499
  have hp499 : stateAt 498 ⟨242, hl242⟩ = St.started := show stateAt 498 ⟨242, (by decide : (242 : ℕ) < 256)⟩ = St.started from by decide
  have hn499 : ∀ l : Fin 256, stateAt 499 l = Function.update (stateAt 498) ⟨242, hl242⟩ St.done l := show ∀ l : Fin 256, stateAt 499 l = Function.update (stateAt 498) ⟨242, (by decide : (242 : ℕ) < 256)⟩ St.done l from by decide
  iapply (wait_fam c 𝒱₀ arg3 (Memref.whole main_v0_0) i q ai wm hai x3 f 498 242 2 hl242 hj2 rfl hp499 hn499 w499 hw499 (k0_off1496 i) rfl (k0_off1496_inb i) k0_cond499 (fun _ => rfl) (k0_chk499 i) (k0_chk499.dec i) (k0_off1497 i) (fun _ => rfl) (fun _ _ h => h) (k0_off1497_inb i) ((View.wordExact_bits rfl).reshape _ _) (fun _ _ => (View.wordExact_bits rfl).reshape _ _) _ _ W498) $$ [HS HM HC HO]
  · isplitl [HS]; · iexact HS
    isplitl [HM]; · iexact HM
    isplitl [HC]; · iexact HC
    iexact HO
  iintro ⟨HS, HM, HC, S2, %W499, HO⟩
  iapply (loadMask_wp c 𝒱₀ i 243 hl243 q wm rfl) $$ HM
  iintro HM %w500 %hw500
  have hp500 : stateAt 499 ⟨243, hl243⟩ = St.started := show stateAt 499 ⟨243, (by decide : (243 : ℕ) < 256)⟩ = St.started from by decide
  have hn500 : ∀ l : Fin 256, stateAt 500 l = Function.update (stateAt 499) ⟨243, hl243⟩ St.done l := show ∀ l : Fin 256, stateAt 500 l = Function.update (stateAt 499) ⟨243, (by decide : (243 : ℕ) < 256)⟩ St.done l from by decide
  iapply (wait_fam c 𝒱₀ arg3 (Memref.whole main_v0_0) i q ai wm hai x3 f 499 243 3 hl243 hj3 rfl hp500 hn500 w500 hw500 (k0_off1499 i) rfl (k0_off1499_inb i) k0_cond500 (fun _ => rfl) (k0_chk500 i) (k0_chk500.dec i) (k0_off1500 i) (fun _ => rfl) (fun _ _ h => h) (k0_off1500_inb i) ((View.wordExact_bits rfl).reshape _ _) (fun _ _ => (View.wordExact_bits rfl).reshape _ _) _ _ W499) $$ [HS HM HC HO]
  · isplitl [HS]; · iexact HS
    isplitl [HM]; · iexact HM
    isplitl [HC]; · iexact HC
    iexact HO
  iintro ⟨HS, HM, HC, S3, %W500, HO⟩
  iapply (loadMask_wp c 𝒱₀ i 244 hl244 q wm rfl) $$ HM
  iintro HM %w501 %hw501
  have hp501 : stateAt 500 ⟨244, hl244⟩ = St.started := show stateAt 500 ⟨244, (by decide : (244 : ℕ) < 256)⟩ = St.started from by decide
  have hn501 : ∀ l : Fin 256, stateAt 501 l = Function.update (stateAt 500) ⟨244, hl244⟩ St.done l := show ∀ l : Fin 256, stateAt 501 l = Function.update (stateAt 500) ⟨244, (by decide : (244 : ℕ) < 256)⟩ St.done l from by decide
  iapply (wait_fam c 𝒱₀ arg3 (Memref.whole main_v0_0) i q ai wm hai x3 f 500 244 4 hl244 hj4 rfl hp501 hn501 w501 hw501 (k0_off1502 i) rfl (k0_off1502_inb i) k0_cond501 (fun _ => rfl) (k0_chk501 i) (k0_chk501.dec i) (k0_off1503 i) (fun _ => rfl) (fun _ _ h => h) (k0_off1503_inb i) ((View.wordExact_bits rfl).reshape _ _) (fun _ _ => (View.wordExact_bits rfl).reshape _ _) _ _ W500) $$ [HS HM HC HO]
  · isplitl [HS]; · iexact HS
    isplitl [HM]; · iexact HM
    isplitl [HC]; · iexact HC
    iexact HO
  iintro ⟨HS, HM, HC, S4, %W501, HO⟩
  iapply (loadMask_wp c 𝒱₀ i 245 hl245 q wm rfl) $$ HM
  iintro HM %w502 %hw502
  have hp502 : stateAt 501 ⟨245, hl245⟩ = St.started := show stateAt 501 ⟨245, (by decide : (245 : ℕ) < 256)⟩ = St.started from by decide
  have hn502 : ∀ l : Fin 256, stateAt 502 l = Function.update (stateAt 501) ⟨245, hl245⟩ St.done l := show ∀ l : Fin 256, stateAt 502 l = Function.update (stateAt 501) ⟨245, (by decide : (245 : ℕ) < 256)⟩ St.done l from by decide
  iapply (wait_fam c 𝒱₀ arg3 (Memref.whole main_v0_0) i q ai wm hai x3 f 501 245 5 hl245 hj5 rfl hp502 hn502 w502 hw502 (k0_off1505 i) rfl (k0_off1505_inb i) k0_cond502 (fun _ => rfl) (k0_chk502 i) (k0_chk502.dec i) (k0_off1506 i) (fun _ => rfl) (fun _ _ h => h) (k0_off1506_inb i) ((View.wordExact_bits rfl).reshape _ _) (fun _ _ => (View.wordExact_bits rfl).reshape _ _) _ _ W501) $$ [HS HM HC HO]
  · isplitl [HS]; · iexact HS
    isplitl [HM]; · iexact HM
    isplitl [HC]; · iexact HC
    iexact HO
  iintro ⟨HS, HM, HC, S5, %W502, HO⟩
  iapply (loadMask_wp c 𝒱₀ i 246 hl246 q wm rfl) $$ HM
  iintro HM %w503 %hw503
  have hp503 : stateAt 502 ⟨246, hl246⟩ = St.started := show stateAt 502 ⟨246, (by decide : (246 : ℕ) < 256)⟩ = St.started from by decide
  have hn503 : ∀ l : Fin 256, stateAt 503 l = Function.update (stateAt 502) ⟨246, hl246⟩ St.done l := show ∀ l : Fin 256, stateAt 503 l = Function.update (stateAt 502) ⟨246, (by decide : (246 : ℕ) < 256)⟩ St.done l from by decide
  iapply (wait_fam c 𝒱₀ arg3 (Memref.whole main_v0_0) i q ai wm hai x3 f 502 246 6 hl246 hj6 rfl hp503 hn503 w503 hw503 (k0_off1508 i) rfl (k0_off1508_inb i) k0_cond503 (fun _ => rfl) (k0_chk503 i) (k0_chk503.dec i) (k0_off1509 i) (fun _ => rfl) (fun _ _ h => h) (k0_off1509_inb i) ((View.wordExact_bits rfl).reshape _ _) (fun _ _ => (View.wordExact_bits rfl).reshape _ _) _ _ W502) $$ [HS HM HC HO]
  · isplitl [HS]; · iexact HS
    isplitl [HM]; · iexact HM
    isplitl [HC]; · iexact HC
    iexact HO
  iintro ⟨HS, HM, HC, S6, %W503, HO⟩
  iapply (loadMask_wp c 𝒱₀ i 247 hl247 q wm rfl) $$ HM
  iintro HM %w504 %hw504
  rw [wp_pure]
  imodintro
  isplitr; · ipureintro; exact hw504
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  iexists _; iexact HO

set_option maxHeartbeats 0 in
/-- Part 85 of the body: steps 504 to 509, and the load of the next step's mask word. -/
theorem part85_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit)
    (v0 ve : BitVec 32) (w : BitVec 32) (hw : w = wordOf wm i 247 (by decide)) (fl : BitVec 32) :
    iprop(((c : Thread nD τ).loc main_call0_v12 ↦{q} ai) ∗ ((c : Thread nD τ).loc main_call0_v13 ↦{q} wm) ∗ cells c arg3 (Memref.whole main_v0_0) i ai wm hai x3 f 503 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ owes (c : Thread nD τ) 0 W)
      ⊢ wp frame (wpE (defs₀ (F := F)) 𝒱₀ (c : Thread nD τ) none) Set.univ (k0_part85 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0 v0 ve w fl)
          (fun r => iprop(⌜r.2.1 = wordOf wm i 253 (by decide)⌝ ∗ ((c : Thread nD τ).loc main_call0_v12 ↦{q} ai) ∗ ((c : Thread nD τ).loc main_call0_v13 ↦{q} wm) ∗ cells c arg3 (Memref.whole main_v0_0) i ai wm hai x3 f 509 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ ∃ W', owes (c : Thread nD τ) 0 W')) := by
  rw [k0_part85_eq_skeleton]; unfold k0_part85_skel
  iintro ⟨HS, HM, HC, S0, S1, S2, S3, S4, S5, S6, HO⟩
  have hl247 : (247 : ℕ) < 256 := by decide
  have hl248 : (248 : ℕ) < 256 := by decide
  have hl249 : (249 : ℕ) < 256 := by decide
  have hl250 : (250 : ℕ) < 256 := by decide
  have hl251 : (251 : ℕ) < 256 := by decide
  have hl252 : (252 : ℕ) < 256 := by decide
  have hl253 : (253 : ℕ) < 256 := by decide
  have hj7 : (7 : ℕ) < 16 := by decide
  have hj8 : (8 : ℕ) < 16 := by decide
  have hj9 : (9 : ℕ) < 16 := by decide
  have hj10 : (10 : ℕ) < 16 := by decide
  have hj11 : (11 : ℕ) < 16 := by decide
  have hj12 : (12 : ℕ) < 16 := by decide
  have hw504 : w = wordOf wm i 247 hl247 := hw
  have hp504 : stateAt 503 ⟨247, hl247⟩ = St.started := show stateAt 503 ⟨247, (by decide : (247 : ℕ) < 256)⟩ = St.started from by decide
  have hn504 : ∀ l : Fin 256, stateAt 504 l = Function.update (stateAt 503) ⟨247, hl247⟩ St.done l := show ∀ l : Fin 256, stateAt 504 l = Function.update (stateAt 503) ⟨247, (by decide : (247 : ℕ) < 256)⟩ St.done l from by decide
  iapply (wait_fam c 𝒱₀ arg3 (Memref.whole main_v0_0) i q ai wm hai x3 f 503 247 7 hl247 hj7 rfl hp504 hn504 w hw504 (k0_off1511 i) rfl (k0_off1511_inb i) k0_cond504 (fun _ => rfl) (k0_chk504 i) (k0_chk504.dec i) (k0_off1512 i) (fun _ => rfl) (fun _ _ h => h) (k0_off1512_inb i) ((View.wordExact_bits rfl).reshape _ _) (fun _ _ => (View.wordExact_bits rfl).reshape _ _) _ _ W) $$ [HS HM HC HO]
  · isplitl [HS]; · iexact HS
    isplitl [HM]; · iexact HM
    isplitl [HC]; · iexact HC
    iexact HO
  iintro ⟨HS, HM, HC, S7, %W504, HO⟩
  iapply (loadMask_wp c 𝒱₀ i 248 hl248 q wm rfl) $$ HM
  iintro HM %w505 %hw505
  have hp505 : stateAt 504 ⟨248, hl248⟩ = St.started := show stateAt 504 ⟨248, (by decide : (248 : ℕ) < 256)⟩ = St.started from by decide
  have hn505 : ∀ l : Fin 256, stateAt 505 l = Function.update (stateAt 504) ⟨248, hl248⟩ St.done l := show ∀ l : Fin 256, stateAt 505 l = Function.update (stateAt 504) ⟨248, (by decide : (248 : ℕ) < 256)⟩ St.done l from by decide
  iapply (wait_fam c 𝒱₀ arg3 (Memref.whole main_v0_0) i q ai wm hai x3 f 504 248 8 hl248 hj8 rfl hp505 hn505 w505 hw505 (k0_off1514 i) rfl (k0_off1514_inb i) k0_cond505 (fun _ => rfl) (k0_chk505 i) (k0_chk505.dec i) (k0_off1515 i) (fun _ => rfl) (fun _ _ h => h) (k0_off1515_inb i) ((View.wordExact_bits rfl).reshape _ _) (fun _ _ => (View.wordExact_bits rfl).reshape _ _) _ _ W504) $$ [HS HM HC HO]
  · isplitl [HS]; · iexact HS
    isplitl [HM]; · iexact HM
    isplitl [HC]; · iexact HC
    iexact HO
  iintro ⟨HS, HM, HC, S8, %W505, HO⟩
  iapply (loadMask_wp c 𝒱₀ i 249 hl249 q wm rfl) $$ HM
  iintro HM %w506 %hw506
  have hp506 : stateAt 505 ⟨249, hl249⟩ = St.started := show stateAt 505 ⟨249, (by decide : (249 : ℕ) < 256)⟩ = St.started from by decide
  have hn506 : ∀ l : Fin 256, stateAt 506 l = Function.update (stateAt 505) ⟨249, hl249⟩ St.done l := show ∀ l : Fin 256, stateAt 506 l = Function.update (stateAt 505) ⟨249, (by decide : (249 : ℕ) < 256)⟩ St.done l from by decide
  iapply (wait_fam c 𝒱₀ arg3 (Memref.whole main_v0_0) i q ai wm hai x3 f 505 249 9 hl249 hj9 rfl hp506 hn506 w506 hw506 (k0_off1517 i) rfl (k0_off1517_inb i) k0_cond506 (fun _ => rfl) (k0_chk506 i) (k0_chk506.dec i) (k0_off1518 i) (fun _ => rfl) (fun _ _ h => h) (k0_off1518_inb i) ((View.wordExact_bits rfl).reshape _ _) (fun _ _ => (View.wordExact_bits rfl).reshape _ _) _ _ W505) $$ [HS HM HC HO]
  · isplitl [HS]; · iexact HS
    isplitl [HM]; · iexact HM
    isplitl [HC]; · iexact HC
    iexact HO
  iintro ⟨HS, HM, HC, S9, %W506, HO⟩
  iapply (loadMask_wp c 𝒱₀ i 250 hl250 q wm rfl) $$ HM
  iintro HM %w507 %hw507
  have hp507 : stateAt 506 ⟨250, hl250⟩ = St.started := show stateAt 506 ⟨250, (by decide : (250 : ℕ) < 256)⟩ = St.started from by decide
  have hn507 : ∀ l : Fin 256, stateAt 507 l = Function.update (stateAt 506) ⟨250, hl250⟩ St.done l := show ∀ l : Fin 256, stateAt 507 l = Function.update (stateAt 506) ⟨250, (by decide : (250 : ℕ) < 256)⟩ St.done l from by decide
  iapply (wait_fam c 𝒱₀ arg3 (Memref.whole main_v0_0) i q ai wm hai x3 f 506 250 10 hl250 hj10 rfl hp507 hn507 w507 hw507 (k0_off1520 i) rfl (k0_off1520_inb i) k0_cond507 (fun _ => rfl) (k0_chk507 i) (k0_chk507.dec i) (k0_off1521 i) (fun _ => rfl) (fun _ _ h => h) (k0_off1521_inb i) ((View.wordExact_bits rfl).reshape _ _) (fun _ _ => (View.wordExact_bits rfl).reshape _ _) _ _ W506) $$ [HS HM HC HO]
  · isplitl [HS]; · iexact HS
    isplitl [HM]; · iexact HM
    isplitl [HC]; · iexact HC
    iexact HO
  iintro ⟨HS, HM, HC, S10, %W507, HO⟩
  iapply (loadMask_wp c 𝒱₀ i 251 hl251 q wm rfl) $$ HM
  iintro HM %w508 %hw508
  have hp508 : stateAt 507 ⟨251, hl251⟩ = St.started := show stateAt 507 ⟨251, (by decide : (251 : ℕ) < 256)⟩ = St.started from by decide
  have hn508 : ∀ l : Fin 256, stateAt 508 l = Function.update (stateAt 507) ⟨251, hl251⟩ St.done l := show ∀ l : Fin 256, stateAt 508 l = Function.update (stateAt 507) ⟨251, (by decide : (251 : ℕ) < 256)⟩ St.done l from by decide
  iapply (wait_fam c 𝒱₀ arg3 (Memref.whole main_v0_0) i q ai wm hai x3 f 507 251 11 hl251 hj11 rfl hp508 hn508 w508 hw508 (k0_off1523 i) rfl (k0_off1523_inb i) k0_cond508 (fun _ => rfl) (k0_chk508 i) (k0_chk508.dec i) (k0_off1524 i) (fun _ => rfl) (fun _ _ h => h) (k0_off1524_inb i) ((View.wordExact_bits rfl).reshape _ _) (fun _ _ => (View.wordExact_bits rfl).reshape _ _) _ _ W507) $$ [HS HM HC HO]
  · isplitl [HS]; · iexact HS
    isplitl [HM]; · iexact HM
    isplitl [HC]; · iexact HC
    iexact HO
  iintro ⟨HS, HM, HC, S11, %W508, HO⟩
  iapply (loadMask_wp c 𝒱₀ i 252 hl252 q wm rfl) $$ HM
  iintro HM %w509 %hw509
  have hp509 : stateAt 508 ⟨252, hl252⟩ = St.started := show stateAt 508 ⟨252, (by decide : (252 : ℕ) < 256)⟩ = St.started from by decide
  have hn509 : ∀ l : Fin 256, stateAt 509 l = Function.update (stateAt 508) ⟨252, hl252⟩ St.done l := show ∀ l : Fin 256, stateAt 509 l = Function.update (stateAt 508) ⟨252, (by decide : (252 : ℕ) < 256)⟩ St.done l from by decide
  iapply (wait_fam c 𝒱₀ arg3 (Memref.whole main_v0_0) i q ai wm hai x3 f 508 252 12 hl252 hj12 rfl hp509 hn509 w509 hw509 (k0_off1526 i) rfl (k0_off1526_inb i) k0_cond509 (fun _ => rfl) (k0_chk509 i) (k0_chk509.dec i) (k0_off1527 i) (fun _ => rfl) (fun _ _ h => h) (k0_off1527_inb i) ((View.wordExact_bits rfl).reshape _ _) (fun _ _ => (View.wordExact_bits rfl).reshape _ _) _ _ W508) $$ [HS HM HC HO]
  · isplitl [HS]; · iexact HS
    isplitl [HM]; · iexact HM
    isplitl [HC]; · iexact HC
    iexact HO
  iintro ⟨HS, HM, HC, S12, %W509, HO⟩
  iapply (loadMask_wp c 𝒱₀ i 253 hl253 q wm rfl) $$ HM
  iintro HM %w510 %hw510
  rw [wp_pure]
  imodintro
  isplitr; · ipureintro; exact hw510
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexists _; iexact HO

end Cert.Kernel.Cells

end
-- ==== Proof.PointBits.lean ====
/-
  One grid point of the body: its 85 parts in program order, each handing the next the steps done, the free
  semaphores and the mask word it loaded last; then the last three waits.
-/
import proofs.«427608_j71184787964323_3_alg».proof.Proof.Parts1Bits
import proofs.«427608_j71184787964323_3_alg».proof.Proof.Parts2Bits
import proofs.«427608_j71184787964323_3_alg».proof.Proof.Parts3Bits
import proofs.«427608_j71184787964323_3_alg».proof.Proof.Parts4Bits
import proofs.«427608_j71184787964323_3_alg».proof.Proof.Parts5Bits
import proofs.«427608_j71184787964323_3_alg».proof.Proof.Parts6Bits
import proofs.«427608_j71184787964323_3_alg».proof.Proof.Parts7Bits
import proofs.«427608_j71184787964323_3_alg».proof.Proof.Parts8Bits

set_option maxRecDepth 65536

noncomputable section

namespace Cert.Kernel.Cells

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The bind rule as an entailment. -/
theorem wp_bind_i {α β : Type} (c : Dev nD) (𝒱₀ : Variants) (p : Prog (TpuEff nD τ sig (Elt F) Λ₀ .tc) α)
    (k : α → Prog (TpuEff nD τ sig (Elt F) Λ₀ .tc) β) (Q : β → sProp 𝕄) :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q := by
  rw [wp_bind]
set_option maxHeartbeats 0 in
/-- Part 86 is parts 1 to 60 in order. -/
theorem part86_run (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit) :
    iprop(((c : Thread nD τ).loc main_call0_v12 ↦{q} ai) ∗ ((c : Thread nD τ).loc main_call0_v13 ↦{q} wm) ∗ cells c arg3 (Memref.whole main_v0_0) i ai wm hai x3 f 0 ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ owes (c : Thread nD τ) 0 W)
      ⊢ wp frame (wpE (defs₀ (F := F)) 𝒱₀ (c : Thread nD τ) none) Set.univ (k0_part86 i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0)
          (fun r => iprop(⌜r.2.2.1 = wordOf wm i 183 (by decide)⌝ ∗ ((c : Thread nD τ).loc main_call0_v12 ↦{q} ai) ∗ ((c : Thread nD τ).loc main_call0_v13 ↦{q} wm) ∗ cells c arg3 (Memref.whole main_v0_0) i ai wm hai x3 f 359 ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide)) ∗ ∃ W', owes (c : Thread nD τ) 0 W')) := by
  rw [k0_part86_eq_skeleton]; unfold k0_part86_skel
  iintro ⟨HS, HM, HC, S0, S1, S2, S3, S4, S5, S6, S7, S8, S9, S10, S11, S12, S13, S14, S15, HO⟩
  iapply wp_bind_i
  iapply (wp_wand_r frame _ Set.univ)
  isplitl [HS HM HC S0 S1 S2 S3 S4 S5 S6 S7 S8 S9 S10 S11 S12 S13 S14 S15 HO]
  · iapply (part1_run c 𝒱₀ i arg3 harg3 q ai wm hai x3 f W) $$ [HS HM HC S0 S1 S2 S3 S4 S5 S6 S7 S8 S9 S10 S11 S12 S13 S14 S15 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r1 ⟨%hr1, HS, HM, HC, S5, S6, S7, S8, S9, S10, S11, S12, S13, S14, S15, %Wp1, HO⟩
  obtain ⟨r1a, r1b, r1c, r1d⟩ := r1
  dsimp only at hr1 ⊢
  have hwcur := hr1
  clear hr1
  iapply wp_bind_i
  iapply (wp_wand_r frame _ Set.univ)
  isplitl [HS HM HC S5 S6 S7 S8 S9 S10 S11 S12 S13 S14 S15 HO]
  · iapply (part2_run c 𝒱₀ i arg3 harg3 q ai wm hai x3 f Wp1 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r2 ⟨%hr2, HS, HM, HC, S11, S12, S13, S14, S15, %Wp2, HO⟩
  obtain ⟨r2a, r2b, r2c⟩ := r2
  dsimp only at hr2 ⊢
  have hwcur := hr2
  clear hr2
  iapply wp_bind_i
  iapply (wp_wand_r frame _ Set.univ)
  isplitl [HS HM HC S11 S12 S13 S14 S15 HO]
  · iapply (part3_run c 𝒱₀ i arg3 harg3 q ai wm hai x3 f Wp2 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r3 ⟨%hr3, HS, HM, HC, S0, %Wp3, HO⟩
  obtain ⟨r3a, r3b, r3c⟩ := r3
  dsimp only at hr3 ⊢
  have hwcur := hr3
  clear hr3
  iapply wp_bind_i
  iapply (wp_wand_r frame _ Set.univ)
  isplitl [HS HM HC S0 HO]
  · iapply (part4_run c 𝒱₀ i arg3 harg3 q ai wm hai x3 f Wp3 _ _ _ hwcur _) $$ [HS HM HC S0 HO]
    isplitl [HS]; · iexact HS
    isplitl [HM]; · iexact HM
    isplitl [HC]; · iexact HC
    isplitl [S0]; · iexact S0
    iexact HO
  iintro %r4 ⟨%hr4, HS, HM, HC, S0, S1, S2, S3, S4, S5, S6, %Wp4, HO⟩
  obtain ⟨r4a, r4b, r4c⟩ := r4
  dsimp only at hr4 ⊢
  have hwcur := hr4
  clear hr4
  iapply wp_bind_i
  iapply (wp_wand_r frame _ Set.univ)
  isplitl [HS HM HC S0 S1 S2 S3 S4 S5 S6 HO]
  · iapply (part5_run c 𝒱₀ i arg3 harg3 q ai wm hai x3 f Wp4 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r5 ⟨%hr5, HS, HM, HC, S0, S1, S2, S3, S4, S5, S6, S7, S8, S9, S10, S11, S12, %Wp5, HO⟩
  obtain ⟨r5a, r5b, r5c⟩ := r5
  dsimp only at hr5 ⊢
  have hwcur := hr5
  clear hr5
  iapply wp_bind_i
  iapply (wp_wand_r frame _ Set.univ)
  isplitl [HS HM HC S0 S1 S2 S3 S4 S5 S6 S7 S8 S9 S10 S11 S12 HO]
  · iapply (part6_run c 𝒱₀ i arg3 harg3 q ai wm hai x3 f Wp5 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r6 ⟨%hr6, HS, HM, HC, S3, S4, S5, S6, S7, S8, S9, S10, S11, S12, S13, S14, S15, %Wp6, HO⟩
  obtain ⟨r6a, r6b, r6c⟩ := r6
  dsimp only at hr6 ⊢
  have hwcur := hr6
  clear hr6
  iapply wp_bind_i
  iapply (wp_wand_r frame _ Set.univ)
  isplitl [HS HM HC S3 S4 S5 S6 S7 S8 S9 S10 S11 S12 S13 S14 S15 HO]
  · iapply (part7_run c 𝒱₀ i arg3 harg3 q ai wm hai x3 f Wp6 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r7 ⟨%hr7, HS, HM, HC, S9, S10, S11, S12, S13, S14, S15, %Wp7, HO⟩
  obtain ⟨r7a, r7b, r7c⟩ := r7
  dsimp only at hr7 ⊢
  have hwcur := hr7
  clear hr7
  iapply wp_bind_i
  iapply (wp_wand_r frame _ Set.univ)
  isplitl [HS HM HC S9 S10 S11 S12 S13 S14 S15 HO]
  · iapply (part8_run c 𝒱₀ i arg3 harg3 q ai wm hai x3 f Wp7 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r8 ⟨%hr8, HS, HM, HC, S15, %Wp8, HO⟩
  obtain ⟨r8a, r8b, r8c⟩ := r8
  dsimp only at hr8 ⊢
  have hwcur := hr8
  clear hr8
  iapply wp_bind_i
  iapply (wp_wand_r frame _ Set.univ)
  isplitl [HS HM HC S15 HO]
  · iapply (part9_run c 𝒱₀ i arg3 harg3 q ai wm hai x3 f Wp8 _ _ _ hwcur _) $$ [HS HM HC S15 HO]
    isplitl [HS]; · iexact HS
    isplitl [HM]; · iexact HM
    isplitl [HC]; · iexact HC
    isplitl [S15]; · iexact S15
    iexact HO
  iintro %r9 ⟨%hr9, HS, HM, HC, S0, S1, S2, S3, S4, %Wp9, HO⟩
  obtain ⟨r9a, r9b, r9c⟩ := r9
  dsimp only at hr9 ⊢
  have hwcur := hr9
  clear hr9
  iapply wp_bind_i
  iapply (wp_wand_r frame _ Set.univ)
  isplitl [HS HM HC S0 S1 S2 S3 S4 HO]
  · iapply (part10_run c 𝒱₀ i arg3 harg3 q ai wm hai x3 f Wp9 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r10 ⟨%hr10, HS, HM, HC, S0, S1, S2, S3, S4, S5, S6, S7, S8, S9, S10, %Wp10, HO⟩
  obtain ⟨r10a, r10b, r10c⟩ := r10
  dsimp only at hr10 ⊢
  have hwcur := hr10
  clear hr10
  iapply wp_bind_i
  iapply (wp_wand_r frame _ Set.univ)
  isplitl [HS HM HC S0 S1 S2 S3 S4 S5 S6 S7 S8 S9 S10 HO]
  · iapply (part11_run c 𝒱₀ i arg3 harg3 q ai wm hai x3 f Wp10 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r11 ⟨%hr11, HS, HM, HC, S1, S2, S3, S4, S5, S6, S7, S8, S9, S10, S11, S12, S13, S14, S15, %Wp11, HO⟩
  obtain ⟨r11a, r11b, r11c⟩ := r11
  dsimp only at hr11 ⊢
  have hwcur := hr11
  clear hr11
  iapply wp_bind_i
  iapply (wp_wand_r frame _ Set.univ)
  isplitl [HS HM HC S1 S2 S3 S4 S5 S6 S7 S8 S9 S10 S11 S12 S13 S14 S15 HO]
  · iapply (part12_run c 𝒱₀ i arg3 harg3 q ai wm hai x3 f Wp11 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r12 ⟨%hr12, HS, HM, HC, S7, S8, S9, S10, S11, S12, S13, S14, S15, %Wp12, HO⟩
  obtain ⟨r12a, r12b, r12c⟩ := r12
  dsimp only at hr12 ⊢
  have hwcur := hr12
  clear hr12
  iapply wp_bind_i
  iapply (wp_wand_r frame _ Set.univ)
  isplitl [HS HM HC S7 S8 S9 S10 S11 S12 S13 S14 S15 HO]
  · iapply (part13_run c 𝒱₀ i arg3 harg3 q ai wm hai x3 f Wp12 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r13 ⟨%hr13, HS, HM, HC, S13, S14, S15, %Wp13, HO⟩
  obtain ⟨r13a, r13b, r13c⟩ := r13
  dsimp only at hr13 ⊢
  have hwcur := hr13
  clear hr13
  iapply wp_bind_i
  iapply (wp_wand_r frame _ Set.univ)
  isplitl [HS HM HC S13 S14 S15 HO]
  · iapply (part14_run c 𝒱₀ i arg3 harg3 q ai wm hai x3 f Wp13 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r14 ⟨%hr14, HS, HM, HC, S0, S1, S2, %Wp14, HO⟩
  obtain ⟨r14a, r14b, r14c⟩ := r14
  dsimp only at hr14 ⊢
  have hwcur := hr14
  clear hr14
  iapply wp_bind_i
  iapply (wp_wand_r frame _ Set.univ)
  isplitl [HS HM HC S0 S1 S2 HO]
  · iapply (part15_run c 𝒱₀ i arg3 harg3 q ai wm hai x3 f Wp14 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r15 ⟨%hr15, HS, HM, HC, S0, S1, S2, S3, S4, S5, S6, S7, S8, %Wp15, HO⟩
  obtain ⟨r15a, r15b, r15c⟩ := r15
  dsimp only at hr15 ⊢
  have hwcur := hr15
  clear hr15
  iapply wp_bind_i
  iapply (wp_wand_r frame _ Set.univ)
  isplitl [HS HM HC S0 S1 S2 S3 S4 S5 S6 S7 S8 HO]
  · iapply (part16_run c 𝒱₀ i arg3 harg3 q ai wm hai x3 f Wp15 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r16 ⟨%hr16, HS, HM, HC, S0, S1, S2, S3, S4, S5, S6, S7, S8, S9, S10, S11, S12, S13, S14, %Wp16, HO⟩
  obtain ⟨r16a, r16b, r16c⟩ := r16
  dsimp only at hr16 ⊢
  have hwcur := hr16
  clear hr16
  iapply wp_bind_i
  iapply (wp_wand_r frame _ Set.univ)
  isplitl [HS HM HC S0 S1 S2 S3 S4 S5 S6 S7 S8 S9 S10 S11 S12 S13 S14 HO]
  · iapply (part17_run c 𝒱₀ i arg3 harg3 q ai wm hai x3 f Wp16 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r17 ⟨%hr17, HS, HM, HC, S5, S6, S7, S8, S9, S10, S11, S12, S13, S14, S15, %Wp17, HO⟩
  obtain ⟨r17a, r17b, r17c⟩ := r17
  dsimp only at hr17 ⊢
  have hwcur := hr17
  clear hr17
  iapply wp_bind_i
  iapply (wp_wand_r frame _ Set.univ)
  isplitl [HS HM HC S5 S6 S7 S8 S9 S10 S11 S12 S13 S14 S15 HO]
  · iapply (part18_run c 𝒱₀ i arg3 harg3 q ai wm hai x3 f Wp17 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r18 ⟨%hr18, HS, HM, HC, S11, S12, S13, S14, S15, %Wp18, HO⟩
  obtain ⟨r18a, r18b, r18c⟩ := r18
  dsimp only at hr18 ⊢
  have hwcur := hr18
  clear hr18
  iapply wp_bind_i
  iapply (wp_wand_r frame _ Set.univ)
  isplitl [HS HM HC S11 S12 S13 S14 S15 HO]
  · iapply (part19_run c 𝒱₀ i arg3 harg3 q ai wm hai x3 f Wp18 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r19 ⟨%hr19, HS, HM, HC, S0, %Wp19, HO⟩
  obtain ⟨r19a, r19b, r19c⟩ := r19
  dsimp only at hr19 ⊢
  have hwcur := hr19
  clear hr19
  iapply wp_bind_i
  iapply (wp_wand_r frame _ Set.univ)
  isplitl [HS HM HC S0 HO]
  · iapply (part20_run c 𝒱₀ i arg3 harg3 q ai wm hai x3 f Wp19 _ _ _ hwcur _) $$ [HS HM HC S0 HO]
    isplitl [HS]; · iexact HS
    isplitl [HM]; · iexact HM
    isplitl [HC]; · iexact HC
    isplitl [S0]; · iexact S0
    iexact HO
  iintro %r20 ⟨%hr20, HS, HM, HC, S0, S1, S2, S3, S4, S5, S6, %Wp20, HO⟩
  obtain ⟨r20a, r20b, r20c⟩ := r20
  dsimp only at hr20 ⊢
  have hwcur := hr20
  clear hr20
  iapply wp_bind_i
  iapply (wp_wand_r frame _ Set.univ)
  isplitl [HS HM HC S0 S1 S2 S3 S4 S5 S6 HO]
  · iapply (part21_run c 𝒱₀ i arg3 harg3 q ai wm hai x3 f Wp20 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r21 ⟨%hr21, HS, HM, HC, S0, S1, S2, S3, S4, S5, S6, S7, S8, S9, S10, S11, S12, %Wp21, HO⟩
  obtain ⟨r21a, r21b, r21c⟩ := r21
  dsimp only at hr21 ⊢
  have hwcur := hr21
  clear hr21
  iapply wp_bind_i
  iapply (wp_wand_r frame _ Set.univ)
  isplitl [HS HM HC S0 S1 S2 S3 S4 S5 S6 S7 S8 S9 S10 S11 S12 HO]
  · iapply (part22_run c 𝒱₀ i arg3 harg3 q ai wm hai x3 f Wp21 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r22 ⟨%hr22, HS, HM, HC, S3, S4, S5, S6, S7, S8, S9, S10, S11, S12, S13, S14, S15, %Wp22, HO⟩
  obtain ⟨r22a, r22b, r22c⟩ := r22
  dsimp only at hr22 ⊢
  have hwcur := hr22
  clear hr22
  iapply wp_bind_i
  iapply (wp_wand_r frame _ Set.univ)
  isplitl [HS HM HC S3 S4 S5 S6 S7 S8 S9 S10 S11 S12 S13 S14 S15 HO]
  · iapply (part23_run c 𝒱₀ i arg3 harg3 q ai wm hai x3 f Wp22 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r23 ⟨%hr23, HS, HM, HC, S9, S10, S11, S12, S13, S14, S15, %Wp23, HO⟩
  obtain ⟨r23a, r23b, r23c⟩ := r23
  dsimp only at hr23 ⊢
  have hwcur := hr23
  clear hr23
  iapply wp_bind_i
  iapply (wp_wand_r frame _ Set.univ)
  isplitl [HS HM HC S9 S10 S11 S12 S13 S14 S15 HO]
  · iapply (part24_run c 𝒱₀ i arg3 harg3 q ai wm hai x3 f Wp23 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r24 ⟨%hr24, HS, HM, HC, S15, %Wp24, HO⟩
  obtain ⟨r24a, r24b, r24c⟩ := r24
  dsimp only at hr24 ⊢
  have hwcur := hr24
  clear hr24
  iapply wp_bind_i
  iapply (wp_wand_r frame _ Set.univ)
  isplitl [HS HM HC S15 HO]
  · iapply (part25_run c 𝒱₀ i arg3 harg3 q ai wm hai x3 f Wp24 _ _ _ hwcur _) $$ [HS HM HC S15 HO]
    isplitl [HS]; · iexact HS
    isplitl [HM]; · iexact HM
    isplitl [HC]; · iexact HC
    isplitl [S15]; · iexact S15
    iexact HO
  iintro %r25 ⟨%hr25, HS, HM, HC, S0, S1, S2, S3, S4, %Wp25, HO⟩
  obtain ⟨r25a, r25b, r25c⟩ := r25
  dsimp only at hr25 ⊢
  have hwcur := hr25
  clear hr25
  iapply wp_bind_i
  iapply (wp_wand_r frame _ Set.univ)
  isplitl [HS HM HC S0 S1 S2 S3 S4 HO]
  · iapply (part26_run c 𝒱₀ i arg3 harg3 q ai wm hai x3 f Wp25 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r26 ⟨%hr26, HS, HM, HC, S0, S1, S2, S3, S4, S5, S6, S7, S8, S9, S10, %Wp26, HO⟩
  obtain ⟨r26a, r26b, r26c⟩ := r26
  dsimp only at hr26 ⊢
  have hwcur := hr26
  clear hr26
  iapply wp_bind_i
  iapply (wp_wand_r frame _ Set.univ)
  isplitl [HS HM HC S0 S1 S2 S3 S4 S5 S6 S7 S8 S9 S10 HO]
  · iapply (part27_run c 𝒱₀ i arg3 harg3 q ai wm hai x3 f Wp26 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r27 ⟨%hr27, HS, HM, HC, S1, S2, S3, S4, S5, S6, S7, S8, S9, S10, S11, S12, S13, S14, S15, %Wp27, HO⟩
  obtain ⟨r27a, r27b, r27c⟩ := r27
  dsimp only at hr27 ⊢
  have hwcur := hr27
  clear hr27
  iapply wp_bind_i
  iapply (wp_wand_r frame _ Set.univ)
  isplitl [HS HM HC S1 S2 S3 S4 S5 S6 S7 S8 S9 S10 S11 S12 S13 S14 S15 HO]
  · iapply (part28_run c 𝒱₀ i arg3 harg3 q ai wm hai x3 f Wp27 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r28 ⟨%hr28, HS, HM, HC, S7, S8, S9, S10, S11, S12, S13, S14, S15, %Wp28, HO⟩
  obtain ⟨r28a, r28b, r28c⟩ := r28
  dsimp only at hr28 ⊢
  have hwcur := hr28
  clear hr28
  iapply wp_bind_i
  iapply (wp_wand_r frame _ Set.univ)
  isplitl [HS HM HC S7 S8 S9 S10 S11 S12 S13 S14 S15 HO]
  · iapply (part29_run c 𝒱₀ i arg3 harg3 q ai wm hai x3 f Wp28 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r29 ⟨%hr29, HS, HM, HC, S13, S14, S15, %Wp29, HO⟩
  obtain ⟨r29a, r29b, r29c⟩ := r29
  dsimp only at hr29 ⊢
  have hwcur := hr29
  clear hr29
  iapply wp_bind_i
  iapply (wp_wand_r frame _ Set.univ)
  isplitl [HS HM HC S13 S14 S15 HO]
  · iapply (part30_run c 𝒱₀ i arg3 harg3 q ai wm hai x3 f Wp29 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r30 ⟨%hr30, HS, HM, HC, S0, S1, S2, %Wp30, HO⟩
  obtain ⟨r30a, r30b, r30c⟩ := r30
  dsimp only at hr30 ⊢
  have hwcur := hr30
  clear hr30
  iapply wp_bind_i
  iapply (wp_wand_r frame _ Set.univ)
  isplitl [HS HM HC S0 S1 S2 HO]
  · iapply (part31_run c 𝒱₀ i arg3 harg3 q ai wm hai x3 f Wp30 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r31 ⟨%hr31, HS, HM, HC, S0, S1, S2, S3, S4, S5, S6, S7, S8, %Wp31, HO⟩
  obtain ⟨r31a, r31b, r31c⟩ := r31
  dsimp only at hr31 ⊢
  have hwcur := hr31
  clear hr31
  iapply wp_bind_i
  iapply (wp_wand_r frame _ Set.univ)
  isplitl [HS HM HC S0 S1 S2 S3 S4 S5 S6 S7 S8 HO]
  · iapply (part32_run c 𝒱₀ i arg3 harg3 q ai wm hai x3 f Wp31 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r32 ⟨%hr32, HS, HM, HC, S0, S1, S2, S3, S4, S5, S6, S7, S8, S9, S10, S11, S12, S13, S14, %Wp32, HO⟩
  obtain ⟨r32a, r32b, r32c⟩ := r32
  dsimp only at hr32 ⊢
  have hwcur := hr32
  clear hr32
  iapply wp_bind_i
  iapply (wp_wand_r frame _ Set.univ)
  isplitl [HS HM HC S0 S1 S2 S3 S4 S5 S6 S7 S8 S9 S10 S11 S12 S13 S14 HO]
  · iapply (part33_run c 𝒱₀ i arg3 harg3 q ai wm hai x3 f Wp32 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r33 ⟨%hr33, HS, HM, HC, S5, S6, S7, S8, S9, S10, S11, S12, S13, S14, S15, %Wp33, HO⟩
  obtain ⟨r33a, r33b, r33c⟩ := r33
  dsimp only at hr33 ⊢
  have hwcur := hr33
  clear hr33
  iapply wp_bind_i
  iapply (wp_wand_r frame _ Set.univ)
  isplitl [HS HM HC S5 S6 S7 S8 S9 S10 S11 S12 S13 S14 S15 HO]
  · iapply (part34_run c 𝒱₀ i arg3 harg3 q ai wm hai x3 f Wp33 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r34 ⟨%hr34, HS, HM, HC, S11, S12, S13, S14, S15, %Wp34, HO⟩
  obtain ⟨r34a, r34b, r34c⟩ := r34
  dsimp only at hr34 ⊢
  have hwcur := hr34
  clear hr34
  iapply wp_bind_i
  iapply (wp_wand_r frame _ Set.univ)
  isplitl [HS HM HC S11 S12 S13 S14 S15 HO]
  · iapply (part35_run c 𝒱₀ i arg3 harg3 q ai wm hai x3 f Wp34 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r35 ⟨%hr35, HS, HM, HC, S0, %Wp35, HO⟩
  obtain ⟨r35a, r35b, r35c⟩ := r35
  dsimp only at hr35 ⊢
  have hwcur := hr35
  clear hr35
  iapply wp_bind_i
  iapply (wp_wand_r frame _ Set.univ)
  isplitl [HS HM HC S0 HO]
  · iapply (part36_run c 𝒱₀ i arg3 harg3 q ai wm hai x3 f Wp35 _ _ _ hwcur _) $$ [HS HM HC S0 HO]
    isplitl [HS]; · iexact HS
    isplitl [HM]; · iexact HM
    isplitl [HC]; · iexact HC
    isplitl [S0]; · iexact S0
    iexact HO
  iintro %r36 ⟨%hr36, HS, HM, HC, S0, S1, S2, S3, S4, S5, S6, %Wp36, HO⟩
  obtain ⟨r36a, r36b, r36c⟩ := r36
  dsimp only at hr36 ⊢
  have hwcur := hr36
  clear hr36
  iapply wp_bind_i
  iapply (wp_wand_r frame _ Set.univ)
  isplitl [HS HM HC S0 S1 S2 S3 S4 S5 S6 HO]
  · iapply (part37_run c 𝒱₀ i arg3 harg3 q ai wm hai x3 f Wp36 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r37 ⟨%hr37, HS, HM, HC, S0, S1, S2, S3, S4, S5, S6, S7, S8, S9, S10, S11, S12, %Wp37, HO⟩
  obtain ⟨r37a, r37b, r37c⟩ := r37
  dsimp only at hr37 ⊢
  have hwcur := hr37
  clear hr37
  iapply wp_bind_i
  iapply (wp_wand_r frame _ Set.univ)
  isplitl [HS HM HC S0 S1 S2 S3 S4 S5 S6 S7 S8 S9 S10 S11 S12 HO]
  · iapply (part38_run c 𝒱₀ i arg3 harg3 q ai wm hai x3 f Wp37 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r38 ⟨%hr38, HS, HM, HC, S3, S4, S5, S6, S7, S8, S9, S10, S11, S12, S13, S14, S15, %Wp38, HO⟩
  obtain ⟨r38a, r38b, r38c⟩ := r38
  dsimp only at hr38 ⊢
  have hwcur := hr38
  clear hr38
  iapply wp_bind_i
  iapply (wp_wand_r frame _ Set.univ)
  isplitl [HS HM HC S3 S4 S5 S6 S7 S8 S9 S10 S11 S12 S13 S14 S15 HO]
  · iapply (part39_run c 𝒱₀ i arg3 harg3 q ai wm hai x3 f Wp38 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r39 ⟨%hr39, HS, HM, HC, S9, S10, S11, S12, S13, S14, S15, %Wp39, HO⟩
  obtain ⟨r39a, r39b, r39c⟩ := r39
  dsimp only at hr39 ⊢
  have hwcur := hr39
  clear hr39
  iapply wp_bind_i
  iapply (wp_wand_r frame _ Set.univ)
  isplitl [HS HM HC S9 S10 S11 S12 S13 S14 S15 HO]
  · iapply (part40_run c 𝒱₀ i arg3 harg3 q ai wm hai x3 f Wp39 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r40 ⟨%hr40, HS, HM, HC, S15, %Wp40, HO⟩
  obtain ⟨r40a, r40b, r40c⟩ := r40
  dsimp only at hr40 ⊢
  have hwcur := hr40
  clear hr40
  iapply wp_bind_i
  iapply (wp_wand_r frame _ Set.univ)
  isplitl [HS HM HC S15 HO]
  · iapply (part41_run c 𝒱₀ i arg3 harg3 q ai wm hai x3 f Wp40 _ _ _ hwcur _) $$ [HS HM HC S15 HO]
    isplitl [HS]; · iexact HS
    isplitl [HM]; · iexact HM
    isplitl [HC]; · iexact HC
    isplitl [S15]; · iexact S15
    iexact HO
  iintro %r41 ⟨%hr41, HS, HM, HC, S0, S1, S2, S3, S4, %Wp41, HO⟩
  obtain ⟨r41a, r41b, r41c⟩ := r41
  dsimp only at hr41 ⊢
  have hwcur := hr41
  clear hr41
  iapply wp_bind_i
  iapply (wp_wand_r frame _ Set.univ)
  isplitl [HS HM HC S0 S1 S2 S3 S4 HO]
  · iapply (part42_run c 𝒱₀ i arg3 harg3 q ai wm hai x3 f Wp41 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r42 ⟨%hr42, HS, HM, HC, S0, S1, S2, S3, S4, S5, S6, S7, S8, S9, S10, %Wp42, HO⟩
  obtain ⟨r42a, r42b, r42c⟩ := r42
  dsimp only at hr42 ⊢
  have hwcur := hr42
  clear hr42
  iapply wp_bind_i
  iapply (wp_wand_r frame _ Set.univ)
  isplitl [HS HM HC S0 S1 S2 S3 S4 S5 S6 S7 S8 S9 S10 HO]
  · iapply (part43_run c 𝒱₀ i arg3 harg3 q ai wm hai x3 f Wp42 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r43 ⟨%hr43, HS, HM, HC, S1, S2, S3, S4, S5, S6, S7, S8, S9, S10, S11, S12, S13, S14, S15, %Wp43, HO⟩
  obtain ⟨r43a, r43b, r43c⟩ := r43
  dsimp only at hr43 ⊢
  have hwcur := hr43
  clear hr43
  iapply wp_bind_i
  iapply (wp_wand_r frame _ Set.univ)
  isplitl [HS HM HC S1 S2 S3 S4 S5 S6 S7 S8 S9 S10 S11 S12 S13 S14 S15 HO]
  · iapply (part44_run c 𝒱₀ i arg3 harg3 q ai wm hai x3 f Wp43 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r44 ⟨%hr44, HS, HM, HC, S7, S8, S9, S10, S11, S12, S13, S14, S15, %Wp44, HO⟩
  obtain ⟨r44a, r44b, r44c⟩ := r44
  dsimp only at hr44 ⊢
  have hwcur := hr44
  clear hr44
  iapply wp_bind_i
  iapply (wp_wand_r frame _ Set.univ)
  isplitl [HS HM HC S7 S8 S9 S10 S11 S12 S13 S14 S15 HO]
  · iapply (part45_run c 𝒱₀ i arg3 harg3 q ai wm hai x3 f Wp44 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r45 ⟨%hr45, HS, HM, HC, S13, S14, S15, %Wp45, HO⟩
  obtain ⟨r45a, r45b, r45c⟩ := r45
  dsimp only at hr45 ⊢
  have hwcur := hr45
  clear hr45
  iapply wp_bind_i
  iapply (wp_wand_r frame _ Set.univ)
  isplitl [HS HM HC S13 S14 S15 HO]
  · iapply (part46_run c 𝒱₀ i arg3 harg3 q ai wm hai x3 f Wp45 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r46 ⟨%hr46, HS, HM, HC, S0, S1, S2, %Wp46, HO⟩
  obtain ⟨r46a, r46b, r46c⟩ := r46
  dsimp only at hr46 ⊢
  have hwcur := hr46
  clear hr46
  iapply wp_bind_i
  iapply (wp_wand_r frame _ Set.univ)
  isplitl [HS HM HC S0 S1 S2 HO]
  · iapply (part47_run c 𝒱₀ i arg3 harg3 q ai wm hai x3 f Wp46 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r47 ⟨%hr47, HS, HM, HC, S0, S1, S2, S3, S4, S5, S6, S7, S8, %Wp47, HO⟩
  obtain ⟨r47a, r47b, r47c⟩ := r47
  dsimp only at hr47 ⊢
  have hwcur := hr47
  clear hr47
  iapply wp_bind_i
  iapply (wp_wand_r frame _ Set.univ)
  isplitl [HS HM HC S0 S1 S2 S3 S4 S5 S6 S7 S8 HO]
  · iapply (part48_run c 𝒱₀ i arg3 harg3 q ai wm hai x3 f Wp47 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r48 ⟨%hr48, HS, HM, HC, S0, S1, S2, S3, S4, S5, S6, S7, S8, S9, S10, S11, S12, S13, S14, %Wp48, HO⟩
  obtain ⟨r48a, r48b, r48c⟩ := r48
  dsimp only at hr48 ⊢
  have hwcur := hr48
  clear hr48
  iapply wp_bind_i
  iapply (wp_wand_r frame _ Set.univ)
  isplitl [HS HM HC S0 S1 S2 S3 S4 S5 S6 S7 S8 S9 S10 S11 S12 S13 S14 HO]
  · iapply (part49_run c 𝒱₀ i arg3 harg3 q ai wm hai x3 f Wp48 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r49 ⟨%hr49, HS, HM, HC, S5, S6, S7, S8, S9, S10, S11, S12, S13, S14, S15, %Wp49, HO⟩
  obtain ⟨r49a, r49b, r49c⟩ := r49
  dsimp only at hr49 ⊢
  have hwcur := hr49
  clear hr49
  iapply wp_bind_i
  iapply (wp_wand_r frame _ Set.univ)
  isplitl [HS HM HC S5 S6 S7 S8 S9 S10 S11 S12 S13 S14 S15 HO]
  · iapply (part50_run c 𝒱₀ i arg3 harg3 q ai wm hai x3 f Wp49 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r50 ⟨%hr50, HS, HM, HC, S11, S12, S13, S14, S15, %Wp50, HO⟩
  obtain ⟨r50a, r50b, r50c⟩ := r50
  dsimp only at hr50 ⊢
  have hwcur := hr50
  clear hr50
  iapply wp_bind_i
  iapply (wp_wand_r frame _ Set.univ)
  isplitl [HS HM HC S11 S12 S13 S14 S15 HO]
  · iapply (part51_run c 𝒱₀ i arg3 harg3 q ai wm hai x3 f Wp50 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r51 ⟨%hr51, HS, HM, HC, S0, %Wp51, HO⟩
  obtain ⟨r51a, r51b, r51c⟩ := r51
  dsimp only at hr51 ⊢
  have hwcur := hr51
  clear hr51
  iapply wp_bind_i
  iapply (wp_wand_r frame _ Set.univ)
  isplitl [HS HM HC S0 HO]
  · iapply (part52_run c 𝒱₀ i arg3 harg3 q ai wm hai x3 f Wp51 _ _ _ hwcur _) $$ [HS HM HC S0 HO]
    isplitl [HS]; · iexact HS
    isplitl [HM]; · iexact HM
    isplitl [HC]; · iexact HC
    isplitl [S0]; · iexact S0
    iexact HO
  iintro %r52 ⟨%hr52, HS, HM, HC, S0, S1, S2, S3, S4, S5, S6, %Wp52, HO⟩
  obtain ⟨r52a, r52b, r52c⟩ := r52
  dsimp only at hr52 ⊢
  have hwcur := hr52
  clear hr52
  iapply wp_bind_i
  iapply (wp_wand_r frame _ Set.univ)
  isplitl [HS HM HC S0 S1 S2 S3 S4 S5 S6 HO]
  · iapply (part53_run c 𝒱₀ i arg3 harg3 q ai wm hai x3 f Wp52 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r53 ⟨%hr53, HS, HM, HC, S0, S1, S2, S3, S4, S5, S6, S7, S8, S9, S10, S11, S12, %Wp53, HO⟩
  obtain ⟨r53a, r53b, r53c⟩ := r53
  dsimp only at hr53 ⊢
  have hwcur := hr53
  clear hr53
  iapply wp_bind_i
  iapply (wp_wand_r frame _ Set.univ)
  isplitl [HS HM HC S0 S1 S2 S3 S4 S5 S6 S7 S8 S9 S10 S11 S12 HO]
  · iapply (part54_run c 𝒱₀ i arg3 harg3 q ai wm hai x3 f Wp53 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r54 ⟨%hr54, HS, HM, HC, S3, S4, S5, S6, S7, S8, S9, S10, S11, S12, S13, S14, S15, %Wp54, HO⟩
  obtain ⟨r54a, r54b, r54c⟩ := r54
  dsimp only at hr54 ⊢
  have hwcur := hr54
  clear hr54
  iapply wp_bind_i
  iapply (wp_wand_r frame _ Set.univ)
  isplitl [HS HM HC S3 S4 S5 S6 S7 S8 S9 S10 S11 S12 S13 S14 S15 HO]
  · iapply (part55_run c 𝒱₀ i arg3 harg3 q ai wm hai x3 f Wp54 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r55 ⟨%hr55, HS, HM, HC, S9, S10, S11, S12, S13, S14, S15, %Wp55, HO⟩
  obtain ⟨r55a, r55b, r55c⟩ := r55
  dsimp only at hr55 ⊢
  have hwcur := hr55
  clear hr55
  iapply wp_bind_i
  iapply (wp_wand_r frame _ Set.univ)
  isplitl [HS HM HC S9 S10 S11 S12 S13 S14 S15 HO]
  · iapply (part56_run c 𝒱₀ i arg3 harg3 q ai wm hai x3 f Wp55 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r56 ⟨%hr56, HS, HM, HC, S15, %Wp56, HO⟩
  obtain ⟨r56a, r56b, r56c⟩ := r56
  dsimp only at hr56 ⊢
  have hwcur := hr56
  clear hr56
  iapply wp_bind_i
  iapply (wp_wand_r frame _ Set.univ)
  isplitl [HS HM HC S15 HO]
  · iapply (part57_run c 𝒱₀ i arg3 harg3 q ai wm hai x3 f Wp56 _ _ _ hwcur _) $$ [HS HM HC S15 HO]
    isplitl [HS]; · iexact HS
    isplitl [HM]; · iexact HM
    isplitl [HC]; · iexact HC
    isplitl [S15]; · iexact S15
    iexact HO
  iintro %r57 ⟨%hr57, HS, HM, HC, S0, S1, S2, S3, S4, %Wp57, HO⟩
  obtain ⟨r57a, r57b, r57c⟩ := r57
  dsimp only at hr57 ⊢
  have hwcur := hr57
  clear hr57
  iapply wp_bind_i
  iapply (wp_wand_r frame _ Set.univ)
  isplitl [HS HM HC S0 S1 S2 S3 S4 HO]
  · iapply (part58_run c 𝒱₀ i arg3 harg3 q ai wm hai x3 f Wp57 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r58 ⟨%hr58, HS, HM, HC, S0, S1, S2, S3, S4, S5, S6, S7, S8, S9, S10, %Wp58, HO⟩
  obtain ⟨r58a, r58b, r58c⟩ := r58
  dsimp only at hr58 ⊢
  have hwcur := hr58
  clear hr58
  iapply wp_bind_i
  iapply (wp_wand_r frame _ Set.univ)
  isplitl [HS HM HC S0 S1 S2 S3 S4 S5 S6 S7 S8 S9 S10 HO]
  · iapply (part59_run c 𝒱₀ i arg3 harg3 q ai wm hai x3 f Wp58 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r59 ⟨%hr59, HS, HM, HC, S1, S2, S3, S4, S5, S6, S7, S8, S9, S10, S11, S12, S13, S14, S15, %Wp59, HO⟩
  obtain ⟨r59a, r59b, r59c⟩ := r59
  dsimp only at hr59 ⊢
  have hwcur := hr59
  clear hr59
  iapply wp_bind_i
  iapply (wp_wand_r frame _ Set.univ)
  isplitl [HS HM HC S1 S2 S3 S4 S5 S6 S7 S8 S9 S10 S11 S12 S13 S14 S15 HO]
  · iapply (part60_run c 𝒱₀ i arg3 harg3 q ai wm hai x3 f Wp59 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r60 ⟨%hr60, HS, HM, HC, S7, S8, S9, S10, S11, S12, S13, S14, S15, %Wp60, HO⟩
  obtain ⟨r60a, r60b, r60c⟩ := r60
  dsimp only at hr60 ⊢
  have hwcur := hr60
  clear hr60
  rw [wp_pure]
  imodintro
  isplitr; · ipureintro; exact hwcur
  isplitl [HS]; · iexact HS
  isplitl [HM]; · iexact HM
  isplitl [HC]; · iexact HC
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO

set_option maxHeartbeats 0 in
/-- The body at grid point i: from all 256 cells pending to all done, the tables, the sixteen semaphores and the core's debts as they were. -/
theorem point_cells (c : Dev nD) (𝒱₀ : Variants) (i : grid0.Coords) (arg3 : Memref sig .tc .vmem S256x1x512 .f32) (harg3 : arg3.IsWhole)
    (q : PosShare TreeShare) (ai wm : S1024.Idx → BitVec 32) (hai : ∀ y, (ai y).toNat < 200)
    (x3 : Buf (Elt F) (View.loc (c : Thread nD τ) arg3.view)) (f : Buf (Elt F) (View.loc (c : Thread nD τ) (Memref.whole main_v0_0).view)) (W : Waits sig Unit) :
    iprop(((c : Thread nD τ).loc main_call0_v12 ↦{q} ai) ∗ ((c : Thread nD τ).loc main_call0_v13 ↦{q} wm)
        ∗ cells c arg3 (Memref.whole main_v0_0) i ai wm hai x3 f 0
        ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide))
        ∗ owes (c : Thread nD τ) 0 W)
      ⊢ wp frame (wpE (defs₀ (F := F)) 𝒱₀ (c : Thread nD τ) none) Set.univ
          (cc0__scatter_kernel i (Memref.whole main_call0_v12) (Memref.isWhole_whole _) (Memref.whole main_call0_v13) (Memref.isWhole_whole _) arg3 harg3 (Memref.whole main_v0_0) (Memref.isWhole_whole _) (Memref.whole main_v0_0) (Memref.isWhole_whole _) cc0_scratch0)
          (fun _ => iprop(((c : Thread nD τ).loc main_call0_v12 ↦{q} ai) ∗ ((c : Thread nD τ).loc main_call0_v13 ↦{q} wm)
            ∗ cells c arg3 (Memref.whole main_v0_0) i ai wm hai x3 f 512
            ∗ semPt c 0 (sem_inb 0 (by decide)) ∗ semPt c 1 (sem_inb 1 (by decide)) ∗ semPt c 2 (sem_inb 2 (by decide)) ∗ semPt c 3 (sem_inb 3 (by decide)) ∗ semPt c 4 (sem_inb 4 (by decide)) ∗ semPt c 5 (sem_inb 5 (by decide)) ∗ semPt c 6 (sem_inb 6 (by decide)) ∗ semPt c 7 (sem_inb 7 (by decide)) ∗ semPt c 8 (sem_inb 8 (by decide)) ∗ semPt c 9 (sem_inb 9 (by decide)) ∗ semPt c 10 (sem_inb 10 (by decide)) ∗ semPt c 11 (sem_inb 11 (by decide)) ∗ semPt c 12 (sem_inb 12 (by decide)) ∗ semPt c 13 (sem_inb 13 (by decide)) ∗ semPt c 14 (sem_inb 14 (by decide)) ∗ semPt c 15 (sem_inb 15 (by decide))
            ∗ ∃ W', owes (c : Thread nD τ) 0 W')) := by
  rw [cc0__scatter_kernel_eq_skeleton]; unfold cc0__scatter_kernel_skel
  iintro ⟨HS, HM, HC, S0, S1, S2, S3, S4, S5, S6, S7, S8, S9, S10, S11, S12, S13, S14, S15, HO⟩
  iapply wp_bind_i
  iapply (wp_wand_r frame _ Set.univ)
  isplitl [HS HM HC S0 S1 S2 S3 S4 S5 S6 S7 S8 S9 S10 S11 S12 S13 S14 S15 HO]
  · iapply (part86_run c 𝒱₀ i arg3 harg3 q ai wm hai x3 f W) $$ [HS HM HC S0 S1 S2 S3 S4 S5 S6 S7 S8 S9 S10 S11 S12 S13 S14 S15 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r86 ⟨%hr86, HS, HM, HC, S7, S8, S9, S10, S11, S12, S13, S14, S15, %Wp86, HO⟩
  obtain ⟨r86a, r86b, r86c, r86d⟩ := r86
  dsimp only at hr86 ⊢
  have hwcur := hr86
  clear hr86
  iapply wp_bind_i
  iapply (wp_wand_r frame _ Set.univ)
  isplitl [HS HM HC S7 S8 S9 S10 S11 S12 S13 S14 S15 HO]
  · iapply (part61_run c 𝒱₀ i arg3 harg3 q ai wm hai x3 f Wp86 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r61 ⟨%hr61, HS, HM, HC, S13, S14, S15, %Wp61, HO⟩
  obtain ⟨r61a, r61b, r61c⟩ := r61
  dsimp only at hr61 ⊢
  have hwcur := hr61
  clear hr61
  iapply wp_bind_i
  iapply (wp_wand_r frame _ Set.univ)
  isplitl [HS HM HC S13 S14 S15 HO]
  · iapply (part62_run c 𝒱₀ i arg3 harg3 q ai wm hai x3 f Wp61 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r62 ⟨%hr62, HS, HM, HC, S0, S1, S2, %Wp62, HO⟩
  obtain ⟨r62a, r62b, r62c⟩ := r62
  dsimp only at hr62 ⊢
  have hwcur := hr62
  clear hr62
  iapply wp_bind_i
  iapply (wp_wand_r frame _ Set.univ)
  isplitl [HS HM HC S0 S1 S2 HO]
  · iapply (part63_run c 𝒱₀ i arg3 harg3 q ai wm hai x3 f Wp62 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r63 ⟨%hr63, HS, HM, HC, S0, S1, S2, S3, S4, S5, S6, S7, S8, %Wp63, HO⟩
  obtain ⟨r63a, r63b, r63c⟩ := r63
  dsimp only at hr63 ⊢
  have hwcur := hr63
  clear hr63
  iapply wp_bind_i
  iapply (wp_wand_r frame _ Set.univ)
  isplitl [HS HM HC S0 S1 S2 S3 S4 S5 S6 S7 S8 HO]
  · iapply (part64_run c 𝒱₀ i arg3 harg3 q ai wm hai x3 f Wp63 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r64 ⟨%hr64, HS, HM, HC, S0, S1, S2, S3, S4, S5, S6, S7, S8, S9, S10, S11, S12, S13, S14, %Wp64, HO⟩
  obtain ⟨r64a, r64b, r64c⟩ := r64
  dsimp only at hr64 ⊢
  have hwcur := hr64
  clear hr64
  iapply wp_bind_i
  iapply (wp_wand_r frame _ Set.univ)
  isplitl [HS HM HC S0 S1 S2 S3 S4 S5 S6 S7 S8 S9 S10 S11 S12 S13 S14 HO]
  · iapply (part65_run c 𝒱₀ i arg3 harg3 q ai wm hai x3 f Wp64 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r65 ⟨%hr65, HS, HM, HC, S5, S6, S7, S8, S9, S10, S11, S12, S13, S14, S15, %Wp65, HO⟩
  obtain ⟨r65a, r65b, r65c⟩ := r65
  dsimp only at hr65 ⊢
  have hwcur := hr65
  clear hr65
  iapply wp_bind_i
  iapply (wp_wand_r frame _ Set.univ)
  isplitl [HS HM HC S5 S6 S7 S8 S9 S10 S11 S12 S13 S14 S15 HO]
  · iapply (part66_run c 𝒱₀ i arg3 harg3 q ai wm hai x3 f Wp65 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r66 ⟨%hr66, HS, HM, HC, S11, S12, S13, S14, S15, %Wp66, HO⟩
  obtain ⟨r66a, r66b, r66c⟩ := r66
  dsimp only at hr66 ⊢
  have hwcur := hr66
  clear hr66
  iapply wp_bind_i
  iapply (wp_wand_r frame _ Set.univ)
  isplitl [HS HM HC S11 S12 S13 S14 S15 HO]
  · iapply (part67_run c 𝒱₀ i arg3 harg3 q ai wm hai x3 f Wp66 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r67 ⟨%hr67, HS, HM, HC, S0, %Wp67, HO⟩
  obtain ⟨r67a, r67b, r67c⟩ := r67
  dsimp only at hr67 ⊢
  have hwcur := hr67
  clear hr67
  iapply wp_bind_i
  iapply (wp_wand_r frame _ Set.univ)
  isplitl [HS HM HC S0 HO]
  · iapply (part68_run c 𝒱₀ i arg3 harg3 q ai wm hai x3 f Wp67 _ _ _ hwcur _) $$ [HS HM HC S0 HO]
    isplitl [HS]; · iexact HS
    isplitl [HM]; · iexact HM
    isplitl [HC]; · iexact HC
    isplitl [S0]; · iexact S0
    iexact HO
  iintro %r68 ⟨%hr68, HS, HM, HC, S0, S1, S2, S3, S4, S5, S6, %Wp68, HO⟩
  obtain ⟨r68a, r68b, r68c⟩ := r68
  dsimp only at hr68 ⊢
  have hwcur := hr68
  clear hr68
  iapply wp_bind_i
  iapply (wp_wand_r frame _ Set.univ)
  isplitl [HS HM HC S0 S1 S2 S3 S4 S5 S6 HO]
  · iapply (part69_run c 𝒱₀ i arg3 harg3 q ai wm hai x3 f Wp68 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r69 ⟨%hr69, HS, HM, HC, S0, S1, S2, S3, S4, S5, S6, S7, S8, S9, S10, S11, S12, %Wp69, HO⟩
  obtain ⟨r69a, r69b, r69c⟩ := r69
  dsimp only at hr69 ⊢
  have hwcur := hr69
  clear hr69
  iapply wp_bind_i
  iapply (wp_wand_r frame _ Set.univ)
  isplitl [HS HM HC S0 S1 S2 S3 S4 S5 S6 S7 S8 S9 S10 S11 S12 HO]
  · iapply (part70_run c 𝒱₀ i arg3 harg3 q ai wm hai x3 f Wp69 _ _ _ hwcur _) $$ [HS HM HC S0 S1 S2 S3 S4 S5 S6 S7 S8 S9 S10 S11 S12 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact HO
  iintro %r70 ⟨%hr70, HS, HM, HC, S3, S4, S5, S6, S7, S8, S9, S10, S11, S12, S13, S14, S15, %Wp70, HO⟩
  obtain ⟨r70a, r70b, r70c⟩ := r70
  dsimp only at hr70 ⊢
  have hwcur := hr70
  clear hr70
  iapply wp_bind_i
  iapply (wp_wand_r frame _ Set.univ)
  isplitl [HS HM HC S3 S4 S5 S6 S7 S8 S9 S10 S11 S12 S13 S14 S15 HO]
  · iapply (part71_run c 𝒱₀ i arg3 harg3 q ai wm hai x3 f Wp70 _ _ _ hwcur _) $$ [HS HM HC S3 S4 S5 S6 S7 S8 S9 S10 S11 S12 S13 S14 S15 HO]
    isplitl [HS]; · iexact HS
    isplitl [HM]; · iexact HM
    isplitl [HC]; · iexact HC
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r71 ⟨%hr71, HS, HM, HC, S9, S10, S11, S12, S13, S14, S15, %Wp71, HO⟩
  obtain ⟨r71a, r71b, r71c⟩ := r71
  dsimp only at hr71 ⊢
  have hwcur := hr71
  clear hr71
  iapply wp_bind_i
  iapply (wp_wand_r frame _ Set.univ)
  isplitl [HS HM HC S9 S10 S11 S12 S13 S14 S15 HO]
  · iapply (part72_run c 𝒱₀ i arg3 harg3 q ai wm hai x3 f Wp71 _ _ _ hwcur _) $$ [HS HM HC S9 S10 S11 S12 S13 S14 S15 HO]
    isplitl [HS]; · iexact HS
    isplitl [HM]; · iexact HM
    isplitl [HC]; · iexact HC
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r72 ⟨%hr72, HS, HM, HC, S15, %Wp72, HO⟩
  obtain ⟨r72a, r72b, r72c⟩ := r72
  dsimp only at hr72 ⊢
  have hwcur := hr72
  clear hr72
  iapply wp_bind_i
  iapply (wp_wand_r frame _ Set.univ)
  isplitl [HS HM HC S15 HO]
  · iapply (part73_run c 𝒱₀ i arg3 harg3 q ai wm hai x3 f Wp72 _ _ _ hwcur _) $$ [HS HM HC S15 HO]
    isplitl [HS]; · iexact HS
    isplitl [HM]; · iexact HM
    isplitl [HC]; · iexact HC
    isplitl [S15]; · iexact S15
    iexact HO
  iintro %r73 ⟨%hr73, HS, HM, HC, S0, S1, S2, S3, S4, %Wp73, HO⟩
  obtain ⟨r73a, r73b, r73c⟩ := r73
  dsimp only at hr73 ⊢
  have hwcur := hr73
  clear hr73
  iapply wp_bind_i
  iapply (wp_wand_r frame _ Set.univ)
  isplitl [HS HM HC S0 S1 S2 S3 S4 HO]
  · iapply (part74_run c 𝒱₀ i arg3 harg3 q ai wm hai x3 f Wp73 _ _ _ hwcur _) $$ [HS HM HC S0 S1 S2 S3 S4 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    iexact HO
  iintro %r74 ⟨%hr74, HS, HM, HC, S0, S1, S2, S3, S4, S5, S6, S7, S8, S9, S10, %Wp74, HO⟩
  obtain ⟨r74a, r74b, r74c⟩ := r74
  dsimp only at hr74 ⊢
  have hwcur := hr74
  clear hr74
  iapply wp_bind_i
  iapply (wp_wand_r frame _ Set.univ)
  isplitl [HS HM HC S0 S1 S2 S3 S4 S5 S6 S7 S8 S9 S10 HO]
  · iapply (part75_run c 𝒱₀ i arg3 harg3 q ai wm hai x3 f Wp74 _ _ _ hwcur _) $$ [HS HM HC S0 S1 S2 S3 S4 S5 S6 S7 S8 S9 S10 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HO
  iintro %r75 ⟨%hr75, HS, HM, HC, S1, S2, S3, S4, S5, S6, S7, S8, S9, S10, S11, S12, S13, S14, S15, %Wp75, HO⟩
  obtain ⟨r75a, r75b, r75c⟩ := r75
  dsimp only at hr75 ⊢
  have hwcur := hr75
  clear hr75
  iapply wp_bind_i
  iapply (wp_wand_r frame _ Set.univ)
  isplitl [HS HM HC S1 S2 S3 S4 S5 S6 S7 S8 S9 S10 S11 S12 S13 S14 S15 HO]
  · iapply (part76_run c 𝒱₀ i arg3 harg3 q ai wm hai x3 f Wp75 _ _ _ hwcur _) $$ [HS HM HC S1 S2 S3 S4 S5 S6 S7 S8 S9 S10 S11 S12 S13 S14 S15 HO]
    isplitl [HS]; · iexact HS
    isplitl [HM]; · iexact HM
    isplitl [HC]; · iexact HC
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r76 ⟨%hr76, HS, HM, HC, S7, S8, S9, S10, S11, S12, S13, S14, S15, %Wp76, HO⟩
  obtain ⟨r76a, r76b, r76c⟩ := r76
  dsimp only at hr76 ⊢
  have hwcur := hr76
  clear hr76
  iapply wp_bind_i
  iapply (wp_wand_r frame _ Set.univ)
  isplitl [HS HM HC S7 S8 S9 S10 S11 S12 S13 S14 S15 HO]
  · iapply (part77_run c 𝒱₀ i arg3 harg3 q ai wm hai x3 f Wp76 _ _ _ hwcur _) $$ [HS HM HC S7 S8 S9 S10 S11 S12 S13 S14 S15 HO]
    isplitl [HS]; · iexact HS
    isplitl [HM]; · iexact HM
    isplitl [HC]; · iexact HC
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r77 ⟨%hr77, HS, HM, HC, S13, S14, S15, %Wp77, HO⟩
  obtain ⟨r77a, r77b, r77c⟩ := r77
  dsimp only at hr77 ⊢
  have hwcur := hr77
  clear hr77
  iapply wp_bind_i
  iapply (wp_wand_r frame _ Set.univ)
  isplitl [HS HM HC S13 S14 S15 HO]
  · iapply (part78_run c 𝒱₀ i arg3 harg3 q ai wm hai x3 f Wp77 _ _ _ hwcur _) $$ [HS HM HC S13 S14 S15 HO]
    isplitl [HS]; · iexact HS
    isplitl [HM]; · iexact HM
    isplitl [HC]; · iexact HC
    isplitl [S13]; · iexact S13
    isplitl [S14]; · iexact S14
    isplitl [S15]; · iexact S15
    iexact HO
  iintro %r78 ⟨%hr78, HS, HM, HC, S0, S1, S2, %Wp78, HO⟩
  obtain ⟨r78a, r78b, r78c⟩ := r78
  dsimp only at hr78 ⊢
  have hwcur := hr78
  clear hr78
  iapply wp_bind_i
  iapply (wp_wand_r frame _ Set.univ)
  isplitl [HS HM HC S0 S1 S2 HO]
  · iapply (part79_run c 𝒱₀ i arg3 harg3 q ai wm hai x3 f Wp78 _ _ _ hwcur _) $$ [HS HM HC S0 S1 S2 HO]
    isplitl [HS]; · iexact HS
    isplitl [HM]; · iexact HM
    isplitl [HC]; · iexact HC
    isplitl [S0]; · iexact S0
    isplitl [S1]; · iexact S1
    isplitl [S2]; · iexact S2
    iexact HO
  iintro %r79 ⟨%hr79, HS, HM, HC, S0, S1, S2, S3, S4, S5, S6, S7, S8, %Wp79, HO⟩
  obtain ⟨r79a, r79b, r79c⟩ := r79
  dsimp only at hr79 ⊢
  have hwcur := hr79
  clear hr79
  iapply wp_bind_i
  iapply (wp_wand_r frame _ Set.univ)
  isplitl [HS HM HC S0 S1 S2 S3 S4 S5 S6 S7 S8 HO]
  · iapply (part80_run c 𝒱₀ i arg3 harg3 q ai wm hai x3 f Wp79 _ _ _ hwcur _) $$ [HS HM HC S0 S1 S2 S3 S4 S5 S6 S7 S8 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  iintro %r80 ⟨%hr80, HS, HM, HC, S0, S1, S2, S3, S4, S5, S6, S7, S8, S9, S10, S11, S12, S13, S14, %Wp80, HO⟩
  obtain ⟨r80a, r80b, r80c⟩ := r80
  dsimp only at hr80 ⊢
  have hwcur := hr80
  clear hr80
  iapply wp_bind_i
  iapply (wp_wand_r frame _ Set.univ)
  isplitl [HS HM HC S0 S1 S2 S3 S4 S5 S6 S7 S8 S9 S10 S11 S12 S13 S14 HO]
  · iapply (part81_run c 𝒱₀ i arg3 harg3 q ai wm hai x3 f Wp80 _ _ _ hwcur _) $$ [HS HM HC S0 S1 S2 S3 S4 S5 S6 S7 S8 S9 S10 S11 S12 S13 S14 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact HO
  iintro %r81 ⟨%hr81, HS, HM, HC, S5, S6, S7, S8, S9, S10, S11, S12, S13, S14, S15, %Wp81, HO⟩
  obtain ⟨r81a, r81b, r81c⟩ := r81
  dsimp only at hr81 ⊢
  have hwcur := hr81
  clear hr81
  iapply wp_bind_i
  iapply (wp_wand_r frame _ Set.univ)
  isplitl [HS HM HC S5 S6 S7 S8 S9 S10 S11 S12 S13 S14 S15 HO]
  · iapply (part82_run c 𝒱₀ i arg3 harg3 q ai wm hai x3 f Wp81 _ _ _ hwcur _) $$ [HS HM HC S5 S6 S7 S8 S9 S10 S11 S12 S13 S14 S15 HO]
    isplitl [HS]; · iexact HS
    isplitl [HM]; · iexact HM
    isplitl [HC]; · iexact HC
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HO
  iintro %r82 ⟨%hr82, HS, HM, HC, S11, S12, S13, S14, S15, %Wp82, HO⟩
  obtain ⟨r82a, r82b, r82c⟩ := r82
  dsimp only at hr82 ⊢
  have hwcur := hr82
  clear hr82
  iapply wp_bind_i
  iapply (wp_wand_r frame _ Set.univ)
  isplitl [HS HM HC S11 S12 S13 S14 S15 HO]
  · iapply (part83_run c 𝒱₀ i arg3 harg3 q ai wm hai x3 f Wp82 _ _ _ hwcur _) $$ [HS HM HC S11 S12 S13 S14 S15 HO]
    isplitl [HS]; · iexact HS
    isplitl [HM]; · iexact HM
    isplitl [HC]; · iexact HC
    isplitl [S11]; · iexact S11
    isplitl [S12]; · iexact S12
    isplitl [S13]; · iexact S13
    isplitl [S14]; · iexact S14
    isplitl [S15]; · iexact S15
    iexact HO
  iintro %r83 ⟨%hr83, HS, HM, HC, S0, %Wp83, HO⟩
  obtain ⟨r83a, r83b, r83c⟩ := r83
  dsimp only at hr83 ⊢
  have hwcur := hr83
  clear hr83
  iapply wp_bind_i
  iapply (wp_wand_r frame _ Set.univ)
  isplitl [HS HM HC S0 HO]
  · iapply (part84_run c 𝒱₀ i arg3 harg3 q ai wm hai x3 f Wp83 _ _ _ hwcur _) $$ [HS HM HC S0 HO]
    isplitl [HS]; · iexact HS
    isplitl [HM]; · iexact HM
    isplitl [HC]; · iexact HC
    isplitl [S0]; · iexact S0
    iexact HO
  iintro %r84 ⟨%hr84, HS, HM, HC, S0, S1, S2, S3, S4, S5, S6, %Wp84, HO⟩
  obtain ⟨r84a, r84b, r84c⟩ := r84
  dsimp only at hr84 ⊢
  have hwcur := hr84
  clear hr84
  iapply wp_bind_i
  iapply (wp_wand_r frame _ Set.univ)
  isplitl [HS HM HC S0 S1 S2 S3 S4 S5 S6 HO]
  · iapply (part85_run c 𝒱₀ i arg3 harg3 q ai wm hai x3 f Wp84 _ _ _ hwcur _) $$ [HS HM HC S0 S1 S2 S3 S4 S5 S6 HO]
    isplitl [HS]; · iexact HS
    isplitl [HM]; · iexact HM
    isplitl [HC]; · iexact HC
    isplitl [S0]; · iexact S0
    isplitl [S1]; · iexact S1
    isplitl [S2]; · iexact S2
    isplitl [S3]; · iexact S3
    isplitl [S4]; · iexact S4
    isplitl [S5]; · iexact S5
    isplitl [S6]; · iexact S6
    iexact HO
  iintro %r85 ⟨%hr85, HS, HM, HC, S0, S1, S2, S3, S4, S5, S6, S7, S8, S9, S10, S11, S12, %Wp85, HO⟩
  obtain ⟨r85a, r85b, r85c⟩ := r85
  dsimp only at hr85 ⊢
  have hwcur := hr85
  clear hr85
  have hl253 : (253 : ℕ) < 256 := by decide
  have hl254 : (254 : ℕ) < 256 := by decide
  have hl255 : (255 : ℕ) < 256 := by decide
  have hj13 : (13 : ℕ) < 16 := by decide
  have hj14 : (14 : ℕ) < 16 := by decide
  have hj15 : (15 : ℕ) < 16 := by decide
  have hw510 := hwcur
  have hp510 : stateAt 509 ⟨253, hl253⟩ = St.started := show stateAt 509 ⟨253, (by decide : (253 : ℕ) < 256)⟩ = St.started from by decide
  have hn510 : ∀ l : Fin 256, stateAt 510 l = Function.update (stateAt 509) ⟨253, hl253⟩ St.done l := show ∀ l : Fin 256, stateAt 510 l = Function.update (stateAt 509) ⟨253, (by decide : (253 : ℕ) < 256)⟩ St.done l from by decide
  iapply (wait_fam c 𝒱₀ arg3 (Memref.whole main_v0_0) i q ai wm hai x3 f 509 253 13 hl253 hj13 rfl hp510 hn510 _ hw510 (k0_off1529 i) rfl (k0_off1529_inb i) k0_cond510 (fun _ => rfl) (k0_chk510 i) (k0_chk510.dec i) (k0_off1530 i) (fun _ => rfl) (fun _ _ h => h) (k0_off1530_inb i) ((View.wordExact_bits rfl).reshape _ _) (fun _ _ => (View.wordExact_bits rfl).reshape _ _) _ _ Wp85) $$ [HS HM HC HO]
  · isplitl [HS]; · iexact HS
    isplitl [HM]; · iexact HM
    isplitl [HC]; · iexact HC
    iexact HO
  iintro ⟨HS, HM, HC, S13, %W510, HO⟩
  iapply (loadMask_wp c 𝒱₀ i 254 hl254 q wm rfl) $$ HM
  iintro HM %w511 %hw511
  have hp511 : stateAt 510 ⟨254, hl254⟩ = St.started := show stateAt 510 ⟨254, (by decide : (254 : ℕ) < 256)⟩ = St.started from by decide
  have hn511 : ∀ l : Fin 256, stateAt 511 l = Function.update (stateAt 510) ⟨254, hl254⟩ St.done l := show ∀ l : Fin 256, stateAt 511 l = Function.update (stateAt 510) ⟨254, (by decide : (254 : ℕ) < 256)⟩ St.done l from by decide
  iapply (wait_fam c 𝒱₀ arg3 (Memref.whole main_v0_0) i q ai wm hai x3 f 510 254 14 hl254 hj14 rfl hp511 hn511 w511 hw511 (k0_off1532 i) rfl (k0_off1532_inb i) k0_cond511 (fun _ => rfl) (k0_chk511 i) (k0_chk511.dec i) (k0_off1533 i) (fun _ => rfl) (fun _ _ h => h) (k0_off1533_inb i) ((View.wordExact_bits rfl).reshape _ _) (fun _ _ => (View.wordExact_bits rfl).reshape _ _) _ _ W510) $$ [HS HM HC HO]
  · isplitl [HS]; · iexact HS
    isplitl [HM]; · iexact HM
    isplitl [HC]; · iexact HC
    iexact HO
  iintro ⟨HS, HM, HC, S14, %W511, HO⟩
  iapply (loadMask_wp c 𝒱₀ i 255 hl255 q wm rfl) $$ HM
  iintro HM %w512 %hw512
  have hp512 : stateAt 511 ⟨255, hl255⟩ = St.started := show stateAt 511 ⟨255, (by decide : (255 : ℕ) < 256)⟩ = St.started from by decide
  have hn512 : ∀ l : Fin 256, stateAt 512 l = Function.update (stateAt 511) ⟨255, hl255⟩ St.done l := show ∀ l : Fin 256, stateAt 512 l = Function.update (stateAt 511) ⟨255, (by decide : (255 : ℕ) < 256)⟩ St.done l from by decide
  iapply (wait_fam c 𝒱₀ arg3 (Memref.whole main_v0_0) i q ai wm hai x3 f 511 255 15 hl255 hj15 rfl hp512 hn512 w512 hw512 (k0_off1535 i) rfl (k0_off1535_inb i) k0_cond512 (fun _ => rfl) (k0_chk512 i) (k0_chk512.dec i) (k0_off1536 i) (fun _ => rfl) (fun _ _ h => h) (k0_off1536_inb i) ((View.wordExact_bits rfl).reshape _ _) (fun _ _ => (View.wordExact_bits rfl).reshape _ _) _ _ W511) $$ [HS HM HC HO]
  · isplitl [HS]; · iexact HS
    isplitl [HM]; · iexact HM
    isplitl [HC]; · iexact HC
    iexact HO
  iintro ⟨HS, HM, HC, S15, %W512, HO⟩
  rw [wp_pure]
  imodintro
  isplitl [HS]; · iexact HS
  isplitl [HM]; · iexact HM
  isplitl [HC]; · iexact HC
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iexists _; iexact HO
end Cert.Kernel.Cells

end
-- ==== Proof.lean ====
/-
  The episodic-memory update as a row scatter. Env e accepts its observation when its similarity exceeds one half;
  the slot it writes is the random slot when its bank of 200 is full, else the last counted one. The kernel copies
  each accepting env's 512 features into that one row of a copy of the bank, by one transfer per env, sixteen in
  flight at a time; the reference gathers the old rows, selects, and scatters them back. No arithmetic is done on the
  features, so both results are the same selection of entries of the bank and of the observations
  (`Cert.Scatter.updated`), and the counts are the same integer expression. The slots are in range because the counts
  lie in [0, 200] and the random slots in [0, 200), which the precondition states.

  The kernel's run is taken one env at a time: an env's slab of the bank, its staged row and its semaphore are touched
  by that env's two steps alone, so each of the body's 512 guarded steps is a fact about one cell, and a grid point's
  result is the bank with each accepting env's row replaced. Four grid points cover the 1024 envs.
-/
import proofs.«427608_j71184787964323_3_alg».proof.Proof.Claims
import proofs.«427608_j71184787964323_3_alg».proof.Proof.PointRunIdeal
import proofs.«427608_j71184787964323_3_alg».proof.Proof.PointIdeal
import proofs.«427608_j71184787964323_3_alg».proof.Proof.PointRunBits
import proofs.«427608_j71184787964323_3_alg».proof.Proof.PointBits

noncomputable section

namespace Cert.Proof

open Idealize.ShloMosaic

/-- Every claim of the certificate, from the per-point run of the body at the word level and at the ideal instance. -/
theorem claim : Cert.Claim :=
  Cert.Proof.Claims.claim_of_cells
    ⟨_, Cert.Kernel.Cells.pointRun_of_cells Cert.Kernel.Cells.point_cells Variants.none⟩
    (Cert.KernelIdeal.Cells.pointRun_of_cells Cert.KernelIdeal.Cells.point_cells Variants.none)

end Cert.Proof

end
